-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v402)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v402) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v718) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x22 : Shape := ⟨2, ![50000, 22]⟩
abbrev S2x640000 : Shape := ⟨2, ![2, 640000]⟩
abbrev S640000 : Shape := ⟨1, ![640000]⟩
abbrev S2x1024 : Shape := ⟨2, ![2, 1024]⟩
abbrev S18x4 : Shape := ⟨2, ![18, 4]⟩
abbrev S4 : Shape := ⟨1, ![4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S64x128 : Shape := ⟨2, ![64, 128]⟩
abbrev S8x64x64 : Shape := ⟨3, ![8, 64, 64]⟩
abbrev S8x64 : Shape := ⟨2, ![8, 64]⟩
abbrev S32x64 : Shape := ⟨2, ![32, 64]⟩
abbrev S32 : Shape := ⟨1, ![32]⟩
abbrev S32x1 : Shape := ⟨2, ![32, 1]⟩
abbrev S_ : Shape := ⟨0, ![]⟩

class Facts : Prop where
  bcast_S_S50000x22 : S_.BroadcastsInDim S50000x22 (![] : Fin 0 → Fin S50000x22.rank)
  reducesTo_S50000x22_S_d0_1 : S50000x22.ReducesTo [0, 1] S_
  h_S_ : 0 < S_.numel
  bcast_S_S640000 : S_.BroadcastsInDim S640000 (![] : Fin 0 → Fin S640000.rank)
  reducesTo_S640000_S_d0 : S640000.ReducesTo [0] S_
  bcast_S_S18x4 : S_.BroadcastsInDim S18x4 (![] : Fin 0 → Fin S18x4.rank)
  reducesTo_S18x4_S_d0_1 : S18x4.ReducesTo [0, 1] S_
  bcast_S_S4 : S_.BroadcastsInDim S4 (![] : Fin 0 → Fin S4.rank)
  reducesTo_S4_S_d0 : S4.ReducesTo [0] S_
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S8x64x64 : S_.BroadcastsInDim S8x64x64 (![] : Fin 0 → Fin S8x64x64.rank)
  reducesTo_S8x64x64_S_d0_1_2 : S8x64x64.ReducesTo [0, 1, 2] S_
  bcast_S_S8x64 : S_.BroadcastsInDim S8x64 (![] : Fin 0 → Fin S8x64.rank)
  reducesTo_S8x64_S_d0_1 : S8x64.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_

variable [Facts]

def fn_part7 {F : FTy → Type} [FloatOps F] (main_v118 : IVec S_ 1) (main_v119 : FVec F S32x1 .f32) : IVec S_ 1 :=
  let main_cst_46 : FVec F S_ .f32 := constant S_ .f32 0x7F800000#32
  let main_v120 : FVec F S32x1 .f32 := broadcastInDim S32x1 ![] bcast_S_S32x1 main_cst_46
  let main_v121 : IVec S32x1 1 := cmpf .olt main_v119 main_v120
  let main_c_47 : IVec S_ 1 := constantI S_ 1 1#1
  let main_v122 : IVec S_ 1 := (fun x v => Host.reduce IntOp.andi x v reducesTo_S32x1_S_d0_1 h_S_) main_v121 main_c_47
  let main_v123 : IVec S_ 1 := andi main_v118 main_v122
  main_v123

def fn_part6 {F : FTy → Type} [FloatOps F] (main_arg23 : FVec F S8x64 .f32) (main_arg24 : FVec F S32 .f32) (main_arg25 : FVec F S32 .f32) (main_arg26 : FVec F S32x1 .f32) (main_v98 : IVec S_ 1) (main_v101 : IVec S8x64 1) (main_c_39 : IVec S_ 1) : IVec S_ 1 :=
  let main_v102 : IVec S_ 1 := (fun x v => Host.reduce IntOp.andi x v reducesTo_S8x64_S_d0_1 h_S_) main_v101 main_c_39
  let main_v103 : IVec S_ 1 := andi main_v98 main_v102
  let main_v104 : FVec F S8x64 .f32 := Host.absf main_arg23
  let main_cst_40 : FVec F S_ .f32 := constant S_ .f32 0x7F800000#32
  let main_v105 : FVec F S8x64 .f32 := broadcastInDim S8x64 ![] bcast_S_S8x64 main_cst_40
  let main_v106 : IVec S8x64 1 := cmpf .olt main_v104 main_v105
  let main_c_41 : IVec S_ 1 := constantI S_ 1 1#1
  let main_v107 : IVec S_ 1 := (fun x v => Host.reduce IntOp.andi x v reducesTo_S8x64_S_d0_1 h_S_) main_v106 main_c_41
  let main_v108 : IVec S_ 1 := andi main_v103 main_v107
  let main_v109 : FVec F S32 .f32 := Host.absf main_arg24
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32 .f32 := Host.absf main_arg25
  let main_cst_44 : FVec F S_ .f32 := constant S_ .f32 0x7F800000#32
  let main_v115 : FVec F S32 .f32 := broadcastInDim S32 ![] bcast_S_S32 main_cst_44
  let main_v116 : IVec S32 1 := cmpf .olt main_v114 main_v115
  let main_c_45 : IVec S_ 1 := constantI S_ 1 1#1
  let main_v117 : IVec S_ 1 := (fun x v => Host.reduce IntOp.andi x v reducesTo_S32_S_d0 h_S_) main_v116 main_c_45
  let main_v118 : IVec S_ 1 := andi main_v113 main_v117
  let main_v119 : FVec F S32x1 .f32 := Host.absf main_arg26
  fn_part7 (F := F) main_v118 main_v119

def fn_part5 {F : FTy → Type} [FloatOps F] (main_arg20 : FVec F S64 .f32) (main_arg21 : FVec F S64 .f32) (main_arg22 : FVec F S8x64 .f32) (main_arg23 : FVec F S8x64 .f32) (main_arg24 : FVec F S32 .f32) (main_arg25 : FVec F S32 .f32) (main_arg26 : FVec F S32x1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S8x64 .f32 := Host.absf main_arg22
  let main_cst_38 : FVec F S_ .f32 := constant S_ .f32 0x7F800000#32
  let main_v100 : FVec F S8x64 .f32 := broadcastInDim S8x64 ![] bcast_S_S8x64 main_cst_38
  let main_v101 : IVec S8x64 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S64 .f32) (main_arg17 : FVec F S64 .f32) (main_arg18 : FVec F S128 .f32) (main_arg19 : FVec F S128 .f32) (main_arg20 : FVec F S64 .f32) (main_arg21 : FVec F S64 .f32) (main_arg22 : FVec F S8x64 .f32) (main_arg23 : FVec F S8x64 .f32) (main_arg24 : FVec F S32 .f32) (main_arg25 : FVec F S32 .f32) (main_arg26 : FVec F S32x1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S8x64 .f32) (main_arg14 : FVec F S32x64 .f32) (main_arg15 : FVec F S32 .f32) (main_arg16 : FVec F S64 .f32) (main_arg17 : FVec F S64 .f32) (main_arg18 : FVec F S128 .f32) (main_arg19 : FVec F S128 .f32) (main_arg20 : FVec F S64 .f32) (main_arg21 : FVec F S64 .f32) (main_arg22 : FVec F S8x64 .f32) (main_arg23 : FVec F S8x64 .f32) (main_arg24 : FVec F S32 .f32) (main_arg25 : FVec F S32 .f32) (main_arg26 : FVec F S32x1 .f32) (main_v48 : IVec S_ 1) (main_v49 : FVec F S8x64x64 .f32) (main_v50 : FVec F S8x64x64 .f32) : IVec S_ 1 :=
  let main_v51 : IVec S8x64x64 1 := cmpf .olt main_v49 main_v50
  let main_c_19 : IVec S_ 1 := constantI S_ 1 1#1
  let main_v52 : IVec S_ 1 := (fun x v => Host.reduce IntOp.andi x v reducesTo_S8x64x64_S_d0_1_2 h_S_) main_v51 main_c_19
  let main_v53 : IVec S_ 1 := andi main_v48 main_v52
  let main_v54 : FVec F S8x64 .f32 := Host.absf main_arg13
  let main_cst_20 : FVec F S_ .f32 := constant S_ .f32 0x7F800000#32
  let main_v55 : FVec F S8x64 .f32 := broadcastInDim S8x64 ![] bcast_S_S8x64 main_cst_20
  let main_v56 : IVec S8x64 1 := cmpf .olt main_v54 main_v55
  let main_c_21 : IVec S_ 1 := constantI S_ 1 1#1
  let main_v57 : IVec S_ 1 := (fun x v => Host.reduce IntOp.andi x v reducesTo_S8x64_S_d0_1 h_S_) main_v56 main_c_21
  let main_v58 : IVec S_ 1 := andi main_v53 main_v57
  let main_v59 : FVec F S32x64 .f32 := Host.absf main_arg14
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S128 .f32) (main_arg10 : FVec F S64x128 .f32) (main_arg11 : FVec F S64 .f32) (main_arg12 : FVec F S8x64x64 .f32) (main_arg13 : FVec F S8x64 .f32) (main_arg14 : FVec F S32x64 .f32) (main_arg15 : FVec F S32 .f32) (main_arg16 : FVec F S64 .f32) (main_arg17 : FVec F S64 .f32) (main_arg18 : FVec F S128 .f32) (main_arg19 : FVec F S128 .f32) (main_arg20 : FVec F S64 .f32) (main_arg21 : FVec F S64 .f32) (main_arg22 : FVec F S8x64 .f32) (main_arg23 : FVec F S8x64 .f32) (main_arg24 : FVec F S32 .f32) (main_arg25 : FVec F S32 .f32) (main_arg26 : FVec F S32x1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S8x64x64 .f32 := Host.absf main_arg12
  let main_cst_18 : FVec F S_ .f32 := constant S_ .f32 0x7F800000#32
  let main_v50 : FVec F S8x64x64 .f32 := broadcastInDim S8x64x64 ![] bcast_S_S8x64x64 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S64x4 .f32) (main_arg7 : FVec F S64 .f32) (main_arg8 : FVec F S128x64 .f32) (main_arg9 : FVec F S128 .f32) (main_arg10 : FVec F S64x128 .f32) (main_arg11 : FVec F S64 .f32) (main_arg12 : FVec F S8x64x64 .f32) (main_arg13 : FVec F S8x64 .f32) (main_arg14 : FVec F S32x64 .f32) (main_arg15 : FVec F S32 .f32) (main_arg16 : FVec F S64 .f32) (main_arg17 : FVec F S64 .f32) (main_arg18 : FVec F S128 .f32) (main_arg19 : FVec F S128 .f32) (main_arg20 : FVec F S64 .f32) (main_arg21 : FVec F S64 .f32) (main_arg22 : FVec F S8x64 .f32) (main_arg23 : FVec F S8x64 .f32) (main_arg24 : FVec F S32 .f32) (main_arg25 : FVec F S32 .f32) (main_arg26 : FVec F S32x1 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S64x4 .f32 := Host.absf main_arg6
  let main_cst_6 : FVec F S_ .f32 := constant S_ .f32 0x7F800000#32
  let main_v20 : FVec F S64x4 .f32 := broadcastInDim S64x4 ![] bcast_S_S64x4 main_cst_6
  let main_v21 : IVec S64x4 1 := cmpf .olt main_v19 main_v20
  let main_c_7 : IVec S_ 1 := constantI S_ 1 1#1
  let main_v22 : IVec S_ 1 := (fun x v => Host.reduce IntOp.andi x v reducesTo_S64x4_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S50000x22 .f32) (main_arg1 : IVec S2x640000 32) (main_arg2 : FVec F S640000 .f32) (main_arg3 : IVec S2x1024 32) (main_arg4 : FVec F S18x4 .f32) (main_arg5 : FVec F S4 .f32) (main_arg6 : FVec F S64x4 .f32) (main_arg7 : FVec F S64 .f32) (main_arg8 : FVec F S128x64 .f32) (main_arg9 : FVec F S128 .f32) (main_arg10 : FVec F S64x128 .f32) (main_arg11 : FVec F S64 .f32) (main_arg12 : FVec F S8x64x64 .f32) (main_arg13 : FVec F S8x64 .f32) (main_arg14 : FVec F S32x64 .f32) (main_arg15 : FVec F S32 .f32) (main_arg16 : FVec F S64 .f32) (main_arg17 : FVec F S64 .f32) (main_arg18 : FVec F S128 .f32) (main_arg19 : FVec F S128 .f32) (main_arg20 : FVec F S64 .f32) (main_arg21 : FVec F S64 .f32) (main_arg22 : FVec F S8x64 .f32) (main_arg23 : FVec F S8x64 .f32) (main_arg24 : FVec F S32 .f32) (main_arg25 : FVec F S32 .f32) (main_arg26 : FVec F S32x1 .f32) : IVec S_ 1 :=
  let main_v0 : FVec F S50000x22 .f32 := Host.absf main_arg0
  let main_cst : FVec F S_ .f32 := constant S_ .f32 0x7F800000#32
  let main_v1 : FVec F S50000x22 .f32 := broadcastInDim S50000x22 ![] bcast_S_S50000x22 main_cst
  let main_v2 : IVec S50000x22 1 := cmpf .olt main_v0 main_v1
  let main_c : IVec S_ 1 := constantI S_ 1 1#1
  let main_v3 : IVec S_ 1 := (fun x v => Host.reduce IntOp.andi x v reducesTo_S50000x22_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S18x4 .f32 := Host.absf main_arg4
  let main_cst_2 : FVec F S_ .f32 := constant S_ .f32 0x7F800000#32
  let main_v10 : FVec F S18x4 .f32 := broadcastInDim S18x4 ![] bcast_S_S18x4 main_cst_2
  let main_v11 : IVec S18x4 1 := cmpf .olt main_v9 main_v10
  let main_c_3 : IVec S_ 1 := constantI S_ 1 1#1
  let main_v12 : IVec S_ 1 := (fun x v => Host.reduce IntOp.andi x v reducesTo_S18x4_S_d0_1 h_S_) main_v11 main_c_3
  let main_v13 : IVec S_ 1 := andi main_v8 main_v12
  let main_v14 : FVec F S4 .f32 := Host.absf main_arg5
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S50000x22 : Shape := ⟨2, ![50000, 22]⟩
abbrev S2x640000 : Shape := ⟨2, ![2, 640000]⟩
abbrev S640000 : Shape := ⟨1, ![640000]⟩
abbrev S2x1024 : Shape := ⟨2, ![2, 1024]⟩
abbrev S18x4 : Shape := ⟨2, ![18, 4]⟩
abbrev S4 : Shape := ⟨1, ![4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S64x128 : Shape := ⟨2, ![64, 128]⟩
abbrev S8x64x64 : Shape := ⟨3, ![8, 64, 64]⟩
abbrev S8x64 : Shape := ⟨2, ![8, 64]⟩
abbrev S32x64 : Shape := ⟨2, ![32, 64]⟩
abbrev S32 : Shape := ⟨1, ![32]⟩
abbrev S32x1 : Shape := ⟨2, ![32, 1]⟩
abbrev S1x640000 : Shape := ⟨2, ![1, 640000]⟩
abbrev S50000 : Shape := ⟨1, ![50000]⟩
abbrev S690000 : Shape := ⟨1, ![690000]⟩
abbrev S_ : Shape := ⟨0, ![]⟩
abbrev S690000x1 : Shape := ⟨2, ![690000, 1]⟩
abbrev S50000x4 : Shape := ⟨2, ![50000, 4]⟩
abbrev S50000x18 : Shape := ⟨2, ![50000, 18]⟩
abbrev S1x4 : Shape := ⟨2, ![1, 4]⟩
abbrev S2000x18 : Shape := ⟨2, ![2000, 18]⟩
abbrev S2000x4 : Shape := ⟨2, ![2000, 4]⟩
abbrev S1x64x64 : Shape := ⟨3, ![1, 64, 64]⟩
abbrev S64x64 : Shape := ⟨2, ![64, 64]⟩
abbrev S1x64 : Shape := ⟨2, ![1, 64]⟩
abbrev S4x64 : Shape := ⟨2, ![4, 64]⟩
abbrev S690000x4 : Shape := ⟨2, ![690000, 4]⟩
abbrev S50000x64 : Shape := ⟨2, ![50000, 64]⟩
abbrev S2000x64 : Shape := ⟨2, ![2000, 64]⟩
abbrev S2000 : Shape := ⟨1, ![2000]⟩
abbrev S2000x1 : Shape := ⟨2, ![2000, 1]⟩
abbrev S690000x64 : Shape := ⟨2, ![690000, 64]⟩
abbrev S50000x128 : Shape := ⟨2, ![50000, 128]⟩
abbrev S2000x128 : Shape := ⟨2, ![2000, 128]⟩
abbrev S1x128 : Shape := ⟨2, ![1, 128]⟩
abbrev S64x32 : Shape := ⟨2, ![64, 32]⟩
abbrev S50000x32 : Shape := ⟨2, ![50000, 32]⟩
abbrev S2000x32 : Shape := ⟨2, ![2000, 32]⟩
abbrev S690000x32 : Shape := ⟨2, ![690000, 32]⟩
abbrev S1x32 : Shape := ⟨2, ![1, 32]⟩
abbrev S50000x1 : Shape := ⟨2, ![50000, 1]⟩

abbrev nBuf : Space → Nat
  | .hbm => 522
  | .vmem => 343
  | .smem => 0
  | _ => 0

abbrev hbmTy0_0 (i : Nat) : BufTy := match i % 128 with
  | 0 => ⟨S50000x22, .f32⟩
  | 1 => ⟨S2x640000, .i32⟩
  | 2 => ⟨S640000, .f32⟩
  | 3 => ⟨S2x1024, .i32⟩
  | 4 => ⟨S18x4, .f32⟩
  | 5 => ⟨S4, .f32⟩
  | 6 => ⟨S64x4, .f32⟩
  | 7 => ⟨S64, .f32⟩
  | 8 => ⟨S128x64, .f32⟩
  | 9 => ⟨S128, .f32⟩
  | 10 => ⟨S64x128, .f32⟩
  | 11 => ⟨S64, .f32⟩
  | 12 => ⟨S8x64x64, .f32⟩
  | 13 => ⟨S8x64, .f32⟩
  | 14 => ⟨S32x64, .f32⟩
  | 15 => ⟨S32, .f32⟩
  | 16 => ⟨S64, .f32⟩
  | 17 => ⟨S64, .f32⟩
  | 18 => ⟨S128, .f32⟩
  | 19 => ⟨S128, .f32⟩
  | 20 => ⟨S64, .f32⟩
  | 21 => ⟨S64, .f32⟩
  | 22 => ⟨S8x64, .f32⟩
  | 23 => ⟨S8x64, .f32⟩
  | 24 => ⟨S32, .f32⟩
  | 25 => ⟨S32, .f32⟩
  | 26 => ⟨S32x1, .f32⟩
  | 27 => ⟨S1x640000, .i32⟩
  | 28 => ⟨S640000, .i32⟩
  | 29 => ⟨S1x640000, .i32⟩
  | 30 => ⟨S640000, .i32⟩
  | 31 => ⟨S50000, .i32⟩
  | 32 => ⟨S690000, .i32⟩
  | 33 => ⟨S690000, .i32⟩
  | 34 => ⟨S_, .f32⟩
  | 35 => ⟨S50000, .f32⟩
  | 36 => ⟨S690000, .f32⟩
  | 37 => ⟨S_, .f32⟩
  | 38 => ⟨S50000, .f32⟩
  | 39 => ⟨S690000x1, .i32⟩
  | 40 => ⟨S50000, .f32⟩
  | 41 => ⟨S_, .f32⟩
  | 42 => ⟨S50000, .f32⟩
  | 43 => ⟨S50000, .i1⟩
  | 44 => ⟨S_, .f32⟩
  | 45 => ⟨S50000, .f32⟩
  | 46 => ⟨S50000, .f32⟩
  | 47 => ⟨S50000, .f32⟩
  | 48 => ⟨S_, .f32⟩
  | 49 => ⟨S_, .f32⟩
  | 50 => ⟨S50000, .f32⟩
  | 51 => ⟨S50000, .f32⟩
  | 52 => ⟨S_, .i32⟩
  | 53 => ⟨S690000, .i32⟩
  | 54 => ⟨S690000, .i1⟩
  | 55 => ⟨S_, .i32⟩
  | 56 => ⟨S690000, .i32⟩
  | 57 => ⟨S690000, .i32⟩
  | 58 => ⟨S690000, .i32⟩
  | 59 => ⟨S690000x1, .i32⟩
  | 60 => ⟨S690000, .f32⟩
  | 61 => ⟨S690000, .f32⟩
  | 62 => ⟨S_, .i32⟩
  | 63 => ⟨S690000, .i32⟩
  | 64 => ⟨S690000, .i1⟩
  | 65 => ⟨S_, .i32⟩
  | 66 => ⟨S690000, .i32⟩
  | 67 => ⟨S690000, .i32⟩
  | 68 => ⟨S690000, .i32⟩
  | 69 => ⟨S690000x1, .i32⟩
  | 70 => ⟨S690000, .f32⟩
  | 71 => ⟨S690000, .f32⟩
  | 72 => ⟨S50000x4, .f32⟩
  | 73 => ⟨S50000x18, .f32⟩
  | 74 => ⟨S1x4, .f32⟩
  | 75 => ⟨S50000x4, .f32⟩
  | 76 => ⟨S1x64x64, .f32⟩
  | 77 => ⟨S64x64, .f32⟩
  | 78 => ⟨S1x64, .f32⟩
  | 79 => ⟨S64, .f32⟩
  | 80 => ⟨S1x64x64, .f32⟩
  | 81 => ⟨S64x64, .f32⟩
  | 82 => ⟨S1x64, .f32⟩
  | 83 => ⟨S64, .f32⟩
  | 84 => ⟨S1x64x64, .f32⟩
  | 85 => ⟨S64x64, .f32⟩
  | 86 => ⟨S1x64, .f32⟩
  | 87 => ⟨S64, .f32⟩
  | 88 => ⟨S1x64x64, .f32⟩
  | 89 => ⟨S64x64, .f32⟩
  | 90 => ⟨S1x64, .f32⟩
  | 91 => ⟨S64, .f32⟩
  | 92 => ⟨S1x64x64, .f32⟩
  | 93 => ⟨S64x64, .f32⟩
  | 94 => ⟨S1x64, .f32⟩
  | 95 => ⟨S64, .f32⟩
  | 96 => ⟨S1x64x64, .f32⟩
  | 97 => ⟨S64x64, .f32⟩
  | 98 => ⟨S1x64, .f32⟩
  | 99 => ⟨S64, .f32⟩
  | 100 => ⟨S1x64x64, .f32⟩
  | 101 => ⟨S64x64, .f32⟩
  | 102 => ⟨S1x64, .f32⟩
  | 103 => ⟨S64, .f32⟩
  | 104 => ⟨S1x64x64, .f32⟩
  | 105 => ⟨S64x64, .f32⟩
  | 106 => ⟨S1x64, .f32⟩
  | 107 => ⟨S64, .f32⟩
  | 108 => ⟨S1x64, .f32⟩
  | 109 => ⟨S64, .f32⟩
  | 110 => ⟨S1x64, .f32⟩
  | 111 => ⟨S64, .f32⟩
  | 112 => ⟨S1x64, .f32⟩
  | 113 => ⟨S64, .f32⟩
  | 114 => ⟨S1x64, .f32⟩
  | 115 => ⟨S64, .f32⟩
  | 116 => ⟨S1x64, .f32⟩
  | 117 => ⟨S64, .f32⟩
  | 118 => ⟨S1x64, .f32⟩
  | 119 => ⟨S64, .f32⟩
  | 120 => ⟨S1x64, .f32⟩
  | 121 => ⟨S64, .f32⟩
  | 122 => ⟨S1x64, .f32⟩
  | 123 => ⟨S64, .f32⟩
  | 124 => ⟨S1x64, .f32⟩
  | 125 => ⟨S64, .f32⟩
  | 126 => ⟨S1x64, .f32⟩
  | 127 => ⟨S64, .f32⟩
  | _ => ⟨S50000x22, .f32⟩

abbrev hbmTy0_1 (i : Nat) : BufTy := match i % 128 with
  | 0 => ⟨S1x64, .f32⟩
  | 1 => ⟨S64, .f32⟩
  | 2 => ⟨S1x64, .f32⟩
  | 3 => ⟨S64, .f32⟩
  | 4 => ⟨S1x64, .f32⟩
  | 5 => ⟨S64, .f32⟩
  | 6 => ⟨S1x64, .f32⟩
  | 7 => ⟨S64, .f32⟩
  | 8 => ⟨S1x64, .f32⟩
  | 9 => ⟨S64, .f32⟩
  | 10 => ⟨S1x64, .f32⟩
  | 11 => ⟨S64, .f32⟩
  | 12 => ⟨S4x64, .f32⟩
  | 13 => ⟨S_, .i32⟩
  | 14 => ⟨S690000, .i32⟩
  | 15 => ⟨S690000, .i1⟩
  | 16 => ⟨S_, .i32⟩
  | 17 => ⟨S690000, .i32⟩
  | 18 => ⟨S690000, .i32⟩
  | 19 => ⟨S690000, .i32⟩
  | 20 => ⟨S690000x1, .i32⟩
  | 21 => ⟨S690000x4, .f32⟩
  | 22 => ⟨S690000x1, .f32⟩
  | 23 => ⟨S690000x4, .f32⟩
  | 24 => ⟨S690000x4, .f32⟩
  | 25 => ⟨S_, .f32⟩
  | 26 => ⟨S50000x4, .f32⟩
  | 27 => ⟨S690000x1, .i32⟩
  | 28 => ⟨S50000x4, .f32⟩
  | 29 => ⟨S50000x64, .f32⟩
  | 30 => ⟨S1x64, .f32⟩
  | 31 => ⟨S50000x64, .f32⟩
  | 32 => ⟨S1x64, .f32⟩
  | 33 => ⟨S_, .f32⟩
  | 34 => ⟨S1x64, .f32⟩
  | 35 => ⟨S1x64, .f32⟩
  | 36 => ⟨S1x64, .f32⟩
  | 37 => ⟨S_, .f32⟩
  | 38 => ⟨S1x64, .f32⟩
  | 39 => ⟨S1x64, .f32⟩
  | 40 => ⟨S1x64, .f32⟩
  | 41 => ⟨S1x64, .f32⟩
  | 42 => ⟨S50000x64, .f32⟩
  | 43 => ⟨S64x128, .f32⟩
  | 44 => ⟨S_, .i32⟩
  | 45 => ⟨S690000, .i32⟩
  | 46 => ⟨S690000, .i1⟩
  | 47 => ⟨S_, .i32⟩
  | 48 => ⟨S690000, .i32⟩
  | 49 => ⟨S690000, .i32⟩
  | 50 => ⟨S690000, .i32⟩
  | 51 => ⟨S690000x1, .i32⟩
  | 52 => ⟨S690000x64, .f32⟩
  | 53 => ⟨S690000x1, .f32⟩
  | 54 => ⟨S690000x64, .f32⟩
  | 55 => ⟨S690000x64, .f32⟩
  | 56 => ⟨S_, .f32⟩
  | 57 => ⟨S50000x64, .f32⟩
  | 58 => ⟨S690000x1, .i32⟩
  | 59 => ⟨S50000x64, .f32⟩
  | 60 => ⟨S50000x128, .f32⟩
  | 61 => ⟨S1x128, .f32⟩
  | 62 => ⟨S50000x128, .f32⟩
  | 63 => ⟨S1x128, .f32⟩
  | 64 => ⟨S_, .f32⟩
  | 65 => ⟨S1x128, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S1x128, .f32⟩
  | 72 => ⟨S1x128, .f32⟩
  | 73 => ⟨S50000x128, .f32⟩
  | 74 => ⟨S128x64, .f32⟩
  | 75 => ⟨S50000x64, .f32⟩
  | 76 => ⟨S_, .i32⟩
  | 77 => ⟨S690000, .i32⟩
  | 78 => ⟨S690000, .i1⟩
  | 79 => ⟨S_, .i32⟩
  | 80 => ⟨S690000, .i32⟩
  | 81 => ⟨S690000, .i32⟩
  | 82 => ⟨S690000, .i32⟩
  | 83 => ⟨S690000x1, .i32⟩
  | 84 => ⟨S690000x64, .f32⟩
  | 85 => ⟨S690000x1, .f32⟩
  | 86 => ⟨S690000x64, .f32⟩
  | 87 => ⟨S690000x64, .f32⟩
  | 88 => ⟨S_, .f32⟩
  | 89 => ⟨S50000x64, .f32⟩
  | 90 => ⟨S690000x1, .i32⟩
  | 91 => ⟨S50000x64, .f32⟩
  | 92 => ⟨S1x64, .f32⟩
  | 93 => ⟨S50000x64, .f32⟩
  | 94 => ⟨S50000x64, .f32⟩
  | 95 => ⟨S1x64, .f32⟩
  | 96 => ⟨S_, .f32⟩
  | 97 => ⟨S1x64, .f32⟩
  | 98 => ⟨S1x64, .f32⟩
  | 99 => ⟨S1x64, .f32⟩
  | 100 => ⟨S_, .f32⟩
  | 101 => ⟨S1x64, .f32⟩
  | 102 => ⟨S1x64, .f32⟩
  | 103 => ⟨S1x64, .f32⟩
  | 104 => ⟨S1x64, .f32⟩
  | 105 => ⟨S50000x64, .f32⟩
  | 106 => ⟨S64x64, .f32⟩
  | 107 => ⟨S50000x64, .f32⟩
  | 108 => ⟨S_, .i32⟩
  | 109 => ⟨S690000, .i32⟩
  | 110 => ⟨S690000, .i1⟩
  | 111 => ⟨S_, .i32⟩
  | 112 => ⟨S690000, .i32⟩
  | 113 => ⟨S690000, .i32⟩
  | 114 => ⟨S690000, .i32⟩
  | 115 => ⟨S690000x1, .i32⟩
  | 116 => ⟨S690000x64, .f32⟩
  | 117 => ⟨S690000x1, .f32⟩
  | 118 => ⟨S690000x64, .f32⟩
  | 119 => ⟨S690000x64, .f32⟩
  | 120 => ⟨S_, .f32⟩
  | 121 => ⟨S50000x64, .f32⟩
  | 122 => ⟨S690000x1, .i32⟩
  | 123 => ⟨S50000x64, .f32⟩
  | 124 => ⟨S1x64, .f32⟩
  | 125 => ⟨S50000x64, .f32⟩
  | 126 => ⟨S50000x64, .f32⟩
  | 127 => ⟨S1x64, .f32⟩
  | _ => ⟨S50000x22, .f32⟩

abbrev hbmTy0_2 (i : Nat) : BufTy := match i % 128 with
  | 0 => ⟨S_, .f32⟩
  | 1 => ⟨S1x64, .f32⟩
  | 2 => ⟨S1x64, .f32⟩
  | 3 => ⟨S1x64, .f32⟩
  | 4 => ⟨S_, .f32⟩
  | 5 => ⟨S1x64, .f32⟩
  | 6 => ⟨S1x64, .f32⟩
  | 7 => ⟨S1x64, .f32⟩
  | 8 => ⟨S1x64, .f32⟩
  | 9 => ⟨S50000x64, .f32⟩
  | 10 => ⟨S64x64, .f32⟩
  | 11 => ⟨S50000x64, .f32⟩
  | 12 => ⟨S_, .i32⟩
  | 13 => ⟨S690000, .i32⟩
  | 14 => ⟨S690000, .i1⟩
  | 15 => ⟨S_, .i32⟩
  | 16 => ⟨S690000, .i32⟩
  | 17 => ⟨S690000, .i32⟩
  | 18 => ⟨S690000, .i32⟩
  | 19 => ⟨S690000x1, .i32⟩
  | 20 => ⟨S690000x64, .f32⟩
  | 21 => ⟨S690000x1, .f32⟩
  | 22 => ⟨S690000x64, .f32⟩
  | 23 => ⟨S690000x64, .f32⟩
  | 24 => ⟨S_, .f32⟩
  | 25 => ⟨S50000x64, .f32⟩
  | 26 => ⟨S690000x1, .i32⟩
  | 27 => ⟨S50000x64, .f32⟩
  | 28 => ⟨S1x64, .f32⟩
  | 29 => ⟨S50000x64, .f32⟩
  | 30 => ⟨S50000x64, .f32⟩
  | 31 => ⟨S1x64, .f32⟩
  | 32 => ⟨S_, .f32⟩
  | 33 => ⟨S1x64, .f32⟩
  | 34 => ⟨S1x64, .f32⟩
  | 35 => ⟨S1x64, .f32⟩
  | 36 => ⟨S_, .f32⟩
  | 37 => ⟨S1x64, .f32⟩
  | 38 => ⟨S1x64, .f32⟩
  | 39 => ⟨S1x64, .f32⟩
  | 40 => ⟨S1x64, .f32⟩
  | 41 => ⟨S50000x64, .f32⟩
  | 42 => ⟨S64x64, .f32⟩
  | 43 => ⟨S50000x64, .f32⟩
  | 44 => ⟨S_, .i32⟩
  | 45 => ⟨S690000, .i32⟩
  | 46 => ⟨S690000, .i1⟩
  | 47 => ⟨S_, .i32⟩
  | 48 => ⟨S690000, .i32⟩
  | 49 => ⟨S690000, .i32⟩
  | 50 => ⟨S690000, .i32⟩
  | 51 => ⟨S690000x1, .i32⟩
  | 52 => ⟨S690000x64, .f32⟩
  | 53 => ⟨S690000x1, .f32⟩
  | 54 => ⟨S690000x64, .f32⟩
  | 55 => ⟨S690000x64, .f32⟩
  | 56 => ⟨S_, .f32⟩
  | 57 => ⟨S50000x64, .f32⟩
  | 58 => ⟨S690000x1, .i32⟩
  | 59 => ⟨S50000x64, .f32⟩
  | 60 => ⟨S1x64, .f32⟩
  | 61 => ⟨S50000x64, .f32⟩
  | 62 => ⟨S50000x64, .f32⟩
  | 63 => ⟨S1x64, .f32⟩
  | 64 => ⟨S_, .f32⟩
  | 65 => ⟨S1x64, .f32⟩
  | 66 => ⟨S1x64, .f32⟩
  | 67 => ⟨S1x64, .f32⟩
  | 68 => ⟨S_, .f32⟩
  | 69 => ⟨S1x64, .f32⟩
  | 70 => ⟨S1x64, .f32⟩
  | 71 => ⟨S1x64, .f32⟩
  | 72 => ⟨S1x64, .f32⟩
  | 73 => ⟨S50000x64, .f32⟩
  | 74 => ⟨S64x64, .f32⟩
  | 75 => ⟨S50000x64, .f32⟩
  | 76 => ⟨S_, .i32⟩
  | 77 => ⟨S690000, .i32⟩
  | 78 => ⟨S690000, .i1⟩
  | 79 => ⟨S_, .i32⟩
  | 80 => ⟨S690000, .i32⟩
  | 81 => ⟨S690000, .i32⟩
  | 82 => ⟨S690000, .i32⟩
  | 83 => ⟨S690000x1, .i32⟩
  | 84 => ⟨S690000x64, .f32⟩
  | 85 => ⟨S690000x1, .f32⟩
  | 86 => ⟨S690000x64, .f32⟩
  | 87 => ⟨S690000x64, .f32⟩
  | 88 => ⟨S_, .f32⟩
  | 89 => ⟨S50000x64, .f32⟩
  | 90 => ⟨S690000x1, .i32⟩
  | 91 => ⟨S50000x64, .f32⟩
  | 92 => ⟨S1x64, .f32⟩
  | 93 => ⟨S50000x64, .f32⟩
  | 94 => ⟨S50000x64, .f32⟩
  | 95 => ⟨S1x64, .f32⟩
  | 96 => ⟨S_, .f32⟩
  | 97 => ⟨S1x64, .f32⟩
  | 98 => ⟨S1x64, .f32⟩
  | 99 => ⟨S1x64, .f32⟩
  | 100 => ⟨S_, .f32⟩
  | 101 => ⟨S1x64, .f32⟩
  | 102 => ⟨S1x64, .f32⟩
  | 103 => ⟨S1x64, .f32⟩
  | 104 => ⟨S1x64, .f32⟩
  | 105 => ⟨S50000x64, .f32⟩
  | 106 => ⟨S64x64, .f32⟩
  | 107 => ⟨S50000x64, .f32⟩
  | 108 => ⟨S_, .i32⟩
  | 109 => ⟨S690000, .i32⟩
  | 110 => ⟨S690000, .i1⟩
  | 111 => ⟨S_, .i32⟩
  | 112 => ⟨S690000, .i32⟩
  | 113 => ⟨S690000, .i32⟩
  | 114 => ⟨S690000, .i32⟩
  | 115 => ⟨S690000x1, .i32⟩
  | 116 => ⟨S690000x64, .f32⟩
  | 117 => ⟨S690000x1, .f32⟩
  | 118 => ⟨S690000x64, .f32⟩
  | 119 => ⟨S690000x64, .f32⟩
  | 120 => ⟨S_, .f32⟩
  | 121 => ⟨S50000x64, .f32⟩
  | 122 => ⟨S690000x1, .i32⟩
  | 123 => ⟨S50000x64, .f32⟩
  | 124 => ⟨S1x64, .f32⟩
  | 125 => ⟨S50000x64, .f32⟩
  | 126 => ⟨S50000x64, .f32⟩
  | 127 => ⟨S1x64, .f32⟩
  | _ => ⟨S50000x22, .f32⟩

abbrev hbmTy0_3 (i : Nat) : BufTy := match i % 128 with
  | 0 => ⟨S_, .f32⟩
  | 1 => ⟨S1x64, .f32⟩
  | 2 => ⟨S1x64, .f32⟩
  | 3 => ⟨S1x64, .f32⟩
  | 4 => ⟨S_, .f32⟩
  | 5 => ⟨S1x64, .f32⟩
  | 6 => ⟨S1x64, .f32⟩
  | 7 => ⟨S1x64, .f32⟩
  | 8 => ⟨S1x64, .f32⟩
  | 9 => ⟨S50000x64, .f32⟩
  | 10 => ⟨S64x64, .f32⟩
  | 11 => ⟨S50000x64, .f32⟩
  | 12 => ⟨S_, .i32⟩
  | 13 => ⟨S690000, .i32⟩
  | 14 => ⟨S690000, .i1⟩
  | 15 => ⟨S_, .i32⟩
  | 16 => ⟨S690000, .i32⟩
  | 17 => ⟨S690000, .i32⟩
  | 18 => ⟨S690000, .i32⟩
  | 19 => ⟨S690000x1, .i32⟩
  | 20 => ⟨S690000x64, .f32⟩
  | 21 => ⟨S690000x1, .f32⟩
  | 22 => ⟨S690000x64, .f32⟩
  | 23 => ⟨S690000x64, .f32⟩
  | 24 => ⟨S_, .f32⟩
  | 25 => ⟨S50000x64, .f32⟩
  | 26 => ⟨S690000x1, .i32⟩
  | 27 => ⟨S50000x64, .f32⟩
  | 28 => ⟨S1x64, .f32⟩
  | 29 => ⟨S50000x64, .f32⟩
  | 30 => ⟨S50000x64, .f32⟩
  | 31 => ⟨S1x64, .f32⟩
  | 32 => ⟨S_, .f32⟩
  | 33 => ⟨S1x64, .f32⟩
  | 34 => ⟨S1x64, .f32⟩
  | 35 => ⟨S1x64, .f32⟩
  | 36 => ⟨S_, .f32⟩
  | 37 => ⟨S1x64, .f32⟩
  | 38 => ⟨S1x64, .f32⟩
  | 39 => ⟨S1x64, .f32⟩
  | 40 => ⟨S1x64, .f32⟩
  | 41 => ⟨S50000x64, .f32⟩
  | 42 => ⟨S64x64, .f32⟩
  | 43 => ⟨S50000x64, .f32⟩
  | 44 => ⟨S_, .i32⟩
  | 45 => ⟨S690000, .i32⟩
  | 46 => ⟨S690000, .i1⟩
  | 47 => ⟨S_, .i32⟩
  | 48 => ⟨S690000, .i32⟩
  | 49 => ⟨S690000, .i32⟩
  | 50 => ⟨S690000, .i32⟩
  | 51 => ⟨S690000x1, .i32⟩
  | 52 => ⟨S690000x64, .f32⟩
  | 53 => ⟨S690000x1, .f32⟩
  | 54 => ⟨S690000x64, .f32⟩
  | 55 => ⟨S690000x64, .f32⟩
  | 56 => ⟨S_, .f32⟩
  | 57 => ⟨S50000x64, .f32⟩
  | 58 => ⟨S690000x1, .i32⟩
  | 59 => ⟨S50000x64, .f32⟩
  | 60 => ⟨S1x64, .f32⟩
  | 61 => ⟨S50000x64, .f32⟩
  | 62 => ⟨S50000x64, .f32⟩
  | 63 => ⟨S1x64, .f32⟩
  | 64 => ⟨S_, .f32⟩
  | 65 => ⟨S1x64, .f32⟩
  | 66 => ⟨S1x64, .f32⟩
  | 67 => ⟨S1x64, .f32⟩
  | 68 => ⟨S_, .f32⟩
  | 69 => ⟨S1x64, .f32⟩
  | 70 => ⟨S1x64, .f32⟩
  | 71 => ⟨S1x64, .f32⟩
  | 72 => ⟨S1x64, .f32⟩
  | 73 => ⟨S50000x64, .f32⟩
  | 74 => ⟨S64x64, .f32⟩
  | 75 => ⟨S50000x64, .f32⟩
  | 76 => ⟨S_, .i32⟩
  | 77 => ⟨S690000, .i32⟩
  | 78 => ⟨S690000, .i1⟩
  | 79 => ⟨S_, .i32⟩
  | 80 => ⟨S690000, .i32⟩
  | 81 => ⟨S690000, .i32⟩
  | 82 => ⟨S690000, .i32⟩
  | 83 => ⟨S690000x1, .i32⟩
  | 84 => ⟨S690000x64, .f32⟩
  | 85 => ⟨S690000x1, .f32⟩
  | 86 => ⟨S690000x64, .f32⟩
  | 87 => ⟨S690000x64, .f32⟩
  | 88 => ⟨S_, .f32⟩
  | 89 => ⟨S50000x64, .f32⟩
  | 90 => ⟨S690000x1, .i32⟩
  | 91 => ⟨S50000x64, .f32⟩
  | 92 => ⟨S1x64, .f32⟩
  | 93 => ⟨S50000x64, .f32⟩
  | 94 => ⟨S50000x64, .f32⟩
  | 95 => ⟨S1x64, .f32⟩
  | 96 => ⟨S_, .f32⟩
  | 97 => ⟨S1x64, .f32⟩
  | 98 => ⟨S1x64, .f32⟩
  | 99 => ⟨S1x64, .f32⟩
  | 100 => ⟨S_, .f32⟩
  | 101 => ⟨S1x64, .f32⟩
  | 102 => ⟨S1x64, .f32⟩
  | 103 => ⟨S1x64, .f32⟩
  | 104 => ⟨S1x64, .f32⟩
  | 105 => ⟨S50000x64, .f32⟩
  | 106 => ⟨S64x32, .f32⟩
  | 107 => ⟨S50000x32, .f32⟩
  | 108 => ⟨S_, .i32⟩
  | 109 => ⟨S690000, .i32⟩
  | 110 => ⟨S690000, .i1⟩
  | 111 => ⟨S_, .i32⟩
  | 112 => ⟨S690000, .i32⟩
  | 113 => ⟨S690000, .i32⟩
  | 114 => ⟨S690000, .i32⟩
  | 115 => ⟨S690000x1, .i32⟩
  | 116 => ⟨S690000x32, .f32⟩
  | 117 => ⟨S690000x1, .f32⟩
  | 118 => ⟨S690000x32, .f32⟩
  | 119 => ⟨S690000x32, .f32⟩
  | 120 => ⟨S_, .f32⟩
  | 121 => ⟨S50000x32, .f32⟩
  | 122 => ⟨S690000x1, .i32⟩
  | 123 => ⟨S50000x32, .f32⟩
  | 124 => ⟨S1x32, .f32⟩
  | 125 => ⟨S50000x32, .f32⟩
  | 126 => ⟨S1x32, .f32⟩
  | 127 => ⟨S_, .f32⟩
  | _ => ⟨S50000x22, .f32⟩

abbrev hbmTy0_4 (i : Nat) : BufTy := match i % 128 with
  | 0 => ⟨S1x32, .f32⟩
  | 1 => ⟨S1x32, .f32⟩
  | 2 => ⟨S1x32, .f32⟩
  | 3 => ⟨S_, .f32⟩
  | 4 => ⟨S1x32, .f32⟩
  | 5 => ⟨S1x32, .f32⟩
  | 6 => ⟨S1x32, .f32⟩
  | 7 => ⟨S1x32, .f32⟩
  | 8 => ⟨S50000x1, .f32⟩
  | 9 => ⟨S50000, .f32⟩
  | _ => ⟨S50000x22, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x22, .f32⟩

abbrev vmemTy0_0 (i : Nat) : BufTy := match i % 128 with
  | 0 => ⟨S2000x18, .f32⟩
  | 1 => ⟨S2000x18, .f32⟩
  | 2 => ⟨S18x4, .f32⟩
  | 3 => ⟨S1x4, .f32⟩
  | 4 => ⟨S2000x4, .f32⟩
  | 5 => ⟨S2000x4, .f32⟩
  | 6 => ⟨S2000x4, .f32⟩
  | 7 => ⟨S2000x4, .f32⟩
  | 8 => ⟨S2000x4, .f32⟩
  | 9 => ⟨S2000x4, .f32⟩
  | 10 => ⟨S4x64, .f32⟩
  | 11 => ⟨S2000x64, .f32⟩
  | 12 => ⟨S2000x64, .f32⟩
  | 13 => ⟨S2000x64, .f32⟩
  | 14 => ⟨S2000x64, .f32⟩
  | 15 => ⟨S1x64, .f32⟩
  | 16 => ⟨S2000x64, .f32⟩
  | 17 => ⟨S2000x64, .f32⟩
  | 18 => ⟨S1x64, .f32⟩
  | 19 => ⟨S1x64, .f32⟩
  | 20 => ⟨S2000x64, .f32⟩
  | 21 => ⟨S2000x64, .f32⟩
  | 22 => ⟨S1x64, .f32⟩
  | 23 => ⟨S1x64, .f32⟩
  | 24 => ⟨S1x64, .f32⟩
  | 25 => ⟨S2000x64, .f32⟩
  | 26 => ⟨S2000x64, .f32⟩
  | 27 => ⟨S1x64, .f32⟩
  | 28 => ⟨S1x64, .f32⟩
  | 29 => ⟨S1x64, .f32⟩
  | 30 => ⟨S1x64, .f32⟩
  | 31 => ⟨S2000x64, .f32⟩
  | 32 => ⟨S2000x64, .f32⟩
  | 33 => ⟨S2000x64, .f32⟩
  | 34 => ⟨S2000x64, .f32⟩
  | 35 => ⟨S64x128, .f32⟩
  | 36 => ⟨S2000x128, .f32⟩
  | 37 => ⟨S2000x128, .f32⟩
  | 38 => ⟨S2000x128, .f32⟩
  | 39 => ⟨S2000x128, .f32⟩
  | 40 => ⟨S1x128, .f32⟩
  | 41 => ⟨S2000x128, .f32⟩
  | 42 => ⟨S2000x128, .f32⟩
  | 43 => ⟨S1x128, .f32⟩
  | 44 => ⟨S1x128, .f32⟩
  | 45 => ⟨S2000x128, .f32⟩
  | 46 => ⟨S2000x128, .f32⟩
  | 47 => ⟨S1x128, .f32⟩
  | 48 => ⟨S1x128, .f32⟩
  | 49 => ⟨S1x128, .f32⟩
  | 50 => ⟨S2000x128, .f32⟩
  | 51 => ⟨S2000x128, .f32⟩
  | 52 => ⟨S1x128, .f32⟩
  | 53 => ⟨S1x128, .f32⟩
  | 54 => ⟨S1x128, .f32⟩
  | 55 => ⟨S1x128, .f32⟩
  | 56 => ⟨S2000x128, .f32⟩
  | 57 => ⟨S2000x128, .f32⟩
  | 58 => ⟨S2000x128, .f32⟩
  | 59 => ⟨S2000x128, .f32⟩
  | 60 => ⟨S128x64, .f32⟩
  | 61 => ⟨S2000x64, .f32⟩
  | 62 => ⟨S2000x64, .f32⟩
  | 63 => ⟨S2000x64, .f32⟩
  | 64 => ⟨S2000x64, .f32⟩
  | 65 => ⟨S1x64, .f32⟩
  | 66 => ⟨S2000x64, .f32⟩
  | 67 => ⟨S2000x64, .f32⟩
  | 68 => ⟨S2000x64, .f32⟩
  | 69 => ⟨S2000x64, .f32⟩
  | 70 => ⟨S1x64, .f32⟩
  | 71 => ⟨S1x64, .f32⟩
  | 72 => ⟨S2000x64, .f32⟩
  | 73 => ⟨S2000x64, .f32⟩
  | 74 => ⟨S1x64, .f32⟩
  | 75 => ⟨S1x64, .f32⟩
  | 76 => ⟨S1x64, .f32⟩
  | 77 => ⟨S2000x64, .f32⟩
  | 78 => ⟨S2000x64, .f32⟩
  | 79 => ⟨S1x64, .f32⟩
  | 80 => ⟨S1x64, .f32⟩
  | 81 => ⟨S1x64, .f32⟩
  | 82 => ⟨S1x64, .f32⟩
  | 83 => ⟨S2000x64, .f32⟩
  | 84 => ⟨S2000x64, .f32⟩
  | 85 => ⟨S2000x64, .f32⟩
  | 86 => ⟨S2000x64, .f32⟩
  | 87 => ⟨S64x64, .f32⟩
  | 88 => ⟨S2000x64, .f32⟩
  | 89 => ⟨S2000x64, .f32⟩
  | 90 => ⟨S2000x64, .f32⟩
  | 91 => ⟨S2000x64, .f32⟩
  | 92 => ⟨S1x64, .f32⟩
  | 93 => ⟨S2000x64, .f32⟩
  | 94 => ⟨S2000x64, .f32⟩
  | 95 => ⟨S2000x64, .f32⟩
  | 96 => ⟨S2000x64, .f32⟩
  | 97 => ⟨S2000x64, .f32⟩
  | 98 => ⟨S2000x64, .f32⟩
  | 99 => ⟨S1x64, .f32⟩
  | 100 => ⟨S1x64, .f32⟩
  | 101 => ⟨S2000x64, .f32⟩
  | 102 => ⟨S2000x64, .f32⟩
  | 103 => ⟨S1x64, .f32⟩
  | 104 => ⟨S1x64, .f32⟩
  | 105 => ⟨S1x64, .f32⟩
  | 106 => ⟨S2000x64, .f32⟩
  | 107 => ⟨S2000x64, .f32⟩
  | 108 => ⟨S1x64, .f32⟩
  | 109 => ⟨S1x64, .f32⟩
  | 110 => ⟨S1x64, .f32⟩
  | 111 => ⟨S1x64, .f32⟩
  | 112 => ⟨S2000x64, .f32⟩
  | 113 => ⟨S2000x64, .f32⟩
  | 114 => ⟨S2000x64, .f32⟩
  | 115 => ⟨S2000x64, .f32⟩
  | 116 => ⟨S64x64, .f32⟩
  | 117 => ⟨S2000x64, .f32⟩
  | 118 => ⟨S2000x64, .f32⟩
  | 119 => ⟨S2000x64, .f32⟩
  | 120 => ⟨S2000x64, .f32⟩
  | 121 => ⟨S1x64, .f32⟩
  | 122 => ⟨S2000x64, .f32⟩
  | 123 => ⟨S2000x64, .f32⟩
  | 124 => ⟨S2000x64, .f32⟩
  | 125 => ⟨S2000x64, .f32⟩
  | 126 => ⟨S2000x64, .f32⟩
  | 127 => ⟨S2000x64, .f32⟩
  | _ => ⟨S50000x22, .f32⟩

abbrev vmemTy0_1 (i : Nat) : BufTy := match i % 128 with
  | 0 => ⟨S1x64, .f32⟩
  | 1 => ⟨S1x64, .f32⟩
  | 2 => ⟨S2000x64, .f32⟩
  | 3 => ⟨S2000x64, .f32⟩
  | 4 => ⟨S1x64, .f32⟩
  | 5 => ⟨S1x64, .f32⟩
  | 6 => ⟨S1x64, .f32⟩
  | 7 => ⟨S2000x64, .f32⟩
  | 8 => ⟨S2000x64, .f32⟩
  | 9 => ⟨S1x64, .f32⟩
  | 10 => ⟨S1x64, .f32⟩
  | 11 => ⟨S1x64, .f32⟩
  | 12 => ⟨S1x64, .f32⟩
  | 13 => ⟨S2000x64, .f32⟩
  | 14 => ⟨S2000x64, .f32⟩
  | 15 => ⟨S2000x64, .f32⟩
  | 16 => ⟨S2000x64, .f32⟩
  | 17 => ⟨S64x64, .f32⟩
  | 18 => ⟨S2000x64, .f32⟩
  | 19 => ⟨S2000x64, .f32⟩
  | 20 => ⟨S2000x64, .f32⟩
  | 21 => ⟨S2000x64, .f32⟩
  | 22 => ⟨S1x64, .f32⟩
  | 23 => ⟨S2000x64, .f32⟩
  | 24 => ⟨S2000x64, .f32⟩
  | 25 => ⟨S2000x64, .f32⟩
  | 26 => ⟨S2000x64, .f32⟩
  | 27 => ⟨S2000x64, .f32⟩
  | 28 => ⟨S2000x64, .f32⟩
  | 29 => ⟨S1x64, .f32⟩
  | 30 => ⟨S1x64, .f32⟩
  | 31 => ⟨S2000x64, .f32⟩
  | 32 => ⟨S2000x64, .f32⟩
  | 33 => ⟨S1x64, .f32⟩
  | 34 => ⟨S1x64, .f32⟩
  | 35 => ⟨S1x64, .f32⟩
  | 36 => ⟨S2000x64, .f32⟩
  | 37 => ⟨S2000x64, .f32⟩
  | 38 => ⟨S1x64, .f32⟩
  | 39 => ⟨S1x64, .f32⟩
  | 40 => ⟨S1x64, .f32⟩
  | 41 => ⟨S1x64, .f32⟩
  | 42 => ⟨S2000x64, .f32⟩
  | 43 => ⟨S2000x64, .f32⟩
  | 44 => ⟨S2000x64, .f32⟩
  | 45 => ⟨S2000x64, .f32⟩
  | 46 => ⟨S64x64, .f32⟩
  | 47 => ⟨S2000x64, .f32⟩
  | 48 => ⟨S2000x64, .f32⟩
  | 49 => ⟨S2000x64, .f32⟩
  | 50 => ⟨S2000x64, .f32⟩
  | 51 => ⟨S1x64, .f32⟩
  | 52 => ⟨S2000x64, .f32⟩
  | 53 => ⟨S2000x64, .f32⟩
  | 54 => ⟨S2000x64, .f32⟩
  | 55 => ⟨S2000x64, .f32⟩
  | 56 => ⟨S2000x64, .f32⟩
  | 57 => ⟨S2000x64, .f32⟩
  | 58 => ⟨S1x64, .f32⟩
  | 59 => ⟨S1x64, .f32⟩
  | 60 => ⟨S2000x64, .f32⟩
  | 61 => ⟨S2000x64, .f32⟩
  | 62 => ⟨S1x64, .f32⟩
  | 63 => ⟨S1x64, .f32⟩
  | 64 => ⟨S1x64, .f32⟩
  | 65 => ⟨S2000x64, .f32⟩
  | 66 => ⟨S2000x64, .f32⟩
  | 67 => ⟨S1x64, .f32⟩
  | 68 => ⟨S1x64, .f32⟩
  | 69 => ⟨S1x64, .f32⟩
  | 70 => ⟨S1x64, .f32⟩
  | 71 => ⟨S2000x64, .f32⟩
  | 72 => ⟨S2000x64, .f32⟩
  | 73 => ⟨S2000x64, .f32⟩
  | 74 => ⟨S2000x64, .f32⟩
  | 75 => ⟨S64x64, .f32⟩
  | 76 => ⟨S2000x64, .f32⟩
  | 77 => ⟨S2000x64, .f32⟩
  | 78 => ⟨S2000x64, .f32⟩
  | 79 => ⟨S2000x64, .f32⟩
  | 80 => ⟨S1x64, .f32⟩
  | 81 => ⟨S2000x64, .f32⟩
  | 82 => ⟨S2000x64, .f32⟩
  | 83 => ⟨S2000x64, .f32⟩
  | 84 => ⟨S2000x64, .f32⟩
  | 85 => ⟨S2000x64, .f32⟩
  | 86 => ⟨S2000x64, .f32⟩
  | 87 => ⟨S1x64, .f32⟩
  | 88 => ⟨S1x64, .f32⟩
  | 89 => ⟨S2000x64, .f32⟩
  | 90 => ⟨S2000x64, .f32⟩
  | 91 => ⟨S1x64, .f32⟩
  | 92 => ⟨S1x64, .f32⟩
  | 93 => ⟨S1x64, .f32⟩
  | 94 => ⟨S2000x64, .f32⟩
  | 95 => ⟨S2000x64, .f32⟩
  | 96 => ⟨S1x64, .f32⟩
  | 97 => ⟨S1x64, .f32⟩
  | 98 => ⟨S1x64, .f32⟩
  | 99 => ⟨S1x64, .f32⟩
  | 100 => ⟨S2000x64, .f32⟩
  | 101 => ⟨S2000x64, .f32⟩
  | 102 => ⟨S2000x64, .f32⟩
  | 103 => ⟨S2000x64, .f32⟩
  | 104 => ⟨S64x64, .f32⟩
  | 105 => ⟨S2000x64, .f32⟩
  | 106 => ⟨S2000x64, .f32⟩
  | 107 => ⟨S2000x64, .f32⟩
  | 108 => ⟨S2000x64, .f32⟩
  | 109 => ⟨S1x64, .f32⟩
  | 110 => ⟨S2000x64, .f32⟩
  | 111 => ⟨S2000x64, .f32⟩
  | 112 => ⟨S2000x64, .f32⟩
  | 113 => ⟨S2000x64, .f32⟩
  | 114 => ⟨S2000x64, .f32⟩
  | 115 => ⟨S2000x64, .f32⟩
  | 116 => ⟨S1x64, .f32⟩
  | 117 => ⟨S1x64, .f32⟩
  | 118 => ⟨S2000x64, .f32⟩
  | 119 => ⟨S2000x64, .f32⟩
  | 120 => ⟨S1x64, .f32⟩
  | 121 => ⟨S1x64, .f32⟩
  | 122 => ⟨S1x64, .f32⟩
  | 123 => ⟨S2000x64, .f32⟩
  | 124 => ⟨S2000x64, .f32⟩
  | 125 => ⟨S1x64, .f32⟩
  | 126 => ⟨S1x64, .f32⟩
  | 127 => ⟨S1x64, .f32⟩
  | _ => ⟨S50000x22, .f32⟩

abbrev vmemTy0_2 (i : Nat) : BufTy := match i % 128 with
  | 0 => ⟨S1x64, .f32⟩
  | 1 => ⟨S2000x64, .f32⟩
  | 2 => ⟨S2000x64, .f32⟩
  | 3 => ⟨S2000x64, .f32⟩
  | 4 => ⟨S2000x64, .f32⟩
  | 5 => ⟨S64x64, .f32⟩
  | 6 => ⟨S2000x64, .f32⟩
  | 7 => ⟨S2000x64, .f32⟩
  | 8 => ⟨S2000x64, .f32⟩
  | 9 => ⟨S2000x64, .f32⟩
  | 10 => ⟨S1x64, .f32⟩
  | 11 => ⟨S2000x64, .f32⟩
  | 12 => ⟨S2000x64, .f32⟩
  | 13 => ⟨S2000x64, .f32⟩
  | 14 => ⟨S2000x64, .f32⟩
  | 15 => ⟨S2000x64, .f32⟩
  | 16 => ⟨S2000x64, .f32⟩
  | 17 => ⟨S1x64, .f32⟩
  | 18 => ⟨S1x64, .f32⟩
  | 19 => ⟨S2000x64, .f32⟩
  | 20 => ⟨S2000x64, .f32⟩
  | 21 => ⟨S1x64, .f32⟩
  | 22 => ⟨S1x64, .f32⟩
  | 23 => ⟨S1x64, .f32⟩
  | 24 => ⟨S2000x64, .f32⟩
  | 25 => ⟨S2000x64, .f32⟩
  | 26 => ⟨S1x64, .f32⟩
  | 27 => ⟨S1x64, .f32⟩
  | 28 => ⟨S1x64, .f32⟩
  | 29 => ⟨S1x64, .f32⟩
  | 30 => ⟨S2000x64, .f32⟩
  | 31 => ⟨S2000x64, .f32⟩
  | 32 => ⟨S2000x64, .f32⟩
  | 33 => ⟨S2000x64, .f32⟩
  | 34 => ⟨S64x64, .f32⟩
  | 35 => ⟨S2000x64, .f32⟩
  | 36 => ⟨S2000x64, .f32⟩
  | 37 => ⟨S2000x64, .f32⟩
  | 38 => ⟨S2000x64, .f32⟩
  | 39 => ⟨S1x64, .f32⟩
  | 40 => ⟨S2000x64, .f32⟩
  | 41 => ⟨S2000x64, .f32⟩
  | 42 => ⟨S2000x64, .f32⟩
  | 43 => ⟨S2000x64, .f32⟩
  | 44 => ⟨S2000x64, .f32⟩
  | 45 => ⟨S2000x64, .f32⟩
  | 46 => ⟨S1x64, .f32⟩
  | 47 => ⟨S1x64, .f32⟩
  | 48 => ⟨S2000x64, .f32⟩
  | 49 => ⟨S2000x64, .f32⟩
  | 50 => ⟨S1x64, .f32⟩
  | 51 => ⟨S1x64, .f32⟩
  | 52 => ⟨S1x64, .f32⟩
  | 53 => ⟨S2000x64, .f32⟩
  | 54 => ⟨S2000x64, .f32⟩
  | 55 => ⟨S1x64, .f32⟩
  | 56 => ⟨S1x64, .f32⟩
  | 57 => ⟨S1x64, .f32⟩
  | 58 => ⟨S1x64, .f32⟩
  | 59 => ⟨S2000x64, .f32⟩
  | 60 => ⟨S2000x64, .f32⟩
  | 61 => ⟨S2000x64, .f32⟩
  | 62 => ⟨S2000x64, .f32⟩
  | 63 => ⟨S64x32, .f32⟩
  | 64 => ⟨S2000x32, .f32⟩
  | 65 => ⟨S2000x32, .f32⟩
  | 66 => ⟨S2000x32, .f32⟩
  | 67 => ⟨S2000x32, .f32⟩
  | 68 => ⟨S1x32, .f32⟩
  | 69 => ⟨S2000x32, .f32⟩
  | 70 => ⟨S2000x32, .f32⟩
  | 71 => ⟨S1x32, .f32⟩
  | 72 => ⟨S1x32, .f32⟩
  | 73 => ⟨S2000x32, .f32⟩
  | 74 => ⟨S2000x32, .f32⟩
  | 75 => ⟨S1x32, .f32⟩
  | 76 => ⟨S1x32, .f32⟩
  | 77 => ⟨S1x32, .f32⟩
  | 78 => ⟨S2000x32, .f32⟩
  | 79 => ⟨S2000x32, .f32⟩
  | 80 => ⟨S1x32, .f32⟩
  | 81 => ⟨S1x32, .f32⟩
  | 82 => ⟨S1x32, .f32⟩
  | 83 => ⟨S1x32, .f32⟩
  | 84 => ⟨S32x1, .f32⟩
  | 85 => ⟨S2000x1, .f32⟩
  | 86 => ⟨S2000x1, .f32⟩
  | _ => ⟨S50000x22, .f32⟩

abbrev vmemTy (i : Nat) : BufTy := match i / 128 with
  | 0 => vmemTy0_0 i
  | 1 => vmemTy0_1 i
  | 2 => vmemTy0_2 i
  | _ => ⟨S50000x22, .f32⟩

abbrev bufTy : (tb : Table) → Fin (tcTables nBuf tb) → BufTy
  | .hbm, ⟨i, _⟩ => hbmTy i
  | .local _ .vmem, ⟨i, _⟩ => vmemTy i
  | _, _ => ⟨S50000x22, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | _ => false

abbrev dmaSemScopedAt (i : Nat) : Bool := match i / 128 with
  | 0 => dmaSemScopedAt0_0 i
  | 1 => dmaSemScopedAt0_1 i
  | 2 => dmaSemScopedAt0_2 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | _ => false

abbrev vmemScopedAt (i : Nat) : Bool := match i / 128 with
  | 0 => vmemScopedAt0_0 i
  | 1 => vmemScopedAt0_1 i
  | 2 => vmemScopedAt0_2 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 319 → Bool
  | ⟨i, _⟩ => dmaSemScopedAt i

abbrev sig : RefSig :=
  ofTc nBuf bufTy 0 319 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_v8 : Ref sig .tc := ⟨.hbm, 36, rfl⟩
abbrev main_cst_0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_v13 : Ref sig .tc := ⟨.hbm, 43, rfl⟩
abbrev main_cst_2 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_3 : Ref sig .tc := ⟨.hbm, 48, rfl⟩
abbrev main_call0_v0 : Ref sig .tc := ⟨.hbm, 49, rfl⟩
abbrev main_call0_v1 : Ref sig .tc := ⟨.hbm, 50, rfl⟩
abbrev main_v17 : Ref sig .tc := ⟨.hbm, 51, rfl⟩
abbrev main_c : Ref sig .tc := ⟨.hbm, 52, rfl⟩
abbrev main_v18 : Ref sig .tc := ⟨.hbm, 53, rfl⟩
abbrev main_v19 : Ref sig .tc := ⟨.hbm, 54, rfl⟩
abbrev main_c_4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_c_5 : Ref sig .tc := ⟨.hbm, 62, rfl⟩
abbrev main_v26 : Ref sig .tc := ⟨.hbm, 63, rfl⟩
abbrev main_v27 : Ref sig .tc := ⟨.hbm, 64, rfl⟩
abbrev main_c_6 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_7 : Ref sig .tc := ⟨.hbm, 141, rfl⟩
abbrev main_v103 : Ref sig .tc := ⟨.hbm, 142, rfl⟩
abbrev main_v104 : Ref sig .tc := ⟨.hbm, 143, rfl⟩
abbrev main_c_8 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_9 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118_0 : Ref sig .tc := ⟨.hbm, 159, rfl⟩
abbrev main_v118_1 : Ref sig .tc := ⟨.hbm, 160, rfl⟩
abbrev main_cst_10 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_11 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_c_12 : Ref sig .tc := ⟨.hbm, 172, rfl⟩
abbrev main_v128 : Ref sig .tc := ⟨.hbm, 173, rfl⟩
abbrev main_v129 : Ref sig .tc := ⟨.hbm, 174, rfl⟩
abbrev main_c_13 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_14 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143_0 : Ref sig .tc := ⟨.hbm, 190, rfl⟩
abbrev main_v143_1 : Ref sig .tc := ⟨.hbm, 191, rfl⟩
abbrev main_cst_15 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_16 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_c_17 : Ref sig .tc := ⟨.hbm, 204, rfl⟩
abbrev main_v154 : Ref sig .tc := ⟨.hbm, 205, rfl⟩
abbrev main_v155 : Ref sig .tc := ⟨.hbm, 206, rfl⟩
abbrev main_c_18 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_cst_19 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168_0 : Ref sig .tc := ⟨.hbm, 221, rfl⟩
abbrev main_v168_1 : Ref sig .tc := ⟨.hbm, 222, rfl⟩
abbrev main_v168_2 : Ref sig .tc := ⟨.hbm, 223, rfl⟩
abbrev main_cst_20 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_cst_21 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_c_22 : Ref sig .tc := ⟨.hbm, 236, rfl⟩
abbrev main_v179 : Ref sig .tc := ⟨.hbm, 237, rfl⟩
abbrev main_v180 : Ref sig .tc := ⟨.hbm, 238, rfl⟩
abbrev main_c_23 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_cst_24 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193_0 : Ref sig .tc := ⟨.hbm, 253, rfl⟩
abbrev main_v193_1 : Ref sig .tc := ⟨.hbm, 254, rfl⟩
abbrev main_v193_2 : Ref sig .tc := ⟨.hbm, 255, rfl⟩
abbrev main_cst_25 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_cst_26 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_c_27 : Ref sig .tc := ⟨.hbm, 268, rfl⟩
abbrev main_v204 : Ref sig .tc := ⟨.hbm, 269, rfl⟩
abbrev main_v205 : Ref sig .tc := ⟨.hbm, 270, rfl⟩
abbrev main_c_28 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_cst_29 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218_0 : Ref sig .tc := ⟨.hbm, 285, rfl⟩
abbrev main_v218_1 : Ref sig .tc := ⟨.hbm, 286, rfl⟩
abbrev main_v218_2 : Ref sig .tc := ⟨.hbm, 287, rfl⟩
abbrev main_cst_30 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_cst_31 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_c_32 : Ref sig .tc := ⟨.hbm, 300, rfl⟩
abbrev main_v229 : Ref sig .tc := ⟨.hbm, 301, rfl⟩
abbrev main_v230 : Ref sig .tc := ⟨.hbm, 302, rfl⟩
abbrev main_c_33 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_cst_34 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243_0 : Ref sig .tc := ⟨.hbm, 317, rfl⟩
abbrev main_v243_1 : Ref sig .tc := ⟨.hbm, 318, rfl⟩
abbrev main_v243_2 : Ref sig .tc := ⟨.hbm, 319, rfl⟩
abbrev main_cst_35 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_cst_36 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_v250 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_c_37 : Ref sig .tc := ⟨.hbm, 332, rfl⟩
abbrev main_v254 : Ref sig .tc := ⟨.hbm, 333, rfl⟩
abbrev main_v255 : Ref sig .tc := ⟨.hbm, 334, rfl⟩
abbrev main_c_38 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_v262 : Ref sig .tc := ⟨.hbm, 342, rfl⟩
abbrev main_v263 : Ref sig .tc := ⟨.hbm, 343, rfl⟩
abbrev main_cst_39 : Ref sig .tc := ⟨.hbm, 344, rfl⟩
abbrev main_v264 : Ref sig .tc := ⟨.hbm, 345, rfl⟩
abbrev main_v265 : Ref sig .tc := ⟨.hbm, 346, rfl⟩
abbrev main_v266 : Ref sig .tc := ⟨.hbm, 347, rfl⟩
abbrev main_v267 : Ref sig .tc := ⟨.hbm, 348, rfl⟩
abbrev main_v268_0 : Ref sig .tc := ⟨.hbm, 349, rfl⟩
abbrev main_v268_1 : Ref sig .tc := ⟨.hbm, 350, rfl⟩
abbrev main_v268_2 : Ref sig .tc := ⟨.hbm, 351, rfl⟩
abbrev main_cst_40 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_cst_41 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_c_42 : Ref sig .tc := ⟨.hbm, 364, rfl⟩
abbrev main_v279 : Ref sig .tc := ⟨.hbm, 365, rfl⟩
abbrev main_v280 : Ref sig .tc := ⟨.hbm, 366, rfl⟩
abbrev main_c_43 : Ref sig .tc := ⟨.hbm, 367, rfl⟩
abbrev main_v281 : Ref sig .tc := ⟨.hbm, 368, rfl⟩
abbrev main_v282 : Ref sig .tc := ⟨.hbm, 369, rfl⟩
abbrev main_v283 : Ref sig .tc := ⟨.hbm, 370, rfl⟩
abbrev main_v284 : Ref sig .tc := ⟨.hbm, 371, rfl⟩
abbrev main_v285 : Ref sig .tc := ⟨.hbm, 372, rfl⟩
abbrev main_v286 : Ref sig .tc := ⟨.hbm, 373, rfl⟩
abbrev main_v287 : Ref sig .tc := ⟨.hbm, 374, rfl⟩
abbrev main_v288 : Ref sig .tc := ⟨.hbm, 375, rfl⟩
abbrev main_cst_44 : Ref sig .tc := ⟨.hbm, 376, rfl⟩
abbrev main_v289 : Ref sig .tc := ⟨.hbm, 377, rfl⟩
abbrev main_v290 : Ref sig .tc := ⟨.hbm, 378, rfl⟩
abbrev main_v291 : Ref sig .tc := ⟨.hbm, 379, rfl⟩
abbrev main_v292 : Ref sig .tc := ⟨.hbm, 380, rfl⟩
abbrev main_v293_0 : Ref sig .tc := ⟨.hbm, 381, rfl⟩
abbrev main_v293_1 : Ref sig .tc := ⟨.hbm, 382, rfl⟩
abbrev main_v293_2 : Ref sig .tc := ⟨.hbm, 383, rfl⟩
abbrev main_cst_45 : Ref sig .tc := ⟨.hbm, 384, rfl⟩
abbrev main_v294 : Ref sig .tc := ⟨.hbm, 385, rfl⟩
abbrev main_v295 : Ref sig .tc := ⟨.hbm, 386, rfl⟩
abbrev main_v296 : Ref sig .tc := ⟨.hbm, 387, rfl⟩
abbrev main_cst_46 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_v302 : Ref sig .tc := ⟨.hbm, 394, rfl⟩
abbrev main_v303 : Ref sig .tc := ⟨.hbm, 395, rfl⟩
abbrev main_c_47 : Ref sig .tc := ⟨.hbm, 396, rfl⟩
abbrev main_v304 : Ref sig .tc := ⟨.hbm, 397, rfl⟩
abbrev main_v305 : Ref sig .tc := ⟨.hbm, 398, rfl⟩
abbrev main_c_48 : Ref sig .tc := ⟨.hbm, 399, rfl⟩
abbrev main_v306 : Ref sig .tc := ⟨.hbm, 400, rfl⟩
abbrev main_v307 : Ref sig .tc := ⟨.hbm, 401, rfl⟩
abbrev main_v308 : Ref sig .tc := ⟨.hbm, 402, rfl⟩
abbrev main_v309 : Ref sig .tc := ⟨.hbm, 403, rfl⟩
abbrev main_v310 : Ref sig .tc := ⟨.hbm, 404, rfl⟩
abbrev main_v311 : Ref sig .tc := ⟨.hbm, 405, rfl⟩
abbrev main_v312 : Ref sig .tc := ⟨.hbm, 406, rfl⟩
abbrev main_v313 : Ref sig .tc := ⟨.hbm, 407, rfl⟩
abbrev main_cst_49 : Ref sig .tc := ⟨.hbm, 408, rfl⟩
abbrev main_v314 : Ref sig .tc := ⟨.hbm, 409, rfl⟩
abbrev main_v315 : Ref sig .tc := ⟨.hbm, 410, rfl⟩
abbrev main_v316 : Ref sig .tc := ⟨.hbm, 411, rfl⟩
abbrev main_v317 : Ref sig .tc := ⟨.hbm, 412, rfl⟩
abbrev main_v318_0 : Ref sig .tc := ⟨.hbm, 413, rfl⟩
abbrev main_v318_1 : Ref sig .tc := ⟨.hbm, 414, rfl⟩
abbrev main_v318_2 : Ref sig .tc := ⟨.hbm, 415, rfl⟩
abbrev main_cst_50 : Ref sig .tc := ⟨.hbm, 416, rfl⟩
abbrev main_v319 : Ref sig .tc := ⟨.hbm, 417, rfl⟩
abbrev main_v320 : Ref sig .tc := ⟨.hbm, 418, rfl⟩
abbrev main_v321 : Ref sig .tc := ⟨.hbm, 419, rfl⟩
abbrev main_cst_51 : Ref sig .tc := ⟨.hbm, 420, rfl⟩
abbrev main_v322 : Ref sig .tc := ⟨.hbm, 421, rfl⟩
abbrev main_v323 : Ref sig .tc := ⟨.hbm, 422, rfl⟩
abbrev main_v324 : Ref sig .tc := ⟨.hbm, 423, rfl⟩
abbrev main_v325 : Ref sig .tc := ⟨.hbm, 424, rfl⟩
abbrev main_v326 : Ref sig .tc := ⟨.hbm, 425, rfl⟩
abbrev main_v327 : Ref sig .tc := ⟨.hbm, 426, rfl⟩
abbrev main_v328 : Ref sig .tc := ⟨.hbm, 427, rfl⟩
abbrev main_c_52 : Ref sig .tc := ⟨.hbm, 428, rfl⟩
abbrev main_v329 : Ref sig .tc := ⟨.hbm, 429, rfl⟩
abbrev main_v330 : Ref sig .tc := ⟨.hbm, 430, rfl⟩
abbrev main_c_53 : Ref sig .tc := ⟨.hbm, 431, rfl⟩
abbrev main_v331 : Ref sig .tc := ⟨.hbm, 432, rfl⟩
abbrev main_v332 : Ref sig .tc := ⟨.hbm, 433, rfl⟩
abbrev main_v333 : Ref sig .tc := ⟨.hbm, 434, rfl⟩
abbrev main_v334 : Ref sig .tc := ⟨.hbm, 435, rfl⟩
abbrev main_v335 : Ref sig .tc := ⟨.hbm, 436, rfl⟩
abbrev main_v336 : Ref sig .tc := ⟨.hbm, 437, rfl⟩
abbrev main_v337 : Ref sig .tc := ⟨.hbm, 438, rfl⟩
abbrev main_v338 : Ref sig .tc := ⟨.hbm, 439, rfl⟩
abbrev main_cst_54 : Ref sig .tc := ⟨.hbm, 440, rfl⟩
abbrev main_v339 : Ref sig .tc := ⟨.hbm, 441, rfl⟩
abbrev main_v340 : Ref sig .tc := ⟨.hbm, 442, rfl⟩
abbrev main_v341 : Ref sig .tc := ⟨.hbm, 443, rfl⟩
abbrev main_v342 : Ref sig .tc := ⟨.hbm, 444, rfl⟩
abbrev main_v343_0 : Ref sig .tc := ⟨.hbm, 445, rfl⟩
abbrev main_v343_1 : Ref sig .tc := ⟨.hbm, 446, rfl⟩
abbrev main_v343_2 : Ref sig .tc := ⟨.hbm, 447, rfl⟩
abbrev main_cst_55 : Ref sig .tc := ⟨.hbm, 448, rfl⟩
abbrev main_v344 : Ref sig .tc := ⟨.hbm, 449, rfl⟩
abbrev main_v345 : Ref sig .tc := ⟨.hbm, 450, rfl⟩
abbrev main_v346 : Ref sig .tc := ⟨.hbm, 451, rfl⟩
abbrev main_cst_56 : Ref sig .tc := ⟨.hbm, 452, rfl⟩
abbrev main_v347 : Ref sig .tc := ⟨.hbm, 453, rfl⟩
abbrev main_v348 : Ref sig .tc := ⟨.hbm, 454, rfl⟩
abbrev main_v349 : Ref sig .tc := ⟨.hbm, 455, rfl⟩
abbrev main_v350 : Ref sig .tc := ⟨.hbm, 456, rfl⟩
abbrev main_v351 : Ref sig .tc := ⟨.hbm, 457, rfl⟩
abbrev main_v352 : Ref sig .tc := ⟨.hbm, 458, rfl⟩
abbrev main_v353 : Ref sig .tc := ⟨.hbm, 459, rfl⟩
abbrev main_c_57 : Ref sig .tc := ⟨.hbm, 460, rfl⟩
abbrev main_v354 : Ref sig .tc := ⟨.hbm, 461, rfl⟩
abbrev main_v355 : Ref sig .tc := ⟨.hbm, 462, rfl⟩
abbrev main_c_58 : Ref sig .tc := ⟨.hbm, 463, rfl⟩
abbrev main_v356 : Ref sig .tc := ⟨.hbm, 464, rfl⟩
abbrev main_v357 : Ref sig .tc := ⟨.hbm, 465, rfl⟩
abbrev main_v358 : Ref sig .tc := ⟨.hbm, 466, rfl⟩
abbrev main_v359 : Ref sig .tc := ⟨.hbm, 467, rfl⟩
abbrev main_v360 : Ref sig .tc := ⟨.hbm, 468, rfl⟩
abbrev main_v361 : Ref sig .tc := ⟨.hbm, 469, rfl⟩
abbrev main_v362 : Ref sig .tc := ⟨.hbm, 470, rfl⟩
abbrev main_v363 : Ref sig .tc := ⟨.hbm, 471, rfl⟩
abbrev main_cst_59 : Ref sig .tc := ⟨.hbm, 472, rfl⟩
abbrev main_v364 : Ref sig .tc := ⟨.hbm, 473, rfl⟩
abbrev main_v365 : Ref sig .tc := ⟨.hbm, 474, rfl⟩
abbrev main_v366 : Ref sig .tc := ⟨.hbm, 475, rfl⟩
abbrev main_v367 : Ref sig .tc := ⟨.hbm, 476, rfl⟩
abbrev main_v368_0 : Ref sig .tc := ⟨.hbm, 477, rfl⟩
abbrev main_v368_1 : Ref sig .tc := ⟨.hbm, 478, rfl⟩
abbrev main_v368_2 : Ref sig .tc := ⟨.hbm, 479, rfl⟩
abbrev main_cst_60 : Ref sig .tc := ⟨.hbm, 480, rfl⟩
abbrev main_v369 : Ref sig .tc := ⟨.hbm, 481, rfl⟩
abbrev main_v370 : Ref sig .tc := ⟨.hbm, 482, rfl⟩
abbrev main_v371 : Ref sig .tc := ⟨.hbm, 483, rfl⟩
abbrev main_cst_61 : Ref sig .tc := ⟨.hbm, 484, rfl⟩
abbrev main_v372 : Ref sig .tc := ⟨.hbm, 485, rfl⟩
abbrev main_v373 : Ref sig .tc := ⟨.hbm, 486, rfl⟩
abbrev main_v374 : Ref sig .tc := ⟨.hbm, 487, rfl⟩
abbrev main_v375 : Ref sig .tc := ⟨.hbm, 488, rfl⟩
abbrev main_v376 : Ref sig .tc := ⟨.hbm, 489, rfl⟩
abbrev main_v377 : Ref sig .tc := ⟨.hbm, 490, rfl⟩
abbrev main_v378 : Ref sig .tc := ⟨.hbm, 491, rfl⟩
abbrev main_c_62 : Ref sig .tc := ⟨.hbm, 492, rfl⟩
abbrev main_v379 : Ref sig .tc := ⟨.hbm, 493, rfl⟩
abbrev main_v380 : Ref sig .tc := ⟨.hbm, 494, rfl⟩
abbrev main_c_63 : Ref sig .tc := ⟨.hbm, 495, rfl⟩
abbrev main_v381 : Ref sig .tc := ⟨.hbm, 496, rfl⟩
abbrev main_v382 : Ref sig .tc := ⟨.hbm, 497, rfl⟩
abbrev main_v383 : Ref sig .tc := ⟨.hbm, 498, rfl⟩
abbrev main_v384 : Ref sig .tc := ⟨.hbm, 499, rfl⟩
abbrev main_v385 : Ref sig .tc := ⟨.hbm, 500, rfl⟩
abbrev main_v386 : Ref sig .tc := ⟨.hbm, 501, rfl⟩
abbrev main_v387 : Ref sig .tc := ⟨.hbm, 502, rfl⟩
abbrev main_v388 : Ref sig .tc := ⟨.hbm, 503, rfl⟩
abbrev main_cst_64 : Ref sig .tc := ⟨.hbm, 504, rfl⟩
abbrev main_v389 : Ref sig .tc := ⟨.hbm, 505, rfl⟩
abbrev main_v390 : Ref sig .tc := ⟨.hbm, 506, rfl⟩
abbrev main_v391 : Ref sig .tc := ⟨.hbm, 507, rfl⟩
abbrev main_v392 : Ref sig .tc := ⟨.hbm, 508, rfl⟩
abbrev main_v393_0 : Ref sig .tc := ⟨.hbm, 509, rfl⟩
abbrev main_v393_1 : Ref sig .tc := ⟨.hbm, 510, rfl⟩
abbrev main_cst_65 : Ref sig .tc := ⟨.hbm, 511, rfl⟩
abbrev main_v394 : Ref sig .tc := ⟨.hbm, 512, rfl⟩
abbrev main_v395 : Ref sig .tc := ⟨.hbm, 513, rfl⟩
abbrev main_v396 : Ref sig .tc := ⟨.hbm, 514, rfl⟩
abbrev main_cst_66 : Ref sig .tc := ⟨.hbm, 515, rfl⟩
abbrev main_v397 : Ref sig .tc := ⟨.hbm, 516, rfl⟩
abbrev main_v398 : Ref sig .tc := ⟨.hbm, 517, rfl⟩
abbrev main_v399 : Ref sig .tc := ⟨.hbm, 518, rfl⟩
abbrev main_v400 : Ref sig .tc := ⟨.hbm, 519, rfl⟩
abbrev main_v401 : Ref sig .tc := ⟨.hbm, 520, rfl⟩
abbrev main_v402 : Ref sig .tc := ⟨.hbm, 521, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_scratch0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg5_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc6_stg3_0 : Ref sig .tc := ⟨.vmem, 43, rfl⟩
abbrev cc6_scratch0 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_scratch0 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg2_0 : Ref sig .tc := ⟨.vmem, 53, rfl⟩
abbrev cc8_stg3_0 : Ref sig .tc := ⟨.vmem, 54, rfl⟩
abbrev cc8_stg4_0 : Ref sig .tc := ⟨.vmem, 55, rfl⟩
abbrev cc8_stg5_0 : Ref sig .tc := ⟨.vmem, 56, rfl⟩
abbrev cc8_stg5_1 : Ref sig .tc := ⟨.vmem, 57, rfl⟩
abbrev cc9_stg0_0 : Ref sig .tc := ⟨.vmem, 58, rfl⟩
abbrev cc9_stg0_1 : Ref sig .tc := ⟨.vmem, 59, rfl⟩
abbrev cc9_stg1_0 : Ref sig .tc := ⟨.vmem, 60, rfl⟩
abbrev cc9_stg2_0 : Ref sig .tc := ⟨.vmem, 61, rfl⟩
abbrev cc9_stg2_1 : Ref sig .tc := ⟨.vmem, 62, rfl⟩
abbrev cc10_stg0_0 : Ref sig .tc := ⟨.vmem, 63, rfl⟩
abbrev cc10_stg0_1 : Ref sig .tc := ⟨.vmem, 64, rfl⟩
abbrev cc10_stg1_0 : Ref sig .tc := ⟨.vmem, 65, rfl⟩
abbrev cc10_stg2_0 : Ref sig .tc := ⟨.vmem, 66, rfl⟩
abbrev cc10_stg2_1 : Ref sig .tc := ⟨.vmem, 67, rfl⟩
abbrev cc10_stg3_0 : Ref sig .tc := ⟨.vmem, 68, rfl⟩
abbrev cc10_stg3_1 : Ref sig .tc := ⟨.vmem, 69, rfl⟩
abbrev cc10_stg4_0 : Ref sig .tc := ⟨.vmem, 70, rfl⟩
abbrev cc10_scratch0 : Ref sig .tc := ⟨.vmem, 71, rfl⟩
abbrev cc11_stg0_0 : Ref sig .tc := ⟨.vmem, 72, rfl⟩
abbrev cc11_stg0_1 : Ref sig .tc := ⟨.vmem, 73, rfl⟩
abbrev cc11_stg1_0 : Ref sig .tc := ⟨.vmem, 74, rfl⟩
abbrev cc11_stg2_0 : Ref sig .tc := ⟨.vmem, 75, rfl⟩
abbrev cc11_scratch0 : Ref sig .tc := ⟨.vmem, 76, rfl⟩
abbrev cc12_stg0_0 : Ref sig .tc := ⟨.vmem, 77, rfl⟩
abbrev cc12_stg0_1 : Ref sig .tc := ⟨.vmem, 78, rfl⟩
abbrev cc12_stg1_0 : Ref sig .tc := ⟨.vmem, 79, rfl⟩
abbrev cc12_stg2_0 : Ref sig .tc := ⟨.vmem, 80, rfl⟩
abbrev cc12_stg3_0 : Ref sig .tc := ⟨.vmem, 81, rfl⟩
abbrev cc12_stg4_0 : Ref sig .tc := ⟨.vmem, 82, rfl⟩
abbrev cc12_stg5_0 : Ref sig .tc := ⟨.vmem, 83, rfl⟩
abbrev cc12_stg5_1 : Ref sig .tc := ⟨.vmem, 84, rfl⟩
abbrev cc13_stg0_0 : Ref sig .tc := ⟨.vmem, 85, rfl⟩
abbrev cc13_stg0_1 : Ref sig .tc := ⟨.vmem, 86, rfl⟩
abbrev cc13_stg1_0 : Ref sig .tc := ⟨.vmem, 87, rfl⟩
abbrev cc13_stg2_0 : Ref sig .tc := ⟨.vmem, 88, rfl⟩
abbrev cc13_stg2_1 : Ref sig .tc := ⟨.vmem, 89, rfl⟩
abbrev cc14_stg0_0 : Ref sig .tc := ⟨.vmem, 90, rfl⟩
abbrev cc14_stg0_1 : Ref sig .tc := ⟨.vmem, 91, rfl⟩
abbrev cc14_stg1_0 : Ref sig .tc := ⟨.vmem, 92, rfl⟩
abbrev cc14_stg2_0 : Ref sig .tc := ⟨.vmem, 93, rfl⟩
abbrev cc14_stg2_1 : Ref sig .tc := ⟨.vmem, 94, rfl⟩
abbrev cc14_stg3_0 : Ref sig .tc := ⟨.vmem, 95, rfl⟩
abbrev cc14_stg3_1 : Ref sig .tc := ⟨.vmem, 96, rfl⟩
abbrev cc14_stg4_0 : Ref sig .tc := ⟨.vmem, 97, rfl⟩
abbrev cc14_stg4_1 : Ref sig .tc := ⟨.vmem, 98, rfl⟩
abbrev cc14_stg5_0 : Ref sig .tc := ⟨.vmem, 99, rfl⟩
abbrev cc14_scratch0 : Ref sig .tc := ⟨.vmem, 100, rfl⟩
abbrev cc15_stg0_0 : Ref sig .tc := ⟨.vmem, 101, rfl⟩
abbrev cc15_stg0_1 : Ref sig .tc := ⟨.vmem, 102, rfl⟩
abbrev cc15_stg1_0 : Ref sig .tc := ⟨.vmem, 103, rfl⟩
abbrev cc15_stg2_0 : Ref sig .tc := ⟨.vmem, 104, rfl⟩
abbrev cc15_scratch0 : Ref sig .tc := ⟨.vmem, 105, rfl⟩
abbrev cc16_stg0_0 : Ref sig .tc := ⟨.vmem, 106, rfl⟩
abbrev cc16_stg0_1 : Ref sig .tc := ⟨.vmem, 107, rfl⟩
abbrev cc16_stg1_0 : Ref sig .tc := ⟨.vmem, 108, rfl⟩
abbrev cc16_stg2_0 : Ref sig .tc := ⟨.vmem, 109, rfl⟩
abbrev cc16_stg3_0 : Ref sig .tc := ⟨.vmem, 110, rfl⟩
abbrev cc16_stg4_0 : Ref sig .tc := ⟨.vmem, 111, rfl⟩
abbrev cc16_stg5_0 : Ref sig .tc := ⟨.vmem, 112, rfl⟩
abbrev cc16_stg5_1 : Ref sig .tc := ⟨.vmem, 113, rfl⟩
abbrev cc17_stg0_0 : Ref sig .tc := ⟨.vmem, 114, rfl⟩
abbrev cc17_stg0_1 : Ref sig .tc := ⟨.vmem, 115, rfl⟩
abbrev cc17_stg1_0 : Ref sig .tc := ⟨.vmem, 116, rfl⟩
abbrev cc17_stg2_0 : Ref sig .tc := ⟨.vmem, 117, rfl⟩
abbrev cc17_stg2_1 : Ref sig .tc := ⟨.vmem, 118, rfl⟩
abbrev cc18_stg0_0 : Ref sig .tc := ⟨.vmem, 119, rfl⟩
abbrev cc18_stg0_1 : Ref sig .tc := ⟨.vmem, 120, rfl⟩
abbrev cc18_stg1_0 : Ref sig .tc := ⟨.vmem, 121, rfl⟩
abbrev cc18_stg2_0 : Ref sig .tc := ⟨.vmem, 122, rfl⟩
abbrev cc18_stg2_1 : Ref sig .tc := ⟨.vmem, 123, rfl⟩
abbrev cc18_stg3_0 : Ref sig .tc := ⟨.vmem, 124, rfl⟩
abbrev cc18_stg3_1 : Ref sig .tc := ⟨.vmem, 125, rfl⟩
abbrev cc18_stg4_0 : Ref sig .tc := ⟨.vmem, 126, rfl⟩
abbrev cc18_stg4_1 : Ref sig .tc := ⟨.vmem, 127, rfl⟩
abbrev cc18_stg5_0 : Ref sig .tc := ⟨.vmem, 128, rfl⟩
abbrev cc18_scratch0 : Ref sig .tc := ⟨.vmem, 129, rfl⟩
abbrev cc19_stg0_0 : Ref sig .tc := ⟨.vmem, 130, rfl⟩
abbrev cc19_stg0_1 : Ref sig .tc := ⟨.vmem, 131, rfl⟩
abbrev cc19_stg1_0 : Ref sig .tc := ⟨.vmem, 132, rfl⟩
abbrev cc19_stg2_0 : Ref sig .tc := ⟨.vmem, 133, rfl⟩
abbrev cc19_scratch0 : Ref sig .tc := ⟨.vmem, 134, rfl⟩
abbrev cc20_stg0_0 : Ref sig .tc := ⟨.vmem, 135, rfl⟩
abbrev cc20_stg0_1 : Ref sig .tc := ⟨.vmem, 136, rfl⟩
abbrev cc20_stg1_0 : Ref sig .tc := ⟨.vmem, 137, rfl⟩
abbrev cc20_stg2_0 : Ref sig .tc := ⟨.vmem, 138, rfl⟩
abbrev cc20_stg3_0 : Ref sig .tc := ⟨.vmem, 139, rfl⟩
abbrev cc20_stg4_0 : Ref sig .tc := ⟨.vmem, 140, rfl⟩
abbrev cc20_stg5_0 : Ref sig .tc := ⟨.vmem, 141, rfl⟩
abbrev cc20_stg5_1 : Ref sig .tc := ⟨.vmem, 142, rfl⟩
abbrev cc21_stg0_0 : Ref sig .tc := ⟨.vmem, 143, rfl⟩
abbrev cc21_stg0_1 : Ref sig .tc := ⟨.vmem, 144, rfl⟩
abbrev cc21_stg1_0 : Ref sig .tc := ⟨.vmem, 145, rfl⟩
abbrev cc21_stg2_0 : Ref sig .tc := ⟨.vmem, 146, rfl⟩
abbrev cc21_stg2_1 : Ref sig .tc := ⟨.vmem, 147, rfl⟩
abbrev cc22_stg0_0 : Ref sig .tc := ⟨.vmem, 148, rfl⟩
abbrev cc22_stg0_1 : Ref sig .tc := ⟨.vmem, 149, rfl⟩
abbrev cc22_stg1_0 : Ref sig .tc := ⟨.vmem, 150, rfl⟩
abbrev cc22_stg2_0 : Ref sig .tc := ⟨.vmem, 151, rfl⟩
abbrev cc22_stg2_1 : Ref sig .tc := ⟨.vmem, 152, rfl⟩
abbrev cc22_stg3_0 : Ref sig .tc := ⟨.vmem, 153, rfl⟩
abbrev cc22_stg3_1 : Ref sig .tc := ⟨.vmem, 154, rfl⟩
abbrev cc22_stg4_0 : Ref sig .tc := ⟨.vmem, 155, rfl⟩
abbrev cc22_stg4_1 : Ref sig .tc := ⟨.vmem, 156, rfl⟩
abbrev cc22_stg5_0 : Ref sig .tc := ⟨.vmem, 157, rfl⟩
abbrev cc22_scratch0 : Ref sig .tc := ⟨.vmem, 158, rfl⟩
abbrev cc23_stg0_0 : Ref sig .tc := ⟨.vmem, 159, rfl⟩
abbrev cc23_stg0_1 : Ref sig .tc := ⟨.vmem, 160, rfl⟩
abbrev cc23_stg1_0 : Ref sig .tc := ⟨.vmem, 161, rfl⟩
abbrev cc23_stg2_0 : Ref sig .tc := ⟨.vmem, 162, rfl⟩
abbrev cc23_scratch0 : Ref sig .tc := ⟨.vmem, 163, rfl⟩
abbrev cc24_stg0_0 : Ref sig .tc := ⟨.vmem, 164, rfl⟩
abbrev cc24_stg0_1 : Ref sig .tc := ⟨.vmem, 165, rfl⟩
abbrev cc24_stg1_0 : Ref sig .tc := ⟨.vmem, 166, rfl⟩
abbrev cc24_stg2_0 : Ref sig .tc := ⟨.vmem, 167, rfl⟩
abbrev cc24_stg3_0 : Ref sig .tc := ⟨.vmem, 168, rfl⟩
abbrev cc24_stg4_0 : Ref sig .tc := ⟨.vmem, 169, rfl⟩
abbrev cc24_stg5_0 : Ref sig .tc := ⟨.vmem, 170, rfl⟩
abbrev cc24_stg5_1 : Ref sig .tc := ⟨.vmem, 171, rfl⟩
abbrev cc25_stg0_0 : Ref sig .tc := ⟨.vmem, 172, rfl⟩
abbrev cc25_stg0_1 : Ref sig .tc := ⟨.vmem, 173, rfl⟩
abbrev cc25_stg1_0 : Ref sig .tc := ⟨.vmem, 174, rfl⟩
abbrev cc25_stg2_0 : Ref sig .tc := ⟨.vmem, 175, rfl⟩
abbrev cc25_stg2_1 : Ref sig .tc := ⟨.vmem, 176, rfl⟩
abbrev cc26_stg0_0 : Ref sig .tc := ⟨.vmem, 177, rfl⟩
abbrev cc26_stg0_1 : Ref sig .tc := ⟨.vmem, 178, rfl⟩
abbrev cc26_stg1_0 : Ref sig .tc := ⟨.vmem, 179, rfl⟩
abbrev cc26_stg2_0 : Ref sig .tc := ⟨.vmem, 180, rfl⟩
abbrev cc26_stg2_1 : Ref sig .tc := ⟨.vmem, 181, rfl⟩
abbrev cc26_stg3_0 : Ref sig .tc := ⟨.vmem, 182, rfl⟩
abbrev cc26_stg3_1 : Ref sig .tc := ⟨.vmem, 183, rfl⟩
abbrev cc26_stg4_0 : Ref sig .tc := ⟨.vmem, 184, rfl⟩
abbrev cc26_stg4_1 : Ref sig .tc := ⟨.vmem, 185, rfl⟩
abbrev cc26_stg5_0 : Ref sig .tc := ⟨.vmem, 186, rfl⟩
abbrev cc26_scratch0 : Ref sig .tc := ⟨.vmem, 187, rfl⟩
abbrev cc27_stg0_0 : Ref sig .tc := ⟨.vmem, 188, rfl⟩
abbrev cc27_stg0_1 : Ref sig .tc := ⟨.vmem, 189, rfl⟩
abbrev cc27_stg1_0 : Ref sig .tc := ⟨.vmem, 190, rfl⟩
abbrev cc27_stg2_0 : Ref sig .tc := ⟨.vmem, 191, rfl⟩
abbrev cc27_scratch0 : Ref sig .tc := ⟨.vmem, 192, rfl⟩
abbrev cc28_stg0_0 : Ref sig .tc := ⟨.vmem, 193, rfl⟩
abbrev cc28_stg0_1 : Ref sig .tc := ⟨.vmem, 194, rfl⟩
abbrev cc28_stg1_0 : Ref sig .tc := ⟨.vmem, 195, rfl⟩
abbrev cc28_stg2_0 : Ref sig .tc := ⟨.vmem, 196, rfl⟩
abbrev cc28_stg3_0 : Ref sig .tc := ⟨.vmem, 197, rfl⟩
abbrev cc28_stg4_0 : Ref sig .tc := ⟨.vmem, 198, rfl⟩
abbrev cc28_stg5_0 : Ref sig .tc := ⟨.vmem, 199, rfl⟩
abbrev cc28_stg5_1 : Ref sig .tc := ⟨.vmem, 200, rfl⟩
abbrev cc29_stg0_0 : Ref sig .tc := ⟨.vmem, 201, rfl⟩
abbrev cc29_stg0_1 : Ref sig .tc := ⟨.vmem, 202, rfl⟩
abbrev cc29_stg1_0 : Ref sig .tc := ⟨.vmem, 203, rfl⟩
abbrev cc29_stg2_0 : Ref sig .tc := ⟨.vmem, 204, rfl⟩
abbrev cc29_stg2_1 : Ref sig .tc := ⟨.vmem, 205, rfl⟩
abbrev cc30_stg0_0 : Ref sig .tc := ⟨.vmem, 206, rfl⟩
abbrev cc30_stg0_1 : Ref sig .tc := ⟨.vmem, 207, rfl⟩
abbrev cc30_stg1_0 : Ref sig .tc := ⟨.vmem, 208, rfl⟩
abbrev cc30_stg2_0 : Ref sig .tc := ⟨.vmem, 209, rfl⟩
abbrev cc30_stg2_1 : Ref sig .tc := ⟨.vmem, 210, rfl⟩
abbrev cc30_stg3_0 : Ref sig .tc := ⟨.vmem, 211, rfl⟩
abbrev cc30_stg3_1 : Ref sig .tc := ⟨.vmem, 212, rfl⟩
abbrev cc30_stg4_0 : Ref sig .tc := ⟨.vmem, 213, rfl⟩
abbrev cc30_stg4_1 : Ref sig .tc := ⟨.vmem, 214, rfl⟩
abbrev cc30_stg5_0 : Ref sig .tc := ⟨.vmem, 215, rfl⟩
abbrev cc30_scratch0 : Ref sig .tc := ⟨.vmem, 216, rfl⟩
abbrev cc31_stg0_0 : Ref sig .tc := ⟨.vmem, 217, rfl⟩
abbrev cc31_stg0_1 : Ref sig .tc := ⟨.vmem, 218, rfl⟩
abbrev cc31_stg1_0 : Ref sig .tc := ⟨.vmem, 219, rfl⟩
abbrev cc31_stg2_0 : Ref sig .tc := ⟨.vmem, 220, rfl⟩
abbrev cc31_scratch0 : Ref sig .tc := ⟨.vmem, 221, rfl⟩
abbrev cc32_stg0_0 : Ref sig .tc := ⟨.vmem, 222, rfl⟩
abbrev cc32_stg0_1 : Ref sig .tc := ⟨.vmem, 223, rfl⟩
abbrev cc32_stg1_0 : Ref sig .tc := ⟨.vmem, 224, rfl⟩
abbrev cc32_stg2_0 : Ref sig .tc := ⟨.vmem, 225, rfl⟩
abbrev cc32_stg3_0 : Ref sig .tc := ⟨.vmem, 226, rfl⟩
abbrev cc32_stg4_0 : Ref sig .tc := ⟨.vmem, 227, rfl⟩
abbrev cc32_stg5_0 : Ref sig .tc := ⟨.vmem, 228, rfl⟩
abbrev cc32_stg5_1 : Ref sig .tc := ⟨.vmem, 229, rfl⟩
abbrev cc33_stg0_0 : Ref sig .tc := ⟨.vmem, 230, rfl⟩
abbrev cc33_stg0_1 : Ref sig .tc := ⟨.vmem, 231, rfl⟩
abbrev cc33_stg1_0 : Ref sig .tc := ⟨.vmem, 232, rfl⟩
abbrev cc33_stg2_0 : Ref sig .tc := ⟨.vmem, 233, rfl⟩
abbrev cc33_stg2_1 : Ref sig .tc := ⟨.vmem, 234, rfl⟩
abbrev cc34_stg0_0 : Ref sig .tc := ⟨.vmem, 235, rfl⟩
abbrev cc34_stg0_1 : Ref sig .tc := ⟨.vmem, 236, rfl⟩
abbrev cc34_stg1_0 : Ref sig .tc := ⟨.vmem, 237, rfl⟩
abbrev cc34_stg2_0 : Ref sig .tc := ⟨.vmem, 238, rfl⟩
abbrev cc34_stg2_1 : Ref sig .tc := ⟨.vmem, 239, rfl⟩
abbrev cc34_stg3_0 : Ref sig .tc := ⟨.vmem, 240, rfl⟩
abbrev cc34_stg3_1 : Ref sig .tc := ⟨.vmem, 241, rfl⟩
abbrev cc34_stg4_0 : Ref sig .tc := ⟨.vmem, 242, rfl⟩
abbrev cc34_stg4_1 : Ref sig .tc := ⟨.vmem, 243, rfl⟩
abbrev cc34_stg5_0 : Ref sig .tc := ⟨.vmem, 244, rfl⟩
abbrev cc34_scratch0 : Ref sig .tc := ⟨.vmem, 245, rfl⟩
abbrev cc35_stg0_0 : Ref sig .tc := ⟨.vmem, 246, rfl⟩
abbrev cc35_stg0_1 : Ref sig .tc := ⟨.vmem, 247, rfl⟩
abbrev cc35_stg1_0 : Ref sig .tc := ⟨.vmem, 248, rfl⟩
abbrev cc35_stg2_0 : Ref sig .tc := ⟨.vmem, 249, rfl⟩
abbrev cc35_scratch0 : Ref sig .tc := ⟨.vmem, 250, rfl⟩
abbrev cc36_stg0_0 : Ref sig .tc := ⟨.vmem, 251, rfl⟩
abbrev cc36_stg0_1 : Ref sig .tc := ⟨.vmem, 252, rfl⟩
abbrev cc36_stg1_0 : Ref sig .tc := ⟨.vmem, 253, rfl⟩
abbrev cc36_stg2_0 : Ref sig .tc := ⟨.vmem, 254, rfl⟩
abbrev cc36_stg3_0 : Ref sig .tc := ⟨.vmem, 255, rfl⟩
abbrev cc36_stg4_0 : Ref sig .tc := ⟨.vmem, 256, rfl⟩
abbrev cc36_stg5_0 : Ref sig .tc := ⟨.vmem, 257, rfl⟩
abbrev cc36_stg5_1 : Ref sig .tc := ⟨.vmem, 258, rfl⟩
abbrev cc37_stg0_0 : Ref sig .tc := ⟨.vmem, 259, rfl⟩
abbrev cc37_stg0_1 : Ref sig .tc := ⟨.vmem, 260, rfl⟩
abbrev cc37_stg1_0 : Ref sig .tc := ⟨.vmem, 261, rfl⟩
abbrev cc37_stg2_0 : Ref sig .tc := ⟨.vmem, 262, rfl⟩
abbrev cc37_stg2_1 : Ref sig .tc := ⟨.vmem, 263, rfl⟩
abbrev cc38_stg0_0 : Ref sig .tc := ⟨.vmem, 264, rfl⟩
abbrev cc38_stg0_1 : Ref sig .tc := ⟨.vmem, 265, rfl⟩
abbrev cc38_stg1_0 : Ref sig .tc := ⟨.vmem, 266, rfl⟩
abbrev cc38_stg2_0 : Ref sig .tc := ⟨.vmem, 267, rfl⟩
abbrev cc38_stg2_1 : Ref sig .tc := ⟨.vmem, 268, rfl⟩
abbrev cc38_stg3_0 : Ref sig .tc := ⟨.vmem, 269, rfl⟩
abbrev cc38_stg3_1 : Ref sig .tc := ⟨.vmem, 270, rfl⟩
abbrev cc38_stg4_0 : Ref sig .tc := ⟨.vmem, 271, rfl⟩
abbrev cc38_stg4_1 : Ref sig .tc := ⟨.vmem, 272, rfl⟩
abbrev cc38_stg5_0 : Ref sig .tc := ⟨.vmem, 273, rfl⟩
abbrev cc38_scratch0 : Ref sig .tc := ⟨.vmem, 274, rfl⟩
abbrev cc39_stg0_0 : Ref sig .tc := ⟨.vmem, 275, rfl⟩
abbrev cc39_stg0_1 : Ref sig .tc := ⟨.vmem, 276, rfl⟩
abbrev cc39_stg1_0 : Ref sig .tc := ⟨.vmem, 277, rfl⟩
abbrev cc39_stg2_0 : Ref sig .tc := ⟨.vmem, 278, rfl⟩
abbrev cc39_scratch0 : Ref sig .tc := ⟨.vmem, 279, rfl⟩
abbrev cc40_stg0_0 : Ref sig .tc := ⟨.vmem, 280, rfl⟩
abbrev cc40_stg0_1 : Ref sig .tc := ⟨.vmem, 281, rfl⟩
abbrev cc40_stg1_0 : Ref sig .tc := ⟨.vmem, 282, rfl⟩
abbrev cc40_stg2_0 : Ref sig .tc := ⟨.vmem, 283, rfl⟩
abbrev cc40_stg3_0 : Ref sig .tc := ⟨.vmem, 284, rfl⟩
abbrev cc40_stg4_0 : Ref sig .tc := ⟨.vmem, 285, rfl⟩
abbrev cc40_stg5_0 : Ref sig .tc := ⟨.vmem, 286, rfl⟩
abbrev cc40_stg5_1 : Ref sig .tc := ⟨.vmem, 287, rfl⟩
abbrev cc41_stg0_0 : Ref sig .tc := ⟨.vmem, 288, rfl⟩
abbrev cc41_stg0_1 : Ref sig .tc := ⟨.vmem, 289, rfl⟩
abbrev cc41_stg1_0 : Ref sig .tc := ⟨.vmem, 290, rfl⟩
abbrev cc41_stg2_0 : Ref sig .tc := ⟨.vmem, 291, rfl⟩
abbrev cc41_stg2_1 : Ref sig .tc := ⟨.vmem, 292, rfl⟩
abbrev cc42_stg0_0 : Ref sig .tc := ⟨.vmem, 293, rfl⟩
abbrev cc42_stg0_1 : Ref sig .tc := ⟨.vmem, 294, rfl⟩
abbrev cc42_stg1_0 : Ref sig .tc := ⟨.vmem, 295, rfl⟩
abbrev cc42_stg2_0 : Ref sig .tc := ⟨.vmem, 296, rfl⟩
abbrev cc42_stg2_1 : Ref sig .tc := ⟨.vmem, 297, rfl⟩
abbrev cc42_stg3_0 : Ref sig .tc := ⟨.vmem, 298, rfl⟩
abbrev cc42_stg3_1 : Ref sig .tc := ⟨.vmem, 299, rfl⟩
abbrev cc42_stg4_0 : Ref sig .tc := ⟨.vmem, 300, rfl⟩
abbrev cc42_stg4_1 : Ref sig .tc := ⟨.vmem, 301, rfl⟩
abbrev cc42_stg5_0 : Ref sig .tc := ⟨.vmem, 302, rfl⟩
abbrev cc42_scratch0 : Ref sig .tc := ⟨.vmem, 303, rfl⟩
abbrev cc43_stg0_0 : Ref sig .tc := ⟨.vmem, 304, rfl⟩
abbrev cc43_stg0_1 : Ref sig .tc := ⟨.vmem, 305, rfl⟩
abbrev cc43_stg1_0 : Ref sig .tc := ⟨.vmem, 306, rfl⟩
abbrev cc43_stg2_0 : Ref sig .tc := ⟨.vmem, 307, rfl⟩
abbrev cc43_scratch0 : Ref sig .tc := ⟨.vmem, 308, rfl⟩
abbrev cc44_stg0_0 : Ref sig .tc := ⟨.vmem, 309, rfl⟩
abbrev cc44_stg0_1 : Ref sig .tc := ⟨.vmem, 310, rfl⟩
abbrev cc44_stg1_0 : Ref sig .tc := ⟨.vmem, 311, rfl⟩
abbrev cc44_stg2_0 : Ref sig .tc := ⟨.vmem, 312, rfl⟩
abbrev cc44_stg3_0 : Ref sig .tc := ⟨.vmem, 313, rfl⟩
abbrev cc44_stg4_0 : Ref sig .tc := ⟨.vmem, 314, rfl⟩
abbrev cc44_stg5_0 : Ref sig .tc := ⟨.vmem, 315, rfl⟩
abbrev cc44_stg5_1 : Ref sig .tc := ⟨.vmem, 316, rfl⟩
abbrev cc45_stg0_0 : Ref sig .tc := ⟨.vmem, 317, rfl⟩
abbrev cc45_stg0_1 : Ref sig .tc := ⟨.vmem, 318, rfl⟩
abbrev cc45_stg1_0 : Ref sig .tc := ⟨.vmem, 319, rfl⟩
abbrev cc45_stg2_0 : Ref sig .tc := ⟨.vmem, 320, rfl⟩
abbrev cc45_stg2_1 : Ref sig .tc := ⟨.vmem, 321, rfl⟩
abbrev cc46_stg0_0 : Ref sig .tc := ⟨.vmem, 322, rfl⟩
abbrev cc46_stg0_1 : Ref sig .tc := ⟨.vmem, 323, rfl⟩
abbrev cc46_stg1_0 : Ref sig .tc := ⟨.vmem, 324, rfl⟩
abbrev cc46_stg2_0 : Ref sig .tc := ⟨.vmem, 325, rfl⟩
abbrev cc46_stg2_1 : Ref sig .tc := ⟨.vmem, 326, rfl⟩
abbrev cc46_stg3_0 : Ref sig .tc := ⟨.vmem, 327, rfl⟩
abbrev cc46_scratch0 : Ref sig .tc := ⟨.vmem, 328, rfl⟩
abbrev cc47_stg0_0 : Ref sig .tc := ⟨.vmem, 329, rfl⟩
abbrev cc47_stg0_1 : Ref sig .tc := ⟨.vmem, 330, rfl⟩
abbrev cc47_stg1_0 : Ref sig .tc := ⟨.vmem, 331, rfl⟩
abbrev cc47_stg2_0 : Ref sig .tc := ⟨.vmem, 332, rfl⟩
abbrev cc47_scratch0 : Ref sig .tc := ⟨.vmem, 333, rfl⟩
abbrev cc48_stg0_0 : Ref sig .tc := ⟨.vmem, 334, rfl⟩
abbrev cc48_stg0_1 : Ref sig .tc := ⟨.vmem, 335, rfl⟩
abbrev cc48_stg1_0 : Ref sig .tc := ⟨.vmem, 336, rfl⟩
abbrev cc48_stg2_0 : Ref sig .tc := ⟨.vmem, 337, rfl⟩
abbrev cc48_stg3_0 : Ref sig .tc := ⟨.vmem, 338, rfl⟩
abbrev cc48_stg4_0 : Ref sig .tc := ⟨.vmem, 339, rfl⟩
abbrev cc48_stg5_0 : Ref sig .tc := ⟨.vmem, 340, rfl⟩
abbrev cc48_stg6_0 : Ref sig .tc := ⟨.vmem, 341, rfl⟩
abbrev cc48_stg6_1 : Ref sig .tc := ⟨.vmem, 342, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc3_sem0_0 : DmaSem sig := 19
abbrev cc3_sem0_1 : DmaSem sig := 20
abbrev cc3_sem1_0 : DmaSem sig := 21
abbrev cc3_sem2_0 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem5_0 : DmaSem sig := 29
abbrev cc4_sem5_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc6_sem3_0 : DmaSem sig := 41
abbrev cc7_sem0_0 : DmaSem sig := 42
abbrev cc7_sem0_1 : DmaSem sig := 43
abbrev cc7_sem1_0 : DmaSem sig := 44
abbrev cc7_sem2_0 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem3_0 : DmaSem sig := 50
abbrev cc8_sem4_0 : DmaSem sig := 51
abbrev cc8_sem5_0 : DmaSem sig := 52
abbrev cc8_sem5_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem2_1 : DmaSem sig := 58
abbrev cc10_sem0_0 : DmaSem sig := 59
abbrev cc10_sem0_1 : DmaSem sig := 60
abbrev cc10_sem1_0 : DmaSem sig := 61
abbrev cc10_sem2_0 : DmaSem sig := 62
abbrev cc10_sem2_1 : DmaSem sig := 63
abbrev cc10_sem3_0 : DmaSem sig := 64
abbrev cc10_sem3_1 : DmaSem sig := 65
abbrev cc10_sem4_0 : DmaSem sig := 66
abbrev cc11_sem0_0 : DmaSem sig := 67
abbrev cc11_sem0_1 : DmaSem sig := 68
abbrev cc11_sem1_0 : DmaSem sig := 69
abbrev cc11_sem2_0 : DmaSem sig := 70
abbrev cc12_sem0_0 : DmaSem sig := 71
abbrev cc12_sem0_1 : DmaSem sig := 72
abbrev cc12_sem1_0 : DmaSem sig := 73
abbrev cc12_sem2_0 : DmaSem sig := 74
abbrev cc12_sem3_0 : DmaSem sig := 75
abbrev cc12_sem4_0 : DmaSem sig := 76
abbrev cc12_sem5_0 : DmaSem sig := 77
abbrev cc12_sem5_1 : DmaSem sig := 78
abbrev cc13_sem0_0 : DmaSem sig := 79
abbrev cc13_sem0_1 : DmaSem sig := 80
abbrev cc13_sem1_0 : DmaSem sig := 81
abbrev cc13_sem2_0 : DmaSem sig := 82
abbrev cc13_sem2_1 : DmaSem sig := 83
abbrev cc14_sem0_0 : DmaSem sig := 84
abbrev cc14_sem0_1 : DmaSem sig := 85
abbrev cc14_sem1_0 : DmaSem sig := 86
abbrev cc14_sem2_0 : DmaSem sig := 87
abbrev cc14_sem2_1 : DmaSem sig := 88
abbrev cc14_sem3_0 : DmaSem sig := 89
abbrev cc14_sem3_1 : DmaSem sig := 90
abbrev cc14_sem4_0 : DmaSem sig := 91
abbrev cc14_sem4_1 : DmaSem sig := 92
abbrev cc14_sem5_0 : DmaSem sig := 93
abbrev cc15_sem0_0 : DmaSem sig := 94
abbrev cc15_sem0_1 : DmaSem sig := 95
abbrev cc15_sem1_0 : DmaSem sig := 96
abbrev cc15_sem2_0 : DmaSem sig := 97
abbrev cc16_sem0_0 : DmaSem sig := 98
abbrev cc16_sem0_1 : DmaSem sig := 99
abbrev cc16_sem1_0 : DmaSem sig := 100
abbrev cc16_sem2_0 : DmaSem sig := 101
abbrev cc16_sem3_0 : DmaSem sig := 102
abbrev cc16_sem4_0 : DmaSem sig := 103
abbrev cc16_sem5_0 : DmaSem sig := 104
abbrev cc16_sem5_1 : DmaSem sig := 105
abbrev cc17_sem0_0 : DmaSem sig := 106
abbrev cc17_sem0_1 : DmaSem sig := 107
abbrev cc17_sem1_0 : DmaSem sig := 108
abbrev cc17_sem2_0 : DmaSem sig := 109
abbrev cc17_sem2_1 : DmaSem sig := 110
abbrev cc18_sem0_0 : DmaSem sig := 111
abbrev cc18_sem0_1 : DmaSem sig := 112
abbrev cc18_sem1_0 : DmaSem sig := 113
abbrev cc18_sem2_0 : DmaSem sig := 114
abbrev cc18_sem2_1 : DmaSem sig := 115
abbrev cc18_sem3_0 : DmaSem sig := 116
abbrev cc18_sem3_1 : DmaSem sig := 117
abbrev cc18_sem4_0 : DmaSem sig := 118
abbrev cc18_sem4_1 : DmaSem sig := 119
abbrev cc18_sem5_0 : DmaSem sig := 120
abbrev cc19_sem0_0 : DmaSem sig := 121
abbrev cc19_sem0_1 : DmaSem sig := 122
abbrev cc19_sem1_0 : DmaSem sig := 123
abbrev cc19_sem2_0 : DmaSem sig := 124
abbrev cc20_sem0_0 : DmaSem sig := 125
abbrev cc20_sem0_1 : DmaSem sig := 126
abbrev cc20_sem1_0 : DmaSem sig := 127
abbrev cc20_sem2_0 : DmaSem sig := 128
abbrev cc20_sem3_0 : DmaSem sig := 129
abbrev cc20_sem4_0 : DmaSem sig := 130
abbrev cc20_sem5_0 : DmaSem sig := 131
abbrev cc20_sem5_1 : DmaSem sig := 132
abbrev cc21_sem0_0 : DmaSem sig := 133
abbrev cc21_sem0_1 : DmaSem sig := 134
abbrev cc21_sem1_0 : DmaSem sig := 135
abbrev cc21_sem2_0 : DmaSem sig := 136
abbrev cc21_sem2_1 : DmaSem sig := 137
abbrev cc22_sem0_0 : DmaSem sig := 138
abbrev cc22_sem0_1 : DmaSem sig := 139
abbrev cc22_sem1_0 : DmaSem sig := 140
abbrev cc22_sem2_0 : DmaSem sig := 141
abbrev cc22_sem2_1 : DmaSem sig := 142
abbrev cc22_sem3_0 : DmaSem sig := 143
abbrev cc22_sem3_1 : DmaSem sig := 144
abbrev cc22_sem4_0 : DmaSem sig := 145
abbrev cc22_sem4_1 : DmaSem sig := 146
abbrev cc22_sem5_0 : DmaSem sig := 147
abbrev cc23_sem0_0 : DmaSem sig := 148
abbrev cc23_sem0_1 : DmaSem sig := 149
abbrev cc23_sem1_0 : DmaSem sig := 150
abbrev cc23_sem2_0 : DmaSem sig := 151
abbrev cc24_sem0_0 : DmaSem sig := 152
abbrev cc24_sem0_1 : DmaSem sig := 153
abbrev cc24_sem1_0 : DmaSem sig := 154
abbrev cc24_sem2_0 : DmaSem sig := 155
abbrev cc24_sem3_0 : DmaSem sig := 156
abbrev cc24_sem4_0 : DmaSem sig := 157
abbrev cc24_sem5_0 : DmaSem sig := 158
abbrev cc24_sem5_1 : DmaSem sig := 159
abbrev cc25_sem0_0 : DmaSem sig := 160
abbrev cc25_sem0_1 : DmaSem sig := 161
abbrev cc25_sem1_0 : DmaSem sig := 162
abbrev cc25_sem2_0 : DmaSem sig := 163
abbrev cc25_sem2_1 : DmaSem sig := 164
abbrev cc26_sem0_0 : DmaSem sig := 165
abbrev cc26_sem0_1 : DmaSem sig := 166
abbrev cc26_sem1_0 : DmaSem sig := 167
abbrev cc26_sem2_0 : DmaSem sig := 168
abbrev cc26_sem2_1 : DmaSem sig := 169
abbrev cc26_sem3_0 : DmaSem sig := 170
abbrev cc26_sem3_1 : DmaSem sig := 171
abbrev cc26_sem4_0 : DmaSem sig := 172
abbrev cc26_sem4_1 : DmaSem sig := 173
abbrev cc26_sem5_0 : DmaSem sig := 174
abbrev cc27_sem0_0 : DmaSem sig := 175
abbrev cc27_sem0_1 : DmaSem sig := 176
abbrev cc27_sem1_0 : DmaSem sig := 177
abbrev cc27_sem2_0 : DmaSem sig := 178
abbrev cc28_sem0_0 : DmaSem sig := 179
abbrev cc28_sem0_1 : DmaSem sig := 180
abbrev cc28_sem1_0 : DmaSem sig := 181
abbrev cc28_sem2_0 : DmaSem sig := 182
abbrev cc28_sem3_0 : DmaSem sig := 183
abbrev cc28_sem4_0 : DmaSem sig := 184
abbrev cc28_sem5_0 : DmaSem sig := 185
abbrev cc28_sem5_1 : DmaSem sig := 186
abbrev cc29_sem0_0 : DmaSem sig := 187
abbrev cc29_sem0_1 : DmaSem sig := 188
abbrev cc29_sem1_0 : DmaSem sig := 189
abbrev cc29_sem2_0 : DmaSem sig := 190
abbrev cc29_sem2_1 : DmaSem sig := 191
abbrev cc30_sem0_0 : DmaSem sig := 192
abbrev cc30_sem0_1 : DmaSem sig := 193
abbrev cc30_sem1_0 : DmaSem sig := 194
abbrev cc30_sem2_0 : DmaSem sig := 195
abbrev cc30_sem2_1 : DmaSem sig := 196
abbrev cc30_sem3_0 : DmaSem sig := 197
abbrev cc30_sem3_1 : DmaSem sig := 198
abbrev cc30_sem4_0 : DmaSem sig := 199
abbrev cc30_sem4_1 : DmaSem sig := 200
abbrev cc30_sem5_0 : DmaSem sig := 201
abbrev cc31_sem0_0 : DmaSem sig := 202
abbrev cc31_sem0_1 : DmaSem sig := 203
abbrev cc31_sem1_0 : DmaSem sig := 204
abbrev cc31_sem2_0 : DmaSem sig := 205
abbrev cc32_sem0_0 : DmaSem sig := 206
abbrev cc32_sem0_1 : DmaSem sig := 207
abbrev cc32_sem1_0 : DmaSem sig := 208
abbrev cc32_sem2_0 : DmaSem sig := 209
abbrev cc32_sem3_0 : DmaSem sig := 210
abbrev cc32_sem4_0 : DmaSem sig := 211
abbrev cc32_sem5_0 : DmaSem sig := 212
abbrev cc32_sem5_1 : DmaSem sig := 213
abbrev cc33_sem0_0 : DmaSem sig := 214
abbrev cc33_sem0_1 : DmaSem sig := 215
abbrev cc33_sem1_0 : DmaSem sig := 216
abbrev cc33_sem2_0 : DmaSem sig := 217
abbrev cc33_sem2_1 : DmaSem sig := 218
abbrev cc34_sem0_0 : DmaSem sig := 219
abbrev cc34_sem0_1 : DmaSem sig := 220
abbrev cc34_sem1_0 : DmaSem sig := 221
abbrev cc34_sem2_0 : DmaSem sig := 222
abbrev cc34_sem2_1 : DmaSem sig := 223
abbrev cc34_sem3_0 : DmaSem sig := 224
abbrev cc34_sem3_1 : DmaSem sig := 225
abbrev cc34_sem4_0 : DmaSem sig := 226
abbrev cc34_sem4_1 : DmaSem sig := 227
abbrev cc34_sem5_0 : DmaSem sig := 228
abbrev cc35_sem0_0 : DmaSem sig := 229
abbrev cc35_sem0_1 : DmaSem sig := 230
abbrev cc35_sem1_0 : DmaSem sig := 231
abbrev cc35_sem2_0 : DmaSem sig := 232
abbrev cc36_sem0_0 : DmaSem sig := 233
abbrev cc36_sem0_1 : DmaSem sig := 234
abbrev cc36_sem1_0 : DmaSem sig := 235
abbrev cc36_sem2_0 : DmaSem sig := 236
abbrev cc36_sem3_0 : DmaSem sig := 237
abbrev cc36_sem4_0 : DmaSem sig := 238
abbrev cc36_sem5_0 : DmaSem sig := 239
abbrev cc36_sem5_1 : DmaSem sig := 240
abbrev cc37_sem0_0 : DmaSem sig := 241
abbrev cc37_sem0_1 : DmaSem sig := 242
abbrev cc37_sem1_0 : DmaSem sig := 243
abbrev cc37_sem2_0 : DmaSem sig := 244
abbrev cc37_sem2_1 : DmaSem sig := 245
abbrev cc38_sem0_0 : DmaSem sig := 246
abbrev cc38_sem0_1 : DmaSem sig := 247
abbrev cc38_sem1_0 : DmaSem sig := 248
abbrev cc38_sem2_0 : DmaSem sig := 249
abbrev cc38_sem2_1 : DmaSem sig := 250
abbrev cc38_sem3_0 : DmaSem sig := 251
abbrev cc38_sem3_1 : DmaSem sig := 252
abbrev cc38_sem4_0 : DmaSem sig := 253
abbrev cc38_sem4_1 : DmaSem sig := 254
abbrev cc38_sem5_0 : DmaSem sig := 255
abbrev cc39_sem0_0 : DmaSem sig := 256
abbrev cc39_sem0_1 : DmaSem sig := 257
abbrev cc39_sem1_0 : DmaSem sig := 258
abbrev cc39_sem2_0 : DmaSem sig := 259
abbrev cc40_sem0_0 : DmaSem sig := 260
abbrev cc40_sem0_1 : DmaSem sig := 261
abbrev cc40_sem1_0 : DmaSem sig := 262
abbrev cc40_sem2_0 : DmaSem sig := 263
abbrev cc40_sem3_0 : DmaSem sig := 264
abbrev cc40_sem4_0 : DmaSem sig := 265
abbrev cc40_sem5_0 : DmaSem sig := 266
abbrev cc40_sem5_1 : DmaSem sig := 267
abbrev cc41_sem0_0 : DmaSem sig := 268
abbrev cc41_sem0_1 : DmaSem sig := 269
abbrev cc41_sem1_0 : DmaSem sig := 270
abbrev cc41_sem2_0 : DmaSem sig := 271
abbrev cc41_sem2_1 : DmaSem sig := 272
abbrev cc42_sem0_0 : DmaSem sig := 273
abbrev cc42_sem0_1 : DmaSem sig := 274
abbrev cc42_sem1_0 : DmaSem sig := 275
abbrev cc42_sem2_0 : DmaSem sig := 276
abbrev cc42_sem2_1 : DmaSem sig := 277
abbrev cc42_sem3_0 : DmaSem sig := 278
abbrev cc42_sem3_1 : DmaSem sig := 279
abbrev cc42_sem4_0 : DmaSem sig := 280
abbrev cc42_sem4_1 : DmaSem sig := 281
abbrev cc42_sem5_0 : DmaSem sig := 282
abbrev cc43_sem0_0 : DmaSem sig := 283
abbrev cc43_sem0_1 : DmaSem sig := 284
abbrev cc43_sem1_0 : DmaSem sig := 285
abbrev cc43_sem2_0 : DmaSem sig := 286
abbrev cc44_sem0_0 : DmaSem sig := 287
abbrev cc44_sem0_1 : DmaSem sig := 288
abbrev cc44_sem1_0 : DmaSem sig := 289
abbrev cc44_sem2_0 : DmaSem sig := 290
abbrev cc44_sem3_0 : DmaSem sig := 291
abbrev cc44_sem4_0 : DmaSem sig := 292
abbrev cc44_sem5_0 : DmaSem sig := 293
abbrev cc44_sem5_1 : DmaSem sig := 294
abbrev cc45_sem0_0 : DmaSem sig := 295
abbrev cc45_sem0_1 : DmaSem sig := 296
abbrev cc45_sem1_0 : DmaSem sig := 297
abbrev cc45_sem2_0 : DmaSem sig := 298
abbrev cc45_sem2_1 : DmaSem sig := 299
abbrev cc46_sem0_0 : DmaSem sig := 300
abbrev cc46_sem0_1 : DmaSem sig := 301
abbrev cc46_sem1_0 : DmaSem sig := 302
abbrev cc46_sem2_0 : DmaSem sig := 303
abbrev cc46_sem2_1 : DmaSem sig := 304
abbrev cc46_sem3_0 : DmaSem sig := 305
abbrev cc47_sem0_0 : DmaSem sig := 306
abbrev cc47_sem0_1 : DmaSem sig := 307
abbrev cc47_sem1_0 : DmaSem sig := 308
abbrev cc47_sem2_0 : DmaSem sig := 309
abbrev cc48_sem0_0 : DmaSem sig := 310
abbrev cc48_sem0_1 : DmaSem sig := 311
abbrev cc48_sem1_0 : DmaSem sig := 312
abbrev cc48_sem2_0 : DmaSem sig := 313
abbrev cc48_sem3_0 : DmaSem sig := 314
abbrev cc48_sem4_0 : DmaSem sig := 315
abbrev cc48_sem5_0 : DmaSem sig := 316
abbrev cc48_sem6_0 : DmaSem sig := 317
abbrev cc48_sem6_1 : DmaSem sig := 318

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S18x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_10 : BitVec 32 := 0#32
  let v19 : BitVec 1 := Scalar.cmpi .ne v18 c0_i32_10
  v19

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_8 : BitVec 32 := 0#32
  let v19 : BitVec 1 := Scalar.cmpi .ne v18 c0_i32_8
  v19

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def k6_cond2 (i : grid6.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_10 : BitVec 32 := 0#32
  let v19 : BitVec 1 := Scalar.cmpi .ne v18 c0_i32_10
  v19

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![25], ![false]⟩

def k7_cond2 (i : grid7.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_8 : BitVec 32 := 0#32
  let v19 : BitVec 1 := Scalar.cmpi .ne v18 c0_i32_8
  v19

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![25], ![false]⟩

def k10_cond2 (i : grid10.Coords) : BitVec 1 :=
  let arg0 : BitVec 32 := BitVec.ofNat 32 (i 0).val
  let c24_i32 : BitVec 32 := 24#32
  let v18 : BitVec 1 := Scalar.cmpi .eq arg0 c24_i32
  let v19 : BitVec 32 := Scalar.extui v18
  let c0_i32_12 : BitVec 32 := 0#32
  let v20 : BitVec 1 := Scalar.cmpi .ne v19 c0_i32_12
  v20

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S2000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev grid11 : Pipeline.Grid := ⟨1, ![25], ![false]⟩

def k11_cond2 (i : grid11.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_8 : BitVec 32 := 0#32
  let v19 : BitVec 1 := Scalar.cmpi .ne v18 c0_i32_8
  v19

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S2000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S2000x64 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S64x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S2000x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![25], ![false]⟩

def k14_cond2 (i : grid14.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_16 : BitVec 32 := 0#32
  let v26 : BitVec 1 := Scalar.cmpi .ne v25 c0_i32_16
  v26

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S2000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S2000x64 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 2 → Memref sig .tc .vmem S2000x64 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 2 → Memref sig .tc .vmem S2000x64 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev stage14_5 : Fin 1 → Memref sig .tc .vmem S1x64 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev grid15 : Pipeline.Grid := ⟨1, ![25], ![false]⟩

def k15_cond2 (i : grid15.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_8 : BitVec 32 := 0#32
  let v19 : BitVec 1 := Scalar.cmpi .ne v18 c0_i32_8
  v19

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S2000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev grid16 : Pipeline.Grid := ⟨1, ![25], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S2000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x64 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x64 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x64 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x64 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 2 → Memref sig .tc .vmem S2000x64 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev grid17 : Pipeline.Grid := ⟨1, ![25], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2000x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S64x64 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S2000x64 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![25], ![false]⟩

def k18_cond2 (i : grid18.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_16 : BitVec 32 := 0#32
  let v26 : BitVec 1 := Scalar.cmpi .ne v25 c0_i32_16
  v26

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_4 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_5 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage18_0 : Fin 2 → Memref sig .tc .vmem S2000x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S1x64 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 2 → Memref sig .tc .vmem S2000x64 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev stage18_3 : Fin 2 → Memref sig .tc .vmem S2000x64 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev stage18_4 : Fin 2 → Memref sig .tc .vmem S2000x64 .f32 := fun | 0 => Memref.whole cc18_stg4_0 | 1 => Memref.whole cc18_stg4_1 | ⟨_ + 2, h⟩ => absurd h (Nat.not_lt.2 (Nat.le_add_left _ _))
abbrev sem18_4 : Fin 2 → DmaSem sig := fun | 0 => cc18_sem4_0 | 1 => cc18_sem4_1 | ⟨_ + 2, h⟩ => absurd h (Nat.not_lt.2 (Nat.le_add_left _ _))
abbrev reads18_4 : Fin grid18.rank → Bool := ![true]

abbrev stage18_5 : Fin 1 → Memref sig .tc .vmem S1x64 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![false]

abbrev grid19 : Pipeline.Grid := ⟨1, ![25], ![false]⟩

def k19_cond2 (i : grid19.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_8 : BitVec 32 := 0#32
  let v19 : BitVec 1 := Scalar.cmpi .ne v18 c0_i32_8
  v19

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage19_0 : Fin 2 → Memref sig .tc .vmem S2000x64 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x64 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x64 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev grid20 : Pipeline.Grid := ⟨1, ![25], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_5 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S2000x64 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S1x64 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S1x64 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 1 → Memref sig .tc .vmem S1x64 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 1 → Memref sig .tc .vmem S1x64 .f32 := fun | 0 => Memref.whole cc20_stg4_0 | ⟨_ + 1, h⟩ => absurd h (Nat.not_lt.2 (Nat.le_add_left _ _))
abbrev sem20_4 : Fin 1 → DmaSem sig := fun | 0 => cc20_sem4_0 | ⟨_ + 1, h⟩ => absurd h (Nat.not_lt.2 (Nat.le_add_left _ _))
abbrev reads20_4 : Fin grid20.rank → Bool := ![false]

abbrev stage20_5 : Fin 2 → Memref sig .tc .vmem S2000x64 .f32 := fun | 0 => Memref.whole cc20_stg5_0 | 1 => Memref.whole cc20_stg5_1 | ⟨_ + 2, h⟩ => absurd h (Nat.not_lt.2 (Nat.le_add_left _ _))
abbrev sem20_5 : Fin 2 → DmaSem sig := fun | 0 => cc20_sem5_0 | 1 => cc20_sem5_1 | ⟨_ + 2, h⟩ => absurd h (Nat.not_lt.2 (Nat.le_add_left _ _))
abbrev reads20_5 : Fin grid20.rank → Bool := ![true]

abbrev grid21 : Pipeline.Grid := ⟨1, ![25], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S2000x64 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S64x64 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 2 → Memref sig .tc .vmem S2000x64 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true]

abbrev grid22 : Pipeline.Grid := ⟨1, ![25], ![false]⟩

def k22_cond2 (i : grid22.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_16 : BitVec 32 := 0#32
  let v26 : BitVec 1 := Scalar.cmpi .ne v25 c0_i32_16
  v26

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_3 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_4 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_5 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage22_0 : Fin 2 → Memref sig .tc .vmem S2000x64 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S1x64 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 2 → Memref sig .tc .vmem S2000x64 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev stage22_3 : Fin 2 → Memref sig .tc .vmem S2000x64 .f32 := fun | 0 => Memref.whole cc22_stg3_0 | 1 => Memref.whole cc22_stg3_1 | ⟨_ + 2, h⟩ => absurd h (Nat.not_lt.2 (Nat.le_add_left _ _))
abbrev sem22_3 : Fin 2 → DmaSem sig := fun | 0 => cc22_sem3_0 | 1 => cc22_sem3_1 | ⟨_ + 2, h⟩ => absurd h (Nat.not_lt.2 (Nat.le_add_left _ _))
abbrev reads22_3 : Fin grid22.rank → Bool := ![true]

abbrev stage22_4 : Fin 2 → Memref sig .tc .vmem S2000x64 .f32 := fun | 0 => Memref.whole cc22_stg4_0 | 1 => Memref.whole cc22_stg4_1 | ⟨_ + 2, h⟩ => absurd h (Nat.not_lt.2 (Nat.le_add_left _ _))
abbrev sem22_4 : Fin 2 → DmaSem sig := fun | 0 => cc22_sem4_0 | 1 => cc22_sem4_1 | ⟨_ + 2, h⟩ => absurd h (Nat.not_lt.2 (Nat.le_add_left _ _))
abbrev reads22_4 : Fin grid22.rank → Bool := ![true]

abbrev stage22_5 : Fin 1 → Memref sig .tc .vmem S1x64 .f32 := fun | 0 => Memref.whole cc22_stg5_0 | ⟨_ + 1, h⟩ => absurd h (Nat.not_lt.2 (Nat.le_add_left _ _))
abbrev sem22_5 : Fin 1 → DmaSem sig := fun | 0 => cc22_sem5_0 | ⟨_ + 1, h⟩ => absurd h (Nat.not_lt.2 (Nat.le_add_left _ _))
abbrev reads22_5 : Fin grid22.rank → Bool := ![false]

abbrev grid23 : Pipeline.Grid := ⟨1, ![25], ![false]⟩

def k23_cond2 (i : grid23.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_8 : BitVec 32 := 0#32
  let v19 : BitVec 1 := Scalar.cmpi .ne v18 c0_i32_8
  v19

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage23_0 : Fin 2 → Memref sig .tc .vmem S2000x64 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S1x64 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 1 → Memref sig .tc .vmem S1x64 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev grid24 : Pipeline.Grid := ⟨1, ![25], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_2 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_3 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_4 (i : grid24.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc24_transform_5 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S2000x64 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 1 → Memref sig .tc .vmem S1x64 .f32 := fun | 0 => Memref.whole cc24_stg1_0 | ⟨_ + 1, h⟩ => absurd h (Nat.not_lt.2 (Nat.le_add_left _ _))
abbrev sem24_1 : Fin 1 → DmaSem sig := fun | 0 => cc24_sem1_0 | ⟨_ + 1, h⟩ => absurd h (Nat.not_lt.2 (Nat.le_add_left _ _))
abbrev reads24_1 : Fin grid24.rank → Bool := ![false]

abbrev stage24_2 : Fin 1 → Memref sig .tc .vmem S1x64 .f32 := fun | 0 => Memref.whole cc24_stg2_0 | ⟨_ + 1, h⟩ => absurd h (Nat.not_lt.2 (Nat.le_add_left _ _))
abbrev sem24_2 : Fin 1 → DmaSem sig := fun | 0 => cc24_sem2_0 | ⟨_ + 1, h⟩ => absurd h (Nat.not_lt.2 (Nat.le_add_left _ _))
abbrev reads24_2 : Fin grid24.rank → Bool := ![false]

abbrev stage24_3 : Fin 1 → Memref sig .tc .vmem S1x64 .f32 := fun | 0 => Memref.whole cc24_stg3_0 | ⟨_ + 1, h⟩ => absurd h (Nat.not_lt.2 (Nat.le_add_left _ _))
abbrev sem24_3 : Fin 1 → DmaSem sig := fun | 0 => cc24_sem3_0 | ⟨_ + 1, h⟩ => absurd h (Nat.not_lt.2 (Nat.le_add_left _ _))
abbrev reads24_3 : Fin grid24.rank → Bool := ![false]

abbrev stage24_4 : Fin 1 → Memref sig .tc .vmem S1x64 .f32 := fun | 0 => Memref.whole cc24_stg4_0 | ⟨_ + 1, h⟩ => absurd h (Nat.not_lt.2 (Nat.le_add_left _ _))
abbrev sem24_4 : Fin 1 → DmaSem sig := fun | 0 => cc24_sem4_0 | ⟨_ + 1, h⟩ => absurd h (Nat.not_lt.2 (Nat.le_add_left _ _))
abbrev reads24_4 : Fin grid24.rank → Bool := ![false]

abbrev stage24_5 : Fin 2 → Memref sig .tc .vmem S2000x64 .f32 := fun | 0 => Memref.whole cc24_stg5_0 | 1 => Memref.whole cc24_stg5_1 | ⟨_ + 2, h⟩ => absurd h (Nat.not_lt.2 (Nat.le_add_left _ _))
abbrev sem24_5 : Fin 2 → DmaSem sig := fun | 0 => cc24_sem5_0 | 1 => cc24_sem5_1 | ⟨_ + 2, h⟩ => absurd h (Nat.not_lt.2 (Nat.le_add_left _ _))
abbrev reads24_5 : Fin grid24.rank → Bool := ![true]

abbrev grid25 : Pipeline.Grid := ⟨1, ![25], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_2 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S2000x64 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 1 → Memref sig .tc .vmem S64x64 .f32 := fun | 0 => Memref.whole cc25_stg1_0 | ⟨_ + 1, h⟩ => absurd h (Nat.not_lt.2 (Nat.le_add_left _ _))
abbrev sem25_1 : Fin 1 → DmaSem sig := fun | 0 => cc25_sem1_0 | ⟨_ + 1, h⟩ => absurd h (Nat.not_lt.2 (Nat.le_add_left _ _))
abbrev reads25_1 : Fin grid25.rank → Bool := ![false]

abbrev stage25_2 : Fin 2 → Memref sig .tc .vmem S2000x64 .f32 := fun | 0 => Memref.whole cc25_stg2_0 | 1 => Memref.whole cc25_stg2_1 | ⟨_ + 2, h⟩ => absurd h (Nat.not_lt.2 (Nat.le_add_left _ _))
abbrev sem25_2 : Fin 2 → DmaSem sig := fun | 0 => cc25_sem2_0 | 1 => cc25_sem2_1 | ⟨_ + 2, h⟩ => absurd h (Nat.not_lt.2 (Nat.le_add_left _ _))
abbrev reads25_2 : Fin grid25.rank → Bool := ![true]

abbrev grid26 : Pipeline.Grid := ⟨1, ![25], ![false]⟩

def k26_cond2 (i : grid26.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_16 : BitVec 32 := 0#32
  let v26 : BitVec 1 := Scalar.cmpi .ne v25 c0_i32_16
  v26

def cc26_transform_0 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_1 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_2 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_3 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_4 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_5 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage26_0 : Fin 2 → Memref sig .tc .vmem S2000x64 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 1 → Memref sig .tc .vmem S1x64 .f32 := fun | 0 => Memref.whole cc26_stg1_0 | ⟨_ + 1, h⟩ => absurd h (Nat.not_lt.2 (Nat.le_add_left _ _))
abbrev sem26_1 : Fin 1 → DmaSem sig := fun | 0 => cc26_sem1_0 | ⟨_ + 1, h⟩ => absurd h (Nat.not_lt.2 (Nat.le_add_left _ _))
abbrev reads26_1 : Fin grid26.rank → Bool := ![false]

abbrev stage26_2 : Fin 2 → Memref sig .tc .vmem S2000x64 .f32 := fun | 0 => Memref.whole cc26_stg2_0 | 1 => Memref.whole cc26_stg2_1 | ⟨_ + 2, h⟩ => absurd h (Nat.not_lt.2 (Nat.le_add_left _ _))
abbrev sem26_2 : Fin 2 → DmaSem sig := fun | 0 => cc26_sem2_0 | 1 => cc26_sem2_1 | ⟨_ + 2, h⟩ => absurd h (Nat.not_lt.2 (Nat.le_add_left _ _))
abbrev reads26_2 : Fin grid26.rank → Bool := ![true]

abbrev stage26_3 : Fin 2 → Memref sig .tc .vmem S2000x64 .f32 := fun | 0 => Memref.whole cc26_stg3_0 | 1 => Memref.whole cc26_stg3_1 | ⟨_ + 2, h⟩ => absurd h (Nat.not_lt.2 (Nat.le_add_left _ _))
abbrev sem26_3 : Fin 2 → DmaSem sig := fun | 0 => cc26_sem3_0 | 1 => cc26_sem3_1 | ⟨_ + 2, h⟩ => absurd h (Nat.not_lt.2 (Nat.le_add_left _ _))
abbrev reads26_3 : Fin grid26.rank → Bool := ![true]

abbrev stage26_4 : Fin 2 → Memref sig .tc .vmem S2000x64 .f32 := fun | 0 => Memref.whole cc26_stg4_0 | 1 => Memref.whole cc26_stg4_1 | ⟨_ + 2, h⟩ => absurd h (Nat.not_lt.2 (Nat.le_add_left _ _))
abbrev sem26_4 : Fin 2 → DmaSem sig := fun | 0 => cc26_sem4_0 | 1 => cc26_sem4_1 | ⟨_ + 2, h⟩ => absurd h (Nat.not_lt.2 (Nat.le_add_left _ _))
abbrev reads26_4 : Fin grid26.rank → Bool := ![true]

abbrev stage26_5 : Fin 1 → Memref sig .tc .vmem S1x64 .f32 := fun | 0 => Memref.whole cc26_stg5_0 | ⟨_ + 1, h⟩ => absurd h (Nat.not_lt.2 (Nat.le_add_left _ _))
abbrev sem26_5 : Fin 1 → DmaSem sig := fun | 0 => cc26_sem5_0 | ⟨_ + 1, h⟩ => absurd h (Nat.not_lt.2 (Nat.le_add_left _ _))
abbrev reads26_5 : Fin grid26.rank → Bool := ![false]

abbrev grid27 : Pipeline.Grid := ⟨1, ![25], ![false]⟩

def k27_cond2 (i : grid27.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_8 : BitVec 32 := 0#32
  let v19 : BitVec 1 := Scalar.cmpi .ne v18 c0_i32_8
  v19

def cc27_transform_0 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_1 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_2 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage27_0 : Fin 2 → Memref sig .tc .vmem S2000x64 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 1 → Memref sig .tc .vmem S1x64 .f32 := fun | 0 => Memref.whole cc27_stg1_0 | ⟨_ + 1, h⟩ => absurd h (Nat.not_lt.2 (Nat.le_add_left _ _))
abbrev sem27_1 : Fin 1 → DmaSem sig := fun | 0 => cc27_sem1_0 | ⟨_ + 1, h⟩ => absurd h (Nat.not_lt.2 (Nat.le_add_left _ _))
abbrev reads27_1 : Fin grid27.rank → Bool := ![false]

abbrev stage27_2 : Fin 1 → Memref sig .tc .vmem S1x64 .f32 := fun | 0 => Memref.whole cc27_stg2_0 | ⟨_ + 1, h⟩ => absurd h (Nat.not_lt.2 (Nat.le_add_left _ _))
abbrev sem27_2 : Fin 1 → DmaSem sig := fun | 0 => cc27_sem2_0 | ⟨_ + 1, h⟩ => absurd h (Nat.not_lt.2 (Nat.le_add_left _ _))
abbrev reads27_2 : Fin grid27.rank → Bool := ![false]

abbrev grid28 : Pipeline.Grid := ⟨1, ![25], ![false]⟩

def cc28_transform_0 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

def cc28_transform_1 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_2 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_3 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_4 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_5 (i : grid28.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage28_0 : Fin 2 → Memref sig .tc .vmem S2000x64 .f32 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true]

abbrev stage28_1 : Fin 1 → Memref sig .tc .vmem S1x64 .f32 := fun | 0 => Memref.whole cc28_stg1_0 | ⟨_ + 1, h⟩ => absurd h (Nat.not_lt.2 (Nat.le_add_left _ _))
abbrev sem28_1 : Fin 1 → DmaSem sig := fun | 0 => cc28_sem1_0 | ⟨_ + 1, h⟩ => absurd h (Nat.not_lt.2 (Nat.le_add_left _ _))
abbrev reads28_1 : Fin grid28.rank → Bool := ![false]

abbrev stage28_2 : Fin 1 → Memref sig .tc .vmem S1x64 .f32 := fun | 0 => Memref.whole cc28_stg2_0 | ⟨_ + 1, h⟩ => absurd h (Nat.not_lt.2 (Nat.le_add_left _ _))
abbrev sem28_2 : Fin 1 → DmaSem sig := fun | 0 => cc28_sem2_0 | ⟨_ + 1, h⟩ => absurd h (Nat.not_lt.2 (Nat.le_add_left _ _))
abbrev reads28_2 : Fin grid28.rank → Bool := ![false]

abbrev stage28_3 : Fin 1 → Memref sig .tc .vmem S1x64 .f32 := fun | 0 => Memref.whole cc28_stg3_0 | ⟨_ + 1, h⟩ => absurd h (Nat.not_lt.2 (Nat.le_add_left _ _))
abbrev sem28_3 : Fin 1 → DmaSem sig := fun | 0 => cc28_sem3_0 | ⟨_ + 1, h⟩ => absurd h (Nat.not_lt.2 (Nat.le_add_left _ _))
abbrev reads28_3 : Fin grid28.rank → Bool := ![false]

abbrev stage28_4 : Fin 1 → Memref sig .tc .vmem S1x64 .f32 := fun | 0 => Memref.whole cc28_stg4_0 | ⟨_ + 1, h⟩ => absurd h (Nat.not_lt.2 (Nat.le_add_left _ _))
abbrev sem28_4 : Fin 1 → DmaSem sig := fun | 0 => cc28_sem4_0 | ⟨_ + 1, h⟩ => absurd h (Nat.not_lt.2 (Nat.le_add_left _ _))
abbrev reads28_4 : Fin grid28.rank → Bool := ![false]

abbrev stage28_5 : Fin 2 → Memref sig .tc .vmem S2000x64 .f32 := fun | 0 => Memref.whole cc28_stg5_0 | 1 => Memref.whole cc28_stg5_1 | ⟨_ + 2, h⟩ => absurd h (Nat.not_lt.2 (Nat.le_add_left _ _))
abbrev sem28_5 : Fin 2 → DmaSem sig := fun | 0 => cc28_sem5_0 | 1 => cc28_sem5_1 | ⟨_ + 2, h⟩ => absurd h (Nat.not_lt.2 (Nat.le_add_left _ _))
abbrev reads28_5 : Fin grid28.rank → Bool := ![true]

abbrev grid29 : Pipeline.Grid := ⟨1, ![25], ![false]⟩

def cc29_transform_0 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

def cc29_transform_1 (i : grid29.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc29_transform_2 (i : grid29.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage29_0 : Fin 2 → Memref sig .tc .vmem S2000x64 .f32 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true]

abbrev stage29_1 : Fin 1 → Memref sig .tc .vmem S64x64 .f32 := fun | 0 => Memref.whole cc29_stg1_0 | ⟨_ + 1, h⟩ => absurd h (Nat.not_lt.2 (Nat.le_add_left _ _))
abbrev sem29_1 : Fin 1 → DmaSem sig := fun | 0 => cc29_sem1_0 | ⟨_ + 1, h⟩ => absurd h (Nat.not_lt.2 (Nat.le_add_left _ _))
abbrev reads29_1 : Fin grid29.rank → Bool := ![false]

abbrev stage29_2 : Fin 2 → Memref sig .tc .vmem S2000x64 .f32 := fun | 0 => Memref.whole cc29_stg2_0 | 1 => Memref.whole cc29_stg2_1 | ⟨_ + 2, h⟩ => absurd h (Nat.not_lt.2 (Nat.le_add_left _ _))
abbrev sem29_2 : Fin 2 → DmaSem sig := fun | 0 => cc29_sem2_0 | 1 => cc29_sem2_1 | ⟨_ + 2, h⟩ => absurd h (Nat.not_lt.2 (Nat.le_add_left _ _))
abbrev reads29_2 : Fin grid29.rank → Bool := ![true]

abbrev grid30 : Pipeline.Grid := ⟨1, ![25], ![false]⟩

def k30_cond2 (i : grid30.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_16 : BitVec 32 := 0#32
  let v26 : BitVec 1 := Scalar.cmpi .ne v25 c0_i32_16
  v26

def cc30_transform_0 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

def cc30_transform_1 (i : grid30.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc30_transform_2 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

def cc30_transform_3 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

def cc30_transform_4 (i : grid30.Coords) : Fin 2 → Nat :=
  let arg0 : BitVec 32 := BitVec.ofNat 32 (i 0).val
  let c0_i32 : BitVec 32 := 0#32
  let c0_i32_0 : BitVec 32 := 0#32
  ![arg0.toNat, c0_i32.toNat]

def cc30_transform_5 (i : grid30.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage30_0 : Fin 2 → Memref sig .tc .vmem S2000x64 .f32 := fun | 0 => Memref.whole cc30_stg0_0 | 1 => Memref.whole cc30_stg0_1 | ⟨_ + 2, h⟩ => absurd h (Nat.not_lt.2 (Nat.le_add_left _ _))
abbrev sem30_0 : Fin 2 → DmaSem sig := fun | 0 => cc30_sem0_0 | 1 => cc30_sem0_1 | ⟨_ + 2, h⟩ => absurd h (Nat.not_lt.2 (Nat.le_add_left _ _))
abbrev reads30_0 : Fin grid30.rank → Bool := ![true]

abbrev stage30_1 : Fin 1 → Memref sig .tc .vmem S1x64 .f32 := fun | 0 => Memref.whole cc30_stg1_0 | ⟨_ + 1, h⟩ => absurd h (Nat.not_lt.2 (Nat.le_add_left _ _))
abbrev sem30_1 : Fin 1 → DmaSem sig := fun | 0 => cc30_sem1_0 | ⟨_ + 1, h⟩ => absurd h (Nat.not_lt.2 (Nat.le_add_left _ _))
abbrev reads30_1 : Fin grid30.rank → Bool := ![false]

abbrev stage30_2 : Fin 2 → Memref sig .tc .vmem S2000x64 .f32 := fun | 0 => Memref.whole cc30_stg2_0 | 1 => Memref.whole cc30_stg2_1 | ⟨_ + 2, h⟩ => absurd h (Nat.not_lt.2 (Nat.le_add_left _ _))
abbrev sem30_2 : Fin 2 → DmaSem sig := fun | 0 => cc30_sem2_0 | 1 => cc30_sem2_1 | ⟨_ + 2, h⟩ => absurd h (Nat.not_lt.2 (Nat.le_add_left _ _))
abbrev reads30_2 : Fin grid30.rank → Bool := ![true]

abbrev stage30_3 : Fin 2 → Memref sig .tc .vmem S2000x64 .f32 := fun | 0 => Memref.whole cc30_stg3_0 | 1 => Memref.whole cc30_stg3_1 | ⟨_ + 2, h⟩ => absurd h (Nat.not_lt.2 (Nat.le_add_left _ _))
abbrev sem30_3 : Fin 2 → DmaSem sig := fun | 0 => cc30_sem3_0 | 1 => cc30_sem3_1 | ⟨_ + 2, h⟩ => absurd h (Nat.not_lt.2 (Nat.le_add_left _ _))
abbrev reads30_3 : Fin grid30.rank → Bool := ![true]

abbrev stage30_4 : Fin 2 → Memref sig .tc .vmem S2000x64 .f32 := fun | 0 => Memref.whole cc30_stg4_0 | 1 => Memref.whole cc30_stg4_1 | ⟨_ + 2, h⟩ => absurd h (Nat.not_lt.2 (Nat.le_add_left _ _))
abbrev sem30_4 : Fin 2 → DmaSem sig := fun | 0 => cc30_sem4_0 | 1 => cc30_sem4_1 | ⟨_ + 2, h⟩ => absurd h (Nat.not_lt.2 (Nat.le_add_left _ _))
abbrev reads30_4 : Fin grid30.rank → Bool := ![true]

abbrev stage30_5 : Fin 1 → Memref sig .tc .vmem S1x64 .f32 := fun | 0 => Memref.whole cc30_stg5_0 | ⟨_ + 1, h⟩ => absurd h (Nat.not_lt.2 (Nat.le_add_left _ _))
abbrev sem30_5 : Fin 1 → DmaSem sig := fun | 0 => cc30_sem5_0 | ⟨_ + 1, h⟩ => absurd h (Nat.not_lt.2 (Nat.le_add_left _ _))
abbrev reads30_5 : Fin grid30.rank → Bool := ![false]

abbrev grid31 : Pipeline.Grid := ⟨1, ![25], ![false]⟩

def k31_cond2 (i : grid31.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_8 : BitVec 32 := 0#32
  let v19 : BitVec 1 := Scalar.cmpi .ne v18 c0_i32_8
  v19

def cc31_transform_0 (i : grid31.Coords) : Fin 2 → Nat :=
  let arg0 : BitVec 32 := BitVec.ofNat 32 (i 0).val
  let c0_i32 : BitVec 32 := 0#32
  let c0_i32_0 : BitVec 32 := 0#32
  ![arg0.toNat, c0_i32.toNat]

def cc31_transform_1 (i : grid31.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc31_transform_2 (i : grid31.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage31_0 : Fin 2 → Memref sig .tc .vmem S2000x64 .f32 := fun | 0 => Memref.whole cc31_stg0_0 | 1 => Memref.whole cc31_stg0_1 | ⟨_ + 2, h⟩ => absurd h (Nat.not_lt.2 (Nat.le_add_left _ _))
abbrev sem31_0 : Fin 2 → DmaSem sig := fun | 0 => cc31_sem0_0 | 1 => cc31_sem0_1 | ⟨_ + 2, h⟩ => absurd h (Nat.not_lt.2 (Nat.le_add_left _ _))
abbrev reads31_0 : Fin grid31.rank → Bool := ![true]

abbrev stage31_1 : Fin 1 → Memref sig .tc .vmem S1x64 .f32 := fun | 0 => Memref.whole cc31_stg1_0 | ⟨_ + 1, h⟩ => absurd h (Nat.not_lt.2 (Nat.le_add_left _ _))
abbrev sem31_1 : Fin 1 → DmaSem sig := fun | 0 => cc31_sem1_0 | ⟨_ + 1, h⟩ => absurd h (Nat.not_lt.2 (Nat.le_add_left _ _))
abbrev reads31_1 : Fin grid31.rank → Bool := ![false]

abbrev stage31_2 : Fin 1 → Memref sig .tc .vmem S1x64 .f32 := fun | 0 => Memref.whole cc31_stg2_0 | ⟨_ + 1, h⟩ => absurd h (Nat.not_lt.2 (Nat.le_add_left _ _))
abbrev sem31_2 : Fin 1 → DmaSem sig := fun | 0 => cc31_sem2_0 | ⟨_ + 1, h⟩ => absurd h (Nat.not_lt.2 (Nat.le_add_left _ _))
abbrev reads31_2 : Fin grid31.rank → Bool := ![false]

abbrev grid32 : Pipeline.Grid := ⟨1, ![25], ![false]⟩

def cc32_transform_0 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

def cc32_transform_1 (i : grid32.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc32_transform_2 (i : grid32.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc32_transform_3 (i : grid32.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc32_transform_4 (i : grid32.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc32_transform_5 (i : grid32.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage32_0 : Fin 2 → Memref sig .tc .vmem S2000x64 .f32 := fun | 0 => Memref.whole cc32_stg0_0 | 1 => Memref.whole cc32_stg0_1 | ⟨_ + 2, h⟩ => absurd h (Nat.not_lt.2 (Nat.le_add_left _ _))
abbrev sem32_0 : Fin 2 → DmaSem sig := fun | 0 => cc32_sem0_0 | 1 => cc32_sem0_1 | ⟨_ + 2, h⟩ => absurd h (Nat.not_lt.2 (Nat.le_add_left _ _))
abbrev reads32_0 : Fin grid32.rank → Bool := ![true]

abbrev stage32_1 : Fin 1 → Memref sig .tc .vmem S1x64 .f32 := fun | 0 => Memref.whole cc32_stg1_0 | ⟨_ + 1, h⟩ => absurd h (Nat.not_lt.2 (Nat.le_add_left _ _))
abbrev sem32_1 : Fin 1 → DmaSem sig := fun | 0 => cc32_sem1_0 | ⟨_ + 1, h⟩ => absurd h (Nat.not_lt.2 (Nat.le_add_left _ _))
abbrev reads32_1 : Fin grid32.rank → Bool := ![false]

abbrev stage32_2 : Fin 1 → Memref sig .tc .vmem S1x64 .f32 := fun | 0 => Memref.whole cc32_stg2_0 | ⟨_ + 1, h⟩ => absurd h (Nat.not_lt.2 (Nat.le_add_left _ _))
abbrev sem32_2 : Fin 1 → DmaSem sig := fun | 0 => cc32_sem2_0 | ⟨_ + 1, h⟩ => absurd h (Nat.not_lt.2 (Nat.le_add_left _ _))
abbrev reads32_2 : Fin grid32.rank → Bool := ![false]

abbrev stage32_3 : Fin 1 → Memref sig .tc .vmem S1x64 .f32 := fun | 0 => Memref.whole cc32_stg3_0 | ⟨_ + 1, h⟩ => absurd h (Nat.not_lt.2 (Nat.le_add_left _ _))
abbrev sem32_3 : Fin 1 → DmaSem sig := fun | 0 => cc32_sem3_0 | ⟨_ + 1, h⟩ => absurd h (Nat.not_lt.2 (Nat.le_add_left _ _))
abbrev reads32_3 : Fin grid32.rank → Bool := ![false]

abbrev stage32_4 : Fin 1 → Memref sig .tc .vmem S1x64 .f32 := fun | 0 => Memref.whole cc32_stg4_0 | ⟨_ + 1, h⟩ => absurd h (Nat.not_lt.2 (Nat.le_add_left _ _))
abbrev sem32_4 : Fin 1 → DmaSem sig := fun | 0 => cc32_sem4_0 | ⟨_ + 1, h⟩ => absurd h (Nat.not_lt.2 (Nat.le_add_left _ _))
abbrev reads32_4 : Fin grid32.rank → Bool := ![false]

abbrev stage32_5 : Fin 2 → Memref sig .tc .vmem S2000x64 .f32 := fun | 0 => Memref.whole cc32_stg5_0 | 1 => Memref.whole cc32_stg5_1 | ⟨_ + 2, h⟩ => absurd h (Nat.not_lt.2 (Nat.le_add_left _ _))
abbrev sem32_5 : Fin 2 → DmaSem sig := fun | 0 => cc32_sem5_0 | 1 => cc32_sem5_1 | ⟨_ + 2, h⟩ => absurd h (Nat.not_lt.2 (Nat.le_add_left _ _))
abbrev reads32_5 : Fin grid32.rank → Bool := ![true]

abbrev grid33 : Pipeline.Grid := ⟨1, ![25], ![false]⟩

def cc33_transform_0 (i : grid33.Coords) : Fin 2 → Nat :=
  let arg0 : BitVec 32 := BitVec.ofNat 32 (i 0).val
  let c0_i32 : BitVec 32 := 0#32
  let c0_i32_0 : BitVec 32 := 0#32
  ![arg0.toNat, c0_i32.toNat]

def cc33_transform_1 (i : grid33.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc33_transform_2 (i : grid33.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage33_0 : Fin 2 → Memref sig .tc .vmem S2000x64 .f32 := fun | 0 => Memref.whole cc33_stg0_0 | 1 => Memref.whole cc33_stg0_1 | ⟨_ + 2, h⟩ => absurd h (Nat.not_lt.2 (Nat.le_add_left _ _))
abbrev sem33_0 : Fin 2 → DmaSem sig := fun | 0 => cc33_sem0_0 | 1 => cc33_sem0_1 | ⟨_ + 2, h⟩ => absurd h (Nat.not_lt.2 (Nat.le_add_left _ _))
abbrev reads33_0 : Fin grid33.rank → Bool := ![true]

abbrev stage33_1 : Fin 1 → Memref sig .tc .vmem S64x64 .f32 := fun | 0 => Memref.whole cc33_stg1_0 | ⟨_ + 1, h⟩ => absurd h (Nat.not_lt.2 (Nat.le_add_left _ _))
abbrev sem33_1 : Fin 1 → DmaSem sig := fun | 0 => cc33_sem1_0 | ⟨_ + 1, h⟩ => absurd h (Nat.not_lt.2 (Nat.le_add_left _ _))
abbrev reads33_1 : Fin grid33.rank → Bool := ![false]

abbrev stage33_2 : Fin 2 → Memref sig .tc .vmem S2000x64 .f32 := fun | 0 => Memref.whole cc33_stg2_0 | 1 => Memref.whole cc33_stg2_1 | ⟨_ + 2, h⟩ => absurd h (Nat.not_lt.2 (Nat.le_add_left _ _))
abbrev sem33_2 : Fin 2 → DmaSem sig := fun | 0 => cc33_sem2_0 | 1 => cc33_sem2_1 | ⟨_ + 2, h⟩ => absurd h (Nat.not_lt.2 (Nat.le_add_left _ _))
abbrev reads33_2 : Fin grid33.rank → Bool := ![true]

abbrev grid34 : Pipeline.Grid := ⟨1, ![25], ![false]⟩

def k34_cond2 (i : grid34.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_16 : BitVec 32 := 0#32
  let v26 : BitVec 1 := Scalar.cmpi .ne v25 c0_i32_16
  v26

def cc34_transform_0 (i : grid34.Coords) : Fin 2 → Nat :=
  let arg0 : BitVec 32 := BitVec.ofNat 32 (i 0).val
  let c0_i32 : BitVec 32 := 0#32
  let c0_i32_0 : BitVec 32 := 0#32
  ![arg0.toNat, c0_i32.toNat]

def cc34_transform_1 (i : grid34.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc34_transform_2 (i : grid34.Coords) : Fin 2 → Nat :=
  let arg0 : BitVec 32 := BitVec.ofNat 32 (i 0).val
  let c0_i32 : BitVec 32 := 0#32
  let c0_i32_0 : BitVec 32 := 0#32
  ![arg0.toNat, c0_i32.toNat]

def cc34_transform_3 (i : grid34.Coords) : Fin 2 → Nat :=
  let arg0 : BitVec 32 := BitVec.ofNat 32 (i 0).val
  let c0_i32 : BitVec 32 := 0#32
  let c0_i32_0 : BitVec 32 := 0#32
  ![arg0.toNat, c0_i32.toNat]

def cc34_transform_4 (i : grid34.Coords) : Fin 2 → Nat :=
  let arg0 : BitVec 32 := BitVec.ofNat 32 (i 0).val
  let c0_i32 : BitVec 32 := 0#32
  let c0_i32_0 : BitVec 32 := 0#32
  ![arg0.toNat, c0_i32.toNat]

def cc34_transform_5 (i : grid34.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage34_0 : Fin 2 → Memref sig .tc .vmem S2000x64 .f32 := fun | 0 => Memref.whole cc34_stg0_0 | 1 => Memref.whole cc34_stg0_1 | ⟨_ + 2, h⟩ => absurd h (Nat.not_lt.2 (Nat.le_add_left _ _))
abbrev sem34_0 : Fin 2 → DmaSem sig := fun | 0 => cc34_sem0_0 | 1 => cc34_sem0_1 | ⟨_ + 2, h⟩ => absurd h (Nat.not_lt.2 (Nat.le_add_left _ _))
abbrev reads34_0 : Fin grid34.rank → Bool := ![true]

abbrev stage34_1 : Fin 1 → Memref sig .tc .vmem S1x64 .f32 := fun | 0 => Memref.whole cc34_stg1_0 | ⟨_ + 1, h⟩ => absurd h (Nat.not_lt.2 (Nat.le_add_left _ _))
abbrev sem34_1 : Fin 1 → DmaSem sig := fun | 0 => cc34_sem1_0 | ⟨_ + 1, h⟩ => absurd h (Nat.not_lt.2 (Nat.le_add_left _ _))
abbrev reads34_1 : Fin grid34.rank → Bool := ![false]

abbrev stage34_2 : Fin 2 → Memref sig .tc .vmem S2000x64 .f32 := fun | 0 => Memref.whole cc34_stg2_0 | 1 => Memref.whole cc34_stg2_1 | ⟨_ + 2, h⟩ => absurd h (Nat.not_lt.2 (Nat.le_add_left _ _))
abbrev sem34_2 : Fin 2 → DmaSem sig := fun | 0 => cc34_sem2_0 | 1 => cc34_sem2_1 | ⟨_ + 2, h⟩ => absurd h (Nat.not_lt.2 (Nat.le_add_left _ _))
abbrev reads34_2 : Fin grid34.rank → Bool := ![true]

abbrev stage34_3 : Fin 2 → Memref sig .tc .vmem S2000x64 .f32 := fun | 0 => Memref.whole cc34_stg3_0 | 1 => Memref.whole cc34_stg3_1 | ⟨_ + 2, h⟩ => absurd h (Nat.not_lt.2 (Nat.le_add_left _ _))
abbrev sem34_3 : Fin 2 → DmaSem sig := fun | 0 => cc34_sem3_0 | 1 => cc34_sem3_1 | ⟨_ + 2, h⟩ => absurd h (Nat.not_lt.2 (Nat.le_add_left _ _))
abbrev reads34_3 : Fin grid34.rank → Bool := ![true]

abbrev stage34_4 : Fin 2 → Memref sig .tc .vmem S2000x64 .f32 := fun | 0 => Memref.whole cc34_stg4_0 | 1 => Memref.whole cc34_stg4_1 | ⟨_ + 2, h⟩ => absurd h (Nat.not_lt.2 (Nat.le_add_left _ _))
abbrev sem34_4 : Fin 2 → DmaSem sig := fun | 0 => cc34_sem4_0 | 1 => cc34_sem4_1 | ⟨_ + 2, h⟩ => absurd h (Nat.not_lt.2 (Nat.le_add_left _ _))
abbrev reads34_4 : Fin grid34.rank → Bool := ![true]

abbrev stage34_5 : Fin 1 → Memref sig .tc .vmem S1x64 .f32 := fun | 0 => Memref.whole cc34_stg5_0 | ⟨_ + 1, h⟩ => absurd h (Nat.not_lt.2 (Nat.le_add_left _ _))
abbrev sem34_5 : Fin 1 → DmaSem sig := fun | 0 => cc34_sem5_0 | ⟨_ + 1, h⟩ => absurd h (Nat.not_lt.2 (Nat.le_add_left _ _))
abbrev reads34_5 : Fin grid34.rank → Bool := ![false]

abbrev grid35 : Pipeline.Grid := ⟨1, ![25], ![false]⟩

def k35_cond2 (i : grid35.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_8 : BitVec 32 := 0#32
  let v19 : BitVec 1 := Scalar.cmpi .ne v18 c0_i32_8
  v19

def cc35_transform_0 (i : grid35.Coords) : Fin 2 → Nat :=
  let arg0 : BitVec 32 := BitVec.ofNat 32 (i 0).val
  let c0_i32 : BitVec 32 := 0#32
  let c0_i32_0 : BitVec 32 := 0#32
  ![arg0.toNat, c0_i32.toNat]

def cc35_transform_1 (i : grid35.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc35_transform_2 (i : grid35.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage35_0 : Fin 2 → Memref sig .tc .vmem S2000x64 .f32 := fun | 0 => Memref.whole cc35_stg0_0 | 1 => Memref.whole cc35_stg0_1 | ⟨_ + 2, h⟩ => absurd h (Nat.not_lt.2 (Nat.le_add_left _ _))
abbrev sem35_0 : Fin 2 → DmaSem sig := fun | 0 => cc35_sem0_0 | 1 => cc35_sem0_1 | ⟨_ + 2, h⟩ => absurd h (Nat.not_lt.2 (Nat.le_add_left _ _))
abbrev reads35_0 : Fin grid35.rank → Bool := ![true]

abbrev stage35_1 : Fin 1 → Memref sig .tc .vmem S1x64 .f32 := fun | 0 => Memref.whole cc35_stg1_0 | ⟨_ + 1, h⟩ => absurd h (Nat.not_lt.2 (Nat.le_add_left _ _))
abbrev sem35_1 : Fin 1 → DmaSem sig := fun | 0 => cc35_sem1_0 | ⟨_ + 1, h⟩ => absurd h (Nat.not_lt.2 (Nat.le_add_left _ _))
abbrev reads35_1 : Fin grid35.rank → Bool := ![false]

abbrev stage35_2 : Fin 1 → Memref sig .tc .vmem S1x64 .f32 := fun | 0 => Memref.whole cc35_stg2_0 | ⟨_ + 1, h⟩ => absurd h (Nat.not_lt.2 (Nat.le_add_left _ _))
abbrev sem35_2 : Fin 1 → DmaSem sig := fun | 0 => cc35_sem2_0 | ⟨_ + 1, h⟩ => absurd h (Nat.not_lt.2 (Nat.le_add_left _ _))
abbrev reads35_2 : Fin grid35.rank → Bool := ![false]

abbrev grid36 : Pipeline.Grid := ⟨1, ![25], ![false]⟩

def cc36_transform_0 (i : grid36.Coords) : Fin 2 → Nat :=
  let arg0 : BitVec 32 := BitVec.ofNat 32 (i 0).val
  let c0_i32 : BitVec 32 := 0#32
  let c0_i32_0 : BitVec 32 := 0#32
  ![arg0.toNat, c0_i32.toNat]

def cc36_transform_1 (i : grid36.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc36_transform_2 (i : grid36.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc36_transform_3 (i : grid36.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc36_transform_4 (i : grid36.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc36_transform_5 (i : grid36.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage36_0 : Fin 2 → Memref sig .tc .vmem S2000x64 .f32 := fun | 0 => Memref.whole cc36_stg0_0 | 1 => Memref.whole cc36_stg0_1 | ⟨_ + 2, h⟩ => absurd h (Nat.not_lt.2 (Nat.le_add_left _ _))
abbrev sem36_0 : Fin 2 → DmaSem sig := fun | 0 => cc36_sem0_0 | 1 => cc36_sem0_1 | ⟨_ + 2, h⟩ => absurd h (Nat.not_lt.2 (Nat.le_add_left _ _))
abbrev reads36_0 : Fin grid36.rank → Bool := ![true]

abbrev stage36_1 : Fin 1 → Memref sig .tc .vmem S1x64 .f32 := fun | 0 => Memref.whole cc36_stg1_0 | ⟨_ + 1, h⟩ => absurd h (Nat.not_lt.2 (Nat.le_add_left _ _))
abbrev sem36_1 : Fin 1 → DmaSem sig := fun | 0 => cc36_sem1_0 | ⟨_ + 1, h⟩ => absurd h (Nat.not_lt.2 (Nat.le_add_left _ _))
abbrev reads36_1 : Fin grid36.rank → Bool := ![false]

abbrev stage36_2 : Fin 1 → Memref sig .tc .vmem S1x64 .f32 := fun | 0 => Memref.whole cc36_stg2_0 | ⟨_ + 1, h⟩ => absurd h (Nat.not_lt.2 (Nat.le_add_left _ _))
abbrev sem36_2 : Fin 1 → DmaSem sig := fun | 0 => cc36_sem2_0 | ⟨_ + 1, h⟩ => absurd h (Nat.not_lt.2 (Nat.le_add_left _ _))
abbrev reads36_2 : Fin grid36.rank → Bool := ![false]

abbrev stage36_3 : Fin 1 → Memref sig .tc .vmem S1x64 .f32 := fun | 0 => Memref.whole cc36_stg3_0 | ⟨_ + 1, h⟩ => absurd h (Nat.not_lt.2 (Nat.le_add_left _ _))
abbrev sem36_3 : Fin 1 → DmaSem sig := fun | 0 => cc36_sem3_0 | ⟨_ + 1, h⟩ => absurd h (Nat.not_lt.2 (Nat.le_add_left _ _))
abbrev reads36_3 : Fin grid36.rank → Bool := ![false]

abbrev stage36_4 : Fin 1 → Memref sig .tc .vmem S1x64 .f32 := fun | 0 => Memref.whole cc36_stg4_0 | ⟨_ + 1, h⟩ => absurd h (Nat.not_lt.2 (Nat.le_add_left _ _))
abbrev sem36_4 : Fin 1 → DmaSem sig := fun | 0 => cc36_sem4_0 | ⟨_ + 1, h⟩ => absurd h (Nat.not_lt.2 (Nat.le_add_left _ _))
abbrev reads36_4 : Fin grid36.rank → Bool := ![false]

abbrev stage36_5 : Fin 2 → Memref sig .tc .vmem S2000x64 .f32 := fun | 0 => Memref.whole cc36_stg5_0 | 1 => Memref.whole cc36_stg5_1 | ⟨_ + 2, h⟩ => absurd h (Nat.not_lt.2 (Nat.le_add_left _ _))
abbrev sem36_5 : Fin 2 → DmaSem sig := fun | 0 => cc36_sem5_0 | 1 => cc36_sem5_1 | ⟨_ + 2, h⟩ => absurd h (Nat.not_lt.2 (Nat.le_add_left _ _))
abbrev reads36_5 : Fin grid36.rank → Bool := ![true]

abbrev grid37 : Pipeline.Grid := ⟨1, ![25], ![false]⟩

def cc37_transform_0 (i : grid37.Coords) : Fin 2 → Nat :=
  let arg0 : BitVec 32 := BitVec.ofNat 32 (i 0).val
  let c0_i32 : BitVec 32 := 0#32
  let c0_i32_0 : BitVec 32 := 0#32
  ![arg0.toNat, c0_i32.toNat]

def cc37_transform_1 (i : grid37.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc37_transform_2 (i : grid37.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage37_0 : Fin 2 → Memref sig .tc .vmem S2000x64 .f32 := fun | 0 => Memref.whole cc37_stg0_0 | 1 => Memref.whole cc37_stg0_1 | ⟨_ + 2, h⟩ => absurd h (Nat.not_lt.2 (Nat.le_add_left _ _))
abbrev sem37_0 : Fin 2 → DmaSem sig := fun | 0 => cc37_sem0_0 | 1 => cc37_sem0_1 | ⟨_ + 2, h⟩ => absurd h (Nat.not_lt.2 (Nat.le_add_left _ _))
abbrev reads37_0 : Fin grid37.rank → Bool := ![true]

abbrev stage37_1 : Fin 1 → Memref sig .tc .vmem S64x64 .f32 := fun | 0 => Memref.whole cc37_stg1_0 | ⟨_ + 1, h⟩ => absurd h (Nat.not_lt.2 (Nat.le_add_left _ _))
abbrev sem37_1 : Fin 1 → DmaSem sig := fun | 0 => cc37_sem1_0 | ⟨_ + 1, h⟩ => absurd h (Nat.not_lt.2 (Nat.le_add_left _ _))
abbrev reads37_1 : Fin grid37.rank → Bool := ![false]

abbrev stage37_2 : Fin 2 → Memref sig .tc .vmem S2000x64 .f32 := fun | 0 => Memref.whole cc37_stg2_0 | 1 => Memref.whole cc37_stg2_1 | ⟨_ + 2, h⟩ => absurd h (Nat.not_lt.2 (Nat.le_add_left _ _))
abbrev sem37_2 : Fin 2 → DmaSem sig := fun | 0 => cc37_sem2_0 | 1 => cc37_sem2_1 | ⟨_ + 2, h⟩ => absurd h (Nat.not_lt.2 (Nat.le_add_left _ _))
abbrev reads37_2 : Fin grid37.rank → Bool := ![true]

abbrev grid38 : Pipeline.Grid := ⟨1, ![25], ![false]⟩

def k38_cond2 (i : grid38.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_16 : BitVec 32 := 0#32
  let v26 : BitVec 1 := Scalar.cmpi .ne v25 c0_i32_16
  v26

def cc38_transform_0 (i : grid38.Coords) : Fin 2 → Nat :=
  let arg0 : BitVec 32 := BitVec.ofNat 32 (i 0).val
  let c0_i32 : BitVec 32 := 0#32
  let c0_i32_0 : BitVec 32 := 0#32
  ![arg0.toNat, c0_i32.toNat]

def cc38_transform_1 (i : grid38.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc38_transform_2 (i : grid38.Coords) : Fin 2 → Nat :=
  let arg0 : BitVec 32 := BitVec.ofNat 32 (i 0).val
  let c0_i32 : BitVec 32 := 0#32
  let c0_i32_0 : BitVec 32 := 0#32
  ![arg0.toNat, c0_i32.toNat]

def cc38_transform_3 (i : grid38.Coords) : Fin 2 → Nat :=
  let arg0 : BitVec 32 := BitVec.ofNat 32 (i 0).val
  let c0_i32 : BitVec 32 := 0#32
  let c0_i32_0 : BitVec 32 := 0#32
  ![arg0.toNat, c0_i32.toNat]

def cc38_transform_4 (i : grid38.Coords) : Fin 2 → Nat :=
  let arg0 : BitVec 32 := BitVec.ofNat 32 (i 0).val
  let c0_i32 : BitVec 32 := 0#32
  let c0_i32_0 : BitVec 32 := 0#32
  ![arg0.toNat, c0_i32.toNat]

def cc38_transform_5 (i : grid38.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage38_0 : Fin 2 → Memref sig .tc .vmem S2000x64 .f32 := fun | 0 => Memref.whole cc38_stg0_0 | 1 => Memref.whole cc38_stg0_1 | ⟨_ + 2, h⟩ => absurd h (Nat.not_lt.2 (Nat.le_add_left _ _))
abbrev sem38_0 : Fin 2 → DmaSem sig := fun | 0 => cc38_sem0_0 | 1 => cc38_sem0_1 | ⟨_ + 2, h⟩ => absurd h (Nat.not_lt.2 (Nat.le_add_left _ _))
abbrev reads38_0 : Fin grid38.rank → Bool := ![true]

abbrev stage38_1 : Fin 1 → Memref sig .tc .vmem S1x64 .f32 := fun | 0 => Memref.whole cc38_stg1_0 | ⟨_ + 1, h⟩ => absurd h (Nat.not_lt.2 (Nat.le_add_left _ _))
abbrev sem38_1 : Fin 1 → DmaSem sig := fun | 0 => cc38_sem1_0 | ⟨_ + 1, h⟩ => absurd h (Nat.not_lt.2 (Nat.le_add_left _ _))
abbrev reads38_1 : Fin grid38.rank → Bool := ![false]

abbrev stage38_2 : Fin 2 → Memref sig .tc .vmem S2000x64 .f32 := fun | 0 => Memref.whole cc38_stg2_0 | 1 => Memref.whole cc38_stg2_1 | ⟨_ + 2, h⟩ => absurd h (Nat.not_lt.2 (Nat.le_add_left _ _))
abbrev sem38_2 : Fin 2 → DmaSem sig := fun | 0 => cc38_sem2_0 | 1 => cc38_sem2_1 | ⟨_ + 2, h⟩ => absurd h (Nat.not_lt.2 (Nat.le_add_left _ _))
abbrev reads38_2 : Fin grid38.rank → Bool := ![true]

abbrev stage38_3 : Fin 2 → Memref sig .tc .vmem S2000x64 .f32 := fun | 0 => Memref.whole cc38_stg3_0 | 1 => Memref.whole cc38_stg3_1 | ⟨_ + 2, h⟩ => absurd h (Nat.not_lt.2 (Nat.le_add_left _ _))
abbrev sem38_3 : Fin 2 → DmaSem sig := fun | 0 => cc38_sem3_0 | 1 => cc38_sem3_1 | ⟨_ + 2, h⟩ => absurd h (Nat.not_lt.2 (Nat.le_add_left _ _))
abbrev reads38_3 : Fin grid38.rank → Bool := ![true]

abbrev stage38_4 : Fin 2 → Memref sig .tc .vmem S2000x64 .f32 := fun | 0 => Memref.whole cc38_stg4_0 | 1 => Memref.whole cc38_stg4_1 | ⟨_ + 2, h⟩ => absurd h (Nat.not_lt.2 (Nat.le_add_left _ _))
abbrev sem38_4 : Fin 2 → DmaSem sig := fun | 0 => cc38_sem4_0 | 1 => cc38_sem4_1 | ⟨_ + 2, h⟩ => absurd h (Nat.not_lt.2 (Nat.le_add_left _ _))
abbrev reads38_4 : Fin grid38.rank → Bool := ![true]

abbrev stage38_5 : Fin 1 → Memref sig .tc .vmem S1x64 .f32 := fun | 0 => Memref.whole cc38_stg5_0 | ⟨_ + 1, h⟩ => absurd h (Nat.not_lt.2 (Nat.le_add_left _ _))
abbrev sem38_5 : Fin 1 → DmaSem sig := fun | 0 => cc38_sem5_0 | ⟨_ + 1, h⟩ => absurd h (Nat.not_lt.2 (Nat.le_add_left _ _))
abbrev reads38_5 : Fin grid38.rank → Bool := ![false]

abbrev grid39 : Pipeline.Grid := ⟨1, ![25], ![false]⟩

def k39_cond2 (i : grid39.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_8 : BitVec 32 := 0#32
  let v19 : BitVec 1 := Scalar.cmpi .ne v18 c0_i32_8
  v19

def cc39_transform_0 (i : grid39.Coords) : Fin 2 → Nat :=
  let arg0 : BitVec 32 := BitVec.ofNat 32 (i 0).val
  let c0_i32 : BitVec 32 := 0#32
  let c0_i32_0 : BitVec 32 := 0#32
  ![arg0.toNat, c0_i32.toNat]

def cc39_transform_1 (i : grid39.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc39_transform_2 (i : grid39.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage39_0 : Fin 2 → Memref sig .tc .vmem S2000x64 .f32 := fun | 0 => Memref.whole cc39_stg0_0 | 1 => Memref.whole cc39_stg0_1 | ⟨_ + 2, h⟩ => absurd h (Nat.not_lt.2 (Nat.le_add_left _ _))
abbrev sem39_0 : Fin 2 → DmaSem sig := fun | 0 => cc39_sem0_0 | 1 => cc39_sem0_1 | ⟨_ + 2, h⟩ => absurd h (Nat.not_lt.2 (Nat.le_add_left _ _))
abbrev reads39_0 : Fin grid39.rank → Bool := ![true]

abbrev stage39_1 : Fin 1 → Memref sig .tc .vmem S1x64 .f32 := fun | 0 => Memref.whole cc39_stg1_0 | ⟨_ + 1, h⟩ => absurd h (Nat.not_lt.2 (Nat.le_add_left _ _))
abbrev sem39_1 : Fin 1 → DmaSem sig := fun | 0 => cc39_sem1_0 | ⟨_ + 1, h⟩ => absurd h (Nat.not_lt.2 (Nat.le_add_left _ _))
abbrev reads39_1 : Fin grid39.rank → Bool := ![false]

abbrev stage39_2 : Fin 1 → Memref sig .tc .vmem S1x64 .f32 := fun | 0 => Memref.whole cc39_stg2_0 | ⟨_ + 1, h⟩ => absurd h (Nat.not_lt.2 (Nat.le_add_left _ _))
abbrev sem39_2 : Fin 1 → DmaSem sig := fun | 0 => cc39_sem2_0 | ⟨_ + 1, h⟩ => absurd h (Nat.not_lt.2 (Nat.le_add_left _ _))
abbrev reads39_2 : Fin grid39.rank → Bool := ![false]

abbrev grid40 : Pipeline.Grid := ⟨1, ![25], ![false]⟩

def cc40_transform_0 (i : grid40.Coords) : Fin 2 → Nat :=
  let arg0 : BitVec 32 := BitVec.ofNat 32 (i 0).val
  let c0_i32 : BitVec 32 := 0#32
  let c0_i32_0 : BitVec 32 := 0#32
  ![arg0.toNat, c0_i32.toNat]

def cc40_transform_1 (i : grid40.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc40_transform_2 (i : grid40.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc40_transform_3 (i : grid40.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc40_transform_4 (i : grid40.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc40_transform_5 (i : grid40.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage40_0 : Fin 2 → Memref sig .tc .vmem S2000x64 .f32 := fun | 0 => Memref.whole cc40_stg0_0 | 1 => Memref.whole cc40_stg0_1 | ⟨_ + 2, h⟩ => absurd h (Nat.not_lt.2 (Nat.le_add_left _ _))
abbrev sem40_0 : Fin 2 → DmaSem sig := fun | 0 => cc40_sem0_0 | 1 => cc40_sem0_1 | ⟨_ + 2, h⟩ => absurd h (Nat.not_lt.2 (Nat.le_add_left _ _))
abbrev reads40_0 : Fin grid40.rank → Bool := ![true]

abbrev stage40_1 : Fin 1 → Memref sig .tc .vmem S1x64 .f32 := fun | 0 => Memref.whole cc40_stg1_0 | ⟨_ + 1, h⟩ => absurd h (Nat.not_lt.2 (Nat.le_add_left _ _))
abbrev sem40_1 : Fin 1 → DmaSem sig := fun | 0 => cc40_sem1_0 | ⟨_ + 1, h⟩ => absurd h (Nat.not_lt.2 (Nat.le_add_left _ _))
abbrev reads40_1 : Fin grid40.rank → Bool := ![false]

abbrev stage40_2 : Fin 1 → Memref sig .tc .vmem S1x64 .f32 := fun | 0 => Memref.whole cc40_stg2_0 | ⟨_ + 1, h⟩ => absurd h (Nat.not_lt.2 (Nat.le_add_left _ _))
abbrev sem40_2 : Fin 1 → DmaSem sig := fun | 0 => cc40_sem2_0 | ⟨_ + 1, h⟩ => absurd h (Nat.not_lt.2 (Nat.le_add_left _ _))
abbrev reads40_2 : Fin grid40.rank → Bool := ![false]

abbrev stage40_3 : Fin 1 → Memref sig .tc .vmem S1x64 .f32 := fun | 0 => Memref.whole cc40_stg3_0 | ⟨_ + 1, h⟩ => absurd h (Nat.not_lt.2 (Nat.le_add_left _ _))
abbrev sem40_3 : Fin 1 → DmaSem sig := fun | 0 => cc40_sem3_0 | ⟨_ + 1, h⟩ => absurd h (Nat.not_lt.2 (Nat.le_add_left _ _))
abbrev reads40_3 : Fin grid40.rank → Bool := ![false]

abbrev stage40_4 : Fin 1 → Memref sig .tc .vmem S1x64 .f32 := fun | 0 => Memref.whole cc40_stg4_0 | ⟨_ + 1, h⟩ => absurd h (Nat.not_lt.2 (Nat.le_add_left _ _))
abbrev sem40_4 : Fin 1 → DmaSem sig := fun | 0 => cc40_sem4_0 | ⟨_ + 1, h⟩ => absurd h (Nat.not_lt.2 (Nat.le_add_left _ _))
abbrev reads40_4 : Fin grid40.rank → Bool := ![false]

abbrev stage40_5 : Fin 2 → Memref sig .tc .vmem S2000x64 .f32 := fun | 0 => Memref.whole cc40_stg5_0 | 1 => Memref.whole cc40_stg5_1 | ⟨_ + 2, h⟩ => absurd h (Nat.not_lt.2 (Nat.le_add_left _ _))
abbrev sem40_5 : Fin 2 → DmaSem sig := fun | 0 => cc40_sem5_0 | 1 => cc40_sem5_1 | ⟨_ + 2, h⟩ => absurd h (Nat.not_lt.2 (Nat.le_add_left _ _))
abbrev reads40_5 : Fin grid40.rank → Bool := ![true]

abbrev grid41 : Pipeline.Grid := ⟨1, ![25], ![false]⟩

def cc41_transform_0 (i : grid41.Coords) : Fin 2 → Nat :=
  let arg0 : BitVec 32 := BitVec.ofNat 32 (i 0).val
  let c0_i32 : BitVec 32 := 0#32
  let c0_i32_0 : BitVec 32 := 0#32
  ![arg0.toNat, c0_i32.toNat]

def cc41_transform_1 (i : grid41.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc41_transform_2 (i : grid41.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage41_0 : Fin 2 → Memref sig .tc .vmem S2000x64 .f32 := fun | 0 => Memref.whole cc41_stg0_0 | 1 => Memref.whole cc41_stg0_1 | ⟨_ + 2, h⟩ => absurd h (Nat.not_lt.2 (Nat.le_add_left _ _))
abbrev sem41_0 : Fin 2 → DmaSem sig := fun | 0 => cc41_sem0_0 | 1 => cc41_sem0_1 | ⟨_ + 2, h⟩ => absurd h (Nat.not_lt.2 (Nat.le_add_left _ _))
abbrev reads41_0 : Fin grid41.rank → Bool := ![true]

abbrev stage41_1 : Fin 1 → Memref sig .tc .vmem S64x64 .f32 := fun | 0 => Memref.whole cc41_stg1_0 | ⟨_ + 1, h⟩ => absurd h (Nat.not_lt.2 (Nat.le_add_left _ _))
abbrev sem41_1 : Fin 1 → DmaSem sig := fun | 0 => cc41_sem1_0 | ⟨_ + 1, h⟩ => absurd h (Nat.not_lt.2 (Nat.le_add_left _ _))
abbrev reads41_1 : Fin grid41.rank → Bool := ![false]

abbrev stage41_2 : Fin 2 → Memref sig .tc .vmem S2000x64 .f32 := fun | 0 => Memref.whole cc41_stg2_0 | 1 => Memref.whole cc41_stg2_1 | ⟨_ + 2, h⟩ => absurd h (Nat.not_lt.2 (Nat.le_add_left _ _))
abbrev sem41_2 : Fin 2 → DmaSem sig := fun | 0 => cc41_sem2_0 | 1 => cc41_sem2_1 | ⟨_ + 2, h⟩ => absurd h (Nat.not_lt.2 (Nat.le_add_left _ _))
abbrev reads41_2 : Fin grid41.rank → Bool := ![true]

abbrev grid42 : Pipeline.Grid := ⟨1, ![25], ![false]⟩

def k42_cond2 (i : grid42.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_16 : BitVec 32 := 0#32
  let v26 : BitVec 1 := Scalar.cmpi .ne v25 c0_i32_16
  v26

def cc42_transform_0 (i : grid42.Coords) : Fin 2 → Nat :=
  let arg0 : BitVec 32 := BitVec.ofNat 32 (i 0).val
  let c0_i32 : BitVec 32 := 0#32
  let c0_i32_0 : BitVec 32 := 0#32
  ![arg0.toNat, c0_i32.toNat]

def cc42_transform_1 (i : grid42.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc42_transform_2 (i : grid42.Coords) : Fin 2 → Nat :=
  let arg0 : BitVec 32 := BitVec.ofNat 32 (i 0).val
  let c0_i32 : BitVec 32 := 0#32
  let c0_i32_0 : BitVec 32 := 0#32
  ![arg0.toNat, c0_i32.toNat]

def cc42_transform_3 (i : grid42.Coords) : Fin 2 → Nat :=
  let arg0 : BitVec 32 := BitVec.ofNat 32 (i 0).val
  let c0_i32 : BitVec 32 := 0#32
  let c0_i32_0 : BitVec 32 := 0#32
  ![arg0.toNat, c0_i32.toNat]

def cc42_transform_4 (i : grid42.Coords) : Fin 2 → Nat :=
  let arg0 : BitVec 32 := BitVec.ofNat 32 (i 0).val
  let c0_i32 : BitVec 32 := 0#32
  let c0_i32_0 : BitVec 32 := 0#32
  ![arg0.toNat, c0_i32.toNat]

def cc42_transform_5 (i : grid42.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage42_0 : Fin 2 → Memref sig .tc .vmem S2000x64 .f32 := fun | 0 => Memref.whole cc42_stg0_0 | 1 => Memref.whole cc42_stg0_1 | ⟨_ + 2, h⟩ => absurd h (Nat.not_lt.2 (Nat.le_add_left _ _))
abbrev sem42_0 : Fin 2 → DmaSem sig := fun | 0 => cc42_sem0_0 | 1 => cc42_sem0_1 | ⟨_ + 2, h⟩ => absurd h (Nat.not_lt.2 (Nat.le_add_left _ _))
abbrev reads42_0 : Fin grid42.rank → Bool := ![true]

abbrev stage42_1 : Fin 1 → Memref sig .tc .vmem S1x64 .f32 := fun | 0 => Memref.whole cc42_stg1_0 | ⟨_ + 1, h⟩ => absurd h (Nat.not_lt.2 (Nat.le_add_left _ _))
abbrev sem42_1 : Fin 1 → DmaSem sig := fun | 0 => cc42_sem1_0 | ⟨_ + 1, h⟩ => absurd h (Nat.not_lt.2 (Nat.le_add_left _ _))
abbrev reads42_1 : Fin grid42.rank → Bool := ![false]

abbrev stage42_2 : Fin 2 → Memref sig .tc .vmem S2000x64 .f32 := fun | 0 => Memref.whole cc42_stg2_0 | 1 => Memref.whole cc42_stg2_1 | ⟨_ + 2, h⟩ => absurd h (Nat.not_lt.2 (Nat.le_add_left _ _))
abbrev sem42_2 : Fin 2 → DmaSem sig := fun | 0 => cc42_sem2_0 | 1 => cc42_sem2_1 | ⟨_ + 2, h⟩ => absurd h (Nat.not_lt.2 (Nat.le_add_left _ _))
abbrev reads42_2 : Fin grid42.rank → Bool := ![true]

abbrev stage42_3 : Fin 2 → Memref sig .tc .vmem S2000x64 .f32 := fun | 0 => Memref.whole cc42_stg3_0 | 1 => Memref.whole cc42_stg3_1 | ⟨_ + 2, h⟩ => absurd h (Nat.not_lt.2 (Nat.le_add_left _ _))
abbrev sem42_3 : Fin 2 → DmaSem sig := fun | 0 => cc42_sem3_0 | 1 => cc42_sem3_1 | ⟨_ + 2, h⟩ => absurd h (Nat.not_lt.2 (Nat.le_add_left _ _))
abbrev reads42_3 : Fin grid42.rank → Bool := ![true]

abbrev stage42_4 : Fin 2 → Memref sig .tc .vmem S2000x64 .f32 := fun | 0 => Memref.whole cc42_stg4_0 | 1 => Memref.whole cc42_stg4_1 | ⟨_ + 2, h⟩ => absurd h (Nat.not_lt.2 (Nat.le_add_left _ _))
abbrev sem42_4 : Fin 2 → DmaSem sig := fun | 0 => cc42_sem4_0 | 1 => cc42_sem4_1 | ⟨_ + 2, h⟩ => absurd h (Nat.not_lt.2 (Nat.le_add_left _ _))
abbrev reads42_4 : Fin grid42.rank → Bool := ![true]

abbrev stage42_5 : Fin 1 → Memref sig .tc .vmem S1x64 .f32 := fun | 0 => Memref.whole cc42_stg5_0 | ⟨_ + 1, h⟩ => absurd h (Nat.not_lt.2 (Nat.le_add_left _ _))
abbrev sem42_5 : Fin 1 → DmaSem sig := fun | 0 => cc42_sem5_0 | ⟨_ + 1, h⟩ => absurd h (Nat.not_lt.2 (Nat.le_add_left _ _))
abbrev reads42_5 : Fin grid42.rank → Bool := ![false]

abbrev grid43 : Pipeline.Grid := ⟨1, ![25], ![false]⟩

def k43_cond2 (i : grid43.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_8 : BitVec 32 := 0#32
  let v19 : BitVec 1 := Scalar.cmpi .ne v18 c0_i32_8
  v19

def cc43_transform_0 (i : grid43.Coords) : Fin 2 → Nat :=
  let arg0 : BitVec 32 := BitVec.ofNat 32 (i 0).val
  let c0_i32 : BitVec 32 := 0#32
  let c0_i32_0 : BitVec 32 := 0#32
  ![arg0.toNat, c0_i32.toNat]

def cc43_transform_1 (i : grid43.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc43_transform_2 (i : grid43.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage43_0 : Fin 2 → Memref sig .tc .vmem S2000x64 .f32 := fun | 0 => Memref.whole cc43_stg0_0 | 1 => Memref.whole cc43_stg0_1 | ⟨_ + 2, h⟩ => absurd h (Nat.not_lt.2 (Nat.le_add_left _ _))
abbrev sem43_0 : Fin 2 → DmaSem sig := fun | 0 => cc43_sem0_0 | 1 => cc43_sem0_1 | ⟨_ + 2, h⟩ => absurd h (Nat.not_lt.2 (Nat.le_add_left _ _))
abbrev reads43_0 : Fin grid43.rank → Bool := ![true]

abbrev stage43_1 : Fin 1 → Memref sig .tc .vmem S1x64 .f32 := fun | 0 => Memref.whole cc43_stg1_0 | ⟨_ + 1, h⟩ => absurd h (Nat.not_lt.2 (Nat.le_add_left _ _))
abbrev sem43_1 : Fin 1 → DmaSem sig := fun | 0 => cc43_sem1_0 | ⟨_ + 1, h⟩ => absurd h (Nat.not_lt.2 (Nat.le_add_left _ _))
abbrev reads43_1 : Fin grid43.rank → Bool := ![false]

abbrev stage43_2 : Fin 1 → Memref sig .tc .vmem S1x64 .f32 := fun | 0 => Memref.whole cc43_stg2_0 | ⟨_ + 1, h⟩ => absurd h (Nat.not_lt.2 (Nat.le_add_left _ _))
abbrev sem43_2 : Fin 1 → DmaSem sig := fun | 0 => cc43_sem2_0 | ⟨_ + 1, h⟩ => absurd h (Nat.not_lt.2 (Nat.le_add_left _ _))
abbrev reads43_2 : Fin grid43.rank → Bool := ![false]

abbrev grid44 : Pipeline.Grid := ⟨1, ![25], ![false]⟩

def cc44_transform_0 (i : grid44.Coords) : Fin 2 → Nat :=
  let arg0 : BitVec 32 := BitVec.ofNat 32 (i 0).val
  let c0_i32 : BitVec 32 := 0#32
  let c0_i32_0 : BitVec 32 := 0#32
  ![arg0.toNat, c0_i32.toNat]

def cc44_transform_1 (i : grid44.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc44_transform_2 (i : grid44.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc44_transform_3 (i : grid44.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc44_transform_4 (i : grid44.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc44_transform_5 (i : grid44.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage44_0 : Fin 2 → Memref sig .tc .vmem S2000x64 .f32 := fun | 0 => Memref.whole cc44_stg0_0 | 1 => Memref.whole cc44_stg0_1 | ⟨_ + 2, h⟩ => absurd h (Nat.not_lt.2 (Nat.le_add_left _ _))
abbrev sem44_0 : Fin 2 → DmaSem sig := fun | 0 => cc44_sem0_0 | 1 => cc44_sem0_1 | ⟨_ + 2, h⟩ => absurd h (Nat.not_lt.2 (Nat.le_add_left _ _))
abbrev reads44_0 : Fin grid44.rank → Bool := ![true]

abbrev stage44_1 : Fin 1 → Memref sig .tc .vmem S1x64 .f32 := fun | 0 => Memref.whole cc44_stg1_0 | ⟨_ + 1, h⟩ => absurd h (Nat.not_lt.2 (Nat.le_add_left _ _))
abbrev sem44_1 : Fin 1 → DmaSem sig := fun | 0 => cc44_sem1_0 | ⟨_ + 1, h⟩ => absurd h (Nat.not_lt.2 (Nat.le_add_left _ _))
abbrev reads44_1 : Fin grid44.rank → Bool := ![false]

abbrev stage44_2 : Fin 1 → Memref sig .tc .vmem S1x64 .f32 := fun | 0 => Memref.whole cc44_stg2_0 | ⟨_ + 1, h⟩ => absurd h (Nat.not_lt.2 (Nat.le_add_left _ _))
abbrev sem44_2 : Fin 1 → DmaSem sig := fun | 0 => cc44_sem2_0 | ⟨_ + 1, h⟩ => absurd h (Nat.not_lt.2 (Nat.le_add_left _ _))
abbrev reads44_2 : Fin grid44.rank → Bool := ![false]

abbrev stage44_3 : Fin 1 → Memref sig .tc .vmem S1x64 .f32 := fun | 0 => Memref.whole cc44_stg3_0 | ⟨_ + 1, h⟩ => absurd h (Nat.not_lt.2 (Nat.le_add_left _ _))
abbrev sem44_3 : Fin 1 → DmaSem sig := fun | 0 => cc44_sem3_0 | ⟨_ + 1, h⟩ => absurd h (Nat.not_lt.2 (Nat.le_add_left _ _))
abbrev reads44_3 : Fin grid44.rank → Bool := ![false]

abbrev stage44_4 : Fin 1 → Memref sig .tc .vmem S1x64 .f32 := fun | 0 => Memref.whole cc44_stg4_0 | ⟨_ + 1, h⟩ => absurd h (Nat.not_lt.2 (Nat.le_add_left _ _))
abbrev sem44_4 : Fin 1 → DmaSem sig := fun | 0 => cc44_sem4_0 | ⟨_ + 1, h⟩ => absurd h (Nat.not_lt.2 (Nat.le_add_left _ _))
abbrev reads44_4 : Fin grid44.rank → Bool := ![false]

abbrev stage44_5 : Fin 2 → Memref sig .tc .vmem S2000x64 .f32 := fun | 0 => Memref.whole cc44_stg5_0 | 1 => Memref.whole cc44_stg5_1 | ⟨_ + 2, h⟩ => absurd h (Nat.not_lt.2 (Nat.le_add_left _ _))
abbrev sem44_5 : Fin 2 → DmaSem sig := fun | 0 => cc44_sem5_0 | 1 => cc44_sem5_1 | ⟨_ + 2, h⟩ => absurd h (Nat.not_lt.2 (Nat.le_add_left _ _))
abbrev reads44_5 : Fin grid44.rank → Bool := ![true]

abbrev grid45 : Pipeline.Grid := ⟨1, ![25], ![false]⟩

def cc45_transform_0 (i : grid45.Coords) : Fin 2 → Nat :=
  let arg0 : BitVec 32 := BitVec.ofNat 32 (i 0).val
  let c0_i32 : BitVec 32 := 0#32
  let c0_i32_0 : BitVec 32 := 0#32
  ![arg0.toNat, c0_i32.toNat]

def cc45_transform_1 (i : grid45.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc45_transform_2 (i : grid45.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage45_0 : Fin 2 → Memref sig .tc .vmem S2000x64 .f32 := fun | 0 => Memref.whole cc45_stg0_0 | 1 => Memref.whole cc45_stg0_1 | ⟨_ + 2, h⟩ => absurd h (Nat.not_lt.2 (Nat.le_add_left _ _))
abbrev sem45_0 : Fin 2 → DmaSem sig := fun | 0 => cc45_sem0_0 | 1 => cc45_sem0_1 | ⟨_ + 2, h⟩ => absurd h (Nat.not_lt.2 (Nat.le_add_left _ _))
abbrev reads45_0 : Fin grid45.rank → Bool := ![true]

abbrev stage45_1 : Fin 1 → Memref sig .tc .vmem S64x32 .f32 := fun | 0 => Memref.whole cc45_stg1_0 | ⟨_ + 1, h⟩ => absurd h (Nat.not_lt.2 (Nat.le_add_left _ _))
abbrev sem45_1 : Fin 1 → DmaSem sig := fun | 0 => cc45_sem1_0 | ⟨_ + 1, h⟩ => absurd h (Nat.not_lt.2 (Nat.le_add_left _ _))
abbrev reads45_1 : Fin grid45.rank → Bool := ![false]

abbrev stage45_2 : Fin 2 → Memref sig .tc .vmem S2000x32 .f32 := fun | 0 => Memref.whole cc45_stg2_0 | 1 => Memref.whole cc45_stg2_1 | ⟨_ + 2, h⟩ => absurd h (Nat.not_lt.2 (Nat.le_add_left _ _))
abbrev sem45_2 : Fin 2 → DmaSem sig := fun | 0 => cc45_sem2_0 | 1 => cc45_sem2_1 | ⟨_ + 2, h⟩ => absurd h (Nat.not_lt.2 (Nat.le_add_left _ _))
abbrev reads45_2 : Fin grid45.rank → Bool := ![true]

abbrev grid46 : Pipeline.Grid := ⟨1, ![25], ![false]⟩

def k46_cond2 (i : grid46.Coords) : BitVec 1 :=
  let arg0 : BitVec 32 := BitVec.ofNat 32 (i 0).val
  let c24_i32 : BitVec 32 := 24#32
  let v28 : BitVec 1 := Scalar.cmpi .eq arg0 c24_i32
  let v29 : BitVec 32 := Scalar.extui v28
  let c0_i32_13 : BitVec 32 := 0#32
  let v30 : BitVec 1 := Scalar.cmpi .ne v29 c0_i32_13
  v30

def cc46_transform_0 (i : grid46.Coords) : Fin 2 → Nat :=
  let arg0 : BitVec 32 := BitVec.ofNat 32 (i 0).val
  let c0_i32 : BitVec 32 := 0#32
  let c0_i32_0 : BitVec 32 := 0#32
  ![arg0.toNat, c0_i32.toNat]

def cc46_transform_1 (i : grid46.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc46_transform_2 (i : grid46.Coords) : Fin 2 → Nat :=
  let arg0 : BitVec 32 := BitVec.ofNat 32 (i 0).val
  let c0_i32 : BitVec 32 := 0#32
  let c0_i32_0 : BitVec 32 := 0#32
  ![arg0.toNat, c0_i32.toNat]

def cc46_transform_3 (i : grid46.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage46_0 : Fin 2 → Memref sig .tc .vmem S2000x32 .f32 := fun | 0 => Memref.whole cc46_stg0_0 | 1 => Memref.whole cc46_stg0_1 | ⟨_ + 2, h⟩ => absurd h (Nat.not_lt.2 (Nat.le_add_left _ _))
abbrev sem46_0 : Fin 2 → DmaSem sig := fun | 0 => cc46_sem0_0 | 1 => cc46_sem0_1 | ⟨_ + 2, h⟩ => absurd h (Nat.not_lt.2 (Nat.le_add_left _ _))
abbrev reads46_0 : Fin grid46.rank → Bool := ![true]

abbrev stage46_1 : Fin 1 → Memref sig .tc .vmem S1x32 .f32 := fun | 0 => Memref.whole cc46_stg1_0 | ⟨_ + 1, h⟩ => absurd h (Nat.not_lt.2 (Nat.le_add_left _ _))
abbrev sem46_1 : Fin 1 → DmaSem sig := fun | 0 => cc46_sem1_0 | ⟨_ + 1, h⟩ => absurd h (Nat.not_lt.2 (Nat.le_add_left _ _))
abbrev reads46_1 : Fin grid46.rank → Bool := ![false]

abbrev stage46_2 : Fin 2 → Memref sig .tc .vmem S2000x32 .f32 := fun | 0 => Memref.whole cc46_stg2_0 | 1 => Memref.whole cc46_stg2_1 | ⟨_ + 2, h⟩ => absurd h (Nat.not_lt.2 (Nat.le_add_left _ _))
abbrev sem46_2 : Fin 2 → DmaSem sig := fun | 0 => cc46_sem2_0 | 1 => cc46_sem2_1 | ⟨_ + 2, h⟩ => absurd h (Nat.not_lt.2 (Nat.le_add_left _ _))
abbrev reads46_2 : Fin grid46.rank → Bool := ![true]

abbrev stage46_3 : Fin 1 → Memref sig .tc .vmem S1x32 .f32 := fun | 0 => Memref.whole cc46_stg3_0 | ⟨_ + 1, h⟩ => absurd h (Nat.not_lt.2 (Nat.le_add_left _ _))
abbrev sem46_3 : Fin 1 → DmaSem sig := fun | 0 => cc46_sem3_0 | ⟨_ + 1, h⟩ => absurd h (Nat.not_lt.2 (Nat.le_add_left _ _))
abbrev reads46_3 : Fin grid46.rank → Bool := ![false]

abbrev grid47 : Pipeline.Grid := ⟨1, ![25], ![false]⟩

def k47_cond2 (i : grid47.Coords) : BitVec 1 :=
  let arg0 : BitVec 32 := BitVec.ofNat 32 (i 0).val
  let c24_i32 : BitVec 32 := 24#32
  let v17 : BitVec 1 := Scalar.cmpi .eq arg0 c24_i32
  let v18 : BitVec 32 := Scalar.extui v17
  let c0_i32_8 : BitVec 32 := 0#32
  let v19 : BitVec 1 := Scalar.cmpi .ne v18 c0_i32_8
  v19

def cc47_transform_0 (i : grid47.Coords) : Fin 2 → Nat :=
  let arg0 : BitVec 32 := BitVec.ofNat 32 (i 0).val
  let c0_i32 : BitVec 32 := 0#32
  let c0_i32_0 : BitVec 32 := 0#32
  ![arg0.toNat, c0_i32.toNat]

def cc47_transform_1 (i : grid47.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc47_transform_2 (i : grid47.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage47_0 : Fin 2 → Memref sig .tc .vmem S2000x32 .f32 := fun | 0 => Memref.whole cc47_stg0_0 | 1 => Memref.whole cc47_stg0_1 | ⟨_ + 2, h⟩ => absurd h (Nat.not_lt.2 (Nat.le_add_left _ _))
abbrev sem47_0 : Fin 2 → DmaSem sig := fun | 0 => cc47_sem0_0 | 1 => cc47_sem0_1 | ⟨_ + 2, h⟩ => absurd h (Nat.not_lt.2 (Nat.le_add_left _ _))
abbrev reads47_0 : Fin grid47.rank → Bool := ![true]

abbrev stage47_1 : Fin 1 → Memref sig .tc .vmem S1x32 .f32 := fun | 0 => Memref.whole cc47_stg1_0 | ⟨_ + 1, h⟩ => absurd h (Nat.not_lt.2 (Nat.le_add_left _ _))
abbrev sem47_1 : Fin 1 → DmaSem sig := fun | 0 => cc47_sem1_0 | ⟨_ + 1, h⟩ => absurd h (Nat.not_lt.2 (Nat.le_add_left _ _))
abbrev reads47_1 : Fin grid47.rank → Bool := ![false]

abbrev stage47_2 : Fin 1 → Memref sig .tc .vmem S1x32 .f32 := fun | 0 => Memref.whole cc47_stg2_0 | ⟨_ + 1, h⟩ => absurd h (Nat.not_lt.2 (Nat.le_add_left _ _))
abbrev sem47_2 : Fin 1 → DmaSem sig := fun | 0 => cc47_sem2_0 | ⟨_ + 1, h⟩ => absurd h (Nat.not_lt.2 (Nat.le_add_left _ _))
abbrev reads47_2 : Fin grid47.rank → Bool := ![false]

abbrev grid48 : Pipeline.Grid := ⟨1, ![25], ![false]⟩

def cc48_transform_0 (i : grid48.Coords) : Fin 2 → Nat :=
  let arg0 : BitVec 32 := BitVec.ofNat 32 (i 0).val
  let c0_i32 : BitVec 32 := 0#32
  let c0_i32_0 : BitVec 32 := 0#32
  ![arg0.toNat, c0_i32.toNat]

def cc48_transform_1 (i : grid48.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc48_transform_2 (i : grid48.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc48_transform_3 (i : grid48.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc48_transform_4 (i : grid48.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc48_transform_5 (i : grid48.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc48_transform_6 (i : grid48.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage48_0 : Fin 2 → Memref sig .tc .vmem S2000x32 .f32 := fun | 0 => Memref.whole cc48_stg0_0 | 1 => Memref.whole cc48_stg0_1 | ⟨_ + 2, h⟩ => absurd h (Nat.not_lt.2 (Nat.le_add_left _ _))
abbrev sem48_0 : Fin 2 → DmaSem sig := fun | 0 => cc48_sem0_0 | 1 => cc48_sem0_1 | ⟨_ + 2, h⟩ => absurd h (Nat.not_lt.2 (Nat.le_add_left _ _))
abbrev reads48_0 : Fin grid48.rank → Bool := ![true]

abbrev stage48_1 : Fin 1 → Memref sig .tc .vmem S1x32 .f32 := fun | 0 => Memref.whole cc48_stg1_0 | ⟨_ + 1, h⟩ => absurd h (Nat.not_lt.2 (Nat.le_add_left _ _))
abbrev sem48_1 : Fin 1 → DmaSem sig := fun | 0 => cc48_sem1_0 | ⟨_ + 1, h⟩ => absurd h (Nat.not_lt.2 (Nat.le_add_left _ _))
abbrev reads48_1 : Fin grid48.rank → Bool := ![false]

abbrev stage48_2 : Fin 1 → Memref sig .tc .vmem S1x32 .f32 := fun | 0 => Memref.whole cc48_stg2_0 | ⟨_ + 1, h⟩ => absurd h (Nat.not_lt.2 (Nat.le_add_left _ _))
abbrev sem48_2 : Fin 1 → DmaSem sig := fun | 0 => cc48_sem2_0 | ⟨_ + 1, h⟩ => absurd h (Nat.not_lt.2 (Nat.le_add_left _ _))
abbrev reads48_2 : Fin grid48.rank → Bool := ![false]

abbrev stage48_3 : Fin 1 → Memref sig .tc .vmem S1x32 .f32 := fun | 0 => Memref.whole cc48_stg3_0 | ⟨_ + 1, h⟩ => absurd h (Nat.not_lt.2 (Nat.le_add_left _ _))
abbrev sem48_3 : Fin 1 → DmaSem sig := fun | 0 => cc48_sem3_0 | ⟨_ + 1, h⟩ => absurd h (Nat.not_lt.2 (Nat.le_add_left _ _))
abbrev reads48_3 : Fin grid48.rank → Bool := ![false]

abbrev stage48_4 : Fin 1 → Memref sig .tc .vmem S1x32 .f32 := fun | 0 => Memref.whole cc48_stg4_0 | ⟨_ + 1, h⟩ => absurd h (Nat.not_lt.2 (Nat.le_add_left _ _))
abbrev sem48_4 : Fin 1 → DmaSem sig := fun | 0 => cc48_sem4_0 | ⟨_ + 1, h⟩ => absurd h (Nat.not_lt.2 (Nat.le_add_left _ _))
abbrev reads48_4 : Fin grid48.rank → Bool := ![false]

abbrev stage48_5 : Fin 1 → Memref sig .tc .vmem S32x1 .f32 := fun | 0 => Memref.whole cc48_stg5_0 | ⟨_ + 1, h⟩ => absurd h (Nat.not_lt.2 (Nat.le_add_left _ _))
abbrev sem48_5 : Fin 1 → DmaSem sig := fun | 0 => cc48_sem5_0 | ⟨_ + 1, h⟩ => absurd h (Nat.not_lt.2 (Nat.le_add_left _ _))
abbrev reads48_5 : Fin grid48.rank → Bool := ![false]

abbrev stage48_6 : Fin 2 → Memref sig .tc .vmem S2000x1 .f32 := fun | 0 => Memref.whole cc48_stg6_0 | 1 => Memref.whole cc48_stg6_1 | ⟨_ + 2, h⟩ => absurd h (Nat.not_lt.2 (Nat.le_add_left _ _))
abbrev sem48_6 : Fin 2 → DmaSem sig := fun | 0 => cc48_sem6_0 | 1 => cc48_sem6_1 | ⟨_ + 2, h⟩ => absurd h (Nat.not_lt.2 (Nat.le_add_left _ _))
abbrev reads48_6 : Fin grid48.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x18.size a ≤ S50000x18.size a
  hwx0_0 : ∀ i : grid0.Coords, EltTy.bits .f32 = 32 ∨ (Rect.block (s := S50000x18) S2000x18.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S18x4.size a ≤ S18x4.size a
  hwx0_1 : ∀ i : grid0.Coords, EltTy.bits .f32 = 32 ∨ (Rect.block (s := S18x4) S18x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x4.size a ≤ S50000x4.size a
  hwx0_3 : ∀ i : grid0.Coords, EltTy.bits .f32 = 32 ∨ (Rect.block (s := S50000x4) S2000x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x4.size a ≤ S50000x4.size a
  hwx0_4 : ∀ i : grid0.Coords, EltTy.bits .f32 = 32 ∨ (Rect.block (s := S50000x4) S2000x4.size (cc0_transform_4 i) (hinb0_4 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x4.size a ≤ S50000x4.size a
  hwx1_0 : ∀ i : grid1.Coords, EltTy.bits .f32 = 32 ∨ (Rect.block (s := S50000x4) S2000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x64.size a ≤ S4x64.size a
  hwx1_1 : ∀ i : grid1.Coords, EltTy.bits .f32 = 32 ∨ (Rect.block (s := S4x64) S4x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)

class K3.Facts₀ : Prop where
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)

class K4.Facts₀ : Prop where
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x64.size a ≤ S50000x64.size a
  hwx4_5 : ∀ i : grid4.Coords, EltTy.bits .f32 = 32 ∨ (Rect.block (s := S50000x64) S2000x64.size (cc4_transform_5 i) (hinb4_5 i)).WholeWords (EltTy.packing .f32)

class K5.Facts₀ : Prop where
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x128.size a ≤ S64x128.size a
  hwx5_1 : ∀ i : grid5.Coords, EltTy.bits .f32 = 32 ∨ (Rect.block (s := S64x128) S64x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)

class K6.Facts₀ : Prop where
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)

class K7.Facts₀ : Prop where
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)

class K8.Facts₀ : Prop where
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S50000x128.size a
  hwx8_5 : ∀ i : grid8.Coords, EltTy.bits .f32 = 32 ∨ (Rect.block (s := S50000x128) S2000x128.size (cc8_transform_5 i) (hinb8_5 i)).WholeWords (EltTy.packing .f32)

class K9.Facts₀ : Prop where
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x64.size a ≤ S128x64.size a
  hwx9_1 : ∀ i : grid9.Coords, EltTy.bits .f32 = 32 ∨ (Rect.block (s := S128x64) S128x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x64.size a ≤ S50000x64.size a
  hwx9_2 : ∀ i : grid9.Coords, EltTy.bits .f32 = 32 ∨ (Rect.block (s := S50000x64) S2000x64.size (cc9_transform_2 i) (hinb9_2 i)).WholeWords (EltTy.packing .f32)

class K10.Facts₀ : Prop where
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x64.size a ≤ S50000x64.size a
  hwx10_0 : ∀ i : grid10.Coords, EltTy.bits .f32 = 32 ∨ (Rect.block (s := S50000x64) S2000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x64.size a ≤ S50000x64.size a
  hwx10_2 : ∀ i : grid10.Coords, EltTy.bits .f32 = 32 ∨ (Rect.block (s := S50000x64) S2000x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x64.size a ≤ S50000x64.size a
  hwx10_3 : ∀ i : grid10.Coords, EltTy.bits .f32 = 32 ∨ (Rect.block (s := S50000x64) S2000x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)

class K11.Facts₀ : Prop where
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x64.size a ≤ S50000x64.size a
  hwx11_0 : ∀ i : grid11.Coords, EltTy.bits .f32 = 32 ∨ (Rect.block (s := S50000x64) S2000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)

class K12.Facts₀ : Prop where
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x64.size a ≤ S50000x64.size a
  hwx12_0 : ∀ i : grid12.Coords, EltTy.bits .f32 = 32 ∨ (Rect.block (s := S50000x64) S2000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x64.size a ≤ S1x64.size a
  hwx12_1 : ∀ i : grid12.Coords, EltTy.bits .f32 = 32 ∨ (Rect.block (s := S1x64) S1x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x64.size a ≤ S1x64.size a
  hwx12_4 : ∀ i : grid12.Coords, EltTy.bits .f32 = 32 ∨ (Rect.block (s := S1x64) S1x64.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S2000x64.size a ≤ S50000x64.size a
  hwx12_5 : ∀ i : grid12.Coords, EltTy.bits .f32 = 32 ∨ (Rect.block (s := S50000x64) S2000x64.size (cc12_transform_5 i) (hinb12_5 i)).WholeWords (EltTy.packing .f32)

class K13.Facts₀ : Prop where
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x64.size a ≤ S50000x64.size a
  hwx13_0 : ∀ i : grid13.Coords, EltTy.bits .f32 = 32 ∨ (Rect.block (s := S50000x64) S2000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S64x64.size a ≤ S64x64.size a
  hwx13_1 : ∀ i : grid13.Coords, EltTy.bits .f32 = 32 ∨ (Rect.block (s := S64x64) S64x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x64.size a ≤ S50000x64.size a
  hwx13_2 : ∀ i : grid13.Coords, EltTy.bits .f32 = 32 ∨ (Rect.block (s := S50000x64) S2000x64.size (cc13_transform_2 i) (hinb13_2 i)).WholeWords (EltTy.packing .f32)

class K14.Facts₀ : Prop where
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x64.size a ≤ S50000x64.size a
  hwx14_0 : ∀ i : grid14.Coords, EltTy.bits .f32 = 32 ∨ (Rect.block (s := S50000x64) S2000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x64.size a ≤ S1x64.size a
  hwx14_1 : ∀ i : grid14.Coords, EltTy.bits .f32 = 32 ∨ (Rect.block (s := S1x64) S1x64.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S2000x64.size a ≤ S50000x64.size a
  hwx14_2 : ∀ i : grid14.Coords, EltTy.bits .f32 = 32 ∨ (Rect.block (s := S50000x64) S2000x64.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S2000x64.size a ≤ S50000x64.size a
  hwx14_3 : ∀ i : grid14.Coords, EltTy.bits .f32 = 32 ∨ (Rect.block (s := S50000x64) S2000x64.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S2000x64.size a ≤ S50000x64.size a
  hwx14_4 : ∀ i : grid14.Coords, EltTy.bits .f32 = 32 ∨ (Rect.block (s := S50000x64) S2000x64.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x64.size a ≤ S1x64.size a
  hwx14_5 : ∀ i : grid14.Coords, EltTy.bits .f32 = 32 ∨ (Rect.block (s := S1x64) S1x64.size (cc14_transform_5 i) (hinb14_5 i)).WholeWords (EltTy.packing .f32)

class K15.Facts₀ : Prop where
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x64.size a ≤ S50000x64.size a
  hwx15_0 : ∀ i : grid15.Coords, EltTy.bits .f32 = 32 ∨ (Rect.block (s := S50000x64) S2000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x64.size a ≤ S1x64.size a
  hwx15_1 : ∀ i : grid15.Coords, EltTy.bits .f32 = 32 ∨ (Rect.block (s := S1x64) S1x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x64.size a ≤ S1x64.size a
  hwx15_2 : ∀ i : grid15.Coords, EltTy.bits .f32 = 32 ∨ (Rect.block (s := S1x64) S1x64.size (cc15_transform_2 i) (hinb15_2 i)).WholeWords (EltTy.packing .f32)

class K16.Facts₀ : Prop where
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2000x64.size a ≤ S50000x64.size a
  hwx16_0 : ∀ i : grid16.Coords, EltTy.bits .f32 = 32 ∨ (Rect.block (s := S50000x64) S2000x64.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x64.size a ≤ S1x64.size a
  hwx16_1 : ∀ i : grid16.Coords, EltTy.bits .f32 = 32 ∨ (Rect.block (s := S1x64) S1x64.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x64.size a ≤ S1x64.size a
  hwx16_2 : ∀ i : grid16.Coords, EltTy.bits .f32 = 32 ∨ (Rect.block (s := S1x64) S1x64.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x64.size a ≤ S1x64.size a
  hwx16_3 : ∀ i : grid16.Coords, EltTy.bits .f32 = 32 ∨ (Rect.block (s := S1x64) S1x64.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x64.size a ≤ S1x64.size a
  hwx16_4 : ∀ i : grid16.Coords, EltTy.bits .f32 = 32 ∨ (Rect.block (s := S1x64) S1x64.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S2000x64.size a ≤ S50000x64.size a
  hwx16_5 : ∀ i : grid16.Coords, EltTy.bits .f32 = 32 ∨ (Rect.block (s := S50000x64) S2000x64.size (cc16_transform_5 i) (hinb16_5 i)).WholeWords (EltTy.packing .f32)

class K17.Facts₀ : Prop where
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2000x64.size a ≤ S50000x64.size a
  hwx17_0 : ∀ i : grid17.Coords, EltTy.bits .f32 = 32 ∨ (Rect.block (s := S50000x64) S2000x64.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S64x64.size a ≤ S64x64.size a
  hwx17_1 : ∀ i : grid17.Coords, EltTy.bits .f32 = 32 ∨ (Rect.block (s := S64x64) S64x64.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S2000x64.size a ≤ S50000x64.size a
  hwx17_2 : ∀ i : grid17.Coords, EltTy.bits .f32 = 32 ∨ (Rect.block (s := S50000x64) S2000x64.size (cc17_transform_2 i) (hinb17_2 i)).WholeWords (EltTy.packing .f32)

class K18.Facts₀ : Prop where
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S2000x64.size a ≤ S50000x64.size a
  hwx18_0 : ∀ i : grid18.Coords, EltTy.bits .f32 = 32 ∨ (Rect.block (s := S50000x64) S2000x64.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S1x64.size a ≤ S1x64.size a
  hwx18_1 : ∀ i : grid18.Coords, EltTy.bits .f32 = 32 ∨ (Rect.block (s := S1x64) S1x64.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S2000x64.size a ≤ S50000x64.size a
  hwx18_2 : ∀ i : grid18.Coords, EltTy.bits .f32 = 32 ∨ (Rect.block (s := S50000x64) S2000x64.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S2000x64.size a ≤ S50000x64.size a
  hwx18_3 : ∀ i : grid18.Coords, EltTy.bits .f32 = 32 ∨ (Rect.block (s := S50000x64) S2000x64.size (cc18_transform_3 i) (hinb18_3 i)).WholeWords (EltTy.packing .f32)
  hstage18_4 : ∀ j, (stage18_4 j).IsWhole
  nbuf18_4 : grid18.bufCount reads18_4 false = 2
  hreads18_4 : ∀ i i' : grid18.Coords, (∀ a, reads18_4 a = true → i a = i' a) → cc18_transform_4 i = cc18_transform_4 i'
  hinb18_4 : ∀ (i : grid18.Coords) a, (cc18_transform_4 i a + 1) * S2000x64.size a ≤ S50000x64.size a
  hwx18_4 : ∀ i : grid18.Coords, EltTy.bits .f32 = 32 ∨ (Rect.block (s := S50000x64) S2000x64.size (cc18_transform_4 i) (hinb18_4 i)).WholeWords (EltTy.packing .f32)
  hstage18_5 : ∀ j, (stage18_5 j).IsWhole
  nbuf18_5 : grid18.bufCount reads18_5 true = 1
  hreads18_5 : ∀ i i' : grid18.Coords, (∀ a, reads18_5 a = true → i a = i' a) → cc18_transform_5 i = cc18_transform_5 i'
  hinb18_5 : ∀ (i : grid18.Coords) a, (cc18_transform_5 i a + 1) * S1x64.size a ≤ S1x64.size a
  hwx18_5 : ∀ i : grid18.Coords, EltTy.bits .f32 = 32 ∨ (Rect.block (s := S1x64) S1x64.size (cc18_transform_5 i) (hinb18_5 i)).WholeWords (EltTy.packing .f32)

class K19.Facts₀ : Prop where
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S2000x64.size a ≤ S50000x64.size a
  hwx19_0 : ∀ i : grid19.Coords, EltTy.bits .f32 = 32 ∨ (Rect.block (s := S50000x64) S2000x64.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x64.size a ≤ S1x64.size a
  hwx19_1 : ∀ i : grid19.Coords, EltTy.bits .f32 = 32 ∨ (Rect.block (s := S1x64) S1x64.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x64.size a ≤ S1x64.size a
  hwx19_2 : ∀ i : grid19.Coords, EltTy.bits .f32 = 32 ∨ (Rect.block (s := S1x64) S1x64.size (cc19_transform_2 i) (hinb19_2 i)).WholeWords (EltTy.packing .f32)

class K20.Facts₀ : Prop where
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S2000x64.size a ≤ S50000x64.size a
  hwx20_0 : ∀ i : grid20.Coords, EltTy.bits .f32 = 32 ∨ (Rect.block (s := S50000x64) S2000x64.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S1x64.size a ≤ S1x64.size a
  hwx20_1 : ∀ i : grid20.Coords, EltTy.bits .f32 = 32 ∨ (Rect.block (s := S1x64) S1x64.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x64.size a ≤ S1x64.size a
  hwx20_2 : ∀ i : grid20.Coords, EltTy.bits .f32 = 32 ∨ (Rect.block (s := S1x64) S1x64.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S1x64.size a ≤ S1x64.size a
  hwx20_3 : ∀ i : grid20.Coords, EltTy.bits .f32 = 32 ∨ (Rect.block (s := S1x64) S1x64.size (cc20_transform_3 i) (hinb20_3 i)).WholeWords (EltTy.packing .f32)
  hstage20_4 : ∀ j, (stage20_4 j).IsWhole
  nbuf20_4 : grid20.bufCount reads20_4 true = 1
  hreads20_4 : ∀ i i' : grid20.Coords, (∀ a, reads20_4 a = true → i a = i' a) → cc20_transform_4 i = cc20_transform_4 i'
  hinb20_4 : ∀ (i : grid20.Coords) a, (cc20_transform_4 i a + 1) * S1x64.size a ≤ S1x64.size a
  hwx20_4 : ∀ i : grid20.Coords, EltTy.bits .f32 = 32 ∨ (Rect.block (s := S1x64) S1x64.size (cc20_transform_4 i) (hinb20_4 i)).WholeWords (EltTy.packing .f32)
  hstage20_5 : ∀ j, (stage20_5 j).IsWhole
  nbuf20_5 : grid20.bufCount reads20_5 false = 2
  hreads20_5 : ∀ i i' : grid20.Coords, (∀ a, reads20_5 a = true → i a = i' a) → cc20_transform_5 i = cc20_transform_5 i'
  hinb20_5 : ∀ (i : grid20.Coords) a, (cc20_transform_5 i a + 1) * S2000x64.size a ≤ S50000x64.size a
  hwx20_5 : ∀ i : grid20.Coords, EltTy.bits .f32 = 32 ∨ (Rect.block (s := S50000x64) S2000x64.size (cc20_transform_5 i) (hinb20_5 i)).WholeWords (EltTy.packing .f32)

class K21.Facts₀ : Prop where
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S2000x64.size a ≤ S50000x64.size a
  hwx21_0 : ∀ i : grid21.Coords, EltTy.bits .f32 = 32 ∨ (Rect.block (s := S50000x64) S2000x64.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S64x64.size a ≤ S64x64.size a
  hwx21_1 : ∀ i : grid21.Coords, EltTy.bits .f32 = 32 ∨ (Rect.block (s := S64x64) S64x64.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S2000x64.size a ≤ S50000x64.size a
  hwx21_2 : ∀ i : grid21.Coords, EltTy.bits .f32 = 32 ∨ (Rect.block (s := S50000x64) S2000x64.size (cc21_transform_2 i) (hinb21_2 i)).WholeWords (EltTy.packing .f32)

class K22.Facts₀ : Prop where
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S2000x64.size a ≤ S50000x64.size a
  hwx22_0 : ∀ i : grid22.Coords, EltTy.bits .f32 = 32 ∨ (Rect.block (s := S50000x64) S2000x64.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S1x64.size a ≤ S1x64.size a
  hwx22_1 : ∀ i : grid22.Coords, EltTy.bits .f32 = 32 ∨ (Rect.block (s := S1x64) S1x64.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S2000x64.size a ≤ S50000x64.size a
  hwx22_2 : ∀ i : grid22.Coords, EltTy.bits .f32 = 32 ∨ (Rect.block (s := S50000x64) S2000x64.size (cc22_transform_2 i) (hinb22_2 i)).WholeWords (EltTy.packing .f32)
  hstage22_3 : ∀ j, (stage22_3 j).IsWhole
  nbuf22_3 : grid22.bufCount reads22_3 false = 2
  hreads22_3 : ∀ i i' : grid22.Coords, (∀ a, reads22_3 a = true → i a = i' a) → cc22_transform_3 i = cc22_transform_3 i'
  hinb22_3 : ∀ (i : grid22.Coords) a, (cc22_transform_3 i a + 1) * S2000x64.size a ≤ S50000x64.size a
  hwx22_3 : ∀ i : grid22.Coords, EltTy.bits .f32 = 32 ∨ (Rect.block (s := S50000x64) S2000x64.size (cc22_transform_3 i) (hinb22_3 i)).WholeWords (EltTy.packing .f32)
  hstage22_4 : ∀ j, (stage22_4 j).IsWhole
  nbuf22_4 : grid22.bufCount reads22_4 false = 2
  hreads22_4 : ∀ i i' : grid22.Coords, (∀ a, reads22_4 a = true → i a = i' a) → cc22_transform_4 i = cc22_transform_4 i'
  hinb22_4 : ∀ (i : grid22.Coords) a, (cc22_transform_4 i a + 1) * S2000x64.size a ≤ S50000x64.size a
  hwx22_4 : ∀ i : grid22.Coords, EltTy.bits .f32 = 32 ∨ (Rect.block (s := S50000x64) S2000x64.size (cc22_transform_4 i) (hinb22_4 i)).WholeWords (EltTy.packing .f32)
  hstage22_5 : ∀ j, (stage22_5 j).IsWhole
  nbuf22_5 : grid22.bufCount reads22_5 true = 1
  hreads22_5 : ∀ i i' : grid22.Coords, (∀ a, reads22_5 a = true → i a = i' a) → cc22_transform_5 i = cc22_transform_5 i'
  hinb22_5 : ∀ (i : grid22.Coords) a, (cc22_transform_5 i a + 1) * S1x64.size a ≤ S1x64.size a
  hwx22_5 : ∀ i : grid22.Coords, EltTy.bits .f32 = 32 ∨ (Rect.block (s := S1x64) S1x64.size (cc22_transform_5 i) (hinb22_5 i)).WholeWords (EltTy.packing .f32)

class K23.Facts₀ : Prop where
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S2000x64.size a ≤ S50000x64.size a
  hwx23_0 : ∀ i : grid23.Coords, EltTy.bits .f32 = 32 ∨ (Rect.block (s := S50000x64) S2000x64.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S1x64.size a ≤ S1x64.size a
  hwx23_1 : ∀ i : grid23.Coords, EltTy.bits .f32 = 32 ∨ (Rect.block (s := S1x64) S1x64.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S1x64.size a ≤ S1x64.size a
  hwx23_2 : ∀ i : grid23.Coords, EltTy.bits .f32 = 32 ∨ (Rect.block (s := S1x64) S1x64.size (cc23_transform_2 i) (hinb23_2 i)).WholeWords (EltTy.packing .f32)

class K24.Facts₀ : Prop where
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S2000x64.size a ≤ S50000x64.size a
  hwx24_0 : ∀ i : grid24.Coords, EltTy.bits .f32 = 32 ∨ (Rect.block (s := S50000x64) S2000x64.size (cc24_transform_0 i) (hinb24_0 i)).WholeWords (EltTy.packing .f32)
  hstage24_1 : ∀ j, (stage24_1 j).IsWhole
  nbuf24_1 : grid24.bufCount reads24_1 true = 1
  hreads24_1 : ∀ i i' : grid24.Coords, (∀ a, reads24_1 a = true → i a = i' a) → cc24_transform_1 i = cc24_transform_1 i'
  hinb24_1 : ∀ (i : grid24.Coords) a, (cc24_transform_1 i a + 1) * S1x64.size a ≤ S1x64.size a
  hwx24_1 : ∀ i : grid24.Coords, EltTy.bits .f32 = 32 ∨ (Rect.block (s := S1x64) S1x64.size (cc24_transform_1 i) (hinb24_1 i)).WholeWords (EltTy.packing .f32)
  hstage24_2 : ∀ j, (stage24_2 j).IsWhole
  nbuf24_2 : grid24.bufCount reads24_2 true = 1
  hreads24_2 : ∀ i i' : grid24.Coords, (∀ a, reads24_2 a = true → i a = i' a) → cc24_transform_2 i = cc24_transform_2 i'
  hinb24_2 : ∀ (i : grid24.Coords) a, (cc24_transform_2 i a + 1) * S1x64.size a ≤ S1x64.size a
  hwx24_2 : ∀ i : grid24.Coords, EltTy.bits .f32 = 32 ∨ (Rect.block (s := S1x64) S1x64.size (cc24_transform_2 i) (hinb24_2 i)).WholeWords (EltTy.packing .f32)
  hstage24_3 : ∀ j, (stage24_3 j).IsWhole
  nbuf24_3 : grid24.bufCount reads24_3 true = 1
  hreads24_3 : ∀ i i' : grid24.Coords, (∀ a, reads24_3 a = true → i a = i' a) → cc24_transform_3 i = cc24_transform_3 i'
  hinb24_3 : ∀ (i : grid24.Coords) a, (cc24_transform_3 i a + 1) * S1x64.size a ≤ S1x64.size a
  hwx24_3 : ∀ i : grid24.Coords, EltTy.bits .f32 = 32 ∨ (Rect.block (s := S1x64) S1x64.size (cc24_transform_3 i) (hinb24_3 i)).WholeWords (EltTy.packing .f32)
  hstage24_4 : ∀ j, (stage24_4 j).IsWhole
  nbuf24_4 : grid24.bufCount reads24_4 true = 1
  hreads24_4 : ∀ i i' : grid24.Coords, (∀ a, reads24_4 a = true → i a = i' a) → cc24_transform_4 i = cc24_transform_4 i'
  hinb24_4 : ∀ (i : grid24.Coords) a, (cc24_transform_4 i a + 1) * S1x64.size a ≤ S1x64.size a
  hwx24_4 : ∀ i : grid24.Coords, EltTy.bits .f32 = 32 ∨ (Rect.block (s := S1x64) S1x64.size (cc24_transform_4 i) (hinb24_4 i)).WholeWords (EltTy.packing .f32)
  hstage24_5 : ∀ j, (stage24_5 j).IsWhole
  nbuf24_5 : grid24.bufCount reads24_5 false = 2
  hreads24_5 : ∀ i i' : grid24.Coords, (∀ a, reads24_5 a = true → i a = i' a) → cc24_transform_5 i = cc24_transform_5 i'
  hinb24_5 : ∀ (i : grid24.Coords) a, (cc24_transform_5 i a + 1) * S2000x64.size a ≤ S50000x64.size a
  hwx24_5 : ∀ i : grid24.Coords, EltTy.bits .f32 = 32 ∨ (Rect.block (s := S50000x64) S2000x64.size (cc24_transform_5 i) (hinb24_5 i)).WholeWords (EltTy.packing .f32)

class K25.Facts₀ : Prop where
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S2000x64.size a ≤ S50000x64.size a
  hwx25_0 : ∀ i : grid25.Coords, EltTy.bits .f32 = 32 ∨ (Rect.block (s := S50000x64) S2000x64.size (cc25_transform_0 i) (hinb25_0 i)).WholeWords (EltTy.packing .f32)
  hstage25_1 : ∀ j, (stage25_1 j).IsWhole
  nbuf25_1 : grid25.bufCount reads25_1 true = 1
  hreads25_1 : ∀ i i' : grid25.Coords, (∀ a, reads25_1 a = true → i a = i' a) → cc25_transform_1 i = cc25_transform_1 i'
  hinb25_1 : ∀ (i : grid25.Coords) a, (cc25_transform_1 i a + 1) * S64x64.size a ≤ S64x64.size a
  hwx25_1 : ∀ i : grid25.Coords, EltTy.bits .f32 = 32 ∨ (Rect.block (s := S64x64) S64x64.size (cc25_transform_1 i) (hinb25_1 i)).WholeWords (EltTy.packing .f32)
  hstage25_2 : ∀ j, (stage25_2 j).IsWhole
  nbuf25_2 : grid25.bufCount reads25_2 false = 2
  hreads25_2 : ∀ i i' : grid25.Coords, (∀ a, reads25_2 a = true → i a = i' a) → cc25_transform_2 i = cc25_transform_2 i'
  hinb25_2 : ∀ (i : grid25.Coords) a, (cc25_transform_2 i a + 1) * S2000x64.size a ≤ S50000x64.size a
  hwx25_2 : ∀ i : grid25.Coords, EltTy.bits .f32 = 32 ∨ (Rect.block (s := S50000x64) S2000x64.size (cc25_transform_2 i) (hinb25_2 i)).WholeWords (EltTy.packing .f32)

class K26.Facts₀ : Prop where
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S2000x64.size a ≤ S50000x64.size a
  hwx26_0 : ∀ i : grid26.Coords, EltTy.bits .f32 = 32 ∨ (Rect.block (s := S50000x64) S2000x64.size (cc26_transform_0 i) (hinb26_0 i)).WholeWords (EltTy.packing .f32)
  hstage26_1 : ∀ j, (stage26_1 j).IsWhole
  nbuf26_1 : grid26.bufCount reads26_1 true = 1
  hreads26_1 : ∀ i i' : grid26.Coords, (∀ a, reads26_1 a = true → i a = i' a) → cc26_transform_1 i = cc26_transform_1 i'
  hinb26_1 : ∀ (i : grid26.Coords) a, (cc26_transform_1 i a + 1) * S1x64.size a ≤ S1x64.size a
  hwx26_1 : ∀ i : grid26.Coords, EltTy.bits .f32 = 32 ∨ (Rect.block (s := S1x64) S1x64.size (cc26_transform_1 i) (hinb26_1 i)).WholeWords (EltTy.packing .f32)
  hstage26_2 : ∀ j, (stage26_2 j).IsWhole
  nbuf26_2 : grid26.bufCount reads26_2 false = 2
  hreads26_2 : ∀ i i' : grid26.Coords, (∀ a, reads26_2 a = true → i a = i' a) → cc26_transform_2 i = cc26_transform_2 i'
  hinb26_2 : ∀ (i : grid26.Coords) a, (cc26_transform_2 i a + 1) * S2000x64.size a ≤ S50000x64.size a
  hwx26_2 : ∀ i : grid26.Coords, EltTy.bits .f32 = 32 ∨ (Rect.block (s := S50000x64) S2000x64.size (cc26_transform_2 i) (hinb26_2 i)).WholeWords (EltTy.packing .f32)
  hstage26_3 : ∀ j, (stage26_3 j).IsWhole
  nbuf26_3 : grid26.bufCount reads26_3 false = 2
  hreads26_3 : ∀ i i' : grid26.Coords, (∀ a, reads26_3 a = true → i a = i' a) → cc26_transform_3 i = cc26_transform_3 i'
  hinb26_3 : ∀ (i : grid26.Coords) a, (cc26_transform_3 i a + 1) * S2000x64.size a ≤ S50000x64.size a
  hwx26_3 : ∀ i : grid26.Coords, EltTy.bits .f32 = 32 ∨ (Rect.block (s := S50000x64) S2000x64.size (cc26_transform_3 i) (hinb26_3 i)).WholeWords (EltTy.packing .f32)
  hstage26_4 : ∀ j, (stage26_4 j).IsWhole
  nbuf26_4 : grid26.bufCount reads26_4 false = 2
  hreads26_4 : ∀ i i' : grid26.Coords, (∀ a, reads26_4 a = true → i a = i' a) → cc26_transform_4 i = cc26_transform_4 i'
  hinb26_4 : ∀ (i : grid26.Coords) a, (cc26_transform_4 i a + 1) * S2000x64.size a ≤ S50000x64.size a
  hwx26_4 : ∀ i : grid26.Coords, EltTy.bits .f32 = 32 ∨ (Rect.block (s := S50000x64) S2000x64.size (cc26_transform_4 i) (hinb26_4 i)).WholeWords (EltTy.packing .f32)
  hstage26_5 : ∀ j, (stage26_5 j).IsWhole
  nbuf26_5 : grid26.bufCount reads26_5 true = 1
  hreads26_5 : ∀ i i' : grid26.Coords, (∀ a, reads26_5 a = true → i a = i' a) → cc26_transform_5 i = cc26_transform_5 i'
  hinb26_5 : ∀ (i : grid26.Coords) a, (cc26_transform_5 i a + 1) * S1x64.size a ≤ S1x64.size a
  hwx26_5 : ∀ i : grid26.Coords, EltTy.bits .f32 = 32 ∨ (Rect.block (s := S1x64) S1x64.size (cc26_transform_5 i) (hinb26_5 i)).WholeWords (EltTy.packing .f32)

class K27.Facts₀ : Prop where
  hrank27 : 0 < grid27.rank
  hstage27_0 : ∀ j, (stage27_0 j).IsWhole
  nbuf27_0 : grid27.bufCount reads27_0 false = 2
  hreads27_0 : ∀ i i' : grid27.Coords, (∀ a, reads27_0 a = true → i a = i' a) → cc27_transform_0 i = cc27_transform_0 i'
  hinb27_0 : ∀ (i : grid27.Coords) a, (cc27_transform_0 i a + 1) * S2000x64.size a ≤ S50000x64.size a
  hwx27_0 : ∀ i : grid27.Coords, EltTy.bits .f32 = 32 ∨ (Rect.block (s := S50000x64) S2000x64.size (cc27_transform_0 i) (hinb27_0 i)).WholeWords (EltTy.packing .f32)
  hstage27_1 : ∀ j, (stage27_1 j).IsWhole
  nbuf27_1 : grid27.bufCount reads27_1 true = 1
  hreads27_1 : ∀ i i' : grid27.Coords, (∀ a, reads27_1 a = true → i a = i' a) → cc27_transform_1 i = cc27_transform_1 i'
  hinb27_1 : ∀ (i : grid27.Coords) a, (cc27_transform_1 i a + 1) * S1x64.size a ≤ S1x64.size a
  hwx27_1 : ∀ i : grid27.Coords, EltTy.bits .f32 = 32 ∨ (Rect.block (s := S1x64) S1x64.size (cc27_transform_1 i) (hinb27_1 i)).WholeWords (EltTy.packing .f32)
  hstage27_2 : ∀ j, (stage27_2 j).IsWhole
  nbuf27_2 : grid27.bufCount reads27_2 true = 1
  hreads27_2 : ∀ i i' : grid27.Coords, (∀ a, reads27_2 a = true → i a = i' a) → cc27_transform_2 i = cc27_transform_2 i'
  hinb27_2 : ∀ (i : grid27.Coords) a, (cc27_transform_2 i a + 1) * S1x64.size a ≤ S1x64.size a
  hwx27_2 : ∀ i : grid27.Coords, EltTy.bits .f32 = 32 ∨ (Rect.block (s := S1x64) S1x64.size (cc27_transform_2 i) (hinb27_2 i)).WholeWords (EltTy.packing .f32)

class K28.Facts₀ : Prop where
  hrank28 : 0 < grid28.rank
  hstage28_0 : ∀ j, (stage28_0 j).IsWhole
  nbuf28_0 : grid28.bufCount reads28_0 false = 2
  hreads28_0 : ∀ i i' : grid28.Coords, (∀ a, reads28_0 a = true → i a = i' a) → cc28_transform_0 i = cc28_transform_0 i'
  hinb28_0 : ∀ (i : grid28.Coords) a, (cc28_transform_0 i a + 1) * S2000x64.size a ≤ S50000x64.size a
  hwx28_0 : ∀ i : grid28.Coords, EltTy.bits .f32 = 32 ∨ (Rect.block (s := S50000x64) S2000x64.size (cc28_transform_0 i) (hinb28_0 i)).WholeWords (EltTy.packing .f32)
  hstage28_1 : ∀ j, (stage28_1 j).IsWhole
  nbuf28_1 : grid28.bufCount reads28_1 true = 1
  hreads28_1 : ∀ i i' : grid28.Coords, (∀ a, reads28_1 a = true → i a = i' a) → cc28_transform_1 i = cc28_transform_1 i'
  hinb28_1 : ∀ (i : grid28.Coords) a, (cc28_transform_1 i a + 1) * S1x64.size a ≤ S1x64.size a
  hwx28_1 : ∀ i : grid28.Coords, EltTy.bits .f32 = 32 ∨ (Rect.block (s := S1x64) S1x64.size (cc28_transform_1 i) (hinb28_1 i)).WholeWords (EltTy.packing .f32)
  hstage28_2 : ∀ j, (stage28_2 j).IsWhole
  nbuf28_2 : grid28.bufCount reads28_2 true = 1
  hreads28_2 : ∀ i i' : grid28.Coords, (∀ a, reads28_2 a = true → i a = i' a) → cc28_transform_2 i = cc28_transform_2 i'
  hinb28_2 : ∀ (i : grid28.Coords) a, (cc28_transform_2 i a + 1) * S1x64.size a ≤ S1x64.size a
  hwx28_2 : ∀ i : grid28.Coords, EltTy.bits .f32 = 32 ∨ (Rect.block (s := S1x64) S1x64.size (cc28_transform_2 i) (hinb28_2 i)).WholeWords (EltTy.packing .f32)
  hstage28_3 : ∀ j, (stage28_3 j).IsWhole
  nbuf28_3 : grid28.bufCount reads28_3 true = 1
  hreads28_3 : ∀ i i' : grid28.Coords, (∀ a, reads28_3 a = true → i a = i' a) → cc28_transform_3 i = cc28_transform_3 i'
  hinb28_3 : ∀ (i : grid28.Coords) a, (cc28_transform_3 i a + 1) * S1x64.size a ≤ S1x64.size a
  hwx28_3 : ∀ i : grid28.Coords, EltTy.bits .f32 = 32 ∨ (Rect.block (s := S1x64) S1x64.size (cc28_transform_3 i) (hinb28_3 i)).WholeWords (EltTy.packing .f32)
  hstage28_4 : ∀ j, (stage28_4 j).IsWhole
  nbuf28_4 : grid28.bufCount reads28_4 true = 1
  hreads28_4 : ∀ i i' : grid28.Coords, (∀ a, reads28_4 a = true → i a = i' a) → cc28_transform_4 i = cc28_transform_4 i'
  hinb28_4 : ∀ (i : grid28.Coords) a, (cc28_transform_4 i a + 1) * S1x64.size a ≤ S1x64.size a
  hwx28_4 : ∀ i : grid28.Coords, EltTy.bits .f32 = 32 ∨ (Rect.block (s := S1x64) S1x64.size (cc28_transform_4 i) (hinb28_4 i)).WholeWords (EltTy.packing .f32)
  hstage28_5 : ∀ j, (stage28_5 j).IsWhole
  nbuf28_5 : grid28.bufCount reads28_5 false = 2
  hreads28_5 : ∀ i i' : grid28.Coords, (∀ a, reads28_5 a = true → i a = i' a) → cc28_transform_5 i = cc28_transform_5 i'
  hinb28_5 : ∀ (i : grid28.Coords) a, (cc28_transform_5 i a + 1) * S2000x64.size a ≤ S50000x64.size a
  hwx28_5 : ∀ i : grid28.Coords, EltTy.bits .f32 = 32 ∨ (Rect.block (s := S50000x64) S2000x64.size (cc28_transform_5 i) (hinb28_5 i)).WholeWords (EltTy.packing .f32)

class K29.Facts₀ : Prop where
  hrank29 : 0 < grid29.rank
  hstage29_0 : ∀ j, (stage29_0 j).IsWhole
  nbuf29_0 : grid29.bufCount reads29_0 false = 2
  hreads29_0 : ∀ i i' : grid29.Coords, (∀ a, reads29_0 a = true → i a = i' a) → cc29_transform_0 i = cc29_transform_0 i'
  hinb29_0 : ∀ (i : grid29.Coords) a, (cc29_transform_0 i a + 1) * S2000x64.size a ≤ S50000x64.size a
  hwx29_0 : ∀ i : grid29.Coords, EltTy.bits .f32 = 32 ∨ (Rect.block (s := S50000x64) S2000x64.size (cc29_transform_0 i) (hinb29_0 i)).WholeWords (EltTy.packing .f32)
  hstage29_1 : ∀ j, (stage29_1 j).IsWhole
  nbuf29_1 : grid29.bufCount reads29_1 true = 1
  hreads29_1 : ∀ i i' : grid29.Coords, (∀ a, reads29_1 a = true → i a = i' a) → cc29_transform_1 i = cc29_transform_1 i'
  hinb29_1 : ∀ (i : grid29.Coords) a, (cc29_transform_1 i a + 1) * S64x64.size a ≤ S64x64.size a
  hwx29_1 : ∀ i : grid29.Coords, EltTy.bits .f32 = 32 ∨ (Rect.block (s := S64x64) S64x64.size (cc29_transform_1 i) (hinb29_1 i)).WholeWords (EltTy.packing .f32)
  hstage29_2 : ∀ j, (stage29_2 j).IsWhole
  nbuf29_2 : grid29.bufCount reads29_2 false = 2
  hreads29_2 : ∀ i i' : grid29.Coords, (∀ a, reads29_2 a = true → i a = i' a) → cc29_transform_2 i = cc29_transform_2 i'
  hinb29_2 : ∀ (i : grid29.Coords) a, (cc29_transform_2 i a + 1) * S2000x64.size a ≤ S50000x64.size a
  hwx29_2 : ∀ i : grid29.Coords, EltTy.bits .f32 = 32 ∨ (Rect.block (s := S50000x64) S2000x64.size (cc29_transform_2 i) (hinb29_2 i)).WholeWords (EltTy.packing .f32)

class K30.Facts₀ : Prop where
  hrank30 : 0 < grid30.rank
  hstage30_0 : ∀ j, (stage30_0 j).IsWhole
  nbuf30_0 : grid30.bufCount reads30_0 false = 2
  hreads30_0 : ∀ i i' : grid30.Coords, (∀ a, reads30_0 a = true → i a = i' a) → cc30_transform_0 i = cc30_transform_0 i'
  hinb30_0 : ∀ (i : grid30.Coords) a, (cc30_transform_0 i a + 1) * S2000x64.size a ≤ S50000x64.size a
  hwx30_0 : ∀ i : grid30.Coords, EltTy.bits .f32 = 32 ∨ (Rect.block (s := S50000x64) S2000x64.size (cc30_transform_0 i) (hinb30_0 i)).WholeWords (EltTy.packing .f32)
  hstage30_1 : ∀ j, (stage30_1 j).IsWhole
  nbuf30_1 : grid30.bufCount reads30_1 true = 1
  hreads30_1 : ∀ i i' : grid30.Coords, (∀ a, reads30_1 a = true → i a = i' a) → cc30_transform_1 i = cc30_transform_1 i'
  hinb30_1 : ∀ (i : grid30.Coords) a, (cc30_transform_1 i a + 1) * S1x64.size a ≤ S1x64.size a
  hwx30_1 : ∀ i : grid30.Coords, EltTy.bits .f32 = 32 ∨ (Rect.block (s := S1x64) S1x64.size (cc30_transform_1 i) (hinb30_1 i)).WholeWords (EltTy.packing .f32)
  hstage30_2 : ∀ j, (stage30_2 j).IsWhole
  nbuf30_2 : grid30.bufCount reads30_2 false = 2
  hreads30_2 : ∀ i i' : grid30.Coords, (∀ a, reads30_2 a = true → i a = i' a) → cc30_transform_2 i = cc30_transform_2 i'
  hinb30_2 : ∀ (i : grid30.Coords) a, (cc30_transform_2 i a + 1) * S2000x64.size a ≤ S50000x64.size a
  hwx30_2 : ∀ i : grid30.Coords, EltTy.bits .f32 = 32 ∨ (Rect.block (s := S50000x64) S2000x64.size (cc30_transform_2 i) (hinb30_2 i)).WholeWords (EltTy.packing .f32)
  hstage30_3 : ∀ j, (stage30_3 j).IsWhole
  nbuf30_3 : grid30.bufCount reads30_3 false = 2
  hreads30_3 : ∀ i i' : grid30.Coords, (∀ a, reads30_3 a = true → i a = i' a) → cc30_transform_3 i = cc30_transform_3 i'
  hinb30_3 : ∀ (i : grid30.Coords) a, (cc30_transform_3 i a + 1) * S2000x64.size a ≤ S50000x64.size a
  hwx30_3 : ∀ i : grid30.Coords, EltTy.bits .f32 = 32 ∨ (Rect.block (s := S50000x64) S2000x64.size (cc30_transform_3 i) (hinb30_3 i)).WholeWords (EltTy.packing .f32)
  hstage30_4 : ∀ j, (stage30_4 j).IsWhole
  nbuf30_4 : grid30.bufCount reads30_4 false = 2
  hreads30_4 : ∀ i i' : grid30.Coords, (∀ a, reads30_4 a = true → i a = i' a) → cc30_transform_4 i = cc30_transform_4 i'
  hinb30_4 : ∀ (i : grid30.Coords) a, (cc30_transform_4 i a + 1) * S2000x64.size a ≤ S50000x64.size a
  hwx30_4 : ∀ i : grid30.Coords, EltTy.bits .f32 = 32 ∨ (Rect.block (s := S50000x64) S2000x64.size (cc30_transform_4 i) (hinb30_4 i)).WholeWords (EltTy.packing .f32)
  hstage30_5 : ∀ j, (stage30_5 j).IsWhole
  nbuf30_5 : grid30.bufCount reads30_5 true = 1
  hreads30_5 : ∀ i i' : grid30.Coords, (∀ a, reads30_5 a = true → i a = i' a) → cc30_transform_5 i = cc30_transform_5 i'
  hinb30_5 : ∀ (i : grid30.Coords) a, (cc30_transform_5 i a + 1) * S1x64.size a ≤ S1x64.size a
  hwx30_5 : ∀ i : grid30.Coords, EltTy.bits .f32 = 32 ∨ (Rect.block (s := S1x64) S1x64.size (cc30_transform_5 i) (hinb30_5 i)).WholeWords (EltTy.packing .f32)

class K31.Facts₀ : Prop where
  hrank31 : 0 < grid31.rank
  hstage31_0 : ∀ j, (stage31_0 j).IsWhole
  nbuf31_0 : grid31.bufCount reads31_0 false = 2
  hreads31_0 : ∀ i i' : grid31.Coords, (∀ a, reads31_0 a = true → i a = i' a) → cc31_transform_0 i = cc31_transform_0 i'
  hinb31_0 : ∀ (i : grid31.Coords) a, (cc31_transform_0 i a + 1) * S2000x64.size a ≤ S50000x64.size a
  hwx31_0 : ∀ i : grid31.Coords, EltTy.bits .f32 = 32 ∨ (Rect.block (s := S50000x64) S2000x64.size (cc31_transform_0 i) (hinb31_0 i)).WholeWords (EltTy.packing .f32)
  hstage31_1 : ∀ j, (stage31_1 j).IsWhole
  nbuf31_1 : grid31.bufCount reads31_1 true = 1
  hreads31_1 : ∀ i i' : grid31.Coords, (∀ a, reads31_1 a = true → i a = i' a) → cc31_transform_1 i = cc31_transform_1 i'
  hinb31_1 : ∀ (i : grid31.Coords) a, (cc31_transform_1 i a + 1) * S1x64.size a ≤ S1x64.size a
  hwx31_1 : ∀ i : grid31.Coords, EltTy.bits .f32 = 32 ∨ (Rect.block (s := S1x64) S1x64.size (cc31_transform_1 i) (hinb31_1 i)).WholeWords (EltTy.packing .f32)
  hstage31_2 : ∀ j, (stage31_2 j).IsWhole
  nbuf31_2 : grid31.bufCount reads31_2 true = 1
  hreads31_2 : ∀ i i' : grid31.Coords, (∀ a, reads31_2 a = true → i a = i' a) → cc31_transform_2 i = cc31_transform_2 i'
  hinb31_2 : ∀ (i : grid31.Coords) a, (cc31_transform_2 i a + 1) * S1x64.size a ≤ S1x64.size a
  hwx31_2 : ∀ i : grid31.Coords, EltTy.bits .f32 = 32 ∨ (Rect.block (s := S1x64) S1x64.size (cc31_transform_2 i) (hinb31_2 i)).WholeWords (EltTy.packing .f32)

class K32.Facts₀ : Prop where
  hrank32 : 0 < grid32.rank
  hstage32_0 : ∀ j, (stage32_0 j).IsWhole
  nbuf32_0 : grid32.bufCount reads32_0 false = 2
  hreads32_0 : ∀ i i' : grid32.Coords, (∀ a, reads32_0 a = true → i a = i' a) → cc32_transform_0 i = cc32_transform_0 i'
  hinb32_0 : ∀ (i : grid32.Coords) a, (cc32_transform_0 i a + 1) * S2000x64.size a ≤ S50000x64.size a
  hwx32_0 : ∀ i : grid32.Coords, EltTy.bits .f32 = 32 ∨ (Rect.block (s := S50000x64) S2000x64.size (cc32_transform_0 i) (hinb32_0 i)).WholeWords (EltTy.packing .f32)
  hstage32_1 : ∀ j, (stage32_1 j).IsWhole
  nbuf32_1 : grid32.bufCount reads32_1 true = 1
  hreads32_1 : ∀ i i' : grid32.Coords, (∀ a, reads32_1 a = true → i a = i' a) → cc32_transform_1 i = cc32_transform_1 i'
  hinb32_1 : ∀ (i : grid32.Coords) a, (cc32_transform_1 i a + 1) * S1x64.size a ≤ S1x64.size a
  hwx32_1 : ∀ i : grid32.Coords, EltTy.bits .f32 = 32 ∨ (Rect.block (s := S1x64) S1x64.size (cc32_transform_1 i) (hinb32_1 i)).WholeWords (EltTy.packing .f32)
  hstage32_2 : ∀ j, (stage32_2 j).IsWhole
  nbuf32_2 : grid32.bufCount reads32_2 true = 1
  hreads32_2 : ∀ i i' : grid32.Coords, (∀ a, reads32_2 a = true → i a = i' a) → cc32_transform_2 i = cc32_transform_2 i'
  hinb32_2 : ∀ (i : grid32.Coords) a, (cc32_transform_2 i a + 1) * S1x64.size a ≤ S1x64.size a
  hwx32_2 : ∀ i : grid32.Coords, EltTy.bits .f32 = 32 ∨ (Rect.block (s := S1x64) S1x64.size (cc32_transform_2 i) (hinb32_2 i)).WholeWords (EltTy.packing .f32)
  hstage32_3 : ∀ j, (stage32_3 j).IsWhole
  nbuf32_3 : grid32.bufCount reads32_3 true = 1
  hreads32_3 : ∀ i i' : grid32.Coords, (∀ a, reads32_3 a = true → i a = i' a) → cc32_transform_3 i = cc32_transform_3 i'
  hinb32_3 : ∀ (i : grid32.Coords) a, (cc32_transform_3 i a + 1) * S1x64.size a ≤ S1x64.size a
  hwx32_3 : ∀ i : grid32.Coords, EltTy.bits .f32 = 32 ∨ (Rect.block (s := S1x64) S1x64.size (cc32_transform_3 i) (hinb32_3 i)).WholeWords (EltTy.packing .f32)
  hstage32_4 : ∀ j, (stage32_4 j).IsWhole
  nbuf32_4 : grid32.bufCount reads32_4 true = 1
  hreads32_4 : ∀ i i' : grid32.Coords, (∀ a, reads32_4 a = true → i a = i' a) → cc32_transform_4 i = cc32_transform_4 i'
  hinb32_4 : ∀ (i : grid32.Coords) a, (cc32_transform_4 i a + 1) * S1x64.size a ≤ S1x64.size a
  hwx32_4 : ∀ i : grid32.Coords, EltTy.bits .f32 = 32 ∨ (Rect.block (s := S1x64) S1x64.size (cc32_transform_4 i) (hinb32_4 i)).WholeWords (EltTy.packing .f32)
  hstage32_5 : ∀ j, (stage32_5 j).IsWhole
  nbuf32_5 : grid32.bufCount reads32_5 false = 2
  hreads32_5 : ∀ i i' : grid32.Coords, (∀ a, reads32_5 a = true → i a = i' a) → cc32_transform_5 i = cc32_transform_5 i'
  hinb32_5 : ∀ (i : grid32.Coords) a, (cc32_transform_5 i a + 1) * S2000x64.size a ≤ S50000x64.size a
  hwx32_5 : ∀ i : grid32.Coords, EltTy.bits .f32 = 32 ∨ (Rect.block (s := S50000x64) S2000x64.size (cc32_transform_5 i) (hinb32_5 i)).WholeWords (EltTy.packing .f32)

class K33.Facts₀ : Prop where
  hrank33 : 0 < grid33.rank
  hstage33_0 : ∀ j, (stage33_0 j).IsWhole
  nbuf33_0 : grid33.bufCount reads33_0 false = 2
  hreads33_0 : ∀ i i' : grid33.Coords, (∀ a, reads33_0 a = true → i a = i' a) → cc33_transform_0 i = cc33_transform_0 i'
  hinb33_0 : ∀ (i : grid33.Coords) a, (cc33_transform_0 i a + 1) * S2000x64.size a ≤ S50000x64.size a
  hwx33_0 : ∀ i : grid33.Coords, EltTy.bits .f32 = 32 ∨ (Rect.block (s := S50000x64) S2000x64.size (cc33_transform_0 i) (hinb33_0 i)).WholeWords (EltTy.packing .f32)
  hstage33_1 : ∀ j, (stage33_1 j).IsWhole
  nbuf33_1 : grid33.bufCount reads33_1 true = 1
  hreads33_1 : ∀ i i' : grid33.Coords, (∀ a, reads33_1 a = true → i a = i' a) → cc33_transform_1 i = cc33_transform_1 i'
  hinb33_1 : ∀ (i : grid33.Coords) a, (cc33_transform_1 i a + 1) * S64x64.size a ≤ S64x64.size a
  hwx33_1 : ∀ i : grid33.Coords, EltTy.bits .f32 = 32 ∨ (Rect.block (s := S64x64) S64x64.size (cc33_transform_1 i) (hinb33_1 i)).WholeWords (EltTy.packing .f32)
  hstage33_2 : ∀ j, (stage33_2 j).IsWhole
  nbuf33_2 : grid33.bufCount reads33_2 false = 2
  hreads33_2 : ∀ i i' : grid33.Coords, (∀ a, reads33_2 a = true → i a = i' a) → cc33_transform_2 i = cc33_transform_2 i'
  hinb33_2 : ∀ (i : grid33.Coords) a, (cc33_transform_2 i a + 1) * S2000x64.size a ≤ S50000x64.size a
  hwx33_2 : ∀ i : grid33.Coords, EltTy.bits .f32 = 32 ∨ (Rect.block (s := S50000x64) S2000x64.size (cc33_transform_2 i) (hinb33_2 i)).WholeWords (EltTy.packing .f32)

class K34.Facts₀ : Prop where
  hrank34 : 0 < grid34.rank
  hstage34_0 : ∀ j, (stage34_0 j).IsWhole
  nbuf34_0 : grid34.bufCount reads34_0 false = 2
  hreads34_0 : ∀ i i' : grid34.Coords, (∀ a, reads34_0 a = true → i a = i' a) → cc34_transform_0 i = cc34_transform_0 i'
  hinb34_0 : ∀ (i : grid34.Coords) a, (cc34_transform_0 i a + 1) * S2000x64.size a ≤ S50000x64.size a
  hwx34_0 : ∀ i : grid34.Coords, EltTy.bits .f32 = 32 ∨ (Rect.block (s := S50000x64) S2000x64.size (cc34_transform_0 i) (hinb34_0 i)).WholeWords (EltTy.packing .f32)
  hstage34_1 : ∀ j, (stage34_1 j).IsWhole
  nbuf34_1 : grid34.bufCount reads34_1 true = 1
  hreads34_1 : ∀ i i' : grid34.Coords, (∀ a, reads34_1 a = true → i a = i' a) → cc34_transform_1 i = cc34_transform_1 i'
  hinb34_1 : ∀ (i : grid34.Coords) a, (cc34_transform_1 i a + 1) * S1x64.size a ≤ S1x64.size a
  hwx34_1 : ∀ i : grid34.Coords, EltTy.bits .f32 = 32 ∨ (Rect.block (s := S1x64) S1x64.size (cc34_transform_1 i) (hinb34_1 i)).WholeWords (EltTy.packing .f32)
  hstage34_2 : ∀ j, (stage34_2 j).IsWhole
  nbuf34_2 : grid34.bufCount reads34_2 false = 2
  hreads34_2 : ∀ i i' : grid34.Coords, (∀ a, reads34_2 a = true → i a = i' a) → cc34_transform_2 i = cc34_transform_2 i'
  hinb34_2 : ∀ (i : grid34.Coords) a, (cc34_transform_2 i a + 1) * S2000x64.size a ≤ S50000x64.size a
  hwx34_2 : ∀ i : grid34.Coords, EltTy.bits .f32 = 32 ∨ (Rect.block (s := S50000x64) S2000x64.size (cc34_transform_2 i) (hinb34_2 i)).WholeWords (EltTy.packing .f32)
  hstage34_3 : ∀ j, (stage34_3 j).IsWhole
  nbuf34_3 : grid34.bufCount reads34_3 false = 2
  hreads34_3 : ∀ i i' : grid34.Coords, (∀ a, reads34_3 a = true → i a = i' a) → cc34_transform_3 i = cc34_transform_3 i'
  hinb34_3 : ∀ (i : grid34.Coords) a, (cc34_transform_3 i a + 1) * S2000x64.size a ≤ S50000x64.size a
  hwx34_3 : ∀ i : grid34.Coords, EltTy.bits .f32 = 32 ∨ (Rect.block (s := S50000x64) S2000x64.size (cc34_transform_3 i) (hinb34_3 i)).WholeWords (EltTy.packing .f32)
  hstage34_4 : ∀ j, (stage34_4 j).IsWhole
  nbuf34_4 : grid34.bufCount reads34_4 false = 2
  hreads34_4 : ∀ i i' : grid34.Coords, (∀ a, reads34_4 a = true → i a = i' a) → cc34_transform_4 i = cc34_transform_4 i'
  hinb34_4 : ∀ (i : grid34.Coords) a, (cc34_transform_4 i a + 1) * S2000x64.size a ≤ S50000x64.size a
  hwx34_4 : ∀ i : grid34.Coords, EltTy.bits .f32 = 32 ∨ (Rect.block (s := S50000x64) S2000x64.size (cc34_transform_4 i) (hinb34_4 i)).WholeWords (EltTy.packing .f32)
  hstage34_5 : ∀ j, (stage34_5 j).IsWhole
  nbuf34_5 : grid34.bufCount reads34_5 true = 1
  hreads34_5 : ∀ i i' : grid34.Coords, (∀ a, reads34_5 a = true → i a = i' a) → cc34_transform_5 i = cc34_transform_5 i'
  hinb34_5 : ∀ (i : grid34.Coords) a, (cc34_transform_5 i a + 1) * S1x64.size a ≤ S1x64.size a
  hwx34_5 : ∀ i : grid34.Coords, EltTy.bits .f32 = 32 ∨ (Rect.block (s := S1x64) S1x64.size (cc34_transform_5 i) (hinb34_5 i)).WholeWords (EltTy.packing .f32)

class K35.Facts₀ : Prop where
  hrank35 : 0 < grid35.rank
  hstage35_0 : ∀ j, (stage35_0 j).IsWhole
  nbuf35_0 : grid35.bufCount reads35_0 false = 2
  hreads35_0 : ∀ i i' : grid35.Coords, (∀ a, reads35_0 a = true → i a = i' a) → cc35_transform_0 i = cc35_transform_0 i'
  hinb35_0 : ∀ (i : grid35.Coords) a, (cc35_transform_0 i a + 1) * S2000x64.size a ≤ S50000x64.size a
  hwx35_0 : ∀ i : grid35.Coords, EltTy.bits .f32 = 32 ∨ (Rect.block (s := S50000x64) S2000x64.size (cc35_transform_0 i) (hinb35_0 i)).WholeWords (EltTy.packing .f32)
  hstage35_1 : ∀ j, (stage35_1 j).IsWhole
  nbuf35_1 : grid35.bufCount reads35_1 true = 1
  hreads35_1 : ∀ i i' : grid35.Coords, (∀ a, reads35_1 a = true → i a = i' a) → cc35_transform_1 i = cc35_transform_1 i'
  hinb35_1 : ∀ (i : grid35.Coords) a, (cc35_transform_1 i a + 1) * S1x64.size a ≤ S1x64.size a
  hwx35_1 : ∀ i : grid35.Coords, EltTy.bits .f32 = 32 ∨ (Rect.block (s := S1x64) S1x64.size (cc35_transform_1 i) (hinb35_1 i)).WholeWords (EltTy.packing .f32)
  hstage35_2 : ∀ j, (stage35_2 j).IsWhole
  nbuf35_2 : grid35.bufCount reads35_2 true = 1
  hreads35_2 : ∀ i i' : grid35.Coords, (∀ a, reads35_2 a = true → i a = i' a) → cc35_transform_2 i = cc35_transform_2 i'
  hinb35_2 : ∀ (i : grid35.Coords) a, (cc35_transform_2 i a + 1) * S1x64.size a ≤ S1x64.size a
  hwx35_2 : ∀ i : grid35.Coords, EltTy.bits .f32 = 32 ∨ (Rect.block (s := S1x64) S1x64.size (cc35_transform_2 i) (hinb35_2 i)).WholeWords (EltTy.packing .f32)

class K36.Facts₀ : Prop where
  hrank36 : 0 < grid36.rank
  hstage36_0 : ∀ j, (stage36_0 j).IsWhole
  nbuf36_0 : grid36.bufCount reads36_0 false = 2
  hreads36_0 : ∀ i i' : grid36.Coords, (∀ a, reads36_0 a = true → i a = i' a) → cc36_transform_0 i = cc36_transform_0 i'
  hinb36_0 : ∀ (i : grid36.Coords) a, (cc36_transform_0 i a + 1) * S2000x64.size a ≤ S50000x64.size a
  hwx36_0 : ∀ i : grid36.Coords, EltTy.bits .f32 = 32 ∨ (Rect.block (s := S50000x64) S2000x64.size (cc36_transform_0 i) (hinb36_0 i)).WholeWords (EltTy.packing .f32)
  hstage36_1 : ∀ j, (stage36_1 j).IsWhole
  nbuf36_1 : grid36.bufCount reads36_1 true = 1
  hreads36_1 : ∀ i i' : grid36.Coords, (∀ a, reads36_1 a = true → i a = i' a) → cc36_transform_1 i = cc36_transform_1 i'
  hinb36_1 : ∀ (i : grid36.Coords) a, (cc36_transform_1 i a + 1) * S1x64.size a ≤ S1x64.size a
  hwx36_1 : ∀ i : grid36.Coords, EltTy.bits .f32 = 32 ∨ (Rect.block (s := S1x64) S1x64.size (cc36_transform_1 i) (hinb36_1 i)).WholeWords (EltTy.packing .f32)
  hstage36_2 : ∀ j, (stage36_2 j).IsWhole
  nbuf36_2 : grid36.bufCount reads36_2 true = 1
  hreads36_2 : ∀ i i' : grid36.Coords, (∀ a, reads36_2 a = true → i a = i' a) → cc36_transform_2 i = cc36_transform_2 i'
  hinb36_2 : ∀ (i : grid36.Coords) a, (cc36_transform_2 i a + 1) * S1x64.size a ≤ S1x64.size a
  hwx36_2 : ∀ i : grid36.Coords, EltTy.bits .f32 = 32 ∨ (Rect.block (s := S1x64) S1x64.size (cc36_transform_2 i) (hinb36_2 i)).WholeWords (EltTy.packing .f32)
  hstage36_3 : ∀ j, (stage36_3 j).IsWhole
  nbuf36_3 : grid36.bufCount reads36_3 true = 1
  hreads36_3 : ∀ i i' : grid36.Coords, (∀ a, reads36_3 a = true → i a = i' a) → cc36_transform_3 i = cc36_transform_3 i'
  hinb36_3 : ∀ (i : grid36.Coords) a, (cc36_transform_3 i a + 1) * S1x64.size a ≤ S1x64.size a
  hwx36_3 : ∀ i : grid36.Coords, EltTy.bits .f32 = 32 ∨ (Rect.block (s := S1x64) S1x64.size (cc36_transform_3 i) (hinb36_3 i)).WholeWords (EltTy.packing .f32)
  hstage36_4 : ∀ j, (stage36_4 j).IsWhole
  nbuf36_4 : grid36.bufCount reads36_4 true = 1
  hreads36_4 : ∀ i i' : grid36.Coords, (∀ a, reads36_4 a = true → i a = i' a) → cc36_transform_4 i = cc36_transform_4 i'
  hinb36_4 : ∀ (i : grid36.Coords) a, (cc36_transform_4 i a + 1) * S1x64.size a ≤ S1x64.size a
  hwx36_4 : ∀ i : grid36.Coords, EltTy.bits .f32 = 32 ∨ (Rect.block (s := S1x64) S1x64.size (cc36_transform_4 i) (hinb36_4 i)).WholeWords (EltTy.packing .f32)
  hstage36_5 : ∀ j, (stage36_5 j).IsWhole
  nbuf36_5 : grid36.bufCount reads36_5 false = 2
  hreads36_5 : ∀ i i' : grid36.Coords, (∀ a, reads36_5 a = true → i a = i' a) → cc36_transform_5 i = cc36_transform_5 i'
  hinb36_5 : ∀ (i : grid36.Coords) a, (cc36_transform_5 i a + 1) * S2000x64.size a ≤ S50000x64.size a
  hwx36_5 : ∀ i : grid36.Coords, EltTy.bits .f32 = 32 ∨ (Rect.block (s := S50000x64) S2000x64.size (cc36_transform_5 i) (hinb36_5 i)).WholeWords (EltTy.packing .f32)

class K37.Facts₀ : Prop where
  hrank37 : 0 < grid37.rank
  hstage37_0 : ∀ j, (stage37_0 j).IsWhole
  nbuf37_0 : grid37.bufCount reads37_0 false = 2
  hreads37_0 : ∀ i i' : grid37.Coords, (∀ a, reads37_0 a = true → i a = i' a) → cc37_transform_0 i = cc37_transform_0 i'
  hinb37_0 : ∀ (i : grid37.Coords) a, (cc37_transform_0 i a + 1) * S2000x64.size a ≤ S50000x64.size a
  hwx37_0 : ∀ i : grid37.Coords, EltTy.bits .f32 = 32 ∨ (Rect.block (s := S50000x64) S2000x64.size (cc37_transform_0 i) (hinb37_0 i)).WholeWords (EltTy.packing .f32)
  hstage37_1 : ∀ j, (stage37_1 j).IsWhole
  nbuf37_1 : grid37.bufCount reads37_1 true = 1
  hreads37_1 : ∀ i i' : grid37.Coords, (∀ a, reads37_1 a = true → i a = i' a) → cc37_transform_1 i = cc37_transform_1 i'
  hinb37_1 : ∀ (i : grid37.Coords) a, (cc37_transform_1 i a + 1) * S64x64.size a ≤ S64x64.size a
  hwx37_1 : ∀ i : grid37.Coords, EltTy.bits .f32 = 32 ∨ (Rect.block (s := S64x64) S64x64.size (cc37_transform_1 i) (hinb37_1 i)).WholeWords (EltTy.packing .f32)
  hstage37_2 : ∀ j, (stage37_2 j).IsWhole
  nbuf37_2 : grid37.bufCount reads37_2 false = 2
  hreads37_2 : ∀ i i' : grid37.Coords, (∀ a, reads37_2 a = true → i a = i' a) → cc37_transform_2 i = cc37_transform_2 i'
  hinb37_2 : ∀ (i : grid37.Coords) a, (cc37_transform_2 i a + 1) * S2000x64.size a ≤ S50000x64.size a
  hwx37_2 : ∀ i : grid37.Coords, EltTy.bits .f32 = 32 ∨ (Rect.block (s := S50000x64) S2000x64.size (cc37_transform_2 i) (hinb37_2 i)).WholeWords (EltTy.packing .f32)

class K38.Facts₀ : Prop where
  hrank38 : 0 < grid38.rank
  hstage38_0 : ∀ j, (stage38_0 j).IsWhole
  nbuf38_0 : grid38.bufCount reads38_0 false = 2
  hreads38_0 : ∀ i i' : grid38.Coords, (∀ a, reads38_0 a = true → i a = i' a) → cc38_transform_0 i = cc38_transform_0 i'
  hinb38_0 : ∀ (i : grid38.Coords) a, (cc38_transform_0 i a + 1) * S2000x64.size a ≤ S50000x64.size a
  hwx38_0 : ∀ i : grid38.Coords, EltTy.bits .f32 = 32 ∨ (Rect.block (s := S50000x64) S2000x64.size (cc38_transform_0 i) (hinb38_0 i)).WholeWords (EltTy.packing .f32)
  hstage38_1 : ∀ j, (stage38_1 j).IsWhole
  nbuf38_1 : grid38.bufCount reads38_1 true = 1
  hreads38_1 : ∀ i i' : grid38.Coords, (∀ a, reads38_1 a = true → i a = i' a) → cc38_transform_1 i = cc38_transform_1 i'
  hinb38_1 : ∀ (i : grid38.Coords) a, (cc38_transform_1 i a + 1) * S1x64.size a ≤ S1x64.size a
  hwx38_1 : ∀ i : grid38.Coords, EltTy.bits .f32 = 32 ∨ (Rect.block (s := S1x64) S1x64.size (cc38_transform_1 i) (hinb38_1 i)).WholeWords (EltTy.packing .f32)
  hstage38_2 : ∀ j, (stage38_2 j).IsWhole
  nbuf38_2 : grid38.bufCount reads38_2 false = 2
  hreads38_2 : ∀ i i' : grid38.Coords, (∀ a, reads38_2 a = true → i a = i' a) → cc38_transform_2 i = cc38_transform_2 i'
  hinb38_2 : ∀ (i : grid38.Coords) a, (cc38_transform_2 i a + 1) * S2000x64.size a ≤ S50000x64.size a
  hwx38_2 : ∀ i : grid38.Coords, EltTy.bits .f32 = 32 ∨ (Rect.block (s := S50000x64) S2000x64.size (cc38_transform_2 i) (hinb38_2 i)).WholeWords (EltTy.packing .f32)
  hstage38_3 : ∀ j, (stage38_3 j).IsWhole
  nbuf38_3 : grid38.bufCount reads38_3 false = 2
  hreads38_3 : ∀ i i' : grid38.Coords, (∀ a, reads38_3 a = true → i a = i' a) → cc38_transform_3 i = cc38_transform_3 i'
  hinb38_3 : ∀ (i : grid38.Coords) a, (cc38_transform_3 i a + 1) * S2000x64.size a ≤ S50000x64.size a
  hwx38_3 : ∀ i : grid38.Coords, EltTy.bits .f32 = 32 ∨ (Rect.block (s := S50000x64) S2000x64.size (cc38_transform_3 i) (hinb38_3 i)).WholeWords (EltTy.packing .f32)
  hstage38_4 : ∀ j, (stage38_4 j).IsWhole
  nbuf38_4 : grid38.bufCount reads38_4 false = 2
  hreads38_4 : ∀ i i' : grid38.Coords, (∀ a, reads38_4 a = true → i a = i' a) → cc38_transform_4 i = cc38_transform_4 i'
  hinb38_4 : ∀ (i : grid38.Coords) a, (cc38_transform_4 i a + 1) * S2000x64.size a ≤ S50000x64.size a
  hwx38_4 : ∀ i : grid38.Coords, EltTy.bits .f32 = 32 ∨ (Rect.block (s := S50000x64) S2000x64.size (cc38_transform_4 i) (hinb38_4 i)).WholeWords (EltTy.packing .f32)
  hstage38_5 : ∀ j, (stage38_5 j).IsWhole
  nbuf38_5 : grid38.bufCount reads38_5 true = 1
  hreads38_5 : ∀ i i' : grid38.Coords, (∀ a, reads38_5 a = true → i a = i' a) → cc38_transform_5 i = cc38_transform_5 i'
  hinb38_5 : ∀ (i : grid38.Coords) a, (cc38_transform_5 i a + 1) * S1x64.size a ≤ S1x64.size a
  hwx38_5 : ∀ i : grid38.Coords, EltTy.bits .f32 = 32 ∨ (Rect.block (s := S1x64) S1x64.size (cc38_transform_5 i) (hinb38_5 i)).WholeWords (EltTy.packing .f32)

class K39.Facts₀ : Prop where
  hrank39 : 0 < grid39.rank
  hstage39_0 : ∀ j, (stage39_0 j).IsWhole
  nbuf39_0 : grid39.bufCount reads39_0 false = 2
  hreads39_0 : ∀ i i' : grid39.Coords, (∀ a, reads39_0 a = true → i a = i' a) → cc39_transform_0 i = cc39_transform_0 i'
  hinb39_0 : ∀ (i : grid39.Coords) a, (cc39_transform_0 i a + 1) * S2000x64.size a ≤ S50000x64.size a
  hwx39_0 : ∀ i : grid39.Coords, EltTy.bits .f32 = 32 ∨ (Rect.block (s := S50000x64) S2000x64.size (cc39_transform_0 i) (hinb39_0 i)).WholeWords (EltTy.packing .f32)
  hstage39_1 : ∀ j, (stage39_1 j).IsWhole
  nbuf39_1 : grid39.bufCount reads39_1 true = 1
  hreads39_1 : ∀ i i' : grid39.Coords, (∀ a, reads39_1 a = true → i a = i' a) → cc39_transform_1 i = cc39_transform_1 i'
  hinb39_1 : ∀ (i : grid39.Coords) a, (cc39_transform_1 i a + 1) * S1x64.size a ≤ S1x64.size a
  hwx39_1 : ∀ i : grid39.Coords, EltTy.bits .f32 = 32 ∨ (Rect.block (s := S1x64) S1x64.size (cc39_transform_1 i) (hinb39_1 i)).WholeWords (EltTy.packing .f32)
  hstage39_2 : ∀ j, (stage39_2 j).IsWhole
  nbuf39_2 : grid39.bufCount reads39_2 true = 1
  hreads39_2 : ∀ i i' : grid39.Coords, (∀ a, reads39_2 a = true → i a = i' a) → cc39_transform_2 i = cc39_transform_2 i'
  hinb39_2 : ∀ (i : grid39.Coords) a, (cc39_transform_2 i a + 1) * S1x64.size a ≤ S1x64.size a
  hwx39_2 : ∀ i : grid39.Coords, EltTy.bits .f32 = 32 ∨ (Rect.block (s := S1x64) S1x64.size (cc39_transform_2 i) (hinb39_2 i)).WholeWords (EltTy.packing .f32)

class K40.Facts₀ : Prop where
  hrank40 : 0 < grid40.rank
  hstage40_0 : ∀ j, (stage40_0 j).IsWhole
  nbuf40_0 : grid40.bufCount reads40_0 false = 2
  hreads40_0 : ∀ i i' : grid40.Coords, (∀ a, reads40_0 a = true → i a = i' a) → cc40_transform_0 i = cc40_transform_0 i'
  hinb40_0 : ∀ (i : grid40.Coords) a, (cc40_transform_0 i a + 1) * S2000x64.size a ≤ S50000x64.size a
  hwx40_0 : ∀ i : grid40.Coords, EltTy.bits .f32 = 32 ∨ (Rect.block (s := S50000x64) S2000x64.size (cc40_transform_0 i) (hinb40_0 i)).WholeWords (EltTy.packing .f32)
  hstage40_1 : ∀ j, (stage40_1 j).IsWhole
  nbuf40_1 : grid40.bufCount reads40_1 true = 1
  hreads40_1 : ∀ i i' : grid40.Coords, (∀ a, reads40_1 a = true → i a = i' a) → cc40_transform_1 i = cc40_transform_1 i'
  hinb40_1 : ∀ (i : grid40.Coords) a, (cc40_transform_1 i a + 1) * S1x64.size a ≤ S1x64.size a
  hwx40_1 : ∀ i : grid40.Coords, EltTy.bits .f32 = 32 ∨ (Rect.block (s := S1x64) S1x64.size (cc40_transform_1 i) (hinb40_1 i)).WholeWords (EltTy.packing .f32)
  hstage40_2 : ∀ j, (stage40_2 j).IsWhole
  nbuf40_2 : grid40.bufCount reads40_2 true = 1
  hreads40_2 : ∀ i i' : grid40.Coords, (∀ a, reads40_2 a = true → i a = i' a) → cc40_transform_2 i = cc40_transform_2 i'
  hinb40_2 : ∀ (i : grid40.Coords) a, (cc40_transform_2 i a + 1) * S1x64.size a ≤ S1x64.size a
  hwx40_2 : ∀ i : grid40.Coords, EltTy.bits .f32 = 32 ∨ (Rect.block (s := S1x64) S1x64.size (cc40_transform_2 i) (hinb40_2 i)).WholeWords (EltTy.packing .f32)
  hstage40_3 : ∀ j, (stage40_3 j).IsWhole
  nbuf40_3 : grid40.bufCount reads40_3 true = 1
  hreads40_3 : ∀ i i' : grid40.Coords, (∀ a, reads40_3 a = true → i a = i' a) → cc40_transform_3 i = cc40_transform_3 i'
  hinb40_3 : ∀ (i : grid40.Coords) a, (cc40_transform_3 i a + 1) * S1x64.size a ≤ S1x64.size a
  hwx40_3 : ∀ i : grid40.Coords, EltTy.bits .f32 = 32 ∨ (Rect.block (s := S1x64) S1x64.size (cc40_transform_3 i) (hinb40_3 i)).WholeWords (EltTy.packing .f32)
  hstage40_4 : ∀ j, (stage40_4 j).IsWhole
  nbuf40_4 : grid40.bufCount reads40_4 true = 1
  hreads40_4 : ∀ i i' : grid40.Coords, (∀ a, reads40_4 a = true → i a = i' a) → cc40_transform_4 i = cc40_transform_4 i'
  hinb40_4 : ∀ (i : grid40.Coords) a, (cc40_transform_4 i a + 1) * S1x64.size a ≤ S1x64.size a
  hwx40_4 : ∀ i : grid40.Coords, EltTy.bits .f32 = 32 ∨ (Rect.block (s := S1x64) S1x64.size (cc40_transform_4 i) (hinb40_4 i)).WholeWords (EltTy.packing .f32)
  hstage40_5 : ∀ j, (stage40_5 j).IsWhole
  nbuf40_5 : grid40.bufCount reads40_5 false = 2
  hreads40_5 : ∀ i i' : grid40.Coords, (∀ a, reads40_5 a = true → i a = i' a) → cc40_transform_5 i = cc40_transform_5 i'
  hinb40_5 : ∀ (i : grid40.Coords) a, (cc40_transform_5 i a + 1) * S2000x64.size a ≤ S50000x64.size a
  hwx40_5 : ∀ i : grid40.Coords, EltTy.bits .f32 = 32 ∨ (Rect.block (s := S50000x64) S2000x64.size (cc40_transform_5 i) (hinb40_5 i)).WholeWords (EltTy.packing .f32)

class K41.Facts₀ : Prop where
  hrank41 : 0 < grid41.rank
  hstage41_0 : ∀ j, (stage41_0 j).IsWhole
  nbuf41_0 : grid41.bufCount reads41_0 false = 2
  hreads41_0 : ∀ i i' : grid41.Coords, (∀ a, reads41_0 a = true → i a = i' a) → cc41_transform_0 i = cc41_transform_0 i'
  hinb41_0 : ∀ (i : grid41.Coords) a, (cc41_transform_0 i a + 1) * S2000x64.size a ≤ S50000x64.size a
  hwx41_0 : ∀ i : grid41.Coords, EltTy.bits .f32 = 32 ∨ (Rect.block (s := S50000x64) S2000x64.size (cc41_transform_0 i) (hinb41_0 i)).WholeWords (EltTy.packing .f32)
  hstage41_1 : ∀ j, (stage41_1 j).IsWhole
  nbuf41_1 : grid41.bufCount reads41_1 true = 1
  hreads41_1 : ∀ i i' : grid41.Coords, (∀ a, reads41_1 a = true → i a = i' a) → cc41_transform_1 i = cc41_transform_1 i'
  hinb41_1 : ∀ (i : grid41.Coords) a, (cc41_transform_1 i a + 1) * S64x64.size a ≤ S64x64.size a
  hwx41_1 : ∀ i : grid41.Coords, EltTy.bits .f32 = 32 ∨ (Rect.block (s := S64x64) S64x64.size (cc41_transform_1 i) (hinb41_1 i)).WholeWords (EltTy.packing .f32)
  hstage41_2 : ∀ j, (stage41_2 j).IsWhole
  nbuf41_2 : grid41.bufCount reads41_2 false = 2
  hreads41_2 : ∀ i i' : grid41.Coords, (∀ a, reads41_2 a = true → i a = i' a) → cc41_transform_2 i = cc41_transform_2 i'
  hinb41_2 : ∀ (i : grid41.Coords) a, (cc41_transform_2 i a + 1) * S2000x64.size a ≤ S50000x64.size a
  hwx41_2 : ∀ i : grid41.Coords, EltTy.bits .f32 = 32 ∨ (Rect.block (s := S50000x64) S2000x64.size (cc41_transform_2 i) (hinb41_2 i)).WholeWords (EltTy.packing .f32)

class K42.Facts₀ : Prop where
  hrank42 : 0 < grid42.rank
  hstage42_0 : ∀ j, (stage42_0 j).IsWhole
  nbuf42_0 : grid42.bufCount reads42_0 false = 2
  hreads42_0 : ∀ i i' : grid42.Coords, (∀ a, reads42_0 a = true → i a = i' a) → cc42_transform_0 i = cc42_transform_0 i'
  hinb42_0 : ∀ (i : grid42.Coords) a, (cc42_transform_0 i a + 1) * S2000x64.size a ≤ S50000x64.size a
  hwx42_0 : ∀ i : grid42.Coords, EltTy.bits .f32 = 32 ∨ (Rect.block (s := S50000x64) S2000x64.size (cc42_transform_0 i) (hinb42_0 i)).WholeWords (EltTy.packing .f32)
  hstage42_1 : ∀ j, (stage42_1 j).IsWhole
  nbuf42_1 : grid42.bufCount reads42_1 true = 1
  hreads42_1 : ∀ i i' : grid42.Coords, (∀ a, reads42_1 a = true → i a = i' a) → cc42_transform_1 i = cc42_transform_1 i'
  hinb42_1 : ∀ (i : grid42.Coords) a, (cc42_transform_1 i a + 1) * S1x64.size a ≤ S1x64.size a
  hwx42_1 : ∀ i : grid42.Coords, EltTy.bits .f32 = 32 ∨ (Rect.block (s := S1x64) S1x64.size (cc42_transform_1 i) (hinb42_1 i)).WholeWords (EltTy.packing .f32)
  hstage42_2 : ∀ j, (stage42_2 j).IsWhole
  nbuf42_2 : grid42.bufCount reads42_2 false = 2
  hreads42_2 : ∀ i i' : grid42.Coords, (∀ a, reads42_2 a = true → i a = i' a) → cc42_transform_2 i = cc42_transform_2 i'
  hinb42_2 : ∀ (i : grid42.Coords) a, (cc42_transform_2 i a + 1) * S2000x64.size a ≤ S50000x64.size a
  hwx42_2 : ∀ i : grid42.Coords, EltTy.bits .f32 = 32 ∨ (Rect.block (s := S50000x64) S2000x64.size (cc42_transform_2 i) (hinb42_2 i)).WholeWords (EltTy.packing .f32)
  hstage42_3 : ∀ j, (stage42_3 j).IsWhole
  nbuf42_3 : grid42.bufCount reads42_3 false = 2
  hreads42_3 : ∀ i i' : grid42.Coords, (∀ a, reads42_3 a = true → i a = i' a) → cc42_transform_3 i = cc42_transform_3 i'
  hinb42_3 : ∀ (i : grid42.Coords) a, (cc42_transform_3 i a + 1) * S2000x64.size a ≤ S50000x64.size a
  hwx42_3 : ∀ i : grid42.Coords, EltTy.bits .f32 = 32 ∨ (Rect.block (s := S50000x64) S2000x64.size (cc42_transform_3 i) (hinb42_3 i)).WholeWords (EltTy.packing .f32)
  hstage42_4 : ∀ j, (stage42_4 j).IsWhole
  nbuf42_4 : grid42.bufCount reads42_4 false = 2
  hreads42_4 : ∀ i i' : grid42.Coords, (∀ a, reads42_4 a = true → i a = i' a) → cc42_transform_4 i = cc42_transform_4 i'
  hinb42_4 : ∀ (i : grid42.Coords) a, (cc42_transform_4 i a + 1) * S2000x64.size a ≤ S50000x64.size a
  hwx42_4 : ∀ i : grid42.Coords, EltTy.bits .f32 = 32 ∨ (Rect.block (s := S50000x64) S2000x64.size (cc42_transform_4 i) (hinb42_4 i)).WholeWords (EltTy.packing .f32)
  hstage42_5 : ∀ j, (stage42_5 j).IsWhole
  nbuf42_5 : grid42.bufCount reads42_5 true = 1
  hreads42_5 : ∀ i i' : grid42.Coords, (∀ a, reads42_5 a = true → i a = i' a) → cc42_transform_5 i = cc42_transform_5 i'
  hinb42_5 : ∀ (i : grid42.Coords) a, (cc42_transform_5 i a + 1) * S1x64.size a ≤ S1x64.size a
  hwx42_5 : ∀ i : grid42.Coords, EltTy.bits .f32 = 32 ∨ (Rect.block (s := S1x64) S1x64.size (cc42_transform_5 i) (hinb42_5 i)).WholeWords (EltTy.packing .f32)

class K43.Facts₀ : Prop where
  hrank43 : 0 < grid43.rank
  hstage43_0 : ∀ j, (stage43_0 j).IsWhole
  nbuf43_0 : grid43.bufCount reads43_0 false = 2
  hreads43_0 : ∀ i i' : grid43.Coords, (∀ a, reads43_0 a = true → i a = i' a) → cc43_transform_0 i = cc43_transform_0 i'
  hinb43_0 : ∀ (i : grid43.Coords) a, (cc43_transform_0 i a + 1) * S2000x64.size a ≤ S50000x64.size a
  hwx43_0 : ∀ i : grid43.Coords, EltTy.bits .f32 = 32 ∨ (Rect.block (s := S50000x64) S2000x64.size (cc43_transform_0 i) (hinb43_0 i)).WholeWords (EltTy.packing .f32)
  hstage43_1 : ∀ j, (stage43_1 j).IsWhole
  nbuf43_1 : grid43.bufCount reads43_1 true = 1
  hreads43_1 : ∀ i i' : grid43.Coords, (∀ a, reads43_1 a = true → i a = i' a) → cc43_transform_1 i = cc43_transform_1 i'
  hinb43_1 : ∀ (i : grid43.Coords) a, (cc43_transform_1 i a + 1) * S1x64.size a ≤ S1x64.size a
  hwx43_1 : ∀ i : grid43.Coords, EltTy.bits .f32 = 32 ∨ (Rect.block (s := S1x64) S1x64.size (cc43_transform_1 i) (hinb43_1 i)).WholeWords (EltTy.packing .f32)
  hstage43_2 : ∀ j, (stage43_2 j).IsWhole
  nbuf43_2 : grid43.bufCount reads43_2 true = 1
  hreads43_2 : ∀ i i' : grid43.Coords, (∀ a, reads43_2 a = true → i a = i' a) → cc43_transform_2 i = cc43_transform_2 i'
  hinb43_2 : ∀ (i : grid43.Coords) a, (cc43_transform_2 i a + 1) * S1x64.size a ≤ S1x64.size a
  hwx43_2 : ∀ i : grid43.Coords, EltTy.bits .f32 = 32 ∨ (Rect.block (s := S1x64) S1x64.size (cc43_transform_2 i) (hinb43_2 i)).WholeWords (EltTy.packing .f32)

class K44.Facts₀ : Prop where
  hrank44 : 0 < grid44.rank
  hstage44_0 : ∀ j, (stage44_0 j).IsWhole
  nbuf44_0 : grid44.bufCount reads44_0 false = 2
  hreads44_0 : ∀ i i' : grid44.Coords, (∀ a, reads44_0 a = true → i a = i' a) → cc44_transform_0 i = cc44_transform_0 i'
  hinb44_0 : ∀ (i : grid44.Coords) a, (cc44_transform_0 i a + 1) * S2000x64.size a ≤ S50000x64.size a
  hwx44_0 : ∀ i : grid44.Coords, EltTy.bits .f32 = 32 ∨ (Rect.block (s := S50000x64) S2000x64.size (cc44_transform_0 i) (hinb44_0 i)).WholeWords (EltTy.packing .f32)
  hstage44_1 : ∀ j, (stage44_1 j).IsWhole
  nbuf44_1 : grid44.bufCount reads44_1 true = 1
  hreads44_1 : ∀ i i' : grid44.Coords, (∀ a, reads44_1 a = true → i a = i' a) → cc44_transform_1 i = cc44_transform_1 i'
  hinb44_1 : ∀ (i : grid44.Coords) a, (cc44_transform_1 i a + 1) * S1x64.size a ≤ S1x64.size a
  hwx44_1 : ∀ i : grid44.Coords, EltTy.bits .f32 = 32 ∨ (Rect.block (s := S1x64) S1x64.size (cc44_transform_1 i) (hinb44_1 i)).WholeWords (EltTy.packing .f32)
  hstage44_2 : ∀ j, (stage44_2 j).IsWhole
  nbuf44_2 : grid44.bufCount reads44_2 true = 1
  hreads44_2 : ∀ i i' : grid44.Coords, (∀ a, reads44_2 a = true → i a = i' a) → cc44_transform_2 i = cc44_transform_2 i'
  hinb44_2 : ∀ (i : grid44.Coords) a, (cc44_transform_2 i a + 1) * S1x64.size a ≤ S1x64.size a
  hwx44_2 : ∀ i : grid44.Coords, EltTy.bits .f32 = 32 ∨ (Rect.block (s := S1x64) S1x64.size (cc44_transform_2 i) (hinb44_2 i)).WholeWords (EltTy.packing .f32)
  hstage44_3 : ∀ j, (stage44_3 j).IsWhole
  nbuf44_3 : grid44.bufCount reads44_3 true = 1
  hreads44_3 : ∀ i i' : grid44.Coords, (∀ a, reads44_3 a = true → i a = i' a) → cc44_transform_3 i = cc44_transform_3 i'
  hinb44_3 : ∀ (i : grid44.Coords) a, (cc44_transform_3 i a + 1) * S1x64.size a ≤ S1x64.size a
  hwx44_3 : ∀ i : grid44.Coords, EltTy.bits .f32 = 32 ∨ (Rect.block (s := S1x64) S1x64.size (cc44_transform_3 i) (hinb44_3 i)).WholeWords (EltTy.packing .f32)
  hstage44_4 : ∀ j, (stage44_4 j).IsWhole
  nbuf44_4 : grid44.bufCount reads44_4 true = 1
  hreads44_4 : ∀ i i' : grid44.Coords, (∀ a, reads44_4 a = true → i a = i' a) → cc44_transform_4 i = cc44_transform_4 i'
  hinb44_4 : ∀ (i : grid44.Coords) a, (cc44_transform_4 i a + 1) * S1x64.size a ≤ S1x64.size a
  hwx44_4 : ∀ i : grid44.Coords, EltTy.bits .f32 = 32 ∨ (Rect.block (s := S1x64) S1x64.size (cc44_transform_4 i) (hinb44_4 i)).WholeWords (EltTy.packing .f32)
  hstage44_5 : ∀ j, (stage44_5 j).IsWhole
  nbuf44_5 : grid44.bufCount reads44_5 false = 2
  hreads44_5 : ∀ i i' : grid44.Coords, (∀ a, reads44_5 a = true → i a = i' a) → cc44_transform_5 i = cc44_transform_5 i'
  hinb44_5 : ∀ (i : grid44.Coords) a, (cc44_transform_5 i a + 1) * S2000x64.size a ≤ S50000x64.size a
  hwx44_5 : ∀ i : grid44.Coords, EltTy.bits .f32 = 32 ∨ (Rect.block (s := S50000x64) S2000x64.size (cc44_transform_5 i) (hinb44_5 i)).WholeWords (EltTy.packing .f32)

class K45.Facts₀ : Prop where
  hrank45 : 0 < grid45.rank
  hstage45_0 : ∀ j, (stage45_0 j).IsWhole
  nbuf45_0 : grid45.bufCount reads45_0 false = 2
  hreads45_0 : ∀ i i' : grid45.Coords, (∀ a, reads45_0 a = true → i a = i' a) → cc45_transform_0 i = cc45_transform_0 i'
  hinb45_0 : ∀ (i : grid45.Coords) a, (cc45_transform_0 i a + 1) * S2000x64.size a ≤ S50000x64.size a
  hwx45_0 : ∀ i : grid45.Coords, EltTy.bits .f32 = 32 ∨ (Rect.block (s := S50000x64) S2000x64.size (cc45_transform_0 i) (hinb45_0 i)).WholeWords (EltTy.packing .f32)
  hstage45_1 : ∀ j, (stage45_1 j).IsWhole
  nbuf45_1 : grid45.bufCount reads45_1 true = 1
  hreads45_1 : ∀ i i' : grid45.Coords, (∀ a, reads45_1 a = true → i a = i' a) → cc45_transform_1 i = cc45_transform_1 i'
  hinb45_1 : ∀ (i : grid45.Coords) a, (cc45_transform_1 i a + 1) * S64x32.size a ≤ S64x32.size a
  hwx45_1 : ∀ i : grid45.Coords, EltTy.bits .f32 = 32 ∨ (Rect.block (s := S64x32) S64x32.size (cc45_transform_1 i) (hinb45_1 i)).WholeWords (EltTy.packing .f32)
  hstage45_2 : ∀ j, (stage45_2 j).IsWhole
  nbuf45_2 : grid45.bufCount reads45_2 false = 2
  hreads45_2 : ∀ i i' : grid45.Coords, (∀ a, reads45_2 a = true → i a = i' a) → cc45_transform_2 i = cc45_transform_2 i'
  hinb45_2 : ∀ (i : grid45.Coords) a, (cc45_transform_2 i a + 1) * S2000x32.size a ≤ S50000x32.size a
  hwx45_2 : ∀ i : grid45.Coords, EltTy.bits .f32 = 32 ∨ (Rect.block (s := S50000x32) S2000x32.size (cc45_transform_2 i) (hinb45_2 i)).WholeWords (EltTy.packing .f32)

class K46.Facts₀ : Prop where
  hrank46 : 0 < grid46.rank
  hstage46_0 : ∀ j, (stage46_0 j).IsWhole
  nbuf46_0 : grid46.bufCount reads46_0 false = 2
  hreads46_0 : ∀ i i' : grid46.Coords, (∀ a, reads46_0 a = true → i a = i' a) → cc46_transform_0 i = cc46_transform_0 i'
  hinb46_0 : ∀ (i : grid46.Coords) a, (cc46_transform_0 i a + 1) * S2000x32.size a ≤ S50000x32.size a
  hwx46_0 : ∀ i : grid46.Coords, EltTy.bits .f32 = 32 ∨ (Rect.block (s := S50000x32) S2000x32.size (cc46_transform_0 i) (hinb46_0 i)).WholeWords (EltTy.packing .f32)
  hstage46_1 : ∀ j, (stage46_1 j).IsWhole
  nbuf46_1 : grid46.bufCount reads46_1 true = 1
  hreads46_1 : ∀ i i' : grid46.Coords, (∀ a, reads46_1 a = true → i a = i' a) → cc46_transform_1 i = cc46_transform_1 i'
  hinb46_1 : ∀ (i : grid46.Coords) a, (cc46_transform_1 i a + 1) * S1x32.size a ≤ S1x32.size a
  hwx46_1 : ∀ i : grid46.Coords, EltTy.bits .f32 = 32 ∨ (Rect.block (s := S1x32) S1x32.size (cc46_transform_1 i) (hinb46_1 i)).WholeWords (EltTy.packing .f32)
  hstage46_2 : ∀ j, (stage46_2 j).IsWhole
  nbuf46_2 : grid46.bufCount reads46_2 false = 2
  hreads46_2 : ∀ i i' : grid46.Coords, (∀ a, reads46_2 a = true → i a = i' a) → cc46_transform_2 i = cc46_transform_2 i'
  hinb46_2 : ∀ (i : grid46.Coords) a, (cc46_transform_2 i a + 1) * S2000x32.size a ≤ S50000x32.size a
  hwx46_2 : ∀ i : grid46.Coords, EltTy.bits .f32 = 32 ∨ (Rect.block (s := S50000x32) S2000x32.size (cc46_transform_2 i) (hinb46_2 i)).WholeWords (EltTy.packing .f32)
  hstage46_3 : ∀ j, (stage46_3 j).IsWhole
  nbuf46_3 : grid46.bufCount reads46_3 true = 1
  hreads46_3 : ∀ i i' : grid46.Coords, (∀ a, reads46_3 a = true → i a = i' a) → cc46_transform_3 i = cc46_transform_3 i'
  hinb46_3 : ∀ (i : grid46.Coords) a, (cc46_transform_3 i a + 1) * S1x32.size a ≤ S1x32.size a
  hwx46_3 : ∀ i : grid46.Coords, EltTy.bits .f32 = 32 ∨ (Rect.block (s := S1x32) S1x32.size (cc46_transform_3 i) (hinb46_3 i)).WholeWords (EltTy.packing .f32)

class K47.Facts₀ : Prop where
  hrank47 : 0 < grid47.rank
  hstage47_0 : ∀ j, (stage47_0 j).IsWhole
  nbuf47_0 : grid47.bufCount reads47_0 false = 2
  hreads47_0 : ∀ i i' : grid47.Coords, (∀ a, reads47_0 a = true → i a = i' a) → cc47_transform_0 i = cc47_transform_0 i'
  hinb47_0 : ∀ (i : grid47.Coords) a, (cc47_transform_0 i a + 1) * S2000x32.size a ≤ S50000x32.size a
  hwx47_0 : ∀ i : grid47.Coords, EltTy.bits .f32 = 32 ∨ (Rect.block (s := S50000x32) S2000x32.size (cc47_transform_0 i) (hinb47_0 i)).WholeWords (EltTy.packing .f32)
  hstage47_1 : ∀ j, (stage47_1 j).IsWhole
  nbuf47_1 : grid47.bufCount reads47_1 true = 1
  hreads47_1 : ∀ i i' : grid47.Coords, (∀ a, reads47_1 a = true → i a = i' a) → cc47_transform_1 i = cc47_transform_1 i'
  hinb47_1 : ∀ (i : grid47.Coords) a, (cc47_transform_1 i a + 1) * S1x32.size a ≤ S1x32.size a
  hwx47_1 : ∀ i : grid47.Coords, EltTy.bits .f32 = 32 ∨ (Rect.block (s := S1x32) S1x32.size (cc47_transform_1 i) (hinb47_1 i)).WholeWords (EltTy.packing .f32)
  hstage47_2 : ∀ j, (stage47_2 j).IsWhole
  nbuf47_2 : grid47.bufCount reads47_2 true = 1
  hreads47_2 : ∀ i i' : grid47.Coords, (∀ a, reads47_2 a = true → i a = i' a) → cc47_transform_2 i = cc47_transform_2 i'
  hinb47_2 : ∀ (i : grid47.Coords) a, (cc47_transform_2 i a + 1) * S1x32.size a ≤ S1x32.size a
  hwx47_2 : ∀ i : grid47.Coords, EltTy.bits .f32 = 32 ∨ (Rect.block (s := S1x32) S1x32.size (cc47_transform_2 i) (hinb47_2 i)).WholeWords (EltTy.packing .f32)

class K48.Facts₀ : Prop where
  hrank48 : 0 < grid48.rank
  hstage48_0 : ∀ j, (stage48_0 j).IsWhole
  nbuf48_0 : grid48.bufCount reads48_0 false = 2
  hreads48_0 : ∀ i i' : grid48.Coords, (∀ a, reads48_0 a = true → i a = i' a) → cc48_transform_0 i = cc48_transform_0 i'
  hinb48_0 : ∀ (i : grid48.Coords) a, (cc48_transform_0 i a + 1) * S2000x32.size a ≤ S50000x32.size a
  hwx48_0 : ∀ i : grid48.Coords, EltTy.bits .f32 = 32 ∨ (Rect.block (s := S50000x32) S2000x32.size (cc48_transform_0 i) (hinb48_0 i)).WholeWords (EltTy.packing .f32)
  hstage48_1 : ∀ j, (stage48_1 j).IsWhole
  nbuf48_1 : grid48.bufCount reads48_1 true = 1
  hreads48_1 : ∀ i i' : grid48.Coords, (∀ a, reads48_1 a = true → i a = i' a) → cc48_transform_1 i = cc48_transform_1 i'
  hinb48_1 : ∀ (i : grid48.Coords) a, (cc48_transform_1 i a + 1) * S1x32.size a ≤ S1x32.size a
  hwx48_1 : ∀ i : grid48.Coords, EltTy.bits .f32 = 32 ∨ (Rect.block (s := S1x32) S1x32.size (cc48_transform_1 i) (hinb48_1 i)).WholeWords (EltTy.packing .f32)
  hstage48_2 : ∀ j, (stage48_2 j).IsWhole
  nbuf48_2 : grid48.bufCount reads48_2 true = 1
  hreads48_2 : ∀ i i' : grid48.Coords, (∀ a, reads48_2 a = true → i a = i' a) → cc48_transform_2 i = cc48_transform_2 i'
  hinb48_2 : ∀ (i : grid48.Coords) a, (cc48_transform_2 i a + 1) * S1x32.size a ≤ S1x32.size a
  hwx48_2 : ∀ i : grid48.Coords, EltTy.bits .f32 = 32 ∨ (Rect.block (s := S1x32) S1x32.size (cc48_transform_2 i) (hinb48_2 i)).WholeWords (EltTy.packing .f32)
  hstage48_3 : ∀ j, (stage48_3 j).IsWhole
  nbuf48_3 : grid48.bufCount reads48_3 true = 1
  hreads48_3 : ∀ i i' : grid48.Coords, (∀ a, reads48_3 a = true → i a = i' a) → cc48_transform_3 i = cc48_transform_3 i'
  hinb48_3 : ∀ (i : grid48.Coords) a, (cc48_transform_3 i a + 1) * S1x32.size a ≤ S1x32.size a
  hwx48_3 : ∀ i : grid48.Coords, EltTy.bits .f32 = 32 ∨ (Rect.block (s := S1x32) S1x32.size (cc48_transform_3 i) (hinb48_3 i)).WholeWords (EltTy.packing .f32)
  hstage48_4 : ∀ j, (stage48_4 j).IsWhole
  nbuf48_4 : grid48.bufCount reads48_4 true = 1
  hreads48_4 : ∀ i i' : grid48.Coords, (∀ a, reads48_4 a = true → i a = i' a) → cc48_transform_4 i = cc48_transform_4 i'
  hinb48_4 : ∀ (i : grid48.Coords) a, (cc48_transform_4 i a + 1) * S1x32.size a ≤ S1x32.size a
  hwx48_4 : ∀ i : grid48.Coords, EltTy.bits .f32 = 32 ∨ (Rect.block (s := S1x32) S1x32.size (cc48_transform_4 i) (hinb48_4 i)).WholeWords (EltTy.packing .f32)
  hstage48_5 : ∀ j, (stage48_5 j).IsWhole
  nbuf48_5 : grid48.bufCount reads48_5 true = 1
  hreads48_5 : ∀ i i' : grid48.Coords, (∀ a, reads48_5 a = true → i a = i' a) → cc48_transform_5 i = cc48_transform_5 i'
  hinb48_5 : ∀ (i : grid48.Coords) a, (cc48_transform_5 i a + 1) * S32x1.size a ≤ S32x1.size a
  hwx48_5 : ∀ i : grid48.Coords, EltTy.bits .f32 = 32 ∨ (Rect.block (s := S32x1) S32x1.size (cc48_transform_5 i) (hinb48_5 i)).WholeWords (EltTy.packing .f32)
  hstage48_6 : ∀ j, (stage48_6 j).IsWhole
  nbuf48_6 : grid48.bufCount reads48_6 false = 2
  hreads48_6 : ∀ i i' : grid48.Coords, (∀ a, reads48_6 a = true → i a = i' a) → cc48_transform_6 i = cc48_transform_6 i'
  hinb48_6 : ∀ (i : grid48.Coords) a, (cc48_transform_6 i a + 1) * S2000x1.size a ≤ S50000x1.size a
  hwx48_6 : ∀ i : grid48.Coords, EltTy.bits .f32 = 32 ∨ (Rect.block (s := S50000x1) S2000x1.size (cc48_transform_6 i) (hinb48_6 i)).WholeWords (EltTy.packing .f32)

class Shapes1.Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S50000_S690000_d0 : Shape.Concatenates [S640000, S50000] S690000 0
  bcast_S_S50000 : S_.BroadcastsInDim S50000 (![] : Fin 0 → Fin S50000.rank)
  bcast_S690000_S690000x1_0 : S690000.BroadcastsInDim S690000x1 (![0] : Fin 1 → Fin S690000x1.rank)
  bcast_S_S690000 : S_.BroadcastsInDim S690000 (![] : Fin 0 → Fin S690000.rank)
  slices_S50000x22_S50000x4_0_0 : S50000x22.Slices ![0, 0] S50000x4
  slices_S50000x22_S50000x18_0_4 : S50000x22.Slices ![0, 4] S50000x18
  shapeCasts_S4_S1x4 : S4.ShapeCasts S1x4
  inb_S2000x18_S2000x18_0_0 : ∀ a, (![0, 0] : Fin 2 → Nat) a + S2000x18.size a ≤ S2000x18.size a
  h_S2000x18 : 0 < S2000x18.numel
  shapeCasts_S2000x18_S2000x18 : S2000x18.ShapeCasts S2000x18
  inb_S18x4_S18x4_0_0 : ∀ a, (![0, 0] : Fin 2 → Nat) a + S18x4.size a ≤ S18x4.size a
  h_S18x4 : 0 < S18x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  inb_S2000x4_S2000x4_0_0 : ∀ a, (![0, 0] : Fin 2 → Nat) a + S2000x4.size a ≤ S2000x4.size a
  h_S2000x4 : 0 < S2000x4.numel
  shapeCasts_S2000x4_S2000x4 : S2000x4.ShapeCasts S2000x4
  slices_S8x64x64_S1x64x64_0_0_0 : S8x64x64.Slices ![0, 0, 0] S1x64x64
  shapeCasts_S1x64x64_S64x64 : S1x64x64.ShapeCasts S64x64
  slices_S8x64_S1x64_0_0 : S8x64.Slices ![0, 0] S1x64
  shapeCasts_S1x64_S64 : S1x64.ShapeCasts S64
  slices_S8x64x64_S1x64x64_1_0_0 : S8x64x64.Slices ![1, 0, 0] S1x64x64
  slices_S8x64_S1x64_1_0 : S8x64.Slices ![1, 0] S1x64
  slices_S8x64x64_S1x64x64_2_0_0 : S8x64x64.Slices ![2, 0, 0] S1x64x64
  slices_S8x64_S1x64_2_0 : S8x64.Slices ![2, 0] S1x64
  slices_S8x64x64_S1x64x64_3_0_0 : S8x64x64.Slices ![3, 0, 0] S1x64x64
  slices_S8x64_S1x64_3_0 : S8x64.Slices ![3, 0] S1x64
  slices_S8x64x64_S1x64x64_4_0_0 : S8x64x64.Slices ![4, 0, 0] S1x64x64
  slices_S8x64_S1x64_4_0 : S8x64.Slices ![4, 0] S1x64
  slices_S8x64x64_S1x64x64_5_0_0 : S8x64x64.Slices ![5, 0, 0] S1x64x64
  slices_S8x64_S1x64_5_0 : S8x64.Slices ![5, 0] S1x64
  slices_S8x64x64_S1x64x64_6_0_0 : S8x64x64.Slices ![6, 0, 0] S1x64x64
  slices_S8x64_S1x64_6_0 : S8x64.Slices ![6, 0] S1x64
  slices_S8x64x64_S1x64x64_7_0_0 : S8x64x64.Slices ![7, 0, 0] S1x64x64
  slices_S8x64_S1x64_7_0 : S8x64.Slices ![7, 0] S1x64
  transposes_S64x4_S4x64_1_0 : S64x4.Transposes [1, 0] S4x64
  bcast_S690000x1_S690000x4_0_1 : S690000x1.BroadcastsInDim S690000x4 (![0, 1] : Fin 2 → Fin S690000x4.rank)
  bcast_S_S50000x4 : S_.BroadcastsInDim S50000x4 (![] : Fin 0 → Fin S50000x4.rank)
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S2000x64_S2000x64_0_0 : ∀ a, (![0, 0] : Fin 2 → Nat) a + S2000x64.size a ≤ S2000x64.size a
  h_S2000x64 : 0 < S2000x64.numel
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S2000x64_S2000x64 : S2000x64.ShapeCasts S2000x64
  broadcasts_S1x64_S2000x64 : S1x64.Broadcasts S2000x64
  reduces_S2000x64_S64 : S2000x64.Reduces [0] S64
  bcast_S_S1x64 : S_.BroadcastsInDim S1x64 (![] : Fin 0 → Fin S1x64.rank)
  reduces_S2000x64_S2000 : S2000x64.Reduces [1] S2000
  shapeCasts_S2000_S2000x1 : S2000.ShapeCasts S2000x1
  broadcasts_S2000x1_S2000x64 : S2000x1.Broadcasts S2000x64
  transposes_S128x64_S64x128_1_0 : S128x64.Transposes [1, 0] S64x128
  bcast_S690000x1_S690000x64_0_1 : S690000x1.BroadcastsInDim S690000x64 (![0, 1] : Fin 2 → Fin S690000x64.rank)
  bcast_S_S50000x64 : S_.BroadcastsInDim S50000x64 (![] : Fin 0 → Fin S50000x64.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2000x128_S2000x128_0_0 : ∀ a, (![0, 0] : Fin 2 → Nat) a + S2000x128.size a ≤ S2000x128.size a
  h_S2000x128 : 0 < S2000x128.numel
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  broadcasts_S1x128_S2000x128 : S1x128.Broadcasts S2000x128
  reduces_S2000x128_S128 : S2000x128.Reduces [0] S128
  bcast_S_S1x128 : S_.BroadcastsInDim S1x128 (![] : Fin 0 → Fin S1x128.rank)
  reduces_S2000x128_S2000 : S2000x128.Reduces [1] S2000
  broadcasts_S2000x1_S2000x128 : S2000x1.Broadcasts S2000x128
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  transposes_S64x64_S64x64_1_0 : S64x64.Transposes [1, 0] S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S32x64_S64x32_1_0 : S32x64.Transposes [1, 0] S64x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S2000x32_S2000x32_0_0 : ∀ a, (![0, 0] : Fin 2 → Nat) a + S2000x32.size a ≤ S2000x32.size a
  h_S2000x32 : 0 < S2000x32.numel
  bcast_S690000x1_S690000x32_0_1 : S690000x1.BroadcastsInDim S690000x32 (![0, 1] : Fin 2 → Fin S690000x32.rank)
  bcast_S_S50000x32 : S_.BroadcastsInDim S50000x32 (![] : Fin 0 → Fin S50000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S2000x32_S2000x32 : S2000x32.ShapeCasts S2000x32
  broadcasts_S1x32_S2000x32 : S1x32.Broadcasts S2000x32
  reduces_S2000x32_S2000 : S2000x32.Reduces [1] S2000
  broadcasts_S2000x1_S2000x32 : S2000x1.Broadcasts S2000x32
  reduces_S2000x32_S32 : S2000x32.Reduces [0] S32
  bcast_S_S1x32 : S_.BroadcastsInDim S1x32 (![] : Fin 0 → Fin S1x32.rank)
  inb_S32x1_S32x1_0_0 : ∀ a, (![0, 0] : Fin 2 → Nat) a + S32x1.size a ≤ S32x1.size a
  h_S32x1 : 0 < S32x1.numel
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S2000x18_S18x4_S2000x4_1_0_0_1_n_n_wf : DotDims.WF S2000x18 S18x4 S2000x4 [1] [0] [0] [1] [] []
  gather_S50000x4_S690000x1_S690000x4_1_0_n_n_0_1_14_wf : GatherDims.WF S50000x4 S690000x1 S690000x4 [1] [0] [] [0] [] 1 ![1, 4]
  scatter_S50000x4_S690000x1_S690000x4_1_0_0_1_wf : ScatterDims.WF S50000x4 S690000x1 S690000x4 [1] [0] [0] 1
  dot_S2000x4_S4x64_S2000x64_1_0_0_1_n_n_wf : DotDims.WF S2000x4 S4x64 S2000x64 [1] [0] [0] [1] [] []
  gather_S50000x64_S690000x1_S690000x64_1_0_n_n_0_1_164_wf : GatherDims.WF S50000x64 S690000x1 S690000x64 [1] [0] [] [0] [] 1 ![1, 64]
  scatter_S50000x64_S690000x1_S690000x64_1_0_0_1_wf : ScatterDims.WF S50000x64 S690000x1 S690000x64 [1] [0] [0] 1
  dot_S2000x64_S64x128_S2000x128_1_0_0_1_n_n_wf : DotDims.WF S2000x64 S64x128 S2000x128 [1] [0] [0] [1] [] []
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  gather_S50000x32_S690000x1_S690000x32_1_0_n_n_0_1_132_wf : GatherDims.WF S50000x32 S690000x1 S690000x32 [1] [0] [] [0] [] 1 ![1, 32]
  scatter_S50000x32_S690000x1_S690000x32_1_0_0_1_wf : ScatterDims.WF S50000x32 S690000x1 S690000x32 [1] [0] [0] 1
  dot_S2000x32_S32x1_S2000x1_1_0_0_1_n_n_wf : DotDims.WF S2000x32 S32x1 S2000x1 [1] [0] [0] [1] [] []

class Facts₀ : Prop where
  k0 : K0.Facts₀
  k1 : K1.Facts₀
  k2 : K2.Facts₀
  k3 : K3.Facts₀
  k4 : K4.Facts₀
  k5 : K5.Facts₀
  k6 : K6.Facts₀
  k7 : K7.Facts₀
  k8 : K8.Facts₀
  k9 : K9.Facts₀
  k10 : K10.Facts₀
  k11 : K11.Facts₀
  k12 : K12.Facts₀
  k13 : K13.Facts₀
  k14 : K14.Facts₀
  k15 : K15.Facts₀
  k16 : K16.Facts₀
  k17 : K17.Facts₀
  k18 : K18.Facts₀
  k19 : K19.Facts₀
  k20 : K20.Facts₀
  k21 : K21.Facts₀
  k22 : K22.Facts₀
  k23 : K23.Facts₀
  k24 : K24.Facts₀
  k25 : K25.Facts₀
  k26 : K26.Facts₀
  k27 : K27.Facts₀
  k28 : K28.Facts₀
  k29 : K29.Facts₀
  k30 : K30.Facts₀
  k31 : K31.Facts₀
  k32 : K32.Facts₀
  k33 : K33.Facts₀
  k34 : K34.Facts₀
  k35 : K35.Facts₀
  k36 : K36.Facts₀
  k37 : K37.Facts₀
  k38 : K38.Facts₀
  k39 : K39.Facts₀
  k40 : K40.Facts₀
  k41 : K41.Facts₀
  k42 : K42.Facts₀
  k43 : K43.Facts₀
  k44 : K44.Facts₀
  k45 : K45.Facts₀
  k46 : K46.Facts₀
  k47 : K47.Facts₀
  k48 : K48.Facts₀
  shapes1 : Shapes1.Facts₀
attribute [instance] Facts₀.k0 Facts₀.k1 Facts₀.k2 Facts₀.k3 Facts₀.k4 Facts₀.k5 Facts₀.k6 Facts₀.k7 Facts₀.k8 Facts₀.k9 Facts₀.k10 Facts₀.k11 Facts₀.k12 Facts₀.k13 Facts₀.k14 Facts₀.k15 Facts₀.k16 Facts₀.k17 Facts₀.k18 Facts₀.k19 Facts₀.k20 Facts₀.k21 Facts₀.k22 Facts₀.k23 Facts₀.k24 Facts₀.k25 Facts₀.k26 Facts₀.k27 Facts₀.k28 Facts₀.k29 Facts₀.k30 Facts₀.k31 Facts₀.k32 Facts₀.k33 Facts₀.k34 Facts₀.k35 Facts₀.k36 Facts₀.k37 Facts₀.k38 Facts₀.k39 Facts₀.k40 Facts₀.k41 Facts₀.k42 Facts₀.k43 Facts₀.k44 Facts₀.k45 Facts₀.k46 Facts₀.k47 Facts₀.k48 Facts₀.shapes1

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S2000x18_S18x4_S2000x4_1_0_0_1_n_n : DotDims S2000x18 S18x4 S2000x4 where
  lhsContracting := [1]
  rhsContracting := [0]
  lhsNonContracting := [0]
  rhsNonContracting := [1]
  lhsBatch := []
  rhsBatch := []
  wf := dot_S2000x18_S18x4_S2000x4_1_0_0_1_n_n_wf
def gather_S50000x4_S690000x1_S690000x4_1_0_n_n_0_1_14 : GatherDims S50000x4 S690000x1 S690000x4 where
  offsetDims := [1]
  collapsedSliceDims := [0]
  operandBatchingDims := []
  startIndicesBatchingDims := []
  startIndexMap := [0]
  indexVectorDim := 1
  sliceSizes := ![1, 4]
  wf := gather_S50000x4_S690000x1_S690000x4_1_0_n_n_0_1_14_wf
def scatter_S50000x4_S690000x1_S690000x4_1_0_0_1 : ScatterDims S50000x4 S690000x1 S690000x4 where
  updateWindowDims := [1]
  insertedWindowDims := [0]
  scatterDimsToOperandDims := [0]
  indexVectorDim := 1
  wf := scatter_S50000x4_S690000x1_S690000x4_1_0_0_1_wf
def dot_S2000x4_S4x64_S2000x64_1_0_0_1_n_n : DotDims S2000x4 S4x64 S2000x64 where
  lhsContracting := [1]
  rhsContracting := [0]
  lhsNonContracting := [0]
  rhsNonContracting := [1]
  lhsBatch := []
  rhsBatch := []
  wf := dot_S2000x4_S4x64_S2000x64_1_0_0_1_n_n_wf
def gather_S50000x64_S690000x1_S690000x64_1_0_n_n_0_1_164 : GatherDims S50000x64 S690000x1 S690000x64 where
  offsetDims := [1]
  collapsedSliceDims := [0]
  operandBatchingDims := []
  startIndicesBatchingDims := []
  startIndexMap := [0]
  indexVectorDim := 1
  sliceSizes := ![1, 64]
  wf := gather_S50000x64_S690000x1_S690000x64_1_0_n_n_0_1_164_wf
def scatter_S50000x64_S690000x1_S690000x64_1_0_0_1 : ScatterDims S50000x64 S690000x1 S690000x64 where
  updateWindowDims := [1]
  insertedWindowDims := [0]
  scatterDimsToOperandDims := [0]
  indexVectorDim := 1
  wf := scatter_S50000x64_S690000x1_S690000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S50000x32_S690000x1_S690000x32_1_0_n_n_0_1_132 : GatherDims S50000x32 S690000x1 S690000x32 where
  offsetDims := [1]
  collapsedSliceDims := [0]
  operandBatchingDims := []
  startIndicesBatchingDims := []
  startIndexMap := [0]
  indexVectorDim := 1
  sliceSizes := ![1, 32]
  wf := gather_S50000x32_S690000x1_S690000x32_1_0_n_n_0_1_132_wf
def scatter_S50000x32_S690000x1_S690000x32_1_0_0_1 : ScatterDims S50000x32 S690000x1 S690000x32 where
  updateWindowDims := [1]
  insertedWindowDims := [0]
  scatterDimsToOperandDims := [0]
  indexVectorDim := 1
  wf := scatter_S50000x32_S690000x1_S690000x32_1_0_0_1_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

abbrev win0_0 : Pipeline.Window sig grid0 :=
  Pipeline.Window.ofSpec (Memref.whole main_v35) S2000x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S18x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S2000x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S2000x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v115) S2000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v102) S4x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v116) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v116) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v117) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v118_0) S2000x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v118_1) S1x64.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v118_0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v120) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v121) S1x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v118_0) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v120) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v123) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v124) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v125) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v126) S2000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v140) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v127) S64x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v141) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v141) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v142) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v143_0) S2000x128.size cc6_transform_2 reads6_2 true false 2 stage6_2 sem6_2
    hrank6 hreads6_2 hinb6_2 nbuf6_2 (Memref.isWhole_whole _) hwx6_2 hstage6_2

abbrev win6_3 : Pipeline.Window sig grid6 :=
  Pipeline.Window.ofSpec (Memref.whole main_v143_1) S1x128.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v143_0) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v145) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v146) S1x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v143_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v145) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v148) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v149) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v150) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v151) S2000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v151) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v152) S128x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v153) S2000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v166) S2000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v167) S1x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v168_0) S2000x64.size cc10_transform_2 reads10_2 true false 2 stage10_2 sem10_2
    hrank10 hreads10_2 hinb10_2 nbuf10_2 (Memref.isWhole_whole _) hwx10_2 hstage10_2

abbrev win10_3 : Pipeline.Window sig grid10 :=
  Pipeline.Window.ofSpec (Memref.whole main_v168_1) S2000x64.size cc10_transform_3 reads10_3 true false 2 stage10_3 sem10_3
    hrank10 hreads10_3 hinb10_3 nbuf10_3 (Memref.isWhole_whole _) hwx10_3 hstage10_3

abbrev win10_4 : Pipeline.Window sig grid10 :=
  Pipeline.Window.ofSpec (Memref.whole main_v168_2) S1x64.size cc10_transform_4 reads10_4 true true 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev idle10 : Fin 5 → grid10.Coords → Bool := fun | 0 => fun _ => false | 1 => fun _ => false | 2 => fun _ => false | 3 => fun _ => false | 4 => fun i => !(k10_cond2 i == 1#1) | ⟨_ + 5, h⟩ => absurd h (Nat.not_lt.2 (Nat.le_add_left _ _))

abbrev win11_0 : Pipeline.Window sig grid11 :=
  Pipeline.Window.ofSpec (Memref.whole main_v168_0) S2000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v170) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v171) S1x64.size cc11_transform_2 reads11_2 true true 1 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev idle11 : Fin 3 → grid11.Coords → Bool := fun | 0 => fun _ => false | 1 => fun _ => false | 2 => fun i => !(k11_cond2 i == 1#1) | ⟨_ + 3, h⟩ => absurd h (Nat.not_lt.2 (Nat.le_add_left _ _))

abbrev win12_0 : Pipeline.Window sig grid12 :=
  Pipeline.Window.ofSpec (Memref.whole main_v168_0) S2000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v170) S1x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v173) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v174) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v175) S1x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v176) S2000x64.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v176) S2000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v177) S64x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v178) S2000x64.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v191) S2000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v192) S1x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v168_1) S2000x64.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v193_0) S2000x64.size cc14_transform_3 reads14_3 true false 2 stage14_3 sem14_3
    hrank14 hreads14_3 hinb14_3 nbuf14_3 (Memref.isWhole_whole _) hwx14_3 hstage14_3

abbrev win14_4 : Pipeline.Window sig grid14 :=
  Pipeline.Window.ofSpec (Memref.whole main_v193_1) S2000x64.size cc14_transform_4 reads14_4 true false 2 stage14_4 sem14_4
    hrank14 hreads14_4 hinb14_4 nbuf14_4 (Memref.isWhole_whole _) hwx14_4 hstage14_4

abbrev win14_5 : Pipeline.Window sig grid14 :=
  Pipeline.Window.ofSpec (Memref.whole main_v193_2) S1x64.size cc14_transform_5 reads14_5 true true 1 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev idle14 : Fin 6 → grid14.Coords → Bool := fun | 0 => fun _ => false | 1 => fun _ => false | 2 => fun _ => false | 3 => fun _ => false | 4 => fun _ => false | 5 => fun i => !(k14_cond2 i == 1#1) | ⟨_ + 6, h⟩ => absurd h (Nat.not_lt.2 (Nat.le_add_left _ _))

abbrev win15_0 : Pipeline.Window sig grid15 :=
  Pipeline.Window.ofSpec (Memref.whole main_v193_0) S2000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v195) S1x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v196) S1x64.size cc15_transform_2 reads15_2 true true 1 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev idle15 : Fin 3 → grid15.Coords → Bool := fun | 0 => fun _ => false | 1 => fun _ => false | 2 => fun i => !(k15_cond2 i == 1#1) | ⟨_ + 3, h⟩ => absurd h (Nat.not_lt.2 (Nat.le_add_left _ _))

abbrev win16_0 : Pipeline.Window sig grid16 :=
  Pipeline.Window.ofSpec (Memref.whole main_v193_0) S2000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v195) S1x64.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v198) S1x64.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v199) S1x64.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v200) S1x64.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v201) S2000x64.size cc16_transform_5 reads16_5 true false 2 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_v201) S2000x64.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v202) S64x64.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v203) S2000x64.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v216) S2000x64.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v217) S1x64.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v193_1) S2000x64.size cc18_transform_2 reads18_2 false false 2 stage18_2 sem18_2
    hrank18 hreads18_2 hinb18_2 nbuf18_2 (Memref.isWhole_whole _) hwx18_2 hstage18_2

abbrev win18_3 : Pipeline.Window sig grid18 :=
  Pipeline.Window.ofSpec (Memref.whole main_v218_0) S2000x64.size cc18_transform_3 reads18_3 true false 2 stage18_3 sem18_3
    hrank18 hreads18_3 hinb18_3 nbuf18_3 (Memref.isWhole_whole _) hwx18_3 hstage18_3

abbrev win18_4 : Pipeline.Window sig grid18 :=
  Pipeline.Window.ofSpec (Memref.whole main_v218_1) S2000x64.size cc18_transform_4 reads18_4 true false 2 stage18_4 sem18_4
    hrank18 hreads18_4 hinb18_4 nbuf18_4 (Memref.isWhole_whole _) hwx18_4 hstage18_4

abbrev win18_5 : Pipeline.Window sig grid18 :=
  Pipeline.Window.ofSpec (Memref.whole main_v218_2) S1x64.size cc18_transform_5 reads18_5 true true 1 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

abbrev idle18 : Fin 6 → grid18.Coords → Bool := fun | 0 => fun _ => false | 1 => fun _ => false | 2 => fun _ => false | 3 => fun _ => false | 4 => fun _ => false | 5 => fun i => !(k18_cond2 i == 1#1) | ⟨_ + 6, h⟩ => absurd h (Nat.not_lt.2 (Nat.le_add_left _ _))

abbrev win19_0 : Pipeline.Window sig grid19 :=
  Pipeline.Window.ofSpec (Memref.whole main_v218_0) S2000x64.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v220) S1x64.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v221) S1x64.size cc19_transform_2 reads19_2 true true 1 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev idle19 : Fin 3 → grid19.Coords → Bool := fun | 0 => fun _ => false | 1 => fun _ => false | 2 => fun i => !(k19_cond2 i == 1#1) | ⟨_ + 3, h⟩ => absurd h (Nat.not_lt.2 (Nat.le_add_left _ _))

abbrev win20_0 : Pipeline.Window sig grid20 :=
  Pipeline.Window.ofSpec (Memref.whole main_v218_0) S2000x64.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v220) S1x64.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v223) S1x64.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v224) S1x64.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v225) S1x64.size cc20_transform_4 reads20_4 false true 1 stage20_4 sem20_4
    hrank20 hreads20_4 hinb20_4 nbuf20_4 (Memref.isWhole_whole _) hwx20_4 hstage20_4

abbrev win20_5 : Pipeline.Window sig grid20 :=
  Pipeline.Window.ofSpec (Memref.whole main_v226) S2000x64.size cc20_transform_5 reads20_5 true false 2 stage20_5 sem20_5
    hrank20 hreads20_5 hinb20_5 nbuf20_5 (Memref.isWhole_whole _) hwx20_5 hstage20_5

abbrev win20 : Fin 6 → Pipeline.Window sig grid20 := fun | 0 => win20_0 | 1 => win20_1 | 2 => win20_2 | 3 => win20_3 | 4 => win20_4 | 5 => win20_5 | ⟨_ + 6, h⟩ => absurd h (Nat.not_lt.2 (Nat.le_add_left _ _))
abbrev spec20 : Fin 6 → Pipeline.WinSpec sig grid20.rank := fun w => (win20 w).toWinSpec

abbrev win21_0 : Pipeline.Window sig grid21 :=
  Pipeline.Window.ofSpec (Memref.whole main_v226) S2000x64.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v227) S64x64.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v228) S2000x64.size cc21_transform_2 reads21_2 true false 2 stage21_2 sem21_2
    hrank21 hreads21_2 hinb21_2 nbuf21_2 (Memref.isWhole_whole _) hwx21_2 hstage21_2

abbrev win21 : Fin 3 → Pipeline.Window sig grid21 := fun | 0 => win21_0 | 1 => win21_1 | 2 => win21_2 | ⟨_ + 3, h⟩ => absurd h (Nat.not_lt.2 (Nat.le_add_left _ _))
abbrev spec21 : Fin 3 → Pipeline.WinSpec sig grid21.rank := fun w => (win21 w).toWinSpec

abbrev win22_0 : Pipeline.Window sig grid22 :=
  Pipeline.Window.ofSpec (Memref.whole main_v241) S2000x64.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v242) S1x64.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v218_1) S2000x64.size cc22_transform_2 reads22_2 false false 2 stage22_2 sem22_2
    hrank22 hreads22_2 hinb22_2 nbuf22_2 (Memref.isWhole_whole _) hwx22_2 hstage22_2

abbrev win22_3 : Pipeline.Window sig grid22 :=
  Pipeline.Window.ofSpec (Memref.whole main_v243_0) S2000x64.size cc22_transform_3 reads22_3 true false 2 stage22_3 sem22_3
    hrank22 hreads22_3 hinb22_3 nbuf22_3 (Memref.isWhole_whole _) hwx22_3 hstage22_3

abbrev win22_4 : Pipeline.Window sig grid22 :=
  Pipeline.Window.ofSpec (Memref.whole main_v243_1) S2000x64.size cc22_transform_4 reads22_4 true false 2 stage22_4 sem22_4
    hrank22 hreads22_4 hinb22_4 nbuf22_4 (Memref.isWhole_whole _) hwx22_4 hstage22_4

abbrev win22_5 : Pipeline.Window sig grid22 :=
  Pipeline.Window.ofSpec (Memref.whole main_v243_2) S1x64.size cc22_transform_5 reads22_5 true true 1 stage22_5 sem22_5
    hrank22 hreads22_5 hinb22_5 nbuf22_5 (Memref.isWhole_whole _) hwx22_5 hstage22_5

abbrev win22 : Fin 6 → Pipeline.Window sig grid22 := fun | 0 => win22_0 | 1 => win22_1 | 2 => win22_2 | 3 => win22_3 | 4 => win22_4 | 5 => win22_5 | ⟨_ + 6, h⟩ => absurd h (Nat.not_lt.2 (Nat.le_add_left _ _))
abbrev spec22 : Fin 6 → Pipeline.WinSpec sig grid22.rank := fun w => (win22 w).toWinSpec

abbrev idle22 : Fin 6 → grid22.Coords → Bool := fun | 0 => fun _ => false | 1 => fun _ => false | 2 => fun _ => false | 3 => fun _ => false | 4 => fun _ => false | 5 => fun i => !(k22_cond2 i == 1#1) | ⟨_ + 6, h⟩ => absurd h (Nat.not_lt.2 (Nat.le_add_left _ _))

abbrev win23_0 : Pipeline.Window sig grid23 :=
  Pipeline.Window.ofSpec (Memref.whole main_v243_0) S2000x64.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v245) S1x64.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v246) S1x64.size cc23_transform_2 reads23_2 true true 1 stage23_2 sem23_2
    hrank23 hreads23_2 hinb23_2 nbuf23_2 (Memref.isWhole_whole _) hwx23_2 hstage23_2

abbrev win23 : Fin 3 → Pipeline.Window sig grid23 := fun | 0 => win23_0 | 1 => win23_1 | 2 => win23_2 | ⟨_ + 3, h⟩ => absurd h (Nat.not_lt.2 (Nat.le_add_left _ _))
abbrev spec23 : Fin 3 → Pipeline.WinSpec sig grid23.rank := fun w => (win23 w).toWinSpec

abbrev idle23 : Fin 3 → grid23.Coords → Bool := fun | 0 => fun _ => false | 1 => fun _ => false | 2 => fun i => !(k23_cond2 i == 1#1) | ⟨_ + 3, h⟩ => absurd h (Nat.not_lt.2 (Nat.le_add_left _ _))

abbrev win24_0 : Pipeline.Window sig grid24 :=
  Pipeline.Window.ofSpec (Memref.whole main_v243_0) S2000x64.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v245) S1x64.size cc24_transform_1 reads24_1 false true 1 stage24_1 sem24_1
    hrank24 hreads24_1 hinb24_1 nbuf24_1 (Memref.isWhole_whole _) hwx24_1 hstage24_1

abbrev win24_2 : Pipeline.Window sig grid24 :=
  Pipeline.Window.ofSpec (Memref.whole main_v248) S1x64.size cc24_transform_2 reads24_2 false true 1 stage24_2 sem24_2
    hrank24 hreads24_2 hinb24_2 nbuf24_2 (Memref.isWhole_whole _) hwx24_2 hstage24_2

abbrev win24_3 : Pipeline.Window sig grid24 :=
  Pipeline.Window.ofSpec (Memref.whole main_v249) S1x64.size cc24_transform_3 reads24_3 false true 1 stage24_3 sem24_3
    hrank24 hreads24_3 hinb24_3 nbuf24_3 (Memref.isWhole_whole _) hwx24_3 hstage24_3

abbrev win24_4 : Pipeline.Window sig grid24 :=
  Pipeline.Window.ofSpec (Memref.whole main_v250) S1x64.size cc24_transform_4 reads24_4 false true 1 stage24_4 sem24_4
    hrank24 hreads24_4 hinb24_4 nbuf24_4 (Memref.isWhole_whole _) hwx24_4 hstage24_4

abbrev win24_5 : Pipeline.Window sig grid24 :=
  Pipeline.Window.ofSpec (Memref.whole main_v251) S2000x64.size cc24_transform_5 reads24_5 true false 2 stage24_5 sem24_5
    hrank24 hreads24_5 hinb24_5 nbuf24_5 (Memref.isWhole_whole _) hwx24_5 hstage24_5

abbrev win24 : Fin 6 → Pipeline.Window sig grid24 := fun | 0 => win24_0 | 1 => win24_1 | 2 => win24_2 | 3 => win24_3 | 4 => win24_4 | 5 => win24_5 | ⟨_ + 6, h⟩ => absurd h (Nat.not_lt.2 (Nat.le_add_left _ _))
abbrev spec24 : Fin 6 → Pipeline.WinSpec sig grid24.rank := fun w => (win24 w).toWinSpec

abbrev win25_0 : Pipeline.Window sig grid25 :=
  Pipeline.Window.ofSpec (Memref.whole main_v251) S2000x64.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v252) S64x64.size cc25_transform_1 reads25_1 false true 1 stage25_1 sem25_1
    hrank25 hreads25_1 hinb25_1 nbuf25_1 (Memref.isWhole_whole _) hwx25_1 hstage25_1

abbrev win25_2 : Pipeline.Window sig grid25 :=
  Pipeline.Window.ofSpec (Memref.whole main_v253) S2000x64.size cc25_transform_2 reads25_2 true false 2 stage25_2 sem25_2
    hrank25 hreads25_2 hinb25_2 nbuf25_2 (Memref.isWhole_whole _) hwx25_2 hstage25_2

abbrev win25 : Fin 3 → Pipeline.Window sig grid25 := fun | 0 => win25_0 | 1 => win25_1 | 2 => win25_2 | ⟨_ + 3, h⟩ => absurd h (Nat.not_lt.2 (Nat.le_add_left _ _))
abbrev spec25 : Fin 3 → Pipeline.WinSpec sig grid25.rank := fun w => (win25 w).toWinSpec

abbrev win26_0 : Pipeline.Window sig grid26 :=
  Pipeline.Window.ofSpec (Memref.whole main_v266) S2000x64.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_v267) S1x64.size cc26_transform_1 reads26_1 false true 1 stage26_1 sem26_1
    hrank26 hreads26_1 hinb26_1 nbuf26_1 (Memref.isWhole_whole _) hwx26_1 hstage26_1

abbrev win26_2 : Pipeline.Window sig grid26 :=
  Pipeline.Window.ofSpec (Memref.whole main_v243_1) S2000x64.size cc26_transform_2 reads26_2 false false 2 stage26_2 sem26_2
    hrank26 hreads26_2 hinb26_2 nbuf26_2 (Memref.isWhole_whole _) hwx26_2 hstage26_2

abbrev win26_3 : Pipeline.Window sig grid26 :=
  Pipeline.Window.ofSpec (Memref.whole main_v268_0) S2000x64.size cc26_transform_3 reads26_3 true false 2 stage26_3 sem26_3
    hrank26 hreads26_3 hinb26_3 nbuf26_3 (Memref.isWhole_whole _) hwx26_3 hstage26_3

abbrev win26_4 : Pipeline.Window sig grid26 :=
  Pipeline.Window.ofSpec (Memref.whole main_v268_1) S2000x64.size cc26_transform_4 reads26_4 true false 2 stage26_4 sem26_4
    hrank26 hreads26_4 hinb26_4 nbuf26_4 (Memref.isWhole_whole _) hwx26_4 hstage26_4

abbrev win26_5 : Pipeline.Window sig grid26 :=
  Pipeline.Window.ofSpec (Memref.whole main_v268_2) S1x64.size cc26_transform_5 reads26_5 true true 1 stage26_5 sem26_5
    hrank26 hreads26_5 hinb26_5 nbuf26_5 (Memref.isWhole_whole _) hwx26_5 hstage26_5

abbrev win26 : Fin 6 → Pipeline.Window sig grid26 := fun | 0 => win26_0 | 1 => win26_1 | 2 => win26_2 | 3 => win26_3 | 4 => win26_4 | 5 => win26_5 | ⟨_ + 6, h⟩ => absurd h (Nat.not_lt.2 (Nat.le_add_left _ _))
abbrev spec26 : Fin 6 → Pipeline.WinSpec sig grid26.rank := fun w => (win26 w).toWinSpec

abbrev idle26 : Fin 6 → grid26.Coords → Bool := fun | 0 => fun _ => false | 1 => fun _ => false | 2 => fun _ => false | 3 => fun _ => false | 4 => fun _ => false | 5 => fun i => !(k26_cond2 i == 1#1) | ⟨_ + 6, h⟩ => absurd h (Nat.not_lt.2 (Nat.le_add_left _ _))

abbrev win27_0 : Pipeline.Window sig grid27 :=
  Pipeline.Window.ofSpec (Memref.whole main_v268_0) S2000x64.size cc27_transform_0 reads27_0 false false 2 stage27_0 sem27_0
    hrank27 hreads27_0 hinb27_0 nbuf27_0 (Memref.isWhole_whole _) hwx27_0 hstage27_0

abbrev win27_1 : Pipeline.Window sig grid27 :=
  Pipeline.Window.ofSpec (Memref.whole main_v270) S1x64.size cc27_transform_1 reads27_1 false true 1 stage27_1 sem27_1
    hrank27 hreads27_1 hinb27_1 nbuf27_1 (Memref.isWhole_whole _) hwx27_1 hstage27_1

abbrev win27_2 : Pipeline.Window sig grid27 :=
  Pipeline.Window.ofSpec (Memref.whole main_v271) S1x64.size cc27_transform_2 reads27_2 true true 1 stage27_2 sem27_2
    hrank27 hreads27_2 hinb27_2 nbuf27_2 (Memref.isWhole_whole _) hwx27_2 hstage27_2

abbrev win27 : Fin 3 → Pipeline.Window sig grid27 := fun | 0 => win27_0 | 1 => win27_1 | 2 => win27_2 | ⟨_ + 3, h⟩ => absurd h (Nat.not_lt.2 (Nat.le_add_left _ _))
abbrev spec27 : Fin 3 → Pipeline.WinSpec sig grid27.rank := fun w => (win27 w).toWinSpec

abbrev idle27 : Fin 3 → grid27.Coords → Bool := fun | 0 => fun _ => false | 1 => fun _ => false | 2 => fun i => !(k27_cond2 i == 1#1) | ⟨_ + 3, h⟩ => absurd h (Nat.not_lt.2 (Nat.le_add_left _ _))

abbrev win28_0 : Pipeline.Window sig grid28 :=
  Pipeline.Window.ofSpec (Memref.whole main_v268_0) S2000x64.size cc28_transform_0 reads28_0 false false 2 stage28_0 sem28_0
    hrank28 hreads28_0 hinb28_0 nbuf28_0 (Memref.isWhole_whole _) hwx28_0 hstage28_0

abbrev win28_1 : Pipeline.Window sig grid28 :=
  Pipeline.Window.ofSpec (Memref.whole main_v270) S1x64.size cc28_transform_1 reads28_1 false true 1 stage28_1 sem28_1
    hrank28 hreads28_1 hinb28_1 nbuf28_1 (Memref.isWhole_whole _) hwx28_1 hstage28_1

abbrev win28_2 : Pipeline.Window sig grid28 :=
  Pipeline.Window.ofSpec (Memref.whole main_v273) S1x64.size cc28_transform_2 reads28_2 false true 1 stage28_2 sem28_2
    hrank28 hreads28_2 hinb28_2 nbuf28_2 (Memref.isWhole_whole _) hwx28_2 hstage28_2

abbrev win28_3 : Pipeline.Window sig grid28 :=
  Pipeline.Window.ofSpec (Memref.whole main_v274) S1x64.size cc28_transform_3 reads28_3 false true 1 stage28_3 sem28_3
    hrank28 hreads28_3 hinb28_3 nbuf28_3 (Memref.isWhole_whole _) hwx28_3 hstage28_3

abbrev win28_4 : Pipeline.Window sig grid28 :=
  Pipeline.Window.ofSpec (Memref.whole main_v275) S1x64.size cc28_transform_4 reads28_4 false true 1 stage28_4 sem28_4
    hrank28 hreads28_4 hinb28_4 nbuf28_4 (Memref.isWhole_whole _) hwx28_4 hstage28_4

abbrev win28_5 : Pipeline.Window sig grid28 :=
  Pipeline.Window.ofSpec (Memref.whole main_v276) S2000x64.size cc28_transform_5 reads28_5 true false 2 stage28_5 sem28_5
    hrank28 hreads28_5 hinb28_5 nbuf28_5 (Memref.isWhole_whole _) hwx28_5 hstage28_5

abbrev win28 : Fin 6 → Pipeline.Window sig grid28 := fun | 0 => win28_0 | 1 => win28_1 | 2 => win28_2 | 3 => win28_3 | 4 => win28_4 | 5 => win28_5 | ⟨_ + 6, h⟩ => absurd h (Nat.not_lt.2 (Nat.le_add_left _ _))
abbrev spec28 : Fin 6 → Pipeline.WinSpec sig grid28.rank := fun w => (win28 w).toWinSpec

abbrev win29_0 : Pipeline.Window sig grid29 :=
  Pipeline.Window.ofSpec (Memref.whole main_v276) S2000x64.size cc29_transform_0 reads29_0 false false 2 stage29_0 sem29_0
    hrank29 hreads29_0 hinb29_0 nbuf29_0 (Memref.isWhole_whole _) hwx29_0 hstage29_0

abbrev win29_1 : Pipeline.Window sig grid29 :=
  Pipeline.Window.ofSpec (Memref.whole main_v277) S64x64.size cc29_transform_1 reads29_1 false true 1 stage29_1 sem29_1
    hrank29 hreads29_1 hinb29_1 nbuf29_1 (Memref.isWhole_whole _) hwx29_1 hstage29_1

abbrev win29_2 : Pipeline.Window sig grid29 :=
  Pipeline.Window.ofSpec (Memref.whole main_v278) S2000x64.size cc29_transform_2 reads29_2 true false 2 stage29_2 sem29_2
    hrank29 hreads29_2 hinb29_2 nbuf29_2 (Memref.isWhole_whole _) hwx29_2 hstage29_2

abbrev win29 : Fin 3 → Pipeline.Window sig grid29 := fun | 0 => win29_0 | 1 => win29_1 | 2 => win29_2 | ⟨_ + 3, h⟩ => absurd h (Nat.not_lt.2 (Nat.le_add_left _ _))
abbrev spec29 : Fin 3 → Pipeline.WinSpec sig grid29.rank := fun w => (win29 w).toWinSpec

abbrev win30_0 : Pipeline.Window sig grid30 :=
  Pipeline.Window.ofSpec (Memref.whole main_v291) S2000x64.size cc30_transform_0 reads30_0 false false 2 stage30_0 sem30_0
    hrank30 hreads30_0 hinb30_0 nbuf30_0 (Memref.isWhole_whole _) hwx30_0 hstage30_0

abbrev win30_1 : Pipeline.Window sig grid30 :=
  Pipeline.Window.ofSpec (Memref.whole main_v292) S1x64.size cc30_transform_1 reads30_1 false true 1 stage30_1 sem30_1
    hrank30 hreads30_1 hinb30_1 nbuf30_1 (Memref.isWhole_whole _) hwx30_1 hstage30_1

abbrev win30_2 : Pipeline.Window sig grid30 :=
  Pipeline.Window.ofSpec (Memref.whole main_v268_1) S2000x64.size cc30_transform_2 reads30_2 false false 2 stage30_2 sem30_2
    hrank30 hreads30_2 hinb30_2 nbuf30_2 (Memref.isWhole_whole _) hwx30_2 hstage30_2

abbrev win30_3 : Pipeline.Window sig grid30 :=
  Pipeline.Window.ofSpec (Memref.whole main_v293_0) S2000x64.size cc30_transform_3 reads30_3 true false 2 stage30_3 sem30_3
    hrank30 hreads30_3 hinb30_3 nbuf30_3 (Memref.isWhole_whole _) hwx30_3 hstage30_3

abbrev win30_4 : Pipeline.Window sig grid30 :=
  Pipeline.Window.ofSpec (Memref.whole main_v293_1) S2000x64.size cc30_transform_4 reads30_4 true false 2 stage30_4 sem30_4
    hrank30 hreads30_4 hinb30_4 nbuf30_4 (Memref.isWhole_whole _) hwx30_4 hstage30_4

abbrev win30_5 : Pipeline.Window sig grid30 :=
  Pipeline.Window.ofSpec (Memref.whole main_v293_2) S1x64.size cc30_transform_5 reads30_5 true true 1 stage30_5 sem30_5
    hrank30 hreads30_5 hinb30_5 nbuf30_5 (Memref.isWhole_whole _) hwx30_5 hstage30_5

abbrev win30 : Fin 6 → Pipeline.Window sig grid30 := fun | 0 => win30_0 | 1 => win30_1 | 2 => win30_2 | 3 => win30_3 | 4 => win30_4 | 5 => win30_5 | ⟨_ + 6, h⟩ => absurd h (Nat.not_lt.2 (Nat.le_add_left _ _))
abbrev spec30 : Fin 6 → Pipeline.WinSpec sig grid30.rank := fun w => (win30 w).toWinSpec

abbrev idle30 : Fin 6 → grid30.Coords → Bool := fun | 0 => fun _ => false | 1 => fun _ => false | 2 => fun _ => false | 3 => fun _ => false | 4 => fun _ => false | 5 => fun i => !(k30_cond2 i == 1#1) | ⟨_ + 6, h⟩ => absurd h (Nat.not_lt.2 (Nat.le_add_left _ _))

abbrev win31_0 : Pipeline.Window sig grid31 :=
  Pipeline.Window.ofSpec (Memref.whole main_v293_0) S2000x64.size cc31_transform_0 reads31_0 false false 2 stage31_0 sem31_0
    hrank31 hreads31_0 hinb31_0 nbuf31_0 (Memref.isWhole_whole _) hwx31_0 hstage31_0

abbrev win31_1 : Pipeline.Window sig grid31 :=
  Pipeline.Window.ofSpec (Memref.whole main_v295) S1x64.size cc31_transform_1 reads31_1 false true 1 stage31_1 sem31_1
    hrank31 hreads31_1 hinb31_1 nbuf31_1 (Memref.isWhole_whole _) hwx31_1 hstage31_1

abbrev win31_2 : Pipeline.Window sig grid31 :=
  Pipeline.Window.ofSpec (Memref.whole main_v296) S1x64.size cc31_transform_2 reads31_2 true true 1 stage31_2 sem31_2
    hrank31 hreads31_2 hinb31_2 nbuf31_2 (Memref.isWhole_whole _) hwx31_2 hstage31_2

abbrev win31 : Fin 3 → Pipeline.Window sig grid31 := fun | 0 => win31_0 | 1 => win31_1 | 2 => win31_2 | ⟨_ + 3, h⟩ => absurd h (Nat.not_lt.2 (Nat.le_add_left _ _))
abbrev spec31 : Fin 3 → Pipeline.WinSpec sig grid31.rank := fun w => (win31 w).toWinSpec

abbrev idle31 : Fin 3 → grid31.Coords → Bool := fun | 0 => fun _ => false | 1 => fun _ => false | 2 => fun i => !(k31_cond2 i == 1#1) | ⟨_ + 3, h⟩ => absurd h (Nat.not_lt.2 (Nat.le_add_left _ _))

abbrev win32_0 : Pipeline.Window sig grid32 :=
  Pipeline.Window.ofSpec (Memref.whole main_v293_0) S2000x64.size cc32_transform_0 reads32_0 false false 2 stage32_0 sem32_0
    hrank32 hreads32_0 hinb32_0 nbuf32_0 (Memref.isWhole_whole _) hwx32_0 hstage32_0

abbrev win32_1 : Pipeline.Window sig grid32 :=
  Pipeline.Window.ofSpec (Memref.whole main_v295) S1x64.size cc32_transform_1 reads32_1 false true 1 stage32_1 sem32_1
    hrank32 hreads32_1 hinb32_1 nbuf32_1 (Memref.isWhole_whole _) hwx32_1 hstage32_1

abbrev win32_2 : Pipeline.Window sig grid32 :=
  Pipeline.Window.ofSpec (Memref.whole main_v298) S1x64.size cc32_transform_2 reads32_2 false true 1 stage32_2 sem32_2
    hrank32 hreads32_2 hinb32_2 nbuf32_2 (Memref.isWhole_whole _) hwx32_2 hstage32_2

abbrev win32_3 : Pipeline.Window sig grid32 :=
  Pipeline.Window.ofSpec (Memref.whole main_v299) S1x64.size cc32_transform_3 reads32_3 false true 1 stage32_3 sem32_3
    hrank32 hreads32_3 hinb32_3 nbuf32_3 (Memref.isWhole_whole _) hwx32_3 hstage32_3

abbrev win32_4 : Pipeline.Window sig grid32 :=
  Pipeline.Window.ofSpec (Memref.whole main_v300) S1x64.size cc32_transform_4 reads32_4 false true 1 stage32_4 sem32_4
    hrank32 hreads32_4 hinb32_4 nbuf32_4 (Memref.isWhole_whole _) hwx32_4 hstage32_4

abbrev win32_5 : Pipeline.Window sig grid32 :=
  Pipeline.Window.ofSpec (Memref.whole main_v301) S2000x64.size cc32_transform_5 reads32_5 true false 2 stage32_5 sem32_5
    hrank32 hreads32_5 hinb32_5 nbuf32_5 (Memref.isWhole_whole _) hwx32_5 hstage32_5

abbrev win32 : Fin 6 → Pipeline.Window sig grid32 := fun | 0 => win32_0 | 1 => win32_1 | 2 => win32_2 | 3 => win32_3 | 4 => win32_4 | 5 => win32_5 | ⟨_ + 6, h⟩ => absurd h (Nat.not_lt.2 (Nat.le_add_left _ _))
abbrev spec32 : Fin 6 → Pipeline.WinSpec sig grid32.rank := fun w => (win32 w).toWinSpec

abbrev win33_0 : Pipeline.Window sig grid33 :=
  Pipeline.Window.ofSpec (Memref.whole main_v301) S2000x64.size cc33_transform_0 reads33_0 false false 2 stage33_0 sem33_0
    hrank33 hreads33_0 hinb33_0 nbuf33_0 (Memref.isWhole_whole _) hwx33_0 hstage33_0

abbrev win33_1 : Pipeline.Window sig grid33 :=
  Pipeline.Window.ofSpec (Memref.whole main_v302) S64x64.size cc33_transform_1 reads33_1 false true 1 stage33_1 sem33_1
    hrank33 hreads33_1 hinb33_1 nbuf33_1 (Memref.isWhole_whole _) hwx33_1 hstage33_1

abbrev win33_2 : Pipeline.Window sig grid33 :=
  Pipeline.Window.ofSpec (Memref.whole main_v303) S2000x64.size cc33_transform_2 reads33_2 true false 2 stage33_2 sem33_2
    hrank33 hreads33_2 hinb33_2 nbuf33_2 (Memref.isWhole_whole _) hwx33_2 hstage33_2

abbrev win33 : Fin 3 → Pipeline.Window sig grid33 := fun | 0 => win33_0 | 1 => win33_1 | 2 => win33_2 | ⟨_ + 3, h⟩ => absurd h (Nat.not_lt.2 (Nat.le_add_left _ _))
abbrev spec33 : Fin 3 → Pipeline.WinSpec sig grid33.rank := fun w => (win33 w).toWinSpec

abbrev win34_0 : Pipeline.Window sig grid34 :=
  Pipeline.Window.ofSpec (Memref.whole main_v316) S2000x64.size cc34_transform_0 reads34_0 false false 2 stage34_0 sem34_0
    hrank34 hreads34_0 hinb34_0 nbuf34_0 (Memref.isWhole_whole _) hwx34_0 hstage34_0

abbrev win34_1 : Pipeline.Window sig grid34 :=
  Pipeline.Window.ofSpec (Memref.whole main_v317) S1x64.size cc34_transform_1 reads34_1 false true 1 stage34_1 sem34_1
    hrank34 hreads34_1 hinb34_1 nbuf34_1 (Memref.isWhole_whole _) hwx34_1 hstage34_1

abbrev win34_2 : Pipeline.Window sig grid34 :=
  Pipeline.Window.ofSpec (Memref.whole main_v293_1) S2000x64.size cc34_transform_2 reads34_2 false false 2 stage34_2 sem34_2
    hrank34 hreads34_2 hinb34_2 nbuf34_2 (Memref.isWhole_whole _) hwx34_2 hstage34_2

abbrev win34_3 : Pipeline.Window sig grid34 :=
  Pipeline.Window.ofSpec (Memref.whole main_v318_0) S2000x64.size cc34_transform_3 reads34_3 true false 2 stage34_3 sem34_3
    hrank34 hreads34_3 hinb34_3 nbuf34_3 (Memref.isWhole_whole _) hwx34_3 hstage34_3

abbrev win34_4 : Pipeline.Window sig grid34 :=
  Pipeline.Window.ofSpec (Memref.whole main_v318_1) S2000x64.size cc34_transform_4 reads34_4 true false 2 stage34_4 sem34_4
    hrank34 hreads34_4 hinb34_4 nbuf34_4 (Memref.isWhole_whole _) hwx34_4 hstage34_4

abbrev win34_5 : Pipeline.Window sig grid34 :=
  Pipeline.Window.ofSpec (Memref.whole main_v318_2) S1x64.size cc34_transform_5 reads34_5 true true 1 stage34_5 sem34_5
    hrank34 hreads34_5 hinb34_5 nbuf34_5 (Memref.isWhole_whole _) hwx34_5 hstage34_5

abbrev win34 : Fin 6 → Pipeline.Window sig grid34 := fun | 0 => win34_0 | 1 => win34_1 | 2 => win34_2 | 3 => win34_3 | 4 => win34_4 | 5 => win34_5 | ⟨_ + 6, h⟩ => absurd h (Nat.not_lt.2 (Nat.le_add_left _ _))
abbrev spec34 : Fin 6 → Pipeline.WinSpec sig grid34.rank := fun w => (win34 w).toWinSpec

abbrev idle34 : Fin 6 → grid34.Coords → Bool := fun | 0 => fun _ => false | 1 => fun _ => false | 2 => fun _ => false | 3 => fun _ => false | 4 => fun _ => false | 5 => fun i => !(k34_cond2 i == 1#1) | ⟨_ + 6, h⟩ => absurd h (Nat.not_lt.2 (Nat.le_add_left _ _))

abbrev win35_0 : Pipeline.Window sig grid35 :=
  Pipeline.Window.ofSpec (Memref.whole main_v318_0) S2000x64.size cc35_transform_0 reads35_0 false false 2 stage35_0 sem35_0
    hrank35 hreads35_0 hinb35_0 nbuf35_0 (Memref.isWhole_whole _) hwx35_0 hstage35_0

abbrev win35_1 : Pipeline.Window sig grid35 :=
  Pipeline.Window.ofSpec (Memref.whole main_v320) S1x64.size cc35_transform_1 reads35_1 false true 1 stage35_1 sem35_1
    hrank35 hreads35_1 hinb35_1 nbuf35_1 (Memref.isWhole_whole _) hwx35_1 hstage35_1

abbrev win35_2 : Pipeline.Window sig grid35 :=
  Pipeline.Window.ofSpec (Memref.whole main_v321) S1x64.size cc35_transform_2 reads35_2 true true 1 stage35_2 sem35_2
    hrank35 hreads35_2 hinb35_2 nbuf35_2 (Memref.isWhole_whole _) hwx35_2 hstage35_2

abbrev win35 : Fin 3 → Pipeline.Window sig grid35 := fun | 0 => win35_0 | 1 => win35_1 | 2 => win35_2 | ⟨_ + 3, h⟩ => absurd h (Nat.not_lt.2 (Nat.le_add_left _ _))
abbrev spec35 : Fin 3 → Pipeline.WinSpec sig grid35.rank := fun w => (win35 w).toWinSpec

abbrev idle35 : Fin 3 → grid35.Coords → Bool := fun | 0 => fun _ => false | 1 => fun _ => false | 2 => fun i => !(k35_cond2 i == 1#1) | ⟨_ + 3, h⟩ => absurd h (Nat.not_lt.2 (Nat.le_add_left _ _))

abbrev win36_0 : Pipeline.Window sig grid36 :=
  Pipeline.Window.ofSpec (Memref.whole main_v318_0) S2000x64.size cc36_transform_0 reads36_0 false false 2 stage36_0 sem36_0
    hrank36 hreads36_0 hinb36_0 nbuf36_0 (Memref.isWhole_whole _) hwx36_0 hstage36_0

abbrev win36_1 : Pipeline.Window sig grid36 :=
  Pipeline.Window.ofSpec (Memref.whole main_v320) S1x64.size cc36_transform_1 reads36_1 false true 1 stage36_1 sem36_1
    hrank36 hreads36_1 hinb36_1 nbuf36_1 (Memref.isWhole_whole _) hwx36_1 hstage36_1

abbrev win36_2 : Pipeline.Window sig grid36 :=
  Pipeline.Window.ofSpec (Memref.whole main_v323) S1x64.size cc36_transform_2 reads36_2 false true 1 stage36_2 sem36_2
    hrank36 hreads36_2 hinb36_2 nbuf36_2 (Memref.isWhole_whole _) hwx36_2 hstage36_2

abbrev win36_3 : Pipeline.Window sig grid36 :=
  Pipeline.Window.ofSpec (Memref.whole main_v324) S1x64.size cc36_transform_3 reads36_3 false true 1 stage36_3 sem36_3
    hrank36 hreads36_3 hinb36_3 nbuf36_3 (Memref.isWhole_whole _) hwx36_3 hstage36_3

abbrev win36_4 : Pipeline.Window sig grid36 :=
  Pipeline.Window.ofSpec (Memref.whole main_v325) S1x64.size cc36_transform_4 reads36_4 false true 1 stage36_4 sem36_4
    hrank36 hreads36_4 hinb36_4 nbuf36_4 (Memref.isWhole_whole _) hwx36_4 hstage36_4

abbrev win36_5 : Pipeline.Window sig grid36 :=
  Pipeline.Window.ofSpec (Memref.whole main_v326) S2000x64.size cc36_transform_5 reads36_5 true false 2 stage36_5 sem36_5
    hrank36 hreads36_5 hinb36_5 nbuf36_5 (Memref.isWhole_whole _) hwx36_5 hstage36_5

abbrev win36 : Fin 6 → Pipeline.Window sig grid36 := fun | 0 => win36_0 | 1 => win36_1 | 2 => win36_2 | 3 => win36_3 | 4 => win36_4 | 5 => win36_5 | ⟨_ + 6, h⟩ => absurd h (Nat.not_lt.2 (Nat.le_add_left _ _))
abbrev spec36 : Fin 6 → Pipeline.WinSpec sig grid36.rank := fun w => (win36 w).toWinSpec

abbrev win37_0 : Pipeline.Window sig grid37 :=
  Pipeline.Window.ofSpec (Memref.whole main_v326) S2000x64.size cc37_transform_0 reads37_0 false false 2 stage37_0 sem37_0
    hrank37 hreads37_0 hinb37_0 nbuf37_0 (Memref.isWhole_whole _) hwx37_0 hstage37_0

abbrev win37_1 : Pipeline.Window sig grid37 :=
  Pipeline.Window.ofSpec (Memref.whole main_v327) S64x64.size cc37_transform_1 reads37_1 false true 1 stage37_1 sem37_1
    hrank37 hreads37_1 hinb37_1 nbuf37_1 (Memref.isWhole_whole _) hwx37_1 hstage37_1

abbrev win37_2 : Pipeline.Window sig grid37 :=
  Pipeline.Window.ofSpec (Memref.whole main_v328) S2000x64.size cc37_transform_2 reads37_2 true false 2 stage37_2 sem37_2
    hrank37 hreads37_2 hinb37_2 nbuf37_2 (Memref.isWhole_whole _) hwx37_2 hstage37_2

abbrev win37 : Fin 3 → Pipeline.Window sig grid37 := fun | 0 => win37_0 | 1 => win37_1 | 2 => win37_2 | ⟨_ + 3, h⟩ => absurd h (Nat.not_lt.2 (Nat.le_add_left _ _))
abbrev spec37 : Fin 3 → Pipeline.WinSpec sig grid37.rank := fun w => (win37 w).toWinSpec

abbrev win38_0 : Pipeline.Window sig grid38 :=
  Pipeline.Window.ofSpec (Memref.whole main_v341) S2000x64.size cc38_transform_0 reads38_0 false false 2 stage38_0 sem38_0
    hrank38 hreads38_0 hinb38_0 nbuf38_0 (Memref.isWhole_whole _) hwx38_0 hstage38_0

abbrev win38_1 : Pipeline.Window sig grid38 :=
  Pipeline.Window.ofSpec (Memref.whole main_v342) S1x64.size cc38_transform_1 reads38_1 false true 1 stage38_1 sem38_1
    hrank38 hreads38_1 hinb38_1 nbuf38_1 (Memref.isWhole_whole _) hwx38_1 hstage38_1

abbrev win38_2 : Pipeline.Window sig grid38 :=
  Pipeline.Window.ofSpec (Memref.whole main_v318_1) S2000x64.size cc38_transform_2 reads38_2 false false 2 stage38_2 sem38_2
    hrank38 hreads38_2 hinb38_2 nbuf38_2 (Memref.isWhole_whole _) hwx38_2 hstage38_2

abbrev win38_3 : Pipeline.Window sig grid38 :=
  Pipeline.Window.ofSpec (Memref.whole main_v343_0) S2000x64.size cc38_transform_3 reads38_3 true false 2 stage38_3 sem38_3
    hrank38 hreads38_3 hinb38_3 nbuf38_3 (Memref.isWhole_whole _) hwx38_3 hstage38_3

abbrev win38_4 : Pipeline.Window sig grid38 :=
  Pipeline.Window.ofSpec (Memref.whole main_v343_1) S2000x64.size cc38_transform_4 reads38_4 true false 2 stage38_4 sem38_4
    hrank38 hreads38_4 hinb38_4 nbuf38_4 (Memref.isWhole_whole _) hwx38_4 hstage38_4

abbrev win38_5 : Pipeline.Window sig grid38 :=
  Pipeline.Window.ofSpec (Memref.whole main_v343_2) S1x64.size cc38_transform_5 reads38_5 true true 1 stage38_5 sem38_5
    hrank38 hreads38_5 hinb38_5 nbuf38_5 (Memref.isWhole_whole _) hwx38_5 hstage38_5

abbrev win38 : Fin 6 → Pipeline.Window sig grid38 := fun | 0 => win38_0 | 1 => win38_1 | 2 => win38_2 | 3 => win38_3 | 4 => win38_4 | 5 => win38_5 | ⟨_ + 6, h⟩ => absurd h (Nat.not_lt.2 (Nat.le_add_left _ _))
abbrev spec38 : Fin 6 → Pipeline.WinSpec sig grid38.rank := fun w => (win38 w).toWinSpec

abbrev idle38 : Fin 6 → grid38.Coords → Bool := fun | 0 => fun _ => false | 1 => fun _ => false | 2 => fun _ => false | 3 => fun _ => false | 4 => fun _ => false | 5 => fun i => !(k38_cond2 i == 1#1) | ⟨_ + 6, h⟩ => absurd h (Nat.not_lt.2 (Nat.le_add_left _ _))

abbrev win39_0 : Pipeline.Window sig grid39 :=
  Pipeline.Window.ofSpec (Memref.whole main_v343_0) S2000x64.size cc39_transform_0 reads39_0 false false 2 stage39_0 sem39_0
    hrank39 hreads39_0 hinb39_0 nbuf39_0 (Memref.isWhole_whole _) hwx39_0 hstage39_0

abbrev win39_1 : Pipeline.Window sig grid39 :=
  Pipeline.Window.ofSpec (Memref.whole main_v345) S1x64.size cc39_transform_1 reads39_1 false true 1 stage39_1 sem39_1
    hrank39 hreads39_1 hinb39_1 nbuf39_1 (Memref.isWhole_whole _) hwx39_1 hstage39_1

abbrev win39_2 : Pipeline.Window sig grid39 :=
  Pipeline.Window.ofSpec (Memref.whole main_v346) S1x64.size cc39_transform_2 reads39_2 true true 1 stage39_2 sem39_2
    hrank39 hreads39_2 hinb39_2 nbuf39_2 (Memref.isWhole_whole _) hwx39_2 hstage39_2

abbrev win39 : Fin 3 → Pipeline.Window sig grid39 := fun | 0 => win39_0 | 1 => win39_1 | 2 => win39_2 | ⟨_ + 3, h⟩ => absurd h (Nat.not_lt.2 (Nat.le_add_left _ _))
abbrev spec39 : Fin 3 → Pipeline.WinSpec sig grid39.rank := fun w => (win39 w).toWinSpec

abbrev idle39 : Fin 3 → grid39.Coords → Bool := fun | 0 => fun _ => false | 1 => fun _ => false | 2 => fun i => !(k39_cond2 i == 1#1) | ⟨_ + 3, h⟩ => absurd h (Nat.not_lt.2 (Nat.le_add_left _ _))

abbrev win40_0 : Pipeline.Window sig grid40 :=
  Pipeline.Window.ofSpec (Memref.whole main_v343_0) S2000x64.size cc40_transform_0 reads40_0 false false 2 stage40_0 sem40_0
    hrank40 hreads40_0 hinb40_0 nbuf40_0 (Memref.isWhole_whole _) hwx40_0 hstage40_0

abbrev win40_1 : Pipeline.Window sig grid40 :=
  Pipeline.Window.ofSpec (Memref.whole main_v345) S1x64.size cc40_transform_1 reads40_1 false true 1 stage40_1 sem40_1
    hrank40 hreads40_1 hinb40_1 nbuf40_1 (Memref.isWhole_whole _) hwx40_1 hstage40_1

abbrev win40_2 : Pipeline.Window sig grid40 :=
  Pipeline.Window.ofSpec (Memref.whole main_v348) S1x64.size cc40_transform_2 reads40_2 false true 1 stage40_2 sem40_2
    hrank40 hreads40_2 hinb40_2 nbuf40_2 (Memref.isWhole_whole _) hwx40_2 hstage40_2

abbrev win40_3 : Pipeline.Window sig grid40 :=
  Pipeline.Window.ofSpec (Memref.whole main_v349) S1x64.size cc40_transform_3 reads40_3 false true 1 stage40_3 sem40_3
    hrank40 hreads40_3 hinb40_3 nbuf40_3 (Memref.isWhole_whole _) hwx40_3 hstage40_3

abbrev win40_4 : Pipeline.Window sig grid40 :=
  Pipeline.Window.ofSpec (Memref.whole main_v350) S1x64.size cc40_transform_4 reads40_4 false true 1 stage40_4 sem40_4
    hrank40 hreads40_4 hinb40_4 nbuf40_4 (Memref.isWhole_whole _) hwx40_4 hstage40_4

abbrev win40_5 : Pipeline.Window sig grid40 :=
  Pipeline.Window.ofSpec (Memref.whole main_v351) S2000x64.size cc40_transform_5 reads40_5 true false 2 stage40_5 sem40_5
    hrank40 hreads40_5 hinb40_5 nbuf40_5 (Memref.isWhole_whole _) hwx40_5 hstage40_5

abbrev win40 : Fin 6 → Pipeline.Window sig grid40 := fun | 0 => win40_0 | 1 => win40_1 | 2 => win40_2 | 3 => win40_3 | 4 => win40_4 | 5 => win40_5 | ⟨_ + 6, h⟩ => absurd h (Nat.not_lt.2 (Nat.le_add_left _ _))
abbrev spec40 : Fin 6 → Pipeline.WinSpec sig grid40.rank := fun w => (win40 w).toWinSpec

abbrev win41_0 : Pipeline.Window sig grid41 :=
  Pipeline.Window.ofSpec (Memref.whole main_v351) S2000x64.size cc41_transform_0 reads41_0 false false 2 stage41_0 sem41_0
    hrank41 hreads41_0 hinb41_0 nbuf41_0 (Memref.isWhole_whole _) hwx41_0 hstage41_0

abbrev win41_1 : Pipeline.Window sig grid41 :=
  Pipeline.Window.ofSpec (Memref.whole main_v352) S64x64.size cc41_transform_1 reads41_1 false true 1 stage41_1 sem41_1
    hrank41 hreads41_1 hinb41_1 nbuf41_1 (Memref.isWhole_whole _) hwx41_1 hstage41_1

abbrev win41_2 : Pipeline.Window sig grid41 :=
  Pipeline.Window.ofSpec (Memref.whole main_v353) S2000x64.size cc41_transform_2 reads41_2 true false 2 stage41_2 sem41_2
    hrank41 hreads41_2 hinb41_2 nbuf41_2 (Memref.isWhole_whole _) hwx41_2 hstage41_2

abbrev win41 : Fin 3 → Pipeline.Window sig grid41 := fun | 0 => win41_0 | 1 => win41_1 | 2 => win41_2 | ⟨_ + 3, h⟩ => absurd h (Nat.not_lt.2 (Nat.le_add_left _ _))
abbrev spec41 : Fin 3 → Pipeline.WinSpec sig grid41.rank := fun w => (win41 w).toWinSpec

abbrev win42_0 : Pipeline.Window sig grid42 :=
  Pipeline.Window.ofSpec (Memref.whole main_v366) S2000x64.size cc42_transform_0 reads42_0 false false 2 stage42_0 sem42_0
    hrank42 hreads42_0 hinb42_0 nbuf42_0 (Memref.isWhole_whole _) hwx42_0 hstage42_0

abbrev win42_1 : Pipeline.Window sig grid42 :=
  Pipeline.Window.ofSpec (Memref.whole main_v367) S1x64.size cc42_transform_1 reads42_1 false true 1 stage42_1 sem42_1
    hrank42 hreads42_1 hinb42_1 nbuf42_1 (Memref.isWhole_whole _) hwx42_1 hstage42_1

abbrev win42_2 : Pipeline.Window sig grid42 :=
  Pipeline.Window.ofSpec (Memref.whole main_v343_1) S2000x64.size cc42_transform_2 reads42_2 false false 2 stage42_2 sem42_2
    hrank42 hreads42_2 hinb42_2 nbuf42_2 (Memref.isWhole_whole _) hwx42_2 hstage42_2

abbrev win42_3 : Pipeline.Window sig grid42 :=
  Pipeline.Window.ofSpec (Memref.whole main_v368_0) S2000x64.size cc42_transform_3 reads42_3 true false 2 stage42_3 sem42_3
    hrank42 hreads42_3 hinb42_3 nbuf42_3 (Memref.isWhole_whole _) hwx42_3 hstage42_3

abbrev win42_4 : Pipeline.Window sig grid42 :=
  Pipeline.Window.ofSpec (Memref.whole main_v368_1) S2000x64.size cc42_transform_4 reads42_4 true false 2 stage42_4 sem42_4
    hrank42 hreads42_4 hinb42_4 nbuf42_4 (Memref.isWhole_whole _) hwx42_4 hstage42_4

abbrev win42_5 : Pipeline.Window sig grid42 :=
  Pipeline.Window.ofSpec (Memref.whole main_v368_2) S1x64.size cc42_transform_5 reads42_5 true true 1 stage42_5 sem42_5
    hrank42 hreads42_5 hinb42_5 nbuf42_5 (Memref.isWhole_whole _) hwx42_5 hstage42_5

abbrev win42 : Fin 6 → Pipeline.Window sig grid42 := fun | 0 => win42_0 | 1 => win42_1 | 2 => win42_2 | 3 => win42_3 | 4 => win42_4 | 5 => win42_5 | ⟨_ + 6, h⟩ => absurd h (Nat.not_lt.2 (Nat.le_add_left _ _))
abbrev spec42 : Fin 6 → Pipeline.WinSpec sig grid42.rank := fun w => (win42 w).toWinSpec

abbrev idle42 : Fin 6 → grid42.Coords → Bool := fun | 0 => fun _ => false | 1 => fun _ => false | 2 => fun _ => false | 3 => fun _ => false | 4 => fun _ => false | 5 => fun i => !(k42_cond2 i == 1#1) | ⟨_ + 6, h⟩ => absurd h (Nat.not_lt.2 (Nat.le_add_left _ _))

abbrev win43_0 : Pipeline.Window sig grid43 :=
  Pipeline.Window.ofSpec (Memref.whole main_v368_0) S2000x64.size cc43_transform_0 reads43_0 false false 2 stage43_0 sem43_0
    hrank43 hreads43_0 hinb43_0 nbuf43_0 (Memref.isWhole_whole _) hwx43_0 hstage43_0

abbrev win43_1 : Pipeline.Window sig grid43 :=
  Pipeline.Window.ofSpec (Memref.whole main_v370) S1x64.size cc43_transform_1 reads43_1 false true 1 stage43_1 sem43_1
    hrank43 hreads43_1 hinb43_1 nbuf43_1 (Memref.isWhole_whole _) hwx43_1 hstage43_1

abbrev win43_2 : Pipeline.Window sig grid43 :=
  Pipeline.Window.ofSpec (Memref.whole main_v371) S1x64.size cc43_transform_2 reads43_2 true true 1 stage43_2 sem43_2
    hrank43 hreads43_2 hinb43_2 nbuf43_2 (Memref.isWhole_whole _) hwx43_2 hstage43_2

abbrev win43 : Fin 3 → Pipeline.Window sig grid43 := fun | 0 => win43_0 | 1 => win43_1 | 2 => win43_2 | ⟨_ + 3, h⟩ => absurd h (Nat.not_lt.2 (Nat.le_add_left _ _))
abbrev spec43 : Fin 3 → Pipeline.WinSpec sig grid43.rank := fun w => (win43 w).toWinSpec

abbrev idle43 : Fin 3 → grid43.Coords → Bool := fun | 0 => fun _ => false | 1 => fun _ => false | 2 => fun i => !(k43_cond2 i == 1#1) | ⟨_ + 3, h⟩ => absurd h (Nat.not_lt.2 (Nat.le_add_left _ _))

abbrev win44_0 : Pipeline.Window sig grid44 :=
  Pipeline.Window.ofSpec (Memref.whole main_v368_0) S2000x64.size cc44_transform_0 reads44_0 false false 2 stage44_0 sem44_0
    hrank44 hreads44_0 hinb44_0 nbuf44_0 (Memref.isWhole_whole _) hwx44_0 hstage44_0

abbrev win44_1 : Pipeline.Window sig grid44 :=
  Pipeline.Window.ofSpec (Memref.whole main_v370) S1x64.size cc44_transform_1 reads44_1 false true 1 stage44_1 sem44_1
    hrank44 hreads44_1 hinb44_1 nbuf44_1 (Memref.isWhole_whole _) hwx44_1 hstage44_1

abbrev win44_2 : Pipeline.Window sig grid44 :=
  Pipeline.Window.ofSpec (Memref.whole main_v373) S1x64.size cc44_transform_2 reads44_2 false true 1 stage44_2 sem44_2
    hrank44 hreads44_2 hinb44_2 nbuf44_2 (Memref.isWhole_whole _) hwx44_2 hstage44_2

abbrev win44_3 : Pipeline.Window sig grid44 :=
  Pipeline.Window.ofSpec (Memref.whole main_v374) S1x64.size cc44_transform_3 reads44_3 false true 1 stage44_3 sem44_3
    hrank44 hreads44_3 hinb44_3 nbuf44_3 (Memref.isWhole_whole _) hwx44_3 hstage44_3

abbrev win44_4 : Pipeline.Window sig grid44 :=
  Pipeline.Window.ofSpec (Memref.whole main_v375) S1x64.size cc44_transform_4 reads44_4 false true 1 stage44_4 sem44_4
    hrank44 hreads44_4 hinb44_4 nbuf44_4 (Memref.isWhole_whole _) hwx44_4 hstage44_4

abbrev win44_5 : Pipeline.Window sig grid44 :=
  Pipeline.Window.ofSpec (Memref.whole main_v376) S2000x64.size cc44_transform_5 reads44_5 true false 2 stage44_5 sem44_5
    hrank44 hreads44_5 hinb44_5 nbuf44_5 (Memref.isWhole_whole _) hwx44_5 hstage44_5

abbrev win44 : Fin 6 → Pipeline.Window sig grid44 := fun | 0 => win44_0 | 1 => win44_1 | 2 => win44_2 | 3 => win44_3 | 4 => win44_4 | 5 => win44_5 | ⟨_ + 6, h⟩ => absurd h (Nat.not_lt.2 (Nat.le_add_left _ _))
abbrev spec44 : Fin 6 → Pipeline.WinSpec sig grid44.rank := fun w => (win44 w).toWinSpec

abbrev win45_0 : Pipeline.Window sig grid45 :=
  Pipeline.Window.ofSpec (Memref.whole main_v376) S2000x64.size cc45_transform_0 reads45_0 false false 2 stage45_0 sem45_0
    hrank45 hreads45_0 hinb45_0 nbuf45_0 (Memref.isWhole_whole _) hwx45_0 hstage45_0

abbrev win45_1 : Pipeline.Window sig grid45 :=
  Pipeline.Window.ofSpec (Memref.whole main_v377) S64x32.size cc45_transform_1 reads45_1 false true 1 stage45_1 sem45_1
    hrank45 hreads45_1 hinb45_1 nbuf45_1 (Memref.isWhole_whole _) hwx45_1 hstage45_1

abbrev win45_2 : Pipeline.Window sig grid45 :=
  Pipeline.Window.ofSpec (Memref.whole main_v378) S2000x32.size cc45_transform_2 reads45_2 true false 2 stage45_2 sem45_2
    hrank45 hreads45_2 hinb45_2 nbuf45_2 (Memref.isWhole_whole _) hwx45_2 hstage45_2

abbrev win45 : Fin 3 → Pipeline.Window sig grid45 := fun | 0 => win45_0 | 1 => win45_1 | 2 => win45_2 | ⟨_ + 3, h⟩ => absurd h (Nat.not_lt.2 (Nat.le_add_left _ _))
abbrev spec45 : Fin 3 → Pipeline.WinSpec sig grid45.rank := fun w => (win45 w).toWinSpec

abbrev win46_0 : Pipeline.Window sig grid46 :=
  Pipeline.Window.ofSpec (Memref.whole main_v391) S2000x32.size cc46_transform_0 reads46_0 false false 2 stage46_0 sem46_0
    hrank46 hreads46_0 hinb46_0 nbuf46_0 (Memref.isWhole_whole _) hwx46_0 hstage46_0

abbrev win46_1 : Pipeline.Window sig grid46 :=
  Pipeline.Window.ofSpec (Memref.whole main_v392) S1x32.size cc46_transform_1 reads46_1 false true 1 stage46_1 sem46_1
    hrank46 hreads46_1 hinb46_1 nbuf46_1 (Memref.isWhole_whole _) hwx46_1 hstage46_1

abbrev win46_2 : Pipeline.Window sig grid46 :=
  Pipeline.Window.ofSpec (Memref.whole main_v393_0) S2000x32.size cc46_transform_2 reads46_2 true false 2 stage46_2 sem46_2
    hrank46 hreads46_2 hinb46_2 nbuf46_2 (Memref.isWhole_whole _) hwx46_2 hstage46_2

abbrev win46_3 : Pipeline.Window sig grid46 :=
  Pipeline.Window.ofSpec (Memref.whole main_v393_1) S1x32.size cc46_transform_3 reads46_3 true true 1 stage46_3 sem46_3
    hrank46 hreads46_3 hinb46_3 nbuf46_3 (Memref.isWhole_whole _) hwx46_3 hstage46_3

abbrev win46 : Fin 4 → Pipeline.Window sig grid46 := fun | 0 => win46_0 | 1 => win46_1 | 2 => win46_2 | 3 => win46_3 | ⟨_ + 4, h⟩ => absurd h (Nat.not_lt.2 (Nat.le_add_left _ _))
abbrev spec46 : Fin 4 → Pipeline.WinSpec sig grid46.rank := fun w => (win46 w).toWinSpec

abbrev idle46 : Fin 4 → grid46.Coords → Bool := fun | 0 => fun _ => false | 1 => fun _ => false | 2 => fun _ => false | 3 => fun i => !(k46_cond2 i == 1#1) | ⟨_ + 4, h⟩ => absurd h (Nat.not_lt.2 (Nat.le_add_left _ _))

abbrev win47_0 : Pipeline.Window sig grid47 :=
  Pipeline.Window.ofSpec (Memref.whole main_v393_0) S2000x32.size cc47_transform_0 reads47_0 false false 2 stage47_0 sem47_0
    hrank47 hreads47_0 hinb47_0 nbuf47_0 (Memref.isWhole_whole _) hwx47_0 hstage47_0

abbrev win47_1 : Pipeline.Window sig grid47 :=
  Pipeline.Window.ofSpec (Memref.whole main_v395) S1x32.size cc47_transform_1 reads47_1 false true 1 stage47_1 sem47_1
    hrank47 hreads47_1 hinb47_1 nbuf47_1 (Memref.isWhole_whole _) hwx47_1 hstage47_1

abbrev win47_2 : Pipeline.Window sig grid47 :=
  Pipeline.Window.ofSpec (Memref.whole main_v396) S1x32.size cc47_transform_2 reads47_2 true true 1 stage47_2 sem47_2
    hrank47 hreads47_2 hinb47_2 nbuf47_2 (Memref.isWhole_whole _) hwx47_2 hstage47_2

abbrev win47 : Fin 3 → Pipeline.Window sig grid47 := fun | 0 => win47_0 | 1 => win47_1 | 2 => win47_2 | ⟨_ + 3, h⟩ => absurd h (Nat.not_lt.2 (Nat.le_add_left _ _))
abbrev spec47 : Fin 3 → Pipeline.WinSpec sig grid47.rank := fun w => (win47 w).toWinSpec

abbrev idle47 : Fin 3 → grid47.Coords → Bool := fun | 0 => fun _ => false | 1 => fun _ => false | 2 => fun i => !(k47_cond2 i == 1#1) | ⟨_ + 3, h⟩ => absurd h (Nat.not_lt.2 (Nat.le_add_left _ _))

abbrev win48_0 : Pipeline.Window sig grid48 :=
  Pipeline.Window.ofSpec (Memref.whole main_v393_0) S2000x32.size cc48_transform_0 reads48_0 false false 2 stage48_0 sem48_0
    hrank48 hreads48_0 hinb48_0 nbuf48_0 (Memref.isWhole_whole _) hwx48_0 hstage48_0

abbrev win48_1 : Pipeline.Window sig grid48 :=
  Pipeline.Window.ofSpec (Memref.whole main_v395) S1x32.size cc48_transform_1 reads48_1 false true 1 stage48_1 sem48_1
    hrank48 hreads48_1 hinb48_1 nbuf48_1 (Memref.isWhole_whole _) hwx48_1 hstage48_1

abbrev win48_2 : Pipeline.Window sig grid48 :=
  Pipeline.Window.ofSpec (Memref.whole main_v398) S1x32.size cc48_transform_2 reads48_2 false true 1 stage48_2 sem48_2
    hrank48 hreads48_2 hinb48_2 nbuf48_2 (Memref.isWhole_whole _) hwx48_2 hstage48_2

abbrev win48_3 : Pipeline.Window sig grid48 :=
  Pipeline.Window.ofSpec (Memref.whole main_v399) S1x32.size cc48_transform_3 reads48_3 false true 1 stage48_3 sem48_3
    hrank48 hreads48_3 hinb48_3 nbuf48_3 (Memref.isWhole_whole _) hwx48_3 hstage48_3

abbrev win48_4 : Pipeline.Window sig grid48 :=
  Pipeline.Window.ofSpec (Memref.whole main_v400) S1x32.size cc48_transform_4 reads48_4 false true 1 stage48_4 sem48_4
    hrank48 hreads48_4 hinb48_4 nbuf48_4 (Memref.isWhole_whole _) hwx48_4 hstage48_4

abbrev win48_5 : Pipeline.Window sig grid48 :=
  Pipeline.Window.ofSpec (Memref.whole main_arg26) S32x1.size cc48_transform_5 reads48_5 false true 1 stage48_5 sem48_5
    hrank48 hreads48_5 hinb48_5 nbuf48_5 (Memref.isWhole_whole _) hwx48_5 hstage48_5

abbrev win48_6 : Pipeline.Window sig grid48 :=
  Pipeline.Window.ofSpec (Memref.whole main_v401) S2000x1.size cc48_transform_6 reads48_6 true false 2 stage48_6 sem48_6
    hrank48 hreads48_6 hinb48_6 nbuf48_6 (Memref.isWhole_whole _) hwx48_6 hstage48_6

abbrev win48 : Fin 7 → Pipeline.Window sig grid48 := fun | 0 => win48_0 | 1 => win48_1 | 2 => win48_2 | 3 => win48_3 | 4 => win48_4 | 5 => win48_5 | 6 => win48_6 | ⟨_ + 7, h⟩ => absurd h (Nat.not_lt.2 (Nat.le_add_left _ _))
abbrev spec48 : Fin 7 → Pipeline.WinSpec sig grid48.rank := fun w => (win48 w).toWinSpec

class Facts : Prop extends Facts₀ where

variable [Facts]
-- ==== ReferenceIdeal.lean ====
abbrev S50000x22 : Shape := ⟨2, ![50000, 22]⟩
abbrev S2x640000 : Shape := ⟨2, ![2, 640000]⟩
abbrev S640000 : Shape := ⟨1, ![640000]⟩
abbrev S2x1024 : Shape := ⟨2, ![2, 1024]⟩
abbrev S18x4 : Shape := ⟨2, ![18, 4]⟩
abbrev S4 : Shape := ⟨1, ![4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S64x128 : Shape := ⟨2, ![64, 128]⟩
abbrev S8x64x64 : Shape := ⟨3, ![8, 64, 64]⟩
abbrev S8x64 : Shape := ⟨2, ![8, 64]⟩
abbrev S32x64 : Shape := ⟨2, ![32, 64]⟩
abbrev S32 : Shape := ⟨1, ![32]⟩
abbrev S32x1 : Shape := ⟨2, ![32, 1]⟩
abbrev S1x640000 : Shape := ⟨2, ![1, 640000]⟩
abbrev S50000 : Shape := ⟨1, ![50000]⟩
abbrev S690000 : Shape := ⟨1, ![690000]⟩
abbrev S_ : Shape := ⟨0, ![]⟩
abbrev S690000x1 : Shape := ⟨2, ![690000, 1]⟩
abbrev S50000x4 : Shape := ⟨2, ![50000, 4]⟩
abbrev S50000x18 : Shape := ⟨2, ![50000, 18]⟩
abbrev S1x4 : Shape := ⟨2, ![1, 4]⟩
abbrev S1x64x64 : Shape := ⟨3, ![1, 64, 64]⟩
abbrev S64x64 : Shape := ⟨2, ![64, 64]⟩
abbrev S1x64 : Shape := ⟨2, ![1, 64]⟩
abbrev S4x64 : Shape := ⟨2, ![4, 64]⟩
abbrev S50000x64 : Shape := ⟨2, ![50000, 64]⟩
abbrev S690000x64 : Shape := ⟨2, ![690000, 64]⟩
abbrev S50000x1 : Shape := ⟨2, ![50000, 1]⟩
abbrev S50000x128 : Shape := ⟨2, ![50000, 128]⟩
abbrev S690000x128 : Shape := ⟨2, ![690000, 128]⟩
abbrev S1x128 : Shape := ⟨2, ![1, 128]⟩
abbrev S64x32 : Shape := ⟨2, ![64, 32]⟩
abbrev S50000x32 : Shape := ⟨2, ![50000, 32]⟩
abbrev S690000x32 : Shape := ⟨2, ![690000, 32]⟩
abbrev S1x32 : Shape := ⟨2, ![1, 32]⟩

abbrev nBuf : Space → Nat
  | .hbm => 1129
  | .vmem => 0
  | .smem => 0
  | _ => 0

abbrev hbmTy0_0 (i : Nat) : BufTy := match i % 128 with
  | 0 => ⟨S50000x22, .f32⟩
  | 1 => ⟨S2x640000, .i32⟩
  | 2 => ⟨S640000, .f32⟩
  | 3 => ⟨S2x1024, .i32⟩
  | 4 => ⟨S18x4, .f32⟩
  | 5 => ⟨S4, .f32⟩
  | 6 => ⟨S64x4, .f32⟩
  | 7 => ⟨S64, .f32⟩
  | 8 => ⟨S128x64, .f32⟩
  | 9 => ⟨S128, .f32⟩
  | 10 => ⟨S64x128, .f32⟩
  | 11 => ⟨S64, .f32⟩
  | 12 => ⟨S8x64x64, .f32⟩
  | 13 => ⟨S8x64, .f32⟩
  | 14 => ⟨S32x64, .f32⟩
  | 15 => ⟨S32, .f32⟩
  | 16 => ⟨S64, .f32⟩
  | 17 => ⟨S64, .f32⟩
  | 18 => ⟨S128, .f32⟩
  | 19 => ⟨S128, .f32⟩
  | 20 => ⟨S64, .f32⟩
  | 21 => ⟨S64, .f32⟩
  | 22 => ⟨S8x64, .f32⟩
  | 23 => ⟨S8x64, .f32⟩
  | 24 => ⟨S32, .f32⟩
  | 25 => ⟨S32, .f32⟩
  | 26 => ⟨S32x1, .f32⟩
  | 27 => ⟨S1x640000, .i32⟩
  | 28 => ⟨S640000, .i32⟩
  | 29 => ⟨S1x640000, .i32⟩
  | 30 => ⟨S640000, .i32⟩
  | 31 => ⟨S50000, .i32⟩
  | 32 => ⟨S690000, .i32⟩
  | 33 => ⟨S690000, .i32⟩
  | 34 => ⟨S_, .f32⟩
  | 35 => ⟨S50000, .f32⟩
  | 36 => ⟨S690000, .f32⟩
  | 37 => ⟨S_, .f32⟩
  | 38 => ⟨S50000, .f32⟩
  | 39 => ⟨S690000x1, .i32⟩
  | 40 => ⟨S50000, .f32⟩
  | 41 => ⟨S_, .f32⟩
  | 42 => ⟨S50000, .f32⟩
  | 43 => ⟨S50000, .i1⟩
  | 44 => ⟨S_, .f32⟩
  | 45 => ⟨S50000, .f32⟩
  | 46 => ⟨S50000, .f32⟩
  | 47 => ⟨S50000, .f32⟩
  | 48 => ⟨S_, .f32⟩
  | 49 => ⟨S_, .f32⟩
  | 50 => ⟨S50000, .f32⟩
  | 51 => ⟨S50000, .f32⟩
  | 52 => ⟨S_, .i32⟩
  | 53 => ⟨S690000, .i32⟩
  | 54 => ⟨S690000, .i1⟩
  | 55 => ⟨S_, .i32⟩
  | 56 => ⟨S690000, .i32⟩
  | 57 => ⟨S690000, .i32⟩
  | 58 => ⟨S690000, .i32⟩
  | 59 => ⟨S690000x1, .i32⟩
  | 60 => ⟨S690000, .f32⟩
  | 61 => ⟨S690000, .f32⟩
  | 62 => ⟨S_, .i32⟩
  | 63 => ⟨S690000, .i32⟩
  | 64 => ⟨S690000, .i1⟩
  | 65 => ⟨S_, .i32⟩
  | 66 => ⟨S690000, .i32⟩
  | 67 => ⟨S690000, .i32⟩
  | 68 => ⟨S690000, .i32⟩
  | 69 => ⟨S690000x1, .i32⟩
  | 70 => ⟨S690000, .f32⟩
  | 71 => ⟨S690000, .f32⟩
  | 72 => ⟨S50000x4, .f32⟩
  | 73 => ⟨S50000x18, .f32⟩
  | 74 => ⟨S50000x4, .f32⟩
  | 75 => ⟨S1x4, .f32⟩
  | 76 => ⟨S50000x4, .f32⟩
  | 77 => ⟨S50000x4, .f32⟩
  | 78 => ⟨S50000x4, .f32⟩
  | 79 => ⟨S1x64x64, .f32⟩
  | 80 => ⟨S64x64, .f32⟩
  | 81 => ⟨S1x64, .f32⟩
  | 82 => ⟨S64, .f32⟩
  | 83 => ⟨S1x64x64, .f32⟩
  | 84 => ⟨S64x64, .f32⟩
  | 85 => ⟨S1x64, .f32⟩
  | 86 => ⟨S64, .f32⟩
  | 87 => ⟨S1x64x64, .f32⟩
  | 88 => ⟨S64x64, .f32⟩
  | 89 => ⟨S1x64, .f32⟩
  | 90 => ⟨S64, .f32⟩
  | 91 => ⟨S1x64x64, .f32⟩
  | 92 => ⟨S64x64, .f32⟩
  | 93 => ⟨S1x64, .f32⟩
  | 94 => ⟨S64, .f32⟩
  | 95 => ⟨S1x64x64, .f32⟩
  | 96 => ⟨S64x64, .f32⟩
  | 97 => ⟨S1x64, .f32⟩
  | 98 => ⟨S64, .f32⟩
  | 99 => ⟨S1x64x64, .f32⟩
  | 100 => ⟨S64x64, .f32⟩
  | 101 => ⟨S1x64, .f32⟩
  | 102 => ⟨S64, .f32⟩
  | 103 => ⟨S1x64x64, .f32⟩
  | 104 => ⟨S64x64, .f32⟩
  | 105 => ⟨S1x64, .f32⟩
  | 106 => ⟨S64, .f32⟩
  | 107 => ⟨S1x64x64, .f32⟩
  | 108 => ⟨S64x64, .f32⟩
  | 109 => ⟨S1x64, .f32⟩
  | 110 => ⟨S64, .f32⟩
  | 111 => ⟨S1x64, .f32⟩
  | 112 => ⟨S64, .f32⟩
  | 113 => ⟨S1x64, .f32⟩
  | 114 => ⟨S64, .f32⟩
  | 115 => ⟨S1x64, .f32⟩
  | 116 => ⟨S64, .f32⟩
  | 117 => ⟨S1x64, .f32⟩
  | 118 => ⟨S64, .f32⟩
  | 119 => ⟨S1x64, .f32⟩
  | 120 => ⟨S64, .f32⟩
  | 121 => ⟨S1x64, .f32⟩
  | 122 => ⟨S64, .f32⟩
  | 123 => ⟨S1x64, .f32⟩
  | 124 => ⟨S64, .f32⟩
  | 125 => ⟨S1x64, .f32⟩
  | 126 => ⟨S64, .f32⟩
  | 127 => ⟨S1x64, .f32⟩
  | _ => ⟨S50000x22, .f32⟩

abbrev hbmTy0_1 (i : Nat) : BufTy := match i % 128 with
  | 0 => ⟨S64, .f32⟩
  | 1 => ⟨S1x64, .f32⟩
  | 2 => ⟨S64, .f32⟩
  | 3 => ⟨S1x64, .f32⟩
  | 4 => ⟨S64, .f32⟩
  | 5 => ⟨S1x64, .f32⟩
  | 6 => ⟨S64, .f32⟩
  | 7 => ⟨S1x64, .f32⟩
  | 8 => ⟨S64, .f32⟩
  | 9 => ⟨S1x64, .f32⟩
  | 10 => ⟨S64, .f32⟩
  | 11 => ⟨S1x64, .f32⟩
  | 12 => ⟨S64, .f32⟩
  | 13 => ⟨S1x64, .f32⟩
  | 14 => ⟨S64, .f32⟩
  | 15 => ⟨S4x64, .f32⟩
  | 16 => ⟨S50000x64, .f32⟩
  | 17 => ⟨S690000x1, .f32⟩
  | 18 => ⟨S_, .i32⟩
  | 19 => ⟨S690000, .i32⟩
  | 20 => ⟨S690000, .i1⟩
  | 21 => ⟨S_, .i32⟩
  | 22 => ⟨S690000, .i32⟩
  | 23 => ⟨S690000, .i32⟩
  | 24 => ⟨S690000, .i32⟩
  | 25 => ⟨S690000x1, .i32⟩
  | 26 => ⟨S690000x64, .f32⟩
  | 27 => ⟨S690000x64, .f32⟩
  | 28 => ⟨S690000x64, .f32⟩
  | 29 => ⟨S_, .f32⟩
  | 30 => ⟨S50000x64, .f32⟩
  | 31 => ⟨S690000x1, .i32⟩
  | 32 => ⟨S50000x64, .f32⟩
  | 33 => ⟨S1x64, .f32⟩
  | 34 => ⟨S50000x64, .f32⟩
  | 35 => ⟨S50000x64, .f32⟩
  | 36 => ⟨S_, .f32⟩
  | 37 => ⟨S64, .f32⟩
  | 38 => ⟨S_, .f32⟩
  | 39 => ⟨S64, .f32⟩
  | 40 => ⟨S64, .f32⟩
  | 41 => ⟨S_, .i32⟩
  | 42 => ⟨S_, .f32⟩
  | 43 => ⟨S64, .f32⟩
  | 44 => ⟨S1x64, .f32⟩
  | 45 => ⟨S_, .f32⟩
  | 46 => ⟨S1x64, .f32⟩
  | 47 => ⟨S1x64, .f32⟩
  | 48 => ⟨S50000x64, .f32⟩
  | 49 => ⟨S50000x64, .f32⟩
  | 50 => ⟨S50000x64, .f32⟩
  | 51 => ⟨S_, .f32⟩
  | 52 => ⟨S_, .f32⟩
  | 53 => ⟨S_, .f32⟩
  | 54 => ⟨S_, .f32⟩
  | 55 => ⟨S64, .f32⟩
  | 56 => ⟨S64, .f32⟩
  | 57 => ⟨S64, .f32⟩
  | 58 => ⟨S_, .f32⟩
  | 59 => ⟨S_, .i1⟩
  | 60 => ⟨S_, .f32⟩
  | 61 => ⟨S_, .f32⟩
  | 62 => ⟨S64, .f32⟩
  | 63 => ⟨S64, .f32⟩
  | 64 => ⟨S1x64, .f32⟩
  | 65 => ⟨S50000x64, .f32⟩
  | 66 => ⟨S50000x64, .f32⟩
  | 67 => ⟨S_, .f32⟩
  | 68 => ⟨S64, .f32⟩
  | 69 => ⟨S64, .f32⟩
  | 70 => ⟨S64, .f32⟩
  | 71 => ⟨S1x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S50000, .f32⟩
  | 82 => ⟨S50000x1, .f32⟩
  | 83 => ⟨S50000x64, .f32⟩
  | 84 => ⟨S50000x64, .f32⟩
  | 85 => ⟨S50000x64, .f32⟩
  | 86 => ⟨S_, .f32⟩
  | 87 => ⟨S50000, .f32⟩
  | 88 => ⟨S50000x1, .f32⟩
  | 89 => ⟨S_, .f32⟩
  | 90 => ⟨S50000x1, .f32⟩
  | 91 => ⟨S50000x1, .f32⟩
  | 92 => ⟨S50000x64, .f32⟩
  | 93 => ⟨S50000x64, .f32⟩
  | 94 => ⟨S64x128, .f32⟩
  | 95 => ⟨S50000x128, .f32⟩
  | 96 => ⟨S690000x1, .f32⟩
  | 97 => ⟨S_, .i32⟩
  | 98 => ⟨S690000, .i32⟩
  | 99 => ⟨S690000, .i1⟩
  | 100 => ⟨S_, .i32⟩
  | 101 => ⟨S690000, .i32⟩
  | 102 => ⟨S690000, .i32⟩
  | 103 => ⟨S690000, .i32⟩
  | 104 => ⟨S690000x1, .i32⟩
  | 105 => ⟨S690000x128, .f32⟩
  | 106 => ⟨S690000x128, .f32⟩
  | 107 => ⟨S690000x128, .f32⟩
  | 108 => ⟨S_, .f32⟩
  | 109 => ⟨S50000x128, .f32⟩
  | 110 => ⟨S690000x1, .i32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S128, .f32⟩
  | 117 => ⟨S_, .f32⟩
  | 118 => ⟨S128, .f32⟩
  | 119 => ⟨S128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S50000x128, .f32⟩
  | _ => ⟨S50000x22, .f32⟩

abbrev hbmTy0_2 (i : Nat) : BufTy := match i % 128 with
  | 0 => ⟨S50000x128, .f32⟩
  | 1 => ⟨S50000x128, .f32⟩
  | 2 => ⟨S_, .f32⟩
  | 3 => ⟨S_, .f32⟩
  | 4 => ⟨S_, .f32⟩
  | 5 => ⟨S_, .f32⟩
  | 6 => ⟨S128, .f32⟩
  | 7 => ⟨S128, .f32⟩
  | 8 => ⟨S128, .f32⟩
  | 9 => ⟨S_, .f32⟩
  | 10 => ⟨S_, .i1⟩
  | 11 => ⟨S_, .f32⟩
  | 12 => ⟨S_, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S_, .f32⟩
  | 19 => ⟨S128, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S50000, .f32⟩
  | 33 => ⟨S50000x1, .f32⟩
  | 34 => ⟨S50000x128, .f32⟩
  | 35 => ⟨S50000x128, .f32⟩
  | 36 => ⟨S50000x128, .f32⟩
  | 37 => ⟨S_, .f32⟩
  | 38 => ⟨S50000, .f32⟩
  | 39 => ⟨S50000x1, .f32⟩
  | 40 => ⟨S_, .f32⟩
  | 41 => ⟨S50000x1, .f32⟩
  | 42 => ⟨S50000x1, .f32⟩
  | 43 => ⟨S50000x128, .f32⟩
  | 44 => ⟨S50000x128, .f32⟩
  | 45 => ⟨S128x64, .f32⟩
  | 46 => ⟨S50000x64, .f32⟩
  | 47 => ⟨S690000x1, .f32⟩
  | 48 => ⟨S_, .i32⟩
  | 49 => ⟨S690000, .i32⟩
  | 50 => ⟨S690000, .i1⟩
  | 51 => ⟨S_, .i32⟩
  | 52 => ⟨S690000, .i32⟩
  | 53 => ⟨S690000, .i32⟩
  | 54 => ⟨S690000, .i32⟩
  | 55 => ⟨S690000x1, .i32⟩
  | 56 => ⟨S690000x64, .f32⟩
  | 57 => ⟨S690000x64, .f32⟩
  | 58 => ⟨S690000x64, .f32⟩
  | 59 => ⟨S_, .f32⟩
  | 60 => ⟨S50000x64, .f32⟩
  | 61 => ⟨S690000x1, .i32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S64, .f32⟩
  | 68 => ⟨S_, .f32⟩
  | 69 => ⟨S64, .f32⟩
  | 70 => ⟨S64, .f32⟩
  | 71 => ⟨S_, .i32⟩
  | 72 => ⟨S_, .f32⟩
  | 73 => ⟨S64, .f32⟩
  | 74 => ⟨S1x64, .f32⟩
  | 75 => ⟨S_, .f32⟩
  | 76 => ⟨S1x64, .f32⟩
  | 77 => ⟨S1x64, .f32⟩
  | 78 => ⟨S50000x64, .f32⟩
  | 79 => ⟨S50000x64, .f32⟩
  | 80 => ⟨S50000x64, .f32⟩
  | 81 => ⟨S_, .f32⟩
  | 82 => ⟨S_, .f32⟩
  | 83 => ⟨S_, .f32⟩
  | 84 => ⟨S_, .f32⟩
  | 85 => ⟨S64, .f32⟩
  | 86 => ⟨S64, .f32⟩
  | 87 => ⟨S64, .f32⟩
  | 88 => ⟨S_, .f32⟩
  | 89 => ⟨S_, .i1⟩
  | 90 => ⟨S_, .f32⟩
  | 91 => ⟨S_, .f32⟩
  | 92 => ⟨S64, .f32⟩
  | 93 => ⟨S64, .f32⟩
  | 94 => ⟨S1x64, .f32⟩
  | 95 => ⟨S50000x64, .f32⟩
  | 96 => ⟨S50000x64, .f32⟩
  | 97 => ⟨S_, .f32⟩
  | 98 => ⟨S64, .f32⟩
  | 99 => ⟨S64, .f32⟩
  | 100 => ⟨S64, .f32⟩
  | 101 => ⟨S1x64, .f32⟩
  | 102 => ⟨S50000x64, .f32⟩
  | 103 => ⟨S50000x64, .f32⟩
  | 104 => ⟨S1x64, .f32⟩
  | 105 => ⟨S50000x64, .f32⟩
  | 106 => ⟨S50000x64, .f32⟩
  | 107 => ⟨S1x64, .f32⟩
  | 108 => ⟨S50000x64, .f32⟩
  | 109 => ⟨S50000x64, .f32⟩
  | 110 => ⟨S_, .f32⟩
  | 111 => ⟨S50000, .f32⟩
  | 112 => ⟨S50000x1, .f32⟩
  | 113 => ⟨S50000x64, .f32⟩
  | 114 => ⟨S50000x64, .f32⟩
  | 115 => ⟨S50000x64, .f32⟩
  | 116 => ⟨S_, .f32⟩
  | 117 => ⟨S50000, .f32⟩
  | 118 => ⟨S50000x1, .f32⟩
  | 119 => ⟨S_, .f32⟩
  | 120 => ⟨S50000x1, .f32⟩
  | 121 => ⟨S50000x1, .f32⟩
  | 122 => ⟨S50000x64, .f32⟩
  | 123 => ⟨S50000x64, .f32⟩
  | 124 => ⟨S64x64, .f32⟩
  | 125 => ⟨S50000x64, .f32⟩
  | 126 => ⟨S690000x1, .f32⟩
  | 127 => ⟨S_, .i32⟩
  | _ => ⟨S50000x22, .f32⟩

abbrev hbmTy0_3 (i : Nat) : BufTy := match i % 128 with
  | 0 => ⟨S690000, .i32⟩
  | 1 => ⟨S690000, .i1⟩
  | 2 => ⟨S_, .i32⟩
  | 3 => ⟨S690000, .i32⟩
  | 4 => ⟨S690000, .i32⟩
  | 5 => ⟨S690000, .i32⟩
  | 6 => ⟨S690000x1, .i32⟩
  | 7 => ⟨S690000x64, .f32⟩
  | 8 => ⟨S690000x64, .f32⟩
  | 9 => ⟨S690000x64, .f32⟩
  | 10 => ⟨S_, .f32⟩
  | 11 => ⟨S50000x64, .f32⟩
  | 12 => ⟨S690000x1, .i32⟩
  | 13 => ⟨S50000x64, .f32⟩
  | 14 => ⟨S1x64, .f32⟩
  | 15 => ⟨S50000x64, .f32⟩
  | 16 => ⟨S50000x64, .f32⟩
  | 17 => ⟨S50000x64, .f32⟩
  | 18 => ⟨S_, .f32⟩
  | 19 => ⟨S64, .f32⟩
  | 20 => ⟨S_, .f32⟩
  | 21 => ⟨S64, .f32⟩
  | 22 => ⟨S64, .f32⟩
  | 23 => ⟨S_, .i32⟩
  | 24 => ⟨S_, .f32⟩
  | 25 => ⟨S64, .f32⟩
  | 26 => ⟨S1x64, .f32⟩
  | 27 => ⟨S_, .f32⟩
  | 28 => ⟨S1x64, .f32⟩
  | 29 => ⟨S1x64, .f32⟩
  | 30 => ⟨S50000x64, .f32⟩
  | 31 => ⟨S50000x64, .f32⟩
  | 32 => ⟨S50000x64, .f32⟩
  | 33 => ⟨S_, .f32⟩
  | 34 => ⟨S_, .f32⟩
  | 35 => ⟨S_, .f32⟩
  | 36 => ⟨S_, .f32⟩
  | 37 => ⟨S64, .f32⟩
  | 38 => ⟨S64, .f32⟩
  | 39 => ⟨S64, .f32⟩
  | 40 => ⟨S_, .f32⟩
  | 41 => ⟨S_, .i1⟩
  | 42 => ⟨S_, .f32⟩
  | 43 => ⟨S_, .f32⟩
  | 44 => ⟨S64, .f32⟩
  | 45 => ⟨S64, .f32⟩
  | 46 => ⟨S1x64, .f32⟩
  | 47 => ⟨S50000x64, .f32⟩
  | 48 => ⟨S50000x64, .f32⟩
  | 49 => ⟨S_, .f32⟩
  | 50 => ⟨S64, .f32⟩
  | 51 => ⟨S64, .f32⟩
  | 52 => ⟨S64, .f32⟩
  | 53 => ⟨S1x64, .f32⟩
  | 54 => ⟨S50000x64, .f32⟩
  | 55 => ⟨S50000x64, .f32⟩
  | 56 => ⟨S1x64, .f32⟩
  | 57 => ⟨S50000x64, .f32⟩
  | 58 => ⟨S50000x64, .f32⟩
  | 59 => ⟨S1x64, .f32⟩
  | 60 => ⟨S50000x64, .f32⟩
  | 61 => ⟨S50000x64, .f32⟩
  | 62 => ⟨S_, .f32⟩
  | 63 => ⟨S50000, .f32⟩
  | 64 => ⟨S50000x1, .f32⟩
  | 65 => ⟨S50000x64, .f32⟩
  | 66 => ⟨S50000x64, .f32⟩
  | 67 => ⟨S50000x64, .f32⟩
  | 68 => ⟨S_, .f32⟩
  | 69 => ⟨S50000, .f32⟩
  | 70 => ⟨S50000x1, .f32⟩
  | 71 => ⟨S_, .f32⟩
  | 72 => ⟨S50000x1, .f32⟩
  | 73 => ⟨S50000x1, .f32⟩
  | 74 => ⟨S50000x64, .f32⟩
  | 75 => ⟨S50000x64, .f32⟩
  | 76 => ⟨S64x64, .f32⟩
  | 77 => ⟨S50000x64, .f32⟩
  | 78 => ⟨S690000x1, .f32⟩
  | 79 => ⟨S_, .i32⟩
  | 80 => ⟨S690000, .i32⟩
  | 81 => ⟨S690000, .i1⟩
  | 82 => ⟨S_, .i32⟩
  | 83 => ⟨S690000, .i32⟩
  | 84 => ⟨S690000, .i32⟩
  | 85 => ⟨S690000, .i32⟩
  | 86 => ⟨S690000x1, .i32⟩
  | 87 => ⟨S690000x64, .f32⟩
  | 88 => ⟨S690000x64, .f32⟩
  | 89 => ⟨S690000x64, .f32⟩
  | 90 => ⟨S_, .f32⟩
  | 91 => ⟨S50000x64, .f32⟩
  | 92 => ⟨S690000x1, .i32⟩
  | 93 => ⟨S50000x64, .f32⟩
  | 94 => ⟨S1x64, .f32⟩
  | 95 => ⟨S50000x64, .f32⟩
  | 96 => ⟨S50000x64, .f32⟩
  | 97 => ⟨S50000x64, .f32⟩
  | 98 => ⟨S50000x64, .f32⟩
  | 99 => ⟨S_, .f32⟩
  | 100 => ⟨S64, .f32⟩
  | 101 => ⟨S_, .f32⟩
  | 102 => ⟨S64, .f32⟩
  | 103 => ⟨S64, .f32⟩
  | 104 => ⟨S_, .i32⟩
  | 105 => ⟨S_, .f32⟩
  | 106 => ⟨S64, .f32⟩
  | 107 => ⟨S1x64, .f32⟩
  | 108 => ⟨S_, .f32⟩
  | 109 => ⟨S1x64, .f32⟩
  | 110 => ⟨S1x64, .f32⟩
  | 111 => ⟨S50000x64, .f32⟩
  | 112 => ⟨S50000x64, .f32⟩
  | 113 => ⟨S50000x64, .f32⟩
  | 114 => ⟨S_, .f32⟩
  | 115 => ⟨S_, .f32⟩
  | 116 => ⟨S_, .f32⟩
  | 117 => ⟨S_, .f32⟩
  | 118 => ⟨S64, .f32⟩
  | 119 => ⟨S64, .f32⟩
  | 120 => ⟨S64, .f32⟩
  | 121 => ⟨S_, .f32⟩
  | 122 => ⟨S_, .i1⟩
  | 123 => ⟨S_, .f32⟩
  | 124 => ⟨S_, .f32⟩
  | 125 => ⟨S64, .f32⟩
  | 126 => ⟨S64, .f32⟩
  | 127 => ⟨S1x64, .f32⟩
  | _ => ⟨S50000x22, .f32⟩

abbrev hbmTy0_4 (i : Nat) : BufTy := match i % 128 with
  | 0 => ⟨S50000x64, .f32⟩
  | 1 => ⟨S50000x64, .f32⟩
  | 2 => ⟨S_, .f32⟩
  | 3 => ⟨S64, .f32⟩
  | 4 => ⟨S64, .f32⟩
  | 5 => ⟨S64, .f32⟩
  | 6 => ⟨S1x64, .f32⟩
  | 7 => ⟨S50000x64, .f32⟩
  | 8 => ⟨S50000x64, .f32⟩
  | 9 => ⟨S1x64, .f32⟩
  | 10 => ⟨S50000x64, .f32⟩
  | 11 => ⟨S50000x64, .f32⟩
  | 12 => ⟨S1x64, .f32⟩
  | 13 => ⟨S50000x64, .f32⟩
  | 14 => ⟨S50000x64, .f32⟩
  | 15 => ⟨S_, .f32⟩
  | 16 => ⟨S50000, .f32⟩
  | 17 => ⟨S50000x1, .f32⟩
  | 18 => ⟨S50000x64, .f32⟩
  | 19 => ⟨S50000x64, .f32⟩
  | 20 => ⟨S50000x64, .f32⟩
  | 21 => ⟨S_, .f32⟩
  | 22 => ⟨S50000, .f32⟩
  | 23 => ⟨S50000x1, .f32⟩
  | 24 => ⟨S_, .f32⟩
  | 25 => ⟨S50000x1, .f32⟩
  | 26 => ⟨S50000x1, .f32⟩
  | 27 => ⟨S50000x64, .f32⟩
  | 28 => ⟨S50000x64, .f32⟩
  | 29 => ⟨S64x64, .f32⟩
  | 30 => ⟨S50000x64, .f32⟩
  | 31 => ⟨S690000x1, .f32⟩
  | 32 => ⟨S_, .i32⟩
  | 33 => ⟨S690000, .i32⟩
  | 34 => ⟨S690000, .i1⟩
  | 35 => ⟨S_, .i32⟩
  | 36 => ⟨S690000, .i32⟩
  | 37 => ⟨S690000, .i32⟩
  | 38 => ⟨S690000, .i32⟩
  | 39 => ⟨S690000x1, .i32⟩
  | 40 => ⟨S690000x64, .f32⟩
  | 41 => ⟨S690000x64, .f32⟩
  | 42 => ⟨S690000x64, .f32⟩
  | 43 => ⟨S_, .f32⟩
  | 44 => ⟨S50000x64, .f32⟩
  | 45 => ⟨S690000x1, .i32⟩
  | 46 => ⟨S50000x64, .f32⟩
  | 47 => ⟨S1x64, .f32⟩
  | 48 => ⟨S50000x64, .f32⟩
  | 49 => ⟨S50000x64, .f32⟩
  | 50 => ⟨S50000x64, .f32⟩
  | 51 => ⟨S50000x64, .f32⟩
  | 52 => ⟨S50000x64, .f32⟩
  | 53 => ⟨S_, .f32⟩
  | 54 => ⟨S64, .f32⟩
  | 55 => ⟨S_, .f32⟩
  | 56 => ⟨S64, .f32⟩
  | 57 => ⟨S64, .f32⟩
  | 58 => ⟨S_, .i32⟩
  | 59 => ⟨S_, .f32⟩
  | 60 => ⟨S64, .f32⟩
  | 61 => ⟨S1x64, .f32⟩
  | 62 => ⟨S_, .f32⟩
  | 63 => ⟨S1x64, .f32⟩
  | 64 => ⟨S1x64, .f32⟩
  | 65 => ⟨S50000x64, .f32⟩
  | 66 => ⟨S50000x64, .f32⟩
  | 67 => ⟨S50000x64, .f32⟩
  | 68 => ⟨S_, .f32⟩
  | 69 => ⟨S_, .f32⟩
  | 70 => ⟨S_, .f32⟩
  | 71 => ⟨S_, .f32⟩
  | 72 => ⟨S64, .f32⟩
  | 73 => ⟨S64, .f32⟩
  | 74 => ⟨S64, .f32⟩
  | 75 => ⟨S_, .f32⟩
  | 76 => ⟨S_, .i1⟩
  | 77 => ⟨S_, .f32⟩
  | 78 => ⟨S_, .f32⟩
  | 79 => ⟨S64, .f32⟩
  | 80 => ⟨S64, .f32⟩
  | 81 => ⟨S1x64, .f32⟩
  | 82 => ⟨S50000x64, .f32⟩
  | 83 => ⟨S50000x64, .f32⟩
  | 84 => ⟨S_, .f32⟩
  | 85 => ⟨S64, .f32⟩
  | 86 => ⟨S64, .f32⟩
  | 87 => ⟨S64, .f32⟩
  | 88 => ⟨S1x64, .f32⟩
  | 89 => ⟨S50000x64, .f32⟩
  | 90 => ⟨S50000x64, .f32⟩
  | 91 => ⟨S1x64, .f32⟩
  | 92 => ⟨S50000x64, .f32⟩
  | 93 => ⟨S50000x64, .f32⟩
  | 94 => ⟨S1x64, .f32⟩
  | 95 => ⟨S50000x64, .f32⟩
  | 96 => ⟨S50000x64, .f32⟩
  | 97 => ⟨S_, .f32⟩
  | 98 => ⟨S50000, .f32⟩
  | 99 => ⟨S50000x1, .f32⟩
  | 100 => ⟨S50000x64, .f32⟩
  | 101 => ⟨S50000x64, .f32⟩
  | 102 => ⟨S50000x64, .f32⟩
  | 103 => ⟨S_, .f32⟩
  | 104 => ⟨S50000, .f32⟩
  | 105 => ⟨S50000x1, .f32⟩
  | 106 => ⟨S_, .f32⟩
  | 107 => ⟨S50000x1, .f32⟩
  | 108 => ⟨S50000x1, .f32⟩
  | 109 => ⟨S50000x64, .f32⟩
  | 110 => ⟨S50000x64, .f32⟩
  | 111 => ⟨S64x64, .f32⟩
  | 112 => ⟨S50000x64, .f32⟩
  | 113 => ⟨S690000x1, .f32⟩
  | 114 => ⟨S_, .i32⟩
  | 115 => ⟨S690000, .i32⟩
  | 116 => ⟨S690000, .i1⟩
  | 117 => ⟨S_, .i32⟩
  | 118 => ⟨S690000, .i32⟩
  | 119 => ⟨S690000, .i32⟩
  | 120 => ⟨S690000, .i32⟩
  | 121 => ⟨S690000x1, .i32⟩
  | 122 => ⟨S690000x64, .f32⟩
  | 123 => ⟨S690000x64, .f32⟩
  | 124 => ⟨S690000x64, .f32⟩
  | 125 => ⟨S_, .f32⟩
  | 126 => ⟨S50000x64, .f32⟩
  | 127 => ⟨S690000x1, .i32⟩
  | _ => ⟨S50000x22, .f32⟩

abbrev hbmTy0_5 (i : Nat) : BufTy := match i % 128 with
  | 0 => ⟨S50000x64, .f32⟩
  | 1 => ⟨S1x64, .f32⟩
  | 2 => ⟨S50000x64, .f32⟩
  | 3 => ⟨S50000x64, .f32⟩
  | 4 => ⟨S50000x64, .f32⟩
  | 5 => ⟨S50000x64, .f32⟩
  | 6 => ⟨S50000x64, .f32⟩
  | 7 => ⟨S50000x64, .f32⟩
  | 8 => ⟨S_, .f32⟩
  | 9 => ⟨S64, .f32⟩
  | 10 => ⟨S_, .f32⟩
  | 11 => ⟨S64, .f32⟩
  | 12 => ⟨S64, .f32⟩
  | 13 => ⟨S_, .i32⟩
  | 14 => ⟨S_, .f32⟩
  | 15 => ⟨S64, .f32⟩
  | 16 => ⟨S1x64, .f32⟩
  | 17 => ⟨S_, .f32⟩
  | 18 => ⟨S1x64, .f32⟩
  | 19 => ⟨S1x64, .f32⟩
  | 20 => ⟨S50000x64, .f32⟩
  | 21 => ⟨S50000x64, .f32⟩
  | 22 => ⟨S50000x64, .f32⟩
  | 23 => ⟨S_, .f32⟩
  | 24 => ⟨S_, .f32⟩
  | 25 => ⟨S_, .f32⟩
  | 26 => ⟨S_, .f32⟩
  | 27 => ⟨S64, .f32⟩
  | 28 => ⟨S64, .f32⟩
  | 29 => ⟨S64, .f32⟩
  | 30 => ⟨S_, .f32⟩
  | 31 => ⟨S_, .i1⟩
  | 32 => ⟨S_, .f32⟩
  | 33 => ⟨S_, .f32⟩
  | 34 => ⟨S64, .f32⟩
  | 35 => ⟨S64, .f32⟩
  | 36 => ⟨S1x64, .f32⟩
  | 37 => ⟨S50000x64, .f32⟩
  | 38 => ⟨S50000x64, .f32⟩
  | 39 => ⟨S_, .f32⟩
  | 40 => ⟨S64, .f32⟩
  | 41 => ⟨S64, .f32⟩
  | 42 => ⟨S64, .f32⟩
  | 43 => ⟨S1x64, .f32⟩
  | 44 => ⟨S50000x64, .f32⟩
  | 45 => ⟨S50000x64, .f32⟩
  | 46 => ⟨S1x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S_, .f32⟩
  | 53 => ⟨S50000, .f32⟩
  | 54 => ⟨S50000x1, .f32⟩
  | 55 => ⟨S50000x64, .f32⟩
  | 56 => ⟨S50000x64, .f32⟩
  | 57 => ⟨S50000x64, .f32⟩
  | 58 => ⟨S_, .f32⟩
  | 59 => ⟨S50000, .f32⟩
  | 60 => ⟨S50000x1, .f32⟩
  | 61 => ⟨S_, .f32⟩
  | 62 => ⟨S50000x1, .f32⟩
  | 63 => ⟨S50000x1, .f32⟩
  | 64 => ⟨S50000x64, .f32⟩
  | 65 => ⟨S50000x64, .f32⟩
  | 66 => ⟨S64x64, .f32⟩
  | 67 => ⟨S50000x64, .f32⟩
  | 68 => ⟨S690000x1, .f32⟩
  | 69 => ⟨S_, .i32⟩
  | 70 => ⟨S690000, .i32⟩
  | 71 => ⟨S690000, .i1⟩
  | 72 => ⟨S_, .i32⟩
  | 73 => ⟨S690000, .i32⟩
  | 74 => ⟨S690000, .i32⟩
  | 75 => ⟨S690000, .i32⟩
  | 76 => ⟨S690000x1, .i32⟩
  | 77 => ⟨S690000x64, .f32⟩
  | 78 => ⟨S690000x64, .f32⟩
  | 79 => ⟨S690000x64, .f32⟩
  | 80 => ⟨S_, .f32⟩
  | 81 => ⟨S50000x64, .f32⟩
  | 82 => ⟨S690000x1, .i32⟩
  | 83 => ⟨S50000x64, .f32⟩
  | 84 => ⟨S1x64, .f32⟩
  | 85 => ⟨S50000x64, .f32⟩
  | 86 => ⟨S50000x64, .f32⟩
  | 87 => ⟨S50000x64, .f32⟩
  | 88 => ⟨S50000x64, .f32⟩
  | 89 => ⟨S50000x64, .f32⟩
  | 90 => ⟨S50000x64, .f32⟩
  | 91 => ⟨S50000x64, .f32⟩
  | 92 => ⟨S_, .f32⟩
  | 93 => ⟨S64, .f32⟩
  | 94 => ⟨S_, .f32⟩
  | 95 => ⟨S64, .f32⟩
  | 96 => ⟨S64, .f32⟩
  | 97 => ⟨S_, .i32⟩
  | 98 => ⟨S_, .f32⟩
  | 99 => ⟨S64, .f32⟩
  | 100 => ⟨S1x64, .f32⟩
  | 101 => ⟨S_, .f32⟩
  | 102 => ⟨S1x64, .f32⟩
  | 103 => ⟨S1x64, .f32⟩
  | 104 => ⟨S50000x64, .f32⟩
  | 105 => ⟨S50000x64, .f32⟩
  | 106 => ⟨S50000x64, .f32⟩
  | 107 => ⟨S_, .f32⟩
  | 108 => ⟨S_, .f32⟩
  | 109 => ⟨S_, .f32⟩
  | 110 => ⟨S_, .f32⟩
  | 111 => ⟨S64, .f32⟩
  | 112 => ⟨S64, .f32⟩
  | 113 => ⟨S64, .f32⟩
  | 114 => ⟨S_, .f32⟩
  | 115 => ⟨S_, .i1⟩
  | 116 => ⟨S_, .f32⟩
  | 117 => ⟨S_, .f32⟩
  | 118 => ⟨S64, .f32⟩
  | 119 => ⟨S64, .f32⟩
  | 120 => ⟨S1x64, .f32⟩
  | 121 => ⟨S50000x64, .f32⟩
  | 122 => ⟨S50000x64, .f32⟩
  | 123 => ⟨S_, .f32⟩
  | 124 => ⟨S64, .f32⟩
  | 125 => ⟨S64, .f32⟩
  | 126 => ⟨S64, .f32⟩
  | 127 => ⟨S1x64, .f32⟩
  | _ => ⟨S50000x22, .f32⟩

abbrev hbmTy0_6 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S1x64, .f32⟩
  | 6 => ⟨S50000x64, .f32⟩
  | 7 => ⟨S50000x64, .f32⟩
  | 8 => ⟨S_, .f32⟩
  | 9 => ⟨S50000, .f32⟩
  | 10 => ⟨S50000x1, .f32⟩
  | 11 => ⟨S50000x64, .f32⟩
  | 12 => ⟨S50000x64, .f32⟩
  | 13 => ⟨S50000x64, .f32⟩
  | 14 => ⟨S_, .f32⟩
  | 15 => ⟨S50000, .f32⟩
  | 16 => ⟨S50000x1, .f32⟩
  | 17 => ⟨S_, .f32⟩
  | 18 => ⟨S50000x1, .f32⟩
  | 19 => ⟨S50000x1, .f32⟩
  | 20 => ⟨S50000x64, .f32⟩
  | 21 => ⟨S50000x64, .f32⟩
  | 22 => ⟨S64x64, .f32⟩
  | 23 => ⟨S50000x64, .f32⟩
  | 24 => ⟨S690000x1, .f32⟩
  | 25 => ⟨S_, .i32⟩
  | 26 => ⟨S690000, .i32⟩
  | 27 => ⟨S690000, .i1⟩
  | 28 => ⟨S_, .i32⟩
  | 29 => ⟨S690000, .i32⟩
  | 30 => ⟨S690000, .i32⟩
  | 31 => ⟨S690000, .i32⟩
  | 32 => ⟨S690000x1, .i32⟩
  | 33 => ⟨S690000x64, .f32⟩
  | 34 => ⟨S690000x64, .f32⟩
  | 35 => ⟨S690000x64, .f32⟩
  | 36 => ⟨S_, .f32⟩
  | 37 => ⟨S50000x64, .f32⟩
  | 38 => ⟨S690000x1, .i32⟩
  | 39 => ⟨S50000x64, .f32⟩
  | 40 => ⟨S1x64, .f32⟩
  | 41 => ⟨S50000x64, .f32⟩
  | 42 => ⟨S50000x64, .f32⟩
  | 43 => ⟨S50000x64, .f32⟩
  | 44 => ⟨S50000x64, .f32⟩
  | 45 => ⟨S50000x64, .f32⟩
  | 46 => ⟨S50000x64, .f32⟩
  | 47 => ⟨S50000x64, .f32⟩
  | 48 => ⟨S50000x64, .f32⟩
  | 49 => ⟨S_, .f32⟩
  | 50 => ⟨S64, .f32⟩
  | 51 => ⟨S_, .f32⟩
  | 52 => ⟨S64, .f32⟩
  | 53 => ⟨S64, .f32⟩
  | 54 => ⟨S_, .i32⟩
  | 55 => ⟨S_, .f32⟩
  | 56 => ⟨S64, .f32⟩
  | 57 => ⟨S1x64, .f32⟩
  | 58 => ⟨S_, .f32⟩
  | 59 => ⟨S1x64, .f32⟩
  | 60 => ⟨S1x64, .f32⟩
  | 61 => ⟨S50000x64, .f32⟩
  | 62 => ⟨S50000x64, .f32⟩
  | 63 => ⟨S50000x64, .f32⟩
  | 64 => ⟨S_, .f32⟩
  | 65 => ⟨S_, .f32⟩
  | 66 => ⟨S_, .f32⟩
  | 67 => ⟨S_, .f32⟩
  | 68 => ⟨S64, .f32⟩
  | 69 => ⟨S64, .f32⟩
  | 70 => ⟨S64, .f32⟩
  | 71 => ⟨S_, .f32⟩
  | 72 => ⟨S_, .i1⟩
  | 73 => ⟨S_, .f32⟩
  | 74 => ⟨S_, .f32⟩
  | 75 => ⟨S64, .f32⟩
  | 76 => ⟨S64, .f32⟩
  | 77 => ⟨S1x64, .f32⟩
  | 78 => ⟨S50000x64, .f32⟩
  | 79 => ⟨S50000x64, .f32⟩
  | 80 => ⟨S_, .f32⟩
  | 81 => ⟨S64, .f32⟩
  | 82 => ⟨S64, .f32⟩
  | 83 => ⟨S64, .f32⟩
  | 84 => ⟨S1x64, .f32⟩
  | 85 => ⟨S50000x64, .f32⟩
  | 86 => ⟨S50000x64, .f32⟩
  | 87 => ⟨S1x64, .f32⟩
  | 88 => ⟨S50000x64, .f32⟩
  | 89 => ⟨S50000x64, .f32⟩
  | 90 => ⟨S1x64, .f32⟩
  | 91 => ⟨S50000x64, .f32⟩
  | 92 => ⟨S50000x64, .f32⟩
  | 93 => ⟨S_, .f32⟩
  | 94 => ⟨S50000, .f32⟩
  | 95 => ⟨S50000x1, .f32⟩
  | 96 => ⟨S50000x64, .f32⟩
  | 97 => ⟨S50000x64, .f32⟩
  | 98 => ⟨S50000x64, .f32⟩
  | 99 => ⟨S_, .f32⟩
  | 100 => ⟨S50000, .f32⟩
  | 101 => ⟨S50000x1, .f32⟩
  | 102 => ⟨S_, .f32⟩
  | 103 => ⟨S50000x1, .f32⟩
  | 104 => ⟨S50000x1, .f32⟩
  | 105 => ⟨S50000x64, .f32⟩
  | 106 => ⟨S50000x64, .f32⟩
  | 107 => ⟨S64x64, .f32⟩
  | 108 => ⟨S50000x64, .f32⟩
  | 109 => ⟨S690000x1, .f32⟩
  | 110 => ⟨S_, .i32⟩
  | 111 => ⟨S690000, .i32⟩
  | 112 => ⟨S690000, .i1⟩
  | 113 => ⟨S_, .i32⟩
  | 114 => ⟨S690000, .i32⟩
  | 115 => ⟨S690000, .i32⟩
  | 116 => ⟨S690000, .i32⟩
  | 117 => ⟨S690000x1, .i32⟩
  | 118 => ⟨S690000x64, .f32⟩
  | 119 => ⟨S690000x64, .f32⟩
  | 120 => ⟨S690000x64, .f32⟩
  | 121 => ⟨S_, .f32⟩
  | 122 => ⟨S50000x64, .f32⟩
  | 123 => ⟨S690000x1, .i32⟩
  | 124 => ⟨S50000x64, .f32⟩
  | 125 => ⟨S1x64, .f32⟩
  | 126 => ⟨S50000x64, .f32⟩
  | 127 => ⟨S50000x64, .f32⟩
  | _ => ⟨S50000x22, .f32⟩

abbrev hbmTy0_7 (i : Nat) : BufTy := match i % 128 with
  | 0 => ⟨S50000x64, .f32⟩
  | 1 => ⟨S50000x64, .f32⟩
  | 2 => ⟨S50000x64, .f32⟩
  | 3 => ⟨S50000x64, .f32⟩
  | 4 => ⟨S50000x64, .f32⟩
  | 5 => ⟨S50000x64, .f32⟩
  | 6 => ⟨S50000x64, .f32⟩
  | 7 => ⟨S_, .f32⟩
  | 8 => ⟨S64, .f32⟩
  | 9 => ⟨S_, .f32⟩
  | 10 => ⟨S64, .f32⟩
  | 11 => ⟨S64, .f32⟩
  | 12 => ⟨S_, .i32⟩
  | 13 => ⟨S_, .f32⟩
  | 14 => ⟨S64, .f32⟩
  | 15 => ⟨S1x64, .f32⟩
  | 16 => ⟨S_, .f32⟩
  | 17 => ⟨S1x64, .f32⟩
  | 18 => ⟨S1x64, .f32⟩
  | 19 => ⟨S50000x64, .f32⟩
  | 20 => ⟨S50000x64, .f32⟩
  | 21 => ⟨S50000x64, .f32⟩
  | 22 => ⟨S_, .f32⟩
  | 23 => ⟨S_, .f32⟩
  | 24 => ⟨S_, .f32⟩
  | 25 => ⟨S_, .f32⟩
  | 26 => ⟨S64, .f32⟩
  | 27 => ⟨S64, .f32⟩
  | 28 => ⟨S64, .f32⟩
  | 29 => ⟨S_, .f32⟩
  | 30 => ⟨S_, .i1⟩
  | 31 => ⟨S_, .f32⟩
  | 32 => ⟨S_, .f32⟩
  | 33 => ⟨S64, .f32⟩
  | 34 => ⟨S64, .f32⟩
  | 35 => ⟨S1x64, .f32⟩
  | 36 => ⟨S50000x64, .f32⟩
  | 37 => ⟨S50000x64, .f32⟩
  | 38 => ⟨S_, .f32⟩
  | 39 => ⟨S64, .f32⟩
  | 40 => ⟨S64, .f32⟩
  | 41 => ⟨S64, .f32⟩
  | 42 => ⟨S1x64, .f32⟩
  | 43 => ⟨S50000x64, .f32⟩
  | 44 => ⟨S50000x64, .f32⟩
  | 45 => ⟨S1x64, .f32⟩
  | 46 => ⟨S50000x64, .f32⟩
  | 47 => ⟨S50000x64, .f32⟩
  | 48 => ⟨S1x64, .f32⟩
  | 49 => ⟨S50000x64, .f32⟩
  | 50 => ⟨S50000x64, .f32⟩
  | 51 => ⟨S_, .f32⟩
  | 52 => ⟨S50000, .f32⟩
  | 53 => ⟨S50000x1, .f32⟩
  | 54 => ⟨S50000x64, .f32⟩
  | 55 => ⟨S50000x64, .f32⟩
  | 56 => ⟨S50000x64, .f32⟩
  | 57 => ⟨S_, .f32⟩
  | 58 => ⟨S50000, .f32⟩
  | 59 => ⟨S50000x1, .f32⟩
  | 60 => ⟨S_, .f32⟩
  | 61 => ⟨S50000x1, .f32⟩
  | 62 => ⟨S50000x1, .f32⟩
  | 63 => ⟨S50000x64, .f32⟩
  | 64 => ⟨S50000x64, .f32⟩
  | 65 => ⟨S64x64, .f32⟩
  | 66 => ⟨S50000x64, .f32⟩
  | 67 => ⟨S690000x1, .f32⟩
  | 68 => ⟨S_, .i32⟩
  | 69 => ⟨S690000, .i32⟩
  | 70 => ⟨S690000, .i1⟩
  | 71 => ⟨S_, .i32⟩
  | 72 => ⟨S690000, .i32⟩
  | 73 => ⟨S690000, .i32⟩
  | 74 => ⟨S690000, .i32⟩
  | 75 => ⟨S690000x1, .i32⟩
  | 76 => ⟨S690000x64, .f32⟩
  | 77 => ⟨S690000x64, .f32⟩
  | 78 => ⟨S690000x64, .f32⟩
  | 79 => ⟨S_, .f32⟩
  | 80 => ⟨S50000x64, .f32⟩
  | 81 => ⟨S690000x1, .i32⟩
  | 82 => ⟨S50000x64, .f32⟩
  | 83 => ⟨S1x64, .f32⟩
  | 84 => ⟨S50000x64, .f32⟩
  | 85 => ⟨S50000x64, .f32⟩
  | 86 => ⟨S50000x64, .f32⟩
  | 87 => ⟨S50000x64, .f32⟩
  | 88 => ⟨S50000x64, .f32⟩
  | 89 => ⟨S50000x64, .f32⟩
  | 90 => ⟨S50000x64, .f32⟩
  | 91 => ⟨S50000x64, .f32⟩
  | 92 => ⟨S50000x64, .f32⟩
  | 93 => ⟨S50000x64, .f32⟩
  | 94 => ⟨S_, .f32⟩
  | 95 => ⟨S64, .f32⟩
  | 96 => ⟨S_, .f32⟩
  | 97 => ⟨S64, .f32⟩
  | 98 => ⟨S64, .f32⟩
  | 99 => ⟨S_, .i32⟩
  | 100 => ⟨S_, .f32⟩
  | 101 => ⟨S64, .f32⟩
  | 102 => ⟨S1x64, .f32⟩
  | 103 => ⟨S_, .f32⟩
  | 104 => ⟨S1x64, .f32⟩
  | 105 => ⟨S1x64, .f32⟩
  | 106 => ⟨S50000x64, .f32⟩
  | 107 => ⟨S50000x64, .f32⟩
  | 108 => ⟨S50000x64, .f32⟩
  | 109 => ⟨S_, .f32⟩
  | 110 => ⟨S_, .f32⟩
  | 111 => ⟨S_, .f32⟩
  | 112 => ⟨S_, .f32⟩
  | 113 => ⟨S64, .f32⟩
  | 114 => ⟨S64, .f32⟩
  | 115 => ⟨S64, .f32⟩
  | 116 => ⟨S_, .f32⟩
  | 117 => ⟨S_, .i1⟩
  | 118 => ⟨S_, .f32⟩
  | 119 => ⟨S_, .f32⟩
  | 120 => ⟨S64, .f32⟩
  | 121 => ⟨S64, .f32⟩
  | 122 => ⟨S1x64, .f32⟩
  | 123 => ⟨S50000x64, .f32⟩
  | 124 => ⟨S50000x64, .f32⟩
  | 125 => ⟨S_, .f32⟩
  | 126 => ⟨S64, .f32⟩
  | 127 => ⟨S64, .f32⟩
  | _ => ⟨S50000x22, .f32⟩

abbrev hbmTy0_8 (i : Nat) : BufTy := match i % 128 with
  | 0 => ⟨S64, .f32⟩
  | 1 => ⟨S1x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | 7 => ⟨S1x64, .f32⟩
  | 8 => ⟨S50000x64, .f32⟩
  | 9 => ⟨S50000x64, .f32⟩
  | 10 => ⟨S_, .f32⟩
  | 11 => ⟨S50000, .f32⟩
  | 12 => ⟨S50000x1, .f32⟩
  | 13 => ⟨S50000x64, .f32⟩
  | 14 => ⟨S50000x64, .f32⟩
  | 15 => ⟨S50000x64, .f32⟩
  | 16 => ⟨S_, .f32⟩
  | 17 => ⟨S50000, .f32⟩
  | 18 => ⟨S50000x1, .f32⟩
  | 19 => ⟨S_, .f32⟩
  | 20 => ⟨S50000x1, .f32⟩
  | 21 => ⟨S50000x1, .f32⟩
  | 22 => ⟨S50000x64, .f32⟩
  | 23 => ⟨S50000x64, .f32⟩
  | 24 => ⟨S64x32, .f32⟩
  | 25 => ⟨S50000x32, .f32⟩
  | 26 => ⟨S690000x1, .f32⟩
  | 27 => ⟨S_, .i32⟩
  | 28 => ⟨S690000, .i32⟩
  | 29 => ⟨S690000, .i1⟩
  | 30 => ⟨S_, .i32⟩
  | 31 => ⟨S690000, .i32⟩
  | 32 => ⟨S690000, .i32⟩
  | 33 => ⟨S690000, .i32⟩
  | 34 => ⟨S690000x1, .i32⟩
  | 35 => ⟨S690000x32, .f32⟩
  | 36 => ⟨S690000x32, .f32⟩
  | 37 => ⟨S690000x32, .f32⟩
  | 38 => ⟨S_, .f32⟩
  | 39 => ⟨S50000x32, .f32⟩
  | 40 => ⟨S690000x1, .i32⟩
  | 41 => ⟨S50000x32, .f32⟩
  | 42 => ⟨S1x32, .f32⟩
  | 43 => ⟨S50000x32, .f32⟩
  | 44 => ⟨S50000x32, .f32⟩
  | 45 => ⟨S_, .f32⟩
  | 46 => ⟨S50000, .f32⟩
  | 47 => ⟨S50000x1, .f32⟩
  | 48 => ⟨S50000x32, .f32⟩
  | 49 => ⟨S50000x32, .f32⟩
  | 50 => ⟨S50000x32, .f32⟩
  | 51 => ⟨S_, .f32⟩
  | 52 => ⟨S50000, .f32⟩
  | 53 => ⟨S50000x1, .f32⟩
  | 54 => ⟨S_, .f32⟩
  | 55 => ⟨S50000x1, .f32⟩
  | 56 => ⟨S50000x1, .f32⟩
  | 57 => ⟨S50000x32, .f32⟩
  | 58 => ⟨S50000x32, .f32⟩
  | 59 => ⟨S_, .f32⟩
  | 60 => ⟨S32, .f32⟩
  | 61 => ⟨S_, .f32⟩
  | 62 => ⟨S32, .f32⟩
  | 63 => ⟨S32, .f32⟩
  | 64 => ⟨S_, .i32⟩
  | 65 => ⟨S_, .f32⟩
  | 66 => ⟨S32, .f32⟩
  | 67 => ⟨S1x32, .f32⟩
  | 68 => ⟨S_, .f32⟩
  | 69 => ⟨S1x32, .f32⟩
  | 70 => ⟨S1x32, .f32⟩
  | 71 => ⟨S50000x32, .f32⟩
  | 72 => ⟨S50000x32, .f32⟩
  | 73 => ⟨S50000x32, .f32⟩
  | 74 => ⟨S_, .f32⟩
  | 75 => ⟨S_, .f32⟩
  | 76 => ⟨S_, .f32⟩
  | 77 => ⟨S_, .f32⟩
  | 78 => ⟨S32, .f32⟩
  | 79 => ⟨S32, .f32⟩
  | 80 => ⟨S32, .f32⟩
  | 81 => ⟨S_, .f32⟩
  | 82 => ⟨S_, .i1⟩
  | 83 => ⟨S_, .f32⟩
  | 84 => ⟨S_, .f32⟩
  | 85 => ⟨S32, .f32⟩
  | 86 => ⟨S32, .f32⟩
  | 87 => ⟨S1x32, .f32⟩
  | 88 => ⟨S50000x32, .f32⟩
  | 89 => ⟨S50000x32, .f32⟩
  | 90 => ⟨S_, .f32⟩
  | 91 => ⟨S32, .f32⟩
  | 92 => ⟨S32, .f32⟩
  | 93 => ⟨S32, .f32⟩
  | 94 => ⟨S1x32, .f32⟩
  | 95 => ⟨S50000x32, .f32⟩
  | 96 => ⟨S50000x32, .f32⟩
  | 97 => ⟨S1x32, .f32⟩
  | 98 => ⟨S50000x32, .f32⟩
  | 99 => ⟨S50000x32, .f32⟩
  | 100 => ⟨S1x32, .f32⟩
  | 101 => ⟨S50000x32, .f32⟩
  | 102 => ⟨S50000x32, .f32⟩
  | 103 => ⟨S50000x1, .f32⟩
  | 104 => ⟨S50000, .f32⟩
  | _ => ⟨S50000x22, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S50000x22, .f32⟩

abbrev bufTy : (tb : Table) → Fin (tcTables nBuf tb) → BufTy
  | .hbm, ⟨i, _⟩ => hbmTy i
  | _, _ => ⟨S50000x22, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_v8 : Ref sig .tc := ⟨.hbm, 36, rfl⟩
abbrev main_cst_0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_v13 : Ref sig .tc := ⟨.hbm, 43, rfl⟩
abbrev main_cst_2 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_3 : Ref sig .tc := ⟨.hbm, 48, rfl⟩
abbrev main_call0_v0 : Ref sig .tc := ⟨.hbm, 49, rfl⟩
abbrev main_call0_v1 : Ref sig .tc := ⟨.hbm, 50, rfl⟩
abbrev main_v17 : Ref sig .tc := ⟨.hbm, 51, rfl⟩
abbrev main_c : Ref sig .tc := ⟨.hbm, 52, rfl⟩
abbrev main_v18 : Ref sig .tc := ⟨.hbm, 53, rfl⟩
abbrev main_v19 : Ref sig .tc := ⟨.hbm, 54, rfl⟩
abbrev main_c_4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_c_5 : Ref sig .tc := ⟨.hbm, 62, rfl⟩
abbrev main_v26 : Ref sig .tc := ⟨.hbm, 63, rfl⟩
abbrev main_v27 : Ref sig .tc := ⟨.hbm, 64, rfl⟩
abbrev main_c_6 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_7 : Ref sig .tc := ⟨.hbm, 146, rfl⟩
abbrev main_v108 : Ref sig .tc := ⟨.hbm, 147, rfl⟩
abbrev main_v109 : Ref sig .tc := ⟨.hbm, 148, rfl⟩
abbrev main_c_8 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_9 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_10 : Ref sig .tc := ⟨.hbm, 164, rfl⟩
abbrev main_v123 : Ref sig .tc := ⟨.hbm, 165, rfl⟩
abbrev main_cst_11 : Ref sig .tc := ⟨.hbm, 166, rfl⟩
abbrev main_v124 : Ref sig .tc := ⟨.hbm, 167, rfl⟩
abbrev main_v125 : Ref sig .tc := ⟨.hbm, 168, rfl⟩
abbrev main_c_12 : Ref sig .tc := ⟨.hbm, 169, rfl⟩
abbrev main_call1_cst : Ref sig .tc := ⟨.hbm, 170, rfl⟩
abbrev main_call1_v0 : Ref sig .tc := ⟨.hbm, 171, rfl⟩
abbrev main_call1_v1 : Ref sig .tc := ⟨.hbm, 172, rfl⟩
abbrev main_call1_cst_0 : Ref sig .tc := ⟨.hbm, 173, rfl⟩
abbrev main_call1_v2 : Ref sig .tc := ⟨.hbm, 174, rfl⟩
abbrev main_call1_v3 : Ref sig .tc := ⟨.hbm, 175, rfl⟩
abbrev main_call1_v4 : Ref sig .tc := ⟨.hbm, 176, rfl⟩
abbrev main_call1_v5 : Ref sig .tc := ⟨.hbm, 177, rfl⟩
abbrev main_call1_v6 : Ref sig .tc := ⟨.hbm, 178, rfl⟩
abbrev main_call1_v7 : Ref sig .tc := ⟨.hbm, 179, rfl⟩
abbrev main_call1_cst_1 : Ref sig .tc := ⟨.hbm, 180, rfl⟩
abbrev main_call1_v8 : Ref sig .tc := ⟨.hbm, 181, rfl⟩
abbrev main_call1_cst_2 : Ref sig .tc := ⟨.hbm, 182, rfl⟩
abbrev main_call1_v9 : Ref sig .tc := ⟨.hbm, 183, rfl⟩
abbrev main_call1_v10 : Ref sig .tc := ⟨.hbm, 184, rfl⟩
abbrev main_call1_v11 : Ref sig .tc := ⟨.hbm, 185, rfl⟩
abbrev main_call1_cst_3 : Ref sig .tc := ⟨.hbm, 186, rfl⟩
abbrev main_call1_v12 : Ref sig .tc := ⟨.hbm, 187, rfl⟩
abbrev main_call1_cst_4 : Ref sig .tc := ⟨.hbm, 188, rfl⟩
abbrev main_call1_call0_v0 : Ref sig .tc := ⟨.hbm, 189, rfl⟩
abbrev main_call1_call0_v1 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_cst_13 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_cst_14 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_cst_15 : Ref sig .tc := ⟨.hbm, 214, rfl⟩
abbrev main_v147 : Ref sig .tc := ⟨.hbm, 215, rfl⟩
abbrev main_v148 : Ref sig .tc := ⟨.hbm, 216, rfl⟩
abbrev main_cst_16 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_c_17 : Ref sig .tc := ⟨.hbm, 225, rfl⟩
abbrev main_v156 : Ref sig .tc := ⟨.hbm, 226, rfl⟩
abbrev main_v157 : Ref sig .tc := ⟨.hbm, 227, rfl⟩
abbrev main_c_18 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_cst_19 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_cst_20 : Ref sig .tc := ⟨.hbm, 243, rfl⟩
abbrev main_v171 : Ref sig .tc := ⟨.hbm, 244, rfl⟩
abbrev main_cst_21 : Ref sig .tc := ⟨.hbm, 245, rfl⟩
abbrev main_v172 : Ref sig .tc := ⟨.hbm, 246, rfl⟩
abbrev main_v173 : Ref sig .tc := ⟨.hbm, 247, rfl⟩
abbrev main_c_22 : Ref sig .tc := ⟨.hbm, 248, rfl⟩
abbrev main_call2_cst : Ref sig .tc := ⟨.hbm, 249, rfl⟩
abbrev main_call2_v0 : Ref sig .tc := ⟨.hbm, 250, rfl⟩
abbrev main_call2_v1 : Ref sig .tc := ⟨.hbm, 251, rfl⟩
abbrev main_call2_cst_0 : Ref sig .tc := ⟨.hbm, 252, rfl⟩
abbrev main_call2_v2 : Ref sig .tc := ⟨.hbm, 253, rfl⟩
abbrev main_call2_v3 : Ref sig .tc := ⟨.hbm, 254, rfl⟩
abbrev main_call2_v4 : Ref sig .tc := ⟨.hbm, 255, rfl⟩
abbrev main_call2_v5 : Ref sig .tc := ⟨.hbm, 256, rfl⟩
abbrev main_call2_v6 : Ref sig .tc := ⟨.hbm, 257, rfl⟩
abbrev main_call2_v7 : Ref sig .tc := ⟨.hbm, 258, rfl⟩
abbrev main_call2_cst_1 : Ref sig .tc := ⟨.hbm, 259, rfl⟩
abbrev main_call2_v8 : Ref sig .tc := ⟨.hbm, 260, rfl⟩
abbrev main_call2_cst_2 : Ref sig .tc := ⟨.hbm, 261, rfl⟩
abbrev main_call2_v9 : Ref sig .tc := ⟨.hbm, 262, rfl⟩
abbrev main_call2_v10 : Ref sig .tc := ⟨.hbm, 263, rfl⟩
abbrev main_call2_v11 : Ref sig .tc := ⟨.hbm, 264, rfl⟩
abbrev main_call2_cst_3 : Ref sig .tc := ⟨.hbm, 265, rfl⟩
abbrev main_call2_v12 : Ref sig .tc := ⟨.hbm, 266, rfl⟩
abbrev main_call2_cst_4 : Ref sig .tc := ⟨.hbm, 267, rfl⟩
abbrev main_call2_call0_v0 : Ref sig .tc := ⟨.hbm, 268, rfl⟩
abbrev main_call2_call0_v1 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_cst_23 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_cst_24 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_cst_25 : Ref sig .tc := ⟨.hbm, 293, rfl⟩
abbrev main_v195 : Ref sig .tc := ⟨.hbm, 294, rfl⟩
abbrev main_v196 : Ref sig .tc := ⟨.hbm, 295, rfl⟩
abbrev main_cst_26 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_v203 : Ref sig .tc := ⟨.hbm, 303, rfl⟩
abbrev main_c_27 : Ref sig .tc := ⟨.hbm, 304, rfl⟩
abbrev main_v204 : Ref sig .tc := ⟨.hbm, 305, rfl⟩
abbrev main_v205 : Ref sig .tc := ⟨.hbm, 306, rfl⟩
abbrev main_c_28 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_cst_29 : Ref sig .tc := ⟨.hbm, 315, rfl⟩
abbrev main_v213 : Ref sig .tc := ⟨.hbm, 316, rfl⟩
abbrev main_v214 : Ref sig .tc := ⟨.hbm, 317, rfl⟩
abbrev main_v215 : Ref sig .tc := ⟨.hbm, 318, rfl⟩
abbrev main_v216 : Ref sig .tc := ⟨.hbm, 319, rfl⟩
abbrev main_v217 : Ref sig .tc := ⟨.hbm, 320, rfl⟩
abbrev main_v218 : Ref sig .tc := ⟨.hbm, 321, rfl⟩
abbrev main_cst_30 : Ref sig .tc := ⟨.hbm, 322, rfl⟩
abbrev main_v219 : Ref sig .tc := ⟨.hbm, 323, rfl⟩
abbrev main_cst_31 : Ref sig .tc := ⟨.hbm, 324, rfl⟩
abbrev main_v220 : Ref sig .tc := ⟨.hbm, 325, rfl⟩
abbrev main_v221 : Ref sig .tc := ⟨.hbm, 326, rfl⟩
abbrev main_c_32 : Ref sig .tc := ⟨.hbm, 327, rfl⟩
abbrev main_call3_cst : Ref sig .tc := ⟨.hbm, 328, rfl⟩
abbrev main_call3_v0 : Ref sig .tc := ⟨.hbm, 329, rfl⟩
abbrev main_call3_v1 : Ref sig .tc := ⟨.hbm, 330, rfl⟩
abbrev main_call3_cst_0 : Ref sig .tc := ⟨.hbm, 331, rfl⟩
abbrev main_call3_v2 : Ref sig .tc := ⟨.hbm, 332, rfl⟩
abbrev main_call3_v3 : Ref sig .tc := ⟨.hbm, 333, rfl⟩
abbrev main_call3_v4 : Ref sig .tc := ⟨.hbm, 334, rfl⟩
abbrev main_call3_v5 : Ref sig .tc := ⟨.hbm, 335, rfl⟩
abbrev main_call3_v6 : Ref sig .tc := ⟨.hbm, 336, rfl⟩
abbrev main_call3_v7 : Ref sig .tc := ⟨.hbm, 337, rfl⟩
abbrev main_call3_cst_1 : Ref sig .tc := ⟨.hbm, 338, rfl⟩
abbrev main_call3_v8 : Ref sig .tc := ⟨.hbm, 339, rfl⟩
abbrev main_call3_cst_2 : Ref sig .tc := ⟨.hbm, 340, rfl⟩
abbrev main_call3_v9 : Ref sig .tc := ⟨.hbm, 341, rfl⟩
abbrev main_call3_v10 : Ref sig .tc := ⟨.hbm, 342, rfl⟩
abbrev main_call3_v11 : Ref sig .tc := ⟨.hbm, 343, rfl⟩
abbrev main_call3_cst_3 : Ref sig .tc := ⟨.hbm, 344, rfl⟩
abbrev main_call3_v12 : Ref sig .tc := ⟨.hbm, 345, rfl⟩
abbrev main_call3_cst_4 : Ref sig .tc := ⟨.hbm, 346, rfl⟩
abbrev main_call3_call0_v0 : Ref sig .tc := ⟨.hbm, 347, rfl⟩
abbrev main_call3_call0_v1 : Ref sig .tc := ⟨.hbm, 348, rfl⟩
abbrev main_v222 : Ref sig .tc := ⟨.hbm, 349, rfl⟩
abbrev main_v223 : Ref sig .tc := ⟨.hbm, 350, rfl⟩
abbrev main_v224 : Ref sig .tc := ⟨.hbm, 351, rfl⟩
abbrev main_v225 : Ref sig .tc := ⟨.hbm, 352, rfl⟩
abbrev main_cst_33 : Ref sig .tc := ⟨.hbm, 353, rfl⟩
abbrev main_v226 : Ref sig .tc := ⟨.hbm, 354, rfl⟩
abbrev main_v227 : Ref sig .tc := ⟨.hbm, 355, rfl⟩
abbrev main_v228 : Ref sig .tc := ⟨.hbm, 356, rfl⟩
abbrev main_v229 : Ref sig .tc := ⟨.hbm, 357, rfl⟩
abbrev main_v230 : Ref sig .tc := ⟨.hbm, 358, rfl⟩
abbrev main_v231 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_v235 : Ref sig .tc := ⟨.hbm, 363, rfl⟩
abbrev main_v236 : Ref sig .tc := ⟨.hbm, 364, rfl⟩
abbrev main_v237 : Ref sig .tc := ⟨.hbm, 365, rfl⟩
abbrev main_cst_34 : Ref sig .tc := ⟨.hbm, 366, rfl⟩
abbrev main_v238 : Ref sig .tc := ⟨.hbm, 367, rfl⟩
abbrev main_v239 : Ref sig .tc := ⟨.hbm, 368, rfl⟩
abbrev main_v240 : Ref sig .tc := ⟨.hbm, 369, rfl⟩
abbrev main_v241 : Ref sig .tc := ⟨.hbm, 370, rfl⟩
abbrev main_v242 : Ref sig .tc := ⟨.hbm, 371, rfl⟩
abbrev main_cst_35 : Ref sig .tc := ⟨.hbm, 372, rfl⟩
abbrev main_v243 : Ref sig .tc := ⟨.hbm, 373, rfl⟩
abbrev main_v244 : Ref sig .tc := ⟨.hbm, 374, rfl⟩
abbrev main_cst_36 : Ref sig .tc := ⟨.hbm, 375, rfl⟩
abbrev main_v245 : Ref sig .tc := ⟨.hbm, 376, rfl⟩
abbrev main_v246 : Ref sig .tc := ⟨.hbm, 377, rfl⟩
abbrev main_v247 : Ref sig .tc := ⟨.hbm, 378, rfl⟩
abbrev main_v248 : Ref sig .tc := ⟨.hbm, 379, rfl⟩
abbrev main_v249 : Ref sig .tc := ⟨.hbm, 380, rfl⟩
abbrev main_v250 : Ref sig .tc := ⟨.hbm, 381, rfl⟩
abbrev main_v251 : Ref sig .tc := ⟨.hbm, 382, rfl⟩
abbrev main_c_37 : Ref sig .tc := ⟨.hbm, 383, rfl⟩
abbrev main_v252 : Ref sig .tc := ⟨.hbm, 384, rfl⟩
abbrev main_v253 : Ref sig .tc := ⟨.hbm, 385, rfl⟩
abbrev main_c_38 : Ref sig .tc := ⟨.hbm, 386, rfl⟩
abbrev main_v254 : Ref sig .tc := ⟨.hbm, 387, rfl⟩
abbrev main_v255 : Ref sig .tc := ⟨.hbm, 388, rfl⟩
abbrev main_v256 : Ref sig .tc := ⟨.hbm, 389, rfl⟩
abbrev main_v257 : Ref sig .tc := ⟨.hbm, 390, rfl⟩
abbrev main_v258 : Ref sig .tc := ⟨.hbm, 391, rfl⟩
abbrev main_v259 : Ref sig .tc := ⟨.hbm, 392, rfl⟩
abbrev main_v260 : Ref sig .tc := ⟨.hbm, 393, rfl⟩
abbrev main_cst_39 : Ref sig .tc := ⟨.hbm, 394, rfl⟩
abbrev main_v261 : Ref sig .tc := ⟨.hbm, 395, rfl⟩
abbrev main_v262 : Ref sig .tc := ⟨.hbm, 396, rfl⟩
abbrev main_v263 : Ref sig .tc := ⟨.hbm, 397, rfl⟩
abbrev main_v264 : Ref sig .tc := ⟨.hbm, 398, rfl⟩
abbrev main_v265 : Ref sig .tc := ⟨.hbm, 399, rfl⟩
abbrev main_v266 : Ref sig .tc := ⟨.hbm, 400, rfl⟩
abbrev main_v267 : Ref sig .tc := ⟨.hbm, 401, rfl⟩
abbrev main_cst_40 : Ref sig .tc := ⟨.hbm, 402, rfl⟩
abbrev main_v268 : Ref sig .tc := ⟨.hbm, 403, rfl⟩
abbrev main_cst_41 : Ref sig .tc := ⟨.hbm, 404, rfl⟩
abbrev main_v269 : Ref sig .tc := ⟨.hbm, 405, rfl⟩
abbrev main_v270 : Ref sig .tc := ⟨.hbm, 406, rfl⟩
abbrev main_c_42 : Ref sig .tc := ⟨.hbm, 407, rfl⟩
abbrev main_call4_cst : Ref sig .tc := ⟨.hbm, 408, rfl⟩
abbrev main_call4_v0 : Ref sig .tc := ⟨.hbm, 409, rfl⟩
abbrev main_call4_v1 : Ref sig .tc := ⟨.hbm, 410, rfl⟩
abbrev main_call4_cst_0 : Ref sig .tc := ⟨.hbm, 411, rfl⟩
abbrev main_call4_v2 : Ref sig .tc := ⟨.hbm, 412, rfl⟩
abbrev main_call4_v3 : Ref sig .tc := ⟨.hbm, 413, rfl⟩
abbrev main_call4_v4 : Ref sig .tc := ⟨.hbm, 414, rfl⟩
abbrev main_call4_v5 : Ref sig .tc := ⟨.hbm, 415, rfl⟩
abbrev main_call4_v6 : Ref sig .tc := ⟨.hbm, 416, rfl⟩
abbrev main_call4_v7 : Ref sig .tc := ⟨.hbm, 417, rfl⟩
abbrev main_call4_cst_1 : Ref sig .tc := ⟨.hbm, 418, rfl⟩
abbrev main_call4_v8 : Ref sig .tc := ⟨.hbm, 419, rfl⟩
abbrev main_call4_cst_2 : Ref sig .tc := ⟨.hbm, 420, rfl⟩
abbrev main_call4_v9 : Ref sig .tc := ⟨.hbm, 421, rfl⟩
abbrev main_call4_v10 : Ref sig .tc := ⟨.hbm, 422, rfl⟩
abbrev main_call4_v11 : Ref sig .tc := ⟨.hbm, 423, rfl⟩
abbrev main_call4_cst_3 : Ref sig .tc := ⟨.hbm, 424, rfl⟩
abbrev main_call4_v12 : Ref sig .tc := ⟨.hbm, 425, rfl⟩
abbrev main_call4_cst_4 : Ref sig .tc := ⟨.hbm, 426, rfl⟩
abbrev main_call4_call0_v0 : Ref sig .tc := ⟨.hbm, 427, rfl⟩
abbrev main_call4_call0_v1 : Ref sig .tc := ⟨.hbm, 428, rfl⟩
abbrev main_v271 : Ref sig .tc := ⟨.hbm, 429, rfl⟩
abbrev main_v272 : Ref sig .tc := ⟨.hbm, 430, rfl⟩
abbrev main_v273 : Ref sig .tc := ⟨.hbm, 431, rfl⟩
abbrev main_v274 : Ref sig .tc := ⟨.hbm, 432, rfl⟩
abbrev main_cst_43 : Ref sig .tc := ⟨.hbm, 433, rfl⟩
abbrev main_v275 : Ref sig .tc := ⟨.hbm, 434, rfl⟩
abbrev main_v276 : Ref sig .tc := ⟨.hbm, 435, rfl⟩
abbrev main_v277 : Ref sig .tc := ⟨.hbm, 436, rfl⟩
abbrev main_v278 : Ref sig .tc := ⟨.hbm, 437, rfl⟩
abbrev main_v279 : Ref sig .tc := ⟨.hbm, 438, rfl⟩
abbrev main_v280 : Ref sig .tc := ⟨.hbm, 439, rfl⟩
abbrev main_v281 : Ref sig .tc := ⟨.hbm, 440, rfl⟩
abbrev main_v282 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_v286 : Ref sig .tc := ⟨.hbm, 445, rfl⟩
abbrev main_cst_44 : Ref sig .tc := ⟨.hbm, 446, rfl⟩
abbrev main_v287 : Ref sig .tc := ⟨.hbm, 447, rfl⟩
abbrev main_v288 : Ref sig .tc := ⟨.hbm, 448, rfl⟩
abbrev main_v289 : Ref sig .tc := ⟨.hbm, 449, rfl⟩
abbrev main_v290 : Ref sig .tc := ⟨.hbm, 450, rfl⟩
abbrev main_v291 : Ref sig .tc := ⟨.hbm, 451, rfl⟩
abbrev main_cst_45 : Ref sig .tc := ⟨.hbm, 452, rfl⟩
abbrev main_v292 : Ref sig .tc := ⟨.hbm, 453, rfl⟩
abbrev main_v293 : Ref sig .tc := ⟨.hbm, 454, rfl⟩
abbrev main_cst_46 : Ref sig .tc := ⟨.hbm, 455, rfl⟩
abbrev main_v294 : Ref sig .tc := ⟨.hbm, 456, rfl⟩
abbrev main_v295 : Ref sig .tc := ⟨.hbm, 457, rfl⟩
abbrev main_v296 : Ref sig .tc := ⟨.hbm, 458, rfl⟩
abbrev main_v297 : Ref sig .tc := ⟨.hbm, 459, rfl⟩
abbrev main_v298 : Ref sig .tc := ⟨.hbm, 460, rfl⟩
abbrev main_v299 : Ref sig .tc := ⟨.hbm, 461, rfl⟩
abbrev main_v300 : Ref sig .tc := ⟨.hbm, 462, rfl⟩
abbrev main_c_47 : Ref sig .tc := ⟨.hbm, 463, rfl⟩
abbrev main_v301 : Ref sig .tc := ⟨.hbm, 464, rfl⟩
abbrev main_v302 : Ref sig .tc := ⟨.hbm, 465, rfl⟩
abbrev main_c_48 : Ref sig .tc := ⟨.hbm, 466, rfl⟩
abbrev main_v303 : Ref sig .tc := ⟨.hbm, 467, rfl⟩
abbrev main_v304 : Ref sig .tc := ⟨.hbm, 468, rfl⟩
abbrev main_v305 : Ref sig .tc := ⟨.hbm, 469, rfl⟩
abbrev main_v306 : Ref sig .tc := ⟨.hbm, 470, rfl⟩
abbrev main_v307 : Ref sig .tc := ⟨.hbm, 471, rfl⟩
abbrev main_v308 : Ref sig .tc := ⟨.hbm, 472, rfl⟩
abbrev main_v309 : Ref sig .tc := ⟨.hbm, 473, rfl⟩
abbrev main_cst_49 : Ref sig .tc := ⟨.hbm, 474, rfl⟩
abbrev main_v310 : Ref sig .tc := ⟨.hbm, 475, rfl⟩
abbrev main_v311 : Ref sig .tc := ⟨.hbm, 476, rfl⟩
abbrev main_v312 : Ref sig .tc := ⟨.hbm, 477, rfl⟩
abbrev main_v313 : Ref sig .tc := ⟨.hbm, 478, rfl⟩
abbrev main_v314 : Ref sig .tc := ⟨.hbm, 479, rfl⟩
abbrev main_v315 : Ref sig .tc := ⟨.hbm, 480, rfl⟩
abbrev main_v316 : Ref sig .tc := ⟨.hbm, 481, rfl⟩
abbrev main_v317 : Ref sig .tc := ⟨.hbm, 482, rfl⟩
abbrev main_cst_50 : Ref sig .tc := ⟨.hbm, 483, rfl⟩
abbrev main_v318 : Ref sig .tc := ⟨.hbm, 484, rfl⟩
abbrev main_cst_51 : Ref sig .tc := ⟨.hbm, 485, rfl⟩
abbrev main_v319 : Ref sig .tc := ⟨.hbm, 486, rfl⟩
abbrev main_v320 : Ref sig .tc := ⟨.hbm, 487, rfl⟩
abbrev main_c_52 : Ref sig .tc := ⟨.hbm, 488, rfl⟩
abbrev main_call5_cst : Ref sig .tc := ⟨.hbm, 489, rfl⟩
abbrev main_call5_v0 : Ref sig .tc := ⟨.hbm, 490, rfl⟩
abbrev main_call5_v1 : Ref sig .tc := ⟨.hbm, 491, rfl⟩
abbrev main_call5_cst_0 : Ref sig .tc := ⟨.hbm, 492, rfl⟩
abbrev main_call5_v2 : Ref sig .tc := ⟨.hbm, 493, rfl⟩
abbrev main_call5_v3 : Ref sig .tc := ⟨.hbm, 494, rfl⟩
abbrev main_call5_v4 : Ref sig .tc := ⟨.hbm, 495, rfl⟩
abbrev main_call5_v5 : Ref sig .tc := ⟨.hbm, 496, rfl⟩
abbrev main_call5_v6 : Ref sig .tc := ⟨.hbm, 497, rfl⟩
abbrev main_call5_v7 : Ref sig .tc := ⟨.hbm, 498, rfl⟩
abbrev main_call5_cst_1 : Ref sig .tc := ⟨.hbm, 499, rfl⟩
abbrev main_call5_v8 : Ref sig .tc := ⟨.hbm, 500, rfl⟩
abbrev main_call5_cst_2 : Ref sig .tc := ⟨.hbm, 501, rfl⟩
abbrev main_call5_v9 : Ref sig .tc := ⟨.hbm, 502, rfl⟩
abbrev main_call5_v10 : Ref sig .tc := ⟨.hbm, 503, rfl⟩
abbrev main_call5_v11 : Ref sig .tc := ⟨.hbm, 504, rfl⟩
abbrev main_call5_cst_3 : Ref sig .tc := ⟨.hbm, 505, rfl⟩
abbrev main_call5_v12 : Ref sig .tc := ⟨.hbm, 506, rfl⟩
abbrev main_call5_cst_4 : Ref sig .tc := ⟨.hbm, 507, rfl⟩
abbrev main_call5_call0_v0 : Ref sig .tc := ⟨.hbm, 508, rfl⟩
abbrev main_call5_call0_v1 : Ref sig .tc := ⟨.hbm, 509, rfl⟩
abbrev main_v321 : Ref sig .tc := ⟨.hbm, 510, rfl⟩
abbrev main_v322 : Ref sig .tc := ⟨.hbm, 511, rfl⟩
abbrev main_v323 : Ref sig .tc := ⟨.hbm, 512, rfl⟩
abbrev main_v324 : Ref sig .tc := ⟨.hbm, 513, rfl⟩
abbrev main_cst_53 : Ref sig .tc := ⟨.hbm, 514, rfl⟩
abbrev main_v325 : Ref sig .tc := ⟨.hbm, 515, rfl⟩
abbrev main_v326 : Ref sig .tc := ⟨.hbm, 516, rfl⟩
abbrev main_v327 : Ref sig .tc := ⟨.hbm, 517, rfl⟩
abbrev main_v328 : Ref sig .tc := ⟨.hbm, 518, rfl⟩
abbrev main_v329 : Ref sig .tc := ⟨.hbm, 519, rfl⟩
abbrev main_v330 : Ref sig .tc := ⟨.hbm, 520, rfl⟩
abbrev main_v331 : Ref sig .tc := ⟨.hbm, 521, rfl⟩
abbrev main_v332 : Ref sig .tc := ⟨.hbm, 522, rfl⟩
abbrev main_v333 : Ref sig .tc := ⟨.hbm, 523, rfl⟩
abbrev main_v334 : Ref sig .tc := ⟨.hbm, 524, rfl⟩
abbrev main_v335 : Ref sig .tc := ⟨.hbm, 525, rfl⟩
abbrev main_v336 : Ref sig .tc := ⟨.hbm, 526, rfl⟩
abbrev main_cst_54 : Ref sig .tc := ⟨.hbm, 527, rfl⟩
abbrev main_v337 : Ref sig .tc := ⟨.hbm, 528, rfl⟩
abbrev main_v338 : Ref sig .tc := ⟨.hbm, 529, rfl⟩
abbrev main_v339 : Ref sig .tc := ⟨.hbm, 530, rfl⟩
abbrev main_v340 : Ref sig .tc := ⟨.hbm, 531, rfl⟩
abbrev main_v341 : Ref sig .tc := ⟨.hbm, 532, rfl⟩
abbrev main_cst_55 : Ref sig .tc := ⟨.hbm, 533, rfl⟩
abbrev main_v342 : Ref sig .tc := ⟨.hbm, 534, rfl⟩
abbrev main_v343 : Ref sig .tc := ⟨.hbm, 535, rfl⟩
abbrev main_cst_56 : Ref sig .tc := ⟨.hbm, 536, rfl⟩
abbrev main_v344 : Ref sig .tc := ⟨.hbm, 537, rfl⟩
abbrev main_v345 : Ref sig .tc := ⟨.hbm, 538, rfl⟩
abbrev main_v346 : Ref sig .tc := ⟨.hbm, 539, rfl⟩
abbrev main_v347 : Ref sig .tc := ⟨.hbm, 540, rfl⟩
abbrev main_v348 : Ref sig .tc := ⟨.hbm, 541, rfl⟩
abbrev main_v349 : Ref sig .tc := ⟨.hbm, 542, rfl⟩
abbrev main_v350 : Ref sig .tc := ⟨.hbm, 543, rfl⟩
abbrev main_c_57 : Ref sig .tc := ⟨.hbm, 544, rfl⟩
abbrev main_v351 : Ref sig .tc := ⟨.hbm, 545, rfl⟩
abbrev main_v352 : Ref sig .tc := ⟨.hbm, 546, rfl⟩
abbrev main_c_58 : Ref sig .tc := ⟨.hbm, 547, rfl⟩
abbrev main_v353 : Ref sig .tc := ⟨.hbm, 548, rfl⟩
abbrev main_v354 : Ref sig .tc := ⟨.hbm, 549, rfl⟩
abbrev main_v355 : Ref sig .tc := ⟨.hbm, 550, rfl⟩
abbrev main_v356 : Ref sig .tc := ⟨.hbm, 551, rfl⟩
abbrev main_v357 : Ref sig .tc := ⟨.hbm, 552, rfl⟩
abbrev main_v358 : Ref sig .tc := ⟨.hbm, 553, rfl⟩
abbrev main_v359 : Ref sig .tc := ⟨.hbm, 554, rfl⟩
abbrev main_cst_59 : Ref sig .tc := ⟨.hbm, 555, rfl⟩
abbrev main_v360 : Ref sig .tc := ⟨.hbm, 556, rfl⟩
abbrev main_v361 : Ref sig .tc := ⟨.hbm, 557, rfl⟩
abbrev main_v362 : Ref sig .tc := ⟨.hbm, 558, rfl⟩
abbrev main_v363 : Ref sig .tc := ⟨.hbm, 559, rfl⟩
abbrev main_v364 : Ref sig .tc := ⟨.hbm, 560, rfl⟩
abbrev main_v365 : Ref sig .tc := ⟨.hbm, 561, rfl⟩
abbrev main_v366 : Ref sig .tc := ⟨.hbm, 562, rfl⟩
abbrev main_v367 : Ref sig .tc := ⟨.hbm, 563, rfl⟩
abbrev main_v368 : Ref sig .tc := ⟨.hbm, 564, rfl⟩
abbrev main_cst_60 : Ref sig .tc := ⟨.hbm, 565, rfl⟩
abbrev main_v369 : Ref sig .tc := ⟨.hbm, 566, rfl⟩
abbrev main_cst_61 : Ref sig .tc := ⟨.hbm, 567, rfl⟩
abbrev main_v370 : Ref sig .tc := ⟨.hbm, 568, rfl⟩
abbrev main_v371 : Ref sig .tc := ⟨.hbm, 569, rfl⟩
abbrev main_c_62 : Ref sig .tc := ⟨.hbm, 570, rfl⟩
abbrev main_call6_cst : Ref sig .tc := ⟨.hbm, 571, rfl⟩
abbrev main_call6_v0 : Ref sig .tc := ⟨.hbm, 572, rfl⟩
abbrev main_call6_v1 : Ref sig .tc := ⟨.hbm, 573, rfl⟩
abbrev main_call6_cst_0 : Ref sig .tc := ⟨.hbm, 574, rfl⟩
abbrev main_call6_v2 : Ref sig .tc := ⟨.hbm, 575, rfl⟩
abbrev main_call6_v3 : Ref sig .tc := ⟨.hbm, 576, rfl⟩
abbrev main_call6_v4 : Ref sig .tc := ⟨.hbm, 577, rfl⟩
abbrev main_call6_v5 : Ref sig .tc := ⟨.hbm, 578, rfl⟩
abbrev main_call6_v6 : Ref sig .tc := ⟨.hbm, 579, rfl⟩
abbrev main_call6_v7 : Ref sig .tc := ⟨.hbm, 580, rfl⟩
abbrev main_call6_cst_1 : Ref sig .tc := ⟨.hbm, 581, rfl⟩
abbrev main_call6_v8 : Ref sig .tc := ⟨.hbm, 582, rfl⟩
abbrev main_call6_cst_2 : Ref sig .tc := ⟨.hbm, 583, rfl⟩
abbrev main_call6_v9 : Ref sig .tc := ⟨.hbm, 584, rfl⟩
abbrev main_call6_v10 : Ref sig .tc := ⟨.hbm, 585, rfl⟩
abbrev main_call6_v11 : Ref sig .tc := ⟨.hbm, 586, rfl⟩
abbrev main_call6_cst_3 : Ref sig .tc := ⟨.hbm, 587, rfl⟩
abbrev main_call6_v12 : Ref sig .tc := ⟨.hbm, 588, rfl⟩
abbrev main_call6_cst_4 : Ref sig .tc := ⟨.hbm, 589, rfl⟩
abbrev main_call6_call0_v0 : Ref sig .tc := ⟨.hbm, 590, rfl⟩
abbrev main_call6_call0_v1 : Ref sig .tc := ⟨.hbm, 591, rfl⟩
abbrev main_v372 : Ref sig .tc := ⟨.hbm, 592, rfl⟩
abbrev main_v373 : Ref sig .tc := ⟨.hbm, 593, rfl⟩
abbrev main_v374 : Ref sig .tc := ⟨.hbm, 594, rfl⟩
abbrev main_v375 : Ref sig .tc := ⟨.hbm, 595, rfl⟩
abbrev main_cst_63 : Ref sig .tc := ⟨.hbm, 596, rfl⟩
abbrev main_v376 : Ref sig .tc := ⟨.hbm, 597, rfl⟩
abbrev main_v377 : Ref sig .tc := ⟨.hbm, 598, rfl⟩
abbrev main_v378 : Ref sig .tc := ⟨.hbm, 599, rfl⟩
abbrev main_v379 : Ref sig .tc := ⟨.hbm, 600, rfl⟩
abbrev main_v380 : Ref sig .tc := ⟨.hbm, 601, rfl⟩
abbrev main_v381 : Ref sig .tc := ⟨.hbm, 602, rfl⟩
abbrev main_v382 : Ref sig .tc := ⟨.hbm, 603, rfl⟩
abbrev main_v383 : Ref sig .tc := ⟨.hbm, 604, rfl⟩
abbrev main_v384 : Ref sig .tc := ⟨.hbm, 605, rfl⟩
abbrev main_v385 : Ref sig .tc := ⟨.hbm, 606, rfl⟩
abbrev main_v386 : Ref sig .tc := ⟨.hbm, 607, rfl⟩
abbrev main_v387 : Ref sig .tc := ⟨.hbm, 608, rfl⟩
abbrev main_cst_64 : Ref sig .tc := ⟨.hbm, 609, rfl⟩
abbrev main_v388 : Ref sig .tc := ⟨.hbm, 610, rfl⟩
abbrev main_v389 : Ref sig .tc := ⟨.hbm, 611, rfl⟩
abbrev main_v390 : Ref sig .tc := ⟨.hbm, 612, rfl⟩
abbrev main_v391 : Ref sig .tc := ⟨.hbm, 613, rfl⟩
abbrev main_v392 : Ref sig .tc := ⟨.hbm, 614, rfl⟩
abbrev main_cst_65 : Ref sig .tc := ⟨.hbm, 615, rfl⟩
abbrev main_v393 : Ref sig .tc := ⟨.hbm, 616, rfl⟩
abbrev main_v394 : Ref sig .tc := ⟨.hbm, 617, rfl⟩
abbrev main_cst_66 : Ref sig .tc := ⟨.hbm, 618, rfl⟩
abbrev main_v395 : Ref sig .tc := ⟨.hbm, 619, rfl⟩
abbrev main_v396 : Ref sig .tc := ⟨.hbm, 620, rfl⟩
abbrev main_v397 : Ref sig .tc := ⟨.hbm, 621, rfl⟩
abbrev main_v398 : Ref sig .tc := ⟨.hbm, 622, rfl⟩
abbrev main_v399 : Ref sig .tc := ⟨.hbm, 623, rfl⟩
abbrev main_v400 : Ref sig .tc := ⟨.hbm, 624, rfl⟩
abbrev main_v401 : Ref sig .tc := ⟨.hbm, 625, rfl⟩
abbrev main_c_67 : Ref sig .tc := ⟨.hbm, 626, rfl⟩
abbrev main_v402 : Ref sig .tc := ⟨.hbm, 627, rfl⟩
abbrev main_v403 : Ref sig .tc := ⟨.hbm, 628, rfl⟩
abbrev main_c_68 : Ref sig .tc := ⟨.hbm, 629, rfl⟩
abbrev main_v404 : Ref sig .tc := ⟨.hbm, 630, rfl⟩
abbrev main_v405 : Ref sig .tc := ⟨.hbm, 631, rfl⟩
abbrev main_v406 : Ref sig .tc := ⟨.hbm, 632, rfl⟩
abbrev main_v407 : Ref sig .tc := ⟨.hbm, 633, rfl⟩
abbrev main_v408 : Ref sig .tc := ⟨.hbm, 634, rfl⟩
abbrev main_v409 : Ref sig .tc := ⟨.hbm, 635, rfl⟩
abbrev main_v410 : Ref sig .tc := ⟨.hbm, 636, rfl⟩
abbrev main_cst_69 : Ref sig .tc := ⟨.hbm, 637, rfl⟩
abbrev main_v411 : Ref sig .tc := ⟨.hbm, 638, rfl⟩
abbrev main_v412 : Ref sig .tc := ⟨.hbm, 639, rfl⟩
abbrev main_v413 : Ref sig .tc := ⟨.hbm, 640, rfl⟩
abbrev main_v414 : Ref sig .tc := ⟨.hbm, 641, rfl⟩
abbrev main_v415 : Ref sig .tc := ⟨.hbm, 642, rfl⟩
abbrev main_v416 : Ref sig .tc := ⟨.hbm, 643, rfl⟩
abbrev main_v417 : Ref sig .tc := ⟨.hbm, 644, rfl⟩
abbrev main_v418 : Ref sig .tc := ⟨.hbm, 645, rfl⟩
abbrev main_v419 : Ref sig .tc := ⟨.hbm, 646, rfl⟩
abbrev main_v420 : Ref sig .tc := ⟨.hbm, 647, rfl⟩
abbrev main_cst_70 : Ref sig .tc := ⟨.hbm, 648, rfl⟩
abbrev main_v421 : Ref sig .tc := ⟨.hbm, 649, rfl⟩
abbrev main_cst_71 : Ref sig .tc := ⟨.hbm, 650, rfl⟩
abbrev main_v422 : Ref sig .tc := ⟨.hbm, 651, rfl⟩
abbrev main_v423 : Ref sig .tc := ⟨.hbm, 652, rfl⟩
abbrev main_c_72 : Ref sig .tc := ⟨.hbm, 653, rfl⟩
abbrev main_call7_cst : Ref sig .tc := ⟨.hbm, 654, rfl⟩
abbrev main_call7_v0 : Ref sig .tc := ⟨.hbm, 655, rfl⟩
abbrev main_call7_v1 : Ref sig .tc := ⟨.hbm, 656, rfl⟩
abbrev main_call7_cst_0 : Ref sig .tc := ⟨.hbm, 657, rfl⟩
abbrev main_call7_v2 : Ref sig .tc := ⟨.hbm, 658, rfl⟩
abbrev main_call7_v3 : Ref sig .tc := ⟨.hbm, 659, rfl⟩
abbrev main_call7_v4 : Ref sig .tc := ⟨.hbm, 660, rfl⟩
abbrev main_call7_v5 : Ref sig .tc := ⟨.hbm, 661, rfl⟩
abbrev main_call7_v6 : Ref sig .tc := ⟨.hbm, 662, rfl⟩
abbrev main_call7_v7 : Ref sig .tc := ⟨.hbm, 663, rfl⟩
abbrev main_call7_cst_1 : Ref sig .tc := ⟨.hbm, 664, rfl⟩
abbrev main_call7_v8 : Ref sig .tc := ⟨.hbm, 665, rfl⟩
abbrev main_call7_cst_2 : Ref sig .tc := ⟨.hbm, 666, rfl⟩
abbrev main_call7_v9 : Ref sig .tc := ⟨.hbm, 667, rfl⟩
abbrev main_call7_v10 : Ref sig .tc := ⟨.hbm, 668, rfl⟩
abbrev main_call7_v11 : Ref sig .tc := ⟨.hbm, 669, rfl⟩
abbrev main_call7_cst_3 : Ref sig .tc := ⟨.hbm, 670, rfl⟩
abbrev main_call7_v12 : Ref sig .tc := ⟨.hbm, 671, rfl⟩
abbrev main_call7_cst_4 : Ref sig .tc := ⟨.hbm, 672, rfl⟩
abbrev main_call7_call0_v0 : Ref sig .tc := ⟨.hbm, 673, rfl⟩
abbrev main_call7_call0_v1 : Ref sig .tc := ⟨.hbm, 674, rfl⟩
abbrev main_v424 : Ref sig .tc := ⟨.hbm, 675, rfl⟩
abbrev main_v425 : Ref sig .tc := ⟨.hbm, 676, rfl⟩
abbrev main_v426 : Ref sig .tc := ⟨.hbm, 677, rfl⟩
abbrev main_v427 : Ref sig .tc := ⟨.hbm, 678, rfl⟩
abbrev main_cst_73 : Ref sig .tc := ⟨.hbm, 679, rfl⟩
abbrev main_v428 : Ref sig .tc := ⟨.hbm, 680, rfl⟩
abbrev main_v429 : Ref sig .tc := ⟨.hbm, 681, rfl⟩
abbrev main_v430 : Ref sig .tc := ⟨.hbm, 682, rfl⟩
abbrev main_v431 : Ref sig .tc := ⟨.hbm, 683, rfl⟩
abbrev main_v432 : Ref sig .tc := ⟨.hbm, 684, rfl⟩
abbrev main_v433 : Ref sig .tc := ⟨.hbm, 685, rfl⟩
abbrev main_v434 : Ref sig .tc := ⟨.hbm, 686, rfl⟩
abbrev main_v435 : Ref sig .tc := ⟨.hbm, 687, rfl⟩
abbrev main_v436 : Ref sig .tc := ⟨.hbm, 688, rfl⟩
abbrev main_v437 : Ref sig .tc := ⟨.hbm, 689, rfl⟩
abbrev main_v438 : Ref sig .tc := ⟨.hbm, 690, rfl⟩
abbrev main_v439 : Ref sig .tc := ⟨.hbm, 691, rfl⟩
abbrev main_cst_74 : Ref sig .tc := ⟨.hbm, 692, rfl⟩
abbrev main_v440 : Ref sig .tc := ⟨.hbm, 693, rfl⟩
abbrev main_v441 : Ref sig .tc := ⟨.hbm, 694, rfl⟩
abbrev main_v442 : Ref sig .tc := ⟨.hbm, 695, rfl⟩
abbrev main_v443 : Ref sig .tc := ⟨.hbm, 696, rfl⟩
abbrev main_v444 : Ref sig .tc := ⟨.hbm, 697, rfl⟩
abbrev main_cst_75 : Ref sig .tc := ⟨.hbm, 698, rfl⟩
abbrev main_v445 : Ref sig .tc := ⟨.hbm, 699, rfl⟩
abbrev main_v446 : Ref sig .tc := ⟨.hbm, 700, rfl⟩
abbrev main_cst_76 : Ref sig .tc := ⟨.hbm, 701, rfl⟩
abbrev main_v447 : Ref sig .tc := ⟨.hbm, 702, rfl⟩
abbrev main_v448 : Ref sig .tc := ⟨.hbm, 703, rfl⟩
abbrev main_v449 : Ref sig .tc := ⟨.hbm, 704, rfl⟩
abbrev main_v450 : Ref sig .tc := ⟨.hbm, 705, rfl⟩
abbrev main_v451 : Ref sig .tc := ⟨.hbm, 706, rfl⟩
abbrev main_v452 : Ref sig .tc := ⟨.hbm, 707, rfl⟩
abbrev main_v453 : Ref sig .tc := ⟨.hbm, 708, rfl⟩
abbrev main_c_77 : Ref sig .tc := ⟨.hbm, 709, rfl⟩
abbrev main_v454 : Ref sig .tc := ⟨.hbm, 710, rfl⟩
abbrev main_v455 : Ref sig .tc := ⟨.hbm, 711, rfl⟩
abbrev main_c_78 : Ref sig .tc := ⟨.hbm, 712, rfl⟩
abbrev main_v456 : Ref sig .tc := ⟨.hbm, 713, rfl⟩
abbrev main_v457 : Ref sig .tc := ⟨.hbm, 714, rfl⟩
abbrev main_v458 : Ref sig .tc := ⟨.hbm, 715, rfl⟩
abbrev main_v459 : Ref sig .tc := ⟨.hbm, 716, rfl⟩
abbrev main_v460 : Ref sig .tc := ⟨.hbm, 717, rfl⟩
abbrev main_v461 : Ref sig .tc := ⟨.hbm, 718, rfl⟩
abbrev main_v462 : Ref sig .tc := ⟨.hbm, 719, rfl⟩
abbrev main_cst_79 : Ref sig .tc := ⟨.hbm, 720, rfl⟩
abbrev main_v463 : Ref sig .tc := ⟨.hbm, 721, rfl⟩
abbrev main_v464 : Ref sig .tc := ⟨.hbm, 722, rfl⟩
abbrev main_v465 : Ref sig .tc := ⟨.hbm, 723, rfl⟩
abbrev main_v466 : Ref sig .tc := ⟨.hbm, 724, rfl⟩
abbrev main_v467 : Ref sig .tc := ⟨.hbm, 725, rfl⟩
abbrev main_v468 : Ref sig .tc := ⟨.hbm, 726, rfl⟩
abbrev main_v469 : Ref sig .tc := ⟨.hbm, 727, rfl⟩
abbrev main_v470 : Ref sig .tc := ⟨.hbm, 728, rfl⟩
abbrev main_v471 : Ref sig .tc := ⟨.hbm, 729, rfl⟩
abbrev main_v472 : Ref sig .tc := ⟨.hbm, 730, rfl⟩
abbrev main_v473 : Ref sig .tc := ⟨.hbm, 731, rfl⟩
abbrev main_cst_80 : Ref sig .tc := ⟨.hbm, 732, rfl⟩
abbrev main_v474 : Ref sig .tc := ⟨.hbm, 733, rfl⟩
abbrev main_cst_81 : Ref sig .tc := ⟨.hbm, 734, rfl⟩
abbrev main_v475 : Ref sig .tc := ⟨.hbm, 735, rfl⟩
abbrev main_v476 : Ref sig .tc := ⟨.hbm, 736, rfl⟩
abbrev main_c_82 : Ref sig .tc := ⟨.hbm, 737, rfl⟩
abbrev main_call8_cst : Ref sig .tc := ⟨.hbm, 738, rfl⟩
abbrev main_call8_v0 : Ref sig .tc := ⟨.hbm, 739, rfl⟩
abbrev main_call8_v1 : Ref sig .tc := ⟨.hbm, 740, rfl⟩
abbrev main_call8_cst_0 : Ref sig .tc := ⟨.hbm, 741, rfl⟩
abbrev main_call8_v2 : Ref sig .tc := ⟨.hbm, 742, rfl⟩
abbrev main_call8_v3 : Ref sig .tc := ⟨.hbm, 743, rfl⟩
abbrev main_call8_v4 : Ref sig .tc := ⟨.hbm, 744, rfl⟩
abbrev main_call8_v5 : Ref sig .tc := ⟨.hbm, 745, rfl⟩
abbrev main_call8_v6 : Ref sig .tc := ⟨.hbm, 746, rfl⟩
abbrev main_call8_v7 : Ref sig .tc := ⟨.hbm, 747, rfl⟩
abbrev main_call8_cst_1 : Ref sig .tc := ⟨.hbm, 748, rfl⟩
abbrev main_call8_v8 : Ref sig .tc := ⟨.hbm, 749, rfl⟩
abbrev main_call8_cst_2 : Ref sig .tc := ⟨.hbm, 750, rfl⟩
abbrev main_call8_v9 : Ref sig .tc := ⟨.hbm, 751, rfl⟩
abbrev main_call8_v10 : Ref sig .tc := ⟨.hbm, 752, rfl⟩
abbrev main_call8_v11 : Ref sig .tc := ⟨.hbm, 753, rfl⟩
abbrev main_call8_cst_3 : Ref sig .tc := ⟨.hbm, 754, rfl⟩
abbrev main_call8_v12 : Ref sig .tc := ⟨.hbm, 755, rfl⟩
abbrev main_call8_cst_4 : Ref sig .tc := ⟨.hbm, 756, rfl⟩
abbrev main_call8_call0_v0 : Ref sig .tc := ⟨.hbm, 757, rfl⟩
abbrev main_call8_call0_v1 : Ref sig .tc := ⟨.hbm, 758, rfl⟩
abbrev main_v477 : Ref sig .tc := ⟨.hbm, 759, rfl⟩
abbrev main_v478 : Ref sig .tc := ⟨.hbm, 760, rfl⟩
abbrev main_v479 : Ref sig .tc := ⟨.hbm, 761, rfl⟩
abbrev main_v480 : Ref sig .tc := ⟨.hbm, 762, rfl⟩
abbrev main_cst_83 : Ref sig .tc := ⟨.hbm, 763, rfl⟩
abbrev main_v481 : Ref sig .tc := ⟨.hbm, 764, rfl⟩
abbrev main_v482 : Ref sig .tc := ⟨.hbm, 765, rfl⟩
abbrev main_v483 : Ref sig .tc := ⟨.hbm, 766, rfl⟩
abbrev main_v484 : Ref sig .tc := ⟨.hbm, 767, rfl⟩
abbrev main_v485 : Ref sig .tc := ⟨.hbm, 768, rfl⟩
abbrev main_v486 : Ref sig .tc := ⟨.hbm, 769, rfl⟩
abbrev main_v487 : Ref sig .tc := ⟨.hbm, 770, rfl⟩
abbrev main_v488 : Ref sig .tc := ⟨.hbm, 771, rfl⟩
abbrev main_v489 : Ref sig .tc := ⟨.hbm, 772, rfl⟩
abbrev main_v490 : Ref sig .tc := ⟨.hbm, 773, rfl⟩
abbrev main_v491 : Ref sig .tc := ⟨.hbm, 774, rfl⟩
abbrev main_v492 : Ref sig .tc := ⟨.hbm, 775, rfl⟩
abbrev main_cst_84 : Ref sig .tc := ⟨.hbm, 776, rfl⟩
abbrev main_v493 : Ref sig .tc := ⟨.hbm, 777, rfl⟩
abbrev main_v494 : Ref sig .tc := ⟨.hbm, 778, rfl⟩
abbrev main_v495 : Ref sig .tc := ⟨.hbm, 779, rfl⟩
abbrev main_v496 : Ref sig .tc := ⟨.hbm, 780, rfl⟩
abbrev main_v497 : Ref sig .tc := ⟨.hbm, 781, rfl⟩
abbrev main_cst_85 : Ref sig .tc := ⟨.hbm, 782, rfl⟩
abbrev main_v498 : Ref sig .tc := ⟨.hbm, 783, rfl⟩
abbrev main_v499 : Ref sig .tc := ⟨.hbm, 784, rfl⟩
abbrev main_cst_86 : Ref sig .tc := ⟨.hbm, 785, rfl⟩
abbrev main_v500 : Ref sig .tc := ⟨.hbm, 786, rfl⟩
abbrev main_v501 : Ref sig .tc := ⟨.hbm, 787, rfl⟩
abbrev main_v502 : Ref sig .tc := ⟨.hbm, 788, rfl⟩
abbrev main_v503 : Ref sig .tc := ⟨.hbm, 789, rfl⟩
abbrev main_v504 : Ref sig .tc := ⟨.hbm, 790, rfl⟩
abbrev main_v505 : Ref sig .tc := ⟨.hbm, 791, rfl⟩
abbrev main_v506 : Ref sig .tc := ⟨.hbm, 792, rfl⟩
abbrev main_c_87 : Ref sig .tc := ⟨.hbm, 793, rfl⟩
abbrev main_v507 : Ref sig .tc := ⟨.hbm, 794, rfl⟩
abbrev main_v508 : Ref sig .tc := ⟨.hbm, 795, rfl⟩
abbrev main_c_88 : Ref sig .tc := ⟨.hbm, 796, rfl⟩
abbrev main_v509 : Ref sig .tc := ⟨.hbm, 797, rfl⟩
abbrev main_v510 : Ref sig .tc := ⟨.hbm, 798, rfl⟩
abbrev main_v511 : Ref sig .tc := ⟨.hbm, 799, rfl⟩
abbrev main_v512 : Ref sig .tc := ⟨.hbm, 800, rfl⟩
abbrev main_v513 : Ref sig .tc := ⟨.hbm, 801, rfl⟩
abbrev main_v514 : Ref sig .tc := ⟨.hbm, 802, rfl⟩
abbrev main_v515 : Ref sig .tc := ⟨.hbm, 803, rfl⟩
abbrev main_cst_89 : Ref sig .tc := ⟨.hbm, 804, rfl⟩
abbrev main_v516 : Ref sig .tc := ⟨.hbm, 805, rfl⟩
abbrev main_v517 : Ref sig .tc := ⟨.hbm, 806, rfl⟩
abbrev main_v518 : Ref sig .tc := ⟨.hbm, 807, rfl⟩
abbrev main_v519 : Ref sig .tc := ⟨.hbm, 808, rfl⟩
abbrev main_v520 : Ref sig .tc := ⟨.hbm, 809, rfl⟩
abbrev main_v521 : Ref sig .tc := ⟨.hbm, 810, rfl⟩
abbrev main_v522 : Ref sig .tc := ⟨.hbm, 811, rfl⟩
abbrev main_v523 : Ref sig .tc := ⟨.hbm, 812, rfl⟩
abbrev main_v524 : Ref sig .tc := ⟨.hbm, 813, rfl⟩
abbrev main_v525 : Ref sig .tc := ⟨.hbm, 814, rfl⟩
abbrev main_v526 : Ref sig .tc := ⟨.hbm, 815, rfl⟩
abbrev main_v527 : Ref sig .tc := ⟨.hbm, 816, rfl⟩
abbrev main_cst_90 : Ref sig .tc := ⟨.hbm, 817, rfl⟩
abbrev main_v528 : Ref sig .tc := ⟨.hbm, 818, rfl⟩
abbrev main_cst_91 : Ref sig .tc := ⟨.hbm, 819, rfl⟩
abbrev main_v529 : Ref sig .tc := ⟨.hbm, 820, rfl⟩
abbrev main_v530 : Ref sig .tc := ⟨.hbm, 821, rfl⟩
abbrev main_c_92 : Ref sig .tc := ⟨.hbm, 822, rfl⟩
abbrev main_call9_cst : Ref sig .tc := ⟨.hbm, 823, rfl⟩
abbrev main_call9_v0 : Ref sig .tc := ⟨.hbm, 824, rfl⟩
abbrev main_call9_v1 : Ref sig .tc := ⟨.hbm, 825, rfl⟩
abbrev main_call9_cst_0 : Ref sig .tc := ⟨.hbm, 826, rfl⟩
abbrev main_call9_v2 : Ref sig .tc := ⟨.hbm, 827, rfl⟩
abbrev main_call9_v3 : Ref sig .tc := ⟨.hbm, 828, rfl⟩
abbrev main_call9_v4 : Ref sig .tc := ⟨.hbm, 829, rfl⟩
abbrev main_call9_v5 : Ref sig .tc := ⟨.hbm, 830, rfl⟩
abbrev main_call9_v6 : Ref sig .tc := ⟨.hbm, 831, rfl⟩
abbrev main_call9_v7 : Ref sig .tc := ⟨.hbm, 832, rfl⟩
abbrev main_call9_cst_1 : Ref sig .tc := ⟨.hbm, 833, rfl⟩
abbrev main_call9_v8 : Ref sig .tc := ⟨.hbm, 834, rfl⟩
abbrev main_call9_cst_2 : Ref sig .tc := ⟨.hbm, 835, rfl⟩
abbrev main_call9_v9 : Ref sig .tc := ⟨.hbm, 836, rfl⟩
abbrev main_call9_v10 : Ref sig .tc := ⟨.hbm, 837, rfl⟩
abbrev main_call9_v11 : Ref sig .tc := ⟨.hbm, 838, rfl⟩
abbrev main_call9_cst_3 : Ref sig .tc := ⟨.hbm, 839, rfl⟩
abbrev main_call9_v12 : Ref sig .tc := ⟨.hbm, 840, rfl⟩
abbrev main_call9_cst_4 : Ref sig .tc := ⟨.hbm, 841, rfl⟩
abbrev main_call9_call0_v0 : Ref sig .tc := ⟨.hbm, 842, rfl⟩
abbrev main_call9_call0_v1 : Ref sig .tc := ⟨.hbm, 843, rfl⟩
abbrev main_v531 : Ref sig .tc := ⟨.hbm, 844, rfl⟩
abbrev main_v532 : Ref sig .tc := ⟨.hbm, 845, rfl⟩
abbrev main_v533 : Ref sig .tc := ⟨.hbm, 846, rfl⟩
abbrev main_v534 : Ref sig .tc := ⟨.hbm, 847, rfl⟩
abbrev main_cst_93 : Ref sig .tc := ⟨.hbm, 848, rfl⟩
abbrev main_v535 : Ref sig .tc := ⟨.hbm, 849, rfl⟩
abbrev main_v536 : Ref sig .tc := ⟨.hbm, 850, rfl⟩
abbrev main_v537 : Ref sig .tc := ⟨.hbm, 851, rfl⟩
abbrev main_v538 : Ref sig .tc := ⟨.hbm, 852, rfl⟩
abbrev main_v539 : Ref sig .tc := ⟨.hbm, 853, rfl⟩
abbrev main_v540 : Ref sig .tc := ⟨.hbm, 854, rfl⟩
abbrev main_v541 : Ref sig .tc := ⟨.hbm, 855, rfl⟩
abbrev main_v542 : Ref sig .tc := ⟨.hbm, 856, rfl⟩
abbrev main_v543 : Ref sig .tc := ⟨.hbm, 857, rfl⟩
abbrev main_v544 : Ref sig .tc := ⟨.hbm, 858, rfl⟩
abbrev main_v545 : Ref sig .tc := ⟨.hbm, 859, rfl⟩
abbrev main_v546 : Ref sig .tc := ⟨.hbm, 860, rfl⟩
abbrev main_cst_94 : Ref sig .tc := ⟨.hbm, 861, rfl⟩
abbrev main_v547 : Ref sig .tc := ⟨.hbm, 862, rfl⟩
abbrev main_v548 : Ref sig .tc := ⟨.hbm, 863, rfl⟩
abbrev main_v549 : Ref sig .tc := ⟨.hbm, 864, rfl⟩
abbrev main_v550 : Ref sig .tc := ⟨.hbm, 865, rfl⟩
abbrev main_v551 : Ref sig .tc := ⟨.hbm, 866, rfl⟩
abbrev main_cst_95 : Ref sig .tc := ⟨.hbm, 867, rfl⟩
abbrev main_v552 : Ref sig .tc := ⟨.hbm, 868, rfl⟩
abbrev main_v553 : Ref sig .tc := ⟨.hbm, 869, rfl⟩
abbrev main_cst_96 : Ref sig .tc := ⟨.hbm, 870, rfl⟩
abbrev main_v554 : Ref sig .tc := ⟨.hbm, 871, rfl⟩
abbrev main_v555 : Ref sig .tc := ⟨.hbm, 872, rfl⟩
abbrev main_v556 : Ref sig .tc := ⟨.hbm, 873, rfl⟩
abbrev main_v557 : Ref sig .tc := ⟨.hbm, 874, rfl⟩
abbrev main_v558 : Ref sig .tc := ⟨.hbm, 875, rfl⟩
abbrev main_v559 : Ref sig .tc := ⟨.hbm, 876, rfl⟩
abbrev main_v560 : Ref sig .tc := ⟨.hbm, 877, rfl⟩
abbrev main_c_97 : Ref sig .tc := ⟨.hbm, 878, rfl⟩
abbrev main_v561 : Ref sig .tc := ⟨.hbm, 879, rfl⟩
abbrev main_v562 : Ref sig .tc := ⟨.hbm, 880, rfl⟩
abbrev main_c_98 : Ref sig .tc := ⟨.hbm, 881, rfl⟩
abbrev main_v563 : Ref sig .tc := ⟨.hbm, 882, rfl⟩
abbrev main_v564 : Ref sig .tc := ⟨.hbm, 883, rfl⟩
abbrev main_v565 : Ref sig .tc := ⟨.hbm, 884, rfl⟩
abbrev main_v566 : Ref sig .tc := ⟨.hbm, 885, rfl⟩
abbrev main_v567 : Ref sig .tc := ⟨.hbm, 886, rfl⟩
abbrev main_v568 : Ref sig .tc := ⟨.hbm, 887, rfl⟩
abbrev main_v569 : Ref sig .tc := ⟨.hbm, 888, rfl⟩
abbrev main_cst_99 : Ref sig .tc := ⟨.hbm, 889, rfl⟩
abbrev main_v570 : Ref sig .tc := ⟨.hbm, 890, rfl⟩
abbrev main_v571 : Ref sig .tc := ⟨.hbm, 891, rfl⟩
abbrev main_v572 : Ref sig .tc := ⟨.hbm, 892, rfl⟩
abbrev main_v573 : Ref sig .tc := ⟨.hbm, 893, rfl⟩
abbrev main_v574 : Ref sig .tc := ⟨.hbm, 894, rfl⟩
abbrev main_v575 : Ref sig .tc := ⟨.hbm, 895, rfl⟩
abbrev main_v576 : Ref sig .tc := ⟨.hbm, 896, rfl⟩
abbrev main_v577 : Ref sig .tc := ⟨.hbm, 897, rfl⟩
abbrev main_v578 : Ref sig .tc := ⟨.hbm, 898, rfl⟩
abbrev main_v579 : Ref sig .tc := ⟨.hbm, 899, rfl⟩
abbrev main_v580 : Ref sig .tc := ⟨.hbm, 900, rfl⟩
abbrev main_v581 : Ref sig .tc := ⟨.hbm, 901, rfl⟩
abbrev main_v582 : Ref sig .tc := ⟨.hbm, 902, rfl⟩
abbrev main_cst_100 : Ref sig .tc := ⟨.hbm, 903, rfl⟩
abbrev main_v583 : Ref sig .tc := ⟨.hbm, 904, rfl⟩
abbrev main_cst_101 : Ref sig .tc := ⟨.hbm, 905, rfl⟩
abbrev main_v584 : Ref sig .tc := ⟨.hbm, 906, rfl⟩
abbrev main_v585 : Ref sig .tc := ⟨.hbm, 907, rfl⟩
abbrev main_c_102 : Ref sig .tc := ⟨.hbm, 908, rfl⟩
abbrev main_call10_cst : Ref sig .tc := ⟨.hbm, 909, rfl⟩
abbrev main_call10_v0 : Ref sig .tc := ⟨.hbm, 910, rfl⟩
abbrev main_call10_v1 : Ref sig .tc := ⟨.hbm, 911, rfl⟩
abbrev main_call10_cst_0 : Ref sig .tc := ⟨.hbm, 912, rfl⟩
abbrev main_call10_v2 : Ref sig .tc := ⟨.hbm, 913, rfl⟩
abbrev main_call10_v3 : Ref sig .tc := ⟨.hbm, 914, rfl⟩
abbrev main_call10_v4 : Ref sig .tc := ⟨.hbm, 915, rfl⟩
abbrev main_call10_v5 : Ref sig .tc := ⟨.hbm, 916, rfl⟩
abbrev main_call10_v6 : Ref sig .tc := ⟨.hbm, 917, rfl⟩
abbrev main_call10_v7 : Ref sig .tc := ⟨.hbm, 918, rfl⟩
abbrev main_call10_cst_1 : Ref sig .tc := ⟨.hbm, 919, rfl⟩
abbrev main_call10_v8 : Ref sig .tc := ⟨.hbm, 920, rfl⟩
abbrev main_call10_cst_2 : Ref sig .tc := ⟨.hbm, 921, rfl⟩
abbrev main_call10_v9 : Ref sig .tc := ⟨.hbm, 922, rfl⟩
abbrev main_call10_v10 : Ref sig .tc := ⟨.hbm, 923, rfl⟩
abbrev main_call10_v11 : Ref sig .tc := ⟨.hbm, 924, rfl⟩
abbrev main_call10_cst_3 : Ref sig .tc := ⟨.hbm, 925, rfl⟩
abbrev main_call10_v12 : Ref sig .tc := ⟨.hbm, 926, rfl⟩
abbrev main_call10_cst_4 : Ref sig .tc := ⟨.hbm, 927, rfl⟩
abbrev main_call10_call0_v0 : Ref sig .tc := ⟨.hbm, 928, rfl⟩
abbrev main_call10_call0_v1 : Ref sig .tc := ⟨.hbm, 929, rfl⟩
abbrev main_v586 : Ref sig .tc := ⟨.hbm, 930, rfl⟩
abbrev main_v587 : Ref sig .tc := ⟨.hbm, 931, rfl⟩
abbrev main_v588 : Ref sig .tc := ⟨.hbm, 932, rfl⟩
abbrev main_v589 : Ref sig .tc := ⟨.hbm, 933, rfl⟩
abbrev main_cst_103 : Ref sig .tc := ⟨.hbm, 934, rfl⟩
abbrev main_v590 : Ref sig .tc := ⟨.hbm, 935, rfl⟩
abbrev main_v591 : Ref sig .tc := ⟨.hbm, 936, rfl⟩
abbrev main_v592 : Ref sig .tc := ⟨.hbm, 937, rfl⟩
abbrev main_v593 : Ref sig .tc := ⟨.hbm, 938, rfl⟩
abbrev main_v594 : Ref sig .tc := ⟨.hbm, 939, rfl⟩
abbrev main_v595 : Ref sig .tc := ⟨.hbm, 940, rfl⟩
abbrev main_v596 : Ref sig .tc := ⟨.hbm, 941, rfl⟩
abbrev main_v597 : Ref sig .tc := ⟨.hbm, 942, rfl⟩
abbrev main_v598 : Ref sig .tc := ⟨.hbm, 943, rfl⟩
abbrev main_v599 : Ref sig .tc := ⟨.hbm, 944, rfl⟩
abbrev main_v600 : Ref sig .tc := ⟨.hbm, 945, rfl⟩
abbrev main_v601 : Ref sig .tc := ⟨.hbm, 946, rfl⟩
abbrev main_cst_104 : Ref sig .tc := ⟨.hbm, 947, rfl⟩
abbrev main_v602 : Ref sig .tc := ⟨.hbm, 948, rfl⟩
abbrev main_v603 : Ref sig .tc := ⟨.hbm, 949, rfl⟩
abbrev main_v604 : Ref sig .tc := ⟨.hbm, 950, rfl⟩
abbrev main_v605 : Ref sig .tc := ⟨.hbm, 951, rfl⟩
abbrev main_v606 : Ref sig .tc := ⟨.hbm, 952, rfl⟩
abbrev main_cst_105 : Ref sig .tc := ⟨.hbm, 953, rfl⟩
abbrev main_v607 : Ref sig .tc := ⟨.hbm, 954, rfl⟩
abbrev main_v608 : Ref sig .tc := ⟨.hbm, 955, rfl⟩
abbrev main_cst_106 : Ref sig .tc := ⟨.hbm, 956, rfl⟩
abbrev main_v609 : Ref sig .tc := ⟨.hbm, 957, rfl⟩
abbrev main_v610 : Ref sig .tc := ⟨.hbm, 958, rfl⟩
abbrev main_v611 : Ref sig .tc := ⟨.hbm, 959, rfl⟩
abbrev main_v612 : Ref sig .tc := ⟨.hbm, 960, rfl⟩
abbrev main_v613 : Ref sig .tc := ⟨.hbm, 961, rfl⟩
abbrev main_v614 : Ref sig .tc := ⟨.hbm, 962, rfl⟩
abbrev main_v615 : Ref sig .tc := ⟨.hbm, 963, rfl⟩
abbrev main_c_107 : Ref sig .tc := ⟨.hbm, 964, rfl⟩
abbrev main_v616 : Ref sig .tc := ⟨.hbm, 965, rfl⟩
abbrev main_v617 : Ref sig .tc := ⟨.hbm, 966, rfl⟩
abbrev main_c_108 : Ref sig .tc := ⟨.hbm, 967, rfl⟩
abbrev main_v618 : Ref sig .tc := ⟨.hbm, 968, rfl⟩
abbrev main_v619 : Ref sig .tc := ⟨.hbm, 969, rfl⟩
abbrev main_v620 : Ref sig .tc := ⟨.hbm, 970, rfl⟩
abbrev main_v621 : Ref sig .tc := ⟨.hbm, 971, rfl⟩
abbrev main_v622 : Ref sig .tc := ⟨.hbm, 972, rfl⟩
abbrev main_v623 : Ref sig .tc := ⟨.hbm, 973, rfl⟩
abbrev main_v624 : Ref sig .tc := ⟨.hbm, 974, rfl⟩
abbrev main_cst_109 : Ref sig .tc := ⟨.hbm, 975, rfl⟩
abbrev main_v625 : Ref sig .tc := ⟨.hbm, 976, rfl⟩
abbrev main_v626 : Ref sig .tc := ⟨.hbm, 977, rfl⟩
abbrev main_v627 : Ref sig .tc := ⟨.hbm, 978, rfl⟩
abbrev main_v628 : Ref sig .tc := ⟨.hbm, 979, rfl⟩
abbrev main_v629 : Ref sig .tc := ⟨.hbm, 980, rfl⟩
abbrev main_v630 : Ref sig .tc := ⟨.hbm, 981, rfl⟩
abbrev main_v631 : Ref sig .tc := ⟨.hbm, 982, rfl⟩
abbrev main_v632 : Ref sig .tc := ⟨.hbm, 983, rfl⟩
abbrev main_v633 : Ref sig .tc := ⟨.hbm, 984, rfl⟩
abbrev main_v634 : Ref sig .tc := ⟨.hbm, 985, rfl⟩
abbrev main_v635 : Ref sig .tc := ⟨.hbm, 986, rfl⟩
abbrev main_v636 : Ref sig .tc := ⟨.hbm, 987, rfl⟩
abbrev main_v637 : Ref sig .tc := ⟨.hbm, 988, rfl⟩
abbrev main_v638 : Ref sig .tc := ⟨.hbm, 989, rfl⟩
abbrev main_cst_110 : Ref sig .tc := ⟨.hbm, 990, rfl⟩
abbrev main_v639 : Ref sig .tc := ⟨.hbm, 991, rfl⟩
abbrev main_cst_111 : Ref sig .tc := ⟨.hbm, 992, rfl⟩
abbrev main_v640 : Ref sig .tc := ⟨.hbm, 993, rfl⟩
abbrev main_v641 : Ref sig .tc := ⟨.hbm, 994, rfl⟩
abbrev main_c_112 : Ref sig .tc := ⟨.hbm, 995, rfl⟩
abbrev main_call11_cst : Ref sig .tc := ⟨.hbm, 996, rfl⟩
abbrev main_call11_v0 : Ref sig .tc := ⟨.hbm, 997, rfl⟩
abbrev main_call11_v1 : Ref sig .tc := ⟨.hbm, 998, rfl⟩
abbrev main_call11_cst_0 : Ref sig .tc := ⟨.hbm, 999, rfl⟩
abbrev main_call11_v2 : Ref sig .tc := ⟨.hbm, 1000, rfl⟩
abbrev main_call11_v3 : Ref sig .tc := ⟨.hbm, 1001, rfl⟩
abbrev main_call11_v4 : Ref sig .tc := ⟨.hbm, 1002, rfl⟩
abbrev main_call11_v5 : Ref sig .tc := ⟨.hbm, 1003, rfl⟩
abbrev main_call11_v6 : Ref sig .tc := ⟨.hbm, 1004, rfl⟩
abbrev main_call11_v7 : Ref sig .tc := ⟨.hbm, 1005, rfl⟩
abbrev main_call11_cst_1 : Ref sig .tc := ⟨.hbm, 1006, rfl⟩
abbrev main_call11_v8 : Ref sig .tc := ⟨.hbm, 1007, rfl⟩
abbrev main_call11_cst_2 : Ref sig .tc := ⟨.hbm, 1008, rfl⟩
abbrev main_call11_v9 : Ref sig .tc := ⟨.hbm, 1009, rfl⟩
abbrev main_call11_v10 : Ref sig .tc := ⟨.hbm, 1010, rfl⟩
abbrev main_call11_v11 : Ref sig .tc := ⟨.hbm, 1011, rfl⟩
abbrev main_call11_cst_3 : Ref sig .tc := ⟨.hbm, 1012, rfl⟩
abbrev main_call11_v12 : Ref sig .tc := ⟨.hbm, 1013, rfl⟩
abbrev main_call11_cst_4 : Ref sig .tc := ⟨.hbm, 1014, rfl⟩
abbrev main_call11_call0_v0 : Ref sig .tc := ⟨.hbm, 1015, rfl⟩
abbrev main_call11_call0_v1 : Ref sig .tc := ⟨.hbm, 1016, rfl⟩
abbrev main_v642 : Ref sig .tc := ⟨.hbm, 1017, rfl⟩
abbrev main_v643 : Ref sig .tc := ⟨.hbm, 1018, rfl⟩
abbrev main_v644 : Ref sig .tc := ⟨.hbm, 1019, rfl⟩
abbrev main_v645 : Ref sig .tc := ⟨.hbm, 1020, rfl⟩
abbrev main_cst_113 : Ref sig .tc := ⟨.hbm, 1021, rfl⟩
abbrev main_v646 : Ref sig .tc := ⟨.hbm, 1022, rfl⟩
abbrev main_v647 : Ref sig .tc := ⟨.hbm, 1023, rfl⟩
abbrev main_v648 : Ref sig .tc := ⟨.hbm, 1024, rfl⟩
abbrev main_v649 : Ref sig .tc := ⟨.hbm, 1025, rfl⟩
abbrev main_v650 : Ref sig .tc := ⟨.hbm, 1026, rfl⟩
abbrev main_v651 : Ref sig .tc := ⟨.hbm, 1027, rfl⟩
abbrev main_v652 : Ref sig .tc := ⟨.hbm, 1028, rfl⟩
abbrev main_v653 : Ref sig .tc := ⟨.hbm, 1029, rfl⟩
abbrev main_v654 : Ref sig .tc := ⟨.hbm, 1030, rfl⟩
abbrev main_v655 : Ref sig .tc := ⟨.hbm, 1031, rfl⟩
abbrev main_v656 : Ref sig .tc := ⟨.hbm, 1032, rfl⟩
abbrev main_v657 : Ref sig .tc := ⟨.hbm, 1033, rfl⟩
abbrev main_cst_114 : Ref sig .tc := ⟨.hbm, 1034, rfl⟩
abbrev main_v658 : Ref sig .tc := ⟨.hbm, 1035, rfl⟩
abbrev main_v659 : Ref sig .tc := ⟨.hbm, 1036, rfl⟩
abbrev main_v660 : Ref sig .tc := ⟨.hbm, 1037, rfl⟩
abbrev main_v661 : Ref sig .tc := ⟨.hbm, 1038, rfl⟩
abbrev main_v662 : Ref sig .tc := ⟨.hbm, 1039, rfl⟩
abbrev main_cst_115 : Ref sig .tc := ⟨.hbm, 1040, rfl⟩
abbrev main_v663 : Ref sig .tc := ⟨.hbm, 1041, rfl⟩
abbrev main_v664 : Ref sig .tc := ⟨.hbm, 1042, rfl⟩
abbrev main_cst_116 : Ref sig .tc := ⟨.hbm, 1043, rfl⟩
abbrev main_v665 : Ref sig .tc := ⟨.hbm, 1044, rfl⟩
abbrev main_v666 : Ref sig .tc := ⟨.hbm, 1045, rfl⟩
abbrev main_v667 : Ref sig .tc := ⟨.hbm, 1046, rfl⟩
abbrev main_v668 : Ref sig .tc := ⟨.hbm, 1047, rfl⟩
abbrev main_v669 : Ref sig .tc := ⟨.hbm, 1048, rfl⟩
abbrev main_v670 : Ref sig .tc := ⟨.hbm, 1049, rfl⟩
abbrev main_v671 : Ref sig .tc := ⟨.hbm, 1050, rfl⟩
abbrev main_c_117 : Ref sig .tc := ⟨.hbm, 1051, rfl⟩
abbrev main_v672 : Ref sig .tc := ⟨.hbm, 1052, rfl⟩
abbrev main_v673 : Ref sig .tc := ⟨.hbm, 1053, rfl⟩
abbrev main_c_118 : Ref sig .tc := ⟨.hbm, 1054, rfl⟩
abbrev main_v674 : Ref sig .tc := ⟨.hbm, 1055, rfl⟩
abbrev main_v675 : Ref sig .tc := ⟨.hbm, 1056, rfl⟩
abbrev main_v676 : Ref sig .tc := ⟨.hbm, 1057, rfl⟩
abbrev main_v677 : Ref sig .tc := ⟨.hbm, 1058, rfl⟩
abbrev main_v678 : Ref sig .tc := ⟨.hbm, 1059, rfl⟩
abbrev main_v679 : Ref sig .tc := ⟨.hbm, 1060, rfl⟩
abbrev main_v680 : Ref sig .tc := ⟨.hbm, 1061, rfl⟩
abbrev main_cst_119 : Ref sig .tc := ⟨.hbm, 1062, rfl⟩
abbrev main_v681 : Ref sig .tc := ⟨.hbm, 1063, rfl⟩
abbrev main_v682 : Ref sig .tc := ⟨.hbm, 1064, rfl⟩
abbrev main_v683 : Ref sig .tc := ⟨.hbm, 1065, rfl⟩
abbrev main_v684 : Ref sig .tc := ⟨.hbm, 1066, rfl⟩
abbrev main_v685 : Ref sig .tc := ⟨.hbm, 1067, rfl⟩
abbrev main_v686 : Ref sig .tc := ⟨.hbm, 1068, rfl⟩
abbrev main_cst_120 : Ref sig .tc := ⟨.hbm, 1069, rfl⟩
abbrev main_v687 : Ref sig .tc := ⟨.hbm, 1070, rfl⟩
abbrev main_v688 : Ref sig .tc := ⟨.hbm, 1071, rfl⟩
abbrev main_v689 : Ref sig .tc := ⟨.hbm, 1072, rfl⟩
abbrev main_v690 : Ref sig .tc := ⟨.hbm, 1073, rfl⟩
abbrev main_v691 : Ref sig .tc := ⟨.hbm, 1074, rfl⟩
abbrev main_cst_121 : Ref sig .tc := ⟨.hbm, 1075, rfl⟩
abbrev main_v692 : Ref sig .tc := ⟨.hbm, 1076, rfl⟩
abbrev main_v693 : Ref sig .tc := ⟨.hbm, 1077, rfl⟩
abbrev main_cst_122 : Ref sig .tc := ⟨.hbm, 1078, rfl⟩
abbrev main_v694 : Ref sig .tc := ⟨.hbm, 1079, rfl⟩
abbrev main_v695 : Ref sig .tc := ⟨.hbm, 1080, rfl⟩
abbrev main_v696 : Ref sig .tc := ⟨.hbm, 1081, rfl⟩
abbrev main_v697 : Ref sig .tc := ⟨.hbm, 1082, rfl⟩
abbrev main_cst_123 : Ref sig .tc := ⟨.hbm, 1083, rfl⟩
abbrev main_v698 : Ref sig .tc := ⟨.hbm, 1084, rfl⟩
abbrev main_cst_124 : Ref sig .tc := ⟨.hbm, 1085, rfl⟩
abbrev main_v699 : Ref sig .tc := ⟨.hbm, 1086, rfl⟩
abbrev main_v700 : Ref sig .tc := ⟨.hbm, 1087, rfl⟩
abbrev main_c_125 : Ref sig .tc := ⟨.hbm, 1088, rfl⟩
abbrev main_call12_cst : Ref sig .tc := ⟨.hbm, 1089, rfl⟩
abbrev main_call12_v0 : Ref sig .tc := ⟨.hbm, 1090, rfl⟩
abbrev main_call12_v1 : Ref sig .tc := ⟨.hbm, 1091, rfl⟩
abbrev main_call12_cst_0 : Ref sig .tc := ⟨.hbm, 1092, rfl⟩
abbrev main_call12_v2 : Ref sig .tc := ⟨.hbm, 1093, rfl⟩
abbrev main_call12_v3 : Ref sig .tc := ⟨.hbm, 1094, rfl⟩
abbrev main_call12_v4 : Ref sig .tc := ⟨.hbm, 1095, rfl⟩
abbrev main_call12_v5 : Ref sig .tc := ⟨.hbm, 1096, rfl⟩
abbrev main_call12_v6 : Ref sig .tc := ⟨.hbm, 1097, rfl⟩
abbrev main_call12_v7 : Ref sig .tc := ⟨.hbm, 1098, rfl⟩
abbrev main_call12_cst_1 : Ref sig .tc := ⟨.hbm, 1099, rfl⟩
abbrev main_call12_v8 : Ref sig .tc := ⟨.hbm, 1100, rfl⟩
abbrev main_call12_cst_2 : Ref sig .tc := ⟨.hbm, 1101, rfl⟩
abbrev main_call12_v9 : Ref sig .tc := ⟨.hbm, 1102, rfl⟩
abbrev main_call12_v10 : Ref sig .tc := ⟨.hbm, 1103, rfl⟩
abbrev main_call12_v11 : Ref sig .tc := ⟨.hbm, 1104, rfl⟩
abbrev main_call12_cst_3 : Ref sig .tc := ⟨.hbm, 1105, rfl⟩
abbrev main_call12_v12 : Ref sig .tc := ⟨.hbm, 1106, rfl⟩
abbrev main_call12_cst_4 : Ref sig .tc := ⟨.hbm, 1107, rfl⟩
abbrev main_call12_call0_v0 : Ref sig .tc := ⟨.hbm, 1108, rfl⟩
abbrev main_call12_call0_v1 : Ref sig .tc := ⟨.hbm, 1109, rfl⟩
abbrev main_v701 : Ref sig .tc := ⟨.hbm, 1110, rfl⟩
abbrev main_v702 : Ref sig .tc := ⟨.hbm, 1111, rfl⟩
abbrev main_v703 : Ref sig .tc := ⟨.hbm, 1112, rfl⟩
abbrev main_v704 : Ref sig .tc := ⟨.hbm, 1113, rfl⟩
abbrev main_cst_126 : Ref sig .tc := ⟨.hbm, 1114, rfl⟩
abbrev main_v705 : Ref sig .tc := ⟨.hbm, 1115, rfl⟩
abbrev main_v706 : Ref sig .tc := ⟨.hbm, 1116, rfl⟩
abbrev main_v707 : Ref sig .tc := ⟨.hbm, 1117, rfl⟩
abbrev main_v708 : Ref sig .tc := ⟨.hbm, 1118, rfl⟩
abbrev main_v709 : Ref sig .tc := ⟨.hbm, 1119, rfl⟩
abbrev main_v710 : Ref sig .tc := ⟨.hbm, 1120, rfl⟩
abbrev main_v711 : Ref sig .tc := ⟨.hbm, 1121, rfl⟩
abbrev main_v712 : Ref sig .tc := ⟨.hbm, 1122, rfl⟩
abbrev main_v713 : Ref sig .tc := ⟨.hbm, 1123, rfl⟩
abbrev main_v714 : Ref sig .tc := ⟨.hbm, 1124, rfl⟩
abbrev main_v715 : Ref sig .tc := ⟨.hbm, 1125, rfl⟩
abbrev main_v716 : Ref sig .tc := ⟨.hbm, 1126, rfl⟩
abbrev main_v717 : Ref sig .tc := ⟨.hbm, 1127, rfl⟩
abbrev main_v718 : Ref sig .tc := ⟨.hbm, 1128, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S50000_S690000_d0 : Shape.Concatenates [S640000, S50000] S690000 0
  bcast_S_S50000 : S_.BroadcastsInDim S50000 (![] : Fin 0 → Fin S50000.rank)
  bcast_S690000_S690000x1_0 : S690000.BroadcastsInDim S690000x1 (![0] : Fin 1 → Fin S690000x1.rank)
  bcast_S_S690000 : S_.BroadcastsInDim S690000 (![] : Fin 0 → Fin S690000.rank)
  slices_S50000x22_S50000x4_0_0 : S50000x22.Slices ![0, 0] S50000x4
  slices_S50000x22_S50000x18_0_4 : S50000x22.Slices ![0, 4] S50000x18
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  slices_S8x64x64_S1x64x64_0_0_0 : S8x64x64.Slices ![0, 0, 0] S1x64x64
  shapeCasts_S1x64x64_S64x64 : S1x64x64.ShapeCasts S64x64
  slices_S8x64_S1x64_0_0 : S8x64.Slices ![0, 0] S1x64
  shapeCasts_S1x64_S64 : S1x64.ShapeCasts S64
  slices_S8x64x64_S1x64x64_1_0_0 : S8x64x64.Slices ![1, 0, 0] S1x64x64
  slices_S8x64_S1x64_1_0 : S8x64.Slices ![1, 0] S1x64
  slices_S8x64x64_S1x64x64_2_0_0 : S8x64x64.Slices ![2, 0, 0] S1x64x64
  slices_S8x64_S1x64_2_0 : S8x64.Slices ![2, 0] S1x64
  slices_S8x64x64_S1x64x64_3_0_0 : S8x64x64.Slices ![3, 0, 0] S1x64x64
  slices_S8x64_S1x64_3_0 : S8x64.Slices ![3, 0] S1x64
  slices_S8x64x64_S1x64x64_4_0_0 : S8x64x64.Slices ![4, 0, 0] S1x64x64
  slices_S8x64_S1x64_4_0 : S8x64.Slices ![4, 0] S1x64
  slices_S8x64x64_S1x64x64_5_0_0 : S8x64x64.Slices ![5, 0, 0] S1x64x64
  slices_S8x64_S1x64_5_0 : S8x64.Slices ![5, 0] S1x64
  slices_S8x64x64_S1x64x64_6_0_0 : S8x64x64.Slices ![6, 0, 0] S1x64x64
  slices_S8x64_S1x64_6_0 : S8x64.Slices ![6, 0] S1x64
  slices_S8x64x64_S1x64x64_7_0_0 : S8x64x64.Slices ![7, 0, 0] S1x64x64
  slices_S8x64_S1x64_7_0 : S8x64.Slices ![7, 0] S1x64
  transposes_S64x4_S4x64_1_0 : S64x4.Transposes [1, 0] S4x64
  bcast_S690000x1_S690000x64_0_1 : S690000x1.BroadcastsInDim S690000x64 (![0, 1] : Fin 2 → Fin S690000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  reducesTo_S50000x64_S50000_d1 : S50000x64.ReducesTo [1] S50000
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x1 : S_.BroadcastsInDim S50000x1 (![] : Fin 0 → Fin S50000x1.rank)
  transposes_S128x64_S64x128_1_0 : S128x64.Transposes [1, 0] S64x128
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  reducesTo_S50000x128_S50000_d1 : S50000x128.ReducesTo [1] S50000
  bcast_S50000x1_S50000x128_0_1 : S50000x1.BroadcastsInDim S50000x128 (![0, 1] : Fin 2 → Fin S50000x128.rank)
  transposes_S64x128_S128x64_1_0 : S64x128.Transposes [1, 0] S128x64
  transposes_S64x64_S64x64_1_0 : S64x64.Transposes [1, 0] S64x64
  transposes_S32x64_S64x32_1_0 : S32x64.Transposes [1, 0] S64x32
  bcast_S690000x1_S690000x32_0_1 : S690000x1.BroadcastsInDim S690000x32 (![0, 1] : Fin 2 → Fin S690000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  bcast_S50000x1_S50000x32_0_1 : S50000x1.BroadcastsInDim S50000x32 (![0, 1] : Fin 2 → Fin S50000x32.rank)
  reducesTo_S50000x32_S32_d0 : S50000x32.ReducesTo [0] S32
  bcast_S_S32 : S_.BroadcastsInDim S32 (![] : Fin 0 → Fin S32.rank)
  bcast_S_S1x32 : S_.BroadcastsInDim S1x32 (![] : Fin 0 → Fin S1x32.rank)
  shapeCasts_S50000x1_S50000 : S50000x1.ShapeCasts S50000
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x18_S18x4_S50000x4_1_0_0_1_n_n_wf : DotDims.WF S50000x18 S18x4 S50000x4 [1] [0] [0] [1] [] []
  dot_S50000x4_S4x64_S50000x64_1_0_0_1_n_n_wf : DotDims.WF S50000x4 S4x64 S50000x64 [1] [0] [0] [1] [] []
  gather_S50000x64_S690000x1_S690000x64_1_0_n_n_0_1_164_wf : GatherDims.WF S50000x64 S690000x1 S690000x64 [1] [0] [] [0] [] 1 ![1, 64]
  scatter_S50000x64_S690000x1_S690000x64_1_0_0_1_wf : ScatterDims.WF S50000x64 S690000x1 S690000x64 [1] [0] [0] 1
  dot_S50000x64_S64x128_S50000x128_1_0_0_1_n_n_wf : DotDims.WF S50000x64 S64x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []
  gather_S50000x32_S690000x1_S690000x32_1_0_n_n_0_1_132_wf : GatherDims.WF S50000x32 S690000x1 S690000x32 [1] [0] [] [0] [] 1 ![1, 32]
  scatter_S50000x32_S690000x1_S690000x32_1_0_0_1_wf : ScatterDims.WF S50000x32 S690000x1 S690000x32 [1] [0] [0] 1
  dot_S50000x32_S32x1_S50000x1_1_0_0_1_n_n_wf : DotDims.WF S50000x32 S32x1 S50000x1 [1] [0] [0] [1] [] []

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x18_S18x4_S50000x4_1_0_0_1_n_n : DotDims S50000x18 S18x4 S50000x4 where
  lhsContracting := [1]
  rhsContracting := [0]
  lhsNonContracting := [0]
  rhsNonContracting := [1]
  lhsBatch := []
  rhsBatch := []
  wf := dot_S50000x18_S18x4_S50000x4_1_0_0_1_n_n_wf
def dot_S50000x4_S4x64_S50000x64_1_0_0_1_n_n : DotDims S50000x4 S4x64 S50000x64 where
  lhsContracting := [1]
  rhsContracting := [0]
  lhsNonContracting := [0]
  rhsNonContracting := [1]
  lhsBatch := []
  rhsBatch := []
  wf := dot_S50000x4_S4x64_S50000x64_1_0_0_1_n_n_wf
def gather_S50000x64_S690000x1_S690000x64_1_0_n_n_0_1_164 : GatherDims S50000x64 S690000x1 S690000x64 where
  offsetDims := [1]
  collapsedSliceDims := [0]
  operandBatchingDims := []
  startIndicesBatchingDims := []
  startIndexMap := [0]
  indexVectorDim := 1
  sliceSizes := ![1, 64]
  wf := gather_S50000x64_S690000x1_S690000x64_1_0_n_n_0_1_164_wf
def scatter_S50000x64_S690000x1_S690000x64_1_0_0_1 : ScatterDims S50000x64 S690000x1 S690000x64 where
  updateWindowDims := [1]
  insertedWindowDims := [0]
  scatterDimsToOperandDims := [0]
  indexVectorDim := 1
  wf := scatter_S50000x64_S690000x1_S690000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S690000x1_S690000x32_1_0_n_n_0_1_132 : GatherDims S50000x32 S690000x1 S690000x32 where
  offsetDims := [1]
  collapsedSliceDims := [0]
  operandBatchingDims := []
  startIndicesBatchingDims := []
  startIndexMap := [0]
  indexVectorDim := 1
  sliceSizes := ![1, 32]
  wf := gather_S50000x32_S690000x1_S690000x32_1_0_n_n_0_1_132_wf
def scatter_S50000x32_S690000x1_S690000x32_1_0_0_1 : ScatterDims S50000x32 S690000x1 S690000x32 where
  updateWindowDims := [1]
  insertedWindowDims := [0]
  scatterDimsToOperandDims := [0]
  indexVectorDim := 1
  wf := scatter_S50000x32_S690000x1_S690000x32_1_0_0_1_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.KB.R0.lean ====
/- Region 0 of the program: the kernel  out = (x · w + b) + feat  on row blocks of 2000 rows.
   Per grid point the body loads the four input blocks whole, computes, and stores the output block whole.
   This module states, at the region-entry contents V, each window's block at a point, what the body leaves in the
   output buffer as a pure function of the input blocks, the body's triple, the pipeline's proof data and its body
   obligation; then the output array after the region as one function of the entry arrays, index by index. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.Regions
import Idealize.ShloMosaic.Lib.Tactic

-- membership in a rectangle of 2000 rows: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window w's block at point t, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. For any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

noncomputable abbrev r0_0 : Rect S2000x18 := Rect.unit (s := S2000x18) ![0, 0] S2000x18.size inb_S2000x18_S2000x18_0_0
noncomputable abbrev r0_1 : Rect S18x4 := Rect.unit (s := S18x4) ![0, 0] S18x4.size inb_S18x4_S18x4_0_0
noncomputable abbrev r0_2 : Rect S1x4 := Rect.unit (s := S1x4) ![0, 0] S1x4.size inb_S1x4_S1x4_0_0
noncomputable abbrev r0_3 : Rect S2000x4 := Rect.unit (s := S2000x4) ![0, 0] S2000x4.size inb_S2000x4_S2000x4_0_0

/-! ## What the body leaves in the output window's buffer -/

/-- Window 4's staging buffer after the body, from the four input blocks: its one store, of the payload
    (x · w + b) + feat, over the whole buffer. -/
noncomputable def out0_4 (x0 : Vec F S2000x18 .f32) (x1 : Vec F S18x4 .f32) (x2 : Vec F S1x4 .f32) (x3 : Vec F S2000x4 .f32) : Vec F S2000x4 .f32 :=
  View.canon [⟨r0_3, k0_pay1 (View.ld x0 r0_0) (View.ld x1 r0_1) (View.ld x2 r0_2) (View.ld x3 r0_3)⟩]

/-- The one store is of the whole buffer, so it covers it. -/
theorem cover0_4 (p0 : Vec F S2000x4 .f32) (y : S2000x4.Idx) :
    ∃ pc ∈ ([⟨r0_3, p0⟩] : List (View.Piece (Elt F) S2000x4 .f32)), y ∈ pc.1.set :=
  View.cover_of_tiled [⟨r0_3, p0⟩] S2000x4.size (by rfl) y

/-! ## The body's triple -/

set_option maxHeartbeats 1000000 in
/-- The kernel body on whole staging memrefs, the inputs' at read contents and the output's at anything, runs to the
    continuation holding the inputs' as they were and the output's at out0_4 of the inputs'. -/
theorem sound_kernel0 (c : Dev nD) (E : Set ℕ) (i : grid0.Coords) (arg1 : Memref sig .tc .vmem S2000x18 .f32) (harg1 : arg1.IsWhole) (arg2 : Memref sig .tc .vmem S18x4 .f32) (harg2 : arg2.IsWhole) (arg3 : Memref sig .tc .vmem S1x4 .f32) (harg3 : arg3.IsWhole) (arg4 : Memref sig .tc .vmem S2000x4 .f32) (harg4 : arg4.IsWhole) (arg5 : Memref sig .tc .vmem S2000x4 .f32) (harg5 : arg5.IsWhole)
    (x0 : Vec F S2000x18 .f32) (x1 : Vec F S18x4 .f32) (x2 : Vec F S1x4 .f32) (x3 : Vec F S2000x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__esg_kernel i arg1 harg1 arg2 harg2 arg3 harg3 arg4 harg4 arg5 harg5) K := by
  simp only [cc0__esg_kernel_eq_skeleton]; unfold cc0__esg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core c: the arrays as the region finds them; after the body at point t each
    input's buffer at its block and the output's at out0_4 of the input blocks; the invariant the scoped rest and the
    generator register, untouched; nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's owed term pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.R1.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.Regions
import Idealize.ShloMosaic.Lib.Tactic

/-! # Region 1: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of X: the staging buffer the body is handed holds the block of the point, whether the
    point fetched it or not (an unfetched input has not moved its block index). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The matrix W: fetched at the first point only, and found in place at every later one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

noncomputable abbrev r1_0 : Rect S2000x4 := Rect.unit (s := S2000x4) ![0, 0] S2000x4.size inb_S2000x4_S2000x4_0_0
noncomputable abbrev r1_1 : Rect S4x64 := Rect.unit (s := S4x64) ![0, 0] S4x64.size inb_S4x64_S4x64_0_0
noncomputable abbrev r1_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out1_2 (x0 : Vec F S2000x4 .f32) (x1 : Vec F S4x64 .f32) : Vec F S2000x64 .f32 :=
  View.canon [⟨r1_2, k1_pay1 (View.ld x0 r1_0) (View.ld x1 r1_1)⟩]

/-- The store's rectangle is the whole buffer, so it covers every index. -/
theorem cover1_2 (p0 : Vec F S2000x64 .f32) (y : S2000x64.Idx) :
    ∃ pc ∈ ([⟨r1_2, p0⟩] : List (View.Piece (Elt F) S2000x64 .f32)), y ∈ pc.1.set :=
  View.cover_of_tiled [⟨r1_2, p0⟩] S2000x64.size (by rfl) y

/-! ## The body's triple -/

set_option maxHeartbeats 1000000 in
/-- On whole staging memrefs, the inputs' holding x0 and x1 and the output's holding anything, the body
    runs to a state where the inputs' are unchanged and the output's holds out1_2 x0 x1. The body also reads
    the output buffer before storing into it; the value read is not used. -/
theorem sound_kernel1 (c : Dev nD) (E : Set ℕ) (i : grid1.Coords) (arg1 : Memref sig .tc .vmem S2000x4 .f32) (harg1 : arg1.IsWhole) (arg2 : Memref sig .tc .vmem S4x64 .f32) (harg2 : arg2.IsWhole) (arg3 : Memref sig .tc .vmem S2000x64 .f32) (harg3 : arg3.IsWhole)
    (x0 : Vec F S2000x4 .f32) (x1 : Vec F S4x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The arrays as the region finds them; after the body at point t the inputs' buffers at their blocks
    and the output's at the product block; the invariant is the scoped rest and the generator register,
    untouched; nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, window by window, -/
noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The inputs' memrefs hold their blocks, so the body's triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KB.R2.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 likewise: fetched at the first point only, its block index never moves, so the buffer holds
    the block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions on the grid coordinate -/

/-- The first conditional's condition (the point is the grid's first), from the grid coordinate. -/
noncomputable abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 25 = 0 :=
  (by decide +kernel : ∀ t : Fin grid2.N, cond2_0 (grid2.coords t) ↔ t.val % 25 = 0)

/-- The second conditional's condition (the point is the grid's last). -/
noncomputable abbrev cond2_1 (i : grid2.Coords) : Prop := k2_cond2 i = 1#1
/-- It holds at the last point only. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the first point the body stores nothing into output 3: the window is idle there and not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
/-- Nor at the middle points. -/
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At the last point it stores the accumulated sums there: the window is live. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of each output window, through which its contents are stated (the choice does not matter:
    a covering list of writes reads the same through any view). -/
noncomputable abbrev VO2_2 : View sig .tc .vmem S2000x64 .f32 := (Memref.whole cc2_stg2_0 : Memref sig .tc .vmem S2000x64 .f32).view
noncomputable abbrev VO2_3 : View sig .tc .vmem S1x64 .f32 := (Memref.whole cc2_stg3_0 : Memref sig .tc .vmem S1x64 .f32).view
/-- Each window's current staging memref at point `t`, as the pipeline passes it, and its wholeness. -/
noncomputable abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
noncomputable abbrev ms2_1 (t : Fin cfg2.N) : Memref sig .tc .vmem S1x64 .f32 := win2_1.stage (cfg2.slots t 1)
abbrev hs2_1 (t : Fin cfg2.N) : (ms2_1 t).IsWhole := hstage2_1 ((cfg2.slots t 1).cast nbuf2_1)
noncomputable abbrev ms2_2 (t : Fin cfg2.N) : Memref sig .tc .vmem S2000x64 .f32 := win2_2.stage (cfg2.slots t 2)
abbrev hs2_2 (t : Fin cfg2.N) : (ms2_2 t).IsWhole := hstage2_2 ((cfg2.slots t 2).cast nbuf2_2)
noncomputable abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
/-- The scratch operand: a whole scoped buffer of the kernel's own, in which the column sums accumulate. -/
noncomputable abbrev scM2_0 : Memref sig .tc .vmem S1x64 .f32 := Memref.whole cc2_scratch0
noncomputable abbrev VS2_0 : View sig .tc .vmem S1x64 .f32 := scM2_0.view

/-- The other scoped buffers (every other call's staging buffers and scratch), unopened. -/
noncomputable abbrev restBut2 (c : Dev nD) : sProp 𝕄 :=
  Pipeline.scopedRestBut (Ix := Unit) (Name := ℕ) (U := UR sig nD τ) (Lvl := ℕ) (Val := Elt F) spec2 c [cc2_scratch0]

/-- The region's invariant as the launch hands it over, with the scratch operand split out as a memref owned at
    some contents: what the body obligation hands the run and takes back. -/
theorem PhiA2_eq (c : Dev nD) :
    (Pipeline.ΦA spec2 c : sProp 𝕄)
      = iprop(iprop(iprop((∃ d, owns (c : Thread nD τ) scM2_0 fullShare d)) ∗ restBut2 (F := F) c) ∗ (∃ r, prngReg c r)) := by
  unfold Pipeline.ΦA; rw [scopedRest2_split]; simp only [scM2_0, owns_whole]; try rfl

-- (the run's proof term is large: the definition's epilogue walks it past the default budget)
set_option maxHeartbeats 1000000 in
/-- The body AT THE FIRST POINT (the first conditional taken, the second not): the scratch, at anything, is reset and then
    receives the block's column sums; output 2 receives the block plus the bias row; output 3 is handed back untouched.
    What the stores leave in each buffer is given as pieces (last first), found by running the body: on whole
    memrefs, the inputs at their contents `x0`, `x1`, the body runs to the continuation holding the inputs as they
    were and each stored buffer with its pieces written. -/
noncomputable def kernelRun2_A (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S2000x64 .f32) (x1 : Vec F S1x64 .f32) :
    Σ' (L2 : List (View.Piece (Elt F) S2000x64 .f32)) (L3 : List (View.Piece (Elt F) S1x64 .f32)), { LS0 : List (View.Piece (Elt F) S1x64 .f32) //
      ∀ (xi3 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg1 harg1 arg2 harg2 arg3 harg3 arg4 harg4 arg5 harg5) K } := by
  refine ⟨?_, [], ?_, fun xi3 E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

-- (the run's proof term is large: the definition's epilogue walks it past the default budget)
set_option maxHeartbeats 1000000 in
/-- The body AT A MIDDLE POINT (neither conditional taken): the scratch, at what the point before left (`xs0`), receives the
    block's column sums added to it; output 2 receives the block plus the bias row; output 3 is handed back untouched.
    What the stores leave in each buffer is given as pieces (last first), found by running the body: on whole
    memrefs, the inputs at their contents `x0`, `x1`, the body runs to the continuation holding the inputs as they
    were and each stored buffer with its pieces written. -/
noncomputable def kernelRun2_B (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S2000x64 .f32) (x1 : Vec F S1x64 .f32) (xs0 : Vec F S1x64 .f32) :
    Σ' (L2 : List (View.Piece (Elt F) S2000x64 .f32)) (L3 : List (View.Piece (Elt F) S1x64 .f32)), { LS0 : List (View.Piece (Elt F) S1x64 .f32) //
      ∀ (xi3 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg1 harg1 arg2 harg2 arg3 harg3 arg4 harg4 arg5 harg5) K } := by
  refine ⟨?_, [], ?_, fun xi3 E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

-- (the run's proof term is large: the definition's epilogue walks it past the default budget)
set_option maxHeartbeats 1000000 in
/-- The body AT THE LAST POINT (the second conditional taken, the first not): the scratch, at what the point before left
    (`xs0`), receives the block's column sums added to it and is then copied into output 3; output 2 receives the block
    plus the bias row.
    What the stores leave in each buffer is given as pieces (last first), found by running the body: on whole
    memrefs, the inputs at their contents `x0`, `x1`, the body runs to the continuation holding the inputs as they
    were and each stored buffer with its pieces written. -/
noncomputable def kernelRun2_C (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S2000x64 .f32) (x1 : Vec F S1x64 .f32) (xs0 : Vec F S1x64 .f32) :
    Σ' (L2 : List (View.Piece (Elt F) S2000x64 .f32)) (L3 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg1 harg1 arg2 harg2 arg3 harg3 arg4 harg4 arg5 harg5) K } := by
  refine ⟨?_, ?_, ?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- Case A: the one store into output 2 covers its block. -/
theorem cover2_A_2 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S2000x64 .f32) (x1 : Vec F S1x64 .f32) (y : S2000x64.Idx) :
    ∃ pc ∈ (kernelRun2_A c i arg1 harg1 arg2 harg2 arg3 harg3 arg4 harg4 arg5 harg5 hc0 hc1 x0 x1).1, y ∈ pc.1.set :=
  View.cover_of_tiledL (kernelRun2_A c i arg1 harg1 arg2 harg2 arg3 harg3 arg4 harg4 arg5 harg5 hc0 hc1 x0 x1).1 S2000x64.size (by sl_kernel_rfl) y

/-- What case A leaves in output 2's staging buffer: its pieces read back. -/
noncomputable def out2_A_2 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S2000x64 .f32) (x1 : Vec F S1x64 .f32) : Vec F S2000x64 .f32 :=
  VO2_2.read (Elt F) (VO2_2.writes (Elt F) VO2_2.junk (kernelRun2_A c i arg1 harg1 arg2 harg2 arg3 harg3 arg4 harg4 arg5 harg5 hc0 hc1 x0 x1).1)

/-- What case A leaves in output 3's staging buffer — nothing is stored: an arbitrary value that nothing consults
    (at these points the window is neither written back nor read at the next point). -/
noncomputable def out2_A_3 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S2000x64 .f32) (x1 : Vec F S1x64 .f32) : Vec F S1x64 .f32 :=
  VO2_3.read (Elt F) (VO2_3.writes (Elt F) VO2_3.junk (kernelRun2_A c i arg1 harg1 arg2 harg2 arg3 harg3 arg4 harg4 arg5 harg5 hc0 hc1 x0 x1).2.1)

/-- Case A: the stores into the scratch cover it. -/
theorem scover2_A_0 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S2000x64 .f32) (x1 : Vec F S1x64 .f32) (y : S1x64.Idx) :
    ∃ pc ∈ (kernelRun2_A c i arg1 harg1 arg2 harg2 arg3 harg3 arg4 harg4 arg5 harg5 hc0 hc1 x0 x1).2.2.1, y ∈ pc.1.set :=
  View.cover_of_tiledL (kernelRun2_A c i arg1 harg1 arg2 harg2 arg3 harg3 arg4 harg4 arg5 harg5 hc0 hc1 x0 x1).2.2.1 S1x64.size (by sl_kernel_rfl) y

/-- What case A leaves in the scratch: its pieces read back. -/
noncomputable def sout2_A_0 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S2000x64 .f32) (x1 : Vec F S1x64 .f32) : Vec F S1x64 .f32 :=
  VS2_0.read (Elt F) (VS2_0.writes (Elt F) VS2_0.junk (kernelRun2_A c i arg1 harg1 arg2 harg2 arg3 harg3 arg4 harg4 arg5 harg5 hc0 hc1 x0 x1).2.2.1)

/-- Case B: the one store into output 2 covers its block. -/
theorem cover2_B_2 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S2000x64 .f32) (x1 : Vec F S1x64 .f32) (xs0 : Vec F S1x64 .f32) (y : S2000x64.Idx) :
    ∃ pc ∈ (kernelRun2_B c i arg1 harg1 arg2 harg2 arg3 harg3 arg4 harg4 arg5 harg5 hc0 hc1 x0 x1 xs0).1, y ∈ pc.1.set :=
  View.cover_of_tiledL (kernelRun2_B c i arg1 harg1 arg2 harg2 arg3 harg3 arg4 harg4 arg5 harg5 hc0 hc1 x0 x1 xs0).1 S2000x64.size (by sl_kernel_rfl) y

/-- What case B leaves in output 2's staging buffer: its pieces read back. -/
noncomputable def out2_B_2 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S2000x64 .f32) (x1 : Vec F S1x64 .f32) (xs0 : Vec F S1x64 .f32) : Vec F S2000x64 .f32 :=
  VO2_2.read (Elt F) (VO2_2.writes (Elt F) VO2_2.junk (kernelRun2_B c i arg1 harg1 arg2 harg2 arg3 harg3 arg4 harg4 arg5 harg5 hc0 hc1 x0 x1 xs0).1)

/-- What case B leaves in output 3's staging buffer — nothing is stored: an arbitrary value that nothing consults
    (at these points the window is neither written back nor read at the next point). -/
noncomputable def out2_B_3 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S2000x64 .f32) (x1 : Vec F S1x64 .f32) (xs0 : Vec F S1x64 .f32) : Vec F S1x64 .f32 :=
  VO2_3.read (Elt F) (VO2_3.writes (Elt F) VO2_3.junk (kernelRun2_B c i arg1 harg1 arg2 harg2 arg3 harg3 arg4 harg4 arg5 harg5 hc0 hc1 x0 x1 xs0).2.1)

/-- Case B: the stores into the scratch cover it. -/
theorem scover2_B_0 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S2000x64 .f32) (x1 : Vec F S1x64 .f32) (xs0 : Vec F S1x64 .f32) (y : S1x64.Idx) :
    ∃ pc ∈ (kernelRun2_B c i arg1 harg1 arg2 harg2 arg3 harg3 arg4 harg4 arg5 harg5 hc0 hc1 x0 x1 xs0).2.2.1, y ∈ pc.1.set :=
  View.cover_of_tiledL (kernelRun2_B c i arg1 harg1 arg2 harg2 arg3 harg3 arg4 harg4 arg5 harg5 hc0 hc1 x0 x1 xs0).2.2.1 S1x64.size (by sl_kernel_rfl) y

/-- What case B leaves in the scratch: its pieces read back. -/
noncomputable def sout2_B_0 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S2000x64 .f32) (x1 : Vec F S1x64 .f32) (xs0 : Vec F S1x64 .f32) : Vec F S1x64 .f32 :=
  VS2_0.read (Elt F) (VS2_0.writes (Elt F) VS2_0.junk (kernelRun2_B c i arg1 harg1 arg2 harg2 arg3 harg3 arg4 harg4 arg5 harg5 hc0 hc1 x0 x1 xs0).2.2.1)

/-- Case C: the one store into output 2 covers its block. -/
theorem cover2_C_2 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S2000x64 .f32) (x1 : Vec F S1x64 .f32) (xs0 : Vec F S1x64 .f32) (y : S2000x64.Idx) :
    ∃ pc ∈ (kernelRun2_C c i arg1 harg1 arg2 harg2 arg3 harg3 arg4 harg4 arg5 harg5 hc0 hc1 x0 x1 xs0).1, y ∈ pc.1.set :=
  View.cover_of_tiledL (kernelRun2_C c i arg1 harg1 arg2 harg2 arg3 harg3 arg4 harg4 arg5 harg5 hc0 hc1 x0 x1 xs0).1 S2000x64.size (by sl_kernel_rfl) y

/-- What case C leaves in output 2's staging buffer: its pieces read back. -/
noncomputable def out2_C_2 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S2000x64 .f32) (x1 : Vec F S1x64 .f32) (xs0 : Vec F S1x64 .f32) : Vec F S2000x64 .f32 :=
  VO2_2.read (Elt F) (VO2_2.writes (Elt F) VO2_2.junk (kernelRun2_C c i arg1 harg1 arg2 harg2 arg3 harg3 arg4 harg4 arg5 harg5 hc0 hc1 x0 x1 xs0).1)

/-- Case C: the one store into output 3 covers its block. -/
theorem cover2_C_3 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S2000x64 .f32) (x1 : Vec F S1x64 .f32) (xs0 : Vec F S1x64 .f32) (y : S1x64.Idx) :
    ∃ pc ∈ (kernelRun2_C c i arg1 harg1 arg2 harg2 arg3 harg3 arg4 harg4 arg5 harg5 hc0 hc1 x0 x1 xs0).2.1, y ∈ pc.1.set :=
  View.cover_of_tiledL (kernelRun2_C c i arg1 harg1 arg2 harg2 arg3 harg3 arg4 harg4 arg5 harg5 hc0 hc1 x0 x1 xs0).2.1 S1x64.size (by sl_kernel_rfl) y

/-- What case C leaves in output 3's staging buffer: its pieces read back. -/
noncomputable def out2_C_3 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S2000x64 .f32) (x1 : Vec F S1x64 .f32) (xs0 : Vec F S1x64 .f32) : Vec F S1x64 .f32 :=
  VO2_3.read (Elt F) (VO2_3.writes (Elt F) VO2_3.junk (kernelRun2_C c i arg1 harg1 arg2 harg2 arg3 harg3 arg4 harg4 arg5 harg5 hc0 hc1 x0 x1 xs0).2.1)

/-- Case C: the stores into the scratch cover it. -/
theorem scover2_C_0 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S2000x64 .f32) (x1 : Vec F S1x64 .f32) (xs0 : Vec F S1x64 .f32) (y : S1x64.Idx) :
    ∃ pc ∈ (kernelRun2_C c i arg1 harg1 arg2 harg2 arg3 harg3 arg4 harg4 arg5 harg5 hc0 hc1 x0 x1 xs0).2.2.1, y ∈ pc.1.set :=
  View.cover_of_tiledL (kernelRun2_C c i arg1 harg1 arg2 harg2 arg3 harg3 arg4 harg4 arg5 harg5 hc0 hc1 x0 x1 xs0).2.2.1 S1x64.size (by sl_kernel_rfl) y

/-- What case C leaves in the scratch: its pieces read back. -/
noncomputable def sout2_C_0 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S2000x64 .f32) (x1 : Vec F S1x64 .f32) (xs0 : Vec F S1x64 .f32) : Vec F S1x64 .f32 :=
  VS2_0.read (Elt F) (VS2_0.writes (Elt F) VS2_0.junk (kernelRun2_C c i arg1 harg1 arg2 harg2 arg3 harg3 arg4 harg4 arg5 harg5 hc0 hc1 x0 x1 xs0).2.2.1)

/-! ## What the outputs and the scratch hold after each point -/

/-- THE ACCUMULATION. What the two outputs' staging buffers and the scratch hold after the body at position `n`
    (output 2, output 3, the scratch): the case the closed forms select at `n`, run at the point's memrefs and input
    blocks, the scratch before it at what this leaves at `n - 1`. No point meets both conditions. -/
noncomputable def outsAt2 (c : Dev nD) : (n : ℕ) → n < cfg2.N → Vec F S2000x64 .f32 × Vec F S1x64 .f32 × Vec F S1x64 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 25 = 0 then
      if h1 : (n + 1) % 25 = 24 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 25 = 24 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2.2, out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2.2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2.2, out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2.2)

/-- `outsAt2` at the first point: case A's contents. -/
theorem outsAt2_A (c : Dev nD) (t : Fin cfg2.N) (h0 : t.val % 25 = 0) (h1 : ¬t.val % 25 = 24) :
    outsAt2 V c t.val t.isLt = (out2_A_2 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t), out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a middle point: case B's contents, over what the point before left in the scratch. -/
theorem outsAt2_B (c : Dev nD) (t : Fin cfg2.N) (h0 : ¬t.val % 25 = 0) (h1 : ¬t.val % 25 = 24) :
    outsAt2 V c t.val t.isLt = (out2_B_2 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.2, out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point: case C's contents, over what the point before left in the scratch. -/
theorem outsAt2_C (c : Dev nD) (t : Fin cfg2.N) (h0 : ¬t.val % 25 = 0) (h1 : t.val % 25 = 24) :
    outsAt2 V c t.val t.isLt = (out2_C_2 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2, out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt2`'s last component), the other
    scoped buffers unopened and the generator register at some state. -/
noncomputable def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2)) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the scratch at that point's contents. -/
theorem PhiS2_succ (c : Dev nD) (n : ℕ) (hn : n < cfg2.N) :
    PhiS2 V c (n + 1) hn = iprop(iprop(iprop(owns (c : Thread nD τ) scM2_0 fullShare ((outsAt2 V c n hn).2.2)) ∗ restBut2 (F := F) c) ∗ (∃ r, prngReg c r)) := rfl

/-- Before a point that is not the first: the scratch at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2)) ∗ restBut2 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt2`; the invariant `PhiS2`; nothing owed;
    full shares. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
noncomputable def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
noncomputable def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  by_cases h0 : t.val % 25 = 0
  · by_cases h1 : t.val % 25 = 24
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold out2_A_2 sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t)).2.2.2 _ Set.univ _)
        isplitl [H0]; · iexact H0
        isplitl [H1]; · iexact H1
        isplitl [H2]; · iexists _; iexact H2
        isplitl [H3]; · iexact H3
        isplitl [HS0]; · iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover2_A_2 c _ _ _ _ _ _ _ _ _ _ _ _ _ _ _)
        iexists _; iexact H3
      · exfalso; omega
  · by_cases h1 : t.val % 25 = 24
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_2 out2_C_3 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) _).2.2.2 Set.univ _)
        isplitl [H0]; · iexact H0
        isplitl [H1]; · iexact H1
        isplitl [H2]; · iexists _; iexact H2
        isplitl [H3]; · iexists _; iexact H3
        isplitl [HS0]; · iexact HS0
        iintro ⟨H0, H1, ⟨%e2, H2⟩, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover2_C_2 c _ _ _ _ _ _ _ _ _ _ _ _ _ _ _ _)
        unfold owns; iexists _; isplitr
        swap; · iexact H3
        ipureintro; exact View.read_writes_of_cover _ _ _ _ _ (cover2_C_3 c _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold out2_B_2 sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) _).2.2.2 _ Set.univ _)
        isplitl [H0]; · iexact H0
        isplitl [H1]; · iexact H1
        isplitl [H2]; · iexists _; iexact H2
        isplitl [H3]; · iexact H3
        isplitl [HS0]; · iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover2_B_2 c _ _ _ _ _ _ _ _ _ _ _ _ _ _ _ _)
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives it back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 25 := N_2; omega)

end Cert.Kernel.Hand

end
-- ==== Proof.KB.R3.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3: the second pass of the column variance. Over the 25 row tiles of 2000 rows the body adds, column by
column, the tile's sum of squared deviations (x − mean)² into a one-row accumulator that it zeroes at the first tile and
copies to the one-row result at the last. Here: the windows' blocks, the two branch conditions over the grid, the body's
triple in each of the three control cases (first tile, a middle tile, last tile), what each case leaves in the accumulator
and in the result's buffer, those contents point by point along the grid, the proof data over them and the body
obligation; the invariant carries the accumulator at the contents the point before left. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-tile window (window 0, fetched at every point) holds its block when the body runs, for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The mean window (window 1, one constant block fetched at the first point only) holds that block at every point:
    where it is not fetched its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The two branch conditions, over the grid -/

/-- The condition of the first conditional (the accumulator's reset): the grid coordinate is 0. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition of the second conditional (the accumulator stored to the output): the grid coordinate is 24. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
/-- Away from the last point the body stores nothing into the output window: it is idle there, -/
theorem idleAt3_2 : ∀ t : Fin cfg3.N, ¬cond3_1 (grid3.coords t) → cfg3.idle 2 (grid3.coords t) = true := by decide +kernel
/-- and its block is not written back there. -/
theorem noFlush3_2 : ∀ t : Fin cfg3.N, ¬cond3_1 (grid3.coords t) → (cfg3.win 2).flush t = false := by decide +kernel
/-- At the last point the output window is live. -/
theorem liveAt3_2 : ∀ t : Fin cfg3.N, cond3_1 (grid3.coords t) → cfg3.idle 2 (grid3.coords t) = false := by decide +kernel

/-! ## The memrefs the body is called with -/

/-- The output window's one staging buffer as a view: what the body leaves in it is stated through it. -/
noncomputable abbrev VO3_2 : View sig .tc .vmem S1x64 .f32 := (Memref.whole cc3_stg2_0 : Memref sig .tc .vmem S1x64 .f32).view
/-- Each window's current staging memref at point `t`, and its wholeness. -/
noncomputable abbrev ms3_0 (t : Fin cfg3.N) : Memref sig .tc .vmem S2000x64 .f32 := win3_0.stage (cfg3.slots t 0)
abbrev hs3_0 (t : Fin cfg3.N) : (ms3_0 t).IsWhole := hstage3_0 ((cfg3.slots t 0).cast nbuf3_0)
noncomputable abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
noncomputable abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
/-- The accumulator: the kernel's own scratch buffer, whole, passed beside the windows, -/
noncomputable abbrev scM3_0 : Memref sig .tc .vmem S1x64 .f32 := Memref.whole cc3_scratch0
/-- and as a view. -/
noncomputable abbrev VS3_0 : View sig .tc .vmem S1x64 .f32 := scM3_0.view

/-- The region-entry invariant with the accumulator split out of the scoped rest, as a memref owned at some contents. -/
theorem PhiA3_eq (c : Dev nD) :
    (Pipeline.ΦA spec3 c : sProp 𝕄)
      = iprop(iprop(iprop(∃ d, owns (c : Thread nD τ) scM3_0 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-! ## The body, once per control case -/

set_option maxHeartbeats 1000000 in
/-- CASE A (the first point: the reset taken, the final store not). On whole memrefs — the two inputs at contents
    `x0`, `x1`, the output's buffer at `xi2` handed back untouched, the accumulator at anything — the body runs to the
    continuation holding the inputs as they were and the accumulator with the pieces `LS0` written (the zero fill, then
    the first tile's column sums added to what is read back): the pieces are found by running the body. -/
noncomputable def kernelRun3_A (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : cond3_0 i) (hc1 : ¬cond3_1 i)
    (x0 : Vec F S2000x64 .f32) (x1 : Vec F S1x64 .f32) :
    { LS0 : List (View.Piece (Elt F) S1x64 .f32) //
      ∀ (xi2 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__var_kernel i arg1 harg1 arg2 harg2 arg3 harg3 arg4 harg4) K } := by
  refine ⟨?_, fun xi2 E K => ?run⟩
  case run =>
    simp only [cc3__var_kernel_eq_skeleton]; unfold cc3__var_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE B (a middle point: neither conditional taken). The accumulator comes in at the contents `xs0` the point before
    left and goes out with one piece written: the tile's column sums added to `xs0`. -/
noncomputable def kernelRun3_B (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : ¬cond3_1 i)
    (x0 : Vec F S2000x64 .f32) (x1 : Vec F S1x64 .f32) (xs0 : Vec F S1x64 .f32) :
    { LS0 : List (View.Piece (Elt F) S1x64 .f32) //
      ∀ (xi2 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__var_kernel i arg1 harg1 arg2 harg2 arg3 harg3 arg4 harg4) K } := by
  refine ⟨?_, fun xi2 E K => ?run⟩
  case run =>
    simp only [cc3__var_kernel_eq_skeleton]; unfold cc3__var_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE C (the last point: the reset not taken, the final store taken). As case B, and the output's buffer, at anything
    before, goes out with the pieces `L2` written: the accumulator read back after its update. -/
noncomputable def kernelRun3_C (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : cond3_1 i)
    (x0 : Vec F S2000x64 .f32) (x1 : Vec F S1x64 .f32) (xs0 : Vec F S1x64 .f32) :
    Σ' (L2 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc3__var_kernel i arg1 harg1 arg2 harg2 arg3 harg3 arg4 harg4) K } := by
  refine ⟨?_, ?_, fun E K => ?run⟩
  case run =>
    simp only [cc3__var_kernel_eq_skeleton]; unfold cc3__var_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves in the accumulator and in the output's buffer -/

/-- At the points where the output window is idle its `after` is never consulted (the window is neither written back
    there nor read at the next point): an arbitrary value. -/
noncomputable def idle3_2 : Vec F S1x64 .f32 := VO3_2.read (Elt F) VO3_2.junk

/-- Case A's pieces cover the accumulator (each is the whole row). -/
theorem scover3_A_0 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : cond3_0 i) (hc1 : ¬cond3_1 i)
    (x0 : Vec F S2000x64 .f32) (x1 : Vec F S1x64 .f32) (y : S1x64.Idx) :
    ∃ pc ∈ (kernelRun3_A c i arg1 harg1 arg2 harg2 arg3 harg3 arg4 harg4 hc0 hc1 x0 x1).1, y ∈ pc.1.set :=
  View.cover_of_tiledL (kernelRun3_A c i arg1 harg1 arg2 harg2 arg3 harg3 arg4 harg4 hc0 hc1 x0 x1).1 S1x64.size (by sl_kernel_rfl) y

/-- What case A leaves in the accumulator: its pieces read back. -/
noncomputable def sout3_A_0 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : cond3_0 i) (hc1 : ¬cond3_1 i)
    (x0 : Vec F S2000x64 .f32) (x1 : Vec F S1x64 .f32) : Vec F S1x64 .f32 :=
  VS3_0.read (Elt F) (VS3_0.writes (Elt F) VS3_0.junk (kernelRun3_A c i arg1 harg1 arg2 harg2 arg3 harg3 arg4 harg4 hc0 hc1 x0 x1).1)

/-- Case B's one piece covers the accumulator. -/
theorem scover3_B_0 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : ¬cond3_1 i)
    (x0 : Vec F S2000x64 .f32) (x1 : Vec F S1x64 .f32) (xs0 : Vec F S1x64 .f32) (y : S1x64.Idx) :
    ∃ pc ∈ (kernelRun3_B c i arg1 harg1 arg2 harg2 arg3 harg3 arg4 harg4 hc0 hc1 x0 x1 xs0).1, y ∈ pc.1.set :=
  View.cover_of_tiledL (kernelRun3_B c i arg1 harg1 arg2 harg2 arg3 harg3 arg4 harg4 hc0 hc1 x0 x1 xs0).1 S1x64.size (by sl_kernel_rfl) y

/-- What case B leaves in the accumulator. -/
noncomputable def sout3_B_0 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : ¬cond3_1 i)
    (x0 : Vec F S2000x64 .f32) (x1 : Vec F S1x64 .f32) (xs0 : Vec F S1x64 .f32) : Vec F S1x64 .f32 :=
  VS3_0.read (Elt F) (VS3_0.writes (Elt F) VS3_0.junk (kernelRun3_B c i arg1 harg1 arg2 harg2 arg3 harg3 arg4 harg4 hc0 hc1 x0 x1 xs0).1)

/-- Case C's one store covers the output's buffer. -/
theorem cover3_C_2 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : cond3_1 i)
    (x0 : Vec F S2000x64 .f32) (x1 : Vec F S1x64 .f32) (xs0 : Vec F S1x64 .f32) (y : S1x64.Idx) :
    ∃ pc ∈ (kernelRun3_C c i arg1 harg1 arg2 harg2 arg3 harg3 arg4 harg4 hc0 hc1 x0 x1 xs0).1, y ∈ pc.1.set :=
  View.cover_of_tiledL (kernelRun3_C c i arg1 harg1 arg2 harg2 arg3 harg3 arg4 harg4 hc0 hc1 x0 x1 xs0).1 S1x64.size (by sl_kernel_rfl) y

/-- What case C leaves in the output's buffer. -/
noncomputable def out3_C_2 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : cond3_1 i)
    (x0 : Vec F S2000x64 .f32) (x1 : Vec F S1x64 .f32) (xs0 : Vec F S1x64 .f32) : Vec F S1x64 .f32 :=
  VO3_2.read (Elt F) (VO3_2.writes (Elt F) VO3_2.junk (kernelRun3_C c i arg1 harg1 arg2 harg2 arg3 harg3 arg4 harg4 hc0 hc1 x0 x1 xs0).1)

/-- Case C's one piece covers the accumulator. -/
theorem scover3_C_0 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : cond3_1 i)
    (x0 : Vec F S2000x64 .f32) (x1 : Vec F S1x64 .f32) (xs0 : Vec F S1x64 .f32) (y : S1x64.Idx) :
    ∃ pc ∈ (kernelRun3_C c i arg1 harg1 arg2 harg2 arg3 harg3 arg4 harg4 hc0 hc1 x0 x1 xs0).2.1, y ∈ pc.1.set :=
  View.cover_of_tiledL (kernelRun3_C c i arg1 harg1 arg2 harg2 arg3 harg3 arg4 harg4 hc0 hc1 x0 x1 xs0).2.1 S1x64.size (by sl_kernel_rfl) y

/-- What case C leaves in the accumulator. -/
noncomputable def sout3_C_0 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : cond3_1 i)
    (x0 : Vec F S2000x64 .f32) (x1 : Vec F S1x64 .f32) (xs0 : Vec F S1x64 .f32) : Vec F S1x64 .f32 :=
  VS3_0.read (Elt F) (VS3_0.writes (Elt F) VS3_0.junk (kernelRun3_C c i arg1 harg1 arg2 harg2 arg3 harg3 arg4 harg4 hc0 hc1 x0 x1 xs0).2.1)

/-! ## Point by point -/

/-- What the output's buffer and the accumulator hold after the body at point `n` (a pair: output, accumulator): case A
    at the first point; afterwards case C at point 24 and case B elsewhere, each over what the point before left in the
    accumulator. -/
noncomputable def outsAt3 (c : Dev nD) : (n : ℕ) → n < cfg3.N → Vec F S1x64 .f32 × Vec F S1x64 .f32
  | 0, hn => (idle3_2,
      sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr rfl)
        (fun h => (fun h' : (0 : ℕ) = 24 => by omega) ((hcond3_1 ⟨0, hn⟩).mp h)) (iblk3 V c 0 ⟨0, hn⟩) (iblk3 V c 1 ⟨0, hn⟩))
  | n + 1, hn =>
    if h1 : n + 1 = 24 then
      (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => (fun h' : n + 1 = 0 => by omega) ((hcond3_0 ⟨n + 1, hn⟩).mp h))
          ((hcond3_1 ⟨n + 1, hn⟩).mpr h1) (iblk3 V c 0 ⟨n + 1, hn⟩) (iblk3 V c 1 ⟨n + 1, hn⟩) (outsAt3 c n (Nat.lt_of_succ_lt hn)).2,
       sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => (fun h' : n + 1 = 0 => by omega) ((hcond3_0 ⟨n + 1, hn⟩).mp h))
          ((hcond3_1 ⟨n + 1, hn⟩).mpr h1) (iblk3 V c 0 ⟨n + 1, hn⟩) (iblk3 V c 1 ⟨n + 1, hn⟩) (outsAt3 c n (Nat.lt_of_succ_lt hn)).2)
    else
      (idle3_2,
       sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => (fun h' : n + 1 = 0 => by omega) ((hcond3_0 ⟨n + 1, hn⟩).mp h))
          (fun h => h1 ((hcond3_1 ⟨n + 1, hn⟩).mp h)) (iblk3 V c 0 ⟨n + 1, hn⟩) (iblk3 V c 1 ⟨n + 1, hn⟩) (outsAt3 c n (Nat.lt_of_succ_lt hn)).2)

/-- `outsAt3` at the first point. -/
theorem outsAt3_A (c : Dev nD) (t : Fin cfg3.N) (h0 : t.val = 0) (h1 : ¬t.val = 24) :
    outsAt3 V c t.val t.isLt = (idle3_2,
      sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact absurd h0 (Nat.succ_ne_zero n)

/-- `outsAt3` at a middle point: case B over what the point before left. -/
theorem outsAt3_B (c : Dev nD) (t : Fin cfg3.N) (h0 : ¬t.val = 0) (h1 : ¬t.val = 24) :
    outsAt3 V c t.val t.isLt = (idle3_2,
      sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t)
        (outsAt3 V c (t.val - 1) (Nat.lt_of_le_of_lt (Nat.sub_le _ _) t.isLt)).2) := by
  obtain ⟨n, hn⟩ := t
  cases n with
  | zero => exact absurd rfl h0
  | succ n => exact (dif_neg h1).trans rfl

/-- `outsAt3` at the last point: case C over what the point before left. -/
theorem outsAt3_C (c : Dev nD) (t : Fin cfg3.N) (h0 : ¬t.val = 0) (h1 : t.val = 24) :
    outsAt3 V c t.val t.isLt =
      (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t)
        (outsAt3 V c (t.val - 1) (Nat.lt_of_le_of_lt (Nat.sub_le _ _) t.isLt)).2,
       sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t)
        (outsAt3 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over (every scoped buffer
    at anything); afterwards the accumulator at what the point before left in it, the other scoped buffers at anything,
    the generator register at some state. -/
noncomputable def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The proof data of this region on core `c`: the arrays as the region finds them (`V`); after the body each input's
    buffer at its block and the output's at `outsAt3`'s first component; the invariant `PhiS3`; nothing owed; full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point `t`, the windows one by one, -/
noncomputable def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
noncomputable def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' memrefs hold their blocks; the point's position says which case it is in; the
    invariant hands the body the accumulator (at anything at the first point, else at what the point before left) and
    takes it back at this point's contents; away from the last point the output's buffer goes back as it came. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h0 : t.val = 0
  · have h1 : ¬t.val = 24 := by omega
    rw [Dat.leavesExact_idle (dat3 V c) 2 t (idleAt3_2 t (fun h => h1 ((hcond3_1 t).mp h))) (noFlush3_2 t (fun h => h1 ((hcond3_1 t).mp h)))]
    rw [outsAt3_A V c t h0 h1]
    unfold sout3_A_0; (try dsimp only)
    rw [PhiS3_castSucc V c t, PhiS3_zero V c _ _ h0, PhiA3_eq]
    iintro ⟨⟨⟨HS0, Hr⟩, Hg⟩, Ho, ⟨%d0, H0⟩, ⟨%d1, H1⟩, ⟨%d2, H2⟩⟩
    iapply ((kernelRun3_A c (grid3.coords t) _ _ _ _ _ _ _ _ ((hcond3_0 t).mpr h0) (fun h => h1 ((hcond3_1 t).mp h)) (iblk3 V c 0 t) (iblk3 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_C V c t h0 h1]
      unfold out3_C_2 sout3_C_0; (try dsimp only)
      rw [PhiS3_castSucc V c t, PhiS3_pos V c _ _ h0]
      iintro ⟨⟨⟨HS0, Hr⟩, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat3 V c) 2 t (idleAt3_2 t (fun h => h1 ((hcond3_1 t).mp h))) (noFlush3_2 t (fun h => h1 ((hcond3_1 t).mp h)))]
      rw [outsAt3_B V c t h0 h1]
      unfold sout3_B_0; (try dsimp only)
      rw [PhiS3_castSucc V c t, PhiS3_pos V c _ _ h0]
      iintro ⟨⟨⟨HS0, Hr⟩, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 25 := N_3; omega)

end Cert.Kernel.Hand

end
-- ==== Proof.KB.R4.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Ring
import Idealize.ShloMosaic.Lib.Tactic

/-!
# Region 4: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activations' staging buffer holds the block of the current point at every point: the window is fetched at
    every point, is never cut and never idle, and the body leaves the block where it found it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The mean row's staging buffer holds its (one) block at every point: it is fetched at the first point only, its
    block index never moves afterwards, and the body leaves it in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same of the variance row. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The same of the scale row. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The same of the shift row. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read, and the output written, whole -/

/-- The whole of a block of 2000 rows. -/
noncomputable abbrev r4_0 : Rect S2000x64 := Rect.unit (s := S2000x64) ![0, 0] S2000x64.size inb_S2000x64_S2000x64_0_0
/-- The whole of a single row. -/
noncomputable abbrev r4_1 : Rect S1x64 := Rect.unit (s := S1x64) ![0, 0] S1x64.size inb_S1x64_S1x64_0_0

/-! ## What the body leaves in the output buffer -/

/-- The output buffer after the body, from the five input blocks: its one store, whose payload is the skeleton's. -/
noncomputable def out4_5 (x0 : Vec F S2000x64 .f32) (x1 : Vec F S1x64 .f32) (x2 : Vec F S1x64 .f32) (x3 : Vec F S1x64 .f32) (x4 : Vec F S1x64 .f32) :
    Vec F S2000x64 .f32 :=
  View.canon [⟨r4_0, k4_pay1 (View.ld x0 r4_0) (View.ld x1 r4_1) (View.ld x2 r4_1) (View.ld x3 r4_1) (View.ld x4 r4_1)⟩]

/-- The one store covers the buffer. -/
theorem cover4_5 (p0 : Vec F S2000x64 .f32) (y : S2000x64.Idx) :
    ∃ pc ∈ ([⟨r4_0, p0⟩] : List (View.Piece (Elt F) S2000x64 .f32)), y ∈ pc.1.set :=
  View.cover_of_tiled [⟨r4_0, p0⟩] S2000x64.size (by rfl) y

/-! ## The body's triple -/

set_option maxHeartbeats 1000000 in
/-- The body on whole staging buffers, the five inputs' at read contents x0 … x4 and the output's at anything, runs
    to a state in which the inputs' are as they were and the output's holds out4_5 of them. (The body also loads the
    output buffer before it stores to it; the loaded value is not used.) -/
theorem sound_kernel4 (c : Dev nD) (E : Set ℕ) (i : grid4.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__bn_softmax_kernel i arg1 harg1 arg2 harg2 arg3 harg3 arg4 harg4 arg5 harg5 arg6 harg6) K := by
  simp only [cc4__bn_softmax_kernel_eq_skeleton]; unfold cc4__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of the region's pipeline on core c: the arrays as the region finds them; after the body at point t
    each input's buffer at its block and the output's at out4_5 of the input blocks; the invariant that of a body which
    touches nothing but its windows; nothing owed; full shares. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point t, the windows one by one, -/
noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
noncomputable def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.KB.R5.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.Regions
import Idealize.ShloMosaic.Lib.Tactic

/-! # Region 5: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The rows of X: the staging buffer the body is handed holds the block of the point, whether the
    point fetched it or not (an unfetched input has not moved its block index). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The matrix W: fetched at the first point only, and found in place at every later one. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

noncomputable abbrev r5_0 : Rect S2000x64 := Rect.unit (s := S2000x64) ![0, 0] S2000x64.size inb_S2000x64_S2000x64_0_0
noncomputable abbrev r5_1 : Rect S64x128 := Rect.unit (s := S64x128) ![0, 0] S64x128.size inb_S64x128_S64x128_0_0
noncomputable abbrev r5_2 : Rect S2000x128 := Rect.unit (s := S2000x128) ![0, 0] S2000x128.size inb_S2000x128_S2000x128_0_0

/-! ## What the body leaves in the output window's buffer -/

/-- The product block: the one store, over the whole buffer, of the payload at the two blocks read. -/
noncomputable def out5_2 (x0 : Vec F S2000x64 .f32) (x1 : Vec F S64x128 .f32) : Vec F S2000x128 .f32 :=
  View.canon [⟨r5_2, k5_pay1 (View.ld x0 r5_0) (View.ld x1 r5_1)⟩]

/-- The store's rectangle is the whole buffer, so it covers every index. -/
theorem cover5_2 (p0 : Vec F S2000x128 .f32) (y : S2000x128.Idx) :
    ∃ pc ∈ ([⟨r5_2, p0⟩] : List (View.Piece (Elt F) S2000x128 .f32)), y ∈ pc.1.set :=
  View.cover_of_tiled [⟨r5_2, p0⟩] S2000x128.size (by rfl) y

/-! ## The body's triple -/

set_option maxHeartbeats 1000000 in
/-- On whole staging memrefs, the inputs' holding x0 and x1 and the output's holding anything, the body
    runs to a state where the inputs' are unchanged and the output's holds out5_2 x0 x1. The body also reads
    the output buffer before storing into it; the value read is not used. -/
theorem sound_kernel5 (c : Dev nD) (E : Set ℕ) (i : grid5.Coords) (arg1 : Memref sig .tc .vmem S2000x64 .f32) (harg1 : arg1.IsWhole) (arg2 : Memref sig .tc .vmem S64x128 .f32) (harg2 : arg2.IsWhole) (arg3 : Memref sig .tc .vmem S2000x128 .f32) (harg3 : arg3.IsWhole)
    (x0 : Vec F S2000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__linear_kernel i arg1 harg1 arg2 harg2 arg3 harg3) K := by
  simp only [cc5__linear_kernel_eq_skeleton]; unfold cc5__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The arrays as the region finds them; after the body at point t the inputs' buffers at their blocks
    and the output's at the product block; the invariant is the scoped rest and the generator register,
    untouched; nothing owed; full shares. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point t, window by window, -/
noncomputable def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
noncomputable def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The inputs' memrefs hold their blocks, so the body's triple applies; the invariant and what the core
    owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Hand

end
-- ==== Proof.KB.R6.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for any proof data whose array is
    `V`'s and whose body leaves the block in place: the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 likewise: fetched at the first point only, its block index never moves, so the buffer holds
    the block at every point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's two conditions on the grid coordinate -/

/-- The first conditional's condition (the point is the grid's first), from the grid coordinate. -/
noncomputable abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val % 25 = 0 :=
  (by decide +kernel : ∀ t : Fin grid6.N, cond6_0 (grid6.coords t) ↔ t.val % 25 = 0)

/-- The second conditional's condition (the point is the grid's last). -/
noncomputable abbrev cond6_1 (i : grid6.Coords) : Prop := k6_cond2 i = 1#1
/-- It holds at the last point only. -/
theorem hcond6_1 : ∀ t : Fin cfg6.N, cond6_1 (grid6.coords t) ↔ t.val % 25 = 24 :=
  (by decide +kernel : ∀ t : Fin grid6.N, cond6_1 (grid6.coords t) ↔ t.val % 25 = 24)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
/-- At the first point the body stores nothing into output 3: the window is idle there and not written back. -/
theorem idleAt6_3_A : ∀ t : Fin cfg6.N, cond6_0 (grid6.coords t) → ¬cond6_1 (grid6.coords t) → cfg6.idle 3 (grid6.coords t) = true := by decide +kernel
theorem noFlush6_3_A : ∀ t : Fin cfg6.N, cond6_0 (grid6.coords t) → ¬cond6_1 (grid6.coords t) → (cfg6.win 3).flush t = false := by decide +kernel
/-- Nor at the middle points. -/
theorem idleAt6_3_B : ∀ t : Fin cfg6.N, ¬cond6_0 (grid6.coords t) → ¬cond6_1 (grid6.coords t) → cfg6.idle 3 (grid6.coords t) = true := by decide +kernel
theorem noFlush6_3_B : ∀ t : Fin cfg6.N, ¬cond6_0 (grid6.coords t) → ¬cond6_1 (grid6.coords t) → (cfg6.win 3).flush t = false := by decide +kernel
/-- At the last point it stores the accumulated sums there: the window is live. -/
theorem liveAt6_3_C : ∀ t : Fin cfg6.N, ¬cond6_0 (grid6.coords t) → cond6_1 (grid6.coords t) → cfg6.idle 3 (grid6.coords t) = false := by decide +kernel

/-! ## The memrefs the body is called with -/

/-- One staging buffer of each output window, through which its contents are stated (the choice does not matter:
    a covering list of writes reads the same through any view). -/
noncomputable abbrev VO6_2 : View sig .tc .vmem S2000x128 .f32 := (Memref.whole cc6_stg2_0 : Memref sig .tc .vmem S2000x128 .f32).view
noncomputable abbrev VO6_3 : View sig .tc .vmem S1x128 .f32 := (Memref.whole cc6_stg3_0 : Memref sig .tc .vmem S1x128 .f32).view
/-- Each window's current staging memref at point `t`, as the pipeline passes it, and its wholeness. -/
noncomputable abbrev ms6_0 (t : Fin cfg6.N) : Memref sig .tc .vmem S2000x128 .f32 := win6_0.stage (cfg6.slots t 0)
abbrev hs6_0 (t : Fin cfg6.N) : (ms6_0 t).IsWhole := hstage6_0 ((cfg6.slots t 0).cast nbuf6_0)
noncomputable abbrev ms6_1 (t : Fin cfg6.N) : Memref sig .tc .vmem S1x128 .f32 := win6_1.stage (cfg6.slots t 1)
abbrev hs6_1 (t : Fin cfg6.N) : (ms6_1 t).IsWhole := hstage6_1 ((cfg6.slots t 1).cast nbuf6_1)
noncomputable abbrev ms6_2 (t : Fin cfg6.N) : Memref sig .tc .vmem S2000x128 .f32 := win6_2.stage (cfg6.slots t 2)
abbrev hs6_2 (t : Fin cfg6.N) : (ms6_2 t).IsWhole := hstage6_2 ((cfg6.slots t 2).cast nbuf6_2)
noncomputable abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
/-- The scratch operand: a whole scoped buffer of the kernel's own, in which the column sums accumulate. -/
noncomputable abbrev scM6_0 : Memref sig .tc .vmem S1x128 .f32 := Memref.whole cc6_scratch0
noncomputable abbrev VS6_0 : View sig .tc .vmem S1x128 .f32 := scM6_0.view

/-- The other scoped buffers (every other call's staging buffers and scratch), unopened. -/
noncomputable abbrev restBut6 (c : Dev nD) : sProp 𝕄 :=
  Pipeline.scopedRestBut (Ix := Unit) (Name := ℕ) (U := UR sig nD τ) (Lvl := ℕ) (Val := Elt F) spec6 c [cc6_scratch0]

/-- The region's invariant as the launch hands it over, with the scratch operand split out as a memref owned at
    some contents: what the body obligation hands the run and takes back. -/
theorem PhiA6_eq (c : Dev nD) :
    (Pipeline.ΦA spec6 c : sProp 𝕄)
      = iprop(iprop(iprop((∃ d, owns (c : Thread nD τ) scM6_0 fullShare d)) ∗ restBut6 (F := F) c) ∗ (∃ r, prngReg c r)) := by
  unfold Pipeline.ΦA; rw [scopedRest6_split]; simp only [scM6_0, owns_whole]; try rfl

-- (the run's proof term is large: the definition's epilogue walks it past the default budget)
set_option maxHeartbeats 1000000 in
/-- The body AT THE FIRST POINT (the first conditional taken, the second not): the scratch, at anything, is reset and then
    receives the block's column sums; output 2 receives the block plus the bias row; output 3 is handed back untouched.
    What the stores leave in each buffer is given as pieces (last first), found by running the body: on whole
    memrefs, the inputs at their contents `x0`, `x1`, the body runs to the continuation holding the inputs as they
    were and each stored buffer with its pieces written. -/
noncomputable def kernelRun6_A (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond6_0 i) (hc1 : ¬cond6_1 i)
    (x0 : Vec F S2000x128 .f32) (x1 : Vec F S1x128 .f32) :
    Σ' (L2 : List (View.Piece (Elt F) S2000x128 .f32)) (L3 : List (View.Piece (Elt F) S1x128 .f32)), { LS0 : List (View.Piece (Elt F) S1x128 .f32) //
      ∀ (xi3 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc6_kernel i arg1 harg1 arg2 harg2 arg3 harg3 arg4 harg4 arg5 harg5) K } := by
  refine ⟨?_, [], ?_, fun xi3 E K => ?run⟩
  case run =>
    simp only [cc6_kernel_eq_skeleton]; unfold cc6_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

-- (the run's proof term is large: the definition's epilogue walks it past the default budget)
set_option maxHeartbeats 1000000 in
/-- The body AT A MIDDLE POINT (neither conditional taken): the scratch, at what the point before left (`xs0`), receives the
    block's column sums added to it; output 2 receives the block plus the bias row; output 3 is handed back untouched.
    What the stores leave in each buffer is given as pieces (last first), found by running the body: on whole
    memrefs, the inputs at their contents `x0`, `x1`, the body runs to the continuation holding the inputs as they
    were and each stored buffer with its pieces written. -/
noncomputable def kernelRun6_B (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : ¬cond6_1 i)
    (x0 : Vec F S2000x128 .f32) (x1 : Vec F S1x128 .f32) (xs0 : Vec F S1x128 .f32) :
    Σ' (L2 : List (View.Piece (Elt F) S2000x128 .f32)) (L3 : List (View.Piece (Elt F) S1x128 .f32)), { LS0 : List (View.Piece (Elt F) S1x128 .f32) //
      ∀ (xi3 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc6_kernel i arg1 harg1 arg2 harg2 arg3 harg3 arg4 harg4 arg5 harg5) K } := by
  refine ⟨?_, [], ?_, fun xi3 E K => ?run⟩
  case run =>
    simp only [cc6_kernel_eq_skeleton]; unfold cc6_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

-- (the run's proof term is large: the definition's epilogue walks it past the default budget)
set_option maxHeartbeats 1000000 in
/-- The body AT THE LAST POINT (the second conditional taken, the first not): the scratch, at what the point before left
    (`xs0`), receives the block's column sums added to it and is then copied into output 3; output 2 receives the block
    plus the bias row.
    What the stores leave in each buffer is given as pieces (last first), found by running the body: on whole
    memrefs, the inputs at their contents `x0`, `x1`, the body runs to the continuation holding the inputs as they
    were and each stored buffer with its pieces written. -/
noncomputable def kernelRun6_C (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : cond6_1 i)
    (x0 : Vec F S2000x128 .f32) (x1 : Vec F S1x128 .f32) (xs0 : Vec F S1x128 .f32) :
    Σ' (L2 : List (View.Piece (Elt F) S2000x128 .f32)) (L3 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc6_kernel i arg1 harg1 arg2 harg2 arg3 harg3 arg4 harg4 arg5 harg5) K } := by
  refine ⟨?_, ?_, ?_, fun E K => ?run⟩
  case run =>
    simp only [cc6_kernel_eq_skeleton]; unfold cc6_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- Case A: the one store into output 2 covers its block. -/
theorem cover6_A_2 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond6_0 i) (hc1 : ¬cond6_1 i)
    (x0 : Vec F S2000x128 .f32) (x1 : Vec F S1x128 .f32) (y : S2000x128.Idx) :
    ∃ pc ∈ (kernelRun6_A c i arg1 harg1 arg2 harg2 arg3 harg3 arg4 harg4 arg5 harg5 hc0 hc1 x0 x1).1, y ∈ pc.1.set :=
  View.cover_of_tiledL (kernelRun6_A c i arg1 harg1 arg2 harg2 arg3 harg3 arg4 harg4 arg5 harg5 hc0 hc1 x0 x1).1 S2000x128.size (by sl_kernel_rfl) y

/-- What case A leaves in output 2's staging buffer: its pieces read back. -/
noncomputable def out6_A_2 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond6_0 i) (hc1 : ¬cond6_1 i)
    (x0 : Vec F S2000x128 .f32) (x1 : Vec F S1x128 .f32) : Vec F S2000x128 .f32 :=
  VO6_2.read (Elt F) (VO6_2.writes (Elt F) VO6_2.junk (kernelRun6_A c i arg1 harg1 arg2 harg2 arg3 harg3 arg4 harg4 arg5 harg5 hc0 hc1 x0 x1).1)

/-- What case A leaves in output 3's staging buffer — nothing is stored: an arbitrary value that nothing consults
    (at these points the window is neither written back nor read at the next point). -/
noncomputable def out6_A_3 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond6_0 i) (hc1 : ¬cond6_1 i)
    (x0 : Vec F S2000x128 .f32) (x1 : Vec F S1x128 .f32) : Vec F S1x128 .f32 :=
  VO6_3.read (Elt F) (VO6_3.writes (Elt F) VO6_3.junk (kernelRun6_A c i arg1 harg1 arg2 harg2 arg3 harg3 arg4 harg4 arg5 harg5 hc0 hc1 x0 x1).2.1)

/-- Case A: the stores into the scratch cover it. -/
theorem scover6_A_0 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond6_0 i) (hc1 : ¬cond6_1 i)
    (x0 : Vec F S2000x128 .f32) (x1 : Vec F S1x128 .f32) (y : S1x128.Idx) :
    ∃ pc ∈ (kernelRun6_A c i arg1 harg1 arg2 harg2 arg3 harg3 arg4 harg4 arg5 harg5 hc0 hc1 x0 x1).2.2.1, y ∈ pc.1.set :=
  View.cover_of_tiledL (kernelRun6_A c i arg1 harg1 arg2 harg2 arg3 harg3 arg4 harg4 arg5 harg5 hc0 hc1 x0 x1).2.2.1 S1x128.size (by sl_kernel_rfl) y

/-- What case A leaves in the scratch: its pieces read back. -/
noncomputable def sout6_A_0 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond6_0 i) (hc1 : ¬cond6_1 i)
    (x0 : Vec F S2000x128 .f32) (x1 : Vec F S1x128 .f32) : Vec F S1x128 .f32 :=
  VS6_0.read (Elt F) (VS6_0.writes (Elt F) VS6_0.junk (kernelRun6_A c i arg1 harg1 arg2 harg2 arg3 harg3 arg4 harg4 arg5 harg5 hc0 hc1 x0 x1).2.2.1)

/-- Case B: the one store into output 2 covers its block. -/
theorem cover6_B_2 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : ¬cond6_1 i)
    (x0 : Vec F S2000x128 .f32) (x1 : Vec F S1x128 .f32) (xs0 : Vec F S1x128 .f32) (y : S2000x128.Idx) :
    ∃ pc ∈ (kernelRun6_B c i arg1 harg1 arg2 harg2 arg3 harg3 arg4 harg4 arg5 harg5 hc0 hc1 x0 x1 xs0).1, y ∈ pc.1.set :=
  View.cover_of_tiledL (kernelRun6_B c i arg1 harg1 arg2 harg2 arg3 harg3 arg4 harg4 arg5 harg5 hc0 hc1 x0 x1 xs0).1 S2000x128.size (by sl_kernel_rfl) y

/-- What case B leaves in output 2's staging buffer: its pieces read back. -/
noncomputable def out6_B_2 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : ¬cond6_1 i)
    (x0 : Vec F S2000x128 .f32) (x1 : Vec F S1x128 .f32) (xs0 : Vec F S1x128 .f32) : Vec F S2000x128 .f32 :=
  VO6_2.read (Elt F) (VO6_2.writes (Elt F) VO6_2.junk (kernelRun6_B c i arg1 harg1 arg2 harg2 arg3 harg3 arg4 harg4 arg5 harg5 hc0 hc1 x0 x1 xs0).1)

/-- What case B leaves in output 3's staging buffer — nothing is stored: an arbitrary value that nothing consults
    (at these points the window is neither written back nor read at the next point). -/
noncomputable def out6_B_3 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : ¬cond6_1 i)
    (x0 : Vec F S2000x128 .f32) (x1 : Vec F S1x128 .f32) (xs0 : Vec F S1x128 .f32) : Vec F S1x128 .f32 :=
  VO6_3.read (Elt F) (VO6_3.writes (Elt F) VO6_3.junk (kernelRun6_B c i arg1 harg1 arg2 harg2 arg3 harg3 arg4 harg4 arg5 harg5 hc0 hc1 x0 x1 xs0).2.1)

/-- Case B: the stores into the scratch cover it. -/
theorem scover6_B_0 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : ¬cond6_1 i)
    (x0 : Vec F S2000x128 .f32) (x1 : Vec F S1x128 .f32) (xs0 : Vec F S1x128 .f32) (y : S1x128.Idx) :
    ∃ pc ∈ (kernelRun6_B c i arg1 harg1 arg2 harg2 arg3 harg3 arg4 harg4 arg5 harg5 hc0 hc1 x0 x1 xs0).2.2.1, y ∈ pc.1.set :=
  View.cover_of_tiledL (kernelRun6_B c i arg1 harg1 arg2 harg2 arg3 harg3 arg4 harg4 arg5 harg5 hc0 hc1 x0 x1 xs0).2.2.1 S1x128.size (by sl_kernel_rfl) y

/-- What case B leaves in the scratch: its pieces read back. -/
noncomputable def sout6_B_0 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : ¬cond6_1 i)
    (x0 : Vec F S2000x128 .f32) (x1 : Vec F S1x128 .f32) (xs0 : Vec F S1x128 .f32) : Vec F S1x128 .f32 :=
  VS6_0.read (Elt F) (VS6_0.writes (Elt F) VS6_0.junk (kernelRun6_B c i arg1 harg1 arg2 harg2 arg3 harg3 arg4 harg4 arg5 harg5 hc0 hc1 x0 x1 xs0).2.2.1)

/-- Case C: the one store into output 2 covers its block. -/
theorem cover6_C_2 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : cond6_1 i)
    (x0 : Vec F S2000x128 .f32) (x1 : Vec F S1x128 .f32) (xs0 : Vec F S1x128 .f32) (y : S2000x128.Idx) :
    ∃ pc ∈ (kernelRun6_C c i arg1 harg1 arg2 harg2 arg3 harg3 arg4 harg4 arg5 harg5 hc0 hc1 x0 x1 xs0).1, y ∈ pc.1.set :=
  View.cover_of_tiledL (kernelRun6_C c i arg1 harg1 arg2 harg2 arg3 harg3 arg4 harg4 arg5 harg5 hc0 hc1 x0 x1 xs0).1 S2000x128.size (by sl_kernel_rfl) y

/-- What case C leaves in output 2's staging buffer: its pieces read back. -/
noncomputable def out6_C_2 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : cond6_1 i)
    (x0 : Vec F S2000x128 .f32) (x1 : Vec F S1x128 .f32) (xs0 : Vec F S1x128 .f32) : Vec F S2000x128 .f32 :=
  VO6_2.read (Elt F) (VO6_2.writes (Elt F) VO6_2.junk (kernelRun6_C c i arg1 harg1 arg2 harg2 arg3 harg3 arg4 harg4 arg5 harg5 hc0 hc1 x0 x1 xs0).1)

/-- Case C: the one store into output 3 covers its block. -/
theorem cover6_C_3 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : cond6_1 i)
    (x0 : Vec F S2000x128 .f32) (x1 : Vec F S1x128 .f32) (xs0 : Vec F S1x128 .f32) (y : S1x128.Idx) :
    ∃ pc ∈ (kernelRun6_C c i arg1 harg1 arg2 harg2 arg3 harg3 arg4 harg4 arg5 harg5 hc0 hc1 x0 x1 xs0).2.1, y ∈ pc.1.set :=
  View.cover_of_tiledL (kernelRun6_C c i arg1 harg1 arg2 harg2 arg3 harg3 arg4 harg4 arg5 harg5 hc0 hc1 x0 x1 xs0).2.1 S1x128.size (by sl_kernel_rfl) y

/-- What case C leaves in output 3's staging buffer: its pieces read back. -/
noncomputable def out6_C_3 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : cond6_1 i)
    (x0 : Vec F S2000x128 .f32) (x1 : Vec F S1x128 .f32) (xs0 : Vec F S1x128 .f32) : Vec F S1x128 .f32 :=
  VO6_3.read (Elt F) (VO6_3.writes (Elt F) VO6_3.junk (kernelRun6_C c i arg1 harg1 arg2 harg2 arg3 harg3 arg4 harg4 arg5 harg5 hc0 hc1 x0 x1 xs0).2.1)

/-- Case C: the stores into the scratch cover it. -/
theorem scover6_C_0 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : cond6_1 i)
    (x0 : Vec F S2000x128 .f32) (x1 : Vec F S1x128 .f32) (xs0 : Vec F S1x128 .f32) (y : S1x128.Idx) :
    ∃ pc ∈ (kernelRun6_C c i arg1 harg1 arg2 harg2 arg3 harg3 arg4 harg4 arg5 harg5 hc0 hc1 x0 x1 xs0).2.2.1, y ∈ pc.1.set :=
  View.cover_of_tiledL (kernelRun6_C c i arg1 harg1 arg2 harg2 arg3 harg3 arg4 harg4 arg5 harg5 hc0 hc1 x0 x1 xs0).2.2.1 S1x128.size (by sl_kernel_rfl) y

/-- What case C leaves in the scratch: its pieces read back. -/
noncomputable def sout6_C_0 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : cond6_1 i)
    (x0 : Vec F S2000x128 .f32) (x1 : Vec F S1x128 .f32) (xs0 : Vec F S1x128 .f32) : Vec F S1x128 .f32 :=
  VS6_0.read (Elt F) (VS6_0.writes (Elt F) VS6_0.junk (kernelRun6_C c i arg1 harg1 arg2 harg2 arg3 harg3 arg4 harg4 arg5 harg5 hc0 hc1 x0 x1 xs0).2.2.1)

/-! ## What the outputs and the scratch hold after each point -/

/-- THE ACCUMULATION. What the two outputs' staging buffers and the scratch hold after the body at position `n`
    (output 2, output 3, the scratch): the case the closed forms select at `n`, run at the point's memrefs and input
    blocks, the scratch before it at what this leaves at `n - 1`. No point meets both conditions. -/
noncomputable def outsAt6 (c : Dev nD) : (n : ℕ) → n < cfg6.N → Vec F S2000x128 .f32 × Vec F S1x128 .f32 × Vec F S1x128 .f32
  | 0, hn => (out6_A_2 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩), out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩))
  | n + 1, hn =>
    if h0 : (n + 1) % 25 = 0 then
      if h1 : (n + 1) % 25 = 24 then
        False.elim (by omega)
      else
        (out6_A_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩), out6_A_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩))
    else
      if h1 : (n + 1) % 25 = 24 then
        (out6_C_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2.2, out6_C_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2.2)
      else
        (out6_B_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2.2, out6_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2.2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2.2)

/-- `outsAt6` at the first point: case A's contents. -/
theorem outsAt6_A (c : Dev nD) (t : Fin cfg6.N) (h0 : t.val % 25 = 0) (h1 : ¬t.val % 25 = 24) :
    outsAt6 V c t.val t.isLt = (out6_A_2 c (grid6.coords t) (ms6_0 t) (hs6_0 t) (ms6_1 t) (hs6_1 t) (ms6_2 t) (hs6_2 t) (ms6_3 t) (hs6_3 t) scM6_0 (Memref.isWhole_whole _) ((hcond6_0 t).mpr h0) (fun h => h1 ((hcond6_1 t).mp h)) (iblk6 V c 0 t) (iblk6 V c 1 t), out6_A_3 c (grid6.coords t) (ms6_0 t) (hs6_0 t) (ms6_1 t) (hs6_1 t) (ms6_2 t) (hs6_2 t) (ms6_3 t) (hs6_3 t) scM6_0 (Memref.isWhole_whole _) ((hcond6_0 t).mpr h0) (fun h => h1 ((hcond6_1 t).mp h)) (iblk6 V c 0 t) (iblk6 V c 1 t), sout6_A_0 c (grid6.coords t) (ms6_0 t) (hs6_0 t) (ms6_1 t) (hs6_1 t) (ms6_2 t) (hs6_2 t) (ms6_3 t) (hs6_3 t) scM6_0 (Memref.isWhole_whole _) ((hcond6_0 t).mpr h0) (fun h => h1 ((hcond6_1 t).mp h)) (iblk6 V c 0 t) (iblk6 V c 1 t)) := by
  obtain ⟨n, hn⟩ := t
  cases n with
  | zero => exact rfl
  | succ n => exact (dif_pos h0).trans ((dif_neg h1).trans rfl)

/-- `outsAt6` at a middle point: case B's contents, over what the point before left in the scratch. -/
theorem outsAt6_B (c : Dev nD) (t : Fin cfg6.N) (h0 : ¬t.val % 25 = 0) (h1 : ¬t.val % 25 = 24) :
    outsAt6 V c t.val t.isLt = (out6_B_2 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2.2, out6_B_3 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2.2, sout6_B_0 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt6` at the last point: case C's contents, over what the point before left in the scratch. -/
theorem outsAt6_C (c : Dev nD) (t : Fin cfg6.N) (h0 : ¬t.val % 25 = 0) (h1 : t.val % 25 = 24) :
    outsAt6 V c t.val t.isLt = (out6_C_2 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2.2, out6_C_3 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2.2, sout6_C_0 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt6`'s last component), the other
    scoped buffers unopened and the generator register at some state. -/
noncomputable def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2)) ∗ restBut6 (F := F) c) ∗ (∃ r, prngReg c r))

theorem PhiS6_zero (c : Dev nD) (n : ℕ) (h : n ≤ cfg6.N) (hz : n = 0) : PhiS6 V c n h = Pipeline.ΦA spec6 c := by
  subst hz; rfl

/-- After point `n` (before point `n + 1`): the scratch at that point's contents. -/
theorem PhiS6_succ (c : Dev nD) (n : ℕ) (hn : n < cfg6.N) :
    PhiS6 V c (n + 1) hn = iprop(iprop(iprop(owns (c : Thread nD τ) scM6_0 fullShare ((outsAt6 V c n hn).2.2)) ∗ restBut6 (F := F) c) ∗ (∃ r, prngReg c r)) := rfl

/-- Before a point that is not the first: the scratch at what the point before left. -/
theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2)) ∗ restBut6 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt6`; the invariant `PhiS6`; nothing owed;
    full shares. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
    | ⟨3, _⟩ => (outsAt6 V c t.val t.isLt).2.1
  Φ t := PhiS6 V c t.val (Nat.le_of_lt_succ t.isLt)
  q _ := fullShare
  owed _ := 0

/-- The proof data's arrays are the region-entry contents. -/
theorem A_eq6 (c : Dev nD) (w : Fin cfg6.W) : (dat6 V c).A w = V c (Pipeline.arrRef spec6 w) := by
  dsimp only [dat6]

/-- The invariant at a point's start, restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]
theorem after6_3 (c : Dev nD) (t : Fin cfg6.N) : (dat6 V c).after 3 t = (outsAt6 V c t.val t.isLt).2.1 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t` (the windows one by one), -/
noncomputable def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

/-- and what it returns. -/
noncomputable def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 25 := lt_of_lt_of_eq t.isLt (show cfg6.N = 25 from N_6)
  by_cases h0 : t.val % 25 = 0
  · by_cases h1 : t.val % 25 = 24
    · exfalso; omega
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [Dat.leavesExact_idle (dat6 V c) 3 t (idleAt6_3_A t ((hcond6_0 t).mpr h0) (fun h => h1 ((hcond6_1 t).mp h))) (noFlush6_3_A t ((hcond6_0 t).mpr h0) (fun h => h1 ((hcond6_1 t).mp h)))]
      rw [outsAt6_A V c t h0 h1]
      unfold out6_A_2 sout6_A_0; (try dsimp only)
      by_cases hz : t.val = 0
      · rw [PhiS6_castSucc V c t, PhiS6_zero V c _ _ hz, PhiA6_eq]
        iintro ⟨⟨⟨HS0, HR⟩, Hg⟩, Ho, ⟨%d0, H0⟩, ⟨%d1, H1⟩, ⟨%d2, H2⟩, ⟨%d3, H3⟩⟩
        iapply ((kernelRun6_A c (grid6.coords t) _ _ _ _ _ _ _ _ _ _ ((hcond6_0 t).mpr h0) (fun h => h1 ((hcond6_1 t).mp h)) (iblk6 V c 0 t) (iblk6 V c 1 t)).2.2.2 _ Set.univ _)
        isplitl [H0]; · iexact H0
        isplitl [H1]; · iexact H1
        isplitl [H2]; · iexists _; iexact H2
        isplitl [H3]; · iexact H3
        isplitl [HS0]; · iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_A_0 c _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover6_A_2 c _ _ _ _ _ _ _ _ _ _ _ _ _ _ _)
        iexists _; iexact H3
      · exfalso; omega
  · by_cases h1 : t.val % 25 = 24
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3_C t (fun h => h0 ((hcond6_0 t).mp h)) ((hcond6_1 t).mpr h1)], after6_3]
      rw [outsAt6_C V c t h0 h1]
      unfold out6_C_2 out6_C_3 sout6_C_0; (try dsimp only)
      by_cases hz : t.val = 0
      · exfalso; omega
      · rw [PhiS6_castSucc V c t, PhiS6_pos V c _ _ hz]
        iintro ⟨⟨⟨HS0, HR⟩, Hg⟩, Ho, ⟨%d0, H0⟩, ⟨%d1, H1⟩, ⟨%d2, H2⟩, ⟨%d3, H3⟩⟩
        iapply ((kernelRun6_C c (grid6.coords t) _ _ _ _ _ _ _ _ _ _ (fun h => h0 ((hcond6_0 t).mp h)) ((hcond6_1 t).mpr h1) (iblk6 V c 0 t) (iblk6 V c 1 t) _).2.2.2 Set.univ _)
        isplitl [H0]; · iexact H0
        isplitl [H1]; · iexact H1
        isplitl [H2]; · iexists _; iexact H2
        isplitl [H3]; · iexists _; iexact H3
        isplitl [HS0]; · iexact HS0
        iintro ⟨H0, H1, ⟨%e2, H2⟩, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_C_0 c _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover6_C_2 c _ _ _ _ _ _ _ _ _ _ _ _ _ _ _ _)
        unfold owns; iexists _; isplitr
        swap; · iexact H3
        ipureintro; exact View.read_writes_of_cover _ _ _ _ _ (cover6_C_3 c _ _ _ _ _ _ _ _ _ _ _ _ _ _ _ _)
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [Dat.leavesExact_idle (dat6 V c) 3 t (idleAt6_3_B t (fun h => h0 ((hcond6_0 t).mp h)) (fun h => h1 ((hcond6_1 t).mp h))) (noFlush6_3_B t (fun h => h0 ((hcond6_0 t).mp h)) (fun h => h1 ((hcond6_1 t).mp h)))]
      rw [outsAt6_B V c t h0 h1]
      unfold out6_B_2 sout6_B_0; (try dsimp only)
      by_cases hz : t.val = 0
      · exfalso; omega
      · rw [PhiS6_castSucc V c t, PhiS6_pos V c _ _ hz]
        iintro ⟨⟨⟨HS0, HR⟩, Hg⟩, Ho, ⟨%d0, H0⟩, ⟨%d1, H1⟩, ⟨%d2, H2⟩, ⟨%d3, H3⟩⟩
        iapply ((kernelRun6_B c (grid6.coords t) _ _ _ _ _ _ _ _ _ _ (fun h => h0 ((hcond6_0 t).mp h)) (fun h => h1 ((hcond6_1 t).mp h)) (iblk6 V c 0 t) (iblk6 V c 1 t) _).2.2.2 _ Set.univ _)
        isplitl [H0]; · iexact H0
        isplitl [H1]; · iexact H1
        isplitl [H2]; · iexists _; iexact H2
        isplitl [H3]; · iexact H3
        isplitl [HS0]; · iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_B_0 c _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover6_B_2 c _ _ _ _ _ _ _ _ _ _ _ _ _ _ _ _)
        iexists _; iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives it back: the scratch's named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg

/-- The same after the last point. -/
theorem hout6 (c : Dev nD) : (dat6 V c).Φ (Fin.last cfg6.N) ⊢ Pipeline.ΦA spec6 c :=
  Phi_out6 V c _ (by rw [Fin.val_last]; have : cfg6.N = 25 := N_6; omega)

end Cert.Kernel.Hand

end
-- ==== Proof.KB.R7.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 7: the second pass of the column variance. Over the 25 row tiles of 2000 rows the body adds, column by
column, the tile's sum of squared deviations (x − mean)² into a one-row accumulator that it zeroes at the first tile and
copies to the one-row result at the last. Here: the windows' blocks, the two branch conditions over the grid, the body's
triple in each of the three control cases (first tile, a middle tile, last tile), what each case leaves in the accumulator
and in the result's buffer, those contents point by point along the grid, the proof data over them and the body
obligation; the invariant carries the accumulator at the contents the point before left. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The row-tile window (window 0, fetched at every point) holds its block when the body runs, for any proof data
    whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The mean window (window 1, one constant block fetched at the first point only) holds that block at every point:
    where it is not fetched its block index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The two branch conditions, over the grid -/

/-- The condition of the first conditional (the accumulator's reset): the grid coordinate is 0. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val = 0 :=
  (by decide +kernel : ∀ t : Fin grid7.N, cond7_0 (grid7.coords t) ↔ t.val = 0)

/-- The condition of the second conditional (the accumulator stored to the output): the grid coordinate is 24. -/
abbrev cond7_1 (i : grid7.Coords) : Prop := k7_cond2 i = 1#1
/-- It holds at the last point only. -/
theorem hcond7_1 : ∀ t : Fin cfg7.N, cond7_1 (grid7.coords t) ↔ t.val = 24 :=
  (by decide +kernel : ∀ t : Fin grid7.N, cond7_1 (grid7.coords t) ↔ t.val = 24)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
/-- Away from the last point the body stores nothing into the output window: it is idle there, -/
theorem idleAt7_2 : ∀ t : Fin cfg7.N, ¬cond7_1 (grid7.coords t) → cfg7.idle 2 (grid7.coords t) = true := by decide +kernel
/-- and its block is not written back there. -/
theorem noFlush7_2 : ∀ t : Fin cfg7.N, ¬cond7_1 (grid7.coords t) → (cfg7.win 2).flush t = false := by decide +kernel
/-- At the last point the output window is live. -/
theorem liveAt7_2 : ∀ t : Fin cfg7.N, cond7_1 (grid7.coords t) → cfg7.idle 2 (grid7.coords t) = false := by decide +kernel

/-! ## The memrefs the body is called with -/

/-- The output window's one staging buffer as a view: what the body leaves in it is stated through it. -/
noncomputable abbrev VO7_2 : View sig .tc .vmem S1x128 .f32 := (Memref.whole cc7_stg2_0 : Memref sig .tc .vmem S1x128 .f32).view
/-- Each window's current staging memref at point `t`, and its wholeness. -/
noncomputable abbrev ms7_0 (t : Fin cfg7.N) : Memref sig .tc .vmem S2000x128 .f32 := win7_0.stage (cfg7.slots t 0)
abbrev hs7_0 (t : Fin cfg7.N) : (ms7_0 t).IsWhole := hstage7_0 ((cfg7.slots t 0).cast nbuf7_0)
noncomputable abbrev ms7_1 (t : Fin cfg7.N) : Memref sig .tc .vmem S1x128 .f32 := win7_1.stage (cfg7.slots t 1)
abbrev hs7_1 (t : Fin cfg7.N) : (ms7_1 t).IsWhole := hstage7_1 ((cfg7.slots t 1).cast nbuf7_1)
noncomputable abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
/-- The accumulator: the kernel's own scratch buffer, whole, passed beside the windows, -/
noncomputable abbrev scM7_0 : Memref sig .tc .vmem S1x128 .f32 := Memref.whole cc7_scratch0
/-- and as a view. -/
noncomputable abbrev VS7_0 : View sig .tc .vmem S1x128 .f32 := scM7_0.view

/-- The region-entry invariant with the accumulator split out of the scoped rest, as a memref owned at some contents. -/
theorem PhiA7_eq (c : Dev nD) :
    (Pipeline.ΦA spec7 c : sProp 𝕄)
      = iprop(iprop(iprop(∃ d, owns (c : Thread nD τ) scM7_0 fullShare d)
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

/-! ## The body, once per control case -/

set_option maxHeartbeats 1000000 in
/-- CASE A (the first point: the reset taken, the final store not). On whole memrefs — the two inputs at contents
    `x0`, `x1`, the output's buffer at `xi2` handed back untouched, the accumulator at anything — the body runs to the
    continuation holding the inputs as they were and the accumulator with the pieces `LS0` written (the zero fill, then
    the first tile's column sums added to what is read back): the pieces are found by running the body. -/
noncomputable def kernelRun7_A (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond7_0 i) (hc1 : ¬cond7_1 i)
    (x0 : Vec F S2000x128 .f32) (x1 : Vec F S1x128 .f32) :
    { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc7__var_kernel i arg1 harg1 arg2 harg2 arg3 harg3 arg4 harg4) K } := by
  refine ⟨?_, fun xi2 E K => ?run⟩
  case run =>
    simp only [cc7__var_kernel_eq_skeleton]; unfold cc7__var_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE B (a middle point: neither conditional taken). The accumulator comes in at the contents `xs0` the point before
    left and goes out with one piece written: the tile's column sums added to `xs0`. -/
noncomputable def kernelRun7_B (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : ¬cond7_1 i)
    (x0 : Vec F S2000x128 .f32) (x1 : Vec F S1x128 .f32) (xs0 : Vec F S1x128 .f32) :
    { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc7__var_kernel i arg1 harg1 arg2 harg2 arg3 harg3 arg4 harg4) K } := by
  refine ⟨?_, fun xi2 E K => ?run⟩
  case run =>
    simp only [cc7__var_kernel_eq_skeleton]; unfold cc7__var_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE C (the last point: the reset not taken, the final store taken). As case B, and the output's buffer, at anything
    before, goes out with the pieces `L2` written: the accumulator read back after its update. -/
noncomputable def kernelRun7_C (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : cond7_1 i)
    (x0 : Vec F S2000x128 .f32) (x1 : Vec F S1x128 .f32) (xs0 : Vec F S1x128 .f32) :
    Σ' (L2 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc7__var_kernel i arg1 harg1 arg2 harg2 arg3 harg3 arg4 harg4) K } := by
  refine ⟨?_, ?_, fun E K => ?run⟩
  case run =>
    simp only [cc7__var_kernel_eq_skeleton]; unfold cc7__var_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves in the accumulator and in the output's buffer -/

/-- At the points where the output window is idle its `after` is never consulted (the window is neither written back
    there nor read at the next point): an arbitrary value. -/
noncomputable def idle7_2 : Vec F S1x128 .f32 := VO7_2.read (Elt F) VO7_2.junk

/-- Case A's pieces cover the accumulator (each is the whole row). -/
theorem scover7_A_0 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond7_0 i) (hc1 : ¬cond7_1 i)
    (x0 : Vec F S2000x128 .f32) (x1 : Vec F S1x128 .f32) (y : S1x128.Idx) :
    ∃ pc ∈ (kernelRun7_A c i arg1 harg1 arg2 harg2 arg3 harg3 arg4 harg4 hc0 hc1 x0 x1).1, y ∈ pc.1.set :=
  View.cover_of_tiledL (kernelRun7_A c i arg1 harg1 arg2 harg2 arg3 harg3 arg4 harg4 hc0 hc1 x0 x1).1 S1x128.size (by sl_kernel_rfl) y

/-- What case A leaves in the accumulator: its pieces read back. -/
noncomputable def sout7_A_0 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond7_0 i) (hc1 : ¬cond7_1 i)
    (x0 : Vec F S2000x128 .f32) (x1 : Vec F S1x128 .f32) : Vec F S1x128 .f32 :=
  VS7_0.read (Elt F) (VS7_0.writes (Elt F) VS7_0.junk (kernelRun7_A c i arg1 harg1 arg2 harg2 arg3 harg3 arg4 harg4 hc0 hc1 x0 x1).1)

/-- Case B's one piece covers the accumulator. -/
theorem scover7_B_0 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : ¬cond7_1 i)
    (x0 : Vec F S2000x128 .f32) (x1 : Vec F S1x128 .f32) (xs0 : Vec F S1x128 .f32) (y : S1x128.Idx) :
    ∃ pc ∈ (kernelRun7_B c i arg1 harg1 arg2 harg2 arg3 harg3 arg4 harg4 hc0 hc1 x0 x1 xs0).1, y ∈ pc.1.set :=
  View.cover_of_tiledL (kernelRun7_B c i arg1 harg1 arg2 harg2 arg3 harg3 arg4 harg4 hc0 hc1 x0 x1 xs0).1 S1x128.size (by sl_kernel_rfl) y

/-- What case B leaves in the accumulator. -/
noncomputable def sout7_B_0 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : ¬cond7_1 i)
    (x0 : Vec F S2000x128 .f32) (x1 : Vec F S1x128 .f32) (xs0 : Vec F S1x128 .f32) : Vec F S1x128 .f32 :=
  VS7_0.read (Elt F) (VS7_0.writes (Elt F) VS7_0.junk (kernelRun7_B c i arg1 harg1 arg2 harg2 arg3 harg3 arg4 harg4 hc0 hc1 x0 x1 xs0).1)

/-- Case C's one store covers the output's buffer. -/
theorem cover7_C_2 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : cond7_1 i)
    (x0 : Vec F S2000x128 .f32) (x1 : Vec F S1x128 .f32) (xs0 : Vec F S1x128 .f32) (y : S1x128.Idx) :
    ∃ pc ∈ (kernelRun7_C c i arg1 harg1 arg2 harg2 arg3 harg3 arg4 harg4 hc0 hc1 x0 x1 xs0).1, y ∈ pc.1.set :=
  View.cover_of_tiledL (kernelRun7_C c i arg1 harg1 arg2 harg2 arg3 harg3 arg4 harg4 hc0 hc1 x0 x1 xs0).1 S1x128.size (by sl_kernel_rfl) y

/-- What case C leaves in the output's buffer. -/
noncomputable def out7_C_2 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : cond7_1 i)
    (x0 : Vec F S2000x128 .f32) (x1 : Vec F S1x128 .f32) (xs0 : Vec F S1x128 .f32) : Vec F S1x128 .f32 :=
  VO7_2.read (Elt F) (VO7_2.writes (Elt F) VO7_2.junk (kernelRun7_C c i arg1 harg1 arg2 harg2 arg3 harg3 arg4 harg4 hc0 hc1 x0 x1 xs0).1)

/-- Case C's one piece covers the accumulator. -/
theorem scover7_C_0 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : cond7_1 i)
    (x0 : Vec F S2000x128 .f32) (x1 : Vec F S1x128 .f32) (xs0 : Vec F S1x128 .f32) (y : S1x128.Idx) :
    ∃ pc ∈ (kernelRun7_C c i arg1 harg1 arg2 harg2 arg3 harg3 arg4 harg4 hc0 hc1 x0 x1 xs0).2.1, y ∈ pc.1.set :=
  View.cover_of_tiledL (kernelRun7_C c i arg1 harg1 arg2 harg2 arg3 harg3 arg4 harg4 hc0 hc1 x0 x1 xs0).2.1 S1x128.size (by sl_kernel_rfl) y

/-- What case C leaves in the accumulator. -/
noncomputable def sout7_C_0 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : cond7_1 i)
    (x0 : Vec F S2000x128 .f32) (x1 : Vec F S1x128 .f32) (xs0 : Vec F S1x128 .f32) : Vec F S1x128 .f32 :=
  VS7_0.read (Elt F) (VS7_0.writes (Elt F) VS7_0.junk (kernelRun7_C c i arg1 harg1 arg2 harg2 arg3 harg3 arg4 harg4 hc0 hc1 x0 x1 xs0).2.1)

/-! ## Point by point -/

/-- What the output's buffer and the accumulator hold after the body at point `n` (a pair: output, accumulator): case A
    at the first point; afterwards case C at point 24 and case B elsewhere, each over what the point before left in the
    accumulator. -/
noncomputable def outsAt7 (c : Dev nD) : (n : ℕ) → n < cfg7.N → Vec F S1x128 .f32 × Vec F S1x128 .f32
  | 0, hn => (idle7_2,
      sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) ((hcond7_0 ⟨0, hn⟩).mpr rfl)
        (fun h => (fun h' : (0 : ℕ) = 24 => by omega) ((hcond7_1 ⟨0, hn⟩).mp h)) (iblk7 V c 0 ⟨0, hn⟩) (iblk7 V c 1 ⟨0, hn⟩))
  | n + 1, hn =>
    if h1 : n + 1 = 24 then
      (out7_C_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => (fun h' : n + 1 = 0 => by omega) ((hcond7_0 ⟨n + 1, hn⟩).mp h))
          ((hcond7_1 ⟨n + 1, hn⟩).mpr h1) (iblk7 V c 0 ⟨n + 1, hn⟩) (iblk7 V c 1 ⟨n + 1, hn⟩) (outsAt7 c n (Nat.lt_of_succ_lt hn)).2,
       sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => (fun h' : n + 1 = 0 => by omega) ((hcond7_0 ⟨n + 1, hn⟩).mp h))
          ((hcond7_1 ⟨n + 1, hn⟩).mpr h1) (iblk7 V c 0 ⟨n + 1, hn⟩) (iblk7 V c 1 ⟨n + 1, hn⟩) (outsAt7 c n (Nat.lt_of_succ_lt hn)).2)
    else
      (idle7_2,
       sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => (fun h' : n + 1 = 0 => by omega) ((hcond7_0 ⟨n + 1, hn⟩).mp h))
          (fun h => h1 ((hcond7_1 ⟨n + 1, hn⟩).mp h)) (iblk7 V c 0 ⟨n + 1, hn⟩) (iblk7 V c 1 ⟨n + 1, hn⟩) (outsAt7 c n (Nat.lt_of_succ_lt hn)).2)

/-- `outsAt7` at the first point. -/
theorem outsAt7_A (c : Dev nD) (t : Fin cfg7.N) (h0 : t.val = 0) (h1 : ¬t.val = 24) :
    outsAt7 V c t.val t.isLt = (idle7_2,
      sout7_A_0 c (grid7.coords t) (ms7_0 t) (hs7_0 t) (ms7_1 t) (hs7_1 t) (ms7_2 t) (hs7_2 t) scM7_0 (Memref.isWhole_whole _) ((hcond7_0 t).mpr h0) (fun h => h1 ((hcond7_1 t).mp h)) (iblk7 V c 0 t) (iblk7 V c 1 t)) := by
  obtain ⟨n, hn⟩ := t
  cases n with
  | zero => exact rfl
  | succ n => exact absurd h0 (Nat.succ_ne_zero n)

/-- `outsAt7` at a middle point: case B over what the point before left. -/
theorem outsAt7_B (c : Dev nD) (t : Fin cfg7.N) (h0 : ¬t.val = 0) (h1 : ¬t.val = 24) :
    outsAt7 V c t.val t.isLt = (idle7_2,
      sout7_B_0 c (grid7.coords t) (ms7_0 t) (hs7_0 t) (ms7_1 t) (hs7_1 t) (ms7_2 t) (hs7_2 t) scM7_0 (Memref.isWhole_whole _) (fun h => h0 ((hcond7_0 t).mp h)) (fun h => h1 ((hcond7_1 t).mp h)) (iblk7 V c 0 t) (iblk7 V c 1 t)
        (outsAt7 V c (t.val - 1) (Nat.lt_of_le_of_lt (Nat.sub_le _ _) t.isLt)).2) := by
  obtain ⟨n, hn⟩ := t
  cases n with
  | zero => exact absurd rfl h0
  | succ n => exact (dif_neg h1).trans rfl

/-- `outsAt7` at the last point: case C over what the point before left. -/
theorem outsAt7_C (c : Dev nD) (t : Fin cfg7.N) (h0 : ¬t.val = 0) (h1 : t.val = 24) :
    outsAt7 V c t.val t.isLt =
      (out7_C_2 c (grid7.coords t) (ms7_0 t) (hs7_0 t) (ms7_1 t) (hs7_1 t) (ms7_2 t) (hs7_2 t) scM7_0 (Memref.isWhole_whole _) (fun h => h0 ((hcond7_0 t).mp h)) ((hcond7_1 t).mpr h1) (iblk7 V c 0 t) (iblk7 V c 1 t)
        (outsAt7 V c (t.val - 1) (Nat.lt_of_le_of_lt (Nat.sub_le _ _) t.isLt)).2,
       sout7_C_0 c (grid7.coords t) (ms7_0 t) (hs7_0 t) (ms7_1 t) (hs7_1 t) (ms7_2 t) (hs7_2 t) scM7_0 (Memref.isWhole_whole _) (fun h => h0 ((hcond7_0 t).mp h)) ((hcond7_1 t).mpr h1) (iblk7 V c 0 t) (iblk7 V c 1 t)
        (outsAt7 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over (every scoped buffer
    at anything); afterwards the accumulator at what the point before left in it, the other scoped buffers at anything,
    the generator register at some state. -/
noncomputable def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2)
      ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7_0 fullShare ((outsAt7 V c n hn).2)
      ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7_0 fullShare ((outsAt7 V c (n - 1) (by omega)).2)
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The proof data -/

/-- The proof data of this region on core `c`: the arrays as the region finds them (`V`); after the body each input's
    buffer at its block and the output's at `outsAt7`'s first component; the invariant `PhiS7`; nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation -/

/-- What the body is called with at point `t`, the windows one by one, -/
noncomputable def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
noncomputable def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point. The inputs' memrefs hold their blocks; the point's position says which case it is in; the
    invariant hands the body the accumulator (at anything at the first point, else at what the point before left) and
    takes it back at this point's contents; away from the last point the output's buffer goes back as it came. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 25 := lt_of_lt_of_eq t.isLt (show cfg7.N = 25 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  by_cases h0 : t.val = 0
  · have h1 : ¬t.val = 24 := by omega
    rw [Dat.leavesExact_idle (dat7 V c) 2 t (idleAt7_2 t (fun h => h1 ((hcond7_1 t).mp h))) (noFlush7_2 t (fun h => h1 ((hcond7_1 t).mp h)))]
    rw [outsAt7_A V c t h0 h1]
    unfold sout7_A_0; (try dsimp only)
    rw [PhiS7_castSucc V c t, PhiS7_zero V c _ _ h0, PhiA7_eq]
    iintro ⟨⟨⟨HS0, Hr⟩, Hg⟩, Ho, ⟨%d0, H0⟩, ⟨%d1, H1⟩, ⟨%d2, H2⟩⟩
    iapply ((kernelRun7_A c (grid7.coords t) _ _ _ _ _ _ _ _ ((hcond7_0 t).mpr h0) (fun h => h1 ((hcond7_1 t).mp h)) (iblk7 V c 0 t) (iblk7 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover7_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat7 V c).leavesExact 2 t = owns (c : Thread nD τ) (ms7_2 t) fullShare ((dat7 V c).after 2 t) from by
        unfold Dat.leavesExact; rw [liveAt7_2 t ((hcond7_1 t).mpr h1)], after7_2]
      rw [outsAt7_C V c t h0 h1]
      unfold out7_C_2 sout7_C_0; (try dsimp only)
      rw [PhiS7_castSucc V c t, PhiS7_pos V c _ _ h0]
      iintro ⟨⟨⟨HS0, Hr⟩, Hg⟩, Ho, ⟨%d0, H0⟩, ⟨%d1, H1⟩, ⟨%d2, H2⟩⟩
      iapply ((kernelRun7_C c (grid7.coords t) _ _ _ _ _ _ _ _ (fun h => h0 ((hcond7_0 t).mp h)) ((hcond7_1 t).mpr h1) (iblk7 V c 0 t) (iblk7 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover7_C_2 c _ _ _ _ _ _ _ _ _ _ _ _ _ _)
    · rw [Dat.leavesExact_idle (dat7 V c) 2 t (idleAt7_2 t (fun h => h1 ((hcond7_1 t).mp h))) (noFlush7_2 t (fun h => h1 ((hcond7_1 t).mp h)))]
      rw [outsAt7_B V c t h0 h1]
      unfold sout7_B_0; (try dsimp only)
      rw [PhiS7_castSucc V c t, PhiS7_pos V c _ _ h0]
      iintro ⟨⟨⟨HS0, Hr⟩, Hg⟩, Ho, ⟨%d0, H0⟩, ⟨%d1, H1⟩, ⟨%d2, H2⟩⟩
      iapply ((kernelRun7_B c (grid7.coords t) _ _ _ _ _ _ _ _ (fun h => h0 ((hcond7_0 t).mp h)) (fun h => h1 ((hcond7_1 t).mp h)) (iblk7 V c 0 t) (iblk7 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the launch's back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 25 := N_7; omega)

end Cert.Kernel.Hand

end
-- ==== Proof.KB.R8.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Ring
import Idealize.ShloMosaic.Lib.Tactic

/-!
# Region 8: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The activations' staging buffer holds the block of the current point at every point: the window is fetched at
    every point, is never cut and never idle, and the body leaves the block where it found it. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The mean row's staging buffer holds its (one) block at every point: it is fetched at the first point only, its
    block index never moves afterwards, and the body leaves it in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The same of the variance row. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The same of the scale row. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- The same of the shift row. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer is read, and the output written, whole -/

/-- The whole of a block of 2000 rows. -/
noncomputable abbrev r8_0 : Rect S2000x128 := Rect.unit (s := S2000x128) ![0, 0] S2000x128.size inb_S2000x128_S2000x128_0_0
/-- The whole of a single row. -/
noncomputable abbrev r8_1 : Rect S1x128 := Rect.unit (s := S1x128) ![0, 0] S1x128.size inb_S1x128_S1x128_0_0

/-! ## What the body leaves in the output buffer -/

/-- The output buffer after the body, from the five input blocks: its one store, whose payload is the skeleton's. -/
noncomputable def out8_5 (x0 : Vec F S2000x128 .f32) (x1 : Vec F S1x128 .f32) (x2 : Vec F S1x128 .f32) (x3 : Vec F S1x128 .f32) (x4 : Vec F S1x128 .f32) :
    Vec F S2000x128 .f32 :=
  View.canon [⟨r8_0, k8_pay1 (View.ld x0 r8_0) (View.ld x1 r8_1) (View.ld x2 r8_1) (View.ld x3 r8_1) (View.ld x4 r8_1)⟩]

/-- The one store covers the buffer. -/
theorem cover8_5 (p0 : Vec F S2000x128 .f32) (y : S2000x128.Idx) :
    ∃ pc ∈ ([⟨r8_0, p0⟩] : List (View.Piece (Elt F) S2000x128 .f32)), y ∈ pc.1.set :=
  View.cover_of_tiled [⟨r8_0, p0⟩] S2000x128.size (by rfl) y

/-! ## The body's triple -/

set_option maxHeartbeats 1000000 in
/-- The body on whole staging buffers, the five inputs' at read contents x0 … x4 and the output's at anything, runs
    to a state in which the inputs' are as they were and the output's holds out8_5 of them. (The body also loads the
    output buffer before it stores to it; the loaded value is not used.) -/
theorem sound_kernel8 (c : Dev nD) (E : Set ℕ) (i : grid8.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8__bn_softmax_kernel i arg1 harg1 arg2 harg2 arg3 harg3 arg4 harg4 arg5 harg5 arg6 harg6) K := by
  simp only [cc8__bn_softmax_kernel_eq_skeleton]; unfold cc8__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of the region's pipeline on core c: the arrays as the region finds them; after the body at point t
    each input's buffer at its block and the output's at out8_5 of the input blocks; the invariant that of a body which
    touches nothing but its windows; nothing owed; full shares. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point t, the windows one by one, -/
noncomputable def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
noncomputable def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Region8

end Cert.Kernel.Hand

end
-- ==== Proof.KB.R9.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.Regions
import Idealize.ShloMosaic.Lib.Tactic

/-! # Region 9: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The rows of X: the staging buffer the body is handed holds the block of the point, whether the
    point fetched it or not (an unfetched input has not moved its block index). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The matrix W: fetched at the first point only, and found in place at every later one. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

noncomputable abbrev r9_0 : Rect S2000x128 := Rect.unit (s := S2000x128) ![0, 0] S2000x128.size inb_S2000x128_S2000x128_0_0
noncomputable abbrev r9_1 : Rect S128x64 := Rect.unit (s := S128x64) ![0, 0] S128x64.size inb_S128x64_S128x64_0_0
noncomputable abbrev r9_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out9_2 (x0 : Vec F S2000x128 .f32) (x1 : Vec F S128x64 .f32) : Vec F S2000x64 .f32 :=
  View.canon [⟨r9_2, k9_pay1 (View.ld x0 r9_0) (View.ld x1 r9_1)⟩]

/-- The store's rectangle is the whole buffer, so it covers every index. -/
theorem cover9_2 (p0 : Vec F S2000x64 .f32) (y : S2000x64.Idx) :
    ∃ pc ∈ ([⟨r9_2, p0⟩] : List (View.Piece (Elt F) S2000x64 .f32)), y ∈ pc.1.set :=
  View.cover_of_tiled [⟨r9_2, p0⟩] S2000x64.size (by rfl) y

/-! ## The body's triple -/

set_option maxHeartbeats 1000000 in
/-- On whole staging memrefs, the inputs' holding x0 and x1 and the output's holding anything, the body
    runs to a state where the inputs' are unchanged and the output's holds out9_2 x0 x1. The body also reads
    the output buffer before storing into it; the value read is not used. -/
theorem sound_kernel9 (c : Dev nD) (E : Set ℕ) (i : grid9.Coords) (arg1 : Memref sig .tc .vmem S2000x128 .f32) (harg1 : arg1.IsWhole) (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__linear_kernel i arg1 harg1 arg2 harg2 arg3 harg3) K := by
  simp only [cc9__linear_kernel_eq_skeleton]; unfold cc9__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The arrays as the region finds them; after the body at point t the inputs' buffers at their blocks
    and the output's at the product block; the invariant is the scoped rest and the generator register,
    untouched; nothing owed; full shares. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point t, window by window, -/
noncomputable def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
noncomputable def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The inputs' memrefs hold their blocks, so the body's triple applies; the invariant and what the core
    owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation9 (c : Dev nD) : BodyObligation (dat9 (F := F) V c) (defs₀ (F := F)) Variants.none () Set.univ := fun t => by
  rw [bigSep_W9, bigSep_W9]
  exact sound_body9 V c t

end Region9

end Cert.Kernel.Hand

end
-- ==== Proof.KB.R10.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, for any proof data whose array is
    `V`'s and whose body leaves the block in place: the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1 likewise: fetched at the first point only, its block index never moves, so the buffer holds
    the block at every point. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's two conditions on the grid coordinate -/

/-- The first conditional's condition (the point is the grid's first), from the grid coordinate. -/
noncomputable abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val % 25 = 0 :=
  (by decide +kernel : ∀ t : Fin grid10.N, cond10_0 (grid10.coords t) ↔ t.val % 25 = 0)

/-- The second conditional's condition (the point is the grid's last). -/
noncomputable abbrev cond10_1 (i : grid10.Coords) : Prop := k10_cond2 i = 1#1
/-- It holds at the last point only. -/
theorem hcond10_1 : ∀ t : Fin cfg10.N, cond10_1 (grid10.coords t) ↔ t.val % 25 = 24 :=
  (by decide +kernel : ∀ t : Fin grid10.N, cond10_1 (grid10.coords t) ↔ t.val % 25 = 24)

/-! ## Where the windows are idle -/

theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem liveAt10_3 : ∀ t : Fin cfg10.N, cfg10.idle 3 (grid10.coords t) = false := by decide +kernel
/-- At the first point the body stores nothing into output 4: the window is idle there and not written back. -/
theorem idleAt10_4_A : ∀ t : Fin cfg10.N, cond10_0 (grid10.coords t) → ¬cond10_1 (grid10.coords t) → cfg10.idle 4 (grid10.coords t) = true := by decide +kernel
theorem noFlush10_4_A : ∀ t : Fin cfg10.N, cond10_0 (grid10.coords t) → ¬cond10_1 (grid10.coords t) → (cfg10.win 4).flush t = false := by decide +kernel
/-- Nor at the middle points. -/
theorem idleAt10_4_B : ∀ t : Fin cfg10.N, ¬cond10_0 (grid10.coords t) → ¬cond10_1 (grid10.coords t) → cfg10.idle 4 (grid10.coords t) = true := by decide +kernel
theorem noFlush10_4_B : ∀ t : Fin cfg10.N, ¬cond10_0 (grid10.coords t) → ¬cond10_1 (grid10.coords t) → (cfg10.win 4).flush t = false := by decide +kernel
/-- At the last point it stores the accumulated sums there: the window is live. -/
theorem liveAt10_4_C : ∀ t : Fin cfg10.N, ¬cond10_0 (grid10.coords t) → cond10_1 (grid10.coords t) → cfg10.idle 4 (grid10.coords t) = false := by decide +kernel

/-! ## The memrefs the body is called with -/

/-- One staging buffer of each output window, through which its contents are stated (the choice does not matter:
    a covering list of writes reads the same through any view). -/
noncomputable abbrev VO10_2 : View sig .tc .vmem S2000x64 .f32 := (Memref.whole cc10_stg2_0 : Memref sig .tc .vmem S2000x64 .f32).view
noncomputable abbrev VO10_3 : View sig .tc .vmem S2000x64 .f32 := (Memref.whole cc10_stg3_0 : Memref sig .tc .vmem S2000x64 .f32).view
noncomputable abbrev VO10_4 : View sig .tc .vmem S1x64 .f32 := (Memref.whole cc10_stg4_0 : Memref sig .tc .vmem S1x64 .f32).view
/-- Each window's current staging memref at point `t`, as the pipeline passes it, and its wholeness. -/
noncomputable abbrev ms10_0 (t : Fin cfg10.N) : Memref sig .tc .vmem S2000x64 .f32 := win10_0.stage (cfg10.slots t 0)
abbrev hs10_0 (t : Fin cfg10.N) : (ms10_0 t).IsWhole := hstage10_0 ((cfg10.slots t 0).cast nbuf10_0)
noncomputable abbrev ms10_1 (t : Fin cfg10.N) : Memref sig .tc .vmem S1x64 .f32 := win10_1.stage (cfg10.slots t 1)
abbrev hs10_1 (t : Fin cfg10.N) : (ms10_1 t).IsWhole := hstage10_1 ((cfg10.slots t 1).cast nbuf10_1)
noncomputable abbrev ms10_2 (t : Fin cfg10.N) : Memref sig .tc .vmem S2000x64 .f32 := win10_2.stage (cfg10.slots t 2)
abbrev hs10_2 (t : Fin cfg10.N) : (ms10_2 t).IsWhole := hstage10_2 ((cfg10.slots t 2).cast nbuf10_2)
noncomputable abbrev ms10_3 (t : Fin cfg10.N) : Memref sig .tc .vmem S2000x64 .f32 := win10_3.stage (cfg10.slots t 3)
abbrev hs10_3 (t : Fin cfg10.N) : (ms10_3 t).IsWhole := hstage10_3 ((cfg10.slots t 3).cast nbuf10_3)
noncomputable abbrev ms10_4 (t : Fin cfg10.N) : Memref sig .tc .vmem S1x64 .f32 := win10_4.stage (cfg10.slots t 4)
abbrev hs10_4 (t : Fin cfg10.N) : (ms10_4 t).IsWhole := hstage10_4 ((cfg10.slots t 4).cast nbuf10_4)
/-- The scratch operand: a whole scoped buffer of the kernel's own, in which the column sums accumulate. -/
noncomputable abbrev scM10_0 : Memref sig .tc .vmem S1x64 .f32 := Memref.whole cc10_scratch0
noncomputable abbrev VS10_0 : View sig .tc .vmem S1x64 .f32 := scM10_0.view

/-- The other scoped buffers (every other call's staging buffers and scratch), unopened. -/
noncomputable abbrev restBut10 (c : Dev nD) : sProp 𝕄 :=
  Pipeline.scopedRestBut (Ix := Unit) (Name := ℕ) (U := UR sig nD τ) (Lvl := ℕ) (Val := Elt F) spec10 c [cc10_scratch0]

/-- The region's invariant as the launch hands it over, with the scratch operand split out as a memref owned at
    some contents: what the body obligation hands the run and takes back. -/
theorem PhiA10_eq (c : Dev nD) :
    (Pipeline.ΦA spec10 c : sProp 𝕄)
      = iprop(iprop(iprop((∃ d, owns (c : Thread nD τ) scM10_0 fullShare d)) ∗ restBut10 (F := F) c) ∗ (∃ r, prngReg c r)) := by
  unfold Pipeline.ΦA; rw [scopedRest10_split]; simp only [scM10_0, owns_whole]; try rfl

-- (the run's proof term is large: the definition's epilogue walks it past the default budget)
set_option maxHeartbeats 1000000 in
/-- The body AT THE FIRST POINT (the first conditional taken, the second not): the scratch, at anything, is reset and then
    receives the block's column sums; outputs 2, 3 receive their blocks; output 4 is handed back untouched.
    What the stores leave in each buffer is given as pieces (last first), found by running the body: on whole
    memrefs, the inputs at their contents `x0`, `x1`, the body runs to the continuation holding the inputs as they
    were and each stored buffer with its pieces written. -/
noncomputable def kernelRun10_A (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) :
    Σ' (L2 : List (View.Piece (Elt F) S2000x64 .f32)) (L3 : List (View.Piece (Elt F) S2000x64 .f32)) (L4 : List (View.Piece (Elt F) S1x64 .f32)), { LS0 : List (View.Piece (Elt F) S1x64 .f32) //
      ∀ (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc10_kernel i arg1 harg1 arg2 harg2 arg3 harg3 arg4 harg4 arg5 harg5 arg6 harg6) K } := by
  refine ⟨?_, ?_, [], ?_, fun xi4 E K => ?run⟩
  case run =>
    simp only [cc10_kernel_eq_skeleton]; unfold cc10_kernel_skel
    unfold owns
    iintro ⟨⟨%f0, %hf0, H0⟩, ⟨%f1, %hf1, H1⟩, ⟨%d2, %f2, -, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    iexists _; iexact HS0

-- (the run's proof term is large: the definition's epilogue walks it past the default budget)
set_option maxHeartbeats 1000000 in
/-- The body AT A MIDDLE POINT (neither conditional taken): the scratch, at what the point before left (`xs0`), receives the
    block's column sums added to it; outputs 2, 3 receive their blocks; output 4 is handed back untouched.
    What the stores leave in each buffer is given as pieces (last first), found by running the body: on whole
    memrefs, the inputs at their contents `x0`, `x1`, the body runs to the continuation holding the inputs as they
    were and each stored buffer with its pieces written. -/
noncomputable def kernelRun10_B (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) :
    Σ' (L2 : List (View.Piece (Elt F) S2000x64 .f32)) (L3 : List (View.Piece (Elt F) S2000x64 .f32)) (L4 : List (View.Piece (Elt F) S1x64 .f32)), { LS0 : List (View.Piece (Elt F) S1x64 .f32) //
      ∀ (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ owns (c : Thread nD τ) arg6 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc10_kernel i arg1 harg1 arg2 harg2 arg3 harg3 arg4 harg4 arg5 harg5 arg6 harg6) K } := by
  refine ⟨?_, ?_, [], ?_, fun xi4 E K => ?run⟩
  case run =>
    simp only [cc10_kernel_eq_skeleton]; unfold cc10_kernel_skel
    unfold owns
    iintro ⟨⟨%f0, %hf0, H0⟩, ⟨%f1, %hf1, H1⟩, ⟨%d2, %f2, -, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    iexists _; iexact HS0

-- (the run's proof term is large: the definition's epilogue walks it past the default budget)
set_option maxHeartbeats 1000000 in
/-- The body AT THE LAST POINT (the second conditional taken, the first not): the scratch, at what the point before left
    (`xs0`), receives the block's column sums added to it and is then copied into output 4; outputs 2, 3 receive their blocks.
    What the stores leave in each buffer is given as pieces (last first), found by running the body: on whole
    memrefs, the inputs at their contents `x0`, `x1`, the body runs to the continuation holding the inputs as they
    were and each stored buffer with its pieces written. -/
noncomputable def kernelRun10_C (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) :
    Σ' (L2 : List (View.Piece (Elt F) S2000x64 .f32)) (L3 : List (View.Piece (Elt F) S2000x64 .f32)) (L4 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc10_kernel i arg1 harg1 arg2 harg2 arg3 harg3 arg4 harg4 arg5 harg5 arg6 harg6) K } := by
  refine ⟨?_, ?_, ?_, ?_, fun E K => ?run⟩
  case run =>
    simp only [cc10_kernel_eq_skeleton]; unfold cc10_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS0

/-- Case A: the one store into output 2 covers its block. -/
theorem cover10_A_2 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) (y : S2000x64.Idx) :
    ∃ pc ∈ (kernelRun10_A c i arg1 harg1 arg2 harg2 arg3 harg3 arg4 harg4 arg5 harg5 arg6 harg6 hc0 hc1 x0 x1).1, y ∈ pc.1.set :=
  View.cover_of_tiledL (kernelRun10_A c i arg1 harg1 arg2 harg2 arg3 harg3 arg4 harg4 arg5 harg5 arg6 harg6 hc0 hc1 x0 x1).1 S2000x64.size (by sl_kernel_rfl) y

/-- What case A leaves in output 2's staging buffer: its pieces read back. -/
noncomputable def out10_A_2 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) : Vec F S2000x64 .f32 :=
  VO10_2.read (Elt F) (VO10_2.writes (Elt F) VO10_2.junk (kernelRun10_A c i arg1 harg1 arg2 harg2 arg3 harg3 arg4 harg4 arg5 harg5 arg6 harg6 hc0 hc1 x0 x1).1)

/-- Case A: the one store into output 3 covers its block. -/
theorem cover10_A_3 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) (y : S2000x64.Idx) :
    ∃ pc ∈ (kernelRun10_A c i arg1 harg1 arg2 harg2 arg3 harg3 arg4 harg4 arg5 harg5 arg6 harg6 hc0 hc1 x0 x1).2.1, y ∈ pc.1.set :=
  View.cover_of_tiledL (kernelRun10_A c i arg1 harg1 arg2 harg2 arg3 harg3 arg4 harg4 arg5 harg5 arg6 harg6 hc0 hc1 x0 x1).2.1 S2000x64.size (by sl_kernel_rfl) y

/-- What case A leaves in output 3's staging buffer: its pieces read back. -/
noncomputable def out10_A_3 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) : Vec F S2000x64 .f32 :=
  VO10_3.read (Elt F) (VO10_3.writes (Elt F) VO10_3.junk (kernelRun10_A c i arg1 harg1 arg2 harg2 arg3 harg3 arg4 harg4 arg5 harg5 arg6 harg6 hc0 hc1 x0 x1).2.1)

/-- What case A leaves in output 4's staging buffer — nothing is stored: an arbitrary value that nothing consults
    (at these points the window is neither written back nor read at the next point). -/
noncomputable def out10_A_4 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) : Vec F S1x64 .f32 :=
  VO10_4.read (Elt F) (VO10_4.writes (Elt F) VO10_4.junk (kernelRun10_A c i arg1 harg1 arg2 harg2 arg3 harg3 arg4 harg4 arg5 harg5 arg6 harg6 hc0 hc1 x0 x1).2.2.1)

/-- Case A: the stores into the scratch cover it. -/
theorem scover10_A_0 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) (y : S1x64.Idx) :
    ∃ pc ∈ (kernelRun10_A c i arg1 harg1 arg2 harg2 arg3 harg3 arg4 harg4 arg5 harg5 arg6 harg6 hc0 hc1 x0 x1).2.2.2.1, y ∈ pc.1.set :=
  View.cover_of_tiledL (kernelRun10_A c i arg1 harg1 arg2 harg2 arg3 harg3 arg4 harg4 arg5 harg5 arg6 harg6 hc0 hc1 x0 x1).2.2.2.1 S1x64.size (by sl_kernel_rfl) y

/-- What case A leaves in the scratch: its pieces read back. -/
noncomputable def sout10_A_0 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) : Vec F S1x64 .f32 :=
  VS10_0.read (Elt F) (VS10_0.writes (Elt F) VS10_0.junk (kernelRun10_A c i arg1 harg1 arg2 harg2 arg3 harg3 arg4 harg4 arg5 harg5 arg6 harg6 hc0 hc1 x0 x1).2.2.2.1)

/-- Case B: the one store into output 2 covers its block. -/
theorem cover10_B_2 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) (y : S2000x64.Idx) :
    ∃ pc ∈ (kernelRun10_B c i arg1 harg1 arg2 harg2 arg3 harg3 arg4 harg4 arg5 harg5 arg6 harg6 hc0 hc1 x0 x1 xs0).1, y ∈ pc.1.set :=
  View.cover_of_tiledL (kernelRun10_B c i arg1 harg1 arg2 harg2 arg3 harg3 arg4 harg4 arg5 harg5 arg6 harg6 hc0 hc1 x0 x1 xs0).1 S2000x64.size (by sl_kernel_rfl) y

/-- What case B leaves in output 2's staging buffer: its pieces read back. -/
noncomputable def out10_B_2 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) : Vec F S2000x64 .f32 :=
  VO10_2.read (Elt F) (VO10_2.writes (Elt F) VO10_2.junk (kernelRun10_B c i arg1 harg1 arg2 harg2 arg3 harg3 arg4 harg4 arg5 harg5 arg6 harg6 hc0 hc1 x0 x1 xs0).1)

/-- Case B: the one store into output 3 covers its block. -/
theorem cover10_B_3 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) (y : S2000x64.Idx) :
    ∃ pc ∈ (kernelRun10_B c i arg1 harg1 arg2 harg2 arg3 harg3 arg4 harg4 arg5 harg5 arg6 harg6 hc0 hc1 x0 x1 xs0).2.1, y ∈ pc.1.set :=
  View.cover_of_tiledL (kernelRun10_B c i arg1 harg1 arg2 harg2 arg3 harg3 arg4 harg4 arg5 harg5 arg6 harg6 hc0 hc1 x0 x1 xs0).2.1 S2000x64.size (by sl_kernel_rfl) y

/-- What case B leaves in output 3's staging buffer: its pieces read back. -/
noncomputable def out10_B_3 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) : Vec F S2000x64 .f32 :=
  VO10_3.read (Elt F) (VO10_3.writes (Elt F) VO10_3.junk (kernelRun10_B c i arg1 harg1 arg2 harg2 arg3 harg3 arg4 harg4 arg5 harg5 arg6 harg6 hc0 hc1 x0 x1 xs0).2.1)

/-- What case B leaves in output 4's staging buffer — nothing is stored: an arbitrary value that nothing consults
    (at these points the window is neither written back nor read at the next point). -/
noncomputable def out10_B_4 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) : Vec F S1x64 .f32 :=
  VO10_4.read (Elt F) (VO10_4.writes (Elt F) VO10_4.junk (kernelRun10_B c i arg1 harg1 arg2 harg2 arg3 harg3 arg4 harg4 arg5 harg5 arg6 harg6 hc0 hc1 x0 x1 xs0).2.2.1)

/-- Case B: the stores into the scratch cover it. -/
theorem scover10_B_0 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) (y : S1x64.Idx) :
    ∃ pc ∈ (kernelRun10_B c i arg1 harg1 arg2 harg2 arg3 harg3 arg4 harg4 arg5 harg5 arg6 harg6 hc0 hc1 x0 x1 xs0).2.2.2.1, y ∈ pc.1.set :=
  View.cover_of_tiledL (kernelRun10_B c i arg1 harg1 arg2 harg2 arg3 harg3 arg4 harg4 arg5 harg5 arg6 harg6 hc0 hc1 x0 x1 xs0).2.2.2.1 S1x64.size (by sl_kernel_rfl) y

/-- What case B leaves in the scratch: its pieces read back. -/
noncomputable def sout10_B_0 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) : Vec F S1x64 .f32 :=
  VS10_0.read (Elt F) (VS10_0.writes (Elt F) VS10_0.junk (kernelRun10_B c i arg1 harg1 arg2 harg2 arg3 harg3 arg4 harg4 arg5 harg5 arg6 harg6 hc0 hc1 x0 x1 xs0).2.2.2.1)

/-- Case C: the one store into output 2 covers its block. -/
theorem cover10_C_2 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) (y : S2000x64.Idx) :
    ∃ pc ∈ (kernelRun10_C c i arg1 harg1 arg2 harg2 arg3 harg3 arg4 harg4 arg5 harg5 arg6 harg6 hc0 hc1 x0 x1 xs0).1, y ∈ pc.1.set :=
  View.cover_of_tiledL (kernelRun10_C c i arg1 harg1 arg2 harg2 arg3 harg3 arg4 harg4 arg5 harg5 arg6 harg6 hc0 hc1 x0 x1 xs0).1 S2000x64.size (by sl_kernel_rfl) y

/-- What case C leaves in output 2's staging buffer: its pieces read back. -/
noncomputable def out10_C_2 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) : Vec F S2000x64 .f32 :=
  VO10_2.read (Elt F) (VO10_2.writes (Elt F) VO10_2.junk (kernelRun10_C c i arg1 harg1 arg2 harg2 arg3 harg3 arg4 harg4 arg5 harg5 arg6 harg6 hc0 hc1 x0 x1 xs0).1)

/-- Case C: the one store into output 3 covers its block. -/
theorem cover10_C_3 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) (y : S2000x64.Idx) :
    ∃ pc ∈ (kernelRun10_C c i arg1 harg1 arg2 harg2 arg3 harg3 arg4 harg4 arg5 harg5 arg6 harg6 hc0 hc1 x0 x1 xs0).2.1, y ∈ pc.1.set :=
  View.cover_of_tiledL (kernelRun10_C c i arg1 harg1 arg2 harg2 arg3 harg3 arg4 harg4 arg5 harg5 arg6 harg6 hc0 hc1 x0 x1 xs0).2.1 S2000x64.size (by sl_kernel_rfl) y

/-- What case C leaves in output 3's staging buffer: its pieces read back. -/
noncomputable def out10_C_3 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) : Vec F S2000x64 .f32 :=
  VO10_3.read (Elt F) (VO10_3.writes (Elt F) VO10_3.junk (kernelRun10_C c i arg1 harg1 arg2 harg2 arg3 harg3 arg4 harg4 arg5 harg5 arg6 harg6 hc0 hc1 x0 x1 xs0).2.1)

/-- Case C: the one store into output 4 covers its block. -/
theorem cover10_C_4 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) (y : S1x64.Idx) :
    ∃ pc ∈ (kernelRun10_C c i arg1 harg1 arg2 harg2 arg3 harg3 arg4 harg4 arg5 harg5 arg6 harg6 hc0 hc1 x0 x1 xs0).2.2.1, y ∈ pc.1.set :=
  View.cover_of_tiledL (kernelRun10_C c i arg1 harg1 arg2 harg2 arg3 harg3 arg4 harg4 arg5 harg5 arg6 harg6 hc0 hc1 x0 x1 xs0).2.2.1 S1x64.size (by sl_kernel_rfl) y

/-- What case C leaves in output 4's staging buffer: its pieces read back. -/
noncomputable def out10_C_4 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) : Vec F S1x64 .f32 :=
  VO10_4.read (Elt F) (VO10_4.writes (Elt F) VO10_4.junk (kernelRun10_C c i arg1 harg1 arg2 harg2 arg3 harg3 arg4 harg4 arg5 harg5 arg6 harg6 hc0 hc1 x0 x1 xs0).2.2.1)

/-- Case C: the stores into the scratch cover it. -/
theorem scover10_C_0 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) (y : S1x64.Idx) :
    ∃ pc ∈ (kernelRun10_C c i arg1 harg1 arg2 harg2 arg3 harg3 arg4 harg4 arg5 harg5 arg6 harg6 hc0 hc1 x0 x1 xs0).2.2.2.1, y ∈ pc.1.set :=
  View.cover_of_tiledL (kernelRun10_C c i arg1 harg1 arg2 harg2 arg3 harg3 arg4 harg4 arg5 harg5 arg6 harg6 hc0 hc1 x0 x1 xs0).2.2.2.1 S1x64.size (by sl_kernel_rfl) y

/-- What case C leaves in the scratch: its pieces read back. -/
noncomputable def sout10_C_0 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) : Vec F S1x64 .f32 :=
  VS10_0.read (Elt F) (VS10_0.writes (Elt F) VS10_0.junk (kernelRun10_C c i arg1 harg1 arg2 harg2 arg3 harg3 arg4 harg4 arg5 harg5 arg6 harg6 hc0 hc1 x0 x1 xs0).2.2.2.1)

/-! ## What the outputs and the scratch hold after each point -/

/-- THE ACCUMULATION. What the three outputs' staging buffers and the scratch hold after the body at position `n`
    (output 2, output 3, output 4, the scratch): the case the closed forms select at `n`, run at the point's memrefs and input
    blocks, the scratch before it at what this leaves at `n - 1`. No point meets both conditions. -/
noncomputable def outsAt10 (c : Dev nD) : (n : ℕ) → n < cfg10.N → Vec F S2000x64 .f32 × Vec F S2000x64 .f32 × Vec F S1x64 .f32 × Vec F S1x64 .f32
  | 0, hn => (out10_A_2 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩), out10_A_3 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩), out10_A_4 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩), sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩))
  | n + 1, hn =>
    if h0 : (n + 1) % 25 = 0 then
      if h1 : (n + 1) % 25 = 24 then
        False.elim (by omega)
      else
        (out10_A_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩), out10_A_3 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩), out10_A_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩), sout10_A_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩))
    else
      if h1 : (n + 1) % 25 = 24 then
        (out10_C_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2.2.2, out10_C_3 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2.2.2, out10_C_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2.2.2, sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2.2.2)
      else
        (out10_B_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2.2.2, out10_B_3 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2.2.2, out10_B_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2.2.2, sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2.2.2)

/-- `outsAt10` at the first point: case A's contents. -/
theorem outsAt10_A (c : Dev nD) (t : Fin cfg10.N) (h0 : t.val % 25 = 0) (h1 : ¬t.val % 25 = 24) :
    outsAt10 V c t.val t.isLt = (out10_A_2 c (grid10.coords t) (ms10_0 t) (hs10_0 t) (ms10_1 t) (hs10_1 t) (ms10_2 t) (hs10_2 t) (ms10_3 t) (hs10_3 t) (ms10_4 t) (hs10_4 t) scM10_0 (Memref.isWhole_whole _) ((hcond10_0 t).mpr h0) (fun h => h1 ((hcond10_1 t).mp h)) (iblk10 V c 0 t) (iblk10 V c 1 t), out10_A_3 c (grid10.coords t) (ms10_0 t) (hs10_0 t) (ms10_1 t) (hs10_1 t) (ms10_2 t) (hs10_2 t) (ms10_3 t) (hs10_3 t) (ms10_4 t) (hs10_4 t) scM10_0 (Memref.isWhole_whole _) ((hcond10_0 t).mpr h0) (fun h => h1 ((hcond10_1 t).mp h)) (iblk10 V c 0 t) (iblk10 V c 1 t), out10_A_4 c (grid10.coords t) (ms10_0 t) (hs10_0 t) (ms10_1 t) (hs10_1 t) (ms10_2 t) (hs10_2 t) (ms10_3 t) (hs10_3 t) (ms10_4 t) (hs10_4 t) scM10_0 (Memref.isWhole_whole _) ((hcond10_0 t).mpr h0) (fun h => h1 ((hcond10_1 t).mp h)) (iblk10 V c 0 t) (iblk10 V c 1 t), sout10_A_0 c (grid10.coords t) (ms10_0 t) (hs10_0 t) (ms10_1 t) (hs10_1 t) (ms10_2 t) (hs10_2 t) (ms10_3 t) (hs10_3 t) (ms10_4 t) (hs10_4 t) scM10_0 (Memref.isWhole_whole _) ((hcond10_0 t).mpr h0) (fun h => h1 ((hcond10_1 t).mp h)) (iblk10 V c 0 t) (iblk10 V c 1 t)) := by
  obtain ⟨n, hn⟩ := t
  cases n with
  | zero => exact rfl
  | succ n => exact (dif_pos h0).trans ((dif_neg h1).trans rfl)

/-- `outsAt10` at a middle point: case B's contents, over what the point before left in the scratch. -/
theorem outsAt10_B (c : Dev nD) (t : Fin cfg10.N) (h0 : ¬t.val % 25 = 0) (h1 : ¬t.val % 25 = 24) :
    outsAt10 V c t.val t.isLt = (out10_B_2 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2.2.2, out10_B_3 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2.2.2, out10_B_4 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2.2.2, sout10_B_0 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt10` at the last point: case C's contents, over what the point before left in the scratch. -/
theorem outsAt10_C (c : Dev nD) (t : Fin cfg10.N) (h0 : ¬t.val % 25 = 0) (h1 : t.val % 25 = 24) :
    outsAt10 V c t.val t.isLt = (out10_C_2 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2.2.2, out10_C_3 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2.2.2, out10_C_4 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2.2.2, sout10_C_0 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt10`'s last component), the other
    scoped buffers unopened and the generator register at some state. -/
noncomputable def PhiS10 (c : Dev nD) : (n : ℕ) → n ≤ cfg10.N → sProp 𝕄
  | 0, _ => Pipeline.ΦA spec10 c
  | n + 1, hn => iprop(iprop(iprop(owns (c : Thread nD τ) scM10_0 fullShare ((outsAt10 V c n hn).2.2.2)) ∗ restBut10 (F := F) c) ∗ (∃ r, prngReg c r))

theorem PhiS10_zero (c : Dev nD) (n : ℕ) (h : n ≤ cfg10.N) (hz : n = 0) : PhiS10 V c n h = Pipeline.ΦA spec10 c := by
  subst hz; rfl

/-- After point `n` (before point `n + 1`): the scratch at that point's contents. -/
theorem PhiS10_succ (c : Dev nD) (n : ℕ) (hn : n < cfg10.N) :
    PhiS10 V c (n + 1) hn = iprop(iprop(iprop(owns (c : Thread nD τ) scM10_0 fullShare ((outsAt10 V c n hn).2.2.2)) ∗ restBut10 (F := F) c) ∗ (∃ r, prngReg c r)) := rfl

/-- Before a point that is not the first: the scratch at what the point before left. -/
theorem PhiS10_pos (c : Dev nD) (n : ℕ) (h : n ≤ cfg10.N) (hz : n ≠ 0) :
    PhiS10 V c n h = iprop(iprop(iprop(owns (c : Thread nD τ) scM10_0 fullShare ((outsAt10 V c (n - 1) (by omega)).2.2.2)) ∗ restBut10 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt10`; the invariant `PhiS10`; nothing owed;
    full shares. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
    | ⟨3, _⟩ => (outsAt10 V c t.val t.isLt).2.1
    | ⟨4, _⟩ => (outsAt10 V c t.val t.isLt).2.2.1
  Φ t := PhiS10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

/-- The invariant at a point's start, restated at `t.val`. -/
theorem PhiS10_castSucc (c : Dev nD) (t : Fin cfg10.N) :
    (dat10 V c).Φ t.castSucc = PhiS10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]
theorem after10_3 (c : Dev nD) (t : Fin cfg10.N) : (dat10 V c).after 3 t = (outsAt10 V c t.val t.isLt).2.1 := by dsimp only [dat10]
theorem after10_4 (c : Dev nD) (t : Fin cfg10.N) : (dat10 V c).after 4 t = (outsAt10 V c t.val t.isLt).2.2.1 := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t` (the windows one by one), -/
noncomputable def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d)))

/-- and what it returns. -/
noncomputable def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  have hN : t.val < 25 := lt_of_lt_of_eq t.isLt (show cfg10.N = 25 from N_10)
  by_cases h0 : t.val % 25 = 0
  · by_cases h1 : t.val % 25 = 24
    · exfalso; omega
    · rw [show (dat10 V c).leavesExact 0 t = owns (c : Thread nD τ) (ms10_0 t) fullShare ((dat10 V c).after 0 t) from by
        unfold Dat.leavesExact; rw [liveAt10_0 t], after10_0]
      rw [show (dat10 V c).leavesExact 1 t = owns (c : Thread nD τ) (ms10_1 t) fullShare ((dat10 V c).after 1 t) from by
        unfold Dat.leavesExact; rw [liveAt10_1 t], after10_1]
      rw [show (dat10 V c).leavesExact 2 t = owns (c : Thread nD τ) (ms10_2 t) fullShare ((dat10 V c).after 2 t) from by
        unfold Dat.leavesExact; rw [liveAt10_2 t], after10_2]
      rw [show (dat10 V c).leavesExact 3 t = owns (c : Thread nD τ) (ms10_3 t) fullShare ((dat10 V c).after 3 t) from by
        unfold Dat.leavesExact; rw [liveAt10_3 t], after10_3]
      rw [Dat.leavesExact_idle (dat10 V c) 4 t (idleAt10_4_A t ((hcond10_0 t).mpr h0) (fun h => h1 ((hcond10_1 t).mp h))) (noFlush10_4_A t ((hcond10_0 t).mpr h0) (fun h => h1 ((hcond10_1 t).mp h)))]
      rw [outsAt10_A V c t h0 h1]
      unfold out10_A_2 out10_A_3 sout10_A_0; (try dsimp only)
      by_cases hz : t.val = 0
      · rw [PhiS10_castSucc V c t, PhiS10_zero V c _ _ hz, PhiA10_eq]
        iintro ⟨⟨⟨HS0, HR⟩, Hg⟩, Ho, ⟨%d0, H0⟩, ⟨%d1, H1⟩, ⟨%d2, H2⟩, ⟨%d3, H3⟩, ⟨%d4, H4⟩⟩
        iapply ((kernelRun10_A c (grid10.coords t) _ _ _ _ _ _ _ _ _ _ _ _ ((hcond10_0 t).mpr h0) (fun h => h1 ((hcond10_1 t).mp h)) (iblk10 V c 0 t) (iblk10 V c 1 t)).2.2.2.2 _ Set.univ _)
        isplitl [H0]; · iexact H0
        isplitl [H1]; · iexact H1
        isplitl [H2]; · iexists _; iexact H2
        isplitl [H3]; · iexists _; iexact H3
        isplitl [H4]; · iexact H4
        isplitl [HS0]; · iexact HS0
        iintro ⟨H0, H1, ⟨%e2, H2⟩, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover10_A_0 c _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover10_A_2 c _ _ _ _ _ _ _ _ _ _ _ _ _ _ _ _ _)
        isplitl [H3]
        · unfold owns; iexists _; isplitr
          swap; · iexact H3
          ipureintro; exact View.read_writes_of_cover _ _ _ _ _ (cover10_A_3 c _ _ _ _ _ _ _ _ _ _ _ _ _ _ _ _ _)
        iexists _; iexact H4
      · exfalso; omega
  · by_cases h1 : t.val % 25 = 24
    · rw [show (dat10 V c).leavesExact 0 t = owns (c : Thread nD τ) (ms10_0 t) fullShare ((dat10 V c).after 0 t) from by
        unfold Dat.leavesExact; rw [liveAt10_0 t], after10_0]
      rw [show (dat10 V c).leavesExact 1 t = owns (c : Thread nD τ) (ms10_1 t) fullShare ((dat10 V c).after 1 t) from by
        unfold Dat.leavesExact; rw [liveAt10_1 t], after10_1]
      rw [show (dat10 V c).leavesExact 2 t = owns (c : Thread nD τ) (ms10_2 t) fullShare ((dat10 V c).after 2 t) from by
        unfold Dat.leavesExact; rw [liveAt10_2 t], after10_2]
      rw [show (dat10 V c).leavesExact 3 t = owns (c : Thread nD τ) (ms10_3 t) fullShare ((dat10 V c).after 3 t) from by
        unfold Dat.leavesExact; rw [liveAt10_3 t], after10_3]
      rw [show (dat10 V c).leavesExact 4 t = owns (c : Thread nD τ) (ms10_4 t) fullShare ((dat10 V c).after 4 t) from by
        unfold Dat.leavesExact; rw [liveAt10_4_C t (fun h => h0 ((hcond10_0 t).mp h)) ((hcond10_1 t).mpr h1)], after10_4]
      rw [outsAt10_C V c t h0 h1]
      unfold out10_C_2 out10_C_3 out10_C_4 sout10_C_0; (try dsimp only)
      by_cases hz : t.val = 0
      · exfalso; omega
      · rw [PhiS10_castSucc V c t, PhiS10_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun10_C c (grid10.coords t) _ _ _ _ _ _ _ _ _ _ _ _ (fun h => h0 ((hcond10_0 t).mp h)) ((hcond10_1 t).mpr h1) (iblk10 V c 0 t) (iblk10 V c 1 t) _).2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        iintro ⟨H0, H1, ⟨%e2, H2⟩, ⟨%e3, H3⟩, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover10_C_0 c _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover10_C_2 c _ _ _ _ _ _ _ _ _ _ _ _ _ _ _ _ _ _)
        isplitl [H3]
        · unfold owns; iexists _; isplitr
          swap; · iexact H3
          ipureintro; exact View.read_writes_of_cover _ _ _ _ _ (cover10_C_3 c _ _ _ _ _ _ _ _ _ _ _ _ _ _ _ _ _ _)
        unfold owns; iexists _; isplitr
        swap; · iexact H4
        ipureintro; exact View.read_writes_of_cover _ _ _ _ _ (cover10_C_4 c _ _ _ _ _ _ _ _ _ _ _ _ _ _ _ _ _ _)
    · rw [show (dat10 V c).leavesExact 0 t = owns (c : Thread nD τ) (ms10_0 t) fullShare ((dat10 V c).after 0 t) from by
        unfold Dat.leavesExact; rw [liveAt10_0 t], after10_0]
      rw [show (dat10 V c).leavesExact 1 t = owns (c : Thread nD τ) (ms10_1 t) fullShare ((dat10 V c).after 1 t) from by
        unfold Dat.leavesExact; rw [liveAt10_1 t], after10_1]
      rw [show (dat10 V c).leavesExact 2 t = owns (c : Thread nD τ) (ms10_2 t) fullShare ((dat10 V c).after 2 t) from by
        unfold Dat.leavesExact; rw [liveAt10_2 t], after10_2]
      rw [show (dat10 V c).leavesExact 3 t = owns (c : Thread nD τ) (ms10_3 t) fullShare ((dat10 V c).after 3 t) from by
        unfold Dat.leavesExact; rw [liveAt10_3 t], after10_3]
      rw [Dat.leavesExact_idle (dat10 V c) 4 t (idleAt10_4_B t (fun h => h0 ((hcond10_0 t).mp h)) (fun h => h1 ((hcond10_1 t).mp h))) (noFlush10_4_B t (fun h => h0 ((hcond10_0 t).mp h)) (fun h => h1 ((hcond10_1 t).mp h)))]
      rw [outsAt10_B V c t h0 h1]
      unfold out10_B_2 out10_B_3 sout10_B_0; (try dsimp only)
      by_cases hz : t.val = 0
      · exfalso; omega
      · rw [PhiS10_castSucc V c t, PhiS10_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun10_B c (grid10.coords t) _ _ _ _ _ _ _ _ _ _ _ _ (fun h => h0 ((hcond10_0 t).mp h)) (fun h => h1 ((hcond10_1 t).mp h)) (iblk10 V c 0 t) (iblk10 V c 1 t) _).2.2.2.2 _ Set.univ _)
        isplitl [H0]; · iexact H0
        isplitl [H1]; · iexact H1
        isplitl [H2]; · iexists _; iexact H2
        isplitl [H3]; · iexists _; iexact H3
        isplitl [H4]; · iexact H4
        isplitl [HS0]; · iexact HS0
        iintro ⟨H0, H1, ⟨%e2, H2⟩, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover10_B_0 c _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover10_B_2 c _ _ _ _ _ _ _ _ _ _ _ _ _ _ _ _ _ _)
        isplitl [H3]
        · unfold owns; iexists _; isplitr
          swap; · iexact H3
          ipureintro; exact View.read_writes_of_cover _ _ _ _ _ (cover10_B_3 c _ _ _ _ _ _ _ _ _ _ _ _ _ _ _ _ _ _)
        iexists _; iexact H4

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point but the first the invariant gives it back: the scratch's named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨HS0, HR⟩, Hg⟩
  isplitl [HS0 HR]
  · isplitl [HS0]
    · iexists _; iexact HS0
    iexact HR
  iexact Hg

/-- The same after the last point. -/
theorem hout10 (c : Dev nD) : (dat10 V c).Φ (Fin.last cfg10.N) ⊢ Pipeline.ΦA spec10 c :=
  Phi_out10 V c _ (by rw [Fin.val_last]; have : cfg10.N = 25 := N_10; omega)

end Cert.Kernel.Hand

end
-- ==== Proof.KB.R11.lean ====
import proofs.«408084_j48395691492010_3_alg».proof.Proof.KB.R3

/-! Region 11: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The row-tile window (window 0, fetched at every point) holds its block when the body runs. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- The mean window (window 1, one constant block fetched at the first point only) holds that block at every point. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## The branch conditions and the idle points, over this region's grid (the same grid) -/

/-- The reset's condition holds at the first point only, -/
theorem hcond11_0 : ∀ t : Fin cfg11.N, cond3_0 (grid11.coords t) ↔ t.val = 0 := hcond3_0
/-- the final store's at the last point only. -/
theorem hcond11_1 : ∀ t : Fin cfg11.N, cond3_1 (grid11.coords t) ↔ t.val = 24 := hcond3_1

theorem liveAt11_0 : ∀ t : Fin cfg11.N, cfg11.idle 0 (grid11.coords t) = false := fun _ => rfl
theorem liveAt11_1 : ∀ t : Fin cfg11.N, cfg11.idle 1 (grid11.coords t) = false := fun _ => rfl
/-- Away from the last point the result window is idle, -/
theorem idleAt11_2 : ∀ t : Fin cfg11.N, ¬cond3_1 (grid11.coords t) → cfg11.idle 2 (grid11.coords t) = true := idleAt3_2
/-- and live at it. -/
theorem liveAt11_2 : ∀ t : Fin cfg11.N, cond3_1 (grid11.coords t) → cfg11.idle 2 (grid11.coords t) = false := liveAt3_2
/-- Away from the last point its block is not written back (the schedule's closed form). -/
theorem noFlush11_2 (t : Fin cfg11.N) (h : ¬cond3_1 (grid11.coords t)) : (cfg11.win 2).flush t = false := by
  have hN : t.val < 25 := lt_of_lt_of_eq t.isLt (show cfg11.N = 25 from N_11)
  have h24 : ¬t.val = 24 := fun e => h ((hcond11_1 t).mpr e)
  cases hf : (cfg11.win 2).flush t with
  | false => rfl
  | true => exact absurd (by have := (flush11_2 t).mp hf; omega) h24

/-! ## The memrefs the body is called with -/

noncomputable abbrev ms11_0 (t : Fin cfg11.N) : Memref sig .tc .vmem S2000x64 .f32 := win11_0.stage (cfg11.slots t 0)
abbrev hs11_0 (t : Fin cfg11.N) : (ms11_0 t).IsWhole := hstage11_0 ((cfg11.slots t 0).cast nbuf11_0)
noncomputable abbrev ms11_1 (t : Fin cfg11.N) : Memref sig .tc .vmem S1x64 .f32 := win11_1.stage (cfg11.slots t 1)
abbrev hs11_1 (t : Fin cfg11.N) : (ms11_1 t).IsWhole := hstage11_1 ((cfg11.slots t 1).cast nbuf11_1)
noncomputable abbrev ms11_2 (t : Fin cfg11.N) : Memref sig .tc .vmem S1x64 .f32 := win11_2.stage (cfg11.slots t 2)
abbrev hs11_2 (t : Fin cfg11.N) : (ms11_2 t).IsWhole := hstage11_2 ((cfg11.slots t 2).cast nbuf11_2)
/-- The accumulator: this call's own scratch buffer, whole. -/
noncomputable abbrev scM11_0 : Memref sig .tc .vmem S1x64 .f32 := Memref.whole cc11_scratch0

/-- The body the pipeline calls at point `t` is region 3's printed kernel on this region's memrefs: the two printed
    functions are the same term. -/
theorem bodyAt11_eq (t : Fin cfg11.N) :
    (bodyAt11 t : Prog (TpuEff nD τ sig (Elt F) Λ₀ .tc) PUnit)
      = cc3__var_kernel (grid11.coords t) (ms11_0 t) (hs11_0 t) (ms11_1 t) (hs11_1 t) (ms11_2 t) (hs11_2 t) scM11_0 (Memref.isWhole_whole _) := rfl

/-- The region-entry invariant with the accumulator split out of the scoped rest, as a memref owned at some contents. -/
theorem PhiA11_eq (c : Dev nD) :
    (Pipeline.ΦA spec11 c : sProp 𝕄)
      = iprop(iprop(iprop(∃ d, owns (c : Thread nD τ) scM11_0 fullShare d)
          ∗ Pipeline.scopedRestBut (Ix := Unit) (Name := ℕ) (U := UR sig nD τ) (Lvl := ℕ) (Val := Elt F) spec11 c [cc11_scratch0]) ∗ (∃ r, prngReg c r)) := by
  unfold Pipeline.ΦA; rw [scopedRest11_split]; simp only [scM11_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt11 (c : Dev nD) : (n : ℕ) → n < cfg11.N → Vec F S1x64 .f32 × Vec F S1x64 .f32
  | 0, hn => (idle3_2,
      sout3_A_0 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) scM11_0 (Memref.isWhole_whole _) ((hcond11_0 ⟨0, hn⟩).mpr rfl)
        (fun h => (fun h' : (0 : ℕ) = 24 => by omega) ((hcond11_1 ⟨0, hn⟩).mp h)) (iblk11 V c 0 ⟨0, hn⟩) (iblk11 V c 1 ⟨0, hn⟩))
  | n + 1, hn =>
    if h1 : n + 1 = 24 then
      (out3_C_2 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) scM11_0 (Memref.isWhole_whole _) (fun h => (fun h' : n + 1 = 0 => by omega) ((hcond11_0 ⟨n + 1, hn⟩).mp h))
          ((hcond11_1 ⟨n + 1, hn⟩).mpr h1) (iblk11 V c 0 ⟨n + 1, hn⟩) (iblk11 V c 1 ⟨n + 1, hn⟩) (outsAt11 c n (Nat.lt_of_succ_lt hn)).2,
       sout3_C_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) scM11_0 (Memref.isWhole_whole _) (fun h => (fun h' : n + 1 = 0 => by omega) ((hcond11_0 ⟨n + 1, hn⟩).mp h))
          ((hcond11_1 ⟨n + 1, hn⟩).mpr h1) (iblk11 V c 0 ⟨n + 1, hn⟩) (iblk11 V c 1 ⟨n + 1, hn⟩) (outsAt11 c n (Nat.lt_of_succ_lt hn)).2)
    else
      (idle3_2,
       sout3_B_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) scM11_0 (Memref.isWhole_whole _) (fun h => (fun h' : n + 1 = 0 => by omega) ((hcond11_0 ⟨n + 1, hn⟩).mp h))
          (fun h => h1 ((hcond11_1 ⟨n + 1, hn⟩).mp h)) (iblk11 V c 0 ⟨n + 1, hn⟩) (iblk11 V c 1 ⟨n + 1, hn⟩) (outsAt11 c n (Nat.lt_of_succ_lt hn)).2)

theorem outsAt11_A (c : Dev nD) (t : Fin cfg11.N) (h0 : t.val = 0) (h1 : ¬t.val = 24) :
    outsAt11 V c t.val t.isLt = (idle3_2,
      sout3_A_0 c (grid11.coords t) (ms11_0 t) (hs11_0 t) (ms11_1 t) (hs11_1 t) (ms11_2 t) (hs11_2 t) scM11_0 (Memref.isWhole_whole _) ((hcond11_0 t).mpr h0) (fun h => h1 ((hcond11_1 t).mp h)) (iblk11 V c 0 t) (iblk11 V c 1 t)) := by
  obtain ⟨n, hn⟩ := t
  cases n with
  | zero => exact rfl
  | succ n => exact absurd h0 (Nat.succ_ne_zero n)

theorem outsAt11_B (c : Dev nD) (t : Fin cfg11.N) (h0 : ¬t.val = 0) (h1 : ¬t.val = 24) :
    outsAt11 V c t.val t.isLt = (idle3_2,
      sout3_B_0 c (grid11.coords t) (ms11_0 t) (hs11_0 t) (ms11_1 t) (hs11_1 t) (ms11_2 t) (hs11_2 t) scM11_0 (Memref.isWhole_whole _) (fun h => h0 ((hcond11_0 t).mp h)) (fun h => h1 ((hcond11_1 t).mp h)) (iblk11 V c 0 t) (iblk11 V c 1 t)
        (outsAt11 V c (t.val - 1) (Nat.lt_of_le_of_lt (Nat.sub_le _ _) t.isLt)).2) := by
  obtain ⟨n, hn⟩ := t
  cases n with
  | zero => exact absurd rfl h0
  | succ n => exact (dif_neg h1).trans rfl

theorem outsAt11_C (c : Dev nD) (t : Fin cfg11.N) (h0 : ¬t.val = 0) (h1 : t.val = 24) :
    outsAt11 V c t.val t.isLt =
      (out3_C_2 c (grid11.coords t) (ms11_0 t) (hs11_0 t) (ms11_1 t) (hs11_1 t) (ms11_2 t) (hs11_2 t) scM11_0 (Memref.isWhole_whole _) (fun h => h0 ((hcond11_0 t).mp h)) ((hcond11_1 t).mpr h1) (iblk11 V c 0 t) (iblk11 V c 1 t)
        (outsAt11 V c (t.val - 1) (Nat.lt_of_le_of_lt (Nat.sub_le _ _) t.isLt)).2,
       sout3_C_0 c (grid11.coords t) (ms11_0 t) (hs11_0 t) (ms11_1 t) (hs11_1 t) (ms11_2 t) (hs11_2 t) scM11_0 (Memref.isWhole_whole _) (fun h => h0 ((hcond11_0 t).mp h)) ((hcond11_1 t).mpr h1) (iblk11 V c 0 t) (iblk11 V c 1 t)
        (outsAt11 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS11 (c : Dev nD) : (n : ℕ) → n ≤ cfg11.N → sProp 𝕄
  | 0, _ => Pipeline.ΦA spec11 c
  | n + 1, hn => iprop(iprop(owns (c : Thread nD τ) scM11_0 fullShare ((outsAt11 V c n hn).2)
      ∗ Pipeline.scopedRestBut (Ix := Unit) (Name := ℕ) (U := UR sig nD τ) (Lvl := ℕ) (Val := Elt F) spec11 c [cc11_scratch0]) ∗ (∃ r, prngReg c r))

theorem PhiS11_zero (c : Dev nD) (n : ℕ) (h : n ≤ cfg11.N) (hz : n = 0) : PhiS11 V c n h = Pipeline.ΦA spec11 c := by
  subst hz; rfl

theorem PhiS11_succ (c : Dev nD) (n : ℕ) (hn : n < cfg11.N) :
    PhiS11 V c (n + 1) hn = iprop(iprop(owns (c : Thread nD τ) scM11_0 fullShare ((outsAt11 V c n hn).2)
      ∗ Pipeline.scopedRestBut (Ix := Unit) (Name := ℕ) (U := UR sig nD τ) (Lvl := ℕ) (Val := Elt F) spec11 c [cc11_scratch0]) ∗ (∃ r, prngReg c r)) := rfl

theorem PhiS11_pos (c : Dev nD) (n : ℕ) (h : n ≤ cfg11.N) (hz : n ≠ 0) :
    PhiS11 V c n h = iprop(iprop(owns (c : Thread nD τ) scM11_0 fullShare ((outsAt11 V c (n - 1) (by omega)).2)
      ∗ Pipeline.scopedRestBut (Ix := Unit) (Name := ℕ) (U := UR sig nD τ) (Lvl := ℕ) (Val := Elt F) spec11 c [cc11_scratch0]) ∗ (∃ r, prngReg c r)) := by
  cases n with
  | zero => exact absurd rfl hz
  | succ n => rfl

/-! ## The proof data -/

noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => (outsAt11 V c t.val t.isLt).1
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem PhiS11_castSucc (c : Dev nD) (t : Fin cfg11.N) :
    (dat11 V c).Φ t.castSucc = PhiS11 V c t.val (Nat.le_of_lt t.isLt) := by
  dsimp only [dat11]; simp only [Fin.coe_castSucc]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = (outsAt11 V c t.val t.isLt).1 := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-! ## The body obligation -/

noncomputable def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

noncomputable def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

set_option maxHeartbeats 4800000 in
/-- The body at any point, from region 3's triples on this region's memrefs. -/
theorem sound_body11 (c : Dev nD) (t : Fin cfg11.N) :
    bodyPre11 V c t ⊢ wp frame (wpE (defs₀ (F := F)) Variants.none c none) Set.univ (bodyAt11 t) (fun _ => bodyPost11 V c t) := by
  rw [bodyAt11_eq (F := F) t]
  unfold bodyPre11 bodyPost11
  simp only [before11_0, before11_1]
  rw [show (dat11 V c).owesAt () t.succ = (dat11 V c).owesAt () t.castSucc from rfl]
  rw [show (dat11 V c).Φ t.succ = PhiS11 V c (t.val + 1) t.isLt from rfl, PhiS11_succ]
  have hN : t.val < 25 := lt_of_lt_of_eq t.isLt (show cfg11.N = 25 from N_11)
  rw [show (dat11 V c).leavesExact 0 t = owns (c : Thread nD τ) (ms11_0 t) fullShare ((dat11 V c).after 0 t) from by
    unfold Dat.leavesExact; rw [liveAt11_0 t], after11_0]
  rw [show (dat11 V c).leavesExact 1 t = owns (c : Thread nD τ) (ms11_1 t) fullShare ((dat11 V c).after 1 t) from by
    unfold Dat.leavesExact; rw [liveAt11_1 t], after11_1]
  by_cases h0 : t.val = 0
  · have h1 : ¬t.val = 24 := by omega
    rw [Dat.leavesExact_idle (dat11 V c) 2 t (idleAt11_2 t (fun h => h1 ((hcond11_1 t).mp h))) (noFlush11_2 t (fun h => h1 ((hcond11_1 t).mp h)))]
    rw [outsAt11_A V c t h0 h1]
    unfold sout3_A_0; (try dsimp only)
    rw [PhiS11_castSucc V c t, PhiS11_zero V c _ _ h0, PhiA11_eq]
    iintro ⟨⟨⟨HS0, Hr⟩, Hg⟩, Ho, ⟨%d0, H0⟩, ⟨%d1, H1⟩, ⟨%d2, H2⟩⟩
    iapply ((kernelRun3_A c (grid11.coords t) _ _ _ _ _ _ _ _ ((hcond11_0 t).mpr h0) (fun h => h1 ((hcond11_1 t).mp h)) (iblk11 V c 0 t) (iblk11 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat11 V c).leavesExact 2 t = owns (c : Thread nD τ) (ms11_2 t) fullShare ((dat11 V c).after 2 t) from by
        unfold Dat.leavesExact; rw [liveAt11_2 t ((hcond11_1 t).mpr h1)], after11_2]
      rw [outsAt11_C V c t h0 h1]
      unfold out3_C_2 sout3_C_0; (try dsimp only)
      rw [PhiS11_castSucc V c t, PhiS11_pos V c _ _ h0]
      iintro ⟨⟨⟨HS0, Hr⟩, Hg⟩, Ho, ⟨%d0, H0⟩, ⟨%d1, H1⟩, ⟨%d2, H2⟩⟩
      iapply ((kernelRun3_C c (grid11.coords t) _ _ _ _ _ _ _ _ (fun h => h0 ((hcond11_0 t).mp h)) ((hcond11_1 t).mpr h1) (iblk11 V c 0 t) (iblk11 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat11 V c) 2 t (idleAt11_2 t (fun h => h1 ((hcond11_1 t).mp h))) (noFlush11_2 t (fun h => h1 ((hcond11_1 t).mp h)))]
      rw [outsAt11_B V c t h0 h1]
      unfold sout3_B_0; (try dsimp only)
      rw [PhiS11_castSucc V c t, PhiS11_pos V c _ _ h0]
      iintro ⟨⟨⟨HS0, Hr⟩, Hg⟩, Ho, ⟨%d0, H0⟩, ⟨%d1, H1⟩, ⟨%d2, H2⟩⟩
      iapply ((kernelRun3_B c (grid11.coords t) _ _ _ _ _ _ _ _ (fun h => h0 ((hcond11_0 t).mp h)) (fun h => h1 ((hcond11_1 t).mp h)) (iblk11 V c 0 t) (iblk11 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the launch hands the region is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After any point but the first the invariant gives the launch's back: the accumulator's named contents are forgotten. -/
theorem Phi_out11 (c : Dev nD) (t : Fin (cfg11.N + 1)) (ht : t.val ≠ 0) : (dat11 V c).Φ t ⊢ Pipeline.ΦA spec11 c := by
  rw [show (dat11 V c).Φ t = PhiS11 V c t.val (Nat.le_of_lt_succ t.isLt) from rfl, PhiS11_pos V c _ _ ht, PhiA11_eq]
  iintro ⟨⟨HS0, Hr⟩, Hg⟩
  isplitl [HS0 Hr]
  · isplitl [HS0]
    · iexists _; iexact HS0
    iexact Hr
  iexact Hg

/-- The same after the last point. -/
theorem hout11 (c : Dev nD) : (dat11 V c).Φ (Fin.last cfg11.N) ⊢ Pipeline.ΦA spec11 c :=
  Phi_out11 V c _ (by rw [Fin.val_last]; have : cfg11.N = 25 := N_11; omega)

end Cert.Kernel.Hand

end
-- ==== Proof.KB.R12.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Ring
import Idealize.ShloMosaic.Lib.Tactic

/-!
# Region 12: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region12
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The activations' staging buffer holds the block of the current point at every point: the window is fetched at
    every point, is never cut and never idle, and the body leaves the block where it found it. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- The mean row's staging buffer holds its (one) block at every point: it is fetched at the first point only, its
    block index never moves afterwards, and the body leaves it in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The same of the variance row. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- The same of the scale row. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- The same of the shift row. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each buffer is read, and the output written, whole -/

/-- The whole of a block of 2000 rows. -/
noncomputable abbrev r12_0 : Rect S2000x64 := Rect.unit (s := S2000x64) ![0, 0] S2000x64.size inb_S2000x64_S2000x64_0_0
/-- The whole of a single row. -/
noncomputable abbrev r12_1 : Rect S1x64 := Rect.unit (s := S1x64) ![0, 0] S1x64.size inb_S1x64_S1x64_0_0

/-! ## What the body leaves in the output buffer -/

/-- The output buffer after the body, from the five input blocks: its one store, whose payload is the skeleton's. -/
noncomputable def out12_5 (x0 : Vec F S2000x64 .f32) (x1 : Vec F S1x64 .f32) (x2 : Vec F S1x64 .f32) (x3 : Vec F S1x64 .f32) (x4 : Vec F S1x64 .f32) :
    Vec F S2000x64 .f32 :=
  View.canon [⟨r12_0, k12_pay1 (View.ld x0 r12_0) (View.ld x1 r12_1) (View.ld x2 r12_1) (View.ld x3 r12_1) (View.ld x4 r12_1)⟩]

/-- The one store covers the buffer. -/
theorem cover12_5 (p0 : Vec F S2000x64 .f32) (y : S2000x64.Idx) :
    ∃ pc ∈ ([⟨r12_0, p0⟩] : List (View.Piece (Elt F) S2000x64 .f32)), y ∈ pc.1.set :=
  View.cover_of_tiled [⟨r12_0, p0⟩] S2000x64.size (by rfl) y

/-! ## The body's triple -/

set_option maxHeartbeats 1000000 in
/-- The body on whole staging buffers, the five inputs' at read contents x0 … x4 and the output's at anything, runs
    to a state in which the inputs' are as they were and the output's holds out12_5 of them. (The body also loads the
    output buffer before it stores to it; the loaded value is not used.) -/
theorem sound_kernel12 (c : Dev nD) (E : Set ℕ) (i : grid12.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out12_5 x0 x1 x2 x3 x4)) -∗ K ⟨⟩))
      ⊢ wp frame (wpE (defs₀ (F := F)) Variants.none c none) E (cc12__bn_softmax_kernel i arg1 harg1 arg2 harg2 arg3 harg3 arg4 harg4 arg5 harg5 arg6 harg6) K := by
  simp only [cc12__bn_softmax_kernel_eq_skeleton]; unfold cc12__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover12_5 _)

/-! ## The pipeline's proof data -/

/-- The proof data of the region's pipeline on core c: the arrays as the region finds them; after the body at point t
    each input's buffer at its block and the output's at out12_5 of the input blocks; the invariant that of a body which
    touches nothing but its windows; nothing owed; full shares. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) :
    (dat12 V c).after 5 t = out12_5 (iblk12 V c 0 t) (iblk12 V c 1 t) (iblk12 V c 2 t) (iblk12 V c 3 t) (iblk12 V c 4 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation, at a generic point -/

/-- What the body is called with at point t, the windows one by one, -/
noncomputable def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it returns. -/
noncomputable def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' buffers hold their blocks, so the body's triple applies; the invariant and
    what the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ (grid12.coords t) _ _ _ _ _ _ _ _ _ _ _ _
    (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation12 (c : Dev nD) : BodyObligation (dat12 (F := F) V c) (defs₀ (F := F)) Variants.none () Set.univ := fun t => by
  rw [bigSep_W12, bigSep_W12]
  exact sound_body12 V c t

end Region12

end Cert.Kernel.Hand

end
-- ==== Proof.KB.R13.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.Regions
import Idealize.ShloMosaic.Lib.Tactic

/-! # Region 13: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region13
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The rows of X: the staging buffer the body is handed holds the block of the point, whether the
    point fetched it or not (an unfetched input has not moved its block index). -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The matrix W: fetched at the first point only, and found in place at every later one. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: each buffer whole -/

noncomputable abbrev r13_0 : Rect S2000x64 := Rect.unit (s := S2000x64) ![0, 0] S2000x64.size inb_S2000x64_S2000x64_0_0
noncomputable abbrev r13_1 : Rect S64x64 := Rect.unit (s := S64x64) ![0, 0] S64x64.size inb_S64x64_S64x64_0_0
noncomputable abbrev r13_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out13_2 (x0 : Vec F S2000x64 .f32) (x1 : Vec F S64x64 .f32) : Vec F S2000x64 .f32 :=
  View.canon [⟨r13_2, k13_pay1 (View.ld x0 r13_0) (View.ld x1 r13_1)⟩]

/-- The store's rectangle is the whole buffer, so it covers every index. -/
theorem cover13_2 (p0 : Vec F S2000x64 .f32) (y : S2000x64.Idx) :
    ∃ pc ∈ ([⟨r13_2, p0⟩] : List (View.Piece (Elt F) S2000x64 .f32)), y ∈ pc.1.set :=
  View.cover_of_tiled [⟨r13_2, p0⟩] S2000x64.size (by rfl) y

/-! ## The body's triple -/

set_option maxHeartbeats 1000000 in
/-- On whole staging memrefs, the inputs' holding x0 and x1 and the output's holding anything, the body
    runs to a state where the inputs' are unchanged and the output's holds out13_2 x0 x1. The body also reads
    the output buffer before storing into it; the value read is not used. -/
theorem sound_kernel13 (c : Dev nD) (E : Set ℕ) (i : grid13.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13_2 x0 x1)) -∗ K ⟨⟩))
      ⊢ wp frame (wpE (defs₀ (F := F)) Variants.none c none) E (cc13__linear_kernel i arg1 harg1 arg2 harg2 arg3 harg3) K := by
  simp only [cc13__linear_kernel_eq_skeleton]; unfold cc13__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-! ## The pipeline's proof data -/

/-- The arrays as the region finds them; after the body at point t the inputs' buffers at their blocks
    and the output's at the product block; the invariant is the scoped rest and the generator register,
    untouched; nothing owed; full shares. -/
noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-! ## The body obligation, at a generic point -/

/-- What the body is called with at point t, window by window, -/
noncomputable def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
noncomputable def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

/-- The inputs' memrefs hold their blocks, so the body's triple applies; the invariant and what the core
    owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ (grid13.coords t) _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation13 (c : Dev nD) : BodyObligation (dat13 (F := F) V c) (defs₀ (F := F)) Variants.none () Set.univ := fun t => by
  rw [bigSep_W13, bigSep_W13]
  exact sound_body13 V c t

end Region13

end Cert.Kernel.Hand

end
-- ==== Proof.KB.R14.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, for any proof data whose array is
    `V`'s and whose body leaves the block in place: the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1 likewise: fetched at the first point only, its block index never moves, so the buffer holds
    the block at every point. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2 likewise. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-! ## The body's two conditions on the grid coordinate -/

/-- The first conditional's condition (the point is the grid's first), from the grid coordinate. -/
noncomputable abbrev cond14_0 (i : grid14.Coords) : Prop := (Scalar.cmpi .ne (Scalar.extui (Scalar.cmpi .eq (BitVec.ofNat 32 (i 0).val) 0#32)) 0#32) = 1#1
/-- It holds at the first point only. -/
theorem hcond14_0 : ∀ t : Fin cfg14.N, cond14_0 (grid14.coords t) ↔ t.val % 25 = 0 :=
  (by decide +kernel : ∀ t : Fin grid14.N, cond14_0 (grid14.coords t) ↔ t.val % 25 = 0)

/-- The second conditional's condition (the point is the grid's last). -/
noncomputable abbrev cond14_1 (i : grid14.Coords) : Prop := k14_cond2 i = 1#1
/-- It holds at the last point only. -/
theorem hcond14_1 : ∀ t : Fin cfg14.N, cond14_1 (grid14.coords t) ↔ t.val % 25 = 24 :=
  (by decide +kernel : ∀ t : Fin grid14.N, cond14_1 (grid14.coords t) ↔ t.val % 25 = 24)

/-! ## Where the windows are idle -/

theorem liveAt14_0 : ∀ t : Fin cfg14.N, cfg14.idle 0 (grid14.coords t) = false := by decide +kernel
theorem liveAt14_1 : ∀ t : Fin cfg14.N, cfg14.idle 1 (grid14.coords t) = false := by decide +kernel
theorem liveAt14_2 : ∀ t : Fin cfg14.N, cfg14.idle 2 (grid14.coords t) = false := by decide +kernel
theorem liveAt14_3 : ∀ t : Fin cfg14.N, cfg14.idle 3 (grid14.coords t) = false := by decide +kernel
theorem liveAt14_4 : ∀ t : Fin cfg14.N, cfg14.idle 4 (grid14.coords t) = false := by decide +kernel
/-- At the first point the body stores nothing into output 5: the window is idle there and not written back. -/
theorem idleAt14_5_A : ∀ t : Fin cfg14.N, cond14_0 (grid14.coords t) → ¬cond14_1 (grid14.coords t) → cfg14.idle 5 (grid14.coords t) = true := by decide +kernel
theorem noFlush14_5_A : ∀ t : Fin cfg14.N, cond14_0 (grid14.coords t) → ¬cond14_1 (grid14.coords t) → (cfg14.win 5).flush t = false := by decide +kernel
/-- Nor at the middle points. -/
theorem idleAt14_5_B : ∀ t : Fin cfg14.N, ¬cond14_0 (grid14.coords t) → ¬cond14_1 (grid14.coords t) → cfg14.idle 5 (grid14.coords t) = true := by decide +kernel
theorem noFlush14_5_B : ∀ t : Fin cfg14.N, ¬cond14_0 (grid14.coords t) → ¬cond14_1 (grid14.coords t) → (cfg14.win 5).flush t = false := by decide +kernel
/-- At the last point it stores the accumulated sums there: the window is live. -/
theorem liveAt14_5_C : ∀ t : Fin cfg14.N, ¬cond14_0 (grid14.coords t) → cond14_1 (grid14.coords t) → cfg14.idle 5 (grid14.coords t) = false := by decide +kernel

/-! ## The memrefs the body is called with -/

/-- One staging buffer of each output window, through which its contents are stated (the choice does not matter:
    a covering list of writes reads the same through any view). -/
noncomputable abbrev VO14_3 : View sig .tc .vmem S2000x64 .f32 := (Memref.whole cc14_stg3_0 : Memref sig .tc .vmem S2000x64 .f32).view
noncomputable abbrev VO14_4 : View sig .tc .vmem S2000x64 .f32 := (Memref.whole cc14_stg4_0 : Memref sig .tc .vmem S2000x64 .f32).view
noncomputable abbrev VO14_5 : View sig .tc .vmem S1x64 .f32 := (Memref.whole cc14_stg5_0 : Memref sig .tc .vmem S1x64 .f32).view
/-- Each window's current staging memref at point `t`, as the pipeline passes it, and its wholeness. -/
noncomputable abbrev ms14_0 (t : Fin cfg14.N) : Memref sig .tc .vmem S2000x64 .f32 := win14_0.stage (cfg14.slots t 0)
abbrev hs14_0 (t : Fin cfg14.N) : (ms14_0 t).IsWhole := hstage14_0 ((cfg14.slots t 0).cast nbuf14_0)
noncomputable abbrev ms14_1 (t : Fin cfg14.N) : Memref sig .tc .vmem S1x64 .f32 := win14_1.stage (cfg14.slots t 1)
abbrev hs14_1 (t : Fin cfg14.N) : (ms14_1 t).IsWhole := hstage14_1 ((cfg14.slots t 1).cast nbuf14_1)
noncomputable abbrev ms14_2 (t : Fin cfg14.N) : Memref sig .tc .vmem S2000x64 .f32 := win14_2.stage (cfg14.slots t 2)
abbrev hs14_2 (t : Fin cfg14.N) : (ms14_2 t).IsWhole := hstage14_2 ((cfg14.slots t 2).cast nbuf14_2)
noncomputable abbrev ms14_3 (t : Fin cfg14.N) : Memref sig .tc .vmem S2000x64 .f32 := win14_3.stage (cfg14.slots t 3)
abbrev hs14_3 (t : Fin cfg14.N) : (ms14_3 t).IsWhole := hstage14_3 ((cfg14.slots t 3).cast nbuf14_3)
noncomputable abbrev ms14_4 (t : Fin cfg14.N) : Memref sig .tc .vmem S2000x64 .f32 := win14_4.stage (cfg14.slots t 4)
abbrev hs14_4 (t : Fin cfg14.N) : (ms14_4 t).IsWhole := hstage14_4 ((cfg14.slots t 4).cast nbuf14_4)
noncomputable abbrev ms14_5 (t : Fin cfg14.N) : Memref sig .tc .vmem S1x64 .f32 := win14_5.stage (cfg14.slots t 5)
abbrev hs14_5 (t : Fin cfg14.N) : (ms14_5 t).IsWhole := hstage14_5 ((cfg14.slots t 5).cast nbuf14_5)
/-- The scratch operand: a whole scoped buffer of the kernel's own, in which the column sums accumulate. -/
noncomputable abbrev scM14_0 : Memref sig .tc .vmem S1x64 .f32 := Memref.whole cc14_scratch0
noncomputable abbrev VS14_0 : View sig .tc .vmem S1x64 .f32 := scM14_0.view

/-- The other scoped buffers (every other call's staging buffers and scratch), unopened. -/
noncomputable abbrev restBut14 (c : Dev nD) : sProp 𝕄 :=
  Pipeline.scopedRestBut (Ix := Unit) (Name := ℕ) (U := UR sig nD τ) (Lvl := ℕ) (Val := Elt F) spec14 c [cc14_scratch0]

/-- The region's invariant as the launch hands it over, with the scratch operand split out as a memref owned at
    some contents: what the body obligation hands the run and takes back. -/
theorem PhiA14_eq (c : Dev nD) :
    (Pipeline.ΦA spec14 c : sProp 𝕄)
      = iprop(iprop(iprop((∃ d, owns (c : Thread nD τ) scM14_0 fullShare d)) ∗ restBut14 (F := F) c) ∗ (∃ r, prngReg c r)) := by
  unfold Pipeline.ΦA; rw [scopedRest14_split]; simp only [scM14_0, owns_whole]; try rfl

-- (the run's proof term is large: the definition's epilogue walks it past the default budget)
set_option maxHeartbeats 1000000 in
/-- The body AT THE FIRST POINT (the first conditional taken, the second not): the scratch, at anything, is reset and then
    receives the block's column sums; outputs 3, 4 receive their blocks; output 5 is handed back untouched.
    What the stores leave in each buffer is given as pieces (last first), found by running the body: on whole
    memrefs, the inputs at their contents `x0`, `x1`, `x2`, the body runs to the continuation holding the inputs as they
    were and each stored buffer with its pieces written. -/
noncomputable def kernelRun14_A (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) :
    Σ' (L3 : List (View.Piece (Elt F) S2000x64 .f32)) (L4 : List (View.Piece (Elt F) S2000x64 .f32)) (L5 : List (View.Piece (Elt F) S1x64 .f32)), { LS0 : List (View.Piece (Elt F) S1x64 .f32) //
      ∀ (xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc14_kernel i arg1 harg1 arg2 harg2 arg3 harg3 arg4 harg4 arg5 harg5 arg6 harg6 arg7 harg7) K } := by
  refine ⟨?_, ?_, [], ?_, fun xi5 E K => ?run⟩
  case run =>
    simp only [cc14_kernel_eq_skeleton]; unfold cc14_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]
    · iexists _; isplitr; · ipureintro; exact harg6.read_unread _
      iexact H5
    iexists _; iexact HS0

-- (the run's proof term is large: the definition's epilogue walks it past the default budget)
set_option maxHeartbeats 1000000 in
/-- The body AT A MIDDLE POINT (neither conditional taken): the scratch, at what the point before left (`xs0`), receives the
    block's column sums added to it; outputs 3, 4 receive their blocks; output 5 is handed back untouched.
    What the stores leave in each buffer is given as pieces (last first), found by running the body: on whole
    memrefs, the inputs at their contents `x0`, `x1`, `x2`, the body runs to the continuation holding the inputs as they
    were and each stored buffer with its pieces written. -/
noncomputable def kernelRun14_B (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) :
    Σ' (L3 : List (View.Piece (Elt F) S2000x64 .f32)) (L4 : List (View.Piece (Elt F) S2000x64 .f32)) (L5 : List (View.Piece (Elt F) S1x64 .f32)), { LS0 : List (View.Piece (Elt F) S1x64 .f32) //
      ∀ (xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc14_kernel i arg1 harg1 arg2 harg2 arg3 harg3 arg4 harg4 arg5 harg5 arg6 harg6 arg7 harg7) K } := by
  refine ⟨?_, ?_, [], ?_, fun xi5 E K => ?run⟩
  case run =>
    simp only [cc14_kernel_eq_skeleton]; unfold cc14_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]
    · iexists _; isplitr; · ipureintro; exact harg6.read_unread _
      iexact H5
    iexists _; iexact HS0

-- (the run's proof term is large: the definition's epilogue walks it past the default budget)
set_option maxHeartbeats 1000000 in
/-- The body AT THE LAST POINT (the second conditional taken, the first not): the scratch, at what the point before left
    (`xs0`), receives the block's column sums added to it and is then copied into output 5; outputs 3, 4 receive their blocks.
    What the stores leave in each buffer is given as pieces (last first), found by running the body: on whole
    memrefs, the inputs at their contents `x0`, `x1`, `x2`, the body runs to the continuation holding the inputs as they
    were and each stored buffer with its pieces written. -/
noncomputable def kernelRun14_C (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) :
    Σ' (L3 : List (View.Piece (Elt F) S2000x64 .f32)) (L4 : List (View.Piece (Elt F) S2000x64 .f32)) (L5 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc14_kernel i arg1 harg1 arg2 harg2 arg3 harg3 arg4 harg4 arg5 harg5 arg6 harg6 arg7 harg7) K } := by
  refine ⟨?_, ?_, ?_, ?_, fun E K => ?run⟩
  case run =>
    simp only [cc14_kernel_eq_skeleton]; unfold cc14_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact HS0

/-- Case A: the one store into output 3 covers its block. -/
theorem cover14_A_3 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) (y : S2000x64.Idx) :
    ∃ pc ∈ (kernelRun14_A c i arg1 harg1 arg2 harg2 arg3 harg3 arg4 harg4 arg5 harg5 arg6 harg6 arg7 harg7 hc0 hc1 x0 x1 x2).1, y ∈ pc.1.set :=
  View.cover_of_tiledL (kernelRun14_A c i arg1 harg1 arg2 harg2 arg3 harg3 arg4 harg4 arg5 harg5 arg6 harg6 arg7 harg7 hc0 hc1 x0 x1 x2).1 S2000x64.size (by sl_kernel_rfl) y

/-- What case A leaves in output 3's staging buffer: its pieces read back. -/
noncomputable def out14_A_3 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) : Vec F S2000x64 .f32 :=
  VO14_3.read (Elt F) (VO14_3.writes (Elt F) VO14_3.junk (kernelRun14_A c i arg1 harg1 arg2 harg2 arg3 harg3 arg4 harg4 arg5 harg5 arg6 harg6 arg7 harg7 hc0 hc1 x0 x1 x2).1)

/-- Case A: the one store into output 4 covers its block. -/
theorem cover14_A_4 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) (y : S2000x64.Idx) :
    ∃ pc ∈ (kernelRun14_A c i arg1 harg1 arg2 harg2 arg3 harg3 arg4 harg4 arg5 harg5 arg6 harg6 arg7 harg7 hc0 hc1 x0 x1 x2).2.1, y ∈ pc.1.set :=
  View.cover_of_tiledL (kernelRun14_A c i arg1 harg1 arg2 harg2 arg3 harg3 arg4 harg4 arg5 harg5 arg6 harg6 arg7 harg7 hc0 hc1 x0 x1 x2).2.1 S2000x64.size (by sl_kernel_rfl) y

/-- What case A leaves in output 4's staging buffer: its pieces read back. -/
noncomputable def out14_A_4 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) : Vec F S2000x64 .f32 :=
  VO14_4.read (Elt F) (VO14_4.writes (Elt F) VO14_4.junk (kernelRun14_A c i arg1 harg1 arg2 harg2 arg3 harg3 arg4 harg4 arg5 harg5 arg6 harg6 arg7 harg7 hc0 hc1 x0 x1 x2).2.1)

/-- What case A leaves in output 5's staging buffer — nothing is stored: an arbitrary value that nothing consults
    (at these points the window is neither written back nor read at the next point). -/
noncomputable def out14_A_5 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) : Vec F S1x64 .f32 :=
  VO14_5.read (Elt F) (VO14_5.writes (Elt F) VO14_5.junk (kernelRun14_A c i arg1 harg1 arg2 harg2 arg3 harg3 arg4 harg4 arg5 harg5 arg6 harg6 arg7 harg7 hc0 hc1 x0 x1 x2).2.2.1)

/-- Case A: the stores into the scratch cover it. -/
theorem scover14_A_0 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) (y : S1x64.Idx) :
    ∃ pc ∈ (kernelRun14_A c i arg1 harg1 arg2 harg2 arg3 harg3 arg4 harg4 arg5 harg5 arg6 harg6 arg7 harg7 hc0 hc1 x0 x1 x2).2.2.2.1, y ∈ pc.1.set :=
  View.cover_of_tiledL (kernelRun14_A c i arg1 harg1 arg2 harg2 arg3 harg3 arg4 harg4 arg5 harg5 arg6 harg6 arg7 harg7 hc0 hc1 x0 x1 x2).2.2.2.1 S1x64.size (by sl_kernel_rfl) y

/-- What case A leaves in the scratch: its pieces read back. -/
noncomputable def sout14_A_0 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) : Vec F S1x64 .f32 :=
  VS14_0.read (Elt F) (VS14_0.writes (Elt F) VS14_0.junk (kernelRun14_A c i arg1 harg1 arg2 harg2 arg3 harg3 arg4 harg4 arg5 harg5 arg6 harg6 arg7 harg7 hc0 hc1 x0 x1 x2).2.2.2.1)

/-- Case B: the one store into output 3 covers its block. -/
theorem cover14_B_3 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) (y : S2000x64.Idx) :
    ∃ pc ∈ (kernelRun14_B c i arg1 harg1 arg2 harg2 arg3 harg3 arg4 harg4 arg5 harg5 arg6 harg6 arg7 harg7 hc0 hc1 x0 x1 x2 xs0).1, y ∈ pc.1.set :=
  View.cover_of_tiledL (kernelRun14_B c i arg1 harg1 arg2 harg2 arg3 harg3 arg4 harg4 arg5 harg5 arg6 harg6 arg7 harg7 hc0 hc1 x0 x1 x2 xs0).1 S2000x64.size (by sl_kernel_rfl) y

/-- What case B leaves in output 3's staging buffer: its pieces read back. -/
noncomputable def out14_B_3 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) : Vec F S2000x64 .f32 :=
  VO14_3.read (Elt F) (VO14_3.writes (Elt F) VO14_3.junk (kernelRun14_B c i arg1 harg1 arg2 harg2 arg3 harg3 arg4 harg4 arg5 harg5 arg6 harg6 arg7 harg7 hc0 hc1 x0 x1 x2 xs0).1)

/-- Case B: the one store into output 4 covers its block. -/
theorem cover14_B_4 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) (y : S2000x64.Idx) :
    ∃ pc ∈ (kernelRun14_B c i arg1 harg1 arg2 harg2 arg3 harg3 arg4 harg4 arg5 harg5 arg6 harg6 arg7 harg7 hc0 hc1 x0 x1 x2 xs0).2.1, y ∈ pc.1.set :=
  View.cover_of_tiledL (kernelRun14_B c i arg1 harg1 arg2 harg2 arg3 harg3 arg4 harg4 arg5 harg5 arg6 harg6 arg7 harg7 hc0 hc1 x0 x1 x2 xs0).2.1 S2000x64.size (by sl_kernel_rfl) y

/-- What case B leaves in output 4's staging buffer: its pieces read back. -/
noncomputable def out14_B_4 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) : Vec F S2000x64 .f32 :=
  VO14_4.read (Elt F) (VO14_4.writes (Elt F) VO14_4.junk (kernelRun14_B c i arg1 harg1 arg2 harg2 arg3 harg3 arg4 harg4 arg5 harg5 arg6 harg6 arg7 harg7 hc0 hc1 x0 x1 x2 xs0).2.1)

/-- What case B leaves in output 5's staging buffer — nothing is stored: an arbitrary value that nothing consults
    (at these points the window is neither written back nor read at the next point). -/
noncomputable def out14_B_5 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) : Vec F S1x64 .f32 :=
  VO14_5.read (Elt F) (VO14_5.writes (Elt F) VO14_5.junk (kernelRun14_B c i arg1 harg1 arg2 harg2 arg3 harg3 arg4 harg4 arg5 harg5 arg6 harg6 arg7 harg7 hc0 hc1 x0 x1 x2 xs0).2.2.1)

/-- Case B: the stores into the scratch cover it. -/
theorem scover14_B_0 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) (y : S1x64.Idx) :
    ∃ pc ∈ (kernelRun14_B c i arg1 harg1 arg2 harg2 arg3 harg3 arg4 harg4 arg5 harg5 arg6 harg6 arg7 harg7 hc0 hc1 x0 x1 x2 xs0).2.2.2.1, y ∈ pc.1.set :=
  View.cover_of_tiledL (kernelRun14_B c i arg1 harg1 arg2 harg2 arg3 harg3 arg4 harg4 arg5 harg5 arg6 harg6 arg7 harg7 hc0 hc1 x0 x1 x2 xs0).2.2.2.1 S1x64.size (by sl_kernel_rfl) y

/-- What case B leaves in the scratch: its pieces read back. -/
noncomputable def sout14_B_0 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) : Vec F S1x64 .f32 :=
  VS14_0.read (Elt F) (VS14_0.writes (Elt F) VS14_0.junk (kernelRun14_B c i arg1 harg1 arg2 harg2 arg3 harg3 arg4 harg4 arg5 harg5 arg6 harg6 arg7 harg7 hc0 hc1 x0 x1 x2 xs0).2.2.2.1)

/-- Case C: the one store into output 3 covers its block. -/
theorem cover14_C_3 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) (y : S2000x64.Idx) :
    ∃ pc ∈ (kernelRun14_C c i arg1 harg1 arg2 harg2 arg3 harg3 arg4 harg4 arg5 harg5 arg6 harg6 arg7 harg7 hc0 hc1 x0 x1 x2 xs0).1, y ∈ pc.1.set :=
  View.cover_of_tiledL (kernelRun14_C c i arg1 harg1 arg2 harg2 arg3 harg3 arg4 harg4 arg5 harg5 arg6 harg6 arg7 harg7 hc0 hc1 x0 x1 x2 xs0).1 S2000x64.size (by sl_kernel_rfl) y

/-- What case C leaves in output 3's staging buffer: its pieces read back. -/
noncomputable def out14_C_3 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) : Vec F S2000x64 .f32 :=
  VO14_3.read (Elt F) (VO14_3.writes (Elt F) VO14_3.junk (kernelRun14_C c i arg1 harg1 arg2 harg2 arg3 harg3 arg4 harg4 arg5 harg5 arg6 harg6 arg7 harg7 hc0 hc1 x0 x1 x2 xs0).1)

/-- Case C: the one store into output 4 covers its block. -/
theorem cover14_C_4 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) (y : S2000x64.Idx) :
    ∃ pc ∈ (kernelRun14_C c i arg1 harg1 arg2 harg2 arg3 harg3 arg4 harg4 arg5 harg5 arg6 harg6 arg7 harg7 hc0 hc1 x0 x1 x2 xs0).2.1, y ∈ pc.1.set :=
  View.cover_of_tiledL (kernelRun14_C c i arg1 harg1 arg2 harg2 arg3 harg3 arg4 harg4 arg5 harg5 arg6 harg6 arg7 harg7 hc0 hc1 x0 x1 x2 xs0).2.1 S2000x64.size (by sl_kernel_rfl) y

/-- What case C leaves in output 4's staging buffer: its pieces read back. -/
noncomputable def out14_C_4 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) : Vec F S2000x64 .f32 :=
  VO14_4.read (Elt F) (VO14_4.writes (Elt F) VO14_4.junk (kernelRun14_C c i arg1 harg1 arg2 harg2 arg3 harg3 arg4 harg4 arg5 harg5 arg6 harg6 arg7 harg7 hc0 hc1 x0 x1 x2 xs0).2.1)

/-- Case C: the one store into output 5 covers its block. -/
theorem cover14_C_5 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) (y : S1x64.Idx) :
    ∃ pc ∈ (kernelRun14_C c i arg1 harg1 arg2 harg2 arg3 harg3 arg4 harg4 arg5 harg5 arg6 harg6 arg7 harg7 hc0 hc1 x0 x1 x2 xs0).2.2.1, y ∈ pc.1.set :=
  View.cover_of_tiledL (kernelRun14_C c i arg1 harg1 arg2 harg2 arg3 harg3 arg4 harg4 arg5 harg5 arg6 harg6 arg7 harg7 hc0 hc1 x0 x1 x2 xs0).2.2.1 S1x64.size (by sl_kernel_rfl) y

/-- What case C leaves in output 5's staging buffer: its pieces read back. -/
noncomputable def out14_C_5 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) : Vec F S1x64 .f32 :=
  VO14_5.read (Elt F) (VO14_5.writes (Elt F) VO14_5.junk (kernelRun14_C c i arg1 harg1 arg2 harg2 arg3 harg3 arg4 harg4 arg5 harg5 arg6 harg6 arg7 harg7 hc0 hc1 x0 x1 x2 xs0).2.2.1)

/-- Case C: the stores into the scratch cover it. -/
theorem scover14_C_0 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) (y : S1x64.Idx) :
    ∃ pc ∈ (kernelRun14_C c i arg1 harg1 arg2 harg2 arg3 harg3 arg4 harg4 arg5 harg5 arg6 harg6 arg7 harg7 hc0 hc1 x0 x1 x2 xs0).2.2.2.1, y ∈ pc.1.set :=
  View.cover_of_tiledL (kernelRun14_C c i arg1 harg1 arg2 harg2 arg3 harg3 arg4 harg4 arg5 harg5 arg6 harg6 arg7 harg7 hc0 hc1 x0 x1 x2 xs0).2.2.2.1 S1x64.size (by sl_kernel_rfl) y

/-- What case C leaves in the scratch: its pieces read back. -/
noncomputable def sout14_C_0 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) : Vec F S1x64 .f32 :=
  VS14_0.read (Elt F) (VS14_0.writes (Elt F) VS14_0.junk (kernelRun14_C c i arg1 harg1 arg2 harg2 arg3 harg3 arg4 harg4 arg5 harg5 arg6 harg6 arg7 harg7 hc0 hc1 x0 x1 x2 xs0).2.2.2.1)

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt14 (c : Dev nD) : (n : ℕ) → n < cfg14.N → Vec F S2000x64 .f32 × Vec F S2000x64 .f32 × Vec F S1x64 .f32 × Vec F S1x64 .f32
  | 0, hn => (out14_A_3 c (grid14.coords ⟨0, hn⟩) (ms14_0 ⟨0, hn⟩) (hs14_0 ⟨0, hn⟩) (ms14_1 ⟨0, hn⟩) (hs14_1 ⟨0, hn⟩) (ms14_2 ⟨0, hn⟩) (hs14_2 ⟨0, hn⟩) (ms14_3 ⟨0, hn⟩) (hs14_3 ⟨0, hn⟩) (ms14_4 ⟨0, hn⟩) (hs14_4 ⟨0, hn⟩) (ms14_5 ⟨0, hn⟩) (hs14_5 ⟨0, hn⟩) scM14_0 (Memref.isWhole_whole _) ((hcond14_0 ⟨0, hn⟩).mpr (Nat.zero_mod _)) (fun h => (fun h => by (try dsimp only at h); omega) ((hcond14_1 ⟨0, hn⟩).mp h)) (iblk14 V c 0 ⟨0, hn⟩) (iblk14 V c 1 ⟨0, hn⟩) (iblk14 V c 2 ⟨0, hn⟩), out14_A_4 c (grid14.coords ⟨0, hn⟩) (ms14_0 ⟨0, hn⟩) (hs14_0 ⟨0, hn⟩) (ms14_1 ⟨0, hn⟩) (hs14_1 ⟨0, hn⟩) (ms14_2 ⟨0, hn⟩) (hs14_2 ⟨0, hn⟩) (ms14_3 ⟨0, hn⟩) (hs14_3 ⟨0, hn⟩) (ms14_4 ⟨0, hn⟩) (hs14_4 ⟨0, hn⟩) (ms14_5 ⟨0, hn⟩) (hs14_5 ⟨0, hn⟩) scM14_0 (Memref.isWhole_whole _) ((hcond14_0 ⟨0, hn⟩).mpr (Nat.zero_mod _)) (fun h => (fun h => by (try dsimp only at h); omega) ((hcond14_1 ⟨0, hn⟩).mp h)) (iblk14 V c 0 ⟨0, hn⟩) (iblk14 V c 1 ⟨0, hn⟩) (iblk14 V c 2 ⟨0, hn⟩), out14_A_5 c (grid14.coords ⟨0, hn⟩) (ms14_0 ⟨0, hn⟩) (hs14_0 ⟨0, hn⟩) (ms14_1 ⟨0, hn⟩) (hs14_1 ⟨0, hn⟩) (ms14_2 ⟨0, hn⟩) (hs14_2 ⟨0, hn⟩) (ms14_3 ⟨0, hn⟩) (hs14_3 ⟨0, hn⟩) (ms14_4 ⟨0, hn⟩) (hs14_4 ⟨0, hn⟩) (ms14_5 ⟨0, hn⟩) (hs14_5 ⟨0, hn⟩) scM14_0 (Memref.isWhole_whole _) ((hcond14_0 ⟨0, hn⟩).mpr (Nat.zero_mod _)) (fun h => (fun h => by (try dsimp only at h); omega) ((hcond14_1 ⟨0, hn⟩).mp h)) (iblk14 V c 0 ⟨0, hn⟩) (iblk14 V c 1 ⟨0, hn⟩) (iblk14 V c 2 ⟨0, hn⟩), sout14_A_0 c (grid14.coords ⟨0, hn⟩) (ms14_0 ⟨0, hn⟩) (hs14_0 ⟨0, hn⟩) (ms14_1 ⟨0, hn⟩) (hs14_1 ⟨0, hn⟩) (ms14_2 ⟨0, hn⟩) (hs14_2 ⟨0, hn⟩) (ms14_3 ⟨0, hn⟩) (hs14_3 ⟨0, hn⟩) (ms14_4 ⟨0, hn⟩) (hs14_4 ⟨0, hn⟩) (ms14_5 ⟨0, hn⟩) (hs14_5 ⟨0, hn⟩) scM14_0 (Memref.isWhole_whole _) ((hcond14_0 ⟨0, hn⟩).mpr (Nat.zero_mod _)) (fun h => (fun h => by (try dsimp only at h); omega) ((hcond14_1 ⟨0, hn⟩).mp h)) (iblk14 V c 0 ⟨0, hn⟩) (iblk14 V c 1 ⟨0, hn⟩) (iblk14 V c 2 ⟨0, hn⟩))
  | n + 1, hn =>
    if h0 : (n + 1) % 25 = 0 then
      if h1 : (n + 1) % 25 = 24 then
        False.elim (by omega)
      else
        (out14_A_3 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) ((hcond14_0 ⟨n + 1, hn⟩).mpr h0) (fun h => h1 ((hcond14_1 ⟨n + 1, hn⟩).mp h)) (iblk14 V c 0 ⟨n + 1, hn⟩) (iblk14 V c 1 ⟨n + 1, hn⟩) (iblk14 V c 2 ⟨n + 1, hn⟩), out14_A_4 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) ((hcond14_0 ⟨n + 1, hn⟩).mpr h0) (fun h => h1 ((hcond14_1 ⟨n + 1, hn⟩).mp h)) (iblk14 V c 0 ⟨n + 1, hn⟩) (iblk14 V c 1 ⟨n + 1, hn⟩) (iblk14 V c 2 ⟨n + 1, hn⟩), out14_A_5 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) ((hcond14_0 ⟨n + 1, hn⟩).mpr h0) (fun h => h1 ((hcond14_1 ⟨n + 1, hn⟩).mp h)) (iblk14 V c 0 ⟨n + 1, hn⟩) (iblk14 V c 1 ⟨n + 1, hn⟩) (iblk14 V c 2 ⟨n + 1, hn⟩), sout14_A_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) ((hcond14_0 ⟨n + 1, hn⟩).mpr h0) (fun h => h1 ((hcond14_1 ⟨n + 1, hn⟩).mp h)) (iblk14 V c 0 ⟨n + 1, hn⟩) (iblk14 V c 1 ⟨n + 1, hn⟩) (iblk14 V c 2 ⟨n + 1, hn⟩))
    else
      if h1 : (n + 1) % 25 = 24 then
        (out14_C_3 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (iblk14 V c 2 ⟨n + 1, hn⟩) (outsAt14 c n (Nat.lt_of_succ_lt hn)).2.2.2, out14_C_4 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (iblk14 V c 2 ⟨n + 1, hn⟩) (outsAt14 c n (Nat.lt_of_succ_lt hn)).2.2.2, out14_C_5 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (iblk14 V c 2 ⟨n + 1, hn⟩) (outsAt14 c n (Nat.lt_of_succ_lt hn)).2.2.2, sout14_C_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (iblk14 V c 2 ⟨n + 1, hn⟩) (outsAt14 c n (Nat.lt_of_succ_lt hn)).2.2.2)
      else
        (out14_B_3 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) (fun h => h1 ((hcond14_1 ⟨n + 1, hn⟩).mp h)) (iblk14 V c 0 ⟨n + 1, hn⟩) (iblk14 V c 1 ⟨n + 1, hn⟩) (iblk14 V c 2 ⟨n + 1, hn⟩) (outsAt14 c n (Nat.lt_of_succ_lt hn)).2.2.2, out14_B_4 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) (fun h => h1 ((hcond14_1 ⟨n + 1, hn⟩).mp h)) (iblk14 V c 0 ⟨n + 1, hn⟩) (iblk14 V c 1 ⟨n + 1, hn⟩) (iblk14 V c 2 ⟨n + 1, hn⟩) (outsAt14 c n (Nat.lt_of_succ_lt hn)).2.2.2, out14_B_5 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) (fun h => h1 ((hcond14_1 ⟨n + 1, hn⟩).mp h)) (iblk14 V c 0 ⟨n + 1, hn⟩) (iblk14 V c 1 ⟨n + 1, hn⟩) (iblk14 V c 2 ⟨n + 1, hn⟩) (outsAt14 c n (Nat.lt_of_succ_lt hn)).2.2.2, sout14_B_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) (fun h => h1 ((hcond14_1 ⟨n + 1, hn⟩).mp h)) (iblk14 V c 0 ⟨n + 1, hn⟩) (iblk14 V c 1 ⟨n + 1, hn⟩) (iblk14 V c 2 ⟨n + 1, hn⟩) (outsAt14 c n (Nat.lt_of_succ_lt hn)).2.2.2)

/-- `outsAt14` at the first point: case A's contents. -/
theorem outsAt14_A (c : Dev nD) (t : Fin cfg14.N) (h0 : t.val % 25 = 0) (h1 : ¬t.val % 25 = 24) :
    outsAt14 V c t.val t.isLt = (out14_A_3 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) ((hcond14_0 t).mpr h0) (fun h => h1 ((hcond14_1 t).mp h)) (iblk14 V c 0 t) (iblk14 V c 1 t) (iblk14 V c 2 t), out14_A_4 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) ((hcond14_0 t).mpr h0) (fun h => h1 ((hcond14_1 t).mp h)) (iblk14 V c 0 t) (iblk14 V c 1 t) (iblk14 V c 2 t), out14_A_5 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) ((hcond14_0 t).mpr h0) (fun h => h1 ((hcond14_1 t).mp h)) (iblk14 V c 0 t) (iblk14 V c 1 t) (iblk14 V c 2 t), sout14_A_0 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) ((hcond14_0 t).mpr h0) (fun h => h1 ((hcond14_1 t).mp h)) (iblk14 V c 0 t) (iblk14 V c 1 t) (iblk14 V c 2 t)) := by
  obtain ⟨n, hn⟩ := t
  cases n with
  | zero => exact rfl
  | succ n => exact (dif_pos h0).trans ((dif_neg h1).trans rfl)

/-- `outsAt14` at a middle point: case B's contents, over what the point before left in the scratch. -/
theorem outsAt14_B (c : Dev nD) (t : Fin cfg14.N) (h0 : ¬t.val % 25 = 0) (h1 : ¬t.val % 25 = 24) :
    outsAt14 V c t.val t.isLt = (out14_B_3 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) (fun h => h1 ((hcond14_1 t).mp h)) (iblk14 V c 0 t) (iblk14 V c 1 t) (iblk14 V c 2 t) (outsAt14 V c (t.val - 1) (Nat.lt_of_le_of_lt (Nat.sub_le _ _) t.isLt)).2.2.2, out14_B_4 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) (fun h => h1 ((hcond14_1 t).mp h)) (iblk14 V c 0 t) (iblk14 V c 1 t) (iblk14 V c 2 t) (outsAt14 V c (t.val - 1) (Nat.lt_of_le_of_lt (Nat.sub_le _ _) t.isLt)).2.2.2, out14_B_5 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) (fun h => h1 ((hcond14_1 t).mp h)) (iblk14 V c 0 t) (iblk14 V c 1 t) (iblk14 V c 2 t) (outsAt14 V c (t.val - 1) (Nat.lt_of_le_of_lt (Nat.sub_le _ _) t.isLt)).2.2.2, sout14_B_0 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) (fun h => h1 ((hcond14_1 t).mp h)) (iblk14 V c 0 t) (iblk14 V c 1 t) (iblk14 V c 2 t) (outsAt14 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt14` at the last point: case C's contents, over what the point before left in the scratch. -/
theorem outsAt14_C (c : Dev nD) (t : Fin cfg14.N) (h0 : ¬t.val % 25 = 0) (h1 : t.val % 25 = 24) :
    outsAt14 V c t.val t.isLt = (out14_C_3 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) ((hcond14_1 t).mpr h1) (iblk14 V c 0 t) (iblk14 V c 1 t) (iblk14 V c 2 t) (outsAt14 V c (t.val - 1) (Nat.lt_of_le_of_lt (Nat.sub_le _ _) t.isLt)).2.2.2, out14_C_4 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) ((hcond14_1 t).mpr h1) (iblk14 V c 0 t) (iblk14 V c 1 t) (iblk14 V c 2 t) (outsAt14 V c (t.val - 1) (Nat.lt_of_le_of_lt (Nat.sub_le _ _) t.isLt)).2.2.2, out14_C_5 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) ((hcond14_1 t).mpr h1) (iblk14 V c 0 t) (iblk14 V c 1 t) (iblk14 V c 2 t) (outsAt14 V c (t.val - 1) (Nat.lt_of_le_of_lt (Nat.sub_le _ _) t.isLt)).2.2.2, sout14_C_0 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) ((hcond14_1 t).mpr h1) (iblk14 V c 0 t) (iblk14 V c 1 t) (iblk14 V c 2 t) (outsAt14 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt14`'s last component), the other
    scoped buffers unopened and the generator register at some state. -/
noncomputable def PhiS14 (c : Dev nD) : (n : ℕ) → n ≤ cfg14.N → sProp 𝕄
  | 0, _ => Pipeline.ΦA spec14 c
  | n + 1, hn => iprop(iprop(iprop(owns (c : Thread nD τ) scM14_0 fullShare ((outsAt14 V c n hn).2.2.2)) ∗ restBut14 (F := F) c) ∗ (∃ r, prngReg c r))

theorem PhiS14_zero (c : Dev nD) (n : ℕ) (h : n ≤ cfg14.N) (hz : n = 0) : PhiS14 V c n h = Pipeline.ΦA spec14 c := by
  subst hz; rfl

/-- After point `n` (before point `n + 1`): the scratch at that point's contents. -/
theorem PhiS14_succ (c : Dev nD) (n : ℕ) (hn : n < cfg14.N) :
    PhiS14 V c (n + 1) hn = iprop(iprop(iprop(owns (c : Thread nD τ) scM14_0 fullShare ((outsAt14 V c n hn).2.2.2)) ∗ restBut14 (F := F) c) ∗ (∃ r, prngReg c r)) := rfl

/-- Before a point that is not the first: the scratch at what the point before left. -/
theorem PhiS14_pos (c : Dev nD) (n : ℕ) (h : n ≤ cfg14.N) (hz : n ≠ 0) :
    PhiS14 V c n h = iprop(iprop(iprop(owns (c : Thread nD τ) scM14_0 fullShare ((outsAt14 V c (n - 1) (by omega)).2.2.2)) ∗ restBut14 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt14`; the invariant `PhiS14`; nothing owed;
    full shares. -/
noncomputable def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => (outsAt14 V c t.val t.isLt).1
    | ⟨4, _⟩ => (outsAt14 V c t.val t.isLt).2.1
    | ⟨5, _⟩ => (outsAt14 V c t.val t.isLt).2.2.1
  Φ t := PhiS14 V c t.val (Nat.le_of_lt_succ t.isLt)
  q _ := fullShare
  owed _ := 0

/-- The proof data's arrays are the region-entry contents. -/
theorem A_eq14 (c : Dev nD) (w : Fin cfg14.W) : (dat14 V c).A w = V c (Pipeline.arrRef spec14 w) := by
  dsimp only [dat14]

/-- The invariant at a point's start, restated at `t.val`. -/
theorem PhiS14_castSucc (c : Dev nD) (t : Fin cfg14.N) :
    (dat14 V c).Φ t.castSucc = PhiS14 V c t.val (Nat.le_of_lt t.isLt) := by
  dsimp only [dat14]; simp only [Fin.coe_castSucc]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = (outsAt14 V c t.val t.isLt).1 := by dsimp only [dat14]
theorem after14_4 (c : Dev nD) (t : Fin cfg14.N) : (dat14 V c).after 4 t = (outsAt14 V c t.val t.isLt).2.1 := by dsimp only [dat14]
theorem after14_5 (c : Dev nD) (t : Fin cfg14.N) : (dat14 V c).after 5 t = (outsAt14 V c t.val t.isLt).2.2.1 := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body obligation, at a generic point -/

/-- What the body is called with at point `t` (the windows one by one), -/
noncomputable def bodyPre14 (c : Dev nD) (t : Fin cfg14.N) : sProp 𝕄 :=
  iprop((dat14 V c).Φ t.castSucc ∗ (dat14 V c).owesAt () t.castSucc
    ∗ (∃ d, owns (c : Thread nD τ) (ms14_0 t) fullShare ((dat14 V c).before 0 t d))
    ∗ (∃ d, owns (c : Thread nD τ) (ms14_1 t) fullShare ((dat14 V c).before 1 t d))
    ∗ (∃ d, owns (c : Thread nD τ) (ms14_2 t) fullShare ((dat14 V c).before 2 t d))
    ∗ (∃ d, owns (c : Thread nD τ) (ms14_3 t) fullShare ((dat14 V c).before 3 t d))
    ∗ (∃ d, owns (c : Thread nD τ) (ms14_4 t) fullShare ((dat14 V c).before 4 t d))
    ∗ (∃ d, owns (c : Thread nD τ) (ms14_5 t) fullShare ((dat14 V c).before 5 t d)))

/-- and what it returns. -/
noncomputable def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t
    ∗ (dat14 V c).leavesExact 3 t
    ∗ (dat14 V c).leavesExact 4 t
    ∗ (dat14 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).owesAt () t.succ = (dat14 V c).owesAt () t.castSucc from rfl]
  rw [show (dat14 V c).Φ t.succ = PhiS14 V c (t.val + 1) t.isLt from rfl, PhiS14_succ]
  have hN : t.val < 25 := lt_of_lt_of_eq t.isLt (show cfg14.N = 25 from N_14)
  by_cases h0 : t.val % 25 = 0
  · by_cases h1 : t.val % 25 = 24
    · exfalso; omega
    · rw [show (dat14 V c).leavesExact 0 t = owns (c : Thread nD τ) (ms14_0 t) fullShare ((dat14 V c).after 0 t) from by
        unfold Dat.leavesExact; rw [liveAt14_0 t], after14_0]
      rw [show (dat14 V c).leavesExact 1 t = owns (c : Thread nD τ) (ms14_1 t) fullShare ((dat14 V c).after 1 t) from by
        unfold Dat.leavesExact; rw [liveAt14_1 t], after14_1]
      rw [show (dat14 V c).leavesExact 2 t = owns (c : Thread nD τ) (ms14_2 t) fullShare ((dat14 V c).after 2 t) from by
        unfold Dat.leavesExact; rw [liveAt14_2 t], after14_2]
      rw [show (dat14 V c).leavesExact 3 t = owns (c : Thread nD τ) (ms14_3 t) fullShare ((dat14 V c).after 3 t) from by
        unfold Dat.leavesExact; rw [liveAt14_3 t], after14_3]
      rw [show (dat14 V c).leavesExact 4 t = owns (c : Thread nD τ) (ms14_4 t) fullShare ((dat14 V c).after 4 t) from by
        unfold Dat.leavesExact; rw [liveAt14_4 t], after14_4]
      rw [Dat.leavesExact_idle (dat14 V c) 5 t (idleAt14_5_A t ((hcond14_0 t).mpr h0) (fun h => h1 ((hcond14_1 t).mp h))) (noFlush14_5_A t ((hcond14_0 t).mpr h0) (fun h => h1 ((hcond14_1 t).mp h)))]
      rw [outsAt14_A V c t h0 h1]
      unfold out14_A_3 out14_A_4 sout14_A_0; (try dsimp only)
      by_cases hz : t.val = 0
      · rw [PhiS14_castSucc V c t, PhiS14_zero V c _ _ hz, PhiA14_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid14.coords t) _ _ _ _ _ _ _ _ _ _ _ _ _ _ ((hcond14_0 t).mpr h0) (fun h => h1 ((hcond14_1 t).mp h)) (iblk14 V c 0 t) (iblk14 V c 1 t) (iblk14 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat14 V c).leavesExact 0 t = owns (c : Thread nD τ) (ms14_0 t) fullShare ((dat14 V c).after 0 t) from by
        unfold Dat.leavesExact; rw [liveAt14_0 t], after14_0]
      rw [show (dat14 V c).leavesExact 1 t = owns (c : Thread nD τ) (ms14_1 t) fullShare ((dat14 V c).after 1 t) from by
        unfold Dat.leavesExact; rw [liveAt14_1 t], after14_1]
      rw [show (dat14 V c).leavesExact 2 t = owns (c : Thread nD τ) (ms14_2 t) fullShare ((dat14 V c).after 2 t) from by
        unfold Dat.leavesExact; rw [liveAt14_2 t], after14_2]
      rw [show (dat14 V c).leavesExact 3 t = owns (c : Thread nD τ) (ms14_3 t) fullShare ((dat14 V c).after 3 t) from by
        unfold Dat.leavesExact; rw [liveAt14_3 t], after14_3]
      rw [show (dat14 V c).leavesExact 4 t = owns (c : Thread nD τ) (ms14_4 t) fullShare ((dat14 V c).after 4 t) from by
        unfold Dat.leavesExact; rw [liveAt14_4 t], after14_4]
      rw [show (dat14 V c).leavesExact 5 t = owns (c : Thread nD τ) (ms14_5 t) fullShare ((dat14 V c).after 5 t) from by
        unfold Dat.leavesExact; rw [liveAt14_5_C t (fun h => h0 ((hcond14_0 t).mp h)) ((hcond14_1 t).mpr h1)], after14_5]
      rw [outsAt14_C V c t h0 h1]
      unfold out14_C_3 out14_C_4 out14_C_5 sout14_C_0; (try dsimp only)
      by_cases hz : t.val = 0
      · exfalso; omega
      · rw [PhiS14_castSucc V c t, PhiS14_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid14.coords t) _ _ _ _ _ _ _ _ _ _ _ _ _ _ (fun h => h0 ((hcond14_0 t).mp h)) ((hcond14_1 t).mpr h1) (iblk14 V c 0 t) (iblk14 V c 1 t) (iblk14 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat14 V c).leavesExact 0 t = owns (c : Thread nD τ) (ms14_0 t) fullShare ((dat14 V c).after 0 t) from by
        unfold Dat.leavesExact; rw [liveAt14_0 t], after14_0]
      rw [show (dat14 V c).leavesExact 1 t = owns (c : Thread nD τ) (ms14_1 t) fullShare ((dat14 V c).after 1 t) from by
        unfold Dat.leavesExact; rw [liveAt14_1 t], after14_1]
      rw [show (dat14 V c).leavesExact 2 t = owns (c : Thread nD τ) (ms14_2 t) fullShare ((dat14 V c).after 2 t) from by
        unfold Dat.leavesExact; rw [liveAt14_2 t], after14_2]
      rw [show (dat14 V c).leavesExact 3 t = owns (c : Thread nD τ) (ms14_3 t) fullShare ((dat14 V c).after 3 t) from by
        unfold Dat.leavesExact; rw [liveAt14_3 t], after14_3]
      rw [show (dat14 V c).leavesExact 4 t = owns (c : Thread nD τ) (ms14_4 t) fullShare ((dat14 V c).after 4 t) from by
        unfold Dat.leavesExact; rw [liveAt14_4 t], after14_4]
      rw [Dat.leavesExact_idle (dat14 V c) 5 t (idleAt14_5_B t (fun h => h0 ((hcond14_0 t).mp h)) (fun h => h1 ((hcond14_1 t).mp h))) (noFlush14_5_B t (fun h => h0 ((hcond14_0 t).mp h)) (fun h => h1 ((hcond14_1 t).mp h)))]
      rw [outsAt14_B V c t h0 h1]
      unfold out14_B_3 out14_B_4 sout14_B_0; (try dsimp only)
      by_cases hz : t.val = 0
      · exfalso; omega
      · rw [PhiS14_castSucc V c t, PhiS14_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid14.coords t) _ _ _ _ _ _ _ _ _ _ _ _ _ _ (fun h => h0 ((hcond14_0 t).mp h)) (fun h => h1 ((hcond14_1 t).mp h)) (iblk14 V c 0 t) (iblk14 V c 1 t) (iblk14 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation14 (c : Dev nD) : BodyObligation (dat14 (F := F) V c) (defs₀ (F := F)) Variants.none () Set.univ := fun t => by
  rw [bigSep_W14, bigSep_W14]
  exact sound_body14 V c t

/-- What the launch hands the region is the invariant before the first point. -/
theorem hin14 (c : Dev nD) : Pipeline.ΦA spec14 c ⊢ (dat14 V c).Φ 0 := by
  rw [show (dat14 V c).Φ 0 = PhiS14 V c 0 (Nat.zero_le _) from rfl, PhiS14_zero V c 0 _ rfl]
  try exact Idealize.SL.BI.Entails.refl _

/-- After any point but the first the invariant gives it back: the scratch's named contents are forgotten. -/
theorem Phi_out14 (c : Dev nD) (t : Fin (cfg14.N + 1)) (ht : t.val ≠ 0) : (dat14 V c).Φ t ⊢ Pipeline.ΦA spec14 c := by
  rw [show (dat14 V c).Φ t = PhiS14 V c t.val (Nat.le_of_lt_succ t.isLt) from rfl, PhiS14_pos V c _ _ ht, PhiA14_eq]
  iintro ⟨⟨HS0, HR⟩, Hg⟩
  isplitl [HS0 HR]
  · isplitl [HS0]
    · iexists _; iexact HS0
    iexact HR
  iexact Hg

/-- The same after the last point. -/
theorem hout14 (c : Dev nD) : (dat14 V c).Φ (Fin.last cfg14.N) ⊢ Pipeline.ΦA spec14 c :=
  Phi_out14 V c _ (by rw [Fin.val_last]; have : cfg14.N = 25 := N_14; omega)

end Cert.Kernel.Hand

end
-- ==== Proof.KB.R15.lean ====
import proofs.«408084_j48395691492010_3_alg».proof.Proof.KB.R3

/-! Region 15: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The row-tile window (window 0, fetched at every point) holds its block when the body runs. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- The mean window (window 1, one constant block fetched at the first point only) holds that block at every point. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-! ## The branch conditions and the idle points, over this region's grid (the same grid) -/

/-- The reset's condition holds at the first point only, -/
theorem hcond15_0 : ∀ t : Fin cfg15.N, cond3_0 (grid15.coords t) ↔ t.val = 0 := hcond3_0
/-- the final store's at the last point only. -/
theorem hcond15_1 : ∀ t : Fin cfg15.N, cond3_1 (grid15.coords t) ↔ t.val = 24 := hcond3_1

theorem liveAt15_0 : ∀ t : Fin cfg15.N, cfg15.idle 0 (grid15.coords t) = false := fun _ => rfl
theorem liveAt15_1 : ∀ t : Fin cfg15.N, cfg15.idle 1 (grid15.coords t) = false := fun _ => rfl
/-- Away from the last point the result window is idle, -/
theorem idleAt15_2 : ∀ t : Fin cfg15.N, ¬cond3_1 (grid15.coords t) → cfg15.idle 2 (grid15.coords t) = true := idleAt3_2
/-- and live at it. -/
theorem liveAt15_2 : ∀ t : Fin cfg15.N, cond3_1 (grid15.coords t) → cfg15.idle 2 (grid15.coords t) = false := liveAt3_2
/-- Away from the last point its block is not written back (the schedule's closed form). -/
theorem noFlush15_2 (t : Fin cfg15.N) (h : ¬cond3_1 (grid15.coords t)) : (cfg15.win 2).flush t = false := by
  have hN : t.val < 25 := lt_of_lt_of_eq t.isLt (show cfg15.N = 25 from N_15)
  have h24 : ¬t.val = 24 := fun e => h ((hcond15_1 t).mpr e)
  cases hf : (cfg15.win 2).flush t with
  | false => rfl
  | true => exact absurd (by have := (flush15_2 t).mp hf; omega) h24

/-! ## The memrefs the body is called with -/

noncomputable abbrev ms15_0 (t : Fin cfg15.N) : Memref sig .tc .vmem S2000x64 .f32 := win15_0.stage (cfg15.slots t 0)
abbrev hs15_0 (t : Fin cfg15.N) : (ms15_0 t).IsWhole := hstage15_0 ((cfg15.slots t 0).cast nbuf15_0)
noncomputable abbrev ms15_1 (t : Fin cfg15.N) : Memref sig .tc .vmem S1x64 .f32 := win15_1.stage (cfg15.slots t 1)
abbrev hs15_1 (t : Fin cfg15.N) : (ms15_1 t).IsWhole := hstage15_1 ((cfg15.slots t 1).cast nbuf15_1)
noncomputable abbrev ms15_2 (t : Fin cfg15.N) : Memref sig .tc .vmem S1x64 .f32 := win15_2.stage (cfg15.slots t 2)
abbrev hs15_2 (t : Fin cfg15.N) : (ms15_2 t).IsWhole := hstage15_2 ((cfg15.slots t 2).cast nbuf15_2)
/-- The accumulator: this call's own scratch buffer, whole. -/
noncomputable abbrev scM15_0 : Memref sig .tc .vmem S1x64 .f32 := Memref.whole cc15_scratch0

/-- The body the pipeline calls at point `t` is region 3's printed kernel on this region's memrefs: the two printed
    functions are the same term. -/
theorem bodyAt15_eq (t : Fin cfg15.N) :
    (bodyAt15 t : Prog (TpuEff nD τ sig (Elt F) Λ₀ .tc) PUnit)
      = cc3__var_kernel (grid15.coords t) (ms15_0 t) (hs15_0 t) (ms15_1 t) (hs15_1 t) (ms15_2 t) (hs15_2 t) scM15_0 (Memref.isWhole_whole _) := rfl

/-- The region-entry invariant with the accumulator split out of the scoped rest, as a memref owned at some contents. -/
theorem PhiA15_eq (c : Dev nD) :
    (Pipeline.ΦA spec15 c : sProp 𝕄)
      = iprop(iprop(iprop(∃ d, owns (c : Thread nD τ) scM15_0 fullShare d)
          ∗ Pipeline.scopedRestBut (Ix := Unit) (Name := ℕ) (U := UR sig nD τ) (Lvl := ℕ) (Val := Elt F) spec15 c [cc15_scratch0]) ∗ (∃ r, prngReg c r)) := by
  unfold Pipeline.ΦA; rw [scopedRest15_split]; simp only [scM15_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt15 (c : Dev nD) : (n : ℕ) → n < cfg15.N → Vec F S1x64 .f32 × Vec F S1x64 .f32
  | 0, hn => (idle3_2,
      sout3_A_0 c (grid15.coords ⟨0, hn⟩) (ms15_0 ⟨0, hn⟩) (hs15_0 ⟨0, hn⟩) (ms15_1 ⟨0, hn⟩) (hs15_1 ⟨0, hn⟩) (ms15_2 ⟨0, hn⟩) (hs15_2 ⟨0, hn⟩) scM15_0 (Memref.isWhole_whole _) ((hcond15_0 ⟨0, hn⟩).mpr rfl)
        (fun h => (fun h' : (0 : ℕ) = 24 => by omega) ((hcond15_1 ⟨0, hn⟩).mp h)) (iblk15 V c 0 ⟨0, hn⟩) (iblk15 V c 1 ⟨0, hn⟩))
  | n + 1, hn =>
    if h1 : n + 1 = 24 then
      (out3_C_2 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15_0 (Memref.isWhole_whole _) (fun h => (fun h' : n + 1 = 0 => by omega) ((hcond15_0 ⟨n + 1, hn⟩).mp h))
          ((hcond15_1 ⟨n + 1, hn⟩).mpr h1) (iblk15 V c 0 ⟨n + 1, hn⟩) (iblk15 V c 1 ⟨n + 1, hn⟩) (outsAt15 c n (Nat.lt_of_succ_lt hn)).2,
       sout3_C_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15_0 (Memref.isWhole_whole _) (fun h => (fun h' : n + 1 = 0 => by omega) ((hcond15_0 ⟨n + 1, hn⟩).mp h))
          ((hcond15_1 ⟨n + 1, hn⟩).mpr h1) (iblk15 V c 0 ⟨n + 1, hn⟩) (iblk15 V c 1 ⟨n + 1, hn⟩) (outsAt15 c n (Nat.lt_of_succ_lt hn)).2)
    else
      (idle3_2,
       sout3_B_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15_0 (Memref.isWhole_whole _) (fun h => (fun h' : n + 1 = 0 => by omega) ((hcond15_0 ⟨n + 1, hn⟩).mp h))
          (fun h => h1 ((hcond15_1 ⟨n + 1, hn⟩).mp h)) (iblk15 V c 0 ⟨n + 1, hn⟩) (iblk15 V c 1 ⟨n + 1, hn⟩) (outsAt15 c n (Nat.lt_of_succ_lt hn)).2)

theorem outsAt15_A (c : Dev nD) (t : Fin cfg15.N) (h0 : t.val = 0) (h1 : ¬t.val = 24) :
    outsAt15 V c t.val t.isLt = (idle3_2,
      sout3_A_0 c (grid15.coords t) (ms15_0 t) (hs15_0 t) (ms15_1 t) (hs15_1 t) (ms15_2 t) (hs15_2 t) scM15_0 (Memref.isWhole_whole _) ((hcond15_0 t).mpr h0) (fun h => h1 ((hcond15_1 t).mp h)) (iblk15 V c 0 t) (iblk15 V c 1 t)) := by
  obtain ⟨n, hn⟩ := t
  cases n with
  | zero => exact rfl
  | succ n => exact absurd h0 (Nat.succ_ne_zero n)

theorem outsAt15_B (c : Dev nD) (t : Fin cfg15.N) (h0 : ¬t.val = 0) (h1 : ¬t.val = 24) :
    outsAt15 V c t.val t.isLt = (idle3_2,
      sout3_B_0 c (grid15.coords t) (ms15_0 t) (hs15_0 t) (ms15_1 t) (hs15_1 t) (ms15_2 t) (hs15_2 t) scM15_0 (Memref.isWhole_whole _) (fun h => h0 ((hcond15_0 t).mp h)) (fun h => h1 ((hcond15_1 t).mp h)) (iblk15 V c 0 t) (iblk15 V c 1 t)
        (outsAt15 V c (t.val - 1) (Nat.lt_of_le_of_lt (Nat.sub_le _ _) t.isLt)).2) := by
  obtain ⟨n, hn⟩ := t
  cases n with
  | zero => exact absurd rfl h0
  | succ n => exact (dif_neg h1).trans rfl

theorem outsAt15_C (c : Dev nD) (t : Fin cfg15.N) (h0 : ¬t.val = 0) (h1 : t.val = 24) :
    outsAt15 V c t.val t.isLt =
      (out3_C_2 c (grid15.coords t) (ms15_0 t) (hs15_0 t) (ms15_1 t) (hs15_1 t) (ms15_2 t) (hs15_2 t) scM15_0 (Memref.isWhole_whole _) (fun h => h0 ((hcond15_0 t).mp h)) ((hcond15_1 t).mpr h1) (iblk15 V c 0 t) (iblk15 V c 1 t)
        (outsAt15 V c (t.val - 1) (Nat.lt_of_le_of_lt (Nat.sub_le _ _) t.isLt)).2,
       sout3_C_0 c (grid15.coords t) (ms15_0 t) (hs15_0 t) (ms15_1 t) (hs15_1 t) (ms15_2 t) (hs15_2 t) scM15_0 (Memref.isWhole_whole _) (fun h => h0 ((hcond15_0 t).mp h)) ((hcond15_1 t).mpr h1) (iblk15 V c 0 t) (iblk15 V c 1 t)
        (outsAt15 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS15 (c : Dev nD) : (n : ℕ) → n ≤ cfg15.N → sProp 𝕄
  | 0, _ => Pipeline.ΦA spec15 c
  | n + 1, hn => iprop(iprop(owns (c : Thread nD τ) scM15_0 fullShare ((outsAt15 V c n hn).2)
      ∗ Pipeline.scopedRestBut (Ix := Unit) (Name := ℕ) (U := UR sig nD τ) (Lvl := ℕ) (Val := Elt F) spec15 c [cc15_scratch0]) ∗ (∃ r, prngReg c r))

theorem PhiS15_zero (c : Dev nD) (n : ℕ) (h : n ≤ cfg15.N) (hz : n = 0) : PhiS15 V c n h = Pipeline.ΦA spec15 c := by
  subst hz; rfl

theorem PhiS15_succ (c : Dev nD) (n : ℕ) (hn : n < cfg15.N) :
    PhiS15 V c (n + 1) hn = iprop(iprop(owns (c : Thread nD τ) scM15_0 fullShare ((outsAt15 V c n hn).2)
      ∗ Pipeline.scopedRestBut (Ix := Unit) (Name := ℕ) (U := UR sig nD τ) (Lvl := ℕ) (Val := Elt F) spec15 c [cc15_scratch0]) ∗ (∃ r, prngReg c r)) := rfl

theorem PhiS15_pos (c : Dev nD) (n : ℕ) (h : n ≤ cfg15.N) (hz : n ≠ 0) :
    PhiS15 V c n h = iprop(iprop(owns (c : Thread nD τ) scM15_0 fullShare ((outsAt15 V c (n - 1) (by omega)).2)
      ∗ Pipeline.scopedRestBut (Ix := Unit) (Name := ℕ) (U := UR sig nD τ) (Lvl := ℕ) (Val := Elt F) spec15 c [cc15_scratch0]) ∗ (∃ r, prngReg c r)) := by
  cases n with
  | zero => exact absurd rfl hz
  | succ n => rfl

/-! ## The proof data -/

noncomputable def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => (outsAt15 V c t.val t.isLt).1
  Φ t := PhiS15 V c t.val (Nat.le_of_lt_succ t.isLt)
  q _ := fullShare
  owed _ := 0

theorem A_eq15 (c : Dev nD) (w : Fin cfg15.W) : (dat15 V c).A w = V c (Pipeline.arrRef spec15 w) := by
  dsimp only [dat15]

theorem PhiS15_castSucc (c : Dev nD) (t : Fin cfg15.N) :
    (dat15 V c).Φ t.castSucc = PhiS15 V c t.val (Nat.le_of_lt t.isLt) := by
  dsimp only [dat15]; simp only [Fin.coe_castSucc]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = (outsAt15 V c t.val t.isLt).1 := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-! ## The body obligation -/

noncomputable def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d)))

noncomputable def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t)

set_option maxHeartbeats 4800000 in
/-- The body at any point, from region 3's triples on this region's memrefs. -/
theorem sound_body15 (c : Dev nD) (t : Fin cfg15.N) :
    bodyPre15 V c t ⊢ wp frame (wpE (defs₀ (F := F)) Variants.none c none) Set.univ (bodyAt15 t) (fun _ => bodyPost15 V c t) := by
  rw [bodyAt15_eq (F := F) t]
  unfold bodyPre15 bodyPost15
  simp only [before15_0, before15_1]
  rw [show (dat15 V c).owesAt () t.succ = (dat15 V c).owesAt () t.castSucc from rfl]
  rw [show (dat15 V c).Φ t.succ = PhiS15 V c (t.val + 1) t.isLt from rfl, PhiS15_succ]
  have hN : t.val < 25 := lt_of_lt_of_eq t.isLt (show cfg15.N = 25 from N_15)
  rw [show (dat15 V c).leavesExact 0 t = owns (c : Thread nD τ) (ms15_0 t) fullShare ((dat15 V c).after 0 t) from by
    unfold Dat.leavesExact; rw [liveAt15_0 t], after15_0]
  rw [show (dat15 V c).leavesExact 1 t = owns (c : Thread nD τ) (ms15_1 t) fullShare ((dat15 V c).after 1 t) from by
    unfold Dat.leavesExact; rw [liveAt15_1 t], after15_1]
  by_cases h0 : t.val = 0
  · have h1 : ¬t.val = 24 := by omega
    rw [Dat.leavesExact_idle (dat15 V c) 2 t (idleAt15_2 t (fun h => h1 ((hcond15_1 t).mp h))) (noFlush15_2 t (fun h => h1 ((hcond15_1 t).mp h)))]
    rw [outsAt15_A V c t h0 h1]
    unfold sout3_A_0; (try dsimp only)
    rw [PhiS15_castSucc V c t, PhiS15_zero V c _ _ h0, PhiA15_eq]
    iintro ⟨⟨⟨HS0, Hr⟩, Hg⟩, Ho, ⟨%d0, H0⟩, ⟨%d1, H1⟩, ⟨%d2, H2⟩⟩
    iapply ((kernelRun3_A c (grid15.coords t) _ _ _ _ _ _ _ _ ((hcond15_0 t).mpr h0) (fun h => h1 ((hcond15_1 t).mp h)) (iblk15 V c 0 t) (iblk15 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat15 V c).leavesExact 2 t = owns (c : Thread nD τ) (ms15_2 t) fullShare ((dat15 V c).after 2 t) from by
        unfold Dat.leavesExact; rw [liveAt15_2 t ((hcond15_1 t).mpr h1)], after15_2]
      rw [outsAt15_C V c t h0 h1]
      unfold out3_C_2 sout3_C_0; (try dsimp only)
      rw [PhiS15_castSucc V c t, PhiS15_pos V c _ _ h0]
      iintro ⟨⟨⟨HS0, Hr⟩, Hg⟩, Ho, ⟨%d0, H0⟩, ⟨%d1, H1⟩, ⟨%d2, H2⟩⟩
      iapply ((kernelRun3_C c (grid15.coords t) _ _ _ _ _ _ _ _ (fun h => h0 ((hcond15_0 t).mp h)) ((hcond15_1 t).mpr h1) (iblk15 V c 0 t) (iblk15 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat15 V c) 2 t (idleAt15_2 t (fun h => h1 ((hcond15_1 t).mp h))) (noFlush15_2 t (fun h => h1 ((hcond15_1 t).mp h)))]
      rw [outsAt15_B V c t h0 h1]
      unfold sout3_B_0; (try dsimp only)
      rw [PhiS15_castSucc V c t, PhiS15_pos V c _ _ h0]
      iintro ⟨⟨⟨HS0, Hr⟩, Hg⟩, Ho, ⟨%d0, H0⟩, ⟨%d1, H1⟩, ⟨%d2, H2⟩⟩
      iapply ((kernelRun3_B c (grid15.coords t) _ _ _ _ _ _ _ _ (fun h => h0 ((hcond15_0 t).mp h)) (fun h => h1 ((hcond15_1 t).mp h)) (iblk15 V c 0 t) (iblk15 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation15 (c : Dev nD) : BodyObligation (dat15 (F := F) V c) (defs₀ (F := F)) Variants.none () Set.univ := fun t => by
  rw [bigSep_W15, bigSep_W15]
  exact sound_body15 V c t

/-- What the launch hands the region is the invariant before the first point. -/
theorem hin15 (c : Dev nD) : Pipeline.ΦA spec15 c ⊢ (dat15 V c).Φ 0 := by
  rw [show (dat15 V c).Φ 0 = PhiS15 V c 0 (Nat.zero_le _) from rfl, PhiS15_zero V c 0 _ rfl]
  try exact Idealize.SL.BI.Entails.refl _

/-- After any point but the first the invariant gives the launch's back: the accumulator's named contents are forgotten. -/
theorem Phi_out15 (c : Dev nD) (t : Fin (cfg15.N + 1)) (ht : t.val ≠ 0) : (dat15 V c).Φ t ⊢ Pipeline.ΦA spec15 c := by
  rw [show (dat15 V c).Φ t = PhiS15 V c t.val (Nat.le_of_lt_succ t.isLt) from rfl, PhiS15_pos V c _ _ ht, PhiA15_eq]
  iintro ⟨⟨HS0, Hr⟩, Hg⟩
  isplitl [HS0 Hr]
  · isplitl [HS0]
    · iexists _; iexact HS0
    iexact Hr
  iexact Hg

/-- The same after the last point. -/
theorem hout15 (c : Dev nD) : (dat15 V c).Φ (Fin.last cfg15.N) ⊢ Pipeline.ΦA spec15 c :=
  Phi_out15 V c _ (by rw [Fin.val_last]; have : cfg15.N = 25 := N_15; omega)

end Cert.Kernel.Hand

end
-- ==== Proof.KB.R16.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Ring
import Idealize.ShloMosaic.Lib.Tactic

/-!
# Region 16: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region16
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- The activations' staging buffer holds the block of the current point at every point: the window is fetched at
    every point, is never cut and never idle, and the body leaves the block where it found it. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- The mean row's staging buffer holds its (one) block at every point: it is fetched at the first point only, its
    block index never moves afterwards, and the body leaves it in place. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- The same of the variance row. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-- The same of the scale row. -/
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)

/-- The same of the shift row. -/
theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)

/-! ## The body's accesses: each buffer is read, and the output written, whole -/

/-- The whole of a block of 2000 rows. -/
noncomputable abbrev r16_0 : Rect S2000x64 := Rect.unit (s := S2000x64) ![0, 0] S2000x64.size inb_S2000x64_S2000x64_0_0
/-- The whole of a single row. -/
noncomputable abbrev r16_1 : Rect S1x64 := Rect.unit (s := S1x64) ![0, 0] S1x64.size inb_S1x64_S1x64_0_0

/-! ## What the body leaves in the output buffer -/

/-- The output buffer after the body, from the five input blocks: its one store, whose payload is the skeleton's. -/
noncomputable def out16_5 (x0 : Vec F S2000x64 .f32) (x1 : Vec F S1x64 .f32) (x2 : Vec F S1x64 .f32) (x3 : Vec F S1x64 .f32) (x4 : Vec F S1x64 .f32) :
    Vec F S2000x64 .f32 :=
  View.canon [⟨r16_0, k16_pay1 (View.ld x0 r16_0) (View.ld x1 r16_1) (View.ld x2 r16_1) (View.ld x3 r16_1) (View.ld x4 r16_1)⟩]

/-- The one store covers the buffer. -/
theorem cover16_5 (p0 : Vec F S2000x64 .f32) (y : S2000x64.Idx) :
    ∃ pc ∈ ([⟨r16_0, p0⟩] : List (View.Piece (Elt F) S2000x64 .f32)), y ∈ pc.1.set :=
  View.cover_of_tiled [⟨r16_0, p0⟩] S2000x64.size (by rfl) y

/-! ## The body's triple -/

set_option maxHeartbeats 1000000 in
/-- The body on whole staging buffers, the five inputs' at read contents x0 … x4 and the output's at anything, runs
    to a state in which the inputs' are as they were and the output's holds out16_5 of them. (The body also loads the
    output buffer before it stores to it; the loaded value is not used.) -/
theorem sound_kernel16 (c : Dev nD) (E : Set ℕ) (i : grid16.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out16_5 x0 x1 x2 x3 x4)) -∗ K ⟨⟩))
      ⊢ wp frame (wpE (defs₀ (F := F)) Variants.none c none) E (cc16__bn_softmax_kernel i arg1 harg1 arg2 harg2 arg3 harg3 arg4 harg4 arg5 harg5 arg6 harg6) K := by
  simp only [cc16__bn_softmax_kernel_eq_skeleton]; unfold cc16__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover16_5 _)

/-! ## The pipeline's proof data -/

/-- The proof data of the region's pipeline on core c: the arrays as the region finds them; after the body at point t
    each input's buffer at its block and the output's at out16_5 of the input blocks; the invariant that of a body which
    touches nothing but its windows; nothing owed; full shares. -/
noncomputable def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => out16_5 (iblk16 V c 0 t) (iblk16 V c 1 t) (iblk16 V c 2 t) (iblk16 V c 3 t) (iblk16 V c 4 t)
  Φ _ := Pipeline.ΦA spec16 c
  q _ := fullShare
  owed _ := 0

/-- The proof data's arrays are the region-entry contents. -/
theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) :
    (dat16 V c).after 5 t = out16_5 (iblk16 V c 0 t) (iblk16 V c 1 t) (iblk16 V c 2 t) (iblk16 V c 3 t) (iblk16 V c 4 t) := by dsimp only [dat16]

/-- Each input's current staging buffer holds its block at every point, fetched there or not. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d

/-! ## The body obligation, at a generic point -/

/-- What the body is called with at point t, the windows one by one, -/
noncomputable def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d)))

/-- and what it returns. -/
noncomputable def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t))

/-- The body at any point: the inputs' buffers hold their blocks, so the body's triple applies; the invariant and
    what the core owes pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4]
  rw [show (dat16 V c).Φ t.succ = (dat16 V c).Φ t.castSucc from rfl,
    show (dat16 V c).owesAt () t.succ = (dat16 V c).owesAt () t.castSucc from rfl,
    after16_0, after16_1, after16_2, after16_3, after16_4, after16_5]
  iintro ⟨HΦ, Ho, ⟨%d0, H0⟩, ⟨%d1, H1⟩, ⟨%d2, H2⟩, ⟨%d3, H3⟩, ⟨%d4, H4⟩, ⟨%d5, H5⟩⟩
  iapply (sound_kernel16 c Set.univ (grid16.coords t) _ _ _ _ _ _ _ _ _ _ _ _
    (iblk16 V c 0 t) (iblk16 V c 1 t) (iblk16 V c 2 t) (iblk16 V c 3 t) (iblk16 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation16 (c : Dev nD) : BodyObligation (dat16 (F := F) V c) (defs₀ (F := F)) Variants.none () Set.univ := fun t => by
  rw [bigSep_W16, bigSep_W16]
  exact sound_body16 V c t

end Region16

end Cert.Kernel.Hand

end
-- ==== Proof.KB.R17.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.Regions
import Idealize.ShloMosaic.Lib.Tactic

/-! # Region 17: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region17
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The rows of X: the staging buffer the body is handed holds the block of the point, whether the
    point fetched it or not (an unfetched input has not moved its block index). -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- The matrix W: fetched at the first point only, and found in place at every later one. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-! ## The body's accesses: each buffer whole -/

noncomputable abbrev r17_0 : Rect S2000x64 := Rect.unit (s := S2000x64) ![0, 0] S2000x64.size inb_S2000x64_S2000x64_0_0
noncomputable abbrev r17_1 : Rect S64x64 := Rect.unit (s := S64x64) ![0, 0] S64x64.size inb_S64x64_S64x64_0_0
noncomputable abbrev r17_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out17_2 (x0 : Vec F S2000x64 .f32) (x1 : Vec F S64x64 .f32) : Vec F S2000x64 .f32 :=
  View.canon [⟨r17_2, k17_pay1 (View.ld x0 r17_0) (View.ld x1 r17_1)⟩]

/-- The store's rectangle is the whole buffer, so it covers every index. -/
theorem cover17_2 (p0 : Vec F S2000x64 .f32) (y : S2000x64.Idx) :
    ∃ pc ∈ ([⟨r17_2, p0⟩] : List (View.Piece (Elt F) S2000x64 .f32)), y ∈ pc.1.set :=
  View.cover_of_tiled [⟨r17_2, p0⟩] S2000x64.size (by rfl) y

/-! ## The body's triple -/

set_option maxHeartbeats 1000000 in
/-- On whole staging memrefs, the inputs' holding x0 and x1 and the output's holding anything, the body
    runs to a state where the inputs' are unchanged and the output's holds out17_2 x0 x1. The body also reads
    the output buffer before storing into it; the value read is not used. -/
theorem sound_kernel17 (c : Dev nD) (E : Set ℕ) (i : grid17.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out17_2 x0 x1)) -∗ K ⟨⟩))
      ⊢ wp frame (wpE (defs₀ (F := F)) Variants.none c none) E (cc17__linear_kernel i arg1 harg1 arg2 harg2 arg3 harg3) K := by
  simp only [cc17__linear_kernel_eq_skeleton]; unfold cc17__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover17_2 _)

/-! ## The pipeline's proof data -/

/-- The arrays as the region finds them; after the body at point t the inputs' buffers at their blocks
    and the output's at the product block; the invariant is the scoped rest and the generator register,
    untouched; nothing owed; full shares. -/
noncomputable def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => out17_2 (iblk17 V c 0 t) (iblk17 V c 1 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = out17_2 (iblk17 V c 0 t) (iblk17 V c 1 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d

/-! ## The body obligation, at a generic point -/

/-- What the body is called with at point t, window by window, -/
noncomputable def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d)))

/-- and what it returns. -/
noncomputable def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t))

/-- The inputs' memrefs hold their blocks, so the body's triple applies; the invariant and what the core
    owes pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).Φ t.succ = (dat17 V c).Φ t.castSucc from rfl,
    show (dat17 V c).owesAt () t.succ = (dat17 V c).owesAt () t.castSucc from rfl,
    after17_0, after17_1, after17_2]
  iintro ⟨HΦ, Ho, ⟨%d0, H0⟩, ⟨%d1, H1⟩, ⟨%d2, H2⟩⟩
  iapply (sound_kernel17 c Set.univ (grid17.coords t) _ _ _ _ _ _ (iblk17 V c 0 t) (iblk17 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation17 (c : Dev nD) : BodyObligation (dat17 (F := F) V c) (defs₀ (F := F)) Variants.none () Set.univ := fun t => by
  rw [bigSep_W17, bigSep_W17]
  exact sound_body17 V c t

end Region17

end Cert.Kernel.Hand

end
-- ==== Proof.KB.R18.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.R14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The kernel is region 14's

The two regions' printed kernel functions are the same function of the grid coordinate and the memrefs (the same
text over the same shapes; the grids and the last-point conditions are the same literals), so region 14's runs of the
body, its covers and its per-case contents — all stated over abstract coordinates and memrefs — serve this region. -/

theorem cc18_kernel_eq : cc18_kernel (F := F) = cc14_kernel (F := F) := rfl

/-! ## The windows' blocks -/

/-- Window `w`'s block at point `t`, read off its array as the region finds it (`V`). -/
noncomputable def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0's current staging buffer holds its block at every point, for any proof data whose array is
    `V`'s and whose body leaves the block in place: the window is uncut and never idle. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- Input window 1 likewise: fetched at the first point only, its block index never moves, so the buffer holds
    the block at every point. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- Input window 2 likewise. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-! ## The body's two conditions on the grid coordinate -/

/-- It holds at the first point only. -/
theorem hcond18_0 : ∀ t : Fin cfg18.N, cond14_0 (grid18.coords t) ↔ t.val % 25 = 0 :=
  (by decide +kernel : ∀ t : Fin grid18.N, cond14_0 (grid18.coords t) ↔ t.val % 25 = 0)

/-- It holds at the last point only. -/
theorem hcond18_1 : ∀ t : Fin cfg18.N, cond14_1 (grid18.coords t) ↔ t.val % 25 = 24 :=
  (by decide +kernel : ∀ t : Fin grid18.N, cond14_1 (grid18.coords t) ↔ t.val % 25 = 24)

/-! ## Where the windows are idle -/

theorem liveAt18_0 : ∀ t : Fin cfg18.N, cfg18.idle 0 (grid18.coords t) = false := by decide +kernel
theorem liveAt18_1 : ∀ t : Fin cfg18.N, cfg18.idle 1 (grid18.coords t) = false := by decide +kernel
theorem liveAt18_2 : ∀ t : Fin cfg18.N, cfg18.idle 2 (grid18.coords t) = false := by decide +kernel
theorem liveAt18_3 : ∀ t : Fin cfg18.N, cfg18.idle 3 (grid18.coords t) = false := by decide +kernel
theorem liveAt18_4 : ∀ t : Fin cfg18.N, cfg18.idle 4 (grid18.coords t) = false := by decide +kernel
/-- At the first point the body stores nothing into output 5: the window is idle there and not written back. -/
theorem idleAt18_5_A : ∀ t : Fin cfg18.N, cond14_0 (grid18.coords t) → ¬cond14_1 (grid18.coords t) → cfg18.idle 5 (grid18.coords t) = true := by decide +kernel
theorem noFlush18_5_A : ∀ t : Fin cfg18.N, cond14_0 (grid18.coords t) → ¬cond14_1 (grid18.coords t) → (cfg18.win 5).flush t = false := by decide +kernel
/-- Nor at the middle points. -/
theorem idleAt18_5_B : ∀ t : Fin cfg18.N, ¬cond14_0 (grid18.coords t) → ¬cond14_1 (grid18.coords t) → cfg18.idle 5 (grid18.coords t) = true := by decide +kernel
theorem noFlush18_5_B : ∀ t : Fin cfg18.N, ¬cond14_0 (grid18.coords t) → ¬cond14_1 (grid18.coords t) → (cfg18.win 5).flush t = false := by decide +kernel
/-- At the last point it stores the accumulated sums there: the window is live. -/
theorem liveAt18_5_C : ∀ t : Fin cfg18.N, ¬cond14_0 (grid18.coords t) → cond14_1 (grid18.coords t) → cfg18.idle 5 (grid18.coords t) = false := by decide +kernel

/-! ## The memrefs the body is called with -/

/-- Each window's current staging memref at point `t`, as the pipeline passes it, and its wholeness. -/
noncomputable abbrev ms18_0 (t : Fin cfg18.N) : Memref sig .tc .vmem S2000x64 .f32 := win18_0.stage (cfg18.slots t 0)
abbrev hs18_0 (t : Fin cfg18.N) : (ms18_0 t).IsWhole := hstage18_0 ((cfg18.slots t 0).cast nbuf18_0)
noncomputable abbrev ms18_1 (t : Fin cfg18.N) : Memref sig .tc .vmem S1x64 .f32 := win18_1.stage (cfg18.slots t 1)
abbrev hs18_1 (t : Fin cfg18.N) : (ms18_1 t).IsWhole := hstage18_1 ((cfg18.slots t 1).cast nbuf18_1)
noncomputable abbrev ms18_2 (t : Fin cfg18.N) : Memref sig .tc .vmem S2000x64 .f32 := win18_2.stage (cfg18.slots t 2)
abbrev hs18_2 (t : Fin cfg18.N) : (ms18_2 t).IsWhole := hstage18_2 ((cfg18.slots t 2).cast nbuf18_2)
noncomputable abbrev ms18_3 (t : Fin cfg18.N) : Memref sig .tc .vmem S2000x64 .f32 := win18_3.stage (cfg18.slots t 3)
abbrev hs18_3 (t : Fin cfg18.N) : (ms18_3 t).IsWhole := hstage18_3 ((cfg18.slots t 3).cast nbuf18_3)
noncomputable abbrev ms18_4 (t : Fin cfg18.N) : Memref sig .tc .vmem S2000x64 .f32 := win18_4.stage (cfg18.slots t 4)
abbrev hs18_4 (t : Fin cfg18.N) : (ms18_4 t).IsWhole := hstage18_4 ((cfg18.slots t 4).cast nbuf18_4)
noncomputable abbrev ms18_5 (t : Fin cfg18.N) : Memref sig .tc .vmem S1x64 .f32 := win18_5.stage (cfg18.slots t 5)
abbrev hs18_5 (t : Fin cfg18.N) : (ms18_5 t).IsWhole := hstage18_5 ((cfg18.slots t 5).cast nbuf18_5)
/-- The scratch operand: a whole scoped buffer of the kernel's own, in which the column sums accumulate. -/
noncomputable abbrev scM18_0 : Memref sig .tc .vmem S1x64 .f32 := Memref.whole cc18_scratch0

/-- The other scoped buffers (every other call's staging buffers and scratch), unopened. -/
noncomputable abbrev restBut18 (c : Dev nD) : sProp 𝕄 :=
  Pipeline.scopedRestBut (Ix := Unit) (Name := ℕ) (U := UR sig nD τ) (Lvl := ℕ) (Val := Elt F) spec18 c [cc18_scratch0]

/-- The region's invariant as the launch hands it over, with the scratch operand split out as a memref owned at
    some contents: what the body obligation hands the run and takes back. -/
theorem PhiA18_eq (c : Dev nD) :
    (Pipeline.ΦA spec18 c : sProp 𝕄)
      = iprop(iprop(iprop((∃ d, owns (c : Thread nD τ) scM18_0 fullShare d)) ∗ restBut18 (F := F) c) ∗ (∃ r, prngReg c r)) := by
  unfold Pipeline.ΦA; rw [scopedRest18_split]; simp only [scM18_0, owns_whole]; try rfl

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt18 (c : Dev nD) : (n : ℕ) → n < cfg18.N → Vec F S2000x64 .f32 × Vec F S2000x64 .f32 × Vec F S1x64 .f32 × Vec F S1x64 .f32
  | 0, hn => (out14_A_3 c (grid18.coords ⟨0, hn⟩) (ms18_0 ⟨0, hn⟩) (hs18_0 ⟨0, hn⟩) (ms18_1 ⟨0, hn⟩) (hs18_1 ⟨0, hn⟩) (ms18_2 ⟨0, hn⟩) (hs18_2 ⟨0, hn⟩) (ms18_3 ⟨0, hn⟩) (hs18_3 ⟨0, hn⟩) (ms18_4 ⟨0, hn⟩) (hs18_4 ⟨0, hn⟩) (ms18_5 ⟨0, hn⟩) (hs18_5 ⟨0, hn⟩) scM18_0 (Memref.isWhole_whole _) ((hcond18_0 ⟨0, hn⟩).mpr (Nat.zero_mod _)) (fun h => (fun h => by (try dsimp only at h); omega) ((hcond18_1 ⟨0, hn⟩).mp h)) (iblk18 V c 0 ⟨0, hn⟩) (iblk18 V c 1 ⟨0, hn⟩) (iblk18 V c 2 ⟨0, hn⟩), out14_A_4 c (grid18.coords ⟨0, hn⟩) (ms18_0 ⟨0, hn⟩) (hs18_0 ⟨0, hn⟩) (ms18_1 ⟨0, hn⟩) (hs18_1 ⟨0, hn⟩) (ms18_2 ⟨0, hn⟩) (hs18_2 ⟨0, hn⟩) (ms18_3 ⟨0, hn⟩) (hs18_3 ⟨0, hn⟩) (ms18_4 ⟨0, hn⟩) (hs18_4 ⟨0, hn⟩) (ms18_5 ⟨0, hn⟩) (hs18_5 ⟨0, hn⟩) scM18_0 (Memref.isWhole_whole _) ((hcond18_0 ⟨0, hn⟩).mpr (Nat.zero_mod _)) (fun h => (fun h => by (try dsimp only at h); omega) ((hcond18_1 ⟨0, hn⟩).mp h)) (iblk18 V c 0 ⟨0, hn⟩) (iblk18 V c 1 ⟨0, hn⟩) (iblk18 V c 2 ⟨0, hn⟩), out14_A_5 c (grid18.coords ⟨0, hn⟩) (ms18_0 ⟨0, hn⟩) (hs18_0 ⟨0, hn⟩) (ms18_1 ⟨0, hn⟩) (hs18_1 ⟨0, hn⟩) (ms18_2 ⟨0, hn⟩) (hs18_2 ⟨0, hn⟩) (ms18_3 ⟨0, hn⟩) (hs18_3 ⟨0, hn⟩) (ms18_4 ⟨0, hn⟩) (hs18_4 ⟨0, hn⟩) (ms18_5 ⟨0, hn⟩) (hs18_5 ⟨0, hn⟩) scM18_0 (Memref.isWhole_whole _) ((hcond18_0 ⟨0, hn⟩).mpr (Nat.zero_mod _)) (fun h => (fun h => by (try dsimp only at h); omega) ((hcond18_1 ⟨0, hn⟩).mp h)) (iblk18 V c 0 ⟨0, hn⟩) (iblk18 V c 1 ⟨0, hn⟩) (iblk18 V c 2 ⟨0, hn⟩), sout14_A_0 c (grid18.coords ⟨0, hn⟩) (ms18_0 ⟨0, hn⟩) (hs18_0 ⟨0, hn⟩) (ms18_1 ⟨0, hn⟩) (hs18_1 ⟨0, hn⟩) (ms18_2 ⟨0, hn⟩) (hs18_2 ⟨0, hn⟩) (ms18_3 ⟨0, hn⟩) (hs18_3 ⟨0, hn⟩) (ms18_4 ⟨0, hn⟩) (hs18_4 ⟨0, hn⟩) (ms18_5 ⟨0, hn⟩) (hs18_5 ⟨0, hn⟩) scM18_0 (Memref.isWhole_whole _) ((hcond18_0 ⟨0, hn⟩).mpr (Nat.zero_mod _)) (fun h => (fun h => by (try dsimp only at h); omega) ((hcond18_1 ⟨0, hn⟩).mp h)) (iblk18 V c 0 ⟨0, hn⟩) (iblk18 V c 1 ⟨0, hn⟩) (iblk18 V c 2 ⟨0, hn⟩))
  | n + 1, hn =>
    if h0 : (n + 1) % 25 = 0 then
      if h1 : (n + 1) % 25 = 24 then
        False.elim (by omega)
      else
        (out14_A_3 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) ((hcond18_0 ⟨n + 1, hn⟩).mpr h0) (fun h => h1 ((hcond18_1 ⟨n + 1, hn⟩).mp h)) (iblk18 V c 0 ⟨n + 1, hn⟩) (iblk18 V c 1 ⟨n + 1, hn⟩) (iblk18 V c 2 ⟨n + 1, hn⟩), out14_A_4 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) ((hcond18_0 ⟨n + 1, hn⟩).mpr h0) (fun h => h1 ((hcond18_1 ⟨n + 1, hn⟩).mp h)) (iblk18 V c 0 ⟨n + 1, hn⟩) (iblk18 V c 1 ⟨n + 1, hn⟩) (iblk18 V c 2 ⟨n + 1, hn⟩), out14_A_5 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) ((hcond18_0 ⟨n + 1, hn⟩).mpr h0) (fun h => h1 ((hcond18_1 ⟨n + 1, hn⟩).mp h)) (iblk18 V c 0 ⟨n + 1, hn⟩) (iblk18 V c 1 ⟨n + 1, hn⟩) (iblk18 V c 2 ⟨n + 1, hn⟩), sout14_A_0 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) ((hcond18_0 ⟨n + 1, hn⟩).mpr h0) (fun h => h1 ((hcond18_1 ⟨n + 1, hn⟩).mp h)) (iblk18 V c 0 ⟨n + 1, hn⟩) (iblk18 V c 1 ⟨n + 1, hn⟩) (iblk18 V c 2 ⟨n + 1, hn⟩))
    else
      if h1 : (n + 1) % 25 = 24 then
        (out14_C_3 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) ((hcond18_1 ⟨n + 1, hn⟩).mpr h1) (iblk18 V c 0 ⟨n + 1, hn⟩) (iblk18 V c 1 ⟨n + 1, hn⟩) (iblk18 V c 2 ⟨n + 1, hn⟩) (outsAt18 c n (Nat.lt_of_succ_lt hn)).2.2.2, out14_C_4 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) ((hcond18_1 ⟨n + 1, hn⟩).mpr h1) (iblk18 V c 0 ⟨n + 1, hn⟩) (iblk18 V c 1 ⟨n + 1, hn⟩) (iblk18 V c 2 ⟨n + 1, hn⟩) (outsAt18 c n (Nat.lt_of_succ_lt hn)).2.2.2, out14_C_5 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) ((hcond18_1 ⟨n + 1, hn⟩).mpr h1) (iblk18 V c 0 ⟨n + 1, hn⟩) (iblk18 V c 1 ⟨n + 1, hn⟩) (iblk18 V c 2 ⟨n + 1, hn⟩) (outsAt18 c n (Nat.lt_of_succ_lt hn)).2.2.2, sout14_C_0 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) ((hcond18_1 ⟨n + 1, hn⟩).mpr h1) (iblk18 V c 0 ⟨n + 1, hn⟩) (iblk18 V c 1 ⟨n + 1, hn⟩) (iblk18 V c 2 ⟨n + 1, hn⟩) (outsAt18 c n (Nat.lt_of_succ_lt hn)).2.2.2)
      else
        (out14_B_3 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) (fun h => h1 ((hcond18_1 ⟨n + 1, hn⟩).mp h)) (iblk18 V c 0 ⟨n + 1, hn⟩) (iblk18 V c 1 ⟨n + 1, hn⟩) (iblk18 V c 2 ⟨n + 1, hn⟩) (outsAt18 c n (Nat.lt_of_succ_lt hn)).2.2.2, out14_B_4 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) (fun h => h1 ((hcond18_1 ⟨n + 1, hn⟩).mp h)) (iblk18 V c 0 ⟨n + 1, hn⟩) (iblk18 V c 1 ⟨n + 1, hn⟩) (iblk18 V c 2 ⟨n + 1, hn⟩) (outsAt18 c n (Nat.lt_of_succ_lt hn)).2.2.2, out14_B_5 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) (fun h => h1 ((hcond18_1 ⟨n + 1, hn⟩).mp h)) (iblk18 V c 0 ⟨n + 1, hn⟩) (iblk18 V c 1 ⟨n + 1, hn⟩) (iblk18 V c 2 ⟨n + 1, hn⟩) (outsAt18 c n (Nat.lt_of_succ_lt hn)).2.2.2, sout14_B_0 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) (fun h => h1 ((hcond18_1 ⟨n + 1, hn⟩).mp h)) (iblk18 V c 0 ⟨n + 1, hn⟩) (iblk18 V c 1 ⟨n + 1, hn⟩) (iblk18 V c 2 ⟨n + 1, hn⟩) (outsAt18 c n (Nat.lt_of_succ_lt hn)).2.2.2)

/-- `outsAt18` at the first point: case A's contents. -/
theorem outsAt18_A (c : Dev nD) (t : Fin cfg18.N) (h0 : t.val % 25 = 0) (h1 : ¬t.val % 25 = 24) :
    outsAt18 V c t.val t.isLt = (out14_A_3 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) ((hcond18_0 t).mpr h0) (fun h => h1 ((hcond18_1 t).mp h)) (iblk18 V c 0 t) (iblk18 V c 1 t) (iblk18 V c 2 t), out14_A_4 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) ((hcond18_0 t).mpr h0) (fun h => h1 ((hcond18_1 t).mp h)) (iblk18 V c 0 t) (iblk18 V c 1 t) (iblk18 V c 2 t), out14_A_5 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) ((hcond18_0 t).mpr h0) (fun h => h1 ((hcond18_1 t).mp h)) (iblk18 V c 0 t) (iblk18 V c 1 t) (iblk18 V c 2 t), sout14_A_0 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) ((hcond18_0 t).mpr h0) (fun h => h1 ((hcond18_1 t).mp h)) (iblk18 V c 0 t) (iblk18 V c 1 t) (iblk18 V c 2 t)) := by
  obtain ⟨n, hn⟩ := t
  cases n with
  | zero => exact rfl
  | succ n => exact (dif_pos h0).trans ((dif_neg h1).trans rfl)

/-- `outsAt18` at a middle point: case B's contents, over what the point before left in the scratch. -/
theorem outsAt18_B (c : Dev nD) (t : Fin cfg18.N) (h0 : ¬t.val % 25 = 0) (h1 : ¬t.val % 25 = 24) :
    outsAt18 V c t.val t.isLt = (out14_B_3 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) (fun h => h1 ((hcond18_1 t).mp h)) (iblk18 V c 0 t) (iblk18 V c 1 t) (iblk18 V c 2 t) (outsAt18 V c (t.val - 1) (Nat.lt_of_le_of_lt (Nat.sub_le _ _) t.isLt)).2.2.2, out14_B_4 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) (fun h => h1 ((hcond18_1 t).mp h)) (iblk18 V c 0 t) (iblk18 V c 1 t) (iblk18 V c 2 t) (outsAt18 V c (t.val - 1) (Nat.lt_of_le_of_lt (Nat.sub_le _ _) t.isLt)).2.2.2, out14_B_5 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) (fun h => h1 ((hcond18_1 t).mp h)) (iblk18 V c 0 t) (iblk18 V c 1 t) (iblk18 V c 2 t) (outsAt18 V c (t.val - 1) (Nat.lt_of_le_of_lt (Nat.sub_le _ _) t.isLt)).2.2.2, sout14_B_0 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) (fun h => h1 ((hcond18_1 t).mp h)) (iblk18 V c 0 t) (iblk18 V c 1 t) (iblk18 V c 2 t) (outsAt18 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt18` at the last point: case C's contents, over what the point before left in the scratch. -/
theorem outsAt18_C (c : Dev nD) (t : Fin cfg18.N) (h0 : ¬t.val % 25 = 0) (h1 : t.val % 25 = 24) :
    outsAt18 V c t.val t.isLt = (out14_C_3 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) ((hcond18_1 t).mpr h1) (iblk18 V c 0 t) (iblk18 V c 1 t) (iblk18 V c 2 t) (outsAt18 V c (t.val - 1) (Nat.lt_of_le_of_lt (Nat.sub_le _ _) t.isLt)).2.2.2, out14_C_4 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) ((hcond18_1 t).mpr h1) (iblk18 V c 0 t) (iblk18 V c 1 t) (iblk18 V c 2 t) (outsAt18 V c (t.val - 1) (Nat.lt_of_le_of_lt (Nat.sub_le _ _) t.isLt)).2.2.2, out14_C_5 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) ((hcond18_1 t).mpr h1) (iblk18 V c 0 t) (iblk18 V c 1 t) (iblk18 V c 2 t) (outsAt18 V c (t.val - 1) (Nat.lt_of_le_of_lt (Nat.sub_le _ _) t.isLt)).2.2.2, sout14_C_0 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) ((hcond18_1 t).mpr h1) (iblk18 V c 0 t) (iblk18 V c 1 t) (iblk18 V c 2 t) (outsAt18 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt18`'s last component), the other
    scoped buffers unopened and the generator register at some state. -/
noncomputable def PhiS18 (c : Dev nD) : (n : ℕ) → n ≤ cfg18.N → sProp 𝕄
  | 0, _ => Pipeline.ΦA spec18 c
  | n + 1, hn => iprop(iprop(iprop(owns (c : Thread nD τ) scM18_0 fullShare ((outsAt18 V c n hn).2.2.2)) ∗ restBut18 (F := F) c) ∗ (∃ r, prngReg c r))

theorem PhiS18_zero (c : Dev nD) (n : ℕ) (h : n ≤ cfg18.N) (hz : n = 0) : PhiS18 V c n h = Pipeline.ΦA spec18 c := by
  subst hz; rfl

/-- After point `n` (before point `n + 1`): the scratch at that point's contents. -/
theorem PhiS18_succ (c : Dev nD) (n : ℕ) (hn : n < cfg18.N) :
    PhiS18 V c (n + 1) hn = iprop(iprop(iprop(owns (c : Thread nD τ) scM18_0 fullShare ((outsAt18 V c n hn).2.2.2)) ∗ restBut18 (F := F) c) ∗ (∃ r, prngReg c r)) := rfl

/-- Before a point that is not the first: the scratch at what the point before left. -/
theorem PhiS18_pos (c : Dev nD) (n : ℕ) (h : n ≤ cfg18.N) (hz : n ≠ 0) :
    PhiS18 V c n h = iprop(iprop(iprop(owns (c : Thread nD τ) scM18_0 fullShare ((outsAt18 V c (n - 1) (by omega)).2.2.2)) ∗ restBut18 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt18`; the invariant `PhiS18`; nothing owed;
    full shares. -/
noncomputable def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => (outsAt18 V c t.val t.isLt).1
    | ⟨4, _⟩ => (outsAt18 V c t.val t.isLt).2.1
    | ⟨5, _⟩ => (outsAt18 V c t.val t.isLt).2.2.1
  Φ t := PhiS18 V c t.val (Nat.le_of_lt_succ t.isLt)
  q _ := fullShare
  owed _ := 0

/-- The proof data's arrays are the region-entry contents. -/
theorem A_eq18 (c : Dev nD) (w : Fin cfg18.W) : (dat18 V c).A w = V c (Pipeline.arrRef spec18 w) := by
  dsimp only [dat18]

/-- The invariant at a point's start, restated at `t.val`. -/
theorem PhiS18_castSucc (c : Dev nD) (t : Fin cfg18.N) :
    (dat18 V c).Φ t.castSucc = PhiS18 V c t.val (Nat.le_of_lt t.isLt) := by
  dsimp only [dat18]; simp only [Fin.coe_castSucc]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = (outsAt18 V c t.val t.isLt).1 := by dsimp only [dat18]
theorem after18_4 (c : Dev nD) (t : Fin cfg18.N) : (dat18 V c).after 4 t = (outsAt18 V c t.val t.isLt).2.1 := by dsimp only [dat18]
theorem after18_5 (c : Dev nD) (t : Fin cfg18.N) : (dat18 V c).after 5 t = (outsAt18 V c t.val t.isLt).2.2.1 := by dsimp only [dat18]

/-- Each input's current staging buffer holds its block at every point, fetched there or not. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d

/-! ## The body obligation, at a generic point -/

/-- What the body is called with at point `t` (the windows one by one), -/
noncomputable def bodyPre18 (c : Dev nD) (t : Fin cfg18.N) : sProp 𝕄 :=
  iprop((dat18 V c).Φ t.castSucc ∗ (dat18 V c).owesAt () t.castSucc
    ∗ (∃ d, owns (c : Thread nD τ) (ms18_0 t) fullShare ((dat18 V c).before 0 t d))
    ∗ (∃ d, owns (c : Thread nD τ) (ms18_1 t) fullShare ((dat18 V c).before 1 t d))
    ∗ (∃ d, owns (c : Thread nD τ) (ms18_2 t) fullShare ((dat18 V c).before 2 t d))
    ∗ (∃ d, owns (c : Thread nD τ) (ms18_3 t) fullShare ((dat18 V c).before 3 t d))
    ∗ (∃ d, owns (c : Thread nD τ) (ms18_4 t) fullShare ((dat18 V c).before 4 t d))
    ∗ (∃ d, owns (c : Thread nD τ) (ms18_5 t) fullShare ((dat18 V c).before 5 t d)))

/-- and what it returns. -/
noncomputable def bodyPost18 (c : Dev nD) (t : Fin cfg18.N) : sProp 𝕄 :=
  iprop((dat18 V c).Φ t.succ ∗ (dat18 V c).owesAt () t.succ
    ∗ (dat18 V c).leavesExact 0 t
    ∗ (dat18 V c).leavesExact 1 t
    ∗ (dat18 V c).leavesExact 2 t
    ∗ (dat18 V c).leavesExact 3 t
    ∗ (dat18 V c).leavesExact 4 t
    ∗ (dat18 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  rw [cc18_kernel_eq]
  simp only [before18_0, before18_1, before18_2]
  rw [show (dat18 V c).owesAt () t.succ = (dat18 V c).owesAt () t.castSucc from rfl]
  rw [show (dat18 V c).Φ t.succ = PhiS18 V c (t.val + 1) t.isLt from rfl, PhiS18_succ]
  have hN : t.val < 25 := lt_of_lt_of_eq t.isLt (show cfg18.N = 25 from N_18)
  by_cases h0 : t.val % 25 = 0
  · by_cases h1 : t.val % 25 = 24
    · exfalso; omega
    · rw [show (dat18 V c).leavesExact 0 t = owns (c : Thread nD τ) (ms18_0 t) fullShare ((dat18 V c).after 0 t) from by
        unfold Dat.leavesExact; rw [liveAt18_0 t], after18_0]
      rw [show (dat18 V c).leavesExact 1 t = owns (c : Thread nD τ) (ms18_1 t) fullShare ((dat18 V c).after 1 t) from by
        unfold Dat.leavesExact; rw [liveAt18_1 t], after18_1]
      rw [show (dat18 V c).leavesExact 2 t = owns (c : Thread nD τ) (ms18_2 t) fullShare ((dat18 V c).after 2 t) from by
        unfold Dat.leavesExact; rw [liveAt18_2 t], after18_2]
      rw [show (dat18 V c).leavesExact 3 t = owns (c : Thread nD τ) (ms18_3 t) fullShare ((dat18 V c).after 3 t) from by
        unfold Dat.leavesExact; rw [liveAt18_3 t], after18_3]
      rw [show (dat18 V c).leavesExact 4 t = owns (c : Thread nD τ) (ms18_4 t) fullShare ((dat18 V c).after 4 t) from by
        unfold Dat.leavesExact; rw [liveAt18_4 t], after18_4]
      rw [Dat.leavesExact_idle (dat18 V c) 5 t (idleAt18_5_A t ((hcond18_0 t).mpr h0) (fun h => h1 ((hcond18_1 t).mp h))) (noFlush18_5_A t ((hcond18_0 t).mpr h0) (fun h => h1 ((hcond18_1 t).mp h)))]
      rw [outsAt18_A V c t h0 h1]
      unfold out14_A_3 out14_A_4 sout14_A_0; (try dsimp only)
      by_cases hz : t.val = 0
      · rw [PhiS18_castSucc V c t, PhiS18_zero V c _ _ hz, PhiA18_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid18.coords t) _ _ _ _ _ _ _ _ _ _ _ _ _ _ ((hcond18_0 t).mpr h0) (fun h => h1 ((hcond18_1 t).mp h)) (iblk18 V c 0 t) (iblk18 V c 1 t) (iblk18 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat18 V c).leavesExact 0 t = owns (c : Thread nD τ) (ms18_0 t) fullShare ((dat18 V c).after 0 t) from by
        unfold Dat.leavesExact; rw [liveAt18_0 t], after18_0]
      rw [show (dat18 V c).leavesExact 1 t = owns (c : Thread nD τ) (ms18_1 t) fullShare ((dat18 V c).after 1 t) from by
        unfold Dat.leavesExact; rw [liveAt18_1 t], after18_1]
      rw [show (dat18 V c).leavesExact 2 t = owns (c : Thread nD τ) (ms18_2 t) fullShare ((dat18 V c).after 2 t) from by
        unfold Dat.leavesExact; rw [liveAt18_2 t], after18_2]
      rw [show (dat18 V c).leavesExact 3 t = owns (c : Thread nD τ) (ms18_3 t) fullShare ((dat18 V c).after 3 t) from by
        unfold Dat.leavesExact; rw [liveAt18_3 t], after18_3]
      rw [show (dat18 V c).leavesExact 4 t = owns (c : Thread nD τ) (ms18_4 t) fullShare ((dat18 V c).after 4 t) from by
        unfold Dat.leavesExact; rw [liveAt18_4 t], after18_4]
      rw [show (dat18 V c).leavesExact 5 t = owns (c : Thread nD τ) (ms18_5 t) fullShare ((dat18 V c).after 5 t) from by
        unfold Dat.leavesExact; rw [liveAt18_5_C t (fun h => h0 ((hcond18_0 t).mp h)) ((hcond18_1 t).mpr h1)], after18_5]
      rw [outsAt18_C V c t h0 h1]
      unfold out14_C_3 out14_C_4 out14_C_5 sout14_C_0; (try dsimp only)
      by_cases hz : t.val = 0
      · exfalso; omega
      · rw [PhiS18_castSucc V c t, PhiS18_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid18.coords t) _ _ _ _ _ _ _ _ _ _ _ _ _ _ (fun h => h0 ((hcond18_0 t).mp h)) ((hcond18_1 t).mpr h1) (iblk18 V c 0 t) (iblk18 V c 1 t) (iblk18 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat18 V c).leavesExact 0 t = owns (c : Thread nD τ) (ms18_0 t) fullShare ((dat18 V c).after 0 t) from by
        unfold Dat.leavesExact; rw [liveAt18_0 t], after18_0]
      rw [show (dat18 V c).leavesExact 1 t = owns (c : Thread nD τ) (ms18_1 t) fullShare ((dat18 V c).after 1 t) from by
        unfold Dat.leavesExact; rw [liveAt18_1 t], after18_1]
      rw [show (dat18 V c).leavesExact 2 t = owns (c : Thread nD τ) (ms18_2 t) fullShare ((dat18 V c).after 2 t) from by
        unfold Dat.leavesExact; rw [liveAt18_2 t], after18_2]
      rw [show (dat18 V c).leavesExact 3 t = owns (c : Thread nD τ) (ms18_3 t) fullShare ((dat18 V c).after 3 t) from by
        unfold Dat.leavesExact; rw [liveAt18_3 t], after18_3]
      rw [show (dat18 V c).leavesExact 4 t = owns (c : Thread nD τ) (ms18_4 t) fullShare ((dat18 V c).after 4 t) from by
        unfold Dat.leavesExact; rw [liveAt18_4 t], after18_4]
      rw [Dat.leavesExact_idle (dat18 V c) 5 t (idleAt18_5_B t (fun h => h0 ((hcond18_0 t).mp h)) (fun h => h1 ((hcond18_1 t).mp h))) (noFlush18_5_B t (fun h => h0 ((hcond18_0 t).mp h)) (fun h => h1 ((hcond18_1 t).mp h)))]
      rw [outsAt18_B V c t h0 h1]
      unfold out14_B_3 out14_B_4 sout14_B_0; (try dsimp only)
      by_cases hz : t.val = 0
      · exfalso; omega
      · rw [PhiS18_castSucc V c t, PhiS18_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid18.coords t) _ _ _ _ _ _ _ _ _ _ _ _ _ _ (fun h => h0 ((hcond18_0 t).mp h)) (fun h => h1 ((hcond18_1 t).mp h)) (iblk18 V c 0 t) (iblk18 V c 1 t) (iblk18 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation18 (c : Dev nD) : BodyObligation (dat18 (F := F) V c) (defs₀ (F := F)) Variants.none () Set.univ := fun t => by
  rw [bigSep_W18, bigSep_W18]
  exact sound_body18 V c t

/-- What the launch hands the region is the invariant before the first point. -/
theorem hin18 (c : Dev nD) : Pipeline.ΦA spec18 c ⊢ (dat18 V c).Φ 0 := by
  rw [show (dat18 V c).Φ 0 = PhiS18 V c 0 (Nat.zero_le _) from rfl, PhiS18_zero V c 0 _ rfl]
  try exact Idealize.SL.BI.Entails.refl _

/-- After any point but the first the invariant gives it back: the scratch's named contents are forgotten. -/
theorem Phi_out18 (c : Dev nD) (t : Fin (cfg18.N + 1)) (ht : t.val ≠ 0) : (dat18 V c).Φ t ⊢ Pipeline.ΦA spec18 c := by
  rw [show (dat18 V c).Φ t = PhiS18 V c t.val (Nat.le_of_lt_succ t.isLt) from rfl, PhiS18_pos V c _ _ ht, PhiA18_eq]
  iintro ⟨⟨HS0, HR⟩, Hg⟩
  isplitl [HS0 HR]
  · isplitl [HS0]
    · iexists _; iexact HS0
    iexact HR
  iexact Hg

/-- The same after the last point. -/
theorem hout18 (c : Dev nD) : (dat18 V c).Φ (Fin.last cfg18.N) ⊢ Pipeline.ΦA spec18 c :=
  Phi_out18 V c _ (by rw [Fin.val_last]; have : cfg18.N = 25 := N_18; omega)

end Cert.Kernel.Hand

end
-- ==== Proof.KB.R19.lean ====
import proofs.«408084_j48395691492010_3_alg».proof.Proof.KB.R3

/-! Region 19: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- The row-tile window (window 0, fetched at every point) holds its block when the body runs. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

/-- The mean window (window 1, one constant block fetched at the first point only) holds that block at every point. -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-! ## The branch conditions and the idle points, over this region's grid (the same grid) -/

/-- The reset's condition holds at the first point only, -/
theorem hcond19_0 : ∀ t : Fin cfg19.N, cond3_0 (grid19.coords t) ↔ t.val = 0 := hcond3_0
/-- the final store's at the last point only. -/
theorem hcond19_1 : ∀ t : Fin cfg19.N, cond3_1 (grid19.coords t) ↔ t.val = 24 := hcond3_1

theorem liveAt19_0 : ∀ t : Fin cfg19.N, cfg19.idle 0 (grid19.coords t) = false := fun _ => rfl
theorem liveAt19_1 : ∀ t : Fin cfg19.N, cfg19.idle 1 (grid19.coords t) = false := fun _ => rfl
/-- Away from the last point the result window is idle, -/
theorem idleAt19_2 : ∀ t : Fin cfg19.N, ¬cond3_1 (grid19.coords t) → cfg19.idle 2 (grid19.coords t) = true := idleAt3_2
/-- and live at it. -/
theorem liveAt19_2 : ∀ t : Fin cfg19.N, cond3_1 (grid19.coords t) → cfg19.idle 2 (grid19.coords t) = false := liveAt3_2
/-- Away from the last point its block is not written back (the schedule's closed form). -/
theorem noFlush19_2 (t : Fin cfg19.N) (h : ¬cond3_1 (grid19.coords t)) : (cfg19.win 2).flush t = false := by
  have hN : t.val < 25 := lt_of_lt_of_eq t.isLt (show cfg19.N = 25 from N_19)
  have h24 : ¬t.val = 24 := fun e => h ((hcond19_1 t).mpr e)
  cases hf : (cfg19.win 2).flush t with
  | false => rfl
  | true => exact absurd (by have := (flush19_2 t).mp hf; omega) h24

/-! ## The memrefs the body is called with -/

noncomputable abbrev ms19_0 (t : Fin cfg19.N) : Memref sig .tc .vmem S2000x64 .f32 := win19_0.stage (cfg19.slots t 0)
abbrev hs19_0 (t : Fin cfg19.N) : (ms19_0 t).IsWhole := hstage19_0 ((cfg19.slots t 0).cast nbuf19_0)
noncomputable abbrev ms19_1 (t : Fin cfg19.N) : Memref sig .tc .vmem S1x64 .f32 := win19_1.stage (cfg19.slots t 1)
abbrev hs19_1 (t : Fin cfg19.N) : (ms19_1 t).IsWhole := hstage19_1 ((cfg19.slots t 1).cast nbuf19_1)
noncomputable abbrev ms19_2 (t : Fin cfg19.N) : Memref sig .tc .vmem S1x64 .f32 := win19_2.stage (cfg19.slots t 2)
abbrev hs19_2 (t : Fin cfg19.N) : (ms19_2 t).IsWhole := hstage19_2 ((cfg19.slots t 2).cast nbuf19_2)
/-- The accumulator: this call's own scratch buffer, whole. -/
noncomputable abbrev scM19_0 : Memref sig .tc .vmem S1x64 .f32 := Memref.whole cc19_scratch0

/-- The body the pipeline calls at point `t` is region 3's printed kernel on this region's memrefs: the two printed
    functions are the same term. -/
theorem bodyAt19_eq (t : Fin cfg19.N) :
    (bodyAt19 t : Prog (TpuEff nD τ sig (Elt F) Λ₀ .tc) PUnit)
      = cc3__var_kernel (grid19.coords t) (ms19_0 t) (hs19_0 t) (ms19_1 t) (hs19_1 t) (ms19_2 t) (hs19_2 t) scM19_0 (Memref.isWhole_whole _) := rfl

/-- The region-entry invariant with the accumulator split out of the scoped rest, as a memref owned at some contents. -/
theorem PhiA19_eq (c : Dev nD) :
    (Pipeline.ΦA spec19 c : sProp 𝕄)
      = iprop(iprop(iprop(∃ d, owns (c : Thread nD τ) scM19_0 fullShare d)
          ∗ Pipeline.scopedRestBut (Ix := Unit) (Name := ℕ) (U := UR sig nD τ) (Lvl := ℕ) (Val := Elt F) spec19 c [cc19_scratch0]) ∗ (∃ r, prngReg c r)) := by
  unfold Pipeline.ΦA; rw [scopedRest19_split]; simp only [scM19_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt19 (c : Dev nD) : (n : ℕ) → n < cfg19.N → Vec F S1x64 .f32 × Vec F S1x64 .f32
  | 0, hn => (idle3_2,
      sout3_A_0 c (grid19.coords ⟨0, hn⟩) (ms19_0 ⟨0, hn⟩) (hs19_0 ⟨0, hn⟩) (ms19_1 ⟨0, hn⟩) (hs19_1 ⟨0, hn⟩) (ms19_2 ⟨0, hn⟩) (hs19_2 ⟨0, hn⟩) scM19_0 (Memref.isWhole_whole _) ((hcond19_0 ⟨0, hn⟩).mpr rfl)
        (fun h => (fun h' : (0 : ℕ) = 24 => by omega) ((hcond19_1 ⟨0, hn⟩).mp h)) (iblk19 V c 0 ⟨0, hn⟩) (iblk19 V c 1 ⟨0, hn⟩))
  | n + 1, hn =>
    if h1 : n + 1 = 24 then
      (out3_C_2 c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19_0 (Memref.isWhole_whole _) (fun h => (fun h' : n + 1 = 0 => by omega) ((hcond19_0 ⟨n + 1, hn⟩).mp h))
          ((hcond19_1 ⟨n + 1, hn⟩).mpr h1) (iblk19 V c 0 ⟨n + 1, hn⟩) (iblk19 V c 1 ⟨n + 1, hn⟩) (outsAt19 c n (Nat.lt_of_succ_lt hn)).2,
       sout3_C_0 c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19_0 (Memref.isWhole_whole _) (fun h => (fun h' : n + 1 = 0 => by omega) ((hcond19_0 ⟨n + 1, hn⟩).mp h))
          ((hcond19_1 ⟨n + 1, hn⟩).mpr h1) (iblk19 V c 0 ⟨n + 1, hn⟩) (iblk19 V c 1 ⟨n + 1, hn⟩) (outsAt19 c n (Nat.lt_of_succ_lt hn)).2)
    else
      (idle3_2,
       sout3_B_0 c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19_0 (Memref.isWhole_whole _) (fun h => (fun h' : n + 1 = 0 => by omega) ((hcond19_0 ⟨n + 1, hn⟩).mp h))
          (fun h => h1 ((hcond19_1 ⟨n + 1, hn⟩).mp h)) (iblk19 V c 0 ⟨n + 1, hn⟩) (iblk19 V c 1 ⟨n + 1, hn⟩) (outsAt19 c n (Nat.lt_of_succ_lt hn)).2)

theorem outsAt19_A (c : Dev nD) (t : Fin cfg19.N) (h0 : t.val = 0) (h1 : ¬t.val = 24) :
    outsAt19 V c t.val t.isLt = (idle3_2,
      sout3_A_0 c (grid19.coords t) (ms19_0 t) (hs19_0 t) (ms19_1 t) (hs19_1 t) (ms19_2 t) (hs19_2 t) scM19_0 (Memref.isWhole_whole _) ((hcond19_0 t).mpr h0) (fun h => h1 ((hcond19_1 t).mp h)) (iblk19 V c 0 t) (iblk19 V c 1 t)) := by
  obtain ⟨n, hn⟩ := t
  cases n with
  | zero => exact rfl
  | succ n => exact absurd h0 (Nat.succ_ne_zero n)

theorem outsAt19_B (c : Dev nD) (t : Fin cfg19.N) (h0 : ¬t.val = 0) (h1 : ¬t.val = 24) :
    outsAt19 V c t.val t.isLt = (idle3_2,
      sout3_B_0 c (grid19.coords t) (ms19_0 t) (hs19_0 t) (ms19_1 t) (hs19_1 t) (ms19_2 t) (hs19_2 t) scM19_0 (Memref.isWhole_whole _) (fun h => h0 ((hcond19_0 t).mp h)) (fun h => h1 ((hcond19_1 t).mp h)) (iblk19 V c 0 t) (iblk19 V c 1 t)
        (outsAt19 V c (t.val - 1) (Nat.lt_of_le_of_lt (Nat.sub_le _ _) t.isLt)).2) := by
  obtain ⟨n, hn⟩ := t
  cases n with
  | zero => exact absurd rfl h0
  | succ n => exact (dif_neg h1).trans rfl

theorem outsAt19_C (c : Dev nD) (t : Fin cfg19.N) (h0 : ¬t.val = 0) (h1 : t.val = 24) :
    outsAt19 V c t.val t.isLt =
      (out3_C_2 c (grid19.coords t) (ms19_0 t) (hs19_0 t) (ms19_1 t) (hs19_1 t) (ms19_2 t) (hs19_2 t) scM19_0 (Memref.isWhole_whole _) (fun h => h0 ((hcond19_0 t).mp h)) ((hcond19_1 t).mpr h1) (iblk19 V c 0 t) (iblk19 V c 1 t)
        (outsAt19 V c (t.val - 1) (Nat.lt_of_le_of_lt (Nat.sub_le _ _) t.isLt)).2,
       sout3_C_0 c (grid19.coords t) (ms19_0 t) (hs19_0 t) (ms19_1 t) (hs19_1 t) (ms19_2 t) (hs19_2 t) scM19_0 (Memref.isWhole_whole _) (fun h => h0 ((hcond19_0 t).mp h)) ((hcond19_1 t).mpr h1) (iblk19 V c 0 t) (iblk19 V c 1 t)
        (outsAt19 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS19 (c : Dev nD) : (n : ℕ) → n ≤ cfg19.N → sProp 𝕄
  | 0, _ => Pipeline.ΦA spec19 c
  | n + 1, hn => iprop(iprop(owns (c : Thread nD τ) scM19_0 fullShare ((outsAt19 V c n hn).2)
      ∗ Pipeline.scopedRestBut (Ix := Unit) (Name := ℕ) (U := UR sig nD τ) (Lvl := ℕ) (Val := Elt F) spec19 c [cc19_scratch0]) ∗ (∃ r, prngReg c r))

theorem PhiS19_zero (c : Dev nD) (n : ℕ) (h : n ≤ cfg19.N) (hz : n = 0) : PhiS19 V c n h = Pipeline.ΦA spec19 c := by
  subst hz; rfl

theorem PhiS19_succ (c : Dev nD) (n : ℕ) (hn : n < cfg19.N) :
    PhiS19 V c (n + 1) hn = iprop(iprop(owns (c : Thread nD τ) scM19_0 fullShare ((outsAt19 V c n hn).2)
      ∗ Pipeline.scopedRestBut (Ix := Unit) (Name := ℕ) (U := UR sig nD τ) (Lvl := ℕ) (Val := Elt F) spec19 c [cc19_scratch0]) ∗ (∃ r, prngReg c r)) := rfl

theorem PhiS19_pos (c : Dev nD) (n : ℕ) (h : n ≤ cfg19.N) (hz : n ≠ 0) :
    PhiS19 V c n h = iprop(iprop(owns (c : Thread nD τ) scM19_0 fullShare ((outsAt19 V c (n - 1) (by omega)).2)
      ∗ Pipeline.scopedRestBut (Ix := Unit) (Name := ℕ) (U := UR sig nD τ) (Lvl := ℕ) (Val := Elt F) spec19 c [cc19_scratch0]) ∗ (∃ r, prngReg c r)) := by
  cases n with
  | zero => exact absurd rfl hz
  | succ n => rfl

/-! ## The proof data -/

noncomputable def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => (outsAt19 V c t.val t.isLt).1
  Φ t := PhiS19 V c t.val (Nat.le_of_lt_succ t.isLt)
  q _ := fullShare
  owed _ := 0

theorem A_eq19 (c : Dev nD) (w : Fin cfg19.W) : (dat19 V c).A w = V c (Pipeline.arrRef spec19 w) := by
  dsimp only [dat19]

theorem PhiS19_castSucc (c : Dev nD) (t : Fin cfg19.N) :
    (dat19 V c).Φ t.castSucc = PhiS19 V c t.val (Nat.le_of_lt t.isLt) := by
  dsimp only [dat19]; simp only [Fin.coe_castSucc]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = (outsAt19 V c t.val t.isLt).1 := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

/-! ## The body obligation -/

noncomputable def bodyPre19 (c : Dev nD) (t : Fin cfg19.N) : sProp 𝕄 :=
  iprop((dat19 V c).Φ t.castSucc ∗ (dat19 V c).owesAt () t.castSucc
    ∗ (∃ d, owns (c : Thread nD τ) (ms19_0 t) fullShare ((dat19 V c).before 0 t d))
    ∗ (∃ d, owns (c : Thread nD τ) (ms19_1 t) fullShare ((dat19 V c).before 1 t d))
    ∗ (∃ d, owns (c : Thread nD τ) (ms19_2 t) fullShare ((dat19 V c).before 2 t d)))

noncomputable def bodyPost19 (c : Dev nD) (t : Fin cfg19.N) : sProp 𝕄 :=
  iprop((dat19 V c).Φ t.succ ∗ (dat19 V c).owesAt () t.succ
    ∗ (dat19 V c).leavesExact 0 t
    ∗ (dat19 V c).leavesExact 1 t
    ∗ (dat19 V c).leavesExact 2 t)

set_option maxHeartbeats 4800000 in
/-- The body at any point, from region 3's triples on this region's memrefs. -/
theorem sound_body19 (c : Dev nD) (t : Fin cfg19.N) :
    bodyPre19 V c t ⊢ wp frame (wpE (defs₀ (F := F)) Variants.none c none) Set.univ (bodyAt19 t) (fun _ => bodyPost19 V c t) := by
  rw [bodyAt19_eq (F := F) t]
  unfold bodyPre19 bodyPost19
  simp only [before19_0, before19_1]
  rw [show (dat19 V c).owesAt () t.succ = (dat19 V c).owesAt () t.castSucc from rfl]
  rw [show (dat19 V c).Φ t.succ = PhiS19 V c (t.val + 1) t.isLt from rfl, PhiS19_succ]
  have hN : t.val < 25 := lt_of_lt_of_eq t.isLt (show cfg19.N = 25 from N_19)
  rw [show (dat19 V c).leavesExact 0 t = owns (c : Thread nD τ) (ms19_0 t) fullShare ((dat19 V c).after 0 t) from by
    unfold Dat.leavesExact; rw [liveAt19_0 t], after19_0]
  rw [show (dat19 V c).leavesExact 1 t = owns (c : Thread nD τ) (ms19_1 t) fullShare ((dat19 V c).after 1 t) from by
    unfold Dat.leavesExact; rw [liveAt19_1 t], after19_1]
  by_cases h0 : t.val = 0
  · have h1 : ¬t.val = 24 := by omega
    rw [Dat.leavesExact_idle (dat19 V c) 2 t (idleAt19_2 t (fun h => h1 ((hcond19_1 t).mp h))) (noFlush19_2 t (fun h => h1 ((hcond19_1 t).mp h)))]
    rw [outsAt19_A V c t h0 h1]
    unfold sout3_A_0; (try dsimp only)
    rw [PhiS19_castSucc V c t, PhiS19_zero V c _ _ h0, PhiA19_eq]
    iintro ⟨⟨⟨HS0, Hr⟩, Hg⟩, Ho, ⟨%d0, H0⟩, ⟨%d1, H1⟩, ⟨%d2, H2⟩⟩
    iapply ((kernelRun3_A c (grid19.coords t) _ _ _ _ _ _ _ _ ((hcond19_0 t).mpr h0) (fun h => h1 ((hcond19_1 t).mp h)) (iblk19 V c 0 t) (iblk19 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat19 V c).leavesExact 2 t = owns (c : Thread nD τ) (ms19_2 t) fullShare ((dat19 V c).after 2 t) from by
        unfold Dat.leavesExact; rw [liveAt19_2 t ((hcond19_1 t).mpr h1)], after19_2]
      rw [outsAt19_C V c t h0 h1]
      unfold out3_C_2 sout3_C_0; (try dsimp only)
      rw [PhiS19_castSucc V c t, PhiS19_pos V c _ _ h0]
      iintro ⟨⟨⟨HS0, Hr⟩, Hg⟩, Ho, ⟨%d0, H0⟩, ⟨%d1, H1⟩, ⟨%d2, H2⟩⟩
      iapply ((kernelRun3_C c (grid19.coords t) _ _ _ _ _ _ _ _ (fun h => h0 ((hcond19_0 t).mp h)) ((hcond19_1 t).mpr h1) (iblk19 V c 0 t) (iblk19 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat19 V c) 2 t (idleAt19_2 t (fun h => h1 ((hcond19_1 t).mp h))) (noFlush19_2 t (fun h => h1 ((hcond19_1 t).mp h)))]
      rw [outsAt19_B V c t h0 h1]
      unfold sout3_B_0; (try dsimp only)
      rw [PhiS19_castSucc V c t, PhiS19_pos V c _ _ h0]
      iintro ⟨⟨⟨HS0, Hr⟩, Hg⟩, Ho, ⟨%d0, H0⟩, ⟨%d1, H1⟩, ⟨%d2, H2⟩⟩
      iapply ((kernelRun3_B c (grid19.coords t) _ _ _ _ _ _ _ _ (fun h => h0 ((hcond19_0 t).mp h)) (fun h => h1 ((hcond19_1 t).mp h)) (iblk19 V c 0 t) (iblk19 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation19 (c : Dev nD) : BodyObligation (dat19 (F := F) V c) (defs₀ (F := F)) Variants.none () Set.univ := fun t => by
  rw [bigSep_W19, bigSep_W19]
  exact sound_body19 V c t

/-- What the launch hands the region is the invariant before the first point. -/
theorem hin19 (c : Dev nD) : Pipeline.ΦA spec19 c ⊢ (dat19 V c).Φ 0 := by
  rw [show (dat19 V c).Φ 0 = PhiS19 V c 0 (Nat.zero_le _) from rfl, PhiS19_zero V c 0 _ rfl]
  try exact Idealize.SL.BI.Entails.refl _

/-- After any point but the first the invariant gives the launch's back: the accumulator's named contents are forgotten. -/
theorem Phi_out19 (c : Dev nD) (t : Fin (cfg19.N + 1)) (ht : t.val ≠ 0) : (dat19 V c).Φ t ⊢ Pipeline.ΦA spec19 c := by
  rw [show (dat19 V c).Φ t = PhiS19 V c t.val (Nat.le_of_lt_succ t.isLt) from rfl, PhiS19_pos V c _ _ ht, PhiA19_eq]
  iintro ⟨⟨HS0, Hr⟩, Hg⟩
  isplitl [HS0 Hr]
  · isplitl [HS0]
    · iexists _; iexact HS0
    iexact Hr
  iexact Hg

/-- The same after the last point. -/
theorem hout19 (c : Dev nD) : (dat19 V c).Φ (Fin.last cfg19.N) ⊢ Pipeline.ΦA spec19 c :=
  Phi_out19 V c _ (by rw [Fin.val_last]; have : cfg19.N = 25 := N_19; omega)

end Cert.Kernel.Hand

end
-- ==== Proof.KB.R20.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Ring
import Idealize.ShloMosaic.Lib.Tactic

/-!
# Region 20: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region20
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- The activations' staging buffer holds the block of the current point at every point: the window is fetched at
    every point, is never cut and never idle, and the body leaves the block where it found it. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

/-- The mean row's staging buffer holds its (one) block at every point: it is fetched at the first point only, its
    block index never moves afterwards, and the body leaves it in place. -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-- The same of the variance row. -/
theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)

/-- The same of the scale row. -/
theorem before20_3_of {c : Dev nD} (dat : Dat τ (Elt F) Unit ℕ (UR sig nD τ) ℕ cfg20 c) (hA : dat.A 3 = V c (Pipeline.arrRef spec20 3))
    (hafter : ∀ t, dat.after 3 t = iblk20 V c 3 t) (t : Fin cfg20.N) (d) : dat.before 3 t d = iblk20 V c 3 t :=
  (dat.before_in_eq_fetched 3 rfl (fun _ => rfl) (fun _ _ _ => rfl) (fun t => by rw [hafter]; unfold Dat.blockOf iblk20; rw [hA]; try rfl) t d).trans
    (by unfold Dat.fetched Dat.blockOf iblk20; rw [hA]; try rfl)

/-- The same of the shift row. -/
theorem before20_4_of {c : Dev nD} (dat : Dat τ (Elt F) Unit ℕ (UR sig nD τ) ℕ cfg20 c) (hA : dat.A 4 = V c (Pipeline.arrRef spec20 4))
    (hafter : ∀ t, dat.after 4 t = iblk20 V c 4 t) (t : Fin cfg20.N) (d) : dat.before 4 t d = iblk20 V c 4 t :=
  (dat.before_in_eq_fetched 4 rfl (fun _ => rfl) (fun _ _ _ => rfl) (fun t => by rw [hafter]; unfold Dat.blockOf iblk20; rw [hA]; try rfl) t d).trans
    (by unfold Dat.fetched Dat.blockOf iblk20; rw [hA]; try rfl)

/-! ## The body's accesses: each buffer is read, and the output written, whole -/

/-- The whole of a block of 2000 rows. -/
noncomputable abbrev r20_0 : Rect S2000x64 := Rect.unit (s := S2000x64) ![0, 0] S2000x64.size inb_S2000x64_S2000x64_0_0
/-- The whole of a single row. -/
noncomputable abbrev r20_1 : Rect S1x64 := Rect.unit (s := S1x64) ![0, 0] S1x64.size inb_S1x64_S1x64_0_0

/-! ## What the body leaves in the output buffer -/

/-- The output buffer after the body, from the five input blocks: its one store, whose payload is the skeleton's. -/
noncomputable def out20_5 (x0 : Vec F S2000x64 .f32) (x1 : Vec F S1x64 .f32) (x2 : Vec F S1x64 .f32) (x3 : Vec F S1x64 .f32) (x4 : Vec F S1x64 .f32) :
    Vec F S2000x64 .f32 :=
  View.canon [⟨r20_0, k20_pay1 (View.ld x0 r20_0) (View.ld x1 r20_1) (View.ld x2 r20_1) (View.ld x3 r20_1) (View.ld x4 r20_1)⟩]

/-- The one store covers the buffer. -/
theorem cover20_5 (p0 : Vec F S2000x64 .f32) (y : S2000x64.Idx) :
    ∃ pc ∈ ([⟨r20_0, p0⟩] : List (View.Piece (Elt F) S2000x64 .f32)), y ∈ pc.1.set :=
  View.cover_of_tiled [⟨r20_0, p0⟩] S2000x64.size (by rfl) y

/-! ## The body's triple -/

set_option maxHeartbeats 1000000 in
/-- The body on whole staging buffers, the five inputs' at read contents x0 … x4 and the output's at anything, runs
    to a state in which the inputs' are as they were and the output's holds out20_5 of them. (The body also loads the
    output buffer before it stores to it; the loaded value is not used.) -/
theorem sound_kernel20 (c : Dev nD) (E : Set ℕ) (i : grid20.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out20_5 x0 x1 x2 x3 x4)) -∗ K ⟨⟩))
      ⊢ wp frame (wpE (defs₀ (F := F)) Variants.none c none) E (cc20__bn_softmax_kernel i arg1 harg1 arg2 harg2 arg3 harg3 arg4 harg4 arg5 harg5 arg6 harg6) K := by
  simp only [cc20__bn_softmax_kernel_eq_skeleton]; unfold cc20__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover20_5 _)

/-! ## The pipeline's proof data -/

/-- The proof data of the region's pipeline on core c: the arrays as the region finds them; after the body at point t
    each input's buffer at its block and the output's at out20_5 of the input blocks; the invariant that of a body which
    touches nothing but its windows; nothing owed; full shares. -/
noncomputable def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => iblk20 V c 3 t
    | ⟨4, _⟩ => iblk20 V c 4 t
    | ⟨5, _⟩ => out20_5 (iblk20 V c 0 t) (iblk20 V c 1 t) (iblk20 V c 2 t) (iblk20 V c 3 t) (iblk20 V c 4 t)
  Φ _ := Pipeline.ΦA spec20 c
  q _ := fullShare
  owed _ := 0

/-- The proof data's arrays are the region-entry contents. -/
theorem A_eq20 (c : Dev nD) (w : Fin cfg20.W) : (dat20 V c).A w = V c (Pipeline.arrRef spec20 w) := by
  dsimp only [dat20]

/-- What the body leaves, window by window. -/
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = iblk20 V c 3 t := by dsimp only [dat20]
theorem after20_4 (c : Dev nD) (t : Fin cfg20.N) : (dat20 V c).after 4 t = iblk20 V c 4 t := by dsimp only [dat20]
theorem after20_5 (c : Dev nD) (t : Fin cfg20.N) :
    (dat20 V c).after 5 t = out20_5 (iblk20 V c 0 t) (iblk20 V c 1 t) (iblk20 V c 2 t) (iblk20 V c 3 t) (iblk20 V c 4 t) := by dsimp only [dat20]

/-- Each input's current staging buffer holds its block at every point, fetched there or not. -/
theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d
theorem before20_3 (c : Dev nD) (t : Fin cfg20.N) (d) : (dat20 V c).before 3 t d = iblk20 V c 3 t :=
  before20_3_of V (dat20 V c) (A_eq20 V c 3) (after20_3 V c) t d
theorem before20_4 (c : Dev nD) (t : Fin cfg20.N) (d) : (dat20 V c).before 4 t d = iblk20 V c 4 t :=
  before20_4_of V (dat20 V c) (A_eq20 V c 4) (after20_4 V c) t d

/-! ## The body obligation, at a generic point -/

/-- What the body is called with at point t, the windows one by one, -/
noncomputable def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d))
    ∗ (∃ d, owns (c : Thread nD τ) (st20_4 t) fullShare ((dat20 V c).before 4 t d))
    ∗ (∃ d, owns (c : Thread nD τ) (st20_5 t) fullShare ((dat20 V c).before 5 t d)))

/-- and what it returns. -/
noncomputable def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t)
    ∗ owns (c : Thread nD τ) (st20_4 t) fullShare ((dat20 V c).after 4 t)
    ∗ owns (c : Thread nD τ) (st20_5 t) fullShare ((dat20 V c).after 5 t))

/-- The body at any point: the inputs' buffers hold their blocks, so the body's triple applies; the invariant and
    what the core owes pass through unread. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2, before20_3, before20_4]
  rw [show (dat20 V c).Φ t.succ = (dat20 V c).Φ t.castSucc from rfl,
    show (dat20 V c).owesAt () t.succ = (dat20 V c).owesAt () t.castSucc from rfl,
    after20_0, after20_1, after20_2, after20_3, after20_4, after20_5]
  iintro ⟨HΦ, Ho, ⟨%d0, H0⟩, ⟨%d1, H1⟩, ⟨%d2, H2⟩, ⟨%d3, H3⟩, ⟨%d4, H4⟩, ⟨%d5, H5⟩⟩
  iapply (sound_kernel20 c Set.univ (grid20.coords t) _ _ _ _ _ _ _ _ _ _ _ _
    (iblk20 V c 0 t) (iblk20 V c 1 t) (iblk20 V c 2 t) (iblk20 V c 3 t) (iblk20 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation20 (c : Dev nD) : BodyObligation (dat20 (F := F) V c) (defs₀ (F := F)) Variants.none () Set.univ := fun t => by
  rw [bigSep_W20, bigSep_W20]
  exact sound_body20 V c t

end Region20

end Cert.Kernel.Hand

end
-- ==== Proof.KB.R21.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.Regions
import Idealize.ShloMosaic.Lib.Tactic

/-! # Region 21: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region21
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- The rows of X: the staging buffer the body is handed holds the block of the point, whether the
    point fetched it or not (an unfetched input has not moved its block index). -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)

/-- The matrix W: fetched at the first point only, and found in place at every later one. -/
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

/-! ## The body's accesses: each buffer whole -/

noncomputable abbrev r21_0 : Rect S2000x64 := Rect.unit (s := S2000x64) ![0, 0] S2000x64.size inb_S2000x64_S2000x64_0_0
noncomputable abbrev r21_1 : Rect S64x64 := Rect.unit (s := S64x64) ![0, 0] S64x64.size inb_S64x64_S64x64_0_0
noncomputable abbrev r21_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out21_2 (x0 : Vec F S2000x64 .f32) (x1 : Vec F S64x64 .f32) : Vec F S2000x64 .f32 :=
  View.canon [⟨r21_2, k21_pay1 (View.ld x0 r21_0) (View.ld x1 r21_1)⟩]

/-- The store's rectangle is the whole buffer, so it covers every index. -/
theorem cover21_2 (p0 : Vec F S2000x64 .f32) (y : S2000x64.Idx) :
    ∃ pc ∈ ([⟨r21_2, p0⟩] : List (View.Piece (Elt F) S2000x64 .f32)), y ∈ pc.1.set :=
  View.cover_of_tiled [⟨r21_2, p0⟩] S2000x64.size (by rfl) y

/-! ## The body's triple -/

set_option maxHeartbeats 1000000 in
/-- On whole staging memrefs, the inputs' holding x0 and x1 and the output's holding anything, the body
    runs to a state where the inputs' are unchanged and the output's holds out21_2 x0 x1. The body also reads
    the output buffer before storing into it; the value read is not used. -/
theorem sound_kernel21 (c : Dev nD) (E : Set ℕ) (i : grid21.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out21_2 x0 x1)) -∗ K ⟨⟩))
      ⊢ wp frame (wpE (defs₀ (F := F)) Variants.none c none) E (cc21__linear_kernel i arg1 harg1 arg2 harg2 arg3 harg3) K := by
  simp only [cc21__linear_kernel_eq_skeleton]; unfold cc21__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover21_2 _)

/-! ## The pipeline's proof data -/

/-- The arrays as the region finds them; after the body at point t the inputs' buffers at their blocks
    and the output's at the product block; the invariant is the scoped rest and the generator register,
    untouched; nothing owed; full shares. -/
noncomputable def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => out21_2 (iblk21 V c 0 t) (iblk21 V c 1 t)
  Φ _ := Pipeline.ΦA spec21 c
  q _ := fullShare
  owed _ := 0

theorem A_eq21 (c : Dev nD) (w : Fin cfg21.W) : (dat21 V c).A w = V c (Pipeline.arrRef spec21 w) := by
  dsimp only [dat21]

theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = out21_2 (iblk21 V c 0 t) (iblk21 V c 1 t) := by dsimp only [dat21]

theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d

/-! ## The body obligation, at a generic point -/

/-- What the body is called with at point t, window by window, -/
noncomputable def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d)))

/-- and what it returns. -/
noncomputable def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t))

/-- The inputs' memrefs hold their blocks, so the body's triple applies; the invariant and what the core
    owes pass through unread. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1]
  rw [show (dat21 V c).Φ t.succ = (dat21 V c).Φ t.castSucc from rfl,
    show (dat21 V c).owesAt () t.succ = (dat21 V c).owesAt () t.castSucc from rfl,
    after21_0, after21_1, after21_2]
  iintro ⟨HΦ, Ho, ⟨%d0, H0⟩, ⟨%d1, H1⟩, ⟨%d2, H2⟩⟩
  iapply (sound_kernel21 c Set.univ (grid21.coords t) _ _ _ _ _ _ (iblk21 V c 0 t) (iblk21 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation21 (c : Dev nD) : BodyObligation (dat21 (F := F) V c) (defs₀ (F := F)) Variants.none () Set.univ := fun t => by
  rw [bigSep_W21, bigSep_W21]
  exact sound_body21 V c t

end Region21

end Cert.Kernel.Hand

end
-- ==== Proof.KB.R22.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.R14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The kernel is region 14's

The two regions' printed kernel functions are the same function of the grid coordinate and the memrefs (the same
text over the same shapes; the grids and the last-point conditions are the same literals), so region 14's runs of the
body, its covers and its per-case contents — all stated over abstract coordinates and memrefs — serve this region. -/

theorem cc22_kernel_eq : cc22_kernel (F := F) = cc14_kernel (F := F) := rfl

/-! ## The windows' blocks -/

/-- Window `w`'s block at point `t`, read off its array as the region finds it (`V`). -/
noncomputable def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- Input window 0's current staging buffer holds its block at every point, for any proof data whose array is
    `V`'s and whose body leaves the block in place: the window is uncut and never idle. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)

/-- Input window 1 likewise: fetched at the first point only, its block index never moves, so the buffer holds
    the block at every point. -/
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)

/-- Input window 2 likewise. -/
theorem before22_2_of {c : Dev nD} (dat : Dat τ (Elt F) Unit ℕ (UR sig nD τ) ℕ cfg22 c) (hA : dat.A 2 = V c (Pipeline.arrRef spec22 2))
    (hafter : ∀ t, dat.after 2 t = iblk22 V c 2 t) (t : Fin cfg22.N) (d) : dat.before 2 t d = iblk22 V c 2 t :=
  (dat.before_in_eq_fetched 2 rfl (fun _ => rfl) (fun _ _ _ => rfl) (fun t => by rw [hafter]; unfold Dat.blockOf iblk22; rw [hA]; try rfl) t d).trans
    (by unfold Dat.fetched Dat.blockOf iblk22; rw [hA]; try rfl)

/-! ## The body's two conditions on the grid coordinate -/

/-- It holds at the first point only. -/
theorem hcond22_0 : ∀ t : Fin cfg22.N, cond14_0 (grid22.coords t) ↔ t.val % 25 = 0 :=
  (by decide +kernel : ∀ t : Fin grid22.N, cond14_0 (grid22.coords t) ↔ t.val % 25 = 0)

/-- It holds at the last point only. -/
theorem hcond22_1 : ∀ t : Fin cfg22.N, cond14_1 (grid22.coords t) ↔ t.val % 25 = 24 :=
  (by decide +kernel : ∀ t : Fin grid22.N, cond14_1 (grid22.coords t) ↔ t.val % 25 = 24)

/-! ## Where the windows are idle -/

theorem liveAt22_0 : ∀ t : Fin cfg22.N, cfg22.idle 0 (grid22.coords t) = false := by decide +kernel
theorem liveAt22_1 : ∀ t : Fin cfg22.N, cfg22.idle 1 (grid22.coords t) = false := by decide +kernel
theorem liveAt22_2 : ∀ t : Fin cfg22.N, cfg22.idle 2 (grid22.coords t) = false := by decide +kernel
theorem liveAt22_3 : ∀ t : Fin cfg22.N, cfg22.idle 3 (grid22.coords t) = false := by decide +kernel
theorem liveAt22_4 : ∀ t : Fin cfg22.N, cfg22.idle 4 (grid22.coords t) = false := by decide +kernel
/-- At the first point the body stores nothing into output 5: the window is idle there and not written back. -/
theorem idleAt22_5_A : ∀ t : Fin cfg22.N, cond14_0 (grid22.coords t) → ¬cond14_1 (grid22.coords t) → cfg22.idle 5 (grid22.coords t) = true := by decide +kernel
theorem noFlush22_5_A : ∀ t : Fin cfg22.N, cond14_0 (grid22.coords t) → ¬cond14_1 (grid22.coords t) → (cfg22.win 5).flush t = false := by decide +kernel
/-- Nor at the middle points. -/
theorem idleAt22_5_B : ∀ t : Fin cfg22.N, ¬cond14_0 (grid22.coords t) → ¬cond14_1 (grid22.coords t) → cfg22.idle 5 (grid22.coords t) = true := by decide +kernel
theorem noFlush22_5_B : ∀ t : Fin cfg22.N, ¬cond14_0 (grid22.coords t) → ¬cond14_1 (grid22.coords t) → (cfg22.win 5).flush t = false := by decide +kernel
/-- At the last point it stores the accumulated sums there: the window is live. -/
theorem liveAt22_5_C : ∀ t : Fin cfg22.N, ¬cond14_0 (grid22.coords t) → cond14_1 (grid22.coords t) → cfg22.idle 5 (grid22.coords t) = false := by decide +kernel

/-! ## The memrefs the body is called with -/

/-- Each window's current staging memref at point `t`, as the pipeline passes it, and its wholeness. -/
noncomputable abbrev ms22_0 (t : Fin cfg22.N) : Memref sig .tc .vmem S2000x64 .f32 := win22_0.stage (cfg22.slots t 0)
abbrev hs22_0 (t : Fin cfg22.N) : (ms22_0 t).IsWhole := hstage22_0 ((cfg22.slots t 0).cast nbuf22_0)
noncomputable abbrev ms22_1 (t : Fin cfg22.N) : Memref sig .tc .vmem S1x64 .f32 := win22_1.stage (cfg22.slots t 1)
abbrev hs22_1 (t : Fin cfg22.N) : (ms22_1 t).IsWhole := hstage22_1 ((cfg22.slots t 1).cast nbuf22_1)
noncomputable abbrev ms22_2 (t : Fin cfg22.N) : Memref sig .tc .vmem S2000x64 .f32 := win22_2.stage (cfg22.slots t 2)
abbrev hs22_2 (t : Fin cfg22.N) : (ms22_2 t).IsWhole := hstage22_2 ((cfg22.slots t 2).cast nbuf22_2)
noncomputable abbrev ms22_3 (t : Fin cfg22.N) : Memref sig .tc .vmem S2000x64 .f32 := win22_3.stage (cfg22.slots t 3)
abbrev hs22_3 (t : Fin cfg22.N) : (ms22_3 t).IsWhole := hstage22_3 ((cfg22.slots t 3).cast nbuf22_3)
noncomputable abbrev ms22_4 (t : Fin cfg22.N) : Memref sig .tc .vmem S2000x64 .f32 := win22_4.stage (cfg22.slots t 4)
abbrev hs22_4 (t : Fin cfg22.N) : (ms22_4 t).IsWhole := hstage22_4 ((cfg22.slots t 4).cast nbuf22_4)
noncomputable abbrev ms22_5 (t : Fin cfg22.N) : Memref sig .tc .vmem S1x64 .f32 := win22_5.stage (cfg22.slots t 5)
abbrev hs22_5 (t : Fin cfg22.N) : (ms22_5 t).IsWhole := hstage22_5 ((cfg22.slots t 5).cast nbuf22_5)
/-- The scratch operand: a whole scoped buffer of the kernel's own, in which the column sums accumulate. -/
noncomputable abbrev scM22_0 : Memref sig .tc .vmem S1x64 .f32 := Memref.whole cc22_scratch0

/-- The other scoped buffers (every other call's staging buffers and scratch), unopened. -/
noncomputable abbrev restBut22 (c : Dev nD) : sProp 𝕄 :=
  Pipeline.scopedRestBut (Ix := Unit) (Name := ℕ) (U := UR sig nD τ) (Lvl := ℕ) (Val := Elt F) spec22 c [cc22_scratch0]

/-- The region's invariant as the launch hands it over, with the scratch operand split out as a memref owned at
    some contents: what the body obligation hands the run and takes back. -/
theorem PhiA22_eq (c : Dev nD) :
    (Pipeline.ΦA spec22 c : sProp 𝕄)
      = iprop(iprop(iprop((∃ d, owns (c : Thread nD τ) scM22_0 fullShare d)) ∗ restBut22 (F := F) c) ∗ (∃ r, prngReg c r)) := by
  unfold Pipeline.ΦA; rw [scopedRest22_split]; simp only [scM22_0, owns_whole]; try rfl

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt22 (c : Dev nD) : (n : ℕ) → n < cfg22.N → Vec F S2000x64 .f32 × Vec F S2000x64 .f32 × Vec F S1x64 .f32 × Vec F S1x64 .f32
  | 0, hn => (out14_A_3 c (grid22.coords ⟨0, hn⟩) (ms22_0 ⟨0, hn⟩) (hs22_0 ⟨0, hn⟩) (ms22_1 ⟨0, hn⟩) (hs22_1 ⟨0, hn⟩) (ms22_2 ⟨0, hn⟩) (hs22_2 ⟨0, hn⟩) (ms22_3 ⟨0, hn⟩) (hs22_3 ⟨0, hn⟩) (ms22_4 ⟨0, hn⟩) (hs22_4 ⟨0, hn⟩) (ms22_5 ⟨0, hn⟩) (hs22_5 ⟨0, hn⟩) scM22_0 (Memref.isWhole_whole _) ((hcond22_0 ⟨0, hn⟩).mpr (Nat.zero_mod _)) (fun h => (fun h => by (try dsimp only at h); omega) ((hcond22_1 ⟨0, hn⟩).mp h)) (iblk22 V c 0 ⟨0, hn⟩) (iblk22 V c 1 ⟨0, hn⟩) (iblk22 V c 2 ⟨0, hn⟩), out14_A_4 c (grid22.coords ⟨0, hn⟩) (ms22_0 ⟨0, hn⟩) (hs22_0 ⟨0, hn⟩) (ms22_1 ⟨0, hn⟩) (hs22_1 ⟨0, hn⟩) (ms22_2 ⟨0, hn⟩) (hs22_2 ⟨0, hn⟩) (ms22_3 ⟨0, hn⟩) (hs22_3 ⟨0, hn⟩) (ms22_4 ⟨0, hn⟩) (hs22_4 ⟨0, hn⟩) (ms22_5 ⟨0, hn⟩) (hs22_5 ⟨0, hn⟩) scM22_0 (Memref.isWhole_whole _) ((hcond22_0 ⟨0, hn⟩).mpr (Nat.zero_mod _)) (fun h => (fun h => by (try dsimp only at h); omega) ((hcond22_1 ⟨0, hn⟩).mp h)) (iblk22 V c 0 ⟨0, hn⟩) (iblk22 V c 1 ⟨0, hn⟩) (iblk22 V c 2 ⟨0, hn⟩), out14_A_5 c (grid22.coords ⟨0, hn⟩) (ms22_0 ⟨0, hn⟩) (hs22_0 ⟨0, hn⟩) (ms22_1 ⟨0, hn⟩) (hs22_1 ⟨0, hn⟩) (ms22_2 ⟨0, hn⟩) (hs22_2 ⟨0, hn⟩) (ms22_3 ⟨0, hn⟩) (hs22_3 ⟨0, hn⟩) (ms22_4 ⟨0, hn⟩) (hs22_4 ⟨0, hn⟩) (ms22_5 ⟨0, hn⟩) (hs22_5 ⟨0, hn⟩) scM22_0 (Memref.isWhole_whole _) ((hcond22_0 ⟨0, hn⟩).mpr (Nat.zero_mod _)) (fun h => (fun h => by (try dsimp only at h); omega) ((hcond22_1 ⟨0, hn⟩).mp h)) (iblk22 V c 0 ⟨0, hn⟩) (iblk22 V c 1 ⟨0, hn⟩) (iblk22 V c 2 ⟨0, hn⟩), sout14_A_0 c (grid22.coords ⟨0, hn⟩) (ms22_0 ⟨0, hn⟩) (hs22_0 ⟨0, hn⟩) (ms22_1 ⟨0, hn⟩) (hs22_1 ⟨0, hn⟩) (ms22_2 ⟨0, hn⟩) (hs22_2 ⟨0, hn⟩) (ms22_3 ⟨0, hn⟩) (hs22_3 ⟨0, hn⟩) (ms22_4 ⟨0, hn⟩) (hs22_4 ⟨0, hn⟩) (ms22_5 ⟨0, hn⟩) (hs22_5 ⟨0, hn⟩) scM22_0 (Memref.isWhole_whole _) ((hcond22_0 ⟨0, hn⟩).mpr (Nat.zero_mod _)) (fun h => (fun h => by (try dsimp only at h); omega) ((hcond22_1 ⟨0, hn⟩).mp h)) (iblk22 V c 0 ⟨0, hn⟩) (iblk22 V c 1 ⟨0, hn⟩) (iblk22 V c 2 ⟨0, hn⟩))
  | n + 1, hn =>
    if h0 : (n + 1) % 25 = 0 then
      if h1 : (n + 1) % 25 = 24 then
        False.elim (by omega)
      else
        (out14_A_3 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) ((hcond22_0 ⟨n + 1, hn⟩).mpr h0) (fun h => h1 ((hcond22_1 ⟨n + 1, hn⟩).mp h)) (iblk22 V c 0 ⟨n + 1, hn⟩) (iblk22 V c 1 ⟨n + 1, hn⟩) (iblk22 V c 2 ⟨n + 1, hn⟩), out14_A_4 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) ((hcond22_0 ⟨n + 1, hn⟩).mpr h0) (fun h => h1 ((hcond22_1 ⟨n + 1, hn⟩).mp h)) (iblk22 V c 0 ⟨n + 1, hn⟩) (iblk22 V c 1 ⟨n + 1, hn⟩) (iblk22 V c 2 ⟨n + 1, hn⟩), out14_A_5 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) ((hcond22_0 ⟨n + 1, hn⟩).mpr h0) (fun h => h1 ((hcond22_1 ⟨n + 1, hn⟩).mp h)) (iblk22 V c 0 ⟨n + 1, hn⟩) (iblk22 V c 1 ⟨n + 1, hn⟩) (iblk22 V c 2 ⟨n + 1, hn⟩), sout14_A_0 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) ((hcond22_0 ⟨n + 1, hn⟩).mpr h0) (fun h => h1 ((hcond22_1 ⟨n + 1, hn⟩).mp h)) (iblk22 V c 0 ⟨n + 1, hn⟩) (iblk22 V c 1 ⟨n + 1, hn⟩) (iblk22 V c 2 ⟨n + 1, hn⟩))
    else
      if h1 : (n + 1) % 25 = 24 then
        (out14_C_3 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) ((hcond22_1 ⟨n + 1, hn⟩).mpr h1) (iblk22 V c 0 ⟨n + 1, hn⟩) (iblk22 V c 1 ⟨n + 1, hn⟩) (iblk22 V c 2 ⟨n + 1, hn⟩) (outsAt22 c n (Nat.lt_of_succ_lt hn)).2.2.2, out14_C_4 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) ((hcond22_1 ⟨n + 1, hn⟩).mpr h1) (iblk22 V c 0 ⟨n + 1, hn⟩) (iblk22 V c 1 ⟨n + 1, hn⟩) (iblk22 V c 2 ⟨n + 1, hn⟩) (outsAt22 c n (Nat.lt_of_succ_lt hn)).2.2.2, out14_C_5 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) ((hcond22_1 ⟨n + 1, hn⟩).mpr h1) (iblk22 V c 0 ⟨n + 1, hn⟩) (iblk22 V c 1 ⟨n + 1, hn⟩) (iblk22 V c 2 ⟨n + 1, hn⟩) (outsAt22 c n (Nat.lt_of_succ_lt hn)).2.2.2, sout14_C_0 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) ((hcond22_1 ⟨n + 1, hn⟩).mpr h1) (iblk22 V c 0 ⟨n + 1, hn⟩) (iblk22 V c 1 ⟨n + 1, hn⟩) (iblk22 V c 2 ⟨n + 1, hn⟩) (outsAt22 c n (Nat.lt_of_succ_lt hn)).2.2.2)
      else
        (out14_B_3 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) (fun h => h1 ((hcond22_1 ⟨n + 1, hn⟩).mp h)) (iblk22 V c 0 ⟨n + 1, hn⟩) (iblk22 V c 1 ⟨n + 1, hn⟩) (iblk22 V c 2 ⟨n + 1, hn⟩) (outsAt22 c n (Nat.lt_of_succ_lt hn)).2.2.2, out14_B_4 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) (fun h => h1 ((hcond22_1 ⟨n + 1, hn⟩).mp h)) (iblk22 V c 0 ⟨n + 1, hn⟩) (iblk22 V c 1 ⟨n + 1, hn⟩) (iblk22 V c 2 ⟨n + 1, hn⟩) (outsAt22 c n (Nat.lt_of_succ_lt hn)).2.2.2, out14_B_5 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) (fun h => h1 ((hcond22_1 ⟨n + 1, hn⟩).mp h)) (iblk22 V c 0 ⟨n + 1, hn⟩) (iblk22 V c 1 ⟨n + 1, hn⟩) (iblk22 V c 2 ⟨n + 1, hn⟩) (outsAt22 c n (Nat.lt_of_succ_lt hn)).2.2.2, sout14_B_0 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) (fun h => h1 ((hcond22_1 ⟨n + 1, hn⟩).mp h)) (iblk22 V c 0 ⟨n + 1, hn⟩) (iblk22 V c 1 ⟨n + 1, hn⟩) (iblk22 V c 2 ⟨n + 1, hn⟩) (outsAt22 c n (Nat.lt_of_succ_lt hn)).2.2.2)

/-- `outsAt22` at the first point: case A's contents. -/
theorem outsAt22_A (c : Dev nD) (t : Fin cfg22.N) (h0 : t.val % 25 = 0) (h1 : ¬t.val % 25 = 24) :
    outsAt22 V c t.val t.isLt = (out14_A_3 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) ((hcond22_0 t).mpr h0) (fun h => h1 ((hcond22_1 t).mp h)) (iblk22 V c 0 t) (iblk22 V c 1 t) (iblk22 V c 2 t), out14_A_4 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) ((hcond22_0 t).mpr h0) (fun h => h1 ((hcond22_1 t).mp h)) (iblk22 V c 0 t) (iblk22 V c 1 t) (iblk22 V c 2 t), out14_A_5 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) ((hcond22_0 t).mpr h0) (fun h => h1 ((hcond22_1 t).mp h)) (iblk22 V c 0 t) (iblk22 V c 1 t) (iblk22 V c 2 t), sout14_A_0 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) ((hcond22_0 t).mpr h0) (fun h => h1 ((hcond22_1 t).mp h)) (iblk22 V c 0 t) (iblk22 V c 1 t) (iblk22 V c 2 t)) := by
  obtain ⟨n, hn⟩ := t
  cases n with
  | zero => exact rfl
  | succ n => exact (dif_pos h0).trans ((dif_neg h1).trans rfl)

/-- `outsAt22` at a middle point: case B's contents, over what the point before left in the scratch. -/
theorem outsAt22_B (c : Dev nD) (t : Fin cfg22.N) (h0 : ¬t.val % 25 = 0) (h1 : ¬t.val % 25 = 24) :
    outsAt22 V c t.val t.isLt = (out14_B_3 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) (fun h => h1 ((hcond22_1 t).mp h)) (iblk22 V c 0 t) (iblk22 V c 1 t) (iblk22 V c 2 t) (outsAt22 V c (t.val - 1) (Nat.lt_of_le_of_lt (Nat.sub_le _ _) t.isLt)).2.2.2, out14_B_4 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) (fun h => h1 ((hcond22_1 t).mp h)) (iblk22 V c 0 t) (iblk22 V c 1 t) (iblk22 V c 2 t) (outsAt22 V c (t.val - 1) (Nat.lt_of_le_of_lt (Nat.sub_le _ _) t.isLt)).2.2.2, out14_B_5 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) (fun h => h1 ((hcond22_1 t).mp h)) (iblk22 V c 0 t) (iblk22 V c 1 t) (iblk22 V c 2 t) (outsAt22 V c (t.val - 1) (Nat.lt_of_le_of_lt (Nat.sub_le _ _) t.isLt)).2.2.2, sout14_B_0 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) (fun h => h1 ((hcond22_1 t).mp h)) (iblk22 V c 0 t) (iblk22 V c 1 t) (iblk22 V c 2 t) (outsAt22 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt22` at the last point: case C's contents, over what the point before left in the scratch. -/
theorem outsAt22_C (c : Dev nD) (t : Fin cfg22.N) (h0 : ¬t.val % 25 = 0) (h1 : t.val % 25 = 24) :
    outsAt22 V c t.val t.isLt = (out14_C_3 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) ((hcond22_1 t).mpr h1) (iblk22 V c 0 t) (iblk22 V c 1 t) (iblk22 V c 2 t) (outsAt22 V c (t.val - 1) (Nat.lt_of_le_of_lt (Nat.sub_le _ _) t.isLt)).2.2.2, out14_C_4 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) ((hcond22_1 t).mpr h1) (iblk22 V c 0 t) (iblk22 V c 1 t) (iblk22 V c 2 t) (outsAt22 V c (t.val - 1) (Nat.lt_of_le_of_lt (Nat.sub_le _ _) t.isLt)).2.2.2, out14_C_5 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) ((hcond22_1 t).mpr h1) (iblk22 V c 0 t) (iblk22 V c 1 t) (iblk22 V c 2 t) (outsAt22 V c (t.val - 1) (Nat.lt_of_le_of_lt (Nat.sub_le _ _) t.isLt)).2.2.2, sout14_C_0 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) ((hcond22_1 t).mpr h1) (iblk22 V c 0 t) (iblk22 V c 1 t) (iblk22 V c 2 t) (outsAt22 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt22`'s last component), the other
    scoped buffers unopened and the generator register at some state. -/
noncomputable def PhiS22 (c : Dev nD) : (n : ℕ) → n ≤ cfg22.N → sProp 𝕄
  | 0, _ => Pipeline.ΦA spec22 c
  | n + 1, hn => iprop(iprop(iprop(owns (c : Thread nD τ) scM22_0 fullShare ((outsAt22 V c n hn).2.2.2)) ∗ restBut22 (F := F) c) ∗ (∃ r, prngReg c r))

theorem PhiS22_zero (c : Dev nD) (n : ℕ) (h : n ≤ cfg22.N) (hz : n = 0) : PhiS22 V c n h = Pipeline.ΦA spec22 c := by
  subst hz; rfl

/-- After point `n` (before point `n + 1`): the scratch at that point's contents. -/
theorem PhiS22_succ (c : Dev nD) (n : ℕ) (hn : n < cfg22.N) :
    PhiS22 V c (n + 1) hn = iprop(iprop(iprop(owns (c : Thread nD τ) scM22_0 fullShare ((outsAt22 V c n hn).2.2.2)) ∗ restBut22 (F := F) c) ∗ (∃ r, prngReg c r)) := rfl

/-- Before a point that is not the first: the scratch at what the point before left. -/
theorem PhiS22_pos (c : Dev nD) (n : ℕ) (h : n ≤ cfg22.N) (hz : n ≠ 0) :
    PhiS22 V c n h = iprop(iprop(iprop(owns (c : Thread nD τ) scM22_0 fullShare ((outsAt22 V c (n - 1) (by omega)).2.2.2)) ∗ restBut22 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt22`; the invariant `PhiS22`; nothing owed;
    full shares. -/
noncomputable def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => (outsAt22 V c t.val t.isLt).1
    | ⟨4, _⟩ => (outsAt22 V c t.val t.isLt).2.1
    | ⟨5, _⟩ => (outsAt22 V c t.val t.isLt).2.2.1
  Φ t := PhiS22 V c t.val (Nat.le_of_lt_succ t.isLt)
  q _ := fullShare
  owed _ := 0

/-- The proof data's arrays are the region-entry contents. -/
theorem A_eq22 (c : Dev nD) (w : Fin cfg22.W) : (dat22 V c).A w = V c (Pipeline.arrRef spec22 w) := by
  dsimp only [dat22]

/-- The invariant at a point's start, restated at `t.val`. -/
theorem PhiS22_castSucc (c : Dev nD) (t : Fin cfg22.N) :
    (dat22 V c).Φ t.castSucc = PhiS22 V c t.val (Nat.le_of_lt t.isLt) := by
  dsimp only [dat22]; simp only [Fin.coe_castSucc]

/-- What the body leaves, window by window. -/
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = (outsAt22 V c t.val t.isLt).1 := by dsimp only [dat22]
theorem after22_4 (c : Dev nD) (t : Fin cfg22.N) : (dat22 V c).after 4 t = (outsAt22 V c t.val t.isLt).2.1 := by dsimp only [dat22]
theorem after22_5 (c : Dev nD) (t : Fin cfg22.N) : (dat22 V c).after 5 t = (outsAt22 V c t.val t.isLt).2.2.1 := by dsimp only [dat22]

/-- Each input's current staging buffer holds its block at every point, fetched there or not. -/
theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d
theorem before22_2 (c : Dev nD) (t : Fin cfg22.N) (d) : (dat22 V c).before 2 t d = iblk22 V c 2 t :=
  before22_2_of V (dat22 V c) (A_eq22 V c 2) (after22_2 V c) t d

/-! ## The body obligation, at a generic point -/

/-- What the body is called with at point `t` (the windows one by one), -/
noncomputable def bodyPre22 (c : Dev nD) (t : Fin cfg22.N) : sProp 𝕄 :=
  iprop((dat22 V c).Φ t.castSucc ∗ (dat22 V c).owesAt () t.castSucc
    ∗ (∃ d, owns (c : Thread nD τ) (ms22_0 t) fullShare ((dat22 V c).before 0 t d))
    ∗ (∃ d, owns (c : Thread nD τ) (ms22_1 t) fullShare ((dat22 V c).before 1 t d))
    ∗ (∃ d, owns (c : Thread nD τ) (ms22_2 t) fullShare ((dat22 V c).before 2 t d))
    ∗ (∃ d, owns (c : Thread nD τ) (ms22_3 t) fullShare ((dat22 V c).before 3 t d))
    ∗ (∃ d, owns (c : Thread nD τ) (ms22_4 t) fullShare ((dat22 V c).before 4 t d))
    ∗ (∃ d, owns (c : Thread nD τ) (ms22_5 t) fullShare ((dat22 V c).before 5 t d)))

/-- and what it returns. -/
noncomputable def bodyPost22 (c : Dev nD) (t : Fin cfg22.N) : sProp 𝕄 :=
  iprop((dat22 V c).Φ t.succ ∗ (dat22 V c).owesAt () t.succ
    ∗ (dat22 V c).leavesExact 0 t
    ∗ (dat22 V c).leavesExact 1 t
    ∗ (dat22 V c).leavesExact 2 t
    ∗ (dat22 V c).leavesExact 3 t
    ∗ (dat22 V c).leavesExact 4 t
    ∗ (dat22 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  rw [cc22_kernel_eq]
  simp only [before22_0, before22_1, before22_2]
  rw [show (dat22 V c).owesAt () t.succ = (dat22 V c).owesAt () t.castSucc from rfl]
  rw [show (dat22 V c).Φ t.succ = PhiS22 V c (t.val + 1) t.isLt from rfl, PhiS22_succ]
  have hN : t.val < 25 := lt_of_lt_of_eq t.isLt (show cfg22.N = 25 from N_22)
  by_cases h0 : t.val % 25 = 0
  · by_cases h1 : t.val % 25 = 24
    · exfalso; omega
    · rw [show (dat22 V c).leavesExact 0 t = owns (c : Thread nD τ) (ms22_0 t) fullShare ((dat22 V c).after 0 t) from by
        unfold Dat.leavesExact; rw [liveAt22_0 t], after22_0]
      rw [show (dat22 V c).leavesExact 1 t = owns (c : Thread nD τ) (ms22_1 t) fullShare ((dat22 V c).after 1 t) from by
        unfold Dat.leavesExact; rw [liveAt22_1 t], after22_1]
      rw [show (dat22 V c).leavesExact 2 t = owns (c : Thread nD τ) (ms22_2 t) fullShare ((dat22 V c).after 2 t) from by
        unfold Dat.leavesExact; rw [liveAt22_2 t], after22_2]
      rw [show (dat22 V c).leavesExact 3 t = owns (c : Thread nD τ) (ms22_3 t) fullShare ((dat22 V c).after 3 t) from by
        unfold Dat.leavesExact; rw [liveAt22_3 t], after22_3]
      rw [show (dat22 V c).leavesExact 4 t = owns (c : Thread nD τ) (ms22_4 t) fullShare ((dat22 V c).after 4 t) from by
        unfold Dat.leavesExact; rw [liveAt22_4 t], after22_4]
      rw [Dat.leavesExact_idle (dat22 V c) 5 t (idleAt22_5_A t ((hcond22_0 t).mpr h0) (fun h => h1 ((hcond22_1 t).mp h))) (noFlush22_5_A t ((hcond22_0 t).mpr h0) (fun h => h1 ((hcond22_1 t).mp h)))]
      rw [outsAt22_A V c t h0 h1]
      unfold out14_A_3 out14_A_4 sout14_A_0; (try dsimp only)
      by_cases hz : t.val = 0
      · rw [PhiS22_castSucc V c t, PhiS22_zero V c _ _ hz, PhiA22_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid22.coords t) _ _ _ _ _ _ _ _ _ _ _ _ _ _ ((hcond22_0 t).mpr h0) (fun h => h1 ((hcond22_1 t).mp h)) (iblk22 V c 0 t) (iblk22 V c 1 t) (iblk22 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat22 V c).leavesExact 0 t = owns (c : Thread nD τ) (ms22_0 t) fullShare ((dat22 V c).after 0 t) from by
        unfold Dat.leavesExact; rw [liveAt22_0 t], after22_0]
      rw [show (dat22 V c).leavesExact 1 t = owns (c : Thread nD τ) (ms22_1 t) fullShare ((dat22 V c).after 1 t) from by
        unfold Dat.leavesExact; rw [liveAt22_1 t], after22_1]
      rw [show (dat22 V c).leavesExact 2 t = owns (c : Thread nD τ) (ms22_2 t) fullShare ((dat22 V c).after 2 t) from by
        unfold Dat.leavesExact; rw [liveAt22_2 t], after22_2]
      rw [show (dat22 V c).leavesExact 3 t = owns (c : Thread nD τ) (ms22_3 t) fullShare ((dat22 V c).after 3 t) from by
        unfold Dat.leavesExact; rw [liveAt22_3 t], after22_3]
      rw [show (dat22 V c).leavesExact 4 t = owns (c : Thread nD τ) (ms22_4 t) fullShare ((dat22 V c).after 4 t) from by
        unfold Dat.leavesExact; rw [liveAt22_4 t], after22_4]
      rw [show (dat22 V c).leavesExact 5 t = owns (c : Thread nD τ) (ms22_5 t) fullShare ((dat22 V c).after 5 t) from by
        unfold Dat.leavesExact; rw [liveAt22_5_C t (fun h => h0 ((hcond22_0 t).mp h)) ((hcond22_1 t).mpr h1)], after22_5]
      rw [outsAt22_C V c t h0 h1]
      unfold out14_C_3 out14_C_4 out14_C_5 sout14_C_0; (try dsimp only)
      by_cases hz : t.val = 0
      · exfalso; omega
      · rw [PhiS22_castSucc V c t, PhiS22_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid22.coords t) _ _ _ _ _ _ _ _ _ _ _ _ _ _ (fun h => h0 ((hcond22_0 t).mp h)) ((hcond22_1 t).mpr h1) (iblk22 V c 0 t) (iblk22 V c 1 t) (iblk22 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat22 V c).leavesExact 0 t = owns (c : Thread nD τ) (ms22_0 t) fullShare ((dat22 V c).after 0 t) from by
        unfold Dat.leavesExact; rw [liveAt22_0 t], after22_0]
      rw [show (dat22 V c).leavesExact 1 t = owns (c : Thread nD τ) (ms22_1 t) fullShare ((dat22 V c).after 1 t) from by
        unfold Dat.leavesExact; rw [liveAt22_1 t], after22_1]
      rw [show (dat22 V c).leavesExact 2 t = owns (c : Thread nD τ) (ms22_2 t) fullShare ((dat22 V c).after 2 t) from by
        unfold Dat.leavesExact; rw [liveAt22_2 t], after22_2]
      rw [show (dat22 V c).leavesExact 3 t = owns (c : Thread nD τ) (ms22_3 t) fullShare ((dat22 V c).after 3 t) from by
        unfold Dat.leavesExact; rw [liveAt22_3 t], after22_3]
      rw [show (dat22 V c).leavesExact 4 t = owns (c : Thread nD τ) (ms22_4 t) fullShare ((dat22 V c).after 4 t) from by
        unfold Dat.leavesExact; rw [liveAt22_4 t], after22_4]
      rw [Dat.leavesExact_idle (dat22 V c) 5 t (idleAt22_5_B t (fun h => h0 ((hcond22_0 t).mp h)) (fun h => h1 ((hcond22_1 t).mp h))) (noFlush22_5_B t (fun h => h0 ((hcond22_0 t).mp h)) (fun h => h1 ((hcond22_1 t).mp h)))]
      rw [outsAt22_B V c t h0 h1]
      unfold out14_B_3 out14_B_4 sout14_B_0; (try dsimp only)
      by_cases hz : t.val = 0
      · exfalso; omega
      · rw [PhiS22_castSucc V c t, PhiS22_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid22.coords t) _ _ _ _ _ _ _ _ _ _ _ _ _ _ (fun h => h0 ((hcond22_0 t).mp h)) (fun h => h1 ((hcond22_1 t).mp h)) (iblk22 V c 0 t) (iblk22 V c 1 t) (iblk22 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation22 (c : Dev nD) : BodyObligation (dat22 (F := F) V c) (defs₀ (F := F)) Variants.none () Set.univ := fun t => by
  rw [bigSep_W22, bigSep_W22]
  exact sound_body22 V c t

/-- What the launch hands the region is the invariant before the first point. -/
theorem hin22 (c : Dev nD) : Pipeline.ΦA spec22 c ⊢ (dat22 V c).Φ 0 := by
  rw [show (dat22 V c).Φ 0 = PhiS22 V c 0 (Nat.zero_le _) from rfl, PhiS22_zero V c 0 _ rfl]
  try exact Idealize.SL.BI.Entails.refl _

/-- After any point but the first the invariant gives it back: the scratch's named contents are forgotten. -/
theorem Phi_out22 (c : Dev nD) (t : Fin (cfg22.N + 1)) (ht : t.val ≠ 0) : (dat22 V c).Φ t ⊢ Pipeline.ΦA spec22 c := by
  rw [show (dat22 V c).Φ t = PhiS22 V c t.val (Nat.le_of_lt_succ t.isLt) from rfl, PhiS22_pos V c _ _ ht, PhiA22_eq]
  iintro ⟨⟨HS0, HR⟩, Hg⟩
  isplitl [HS0 HR]
  · isplitl [HS0]
    · iexists _; iexact HS0
    iexact HR
  iexact Hg

/-- The same after the last point. -/
theorem hout22 (c : Dev nD) : (dat22 V c).Φ (Fin.last cfg22.N) ⊢ Pipeline.ΦA spec22 c :=
  Phi_out22 V c _ (by rw [Fin.val_last]; have : cfg22.N = 25 := N_22; omega)

end Cert.Kernel.Hand

end
-- ==== Proof.KB.R23.lean ====
import proofs.«408084_j48395691492010_3_alg».proof.Proof.KB.R3

/-! Region 23: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- The row-tile window (window 0, fetched at every point) holds its block when the body runs. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)

/-- The mean window (window 1, one constant block fetched at the first point only) holds that block at every point. -/
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)

/-! ## The branch conditions and the idle points, over this region's grid (the same grid) -/

/-- The reset's condition holds at the first point only, -/
theorem hcond23_0 : ∀ t : Fin cfg23.N, cond3_0 (grid23.coords t) ↔ t.val = 0 := hcond3_0
/-- the final store's at the last point only. -/
theorem hcond23_1 : ∀ t : Fin cfg23.N, cond3_1 (grid23.coords t) ↔ t.val = 24 := hcond3_1

theorem liveAt23_0 : ∀ t : Fin cfg23.N, cfg23.idle 0 (grid23.coords t) = false := fun _ => rfl
theorem liveAt23_1 : ∀ t : Fin cfg23.N, cfg23.idle 1 (grid23.coords t) = false := fun _ => rfl
/-- Away from the last point the result window is idle, -/
theorem idleAt23_2 : ∀ t : Fin cfg23.N, ¬cond3_1 (grid23.coords t) → cfg23.idle 2 (grid23.coords t) = true := idleAt3_2
/-- and live at it. -/
theorem liveAt23_2 : ∀ t : Fin cfg23.N, cond3_1 (grid23.coords t) → cfg23.idle 2 (grid23.coords t) = false := liveAt3_2
/-- Away from the last point its block is not written back (the schedule's closed form). -/
theorem noFlush23_2 (t : Fin cfg23.N) (h : ¬cond3_1 (grid23.coords t)) : (cfg23.win 2).flush t = false := by
  have hN : t.val < 25 := lt_of_lt_of_eq t.isLt (show cfg23.N = 25 from N_23)
  have h24 : ¬t.val = 24 := fun e => h ((hcond23_1 t).mpr e)
  cases hf : (cfg23.win 2).flush t with
  | false => rfl
  | true => exact absurd (by have := (flush23_2 t).mp hf; omega) h24

/-! ## The memrefs the body is called with -/

noncomputable abbrev ms23_0 (t : Fin cfg23.N) : Memref sig .tc .vmem S2000x64 .f32 := win23_0.stage (cfg23.slots t 0)
abbrev hs23_0 (t : Fin cfg23.N) : (ms23_0 t).IsWhole := hstage23_0 ((cfg23.slots t 0).cast nbuf23_0)
noncomputable abbrev ms23_1 (t : Fin cfg23.N) : Memref sig .tc .vmem S1x64 .f32 := win23_1.stage (cfg23.slots t 1)
abbrev hs23_1 (t : Fin cfg23.N) : (ms23_1 t).IsWhole := hstage23_1 ((cfg23.slots t 1).cast nbuf23_1)
noncomputable abbrev ms23_2 (t : Fin cfg23.N) : Memref sig .tc .vmem S1x64 .f32 := win23_2.stage (cfg23.slots t 2)
abbrev hs23_2 (t : Fin cfg23.N) : (ms23_2 t).IsWhole := hstage23_2 ((cfg23.slots t 2).cast nbuf23_2)
/-- The accumulator: this call's own scratch buffer, whole. -/
noncomputable abbrev scM23_0 : Memref sig .tc .vmem S1x64 .f32 := Memref.whole cc23_scratch0

/-- The body the pipeline calls at point `t` is region 3's printed kernel on this region's memrefs: the two printed
    functions are the same term. -/
theorem bodyAt23_eq (t : Fin cfg23.N) :
    (bodyAt23 t : Prog (TpuEff nD τ sig (Elt F) Λ₀ .tc) PUnit)
      = cc3__var_kernel (grid23.coords t) (ms23_0 t) (hs23_0 t) (ms23_1 t) (hs23_1 t) (ms23_2 t) (hs23_2 t) scM23_0 (Memref.isWhole_whole _) := rfl

/-- The region-entry invariant with the accumulator split out of the scoped rest, as a memref owned at some contents. -/
theorem PhiA23_eq (c : Dev nD) :
    (Pipeline.ΦA spec23 c : sProp 𝕄)
      = iprop(iprop(iprop(∃ d, owns (c : Thread nD τ) scM23_0 fullShare d)
          ∗ Pipeline.scopedRestBut (Ix := Unit) (Name := ℕ) (U := UR sig nD τ) (Lvl := ℕ) (Val := Elt F) spec23 c [cc23_scratch0]) ∗ (∃ r, prngReg c r)) := by
  unfold Pipeline.ΦA; rw [scopedRest23_split]; simp only [scM23_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt23 (c : Dev nD) : (n : ℕ) → n < cfg23.N → Vec F S1x64 .f32 × Vec F S1x64 .f32
  | 0, hn => (idle3_2,
      sout3_A_0 c (grid23.coords ⟨0, hn⟩) (ms23_0 ⟨0, hn⟩) (hs23_0 ⟨0, hn⟩) (ms23_1 ⟨0, hn⟩) (hs23_1 ⟨0, hn⟩) (ms23_2 ⟨0, hn⟩) (hs23_2 ⟨0, hn⟩) scM23_0 (Memref.isWhole_whole _) ((hcond23_0 ⟨0, hn⟩).mpr rfl)
        (fun h => (fun h' : (0 : ℕ) = 24 => by omega) ((hcond23_1 ⟨0, hn⟩).mp h)) (iblk23 V c 0 ⟨0, hn⟩) (iblk23 V c 1 ⟨0, hn⟩))
  | n + 1, hn =>
    if h1 : n + 1 = 24 then
      (out3_C_2 c (grid23.coords ⟨n + 1, hn⟩) (ms23_0 ⟨n + 1, hn⟩) (hs23_0 ⟨n + 1, hn⟩) (ms23_1 ⟨n + 1, hn⟩) (hs23_1 ⟨n + 1, hn⟩) (ms23_2 ⟨n + 1, hn⟩) (hs23_2 ⟨n + 1, hn⟩) scM23_0 (Memref.isWhole_whole _) (fun h => (fun h' : n + 1 = 0 => by omega) ((hcond23_0 ⟨n + 1, hn⟩).mp h))
          ((hcond23_1 ⟨n + 1, hn⟩).mpr h1) (iblk23 V c 0 ⟨n + 1, hn⟩) (iblk23 V c 1 ⟨n + 1, hn⟩) (outsAt23 c n (Nat.lt_of_succ_lt hn)).2,
       sout3_C_0 c (grid23.coords ⟨n + 1, hn⟩) (ms23_0 ⟨n + 1, hn⟩) (hs23_0 ⟨n + 1, hn⟩) (ms23_1 ⟨n + 1, hn⟩) (hs23_1 ⟨n + 1, hn⟩) (ms23_2 ⟨n + 1, hn⟩) (hs23_2 ⟨n + 1, hn⟩) scM23_0 (Memref.isWhole_whole _) (fun h => (fun h' : n + 1 = 0 => by omega) ((hcond23_0 ⟨n + 1, hn⟩).mp h))
          ((hcond23_1 ⟨n + 1, hn⟩).mpr h1) (iblk23 V c 0 ⟨n + 1, hn⟩) (iblk23 V c 1 ⟨n + 1, hn⟩) (outsAt23 c n (Nat.lt_of_succ_lt hn)).2)
    else
      (idle3_2,
       sout3_B_0 c (grid23.coords ⟨n + 1, hn⟩) (ms23_0 ⟨n + 1, hn⟩) (hs23_0 ⟨n + 1, hn⟩) (ms23_1 ⟨n + 1, hn⟩) (hs23_1 ⟨n + 1, hn⟩) (ms23_2 ⟨n + 1, hn⟩) (hs23_2 ⟨n + 1, hn⟩) scM23_0 (Memref.isWhole_whole _) (fun h => (fun h' : n + 1 = 0 => by omega) ((hcond23_0 ⟨n + 1, hn⟩).mp h))
          (fun h => h1 ((hcond23_1 ⟨n + 1, hn⟩).mp h)) (iblk23 V c 0 ⟨n + 1, hn⟩) (iblk23 V c 1 ⟨n + 1, hn⟩) (outsAt23 c n (Nat.lt_of_succ_lt hn)).2)

theorem outsAt23_A (c : Dev nD) (t : Fin cfg23.N) (h0 : t.val = 0) (h1 : ¬t.val = 24) :
    outsAt23 V c t.val t.isLt = (idle3_2,
      sout3_A_0 c (grid23.coords t) (ms23_0 t) (hs23_0 t) (ms23_1 t) (hs23_1 t) (ms23_2 t) (hs23_2 t) scM23_0 (Memref.isWhole_whole _) ((hcond23_0 t).mpr h0) (fun h => h1 ((hcond23_1 t).mp h)) (iblk23 V c 0 t) (iblk23 V c 1 t)) := by
  obtain ⟨n, hn⟩ := t
  cases n with
  | zero => exact rfl
  | succ n => exact absurd h0 (Nat.succ_ne_zero n)

theorem outsAt23_B (c : Dev nD) (t : Fin cfg23.N) (h0 : ¬t.val = 0) (h1 : ¬t.val = 24) :
    outsAt23 V c t.val t.isLt = (idle3_2,
      sout3_B_0 c (grid23.coords t) (ms23_0 t) (hs23_0 t) (ms23_1 t) (hs23_1 t) (ms23_2 t) (hs23_2 t) scM23_0 (Memref.isWhole_whole _) (fun h => h0 ((hcond23_0 t).mp h)) (fun h => h1 ((hcond23_1 t).mp h)) (iblk23 V c 0 t) (iblk23 V c 1 t)
        (outsAt23 V c (t.val - 1) (Nat.lt_of_le_of_lt (Nat.sub_le _ _) t.isLt)).2) := by
  obtain ⟨n, hn⟩ := t
  cases n with
  | zero => exact absurd rfl h0
  | succ n => exact (dif_neg h1).trans rfl

theorem outsAt23_C (c : Dev nD) (t : Fin cfg23.N) (h0 : ¬t.val = 0) (h1 : t.val = 24) :
    outsAt23 V c t.val t.isLt =
      (out3_C_2 c (grid23.coords t) (ms23_0 t) (hs23_0 t) (ms23_1 t) (hs23_1 t) (ms23_2 t) (hs23_2 t) scM23_0 (Memref.isWhole_whole _) (fun h => h0 ((hcond23_0 t).mp h)) ((hcond23_1 t).mpr h1) (iblk23 V c 0 t) (iblk23 V c 1 t)
        (outsAt23 V c (t.val - 1) (Nat.lt_of_le_of_lt (Nat.sub_le _ _) t.isLt)).2,
       sout3_C_0 c (grid23.coords t) (ms23_0 t) (hs23_0 t) (ms23_1 t) (hs23_1 t) (ms23_2 t) (hs23_2 t) scM23_0 (Memref.isWhole_whole _) (fun h => h0 ((hcond23_0 t).mp h)) ((hcond23_1 t).mpr h1) (iblk23 V c 0 t) (iblk23 V c 1 t)
        (outsAt23 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS23 (c : Dev nD) : (n : ℕ) → n ≤ cfg23.N → sProp 𝕄
  | 0, _ => Pipeline.ΦA spec23 c
  | n + 1, hn => iprop(iprop(owns (c : Thread nD τ) scM23_0 fullShare ((outsAt23 V c n hn).2)
      ∗ Pipeline.scopedRestBut (Ix := Unit) (Name := ℕ) (U := UR sig nD τ) (Lvl := ℕ) (Val := Elt F) spec23 c [cc23_scratch0]) ∗ (∃ r, prngReg c r))

theorem PhiS23_zero (c : Dev nD) (n : ℕ) (h : n ≤ cfg23.N) (hz : n = 0) : PhiS23 V c n h = Pipeline.ΦA spec23 c := by
  subst hz; rfl

theorem PhiS23_succ (c : Dev nD) (n : ℕ) (hn : n < cfg23.N) :
    PhiS23 V c (n + 1) hn = iprop(iprop(owns (c : Thread nD τ) scM23_0 fullShare ((outsAt23 V c n hn).2)
      ∗ Pipeline.scopedRestBut (Ix := Unit) (Name := ℕ) (U := UR sig nD τ) (Lvl := ℕ) (Val := Elt F) spec23 c [cc23_scratch0]) ∗ (∃ r, prngReg c r)) := rfl

theorem PhiS23_pos (c : Dev nD) (n : ℕ) (h : n ≤ cfg23.N) (hz : n ≠ 0) :
    PhiS23 V c n h = iprop(iprop(owns (c : Thread nD τ) scM23_0 fullShare ((outsAt23 V c (n - 1) (by omega)).2)
      ∗ Pipeline.scopedRestBut (Ix := Unit) (Name := ℕ) (U := UR sig nD τ) (Lvl := ℕ) (Val := Elt F) spec23 c [cc23_scratch0]) ∗ (∃ r, prngReg c r)) := by
  cases n with
  | zero => exact absurd rfl hz
  | succ n => rfl

/-! ## The proof data -/

noncomputable def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => (outsAt23 V c t.val t.isLt).1
  Φ t := PhiS23 V c t.val (Nat.le_of_lt_succ t.isLt)
  q _ := fullShare
  owed _ := 0

theorem A_eq23 (c : Dev nD) (w : Fin cfg23.W) : (dat23 V c).A w = V c (Pipeline.arrRef spec23 w) := by
  dsimp only [dat23]

theorem PhiS23_castSucc (c : Dev nD) (t : Fin cfg23.N) :
    (dat23 V c).Φ t.castSucc = PhiS23 V c t.val (Nat.le_of_lt t.isLt) := by
  dsimp only [dat23]; simp only [Fin.coe_castSucc]

theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = (outsAt23 V c t.val t.isLt).1 := by dsimp only [dat23]

theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d

/-! ## The body obligation -/

noncomputable def bodyPre23 (c : Dev nD) (t : Fin cfg23.N) : sProp 𝕄 :=
  iprop((dat23 V c).Φ t.castSucc ∗ (dat23 V c).owesAt () t.castSucc
    ∗ (∃ d, owns (c : Thread nD τ) (ms23_0 t) fullShare ((dat23 V c).before 0 t d))
    ∗ (∃ d, owns (c : Thread nD τ) (ms23_1 t) fullShare ((dat23 V c).before 1 t d))
    ∗ (∃ d, owns (c : Thread nD τ) (ms23_2 t) fullShare ((dat23 V c).before 2 t d)))

noncomputable def bodyPost23 (c : Dev nD) (t : Fin cfg23.N) : sProp 𝕄 :=
  iprop((dat23 V c).Φ t.succ ∗ (dat23 V c).owesAt () t.succ
    ∗ (dat23 V c).leavesExact 0 t
    ∗ (dat23 V c).leavesExact 1 t
    ∗ (dat23 V c).leavesExact 2 t)

set_option maxHeartbeats 4800000 in
/-- The body at any point, from region 3's triples on this region's memrefs. -/
theorem sound_body23 (c : Dev nD) (t : Fin cfg23.N) :
    bodyPre23 V c t ⊢ wp frame (wpE (defs₀ (F := F)) Variants.none c none) Set.univ (bodyAt23 t) (fun _ => bodyPost23 V c t) := by
  rw [bodyAt23_eq (F := F) t]
  unfold bodyPre23 bodyPost23
  simp only [before23_0, before23_1]
  rw [show (dat23 V c).owesAt () t.succ = (dat23 V c).owesAt () t.castSucc from rfl]
  rw [show (dat23 V c).Φ t.succ = PhiS23 V c (t.val + 1) t.isLt from rfl, PhiS23_succ]
  have hN : t.val < 25 := lt_of_lt_of_eq t.isLt (show cfg23.N = 25 from N_23)
  rw [show (dat23 V c).leavesExact 0 t = owns (c : Thread nD τ) (ms23_0 t) fullShare ((dat23 V c).after 0 t) from by
    unfold Dat.leavesExact; rw [liveAt23_0 t], after23_0]
  rw [show (dat23 V c).leavesExact 1 t = owns (c : Thread nD τ) (ms23_1 t) fullShare ((dat23 V c).after 1 t) from by
    unfold Dat.leavesExact; rw [liveAt23_1 t], after23_1]
  by_cases h0 : t.val = 0
  · have h1 : ¬t.val = 24 := by omega
    rw [Dat.leavesExact_idle (dat23 V c) 2 t (idleAt23_2 t (fun h => h1 ((hcond23_1 t).mp h))) (noFlush23_2 t (fun h => h1 ((hcond23_1 t).mp h)))]
    rw [outsAt23_A V c t h0 h1]
    unfold sout3_A_0; (try dsimp only)
    rw [PhiS23_castSucc V c t, PhiS23_zero V c _ _ h0, PhiA23_eq]
    iintro ⟨⟨⟨HS0, Hr⟩, Hg⟩, Ho, ⟨%d0, H0⟩, ⟨%d1, H1⟩, ⟨%d2, H2⟩⟩
    iapply ((kernelRun3_A c (grid23.coords t) _ _ _ _ _ _ _ _ ((hcond23_0 t).mpr h0) (fun h => h1 ((hcond23_1 t).mp h)) (iblk23 V c 0 t) (iblk23 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat23 V c).leavesExact 2 t = owns (c : Thread nD τ) (ms23_2 t) fullShare ((dat23 V c).after 2 t) from by
        unfold Dat.leavesExact; rw [liveAt23_2 t ((hcond23_1 t).mpr h1)], after23_2]
      rw [outsAt23_C V c t h0 h1]
      unfold out3_C_2 sout3_C_0; (try dsimp only)
      rw [PhiS23_castSucc V c t, PhiS23_pos V c _ _ h0]
      iintro ⟨⟨⟨HS0, Hr⟩, Hg⟩, Ho, ⟨%d0, H0⟩, ⟨%d1, H1⟩, ⟨%d2, H2⟩⟩
      iapply ((kernelRun3_C c (grid23.coords t) _ _ _ _ _ _ _ _ (fun h => h0 ((hcond23_0 t).mp h)) ((hcond23_1 t).mpr h1) (iblk23 V c 0 t) (iblk23 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat23 V c) 2 t (idleAt23_2 t (fun h => h1 ((hcond23_1 t).mp h))) (noFlush23_2 t (fun h => h1 ((hcond23_1 t).mp h)))]
      rw [outsAt23_B V c t h0 h1]
      unfold sout3_B_0; (try dsimp only)
      rw [PhiS23_castSucc V c t, PhiS23_pos V c _ _ h0]
      iintro ⟨⟨⟨HS0, Hr⟩, Hg⟩, Ho, ⟨%d0, H0⟩, ⟨%d1, H1⟩, ⟨%d2, H2⟩⟩
      iapply ((kernelRun3_B c (grid23.coords t) _ _ _ _ _ _ _ _ (fun h => h0 ((hcond23_0 t).mp h)) (fun h => h1 ((hcond23_1 t).mp h)) (iblk23 V c 0 t) (iblk23 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation23 (c : Dev nD) : BodyObligation (dat23 (F := F) V c) (defs₀ (F := F)) Variants.none () Set.univ := fun t => by
  rw [bigSep_W23, bigSep_W23]
  exact sound_body23 V c t

/-- What the launch hands the region is the invariant before the first point. -/
theorem hin23 (c : Dev nD) : Pipeline.ΦA spec23 c ⊢ (dat23 V c).Φ 0 := by
  rw [show (dat23 V c).Φ 0 = PhiS23 V c 0 (Nat.zero_le _) from rfl, PhiS23_zero V c 0 _ rfl]
  try exact Idealize.SL.BI.Entails.refl _

/-- After any point but the first the invariant gives the launch's back: the accumulator's named contents are forgotten. -/
theorem Phi_out23 (c : Dev nD) (t : Fin (cfg23.N + 1)) (ht : t.val ≠ 0) : (dat23 V c).Φ t ⊢ Pipeline.ΦA spec23 c := by
  rw [show (dat23 V c).Φ t = PhiS23 V c t.val (Nat.le_of_lt_succ t.isLt) from rfl, PhiS23_pos V c _ _ ht, PhiA23_eq]
  iintro ⟨⟨HS0, Hr⟩, Hg⟩
  isplitl [HS0 Hr]
  · isplitl [HS0]
    · iexists _; iexact HS0
    iexact Hr
  iexact Hg

/-- The same after the last point. -/
theorem hout23 (c : Dev nD) : (dat23 V c).Φ (Fin.last cfg23.N) ⊢ Pipeline.ΦA spec23 c :=
  Phi_out23 V c _ (by rw [Fin.val_last]; have : cfg23.N = 25 := N_23; omega)

end Cert.Kernel.Hand

end
-- ==== Proof.KB.R24.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Ring
import Idealize.ShloMosaic.Lib.Tactic

/-!
# Region 24: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region24
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk24 (c : Dev nD) (w : Fin cfg24.W) (t : Fin cfg24.N) : ((cfg24.win w).xblock (cfg24.grid.coords t)).Idx → Elt F (cfg24.win w).elt :=
  ((cfg24.win w).blk t).view.read (Elt F) (V c (Pipeline.arrRef spec24 w))

/-- The activations' staging buffer holds the block of the current point at every point: the window is fetched at
    every point, is never cut and never idle, and the body leaves the block where it found it. -/
theorem before24_0_of {c : Dev nD} (dat : Dat τ (Elt F) Unit ℕ (UR sig nD τ) ℕ cfg24 c) (hA : dat.A 0 = V c (Pipeline.arrRef spec24 0))
    (hafter : ∀ t, dat.after 0 t = iblk24 V c 0 t) (t : Fin cfg24.N) (d) : dat.before 0 t d = iblk24 V c 0 t :=
  (dat.before_in_eq_fetched 0 rfl (fun _ => rfl) (fun _ _ _ => rfl) (fun t => by rw [hafter]; unfold Dat.blockOf iblk24; rw [hA]; try rfl) t d).trans
    (by unfold Dat.fetched Dat.blockOf iblk24; rw [hA]; try rfl)

/-- The mean row's staging buffer holds its (one) block at every point: it is fetched at the first point only, its
    block index never moves afterwards, and the body leaves it in place. -/
theorem before24_1_of {c : Dev nD} (dat : Dat τ (Elt F) Unit ℕ (UR sig nD τ) ℕ cfg24 c) (hA : dat.A 1 = V c (Pipeline.arrRef spec24 1))
    (hafter : ∀ t, dat.after 1 t = iblk24 V c 1 t) (t : Fin cfg24.N) (d) : dat.before 1 t d = iblk24 V c 1 t :=
  (dat.before_in_eq_fetched 1 rfl (fun _ => rfl) (fun _ _ _ => rfl) (fun t => by rw [hafter]; unfold Dat.blockOf iblk24; rw [hA]; try rfl) t d).trans
    (by unfold Dat.fetched Dat.blockOf iblk24; rw [hA]; try rfl)

/-- The same of the variance row. -/
theorem before24_2_of {c : Dev nD} (dat : Dat τ (Elt F) Unit ℕ (UR sig nD τ) ℕ cfg24 c) (hA : dat.A 2 = V c (Pipeline.arrRef spec24 2))
    (hafter : ∀ t, dat.after 2 t = iblk24 V c 2 t) (t : Fin cfg24.N) (d) : dat.before 2 t d = iblk24 V c 2 t :=
  (dat.before_in_eq_fetched 2 rfl (fun _ => rfl) (fun _ _ _ => rfl) (fun t => by rw [hafter]; unfold Dat.blockOf iblk24; rw [hA]; try rfl) t d).trans
    (by unfold Dat.fetched Dat.blockOf iblk24; rw [hA]; try rfl)

/-- The same of the scale row. -/
theorem before24_3_of {c : Dev nD} (dat : Dat τ (Elt F) Unit ℕ (UR sig nD τ) ℕ cfg24 c) (hA : dat.A 3 = V c (Pipeline.arrRef spec24 3))
    (hafter : ∀ t, dat.after 3 t = iblk24 V c 3 t) (t : Fin cfg24.N) (d) : dat.before 3 t d = iblk24 V c 3 t :=
  (dat.before_in_eq_fetched 3 rfl (fun _ => rfl) (fun _ _ _ => rfl) (fun t => by rw [hafter]; unfold Dat.blockOf iblk24; rw [hA]; try rfl) t d).trans
    (by unfold Dat.fetched Dat.blockOf iblk24; rw [hA]; try rfl)

/-- The same of the shift row. -/
theorem before24_4_of {c : Dev nD} (dat : Dat τ (Elt F) Unit ℕ (UR sig nD τ) ℕ cfg24 c) (hA : dat.A 4 = V c (Pipeline.arrRef spec24 4))
    (hafter : ∀ t, dat.after 4 t = iblk24 V c 4 t) (t : Fin cfg24.N) (d) : dat.before 4 t d = iblk24 V c 4 t :=
  (dat.before_in_eq_fetched 4 rfl (fun _ => rfl) (fun _ _ _ => rfl) (fun t => by rw [hafter]; unfold Dat.blockOf iblk24; rw [hA]; try rfl) t d).trans
    (by unfold Dat.fetched Dat.blockOf iblk24; rw [hA]; try rfl)

/-! ## The body's accesses: each buffer is read, and the output written, whole -/

/-- The whole of a block of 2000 rows. -/
noncomputable abbrev r24_0 : Rect S2000x64 := Rect.unit (s := S2000x64) ![0, 0] S2000x64.size inb_S2000x64_S2000x64_0_0
/-- The whole of a single row. -/
noncomputable abbrev r24_1 : Rect S1x64 := Rect.unit (s := S1x64) ![0, 0] S1x64.size inb_S1x64_S1x64_0_0

/-! ## What the body leaves in the output buffer -/

/-- The output buffer after the body, from the five input blocks: its one store, whose payload is the skeleton's. -/
noncomputable def out24_5 (x0 : Vec F S2000x64 .f32) (x1 : Vec F S1x64 .f32) (x2 : Vec F S1x64 .f32) (x3 : Vec F S1x64 .f32) (x4 : Vec F S1x64 .f32) :
    Vec F S2000x64 .f32 :=
  View.canon [⟨r24_0, k24_pay1 (View.ld x0 r24_0) (View.ld x1 r24_1) (View.ld x2 r24_1) (View.ld x3 r24_1) (View.ld x4 r24_1)⟩]

/-- The one store covers the buffer. -/
theorem cover24_5 (p0 : Vec F S2000x64 .f32) (y : S2000x64.Idx) :
    ∃ pc ∈ ([⟨r24_0, p0⟩] : List (View.Piece (Elt F) S2000x64 .f32)), y ∈ pc.1.set :=
  View.cover_of_tiled [⟨r24_0, p0⟩] S2000x64.size (by rfl) y

/-! ## The body's triple -/

set_option maxHeartbeats 1000000 in
/-- The body on whole staging buffers, the five inputs' at read contents x0 … x4 and the output's at anything, runs
    to a state in which the inputs' are as they were and the output's holds out24_5 of them. (The body also loads the
    output buffer before it stores to it; the loaded value is not used.) -/
theorem sound_kernel24 (c : Dev nD) (E : Set ℕ) (i : grid24.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out24_5 x0 x1 x2 x3 x4)) -∗ K ⟨⟩))
      ⊢ wp frame (wpE (defs₀ (F := F)) Variants.none c none) E (cc24__bn_softmax_kernel i arg1 harg1 arg2 harg2 arg3 harg3 arg4 harg4 arg5 harg5 arg6 harg6) K := by
  simp only [cc24__bn_softmax_kernel_eq_skeleton]; unfold cc24__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover24_5 _)

/-! ## The pipeline's proof data -/

/-- The proof data of the region's pipeline on core c: the arrays as the region finds them; after the body at point t
    each input's buffer at its block and the output's at out24_5 of the input blocks; the invariant that of a body which
    touches nothing but its windows; nothing owed; full shares. -/
noncomputable def dat24 (c : Dev nD) : Dat τ (Elt F) Unit ℕ (UR sig nD τ) ℕ cfg24 c where
  A w := V c (Pipeline.arrRef spec24 w)
  after w t := match w with
    | ⟨0, _⟩ => iblk24 V c 0 t
    | ⟨1, _⟩ => iblk24 V c 1 t
    | ⟨2, _⟩ => iblk24 V c 2 t
    | ⟨3, _⟩ => iblk24 V c 3 t
    | ⟨4, _⟩ => iblk24 V c 4 t
    | ⟨5, _⟩ => out24_5 (iblk24 V c 0 t) (iblk24 V c 1 t) (iblk24 V c 2 t) (iblk24 V c 3 t) (iblk24 V c 4 t)
  Φ _ := Pipeline.ΦA spec24 c
  q _ := fullShare
  owed _ := 0

/-- The proof data's arrays are the region-entry contents. -/
theorem A_eq24 (c : Dev nD) (w : Fin cfg24.W) : (dat24 V c).A w = V c (Pipeline.arrRef spec24 w) := by
  dsimp only [dat24]

/-- What the body leaves, window by window. -/
theorem after24_0 (c : Dev nD) (t : Fin cfg24.N) : (dat24 V c).after 0 t = iblk24 V c 0 t := by dsimp only [dat24]
theorem after24_1 (c : Dev nD) (t : Fin cfg24.N) : (dat24 V c).after 1 t = iblk24 V c 1 t := by dsimp only [dat24]
theorem after24_2 (c : Dev nD) (t : Fin cfg24.N) : (dat24 V c).after 2 t = iblk24 V c 2 t := by dsimp only [dat24]
theorem after24_3 (c : Dev nD) (t : Fin cfg24.N) : (dat24 V c).after 3 t = iblk24 V c 3 t := by dsimp only [dat24]
theorem after24_4 (c : Dev nD) (t : Fin cfg24.N) : (dat24 V c).after 4 t = iblk24 V c 4 t := by dsimp only [dat24]
theorem after24_5 (c : Dev nD) (t : Fin cfg24.N) :
    (dat24 V c).after 5 t = out24_5 (iblk24 V c 0 t) (iblk24 V c 1 t) (iblk24 V c 2 t) (iblk24 V c 3 t) (iblk24 V c 4 t) := by dsimp only [dat24]

/-- Each input's current staging buffer holds its block at every point, fetched there or not. -/
theorem before24_0 (c : Dev nD) (t : Fin cfg24.N) (d) : (dat24 V c).before 0 t d = iblk24 V c 0 t :=
  before24_0_of V (dat24 V c) (A_eq24 V c 0) (after24_0 V c) t d
theorem before24_1 (c : Dev nD) (t : Fin cfg24.N) (d) : (dat24 V c).before 1 t d = iblk24 V c 1 t :=
  before24_1_of V (dat24 V c) (A_eq24 V c 1) (after24_1 V c) t d
theorem before24_2 (c : Dev nD) (t : Fin cfg24.N) (d) : (dat24 V c).before 2 t d = iblk24 V c 2 t :=
  before24_2_of V (dat24 V c) (A_eq24 V c 2) (after24_2 V c) t d
theorem before24_3 (c : Dev nD) (t : Fin cfg24.N) (d) : (dat24 V c).before 3 t d = iblk24 V c 3 t :=
  before24_3_of V (dat24 V c) (A_eq24 V c 3) (after24_3 V c) t d
theorem before24_4 (c : Dev nD) (t : Fin cfg24.N) (d) : (dat24 V c).before 4 t d = iblk24 V c 4 t :=
  before24_4_of V (dat24 V c) (A_eq24 V c 4) (after24_4 V c) t d

/-! ## The body obligation, at a generic point -/

/-- What the body is called with at point t, the windows one by one, -/
noncomputable def bodyPre24 (c : Dev nD) (t : Fin cfg24.N) : sProp 𝕄 :=
  iprop((dat24 V c).Φ t.castSucc ∗ (dat24 V c).owesAt () t.castSucc
    ∗ (∃ d, owns (c : Thread nD τ) (st24_0 t) fullShare ((dat24 V c).before 0 t d))
    ∗ (∃ d, owns (c : Thread nD τ) (st24_1 t) fullShare ((dat24 V c).before 1 t d))
    ∗ (∃ d, owns (c : Thread nD τ) (st24_2 t) fullShare ((dat24 V c).before 2 t d))
    ∗ (∃ d, owns (c : Thread nD τ) (st24_3 t) fullShare ((dat24 V c).before 3 t d))
    ∗ (∃ d, owns (c : Thread nD τ) (st24_4 t) fullShare ((dat24 V c).before 4 t d))
    ∗ (∃ d, owns (c : Thread nD τ) (st24_5 t) fullShare ((dat24 V c).before 5 t d)))

/-- and what it returns. -/
noncomputable def bodyPost24 (c : Dev nD) (t : Fin cfg24.N) : sProp 𝕄 :=
  iprop((dat24 V c).Φ t.succ ∗ (dat24 V c).owesAt () t.succ
    ∗ owns (c : Thread nD τ) (st24_0 t) fullShare ((dat24 V c).after 0 t)
    ∗ owns (c : Thread nD τ) (st24_1 t) fullShare ((dat24 V c).after 1 t)
    ∗ owns (c : Thread nD τ) (st24_2 t) fullShare ((dat24 V c).after 2 t)
    ∗ owns (c : Thread nD τ) (st24_3 t) fullShare ((dat24 V c).after 3 t)
    ∗ owns (c : Thread nD τ) (st24_4 t) fullShare ((dat24 V c).after 4 t)
    ∗ owns (c : Thread nD τ) (st24_5 t) fullShare ((dat24 V c).after 5 t))

/-- The body at any point: the inputs' buffers hold their blocks, so the body's triple applies; the invariant and
    what the core owes pass through unread. -/
theorem sound_body24 (c : Dev nD) (t : Fin cfg24.N) :
    bodyPre24 V c t ⊢ wp frame (wpE (defs₀ (F := F)) Variants.none c none) Set.univ (bodyAt24 t) (fun _ => bodyPost24 V c t) := by
  unfold bodyPre24 bodyPost24 bodyAt24
  simp only [before24_0, before24_1, before24_2, before24_3, before24_4]
  rw [show (dat24 V c).Φ t.succ = (dat24 V c).Φ t.castSucc from rfl,
    show (dat24 V c).owesAt () t.succ = (dat24 V c).owesAt () t.castSucc from rfl,
    after24_0, after24_1, after24_2, after24_3, after24_4, after24_5]
  iintro ⟨HΦ, Ho, ⟨%d0, H0⟩, ⟨%d1, H1⟩, ⟨%d2, H2⟩, ⟨%d3, H3⟩, ⟨%d4, H4⟩, ⟨%d5, H5⟩⟩
  iapply (sound_kernel24 c Set.univ (grid24.coords t) _ _ _ _ _ _ _ _ _ _ _ _
    (iblk24 V c 0 t) (iblk24 V c 1 t) (iblk24 V c 2 t) (iblk24 V c 3 t) (iblk24 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation24 (c : Dev nD) : BodyObligation (dat24 (F := F) V c) (defs₀ (F := F)) Variants.none () Set.univ := fun t => by
  rw [bigSep_W24, bigSep_W24]
  exact sound_body24 V c t

end Region24

end Cert.Kernel.Hand

end
-- ==== Proof.KB.R25.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.Regions
import Idealize.ShloMosaic.Lib.Tactic

/-! # Region 25: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region25
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk25 (c : Dev nD) (w : Fin cfg25.W) (t : Fin cfg25.N) : ((cfg25.win w).xblock (cfg25.grid.coords t)).Idx → Elt F (cfg25.win w).elt :=
  ((cfg25.win w).blk t).view.read (Elt F) (V c (Pipeline.arrRef spec25 w))

/-- The rows of X: the staging buffer the body is handed holds the block of the point, whether the
    point fetched it or not (an unfetched input has not moved its block index). -/
theorem before25_0_of {c : Dev nD} (dat : Dat τ (Elt F) Unit ℕ (UR sig nD τ) ℕ cfg25 c) (hA : dat.A 0 = V c (Pipeline.arrRef spec25 0))
    (hafter : ∀ t, dat.after 0 t = iblk25 V c 0 t) (t : Fin cfg25.N) (d) : dat.before 0 t d = iblk25 V c 0 t :=
  (dat.before_in_eq_fetched 0 rfl (fun _ => rfl) (fun _ _ _ => rfl) (fun t => by rw [hafter]; unfold Dat.blockOf iblk25; rw [hA]; try rfl) t d).trans
    (by unfold Dat.fetched Dat.blockOf iblk25; rw [hA]; try rfl)

/-- The matrix W: fetched at the first point only, and found in place at every later one. -/
theorem before25_1_of {c : Dev nD} (dat : Dat τ (Elt F) Unit ℕ (UR sig nD τ) ℕ cfg25 c) (hA : dat.A 1 = V c (Pipeline.arrRef spec25 1))
    (hafter : ∀ t, dat.after 1 t = iblk25 V c 1 t) (t : Fin cfg25.N) (d) : dat.before 1 t d = iblk25 V c 1 t :=
  (dat.before_in_eq_fetched 1 rfl (fun _ => rfl) (fun _ _ _ => rfl) (fun t => by rw [hafter]; unfold Dat.blockOf iblk25; rw [hA]; try rfl) t d).trans
    (by unfold Dat.fetched Dat.blockOf iblk25; rw [hA]; try rfl)

/-! ## The body's accesses: each buffer whole -/

noncomputable abbrev r25_0 : Rect S2000x64 := Rect.unit (s := S2000x64) ![0, 0] S2000x64.size inb_S2000x64_S2000x64_0_0
noncomputable abbrev r25_1 : Rect S64x64 := Rect.unit (s := S64x64) ![0, 0] S64x64.size inb_S64x64_S64x64_0_0
noncomputable abbrev r25_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out25_2 (x0 : Vec F S2000x64 .f32) (x1 : Vec F S64x64 .f32) : Vec F S2000x64 .f32 :=
  View.canon [⟨r25_2, k25_pay1 (View.ld x0 r25_0) (View.ld x1 r25_1)⟩]

/-- The store's rectangle is the whole buffer, so it covers every index. -/
theorem cover25_2 (p0 : Vec F S2000x64 .f32) (y : S2000x64.Idx) :
    ∃ pc ∈ ([⟨r25_2, p0⟩] : List (View.Piece (Elt F) S2000x64 .f32)), y ∈ pc.1.set :=
  View.cover_of_tiled [⟨r25_2, p0⟩] S2000x64.size (by rfl) y

/-! ## The body's triple -/

set_option maxHeartbeats 1000000 in
/-- On whole staging memrefs, the inputs' holding x0 and x1 and the output's holding anything, the body
    runs to a state where the inputs' are unchanged and the output's holds out25_2 x0 x1. The body also reads
    the output buffer before storing into it; the value read is not used. -/
theorem sound_kernel25 (c : Dev nD) (E : Set ℕ) (i : grid25.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out25_2 x0 x1)) -∗ K ⟨⟩))
      ⊢ wp frame (wpE (defs₀ (F := F)) Variants.none c none) E (cc25__linear_kernel i arg1 harg1 arg2 harg2 arg3 harg3) K := by
  simp only [cc25__linear_kernel_eq_skeleton]; unfold cc25__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover25_2 _)

/-! ## The pipeline's proof data -/

/-- The arrays as the region finds them; after the body at point t the inputs' buffers at their blocks
    and the output's at the product block; the invariant is the scoped rest and the generator register,
    untouched; nothing owed; full shares. -/
noncomputable def dat25 (c : Dev nD) : Dat τ (Elt F) Unit ℕ (UR sig nD τ) ℕ cfg25 c where
  A w := V c (Pipeline.arrRef spec25 w)
  after w t := match w with
    | ⟨0, _⟩ => iblk25 V c 0 t
    | ⟨1, _⟩ => iblk25 V c 1 t
    | ⟨2, _⟩ => out25_2 (iblk25 V c 0 t) (iblk25 V c 1 t)
  Φ _ := Pipeline.ΦA spec25 c
  q _ := fullShare
  owed _ := 0

theorem A_eq25 (c : Dev nD) (w : Fin cfg25.W) : (dat25 V c).A w = V c (Pipeline.arrRef spec25 w) := by
  dsimp only [dat25]

theorem after25_0 (c : Dev nD) (t : Fin cfg25.N) : (dat25 V c).after 0 t = iblk25 V c 0 t := by dsimp only [dat25]
theorem after25_1 (c : Dev nD) (t : Fin cfg25.N) : (dat25 V c).after 1 t = iblk25 V c 1 t := by dsimp only [dat25]
theorem after25_2 (c : Dev nD) (t : Fin cfg25.N) : (dat25 V c).after 2 t = out25_2 (iblk25 V c 0 t) (iblk25 V c 1 t) := by dsimp only [dat25]

theorem before25_0 (c : Dev nD) (t : Fin cfg25.N) (d) : (dat25 V c).before 0 t d = iblk25 V c 0 t :=
  before25_0_of V (dat25 V c) (A_eq25 V c 0) (after25_0 V c) t d
theorem before25_1 (c : Dev nD) (t : Fin cfg25.N) (d) : (dat25 V c).before 1 t d = iblk25 V c 1 t :=
  before25_1_of V (dat25 V c) (A_eq25 V c 1) (after25_1 V c) t d

/-! ## The body obligation, at a generic point -/

/-- What the body is called with at point t, window by window, -/
noncomputable def bodyPre25 (c : Dev nD) (t : Fin cfg25.N) : sProp 𝕄 :=
  iprop((dat25 V c).Φ t.castSucc ∗ (dat25 V c).owesAt () t.castSucc
    ∗ (∃ d, owns (c : Thread nD τ) (st25_0 t) fullShare ((dat25 V c).before 0 t d))
    ∗ (∃ d, owns (c : Thread nD τ) (st25_1 t) fullShare ((dat25 V c).before 1 t d))
    ∗ (∃ d, owns (c : Thread nD τ) (st25_2 t) fullShare ((dat25 V c).before 2 t d)))

/-- and what it returns. -/
noncomputable def bodyPost25 (c : Dev nD) (t : Fin cfg25.N) : sProp 𝕄 :=
  iprop((dat25 V c).Φ t.succ ∗ (dat25 V c).owesAt () t.succ
    ∗ owns (c : Thread nD τ) (st25_0 t) fullShare ((dat25 V c).after 0 t)
    ∗ owns (c : Thread nD τ) (st25_1 t) fullShare ((dat25 V c).after 1 t)
    ∗ owns (c : Thread nD τ) (st25_2 t) fullShare ((dat25 V c).after 2 t))

/-- The inputs' memrefs hold their blocks, so the body's triple applies; the invariant and what the core
    owes pass through unread. -/
theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0, before25_1]
  rw [show (dat25 V c).Φ t.succ = (dat25 V c).Φ t.castSucc from rfl,
    show (dat25 V c).owesAt () t.succ = (dat25 V c).owesAt () t.castSucc from rfl,
    after25_0, after25_1, after25_2]
  iintro ⟨HΦ, Ho, ⟨%d0, H0⟩, ⟨%d1, H1⟩, ⟨%d2, H2⟩⟩
  iapply (sound_kernel25 c Set.univ (grid25.coords t) _ _ _ _ _ _ (iblk25 V c 0 t) (iblk25 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation25 (c : Dev nD) : BodyObligation (dat25 (F := F) V c) (defs₀ (F := F)) Variants.none () Set.univ := fun t => by
  rw [bigSep_W25, bigSep_W25]
  exact sound_body25 V c t

end Region25

end Cert.Kernel.Hand

end
-- ==== Proof.KB.R26.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.R14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The kernel is region 14's

The two regions' printed kernel functions are the same function of the grid coordinate and the memrefs (the same
text over the same shapes; the grids and the last-point conditions are the same literals), so region 14's runs of the
body, its covers and its per-case contents — all stated over abstract coordinates and memrefs — serve this region. -/

theorem cc26_kernel_eq : cc26_kernel (F := F) = cc14_kernel (F := F) := rfl

/-! ## The windows' blocks -/

/-- Window `w`'s block at point `t`, read off its array as the region finds it (`V`). -/
noncomputable def iblk26 (c : Dev nD) (w : Fin cfg26.W) (t : Fin cfg26.N) : ((cfg26.win w).xblock (cfg26.grid.coords t)).Idx → Elt F (cfg26.win w).elt :=
  ((cfg26.win w).blk t).view.read (Elt F) (V c (Pipeline.arrRef spec26 w))

/-- Input window 0's current staging buffer holds its block at every point, for any proof data whose array is
    `V`'s and whose body leaves the block in place: the window is uncut and never idle. -/
theorem before26_0_of {c : Dev nD} (dat : Dat τ (Elt F) Unit ℕ (UR sig nD τ) ℕ cfg26 c) (hA : dat.A 0 = V c (Pipeline.arrRef spec26 0))
    (hafter : ∀ t, dat.after 0 t = iblk26 V c 0 t) (t : Fin cfg26.N) (d) : dat.before 0 t d = iblk26 V c 0 t :=
  (dat.before_in_eq_fetched 0 rfl (fun _ => rfl) (fun _ _ _ => rfl) (fun t => by rw [hafter]; unfold Dat.blockOf iblk26; rw [hA]; try rfl) t d).trans
    (by unfold Dat.fetched Dat.blockOf iblk26; rw [hA]; try rfl)

/-- Input window 1 likewise: fetched at the first point only, its block index never moves, so the buffer holds
    the block at every point. -/
theorem before26_1_of {c : Dev nD} (dat : Dat τ (Elt F) Unit ℕ (UR sig nD τ) ℕ cfg26 c) (hA : dat.A 1 = V c (Pipeline.arrRef spec26 1))
    (hafter : ∀ t, dat.after 1 t = iblk26 V c 1 t) (t : Fin cfg26.N) (d) : dat.before 1 t d = iblk26 V c 1 t :=
  (dat.before_in_eq_fetched 1 rfl (fun _ => rfl) (fun _ _ _ => rfl) (fun t => by rw [hafter]; unfold Dat.blockOf iblk26; rw [hA]; try rfl) t d).trans
    (by unfold Dat.fetched Dat.blockOf iblk26; rw [hA]; try rfl)

/-- Input window 2 likewise. -/
theorem before26_2_of {c : Dev nD} (dat : Dat τ (Elt F) Unit ℕ (UR sig nD τ) ℕ cfg26 c) (hA : dat.A 2 = V c (Pipeline.arrRef spec26 2))
    (hafter : ∀ t, dat.after 2 t = iblk26 V c 2 t) (t : Fin cfg26.N) (d) : dat.before 2 t d = iblk26 V c 2 t :=
  (dat.before_in_eq_fetched 2 rfl (fun _ => rfl) (fun _ _ _ => rfl) (fun t => by rw [hafter]; unfold Dat.blockOf iblk26; rw [hA]; try rfl) t d).trans
    (by unfold Dat.fetched Dat.blockOf iblk26; rw [hA]; try rfl)

/-! ## The body's two conditions on the grid coordinate -/

/-- It holds at the first point only. -/
theorem hcond26_0 : ∀ t : Fin cfg26.N, cond14_0 (grid26.coords t) ↔ t.val % 25 = 0 :=
  (by decide +kernel : ∀ t : Fin grid26.N, cond14_0 (grid26.coords t) ↔ t.val % 25 = 0)

/-- It holds at the last point only. -/
theorem hcond26_1 : ∀ t : Fin cfg26.N, cond14_1 (grid26.coords t) ↔ t.val % 25 = 24 :=
  (by decide +kernel : ∀ t : Fin grid26.N, cond14_1 (grid26.coords t) ↔ t.val % 25 = 24)

/-! ## Where the windows are idle -/

theorem liveAt26_0 : ∀ t : Fin cfg26.N, cfg26.idle 0 (grid26.coords t) = false := by decide +kernel
theorem liveAt26_1 : ∀ t : Fin cfg26.N, cfg26.idle 1 (grid26.coords t) = false := by decide +kernel
theorem liveAt26_2 : ∀ t : Fin cfg26.N, cfg26.idle 2 (grid26.coords t) = false := by decide +kernel
theorem liveAt26_3 : ∀ t : Fin cfg26.N, cfg26.idle 3 (grid26.coords t) = false := by decide +kernel
theorem liveAt26_4 : ∀ t : Fin cfg26.N, cfg26.idle 4 (grid26.coords t) = false := by decide +kernel
/-- At the first point the body stores nothing into output 5: the window is idle there and not written back. -/
theorem idleAt26_5_A : ∀ t : Fin cfg26.N, cond14_0 (grid26.coords t) → ¬cond14_1 (grid26.coords t) → cfg26.idle 5 (grid26.coords t) = true := by decide +kernel
theorem noFlush26_5_A : ∀ t : Fin cfg26.N, cond14_0 (grid26.coords t) → ¬cond14_1 (grid26.coords t) → (cfg26.win 5).flush t = false := by decide +kernel
/-- Nor at the middle points. -/
theorem idleAt26_5_B : ∀ t : Fin cfg26.N, ¬cond14_0 (grid26.coords t) → ¬cond14_1 (grid26.coords t) → cfg26.idle 5 (grid26.coords t) = true := by decide +kernel
theorem noFlush26_5_B : ∀ t : Fin cfg26.N, ¬cond14_0 (grid26.coords t) → ¬cond14_1 (grid26.coords t) → (cfg26.win 5).flush t = false := by decide +kernel
/-- At the last point it stores the accumulated sums there: the window is live. -/
theorem liveAt26_5_C : ∀ t : Fin cfg26.N, ¬cond14_0 (grid26.coords t) → cond14_1 (grid26.coords t) → cfg26.idle 5 (grid26.coords t) = false := by decide +kernel

/-! ## The memrefs the body is called with -/

/-- Each window's current staging memref at point `t`, as the pipeline passes it, and its wholeness. -/
noncomputable abbrev ms26_0 (t : Fin cfg26.N) : Memref sig .tc .vmem S2000x64 .f32 := win26_0.stage (cfg26.slots t 0)
abbrev hs26_0 (t : Fin cfg26.N) : (ms26_0 t).IsWhole := hstage26_0 ((cfg26.slots t 0).cast nbuf26_0)
noncomputable abbrev ms26_1 (t : Fin cfg26.N) : Memref sig .tc .vmem S1x64 .f32 := win26_1.stage (cfg26.slots t 1)
abbrev hs26_1 (t : Fin cfg26.N) : (ms26_1 t).IsWhole := hstage26_1 ((cfg26.slots t 1).cast nbuf26_1)
noncomputable abbrev ms26_2 (t : Fin cfg26.N) : Memref sig .tc .vmem S2000x64 .f32 := win26_2.stage (cfg26.slots t 2)
abbrev hs26_2 (t : Fin cfg26.N) : (ms26_2 t).IsWhole := hstage26_2 ((cfg26.slots t 2).cast nbuf26_2)
noncomputable abbrev ms26_3 (t : Fin cfg26.N) : Memref sig .tc .vmem S2000x64 .f32 := win26_3.stage (cfg26.slots t 3)
abbrev hs26_3 (t : Fin cfg26.N) : (ms26_3 t).IsWhole := hstage26_3 ((cfg26.slots t 3).cast nbuf26_3)
noncomputable abbrev ms26_4 (t : Fin cfg26.N) : Memref sig .tc .vmem S2000x64 .f32 := win26_4.stage (cfg26.slots t 4)
abbrev hs26_4 (t : Fin cfg26.N) : (ms26_4 t).IsWhole := hstage26_4 ((cfg26.slots t 4).cast nbuf26_4)
noncomputable abbrev ms26_5 (t : Fin cfg26.N) : Memref sig .tc .vmem S1x64 .f32 := win26_5.stage (cfg26.slots t 5)
abbrev hs26_5 (t : Fin cfg26.N) : (ms26_5 t).IsWhole := hstage26_5 ((cfg26.slots t 5).cast nbuf26_5)
/-- The scratch operand: a whole scoped buffer of the kernel's own, in which the column sums accumulate. -/
noncomputable abbrev scM26_0 : Memref sig .tc .vmem S1x64 .f32 := Memref.whole cc26_scratch0

/-- The other scoped buffers (every other call's staging buffers and scratch), unopened. -/
noncomputable abbrev restBut26 (c : Dev nD) : sProp 𝕄 :=
  Pipeline.scopedRestBut (Ix := Unit) (Name := ℕ) (U := UR sig nD τ) (Lvl := ℕ) (Val := Elt F) spec26 c [cc26_scratch0]

/-- The region's invariant as the launch hands it over, with the scratch operand split out as a memref owned at
    some contents: what the body obligation hands the run and takes back. -/
theorem PhiA26_eq (c : Dev nD) :
    (Pipeline.ΦA spec26 c : sProp 𝕄)
      = iprop(iprop(iprop((∃ d, owns (c : Thread nD τ) scM26_0 fullShare d)) ∗ restBut26 (F := F) c) ∗ (∃ r, prngReg c r)) := by
  unfold Pipeline.ΦA; rw [scopedRest26_split]; simp only [scM26_0, owns_whole]; try rfl

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt26 (c : Dev nD) : (n : ℕ) → n < cfg26.N → Vec F S2000x64 .f32 × Vec F S2000x64 .f32 × Vec F S1x64 .f32 × Vec F S1x64 .f32
  | 0, hn => (out14_A_3 c (grid26.coords ⟨0, hn⟩) (ms26_0 ⟨0, hn⟩) (hs26_0 ⟨0, hn⟩) (ms26_1 ⟨0, hn⟩) (hs26_1 ⟨0, hn⟩) (ms26_2 ⟨0, hn⟩) (hs26_2 ⟨0, hn⟩) (ms26_3 ⟨0, hn⟩) (hs26_3 ⟨0, hn⟩) (ms26_4 ⟨0, hn⟩) (hs26_4 ⟨0, hn⟩) (ms26_5 ⟨0, hn⟩) (hs26_5 ⟨0, hn⟩) scM26_0 (Memref.isWhole_whole _) ((hcond26_0 ⟨0, hn⟩).mpr (Nat.zero_mod _)) (fun h => (fun h => by (try dsimp only at h); omega) ((hcond26_1 ⟨0, hn⟩).mp h)) (iblk26 V c 0 ⟨0, hn⟩) (iblk26 V c 1 ⟨0, hn⟩) (iblk26 V c 2 ⟨0, hn⟩), out14_A_4 c (grid26.coords ⟨0, hn⟩) (ms26_0 ⟨0, hn⟩) (hs26_0 ⟨0, hn⟩) (ms26_1 ⟨0, hn⟩) (hs26_1 ⟨0, hn⟩) (ms26_2 ⟨0, hn⟩) (hs26_2 ⟨0, hn⟩) (ms26_3 ⟨0, hn⟩) (hs26_3 ⟨0, hn⟩) (ms26_4 ⟨0, hn⟩) (hs26_4 ⟨0, hn⟩) (ms26_5 ⟨0, hn⟩) (hs26_5 ⟨0, hn⟩) scM26_0 (Memref.isWhole_whole _) ((hcond26_0 ⟨0, hn⟩).mpr (Nat.zero_mod _)) (fun h => (fun h => by (try dsimp only at h); omega) ((hcond26_1 ⟨0, hn⟩).mp h)) (iblk26 V c 0 ⟨0, hn⟩) (iblk26 V c 1 ⟨0, hn⟩) (iblk26 V c 2 ⟨0, hn⟩), out14_A_5 c (grid26.coords ⟨0, hn⟩) (ms26_0 ⟨0, hn⟩) (hs26_0 ⟨0, hn⟩) (ms26_1 ⟨0, hn⟩) (hs26_1 ⟨0, hn⟩) (ms26_2 ⟨0, hn⟩) (hs26_2 ⟨0, hn⟩) (ms26_3 ⟨0, hn⟩) (hs26_3 ⟨0, hn⟩) (ms26_4 ⟨0, hn⟩) (hs26_4 ⟨0, hn⟩) (ms26_5 ⟨0, hn⟩) (hs26_5 ⟨0, hn⟩) scM26_0 (Memref.isWhole_whole _) ((hcond26_0 ⟨0, hn⟩).mpr (Nat.zero_mod _)) (fun h => (fun h => by (try dsimp only at h); omega) ((hcond26_1 ⟨0, hn⟩).mp h)) (iblk26 V c 0 ⟨0, hn⟩) (iblk26 V c 1 ⟨0, hn⟩) (iblk26 V c 2 ⟨0, hn⟩), sout14_A_0 c (grid26.coords ⟨0, hn⟩) (ms26_0 ⟨0, hn⟩) (hs26_0 ⟨0, hn⟩) (ms26_1 ⟨0, hn⟩) (hs26_1 ⟨0, hn⟩) (ms26_2 ⟨0, hn⟩) (hs26_2 ⟨0, hn⟩) (ms26_3 ⟨0, hn⟩) (hs26_3 ⟨0, hn⟩) (ms26_4 ⟨0, hn⟩) (hs26_4 ⟨0, hn⟩) (ms26_5 ⟨0, hn⟩) (hs26_5 ⟨0, hn⟩) scM26_0 (Memref.isWhole_whole _) ((hcond26_0 ⟨0, hn⟩).mpr (Nat.zero_mod _)) (fun h => (fun h => by (try dsimp only at h); omega) ((hcond26_1 ⟨0, hn⟩).mp h)) (iblk26 V c 0 ⟨0, hn⟩) (iblk26 V c 1 ⟨0, hn⟩) (iblk26 V c 2 ⟨0, hn⟩))
  | n + 1, hn =>
    if h0 : (n + 1) % 25 = 0 then
      if h1 : (n + 1) % 25 = 24 then
        False.elim (by omega)
      else
        (out14_A_3 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) ((hcond26_0 ⟨n + 1, hn⟩).mpr h0) (fun h => h1 ((hcond26_1 ⟨n + 1, hn⟩).mp h)) (iblk26 V c 0 ⟨n + 1, hn⟩) (iblk26 V c 1 ⟨n + 1, hn⟩) (iblk26 V c 2 ⟨n + 1, hn⟩), out14_A_4 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) ((hcond26_0 ⟨n + 1, hn⟩).mpr h0) (fun h => h1 ((hcond26_1 ⟨n + 1, hn⟩).mp h)) (iblk26 V c 0 ⟨n + 1, hn⟩) (iblk26 V c 1 ⟨n + 1, hn⟩) (iblk26 V c 2 ⟨n + 1, hn⟩), out14_A_5 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) ((hcond26_0 ⟨n + 1, hn⟩).mpr h0) (fun h => h1 ((hcond26_1 ⟨n + 1, hn⟩).mp h)) (iblk26 V c 0 ⟨n + 1, hn⟩) (iblk26 V c 1 ⟨n + 1, hn⟩) (iblk26 V c 2 ⟨n + 1, hn⟩), sout14_A_0 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) ((hcond26_0 ⟨n + 1, hn⟩).mpr h0) (fun h => h1 ((hcond26_1 ⟨n + 1, hn⟩).mp h)) (iblk26 V c 0 ⟨n + 1, hn⟩) (iblk26 V c 1 ⟨n + 1, hn⟩) (iblk26 V c 2 ⟨n + 1, hn⟩))
    else
      if h1 : (n + 1) % 25 = 24 then
        (out14_C_3 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) ((hcond26_1 ⟨n + 1, hn⟩).mpr h1) (iblk26 V c 0 ⟨n + 1, hn⟩) (iblk26 V c 1 ⟨n + 1, hn⟩) (iblk26 V c 2 ⟨n + 1, hn⟩) (outsAt26 c n (Nat.lt_of_succ_lt hn)).2.2.2, out14_C_4 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) ((hcond26_1 ⟨n + 1, hn⟩).mpr h1) (iblk26 V c 0 ⟨n + 1, hn⟩) (iblk26 V c 1 ⟨n + 1, hn⟩) (iblk26 V c 2 ⟨n + 1, hn⟩) (outsAt26 c n (Nat.lt_of_succ_lt hn)).2.2.2, out14_C_5 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) ((hcond26_1 ⟨n + 1, hn⟩).mpr h1) (iblk26 V c 0 ⟨n + 1, hn⟩) (iblk26 V c 1 ⟨n + 1, hn⟩) (iblk26 V c 2 ⟨n + 1, hn⟩) (outsAt26 c n (Nat.lt_of_succ_lt hn)).2.2.2, sout14_C_0 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) ((hcond26_1 ⟨n + 1, hn⟩).mpr h1) (iblk26 V c 0 ⟨n + 1, hn⟩) (iblk26 V c 1 ⟨n + 1, hn⟩) (iblk26 V c 2 ⟨n + 1, hn⟩) (outsAt26 c n (Nat.lt_of_succ_lt hn)).2.2.2)
      else
        (out14_B_3 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) (fun h => h1 ((hcond26_1 ⟨n + 1, hn⟩).mp h)) (iblk26 V c 0 ⟨n + 1, hn⟩) (iblk26 V c 1 ⟨n + 1, hn⟩) (iblk26 V c 2 ⟨n + 1, hn⟩) (outsAt26 c n (Nat.lt_of_succ_lt hn)).2.2.2, out14_B_4 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) (fun h => h1 ((hcond26_1 ⟨n + 1, hn⟩).mp h)) (iblk26 V c 0 ⟨n + 1, hn⟩) (iblk26 V c 1 ⟨n + 1, hn⟩) (iblk26 V c 2 ⟨n + 1, hn⟩) (outsAt26 c n (Nat.lt_of_succ_lt hn)).2.2.2, out14_B_5 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) (fun h => h1 ((hcond26_1 ⟨n + 1, hn⟩).mp h)) (iblk26 V c 0 ⟨n + 1, hn⟩) (iblk26 V c 1 ⟨n + 1, hn⟩) (iblk26 V c 2 ⟨n + 1, hn⟩) (outsAt26 c n (Nat.lt_of_succ_lt hn)).2.2.2, sout14_B_0 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) (fun h => h1 ((hcond26_1 ⟨n + 1, hn⟩).mp h)) (iblk26 V c 0 ⟨n + 1, hn⟩) (iblk26 V c 1 ⟨n + 1, hn⟩) (iblk26 V c 2 ⟨n + 1, hn⟩) (outsAt26 c n (Nat.lt_of_succ_lt hn)).2.2.2)

/-- `outsAt26` at the first point: case A's contents. -/
theorem outsAt26_A (c : Dev nD) (t : Fin cfg26.N) (h0 : t.val % 25 = 0) (h1 : ¬t.val % 25 = 24) :
    outsAt26 V c t.val t.isLt = (out14_A_3 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) ((hcond26_0 t).mpr h0) (fun h => h1 ((hcond26_1 t).mp h)) (iblk26 V c 0 t) (iblk26 V c 1 t) (iblk26 V c 2 t), out14_A_4 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) ((hcond26_0 t).mpr h0) (fun h => h1 ((hcond26_1 t).mp h)) (iblk26 V c 0 t) (iblk26 V c 1 t) (iblk26 V c 2 t), out14_A_5 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) ((hcond26_0 t).mpr h0) (fun h => h1 ((hcond26_1 t).mp h)) (iblk26 V c 0 t) (iblk26 V c 1 t) (iblk26 V c 2 t), sout14_A_0 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) ((hcond26_0 t).mpr h0) (fun h => h1 ((hcond26_1 t).mp h)) (iblk26 V c 0 t) (iblk26 V c 1 t) (iblk26 V c 2 t)) := by
  obtain ⟨n, hn⟩ := t
  cases n with
  | zero => exact rfl
  | succ n => exact (dif_pos h0).trans ((dif_neg h1).trans rfl)

/-- `outsAt26` at a middle point: case B's contents, over what the point before left in the scratch. -/
theorem outsAt26_B (c : Dev nD) (t : Fin cfg26.N) (h0 : ¬t.val % 25 = 0) (h1 : ¬t.val % 25 = 24) :
    outsAt26 V c t.val t.isLt = (out14_B_3 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) (fun h => h1 ((hcond26_1 t).mp h)) (iblk26 V c 0 t) (iblk26 V c 1 t) (iblk26 V c 2 t) (outsAt26 V c (t.val - 1) (Nat.lt_of_le_of_lt (Nat.sub_le _ _) t.isLt)).2.2.2, out14_B_4 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) (fun h => h1 ((hcond26_1 t).mp h)) (iblk26 V c 0 t) (iblk26 V c 1 t) (iblk26 V c 2 t) (outsAt26 V c (t.val - 1) (Nat.lt_of_le_of_lt (Nat.sub_le _ _) t.isLt)).2.2.2, out14_B_5 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) (fun h => h1 ((hcond26_1 t).mp h)) (iblk26 V c 0 t) (iblk26 V c 1 t) (iblk26 V c 2 t) (outsAt26 V c (t.val - 1) (Nat.lt_of_le_of_lt (Nat.sub_le _ _) t.isLt)).2.2.2, sout14_B_0 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) (fun h => h1 ((hcond26_1 t).mp h)) (iblk26 V c 0 t) (iblk26 V c 1 t) (iblk26 V c 2 t) (outsAt26 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt26` at the last point: case C's contents, over what the point before left in the scratch. -/
theorem outsAt26_C (c : Dev nD) (t : Fin cfg26.N) (h0 : ¬t.val % 25 = 0) (h1 : t.val % 25 = 24) :
    outsAt26 V c t.val t.isLt = (out14_C_3 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) ((hcond26_1 t).mpr h1) (iblk26 V c 0 t) (iblk26 V c 1 t) (iblk26 V c 2 t) (outsAt26 V c (t.val - 1) (Nat.lt_of_le_of_lt (Nat.sub_le _ _) t.isLt)).2.2.2, out14_C_4 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) ((hcond26_1 t).mpr h1) (iblk26 V c 0 t) (iblk26 V c 1 t) (iblk26 V c 2 t) (outsAt26 V c (t.val - 1) (Nat.lt_of_le_of_lt (Nat.sub_le _ _) t.isLt)).2.2.2, out14_C_5 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) ((hcond26_1 t).mpr h1) (iblk26 V c 0 t) (iblk26 V c 1 t) (iblk26 V c 2 t) (outsAt26 V c (t.val - 1) (Nat.lt_of_le_of_lt (Nat.sub_le _ _) t.isLt)).2.2.2, sout14_C_0 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) ((hcond26_1 t).mpr h1) (iblk26 V c 0 t) (iblk26 V c 1 t) (iblk26 V c 2 t) (outsAt26 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt26`'s last component), the other
    scoped buffers unopened and the generator register at some state. -/
noncomputable def PhiS26 (c : Dev nD) : (n : ℕ) → n ≤ cfg26.N → sProp 𝕄
  | 0, _ => Pipeline.ΦA spec26 c
  | n + 1, hn => iprop(iprop(iprop(owns (c : Thread nD τ) scM26_0 fullShare ((outsAt26 V c n hn).2.2.2)) ∗ restBut26 (F := F) c) ∗ (∃ r, prngReg c r))

theorem PhiS26_zero (c : Dev nD) (n : ℕ) (h : n ≤ cfg26.N) (hz : n = 0) : PhiS26 V c n h = Pipeline.ΦA spec26 c := by
  subst hz; rfl

/-- After point `n` (before point `n + 1`): the scratch at that point's contents. -/
theorem PhiS26_succ (c : Dev nD) (n : ℕ) (hn : n < cfg26.N) :
    PhiS26 V c (n + 1) hn = iprop(iprop(iprop(owns (c : Thread nD τ) scM26_0 fullShare ((outsAt26 V c n hn).2.2.2)) ∗ restBut26 (F := F) c) ∗ (∃ r, prngReg c r)) := rfl

/-- Before a point that is not the first: the scratch at what the point before left. -/
theorem PhiS26_pos (c : Dev nD) (n : ℕ) (h : n ≤ cfg26.N) (hz : n ≠ 0) :
    PhiS26 V c n h = iprop(iprop(iprop(owns (c : Thread nD τ) scM26_0 fullShare ((outsAt26 V c (n - 1) (by omega)).2.2.2)) ∗ restBut26 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt26`; the invariant `PhiS26`; nothing owed;
    full shares. -/
noncomputable def dat26 (c : Dev nD) : Dat τ (Elt F) Unit ℕ (UR sig nD τ) ℕ cfg26 c where
  A w := V c (Pipeline.arrRef spec26 w)
  after w t := match w with
    | ⟨0, _⟩ => iblk26 V c 0 t
    | ⟨1, _⟩ => iblk26 V c 1 t
    | ⟨2, _⟩ => iblk26 V c 2 t
    | ⟨3, _⟩ => (outsAt26 V c t.val t.isLt).1
    | ⟨4, _⟩ => (outsAt26 V c t.val t.isLt).2.1
    | ⟨5, _⟩ => (outsAt26 V c t.val t.isLt).2.2.1
  Φ t := PhiS26 V c t.val (Nat.le_of_lt_succ t.isLt)
  q _ := fullShare
  owed _ := 0

/-- The proof data's arrays are the region-entry contents. -/
theorem A_eq26 (c : Dev nD) (w : Fin cfg26.W) : (dat26 V c).A w = V c (Pipeline.arrRef spec26 w) := by
  dsimp only [dat26]

/-- The invariant at a point's start, restated at `t.val`. -/
theorem PhiS26_castSucc (c : Dev nD) (t : Fin cfg26.N) :
    (dat26 V c).Φ t.castSucc = PhiS26 V c t.val (Nat.le_of_lt t.isLt) := by
  dsimp only [dat26]; simp only [Fin.coe_castSucc]

/-- What the body leaves, window by window. -/
theorem after26_0 (c : Dev nD) (t : Fin cfg26.N) : (dat26 V c).after 0 t = iblk26 V c 0 t := by dsimp only [dat26]
theorem after26_1 (c : Dev nD) (t : Fin cfg26.N) : (dat26 V c).after 1 t = iblk26 V c 1 t := by dsimp only [dat26]
theorem after26_2 (c : Dev nD) (t : Fin cfg26.N) : (dat26 V c).after 2 t = iblk26 V c 2 t := by dsimp only [dat26]
theorem after26_3 (c : Dev nD) (t : Fin cfg26.N) : (dat26 V c).after 3 t = (outsAt26 V c t.val t.isLt).1 := by dsimp only [dat26]
theorem after26_4 (c : Dev nD) (t : Fin cfg26.N) : (dat26 V c).after 4 t = (outsAt26 V c t.val t.isLt).2.1 := by dsimp only [dat26]
theorem after26_5 (c : Dev nD) (t : Fin cfg26.N) : (dat26 V c).after 5 t = (outsAt26 V c t.val t.isLt).2.2.1 := by dsimp only [dat26]

/-- Each input's current staging buffer holds its block at every point, fetched there or not. -/
theorem before26_0 (c : Dev nD) (t : Fin cfg26.N) (d) : (dat26 V c).before 0 t d = iblk26 V c 0 t :=
  before26_0_of V (dat26 V c) (A_eq26 V c 0) (after26_0 V c) t d
theorem before26_1 (c : Dev nD) (t : Fin cfg26.N) (d) : (dat26 V c).before 1 t d = iblk26 V c 1 t :=
  before26_1_of V (dat26 V c) (A_eq26 V c 1) (after26_1 V c) t d
theorem before26_2 (c : Dev nD) (t : Fin cfg26.N) (d) : (dat26 V c).before 2 t d = iblk26 V c 2 t :=
  before26_2_of V (dat26 V c) (A_eq26 V c 2) (after26_2 V c) t d

/-! ## The body obligation, at a generic point -/

/-- What the body is called with at point `t` (the windows one by one), -/
noncomputable def bodyPre26 (c : Dev nD) (t : Fin cfg26.N) : sProp 𝕄 :=
  iprop((dat26 V c).Φ t.castSucc ∗ (dat26 V c).owesAt () t.castSucc
    ∗ (∃ d, owns (c : Thread nD τ) (ms26_0 t) fullShare ((dat26 V c).before 0 t d))
    ∗ (∃ d, owns (c : Thread nD τ) (ms26_1 t) fullShare ((dat26 V c).before 1 t d))
    ∗ (∃ d, owns (c : Thread nD τ) (ms26_2 t) fullShare ((dat26 V c).before 2 t d))
    ∗ (∃ d, owns (c : Thread nD τ) (ms26_3 t) fullShare ((dat26 V c).before 3 t d))
    ∗ (∃ d, owns (c : Thread nD τ) (ms26_4 t) fullShare ((dat26 V c).before 4 t d))
    ∗ (∃ d, owns (c : Thread nD τ) (ms26_5 t) fullShare ((dat26 V c).before 5 t d)))

/-- and what it returns. -/
noncomputable def bodyPost26 (c : Dev nD) (t : Fin cfg26.N) : sProp 𝕄 :=
  iprop((dat26 V c).Φ t.succ ∗ (dat26 V c).owesAt () t.succ
    ∗ (dat26 V c).leavesExact 0 t
    ∗ (dat26 V c).leavesExact 1 t
    ∗ (dat26 V c).leavesExact 2 t
    ∗ (dat26 V c).leavesExact 3 t
    ∗ (dat26 V c).leavesExact 4 t
    ∗ (dat26 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body26 (c : Dev nD) (t : Fin cfg26.N) :
    bodyPre26 V c t ⊢ wp frame (wpE (defs₀ (F := F)) Variants.none c none) Set.univ (bodyAt26 t) (fun _ => bodyPost26 V c t) := by
  unfold bodyPre26 bodyPost26 bodyAt26
  rw [cc26_kernel_eq]
  simp only [before26_0, before26_1, before26_2]
  rw [show (dat26 V c).owesAt () t.succ = (dat26 V c).owesAt () t.castSucc from rfl]
  rw [show (dat26 V c).Φ t.succ = PhiS26 V c (t.val + 1) t.isLt from rfl, PhiS26_succ]
  have hN : t.val < 25 := lt_of_lt_of_eq t.isLt (show cfg26.N = 25 from N_26)
  by_cases h0 : t.val % 25 = 0
  · by_cases h1 : t.val % 25 = 24
    · exfalso; omega
    · rw [show (dat26 V c).leavesExact 0 t = owns (c : Thread nD τ) (ms26_0 t) fullShare ((dat26 V c).after 0 t) from by
        unfold Dat.leavesExact; rw [liveAt26_0 t], after26_0]
      rw [show (dat26 V c).leavesExact 1 t = owns (c : Thread nD τ) (ms26_1 t) fullShare ((dat26 V c).after 1 t) from by
        unfold Dat.leavesExact; rw [liveAt26_1 t], after26_1]
      rw [show (dat26 V c).leavesExact 2 t = owns (c : Thread nD τ) (ms26_2 t) fullShare ((dat26 V c).after 2 t) from by
        unfold Dat.leavesExact; rw [liveAt26_2 t], after26_2]
      rw [show (dat26 V c).leavesExact 3 t = owns (c : Thread nD τ) (ms26_3 t) fullShare ((dat26 V c).after 3 t) from by
        unfold Dat.leavesExact; rw [liveAt26_3 t], after26_3]
      rw [show (dat26 V c).leavesExact 4 t = owns (c : Thread nD τ) (ms26_4 t) fullShare ((dat26 V c).after 4 t) from by
        unfold Dat.leavesExact; rw [liveAt26_4 t], after26_4]
      rw [Dat.leavesExact_idle (dat26 V c) 5 t (idleAt26_5_A t ((hcond26_0 t).mpr h0) (fun h => h1 ((hcond26_1 t).mp h))) (noFlush26_5_A t ((hcond26_0 t).mpr h0) (fun h => h1 ((hcond26_1 t).mp h)))]
      rw [outsAt26_A V c t h0 h1]
      unfold out14_A_3 out14_A_4 sout14_A_0; (try dsimp only)
      by_cases hz : t.val = 0
      · rw [PhiS26_castSucc V c t, PhiS26_zero V c _ _ hz, PhiA26_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid26.coords t) _ _ _ _ _ _ _ _ _ _ _ _ _ _ ((hcond26_0 t).mpr h0) (fun h => h1 ((hcond26_1 t).mp h)) (iblk26 V c 0 t) (iblk26 V c 1 t) (iblk26 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat26 V c).leavesExact 0 t = owns (c : Thread nD τ) (ms26_0 t) fullShare ((dat26 V c).after 0 t) from by
        unfold Dat.leavesExact; rw [liveAt26_0 t], after26_0]
      rw [show (dat26 V c).leavesExact 1 t = owns (c : Thread nD τ) (ms26_1 t) fullShare ((dat26 V c).after 1 t) from by
        unfold Dat.leavesExact; rw [liveAt26_1 t], after26_1]
      rw [show (dat26 V c).leavesExact 2 t = owns (c : Thread nD τ) (ms26_2 t) fullShare ((dat26 V c).after 2 t) from by
        unfold Dat.leavesExact; rw [liveAt26_2 t], after26_2]
      rw [show (dat26 V c).leavesExact 3 t = owns (c : Thread nD τ) (ms26_3 t) fullShare ((dat26 V c).after 3 t) from by
        unfold Dat.leavesExact; rw [liveAt26_3 t], after26_3]
      rw [show (dat26 V c).leavesExact 4 t = owns (c : Thread nD τ) (ms26_4 t) fullShare ((dat26 V c).after 4 t) from by
        unfold Dat.leavesExact; rw [liveAt26_4 t], after26_4]
      rw [show (dat26 V c).leavesExact 5 t = owns (c : Thread nD τ) (ms26_5 t) fullShare ((dat26 V c).after 5 t) from by
        unfold Dat.leavesExact; rw [liveAt26_5_C t (fun h => h0 ((hcond26_0 t).mp h)) ((hcond26_1 t).mpr h1)], after26_5]
      rw [outsAt26_C V c t h0 h1]
      unfold out14_C_3 out14_C_4 out14_C_5 sout14_C_0; (try dsimp only)
      by_cases hz : t.val = 0
      · exfalso; omega
      · rw [PhiS26_castSucc V c t, PhiS26_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid26.coords t) _ _ _ _ _ _ _ _ _ _ _ _ _ _ (fun h => h0 ((hcond26_0 t).mp h)) ((hcond26_1 t).mpr h1) (iblk26 V c 0 t) (iblk26 V c 1 t) (iblk26 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat26 V c).leavesExact 0 t = owns (c : Thread nD τ) (ms26_0 t) fullShare ((dat26 V c).after 0 t) from by
        unfold Dat.leavesExact; rw [liveAt26_0 t], after26_0]
      rw [show (dat26 V c).leavesExact 1 t = owns (c : Thread nD τ) (ms26_1 t) fullShare ((dat26 V c).after 1 t) from by
        unfold Dat.leavesExact; rw [liveAt26_1 t], after26_1]
      rw [show (dat26 V c).leavesExact 2 t = owns (c : Thread nD τ) (ms26_2 t) fullShare ((dat26 V c).after 2 t) from by
        unfold Dat.leavesExact; rw [liveAt26_2 t], after26_2]
      rw [show (dat26 V c).leavesExact 3 t = owns (c : Thread nD τ) (ms26_3 t) fullShare ((dat26 V c).after 3 t) from by
        unfold Dat.leavesExact; rw [liveAt26_3 t], after26_3]
      rw [show (dat26 V c).leavesExact 4 t = owns (c : Thread nD τ) (ms26_4 t) fullShare ((dat26 V c).after 4 t) from by
        unfold Dat.leavesExact; rw [liveAt26_4 t], after26_4]
      rw [Dat.leavesExact_idle (dat26 V c) 5 t (idleAt26_5_B t (fun h => h0 ((hcond26_0 t).mp h)) (fun h => h1 ((hcond26_1 t).mp h))) (noFlush26_5_B t (fun h => h0 ((hcond26_0 t).mp h)) (fun h => h1 ((hcond26_1 t).mp h)))]
      rw [outsAt26_B V c t h0 h1]
      unfold out14_B_3 out14_B_4 sout14_B_0; (try dsimp only)
      by_cases hz : t.val = 0
      · exfalso; omega
      · rw [PhiS26_castSucc V c t, PhiS26_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid26.coords t) _ _ _ _ _ _ _ _ _ _ _ _ _ _ (fun h => h0 ((hcond26_0 t).mp h)) (fun h => h1 ((hcond26_1 t).mp h)) (iblk26 V c 0 t) (iblk26 V c 1 t) (iblk26 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation26 (c : Dev nD) : BodyObligation (dat26 (F := F) V c) (defs₀ (F := F)) Variants.none () Set.univ := fun t => by
  rw [bigSep_W26, bigSep_W26]
  exact sound_body26 V c t

/-- What the launch hands the region is the invariant before the first point. -/
theorem hin26 (c : Dev nD) : Pipeline.ΦA spec26 c ⊢ (dat26 V c).Φ 0 := by
  rw [show (dat26 V c).Φ 0 = PhiS26 V c 0 (Nat.zero_le _) from rfl, PhiS26_zero V c 0 _ rfl]
  try exact Idealize.SL.BI.Entails.refl _

/-- After any point but the first the invariant gives it back: the scratch's named contents are forgotten. -/
theorem Phi_out26 (c : Dev nD) (t : Fin (cfg26.N + 1)) (ht : t.val ≠ 0) : (dat26 V c).Φ t ⊢ Pipeline.ΦA spec26 c := by
  rw [show (dat26 V c).Φ t = PhiS26 V c t.val (Nat.le_of_lt_succ t.isLt) from rfl, PhiS26_pos V c _ _ ht, PhiA26_eq]
  iintro ⟨⟨HS0, HR⟩, Hg⟩
  isplitl [HS0 HR]
  · isplitl [HS0]
    · iexists _; iexact HS0
    iexact HR
  iexact Hg

/-- The same after the last point. -/
theorem hout26 (c : Dev nD) : (dat26 V c).Φ (Fin.last cfg26.N) ⊢ Pipeline.ΦA spec26 c :=
  Phi_out26 V c _ (by rw [Fin.val_last]; have : cfg26.N = 25 := N_26; omega)

end Cert.Kernel.Hand

end
-- ==== Proof.KB.R27.lean ====
import proofs.«408084_j48395691492010_3_alg».proof.Proof.KB.R3

/-! Region 27: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk27 (c : Dev nD) (w : Fin cfg27.W) (t : Fin cfg27.N) : ((cfg27.win w).xblock (cfg27.grid.coords t)).Idx → Elt F (cfg27.win w).elt :=
  ((cfg27.win w).blk t).view.read (Elt F) (V c (Pipeline.arrRef spec27 w))

/-- The row-tile window (window 0, fetched at every point) holds its block when the body runs. -/
theorem before27_0_of {c : Dev nD} (dat : Dat τ (Elt F) Unit ℕ (UR sig nD τ) ℕ cfg27 c) (hA : dat.A 0 = V c (Pipeline.arrRef spec27 0))
    (hafter : ∀ t, dat.after 0 t = iblk27 V c 0 t) (t : Fin cfg27.N) (d) : dat.before 0 t d = iblk27 V c 0 t :=
  (dat.before_in_eq_fetched 0 rfl (fun _ => rfl) (fun _ _ _ => rfl) (fun t => by rw [hafter]; unfold Dat.blockOf iblk27; rw [hA]; try rfl) t d).trans
    (by unfold Dat.fetched Dat.blockOf iblk27; rw [hA]; try rfl)

/-- The mean window (window 1, one constant block fetched at the first point only) holds that block at every point. -/
theorem before27_1_of {c : Dev nD} (dat : Dat τ (Elt F) Unit ℕ (UR sig nD τ) ℕ cfg27 c) (hA : dat.A 1 = V c (Pipeline.arrRef spec27 1))
    (hafter : ∀ t, dat.after 1 t = iblk27 V c 1 t) (t : Fin cfg27.N) (d) : dat.before 1 t d = iblk27 V c 1 t :=
  (dat.before_in_eq_fetched 1 rfl (fun _ => rfl) (fun _ _ _ => rfl) (fun t => by rw [hafter]; unfold Dat.blockOf iblk27; rw [hA]; try rfl) t d).trans
    (by unfold Dat.fetched Dat.blockOf iblk27; rw [hA]; try rfl)

/-! ## The branch conditions and the idle points, over this region's grid (the same grid) -/

/-- The reset's condition holds at the first point only, -/
theorem hcond27_0 : ∀ t : Fin cfg27.N, cond3_0 (grid27.coords t) ↔ t.val = 0 := hcond3_0
/-- the final store's at the last point only. -/
theorem hcond27_1 : ∀ t : Fin cfg27.N, cond3_1 (grid27.coords t) ↔ t.val = 24 := hcond3_1

theorem liveAt27_0 : ∀ t : Fin cfg27.N, cfg27.idle 0 (grid27.coords t) = false := fun _ => rfl
theorem liveAt27_1 : ∀ t : Fin cfg27.N, cfg27.idle 1 (grid27.coords t) = false := fun _ => rfl
/-- Away from the last point the result window is idle, -/
theorem idleAt27_2 : ∀ t : Fin cfg27.N, ¬cond3_1 (grid27.coords t) → cfg27.idle 2 (grid27.coords t) = true := idleAt3_2
/-- and live at it. -/
theorem liveAt27_2 : ∀ t : Fin cfg27.N, cond3_1 (grid27.coords t) → cfg27.idle 2 (grid27.coords t) = false := liveAt3_2
/-- Away from the last point its block is not written back (the schedule's closed form). -/
theorem noFlush27_2 (t : Fin cfg27.N) (h : ¬cond3_1 (grid27.coords t)) : (cfg27.win 2).flush t = false := by
  have hN : t.val < 25 := lt_of_lt_of_eq t.isLt (show cfg27.N = 25 from N_27)
  have h24 : ¬t.val = 24 := fun e => h ((hcond27_1 t).mpr e)
  cases hf : (cfg27.win 2).flush t with
  | false => rfl
  | true => exact absurd (by have := (flush27_2 t).mp hf; omega) h24

/-! ## The memrefs the body is called with -/

noncomputable abbrev ms27_0 (t : Fin cfg27.N) : Memref sig .tc .vmem S2000x64 .f32 := win27_0.stage (cfg27.slots t 0)
abbrev hs27_0 (t : Fin cfg27.N) : (ms27_0 t).IsWhole := hstage27_0 ((cfg27.slots t 0).cast nbuf27_0)
noncomputable abbrev ms27_1 (t : Fin cfg27.N) : Memref sig .tc .vmem S1x64 .f32 := win27_1.stage (cfg27.slots t 1)
abbrev hs27_1 (t : Fin cfg27.N) : (ms27_1 t).IsWhole := hstage27_1 ((cfg27.slots t 1).cast nbuf27_1)
noncomputable abbrev ms27_2 (t : Fin cfg27.N) : Memref sig .tc .vmem S1x64 .f32 := win27_2.stage (cfg27.slots t 2)
abbrev hs27_2 (t : Fin cfg27.N) : (ms27_2 t).IsWhole := hstage27_2 ((cfg27.slots t 2).cast nbuf27_2)
/-- The accumulator: this call's own scratch buffer, whole. -/
noncomputable abbrev scM27_0 : Memref sig .tc .vmem S1x64 .f32 := Memref.whole cc27_scratch0

/-- The body the pipeline calls at point `t` is region 3's printed kernel on this region's memrefs: the two printed
    functions are the same term. -/
theorem bodyAt27_eq (t : Fin cfg27.N) :
    (bodyAt27 t : Prog (TpuEff nD τ sig (Elt F) Λ₀ .tc) PUnit)
      = cc3__var_kernel (grid27.coords t) (ms27_0 t) (hs27_0 t) (ms27_1 t) (hs27_1 t) (ms27_2 t) (hs27_2 t) scM27_0 (Memref.isWhole_whole _) := rfl

/-- The region-entry invariant with the accumulator split out of the scoped rest, as a memref owned at some contents. -/
theorem PhiA27_eq (c : Dev nD) :
    (Pipeline.ΦA spec27 c : sProp 𝕄)
      = iprop(iprop(iprop(∃ d, owns (c : Thread nD τ) scM27_0 fullShare d)
          ∗ Pipeline.scopedRestBut (Ix := Unit) (Name := ℕ) (U := UR sig nD τ) (Lvl := ℕ) (Val := Elt F) spec27 c [cc27_scratch0]) ∗ (∃ r, prngReg c r)) := by
  unfold Pipeline.ΦA; rw [scopedRest27_split]; simp only [scM27_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt27 (c : Dev nD) : (n : ℕ) → n < cfg27.N → Vec F S1x64 .f32 × Vec F S1x64 .f32
  | 0, hn => (idle3_2,
      sout3_A_0 c (grid27.coords ⟨0, hn⟩) (ms27_0 ⟨0, hn⟩) (hs27_0 ⟨0, hn⟩) (ms27_1 ⟨0, hn⟩) (hs27_1 ⟨0, hn⟩) (ms27_2 ⟨0, hn⟩) (hs27_2 ⟨0, hn⟩) scM27_0 (Memref.isWhole_whole _) ((hcond27_0 ⟨0, hn⟩).mpr rfl)
        (fun h => (fun h' : (0 : ℕ) = 24 => by omega) ((hcond27_1 ⟨0, hn⟩).mp h)) (iblk27 V c 0 ⟨0, hn⟩) (iblk27 V c 1 ⟨0, hn⟩))
  | n + 1, hn =>
    if h1 : n + 1 = 24 then
      (out3_C_2 c (grid27.coords ⟨n + 1, hn⟩) (ms27_0 ⟨n + 1, hn⟩) (hs27_0 ⟨n + 1, hn⟩) (ms27_1 ⟨n + 1, hn⟩) (hs27_1 ⟨n + 1, hn⟩) (ms27_2 ⟨n + 1, hn⟩) (hs27_2 ⟨n + 1, hn⟩) scM27_0 (Memref.isWhole_whole _) (fun h => (fun h' : n + 1 = 0 => by omega) ((hcond27_0 ⟨n + 1, hn⟩).mp h))
          ((hcond27_1 ⟨n + 1, hn⟩).mpr h1) (iblk27 V c 0 ⟨n + 1, hn⟩) (iblk27 V c 1 ⟨n + 1, hn⟩) (outsAt27 c n (Nat.lt_of_succ_lt hn)).2,
       sout3_C_0 c (grid27.coords ⟨n + 1, hn⟩) (ms27_0 ⟨n + 1, hn⟩) (hs27_0 ⟨n + 1, hn⟩) (ms27_1 ⟨n + 1, hn⟩) (hs27_1 ⟨n + 1, hn⟩) (ms27_2 ⟨n + 1, hn⟩) (hs27_2 ⟨n + 1, hn⟩) scM27_0 (Memref.isWhole_whole _) (fun h => (fun h' : n + 1 = 0 => by omega) ((hcond27_0 ⟨n + 1, hn⟩).mp h))
          ((hcond27_1 ⟨n + 1, hn⟩).mpr h1) (iblk27 V c 0 ⟨n + 1, hn⟩) (iblk27 V c 1 ⟨n + 1, hn⟩) (outsAt27 c n (Nat.lt_of_succ_lt hn)).2)
    else
      (idle3_2,
       sout3_B_0 c (grid27.coords ⟨n + 1, hn⟩) (ms27_0 ⟨n + 1, hn⟩) (hs27_0 ⟨n + 1, hn⟩) (ms27_1 ⟨n + 1, hn⟩) (hs27_1 ⟨n + 1, hn⟩) (ms27_2 ⟨n + 1, hn⟩) (hs27_2 ⟨n + 1, hn⟩) scM27_0 (Memref.isWhole_whole _) (fun h => (fun h' : n + 1 = 0 => by omega) ((hcond27_0 ⟨n + 1, hn⟩).mp h))
          (fun h => h1 ((hcond27_1 ⟨n + 1, hn⟩).mp h)) (iblk27 V c 0 ⟨n + 1, hn⟩) (iblk27 V c 1 ⟨n + 1, hn⟩) (outsAt27 c n (Nat.lt_of_succ_lt hn)).2)

theorem outsAt27_A (c : Dev nD) (t : Fin cfg27.N) (h0 : t.val = 0) (h1 : ¬t.val = 24) :
    outsAt27 V c t.val t.isLt = (idle3_2,
      sout3_A_0 c (grid27.coords t) (ms27_0 t) (hs27_0 t) (ms27_1 t) (hs27_1 t) (ms27_2 t) (hs27_2 t) scM27_0 (Memref.isWhole_whole _) ((hcond27_0 t).mpr h0) (fun h => h1 ((hcond27_1 t).mp h)) (iblk27 V c 0 t) (iblk27 V c 1 t)) := by
  obtain ⟨n, hn⟩ := t
  cases n with
  | zero => exact rfl
  | succ n => exact absurd h0 (Nat.succ_ne_zero n)

theorem outsAt27_B (c : Dev nD) (t : Fin cfg27.N) (h0 : ¬t.val = 0) (h1 : ¬t.val = 24) :
    outsAt27 V c t.val t.isLt = (idle3_2,
      sout3_B_0 c (grid27.coords t) (ms27_0 t) (hs27_0 t) (ms27_1 t) (hs27_1 t) (ms27_2 t) (hs27_2 t) scM27_0 (Memref.isWhole_whole _) (fun h => h0 ((hcond27_0 t).mp h)) (fun h => h1 ((hcond27_1 t).mp h)) (iblk27 V c 0 t) (iblk27 V c 1 t)
        (outsAt27 V c (t.val - 1) (Nat.lt_of_le_of_lt (Nat.sub_le _ _) t.isLt)).2) := by
  obtain ⟨n, hn⟩ := t
  cases n with
  | zero => exact absurd rfl h0
  | succ n => exact (dif_neg h1).trans rfl

theorem outsAt27_C (c : Dev nD) (t : Fin cfg27.N) (h0 : ¬t.val = 0) (h1 : t.val = 24) :
    outsAt27 V c t.val t.isLt =
      (out3_C_2 c (grid27.coords t) (ms27_0 t) (hs27_0 t) (ms27_1 t) (hs27_1 t) (ms27_2 t) (hs27_2 t) scM27_0 (Memref.isWhole_whole _) (fun h => h0 ((hcond27_0 t).mp h)) ((hcond27_1 t).mpr h1) (iblk27 V c 0 t) (iblk27 V c 1 t)
        (outsAt27 V c (t.val - 1) (Nat.lt_of_le_of_lt (Nat.sub_le _ _) t.isLt)).2,
       sout3_C_0 c (grid27.coords t) (ms27_0 t) (hs27_0 t) (ms27_1 t) (hs27_1 t) (ms27_2 t) (hs27_2 t) scM27_0 (Memref.isWhole_whole _) (fun h => h0 ((hcond27_0 t).mp h)) ((hcond27_1 t).mpr h1) (iblk27 V c 0 t) (iblk27 V c 1 t)
        (outsAt27 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS27 (c : Dev nD) : (n : ℕ) → n ≤ cfg27.N → sProp 𝕄
  | 0, _ => Pipeline.ΦA spec27 c
  | n + 1, hn => iprop(iprop(owns (c : Thread nD τ) scM27_0 fullShare ((outsAt27 V c n hn).2)
      ∗ Pipeline.scopedRestBut (Ix := Unit) (Name := ℕ) (U := UR sig nD τ) (Lvl := ℕ) (Val := Elt F) spec27 c [cc27_scratch0]) ∗ (∃ r, prngReg c r))

theorem PhiS27_zero (c : Dev nD) (n : ℕ) (h : n ≤ cfg27.N) (hz : n = 0) : PhiS27 V c n h = Pipeline.ΦA spec27 c := by
  subst hz; rfl

theorem PhiS27_succ (c : Dev nD) (n : ℕ) (hn : n < cfg27.N) :
    PhiS27 V c (n + 1) hn = iprop(iprop(owns (c : Thread nD τ) scM27_0 fullShare ((outsAt27 V c n hn).2)
      ∗ Pipeline.scopedRestBut (Ix := Unit) (Name := ℕ) (U := UR sig nD τ) (Lvl := ℕ) (Val := Elt F) spec27 c [cc27_scratch0]) ∗ (∃ r, prngReg c r)) := rfl

theorem PhiS27_pos (c : Dev nD) (n : ℕ) (h : n ≤ cfg27.N) (hz : n ≠ 0) :
    PhiS27 V c n h = iprop(iprop(owns (c : Thread nD τ) scM27_0 fullShare ((outsAt27 V c (n - 1) (by omega)).2)
      ∗ Pipeline.scopedRestBut (Ix := Unit) (Name := ℕ) (U := UR sig nD τ) (Lvl := ℕ) (Val := Elt F) spec27 c [cc27_scratch0]) ∗ (∃ r, prngReg c r)) := by
  cases n with
  | zero => exact absurd rfl hz
  | succ n => rfl

/-! ## The proof data -/

noncomputable def dat27 (c : Dev nD) : Dat τ (Elt F) Unit ℕ (UR sig nD τ) ℕ cfg27 c where
  A w := V c (Pipeline.arrRef spec27 w)
  after w t := match w with
    | ⟨0, _⟩ => iblk27 V c 0 t
    | ⟨1, _⟩ => iblk27 V c 1 t
    | ⟨2, _⟩ => (outsAt27 V c t.val t.isLt).1
  Φ t := PhiS27 V c t.val (Nat.le_of_lt_succ t.isLt)
  q _ := fullShare
  owed _ := 0

theorem A_eq27 (c : Dev nD) (w : Fin cfg27.W) : (dat27 V c).A w = V c (Pipeline.arrRef spec27 w) := by
  dsimp only [dat27]

theorem PhiS27_castSucc (c : Dev nD) (t : Fin cfg27.N) :
    (dat27 V c).Φ t.castSucc = PhiS27 V c t.val (Nat.le_of_lt t.isLt) := by
  dsimp only [dat27]; simp only [Fin.coe_castSucc]

theorem after27_0 (c : Dev nD) (t : Fin cfg27.N) : (dat27 V c).after 0 t = iblk27 V c 0 t := by dsimp only [dat27]
theorem after27_1 (c : Dev nD) (t : Fin cfg27.N) : (dat27 V c).after 1 t = iblk27 V c 1 t := by dsimp only [dat27]
theorem after27_2 (c : Dev nD) (t : Fin cfg27.N) : (dat27 V c).after 2 t = (outsAt27 V c t.val t.isLt).1 := by dsimp only [dat27]

theorem before27_0 (c : Dev nD) (t : Fin cfg27.N) (d) : (dat27 V c).before 0 t d = iblk27 V c 0 t :=
  before27_0_of V (dat27 V c) (A_eq27 V c 0) (after27_0 V c) t d
theorem before27_1 (c : Dev nD) (t : Fin cfg27.N) (d) : (dat27 V c).before 1 t d = iblk27 V c 1 t :=
  before27_1_of V (dat27 V c) (A_eq27 V c 1) (after27_1 V c) t d

/-! ## The body obligation -/

noncomputable def bodyPre27 (c : Dev nD) (t : Fin cfg27.N) : sProp 𝕄 :=
  iprop((dat27 V c).Φ t.castSucc ∗ (dat27 V c).owesAt () t.castSucc
    ∗ (∃ d, owns (c : Thread nD τ) (ms27_0 t) fullShare ((dat27 V c).before 0 t d))
    ∗ (∃ d, owns (c : Thread nD τ) (ms27_1 t) fullShare ((dat27 V c).before 1 t d))
    ∗ (∃ d, owns (c : Thread nD τ) (ms27_2 t) fullShare ((dat27 V c).before 2 t d)))

noncomputable def bodyPost27 (c : Dev nD) (t : Fin cfg27.N) : sProp 𝕄 :=
  iprop((dat27 V c).Φ t.succ ∗ (dat27 V c).owesAt () t.succ
    ∗ (dat27 V c).leavesExact 0 t
    ∗ (dat27 V c).leavesExact 1 t
    ∗ (dat27 V c).leavesExact 2 t)

set_option maxHeartbeats 4800000 in
/-- The body at any point, from region 3's triples on this region's memrefs. -/
theorem sound_body27 (c : Dev nD) (t : Fin cfg27.N) :
    bodyPre27 V c t ⊢ wp frame (wpE (defs₀ (F := F)) Variants.none c none) Set.univ (bodyAt27 t) (fun _ => bodyPost27 V c t) := by
  rw [bodyAt27_eq (F := F) t]
  unfold bodyPre27 bodyPost27
  simp only [before27_0, before27_1]
  rw [show (dat27 V c).owesAt () t.succ = (dat27 V c).owesAt () t.castSucc from rfl]
  rw [show (dat27 V c).Φ t.succ = PhiS27 V c (t.val + 1) t.isLt from rfl, PhiS27_succ]
  have hN : t.val < 25 := lt_of_lt_of_eq t.isLt (show cfg27.N = 25 from N_27)
  rw [show (dat27 V c).leavesExact 0 t = owns (c : Thread nD τ) (ms27_0 t) fullShare ((dat27 V c).after 0 t) from by
    unfold Dat.leavesExact; rw [liveAt27_0 t], after27_0]
  rw [show (dat27 V c).leavesExact 1 t = owns (c : Thread nD τ) (ms27_1 t) fullShare ((dat27 V c).after 1 t) from by
    unfold Dat.leavesExact; rw [liveAt27_1 t], after27_1]
  by_cases h0 : t.val = 0
  · have h1 : ¬t.val = 24 := by omega
    rw [Dat.leavesExact_idle (dat27 V c) 2 t (idleAt27_2 t (fun h => h1 ((hcond27_1 t).mp h))) (noFlush27_2 t (fun h => h1 ((hcond27_1 t).mp h)))]
    rw [outsAt27_A V c t h0 h1]
    unfold sout3_A_0; (try dsimp only)
    rw [PhiS27_castSucc V c t, PhiS27_zero V c _ _ h0, PhiA27_eq]
    iintro ⟨⟨⟨HS0, Hr⟩, Hg⟩, Ho, ⟨%d0, H0⟩, ⟨%d1, H1⟩, ⟨%d2, H2⟩⟩
    iapply ((kernelRun3_A c (grid27.coords t) _ _ _ _ _ _ _ _ ((hcond27_0 t).mpr h0) (fun h => h1 ((hcond27_1 t).mp h)) (iblk27 V c 0 t) (iblk27 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat27 V c).leavesExact 2 t = owns (c : Thread nD τ) (ms27_2 t) fullShare ((dat27 V c).after 2 t) from by
        unfold Dat.leavesExact; rw [liveAt27_2 t ((hcond27_1 t).mpr h1)], after27_2]
      rw [outsAt27_C V c t h0 h1]
      unfold out3_C_2 sout3_C_0; (try dsimp only)
      rw [PhiS27_castSucc V c t, PhiS27_pos V c _ _ h0]
      iintro ⟨⟨⟨HS0, Hr⟩, Hg⟩, Ho, ⟨%d0, H0⟩, ⟨%d1, H1⟩, ⟨%d2, H2⟩⟩
      iapply ((kernelRun3_C c (grid27.coords t) _ _ _ _ _ _ _ _ (fun h => h0 ((hcond27_0 t).mp h)) ((hcond27_1 t).mpr h1) (iblk27 V c 0 t) (iblk27 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat27 V c) 2 t (idleAt27_2 t (fun h => h1 ((hcond27_1 t).mp h))) (noFlush27_2 t (fun h => h1 ((hcond27_1 t).mp h)))]
      rw [outsAt27_B V c t h0 h1]
      unfold sout3_B_0; (try dsimp only)
      rw [PhiS27_castSucc V c t, PhiS27_pos V c _ _ h0]
      iintro ⟨⟨⟨HS0, Hr⟩, Hg⟩, Ho, ⟨%d0, H0⟩, ⟨%d1, H1⟩, ⟨%d2, H2⟩⟩
      iapply ((kernelRun3_B c (grid27.coords t) _ _ _ _ _ _ _ _ (fun h => h0 ((hcond27_0 t).mp h)) (fun h => h1 ((hcond27_1 t).mp h)) (iblk27 V c 0 t) (iblk27 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation27 (c : Dev nD) : BodyObligation (dat27 (F := F) V c) (defs₀ (F := F)) Variants.none () Set.univ := fun t => by
  rw [bigSep_W27, bigSep_W27]
  exact sound_body27 V c t

/-- What the launch hands the region is the invariant before the first point. -/
theorem hin27 (c : Dev nD) : Pipeline.ΦA spec27 c ⊢ (dat27 V c).Φ 0 := by
  rw [show (dat27 V c).Φ 0 = PhiS27 V c 0 (Nat.zero_le _) from rfl, PhiS27_zero V c 0 _ rfl]
  try exact Idealize.SL.BI.Entails.refl _

/-- After any point but the first the invariant gives the launch's back: the accumulator's named contents are forgotten. -/
theorem Phi_out27 (c : Dev nD) (t : Fin (cfg27.N + 1)) (ht : t.val ≠ 0) : (dat27 V c).Φ t ⊢ Pipeline.ΦA spec27 c := by
  rw [show (dat27 V c).Φ t = PhiS27 V c t.val (Nat.le_of_lt_succ t.isLt) from rfl, PhiS27_pos V c _ _ ht, PhiA27_eq]
  iintro ⟨⟨HS0, Hr⟩, Hg⟩
  isplitl [HS0 Hr]
  · isplitl [HS0]
    · iexists _; iexact HS0
    iexact Hr
  iexact Hg

/-- The same after the last point. -/
theorem hout27 (c : Dev nD) : (dat27 V c).Φ (Fin.last cfg27.N) ⊢ Pipeline.ΦA spec27 c :=
  Phi_out27 V c _ (by rw [Fin.val_last]; have : cfg27.N = 25 := N_27; omega)

end Cert.Kernel.Hand

end
-- ==== Proof.KB.R28.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Ring
import Idealize.ShloMosaic.Lib.Tactic

/-!
# Region 28: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region28
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk28 (c : Dev nD) (w : Fin cfg28.W) (t : Fin cfg28.N) : ((cfg28.win w).xblock (cfg28.grid.coords t)).Idx → Elt F (cfg28.win w).elt :=
  ((cfg28.win w).blk t).view.read (Elt F) (V c (Pipeline.arrRef spec28 w))

/-- The activations' staging buffer holds the block of the current point at every point: the window is fetched at
    every point, is never cut and never idle, and the body leaves the block where it found it. -/
theorem before28_0_of {c : Dev nD} (dat : Dat τ (Elt F) Unit ℕ (UR sig nD τ) ℕ cfg28 c) (hA : dat.A 0 = V c (Pipeline.arrRef spec28 0))
    (hafter : ∀ t, dat.after 0 t = iblk28 V c 0 t) (t : Fin cfg28.N) (d) : dat.before 0 t d = iblk28 V c 0 t :=
  (dat.before_in_eq_fetched 0 rfl (fun _ => rfl) (fun _ _ _ => rfl) (fun t => by rw [hafter]; unfold Dat.blockOf iblk28; rw [hA]; try rfl) t d).trans
    (by unfold Dat.fetched Dat.blockOf iblk28; rw [hA]; try rfl)

/-- The mean row's staging buffer holds its (one) block at every point: it is fetched at the first point only, its
    block index never moves afterwards, and the body leaves it in place. -/
theorem before28_1_of {c : Dev nD} (dat : Dat τ (Elt F) Unit ℕ (UR sig nD τ) ℕ cfg28 c) (hA : dat.A 1 = V c (Pipeline.arrRef spec28 1))
    (hafter : ∀ t, dat.after 1 t = iblk28 V c 1 t) (t : Fin cfg28.N) (d) : dat.before 1 t d = iblk28 V c 1 t :=
  (dat.before_in_eq_fetched 1 rfl (fun _ => rfl) (fun _ _ _ => rfl) (fun t => by rw [hafter]; unfold Dat.blockOf iblk28; rw [hA]; try rfl) t d).trans
    (by unfold Dat.fetched Dat.blockOf iblk28; rw [hA]; try rfl)

/-- The same of the variance row. -/
theorem before28_2_of {c : Dev nD} (dat : Dat τ (Elt F) Unit ℕ (UR sig nD τ) ℕ cfg28 c) (hA : dat.A 2 = V c (Pipeline.arrRef spec28 2))
    (hafter : ∀ t, dat.after 2 t = iblk28 V c 2 t) (t : Fin cfg28.N) (d) : dat.before 2 t d = iblk28 V c 2 t :=
  (dat.before_in_eq_fetched 2 rfl (fun _ => rfl) (fun _ _ _ => rfl) (fun t => by rw [hafter]; unfold Dat.blockOf iblk28; rw [hA]; try rfl) t d).trans
    (by unfold Dat.fetched Dat.blockOf iblk28; rw [hA]; try rfl)

/-- The same of the scale row. -/
theorem before28_3_of {c : Dev nD} (dat : Dat τ (Elt F) Unit ℕ (UR sig nD τ) ℕ cfg28 c) (hA : dat.A 3 = V c (Pipeline.arrRef spec28 3))
    (hafter : ∀ t, dat.after 3 t = iblk28 V c 3 t) (t : Fin cfg28.N) (d) : dat.before 3 t d = iblk28 V c 3 t :=
  (dat.before_in_eq_fetched 3 rfl (fun _ => rfl) (fun _ _ _ => rfl) (fun t => by rw [hafter]; unfold Dat.blockOf iblk28; rw [hA]; try rfl) t d).trans
    (by unfold Dat.fetched Dat.blockOf iblk28; rw [hA]; try rfl)

/-- The same of the shift row. -/
theorem before28_4_of {c : Dev nD} (dat : Dat τ (Elt F) Unit ℕ (UR sig nD τ) ℕ cfg28 c) (hA : dat.A 4 = V c (Pipeline.arrRef spec28 4))
    (hafter : ∀ t, dat.after 4 t = iblk28 V c 4 t) (t : Fin cfg28.N) (d) : dat.before 4 t d = iblk28 V c 4 t :=
  (dat.before_in_eq_fetched 4 rfl (fun _ => rfl) (fun _ _ _ => rfl) (fun t => by rw [hafter]; unfold Dat.blockOf iblk28; rw [hA]; try rfl) t d).trans
    (by unfold Dat.fetched Dat.blockOf iblk28; rw [hA]; try rfl)

/-! ## The body's accesses: each buffer is read, and the output written, whole -/

/-- The whole of a block of 2000 rows. -/
noncomputable abbrev r28_0 : Rect S2000x64 := Rect.unit (s := S2000x64) ![0, 0] S2000x64.size inb_S2000x64_S2000x64_0_0
/-- The whole of a single row. -/
noncomputable abbrev r28_1 : Rect S1x64 := Rect.unit (s := S1x64) ![0, 0] S1x64.size inb_S1x64_S1x64_0_0

/-! ## What the body leaves in the output buffer -/

/-- The output buffer after the body, from the five input blocks: its one store, whose payload is the skeleton's. -/
noncomputable def out28_5 (x0 : Vec F S2000x64 .f32) (x1 : Vec F S1x64 .f32) (x2 : Vec F S1x64 .f32) (x3 : Vec F S1x64 .f32) (x4 : Vec F S1x64 .f32) :
    Vec F S2000x64 .f32 :=
  View.canon [⟨r28_0, k28_pay1 (View.ld x0 r28_0) (View.ld x1 r28_1) (View.ld x2 r28_1) (View.ld x3 r28_1) (View.ld x4 r28_1)⟩]

/-- The one store covers the buffer. -/
theorem cover28_5 (p0 : Vec F S2000x64 .f32) (y : S2000x64.Idx) :
    ∃ pc ∈ ([⟨r28_0, p0⟩] : List (View.Piece (Elt F) S2000x64 .f32)), y ∈ pc.1.set :=
  View.cover_of_tiled [⟨r28_0, p0⟩] S2000x64.size (by rfl) y

/-! ## The body's triple -/

set_option maxHeartbeats 1000000 in
/-- The body on whole staging buffers, the five inputs' at read contents x0 … x4 and the output's at anything, runs
    to a state in which the inputs' are as they were and the output's holds out28_5 of them. (The body also loads the
    output buffer before it stores to it; the loaded value is not used.) -/
theorem sound_kernel28 (c : Dev nD) (E : Set ℕ) (i : grid28.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out28_5 x0 x1 x2 x3 x4)) -∗ K ⟨⟩))
      ⊢ wp frame (wpE (defs₀ (F := F)) Variants.none c none) E (cc28__bn_softmax_kernel i arg1 harg1 arg2 harg2 arg3 harg3 arg4 harg4 arg5 harg5 arg6 harg6) K := by
  simp only [cc28__bn_softmax_kernel_eq_skeleton]; unfold cc28__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover28_5 _)

/-! ## The pipeline's proof data -/

/-- The proof data of the region's pipeline on core c: the arrays as the region finds them; after the body at point t
    each input's buffer at its block and the output's at out28_5 of the input blocks; the invariant that of a body which
    touches nothing but its windows; nothing owed; full shares. -/
noncomputable def dat28 (c : Dev nD) : Dat τ (Elt F) Unit ℕ (UR sig nD τ) ℕ cfg28 c where
  A w := V c (Pipeline.arrRef spec28 w)
  after w t := match w with
    | ⟨0, _⟩ => iblk28 V c 0 t
    | ⟨1, _⟩ => iblk28 V c 1 t
    | ⟨2, _⟩ => iblk28 V c 2 t
    | ⟨3, _⟩ => iblk28 V c 3 t
    | ⟨4, _⟩ => iblk28 V c 4 t
    | ⟨5, _⟩ => out28_5 (iblk28 V c 0 t) (iblk28 V c 1 t) (iblk28 V c 2 t) (iblk28 V c 3 t) (iblk28 V c 4 t)
  Φ _ := Pipeline.ΦA spec28 c
  q _ := fullShare
  owed _ := 0

/-- The proof data's arrays are the region-entry contents. -/
theorem A_eq28 (c : Dev nD) (w : Fin cfg28.W) : (dat28 V c).A w = V c (Pipeline.arrRef spec28 w) := by
  dsimp only [dat28]

/-- What the body leaves, window by window. -/
theorem after28_0 (c : Dev nD) (t : Fin cfg28.N) : (dat28 V c).after 0 t = iblk28 V c 0 t := by dsimp only [dat28]
theorem after28_1 (c : Dev nD) (t : Fin cfg28.N) : (dat28 V c).after 1 t = iblk28 V c 1 t := by dsimp only [dat28]
theorem after28_2 (c : Dev nD) (t : Fin cfg28.N) : (dat28 V c).after 2 t = iblk28 V c 2 t := by dsimp only [dat28]
theorem after28_3 (c : Dev nD) (t : Fin cfg28.N) : (dat28 V c).after 3 t = iblk28 V c 3 t := by dsimp only [dat28]
theorem after28_4 (c : Dev nD) (t : Fin cfg28.N) : (dat28 V c).after 4 t = iblk28 V c 4 t := by dsimp only [dat28]
theorem after28_5 (c : Dev nD) (t : Fin cfg28.N) :
    (dat28 V c).after 5 t = out28_5 (iblk28 V c 0 t) (iblk28 V c 1 t) (iblk28 V c 2 t) (iblk28 V c 3 t) (iblk28 V c 4 t) := by dsimp only [dat28]

/-- Each input's current staging buffer holds its block at every point, fetched there or not. -/
theorem before28_0 (c : Dev nD) (t : Fin cfg28.N) (d) : (dat28 V c).before 0 t d = iblk28 V c 0 t :=
  before28_0_of V (dat28 V c) (A_eq28 V c 0) (after28_0 V c) t d
theorem before28_1 (c : Dev nD) (t : Fin cfg28.N) (d) : (dat28 V c).before 1 t d = iblk28 V c 1 t :=
  before28_1_of V (dat28 V c) (A_eq28 V c 1) (after28_1 V c) t d
theorem before28_2 (c : Dev nD) (t : Fin cfg28.N) (d) : (dat28 V c).before 2 t d = iblk28 V c 2 t :=
  before28_2_of V (dat28 V c) (A_eq28 V c 2) (after28_2 V c) t d
theorem before28_3 (c : Dev nD) (t : Fin cfg28.N) (d) : (dat28 V c).before 3 t d = iblk28 V c 3 t :=
  before28_3_of V (dat28 V c) (A_eq28 V c 3) (after28_3 V c) t d
theorem before28_4 (c : Dev nD) (t : Fin cfg28.N) (d) : (dat28 V c).before 4 t d = iblk28 V c 4 t :=
  before28_4_of V (dat28 V c) (A_eq28 V c 4) (after28_4 V c) t d

/-! ## The body obligation, at a generic point -/

/-- What the body is called with at point t, the windows one by one, -/
noncomputable def bodyPre28 (c : Dev nD) (t : Fin cfg28.N) : sProp 𝕄 :=
  iprop((dat28 V c).Φ t.castSucc ∗ (dat28 V c).owesAt () t.castSucc
    ∗ (∃ d, owns (c : Thread nD τ) (st28_0 t) fullShare ((dat28 V c).before 0 t d))
    ∗ (∃ d, owns (c : Thread nD τ) (st28_1 t) fullShare ((dat28 V c).before 1 t d))
    ∗ (∃ d, owns (c : Thread nD τ) (st28_2 t) fullShare ((dat28 V c).before 2 t d))
    ∗ (∃ d, owns (c : Thread nD τ) (st28_3 t) fullShare ((dat28 V c).before 3 t d))
    ∗ (∃ d, owns (c : Thread nD τ) (st28_4 t) fullShare ((dat28 V c).before 4 t d))
    ∗ (∃ d, owns (c : Thread nD τ) (st28_5 t) fullShare ((dat28 V c).before 5 t d)))

/-- and what it returns. -/
noncomputable def bodyPost28 (c : Dev nD) (t : Fin cfg28.N) : sProp 𝕄 :=
  iprop((dat28 V c).Φ t.succ ∗ (dat28 V c).owesAt () t.succ
    ∗ owns (c : Thread nD τ) (st28_0 t) fullShare ((dat28 V c).after 0 t)
    ∗ owns (c : Thread nD τ) (st28_1 t) fullShare ((dat28 V c).after 1 t)
    ∗ owns (c : Thread nD τ) (st28_2 t) fullShare ((dat28 V c).after 2 t)
    ∗ owns (c : Thread nD τ) (st28_3 t) fullShare ((dat28 V c).after 3 t)
    ∗ owns (c : Thread nD τ) (st28_4 t) fullShare ((dat28 V c).after 4 t)
    ∗ owns (c : Thread nD τ) (st28_5 t) fullShare ((dat28 V c).after 5 t))

/-- The body at any point: the inputs' buffers hold their blocks, so the body's triple applies; the invariant and
    what the core owes pass through unread. -/
theorem sound_body28 (c : Dev nD) (t : Fin cfg28.N) :
    bodyPre28 V c t ⊢ wp frame (wpE (defs₀ (F := F)) Variants.none c none) Set.univ (bodyAt28 t) (fun _ => bodyPost28 V c t) := by
  unfold bodyPre28 bodyPost28 bodyAt28
  simp only [before28_0, before28_1, before28_2, before28_3, before28_4]
  rw [show (dat28 V c).Φ t.succ = (dat28 V c).Φ t.castSucc from rfl,
    show (dat28 V c).owesAt () t.succ = (dat28 V c).owesAt () t.castSucc from rfl,
    after28_0, after28_1, after28_2, after28_3, after28_4, after28_5]
  iintro ⟨HΦ, Ho, ⟨%d0, H0⟩, ⟨%d1, H1⟩, ⟨%d2, H2⟩, ⟨%d3, H3⟩, ⟨%d4, H4⟩, ⟨%d5, H5⟩⟩
  iapply (sound_kernel28 c Set.univ (grid28.coords t) _ _ _ _ _ _ _ _ _ _ _ _
    (iblk28 V c 0 t) (iblk28 V c 1 t) (iblk28 V c 2 t) (iblk28 V c 3 t) (iblk28 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation28 (c : Dev nD) : BodyObligation (dat28 (F := F) V c) (defs₀ (F := F)) Variants.none () Set.univ := fun t => by
  rw [bigSep_W28, bigSep_W28]
  exact sound_body28 V c t

end Region28

end Cert.Kernel.Hand

end
-- ==== Proof.KB.R29.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.Regions
import Idealize.ShloMosaic.Lib.Tactic

/-! # Region 29: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region29
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk29 (c : Dev nD) (w : Fin cfg29.W) (t : Fin cfg29.N) : ((cfg29.win w).xblock (cfg29.grid.coords t)).Idx → Elt F (cfg29.win w).elt :=
  ((cfg29.win w).blk t).view.read (Elt F) (V c (Pipeline.arrRef spec29 w))

/-- The rows of X: the staging buffer the body is handed holds the block of the point, whether the
    point fetched it or not (an unfetched input has not moved its block index). -/
theorem before29_0_of {c : Dev nD} (dat : Dat τ (Elt F) Unit ℕ (UR sig nD τ) ℕ cfg29 c) (hA : dat.A 0 = V c (Pipeline.arrRef spec29 0))
    (hafter : ∀ t, dat.after 0 t = iblk29 V c 0 t) (t : Fin cfg29.N) (d) : dat.before 0 t d = iblk29 V c 0 t :=
  (dat.before_in_eq_fetched 0 rfl (fun _ => rfl) (fun _ _ _ => rfl) (fun t => by rw [hafter]; unfold Dat.blockOf iblk29; rw [hA]; try rfl) t d).trans
    (by unfold Dat.fetched Dat.blockOf iblk29; rw [hA]; try rfl)

/-- The matrix W: fetched at the first point only, and found in place at every later one. -/
theorem before29_1_of {c : Dev nD} (dat : Dat τ (Elt F) Unit ℕ (UR sig nD τ) ℕ cfg29 c) (hA : dat.A 1 = V c (Pipeline.arrRef spec29 1))
    (hafter : ∀ t, dat.after 1 t = iblk29 V c 1 t) (t : Fin cfg29.N) (d) : dat.before 1 t d = iblk29 V c 1 t :=
  (dat.before_in_eq_fetched 1 rfl (fun _ => rfl) (fun _ _ _ => rfl) (fun t => by rw [hafter]; unfold Dat.blockOf iblk29; rw [hA]; try rfl) t d).trans
    (by unfold Dat.fetched Dat.blockOf iblk29; rw [hA]; try rfl)

/-! ## The body's accesses: each buffer whole -/

noncomputable abbrev r29_0 : Rect S2000x64 := Rect.unit (s := S2000x64) ![0, 0] S2000x64.size inb_S2000x64_S2000x64_0_0
noncomputable abbrev r29_1 : Rect S64x64 := Rect.unit (s := S64x64) ![0, 0] S64x64.size inb_S64x64_S64x64_0_0
noncomputable abbrev r29_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out29_2 (x0 : Vec F S2000x64 .f32) (x1 : Vec F S64x64 .f32) : Vec F S2000x64 .f32 :=
  View.canon [⟨r29_2, k29_pay1 (View.ld x0 r29_0) (View.ld x1 r29_1)⟩]

/-- The store's rectangle is the whole buffer, so it covers every index. -/
theorem cover29_2 (p0 : Vec F S2000x64 .f32) (y : S2000x64.Idx) :
    ∃ pc ∈ ([⟨r29_2, p0⟩] : List (View.Piece (Elt F) S2000x64 .f32)), y ∈ pc.1.set :=
  View.cover_of_tiled [⟨r29_2, p0⟩] S2000x64.size (by rfl) y

/-! ## The body's triple -/

set_option maxHeartbeats 1000000 in
/-- On whole staging memrefs, the inputs' holding x0 and x1 and the output's holding anything, the body
    runs to a state where the inputs' are unchanged and the output's holds out29_2 x0 x1. The body also reads
    the output buffer before storing into it; the value read is not used. -/
theorem sound_kernel29 (c : Dev nD) (E : Set ℕ) (i : grid29.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out29_2 x0 x1)) -∗ K ⟨⟩))
      ⊢ wp frame (wpE (defs₀ (F := F)) Variants.none c none) E (cc29__linear_kernel i arg1 harg1 arg2 harg2 arg3 harg3) K := by
  simp only [cc29__linear_kernel_eq_skeleton]; unfold cc29__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover29_2 _)

/-! ## The pipeline's proof data -/

/-- The arrays as the region finds them; after the body at point t the inputs' buffers at their blocks
    and the output's at the product block; the invariant is the scoped rest and the generator register,
    untouched; nothing owed; full shares. -/
noncomputable def dat29 (c : Dev nD) : Dat τ (Elt F) Unit ℕ (UR sig nD τ) ℕ cfg29 c where
  A w := V c (Pipeline.arrRef spec29 w)
  after w t := match w with
    | ⟨0, _⟩ => iblk29 V c 0 t
    | ⟨1, _⟩ => iblk29 V c 1 t
    | ⟨2, _⟩ => out29_2 (iblk29 V c 0 t) (iblk29 V c 1 t)
  Φ _ := Pipeline.ΦA spec29 c
  q _ := fullShare
  owed _ := 0

theorem A_eq29 (c : Dev nD) (w : Fin cfg29.W) : (dat29 V c).A w = V c (Pipeline.arrRef spec29 w) := by
  dsimp only [dat29]

theorem after29_0 (c : Dev nD) (t : Fin cfg29.N) : (dat29 V c).after 0 t = iblk29 V c 0 t := by dsimp only [dat29]
theorem after29_1 (c : Dev nD) (t : Fin cfg29.N) : (dat29 V c).after 1 t = iblk29 V c 1 t := by dsimp only [dat29]
theorem after29_2 (c : Dev nD) (t : Fin cfg29.N) : (dat29 V c).after 2 t = out29_2 (iblk29 V c 0 t) (iblk29 V c 1 t) := by dsimp only [dat29]

theorem before29_0 (c : Dev nD) (t : Fin cfg29.N) (d) : (dat29 V c).before 0 t d = iblk29 V c 0 t :=
  before29_0_of V (dat29 V c) (A_eq29 V c 0) (after29_0 V c) t d
theorem before29_1 (c : Dev nD) (t : Fin cfg29.N) (d) : (dat29 V c).before 1 t d = iblk29 V c 1 t :=
  before29_1_of V (dat29 V c) (A_eq29 V c 1) (after29_1 V c) t d

/-! ## The body obligation, at a generic point -/

/-- What the body is called with at point t, window by window, -/
noncomputable def bodyPre29 (c : Dev nD) (t : Fin cfg29.N) : sProp 𝕄 :=
  iprop((dat29 V c).Φ t.castSucc ∗ (dat29 V c).owesAt () t.castSucc
    ∗ (∃ d, owns (c : Thread nD τ) (st29_0 t) fullShare ((dat29 V c).before 0 t d))
    ∗ (∃ d, owns (c : Thread nD τ) (st29_1 t) fullShare ((dat29 V c).before 1 t d))
    ∗ (∃ d, owns (c : Thread nD τ) (st29_2 t) fullShare ((dat29 V c).before 2 t d)))

/-- and what it returns. -/
noncomputable def bodyPost29 (c : Dev nD) (t : Fin cfg29.N) : sProp 𝕄 :=
  iprop((dat29 V c).Φ t.succ ∗ (dat29 V c).owesAt () t.succ
    ∗ owns (c : Thread nD τ) (st29_0 t) fullShare ((dat29 V c).after 0 t)
    ∗ owns (c : Thread nD τ) (st29_1 t) fullShare ((dat29 V c).after 1 t)
    ∗ owns (c : Thread nD τ) (st29_2 t) fullShare ((dat29 V c).after 2 t))

/-- The inputs' memrefs hold their blocks, so the body's triple applies; the invariant and what the core
    owes pass through unread. -/
theorem sound_body29 (c : Dev nD) (t : Fin cfg29.N) :
    bodyPre29 V c t ⊢ wp frame (wpE (defs₀ (F := F)) Variants.none c none) Set.univ (bodyAt29 t) (fun _ => bodyPost29 V c t) := by
  unfold bodyPre29 bodyPost29 bodyAt29
  simp only [before29_0, before29_1]
  rw [show (dat29 V c).Φ t.succ = (dat29 V c).Φ t.castSucc from rfl,
    show (dat29 V c).owesAt () t.succ = (dat29 V c).owesAt () t.castSucc from rfl,
    after29_0, after29_1, after29_2]
  iintro ⟨HΦ, Ho, ⟨%d0, H0⟩, ⟨%d1, H1⟩, ⟨%d2, H2⟩⟩
  iapply (sound_kernel29 c Set.univ (grid29.coords t) _ _ _ _ _ _ (iblk29 V c 0 t) (iblk29 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation29 (c : Dev nD) : BodyObligation (dat29 (F := F) V c) (defs₀ (F := F)) Variants.none () Set.univ := fun t => by
  rw [bigSep_W29, bigSep_W29]
  exact sound_body29 V c t

end Region29

end Cert.Kernel.Hand

end
-- ==== Proof.KB.R30.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.R14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The kernel is region 14's

The two regions' printed kernel functions are the same function of the grid coordinate and the memrefs (the same
text over the same shapes; the grids and the last-point conditions are the same literals), so region 14's runs of the
body, its covers and its per-case contents — all stated over abstract coordinates and memrefs — serve this region. -/

theorem cc30_kernel_eq : cc30_kernel (F := F) = cc14_kernel (F := F) := rfl

/-! ## The windows' blocks -/

/-- Window `w`'s block at point `t`, read off its array as the region finds it (`V`). -/
noncomputable def iblk30 (c : Dev nD) (w : Fin cfg30.W) (t : Fin cfg30.N) : ((cfg30.win w).xblock (cfg30.grid.coords t)).Idx → Elt F (cfg30.win w).elt :=
  ((cfg30.win w).blk t).view.read (Elt F) (V c (Pipeline.arrRef spec30 w))

/-- Input window 0's current staging buffer holds its block at every point, for any proof data whose array is
    `V`'s and whose body leaves the block in place: the window is uncut and never idle. -/
theorem before30_0_of {c : Dev nD} (dat : Dat τ (Elt F) Unit ℕ (UR sig nD τ) ℕ cfg30 c) (hA : dat.A 0 = V c (Pipeline.arrRef spec30 0))
    (hafter : ∀ t, dat.after 0 t = iblk30 V c 0 t) (t : Fin cfg30.N) (d) : dat.before 0 t d = iblk30 V c 0 t :=
  (dat.before_in_eq_fetched 0 rfl (fun _ => rfl) (fun _ _ _ => rfl) (fun t => by rw [hafter]; unfold Dat.blockOf iblk30; rw [hA]; try rfl) t d).trans
    (by unfold Dat.fetched Dat.blockOf iblk30; rw [hA]; try rfl)

/-- Input window 1 likewise: fetched at the first point only, its block index never moves, so the buffer holds
    the block at every point. -/
theorem before30_1_of {c : Dev nD} (dat : Dat τ (Elt F) Unit ℕ (UR sig nD τ) ℕ cfg30 c) (hA : dat.A 1 = V c (Pipeline.arrRef spec30 1))
    (hafter : ∀ t, dat.after 1 t = iblk30 V c 1 t) (t : Fin cfg30.N) (d) : dat.before 1 t d = iblk30 V c 1 t :=
  (dat.before_in_eq_fetched 1 rfl (fun _ => rfl) (fun _ _ _ => rfl) (fun t => by rw [hafter]; unfold Dat.blockOf iblk30; rw [hA]; try rfl) t d).trans
    (by unfold Dat.fetched Dat.blockOf iblk30; rw [hA]; try rfl)

/-- Input window 2 likewise. -/
theorem before30_2_of {c : Dev nD} (dat : Dat τ (Elt F) Unit ℕ (UR sig nD τ) ℕ cfg30 c) (hA : dat.A 2 = V c (Pipeline.arrRef spec30 2))
    (hafter : ∀ t, dat.after 2 t = iblk30 V c 2 t) (t : Fin cfg30.N) (d) : dat.before 2 t d = iblk30 V c 2 t :=
  (dat.before_in_eq_fetched 2 rfl (fun _ => rfl) (fun _ _ _ => rfl) (fun t => by rw [hafter]; unfold Dat.blockOf iblk30; rw [hA]; try rfl) t d).trans
    (by unfold Dat.fetched Dat.blockOf iblk30; rw [hA]; try rfl)

/-! ## The body's two conditions on the grid coordinate -/

/-- It holds at the first point only. -/
theorem hcond30_0 : ∀ t : Fin cfg30.N, cond14_0 (grid30.coords t) ↔ t.val % 25 = 0 :=
  (by decide +kernel : ∀ t : Fin grid30.N, cond14_0 (grid30.coords t) ↔ t.val % 25 = 0)

/-- It holds at the last point only. -/
theorem hcond30_1 : ∀ t : Fin cfg30.N, cond14_1 (grid30.coords t) ↔ t.val % 25 = 24 :=
  (by decide +kernel : ∀ t : Fin grid30.N, cond14_1 (grid30.coords t) ↔ t.val % 25 = 24)

/-! ## Where the windows are idle -/

theorem liveAt30_0 : ∀ t : Fin cfg30.N, cfg30.idle 0 (grid30.coords t) = false := by decide +kernel
theorem liveAt30_1 : ∀ t : Fin cfg30.N, cfg30.idle 1 (grid30.coords t) = false := by decide +kernel
theorem liveAt30_2 : ∀ t : Fin cfg30.N, cfg30.idle 2 (grid30.coords t) = false := by decide +kernel
theorem liveAt30_3 : ∀ t : Fin cfg30.N, cfg30.idle 3 (grid30.coords t) = false := by decide +kernel
theorem liveAt30_4 : ∀ t : Fin cfg30.N, cfg30.idle 4 (grid30.coords t) = false := by decide +kernel
/-- At the first point the body stores nothing into output 5: the window is idle there and not written back. -/
theorem idleAt30_5_A : ∀ t : Fin cfg30.N, cond14_0 (grid30.coords t) → ¬cond14_1 (grid30.coords t) → cfg30.idle 5 (grid30.coords t) = true := by decide +kernel
theorem noFlush30_5_A : ∀ t : Fin cfg30.N, cond14_0 (grid30.coords t) → ¬cond14_1 (grid30.coords t) → (cfg30.win 5).flush t = false := by decide +kernel
/-- Nor at the middle points. -/
theorem idleAt30_5_B : ∀ t : Fin cfg30.N, ¬cond14_0 (grid30.coords t) → ¬cond14_1 (grid30.coords t) → cfg30.idle 5 (grid30.coords t) = true := by decide +kernel
theorem noFlush30_5_B : ∀ t : Fin cfg30.N, ¬cond14_0 (grid30.coords t) → ¬cond14_1 (grid30.coords t) → (cfg30.win 5).flush t = false := by decide +kernel
/-- At the last point it stores the accumulated sums there: the window is live. -/
theorem liveAt30_5_C : ∀ t : Fin cfg30.N, ¬cond14_0 (grid30.coords t) → cond14_1 (grid30.coords t) → cfg30.idle 5 (grid30.coords t) = false := by decide +kernel

/-! ## The memrefs the body is called with -/

/-- Each window's current staging memref at point `t`, as the pipeline passes it, and its wholeness. -/
noncomputable abbrev ms30_0 (t : Fin cfg30.N) : Memref sig .tc .vmem S2000x64 .f32 := win30_0.stage (cfg30.slots t 0)
abbrev hs30_0 (t : Fin cfg30.N) : (ms30_0 t).IsWhole := hstage30_0 ((cfg30.slots t 0).cast nbuf30_0)
noncomputable abbrev ms30_1 (t : Fin cfg30.N) : Memref sig .tc .vmem S1x64 .f32 := win30_1.stage (cfg30.slots t 1)
abbrev hs30_1 (t : Fin cfg30.N) : (ms30_1 t).IsWhole := hstage30_1 ((cfg30.slots t 1).cast nbuf30_1)
noncomputable abbrev ms30_2 (t : Fin cfg30.N) : Memref sig .tc .vmem S2000x64 .f32 := win30_2.stage (cfg30.slots t 2)
abbrev hs30_2 (t : Fin cfg30.N) : (ms30_2 t).IsWhole := hstage30_2 ((cfg30.slots t 2).cast nbuf30_2)
noncomputable abbrev ms30_3 (t : Fin cfg30.N) : Memref sig .tc .vmem S2000x64 .f32 := win30_3.stage (cfg30.slots t 3)
abbrev hs30_3 (t : Fin cfg30.N) : (ms30_3 t).IsWhole := hstage30_3 ((cfg30.slots t 3).cast nbuf30_3)
noncomputable abbrev ms30_4 (t : Fin cfg30.N) : Memref sig .tc .vmem S2000x64 .f32 := win30_4.stage (cfg30.slots t 4)
abbrev hs30_4 (t : Fin cfg30.N) : (ms30_4 t).IsWhole := hstage30_4 ((cfg30.slots t 4).cast nbuf30_4)
noncomputable abbrev ms30_5 (t : Fin cfg30.N) : Memref sig .tc .vmem S1x64 .f32 := win30_5.stage (cfg30.slots t 5)
abbrev hs30_5 (t : Fin cfg30.N) : (ms30_5 t).IsWhole := hstage30_5 ((cfg30.slots t 5).cast nbuf30_5)
/-- The scratch operand: a whole scoped buffer of the kernel's own, in which the column sums accumulate. -/
noncomputable abbrev scM30_0 : Memref sig .tc .vmem S1x64 .f32 := Memref.whole cc30_scratch0

/-- The other scoped buffers (every other call's staging buffers and scratch), unopened. -/
noncomputable abbrev restBut30 (c : Dev nD) : sProp 𝕄 :=
  Pipeline.scopedRestBut (Ix := Unit) (Name := ℕ) (U := UR sig nD τ) (Lvl := ℕ) (Val := Elt F) spec30 c [cc30_scratch0]

/-- The region's invariant as the launch hands it over, with the scratch operand split out as a memref owned at
    some contents: what the body obligation hands the run and takes back. -/
theorem PhiA30_eq (c : Dev nD) :
    (Pipeline.ΦA spec30 c : sProp 𝕄)
      = iprop(iprop(iprop((∃ d, owns (c : Thread nD τ) scM30_0 fullShare d)) ∗ restBut30 (F := F) c) ∗ (∃ r, prngReg c r)) := by
  unfold Pipeline.ΦA; rw [scopedRest30_split]; simp only [scM30_0, owns_whole]; try rfl

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt30 (c : Dev nD) : (n : ℕ) → n < cfg30.N → Vec F S2000x64 .f32 × Vec F S2000x64 .f32 × Vec F S1x64 .f32 × Vec F S1x64 .f32
  | 0, hn => (out14_A_3 c (grid30.coords ⟨0, hn⟩) (ms30_0 ⟨0, hn⟩) (hs30_0 ⟨0, hn⟩) (ms30_1 ⟨0, hn⟩) (hs30_1 ⟨0, hn⟩) (ms30_2 ⟨0, hn⟩) (hs30_2 ⟨0, hn⟩) (ms30_3 ⟨0, hn⟩) (hs30_3 ⟨0, hn⟩) (ms30_4 ⟨0, hn⟩) (hs30_4 ⟨0, hn⟩) (ms30_5 ⟨0, hn⟩) (hs30_5 ⟨0, hn⟩) scM30_0 (Memref.isWhole_whole _) ((hcond30_0 ⟨0, hn⟩).mpr (Nat.zero_mod _)) (fun h => (fun h => by (try dsimp only at h); omega) ((hcond30_1 ⟨0, hn⟩).mp h)) (iblk30 V c 0 ⟨0, hn⟩) (iblk30 V c 1 ⟨0, hn⟩) (iblk30 V c 2 ⟨0, hn⟩), out14_A_4 c (grid30.coords ⟨0, hn⟩) (ms30_0 ⟨0, hn⟩) (hs30_0 ⟨0, hn⟩) (ms30_1 ⟨0, hn⟩) (hs30_1 ⟨0, hn⟩) (ms30_2 ⟨0, hn⟩) (hs30_2 ⟨0, hn⟩) (ms30_3 ⟨0, hn⟩) (hs30_3 ⟨0, hn⟩) (ms30_4 ⟨0, hn⟩) (hs30_4 ⟨0, hn⟩) (ms30_5 ⟨0, hn⟩) (hs30_5 ⟨0, hn⟩) scM30_0 (Memref.isWhole_whole _) ((hcond30_0 ⟨0, hn⟩).mpr (Nat.zero_mod _)) (fun h => (fun h => by (try dsimp only at h); omega) ((hcond30_1 ⟨0, hn⟩).mp h)) (iblk30 V c 0 ⟨0, hn⟩) (iblk30 V c 1 ⟨0, hn⟩) (iblk30 V c 2 ⟨0, hn⟩), out14_A_5 c (grid30.coords ⟨0, hn⟩) (ms30_0 ⟨0, hn⟩) (hs30_0 ⟨0, hn⟩) (ms30_1 ⟨0, hn⟩) (hs30_1 ⟨0, hn⟩) (ms30_2 ⟨0, hn⟩) (hs30_2 ⟨0, hn⟩) (ms30_3 ⟨0, hn⟩) (hs30_3 ⟨0, hn⟩) (ms30_4 ⟨0, hn⟩) (hs30_4 ⟨0, hn⟩) (ms30_5 ⟨0, hn⟩) (hs30_5 ⟨0, hn⟩) scM30_0 (Memref.isWhole_whole _) ((hcond30_0 ⟨0, hn⟩).mpr (Nat.zero_mod _)) (fun h => (fun h => by (try dsimp only at h); omega) ((hcond30_1 ⟨0, hn⟩).mp h)) (iblk30 V c 0 ⟨0, hn⟩) (iblk30 V c 1 ⟨0, hn⟩) (iblk30 V c 2 ⟨0, hn⟩), sout14_A_0 c (grid30.coords ⟨0, hn⟩) (ms30_0 ⟨0, hn⟩) (hs30_0 ⟨0, hn⟩) (ms30_1 ⟨0, hn⟩) (hs30_1 ⟨0, hn⟩) (ms30_2 ⟨0, hn⟩) (hs30_2 ⟨0, hn⟩) (ms30_3 ⟨0, hn⟩) (hs30_3 ⟨0, hn⟩) (ms30_4 ⟨0, hn⟩) (hs30_4 ⟨0, hn⟩) (ms30_5 ⟨0, hn⟩) (hs30_5 ⟨0, hn⟩) scM30_0 (Memref.isWhole_whole _) ((hcond30_0 ⟨0, hn⟩).mpr (Nat.zero_mod _)) (fun h => (fun h => by (try dsimp only at h); omega) ((hcond30_1 ⟨0, hn⟩).mp h)) (iblk30 V c 0 ⟨0, hn⟩) (iblk30 V c 1 ⟨0, hn⟩) (iblk30 V c 2 ⟨0, hn⟩))
  | n + 1, hn =>
    if h0 : (n + 1) % 25 = 0 then
      if h1 : (n + 1) % 25 = 24 then
        False.elim (by omega)
      else
        (out14_A_3 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) ((hcond30_0 ⟨n + 1, hn⟩).mpr h0) (fun h => h1 ((hcond30_1 ⟨n + 1, hn⟩).mp h)) (iblk30 V c 0 ⟨n + 1, hn⟩) (iblk30 V c 1 ⟨n + 1, hn⟩) (iblk30 V c 2 ⟨n + 1, hn⟩), out14_A_4 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) ((hcond30_0 ⟨n + 1, hn⟩).mpr h0) (fun h => h1 ((hcond30_1 ⟨n + 1, hn⟩).mp h)) (iblk30 V c 0 ⟨n + 1, hn⟩) (iblk30 V c 1 ⟨n + 1, hn⟩) (iblk30 V c 2 ⟨n + 1, hn⟩), out14_A_5 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) ((hcond30_0 ⟨n + 1, hn⟩).mpr h0) (fun h => h1 ((hcond30_1 ⟨n + 1, hn⟩).mp h)) (iblk30 V c 0 ⟨n + 1, hn⟩) (iblk30 V c 1 ⟨n + 1, hn⟩) (iblk30 V c 2 ⟨n + 1, hn⟩), sout14_A_0 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) ((hcond30_0 ⟨n + 1, hn⟩).mpr h0) (fun h => h1 ((hcond30_1 ⟨n + 1, hn⟩).mp h)) (iblk30 V c 0 ⟨n + 1, hn⟩) (iblk30 V c 1 ⟨n + 1, hn⟩) (iblk30 V c 2 ⟨n + 1, hn⟩))
    else
      if h1 : (n + 1) % 25 = 24 then
        (out14_C_3 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) ((hcond30_1 ⟨n + 1, hn⟩).mpr h1) (iblk30 V c 0 ⟨n + 1, hn⟩) (iblk30 V c 1 ⟨n + 1, hn⟩) (iblk30 V c 2 ⟨n + 1, hn⟩) (outsAt30 c n (Nat.lt_of_succ_lt hn)).2.2.2, out14_C_4 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) ((hcond30_1 ⟨n + 1, hn⟩).mpr h1) (iblk30 V c 0 ⟨n + 1, hn⟩) (iblk30 V c 1 ⟨n + 1, hn⟩) (iblk30 V c 2 ⟨n + 1, hn⟩) (outsAt30 c n (Nat.lt_of_succ_lt hn)).2.2.2, out14_C_5 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) ((hcond30_1 ⟨n + 1, hn⟩).mpr h1) (iblk30 V c 0 ⟨n + 1, hn⟩) (iblk30 V c 1 ⟨n + 1, hn⟩) (iblk30 V c 2 ⟨n + 1, hn⟩) (outsAt30 c n (Nat.lt_of_succ_lt hn)).2.2.2, sout14_C_0 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) ((hcond30_1 ⟨n + 1, hn⟩).mpr h1) (iblk30 V c 0 ⟨n + 1, hn⟩) (iblk30 V c 1 ⟨n + 1, hn⟩) (iblk30 V c 2 ⟨n + 1, hn⟩) (outsAt30 c n (Nat.lt_of_succ_lt hn)).2.2.2)
      else
        (out14_B_3 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) (fun h => h1 ((hcond30_1 ⟨n + 1, hn⟩).mp h)) (iblk30 V c 0 ⟨n + 1, hn⟩) (iblk30 V c 1 ⟨n + 1, hn⟩) (iblk30 V c 2 ⟨n + 1, hn⟩) (outsAt30 c n (Nat.lt_of_succ_lt hn)).2.2.2, out14_B_4 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) (fun h => h1 ((hcond30_1 ⟨n + 1, hn⟩).mp h)) (iblk30 V c 0 ⟨n + 1, hn⟩) (iblk30 V c 1 ⟨n + 1, hn⟩) (iblk30 V c 2 ⟨n + 1, hn⟩) (outsAt30 c n (Nat.lt_of_succ_lt hn)).2.2.2, out14_B_5 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) (fun h => h1 ((hcond30_1 ⟨n + 1, hn⟩).mp h)) (iblk30 V c 0 ⟨n + 1, hn⟩) (iblk30 V c 1 ⟨n + 1, hn⟩) (iblk30 V c 2 ⟨n + 1, hn⟩) (outsAt30 c n (Nat.lt_of_succ_lt hn)).2.2.2, sout14_B_0 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) (fun h => h1 ((hcond30_1 ⟨n + 1, hn⟩).mp h)) (iblk30 V c 0 ⟨n + 1, hn⟩) (iblk30 V c 1 ⟨n + 1, hn⟩) (iblk30 V c 2 ⟨n + 1, hn⟩) (outsAt30 c n (Nat.lt_of_succ_lt hn)).2.2.2)

/-- `outsAt30` at the first point: case A's contents. -/
theorem outsAt30_A (c : Dev nD) (t : Fin cfg30.N) (h0 : t.val % 25 = 0) (h1 : ¬t.val % 25 = 24) :
    outsAt30 V c t.val t.isLt = (out14_A_3 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) ((hcond30_0 t).mpr h0) (fun h => h1 ((hcond30_1 t).mp h)) (iblk30 V c 0 t) (iblk30 V c 1 t) (iblk30 V c 2 t), out14_A_4 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) ((hcond30_0 t).mpr h0) (fun h => h1 ((hcond30_1 t).mp h)) (iblk30 V c 0 t) (iblk30 V c 1 t) (iblk30 V c 2 t), out14_A_5 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) ((hcond30_0 t).mpr h0) (fun h => h1 ((hcond30_1 t).mp h)) (iblk30 V c 0 t) (iblk30 V c 1 t) (iblk30 V c 2 t), sout14_A_0 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) ((hcond30_0 t).mpr h0) (fun h => h1 ((hcond30_1 t).mp h)) (iblk30 V c 0 t) (iblk30 V c 1 t) (iblk30 V c 2 t)) := by
  obtain ⟨n, hn⟩ := t
  cases n with
  | zero => exact rfl
  | succ n => exact (dif_pos h0).trans ((dif_neg h1).trans rfl)

/-- `outsAt30` at a middle point: case B's contents, over what the point before left in the scratch. -/
theorem outsAt30_B (c : Dev nD) (t : Fin cfg30.N) (h0 : ¬t.val % 25 = 0) (h1 : ¬t.val % 25 = 24) :
    outsAt30 V c t.val t.isLt = (out14_B_3 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) (fun h => h1 ((hcond30_1 t).mp h)) (iblk30 V c 0 t) (iblk30 V c 1 t) (iblk30 V c 2 t) (outsAt30 V c (t.val - 1) (Nat.lt_of_le_of_lt (Nat.sub_le _ _) t.isLt)).2.2.2, out14_B_4 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) (fun h => h1 ((hcond30_1 t).mp h)) (iblk30 V c 0 t) (iblk30 V c 1 t) (iblk30 V c 2 t) (outsAt30 V c (t.val - 1) (Nat.lt_of_le_of_lt (Nat.sub_le _ _) t.isLt)).2.2.2, out14_B_5 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) (fun h => h1 ((hcond30_1 t).mp h)) (iblk30 V c 0 t) (iblk30 V c 1 t) (iblk30 V c 2 t) (outsAt30 V c (t.val - 1) (Nat.lt_of_le_of_lt (Nat.sub_le _ _) t.isLt)).2.2.2, sout14_B_0 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) (fun h => h1 ((hcond30_1 t).mp h)) (iblk30 V c 0 t) (iblk30 V c 1 t) (iblk30 V c 2 t) (outsAt30 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt30` at the last point: case C's contents, over what the point before left in the scratch. -/
theorem outsAt30_C (c : Dev nD) (t : Fin cfg30.N) (h0 : ¬t.val % 25 = 0) (h1 : t.val % 25 = 24) :
    outsAt30 V c t.val t.isLt = (out14_C_3 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) ((hcond30_1 t).mpr h1) (iblk30 V c 0 t) (iblk30 V c 1 t) (iblk30 V c 2 t) (outsAt30 V c (t.val - 1) (Nat.lt_of_le_of_lt (Nat.sub_le _ _) t.isLt)).2.2.2, out14_C_4 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) ((hcond30_1 t).mpr h1) (iblk30 V c 0 t) (iblk30 V c 1 t) (iblk30 V c 2 t) (outsAt30 V c (t.val - 1) (Nat.lt_of_le_of_lt (Nat.sub_le _ _) t.isLt)).2.2.2, out14_C_5 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) ((hcond30_1 t).mpr h1) (iblk30 V c 0 t) (iblk30 V c 1 t) (iblk30 V c 2 t) (outsAt30 V c (t.val - 1) (Nat.lt_of_le_of_lt (Nat.sub_le _ _) t.isLt)).2.2.2, sout14_C_0 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) ((hcond30_1 t).mpr h1) (iblk30 V c 0 t) (iblk30 V c 1 t) (iblk30 V c 2 t) (outsAt30 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt30`'s last component), the other
    scoped buffers unopened and the generator register at some state. -/
noncomputable def PhiS30 (c : Dev nD) : (n : ℕ) → n ≤ cfg30.N → sProp 𝕄
  | 0, _ => Pipeline.ΦA spec30 c
  | n + 1, hn => iprop(iprop(iprop(owns (c : Thread nD τ) scM30_0 fullShare ((outsAt30 V c n hn).2.2.2)) ∗ restBut30 (F := F) c) ∗ (∃ r, prngReg c r))

theorem PhiS30_zero (c : Dev nD) (n : ℕ) (h : n ≤ cfg30.N) (hz : n = 0) : PhiS30 V c n h = Pipeline.ΦA spec30 c := by
  subst hz; rfl

/-- After point `n` (before point `n + 1`): the scratch at that point's contents. -/
theorem PhiS30_succ (c : Dev nD) (n : ℕ) (hn : n < cfg30.N) :
    PhiS30 V c (n + 1) hn = iprop(iprop(iprop(owns (c : Thread nD τ) scM30_0 fullShare ((outsAt30 V c n hn).2.2.2)) ∗ restBut30 (F := F) c) ∗ (∃ r, prngReg c r)) := rfl

/-- Before a point that is not the first: the scratch at what the point before left. -/
theorem PhiS30_pos (c : Dev nD) (n : ℕ) (h : n ≤ cfg30.N) (hz : n ≠ 0) :
    PhiS30 V c n h = iprop(iprop(iprop(owns (c : Thread nD τ) scM30_0 fullShare ((outsAt30 V c (n - 1) (by omega)).2.2.2)) ∗ restBut30 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt30`; the invariant `PhiS30`; nothing owed;
    full shares. -/
noncomputable def dat30 (c : Dev nD) : Dat τ (Elt F) Unit ℕ (UR sig nD τ) ℕ cfg30 c where
  A w := V c (Pipeline.arrRef spec30 w)
  after w t := match w with
    | ⟨0, _⟩ => iblk30 V c 0 t
    | ⟨1, _⟩ => iblk30 V c 1 t
    | ⟨2, _⟩ => iblk30 V c 2 t
    | ⟨3, _⟩ => (outsAt30 V c t.val t.isLt).1
    | ⟨4, _⟩ => (outsAt30 V c t.val t.isLt).2.1
    | ⟨5, _⟩ => (outsAt30 V c t.val t.isLt).2.2.1
  Φ t := PhiS30 V c t.val (Nat.le_of_lt_succ t.isLt)
  q _ := fullShare
  owed _ := 0

/-- The proof data's arrays are the region-entry contents. -/
theorem A_eq30 (c : Dev nD) (w : Fin cfg30.W) : (dat30 V c).A w = V c (Pipeline.arrRef spec30 w) := by
  dsimp only [dat30]

/-- The invariant at a point's start, restated at `t.val`. -/
theorem PhiS30_castSucc (c : Dev nD) (t : Fin cfg30.N) :
    (dat30 V c).Φ t.castSucc = PhiS30 V c t.val (Nat.le_of_lt t.isLt) := by
  dsimp only [dat30]; simp only [Fin.coe_castSucc]

/-- What the body leaves, window by window. -/
theorem after30_0 (c : Dev nD) (t : Fin cfg30.N) : (dat30 V c).after 0 t = iblk30 V c 0 t := by dsimp only [dat30]
theorem after30_1 (c : Dev nD) (t : Fin cfg30.N) : (dat30 V c).after 1 t = iblk30 V c 1 t := by dsimp only [dat30]
theorem after30_2 (c : Dev nD) (t : Fin cfg30.N) : (dat30 V c).after 2 t = iblk30 V c 2 t := by dsimp only [dat30]
theorem after30_3 (c : Dev nD) (t : Fin cfg30.N) : (dat30 V c).after 3 t = (outsAt30 V c t.val t.isLt).1 := by dsimp only [dat30]
theorem after30_4 (c : Dev nD) (t : Fin cfg30.N) : (dat30 V c).after 4 t = (outsAt30 V c t.val t.isLt).2.1 := by dsimp only [dat30]
theorem after30_5 (c : Dev nD) (t : Fin cfg30.N) : (dat30 V c).after 5 t = (outsAt30 V c t.val t.isLt).2.2.1 := by dsimp only [dat30]

/-- Each input's current staging buffer holds its block at every point, fetched there or not. -/
theorem before30_0 (c : Dev nD) (t : Fin cfg30.N) (d) : (dat30 V c).before 0 t d = iblk30 V c 0 t :=
  before30_0_of V (dat30 V c) (A_eq30 V c 0) (after30_0 V c) t d
theorem before30_1 (c : Dev nD) (t : Fin cfg30.N) (d) : (dat30 V c).before 1 t d = iblk30 V c 1 t :=
  before30_1_of V (dat30 V c) (A_eq30 V c 1) (after30_1 V c) t d
theorem before30_2 (c : Dev nD) (t : Fin cfg30.N) (d) : (dat30 V c).before 2 t d = iblk30 V c 2 t :=
  before30_2_of V (dat30 V c) (A_eq30 V c 2) (after30_2 V c) t d

/-! ## The body obligation, at a generic point -/

/-- What the body is called with at point `t` (the windows one by one), -/
noncomputable def bodyPre30 (c : Dev nD) (t : Fin cfg30.N) : sProp 𝕄 :=
  iprop((dat30 V c).Φ t.castSucc ∗ (dat30 V c).owesAt () t.castSucc
    ∗ (∃ d, owns (c : Thread nD τ) (ms30_0 t) fullShare ((dat30 V c).before 0 t d))
    ∗ (∃ d, owns (c : Thread nD τ) (ms30_1 t) fullShare ((dat30 V c).before 1 t d))
    ∗ (∃ d, owns (c : Thread nD τ) (ms30_2 t) fullShare ((dat30 V c).before 2 t d))
    ∗ (∃ d, owns (c : Thread nD τ) (ms30_3 t) fullShare ((dat30 V c).before 3 t d))
    ∗ (∃ d, owns (c : Thread nD τ) (ms30_4 t) fullShare ((dat30 V c).before 4 t d))
    ∗ (∃ d, owns (c : Thread nD τ) (ms30_5 t) fullShare ((dat30 V c).before 5 t d)))

/-- and what it returns. -/
noncomputable def bodyPost30 (c : Dev nD) (t : Fin cfg30.N) : sProp 𝕄 :=
  iprop((dat30 V c).Φ t.succ ∗ (dat30 V c).owesAt () t.succ
    ∗ (dat30 V c).leavesExact 0 t
    ∗ (dat30 V c).leavesExact 1 t
    ∗ (dat30 V c).leavesExact 2 t
    ∗ (dat30 V c).leavesExact 3 t
    ∗ (dat30 V c).leavesExact 4 t
    ∗ (dat30 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body30 (c : Dev nD) (t : Fin cfg30.N) :
    bodyPre30 V c t ⊢ wp frame (wpE (defs₀ (F := F)) Variants.none c none) Set.univ (bodyAt30 t) (fun _ => bodyPost30 V c t) := by
  unfold bodyPre30 bodyPost30 bodyAt30
  rw [cc30_kernel_eq]
  simp only [before30_0, before30_1, before30_2]
  rw [show (dat30 V c).owesAt () t.succ = (dat30 V c).owesAt () t.castSucc from rfl]
  rw [show (dat30 V c).Φ t.succ = PhiS30 V c (t.val + 1) t.isLt from rfl, PhiS30_succ]
  have hN : t.val < 25 := lt_of_lt_of_eq t.isLt (show cfg30.N = 25 from N_30)
  by_cases h0 : t.val % 25 = 0
  · by_cases h1 : t.val % 25 = 24
    · exfalso; omega
    · rw [show (dat30 V c).leavesExact 0 t = owns (c : Thread nD τ) (ms30_0 t) fullShare ((dat30 V c).after 0 t) from by
        unfold Dat.leavesExact; rw [liveAt30_0 t], after30_0]
      rw [show (dat30 V c).leavesExact 1 t = owns (c : Thread nD τ) (ms30_1 t) fullShare ((dat30 V c).after 1 t) from by
        unfold Dat.leavesExact; rw [liveAt30_1 t], after30_1]
      rw [show (dat30 V c).leavesExact 2 t = owns (c : Thread nD τ) (ms30_2 t) fullShare ((dat30 V c).after 2 t) from by
        unfold Dat.leavesExact; rw [liveAt30_2 t], after30_2]
      rw [show (dat30 V c).leavesExact 3 t = owns (c : Thread nD τ) (ms30_3 t) fullShare ((dat30 V c).after 3 t) from by
        unfold Dat.leavesExact; rw [liveAt30_3 t], after30_3]
      rw [show (dat30 V c).leavesExact 4 t = owns (c : Thread nD τ) (ms30_4 t) fullShare ((dat30 V c).after 4 t) from by
        unfold Dat.leavesExact; rw [liveAt30_4 t], after30_4]
      rw [Dat.leavesExact_idle (dat30 V c) 5 t (idleAt30_5_A t ((hcond30_0 t).mpr h0) (fun h => h1 ((hcond30_1 t).mp h))) (noFlush30_5_A t ((hcond30_0 t).mpr h0) (fun h => h1 ((hcond30_1 t).mp h)))]
      rw [outsAt30_A V c t h0 h1]
      unfold out14_A_3 out14_A_4 sout14_A_0; (try dsimp only)
      by_cases hz : t.val = 0
      · rw [PhiS30_castSucc V c t, PhiS30_zero V c _ _ hz, PhiA30_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid30.coords t) _ _ _ _ _ _ _ _ _ _ _ _ _ _ ((hcond30_0 t).mpr h0) (fun h => h1 ((hcond30_1 t).mp h)) (iblk30 V c 0 t) (iblk30 V c 1 t) (iblk30 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat30 V c).leavesExact 0 t = owns (c : Thread nD τ) (ms30_0 t) fullShare ((dat30 V c).after 0 t) from by
        unfold Dat.leavesExact; rw [liveAt30_0 t], after30_0]
      rw [show (dat30 V c).leavesExact 1 t = owns (c : Thread nD τ) (ms30_1 t) fullShare ((dat30 V c).after 1 t) from by
        unfold Dat.leavesExact; rw [liveAt30_1 t], after30_1]
      rw [show (dat30 V c).leavesExact 2 t = owns (c : Thread nD τ) (ms30_2 t) fullShare ((dat30 V c).after 2 t) from by
        unfold Dat.leavesExact; rw [liveAt30_2 t], after30_2]
      rw [show (dat30 V c).leavesExact 3 t = owns (c : Thread nD τ) (ms30_3 t) fullShare ((dat30 V c).after 3 t) from by
        unfold Dat.leavesExact; rw [liveAt30_3 t], after30_3]
      rw [show (dat30 V c).leavesExact 4 t = owns (c : Thread nD τ) (ms30_4 t) fullShare ((dat30 V c).after 4 t) from by
        unfold Dat.leavesExact; rw [liveAt30_4 t], after30_4]
      rw [show (dat30 V c).leavesExact 5 t = owns (c : Thread nD τ) (ms30_5 t) fullShare ((dat30 V c).after 5 t) from by
        unfold Dat.leavesExact; rw [liveAt30_5_C t (fun h => h0 ((hcond30_0 t).mp h)) ((hcond30_1 t).mpr h1)], after30_5]
      rw [outsAt30_C V c t h0 h1]
      unfold out14_C_3 out14_C_4 out14_C_5 sout14_C_0; (try dsimp only)
      by_cases hz : t.val = 0
      · exfalso; omega
      · rw [PhiS30_castSucc V c t, PhiS30_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid30.coords t) _ _ _ _ _ _ _ _ _ _ _ _ _ _ (fun h => h0 ((hcond30_0 t).mp h)) ((hcond30_1 t).mpr h1) (iblk30 V c 0 t) (iblk30 V c 1 t) (iblk30 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat30 V c).leavesExact 0 t = owns (c : Thread nD τ) (ms30_0 t) fullShare ((dat30 V c).after 0 t) from by
        unfold Dat.leavesExact; rw [liveAt30_0 t], after30_0]
      rw [show (dat30 V c).leavesExact 1 t = owns (c : Thread nD τ) (ms30_1 t) fullShare ((dat30 V c).after 1 t) from by
        unfold Dat.leavesExact; rw [liveAt30_1 t], after30_1]
      rw [show (dat30 V c).leavesExact 2 t = owns (c : Thread nD τ) (ms30_2 t) fullShare ((dat30 V c).after 2 t) from by
        unfold Dat.leavesExact; rw [liveAt30_2 t], after30_2]
      rw [show (dat30 V c).leavesExact 3 t = owns (c : Thread nD τ) (ms30_3 t) fullShare ((dat30 V c).after 3 t) from by
        unfold Dat.leavesExact; rw [liveAt30_3 t], after30_3]
      rw [show (dat30 V c).leavesExact 4 t = owns (c : Thread nD τ) (ms30_4 t) fullShare ((dat30 V c).after 4 t) from by
        unfold Dat.leavesExact; rw [liveAt30_4 t], after30_4]
      rw [Dat.leavesExact_idle (dat30 V c) 5 t (idleAt30_5_B t (fun h => h0 ((hcond30_0 t).mp h)) (fun h => h1 ((hcond30_1 t).mp h))) (noFlush30_5_B t (fun h => h0 ((hcond30_0 t).mp h)) (fun h => h1 ((hcond30_1 t).mp h)))]
      rw [outsAt30_B V c t h0 h1]
      unfold out14_B_3 out14_B_4 sout14_B_0; (try dsimp only)
      by_cases hz : t.val = 0
      · exfalso; omega
      · rw [PhiS30_castSucc V c t, PhiS30_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid30.coords t) _ _ _ _ _ _ _ _ _ _ _ _ _ _ (fun h => h0 ((hcond30_0 t).mp h)) (fun h => h1 ((hcond30_1 t).mp h)) (iblk30 V c 0 t) (iblk30 V c 1 t) (iblk30 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation30 (c : Dev nD) : BodyObligation (dat30 (F := F) V c) (defs₀ (F := F)) Variants.none () Set.univ := fun t => by
  rw [bigSep_W30, bigSep_W30]
  exact sound_body30 V c t

/-- What the launch hands the region is the invariant before the first point. -/
theorem hin30 (c : Dev nD) : Pipeline.ΦA spec30 c ⊢ (dat30 V c).Φ 0 := by
  rw [show (dat30 V c).Φ 0 = PhiS30 V c 0 (Nat.zero_le _) from rfl, PhiS30_zero V c 0 _ rfl]
  try exact Idealize.SL.BI.Entails.refl _

/-- After any point but the first the invariant gives it back: the scratch's named contents are forgotten. -/
theorem Phi_out30 (c : Dev nD) (t : Fin (cfg30.N + 1)) (ht : t.val ≠ 0) : (dat30 V c).Φ t ⊢ Pipeline.ΦA spec30 c := by
  rw [show (dat30 V c).Φ t = PhiS30 V c t.val (Nat.le_of_lt_succ t.isLt) from rfl, PhiS30_pos V c _ _ ht, PhiA30_eq]
  iintro ⟨⟨HS0, HR⟩, Hg⟩
  isplitl [HS0 HR]
  · isplitl [HS0]
    · iexists _; iexact HS0
    iexact HR
  iexact Hg

/-- The same after the last point. -/
theorem hout30 (c : Dev nD) : (dat30 V c).Φ (Fin.last cfg30.N) ⊢ Pipeline.ΦA spec30 c :=
  Phi_out30 V c _ (by rw [Fin.val_last]; have : cfg30.N = 25 := N_30; omega)

end Cert.Kernel.Hand

end
-- ==== Proof.KB.R31.lean ====
import proofs.«408084_j48395691492010_3_alg».proof.Proof.KB.R3

/-! Region 31: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk31 (c : Dev nD) (w : Fin cfg31.W) (t : Fin cfg31.N) : ((cfg31.win w).xblock (cfg31.grid.coords t)).Idx → Elt F (cfg31.win w).elt :=
  ((cfg31.win w).blk t).view.read (Elt F) (V c (Pipeline.arrRef spec31 w))

/-- The row-tile window (window 0, fetched at every point) holds its block when the body runs. -/
theorem before31_0_of {c : Dev nD} (dat : Dat τ (Elt F) Unit ℕ (UR sig nD τ) ℕ cfg31 c) (hA : dat.A 0 = V c (Pipeline.arrRef spec31 0))
    (hafter : ∀ t, dat.after 0 t = iblk31 V c 0 t) (t : Fin cfg31.N) (d) : dat.before 0 t d = iblk31 V c 0 t :=
  (dat.before_in_eq_fetched 0 rfl (fun _ => rfl) (fun _ _ _ => rfl) (fun t => by rw [hafter]; unfold Dat.blockOf iblk31; rw [hA]; try rfl) t d).trans
    (by unfold Dat.fetched Dat.blockOf iblk31; rw [hA]; try rfl)

/-- The mean window (window 1, one constant block fetched at the first point only) holds that block at every point. -/
theorem before31_1_of {c : Dev nD} (dat : Dat τ (Elt F) Unit ℕ (UR sig nD τ) ℕ cfg31 c) (hA : dat.A 1 = V c (Pipeline.arrRef spec31 1))
    (hafter : ∀ t, dat.after 1 t = iblk31 V c 1 t) (t : Fin cfg31.N) (d) : dat.before 1 t d = iblk31 V c 1 t :=
  (dat.before_in_eq_fetched 1 rfl (fun _ => rfl) (fun _ _ _ => rfl) (fun t => by rw [hafter]; unfold Dat.blockOf iblk31; rw [hA]; try rfl) t d).trans
    (by unfold Dat.fetched Dat.blockOf iblk31; rw [hA]; try rfl)

/-! ## The branch conditions and the idle points, over this region's grid (the same grid) -/

/-- The reset's condition holds at the first point only, -/
theorem hcond31_0 : ∀ t : Fin cfg31.N, cond3_0 (grid31.coords t) ↔ t.val = 0 := hcond3_0
/-- the final store's at the last point only. -/
theorem hcond31_1 : ∀ t : Fin cfg31.N, cond3_1 (grid31.coords t) ↔ t.val = 24 := hcond3_1

theorem liveAt31_0 : ∀ t : Fin cfg31.N, cfg31.idle 0 (grid31.coords t) = false := fun _ => rfl
theorem liveAt31_1 : ∀ t : Fin cfg31.N, cfg31.idle 1 (grid31.coords t) = false := fun _ => rfl
/-- Away from the last point the result window is idle, -/
theorem idleAt31_2 : ∀ t : Fin cfg31.N, ¬cond3_1 (grid31.coords t) → cfg31.idle 2 (grid31.coords t) = true := idleAt3_2
/-- and live at it. -/
theorem liveAt31_2 : ∀ t : Fin cfg31.N, cond3_1 (grid31.coords t) → cfg31.idle 2 (grid31.coords t) = false := liveAt3_2
/-- Away from the last point its block is not written back (the schedule's closed form). -/
theorem noFlush31_2 (t : Fin cfg31.N) (h : ¬cond3_1 (grid31.coords t)) : (cfg31.win 2).flush t = false := by
  have hN : t.val < 25 := lt_of_lt_of_eq t.isLt (show cfg31.N = 25 from N_31)
  have h24 : ¬t.val = 24 := fun e => h ((hcond31_1 t).mpr e)
  cases hf : (cfg31.win 2).flush t with
  | false => rfl
  | true => exact absurd (by have := (flush31_2 t).mp hf; omega) h24

/-! ## The memrefs the body is called with -/

noncomputable abbrev ms31_0 (t : Fin cfg31.N) : Memref sig .tc .vmem S2000x64 .f32 := win31_0.stage (cfg31.slots t 0)
abbrev hs31_0 (t : Fin cfg31.N) : (ms31_0 t).IsWhole := hstage31_0 ((cfg31.slots t 0).cast nbuf31_0)
noncomputable abbrev ms31_1 (t : Fin cfg31.N) : Memref sig .tc .vmem S1x64 .f32 := win31_1.stage (cfg31.slots t 1)
abbrev hs31_1 (t : Fin cfg31.N) : (ms31_1 t).IsWhole := hstage31_1 ((cfg31.slots t 1).cast nbuf31_1)
noncomputable abbrev ms31_2 (t : Fin cfg31.N) : Memref sig .tc .vmem S1x64 .f32 := win31_2.stage (cfg31.slots t 2)
abbrev hs31_2 (t : Fin cfg31.N) : (ms31_2 t).IsWhole := hstage31_2 ((cfg31.slots t 2).cast nbuf31_2)
/-- The accumulator: this call's own scratch buffer, whole. -/
noncomputable abbrev scM31_0 : Memref sig .tc .vmem S1x64 .f32 := Memref.whole cc31_scratch0

/-- The body the pipeline calls at point `t` is region 3's printed kernel on this region's memrefs: the two printed
    functions are the same term. -/
theorem bodyAt31_eq (t : Fin cfg31.N) :
    (bodyAt31 t : Prog (TpuEff nD τ sig (Elt F) Λ₀ .tc) PUnit)
      = cc3__var_kernel (grid31.coords t) (ms31_0 t) (hs31_0 t) (ms31_1 t) (hs31_1 t) (ms31_2 t) (hs31_2 t) scM31_0 (Memref.isWhole_whole _) := rfl

/-- The region-entry invariant with the accumulator split out of the scoped rest, as a memref owned at some contents. -/
theorem PhiA31_eq (c : Dev nD) :
    (Pipeline.ΦA spec31 c : sProp 𝕄)
      = iprop(iprop(iprop(∃ d, owns (c : Thread nD τ) scM31_0 fullShare d)
          ∗ Pipeline.scopedRestBut (Ix := Unit) (Name := ℕ) (U := UR sig nD τ) (Lvl := ℕ) (Val := Elt F) spec31 c [cc31_scratch0]) ∗ (∃ r, prngReg c r)) := by
  unfold Pipeline.ΦA; rw [scopedRest31_split]; simp only [scM31_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt31 (c : Dev nD) : (n : ℕ) → n < cfg31.N → Vec F S1x64 .f32 × Vec F S1x64 .f32
  | 0, hn => (idle3_2,
      sout3_A_0 c (grid31.coords ⟨0, hn⟩) (ms31_0 ⟨0, hn⟩) (hs31_0 ⟨0, hn⟩) (ms31_1 ⟨0, hn⟩) (hs31_1 ⟨0, hn⟩) (ms31_2 ⟨0, hn⟩) (hs31_2 ⟨0, hn⟩) scM31_0 (Memref.isWhole_whole _) ((hcond31_0 ⟨0, hn⟩).mpr rfl)
        (fun h => (fun h' : (0 : ℕ) = 24 => by omega) ((hcond31_1 ⟨0, hn⟩).mp h)) (iblk31 V c 0 ⟨0, hn⟩) (iblk31 V c 1 ⟨0, hn⟩))
  | n + 1, hn =>
    if h1 : n + 1 = 24 then
      (out3_C_2 c (grid31.coords ⟨n + 1, hn⟩) (ms31_0 ⟨n + 1, hn⟩) (hs31_0 ⟨n + 1, hn⟩) (ms31_1 ⟨n + 1, hn⟩) (hs31_1 ⟨n + 1, hn⟩) (ms31_2 ⟨n + 1, hn⟩) (hs31_2 ⟨n + 1, hn⟩) scM31_0 (Memref.isWhole_whole _) (fun h => (fun h' : n + 1 = 0 => by omega) ((hcond31_0 ⟨n + 1, hn⟩).mp h))
          ((hcond31_1 ⟨n + 1, hn⟩).mpr h1) (iblk31 V c 0 ⟨n + 1, hn⟩) (iblk31 V c 1 ⟨n + 1, hn⟩) (outsAt31 c n (Nat.lt_of_succ_lt hn)).2,
       sout3_C_0 c (grid31.coords ⟨n + 1, hn⟩) (ms31_0 ⟨n + 1, hn⟩) (hs31_0 ⟨n + 1, hn⟩) (ms31_1 ⟨n + 1, hn⟩) (hs31_1 ⟨n + 1, hn⟩) (ms31_2 ⟨n + 1, hn⟩) (hs31_2 ⟨n + 1, hn⟩) scM31_0 (Memref.isWhole_whole _) (fun h => (fun h' : n + 1 = 0 => by omega) ((hcond31_0 ⟨n + 1, hn⟩).mp h))
          ((hcond31_1 ⟨n + 1, hn⟩).mpr h1) (iblk31 V c 0 ⟨n + 1, hn⟩) (iblk31 V c 1 ⟨n + 1, hn⟩) (outsAt31 c n (Nat.lt_of_succ_lt hn)).2)
    else
      (idle3_2,
       sout3_B_0 c (grid31.coords ⟨n + 1, hn⟩) (ms31_0 ⟨n + 1, hn⟩) (hs31_0 ⟨n + 1, hn⟩) (ms31_1 ⟨n + 1, hn⟩) (hs31_1 ⟨n + 1, hn⟩) (ms31_2 ⟨n + 1, hn⟩) (hs31_2 ⟨n + 1, hn⟩) scM31_0 (Memref.isWhole_whole _) (fun h => (fun h' : n + 1 = 0 => by omega) ((hcond31_0 ⟨n + 1, hn⟩).mp h))
          (fun h => h1 ((hcond31_1 ⟨n + 1, hn⟩).mp h)) (iblk31 V c 0 ⟨n + 1, hn⟩) (iblk31 V c 1 ⟨n + 1, hn⟩) (outsAt31 c n (Nat.lt_of_succ_lt hn)).2)

theorem outsAt31_A (c : Dev nD) (t : Fin cfg31.N) (h0 : t.val = 0) (h1 : ¬t.val = 24) :
    outsAt31 V c t.val t.isLt = (idle3_2,
      sout3_A_0 c (grid31.coords t) (ms31_0 t) (hs31_0 t) (ms31_1 t) (hs31_1 t) (ms31_2 t) (hs31_2 t) scM31_0 (Memref.isWhole_whole _) ((hcond31_0 t).mpr h0) (fun h => h1 ((hcond31_1 t).mp h)) (iblk31 V c 0 t) (iblk31 V c 1 t)) := by
  obtain ⟨n, hn⟩ := t
  cases n with
  | zero => exact rfl
  | succ n => exact absurd h0 (Nat.succ_ne_zero n)

theorem outsAt31_B (c : Dev nD) (t : Fin cfg31.N) (h0 : ¬t.val = 0) (h1 : ¬t.val = 24) :
    outsAt31 V c t.val t.isLt = (idle3_2,
      sout3_B_0 c (grid31.coords t) (ms31_0 t) (hs31_0 t) (ms31_1 t) (hs31_1 t) (ms31_2 t) (hs31_2 t) scM31_0 (Memref.isWhole_whole _) (fun h => h0 ((hcond31_0 t).mp h)) (fun h => h1 ((hcond31_1 t).mp h)) (iblk31 V c 0 t) (iblk31 V c 1 t)
        (outsAt31 V c (t.val - 1) (Nat.lt_of_le_of_lt (Nat.sub_le _ _) t.isLt)).2) := by
  obtain ⟨n, hn⟩ := t
  cases n with
  | zero => exact absurd rfl h0
  | succ n => exact (dif_neg h1).trans rfl

theorem outsAt31_C (c : Dev nD) (t : Fin cfg31.N) (h0 : ¬t.val = 0) (h1 : t.val = 24) :
    outsAt31 V c t.val t.isLt =
      (out3_C_2 c (grid31.coords t) (ms31_0 t) (hs31_0 t) (ms31_1 t) (hs31_1 t) (ms31_2 t) (hs31_2 t) scM31_0 (Memref.isWhole_whole _) (fun h => h0 ((hcond31_0 t).mp h)) ((hcond31_1 t).mpr h1) (iblk31 V c 0 t) (iblk31 V c 1 t)
        (outsAt31 V c (t.val - 1) (Nat.lt_of_le_of_lt (Nat.sub_le _ _) t.isLt)).2,
       sout3_C_0 c (grid31.coords t) (ms31_0 t) (hs31_0 t) (ms31_1 t) (hs31_1 t) (ms31_2 t) (hs31_2 t) scM31_0 (Memref.isWhole_whole _) (fun h => h0 ((hcond31_0 t).mp h)) ((hcond31_1 t).mpr h1) (iblk31 V c 0 t) (iblk31 V c 1 t)
        (outsAt31 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS31 (c : Dev nD) : (n : ℕ) → n ≤ cfg31.N → sProp 𝕄
  | 0, _ => Pipeline.ΦA spec31 c
  | n + 1, hn => iprop(iprop(owns (c : Thread nD τ) scM31_0 fullShare ((outsAt31 V c n hn).2)
      ∗ Pipeline.scopedRestBut (Ix := Unit) (Name := ℕ) (U := UR sig nD τ) (Lvl := ℕ) (Val := Elt F) spec31 c [cc31_scratch0]) ∗ (∃ r, prngReg c r))

theorem PhiS31_zero (c : Dev nD) (n : ℕ) (h : n ≤ cfg31.N) (hz : n = 0) : PhiS31 V c n h = Pipeline.ΦA spec31 c := by
  subst hz; rfl

theorem PhiS31_succ (c : Dev nD) (n : ℕ) (hn : n < cfg31.N) :
    PhiS31 V c (n + 1) hn = iprop(iprop(owns (c : Thread nD τ) scM31_0 fullShare ((outsAt31 V c n hn).2)
      ∗ Pipeline.scopedRestBut (Ix := Unit) (Name := ℕ) (U := UR sig nD τ) (Lvl := ℕ) (Val := Elt F) spec31 c [cc31_scratch0]) ∗ (∃ r, prngReg c r)) := rfl

theorem PhiS31_pos (c : Dev nD) (n : ℕ) (h : n ≤ cfg31.N) (hz : n ≠ 0) :
    PhiS31 V c n h = iprop(iprop(owns (c : Thread nD τ) scM31_0 fullShare ((outsAt31 V c (n - 1) (by omega)).2)
      ∗ Pipeline.scopedRestBut (Ix := Unit) (Name := ℕ) (U := UR sig nD τ) (Lvl := ℕ) (Val := Elt F) spec31 c [cc31_scratch0]) ∗ (∃ r, prngReg c r)) := by
  cases n with
  | zero => exact absurd rfl hz
  | succ n => rfl

/-! ## The proof data -/

noncomputable def dat31 (c : Dev nD) : Dat τ (Elt F) Unit ℕ (UR sig nD τ) ℕ cfg31 c where
  A w := V c (Pipeline.arrRef spec31 w)
  after w t := match w with
    | ⟨0, _⟩ => iblk31 V c 0 t
    | ⟨1, _⟩ => iblk31 V c 1 t
    | ⟨2, _⟩ => (outsAt31 V c t.val t.isLt).1
  Φ t := PhiS31 V c t.val (Nat.le_of_lt_succ t.isLt)
  q _ := fullShare
  owed _ := 0

theorem A_eq31 (c : Dev nD) (w : Fin cfg31.W) : (dat31 V c).A w = V c (Pipeline.arrRef spec31 w) := by
  dsimp only [dat31]

theorem PhiS31_castSucc (c : Dev nD) (t : Fin cfg31.N) :
    (dat31 V c).Φ t.castSucc = PhiS31 V c t.val (Nat.le_of_lt t.isLt) := by
  dsimp only [dat31]; simp only [Fin.coe_castSucc]

theorem after31_0 (c : Dev nD) (t : Fin cfg31.N) : (dat31 V c).after 0 t = iblk31 V c 0 t := by dsimp only [dat31]
theorem after31_1 (c : Dev nD) (t : Fin cfg31.N) : (dat31 V c).after 1 t = iblk31 V c 1 t := by dsimp only [dat31]
theorem after31_2 (c : Dev nD) (t : Fin cfg31.N) : (dat31 V c).after 2 t = (outsAt31 V c t.val t.isLt).1 := by dsimp only [dat31]

theorem before31_0 (c : Dev nD) (t : Fin cfg31.N) (d) : (dat31 V c).before 0 t d = iblk31 V c 0 t :=
  before31_0_of V (dat31 V c) (A_eq31 V c 0) (after31_0 V c) t d
theorem before31_1 (c : Dev nD) (t : Fin cfg31.N) (d) : (dat31 V c).before 1 t d = iblk31 V c 1 t :=
  before31_1_of V (dat31 V c) (A_eq31 V c 1) (after31_1 V c) t d

/-! ## The body obligation -/

noncomputable def bodyPre31 (c : Dev nD) (t : Fin cfg31.N) : sProp 𝕄 :=
  iprop((dat31 V c).Φ t.castSucc ∗ (dat31 V c).owesAt () t.castSucc
    ∗ (∃ d, owns (c : Thread nD τ) (ms31_0 t) fullShare ((dat31 V c).before 0 t d))
    ∗ (∃ d, owns (c : Thread nD τ) (ms31_1 t) fullShare ((dat31 V c).before 1 t d))
    ∗ (∃ d, owns (c : Thread nD τ) (ms31_2 t) fullShare ((dat31 V c).before 2 t d)))

noncomputable def bodyPost31 (c : Dev nD) (t : Fin cfg31.N) : sProp 𝕄 :=
  iprop((dat31 V c).Φ t.succ ∗ (dat31 V c).owesAt () t.succ
    ∗ (dat31 V c).leavesExact 0 t
    ∗ (dat31 V c).leavesExact 1 t
    ∗ (dat31 V c).leavesExact 2 t)

set_option maxHeartbeats 4800000 in
/-- The body at any point, from region 3's triples on this region's memrefs. -/
theorem sound_body31 (c : Dev nD) (t : Fin cfg31.N) :
    bodyPre31 V c t ⊢ wp frame (wpE (defs₀ (F := F)) Variants.none c none) Set.univ (bodyAt31 t) (fun _ => bodyPost31 V c t) := by
  rw [bodyAt31_eq (F := F) t]
  unfold bodyPre31 bodyPost31
  simp only [before31_0, before31_1]
  rw [show (dat31 V c).owesAt () t.succ = (dat31 V c).owesAt () t.castSucc from rfl]
  rw [show (dat31 V c).Φ t.succ = PhiS31 V c (t.val + 1) t.isLt from rfl, PhiS31_succ]
  have hN : t.val < 25 := lt_of_lt_of_eq t.isLt (show cfg31.N = 25 from N_31)
  rw [show (dat31 V c).leavesExact 0 t = owns (c : Thread nD τ) (ms31_0 t) fullShare ((dat31 V c).after 0 t) from by
    unfold Dat.leavesExact; rw [liveAt31_0 t], after31_0]
  rw [show (dat31 V c).leavesExact 1 t = owns (c : Thread nD τ) (ms31_1 t) fullShare ((dat31 V c).after 1 t) from by
    unfold Dat.leavesExact; rw [liveAt31_1 t], after31_1]
  by_cases h0 : t.val = 0
  · have h1 : ¬t.val = 24 := by omega
    rw [Dat.leavesExact_idle (dat31 V c) 2 t (idleAt31_2 t (fun h => h1 ((hcond31_1 t).mp h))) (noFlush31_2 t (fun h => h1 ((hcond31_1 t).mp h)))]
    rw [outsAt31_A V c t h0 h1]
    unfold sout3_A_0; (try dsimp only)
    rw [PhiS31_castSucc V c t, PhiS31_zero V c _ _ h0, PhiA31_eq]
    iintro ⟨⟨⟨HS0, Hr⟩, Hg⟩, Ho, ⟨%d0, H0⟩, ⟨%d1, H1⟩, ⟨%d2, H2⟩⟩
    iapply ((kernelRun3_A c (grid31.coords t) _ _ _ _ _ _ _ _ ((hcond31_0 t).mpr h0) (fun h => h1 ((hcond31_1 t).mp h)) (iblk31 V c 0 t) (iblk31 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat31 V c).leavesExact 2 t = owns (c : Thread nD τ) (ms31_2 t) fullShare ((dat31 V c).after 2 t) from by
        unfold Dat.leavesExact; rw [liveAt31_2 t ((hcond31_1 t).mpr h1)], after31_2]
      rw [outsAt31_C V c t h0 h1]
      unfold out3_C_2 sout3_C_0; (try dsimp only)
      rw [PhiS31_castSucc V c t, PhiS31_pos V c _ _ h0]
      iintro ⟨⟨⟨HS0, Hr⟩, Hg⟩, Ho, ⟨%d0, H0⟩, ⟨%d1, H1⟩, ⟨%d2, H2⟩⟩
      iapply ((kernelRun3_C c (grid31.coords t) _ _ _ _ _ _ _ _ (fun h => h0 ((hcond31_0 t).mp h)) ((hcond31_1 t).mpr h1) (iblk31 V c 0 t) (iblk31 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat31 V c) 2 t (idleAt31_2 t (fun h => h1 ((hcond31_1 t).mp h))) (noFlush31_2 t (fun h => h1 ((hcond31_1 t).mp h)))]
      rw [outsAt31_B V c t h0 h1]
      unfold sout3_B_0; (try dsimp only)
      rw [PhiS31_castSucc V c t, PhiS31_pos V c _ _ h0]
      iintro ⟨⟨⟨HS0, Hr⟩, Hg⟩, Ho, ⟨%d0, H0⟩, ⟨%d1, H1⟩, ⟨%d2, H2⟩⟩
      iapply ((kernelRun3_B c (grid31.coords t) _ _ _ _ _ _ _ _ (fun h => h0 ((hcond31_0 t).mp h)) (fun h => h1 ((hcond31_1 t).mp h)) (iblk31 V c 0 t) (iblk31 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation31 (c : Dev nD) : BodyObligation (dat31 (F := F) V c) (defs₀ (F := F)) Variants.none () Set.univ := fun t => by
  rw [bigSep_W31, bigSep_W31]
  exact sound_body31 V c t

/-- What the launch hands the region is the invariant before the first point. -/
theorem hin31 (c : Dev nD) : Pipeline.ΦA spec31 c ⊢ (dat31 V c).Φ 0 := by
  rw [show (dat31 V c).Φ 0 = PhiS31 V c 0 (Nat.zero_le _) from rfl, PhiS31_zero V c 0 _ rfl]
  try exact Idealize.SL.BI.Entails.refl _

/-- After any point but the first the invariant gives the launch's back: the accumulator's named contents are forgotten. -/
theorem Phi_out31 (c : Dev nD) (t : Fin (cfg31.N + 1)) (ht : t.val ≠ 0) : (dat31 V c).Φ t ⊢ Pipeline.ΦA spec31 c := by
  rw [show (dat31 V c).Φ t = PhiS31 V c t.val (Nat.le_of_lt_succ t.isLt) from rfl, PhiS31_pos V c _ _ ht, PhiA31_eq]
  iintro ⟨⟨HS0, Hr⟩, Hg⟩
  isplitl [HS0 Hr]
  · isplitl [HS0]
    · iexists _; iexact HS0
    iexact Hr
  iexact Hg

/-- The same after the last point. -/
theorem hout31 (c : Dev nD) : (dat31 V c).Φ (Fin.last cfg31.N) ⊢ Pipeline.ΦA spec31 c :=
  Phi_out31 V c _ (by rw [Fin.val_last]; have : cfg31.N = 25 := N_31; omega)

end Cert.Kernel.Hand

end
-- ==== Proof.KB.R32.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Ring
import Idealize.ShloMosaic.Lib.Tactic

/-!
# Region 32: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region32
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk32 (c : Dev nD) (w : Fin cfg32.W) (t : Fin cfg32.N) : ((cfg32.win w).xblock (cfg32.grid.coords t)).Idx → Elt F (cfg32.win w).elt :=
  ((cfg32.win w).blk t).view.read (Elt F) (V c (Pipeline.arrRef spec32 w))

/-- The activations' staging buffer holds the block of the current point at every point: the window is fetched at
    every point, is never cut and never idle, and the body leaves the block where it found it. -/
theorem before32_0_of {c : Dev nD} (dat : Dat τ (Elt F) Unit ℕ (UR sig nD τ) ℕ cfg32 c) (hA : dat.A 0 = V c (Pipeline.arrRef spec32 0))
    (hafter : ∀ t, dat.after 0 t = iblk32 V c 0 t) (t : Fin cfg32.N) (d) : dat.before 0 t d = iblk32 V c 0 t :=
  (dat.before_in_eq_fetched 0 rfl (fun _ => rfl) (fun _ _ _ => rfl) (fun t => by rw [hafter]; unfold Dat.blockOf iblk32; rw [hA]; try rfl) t d).trans
    (by unfold Dat.fetched Dat.blockOf iblk32; rw [hA]; try rfl)

/-- The mean row's staging buffer holds its (one) block at every point: it is fetched at the first point only, its
    block index never moves afterwards, and the body leaves it in place. -/
theorem before32_1_of {c : Dev nD} (dat : Dat τ (Elt F) Unit ℕ (UR sig nD τ) ℕ cfg32 c) (hA : dat.A 1 = V c (Pipeline.arrRef spec32 1))
    (hafter : ∀ t, dat.after 1 t = iblk32 V c 1 t) (t : Fin cfg32.N) (d) : dat.before 1 t d = iblk32 V c 1 t :=
  (dat.before_in_eq_fetched 1 rfl (fun _ => rfl) (fun _ _ _ => rfl) (fun t => by rw [hafter]; unfold Dat.blockOf iblk32; rw [hA]; try rfl) t d).trans
    (by unfold Dat.fetched Dat.blockOf iblk32; rw [hA]; try rfl)

/-- The same of the variance row. -/
theorem before32_2_of {c : Dev nD} (dat : Dat τ (Elt F) Unit ℕ (UR sig nD τ) ℕ cfg32 c) (hA : dat.A 2 = V c (Pipeline.arrRef spec32 2))
    (hafter : ∀ t, dat.after 2 t = iblk32 V c 2 t) (t : Fin cfg32.N) (d) : dat.before 2 t d = iblk32 V c 2 t :=
  (dat.before_in_eq_fetched 2 rfl (fun _ => rfl) (fun _ _ _ => rfl) (fun t => by rw [hafter]; unfold Dat.blockOf iblk32; rw [hA]; try rfl) t d).trans
    (by unfold Dat.fetched Dat.blockOf iblk32; rw [hA]; try rfl)

/-- The same of the scale row. -/
theorem before32_3_of {c : Dev nD} (dat : Dat τ (Elt F) Unit ℕ (UR sig nD τ) ℕ cfg32 c) (hA : dat.A 3 = V c (Pipeline.arrRef spec32 3))
    (hafter : ∀ t, dat.after 3 t = iblk32 V c 3 t) (t : Fin cfg32.N) (d) : dat.before 3 t d = iblk32 V c 3 t :=
  (dat.before_in_eq_fetched 3 rfl (fun _ => rfl) (fun _ _ _ => rfl) (fun t => by rw [hafter]; unfold Dat.blockOf iblk32; rw [hA]; try rfl) t d).trans
    (by unfold Dat.fetched Dat.blockOf iblk32; rw [hA]; try rfl)

/-- The same of the shift row. -/
theorem before32_4_of {c : Dev nD} (dat : Dat τ (Elt F) Unit ℕ (UR sig nD τ) ℕ cfg32 c) (hA : dat.A 4 = V c (Pipeline.arrRef spec32 4))
    (hafter : ∀ t, dat.after 4 t = iblk32 V c 4 t) (t : Fin cfg32.N) (d) : dat.before 4 t d = iblk32 V c 4 t :=
  (dat.before_in_eq_fetched 4 rfl (fun _ => rfl) (fun _ _ _ => rfl) (fun t => by rw [hafter]; unfold Dat.blockOf iblk32; rw [hA]; try rfl) t d).trans
    (by unfold Dat.fetched Dat.blockOf iblk32; rw [hA]; try rfl)

/-! ## The body's accesses: each buffer is read, and the output written, whole -/

/-- The whole of a block of 2000 rows. -/
noncomputable abbrev r32_0 : Rect S2000x64 := Rect.unit (s := S2000x64) ![0, 0] S2000x64.size inb_S2000x64_S2000x64_0_0
/-- The whole of a single row. -/
noncomputable abbrev r32_1 : Rect S1x64 := Rect.unit (s := S1x64) ![0, 0] S1x64.size inb_S1x64_S1x64_0_0

/-! ## What the body leaves in the output buffer -/

/-- The output buffer after the body, from the five input blocks: its one store, whose payload is the skeleton's. -/
noncomputable def out32_5 (x0 : Vec F S2000x64 .f32) (x1 : Vec F S1x64 .f32) (x2 : Vec F S1x64 .f32) (x3 : Vec F S1x64 .f32) (x4 : Vec F S1x64 .f32) :
    Vec F S2000x64 .f32 :=
  View.canon [⟨r32_0, k32_pay1 (View.ld x0 r32_0) (View.ld x1 r32_1) (View.ld x2 r32_1) (View.ld x3 r32_1) (View.ld x4 r32_1)⟩]

/-- The one store covers the buffer. -/
theorem cover32_5 (p0 : Vec F S2000x64 .f32) (y : S2000x64.Idx) :
    ∃ pc ∈ ([⟨r32_0, p0⟩] : List (View.Piece (Elt F) S2000x64 .f32)), y ∈ pc.1.set :=
  View.cover_of_tiled [⟨r32_0, p0⟩] S2000x64.size (by rfl) y

/-! ## The body's triple -/

set_option maxHeartbeats 1000000 in
/-- The body on whole staging buffers, the five inputs' at read contents x0 … x4 and the output's at anything, runs
    to a state in which the inputs' are as they were and the output's holds out32_5 of them. (The body also loads the
    output buffer before it stores to it; the loaded value is not used.) -/
theorem sound_kernel32 (c : Dev nD) (E : Set ℕ) (i : grid32.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out32_5 x0 x1 x2 x3 x4)) -∗ K ⟨⟩))
      ⊢ wp frame (wpE (defs₀ (F := F)) Variants.none c none) E (cc32__bn_softmax_kernel i arg1 harg1 arg2 harg2 arg3 harg3 arg4 harg4 arg5 harg5 arg6 harg6) K := by
  simp only [cc32__bn_softmax_kernel_eq_skeleton]; unfold cc32__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover32_5 _)

/-! ## The pipeline's proof data -/

/-- The proof data of the region's pipeline on core c: the arrays as the region finds them; after the body at point t
    each input's buffer at its block and the output's at out32_5 of the input blocks; the invariant that of a body which
    touches nothing but its windows; nothing owed; full shares. -/
noncomputable def dat32 (c : Dev nD) : Dat τ (Elt F) Unit ℕ (UR sig nD τ) ℕ cfg32 c where
  A w := V c (Pipeline.arrRef spec32 w)
  after w t := match w with
    | ⟨0, _⟩ => iblk32 V c 0 t
    | ⟨1, _⟩ => iblk32 V c 1 t
    | ⟨2, _⟩ => iblk32 V c 2 t
    | ⟨3, _⟩ => iblk32 V c 3 t
    | ⟨4, _⟩ => iblk32 V c 4 t
    | ⟨5, _⟩ => out32_5 (iblk32 V c 0 t) (iblk32 V c 1 t) (iblk32 V c 2 t) (iblk32 V c 3 t) (iblk32 V c 4 t)
  Φ _ := Pipeline.ΦA spec32 c
  q _ := fullShare
  owed _ := 0

/-- The proof data's arrays are the region-entry contents. -/
theorem A_eq32 (c : Dev nD) (w : Fin cfg32.W) : (dat32 V c).A w = V c (Pipeline.arrRef spec32 w) := by
  dsimp only [dat32]

/-- What the body leaves, window by window. -/
theorem after32_0 (c : Dev nD) (t : Fin cfg32.N) : (dat32 V c).after 0 t = iblk32 V c 0 t := by dsimp only [dat32]
theorem after32_1 (c : Dev nD) (t : Fin cfg32.N) : (dat32 V c).after 1 t = iblk32 V c 1 t := by dsimp only [dat32]
theorem after32_2 (c : Dev nD) (t : Fin cfg32.N) : (dat32 V c).after 2 t = iblk32 V c 2 t := by dsimp only [dat32]
theorem after32_3 (c : Dev nD) (t : Fin cfg32.N) : (dat32 V c).after 3 t = iblk32 V c 3 t := by dsimp only [dat32]
theorem after32_4 (c : Dev nD) (t : Fin cfg32.N) : (dat32 V c).after 4 t = iblk32 V c 4 t := by dsimp only [dat32]
theorem after32_5 (c : Dev nD) (t : Fin cfg32.N) :
    (dat32 V c).after 5 t = out32_5 (iblk32 V c 0 t) (iblk32 V c 1 t) (iblk32 V c 2 t) (iblk32 V c 3 t) (iblk32 V c 4 t) := by dsimp only [dat32]

/-- Each input's current staging buffer holds its block at every point, fetched there or not. -/
theorem before32_0 (c : Dev nD) (t : Fin cfg32.N) (d) : (dat32 V c).before 0 t d = iblk32 V c 0 t :=
  before32_0_of V (dat32 V c) (A_eq32 V c 0) (after32_0 V c) t d
theorem before32_1 (c : Dev nD) (t : Fin cfg32.N) (d) : (dat32 V c).before 1 t d = iblk32 V c 1 t :=
  before32_1_of V (dat32 V c) (A_eq32 V c 1) (after32_1 V c) t d
theorem before32_2 (c : Dev nD) (t : Fin cfg32.N) (d) : (dat32 V c).before 2 t d = iblk32 V c 2 t :=
  before32_2_of V (dat32 V c) (A_eq32 V c 2) (after32_2 V c) t d
theorem before32_3 (c : Dev nD) (t : Fin cfg32.N) (d) : (dat32 V c).before 3 t d = iblk32 V c 3 t :=
  before32_3_of V (dat32 V c) (A_eq32 V c 3) (after32_3 V c) t d
theorem before32_4 (c : Dev nD) (t : Fin cfg32.N) (d) : (dat32 V c).before 4 t d = iblk32 V c 4 t :=
  before32_4_of V (dat32 V c) (A_eq32 V c 4) (after32_4 V c) t d

/-! ## The body obligation, at a generic point -/

/-- What the body is called with at point t, the windows one by one, -/
noncomputable def bodyPre32 (c : Dev nD) (t : Fin cfg32.N) : sProp 𝕄 :=
  iprop((dat32 V c).Φ t.castSucc ∗ (dat32 V c).owesAt () t.castSucc
    ∗ (∃ d, owns (c : Thread nD τ) (st32_0 t) fullShare ((dat32 V c).before 0 t d))
    ∗ (∃ d, owns (c : Thread nD τ) (st32_1 t) fullShare ((dat32 V c).before 1 t d))
    ∗ (∃ d, owns (c : Thread nD τ) (st32_2 t) fullShare ((dat32 V c).before 2 t d))
    ∗ (∃ d, owns (c : Thread nD τ) (st32_3 t) fullShare ((dat32 V c).before 3 t d))
    ∗ (∃ d, owns (c : Thread nD τ) (st32_4 t) fullShare ((dat32 V c).before 4 t d))
    ∗ (∃ d, owns (c : Thread nD τ) (st32_5 t) fullShare ((dat32 V c).before 5 t d)))

/-- and what it returns. -/
noncomputable def bodyPost32 (c : Dev nD) (t : Fin cfg32.N) : sProp 𝕄 :=
  iprop((dat32 V c).Φ t.succ ∗ (dat32 V c).owesAt () t.succ
    ∗ owns (c : Thread nD τ) (st32_0 t) fullShare ((dat32 V c).after 0 t)
    ∗ owns (c : Thread nD τ) (st32_1 t) fullShare ((dat32 V c).after 1 t)
    ∗ owns (c : Thread nD τ) (st32_2 t) fullShare ((dat32 V c).after 2 t)
    ∗ owns (c : Thread nD τ) (st32_3 t) fullShare ((dat32 V c).after 3 t)
    ∗ owns (c : Thread nD τ) (st32_4 t) fullShare ((dat32 V c).after 4 t)
    ∗ owns (c : Thread nD τ) (st32_5 t) fullShare ((dat32 V c).after 5 t))

/-- The body at any point: the inputs' buffers hold their blocks, so the body's triple applies; the invariant and
    what the core owes pass through unread. -/
theorem sound_body32 (c : Dev nD) (t : Fin cfg32.N) :
    bodyPre32 V c t ⊢ wp frame (wpE (defs₀ (F := F)) Variants.none c none) Set.univ (bodyAt32 t) (fun _ => bodyPost32 V c t) := by
  unfold bodyPre32 bodyPost32 bodyAt32
  simp only [before32_0, before32_1, before32_2, before32_3, before32_4]
  rw [show (dat32 V c).Φ t.succ = (dat32 V c).Φ t.castSucc from rfl,
    show (dat32 V c).owesAt () t.succ = (dat32 V c).owesAt () t.castSucc from rfl,
    after32_0, after32_1, after32_2, after32_3, after32_4, after32_5]
  iintro ⟨HΦ, Ho, ⟨%d0, H0⟩, ⟨%d1, H1⟩, ⟨%d2, H2⟩, ⟨%d3, H3⟩, ⟨%d4, H4⟩, ⟨%d5, H5⟩⟩
  iapply (sound_kernel32 c Set.univ (grid32.coords t) _ _ _ _ _ _ _ _ _ _ _ _
    (iblk32 V c 0 t) (iblk32 V c 1 t) (iblk32 V c 2 t) (iblk32 V c 3 t) (iblk32 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation32 (c : Dev nD) : BodyObligation (dat32 (F := F) V c) (defs₀ (F := F)) Variants.none () Set.univ := fun t => by
  rw [bigSep_W32, bigSep_W32]
  exact sound_body32 V c t

end Region32

end Cert.Kernel.Hand

end
-- ==== Proof.KB.R33.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.Regions
import Idealize.ShloMosaic.Lib.Tactic

/-! # Region 33: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region33
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk33 (c : Dev nD) (w : Fin cfg33.W) (t : Fin cfg33.N) : ((cfg33.win w).xblock (cfg33.grid.coords t)).Idx → Elt F (cfg33.win w).elt :=
  ((cfg33.win w).blk t).view.read (Elt F) (V c (Pipeline.arrRef spec33 w))

/-- The rows of X: the staging buffer the body is handed holds the block of the point, whether the
    point fetched it or not (an unfetched input has not moved its block index). -/
theorem before33_0_of {c : Dev nD} (dat : Dat τ (Elt F) Unit ℕ (UR sig nD τ) ℕ cfg33 c) (hA : dat.A 0 = V c (Pipeline.arrRef spec33 0))
    (hafter : ∀ t, dat.after 0 t = iblk33 V c 0 t) (t : Fin cfg33.N) (d) : dat.before 0 t d = iblk33 V c 0 t :=
  (dat.before_in_eq_fetched 0 rfl (fun _ => rfl) (fun _ _ _ => rfl) (fun t => by rw [hafter]; unfold Dat.blockOf iblk33; rw [hA]; try rfl) t d).trans
    (by unfold Dat.fetched Dat.blockOf iblk33; rw [hA]; try rfl)

/-- The matrix W: fetched at the first point only, and found in place at every later one. -/
theorem before33_1_of {c : Dev nD} (dat : Dat τ (Elt F) Unit ℕ (UR sig nD τ) ℕ cfg33 c) (hA : dat.A 1 = V c (Pipeline.arrRef spec33 1))
    (hafter : ∀ t, dat.after 1 t = iblk33 V c 1 t) (t : Fin cfg33.N) (d) : dat.before 1 t d = iblk33 V c 1 t :=
  (dat.before_in_eq_fetched 1 rfl (fun _ => rfl) (fun _ _ _ => rfl) (fun t => by rw [hafter]; unfold Dat.blockOf iblk33; rw [hA]; try rfl) t d).trans
    (by unfold Dat.fetched Dat.blockOf iblk33; rw [hA]; try rfl)

/-! ## The body's accesses: each buffer whole -/

noncomputable abbrev r33_0 : Rect S2000x64 := Rect.unit (s := S2000x64) ![0, 0] S2000x64.size inb_S2000x64_S2000x64_0_0
noncomputable abbrev r33_1 : Rect S64x64 := Rect.unit (s := S64x64) ![0, 0] S64x64.size inb_S64x64_S64x64_0_0
noncomputable abbrev r33_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out33_2 (x0 : Vec F S2000x64 .f32) (x1 : Vec F S64x64 .f32) : Vec F S2000x64 .f32 :=
  View.canon [⟨r33_2, k33_pay1 (View.ld x0 r33_0) (View.ld x1 r33_1)⟩]

/-- The store's rectangle is the whole buffer, so it covers every index. -/
theorem cover33_2 (p0 : Vec F S2000x64 .f32) (y : S2000x64.Idx) :
    ∃ pc ∈ ([⟨r33_2, p0⟩] : List (View.Piece (Elt F) S2000x64 .f32)), y ∈ pc.1.set :=
  View.cover_of_tiled [⟨r33_2, p0⟩] S2000x64.size (by rfl) y

/-! ## The body's triple -/

set_option maxHeartbeats 1000000 in
/-- On whole staging memrefs, the inputs' holding x0 and x1 and the output's holding anything, the body
    runs to a state where the inputs' are unchanged and the output's holds out33_2 x0 x1. The body also reads
    the output buffer before storing into it; the value read is not used. -/
theorem sound_kernel33 (c : Dev nD) (E : Set ℕ) (i : grid33.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out33_2 x0 x1)) -∗ K ⟨⟩))
      ⊢ wp frame (wpE (defs₀ (F := F)) Variants.none c none) E (cc33__linear_kernel i arg1 harg1 arg2 harg2 arg3 harg3) K := by
  simp only [cc33__linear_kernel_eq_skeleton]; unfold cc33__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover33_2 _)

/-! ## The pipeline's proof data -/

/-- The arrays as the region finds them; after the body at point t the inputs' buffers at their blocks
    and the output's at the product block; the invariant is the scoped rest and the generator register,
    untouched; nothing owed; full shares. -/
noncomputable def dat33 (c : Dev nD) : Dat τ (Elt F) Unit ℕ (UR sig nD τ) ℕ cfg33 c where
  A w := V c (Pipeline.arrRef spec33 w)
  after w t := match w with
    | ⟨0, _⟩ => iblk33 V c 0 t
    | ⟨1, _⟩ => iblk33 V c 1 t
    | ⟨2, _⟩ => out33_2 (iblk33 V c 0 t) (iblk33 V c 1 t)
  Φ _ := Pipeline.ΦA spec33 c
  q _ := fullShare
  owed _ := 0

theorem A_eq33 (c : Dev nD) (w : Fin cfg33.W) : (dat33 V c).A w = V c (Pipeline.arrRef spec33 w) := by
  dsimp only [dat33]

theorem after33_0 (c : Dev nD) (t : Fin cfg33.N) : (dat33 V c).after 0 t = iblk33 V c 0 t := by dsimp only [dat33]
theorem after33_1 (c : Dev nD) (t : Fin cfg33.N) : (dat33 V c).after 1 t = iblk33 V c 1 t := by dsimp only [dat33]
theorem after33_2 (c : Dev nD) (t : Fin cfg33.N) : (dat33 V c).after 2 t = out33_2 (iblk33 V c 0 t) (iblk33 V c 1 t) := by dsimp only [dat33]

theorem before33_0 (c : Dev nD) (t : Fin cfg33.N) (d) : (dat33 V c).before 0 t d = iblk33 V c 0 t :=
  before33_0_of V (dat33 V c) (A_eq33 V c 0) (after33_0 V c) t d
theorem before33_1 (c : Dev nD) (t : Fin cfg33.N) (d) : (dat33 V c).before 1 t d = iblk33 V c 1 t :=
  before33_1_of V (dat33 V c) (A_eq33 V c 1) (after33_1 V c) t d

/-! ## The body obligation, at a generic point -/

/-- What the body is called with at point t, window by window, -/
noncomputable def bodyPre33 (c : Dev nD) (t : Fin cfg33.N) : sProp 𝕄 :=
  iprop((dat33 V c).Φ t.castSucc ∗ (dat33 V c).owesAt () t.castSucc
    ∗ (∃ d, owns (c : Thread nD τ) (st33_0 t) fullShare ((dat33 V c).before 0 t d))
    ∗ (∃ d, owns (c : Thread nD τ) (st33_1 t) fullShare ((dat33 V c).before 1 t d))
    ∗ (∃ d, owns (c : Thread nD τ) (st33_2 t) fullShare ((dat33 V c).before 2 t d)))

/-- and what it returns. -/
noncomputable def bodyPost33 (c : Dev nD) (t : Fin cfg33.N) : sProp 𝕄 :=
  iprop((dat33 V c).Φ t.succ ∗ (dat33 V c).owesAt () t.succ
    ∗ owns (c : Thread nD τ) (st33_0 t) fullShare ((dat33 V c).after 0 t)
    ∗ owns (c : Thread nD τ) (st33_1 t) fullShare ((dat33 V c).after 1 t)
    ∗ owns (c : Thread nD τ) (st33_2 t) fullShare ((dat33 V c).after 2 t))

/-- The inputs' memrefs hold their blocks, so the body's triple applies; the invariant and what the core
    owes pass through unread. -/
theorem sound_body33 (c : Dev nD) (t : Fin cfg33.N) :
    bodyPre33 V c t ⊢ wp frame (wpE (defs₀ (F := F)) Variants.none c none) Set.univ (bodyAt33 t) (fun _ => bodyPost33 V c t) := by
  unfold bodyPre33 bodyPost33 bodyAt33
  simp only [before33_0, before33_1]
  rw [show (dat33 V c).Φ t.succ = (dat33 V c).Φ t.castSucc from rfl,
    show (dat33 V c).owesAt () t.succ = (dat33 V c).owesAt () t.castSucc from rfl,
    after33_0, after33_1, after33_2]
  iintro ⟨HΦ, Ho, ⟨%d0, H0⟩, ⟨%d1, H1⟩, ⟨%d2, H2⟩⟩
  iapply (sound_kernel33 c Set.univ (grid33.coords t) _ _ _ _ _ _ (iblk33 V c 0 t) (iblk33 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation33 (c : Dev nD) : BodyObligation (dat33 (F := F) V c) (defs₀ (F := F)) Variants.none () Set.univ := fun t => by
  rw [bigSep_W33, bigSep_W33]
  exact sound_body33 V c t

end Region33

end Cert.Kernel.Hand

end
-- ==== Proof.KB.R34.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.R14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The kernel is region 14's

The two regions' printed kernel functions are the same function of the grid coordinate and the memrefs (the same
text over the same shapes; the grids and the last-point conditions are the same literals), so region 14's runs of the
body, its covers and its per-case contents — all stated over abstract coordinates and memrefs — serve this region. -/

theorem cc34_kernel_eq : cc34_kernel (F := F) = cc14_kernel (F := F) := rfl

/-! ## The windows' blocks -/

/-- Window `w`'s block at point `t`, read off its array as the region finds it (`V`). -/
noncomputable def iblk34 (c : Dev nD) (w : Fin cfg34.W) (t : Fin cfg34.N) : ((cfg34.win w).xblock (cfg34.grid.coords t)).Idx → Elt F (cfg34.win w).elt :=
  ((cfg34.win w).blk t).view.read (Elt F) (V c (Pipeline.arrRef spec34 w))

/-- Input window 0's current staging buffer holds its block at every point, for any proof data whose array is
    `V`'s and whose body leaves the block in place: the window is uncut and never idle. -/
theorem before34_0_of {c : Dev nD} (dat : Dat τ (Elt F) Unit ℕ (UR sig nD τ) ℕ cfg34 c) (hA : dat.A 0 = V c (Pipeline.arrRef spec34 0))
    (hafter : ∀ t, dat.after 0 t = iblk34 V c 0 t) (t : Fin cfg34.N) (d) : dat.before 0 t d = iblk34 V c 0 t :=
  (dat.before_in_eq_fetched 0 rfl (fun _ => rfl) (fun _ _ _ => rfl) (fun t => by rw [hafter]; unfold Dat.blockOf iblk34; rw [hA]; try rfl) t d).trans
    (by unfold Dat.fetched Dat.blockOf iblk34; rw [hA]; try rfl)

/-- Input window 1 likewise: fetched at the first point only, its block index never moves, so the buffer holds
    the block at every point. -/
theorem before34_1_of {c : Dev nD} (dat : Dat τ (Elt F) Unit ℕ (UR sig nD τ) ℕ cfg34 c) (hA : dat.A 1 = V c (Pipeline.arrRef spec34 1))
    (hafter : ∀ t, dat.after 1 t = iblk34 V c 1 t) (t : Fin cfg34.N) (d) : dat.before 1 t d = iblk34 V c 1 t :=
  (dat.before_in_eq_fetched 1 rfl (fun _ => rfl) (fun _ _ _ => rfl) (fun t => by rw [hafter]; unfold Dat.blockOf iblk34; rw [hA]; try rfl) t d).trans
    (by unfold Dat.fetched Dat.blockOf iblk34; rw [hA]; try rfl)

/-- Input window 2 likewise. -/
theorem before34_2_of {c : Dev nD} (dat : Dat τ (Elt F) Unit ℕ (UR sig nD τ) ℕ cfg34 c) (hA : dat.A 2 = V c (Pipeline.arrRef spec34 2))
    (hafter : ∀ t, dat.after 2 t = iblk34 V c 2 t) (t : Fin cfg34.N) (d) : dat.before 2 t d = iblk34 V c 2 t :=
  (dat.before_in_eq_fetched 2 rfl (fun _ => rfl) (fun _ _ _ => rfl) (fun t => by rw [hafter]; unfold Dat.blockOf iblk34; rw [hA]; try rfl) t d).trans
    (by unfold Dat.fetched Dat.blockOf iblk34; rw [hA]; try rfl)

/-! ## The body's two conditions on the grid coordinate -/

/-- It holds at the first point only. -/
theorem hcond34_0 : ∀ t : Fin cfg34.N, cond14_0 (grid34.coords t) ↔ t.val % 25 = 0 :=
  (by decide +kernel : ∀ t : Fin grid34.N, cond14_0 (grid34.coords t) ↔ t.val % 25 = 0)

/-- It holds at the last point only. -/
theorem hcond34_1 : ∀ t : Fin cfg34.N, cond14_1 (grid34.coords t) ↔ t.val % 25 = 24 :=
  (by decide +kernel : ∀ t : Fin grid34.N, cond14_1 (grid34.coords t) ↔ t.val % 25 = 24)

/-! ## Where the windows are idle -/

theorem liveAt34_0 : ∀ t : Fin cfg34.N, cfg34.idle 0 (grid34.coords t) = false := by decide +kernel
theorem liveAt34_1 : ∀ t : Fin cfg34.N, cfg34.idle 1 (grid34.coords t) = false := by decide +kernel
theorem liveAt34_2 : ∀ t : Fin cfg34.N, cfg34.idle 2 (grid34.coords t) = false := by decide +kernel
theorem liveAt34_3 : ∀ t : Fin cfg34.N, cfg34.idle 3 (grid34.coords t) = false := by decide +kernel
theorem liveAt34_4 : ∀ t : Fin cfg34.N, cfg34.idle 4 (grid34.coords t) = false := by decide +kernel
/-- At the first point the body stores nothing into output 5: the window is idle there and not written back. -/
theorem idleAt34_5_A : ∀ t : Fin cfg34.N, cond14_0 (grid34.coords t) → ¬cond14_1 (grid34.coords t) → cfg34.idle 5 (grid34.coords t) = true := by decide +kernel
theorem noFlush34_5_A : ∀ t : Fin cfg34.N, cond14_0 (grid34.coords t) → ¬cond14_1 (grid34.coords t) → (cfg34.win 5).flush t = false := by decide +kernel
/-- Nor at the middle points. -/
theorem idleAt34_5_B : ∀ t : Fin cfg34.N, ¬cond14_0 (grid34.coords t) → ¬cond14_1 (grid34.coords t) → cfg34.idle 5 (grid34.coords t) = true := by decide +kernel
theorem noFlush34_5_B : ∀ t : Fin cfg34.N, ¬cond14_0 (grid34.coords t) → ¬cond14_1 (grid34.coords t) → (cfg34.win 5).flush t = false := by decide +kernel
/-- At the last point it stores the accumulated sums there: the window is live. -/
theorem liveAt34_5_C : ∀ t : Fin cfg34.N, ¬cond14_0 (grid34.coords t) → cond14_1 (grid34.coords t) → cfg34.idle 5 (grid34.coords t) = false := by decide +kernel

/-! ## The memrefs the body is called with -/

/-- Each window's current staging memref at point `t`, as the pipeline passes it, and its wholeness. -/
noncomputable abbrev ms34_0 (t : Fin cfg34.N) : Memref sig .tc .vmem S2000x64 .f32 := win34_0.stage (cfg34.slots t 0)
abbrev hs34_0 (t : Fin cfg34.N) : (ms34_0 t).IsWhole := hstage34_0 ((cfg34.slots t 0).cast nbuf34_0)
noncomputable abbrev ms34_1 (t : Fin cfg34.N) : Memref sig .tc .vmem S1x64 .f32 := win34_1.stage (cfg34.slots t 1)
abbrev hs34_1 (t : Fin cfg34.N) : (ms34_1 t).IsWhole := hstage34_1 ((cfg34.slots t 1).cast nbuf34_1)
noncomputable abbrev ms34_2 (t : Fin cfg34.N) : Memref sig .tc .vmem S2000x64 .f32 := win34_2.stage (cfg34.slots t 2)
abbrev hs34_2 (t : Fin cfg34.N) : (ms34_2 t).IsWhole := hstage34_2 ((cfg34.slots t 2).cast nbuf34_2)
noncomputable abbrev ms34_3 (t : Fin cfg34.N) : Memref sig .tc .vmem S2000x64 .f32 := win34_3.stage (cfg34.slots t 3)
abbrev hs34_3 (t : Fin cfg34.N) : (ms34_3 t).IsWhole := hstage34_3 ((cfg34.slots t 3).cast nbuf34_3)
noncomputable abbrev ms34_4 (t : Fin cfg34.N) : Memref sig .tc .vmem S2000x64 .f32 := win34_4.stage (cfg34.slots t 4)
abbrev hs34_4 (t : Fin cfg34.N) : (ms34_4 t).IsWhole := hstage34_4 ((cfg34.slots t 4).cast nbuf34_4)
noncomputable abbrev ms34_5 (t : Fin cfg34.N) : Memref sig .tc .vmem S1x64 .f32 := win34_5.stage (cfg34.slots t 5)
abbrev hs34_5 (t : Fin cfg34.N) : (ms34_5 t).IsWhole := hstage34_5 ((cfg34.slots t 5).cast nbuf34_5)
/-- The scratch operand: a whole scoped buffer of the kernel's own, in which the column sums accumulate. -/
noncomputable abbrev scM34_0 : Memref sig .tc .vmem S1x64 .f32 := Memref.whole cc34_scratch0

/-- The other scoped buffers (every other call's staging buffers and scratch), unopened. -/
noncomputable abbrev restBut34 (c : Dev nD) : sProp 𝕄 :=
  Pipeline.scopedRestBut (Ix := Unit) (Name := ℕ) (U := UR sig nD τ) (Lvl := ℕ) (Val := Elt F) spec34 c [cc34_scratch0]

/-- The region's invariant as the launch hands it over, with the scratch operand split out as a memref owned at
    some contents: what the body obligation hands the run and takes back. -/
theorem PhiA34_eq (c : Dev nD) :
    (Pipeline.ΦA spec34 c : sProp 𝕄)
      = iprop(iprop(iprop((∃ d, owns (c : Thread nD τ) scM34_0 fullShare d)) ∗ restBut34 (F := F) c) ∗ (∃ r, prngReg c r)) := by
  unfold Pipeline.ΦA; rw [scopedRest34_split]; simp only [scM34_0, owns_whole]; try rfl

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt34 (c : Dev nD) : (n : ℕ) → n < cfg34.N → Vec F S2000x64 .f32 × Vec F S2000x64 .f32 × Vec F S1x64 .f32 × Vec F S1x64 .f32
  | 0, hn => (out14_A_3 c (grid34.coords ⟨0, hn⟩) (ms34_0 ⟨0, hn⟩) (hs34_0 ⟨0, hn⟩) (ms34_1 ⟨0, hn⟩) (hs34_1 ⟨0, hn⟩) (ms34_2 ⟨0, hn⟩) (hs34_2 ⟨0, hn⟩) (ms34_3 ⟨0, hn⟩) (hs34_3 ⟨0, hn⟩) (ms34_4 ⟨0, hn⟩) (hs34_4 ⟨0, hn⟩) (ms34_5 ⟨0, hn⟩) (hs34_5 ⟨0, hn⟩) scM34_0 (Memref.isWhole_whole _) ((hcond34_0 ⟨0, hn⟩).mpr (Nat.zero_mod _)) (fun h => (fun h => by (try dsimp only at h); omega) ((hcond34_1 ⟨0, hn⟩).mp h)) (iblk34 V c 0 ⟨0, hn⟩) (iblk34 V c 1 ⟨0, hn⟩) (iblk34 V c 2 ⟨0, hn⟩), out14_A_4 c (grid34.coords ⟨0, hn⟩) (ms34_0 ⟨0, hn⟩) (hs34_0 ⟨0, hn⟩) (ms34_1 ⟨0, hn⟩) (hs34_1 ⟨0, hn⟩) (ms34_2 ⟨0, hn⟩) (hs34_2 ⟨0, hn⟩) (ms34_3 ⟨0, hn⟩) (hs34_3 ⟨0, hn⟩) (ms34_4 ⟨0, hn⟩) (hs34_4 ⟨0, hn⟩) (ms34_5 ⟨0, hn⟩) (hs34_5 ⟨0, hn⟩) scM34_0 (Memref.isWhole_whole _) ((hcond34_0 ⟨0, hn⟩).mpr (Nat.zero_mod _)) (fun h => (fun h => by (try dsimp only at h); omega) ((hcond34_1 ⟨0, hn⟩).mp h)) (iblk34 V c 0 ⟨0, hn⟩) (iblk34 V c 1 ⟨0, hn⟩) (iblk34 V c 2 ⟨0, hn⟩), out14_A_5 c (grid34.coords ⟨0, hn⟩) (ms34_0 ⟨0, hn⟩) (hs34_0 ⟨0, hn⟩) (ms34_1 ⟨0, hn⟩) (hs34_1 ⟨0, hn⟩) (ms34_2 ⟨0, hn⟩) (hs34_2 ⟨0, hn⟩) (ms34_3 ⟨0, hn⟩) (hs34_3 ⟨0, hn⟩) (ms34_4 ⟨0, hn⟩) (hs34_4 ⟨0, hn⟩) (ms34_5 ⟨0, hn⟩) (hs34_5 ⟨0, hn⟩) scM34_0 (Memref.isWhole_whole _) ((hcond34_0 ⟨0, hn⟩).mpr (Nat.zero_mod _)) (fun h => (fun h => by (try dsimp only at h); omega) ((hcond34_1 ⟨0, hn⟩).mp h)) (iblk34 V c 0 ⟨0, hn⟩) (iblk34 V c 1 ⟨0, hn⟩) (iblk34 V c 2 ⟨0, hn⟩), sout14_A_0 c (grid34.coords ⟨0, hn⟩) (ms34_0 ⟨0, hn⟩) (hs34_0 ⟨0, hn⟩) (ms34_1 ⟨0, hn⟩) (hs34_1 ⟨0, hn⟩) (ms34_2 ⟨0, hn⟩) (hs34_2 ⟨0, hn⟩) (ms34_3 ⟨0, hn⟩) (hs34_3 ⟨0, hn⟩) (ms34_4 ⟨0, hn⟩) (hs34_4 ⟨0, hn⟩) (ms34_5 ⟨0, hn⟩) (hs34_5 ⟨0, hn⟩) scM34_0 (Memref.isWhole_whole _) ((hcond34_0 ⟨0, hn⟩).mpr (Nat.zero_mod _)) (fun h => (fun h => by (try dsimp only at h); omega) ((hcond34_1 ⟨0, hn⟩).mp h)) (iblk34 V c 0 ⟨0, hn⟩) (iblk34 V c 1 ⟨0, hn⟩) (iblk34 V c 2 ⟨0, hn⟩))
  | n + 1, hn =>
    if h0 : (n + 1) % 25 = 0 then
      if h1 : (n + 1) % 25 = 24 then
        False.elim (by omega)
      else
        (out14_A_3 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) ((hcond34_0 ⟨n + 1, hn⟩).mpr h0) (fun h => h1 ((hcond34_1 ⟨n + 1, hn⟩).mp h)) (iblk34 V c 0 ⟨n + 1, hn⟩) (iblk34 V c 1 ⟨n + 1, hn⟩) (iblk34 V c 2 ⟨n + 1, hn⟩), out14_A_4 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) ((hcond34_0 ⟨n + 1, hn⟩).mpr h0) (fun h => h1 ((hcond34_1 ⟨n + 1, hn⟩).mp h)) (iblk34 V c 0 ⟨n + 1, hn⟩) (iblk34 V c 1 ⟨n + 1, hn⟩) (iblk34 V c 2 ⟨n + 1, hn⟩), out14_A_5 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) ((hcond34_0 ⟨n + 1, hn⟩).mpr h0) (fun h => h1 ((hcond34_1 ⟨n + 1, hn⟩).mp h)) (iblk34 V c 0 ⟨n + 1, hn⟩) (iblk34 V c 1 ⟨n + 1, hn⟩) (iblk34 V c 2 ⟨n + 1, hn⟩), sout14_A_0 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) ((hcond34_0 ⟨n + 1, hn⟩).mpr h0) (fun h => h1 ((hcond34_1 ⟨n + 1, hn⟩).mp h)) (iblk34 V c 0 ⟨n + 1, hn⟩) (iblk34 V c 1 ⟨n + 1, hn⟩) (iblk34 V c 2 ⟨n + 1, hn⟩))
    else
      if h1 : (n + 1) % 25 = 24 then
        (out14_C_3 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) ((hcond34_1 ⟨n + 1, hn⟩).mpr h1) (iblk34 V c 0 ⟨n + 1, hn⟩) (iblk34 V c 1 ⟨n + 1, hn⟩) (iblk34 V c 2 ⟨n + 1, hn⟩) (outsAt34 c n (Nat.lt_of_succ_lt hn)).2.2.2, out14_C_4 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) ((hcond34_1 ⟨n + 1, hn⟩).mpr h1) (iblk34 V c 0 ⟨n + 1, hn⟩) (iblk34 V c 1 ⟨n + 1, hn⟩) (iblk34 V c 2 ⟨n + 1, hn⟩) (outsAt34 c n (Nat.lt_of_succ_lt hn)).2.2.2, out14_C_5 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) ((hcond34_1 ⟨n + 1, hn⟩).mpr h1) (iblk34 V c 0 ⟨n + 1, hn⟩) (iblk34 V c 1 ⟨n + 1, hn⟩) (iblk34 V c 2 ⟨n + 1, hn⟩) (outsAt34 c n (Nat.lt_of_succ_lt hn)).2.2.2, sout14_C_0 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) ((hcond34_1 ⟨n + 1, hn⟩).mpr h1) (iblk34 V c 0 ⟨n + 1, hn⟩) (iblk34 V c 1 ⟨n + 1, hn⟩) (iblk34 V c 2 ⟨n + 1, hn⟩) (outsAt34 c n (Nat.lt_of_succ_lt hn)).2.2.2)
      else
        (out14_B_3 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) (fun h => h1 ((hcond34_1 ⟨n + 1, hn⟩).mp h)) (iblk34 V c 0 ⟨n + 1, hn⟩) (iblk34 V c 1 ⟨n + 1, hn⟩) (iblk34 V c 2 ⟨n + 1, hn⟩) (outsAt34 c n (Nat.lt_of_succ_lt hn)).2.2.2, out14_B_4 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) (fun h => h1 ((hcond34_1 ⟨n + 1, hn⟩).mp h)) (iblk34 V c 0 ⟨n + 1, hn⟩) (iblk34 V c 1 ⟨n + 1, hn⟩) (iblk34 V c 2 ⟨n + 1, hn⟩) (outsAt34 c n (Nat.lt_of_succ_lt hn)).2.2.2, out14_B_5 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) (fun h => h1 ((hcond34_1 ⟨n + 1, hn⟩).mp h)) (iblk34 V c 0 ⟨n + 1, hn⟩) (iblk34 V c 1 ⟨n + 1, hn⟩) (iblk34 V c 2 ⟨n + 1, hn⟩) (outsAt34 c n (Nat.lt_of_succ_lt hn)).2.2.2, sout14_B_0 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) (fun h => h1 ((hcond34_1 ⟨n + 1, hn⟩).mp h)) (iblk34 V c 0 ⟨n + 1, hn⟩) (iblk34 V c 1 ⟨n + 1, hn⟩) (iblk34 V c 2 ⟨n + 1, hn⟩) (outsAt34 c n (Nat.lt_of_succ_lt hn)).2.2.2)

/-- `outsAt34` at the first point: case A's contents. -/
theorem outsAt34_A (c : Dev nD) (t : Fin cfg34.N) (h0 : t.val % 25 = 0) (h1 : ¬t.val % 25 = 24) :
    outsAt34 V c t.val t.isLt = (out14_A_3 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) ((hcond34_0 t).mpr h0) (fun h => h1 ((hcond34_1 t).mp h)) (iblk34 V c 0 t) (iblk34 V c 1 t) (iblk34 V c 2 t), out14_A_4 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) ((hcond34_0 t).mpr h0) (fun h => h1 ((hcond34_1 t).mp h)) (iblk34 V c 0 t) (iblk34 V c 1 t) (iblk34 V c 2 t), out14_A_5 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) ((hcond34_0 t).mpr h0) (fun h => h1 ((hcond34_1 t).mp h)) (iblk34 V c 0 t) (iblk34 V c 1 t) (iblk34 V c 2 t), sout14_A_0 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) ((hcond34_0 t).mpr h0) (fun h => h1 ((hcond34_1 t).mp h)) (iblk34 V c 0 t) (iblk34 V c 1 t) (iblk34 V c 2 t)) := by
  obtain ⟨n, hn⟩ := t
  cases n with
  | zero => exact rfl
  | succ n => exact (dif_pos h0).trans ((dif_neg h1).trans rfl)

/-- `outsAt34` at a middle point: case B's contents, over what the point before left in the scratch. -/
theorem outsAt34_B (c : Dev nD) (t : Fin cfg34.N) (h0 : ¬t.val % 25 = 0) (h1 : ¬t.val % 25 = 24) :
    outsAt34 V c t.val t.isLt = (out14_B_3 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) (fun h => h1 ((hcond34_1 t).mp h)) (iblk34 V c 0 t) (iblk34 V c 1 t) (iblk34 V c 2 t) (outsAt34 V c (t.val - 1) (Nat.lt_of_le_of_lt (Nat.sub_le _ _) t.isLt)).2.2.2, out14_B_4 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) (fun h => h1 ((hcond34_1 t).mp h)) (iblk34 V c 0 t) (iblk34 V c 1 t) (iblk34 V c 2 t) (outsAt34 V c (t.val - 1) (Nat.lt_of_le_of_lt (Nat.sub_le _ _) t.isLt)).2.2.2, out14_B_5 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) (fun h => h1 ((hcond34_1 t).mp h)) (iblk34 V c 0 t) (iblk34 V c 1 t) (iblk34 V c 2 t) (outsAt34 V c (t.val - 1) (Nat.lt_of_le_of_lt (Nat.sub_le _ _) t.isLt)).2.2.2, sout14_B_0 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) (fun h => h1 ((hcond34_1 t).mp h)) (iblk34 V c 0 t) (iblk34 V c 1 t) (iblk34 V c 2 t) (outsAt34 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt34` at the last point: case C's contents, over what the point before left in the scratch. -/
theorem outsAt34_C (c : Dev nD) (t : Fin cfg34.N) (h0 : ¬t.val % 25 = 0) (h1 : t.val % 25 = 24) :
    outsAt34 V c t.val t.isLt = (out14_C_3 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) ((hcond34_1 t).mpr h1) (iblk34 V c 0 t) (iblk34 V c 1 t) (iblk34 V c 2 t) (outsAt34 V c (t.val - 1) (Nat.lt_of_le_of_lt (Nat.sub_le _ _) t.isLt)).2.2.2, out14_C_4 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) ((hcond34_1 t).mpr h1) (iblk34 V c 0 t) (iblk34 V c 1 t) (iblk34 V c 2 t) (outsAt34 V c (t.val - 1) (Nat.lt_of_le_of_lt (Nat.sub_le _ _) t.isLt)).2.2.2, out14_C_5 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) ((hcond34_1 t).mpr h1) (iblk34 V c 0 t) (iblk34 V c 1 t) (iblk34 V c 2 t) (outsAt34 V c (t.val - 1) (Nat.lt_of_le_of_lt (Nat.sub_le _ _) t.isLt)).2.2.2, sout14_C_0 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) ((hcond34_1 t).mpr h1) (iblk34 V c 0 t) (iblk34 V c 1 t) (iblk34 V c 2 t) (outsAt34 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt34`'s last component), the other
    scoped buffers unopened and the generator register at some state. -/
noncomputable def PhiS34 (c : Dev nD) : (n : ℕ) → n ≤ cfg34.N → sProp 𝕄
  | 0, _ => Pipeline.ΦA spec34 c
  | n + 1, hn => iprop(iprop(iprop(owns (c : Thread nD τ) scM34_0 fullShare ((outsAt34 V c n hn).2.2.2)) ∗ restBut34 (F := F) c) ∗ (∃ r, prngReg c r))

theorem PhiS34_zero (c : Dev nD) (n : ℕ) (h : n ≤ cfg34.N) (hz : n = 0) : PhiS34 V c n h = Pipeline.ΦA spec34 c := by
  subst hz; rfl

/-- After point `n` (before point `n + 1`): the scratch at that point's contents. -/
theorem PhiS34_succ (c : Dev nD) (n : ℕ) (hn : n < cfg34.N) :
    PhiS34 V c (n + 1) hn = iprop(iprop(iprop(owns (c : Thread nD τ) scM34_0 fullShare ((outsAt34 V c n hn).2.2.2)) ∗ restBut34 (F := F) c) ∗ (∃ r, prngReg c r)) := rfl

/-- Before a point that is not the first: the scratch at what the point before left. -/
theorem PhiS34_pos (c : Dev nD) (n : ℕ) (h : n ≤ cfg34.N) (hz : n ≠ 0) :
    PhiS34 V c n h = iprop(iprop(iprop(owns (c : Thread nD τ) scM34_0 fullShare ((outsAt34 V c (n - 1) (by omega)).2.2.2)) ∗ restBut34 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt34`; the invariant `PhiS34`; nothing owed;
    full shares. -/
noncomputable def dat34 (c : Dev nD) : Dat τ (Elt F) Unit ℕ (UR sig nD τ) ℕ cfg34 c where
  A w := V c (Pipeline.arrRef spec34 w)
  after w t := match w with
    | ⟨0, _⟩ => iblk34 V c 0 t
    | ⟨1, _⟩ => iblk34 V c 1 t
    | ⟨2, _⟩ => iblk34 V c 2 t
    | ⟨3, _⟩ => (outsAt34 V c t.val t.isLt).1
    | ⟨4, _⟩ => (outsAt34 V c t.val t.isLt).2.1
    | ⟨5, _⟩ => (outsAt34 V c t.val t.isLt).2.2.1
  Φ t := PhiS34 V c t.val (Nat.le_of_lt_succ t.isLt)
  q _ := fullShare
  owed _ := 0

/-- The proof data's arrays are the region-entry contents. -/
theorem A_eq34 (c : Dev nD) (w : Fin cfg34.W) : (dat34 V c).A w = V c (Pipeline.arrRef spec34 w) := by
  dsimp only [dat34]

/-- The invariant at a point's start, restated at `t.val`. -/
theorem PhiS34_castSucc (c : Dev nD) (t : Fin cfg34.N) :
    (dat34 V c).Φ t.castSucc = PhiS34 V c t.val (Nat.le_of_lt t.isLt) := by
  dsimp only [dat34]; simp only [Fin.coe_castSucc]

/-- What the body leaves, window by window. -/
theorem after34_0 (c : Dev nD) (t : Fin cfg34.N) : (dat34 V c).after 0 t = iblk34 V c 0 t := by dsimp only [dat34]
theorem after34_1 (c : Dev nD) (t : Fin cfg34.N) : (dat34 V c).after 1 t = iblk34 V c 1 t := by dsimp only [dat34]
theorem after34_2 (c : Dev nD) (t : Fin cfg34.N) : (dat34 V c).after 2 t = iblk34 V c 2 t := by dsimp only [dat34]
theorem after34_3 (c : Dev nD) (t : Fin cfg34.N) : (dat34 V c).after 3 t = (outsAt34 V c t.val t.isLt).1 := by dsimp only [dat34]
theorem after34_4 (c : Dev nD) (t : Fin cfg34.N) : (dat34 V c).after 4 t = (outsAt34 V c t.val t.isLt).2.1 := by dsimp only [dat34]
theorem after34_5 (c : Dev nD) (t : Fin cfg34.N) : (dat34 V c).after 5 t = (outsAt34 V c t.val t.isLt).2.2.1 := by dsimp only [dat34]

/-- Each input's current staging buffer holds its block at every point, fetched there or not. -/
theorem before34_0 (c : Dev nD) (t : Fin cfg34.N) (d) : (dat34 V c).before 0 t d = iblk34 V c 0 t :=
  before34_0_of V (dat34 V c) (A_eq34 V c 0) (after34_0 V c) t d
theorem before34_1 (c : Dev nD) (t : Fin cfg34.N) (d) : (dat34 V c).before 1 t d = iblk34 V c 1 t :=
  before34_1_of V (dat34 V c) (A_eq34 V c 1) (after34_1 V c) t d
theorem before34_2 (c : Dev nD) (t : Fin cfg34.N) (d) : (dat34 V c).before 2 t d = iblk34 V c 2 t :=
  before34_2_of V (dat34 V c) (A_eq34 V c 2) (after34_2 V c) t d

/-! ## The body obligation, at a generic point -/

/-- What the body is called with at point `t` (the windows one by one), -/
noncomputable def bodyPre34 (c : Dev nD) (t : Fin cfg34.N) : sProp 𝕄 :=
  iprop((dat34 V c).Φ t.castSucc ∗ (dat34 V c).owesAt () t.castSucc
    ∗ (∃ d, owns (c : Thread nD τ) (ms34_0 t) fullShare ((dat34 V c).before 0 t d))
    ∗ (∃ d, owns (c : Thread nD τ) (ms34_1 t) fullShare ((dat34 V c).before 1 t d))
    ∗ (∃ d, owns (c : Thread nD τ) (ms34_2 t) fullShare ((dat34 V c).before 2 t d))
    ∗ (∃ d, owns (c : Thread nD τ) (ms34_3 t) fullShare ((dat34 V c).before 3 t d))
    ∗ (∃ d, owns (c : Thread nD τ) (ms34_4 t) fullShare ((dat34 V c).before 4 t d))
    ∗ (∃ d, owns (c : Thread nD τ) (ms34_5 t) fullShare ((dat34 V c).before 5 t d)))

/-- and what it returns. -/
noncomputable def bodyPost34 (c : Dev nD) (t : Fin cfg34.N) : sProp 𝕄 :=
  iprop((dat34 V c).Φ t.succ ∗ (dat34 V c).owesAt () t.succ
    ∗ (dat34 V c).leavesExact 0 t
    ∗ (dat34 V c).leavesExact 1 t
    ∗ (dat34 V c).leavesExact 2 t
    ∗ (dat34 V c).leavesExact 3 t
    ∗ (dat34 V c).leavesExact 4 t
    ∗ (dat34 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body34 (c : Dev nD) (t : Fin cfg34.N) :
    bodyPre34 V c t ⊢ wp frame (wpE (defs₀ (F := F)) Variants.none c none) Set.univ (bodyAt34 t) (fun _ => bodyPost34 V c t) := by
  unfold bodyPre34 bodyPost34 bodyAt34
  rw [cc34_kernel_eq]
  simp only [before34_0, before34_1, before34_2]
  rw [show (dat34 V c).owesAt () t.succ = (dat34 V c).owesAt () t.castSucc from rfl]
  rw [show (dat34 V c).Φ t.succ = PhiS34 V c (t.val + 1) t.isLt from rfl, PhiS34_succ]
  have hN : t.val < 25 := lt_of_lt_of_eq t.isLt (show cfg34.N = 25 from N_34)
  by_cases h0 : t.val % 25 = 0
  · by_cases h1 : t.val % 25 = 24
    · exfalso; omega
    · rw [show (dat34 V c).leavesExact 0 t = owns (c : Thread nD τ) (ms34_0 t) fullShare ((dat34 V c).after 0 t) from by
        unfold Dat.leavesExact; rw [liveAt34_0 t], after34_0]
      rw [show (dat34 V c).leavesExact 1 t = owns (c : Thread nD τ) (ms34_1 t) fullShare ((dat34 V c).after 1 t) from by
        unfold Dat.leavesExact; rw [liveAt34_1 t], after34_1]
      rw [show (dat34 V c).leavesExact 2 t = owns (c : Thread nD τ) (ms34_2 t) fullShare ((dat34 V c).after 2 t) from by
        unfold Dat.leavesExact; rw [liveAt34_2 t], after34_2]
      rw [show (dat34 V c).leavesExact 3 t = owns (c : Thread nD τ) (ms34_3 t) fullShare ((dat34 V c).after 3 t) from by
        unfold Dat.leavesExact; rw [liveAt34_3 t], after34_3]
      rw [show (dat34 V c).leavesExact 4 t = owns (c : Thread nD τ) (ms34_4 t) fullShare ((dat34 V c).after 4 t) from by
        unfold Dat.leavesExact; rw [liveAt34_4 t], after34_4]
      rw [Dat.leavesExact_idle (dat34 V c) 5 t (idleAt34_5_A t ((hcond34_0 t).mpr h0) (fun h => h1 ((hcond34_1 t).mp h))) (noFlush34_5_A t ((hcond34_0 t).mpr h0) (fun h => h1 ((hcond34_1 t).mp h)))]
      rw [outsAt34_A V c t h0 h1]
      unfold out14_A_3 out14_A_4 sout14_A_0; (try dsimp only)
      by_cases hz : t.val = 0
      · rw [PhiS34_castSucc V c t, PhiS34_zero V c _ _ hz, PhiA34_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid34.coords t) _ _ _ _ _ _ _ _ _ _ _ _ _ _ ((hcond34_0 t).mpr h0) (fun h => h1 ((hcond34_1 t).mp h)) (iblk34 V c 0 t) (iblk34 V c 1 t) (iblk34 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat34 V c).leavesExact 0 t = owns (c : Thread nD τ) (ms34_0 t) fullShare ((dat34 V c).after 0 t) from by
        unfold Dat.leavesExact; rw [liveAt34_0 t], after34_0]
      rw [show (dat34 V c).leavesExact 1 t = owns (c : Thread nD τ) (ms34_1 t) fullShare ((dat34 V c).after 1 t) from by
        unfold Dat.leavesExact; rw [liveAt34_1 t], after34_1]
      rw [show (dat34 V c).leavesExact 2 t = owns (c : Thread nD τ) (ms34_2 t) fullShare ((dat34 V c).after 2 t) from by
        unfold Dat.leavesExact; rw [liveAt34_2 t], after34_2]
      rw [show (dat34 V c).leavesExact 3 t = owns (c : Thread nD τ) (ms34_3 t) fullShare ((dat34 V c).after 3 t) from by
        unfold Dat.leavesExact; rw [liveAt34_3 t], after34_3]
      rw [show (dat34 V c).leavesExact 4 t = owns (c : Thread nD τ) (ms34_4 t) fullShare ((dat34 V c).after 4 t) from by
        unfold Dat.leavesExact; rw [liveAt34_4 t], after34_4]
      rw [show (dat34 V c).leavesExact 5 t = owns (c : Thread nD τ) (ms34_5 t) fullShare ((dat34 V c).after 5 t) from by
        unfold Dat.leavesExact; rw [liveAt34_5_C t (fun h => h0 ((hcond34_0 t).mp h)) ((hcond34_1 t).mpr h1)], after34_5]
      rw [outsAt34_C V c t h0 h1]
      unfold out14_C_3 out14_C_4 out14_C_5 sout14_C_0; (try dsimp only)
      by_cases hz : t.val = 0
      · exfalso; omega
      · rw [PhiS34_castSucc V c t, PhiS34_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid34.coords t) _ _ _ _ _ _ _ _ _ _ _ _ _ _ (fun h => h0 ((hcond34_0 t).mp h)) ((hcond34_1 t).mpr h1) (iblk34 V c 0 t) (iblk34 V c 1 t) (iblk34 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat34 V c).leavesExact 0 t = owns (c : Thread nD τ) (ms34_0 t) fullShare ((dat34 V c).after 0 t) from by
        unfold Dat.leavesExact; rw [liveAt34_0 t], after34_0]
      rw [show (dat34 V c).leavesExact 1 t = owns (c : Thread nD τ) (ms34_1 t) fullShare ((dat34 V c).after 1 t) from by
        unfold Dat.leavesExact; rw [liveAt34_1 t], after34_1]
      rw [show (dat34 V c).leavesExact 2 t = owns (c : Thread nD τ) (ms34_2 t) fullShare ((dat34 V c).after 2 t) from by
        unfold Dat.leavesExact; rw [liveAt34_2 t], after34_2]
      rw [show (dat34 V c).leavesExact 3 t = owns (c : Thread nD τ) (ms34_3 t) fullShare ((dat34 V c).after 3 t) from by
        unfold Dat.leavesExact; rw [liveAt34_3 t], after34_3]
      rw [show (dat34 V c).leavesExact 4 t = owns (c : Thread nD τ) (ms34_4 t) fullShare ((dat34 V c).after 4 t) from by
        unfold Dat.leavesExact; rw [liveAt34_4 t], after34_4]
      rw [Dat.leavesExact_idle (dat34 V c) 5 t (idleAt34_5_B t (fun h => h0 ((hcond34_0 t).mp h)) (fun h => h1 ((hcond34_1 t).mp h))) (noFlush34_5_B t (fun h => h0 ((hcond34_0 t).mp h)) (fun h => h1 ((hcond34_1 t).mp h)))]
      rw [outsAt34_B V c t h0 h1]
      unfold out14_B_3 out14_B_4 sout14_B_0; (try dsimp only)
      by_cases hz : t.val = 0
      · exfalso; omega
      · rw [PhiS34_castSucc V c t, PhiS34_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid34.coords t) _ _ _ _ _ _ _ _ _ _ _ _ _ _ (fun h => h0 ((hcond34_0 t).mp h)) (fun h => h1 ((hcond34_1 t).mp h)) (iblk34 V c 0 t) (iblk34 V c 1 t) (iblk34 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation34 (c : Dev nD) : BodyObligation (dat34 (F := F) V c) (defs₀ (F := F)) Variants.none () Set.univ := fun t => by
  rw [bigSep_W34, bigSep_W34]
  exact sound_body34 V c t

/-- What the launch hands the region is the invariant before the first point. -/
theorem hin34 (c : Dev nD) : Pipeline.ΦA spec34 c ⊢ (dat34 V c).Φ 0 := by
  rw [show (dat34 V c).Φ 0 = PhiS34 V c 0 (Nat.zero_le _) from rfl, PhiS34_zero V c 0 _ rfl]
  try exact Idealize.SL.BI.Entails.refl _

/-- After any point but the first the invariant gives it back: the scratch's named contents are forgotten. -/
theorem Phi_out34 (c : Dev nD) (t : Fin (cfg34.N + 1)) (ht : t.val ≠ 0) : (dat34 V c).Φ t ⊢ Pipeline.ΦA spec34 c := by
  rw [show (dat34 V c).Φ t = PhiS34 V c t.val (Nat.le_of_lt_succ t.isLt) from rfl, PhiS34_pos V c _ _ ht, PhiA34_eq]
  iintro ⟨⟨HS0, HR⟩, Hg⟩
  isplitl [HS0 HR]
  · isplitl [HS0]
    · iexists _; iexact HS0
    iexact HR
  iexact Hg

/-- The same after the last point. -/
theorem hout34 (c : Dev nD) : (dat34 V c).Φ (Fin.last cfg34.N) ⊢ Pipeline.ΦA spec34 c :=
  Phi_out34 V c _ (by rw [Fin.val_last]; have : cfg34.N = 25 := N_34; omega)

end Cert.Kernel.Hand

end
-- ==== Proof.KB.R35.lean ====
import proofs.«408084_j48395691492010_3_alg».proof.Proof.KB.R3

/-! Region 35: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk35 (c : Dev nD) (w : Fin cfg35.W) (t : Fin cfg35.N) : ((cfg35.win w).xblock (cfg35.grid.coords t)).Idx → Elt F (cfg35.win w).elt :=
  ((cfg35.win w).blk t).view.read (Elt F) (V c (Pipeline.arrRef spec35 w))

/-- The row-tile window (window 0, fetched at every point) holds its block when the body runs. -/
theorem before35_0_of {c : Dev nD} (dat : Dat τ (Elt F) Unit ℕ (UR sig nD τ) ℕ cfg35 c) (hA : dat.A 0 = V c (Pipeline.arrRef spec35 0))
    (hafter : ∀ t, dat.after 0 t = iblk35 V c 0 t) (t : Fin cfg35.N) (d) : dat.before 0 t d = iblk35 V c 0 t :=
  (dat.before_in_eq_fetched 0 rfl (fun _ => rfl) (fun _ _ _ => rfl) (fun t => by rw [hafter]; unfold Dat.blockOf iblk35; rw [hA]; try rfl) t d).trans
    (by unfold Dat.fetched Dat.blockOf iblk35; rw [hA]; try rfl)

/-- The mean window (window 1, one constant block fetched at the first point only) holds that block at every point. -/
theorem before35_1_of {c : Dev nD} (dat : Dat τ (Elt F) Unit ℕ (UR sig nD τ) ℕ cfg35 c) (hA : dat.A 1 = V c (Pipeline.arrRef spec35 1))
    (hafter : ∀ t, dat.after 1 t = iblk35 V c 1 t) (t : Fin cfg35.N) (d) : dat.before 1 t d = iblk35 V c 1 t :=
  (dat.before_in_eq_fetched 1 rfl (fun _ => rfl) (fun _ _ _ => rfl) (fun t => by rw [hafter]; unfold Dat.blockOf iblk35; rw [hA]; try rfl) t d).trans
    (by unfold Dat.fetched Dat.blockOf iblk35; rw [hA]; try rfl)

/-! ## The branch conditions and the idle points, over this region's grid (the same grid) -/

/-- The reset's condition holds at the first point only, -/
theorem hcond35_0 : ∀ t : Fin cfg35.N, cond3_0 (grid35.coords t) ↔ t.val = 0 := hcond3_0
/-- the final store's at the last point only. -/
theorem hcond35_1 : ∀ t : Fin cfg35.N, cond3_1 (grid35.coords t) ↔ t.val = 24 := hcond3_1

theorem liveAt35_0 : ∀ t : Fin cfg35.N, cfg35.idle 0 (grid35.coords t) = false := fun _ => rfl
theorem liveAt35_1 : ∀ t : Fin cfg35.N, cfg35.idle 1 (grid35.coords t) = false := fun _ => rfl
/-- Away from the last point the result window is idle, -/
theorem idleAt35_2 : ∀ t : Fin cfg35.N, ¬cond3_1 (grid35.coords t) → cfg35.idle 2 (grid35.coords t) = true := idleAt3_2
/-- and live at it. -/
theorem liveAt35_2 : ∀ t : Fin cfg35.N, cond3_1 (grid35.coords t) → cfg35.idle 2 (grid35.coords t) = false := liveAt3_2
/-- Away from the last point its block is not written back (the schedule's closed form). -/
theorem noFlush35_2 (t : Fin cfg35.N) (h : ¬cond3_1 (grid35.coords t)) : (cfg35.win 2).flush t = false := by
  have hN : t.val < 25 := lt_of_lt_of_eq t.isLt (show cfg35.N = 25 from N_35)
  have h24 : ¬t.val = 24 := fun e => h ((hcond35_1 t).mpr e)
  cases hf : (cfg35.win 2).flush t with
  | false => rfl
  | true => exact absurd (by have := (flush35_2 t).mp hf; omega) h24

/-! ## The memrefs the body is called with -/

noncomputable abbrev ms35_0 (t : Fin cfg35.N) : Memref sig .tc .vmem S2000x64 .f32 := win35_0.stage (cfg35.slots t 0)
abbrev hs35_0 (t : Fin cfg35.N) : (ms35_0 t).IsWhole := hstage35_0 ((cfg35.slots t 0).cast nbuf35_0)
noncomputable abbrev ms35_1 (t : Fin cfg35.N) : Memref sig .tc .vmem S1x64 .f32 := win35_1.stage (cfg35.slots t 1)
abbrev hs35_1 (t : Fin cfg35.N) : (ms35_1 t).IsWhole := hstage35_1 ((cfg35.slots t 1).cast nbuf35_1)
noncomputable abbrev ms35_2 (t : Fin cfg35.N) : Memref sig .tc .vmem S1x64 .f32 := win35_2.stage (cfg35.slots t 2)
abbrev hs35_2 (t : Fin cfg35.N) : (ms35_2 t).IsWhole := hstage35_2 ((cfg35.slots t 2).cast nbuf35_2)
/-- The accumulator: this call's own scratch buffer, whole. -/
noncomputable abbrev scM35_0 : Memref sig .tc .vmem S1x64 .f32 := Memref.whole cc35_scratch0

/-- The body the pipeline calls at point `t` is region 3's printed kernel on this region's memrefs: the two printed
    functions are the same term. -/
theorem bodyAt35_eq (t : Fin cfg35.N) :
    (bodyAt35 t : Prog (TpuEff nD τ sig (Elt F) Λ₀ .tc) PUnit)
      = cc3__var_kernel (grid35.coords t) (ms35_0 t) (hs35_0 t) (ms35_1 t) (hs35_1 t) (ms35_2 t) (hs35_2 t) scM35_0 (Memref.isWhole_whole _) := rfl

/-- The region-entry invariant with the accumulator split out of the scoped rest, as a memref owned at some contents. -/
theorem PhiA35_eq (c : Dev nD) :
    (Pipeline.ΦA spec35 c : sProp 𝕄)
      = iprop(iprop(iprop(∃ d, owns (c : Thread nD τ) scM35_0 fullShare d)
          ∗ Pipeline.scopedRestBut (Ix := Unit) (Name := ℕ) (U := UR sig nD τ) (Lvl := ℕ) (Val := Elt F) spec35 c [cc35_scratch0]) ∗ (∃ r, prngReg c r)) := by
  unfold Pipeline.ΦA; rw [scopedRest35_split]; simp only [scM35_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt35 (c : Dev nD) : (n : ℕ) → n < cfg35.N → Vec F S1x64 .f32 × Vec F S1x64 .f32
  | 0, hn => (idle3_2,
      sout3_A_0 c (grid35.coords ⟨0, hn⟩) (ms35_0 ⟨0, hn⟩) (hs35_0 ⟨0, hn⟩) (ms35_1 ⟨0, hn⟩) (hs35_1 ⟨0, hn⟩) (ms35_2 ⟨0, hn⟩) (hs35_2 ⟨0, hn⟩) scM35_0 (Memref.isWhole_whole _) ((hcond35_0 ⟨0, hn⟩).mpr rfl)
        (fun h => (fun h' : (0 : ℕ) = 24 => by omega) ((hcond35_1 ⟨0, hn⟩).mp h)) (iblk35 V c 0 ⟨0, hn⟩) (iblk35 V c 1 ⟨0, hn⟩))
  | n + 1, hn =>
    if h1 : n + 1 = 24 then
      (out3_C_2 c (grid35.coords ⟨n + 1, hn⟩) (ms35_0 ⟨n + 1, hn⟩) (hs35_0 ⟨n + 1, hn⟩) (ms35_1 ⟨n + 1, hn⟩) (hs35_1 ⟨n + 1, hn⟩) (ms35_2 ⟨n + 1, hn⟩) (hs35_2 ⟨n + 1, hn⟩) scM35_0 (Memref.isWhole_whole _) (fun h => (fun h' : n + 1 = 0 => by omega) ((hcond35_0 ⟨n + 1, hn⟩).mp h))
          ((hcond35_1 ⟨n + 1, hn⟩).mpr h1) (iblk35 V c 0 ⟨n + 1, hn⟩) (iblk35 V c 1 ⟨n + 1, hn⟩) (outsAt35 c n (Nat.lt_of_succ_lt hn)).2,
       sout3_C_0 c (grid35.coords ⟨n + 1, hn⟩) (ms35_0 ⟨n + 1, hn⟩) (hs35_0 ⟨n + 1, hn⟩) (ms35_1 ⟨n + 1, hn⟩) (hs35_1 ⟨n + 1, hn⟩) (ms35_2 ⟨n + 1, hn⟩) (hs35_2 ⟨n + 1, hn⟩) scM35_0 (Memref.isWhole_whole _) (fun h => (fun h' : n + 1 = 0 => by omega) ((hcond35_0 ⟨n + 1, hn⟩).mp h))
          ((hcond35_1 ⟨n + 1, hn⟩).mpr h1) (iblk35 V c 0 ⟨n + 1, hn⟩) (iblk35 V c 1 ⟨n + 1, hn⟩) (outsAt35 c n (Nat.lt_of_succ_lt hn)).2)
    else
      (idle3_2,
       sout3_B_0 c (grid35.coords ⟨n + 1, hn⟩) (ms35_0 ⟨n + 1, hn⟩) (hs35_0 ⟨n + 1, hn⟩) (ms35_1 ⟨n + 1, hn⟩) (hs35_1 ⟨n + 1, hn⟩) (ms35_2 ⟨n + 1, hn⟩) (hs35_2 ⟨n + 1, hn⟩) scM35_0 (Memref.isWhole_whole _) (fun h => (fun h' : n + 1 = 0 => by omega) ((hcond35_0 ⟨n + 1, hn⟩).mp h))
          (fun h => h1 ((hcond35_1 ⟨n + 1, hn⟩).mp h)) (iblk35 V c 0 ⟨n + 1, hn⟩) (iblk35 V c 1 ⟨n + 1, hn⟩) (outsAt35 c n (Nat.lt_of_succ_lt hn)).2)

theorem outsAt35_A (c : Dev nD) (t : Fin cfg35.N) (h0 : t.val = 0) (h1 : ¬t.val = 24) :
    outsAt35 V c t.val t.isLt = (idle3_2,
      sout3_A_0 c (grid35.coords t) (ms35_0 t) (hs35_0 t) (ms35_1 t) (hs35_1 t) (ms35_2 t) (hs35_2 t) scM35_0 (Memref.isWhole_whole _) ((hcond35_0 t).mpr h0) (fun h => h1 ((hcond35_1 t).mp h)) (iblk35 V c 0 t) (iblk35 V c 1 t)) := by
  obtain ⟨n, hn⟩ := t
  cases n with
  | zero => exact rfl
  | succ n => exact absurd h0 (Nat.succ_ne_zero n)

theorem outsAt35_B (c : Dev nD) (t : Fin cfg35.N) (h0 : ¬t.val = 0) (h1 : ¬t.val = 24) :
    outsAt35 V c t.val t.isLt = (idle3_2,
      sout3_B_0 c (grid35.coords t) (ms35_0 t) (hs35_0 t) (ms35_1 t) (hs35_1 t) (ms35_2 t) (hs35_2 t) scM35_0 (Memref.isWhole_whole _) (fun h => h0 ((hcond35_0 t).mp h)) (fun h => h1 ((hcond35_1 t).mp h)) (iblk35 V c 0 t) (iblk35 V c 1 t)
        (outsAt35 V c (t.val - 1) (Nat.lt_of_le_of_lt (Nat.sub_le _ _) t.isLt)).2) := by
  obtain ⟨n, hn⟩ := t
  cases n with
  | zero => exact absurd rfl h0
  | succ n => exact (dif_neg h1).trans rfl

theorem outsAt35_C (c : Dev nD) (t : Fin cfg35.N) (h0 : ¬t.val = 0) (h1 : t.val = 24) :
    outsAt35 V c t.val t.isLt =
      (out3_C_2 c (grid35.coords t) (ms35_0 t) (hs35_0 t) (ms35_1 t) (hs35_1 t) (ms35_2 t) (hs35_2 t) scM35_0 (Memref.isWhole_whole _) (fun h => h0 ((hcond35_0 t).mp h)) ((hcond35_1 t).mpr h1) (iblk35 V c 0 t) (iblk35 V c 1 t)
        (outsAt35 V c (t.val - 1) (Nat.lt_of_le_of_lt (Nat.sub_le _ _) t.isLt)).2,
       sout3_C_0 c (grid35.coords t) (ms35_0 t) (hs35_0 t) (ms35_1 t) (hs35_1 t) (ms35_2 t) (hs35_2 t) scM35_0 (Memref.isWhole_whole _) (fun h => h0 ((hcond35_0 t).mp h)) ((hcond35_1 t).mpr h1) (iblk35 V c 0 t) (iblk35 V c 1 t)
        (outsAt35 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS35 (c : Dev nD) : (n : ℕ) → n ≤ cfg35.N → sProp 𝕄
  | 0, _ => Pipeline.ΦA spec35 c
  | n + 1, hn => iprop(iprop(owns (c : Thread nD τ) scM35_0 fullShare ((outsAt35 V c n hn).2)
      ∗ Pipeline.scopedRestBut (Ix := Unit) (Name := ℕ) (U := UR sig nD τ) (Lvl := ℕ) (Val := Elt F) spec35 c [cc35_scratch0]) ∗ (∃ r, prngReg c r))

theorem PhiS35_zero (c : Dev nD) (n : ℕ) (h : n ≤ cfg35.N) (hz : n = 0) : PhiS35 V c n h = Pipeline.ΦA spec35 c := by
  subst hz; rfl

theorem PhiS35_succ (c : Dev nD) (n : ℕ) (hn : n < cfg35.N) :
    PhiS35 V c (n + 1) hn = iprop(iprop(owns (c : Thread nD τ) scM35_0 fullShare ((outsAt35 V c n hn).2)
      ∗ Pipeline.scopedRestBut (Ix := Unit) (Name := ℕ) (U := UR sig nD τ) (Lvl := ℕ) (Val := Elt F) spec35 c [cc35_scratch0]) ∗ (∃ r, prngReg c r)) := rfl

theorem PhiS35_pos (c : Dev nD) (n : ℕ) (h : n ≤ cfg35.N) (hz : n ≠ 0) :
    PhiS35 V c n h = iprop(iprop(owns (c : Thread nD τ) scM35_0 fullShare ((outsAt35 V c (n - 1) (by omega)).2)
      ∗ Pipeline.scopedRestBut (Ix := Unit) (Name := ℕ) (U := UR sig nD τ) (Lvl := ℕ) (Val := Elt F) spec35 c [cc35_scratch0]) ∗ (∃ r, prngReg c r)) := by
  cases n with
  | zero => exact absurd rfl hz
  | succ n => rfl

/-! ## The proof data -/

noncomputable def dat35 (c : Dev nD) : Dat τ (Elt F) Unit ℕ (UR sig nD τ) ℕ cfg35 c where
  A w := V c (Pipeline.arrRef spec35 w)
  after w t := match w with
    | ⟨0, _⟩ => iblk35 V c 0 t
    | ⟨1, _⟩ => iblk35 V c 1 t
    | ⟨2, _⟩ => (outsAt35 V c t.val t.isLt).1
  Φ t := PhiS35 V c t.val (Nat.le_of_lt_succ t.isLt)
  q _ := fullShare
  owed _ := 0

theorem A_eq35 (c : Dev nD) (w : Fin cfg35.W) : (dat35 V c).A w = V c (Pipeline.arrRef spec35 w) := by
  dsimp only [dat35]

theorem PhiS35_castSucc (c : Dev nD) (t : Fin cfg35.N) :
    (dat35 V c).Φ t.castSucc = PhiS35 V c t.val (Nat.le_of_lt t.isLt) := by
  dsimp only [dat35]; simp only [Fin.coe_castSucc]

theorem after35_0 (c : Dev nD) (t : Fin cfg35.N) : (dat35 V c).after 0 t = iblk35 V c 0 t := by dsimp only [dat35]
theorem after35_1 (c : Dev nD) (t : Fin cfg35.N) : (dat35 V c).after 1 t = iblk35 V c 1 t := by dsimp only [dat35]
theorem after35_2 (c : Dev nD) (t : Fin cfg35.N) : (dat35 V c).after 2 t = (outsAt35 V c t.val t.isLt).1 := by dsimp only [dat35]

theorem before35_0 (c : Dev nD) (t : Fin cfg35.N) (d) : (dat35 V c).before 0 t d = iblk35 V c 0 t :=
  before35_0_of V (dat35 V c) (A_eq35 V c 0) (after35_0 V c) t d
theorem before35_1 (c : Dev nD) (t : Fin cfg35.N) (d) : (dat35 V c).before 1 t d = iblk35 V c 1 t :=
  before35_1_of V (dat35 V c) (A_eq35 V c 1) (after35_1 V c) t d

/-! ## The body obligation -/

noncomputable def bodyPre35 (c : Dev nD) (t : Fin cfg35.N) : sProp 𝕄 :=
  iprop((dat35 V c).Φ t.castSucc ∗ (dat35 V c).owesAt () t.castSucc
    ∗ (∃ d, owns (c : Thread nD τ) (ms35_0 t) fullShare ((dat35 V c).before 0 t d))
    ∗ (∃ d, owns (c : Thread nD τ) (ms35_1 t) fullShare ((dat35 V c).before 1 t d))
    ∗ (∃ d, owns (c : Thread nD τ) (ms35_2 t) fullShare ((dat35 V c).before 2 t d)))

noncomputable def bodyPost35 (c : Dev nD) (t : Fin cfg35.N) : sProp 𝕄 :=
  iprop((dat35 V c).Φ t.succ ∗ (dat35 V c).owesAt () t.succ
    ∗ (dat35 V c).leavesExact 0 t
    ∗ (dat35 V c).leavesExact 1 t
    ∗ (dat35 V c).leavesExact 2 t)

set_option maxHeartbeats 4800000 in
/-- The body at any point, from region 3's triples on this region's memrefs. -/
theorem sound_body35 (c : Dev nD) (t : Fin cfg35.N) :
    bodyPre35 V c t ⊢ wp frame (wpE (defs₀ (F := F)) Variants.none c none) Set.univ (bodyAt35 t) (fun _ => bodyPost35 V c t) := by
  rw [bodyAt35_eq (F := F) t]
  unfold bodyPre35 bodyPost35
  simp only [before35_0, before35_1]
  rw [show (dat35 V c).owesAt () t.succ = (dat35 V c).owesAt () t.castSucc from rfl]
  rw [show (dat35 V c).Φ t.succ = PhiS35 V c (t.val + 1) t.isLt from rfl, PhiS35_succ]
  have hN : t.val < 25 := lt_of_lt_of_eq t.isLt (show cfg35.N = 25 from N_35)
  rw [show (dat35 V c).leavesExact 0 t = owns (c : Thread nD τ) (ms35_0 t) fullShare ((dat35 V c).after 0 t) from by
    unfold Dat.leavesExact; rw [liveAt35_0 t], after35_0]
  rw [show (dat35 V c).leavesExact 1 t = owns (c : Thread nD τ) (ms35_1 t) fullShare ((dat35 V c).after 1 t) from by
    unfold Dat.leavesExact; rw [liveAt35_1 t], after35_1]
  by_cases h0 : t.val = 0
  · have h1 : ¬t.val = 24 := by omega
    rw [Dat.leavesExact_idle (dat35 V c) 2 t (idleAt35_2 t (fun h => h1 ((hcond35_1 t).mp h))) (noFlush35_2 t (fun h => h1 ((hcond35_1 t).mp h)))]
    rw [outsAt35_A V c t h0 h1]
    unfold sout3_A_0; (try dsimp only)
    rw [PhiS35_castSucc V c t, PhiS35_zero V c _ _ h0, PhiA35_eq]
    iintro ⟨⟨⟨HS0, Hr⟩, Hg⟩, Ho, ⟨%d0, H0⟩, ⟨%d1, H1⟩, ⟨%d2, H2⟩⟩
    iapply ((kernelRun3_A c (grid35.coords t) _ _ _ _ _ _ _ _ ((hcond35_0 t).mpr h0) (fun h => h1 ((hcond35_1 t).mp h)) (iblk35 V c 0 t) (iblk35 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat35 V c).leavesExact 2 t = owns (c : Thread nD τ) (ms35_2 t) fullShare ((dat35 V c).after 2 t) from by
        unfold Dat.leavesExact; rw [liveAt35_2 t ((hcond35_1 t).mpr h1)], after35_2]
      rw [outsAt35_C V c t h0 h1]
      unfold out3_C_2 sout3_C_0; (try dsimp only)
      rw [PhiS35_castSucc V c t, PhiS35_pos V c _ _ h0]
      iintro ⟨⟨⟨HS0, Hr⟩, Hg⟩, Ho, ⟨%d0, H0⟩, ⟨%d1, H1⟩, ⟨%d2, H2⟩⟩
      iapply ((kernelRun3_C c (grid35.coords t) _ _ _ _ _ _ _ _ (fun h => h0 ((hcond35_0 t).mp h)) ((hcond35_1 t).mpr h1) (iblk35 V c 0 t) (iblk35 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat35 V c) 2 t (idleAt35_2 t (fun h => h1 ((hcond35_1 t).mp h))) (noFlush35_2 t (fun h => h1 ((hcond35_1 t).mp h)))]
      rw [outsAt35_B V c t h0 h1]
      unfold sout3_B_0; (try dsimp only)
      rw [PhiS35_castSucc V c t, PhiS35_pos V c _ _ h0]
      iintro ⟨⟨⟨HS0, Hr⟩, Hg⟩, Ho, ⟨%d0, H0⟩, ⟨%d1, H1⟩, ⟨%d2, H2⟩⟩
      iapply ((kernelRun3_B c (grid35.coords t) _ _ _ _ _ _ _ _ (fun h => h0 ((hcond35_0 t).mp h)) (fun h => h1 ((hcond35_1 t).mp h)) (iblk35 V c 0 t) (iblk35 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation35 (c : Dev nD) : BodyObligation (dat35 (F := F) V c) (defs₀ (F := F)) Variants.none () Set.univ := fun t => by
  rw [bigSep_W35, bigSep_W35]
  exact sound_body35 V c t

/-- What the launch hands the region is the invariant before the first point. -/
theorem hin35 (c : Dev nD) : Pipeline.ΦA spec35 c ⊢ (dat35 V c).Φ 0 := by
  rw [show (dat35 V c).Φ 0 = PhiS35 V c 0 (Nat.zero_le _) from rfl, PhiS35_zero V c 0 _ rfl]
  try exact Idealize.SL.BI.Entails.refl _

/-- After any point but the first the invariant gives the launch's back: the accumulator's named contents are forgotten. -/
theorem Phi_out35 (c : Dev nD) (t : Fin (cfg35.N + 1)) (ht : t.val ≠ 0) : (dat35 V c).Φ t ⊢ Pipeline.ΦA spec35 c := by
  rw [show (dat35 V c).Φ t = PhiS35 V c t.val (Nat.le_of_lt_succ t.isLt) from rfl, PhiS35_pos V c _ _ ht, PhiA35_eq]
  iintro ⟨⟨HS0, Hr⟩, Hg⟩
  isplitl [HS0 Hr]
  · isplitl [HS0]
    · iexists _; iexact HS0
    iexact Hr
  iexact Hg

/-- The same after the last point. -/
theorem hout35 (c : Dev nD) : (dat35 V c).Φ (Fin.last cfg35.N) ⊢ Pipeline.ΦA spec35 c :=
  Phi_out35 V c _ (by rw [Fin.val_last]; have : cfg35.N = 25 := N_35; omega)

end Cert.Kernel.Hand

end
-- ==== Proof.KB.R36.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Ring
import Idealize.ShloMosaic.Lib.Tactic

/-!
# Region 36: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region36
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk36 (c : Dev nD) (w : Fin cfg36.W) (t : Fin cfg36.N) : ((cfg36.win w).xblock (cfg36.grid.coords t)).Idx → Elt F (cfg36.win w).elt :=
  ((cfg36.win w).blk t).view.read (Elt F) (V c (Pipeline.arrRef spec36 w))

/-- The activations' staging buffer holds the block of the current point at every point: the window is fetched at
    every point, is never cut and never idle, and the body leaves the block where it found it. -/
theorem before36_0_of {c : Dev nD} (dat : Dat τ (Elt F) Unit ℕ (UR sig nD τ) ℕ cfg36 c) (hA : dat.A 0 = V c (Pipeline.arrRef spec36 0))
    (hafter : ∀ t, dat.after 0 t = iblk36 V c 0 t) (t : Fin cfg36.N) (d) : dat.before 0 t d = iblk36 V c 0 t :=
  (dat.before_in_eq_fetched 0 rfl (fun _ => rfl) (fun _ _ _ => rfl) (fun t => by rw [hafter]; unfold Dat.blockOf iblk36; rw [hA]; try rfl) t d).trans
    (by unfold Dat.fetched Dat.blockOf iblk36; rw [hA]; try rfl)

/-- The mean row's staging buffer holds its (one) block at every point: it is fetched at the first point only, its
    block index never moves afterwards, and the body leaves it in place. -/
theorem before36_1_of {c : Dev nD} (dat : Dat τ (Elt F) Unit ℕ (UR sig nD τ) ℕ cfg36 c) (hA : dat.A 1 = V c (Pipeline.arrRef spec36 1))
    (hafter : ∀ t, dat.after 1 t = iblk36 V c 1 t) (t : Fin cfg36.N) (d) : dat.before 1 t d = iblk36 V c 1 t :=
  (dat.before_in_eq_fetched 1 rfl (fun _ => rfl) (fun _ _ _ => rfl) (fun t => by rw [hafter]; unfold Dat.blockOf iblk36; rw [hA]; try rfl) t d).trans
    (by unfold Dat.fetched Dat.blockOf iblk36; rw [hA]; try rfl)

/-- The same of the variance row. -/
theorem before36_2_of {c : Dev nD} (dat : Dat τ (Elt F) Unit ℕ (UR sig nD τ) ℕ cfg36 c) (hA : dat.A 2 = V c (Pipeline.arrRef spec36 2))
    (hafter : ∀ t, dat.after 2 t = iblk36 V c 2 t) (t : Fin cfg36.N) (d) : dat.before 2 t d = iblk36 V c 2 t :=
  (dat.before_in_eq_fetched 2 rfl (fun _ => rfl) (fun _ _ _ => rfl) (fun t => by rw [hafter]; unfold Dat.blockOf iblk36; rw [hA]; try rfl) t d).trans
    (by unfold Dat.fetched Dat.blockOf iblk36; rw [hA]; try rfl)

/-- The same of the scale row. -/
theorem before36_3_of {c : Dev nD} (dat : Dat τ (Elt F) Unit ℕ (UR sig nD τ) ℕ cfg36 c) (hA : dat.A 3 = V c (Pipeline.arrRef spec36 3))
    (hafter : ∀ t, dat.after 3 t = iblk36 V c 3 t) (t : Fin cfg36.N) (d) : dat.before 3 t d = iblk36 V c 3 t :=
  (dat.before_in_eq_fetched 3 rfl (fun _ => rfl) (fun _ _ _ => rfl) (fun t => by rw [hafter]; unfold Dat.blockOf iblk36; rw [hA]; try rfl) t d).trans
    (by unfold Dat.fetched Dat.blockOf iblk36; rw [hA]; try rfl)

/-- The same of the shift row. -/
theorem before36_4_of {c : Dev nD} (dat : Dat τ (Elt F) Unit ℕ (UR sig nD τ) ℕ cfg36 c) (hA : dat.A 4 = V c (Pipeline.arrRef spec36 4))
    (hafter : ∀ t, dat.after 4 t = iblk36 V c 4 t) (t : Fin cfg36.N) (d) : dat.before 4 t d = iblk36 V c 4 t :=
  (dat.before_in_eq_fetched 4 rfl (fun _ => rfl) (fun _ _ _ => rfl) (fun t => by rw [hafter]; unfold Dat.blockOf iblk36; rw [hA]; try rfl) t d).trans
    (by unfold Dat.fetched Dat.blockOf iblk36; rw [hA]; try rfl)

/-! ## The body's accesses: each buffer is read, and the output written, whole -/

/-- The whole of a block of 2000 rows. -/
noncomputable abbrev r36_0 : Rect S2000x64 := Rect.unit (s := S2000x64) ![0, 0] S2000x64.size inb_S2000x64_S2000x64_0_0
/-- The whole of a single row. -/
noncomputable abbrev r36_1 : Rect S1x64 := Rect.unit (s := S1x64) ![0, 0] S1x64.size inb_S1x64_S1x64_0_0

/-! ## What the body leaves in the output buffer -/

/-- The output buffer after the body, from the five input blocks: its one store, whose payload is the skeleton's. -/
noncomputable def out36_5 (x0 : Vec F S2000x64 .f32) (x1 : Vec F S1x64 .f32) (x2 : Vec F S1x64 .f32) (x3 : Vec F S1x64 .f32) (x4 : Vec F S1x64 .f32) :
    Vec F S2000x64 .f32 :=
  View.canon [⟨r36_0, k36_pay1 (View.ld x0 r36_0) (View.ld x1 r36_1) (View.ld x2 r36_1) (View.ld x3 r36_1) (View.ld x4 r36_1)⟩]

/-- The one store covers the buffer. -/
theorem cover36_5 (p0 : Vec F S2000x64 .f32) (y : S2000x64.Idx) :
    ∃ pc ∈ ([⟨r36_0, p0⟩] : List (View.Piece (Elt F) S2000x64 .f32)), y ∈ pc.1.set :=
  View.cover_of_tiled [⟨r36_0, p0⟩] S2000x64.size (by rfl) y

/-! ## The body's triple -/

set_option maxHeartbeats 1000000 in
/-- The body on whole staging buffers, the five inputs' at read contents x0 … x4 and the output's at anything, runs
    to a state in which the inputs' are as they were and the output's holds out36_5 of them. (The body also loads the
    output buffer before it stores to it; the loaded value is not used.) -/
theorem sound_kernel36 (c : Dev nD) (E : Set ℕ) (i : grid36.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out36_5 x0 x1 x2 x3 x4)) -∗ K ⟨⟩))
      ⊢ wp frame (wpE (defs₀ (F := F)) Variants.none c none) E (cc36__bn_softmax_kernel i arg1 harg1 arg2 harg2 arg3 harg3 arg4 harg4 arg5 harg5 arg6 harg6) K := by
  simp only [cc36__bn_softmax_kernel_eq_skeleton]; unfold cc36__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover36_5 _)

/-! ## The pipeline's proof data -/

/-- The proof data of the region's pipeline on core c: the arrays as the region finds them; after the body at point t
    each input's buffer at its block and the output's at out36_5 of the input blocks; the invariant that of a body which
    touches nothing but its windows; nothing owed; full shares. -/
noncomputable def dat36 (c : Dev nD) : Dat τ (Elt F) Unit ℕ (UR sig nD τ) ℕ cfg36 c where
  A w := V c (Pipeline.arrRef spec36 w)
  after w t := match w with
    | ⟨0, _⟩ => iblk36 V c 0 t
    | ⟨1, _⟩ => iblk36 V c 1 t
    | ⟨2, _⟩ => iblk36 V c 2 t
    | ⟨3, _⟩ => iblk36 V c 3 t
    | ⟨4, _⟩ => iblk36 V c 4 t
    | ⟨5, _⟩ => out36_5 (iblk36 V c 0 t) (iblk36 V c 1 t) (iblk36 V c 2 t) (iblk36 V c 3 t) (iblk36 V c 4 t)
  Φ _ := Pipeline.ΦA spec36 c
  q _ := fullShare
  owed _ := 0

/-- The proof data's arrays are the region-entry contents. -/
theorem A_eq36 (c : Dev nD) (w : Fin cfg36.W) : (dat36 V c).A w = V c (Pipeline.arrRef spec36 w) := by
  dsimp only [dat36]

/-- What the body leaves, window by window. -/
theorem after36_0 (c : Dev nD) (t : Fin cfg36.N) : (dat36 V c).after 0 t = iblk36 V c 0 t := by dsimp only [dat36]
theorem after36_1 (c : Dev nD) (t : Fin cfg36.N) : (dat36 V c).after 1 t = iblk36 V c 1 t := by dsimp only [dat36]
theorem after36_2 (c : Dev nD) (t : Fin cfg36.N) : (dat36 V c).after 2 t = iblk36 V c 2 t := by dsimp only [dat36]
theorem after36_3 (c : Dev nD) (t : Fin cfg36.N) : (dat36 V c).after 3 t = iblk36 V c 3 t := by dsimp only [dat36]
theorem after36_4 (c : Dev nD) (t : Fin cfg36.N) : (dat36 V c).after 4 t = iblk36 V c 4 t := by dsimp only [dat36]
theorem after36_5 (c : Dev nD) (t : Fin cfg36.N) :
    (dat36 V c).after 5 t = out36_5 (iblk36 V c 0 t) (iblk36 V c 1 t) (iblk36 V c 2 t) (iblk36 V c 3 t) (iblk36 V c 4 t) := by dsimp only [dat36]

/-- Each input's current staging buffer holds its block at every point, fetched there or not. -/
theorem before36_0 (c : Dev nD) (t : Fin cfg36.N) (d) : (dat36 V c).before 0 t d = iblk36 V c 0 t :=
  before36_0_of V (dat36 V c) (A_eq36 V c 0) (after36_0 V c) t d
theorem before36_1 (c : Dev nD) (t : Fin cfg36.N) (d) : (dat36 V c).before 1 t d = iblk36 V c 1 t :=
  before36_1_of V (dat36 V c) (A_eq36 V c 1) (after36_1 V c) t d
theorem before36_2 (c : Dev nD) (t : Fin cfg36.N) (d) : (dat36 V c).before 2 t d = iblk36 V c 2 t :=
  before36_2_of V (dat36 V c) (A_eq36 V c 2) (after36_2 V c) t d
theorem before36_3 (c : Dev nD) (t : Fin cfg36.N) (d) : (dat36 V c).before 3 t d = iblk36 V c 3 t :=
  before36_3_of V (dat36 V c) (A_eq36 V c 3) (after36_3 V c) t d
theorem before36_4 (c : Dev nD) (t : Fin cfg36.N) (d) : (dat36 V c).before 4 t d = iblk36 V c 4 t :=
  before36_4_of V (dat36 V c) (A_eq36 V c 4) (after36_4 V c) t d

/-! ## The body obligation, at a generic point -/

/-- What the body is called with at point t, the windows one by one, -/
noncomputable def bodyPre36 (c : Dev nD) (t : Fin cfg36.N) : sProp 𝕄 :=
  iprop((dat36 V c).Φ t.castSucc ∗ (dat36 V c).owesAt () t.castSucc
    ∗ (∃ d, owns (c : Thread nD τ) (st36_0 t) fullShare ((dat36 V c).before 0 t d))
    ∗ (∃ d, owns (c : Thread nD τ) (st36_1 t) fullShare ((dat36 V c).before 1 t d))
    ∗ (∃ d, owns (c : Thread nD τ) (st36_2 t) fullShare ((dat36 V c).before 2 t d))
    ∗ (∃ d, owns (c : Thread nD τ) (st36_3 t) fullShare ((dat36 V c).before 3 t d))
    ∗ (∃ d, owns (c : Thread nD τ) (st36_4 t) fullShare ((dat36 V c).before 4 t d))
    ∗ (∃ d, owns (c : Thread nD τ) (st36_5 t) fullShare ((dat36 V c).before 5 t d)))

/-- and what it returns. -/
noncomputable def bodyPost36 (c : Dev nD) (t : Fin cfg36.N) : sProp 𝕄 :=
  iprop((dat36 V c).Φ t.succ ∗ (dat36 V c).owesAt () t.succ
    ∗ owns (c : Thread nD τ) (st36_0 t) fullShare ((dat36 V c).after 0 t)
    ∗ owns (c : Thread nD τ) (st36_1 t) fullShare ((dat36 V c).after 1 t)
    ∗ owns (c : Thread nD τ) (st36_2 t) fullShare ((dat36 V c).after 2 t)
    ∗ owns (c : Thread nD τ) (st36_3 t) fullShare ((dat36 V c).after 3 t)
    ∗ owns (c : Thread nD τ) (st36_4 t) fullShare ((dat36 V c).after 4 t)
    ∗ owns (c : Thread nD τ) (st36_5 t) fullShare ((dat36 V c).after 5 t))

/-- The body at any point: the inputs' buffers hold their blocks, so the body's triple applies; the invariant and
    what the core owes pass through unread. -/
theorem sound_body36 (c : Dev nD) (t : Fin cfg36.N) :
    bodyPre36 V c t ⊢ wp frame (wpE (defs₀ (F := F)) Variants.none c none) Set.univ (bodyAt36 t) (fun _ => bodyPost36 V c t) := by
  unfold bodyPre36 bodyPost36 bodyAt36
  simp only [before36_0, before36_1, before36_2, before36_3, before36_4]
  rw [show (dat36 V c).Φ t.succ = (dat36 V c).Φ t.castSucc from rfl,
    show (dat36 V c).owesAt () t.succ = (dat36 V c).owesAt () t.castSucc from rfl,
    after36_0, after36_1, after36_2, after36_3, after36_4, after36_5]
  iintro ⟨HΦ, Ho, ⟨%d0, H0⟩, ⟨%d1, H1⟩, ⟨%d2, H2⟩, ⟨%d3, H3⟩, ⟨%d4, H4⟩, ⟨%d5, H5⟩⟩
  iapply (sound_kernel36 c Set.univ (grid36.coords t) _ _ _ _ _ _ _ _ _ _ _ _
    (iblk36 V c 0 t) (iblk36 V c 1 t) (iblk36 V c 2 t) (iblk36 V c 3 t) (iblk36 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation36 (c : Dev nD) : BodyObligation (dat36 (F := F) V c) (defs₀ (F := F)) Variants.none () Set.univ := fun t => by
  rw [bigSep_W36, bigSep_W36]
  exact sound_body36 V c t

end Region36

end Cert.Kernel.Hand

end
-- ==== Proof.KB.R37.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.Regions
import Idealize.ShloMosaic.Lib.Tactic

/-! # Region 37: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region37
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk37 (c : Dev nD) (w : Fin cfg37.W) (t : Fin cfg37.N) : ((cfg37.win w).xblock (cfg37.grid.coords t)).Idx → Elt F (cfg37.win w).elt :=
  ((cfg37.win w).blk t).view.read (Elt F) (V c (Pipeline.arrRef spec37 w))

/-- The rows of X: the staging buffer the body is handed holds the block of the point, whether the
    point fetched it or not (an unfetched input has not moved its block index). -/
theorem before37_0_of {c : Dev nD} (dat : Dat τ (Elt F) Unit ℕ (UR sig nD τ) ℕ cfg37 c) (hA : dat.A 0 = V c (Pipeline.arrRef spec37 0))
    (hafter : ∀ t, dat.after 0 t = iblk37 V c 0 t) (t : Fin cfg37.N) (d) : dat.before 0 t d = iblk37 V c 0 t :=
  (dat.before_in_eq_fetched 0 rfl (fun _ => rfl) (fun _ _ _ => rfl) (fun t => by rw [hafter]; unfold Dat.blockOf iblk37; rw [hA]; try rfl) t d).trans
    (by unfold Dat.fetched Dat.blockOf iblk37; rw [hA]; try rfl)

/-- The matrix W: fetched at the first point only, and found in place at every later one. -/
theorem before37_1_of {c : Dev nD} (dat : Dat τ (Elt F) Unit ℕ (UR sig nD τ) ℕ cfg37 c) (hA : dat.A 1 = V c (Pipeline.arrRef spec37 1))
    (hafter : ∀ t, dat.after 1 t = iblk37 V c 1 t) (t : Fin cfg37.N) (d) : dat.before 1 t d = iblk37 V c 1 t :=
  (dat.before_in_eq_fetched 1 rfl (fun _ => rfl) (fun _ _ _ => rfl) (fun t => by rw [hafter]; unfold Dat.blockOf iblk37; rw [hA]; try rfl) t d).trans
    (by unfold Dat.fetched Dat.blockOf iblk37; rw [hA]; try rfl)

/-! ## The body's accesses: each buffer whole -/

noncomputable abbrev r37_0 : Rect S2000x64 := Rect.unit (s := S2000x64) ![0, 0] S2000x64.size inb_S2000x64_S2000x64_0_0
noncomputable abbrev r37_1 : Rect S64x64 := Rect.unit (s := S64x64) ![0, 0] S64x64.size inb_S64x64_S64x64_0_0
noncomputable abbrev r37_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out37_2 (x0 : Vec F S2000x64 .f32) (x1 : Vec F S64x64 .f32) : Vec F S2000x64 .f32 :=
  View.canon [⟨r37_2, k37_pay1 (View.ld x0 r37_0) (View.ld x1 r37_1)⟩]

/-- The store's rectangle is the whole buffer, so it covers every index. -/
theorem cover37_2 (p0 : Vec F S2000x64 .f32) (y : S2000x64.Idx) :
    ∃ pc ∈ ([⟨r37_2, p0⟩] : List (View.Piece (Elt F) S2000x64 .f32)), y ∈ pc.1.set :=
  View.cover_of_tiled [⟨r37_2, p0⟩] S2000x64.size (by rfl) y

/-! ## The body's triple -/

set_option maxHeartbeats 1000000 in
/-- On whole staging memrefs, the inputs' holding x0 and x1 and the output's holding anything, the body
    runs to a state where the inputs' are unchanged and the output's holds out37_2 x0 x1. The body also reads
    the output buffer before storing into it; the value read is not used. -/
theorem sound_kernel37 (c : Dev nD) (E : Set ℕ) (i : grid37.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out37_2 x0 x1)) -∗ K ⟨⟩))
      ⊢ wp frame (wpE (defs₀ (F := F)) Variants.none c none) E (cc37__linear_kernel i arg1 harg1 arg2 harg2 arg3 harg3) K := by
  simp only [cc37__linear_kernel_eq_skeleton]; unfold cc37__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover37_2 _)

/-! ## The pipeline's proof data -/

/-- The arrays as the region finds them; after the body at point t the inputs' buffers at their blocks
    and the output's at the product block; the invariant is the scoped rest and the generator register,
    untouched; nothing owed; full shares. -/
noncomputable def dat37 (c : Dev nD) : Dat τ (Elt F) Unit ℕ (UR sig nD τ) ℕ cfg37 c where
  A w := V c (Pipeline.arrRef spec37 w)
  after w t := match w with
    | ⟨0, _⟩ => iblk37 V c 0 t
    | ⟨1, _⟩ => iblk37 V c 1 t
    | ⟨2, _⟩ => out37_2 (iblk37 V c 0 t) (iblk37 V c 1 t)
  Φ _ := Pipeline.ΦA spec37 c
  q _ := fullShare
  owed _ := 0

theorem A_eq37 (c : Dev nD) (w : Fin cfg37.W) : (dat37 V c).A w = V c (Pipeline.arrRef spec37 w) := by
  dsimp only [dat37]

theorem after37_0 (c : Dev nD) (t : Fin cfg37.N) : (dat37 V c).after 0 t = iblk37 V c 0 t := by dsimp only [dat37]
theorem after37_1 (c : Dev nD) (t : Fin cfg37.N) : (dat37 V c).after 1 t = iblk37 V c 1 t := by dsimp only [dat37]
theorem after37_2 (c : Dev nD) (t : Fin cfg37.N) : (dat37 V c).after 2 t = out37_2 (iblk37 V c 0 t) (iblk37 V c 1 t) := by dsimp only [dat37]

theorem before37_0 (c : Dev nD) (t : Fin cfg37.N) (d) : (dat37 V c).before 0 t d = iblk37 V c 0 t :=
  before37_0_of V (dat37 V c) (A_eq37 V c 0) (after37_0 V c) t d
theorem before37_1 (c : Dev nD) (t : Fin cfg37.N) (d) : (dat37 V c).before 1 t d = iblk37 V c 1 t :=
  before37_1_of V (dat37 V c) (A_eq37 V c 1) (after37_1 V c) t d

/-! ## The body obligation, at a generic point -/

/-- What the body is called with at point t, window by window, -/
noncomputable def bodyPre37 (c : Dev nD) (t : Fin cfg37.N) : sProp 𝕄 :=
  iprop((dat37 V c).Φ t.castSucc ∗ (dat37 V c).owesAt () t.castSucc
    ∗ (∃ d, owns (c : Thread nD τ) (st37_0 t) fullShare ((dat37 V c).before 0 t d))
    ∗ (∃ d, owns (c : Thread nD τ) (st37_1 t) fullShare ((dat37 V c).before 1 t d))
    ∗ (∃ d, owns (c : Thread nD τ) (st37_2 t) fullShare ((dat37 V c).before 2 t d)))

/-- and what it returns. -/
noncomputable def bodyPost37 (c : Dev nD) (t : Fin cfg37.N) : sProp 𝕄 :=
  iprop((dat37 V c).Φ t.succ ∗ (dat37 V c).owesAt () t.succ
    ∗ owns (c : Thread nD τ) (st37_0 t) fullShare ((dat37 V c).after 0 t)
    ∗ owns (c : Thread nD τ) (st37_1 t) fullShare ((dat37 V c).after 1 t)
    ∗ owns (c : Thread nD τ) (st37_2 t) fullShare ((dat37 V c).after 2 t))

/-- The inputs' memrefs hold their blocks, so the body's triple applies; the invariant and what the core
    owes pass through unread. -/
theorem sound_body37 (c : Dev nD) (t : Fin cfg37.N) :
    bodyPre37 V c t ⊢ wp frame (wpE (defs₀ (F := F)) Variants.none c none) Set.univ (bodyAt37 t) (fun _ => bodyPost37 V c t) := by
  unfold bodyPre37 bodyPost37 bodyAt37
  simp only [before37_0, before37_1]
  rw [show (dat37 V c).Φ t.succ = (dat37 V c).Φ t.castSucc from rfl,
    show (dat37 V c).owesAt () t.succ = (dat37 V c).owesAt () t.castSucc from rfl,
    after37_0, after37_1, after37_2]
  iintro ⟨HΦ, Ho, ⟨%d0, H0⟩, ⟨%d1, H1⟩, ⟨%d2, H2⟩⟩
  iapply (sound_kernel37 c Set.univ (grid37.coords t) _ _ _ _ _ _ (iblk37 V c 0 t) (iblk37 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation37 (c : Dev nD) : BodyObligation (dat37 (F := F) V c) (defs₀ (F := F)) Variants.none () Set.univ := fun t => by
  rw [bigSep_W37, bigSep_W37]
  exact sound_body37 V c t

end Region37

end Cert.Kernel.Hand

end
-- ==== Proof.KB.R38.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.R14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The kernel is region 14's

The two regions' printed kernel functions are the same function of the grid coordinate and the memrefs (the same
text over the same shapes; the grids and the last-point conditions are the same literals), so region 14's runs of the
body, its covers and its per-case contents — all stated over abstract coordinates and memrefs — serve this region. -/

theorem cc38_kernel_eq : cc38_kernel (F := F) = cc14_kernel (F := F) := rfl

/-! ## The windows' blocks -/

/-- Window `w`'s block at point `t`, read off its array as the region finds it (`V`). -/
noncomputable def iblk38 (c : Dev nD) (w : Fin cfg38.W) (t : Fin cfg38.N) : ((cfg38.win w).xblock (cfg38.grid.coords t)).Idx → Elt F (cfg38.win w).elt :=
  ((cfg38.win w).blk t).view.read (Elt F) (V c (Pipeline.arrRef spec38 w))

/-- Input window 0's current staging buffer holds its block at every point, for any proof data whose array is
    `V`'s and whose body leaves the block in place: the window is uncut and never idle. -/
theorem before38_0_of {c : Dev nD} (dat : Dat τ (Elt F) Unit ℕ (UR sig nD τ) ℕ cfg38 c) (hA : dat.A 0 = V c (Pipeline.arrRef spec38 0))
    (hafter : ∀ t, dat.after 0 t = iblk38 V c 0 t) (t : Fin cfg38.N) (d) : dat.before 0 t d = iblk38 V c 0 t :=
  (dat.before_in_eq_fetched 0 rfl (fun _ => rfl) (fun _ _ _ => rfl) (fun t => by rw [hafter]; unfold Dat.blockOf iblk38; rw [hA]; try rfl) t d).trans
    (by unfold Dat.fetched Dat.blockOf iblk38; rw [hA]; try rfl)

/-- Input window 1 likewise: fetched at the first point only, its block index never moves, so the buffer holds
    the block at every point. -/
theorem before38_1_of {c : Dev nD} (dat : Dat τ (Elt F) Unit ℕ (UR sig nD τ) ℕ cfg38 c) (hA : dat.A 1 = V c (Pipeline.arrRef spec38 1))
    (hafter : ∀ t, dat.after 1 t = iblk38 V c 1 t) (t : Fin cfg38.N) (d) : dat.before 1 t d = iblk38 V c 1 t :=
  (dat.before_in_eq_fetched 1 rfl (fun _ => rfl) (fun _ _ _ => rfl) (fun t => by rw [hafter]; unfold Dat.blockOf iblk38; rw [hA]; try rfl) t d).trans
    (by unfold Dat.fetched Dat.blockOf iblk38; rw [hA]; try rfl)

/-- Input window 2 likewise. -/
theorem before38_2_of {c : Dev nD} (dat : Dat τ (Elt F) Unit ℕ (UR sig nD τ) ℕ cfg38 c) (hA : dat.A 2 = V c (Pipeline.arrRef spec38 2))
    (hafter : ∀ t, dat.after 2 t = iblk38 V c 2 t) (t : Fin cfg38.N) (d) : dat.before 2 t d = iblk38 V c 2 t :=
  (dat.before_in_eq_fetched 2 rfl (fun _ => rfl) (fun _ _ _ => rfl) (fun t => by rw [hafter]; unfold Dat.blockOf iblk38; rw [hA]; try rfl) t d).trans
    (by unfold Dat.fetched Dat.blockOf iblk38; rw [hA]; try rfl)

/-! ## The body's two conditions on the grid coordinate -/

/-- It holds at the first point only. -/
theorem hcond38_0 : ∀ t : Fin cfg38.N, cond14_0 (grid38.coords t) ↔ t.val % 25 = 0 :=
  (by decide +kernel : ∀ t : Fin grid38.N, cond14_0 (grid38.coords t) ↔ t.val % 25 = 0)

/-- It holds at the last point only. -/
theorem hcond38_1 : ∀ t : Fin cfg38.N, cond14_1 (grid38.coords t) ↔ t.val % 25 = 24 :=
  (by decide +kernel : ∀ t : Fin grid38.N, cond14_1 (grid38.coords t) ↔ t.val % 25 = 24)

/-! ## Where the windows are idle -/

theorem liveAt38_0 : ∀ t : Fin cfg38.N, cfg38.idle 0 (grid38.coords t) = false := by decide +kernel
theorem liveAt38_1 : ∀ t : Fin cfg38.N, cfg38.idle 1 (grid38.coords t) = false := by decide +kernel
theorem liveAt38_2 : ∀ t : Fin cfg38.N, cfg38.idle 2 (grid38.coords t) = false := by decide +kernel
theorem liveAt38_3 : ∀ t : Fin cfg38.N, cfg38.idle 3 (grid38.coords t) = false := by decide +kernel
theorem liveAt38_4 : ∀ t : Fin cfg38.N, cfg38.idle 4 (grid38.coords t) = false := by decide +kernel
/-- At the first point the body stores nothing into output 5: the window is idle there and not written back. -/
theorem idleAt38_5_A : ∀ t : Fin cfg38.N, cond14_0 (grid38.coords t) → ¬cond14_1 (grid38.coords t) → cfg38.idle 5 (grid38.coords t) = true := by decide +kernel
theorem noFlush38_5_A : ∀ t : Fin cfg38.N, cond14_0 (grid38.coords t) → ¬cond14_1 (grid38.coords t) → (cfg38.win 5).flush t = false := by decide +kernel
/-- Nor at the middle points. -/
theorem idleAt38_5_B : ∀ t : Fin cfg38.N, ¬cond14_0 (grid38.coords t) → ¬cond14_1 (grid38.coords t) → cfg38.idle 5 (grid38.coords t) = true := by decide +kernel
theorem noFlush38_5_B : ∀ t : Fin cfg38.N, ¬cond14_0 (grid38.coords t) → ¬cond14_1 (grid38.coords t) → (cfg38.win 5).flush t = false := by decide +kernel
/-- At the last point it stores the accumulated sums there: the window is live. -/
theorem liveAt38_5_C : ∀ t : Fin cfg38.N, ¬cond14_0 (grid38.coords t) → cond14_1 (grid38.coords t) → cfg38.idle 5 (grid38.coords t) = false := by decide +kernel

/-! ## The memrefs the body is called with -/

/-- Each window's current staging memref at point `t`, as the pipeline passes it, and its wholeness. -/
noncomputable abbrev ms38_0 (t : Fin cfg38.N) : Memref sig .tc .vmem S2000x64 .f32 := win38_0.stage (cfg38.slots t 0)
abbrev hs38_0 (t : Fin cfg38.N) : (ms38_0 t).IsWhole := hstage38_0 ((cfg38.slots t 0).cast nbuf38_0)
noncomputable abbrev ms38_1 (t : Fin cfg38.N) : Memref sig .tc .vmem S1x64 .f32 := win38_1.stage (cfg38.slots t 1)
abbrev hs38_1 (t : Fin cfg38.N) : (ms38_1 t).IsWhole := hstage38_1 ((cfg38.slots t 1).cast nbuf38_1)
noncomputable abbrev ms38_2 (t : Fin cfg38.N) : Memref sig .tc .vmem S2000x64 .f32 := win38_2.stage (cfg38.slots t 2)
abbrev hs38_2 (t : Fin cfg38.N) : (ms38_2 t).IsWhole := hstage38_2 ((cfg38.slots t 2).cast nbuf38_2)
noncomputable abbrev ms38_3 (t : Fin cfg38.N) : Memref sig .tc .vmem S2000x64 .f32 := win38_3.stage (cfg38.slots t 3)
abbrev hs38_3 (t : Fin cfg38.N) : (ms38_3 t).IsWhole := hstage38_3 ((cfg38.slots t 3).cast nbuf38_3)
noncomputable abbrev ms38_4 (t : Fin cfg38.N) : Memref sig .tc .vmem S2000x64 .f32 := win38_4.stage (cfg38.slots t 4)
abbrev hs38_4 (t : Fin cfg38.N) : (ms38_4 t).IsWhole := hstage38_4 ((cfg38.slots t 4).cast nbuf38_4)
noncomputable abbrev ms38_5 (t : Fin cfg38.N) : Memref sig .tc .vmem S1x64 .f32 := win38_5.stage (cfg38.slots t 5)
abbrev hs38_5 (t : Fin cfg38.N) : (ms38_5 t).IsWhole := hstage38_5 ((cfg38.slots t 5).cast nbuf38_5)
/-- The scratch operand: a whole scoped buffer of the kernel's own, in which the column sums accumulate. -/
noncomputable abbrev scM38_0 : Memref sig .tc .vmem S1x64 .f32 := Memref.whole cc38_scratch0

/-- The other scoped buffers (every other call's staging buffers and scratch), unopened. -/
noncomputable abbrev restBut38 (c : Dev nD) : sProp 𝕄 :=
  Pipeline.scopedRestBut (Ix := Unit) (Name := ℕ) (U := UR sig nD τ) (Lvl := ℕ) (Val := Elt F) spec38 c [cc38_scratch0]

/-- The region's invariant as the launch hands it over, with the scratch operand split out as a memref owned at
    some contents: what the body obligation hands the run and takes back. -/
theorem PhiA38_eq (c : Dev nD) :
    (Pipeline.ΦA spec38 c : sProp 𝕄)
      = iprop(iprop(iprop((∃ d, owns (c : Thread nD τ) scM38_0 fullShare d)) ∗ restBut38 (F := F) c) ∗ (∃ r, prngReg c r)) := by
  unfold Pipeline.ΦA; rw [scopedRest38_split]; simp only [scM38_0, owns_whole]; try rfl

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt38 (c : Dev nD) : (n : ℕ) → n < cfg38.N → Vec F S2000x64 .f32 × Vec F S2000x64 .f32 × Vec F S1x64 .f32 × Vec F S1x64 .f32
  | 0, hn => (out14_A_3 c (grid38.coords ⟨0, hn⟩) (ms38_0 ⟨0, hn⟩) (hs38_0 ⟨0, hn⟩) (ms38_1 ⟨0, hn⟩) (hs38_1 ⟨0, hn⟩) (ms38_2 ⟨0, hn⟩) (hs38_2 ⟨0, hn⟩) (ms38_3 ⟨0, hn⟩) (hs38_3 ⟨0, hn⟩) (ms38_4 ⟨0, hn⟩) (hs38_4 ⟨0, hn⟩) (ms38_5 ⟨0, hn⟩) (hs38_5 ⟨0, hn⟩) scM38_0 (Memref.isWhole_whole _) ((hcond38_0 ⟨0, hn⟩).mpr (Nat.zero_mod _)) (fun h => (fun h => by (try dsimp only at h); omega) ((hcond38_1 ⟨0, hn⟩).mp h)) (iblk38 V c 0 ⟨0, hn⟩) (iblk38 V c 1 ⟨0, hn⟩) (iblk38 V c 2 ⟨0, hn⟩), out14_A_4 c (grid38.coords ⟨0, hn⟩) (ms38_0 ⟨0, hn⟩) (hs38_0 ⟨0, hn⟩) (ms38_1 ⟨0, hn⟩) (hs38_1 ⟨0, hn⟩) (ms38_2 ⟨0, hn⟩) (hs38_2 ⟨0, hn⟩) (ms38_3 ⟨0, hn⟩) (hs38_3 ⟨0, hn⟩) (ms38_4 ⟨0, hn⟩) (hs38_4 ⟨0, hn⟩) (ms38_5 ⟨0, hn⟩) (hs38_5 ⟨0, hn⟩) scM38_0 (Memref.isWhole_whole _) ((hcond38_0 ⟨0, hn⟩).mpr (Nat.zero_mod _)) (fun h => (fun h => by (try dsimp only at h); omega) ((hcond38_1 ⟨0, hn⟩).mp h)) (iblk38 V c 0 ⟨0, hn⟩) (iblk38 V c 1 ⟨0, hn⟩) (iblk38 V c 2 ⟨0, hn⟩), out14_A_5 c (grid38.coords ⟨0, hn⟩) (ms38_0 ⟨0, hn⟩) (hs38_0 ⟨0, hn⟩) (ms38_1 ⟨0, hn⟩) (hs38_1 ⟨0, hn⟩) (ms38_2 ⟨0, hn⟩) (hs38_2 ⟨0, hn⟩) (ms38_3 ⟨0, hn⟩) (hs38_3 ⟨0, hn⟩) (ms38_4 ⟨0, hn⟩) (hs38_4 ⟨0, hn⟩) (ms38_5 ⟨0, hn⟩) (hs38_5 ⟨0, hn⟩) scM38_0 (Memref.isWhole_whole _) ((hcond38_0 ⟨0, hn⟩).mpr (Nat.zero_mod _)) (fun h => (fun h => by (try dsimp only at h); omega) ((hcond38_1 ⟨0, hn⟩).mp h)) (iblk38 V c 0 ⟨0, hn⟩) (iblk38 V c 1 ⟨0, hn⟩) (iblk38 V c 2 ⟨0, hn⟩), sout14_A_0 c (grid38.coords ⟨0, hn⟩) (ms38_0 ⟨0, hn⟩) (hs38_0 ⟨0, hn⟩) (ms38_1 ⟨0, hn⟩) (hs38_1 ⟨0, hn⟩) (ms38_2 ⟨0, hn⟩) (hs38_2 ⟨0, hn⟩) (ms38_3 ⟨0, hn⟩) (hs38_3 ⟨0, hn⟩) (ms38_4 ⟨0, hn⟩) (hs38_4 ⟨0, hn⟩) (ms38_5 ⟨0, hn⟩) (hs38_5 ⟨0, hn⟩) scM38_0 (Memref.isWhole_whole _) ((hcond38_0 ⟨0, hn⟩).mpr (Nat.zero_mod _)) (fun h => (fun h => by (try dsimp only at h); omega) ((hcond38_1 ⟨0, hn⟩).mp h)) (iblk38 V c 0 ⟨0, hn⟩) (iblk38 V c 1 ⟨0, hn⟩) (iblk38 V c 2 ⟨0, hn⟩))
  | n + 1, hn =>
    if h0 : (n + 1) % 25 = 0 then
      if h1 : (n + 1) % 25 = 24 then
        False.elim (by omega)
      else
        (out14_A_3 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) ((hcond38_0 ⟨n + 1, hn⟩).mpr h0) (fun h => h1 ((hcond38_1 ⟨n + 1, hn⟩).mp h)) (iblk38 V c 0 ⟨n + 1, hn⟩) (iblk38 V c 1 ⟨n + 1, hn⟩) (iblk38 V c 2 ⟨n + 1, hn⟩), out14_A_4 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) ((hcond38_0 ⟨n + 1, hn⟩).mpr h0) (fun h => h1 ((hcond38_1 ⟨n + 1, hn⟩).mp h)) (iblk38 V c 0 ⟨n + 1, hn⟩) (iblk38 V c 1 ⟨n + 1, hn⟩) (iblk38 V c 2 ⟨n + 1, hn⟩), out14_A_5 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) ((hcond38_0 ⟨n + 1, hn⟩).mpr h0) (fun h => h1 ((hcond38_1 ⟨n + 1, hn⟩).mp h)) (iblk38 V c 0 ⟨n + 1, hn⟩) (iblk38 V c 1 ⟨n + 1, hn⟩) (iblk38 V c 2 ⟨n + 1, hn⟩), sout14_A_0 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) ((hcond38_0 ⟨n + 1, hn⟩).mpr h0) (fun h => h1 ((hcond38_1 ⟨n + 1, hn⟩).mp h)) (iblk38 V c 0 ⟨n + 1, hn⟩) (iblk38 V c 1 ⟨n + 1, hn⟩) (iblk38 V c 2 ⟨n + 1, hn⟩))
    else
      if h1 : (n + 1) % 25 = 24 then
        (out14_C_3 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) ((hcond38_1 ⟨n + 1, hn⟩).mpr h1) (iblk38 V c 0 ⟨n + 1, hn⟩) (iblk38 V c 1 ⟨n + 1, hn⟩) (iblk38 V c 2 ⟨n + 1, hn⟩) (outsAt38 c n (Nat.lt_of_succ_lt hn)).2.2.2, out14_C_4 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) ((hcond38_1 ⟨n + 1, hn⟩).mpr h1) (iblk38 V c 0 ⟨n + 1, hn⟩) (iblk38 V c 1 ⟨n + 1, hn⟩) (iblk38 V c 2 ⟨n + 1, hn⟩) (outsAt38 c n (Nat.lt_of_succ_lt hn)).2.2.2, out14_C_5 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) ((hcond38_1 ⟨n + 1, hn⟩).mpr h1) (iblk38 V c 0 ⟨n + 1, hn⟩) (iblk38 V c 1 ⟨n + 1, hn⟩) (iblk38 V c 2 ⟨n + 1, hn⟩) (outsAt38 c n (Nat.lt_of_succ_lt hn)).2.2.2, sout14_C_0 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) ((hcond38_1 ⟨n + 1, hn⟩).mpr h1) (iblk38 V c 0 ⟨n + 1, hn⟩) (iblk38 V c 1 ⟨n + 1, hn⟩) (iblk38 V c 2 ⟨n + 1, hn⟩) (outsAt38 c n (Nat.lt_of_succ_lt hn)).2.2.2)
      else
        (out14_B_3 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) (fun h => h1 ((hcond38_1 ⟨n + 1, hn⟩).mp h)) (iblk38 V c 0 ⟨n + 1, hn⟩) (iblk38 V c 1 ⟨n + 1, hn⟩) (iblk38 V c 2 ⟨n + 1, hn⟩) (outsAt38 c n (Nat.lt_of_succ_lt hn)).2.2.2, out14_B_4 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) (fun h => h1 ((hcond38_1 ⟨n + 1, hn⟩).mp h)) (iblk38 V c 0 ⟨n + 1, hn⟩) (iblk38 V c 1 ⟨n + 1, hn⟩) (iblk38 V c 2 ⟨n + 1, hn⟩) (outsAt38 c n (Nat.lt_of_succ_lt hn)).2.2.2, out14_B_5 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) (fun h => h1 ((hcond38_1 ⟨n + 1, hn⟩).mp h)) (iblk38 V c 0 ⟨n + 1, hn⟩) (iblk38 V c 1 ⟨n + 1, hn⟩) (iblk38 V c 2 ⟨n + 1, hn⟩) (outsAt38 c n (Nat.lt_of_succ_lt hn)).2.2.2, sout14_B_0 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) (fun h => h1 ((hcond38_1 ⟨n + 1, hn⟩).mp h)) (iblk38 V c 0 ⟨n + 1, hn⟩) (iblk38 V c 1 ⟨n + 1, hn⟩) (iblk38 V c 2 ⟨n + 1, hn⟩) (outsAt38 c n (Nat.lt_of_succ_lt hn)).2.2.2)

/-- `outsAt38` at the first point: case A's contents. -/
theorem outsAt38_A (c : Dev nD) (t : Fin cfg38.N) (h0 : t.val % 25 = 0) (h1 : ¬t.val % 25 = 24) :
    outsAt38 V c t.val t.isLt = (out14_A_3 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) ((hcond38_0 t).mpr h0) (fun h => h1 ((hcond38_1 t).mp h)) (iblk38 V c 0 t) (iblk38 V c 1 t) (iblk38 V c 2 t), out14_A_4 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) ((hcond38_0 t).mpr h0) (fun h => h1 ((hcond38_1 t).mp h)) (iblk38 V c 0 t) (iblk38 V c 1 t) (iblk38 V c 2 t), out14_A_5 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) ((hcond38_0 t).mpr h0) (fun h => h1 ((hcond38_1 t).mp h)) (iblk38 V c 0 t) (iblk38 V c 1 t) (iblk38 V c 2 t), sout14_A_0 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) ((hcond38_0 t).mpr h0) (fun h => h1 ((hcond38_1 t).mp h)) (iblk38 V c 0 t) (iblk38 V c 1 t) (iblk38 V c 2 t)) := by
  obtain ⟨n, hn⟩ := t
  cases n with
  | zero => exact rfl
  | succ n => exact (dif_pos h0).trans ((dif_neg h1).trans rfl)

/-- `outsAt38` at a middle point: case B's contents, over what the point before left in the scratch. -/
theorem outsAt38_B (c : Dev nD) (t : Fin cfg38.N) (h0 : ¬t.val % 25 = 0) (h1 : ¬t.val % 25 = 24) :
    outsAt38 V c t.val t.isLt = (out14_B_3 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) (fun h => h1 ((hcond38_1 t).mp h)) (iblk38 V c 0 t) (iblk38 V c 1 t) (iblk38 V c 2 t) (outsAt38 V c (t.val - 1) (Nat.lt_of_le_of_lt (Nat.sub_le _ _) t.isLt)).2.2.2, out14_B_4 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) (fun h => h1 ((hcond38_1 t).mp h)) (iblk38 V c 0 t) (iblk38 V c 1 t) (iblk38 V c 2 t) (outsAt38 V c (t.val - 1) (Nat.lt_of_le_of_lt (Nat.sub_le _ _) t.isLt)).2.2.2, out14_B_5 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) (fun h => h1 ((hcond38_1 t).mp h)) (iblk38 V c 0 t) (iblk38 V c 1 t) (iblk38 V c 2 t) (outsAt38 V c (t.val - 1) (Nat.lt_of_le_of_lt (Nat.sub_le _ _) t.isLt)).2.2.2, sout14_B_0 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) (fun h => h1 ((hcond38_1 t).mp h)) (iblk38 V c 0 t) (iblk38 V c 1 t) (iblk38 V c 2 t) (outsAt38 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt38` at the last point: case C's contents, over what the point before left in the scratch. -/
theorem outsAt38_C (c : Dev nD) (t : Fin cfg38.N) (h0 : ¬t.val % 25 = 0) (h1 : t.val % 25 = 24) :
    outsAt38 V c t.val t.isLt = (out14_C_3 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) ((hcond38_1 t).mpr h1) (iblk38 V c 0 t) (iblk38 V c 1 t) (iblk38 V c 2 t) (outsAt38 V c (t.val - 1) (Nat.lt_of_le_of_lt (Nat.sub_le _ _) t.isLt)).2.2.2, out14_C_4 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) ((hcond38_1 t).mpr h1) (iblk38 V c 0 t) (iblk38 V c 1 t) (iblk38 V c 2 t) (outsAt38 V c (t.val - 1) (Nat.lt_of_le_of_lt (Nat.sub_le _ _) t.isLt)).2.2.2, out14_C_5 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) ((hcond38_1 t).mpr h1) (iblk38 V c 0 t) (iblk38 V c 1 t) (iblk38 V c 2 t) (outsAt38 V c (t.val - 1) (Nat.lt_of_le_of_lt (Nat.sub_le _ _) t.isLt)).2.2.2, sout14_C_0 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) ((hcond38_1 t).mpr h1) (iblk38 V c 0 t) (iblk38 V c 1 t) (iblk38 V c 2 t) (outsAt38 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt38`'s last component), the other
    scoped buffers unopened and the generator register at some state. -/
noncomputable def PhiS38 (c : Dev nD) : (n : ℕ) → n ≤ cfg38.N → sProp 𝕄
  | 0, _ => Pipeline.ΦA spec38 c
  | n + 1, hn => iprop(iprop(iprop(owns (c : Thread nD τ) scM38_0 fullShare ((outsAt38 V c n hn).2.2.2)) ∗ restBut38 (F := F) c) ∗ (∃ r, prngReg c r))

theorem PhiS38_zero (c : Dev nD) (n : ℕ) (h : n ≤ cfg38.N) (hz : n = 0) : PhiS38 V c n h = Pipeline.ΦA spec38 c := by
  subst hz; rfl

/-- After point `n` (before point `n + 1`): the scratch at that point's contents. -/
theorem PhiS38_succ (c : Dev nD) (n : ℕ) (hn : n < cfg38.N) :
    PhiS38 V c (n + 1) hn = iprop(iprop(iprop(owns (c : Thread nD τ) scM38_0 fullShare ((outsAt38 V c n hn).2.2.2)) ∗ restBut38 (F := F) c) ∗ (∃ r, prngReg c r)) := rfl

/-- Before a point that is not the first: the scratch at what the point before left. -/
theorem PhiS38_pos (c : Dev nD) (n : ℕ) (h : n ≤ cfg38.N) (hz : n ≠ 0) :
    PhiS38 V c n h = iprop(iprop(iprop(owns (c : Thread nD τ) scM38_0 fullShare ((outsAt38 V c (n - 1) (by omega)).2.2.2)) ∗ restBut38 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt38`; the invariant `PhiS38`; nothing owed;
    full shares. -/
noncomputable def dat38 (c : Dev nD) : Dat τ (Elt F) Unit ℕ (UR sig nD τ) ℕ cfg38 c where
  A w := V c (Pipeline.arrRef spec38 w)
  after w t := match w with
    | ⟨0, _⟩ => iblk38 V c 0 t
    | ⟨1, _⟩ => iblk38 V c 1 t
    | ⟨2, _⟩ => iblk38 V c 2 t
    | ⟨3, _⟩ => (outsAt38 V c t.val t.isLt).1
    | ⟨4, _⟩ => (outsAt38 V c t.val t.isLt).2.1
    | ⟨5, _⟩ => (outsAt38 V c t.val t.isLt).2.2.1
  Φ t := PhiS38 V c t.val (Nat.le_of_lt_succ t.isLt)
  q _ := fullShare
  owed _ := 0

/-- The proof data's arrays are the region-entry contents. -/
theorem A_eq38 (c : Dev nD) (w : Fin cfg38.W) : (dat38 V c).A w = V c (Pipeline.arrRef spec38 w) := by
  dsimp only [dat38]

/-- The invariant at a point's start, restated at `t.val`. -/
theorem PhiS38_castSucc (c : Dev nD) (t : Fin cfg38.N) :
    (dat38 V c).Φ t.castSucc = PhiS38 V c t.val (Nat.le_of_lt t.isLt) := by
  dsimp only [dat38]; simp only [Fin.coe_castSucc]

/-- What the body leaves, window by window. -/
theorem after38_0 (c : Dev nD) (t : Fin cfg38.N) : (dat38 V c).after 0 t = iblk38 V c 0 t := by dsimp only [dat38]
theorem after38_1 (c : Dev nD) (t : Fin cfg38.N) : (dat38 V c).after 1 t = iblk38 V c 1 t := by dsimp only [dat38]
theorem after38_2 (c : Dev nD) (t : Fin cfg38.N) : (dat38 V c).after 2 t = iblk38 V c 2 t := by dsimp only [dat38]
theorem after38_3 (c : Dev nD) (t : Fin cfg38.N) : (dat38 V c).after 3 t = (outsAt38 V c t.val t.isLt).1 := by dsimp only [dat38]
theorem after38_4 (c : Dev nD) (t : Fin cfg38.N) : (dat38 V c).after 4 t = (outsAt38 V c t.val t.isLt).2.1 := by dsimp only [dat38]
theorem after38_5 (c : Dev nD) (t : Fin cfg38.N) : (dat38 V c).after 5 t = (outsAt38 V c t.val t.isLt).2.2.1 := by dsimp only [dat38]

/-- Each input's current staging buffer holds its block at every point, fetched there or not. -/
theorem before38_0 (c : Dev nD) (t : Fin cfg38.N) (d) : (dat38 V c).before 0 t d = iblk38 V c 0 t :=
  before38_0_of V (dat38 V c) (A_eq38 V c 0) (after38_0 V c) t d
theorem before38_1 (c : Dev nD) (t : Fin cfg38.N) (d) : (dat38 V c).before 1 t d = iblk38 V c 1 t :=
  before38_1_of V (dat38 V c) (A_eq38 V c 1) (after38_1 V c) t d
theorem before38_2 (c : Dev nD) (t : Fin cfg38.N) (d) : (dat38 V c).before 2 t d = iblk38 V c 2 t :=
  before38_2_of V (dat38 V c) (A_eq38 V c 2) (after38_2 V c) t d

/-! ## The body obligation, at a generic point -/

/-- What the body is called with at point `t` (the windows one by one), -/
noncomputable def bodyPre38 (c : Dev nD) (t : Fin cfg38.N) : sProp 𝕄 :=
  iprop((dat38 V c).Φ t.castSucc ∗ (dat38 V c).owesAt () t.castSucc
    ∗ (∃ d, owns (c : Thread nD τ) (ms38_0 t) fullShare ((dat38 V c).before 0 t d))
    ∗ (∃ d, owns (c : Thread nD τ) (ms38_1 t) fullShare ((dat38 V c).before 1 t d))
    ∗ (∃ d, owns (c : Thread nD τ) (ms38_2 t) fullShare ((dat38 V c).before 2 t d))
    ∗ (∃ d, owns (c : Thread nD τ) (ms38_3 t) fullShare ((dat38 V c).before 3 t d))
    ∗ (∃ d, owns (c : Thread nD τ) (ms38_4 t) fullShare ((dat38 V c).before 4 t d))
    ∗ (∃ d, owns (c : Thread nD τ) (ms38_5 t) fullShare ((dat38 V c).before 5 t d)))

/-- and what it returns. -/
noncomputable def bodyPost38 (c : Dev nD) (t : Fin cfg38.N) : sProp 𝕄 :=
  iprop((dat38 V c).Φ t.succ ∗ (dat38 V c).owesAt () t.succ
    ∗ (dat38 V c).leavesExact 0 t
    ∗ (dat38 V c).leavesExact 1 t
    ∗ (dat38 V c).leavesExact 2 t
    ∗ (dat38 V c).leavesExact 3 t
    ∗ (dat38 V c).leavesExact 4 t
    ∗ (dat38 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body38 (c : Dev nD) (t : Fin cfg38.N) :
    bodyPre38 V c t ⊢ wp frame (wpE (defs₀ (F := F)) Variants.none c none) Set.univ (bodyAt38 t) (fun _ => bodyPost38 V c t) := by
  unfold bodyPre38 bodyPost38 bodyAt38
  rw [cc38_kernel_eq]
  simp only [before38_0, before38_1, before38_2]
  rw [show (dat38 V c).owesAt () t.succ = (dat38 V c).owesAt () t.castSucc from rfl]
  rw [show (dat38 V c).Φ t.succ = PhiS38 V c (t.val + 1) t.isLt from rfl, PhiS38_succ]
  have hN : t.val < 25 := lt_of_lt_of_eq t.isLt (show cfg38.N = 25 from N_38)
  by_cases h0 : t.val % 25 = 0
  · by_cases h1 : t.val % 25 = 24
    · exfalso; omega
    · rw [show (dat38 V c).leavesExact 0 t = owns (c : Thread nD τ) (ms38_0 t) fullShare ((dat38 V c).after 0 t) from by
        unfold Dat.leavesExact; rw [liveAt38_0 t], after38_0]
      rw [show (dat38 V c).leavesExact 1 t = owns (c : Thread nD τ) (ms38_1 t) fullShare ((dat38 V c).after 1 t) from by
        unfold Dat.leavesExact; rw [liveAt38_1 t], after38_1]
      rw [show (dat38 V c).leavesExact 2 t = owns (c : Thread nD τ) (ms38_2 t) fullShare ((dat38 V c).after 2 t) from by
        unfold Dat.leavesExact; rw [liveAt38_2 t], after38_2]
      rw [show (dat38 V c).leavesExact 3 t = owns (c : Thread nD τ) (ms38_3 t) fullShare ((dat38 V c).after 3 t) from by
        unfold Dat.leavesExact; rw [liveAt38_3 t], after38_3]
      rw [show (dat38 V c).leavesExact 4 t = owns (c : Thread nD τ) (ms38_4 t) fullShare ((dat38 V c).after 4 t) from by
        unfold Dat.leavesExact; rw [liveAt38_4 t], after38_4]
      rw [Dat.leavesExact_idle (dat38 V c) 5 t (idleAt38_5_A t ((hcond38_0 t).mpr h0) (fun h => h1 ((hcond38_1 t).mp h))) (noFlush38_5_A t ((hcond38_0 t).mpr h0) (fun h => h1 ((hcond38_1 t).mp h)))]
      rw [outsAt38_A V c t h0 h1]
      unfold out14_A_3 out14_A_4 sout14_A_0; (try dsimp only)
      by_cases hz : t.val = 0
      · rw [PhiS38_castSucc V c t, PhiS38_zero V c _ _ hz, PhiA38_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid38.coords t) _ _ _ _ _ _ _ _ _ _ _ _ _ _ ((hcond38_0 t).mpr h0) (fun h => h1 ((hcond38_1 t).mp h)) (iblk38 V c 0 t) (iblk38 V c 1 t) (iblk38 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat38 V c).leavesExact 0 t = owns (c : Thread nD τ) (ms38_0 t) fullShare ((dat38 V c).after 0 t) from by
        unfold Dat.leavesExact; rw [liveAt38_0 t], after38_0]
      rw [show (dat38 V c).leavesExact 1 t = owns (c : Thread nD τ) (ms38_1 t) fullShare ((dat38 V c).after 1 t) from by
        unfold Dat.leavesExact; rw [liveAt38_1 t], after38_1]
      rw [show (dat38 V c).leavesExact 2 t = owns (c : Thread nD τ) (ms38_2 t) fullShare ((dat38 V c).after 2 t) from by
        unfold Dat.leavesExact; rw [liveAt38_2 t], after38_2]
      rw [show (dat38 V c).leavesExact 3 t = owns (c : Thread nD τ) (ms38_3 t) fullShare ((dat38 V c).after 3 t) from by
        unfold Dat.leavesExact; rw [liveAt38_3 t], after38_3]
      rw [show (dat38 V c).leavesExact 4 t = owns (c : Thread nD τ) (ms38_4 t) fullShare ((dat38 V c).after 4 t) from by
        unfold Dat.leavesExact; rw [liveAt38_4 t], after38_4]
      rw [show (dat38 V c).leavesExact 5 t = owns (c : Thread nD τ) (ms38_5 t) fullShare ((dat38 V c).after 5 t) from by
        unfold Dat.leavesExact; rw [liveAt38_5_C t (fun h => h0 ((hcond38_0 t).mp h)) ((hcond38_1 t).mpr h1)], after38_5]
      rw [outsAt38_C V c t h0 h1]
      unfold out14_C_3 out14_C_4 out14_C_5 sout14_C_0; (try dsimp only)
      by_cases hz : t.val = 0
      · exfalso; omega
      · rw [PhiS38_castSucc V c t, PhiS38_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid38.coords t) _ _ _ _ _ _ _ _ _ _ _ _ _ _ (fun h => h0 ((hcond38_0 t).mp h)) ((hcond38_1 t).mpr h1) (iblk38 V c 0 t) (iblk38 V c 1 t) (iblk38 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat38 V c).leavesExact 0 t = owns (c : Thread nD τ) (ms38_0 t) fullShare ((dat38 V c).after 0 t) from by
        unfold Dat.leavesExact; rw [liveAt38_0 t], after38_0]
      rw [show (dat38 V c).leavesExact 1 t = owns (c : Thread nD τ) (ms38_1 t) fullShare ((dat38 V c).after 1 t) from by
        unfold Dat.leavesExact; rw [liveAt38_1 t], after38_1]
      rw [show (dat38 V c).leavesExact 2 t = owns (c : Thread nD τ) (ms38_2 t) fullShare ((dat38 V c).after 2 t) from by
        unfold Dat.leavesExact; rw [liveAt38_2 t], after38_2]
      rw [show (dat38 V c).leavesExact 3 t = owns (c : Thread nD τ) (ms38_3 t) fullShare ((dat38 V c).after 3 t) from by
        unfold Dat.leavesExact; rw [liveAt38_3 t], after38_3]
      rw [show (dat38 V c).leavesExact 4 t = owns (c : Thread nD τ) (ms38_4 t) fullShare ((dat38 V c).after 4 t) from by
        unfold Dat.leavesExact; rw [liveAt38_4 t], after38_4]
      rw [Dat.leavesExact_idle (dat38 V c) 5 t (idleAt38_5_B t (fun h => h0 ((hcond38_0 t).mp h)) (fun h => h1 ((hcond38_1 t).mp h))) (noFlush38_5_B t (fun h => h0 ((hcond38_0 t).mp h)) (fun h => h1 ((hcond38_1 t).mp h)))]
      rw [outsAt38_B V c t h0 h1]
      unfold out14_B_3 out14_B_4 sout14_B_0; (try dsimp only)
      by_cases hz : t.val = 0
      · exfalso; omega
      · rw [PhiS38_castSucc V c t, PhiS38_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid38.coords t) _ _ _ _ _ _ _ _ _ _ _ _ _ _ (fun h => h0 ((hcond38_0 t).mp h)) (fun h => h1 ((hcond38_1 t).mp h)) (iblk38 V c 0 t) (iblk38 V c 1 t) (iblk38 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation38 (c : Dev nD) : BodyObligation (dat38 (F := F) V c) (defs₀ (F := F)) Variants.none () Set.univ := fun t => by
  rw [bigSep_W38, bigSep_W38]
  exact sound_body38 V c t

/-- What the launch hands the region is the invariant before the first point. -/
theorem hin38 (c : Dev nD) : Pipeline.ΦA spec38 c ⊢ (dat38 V c).Φ 0 := by
  rw [show (dat38 V c).Φ 0 = PhiS38 V c 0 (Nat.zero_le _) from rfl, PhiS38_zero V c 0 _ rfl]
  try exact Idealize.SL.BI.Entails.refl _

/-- After any point but the first the invariant gives it back: the scratch's named contents are forgotten. -/
theorem Phi_out38 (c : Dev nD) (t : Fin (cfg38.N + 1)) (ht : t.val ≠ 0) : (dat38 V c).Φ t ⊢ Pipeline.ΦA spec38 c := by
  rw [show (dat38 V c).Φ t = PhiS38 V c t.val (Nat.le_of_lt_succ t.isLt) from rfl, PhiS38_pos V c _ _ ht, PhiA38_eq]
  iintro ⟨⟨HS0, HR⟩, Hg⟩
  isplitl [HS0 HR]
  · isplitl [HS0]
    · iexists _; iexact HS0
    iexact HR
  iexact Hg

/-- The same after the last point. -/
theorem hout38 (c : Dev nD) : (dat38 V c).Φ (Fin.last cfg38.N) ⊢ Pipeline.ΦA spec38 c :=
  Phi_out38 V c _ (by rw [Fin.val_last]; have : cfg38.N = 25 := N_38; omega)

end Cert.Kernel.Hand

end
-- ==== Proof.KB.R39.lean ====
import proofs.«408084_j48395691492010_3_alg».proof.Proof.KB.R3

/-! Region 39: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk39 (c : Dev nD) (w : Fin cfg39.W) (t : Fin cfg39.N) : ((cfg39.win w).xblock (cfg39.grid.coords t)).Idx → Elt F (cfg39.win w).elt :=
  ((cfg39.win w).blk t).view.read (Elt F) (V c (Pipeline.arrRef spec39 w))

/-- The row-tile window (window 0, fetched at every point) holds its block when the body runs. -/
theorem before39_0_of {c : Dev nD} (dat : Dat τ (Elt F) Unit ℕ (UR sig nD τ) ℕ cfg39 c) (hA : dat.A 0 = V c (Pipeline.arrRef spec39 0))
    (hafter : ∀ t, dat.after 0 t = iblk39 V c 0 t) (t : Fin cfg39.N) (d) : dat.before 0 t d = iblk39 V c 0 t :=
  (dat.before_in_eq_fetched 0 rfl (fun _ => rfl) (fun _ _ _ => rfl) (fun t => by rw [hafter]; unfold Dat.blockOf iblk39; rw [hA]; try rfl) t d).trans
    (by unfold Dat.fetched Dat.blockOf iblk39; rw [hA]; try rfl)

/-- The mean window (window 1, one constant block fetched at the first point only) holds that block at every point. -/
theorem before39_1_of {c : Dev nD} (dat : Dat τ (Elt F) Unit ℕ (UR sig nD τ) ℕ cfg39 c) (hA : dat.A 1 = V c (Pipeline.arrRef spec39 1))
    (hafter : ∀ t, dat.after 1 t = iblk39 V c 1 t) (t : Fin cfg39.N) (d) : dat.before 1 t d = iblk39 V c 1 t :=
  (dat.before_in_eq_fetched 1 rfl (fun _ => rfl) (fun _ _ _ => rfl) (fun t => by rw [hafter]; unfold Dat.blockOf iblk39; rw [hA]; try rfl) t d).trans
    (by unfold Dat.fetched Dat.blockOf iblk39; rw [hA]; try rfl)

/-! ## The branch conditions and the idle points, over this region's grid (the same grid) -/

/-- The reset's condition holds at the first point only, -/
theorem hcond39_0 : ∀ t : Fin cfg39.N, cond3_0 (grid39.coords t) ↔ t.val = 0 := hcond3_0
/-- the final store's at the last point only. -/
theorem hcond39_1 : ∀ t : Fin cfg39.N, cond3_1 (grid39.coords t) ↔ t.val = 24 := hcond3_1

theorem liveAt39_0 : ∀ t : Fin cfg39.N, cfg39.idle 0 (grid39.coords t) = false := fun _ => rfl
theorem liveAt39_1 : ∀ t : Fin cfg39.N, cfg39.idle 1 (grid39.coords t) = false := fun _ => rfl
/-- Away from the last point the result window is idle, -/
theorem idleAt39_2 : ∀ t : Fin cfg39.N, ¬cond3_1 (grid39.coords t) → cfg39.idle 2 (grid39.coords t) = true := idleAt3_2
/-- and live at it. -/
theorem liveAt39_2 : ∀ t : Fin cfg39.N, cond3_1 (grid39.coords t) → cfg39.idle 2 (grid39.coords t) = false := liveAt3_2
/-- Away from the last point its block is not written back (the schedule's closed form). -/
theorem noFlush39_2 (t : Fin cfg39.N) (h : ¬cond3_1 (grid39.coords t)) : (cfg39.win 2).flush t = false := by
  have hN : t.val < 25 := lt_of_lt_of_eq t.isLt (show cfg39.N = 25 from N_39)
  have h24 : ¬t.val = 24 := fun e => h ((hcond39_1 t).mpr e)
  cases hf : (cfg39.win 2).flush t with
  | false => rfl
  | true => exact absurd (by have := (flush39_2 t).mp hf; omega) h24

/-! ## The memrefs the body is called with -/

noncomputable abbrev ms39_0 (t : Fin cfg39.N) : Memref sig .tc .vmem S2000x64 .f32 := win39_0.stage (cfg39.slots t 0)
abbrev hs39_0 (t : Fin cfg39.N) : (ms39_0 t).IsWhole := hstage39_0 ((cfg39.slots t 0).cast nbuf39_0)
noncomputable abbrev ms39_1 (t : Fin cfg39.N) : Memref sig .tc .vmem S1x64 .f32 := win39_1.stage (cfg39.slots t 1)
abbrev hs39_1 (t : Fin cfg39.N) : (ms39_1 t).IsWhole := hstage39_1 ((cfg39.slots t 1).cast nbuf39_1)
noncomputable abbrev ms39_2 (t : Fin cfg39.N) : Memref sig .tc .vmem S1x64 .f32 := win39_2.stage (cfg39.slots t 2)
abbrev hs39_2 (t : Fin cfg39.N) : (ms39_2 t).IsWhole := hstage39_2 ((cfg39.slots t 2).cast nbuf39_2)
/-- The accumulator: this call's own scratch buffer, whole. -/
noncomputable abbrev scM39_0 : Memref sig .tc .vmem S1x64 .f32 := Memref.whole cc39_scratch0

/-- The body the pipeline calls at point `t` is region 3's printed kernel on this region's memrefs: the two printed
    functions are the same term. -/
theorem bodyAt39_eq (t : Fin cfg39.N) :
    (bodyAt39 t : Prog (TpuEff nD τ sig (Elt F) Λ₀ .tc) PUnit)
      = cc3__var_kernel (grid39.coords t) (ms39_0 t) (hs39_0 t) (ms39_1 t) (hs39_1 t) (ms39_2 t) (hs39_2 t) scM39_0 (Memref.isWhole_whole _) := rfl

/-- The region-entry invariant with the accumulator split out of the scoped rest, as a memref owned at some contents. -/
theorem PhiA39_eq (c : Dev nD) :
    (Pipeline.ΦA spec39 c : sProp 𝕄)
      = iprop(iprop(iprop(∃ d, owns (c : Thread nD τ) scM39_0 fullShare d)
          ∗ Pipeline.scopedRestBut (Ix := Unit) (Name := ℕ) (U := UR sig nD τ) (Lvl := ℕ) (Val := Elt F) spec39 c [cc39_scratch0]) ∗ (∃ r, prngReg c r)) := by
  unfold Pipeline.ΦA; rw [scopedRest39_split]; simp only [scM39_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt39 (c : Dev nD) : (n : ℕ) → n < cfg39.N → Vec F S1x64 .f32 × Vec F S1x64 .f32
  | 0, hn => (idle3_2,
      sout3_A_0 c (grid39.coords ⟨0, hn⟩) (ms39_0 ⟨0, hn⟩) (hs39_0 ⟨0, hn⟩) (ms39_1 ⟨0, hn⟩) (hs39_1 ⟨0, hn⟩) (ms39_2 ⟨0, hn⟩) (hs39_2 ⟨0, hn⟩) scM39_0 (Memref.isWhole_whole _) ((hcond39_0 ⟨0, hn⟩).mpr rfl)
        (fun h => (fun h' : (0 : ℕ) = 24 => by omega) ((hcond39_1 ⟨0, hn⟩).mp h)) (iblk39 V c 0 ⟨0, hn⟩) (iblk39 V c 1 ⟨0, hn⟩))
  | n + 1, hn =>
    if h1 : n + 1 = 24 then
      (out3_C_2 c (grid39.coords ⟨n + 1, hn⟩) (ms39_0 ⟨n + 1, hn⟩) (hs39_0 ⟨n + 1, hn⟩) (ms39_1 ⟨n + 1, hn⟩) (hs39_1 ⟨n + 1, hn⟩) (ms39_2 ⟨n + 1, hn⟩) (hs39_2 ⟨n + 1, hn⟩) scM39_0 (Memref.isWhole_whole _) (fun h => (fun h' : n + 1 = 0 => by omega) ((hcond39_0 ⟨n + 1, hn⟩).mp h))
          ((hcond39_1 ⟨n + 1, hn⟩).mpr h1) (iblk39 V c 0 ⟨n + 1, hn⟩) (iblk39 V c 1 ⟨n + 1, hn⟩) (outsAt39 c n (Nat.lt_of_succ_lt hn)).2,
       sout3_C_0 c (grid39.coords ⟨n + 1, hn⟩) (ms39_0 ⟨n + 1, hn⟩) (hs39_0 ⟨n + 1, hn⟩) (ms39_1 ⟨n + 1, hn⟩) (hs39_1 ⟨n + 1, hn⟩) (ms39_2 ⟨n + 1, hn⟩) (hs39_2 ⟨n + 1, hn⟩) scM39_0 (Memref.isWhole_whole _) (fun h => (fun h' : n + 1 = 0 => by omega) ((hcond39_0 ⟨n + 1, hn⟩).mp h))
          ((hcond39_1 ⟨n + 1, hn⟩).mpr h1) (iblk39 V c 0 ⟨n + 1, hn⟩) (iblk39 V c 1 ⟨n + 1, hn⟩) (outsAt39 c n (Nat.lt_of_succ_lt hn)).2)
    else
      (idle3_2,
       sout3_B_0 c (grid39.coords ⟨n + 1, hn⟩) (ms39_0 ⟨n + 1, hn⟩) (hs39_0 ⟨n + 1, hn⟩) (ms39_1 ⟨n + 1, hn⟩) (hs39_1 ⟨n + 1, hn⟩) (ms39_2 ⟨n + 1, hn⟩) (hs39_2 ⟨n + 1, hn⟩) scM39_0 (Memref.isWhole_whole _) (fun h => (fun h' : n + 1 = 0 => by omega) ((hcond39_0 ⟨n + 1, hn⟩).mp h))
          (fun h => h1 ((hcond39_1 ⟨n + 1, hn⟩).mp h)) (iblk39 V c 0 ⟨n + 1, hn⟩) (iblk39 V c 1 ⟨n + 1, hn⟩) (outsAt39 c n (Nat.lt_of_succ_lt hn)).2)

theorem outsAt39_A (c : Dev nD) (t : Fin cfg39.N) (h0 : t.val = 0) (h1 : ¬t.val = 24) :
    outsAt39 V c t.val t.isLt = (idle3_2,
      sout3_A_0 c (grid39.coords t) (ms39_0 t) (hs39_0 t) (ms39_1 t) (hs39_1 t) (ms39_2 t) (hs39_2 t) scM39_0 (Memref.isWhole_whole _) ((hcond39_0 t).mpr h0) (fun h => h1 ((hcond39_1 t).mp h)) (iblk39 V c 0 t) (iblk39 V c 1 t)) := by
  obtain ⟨n, hn⟩ := t
  cases n with
  | zero => exact rfl
  | succ n => exact absurd h0 (Nat.succ_ne_zero n)

theorem outsAt39_B (c : Dev nD) (t : Fin cfg39.N) (h0 : ¬t.val = 0) (h1 : ¬t.val = 24) :
    outsAt39 V c t.val t.isLt = (idle3_2,
      sout3_B_0 c (grid39.coords t) (ms39_0 t) (hs39_0 t) (ms39_1 t) (hs39_1 t) (ms39_2 t) (hs39_2 t) scM39_0 (Memref.isWhole_whole _) (fun h => h0 ((hcond39_0 t).mp h)) (fun h => h1 ((hcond39_1 t).mp h)) (iblk39 V c 0 t) (iblk39 V c 1 t)
        (outsAt39 V c (t.val - 1) (Nat.lt_of_le_of_lt (Nat.sub_le _ _) t.isLt)).2) := by
  obtain ⟨n, hn⟩ := t
  cases n with
  | zero => exact absurd rfl h0
  | succ n => exact (dif_neg h1).trans rfl

theorem outsAt39_C (c : Dev nD) (t : Fin cfg39.N) (h0 : ¬t.val = 0) (h1 : t.val = 24) :
    outsAt39 V c t.val t.isLt =
      (out3_C_2 c (grid39.coords t) (ms39_0 t) (hs39_0 t) (ms39_1 t) (hs39_1 t) (ms39_2 t) (hs39_2 t) scM39_0 (Memref.isWhole_whole _) (fun h => h0 ((hcond39_0 t).mp h)) ((hcond39_1 t).mpr h1) (iblk39 V c 0 t) (iblk39 V c 1 t)
        (outsAt39 V c (t.val - 1) (Nat.lt_of_le_of_lt (Nat.sub_le _ _) t.isLt)).2,
       sout3_C_0 c (grid39.coords t) (ms39_0 t) (hs39_0 t) (ms39_1 t) (hs39_1 t) (ms39_2 t) (hs39_2 t) scM39_0 (Memref.isWhole_whole _) (fun h => h0 ((hcond39_0 t).mp h)) ((hcond39_1 t).mpr h1) (iblk39 V c 0 t) (iblk39 V c 1 t)
        (outsAt39 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS39 (c : Dev nD) : (n : ℕ) → n ≤ cfg39.N → sProp 𝕄
  | 0, _ => Pipeline.ΦA spec39 c
  | n + 1, hn => iprop(iprop(owns (c : Thread nD τ) scM39_0 fullShare ((outsAt39 V c n hn).2)
      ∗ Pipeline.scopedRestBut (Ix := Unit) (Name := ℕ) (U := UR sig nD τ) (Lvl := ℕ) (Val := Elt F) spec39 c [cc39_scratch0]) ∗ (∃ r, prngReg c r))

theorem PhiS39_zero (c : Dev nD) (n : ℕ) (h : n ≤ cfg39.N) (hz : n = 0) : PhiS39 V c n h = Pipeline.ΦA spec39 c := by
  subst hz; rfl

theorem PhiS39_succ (c : Dev nD) (n : ℕ) (hn : n < cfg39.N) :
    PhiS39 V c (n + 1) hn = iprop(iprop(owns (c : Thread nD τ) scM39_0 fullShare ((outsAt39 V c n hn).2)
      ∗ Pipeline.scopedRestBut (Ix := Unit) (Name := ℕ) (U := UR sig nD τ) (Lvl := ℕ) (Val := Elt F) spec39 c [cc39_scratch0]) ∗ (∃ r, prngReg c r)) := rfl

theorem PhiS39_pos (c : Dev nD) (n : ℕ) (h : n ≤ cfg39.N) (hz : n ≠ 0) :
    PhiS39 V c n h = iprop(iprop(owns (c : Thread nD τ) scM39_0 fullShare ((outsAt39 V c (n - 1) (by omega)).2)
      ∗ Pipeline.scopedRestBut (Ix := Unit) (Name := ℕ) (U := UR sig nD τ) (Lvl := ℕ) (Val := Elt F) spec39 c [cc39_scratch0]) ∗ (∃ r, prngReg c r)) := by
  cases n with
  | zero => exact absurd rfl hz
  | succ n => rfl

/-! ## The proof data -/

noncomputable def dat39 (c : Dev nD) : Dat τ (Elt F) Unit ℕ (UR sig nD τ) ℕ cfg39 c where
  A w := V c (Pipeline.arrRef spec39 w)
  after w t := match w with
    | ⟨0, _⟩ => iblk39 V c 0 t
    | ⟨1, _⟩ => iblk39 V c 1 t
    | ⟨2, _⟩ => (outsAt39 V c t.val t.isLt).1
  Φ t := PhiS39 V c t.val (Nat.le_of_lt_succ t.isLt)
  q _ := fullShare
  owed _ := 0

theorem A_eq39 (c : Dev nD) (w : Fin cfg39.W) : (dat39 V c).A w = V c (Pipeline.arrRef spec39 w) := by
  dsimp only [dat39]

theorem PhiS39_castSucc (c : Dev nD) (t : Fin cfg39.N) :
    (dat39 V c).Φ t.castSucc = PhiS39 V c t.val (Nat.le_of_lt t.isLt) := by
  dsimp only [dat39]; simp only [Fin.coe_castSucc]

theorem after39_0 (c : Dev nD) (t : Fin cfg39.N) : (dat39 V c).after 0 t = iblk39 V c 0 t := by dsimp only [dat39]
theorem after39_1 (c : Dev nD) (t : Fin cfg39.N) : (dat39 V c).after 1 t = iblk39 V c 1 t := by dsimp only [dat39]
theorem after39_2 (c : Dev nD) (t : Fin cfg39.N) : (dat39 V c).after 2 t = (outsAt39 V c t.val t.isLt).1 := by dsimp only [dat39]

theorem before39_0 (c : Dev nD) (t : Fin cfg39.N) (d) : (dat39 V c).before 0 t d = iblk39 V c 0 t :=
  before39_0_of V (dat39 V c) (A_eq39 V c 0) (after39_0 V c) t d
theorem before39_1 (c : Dev nD) (t : Fin cfg39.N) (d) : (dat39 V c).before 1 t d = iblk39 V c 1 t :=
  before39_1_of V (dat39 V c) (A_eq39 V c 1) (after39_1 V c) t d

/-! ## The body obligation -/

noncomputable def bodyPre39 (c : Dev nD) (t : Fin cfg39.N) : sProp 𝕄 :=
  iprop((dat39 V c).Φ t.castSucc ∗ (dat39 V c).owesAt () t.castSucc
    ∗ (∃ d, owns (c : Thread nD τ) (ms39_0 t) fullShare ((dat39 V c).before 0 t d))
    ∗ (∃ d, owns (c : Thread nD τ) (ms39_1 t) fullShare ((dat39 V c).before 1 t d))
    ∗ (∃ d, owns (c : Thread nD τ) (ms39_2 t) fullShare ((dat39 V c).before 2 t d)))

noncomputable def bodyPost39 (c : Dev nD) (t : Fin cfg39.N) : sProp 𝕄 :=
  iprop((dat39 V c).Φ t.succ ∗ (dat39 V c).owesAt () t.succ
    ∗ (dat39 V c).leavesExact 0 t
    ∗ (dat39 V c).leavesExact 1 t
    ∗ (dat39 V c).leavesExact 2 t)

set_option maxHeartbeats 4800000 in
/-- The body at any point, from region 3's triples on this region's memrefs. -/
theorem sound_body39 (c : Dev nD) (t : Fin cfg39.N) :
    bodyPre39 V c t ⊢ wp frame (wpE (defs₀ (F := F)) Variants.none c none) Set.univ (bodyAt39 t) (fun _ => bodyPost39 V c t) := by
  rw [bodyAt39_eq (F := F) t]
  unfold bodyPre39 bodyPost39
  simp only [before39_0, before39_1]
  rw [show (dat39 V c).owesAt () t.succ = (dat39 V c).owesAt () t.castSucc from rfl]
  rw [show (dat39 V c).Φ t.succ = PhiS39 V c (t.val + 1) t.isLt from rfl, PhiS39_succ]
  have hN : t.val < 25 := lt_of_lt_of_eq t.isLt (show cfg39.N = 25 from N_39)
  rw [show (dat39 V c).leavesExact 0 t = owns (c : Thread nD τ) (ms39_0 t) fullShare ((dat39 V c).after 0 t) from by
    unfold Dat.leavesExact; rw [liveAt39_0 t], after39_0]
  rw [show (dat39 V c).leavesExact 1 t = owns (c : Thread nD τ) (ms39_1 t) fullShare ((dat39 V c).after 1 t) from by
    unfold Dat.leavesExact; rw [liveAt39_1 t], after39_1]
  by_cases h0 : t.val = 0
  · have h1 : ¬t.val = 24 := by omega
    rw [Dat.leavesExact_idle (dat39 V c) 2 t (idleAt39_2 t (fun h => h1 ((hcond39_1 t).mp h))) (noFlush39_2 t (fun h => h1 ((hcond39_1 t).mp h)))]
    rw [outsAt39_A V c t h0 h1]
    unfold sout3_A_0; (try dsimp only)
    rw [PhiS39_castSucc V c t, PhiS39_zero V c _ _ h0, PhiA39_eq]
    iintro ⟨⟨⟨HS0, Hr⟩, Hg⟩, Ho, ⟨%d0, H0⟩, ⟨%d1, H1⟩, ⟨%d2, H2⟩⟩
    iapply ((kernelRun3_A c (grid39.coords t) _ _ _ _ _ _ _ _ ((hcond39_0 t).mpr h0) (fun h => h1 ((hcond39_1 t).mp h)) (iblk39 V c 0 t) (iblk39 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat39 V c).leavesExact 2 t = owns (c : Thread nD τ) (ms39_2 t) fullShare ((dat39 V c).after 2 t) from by
        unfold Dat.leavesExact; rw [liveAt39_2 t ((hcond39_1 t).mpr h1)], after39_2]
      rw [outsAt39_C V c t h0 h1]
      unfold out3_C_2 sout3_C_0; (try dsimp only)
      rw [PhiS39_castSucc V c t, PhiS39_pos V c _ _ h0]
      iintro ⟨⟨⟨HS0, Hr⟩, Hg⟩, Ho, ⟨%d0, H0⟩, ⟨%d1, H1⟩, ⟨%d2, H2⟩⟩
      iapply ((kernelRun3_C c (grid39.coords t) _ _ _ _ _ _ _ _ (fun h => h0 ((hcond39_0 t).mp h)) ((hcond39_1 t).mpr h1) (iblk39 V c 0 t) (iblk39 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat39 V c) 2 t (idleAt39_2 t (fun h => h1 ((hcond39_1 t).mp h))) (noFlush39_2 t (fun h => h1 ((hcond39_1 t).mp h)))]
      rw [outsAt39_B V c t h0 h1]
      unfold sout3_B_0; (try dsimp only)
      rw [PhiS39_castSucc V c t, PhiS39_pos V c _ _ h0]
      iintro ⟨⟨⟨HS0, Hr⟩, Hg⟩, Ho, ⟨%d0, H0⟩, ⟨%d1, H1⟩, ⟨%d2, H2⟩⟩
      iapply ((kernelRun3_B c (grid39.coords t) _ _ _ _ _ _ _ _ (fun h => h0 ((hcond39_0 t).mp h)) (fun h => h1 ((hcond39_1 t).mp h)) (iblk39 V c 0 t) (iblk39 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation39 (c : Dev nD) : BodyObligation (dat39 (F := F) V c) (defs₀ (F := F)) Variants.none () Set.univ := fun t => by
  rw [bigSep_W39, bigSep_W39]
  exact sound_body39 V c t

/-- What the launch hands the region is the invariant before the first point. -/
theorem hin39 (c : Dev nD) : Pipeline.ΦA spec39 c ⊢ (dat39 V c).Φ 0 := by
  rw [show (dat39 V c).Φ 0 = PhiS39 V c 0 (Nat.zero_le _) from rfl, PhiS39_zero V c 0 _ rfl]
  try exact Idealize.SL.BI.Entails.refl _

/-- After any point but the first the invariant gives the launch's back: the accumulator's named contents are forgotten. -/
theorem Phi_out39 (c : Dev nD) (t : Fin (cfg39.N + 1)) (ht : t.val ≠ 0) : (dat39 V c).Φ t ⊢ Pipeline.ΦA spec39 c := by
  rw [show (dat39 V c).Φ t = PhiS39 V c t.val (Nat.le_of_lt_succ t.isLt) from rfl, PhiS39_pos V c _ _ ht, PhiA39_eq]
  iintro ⟨⟨HS0, Hr⟩, Hg⟩
  isplitl [HS0 Hr]
  · isplitl [HS0]
    · iexists _; iexact HS0
    iexact Hr
  iexact Hg

/-- The same after the last point. -/
theorem hout39 (c : Dev nD) : (dat39 V c).Φ (Fin.last cfg39.N) ⊢ Pipeline.ΦA spec39 c :=
  Phi_out39 V c _ (by rw [Fin.val_last]; have : cfg39.N = 25 := N_39; omega)

end Cert.Kernel.Hand

end
-- ==== Proof.KB.R40.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Ring
import Idealize.ShloMosaic.Lib.Tactic

/-!
# Region 40: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region40
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk40 (c : Dev nD) (w : Fin cfg40.W) (t : Fin cfg40.N) : ((cfg40.win w).xblock (cfg40.grid.coords t)).Idx → Elt F (cfg40.win w).elt :=
  ((cfg40.win w).blk t).view.read (Elt F) (V c (Pipeline.arrRef spec40 w))

/-- The activations' staging buffer holds the block of the current point at every point: the window is fetched at
    every point, is never cut and never idle, and the body leaves the block where it found it. -/
theorem before40_0_of {c : Dev nD} (dat : Dat τ (Elt F) Unit ℕ (UR sig nD τ) ℕ cfg40 c) (hA : dat.A 0 = V c (Pipeline.arrRef spec40 0))
    (hafter : ∀ t, dat.after 0 t = iblk40 V c 0 t) (t : Fin cfg40.N) (d) : dat.before 0 t d = iblk40 V c 0 t :=
  (dat.before_in_eq_fetched 0 rfl (fun _ => rfl) (fun _ _ _ => rfl) (fun t => by rw [hafter]; unfold Dat.blockOf iblk40; rw [hA]; try rfl) t d).trans
    (by unfold Dat.fetched Dat.blockOf iblk40; rw [hA]; try rfl)

/-- The mean row's staging buffer holds its (one) block at every point: it is fetched at the first point only, its
    block index never moves afterwards, and the body leaves it in place. -/
theorem before40_1_of {c : Dev nD} (dat : Dat τ (Elt F) Unit ℕ (UR sig nD τ) ℕ cfg40 c) (hA : dat.A 1 = V c (Pipeline.arrRef spec40 1))
    (hafter : ∀ t, dat.after 1 t = iblk40 V c 1 t) (t : Fin cfg40.N) (d) : dat.before 1 t d = iblk40 V c 1 t :=
  (dat.before_in_eq_fetched 1 rfl (fun _ => rfl) (fun _ _ _ => rfl) (fun t => by rw [hafter]; unfold Dat.blockOf iblk40; rw [hA]; try rfl) t d).trans
    (by unfold Dat.fetched Dat.blockOf iblk40; rw [hA]; try rfl)

/-- The same of the variance row. -/
theorem before40_2_of {c : Dev nD} (dat : Dat τ (Elt F) Unit ℕ (UR sig nD τ) ℕ cfg40 c) (hA : dat.A 2 = V c (Pipeline.arrRef spec40 2))
    (hafter : ∀ t, dat.after 2 t = iblk40 V c 2 t) (t : Fin cfg40.N) (d) : dat.before 2 t d = iblk40 V c 2 t :=
  (dat.before_in_eq_fetched 2 rfl (fun _ => rfl) (fun _ _ _ => rfl) (fun t => by rw [hafter]; unfold Dat.blockOf iblk40; rw [hA]; try rfl) t d).trans
    (by unfold Dat.fetched Dat.blockOf iblk40; rw [hA]; try rfl)

/-- The same of the scale row. -/
theorem before40_3_of {c : Dev nD} (dat : Dat τ (Elt F) Unit ℕ (UR sig nD τ) ℕ cfg40 c) (hA : dat.A 3 = V c (Pipeline.arrRef spec40 3))
    (hafter : ∀ t, dat.after 3 t = iblk40 V c 3 t) (t : Fin cfg40.N) (d) : dat.before 3 t d = iblk40 V c 3 t :=
  (dat.before_in_eq_fetched 3 rfl (fun _ => rfl) (fun _ _ _ => rfl) (fun t => by rw [hafter]; unfold Dat.blockOf iblk40; rw [hA]; try rfl) t d).trans
    (by unfold Dat.fetched Dat.blockOf iblk40; rw [hA]; try rfl)

/-- The same of the shift row. -/
theorem before40_4_of {c : Dev nD} (dat : Dat τ (Elt F) Unit ℕ (UR sig nD τ) ℕ cfg40 c) (hA : dat.A 4 = V c (Pipeline.arrRef spec40 4))
    (hafter : ∀ t, dat.after 4 t = iblk40 V c 4 t) (t : Fin cfg40.N) (d) : dat.before 4 t d = iblk40 V c 4 t :=
  (dat.before_in_eq_fetched 4 rfl (fun _ => rfl) (fun _ _ _ => rfl) (fun t => by rw [hafter]; unfold Dat.blockOf iblk40; rw [hA]; try rfl) t d).trans
    (by unfold Dat.fetched Dat.blockOf iblk40; rw [hA]; try rfl)

/-! ## The body's accesses: each buffer is read, and the output written, whole -/

/-- The whole of a block of 2000 rows. -/
noncomputable abbrev r40_0 : Rect S2000x64 := Rect.unit (s := S2000x64) ![0, 0] S2000x64.size inb_S2000x64_S2000x64_0_0
/-- The whole of a single row. -/
noncomputable abbrev r40_1 : Rect S1x64 := Rect.unit (s := S1x64) ![0, 0] S1x64.size inb_S1x64_S1x64_0_0

/-! ## What the body leaves in the output buffer -/

/-- The output buffer after the body, from the five input blocks: its one store, whose payload is the skeleton's. -/
noncomputable def out40_5 (x0 : Vec F S2000x64 .f32) (x1 : Vec F S1x64 .f32) (x2 : Vec F S1x64 .f32) (x3 : Vec F S1x64 .f32) (x4 : Vec F S1x64 .f32) :
    Vec F S2000x64 .f32 :=
  View.canon [⟨r40_0, k40_pay1 (View.ld x0 r40_0) (View.ld x1 r40_1) (View.ld x2 r40_1) (View.ld x3 r40_1) (View.ld x4 r40_1)⟩]

/-- The one store covers the buffer. -/
theorem cover40_5 (p0 : Vec F S2000x64 .f32) (y : S2000x64.Idx) :
    ∃ pc ∈ ([⟨r40_0, p0⟩] : List (View.Piece (Elt F) S2000x64 .f32)), y ∈ pc.1.set :=
  View.cover_of_tiled [⟨r40_0, p0⟩] S2000x64.size (by rfl) y

/-! ## The body's triple -/

set_option maxHeartbeats 1000000 in
/-- The body on whole staging buffers, the five inputs' at read contents x0 … x4 and the output's at anything, runs
    to a state in which the inputs' are as they were and the output's holds out40_5 of them. (The body also loads the
    output buffer before it stores to it; the loaded value is not used.) -/
theorem sound_kernel40 (c : Dev nD) (E : Set ℕ) (i : grid40.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out40_5 x0 x1 x2 x3 x4)) -∗ K ⟨⟩))
      ⊢ wp frame (wpE (defs₀ (F := F)) Variants.none c none) E (cc40__bn_softmax_kernel i arg1 harg1 arg2 harg2 arg3 harg3 arg4 harg4 arg5 harg5 arg6 harg6) K := by
  simp only [cc40__bn_softmax_kernel_eq_skeleton]; unfold cc40__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover40_5 _)

/-! ## The pipeline's proof data -/

/-- The proof data of the region's pipeline on core c: the arrays as the region finds them; after the body at point t
    each input's buffer at its block and the output's at out40_5 of the input blocks; the invariant that of a body which
    touches nothing but its windows; nothing owed; full shares. -/
noncomputable def dat40 (c : Dev nD) : Dat τ (Elt F) Unit ℕ (UR sig nD τ) ℕ cfg40 c where
  A w := V c (Pipeline.arrRef spec40 w)
  after w t := match w with
    | ⟨0, _⟩ => iblk40 V c 0 t
    | ⟨1, _⟩ => iblk40 V c 1 t
    | ⟨2, _⟩ => iblk40 V c 2 t
    | ⟨3, _⟩ => iblk40 V c 3 t
    | ⟨4, _⟩ => iblk40 V c 4 t
    | ⟨5, _⟩ => out40_5 (iblk40 V c 0 t) (iblk40 V c 1 t) (iblk40 V c 2 t) (iblk40 V c 3 t) (iblk40 V c 4 t)
  Φ _ := Pipeline.ΦA spec40 c
  q _ := fullShare
  owed _ := 0

/-- The proof data's arrays are the region-entry contents. -/
theorem A_eq40 (c : Dev nD) (w : Fin cfg40.W) : (dat40 V c).A w = V c (Pipeline.arrRef spec40 w) := by
  dsimp only [dat40]

/-- What the body leaves, window by window. -/
theorem after40_0 (c : Dev nD) (t : Fin cfg40.N) : (dat40 V c).after 0 t = iblk40 V c 0 t := by dsimp only [dat40]
theorem after40_1 (c : Dev nD) (t : Fin cfg40.N) : (dat40 V c).after 1 t = iblk40 V c 1 t := by dsimp only [dat40]
theorem after40_2 (c : Dev nD) (t : Fin cfg40.N) : (dat40 V c).after 2 t = iblk40 V c 2 t := by dsimp only [dat40]
theorem after40_3 (c : Dev nD) (t : Fin cfg40.N) : (dat40 V c).after 3 t = iblk40 V c 3 t := by dsimp only [dat40]
theorem after40_4 (c : Dev nD) (t : Fin cfg40.N) : (dat40 V c).after 4 t = iblk40 V c 4 t := by dsimp only [dat40]
theorem after40_5 (c : Dev nD) (t : Fin cfg40.N) :
    (dat40 V c).after 5 t = out40_5 (iblk40 V c 0 t) (iblk40 V c 1 t) (iblk40 V c 2 t) (iblk40 V c 3 t) (iblk40 V c 4 t) := by dsimp only [dat40]

/-- Each input's current staging buffer holds its block at every point, fetched there or not. -/
theorem before40_0 (c : Dev nD) (t : Fin cfg40.N) (d) : (dat40 V c).before 0 t d = iblk40 V c 0 t :=
  before40_0_of V (dat40 V c) (A_eq40 V c 0) (after40_0 V c) t d
theorem before40_1 (c : Dev nD) (t : Fin cfg40.N) (d) : (dat40 V c).before 1 t d = iblk40 V c 1 t :=
  before40_1_of V (dat40 V c) (A_eq40 V c 1) (after40_1 V c) t d
theorem before40_2 (c : Dev nD) (t : Fin cfg40.N) (d) : (dat40 V c).before 2 t d = iblk40 V c 2 t :=
  before40_2_of V (dat40 V c) (A_eq40 V c 2) (after40_2 V c) t d
theorem before40_3 (c : Dev nD) (t : Fin cfg40.N) (d) : (dat40 V c).before 3 t d = iblk40 V c 3 t :=
  before40_3_of V (dat40 V c) (A_eq40 V c 3) (after40_3 V c) t d
theorem before40_4 (c : Dev nD) (t : Fin cfg40.N) (d) : (dat40 V c).before 4 t d = iblk40 V c 4 t :=
  before40_4_of V (dat40 V c) (A_eq40 V c 4) (after40_4 V c) t d

/-! ## The body obligation, at a generic point -/

/-- What the body is called with at point t, the windows one by one, -/
noncomputable def bodyPre40 (c : Dev nD) (t : Fin cfg40.N) : sProp 𝕄 :=
  iprop((dat40 V c).Φ t.castSucc ∗ (dat40 V c).owesAt () t.castSucc
    ∗ (∃ d, owns (c : Thread nD τ) (st40_0 t) fullShare ((dat40 V c).before 0 t d))
    ∗ (∃ d, owns (c : Thread nD τ) (st40_1 t) fullShare ((dat40 V c).before 1 t d))
    ∗ (∃ d, owns (c : Thread nD τ) (st40_2 t) fullShare ((dat40 V c).before 2 t d))
    ∗ (∃ d, owns (c : Thread nD τ) (st40_3 t) fullShare ((dat40 V c).before 3 t d))
    ∗ (∃ d, owns (c : Thread nD τ) (st40_4 t) fullShare ((dat40 V c).before 4 t d))
    ∗ (∃ d, owns (c : Thread nD τ) (st40_5 t) fullShare ((dat40 V c).before 5 t d)))

/-- and what it returns. -/
noncomputable def bodyPost40 (c : Dev nD) (t : Fin cfg40.N) : sProp 𝕄 :=
  iprop((dat40 V c).Φ t.succ ∗ (dat40 V c).owesAt () t.succ
    ∗ owns (c : Thread nD τ) (st40_0 t) fullShare ((dat40 V c).after 0 t)
    ∗ owns (c : Thread nD τ) (st40_1 t) fullShare ((dat40 V c).after 1 t)
    ∗ owns (c : Thread nD τ) (st40_2 t) fullShare ((dat40 V c).after 2 t)
    ∗ owns (c : Thread nD τ) (st40_3 t) fullShare ((dat40 V c).after 3 t)
    ∗ owns (c : Thread nD τ) (st40_4 t) fullShare ((dat40 V c).after 4 t)
    ∗ owns (c : Thread nD τ) (st40_5 t) fullShare ((dat40 V c).after 5 t))

/-- The body at any point: the inputs' buffers hold their blocks, so the body's triple applies; the invariant and
    what the core owes pass through unread. -/
theorem sound_body40 (c : Dev nD) (t : Fin cfg40.N) :
    bodyPre40 V c t ⊢ wp frame (wpE (defs₀ (F := F)) Variants.none c none) Set.univ (bodyAt40 t) (fun _ => bodyPost40 V c t) := by
  unfold bodyPre40 bodyPost40 bodyAt40
  simp only [before40_0, before40_1, before40_2, before40_3, before40_4]
  rw [show (dat40 V c).Φ t.succ = (dat40 V c).Φ t.castSucc from rfl,
    show (dat40 V c).owesAt () t.succ = (dat40 V c).owesAt () t.castSucc from rfl,
    after40_0, after40_1, after40_2, after40_3, after40_4, after40_5]
  iintro ⟨HΦ, Ho, ⟨%d0, H0⟩, ⟨%d1, H1⟩, ⟨%d2, H2⟩, ⟨%d3, H3⟩, ⟨%d4, H4⟩, ⟨%d5, H5⟩⟩
  iapply (sound_kernel40 c Set.univ (grid40.coords t) _ _ _ _ _ _ _ _ _ _ _ _
    (iblk40 V c 0 t) (iblk40 V c 1 t) (iblk40 V c 2 t) (iblk40 V c 3 t) (iblk40 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation40 (c : Dev nD) : BodyObligation (dat40 (F := F) V c) (defs₀ (F := F)) Variants.none () Set.univ := fun t => by
  rw [bigSep_W40, bigSep_W40]
  exact sound_body40 V c t

end Region40

end Cert.Kernel.Hand

end
-- ==== Proof.KB.R41.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.Regions
import Idealize.ShloMosaic.Lib.Tactic

/-! # Region 41: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region41
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk41 (c : Dev nD) (w : Fin cfg41.W) (t : Fin cfg41.N) : ((cfg41.win w).xblock (cfg41.grid.coords t)).Idx → Elt F (cfg41.win w).elt :=
  ((cfg41.win w).blk t).view.read (Elt F) (V c (Pipeline.arrRef spec41 w))

/-- The rows of X: the staging buffer the body is handed holds the block of the point, whether the
    point fetched it or not (an unfetched input has not moved its block index). -/
theorem before41_0_of {c : Dev nD} (dat : Dat τ (Elt F) Unit ℕ (UR sig nD τ) ℕ cfg41 c) (hA : dat.A 0 = V c (Pipeline.arrRef spec41 0))
    (hafter : ∀ t, dat.after 0 t = iblk41 V c 0 t) (t : Fin cfg41.N) (d) : dat.before 0 t d = iblk41 V c 0 t :=
  (dat.before_in_eq_fetched 0 rfl (fun _ => rfl) (fun _ _ _ => rfl) (fun t => by rw [hafter]; unfold Dat.blockOf iblk41; rw [hA]; try rfl) t d).trans
    (by unfold Dat.fetched Dat.blockOf iblk41; rw [hA]; try rfl)

/-- The matrix W: fetched at the first point only, and found in place at every later one. -/
theorem before41_1_of {c : Dev nD} (dat : Dat τ (Elt F) Unit ℕ (UR sig nD τ) ℕ cfg41 c) (hA : dat.A 1 = V c (Pipeline.arrRef spec41 1))
    (hafter : ∀ t, dat.after 1 t = iblk41 V c 1 t) (t : Fin cfg41.N) (d) : dat.before 1 t d = iblk41 V c 1 t :=
  (dat.before_in_eq_fetched 1 rfl (fun _ => rfl) (fun _ _ _ => rfl) (fun t => by rw [hafter]; unfold Dat.blockOf iblk41; rw [hA]; try rfl) t d).trans
    (by unfold Dat.fetched Dat.blockOf iblk41; rw [hA]; try rfl)

/-! ## The body's accesses: each buffer whole -/

noncomputable abbrev r41_0 : Rect S2000x64 := Rect.unit (s := S2000x64) ![0, 0] S2000x64.size inb_S2000x64_S2000x64_0_0
noncomputable abbrev r41_1 : Rect S64x64 := Rect.unit (s := S64x64) ![0, 0] S64x64.size inb_S64x64_S64x64_0_0
noncomputable abbrev r41_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out41_2 (x0 : Vec F S2000x64 .f32) (x1 : Vec F S64x64 .f32) : Vec F S2000x64 .f32 :=
  View.canon [⟨r41_2, k41_pay1 (View.ld x0 r41_0) (View.ld x1 r41_1)⟩]

/-- The store's rectangle is the whole buffer, so it covers every index. -/
theorem cover41_2 (p0 : Vec F S2000x64 .f32) (y : S2000x64.Idx) :
    ∃ pc ∈ ([⟨r41_2, p0⟩] : List (View.Piece (Elt F) S2000x64 .f32)), y ∈ pc.1.set :=
  View.cover_of_tiled [⟨r41_2, p0⟩] S2000x64.size (by rfl) y

/-! ## The body's triple -/

set_option maxHeartbeats 1000000 in
/-- On whole staging memrefs, the inputs' holding x0 and x1 and the output's holding anything, the body
    runs to a state where the inputs' are unchanged and the output's holds out41_2 x0 x1. The body also reads
    the output buffer before storing into it; the value read is not used. -/
theorem sound_kernel41 (c : Dev nD) (E : Set ℕ) (i : grid41.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out41_2 x0 x1)) -∗ K ⟨⟩))
      ⊢ wp frame (wpE (defs₀ (F := F)) Variants.none c none) E (cc41__linear_kernel i arg1 harg1 arg2 harg2 arg3 harg3) K := by
  simp only [cc41__linear_kernel_eq_skeleton]; unfold cc41__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover41_2 _)

/-! ## The pipeline's proof data -/

/-- The arrays as the region finds them; after the body at point t the inputs' buffers at their blocks
    and the output's at the product block; the invariant is the scoped rest and the generator register,
    untouched; nothing owed; full shares. -/
noncomputable def dat41 (c : Dev nD) : Dat τ (Elt F) Unit ℕ (UR sig nD τ) ℕ cfg41 c where
  A w := V c (Pipeline.arrRef spec41 w)
  after w t := match w with
    | ⟨0, _⟩ => iblk41 V c 0 t
    | ⟨1, _⟩ => iblk41 V c 1 t
    | ⟨2, _⟩ => out41_2 (iblk41 V c 0 t) (iblk41 V c 1 t)
  Φ _ := Pipeline.ΦA spec41 c
  q _ := fullShare
  owed _ := 0

theorem A_eq41 (c : Dev nD) (w : Fin cfg41.W) : (dat41 V c).A w = V c (Pipeline.arrRef spec41 w) := by
  dsimp only [dat41]

theorem after41_0 (c : Dev nD) (t : Fin cfg41.N) : (dat41 V c).after 0 t = iblk41 V c 0 t := by dsimp only [dat41]
theorem after41_1 (c : Dev nD) (t : Fin cfg41.N) : (dat41 V c).after 1 t = iblk41 V c 1 t := by dsimp only [dat41]
theorem after41_2 (c : Dev nD) (t : Fin cfg41.N) : (dat41 V c).after 2 t = out41_2 (iblk41 V c 0 t) (iblk41 V c 1 t) := by dsimp only [dat41]

theorem before41_0 (c : Dev nD) (t : Fin cfg41.N) (d) : (dat41 V c).before 0 t d = iblk41 V c 0 t :=
  before41_0_of V (dat41 V c) (A_eq41 V c 0) (after41_0 V c) t d
theorem before41_1 (c : Dev nD) (t : Fin cfg41.N) (d) : (dat41 V c).before 1 t d = iblk41 V c 1 t :=
  before41_1_of V (dat41 V c) (A_eq41 V c 1) (after41_1 V c) t d

/-! ## The body obligation, at a generic point -/

/-- What the body is called with at point t, window by window, -/
noncomputable def bodyPre41 (c : Dev nD) (t : Fin cfg41.N) : sProp 𝕄 :=
  iprop((dat41 V c).Φ t.castSucc ∗ (dat41 V c).owesAt () t.castSucc
    ∗ (∃ d, owns (c : Thread nD τ) (st41_0 t) fullShare ((dat41 V c).before 0 t d))
    ∗ (∃ d, owns (c : Thread nD τ) (st41_1 t) fullShare ((dat41 V c).before 1 t d))
    ∗ (∃ d, owns (c : Thread nD τ) (st41_2 t) fullShare ((dat41 V c).before 2 t d)))

/-- and what it returns. -/
noncomputable def bodyPost41 (c : Dev nD) (t : Fin cfg41.N) : sProp 𝕄 :=
  iprop((dat41 V c).Φ t.succ ∗ (dat41 V c).owesAt () t.succ
    ∗ owns (c : Thread nD τ) (st41_0 t) fullShare ((dat41 V c).after 0 t)
    ∗ owns (c : Thread nD τ) (st41_1 t) fullShare ((dat41 V c).after 1 t)
    ∗ owns (c : Thread nD τ) (st41_2 t) fullShare ((dat41 V c).after 2 t))

/-- The inputs' memrefs hold their blocks, so the body's triple applies; the invariant and what the core
    owes pass through unread. -/
theorem sound_body41 (c : Dev nD) (t : Fin cfg41.N) :
    bodyPre41 V c t ⊢ wp frame (wpE (defs₀ (F := F)) Variants.none c none) Set.univ (bodyAt41 t) (fun _ => bodyPost41 V c t) := by
  unfold bodyPre41 bodyPost41 bodyAt41
  simp only [before41_0, before41_1]
  rw [show (dat41 V c).Φ t.succ = (dat41 V c).Φ t.castSucc from rfl,
    show (dat41 V c).owesAt () t.succ = (dat41 V c).owesAt () t.castSucc from rfl,
    after41_0, after41_1, after41_2]
  iintro ⟨HΦ, Ho, ⟨%d0, H0⟩, ⟨%d1, H1⟩, ⟨%d2, H2⟩⟩
  iapply (sound_kernel41 c Set.univ (grid41.coords t) _ _ _ _ _ _ (iblk41 V c 0 t) (iblk41 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation41 (c : Dev nD) : BodyObligation (dat41 (F := F) V c) (defs₀ (F := F)) Variants.none () Set.univ := fun t => by
  rw [bigSep_W41, bigSep_W41]
  exact sound_body41 V c t

end Region41

end Cert.Kernel.Hand

end
-- ==== Proof.KB.R42.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.R14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The kernel is region 14's

The two regions' printed kernel functions are the same function of the grid coordinate and the memrefs (the same
text over the same shapes; the grids and the last-point conditions are the same literals), so region 14's runs of the
body, its covers and its per-case contents — all stated over abstract coordinates and memrefs — serve this region. -/

theorem cc42_kernel_eq : cc42_kernel (F := F) = cc14_kernel (F := F) := rfl

/-! ## The windows' blocks -/

/-- Window `w`'s block at point `t`, read off its array as the region finds it (`V`). -/
noncomputable def iblk42 (c : Dev nD) (w : Fin cfg42.W) (t : Fin cfg42.N) : ((cfg42.win w).xblock (cfg42.grid.coords t)).Idx → Elt F (cfg42.win w).elt :=
  ((cfg42.win w).blk t).view.read (Elt F) (V c (Pipeline.arrRef spec42 w))

/-- Input window 0's current staging buffer holds its block at every point, for any proof data whose array is
    `V`'s and whose body leaves the block in place: the window is uncut and never idle. -/
theorem before42_0_of {c : Dev nD} (dat : Dat τ (Elt F) Unit ℕ (UR sig nD τ) ℕ cfg42 c) (hA : dat.A 0 = V c (Pipeline.arrRef spec42 0))
    (hafter : ∀ t, dat.after 0 t = iblk42 V c 0 t) (t : Fin cfg42.N) (d) : dat.before 0 t d = iblk42 V c 0 t :=
  (dat.before_in_eq_fetched 0 rfl (fun _ => rfl) (fun _ _ _ => rfl) (fun t => by rw [hafter]; unfold Dat.blockOf iblk42; rw [hA]; try rfl) t d).trans
    (by unfold Dat.fetched Dat.blockOf iblk42; rw [hA]; try rfl)

/-- Input window 1 likewise: fetched at the first point only, its block index never moves, so the buffer holds
    the block at every point. -/
theorem before42_1_of {c : Dev nD} (dat : Dat τ (Elt F) Unit ℕ (UR sig nD τ) ℕ cfg42 c) (hA : dat.A 1 = V c (Pipeline.arrRef spec42 1))
    (hafter : ∀ t, dat.after 1 t = iblk42 V c 1 t) (t : Fin cfg42.N) (d) : dat.before 1 t d = iblk42 V c 1 t :=
  (dat.before_in_eq_fetched 1 rfl (fun _ => rfl) (fun _ _ _ => rfl) (fun t => by rw [hafter]; unfold Dat.blockOf iblk42; rw [hA]; try rfl) t d).trans
    (by unfold Dat.fetched Dat.blockOf iblk42; rw [hA]; try rfl)

/-- Input window 2 likewise. -/
theorem before42_2_of {c : Dev nD} (dat : Dat τ (Elt F) Unit ℕ (UR sig nD τ) ℕ cfg42 c) (hA : dat.A 2 = V c (Pipeline.arrRef spec42 2))
    (hafter : ∀ t, dat.after 2 t = iblk42 V c 2 t) (t : Fin cfg42.N) (d) : dat.before 2 t d = iblk42 V c 2 t :=
  (dat.before_in_eq_fetched 2 rfl (fun _ => rfl) (fun _ _ _ => rfl) (fun t => by rw [hafter]; unfold Dat.blockOf iblk42; rw [hA]; try rfl) t d).trans
    (by unfold Dat.fetched Dat.blockOf iblk42; rw [hA]; try rfl)

/-! ## The body's two conditions on the grid coordinate -/

/-- It holds at the first point only. -/
theorem hcond42_0 : ∀ t : Fin cfg42.N, cond14_0 (grid42.coords t) ↔ t.val % 25 = 0 :=
  (by decide +kernel : ∀ t : Fin grid42.N, cond14_0 (grid42.coords t) ↔ t.val % 25 = 0)

/-- It holds at the last point only. -/
theorem hcond42_1 : ∀ t : Fin cfg42.N, cond14_1 (grid42.coords t) ↔ t.val % 25 = 24 :=
  (by decide +kernel : ∀ t : Fin grid42.N, cond14_1 (grid42.coords t) ↔ t.val % 25 = 24)

/-! ## Where the windows are idle -/

theorem liveAt42_0 : ∀ t : Fin cfg42.N, cfg42.idle 0 (grid42.coords t) = false := by decide +kernel
theorem liveAt42_1 : ∀ t : Fin cfg42.N, cfg42.idle 1 (grid42.coords t) = false := by decide +kernel
theorem liveAt42_2 : ∀ t : Fin cfg42.N, cfg42.idle 2 (grid42.coords t) = false := by decide +kernel
theorem liveAt42_3 : ∀ t : Fin cfg42.N, cfg42.idle 3 (grid42.coords t) = false := by decide +kernel
theorem liveAt42_4 : ∀ t : Fin cfg42.N, cfg42.idle 4 (grid42.coords t) = false := by decide +kernel
/-- At the first point the body stores nothing into output 5: the window is idle there and not written back. -/
theorem idleAt42_5_A : ∀ t : Fin cfg42.N, cond14_0 (grid42.coords t) → ¬cond14_1 (grid42.coords t) → cfg42.idle 5 (grid42.coords t) = true := by decide +kernel
theorem noFlush42_5_A : ∀ t : Fin cfg42.N, cond14_0 (grid42.coords t) → ¬cond14_1 (grid42.coords t) → (cfg42.win 5).flush t = false := by decide +kernel
/-- Nor at the middle points. -/
theorem idleAt42_5_B : ∀ t : Fin cfg42.N, ¬cond14_0 (grid42.coords t) → ¬cond14_1 (grid42.coords t) → cfg42.idle 5 (grid42.coords t) = true := by decide +kernel
theorem noFlush42_5_B : ∀ t : Fin cfg42.N, ¬cond14_0 (grid42.coords t) → ¬cond14_1 (grid42.coords t) → (cfg42.win 5).flush t = false := by decide +kernel
/-- At the last point it stores the accumulated sums there: the window is live. -/
theorem liveAt42_5_C : ∀ t : Fin cfg42.N, ¬cond14_0 (grid42.coords t) → cond14_1 (grid42.coords t) → cfg42.idle 5 (grid42.coords t) = false := by decide +kernel

/-! ## The memrefs the body is called with -/

/-- Each window's current staging memref at point `t`, as the pipeline passes it, and its wholeness. -/
noncomputable abbrev ms42_0 (t : Fin cfg42.N) : Memref sig .tc .vmem S2000x64 .f32 := win42_0.stage (cfg42.slots t 0)
abbrev hs42_0 (t : Fin cfg42.N) : (ms42_0 t).IsWhole := hstage42_0 ((cfg42.slots t 0).cast nbuf42_0)
noncomputable abbrev ms42_1 (t : Fin cfg42.N) : Memref sig .tc .vmem S1x64 .f32 := win42_1.stage (cfg42.slots t 1)
abbrev hs42_1 (t : Fin cfg42.N) : (ms42_1 t).IsWhole := hstage42_1 ((cfg42.slots t 1).cast nbuf42_1)
noncomputable abbrev ms42_2 (t : Fin cfg42.N) : Memref sig .tc .vmem S2000x64 .f32 := win42_2.stage (cfg42.slots t 2)
abbrev hs42_2 (t : Fin cfg42.N) : (ms42_2 t).IsWhole := hstage42_2 ((cfg42.slots t 2).cast nbuf42_2)
noncomputable abbrev ms42_3 (t : Fin cfg42.N) : Memref sig .tc .vmem S2000x64 .f32 := win42_3.stage (cfg42.slots t 3)
abbrev hs42_3 (t : Fin cfg42.N) : (ms42_3 t).IsWhole := hstage42_3 ((cfg42.slots t 3).cast nbuf42_3)
noncomputable abbrev ms42_4 (t : Fin cfg42.N) : Memref sig .tc .vmem S2000x64 .f32 := win42_4.stage (cfg42.slots t 4)
abbrev hs42_4 (t : Fin cfg42.N) : (ms42_4 t).IsWhole := hstage42_4 ((cfg42.slots t 4).cast nbuf42_4)
noncomputable abbrev ms42_5 (t : Fin cfg42.N) : Memref sig .tc .vmem S1x64 .f32 := win42_5.stage (cfg42.slots t 5)
abbrev hs42_5 (t : Fin cfg42.N) : (ms42_5 t).IsWhole := hstage42_5 ((cfg42.slots t 5).cast nbuf42_5)
/-- The scratch operand: a whole scoped buffer of the kernel's own, in which the column sums accumulate. -/
noncomputable abbrev scM42_0 : Memref sig .tc .vmem S1x64 .f32 := Memref.whole cc42_scratch0

/-- The other scoped buffers (every other call's staging buffers and scratch), unopened. -/
noncomputable abbrev restBut42 (c : Dev nD) : sProp 𝕄 :=
  Pipeline.scopedRestBut (Ix := Unit) (Name := ℕ) (U := UR sig nD τ) (Lvl := ℕ) (Val := Elt F) spec42 c [cc42_scratch0]

/-- The region's invariant as the launch hands it over, with the scratch operand split out as a memref owned at
    some contents: what the body obligation hands the run and takes back. -/
theorem PhiA42_eq (c : Dev nD) :
    (Pipeline.ΦA spec42 c : sProp 𝕄)
      = iprop(iprop(iprop((∃ d, owns (c : Thread nD τ) scM42_0 fullShare d)) ∗ restBut42 (F := F) c) ∗ (∃ r, prngReg c r)) := by
  unfold Pipeline.ΦA; rw [scopedRest42_split]; simp only [scM42_0, owns_whole]; try rfl

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt42 (c : Dev nD) : (n : ℕ) → n < cfg42.N → Vec F S2000x64 .f32 × Vec F S2000x64 .f32 × Vec F S1x64 .f32 × Vec F S1x64 .f32
  | 0, hn => (out14_A_3 c (grid42.coords ⟨0, hn⟩) (ms42_0 ⟨0, hn⟩) (hs42_0 ⟨0, hn⟩) (ms42_1 ⟨0, hn⟩) (hs42_1 ⟨0, hn⟩) (ms42_2 ⟨0, hn⟩) (hs42_2 ⟨0, hn⟩) (ms42_3 ⟨0, hn⟩) (hs42_3 ⟨0, hn⟩) (ms42_4 ⟨0, hn⟩) (hs42_4 ⟨0, hn⟩) (ms42_5 ⟨0, hn⟩) (hs42_5 ⟨0, hn⟩) scM42_0 (Memref.isWhole_whole _) ((hcond42_0 ⟨0, hn⟩).mpr (Nat.zero_mod _)) (fun h => (fun h => by (try dsimp only at h); omega) ((hcond42_1 ⟨0, hn⟩).mp h)) (iblk42 V c 0 ⟨0, hn⟩) (iblk42 V c 1 ⟨0, hn⟩) (iblk42 V c 2 ⟨0, hn⟩), out14_A_4 c (grid42.coords ⟨0, hn⟩) (ms42_0 ⟨0, hn⟩) (hs42_0 ⟨0, hn⟩) (ms42_1 ⟨0, hn⟩) (hs42_1 ⟨0, hn⟩) (ms42_2 ⟨0, hn⟩) (hs42_2 ⟨0, hn⟩) (ms42_3 ⟨0, hn⟩) (hs42_3 ⟨0, hn⟩) (ms42_4 ⟨0, hn⟩) (hs42_4 ⟨0, hn⟩) (ms42_5 ⟨0, hn⟩) (hs42_5 ⟨0, hn⟩) scM42_0 (Memref.isWhole_whole _) ((hcond42_0 ⟨0, hn⟩).mpr (Nat.zero_mod _)) (fun h => (fun h => by (try dsimp only at h); omega) ((hcond42_1 ⟨0, hn⟩).mp h)) (iblk42 V c 0 ⟨0, hn⟩) (iblk42 V c 1 ⟨0, hn⟩) (iblk42 V c 2 ⟨0, hn⟩), out14_A_5 c (grid42.coords ⟨0, hn⟩) (ms42_0 ⟨0, hn⟩) (hs42_0 ⟨0, hn⟩) (ms42_1 ⟨0, hn⟩) (hs42_1 ⟨0, hn⟩) (ms42_2 ⟨0, hn⟩) (hs42_2 ⟨0, hn⟩) (ms42_3 ⟨0, hn⟩) (hs42_3 ⟨0, hn⟩) (ms42_4 ⟨0, hn⟩) (hs42_4 ⟨0, hn⟩) (ms42_5 ⟨0, hn⟩) (hs42_5 ⟨0, hn⟩) scM42_0 (Memref.isWhole_whole _) ((hcond42_0 ⟨0, hn⟩).mpr (Nat.zero_mod _)) (fun h => (fun h => by (try dsimp only at h); omega) ((hcond42_1 ⟨0, hn⟩).mp h)) (iblk42 V c 0 ⟨0, hn⟩) (iblk42 V c 1 ⟨0, hn⟩) (iblk42 V c 2 ⟨0, hn⟩), sout14_A_0 c (grid42.coords ⟨0, hn⟩) (ms42_0 ⟨0, hn⟩) (hs42_0 ⟨0, hn⟩) (ms42_1 ⟨0, hn⟩) (hs42_1 ⟨0, hn⟩) (ms42_2 ⟨0, hn⟩) (hs42_2 ⟨0, hn⟩) (ms42_3 ⟨0, hn⟩) (hs42_3 ⟨0, hn⟩) (ms42_4 ⟨0, hn⟩) (hs42_4 ⟨0, hn⟩) (ms42_5 ⟨0, hn⟩) (hs42_5 ⟨0, hn⟩) scM42_0 (Memref.isWhole_whole _) ((hcond42_0 ⟨0, hn⟩).mpr (Nat.zero_mod _)) (fun h => (fun h => by (try dsimp only at h); omega) ((hcond42_1 ⟨0, hn⟩).mp h)) (iblk42 V c 0 ⟨0, hn⟩) (iblk42 V c 1 ⟨0, hn⟩) (iblk42 V c 2 ⟨0, hn⟩))
  | n + 1, hn =>
    if h0 : (n + 1) % 25 = 0 then
      if h1 : (n + 1) % 25 = 24 then
        False.elim (by omega)
      else
        (out14_A_3 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) ((hcond42_0 ⟨n + 1, hn⟩).mpr h0) (fun h => h1 ((hcond42_1 ⟨n + 1, hn⟩).mp h)) (iblk42 V c 0 ⟨n + 1, hn⟩) (iblk42 V c 1 ⟨n + 1, hn⟩) (iblk42 V c 2 ⟨n + 1, hn⟩), out14_A_4 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) ((hcond42_0 ⟨n + 1, hn⟩).mpr h0) (fun h => h1 ((hcond42_1 ⟨n + 1, hn⟩).mp h)) (iblk42 V c 0 ⟨n + 1, hn⟩) (iblk42 V c 1 ⟨n + 1, hn⟩) (iblk42 V c 2 ⟨n + 1, hn⟩), out14_A_5 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) ((hcond42_0 ⟨n + 1, hn⟩).mpr h0) (fun h => h1 ((hcond42_1 ⟨n + 1, hn⟩).mp h)) (iblk42 V c 0 ⟨n + 1, hn⟩) (iblk42 V c 1 ⟨n + 1, hn⟩) (iblk42 V c 2 ⟨n + 1, hn⟩), sout14_A_0 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) ((hcond42_0 ⟨n + 1, hn⟩).mpr h0) (fun h => h1 ((hcond42_1 ⟨n + 1, hn⟩).mp h)) (iblk42 V c 0 ⟨n + 1, hn⟩) (iblk42 V c 1 ⟨n + 1, hn⟩) (iblk42 V c 2 ⟨n + 1, hn⟩))
    else
      if h1 : (n + 1) % 25 = 24 then
        (out14_C_3 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) ((hcond42_1 ⟨n + 1, hn⟩).mpr h1) (iblk42 V c 0 ⟨n + 1, hn⟩) (iblk42 V c 1 ⟨n + 1, hn⟩) (iblk42 V c 2 ⟨n + 1, hn⟩) (outsAt42 c n (Nat.lt_of_succ_lt hn)).2.2.2, out14_C_4 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) ((hcond42_1 ⟨n + 1, hn⟩).mpr h1) (iblk42 V c 0 ⟨n + 1, hn⟩) (iblk42 V c 1 ⟨n + 1, hn⟩) (iblk42 V c 2 ⟨n + 1, hn⟩) (outsAt42 c n (Nat.lt_of_succ_lt hn)).2.2.2, out14_C_5 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) ((hcond42_1 ⟨n + 1, hn⟩).mpr h1) (iblk42 V c 0 ⟨n + 1, hn⟩) (iblk42 V c 1 ⟨n + 1, hn⟩) (iblk42 V c 2 ⟨n + 1, hn⟩) (outsAt42 c n (Nat.lt_of_succ_lt hn)).2.2.2, sout14_C_0 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) ((hcond42_1 ⟨n + 1, hn⟩).mpr h1) (iblk42 V c 0 ⟨n + 1, hn⟩) (iblk42 V c 1 ⟨n + 1, hn⟩) (iblk42 V c 2 ⟨n + 1, hn⟩) (outsAt42 c n (Nat.lt_of_succ_lt hn)).2.2.2)
      else
        (out14_B_3 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) (fun h => h1 ((hcond42_1 ⟨n + 1, hn⟩).mp h)) (iblk42 V c 0 ⟨n + 1, hn⟩) (iblk42 V c 1 ⟨n + 1, hn⟩) (iblk42 V c 2 ⟨n + 1, hn⟩) (outsAt42 c n (Nat.lt_of_succ_lt hn)).2.2.2, out14_B_4 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) (fun h => h1 ((hcond42_1 ⟨n + 1, hn⟩).mp h)) (iblk42 V c 0 ⟨n + 1, hn⟩) (iblk42 V c 1 ⟨n + 1, hn⟩) (iblk42 V c 2 ⟨n + 1, hn⟩) (outsAt42 c n (Nat.lt_of_succ_lt hn)).2.2.2, out14_B_5 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) (fun h => h1 ((hcond42_1 ⟨n + 1, hn⟩).mp h)) (iblk42 V c 0 ⟨n + 1, hn⟩) (iblk42 V c 1 ⟨n + 1, hn⟩) (iblk42 V c 2 ⟨n + 1, hn⟩) (outsAt42 c n (Nat.lt_of_succ_lt hn)).2.2.2, sout14_B_0 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) (fun h => h1 ((hcond42_1 ⟨n + 1, hn⟩).mp h)) (iblk42 V c 0 ⟨n + 1, hn⟩) (iblk42 V c 1 ⟨n + 1, hn⟩) (iblk42 V c 2 ⟨n + 1, hn⟩) (outsAt42 c n (Nat.lt_of_succ_lt hn)).2.2.2)

/-- `outsAt42` at the first point: case A's contents. -/
theorem outsAt42_A (c : Dev nD) (t : Fin cfg42.N) (h0 : t.val % 25 = 0) (h1 : ¬t.val % 25 = 24) :
    outsAt42 V c t.val t.isLt = (out14_A_3 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) ((hcond42_0 t).mpr h0) (fun h => h1 ((hcond42_1 t).mp h)) (iblk42 V c 0 t) (iblk42 V c 1 t) (iblk42 V c 2 t), out14_A_4 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) ((hcond42_0 t).mpr h0) (fun h => h1 ((hcond42_1 t).mp h)) (iblk42 V c 0 t) (iblk42 V c 1 t) (iblk42 V c 2 t), out14_A_5 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) ((hcond42_0 t).mpr h0) (fun h => h1 ((hcond42_1 t).mp h)) (iblk42 V c 0 t) (iblk42 V c 1 t) (iblk42 V c 2 t), sout14_A_0 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) ((hcond42_0 t).mpr h0) (fun h => h1 ((hcond42_1 t).mp h)) (iblk42 V c 0 t) (iblk42 V c 1 t) (iblk42 V c 2 t)) := by
  obtain ⟨n, hn⟩ := t
  cases n with
  | zero => exact rfl
  | succ n => exact (dif_pos h0).trans ((dif_neg h1).trans rfl)

/-- `outsAt42` at a middle point: case B's contents, over what the point before left in the scratch. -/
theorem outsAt42_B (c : Dev nD) (t : Fin cfg42.N) (h0 : ¬t.val % 25 = 0) (h1 : ¬t.val % 25 = 24) :
    outsAt42 V c t.val t.isLt = (out14_B_3 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) (fun h => h1 ((hcond42_1 t).mp h)) (iblk42 V c 0 t) (iblk42 V c 1 t) (iblk42 V c 2 t) (outsAt42 V c (t.val - 1) (Nat.lt_of_le_of_lt (Nat.sub_le _ _) t.isLt)).2.2.2, out14_B_4 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) (fun h => h1 ((hcond42_1 t).mp h)) (iblk42 V c 0 t) (iblk42 V c 1 t) (iblk42 V c 2 t) (outsAt42 V c (t.val - 1) (Nat.lt_of_le_of_lt (Nat.sub_le _ _) t.isLt)).2.2.2, out14_B_5 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) (fun h => h1 ((hcond42_1 t).mp h)) (iblk42 V c 0 t) (iblk42 V c 1 t) (iblk42 V c 2 t) (outsAt42 V c (t.val - 1) (Nat.lt_of_le_of_lt (Nat.sub_le _ _) t.isLt)).2.2.2, sout14_B_0 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) (fun h => h1 ((hcond42_1 t).mp h)) (iblk42 V c 0 t) (iblk42 V c 1 t) (iblk42 V c 2 t) (outsAt42 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt42` at the last point: case C's contents, over what the point before left in the scratch. -/
theorem outsAt42_C (c : Dev nD) (t : Fin cfg42.N) (h0 : ¬t.val % 25 = 0) (h1 : t.val % 25 = 24) :
    outsAt42 V c t.val t.isLt = (out14_C_3 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) ((hcond42_1 t).mpr h1) (iblk42 V c 0 t) (iblk42 V c 1 t) (iblk42 V c 2 t) (outsAt42 V c (t.val - 1) (Nat.lt_of_le_of_lt (Nat.sub_le _ _) t.isLt)).2.2.2, out14_C_4 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) ((hcond42_1 t).mpr h1) (iblk42 V c 0 t) (iblk42 V c 1 t) (iblk42 V c 2 t) (outsAt42 V c (t.val - 1) (Nat.lt_of_le_of_lt (Nat.sub_le _ _) t.isLt)).2.2.2, out14_C_5 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) ((hcond42_1 t).mpr h1) (iblk42 V c 0 t) (iblk42 V c 1 t) (iblk42 V c 2 t) (outsAt42 V c (t.val - 1) (Nat.lt_of_le_of_lt (Nat.sub_le _ _) t.isLt)).2.2.2, sout14_C_0 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) ((hcond42_1 t).mpr h1) (iblk42 V c 0 t) (iblk42 V c 1 t) (iblk42 V c 2 t) (outsAt42 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt42`'s last component), the other
    scoped buffers unopened and the generator register at some state. -/
noncomputable def PhiS42 (c : Dev nD) : (n : ℕ) → n ≤ cfg42.N → sProp 𝕄
  | 0, _ => Pipeline.ΦA spec42 c
  | n + 1, hn => iprop(iprop(iprop(owns (c : Thread nD τ) scM42_0 fullShare ((outsAt42 V c n hn).2.2.2)) ∗ restBut42 (F := F) c) ∗ (∃ r, prngReg c r))

theorem PhiS42_zero (c : Dev nD) (n : ℕ) (h : n ≤ cfg42.N) (hz : n = 0) : PhiS42 V c n h = Pipeline.ΦA spec42 c := by
  subst hz; rfl

/-- After point `n` (before point `n + 1`): the scratch at that point's contents. -/
theorem PhiS42_succ (c : Dev nD) (n : ℕ) (hn : n < cfg42.N) :
    PhiS42 V c (n + 1) hn = iprop(iprop(iprop(owns (c : Thread nD τ) scM42_0 fullShare ((outsAt42 V c n hn).2.2.2)) ∗ restBut42 (F := F) c) ∗ (∃ r, prngReg c r)) := rfl

/-- Before a point that is not the first: the scratch at what the point before left. -/
theorem PhiS42_pos (c : Dev nD) (n : ℕ) (h : n ≤ cfg42.N) (hz : n ≠ 0) :
    PhiS42 V c n h = iprop(iprop(iprop(owns (c : Thread nD τ) scM42_0 fullShare ((outsAt42 V c (n - 1) (by omega)).2.2.2)) ∗ restBut42 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt42`; the invariant `PhiS42`; nothing owed;
    full shares. -/
noncomputable def dat42 (c : Dev nD) : Dat τ (Elt F) Unit ℕ (UR sig nD τ) ℕ cfg42 c where
  A w := V c (Pipeline.arrRef spec42 w)
  after w t := match w with
    | ⟨0, _⟩ => iblk42 V c 0 t
    | ⟨1, _⟩ => iblk42 V c 1 t
    | ⟨2, _⟩ => iblk42 V c 2 t
    | ⟨3, _⟩ => (outsAt42 V c t.val t.isLt).1
    | ⟨4, _⟩ => (outsAt42 V c t.val t.isLt).2.1
    | ⟨5, _⟩ => (outsAt42 V c t.val t.isLt).2.2.1
  Φ t := PhiS42 V c t.val (Nat.le_of_lt_succ t.isLt)
  q _ := fullShare
  owed _ := 0

/-- The proof data's arrays are the region-entry contents. -/
theorem A_eq42 (c : Dev nD) (w : Fin cfg42.W) : (dat42 V c).A w = V c (Pipeline.arrRef spec42 w) := by
  dsimp only [dat42]

/-- The invariant at a point's start, restated at `t.val`. -/
theorem PhiS42_castSucc (c : Dev nD) (t : Fin cfg42.N) :
    (dat42 V c).Φ t.castSucc = PhiS42 V c t.val (Nat.le_of_lt t.isLt) := by
  dsimp only [dat42]; simp only [Fin.coe_castSucc]

/-- What the body leaves, window by window. -/
theorem after42_0 (c : Dev nD) (t : Fin cfg42.N) : (dat42 V c).after 0 t = iblk42 V c 0 t := by dsimp only [dat42]
theorem after42_1 (c : Dev nD) (t : Fin cfg42.N) : (dat42 V c).after 1 t = iblk42 V c 1 t := by dsimp only [dat42]
theorem after42_2 (c : Dev nD) (t : Fin cfg42.N) : (dat42 V c).after 2 t = iblk42 V c 2 t := by dsimp only [dat42]
theorem after42_3 (c : Dev nD) (t : Fin cfg42.N) : (dat42 V c).after 3 t = (outsAt42 V c t.val t.isLt).1 := by dsimp only [dat42]
theorem after42_4 (c : Dev nD) (t : Fin cfg42.N) : (dat42 V c).after 4 t = (outsAt42 V c t.val t.isLt).2.1 := by dsimp only [dat42]
theorem after42_5 (c : Dev nD) (t : Fin cfg42.N) : (dat42 V c).after 5 t = (outsAt42 V c t.val t.isLt).2.2.1 := by dsimp only [dat42]

/-- Each input's current staging buffer holds its block at every point, fetched there or not. -/
theorem before42_0 (c : Dev nD) (t : Fin cfg42.N) (d) : (dat42 V c).before 0 t d = iblk42 V c 0 t :=
  before42_0_of V (dat42 V c) (A_eq42 V c 0) (after42_0 V c) t d
theorem before42_1 (c : Dev nD) (t : Fin cfg42.N) (d) : (dat42 V c).before 1 t d = iblk42 V c 1 t :=
  before42_1_of V (dat42 V c) (A_eq42 V c 1) (after42_1 V c) t d
theorem before42_2 (c : Dev nD) (t : Fin cfg42.N) (d) : (dat42 V c).before 2 t d = iblk42 V c 2 t :=
  before42_2_of V (dat42 V c) (A_eq42 V c 2) (after42_2 V c) t d

/-! ## The body obligation, at a generic point -/

/-- What the body is called with at point `t` (the windows one by one), -/
noncomputable def bodyPre42 (c : Dev nD) (t : Fin cfg42.N) : sProp 𝕄 :=
  iprop((dat42 V c).Φ t.castSucc ∗ (dat42 V c).owesAt () t.castSucc
    ∗ (∃ d, owns (c : Thread nD τ) (ms42_0 t) fullShare ((dat42 V c).before 0 t d))
    ∗ (∃ d, owns (c : Thread nD τ) (ms42_1 t) fullShare ((dat42 V c).before 1 t d))
    ∗ (∃ d, owns (c : Thread nD τ) (ms42_2 t) fullShare ((dat42 V c).before 2 t d))
    ∗ (∃ d, owns (c : Thread nD τ) (ms42_3 t) fullShare ((dat42 V c).before 3 t d))
    ∗ (∃ d, owns (c : Thread nD τ) (ms42_4 t) fullShare ((dat42 V c).before 4 t d))
    ∗ (∃ d, owns (c : Thread nD τ) (ms42_5 t) fullShare ((dat42 V c).before 5 t d)))

/-- and what it returns. -/
noncomputable def bodyPost42 (c : Dev nD) (t : Fin cfg42.N) : sProp 𝕄 :=
  iprop((dat42 V c).Φ t.succ ∗ (dat42 V c).owesAt () t.succ
    ∗ (dat42 V c).leavesExact 0 t
    ∗ (dat42 V c).leavesExact 1 t
    ∗ (dat42 V c).leavesExact 2 t
    ∗ (dat42 V c).leavesExact 3 t
    ∗ (dat42 V c).leavesExact 4 t
    ∗ (dat42 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body42 (c : Dev nD) (t : Fin cfg42.N) :
    bodyPre42 V c t ⊢ wp frame (wpE (defs₀ (F := F)) Variants.none c none) Set.univ (bodyAt42 t) (fun _ => bodyPost42 V c t) := by
  unfold bodyPre42 bodyPost42 bodyAt42
  rw [cc42_kernel_eq]
  simp only [before42_0, before42_1, before42_2]
  rw [show (dat42 V c).owesAt () t.succ = (dat42 V c).owesAt () t.castSucc from rfl]
  rw [show (dat42 V c).Φ t.succ = PhiS42 V c (t.val + 1) t.isLt from rfl, PhiS42_succ]
  have hN : t.val < 25 := lt_of_lt_of_eq t.isLt (show cfg42.N = 25 from N_42)
  by_cases h0 : t.val % 25 = 0
  · by_cases h1 : t.val % 25 = 24
    · exfalso; omega
    · rw [show (dat42 V c).leavesExact 0 t = owns (c : Thread nD τ) (ms42_0 t) fullShare ((dat42 V c).after 0 t) from by
        unfold Dat.leavesExact; rw [liveAt42_0 t], after42_0]
      rw [show (dat42 V c).leavesExact 1 t = owns (c : Thread nD τ) (ms42_1 t) fullShare ((dat42 V c).after 1 t) from by
        unfold Dat.leavesExact; rw [liveAt42_1 t], after42_1]
      rw [show (dat42 V c).leavesExact 2 t = owns (c : Thread nD τ) (ms42_2 t) fullShare ((dat42 V c).after 2 t) from by
        unfold Dat.leavesExact; rw [liveAt42_2 t], after42_2]
      rw [show (dat42 V c).leavesExact 3 t = owns (c : Thread nD τ) (ms42_3 t) fullShare ((dat42 V c).after 3 t) from by
        unfold Dat.leavesExact; rw [liveAt42_3 t], after42_3]
      rw [show (dat42 V c).leavesExact 4 t = owns (c : Thread nD τ) (ms42_4 t) fullShare ((dat42 V c).after 4 t) from by
        unfold Dat.leavesExact; rw [liveAt42_4 t], after42_4]
      rw [Dat.leavesExact_idle (dat42 V c) 5 t (idleAt42_5_A t ((hcond42_0 t).mpr h0) (fun h => h1 ((hcond42_1 t).mp h))) (noFlush42_5_A t ((hcond42_0 t).mpr h0) (fun h => h1 ((hcond42_1 t).mp h)))]
      rw [outsAt42_A V c t h0 h1]
      unfold out14_A_3 out14_A_4 sout14_A_0; (try dsimp only)
      by_cases hz : t.val = 0
      · rw [PhiS42_castSucc V c t, PhiS42_zero V c _ _ hz, PhiA42_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid42.coords t) _ _ _ _ _ _ _ _ _ _ _ _ _ _ ((hcond42_0 t).mpr h0) (fun h => h1 ((hcond42_1 t).mp h)) (iblk42 V c 0 t) (iblk42 V c 1 t) (iblk42 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat42 V c).leavesExact 0 t = owns (c : Thread nD τ) (ms42_0 t) fullShare ((dat42 V c).after 0 t) from by
        unfold Dat.leavesExact; rw [liveAt42_0 t], after42_0]
      rw [show (dat42 V c).leavesExact 1 t = owns (c : Thread nD τ) (ms42_1 t) fullShare ((dat42 V c).after 1 t) from by
        unfold Dat.leavesExact; rw [liveAt42_1 t], after42_1]
      rw [show (dat42 V c).leavesExact 2 t = owns (c : Thread nD τ) (ms42_2 t) fullShare ((dat42 V c).after 2 t) from by
        unfold Dat.leavesExact; rw [liveAt42_2 t], after42_2]
      rw [show (dat42 V c).leavesExact 3 t = owns (c : Thread nD τ) (ms42_3 t) fullShare ((dat42 V c).after 3 t) from by
        unfold Dat.leavesExact; rw [liveAt42_3 t], after42_3]
      rw [show (dat42 V c).leavesExact 4 t = owns (c : Thread nD τ) (ms42_4 t) fullShare ((dat42 V c).after 4 t) from by
        unfold Dat.leavesExact; rw [liveAt42_4 t], after42_4]
      rw [show (dat42 V c).leavesExact 5 t = owns (c : Thread nD τ) (ms42_5 t) fullShare ((dat42 V c).after 5 t) from by
        unfold Dat.leavesExact; rw [liveAt42_5_C t (fun h => h0 ((hcond42_0 t).mp h)) ((hcond42_1 t).mpr h1)], after42_5]
      rw [outsAt42_C V c t h0 h1]
      unfold out14_C_3 out14_C_4 out14_C_5 sout14_C_0; (try dsimp only)
      by_cases hz : t.val = 0
      · exfalso; omega
      · rw [PhiS42_castSucc V c t, PhiS42_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid42.coords t) _ _ _ _ _ _ _ _ _ _ _ _ _ _ (fun h => h0 ((hcond42_0 t).mp h)) ((hcond42_1 t).mpr h1) (iblk42 V c 0 t) (iblk42 V c 1 t) (iblk42 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat42 V c).leavesExact 0 t = owns (c : Thread nD τ) (ms42_0 t) fullShare ((dat42 V c).after 0 t) from by
        unfold Dat.leavesExact; rw [liveAt42_0 t], after42_0]
      rw [show (dat42 V c).leavesExact 1 t = owns (c : Thread nD τ) (ms42_1 t) fullShare ((dat42 V c).after 1 t) from by
        unfold Dat.leavesExact; rw [liveAt42_1 t], after42_1]
      rw [show (dat42 V c).leavesExact 2 t = owns (c : Thread nD τ) (ms42_2 t) fullShare ((dat42 V c).after 2 t) from by
        unfold Dat.leavesExact; rw [liveAt42_2 t], after42_2]
      rw [show (dat42 V c).leavesExact 3 t = owns (c : Thread nD τ) (ms42_3 t) fullShare ((dat42 V c).after 3 t) from by
        unfold Dat.leavesExact; rw [liveAt42_3 t], after42_3]
      rw [show (dat42 V c).leavesExact 4 t = owns (c : Thread nD τ) (ms42_4 t) fullShare ((dat42 V c).after 4 t) from by
        unfold Dat.leavesExact; rw [liveAt42_4 t], after42_4]
      rw [Dat.leavesExact_idle (dat42 V c) 5 t (idleAt42_5_B t (fun h => h0 ((hcond42_0 t).mp h)) (fun h => h1 ((hcond42_1 t).mp h))) (noFlush42_5_B t (fun h => h0 ((hcond42_0 t).mp h)) (fun h => h1 ((hcond42_1 t).mp h)))]
      rw [outsAt42_B V c t h0 h1]
      unfold out14_B_3 out14_B_4 sout14_B_0; (try dsimp only)
      by_cases hz : t.val = 0
      · exfalso; omega
      · rw [PhiS42_castSucc V c t, PhiS42_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid42.coords t) _ _ _ _ _ _ _ _ _ _ _ _ _ _ (fun h => h0 ((hcond42_0 t).mp h)) (fun h => h1 ((hcond42_1 t).mp h)) (iblk42 V c 0 t) (iblk42 V c 1 t) (iblk42 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation42 (c : Dev nD) : BodyObligation (dat42 (F := F) V c) (defs₀ (F := F)) Variants.none () Set.univ := fun t => by
  rw [bigSep_W42, bigSep_W42]
  exact sound_body42 V c t

/-- What the launch hands the region is the invariant before the first point. -/
theorem hin42 (c : Dev nD) : Pipeline.ΦA spec42 c ⊢ (dat42 V c).Φ 0 := by
  rw [show (dat42 V c).Φ 0 = PhiS42 V c 0 (Nat.zero_le _) from rfl, PhiS42_zero V c 0 _ rfl]
  try exact Idealize.SL.BI.Entails.refl _

/-- After any point but the first the invariant gives it back: the scratch's named contents are forgotten. -/
theorem Phi_out42 (c : Dev nD) (t : Fin (cfg42.N + 1)) (ht : t.val ≠ 0) : (dat42 V c).Φ t ⊢ Pipeline.ΦA spec42 c := by
  rw [show (dat42 V c).Φ t = PhiS42 V c t.val (Nat.le_of_lt_succ t.isLt) from rfl, PhiS42_pos V c _ _ ht, PhiA42_eq]
  iintro ⟨⟨HS0, HR⟩, Hg⟩
  isplitl [HS0 HR]
  · isplitl [HS0]
    · iexists _; iexact HS0
    iexact HR
  iexact Hg

/-- The same after the last point. -/
theorem hout42 (c : Dev nD) : (dat42 V c).Φ (Fin.last cfg42.N) ⊢ Pipeline.ΦA spec42 c :=
  Phi_out42 V c _ (by rw [Fin.val_last]; have : cfg42.N = 25 := N_42; omega)

end Cert.Kernel.Hand

end
-- ==== Proof.KB.R43.lean ====
import proofs.«408084_j48395691492010_3_alg».proof.Proof.KB.R3

/-! Region 43: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk43 (c : Dev nD) (w : Fin cfg43.W) (t : Fin cfg43.N) : ((cfg43.win w).xblock (cfg43.grid.coords t)).Idx → Elt F (cfg43.win w).elt :=
  ((cfg43.win w).blk t).view.read (Elt F) (V c (Pipeline.arrRef spec43 w))

/-- The row-tile window (window 0, fetched at every point) holds its block when the body runs. -/
theorem before43_0_of {c : Dev nD} (dat : Dat τ (Elt F) Unit ℕ (UR sig nD τ) ℕ cfg43 c) (hA : dat.A 0 = V c (Pipeline.arrRef spec43 0))
    (hafter : ∀ t, dat.after 0 t = iblk43 V c 0 t) (t : Fin cfg43.N) (d) : dat.before 0 t d = iblk43 V c 0 t :=
  (dat.before_in_eq_fetched 0 rfl (fun _ => rfl) (fun _ _ _ => rfl) (fun t => by rw [hafter]; unfold Dat.blockOf iblk43; rw [hA]; try rfl) t d).trans
    (by unfold Dat.fetched Dat.blockOf iblk43; rw [hA]; try rfl)

/-- The mean window (window 1, one constant block fetched at the first point only) holds that block at every point. -/
theorem before43_1_of {c : Dev nD} (dat : Dat τ (Elt F) Unit ℕ (UR sig nD τ) ℕ cfg43 c) (hA : dat.A 1 = V c (Pipeline.arrRef spec43 1))
    (hafter : ∀ t, dat.after 1 t = iblk43 V c 1 t) (t : Fin cfg43.N) (d) : dat.before 1 t d = iblk43 V c 1 t :=
  (dat.before_in_eq_fetched 1 rfl (fun _ => rfl) (fun _ _ _ => rfl) (fun t => by rw [hafter]; unfold Dat.blockOf iblk43; rw [hA]; try rfl) t d).trans
    (by unfold Dat.fetched Dat.blockOf iblk43; rw [hA]; try rfl)

/-! ## The branch conditions and the idle points, over this region's grid (the same grid) -/

/-- The reset's condition holds at the first point only, -/
theorem hcond43_0 : ∀ t : Fin cfg43.N, cond3_0 (grid43.coords t) ↔ t.val = 0 := hcond3_0
/-- the final store's at the last point only. -/
theorem hcond43_1 : ∀ t : Fin cfg43.N, cond3_1 (grid43.coords t) ↔ t.val = 24 := hcond3_1

theorem liveAt43_0 : ∀ t : Fin cfg43.N, cfg43.idle 0 (grid43.coords t) = false := fun _ => rfl
theorem liveAt43_1 : ∀ t : Fin cfg43.N, cfg43.idle 1 (grid43.coords t) = false := fun _ => rfl
/-- Away from the last point the result window is idle, -/
theorem idleAt43_2 : ∀ t : Fin cfg43.N, ¬cond3_1 (grid43.coords t) → cfg43.idle 2 (grid43.coords t) = true := idleAt3_2
/-- and live at it. -/
theorem liveAt43_2 : ∀ t : Fin cfg43.N, cond3_1 (grid43.coords t) → cfg43.idle 2 (grid43.coords t) = false := liveAt3_2
/-- Away from the last point its block is not written back (the schedule's closed form). -/
theorem noFlush43_2 (t : Fin cfg43.N) (h : ¬cond3_1 (grid43.coords t)) : (cfg43.win 2).flush t = false := by
  have hN : t.val < 25 := lt_of_lt_of_eq t.isLt (show cfg43.N = 25 from N_43)
  have h24 : ¬t.val = 24 := fun e => h ((hcond43_1 t).mpr e)
  cases hf : (cfg43.win 2).flush t with
  | false => rfl
  | true => exact absurd (by have := (flush43_2 t).mp hf; omega) h24

/-! ## The memrefs the body is called with -/

noncomputable abbrev ms43_0 (t : Fin cfg43.N) : Memref sig .tc .vmem S2000x64 .f32 := win43_0.stage (cfg43.slots t 0)
abbrev hs43_0 (t : Fin cfg43.N) : (ms43_0 t).IsWhole := hstage43_0 ((cfg43.slots t 0).cast nbuf43_0)
noncomputable abbrev ms43_1 (t : Fin cfg43.N) : Memref sig .tc .vmem S1x64 .f32 := win43_1.stage (cfg43.slots t 1)
abbrev hs43_1 (t : Fin cfg43.N) : (ms43_1 t).IsWhole := hstage43_1 ((cfg43.slots t 1).cast nbuf43_1)
noncomputable abbrev ms43_2 (t : Fin cfg43.N) : Memref sig .tc .vmem S1x64 .f32 := win43_2.stage (cfg43.slots t 2)
abbrev hs43_2 (t : Fin cfg43.N) : (ms43_2 t).IsWhole := hstage43_2 ((cfg43.slots t 2).cast nbuf43_2)
/-- The accumulator: this call's own scratch buffer, whole. -/
noncomputable abbrev scM43_0 : Memref sig .tc .vmem S1x64 .f32 := Memref.whole cc43_scratch0

/-- The body the pipeline calls at point `t` is region 3's printed kernel on this region's memrefs: the two printed
    functions are the same term. -/
theorem bodyAt43_eq (t : Fin cfg43.N) :
    (bodyAt43 t : Prog (TpuEff nD τ sig (Elt F) Λ₀ .tc) PUnit)
      = cc3__var_kernel (grid43.coords t) (ms43_0 t) (hs43_0 t) (ms43_1 t) (hs43_1 t) (ms43_2 t) (hs43_2 t) scM43_0 (Memref.isWhole_whole _) := rfl

/-- The region-entry invariant with the accumulator split out of the scoped rest, as a memref owned at some contents. -/
theorem PhiA43_eq (c : Dev nD) :
    (Pipeline.ΦA spec43 c : sProp 𝕄)
      = iprop(iprop(iprop(∃ d, owns (c : Thread nD τ) scM43_0 fullShare d)
          ∗ Pipeline.scopedRestBut (Ix := Unit) (Name := ℕ) (U := UR sig nD τ) (Lvl := ℕ) (Val := Elt F) spec43 c [cc43_scratch0]) ∗ (∃ r, prngReg c r)) := by
  unfold Pipeline.ΦA; rw [scopedRest43_split]; simp only [scM43_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt43 (c : Dev nD) : (n : ℕ) → n < cfg43.N → Vec F S1x64 .f32 × Vec F S1x64 .f32
  | 0, hn => (idle3_2,
      sout3_A_0 c (grid43.coords ⟨0, hn⟩) (ms43_0 ⟨0, hn⟩) (hs43_0 ⟨0, hn⟩) (ms43_1 ⟨0, hn⟩) (hs43_1 ⟨0, hn⟩) (ms43_2 ⟨0, hn⟩) (hs43_2 ⟨0, hn⟩) scM43_0 (Memref.isWhole_whole _) ((hcond43_0 ⟨0, hn⟩).mpr rfl)
        (fun h => (fun h' : (0 : ℕ) = 24 => by omega) ((hcond43_1 ⟨0, hn⟩).mp h)) (iblk43 V c 0 ⟨0, hn⟩) (iblk43 V c 1 ⟨0, hn⟩))
  | n + 1, hn =>
    if h1 : n + 1 = 24 then
      (out3_C_2 c (grid43.coords ⟨n + 1, hn⟩) (ms43_0 ⟨n + 1, hn⟩) (hs43_0 ⟨n + 1, hn⟩) (ms43_1 ⟨n + 1, hn⟩) (hs43_1 ⟨n + 1, hn⟩) (ms43_2 ⟨n + 1, hn⟩) (hs43_2 ⟨n + 1, hn⟩) scM43_0 (Memref.isWhole_whole _) (fun h => (fun h' : n + 1 = 0 => by omega) ((hcond43_0 ⟨n + 1, hn⟩).mp h))
          ((hcond43_1 ⟨n + 1, hn⟩).mpr h1) (iblk43 V c 0 ⟨n + 1, hn⟩) (iblk43 V c 1 ⟨n + 1, hn⟩) (outsAt43 c n (Nat.lt_of_succ_lt hn)).2,
       sout3_C_0 c (grid43.coords ⟨n + 1, hn⟩) (ms43_0 ⟨n + 1, hn⟩) (hs43_0 ⟨n + 1, hn⟩) (ms43_1 ⟨n + 1, hn⟩) (hs43_1 ⟨n + 1, hn⟩) (ms43_2 ⟨n + 1, hn⟩) (hs43_2 ⟨n + 1, hn⟩) scM43_0 (Memref.isWhole_whole _) (fun h => (fun h' : n + 1 = 0 => by omega) ((hcond43_0 ⟨n + 1, hn⟩).mp h))
          ((hcond43_1 ⟨n + 1, hn⟩).mpr h1) (iblk43 V c 0 ⟨n + 1, hn⟩) (iblk43 V c 1 ⟨n + 1, hn⟩) (outsAt43 c n (Nat.lt_of_succ_lt hn)).2)
    else
      (idle3_2,
       sout3_B_0 c (grid43.coords ⟨n + 1, hn⟩) (ms43_0 ⟨n + 1, hn⟩) (hs43_0 ⟨n + 1, hn⟩) (ms43_1 ⟨n + 1, hn⟩) (hs43_1 ⟨n + 1, hn⟩) (ms43_2 ⟨n + 1, hn⟩) (hs43_2 ⟨n + 1, hn⟩) scM43_0 (Memref.isWhole_whole _) (fun h => (fun h' : n + 1 = 0 => by omega) ((hcond43_0 ⟨n + 1, hn⟩).mp h))
          (fun h => h1 ((hcond43_1 ⟨n + 1, hn⟩).mp h)) (iblk43 V c 0 ⟨n + 1, hn⟩) (iblk43 V c 1 ⟨n + 1, hn⟩) (outsAt43 c n (Nat.lt_of_succ_lt hn)).2)

theorem outsAt43_A (c : Dev nD) (t : Fin cfg43.N) (h0 : t.val = 0) (h1 : ¬t.val = 24) :
    outsAt43 V c t.val t.isLt = (idle3_2,
      sout3_A_0 c (grid43.coords t) (ms43_0 t) (hs43_0 t) (ms43_1 t) (hs43_1 t) (ms43_2 t) (hs43_2 t) scM43_0 (Memref.isWhole_whole _) ((hcond43_0 t).mpr h0) (fun h => h1 ((hcond43_1 t).mp h)) (iblk43 V c 0 t) (iblk43 V c 1 t)) := by
  obtain ⟨n, hn⟩ := t
  cases n with
  | zero => exact rfl
  | succ n => exact absurd h0 (Nat.succ_ne_zero n)

theorem outsAt43_B (c : Dev nD) (t : Fin cfg43.N) (h0 : ¬t.val = 0) (h1 : ¬t.val = 24) :
    outsAt43 V c t.val t.isLt = (idle3_2,
      sout3_B_0 c (grid43.coords t) (ms43_0 t) (hs43_0 t) (ms43_1 t) (hs43_1 t) (ms43_2 t) (hs43_2 t) scM43_0 (Memref.isWhole_whole _) (fun h => h0 ((hcond43_0 t).mp h)) (fun h => h1 ((hcond43_1 t).mp h)) (iblk43 V c 0 t) (iblk43 V c 1 t)
        (outsAt43 V c (t.val - 1) (Nat.lt_of_le_of_lt (Nat.sub_le _ _) t.isLt)).2) := by
  obtain ⟨n, hn⟩ := t
  cases n with
  | zero => exact absurd rfl h0
  | succ n => exact (dif_neg h1).trans rfl

theorem outsAt43_C (c : Dev nD) (t : Fin cfg43.N) (h0 : ¬t.val = 0) (h1 : t.val = 24) :
    outsAt43 V c t.val t.isLt =
      (out3_C_2 c (grid43.coords t) (ms43_0 t) (hs43_0 t) (ms43_1 t) (hs43_1 t) (ms43_2 t) (hs43_2 t) scM43_0 (Memref.isWhole_whole _) (fun h => h0 ((hcond43_0 t).mp h)) ((hcond43_1 t).mpr h1) (iblk43 V c 0 t) (iblk43 V c 1 t)
        (outsAt43 V c (t.val - 1) (Nat.lt_of_le_of_lt (Nat.sub_le _ _) t.isLt)).2,
       sout3_C_0 c (grid43.coords t) (ms43_0 t) (hs43_0 t) (ms43_1 t) (hs43_1 t) (ms43_2 t) (hs43_2 t) scM43_0 (Memref.isWhole_whole _) (fun h => h0 ((hcond43_0 t).mp h)) ((hcond43_1 t).mpr h1) (iblk43 V c 0 t) (iblk43 V c 1 t)
        (outsAt43 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS43 (c : Dev nD) : (n : ℕ) → n ≤ cfg43.N → sProp 𝕄
  | 0, _ => Pipeline.ΦA spec43 c
  | n + 1, hn => iprop(iprop(owns (c : Thread nD τ) scM43_0 fullShare ((outsAt43 V c n hn).2)
      ∗ Pipeline.scopedRestBut (Ix := Unit) (Name := ℕ) (U := UR sig nD τ) (Lvl := ℕ) (Val := Elt F) spec43 c [cc43_scratch0]) ∗ (∃ r, prngReg c r))

theorem PhiS43_zero (c : Dev nD) (n : ℕ) (h : n ≤ cfg43.N) (hz : n = 0) : PhiS43 V c n h = Pipeline.ΦA spec43 c := by
  subst hz; rfl

theorem PhiS43_succ (c : Dev nD) (n : ℕ) (hn : n < cfg43.N) :
    PhiS43 V c (n + 1) hn = iprop(iprop(owns (c : Thread nD τ) scM43_0 fullShare ((outsAt43 V c n hn).2)
      ∗ Pipeline.scopedRestBut (Ix := Unit) (Name := ℕ) (U := UR sig nD τ) (Lvl := ℕ) (Val := Elt F) spec43 c [cc43_scratch0]) ∗ (∃ r, prngReg c r)) := rfl

theorem PhiS43_pos (c : Dev nD) (n : ℕ) (h : n ≤ cfg43.N) (hz : n ≠ 0) :
    PhiS43 V c n h = iprop(iprop(owns (c : Thread nD τ) scM43_0 fullShare ((outsAt43 V c (n - 1) (by omega)).2)
      ∗ Pipeline.scopedRestBut (Ix := Unit) (Name := ℕ) (U := UR sig nD τ) (Lvl := ℕ) (Val := Elt F) spec43 c [cc43_scratch0]) ∗ (∃ r, prngReg c r)) := by
  cases n with
  | zero => exact absurd rfl hz
  | succ n => rfl

/-! ## The proof data -/

noncomputable def dat43 (c : Dev nD) : Dat τ (Elt F) Unit ℕ (UR sig nD τ) ℕ cfg43 c where
  A w := V c (Pipeline.arrRef spec43 w)
  after w t := match w with
    | ⟨0, _⟩ => iblk43 V c 0 t
    | ⟨1, _⟩ => iblk43 V c 1 t
    | ⟨2, _⟩ => (outsAt43 V c t.val t.isLt).1
  Φ t := PhiS43 V c t.val (Nat.le_of_lt_succ t.isLt)
  q _ := fullShare
  owed _ := 0

theorem A_eq43 (c : Dev nD) (w : Fin cfg43.W) : (dat43 V c).A w = V c (Pipeline.arrRef spec43 w) := by
  dsimp only [dat43]

theorem PhiS43_castSucc (c : Dev nD) (t : Fin cfg43.N) :
    (dat43 V c).Φ t.castSucc = PhiS43 V c t.val (Nat.le_of_lt t.isLt) := by
  dsimp only [dat43]; simp only [Fin.coe_castSucc]

theorem after43_0 (c : Dev nD) (t : Fin cfg43.N) : (dat43 V c).after 0 t = iblk43 V c 0 t := by dsimp only [dat43]
theorem after43_1 (c : Dev nD) (t : Fin cfg43.N) : (dat43 V c).after 1 t = iblk43 V c 1 t := by dsimp only [dat43]
theorem after43_2 (c : Dev nD) (t : Fin cfg43.N) : (dat43 V c).after 2 t = (outsAt43 V c t.val t.isLt).1 := by dsimp only [dat43]

theorem before43_0 (c : Dev nD) (t : Fin cfg43.N) (d) : (dat43 V c).before 0 t d = iblk43 V c 0 t :=
  before43_0_of V (dat43 V c) (A_eq43 V c 0) (after43_0 V c) t d
theorem before43_1 (c : Dev nD) (t : Fin cfg43.N) (d) : (dat43 V c).before 1 t d = iblk43 V c 1 t :=
  before43_1_of V (dat43 V c) (A_eq43 V c 1) (after43_1 V c) t d

/-! ## The body obligation -/

noncomputable def bodyPre43 (c : Dev nD) (t : Fin cfg43.N) : sProp 𝕄 :=
  iprop((dat43 V c).Φ t.castSucc ∗ (dat43 V c).owesAt () t.castSucc
    ∗ (∃ d, owns (c : Thread nD τ) (ms43_0 t) fullShare ((dat43 V c).before 0 t d))
    ∗ (∃ d, owns (c : Thread nD τ) (ms43_1 t) fullShare ((dat43 V c).before 1 t d))
    ∗ (∃ d, owns (c : Thread nD τ) (ms43_2 t) fullShare ((dat43 V c).before 2 t d)))

noncomputable def bodyPost43 (c : Dev nD) (t : Fin cfg43.N) : sProp 𝕄 :=
  iprop((dat43 V c).Φ t.succ ∗ (dat43 V c).owesAt () t.succ
    ∗ (dat43 V c).leavesExact 0 t
    ∗ (dat43 V c).leavesExact 1 t
    ∗ (dat43 V c).leavesExact 2 t)

set_option maxHeartbeats 4800000 in
/-- The body at any point, from region 3's triples on this region's memrefs. -/
theorem sound_body43 (c : Dev nD) (t : Fin cfg43.N) :
    bodyPre43 V c t ⊢ wp frame (wpE (defs₀ (F := F)) Variants.none c none) Set.univ (bodyAt43 t) (fun _ => bodyPost43 V c t) := by
  rw [bodyAt43_eq (F := F) t]
  unfold bodyPre43 bodyPost43
  simp only [before43_0, before43_1]
  rw [show (dat43 V c).owesAt () t.succ = (dat43 V c).owesAt () t.castSucc from rfl]
  rw [show (dat43 V c).Φ t.succ = PhiS43 V c (t.val + 1) t.isLt from rfl, PhiS43_succ]
  have hN : t.val < 25 := lt_of_lt_of_eq t.isLt (show cfg43.N = 25 from N_43)
  rw [show (dat43 V c).leavesExact 0 t = owns (c : Thread nD τ) (ms43_0 t) fullShare ((dat43 V c).after 0 t) from by
    unfold Dat.leavesExact; rw [liveAt43_0 t], after43_0]
  rw [show (dat43 V c).leavesExact 1 t = owns (c : Thread nD τ) (ms43_1 t) fullShare ((dat43 V c).after 1 t) from by
    unfold Dat.leavesExact; rw [liveAt43_1 t], after43_1]
  by_cases h0 : t.val = 0
  · have h1 : ¬t.val = 24 := by omega
    rw [Dat.leavesExact_idle (dat43 V c) 2 t (idleAt43_2 t (fun h => h1 ((hcond43_1 t).mp h))) (noFlush43_2 t (fun h => h1 ((hcond43_1 t).mp h)))]
    rw [outsAt43_A V c t h0 h1]
    unfold sout3_A_0; (try dsimp only)
    rw [PhiS43_castSucc V c t, PhiS43_zero V c _ _ h0, PhiA43_eq]
    iintro ⟨⟨⟨HS0, Hr⟩, Hg⟩, Ho, ⟨%d0, H0⟩, ⟨%d1, H1⟩, ⟨%d2, H2⟩⟩
    iapply ((kernelRun3_A c (grid43.coords t) _ _ _ _ _ _ _ _ ((hcond43_0 t).mpr h0) (fun h => h1 ((hcond43_1 t).mp h)) (iblk43 V c 0 t) (iblk43 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat43 V c).leavesExact 2 t = owns (c : Thread nD τ) (ms43_2 t) fullShare ((dat43 V c).after 2 t) from by
        unfold Dat.leavesExact; rw [liveAt43_2 t ((hcond43_1 t).mpr h1)], after43_2]
      rw [outsAt43_C V c t h0 h1]
      unfold out3_C_2 sout3_C_0; (try dsimp only)
      rw [PhiS43_castSucc V c t, PhiS43_pos V c _ _ h0]
      iintro ⟨⟨⟨HS0, Hr⟩, Hg⟩, Ho, ⟨%d0, H0⟩, ⟨%d1, H1⟩, ⟨%d2, H2⟩⟩
      iapply ((kernelRun3_C c (grid43.coords t) _ _ _ _ _ _ _ _ (fun h => h0 ((hcond43_0 t).mp h)) ((hcond43_1 t).mpr h1) (iblk43 V c 0 t) (iblk43 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat43 V c) 2 t (idleAt43_2 t (fun h => h1 ((hcond43_1 t).mp h))) (noFlush43_2 t (fun h => h1 ((hcond43_1 t).mp h)))]
      rw [outsAt43_B V c t h0 h1]
      unfold sout3_B_0; (try dsimp only)
      rw [PhiS43_castSucc V c t, PhiS43_pos V c _ _ h0]
      iintro ⟨⟨⟨HS0, Hr⟩, Hg⟩, Ho, ⟨%d0, H0⟩, ⟨%d1, H1⟩, ⟨%d2, H2⟩⟩
      iapply ((kernelRun3_B c (grid43.coords t) _ _ _ _ _ _ _ _ (fun h => h0 ((hcond43_0 t).mp h)) (fun h => h1 ((hcond43_1 t).mp h)) (iblk43 V c 0 t) (iblk43 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation43 (c : Dev nD) : BodyObligation (dat43 (F := F) V c) (defs₀ (F := F)) Variants.none () Set.univ := fun t => by
  rw [bigSep_W43, bigSep_W43]
  exact sound_body43 V c t

/-- What the launch hands the region is the invariant before the first point. -/
theorem hin43 (c : Dev nD) : Pipeline.ΦA spec43 c ⊢ (dat43 V c).Φ 0 := by
  rw [show (dat43 V c).Φ 0 = PhiS43 V c 0 (Nat.zero_le _) from rfl, PhiS43_zero V c 0 _ rfl]
  try exact Idealize.SL.BI.Entails.refl _

/-- After any point but the first the invariant gives the launch's back: the accumulator's named contents are forgotten. -/
theorem Phi_out43 (c : Dev nD) (t : Fin (cfg43.N + 1)) (ht : t.val ≠ 0) : (dat43 V c).Φ t ⊢ Pipeline.ΦA spec43 c := by
  rw [show (dat43 V c).Φ t = PhiS43 V c t.val (Nat.le_of_lt_succ t.isLt) from rfl, PhiS43_pos V c _ _ ht, PhiA43_eq]
  iintro ⟨⟨HS0, Hr⟩, Hg⟩
  isplitl [HS0 Hr]
  · isplitl [HS0]
    · iexists _; iexact HS0
    iexact Hr
  iexact Hg

/-- The same after the last point. -/
theorem hout43 (c : Dev nD) : (dat43 V c).Φ (Fin.last cfg43.N) ⊢ Pipeline.ΦA spec43 c :=
  Phi_out43 V c _ (by rw [Fin.val_last]; have : cfg43.N = 25 := N_43; omega)

end Cert.Kernel.Hand

end
-- ==== Proof.KB.R44.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Ring
import Idealize.ShloMosaic.Lib.Tactic

/-!
# Region 44: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region44
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk44 (c : Dev nD) (w : Fin cfg44.W) (t : Fin cfg44.N) : ((cfg44.win w).xblock (cfg44.grid.coords t)).Idx → Elt F (cfg44.win w).elt :=
  ((cfg44.win w).blk t).view.read (Elt F) (V c (Pipeline.arrRef spec44 w))

/-- The activations' staging buffer holds the block of the current point at every point: the window is fetched at
    every point, is never cut and never idle, and the body leaves the block where it found it. -/
theorem before44_0_of {c : Dev nD} (dat : Dat τ (Elt F) Unit ℕ (UR sig nD τ) ℕ cfg44 c) (hA : dat.A 0 = V c (Pipeline.arrRef spec44 0))
    (hafter : ∀ t, dat.after 0 t = iblk44 V c 0 t) (t : Fin cfg44.N) (d) : dat.before 0 t d = iblk44 V c 0 t :=
  (dat.before_in_eq_fetched 0 rfl (fun _ => rfl) (fun _ _ _ => rfl) (fun t => by rw [hafter]; unfold Dat.blockOf iblk44; rw [hA]; try rfl) t d).trans
    (by unfold Dat.fetched Dat.blockOf iblk44; rw [hA]; try rfl)

/-- The mean row's staging buffer holds its (one) block at every point: it is fetched at the first point only, its
    block index never moves afterwards, and the body leaves it in place. -/
theorem before44_1_of {c : Dev nD} (dat : Dat τ (Elt F) Unit ℕ (UR sig nD τ) ℕ cfg44 c) (hA : dat.A 1 = V c (Pipeline.arrRef spec44 1))
    (hafter : ∀ t, dat.after 1 t = iblk44 V c 1 t) (t : Fin cfg44.N) (d) : dat.before 1 t d = iblk44 V c 1 t :=
  (dat.before_in_eq_fetched 1 rfl (fun _ => rfl) (fun _ _ _ => rfl) (fun t => by rw [hafter]; unfold Dat.blockOf iblk44; rw [hA]; try rfl) t d).trans
    (by unfold Dat.fetched Dat.blockOf iblk44; rw [hA]; try rfl)

/-- The same of the variance row. -/
theorem before44_2_of {c : Dev nD} (dat : Dat τ (Elt F) Unit ℕ (UR sig nD τ) ℕ cfg44 c) (hA : dat.A 2 = V c (Pipeline.arrRef spec44 2))
    (hafter : ∀ t, dat.after 2 t = iblk44 V c 2 t) (t : Fin cfg44.N) (d) : dat.before 2 t d = iblk44 V c 2 t :=
  (dat.before_in_eq_fetched 2 rfl (fun _ => rfl) (fun _ _ _ => rfl) (fun t => by rw [hafter]; unfold Dat.blockOf iblk44; rw [hA]; try rfl) t d).trans
    (by unfold Dat.fetched Dat.blockOf iblk44; rw [hA]; try rfl)

/-- The same of the scale row. -/
theorem before44_3_of {c : Dev nD} (dat : Dat τ (Elt F) Unit ℕ (UR sig nD τ) ℕ cfg44 c) (hA : dat.A 3 = V c (Pipeline.arrRef spec44 3))
    (hafter : ∀ t, dat.after 3 t = iblk44 V c 3 t) (t : Fin cfg44.N) (d) : dat.before 3 t d = iblk44 V c 3 t :=
  (dat.before_in_eq_fetched 3 rfl (fun _ => rfl) (fun _ _ _ => rfl) (fun t => by rw [hafter]; unfold Dat.blockOf iblk44; rw [hA]; try rfl) t d).trans
    (by unfold Dat.fetched Dat.blockOf iblk44; rw [hA]; try rfl)

/-- The same of the shift row. -/
theorem before44_4_of {c : Dev nD} (dat : Dat τ (Elt F) Unit ℕ (UR sig nD τ) ℕ cfg44 c) (hA : dat.A 4 = V c (Pipeline.arrRef spec44 4))
    (hafter : ∀ t, dat.after 4 t = iblk44 V c 4 t) (t : Fin cfg44.N) (d) : dat.before 4 t d = iblk44 V c 4 t :=
  (dat.before_in_eq_fetched 4 rfl (fun _ => rfl) (fun _ _ _ => rfl) (fun t => by rw [hafter]; unfold Dat.blockOf iblk44; rw [hA]; try rfl) t d).trans
    (by unfold Dat.fetched Dat.blockOf iblk44; rw [hA]; try rfl)

/-! ## The body's accesses: each buffer is read, and the output written, whole -/

/-- The whole of a block of 2000 rows. -/
noncomputable abbrev r44_0 : Rect S2000x64 := Rect.unit (s := S2000x64) ![0, 0] S2000x64.size inb_S2000x64_S2000x64_0_0
/-- The whole of a single row. -/
noncomputable abbrev r44_1 : Rect S1x64 := Rect.unit (s := S1x64) ![0, 0] S1x64.size inb_S1x64_S1x64_0_0

/-! ## What the body leaves in the output buffer -/

/-- The output buffer after the body, from the five input blocks: its one store, whose payload is the skeleton's. -/
noncomputable def out44_5 (x0 : Vec F S2000x64 .f32) (x1 : Vec F S1x64 .f32) (x2 : Vec F S1x64 .f32) (x3 : Vec F S1x64 .f32) (x4 : Vec F S1x64 .f32) :
    Vec F S2000x64 .f32 :=
  View.canon [⟨r44_0, k44_pay1 (View.ld x0 r44_0) (View.ld x1 r44_1) (View.ld x2 r44_1) (View.ld x3 r44_1) (View.ld x4 r44_1)⟩]

/-- The one store covers the buffer. -/
theorem cover44_5 (p0 : Vec F S2000x64 .f32) (y : S2000x64.Idx) :
    ∃ pc ∈ ([⟨r44_0, p0⟩] : List (View.Piece (Elt F) S2000x64 .f32)), y ∈ pc.1.set :=
  View.cover_of_tiled [⟨r44_0, p0⟩] S2000x64.size (by rfl) y

/-! ## The body's triple -/

set_option maxHeartbeats 1000000 in
/-- The body on whole staging buffers, the five inputs' at read contents x0 … x4 and the output's at anything, runs
    to a state in which the inputs' are as they were and the output's holds out44_5 of them. (The body also loads the
    output buffer before it stores to it; the loaded value is not used.) -/
theorem sound_kernel44 (c : Dev nD) (E : Set ℕ) (i : grid44.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out44_5 x0 x1 x2 x3 x4)) -∗ K ⟨⟩))
      ⊢ wp frame (wpE (defs₀ (F := F)) Variants.none c none) E (cc44__bn_softmax_kernel i arg1 harg1 arg2 harg2 arg3 harg3 arg4 harg4 arg5 harg5 arg6 harg6) K := by
  simp only [cc44__bn_softmax_kernel_eq_skeleton]; unfold cc44__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover44_5 _)

/-! ## The pipeline's proof data -/

/-- The proof data of the region's pipeline on core c: the arrays as the region finds them; after the body at point t
    each input's buffer at its block and the output's at out44_5 of the input blocks; the invariant that of a body which
    touches nothing but its windows; nothing owed; full shares. -/
noncomputable def dat44 (c : Dev nD) : Dat τ (Elt F) Unit ℕ (UR sig nD τ) ℕ cfg44 c where
  A w := V c (Pipeline.arrRef spec44 w)
  after w t := match w with
    | ⟨0, _⟩ => iblk44 V c 0 t
    | ⟨1, _⟩ => iblk44 V c 1 t
    | ⟨2, _⟩ => iblk44 V c 2 t
    | ⟨3, _⟩ => iblk44 V c 3 t
    | ⟨4, _⟩ => iblk44 V c 4 t
    | ⟨5, _⟩ => out44_5 (iblk44 V c 0 t) (iblk44 V c 1 t) (iblk44 V c 2 t) (iblk44 V c 3 t) (iblk44 V c 4 t)
  Φ _ := Pipeline.ΦA spec44 c
  q _ := fullShare
  owed _ := 0

/-- The proof data's arrays are the region-entry contents. -/
theorem A_eq44 (c : Dev nD) (w : Fin cfg44.W) : (dat44 V c).A w = V c (Pipeline.arrRef spec44 w) := by
  dsimp only [dat44]

/-- What the body leaves, window by window. -/
theorem after44_0 (c : Dev nD) (t : Fin cfg44.N) : (dat44 V c).after 0 t = iblk44 V c 0 t := by dsimp only [dat44]
theorem after44_1 (c : Dev nD) (t : Fin cfg44.N) : (dat44 V c).after 1 t = iblk44 V c 1 t := by dsimp only [dat44]
theorem after44_2 (c : Dev nD) (t : Fin cfg44.N) : (dat44 V c).after 2 t = iblk44 V c 2 t := by dsimp only [dat44]
theorem after44_3 (c : Dev nD) (t : Fin cfg44.N) : (dat44 V c).after 3 t = iblk44 V c 3 t := by dsimp only [dat44]
theorem after44_4 (c : Dev nD) (t : Fin cfg44.N) : (dat44 V c).after 4 t = iblk44 V c 4 t := by dsimp only [dat44]
theorem after44_5 (c : Dev nD) (t : Fin cfg44.N) :
    (dat44 V c).after 5 t = out44_5 (iblk44 V c 0 t) (iblk44 V c 1 t) (iblk44 V c 2 t) (iblk44 V c 3 t) (iblk44 V c 4 t) := by dsimp only [dat44]

/-- Each input's current staging buffer holds its block at every point, fetched there or not. -/
theorem before44_0 (c : Dev nD) (t : Fin cfg44.N) (d) : (dat44 V c).before 0 t d = iblk44 V c 0 t :=
  before44_0_of V (dat44 V c) (A_eq44 V c 0) (after44_0 V c) t d
theorem before44_1 (c : Dev nD) (t : Fin cfg44.N) (d) : (dat44 V c).before 1 t d = iblk44 V c 1 t :=
  before44_1_of V (dat44 V c) (A_eq44 V c 1) (after44_1 V c) t d
theorem before44_2 (c : Dev nD) (t : Fin cfg44.N) (d) : (dat44 V c).before 2 t d = iblk44 V c 2 t :=
  before44_2_of V (dat44 V c) (A_eq44 V c 2) (after44_2 V c) t d
theorem before44_3 (c : Dev nD) (t : Fin cfg44.N) (d) : (dat44 V c).before 3 t d = iblk44 V c 3 t :=
  before44_3_of V (dat44 V c) (A_eq44 V c 3) (after44_3 V c) t d
theorem before44_4 (c : Dev nD) (t : Fin cfg44.N) (d) : (dat44 V c).before 4 t d = iblk44 V c 4 t :=
  before44_4_of V (dat44 V c) (A_eq44 V c 4) (after44_4 V c) t d

/-! ## The body obligation, at a generic point -/

/-- What the body is called with at point t, the windows one by one, -/
noncomputable def bodyPre44 (c : Dev nD) (t : Fin cfg44.N) : sProp 𝕄 :=
  iprop((dat44 V c).Φ t.castSucc ∗ (dat44 V c).owesAt () t.castSucc
    ∗ (∃ d, owns (c : Thread nD τ) (st44_0 t) fullShare ((dat44 V c).before 0 t d))
    ∗ (∃ d, owns (c : Thread nD τ) (st44_1 t) fullShare ((dat44 V c).before 1 t d))
    ∗ (∃ d, owns (c : Thread nD τ) (st44_2 t) fullShare ((dat44 V c).before 2 t d))
    ∗ (∃ d, owns (c : Thread nD τ) (st44_3 t) fullShare ((dat44 V c).before 3 t d))
    ∗ (∃ d, owns (c : Thread nD τ) (st44_4 t) fullShare ((dat44 V c).before 4 t d))
    ∗ (∃ d, owns (c : Thread nD τ) (st44_5 t) fullShare ((dat44 V c).before 5 t d)))

/-- and what it returns. -/
noncomputable def bodyPost44 (c : Dev nD) (t : Fin cfg44.N) : sProp 𝕄 :=
  iprop((dat44 V c).Φ t.succ ∗ (dat44 V c).owesAt () t.succ
    ∗ owns (c : Thread nD τ) (st44_0 t) fullShare ((dat44 V c).after 0 t)
    ∗ owns (c : Thread nD τ) (st44_1 t) fullShare ((dat44 V c).after 1 t)
    ∗ owns (c : Thread nD τ) (st44_2 t) fullShare ((dat44 V c).after 2 t)
    ∗ owns (c : Thread nD τ) (st44_3 t) fullShare ((dat44 V c).after 3 t)
    ∗ owns (c : Thread nD τ) (st44_4 t) fullShare ((dat44 V c).after 4 t)
    ∗ owns (c : Thread nD τ) (st44_5 t) fullShare ((dat44 V c).after 5 t))

/-- The body at any point: the inputs' buffers hold their blocks, so the body's triple applies; the invariant and
    what the core owes pass through unread. -/
theorem sound_body44 (c : Dev nD) (t : Fin cfg44.N) :
    bodyPre44 V c t ⊢ wp frame (wpE (defs₀ (F := F)) Variants.none c none) Set.univ (bodyAt44 t) (fun _ => bodyPost44 V c t) := by
  unfold bodyPre44 bodyPost44 bodyAt44
  simp only [before44_0, before44_1, before44_2, before44_3, before44_4]
  rw [show (dat44 V c).Φ t.succ = (dat44 V c).Φ t.castSucc from rfl,
    show (dat44 V c).owesAt () t.succ = (dat44 V c).owesAt () t.castSucc from rfl,
    after44_0, after44_1, after44_2, after44_3, after44_4, after44_5]
  iintro ⟨HΦ, Ho, ⟨%d0, H0⟩, ⟨%d1, H1⟩, ⟨%d2, H2⟩, ⟨%d3, H3⟩, ⟨%d4, H4⟩, ⟨%d5, H5⟩⟩
  iapply (sound_kernel44 c Set.univ (grid44.coords t) _ _ _ _ _ _ _ _ _ _ _ _
    (iblk44 V c 0 t) (iblk44 V c 1 t) (iblk44 V c 2 t) (iblk44 V c 3 t) (iblk44 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation44 (c : Dev nD) : BodyObligation (dat44 (F := F) V c) (defs₀ (F := F)) Variants.none () Set.univ := fun t => by
  rw [bigSep_W44, bigSep_W44]
  exact sound_body44 V c t

end Region44

end Cert.Kernel.Hand

end
-- ==== Proof.KB.R45.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.Regions
import Idealize.ShloMosaic.Lib.Tactic

/-! # Region 45: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region45
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk45 (c : Dev nD) (w : Fin cfg45.W) (t : Fin cfg45.N) : ((cfg45.win w).xblock (cfg45.grid.coords t)).Idx → Elt F (cfg45.win w).elt :=
  ((cfg45.win w).blk t).view.read (Elt F) (V c (Pipeline.arrRef spec45 w))

/-- The rows of X: the staging buffer the body is handed holds the block of the point, whether the
    point fetched it or not (an unfetched input has not moved its block index). -/
theorem before45_0_of {c : Dev nD} (dat : Dat τ (Elt F) Unit ℕ (UR sig nD τ) ℕ cfg45 c) (hA : dat.A 0 = V c (Pipeline.arrRef spec45 0))
    (hafter : ∀ t, dat.after 0 t = iblk45 V c 0 t) (t : Fin cfg45.N) (d) : dat.before 0 t d = iblk45 V c 0 t :=
  (dat.before_in_eq_fetched 0 rfl (fun _ => rfl) (fun _ _ _ => rfl) (fun t => by rw [hafter]; unfold Dat.blockOf iblk45; rw [hA]; try rfl) t d).trans
    (by unfold Dat.fetched Dat.blockOf iblk45; rw [hA]; try rfl)

/-- The matrix W: fetched at the first point only, and found in place at every later one. -/
theorem before45_1_of {c : Dev nD} (dat : Dat τ (Elt F) Unit ℕ (UR sig nD τ) ℕ cfg45 c) (hA : dat.A 1 = V c (Pipeline.arrRef spec45 1))
    (hafter : ∀ t, dat.after 1 t = iblk45 V c 1 t) (t : Fin cfg45.N) (d) : dat.before 1 t d = iblk45 V c 1 t :=
  (dat.before_in_eq_fetched 1 rfl (fun _ => rfl) (fun _ _ _ => rfl) (fun t => by rw [hafter]; unfold Dat.blockOf iblk45; rw [hA]; try rfl) t d).trans
    (by unfold Dat.fetched Dat.blockOf iblk45; rw [hA]; try rfl)

/-! ## The body's accesses: each buffer whole -/

noncomputable abbrev r45_0 : Rect S2000x64 := Rect.unit (s := S2000x64) ![0, 0] S2000x64.size inb_S2000x64_S2000x64_0_0
noncomputable abbrev r45_1 : Rect S64x32 := Rect.unit (s := S64x32) ![0, 0] S64x32.size inb_S64x32_S64x32_0_0
noncomputable abbrev r45_2 : Rect S2000x32 := Rect.unit (s := S2000x32) ![0, 0] S2000x32.size inb_S2000x32_S2000x32_0_0

/-! ## What the body leaves in the output window's buffer -/

/-- The product block: the one store, over the whole buffer, of the payload at the two blocks read. -/
noncomputable def out45_2 (x0 : Vec F S2000x64 .f32) (x1 : Vec F S64x32 .f32) : Vec F S2000x32 .f32 :=
  View.canon [⟨r45_2, k45_pay1 (View.ld x0 r45_0) (View.ld x1 r45_1)⟩]

/-- The store's rectangle is the whole buffer, so it covers every index. -/
theorem cover45_2 (p0 : Vec F S2000x32 .f32) (y : S2000x32.Idx) :
    ∃ pc ∈ ([⟨r45_2, p0⟩] : List (View.Piece (Elt F) S2000x32 .f32)), y ∈ pc.1.set :=
  View.cover_of_tiled [⟨r45_2, p0⟩] S2000x32.size (by rfl) y

/-! ## The body's triple -/

set_option maxHeartbeats 1000000 in
/-- On whole staging memrefs, the inputs' holding x0 and x1 and the output's holding anything, the body
    runs to a state where the inputs' are unchanged and the output's holds out45_2 x0 x1. The body also reads
    the output buffer before storing into it; the value read is not used. -/
theorem sound_kernel45 (c : Dev nD) (E : Set ℕ) (i : grid45.Coords) (arg1 : Memref sig .tc .vmem S2000x64 .f32) (harg1 : arg1.IsWhole) (arg2 : Memref sig .tc .vmem S64x32 .f32) (harg2 : arg2.IsWhole) (arg3 : Memref sig .tc .vmem S2000x32 .f32) (harg3 : arg3.IsWhole)
    (x0 : Vec F S2000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out45_2 x0 x1)) -∗ K ⟨⟩))
      ⊢ wp frame (wpE (defs₀ (F := F)) Variants.none c none) E (cc45__linear_kernel i arg1 harg1 arg2 harg2 arg3 harg3) K := by
  simp only [cc45__linear_kernel_eq_skeleton]; unfold cc45__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover45_2 _)

/-! ## The pipeline's proof data -/

/-- The arrays as the region finds them; after the body at point t the inputs' buffers at their blocks
    and the output's at the product block; the invariant is the scoped rest and the generator register,
    untouched; nothing owed; full shares. -/
noncomputable def dat45 (c : Dev nD) : Dat τ (Elt F) Unit ℕ (UR sig nD τ) ℕ cfg45 c where
  A w := V c (Pipeline.arrRef spec45 w)
  after w t := match w with
    | ⟨0, _⟩ => iblk45 V c 0 t
    | ⟨1, _⟩ => iblk45 V c 1 t
    | ⟨2, _⟩ => out45_2 (iblk45 V c 0 t) (iblk45 V c 1 t)
  Φ _ := Pipeline.ΦA spec45 c
  q _ := fullShare
  owed _ := 0

theorem A_eq45 (c : Dev nD) (w : Fin cfg45.W) : (dat45 V c).A w = V c (Pipeline.arrRef spec45 w) := by
  dsimp only [dat45]

theorem after45_0 (c : Dev nD) (t : Fin cfg45.N) : (dat45 V c).after 0 t = iblk45 V c 0 t := by dsimp only [dat45]
theorem after45_1 (c : Dev nD) (t : Fin cfg45.N) : (dat45 V c).after 1 t = iblk45 V c 1 t := by dsimp only [dat45]
theorem after45_2 (c : Dev nD) (t : Fin cfg45.N) : (dat45 V c).after 2 t = out45_2 (iblk45 V c 0 t) (iblk45 V c 1 t) := by dsimp only [dat45]

theorem before45_0 (c : Dev nD) (t : Fin cfg45.N) (d) : (dat45 V c).before 0 t d = iblk45 V c 0 t :=
  before45_0_of V (dat45 V c) (A_eq45 V c 0) (after45_0 V c) t d
theorem before45_1 (c : Dev nD) (t : Fin cfg45.N) (d) : (dat45 V c).before 1 t d = iblk45 V c 1 t :=
  before45_1_of V (dat45 V c) (A_eq45 V c 1) (after45_1 V c) t d

/-! ## The body obligation, at a generic point -/

/-- What the body is called with at point t, window by window, -/
noncomputable def bodyPre45 (c : Dev nD) (t : Fin cfg45.N) : sProp 𝕄 :=
  iprop((dat45 V c).Φ t.castSucc ∗ (dat45 V c).owesAt () t.castSucc
    ∗ (∃ d, owns (c : Thread nD τ) (st45_0 t) fullShare ((dat45 V c).before 0 t d))
    ∗ (∃ d, owns (c : Thread nD τ) (st45_1 t) fullShare ((dat45 V c).before 1 t d))
    ∗ (∃ d, owns (c : Thread nD τ) (st45_2 t) fullShare ((dat45 V c).before 2 t d)))

/-- and what it returns. -/
noncomputable def bodyPost45 (c : Dev nD) (t : Fin cfg45.N) : sProp 𝕄 :=
  iprop((dat45 V c).Φ t.succ ∗ (dat45 V c).owesAt () t.succ
    ∗ owns (c : Thread nD τ) (st45_0 t) fullShare ((dat45 V c).after 0 t)
    ∗ owns (c : Thread nD τ) (st45_1 t) fullShare ((dat45 V c).after 1 t)
    ∗ owns (c : Thread nD τ) (st45_2 t) fullShare ((dat45 V c).after 2 t))

/-- The inputs' memrefs hold their blocks, so the body's triple applies; the invariant and what the core
    owes pass through unread. -/
theorem sound_body45 (c : Dev nD) (t : Fin cfg45.N) :
    bodyPre45 V c t ⊢ wp frame (wpE (defs₀ (F := F)) Variants.none c none) Set.univ (bodyAt45 t) (fun _ => bodyPost45 V c t) := by
  unfold bodyPre45 bodyPost45 bodyAt45
  simp only [before45_0, before45_1]
  rw [show (dat45 V c).Φ t.succ = (dat45 V c).Φ t.castSucc from rfl,
    show (dat45 V c).owesAt () t.succ = (dat45 V c).owesAt () t.castSucc from rfl,
    after45_0, after45_1, after45_2]
  iintro ⟨HΦ, Ho, ⟨%d0, H0⟩, ⟨%d1, H1⟩, ⟨%d2, H2⟩⟩
  iapply (sound_kernel45 c Set.univ (grid45.coords t) _ _ _ _ _ _ (iblk45 V c 0 t) (iblk45 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation45 (c : Dev nD) : BodyObligation (dat45 (F := F) V c) (defs₀ (F := F)) Variants.none () Set.univ := fun t => by
  rw [bigSep_W45, bigSep_W45]
  exact sound_body45 V c t

end Region45

end Cert.Kernel.Hand

end
-- ==== Proof.KB.R46.lean ====
/- Region 46: each row of agg + b is mapped to its softmax with a one added to the denominator
   (s = e / (1 + Σ e), e = exp (v − row maximum of v), v = agg + b), block of 2000 rows by block, and the column
   sums of s are accumulated over the 25 row blocks in a [1, 32] accumulator that lives across the grid points.
   The body branches twice on the grid coordinate: at the first point it zeroes the accumulator, at the last point
   it copies the accumulator into the [1, 32] output block. Three cases meet the grid: A (the first point),
   B (the points strictly between), C (the last point).
   This module: what the cases share; the body run once per case; what each case leaves in the outputs and in the
   accumulator, and what they hold point by point; the proof data of the pipeline; the body obligation; the
   invariant at the region's two ends. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## The windows' blocks -/

/-- Window `w`'s block at point `t`, read off its array as the region finds it. -/
noncomputable def iblk46 (c : Dev nD) (w : Fin cfg46.W) (t : Fin cfg46.N) : ((cfg46.win w).xblock (cfg46.grid.coords t)).Idx → Elt F (cfg46.win w).elt :=
  ((cfg46.win w).blk t).view.read (Elt F) (V c (Pipeline.arrRef spec46 w))

/-- The row block of agg: its staging buffer holds the block of the point, fetched there or not, for any proof data
    whose array is the entry contents and whose body leaves the block in place. -/
theorem before46_0_of {c : Dev nD} (dat : Dat τ (Elt F) Unit ℕ (UR sig nD τ) ℕ cfg46 c) (hA : dat.A 0 = V c (Pipeline.arrRef spec46 0))
    (hafter : ∀ t, dat.after 0 t = iblk46 V c 0 t) (t : Fin cfg46.N) (d) : dat.before 0 t d = iblk46 V c 0 t :=
  (dat.before_in_eq_fetched 0 rfl (fun _ => rfl) (fun _ _ _ => rfl) (fun t => by rw [hafter]; unfold Dat.blockOf iblk46; rw [hA]; try rfl) t d).trans
    (by unfold Dat.fetched Dat.blockOf iblk46; rw [hA]; try rfl)

/-- The bias row b: its one block is fetched at the first point only and its index never moves, so the buffer holds
    it at every point. -/
theorem before46_1_of {c : Dev nD} (dat : Dat τ (Elt F) Unit ℕ (UR sig nD τ) ℕ cfg46 c) (hA : dat.A 1 = V c (Pipeline.arrRef spec46 1))
    (hafter : ∀ t, dat.after 1 t = iblk46 V c 1 t) (t : Fin cfg46.N) (d) : dat.before 1 t d = iblk46 V c 1 t :=
  (dat.before_in_eq_fetched 1 rfl (fun _ => rfl) (fun _ _ _ => rfl) (fun t => by rw [hafter]; unfold Dat.blockOf iblk46; rw [hA]; try rfl) t d).trans
    (by unfold Dat.fetched Dat.blockOf iblk46; rw [hA]; try rfl)

end Entry

/-! ## The body's two conditions on the grid coordinate -/

/-- "This is the first row block": the condition under which the accumulator is zeroed. -/
noncomputable abbrev cond46_0 (i : grid46.Coords) : Prop := (Scalar.cmpi .ne (Scalar.extui (Scalar.cmpi .eq (BitVec.ofNat 32 (i 0).val) 0#32)) 0#32) = 1#1
/-- It holds at point 0 only — decided over the grid. -/
theorem hcond46_0 : ∀ t : Fin cfg46.N, cond46_0 (grid46.coords t) ↔ t.val = 0 :=
  (by decide +kernel : ∀ t : Fin grid46.N, cond46_0 (grid46.coords t) ↔ t.val = 0)

/-- "This is the last row block": the condition under which the accumulator is copied out. -/
noncomputable abbrev cond46_1 (i : grid46.Coords) : Prop := k46_cond2 i = 1#1
/-- It holds at point 24 only — decided over the grid. -/
theorem hcond46_1 : ∀ t : Fin cfg46.N, cond46_1 (grid46.coords t) ↔ t.val = 24 :=
  (by decide +kernel : ∀ t : Fin grid46.N, cond46_1 (grid46.coords t) ↔ t.val = 24)

/-! ## Where the windows are idle -/

theorem liveAt46_0 : ∀ t : Fin cfg46.N, cfg46.idle 0 (grid46.coords t) = false := fun _ => rfl
theorem liveAt46_1 : ∀ t : Fin cfg46.N, cfg46.idle 1 (grid46.coords t) = false := fun _ => rfl
theorem liveAt46_2 : ∀ t : Fin cfg46.N, cfg46.idle 2 (grid46.coords t) = false := fun _ => rfl
/-- Before the last point nothing is stored into the column-sum block, and it is not written back there. -/
theorem idleAt46_3 : ∀ t : Fin cfg46.N, ¬cond46_1 (grid46.coords t) → cfg46.idle 3 (grid46.coords t) = true := by decide +kernel
theorem noFlush46_3 : ∀ t : Fin cfg46.N, ¬cond46_1 (grid46.coords t) → (cfg46.win 3).flush t = false := by decide +kernel
/-- At the last point it is stored. -/
theorem liveAt46_3 : ∀ t : Fin cfg46.N, cond46_1 (grid46.coords t) → cfg46.idle 3 (grid46.coords t) = false := by decide +kernel

/-! ## The staging memrefs and the accumulator -/

/-- One staging buffer of each output window, through which its contents are stated (the choice does not matter). -/
noncomputable abbrev VO46_2 : View sig .tc .vmem S2000x32 .f32 := (Memref.whole cc46_stg2_0 : Memref sig .tc .vmem S2000x32 .f32).view
noncomputable abbrev VO46_3 : View sig .tc .vmem S1x32 .f32 := (Memref.whole cc46_stg3_0 : Memref sig .tc .vmem S1x32 .f32).view
/-- Each window's current staging memref at point `t`, as the pipeline passes it to the body, and its wholeness. -/
noncomputable abbrev ms46_0 (t : Fin cfg46.N) : Memref sig .tc .vmem S2000x32 .f32 := win46_0.stage (cfg46.slots t 0)
noncomputable abbrev hs46_0 (t : Fin cfg46.N) : (ms46_0 t).IsWhole := hstage46_0 ((cfg46.slots t 0).cast nbuf46_0)
noncomputable abbrev ms46_1 (t : Fin cfg46.N) : Memref sig .tc .vmem S1x32 .f32 := win46_1.stage (cfg46.slots t 1)
noncomputable abbrev hs46_1 (t : Fin cfg46.N) : (ms46_1 t).IsWhole := hstage46_1 ((cfg46.slots t 1).cast nbuf46_1)
noncomputable abbrev ms46_2 (t : Fin cfg46.N) : Memref sig .tc .vmem S2000x32 .f32 := win46_2.stage (cfg46.slots t 2)
noncomputable abbrev hs46_2 (t : Fin cfg46.N) : (ms46_2 t).IsWhole := hstage46_2 ((cfg46.slots t 2).cast nbuf46_2)
noncomputable abbrev ms46_3 (t : Fin cfg46.N) : Memref sig .tc .vmem S1x32 .f32 := win46_3.stage (cfg46.slots t 3)
noncomputable abbrev hs46_3 (t : Fin cfg46.N) : (ms46_3 t).IsWhole := hstage46_3 ((cfg46.slots t 3).cast nbuf46_3)
/-- The accumulator: a whole scoped buffer of the kernel's own, passed beside the windows. -/
noncomputable abbrev scM46_0 : Memref sig .tc .vmem S1x32 .f32 := Memref.whole cc46_scratch0
/-- The accumulator as a view: what it holds is stated through it. -/
noncomputable abbrev VS46_0 : View sig .tc .vmem S1x32 .f32 := scM46_0.view

/-- What the region is handed, with the accumulator split out of the scoped buffers as a memref owned at some
    contents: what the body obligation hands the body and takes back. -/
theorem PhiA46_eq (c : Dev nD) :
    (Pipeline.ΦA spec46 c : sProp 𝕄)
      = iprop(iprop(iprop((∃ d, owns (c : Thread nD τ) scM46_0 fullShare d))
          ∗ Pipeline.scopedRestBut (Ix := Unit) (Name := ℕ) (U := UR sig nD τ) (Lvl := ℕ) (Val := Elt F) spec46 c [cc46_scratch0]) ∗ (∃ r, prngReg c r)) := by
  unfold Pipeline.ΦA; rw [scopedRest46_split]; simp only [scM46_0, owns_whole]; try rfl

/-! # Case A's run -/

set_option maxHeartbeats 4000000 in
/-- What the body's stores leave in each output's staging memref and in the accumulator, as pieces (last first), in
    case A, with the proof that on whole memrefs — the inputs' at their blocks `x0` (rows of agg), `x1` (b) — the
    body runs to the continuation holding the inputs' as they were and each stored buffer with its pieces written.
    The pieces are found by running the body's memory operations one by one. -/
noncomputable def kernelRun46_A (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond46_0 i) (hc1 : ¬cond46_1 i)
    (x0 : Vec F S2000x32 .f32) (x1 : Vec F S1x32 .f32) :
    Σ' (L2 : List (View.Piece (Elt F) S2000x32 .f32)) (L3 : List (View.Piece (Elt F) S1x32 .f32)), { LS0 : List (View.Piece (Elt F) S1x32 .f32) //
      ∀ (xi3 : Vec F S1x32 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc46__bias_softmax_stats_kernel i arg1 harg1 arg2 harg2 arg3 harg3 arg4 harg4 arg5 harg5) K } := by
  refine ⟨?_, [], ?_, fun xi3 E K => ?run⟩
  case run =>
    simp only [cc46__bias_softmax_stats_kernel_eq_skeleton]; unfold cc46__bias_softmax_stats_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

/-! # Case B's run -/

set_option maxHeartbeats 4000000 in
/-- What the body's stores leave in each output's staging memref and in the accumulator, as pieces (last first), in
    case B, with the proof that on whole memrefs — the inputs' at their blocks `x0` (rows of agg), `x1` (b) — the
    body runs to the continuation holding the inputs' as they were and each stored buffer with its pieces written.
    The pieces are found by running the body's memory operations one by one. -/
noncomputable def kernelRun46_B (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : ¬cond46_1 i)
    (x0 : Vec F S2000x32 .f32) (x1 : Vec F S1x32 .f32) (xs0 : Vec F S1x32 .f32) :
    Σ' (L2 : List (View.Piece (Elt F) S2000x32 .f32)) (L3 : List (View.Piece (Elt F) S1x32 .f32)), { LS0 : List (View.Piece (Elt F) S1x32 .f32) //
      ∀ (xi3 : Vec F S1x32 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc46__bias_softmax_stats_kernel i arg1 harg1 arg2 harg2 arg3 harg3 arg4 harg4 arg5 harg5) K } := by
  refine ⟨?_, [], ?_, fun xi3 E K => ?run⟩
  case run =>
    simp only [cc46__bias_softmax_stats_kernel_eq_skeleton]; unfold cc46__bias_softmax_stats_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

/-! # Case C's run -/

set_option maxHeartbeats 4000000 in
/-- What the body's stores leave in each output's staging memref and in the accumulator, as pieces (last first), in
    case C, with the proof that on whole memrefs — the inputs' at their blocks `x0` (rows of agg), `x1` (b) — the
    body runs to the continuation holding the inputs' as they were and each stored buffer with its pieces written.
    The pieces are found by running the body's memory operations one by one. -/
noncomputable def kernelRun46_C (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) :
    Σ' (L2 : List (View.Piece (Elt F) S2000x32 .f32)) (L3 : List (View.Piece (Elt F) S1x32 .f32)), { LS0 : List (View.Piece (Elt F) S1x32 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc46__bias_softmax_stats_kernel i arg1 harg1 arg2 harg2 arg3 harg3 arg4 harg4 arg5 harg5) K } := by
  refine ⟨?_, ?_, ?_, fun E K => ?run⟩
  case run =>
    simp only [cc46__bias_softmax_stats_kernel_eq_skeleton]; unfold cc46__bias_softmax_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; iexact H3
    iexists _; iexact HS0

/-! # What the cases leave, point by point; the proof data; the body obligation -/

variable (V : (c : Dev nD) → (b : Ref sig .tc) → Buf (Elt F) ((c : Thread nD τ).loc b))

/-! ## What each case leaves in each output's staging buffer and in the accumulator -/

/-! ### Case A: the first row block -/

/-- The one store of the softmax block tiles the [2000, 32] staging buffer, so the case's pieces cover it. -/
theorem cover46_A_2 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond46_0 i) (hc1 : ¬cond46_1 i)
    (x0 : Vec F S2000x32 .f32) (x1 : Vec F S1x32 .f32) (y : S2000x32.Idx) :
    ∃ pc ∈ (kernelRun46_A c i arg1 harg1 arg2 harg2 arg3 harg3 arg4 harg4 arg5 harg5 hc0 hc1 x0 x1).1, y ∈ pc.1.set :=
  View.cover_of_tiledL (kernelRun46_A c i arg1 harg1 arg2 harg2 arg3 harg3 arg4 harg4 arg5 harg5 hc0 hc1 x0 x1).1 S2000x32.size (by sl_kernel_rfl) y

/-- What case A leaves in the softmax block's staging buffer: its pieces read back. -/
noncomputable def out46_A_2 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond46_0 i) (hc1 : ¬cond46_1 i)
    (x0 : Vec F S2000x32 .f32) (x1 : Vec F S1x32 .f32) : Vec F S2000x32 .f32 :=
  VO46_2.read (Elt F) (VO46_2.writes (Elt F) VO46_2.junk (kernelRun46_A c i arg1 harg1 arg2 harg2 arg3 harg3 arg4 harg4 arg5 harg5 hc0 hc1 x0 x1).1)

/-- Case A stores nothing into the column-sum buffer (the window is idle there and not written back): no pieces —
    an arbitrary value that nothing consults. -/
noncomputable def out46_A_3 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond46_0 i) (hc1 : ¬cond46_1 i)
    (x0 : Vec F S2000x32 .f32) (x1 : Vec F S1x32 .f32) : Vec F S1x32 .f32 :=
  VO46_3.read (Elt F) (VO46_3.writes (Elt F) VO46_3.junk (kernelRun46_A c i arg1 harg1 arg2 harg2 arg3 harg3 arg4 harg4 arg5 harg5 hc0 hc1 x0 x1).2.1)

/-- Case A's last store into the accumulator is whole, so its pieces cover it. -/
theorem scover46_A_0 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond46_0 i) (hc1 : ¬cond46_1 i)
    (x0 : Vec F S2000x32 .f32) (x1 : Vec F S1x32 .f32) (y : S1x32.Idx) :
    ∃ pc ∈ (kernelRun46_A c i arg1 harg1 arg2 harg2 arg3 harg3 arg4 harg4 arg5 harg5 hc0 hc1 x0 x1).2.2.1, y ∈ pc.1.set :=
  View.cover_of_tiledL (kernelRun46_A c i arg1 harg1 arg2 harg2 arg3 harg3 arg4 harg4 arg5 harg5 hc0 hc1 x0 x1).2.2.1 S1x32.size (by sl_kernel_rfl) y

/-- What case A leaves in the accumulator: its pieces read back. -/
noncomputable def sout46_A_0 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond46_0 i) (hc1 : ¬cond46_1 i)
    (x0 : Vec F S2000x32 .f32) (x1 : Vec F S1x32 .f32) : Vec F S1x32 .f32 :=
  VS46_0.read (Elt F) (VS46_0.writes (Elt F) VS46_0.junk (kernelRun46_A c i arg1 harg1 arg2 harg2 arg3 harg3 arg4 harg4 arg5 harg5 hc0 hc1 x0 x1).2.2.1)

/-! ### Case B: a middle row block -/

/-- The one store of the softmax block tiles the [2000, 32] staging buffer, so the case's pieces cover it. -/
theorem cover46_B_2 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : ¬cond46_1 i)
    (x0 : Vec F S2000x32 .f32) (x1 : Vec F S1x32 .f32) (xs0 : Vec F S1x32 .f32) (y : S2000x32.Idx) :
    ∃ pc ∈ (kernelRun46_B c i arg1 harg1 arg2 harg2 arg3 harg3 arg4 harg4 arg5 harg5 hc0 hc1 x0 x1 xs0).1, y ∈ pc.1.set :=
  View.cover_of_tiledL (kernelRun46_B c i arg1 harg1 arg2 harg2 arg3 harg3 arg4 harg4 arg5 harg5 hc0 hc1 x0 x1 xs0).1 S2000x32.size (by sl_kernel_rfl) y

/-- What case B leaves in the softmax block's staging buffer: its pieces read back. -/
noncomputable def out46_B_2 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : ¬cond46_1 i)
    (x0 : Vec F S2000x32 .f32) (x1 : Vec F S1x32 .f32) (xs0 : Vec F S1x32 .f32) : Vec F S2000x32 .f32 :=
  VO46_2.read (Elt F) (VO46_2.writes (Elt F) VO46_2.junk (kernelRun46_B c i arg1 harg1 arg2 harg2 arg3 harg3 arg4 harg4 arg5 harg5 hc0 hc1 x0 x1 xs0).1)

/-- Case B stores nothing into the column-sum buffer (the window is idle there and not written back): no pieces —
    an arbitrary value that nothing consults. -/
noncomputable def out46_B_3 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : ¬cond46_1 i)
    (x0 : Vec F S2000x32 .f32) (x1 : Vec F S1x32 .f32) (xs0 : Vec F S1x32 .f32) : Vec F S1x32 .f32 :=
  VO46_3.read (Elt F) (VO46_3.writes (Elt F) VO46_3.junk (kernelRun46_B c i arg1 harg1 arg2 harg2 arg3 harg3 arg4 harg4 arg5 harg5 hc0 hc1 x0 x1 xs0).2.1)

/-- Case B's last store into the accumulator is whole, so its pieces cover it. -/
theorem scover46_B_0 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : ¬cond46_1 i)
    (x0 : Vec F S2000x32 .f32) (x1 : Vec F S1x32 .f32) (xs0 : Vec F S1x32 .f32) (y : S1x32.Idx) :
    ∃ pc ∈ (kernelRun46_B c i arg1 harg1 arg2 harg2 arg3 harg3 arg4 harg4 arg5 harg5 hc0 hc1 x0 x1 xs0).2.2.1, y ∈ pc.1.set :=
  View.cover_of_tiledL (kernelRun46_B c i arg1 harg1 arg2 harg2 arg3 harg3 arg4 harg4 arg5 harg5 hc0 hc1 x0 x1 xs0).2.2.1 S1x32.size (by sl_kernel_rfl) y

/-- What case B leaves in the accumulator: its pieces read back. -/
noncomputable def sout46_B_0 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : ¬cond46_1 i)
    (x0 : Vec F S2000x32 .f32) (x1 : Vec F S1x32 .f32) (xs0 : Vec F S1x32 .f32) : Vec F S1x32 .f32 :=
  VS46_0.read (Elt F) (VS46_0.writes (Elt F) VS46_0.junk (kernelRun46_B c i arg1 harg1 arg2 harg2 arg3 harg3 arg4 harg4 arg5 harg5 hc0 hc1 x0 x1 xs0).2.2.1)

/-! ### Case C: the last row block -/

/-- The one store of the softmax block tiles the [2000, 32] staging buffer, so the case's pieces cover it. -/
theorem cover46_C_2 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) (y : S2000x32.Idx) :
    ∃ pc ∈ (kernelRun46_C c i arg1 harg1 arg2 harg2 arg3 harg3 arg4 harg4 arg5 harg5 hc0 hc1 x0 x1 xs0).1, y ∈ pc.1.set :=
  View.cover_of_tiledL (kernelRun46_C c i arg1 harg1 arg2 harg2 arg3 harg3 arg4 harg4 arg5 harg5 hc0 hc1 x0 x1 xs0).1 S2000x32.size (by sl_kernel_rfl) y

/-- What case C leaves in the softmax block's staging buffer: its pieces read back. -/
noncomputable def out46_C_2 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) : Vec F S2000x32 .f32 :=
  VO46_2.read (Elt F) (VO46_2.writes (Elt F) VO46_2.junk (kernelRun46_C c i arg1 harg1 arg2 harg2 arg3 harg3 arg4 harg4 arg5 harg5 hc0 hc1 x0 x1 xs0).1)

/-- The copy of the accumulator tiles the [1, 32] column-sum buffer, so the case's pieces cover it. -/
theorem cover46_C_3 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) (y : S1x32.Idx) :
    ∃ pc ∈ (kernelRun46_C c i arg1 harg1 arg2 harg2 arg3 harg3 arg4 harg4 arg5 harg5 hc0 hc1 x0 x1 xs0).2.1, y ∈ pc.1.set :=
  View.cover_of_tiledL (kernelRun46_C c i arg1 harg1 arg2 harg2 arg3 harg3 arg4 harg4 arg5 harg5 hc0 hc1 x0 x1 xs0).2.1 S1x32.size (by sl_kernel_rfl) y

/-- What case C leaves in the column-sum buffer: its pieces read back. -/
noncomputable def out46_C_3 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) : Vec F S1x32 .f32 :=
  VO46_3.read (Elt F) (VO46_3.writes (Elt F) VO46_3.junk (kernelRun46_C c i arg1 harg1 arg2 harg2 arg3 harg3 arg4 harg4 arg5 harg5 hc0 hc1 x0 x1 xs0).2.1)

/-- Case C's last store into the accumulator is whole, so its pieces cover it. -/
theorem scover46_C_0 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) (y : S1x32.Idx) :
    ∃ pc ∈ (kernelRun46_C c i arg1 harg1 arg2 harg2 arg3 harg3 arg4 harg4 arg5 harg5 hc0 hc1 x0 x1 xs0).2.2.1, y ∈ pc.1.set :=
  View.cover_of_tiledL (kernelRun46_C c i arg1 harg1 arg2 harg2 arg3 harg3 arg4 harg4 arg5 harg5 hc0 hc1 x0 x1 xs0).2.2.1 S1x32.size (by sl_kernel_rfl) y

/-- What case C leaves in the accumulator: its pieces read back. -/
noncomputable def sout46_C_0 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) : Vec F S1x32 .f32 :=
  VS46_0.read (Elt F) (VS46_0.writes (Elt F) VS46_0.junk (kernelRun46_C c i arg1 harg1 arg2 harg2 arg3 harg3 arg4 harg4 arg5 harg5 hc0 hc1 x0 x1 xs0).2.2.1)

/-! ## What the outputs and the accumulator hold after each point -/

/-- THE ACCUMULATION. What the two outputs' staging buffers and the accumulator hold after the body at position `n`
    (a triple: the softmax block, the column-sum block, the accumulator): the case of the point, run at the point's memrefs
    and input blocks; at a point after the first the accumulator starts from what the point before left in it. -/
noncomputable def outsAt46 (c : Dev nD) : (n : ℕ) → n < cfg46.N → Vec F S2000x32 .f32 × Vec F S1x32 .f32 × Vec F S1x32 .f32
  | 0, hn =>
    (out46_A_2 c (grid46.coords ⟨0, hn⟩) (ms46_0 ⟨0, hn⟩) (hs46_0 ⟨0, hn⟩) (ms46_1 ⟨0, hn⟩) (hs46_1 ⟨0, hn⟩) (ms46_2 ⟨0, hn⟩) (hs46_2 ⟨0, hn⟩) (ms46_3 ⟨0, hn⟩) (hs46_3 ⟨0, hn⟩) scM46_0 (Memref.isWhole_whole _) ((hcond46_0 ⟨0, hn⟩).mpr rfl) (fun h => absurd (show (0 : ℕ) = 24 from (hcond46_1 ⟨0, hn⟩).mp h) (by decide)) (iblk46 V c 0 ⟨0, hn⟩) (iblk46 V c 1 ⟨0, hn⟩),
      out46_A_3 c (grid46.coords ⟨0, hn⟩) (ms46_0 ⟨0, hn⟩) (hs46_0 ⟨0, hn⟩) (ms46_1 ⟨0, hn⟩) (hs46_1 ⟨0, hn⟩) (ms46_2 ⟨0, hn⟩) (hs46_2 ⟨0, hn⟩) (ms46_3 ⟨0, hn⟩) (hs46_3 ⟨0, hn⟩) scM46_0 (Memref.isWhole_whole _) ((hcond46_0 ⟨0, hn⟩).mpr rfl) (fun h => absurd (show (0 : ℕ) = 24 from (hcond46_1 ⟨0, hn⟩).mp h) (by decide)) (iblk46 V c 0 ⟨0, hn⟩) (iblk46 V c 1 ⟨0, hn⟩),
      sout46_A_0 c (grid46.coords ⟨0, hn⟩) (ms46_0 ⟨0, hn⟩) (hs46_0 ⟨0, hn⟩) (ms46_1 ⟨0, hn⟩) (hs46_1 ⟨0, hn⟩) (ms46_2 ⟨0, hn⟩) (hs46_2 ⟨0, hn⟩) (ms46_3 ⟨0, hn⟩) (hs46_3 ⟨0, hn⟩) scM46_0 (Memref.isWhole_whole _) ((hcond46_0 ⟨0, hn⟩).mpr rfl) (fun h => absurd (show (0 : ℕ) = 24 from (hcond46_1 ⟨0, hn⟩).mp h) (by decide)) (iblk46 V c 0 ⟨0, hn⟩) (iblk46 V c 1 ⟨0, hn⟩))
  | n + 1, hn =>
    if h1 : n + 1 = 24 then
      (out46_C_2 c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) (ms46_3 ⟨n + 1, hn⟩) (hs46_3 ⟨n + 1, hn⟩) scM46_0 (Memref.isWhole_whole _) (fun h => absurd ((hcond46_0 ⟨n + 1, hn⟩).mp h) (Nat.succ_ne_zero n)) ((hcond46_1 ⟨n + 1, hn⟩).mpr h1) (iblk46 V c 0 ⟨n + 1, hn⟩) (iblk46 V c 1 ⟨n + 1, hn⟩) (outsAt46 c n (Nat.lt_of_succ_lt hn)).2.2,
      out46_C_3 c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) (ms46_3 ⟨n + 1, hn⟩) (hs46_3 ⟨n + 1, hn⟩) scM46_0 (Memref.isWhole_whole _) (fun h => absurd ((hcond46_0 ⟨n + 1, hn⟩).mp h) (Nat.succ_ne_zero n)) ((hcond46_1 ⟨n + 1, hn⟩).mpr h1) (iblk46 V c 0 ⟨n + 1, hn⟩) (iblk46 V c 1 ⟨n + 1, hn⟩) (outsAt46 c n (Nat.lt_of_succ_lt hn)).2.2,
      sout46_C_0 c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) (ms46_3 ⟨n + 1, hn⟩) (hs46_3 ⟨n + 1, hn⟩) scM46_0 (Memref.isWhole_whole _) (fun h => absurd ((hcond46_0 ⟨n + 1, hn⟩).mp h) (Nat.succ_ne_zero n)) ((hcond46_1 ⟨n + 1, hn⟩).mpr h1) (iblk46 V c 0 ⟨n + 1, hn⟩) (iblk46 V c 1 ⟨n + 1, hn⟩) (outsAt46 c n (Nat.lt_of_succ_lt hn)).2.2)
    else
      (out46_B_2 c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) (ms46_3 ⟨n + 1, hn⟩) (hs46_3 ⟨n + 1, hn⟩) scM46_0 (Memref.isWhole_whole _) (fun h => absurd ((hcond46_0 ⟨n + 1, hn⟩).mp h) (Nat.succ_ne_zero n)) (fun h => h1 ((hcond46_1 ⟨n + 1, hn⟩).mp h)) (iblk46 V c 0 ⟨n + 1, hn⟩) (iblk46 V c 1 ⟨n + 1, hn⟩) (outsAt46 c n (Nat.lt_of_succ_lt hn)).2.2,
      out46_B_3 c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) (ms46_3 ⟨n + 1, hn⟩) (hs46_3 ⟨n + 1, hn⟩) scM46_0 (Memref.isWhole_whole _) (fun h => absurd ((hcond46_0 ⟨n + 1, hn⟩).mp h) (Nat.succ_ne_zero n)) (fun h => h1 ((hcond46_1 ⟨n + 1, hn⟩).mp h)) (iblk46 V c 0 ⟨n + 1, hn⟩) (iblk46 V c 1 ⟨n + 1, hn⟩) (outsAt46 c n (Nat.lt_of_succ_lt hn)).2.2,
      sout46_B_0 c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) (ms46_3 ⟨n + 1, hn⟩) (hs46_3 ⟨n + 1, hn⟩) scM46_0 (Memref.isWhole_whole _) (fun h => absurd ((hcond46_0 ⟨n + 1, hn⟩).mp h) (Nat.succ_ne_zero n)) (fun h => h1 ((hcond46_1 ⟨n + 1, hn⟩).mp h)) (iblk46 V c 0 ⟨n + 1, hn⟩) (iblk46 V c 1 ⟨n + 1, hn⟩) (outsAt46 c n (Nat.lt_of_succ_lt hn)).2.2)

/-- `outsAt46` at the first point: case A's contents. -/
theorem outsAt46_A (c : Dev nD) (t : Fin cfg46.N) (h0 : t.val = 0) (h1 : ¬t.val = 24) :
    outsAt46 V c t.val t.isLt =
      (out46_A_2 c (grid46.coords t) (ms46_0 t) (hs46_0 t) (ms46_1 t) (hs46_1 t) (ms46_2 t) (hs46_2 t) (ms46_3 t) (hs46_3 t) scM46_0 (Memref.isWhole_whole _) ((hcond46_0 t).mpr h0) (fun h => h1 ((hcond46_1 t).mp h)) (iblk46 V c 0 t) (iblk46 V c 1 t),
      out46_A_3 c (grid46.coords t) (ms46_0 t) (hs46_0 t) (ms46_1 t) (hs46_1 t) (ms46_2 t) (hs46_2 t) (ms46_3 t) (hs46_3 t) scM46_0 (Memref.isWhole_whole _) ((hcond46_0 t).mpr h0) (fun h => h1 ((hcond46_1 t).mp h)) (iblk46 V c 0 t) (iblk46 V c 1 t),
      sout46_A_0 c (grid46.coords t) (ms46_0 t) (hs46_0 t) (ms46_1 t) (hs46_1 t) (ms46_2 t) (hs46_2 t) (ms46_3 t) (hs46_3 t) scM46_0 (Memref.isWhole_whole _) ((hcond46_0 t).mpr h0) (fun h => h1 ((hcond46_1 t).mp h)) (iblk46 V c 0 t) (iblk46 V c 1 t)) := by
  obtain ⟨n, hn⟩ := t
  cases n with
  | zero => exact rfl
  | succ n => exact absurd h0 (Nat.succ_ne_zero n)

/-- `outsAt46` at a middle point: case B's contents, over what the point before left in the accumulator. -/
theorem outsAt46_B (c : Dev nD) (t : Fin cfg46.N) (h0 : ¬t.val = 0) (h1 : ¬t.val = 24) :
    outsAt46 V c t.val t.isLt =
      (out46_B_2 c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) (fun h => h1 ((hcond46_1 t).mp h)) (iblk46 V c 0 t) (iblk46 V c 1 t) (outsAt46 V c (t.val - 1) (Nat.lt_of_le_of_lt (Nat.sub_le _ _) t.isLt)).2.2,
      out46_B_3 c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) (fun h => h1 ((hcond46_1 t).mp h)) (iblk46 V c 0 t) (iblk46 V c 1 t) (outsAt46 V c (t.val - 1) (Nat.lt_of_le_of_lt (Nat.sub_le _ _) t.isLt)).2.2,
      sout46_B_0 c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) (fun h => h1 ((hcond46_1 t).mp h)) (iblk46 V c 0 t) (iblk46 V c 1 t) (outsAt46 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt46` at the last point: case C's contents, over what the point before left in the accumulator. -/
theorem outsAt46_C (c : Dev nD) (t : Fin cfg46.N) (h0 : ¬t.val = 0) (h1 : t.val = 24) :
    outsAt46 V c t.val t.isLt =
      (out46_C_2 c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) ((hcond46_1 t).mpr h1) (iblk46 V c 0 t) (iblk46 V c 1 t) (outsAt46 V c (t.val - 1) (Nat.lt_of_le_of_lt (Nat.sub_le _ _) t.isLt)).2.2,
      out46_C_3 c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) ((hcond46_1 t).mpr h1) (iblk46 V c 0 t) (iblk46 V c 1 t) (outsAt46 V c (t.val - 1) (Nat.lt_of_le_of_lt (Nat.sub_le _ _) t.isLt)).2.2,
      sout46_C_0 c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) ((hcond46_1 t).mpr h1) (iblk46 V c 0 t) (iblk46 V c 1 t) (outsAt46 V c (t.val - 1) (Nat.lt_of_le_of_lt (Nat.sub_le _ _) t.isLt)).2.2) := by
  obtain ⟨n, hn⟩ := t
  cases n with
  | zero => exact absurd rfl h0
  | succ n => exact (dif_pos h1).trans rfl

/-! ## The invariant -/

/-- The region invariant before position `n`: before the first point what the region is handed (the accumulator at
    anything); afterwards the accumulator at what the point before left in it (`outsAt46`'s third component), the other
    scoped buffers at anything, the generator register at some state. -/
noncomputable def PhiS46 (c : Dev nD) : (n : ℕ) → n ≤ cfg46.N → sProp 𝕄
  | 0, _ => Pipeline.ΦA spec46 c
  | n + 1, hn => iprop(iprop(iprop(owns (c : Thread nD τ) scM46_0 fullShare ((outsAt46 V c n hn).2.2)) ∗ Pipeline.scopedRestBut (Ix := Unit) (Name := ℕ) (U := UR sig nD τ) (Lvl := ℕ) (Val := Elt F) spec46 c [cc46_scratch0]) ∗ (∃ r, prngReg c r))

theorem PhiS46_zero (c : Dev nD) (n : ℕ) (h : n ≤ cfg46.N) (hz : n = 0) : PhiS46 V c n h = Pipeline.ΦA spec46 c := by
  subst hz; rfl

/-- After point `n` (before point `n + 1`): the accumulator at that point's contents. -/
theorem PhiS46_succ (c : Dev nD) (n : ℕ) (hn : n < cfg46.N) :
    PhiS46 V c (n + 1) hn = iprop(iprop(iprop(owns (c : Thread nD τ) scM46_0 fullShare ((outsAt46 V c n hn).2.2)) ∗ Pipeline.scopedRestBut (Ix := Unit) (Name := ℕ) (U := UR sig nD τ) (Lvl := ℕ) (Val := Elt F) spec46 c [cc46_scratch0]) ∗ (∃ r, prngReg c r)) := rfl

/-- Before a point that is not the first: the accumulator at what the point before left. -/
theorem PhiS46_pos (c : Dev nD) (n : ℕ) (h : n ≤ cfg46.N) (hz : n ≠ 0) :
    PhiS46 V c n h = iprop(iprop(iprop(owns (c : Thread nD τ) scM46_0 fullShare ((outsAt46 V c (n - 1) (by omega)).2.2)) ∗ Pipeline.scopedRestBut (Ix := Unit) (Name := ℕ) (U := UR sig nD τ) (Lvl := ℕ) (Val := Elt F) spec46 c [cc46_scratch0]) ∗ (∃ r, prngReg c r)) := by
  cases n with
  | zero => exact absurd rfl hz
  | succ n => rfl

/-! ## The pipeline's proof data -/

/-- The proof data of pipeline 46 on core `c`: the arrays as the region finds them; after the body at point `t` each
    input's buffer at its block and the outputs' at `outsAt46`'s components; the invariant `PhiS46`; nothing owed;
    full shares. -/
noncomputable def dat46 (c : Dev nD) : Dat τ (Elt F) Unit ℕ (UR sig nD τ) ℕ cfg46 c where
  A w := V c (Pipeline.arrRef spec46 w)
  after w t := match w with
    | ⟨0, _⟩ => iblk46 V c 0 t
    | ⟨1, _⟩ => iblk46 V c 1 t
    | ⟨2, _⟩ => (outsAt46 V c t.val t.isLt).1
    | ⟨3, _⟩ => (outsAt46 V c t.val t.isLt).2.1
  Φ t := PhiS46 V c t.val (Nat.le_of_lt_succ t.isLt)
  q _ := fullShare
  owed _ := 0

/-- The proof data's arrays are the region-entry contents. -/
theorem A_eq46 (c : Dev nD) (w : Fin cfg46.W) : (dat46 V c).A w = V c (Pipeline.arrRef spec46 w) := by
  dsimp only [dat46]

/-- The invariant at a point's start, restated at `t.val`. -/
theorem PhiS46_castSucc (c : Dev nD) (t : Fin cfg46.N) :
    (dat46 V c).Φ t.castSucc = PhiS46 V c t.val (Nat.le_of_lt t.isLt) := by
  dsimp only [dat46]; simp only [Fin.coe_castSucc]

/-- What the body leaves, window by window. -/
theorem after46_0 (c : Dev nD) (t : Fin cfg46.N) : (dat46 V c).after 0 t = iblk46 V c 0 t := by dsimp only [dat46]
theorem after46_1 (c : Dev nD) (t : Fin cfg46.N) : (dat46 V c).after 1 t = iblk46 V c 1 t := by dsimp only [dat46]
theorem after46_2 (c : Dev nD) (t : Fin cfg46.N) : (dat46 V c).after 2 t = (outsAt46 V c t.val t.isLt).1 := by dsimp only [dat46]
theorem after46_3 (c : Dev nD) (t : Fin cfg46.N) : (dat46 V c).after 3 t = (outsAt46 V c t.val t.isLt).2.1 := by dsimp only [dat46]

/-- Each input's current staging buffer holds its block at every point, fetched there or not. -/
theorem before46_0 (c : Dev nD) (t : Fin cfg46.N) (d) : (dat46 V c).before 0 t d = iblk46 V c 0 t :=
  before46_0_of V (dat46 V c) (A_eq46 V c 0) (after46_0 V c) t d
theorem before46_1 (c : Dev nD) (t : Fin cfg46.N) (d) : (dat46 V c).before 1 t d = iblk46 V c 1 t :=
  before46_1_of V (dat46 V c) (A_eq46 V c 1) (after46_1 V c) t d

/-! ## The body obligation, at a generic point -/

/-- What the body is called with at point `t`, the windows one by one, -/
noncomputable def bodyPre46 (c : Dev nD) (t : Fin cfg46.N) : sProp 𝕄 :=
  iprop((dat46 V c).Φ t.castSucc ∗ (dat46 V c).owesAt () t.castSucc
    ∗ (∃ d, owns (c : Thread nD τ) (ms46_0 t) fullShare ((dat46 V c).before 0 t d))
    ∗ (∃ d, owns (c : Thread nD τ) (ms46_1 t) fullShare ((dat46 V c).before 1 t d))
    ∗ (∃ d, owns (c : Thread nD τ) (ms46_2 t) fullShare ((dat46 V c).before 2 t d))
    ∗ (∃ d, owns (c : Thread nD τ) (ms46_3 t) fullShare ((dat46 V c).before 3 t d)))

/-- and what it returns. -/
noncomputable def bodyPost46 (c : Dev nD) (t : Fin cfg46.N) : sProp 𝕄 :=
  iprop((dat46 V c).Φ t.succ ∗ (dat46 V c).owesAt () t.succ
    ∗ (dat46 V c).leavesExact 0 t
    ∗ (dat46 V c).leavesExact 1 t
    ∗ (dat46 V c).leavesExact 2 t
    ∗ (dat46 V c).leavesExact 3 t)

set_option maxHeartbeats 4800000 in
/-- The body at any point: the inputs' memrefs hold their blocks; the point is the first, a middle or the last one
    (`by_cases` on the closed forms of the two conditions), so that case's run applies; the invariant hands the body the
    accumulator at what the point before left (at anything at the first point), and takes it back at this point's
    contents, the other scoped buffers and the generator register untouched; the core owes nothing throughout. -/
theorem sound_body46 (c : Dev nD) (t : Fin cfg46.N) :
    bodyPre46 V c t ⊢ wp frame (wpE (defs₀ (F := F)) Variants.none c none) Set.univ (bodyAt46 t) (fun _ => bodyPost46 V c t) := by
  unfold bodyPre46 bodyPost46 bodyAt46
  simp only [before46_0, before46_1]
  rw [show (dat46 V c).owesAt () t.succ = (dat46 V c).owesAt () t.castSucc from rfl]
  rw [show (dat46 V c).Φ t.succ = PhiS46 V c (t.val + 1) t.isLt from rfl, PhiS46_succ]
  have hN : t.val < 25 := lt_of_lt_of_eq t.isLt (show cfg46.N = 25 from N_46)
  rw [show (dat46 V c).leavesExact 0 t = owns (c : Thread nD τ) (ms46_0 t) fullShare ((dat46 V c).after 0 t) from by
    unfold Dat.leavesExact; rw [liveAt46_0 t], after46_0]
  rw [show (dat46 V c).leavesExact 1 t = owns (c : Thread nD τ) (ms46_1 t) fullShare ((dat46 V c).after 1 t) from by
    unfold Dat.leavesExact; rw [liveAt46_1 t], after46_1]
  rw [show (dat46 V c).leavesExact 2 t = owns (c : Thread nD τ) (ms46_2 t) fullShare ((dat46 V c).after 2 t) from by
    unfold Dat.leavesExact; rw [liveAt46_2 t], after46_2]
  by_cases h0 : t.val = 0
  · have h1 : ¬t.val = 24 := by omega
    rw [Dat.leavesExact_idle (dat46 V c) 3 t (idleAt46_3 t (fun h => h1 ((hcond46_1 t).mp h))) (noFlush46_3 t (fun h => h1 ((hcond46_1 t).mp h)))]
    rw [outsAt46_A V c t h0 h1]
    unfold out46_A_2 sout46_A_0; (try dsimp only)
    rw [PhiS46_castSucc V c t, PhiS46_zero V c _ _ h0, PhiA46_eq]
    iintro ⟨⟨⟨HS0, HR⟩, Hg⟩, Ho, ⟨%d0, H0⟩, ⟨%d1, H1⟩, ⟨%d2, H2⟩, ⟨%d3, H3⟩⟩
    iapply ((kernelRun46_A c (grid46.coords t) _ _ _ _ _ _ _ _ _ _ ((hcond46_0 t).mpr h0) (fun h => h1 ((hcond46_1 t).mp h)) (iblk46 V c 0 t) (iblk46 V c 1 t)).2.2.2 _ Set.univ _)
    isplitl [H0]; · iexact H0
    isplitl [H1]; · iexact H1
    isplitl [H2]; · iexists _; iexact H2
    isplitl [H3]; · iexact H3
    isplitl [HS0]; · iexact HS0
    iintro ⟨H0, H1, ⟨%e2, H2⟩, H3, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover46_A_0 c _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover46_A_2 c _ _ _ _ _ _ _ _ _ _ _ _ _ _ _)
    iexists _; iexact H3
  · by_cases h1 : t.val = 24
    · rw [show (dat46 V c).leavesExact 3 t = owns (c : Thread nD τ) (ms46_3 t) fullShare ((dat46 V c).after 3 t) from by
        unfold Dat.leavesExact; rw [liveAt46_3 t ((hcond46_1 t).mpr h1)], after46_3]
      rw [outsAt46_C V c t h0 h1]
      unfold out46_C_2 out46_C_3 sout46_C_0; (try dsimp only)
      rw [PhiS46_castSucc V c t, PhiS46_pos V c _ _ h0]
      iintro ⟨⟨⟨HS0, HR⟩, Hg⟩, Ho, ⟨%d0, H0⟩, ⟨%d1, H1⟩, ⟨%d2, H2⟩, ⟨%d3, H3⟩⟩
      iapply ((kernelRun46_C c (grid46.coords t) _ _ _ _ _ _ _ _ _ _ (fun h => h0 ((hcond46_0 t).mp h)) ((hcond46_1 t).mpr h1) (iblk46 V c 0 t) (iblk46 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover46_C_0 c _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover46_C_2 c _ _ _ _ _ _ _ _ _ _ _ _ _ _ _ _)
      unfold owns; iexists _; isplitr
      swap; · iexact H3
      ipureintro; exact View.read_writes_of_cover _ _ _ _ _ (cover46_C_3 c _ _ _ _ _ _ _ _ _ _ _ _ _ _ _ _)
    · rw [Dat.leavesExact_idle (dat46 V c) 3 t (idleAt46_3 t (fun h => h1 ((hcond46_1 t).mp h))) (noFlush46_3 t (fun h => h1 ((hcond46_1 t).mp h)))]
      rw [outsAt46_B V c t h0 h1]
      unfold out46_B_2 sout46_B_0; (try dsimp only)
      rw [PhiS46_castSucc V c t, PhiS46_pos V c _ _ h0]
      iintro ⟨⟨⟨HS0, HR⟩, Hg⟩, Ho, ⟨%d0, H0⟩, ⟨%d1, H1⟩, ⟨%d2, H2⟩, ⟨%d3, H3⟩⟩
      iapply ((kernelRun46_B c (grid46.coords t) _ _ _ _ _ _ _ _ _ _ (fun h => h0 ((hcond46_0 t).mp h)) (fun h => h1 ((hcond46_1 t).mp h)) (iblk46 V c 0 t) (iblk46 V c 1 t) _).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover46_B_0 c _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover46_B_2 c _ _ _ _ _ _ _ _ _ _ _ _ _ _ _ _)
      iexists _; iexact H3

/-- The library's body obligation, at every point. -/
theorem body_obligation46 (c : Dev nD) : BodyObligation (dat46 (F := F) V c) (defs₀ (F := F)) Variants.none () Set.univ := fun t => by
  rw [bigSep_W46, bigSep_W46]
  exact sound_body46 V c t

/-- What the launch hands the region is the invariant before the first point. -/
theorem hin46 (c : Dev nD) : Pipeline.ΦA spec46 c ⊢ (dat46 V c).Φ 0 := by
  rw [show (dat46 V c).Φ 0 = PhiS46 V c 0 (Nat.zero_le _) from rfl, PhiS46_zero V c 0 _ rfl]
  try exact Idealize.SL.BI.Entails.refl _

/-- After any point but the first the invariant gives back what the region was handed: the accumulator's named
    contents are forgotten. -/
theorem Phi_out46 (c : Dev nD) (t : Fin (cfg46.N + 1)) (ht : t.val ≠ 0) : (dat46 V c).Φ t ⊢ Pipeline.ΦA spec46 c := by
  rw [show (dat46 V c).Φ t = PhiS46 V c t.val (Nat.le_of_lt_succ t.isLt) from rfl, PhiS46_pos V c _ _ ht, PhiA46_eq]
  iintro ⟨⟨HS0, HR⟩, Hg⟩
  isplitl [HS0 HR]
  · isplitl [HS0]
    · iexists _; iexact HS0
    iexact HR
  iexact Hg

/-- The same after the last point. -/
theorem hout46 (c : Dev nD) : (dat46 V c).Φ (Fin.last cfg46.N) ⊢ Pipeline.ΦA spec46 c :=
  Phi_out46 V c _ (by rw [Fin.val_last]; have : cfg46.N = 25 := N_46; omega)

end Cert.Kernel.Hand

end
-- ==== Proof.KB.R47.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 47: the second pass of the column variance. Over the 25 row tiles of 2000 rows the body adds, column by
column, the tile's sum of squared deviations (x − mean)² into a one-row accumulator that it zeroes at the first tile and
copies to the one-row result at the last. Here: the windows' blocks, the two branch conditions over the grid, the body's
triple in each of the three control cases (first tile, a middle tile, last tile), what each case leaves in the accumulator
and in the result's buffer, those contents point by point along the grid, the proof data over them and the body
obligation; the invariant carries the accumulator at the contents the point before left. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk47 (c : Dev nD) (w : Fin cfg47.W) (t : Fin cfg47.N) : ((cfg47.win w).xblock (cfg47.grid.coords t)).Idx → Elt F (cfg47.win w).elt :=
  ((cfg47.win w).blk t).view.read (Elt F) (V c (Pipeline.arrRef spec47 w))

/-- The row-tile window (window 0, fetched at every point) holds its block when the body runs, for any proof data
    whose array is `V`'s and whose body leaves the block in place. -/
theorem before47_0_of {c : Dev nD} (dat : Dat τ (Elt F) Unit ℕ (UR sig nD τ) ℕ cfg47 c) (hA : dat.A 0 = V c (Pipeline.arrRef spec47 0))
    (hafter : ∀ t, dat.after 0 t = iblk47 V c 0 t) (t : Fin cfg47.N) (d) : dat.before 0 t d = iblk47 V c 0 t :=
  (dat.before_in_eq_fetched 0 rfl (fun _ => rfl) (fun _ _ _ => rfl) (fun t => by rw [hafter]; unfold Dat.blockOf iblk47; rw [hA]; try rfl) t d).trans
    (by unfold Dat.fetched Dat.blockOf iblk47; rw [hA]; try rfl)

/-- The mean window (window 1, one constant block fetched at the first point only) holds that block at every point:
    where it is not fetched its block index has not moved. -/
theorem before47_1_of {c : Dev nD} (dat : Dat τ (Elt F) Unit ℕ (UR sig nD τ) ℕ cfg47 c) (hA : dat.A 1 = V c (Pipeline.arrRef spec47 1))
    (hafter : ∀ t, dat.after 1 t = iblk47 V c 1 t) (t : Fin cfg47.N) (d) : dat.before 1 t d = iblk47 V c 1 t :=
  (dat.before_in_eq_fetched 1 rfl (fun _ => rfl) (fun _ _ _ => rfl) (fun t => by rw [hafter]; unfold Dat.blockOf iblk47; rw [hA]; try rfl) t d).trans
    (by unfold Dat.fetched Dat.blockOf iblk47; rw [hA]; try rfl)

/-! ## The two branch conditions, over the grid -/

/-- The condition of the first conditional (the accumulator's reset): the grid coordinate is 0. -/
abbrev cond47_0 (i : grid47.Coords) : Prop := (Scalar.cmpi .ne (Scalar.extui (Scalar.cmpi .eq (BitVec.ofNat 32 (i 0).val) 0#32)) 0#32) = 1#1
/-- It holds at the first point only. -/
theorem hcond47_0 : ∀ t : Fin cfg47.N, cond47_0 (grid47.coords t) ↔ t.val = 0 :=
  (by decide +kernel : ∀ t : Fin grid47.N, cond47_0 (grid47.coords t) ↔ t.val = 0)

/-- The condition of the second conditional (the accumulator stored to the output): the grid coordinate is 24. -/
abbrev cond47_1 (i : grid47.Coords) : Prop := k47_cond2 i = 1#1
/-- It holds at the last point only. -/
theorem hcond47_1 : ∀ t : Fin cfg47.N, cond47_1 (grid47.coords t) ↔ t.val = 24 :=
  (by decide +kernel : ∀ t : Fin grid47.N, cond47_1 (grid47.coords t) ↔ t.val = 24)

/-! ## Where the windows are idle -/

theorem liveAt47_0 : ∀ t : Fin cfg47.N, cfg47.idle 0 (grid47.coords t) = false := by decide +kernel
theorem liveAt47_1 : ∀ t : Fin cfg47.N, cfg47.idle 1 (grid47.coords t) = false := by decide +kernel
/-- Away from the last point the body stores nothing into the output window: it is idle there, -/
theorem idleAt47_2 : ∀ t : Fin cfg47.N, ¬cond47_1 (grid47.coords t) → cfg47.idle 2 (grid47.coords t) = true := by decide +kernel
/-- and its block is not written back there. -/
theorem noFlush47_2 : ∀ t : Fin cfg47.N, ¬cond47_1 (grid47.coords t) → (cfg47.win 2).flush t = false := by decide +kernel
/-- At the last point the output window is live. -/
theorem liveAt47_2 : ∀ t : Fin cfg47.N, cond47_1 (grid47.coords t) → cfg47.idle 2 (grid47.coords t) = false := by decide +kernel

/-! ## The memrefs the body is called with -/

/-- The output window's one staging buffer as a view: what the body leaves in it is stated through it. -/
noncomputable abbrev VO47_2 : View sig .tc .vmem S1x32 .f32 := (Memref.whole cc47_stg2_0 : Memref sig .tc .vmem S1x32 .f32).view
/-- Each window's current staging memref at point `t`, and its wholeness. -/
noncomputable abbrev ms47_0 (t : Fin cfg47.N) : Memref sig .tc .vmem S2000x32 .f32 := win47_0.stage (cfg47.slots t 0)
abbrev hs47_0 (t : Fin cfg47.N) : (ms47_0 t).IsWhole := hstage47_0 ((cfg47.slots t 0).cast nbuf47_0)
noncomputable abbrev ms47_1 (t : Fin cfg47.N) : Memref sig .tc .vmem S1x32 .f32 := win47_1.stage (cfg47.slots t 1)
abbrev hs47_1 (t : Fin cfg47.N) : (ms47_1 t).IsWhole := hstage47_1 ((cfg47.slots t 1).cast nbuf47_1)
noncomputable abbrev ms47_2 (t : Fin cfg47.N) : Memref sig .tc .vmem S1x32 .f32 := win47_2.stage (cfg47.slots t 2)
abbrev hs47_2 (t : Fin cfg47.N) : (ms47_2 t).IsWhole := hstage47_2 ((cfg47.slots t 2).cast nbuf47_2)
/-- The accumulator: the kernel's own scratch buffer, whole, passed beside the windows, -/
noncomputable abbrev scM47_0 : Memref sig .tc .vmem S1x32 .f32 := Memref.whole cc47_scratch0
/-- and as a view. -/
noncomputable abbrev VS47_0 : View sig .tc .vmem S1x32 .f32 := scM47_0.view

/-- The region-entry invariant with the accumulator split out of the scoped rest, as a memref owned at some contents. -/
theorem PhiA47_eq (c : Dev nD) :
    (Pipeline.ΦA spec47 c : sProp 𝕄)
      = iprop(iprop(iprop(∃ d, owns (c : Thread nD τ) scM47_0 fullShare d)
          ∗ Pipeline.scopedRestBut (Ix := Unit) (Name := ℕ) (U := UR sig nD τ) (Lvl := ℕ) (Val := Elt F) spec47 c [cc47_scratch0]) ∗ (∃ r, prngReg c r)) := by
  unfold Pipeline.ΦA; rw [scopedRest47_split]; simp only [scM47_0, owns_whole]; try rfl

/-! ## The body, once per control case -/

set_option maxHeartbeats 1000000 in
/-- CASE A (the first point: the reset taken, the final store not). On whole memrefs — the two inputs at contents
    `x0`, `x1`, the output's buffer at `xi2` handed back untouched, the accumulator at anything — the body runs to the
    continuation holding the inputs as they were and the accumulator with the pieces `LS0` written (the zero fill, then
    the first tile's column sums added to what is read back): the pieces are found by running the body. -/
noncomputable def kernelRun47_A (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : cond47_0 i) (hc1 : ¬cond47_1 i)
    (x0 : Vec F S2000x32 .f32) (x1 : Vec F S1x32 .f32) :
    { LS0 : List (View.Piece (Elt F) S1x32 .f32) //
      ∀ (xi2 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc47__var_kernel i arg1 harg1 arg2 harg2 arg3 harg3 arg4 harg4) K } := by
  refine ⟨?_, fun xi2 E K => ?run⟩
  case run =>
    simp only [cc47__var_kernel_eq_skeleton]; unfold cc47__var_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE B (a middle point: neither conditional taken). The accumulator comes in at the contents `xs0` the point before
    left and goes out with one piece written: the tile's column sums added to `xs0`. -/
noncomputable def kernelRun47_B (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : ¬cond47_1 i)
    (x0 : Vec F S2000x32 .f32) (x1 : Vec F S1x32 .f32) (xs0 : Vec F S1x32 .f32) :
    { LS0 : List (View.Piece (Elt F) S1x32 .f32) //
      ∀ (xi2 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc47__var_kernel i arg1 harg1 arg2 harg2 arg3 harg3 arg4 harg4) K } := by
  refine ⟨?_, fun xi2 E K => ?run⟩
  case run =>
    simp only [cc47__var_kernel_eq_skeleton]; unfold cc47__var_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE C (the last point: the reset not taken, the final store taken). As case B, and the output's buffer, at anything
    before, goes out with the pieces `L2` written: the accumulator read back after its update. -/
noncomputable def kernelRun47_C (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : cond47_1 i)
    (x0 : Vec F S2000x32 .f32) (x1 : Vec F S1x32 .f32) (xs0 : Vec F S1x32 .f32) :
    Σ' (L2 : List (View.Piece (Elt F) S1x32 .f32)), { LS0 : List (View.Piece (Elt F) S1x32 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc47__var_kernel i arg1 harg1 arg2 harg2 arg3 harg3 arg4 harg4) K } := by
  refine ⟨?_, ?_, fun E K => ?run⟩
  case run =>
    simp only [cc47__var_kernel_eq_skeleton]; unfold cc47__var_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves in the accumulator and in the output's buffer -/

/-- At the points where the output window is idle its `after` is never consulted (the window is neither written back
    there nor read at the next point): an arbitrary value. -/
noncomputable def idle47_2 : Vec F S1x32 .f32 := VO47_2.read (Elt F) VO47_2.junk

/-- Case A's pieces cover the accumulator (each is the whole row). -/
theorem scover47_A_0 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : cond47_0 i) (hc1 : ¬cond47_1 i)
    (x0 : Vec F S2000x32 .f32) (x1 : Vec F S1x32 .f32) (y : S1x32.Idx) :
    ∃ pc ∈ (kernelRun47_A c i arg1 harg1 arg2 harg2 arg3 harg3 arg4 harg4 hc0 hc1 x0 x1).1, y ∈ pc.1.set :=
  View.cover_of_tiledL (kernelRun47_A c i arg1 harg1 arg2 harg2 arg3 harg3 arg4 harg4 hc0 hc1 x0 x1).1 S1x32.size (by sl_kernel_rfl) y

/-- What case A leaves in the accumulator: its pieces read back. -/
noncomputable def sout47_A_0 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : cond47_0 i) (hc1 : ¬cond47_1 i)
    (x0 : Vec F S2000x32 .f32) (x1 : Vec F S1x32 .f32) : Vec F S1x32 .f32 :=
  VS47_0.read (Elt F) (VS47_0.writes (Elt F) VS47_0.junk (kernelRun47_A c i arg1 harg1 arg2 harg2 arg3 harg3 arg4 harg4 hc0 hc1 x0 x1).1)

/-- Case B's one piece covers the accumulator. -/
theorem scover47_B_0 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : ¬cond47_1 i)
    (x0 : Vec F S2000x32 .f32) (x1 : Vec F S1x32 .f32) (xs0 : Vec F S1x32 .f32) (y : S1x32.Idx) :
    ∃ pc ∈ (kernelRun47_B c i arg1 harg1 arg2 harg2 arg3 harg3 arg4 harg4 hc0 hc1 x0 x1 xs0).1, y ∈ pc.1.set :=
  View.cover_of_tiledL (kernelRun47_B c i arg1 harg1 arg2 harg2 arg3 harg3 arg4 harg4 hc0 hc1 x0 x1 xs0).1 S1x32.size (by sl_kernel_rfl) y

/-- What case B leaves in the accumulator. -/
noncomputable def sout47_B_0 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : ¬cond47_1 i)
    (x0 : Vec F S2000x32 .f32) (x1 : Vec F S1x32 .f32) (xs0 : Vec F S1x32 .f32) : Vec F S1x32 .f32 :=
  VS47_0.read (Elt F) (VS47_0.writes (Elt F) VS47_0.junk (kernelRun47_B c i arg1 harg1 arg2 harg2 arg3 harg3 arg4 harg4 hc0 hc1 x0 x1 xs0).1)

/-- Case C's one store covers the output's buffer. -/
theorem cover47_C_2 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : cond47_1 i)
    (x0 : Vec F S2000x32 .f32) (x1 : Vec F S1x32 .f32) (xs0 : Vec F S1x32 .f32) (y : S1x32.Idx) :
    ∃ pc ∈ (kernelRun47_C c i arg1 harg1 arg2 harg2 arg3 harg3 arg4 harg4 hc0 hc1 x0 x1 xs0).1, y ∈ pc.1.set :=
  View.cover_of_tiledL (kernelRun47_C c i arg1 harg1 arg2 harg2 arg3 harg3 arg4 harg4 hc0 hc1 x0 x1 xs0).1 S1x32.size (by sl_kernel_rfl) y

/-- What case C leaves in the output's buffer. -/
noncomputable def out47_C_2 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : cond47_1 i)
    (x0 : Vec F S2000x32 .f32) (x1 : Vec F S1x32 .f32) (xs0 : Vec F S1x32 .f32) : Vec F S1x32 .f32 :=
  VO47_2.read (Elt F) (VO47_2.writes (Elt F) VO47_2.junk (kernelRun47_C c i arg1 harg1 arg2 harg2 arg3 harg3 arg4 harg4 hc0 hc1 x0 x1 xs0).1)

/-- Case C's one piece covers the accumulator. -/
theorem scover47_C_0 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : cond47_1 i)
    (x0 : Vec F S2000x32 .f32) (x1 : Vec F S1x32 .f32) (xs0 : Vec F S1x32 .f32) (y : S1x32.Idx) :
    ∃ pc ∈ (kernelRun47_C c i arg1 harg1 arg2 harg2 arg3 harg3 arg4 harg4 hc0 hc1 x0 x1 xs0).2.1, y ∈ pc.1.set :=
  View.cover_of_tiledL (kernelRun47_C c i arg1 harg1 arg2 harg2 arg3 harg3 arg4 harg4 hc0 hc1 x0 x1 xs0).2.1 S1x32.size (by sl_kernel_rfl) y

/-- What case C leaves in the accumulator. -/
noncomputable def sout47_C_0 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : cond47_1 i)
    (x0 : Vec F S2000x32 .f32) (x1 : Vec F S1x32 .f32) (xs0 : Vec F S1x32 .f32) : Vec F S1x32 .f32 :=
  VS47_0.read (Elt F) (VS47_0.writes (Elt F) VS47_0.junk (kernelRun47_C c i arg1 harg1 arg2 harg2 arg3 harg3 arg4 harg4 hc0 hc1 x0 x1 xs0).2.1)

/-! ## Point by point -/

/-- What the output's buffer and the accumulator hold after the body at point `n` (a pair: output, accumulator): case A
    at the first point; afterwards case C at point 24 and case B elsewhere, each over what the point before left in the
    accumulator. -/
noncomputable def outsAt47 (c : Dev nD) : (n : ℕ) → n < cfg47.N → Vec F S1x32 .f32 × Vec F S1x32 .f32
  | 0, hn => (idle47_2,
      sout47_A_0 c (grid47.coords ⟨0, hn⟩) (ms47_0 ⟨0, hn⟩) (hs47_0 ⟨0, hn⟩) (ms47_1 ⟨0, hn⟩) (hs47_1 ⟨0, hn⟩) (ms47_2 ⟨0, hn⟩) (hs47_2 ⟨0, hn⟩) scM47_0 (Memref.isWhole_whole _) ((hcond47_0 ⟨0, hn⟩).mpr rfl)
        (fun h => (fun h' : (0 : ℕ) = 24 => by omega) ((hcond47_1 ⟨0, hn⟩).mp h)) (iblk47 V c 0 ⟨0, hn⟩) (iblk47 V c 1 ⟨0, hn⟩))
  | n + 1, hn =>
    if h1 : n + 1 = 24 then
      (out47_C_2 c (grid47.coords ⟨n + 1, hn⟩) (ms47_0 ⟨n + 1, hn⟩) (hs47_0 ⟨n + 1, hn⟩) (ms47_1 ⟨n + 1, hn⟩) (hs47_1 ⟨n + 1, hn⟩) (ms47_2 ⟨n + 1, hn⟩) (hs47_2 ⟨n + 1, hn⟩) scM47_0 (Memref.isWhole_whole _) (fun h => (fun h' : n + 1 = 0 => by omega) ((hcond47_0 ⟨n + 1, hn⟩).mp h))
          ((hcond47_1 ⟨n + 1, hn⟩).mpr h1) (iblk47 V c 0 ⟨n + 1, hn⟩) (iblk47 V c 1 ⟨n + 1, hn⟩) (outsAt47 c n (Nat.lt_of_succ_lt hn)).2,
       sout47_C_0 c (grid47.coords ⟨n + 1, hn⟩) (ms47_0 ⟨n + 1, hn⟩) (hs47_0 ⟨n + 1, hn⟩) (ms47_1 ⟨n + 1, hn⟩) (hs47_1 ⟨n + 1, hn⟩) (ms47_2 ⟨n + 1, hn⟩) (hs47_2 ⟨n + 1, hn⟩) scM47_0 (Memref.isWhole_whole _) (fun h => (fun h' : n + 1 = 0 => by omega) ((hcond47_0 ⟨n + 1, hn⟩).mp h))
          ((hcond47_1 ⟨n + 1, hn⟩).mpr h1) (iblk47 V c 0 ⟨n + 1, hn⟩) (iblk47 V c 1 ⟨n + 1, hn⟩) (outsAt47 c n (Nat.lt_of_succ_lt hn)).2)
    else
      (idle47_2,
       sout47_B_0 c (grid47.coords ⟨n + 1, hn⟩) (ms47_0 ⟨n + 1, hn⟩) (hs47_0 ⟨n + 1, hn⟩) (ms47_1 ⟨n + 1, hn⟩) (hs47_1 ⟨n + 1, hn⟩) (ms47_2 ⟨n + 1, hn⟩) (hs47_2 ⟨n + 1, hn⟩) scM47_0 (Memref.isWhole_whole _) (fun h => (fun h' : n + 1 = 0 => by omega) ((hcond47_0 ⟨n + 1, hn⟩).mp h))
          (fun h => h1 ((hcond47_1 ⟨n + 1, hn⟩).mp h)) (iblk47 V c 0 ⟨n + 1, hn⟩) (iblk47 V c 1 ⟨n + 1, hn⟩) (outsAt47 c n (Nat.lt_of_succ_lt hn)).2)

/-- `outsAt47` at the first point. -/
theorem outsAt47_A (c : Dev nD) (t : Fin cfg47.N) (h0 : t.val = 0) (h1 : ¬t.val = 24) :
    outsAt47 V c t.val t.isLt = (idle47_2,
      sout47_A_0 c (grid47.coords t) (ms47_0 t) (hs47_0 t) (ms47_1 t) (hs47_1 t) (ms47_2 t) (hs47_2 t) scM47_0 (Memref.isWhole_whole _) ((hcond47_0 t).mpr h0) (fun h => h1 ((hcond47_1 t).mp h)) (iblk47 V c 0 t) (iblk47 V c 1 t)) := by
  obtain ⟨n, hn⟩ := t
  cases n with
  | zero => exact rfl
  | succ n => exact absurd h0 (Nat.succ_ne_zero n)

/-- `outsAt47` at a middle point: case B over what the point before left. -/
theorem outsAt47_B (c : Dev nD) (t : Fin cfg47.N) (h0 : ¬t.val = 0) (h1 : ¬t.val = 24) :
    outsAt47 V c t.val t.isLt = (idle47_2,
      sout47_B_0 c (grid47.coords t) (ms47_0 t) (hs47_0 t) (ms47_1 t) (hs47_1 t) (ms47_2 t) (hs47_2 t) scM47_0 (Memref.isWhole_whole _) (fun h => h0 ((hcond47_0 t).mp h)) (fun h => h1 ((hcond47_1 t).mp h)) (iblk47 V c 0 t) (iblk47 V c 1 t)
        (outsAt47 V c (t.val - 1) (Nat.lt_of_le_of_lt (Nat.sub_le _ _) t.isLt)).2) := by
  obtain ⟨n, hn⟩ := t
  cases n with
  | zero => exact absurd rfl h0
  | succ n => exact (dif_neg h1).trans rfl

/-- `outsAt47` at the last point: case C over what the point before left. -/
theorem outsAt47_C (c : Dev nD) (t : Fin cfg47.N) (h0 : ¬t.val = 0) (h1 : t.val = 24) :
    outsAt47 V c t.val t.isLt =
      (out47_C_2 c (grid47.coords t) (ms47_0 t) (hs47_0 t) (ms47_1 t) (hs47_1 t) (ms47_2 t) (hs47_2 t) scM47_0 (Memref.isWhole_whole _) (fun h => h0 ((hcond47_0 t).mp h)) ((hcond47_1 t).mpr h1) (iblk47 V c 0 t) (iblk47 V c 1 t)
        (outsAt47 V c (t.val - 1) (Nat.lt_of_le_of_lt (Nat.sub_le _ _) t.isLt)).2,
       sout47_C_0 c (grid47.coords t) (ms47_0 t) (hs47_0 t) (ms47_1 t) (hs47_1 t) (ms47_2 t) (hs47_2 t) scM47_0 (Memref.isWhole_whole _) (fun h => h0 ((hcond47_0 t).mp h)) ((hcond47_1 t).mpr h1) (iblk47 V c 0 t) (iblk47 V c 1 t)
        (outsAt47 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over (every scoped buffer
    at anything); afterwards the accumulator at what the point before left in it, the other scoped buffers at anything,
    the generator register at some state. -/
noncomputable def PhiS47 (c : Dev nD) : (n : ℕ) → n ≤ cfg47.N → sProp 𝕄
  | 0, _ => Pipeline.ΦA spec47 c
  | n + 1, hn => iprop(iprop(owns (c : Thread nD τ) scM47_0 fullShare ((outsAt47 V c n hn).2)
      ∗ Pipeline.scopedRestBut (Ix := Unit) (Name := ℕ) (U := UR sig nD τ) (Lvl := ℕ) (Val := Elt F) spec47 c [cc47_scratch0]) ∗ (∃ r, prngReg c r))

theorem PhiS47_zero (c : Dev nD) (n : ℕ) (h : n ≤ cfg47.N) (hz : n = 0) : PhiS47 V c n h = Pipeline.ΦA spec47 c := by
  subst hz; rfl

theorem PhiS47_succ (c : Dev nD) (n : ℕ) (hn : n < cfg47.N) :
    PhiS47 V c (n + 1) hn = iprop(iprop(owns (c : Thread nD τ) scM47_0 fullShare ((outsAt47 V c n hn).2)
      ∗ Pipeline.scopedRestBut (Ix := Unit) (Name := ℕ) (U := UR sig nD τ) (Lvl := ℕ) (Val := Elt F) spec47 c [cc47_scratch0]) ∗ (∃ r, prngReg c r)) := rfl

theorem PhiS47_pos (c : Dev nD) (n : ℕ) (h : n ≤ cfg47.N) (hz : n ≠ 0) :
    PhiS47 V c n h = iprop(iprop(owns (c : Thread nD τ) scM47_0 fullShare ((outsAt47 V c (n - 1) (by omega)).2)
      ∗ Pipeline.scopedRestBut (Ix := Unit) (Name := ℕ) (U := UR sig nD τ) (Lvl := ℕ) (Val := Elt F) spec47 c [cc47_scratch0]) ∗ (∃ r, prngReg c r)) := by
  cases n with
  | zero => exact absurd rfl hz
  | succ n => rfl

/-! ## The proof data -/

/-- The proof data of this region on core `c`: the arrays as the region finds them (`V`); after the body each input's
    buffer at its block and the output's at `outsAt47`'s first component; the invariant `PhiS47`; nothing owed; full shares. -/
noncomputable def dat47 (c : Dev nD) : Dat τ (Elt F) Unit ℕ (UR sig nD τ) ℕ cfg47 c where
  A w := V c (Pipeline.arrRef spec47 w)
  after w t := match w with
    | ⟨0, _⟩ => iblk47 V c 0 t
    | ⟨1, _⟩ => iblk47 V c 1 t
    | ⟨2, _⟩ => (outsAt47 V c t.val t.isLt).1
  Φ t := PhiS47 V c t.val (Nat.le_of_lt_succ t.isLt)
  q _ := fullShare
  owed _ := 0

theorem A_eq47 (c : Dev nD) (w : Fin cfg47.W) : (dat47 V c).A w = V c (Pipeline.arrRef spec47 w) := by
  dsimp only [dat47]

theorem PhiS47_castSucc (c : Dev nD) (t : Fin cfg47.N) :
    (dat47 V c).Φ t.castSucc = PhiS47 V c t.val (Nat.le_of_lt t.isLt) := by
  dsimp only [dat47]; simp only [Fin.coe_castSucc]

theorem after47_0 (c : Dev nD) (t : Fin cfg47.N) : (dat47 V c).after 0 t = iblk47 V c 0 t := by dsimp only [dat47]
theorem after47_1 (c : Dev nD) (t : Fin cfg47.N) : (dat47 V c).after 1 t = iblk47 V c 1 t := by dsimp only [dat47]
theorem after47_2 (c : Dev nD) (t : Fin cfg47.N) : (dat47 V c).after 2 t = (outsAt47 V c t.val t.isLt).1 := by dsimp only [dat47]

theorem before47_0 (c : Dev nD) (t : Fin cfg47.N) (d) : (dat47 V c).before 0 t d = iblk47 V c 0 t :=
  before47_0_of V (dat47 V c) (A_eq47 V c 0) (after47_0 V c) t d
theorem before47_1 (c : Dev nD) (t : Fin cfg47.N) (d) : (dat47 V c).before 1 t d = iblk47 V c 1 t :=
  before47_1_of V (dat47 V c) (A_eq47 V c 1) (after47_1 V c) t d

/-! ## The body obligation -/

/-- What the body is called with at point `t`, the windows one by one, -/
noncomputable def bodyPre47 (c : Dev nD) (t : Fin cfg47.N) : sProp 𝕄 :=
  iprop((dat47 V c).Φ t.castSucc ∗ (dat47 V c).owesAt () t.castSucc
    ∗ (∃ d, owns (c : Thread nD τ) (ms47_0 t) fullShare ((dat47 V c).before 0 t d))
    ∗ (∃ d, owns (c : Thread nD τ) (ms47_1 t) fullShare ((dat47 V c).before 1 t d))
    ∗ (∃ d, owns (c : Thread nD τ) (ms47_2 t) fullShare ((dat47 V c).before 2 t d)))

/-- and what it returns. -/
noncomputable def bodyPost47 (c : Dev nD) (t : Fin cfg47.N) : sProp 𝕄 :=
  iprop((dat47 V c).Φ t.succ ∗ (dat47 V c).owesAt () t.succ
    ∗ (dat47 V c).leavesExact 0 t
    ∗ (dat47 V c).leavesExact 1 t
    ∗ (dat47 V c).leavesExact 2 t)

set_option maxHeartbeats 4800000 in
/-- The body at any point. The inputs' memrefs hold their blocks; the point's position says which case it is in; the
    invariant hands the body the accumulator (at anything at the first point, else at what the point before left) and
    takes it back at this point's contents; away from the last point the output's buffer goes back as it came. -/
theorem sound_body47 (c : Dev nD) (t : Fin cfg47.N) :
    bodyPre47 V c t ⊢ wp frame (wpE (defs₀ (F := F)) Variants.none c none) Set.univ (bodyAt47 t) (fun _ => bodyPost47 V c t) := by
  unfold bodyPre47 bodyPost47 bodyAt47
  simp only [before47_0, before47_1]
  rw [show (dat47 V c).owesAt () t.succ = (dat47 V c).owesAt () t.castSucc from rfl]
  rw [show (dat47 V c).Φ t.succ = PhiS47 V c (t.val + 1) t.isLt from rfl, PhiS47_succ]
  have hN : t.val < 25 := lt_of_lt_of_eq t.isLt (show cfg47.N = 25 from N_47)
  rw [show (dat47 V c).leavesExact 0 t = owns (c : Thread nD τ) (ms47_0 t) fullShare ((dat47 V c).after 0 t) from by
    unfold Dat.leavesExact; rw [liveAt47_0 t], after47_0]
  rw [show (dat47 V c).leavesExact 1 t = owns (c : Thread nD τ) (ms47_1 t) fullShare ((dat47 V c).after 1 t) from by
    unfold Dat.leavesExact; rw [liveAt47_1 t], after47_1]
  by_cases h0 : t.val = 0
  · have h1 : ¬t.val = 24 := by omega
    rw [Dat.leavesExact_idle (dat47 V c) 2 t (idleAt47_2 t (fun h => h1 ((hcond47_1 t).mp h))) (noFlush47_2 t (fun h => h1 ((hcond47_1 t).mp h)))]
    rw [outsAt47_A V c t h0 h1]
    unfold sout47_A_0; (try dsimp only)
    rw [PhiS47_castSucc V c t, PhiS47_zero V c _ _ h0, PhiA47_eq]
    iintro ⟨⟨⟨HS0, Hr⟩, Hg⟩, Ho, ⟨%d0, H0⟩, ⟨%d1, H1⟩, ⟨%d2, H2⟩⟩
    iapply ((kernelRun47_A c (grid47.coords t) _ _ _ _ _ _ _ _ ((hcond47_0 t).mpr h0) (fun h => h1 ((hcond47_1 t).mp h)) (iblk47 V c 0 t) (iblk47 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover47_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat47 V c).leavesExact 2 t = owns (c : Thread nD τ) (ms47_2 t) fullShare ((dat47 V c).after 2 t) from by
        unfold Dat.leavesExact; rw [liveAt47_2 t ((hcond47_1 t).mpr h1)], after47_2]
      rw [outsAt47_C V c t h0 h1]
      unfold out47_C_2 sout47_C_0; (try dsimp only)
      rw [PhiS47_castSucc V c t, PhiS47_pos V c _ _ h0]
      iintro ⟨⟨⟨HS0, Hr⟩, Hg⟩, Ho, ⟨%d0, H0⟩, ⟨%d1, H1⟩, ⟨%d2, H2⟩⟩
      iapply ((kernelRun47_C c (grid47.coords t) _ _ _ _ _ _ _ _ (fun h => h0 ((hcond47_0 t).mp h)) ((hcond47_1 t).mpr h1) (iblk47 V c 0 t) (iblk47 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover47_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover47_C_2 c _ _ _ _ _ _ _ _ _ _ _ _ _ _)
    · rw [Dat.leavesExact_idle (dat47 V c) 2 t (idleAt47_2 t (fun h => h1 ((hcond47_1 t).mp h))) (noFlush47_2 t (fun h => h1 ((hcond47_1 t).mp h)))]
      rw [outsAt47_B V c t h0 h1]
      unfold sout47_B_0; (try dsimp only)
      rw [PhiS47_castSucc V c t, PhiS47_pos V c _ _ h0]
      iintro ⟨⟨⟨HS0, Hr⟩, Hg⟩, Ho, ⟨%d0, H0⟩, ⟨%d1, H1⟩, ⟨%d2, H2⟩⟩
      iapply ((kernelRun47_B c (grid47.coords t) _ _ _ _ _ _ _ _ (fun h => h0 ((hcond47_0 t).mp h)) (fun h => h1 ((hcond47_1 t).mp h)) (iblk47 V c 0 t) (iblk47 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover47_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation47 (c : Dev nD) : BodyObligation (dat47 (F := F) V c) (defs₀ (F := F)) Variants.none () Set.univ := fun t => by
  rw [bigSep_W47, bigSep_W47]
  exact sound_body47 V c t

/-- What the launch hands the region is the invariant before the first point. -/
theorem hin47 (c : Dev nD) : Pipeline.ΦA spec47 c ⊢ (dat47 V c).Φ 0 := by
  rw [show (dat47 V c).Φ 0 = PhiS47 V c 0 (Nat.zero_le _) from rfl, PhiS47_zero V c 0 _ rfl]
  try exact Idealize.SL.BI.Entails.refl _

/-- After any point but the first the invariant gives the launch's back: the accumulator's named contents are forgotten. -/
theorem Phi_out47 (c : Dev nD) (t : Fin (cfg47.N + 1)) (ht : t.val ≠ 0) : (dat47 V c).Φ t ⊢ Pipeline.ΦA spec47 c := by
  rw [show (dat47 V c).Φ t = PhiS47 V c t.val (Nat.le_of_lt_succ t.isLt) from rfl, PhiS47_pos V c _ _ ht, PhiA47_eq]
  iintro ⟨⟨HS0, Hr⟩, Hg⟩
  isplitl [HS0 Hr]
  · isplitl [HS0]
    · iexists _; iexact HS0
    iexact Hr
  iexact Hg

/-- The same after the last point. -/
theorem hout47 (c : Dev nD) : (dat47 V c).Φ (Fin.last cfg47.N) ⊢ Pipeline.ΦA spec47 c :=
  Phi_out47 V c _ (by rw [Fin.val_last]; have : cfg47.N = 25 := N_47; omega)

end Cert.Kernel.Hand

end
-- ==== Proof.KB.R48.lean ====
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.Frame
import Idealize.ShloMosaic.Lib.Pipeline.FrameBody
import Idealize.ShloMosaic.Lib.Pipeline.Regions
import Idealize.ShloMosaic.Lib.Ring
import Idealize.ShloMosaic.Lib.Tactic

/-! # Region 48: batch-norm affine map followed by a product with a one-column matrix

The kernel of custom_call 48 reads, at every grid point, a block of 2000 rows of the activations
(window 0), the four per-column rows mean, variance, scale and shift (windows 1 to 4, each 1 x 32), the
one-column weight matrix (window 5, 32 x 1), and writes a block of 2000 rows of the one-column result
(window 6).  Nothing is carried from one grid point to the next and no store is conditional, so what the
body leaves in the output buffer is a pure function of the six input blocks.

This file gives the proof data of the pipeline at arbitrary region-entry contents and discharges the body
obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region48
-- the buffer contents of the core when the region is entered
variable (V : (c : Dev nD) → (b : Ref sig .tc) → Buf (Elt F) ((c : Thread nD τ).loc b))

/-! ## The windows' blocks -/

/-- Window w's block at grid point t, read off the window's array as the region finds it. -/
noncomputable def iblk48 (c : Dev nD) (w : Fin cfg48.W) (t : Fin cfg48.N) : ((cfg48.win w).xblock (cfg48.grid.coords t)).Idx → Elt F (cfg48.win w).elt :=
  ((cfg48.win w).blk t).view.read (Elt F) (V c (Pipeline.arrRef spec48 w))

/-- An input window's current staging buffer holds the window's block at every point, whether the block
    was fetched at that point or not (if not, the block index has not moved since it was): for any proof data
    whose array is the entry array and whose body leaves the block in place. -/
theorem before48_0_of {c : Dev nD} (dat : Dat τ (Elt F) Unit ℕ (UR sig nD τ) ℕ cfg48 c) (hA : dat.A 0 = V c (Pipeline.arrRef spec48 0))
    (hafter : ∀ t, dat.after 0 t = iblk48 V c 0 t) (t : Fin cfg48.N) (d) : dat.before 0 t d = iblk48 V c 0 t :=
  (dat.before_in_eq_fetched 0 rfl (fun _ => rfl) (fun _ _ _ => rfl) (fun t => by rw [hafter]; unfold Dat.blockOf iblk48; rw [hA]; try rfl) t d).trans
    (by unfold Dat.fetched Dat.blockOf iblk48; rw [hA]; try rfl)

theorem before48_1_of {c : Dev nD} (dat : Dat τ (Elt F) Unit ℕ (UR sig nD τ) ℕ cfg48 c) (hA : dat.A 1 = V c (Pipeline.arrRef spec48 1))
    (hafter : ∀ t, dat.after 1 t = iblk48 V c 1 t) (t : Fin cfg48.N) (d) : dat.before 1 t d = iblk48 V c 1 t :=
  (dat.before_in_eq_fetched 1 rfl (fun _ => rfl) (fun _ _ _ => rfl) (fun t => by rw [hafter]; unfold Dat.blockOf iblk48; rw [hA]; try rfl) t d).trans
    (by unfold Dat.fetched Dat.blockOf iblk48; rw [hA]; try rfl)

theorem before48_2_of {c : Dev nD} (dat : Dat τ (Elt F) Unit ℕ (UR sig nD τ) ℕ cfg48 c) (hA : dat.A 2 = V c (Pipeline.arrRef spec48 2))
    (hafter : ∀ t, dat.after 2 t = iblk48 V c 2 t) (t : Fin cfg48.N) (d) : dat.before 2 t d = iblk48 V c 2 t :=
  (dat.before_in_eq_fetched 2 rfl (fun _ => rfl) (fun _ _ _ => rfl) (fun t => by rw [hafter]; unfold Dat.blockOf iblk48; rw [hA]; try rfl) t d).trans
    (by unfold Dat.fetched Dat.blockOf iblk48; rw [hA]; try rfl)

theorem before48_3_of {c : Dev nD} (dat : Dat τ (Elt F) Unit ℕ (UR sig nD τ) ℕ cfg48 c) (hA : dat.A 3 = V c (Pipeline.arrRef spec48 3))
    (hafter : ∀ t, dat.after 3 t = iblk48 V c 3 t) (t : Fin cfg48.N) (d) : dat.before 3 t d = iblk48 V c 3 t :=
  (dat.before_in_eq_fetched 3 rfl (fun _ => rfl) (fun _ _ _ => rfl) (fun t => by rw [hafter]; unfold Dat.blockOf iblk48; rw [hA]; try rfl) t d).trans
    (by unfold Dat.fetched Dat.blockOf iblk48; rw [hA]; try rfl)

theorem before48_4_of {c : Dev nD} (dat : Dat τ (Elt F) Unit ℕ (UR sig nD τ) ℕ cfg48 c) (hA : dat.A 4 = V c (Pipeline.arrRef spec48 4))
    (hafter : ∀ t, dat.after 4 t = iblk48 V c 4 t) (t : Fin cfg48.N) (d) : dat.before 4 t d = iblk48 V c 4 t :=
  (dat.before_in_eq_fetched 4 rfl (fun _ => rfl) (fun _ _ _ => rfl) (fun t => by rw [hafter]; unfold Dat.blockOf iblk48; rw [hA]; try rfl) t d).trans
    (by unfold Dat.fetched Dat.blockOf iblk48; rw [hA]; try rfl)

theorem before48_5_of {c : Dev nD} (dat : Dat τ (Elt F) Unit ℕ (UR sig nD τ) ℕ cfg48 c) (hA : dat.A 5 = V c (Pipeline.arrRef spec48 5))
    (hafter : ∀ t, dat.after 5 t = iblk48 V c 5 t) (t : Fin cfg48.N) (d) : dat.before 5 t d = iblk48 V c 5 t :=
  (dat.before_in_eq_fetched 5 rfl (fun _ => rfl) (fun _ _ _ => rfl) (fun t => by rw [hafter]; unfold Dat.blockOf iblk48; rw [hA]; try rfl) t d).trans
    (by unfold Dat.fetched Dat.blockOf iblk48; rw [hA]; try rfl)

/-! ## The body's accesses: every load and the one store take a whole buffer -/

noncomputable abbrev r48_0 : Rect S2000x32 := Rect.unit (s := S2000x32) ![0, 0] S2000x32.size inb_S2000x32_S2000x32_0_0
noncomputable abbrev r48_1 : Rect S1x32 := Rect.unit (s := S1x32) ![0, 0] S1x32.size inb_S1x32_S1x32_0_0
noncomputable abbrev r48_2 : Rect S32x1 := Rect.unit (s := S32x1) ![0, 0] S32x1.size inb_S32x1_S32x1_0_0
noncomputable abbrev r48_3 : Rect S2000x1 := Rect.unit (s := S2000x1) ![0, 0] S2000x1.size inb_S2000x1_S2000x1_0_0

/-! ## What the body leaves in the output window's buffer -/

/-- Window 6's staging buffer after the body, from the six input blocks: the one store, whose value is the
    skeleton's payload at the loaded blocks. -/
noncomputable def out48_6 (x0 : Vec F S2000x32 .f32) (x1 : Vec F S1x32 .f32) (x2 : Vec F S1x32 .f32) (x3 : Vec F S1x32 .f32) (x4 : Vec F S1x32 .f32) (x5 : Vec F S32x1 .f32) : Vec F S2000x1 .f32 :=
  View.canon [⟨r48_3, k48_pay1 (View.ld x0 r48_0) (View.ld x1 r48_1) (View.ld x2 r48_1) (View.ld x3 r48_1) (View.ld x4 r48_1) (View.ld x5 r48_2)⟩]

/-- The one store takes the whole buffer, so it covers it. -/
theorem cover48_6 (p0 : Vec F S2000x1 .f32) (y : S2000x1.Idx) :
    ∃ pc ∈ ([⟨r48_3, p0⟩] : List (View.Piece (Elt F) S2000x1 .f32)), y ∈ pc.1.set :=
  View.cover_of_tiled [⟨r48_3, p0⟩] S2000x1.size (by rfl) y

/-! ## The body's triple -/

set_option maxHeartbeats 1000000 in
/-- The kernel body on whole staging memrefs — the inputs' holding x0 .. x5, the output's holding anything —
    runs to a state where the inputs' are as they were and the output's holds out48_6 of the inputs. -/
theorem sound_kernel48 (c : Dev nD) (E : Set ℕ) (i : grid48.Coords)
    (arg1 : Memref sig .tc .vmem S2000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S32x1 .f32) (harg6 : arg6.IsWhole)
    (arg7 : Memref sig .tc .vmem S2000x1 .f32) (harg7 : arg7.IsWhole)
    (x0 : Vec F S2000x32 .f32) (x1 : Vec F S1x32 .f32) (x2 : Vec F S1x32 .f32) (x3 : Vec F S1x32 .f32) (x4 : Vec F S1x32 .f32) (x5 : Vec F S32x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out48_6 x0 x1 x2 x3 x4 x5)) -∗ K ⟨⟩))
      ⊢ wp frame (wpE (defs₀ (F := F)) Variants.none c none) E
          (cc48__bn_matvec_kernel i arg1 harg1 arg2 harg2 arg3 harg3 arg4 harg4 arg5 harg5 arg6 harg6 arg7 harg7) K := by
  simp only [cc48__bn_matvec_kernel_eq_skeleton]; unfold cc48__bn_matvec_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover48_6 _)

/-! ## The pipeline's proof data -/

/-- The proof data of pipeline 48 on core c: the arrays as the region finds them; after the body at point t
    each input's buffer still at its block and the output's at out48_6 of the input blocks; the invariant that
    of a body which touches nothing but its staging buffers; nothing owed; full shares. -/
noncomputable def dat48 (c : Dev nD) : Dat τ (Elt F) Unit ℕ (UR sig nD τ) ℕ cfg48 c where
  A w := V c (Pipeline.arrRef spec48 w)
  after w t := match w with
    | ⟨0, _⟩ => iblk48 V c 0 t
    | ⟨1, _⟩ => iblk48 V c 1 t
    | ⟨2, _⟩ => iblk48 V c 2 t
    | ⟨3, _⟩ => iblk48 V c 3 t
    | ⟨4, _⟩ => iblk48 V c 4 t
    | ⟨5, _⟩ => iblk48 V c 5 t
    | ⟨6, _⟩ => out48_6 (iblk48 V c 0 t) (iblk48 V c 1 t) (iblk48 V c 2 t) (iblk48 V c 3 t) (iblk48 V c 4 t) (iblk48 V c 5 t)
  Φ _ := Pipeline.ΦA spec48 c
  q _ := fullShare
  owed _ := 0

/-- The proof data's arrays are the region-entry contents. -/
theorem A_eq48 (c : Dev nD) (w : Fin cfg48.W) : (dat48 V c).A w = V c (Pipeline.arrRef spec48 w) := by
  dsimp only [dat48]

/-- What the body leaves, window by window. -/
theorem after48_0 (c : Dev nD) (t : Fin cfg48.N) : (dat48 V c).after 0 t = iblk48 V c 0 t := by dsimp only [dat48]
theorem after48_1 (c : Dev nD) (t : Fin cfg48.N) : (dat48 V c).after 1 t = iblk48 V c 1 t := by dsimp only [dat48]
theorem after48_2 (c : Dev nD) (t : Fin cfg48.N) : (dat48 V c).after 2 t = iblk48 V c 2 t := by dsimp only [dat48]
theorem after48_3 (c : Dev nD) (t : Fin cfg48.N) : (dat48 V c).after 3 t = iblk48 V c 3 t := by dsimp only [dat48]
theorem after48_4 (c : Dev nD) (t : Fin cfg48.N) : (dat48 V c).after 4 t = iblk48 V c 4 t := by dsimp only [dat48]
theorem after48_5 (c : Dev nD) (t : Fin cfg48.N) : (dat48 V c).after 5 t = iblk48 V c 5 t := by dsimp only [dat48]
theorem after48_6 (c : Dev nD) (t : Fin cfg48.N) : (dat48 V c).after 6 t
    = out48_6 (iblk48 V c 0 t) (iblk48 V c 1 t) (iblk48 V c 2 t) (iblk48 V c 3 t) (iblk48 V c 4 t) (iblk48 V c 5 t) := by dsimp only [dat48]

/-- Each input's current staging buffer holds its block at every point. -/
theorem before48_0 (c : Dev nD) (t : Fin cfg48.N) (d) : (dat48 V c).before 0 t d = iblk48 V c 0 t :=
  before48_0_of V (dat48 V c) (A_eq48 V c 0) (after48_0 V c) t d
theorem before48_1 (c : Dev nD) (t : Fin cfg48.N) (d) : (dat48 V c).before 1 t d = iblk48 V c 1 t :=
  before48_1_of V (dat48 V c) (A_eq48 V c 1) (after48_1 V c) t d
theorem before48_2 (c : Dev nD) (t : Fin cfg48.N) (d) : (dat48 V c).before 2 t d = iblk48 V c 2 t :=
  before48_2_of V (dat48 V c) (A_eq48 V c 2) (after48_2 V c) t d
theorem before48_3 (c : Dev nD) (t : Fin cfg48.N) (d) : (dat48 V c).before 3 t d = iblk48 V c 3 t :=
  before48_3_of V (dat48 V c) (A_eq48 V c 3) (after48_3 V c) t d
theorem before48_4 (c : Dev nD) (t : Fin cfg48.N) (d) : (dat48 V c).before 4 t d = iblk48 V c 4 t :=
  before48_4_of V (dat48 V c) (A_eq48 V c 4) (after48_4 V c) t d
theorem before48_5 (c : Dev nD) (t : Fin cfg48.N) (d) : (dat48 V c).before 5 t d = iblk48 V c 5 t :=
  before48_5_of V (dat48 V c) (A_eq48 V c 5) (after48_5 V c) t d

/-! ## The body obligation, at a generic point -/

/-- What the body is called with at point t, the windows one by one, -/
noncomputable def bodyPre48 (c : Dev nD) (t : Fin cfg48.N) : sProp 𝕄 :=
  iprop((dat48 V c).Φ t.castSucc ∗ (dat48 V c).owesAt () t.castSucc
    ∗ (∃ d, owns (c : Thread nD τ) (st48_0 t) fullShare ((dat48 V c).before 0 t d))
    ∗ (∃ d, owns (c : Thread nD τ) (st48_1 t) fullShare ((dat48 V c).before 1 t d))
    ∗ (∃ d, owns (c : Thread nD τ) (st48_2 t) fullShare ((dat48 V c).before 2 t d))
    ∗ (∃ d, owns (c : Thread nD τ) (st48_3 t) fullShare ((dat48 V c).before 3 t d))
    ∗ (∃ d, owns (c : Thread nD τ) (st48_4 t) fullShare ((dat48 V c).before 4 t d))
    ∗ (∃ d, owns (c : Thread nD τ) (st48_5 t) fullShare ((dat48 V c).before 5 t d))
    ∗ (∃ d, owns (c : Thread nD τ) (st48_6 t) fullShare ((dat48 V c).before 6 t d)))

/-- and what it returns. -/
noncomputable def bodyPost48 (c : Dev nD) (t : Fin cfg48.N) : sProp 𝕄 :=
  iprop((dat48 V c).Φ t.succ ∗ (dat48 V c).owesAt () t.succ
    ∗ owns (c : Thread nD τ) (st48_0 t) fullShare ((dat48 V c).after 0 t)
    ∗ owns (c : Thread nD τ) (st48_1 t) fullShare ((dat48 V c).after 1 t)
    ∗ owns (c : Thread nD τ) (st48_2 t) fullShare ((dat48 V c).after 2 t)
    ∗ owns (c : Thread nD τ) (st48_3 t) fullShare ((dat48 V c).after 3 t)
    ∗ owns (c : Thread nD τ) (st48_4 t) fullShare ((dat48 V c).after 4 t)
    ∗ owns (c : Thread nD τ) (st48_5 t) fullShare ((dat48 V c).after 5 t)
    ∗ owns (c : Thread nD τ) (st48_6 t) fullShare ((dat48 V c).after 6 t))

/-- The body at any point: the inputs' memrefs hold their blocks, so the body's triple applies; the invariant
    and what the core owes pass through unread. -/
theorem sound_body48 (c : Dev nD) (t : Fin cfg48.N) :
    bodyPre48 V c t ⊢ wp frame (wpE (defs₀ (F := F)) Variants.none c none) Set.univ (bodyAt48 t) (fun _ => bodyPost48 V c t) := by
  unfold bodyPre48 bodyPost48 bodyAt48
  simp only [before48_0, before48_1, before48_2, before48_3, before48_4, before48_5]
  rw [show (dat48 V c).Φ t.succ = (dat48 V c).Φ t.castSucc from rfl,
    show (dat48 V c).owesAt () t.succ = (dat48 V c).owesAt () t.castSucc from rfl,
    after48_0, after48_1, after48_2, after48_3, after48_4, after48_5, after48_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel48 c Set.univ _ _ _ _ _ _ _ _ _ _ _ _ _ _ _
    (iblk48 V c 0 t) (iblk48 V c 1 t) (iblk48 V c 2 t) (iblk48 V c 3 t) (iblk48 V c 4 t) (iblk48 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation48 (c : Dev nD) : BodyObligation (dat48 (F := F) V c) (defs₀ (F := F)) Variants.none () Set.univ := fun t => by
  rw [bigSep_W48, bigSep_W48]
  exact sound_body48 V c t

end Region48

end Cert.Kernel.Hand

end
-- ==== Proof.KB.Chain.lean ====
/- The buffer contents at every boundary of @main's 101 segments, as a fold from the launch memory: a host
   stretch applies its operations' pure functions, a kernel region replaces its windows' arrays by what the
   pipeline's write-backs leave (each output the fold of its blocks, each input as entered). -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.R0
import proofs.«408084_j48395691492010_3_alg».proof.Proof.KB.R1
import proofs.«408084_j48395691492010_3_alg».proof.Proof.KB.R2
import proofs.«408084_j48395691492010_3_alg».proof.Proof.KB.R3
import proofs.«408084_j48395691492010_3_alg».proof.Proof.KB.R4
import proofs.«408084_j48395691492010_3_alg».proof.Proof.KB.R5
import proofs.«408084_j48395691492010_3_alg».proof.Proof.KB.R6
import proofs.«408084_j48395691492010_3_alg».proof.Proof.KB.R7
import proofs.«408084_j48395691492010_3_alg».proof.Proof.KB.R8
import proofs.«408084_j48395691492010_3_alg».proof.Proof.KB.R9
import proofs.«408084_j48395691492010_3_alg».proof.Proof.KB.R10
import proofs.«408084_j48395691492010_3_alg».proof.Proof.KB.R11
import proofs.«408084_j48395691492010_3_alg».proof.Proof.KB.R12
import proofs.«408084_j48395691492010_3_alg».proof.Proof.KB.R13
import proofs.«408084_j48395691492010_3_alg».proof.Proof.KB.R14
import proofs.«408084_j48395691492010_3_alg».proof.Proof.KB.R15
import proofs.«408084_j48395691492010_3_alg».proof.Proof.KB.R16
import proofs.«408084_j48395691492010_3_alg».proof.Proof.KB.R17
import proofs.«408084_j48395691492010_3_alg».proof.Proof.KB.R18
import proofs.«408084_j48395691492010_3_alg».proof.Proof.KB.R19
import proofs.«408084_j48395691492010_3_alg».proof.Proof.KB.R20
import proofs.«408084_j48395691492010_3_alg».proof.Proof.KB.R21
import proofs.«408084_j48395691492010_3_alg».proof.Proof.KB.R22
import proofs.«408084_j48395691492010_3_alg».proof.Proof.KB.R23
import proofs.«408084_j48395691492010_3_alg».proof.Proof.KB.R24
import proofs.«408084_j48395691492010_3_alg».proof.Proof.KB.R25
import proofs.«408084_j48395691492010_3_alg».proof.Proof.KB.R26
import proofs.«408084_j48395691492010_3_alg».proof.Proof.KB.R27
import proofs.«408084_j48395691492010_3_alg».proof.Proof.KB.R28
import proofs.«408084_j48395691492010_3_alg».proof.Proof.KB.R29
import proofs.«408084_j48395691492010_3_alg».proof.Proof.KB.R30
import proofs.«408084_j48395691492010_3_alg».proof.Proof.KB.R31
import proofs.«408084_j48395691492010_3_alg».proof.Proof.KB.R32
import proofs.«408084_j48395691492010_3_alg».proof.Proof.KB.R33
import proofs.«408084_j48395691492010_3_alg».proof.Proof.KB.R34
import proofs.«408084_j48395691492010_3_alg».proof.Proof.KB.R35
import proofs.«408084_j48395691492010_3_alg».proof.Proof.KB.R36
import proofs.«408084_j48395691492010_3_alg».proof.Proof.KB.R37
import proofs.«408084_j48395691492010_3_alg».proof.Proof.KB.R38
import proofs.«408084_j48395691492010_3_alg».proof.Proof.KB.R39
import proofs.«408084_j48395691492010_3_alg».proof.Proof.KB.R40
import proofs.«408084_j48395691492010_3_alg».proof.Proof.KB.R41
import proofs.«408084_j48395691492010_3_alg».proof.Proof.KB.R42
import proofs.«408084_j48395691492010_3_alg».proof.Proof.KB.R43
import proofs.«408084_j48395691492010_3_alg».proof.Proof.KB.R44
import proofs.«408084_j48395691492010_3_alg».proof.Proof.KB.R45
import proofs.«408084_j48395691492010_3_alg».proof.Proof.KB.R46
import proofs.«408084_j48395691492010_3_alg».proof.Proof.KB.R47
import proofs.«408084_j48395691492010_3_alg».proof.Proof.KB.R48
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
noncomputable abbrev B0 : Dev nD → Valuation τ sig (Elt F) := fun c b => (s₀ m ρ).mem ((c : Dev nD), b)
/-- After the host stretch `hostOps0`. -/
noncomputable abbrev B1 : Dev nD → Valuation τ sig (Elt F) := fun c => StableHlo.after hostOps0 (B0 m ρ c)
/-- After the host stretch `hostOps0_1`. -/
noncomputable abbrev B2 : Dev nD → Valuation τ sig (Elt F) := fun c => StableHlo.after hostOps0_1 (B1 m ρ c)
/-- After the host stretch `hostOps0_2`. -/
noncomputable abbrev B3 : Dev nD → Valuation τ sig (Elt F) := fun c => StableHlo.after hostOps0_2 (B2 m ρ c)

/-- Region 0's entry contents read at the TensorCore's references. -/
noncomputable abbrev E0 : (c : Dev nD) → (b : Ref sig .tc) → Buf (Elt F) ((c : Thread nD τ).loc b) := fun c b => B3 m ρ c b
/-- At region 0's exit: its arrays at what the pipeline leaves, every other buffer as entered. -/
noncomputable def B4 (c : Dev nD) : Valuation τ sig (Elt F) :=
  Pipeline.withArrays spec0 c (B3 m ρ c) fun w => (dat0 (E0 m ρ) c).arrAt w cfg0.N
theorem B4_arr (c : Dev nD) (w : Fin cfg0.W) :
    B4 m ρ c (Proc.devRef .tc (Pipeline.arrRef spec0 w)) = (dat0 (E0 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
/-- Region 0's exit contents read at the TensorCore's references. -/
noncomputable abbrev X0 : (c : Dev nD) → (b : Ref sig .tc) → Buf (Elt F) ((c : Thread nD τ).loc b) := fun c b => B4 m ρ c b
theorem hF0 (c : Dev nD) (w : Fin cfg0.W) : (dat0 (E0 m ρ) c).arrAt w cfg0.N = X0 m ρ c (Pipeline.arrRef spec0 w) :=
  (B4_arr m ρ c w).symm
theorem hrest0 (c : Dev nD) : ∀ b, b ∉ Finset.univ.image (Pipeline.arrRef spec0) → X0 m ρ c b = E0 m ρ c b :=
  fun b hb => B4_of_ne m ρ c b fun w e => hb (Finset.mem_image.mpr ⟨w, Finset.mem_univ _, e⟩)
/-- After the host stretch `hostOps1`. -/
noncomputable abbrev B5 : Dev nD → Valuation τ sig (Elt F) := fun c => StableHlo.after hostOps1 (B4 m ρ c)

/-- Region 1's entry contents read at the TensorCore's references. -/
noncomputable abbrev E1 : (c : Dev nD) → (b : Ref sig .tc) → Buf (Elt F) ((c : Thread nD τ).loc b) := fun c b => B5 m ρ c b
/-- At region 1's exit: its arrays at what the pipeline leaves, every other buffer as entered. -/
noncomputable def B6 (c : Dev nD) : Valuation τ sig (Elt F) :=
  Pipeline.withArrays spec1 c (B5 m ρ c) fun w => (dat1 (E1 m ρ) c).arrAt w cfg1.N
theorem B6_arr (c : Dev nD) (w : Fin cfg1.W) :
    B6 m ρ c (Proc.devRef .tc (Pipeline.arrRef spec1 w)) = (dat1 (E1 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
/-- Region 1's exit contents read at the TensorCore's references. -/
noncomputable abbrev X1 : (c : Dev nD) → (b : Ref sig .tc) → Buf (Elt F) ((c : Thread nD τ).loc b) := fun c b => B6 m ρ c b
theorem hF1 (c : Dev nD) (w : Fin cfg1.W) : (dat1 (E1 m ρ) c).arrAt w cfg1.N = X1 m ρ c (Pipeline.arrRef spec1 w) :=
  (B6_arr m ρ c w).symm
theorem hrest1 (c : Dev nD) : ∀ b, b ∉ Finset.univ.image (Pipeline.arrRef spec1) → X1 m ρ c b = E1 m ρ c b :=
  fun b hb => B6_of_ne m ρ c b fun w e => hb (Finset.mem_image.mpr ⟨w, Finset.mem_univ _, e⟩)
/-- After the host stretch `hostOps2`. -/
noncomputable abbrev B7 : Dev nD → Valuation τ sig (Elt F) := fun c => StableHlo.after hostOps2 (B6 m ρ c)

/-- Region 2's entry contents read at the TensorCore's references. -/
noncomputable abbrev E2 : (c : Dev nD) → (b : Ref sig .tc) → Buf (Elt F) ((c : Thread nD τ).loc b) := fun c b => B7 m ρ c b
/-- At region 2's exit: its arrays at what the pipeline leaves, every other buffer as entered. -/
noncomputable def B8 (c : Dev nD) : Valuation τ sig (Elt F) :=
  Pipeline.withArrays spec2 c (B7 m ρ c) fun w => (dat2 (E2 m ρ) c).arrAt w cfg2.N
theorem B8_arr (c : Dev nD) (w : Fin cfg2.W) :
    B8 m ρ c (Proc.devRef .tc (Pipeline.arrRef spec2 w)) = (dat2 (E2 m ρ) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) := by
  unfold B8; exact Pipeline.withArrays_of_ne spec2 c _ _ b hb
/-- Region 2's exit contents read at the TensorCore's references. -/
noncomputable abbrev X2 : (c : Dev nD) → (b : Ref sig .tc) → Buf (Elt F) ((c : Thread nD τ).loc b) := fun c b => B8 m ρ c b
theorem hF2 (c : Dev nD) (w : Fin cfg2.W) : (dat2 (E2 m ρ) c).arrAt w cfg2.N = X2 m ρ c (Pipeline.arrRef spec2 w) :=
  (B8_arr m ρ c w).symm
theorem hrest2 (c : Dev nD) : ∀ b, b ∉ Finset.univ.image (Pipeline.arrRef spec2) → X2 m ρ c b = E2 m ρ c b :=
  fun b hb => B8_of_ne m ρ c b fun w e => hb (Finset.mem_image.mpr ⟨w, Finset.mem_univ _, e⟩)
/-- After the host stretch `hostOps3`. -/
noncomputable abbrev B9 : Dev nD → Valuation τ sig (Elt F) := fun c => StableHlo.after hostOps3 (B8 m ρ c)

/-- Region 3's entry contents read at the TensorCore's references. -/
noncomputable abbrev E3 : (c : Dev nD) → (b : Ref sig .tc) → Buf (Elt F) ((c : Thread nD τ).loc b) := fun c b => B9 m ρ c b
/-- At region 3's exit: its arrays at what the pipeline leaves, every other buffer as entered. -/
noncomputable def B10 (c : Dev nD) : Valuation τ sig (Elt F) :=
  Pipeline.withArrays spec3 c (B9 m ρ c) fun w => (dat3 (E3 m ρ) c).arrAt w cfg3.N
theorem B10_arr (c : Dev nD) (w : Fin cfg3.W) :
    B10 m ρ c (Proc.devRef .tc (Pipeline.arrRef spec3 w)) = (dat3 (E3 m ρ) c).arrAt w cfg3.N := by
  unfold B10; exact Pipeline.withArrays_arr spec3 launch3.win.arr_inj c _ _ w
theorem B10_of_ne (c : Dev nD) (b : Ref sig .tc) (hb : ∀ w, Pipeline.arrRef spec3 w ≠ b) :
    B10 m ρ c (Proc.devRef .tc b) = B9 m ρ c (Proc.devRef .tc b) := by
  unfold B10; exact Pipeline.withArrays_of_ne spec3 c _ _ b hb
/-- Region 3's exit contents read at the TensorCore's references. -/
noncomputable abbrev X3 : (c : Dev nD) → (b : Ref sig .tc) → Buf (Elt F) ((c : Thread nD τ).loc b) := fun c b => B10 m ρ c b
theorem hF3 (c : Dev nD) (w : Fin cfg3.W) : (dat3 (E3 m ρ) c).arrAt w cfg3.N = X3 m ρ c (Pipeline.arrRef spec3 w) :=
  (B10_arr m ρ c w).symm
theorem hrest3 (c : Dev nD) : ∀ b, b ∉ Finset.univ.image (Pipeline.arrRef spec3) → X3 m ρ c b = E3 m ρ c b :=
  fun b hb => B10_of_ne m ρ c b fun w e => hb (Finset.mem_image.mpr ⟨w, Finset.mem_univ _, e⟩)
/-- After the host stretch `hostOps4`. -/
noncomputable abbrev B11 : Dev nD → Valuation τ sig (Elt F) := fun c => StableHlo.after hostOps4 (B10 m ρ c)

/-- Region 4's entry contents read at the TensorCore's references. -/
noncomputable abbrev E4 : (c : Dev nD) → (b : Ref sig .tc) → Buf (Elt F) ((c : Thread nD τ).loc b) := fun c b => B11 m ρ c b
/-- At region 4's exit: its arrays at what the pipeline leaves, every other buffer as entered. -/
noncomputable def B12 (c : Dev nD) : Valuation τ sig (Elt F) :=
  Pipeline.withArrays spec4 c (B11 m ρ c) fun w => (dat4 (E4 m ρ) c).arrAt w cfg4.N
theorem B12_arr (c : Dev nD) (w : Fin cfg4.W) :
    B12 m ρ c (Proc.devRef .tc (Pipeline.arrRef spec4 w)) = (dat4 (E4 m ρ) c).arrAt w cfg4.N := by
  unfold B12; exact Pipeline.withArrays_arr spec4 launch4.win.arr_inj c _ _ w
theorem B12_of_ne (c : Dev nD) (b : Ref sig .tc) (hb : ∀ w, Pipeline.arrRef spec4 w ≠ b) :
    B12 m ρ c (Proc.devRef .tc b) = B11 m ρ c (Proc.devRef .tc b) := by
  unfold B12; exact Pipeline.withArrays_of_ne spec4 c _ _ b hb
/-- Region 4's exit contents read at the TensorCore's references. -/
noncomputable abbrev X4 : (c : Dev nD) → (b : Ref sig .tc) → Buf (Elt F) ((c : Thread nD τ).loc b) := fun c b => B12 m ρ c b
theorem hF4 (c : Dev nD) (w : Fin cfg4.W) : (dat4 (E4 m ρ) c).arrAt w cfg4.N = X4 m ρ c (Pipeline.arrRef spec4 w) :=
  (B12_arr m ρ c w).symm
theorem hrest4 (c : Dev nD) : ∀ b, b ∉ Finset.univ.image (Pipeline.arrRef spec4) → X4 m ρ c b = E4 m ρ c b :=
  fun b hb => B12_of_ne m ρ c b fun w e => hb (Finset.mem_image.mpr ⟨w, Finset.mem_univ _, e⟩)
/-- After the host stretch `hostOps5`. -/
noncomputable abbrev B13 : Dev nD → Valuation τ sig (Elt F) := fun c => StableHlo.after hostOps5 (B12 m ρ c)

/-- Region 5's entry contents read at the TensorCore's references. -/
noncomputable abbrev E5 : (c : Dev nD) → (b : Ref sig .tc) → Buf (Elt F) ((c : Thread nD τ).loc b) := fun c b => B13 m ρ c b
/-- At region 5's exit: its arrays at what the pipeline leaves, every other buffer as entered. -/
noncomputable def B14 (c : Dev nD) : Valuation τ sig (Elt F) :=
  Pipeline.withArrays spec5 c (B13 m ρ c) fun w => (dat5 (E5 m ρ) c).arrAt w cfg5.N
theorem B14_arr (c : Dev nD) (w : Fin cfg5.W) :
    B14 m ρ c (Proc.devRef .tc (Pipeline.arrRef spec5 w)) = (dat5 (E5 m ρ) c).arrAt w cfg5.N := by
  unfold B14; exact Pipeline.withArrays_arr spec5 launch5.win.arr_inj c _ _ w
theorem B14_of_ne (c : Dev nD) (b : Ref sig .tc) (hb : ∀ w, Pipeline.arrRef spec5 w ≠ b) :
    B14 m ρ c (Proc.devRef .tc b) = B13 m ρ c (Proc.devRef .tc b) := by
  unfold B14; exact Pipeline.withArrays_of_ne spec5 c _ _ b hb
/-- Region 5's exit contents read at the TensorCore's references. -/
noncomputable abbrev X5 : (c : Dev nD) → (b : Ref sig .tc) → Buf (Elt F) ((c : Thread nD τ).loc b) := fun c b => B14 m ρ c b
theorem hF5 (c : Dev nD) (w : Fin cfg5.W) : (dat5 (E5 m ρ) c).arrAt w cfg5.N = X5 m ρ c (Pipeline.arrRef spec5 w) :=
  (B14_arr m ρ c w).symm
theorem hrest5 (c : Dev nD) : ∀ b, b ∉ Finset.univ.image (Pipeline.arrRef spec5) → X5 m ρ c b = E5 m ρ c b :=
  fun b hb => B14_of_ne m ρ c b fun w e => hb (Finset.mem_image.mpr ⟨w, Finset.mem_univ _, e⟩)
/-- After the host stretch `hostOps6`. -/
noncomputable abbrev B15 : Dev nD → Valuation τ sig (Elt F) := fun c => StableHlo.after hostOps6 (B14 m ρ c)

/-- Region 6's entry contents read at the TensorCore's references. -/
noncomputable abbrev E6 : (c : Dev nD) → (b : Ref sig .tc) → Buf (Elt F) ((c : Thread nD τ).loc b) := fun c b => B15 m ρ c b
/-- At region 6's exit: its arrays at what the pipeline leaves, every other buffer as entered. -/
noncomputable def B16 (c : Dev nD) : Valuation τ sig (Elt F) :=
  Pipeline.withArrays spec6 c (B15 m ρ c) fun w => (dat6 (E6 m ρ) c).arrAt w cfg6.N
theorem B16_arr (c : Dev nD) (w : Fin cfg6.W) :
    B16 m ρ c (Proc.devRef .tc (Pipeline.arrRef spec6 w)) = (dat6 (E6 m ρ) c).arrAt w cfg6.N := by
  unfold B16; exact Pipeline.withArrays_arr spec6 launch6.win.arr_inj c _ _ w
theorem B16_of_ne (c : Dev nD) (b : Ref sig .tc) (hb : ∀ w, Pipeline.arrRef spec6 w ≠ b) :
    B16 m ρ c (Proc.devRef .tc b) = B15 m ρ c (Proc.devRef .tc b) := by
  unfold B16; exact Pipeline.withArrays_of_ne spec6 c _ _ b hb
/-- Region 6's exit contents read at the TensorCore's references. -/
noncomputable abbrev X6 : (c : Dev nD) → (b : Ref sig .tc) → Buf (Elt F) ((c : Thread nD τ).loc b) := fun c b => B16 m ρ c b
theorem hF6 (c : Dev nD) (w : Fin cfg6.W) : (dat6 (E6 m ρ) c).arrAt w cfg6.N = X6 m ρ c (Pipeline.arrRef spec6 w) :=
  (B16_arr m ρ c w).symm
theorem hrest6 (c : Dev nD) : ∀ b, b ∉ Finset.univ.image (Pipeline.arrRef spec6) → X6 m ρ c b = E6 m ρ c b :=
  fun b hb => B16_of_ne m ρ c b fun w e => hb (Finset.mem_image.mpr ⟨w, Finset.mem_univ _, e⟩)
/-- After the host stretch `hostOps7`. -/
noncomputable abbrev B17 : Dev nD → Valuation τ sig (Elt F) := fun c => StableHlo.after hostOps7 (B16 m ρ c)

/-- Region 7's entry contents read at the TensorCore's references. -/
noncomputable abbrev E7 : (c : Dev nD) → (b : Ref sig .tc) → Buf (Elt F) ((c : Thread nD τ).loc b) := fun c b => B17 m ρ c b
/-- At region 7's exit: its arrays at what the pipeline leaves, every other buffer as entered. -/
noncomputable def B18 (c : Dev nD) : Valuation τ sig (Elt F) :=
  Pipeline.withArrays spec7 c (B17 m ρ c) fun w => (dat7 (E7 m ρ) c).arrAt w cfg7.N
theorem B18_arr (c : Dev nD) (w : Fin cfg7.W) :
    B18 m ρ c (Proc.devRef .tc (Pipeline.arrRef spec7 w)) = (dat7 (E7 m ρ) c).arrAt w cfg7.N := by
  unfold B18; exact Pipeline.withArrays_arr spec7 launch7.win.arr_inj c _ _ w
theorem B18_of_ne (c : Dev nD) (b : Ref sig .tc) (hb : ∀ w, Pipeline.arrRef spec7 w ≠ b) :
    B18 m ρ c (Proc.devRef .tc b) = B17 m ρ c (Proc.devRef .tc b) := by
  unfold B18; exact Pipeline.withArrays_of_ne spec7 c _ _ b hb
/-- Region 7's exit contents read at the TensorCore's references. -/
noncomputable abbrev X7 : (c : Dev nD) → (b : Ref sig .tc) → Buf (Elt F) ((c : Thread nD τ).loc b) := fun c b => B18 m ρ c b
theorem hF7 (c : Dev nD) (w : Fin cfg7.W) : (dat7 (E7 m ρ) c).arrAt w cfg7.N = X7 m ρ c (Pipeline.arrRef spec7 w) :=
  (B18_arr m ρ c w).symm
theorem hrest7 (c : Dev nD) : ∀ b, b ∉ Finset.univ.image (Pipeline.arrRef spec7) → X7 m ρ c b = E7 m ρ c b :=
  fun b hb => B18_of_ne m ρ c b fun w e => hb (Finset.mem_image.mpr ⟨w, Finset.mem_univ _, e⟩)
/-- After the host stretch `hostOps8`. -/
noncomputable abbrev B19 : Dev nD → Valuation τ sig (Elt F) := fun c => StableHlo.after hostOps8 (B18 m ρ c)

/-- Region 8's entry contents read at the TensorCore's references. -/
noncomputable abbrev E8 : (c : Dev nD) → (b : Ref sig .tc) → Buf (Elt F) ((c : Thread nD τ).loc b) := fun c b => B19 m ρ c b
/-- At region 8's exit: its arrays at what the pipeline leaves, every other buffer as entered. -/
noncomputable def B20 (c : Dev nD) : Valuation τ sig (Elt F) :=
  Pipeline.withArrays spec8 c (B19 m ρ c) fun w => (dat8 (E8 m ρ) c).arrAt w cfg8.N
theorem B20_arr (c : Dev nD) (w : Fin cfg8.W) :
    B20 m ρ c (Proc.devRef .tc (Pipeline.arrRef spec8 w)) = (dat8 (E8 m ρ) c).arrAt w cfg8.N := by
  unfold B20; exact Pipeline.withArrays_arr spec8 launch8.win.arr_inj c _ _ w
theorem B20_of_ne (c : Dev nD) (b : Ref sig .tc) (hb : ∀ w, Pipeline.arrRef spec8 w ≠ b) :
    B20 m ρ c (Proc.devRef .tc b) = B19 m ρ c (Proc.devRef .tc b) := by
  unfold B20; exact Pipeline.withArrays_of_ne spec8 c _ _ b hb
/-- Region 8's exit contents read at the TensorCore's references. -/
noncomputable abbrev X8 : (c : Dev nD) → (b : Ref sig .tc) → Buf (Elt F) ((c : Thread nD τ).loc b) := fun c b => B20 m ρ c b
theorem hF8 (c : Dev nD) (w : Fin cfg8.W) : (dat8 (E8 m ρ) c).arrAt w cfg8.N = X8 m ρ c (Pipeline.arrRef spec8 w) :=
  (B20_arr m ρ c w).symm
theorem hrest8 (c : Dev nD) : ∀ b, b ∉ Finset.univ.image (Pipeline.arrRef spec8) → X8 m ρ c b = E8 m ρ c b :=
  fun b hb => B20_of_ne m ρ c b fun w e => hb (Finset.mem_image.mpr ⟨w, Finset.mem_univ _, e⟩)
/-- After the host stretch `hostOps9`. -/
noncomputable abbrev B21 : Dev nD → Valuation τ sig (Elt F) := fun c => StableHlo.after hostOps9 (B20 m ρ c)

/-- Region 9's entry contents read at the TensorCore's references. -/
noncomputable abbrev E9 : (c : Dev nD) → (b : Ref sig .tc) → Buf (Elt F) ((c : Thread nD τ).loc b) := fun c b => B21 m ρ c b
/-- At region 9's exit: its arrays at what the pipeline leaves, every other buffer as entered. -/
noncomputable def B22 (c : Dev nD) : Valuation τ sig (Elt F) :=
  Pipeline.withArrays spec9 c (B21 m ρ c) fun w => (dat9 (E9 m ρ) c).arrAt w cfg9.N
theorem B22_arr (c : Dev nD) (w : Fin cfg9.W) :
    B22 m ρ c (Proc.devRef .tc (Pipeline.arrRef spec9 w)) = (dat9 (E9 m ρ) c).arrAt w cfg9.N := by
  unfold B22; exact Pipeline.withArrays_arr spec9 launch9.win.arr_inj c _ _ w
theorem B22_of_ne (c : Dev nD) (b : Ref sig .tc) (hb : ∀ w, Pipeline.arrRef spec9 w ≠ b) :
    B22 m ρ c (Proc.devRef .tc b) = B21 m ρ c (Proc.devRef .tc b) := by
  unfold B22; exact Pipeline.withArrays_of_ne spec9 c _ _ b hb
/-- Region 9's exit contents read at the TensorCore's references. -/
noncomputable abbrev X9 : (c : Dev nD) → (b : Ref sig .tc) → Buf (Elt F) ((c : Thread nD τ).loc b) := fun c b => B22 m ρ c b
theorem hF9 (c : Dev nD) (w : Fin cfg9.W) : (dat9 (E9 m ρ) c).arrAt w cfg9.N = X9 m ρ c (Pipeline.arrRef spec9 w) :=
  (B22_arr m ρ c w).symm
theorem hrest9 (c : Dev nD) : ∀ b, b ∉ Finset.univ.image (Pipeline.arrRef spec9) → X9 m ρ c b = E9 m ρ c b :=
  fun b hb => B22_of_ne m ρ c b fun w e => hb (Finset.mem_image.mpr ⟨w, Finset.mem_univ _, e⟩)
/-- After the host stretch `hostOps10`. -/
noncomputable abbrev B23 : Dev nD → Valuation τ sig (Elt F) := fun c => StableHlo.after hostOps10 (B22 m ρ c)

/-- Region 10's entry contents read at the TensorCore's references. -/
noncomputable abbrev E10 : (c : Dev nD) → (b : Ref sig .tc) → Buf (Elt F) ((c : Thread nD τ).loc b) := fun c b => B23 m ρ c b
/-- At region 10's exit: its arrays at what the pipeline leaves, every other buffer as entered. -/
noncomputable def B24 (c : Dev nD) : Valuation τ sig (Elt F) :=
  Pipeline.withArrays spec10 c (B23 m ρ c) fun w => (dat10 (E10 m ρ) c).arrAt w cfg10.N
theorem B24_arr (c : Dev nD) (w : Fin cfg10.W) :
    B24 m ρ c (Proc.devRef .tc (Pipeline.arrRef spec10 w)) = (dat10 (E10 m ρ) c).arrAt w cfg10.N := by
  unfold B24; exact Pipeline.withArrays_arr spec10 launch10.win.arr_inj c _ _ w
theorem B24_of_ne (c : Dev nD) (b : Ref sig .tc) (hb : ∀ w, Pipeline.arrRef spec10 w ≠ b) :
    B24 m ρ c (Proc.devRef .tc b) = B23 m ρ c (Proc.devRef .tc b) := by
  unfold B24; exact Pipeline.withArrays_of_ne spec10 c _ _ b hb
/-- Region 10's exit contents read at the TensorCore's references. -/
noncomputable abbrev X10 : (c : Dev nD) → (b : Ref sig .tc) → Buf (Elt F) ((c : Thread nD τ).loc b) := fun c b => B24 m ρ c b
theorem hF10 (c : Dev nD) (w : Fin cfg10.W) : (dat10 (E10 m ρ) c).arrAt w cfg10.N = X10 m ρ c (Pipeline.arrRef spec10 w) :=
  (B24_arr m ρ c w).symm
theorem hrest10 (c : Dev nD) : ∀ b, b ∉ Finset.univ.image (Pipeline.arrRef spec10) → X10 m ρ c b = E10 m ρ c b :=
  fun b hb => B24_of_ne m ρ c b fun w e => hb (Finset.mem_image.mpr ⟨w, Finset.mem_univ _, e⟩)
/-- After the host stretch `hostOps11`. -/
noncomputable abbrev B25 : Dev nD → Valuation τ sig (Elt F) := fun c => StableHlo.after hostOps11 (B24 m ρ c)

/-- Region 11's entry contents read at the TensorCore's references. -/
noncomputable abbrev E11 : (c : Dev nD) → (b : Ref sig .tc) → Buf (Elt F) ((c : Thread nD τ).loc b) := fun c b => B25 m ρ c b
/-- At region 11's exit: its arrays at what the pipeline leaves, every other buffer as entered. -/
noncomputable def B26 (c : Dev nD) : Valuation τ sig (Elt F) :=
  Pipeline.withArrays spec11 c (B25 m ρ c) fun w => (dat11 (E11 m ρ) c).arrAt w cfg11.N
theorem B26_arr (c : Dev nD) (w : Fin cfg11.W) :
    B26 m ρ c (Proc.devRef .tc (Pipeline.arrRef spec11 w)) = (dat11 (E11 m ρ) c).arrAt w cfg11.N := by
  unfold B26; exact Pipeline.withArrays_arr spec11 launch11.win.arr_inj c _ _ w
theorem B26_of_ne (c : Dev nD) (b : Ref sig .tc) (hb : ∀ w, Pipeline.arrRef spec11 w ≠ b) :
    B26 m ρ c (Proc.devRef .tc b) = B25 m ρ c (Proc.devRef .tc b) := by
  unfold B26; exact Pipeline.withArrays_of_ne spec11 c _ _ b hb
/-- Region 11's exit contents read at the TensorCore's references. -/
noncomputable abbrev X11 : (c : Dev nD) → (b : Ref sig .tc) → Buf (Elt F) ((c : Thread nD τ).loc b) := fun c b => B26 m ρ c b
theorem hF11 (c : Dev nD) (w : Fin cfg11.W) : (dat11 (E11 m ρ) c).arrAt w cfg11.N = X11 m ρ c (Pipeline.arrRef spec11 w) :=
  (B26_arr m ρ c w).symm
theorem hrest11 (c : Dev nD) : ∀ b, b ∉ Finset.univ.image (Pipeline.arrRef spec11) → X11 m ρ c b = E11 m ρ c b :=
  fun b hb => B26_of_ne m ρ c b fun w e => hb (Finset.mem_image.mpr ⟨w, Finset.mem_univ _, e⟩)
/-- After the host stretch `hostOps12`. -/
noncomputable abbrev B27 : Dev nD → Valuation τ sig (Elt F) := fun c => StableHlo.after hostOps12 (B26 m ρ c)

/-- Region 12's entry contents read at the TensorCore's references. -/
noncomputable abbrev E12 : (c : Dev nD) → (b : Ref sig .tc) → Buf (Elt F) ((c : Thread nD τ).loc b) := fun c b => B27 m ρ c b
/-- At region 12's exit: its arrays at what the pipeline leaves, every other buffer as entered. -/
noncomputable def B28 (c : Dev nD) : Valuation τ sig (Elt F) :=
  Pipeline.withArrays spec12 c (B27 m ρ c) fun w => (dat12 (E12 m ρ) c).arrAt w cfg12.N
theorem B28_arr (c : Dev nD) (w : Fin cfg12.W) :
    B28 m ρ c (Proc.devRef .tc (Pipeline.arrRef spec12 w)) = (dat12 (E12 m ρ) c).arrAt w cfg12.N := by
  unfold B28; exact Pipeline.withArrays_arr spec12 launch12.win.arr_inj c _ _ w
theorem B28_of_ne (c : Dev nD) (b : Ref sig .tc) (hb : ∀ w, Pipeline.arrRef spec12 w ≠ b) :
    B28 m ρ c (Proc.devRef .tc b) = B27 m ρ c (Proc.devRef .tc b) := by
  unfold B28; exact Pipeline.withArrays_of_ne spec12 c _ _ b hb
/-- Region 12's exit contents read at the TensorCore's references. -/
noncomputable abbrev X12 : (c : Dev nD) → (b : Ref sig .tc) → Buf (Elt F) ((c : Thread nD τ).loc b) := fun c b => B28 m ρ c b
theorem hF12 (c : Dev nD) (w : Fin cfg12.W) : (dat12 (E12 m ρ) c).arrAt w cfg12.N = X12 m ρ c (Pipeline.arrRef spec12 w) :=
  (B28_arr m ρ c w).symm
theorem hrest12 (c : Dev nD) : ∀ b, b ∉ Finset.univ.image (Pipeline.arrRef spec12) → X12 m ρ c b = E12 m ρ c b :=
  fun b hb => B28_of_ne m ρ c b fun w e => hb (Finset.mem_image.mpr ⟨w, Finset.mem_univ _, e⟩)
/-- After the host stretch `hostOps13`. -/
noncomputable abbrev B29 : Dev nD → Valuation τ sig (Elt F) := fun c => StableHlo.after hostOps13 (B28 m ρ c)

/-- Region 13's entry contents read at the TensorCore's references. -/
noncomputable abbrev E13 : (c : Dev nD) → (b : Ref sig .tc) → Buf (Elt F) ((c : Thread nD τ).loc b) := fun c b => B29 m ρ c b
/-- At region 13's exit: its arrays at what the pipeline leaves, every other buffer as entered. -/
noncomputable def B30 (c : Dev nD) : Valuation τ sig (Elt F) :=
  Pipeline.withArrays spec13 c (B29 m ρ c) fun w => (dat13 (E13 m ρ) c).arrAt w cfg13.N
theorem B30_arr (c : Dev nD) (w : Fin cfg13.W) :
    B30 m ρ c (Proc.devRef .tc (Pipeline.arrRef spec13 w)) = (dat13 (E13 m ρ) c).arrAt w cfg13.N := by
  unfold B30; exact Pipeline.withArrays_arr spec13 launch13.win.arr_inj c _ _ w
theorem B30_of_ne (c : Dev nD) (b : Ref sig .tc) (hb : ∀ w, Pipeline.arrRef spec13 w ≠ b) :
    B30 m ρ c (Proc.devRef .tc b) = B29 m ρ c (Proc.devRef .tc b) := by
  unfold B30; exact Pipeline.withArrays_of_ne spec13 c _ _ b hb
/-- Region 13's exit contents read at the TensorCore's references. -/
noncomputable abbrev X13 : (c : Dev nD) → (b : Ref sig .tc) → Buf (Elt F) ((c : Thread nD τ).loc b) := fun c b => B30 m ρ c b
theorem hF13 (c : Dev nD) (w : Fin cfg13.W) : (dat13 (E13 m ρ) c).arrAt w cfg13.N = X13 m ρ c (Pipeline.arrRef spec13 w) :=
  (B30_arr m ρ c w).symm
theorem hrest13 (c : Dev nD) : ∀ b, b ∉ Finset.univ.image (Pipeline.arrRef spec13) → X13 m ρ c b = E13 m ρ c b :=
  fun b hb => B30_of_ne m ρ c b fun w e => hb (Finset.mem_image.mpr ⟨w, Finset.mem_univ _, e⟩)
/-- After the host stretch `hostOps14`. -/
noncomputable abbrev B31 : Dev nD → Valuation τ sig (Elt F) := fun c => StableHlo.after hostOps14 (B30 m ρ c)

/-- Region 14's entry contents read at the TensorCore's references. -/
noncomputable abbrev E14 : (c : Dev nD) → (b : Ref sig .tc) → Buf (Elt F) ((c : Thread nD τ).loc b) := fun c b => B31 m ρ c b
/-- At region 14's exit: its arrays at what the pipeline leaves, every other buffer as entered. -/
noncomputable def B32 (c : Dev nD) : Valuation τ sig (Elt F) :=
  Pipeline.withArrays spec14 c (B31 m ρ c) fun w => (dat14 (E14 m ρ) c).arrAt w cfg14.N
theorem B32_arr (c : Dev nD) (w : Fin cfg14.W) :
    B32 m ρ c (Proc.devRef .tc (Pipeline.arrRef spec14 w)) = (dat14 (E14 m ρ) c).arrAt w cfg14.N := by
  unfold B32; exact Pipeline.withArrays_arr spec14 launch14.win.arr_inj c _ _ w
theorem B32_of_ne (c : Dev nD) (b : Ref sig .tc) (hb : ∀ w, Pipeline.arrRef spec14 w ≠ b) :
    B32 m ρ c (Proc.devRef .tc b) = B31 m ρ c (Proc.devRef .tc b) := by
  unfold B32; exact Pipeline.withArrays_of_ne spec14 c _ _ b hb
/-- Region 14's exit contents read at the TensorCore's references. -/
noncomputable abbrev X14 : (c : Dev nD) → (b : Ref sig .tc) → Buf (Elt F) ((c : Thread nD τ).loc b) := fun c b => B32 m ρ c b
theorem hF14 (c : Dev nD) (w : Fin cfg14.W) : (dat14 (E14 m ρ) c).arrAt w cfg14.N = X14 m ρ c (Pipeline.arrRef spec14 w) :=
  (B32_arr m ρ c w).symm
theorem hrest14 (c : Dev nD) : ∀ b, b ∉ Finset.univ.image (Pipeline.arrRef spec14) → X14 m ρ c b = E14 m ρ c b :=
  fun b hb => B32_of_ne m ρ c b fun w e => hb (Finset.mem_image.mpr ⟨w, Finset.mem_univ _, e⟩)
/-- After the host stretch `hostOps15`. -/
noncomputable abbrev B33 : Dev nD → Valuation τ sig (Elt F) := fun c => StableHlo.after hostOps15 (B32 m ρ c)

/-- Region 15's entry contents read at the TensorCore's references. -/
noncomputable abbrev E15 : (c : Dev nD) → (b : Ref sig .tc) → Buf (Elt F) ((c : Thread nD τ).loc b) := fun c b => B33 m ρ c b
/-- At region 15's exit: its arrays at what the pipeline leaves, every other buffer as entered. -/
noncomputable def B34 (c : Dev nD) : Valuation τ sig (Elt F) :=
  Pipeline.withArrays spec15 c (B33 m ρ c) fun w => (dat15 (E15 m ρ) c).arrAt w cfg15.N
theorem B34_arr (c : Dev nD) (w : Fin cfg15.W) :
    B34 m ρ c (Proc.devRef .tc (Pipeline.arrRef spec15 w)) = (dat15 (E15 m ρ) c).arrAt w cfg15.N := by
  unfold B34; exact Pipeline.withArrays_arr spec15 launch15.win.arr_inj c _ _ w
theorem B34_of_ne (c : Dev nD) (b : Ref sig .tc) (hb : ∀ w, Pipeline.arrRef spec15 w ≠ b) :
    B34 m ρ c (Proc.devRef .tc b) = B33 m ρ c (Proc.devRef .tc b) := by
  unfold B34; exact Pipeline.withArrays_of_ne spec15 c _ _ b hb
/-- Region 15's exit contents read at the TensorCore's references. -/
noncomputable abbrev X15 : (c : Dev nD) → (b : Ref sig .tc) → Buf (Elt F) ((c : Thread nD τ).loc b) := fun c b => B34 m ρ c b
theorem hF15 (c : Dev nD) (w : Fin cfg15.W) : (dat15 (E15 m ρ) c).arrAt w cfg15.N = X15 m ρ c (Pipeline.arrRef spec15 w) :=
  (B34_arr m ρ c w).symm
theorem hrest15 (c : Dev nD) : ∀ b, b ∉ Finset.univ.image (Pipeline.arrRef spec15) → X15 m ρ c b = E15 m ρ c b :=
  fun b hb => B34_of_ne m ρ c b fun w e => hb (Finset.mem_image.mpr ⟨w, Finset.mem_univ _, e⟩)
/-- After the host stretch `hostOps16`. -/
noncomputable abbrev B35 : Dev nD → Valuation τ sig (Elt F) := fun c => StableHlo.after hostOps16 (B34 m ρ c)

/-- Region 16's entry contents read at the TensorCore's references. -/
noncomputable abbrev E16 : (c : Dev nD) → (b : Ref sig .tc) → Buf (Elt F) ((c : Thread nD τ).loc b) := fun c b => B35 m ρ c b
/-- At region 16's exit: its arrays at what the pipeline leaves, every other buffer as entered. -/
noncomputable def B36 (c : Dev nD) : Valuation τ sig (Elt F) :=
  Pipeline.withArrays spec16 c (B35 m ρ c) fun w => (dat16 (E16 m ρ) c).arrAt w cfg16.N
theorem B36_arr (c : Dev nD) (w : Fin cfg16.W) :
    B36 m ρ c (Proc.devRef .tc (Pipeline.arrRef spec16 w)) = (dat16 (E16 m ρ) c).arrAt w cfg16.N := by
  unfold B36; exact Pipeline.withArrays_arr spec16 launch16.win.arr_inj c _ _ w
theorem B36_of_ne (c : Dev nD) (b : Ref sig .tc) (hb : ∀ w, Pipeline.arrRef spec16 w ≠ b) :
    B36 m ρ c (Proc.devRef .tc b) = B35 m ρ c (Proc.devRef .tc b) := by
  unfold B36; exact Pipeline.withArrays_of_ne spec16 c _ _ b hb
/-- Region 16's exit contents read at the TensorCore's references. -/
noncomputable abbrev X16 : (c : Dev nD) → (b : Ref sig .tc) → Buf (Elt F) ((c : Thread nD τ).loc b) := fun c b => B36 m ρ c b
theorem hF16 (c : Dev nD) (w : Fin cfg16.W) : (dat16 (E16 m ρ) c).arrAt w cfg16.N = X16 m ρ c (Pipeline.arrRef spec16 w) :=
  (B36_arr m ρ c w).symm
theorem hrest16 (c : Dev nD) : ∀ b, b ∉ Finset.univ.image (Pipeline.arrRef spec16) → X16 m ρ c b = E16 m ρ c b :=
  fun b hb => B36_of_ne m ρ c b fun w e => hb (Finset.mem_image.mpr ⟨w, Finset.mem_univ _, e⟩)
/-- After the host stretch `hostOps17`. -/
noncomputable abbrev B37 : Dev nD → Valuation τ sig (Elt F) := fun c => StableHlo.after hostOps17 (B36 m ρ c)

/-- Region 17's entry contents read at the TensorCore's references. -/
noncomputable abbrev E17 : (c : Dev nD) → (b : Ref sig .tc) → Buf (Elt F) ((c : Thread nD τ).loc b) := fun c b => B37 m ρ c b
/-- At region 17's exit: its arrays at what the pipeline leaves, every other buffer as entered. -/
noncomputable def B38 (c : Dev nD) : Valuation τ sig (Elt F) :=
  Pipeline.withArrays spec17 c (B37 m ρ c) fun w => (dat17 (E17 m ρ) c).arrAt w cfg17.N
theorem B38_arr (c : Dev nD) (w : Fin cfg17.W) :
    B38 m ρ c (Proc.devRef .tc (Pipeline.arrRef spec17 w)) = (dat17 (E17 m ρ) c).arrAt w cfg17.N := by
  unfold B38; exact Pipeline.withArrays_arr spec17 launch17.win.arr_inj c _ _ w
theorem B38_of_ne (c : Dev nD) (b : Ref sig .tc) (hb : ∀ w, Pipeline.arrRef spec17 w ≠ b) :
    B38 m ρ c (Proc.devRef .tc b) = B37 m ρ c (Proc.devRef .tc b) := by
  unfold B38; exact Pipeline.withArrays_of_ne spec17 c _ _ b hb
/-- Region 17's exit contents read at the TensorCore's references. -/
noncomputable abbrev X17 : (c : Dev nD) → (b : Ref sig .tc) → Buf (Elt F) ((c : Thread nD τ).loc b) := fun c b => B38 m ρ c b
theorem hF17 (c : Dev nD) (w : Fin cfg17.W) : (dat17 (E17 m ρ) c).arrAt w cfg17.N = X17 m ρ c (Pipeline.arrRef spec17 w) :=
  (B38_arr m ρ c w).symm
theorem hrest17 (c : Dev nD) : ∀ b, b ∉ Finset.univ.image (Pipeline.arrRef spec17) → X17 m ρ c b = E17 m ρ c b :=
  fun b hb => B38_of_ne m ρ c b fun w e => hb (Finset.mem_image.mpr ⟨w, Finset.mem_univ _, e⟩)
/-- After the host stretch `hostOps18`. -/
noncomputable abbrev B39 : Dev nD → Valuation τ sig (Elt F) := fun c => StableHlo.after hostOps18 (B38 m ρ c)

/-- Region 18's entry contents read at the TensorCore's references. -/
noncomputable abbrev E18 : (c : Dev nD) → (b : Ref sig .tc) → Buf (Elt F) ((c : Thread nD τ).loc b) := fun c b => B39 m ρ c b
/-- At region 18's exit: its arrays at what the pipeline leaves, every other buffer as entered. -/
noncomputable def B40 (c : Dev nD) : Valuation τ sig (Elt F) :=
  Pipeline.withArrays spec18 c (B39 m ρ c) fun w => (dat18 (E18 m ρ) c).arrAt w cfg18.N
theorem B40_arr (c : Dev nD) (w : Fin cfg18.W) :
    B40 m ρ c (Proc.devRef .tc (Pipeline.arrRef spec18 w)) = (dat18 (E18 m ρ) c).arrAt w cfg18.N := by
  unfold B40; exact Pipeline.withArrays_arr spec18 launch18.win.arr_inj c _ _ w
theorem B40_of_ne (c : Dev nD) (b : Ref sig .tc) (hb : ∀ w, Pipeline.arrRef spec18 w ≠ b) :
    B40 m ρ c (Proc.devRef .tc b) = B39 m ρ c (Proc.devRef .tc b) := by
  unfold B40; exact Pipeline.withArrays_of_ne spec18 c _ _ b hb
/-- Region 18's exit contents read at the TensorCore's references. -/
noncomputable abbrev X18 : (c : Dev nD) → (b : Ref sig .tc) → Buf (Elt F) ((c : Thread nD τ).loc b) := fun c b => B40 m ρ c b
theorem hF18 (c : Dev nD) (w : Fin cfg18.W) : (dat18 (E18 m ρ) c).arrAt w cfg18.N = X18 m ρ c (Pipeline.arrRef spec18 w) :=
  (B40_arr m ρ c w).symm
theorem hrest18 (c : Dev nD) : ∀ b, b ∉ Finset.univ.image (Pipeline.arrRef spec18) → X18 m ρ c b = E18 m ρ c b :=
  fun b hb => B40_of_ne m ρ c b fun w e => hb (Finset.mem_image.mpr ⟨w, Finset.mem_univ _, e⟩)
/-- After the host stretch `hostOps19`. -/
noncomputable abbrev B41 : Dev nD → Valuation τ sig (Elt F) := fun c => StableHlo.after hostOps19 (B40 m ρ c)

/-- Region 19's entry contents read at the TensorCore's references. -/
noncomputable abbrev E19 : (c : Dev nD) → (b : Ref sig .tc) → Buf (Elt F) ((c : Thread nD τ).loc b) := fun c b => B41 m ρ c b
/-- At region 19's exit: its arrays at what the pipeline leaves, every other buffer as entered. -/
noncomputable def B42 (c : Dev nD) : Valuation τ sig (Elt F) :=
  Pipeline.withArrays spec19 c (B41 m ρ c) fun w => (dat19 (E19 m ρ) c).arrAt w cfg19.N
theorem B42_arr (c : Dev nD) (w : Fin cfg19.W) :
    B42 m ρ c (Proc.devRef .tc (Pipeline.arrRef spec19 w)) = (dat19 (E19 m ρ) c).arrAt w cfg19.N := by
  unfold B42; exact Pipeline.withArrays_arr spec19 launch19.win.arr_inj c _ _ w
theorem B42_of_ne (c : Dev nD) (b : Ref sig .tc) (hb : ∀ w, Pipeline.arrRef spec19 w ≠ b) :
    B42 m ρ c (Proc.devRef .tc b) = B41 m ρ c (Proc.devRef .tc b) := by
  unfold B42; exact Pipeline.withArrays_of_ne spec19 c _ _ b hb
/-- Region 19's exit contents read at the TensorCore's references. -/
noncomputable abbrev X19 : (c : Dev nD) → (b : Ref sig .tc) → Buf (Elt F) ((c : Thread nD τ).loc b) := fun c b => B42 m ρ c b
theorem hF19 (c : Dev nD) (w : Fin cfg19.W) : (dat19 (E19 m ρ) c).arrAt w cfg19.N = X19 m ρ c (Pipeline.arrRef spec19 w) :=
  (B42_arr m ρ c w).symm
theorem hrest19 (c : Dev nD) : ∀ b, b ∉ Finset.univ.image (Pipeline.arrRef spec19) → X19 m ρ c b = E19 m ρ c b :=
  fun b hb => B42_of_ne m ρ c b fun w e => hb (Finset.mem_image.mpr ⟨w, Finset.mem_univ _, e⟩)
/-- After the host stretch `hostOps20`. -/
noncomputable abbrev B43 : Dev nD → Valuation τ sig (Elt F) := fun c => StableHlo.after hostOps20 (B42 m ρ c)

/-- Region 20's entry contents read at the TensorCore's references. -/
noncomputable abbrev E20 : (c : Dev nD) → (b : Ref sig .tc) → Buf (Elt F) ((c : Thread nD τ).loc b) := fun c b => B43 m ρ c b
/-- At region 20's exit: its arrays at what the pipeline leaves, every other buffer as entered. -/
noncomputable def B44 (c : Dev nD) : Valuation τ sig (Elt F) :=
  Pipeline.withArrays spec20 c (B43 m ρ c) fun w => (dat20 (E20 m ρ) c).arrAt w cfg20.N
theorem B44_arr (c : Dev nD) (w : Fin cfg20.W) :
    B44 m ρ c (Proc.devRef .tc (Pipeline.arrRef spec20 w)) = (dat20 (E20 m ρ) c).arrAt w cfg20.N := by
  unfold B44; exact Pipeline.withArrays_arr spec20 launch20.win.arr_inj c _ _ w
theorem B44_of_ne (c : Dev nD) (b : Ref sig .tc) (hb : ∀ w, Pipeline.arrRef spec20 w ≠ b) :
    B44 m ρ c (Proc.devRef .tc b) = B43 m ρ c (Proc.devRef .tc b) := by
  unfold B44; exact Pipeline.withArrays_of_ne spec20 c _ _ b hb
/-- Region 20's exit contents read at the TensorCore's references. -/
noncomputable abbrev X20 : (c : Dev nD) → (b : Ref sig .tc) → Buf (Elt F) ((c : Thread nD τ).loc b) := fun c b => B44 m ρ c b
theorem hF20 (c : Dev nD) (w : Fin cfg20.W) : (dat20 (E20 m ρ) c).arrAt w cfg20.N = X20 m ρ c (Pipeline.arrRef spec20 w) :=
  (B44_arr m ρ c w).symm
theorem hrest20 (c : Dev nD) : ∀ b, b ∉ Finset.univ.image (Pipeline.arrRef spec20) → X20 m ρ c b = E20 m ρ c b :=
  fun b hb => B44_of_ne m ρ c b fun w e => hb (Finset.mem_image.mpr ⟨w, Finset.mem_univ _, e⟩)
/-- After the host stretch `hostOps21`. -/
noncomputable abbrev B45 : Dev nD → Valuation τ sig (Elt F) := fun c => StableHlo.after hostOps21 (B44 m ρ c)

/-- Region 21's entry contents read at the TensorCore's references. -/
noncomputable abbrev E21 : (c : Dev nD) → (b : Ref sig .tc) → Buf (Elt F) ((c : Thread nD τ).loc b) := fun c b => B45 m ρ c b
/-- At region 21's exit: its arrays at what the pipeline leaves, every other buffer as entered. -/
noncomputable def B46 (c : Dev nD) : Valuation τ sig (Elt F) :=
  Pipeline.withArrays spec21 c (B45 m ρ c) fun w => (dat21 (E21 m ρ) c).arrAt w cfg21.N
theorem B46_arr (c : Dev nD) (w : Fin cfg21.W) :
    B46 m ρ c (Proc.devRef .tc (Pipeline.arrRef spec21 w)) = (dat21 (E21 m ρ) c).arrAt w cfg21.N := by
  unfold B46; exact Pipeline.withArrays_arr spec21 launch21.win.arr_inj c _ _ w
theorem B46_of_ne (c : Dev nD) (b : Ref sig .tc) (hb : ∀ w, Pipeline.arrRef spec21 w ≠ b) :
    B46 m ρ c (Proc.devRef .tc b) = B45 m ρ c (Proc.devRef .tc b) := by
  unfold B46; exact Pipeline.withArrays_of_ne spec21 c _ _ b hb
/-- Region 21's exit contents read at the TensorCore's references. -/
noncomputable abbrev X21 : (c : Dev nD) → (b : Ref sig .tc) → Buf (Elt F) ((c : Thread nD τ).loc b) := fun c b => B46 m ρ c b
theorem hF21 (c : Dev nD) (w : Fin cfg21.W) : (dat21 (E21 m ρ) c).arrAt w cfg21.N = X21 m ρ c (Pipeline.arrRef spec21 w) :=
  (B46_arr m ρ c w).symm
theorem hrest21 (c : Dev nD) : ∀ b, b ∉ Finset.univ.image (Pipeline.arrRef spec21) → X21 m ρ c b = E21 m ρ c b :=
  fun b hb => B46_of_ne m ρ c b fun w e => hb (Finset.mem_image.mpr ⟨w, Finset.mem_univ _, e⟩)
/-- After the host stretch `hostOps22`. -/
noncomputable abbrev B47 : Dev nD → Valuation τ sig (Elt F) := fun c => StableHlo.after hostOps22 (B46 m ρ c)

/-- Region 22's entry contents read at the TensorCore's references. -/
noncomputable abbrev E22 : (c : Dev nD) → (b : Ref sig .tc) → Buf (Elt F) ((c : Thread nD τ).loc b) := fun c b => B47 m ρ c b
/-- At region 22's exit: its arrays at what the pipeline leaves, every other buffer as entered. -/
noncomputable def B48 (c : Dev nD) : Valuation τ sig (Elt F) :=
  Pipeline.withArrays spec22 c (B47 m ρ c) fun w => (dat22 (E22 m ρ) c).arrAt w cfg22.N
theorem B48_arr (c : Dev nD) (w : Fin cfg22.W) :
    B48 m ρ c (Proc.devRef .tc (Pipeline.arrRef spec22 w)) = (dat22 (E22 m ρ) c).arrAt w cfg22.N := by
  unfold B48; exact Pipeline.withArrays_arr spec22 launch22.win.arr_inj c _ _ w
theorem B48_of_ne (c : Dev nD) (b : Ref sig .tc) (hb : ∀ w, Pipeline.arrRef spec22 w ≠ b) :
    B48 m ρ c (Proc.devRef .tc b) = B47 m ρ c (Proc.devRef .tc b) := by
  unfold B48; exact Pipeline.withArrays_of_ne spec22 c _ _ b hb
/-- Region 22's exit contents read at the TensorCore's references. -/
noncomputable abbrev X22 : (c : Dev nD) → (b : Ref sig .tc) → Buf (Elt F) ((c : Thread nD τ).loc b) := fun c b => B48 m ρ c b
theorem hF22 (c : Dev nD) (w : Fin cfg22.W) : (dat22 (E22 m ρ) c).arrAt w cfg22.N = X22 m ρ c (Pipeline.arrRef spec22 w) :=
  (B48_arr m ρ c w).symm
theorem hrest22 (c : Dev nD) : ∀ b, b ∉ Finset.univ.image (Pipeline.arrRef spec22) → X22 m ρ c b = E22 m ρ c b :=
  fun b hb => B48_of_ne m ρ c b fun w e => hb (Finset.mem_image.mpr ⟨w, Finset.mem_univ _, e⟩)
/-- After the host stretch `hostOps23`. -/
noncomputable abbrev B49 : Dev nD → Valuation τ sig (Elt F) := fun c => StableHlo.after hostOps23 (B48 m ρ c)

/-- Region 23's entry contents read at the TensorCore's references. -/
noncomputable abbrev E23 : (c : Dev nD) → (b : Ref sig .tc) → Buf (Elt F) ((c : Thread nD τ).loc b) := fun c b => B49 m ρ c b
/-- At region 23's exit: its arrays at what the pipeline leaves, every other buffer as entered. -/
noncomputable def B50 (c : Dev nD) : Valuation τ sig (Elt F) :=
  Pipeline.withArrays spec23 c (B49 m ρ c) fun w => (dat23 (E23 m ρ) c).arrAt w cfg23.N
theorem B50_arr (c : Dev nD) (w : Fin cfg23.W) :
    B50 m ρ c (Proc.devRef .tc (Pipeline.arrRef spec23 w)) = (dat23 (E23 m ρ) c).arrAt w cfg23.N := by
  unfold B50; exact Pipeline.withArrays_arr spec23 launch23.win.arr_inj c _ _ w
theorem B50_of_ne (c : Dev nD) (b : Ref sig .tc) (hb : ∀ w, Pipeline.arrRef spec23 w ≠ b) :
    B50 m ρ c (Proc.devRef .tc b) = B49 m ρ c (Proc.devRef .tc b) := by
  unfold B50; exact Pipeline.withArrays_of_ne spec23 c _ _ b hb
/-- Region 23's exit contents read at the TensorCore's references. -/
noncomputable abbrev X23 : (c : Dev nD) → (b : Ref sig .tc) → Buf (Elt F) ((c : Thread nD τ).loc b) := fun c b => B50 m ρ c b
theorem hF23 (c : Dev nD) (w : Fin cfg23.W) : (dat23 (E23 m ρ) c).arrAt w cfg23.N = X23 m ρ c (Pipeline.arrRef spec23 w) :=
  (B50_arr m ρ c w).symm
theorem hrest23 (c : Dev nD) : ∀ b, b ∉ Finset.univ.image (Pipeline.arrRef spec23) → X23 m ρ c b = E23 m ρ c b :=
  fun b hb => B50_of_ne m ρ c b fun w e => hb (Finset.mem_image.mpr ⟨w, Finset.mem_univ _, e⟩)
/-- After the host stretch `hostOps24`. -/
noncomputable abbrev B51 : Dev nD → Valuation τ sig (Elt F) := fun c => StableHlo.after hostOps24 (B50 m ρ c)

/-- Region 24's entry contents read at the TensorCore's references. -/
noncomputable abbrev E24 : (c : Dev nD) → (b : Ref sig .tc) → Buf (Elt F) ((c : Thread nD τ).loc b) := fun c b => B51 m ρ c b
/-- At region 24's exit: its arrays at what the pipeline leaves, every other buffer as entered. -/
noncomputable def B52 (c : Dev nD) : Valuation τ sig (Elt F) :=
  Pipeline.withArrays spec24 c (B51 m ρ c) fun w => (dat24 (E24 m ρ) c).arrAt w cfg24.N
theorem B52_arr (c : Dev nD) (w : Fin cfg24.W) :
    B52 m ρ c (Proc.devRef .tc (Pipeline.arrRef spec24 w)) = (dat24 (E24 m ρ) c).arrAt w cfg24.N := by
  unfold B52; exact Pipeline.withArrays_arr spec24 launch24.win.arr_inj c _ _ w
theorem B52_of_ne (c : Dev nD) (b : Ref sig .tc) (hb : ∀ w, Pipeline.arrRef spec24 w ≠ b) :
    B52 m ρ c (Proc.devRef .tc b) = B51 m ρ c (Proc.devRef .tc b) := by
  unfold B52; exact Pipeline.withArrays_of_ne spec24 c _ _ b hb
/-- Region 24's exit contents read at the TensorCore's references. -/
noncomputable abbrev X24 : (c : Dev nD) → (b : Ref sig .tc) → Buf (Elt F) ((c : Thread nD τ).loc b) := fun c b => B52 m ρ c b
theorem hF24 (c : Dev nD) (w : Fin cfg24.W) : (dat24 (E24 m ρ) c).arrAt w cfg24.N = X24 m ρ c (Pipeline.arrRef spec24 w) :=
  (B52_arr m ρ c w).symm
theorem hrest24 (c : Dev nD) : ∀ b, b ∉ Finset.univ.image (Pipeline.arrRef spec24) → X24 m ρ c b = E24 m ρ c b :=
  fun b hb => B52_of_ne m ρ c b fun w e => hb (Finset.mem_image.mpr ⟨w, Finset.mem_univ _, e⟩)
/-- After the host stretch `hostOps25`. -/
noncomputable abbrev B53 : Dev nD → Valuation τ sig (Elt F) := fun c => StableHlo.after hostOps25 (B52 m ρ c)

/-- Region 25's entry contents read at the TensorCore's references. -/
noncomputable abbrev E25 : (c : Dev nD) → (b : Ref sig .tc) → Buf (Elt F) ((c : Thread nD τ).loc b) := fun c b => B53 m ρ c b
/-- At region 25's exit: its arrays at what the pipeline leaves, every other buffer as entered. -/
noncomputable def B54 (c : Dev nD) : Valuation τ sig (Elt F) :=
  Pipeline.withArrays spec25 c (B53 m ρ c) fun w => (dat25 (E25 m ρ) c).arrAt w cfg25.N
theorem B54_arr (c : Dev nD) (w : Fin cfg25.W) :
    B54 m ρ c (Proc.devRef .tc (Pipeline.arrRef spec25 w)) = (dat25 (E25 m ρ) c).arrAt w cfg25.N := by
  unfold B54; exact Pipeline.withArrays_arr spec25 launch25.win.arr_inj c _ _ w
theorem B54_of_ne (c : Dev nD) (b : Ref sig .tc) (hb : ∀ w, Pipeline.arrRef spec25 w ≠ b) :
    B54 m ρ c (Proc.devRef .tc b) = B53 m ρ c (Proc.devRef .tc b) := by
  unfold B54; exact Pipeline.withArrays_of_ne spec25 c _ _ b hb
/-- Region 25's exit contents read at the TensorCore's references. -/
noncomputable abbrev X25 : (c : Dev nD) → (b : Ref sig .tc) → Buf (Elt F) ((c : Thread nD τ).loc b) := fun c b => B54 m ρ c b
theorem hF25 (c : Dev nD) (w : Fin cfg25.W) : (dat25 (E25 m ρ) c).arrAt w cfg25.N = X25 m ρ c (Pipeline.arrRef spec25 w) :=
  (B54_arr m ρ c w).symm
theorem hrest25 (c : Dev nD) : ∀ b, b ∉ Finset.univ.image (Pipeline.arrRef spec25) → X25 m ρ c b = E25 m ρ c b :=
  fun b hb => B54_of_ne m ρ c b fun w e => hb (Finset.mem_image.mpr ⟨w, Finset.mem_univ _, e⟩)
/-- After the host stretch `hostOps26`. -/
noncomputable abbrev B55 : Dev nD → Valuation τ sig (Elt F) := fun c => StableHlo.after hostOps26 (B54 m ρ c)

/-- Region 26's entry contents read at the TensorCore's references. -/
noncomputable abbrev E26 : (c : Dev nD) → (b : Ref sig .tc) → Buf (Elt F) ((c : Thread nD τ).loc b) := fun c b => B55 m ρ c b
/-- At region 26's exit: its arrays at what the pipeline leaves, every other buffer as entered. -/
noncomputable def B56 (c : Dev nD) : Valuation τ sig (Elt F) :=
  Pipeline.withArrays spec26 c (B55 m ρ c) fun w => (dat26 (E26 m ρ) c).arrAt w cfg26.N
theorem B56_arr (c : Dev nD) (w : Fin cfg26.W) :
    B56 m ρ c (Proc.devRef .tc (Pipeline.arrRef spec26 w)) = (dat26 (E26 m ρ) c).arrAt w cfg26.N := by
  unfold B56; exact Pipeline.withArrays_arr spec26 launch26.win.arr_inj c _ _ w
theorem B56_of_ne (c : Dev nD) (b : Ref sig .tc) (hb : ∀ w, Pipeline.arrRef spec26 w ≠ b) :
    B56 m ρ c (Proc.devRef .tc b) = B55 m ρ c (Proc.devRef .tc b) := by
  unfold B56; exact Pipeline.withArrays_of_ne spec26 c _ _ b hb
/-- Region 26's exit contents read at the TensorCore's references. -/
noncomputable abbrev X26 : (c : Dev nD) → (b : Ref sig .tc) → Buf (Elt F) ((c : Thread nD τ).loc b) := fun c b => B56 m ρ c b
theorem hF26 (c : Dev nD) (w : Fin cfg26.W) : (dat26 (E26 m ρ) c).arrAt w cfg26.N = X26 m ρ c (Pipeline.arrRef spec26 w) :=
  (B56_arr m ρ c w).symm
theorem hrest26 (c : Dev nD) : ∀ b, b ∉ Finset.univ.image (Pipeline.arrRef spec26) → X26 m ρ c b = E26 m ρ c b :=
  fun b hb => B56_of_ne m ρ c b fun w e => hb (Finset.mem_image.mpr ⟨w, Finset.mem_univ _, e⟩)
/-- After the host stretch `hostOps27`. -/
noncomputable abbrev B57 : Dev nD → Valuation τ sig (Elt F) := fun c => StableHlo.after hostOps27 (B56 m ρ c)

/-- Region 27's entry contents read at the TensorCore's references. -/
noncomputable abbrev E27 : (c : Dev nD) → (b : Ref sig .tc) → Buf (Elt F) ((c : Thread nD τ).loc b) := fun c b => B57 m ρ c b
/-- At region 27's exit: its arrays at what the pipeline leaves, every other buffer as entered. -/
noncomputable def B58 (c : Dev nD) : Valuation τ sig (Elt F) :=
  Pipeline.withArrays spec27 c (B57 m ρ c) fun w => (dat27 (E27 m ρ) c).arrAt w cfg27.N
theorem B58_arr (c : Dev nD) (w : Fin cfg27.W) :
    B58 m ρ c (Proc.devRef .tc (Pipeline.arrRef spec27 w)) = (dat27 (E27 m ρ) c).arrAt w cfg27.N := by
  unfold B58; exact Pipeline.withArrays_arr spec27 launch27.win.arr_inj c _ _ w
theorem B58_of_ne (c : Dev nD) (b : Ref sig .tc) (hb : ∀ w, Pipeline.arrRef spec27 w ≠ b) :
    B58 m ρ c (Proc.devRef .tc b) = B57 m ρ c (Proc.devRef .tc b) := by
  unfold B58; exact Pipeline.withArrays_of_ne spec27 c _ _ b hb
/-- Region 27's exit contents read at the TensorCore's references. -/
noncomputable abbrev X27 : (c : Dev nD) → (b : Ref sig .tc) → Buf (Elt F) ((c : Thread nD τ).loc b) := fun c b => B58 m ρ c b
theorem hF27 (c : Dev nD) (w : Fin cfg27.W) : (dat27 (E27 m ρ) c).arrAt w cfg27.N = X27 m ρ c (Pipeline.arrRef spec27 w) :=
  (B58_arr m ρ c w).symm
theorem hrest27 (c : Dev nD) : ∀ b, b ∉ Finset.univ.image (Pipeline.arrRef spec27) → X27 m ρ c b = E27 m ρ c b :=
  fun b hb => B58_of_ne m ρ c b fun w e => hb (Finset.mem_image.mpr ⟨w, Finset.mem_univ _, e⟩)
/-- After the host stretch `hostOps28`. -/
noncomputable abbrev B59 : Dev nD → Valuation τ sig (Elt F) := fun c => StableHlo.after hostOps28 (B58 m ρ c)

/-- Region 28's entry contents read at the TensorCore's references. -/
noncomputable abbrev E28 : (c : Dev nD) → (b : Ref sig .tc) → Buf (Elt F) ((c : Thread nD τ).loc b) := fun c b => B59 m ρ c b
/-- At region 28's exit: its arrays at what the pipeline leaves, every other buffer as entered. -/
noncomputable def B60 (c : Dev nD) : Valuation τ sig (Elt F) :=
  Pipeline.withArrays spec28 c (B59 m ρ c) fun w => (dat28 (E28 m ρ) c).arrAt w cfg28.N
theorem B60_arr (c : Dev nD) (w : Fin cfg28.W) :
    B60 m ρ c (Proc.devRef .tc (Pipeline.arrRef spec28 w)) = (dat28 (E28 m ρ) c).arrAt w cfg28.N := by
  unfold B60; exact Pipeline.withArrays_arr spec28 launch28.win.arr_inj c _ _ w
theorem B60_of_ne (c : Dev nD) (b : Ref sig .tc) (hb : ∀ w, Pipeline.arrRef spec28 w ≠ b) :
    B60 m ρ c (Proc.devRef .tc b) = B59 m ρ c (Proc.devRef .tc b) := by
  unfold B60; exact Pipeline.withArrays_of_ne spec28 c _ _ b hb
/-- Region 28's exit contents read at the TensorCore's references. -/
noncomputable abbrev X28 : (c : Dev nD) → (b : Ref sig .tc) → Buf (Elt F) ((c : Thread nD τ).loc b) := fun c b => B60 m ρ c b
theorem hF28 (c : Dev nD) (w : Fin cfg28.W) : (dat28 (E28 m ρ) c).arrAt w cfg28.N = X28 m ρ c (Pipeline.arrRef spec28 w) :=
  (B60_arr m ρ c w).symm
theorem hrest28 (c : Dev nD) : ∀ b, b ∉ Finset.univ.image (Pipeline.arrRef spec28) → X28 m ρ c b = E28 m ρ c b :=
  fun b hb => B60_of_ne m ρ c b fun w e => hb (Finset.mem_image.mpr ⟨w, Finset.mem_univ _, e⟩)
/-- After the host stretch `hostOps29`. -/
noncomputable abbrev B61 : Dev nD → Valuation τ sig (Elt F) := fun c => StableHlo.after hostOps29 (B60 m ρ c)

/-- Region 29's entry contents read at the TensorCore's references. -/
noncomputable abbrev E29 : (c : Dev nD) → (b : Ref sig .tc) → Buf (Elt F) ((c : Thread nD τ).loc b) := fun c b => B61 m ρ c b
/-- At region 29's exit: its arrays at what the pipeline leaves, every other buffer as entered. -/
noncomputable def B62 (c : Dev nD) : Valuation τ sig (Elt F) :=
  Pipeline.withArrays spec29 c (B61 m ρ c) fun w => (dat29 (E29 m ρ) c).arrAt w cfg29.N
theorem B62_arr (c : Dev nD) (w : Fin cfg29.W) :
    B62 m ρ c (Proc.devRef .tc (Pipeline.arrRef spec29 w)) = (dat29 (E29 m ρ) c).arrAt w cfg29.N := by
  unfold B62; exact Pipeline.withArrays_arr spec29 launch29.win.arr_inj c _ _ w
theorem B62_of_ne (c : Dev nD) (b : Ref sig .tc) (hb : ∀ w, Pipeline.arrRef spec29 w ≠ b) :
    B62 m ρ c (Proc.devRef .tc b) = B61 m ρ c (Proc.devRef .tc b) := by
  unfold B62; exact Pipeline.withArrays_of_ne spec29 c _ _ b hb
/-- Region 29's exit contents read at the TensorCore's references. -/
noncomputable abbrev X29 : (c : Dev nD) → (b : Ref sig .tc) → Buf (Elt F) ((c : Thread nD τ).loc b) := fun c b => B62 m ρ c b
theorem hF29 (c : Dev nD) (w : Fin cfg29.W) : (dat29 (E29 m ρ) c).arrAt w cfg29.N = X29 m ρ c (Pipeline.arrRef spec29 w) :=
  (B62_arr m ρ c w).symm
theorem hrest29 (c : Dev nD) : ∀ b, b ∉ Finset.univ.image (Pipeline.arrRef spec29) → X29 m ρ c b = E29 m ρ c b :=
  fun b hb => B62_of_ne m ρ c b fun w e => hb (Finset.mem_image.mpr ⟨w, Finset.mem_univ _, e⟩)
/-- After the host stretch `hostOps30`. -/
noncomputable abbrev B63 : Dev nD → Valuation τ sig (Elt F) := fun c => StableHlo.after hostOps30 (B62 m ρ c)

/-- Region 30's entry contents read at the TensorCore's references. -/
noncomputable abbrev E30 : (c : Dev nD) → (b : Ref sig .tc) → Buf (Elt F) ((c : Thread nD τ).loc b) := fun c b => B63 m ρ c b
/-- At region 30's exit: its arrays at what the pipeline leaves, every other buffer as entered. -/
noncomputable def B64 (c : Dev nD) : Valuation τ sig (Elt F) :=
  Pipeline.withArrays spec30 c (B63 m ρ c) fun w => (dat30 (E30 m ρ) c).arrAt w cfg30.N
theorem B64_arr (c : Dev nD) (w : Fin cfg30.W) :
    B64 m ρ c (Proc.devRef .tc (Pipeline.arrRef spec30 w)) = (dat30 (E30 m ρ) c).arrAt w cfg30.N := by
  unfold B64; exact Pipeline.withArrays_arr spec30 launch30.win.arr_inj c _ _ w
theorem B64_of_ne (c : Dev nD) (b : Ref sig .tc) (hb : ∀ w, Pipeline.arrRef spec30 w ≠ b) :
    B64 m ρ c (Proc.devRef .tc b) = B63 m ρ c (Proc.devRef .tc b) := by
  unfold B64; exact Pipeline.withArrays_of_ne spec30 c _ _ b hb
/-- Region 30's exit contents read at the TensorCore's references. -/
noncomputable abbrev X30 : (c : Dev nD) → (b : Ref sig .tc) → Buf (Elt F) ((c : Thread nD τ).loc b) := fun c b => B64 m ρ c b
theorem hF30 (c : Dev nD) (w : Fin cfg30.W) : (dat30 (E30 m ρ) c).arrAt w cfg30.N = X30 m ρ c (Pipeline.arrRef spec30 w) :=
  (B64_arr m ρ c w).symm
theorem hrest30 (c : Dev nD) : ∀ b, b ∉ Finset.univ.image (Pipeline.arrRef spec30) → X30 m ρ c b = E30 m ρ c b :=
  fun b hb => B64_of_ne m ρ c b fun w e => hb (Finset.mem_image.mpr ⟨w, Finset.mem_univ _, e⟩)
/-- After the host stretch `hostOps31`. -/
noncomputable abbrev B65 : Dev nD → Valuation τ sig (Elt F) := fun c => StableHlo.after hostOps31 (B64 m ρ c)

/-- Region 31's entry contents read at the TensorCore's references. -/
noncomputable abbrev E31 : (c : Dev nD) → (b : Ref sig .tc) → Buf (Elt F) ((c : Thread nD τ).loc b) := fun c b => B65 m ρ c b
/-- At region 31's exit: its arrays at what the pipeline leaves, every other buffer as entered. -/
noncomputable def B66 (c : Dev nD) : Valuation τ sig (Elt F) :=
  Pipeline.withArrays spec31 c (B65 m ρ c) fun w => (dat31 (E31 m ρ) c).arrAt w cfg31.N
theorem B66_arr (c : Dev nD) (w : Fin cfg31.W) :
    B66 m ρ c (Proc.devRef .tc (Pipeline.arrRef spec31 w)) = (dat31 (E31 m ρ) c).arrAt w cfg31.N := by
  unfold B66; exact Pipeline.withArrays_arr spec31 launch31.win.arr_inj c _ _ w
theorem B66_of_ne (c : Dev nD) (b : Ref sig .tc) (hb : ∀ w, Pipeline.arrRef spec31 w ≠ b) :
    B66 m ρ c (Proc.devRef .tc b) = B65 m ρ c (Proc.devRef .tc b) := by
  unfold B66; exact Pipeline.withArrays_of_ne spec31 c _ _ b hb
/-- Region 31's exit contents read at the TensorCore's references. -/
noncomputable abbrev X31 : (c : Dev nD) → (b : Ref sig .tc) → Buf (Elt F) ((c : Thread nD τ).loc b) := fun c b => B66 m ρ c b
theorem hF31 (c : Dev nD) (w : Fin cfg31.W) : (dat31 (E31 m ρ) c).arrAt w cfg31.N = X31 m ρ c (Pipeline.arrRef spec31 w) :=
  (B66_arr m ρ c w).symm
theorem hrest31 (c : Dev nD) : ∀ b, b ∉ Finset.univ.image (Pipeline.arrRef spec31) → X31 m ρ c b = E31 m ρ c b :=
  fun b hb => B66_of_ne m ρ c b fun w e => hb (Finset.mem_image.mpr ⟨w, Finset.mem_univ _, e⟩)
/-- After the host stretch `hostOps32`. -/
noncomputable abbrev B67 : Dev nD → Valuation τ sig (Elt F) := fun c => StableHlo.after hostOps32 (B66 m ρ c)

/-- Region 32's entry contents read at the TensorCore's references. -/
noncomputable abbrev E32 : (c : Dev nD) → (b : Ref sig .tc) → Buf (Elt F) ((c : Thread nD τ).loc b) := fun c b => B67 m ρ c b
/-- At region 32's exit: its arrays at what the pipeline leaves, every other buffer as entered. -/
noncomputable def B68 (c : Dev nD) : Valuation τ sig (Elt F) :=
  Pipeline.withArrays spec32 c (B67 m ρ c) fun w => (dat32 (E32 m ρ) c).arrAt w cfg32.N
theorem B68_arr (c : Dev nD) (w : Fin cfg32.W) :
    B68 m ρ c (Proc.devRef .tc (Pipeline.arrRef spec32 w)) = (dat32 (E32 m ρ) c).arrAt w cfg32.N := by
  unfold B68; exact Pipeline.withArrays_arr spec32 launch32.win.arr_inj c _ _ w
theorem B68_of_ne (c : Dev nD) (b : Ref sig .tc) (hb : ∀ w, Pipeline.arrRef spec32 w ≠ b) :
    B68 m ρ c (Proc.devRef .tc b) = B67 m ρ c (Proc.devRef .tc b) := by
  unfold B68; exact Pipeline.withArrays_of_ne spec32 c _ _ b hb
/-- Region 32's exit contents read at the TensorCore's references. -/
noncomputable abbrev X32 : (c : Dev nD) → (b : Ref sig .tc) → Buf (Elt F) ((c : Thread nD τ).loc b) := fun c b => B68 m ρ c b
theorem hF32 (c : Dev nD) (w : Fin cfg32.W) : (dat32 (E32 m ρ) c).arrAt w cfg32.N = X32 m ρ c (Pipeline.arrRef spec32 w) :=
  (B68_arr m ρ c w).symm
theorem hrest32 (c : Dev nD) : ∀ b, b ∉ Finset.univ.image (Pipeline.arrRef spec32) → X32 m ρ c b = E32 m ρ c b :=
  fun b hb => B68_of_ne m ρ c b fun w e => hb (Finset.mem_image.mpr ⟨w, Finset.mem_univ _, e⟩)
/-- After the host stretch `hostOps33`. -/
noncomputable abbrev B69 : Dev nD → Valuation τ sig (Elt F) := fun c => StableHlo.after hostOps33 (B68 m ρ c)

/-- Region 33's entry contents read at the TensorCore's references. -/
noncomputable abbrev E33 : (c : Dev nD) → (b : Ref sig .tc) → Buf (Elt F) ((c : Thread nD τ).loc b) := fun c b => B69 m ρ c b
/-- At region 33's exit: its arrays at what the pipeline leaves, every other buffer as entered. -/
noncomputable def B70 (c : Dev nD) : Valuation τ sig (Elt F) :=
  Pipeline.withArrays spec33 c (B69 m ρ c) fun w => (dat33 (E33 m ρ) c).arrAt w cfg33.N
theorem B70_arr (c : Dev nD) (w : Fin cfg33.W) :
    B70 m ρ c (Proc.devRef .tc (Pipeline.arrRef spec33 w)) = (dat33 (E33 m ρ) c).arrAt w cfg33.N := by
  unfold B70; exact Pipeline.withArrays_arr spec33 launch33.win.arr_inj c _ _ w
theorem B70_of_ne (c : Dev nD) (b : Ref sig .tc) (hb : ∀ w, Pipeline.arrRef spec33 w ≠ b) :
    B70 m ρ c (Proc.devRef .tc b) = B69 m ρ c (Proc.devRef .tc b) := by
  unfold B70; exact Pipeline.withArrays_of_ne spec33 c _ _ b hb
/-- Region 33's exit contents read at the TensorCore's references. -/
noncomputable abbrev X33 : (c : Dev nD) → (b : Ref sig .tc) → Buf (Elt F) ((c : Thread nD τ).loc b) := fun c b => B70 m ρ c b
theorem hF33 (c : Dev nD) (w : Fin cfg33.W) : (dat33 (E33 m ρ) c).arrAt w cfg33.N = X33 m ρ c (Pipeline.arrRef spec33 w) :=
  (B70_arr m ρ c w).symm
theorem hrest33 (c : Dev nD) : ∀ b, b ∉ Finset.univ.image (Pipeline.arrRef spec33) → X33 m ρ c b = E33 m ρ c b :=
  fun b hb => B70_of_ne m ρ c b fun w e => hb (Finset.mem_image.mpr ⟨w, Finset.mem_univ _, e⟩)
/-- After the host stretch `hostOps34`. -/
noncomputable abbrev B71 : Dev nD → Valuation τ sig (Elt F) := fun c => StableHlo.after hostOps34 (B70 m ρ c)

/-- Region 34's entry contents read at the TensorCore's references. -/
noncomputable abbrev E34 : (c : Dev nD) → (b : Ref sig .tc) → Buf (Elt F) ((c : Thread nD τ).loc b) := fun c b => B71 m ρ c b
/-- At region 34's exit: its arrays at what the pipeline leaves, every other buffer as entered. -/
noncomputable def B72 (c : Dev nD) : Valuation τ sig (Elt F) :=
  Pipeline.withArrays spec34 c (B71 m ρ c) fun w => (dat34 (E34 m ρ) c).arrAt w cfg34.N
theorem B72_arr (c : Dev nD) (w : Fin cfg34.W) :
    B72 m ρ c (Proc.devRef .tc (Pipeline.arrRef spec34 w)) = (dat34 (E34 m ρ) c).arrAt w cfg34.N := by
  unfold B72; exact Pipeline.withArrays_arr spec34 launch34.win.arr_inj c _ _ w
theorem B72_of_ne (c : Dev nD) (b : Ref sig .tc) (hb : ∀ w, Pipeline.arrRef spec34 w ≠ b) :
    B72 m ρ c (Proc.devRef .tc b) = B71 m ρ c (Proc.devRef .tc b) := by
  unfold B72; exact Pipeline.withArrays_of_ne spec34 c _ _ b hb
/-- Region 34's exit contents read at the TensorCore's references. -/
noncomputable abbrev X34 : (c : Dev nD) → (b : Ref sig .tc) → Buf (Elt F) ((c : Thread nD τ).loc b) := fun c b => B72 m ρ c b
theorem hF34 (c : Dev nD) (w : Fin cfg34.W) : (dat34 (E34 m ρ) c).arrAt w cfg34.N = X34 m ρ c (Pipeline.arrRef spec34 w) :=
  (B72_arr m ρ c w).symm
theorem hrest34 (c : Dev nD) : ∀ b, b ∉ Finset.univ.image (Pipeline.arrRef spec34) → X34 m ρ c b = E34 m ρ c b :=
  fun b hb => B72_of_ne m ρ c b fun w e => hb (Finset.mem_image.mpr ⟨w, Finset.mem_univ _, e⟩)
/-- After the host stretch `hostOps35`. -/
noncomputable abbrev B73 : Dev nD → Valuation τ sig (Elt F) := fun c => StableHlo.after hostOps35 (B72 m ρ c)

/-- Region 35's entry contents read at the TensorCore's references. -/
noncomputable abbrev E35 : (c : Dev nD) → (b : Ref sig .tc) → Buf (Elt F) ((c : Thread nD τ).loc b) := fun c b => B73 m ρ c b
/-- At region 35's exit: its arrays at what the pipeline leaves, every other buffer as entered. -/
noncomputable def B74 (c : Dev nD) : Valuation τ sig (Elt F) :=
  Pipeline.withArrays spec35 c (B73 m ρ c) fun w => (dat35 (E35 m ρ) c).arrAt w cfg35.N
theorem B74_arr (c : Dev nD) (w : Fin cfg35.W) :
    B74 m ρ c (Proc.devRef .tc (Pipeline.arrRef spec35 w)) = (dat35 (E35 m ρ) c).arrAt w cfg35.N := by
  unfold B74; exact Pipeline.withArrays_arr spec35 launch35.win.arr_inj c _ _ w
theorem B74_of_ne (c : Dev nD) (b : Ref sig .tc) (hb : ∀ w, Pipeline.arrRef spec35 w ≠ b) :
    B74 m ρ c (Proc.devRef .tc b) = B73 m ρ c (Proc.devRef .tc b) := by
  unfold B74; exact Pipeline.withArrays_of_ne spec35 c _ _ b hb
/-- Region 35's exit contents read at the TensorCore's references. -/
noncomputable abbrev X35 : (c : Dev nD) → (b : Ref sig .tc) → Buf (Elt F) ((c : Thread nD τ).loc b) := fun c b => B74 m ρ c b
theorem hF35 (c : Dev nD) (w : Fin cfg35.W) : (dat35 (E35 m ρ) c).arrAt w cfg35.N = X35 m ρ c (Pipeline.arrRef spec35 w) :=
  (B74_arr m ρ c w).symm
theorem hrest35 (c : Dev nD) : ∀ b, b ∉ Finset.univ.image (Pipeline.arrRef spec35) → X35 m ρ c b = E35 m ρ c b :=
  fun b hb => B74_of_ne m ρ c b fun w e => hb (Finset.mem_image.mpr ⟨w, Finset.mem_univ _, e⟩)
/-- After the host stretch `hostOps36`. -/
noncomputable abbrev B75 : Dev nD → Valuation τ sig (Elt F) := fun c => StableHlo.after hostOps36 (B74 m ρ c)

/-- Region 36's entry contents read at the TensorCore's references. -/
noncomputable abbrev E36 : (c : Dev nD) → (b : Ref sig .tc) → Buf (Elt F) ((c : Thread nD τ).loc b) := fun c b => B75 m ρ c b
/-- At region 36's exit: its arrays at what the pipeline leaves, every other buffer as entered. -/
noncomputable def B76 (c : Dev nD) : Valuation τ sig (Elt F) :=
  Pipeline.withArrays spec36 c (B75 m ρ c) fun w => (dat36 (E36 m ρ) c).arrAt w cfg36.N
theorem B76_arr (c : Dev nD) (w : Fin cfg36.W) :
    B76 m ρ c (Proc.devRef .tc (Pipeline.arrRef spec36 w)) = (dat36 (E36 m ρ) c).arrAt w cfg36.N := by
  unfold B76; exact Pipeline.withArrays_arr spec36 launch36.win.arr_inj c _ _ w
theorem B76_of_ne (c : Dev nD) (b : Ref sig .tc) (hb : ∀ w, Pipeline.arrRef spec36 w ≠ b) :
    B76 m ρ c (Proc.devRef .tc b) = B75 m ρ c (Proc.devRef .tc b) := by
  unfold B76; exact Pipeline.withArrays_of_ne spec36 c _ _ b hb
/-- Region 36's exit contents read at the TensorCore's references. -/
noncomputable abbrev X36 : (c : Dev nD) → (b : Ref sig .tc) → Buf (Elt F) ((c : Thread nD τ).loc b) := fun c b => B76 m ρ c b
theorem hF36 (c : Dev nD) (w : Fin cfg36.W) : (dat36 (E36 m ρ) c).arrAt w cfg36.N = X36 m ρ c (Pipeline.arrRef spec36 w) :=
  (B76_arr m ρ c w).symm
theorem hrest36 (c : Dev nD) : ∀ b, b ∉ Finset.univ.image (Pipeline.arrRef spec36) → X36 m ρ c b = E36 m ρ c b :=
  fun b hb => B76_of_ne m ρ c b fun w e => hb (Finset.mem_image.mpr ⟨w, Finset.mem_univ _, e⟩)
/-- After the host stretch `hostOps37`. -/
noncomputable abbrev B77 : Dev nD → Valuation τ sig (Elt F) := fun c => StableHlo.after hostOps37 (B76 m ρ c)

/-- Region 37's entry contents read at the TensorCore's references. -/
noncomputable abbrev E37 : (c : Dev nD) → (b : Ref sig .tc) → Buf (Elt F) ((c : Thread nD τ).loc b) := fun c b => B77 m ρ c b
/-- At region 37's exit: its arrays at what the pipeline leaves, every other buffer as entered. -/
noncomputable def B78 (c : Dev nD) : Valuation τ sig (Elt F) :=
  Pipeline.withArrays spec37 c (B77 m ρ c) fun w => (dat37 (E37 m ρ) c).arrAt w cfg37.N
theorem B78_arr (c : Dev nD) (w : Fin cfg37.W) :
    B78 m ρ c (Proc.devRef .tc (Pipeline.arrRef spec37 w)) = (dat37 (E37 m ρ) c).arrAt w cfg37.N := by
  unfold B78; exact Pipeline.withArrays_arr spec37 launch37.win.arr_inj c _ _ w
theorem B78_of_ne (c : Dev nD) (b : Ref sig .tc) (hb : ∀ w, Pipeline.arrRef spec37 w ≠ b) :
    B78 m ρ c (Proc.devRef .tc b) = B77 m ρ c (Proc.devRef .tc b) := by
  unfold B78; exact Pipeline.withArrays_of_ne spec37 c _ _ b hb
/-- Region 37's exit contents read at the TensorCore's references. -/
noncomputable abbrev X37 : (c : Dev nD) → (b : Ref sig .tc) → Buf (Elt F) ((c : Thread nD τ).loc b) := fun c b => B78 m ρ c b
theorem hF37 (c : Dev nD) (w : Fin cfg37.W) : (dat37 (E37 m ρ) c).arrAt w cfg37.N = X37 m ρ c (Pipeline.arrRef spec37 w) :=
  (B78_arr m ρ c w).symm
theorem hrest37 (c : Dev nD) : ∀ b, b ∉ Finset.univ.image (Pipeline.arrRef spec37) → X37 m ρ c b = E37 m ρ c b :=
  fun b hb => B78_of_ne m ρ c b fun w e => hb (Finset.mem_image.mpr ⟨w, Finset.mem_univ _, e⟩)
/-- After the host stretch `hostOps38`. -/
noncomputable abbrev B79 : Dev nD → Valuation τ sig (Elt F) := fun c => StableHlo.after hostOps38 (B78 m ρ c)

/-- Region 38's entry contents read at the TensorCore's references. -/
noncomputable abbrev E38 : (c : Dev nD) → (b : Ref sig .tc) → Buf (Elt F) ((c : Thread nD τ).loc b) := fun c b => B79 m ρ c b
/-- At region 38's exit: its arrays at what the pipeline leaves, every other buffer as entered. -/
noncomputable def B80 (c : Dev nD) : Valuation τ sig (Elt F) :=
  Pipeline.withArrays spec38 c (B79 m ρ c) fun w => (dat38 (E38 m ρ) c).arrAt w cfg38.N
theorem B80_arr (c : Dev nD) (w : Fin cfg38.W) :
    B80 m ρ c (Proc.devRef .tc (Pipeline.arrRef spec38 w)) = (dat38 (E38 m ρ) c).arrAt w cfg38.N := by
  unfold B80; exact Pipeline.withArrays_arr spec38 launch38.win.arr_inj c _ _ w
theorem B80_of_ne (c : Dev nD) (b : Ref sig .tc) (hb : ∀ w, Pipeline.arrRef spec38 w ≠ b) :
    B80 m ρ c (Proc.devRef .tc b) = B79 m ρ c (Proc.devRef .tc b) := by
  unfold B80; exact Pipeline.withArrays_of_ne spec38 c _ _ b hb
/-- Region 38's exit contents read at the TensorCore's references. -/
noncomputable abbrev X38 : (c : Dev nD) → (b : Ref sig .tc) → Buf (Elt F) ((c : Thread nD τ).loc b) := fun c b => B80 m ρ c b
theorem hF38 (c : Dev nD) (w : Fin cfg38.W) : (dat38 (E38 m ρ) c).arrAt w cfg38.N = X38 m ρ c (Pipeline.arrRef spec38 w) :=
  (B80_arr m ρ c w).symm
theorem hrest38 (c : Dev nD) : ∀ b, b ∉ Finset.univ.image (Pipeline.arrRef spec38) → X38 m ρ c b = E38 m ρ c b :=
  fun b hb => B80_of_ne m ρ c b fun w e => hb (Finset.mem_image.mpr ⟨w, Finset.mem_univ _, e⟩)
/-- After the host stretch `hostOps39`. -/
noncomputable abbrev B81 : Dev nD → Valuation τ sig (Elt F) := fun c => StableHlo.after hostOps39 (B80 m ρ c)

/-- Region 39's entry contents read at the TensorCore's references. -/
noncomputable abbrev E39 : (c : Dev nD) → (b : Ref sig .tc) → Buf (Elt F) ((c : Thread nD τ).loc b) := fun c b => B81 m ρ c b
/-- At region 39's exit: its arrays at what the pipeline leaves, every other buffer as entered. -/
noncomputable def B82 (c : Dev nD) : Valuation τ sig (Elt F) :=
  Pipeline.withArrays spec39 c (B81 m ρ c) fun w => (dat39 (E39 m ρ) c).arrAt w cfg39.N
theorem B82_arr (c : Dev nD) (w : Fin cfg39.W) :
    B82 m ρ c (Proc.devRef .tc (Pipeline.arrRef spec39 w)) = (dat39 (E39 m ρ) c).arrAt w cfg39.N := by
  unfold B82; exact Pipeline.withArrays_arr spec39 launch39.win.arr_inj c _ _ w
theorem B82_of_ne (c : Dev nD) (b : Ref sig .tc) (hb : ∀ w, Pipeline.arrRef spec39 w ≠ b) :
    B82 m ρ c (Proc.devRef .tc b) = B81 m ρ c (Proc.devRef .tc b) := by
  unfold B82; exact Pipeline.withArrays_of_ne spec39 c _ _ b hb
/-- Region 39's exit contents read at the TensorCore's references. -/
noncomputable abbrev X39 : (c : Dev nD) → (b : Ref sig .tc) → Buf (Elt F) ((c : Thread nD τ).loc b) := fun c b => B82 m ρ c b
theorem hF39 (c : Dev nD) (w : Fin cfg39.W) : (dat39 (E39 m ρ) c).arrAt w cfg39.N = X39 m ρ c (Pipeline.arrRef spec39 w) :=
  (B82_arr m ρ c w).symm
theorem hrest39 (c : Dev nD) : ∀ b, b ∉ Finset.univ.image (Pipeline.arrRef spec39) → X39 m ρ c b = E39 m ρ c b :=
  fun b hb => B82_of_ne m ρ c b fun w e => hb (Finset.mem_image.mpr ⟨w, Finset.mem_univ _, e⟩)
/-- After the host stretch `hostOps40`. -/
noncomputable abbrev B83 : Dev nD → Valuation τ sig (Elt F) := fun c => StableHlo.after hostOps40 (B82 m ρ c)

/-- Region 40's entry contents read at the TensorCore's references. -/
noncomputable abbrev E40 : (c : Dev nD) → (b : Ref sig .tc) → Buf (Elt F) ((c : Thread nD τ).loc b) := fun c b => B83 m ρ c b
/-- At region 40's exit: its arrays at what the pipeline leaves, every other buffer as entered. -/
noncomputable def B84 (c : Dev nD) : Valuation τ sig (Elt F) :=
  Pipeline.withArrays spec40 c (B83 m ρ c) fun w => (dat40 (E40 m ρ) c).arrAt w cfg40.N
theorem B84_arr (c : Dev nD) (w : Fin cfg40.W) :
    B84 m ρ c (Proc.devRef .tc (Pipeline.arrRef spec40 w)) = (dat40 (E40 m ρ) c).arrAt w cfg40.N := by
  unfold B84; exact Pipeline.withArrays_arr spec40 launch40.win.arr_inj c _ _ w
theorem B84_of_ne (c : Dev nD) (b : Ref sig .tc) (hb : ∀ w, Pipeline.arrRef spec40 w ≠ b) :
    B84 m ρ c (Proc.devRef .tc b) = B83 m ρ c (Proc.devRef .tc b) := by
  unfold B84; exact Pipeline.withArrays_of_ne spec40 c _ _ b hb
/-- Region 40's exit contents read at the TensorCore's references. -/
noncomputable abbrev X40 : (c : Dev nD) → (b : Ref sig .tc) → Buf (Elt F) ((c : Thread nD τ).loc b) := fun c b => B84 m ρ c b
theorem hF40 (c : Dev nD) (w : Fin cfg40.W) : (dat40 (E40 m ρ) c).arrAt w cfg40.N = X40 m ρ c (Pipeline.arrRef spec40 w) :=
  (B84_arr m ρ c w).symm
theorem hrest40 (c : Dev nD) : ∀ b, b ∉ Finset.univ.image (Pipeline.arrRef spec40) → X40 m ρ c b = E40 m ρ c b :=
  fun b hb => B84_of_ne m ρ c b fun w e => hb (Finset.mem_image.mpr ⟨w, Finset.mem_univ _, e⟩)
/-- After the host stretch `hostOps41`. -/
noncomputable abbrev B85 : Dev nD → Valuation τ sig (Elt F) := fun c => StableHlo.after hostOps41 (B84 m ρ c)

/-- Region 41's entry contents read at the TensorCore's references. -/
noncomputable abbrev E41 : (c : Dev nD) → (b : Ref sig .tc) → Buf (Elt F) ((c : Thread nD τ).loc b) := fun c b => B85 m ρ c b
/-- At region 41's exit: its arrays at what the pipeline leaves, every other buffer as entered. -/
noncomputable def B86 (c : Dev nD) : Valuation τ sig (Elt F) :=
  Pipeline.withArrays spec41 c (B85 m ρ c) fun w => (dat41 (E41 m ρ) c).arrAt w cfg41.N
theorem B86_arr (c : Dev nD) (w : Fin cfg41.W) :
    B86 m ρ c (Proc.devRef .tc (Pipeline.arrRef spec41 w)) = (dat41 (E41 m ρ) c).arrAt w cfg41.N := by
  unfold B86; exact Pipeline.withArrays_arr spec41 launch41.win.arr_inj c _ _ w
theorem B86_of_ne (c : Dev nD) (b : Ref sig .tc) (hb : ∀ w, Pipeline.arrRef spec41 w ≠ b) :
    B86 m ρ c (Proc.devRef .tc b) = B85 m ρ c (Proc.devRef .tc b) := by
  unfold B86; exact Pipeline.withArrays_of_ne spec41 c _ _ b hb
/-- Region 41's exit contents read at the TensorCore's references. -/
noncomputable abbrev X41 : (c : Dev nD) → (b : Ref sig .tc) → Buf (Elt F) ((c : Thread nD τ).loc b) := fun c b => B86 m ρ c b
theorem hF41 (c : Dev nD) (w : Fin cfg41.W) : (dat41 (E41 m ρ) c).arrAt w cfg41.N = X41 m ρ c (Pipeline.arrRef spec41 w) :=
  (B86_arr m ρ c w).symm
theorem hrest41 (c : Dev nD) : ∀ b, b ∉ Finset.univ.image (Pipeline.arrRef spec41) → X41 m ρ c b = E41 m ρ c b :=
  fun b hb => B86_of_ne m ρ c b fun w e => hb (Finset.mem_image.mpr ⟨w, Finset.mem_univ _, e⟩)
/-- After the host stretch `hostOps42`. -/
noncomputable abbrev B87 : Dev nD → Valuation τ sig (Elt F) := fun c => StableHlo.after hostOps42 (B86 m ρ c)

/-- Region 42's entry contents read at the TensorCore's references. -/
noncomputable abbrev E42 : (c : Dev nD) → (b : Ref sig .tc) → Buf (Elt F) ((c : Thread nD τ).loc b) := fun c b => B87 m ρ c b
/-- At region 42's exit: its arrays at what the pipeline leaves, every other buffer as entered. -/
noncomputable def B88 (c : Dev nD) : Valuation τ sig (Elt F) :=
  Pipeline.withArrays spec42 c (B87 m ρ c) fun w => (dat42 (E42 m ρ) c).arrAt w cfg42.N
theorem B88_arr (c : Dev nD) (w : Fin cfg42.W) :
    B88 m ρ c (Proc.devRef .tc (Pipeline.arrRef spec42 w)) = (dat42 (E42 m ρ) c).arrAt w cfg42.N := by
  unfold B88; exact Pipeline.withArrays_arr spec42 launch42.win.arr_inj c _ _ w
theorem B88_of_ne (c : Dev nD) (b : Ref sig .tc) (hb : ∀ w, Pipeline.arrRef spec42 w ≠ b) :
    B88 m ρ c (Proc.devRef .tc b) = B87 m ρ c (Proc.devRef .tc b) := by
  unfold B88; exact Pipeline.withArrays_of_ne spec42 c _ _ b hb
/-- Region 42's exit contents read at the TensorCore's references. -/
noncomputable abbrev X42 : (c : Dev nD) → (b : Ref sig .tc) → Buf (Elt F) ((c : Thread nD τ).loc b) := fun c b => B88 m ρ c b
theorem hF42 (c : Dev nD) (w : Fin cfg42.W) : (dat42 (E42 m ρ) c).arrAt w cfg42.N = X42 m ρ c (Pipeline.arrRef spec42 w) :=
  (B88_arr m ρ c w).symm
theorem hrest42 (c : Dev nD) : ∀ b, b ∉ Finset.univ.image (Pipeline.arrRef spec42) → X42 m ρ c b = E42 m ρ c b :=
  fun b hb => B88_of_ne m ρ c b fun w e => hb (Finset.mem_image.mpr ⟨w, Finset.mem_univ _, e⟩)
/-- After the host stretch `hostOps43`. -/
noncomputable abbrev B89 : Dev nD → Valuation τ sig (Elt F) := fun c => StableHlo.after hostOps43 (B88 m ρ c)

/-- Region 43's entry contents read at the TensorCore's references. -/
noncomputable abbrev E43 : (c : Dev nD) → (b : Ref sig .tc) → Buf (Elt F) ((c : Thread nD τ).loc b) := fun c b => B89 m ρ c b
/-- At region 43's exit: its arrays at what the pipeline leaves, every other buffer as entered. -/
noncomputable def B90 (c : Dev nD) : Valuation τ sig (Elt F) :=
  Pipeline.withArrays spec43 c (B89 m ρ c) fun w => (dat43 (E43 m ρ) c).arrAt w cfg43.N
theorem B90_arr (c : Dev nD) (w : Fin cfg43.W) :
    B90 m ρ c (Proc.devRef .tc (Pipeline.arrRef spec43 w)) = (dat43 (E43 m ρ) c).arrAt w cfg43.N := by
  unfold B90; exact Pipeline.withArrays_arr spec43 launch43.win.arr_inj c _ _ w
theorem B90_of_ne (c : Dev nD) (b : Ref sig .tc) (hb : ∀ w, Pipeline.arrRef spec43 w ≠ b) :
    B90 m ρ c (Proc.devRef .tc b) = B89 m ρ c (Proc.devRef .tc b) := by
  unfold B90; exact Pipeline.withArrays_of_ne spec43 c _ _ b hb
/-- Region 43's exit contents read at the TensorCore's references. -/
noncomputable abbrev X43 : (c : Dev nD) → (b : Ref sig .tc) → Buf (Elt F) ((c : Thread nD τ).loc b) := fun c b => B90 m ρ c b
theorem hF43 (c : Dev nD) (w : Fin cfg43.W) : (dat43 (E43 m ρ) c).arrAt w cfg43.N = X43 m ρ c (Pipeline.arrRef spec43 w) :=
  (B90_arr m ρ c w).symm
theorem hrest43 (c : Dev nD) : ∀ b, b ∉ Finset.univ.image (Pipeline.arrRef spec43) → X43 m ρ c b = E43 m ρ c b :=
  fun b hb => B90_of_ne m ρ c b fun w e => hb (Finset.mem_image.mpr ⟨w, Finset.mem_univ _, e⟩)
/-- After the host stretch `hostOps44`. -/
noncomputable abbrev B91 : Dev nD → Valuation τ sig (Elt F) := fun c => StableHlo.after hostOps44 (B90 m ρ c)

/-- Region 44's entry contents read at the TensorCore's references. -/
noncomputable abbrev E44 : (c : Dev nD) → (b : Ref sig .tc) → Buf (Elt F) ((c : Thread nD τ).loc b) := fun c b => B91 m ρ c b
/-- At region 44's exit: its arrays at what the pipeline leaves, every other buffer as entered. -/
noncomputable def B92 (c : Dev nD) : Valuation τ sig (Elt F) :=
  Pipeline.withArrays spec44 c (B91 m ρ c) fun w => (dat44 (E44 m ρ) c).arrAt w cfg44.N
theorem B92_arr (c : Dev nD) (w : Fin cfg44.W) :
    B92 m ρ c (Proc.devRef .tc (Pipeline.arrRef spec44 w)) = (dat44 (E44 m ρ) c).arrAt w cfg44.N := by
  unfold B92; exact Pipeline.withArrays_arr spec44 launch44.win.arr_inj c _ _ w
theorem B92_of_ne (c : Dev nD) (b : Ref sig .tc) (hb : ∀ w, Pipeline.arrRef spec44 w ≠ b) :
    B92 m ρ c (Proc.devRef .tc b) = B91 m ρ c (Proc.devRef .tc b) := by
  unfold B92; exact Pipeline.withArrays_of_ne spec44 c _ _ b hb
/-- Region 44's exit contents read at the TensorCore's references. -/
noncomputable abbrev X44 : (c : Dev nD) → (b : Ref sig .tc) → Buf (Elt F) ((c : Thread nD τ).loc b) := fun c b => B92 m ρ c b
theorem hF44 (c : Dev nD) (w : Fin cfg44.W) : (dat44 (E44 m ρ) c).arrAt w cfg44.N = X44 m ρ c (Pipeline.arrRef spec44 w) :=
  (B92_arr m ρ c w).symm
theorem hrest44 (c : Dev nD) : ∀ b, b ∉ Finset.univ.image (Pipeline.arrRef spec44) → X44 m ρ c b = E44 m ρ c b :=
  fun b hb => B92_of_ne m ρ c b fun w e => hb (Finset.mem_image.mpr ⟨w, Finset.mem_univ _, e⟩)
/-- After the host stretch `hostOps45`. -/
noncomputable abbrev B93 : Dev nD → Valuation τ sig (Elt F) := fun c => StableHlo.after hostOps45 (B92 m ρ c)

/-- Region 45's entry contents read at the TensorCore's references. -/
noncomputable abbrev E45 : (c : Dev nD) → (b : Ref sig .tc) → Buf (Elt F) ((c : Thread nD τ).loc b) := fun c b => B93 m ρ c b
/-- At region 45's exit: its arrays at what the pipeline leaves, every other buffer as entered. -/
noncomputable def B94 (c : Dev nD) : Valuation τ sig (Elt F) :=
  Pipeline.withArrays spec45 c (B93 m ρ c) fun w => (dat45 (E45 m ρ) c).arrAt w cfg45.N
theorem B94_arr (c : Dev nD) (w : Fin cfg45.W) :
    B94 m ρ c (Proc.devRef .tc (Pipeline.arrRef spec45 w)) = (dat45 (E45 m ρ) c).arrAt w cfg45.N := by
  unfold B94; exact Pipeline.withArrays_arr spec45 launch45.win.arr_inj c _ _ w
theorem B94_of_ne (c : Dev nD) (b : Ref sig .tc) (hb : ∀ w, Pipeline.arrRef spec45 w ≠ b) :
    B94 m ρ c (Proc.devRef .tc b) = B93 m ρ c (Proc.devRef .tc b) := by
  unfold B94; exact Pipeline.withArrays_of_ne spec45 c _ _ b hb
/-- Region 45's exit contents read at the TensorCore's references. -/
noncomputable abbrev X45 : (c : Dev nD) → (b : Ref sig .tc) → Buf (Elt F) ((c : Thread nD τ).loc b) := fun c b => B94 m ρ c b
theorem hF45 (c : Dev nD) (w : Fin cfg45.W) : (dat45 (E45 m ρ) c).arrAt w cfg45.N = X45 m ρ c (Pipeline.arrRef spec45 w) :=
  (B94_arr m ρ c w).symm
theorem hrest45 (c : Dev nD) : ∀ b, b ∉ Finset.univ.image (Pipeline.arrRef spec45) → X45 m ρ c b = E45 m ρ c b :=
  fun b hb => B94_of_ne m ρ c b fun w e => hb (Finset.mem_image.mpr ⟨w, Finset.mem_univ _, e⟩)
/-- After the host stretch `hostOps46`. -/
noncomputable abbrev B95 : Dev nD → Valuation τ sig (Elt F) := fun c => StableHlo.after hostOps46 (B94 m ρ c)

/-- Region 46's entry contents read at the TensorCore's references. -/
noncomputable abbrev E46 : (c : Dev nD) → (b : Ref sig .tc) → Buf (Elt F) ((c : Thread nD τ).loc b) := fun c b => B95 m ρ c b
/-- At region 46's exit: its arrays at what the pipeline leaves, every other buffer as entered. -/
noncomputable def B96 (c : Dev nD) : Valuation τ sig (Elt F) :=
  Pipeline.withArrays spec46 c (B95 m ρ c) fun w => (dat46 (E46 m ρ) c).arrAt w cfg46.N
theorem B96_arr (c : Dev nD) (w : Fin cfg46.W) :
    B96 m ρ c (Proc.devRef .tc (Pipeline.arrRef spec46 w)) = (dat46 (E46 m ρ) c).arrAt w cfg46.N := by
  unfold B96; exact Pipeline.withArrays_arr spec46 launch46.win.arr_inj c _ _ w
theorem B96_of_ne (c : Dev nD) (b : Ref sig .tc) (hb : ∀ w, Pipeline.arrRef spec46 w ≠ b) :
    B96 m ρ c (Proc.devRef .tc b) = B95 m ρ c (Proc.devRef .tc b) := by
  unfold B96; exact Pipeline.withArrays_of_ne spec46 c _ _ b hb
/-- Region 46's exit contents read at the TensorCore's references. -/
noncomputable abbrev X46 : (c : Dev nD) → (b : Ref sig .tc) → Buf (Elt F) ((c : Thread nD τ).loc b) := fun c b => B96 m ρ c b
theorem hF46 (c : Dev nD) (w : Fin cfg46.W) : (dat46 (E46 m ρ) c).arrAt w cfg46.N = X46 m ρ c (Pipeline.arrRef spec46 w) :=
  (B96_arr m ρ c w).symm
theorem hrest46 (c : Dev nD) : ∀ b, b ∉ Finset.univ.image (Pipeline.arrRef spec46) → X46 m ρ c b = E46 m ρ c b :=
  fun b hb => B96_of_ne m ρ c b fun w e => hb (Finset.mem_image.mpr ⟨w, Finset.mem_univ _, e⟩)
/-- After the host stretch `hostOps47`. -/
noncomputable abbrev B97 : Dev nD → Valuation τ sig (Elt F) := fun c => StableHlo.after hostOps47 (B96 m ρ c)

/-- Region 47's entry contents read at the TensorCore's references. -/
noncomputable abbrev E47 : (c : Dev nD) → (b : Ref sig .tc) → Buf (Elt F) ((c : Thread nD τ).loc b) := fun c b => B97 m ρ c b
/-- At region 47's exit: its arrays at what the pipeline leaves, every other buffer as entered. -/
noncomputable def B98 (c : Dev nD) : Valuation τ sig (Elt F) :=
  Pipeline.withArrays spec47 c (B97 m ρ c) fun w => (dat47 (E47 m ρ) c).arrAt w cfg47.N
theorem B98_arr (c : Dev nD) (w : Fin cfg47.W) :
    B98 m ρ c (Proc.devRef .tc (Pipeline.arrRef spec47 w)) = (dat47 (E47 m ρ) c).arrAt w cfg47.N := by
  unfold B98; exact Pipeline.withArrays_arr spec47 launch47.win.arr_inj c _ _ w
theorem B98_of_ne (c : Dev nD) (b : Ref sig .tc) (hb : ∀ w, Pipeline.arrRef spec47 w ≠ b) :
    B98 m ρ c (Proc.devRef .tc b) = B97 m ρ c (Proc.devRef .tc b) := by
  unfold B98; exact Pipeline.withArrays_of_ne spec47 c _ _ b hb
/-- Region 47's exit contents read at the TensorCore's references. -/
noncomputable abbrev X47 : (c : Dev nD) → (b : Ref sig .tc) → Buf (Elt F) ((c : Thread nD τ).loc b) := fun c b => B98 m ρ c b
theorem hF47 (c : Dev nD) (w : Fin cfg47.W) : (dat47 (E47 m ρ) c).arrAt w cfg47.N = X47 m ρ c (Pipeline.arrRef spec47 w) :=
  (B98_arr m ρ c w).symm
theorem hrest47 (c : Dev nD) : ∀ b, b ∉ Finset.univ.image (Pipeline.arrRef spec47) → X47 m ρ c b = E47 m ρ c b :=
  fun b hb => B98_of_ne m ρ c b fun w e => hb (Finset.mem_image.mpr ⟨w, Finset.mem_univ _, e⟩)
/-- After the host stretch `hostOps48`. -/
noncomputable abbrev B99 : Dev nD → Valuation τ sig (Elt F) := fun c => StableHlo.after hostOps48 (B98 m ρ c)

/-- Region 48's entry contents read at the TensorCore's references. -/
noncomputable abbrev E48 : (c : Dev nD) → (b : Ref sig .tc) → Buf (Elt F) ((c : Thread nD τ).loc b) := fun c b => B99 m ρ c b
/-- At region 48's exit: its arrays at what the pipeline leaves, every other buffer as entered. -/
noncomputable def B100 (c : Dev nD) : Valuation τ sig (Elt F) :=
  Pipeline.withArrays spec48 c (B99 m ρ c) fun w => (dat48 (E48 m ρ) c).arrAt w cfg48.N
theorem B100_arr (c : Dev nD) (w : Fin cfg48.W) :
    B100 m ρ c (Proc.devRef .tc (Pipeline.arrRef spec48 w)) = (dat48 (E48 m ρ) c).arrAt w cfg48.N := by
  unfold B100; exact Pipeline.withArrays_arr spec48 launch48.win.arr_inj c _ _ w
theorem B100_of_ne (c : Dev nD) (b : Ref sig .tc) (hb : ∀ w, Pipeline.arrRef spec48 w ≠ b) :
    B100 m ρ c (Proc.devRef .tc b) = B99 m ρ c (Proc.devRef .tc b) := by
  unfold B100; exact Pipeline.withArrays_of_ne spec48 c _ _ b hb
/-- Region 48's exit contents read at the TensorCore's references. -/
noncomputable abbrev X48 : (c : Dev nD) → (b : Ref sig .tc) → Buf (Elt F) ((c : Thread nD τ).loc b) := fun c b => B100 m ρ c b
theorem hF48 (c : Dev nD) (w : Fin cfg48.W) : (dat48 (E48 m ρ) c).arrAt w cfg48.N = X48 m ρ c (Pipeline.arrRef spec48 w) :=
  (B100_arr m ρ c w).symm
theorem hrest48 (c : Dev nD) : ∀ b, b ∉ Finset.univ.image (Pipeline.arrRef spec48) → X48 m ρ c b = E48 m ρ c b :=
  fun b hb => B100_of_ne m ρ c b fun w e => hb (Finset.mem_image.mpr ⟨w, Finset.mem_univ _, e⟩)
/-- After the host stretch `hostOps49`. -/
noncomputable abbrev B101 : Dev nD → Valuation τ sig (Elt F) := fun c => StableHlo.after hostOps49 (B100 m ρ c)

/-! ## The proof data family and what rides beside the buffers -/

/-- No pipeline has a prefetched table. -/
noncomputable abbrev adm : (p : Fin 49) → (pcfgs (F := F) p).Adm := fun p => (cfgs p).toPCfg_adm
/-- Every pipeline's proof data, each at its region's entry contents: a literal match, so that the pinned configuration at a numeral reduces to the printed one. -/
noncomputable def pdats : (p : Fin 49) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
  | ⟨4, _⟩ => fun c => dat4 (E4 m ρ) c
  | ⟨5, _⟩ => fun c => dat5 (E5 m ρ) c
  | ⟨6, _⟩ => fun c => dat6 (E6 m ρ) c
  | ⟨7, _⟩ => fun c => dat7 (E7 m ρ) c
  | ⟨8, _⟩ => fun c => dat8 (E8 m ρ) c
  | ⟨9, _⟩ => fun c => dat9 (E9 m ρ) c
  | ⟨10, _⟩ => fun c => dat10 (E10 m ρ) c
  | ⟨11, _⟩ => fun c => dat11 (E11 m ρ) c
  | ⟨12, _⟩ => fun c => dat12 (E12 m ρ) c
  | ⟨13, _⟩ => fun c => dat13 (E13 m ρ) c
  | ⟨14, _⟩ => fun c => dat14 (E14 m ρ) c
  | ⟨15, _⟩ => fun c => dat15 (E15 m ρ) c
  | ⟨16, _⟩ => fun c => dat16 (E16 m ρ) c
  | ⟨17, _⟩ => fun c => dat17 (E17 m ρ) c
  | ⟨18, _⟩ => fun c => dat18 (E18 m ρ) c
  | ⟨19, _⟩ => fun c => dat19 (E19 m ρ) c
  | ⟨20, _⟩ => fun c => dat20 (E20 m ρ) c
  | ⟨21, _⟩ => fun c => dat21 (E21 m ρ) c
  | ⟨22, _⟩ => fun c => dat22 (E22 m ρ) c
  | ⟨23, _⟩ => fun c => dat23 (E23 m ρ) c
  | ⟨24, _⟩ => fun c => dat24 (E24 m ρ) c
  | ⟨25, _⟩ => fun c => dat25 (E25 m ρ) c
  | ⟨26, _⟩ => fun c => dat26 (E26 m ρ) c
  | ⟨27, _⟩ => fun c => dat27 (E27 m ρ) c
  | ⟨28, _⟩ => fun c => dat28 (E28 m ρ) c
  | ⟨29, _⟩ => fun c => dat29 (E29 m ρ) c
  | ⟨30, _⟩ => fun c => dat30 (E30 m ρ) c
  | ⟨31, _⟩ => fun c => dat31 (E31 m ρ) c
  | ⟨32, _⟩ => fun c => dat32 (E32 m ρ) c
  | ⟨33, _⟩ => fun c => dat33 (E33 m ρ) c
  | ⟨34, _⟩ => fun c => dat34 (E34 m ρ) c
  | ⟨35, _⟩ => fun c => dat35 (E35 m ρ) c
  | ⟨36, _⟩ => fun c => dat36 (E36 m ρ) c
  | ⟨37, _⟩ => fun c => dat37 (E37 m ρ) c
  | ⟨38, _⟩ => fun c => dat38 (E38 m ρ) c
  | ⟨39, _⟩ => fun c => dat39 (E39 m ρ) c
  | ⟨40, _⟩ => fun c => dat40 (E40 m ρ) c
  | ⟨41, _⟩ => fun c => dat41 (E41 m ρ) c
  | ⟨42, _⟩ => fun c => dat42 (E42 m ρ) c
  | ⟨43, _⟩ => fun c => dat43 (E43 m ρ) c
  | ⟨44, _⟩ => fun c => dat44 (E44 m ρ) c
  | ⟨45, _⟩ => fun c => dat45 (E45 m ρ) c
  | ⟨46, _⟩ => fun c => dat46 (E46 m ρ) c
  | ⟨47, _⟩ => fun c => dat47 (E47 m ρ) c
  | ⟨48, _⟩ => fun c => dat48 (E48 m ρ) c
  | ⟨_ + 49, h⟩ => absurd h (Nat.not_lt.2 (Nat.le_add_left _ _))
noncomputable abbrev 𝒱₀ : Variants := Variants.none
noncomputable abbrev L : GSem nD τ sig → Finset Unit := fun _ => ∅
noncomputable abbrev lv : GSem nD τ sig → Unit → ℕ := fun _ _ => 0
/-- Beside the buffers through every segment: the core's generator register at some state and its debts, none. -/
noncomputable abbrev R (c : Dev nD) : sProp 𝕄 := iprop((∃ r, prngReg c r) ∗ ∃ W, owes (c : Thread nD τ) (0 : CellTallies nD τ sig Unit) W)
/-- A host stretch as a segment over the unscoped references from the contents `W`. -/
noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor
theorem hostOps8_fresh : (hostOps8 : List (HloOp τ sig (Elt F))).Forall fun op => op.fresh = ∅ := by
  simp only [List.Forall]; repeat' constructor
theorem hostOps9_fresh : (hostOps9 : List (HloOp τ sig (Elt F))).Forall fun op => op.fresh = ∅ := by
  simp only [List.Forall]; repeat' constructor
theorem hostOps10_fresh : (hostOps10 : List (HloOp τ sig (Elt F))).Forall fun op => op.fresh = ∅ := by
  simp only [List.Forall]; repeat' constructor
theorem hostOps11_fresh : (hostOps11 : List (HloOp τ sig (Elt F))).Forall fun op => op.fresh = ∅ := by
  simp only [List.Forall]; repeat' constructor
theorem hostOps12_fresh : (hostOps12 : List (HloOp τ sig (Elt F))).Forall fun op => op.fresh = ∅ := by
  simp only [List.Forall]; repeat' constructor
theorem hostOps13_fresh : (hostOps13 : List (HloOp τ sig (Elt F))).Forall fun op => op.fresh = ∅ := by
  simp only [List.Forall]; repeat' constructor
theorem hostOps14_fresh : (hostOps14 : List (HloOp τ sig (Elt F))).Forall fun op => op.fresh = ∅ := by
  simp only [List.Forall]; repeat' constructor
theorem hostOps15_fresh : (hostOps15 : List (HloOp τ sig (Elt F))).Forall fun op => op.fresh = ∅ := by
  simp only [List.Forall]; repeat' constructor
theorem hostOps16_fresh : (hostOps16 : List (HloOp τ sig (Elt F))).Forall fun op => op.fresh = ∅ := by
  simp only [List.Forall]; repeat' constructor
theorem hostOps17_fresh : (hostOps17 : List (HloOp τ sig (Elt F))).Forall fun op => op.fresh = ∅ := by
  simp only [List.Forall]; repeat' constructor
theorem hostOps18_fresh : (hostOps18 : List (HloOp τ sig (Elt F))).Forall fun op => op.fresh = ∅ := by
  simp only [List.Forall]; repeat' constructor
theorem hostOps19_fresh : (hostOps19 : List (HloOp τ sig (Elt F))).Forall fun op => op.fresh = ∅ := by
  simp only [List.Forall]; repeat' constructor
theorem hostOps20_fresh : (hostOps20 : List (HloOp τ sig (Elt F))).Forall fun op => op.fresh = ∅ := by
  simp only [List.Forall]; repeat' constructor
theorem hostOps21_fresh : (hostOps21 : List (HloOp τ sig (Elt F))).Forall fun op => op.fresh = ∅ := by
  simp only [List.Forall]; repeat' constructor
theorem hostOps22_fresh : (hostOps22 : List (HloOp τ sig (Elt F))).Forall fun op => op.fresh = ∅ := by
  simp only [List.Forall]; repeat' constructor
theorem hostOps23_fresh : (hostOps23 : List (HloOp τ sig (Elt F))).Forall fun op => op.fresh = ∅ := by
  simp only [List.Forall]; repeat' constructor
theorem hostOps24_fresh : (hostOps24 : List (HloOp τ sig (Elt F))).Forall fun op => op.fresh = ∅ := by
  simp only [List.Forall]; repeat' constructor
theorem hostOps25_fresh : (hostOps25 : List (HloOp τ sig (Elt F))).Forall fun op => op.fresh = ∅ := by
  simp only [List.Forall]; repeat' constructor
theorem hostOps26_fresh : (hostOps26 : List (HloOp τ sig (Elt F))).Forall fun op => op.fresh = ∅ := by
  simp only [List.Forall]; repeat' constructor
theorem hostOps27_fresh : (hostOps27 : List (HloOp τ sig (Elt F))).Forall fun op => op.fresh = ∅ := by
  simp only [List.Forall]; repeat' constructor
theorem hostOps28_fresh : (hostOps28 : List (HloOp τ sig (Elt F))).Forall fun op => op.fresh = ∅ := by
  simp only [List.Forall]; repeat' constructor
theorem hostOps29_fresh : (hostOps29 : List (HloOp τ sig (Elt F))).Forall fun op => op.fresh = ∅ := by
  simp only [List.Forall]; repeat' constructor
theorem hostOps30_fresh : (hostOps30 : List (HloOp τ sig (Elt F))).Forall fun op => op.fresh = ∅ := by
  simp only [List.Forall]; repeat' constructor
theorem hostOps31_fresh : (hostOps31 : List (HloOp τ sig (Elt F))).Forall fun op => op.fresh = ∅ := by
  simp only [List.Forall]; repeat' constructor
theorem hostOps32_fresh : (hostOps32 : List (HloOp τ sig (Elt F))).Forall fun op => op.fresh = ∅ := by
  simp only [List.Forall]; repeat' constructor
theorem hostOps33_fresh : (hostOps33 : List (HloOp τ sig (Elt F))).Forall fun op => op.fresh = ∅ := by
  simp only [List.Forall]; repeat' constructor
theorem hostOps34_fresh : (hostOps34 : List (HloOp τ sig (Elt F))).Forall fun op => op.fresh = ∅ := by
  simp only [List.Forall]; repeat' constructor
theorem hostOps35_fresh : (hostOps35 : List (HloOp τ sig (Elt F))).Forall fun op => op.fresh = ∅ := by
  simp only [List.Forall]; repeat' constructor
theorem hostOps36_fresh : (hostOps36 : List (HloOp τ sig (Elt F))).Forall fun op => op.fresh = ∅ := by
  simp only [List.Forall]; repeat' constructor
theorem hostOps37_fresh : (hostOps37 : List (HloOp τ sig (Elt F))).Forall fun op => op.fresh = ∅ := by
  simp only [List.Forall]; repeat' constructor
theorem hostOps38_fresh : (hostOps38 : List (HloOp τ sig (Elt F))).Forall fun op => op.fresh = ∅ := by
  simp only [List.Forall]; repeat' constructor
theorem hostOps39_fresh : (hostOps39 : List (HloOp τ sig (Elt F))).Forall fun op => op.fresh = ∅ := by
  simp only [List.Forall]; repeat' constructor
theorem hostOps40_fresh : (hostOps40 : List (HloOp τ sig (Elt F))).Forall fun op => op.fresh = ∅ := by
  simp only [List.Forall]; repeat' constructor
theorem hostOps41_fresh : (hostOps41 : List (HloOp τ sig (Elt F))).Forall fun op => op.fresh = ∅ := by
  simp only [List.Forall]; repeat' constructor
theorem hostOps42_fresh : (hostOps42 : List (HloOp τ sig (Elt F))).Forall fun op => op.fresh = ∅ := by
  simp only [List.Forall]; repeat' constructor
theorem hostOps43_fresh : (hostOps43 : List (HloOp τ sig (Elt F))).Forall fun op => op.fresh = ∅ := by
  simp only [List.Forall]; repeat' constructor
theorem hostOps44_fresh : (hostOps44 : List (HloOp τ sig (Elt F))).Forall fun op => op.fresh = ∅ := by
  simp only [List.Forall]; repeat' constructor
theorem hostOps45_fresh : (hostOps45 : List (HloOp τ sig (Elt F))).Forall fun op => op.fresh = ∅ := by
  simp only [List.Forall]; repeat' constructor
theorem hostOps46_fresh : (hostOps46 : List (HloOp τ sig (Elt F))).Forall fun op => op.fresh = ∅ := by
  simp only [List.Forall]; repeat' constructor
theorem hostOps47_fresh : (hostOps47 : List (HloOp τ sig (Elt F))).Forall fun op => op.fresh = ∅ := by
  simp only [List.Forall]; repeat' constructor
theorem hostOps48_fresh : (hostOps48 : List (HloOp τ sig (Elt F))).Forall fun op => op.fresh = ∅ := by
  simp only [List.Forall]; repeat' constructor
theorem hostOps49_fresh : (hostOps49 : List (HloOp τ sig (Elt F))).Forall fun op => op.fresh = ∅ := by
  simp only [List.Forall]; repeat' constructor
/-- The last thread state without the debts: every unscoped buffer at the last boundary's contents, the generator register at some state. -/
noncomputable abbrev Tₙ (c : Dev nD) : sProp 𝕄 := iprop(StableHlo.held (c : Thread nD τ) (Pipeline.ucRefs τ sig) (B101 m ρ c) ∗ ∃ r, prngReg c r)

end Cert.Kernel.Hand

end
-- ==== Proof.KB.Reg0.lean ====
/- Region 0 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg1.lean ====
/- Region 1 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg2.lean ====
/- Region 2 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec2 c ⊢ (pdats m ρ 2 c).Φ 0 from hin2 (E2 m ρ) c)
    unfold Pipeline.ΦA
    iintro ⟨Hp, -, Hr⟩
    isplitl [Hr]; · iexact Hr
    iexact Hp
  hout c := by
    rw [Pipeline.ownSems0_none]
    refine BI.Laws.entails_trans (show (pdats m ρ 2 c).Φ (Fin.last _) ⊢ Pipeline.ΦA spec2 c from hout2 (E2 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg3.lean ====
/- Region 3 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (B9 m ρ c) ∗ R c)
  post c := iprop(StableHlo.held (c : Thread nD τ) (Pipeline.ucRefs τ sig) (B10 m ρ c) ∗ R c)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec3 c ⊢ (pdats m ρ 3 c).Φ 0 from hin3 (E3 m ρ) c)
    unfold Pipeline.ΦA
    iintro ⟨Hp, -, Hr⟩
    isplitl [Hr]; · iexact Hr
    iexact Hp
  hout c := by
    rw [Pipeline.ownSems0_none]
    refine BI.Laws.entails_trans (show (pdats m ρ 3 c).Φ (Fin.last _) ⊢ Pipeline.ΦA spec3 c from hout3 (E3 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (X3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg4.lean ====
/- Region 4 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m ρ) c).loose
  hwaits := Pipeline.hwaits_of_owed_zero _ _ _ _ L lv 4 fun _ _ => rfl
  pre c := iprop(StableHlo.held (c : Thread nD τ) (Pipeline.ucRefs τ sig) (B11 m ρ c) ∗ R c)
  post c := iprop(StableHlo.held (c : Thread nD τ) (Pipeline.ucRefs τ sig) (B12 m ρ c) ∗ R c)
  X c := iprop(∃ r, prngReg c r)
  Y c := iprop(∃ r, prngReg c r)
  Z c := Pipeline.unscopedRest (Ix := Unit) (Name := ℕ) (U := UR sig nD τ) (Lvl := ℕ) spec4 c (E4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E4 m ρ c) (X4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg5.lean ====
/- Region 5 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E5 m ρ) c).loose
  hwaits := Pipeline.hwaits_of_owed_zero _ _ _ _ L lv 5 fun _ _ => rfl
  pre c := iprop(StableHlo.held (c : Thread nD τ) (Pipeline.ucRefs τ sig) (B13 m ρ c) ∗ R c)
  post c := iprop(StableHlo.held (c : Thread nD τ) (Pipeline.ucRefs τ sig) (B14 m ρ c) ∗ R c)
  X c := iprop(∃ r, prngReg c r)
  Y c := iprop(∃ r, prngReg c r)
  Z c := Pipeline.unscopedRest (Ix := Unit) (Name := ℕ) (U := UR sig nD τ) (Lvl := ℕ) spec5 c (E5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (E5 m ρ c) (X5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg6.lean ====
/- Region 6 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E6 m ρ) c).loose
  hwaits := Pipeline.hwaits_of_owed_zero _ _ _ _ L lv 6 fun _ _ => rfl
  pre c := iprop(StableHlo.held (c : Thread nD τ) (Pipeline.ucRefs τ sig) (B15 m ρ c) ∗ R c)
  post c := iprop(StableHlo.held (c : Thread nD τ) (Pipeline.ucRefs τ sig) (B16 m ρ c) ∗ R c)
  X c := iprop(∃ r, prngReg c r)
  Y c := iprop(∃ r, prngReg c r)
  Z c := Pipeline.unscopedRest (Ix := Unit) (Name := ℕ) (U := UR sig nD τ) (Lvl := ℕ) spec6 c (E6 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec6 c ⊢ (pdats m ρ 6 c).Φ 0 from hin6 (E6 m ρ) c)
    unfold Pipeline.ΦA
    iintro ⟨Hp, -, Hr⟩
    isplitl [Hr]; · iexact Hr
    iexact Hp
  hout c := by
    rw [Pipeline.ownSems0_none]
    refine BI.Laws.entails_trans (show (pdats m ρ 6 c).Φ (Fin.last _) ⊢ Pipeline.ΦA spec6 c from hout6 (E6 m ρ) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (E6 m ρ c) (X6 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg7.lean ====
/- Region 7 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E7 m ρ) c).loose
  hwaits := Pipeline.hwaits_of_owed_zero _ _ _ _ L lv 7 fun _ _ => rfl
  pre c := iprop(StableHlo.held (c : Thread nD τ) (Pipeline.ucRefs τ sig) (B17 m ρ c) ∗ R c)
  post c := iprop(StableHlo.held (c : Thread nD τ) (Pipeline.ucRefs τ sig) (B18 m ρ c) ∗ R c)
  X c := iprop(∃ r, prngReg c r)
  Y c := iprop(∃ r, prngReg c r)
  Z c := Pipeline.unscopedRest (Ix := Unit) (Name := ℕ) (U := UR sig nD τ) (Lvl := ℕ) spec7 c (E7 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec7 c ⊢ (pdats m ρ 7 c).Φ 0 from hin7 (E7 m ρ) c)
    unfold Pipeline.ΦA
    iintro ⟨Hp, -, Hr⟩
    isplitl [Hr]; · iexact Hr
    iexact Hp
  hout c := by
    rw [Pipeline.ownSems0_none]
    refine BI.Laws.entails_trans (show (pdats m ρ 7 c).Φ (Fin.last _) ⊢ Pipeline.ΦA spec7 c from hout7 (E7 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (E7 m ρ c) (X7 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg8.lean ====
/- Region 8 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E8 m ρ) c).loose
  hwaits := Pipeline.hwaits_of_owed_zero _ _ _ _ L lv 8 fun _ _ => rfl
  pre c := iprop(StableHlo.held (c : Thread nD τ) (Pipeline.ucRefs τ sig) (B19 m ρ c) ∗ R c)
  post c := iprop(StableHlo.held (c : Thread nD τ) (Pipeline.ucRefs τ sig) (B20 m ρ c) ∗ R c)
  X c := iprop(∃ r, prngReg c r)
  Y c := iprop(∃ r, prngReg c r)
  Z c := Pipeline.unscopedRest (Ix := Unit) (Name := ℕ) (U := UR sig nD τ) (Lvl := ℕ) spec8 c (E8 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (E8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (E8 m ρ c) (X8 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg9.lean ====
/- Region 9 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (E9 m ρ) c).loose
  hwaits := Pipeline.hwaits_of_owed_zero _ _ _ _ L lv 9 fun _ _ => rfl
  pre c := iprop(StableHlo.held (c : Thread nD τ) (Pipeline.ucRefs τ sig) (B21 m ρ c) ∗ R c)
  post c := iprop(StableHlo.held (c : Thread nD τ) (Pipeline.ucRefs τ sig) (B22 m ρ c) ∗ R c)
  X c := iprop(∃ r, prngReg c r)
  Y c := iprop(∃ r, prngReg c r)
  Z c := Pipeline.unscopedRest (Ix := Unit) (Name := ℕ) (U := UR sig nD τ) (Lvl := ℕ) spec9 c (E9 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (E9 m ρ c) (X9 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg10.lean ====
/- Region 10 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (E10 m ρ) c).loose
  hwaits := Pipeline.hwaits_of_owed_zero _ _ _ _ L lv 10 fun _ _ => rfl
  pre c := iprop(StableHlo.held (c : Thread nD τ) (Pipeline.ucRefs τ sig) (B23 m ρ c) ∗ R c)
  post c := iprop(StableHlo.held (c : Thread nD τ) (Pipeline.ucRefs τ sig) (B24 m ρ c) ∗ R c)
  X c := iprop(∃ r, prngReg c r)
  Y c := iprop(∃ r, prngReg c r)
  Z c := Pipeline.unscopedRest (Ix := Unit) (Name := ℕ) (U := UR sig nD τ) (Lvl := ℕ) spec10 c (E10 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (E10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec10 c ⊢ (pdats m ρ 10 c).Φ 0 from hin10 (E10 m ρ) c)
    unfold Pipeline.ΦA
    iintro ⟨Hp, -, Hr⟩
    isplitl [Hr]; · iexact Hr
    iexact Hp
  hout c := by
    rw [Pipeline.ownSems0_none]
    refine BI.Laws.entails_trans (show (pdats m ρ 10 c).Φ (Fin.last _) ⊢ Pipeline.ΦA spec10 c from hout10 (E10 m ρ) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (E10 m ρ c) (X10 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg11.lean ====
/- Region 11 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (E11 m ρ) c).loose
  hwaits := Pipeline.hwaits_of_owed_zero _ _ _ _ L lv 11 fun _ _ => rfl
  pre c := iprop(StableHlo.held (c : Thread nD τ) (Pipeline.ucRefs τ sig) (B25 m ρ c) ∗ R c)
  post c := iprop(StableHlo.held (c : Thread nD τ) (Pipeline.ucRefs τ sig) (B26 m ρ c) ∗ R c)
  X c := iprop(∃ r, prngReg c r)
  Y c := iprop(∃ r, prngReg c r)
  Z c := Pipeline.unscopedRest (Ix := Unit) (Name := ℕ) (U := UR sig nD τ) (Lvl := ℕ) spec11 c (E11 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec11 c ⊢ (pdats m ρ 11 c).Φ 0 from hin11 (E11 m ρ) c)
    unfold Pipeline.ΦA
    iintro ⟨Hp, -, Hr⟩
    isplitl [Hr]; · iexact Hr
    iexact Hp
  hout c := by
    rw [Pipeline.ownSems0_none]
    refine BI.Laws.entails_trans (show (pdats m ρ 11 c).Φ (Fin.last _) ⊢ Pipeline.ΦA spec11 c from hout11 (E11 m ρ) c) ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (E11 m ρ c) (X11 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg12.lean ====
/- Region 12 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (E12 m ρ) c).loose
  hwaits := Pipeline.hwaits_of_owed_zero _ _ _ _ L lv 12 fun _ _ => rfl
  pre c := iprop(StableHlo.held (c : Thread nD τ) (Pipeline.ucRefs τ sig) (B27 m ρ c) ∗ R c)
  post c := iprop(StableHlo.held (c : Thread nD τ) (Pipeline.ucRefs τ sig) (B28 m ρ c) ∗ R c)
  X c := iprop(∃ r, prngReg c r)
  Y c := iprop(∃ r, prngReg c r)
  Z c := Pipeline.unscopedRest (Ix := Unit) (Name := ℕ) (U := UR sig nD τ) (Lvl := ℕ) spec12 c (E12 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (E12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (E12 m ρ c) (X12 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg13.lean ====
/- Region 13 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (E13 m ρ) c).loose
  hwaits := Pipeline.hwaits_of_owed_zero _ _ _ _ L lv 13 fun _ _ => rfl
  pre c := iprop(StableHlo.held (c : Thread nD τ) (Pipeline.ucRefs τ sig) (B29 m ρ c) ∗ R c)
  post c := iprop(StableHlo.held (c : Thread nD τ) (Pipeline.ucRefs τ sig) (B30 m ρ c) ∗ R c)
  X c := iprop(∃ r, prngReg c r)
  Y c := iprop(∃ r, prngReg c r)
  Z c := Pipeline.unscopedRest (Ix := Unit) (Name := ℕ) (U := UR sig nD τ) (Lvl := ℕ) spec13 c (E13 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (E13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (E13 m ρ c) (X13 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg14.lean ====
/- Region 14 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (E14 m ρ) c).loose
  hwaits := Pipeline.hwaits_of_owed_zero _ _ _ _ L lv 14 fun _ _ => rfl
  pre c := iprop(StableHlo.held (c : Thread nD τ) (Pipeline.ucRefs τ sig) (B31 m ρ c) ∗ R c)
  post c := iprop(StableHlo.held (c : Thread nD τ) (Pipeline.ucRefs τ sig) (B32 m ρ c) ∗ R c)
  X c := iprop(∃ r, prngReg c r)
  Y c := iprop(∃ r, prngReg c r)
  Z c := Pipeline.unscopedRest (Ix := Unit) (Name := ℕ) (U := UR sig nD τ) (Lvl := ℕ) spec14 c (E14 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (E14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec14 c ⊢ (pdats m ρ 14 c).Φ 0 from hin14 (E14 m ρ) c)
    unfold Pipeline.ΦA
    iintro ⟨Hp, -, Hr⟩
    isplitl [Hr]; · iexact Hr
    iexact Hp
  hout c := by
    rw [Pipeline.ownSems0_none]
    refine BI.Laws.entails_trans (show (pdats m ρ 14 c).Φ (Fin.last _) ⊢ Pipeline.ΦA spec14 c from hout14 (E14 m ρ) c) ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (E14 m ρ c) (X14 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg15.lean ====
/- Region 15 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (E15 m ρ) c).loose
  hwaits := Pipeline.hwaits_of_owed_zero _ _ _ _ L lv 15 fun _ _ => rfl
  pre c := iprop(StableHlo.held (c : Thread nD τ) (Pipeline.ucRefs τ sig) (B33 m ρ c) ∗ R c)
  post c := iprop(StableHlo.held (c : Thread nD τ) (Pipeline.ucRefs τ sig) (B34 m ρ c) ∗ R c)
  X c := iprop(∃ r, prngReg c r)
  Y c := iprop(∃ r, prngReg c r)
  Z c := Pipeline.unscopedRest (Ix := Unit) (Name := ℕ) (U := UR sig nD τ) (Lvl := ℕ) spec15 c (E15 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec15 c ⊢ (pdats m ρ 15 c).Φ 0 from hin15 (E15 m ρ) c)
    unfold Pipeline.ΦA
    iintro ⟨Hp, -, Hr⟩
    isplitl [Hr]; · iexact Hr
    iexact Hp
  hout c := by
    rw [Pipeline.ownSems0_none]
    refine BI.Laws.entails_trans (show (pdats m ρ 15 c).Φ (Fin.last _) ⊢ Pipeline.ΦA spec15 c from hout15 (E15 m ρ) c) ?_
    unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (E15 m ρ c) (X15 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg16.lean ====
/- Region 16 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (E16 m ρ) c).loose
  hwaits := Pipeline.hwaits_of_owed_zero _ _ _ _ L lv 16 fun _ _ => rfl
  pre c := iprop(StableHlo.held (c : Thread nD τ) (Pipeline.ucRefs τ sig) (B35 m ρ c) ∗ R c)
  post c := iprop(StableHlo.held (c : Thread nD τ) (Pipeline.ucRefs τ sig) (B36 m ρ c) ∗ R c)
  X c := iprop(∃ r, prngReg c r)
  Y c := iprop(∃ r, prngReg c r)
  Z c := Pipeline.unscopedRest (Ix := Unit) (Name := ℕ) (U := UR sig nD τ) (Lvl := ℕ) spec16 c (E16 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (E16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (E16 m ρ c) (X16 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg17.lean ====
/- Region 17 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (E17 m ρ) c).loose
  hwaits := Pipeline.hwaits_of_owed_zero _ _ _ _ L lv 17 fun _ _ => rfl
  pre c := iprop(StableHlo.held (c : Thread nD τ) (Pipeline.ucRefs τ sig) (B37 m ρ c) ∗ R c)
  post c := iprop(StableHlo.held (c : Thread nD τ) (Pipeline.ucRefs τ sig) (B38 m ρ c) ∗ R c)
  X c := iprop(∃ r, prngReg c r)
  Y c := iprop(∃ r, prngReg c r)
  Z c := Pipeline.unscopedRest (Ix := Unit) (Name := ℕ) (U := UR sig nD τ) (Lvl := ℕ) spec17 c (E17 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (E17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (E17 m ρ c) (X17 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg18.lean ====
/- Region 18 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (E18 m ρ) c).loose
  hwaits := Pipeline.hwaits_of_owed_zero _ _ _ _ L lv 18 fun _ _ => rfl
  pre c := iprop(StableHlo.held (c : Thread nD τ) (Pipeline.ucRefs τ sig) (B39 m ρ c) ∗ R c)
  post c := iprop(StableHlo.held (c : Thread nD τ) (Pipeline.ucRefs τ sig) (B40 m ρ c) ∗ R c)
  X c := iprop(∃ r, prngReg c r)
  Y c := iprop(∃ r, prngReg c r)
  Z c := Pipeline.unscopedRest (Ix := Unit) (Name := ℕ) (U := UR sig nD τ) (Lvl := ℕ) spec18 c (E18 m ρ c)
  hentry c := by
    rw [Pipeline.ownSems0_none]
    have hsplit := Pipeline.arrays_of_unscopedBufs (p := 18) (pcfgs (F := F)) adm (pdats m ρ) launch18.win launch18.arr_whole c
      ((pdats m ρ 18 c).share_full fun _ => rfl) (E18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec18 c ⊢ (pdats m ρ 18 c).Φ 0 from hin18 (E18 m ρ) c)
    unfold Pipeline.ΦA
    iintro ⟨Hp, -, Hr⟩
    isplitl [Hr]; · iexact Hr
    iexact Hp
  hout c := by
    rw [Pipeline.ownSems0_none]
    refine BI.Laws.entails_trans (show (pdats m ρ 18 c).Φ (Fin.last _) ⊢ Pipeline.ΦA spec18 c from hout18 (E18 m ρ) c) ?_
    unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (E18 m ρ c) (X18 m ρ c) ((pdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg19.lean ====
/- Region 19 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg19 : Pipeline.RegionSeg (pcfgs (F := F)) adm (pdats m ρ) () defs₀ 𝒱₀ L lv 19 where
  win := launch19.win.to₀
  block_pos := launch19.block_pos
  stage_whole := launch19.stage_whole
  K := PEmpty
  osem k := k.elim
  ho := Pipeline.OwnSemFacts.none _
  hbody c := (body_obligation19 (E19 m ρ) c).loose
  hwaits := Pipeline.hwaits_of_owed_zero _ _ _ _ L lv 19 fun _ _ => rfl
  pre c := iprop(StableHlo.held (c : Thread nD τ) (Pipeline.ucRefs τ sig) (B41 m ρ c) ∗ R c)
  post c := iprop(StableHlo.held (c : Thread nD τ) (Pipeline.ucRefs τ sig) (B42 m ρ c) ∗ R c)
  X c := iprop(∃ r, prngReg c r)
  Y c := iprop(∃ r, prngReg c r)
  Z c := Pipeline.unscopedRest (Ix := Unit) (Name := ℕ) (U := UR sig nD τ) (Lvl := ℕ) spec19 c (E19 m ρ c)
  hentry c := by
    rw [Pipeline.ownSems0_none]
    have hsplit := Pipeline.arrays_of_unscopedBufs (p := 19) (pcfgs (F := F)) adm (pdats m ρ) launch19.win launch19.arr_whole c
      ((pdats m ρ 19 c).share_full fun _ => rfl) (E19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec19 c ⊢ (pdats m ρ 19 c).Φ 0 from hin19 (E19 m ρ) c)
    unfold Pipeline.ΦA
    iintro ⟨Hp, -, Hr⟩
    isplitl [Hr]; · iexact Hr
    iexact Hp
  hout c := by
    rw [Pipeline.ownSems0_none]
    refine BI.Laws.entails_trans (show (pdats m ρ 19 c).Φ (Fin.last _) ⊢ Pipeline.ΦA spec19 c from hout19 (E19 m ρ) c) ?_
    unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m ρ) ((pdats m ρ 19 c).share_full fun _ => rfl)
      (E19 m ρ c) (X19 m ρ c) ((pdats m ρ 19 c).arrAt · cfg19.N) (hF19 m ρ c) (hrest19 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg20.lean ====
/- Region 20 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg20 : Pipeline.RegionSeg (pcfgs (F := F)) adm (pdats m ρ) () defs₀ 𝒱₀ L lv 20 where
  win := launch20.win.to₀
  block_pos := launch20.block_pos
  stage_whole := launch20.stage_whole
  K := PEmpty
  osem k := k.elim
  ho := Pipeline.OwnSemFacts.none _
  hbody c := (body_obligation20 (E20 m ρ) c).loose
  hwaits := Pipeline.hwaits_of_owed_zero _ _ _ _ L lv 20 fun _ _ => rfl
  pre c := iprop(StableHlo.held (c : Thread nD τ) (Pipeline.ucRefs τ sig) (B43 m ρ c) ∗ R c)
  post c := iprop(StableHlo.held (c : Thread nD τ) (Pipeline.ucRefs τ sig) (B44 m ρ c) ∗ R c)
  X c := iprop(∃ r, prngReg c r)
  Y c := iprop(∃ r, prngReg c r)
  Z c := Pipeline.unscopedRest (Ix := Unit) (Name := ℕ) (U := UR sig nD τ) (Lvl := ℕ) spec20 c (E20 m ρ c)
  hentry c := by
    rw [Pipeline.ownSems0_none]
    have hsplit := Pipeline.arrays_of_unscopedBufs (p := 20) (pcfgs (F := F)) adm (pdats m ρ) launch20.win launch20.arr_whole c
      ((pdats m ρ 20 c).share_full fun _ => rfl) (E20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m ρ 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m ρ) ((pdats m ρ 20 c).share_full fun _ => rfl)
      (E20 m ρ c) (X20 m ρ c) ((pdats m ρ 20 c).arrAt · cfg20.N) (hF20 m ρ c) (hrest20 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg21.lean ====
/- Region 21 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg21 : Pipeline.RegionSeg (pcfgs (F := F)) adm (pdats m ρ) () defs₀ 𝒱₀ L lv 21 where
  win := launch21.win.to₀
  block_pos := launch21.block_pos
  stage_whole := launch21.stage_whole
  K := PEmpty
  osem k := k.elim
  ho := Pipeline.OwnSemFacts.none _
  hbody c := (body_obligation21 (E21 m ρ) c).loose
  hwaits := Pipeline.hwaits_of_owed_zero _ _ _ _ L lv 21 fun _ _ => rfl
  pre c := iprop(StableHlo.held (c : Thread nD τ) (Pipeline.ucRefs τ sig) (B45 m ρ c) ∗ R c)
  post c := iprop(StableHlo.held (c : Thread nD τ) (Pipeline.ucRefs τ sig) (B46 m ρ c) ∗ R c)
  X c := iprop(∃ r, prngReg c r)
  Y c := iprop(∃ r, prngReg c r)
  Z c := Pipeline.unscopedRest (Ix := Unit) (Name := ℕ) (U := UR sig nD τ) (Lvl := ℕ) spec21 c (E21 m ρ c)
  hentry c := by
    rw [Pipeline.ownSems0_none]
    have hsplit := Pipeline.arrays_of_unscopedBufs (p := 21) (pcfgs (F := F)) adm (pdats m ρ) launch21.win launch21.arr_whole c
      ((pdats m ρ 21 c).share_full fun _ => rfl) (E21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m ρ 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) adm (Ix := Unit) (Name := ℕ) (U := UR sig nD τ) (Lvl := ℕ)
      launch21.win launch21.arr_whole c (pdats m ρ) ((pdats m ρ 21 c).share_full fun _ => rfl)
      (E21 m ρ c) (X21 m ρ c) ((pdats m ρ 21 c).arrAt · cfg21.N) (hF21 m ρ c) (hrest21 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg22.lean ====
/- Region 22 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg22 : Pipeline.RegionSeg (pcfgs (F := F)) adm (pdats m ρ) () defs₀ 𝒱₀ L lv 22 where
  win := launch22.win.to₀
  block_pos := launch22.block_pos
  stage_whole := launch22.stage_whole
  K := PEmpty
  osem k := k.elim
  ho := Pipeline.OwnSemFacts.none _
  hbody c := (body_obligation22 (E22 m ρ) c).loose
  hwaits := Pipeline.hwaits_of_owed_zero _ _ _ _ L lv 22 fun _ _ => rfl
  pre c := iprop(StableHlo.held (c : Thread nD τ) (Pipeline.ucRefs τ sig) (B47 m ρ c) ∗ R c)
  post c := iprop(StableHlo.held (c : Thread nD τ) (Pipeline.ucRefs τ sig) (B48 m ρ c) ∗ R c)
  X c := iprop(∃ r, prngReg c r)
  Y c := iprop(∃ r, prngReg c r)
  Z c := Pipeline.unscopedRest (Ix := Unit) (Name := ℕ) (U := UR sig nD τ) (Lvl := ℕ) spec22 c (E22 m ρ c)
  hentry c := by
    rw [Pipeline.ownSems0_none]
    have hsplit := Pipeline.arrays_of_unscopedBufs (p := 22) (pcfgs (F := F)) adm (pdats m ρ) launch22.win launch22.arr_whole c
      ((pdats m ρ 22 c).share_full fun _ => rfl) (E22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec22 c ⊢ (pdats m ρ 22 c).Φ 0 from hin22 (E22 m ρ) c)
    unfold Pipeline.ΦA
    iintro ⟨Hp, -, Hr⟩
    isplitl [Hr]; · iexact Hr
    iexact Hp
  hout c := by
    rw [Pipeline.ownSems0_none]
    refine BI.Laws.entails_trans (show (pdats m ρ 22 c).Φ (Fin.last _) ⊢ Pipeline.ΦA spec22 c from hout22 (E22 m ρ) c) ?_
    unfold Pipeline.ΦA
    iintro ⟨Hr, Hp⟩
    isplitl [Hp]; · iexact Hp
    isplitr; · iempintro
    iexact Hr
  hexit c := by
    have hjoin := Pipeline.unscopedBufs_of_arrays (p := 22) (pcfgs (F := F)) adm (Ix := Unit) (Name := ℕ) (U := UR sig nD τ) (Lvl := ℕ)
      launch22.win launch22.arr_whole c (pdats m ρ) ((pdats m ρ 22 c).share_full fun _ => rfl)
      (E22 m ρ c) (X22 m ρ c) ((pdats m ρ 22 c).arrAt · cfg22.N) (hF22 m ρ c) (hrest22 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg23.lean ====
/- Region 23 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg23 : Pipeline.RegionSeg (pcfgs (F := F)) adm (pdats m ρ) () defs₀ 𝒱₀ L lv 23 where
  win := launch23.win.to₀
  block_pos := launch23.block_pos
  stage_whole := launch23.stage_whole
  K := PEmpty
  osem k := k.elim
  ho := Pipeline.OwnSemFacts.none _
  hbody c := (body_obligation23 (E23 m ρ) c).loose
  hwaits := Pipeline.hwaits_of_owed_zero _ _ _ _ L lv 23 fun _ _ => rfl
  pre c := iprop(StableHlo.held (c : Thread nD τ) (Pipeline.ucRefs τ sig) (B49 m ρ c) ∗ R c)
  post c := iprop(StableHlo.held (c : Thread nD τ) (Pipeline.ucRefs τ sig) (B50 m ρ c) ∗ R c)
  X c := iprop(∃ r, prngReg c r)
  Y c := iprop(∃ r, prngReg c r)
  Z c := Pipeline.unscopedRest (Ix := Unit) (Name := ℕ) (U := UR sig nD τ) (Lvl := ℕ) spec23 c (E23 m ρ c)
  hentry c := by
    rw [Pipeline.ownSems0_none]
    have hsplit := Pipeline.arrays_of_unscopedBufs (p := 23) (pcfgs (F := F)) adm (pdats m ρ) launch23.win launch23.arr_whole c
      ((pdats m ρ 23 c).share_full fun _ => rfl) (E23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec23 c ⊢ (pdats m ρ 23 c).Φ 0 from hin23 (E23 m ρ) c)
    unfold Pipeline.ΦA
    iintro ⟨Hp, -, Hr⟩
    isplitl [Hr]; · iexact Hr
    iexact Hp
  hout c := by
    rw [Pipeline.ownSems0_none]
    refine BI.Laws.entails_trans (show (pdats m ρ 23 c).Φ (Fin.last _) ⊢ Pipeline.ΦA spec23 c from hout23 (E23 m ρ) c) ?_
    unfold Pipeline.ΦA
    iintro ⟨Hr, Hp⟩
    isplitl [Hp]; · iexact Hp
    isplitr; · iempintro
    iexact Hr
  hexit c := by
    have hjoin := Pipeline.unscopedBufs_of_arrays (p := 23) (pcfgs (F := F)) adm (Ix := Unit) (Name := ℕ) (U := UR sig nD τ) (Lvl := ℕ)
      launch23.win launch23.arr_whole c (pdats m ρ) ((pdats m ρ 23 c).share_full fun _ => rfl)
      (E23 m ρ c) (X23 m ρ c) ((pdats m ρ 23 c).arrAt · cfg23.N) (hF23 m ρ c) (hrest23 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg24.lean ====
/- Region 24 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg24 : Pipeline.RegionSeg (pcfgs (F := F)) adm (pdats m ρ) () defs₀ 𝒱₀ L lv 24 where
  win := launch24.win.to₀
  block_pos := launch24.block_pos
  stage_whole := launch24.stage_whole
  K := PEmpty
  osem k := k.elim
  ho := Pipeline.OwnSemFacts.none _
  hbody c := (body_obligation24 (E24 m ρ) c).loose
  hwaits := Pipeline.hwaits_of_owed_zero _ _ _ _ L lv 24 fun _ _ => rfl
  pre c := iprop(StableHlo.held (c : Thread nD τ) (Pipeline.ucRefs τ sig) (B51 m ρ c) ∗ R c)
  post c := iprop(StableHlo.held (c : Thread nD τ) (Pipeline.ucRefs τ sig) (B52 m ρ c) ∗ R c)
  X c := iprop(∃ r, prngReg c r)
  Y c := iprop(∃ r, prngReg c r)
  Z c := Pipeline.unscopedRest (Ix := Unit) (Name := ℕ) (U := UR sig nD τ) (Lvl := ℕ) spec24 c (E24 m ρ c)
  hentry c := by
    rw [Pipeline.ownSems0_none]
    have hsplit := Pipeline.arrays_of_unscopedBufs (p := 24) (pcfgs (F := F)) adm (pdats m ρ) launch24.win launch24.arr_whole c
      ((pdats m ρ 24 c).share_full fun _ => rfl) (E24 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 24 c).Φ 0 = Pipeline.ΦA spec24 c from rfl]; unfold Pipeline.ΦA
    iintro ⟨Hp, -, Hr⟩
    isplitl [Hr]; · iexact Hr
    iexact Hp
  hout c := by
    rw [Pipeline.ownSems0_none, show (pdats m ρ 24 c).Φ (Fin.last _) = Pipeline.ΦA spec24 c from rfl]; unfold Pipeline.ΦA
    iintro ⟨Hr, Hp⟩
    isplitl [Hp]; · iexact Hp
    isplitr; · iempintro
    iexact Hr
  hexit c := by
    have hjoin := Pipeline.unscopedBufs_of_arrays (p := 24) (pcfgs (F := F)) adm (Ix := Unit) (Name := ℕ) (U := UR sig nD τ) (Lvl := ℕ)
      launch24.win launch24.arr_whole c (pdats m ρ) ((pdats m ρ 24 c).share_full fun _ => rfl)
      (E24 m ρ c) (X24 m ρ c) ((pdats m ρ 24 c).arrAt · cfg24.N) (hF24 m ρ c) (hrest24 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg25.lean ====
/- Region 25 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg25 : Pipeline.RegionSeg (pcfgs (F := F)) adm (pdats m ρ) () defs₀ 𝒱₀ L lv 25 where
  win := launch25.win.to₀
  block_pos := launch25.block_pos
  stage_whole := launch25.stage_whole
  K := PEmpty
  osem k := k.elim
  ho := Pipeline.OwnSemFacts.none _
  hbody c := (body_obligation25 (E25 m ρ) c).loose
  hwaits := Pipeline.hwaits_of_owed_zero _ _ _ _ L lv 25 fun _ _ => rfl
  pre c := iprop(StableHlo.held (c : Thread nD τ) (Pipeline.ucRefs τ sig) (B53 m ρ c) ∗ R c)
  post c := iprop(StableHlo.held (c : Thread nD τ) (Pipeline.ucRefs τ sig) (B54 m ρ c) ∗ R c)
  X c := iprop(∃ r, prngReg c r)
  Y c := iprop(∃ r, prngReg c r)
  Z c := Pipeline.unscopedRest (Ix := Unit) (Name := ℕ) (U := UR sig nD τ) (Lvl := ℕ) spec25 c (E25 m ρ c)
  hentry c := by
    rw [Pipeline.ownSems0_none]
    have hsplit := Pipeline.arrays_of_unscopedBufs (p := 25) (pcfgs (F := F)) adm (pdats m ρ) launch25.win launch25.arr_whole c
      ((pdats m ρ 25 c).share_full fun _ => rfl) (E25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 25 c).Φ 0 = Pipeline.ΦA spec25 c from rfl]; unfold Pipeline.ΦA
    iintro ⟨Hp, -, Hr⟩
    isplitl [Hr]; · iexact Hr
    iexact Hp
  hout c := by
    rw [Pipeline.ownSems0_none, show (pdats m ρ 25 c).Φ (Fin.last _) = Pipeline.ΦA spec25 c from rfl]; unfold Pipeline.ΦA
    iintro ⟨Hr, Hp⟩
    isplitl [Hp]; · iexact Hp
    isplitr; · iempintro
    iexact Hr
  hexit c := by
    have hjoin := Pipeline.unscopedBufs_of_arrays (p := 25) (pcfgs (F := F)) adm (Ix := Unit) (Name := ℕ) (U := UR sig nD τ) (Lvl := ℕ)
      launch25.win launch25.arr_whole c (pdats m ρ) ((pdats m ρ 25 c).share_full fun _ => rfl)
      (E25 m ρ c) (X25 m ρ c) ((pdats m ρ 25 c).arrAt · cfg25.N) (hF25 m ρ c) (hrest25 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg26.lean ====
/- Region 26 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg26 : Pipeline.RegionSeg (pcfgs (F := F)) adm (pdats m ρ) () defs₀ 𝒱₀ L lv 26 where
  win := launch26.win.to₀
  block_pos := launch26.block_pos
  stage_whole := launch26.stage_whole
  K := PEmpty
  osem k := k.elim
  ho := Pipeline.OwnSemFacts.none _
  hbody c := (body_obligation26 (E26 m ρ) c).loose
  hwaits := Pipeline.hwaits_of_owed_zero _ _ _ _ L lv 26 fun _ _ => rfl
  pre c := iprop(StableHlo.held (c : Thread nD τ) (Pipeline.ucRefs τ sig) (B55 m ρ c) ∗ R c)
  post c := iprop(StableHlo.held (c : Thread nD τ) (Pipeline.ucRefs τ sig) (B56 m ρ c) ∗ R c)
  X c := iprop(∃ r, prngReg c r)
  Y c := iprop(∃ r, prngReg c r)
  Z c := Pipeline.unscopedRest (Ix := Unit) (Name := ℕ) (U := UR sig nD τ) (Lvl := ℕ) spec26 c (E26 m ρ c)
  hentry c := by
    rw [Pipeline.ownSems0_none]
    have hsplit := Pipeline.arrays_of_unscopedBufs (p := 26) (pcfgs (F := F)) adm (pdats m ρ) launch26.win launch26.arr_whole c
      ((pdats m ρ 26 c).share_full fun _ => rfl) (E26 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec26 c ⊢ (pdats m ρ 26 c).Φ 0 from hin26 (E26 m ρ) c)
    unfold Pipeline.ΦA
    iintro ⟨Hp, -, Hr⟩
    isplitl [Hr]; · iexact Hr
    iexact Hp
  hout c := by
    rw [Pipeline.ownSems0_none]
    refine BI.Laws.entails_trans (show (pdats m ρ 26 c).Φ (Fin.last _) ⊢ Pipeline.ΦA spec26 c from hout26 (E26 m ρ) c) ?_
    unfold Pipeline.ΦA
    iintro ⟨Hr, Hp⟩
    isplitl [Hp]; · iexact Hp
    isplitr; · iempintro
    iexact Hr
  hexit c := by
    have hjoin := Pipeline.unscopedBufs_of_arrays (p := 26) (pcfgs (F := F)) adm (Ix := Unit) (Name := ℕ) (U := UR sig nD τ) (Lvl := ℕ)
      launch26.win launch26.arr_whole c (pdats m ρ) ((pdats m ρ 26 c).share_full fun _ => rfl)
      (E26 m ρ c) (X26 m ρ c) ((pdats m ρ 26 c).arrAt · cfg26.N) (hF26 m ρ c) (hrest26 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg27.lean ====
/- Region 27 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg27 : Pipeline.RegionSeg (pcfgs (F := F)) adm (pdats m ρ) () defs₀ 𝒱₀ L lv 27 where
  win := launch27.win.to₀
  block_pos := launch27.block_pos
  stage_whole := launch27.stage_whole
  K := PEmpty
  osem k := k.elim
  ho := Pipeline.OwnSemFacts.none _
  hbody c := (body_obligation27 (E27 m ρ) c).loose
  hwaits := Pipeline.hwaits_of_owed_zero _ _ _ _ L lv 27 fun _ _ => rfl
  pre c := iprop(StableHlo.held (c : Thread nD τ) (Pipeline.ucRefs τ sig) (B57 m ρ c) ∗ R c)
  post c := iprop(StableHlo.held (c : Thread nD τ) (Pipeline.ucRefs τ sig) (B58 m ρ c) ∗ R c)
  X c := iprop(∃ r, prngReg c r)
  Y c := iprop(∃ r, prngReg c r)
  Z c := Pipeline.unscopedRest (Ix := Unit) (Name := ℕ) (U := UR sig nD τ) (Lvl := ℕ) spec27 c (E27 m ρ c)
  hentry c := by
    rw [Pipeline.ownSems0_none]
    have hsplit := Pipeline.arrays_of_unscopedBufs (p := 27) (pcfgs (F := F)) adm (pdats m ρ) launch27.win launch27.arr_whole c
      ((pdats m ρ 27 c).share_full fun _ => rfl) (E27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec27 c ⊢ (pdats m ρ 27 c).Φ 0 from hin27 (E27 m ρ) c)
    unfold Pipeline.ΦA
    iintro ⟨Hp, -, Hr⟩
    isplitl [Hr]; · iexact Hr
    iexact Hp
  hout c := by
    rw [Pipeline.ownSems0_none]
    refine BI.Laws.entails_trans (show (pdats m ρ 27 c).Φ (Fin.last _) ⊢ Pipeline.ΦA spec27 c from hout27 (E27 m ρ) c) ?_
    unfold Pipeline.ΦA
    iintro ⟨Hr, Hp⟩
    isplitl [Hp]; · iexact Hp
    isplitr; · iempintro
    iexact Hr
  hexit c := by
    have hjoin := Pipeline.unscopedBufs_of_arrays (p := 27) (pcfgs (F := F)) adm (Ix := Unit) (Name := ℕ) (U := UR sig nD τ) (Lvl := ℕ)
      launch27.win launch27.arr_whole c (pdats m ρ) ((pdats m ρ 27 c).share_full fun _ => rfl)
      (E27 m ρ c) (X27 m ρ c) ((pdats m ρ 27 c).arrAt · cfg27.N) (hF27 m ρ c) (hrest27 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg28.lean ====
/- Region 28 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg28 : Pipeline.RegionSeg (pcfgs (F := F)) adm (pdats m ρ) () defs₀ 𝒱₀ L lv 28 where
  win := launch28.win.to₀
  block_pos := launch28.block_pos
  stage_whole := launch28.stage_whole
  K := PEmpty
  osem k := k.elim
  ho := Pipeline.OwnSemFacts.none _
  hbody c := (body_obligation28 (E28 m ρ) c).loose
  hwaits := Pipeline.hwaits_of_owed_zero _ _ _ _ L lv 28 fun _ _ => rfl
  pre c := iprop(StableHlo.held (c : Thread nD τ) (Pipeline.ucRefs τ sig) (B59 m ρ c) ∗ R c)
  post c := iprop(StableHlo.held (c : Thread nD τ) (Pipeline.ucRefs τ sig) (B60 m ρ c) ∗ R c)
  X c := iprop(∃ r, prngReg c r)
  Y c := iprop(∃ r, prngReg c r)
  Z c := Pipeline.unscopedRest (Ix := Unit) (Name := ℕ) (U := UR sig nD τ) (Lvl := ℕ) spec28 c (E28 m ρ c)
  hentry c := by
    rw [Pipeline.ownSems0_none]
    have hsplit := Pipeline.arrays_of_unscopedBufs (p := 28) (pcfgs (F := F)) adm (pdats m ρ) launch28.win launch28.arr_whole c
      ((pdats m ρ 28 c).share_full fun _ => rfl) (E28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 28 c).Φ 0 = Pipeline.ΦA spec28 c from rfl]; unfold Pipeline.ΦA
    iintro ⟨Hp, -, Hr⟩
    isplitl [Hr]; · iexact Hr
    iexact Hp
  hout c := by
    rw [Pipeline.ownSems0_none, show (pdats m ρ 28 c).Φ (Fin.last _) = Pipeline.ΦA spec28 c from rfl]; unfold Pipeline.ΦA
    iintro ⟨Hr, Hp⟩
    isplitl [Hp]; · iexact Hp
    isplitr; · iempintro
    iexact Hr
  hexit c := by
    have hjoin := Pipeline.unscopedBufs_of_arrays (p := 28) (pcfgs (F := F)) adm (Ix := Unit) (Name := ℕ) (U := UR sig nD τ) (Lvl := ℕ)
      launch28.win launch28.arr_whole c (pdats m ρ) ((pdats m ρ 28 c).share_full fun _ => rfl)
      (E28 m ρ c) (X28 m ρ c) ((pdats m ρ 28 c).arrAt · cfg28.N) (hF28 m ρ c) (hrest28 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg29.lean ====
/- Region 29 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg29 : Pipeline.RegionSeg (pcfgs (F := F)) adm (pdats m ρ) () defs₀ 𝒱₀ L lv 29 where
  win := launch29.win.to₀
  block_pos := launch29.block_pos
  stage_whole := launch29.stage_whole
  K := PEmpty
  osem k := k.elim
  ho := Pipeline.OwnSemFacts.none _
  hbody c := (body_obligation29 (E29 m ρ) c).loose
  hwaits := Pipeline.hwaits_of_owed_zero _ _ _ _ L lv 29 fun _ _ => rfl
  pre c := iprop(StableHlo.held (c : Thread nD τ) (Pipeline.ucRefs τ sig) (B61 m ρ c) ∗ R c)
  post c := iprop(StableHlo.held (c : Thread nD τ) (Pipeline.ucRefs τ sig) (B62 m ρ c) ∗ R c)
  X c := iprop(∃ r, prngReg c r)
  Y c := iprop(∃ r, prngReg c r)
  Z c := Pipeline.unscopedRest (Ix := Unit) (Name := ℕ) (U := UR sig nD τ) (Lvl := ℕ) spec29 c (E29 m ρ c)
  hentry c := by
    rw [Pipeline.ownSems0_none]
    have hsplit := Pipeline.arrays_of_unscopedBufs (p := 29) (pcfgs (F := F)) adm (pdats m ρ) launch29.win launch29.arr_whole c
      ((pdats m ρ 29 c).share_full fun _ => rfl) (E29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 29 c).Φ 0 = Pipeline.ΦA spec29 c from rfl]; unfold Pipeline.ΦA
    iintro ⟨Hp, -, Hr⟩
    isplitl [Hr]; · iexact Hr
    iexact Hp
  hout c := by
    rw [Pipeline.ownSems0_none, show (pdats m ρ 29 c).Φ (Fin.last _) = Pipeline.ΦA spec29 c from rfl]; unfold Pipeline.ΦA
    iintro ⟨Hr, Hp⟩
    isplitl [Hp]; · iexact Hp
    isplitr; · iempintro
    iexact Hr
  hexit c := by
    have hjoin := Pipeline.unscopedBufs_of_arrays (p := 29) (pcfgs (F := F)) adm (Ix := Unit) (Name := ℕ) (U := UR sig nD τ) (Lvl := ℕ)
      launch29.win launch29.arr_whole c (pdats m ρ) ((pdats m ρ 29 c).share_full fun _ => rfl)
      (E29 m ρ c) (X29 m ρ c) ((pdats m ρ 29 c).arrAt · cfg29.N) (hF29 m ρ c) (hrest29 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg30.lean ====
/- Region 30 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg30 : Pipeline.RegionSeg (pcfgs (F := F)) adm (pdats m ρ) () defs₀ 𝒱₀ L lv 30 where
  win := launch30.win.to₀
  block_pos := launch30.block_pos
  stage_whole := launch30.stage_whole
  K := PEmpty
  osem k := k.elim
  ho := Pipeline.OwnSemFacts.none _
  hbody c := (body_obligation30 (E30 m ρ) c).loose
  hwaits := Pipeline.hwaits_of_owed_zero _ _ _ _ L lv 30 fun _ _ => rfl
  pre c := iprop(StableHlo.held (c : Thread nD τ) (Pipeline.ucRefs τ sig) (B63 m ρ c) ∗ R c)
  post c := iprop(StableHlo.held (c : Thread nD τ) (Pipeline.ucRefs τ sig) (B64 m ρ c) ∗ R c)
  X c := iprop(∃ r, prngReg c r)
  Y c := iprop(∃ r, prngReg c r)
  Z c := Pipeline.unscopedRest (Ix := Unit) (Name := ℕ) (U := UR sig nD τ) (Lvl := ℕ) spec30 c (E30 m ρ c)
  hentry c := by
    rw [Pipeline.ownSems0_none]
    have hsplit := Pipeline.arrays_of_unscopedBufs (p := 30) (pcfgs (F := F)) adm (pdats m ρ) launch30.win launch30.arr_whole c
      ((pdats m ρ 30 c).share_full fun _ => rfl) (E30 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec30 c ⊢ (pdats m ρ 30 c).Φ 0 from hin30 (E30 m ρ) c)
    unfold Pipeline.ΦA
    iintro ⟨Hp, -, Hr⟩
    isplitl [Hr]; · iexact Hr
    iexact Hp
  hout c := by
    rw [Pipeline.ownSems0_none]
    refine BI.Laws.entails_trans (show (pdats m ρ 30 c).Φ (Fin.last _) ⊢ Pipeline.ΦA spec30 c from hout30 (E30 m ρ) c) ?_
    unfold Pipeline.ΦA
    iintro ⟨Hr, Hp⟩
    isplitl [Hp]; · iexact Hp
    isplitr; · iempintro
    iexact Hr
  hexit c := by
    have hjoin := Pipeline.unscopedBufs_of_arrays (p := 30) (pcfgs (F := F)) adm (Ix := Unit) (Name := ℕ) (U := UR sig nD τ) (Lvl := ℕ)
      launch30.win launch30.arr_whole c (pdats m ρ) ((pdats m ρ 30 c).share_full fun _ => rfl)
      (E30 m ρ c) (X30 m ρ c) ((pdats m ρ 30 c).arrAt · cfg30.N) (hF30 m ρ c) (hrest30 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg31.lean ====
/- Region 31 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg31 : Pipeline.RegionSeg (pcfgs (F := F)) adm (pdats m ρ) () defs₀ 𝒱₀ L lv 31 where
  win := launch31.win.to₀
  block_pos := launch31.block_pos
  stage_whole := launch31.stage_whole
  K := PEmpty
  osem k := k.elim
  ho := Pipeline.OwnSemFacts.none _
  hbody c := (body_obligation31 (E31 m ρ) c).loose
  hwaits := Pipeline.hwaits_of_owed_zero _ _ _ _ L lv 31 fun _ _ => rfl
  pre c := iprop(StableHlo.held (c : Thread nD τ) (Pipeline.ucRefs τ sig) (B65 m ρ c) ∗ R c)
  post c := iprop(StableHlo.held (c : Thread nD τ) (Pipeline.ucRefs τ sig) (B66 m ρ c) ∗ R c)
  X c := iprop(∃ r, prngReg c r)
  Y c := iprop(∃ r, prngReg c r)
  Z c := Pipeline.unscopedRest (Ix := Unit) (Name := ℕ) (U := UR sig nD τ) (Lvl := ℕ) spec31 c (E31 m ρ c)
  hentry c := by
    rw [Pipeline.ownSems0_none]
    have hsplit := Pipeline.arrays_of_unscopedBufs (p := 31) (pcfgs (F := F)) adm (pdats m ρ) launch31.win launch31.arr_whole c
      ((pdats m ρ 31 c).share_full fun _ => rfl) (E31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec31 c ⊢ (pdats m ρ 31 c).Φ 0 from hin31 (E31 m ρ) c)
    unfold Pipeline.ΦA
    iintro ⟨Hp, -, Hr⟩
    isplitl [Hr]; · iexact Hr
    iexact Hp
  hout c := by
    rw [Pipeline.ownSems0_none]
    refine BI.Laws.entails_trans (show (pdats m ρ 31 c).Φ (Fin.last _) ⊢ Pipeline.ΦA spec31 c from hout31 (E31 m ρ) c) ?_
    unfold Pipeline.ΦA
    iintro ⟨Hr, Hp⟩
    isplitl [Hp]; · iexact Hp
    isplitr; · iempintro
    iexact Hr
  hexit c := by
    have hjoin := Pipeline.unscopedBufs_of_arrays (p := 31) (pcfgs (F := F)) adm (Ix := Unit) (Name := ℕ) (U := UR sig nD τ) (Lvl := ℕ)
      launch31.win launch31.arr_whole c (pdats m ρ) ((pdats m ρ 31 c).share_full fun _ => rfl)
      (E31 m ρ c) (X31 m ρ c) ((pdats m ρ 31 c).arrAt · cfg31.N) (hF31 m ρ c) (hrest31 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg32.lean ====
/- Region 32 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg32 : Pipeline.RegionSeg (pcfgs (F := F)) adm (pdats m ρ) () defs₀ 𝒱₀ L lv 32 where
  win := launch32.win.to₀
  block_pos := launch32.block_pos
  stage_whole := launch32.stage_whole
  K := PEmpty
  osem k := k.elim
  ho := Pipeline.OwnSemFacts.none _
  hbody c := (body_obligation32 (E32 m ρ) c).loose
  hwaits := Pipeline.hwaits_of_owed_zero _ _ _ _ L lv 32 fun _ _ => rfl
  pre c := iprop(StableHlo.held (c : Thread nD τ) (Pipeline.ucRefs τ sig) (B67 m ρ c) ∗ R c)
  post c := iprop(StableHlo.held (c : Thread nD τ) (Pipeline.ucRefs τ sig) (B68 m ρ c) ∗ R c)
  X c := iprop(∃ r, prngReg c r)
  Y c := iprop(∃ r, prngReg c r)
  Z c := Pipeline.unscopedRest (Ix := Unit) (Name := ℕ) (U := UR sig nD τ) (Lvl := ℕ) spec32 c (E32 m ρ c)
  hentry c := by
    rw [Pipeline.ownSems0_none]
    have hsplit := Pipeline.arrays_of_unscopedBufs (p := 32) (pcfgs (F := F)) adm (pdats m ρ) launch32.win launch32.arr_whole c
      ((pdats m ρ 32 c).share_full fun _ => rfl) (E32 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 32 c).Φ 0 = Pipeline.ΦA spec32 c from rfl]; unfold Pipeline.ΦA
    iintro ⟨Hp, -, Hr⟩
    isplitl [Hr]; · iexact Hr
    iexact Hp
  hout c := by
    rw [Pipeline.ownSems0_none, show (pdats m ρ 32 c).Φ (Fin.last _) = Pipeline.ΦA spec32 c from rfl]; unfold Pipeline.ΦA
    iintro ⟨Hr, Hp⟩
    isplitl [Hp]; · iexact Hp
    isplitr; · iempintro
    iexact Hr
  hexit c := by
    have hjoin := Pipeline.unscopedBufs_of_arrays (p := 32) (pcfgs (F := F)) adm (Ix := Unit) (Name := ℕ) (U := UR sig nD τ) (Lvl := ℕ)
      launch32.win launch32.arr_whole c (pdats m ρ) ((pdats m ρ 32 c).share_full fun _ => rfl)
      (E32 m ρ c) (X32 m ρ c) ((pdats m ρ 32 c).arrAt · cfg32.N) (hF32 m ρ c) (hrest32 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg33.lean ====
/- Region 33 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg33 : Pipeline.RegionSeg (pcfgs (F := F)) adm (pdats m ρ) () defs₀ 𝒱₀ L lv 33 where
  win := launch33.win.to₀
  block_pos := launch33.block_pos
  stage_whole := launch33.stage_whole
  K := PEmpty
  osem k := k.elim
  ho := Pipeline.OwnSemFacts.none _
  hbody c := (body_obligation33 (E33 m ρ) c).loose
  hwaits := Pipeline.hwaits_of_owed_zero _ _ _ _ L lv 33 fun _ _ => rfl
  pre c := iprop(StableHlo.held (c : Thread nD τ) (Pipeline.ucRefs τ sig) (B69 m ρ c) ∗ R c)
  post c := iprop(StableHlo.held (c : Thread nD τ) (Pipeline.ucRefs τ sig) (B70 m ρ c) ∗ R c)
  X c := iprop(∃ r, prngReg c r)
  Y c := iprop(∃ r, prngReg c r)
  Z c := Pipeline.unscopedRest (Ix := Unit) (Name := ℕ) (U := UR sig nD τ) (Lvl := ℕ) spec33 c (E33 m ρ c)
  hentry c := by
    rw [Pipeline.ownSems0_none]
    have hsplit := Pipeline.arrays_of_unscopedBufs (p := 33) (pcfgs (F := F)) adm (pdats m ρ) launch33.win launch33.arr_whole c
      ((pdats m ρ 33 c).share_full fun _ => rfl) (E33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 33 c).Φ 0 = Pipeline.ΦA spec33 c from rfl]; unfold Pipeline.ΦA
    iintro ⟨Hp, -, Hr⟩
    isplitl [Hr]; · iexact Hr
    iexact Hp
  hout c := by
    rw [Pipeline.ownSems0_none, show (pdats m ρ 33 c).Φ (Fin.last _) = Pipeline.ΦA spec33 c from rfl]; unfold Pipeline.ΦA
    iintro ⟨Hr, Hp⟩
    isplitl [Hp]; · iexact Hp
    isplitr; · iempintro
    iexact Hr
  hexit c := by
    have hjoin := Pipeline.unscopedBufs_of_arrays (p := 33) (pcfgs (F := F)) adm (Ix := Unit) (Name := ℕ) (U := UR sig nD τ) (Lvl := ℕ)
      launch33.win launch33.arr_whole c (pdats m ρ) ((pdats m ρ 33 c).share_full fun _ => rfl)
      (E33 m ρ c) (X33 m ρ c) ((pdats m ρ 33 c).arrAt · cfg33.N) (hF33 m ρ c) (hrest33 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg34.lean ====
/- Region 34 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg34 : Pipeline.RegionSeg (pcfgs (F := F)) adm (pdats m ρ) () defs₀ 𝒱₀ L lv 34 where
  win := launch34.win.to₀
  block_pos := launch34.block_pos
  stage_whole := launch34.stage_whole
  K := PEmpty
  osem k := k.elim
  ho := Pipeline.OwnSemFacts.none _
  hbody c := (body_obligation34 (E34 m ρ) c).loose
  hwaits := Pipeline.hwaits_of_owed_zero _ _ _ _ L lv 34 fun _ _ => rfl
  pre c := iprop(StableHlo.held (c : Thread nD τ) (Pipeline.ucRefs τ sig) (B71 m ρ c) ∗ R c)
  post c := iprop(StableHlo.held (c : Thread nD τ) (Pipeline.ucRefs τ sig) (B72 m ρ c) ∗ R c)
  X c := iprop(∃ r, prngReg c r)
  Y c := iprop(∃ r, prngReg c r)
  Z c := Pipeline.unscopedRest (Ix := Unit) (Name := ℕ) (U := UR sig nD τ) (Lvl := ℕ) spec34 c (E34 m ρ c)
  hentry c := by
    rw [Pipeline.ownSems0_none]
    have hsplit := Pipeline.arrays_of_unscopedBufs (p := 34) (pcfgs (F := F)) adm (pdats m ρ) launch34.win launch34.arr_whole c
      ((pdats m ρ 34 c).share_full fun _ => rfl) (E34 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec34 c ⊢ (pdats m ρ 34 c).Φ 0 from hin34 (E34 m ρ) c)
    unfold Pipeline.ΦA
    iintro ⟨Hp, -, Hr⟩
    isplitl [Hr]; · iexact Hr
    iexact Hp
  hout c := by
    rw [Pipeline.ownSems0_none]
    refine BI.Laws.entails_trans (show (pdats m ρ 34 c).Φ (Fin.last _) ⊢ Pipeline.ΦA spec34 c from hout34 (E34 m ρ) c) ?_
    unfold Pipeline.ΦA
    iintro ⟨Hr, Hp⟩
    isplitl [Hp]; · iexact Hp
    isplitr; · iempintro
    iexact Hr
  hexit c := by
    have hjoin := Pipeline.unscopedBufs_of_arrays (p := 34) (pcfgs (F := F)) adm (Ix := Unit) (Name := ℕ) (U := UR sig nD τ) (Lvl := ℕ)
      launch34.win launch34.arr_whole c (pdats m ρ) ((pdats m ρ 34 c).share_full fun _ => rfl)
      (E34 m ρ c) (X34 m ρ c) ((pdats m ρ 34 c).arrAt · cfg34.N) (hF34 m ρ c) (hrest34 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg35.lean ====
/- Region 35 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg35 : Pipeline.RegionSeg (pcfgs (F := F)) adm (pdats m ρ) () defs₀ 𝒱₀ L lv 35 where
  win := launch35.win.to₀
  block_pos := launch35.block_pos
  stage_whole := launch35.stage_whole
  K := PEmpty
  osem k := k.elim
  ho := Pipeline.OwnSemFacts.none _
  hbody c := (body_obligation35 (E35 m ρ) c).loose
  hwaits := Pipeline.hwaits_of_owed_zero _ _ _ _ L lv 35 fun _ _ => rfl
  pre c := iprop(StableHlo.held (c : Thread nD τ) (Pipeline.ucRefs τ sig) (B73 m ρ c) ∗ R c)
  post c := iprop(StableHlo.held (c : Thread nD τ) (Pipeline.ucRefs τ sig) (B74 m ρ c) ∗ R c)
  X c := iprop(∃ r, prngReg c r)
  Y c := iprop(∃ r, prngReg c r)
  Z c := Pipeline.unscopedRest (Ix := Unit) (Name := ℕ) (U := UR sig nD τ) (Lvl := ℕ) spec35 c (E35 m ρ c)
  hentry c := by
    rw [Pipeline.ownSems0_none]
    have hsplit := Pipeline.arrays_of_unscopedBufs (p := 35) (pcfgs (F := F)) adm (pdats m ρ) launch35.win launch35.arr_whole c
      ((pdats m ρ 35 c).share_full fun _ => rfl) (E35 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec35 c ⊢ (pdats m ρ 35 c).Φ 0 from hin35 (E35 m ρ) c)
    unfold Pipeline.ΦA
    iintro ⟨Hp, -, Hr⟩
    isplitl [Hr]; · iexact Hr
    iexact Hp
  hout c := by
    rw [Pipeline.ownSems0_none]
    refine BI.Laws.entails_trans (show (pdats m ρ 35 c).Φ (Fin.last _) ⊢ Pipeline.ΦA spec35 c from hout35 (E35 m ρ) c) ?_
    unfold Pipeline.ΦA
    iintro ⟨Hr, Hp⟩
    isplitl [Hp]; · iexact Hp
    isplitr; · iempintro
    iexact Hr
  hexit c := by
    have hjoin := Pipeline.unscopedBufs_of_arrays (p := 35) (pcfgs (F := F)) adm (Ix := Unit) (Name := ℕ) (U := UR sig nD τ) (Lvl := ℕ)
      launch35.win launch35.arr_whole c (pdats m ρ) ((pdats m ρ 35 c).share_full fun _ => rfl)
      (E35 m ρ c) (X35 m ρ c) ((pdats m ρ 35 c).arrAt · cfg35.N) (hF35 m ρ c) (hrest35 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg36.lean ====
/- Region 36 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg36 : Pipeline.RegionSeg (pcfgs (F := F)) adm (pdats m ρ) () defs₀ 𝒱₀ L lv 36 where
  win := launch36.win.to₀
  block_pos := launch36.block_pos
  stage_whole := launch36.stage_whole
  K := PEmpty
  osem k := k.elim
  ho := Pipeline.OwnSemFacts.none _
  hbody c := (body_obligation36 (E36 m ρ) c).loose
  hwaits := Pipeline.hwaits_of_owed_zero _ _ _ _ L lv 36 fun _ _ => rfl
  pre c := iprop(StableHlo.held (c : Thread nD τ) (Pipeline.ucRefs τ sig) (B75 m ρ c) ∗ R c)
  post c := iprop(StableHlo.held (c : Thread nD τ) (Pipeline.ucRefs τ sig) (B76 m ρ c) ∗ R c)
  X c := iprop(∃ r, prngReg c r)
  Y c := iprop(∃ r, prngReg c r)
  Z c := Pipeline.unscopedRest (Ix := Unit) (Name := ℕ) (U := UR sig nD τ) (Lvl := ℕ) spec36 c (E36 m ρ c)
  hentry c := by
    rw [Pipeline.ownSems0_none]
    have hsplit := Pipeline.arrays_of_unscopedBufs (p := 36) (pcfgs (F := F)) adm (pdats m ρ) launch36.win launch36.arr_whole c
      ((pdats m ρ 36 c).share_full fun _ => rfl) (E36 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 36 c).Φ 0 = Pipeline.ΦA spec36 c from rfl]; unfold Pipeline.ΦA
    iintro ⟨Hp, -, Hr⟩
    isplitl [Hr]; · iexact Hr
    iexact Hp
  hout c := by
    rw [Pipeline.ownSems0_none, show (pdats m ρ 36 c).Φ (Fin.last _) = Pipeline.ΦA spec36 c from rfl]; unfold Pipeline.ΦA
    iintro ⟨Hr, Hp⟩
    isplitl [Hp]; · iexact Hp
    isplitr; · iempintro
    iexact Hr
  hexit c := by
    have hjoin := Pipeline.unscopedBufs_of_arrays (p := 36) (pcfgs (F := F)) adm (Ix := Unit) (Name := ℕ) (U := UR sig nD τ) (Lvl := ℕ)
      launch36.win launch36.arr_whole c (pdats m ρ) ((pdats m ρ 36 c).share_full fun _ => rfl)
      (E36 m ρ c) (X36 m ρ c) ((pdats m ρ 36 c).arrAt · cfg36.N) (hF36 m ρ c) (hrest36 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg37.lean ====
/- Region 37 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg37 : Pipeline.RegionSeg (pcfgs (F := F)) adm (pdats m ρ) () defs₀ 𝒱₀ L lv 37 where
  win := launch37.win.to₀
  block_pos := launch37.block_pos
  stage_whole := launch37.stage_whole
  K := PEmpty
  osem k := k.elim
  ho := Pipeline.OwnSemFacts.none _
  hbody c := (body_obligation37 (E37 m ρ) c).loose
  hwaits := Pipeline.hwaits_of_owed_zero _ _ _ _ L lv 37 fun _ _ => rfl
  pre c := iprop(StableHlo.held (c : Thread nD τ) (Pipeline.ucRefs τ sig) (B77 m ρ c) ∗ R c)
  post c := iprop(StableHlo.held (c : Thread nD τ) (Pipeline.ucRefs τ sig) (B78 m ρ c) ∗ R c)
  X c := iprop(∃ r, prngReg c r)
  Y c := iprop(∃ r, prngReg c r)
  Z c := Pipeline.unscopedRest (Ix := Unit) (Name := ℕ) (U := UR sig nD τ) (Lvl := ℕ) spec37 c (E37 m ρ c)
  hentry c := by
    rw [Pipeline.ownSems0_none]
    have hsplit := Pipeline.arrays_of_unscopedBufs (p := 37) (pcfgs (F := F)) adm (pdats m ρ) launch37.win launch37.arr_whole c
      ((pdats m ρ 37 c).share_full fun _ => rfl) (E37 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 37 c).Φ 0 = Pipeline.ΦA spec37 c from rfl]; unfold Pipeline.ΦA
    iintro ⟨Hp, -, Hr⟩
    isplitl [Hr]; · iexact Hr
    iexact Hp
  hout c := by
    rw [Pipeline.ownSems0_none, show (pdats m ρ 37 c).Φ (Fin.last _) = Pipeline.ΦA spec37 c from rfl]; unfold Pipeline.ΦA
    iintro ⟨Hr, Hp⟩
    isplitl [Hp]; · iexact Hp
    isplitr; · iempintro
    iexact Hr
  hexit c := by
    have hjoin := Pipeline.unscopedBufs_of_arrays (p := 37) (pcfgs (F := F)) adm (Ix := Unit) (Name := ℕ) (U := UR sig nD τ) (Lvl := ℕ)
      launch37.win launch37.arr_whole c (pdats m ρ) ((pdats m ρ 37 c).share_full fun _ => rfl)
      (E37 m ρ c) (X37 m ρ c) ((pdats m ρ 37 c).arrAt · cfg37.N) (hF37 m ρ c) (hrest37 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg38.lean ====
/- Region 38 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg38 : Pipeline.RegionSeg (pcfgs (F := F)) adm (pdats m ρ) () defs₀ 𝒱₀ L lv 38 where
  win := launch38.win.to₀
  block_pos := launch38.block_pos
  stage_whole := launch38.stage_whole
  K := PEmpty
  osem k := k.elim
  ho := Pipeline.OwnSemFacts.none _
  hbody c := (body_obligation38 (E38 m ρ) c).loose
  hwaits := Pipeline.hwaits_of_owed_zero _ _ _ _ L lv 38 fun _ _ => rfl
  pre c := iprop(StableHlo.held (c : Thread nD τ) (Pipeline.ucRefs τ sig) (B79 m ρ c) ∗ R c)
  post c := iprop(StableHlo.held (c : Thread nD τ) (Pipeline.ucRefs τ sig) (B80 m ρ c) ∗ R c)
  X c := iprop(∃ r, prngReg c r)
  Y c := iprop(∃ r, prngReg c r)
  Z c := Pipeline.unscopedRest (Ix := Unit) (Name := ℕ) (U := UR sig nD τ) (Lvl := ℕ) spec38 c (E38 m ρ c)
  hentry c := by
    rw [Pipeline.ownSems0_none]
    have hsplit := Pipeline.arrays_of_unscopedBufs (p := 38) (pcfgs (F := F)) adm (pdats m ρ) launch38.win launch38.arr_whole c
      ((pdats m ρ 38 c).share_full fun _ => rfl) (E38 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec38 c ⊢ (pdats m ρ 38 c).Φ 0 from hin38 (E38 m ρ) c)
    unfold Pipeline.ΦA
    iintro ⟨Hp, -, Hr⟩
    isplitl [Hr]; · iexact Hr
    iexact Hp
  hout c := by
    rw [Pipeline.ownSems0_none]
    refine BI.Laws.entails_trans (show (pdats m ρ 38 c).Φ (Fin.last _) ⊢ Pipeline.ΦA spec38 c from hout38 (E38 m ρ) c) ?_
    unfold Pipeline.ΦA
    iintro ⟨Hr, Hp⟩
    isplitl [Hp]; · iexact Hp
    isplitr; · iempintro
    iexact Hr
  hexit c := by
    have hjoin := Pipeline.unscopedBufs_of_arrays (p := 38) (pcfgs (F := F)) adm (Ix := Unit) (Name := ℕ) (U := UR sig nD τ) (Lvl := ℕ)
      launch38.win launch38.arr_whole c (pdats m ρ) ((pdats m ρ 38 c).share_full fun _ => rfl)
      (E38 m ρ c) (X38 m ρ c) ((pdats m ρ 38 c).arrAt · cfg38.N) (hF38 m ρ c) (hrest38 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg39.lean ====
/- Region 39 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg39 : Pipeline.RegionSeg (pcfgs (F := F)) adm (pdats m ρ) () defs₀ 𝒱₀ L lv 39 where
  win := launch39.win.to₀
  block_pos := launch39.block_pos
  stage_whole := launch39.stage_whole
  K := PEmpty
  osem k := k.elim
  ho := Pipeline.OwnSemFacts.none _
  hbody c := (body_obligation39 (E39 m ρ) c).loose
  hwaits := Pipeline.hwaits_of_owed_zero _ _ _ _ L lv 39 fun _ _ => rfl
  pre c := iprop(StableHlo.held (c : Thread nD τ) (Pipeline.ucRefs τ sig) (B81 m ρ c) ∗ R c)
  post c := iprop(StableHlo.held (c : Thread nD τ) (Pipeline.ucRefs τ sig) (B82 m ρ c) ∗ R c)
  X c := iprop(∃ r, prngReg c r)
  Y c := iprop(∃ r, prngReg c r)
  Z c := Pipeline.unscopedRest (Ix := Unit) (Name := ℕ) (U := UR sig nD τ) (Lvl := ℕ) spec39 c (E39 m ρ c)
  hentry c := by
    rw [Pipeline.ownSems0_none]
    have hsplit := Pipeline.arrays_of_unscopedBufs (p := 39) (pcfgs (F := F)) adm (pdats m ρ) launch39.win launch39.arr_whole c
      ((pdats m ρ 39 c).share_full fun _ => rfl) (E39 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec39 c ⊢ (pdats m ρ 39 c).Φ 0 from hin39 (E39 m ρ) c)
    unfold Pipeline.ΦA
    iintro ⟨Hp, -, Hr⟩
    isplitl [Hr]; · iexact Hr
    iexact Hp
  hout c := by
    rw [Pipeline.ownSems0_none]
    refine BI.Laws.entails_trans (show (pdats m ρ 39 c).Φ (Fin.last _) ⊢ Pipeline.ΦA spec39 c from hout39 (E39 m ρ) c) ?_
    unfold Pipeline.ΦA
    iintro ⟨Hr, Hp⟩
    isplitl [Hp]; · iexact Hp
    isplitr; · iempintro
    iexact Hr
  hexit c := by
    have hjoin := Pipeline.unscopedBufs_of_arrays (p := 39) (pcfgs (F := F)) adm (Ix := Unit) (Name := ℕ) (U := UR sig nD τ) (Lvl := ℕ)
      launch39.win launch39.arr_whole c (pdats m ρ) ((pdats m ρ 39 c).share_full fun _ => rfl)
      (E39 m ρ c) (X39 m ρ c) ((pdats m ρ 39 c).arrAt · cfg39.N) (hF39 m ρ c) (hrest39 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg40.lean ====
/- Region 40 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg40 : Pipeline.RegionSeg (pcfgs (F := F)) adm (pdats m ρ) () defs₀ 𝒱₀ L lv 40 where
  win := launch40.win.to₀
  block_pos := launch40.block_pos
  stage_whole := launch40.stage_whole
  K := PEmpty
  osem k := k.elim
  ho := Pipeline.OwnSemFacts.none _
  hbody c := (body_obligation40 (E40 m ρ) c).loose
  hwaits := Pipeline.hwaits_of_owed_zero _ _ _ _ L lv 40 fun _ _ => rfl
  pre c := iprop(StableHlo.held (c : Thread nD τ) (Pipeline.ucRefs τ sig) (B83 m ρ c) ∗ R c)
  post c := iprop(StableHlo.held (c : Thread nD τ) (Pipeline.ucRefs τ sig) (B84 m ρ c) ∗ R c)
  X c := iprop(∃ r, prngReg c r)
  Y c := iprop(∃ r, prngReg c r)
  Z c := Pipeline.unscopedRest (Ix := Unit) (Name := ℕ) (U := UR sig nD τ) (Lvl := ℕ) spec40 c (E40 m ρ c)
  hentry c := by
    rw [Pipeline.ownSems0_none]
    have hsplit := Pipeline.arrays_of_unscopedBufs (p := 40) (pcfgs (F := F)) adm (pdats m ρ) launch40.win launch40.arr_whole c
      ((pdats m ρ 40 c).share_full fun _ => rfl) (E40 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 40 c).Φ 0 = Pipeline.ΦA spec40 c from rfl]; unfold Pipeline.ΦA
    iintro ⟨Hp, -, Hr⟩
    isplitl [Hr]; · iexact Hr
    iexact Hp
  hout c := by
    rw [Pipeline.ownSems0_none, show (pdats m ρ 40 c).Φ (Fin.last _) = Pipeline.ΦA spec40 c from rfl]; unfold Pipeline.ΦA
    iintro ⟨Hr, Hp⟩
    isplitl [Hp]; · iexact Hp
    isplitr; · iempintro
    iexact Hr
  hexit c := by
    have hjoin := Pipeline.unscopedBufs_of_arrays (p := 40) (pcfgs (F := F)) adm (Ix := Unit) (Name := ℕ) (U := UR sig nD τ) (Lvl := ℕ)
      launch40.win launch40.arr_whole c (pdats m ρ) ((pdats m ρ 40 c).share_full fun _ => rfl)
      (E40 m ρ c) (X40 m ρ c) ((pdats m ρ 40 c).arrAt · cfg40.N) (hF40 m ρ c) (hrest40 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg41.lean ====
/- Region 41 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg41 : Pipeline.RegionSeg (pcfgs (F := F)) adm (pdats m ρ) () defs₀ 𝒱₀ L lv 41 where
  win := launch41.win.to₀
  block_pos := launch41.block_pos
  stage_whole := launch41.stage_whole
  K := PEmpty
  osem k := k.elim
  ho := Pipeline.OwnSemFacts.none _
  hbody c := (body_obligation41 (E41 m ρ) c).loose
  hwaits := Pipeline.hwaits_of_owed_zero _ _ _ _ L lv 41 fun _ _ => rfl
  pre c := iprop(StableHlo.held (c : Thread nD τ) (Pipeline.ucRefs τ sig) (B85 m ρ c) ∗ R c)
  post c := iprop(StableHlo.held (c : Thread nD τ) (Pipeline.ucRefs τ sig) (B86 m ρ c) ∗ R c)
  X c := iprop(∃ r, prngReg c r)
  Y c := iprop(∃ r, prngReg c r)
  Z c := Pipeline.unscopedRest (Ix := Unit) (Name := ℕ) (U := UR sig nD τ) (Lvl := ℕ) spec41 c (E41 m ρ c)
  hentry c := by
    rw [Pipeline.ownSems0_none]
    have hsplit := Pipeline.arrays_of_unscopedBufs (p := 41) (pcfgs (F := F)) adm (pdats m ρ) launch41.win launch41.arr_whole c
      ((pdats m ρ 41 c).share_full fun _ => rfl) (E41 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 41 c).Φ 0 = Pipeline.ΦA spec41 c from rfl]; unfold Pipeline.ΦA
    iintro ⟨Hp, -, Hr⟩
    isplitl [Hr]; · iexact Hr
    iexact Hp
  hout c := by
    rw [Pipeline.ownSems0_none, show (pdats m ρ 41 c).Φ (Fin.last _) = Pipeline.ΦA spec41 c from rfl]; unfold Pipeline.ΦA
    iintro ⟨Hr, Hp⟩
    isplitl [Hp]; · iexact Hp
    isplitr; · iempintro
    iexact Hr
  hexit c := by
    have hjoin := Pipeline.unscopedBufs_of_arrays (p := 41) (pcfgs (F := F)) adm (Ix := Unit) (Name := ℕ) (U := UR sig nD τ) (Lvl := ℕ)
      launch41.win launch41.arr_whole c (pdats m ρ) ((pdats m ρ 41 c).share_full fun _ => rfl)
      (E41 m ρ c) (X41 m ρ c) ((pdats m ρ 41 c).arrAt · cfg41.N) (hF41 m ρ c) (hrest41 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg42.lean ====
/- Region 42 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg42 : Pipeline.RegionSeg (pcfgs (F := F)) adm (pdats m ρ) () defs₀ 𝒱₀ L lv 42 where
  win := launch42.win.to₀
  block_pos := launch42.block_pos
  stage_whole := launch42.stage_whole
  K := PEmpty
  osem k := k.elim
  ho := Pipeline.OwnSemFacts.none _
  hbody c := (body_obligation42 (E42 m ρ) c).loose
  hwaits := Pipeline.hwaits_of_owed_zero _ _ _ _ L lv 42 fun _ _ => rfl
  pre c := iprop(StableHlo.held (c : Thread nD τ) (Pipeline.ucRefs τ sig) (B87 m ρ c) ∗ R c)
  post c := iprop(StableHlo.held (c : Thread nD τ) (Pipeline.ucRefs τ sig) (B88 m ρ c) ∗ R c)
  X c := iprop(∃ r, prngReg c r)
  Y c := iprop(∃ r, prngReg c r)
  Z c := Pipeline.unscopedRest (Ix := Unit) (Name := ℕ) (U := UR sig nD τ) (Lvl := ℕ) spec42 c (E42 m ρ c)
  hentry c := by
    rw [Pipeline.ownSems0_none]
    have hsplit := Pipeline.arrays_of_unscopedBufs (p := 42) (pcfgs (F := F)) adm (pdats m ρ) launch42.win launch42.arr_whole c
      ((pdats m ρ 42 c).share_full fun _ => rfl) (E42 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec42 c ⊢ (pdats m ρ 42 c).Φ 0 from hin42 (E42 m ρ) c)
    unfold Pipeline.ΦA
    iintro ⟨Hp, -, Hr⟩
    isplitl [Hr]; · iexact Hr
    iexact Hp
  hout c := by
    rw [Pipeline.ownSems0_none]
    refine BI.Laws.entails_trans (show (pdats m ρ 42 c).Φ (Fin.last _) ⊢ Pipeline.ΦA spec42 c from hout42 (E42 m ρ) c) ?_
    unfold Pipeline.ΦA
    iintro ⟨Hr, Hp⟩
    isplitl [Hp]; · iexact Hp
    isplitr; · iempintro
    iexact Hr
  hexit c := by
    have hjoin := Pipeline.unscopedBufs_of_arrays (p := 42) (pcfgs (F := F)) adm (Ix := Unit) (Name := ℕ) (U := UR sig nD τ) (Lvl := ℕ)
      launch42.win launch42.arr_whole c (pdats m ρ) ((pdats m ρ 42 c).share_full fun _ => rfl)
      (E42 m ρ c) (X42 m ρ c) ((pdats m ρ 42 c).arrAt · cfg42.N) (hF42 m ρ c) (hrest42 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg43.lean ====
/- Region 43 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg43 : Pipeline.RegionSeg (pcfgs (F := F)) adm (pdats m ρ) () defs₀ 𝒱₀ L lv 43 where
  win := launch43.win.to₀
  block_pos := launch43.block_pos
  stage_whole := launch43.stage_whole
  K := PEmpty
  osem k := k.elim
  ho := Pipeline.OwnSemFacts.none _
  hbody c := (body_obligation43 (E43 m ρ) c).loose
  hwaits := Pipeline.hwaits_of_owed_zero _ _ _ _ L lv 43 fun _ _ => rfl
  pre c := iprop(StableHlo.held (c : Thread nD τ) (Pipeline.ucRefs τ sig) (B89 m ρ c) ∗ R c)
  post c := iprop(StableHlo.held (c : Thread nD τ) (Pipeline.ucRefs τ sig) (B90 m ρ c) ∗ R c)
  X c := iprop(∃ r, prngReg c r)
  Y c := iprop(∃ r, prngReg c r)
  Z c := Pipeline.unscopedRest (Ix := Unit) (Name := ℕ) (U := UR sig nD τ) (Lvl := ℕ) spec43 c (E43 m ρ c)
  hentry c := by
    rw [Pipeline.ownSems0_none]
    have hsplit := Pipeline.arrays_of_unscopedBufs (p := 43) (pcfgs (F := F)) adm (pdats m ρ) launch43.win launch43.arr_whole c
      ((pdats m ρ 43 c).share_full fun _ => rfl) (E43 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec43 c ⊢ (pdats m ρ 43 c).Φ 0 from hin43 (E43 m ρ) c)
    unfold Pipeline.ΦA
    iintro ⟨Hp, -, Hr⟩
    isplitl [Hr]; · iexact Hr
    iexact Hp
  hout c := by
    rw [Pipeline.ownSems0_none]
    refine BI.Laws.entails_trans (show (pdats m ρ 43 c).Φ (Fin.last _) ⊢ Pipeline.ΦA spec43 c from hout43 (E43 m ρ) c) ?_
    unfold Pipeline.ΦA
    iintro ⟨Hr, Hp⟩
    isplitl [Hp]; · iexact Hp
    isplitr; · iempintro
    iexact Hr
  hexit c := by
    have hjoin := Pipeline.unscopedBufs_of_arrays (p := 43) (pcfgs (F := F)) adm (Ix := Unit) (Name := ℕ) (U := UR sig nD τ) (Lvl := ℕ)
      launch43.win launch43.arr_whole c (pdats m ρ) ((pdats m ρ 43 c).share_full fun _ => rfl)
      (E43 m ρ c) (X43 m ρ c) ((pdats m ρ 43 c).arrAt · cfg43.N) (hF43 m ρ c) (hrest43 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg44.lean ====
/- Region 44 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg44 : Pipeline.RegionSeg (pcfgs (F := F)) adm (pdats m ρ) () defs₀ 𝒱₀ L lv 44 where
  win := launch44.win.to₀
  block_pos := launch44.block_pos
  stage_whole := launch44.stage_whole
  K := PEmpty
  osem k := k.elim
  ho := Pipeline.OwnSemFacts.none _
  hbody c := (body_obligation44 (E44 m ρ) c).loose
  hwaits := Pipeline.hwaits_of_owed_zero _ _ _ _ L lv 44 fun _ _ => rfl
  pre c := iprop(StableHlo.held (c : Thread nD τ) (Pipeline.ucRefs τ sig) (B91 m ρ c) ∗ R c)
  post c := iprop(StableHlo.held (c : Thread nD τ) (Pipeline.ucRefs τ sig) (B92 m ρ c) ∗ R c)
  X c := iprop(∃ r, prngReg c r)
  Y c := iprop(∃ r, prngReg c r)
  Z c := Pipeline.unscopedRest (Ix := Unit) (Name := ℕ) (U := UR sig nD τ) (Lvl := ℕ) spec44 c (E44 m ρ c)
  hentry c := by
    rw [Pipeline.ownSems0_none]
    have hsplit := Pipeline.arrays_of_unscopedBufs (p := 44) (pcfgs (F := F)) adm (pdats m ρ) launch44.win launch44.arr_whole c
      ((pdats m ρ 44 c).share_full fun _ => rfl) (E44 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 44 c).Φ 0 = Pipeline.ΦA spec44 c from rfl]; unfold Pipeline.ΦA
    iintro ⟨Hp, -, Hr⟩
    isplitl [Hr]; · iexact Hr
    iexact Hp
  hout c := by
    rw [Pipeline.ownSems0_none, show (pdats m ρ 44 c).Φ (Fin.last _) = Pipeline.ΦA spec44 c from rfl]; unfold Pipeline.ΦA
    iintro ⟨Hr, Hp⟩
    isplitl [Hp]; · iexact Hp
    isplitr; · iempintro
    iexact Hr
  hexit c := by
    have hjoin := Pipeline.unscopedBufs_of_arrays (p := 44) (pcfgs (F := F)) adm (Ix := Unit) (Name := ℕ) (U := UR sig nD τ) (Lvl := ℕ)
      launch44.win launch44.arr_whole c (pdats m ρ) ((pdats m ρ 44 c).share_full fun _ => rfl)
      (E44 m ρ c) (X44 m ρ c) ((pdats m ρ 44 c).arrAt · cfg44.N) (hF44 m ρ c) (hrest44 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg45.lean ====
/- Region 45 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg45 : Pipeline.RegionSeg (pcfgs (F := F)) adm (pdats m ρ) () defs₀ 𝒱₀ L lv 45 where
  win := launch45.win.to₀
  block_pos := launch45.block_pos
  stage_whole := launch45.stage_whole
  K := PEmpty
  osem k := k.elim
  ho := Pipeline.OwnSemFacts.none _
  hbody c := (body_obligation45 (E45 m ρ) c).loose
  hwaits := Pipeline.hwaits_of_owed_zero _ _ _ _ L lv 45 fun _ _ => rfl
  pre c := iprop(StableHlo.held (c : Thread nD τ) (Pipeline.ucRefs τ sig) (B93 m ρ c) ∗ R c)
  post c := iprop(StableHlo.held (c : Thread nD τ) (Pipeline.ucRefs τ sig) (B94 m ρ c) ∗ R c)
  X c := iprop(∃ r, prngReg c r)
  Y c := iprop(∃ r, prngReg c r)
  Z c := Pipeline.unscopedRest (Ix := Unit) (Name := ℕ) (U := UR sig nD τ) (Lvl := ℕ) spec45 c (E45 m ρ c)
  hentry c := by
    rw [Pipeline.ownSems0_none]
    have hsplit := Pipeline.arrays_of_unscopedBufs (p := 45) (pcfgs (F := F)) adm (pdats m ρ) launch45.win launch45.arr_whole c
      ((pdats m ρ 45 c).share_full fun _ => rfl) (E45 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 45 c).Φ 0 = Pipeline.ΦA spec45 c from rfl]; unfold Pipeline.ΦA
    iintro ⟨Hp, -, Hr⟩
    isplitl [Hr]; · iexact Hr
    iexact Hp
  hout c := by
    rw [Pipeline.ownSems0_none, show (pdats m ρ 45 c).Φ (Fin.last _) = Pipeline.ΦA spec45 c from rfl]; unfold Pipeline.ΦA
    iintro ⟨Hr, Hp⟩
    isplitl [Hp]; · iexact Hp
    isplitr; · iempintro
    iexact Hr
  hexit c := by
    have hjoin := Pipeline.unscopedBufs_of_arrays (p := 45) (pcfgs (F := F)) adm (Ix := Unit) (Name := ℕ) (U := UR sig nD τ) (Lvl := ℕ)
      launch45.win launch45.arr_whole c (pdats m ρ) ((pdats m ρ 45 c).share_full fun _ => rfl)
      (E45 m ρ c) (X45 m ρ c) ((pdats m ρ 45 c).arrAt · cfg45.N) (hF45 m ρ c) (hrest45 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg46.lean ====
/- Region 46 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg46 : Pipeline.RegionSeg (pcfgs (F := F)) adm (pdats m ρ) () defs₀ 𝒱₀ L lv 46 where
  win := launch46.win.to₀
  block_pos := launch46.block_pos
  stage_whole := launch46.stage_whole
  K := PEmpty
  osem k := k.elim
  ho := Pipeline.OwnSemFacts.none _
  hbody c := (body_obligation46 (E46 m ρ) c).loose
  hwaits := Pipeline.hwaits_of_owed_zero _ _ _ _ L lv 46 fun _ _ => rfl
  pre c := iprop(StableHlo.held (c : Thread nD τ) (Pipeline.ucRefs τ sig) (B95 m ρ c) ∗ R c)
  post c := iprop(StableHlo.held (c : Thread nD τ) (Pipeline.ucRefs τ sig) (B96 m ρ c) ∗ R c)
  X c := iprop(∃ r, prngReg c r)
  Y c := iprop(∃ r, prngReg c r)
  Z c := Pipeline.unscopedRest (Ix := Unit) (Name := ℕ) (U := UR sig nD τ) (Lvl := ℕ) spec46 c (E46 m ρ c)
  hentry c := by
    rw [Pipeline.ownSems0_none]
    have hsplit := Pipeline.arrays_of_unscopedBufs (p := 46) (pcfgs (F := F)) adm (pdats m ρ) launch46.win launch46.arr_whole c
      ((pdats m ρ 46 c).share_full fun _ => rfl) (E46 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec46 c ⊢ (pdats m ρ 46 c).Φ 0 from hin46 (E46 m ρ) c)
    unfold Pipeline.ΦA
    iintro ⟨Hp, -, Hr⟩
    isplitl [Hr]; · iexact Hr
    iexact Hp
  hout c := by
    rw [Pipeline.ownSems0_none]
    refine BI.Laws.entails_trans (show (pdats m ρ 46 c).Φ (Fin.last _) ⊢ Pipeline.ΦA spec46 c from hout46 (E46 m ρ) c) ?_
    unfold Pipeline.ΦA
    iintro ⟨Hr, Hp⟩
    isplitl [Hp]; · iexact Hp
    isplitr; · iempintro
    iexact Hr
  hexit c := by
    have hjoin := Pipeline.unscopedBufs_of_arrays (p := 46) (pcfgs (F := F)) adm (Ix := Unit) (Name := ℕ) (U := UR sig nD τ) (Lvl := ℕ)
      launch46.win launch46.arr_whole c (pdats m ρ) ((pdats m ρ 46 c).share_full fun _ => rfl)
      (E46 m ρ c) (X46 m ρ c) ((pdats m ρ 46 c).arrAt · cfg46.N) (hF46 m ρ c) (hrest46 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg47.lean ====
/- Region 47 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg47 : Pipeline.RegionSeg (pcfgs (F := F)) adm (pdats m ρ) () defs₀ 𝒱₀ L lv 47 where
  win := launch47.win.to₀
  block_pos := launch47.block_pos
  stage_whole := launch47.stage_whole
  K := PEmpty
  osem k := k.elim
  ho := Pipeline.OwnSemFacts.none _
  hbody c := (body_obligation47 (E47 m ρ) c).loose
  hwaits := Pipeline.hwaits_of_owed_zero _ _ _ _ L lv 47 fun _ _ => rfl
  pre c := iprop(StableHlo.held (c : Thread nD τ) (Pipeline.ucRefs τ sig) (B97 m ρ c) ∗ R c)
  post c := iprop(StableHlo.held (c : Thread nD τ) (Pipeline.ucRefs τ sig) (B98 m ρ c) ∗ R c)
  X c := iprop(∃ r, prngReg c r)
  Y c := iprop(∃ r, prngReg c r)
  Z c := Pipeline.unscopedRest (Ix := Unit) (Name := ℕ) (U := UR sig nD τ) (Lvl := ℕ) spec47 c (E47 m ρ c)
  hentry c := by
    rw [Pipeline.ownSems0_none]
    have hsplit := Pipeline.arrays_of_unscopedBufs (p := 47) (pcfgs (F := F)) adm (pdats m ρ) launch47.win launch47.arr_whole c
      ((pdats m ρ 47 c).share_full fun _ => rfl) (E47 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec47 c ⊢ (pdats m ρ 47 c).Φ 0 from hin47 (E47 m ρ) c)
    unfold Pipeline.ΦA
    iintro ⟨Hp, -, Hr⟩
    isplitl [Hr]; · iexact Hr
    iexact Hp
  hout c := by
    rw [Pipeline.ownSems0_none]
    refine BI.Laws.entails_trans (show (pdats m ρ 47 c).Φ (Fin.last _) ⊢ Pipeline.ΦA spec47 c from hout47 (E47 m ρ) c) ?_
    unfold Pipeline.ΦA
    iintro ⟨Hr, Hp⟩
    isplitl [Hp]; · iexact Hp
    isplitr; · iempintro
    iexact Hr
  hexit c := by
    have hjoin := Pipeline.unscopedBufs_of_arrays (p := 47) (pcfgs (F := F)) adm (Ix := Unit) (Name := ℕ) (U := UR sig nD τ) (Lvl := ℕ)
      launch47.win launch47.arr_whole c (pdats m ρ) ((pdats m ρ 47 c).share_full fun _ => rfl)
      (E47 m ρ c) (X47 m ρ c) ((pdats m ρ 47 c).arrAt · cfg47.N) (hF47 m ρ c) (hrest47 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Reg48.lean ====
/- Region 48 of @main as a segment over the thread state: entered from every unscoped buffer at the boundary's
   contents, its arrays split out and put back at the exit contents, the generator register into the body's invariant
   and out, nothing owed, no semaphore of the kernel's own. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import proofs.«408084_j48395691492010_3_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg48 : Pipeline.RegionSeg (pcfgs (F := F)) adm (pdats m ρ) () defs₀ 𝒱₀ L lv 48 where
  win := launch48.win.to₀
  block_pos := launch48.block_pos
  stage_whole := launch48.stage_whole
  K := PEmpty
  osem k := k.elim
  ho := Pipeline.OwnSemFacts.none _
  hbody c := (body_obligation48 (E48 m ρ) c).loose
  hwaits := Pipeline.hwaits_of_owed_zero _ _ _ _ L lv 48 fun _ _ => rfl
  pre c := iprop(StableHlo.held (c : Thread nD τ) (Pipeline.ucRefs τ sig) (B99 m ρ c) ∗ R c)
  post c := iprop(StableHlo.held (c : Thread nD τ) (Pipeline.ucRefs τ sig) (B100 m ρ c) ∗ R c)
  X c := iprop(∃ r, prngReg c r)
  Y c := iprop(∃ r, prngReg c r)
  Z c := Pipeline.unscopedRest (Ix := Unit) (Name := ℕ) (U := UR sig nD τ) (Lvl := ℕ) spec48 c (E48 m ρ c)
  hentry c := by
    rw [Pipeline.ownSems0_none]
    have hsplit := Pipeline.arrays_of_unscopedBufs (p := 48) (pcfgs (F := F)) adm (pdats m ρ) launch48.win launch48.arr_whole c
      ((pdats m ρ 48 c).share_full fun _ => rfl) (E48 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 48 c).Φ 0 = Pipeline.ΦA spec48 c from rfl]; unfold Pipeline.ΦA
    iintro ⟨Hp, -, Hr⟩
    isplitl [Hr]; · iexact Hr
    iexact Hp
  hout c := by
    rw [Pipeline.ownSems0_none, show (pdats m ρ 48 c).Φ (Fin.last _) = Pipeline.ΦA spec48 c from rfl]; unfold Pipeline.ΦA
    iintro ⟨Hr, Hp⟩
    isplitl [Hp]; · iexact Hp
    isplitr; · iempintro
    iexact Hr
  hexit c := by
    have hjoin := Pipeline.unscopedBufs_of_arrays (p := 48) (pcfgs (F := F)) adm (Ix := Unit) (Name := ℕ) (U := UR sig nD τ) (Lvl := ℕ)
      launch48.win launch48.arr_whole c (pdats m ρ) ((pdats m ρ 48 c).share_full fun _ => rfl)
      (E48 m ρ c) (X48 m ρ c) ((pdats m ρ 48 c).arrAt · cfg48.N) (hF48 m ρ c) (hrest48 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Run.lean ====
/- @main as the list of its 101 segments, and the launch: every weakly fair execution terminates, nothing faulting,
   with every unscoped buffer at the last boundary's contents. -/
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«408084_j48395691492010_3_alg».proof.Proof.KB.Reg0
import proofs.«408084_j48395691492010_3_alg».proof.Proof.KB.Reg1
import proofs.«408084_j48395691492010_3_alg».proof.Proof.KB.Reg2
import proofs.«408084_j48395691492010_3_alg».proof.Proof.KB.Reg3
import proofs.«408084_j48395691492010_3_alg».proof.Proof.KB.Reg4
import proofs.«408084_j48395691492010_3_alg».proof.Proof.KB.Reg5
import proofs.«408084_j48395691492010_3_alg».proof.Proof.KB.Reg6
import proofs.«408084_j48395691492010_3_alg».proof.Proof.KB.Reg7
import proofs.«408084_j48395691492010_3_alg».proof.Proof.KB.Reg8
import proofs.«408084_j48395691492010_3_alg».proof.Proof.KB.Reg9
import proofs.«408084_j48395691492010_3_alg».proof.Proof.KB.Reg10
import proofs.«408084_j48395691492010_3_alg».proof.Proof.KB.Reg11
import proofs.«408084_j48395691492010_3_alg».proof.Proof.KB.Reg12
import proofs.«408084_j48395691492010_3_alg».proof.Proof.KB.Reg13
import proofs.«408084_j48395691492010_3_alg».proof.Proof.KB.Reg14
import proofs.«408084_j48395691492010_3_alg».proof.Proof.KB.Reg15
import proofs.«408084_j48395691492010_3_alg».proof.Proof.KB.Reg16
import proofs.«408084_j48395691492010_3_alg».proof.Proof.KB.Reg17
import proofs.«408084_j48395691492010_3_alg».proof.Proof.KB.Reg18
import proofs.«408084_j48395691492010_3_alg».proof.Proof.KB.Reg19
import proofs.«408084_j48395691492010_3_alg».proof.Proof.KB.Reg20
import proofs.«408084_j48395691492010_3_alg».proof.Proof.KB.Reg21
import proofs.«408084_j48395691492010_3_alg».proof.Proof.KB.Reg22
import proofs.«408084_j48395691492010_3_alg».proof.Proof.KB.Reg23
import proofs.«408084_j48395691492010_3_alg».proof.Proof.KB.Reg24
import proofs.«408084_j48395691492010_3_alg».proof.Proof.KB.Reg25
import proofs.«408084_j48395691492010_3_alg».proof.Proof.KB.Reg26
import proofs.«408084_j48395691492010_3_alg».proof.Proof.KB.Reg27
import proofs.«408084_j48395691492010_3_alg».proof.Proof.KB.Reg28
import proofs.«408084_j48395691492010_3_alg».proof.Proof.KB.Reg29
import proofs.«408084_j48395691492010_3_alg».proof.Proof.KB.Reg30
import proofs.«408084_j48395691492010_3_alg».proof.Proof.KB.Reg31
import proofs.«408084_j48395691492010_3_alg».proof.Proof.KB.Reg32
import proofs.«408084_j48395691492010_3_alg».proof.Proof.KB.Reg33
import proofs.«408084_j48395691492010_3_alg».proof.Proof.KB.Reg34
import proofs.«408084_j48395691492010_3_alg».proof.Proof.KB.Reg35
import proofs.«408084_j48395691492010_3_alg».proof.Proof.KB.Reg36
import proofs.«408084_j48395691492010_3_alg».proof.Proof.KB.Reg37
import proofs.«408084_j48395691492010_3_alg».proof.Proof.KB.Reg38
import proofs.«408084_j48395691492010_3_alg».proof.Proof.KB.Reg39
import proofs.«408084_j48395691492010_3_alg».proof.Proof.KB.Reg40
import proofs.«408084_j48395691492010_3_alg».proof.Proof.KB.Reg41
import proofs.«408084_j48395691492010_3_alg».proof.Proof.KB.Reg42
import proofs.«408084_j48395691492010_3_alg».proof.Proof.KB.Reg43
import proofs.«408084_j48395691492010_3_alg».proof.Proof.KB.Reg44
import proofs.«408084_j48395691492010_3_alg».proof.Proof.KB.Reg45
import proofs.«408084_j48395691492010_3_alg».proof.Proof.KB.Reg46
import proofs.«408084_j48395691492010_3_alg».proof.Proof.KB.Reg47
import proofs.«408084_j48395691492010_3_alg».proof.Proof.KB.Reg48

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev segs : List (Pipeline.Seg (pcfgs (F := F)) adm (pdats m ρ) () defs₀ 𝒱₀ L lv) :=
  [
    .host (hseg hostOps0 hostOps0_sub hostOps0_fresh (B0 m ρ)),
    .host (hseg hostOps0_1 hostOps0_1_sub hostOps0_1_fresh (B1 m ρ)),
    .host (hseg hostOps0_2 hostOps0_2_sub hostOps0_2_fresh (B2 m ρ)),
    .region (reg0 m ρ),
    .host (hseg hostOps1 hostOps1_sub hostOps1_fresh (B4 m ρ)),
    .region (reg1 m ρ),
    .host (hseg hostOps2 hostOps2_sub hostOps2_fresh (B6 m ρ)),
    .region (reg2 m ρ),
    .host (hseg hostOps3 hostOps3_sub hostOps3_fresh (B8 m ρ)),
    .region (reg3 m ρ),
    .host (hseg hostOps4 hostOps4_sub hostOps4_fresh (B10 m ρ)),
    .region (reg4 m ρ),
    .host (hseg hostOps5 hostOps5_sub hostOps5_fresh (B12 m ρ)),
    .region (reg5 m ρ),
    .host (hseg hostOps6 hostOps6_sub hostOps6_fresh (B14 m ρ)),
    .region (reg6 m ρ),
    .host (hseg hostOps7 hostOps7_sub hostOps7_fresh (B16 m ρ)),
    .region (reg7 m ρ),
    .host (hseg hostOps8 hostOps8_sub hostOps8_fresh (B18 m ρ)),
    .region (reg8 m ρ),
    .host (hseg hostOps9 hostOps9_sub hostOps9_fresh (B20 m ρ)),
    .region (reg9 m ρ),
    .host (hseg hostOps10 hostOps10_sub hostOps10_fresh (B22 m ρ)),
    .region (reg10 m ρ),
    .host (hseg hostOps11 hostOps11_sub hostOps11_fresh (B24 m ρ)),
    .region (reg11 m ρ),
    .host (hseg hostOps12 hostOps12_sub hostOps12_fresh (B26 m ρ)),
    .region (reg12 m ρ),
    .host (hseg hostOps13 hostOps13_sub hostOps13_fresh (B28 m ρ)),
    .region (reg13 m ρ),
    .host (hseg hostOps14 hostOps14_sub hostOps14_fresh (B30 m ρ)),
    .region (reg14 m ρ),
    .host (hseg hostOps15 hostOps15_sub hostOps15_fresh (B32 m ρ)),
    .region (reg15 m ρ),
    .host (hseg hostOps16 hostOps16_sub hostOps16_fresh (B34 m ρ)),
    .region (reg16 m ρ),
    .host (hseg hostOps17 hostOps17_sub hostOps17_fresh (B36 m ρ)),
    .region (reg17 m ρ),
    .host (hseg hostOps18 hostOps18_sub hostOps18_fresh (B38 m ρ)),
    .region (reg18 m ρ),
    .host (hseg hostOps19 hostOps19_sub hostOps19_fresh (B40 m ρ)),
    .region (reg19 m ρ),
    .host (hseg hostOps20 hostOps20_sub hostOps20_fresh (B42 m ρ)),
    .region (reg20 m ρ),
    .host (hseg hostOps21 hostOps21_sub hostOps21_fresh (B44 m ρ)),
    .region (reg21 m ρ),
    .host (hseg hostOps22 hostOps22_sub hostOps22_fresh (B46 m ρ)),
    .region (reg22 m ρ),
    .host (hseg hostOps23 hostOps23_sub hostOps23_fresh (B48 m ρ)),
    .region (reg23 m ρ),
    .host (hseg hostOps24 hostOps24_sub hostOps24_fresh (B50 m ρ)),
    .region (reg24 m ρ),
    .host (hseg hostOps25 hostOps25_sub hostOps25_fresh (B52 m ρ)),
    .region (reg25 m ρ),
    .host (hseg hostOps26 hostOps26_sub hostOps26_fresh (B54 m ρ)),
    .region (reg26 m ρ),
    .host (hseg hostOps27 hostOps27_sub hostOps27_fresh (B56 m ρ)),
    .region (reg27 m ρ),
    .host (hseg hostOps28 hostOps28_sub hostOps28_fresh (B58 m ρ)),
    .region (reg28 m ρ),
    .host (hseg hostOps29 hostOps29_sub hostOps29_fresh (B60 m ρ)),
    .region (reg29 m ρ),
    .host (hseg hostOps30 hostOps30_sub hostOps30_fresh (B62 m ρ)),
    .region (reg30 m ρ),
    .host (hseg hostOps31 hostOps31_sub hostOps31_fresh (B64 m ρ)),
    .region (reg31 m ρ),
    .host (hseg hostOps32 hostOps32_sub hostOps32_fresh (B66 m ρ)),
    .region (reg32 m ρ),
    .host (hseg hostOps33 hostOps33_sub hostOps33_fresh (B68 m ρ)),
    .region (reg33 m ρ),
    .host (hseg hostOps34 hostOps34_sub hostOps34_fresh (B70 m ρ)),
    .region (reg34 m ρ),
    .host (hseg hostOps35 hostOps35_sub hostOps35_fresh (B72 m ρ)),
    .region (reg35 m ρ),
    .host (hseg hostOps36 hostOps36_sub hostOps36_fresh (B74 m ρ)),
    .region (reg36 m ρ),
    .host (hseg hostOps37 hostOps37_sub hostOps37_fresh (B76 m ρ)),
    .region (reg37 m ρ),
    .host (hseg hostOps38 hostOps38_sub hostOps38_fresh (B78 m ρ)),
    .region (reg38 m ρ),
    .host (hseg hostOps39 hostOps39_sub hostOps39_fresh (B80 m ρ)),
    .region (reg39 m ρ),
    .host (hseg hostOps40 hostOps40_sub hostOps40_fresh (B82 m ρ)),
    .region (reg40 m ρ),
    .host (hseg hostOps41 hostOps41_sub hostOps41_fresh (B84 m ρ)),
    .region (reg41 m ρ),
    .host (hseg hostOps42 hostOps42_sub hostOps42_fresh (B86 m ρ)),
    .region (reg42 m ρ),
    .host (hseg hostOps43 hostOps43_sub hostOps43_fresh (B88 m ρ)),
    .region (reg43 m ρ),
    .host (hseg hostOps44 hostOps44_sub hostOps44_fresh (B90 m ρ)),
    .region (reg44 m ρ),
    .host (hseg hostOps45 hostOps45_sub hostOps45_fresh (B92 m ρ)),
    .region (reg45 m ρ),
    .host (hseg hostOps46 hostOps46_sub hostOps46_fresh (B94 m ρ)),
    .region (reg46 m ρ),
    .host (hseg hostOps47 hostOps47_sub hostOps47_fresh (B96 m ρ)),
    .region (reg47 m ρ),
    .host (hseg hostOps48 hostOps48_sub hostOps48_fresh (B98 m ρ)),
    .region (reg48 m ρ),
    .host (hseg hostOps49 hostOps49_sub hostOps49_fresh (B100 m ρ)) ]

theorem main_run (c : Dev nD) : main (F := F) c = Pipeline.Seg.run (segs m ρ) := (main_chain c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = B101 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B101 m ρ c) ∗ R c) ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B101 m ρ c b)
    (hfin := fun c s' => by
      iintro ⟨⟨Hh, -⟩, HSI⟩
      unfold StableHlo.held
      imodintro
      iapply (pointsTo_read_all (Pipeline.ucRefs τ sig) (fun b => (((c : Thread nD τ)).1, b)) (B101 m ρ c) s')
      isplitl [Hh] <;> iassumption)
    (hQ := fun s h c => h c)

end Cert.Kernel.Hand

end
-- ==== Proof.KB.Args.lean ====
/- @main's 27 arguments end as launched. A reference is a memory space, an index there and the fact that the
   processor names it; the arguments are the references of index below 27, and every buffer a host operation
   writes, and every array of a kernel region but two input windows, is a computed value, of index 27 or more.
   So across a host stretch an argument keeps its contents because it is none of the stretch's result buffers
   (one comparison of indices per operation, whichever argument it is), across a region because it is none of the
   region's arrays or is an input window, whose fold is the entry array; the fold of the 101 segments at an
   argument's buffer thus walks back to the launch memory. The host-stretch lemma is also stated for any buffer
   that is none of the stretch's results. -/
import proofs.«408084_j48395691492010_3_alg».proof.Proof.KB.Chain
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A reference among @main's arguments: its index is below the first computed value's. -/
abbrev IsArg (b : Ref sig .tc) : Prop := (b.idx : ℕ) < 27

/-- An argument is not a reference of index 27 or more. -/
theorem ne_of_isArg {b y : Ref sig .tc} (hb : IsArg b) (hy : 27 ≤ (y.idx : ℕ)) : b ≠ y := by
  rintro rfl; exact absurd hb (Nat.not_lt.mpr hy)

/-! ## Across a host stretch -/

/-- Operation by operation, the line `ops` writes the references `ys`: each its one result buffer. -/
abbrev Writes (ops : List (HloOp τ sig (Elt F))) (ys : List (Ref sig .tc)) : Prop :=
  List.Forall₂ (fun op y => op.writes = {Proc.devRef (τ := τ) .tc y}) ops ys

/-- A reference that is none of a line's result buffers holds after the line what it held before. -/
theorem after_of_writes {ops : List (HloOp τ sig (Elt F))} {ys : List (Ref sig .tc)} (h : Writes ops ys)
    (W : Valuation τ sig (Elt F)) {b : Ref sig .tc} (hb : b ∉ ys) :
    StableHlo.after ops W (Proc.devRef .tc b) = W (Proc.devRef .tc b) := by
  refine StableHlo.after_of_forall_not_mem ops W ?_
  induction h with
  | nil => intro op hop; cases hop
  | cons hw _ ih =>
    intro op hop
    rcases List.mem_cons.mp hop with rfl | hop
    · rw [hw, Finset.mem_singleton]
      exact StableHlo.devRef_ne_of_ne fun e => hb (e ▸ List.mem_cons_self)
    · exact ih (fun hm => hb (List.mem_cons_of_mem _ hm)) op hop

/-- So does an argument, when every result buffer of the line is a computed value (the indices compared as one
    Boolean conjunction over the list). -/
theorem after_of_writes_isArg {ops : List (HloOp τ sig (Elt F))} {ys : List (Ref sig .tc)} (h : Writes ops ys)
    (hidx : (ys.all fun y => decide (27 ≤ (y.idx : ℕ))) = true)
    (W : Valuation τ sig (Elt F)) {b : Ref sig .tc} (hb : IsArg b) :
    StableHlo.after ops W (Proc.devRef .tc b) = W (Proc.devRef .tc b) :=
  after_of_writes h W fun hm => absurd hb (Nat.not_lt.mpr (of_decide_eq_true (List.all_eq_true.mp hidx b hm)))

/-- The buffers `hostOps0` writes, in order. -/
noncomputable abbrev wr0 : List (Ref sig .tc) := [main_v0, main_v1, main_v2, main_v3, main_v4, main_v5, main_v6, main_cst, main_v7, main_v8, main_cst_0, main_v9, main_v10, main_v11, main_cst_1, main_v12, main_v13, main_cst_2, main_v14, main_v15, main_v16, main_cst_3]
set_option maxHeartbeats 4000000 in
theorem hostOps0_writes : Writes (F := F) hostOps0 wr0 := by
  repeat' first | exact List.Forall₂.nil | refine List.Forall₂.cons rfl ?_
theorem wr0_idx : (wr0.all fun y => decide (27 ≤ (y.idx : ℕ))) = true := by decide
/-- A buffer that is none of them holds after the stretch what it held before. -/
theorem keep_hostOps0_of_not_mem (W : Valuation τ sig (Elt F)) (b : Ref sig .tc) (hb : b ∉ wr0) :
    StableHlo.after hostOps0 W (Proc.devRef .tc b) = W (Proc.devRef .tc b) := after_of_writes hostOps0_writes W hb
/-- In particular an argument does. -/
theorem keep_hostOps0 (W : Valuation τ sig (Elt F)) (b : Ref sig .tc) (hb : IsArg b) :
    StableHlo.after hostOps0 W (Proc.devRef .tc b) = W (Proc.devRef .tc b) :=
  after_of_writes_isArg hostOps0_writes wr0_idx W hb

/-- The buffers `hostOps0_1` writes, in order. -/
noncomputable abbrev wr0_1 : List (Ref sig .tc) := [main_call0_v0, main_call0_v1, main_v17]
set_option maxHeartbeats 4000000 in
theorem hostOps0_1_writes : Writes (F := F) hostOps0_1 wr0_1 := by
  repeat' first | exact List.Forall₂.nil | refine List.Forall₂.cons rfl ?_
theorem wr0_1_idx : (wr0_1.all fun y => decide (27 ≤ (y.idx : ℕ))) = true := by decide
/-- A buffer that is none of them holds after the stretch what it held before. -/
theorem keep_hostOps0_1_of_not_mem (W : Valuation τ sig (Elt F)) (b : Ref sig .tc) (hb : b ∉ wr0_1) :
    StableHlo.after hostOps0_1 W (Proc.devRef .tc b) = W (Proc.devRef .tc b) := after_of_writes hostOps0_1_writes W hb
/-- In particular an argument does. -/
theorem keep_hostOps0_1 (W : Valuation τ sig (Elt F)) (b : Ref sig .tc) (hb : IsArg b) :
    StableHlo.after hostOps0_1 W (Proc.devRef .tc b) = W (Proc.devRef .tc b) :=
  after_of_writes_isArg hostOps0_1_writes wr0_1_idx W hb

/-- The buffers `hostOps0_2` writes, in order. -/
noncomputable abbrev wr0_2 : List (Ref sig .tc) := [main_c, main_v18, main_v19, main_c_4, main_v20, main_v21, main_v22, main_v23, main_v24, main_v25, main_c_5, main_v26, main_v27, main_c_6, main_v28, main_v29, main_v30, main_v31, main_v32, main_v33, main_v34, main_v35, main_v36]
set_option maxHeartbeats 4000000 in
theorem hostOps0_2_writes : Writes (F := F) hostOps0_2 wr0_2 := by
  repeat' first | exact List.Forall₂.nil | refine List.Forall₂.cons rfl ?_
theorem wr0_2_idx : (wr0_2.all fun y => decide (27 ≤ (y.idx : ℕ))) = true := by decide
/-- A buffer that is none of them holds after the stretch what it held before. -/
theorem keep_hostOps0_2_of_not_mem (W : Valuation τ sig (Elt F)) (b : Ref sig .tc) (hb : b ∉ wr0_2) :
    StableHlo.after hostOps0_2 W (Proc.devRef .tc b) = W (Proc.devRef .tc b) := after_of_writes hostOps0_2_writes W hb
/-- In particular an argument does. -/
theorem keep_hostOps0_2 (W : Valuation τ sig (Elt F)) (b : Ref sig .tc) (hb : IsArg b) :
    StableHlo.after hostOps0_2 W (Proc.devRef .tc b) = W (Proc.devRef .tc b) :=
  after_of_writes_isArg hostOps0_2_writes wr0_2_idx W hb

/-- The buffers `hostOps1` writes, in order. -/
noncomputable abbrev wr1 : List (Ref sig .tc) := [main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_c_7, main_v103, main_v104, main_c_8, main_v105, main_v106, main_v107, main_v108, main_v109, main_v110, main_v111, main_v112, main_cst_9, main_v113, main_v114, main_v115]
set_option maxHeartbeats 4000000 in
theorem hostOps1_writes : Writes (F := F) hostOps1 wr1 := by
  repeat' first | exact List.Forall₂.nil | refine List.Forall₂.cons rfl ?_
theorem wr1_idx : (wr1.all fun y => decide (27 ≤ (y.idx : ℕ))) = true := by decide
/-- A buffer that is none of them holds after the stretch what it held before. -/
theorem keep_hostOps1_of_not_mem (W : Valuation τ sig (Elt F)) (b : Ref sig .tc) (hb : b ∉ wr1) :
    StableHlo.after hostOps1 W (Proc.devRef .tc b) = W (Proc.devRef .tc b) := after_of_writes hostOps1_writes W hb
/-- In particular an argument does. -/
theorem keep_hostOps1 (W : Valuation τ sig (Elt F)) (b : Ref sig .tc) (hb : IsArg b) :
    StableHlo.after hostOps1 W (Proc.devRef .tc b) = W (Proc.devRef .tc b) :=
  after_of_writes_isArg hostOps1_writes wr1_idx W hb

/-- The buffers `hostOps2` writes, in order. -/
noncomputable abbrev wr2 : List (Ref sig .tc) := [main_v117]
set_option maxHeartbeats 4000000 in
theorem hostOps2_writes : Writes (F := F) hostOps2 wr2 := by
  repeat' first | exact List.Forall₂.nil | refine List.Forall₂.cons rfl ?_
theorem wr2_idx : (wr2.all fun y => decide (27 ≤ (y.idx : ℕ))) = true := by decide
/-- A buffer that is none of them holds after the stretch what it held before. -/
theorem keep_hostOps2_of_not_mem (W : Valuation τ sig (Elt F)) (b : Ref sig .tc) (hb : b ∉ wr2) :
    StableHlo.after hostOps2 W (Proc.devRef .tc b) = W (Proc.devRef .tc b) := after_of_writes hostOps2_writes W hb
/-- In particular an argument does. -/
theorem keep_hostOps2 (W : Valuation τ sig (Elt F)) (b : Ref sig .tc) (hb : IsArg b) :
    StableHlo.after hostOps2 W (Proc.devRef .tc b) = W (Proc.devRef .tc b) :=
  after_of_writes_isArg hostOps2_writes wr2_idx W hb

/-- The buffers `hostOps3` writes, in order. -/
noncomputable abbrev wr3 : List (Ref sig .tc) := [main_cst_10, main_v119, main_v120]
set_option maxHeartbeats 4000000 in
theorem hostOps3_writes : Writes (F := F) hostOps3 wr3 := by
  repeat' first | exact List.Forall₂.nil | refine List.Forall₂.cons rfl ?_
theorem wr3_idx : (wr3.all fun y => decide (27 ≤ (y.idx : ℕ))) = true := by decide
/-- A buffer that is none of them holds after the stretch what it held before. -/
theorem keep_hostOps3_of_not_mem (W : Valuation τ sig (Elt F)) (b : Ref sig .tc) (hb : b ∉ wr3) :
    StableHlo.after hostOps3 W (Proc.devRef .tc b) = W (Proc.devRef .tc b) := after_of_writes hostOps3_writes W hb
/-- In particular an argument does. -/
theorem keep_hostOps3 (W : Valuation τ sig (Elt F)) (b : Ref sig .tc) (hb : IsArg b) :
    StableHlo.after hostOps3 W (Proc.devRef .tc b) = W (Proc.devRef .tc b) :=
  after_of_writes_isArg hostOps3_writes wr3_idx W hb

/-- The buffers `hostOps4` writes, in order. -/
noncomputable abbrev wr4 : List (Ref sig .tc) := [main_cst_11, main_v122, main_v123, main_v124, main_v125]
set_option maxHeartbeats 4000000 in
theorem hostOps4_writes : Writes (F := F) hostOps4 wr4 := by
  repeat' first | exact List.Forall₂.nil | refine List.Forall₂.cons rfl ?_
theorem wr4_idx : (wr4.all fun y => decide (27 ≤ (y.idx : ℕ))) = true := by decide
/-- A buffer that is none of them holds after the stretch what it held before. -/
theorem keep_hostOps4_of_not_mem (W : Valuation τ sig (Elt F)) (b : Ref sig .tc) (hb : b ∉ wr4) :
    StableHlo.after hostOps4 W (Proc.devRef .tc b) = W (Proc.devRef .tc b) := after_of_writes hostOps4_writes W hb
/-- In particular an argument does. -/
theorem keep_hostOps4 (W : Valuation τ sig (Elt F)) (b : Ref sig .tc) (hb : IsArg b) :
    StableHlo.after hostOps4 W (Proc.devRef .tc b) = W (Proc.devRef .tc b) :=
  after_of_writes_isArg hostOps4_writes wr4_idx W hb

/-- The buffers `hostOps5` writes, in order. -/
noncomputable abbrev wr5 : List (Ref sig .tc) := [main_v127, main_c_12, main_v128, main_v129, main_c_13, main_v130, main_v131, main_v132, main_v133, main_v134, main_v135, main_v136, main_v137, main_cst_14, main_v138, main_v139, main_v140]
set_option maxHeartbeats 4000000 in
theorem hostOps5_writes : Writes (F := F) hostOps5 wr5 := by
  repeat' first | exact List.Forall₂.nil | refine List.Forall₂.cons rfl ?_
theorem wr5_idx : (wr5.all fun y => decide (27 ≤ (y.idx : ℕ))) = true := by decide
/-- A buffer that is none of them holds after the stretch what it held before. -/
theorem keep_hostOps5_of_not_mem (W : Valuation τ sig (Elt F)) (b : Ref sig .tc) (hb : b ∉ wr5) :
    StableHlo.after hostOps5 W (Proc.devRef .tc b) = W (Proc.devRef .tc b) := after_of_writes hostOps5_writes W hb
/-- In particular an argument does. -/
theorem keep_hostOps5 (W : Valuation τ sig (Elt F)) (b : Ref sig .tc) (hb : IsArg b) :
    StableHlo.after hostOps5 W (Proc.devRef .tc b) = W (Proc.devRef .tc b) :=
  after_of_writes_isArg hostOps5_writes wr5_idx W hb

/-- The buffers `hostOps6` writes, in order. -/
noncomputable abbrev wr6 : List (Ref sig .tc) := [main_v142]
set_option maxHeartbeats 4000000 in
theorem hostOps6_writes : Writes (F := F) hostOps6 wr6 := by
  repeat' first | exact List.Forall₂.nil | refine List.Forall₂.cons rfl ?_
theorem wr6_idx : (wr6.all fun y => decide (27 ≤ (y.idx : ℕ))) = true := by decide
/-- A buffer that is none of them holds after the stretch what it held before. -/
theorem keep_hostOps6_of_not_mem (W : Valuation τ sig (Elt F)) (b : Ref sig .tc) (hb : b ∉ wr6) :
    StableHlo.after hostOps6 W (Proc.devRef .tc b) = W (Proc.devRef .tc b) := after_of_writes hostOps6_writes W hb
/-- In particular an argument does. -/
theorem keep_hostOps6 (W : Valuation τ sig (Elt F)) (b : Ref sig .tc) (hb : IsArg b) :
    StableHlo.after hostOps6 W (Proc.devRef .tc b) = W (Proc.devRef .tc b) :=
  after_of_writes_isArg hostOps6_writes wr6_idx W hb

/-- The buffers `hostOps7` writes, in order. -/
noncomputable abbrev wr7 : List (Ref sig .tc) := [main_cst_15, main_v144, main_v145]
set_option maxHeartbeats 4000000 in
theorem hostOps7_writes : Writes (F := F) hostOps7 wr7 := by
  repeat' first | exact List.Forall₂.nil | refine List.Forall₂.cons rfl ?_
theorem wr7_idx : (wr7.all fun y => decide (27 ≤ (y.idx : ℕ))) = true := by decide
/-- A buffer that is none of them holds after the stretch what it held before. -/
theorem keep_hostOps7_of_not_mem (W : Valuation τ sig (Elt F)) (b : Ref sig .tc) (hb : b ∉ wr7) :
    StableHlo.after hostOps7 W (Proc.devRef .tc b) = W (Proc.devRef .tc b) := after_of_writes hostOps7_writes W hb
/-- In particular an argument does. -/
theorem keep_hostOps7 (W : Valuation τ sig (Elt F)) (b : Ref sig .tc) (hb : IsArg b) :
    StableHlo.after hostOps7 W (Proc.devRef .tc b) = W (Proc.devRef .tc b) :=
  after_of_writes_isArg hostOps7_writes wr7_idx W hb

/-- The buffers `hostOps8` writes, in order. -/
noncomputable abbrev wr8 : List (Ref sig .tc) := [main_cst_16, main_v147, main_v148, main_v149, main_v150]
set_option maxHeartbeats 4000000 in
theorem hostOps8_writes : Writes (F := F) hostOps8 wr8 := by
  repeat' first | exact List.Forall₂.nil | refine List.Forall₂.cons rfl ?_
theorem wr8_idx : (wr8.all fun y => decide (27 ≤ (y.idx : ℕ))) = true := by decide
/-- A buffer that is none of them holds after the stretch what it held before. -/
theorem keep_hostOps8_of_not_mem (W : Valuation τ sig (Elt F)) (b : Ref sig .tc) (hb : b ∉ wr8) :
    StableHlo.after hostOps8 W (Proc.devRef .tc b) = W (Proc.devRef .tc b) := after_of_writes hostOps8_writes W hb
/-- In particular an argument does. -/
theorem keep_hostOps8 (W : Valuation τ sig (Elt F)) (b : Ref sig .tc) (hb : IsArg b) :
    StableHlo.after hostOps8 W (Proc.devRef .tc b) = W (Proc.devRef .tc b) :=
  after_of_writes_isArg hostOps8_writes wr8_idx W hb

/-- The buffers `hostOps9` writes, in order. -/
noncomputable abbrev wr9 : List (Ref sig .tc) := [main_v152]
set_option maxHeartbeats 4000000 in
theorem hostOps9_writes : Writes (F := F) hostOps9 wr9 := by
  repeat' first | exact List.Forall₂.nil | refine List.Forall₂.cons rfl ?_
theorem wr9_idx : (wr9.all fun y => decide (27 ≤ (y.idx : ℕ))) = true := by decide
/-- A buffer that is none of them holds after the stretch what it held before. -/
theorem keep_hostOps9_of_not_mem (W : Valuation τ sig (Elt F)) (b : Ref sig .tc) (hb : b ∉ wr9) :
    StableHlo.after hostOps9 W (Proc.devRef .tc b) = W (Proc.devRef .tc b) := after_of_writes hostOps9_writes W hb
/-- In particular an argument does. -/
theorem keep_hostOps9 (W : Valuation τ sig (Elt F)) (b : Ref sig .tc) (hb : IsArg b) :
    StableHlo.after hostOps9 W (Proc.devRef .tc b) = W (Proc.devRef .tc b) :=
  after_of_writes_isArg hostOps9_writes wr9_idx W hb

/-- The buffers `hostOps10` writes, in order. -/
noncomputable abbrev wr10 : List (Ref sig .tc) := [main_c_17, main_v154, main_v155, main_c_18, main_v156, main_v157, main_v158, main_v159, main_v160, main_v161, main_v162, main_v163, main_cst_19, main_v164, main_v165, main_v166, main_v167]
set_option maxHeartbeats 4000000 in
theorem hostOps10_writes : Writes (F := F) hostOps10 wr10 := by
  repeat' first | exact List.Forall₂.nil | refine List.Forall₂.cons rfl ?_
theorem wr10_idx : (wr10.all fun y => decide (27 ≤ (y.idx : ℕ))) = true := by decide
/-- A buffer that is none of them holds after the stretch what it held before. -/
theorem keep_hostOps10_of_not_mem (W : Valuation τ sig (Elt F)) (b : Ref sig .tc) (hb : b ∉ wr10) :
    StableHlo.after hostOps10 W (Proc.devRef .tc b) = W (Proc.devRef .tc b) := after_of_writes hostOps10_writes W hb
/-- In particular an argument does. -/
theorem keep_hostOps10 (W : Valuation τ sig (Elt F)) (b : Ref sig .tc) (hb : IsArg b) :
    StableHlo.after hostOps10 W (Proc.devRef .tc b) = W (Proc.devRef .tc b) :=
  after_of_writes_isArg hostOps10_writes wr10_idx W hb

/-- The buffers `hostOps11` writes, in order. -/
noncomputable abbrev wr11 : List (Ref sig .tc) := [main_cst_20, main_v169, main_v170]
set_option maxHeartbeats 4000000 in
theorem hostOps11_writes : Writes (F := F) hostOps11 wr11 := by
  repeat' first | exact List.Forall₂.nil | refine List.Forall₂.cons rfl ?_
theorem wr11_idx : (wr11.all fun y => decide (27 ≤ (y.idx : ℕ))) = true := by decide
/-- A buffer that is none of them holds after the stretch what it held before. -/
theorem keep_hostOps11_of_not_mem (W : Valuation τ sig (Elt F)) (b : Ref sig .tc) (hb : b ∉ wr11) :
    StableHlo.after hostOps11 W (Proc.devRef .tc b) = W (Proc.devRef .tc b) := after_of_writes hostOps11_writes W hb
/-- In particular an argument does. -/
theorem keep_hostOps11 (W : Valuation τ sig (Elt F)) (b : Ref sig .tc) (hb : IsArg b) :
    StableHlo.after hostOps11 W (Proc.devRef .tc b) = W (Proc.devRef .tc b) :=
  after_of_writes_isArg hostOps11_writes wr11_idx W hb

/-- The buffers `hostOps12` writes, in order. -/
noncomputable abbrev wr12 : List (Ref sig .tc) := [main_cst_21, main_v172, main_v173, main_v174, main_v175]
set_option maxHeartbeats 4000000 in
theorem hostOps12_writes : Writes (F := F) hostOps12 wr12 := by
  repeat' first | exact List.Forall₂.nil | refine List.Forall₂.cons rfl ?_
theorem wr12_idx : (wr12.all fun y => decide (27 ≤ (y.idx : ℕ))) = true := by decide
/-- A buffer that is none of them holds after the stretch what it held before. -/
theorem keep_hostOps12_of_not_mem (W : Valuation τ sig (Elt F)) (b : Ref sig .tc) (hb : b ∉ wr12) :
    StableHlo.after hostOps12 W (Proc.devRef .tc b) = W (Proc.devRef .tc b) := after_of_writes hostOps12_writes W hb
/-- In particular an argument does. -/
theorem keep_hostOps12 (W : Valuation τ sig (Elt F)) (b : Ref sig .tc) (hb : IsArg b) :
    StableHlo.after hostOps12 W (Proc.devRef .tc b) = W (Proc.devRef .tc b) :=
  after_of_writes_isArg hostOps12_writes wr12_idx W hb

/-- The buffers `hostOps13` writes, in order. -/
noncomputable abbrev wr13 : List (Ref sig .tc) := [main_v177]
set_option maxHeartbeats 4000000 in
theorem hostOps13_writes : Writes (F := F) hostOps13 wr13 := by
  repeat' first | exact List.Forall₂.nil | refine List.Forall₂.cons rfl ?_
theorem wr13_idx : (wr13.all fun y => decide (27 ≤ (y.idx : ℕ))) = true := by decide
/-- A buffer that is none of them holds after the stretch what it held before. -/
theorem keep_hostOps13_of_not_mem (W : Valuation τ sig (Elt F)) (b : Ref sig .tc) (hb : b ∉ wr13) :
    StableHlo.after hostOps13 W (Proc.devRef .tc b) = W (Proc.devRef .tc b) := after_of_writes hostOps13_writes W hb
/-- In particular an argument does. -/
theorem keep_hostOps13 (W : Valuation τ sig (Elt F)) (b : Ref sig .tc) (hb : IsArg b) :
    StableHlo.after hostOps13 W (Proc.devRef .tc b) = W (Proc.devRef .tc b) :=
  after_of_writes_isArg hostOps13_writes wr13_idx W hb

/-- The buffers `hostOps14` writes, in order. -/
noncomputable abbrev wr14 : List (Ref sig .tc) := [main_c_22, main_v179, main_v180, main_c_23, main_v181, main_v182, main_v183, main_v184, main_v185, main_v186, main_v187, main_v188, main_cst_24, main_v189, main_v190, main_v191, main_v192]
set_option maxHeartbeats 4000000 in
theorem hostOps14_writes : Writes (F := F) hostOps14 wr14 := by
  repeat' first | exact List.Forall₂.nil | refine List.Forall₂.cons rfl ?_
theorem wr14_idx : (wr14.all fun y => decide (27 ≤ (y.idx : ℕ))) = true := by decide
/-- A buffer that is none of them holds after the stretch what it held before. -/
theorem keep_hostOps14_of_not_mem (W : Valuation τ sig (Elt F)) (b : Ref sig .tc) (hb : b ∉ wr14) :
    StableHlo.after hostOps14 W (Proc.devRef .tc b) = W (Proc.devRef .tc b) := after_of_writes hostOps14_writes W hb
/-- In particular an argument does. -/
theorem keep_hostOps14 (W : Valuation τ sig (Elt F)) (b : Ref sig .tc) (hb : IsArg b) :
    StableHlo.after hostOps14 W (Proc.devRef .tc b) = W (Proc.devRef .tc b) :=
  after_of_writes_isArg hostOps14_writes wr14_idx W hb

/-- The buffers `hostOps15` writes, in order. -/
noncomputable abbrev wr15 : List (Ref sig .tc) := [main_cst_25, main_v194, main_v195]
set_option maxHeartbeats 4000000 in
theorem hostOps15_writes : Writes (F := F) hostOps15 wr15 := by
  repeat' first | exact List.Forall₂.nil | refine List.Forall₂.cons rfl ?_
theorem wr15_idx : (wr15.all fun y => decide (27 ≤ (y.idx : ℕ))) = true := by decide
/-- A buffer that is none of them holds after the stretch what it held before. -/
theorem keep_hostOps15_of_not_mem (W : Valuation τ sig (Elt F)) (b : Ref sig .tc) (hb : b ∉ wr15) :
    StableHlo.after hostOps15 W (Proc.devRef .tc b) = W (Proc.devRef .tc b) := after_of_writes hostOps15_writes W hb
/-- In particular an argument does. -/
theorem keep_hostOps15 (W : Valuation τ sig (Elt F)) (b : Ref sig .tc) (hb : IsArg b) :
    StableHlo.after hostOps15 W (Proc.devRef .tc b) = W (Proc.devRef .tc b) :=
  after_of_writes_isArg hostOps15_writes wr15_idx W hb

/-- The buffers `hostOps16` writes, in order. -/
noncomputable abbrev wr16 : List (Ref sig .tc) := [main_cst_26, main_v197, main_v198, main_v199, main_v200]
set_option maxHeartbeats 4000000 in
theorem hostOps16_writes : Writes (F := F) hostOps16 wr16 := by
  repeat' first | exact List.Forall₂.nil | refine List.Forall₂.cons rfl ?_
theorem wr16_idx : (wr16.all fun y => decide (27 ≤ (y.idx : ℕ))) = true := by decide
/-- A buffer that is none of them holds after the stretch what it held before. -/
theorem keep_hostOps16_of_not_mem (W : Valuation τ sig (Elt F)) (b : Ref sig .tc) (hb : b ∉ wr16) :
    StableHlo.after hostOps16 W (Proc.devRef .tc b) = W (Proc.devRef .tc b) := after_of_writes hostOps16_writes W hb
/-- In particular an argument does. -/
theorem keep_hostOps16 (W : Valuation τ sig (Elt F)) (b : Ref sig .tc) (hb : IsArg b) :
    StableHlo.after hostOps16 W (Proc.devRef .tc b) = W (Proc.devRef .tc b) :=
  after_of_writes_isArg hostOps16_writes wr16_idx W hb

/-- The buffers `hostOps17` writes, in order. -/
noncomputable abbrev wr17 : List (Ref sig .tc) := [main_v202]
set_option maxHeartbeats 4000000 in
theorem hostOps17_writes : Writes (F := F) hostOps17 wr17 := by
  repeat' first | exact List.Forall₂.nil | refine List.Forall₂.cons rfl ?_
theorem wr17_idx : (wr17.all fun y => decide (27 ≤ (y.idx : ℕ))) = true := by decide
/-- A buffer that is none of them holds after the stretch what it held before. -/
theorem keep_hostOps17_of_not_mem (W : Valuation τ sig (Elt F)) (b : Ref sig .tc) (hb : b ∉ wr17) :
    StableHlo.after hostOps17 W (Proc.devRef .tc b) = W (Proc.devRef .tc b) := after_of_writes hostOps17_writes W hb
/-- In particular an argument does. -/
theorem keep_hostOps17 (W : Valuation τ sig (Elt F)) (b : Ref sig .tc) (hb : IsArg b) :
    StableHlo.after hostOps17 W (Proc.devRef .tc b) = W (Proc.devRef .tc b) :=
  after_of_writes_isArg hostOps17_writes wr17_idx W hb

/-- The buffers `hostOps18` writes, in order. -/
noncomputable abbrev wr18 : List (Ref sig .tc) := [main_c_27, main_v204, main_v205, main_c_28, main_v206, main_v207, main_v208, main_v209, main_v210, main_v211, main_v212, main_v213, main_cst_29, main_v214, main_v215, main_v216, main_v217]
set_option maxHeartbeats 4000000 in
theorem hostOps18_writes : Writes (F := F) hostOps18 wr18 := by
  repeat' first | exact List.Forall₂.nil | refine List.Forall₂.cons rfl ?_
theorem wr18_idx : (wr18.all fun y => decide (27 ≤ (y.idx : ℕ))) = true := by decide
/-- A buffer that is none of them holds after the stretch what it held before. -/
theorem keep_hostOps18_of_not_mem (W : Valuation τ sig (Elt F)) (b : Ref sig .tc) (hb : b ∉ wr18) :
    StableHlo.after hostOps18 W (Proc.devRef .tc b) = W (Proc.devRef .tc b) := after_of_writes hostOps18_writes W hb
/-- In particular an argument does. -/
theorem keep_hostOps18 (W : Valuation τ sig (Elt F)) (b : Ref sig .tc) (hb : IsArg b) :
    StableHlo.after hostOps18 W (Proc.devRef .tc b) = W (Proc.devRef .tc b) :=
  after_of_writes_isArg hostOps18_writes wr18_idx W hb

/-- The buffers `hostOps19` writes, in order. -/
noncomputable abbrev wr19 : List (Ref sig .tc) := [main_cst_30, main_v219, main_v220]
set_option maxHeartbeats 4000000 in
theorem hostOps19_writes : Writes (F := F) hostOps19 wr19 := by
  repeat' first | exact List.Forall₂.nil | refine List.Forall₂.cons rfl ?_
theorem wr19_idx : (wr19.all fun y => decide (27 ≤ (y.idx : ℕ))) = true := by decide
/-- A buffer that is none of them holds after the stretch what it held before. -/
theorem keep_hostOps19_of_not_mem (W : Valuation τ sig (Elt F)) (b : Ref sig .tc) (hb : b ∉ wr19) :
    StableHlo.after hostOps19 W (Proc.devRef .tc b) = W (Proc.devRef .tc b) := after_of_writes hostOps19_writes W hb
/-- In particular an argument does. -/
theorem keep_hostOps19 (W : Valuation τ sig (Elt F)) (b : Ref sig .tc) (hb : IsArg b) :
    StableHlo.after hostOps19 W (Proc.devRef .tc b) = W (Proc.devRef .tc b) :=
  after_of_writes_isArg hostOps19_writes wr19_idx W hb

/-- The buffers `hostOps20` writes, in order. -/
noncomputable abbrev wr20 : List (Ref sig .tc) := [main_cst_31, main_v222, main_v223, main_v224, main_v225]
set_option maxHeartbeats 4000000 in
theorem hostOps20_writes : Writes (F := F) hostOps20 wr20 := by
  repeat' first | exact List.Forall₂.nil | refine List.Forall₂.cons rfl ?_
theorem wr20_idx : (wr20.all fun y => decide (27 ≤ (y.idx : ℕ))) = true := by decide
/-- A buffer that is none of them holds after the stretch what it held before. -/
theorem keep_hostOps20_of_not_mem (W : Valuation τ sig (Elt F)) (b : Ref sig .tc) (hb : b ∉ wr20) :
    StableHlo.after hostOps20 W (Proc.devRef .tc b) = W (Proc.devRef .tc b) := after_of_writes hostOps20_writes W hb
/-- In particular an argument does. -/
theorem keep_hostOps20 (W : Valuation τ sig (Elt F)) (b : Ref sig .tc) (hb : IsArg b) :
    StableHlo.after hostOps20 W (Proc.devRef .tc b) = W (Proc.devRef .tc b) :=
  after_of_writes_isArg hostOps20_writes wr20_idx W hb

/-- The buffers `hostOps21` writes, in order. -/
noncomputable abbrev wr21 : List (Ref sig .tc) := [main_v227]
set_option maxHeartbeats 4000000 in
theorem hostOps21_writes : Writes (F := F) hostOps21 wr21 := by
  repeat' first | exact List.Forall₂.nil | refine List.Forall₂.cons rfl ?_
theorem wr21_idx : (wr21.all fun y => decide (27 ≤ (y.idx : ℕ))) = true := by decide
/-- A buffer that is none of them holds after the stretch what it held before. -/
theorem keep_hostOps21_of_not_mem (W : Valuation τ sig (Elt F)) (b : Ref sig .tc) (hb : b ∉ wr21) :
    StableHlo.after hostOps21 W (Proc.devRef .tc b) = W (Proc.devRef .tc b) := after_of_writes hostOps21_writes W hb
/-- In particular an argument does. -/
theorem keep_hostOps21 (W : Valuation τ sig (Elt F)) (b : Ref sig .tc) (hb : IsArg b) :
    StableHlo.after hostOps21 W (Proc.devRef .tc b) = W (Proc.devRef .tc b) :=
  after_of_writes_isArg hostOps21_writes wr21_idx W hb

/-- The buffers `hostOps22` writes, in order. -/
noncomputable abbrev wr22 : List (Ref sig .tc) := [main_c_32, main_v229, main_v230, main_c_33, main_v231, main_v232, main_v233, main_v234, main_v235, main_v236, main_v237, main_v238, main_cst_34, main_v239, main_v240, main_v241, main_v242]
set_option maxHeartbeats 4000000 in
theorem hostOps22_writes : Writes (F := F) hostOps22 wr22 := by
  repeat' first | exact List.Forall₂.nil | refine List.Forall₂.cons rfl ?_
theorem wr22_idx : (wr22.all fun y => decide (27 ≤ (y.idx : ℕ))) = true := by decide
/-- A buffer that is none of them holds after the stretch what it held before. -/
theorem keep_hostOps22_of_not_mem (W : Valuation τ sig (Elt F)) (b : Ref sig .tc) (hb : b ∉ wr22) :
    StableHlo.after hostOps22 W (Proc.devRef .tc b) = W (Proc.devRef .tc b) := after_of_writes hostOps22_writes W hb
/-- In particular an argument does. -/
theorem keep_hostOps22 (W : Valuation τ sig (Elt F)) (b : Ref sig .tc) (hb : IsArg b) :
    StableHlo.after hostOps22 W (Proc.devRef .tc b) = W (Proc.devRef .tc b) :=
  after_of_writes_isArg hostOps22_writes wr22_idx W hb

/-- The buffers `hostOps23` writes, in order. -/
noncomputable abbrev wr23 : List (Ref sig .tc) := [main_cst_35, main_v244, main_v245]
set_option maxHeartbeats 4000000 in
theorem hostOps23_writes : Writes (F := F) hostOps23 wr23 := by
  repeat' first | exact List.Forall₂.nil | refine List.Forall₂.cons rfl ?_
theorem wr23_idx : (wr23.all fun y => decide (27 ≤ (y.idx : ℕ))) = true := by decide
/-- A buffer that is none of them holds after the stretch what it held before. -/
theorem keep_hostOps23_of_not_mem (W : Valuation τ sig (Elt F)) (b : Ref sig .tc) (hb : b ∉ wr23) :
    StableHlo.after hostOps23 W (Proc.devRef .tc b) = W (Proc.devRef .tc b) := after_of_writes hostOps23_writes W hb
/-- In particular an argument does. -/
theorem keep_hostOps23 (W : Valuation τ sig (Elt F)) (b : Ref sig .tc) (hb : IsArg b) :
    StableHlo.after hostOps23 W (Proc.devRef .tc b) = W (Proc.devRef .tc b) :=
  after_of_writes_isArg hostOps23_writes wr23_idx W hb

/-- The buffers `hostOps24` writes, in order. -/
noncomputable abbrev wr24 : List (Ref sig .tc) := [main_cst_36, main_v247, main_v248, main_v249, main_v250]
set_option maxHeartbeats 4000000 in
theorem hostOps24_writes : Writes (F := F) hostOps24 wr24 := by
  repeat' first | exact List.Forall₂.nil | refine List.Forall₂.cons rfl ?_
theorem wr24_idx : (wr24.all fun y => decide (27 ≤ (y.idx : ℕ))) = true := by decide
/-- A buffer that is none of them holds after the stretch what it held before. -/
theorem keep_hostOps24_of_not_mem (W : Valuation τ sig (Elt F)) (b : Ref sig .tc) (hb : b ∉ wr24) :
    StableHlo.after hostOps24 W (Proc.devRef .tc b) = W (Proc.devRef .tc b) := after_of_writes hostOps24_writes W hb
/-- In particular an argument does. -/
theorem keep_hostOps24 (W : Valuation τ sig (Elt F)) (b : Ref sig .tc) (hb : IsArg b) :
    StableHlo.after hostOps24 W (Proc.devRef .tc b) = W (Proc.devRef .tc b) :=
  after_of_writes_isArg hostOps24_writes wr24_idx W hb

/-- The buffers `hostOps25` writes, in order. -/
noncomputable abbrev wr25 : List (Ref sig .tc) := [main_v252]
set_option maxHeartbeats 4000000 in
theorem hostOps25_writes : Writes (F := F) hostOps25 wr25 := by
  repeat' first | exact List.Forall₂.nil | refine List.Forall₂.cons rfl ?_
theorem wr25_idx : (wr25.all fun y => decide (27 ≤ (y.idx : ℕ))) = true := by decide
/-- A buffer that is none of them holds after the stretch what it held before. -/
theorem keep_hostOps25_of_not_mem (W : Valuation τ sig (Elt F)) (b : Ref sig .tc) (hb : b ∉ wr25) :
    StableHlo.after hostOps25 W (Proc.devRef .tc b) = W (Proc.devRef .tc b) := after_of_writes hostOps25_writes W hb
/-- In particular an argument does. -/
theorem keep_hostOps25 (W : Valuation τ sig (Elt F)) (b : Ref sig .tc) (hb : IsArg b) :
    StableHlo.after hostOps25 W (Proc.devRef .tc b) = W (Proc.devRef .tc b) :=
  after_of_writes_isArg hostOps25_writes wr25_idx W hb

/-- The buffers `hostOps26` writes, in order. -/
noncomputable abbrev wr26 : List (Ref sig .tc) := [main_c_37, main_v254, main_v255, main_c_38, main_v256, main_v257, main_v258, main_v259, main_v260, main_v261, main_v262, main_v263, main_cst_39, main_v264, main_v265, main_v266, main_v267]
set_option maxHeartbeats 4000000 in
theorem hostOps26_writes : Writes (F := F) hostOps26 wr26 := by
  repeat' first | exact List.Forall₂.nil | refine List.Forall₂.cons rfl ?_
theorem wr26_idx : (wr26.all fun y => decide (27 ≤ (y.idx : ℕ))) = true := by decide
/-- A buffer that is none of them holds after the stretch what it held before. -/
theorem keep_hostOps26_of_not_mem (W : Valuation τ sig (Elt F)) (b : Ref sig .tc) (hb : b ∉ wr26) :
    StableHlo.after hostOps26 W (Proc.devRef .tc b) = W (Proc.devRef .tc b) := after_of_writes hostOps26_writes W hb
/-- In particular an argument does. -/
theorem keep_hostOps26 (W : Valuation τ sig (Elt F)) (b : Ref sig .tc) (hb : IsArg b) :
    StableHlo.after hostOps26 W (Proc.devRef .tc b) = W (Proc.devRef .tc b) :=
  after_of_writes_isArg hostOps26_writes wr26_idx W hb

/-- The buffers `hostOps27` writes, in order. -/
noncomputable abbrev wr27 : List (Ref sig .tc) := [main_cst_40, main_v269, main_v270]
set_option maxHeartbeats 4000000 in
theorem hostOps27_writes : Writes (F := F) hostOps27 wr27 := by
  repeat' first | exact List.Forall₂.nil | refine List.Forall₂.cons rfl ?_
theorem wr27_idx : (wr27.all fun y => decide (27 ≤ (y.idx : ℕ))) = true := by decide
/-- A buffer that is none of them holds after the stretch what it held before. -/
theorem keep_hostOps27_of_not_mem (W : Valuation τ sig (Elt F)) (b : Ref sig .tc) (hb : b ∉ wr27) :
    StableHlo.after hostOps27 W (Proc.devRef .tc b) = W (Proc.devRef .tc b) := after_of_writes hostOps27_writes W hb
/-- In particular an argument does. -/
theorem keep_hostOps27 (W : Valuation τ sig (Elt F)) (b : Ref sig .tc) (hb : IsArg b) :
    StableHlo.after hostOps27 W (Proc.devRef .tc b) = W (Proc.devRef .tc b) :=
  after_of_writes_isArg hostOps27_writes wr27_idx W hb

/-- The buffers `hostOps28` writes, in order. -/
noncomputable abbrev wr28 : List (Ref sig .tc) := [main_cst_41, main_v272, main_v273, main_v274, main_v275]
set_option maxHeartbeats 4000000 in
theorem hostOps28_writes : Writes (F := F) hostOps28 wr28 := by
  repeat' first | exact List.Forall₂.nil | refine List.Forall₂.cons rfl ?_
theorem wr28_idx : (wr28.all fun y => decide (27 ≤ (y.idx : ℕ))) = true := by decide
/-- A buffer that is none of them holds after the stretch what it held before. -/
theorem keep_hostOps28_of_not_mem (W : Valuation τ sig (Elt F)) (b : Ref sig .tc) (hb : b ∉ wr28) :
    StableHlo.after hostOps28 W (Proc.devRef .tc b) = W (Proc.devRef .tc b) := after_of_writes hostOps28_writes W hb
/-- In particular an argument does. -/
theorem keep_hostOps28 (W : Valuation τ sig (Elt F)) (b : Ref sig .tc) (hb : IsArg b) :
    StableHlo.after hostOps28 W (Proc.devRef .tc b) = W (Proc.devRef .tc b) :=
  after_of_writes_isArg hostOps28_writes wr28_idx W hb

/-- The buffers `hostOps29` writes, in order. -/
noncomputable abbrev wr29 : List (Ref sig .tc) := [main_v277]
set_option maxHeartbeats 4000000 in
theorem hostOps29_writes : Writes (F := F) hostOps29 wr29 := by
  repeat' first | exact List.Forall₂.nil | refine List.Forall₂.cons rfl ?_
theorem wr29_idx : (wr29.all fun y => decide (27 ≤ (y.idx : ℕ))) = true := by decide
/-- A buffer that is none of them holds after the stretch what it held before. -/
theorem keep_hostOps29_of_not_mem (W : Valuation τ sig (Elt F)) (b : Ref sig .tc) (hb : b ∉ wr29) :
    StableHlo.after hostOps29 W (Proc.devRef .tc b) = W (Proc.devRef .tc b) := after_of_writes hostOps29_writes W hb
/-- In particular an argument does. -/
theorem keep_hostOps29 (W : Valuation τ sig (Elt F)) (b : Ref sig .tc) (hb : IsArg b) :
    StableHlo.after hostOps29 W (Proc.devRef .tc b) = W (Proc.devRef .tc b) :=
  after_of_writes_isArg hostOps29_writes wr29_idx W hb

/-- The buffers `hostOps30` writes, in order. -/
noncomputable abbrev wr30 : List (Ref sig .tc) := [main_c_42, main_v279, main_v280, main_c_43, main_v281, main_v282, main_v283, main_v284, main_v285, main_v286, main_v287, main_v288, main_cst_44, main_v289, main_v290, main_v291, main_v292]
set_option maxHeartbeats 4000000 in
theorem hostOps30_writes : Writes (F := F) hostOps30 wr30 := by
  repeat' first | exact List.Forall₂.nil | refine List.Forall₂.cons rfl ?_
theorem wr30_idx : (wr30.all fun y => decide (27 ≤ (y.idx : ℕ))) = true := by decide
/-- A buffer that is none of them holds after the stretch what it held before. -/
theorem keep_hostOps30_of_not_mem (W : Valuation τ sig (Elt F)) (b : Ref sig .tc) (hb : b ∉ wr30) :
    StableHlo.after hostOps30 W (Proc.devRef .tc b) = W (Proc.devRef .tc b) := after_of_writes hostOps30_writes W hb
/-- In particular an argument does. -/
theorem keep_hostOps30 (W : Valuation τ sig (Elt F)) (b : Ref sig .tc) (hb : IsArg b) :
    StableHlo.after hostOps30 W (Proc.devRef .tc b) = W (Proc.devRef .tc b) :=
  after_of_writes_isArg hostOps30_writes wr30_idx W hb

/-- The buffers `hostOps31` writes, in order. -/
noncomputable abbrev wr31 : List (Ref sig .tc) := [main_cst_45, main_v294, main_v295]
set_option maxHeartbeats 4000000 in
theorem hostOps31_writes : Writes (F := F) hostOps31 wr31 := by
  repeat' first | exact List.Forall₂.nil | refine List.Forall₂.cons rfl ?_
theorem wr31_idx : (wr31.all fun y => decide (27 ≤ (y.idx : ℕ))) = true := by decide
/-- A buffer that is none of them holds after the stretch what it held before. -/
theorem keep_hostOps31_of_not_mem (W : Valuation τ sig (Elt F)) (b : Ref sig .tc) (hb : b ∉ wr31) :
    StableHlo.after hostOps31 W (Proc.devRef .tc b) = W (Proc.devRef .tc b) := after_of_writes hostOps31_writes W hb
/-- In particular an argument does. -/
theorem keep_hostOps31 (W : Valuation τ sig (Elt F)) (b : Ref sig .tc) (hb : IsArg b) :
    StableHlo.after hostOps31 W (Proc.devRef .tc b) = W (Proc.devRef .tc b) :=
  after_of_writes_isArg hostOps31_writes wr31_idx W hb

/-- The buffers `hostOps32` writes, in order. -/
noncomputable abbrev wr32 : List (Ref sig .tc) := [main_cst_46, main_v297, main_v298, main_v299, main_v300]
set_option maxHeartbeats 4000000 in
theorem hostOps32_writes : Writes (F := F) hostOps32 wr32 := by
  repeat' first | exact List.Forall₂.nil | refine List.Forall₂.cons rfl ?_
theorem wr32_idx : (wr32.all fun y => decide (27 ≤ (y.idx : ℕ))) = true := by decide
/-- A buffer that is none of them holds after the stretch what it held before. -/
theorem keep_hostOps32_of_not_mem (W : Valuation τ sig (Elt F)) (b : Ref sig .tc) (hb : b ∉ wr32) :
    StableHlo.after hostOps32 W (Proc.devRef .tc b) = W (Proc.devRef .tc b) := after_of_writes hostOps32_writes W hb
/-- In particular an argument does. -/
theorem keep_hostOps32 (W : Valuation τ sig (Elt F)) (b : Ref sig .tc) (hb : IsArg b) :
    StableHlo.after hostOps32 W (Proc.devRef .tc b) = W (Proc.devRef .tc b) :=
  after_of_writes_isArg hostOps32_writes wr32_idx W hb

/-- The buffers `hostOps33` writes, in order. -/
noncomputable abbrev wr33 : List (Ref sig .tc) := [main_v302]
set_option maxHeartbeats 4000000 in
theorem hostOps33_writes : Writes (F := F) hostOps33 wr33 := by
  repeat' first | exact List.Forall₂.nil | refine List.Forall₂.cons rfl ?_
theorem wr33_idx : (wr33.all fun y => decide (27 ≤ (y.idx : ℕ))) = true := by decide
/-- A buffer that is none of them holds after the stretch what it held before. -/
theorem keep_hostOps33_of_not_mem (W : Valuation τ sig (Elt F)) (b : Ref sig .tc) (hb : b ∉ wr33) :
    StableHlo.after hostOps33 W (Proc.devRef .tc b) = W (Proc.devRef .tc b) := after_of_writes hostOps33_writes W hb
/-- In particular an argument does. -/
theorem keep_hostOps33 (W : Valuation τ sig (Elt F)) (b : Ref sig .tc) (hb : IsArg b) :
    StableHlo.after hostOps33 W (Proc.devRef .tc b) = W (Proc.devRef .tc b) :=
  after_of_writes_isArg hostOps33_writes wr33_idx W hb

/-- The buffers `hostOps34` writes, in order. -/
noncomputable abbrev wr34 : List (Ref sig .tc) := [main_c_47, main_v304, main_v305, main_c_48, main_v306, main_v307, main_v308, main_v309, main_v310, main_v311, main_v312, main_v313, main_cst_49, main_v314, main_v315, main_v316, main_v317]
set_option maxHeartbeats 4000000 in
theorem hostOps34_writes : Writes (F := F) hostOps34 wr34 := by
  repeat' first | exact List.Forall₂.nil | refine List.Forall₂.cons rfl ?_
theorem wr34_idx : (wr34.all fun y => decide (27 ≤ (y.idx : ℕ))) = true := by decide
/-- A buffer that is none of them holds after the stretch what it held before. -/
theorem keep_hostOps34_of_not_mem (W : Valuation τ sig (Elt F)) (b : Ref sig .tc) (hb : b ∉ wr34) :
    StableHlo.after hostOps34 W (Proc.devRef .tc b) = W (Proc.devRef .tc b) := after_of_writes hostOps34_writes W hb
/-- In particular an argument does. -/
theorem keep_hostOps34 (W : Valuation τ sig (Elt F)) (b : Ref sig .tc) (hb : IsArg b) :
    StableHlo.after hostOps34 W (Proc.devRef .tc b) = W (Proc.devRef .tc b) :=
  after_of_writes_isArg hostOps34_writes wr34_idx W hb

/-- The buffers `hostOps35` writes, in order. -/
noncomputable abbrev wr35 : List (Ref sig .tc) := [main_cst_50, main_v319, main_v320]
set_option maxHeartbeats 4000000 in
theorem hostOps35_writes : Writes (F := F) hostOps35 wr35 := by
  repeat' first | exact List.Forall₂.nil | refine List.Forall₂.cons rfl ?_
theorem wr35_idx : (wr35.all fun y => decide (27 ≤ (y.idx : ℕ))) = true := by decide
/-- A buffer that is none of them holds after the stretch what it held before. -/
theorem keep_hostOps35_of_not_mem (W : Valuation τ sig (Elt F)) (b : Ref sig .tc) (hb : b ∉ wr35) :
    StableHlo.after hostOps35 W (Proc.devRef .tc b) = W (Proc.devRef .tc b) := after_of_writes hostOps35_writes W hb
/-- In particular an argument does. -/
theorem keep_hostOps35 (W : Valuation τ sig (Elt F)) (b : Ref sig .tc) (hb : IsArg b) :
    StableHlo.after hostOps35 W (Proc.devRef .tc b) = W (Proc.devRef .tc b) :=
  after_of_writes_isArg hostOps35_writes wr35_idx W hb

/-- The buffers `hostOps36` writes, in order. -/
noncomputable abbrev wr36 : List (Ref sig .tc) := [main_cst_51, main_v322, main_v323, main_v324, main_v325]
set_option maxHeartbeats 4000000 in
theorem hostOps36_writes : Writes (F := F) hostOps36 wr36 := by
  repeat' first | exact List.Forall₂.nil | refine List.Forall₂.cons rfl ?_
theorem wr36_idx : (wr36.all fun y => decide (27 ≤ (y.idx : ℕ))) = true := by decide
/-- A buffer that is none of them holds after the stretch what it held before. -/
theorem keep_hostOps36_of_not_mem (W : Valuation τ sig (Elt F)) (b : Ref sig .tc) (hb : b ∉ wr36) :
    StableHlo.after hostOps36 W (Proc.devRef .tc b) = W (Proc.devRef .tc b) := after_of_writes hostOps36_writes W hb
/-- In particular an argument does. -/
theorem keep_hostOps36 (W : Valuation τ sig (Elt F)) (b : Ref sig .tc) (hb : IsArg b) :
    StableHlo.after hostOps36 W (Proc.devRef .tc b) = W (Proc.devRef .tc b) :=
  after_of_writes_isArg hostOps36_writes wr36_idx W hb

/-- The buffers `hostOps37` writes, in order. -/
noncomputable abbrev wr37 : List (Ref sig .tc) := [main_v327]
set_option maxHeartbeats 4000000 in
theorem hostOps37_writes : Writes (F := F) hostOps37 wr37 := by
  repeat' first | exact List.Forall₂.nil | refine List.Forall₂.cons rfl ?_
theorem wr37_idx : (wr37.all fun y => decide (27 ≤ (y.idx : ℕ))) = true := by decide
/-- A buffer that is none of them holds after the stretch what it held before. -/
theorem keep_hostOps37_of_not_mem (W : Valuation τ sig (Elt F)) (b : Ref sig .tc) (hb : b ∉ wr37) :
    StableHlo.after hostOps37 W (Proc.devRef .tc b) = W (Proc.devRef .tc b) := after_of_writes hostOps37_writes W hb
/-- In particular an argument does. -/
theorem keep_hostOps37 (W : Valuation τ sig (Elt F)) (b : Ref sig .tc) (hb : IsArg b) :
    StableHlo.after hostOps37 W (Proc.devRef .tc b) = W (Proc.devRef .tc b) :=
  after_of_writes_isArg hostOps37_writes wr37_idx W hb

/-- The buffers `hostOps38` writes, in order. -/
noncomputable abbrev wr38 : List (Ref sig .tc) := [main_c_52, main_v329, main_v330, main_c_53, main_v331, main_v332, main_v333, main_v334, main_v335, main_v336, main_v337, main_v338, main_cst_54, main_v339, main_v340, main_v341, main_v342]
set_option maxHeartbeats 4000000 in
theorem hostOps38_writes : Writes (F := F) hostOps38 wr38 := by
  repeat' first | exact List.Forall₂.nil | refine List.Forall₂.cons rfl ?_
theorem wr38_idx : (wr38.all fun y => decide (27 ≤ (y.idx : ℕ))) = true := by decide
/-- A buffer that is none of them holds after the stretch what it held before. -/
theorem keep_hostOps38_of_not_mem (W : Valuation τ sig (Elt F)) (b : Ref sig .tc) (hb : b ∉ wr38) :
    StableHlo.after hostOps38 W (Proc.devRef .tc b) = W (Proc.devRef .tc b) := after_of_writes hostOps38_writes W hb
/-- In particular an argument does. -/
theorem keep_hostOps38 (W : Valuation τ sig (Elt F)) (b : Ref sig .tc) (hb : IsArg b) :
    StableHlo.after hostOps38 W (Proc.devRef .tc b) = W (Proc.devRef .tc b) :=
  after_of_writes_isArg hostOps38_writes wr38_idx W hb

/-- The buffers `hostOps39` writes, in order. -/
noncomputable abbrev wr39 : List (Ref sig .tc) := [main_cst_55, main_v344, main_v345]
set_option maxHeartbeats 4000000 in
theorem hostOps39_writes : Writes (F := F) hostOps39 wr39 := by
  repeat' first | exact List.Forall₂.nil | refine List.Forall₂.cons rfl ?_
theorem wr39_idx : (wr39.all fun y => decide (27 ≤ (y.idx : ℕ))) = true := by decide
/-- A buffer that is none of them holds after the stretch what it held before. -/
theorem keep_hostOps39_of_not_mem (W : Valuation τ sig (Elt F)) (b : Ref sig .tc) (hb : b ∉ wr39) :
    StableHlo.after hostOps39 W (Proc.devRef .tc b) = W (Proc.devRef .tc b) := after_of_writes hostOps39_writes W hb
/-- In particular an argument does. -/
theorem keep_hostOps39 (W : Valuation τ sig (Elt F)) (b : Ref sig .tc) (hb : IsArg b) :
    StableHlo.after hostOps39 W (Proc.devRef .tc b) = W (Proc.devRef .tc b) :=
  after_of_writes_isArg hostOps39_writes wr39_idx W hb

/-- The buffers `hostOps40` writes, in order. -/
noncomputable abbrev wr40 : List (Ref sig .tc) := [main_cst_56, main_v347, main_v348, main_v349, main_v350]
set_option maxHeartbeats 4000000 in
theorem hostOps40_writes : Writes (F := F) hostOps40 wr40 := by
  repeat' first | exact List.Forall₂.nil | refine List.Forall₂.cons rfl ?_
theorem wr40_idx : (wr40.all fun y => decide (27 ≤ (y.idx : ℕ))) = true := by decide
/-- A buffer that is none of them holds after the stretch what it held before. -/
theorem keep_hostOps40_of_not_mem (W : Valuation τ sig (Elt F)) (b : Ref sig .tc) (hb : b ∉ wr40) :
    StableHlo.after hostOps40 W (Proc.devRef .tc b) = W (Proc.devRef .tc b) := after_of_writes hostOps40_writes W hb
/-- In particular an argument does. -/
theorem keep_hostOps40 (W : Valuation τ sig (Elt F)) (b : Ref sig .tc) (hb : IsArg b) :
    StableHlo.after hostOps40 W (Proc.devRef .tc b) = W (Proc.devRef .tc b) :=
  after_of_writes_isArg hostOps40_writes wr40_idx W hb

/-- The buffers `hostOps41` writes, in order. -/
noncomputable abbrev wr41 : List (Ref sig .tc) := [main_v352]
set_option maxHeartbeats 4000000 in
theorem hostOps41_writes : Writes (F := F) hostOps41 wr41 := by
  repeat' first | exact List.Forall₂.nil | refine List.Forall₂.cons rfl ?_
theorem wr41_idx : (wr41.all fun y => decide (27 ≤ (y.idx : ℕ))) = true := by decide
/-- A buffer that is none of them holds after the stretch what it held before. -/
theorem keep_hostOps41_of_not_mem (W : Valuation τ sig (Elt F)) (b : Ref sig .tc) (hb : b ∉ wr41) :
    StableHlo.after hostOps41 W (Proc.devRef .tc b) = W (Proc.devRef .tc b) := after_of_writes hostOps41_writes W hb
/-- In particular an argument does. -/
theorem keep_hostOps41 (W : Valuation τ sig (Elt F)) (b : Ref sig .tc) (hb : IsArg b) :
    StableHlo.after hostOps41 W (Proc.devRef .tc b) = W (Proc.devRef .tc b) :=
  after_of_writes_isArg hostOps41_writes wr41_idx W hb

/-- The buffers `hostOps42` writes, in order. -/
noncomputable abbrev wr42 : List (Ref sig .tc) := [main_c_57, main_v354, main_v355, main_c_58, main_v356, main_v357, main_v358, main_v359, main_v360, main_v361, main_v362, main_v363, main_cst_59, main_v364, main_v365, main_v366, main_v367]
set_option maxHeartbeats 4000000 in
theorem hostOps42_writes : Writes (F := F) hostOps42 wr42 := by
  repeat' first | exact List.Forall₂.nil | refine List.Forall₂.cons rfl ?_
theorem wr42_idx : (wr42.all fun y => decide (27 ≤ (y.idx : ℕ))) = true := by decide
/-- A buffer that is none of them holds after the stretch what it held before. -/
theorem keep_hostOps42_of_not_mem (W : Valuation τ sig (Elt F)) (b : Ref sig .tc) (hb : b ∉ wr42) :
    StableHlo.after hostOps42 W (Proc.devRef .tc b) = W (Proc.devRef .tc b) := after_of_writes hostOps42_writes W hb
/-- In particular an argument does. -/
theorem keep_hostOps42 (W : Valuation τ sig (Elt F)) (b : Ref sig .tc) (hb : IsArg b) :
    StableHlo.after hostOps42 W (Proc.devRef .tc b) = W (Proc.devRef .tc b) :=
  after_of_writes_isArg hostOps42_writes wr42_idx W hb

/-- The buffers `hostOps43` writes, in order. -/
noncomputable abbrev wr43 : List (Ref sig .tc) := [main_cst_60, main_v369, main_v370]
set_option maxHeartbeats 4000000 in
theorem hostOps43_writes : Writes (F := F) hostOps43 wr43 := by
  repeat' first | exact List.Forall₂.nil | refine List.Forall₂.cons rfl ?_
theorem wr43_idx : (wr43.all fun y => decide (27 ≤ (y.idx : ℕ))) = true := by decide
/-- A buffer that is none of them holds after the stretch what it held before. -/
theorem keep_hostOps43_of_not_mem (W : Valuation τ sig (Elt F)) (b : Ref sig .tc) (hb : b ∉ wr43) :
    StableHlo.after hostOps43 W (Proc.devRef .tc b) = W (Proc.devRef .tc b) := after_of_writes hostOps43_writes W hb
/-- In particular an argument does. -/
theorem keep_hostOps43 (W : Valuation τ sig (Elt F)) (b : Ref sig .tc) (hb : IsArg b) :
    StableHlo.after hostOps43 W (Proc.devRef .tc b) = W (Proc.devRef .tc b) :=
  after_of_writes_isArg hostOps43_writes wr43_idx W hb

/-- The buffers `hostOps44` writes, in order. -/
noncomputable abbrev wr44 : List (Ref sig .tc) := [main_cst_61, main_v372, main_v373, main_v374, main_v375]
set_option maxHeartbeats 4000000 in
theorem hostOps44_writes : Writes (F := F) hostOps44 wr44 := by
  repeat' first | exact List.Forall₂.nil | refine List.Forall₂.cons rfl ?_
theorem wr44_idx : (wr44.all fun y => decide (27 ≤ (y.idx : ℕ))) = true := by decide
/-- A buffer that is none of them holds after the stretch what it held before. -/
theorem keep_hostOps44_of_not_mem (W : Valuation τ sig (Elt F)) (b : Ref sig .tc) (hb : b ∉ wr44) :
    StableHlo.after hostOps44 W (Proc.devRef .tc b) = W (Proc.devRef .tc b) := after_of_writes hostOps44_writes W hb
/-- In particular an argument does. -/
theorem keep_hostOps44 (W : Valuation τ sig (Elt F)) (b : Ref sig .tc) (hb : IsArg b) :
    StableHlo.after hostOps44 W (Proc.devRef .tc b) = W (Proc.devRef .tc b) :=
  after_of_writes_isArg hostOps44_writes wr44_idx W hb

/-- The buffers `hostOps45` writes, in order. -/
noncomputable abbrev wr45 : List (Ref sig .tc) := [main_v377]
set_option maxHeartbeats 4000000 in
theorem hostOps45_writes : Writes (F := F) hostOps45 wr45 := by
  repeat' first | exact List.Forall₂.nil | refine List.Forall₂.cons rfl ?_
theorem wr45_idx : (wr45.all fun y => decide (27 ≤ (y.idx : ℕ))) = true := by decide
/-- A buffer that is none of them holds after the stretch what it held before. -/
theorem keep_hostOps45_of_not_mem (W : Valuation τ sig (Elt F)) (b : Ref sig .tc) (hb : b ∉ wr45) :
    StableHlo.after hostOps45 W (Proc.devRef .tc b) = W (Proc.devRef .tc b) := after_of_writes hostOps45_writes W hb
/-- In particular an argument does. -/
theorem keep_hostOps45 (W : Valuation τ sig (Elt F)) (b : Ref sig .tc) (hb : IsArg b) :
    StableHlo.after hostOps45 W (Proc.devRef .tc b) = W (Proc.devRef .tc b) :=
  after_of_writes_isArg hostOps45_writes wr45_idx W hb

/-- The buffers `hostOps46` writes, in order. -/
noncomputable abbrev wr46 : List (Ref sig .tc) := [main_c_62, main_v379, main_v380, main_c_63, main_v381, main_v382, main_v383, main_v384, main_v385, main_v386, main_v387, main_v388, main_cst_64, main_v389, main_v390, main_v391, main_v392]
set_option maxHeartbeats 4000000 in
theorem hostOps46_writes : Writes (F := F) hostOps46 wr46 := by
  repeat' first | exact List.Forall₂.nil | refine List.Forall₂.cons rfl ?_
theorem wr46_idx : (wr46.all fun y => decide (27 ≤ (y.idx : ℕ))) = true := by decide
/-- A buffer that is none of them holds after the stretch what it held before. -/
theorem keep_hostOps46_of_not_mem (W : Valuation τ sig (Elt F)) (b : Ref sig .tc) (hb : b ∉ wr46) :
    StableHlo.after hostOps46 W (Proc.devRef .tc b) = W (Proc.devRef .tc b) := after_of_writes hostOps46_writes W hb
/-- In particular an argument does. -/
theorem keep_hostOps46 (W : Valuation τ sig (Elt F)) (b : Ref sig .tc) (hb : IsArg b) :
    StableHlo.after hostOps46 W (Proc.devRef .tc b) = W (Proc.devRef .tc b) :=
  after_of_writes_isArg hostOps46_writes wr46_idx W hb

/-- The buffers `hostOps47` writes, in order. -/
noncomputable abbrev wr47 : List (Ref sig .tc) := [main_cst_65, main_v394, main_v395]
set_option maxHeartbeats 4000000 in
theorem hostOps47_writes : Writes (F := F) hostOps47 wr47 := by
  repeat' first | exact List.Forall₂.nil | refine List.Forall₂.cons rfl ?_
theorem wr47_idx : (wr47.all fun y => decide (27 ≤ (y.idx : ℕ))) = true := by decide
/-- A buffer that is none of them holds after the stretch what it held before. -/
theorem keep_hostOps47_of_not_mem (W : Valuation τ sig (Elt F)) (b : Ref sig .tc) (hb : b ∉ wr47) :
    StableHlo.after hostOps47 W (Proc.devRef .tc b) = W (Proc.devRef .tc b) := after_of_writes hostOps47_writes W hb
/-- In particular an argument does. -/
theorem keep_hostOps47 (W : Valuation τ sig (Elt F)) (b : Ref sig .tc) (hb : IsArg b) :
    StableHlo.after hostOps47 W (Proc.devRef .tc b) = W (Proc.devRef .tc b) :=
  after_of_writes_isArg hostOps47_writes wr47_idx W hb

/-- The buffers `hostOps48` writes, in order. -/
noncomputable abbrev wr48 : List (Ref sig .tc) := [main_cst_66, main_v397, main_v398, main_v399, main_v400]
set_option maxHeartbeats 4000000 in
theorem hostOps48_writes : Writes (F := F) hostOps48 wr48 := by
  repeat' first | exact List.Forall₂.nil | refine List.Forall₂.cons rfl ?_
theorem wr48_idx : (wr48.all fun y => decide (27 ≤ (y.idx : ℕ))) = true := by decide
/-- A buffer that is none of them holds after the stretch what it held before. -/
theorem keep_hostOps48_of_not_mem (W : Valuation τ sig (Elt F)) (b : Ref sig .tc) (hb : b ∉ wr48) :
    StableHlo.after hostOps48 W (Proc.devRef .tc b) = W (Proc.devRef .tc b) := after_of_writes hostOps48_writes W hb
/-- In particular an argument does. -/
theorem keep_hostOps48 (W : Valuation τ sig (Elt F)) (b : Ref sig .tc) (hb : IsArg b) :
    StableHlo.after hostOps48 W (Proc.devRef .tc b) = W (Proc.devRef .tc b) :=
  after_of_writes_isArg hostOps48_writes wr48_idx W hb

/-- The buffers `hostOps49` writes, in order. -/
noncomputable abbrev wr49 : List (Ref sig .tc) := [main_v402]
set_option maxHeartbeats 4000000 in
theorem hostOps49_writes : Writes (F := F) hostOps49 wr49 := by
  repeat' first | exact List.Forall₂.nil | refine List.Forall₂.cons rfl ?_
theorem wr49_idx : (wr49.all fun y => decide (27 ≤ (y.idx : ℕ))) = true := by decide
/-- A buffer that is none of them holds after the stretch what it held before. -/
theorem keep_hostOps49_of_not_mem (W : Valuation τ sig (Elt F)) (b : Ref sig .tc) (hb : b ∉ wr49) :
    StableHlo.after hostOps49 W (Proc.devRef .tc b) = W (Proc.devRef .tc b) := after_of_writes hostOps49_writes W hb
/-- In particular an argument does. -/
theorem keep_hostOps49 (W : Valuation τ sig (Elt F)) (b : Ref sig .tc) (hb : IsArg b) :
    StableHlo.after hostOps49 W (Proc.devRef .tc b) = W (Proc.devRef .tc b) :=
  after_of_writes_isArg hostOps49_writes wr49_idx W hb

/-! ## Across a kernel region -/

variable (m : (ℓ : Loc nD τ sig) → Buf (Elt F) ℓ) (ρ : Dev nD → PrngReg)

/-- Region 0's arrays are computed values, but window 1: the argument `main_arg4`, an input. -/
theorem win0_idx : ∀ w, w = 1 ∨ 27 ≤ ((Pipeline.arrRef spec0 w).idx : ℕ) := by decide
/-- An input window's array is, in the region's proof data, the entry contents throughout (whatever they are). -/
theorem A_in0 (V : (c : Dev nD) → (b : Ref sig .tc) → Buf (Elt F) ((c : Thread nD τ).loc b)) (c : Dev nD) :
    (dat0 V c).A 1 = V c (Pipeline.arrRef spec0 1) := by
  first | exact A_eq0 V c 1 | rfl
/-- So region 0 leaves every argument as it found it: the one it reads through a window by that window's
    fold, which for an input is the entry array; the others because they are none of its arrays. -/
theorem keep_reg0 (c : Dev nD) (b : Ref sig .tc) (hb : IsArg b) :
    B4 m ρ c (Proc.devRef .tc b) = B3 m ρ c (Proc.devRef .tc b) := by
  by_cases h : b = main_arg4
  · subst h
    exact (B4_arr m ρ c 1).trans (((dat0 (E0 m ρ) c).arrAt_in 1 rfl _).trans (A_in0 (E0 m ρ) c))
  · refine B4_of_ne m ρ c b fun w => ?_
    rcases win0_idx w with rfl | hw
    · exact fun e => h e.symm
    · exact (ne_of_isArg hb hw).symm

/-- Region 1's arrays are computed values: none is an argument. -/
theorem win1_idx : ∀ w, 27 ≤ ((Pipeline.arrRef spec1 w).idx : ℕ) := by decide
/-- So region 1 leaves every argument as it found it. -/
theorem keep_reg1 (c : Dev nD) (b : Ref sig .tc) (hb : IsArg b) :
    B6 m ρ c (Proc.devRef .tc b) = B5 m ρ c (Proc.devRef .tc b) :=
  B6_of_ne m ρ c b fun w => (ne_of_isArg hb (win1_idx w)).symm

/-- Region 2's arrays are computed values: none is an argument. -/
theorem win2_idx : ∀ w, 27 ≤ ((Pipeline.arrRef spec2 w).idx : ℕ) := by decide
/-- So region 2 leaves every argument as it found it. -/
theorem keep_reg2 (c : Dev nD) (b : Ref sig .tc) (hb : IsArg b) :
    B8 m ρ c (Proc.devRef .tc b) = B7 m ρ c (Proc.devRef .tc b) :=
  B8_of_ne m ρ c b fun w => (ne_of_isArg hb (win2_idx w)).symm

/-- Region 3's arrays are computed values: none is an argument. -/
theorem win3_idx : ∀ w, 27 ≤ ((Pipeline.arrRef spec3 w).idx : ℕ) := by decide
/-- So region 3 leaves every argument as it found it. -/
theorem keep_reg3 (c : Dev nD) (b : Ref sig .tc) (hb : IsArg b) :
    B10 m ρ c (Proc.devRef .tc b) = B9 m ρ c (Proc.devRef .tc b) :=
  B10_of_ne m ρ c b fun w => (ne_of_isArg hb (win3_idx w)).symm

/-- Region 4's arrays are computed values: none is an argument. -/
theorem win4_idx : ∀ w, 27 ≤ ((Pipeline.arrRef spec4 w).idx : ℕ) := by decide
/-- So region 4 leaves every argument as it found it. -/
theorem keep_reg4 (c : Dev nD) (b : Ref sig .tc) (hb : IsArg b) :
    B12 m ρ c (Proc.devRef .tc b) = B11 m ρ c (Proc.devRef .tc b) :=
  B12_of_ne m ρ c b fun w => (ne_of_isArg hb (win4_idx w)).symm

/-- Region 5's arrays are computed values: none is an argument. -/
theorem win5_idx : ∀ w, 27 ≤ ((Pipeline.arrRef spec5 w).idx : ℕ) := by decide
/-- So region 5 leaves every argument as it found it. -/
theorem keep_reg5 (c : Dev nD) (b : Ref sig .tc) (hb : IsArg b) :
    B14 m ρ c (Proc.devRef .tc b) = B13 m ρ c (Proc.devRef .tc b) :=
  B14_of_ne m ρ c b fun w => (ne_of_isArg hb (win5_idx w)).symm

/-- Region 6's arrays are computed values: none is an argument. -/
theorem win6_idx : ∀ w, 27 ≤ ((Pipeline.arrRef spec6 w).idx : ℕ) := by decide
/-- So region 6 leaves every argument as it found it. -/
theorem keep_reg6 (c : Dev nD) (b : Ref sig .tc) (hb : IsArg b) :
    B16 m ρ c (Proc.devRef .tc b) = B15 m ρ c (Proc.devRef .tc b) :=
  B16_of_ne m ρ c b fun w => (ne_of_isArg hb (win6_idx w)).symm

/-- Region 7's arrays are computed values: none is an argument. -/
theorem win7_idx : ∀ w, 27 ≤ ((Pipeline.arrRef spec7 w).idx : ℕ) := by decide
/-- So region 7 leaves every argument as it found it. -/
theorem keep_reg7 (c : Dev nD) (b : Ref sig .tc) (hb : IsArg b) :
    B18 m ρ c (Proc.devRef .tc b) = B17 m ρ c (Proc.devRef .tc b) :=
  B18_of_ne m ρ c b fun w => (ne_of_isArg hb (win7_idx w)).symm

/-- Region 8's arrays are computed values: none is an argument. -/
theorem win8_idx : ∀ w, 27 ≤ ((Pipeline.arrRef spec8 w).idx : ℕ) := by decide
/-- So region 8 leaves every argument as it found it. -/
theorem keep_reg8 (c : Dev nD) (b : Ref sig .tc) (hb : IsArg b) :
    B20 m ρ c (Proc.devRef .tc b) = B19 m ρ c (Proc.devRef .tc b) :=
  B20_of_ne m ρ c b fun w => (ne_of_isArg hb (win8_idx w)).symm

/-- Region 9's arrays are computed values: none is an argument. -/
theorem win9_idx : ∀ w, 27 ≤ ((Pipeline.arrRef spec9 w).idx : ℕ) := by decide
/-- So region 9 leaves every argument as it found it. -/
theorem keep_reg9 (c : Dev nD) (b : Ref sig .tc) (hb : IsArg b) :
    B22 m ρ c (Proc.devRef .tc b) = B21 m ρ c (Proc.devRef .tc b) :=
  B22_of_ne m ρ c b fun w => (ne_of_isArg hb (win9_idx w)).symm

/-- Region 10's arrays are computed values: none is an argument. -/
theorem win10_idx : ∀ w, 27 ≤ ((Pipeline.arrRef spec10 w).idx : ℕ) := by decide
/-- So region 10 leaves every argument as it found it. -/
theorem keep_reg10 (c : Dev nD) (b : Ref sig .tc) (hb : IsArg b) :
    B24 m ρ c (Proc.devRef .tc b) = B23 m ρ c (Proc.devRef .tc b) :=
  B24_of_ne m ρ c b fun w => (ne_of_isArg hb (win10_idx w)).symm

/-- Region 11's arrays are computed values: none is an argument. -/
theorem win11_idx : ∀ w, 27 ≤ ((Pipeline.arrRef spec11 w).idx : ℕ) := by decide
/-- So region 11 leaves every argument as it found it. -/
theorem keep_reg11 (c : Dev nD) (b : Ref sig .tc) (hb : IsArg b) :
    B26 m ρ c (Proc.devRef .tc b) = B25 m ρ c (Proc.devRef .tc b) :=
  B26_of_ne m ρ c b fun w => (ne_of_isArg hb (win11_idx w)).symm

/-- Region 12's arrays are computed values: none is an argument. -/
theorem win12_idx : ∀ w, 27 ≤ ((Pipeline.arrRef spec12 w).idx : ℕ) := by decide
/-- So region 12 leaves every argument as it found it. -/
theorem keep_reg12 (c : Dev nD) (b : Ref sig .tc) (hb : IsArg b) :
    B28 m ρ c (Proc.devRef .tc b) = B27 m ρ c (Proc.devRef .tc b) :=
  B28_of_ne m ρ c b fun w => (ne_of_isArg hb (win12_idx w)).symm

/-- Region 13's arrays are computed values: none is an argument. -/
theorem win13_idx : ∀ w, 27 ≤ ((Pipeline.arrRef spec13 w).idx : ℕ) := by decide
/-- So region 13 leaves every argument as it found it. -/
theorem keep_reg13 (c : Dev nD) (b : Ref sig .tc) (hb : IsArg b) :
    B30 m ρ c (Proc.devRef .tc b) = B29 m ρ c (Proc.devRef .tc b) :=
  B30_of_ne m ρ c b fun w => (ne_of_isArg hb (win13_idx w)).symm

/-- Region 14's arrays are computed values: none is an argument. -/
theorem win14_idx : ∀ w, 27 ≤ ((Pipeline.arrRef spec14 w).idx : ℕ) := by decide
/-- So region 14 leaves every argument as it found it. -/
theorem keep_reg14 (c : Dev nD) (b : Ref sig .tc) (hb : IsArg b) :
    B32 m ρ c (Proc.devRef .tc b) = B31 m ρ c (Proc.devRef .tc b) :=
  B32_of_ne m ρ c b fun w => (ne_of_isArg hb (win14_idx w)).symm

/-- Region 15's arrays are computed values: none is an argument. -/
theorem win15_idx : ∀ w, 27 ≤ ((Pipeline.arrRef spec15 w).idx : ℕ) := by decide
/-- So region 15 leaves every argument as it found it. -/
theorem keep_reg15 (c : Dev nD) (b : Ref sig .tc) (hb : IsArg b) :
    B34 m ρ c (Proc.devRef .tc b) = B33 m ρ c (Proc.devRef .tc b) :=
  B34_of_ne m ρ c b fun w => (ne_of_isArg hb (win15_idx w)).symm

/-- Region 16's arrays are computed values: none is an argument. -/
theorem win16_idx : ∀ w, 27 ≤ ((Pipeline.arrRef spec16 w).idx : ℕ) := by decide
/-- So region 16 leaves every argument as it found it. -/
theorem keep_reg16 (c : Dev nD) (b : Ref sig .tc) (hb : IsArg b) :
    B36 m ρ c (Proc.devRef .tc b) = B35 m ρ c (Proc.devRef .tc b) :=
  B36_of_ne m ρ c b fun w => (ne_of_isArg hb (win16_idx w)).symm

/-- Region 17's arrays are computed values: none is an argument. -/
theorem win17_idx : ∀ w, 27 ≤ ((Pipeline.arrRef spec17 w).idx : ℕ) := by decide
/-- So region 17 leaves every argument as it found it. -/
theorem keep_reg17 (c : Dev nD) (b : Ref sig .tc) (hb : IsArg b) :
    B38 m ρ c (Proc.devRef .tc b) = B37 m ρ c (Proc.devRef .tc b) :=
  B38_of_ne m ρ c b fun w => (ne_of_isArg hb (win17_idx w)).symm

/-- Region 18's arrays are computed values: none is an argument. -/
theorem win18_idx : ∀ w, 27 ≤ ((Pipeline.arrRef spec18 w).idx : ℕ) := by decide
/-- So region 18 leaves every argument as it found it. -/
theorem keep_reg18 (c : Dev nD) (b : Ref sig .tc) (hb : IsArg b) :
    B40 m ρ c (Proc.devRef .tc b) = B39 m ρ c (Proc.devRef .tc b) :=
  B40_of_ne m ρ c b fun w => (ne_of_isArg hb (win18_idx w)).symm

/-- Region 19's arrays are computed values: none is an argument. -/
theorem win19_idx : ∀ w, 27 ≤ ((Pipeline.arrRef spec19 w).idx : ℕ) := by decide
/-- So region 19 leaves every argument as it found it. -/
theorem keep_reg19 (c : Dev nD) (b : Ref sig .tc) (hb : IsArg b) :
    B42 m ρ c (Proc.devRef .tc b) = B41 m ρ c (Proc.devRef .tc b) :=
  B42_of_ne m ρ c b fun w => (ne_of_isArg hb (win19_idx w)).symm

/-- Region 20's arrays are computed values: none is an argument. -/
theorem win20_idx : ∀ w, 27 ≤ ((Pipeline.arrRef spec20 w).idx : ℕ) := by decide
/-- So region 20 leaves every argument as it found it. -/
theorem keep_reg20 (c : Dev nD) (b : Ref sig .tc) (hb : IsArg b) :
    B44 m ρ c (Proc.devRef .tc b) = B43 m ρ c (Proc.devRef .tc b) :=
  B44_of_ne m ρ c b fun w => (ne_of_isArg hb (win20_idx w)).symm

/-- Region 21's arrays are computed values: none is an argument. -/
theorem win21_idx : ∀ w, 27 ≤ ((Pipeline.arrRef spec21 w).idx : ℕ) := by decide
/-- So region 21 leaves every argument as it found it. -/
theorem keep_reg21 (c : Dev nD) (b : Ref sig .tc) (hb : IsArg b) :
    B46 m ρ c (Proc.devRef .tc b) = B45 m ρ c (Proc.devRef .tc b) :=
  B46_of_ne m ρ c b fun w => (ne_of_isArg hb (win21_idx w)).symm

/-- Region 22's arrays are computed values: none is an argument. -/
theorem win22_idx : ∀ w, 27 ≤ ((Pipeline.arrRef spec22 w).idx : ℕ) := by decide
/-- So region 22 leaves every argument as it found it. -/
theorem keep_reg22 (c : Dev nD) (b : Ref sig .tc) (hb : IsArg b) :
    B48 m ρ c (Proc.devRef .tc b) = B47 m ρ c (Proc.devRef .tc b) :=
  B48_of_ne m ρ c b fun w => (ne_of_isArg hb (win22_idx w)).symm

/-- Region 23's arrays are computed values: none is an argument. -/
theorem win23_idx : ∀ w, 27 ≤ ((Pipeline.arrRef spec23 w).idx : ℕ) := by decide
/-- So region 23 leaves every argument as it found it. -/
theorem keep_reg23 (c : Dev nD) (b : Ref sig .tc) (hb : IsArg b) :
    B50 m ρ c (Proc.devRef .tc b) = B49 m ρ c (Proc.devRef .tc b) :=
  B50_of_ne m ρ c b fun w => (ne_of_isArg hb (win23_idx w)).symm

/-- Region 24's arrays are computed values: none is an argument. -/
theorem win24_idx : ∀ w, 27 ≤ ((Pipeline.arrRef spec24 w).idx : ℕ) := by decide
/-- So region 24 leaves every argument as it found it. -/
theorem keep_reg24 (c : Dev nD) (b : Ref sig .tc) (hb : IsArg b) :
    B52 m ρ c (Proc.devRef .tc b) = B51 m ρ c (Proc.devRef .tc b) :=
  B52_of_ne m ρ c b fun w => (ne_of_isArg hb (win24_idx w)).symm

/-- Region 25's arrays are computed values: none is an argument. -/
theorem win25_idx : ∀ w, 27 ≤ ((Pipeline.arrRef spec25 w).idx : ℕ) := by decide
/-- So region 25 leaves every argument as it found it. -/
theorem keep_reg25 (c : Dev nD) (b : Ref sig .tc) (hb : IsArg b) :
    B54 m ρ c (Proc.devRef .tc b) = B53 m ρ c (Proc.devRef .tc b) :=
  B54_of_ne m ρ c b fun w => (ne_of_isArg hb (win25_idx w)).symm

/-- Region 26's arrays are computed values: none is an argument. -/
theorem win26_idx : ∀ w, 27 ≤ ((Pipeline.arrRef spec26 w).idx : ℕ) := by decide
/-- So region 26 leaves every argument as it found it. -/
theorem keep_reg26 (c : Dev nD) (b : Ref sig .tc) (hb : IsArg b) :
    B56 m ρ c (Proc.devRef .tc b) = B55 m ρ c (Proc.devRef .tc b) :=
  B56_of_ne m ρ c b fun w => (ne_of_isArg hb (win26_idx w)).symm

/-- Region 27's arrays are computed values: none is an argument. -/
theorem win27_idx : ∀ w, 27 ≤ ((Pipeline.arrRef spec27 w).idx : ℕ) := by decide
/-- So region 27 leaves every argument as it found it. -/
theorem keep_reg27 (c : Dev nD) (b : Ref sig .tc) (hb : IsArg b) :
    B58 m ρ c (Proc.devRef .tc b) = B57 m ρ c (Proc.devRef .tc b) :=
  B58_of_ne m ρ c b fun w => (ne_of_isArg hb (win27_idx w)).symm

/-- Region 28's arrays are computed values: none is an argument. -/
theorem win28_idx : ∀ w, 27 ≤ ((Pipeline.arrRef spec28 w).idx : ℕ) := by decide
/-- So region 28 leaves every argument as it found it. -/
theorem keep_reg28 (c : Dev nD) (b : Ref sig .tc) (hb : IsArg b) :
    B60 m ρ c (Proc.devRef .tc b) = B59 m ρ c (Proc.devRef .tc b) :=
  B60_of_ne m ρ c b fun w => (ne_of_isArg hb (win28_idx w)).symm

/-- Region 29's arrays are computed values: none is an argument. -/
theorem win29_idx : ∀ w, 27 ≤ ((Pipeline.arrRef spec29 w).idx : ℕ) := by decide
/-- So region 29 leaves every argument as it found it. -/
theorem keep_reg29 (c : Dev nD) (b : Ref sig .tc) (hb : IsArg b) :
    B62 m ρ c (Proc.devRef .tc b) = B61 m ρ c (Proc.devRef .tc b) :=
  B62_of_ne m ρ c b fun w => (ne_of_isArg hb (win29_idx w)).symm

/-- Region 30's arrays are computed values: none is an argument. -/
theorem win30_idx : ∀ w, 27 ≤ ((Pipeline.arrRef spec30 w).idx : ℕ) := by decide
/-- So region 30 leaves every argument as it found it. -/
theorem keep_reg30 (c : Dev nD) (b : Ref sig .tc) (hb : IsArg b) :
    B64 m ρ c (Proc.devRef .tc b) = B63 m ρ c (Proc.devRef .tc b) :=
  B64_of_ne m ρ c b fun w => (ne_of_isArg hb (win30_idx w)).symm

/-- Region 31's arrays are computed values: none is an argument. -/
theorem win31_idx : ∀ w, 27 ≤ ((Pipeline.arrRef spec31 w).idx : ℕ) := by decide
/-- So region 31 leaves every argument as it found it. -/
theorem keep_reg31 (c : Dev nD) (b : Ref sig .tc) (hb : IsArg b) :
    B66 m ρ c (Proc.devRef .tc b) = B65 m ρ c (Proc.devRef .tc b) :=
  B66_of_ne m ρ c b fun w => (ne_of_isArg hb (win31_idx w)).symm

/-- Region 32's arrays are computed values: none is an argument. -/
theorem win32_idx : ∀ w, 27 ≤ ((Pipeline.arrRef spec32 w).idx : ℕ) := by decide
/-- So region 32 leaves every argument as it found it. -/
theorem keep_reg32 (c : Dev nD) (b : Ref sig .tc) (hb : IsArg b) :
    B68 m ρ c (Proc.devRef .tc b) = B67 m ρ c (Proc.devRef .tc b) :=
  B68_of_ne m ρ c b fun w => (ne_of_isArg hb (win32_idx w)).symm

/-- Region 33's arrays are computed values: none is an argument. -/
theorem win33_idx : ∀ w, 27 ≤ ((Pipeline.arrRef spec33 w).idx : ℕ) := by decide
/-- So region 33 leaves every argument as it found it. -/
theorem keep_reg33 (c : Dev nD) (b : Ref sig .tc) (hb : IsArg b) :
    B70 m ρ c (Proc.devRef .tc b) = B69 m ρ c (Proc.devRef .tc b) :=
  B70_of_ne m ρ c b fun w => (ne_of_isArg hb (win33_idx w)).symm

/-- Region 34's arrays are computed values: none is an argument. -/
theorem win34_idx : ∀ w, 27 ≤ ((Pipeline.arrRef spec34 w).idx : ℕ) := by decide
/-- So region 34 leaves every argument as it found it. -/
theorem keep_reg34 (c : Dev nD) (b : Ref sig .tc) (hb : IsArg b) :
    B72 m ρ c (Proc.devRef .tc b) = B71 m ρ c (Proc.devRef .tc b) :=
  B72_of_ne m ρ c b fun w => (ne_of_isArg hb (win34_idx w)).symm

/-- Region 35's arrays are computed values: none is an argument. -/
theorem win35_idx : ∀ w, 27 ≤ ((Pipeline.arrRef spec35 w).idx : ℕ) := by decide
/-- So region 35 leaves every argument as it found it. -/
theorem keep_reg35 (c : Dev nD) (b : Ref sig .tc) (hb : IsArg b) :
    B74 m ρ c (Proc.devRef .tc b) = B73 m ρ c (Proc.devRef .tc b) :=
  B74_of_ne m ρ c b fun w => (ne_of_isArg hb (win35_idx w)).symm

/-- Region 36's arrays are computed values: none is an argument. -/
theorem win36_idx : ∀ w, 27 ≤ ((Pipeline.arrRef spec36 w).idx : ℕ) := by decide
/-- So region 36 leaves every argument as it found it. -/
theorem keep_reg36 (c : Dev nD) (b : Ref sig .tc) (hb : IsArg b) :
    B76 m ρ c (Proc.devRef .tc b) = B75 m ρ c (Proc.devRef .tc b) :=
  B76_of_ne m ρ c b fun w => (ne_of_isArg hb (win36_idx w)).symm

/-- Region 37's arrays are computed values: none is an argument. -/
theorem win37_idx : ∀ w, 27 ≤ ((Pipeline.arrRef spec37 w).idx : ℕ) := by decide
/-- So region 37 leaves every argument as it found it. -/
theorem keep_reg37 (c : Dev nD) (b : Ref sig .tc) (hb : IsArg b) :
    B78 m ρ c (Proc.devRef .tc b) = B77 m ρ c (Proc.devRef .tc b) :=
  B78_of_ne m ρ c b fun w => (ne_of_isArg hb (win37_idx w)).symm

/-- Region 38's arrays are computed values: none is an argument. -/
theorem win38_idx : ∀ w, 27 ≤ ((Pipeline.arrRef spec38 w).idx : ℕ) := by decide
/-- So region 38 leaves every argument as it found it. -/
theorem keep_reg38 (c : Dev nD) (b : Ref sig .tc) (hb : IsArg b) :
    B80 m ρ c (Proc.devRef .tc b) = B79 m ρ c (Proc.devRef .tc b) :=
  B80_of_ne m ρ c b fun w => (ne_of_isArg hb (win38_idx w)).symm

/-- Region 39's arrays are computed values: none is an argument. -/
theorem win39_idx : ∀ w, 27 ≤ ((Pipeline.arrRef spec39 w).idx : ℕ) := by decide
/-- So region 39 leaves every argument as it found it. -/
theorem keep_reg39 (c : Dev nD) (b : Ref sig .tc) (hb : IsArg b) :
    B82 m ρ c (Proc.devRef .tc b) = B81 m ρ c (Proc.devRef .tc b) :=
  B82_of_ne m ρ c b fun w => (ne_of_isArg hb (win39_idx w)).symm

/-- Region 40's arrays are computed values: none is an argument. -/
theorem win40_idx : ∀ w, 27 ≤ ((Pipeline.arrRef spec40 w).idx : ℕ) := by decide
/-- So region 40 leaves every argument as it found it. -/
theorem keep_reg40 (c : Dev nD) (b : Ref sig .tc) (hb : IsArg b) :
    B84 m ρ c (Proc.devRef .tc b) = B83 m ρ c (Proc.devRef .tc b) :=
  B84_of_ne m ρ c b fun w => (ne_of_isArg hb (win40_idx w)).symm

/-- Region 41's arrays are computed values: none is an argument. -/
theorem win41_idx : ∀ w, 27 ≤ ((Pipeline.arrRef spec41 w).idx : ℕ) := by decide
/-- So region 41 leaves every argument as it found it. -/
theorem keep_reg41 (c : Dev nD) (b : Ref sig .tc) (hb : IsArg b) :
    B86 m ρ c (Proc.devRef .tc b) = B85 m ρ c (Proc.devRef .tc b) :=
  B86_of_ne m ρ c b fun w => (ne_of_isArg hb (win41_idx w)).symm

/-- Region 42's arrays are computed values: none is an argument. -/
theorem win42_idx : ∀ w, 27 ≤ ((Pipeline.arrRef spec42 w).idx : ℕ) := by decide
/-- So region 42 leaves every argument as it found it. -/
theorem keep_reg42 (c : Dev nD) (b : Ref sig .tc) (hb : IsArg b) :
    B88 m ρ c (Proc.devRef .tc b) = B87 m ρ c (Proc.devRef .tc b) :=
  B88_of_ne m ρ c b fun w => (ne_of_isArg hb (win42_idx w)).symm

/-- Region 43's arrays are computed values: none is an argument. -/
theorem win43_idx : ∀ w, 27 ≤ ((Pipeline.arrRef spec43 w).idx : ℕ) := by decide
/-- So region 43 leaves every argument as it found it. -/
theorem keep_reg43 (c : Dev nD) (b : Ref sig .tc) (hb : IsArg b) :
    B90 m ρ c (Proc.devRef .tc b) = B89 m ρ c (Proc.devRef .tc b) :=
  B90_of_ne m ρ c b fun w => (ne_of_isArg hb (win43_idx w)).symm

/-- Region 44's arrays are computed values: none is an argument. -/
theorem win44_idx : ∀ w, 27 ≤ ((Pipeline.arrRef spec44 w).idx : ℕ) := by decide
/-- So region 44 leaves every argument as it found it. -/
theorem keep_reg44 (c : Dev nD) (b : Ref sig .tc) (hb : IsArg b) :
    B92 m ρ c (Proc.devRef .tc b) = B91 m ρ c (Proc.devRef .tc b) :=
  B92_of_ne m ρ c b fun w => (ne_of_isArg hb (win44_idx w)).symm

/-- Region 45's arrays are computed values: none is an argument. -/
theorem win45_idx : ∀ w, 27 ≤ ((Pipeline.arrRef spec45 w).idx : ℕ) := by decide
/-- So region 45 leaves every argument as it found it. -/
theorem keep_reg45 (c : Dev nD) (b : Ref sig .tc) (hb : IsArg b) :
    B94 m ρ c (Proc.devRef .tc b) = B93 m ρ c (Proc.devRef .tc b) :=
  B94_of_ne m ρ c b fun w => (ne_of_isArg hb (win45_idx w)).symm

/-- Region 46's arrays are computed values: none is an argument. -/
theorem win46_idx : ∀ w, 27 ≤ ((Pipeline.arrRef spec46 w).idx : ℕ) := by decide
/-- So region 46 leaves every argument as it found it. -/
theorem keep_reg46 (c : Dev nD) (b : Ref sig .tc) (hb : IsArg b) :
    B96 m ρ c (Proc.devRef .tc b) = B95 m ρ c (Proc.devRef .tc b) :=
  B96_of_ne m ρ c b fun w => (ne_of_isArg hb (win46_idx w)).symm

/-- Region 47's arrays are computed values: none is an argument. -/
theorem win47_idx : ∀ w, 27 ≤ ((Pipeline.arrRef spec47 w).idx : ℕ) := by decide
/-- So region 47 leaves every argument as it found it. -/
theorem keep_reg47 (c : Dev nD) (b : Ref sig .tc) (hb : IsArg b) :
    B98 m ρ c (Proc.devRef .tc b) = B97 m ρ c (Proc.devRef .tc b) :=
  B98_of_ne m ρ c b fun w => (ne_of_isArg hb (win47_idx w)).symm

/-- Region 48's arrays are computed values, but window 5: the argument `main_arg26`, an input. -/
theorem win48_idx : ∀ w, w = 5 ∨ 27 ≤ ((Pipeline.arrRef spec48 w).idx : ℕ) := by decide
/-- An input window's array is, in the region's proof data, the entry contents throughout (whatever they are). -/
theorem A_in48 (V : (c : Dev nD) → (b : Ref sig .tc) → Buf (Elt F) ((c : Thread nD τ).loc b)) (c : Dev nD) :
    (dat48 V c).A 5 = V c (Pipeline.arrRef spec48 5) := by
  first | exact A_eq48 V c 5 | rfl
/-- So region 48 leaves every argument as it found it: the one it reads through a window by that window's
    fold, which for an input is the entry array; the others because they are none of its arrays. -/
theorem keep_reg48 (c : Dev nD) (b : Ref sig .tc) (hb : IsArg b) :
    B100 m ρ c (Proc.devRef .tc b) = B99 m ρ c (Proc.devRef .tc b) := by
  by_cases h : b = main_arg26
  · subst h
    exact (B100_arr m ρ c 5).trans (((dat48 (E48 m ρ) c).arrAt_in 5 rfl _).trans (A_in48 (E48 m ρ) c))
  · refine B100_of_ne m ρ c b fun w => ?_
    rcases win48_idx w with rfl | hw
    · exact fun e => h e.symm
    · exact (ne_of_isArg hb hw).symm

/-! ## At every boundary an argument holds the launch memory's array -/

theorem B0_isArg (c : Dev nD) (b : Ref sig .tc) (hb : IsArg b) :
    B0 m ρ c (Proc.devRef .tc b) = m ((c : Thread nD τ).loc b) := rfl
theorem B1_isArg (c : Dev nD) (b : Ref sig .tc) (hb : IsArg b) :
    B1 m ρ c (Proc.devRef .tc b) = m ((c : Thread nD τ).loc b) :=
  (keep_hostOps0 (B0 m ρ c) b hb).trans (B0_isArg m ρ c b hb)
theorem B2_isArg (c : Dev nD) (b : Ref sig .tc) (hb : IsArg b) :
    B2 m ρ c (Proc.devRef .tc b) = m ((c : Thread nD τ).loc b) :=
  (keep_hostOps0_1 (B1 m ρ c) b hb).trans (B1_isArg m ρ c b hb)
theorem B3_isArg (c : Dev nD) (b : Ref sig .tc) (hb : IsArg b) :
    B3 m ρ c (Proc.devRef .tc b) = m ((c : Thread nD τ).loc b) :=
  (keep_hostOps0_2 (B2 m ρ c) b hb).trans (B2_isArg m ρ c b hb)
theorem B4_isArg (c : Dev nD) (b : Ref sig .tc) (hb : IsArg b) :
    B4 m ρ c (Proc.devRef .tc b) = m ((c : Thread nD τ).loc b) :=
  (keep_reg0 m ρ c b hb).trans (B3_isArg m ρ c b hb)
theorem B5_isArg (c : Dev nD) (b : Ref sig .tc) (hb : IsArg b) :
    B5 m ρ c (Proc.devRef .tc b) = m ((c : Thread nD τ).loc b) :=
  (keep_hostOps1 (B4 m ρ c) b hb).trans (B4_isArg m ρ c b hb)
theorem B6_isArg (c : Dev nD) (b : Ref sig .tc) (hb : IsArg b) :
    B6 m ρ c (Proc.devRef .tc b) = m ((c : Thread nD τ).loc b) :=
  (keep_reg1 m ρ c b hb).trans (B5_isArg m ρ c b hb)
theorem B7_isArg (c : Dev nD) (b : Ref sig .tc) (hb : IsArg b) :
    B7 m ρ c (Proc.devRef .tc b) = m ((c : Thread nD τ).loc b) :=
  (keep_hostOps2 (B6 m ρ c) b hb).trans (B6_isArg m ρ c b hb)
theorem B8_isArg (c : Dev nD) (b : Ref sig .tc) (hb : IsArg b) :
    B8 m ρ c (Proc.devRef .tc b) = m ((c : Thread nD τ).loc b) :=
  (keep_reg2 m ρ c b hb).trans (B7_isArg m ρ c b hb)
theorem B9_isArg (c : Dev nD) (b : Ref sig .tc) (hb : IsArg b) :
    B9 m ρ c (Proc.devRef .tc b) = m ((c : Thread nD τ).loc b) :=
  (keep_hostOps3 (B8 m ρ c) b hb).trans (B8_isArg m ρ c b hb)
theorem B10_isArg (c : Dev nD) (b : Ref sig .tc) (hb : IsArg b) :
    B10 m ρ c (Proc.devRef .tc b) = m ((c : Thread nD τ).loc b) :=
  (keep_reg3 m ρ c b hb).trans (B9_isArg m ρ c b hb)
theorem B11_isArg (c : Dev nD) (b : Ref sig .tc) (hb : IsArg b) :
    B11 m ρ c (Proc.devRef .tc b) = m ((c : Thread nD τ).loc b) :=
  (keep_hostOps4 (B10 m ρ c) b hb).trans (B10_isArg m ρ c b hb)
theorem B12_isArg (c : Dev nD) (b : Ref sig .tc) (hb : IsArg b) :
    B12 m ρ c (Proc.devRef .tc b) = m ((c : Thread nD τ).loc b) :=
  (keep_reg4 m ρ c b hb).trans (B11_isArg m ρ c b hb)
theorem B13_isArg (c : Dev nD) (b : Ref sig .tc) (hb : IsArg b) :
    B13 m ρ c (Proc.devRef .tc b) = m ((c : Thread nD τ).loc b) :=
  (keep_hostOps5 (B12 m ρ c) b hb).trans (B12_isArg m ρ c b hb)
theorem B14_isArg (c : Dev nD) (b : Ref sig .tc) (hb : IsArg b) :
    B14 m ρ c (Proc.devRef .tc b) = m ((c : Thread nD τ).loc b) :=
  (keep_reg5 m ρ c b hb).trans (B13_isArg m ρ c b hb)
theorem B15_isArg (c : Dev nD) (b : Ref sig .tc) (hb : IsArg b) :
    B15 m ρ c (Proc.devRef .tc b) = m ((c : Thread nD τ).loc b) :=
  (keep_hostOps6 (B14 m ρ c) b hb).trans (B14_isArg m ρ c b hb)
theorem B16_isArg (c : Dev nD) (b : Ref sig .tc) (hb : IsArg b) :
    B16 m ρ c (Proc.devRef .tc b) = m ((c : Thread nD τ).loc b) :=
  (keep_reg6 m ρ c b hb).trans (B15_isArg m ρ c b hb)
theorem B17_isArg (c : Dev nD) (b : Ref sig .tc) (hb : IsArg b) :
    B17 m ρ c (Proc.devRef .tc b) = m ((c : Thread nD τ).loc b) :=
  (keep_hostOps7 (B16 m ρ c) b hb).trans (B16_isArg m ρ c b hb)
theorem B18_isArg (c : Dev nD) (b : Ref sig .tc) (hb : IsArg b) :
    B18 m ρ c (Proc.devRef .tc b) = m ((c : Thread nD τ).loc b) :=
  (keep_reg7 m ρ c b hb).trans (B17_isArg m ρ c b hb)
theorem B19_isArg (c : Dev nD) (b : Ref sig .tc) (hb : IsArg b) :
    B19 m ρ c (Proc.devRef .tc b) = m ((c : Thread nD τ).loc b) :=
  (keep_hostOps8 (B18 m ρ c) b hb).trans (B18_isArg m ρ c b hb)
theorem B20_isArg (c : Dev nD) (b : Ref sig .tc) (hb : IsArg b) :
    B20 m ρ c (Proc.devRef .tc b) = m ((c : Thread nD τ).loc b) :=
  (keep_reg8 m ρ c b hb).trans (B19_isArg m ρ c b hb)
theorem B21_isArg (c : Dev nD) (b : Ref sig .tc) (hb : IsArg b) :
    B21 m ρ c (Proc.devRef .tc b) = m ((c : Thread nD τ).loc b) :=
  (keep_hostOps9 (B20 m ρ c) b hb).trans (B20_isArg m ρ c b hb)
theorem B22_isArg (c : Dev nD) (b : Ref sig .tc) (hb : IsArg b) :
    B22 m ρ c (Proc.devRef .tc b) = m ((c : Thread nD τ).loc b) :=
  (keep_reg9 m ρ c b hb).trans (B21_isArg m ρ c b hb)
theorem B23_isArg (c : Dev nD) (b : Ref sig .tc) (hb : IsArg b) :
    B23 m ρ c (Proc.devRef .tc b) = m ((c : Thread nD τ).loc b) :=
  (keep_hostOps10 (B22 m ρ c) b hb).trans (B22_isArg m ρ c b hb)
theorem B24_isArg (c : Dev nD) (b : Ref sig .tc) (hb : IsArg b) :
    B24 m ρ c (Proc.devRef .tc b) = m ((c : Thread nD τ).loc b) :=
  (keep_reg10 m ρ c b hb).trans (B23_isArg m ρ c b hb)
theorem B25_isArg (c : Dev nD) (b : Ref sig .tc) (hb : IsArg b) :
    B25 m ρ c (Proc.devRef .tc b) = m ((c : Thread nD τ).loc b) :=
  (keep_hostOps11 (B24 m ρ c) b hb).trans (B24_isArg m ρ c b hb)
theorem B26_isArg (c : Dev nD) (b : Ref sig .tc) (hb : IsArg b) :
    B26 m ρ c (Proc.devRef .tc b) = m ((c : Thread nD τ).loc b) :=
  (keep_reg11 m ρ c b hb).trans (B25_isArg m ρ c b hb)
theorem B27_isArg (c : Dev nD) (b : Ref sig .tc) (hb : IsArg b) :
    B27 m ρ c (Proc.devRef .tc b) = m ((c : Thread nD τ).loc b) :=
  (keep_hostOps12 (B26 m ρ c) b hb).trans (B26_isArg m ρ c b hb)
theorem B28_isArg (c : Dev nD) (b : Ref sig .tc) (hb : IsArg b) :
    B28 m ρ c (Proc.devRef .tc b) = m ((c : Thread nD τ).loc b) :=
  (keep_reg12 m ρ c b hb).trans (B27_isArg m ρ c b hb)
theorem B29_isArg (c : Dev nD) (b : Ref sig .tc) (hb : IsArg b) :
    B29 m ρ c (Proc.devRef .tc b) = m ((c : Thread nD τ).loc b) :=
  (keep_hostOps13 (B28 m ρ c) b hb).trans (B28_isArg m ρ c b hb)
theorem B30_isArg (c : Dev nD) (b : Ref sig .tc) (hb : IsArg b) :
    B30 m ρ c (Proc.devRef .tc b) = m ((c : Thread nD τ).loc b) :=
  (keep_reg13 m ρ c b hb).trans (B29_isArg m ρ c b hb)
theorem B31_isArg (c : Dev nD) (b : Ref sig .tc) (hb : IsArg b) :
    B31 m ρ c (Proc.devRef .tc b) = m ((c : Thread nD τ).loc b) :=
  (keep_hostOps14 (B30 m ρ c) b hb).trans (B30_isArg m ρ c b hb)
theorem B32_isArg (c : Dev nD) (b : Ref sig .tc) (hb : IsArg b) :
    B32 m ρ c (Proc.devRef .tc b) = m ((c : Thread nD τ).loc b) :=
  (keep_reg14 m ρ c b hb).trans (B31_isArg m ρ c b hb)
theorem B33_isArg (c : Dev nD) (b : Ref sig .tc) (hb : IsArg b) :
    B33 m ρ c (Proc.devRef .tc b) = m ((c : Thread nD τ).loc b) :=
  (keep_hostOps15 (B32 m ρ c) b hb).trans (B32_isArg m ρ c b hb)
theorem B34_isArg (c : Dev nD) (b : Ref sig .tc) (hb : IsArg b) :
    B34 m ρ c (Proc.devRef .tc b) = m ((c : Thread nD τ).loc b) :=
  (keep_reg15 m ρ c b hb).trans (B33_isArg m ρ c b hb)
theorem B35_isArg (c : Dev nD) (b : Ref sig .tc) (hb : IsArg b) :
    B35 m ρ c (Proc.devRef .tc b) = m ((c : Thread nD τ).loc b) :=
  (keep_hostOps16 (B34 m ρ c) b hb).trans (B34_isArg m ρ c b hb)
theorem B36_isArg (c : Dev nD) (b : Ref sig .tc) (hb : IsArg b) :
    B36 m ρ c (Proc.devRef .tc b) = m ((c : Thread nD τ).loc b) :=
  (keep_reg16 m ρ c b hb).trans (B35_isArg m ρ c b hb)
theorem B37_isArg (c : Dev nD) (b : Ref sig .tc) (hb : IsArg b) :
    B37 m ρ c (Proc.devRef .tc b) = m ((c : Thread nD τ).loc b) :=
  (keep_hostOps17 (B36 m ρ c) b hb).trans (B36_isArg m ρ c b hb)
theorem B38_isArg (c : Dev nD) (b : Ref sig .tc) (hb : IsArg b) :
    B38 m ρ c (Proc.devRef .tc b) = m ((c : Thread nD τ).loc b) :=
  (keep_reg17 m ρ c b hb).trans (B37_isArg m ρ c b hb)
theorem B39_isArg (c : Dev nD) (b : Ref sig .tc) (hb : IsArg b) :
    B39 m ρ c (Proc.devRef .tc b) = m ((c : Thread nD τ).loc b) :=
  (keep_hostOps18 (B38 m ρ c) b hb).trans (B38_isArg m ρ c b hb)
theorem B40_isArg (c : Dev nD) (b : Ref sig .tc) (hb : IsArg b) :
    B40 m ρ c (Proc.devRef .tc b) = m ((c : Thread nD τ).loc b) :=
  (keep_reg18 m ρ c b hb).trans (B39_isArg m ρ c b hb)
theorem B41_isArg (c : Dev nD) (b : Ref sig .tc) (hb : IsArg b) :
    B41 m ρ c (Proc.devRef .tc b) = m ((c : Thread nD τ).loc b) :=
  (keep_hostOps19 (B40 m ρ c) b hb).trans (B40_isArg m ρ c b hb)
theorem B42_isArg (c : Dev nD) (b : Ref sig .tc) (hb : IsArg b) :
    B42 m ρ c (Proc.devRef .tc b) = m ((c : Thread nD τ).loc b) :=
  (keep_reg19 m ρ c b hb).trans (B41_isArg m ρ c b hb)
theorem B43_isArg (c : Dev nD) (b : Ref sig .tc) (hb : IsArg b) :
    B43 m ρ c (Proc.devRef .tc b) = m ((c : Thread nD τ).loc b) :=
  (keep_hostOps20 (B42 m ρ c) b hb).trans (B42_isArg m ρ c b hb)
theorem B44_isArg (c : Dev nD) (b : Ref sig .tc) (hb : IsArg b) :
    B44 m ρ c (Proc.devRef .tc b) = m ((c : Thread nD τ).loc b) :=
  (keep_reg20 m ρ c b hb).trans (B43_isArg m ρ c b hb)
theorem B45_isArg (c : Dev nD) (b : Ref sig .tc) (hb : IsArg b) :
    B45 m ρ c (Proc.devRef .tc b) = m ((c : Thread nD τ).loc b) :=
  (keep_hostOps21 (B44 m ρ c) b hb).trans (B44_isArg m ρ c b hb)
theorem B46_isArg (c : Dev nD) (b : Ref sig .tc) (hb : IsArg b) :
    B46 m ρ c (Proc.devRef .tc b) = m ((c : Thread nD τ).loc b) :=
  (keep_reg21 m ρ c b hb).trans (B45_isArg m ρ c b hb)
theorem B47_isArg (c : Dev nD) (b : Ref sig .tc) (hb : IsArg b) :
    B47 m ρ c (Proc.devRef .tc b) = m ((c : Thread nD τ).loc b) :=
  (keep_hostOps22 (B46 m ρ c) b hb).trans (B46_isArg m ρ c b hb)
theorem B48_isArg (c : Dev nD) (b : Ref sig .tc) (hb : IsArg b) :
    B48 m ρ c (Proc.devRef .tc b) = m ((c : Thread nD τ).loc b) :=
  (keep_reg22 m ρ c b hb).trans (B47_isArg m ρ c b hb)
theorem B49_isArg (c : Dev nD) (b : Ref sig .tc) (hb : IsArg b) :
    B49 m ρ c (Proc.devRef .tc b) = m ((c : Thread nD τ).loc b) :=
  (keep_hostOps23 (B48 m ρ c) b hb).trans (B48_isArg m ρ c b hb)
theorem B50_isArg (c : Dev nD) (b : Ref sig .tc) (hb : IsArg b) :
    B50 m ρ c (Proc.devRef .tc b) = m ((c : Thread nD τ).loc b) :=
  (keep_reg23 m ρ c b hb).trans (B49_isArg m ρ c b hb)
theorem B51_isArg (c : Dev nD) (b : Ref sig .tc) (hb : IsArg b) :
    B51 m ρ c (Proc.devRef .tc b) = m ((c : Thread nD τ).loc b) :=
  (keep_hostOps24 (B50 m ρ c) b hb).trans (B50_isArg m ρ c b hb)
theorem B52_isArg (c : Dev nD) (b : Ref sig .tc) (hb : IsArg b) :
    B52 m ρ c (Proc.devRef .tc b) = m ((c : Thread nD τ).loc b) :=
  (keep_reg24 m ρ c b hb).trans (B51_isArg m ρ c b hb)
theorem B53_isArg (c : Dev nD) (b : Ref sig .tc) (hb : IsArg b) :
    B53 m ρ c (Proc.devRef .tc b) = m ((c : Thread nD τ).loc b) :=
  (keep_hostOps25 (B52 m ρ c) b hb).trans (B52_isArg m ρ c b hb)
theorem B54_isArg (c : Dev nD) (b : Ref sig .tc) (hb : IsArg b) :
    B54 m ρ c (Proc.devRef .tc b) = m ((c : Thread nD τ).loc b) :=
  (keep_reg25 m ρ c b hb).trans (B53_isArg m ρ c b hb)
theorem B55_isArg (c : Dev nD) (b : Ref sig .tc) (hb : IsArg b) :
    B55 m ρ c (Proc.devRef .tc b) = m ((c : Thread nD τ).loc b) :=
  (keep_hostOps26 (B54 m ρ c) b hb).trans (B54_isArg m ρ c b hb)
theorem B56_isArg (c : Dev nD) (b : Ref sig .tc) (hb : IsArg b) :
    B56 m ρ c (Proc.devRef .tc b) = m ((c : Thread nD τ).loc b) :=
  (keep_reg26 m ρ c b hb).trans (B55_isArg m ρ c b hb)
theorem B57_isArg (c : Dev nD) (b : Ref sig .tc) (hb : IsArg b) :
    B57 m ρ c (Proc.devRef .tc b) = m ((c : Thread nD τ).loc b) :=
  (keep_hostOps27 (B56 m ρ c) b hb).trans (B56_isArg m ρ c b hb)
theorem B58_isArg (c : Dev nD) (b : Ref sig .tc) (hb : IsArg b) :
    B58 m ρ c (Proc.devRef .tc b) = m ((c : Thread nD τ).loc b) :=
  (keep_reg27 m ρ c b hb).trans (B57_isArg m ρ c b hb)
theorem B59_isArg (c : Dev nD) (b : Ref sig .tc) (hb : IsArg b) :
    B59 m ρ c (Proc.devRef .tc b) = m ((c : Thread nD τ).loc b) :=
  (keep_hostOps28 (B58 m ρ c) b hb).trans (B58_isArg m ρ c b hb)
theorem B60_isArg (c : Dev nD) (b : Ref sig .tc) (hb : IsArg b) :
    B60 m ρ c (Proc.devRef .tc b) = m ((c : Thread nD τ).loc b) :=
  (keep_reg28 m ρ c b hb).trans (B59_isArg m ρ c b hb)
theorem B61_isArg (c : Dev nD) (b : Ref sig .tc) (hb : IsArg b) :
    B61 m ρ c (Proc.devRef .tc b) = m ((c : Thread nD τ).loc b) :=
  (keep_hostOps29 (B60 m ρ c) b hb).trans (B60_isArg m ρ c b hb)
theorem B62_isArg (c : Dev nD) (b : Ref sig .tc) (hb : IsArg b) :
    B62 m ρ c (Proc.devRef .tc b) = m ((c : Thread nD τ).loc b) :=
  (keep_reg29 m ρ c b hb).trans (B61_isArg m ρ c b hb)
theorem B63_isArg (c : Dev nD) (b : Ref sig .tc) (hb : IsArg b) :
    B63 m ρ c (Proc.devRef .tc b) = m ((c : Thread nD τ).loc b) :=
  (keep_hostOps30 (B62 m ρ c) b hb).trans (B62_isArg m ρ c b hb)
theorem B64_isArg (c : Dev nD) (b : Ref sig .tc) (hb : IsArg b) :
    B64 m ρ c (Proc.devRef .tc b) = m ((c : Thread nD τ).loc b) :=
  (keep_reg30 m ρ c b hb).trans (B63_isArg m ρ c b hb)
theorem B65_isArg (c : Dev nD) (b : Ref sig .tc) (hb : IsArg b) :
    B65 m ρ c (Proc.devRef .tc b) = m ((c : Thread nD τ).loc b) :=
  (keep_hostOps31 (B64 m ρ c) b hb).trans (B64_isArg m ρ c b hb)
theorem B66_isArg (c : Dev nD) (b : Ref sig .tc) (hb : IsArg b) :
    B66 m ρ c (Proc.devRef .tc b) = m ((c : Thread nD τ).loc b) :=
  (keep_reg31 m ρ c b hb).trans (B65_isArg m ρ c b hb)
theorem B67_isArg (c : Dev nD) (b : Ref sig .tc) (hb : IsArg b) :
    B67 m ρ c (Proc.devRef .tc b) = m ((c : Thread nD τ).loc b) :=
  (keep_hostOps32 (B66 m ρ c) b hb).trans (B66_isArg m ρ c b hb)
theorem B68_isArg (c : Dev nD) (b : Ref sig .tc) (hb : IsArg b) :
    B68 m ρ c (Proc.devRef .tc b) = m ((c : Thread nD τ).loc b) :=
  (keep_reg32 m ρ c b hb).trans (B67_isArg m ρ c b hb)
theorem B69_isArg (c : Dev nD) (b : Ref sig .tc) (hb : IsArg b) :
    B69 m ρ c (Proc.devRef .tc b) = m ((c : Thread nD τ).loc b) :=
  (keep_hostOps33 (B68 m ρ c) b hb).trans (B68_isArg m ρ c b hb)
theorem B70_isArg (c : Dev nD) (b : Ref sig .tc) (hb : IsArg b) :
    B70 m ρ c (Proc.devRef .tc b) = m ((c : Thread nD τ).loc b) :=
  (keep_reg33 m ρ c b hb).trans (B69_isArg m ρ c b hb)
theorem B71_isArg (c : Dev nD) (b : Ref sig .tc) (hb : IsArg b) :
    B71 m ρ c (Proc.devRef .tc b) = m ((c : Thread nD τ).loc b) :=
  (keep_hostOps34 (B70 m ρ c) b hb).trans (B70_isArg m ρ c b hb)
theorem B72_isArg (c : Dev nD) (b : Ref sig .tc) (hb : IsArg b) :
    B72 m ρ c (Proc.devRef .tc b) = m ((c : Thread nD τ).loc b) :=
  (keep_reg34 m ρ c b hb).trans (B71_isArg m ρ c b hb)
theorem B73_isArg (c : Dev nD) (b : Ref sig .tc) (hb : IsArg b) :
    B73 m ρ c (Proc.devRef .tc b) = m ((c : Thread nD τ).loc b) :=
  (keep_hostOps35 (B72 m ρ c) b hb).trans (B72_isArg m ρ c b hb)
theorem B74_isArg (c : Dev nD) (b : Ref sig .tc) (hb : IsArg b) :
    B74 m ρ c (Proc.devRef .tc b) = m ((c : Thread nD τ).loc b) :=
  (keep_reg35 m ρ c b hb).trans (B73_isArg m ρ c b hb)
theorem B75_isArg (c : Dev nD) (b : Ref sig .tc) (hb : IsArg b) :
    B75 m ρ c (Proc.devRef .tc b) = m ((c : Thread nD τ).loc b) :=
  (keep_hostOps36 (B74 m ρ c) b hb).trans (B74_isArg m ρ c b hb)
theorem B76_isArg (c : Dev nD) (b : Ref sig .tc) (hb : IsArg b) :
    B76 m ρ c (Proc.devRef .tc b) = m ((c : Thread nD τ).loc b) :=
  (keep_reg36 m ρ c b hb).trans (B75_isArg m ρ c b hb)
theorem B77_isArg (c : Dev nD) (b : Ref sig .tc) (hb : IsArg b) :
    B77 m ρ c (Proc.devRef .tc b) = m ((c : Thread nD τ).loc b) :=
  (keep_hostOps37 (B76 m ρ c) b hb).trans (B76_isArg m ρ c b hb)
theorem B78_isArg (c : Dev nD) (b : Ref sig .tc) (hb : IsArg b) :
    B78 m ρ c (Proc.devRef .tc b) = m ((c : Thread nD τ).loc b) :=
  (keep_reg37 m ρ c b hb).trans (B77_isArg m ρ c b hb)
theorem B79_isArg (c : Dev nD) (b : Ref sig .tc) (hb : IsArg b) :
    B79 m ρ c (Proc.devRef .tc b) = m ((c : Thread nD τ).loc b) :=
  (keep_hostOps38 (B78 m ρ c) b hb).trans (B78_isArg m ρ c b hb)
theorem B80_isArg (c : Dev nD) (b : Ref sig .tc) (hb : IsArg b) :
    B80 m ρ c (Proc.devRef .tc b) = m ((c : Thread nD τ).loc b) :=
  (keep_reg38 m ρ c b hb).trans (B79_isArg m ρ c b hb)
theorem B81_isArg (c : Dev nD) (b : Ref sig .tc) (hb : IsArg b) :
    B81 m ρ c (Proc.devRef .tc b) = m ((c : Thread nD τ).loc b) :=
  (keep_hostOps39 (B80 m ρ c) b hb).trans (B80_isArg m ρ c b hb)
theorem B82_isArg (c : Dev nD) (b : Ref sig .tc) (hb : IsArg b) :
    B82 m ρ c (Proc.devRef .tc b) = m ((c : Thread nD τ).loc b) :=
  (keep_reg39 m ρ c b hb).trans (B81_isArg m ρ c b hb)
theorem B83_isArg (c : Dev nD) (b : Ref sig .tc) (hb : IsArg b) :
    B83 m ρ c (Proc.devRef .tc b) = m ((c : Thread nD τ).loc b) :=
  (keep_hostOps40 (B82 m ρ c) b hb).trans (B82_isArg m ρ c b hb)
theorem B84_isArg (c : Dev nD) (b : Ref sig .tc) (hb : IsArg b) :
    B84 m ρ c (Proc.devRef .tc b) = m ((c : Thread nD τ).loc b) :=
  (keep_reg40 m ρ c b hb).trans (B83_isArg m ρ c b hb)
theorem B85_isArg (c : Dev nD) (b : Ref sig .tc) (hb : IsArg b) :
    B85 m ρ c (Proc.devRef .tc b) = m ((c : Thread nD τ).loc b) :=
  (keep_hostOps41 (B84 m ρ c) b hb).trans (B84_isArg m ρ c b hb)
theorem B86_isArg (c : Dev nD) (b : Ref sig .tc) (hb : IsArg b) :
    B86 m ρ c (Proc.devRef .tc b) = m ((c : Thread nD τ).loc b) :=
  (keep_reg41 m ρ c b hb).trans (B85_isArg m ρ c b hb)
theorem B87_isArg (c : Dev nD) (b : Ref sig .tc) (hb : IsArg b) :
    B87 m ρ c (Proc.devRef .tc b) = m ((c : Thread nD τ).loc b) :=
  (keep_hostOps42 (B86 m ρ c) b hb).trans (B86_isArg m ρ c b hb)
theorem B88_isArg (c : Dev nD) (b : Ref sig .tc) (hb : IsArg b) :
    B88 m ρ c (Proc.devRef .tc b) = m ((c : Thread nD τ).loc b) :=
  (keep_reg42 m ρ c b hb).trans (B87_isArg m ρ c b hb)
theorem B89_isArg (c : Dev nD) (b : Ref sig .tc) (hb : IsArg b) :
    B89 m ρ c (Proc.devRef .tc b) = m ((c : Thread nD τ).loc b) :=
  (keep_hostOps43 (B88 m ρ c) b hb).trans (B88_isArg m ρ c b hb)
theorem B90_isArg (c : Dev nD) (b : Ref sig .tc) (hb : IsArg b) :
    B90 m ρ c (Proc.devRef .tc b) = m ((c : Thread nD τ).loc b) :=
  (keep_reg43 m ρ c b hb).trans (B89_isArg m ρ c b hb)
theorem B91_isArg (c : Dev nD) (b : Ref sig .tc) (hb : IsArg b) :
    B91 m ρ c (Proc.devRef .tc b) = m ((c : Thread nD τ).loc b) :=
  (keep_hostOps44 (B90 m ρ c) b hb).trans (B90_isArg m ρ c b hb)
theorem B92_isArg (c : Dev nD) (b : Ref sig .tc) (hb : IsArg b) :
    B92 m ρ c (Proc.devRef .tc b) = m ((c : Thread nD τ).loc b) :=
  (keep_reg44 m ρ c b hb).trans (B91_isArg m ρ c b hb)
theorem B93_isArg (c : Dev nD) (b : Ref sig .tc) (hb : IsArg b) :
    B93 m ρ c (Proc.devRef .tc b) = m ((c : Thread nD τ).loc b) :=
  (keep_hostOps45 (B92 m ρ c) b hb).trans (B92_isArg m ρ c b hb)
theorem B94_isArg (c : Dev nD) (b : Ref sig .tc) (hb : IsArg b) :
    B94 m ρ c (Proc.devRef .tc b) = m ((c : Thread nD τ).loc b) :=
  (keep_reg45 m ρ c b hb).trans (B93_isArg m ρ c b hb)
theorem B95_isArg (c : Dev nD) (b : Ref sig .tc) (hb : IsArg b) :
    B95 m ρ c (Proc.devRef .tc b) = m ((c : Thread nD τ).loc b) :=
  (keep_hostOps46 (B94 m ρ c) b hb).trans (B94_isArg m ρ c b hb)
theorem B96_isArg (c : Dev nD) (b : Ref sig .tc) (hb : IsArg b) :
    B96 m ρ c (Proc.devRef .tc b) = m ((c : Thread nD τ).loc b) :=
  (keep_reg46 m ρ c b hb).trans (B95_isArg m ρ c b hb)
theorem B97_isArg (c : Dev nD) (b : Ref sig .tc) (hb : IsArg b) :
    B97 m ρ c (Proc.devRef .tc b) = m ((c : Thread nD τ).loc b) :=
  (keep_hostOps47 (B96 m ρ c) b hb).trans (B96_isArg m ρ c b hb)
theorem B98_isArg (c : Dev nD) (b : Ref sig .tc) (hb : IsArg b) :
    B98 m ρ c (Proc.devRef .tc b) = m ((c : Thread nD τ).loc b) :=
  (keep_reg47 m ρ c b hb).trans (B97_isArg m ρ c b hb)
theorem B99_isArg (c : Dev nD) (b : Ref sig .tc) (hb : IsArg b) :
    B99 m ρ c (Proc.devRef .tc b) = m ((c : Thread nD τ).loc b) :=
  (keep_hostOps48 (B98 m ρ c) b hb).trans (B98_isArg m ρ c b hb)
theorem B100_isArg (c : Dev nD) (b : Ref sig .tc) (hb : IsArg b) :
    B100 m ρ c (Proc.devRef .tc b) = m ((c : Thread nD τ).loc b) :=
  (keep_reg48 m ρ c b hb).trans (B99_isArg m ρ c b hb)
theorem B101_isArg (c : Dev nD) (b : Ref sig .tc) (hb : IsArg b) :
    B101 m ρ c (Proc.devRef .tc b) = m ((c : Thread nD τ).loc b) :=
  (keep_hostOps49 (B100 m ρ c) b hb).trans (B100_isArg m ρ c b hb)

/-! ## The arguments at @main's end -/

theorem B101_arg0 (c : Dev nD) : B101 m ρ c (Proc.devRef .tc main_arg0) = m ((c : Thread nD τ).loc main_arg0) :=
  B101_isArg m ρ c main_arg0 (by decide)
theorem B101_arg1 (c : Dev nD) : B101 m ρ c (Proc.devRef .tc main_arg1) = m ((c : Thread nD τ).loc main_arg1) :=
  B101_isArg m ρ c main_arg1 (by decide)
theorem B101_arg2 (c : Dev nD) : B101 m ρ c (Proc.devRef .tc main_arg2) = m ((c : Thread nD τ).loc main_arg2) :=
  B101_isArg m ρ c main_arg2 (by decide)
theorem B101_arg3 (c : Dev nD) : B101 m ρ c (Proc.devRef .tc main_arg3) = m ((c : Thread nD τ).loc main_arg3) :=
  B101_isArg m ρ c main_arg3 (by decide)
theorem B101_arg4 (c : Dev nD) : B101 m ρ c (Proc.devRef .tc main_arg4) = m ((c : Thread nD τ).loc main_arg4) :=
  B101_isArg m ρ c main_arg4 (by decide)
theorem B101_arg5 (c : Dev nD) : B101 m ρ c (Proc.devRef .tc main_arg5) = m ((c : Thread nD τ).loc main_arg5) :=
  B101_isArg m ρ c main_arg5 (by decide)
theorem B101_arg6 (c : Dev nD) : B101 m ρ c (Proc.devRef .tc main_arg6) = m ((c : Thread nD τ).loc main_arg6) :=
  B101_isArg m ρ c main_arg6 (by decide)
theorem B101_arg7 (c : Dev nD) : B101 m ρ c (Proc.devRef .tc main_arg7) = m ((c : Thread nD τ).loc main_arg7) :=
  B101_isArg m ρ c main_arg7 (by decide)
theorem B101_arg8 (c : Dev nD) : B101 m ρ c (Proc.devRef .tc main_arg8) = m ((c : Thread nD τ).loc main_arg8) :=
  B101_isArg m ρ c main_arg8 (by decide)
theorem B101_arg9 (c : Dev nD) : B101 m ρ c (Proc.devRef .tc main_arg9) = m ((c : Thread nD τ).loc main_arg9) :=
  B101_isArg m ρ c main_arg9 (by decide)
theorem B101_arg10 (c : Dev nD) : B101 m ρ c (Proc.devRef .tc main_arg10) = m ((c : Thread nD τ).loc main_arg10) :=
  B101_isArg m ρ c main_arg10 (by decide)
theorem B101_arg11 (c : Dev nD) : B101 m ρ c (Proc.devRef .tc main_arg11) = m ((c : Thread nD τ).loc main_arg11) :=
  B101_isArg m ρ c main_arg11 (by decide)
theorem B101_arg12 (c : Dev nD) : B101 m ρ c (Proc.devRef .tc main_arg12) = m ((c : Thread nD τ).loc main_arg12) :=
  B101_isArg m ρ c main_arg12 (by decide)
theorem B101_arg13 (c : Dev nD) : B101 m ρ c (Proc.devRef .tc main_arg13) = m ((c : Thread nD τ).loc main_arg13) :=
  B101_isArg m ρ c main_arg13 (by decide)
theorem B101_arg14 (c : Dev nD) : B101 m ρ c (Proc.devRef .tc main_arg14) = m ((c : Thread nD τ).loc main_arg14) :=
  B101_isArg m ρ c main_arg14 (by decide)
theorem B101_arg15 (c : Dev nD) : B101 m ρ c (Proc.devRef .tc main_arg15) = m ((c : Thread nD τ).loc main_arg15) :=
  B101_isArg m ρ c main_arg15 (by decide)
theorem B101_arg16 (c : Dev nD) : B101 m ρ c (Proc.devRef .tc main_arg16) = m ((c : Thread nD τ).loc main_arg16) :=
  B101_isArg m ρ c main_arg16 (by decide)
theorem B101_arg17 (c : Dev nD) : B101 m ρ c (Proc.devRef .tc main_arg17) = m ((c : Thread nD τ).loc main_arg17) :=
  B101_isArg m ρ c main_arg17 (by decide)
theorem B101_arg18 (c : Dev nD) : B101 m ρ c (Proc.devRef .tc main_arg18) = m ((c : Thread nD τ).loc main_arg18) :=
  B101_isArg m ρ c main_arg18 (by decide)
theorem B101_arg19 (c : Dev nD) : B101 m ρ c (Proc.devRef .tc main_arg19) = m ((c : Thread nD τ).loc main_arg19) :=
  B101_isArg m ρ c main_arg19 (by decide)
theorem B101_arg20 (c : Dev nD) : B101 m ρ c (Proc.devRef .tc main_arg20) = m ((c : Thread nD τ).loc main_arg20) :=
  B101_isArg m ρ c main_arg20 (by decide)
theorem B101_arg21 (c : Dev nD) : B101 m ρ c (Proc.devRef .tc main_arg21) = m ((c : Thread nD τ).loc main_arg21) :=
  B101_isArg m ρ c main_arg21 (by decide)
theorem B101_arg22 (c : Dev nD) : B101 m ρ c (Proc.devRef .tc main_arg22) = m ((c : Thread nD τ).loc main_arg22) :=
  B101_isArg m ρ c main_arg22 (by decide)
theorem B101_arg23 (c : Dev nD) : B101 m ρ c (Proc.devRef .tc main_arg23) = m ((c : Thread nD τ).loc main_arg23) :=
  B101_isArg m ρ c main_arg23 (by decide)
theorem B101_arg24 (c : Dev nD) : B101 m ρ c (Proc.devRef .tc main_arg24) = m ((c : Thread nD τ).loc main_arg24) :=
  B101_isArg m ρ c main_arg24 (by decide)
theorem B101_arg25 (c : Dev nD) : B101 m ρ c (Proc.devRef .tc main_arg25) = m ((c : Thread nD τ).loc main_arg25) :=
  B101_isArg m ρ c main_arg25 (by decide)
theorem B101_arg26 (c : Dev nD) : B101 m ρ c (Proc.devRef .tc main_arg26) = m ((c : Thread nD τ).loc main_arg26) :=
  B101_isArg m ρ c main_arg26 (by decide)

end Cert.Kernel.Hand

end
-- ==== Proof.KB.Pack.lean ====
/- The launch read at the result buffer and at the argument buffers: the result is the last boundary's contents there, and every
   argument array ends as launched. -/
import proofs.«408084_j48395691492010_3_alg».proof.Proof.KB.Run
import proofs.«408084_j48395691492010_3_alg».proof.Proof.KB.Args
import proofs.«408084_j48395691492010_3_alg».proof.Proof.Gen.Kernel.Launch
import proofs.«408084_j48395691492010_3_alg».proof.Proof.Gen.Kernel.Skeleton
import proofs.«408084_j48395691492010_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_packed : θ_run defs (onTc (τ := τ) (main (F := F))) ⟨m, fun _ => 0, ρ⟩ (fun r => ∀ c : Dev nD,
      r.2.mem ((c.tc : Thread nD τ).loc main_v402) = B101 m ρ c (Proc.devRef .tc main_v402)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
    ⟨h c _ (mem_uc main_v402 (by decide)),
      (h c _ (mem_uc main_arg0 (by decide))).trans (B101_arg0 m ρ c),
      (h c _ (mem_uc main_arg1 (by decide))).trans (B101_arg1 m ρ c),
      (h c _ (mem_uc main_arg2 (by decide))).trans (B101_arg2 m ρ c),
      (h c _ (mem_uc main_arg3 (by decide))).trans (B101_arg3 m ρ c),
      (h c _ (mem_uc main_arg4 (by decide))).trans (B101_arg4 m ρ c),
      (h c _ (mem_uc main_arg5 (by decide))).trans (B101_arg5 m ρ c),
      (h c _ (mem_uc main_arg6 (by decide))).trans (B101_arg6 m ρ c),
      (h c _ (mem_uc main_arg7 (by decide))).trans (B101_arg7 m ρ c),
      (h c _ (mem_uc main_arg8 (by decide))).trans (B101_arg8 m ρ c),
      (h c _ (mem_uc main_arg9 (by decide))).trans (B101_arg9 m ρ c),
      (h c _ (mem_uc main_arg10 (by decide))).trans (B101_arg10 m ρ c),
      (h c _ (mem_uc main_arg11 (by decide))).trans (B101_arg11 m ρ c),
      (h c _ (mem_uc main_arg12 (by decide))).trans (B101_arg12 m ρ c),
      (h c _ (mem_uc main_arg13 (by decide))).trans (B101_arg13 m ρ c),
      (h c _ (mem_uc main_arg14 (by decide))).trans (B101_arg14 m ρ c),
      (h c _ (mem_uc main_arg15 (by decide))).trans (B101_arg15 m ρ c),
      (h c _ (mem_uc main_arg16 (by decide))).trans (B101_arg16 m ρ c),
      (h c _ (mem_uc main_arg17 (by decide))).trans (B101_arg17 m ρ c),
      (h c _ (mem_uc main_arg18 (by decide))).trans (B101_arg18 m ρ c),
      (h c _ (mem_uc main_arg19 (by decide))).trans (B101_arg19 m ρ c),
      (h c _ (mem_uc main_arg20 (by decide))).trans (B101_arg20 m ρ c),
      (h c _ (mem_uc main_arg21 (by decide))).trans (B101_arg21 m ρ c),
      (h c _ (mem_uc main_arg22 (by decide))).trans (B101_arg22 m ρ c),
      (h c _ (mem_uc main_arg23 (by decide))).trans (B101_arg23 m ρ c),
      (h c _ (mem_uc main_arg24 (by decide))).trans (B101_arg24 m ρ c),
      (h c _ (mem_uc main_arg25 (by decide))).trans (B101_arg25 m ρ c),
      (h c _ (mem_uc main_arg26 (by decide))).trans (B101_arg26 m ρ c)⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => (h c).2) (run_packed m ρ)

end Cert.Kernel.Hand

end
-- ==== Proof.KI.R0.lean ====
/- Region 0 of the program: the kernel  out = (x · w + b) + feat  on row blocks of 2000 rows.
   Per grid point the body loads the four input blocks whole, computes, and stores the output block whole.
   This module states, at the region-entry contents V, each window's block at a point, what the body leaves in the
   output buffer as a pure function of the input blocks, the body's triple, the pipeline's proof data and its body
   obligation; then the output array after the region as one function of the entry arrays, index by index. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.Regions
import Idealize.ShloMosaic.Lib.Tactic

-- membership in a rectangle of 2000 rows: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window w's block at point t, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. For any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

noncomputable abbrev r0_0 : Rect S2000x18 := Rect.unit (s := S2000x18) ![0, 0] S2000x18.size inb_S2000x18_S2000x18_0_0
noncomputable abbrev r0_1 : Rect S18x4 := Rect.unit (s := S18x4) ![0, 0] S18x4.size inb_S18x4_S18x4_0_0
noncomputable abbrev r0_2 : Rect S1x4 := Rect.unit (s := S1x4) ![0, 0] S1x4.size inb_S1x4_S1x4_0_0
noncomputable abbrev r0_3 : Rect S2000x4 := Rect.unit (s := S2000x4) ![0, 0] S2000x4.size inb_S2000x4_S2000x4_0_0

/-! ## What the body leaves in the output window's buffer -/

/-- Window 4's staging buffer after the body, from the four input blocks: its one store, of the payload
    (x · w + b) + feat, over the whole buffer. -/
noncomputable def out0_4 (x0 : Vec F S2000x18 .f32) (x1 : Vec F S18x4 .f32) (x2 : Vec F S1x4 .f32) (x3 : Vec F S2000x4 .f32) : Vec F S2000x4 .f32 :=
  View.canon [⟨r0_3, k0_pay1 (View.ld x0 r0_0) (View.ld x1 r0_1) (View.ld x2 r0_2) (View.ld x3 r0_3)⟩]

/-- The one store is of the whole buffer, so it covers it. -/
theorem cover0_4 (p0 : Vec F S2000x4 .f32) (y : S2000x4.Idx) :
    ∃ pc ∈ ([⟨r0_3, p0⟩] : List (View.Piece (Elt F) S2000x4 .f32)), y ∈ pc.1.set :=
  View.cover_of_tiled [⟨r0_3, p0⟩] S2000x4.size (by rfl) y

/-! ## The body's triple -/

set_option maxHeartbeats 1000000 in
/-- The kernel body on whole staging memrefs, the inputs' at read contents and the output's at anything, runs to the
    continuation holding the inputs' as they were and the output's at out0_4 of the inputs'. -/
theorem sound_kernel0 (c : Dev nD) (E : Set ℕ) (i : grid0.Coords) (arg1 : Memref sig .tc .vmem S2000x18 .f32) (harg1 : arg1.IsWhole) (arg2 : Memref sig .tc .vmem S18x4 .f32) (harg2 : arg2.IsWhole) (arg3 : Memref sig .tc .vmem S1x4 .f32) (harg3 : arg3.IsWhole) (arg4 : Memref sig .tc .vmem S2000x4 .f32) (harg4 : arg4.IsWhole) (arg5 : Memref sig .tc .vmem S2000x4 .f32) (harg5 : arg5.IsWhole)
    (x0 : Vec F S2000x18 .f32) (x1 : Vec F S18x4 .f32) (x2 : Vec F S1x4 .f32) (x3 : Vec F S2000x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__esg_kernel i arg1 harg1 arg2 harg2 arg3 harg3 arg4 harg4 arg5 harg5) K := by
  simp only [cc0__esg_kernel_eq_skeleton]; unfold cc0__esg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core c: the arrays as the region finds them; after the body at point t each
    input's buffer at its block and the output's at out0_4 of the input blocks; the invariant the scoped rest and the
    generator register, untouched; nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's owed term pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.Regions
import Idealize.ShloMosaic.Lib.Tactic

/-! # Region 1: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of X: the staging buffer the body is handed holds the block of the point, whether the
    point fetched it or not (an unfetched input has not moved its block index). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The matrix W: fetched at the first point only, and found in place at every later one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

noncomputable abbrev r1_0 : Rect S2000x4 := Rect.unit (s := S2000x4) ![0, 0] S2000x4.size inb_S2000x4_S2000x4_0_0
noncomputable abbrev r1_1 : Rect S4x64 := Rect.unit (s := S4x64) ![0, 0] S4x64.size inb_S4x64_S4x64_0_0
noncomputable abbrev r1_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out1_2 (x0 : Vec F S2000x4 .f32) (x1 : Vec F S4x64 .f32) : Vec F S2000x64 .f32 :=
  View.canon [⟨r1_2, k1_pay1 (View.ld x0 r1_0) (View.ld x1 r1_1)⟩]

/-- The store's rectangle is the whole buffer, so it covers every index. -/
theorem cover1_2 (p0 : Vec F S2000x64 .f32) (y : S2000x64.Idx) :
    ∃ pc ∈ ([⟨r1_2, p0⟩] : List (View.Piece (Elt F) S2000x64 .f32)), y ∈ pc.1.set :=
  View.cover_of_tiled [⟨r1_2, p0⟩] S2000x64.size (by rfl) y

/-! ## The body's triple -/

set_option maxHeartbeats 1000000 in
/-- On whole staging memrefs, the inputs' holding x0 and x1 and the output's holding anything, the body
    runs to a state where the inputs' are unchanged and the output's holds out1_2 x0 x1. The body also reads
    the output buffer before storing into it; the value read is not used. -/
theorem sound_kernel1 (c : Dev nD) (E : Set ℕ) (i : grid1.Coords) (arg1 : Memref sig .tc .vmem S2000x4 .f32) (harg1 : arg1.IsWhole) (arg2 : Memref sig .tc .vmem S4x64 .f32) (harg2 : arg2.IsWhole) (arg3 : Memref sig .tc .vmem S2000x64 .f32) (harg3 : arg3.IsWhole)
    (x0 : Vec F S2000x4 .f32) (x1 : Vec F S4x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The arrays as the region finds them; after the body at point t the inputs' buffers at their blocks
    and the output's at the product block; the invariant is the scoped rest and the generator register,
    untouched; nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, window by window, -/
noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The inputs' memrefs hold their blocks, so the body's triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.R2.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 likewise: fetched at the first point only, its block index never moves, so the buffer holds
    the block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions on the grid coordinate -/

/-- The first conditional's condition (the point is the grid's first), from the grid coordinate. -/
noncomputable abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 25 = 0 :=
  (by decide +kernel : ∀ t : Fin grid2.N, cond2_0 (grid2.coords t) ↔ t.val % 25 = 0)

/-- The second conditional's condition (the point is the grid's last). -/
noncomputable abbrev cond2_1 (i : grid2.Coords) : Prop := k2_cond2 i = 1#1
/-- It holds at the last point only. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the first point the body stores nothing into output 3: the window is idle there and not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
/-- Nor at the middle points. -/
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At the last point it stores the accumulated sums there: the window is live. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of each output window, through which its contents are stated (the choice does not matter:
    a covering list of writes reads the same through any view). -/
noncomputable abbrev VO2_2 : View sig .tc .vmem S2000x64 .f32 := (Memref.whole cc2_stg2_0 : Memref sig .tc .vmem S2000x64 .f32).view
noncomputable abbrev VO2_3 : View sig .tc .vmem S1x64 .f32 := (Memref.whole cc2_stg3_0 : Memref sig .tc .vmem S1x64 .f32).view
/-- Each window's current staging memref at point `t`, as the pipeline passes it, and its wholeness. -/
noncomputable abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
noncomputable abbrev ms2_1 (t : Fin cfg2.N) : Memref sig .tc .vmem S1x64 .f32 := win2_1.stage (cfg2.slots t 1)
abbrev hs2_1 (t : Fin cfg2.N) : (ms2_1 t).IsWhole := hstage2_1 ((cfg2.slots t 1).cast nbuf2_1)
noncomputable abbrev ms2_2 (t : Fin cfg2.N) : Memref sig .tc .vmem S2000x64 .f32 := win2_2.stage (cfg2.slots t 2)
abbrev hs2_2 (t : Fin cfg2.N) : (ms2_2 t).IsWhole := hstage2_2 ((cfg2.slots t 2).cast nbuf2_2)
noncomputable abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
/-- The scratch operand: a whole scoped buffer of the kernel's own, in which the column sums accumulate. -/
noncomputable abbrev scM2_0 : Memref sig .tc .vmem S1x64 .f32 := Memref.whole cc2_scratch0
noncomputable abbrev VS2_0 : View sig .tc .vmem S1x64 .f32 := scM2_0.view

/-- The other scoped buffers (every other call's staging buffers and scratch), unopened. -/
noncomputable abbrev restBut2 (c : Dev nD) : sProp 𝕄 :=
  Pipeline.scopedRestBut (Ix := Unit) (Name := ℕ) (U := UR sig nD τ) (Lvl := ℕ) (Val := Elt F) spec2 c [cc2_scratch0]

/-- The region's invariant as the launch hands it over, with the scratch operand split out as a memref owned at
    some contents: what the body obligation hands the run and takes back. -/
theorem PhiA2_eq (c : Dev nD) :
    (Pipeline.ΦA spec2 c : sProp 𝕄)
      = iprop(iprop(iprop((∃ d, owns (c : Thread nD τ) scM2_0 fullShare d)) ∗ restBut2 (F := F) c) ∗ (∃ r, prngReg c r)) := by
  unfold Pipeline.ΦA; rw [scopedRest2_split]; simp only [scM2_0, owns_whole]; try rfl

-- (the run's proof term is large: the definition's epilogue walks it past the default budget)
set_option maxHeartbeats 1000000 in
/-- The body AT THE FIRST POINT (the first conditional taken, the second not): the scratch, at anything, is reset and then
    receives the block's column sums; output 2 receives the block plus the bias row; output 3 is handed back untouched.
    What the stores leave in each buffer is given as pieces (last first), found by running the body: on whole
    memrefs, the inputs at their contents `x0`, `x1`, the body runs to the continuation holding the inputs as they
    were and each stored buffer with its pieces written. -/
noncomputable def kernelRun2_A (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S2000x64 .f32) (x1 : Vec F S1x64 .f32) :
    Σ' (L2 : List (View.Piece (Elt F) S2000x64 .f32)) (L3 : List (View.Piece (Elt F) S1x64 .f32)), { LS0 : List (View.Piece (Elt F) S1x64 .f32) //
      ∀ (xi3 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg1 harg1 arg2 harg2 arg3 harg3 arg4 harg4 arg5 harg5) K } := by
  refine ⟨?_, [], ?_, fun xi3 E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

-- (the run's proof term is large: the definition's epilogue walks it past the default budget)
set_option maxHeartbeats 1000000 in
/-- The body AT A MIDDLE POINT (neither conditional taken): the scratch, at what the point before left (`xs0`), receives the
    block's column sums added to it; output 2 receives the block plus the bias row; output 3 is handed back untouched.
    What the stores leave in each buffer is given as pieces (last first), found by running the body: on whole
    memrefs, the inputs at their contents `x0`, `x1`, the body runs to the continuation holding the inputs as they
    were and each stored buffer with its pieces written. -/
noncomputable def kernelRun2_B (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S2000x64 .f32) (x1 : Vec F S1x64 .f32) (xs0 : Vec F S1x64 .f32) :
    Σ' (L2 : List (View.Piece (Elt F) S2000x64 .f32)) (L3 : List (View.Piece (Elt F) S1x64 .f32)), { LS0 : List (View.Piece (Elt F) S1x64 .f32) //
      ∀ (xi3 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg1 harg1 arg2 harg2 arg3 harg3 arg4 harg4 arg5 harg5) K } := by
  refine ⟨?_, [], ?_, fun xi3 E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

-- (the run's proof term is large: the definition's epilogue walks it past the default budget)
set_option maxHeartbeats 1000000 in
/-- The body AT THE LAST POINT (the second conditional taken, the first not): the scratch, at what the point before left
    (`xs0`), receives the block's column sums added to it and is then copied into output 3; output 2 receives the block
    plus the bias row.
    What the stores leave in each buffer is given as pieces (last first), found by running the body: on whole
    memrefs, the inputs at their contents `x0`, `x1`, the body runs to the continuation holding the inputs as they
    were and each stored buffer with its pieces written. -/
noncomputable def kernelRun2_C (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S2000x64 .f32) (x1 : Vec F S1x64 .f32) (xs0 : Vec F S1x64 .f32) :
    Σ' (L2 : List (View.Piece (Elt F) S2000x64 .f32)) (L3 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg1 harg1 arg2 harg2 arg3 harg3 arg4 harg4 arg5 harg5) K } := by
  refine ⟨?_, ?_, ?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- Case A: the one store into output 2 covers its block. -/
theorem cover2_A_2 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S2000x64 .f32) (x1 : Vec F S1x64 .f32) (y : S2000x64.Idx) :
    ∃ pc ∈ (kernelRun2_A c i arg1 harg1 arg2 harg2 arg3 harg3 arg4 harg4 arg5 harg5 hc0 hc1 x0 x1).1, y ∈ pc.1.set :=
  View.cover_of_tiledL (kernelRun2_A c i arg1 harg1 arg2 harg2 arg3 harg3 arg4 harg4 arg5 harg5 hc0 hc1 x0 x1).1 S2000x64.size (by sl_kernel_rfl) y

/-- What case A leaves in output 2's staging buffer: its pieces read back. -/
noncomputable def out2_A_2 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S2000x64 .f32) (x1 : Vec F S1x64 .f32) : Vec F S2000x64 .f32 :=
  VO2_2.read (Elt F) (VO2_2.writes (Elt F) VO2_2.junk (kernelRun2_A c i arg1 harg1 arg2 harg2 arg3 harg3 arg4 harg4 arg5 harg5 hc0 hc1 x0 x1).1)

/-- What case A leaves in output 3's staging buffer — nothing is stored: an arbitrary value that nothing consults
    (at these points the window is neither written back nor read at the next point). -/
noncomputable def out2_A_3 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S2000x64 .f32) (x1 : Vec F S1x64 .f32) : Vec F S1x64 .f32 :=
  VO2_3.read (Elt F) (VO2_3.writes (Elt F) VO2_3.junk (kernelRun2_A c i arg1 harg1 arg2 harg2 arg3 harg3 arg4 harg4 arg5 harg5 hc0 hc1 x0 x1).2.1)

/-- Case A: the stores into the scratch cover it. -/
theorem scover2_A_0 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S2000x64 .f32) (x1 : Vec F S1x64 .f32) (y : S1x64.Idx) :
    ∃ pc ∈ (kernelRun2_A c i arg1 harg1 arg2 harg2 arg3 harg3 arg4 harg4 arg5 harg5 hc0 hc1 x0 x1).2.2.1, y ∈ pc.1.set :=
  View.cover_of_tiledL (kernelRun2_A c i arg1 harg1 arg2 harg2 arg3 harg3 arg4 harg4 arg5 harg5 hc0 hc1 x0 x1).2.2.1 S1x64.size (by sl_kernel_rfl) y

/-- What case A leaves in the scratch: its pieces read back. -/
noncomputable def sout2_A_0 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond2_0 i) (hc1 : ¬cond2_1 i)
    (x0 : Vec F S2000x64 .f32) (x1 : Vec F S1x64 .f32) : Vec F S1x64 .f32 :=
  VS2_0.read (Elt F) (VS2_0.writes (Elt F) VS2_0.junk (kernelRun2_A c i arg1 harg1 arg2 harg2 arg3 harg3 arg4 harg4 arg5 harg5 hc0 hc1 x0 x1).2.2.1)

/-- Case B: the one store into output 2 covers its block. -/
theorem cover2_B_2 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S2000x64 .f32) (x1 : Vec F S1x64 .f32) (xs0 : Vec F S1x64 .f32) (y : S2000x64.Idx) :
    ∃ pc ∈ (kernelRun2_B c i arg1 harg1 arg2 harg2 arg3 harg3 arg4 harg4 arg5 harg5 hc0 hc1 x0 x1 xs0).1, y ∈ pc.1.set :=
  View.cover_of_tiledL (kernelRun2_B c i arg1 harg1 arg2 harg2 arg3 harg3 arg4 harg4 arg5 harg5 hc0 hc1 x0 x1 xs0).1 S2000x64.size (by sl_kernel_rfl) y

/-- What case B leaves in output 2's staging buffer: its pieces read back. -/
noncomputable def out2_B_2 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S2000x64 .f32) (x1 : Vec F S1x64 .f32) (xs0 : Vec F S1x64 .f32) : Vec F S2000x64 .f32 :=
  VO2_2.read (Elt F) (VO2_2.writes (Elt F) VO2_2.junk (kernelRun2_B c i arg1 harg1 arg2 harg2 arg3 harg3 arg4 harg4 arg5 harg5 hc0 hc1 x0 x1 xs0).1)

/-- What case B leaves in output 3's staging buffer — nothing is stored: an arbitrary value that nothing consults
    (at these points the window is neither written back nor read at the next point). -/
noncomputable def out2_B_3 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S2000x64 .f32) (x1 : Vec F S1x64 .f32) (xs0 : Vec F S1x64 .f32) : Vec F S1x64 .f32 :=
  VO2_3.read (Elt F) (VO2_3.writes (Elt F) VO2_3.junk (kernelRun2_B c i arg1 harg1 arg2 harg2 arg3 harg3 arg4 harg4 arg5 harg5 hc0 hc1 x0 x1 xs0).2.1)

/-- Case B: the stores into the scratch cover it. -/
theorem scover2_B_0 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S2000x64 .f32) (x1 : Vec F S1x64 .f32) (xs0 : Vec F S1x64 .f32) (y : S1x64.Idx) :
    ∃ pc ∈ (kernelRun2_B c i arg1 harg1 arg2 harg2 arg3 harg3 arg4 harg4 arg5 harg5 hc0 hc1 x0 x1 xs0).2.2.1, y ∈ pc.1.set :=
  View.cover_of_tiledL (kernelRun2_B c i arg1 harg1 arg2 harg2 arg3 harg3 arg4 harg4 arg5 harg5 hc0 hc1 x0 x1 xs0).2.2.1 S1x64.size (by sl_kernel_rfl) y

/-- What case B leaves in the scratch: its pieces read back. -/
noncomputable def sout2_B_0 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : ¬cond2_1 i)
    (x0 : Vec F S2000x64 .f32) (x1 : Vec F S1x64 .f32) (xs0 : Vec F S1x64 .f32) : Vec F S1x64 .f32 :=
  VS2_0.read (Elt F) (VS2_0.writes (Elt F) VS2_0.junk (kernelRun2_B c i arg1 harg1 arg2 harg2 arg3 harg3 arg4 harg4 arg5 harg5 hc0 hc1 x0 x1 xs0).2.2.1)

/-- Case C: the one store into output 2 covers its block. -/
theorem cover2_C_2 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S2000x64 .f32) (x1 : Vec F S1x64 .f32) (xs0 : Vec F S1x64 .f32) (y : S2000x64.Idx) :
    ∃ pc ∈ (kernelRun2_C c i arg1 harg1 arg2 harg2 arg3 harg3 arg4 harg4 arg5 harg5 hc0 hc1 x0 x1 xs0).1, y ∈ pc.1.set :=
  View.cover_of_tiledL (kernelRun2_C c i arg1 harg1 arg2 harg2 arg3 harg3 arg4 harg4 arg5 harg5 hc0 hc1 x0 x1 xs0).1 S2000x64.size (by sl_kernel_rfl) y

/-- What case C leaves in output 2's staging buffer: its pieces read back. -/
noncomputable def out2_C_2 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S2000x64 .f32) (x1 : Vec F S1x64 .f32) (xs0 : Vec F S1x64 .f32) : Vec F S2000x64 .f32 :=
  VO2_2.read (Elt F) (VO2_2.writes (Elt F) VO2_2.junk (kernelRun2_C c i arg1 harg1 arg2 harg2 arg3 harg3 arg4 harg4 arg5 harg5 hc0 hc1 x0 x1 xs0).1)

/-- Case C: the one store into output 3 covers its block. -/
theorem cover2_C_3 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S2000x64 .f32) (x1 : Vec F S1x64 .f32) (xs0 : Vec F S1x64 .f32) (y : S1x64.Idx) :
    ∃ pc ∈ (kernelRun2_C c i arg1 harg1 arg2 harg2 arg3 harg3 arg4 harg4 arg5 harg5 hc0 hc1 x0 x1 xs0).2.1, y ∈ pc.1.set :=
  View.cover_of_tiledL (kernelRun2_C c i arg1 harg1 arg2 harg2 arg3 harg3 arg4 harg4 arg5 harg5 hc0 hc1 x0 x1 xs0).2.1 S1x64.size (by sl_kernel_rfl) y

/-- What case C leaves in output 3's staging buffer: its pieces read back. -/
noncomputable def out2_C_3 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S2000x64 .f32) (x1 : Vec F S1x64 .f32) (xs0 : Vec F S1x64 .f32) : Vec F S1x64 .f32 :=
  VO2_3.read (Elt F) (VO2_3.writes (Elt F) VO2_3.junk (kernelRun2_C c i arg1 harg1 arg2 harg2 arg3 harg3 arg4 harg4 arg5 harg5 hc0 hc1 x0 x1 xs0).2.1)

/-- Case C: the stores into the scratch cover it. -/
theorem scover2_C_0 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S2000x64 .f32) (x1 : Vec F S1x64 .f32) (xs0 : Vec F S1x64 .f32) (y : S1x64.Idx) :
    ∃ pc ∈ (kernelRun2_C c i arg1 harg1 arg2 harg2 arg3 harg3 arg4 harg4 arg5 harg5 hc0 hc1 x0 x1 xs0).2.2.1, y ∈ pc.1.set :=
  View.cover_of_tiledL (kernelRun2_C c i arg1 harg1 arg2 harg2 arg3 harg3 arg4 harg4 arg5 harg5 hc0 hc1 x0 x1 xs0).2.2.1 S1x64.size (by sl_kernel_rfl) y

/-- What case C leaves in the scratch: its pieces read back. -/
noncomputable def sout2_C_0 (c : Dev nD) (i : grid2.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond2_0 i) (hc1 : cond2_1 i)
    (x0 : Vec F S2000x64 .f32) (x1 : Vec F S1x64 .f32) (xs0 : Vec F S1x64 .f32) : Vec F S1x64 .f32 :=
  VS2_0.read (Elt F) (VS2_0.writes (Elt F) VS2_0.junk (kernelRun2_C c i arg1 harg1 arg2 harg2 arg3 harg3 arg4 harg4 arg5 harg5 hc0 hc1 x0 x1 xs0).2.2.1)

/-! ## What the outputs and the scratch hold after each point -/

/-- THE ACCUMULATION. What the two outputs' staging buffers and the scratch hold after the body at position `n`
    (output 2, output 3, the scratch): the case the closed forms select at `n`, run at the point's memrefs and input
    blocks, the scratch before it at what this leaves at `n - 1`. No point meets both conditions. -/
noncomputable def outsAt2 (c : Dev nD) : (n : ℕ) → n < cfg2.N → Vec F S2000x64 .f32 × Vec F S1x64 .f32 × Vec F S1x64 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 25 = 0 then
      if h1 : (n + 1) % 25 = 24 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 25 = 24 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2.2, out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2.2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2.2, out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2.2)

/-- `outsAt2` at the first point: case A's contents. -/
theorem outsAt2_A (c : Dev nD) (t : Fin cfg2.N) (h0 : t.val % 25 = 0) (h1 : ¬t.val % 25 = 24) :
    outsAt2 V c t.val t.isLt = (out2_A_2 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t), out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a middle point: case B's contents, over what the point before left in the scratch. -/
theorem outsAt2_B (c : Dev nD) (t : Fin cfg2.N) (h0 : ¬t.val % 25 = 0) (h1 : ¬t.val % 25 = 24) :
    outsAt2 V c t.val t.isLt = (out2_B_2 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.2, out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at the last point: case C's contents, over what the point before left in the scratch. -/
theorem outsAt2_C (c : Dev nD) (t : Fin cfg2.N) (h0 : ¬t.val % 25 = 0) (h1 : t.val % 25 = 24) :
    outsAt2 V c t.val t.isLt = (out2_C_2 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2, out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt2`'s last component), the other
    scoped buffers unopened and the generator register at some state. -/
noncomputable def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2)) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the scratch at that point's contents. -/
theorem PhiS2_succ (c : Dev nD) (n : ℕ) (hn : n < cfg2.N) :
    PhiS2 V c (n + 1) hn = iprop(iprop(iprop(owns (c : Thread nD τ) scM2_0 fullShare ((outsAt2 V c n hn).2.2)) ∗ restBut2 (F := F) c) ∗ (∃ r, prngReg c r)) := rfl

/-- Before a point that is not the first: the scratch at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2)) ∗ restBut2 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt2`; the invariant `PhiS2`; nothing owed;
    full shares. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
noncomputable def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
noncomputable def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  by_cases h0 : t.val % 25 = 0
  · by_cases h1 : t.val % 25 = 24
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold out2_A_2 sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t)).2.2.2 _ Set.univ _)
        isplitl [H0]; · iexact H0
        isplitl [H1]; · iexact H1
        isplitl [H2]; · iexists _; iexact H2
        isplitl [H3]; · iexact H3
        isplitl [HS0]; · iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover2_A_2 c _ _ _ _ _ _ _ _ _ _ _ _ _ _ _)
        iexists _; iexact H3
      · exfalso; omega
  · by_cases h1 : t.val % 25 = 24
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_2 out2_C_3 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) _).2.2.2 Set.univ _)
        isplitl [H0]; · iexact H0
        isplitl [H1]; · iexact H1
        isplitl [H2]; · iexists _; iexact H2
        isplitl [H3]; · iexists _; iexact H3
        isplitl [HS0]; · iexact HS0
        iintro ⟨H0, H1, ⟨%e2, H2⟩, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover2_C_2 c _ _ _ _ _ _ _ _ _ _ _ _ _ _ _ _)
        unfold owns; iexists _; isplitr
        swap; · iexact H3
        ipureintro; exact View.read_writes_of_cover _ _ _ _ _ (cover2_C_3 c _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold out2_B_2 sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) _).2.2.2 _ Set.univ _)
        isplitl [H0]; · iexact H0
        isplitl [H1]; · iexact H1
        isplitl [H2]; · iexists _; iexact H2
        isplitl [H3]; · iexact H3
        isplitl [HS0]; · iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover2_B_2 c _ _ _ _ _ _ _ _ _ _ _ _ _ _ _ _)
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives it back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 25 := N_2; omega)

end Cert.KernelIdeal.Hand

end
-- ==== Proof.KI.R3.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3: the second pass of the column variance. Over the 25 row tiles of 2000 rows the body adds, column by
column, the tile's sum of squared deviations (x − mean)² into a one-row accumulator that it zeroes at the first tile and
copies to the one-row result at the last. Here: the windows' blocks, the two branch conditions over the grid, the body's
triple in each of the three control cases (first tile, a middle tile, last tile), what each case leaves in the accumulator
and in the result's buffer, those contents point by point along the grid, the proof data over them and the body
obligation; the invariant carries the accumulator at the contents the point before left. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-tile window (window 0, fetched at every point) holds its block when the body runs, for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The mean window (window 1, one constant block fetched at the first point only) holds that block at every point:
    where it is not fetched its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The two branch conditions, over the grid -/

/-- The condition of the first conditional (the accumulator's reset): the grid coordinate is 0. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition of the second conditional (the accumulator stored to the output): the grid coordinate is 24. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
/-- Away from the last point the body stores nothing into the output window: it is idle there, -/
theorem idleAt3_2 : ∀ t : Fin cfg3.N, ¬cond3_1 (grid3.coords t) → cfg3.idle 2 (grid3.coords t) = true := by decide +kernel
/-- and its block is not written back there. -/
theorem noFlush3_2 : ∀ t : Fin cfg3.N, ¬cond3_1 (grid3.coords t) → (cfg3.win 2).flush t = false := by decide +kernel
/-- At the last point the output window is live. -/
theorem liveAt3_2 : ∀ t : Fin cfg3.N, cond3_1 (grid3.coords t) → cfg3.idle 2 (grid3.coords t) = false := by decide +kernel

/-! ## The memrefs the body is called with -/

/-- The output window's one staging buffer as a view: what the body leaves in it is stated through it. -/
noncomputable abbrev VO3_2 : View sig .tc .vmem S1x64 .f32 := (Memref.whole cc3_stg2_0 : Memref sig .tc .vmem S1x64 .f32).view
/-- Each window's current staging memref at point `t`, and its wholeness. -/
noncomputable abbrev ms3_0 (t : Fin cfg3.N) : Memref sig .tc .vmem S2000x64 .f32 := win3_0.stage (cfg3.slots t 0)
abbrev hs3_0 (t : Fin cfg3.N) : (ms3_0 t).IsWhole := hstage3_0 ((cfg3.slots t 0).cast nbuf3_0)
noncomputable abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
noncomputable abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
/-- The accumulator: the kernel's own scratch buffer, whole, passed beside the windows, -/
noncomputable abbrev scM3_0 : Memref sig .tc .vmem S1x64 .f32 := Memref.whole cc3_scratch0
/-- and as a view. -/
noncomputable abbrev VS3_0 : View sig .tc .vmem S1x64 .f32 := scM3_0.view

/-- The region-entry invariant with the accumulator split out of the scoped rest, as a memref owned at some contents. -/
theorem PhiA3_eq (c : Dev nD) :
    (Pipeline.ΦA spec3 c : sProp 𝕄)
      = iprop(iprop(iprop(∃ d, owns (c : Thread nD τ) scM3_0 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-! ## The body, once per control case -/

set_option maxHeartbeats 1000000 in
/-- CASE A (the first point: the reset taken, the final store not). On whole memrefs — the two inputs at contents
    `x0`, `x1`, the output's buffer at `xi2` handed back untouched, the accumulator at anything — the body runs to the
    continuation holding the inputs as they were and the accumulator with the pieces `LS0` written (the zero fill, then
    the first tile's column sums added to what is read back): the pieces are found by running the body. -/
noncomputable def kernelRun3_A (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : cond3_0 i) (hc1 : ¬cond3_1 i)
    (x0 : Vec F S2000x64 .f32) (x1 : Vec F S1x64 .f32) :
    { LS0 : List (View.Piece (Elt F) S1x64 .f32) //
      ∀ (xi2 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__var_kernel i arg1 harg1 arg2 harg2 arg3 harg3 arg4 harg4) K } := by
  refine ⟨?_, fun xi2 E K => ?run⟩
  case run =>
    simp only [cc3__var_kernel_eq_skeleton]; unfold cc3__var_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE B (a middle point: neither conditional taken). The accumulator comes in at the contents `xs0` the point before
    left and goes out with one piece written: the tile's column sums added to `xs0`. -/
noncomputable def kernelRun3_B (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : ¬cond3_1 i)
    (x0 : Vec F S2000x64 .f32) (x1 : Vec F S1x64 .f32) (xs0 : Vec F S1x64 .f32) :
    { LS0 : List (View.Piece (Elt F) S1x64 .f32) //
      ∀ (xi2 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc3__var_kernel i arg1 harg1 arg2 harg2 arg3 harg3 arg4 harg4) K } := by
  refine ⟨?_, fun xi2 E K => ?run⟩
  case run =>
    simp only [cc3__var_kernel_eq_skeleton]; unfold cc3__var_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE C (the last point: the reset not taken, the final store taken). As case B, and the output's buffer, at anything
    before, goes out with the pieces `L2` written: the accumulator read back after its update. -/
noncomputable def kernelRun3_C (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : cond3_1 i)
    (x0 : Vec F S2000x64 .f32) (x1 : Vec F S1x64 .f32) (xs0 : Vec F S1x64 .f32) :
    Σ' (L2 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc3__var_kernel i arg1 harg1 arg2 harg2 arg3 harg3 arg4 harg4) K } := by
  refine ⟨?_, ?_, fun E K => ?run⟩
  case run =>
    simp only [cc3__var_kernel_eq_skeleton]; unfold cc3__var_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves in the accumulator and in the output's buffer -/

/-- At the points where the output window is idle its `after` is never consulted (the window is neither written back
    there nor read at the next point): an arbitrary value. -/
noncomputable def idle3_2 : Vec F S1x64 .f32 := VO3_2.read (Elt F) VO3_2.junk

/-- Case A's pieces cover the accumulator (each is the whole row). -/
theorem scover3_A_0 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : cond3_0 i) (hc1 : ¬cond3_1 i)
    (x0 : Vec F S2000x64 .f32) (x1 : Vec F S1x64 .f32) (y : S1x64.Idx) :
    ∃ pc ∈ (kernelRun3_A c i arg1 harg1 arg2 harg2 arg3 harg3 arg4 harg4 hc0 hc1 x0 x1).1, y ∈ pc.1.set :=
  View.cover_of_tiledL (kernelRun3_A c i arg1 harg1 arg2 harg2 arg3 harg3 arg4 harg4 hc0 hc1 x0 x1).1 S1x64.size (by sl_kernel_rfl) y

/-- What case A leaves in the accumulator: its pieces read back. -/
noncomputable def sout3_A_0 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : cond3_0 i) (hc1 : ¬cond3_1 i)
    (x0 : Vec F S2000x64 .f32) (x1 : Vec F S1x64 .f32) : Vec F S1x64 .f32 :=
  VS3_0.read (Elt F) (VS3_0.writes (Elt F) VS3_0.junk (kernelRun3_A c i arg1 harg1 arg2 harg2 arg3 harg3 arg4 harg4 hc0 hc1 x0 x1).1)

/-- Case B's one piece covers the accumulator. -/
theorem scover3_B_0 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : ¬cond3_1 i)
    (x0 : Vec F S2000x64 .f32) (x1 : Vec F S1x64 .f32) (xs0 : Vec F S1x64 .f32) (y : S1x64.Idx) :
    ∃ pc ∈ (kernelRun3_B c i arg1 harg1 arg2 harg2 arg3 harg3 arg4 harg4 hc0 hc1 x0 x1 xs0).1, y ∈ pc.1.set :=
  View.cover_of_tiledL (kernelRun3_B c i arg1 harg1 arg2 harg2 arg3 harg3 arg4 harg4 hc0 hc1 x0 x1 xs0).1 S1x64.size (by sl_kernel_rfl) y

/-- What case B leaves in the accumulator. -/
noncomputable def sout3_B_0 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : ¬cond3_1 i)
    (x0 : Vec F S2000x64 .f32) (x1 : Vec F S1x64 .f32) (xs0 : Vec F S1x64 .f32) : Vec F S1x64 .f32 :=
  VS3_0.read (Elt F) (VS3_0.writes (Elt F) VS3_0.junk (kernelRun3_B c i arg1 harg1 arg2 harg2 arg3 harg3 arg4 harg4 hc0 hc1 x0 x1 xs0).1)

/-- Case C's one store covers the output's buffer. -/
theorem cover3_C_2 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : cond3_1 i)
    (x0 : Vec F S2000x64 .f32) (x1 : Vec F S1x64 .f32) (xs0 : Vec F S1x64 .f32) (y : S1x64.Idx) :
    ∃ pc ∈ (kernelRun3_C c i arg1 harg1 arg2 harg2 arg3 harg3 arg4 harg4 hc0 hc1 x0 x1 xs0).1, y ∈ pc.1.set :=
  View.cover_of_tiledL (kernelRun3_C c i arg1 harg1 arg2 harg2 arg3 harg3 arg4 harg4 hc0 hc1 x0 x1 xs0).1 S1x64.size (by sl_kernel_rfl) y

/-- What case C leaves in the output's buffer. -/
noncomputable def out3_C_2 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : cond3_1 i)
    (x0 : Vec F S2000x64 .f32) (x1 : Vec F S1x64 .f32) (xs0 : Vec F S1x64 .f32) : Vec F S1x64 .f32 :=
  VO3_2.read (Elt F) (VO3_2.writes (Elt F) VO3_2.junk (kernelRun3_C c i arg1 harg1 arg2 harg2 arg3 harg3 arg4 harg4 hc0 hc1 x0 x1 xs0).1)

/-- Case C's one piece covers the accumulator. -/
theorem scover3_C_0 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : cond3_1 i)
    (x0 : Vec F S2000x64 .f32) (x1 : Vec F S1x64 .f32) (xs0 : Vec F S1x64 .f32) (y : S1x64.Idx) :
    ∃ pc ∈ (kernelRun3_C c i arg1 harg1 arg2 harg2 arg3 harg3 arg4 harg4 hc0 hc1 x0 x1 xs0).2.1, y ∈ pc.1.set :=
  View.cover_of_tiledL (kernelRun3_C c i arg1 harg1 arg2 harg2 arg3 harg3 arg4 harg4 hc0 hc1 x0 x1 xs0).2.1 S1x64.size (by sl_kernel_rfl) y

/-- What case C leaves in the accumulator. -/
noncomputable def sout3_C_0 (c : Dev nD) (i : grid3.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (hc0 : ¬cond3_0 i) (hc1 : cond3_1 i)
    (x0 : Vec F S2000x64 .f32) (x1 : Vec F S1x64 .f32) (xs0 : Vec F S1x64 .f32) : Vec F S1x64 .f32 :=
  VS3_0.read (Elt F) (VS3_0.writes (Elt F) VS3_0.junk (kernelRun3_C c i arg1 harg1 arg2 harg2 arg3 harg3 arg4 harg4 hc0 hc1 x0 x1 xs0).2.1)

/-! ## Point by point -/

/-- What the output's buffer and the accumulator hold after the body at point `n` (a pair: output, accumulator): case A
    at the first point; afterwards case C at point 24 and case B elsewhere, each over what the point before left in the
    accumulator. -/
noncomputable def outsAt3 (c : Dev nD) : (n : ℕ) → n < cfg3.N → Vec F S1x64 .f32 × Vec F S1x64 .f32
  | 0, hn => (idle3_2,
      sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr rfl)
        (fun h => (fun h' : (0 : ℕ) = 24 => by omega) ((hcond3_1 ⟨0, hn⟩).mp h)) (iblk3 V c 0 ⟨0, hn⟩) (iblk3 V c 1 ⟨0, hn⟩))
  | n + 1, hn =>
    if h1 : n + 1 = 24 then
      (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => (fun h' : n + 1 = 0 => by omega) ((hcond3_0 ⟨n + 1, hn⟩).mp h))
          ((hcond3_1 ⟨n + 1, hn⟩).mpr h1) (iblk3 V c 0 ⟨n + 1, hn⟩) (iblk3 V c 1 ⟨n + 1, hn⟩) (outsAt3 c n (Nat.lt_of_succ_lt hn)).2,
       sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => (fun h' : n + 1 = 0 => by omega) ((hcond3_0 ⟨n + 1, hn⟩).mp h))
          ((hcond3_1 ⟨n + 1, hn⟩).mpr h1) (iblk3 V c 0 ⟨n + 1, hn⟩) (iblk3 V c 1 ⟨n + 1, hn⟩) (outsAt3 c n (Nat.lt_of_succ_lt hn)).2)
    else
      (idle3_2,
       sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => (fun h' : n + 1 = 0 => by omega) ((hcond3_0 ⟨n + 1, hn⟩).mp h))
          (fun h => h1 ((hcond3_1 ⟨n + 1, hn⟩).mp h)) (iblk3 V c 0 ⟨n + 1, hn⟩) (iblk3 V c 1 ⟨n + 1, hn⟩) (outsAt3 c n (Nat.lt_of_succ_lt hn)).2)

/-- `outsAt3` at the first point. -/
theorem outsAt3_A (c : Dev nD) (t : Fin cfg3.N) (h0 : t.val = 0) (h1 : ¬t.val = 24) :
    outsAt3 V c t.val t.isLt = (idle3_2,
      sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact absurd h0 (Nat.succ_ne_zero n)

/-- `outsAt3` at a middle point: case B over what the point before left. -/
theorem outsAt3_B (c : Dev nD) (t : Fin cfg3.N) (h0 : ¬t.val = 0) (h1 : ¬t.val = 24) :
    outsAt3 V c t.val t.isLt = (idle3_2,
      sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t)
        (outsAt3 V c (t.val - 1) (Nat.lt_of_le_of_lt (Nat.sub_le _ _) t.isLt)).2) := by
  obtain ⟨n, hn⟩ := t
  cases n with
  | zero => exact absurd rfl h0
  | succ n => exact (dif_neg h1).trans rfl

/-- `outsAt3` at the last point: case C over what the point before left. -/
theorem outsAt3_C (c : Dev nD) (t : Fin cfg3.N) (h0 : ¬t.val = 0) (h1 : t.val = 24) :
    outsAt3 V c t.val t.isLt =
      (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t)
        (outsAt3 V c (t.val - 1) (Nat.lt_of_le_of_lt (Nat.sub_le _ _) t.isLt)).2,
       sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t)
        (outsAt3 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over (every scoped buffer
    at anything); afterwards the accumulator at what the point before left in it, the other scoped buffers at anything,
    the generator register at some state. -/
noncomputable def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The proof data of this region on core `c`: the arrays as the region finds them (`V`); after the body each input's
    buffer at its block and the output's at `outsAt3`'s first component; the invariant `PhiS3`; nothing owed; full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point `t`, the windows one by one, -/
noncomputable def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
noncomputable def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' memrefs hold their blocks; the point's position says which case it is in; the
    invariant hands the body the accumulator (at anything at the first point, else at what the point before left) and
    takes it back at this point's contents; away from the last point the output's buffer goes back as it came. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h0 : t.val = 0
  · have h1 : ¬t.val = 24 := by omega
    rw [Dat.leavesExact_idle (dat3 V c) 2 t (idleAt3_2 t (fun h => h1 ((hcond3_1 t).mp h))) (noFlush3_2 t (fun h => h1 ((hcond3_1 t).mp h)))]
    rw [outsAt3_A V c t h0 h1]
    unfold sout3_A_0; (try dsimp only)
    rw [PhiS3_castSucc V c t, PhiS3_zero V c _ _ h0, PhiA3_eq]
    iintro ⟨⟨⟨HS0, Hr⟩, Hg⟩, Ho, ⟨%d0, H0⟩, ⟨%d1, H1⟩, ⟨%d2, H2⟩⟩
    iapply ((kernelRun3_A c (grid3.coords t) _ _ _ _ _ _ _ _ ((hcond3_0 t).mpr h0) (fun h => h1 ((hcond3_1 t).mp h)) (iblk3 V c 0 t) (iblk3 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat3 V c).leavesExact 2 t = owns (c : Thread nD τ) (ms3_2 t) fullShare ((dat3 V c).after 2 t) from by
        unfold Dat.leavesExact; rw [liveAt3_2 t ((hcond3_1 t).mpr h1)], after3_2]
      rw [outsAt3_C V c t h0 h1]
      unfold out3_C_2 sout3_C_0; (try dsimp only)
      rw [PhiS3_castSucc V c t, PhiS3_pos V c _ _ h0]
      iintro ⟨⟨⟨HS0, Hr⟩, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat3 V c) 2 t (idleAt3_2 t (fun h => h1 ((hcond3_1 t).mp h))) (noFlush3_2 t (fun h => h1 ((hcond3_1 t).mp h)))]
      rw [outsAt3_B V c t h0 h1]
      unfold sout3_B_0; (try dsimp only)
      rw [PhiS3_castSucc V c t, PhiS3_pos V c _ _ h0]
      iintro ⟨⟨⟨HS0, Hr⟩, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 25 := N_3; omega)

end Cert.KernelIdeal.Hand

end
-- ==== Proof.KI.R4.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Ring
import Idealize.ShloMosaic.Lib.Tactic

/-!
# Region 4: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activations' staging buffer holds the block of the current point at every point: the window is fetched at
    every point, is never cut and never idle, and the body leaves the block where it found it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The mean row's staging buffer holds its (one) block at every point: it is fetched at the first point only, its
    block index never moves afterwards, and the body leaves it in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same of the variance row. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The same of the scale row. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The same of the shift row. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read, and the output written, whole -/

/-- The whole of a block of 2000 rows. -/
noncomputable abbrev r4_0 : Rect S2000x64 := Rect.unit (s := S2000x64) ![0, 0] S2000x64.size inb_S2000x64_S2000x64_0_0
/-- The whole of a single row. -/
noncomputable abbrev r4_1 : Rect S1x64 := Rect.unit (s := S1x64) ![0, 0] S1x64.size inb_S1x64_S1x64_0_0

/-! ## What the body leaves in the output buffer -/

/-- The output buffer after the body, from the five input blocks: its one store, whose payload is the skeleton's. -/
noncomputable def out4_5 (x0 : Vec F S2000x64 .f32) (x1 : Vec F S1x64 .f32) (x2 : Vec F S1x64 .f32) (x3 : Vec F S1x64 .f32) (x4 : Vec F S1x64 .f32) :
    Vec F S2000x64 .f32 :=
  View.canon [⟨r4_0, k4_pay1 (View.ld x0 r4_0) (View.ld x1 r4_1) (View.ld x2 r4_1) (View.ld x3 r4_1) (View.ld x4 r4_1)⟩]

/-- The one store covers the buffer. -/
theorem cover4_5 (p0 : Vec F S2000x64 .f32) (y : S2000x64.Idx) :
    ∃ pc ∈ ([⟨r4_0, p0⟩] : List (View.Piece (Elt F) S2000x64 .f32)), y ∈ pc.1.set :=
  View.cover_of_tiled [⟨r4_0, p0⟩] S2000x64.size (by rfl) y

/-! ## The body's triple -/

set_option maxHeartbeats 1000000 in
/-- The body on whole staging buffers, the five inputs' at read contents x0 … x4 and the output's at anything, runs
    to a state in which the inputs' are as they were and the output's holds out4_5 of them. (The body also loads the
    output buffer before it stores to it; the loaded value is not used.) -/
theorem sound_kernel4 (c : Dev nD) (E : Set ℕ) (i : grid4.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__bn_softmax_kernel i arg1 harg1 arg2 harg2 arg3 harg3 arg4 harg4 arg5 harg5 arg6 harg6) K := by
  simp only [cc4__bn_softmax_kernel_eq_skeleton]; unfold cc4__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of the region's pipeline on core c: the arrays as the region finds them; after the body at point t
    each input's buffer at its block and the output's at out4_5 of the input blocks; the invariant that of a body which
    touches nothing but its windows; nothing owed; full shares. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point t, the windows one by one, -/
noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
noncomputable def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KI.R5.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.Regions
import Idealize.ShloMosaic.Lib.Tactic

/-! # Region 5: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The rows of X: the staging buffer the body is handed holds the block of the point, whether the
    point fetched it or not (an unfetched input has not moved its block index). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The matrix W: fetched at the first point only, and found in place at every later one. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

noncomputable abbrev r5_0 : Rect S2000x64 := Rect.unit (s := S2000x64) ![0, 0] S2000x64.size inb_S2000x64_S2000x64_0_0
noncomputable abbrev r5_1 : Rect S64x128 := Rect.unit (s := S64x128) ![0, 0] S64x128.size inb_S64x128_S64x128_0_0
noncomputable abbrev r5_2 : Rect S2000x128 := Rect.unit (s := S2000x128) ![0, 0] S2000x128.size inb_S2000x128_S2000x128_0_0

/-! ## What the body leaves in the output window's buffer -/

/-- The product block: the one store, over the whole buffer, of the payload at the two blocks read. -/
noncomputable def out5_2 (x0 : Vec F S2000x64 .f32) (x1 : Vec F S64x128 .f32) : Vec F S2000x128 .f32 :=
  View.canon [⟨r5_2, k5_pay1 (View.ld x0 r5_0) (View.ld x1 r5_1)⟩]

/-- The store's rectangle is the whole buffer, so it covers every index. -/
theorem cover5_2 (p0 : Vec F S2000x128 .f32) (y : S2000x128.Idx) :
    ∃ pc ∈ ([⟨r5_2, p0⟩] : List (View.Piece (Elt F) S2000x128 .f32)), y ∈ pc.1.set :=
  View.cover_of_tiled [⟨r5_2, p0⟩] S2000x128.size (by rfl) y

/-! ## The body's triple -/

set_option maxHeartbeats 1000000 in
/-- On whole staging memrefs, the inputs' holding x0 and x1 and the output's holding anything, the body
    runs to a state where the inputs' are unchanged and the output's holds out5_2 x0 x1. The body also reads
    the output buffer before storing into it; the value read is not used. -/
theorem sound_kernel5 (c : Dev nD) (E : Set ℕ) (i : grid5.Coords) (arg1 : Memref sig .tc .vmem S2000x64 .f32) (harg1 : arg1.IsWhole) (arg2 : Memref sig .tc .vmem S64x128 .f32) (harg2 : arg2.IsWhole) (arg3 : Memref sig .tc .vmem S2000x128 .f32) (harg3 : arg3.IsWhole)
    (x0 : Vec F S2000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__linear_kernel i arg1 harg1 arg2 harg2 arg3 harg3) K := by
  simp only [cc5__linear_kernel_eq_skeleton]; unfold cc5__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The arrays as the region finds them; after the body at point t the inputs' buffers at their blocks
    and the output's at the product block; the invariant is the scoped rest and the generator register,
    untouched; nothing owed; full shares. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point t, window by window, -/
noncomputable def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
noncomputable def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The inputs' memrefs hold their blocks, so the body's triple applies; the invariant and what the core
    owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Hand

end
-- ==== Proof.KI.R6.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for any proof data whose array is
    `V`'s and whose body leaves the block in place: the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 likewise: fetched at the first point only, its block index never moves, so the buffer holds
    the block at every point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's two conditions on the grid coordinate -/

/-- The first conditional's condition (the point is the grid's first), from the grid coordinate. -/
noncomputable abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val % 25 = 0 :=
  (by decide +kernel : ∀ t : Fin grid6.N, cond6_0 (grid6.coords t) ↔ t.val % 25 = 0)

/-- The second conditional's condition (the point is the grid's last). -/
noncomputable abbrev cond6_1 (i : grid6.Coords) : Prop := k6_cond2 i = 1#1
/-- It holds at the last point only. -/
theorem hcond6_1 : ∀ t : Fin cfg6.N, cond6_1 (grid6.coords t) ↔ t.val % 25 = 24 :=
  (by decide +kernel : ∀ t : Fin grid6.N, cond6_1 (grid6.coords t) ↔ t.val % 25 = 24)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
/-- At the first point the body stores nothing into output 3: the window is idle there and not written back. -/
theorem idleAt6_3_A : ∀ t : Fin cfg6.N, cond6_0 (grid6.coords t) → ¬cond6_1 (grid6.coords t) → cfg6.idle 3 (grid6.coords t) = true := by decide +kernel
theorem noFlush6_3_A : ∀ t : Fin cfg6.N, cond6_0 (grid6.coords t) → ¬cond6_1 (grid6.coords t) → (cfg6.win 3).flush t = false := by decide +kernel
/-- Nor at the middle points. -/
theorem idleAt6_3_B : ∀ t : Fin cfg6.N, ¬cond6_0 (grid6.coords t) → ¬cond6_1 (grid6.coords t) → cfg6.idle 3 (grid6.coords t) = true := by decide +kernel
theorem noFlush6_3_B : ∀ t : Fin cfg6.N, ¬cond6_0 (grid6.coords t) → ¬cond6_1 (grid6.coords t) → (cfg6.win 3).flush t = false := by decide +kernel
/-- At the last point it stores the accumulated sums there: the window is live. -/
theorem liveAt6_3_C : ∀ t : Fin cfg6.N, ¬cond6_0 (grid6.coords t) → cond6_1 (grid6.coords t) → cfg6.idle 3 (grid6.coords t) = false := by decide +kernel

/-! ## The memrefs the body is called with -/

/-- One staging buffer of each output window, through which its contents are stated (the choice does not matter:
    a covering list of writes reads the same through any view). -/
noncomputable abbrev VO6_2 : View sig .tc .vmem S2000x128 .f32 := (Memref.whole cc6_stg2_0 : Memref sig .tc .vmem S2000x128 .f32).view
noncomputable abbrev VO6_3 : View sig .tc .vmem S1x128 .f32 := (Memref.whole cc6_stg3_0 : Memref sig .tc .vmem S1x128 .f32).view
/-- Each window's current staging memref at point `t`, as the pipeline passes it, and its wholeness. -/
noncomputable abbrev ms6_0 (t : Fin cfg6.N) : Memref sig .tc .vmem S2000x128 .f32 := win6_0.stage (cfg6.slots t 0)
abbrev hs6_0 (t : Fin cfg6.N) : (ms6_0 t).IsWhole := hstage6_0 ((cfg6.slots t 0).cast nbuf6_0)
noncomputable abbrev ms6_1 (t : Fin cfg6.N) : Memref sig .tc .vmem S1x128 .f32 := win6_1.stage (cfg6.slots t 1)
abbrev hs6_1 (t : Fin cfg6.N) : (ms6_1 t).IsWhole := hstage6_1 ((cfg6.slots t 1).cast nbuf6_1)
noncomputable abbrev ms6_2 (t : Fin cfg6.N) : Memref sig .tc .vmem S2000x128 .f32 := win6_2.stage (cfg6.slots t 2)
abbrev hs6_2 (t : Fin cfg6.N) : (ms6_2 t).IsWhole := hstage6_2 ((cfg6.slots t 2).cast nbuf6_2)
noncomputable abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
/-- The scratch operand: a whole scoped buffer of the kernel's own, in which the column sums accumulate. -/
noncomputable abbrev scM6_0 : Memref sig .tc .vmem S1x128 .f32 := Memref.whole cc6_scratch0
noncomputable abbrev VS6_0 : View sig .tc .vmem S1x128 .f32 := scM6_0.view

/-- The other scoped buffers (every other call's staging buffers and scratch), unopened. -/
noncomputable abbrev restBut6 (c : Dev nD) : sProp 𝕄 :=
  Pipeline.scopedRestBut (Ix := Unit) (Name := ℕ) (U := UR sig nD τ) (Lvl := ℕ) (Val := Elt F) spec6 c [cc6_scratch0]

/-- The region's invariant as the launch hands it over, with the scratch operand split out as a memref owned at
    some contents: what the body obligation hands the run and takes back. -/
theorem PhiA6_eq (c : Dev nD) :
    (Pipeline.ΦA spec6 c : sProp 𝕄)
      = iprop(iprop(iprop((∃ d, owns (c : Thread nD τ) scM6_0 fullShare d)) ∗ restBut6 (F := F) c) ∗ (∃ r, prngReg c r)) := by
  unfold Pipeline.ΦA; rw [scopedRest6_split]; simp only [scM6_0, owns_whole]; try rfl

-- (the run's proof term is large: the definition's epilogue walks it past the default budget)
set_option maxHeartbeats 1000000 in
/-- The body AT THE FIRST POINT (the first conditional taken, the second not): the scratch, at anything, is reset and then
    receives the block's column sums; output 2 receives the block plus the bias row; output 3 is handed back untouched.
    What the stores leave in each buffer is given as pieces (last first), found by running the body: on whole
    memrefs, the inputs at their contents `x0`, `x1`, the body runs to the continuation holding the inputs as they
    were and each stored buffer with its pieces written. -/
noncomputable def kernelRun6_A (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond6_0 i) (hc1 : ¬cond6_1 i)
    (x0 : Vec F S2000x128 .f32) (x1 : Vec F S1x128 .f32) :
    Σ' (L2 : List (View.Piece (Elt F) S2000x128 .f32)) (L3 : List (View.Piece (Elt F) S1x128 .f32)), { LS0 : List (View.Piece (Elt F) S1x128 .f32) //
      ∀ (xi3 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc6_kernel i arg1 harg1 arg2 harg2 arg3 harg3 arg4 harg4 arg5 harg5) K } := by
  refine ⟨?_, [], ?_, fun xi3 E K => ?run⟩
  case run =>
    simp only [cc6_kernel_eq_skeleton]; unfold cc6_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

-- (the run's proof term is large: the definition's epilogue walks it past the default budget)
set_option maxHeartbeats 1000000 in
/-- The body AT A MIDDLE POINT (neither conditional taken): the scratch, at what the point before left (`xs0`), receives the
    block's column sums added to it; output 2 receives the block plus the bias row; output 3 is handed back untouched.
    What the stores leave in each buffer is given as pieces (last first), found by running the body: on whole
    memrefs, the inputs at their contents `x0`, `x1`, the body runs to the continuation holding the inputs as they
    were and each stored buffer with its pieces written. -/
noncomputable def kernelRun6_B (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : ¬cond6_1 i)
    (x0 : Vec F S2000x128 .f32) (x1 : Vec F S1x128 .f32) (xs0 : Vec F S1x128 .f32) :
    Σ' (L2 : List (View.Piece (Elt F) S2000x128 .f32)) (L3 : List (View.Piece (Elt F) S1x128 .f32)), { LS0 : List (View.Piece (Elt F) S1x128 .f32) //
      ∀ (xi3 : Vec F S1x128 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc6_kernel i arg1 harg1 arg2 harg2 arg3 harg3 arg4 harg4 arg5 harg5) K } := by
  refine ⟨?_, [], ?_, fun xi3 E K => ?run⟩
  case run =>
    simp only [cc6_kernel_eq_skeleton]; unfold cc6_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

-- (the run's proof term is large: the definition's epilogue walks it past the default budget)
set_option maxHeartbeats 1000000 in
/-- The body AT THE LAST POINT (the second conditional taken, the first not): the scratch, at what the point before left
    (`xs0`), receives the block's column sums added to it and is then copied into output 3; output 2 receives the block
    plus the bias row.
    What the stores leave in each buffer is given as pieces (last first), found by running the body: on whole
    memrefs, the inputs at their contents `x0`, `x1`, the body runs to the continuation holding the inputs as they
    were and each stored buffer with its pieces written. -/
noncomputable def kernelRun6_C (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : cond6_1 i)
    (x0 : Vec F S2000x128 .f32) (x1 : Vec F S1x128 .f32) (xs0 : Vec F S1x128 .f32) :
    Σ' (L2 : List (View.Piece (Elt F) S2000x128 .f32)) (L3 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc6_kernel i arg1 harg1 arg2 harg2 arg3 harg3 arg4 harg4 arg5 harg5) K } := by
  refine ⟨?_, ?_, ?_, fun E K => ?run⟩
  case run =>
    simp only [cc6_kernel_eq_skeleton]; unfold cc6_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- Case A: the one store into output 2 covers its block. -/
theorem cover6_A_2 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond6_0 i) (hc1 : ¬cond6_1 i)
    (x0 : Vec F S2000x128 .f32) (x1 : Vec F S1x128 .f32) (y : S2000x128.Idx) :
    ∃ pc ∈ (kernelRun6_A c i arg1 harg1 arg2 harg2 arg3 harg3 arg4 harg4 arg5 harg5 hc0 hc1 x0 x1).1, y ∈ pc.1.set :=
  View.cover_of_tiledL (kernelRun6_A c i arg1 harg1 arg2 harg2 arg3 harg3 arg4 harg4 arg5 harg5 hc0 hc1 x0 x1).1 S2000x128.size (by sl_kernel_rfl) y

/-- What case A leaves in output 2's staging buffer: its pieces read back. -/
noncomputable def out6_A_2 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond6_0 i) (hc1 : ¬cond6_1 i)
    (x0 : Vec F S2000x128 .f32) (x1 : Vec F S1x128 .f32) : Vec F S2000x128 .f32 :=
  VO6_2.read (Elt F) (VO6_2.writes (Elt F) VO6_2.junk (kernelRun6_A c i arg1 harg1 arg2 harg2 arg3 harg3 arg4 harg4 arg5 harg5 hc0 hc1 x0 x1).1)

/-- What case A leaves in output 3's staging buffer — nothing is stored: an arbitrary value that nothing consults
    (at these points the window is neither written back nor read at the next point). -/
noncomputable def out6_A_3 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond6_0 i) (hc1 : ¬cond6_1 i)
    (x0 : Vec F S2000x128 .f32) (x1 : Vec F S1x128 .f32) : Vec F S1x128 .f32 :=
  VO6_3.read (Elt F) (VO6_3.writes (Elt F) VO6_3.junk (kernelRun6_A c i arg1 harg1 arg2 harg2 arg3 harg3 arg4 harg4 arg5 harg5 hc0 hc1 x0 x1).2.1)

/-- Case A: the stores into the scratch cover it. -/
theorem scover6_A_0 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond6_0 i) (hc1 : ¬cond6_1 i)
    (x0 : Vec F S2000x128 .f32) (x1 : Vec F S1x128 .f32) (y : S1x128.Idx) :
    ∃ pc ∈ (kernelRun6_A c i arg1 harg1 arg2 harg2 arg3 harg3 arg4 harg4 arg5 harg5 hc0 hc1 x0 x1).2.2.1, y ∈ pc.1.set :=
  View.cover_of_tiledL (kernelRun6_A c i arg1 harg1 arg2 harg2 arg3 harg3 arg4 harg4 arg5 harg5 hc0 hc1 x0 x1).2.2.1 S1x128.size (by sl_kernel_rfl) y

/-- What case A leaves in the scratch: its pieces read back. -/
noncomputable def sout6_A_0 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : cond6_0 i) (hc1 : ¬cond6_1 i)
    (x0 : Vec F S2000x128 .f32) (x1 : Vec F S1x128 .f32) : Vec F S1x128 .f32 :=
  VS6_0.read (Elt F) (VS6_0.writes (Elt F) VS6_0.junk (kernelRun6_A c i arg1 harg1 arg2 harg2 arg3 harg3 arg4 harg4 arg5 harg5 hc0 hc1 x0 x1).2.2.1)

/-- Case B: the one store into output 2 covers its block. -/
theorem cover6_B_2 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : ¬cond6_1 i)
    (x0 : Vec F S2000x128 .f32) (x1 : Vec F S1x128 .f32) (xs0 : Vec F S1x128 .f32) (y : S2000x128.Idx) :
    ∃ pc ∈ (kernelRun6_B c i arg1 harg1 arg2 harg2 arg3 harg3 arg4 harg4 arg5 harg5 hc0 hc1 x0 x1 xs0).1, y ∈ pc.1.set :=
  View.cover_of_tiledL (kernelRun6_B c i arg1 harg1 arg2 harg2 arg3 harg3 arg4 harg4 arg5 harg5 hc0 hc1 x0 x1 xs0).1 S2000x128.size (by sl_kernel_rfl) y

/-- What case B leaves in output 2's staging buffer: its pieces read back. -/
noncomputable def out6_B_2 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : ¬cond6_1 i)
    (x0 : Vec F S2000x128 .f32) (x1 : Vec F S1x128 .f32) (xs0 : Vec F S1x128 .f32) : Vec F S2000x128 .f32 :=
  VO6_2.read (Elt F) (VO6_2.writes (Elt F) VO6_2.junk (kernelRun6_B c i arg1 harg1 arg2 harg2 arg3 harg3 arg4 harg4 arg5 harg5 hc0 hc1 x0 x1 xs0).1)

/-- What case B leaves in output 3's staging buffer — nothing is stored: an arbitrary value that nothing consults
    (at these points the window is neither written back nor read at the next point). -/
noncomputable def out6_B_3 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : ¬cond6_1 i)
    (x0 : Vec F S2000x128 .f32) (x1 : Vec F S1x128 .f32) (xs0 : Vec F S1x128 .f32) : Vec F S1x128 .f32 :=
  VO6_3.read (Elt F) (VO6_3.writes (Elt F) VO6_3.junk (kernelRun6_B c i arg1 harg1 arg2 harg2 arg3 harg3 arg4 harg4 arg5 harg5 hc0 hc1 x0 x1 xs0).2.1)

/-- Case B: the stores into the scratch cover it. -/
theorem scover6_B_0 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : ¬cond6_1 i)
    (x0 : Vec F S2000x128 .f32) (x1 : Vec F S1x128 .f32) (xs0 : Vec F S1x128 .f32) (y : S1x128.Idx) :
    ∃ pc ∈ (kernelRun6_B c i arg1 harg1 arg2 harg2 arg3 harg3 arg4 harg4 arg5 harg5 hc0 hc1 x0 x1 xs0).2.2.1, y ∈ pc.1.set :=
  View.cover_of_tiledL (kernelRun6_B c i arg1 harg1 arg2 harg2 arg3 harg3 arg4 harg4 arg5 harg5 hc0 hc1 x0 x1 xs0).2.2.1 S1x128.size (by sl_kernel_rfl) y

/-- What case B leaves in the scratch: its pieces read back. -/
noncomputable def sout6_B_0 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : ¬cond6_1 i)
    (x0 : Vec F S2000x128 .f32) (x1 : Vec F S1x128 .f32) (xs0 : Vec F S1x128 .f32) : Vec F S1x128 .f32 :=
  VS6_0.read (Elt F) (VS6_0.writes (Elt F) VS6_0.junk (kernelRun6_B c i arg1 harg1 arg2 harg2 arg3 harg3 arg4 harg4 arg5 harg5 hc0 hc1 x0 x1 xs0).2.2.1)

/-- Case C: the one store into output 2 covers its block. -/
theorem cover6_C_2 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : cond6_1 i)
    (x0 : Vec F S2000x128 .f32) (x1 : Vec F S1x128 .f32) (xs0 : Vec F S1x128 .f32) (y : S2000x128.Idx) :
    ∃ pc ∈ (kernelRun6_C c i arg1 harg1 arg2 harg2 arg3 harg3 arg4 harg4 arg5 harg5 hc0 hc1 x0 x1 xs0).1, y ∈ pc.1.set :=
  View.cover_of_tiledL (kernelRun6_C c i arg1 harg1 arg2 harg2 arg3 harg3 arg4 harg4 arg5 harg5 hc0 hc1 x0 x1 xs0).1 S2000x128.size (by sl_kernel_rfl) y

/-- What case C leaves in output 2's staging buffer: its pieces read back. -/
noncomputable def out6_C_2 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : cond6_1 i)
    (x0 : Vec F S2000x128 .f32) (x1 : Vec F S1x128 .f32) (xs0 : Vec F S1x128 .f32) : Vec F S2000x128 .f32 :=
  VO6_2.read (Elt F) (VO6_2.writes (Elt F) VO6_2.junk (kernelRun6_C c i arg1 harg1 arg2 harg2 arg3 harg3 arg4 harg4 arg5 harg5 hc0 hc1 x0 x1 xs0).1)

/-- Case C: the one store into output 3 covers its block. -/
theorem cover6_C_3 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : cond6_1 i)
    (x0 : Vec F S2000x128 .f32) (x1 : Vec F S1x128 .f32) (xs0 : Vec F S1x128 .f32) (y : S1x128.Idx) :
    ∃ pc ∈ (kernelRun6_C c i arg1 harg1 arg2 harg2 arg3 harg3 arg4 harg4 arg5 harg5 hc0 hc1 x0 x1 xs0).2.1, y ∈ pc.1.set :=
  View.cover_of_tiledL (kernelRun6_C c i arg1 harg1 arg2 harg2 arg3 harg3 arg4 harg4 arg5 harg5 hc0 hc1 x0 x1 xs0).2.1 S1x128.size (by sl_kernel_rfl) y

/-- What case C leaves in output 3's staging buffer: its pieces read back. -/
noncomputable def out6_C_3 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : cond6_1 i)
    (x0 : Vec F S2000x128 .f32) (x1 : Vec F S1x128 .f32) (xs0 : Vec F S1x128 .f32) : Vec F S1x128 .f32 :=
  VO6_3.read (Elt F) (VO6_3.writes (Elt F) VO6_3.junk (kernelRun6_C c i arg1 harg1 arg2 harg2 arg3 harg3 arg4 harg4 arg5 harg5 hc0 hc1 x0 x1 xs0).2.1)

/-- Case C: the stores into the scratch cover it. -/
theorem scover6_C_0 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : cond6_1 i)
    (x0 : Vec F S2000x128 .f32) (x1 : Vec F S1x128 .f32) (xs0 : Vec F S1x128 .f32) (y : S1x128.Idx) :
    ∃ pc ∈ (kernelRun6_C c i arg1 harg1 arg2 harg2 arg3 harg3 arg4 harg4 arg5 harg5 hc0 hc1 x0 x1 xs0).2.2.1, y ∈ pc.1.set :=
  View.cover_of_tiledL (kernelRun6_C c i arg1 harg1 arg2 harg2 arg3 harg3 arg4 harg4 arg5 harg5 hc0 hc1 x0 x1 xs0).2.2.1 S1x128.size (by sl_kernel_rfl) y

/-- What case C leaves in the scratch: its pieces read back. -/
noncomputable def sout6_C_0 (c : Dev nD) (i : grid6.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (hc1 : cond6_1 i)
    (x0 : Vec F S2000x128 .f32) (x1 : Vec F S1x128 .f32) (xs0 : Vec F S1x128 .f32) : Vec F S1x128 .f32 :=
  VS6_0.read (Elt F) (VS6_0.writes (Elt F) VS6_0.junk (kernelRun6_C c i arg1 harg1 arg2 harg2 arg3 harg3 arg4 harg4 arg5 harg5 hc0 hc1 x0 x1 xs0).2.2.1)

/-! ## What the outputs and the scratch hold after each point -/

/-- THE ACCUMULATION. What the two outputs' staging buffers and the scratch hold after the body at position `n`
    (output 2, output 3, the scratch): the case the closed forms select at `n`, run at the point's memrefs and input
    blocks, the scratch before it at what this leaves at `n - 1`. No point meets both conditions. -/
noncomputable def outsAt6 (c : Dev nD) : (n : ℕ) → n < cfg6.N → Vec F S2000x128 .f32 × Vec F S1x128 .f32 × Vec F S1x128 .f32
  | 0, hn => (out6_A_2 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩), out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩))
  | n + 1, hn =>
    if h0 : (n + 1) % 25 = 0 then
      if h1 : (n + 1) % 25 = 24 then
        False.elim (by omega)
      else
        (out6_A_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩), out6_A_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩))
    else
      if h1 : (n + 1) % 25 = 24 then
        (out6_C_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2.2, out6_C_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2.2)
      else
        (out6_B_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2.2, out6_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2.2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2.2)

/-- `outsAt6` at the first point: case A's contents. -/
theorem outsAt6_A (c : Dev nD) (t : Fin cfg6.N) (h0 : t.val % 25 = 0) (h1 : ¬t.val % 25 = 24) :
    outsAt6 V c t.val t.isLt = (out6_A_2 c (grid6.coords t) (ms6_0 t) (hs6_0 t) (ms6_1 t) (hs6_1 t) (ms6_2 t) (hs6_2 t) (ms6_3 t) (hs6_3 t) scM6_0 (Memref.isWhole_whole _) ((hcond6_0 t).mpr h0) (fun h => h1 ((hcond6_1 t).mp h)) (iblk6 V c 0 t) (iblk6 V c 1 t), out6_A_3 c (grid6.coords t) (ms6_0 t) (hs6_0 t) (ms6_1 t) (hs6_1 t) (ms6_2 t) (hs6_2 t) (ms6_3 t) (hs6_3 t) scM6_0 (Memref.isWhole_whole _) ((hcond6_0 t).mpr h0) (fun h => h1 ((hcond6_1 t).mp h)) (iblk6 V c 0 t) (iblk6 V c 1 t), sout6_A_0 c (grid6.coords t) (ms6_0 t) (hs6_0 t) (ms6_1 t) (hs6_1 t) (ms6_2 t) (hs6_2 t) (ms6_3 t) (hs6_3 t) scM6_0 (Memref.isWhole_whole _) ((hcond6_0 t).mpr h0) (fun h => h1 ((hcond6_1 t).mp h)) (iblk6 V c 0 t) (iblk6 V c 1 t)) := by
  obtain ⟨n, hn⟩ := t
  cases n with
  | zero => exact rfl
  | succ n => exact (dif_pos h0).trans ((dif_neg h1).trans rfl)

/-- `outsAt6` at a middle point: case B's contents, over what the point before left in the scratch. -/
theorem outsAt6_B (c : Dev nD) (t : Fin cfg6.N) (h0 : ¬t.val % 25 = 0) (h1 : ¬t.val % 25 = 24) :
    outsAt6 V c t.val t.isLt = (out6_B_2 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2.2, out6_B_3 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2.2, sout6_B_0 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt6` at the last point: case C's contents, over what the point before left in the scratch. -/
theorem outsAt6_C (c : Dev nD) (t : Fin cfg6.N) (h0 : ¬t.val % 25 = 0) (h1 : t.val % 25 = 24) :
    outsAt6 V c t.val t.isLt = (out6_C_2 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2.2, out6_C_3 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2.2, sout6_C_0 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt6`'s last component), the other
    scoped buffers unopened and the generator register at some state. -/
noncomputable def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2)) ∗ restBut6 (F := F) c) ∗ (∃ r, prngReg c r))

theorem PhiS6_zero (c : Dev nD) (n : ℕ) (h : n ≤ cfg6.N) (hz : n = 0) : PhiS6 V c n h = Pipeline.ΦA spec6 c := by
  subst hz; rfl

/-- After point `n` (before point `n + 1`): the scratch at that point's contents. -/
theorem PhiS6_succ (c : Dev nD) (n : ℕ) (hn : n < cfg6.N) :
    PhiS6 V c (n + 1) hn = iprop(iprop(iprop(owns (c : Thread nD τ) scM6_0 fullShare ((outsAt6 V c n hn).2.2)) ∗ restBut6 (F := F) c) ∗ (∃ r, prngReg c r)) := rfl

/-- Before a point that is not the first: the scratch at what the point before left. -/
theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2)) ∗ restBut6 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt6`; the invariant `PhiS6`; nothing owed;
    full shares. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
    | ⟨3, _⟩ => (outsAt6 V c t.val t.isLt).2.1
  Φ t := PhiS6 V c t.val (Nat.le_of_lt_succ t.isLt)
  q _ := fullShare
  owed _ := 0

/-- The proof data's arrays are the region-entry contents. -/
theorem A_eq6 (c : Dev nD) (w : Fin cfg6.W) : (dat6 V c).A w = V c (Pipeline.arrRef spec6 w) := by
  dsimp only [dat6]

/-- The invariant at a point's start, restated at `t.val`. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]
theorem after6_3 (c : Dev nD) (t : Fin cfg6.N) : (dat6 V c).after 3 t = (outsAt6 V c t.val t.isLt).2.1 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t` (the windows one by one), -/
noncomputable def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

/-- and what it returns. -/
noncomputable def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 25 := lt_of_lt_of_eq t.isLt (show cfg6.N = 25 from N_6)
  by_cases h0 : t.val % 25 = 0
  · by_cases h1 : t.val % 25 = 24
    · exfalso; omega
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [Dat.leavesExact_idle (dat6 V c) 3 t (idleAt6_3_A t ((hcond6_0 t).mpr h0) (fun h => h1 ((hcond6_1 t).mp h))) (noFlush6_3_A t ((hcond6_0 t).mpr h0) (fun h => h1 ((hcond6_1 t).mp h)))]
      rw [outsAt6_A V c t h0 h1]
      unfold out6_A_2 sout6_A_0; (try dsimp only)
      by_cases hz : t.val = 0
      · rw [PhiS6_castSucc V c t, PhiS6_zero V c _ _ hz, PhiA6_eq]
        iintro ⟨⟨⟨HS0, HR⟩, Hg⟩, Ho, ⟨%d0, H0⟩, ⟨%d1, H1⟩, ⟨%d2, H2⟩, ⟨%d3, H3⟩⟩
        iapply ((kernelRun6_A c (grid6.coords t) _ _ _ _ _ _ _ _ _ _ ((hcond6_0 t).mpr h0) (fun h => h1 ((hcond6_1 t).mp h)) (iblk6 V c 0 t) (iblk6 V c 1 t)).2.2.2 _ Set.univ _)
        isplitl [H0]; · iexact H0
        isplitl [H1]; · iexact H1
        isplitl [H2]; · iexists _; iexact H2
        isplitl [H3]; · iexact H3
        isplitl [HS0]; · iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_A_0 c _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover6_A_2 c _ _ _ _ _ _ _ _ _ _ _ _ _ _ _)
        iexists _; iexact H3
      · exfalso; omega
  · by_cases h1 : t.val % 25 = 24
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3_C t (fun h => h0 ((hcond6_0 t).mp h)) ((hcond6_1 t).mpr h1)], after6_3]
      rw [outsAt6_C V c t h0 h1]
      unfold out6_C_2 out6_C_3 sout6_C_0; (try dsimp only)
      by_cases hz : t.val = 0
      · exfalso; omega
      · rw [PhiS6_castSucc V c t, PhiS6_pos V c _ _ hz]
        iintro ⟨⟨⟨HS0, HR⟩, Hg⟩, Ho, ⟨%d0, H0⟩, ⟨%d1, H1⟩, ⟨%d2, H2⟩, ⟨%d3, H3⟩⟩
        iapply ((kernelRun6_C c (grid6.coords t) _ _ _ _ _ _ _ _ _ _ (fun h => h0 ((hcond6_0 t).mp h)) ((hcond6_1 t).mpr h1) (iblk6 V c 0 t) (iblk6 V c 1 t) _).2.2.2 Set.univ _)
        isplitl [H0]; · iexact H0
        isplitl [H1]; · iexact H1
        isplitl [H2]; · iexists _; iexact H2
        isplitl [H3]; · iexists _; iexact H3
        isplitl [HS0]; · iexact HS0
        iintro ⟨H0, H1, ⟨%e2, H2⟩, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_C_0 c _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover6_C_2 c _ _ _ _ _ _ _ _ _ _ _ _ _ _ _ _)
        unfold owns; iexists _; isplitr
        swap; · iexact H3
        ipureintro; exact View.read_writes_of_cover _ _ _ _ _ (cover6_C_3 c _ _ _ _ _ _ _ _ _ _ _ _ _ _ _ _)
    · rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [Dat.leavesExact_idle (dat6 V c) 3 t (idleAt6_3_B t (fun h => h0 ((hcond6_0 t).mp h)) (fun h => h1 ((hcond6_1 t).mp h))) (noFlush6_3_B t (fun h => h0 ((hcond6_0 t).mp h)) (fun h => h1 ((hcond6_1 t).mp h)))]
      rw [outsAt6_B V c t h0 h1]
      unfold out6_B_2 sout6_B_0; (try dsimp only)
      by_cases hz : t.val = 0
      · exfalso; omega
      · rw [PhiS6_castSucc V c t, PhiS6_pos V c _ _ hz]
        iintro ⟨⟨⟨HS0, HR⟩, Hg⟩, Ho, ⟨%d0, H0⟩, ⟨%d1, H1⟩, ⟨%d2, H2⟩, ⟨%d3, H3⟩⟩
        iapply ((kernelRun6_B c (grid6.coords t) _ _ _ _ _ _ _ _ _ _ (fun h => h0 ((hcond6_0 t).mp h)) (fun h => h1 ((hcond6_1 t).mp h)) (iblk6 V c 0 t) (iblk6 V c 1 t) _).2.2.2 _ Set.univ _)
        isplitl [H0]; · iexact H0
        isplitl [H1]; · iexact H1
        isplitl [H2]; · iexists _; iexact H2
        isplitl [H3]; · iexact H3
        isplitl [HS0]; · iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_B_0 c _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover6_B_2 c _ _ _ _ _ _ _ _ _ _ _ _ _ _ _ _)
        iexists _; iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives it back: the scratch's named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg

/-- The same after the last point. -/
theorem hout6 (c : Dev nD) : (dat6 V c).Φ (Fin.last cfg6.N) ⊢ Pipeline.ΦA spec6 c :=
  Phi_out6 V c _ (by rw [Fin.val_last]; have : cfg6.N = 25 := N_6; omega)

end Cert.KernelIdeal.Hand

end
-- ==== Proof.KI.R7.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 7: the second pass of the column variance. Over the 25 row tiles of 2000 rows the body adds, column by
column, the tile's sum of squared deviations (x − mean)² into a one-row accumulator that it zeroes at the first tile and
copies to the one-row result at the last. Here: the windows' blocks, the two branch conditions over the grid, the body's
triple in each of the three control cases (first tile, a middle tile, last tile), what each case leaves in the accumulator
and in the result's buffer, those contents point by point along the grid, the proof data over them and the body
obligation; the invariant carries the accumulator at the contents the point before left. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The row-tile window (window 0, fetched at every point) holds its block when the body runs, for any proof data
    whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The mean window (window 1, one constant block fetched at the first point only) holds that block at every point:
    where it is not fetched its block index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The two branch conditions, over the grid -/

/-- The condition of the first conditional (the accumulator's reset): the grid coordinate is 0. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val = 0 :=
  (by decide +kernel : ∀ t : Fin grid7.N, cond7_0 (grid7.coords t) ↔ t.val = 0)

/-- The condition of the second conditional (the accumulator stored to the output): the grid coordinate is 24. -/
abbrev cond7_1 (i : grid7.Coords) : Prop := k7_cond2 i = 1#1
/-- It holds at the last point only. -/
theorem hcond7_1 : ∀ t : Fin cfg7.N, cond7_1 (grid7.coords t) ↔ t.val = 24 :=
  (by decide +kernel : ∀ t : Fin grid7.N, cond7_1 (grid7.coords t) ↔ t.val = 24)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
/-- Away from the last point the body stores nothing into the output window: it is idle there, -/
theorem idleAt7_2 : ∀ t : Fin cfg7.N, ¬cond7_1 (grid7.coords t) → cfg7.idle 2 (grid7.coords t) = true := by decide +kernel
/-- and its block is not written back there. -/
theorem noFlush7_2 : ∀ t : Fin cfg7.N, ¬cond7_1 (grid7.coords t) → (cfg7.win 2).flush t = false := by decide +kernel
/-- At the last point the output window is live. -/
theorem liveAt7_2 : ∀ t : Fin cfg7.N, cond7_1 (grid7.coords t) → cfg7.idle 2 (grid7.coords t) = false := by decide +kernel

/-! ## The memrefs the body is called with -/

/-- The output window's one staging buffer as a view: what the body leaves in it is stated through it. -/
noncomputable abbrev VO7_2 : View sig .tc .vmem S1x128 .f32 := (Memref.whole cc7_stg2_0 : Memref sig .tc .vmem S1x128 .f32).view
/-- Each window's current staging memref at point `t`, and its wholeness. -/
noncomputable abbrev ms7_0 (t : Fin cfg7.N) : Memref sig .tc .vmem S2000x128 .f32 := win7_0.stage (cfg7.slots t 0)
abbrev hs7_0 (t : Fin cfg7.N) : (ms7_0 t).IsWhole := hstage7_0 ((cfg7.slots t 0).cast nbuf7_0)
noncomputable abbrev ms7_1 (t : Fin cfg7.N) : Memref sig .tc .vmem S1x128 .f32 := win7_1.stage (cfg7.slots t 1)
abbrev hs7_1 (t : Fin cfg7.N) : (ms7_1 t).IsWhole := hstage7_1 ((cfg7.slots t 1).cast nbuf7_1)
noncomputable abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
/-- The accumulator: the kernel's own scratch buffer, whole, passed beside the windows, -/
noncomputable abbrev scM7_0 : Memref sig .tc .vmem S1x128 .f32 := Memref.whole cc7_scratch0
/-- and as a view. -/
noncomputable abbrev VS7_0 : View sig .tc .vmem S1x128 .f32 := scM7_0.view

/-- The region-entry invariant with the accumulator split out of the scoped rest, as a memref owned at some contents. -/
theorem PhiA7_eq (c : Dev nD) :
    (Pipeline.ΦA spec7 c : sProp 𝕄)
      = iprop(iprop(iprop(∃ d, owns (c : Thread nD τ) scM7_0 fullShare d)
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

/-! ## The body, once per control case -/

set_option maxHeartbeats 1000000 in
/-- CASE A (the first point: the reset taken, the final store not). On whole memrefs — the two inputs at contents
    `x0`, `x1`, the output's buffer at `xi2` handed back untouched, the accumulator at anything — the body runs to the
    continuation holding the inputs as they were and the accumulator with the pieces `LS0` written (the zero fill, then
    the first tile's column sums added to what is read back): the pieces are found by running the body. -/
noncomputable def kernelRun7_A (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond7_0 i) (hc1 : ¬cond7_1 i)
    (x0 : Vec F S2000x128 .f32) (x1 : Vec F S1x128 .f32) :
    { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc7__var_kernel i arg1 harg1 arg2 harg2 arg3 harg3 arg4 harg4) K } := by
  refine ⟨?_, fun xi2 E K => ?run⟩
  case run =>
    simp only [cc7__var_kernel_eq_skeleton]; unfold cc7__var_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE B (a middle point: neither conditional taken). The accumulator comes in at the contents `xs0` the point before
    left and goes out with one piece written: the tile's column sums added to `xs0`. -/
noncomputable def kernelRun7_B (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : ¬cond7_1 i)
    (x0 : Vec F S2000x128 .f32) (x1 : Vec F S1x128 .f32) (xs0 : Vec F S1x128 .f32) :
    { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc7__var_kernel i arg1 harg1 arg2 harg2 arg3 harg3 arg4 harg4) K } := by
  refine ⟨?_, fun xi2 E K => ?run⟩
  case run =>
    simp only [cc7__var_kernel_eq_skeleton]; unfold cc7__var_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE C (the last point: the reset not taken, the final store taken). As case B, and the output's buffer, at anything
    before, goes out with the pieces `L2` written: the accumulator read back after its update. -/
noncomputable def kernelRun7_C (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : cond7_1 i)
    (x0 : Vec F S2000x128 .f32) (x1 : Vec F S1x128 .f32) (xs0 : Vec F S1x128 .f32) :
    Σ' (L2 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc7__var_kernel i arg1 harg1 arg2 harg2 arg3 harg3 arg4 harg4) K } := by
  refine ⟨?_, ?_, fun E K => ?run⟩
  case run =>
    simp only [cc7__var_kernel_eq_skeleton]; unfold cc7__var_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves in the accumulator and in the output's buffer -/

/-- At the points where the output window is idle its `after` is never consulted (the window is neither written back
    there nor read at the next point): an arbitrary value. -/
noncomputable def idle7_2 : Vec F S1x128 .f32 := VO7_2.read (Elt F) VO7_2.junk

/-- Case A's pieces cover the accumulator (each is the whole row). -/
theorem scover7_A_0 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond7_0 i) (hc1 : ¬cond7_1 i)
    (x0 : Vec F S2000x128 .f32) (x1 : Vec F S1x128 .f32) (y : S1x128.Idx) :
    ∃ pc ∈ (kernelRun7_A c i arg1 harg1 arg2 harg2 arg3 harg3 arg4 harg4 hc0 hc1 x0 x1).1, y ∈ pc.1.set :=
  View.cover_of_tiledL (kernelRun7_A c i arg1 harg1 arg2 harg2 arg3 harg3 arg4 harg4 hc0 hc1 x0 x1).1 S1x128.size (by sl_kernel_rfl) y

/-- What case A leaves in the accumulator: its pieces read back. -/
noncomputable def sout7_A_0 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : cond7_0 i) (hc1 : ¬cond7_1 i)
    (x0 : Vec F S2000x128 .f32) (x1 : Vec F S1x128 .f32) : Vec F S1x128 .f32 :=
  VS7_0.read (Elt F) (VS7_0.writes (Elt F) VS7_0.junk (kernelRun7_A c i arg1 harg1 arg2 harg2 arg3 harg3 arg4 harg4 hc0 hc1 x0 x1).1)

/-- Case B's one piece covers the accumulator. -/
theorem scover7_B_0 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : ¬cond7_1 i)
    (x0 : Vec F S2000x128 .f32) (x1 : Vec F S1x128 .f32) (xs0 : Vec F S1x128 .f32) (y : S1x128.Idx) :
    ∃ pc ∈ (kernelRun7_B c i arg1 harg1 arg2 harg2 arg3 harg3 arg4 harg4 hc0 hc1 x0 x1 xs0).1, y ∈ pc.1.set :=
  View.cover_of_tiledL (kernelRun7_B c i arg1 harg1 arg2 harg2 arg3 harg3 arg4 harg4 hc0 hc1 x0 x1 xs0).1 S1x128.size (by sl_kernel_rfl) y

/-- What case B leaves in the accumulator. -/
noncomputable def sout7_B_0 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : ¬cond7_1 i)
    (x0 : Vec F S2000x128 .f32) (x1 : Vec F S1x128 .f32) (xs0 : Vec F S1x128 .f32) : Vec F S1x128 .f32 :=
  VS7_0.read (Elt F) (VS7_0.writes (Elt F) VS7_0.junk (kernelRun7_B c i arg1 harg1 arg2 harg2 arg3 harg3 arg4 harg4 hc0 hc1 x0 x1 xs0).1)

/-- Case C's one store covers the output's buffer. -/
theorem cover7_C_2 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : cond7_1 i)
    (x0 : Vec F S2000x128 .f32) (x1 : Vec F S1x128 .f32) (xs0 : Vec F S1x128 .f32) (y : S1x128.Idx) :
    ∃ pc ∈ (kernelRun7_C c i arg1 harg1 arg2 harg2 arg3 harg3 arg4 harg4 hc0 hc1 x0 x1 xs0).1, y ∈ pc.1.set :=
  View.cover_of_tiledL (kernelRun7_C c i arg1 harg1 arg2 harg2 arg3 harg3 arg4 harg4 hc0 hc1 x0 x1 xs0).1 S1x128.size (by sl_kernel_rfl) y

/-- What case C leaves in the output's buffer. -/
noncomputable def out7_C_2 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : cond7_1 i)
    (x0 : Vec F S2000x128 .f32) (x1 : Vec F S1x128 .f32) (xs0 : Vec F S1x128 .f32) : Vec F S1x128 .f32 :=
  VO7_2.read (Elt F) (VO7_2.writes (Elt F) VO7_2.junk (kernelRun7_C c i arg1 harg1 arg2 harg2 arg3 harg3 arg4 harg4 hc0 hc1 x0 x1 xs0).1)

/-- Case C's one piece covers the accumulator. -/
theorem scover7_C_0 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : cond7_1 i)
    (x0 : Vec F S2000x128 .f32) (x1 : Vec F S1x128 .f32) (xs0 : Vec F S1x128 .f32) (y : S1x128.Idx) :
    ∃ pc ∈ (kernelRun7_C c i arg1 harg1 arg2 harg2 arg3 harg3 arg4 harg4 hc0 hc1 x0 x1 xs0).2.1, y ∈ pc.1.set :=
  View.cover_of_tiledL (kernelRun7_C c i arg1 harg1 arg2 harg2 arg3 harg3 arg4 harg4 hc0 hc1 x0 x1 xs0).2.1 S1x128.size (by sl_kernel_rfl) y

/-- What case C leaves in the accumulator. -/
noncomputable def sout7_C_0 (c : Dev nD) (i : grid7.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (hc0 : ¬cond7_0 i) (hc1 : cond7_1 i)
    (x0 : Vec F S2000x128 .f32) (x1 : Vec F S1x128 .f32) (xs0 : Vec F S1x128 .f32) : Vec F S1x128 .f32 :=
  VS7_0.read (Elt F) (VS7_0.writes (Elt F) VS7_0.junk (kernelRun7_C c i arg1 harg1 arg2 harg2 arg3 harg3 arg4 harg4 hc0 hc1 x0 x1 xs0).2.1)

/-! ## Point by point -/

/-- What the output's buffer and the accumulator hold after the body at point `n` (a pair: output, accumulator): case A
    at the first point; afterwards case C at point 24 and case B elsewhere, each over what the point before left in the
    accumulator. -/
noncomputable def outsAt7 (c : Dev nD) : (n : ℕ) → n < cfg7.N → Vec F S1x128 .f32 × Vec F S1x128 .f32
  | 0, hn => (idle7_2,
      sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) scM7_0 (Memref.isWhole_whole _) ((hcond7_0 ⟨0, hn⟩).mpr rfl)
        (fun h => (fun h' : (0 : ℕ) = 24 => by omega) ((hcond7_1 ⟨0, hn⟩).mp h)) (iblk7 V c 0 ⟨0, hn⟩) (iblk7 V c 1 ⟨0, hn⟩))
  | n + 1, hn =>
    if h1 : n + 1 = 24 then
      (out7_C_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => (fun h' : n + 1 = 0 => by omega) ((hcond7_0 ⟨n + 1, hn⟩).mp h))
          ((hcond7_1 ⟨n + 1, hn⟩).mpr h1) (iblk7 V c 0 ⟨n + 1, hn⟩) (iblk7 V c 1 ⟨n + 1, hn⟩) (outsAt7 c n (Nat.lt_of_succ_lt hn)).2,
       sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => (fun h' : n + 1 = 0 => by omega) ((hcond7_0 ⟨n + 1, hn⟩).mp h))
          ((hcond7_1 ⟨n + 1, hn⟩).mpr h1) (iblk7 V c 0 ⟨n + 1, hn⟩) (iblk7 V c 1 ⟨n + 1, hn⟩) (outsAt7 c n (Nat.lt_of_succ_lt hn)).2)
    else
      (idle7_2,
       sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) scM7_0 (Memref.isWhole_whole _) (fun h => (fun h' : n + 1 = 0 => by omega) ((hcond7_0 ⟨n + 1, hn⟩).mp h))
          (fun h => h1 ((hcond7_1 ⟨n + 1, hn⟩).mp h)) (iblk7 V c 0 ⟨n + 1, hn⟩) (iblk7 V c 1 ⟨n + 1, hn⟩) (outsAt7 c n (Nat.lt_of_succ_lt hn)).2)

/-- `outsAt7` at the first point. -/
theorem outsAt7_A (c : Dev nD) (t : Fin cfg7.N) (h0 : t.val = 0) (h1 : ¬t.val = 24) :
    outsAt7 V c t.val t.isLt = (idle7_2,
      sout7_A_0 c (grid7.coords t) (ms7_0 t) (hs7_0 t) (ms7_1 t) (hs7_1 t) (ms7_2 t) (hs7_2 t) scM7_0 (Memref.isWhole_whole _) ((hcond7_0 t).mpr h0) (fun h => h1 ((hcond7_1 t).mp h)) (iblk7 V c 0 t) (iblk7 V c 1 t)) := by
  obtain ⟨n, hn⟩ := t
  cases n with
  | zero => exact rfl
  | succ n => exact absurd h0 (Nat.succ_ne_zero n)

/-- `outsAt7` at a middle point: case B over what the point before left. -/
theorem outsAt7_B (c : Dev nD) (t : Fin cfg7.N) (h0 : ¬t.val = 0) (h1 : ¬t.val = 24) :
    outsAt7 V c t.val t.isLt = (idle7_2,
      sout7_B_0 c (grid7.coords t) (ms7_0 t) (hs7_0 t) (ms7_1 t) (hs7_1 t) (ms7_2 t) (hs7_2 t) scM7_0 (Memref.isWhole_whole _) (fun h => h0 ((hcond7_0 t).mp h)) (fun h => h1 ((hcond7_1 t).mp h)) (iblk7 V c 0 t) (iblk7 V c 1 t)
        (outsAt7 V c (t.val - 1) (Nat.lt_of_le_of_lt (Nat.sub_le _ _) t.isLt)).2) := by
  obtain ⟨n, hn⟩ := t
  cases n with
  | zero => exact absurd rfl h0
  | succ n => exact (dif_neg h1).trans rfl

/-- `outsAt7` at the last point: case C over what the point before left. -/
theorem outsAt7_C (c : Dev nD) (t : Fin cfg7.N) (h0 : ¬t.val = 0) (h1 : t.val = 24) :
    outsAt7 V c t.val t.isLt =
      (out7_C_2 c (grid7.coords t) (ms7_0 t) (hs7_0 t) (ms7_1 t) (hs7_1 t) (ms7_2 t) (hs7_2 t) scM7_0 (Memref.isWhole_whole _) (fun h => h0 ((hcond7_0 t).mp h)) ((hcond7_1 t).mpr h1) (iblk7 V c 0 t) (iblk7 V c 1 t)
        (outsAt7 V c (t.val - 1) (Nat.lt_of_le_of_lt (Nat.sub_le _ _) t.isLt)).2,
       sout7_C_0 c (grid7.coords t) (ms7_0 t) (hs7_0 t) (ms7_1 t) (hs7_1 t) (ms7_2 t) (hs7_2 t) scM7_0 (Memref.isWhole_whole _) (fun h => h0 ((hcond7_0 t).mp h)) ((hcond7_1 t).mpr h1) (iblk7 V c 0 t) (iblk7 V c 1 t)
        (outsAt7 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over (every scoped buffer
    at anything); afterwards the accumulator at what the point before left in it, the other scoped buffers at anything,
    the generator register at some state. -/
noncomputable def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2)
      ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7_0 fullShare ((outsAt7 V c n hn).2)
      ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7_0 fullShare ((outsAt7 V c (n - 1) (by omega)).2)
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The proof data -/

/-- The proof data of this region on core `c`: the arrays as the region finds them (`V`); after the body each input's
    buffer at its block and the output's at `outsAt7`'s first component; the invariant `PhiS7`; nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation -/

/-- What the body is called with at point `t`, the windows one by one, -/
noncomputable def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
noncomputable def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point. The inputs' memrefs hold their blocks; the point's position says which case it is in; the
    invariant hands the body the accumulator (at anything at the first point, else at what the point before left) and
    takes it back at this point's contents; away from the last point the output's buffer goes back as it came. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  have hN : t.val < 25 := lt_of_lt_of_eq t.isLt (show cfg7.N = 25 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  by_cases h0 : t.val = 0
  · have h1 : ¬t.val = 24 := by omega
    rw [Dat.leavesExact_idle (dat7 V c) 2 t (idleAt7_2 t (fun h => h1 ((hcond7_1 t).mp h))) (noFlush7_2 t (fun h => h1 ((hcond7_1 t).mp h)))]
    rw [outsAt7_A V c t h0 h1]
    unfold sout7_A_0; (try dsimp only)
    rw [PhiS7_castSucc V c t, PhiS7_zero V c _ _ h0, PhiA7_eq]
    iintro ⟨⟨⟨HS0, Hr⟩, Hg⟩, Ho, ⟨%d0, H0⟩, ⟨%d1, H1⟩, ⟨%d2, H2⟩⟩
    iapply ((kernelRun7_A c (grid7.coords t) _ _ _ _ _ _ _ _ ((hcond7_0 t).mpr h0) (fun h => h1 ((hcond7_1 t).mp h)) (iblk7 V c 0 t) (iblk7 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover7_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat7 V c).leavesExact 2 t = owns (c : Thread nD τ) (ms7_2 t) fullShare ((dat7 V c).after 2 t) from by
        unfold Dat.leavesExact; rw [liveAt7_2 t ((hcond7_1 t).mpr h1)], after7_2]
      rw [outsAt7_C V c t h0 h1]
      unfold out7_C_2 sout7_C_0; (try dsimp only)
      rw [PhiS7_castSucc V c t, PhiS7_pos V c _ _ h0]
      iintro ⟨⟨⟨HS0, Hr⟩, Hg⟩, Ho, ⟨%d0, H0⟩, ⟨%d1, H1⟩, ⟨%d2, H2⟩⟩
      iapply ((kernelRun7_C c (grid7.coords t) _ _ _ _ _ _ _ _ (fun h => h0 ((hcond7_0 t).mp h)) ((hcond7_1 t).mpr h1) (iblk7 V c 0 t) (iblk7 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover7_C_2 c _ _ _ _ _ _ _ _ _ _ _ _ _ _)
    · rw [Dat.leavesExact_idle (dat7 V c) 2 t (idleAt7_2 t (fun h => h1 ((hcond7_1 t).mp h))) (noFlush7_2 t (fun h => h1 ((hcond7_1 t).mp h)))]
      rw [outsAt7_B V c t h0 h1]
      unfold sout7_B_0; (try dsimp only)
      rw [PhiS7_castSucc V c t, PhiS7_pos V c _ _ h0]
      iintro ⟨⟨⟨HS0, Hr⟩, Hg⟩, Ho, ⟨%d0, H0⟩, ⟨%d1, H1⟩, ⟨%d2, H2⟩⟩
      iapply ((kernelRun7_B c (grid7.coords t) _ _ _ _ _ _ _ _ (fun h => h0 ((hcond7_0 t).mp h)) (fun h => h1 ((hcond7_1 t).mp h)) (iblk7 V c 0 t) (iblk7 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover7_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the launch's back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 25 := N_7; omega)

end Cert.KernelIdeal.Hand

end
-- ==== Proof.KI.R8.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Ring
import Idealize.ShloMosaic.Lib.Tactic

/-!
# Region 8: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The activations' staging buffer holds the block of the current point at every point: the window is fetched at
    every point, is never cut and never idle, and the body leaves the block where it found it. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The mean row's staging buffer holds its (one) block at every point: it is fetched at the first point only, its
    block index never moves afterwards, and the body leaves it in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The same of the variance row. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The same of the scale row. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- The same of the shift row. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer is read, and the output written, whole -/

/-- The whole of a block of 2000 rows. -/
noncomputable abbrev r8_0 : Rect S2000x128 := Rect.unit (s := S2000x128) ![0, 0] S2000x128.size inb_S2000x128_S2000x128_0_0
/-- The whole of a single row. -/
noncomputable abbrev r8_1 : Rect S1x128 := Rect.unit (s := S1x128) ![0, 0] S1x128.size inb_S1x128_S1x128_0_0

/-! ## What the body leaves in the output buffer -/

/-- The output buffer after the body, from the five input blocks: its one store, whose payload is the skeleton's. -/
noncomputable def out8_5 (x0 : Vec F S2000x128 .f32) (x1 : Vec F S1x128 .f32) (x2 : Vec F S1x128 .f32) (x3 : Vec F S1x128 .f32) (x4 : Vec F S1x128 .f32) :
    Vec F S2000x128 .f32 :=
  View.canon [⟨r8_0, k8_pay1 (View.ld x0 r8_0) (View.ld x1 r8_1) (View.ld x2 r8_1) (View.ld x3 r8_1) (View.ld x4 r8_1)⟩]

/-- The one store covers the buffer. -/
theorem cover8_5 (p0 : Vec F S2000x128 .f32) (y : S2000x128.Idx) :
    ∃ pc ∈ ([⟨r8_0, p0⟩] : List (View.Piece (Elt F) S2000x128 .f32)), y ∈ pc.1.set :=
  View.cover_of_tiled [⟨r8_0, p0⟩] S2000x128.size (by rfl) y

/-! ## The body's triple -/

set_option maxHeartbeats 1000000 in
/-- The body on whole staging buffers, the five inputs' at read contents x0 … x4 and the output's at anything, runs
    to a state in which the inputs' are as they were and the output's holds out8_5 of them. (The body also loads the
    output buffer before it stores to it; the loaded value is not used.) -/
theorem sound_kernel8 (c : Dev nD) (E : Set ℕ) (i : grid8.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8__bn_softmax_kernel i arg1 harg1 arg2 harg2 arg3 harg3 arg4 harg4 arg5 harg5 arg6 harg6) K := by
  simp only [cc8__bn_softmax_kernel_eq_skeleton]; unfold cc8__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of the region's pipeline on core c: the arrays as the region finds them; after the body at point t
    each input's buffer at its block and the output's at out8_5 of the input blocks; the invariant that of a body which
    touches nothing but its windows; nothing owed; full shares. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point t, the windows one by one, -/
noncomputable def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
noncomputable def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so the body's triple applies; the invariant and
    what the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Region8

end Cert.KernelIdeal.Hand

end
-- ==== Proof.KI.R9.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.Regions
import Idealize.ShloMosaic.Lib.Tactic

/-! # Region 9: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The rows of X: the staging buffer the body is handed holds the block of the point, whether the
    point fetched it or not (an unfetched input has not moved its block index). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The matrix W: fetched at the first point only, and found in place at every later one. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

noncomputable abbrev r9_0 : Rect S2000x128 := Rect.unit (s := S2000x128) ![0, 0] S2000x128.size inb_S2000x128_S2000x128_0_0
noncomputable abbrev r9_1 : Rect S128x64 := Rect.unit (s := S128x64) ![0, 0] S128x64.size inb_S128x64_S128x64_0_0
noncomputable abbrev r9_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out9_2 (x0 : Vec F S2000x128 .f32) (x1 : Vec F S128x64 .f32) : Vec F S2000x64 .f32 :=
  View.canon [⟨r9_2, k9_pay1 (View.ld x0 r9_0) (View.ld x1 r9_1)⟩]

/-- The store's rectangle is the whole buffer, so it covers every index. -/
theorem cover9_2 (p0 : Vec F S2000x64 .f32) (y : S2000x64.Idx) :
    ∃ pc ∈ ([⟨r9_2, p0⟩] : List (View.Piece (Elt F) S2000x64 .f32)), y ∈ pc.1.set :=
  View.cover_of_tiled [⟨r9_2, p0⟩] S2000x64.size (by rfl) y

/-! ## The body's triple -/

set_option maxHeartbeats 1000000 in
/-- On whole staging memrefs, the inputs' holding x0 and x1 and the output's holding anything, the body
    runs to a state where the inputs' are unchanged and the output's holds out9_2 x0 x1. The body also reads
    the output buffer before storing into it; the value read is not used. -/
theorem sound_kernel9 (c : Dev nD) (E : Set ℕ) (i : grid9.Coords) (arg1 : Memref sig .tc .vmem S2000x128 .f32) (harg1 : arg1.IsWhole) (arg2 : Memref sig .tc .vmem S128x64 .f32) (harg2 : arg2.IsWhole) (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__linear_kernel i arg1 harg1 arg2 harg2 arg3 harg3) K := by
  simp only [cc9__linear_kernel_eq_skeleton]; unfold cc9__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The arrays as the region finds them; after the body at point t the inputs' buffers at their blocks
    and the output's at the product block; the invariant is the scoped rest and the generator register,
    untouched; nothing owed; full shares. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point t, window by window, -/
noncomputable def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
noncomputable def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The inputs' memrefs hold their blocks, so the body's triple applies; the invariant and what the core
    owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation9 (c : Dev nD) : BodyObligation (dat9 (F := F) V c) (defs₀ (F := F)) Variants.none () Set.univ := fun t => by
  rw [bigSep_W9, bigSep_W9]
  exact sound_body9 V c t

end Region9

end Cert.KernelIdeal.Hand

end
-- ==== Proof.KI.R10.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, for any proof data whose array is
    `V`'s and whose body leaves the block in place: the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1 likewise: fetched at the first point only, its block index never moves, so the buffer holds
    the block at every point. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's two conditions on the grid coordinate -/

/-- The first conditional's condition (the point is the grid's first), from the grid coordinate. -/
noncomputable abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val % 25 = 0 :=
  (by decide +kernel : ∀ t : Fin grid10.N, cond10_0 (grid10.coords t) ↔ t.val % 25 = 0)

/-- The second conditional's condition (the point is the grid's last). -/
noncomputable abbrev cond10_1 (i : grid10.Coords) : Prop := k10_cond2 i = 1#1
/-- It holds at the last point only. -/
theorem hcond10_1 : ∀ t : Fin cfg10.N, cond10_1 (grid10.coords t) ↔ t.val % 25 = 24 :=
  (by decide +kernel : ∀ t : Fin grid10.N, cond10_1 (grid10.coords t) ↔ t.val % 25 = 24)

/-! ## Where the windows are idle -/

theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem liveAt10_3 : ∀ t : Fin cfg10.N, cfg10.idle 3 (grid10.coords t) = false := by decide +kernel
/-- At the first point the body stores nothing into output 4: the window is idle there and not written back. -/
theorem idleAt10_4_A : ∀ t : Fin cfg10.N, cond10_0 (grid10.coords t) → ¬cond10_1 (grid10.coords t) → cfg10.idle 4 (grid10.coords t) = true := by decide +kernel
theorem noFlush10_4_A : ∀ t : Fin cfg10.N, cond10_0 (grid10.coords t) → ¬cond10_1 (grid10.coords t) → (cfg10.win 4).flush t = false := by decide +kernel
/-- Nor at the middle points. -/
theorem idleAt10_4_B : ∀ t : Fin cfg10.N, ¬cond10_0 (grid10.coords t) → ¬cond10_1 (grid10.coords t) → cfg10.idle 4 (grid10.coords t) = true := by decide +kernel
theorem noFlush10_4_B : ∀ t : Fin cfg10.N, ¬cond10_0 (grid10.coords t) → ¬cond10_1 (grid10.coords t) → (cfg10.win 4).flush t = false := by decide +kernel
/-- At the last point it stores the accumulated sums there: the window is live. -/
theorem liveAt10_4_C : ∀ t : Fin cfg10.N, ¬cond10_0 (grid10.coords t) → cond10_1 (grid10.coords t) → cfg10.idle 4 (grid10.coords t) = false := by decide +kernel

/-! ## The memrefs the body is called with -/

/-- One staging buffer of each output window, through which its contents are stated (the choice does not matter:
    a covering list of writes reads the same through any view). -/
noncomputable abbrev VO10_2 : View sig .tc .vmem S2000x64 .f32 := (Memref.whole cc10_stg2_0 : Memref sig .tc .vmem S2000x64 .f32).view
noncomputable abbrev VO10_3 : View sig .tc .vmem S2000x64 .f32 := (Memref.whole cc10_stg3_0 : Memref sig .tc .vmem S2000x64 .f32).view
noncomputable abbrev VO10_4 : View sig .tc .vmem S1x64 .f32 := (Memref.whole cc10_stg4_0 : Memref sig .tc .vmem S1x64 .f32).view
/-- Each window's current staging memref at point `t`, as the pipeline passes it, and its wholeness. -/
noncomputable abbrev ms10_0 (t : Fin cfg10.N) : Memref sig .tc .vmem S2000x64 .f32 := win10_0.stage (cfg10.slots t 0)
abbrev hs10_0 (t : Fin cfg10.N) : (ms10_0 t).IsWhole := hstage10_0 ((cfg10.slots t 0).cast nbuf10_0)
noncomputable abbrev ms10_1 (t : Fin cfg10.N) : Memref sig .tc .vmem S1x64 .f32 := win10_1.stage (cfg10.slots t 1)
abbrev hs10_1 (t : Fin cfg10.N) : (ms10_1 t).IsWhole := hstage10_1 ((cfg10.slots t 1).cast nbuf10_1)
noncomputable abbrev ms10_2 (t : Fin cfg10.N) : Memref sig .tc .vmem S2000x64 .f32 := win10_2.stage (cfg10.slots t 2)
abbrev hs10_2 (t : Fin cfg10.N) : (ms10_2 t).IsWhole := hstage10_2 ((cfg10.slots t 2).cast nbuf10_2)
noncomputable abbrev ms10_3 (t : Fin cfg10.N) : Memref sig .tc .vmem S2000x64 .f32 := win10_3.stage (cfg10.slots t 3)
abbrev hs10_3 (t : Fin cfg10.N) : (ms10_3 t).IsWhole := hstage10_3 ((cfg10.slots t 3).cast nbuf10_3)
noncomputable abbrev ms10_4 (t : Fin cfg10.N) : Memref sig .tc .vmem S1x64 .f32 := win10_4.stage (cfg10.slots t 4)
abbrev hs10_4 (t : Fin cfg10.N) : (ms10_4 t).IsWhole := hstage10_4 ((cfg10.slots t 4).cast nbuf10_4)
/-- The scratch operand: a whole scoped buffer of the kernel's own, in which the column sums accumulate. -/
noncomputable abbrev scM10_0 : Memref sig .tc .vmem S1x64 .f32 := Memref.whole cc10_scratch0
noncomputable abbrev VS10_0 : View sig .tc .vmem S1x64 .f32 := scM10_0.view

/-- The other scoped buffers (every other call's staging buffers and scratch), unopened. -/
noncomputable abbrev restBut10 (c : Dev nD) : sProp 𝕄 :=
  Pipeline.scopedRestBut (Ix := Unit) (Name := ℕ) (U := UR sig nD τ) (Lvl := ℕ) (Val := Elt F) spec10 c [cc10_scratch0]

/-- The region's invariant as the launch hands it over, with the scratch operand split out as a memref owned at
    some contents: what the body obligation hands the run and takes back. -/
theorem PhiA10_eq (c : Dev nD) :
    (Pipeline.ΦA spec10 c : sProp 𝕄)
      = iprop(iprop(iprop((∃ d, owns (c : Thread nD τ) scM10_0 fullShare d)) ∗ restBut10 (F := F) c) ∗ (∃ r, prngReg c r)) := by
  unfold Pipeline.ΦA; rw [scopedRest10_split]; simp only [scM10_0, owns_whole]; try rfl

-- (the run's proof term is large: the definition's epilogue walks it past the default budget)
set_option maxHeartbeats 1000000 in
/-- The body AT THE FIRST POINT (the first conditional taken, the second not): the scratch, at anything, is reset and then
    receives the block's column sums; outputs 2, 3 receive their blocks; output 4 is handed back untouched.
    What the stores leave in each buffer is given as pieces (last first), found by running the body: on whole
    memrefs, the inputs at their contents `x0`, `x1`, the body runs to the continuation holding the inputs as they
    were and each stored buffer with its pieces written. -/
noncomputable def kernelRun10_A (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) :
    Σ' (L2 : List (View.Piece (Elt F) S2000x64 .f32)) (L3 : List (View.Piece (Elt F) S2000x64 .f32)) (L4 : List (View.Piece (Elt F) S1x64 .f32)), { LS0 : List (View.Piece (Elt F) S1x64 .f32) //
      ∀ (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc10_kernel i arg1 harg1 arg2 harg2 arg3 harg3 arg4 harg4 arg5 harg5 arg6 harg6) K } := by
  refine ⟨?_, ?_, [], ?_, fun xi4 E K => ?run⟩
  case run =>
    simp only [cc10_kernel_eq_skeleton]; unfold cc10_kernel_skel
    unfold owns
    iintro ⟨⟨%f0, %hf0, H0⟩, ⟨%f1, %hf1, H1⟩, ⟨%d2, %f2, -, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    iexists _; iexact HS0

-- (the run's proof term is large: the definition's epilogue walks it past the default budget)
set_option maxHeartbeats 1000000 in
/-- The body AT A MIDDLE POINT (neither conditional taken): the scratch, at what the point before left (`xs0`), receives the
    block's column sums added to it; outputs 2, 3 receive their blocks; output 4 is handed back untouched.
    What the stores leave in each buffer is given as pieces (last first), found by running the body: on whole
    memrefs, the inputs at their contents `x0`, `x1`, the body runs to the continuation holding the inputs as they
    were and each stored buffer with its pieces written. -/
noncomputable def kernelRun10_B (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) :
    Σ' (L2 : List (View.Piece (Elt F) S2000x64 .f32)) (L3 : List (View.Piece (Elt F) S2000x64 .f32)) (L4 : List (View.Piece (Elt F) S1x64 .f32)), { LS0 : List (View.Piece (Elt F) S1x64 .f32) //
      ∀ (xi4 : Vec F S1x64 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ owns (c : Thread nD τ) arg6 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc10_kernel i arg1 harg1 arg2 harg2 arg3 harg3 arg4 harg4 arg5 harg5 arg6 harg6) K } := by
  refine ⟨?_, ?_, [], ?_, fun xi4 E K => ?run⟩
  case run =>
    simp only [cc10_kernel_eq_skeleton]; unfold cc10_kernel_skel
    unfold owns
    iintro ⟨⟨%f0, %hf0, H0⟩, ⟨%f1, %hf1, H1⟩, ⟨%d2, %f2, -, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    iexists _; iexact HS0

-- (the run's proof term is large: the definition's epilogue walks it past the default budget)
set_option maxHeartbeats 1000000 in
/-- The body AT THE LAST POINT (the second conditional taken, the first not): the scratch, at what the point before left
    (`xs0`), receives the block's column sums added to it and is then copied into output 4; outputs 2, 3 receive their blocks.
    What the stores leave in each buffer is given as pieces (last first), found by running the body: on whole
    memrefs, the inputs at their contents `x0`, `x1`, the body runs to the continuation holding the inputs as they
    were and each stored buffer with its pieces written. -/
noncomputable def kernelRun10_C (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) :
    Σ' (L2 : List (View.Piece (Elt F) S2000x64 .f32)) (L3 : List (View.Piece (Elt F) S2000x64 .f32)) (L4 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc10_kernel i arg1 harg1 arg2 harg2 arg3 harg3 arg4 harg4 arg5 harg5 arg6 harg6) K } := by
  refine ⟨?_, ?_, ?_, ?_, fun E K => ?run⟩
  case run =>
    simp only [cc10_kernel_eq_skeleton]; unfold cc10_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS0

/-- Case A: the one store into output 2 covers its block. -/
theorem cover10_A_2 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) (y : S2000x64.Idx) :
    ∃ pc ∈ (kernelRun10_A c i arg1 harg1 arg2 harg2 arg3 harg3 arg4 harg4 arg5 harg5 arg6 harg6 hc0 hc1 x0 x1).1, y ∈ pc.1.set :=
  View.cover_of_tiledL (kernelRun10_A c i arg1 harg1 arg2 harg2 arg3 harg3 arg4 harg4 arg5 harg5 arg6 harg6 hc0 hc1 x0 x1).1 S2000x64.size (by sl_kernel_rfl) y

/-- What case A leaves in output 2's staging buffer: its pieces read back. -/
noncomputable def out10_A_2 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) : Vec F S2000x64 .f32 :=
  VO10_2.read (Elt F) (VO10_2.writes (Elt F) VO10_2.junk (kernelRun10_A c i arg1 harg1 arg2 harg2 arg3 harg3 arg4 harg4 arg5 harg5 arg6 harg6 hc0 hc1 x0 x1).1)

/-- Case A: the one store into output 3 covers its block. -/
theorem cover10_A_3 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) (y : S2000x64.Idx) :
    ∃ pc ∈ (kernelRun10_A c i arg1 harg1 arg2 harg2 arg3 harg3 arg4 harg4 arg5 harg5 arg6 harg6 hc0 hc1 x0 x1).2.1, y ∈ pc.1.set :=
  View.cover_of_tiledL (kernelRun10_A c i arg1 harg1 arg2 harg2 arg3 harg3 arg4 harg4 arg5 harg5 arg6 harg6 hc0 hc1 x0 x1).2.1 S2000x64.size (by sl_kernel_rfl) y

/-- What case A leaves in output 3's staging buffer: its pieces read back. -/
noncomputable def out10_A_3 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) : Vec F S2000x64 .f32 :=
  VO10_3.read (Elt F) (VO10_3.writes (Elt F) VO10_3.junk (kernelRun10_A c i arg1 harg1 arg2 harg2 arg3 harg3 arg4 harg4 arg5 harg5 arg6 harg6 hc0 hc1 x0 x1).2.1)

/-- What case A leaves in output 4's staging buffer — nothing is stored: an arbitrary value that nothing consults
    (at these points the window is neither written back nor read at the next point). -/
noncomputable def out10_A_4 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) : Vec F S1x64 .f32 :=
  VO10_4.read (Elt F) (VO10_4.writes (Elt F) VO10_4.junk (kernelRun10_A c i arg1 harg1 arg2 harg2 arg3 harg3 arg4 harg4 arg5 harg5 arg6 harg6 hc0 hc1 x0 x1).2.2.1)

/-- Case A: the stores into the scratch cover it. -/
theorem scover10_A_0 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) (y : S1x64.Idx) :
    ∃ pc ∈ (kernelRun10_A c i arg1 harg1 arg2 harg2 arg3 harg3 arg4 harg4 arg5 harg5 arg6 harg6 hc0 hc1 x0 x1).2.2.2.1, y ∈ pc.1.set :=
  View.cover_of_tiledL (kernelRun10_A c i arg1 harg1 arg2 harg2 arg3 harg3 arg4 harg4 arg5 harg5 arg6 harg6 hc0 hc1 x0 x1).2.2.2.1 S1x64.size (by sl_kernel_rfl) y

/-- What case A leaves in the scratch: its pieces read back. -/
noncomputable def sout10_A_0 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : cond10_0 i) (hc1 : ¬cond10_1 i)
    (x0 : Vec F S2000x64 .f32) (x1 : Vec F S1x64 .f32) : Vec F S1x64 .f32 :=
  VS10_0.read (Elt F) (VS10_0.writes (Elt F) VS10_0.junk (kernelRun10_A c i arg1 harg1 arg2 harg2 arg3 harg3 arg4 harg4 arg5 harg5 arg6 harg6 hc0 hc1 x0 x1).2.2.2.1)

/-- Case B: the one store into output 2 covers its block. -/
theorem cover10_B_2 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) (y : S2000x64.Idx) :
    ∃ pc ∈ (kernelRun10_B c i arg1 harg1 arg2 harg2 arg3 harg3 arg4 harg4 arg5 harg5 arg6 harg6 hc0 hc1 x0 x1 xs0).1, y ∈ pc.1.set :=
  View.cover_of_tiledL (kernelRun10_B c i arg1 harg1 arg2 harg2 arg3 harg3 arg4 harg4 arg5 harg5 arg6 harg6 hc0 hc1 x0 x1 xs0).1 S2000x64.size (by sl_kernel_rfl) y

/-- What case B leaves in output 2's staging buffer: its pieces read back. -/
noncomputable def out10_B_2 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) : Vec F S2000x64 .f32 :=
  VO10_2.read (Elt F) (VO10_2.writes (Elt F) VO10_2.junk (kernelRun10_B c i arg1 harg1 arg2 harg2 arg3 harg3 arg4 harg4 arg5 harg5 arg6 harg6 hc0 hc1 x0 x1 xs0).1)

/-- Case B: the one store into output 3 covers its block. -/
theorem cover10_B_3 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) (y : S2000x64.Idx) :
    ∃ pc ∈ (kernelRun10_B c i arg1 harg1 arg2 harg2 arg3 harg3 arg4 harg4 arg5 harg5 arg6 harg6 hc0 hc1 x0 x1 xs0).2.1, y ∈ pc.1.set :=
  View.cover_of_tiledL (kernelRun10_B c i arg1 harg1 arg2 harg2 arg3 harg3 arg4 harg4 arg5 harg5 arg6 harg6 hc0 hc1 x0 x1 xs0).2.1 S2000x64.size (by sl_kernel_rfl) y

/-- What case B leaves in output 3's staging buffer: its pieces read back. -/
noncomputable def out10_B_3 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) : Vec F S2000x64 .f32 :=
  VO10_3.read (Elt F) (VO10_3.writes (Elt F) VO10_3.junk (kernelRun10_B c i arg1 harg1 arg2 harg2 arg3 harg3 arg4 harg4 arg5 harg5 arg6 harg6 hc0 hc1 x0 x1 xs0).2.1)

/-- What case B leaves in output 4's staging buffer — nothing is stored: an arbitrary value that nothing consults
    (at these points the window is neither written back nor read at the next point). -/
noncomputable def out10_B_4 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) : Vec F S1x64 .f32 :=
  VO10_4.read (Elt F) (VO10_4.writes (Elt F) VO10_4.junk (kernelRun10_B c i arg1 harg1 arg2 harg2 arg3 harg3 arg4 harg4 arg5 harg5 arg6 harg6 hc0 hc1 x0 x1 xs0).2.2.1)

/-- Case B: the stores into the scratch cover it. -/
theorem scover10_B_0 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) (y : S1x64.Idx) :
    ∃ pc ∈ (kernelRun10_B c i arg1 harg1 arg2 harg2 arg3 harg3 arg4 harg4 arg5 harg5 arg6 harg6 hc0 hc1 x0 x1 xs0).2.2.2.1, y ∈ pc.1.set :=
  View.cover_of_tiledL (kernelRun10_B c i arg1 harg1 arg2 harg2 arg3 harg3 arg4 harg4 arg5 harg5 arg6 harg6 hc0 hc1 x0 x1 xs0).2.2.2.1 S1x64.size (by sl_kernel_rfl) y

/-- What case B leaves in the scratch: its pieces read back. -/
noncomputable def sout10_B_0 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : ¬cond10_1 i)
    (x0 : Vec F S2000x64 .f32) (x1 : Vec F S1x64 .f32) (xs0 : Vec F S1x64 .f32) : Vec F S1x64 .f32 :=
  VS10_0.read (Elt F) (VS10_0.writes (Elt F) VS10_0.junk (kernelRun10_B c i arg1 harg1 arg2 harg2 arg3 harg3 arg4 harg4 arg5 harg5 arg6 harg6 hc0 hc1 x0 x1 xs0).2.2.2.1)

/-- Case C: the one store into output 2 covers its block. -/
theorem cover10_C_2 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) (y : S2000x64.Idx) :
    ∃ pc ∈ (kernelRun10_C c i arg1 harg1 arg2 harg2 arg3 harg3 arg4 harg4 arg5 harg5 arg6 harg6 hc0 hc1 x0 x1 xs0).1, y ∈ pc.1.set :=
  View.cover_of_tiledL (kernelRun10_C c i arg1 harg1 arg2 harg2 arg3 harg3 arg4 harg4 arg5 harg5 arg6 harg6 hc0 hc1 x0 x1 xs0).1 S2000x64.size (by sl_kernel_rfl) y

/-- What case C leaves in output 2's staging buffer: its pieces read back. -/
noncomputable def out10_C_2 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) : Vec F S2000x64 .f32 :=
  VO10_2.read (Elt F) (VO10_2.writes (Elt F) VO10_2.junk (kernelRun10_C c i arg1 harg1 arg2 harg2 arg3 harg3 arg4 harg4 arg5 harg5 arg6 harg6 hc0 hc1 x0 x1 xs0).1)

/-- Case C: the one store into output 3 covers its block. -/
theorem cover10_C_3 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) (y : S2000x64.Idx) :
    ∃ pc ∈ (kernelRun10_C c i arg1 harg1 arg2 harg2 arg3 harg3 arg4 harg4 arg5 harg5 arg6 harg6 hc0 hc1 x0 x1 xs0).2.1, y ∈ pc.1.set :=
  View.cover_of_tiledL (kernelRun10_C c i arg1 harg1 arg2 harg2 arg3 harg3 arg4 harg4 arg5 harg5 arg6 harg6 hc0 hc1 x0 x1 xs0).2.1 S2000x64.size (by sl_kernel_rfl) y

/-- What case C leaves in output 3's staging buffer: its pieces read back. -/
noncomputable def out10_C_3 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) : Vec F S2000x64 .f32 :=
  VO10_3.read (Elt F) (VO10_3.writes (Elt F) VO10_3.junk (kernelRun10_C c i arg1 harg1 arg2 harg2 arg3 harg3 arg4 harg4 arg5 harg5 arg6 harg6 hc0 hc1 x0 x1 xs0).2.1)

/-- Case C: the one store into output 4 covers its block. -/
theorem cover10_C_4 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) (y : S1x64.Idx) :
    ∃ pc ∈ (kernelRun10_C c i arg1 harg1 arg2 harg2 arg3 harg3 arg4 harg4 arg5 harg5 arg6 harg6 hc0 hc1 x0 x1 xs0).2.2.1, y ∈ pc.1.set :=
  View.cover_of_tiledL (kernelRun10_C c i arg1 harg1 arg2 harg2 arg3 harg3 arg4 harg4 arg5 harg5 arg6 harg6 hc0 hc1 x0 x1 xs0).2.2.1 S1x64.size (by sl_kernel_rfl) y

/-- What case C leaves in output 4's staging buffer: its pieces read back. -/
noncomputable def out10_C_4 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) : Vec F S1x64 .f32 :=
  VO10_4.read (Elt F) (VO10_4.writes (Elt F) VO10_4.junk (kernelRun10_C c i arg1 harg1 arg2 harg2 arg3 harg3 arg4 harg4 arg5 harg5 arg6 harg6 hc0 hc1 x0 x1 xs0).2.2.1)

/-- Case C: the stores into the scratch cover it. -/
theorem scover10_C_0 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) (y : S1x64.Idx) :
    ∃ pc ∈ (kernelRun10_C c i arg1 harg1 arg2 harg2 arg3 harg3 arg4 harg4 arg5 harg5 arg6 harg6 hc0 hc1 x0 x1 xs0).2.2.2.1, y ∈ pc.1.set :=
  View.cover_of_tiledL (kernelRun10_C c i arg1 harg1 arg2 harg2 arg3 harg3 arg4 harg4 arg5 harg5 arg6 harg6 hc0 hc1 x0 x1 xs0).2.2.2.1 S1x64.size (by sl_kernel_rfl) y

/-- What case C leaves in the scratch: its pieces read back. -/
noncomputable def sout10_C_0 (c : Dev nD) (i : grid10.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole) (hc0 : ¬cond10_0 i) (hc1 : cond10_1 i)
    (x0 : Vec F S2000x64 .f32) (x1 : Vec F S1x64 .f32) (xs0 : Vec F S1x64 .f32) : Vec F S1x64 .f32 :=
  VS10_0.read (Elt F) (VS10_0.writes (Elt F) VS10_0.junk (kernelRun10_C c i arg1 harg1 arg2 harg2 arg3 harg3 arg4 harg4 arg5 harg5 arg6 harg6 hc0 hc1 x0 x1 xs0).2.2.2.1)

/-! ## What the outputs and the scratch hold after each point -/

/-- THE ACCUMULATION. What the three outputs' staging buffers and the scratch hold after the body at position `n`
    (output 2, output 3, output 4, the scratch): the case the closed forms select at `n`, run at the point's memrefs and input
    blocks, the scratch before it at what this leaves at `n - 1`. No point meets both conditions. -/
noncomputable def outsAt10 (c : Dev nD) : (n : ℕ) → n < cfg10.N → Vec F S2000x64 .f32 × Vec F S2000x64 .f32 × Vec F S1x64 .f32 × Vec F S1x64 .f32
  | 0, hn => (out10_A_2 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩), out10_A_3 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩), out10_A_4 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩), sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) scM10_0 (Memref.isWhole_whole _) ((hcond10_0 ⟨0, hn⟩).mpr (Nat.zero_mod _)) (fun h => (fun h => by (try dsimp only at h); omega) ((hcond10_1 ⟨0, hn⟩).mp h)) (iblk10 V c 0 ⟨0, hn⟩) (iblk10 V c 1 ⟨0, hn⟩))
  | n + 1, hn =>
    if h0 : (n + 1) % 25 = 0 then
      if h1 : (n + 1) % 25 = 24 then
        False.elim (by omega)
      else
        (out10_A_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩), out10_A_3 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩), out10_A_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩), sout10_A_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) ((hcond10_0 ⟨n + 1, hn⟩).mpr h0) (fun h => h1 ((hcond10_1 ⟨n + 1, hn⟩).mp h)) (iblk10 V c 0 ⟨n + 1, hn⟩) (iblk10 V c 1 ⟨n + 1, hn⟩))
    else
      if h1 : (n + 1) % 25 = 24 then
        (out10_C_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2.2.2, out10_C_3 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2.2.2, out10_C_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2.2.2, sout10_C_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) ((hcond10_1 ⟨n + 1, hn⟩).mpr h1) (iblk10 V c 0 ⟨n + 1, hn⟩) (iblk10 V c 1 ⟨n + 1, hn⟩) (outsAt10 c n (Nat.lt_of_succ_lt hn)).2.2.2)
      else
        (out10_B_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2.2.2, out10_B_3 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2.2.2, out10_B_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2.2.2, sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) scM10_0 (Memref.isWhole_whole _) (fun h => h0 ((hcond10_0 ⟨n + 1, hn⟩).mp h)) (fun h => h1 ((hcond10_1 ⟨n + 1, hn⟩).mp h)) (iblk10 V c 0 ⟨n + 1, hn⟩) (iblk10 V c 1 ⟨n + 1, hn⟩) (outsAt10 c n (Nat.lt_of_succ_lt hn)).2.2.2)

/-- `outsAt10` at the first point: case A's contents. -/
theorem outsAt10_A (c : Dev nD) (t : Fin cfg10.N) (h0 : t.val % 25 = 0) (h1 : ¬t.val % 25 = 24) :
    outsAt10 V c t.val t.isLt = (out10_A_2 c (grid10.coords t) (ms10_0 t) (hs10_0 t) (ms10_1 t) (hs10_1 t) (ms10_2 t) (hs10_2 t) (ms10_3 t) (hs10_3 t) (ms10_4 t) (hs10_4 t) scM10_0 (Memref.isWhole_whole _) ((hcond10_0 t).mpr h0) (fun h => h1 ((hcond10_1 t).mp h)) (iblk10 V c 0 t) (iblk10 V c 1 t), out10_A_3 c (grid10.coords t) (ms10_0 t) (hs10_0 t) (ms10_1 t) (hs10_1 t) (ms10_2 t) (hs10_2 t) (ms10_3 t) (hs10_3 t) (ms10_4 t) (hs10_4 t) scM10_0 (Memref.isWhole_whole _) ((hcond10_0 t).mpr h0) (fun h => h1 ((hcond10_1 t).mp h)) (iblk10 V c 0 t) (iblk10 V c 1 t), out10_A_4 c (grid10.coords t) (ms10_0 t) (hs10_0 t) (ms10_1 t) (hs10_1 t) (ms10_2 t) (hs10_2 t) (ms10_3 t) (hs10_3 t) (ms10_4 t) (hs10_4 t) scM10_0 (Memref.isWhole_whole _) ((hcond10_0 t).mpr h0) (fun h => h1 ((hcond10_1 t).mp h)) (iblk10 V c 0 t) (iblk10 V c 1 t), sout10_A_0 c (grid10.coords t) (ms10_0 t) (hs10_0 t) (ms10_1 t) (hs10_1 t) (ms10_2 t) (hs10_2 t) (ms10_3 t) (hs10_3 t) (ms10_4 t) (hs10_4 t) scM10_0 (Memref.isWhole_whole _) ((hcond10_0 t).mpr h0) (fun h => h1 ((hcond10_1 t).mp h)) (iblk10 V c 0 t) (iblk10 V c 1 t)) := by
  obtain ⟨n, hn⟩ := t
  cases n with
  | zero => exact rfl
  | succ n => exact (dif_pos h0).trans ((dif_neg h1).trans rfl)

/-- `outsAt10` at a middle point: case B's contents, over what the point before left in the scratch. -/
theorem outsAt10_B (c : Dev nD) (t : Fin cfg10.N) (h0 : ¬t.val % 25 = 0) (h1 : ¬t.val % 25 = 24) :
    outsAt10 V c t.val t.isLt = (out10_B_2 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2.2.2, out10_B_3 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2.2.2, out10_B_4 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2.2.2, sout10_B_0 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) (fun h => h1 ((hcond10_1 t).mp h)) (iblk10 V c 0 t) (iblk10 V c 1 t) (outsAt10 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt10` at the last point: case C's contents, over what the point before left in the scratch. -/
theorem outsAt10_C (c : Dev nD) (t : Fin cfg10.N) (h0 : ¬t.val % 25 = 0) (h1 : t.val % 25 = 24) :
    outsAt10 V c t.val t.isLt = (out10_C_2 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2.2.2, out10_C_3 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2.2.2, out10_C_4 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2.2.2, sout10_C_0 c (grid10.coords t) (ms10_0 t) (hs10_0 t) (ms10_1 t) (hs10_1 t) (ms10_2 t) (hs10_2 t) (ms10_3 t) (hs10_3 t) (ms10_4 t) (hs10_4 t) scM10_0 (Memref.isWhole_whole _) (fun h => h0 ((hcond10_0 t).mp h)) ((hcond10_1 t).mpr h1) (iblk10 V c 0 t) (iblk10 V c 1 t) (outsAt10 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt10`'s last component), the other
    scoped buffers unopened and the generator register at some state. -/
noncomputable def PhiS10 (c : Dev nD) : (n : ℕ) → n ≤ cfg10.N → sProp 𝕄
  | 0, _ => Pipeline.ΦA spec10 c
  | n + 1, hn => iprop(iprop(iprop(owns (c : Thread nD τ) scM10_0 fullShare ((outsAt10 V c n hn).2.2.2)) ∗ restBut10 (F := F) c) ∗ (∃ r, prngReg c r))

theorem PhiS10_zero (c : Dev nD) (n : ℕ) (h : n ≤ cfg10.N) (hz : n = 0) : PhiS10 V c n h = Pipeline.ΦA spec10 c := by
  subst hz; rfl

/-- After point `n` (before point `n + 1`): the scratch at that point's contents. -/
theorem PhiS10_succ (c : Dev nD) (n : ℕ) (hn : n < cfg10.N) :
    PhiS10 V c (n + 1) hn = iprop(iprop(iprop(owns (c : Thread nD τ) scM10_0 fullShare ((outsAt10 V c n hn).2.2.2)) ∗ restBut10 (F := F) c) ∗ (∃ r, prngReg c r)) := rfl

/-- Before a point that is not the first: the scratch at what the point before left. -/
theorem PhiS10_pos (c : Dev nD) (n : ℕ) (h : n ≤ cfg10.N) (hz : n ≠ 0) :
    PhiS10 V c n h = iprop(iprop(iprop(owns (c : Thread nD τ) scM10_0 fullShare ((outsAt10 V c (n - 1) (by omega)).2.2.2)) ∗ restBut10 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt10`; the invariant `PhiS10`; nothing owed;
    full shares. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
    | ⟨3, _⟩ => (outsAt10 V c t.val t.isLt).2.1
    | ⟨4, _⟩ => (outsAt10 V c t.val t.isLt).2.2.1
  Φ t := PhiS10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

/-- The invariant at a point's start, restated at `t.val`. -/
theorem PhiS10_castSucc (c : Dev nD) (t : Fin cfg10.N) :
    (dat10 V c).Φ t.castSucc = PhiS10 V c t.val (Nat.le_of_lt t.isLt) := by
  dsimp only [dat10]; simp only [Fin.coe_castSucc]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]
theorem after10_3 (c : Dev nD) (t : Fin cfg10.N) : (dat10 V c).after 3 t = (outsAt10 V c t.val t.isLt).2.1 := by dsimp only [dat10]
theorem after10_4 (c : Dev nD) (t : Fin cfg10.N) : (dat10 V c).after 4 t = (outsAt10 V c t.val t.isLt).2.2.1 := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t` (the windows one by one), -/
noncomputable def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d)))

/-- and what it returns. -/
noncomputable def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  have hN : t.val < 25 := lt_of_lt_of_eq t.isLt (show cfg10.N = 25 from N_10)
  by_cases h0 : t.val % 25 = 0
  · by_cases h1 : t.val % 25 = 24
    · exfalso; omega
    · rw [show (dat10 V c).leavesExact 0 t = owns (c : Thread nD τ) (ms10_0 t) fullShare ((dat10 V c).after 0 t) from by
        unfold Dat.leavesExact; rw [liveAt10_0 t], after10_0]
      rw [show (dat10 V c).leavesExact 1 t = owns (c : Thread nD τ) (ms10_1 t) fullShare ((dat10 V c).after 1 t) from by
        unfold Dat.leavesExact; rw [liveAt10_1 t], after10_1]
      rw [show (dat10 V c).leavesExact 2 t = owns (c : Thread nD τ) (ms10_2 t) fullShare ((dat10 V c).after 2 t) from by
        unfold Dat.leavesExact; rw [liveAt10_2 t], after10_2]
      rw [show (dat10 V c).leavesExact 3 t = owns (c : Thread nD τ) (ms10_3 t) fullShare ((dat10 V c).after 3 t) from by
        unfold Dat.leavesExact; rw [liveAt10_3 t], after10_3]
      rw [Dat.leavesExact_idle (dat10 V c) 4 t (idleAt10_4_A t ((hcond10_0 t).mpr h0) (fun h => h1 ((hcond10_1 t).mp h))) (noFlush10_4_A t ((hcond10_0 t).mpr h0) (fun h => h1 ((hcond10_1 t).mp h)))]
      rw [outsAt10_A V c t h0 h1]
      unfold out10_A_2 out10_A_3 sout10_A_0; (try dsimp only)
      by_cases hz : t.val = 0
      · rw [PhiS10_castSucc V c t, PhiS10_zero V c _ _ hz, PhiA10_eq]
        iintro ⟨⟨⟨HS0, HR⟩, Hg⟩, Ho, ⟨%d0, H0⟩, ⟨%d1, H1⟩, ⟨%d2, H2⟩, ⟨%d3, H3⟩, ⟨%d4, H4⟩⟩
        iapply ((kernelRun10_A c (grid10.coords t) _ _ _ _ _ _ _ _ _ _ _ _ ((hcond10_0 t).mpr h0) (fun h => h1 ((hcond10_1 t).mp h)) (iblk10 V c 0 t) (iblk10 V c 1 t)).2.2.2.2 _ Set.univ _)
        isplitl [H0]; · iexact H0
        isplitl [H1]; · iexact H1
        isplitl [H2]; · iexists _; iexact H2
        isplitl [H3]; · iexists _; iexact H3
        isplitl [H4]; · iexact H4
        isplitl [HS0]; · iexact HS0
        iintro ⟨H0, H1, ⟨%e2, H2⟩, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover10_A_0 c _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover10_A_2 c _ _ _ _ _ _ _ _ _ _ _ _ _ _ _ _ _)
        isplitl [H3]
        · unfold owns; iexists _; isplitr
          swap; · iexact H3
          ipureintro; exact View.read_writes_of_cover _ _ _ _ _ (cover10_A_3 c _ _ _ _ _ _ _ _ _ _ _ _ _ _ _ _ _)
        iexists _; iexact H4
      · exfalso; omega
  · by_cases h1 : t.val % 25 = 24
    · rw [show (dat10 V c).leavesExact 0 t = owns (c : Thread nD τ) (ms10_0 t) fullShare ((dat10 V c).after 0 t) from by
        unfold Dat.leavesExact; rw [liveAt10_0 t], after10_0]
      rw [show (dat10 V c).leavesExact 1 t = owns (c : Thread nD τ) (ms10_1 t) fullShare ((dat10 V c).after 1 t) from by
        unfold Dat.leavesExact; rw [liveAt10_1 t], after10_1]
      rw [show (dat10 V c).leavesExact 2 t = owns (c : Thread nD τ) (ms10_2 t) fullShare ((dat10 V c).after 2 t) from by
        unfold Dat.leavesExact; rw [liveAt10_2 t], after10_2]
      rw [show (dat10 V c).leavesExact 3 t = owns (c : Thread nD τ) (ms10_3 t) fullShare ((dat10 V c).after 3 t) from by
        unfold Dat.leavesExact; rw [liveAt10_3 t], after10_3]
      rw [show (dat10 V c).leavesExact 4 t = owns (c : Thread nD τ) (ms10_4 t) fullShare ((dat10 V c).after 4 t) from by
        unfold Dat.leavesExact; rw [liveAt10_4_C t (fun h => h0 ((hcond10_0 t).mp h)) ((hcond10_1 t).mpr h1)], after10_4]
      rw [outsAt10_C V c t h0 h1]
      unfold out10_C_2 out10_C_3 out10_C_4 sout10_C_0; (try dsimp only)
      by_cases hz : t.val = 0
      · exfalso; omega
      · rw [PhiS10_castSucc V c t, PhiS10_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun10_C c (grid10.coords t) _ _ _ _ _ _ _ _ _ _ _ _ (fun h => h0 ((hcond10_0 t).mp h)) ((hcond10_1 t).mpr h1) (iblk10 V c 0 t) (iblk10 V c 1 t) _).2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        iintro ⟨H0, H1, ⟨%e2, H2⟩, ⟨%e3, H3⟩, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover10_C_0 c _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover10_C_2 c _ _ _ _ _ _ _ _ _ _ _ _ _ _ _ _ _ _)
        isplitl [H3]
        · unfold owns; iexists _; isplitr
          swap; · iexact H3
          ipureintro; exact View.read_writes_of_cover _ _ _ _ _ (cover10_C_3 c _ _ _ _ _ _ _ _ _ _ _ _ _ _ _ _ _ _)
        unfold owns; iexists _; isplitr
        swap; · iexact H4
        ipureintro; exact View.read_writes_of_cover _ _ _ _ _ (cover10_C_4 c _ _ _ _ _ _ _ _ _ _ _ _ _ _ _ _ _ _)
    · rw [show (dat10 V c).leavesExact 0 t = owns (c : Thread nD τ) (ms10_0 t) fullShare ((dat10 V c).after 0 t) from by
        unfold Dat.leavesExact; rw [liveAt10_0 t], after10_0]
      rw [show (dat10 V c).leavesExact 1 t = owns (c : Thread nD τ) (ms10_1 t) fullShare ((dat10 V c).after 1 t) from by
        unfold Dat.leavesExact; rw [liveAt10_1 t], after10_1]
      rw [show (dat10 V c).leavesExact 2 t = owns (c : Thread nD τ) (ms10_2 t) fullShare ((dat10 V c).after 2 t) from by
        unfold Dat.leavesExact; rw [liveAt10_2 t], after10_2]
      rw [show (dat10 V c).leavesExact 3 t = owns (c : Thread nD τ) (ms10_3 t) fullShare ((dat10 V c).after 3 t) from by
        unfold Dat.leavesExact; rw [liveAt10_3 t], after10_3]
      rw [Dat.leavesExact_idle (dat10 V c) 4 t (idleAt10_4_B t (fun h => h0 ((hcond10_0 t).mp h)) (fun h => h1 ((hcond10_1 t).mp h))) (noFlush10_4_B t (fun h => h0 ((hcond10_0 t).mp h)) (fun h => h1 ((hcond10_1 t).mp h)))]
      rw [outsAt10_B V c t h0 h1]
      unfold out10_B_2 out10_B_3 sout10_B_0; (try dsimp only)
      by_cases hz : t.val = 0
      · exfalso; omega
      · rw [PhiS10_castSucc V c t, PhiS10_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun10_B c (grid10.coords t) _ _ _ _ _ _ _ _ _ _ _ _ (fun h => h0 ((hcond10_0 t).mp h)) (fun h => h1 ((hcond10_1 t).mp h)) (iblk10 V c 0 t) (iblk10 V c 1 t) _).2.2.2.2 _ Set.univ _)
        isplitl [H0]; · iexact H0
        isplitl [H1]; · iexact H1
        isplitl [H2]; · iexists _; iexact H2
        isplitl [H3]; · iexists _; iexact H3
        isplitl [H4]; · iexact H4
        isplitl [HS0]; · iexact HS0
        iintro ⟨H0, H1, ⟨%e2, H2⟩, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover10_B_0 c _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover10_B_2 c _ _ _ _ _ _ _ _ _ _ _ _ _ _ _ _ _ _)
        isplitl [H3]
        · unfold owns; iexists _; isplitr
          swap; · iexact H3
          ipureintro; exact View.read_writes_of_cover _ _ _ _ _ (cover10_B_3 c _ _ _ _ _ _ _ _ _ _ _ _ _ _ _ _ _ _)
        iexists _; iexact H4

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After any point but the first the invariant gives it back: the scratch's named contents are forgotten. -/
theorem Phi_out10 (c : Dev nD) (t : Fin (cfg10.N + 1)) (ht : t.val ≠ 0) : (dat10 V c).Φ t ⊢ Pipeline.ΦA spec10 c := by
  rw [show (dat10 V c).Φ t = PhiS10 V c t.val (Nat.le_of_lt_succ t.isLt) from rfl, PhiS10_pos V c _ _ ht, PhiA10_eq]
  iintro ⟨⟨HS0, HR⟩, Hg⟩
  isplitl [HS0 HR]
  · isplitl [HS0]
    · iexists _; iexact HS0
    iexact HR
  iexact Hg

/-- The same after the last point. -/
theorem hout10 (c : Dev nD) : (dat10 V c).Φ (Fin.last cfg10.N) ⊢ Pipeline.ΦA spec10 c :=
  Phi_out10 V c _ (by rw [Fin.val_last]; have : cfg10.N = 25 := N_10; omega)

end Cert.KernelIdeal.Hand

end
-- ==== Proof.KI.R11.lean ====
import proofs.«408084_j48395691492010_3_alg».proof.Proof.KI.R3

/-! Region 11: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The row-tile window (window 0, fetched at every point) holds its block when the body runs. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- The mean window (window 1, one constant block fetched at the first point only) holds that block at every point. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## The branch conditions and the idle points, over this region's grid (the same grid) -/

/-- The reset's condition holds at the first point only, -/
theorem hcond11_0 : ∀ t : Fin cfg11.N, cond3_0 (grid11.coords t) ↔ t.val = 0 := hcond3_0
/-- the final store's at the last point only. -/
theorem hcond11_1 : ∀ t : Fin cfg11.N, cond3_1 (grid11.coords t) ↔ t.val = 24 := hcond3_1

theorem liveAt11_0 : ∀ t : Fin cfg11.N, cfg11.idle 0 (grid11.coords t) = false := fun _ => rfl
theorem liveAt11_1 : ∀ t : Fin cfg11.N, cfg11.idle 1 (grid11.coords t) = false := fun _ => rfl
/-- Away from the last point the result window is idle, -/
theorem idleAt11_2 : ∀ t : Fin cfg11.N, ¬cond3_1 (grid11.coords t) → cfg11.idle 2 (grid11.coords t) = true := idleAt3_2
/-- and live at it. -/
theorem liveAt11_2 : ∀ t : Fin cfg11.N, cond3_1 (grid11.coords t) → cfg11.idle 2 (grid11.coords t) = false := liveAt3_2
/-- Away from the last point its block is not written back (the schedule's closed form). -/
theorem noFlush11_2 (t : Fin cfg11.N) (h : ¬cond3_1 (grid11.coords t)) : (cfg11.win 2).flush t = false := by
  have hN : t.val < 25 := lt_of_lt_of_eq t.isLt (show cfg11.N = 25 from N_11)
  have h24 : ¬t.val = 24 := fun e => h ((hcond11_1 t).mpr e)
  cases hf : (cfg11.win 2).flush t with
  | false => rfl
  | true => exact absurd (by have := (flush11_2 t).mp hf; omega) h24

/-! ## The memrefs the body is called with -/

noncomputable abbrev ms11_0 (t : Fin cfg11.N) : Memref sig .tc .vmem S2000x64 .f32 := win11_0.stage (cfg11.slots t 0)
abbrev hs11_0 (t : Fin cfg11.N) : (ms11_0 t).IsWhole := hstage11_0 ((cfg11.slots t 0).cast nbuf11_0)
noncomputable abbrev ms11_1 (t : Fin cfg11.N) : Memref sig .tc .vmem S1x64 .f32 := win11_1.stage (cfg11.slots t 1)
abbrev hs11_1 (t : Fin cfg11.N) : (ms11_1 t).IsWhole := hstage11_1 ((cfg11.slots t 1).cast nbuf11_1)
noncomputable abbrev ms11_2 (t : Fin cfg11.N) : Memref sig .tc .vmem S1x64 .f32 := win11_2.stage (cfg11.slots t 2)
abbrev hs11_2 (t : Fin cfg11.N) : (ms11_2 t).IsWhole := hstage11_2 ((cfg11.slots t 2).cast nbuf11_2)
/-- The accumulator: this call's own scratch buffer, whole. -/
noncomputable abbrev scM11_0 : Memref sig .tc .vmem S1x64 .f32 := Memref.whole cc11_scratch0

/-- The body the pipeline calls at point `t` is region 3's printed kernel on this region's memrefs: the two printed
    functions are the same term. -/
theorem bodyAt11_eq (t : Fin cfg11.N) :
    (bodyAt11 t : Prog (TpuEff nD τ sig (Elt F) Λ₀ .tc) PUnit)
      = cc3__var_kernel (grid11.coords t) (ms11_0 t) (hs11_0 t) (ms11_1 t) (hs11_1 t) (ms11_2 t) (hs11_2 t) scM11_0 (Memref.isWhole_whole _) := rfl

/-- The region-entry invariant with the accumulator split out of the scoped rest, as a memref owned at some contents. -/
theorem PhiA11_eq (c : Dev nD) :
    (Pipeline.ΦA spec11 c : sProp 𝕄)
      = iprop(iprop(iprop(∃ d, owns (c : Thread nD τ) scM11_0 fullShare d)
          ∗ Pipeline.scopedRestBut (Ix := Unit) (Name := ℕ) (U := UR sig nD τ) (Lvl := ℕ) (Val := Elt F) spec11 c [cc11_scratch0]) ∗ (∃ r, prngReg c r)) := by
  unfold Pipeline.ΦA; rw [scopedRest11_split]; simp only [scM11_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt11 (c : Dev nD) : (n : ℕ) → n < cfg11.N → Vec F S1x64 .f32 × Vec F S1x64 .f32
  | 0, hn => (idle3_2,
      sout3_A_0 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) scM11_0 (Memref.isWhole_whole _) ((hcond11_0 ⟨0, hn⟩).mpr rfl)
        (fun h => (fun h' : (0 : ℕ) = 24 => by omega) ((hcond11_1 ⟨0, hn⟩).mp h)) (iblk11 V c 0 ⟨0, hn⟩) (iblk11 V c 1 ⟨0, hn⟩))
  | n + 1, hn =>
    if h1 : n + 1 = 24 then
      (out3_C_2 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) scM11_0 (Memref.isWhole_whole _) (fun h => (fun h' : n + 1 = 0 => by omega) ((hcond11_0 ⟨n + 1, hn⟩).mp h))
          ((hcond11_1 ⟨n + 1, hn⟩).mpr h1) (iblk11 V c 0 ⟨n + 1, hn⟩) (iblk11 V c 1 ⟨n + 1, hn⟩) (outsAt11 c n (Nat.lt_of_succ_lt hn)).2,
       sout3_C_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) scM11_0 (Memref.isWhole_whole _) (fun h => (fun h' : n + 1 = 0 => by omega) ((hcond11_0 ⟨n + 1, hn⟩).mp h))
          ((hcond11_1 ⟨n + 1, hn⟩).mpr h1) (iblk11 V c 0 ⟨n + 1, hn⟩) (iblk11 V c 1 ⟨n + 1, hn⟩) (outsAt11 c n (Nat.lt_of_succ_lt hn)).2)
    else
      (idle3_2,
       sout3_B_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) scM11_0 (Memref.isWhole_whole _) (fun h => (fun h' : n + 1 = 0 => by omega) ((hcond11_0 ⟨n + 1, hn⟩).mp h))
          (fun h => h1 ((hcond11_1 ⟨n + 1, hn⟩).mp h)) (iblk11 V c 0 ⟨n + 1, hn⟩) (iblk11 V c 1 ⟨n + 1, hn⟩) (outsAt11 c n (Nat.lt_of_succ_lt hn)).2)

theorem outsAt11_A (c : Dev nD) (t : Fin cfg11.N) (h0 : t.val = 0) (h1 : ¬t.val = 24) :
    outsAt11 V c t.val t.isLt = (idle3_2,
      sout3_A_0 c (grid11.coords t) (ms11_0 t) (hs11_0 t) (ms11_1 t) (hs11_1 t) (ms11_2 t) (hs11_2 t) scM11_0 (Memref.isWhole_whole _) ((hcond11_0 t).mpr h0) (fun h => h1 ((hcond11_1 t).mp h)) (iblk11 V c 0 t) (iblk11 V c 1 t)) := by
  obtain ⟨n, hn⟩ := t
  cases n with
  | zero => exact rfl
  | succ n => exact absurd h0 (Nat.succ_ne_zero n)

theorem outsAt11_B (c : Dev nD) (t : Fin cfg11.N) (h0 : ¬t.val = 0) (h1 : ¬t.val = 24) :
    outsAt11 V c t.val t.isLt = (idle3_2,
      sout3_B_0 c (grid11.coords t) (ms11_0 t) (hs11_0 t) (ms11_1 t) (hs11_1 t) (ms11_2 t) (hs11_2 t) scM11_0 (Memref.isWhole_whole _) (fun h => h0 ((hcond11_0 t).mp h)) (fun h => h1 ((hcond11_1 t).mp h)) (iblk11 V c 0 t) (iblk11 V c 1 t)
        (outsAt11 V c (t.val - 1) (Nat.lt_of_le_of_lt (Nat.sub_le _ _) t.isLt)).2) := by
  obtain ⟨n, hn⟩ := t
  cases n with
  | zero => exact absurd rfl h0
  | succ n => exact (dif_neg h1).trans rfl

theorem outsAt11_C (c : Dev nD) (t : Fin cfg11.N) (h0 : ¬t.val = 0) (h1 : t.val = 24) :
    outsAt11 V c t.val t.isLt =
      (out3_C_2 c (grid11.coords t) (ms11_0 t) (hs11_0 t) (ms11_1 t) (hs11_1 t) (ms11_2 t) (hs11_2 t) scM11_0 (Memref.isWhole_whole _) (fun h => h0 ((hcond11_0 t).mp h)) ((hcond11_1 t).mpr h1) (iblk11 V c 0 t) (iblk11 V c 1 t)
        (outsAt11 V c (t.val - 1) (Nat.lt_of_le_of_lt (Nat.sub_le _ _) t.isLt)).2,
       sout3_C_0 c (grid11.coords t) (ms11_0 t) (hs11_0 t) (ms11_1 t) (hs11_1 t) (ms11_2 t) (hs11_2 t) scM11_0 (Memref.isWhole_whole _) (fun h => h0 ((hcond11_0 t).mp h)) ((hcond11_1 t).mpr h1) (iblk11 V c 0 t) (iblk11 V c 1 t)
        (outsAt11 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS11 (c : Dev nD) : (n : ℕ) → n ≤ cfg11.N → sProp 𝕄
  | 0, _ => Pipeline.ΦA spec11 c
  | n + 1, hn => iprop(iprop(owns (c : Thread nD τ) scM11_0 fullShare ((outsAt11 V c n hn).2)
      ∗ Pipeline.scopedRestBut (Ix := Unit) (Name := ℕ) (U := UR sig nD τ) (Lvl := ℕ) (Val := Elt F) spec11 c [cc11_scratch0]) ∗ (∃ r, prngReg c r))

theorem PhiS11_zero (c : Dev nD) (n : ℕ) (h : n ≤ cfg11.N) (hz : n = 0) : PhiS11 V c n h = Pipeline.ΦA spec11 c := by
  subst hz; rfl

theorem PhiS11_succ (c : Dev nD) (n : ℕ) (hn : n < cfg11.N) :
    PhiS11 V c (n + 1) hn = iprop(iprop(owns (c : Thread nD τ) scM11_0 fullShare ((outsAt11 V c n hn).2)
      ∗ Pipeline.scopedRestBut (Ix := Unit) (Name := ℕ) (U := UR sig nD τ) (Lvl := ℕ) (Val := Elt F) spec11 c [cc11_scratch0]) ∗ (∃ r, prngReg c r)) := rfl

theorem PhiS11_pos (c : Dev nD) (n : ℕ) (h : n ≤ cfg11.N) (hz : n ≠ 0) :
    PhiS11 V c n h = iprop(iprop(owns (c : Thread nD τ) scM11_0 fullShare ((outsAt11 V c (n - 1) (by omega)).2)
      ∗ Pipeline.scopedRestBut (Ix := Unit) (Name := ℕ) (U := UR sig nD τ) (Lvl := ℕ) (Val := Elt F) spec11 c [cc11_scratch0]) ∗ (∃ r, prngReg c r)) := by
  cases n with
  | zero => exact absurd rfl hz
  | succ n => rfl

/-! ## The proof data -/

noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => (outsAt11 V c t.val t.isLt).1
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem PhiS11_castSucc (c : Dev nD) (t : Fin cfg11.N) :
    (dat11 V c).Φ t.castSucc = PhiS11 V c t.val (Nat.le_of_lt t.isLt) := by
  dsimp only [dat11]; simp only [Fin.coe_castSucc]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = (outsAt11 V c t.val t.isLt).1 := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-! ## The body obligation -/

noncomputable def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

noncomputable def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

set_option maxHeartbeats 4800000 in
/-- The body at any point, from region 3's triples on this region's memrefs. -/
theorem sound_body11 (c : Dev nD) (t : Fin cfg11.N) :
    bodyPre11 V c t ⊢ wp frame (wpE (defs₀ (F := F)) Variants.none c none) Set.univ (bodyAt11 t) (fun _ => bodyPost11 V c t) := by
  rw [bodyAt11_eq (F := F) t]
  unfold bodyPre11 bodyPost11
  simp only [before11_0, before11_1]
  rw [show (dat11 V c).owesAt () t.succ = (dat11 V c).owesAt () t.castSucc from rfl]
  rw [show (dat11 V c).Φ t.succ = PhiS11 V c (t.val + 1) t.isLt from rfl, PhiS11_succ]
  have hN : t.val < 25 := lt_of_lt_of_eq t.isLt (show cfg11.N = 25 from N_11)
  rw [show (dat11 V c).leavesExact 0 t = owns (c : Thread nD τ) (ms11_0 t) fullShare ((dat11 V c).after 0 t) from by
    unfold Dat.leavesExact; rw [liveAt11_0 t], after11_0]
  rw [show (dat11 V c).leavesExact 1 t = owns (c : Thread nD τ) (ms11_1 t) fullShare ((dat11 V c).after 1 t) from by
    unfold Dat.leavesExact; rw [liveAt11_1 t], after11_1]
  by_cases h0 : t.val = 0
  · have h1 : ¬t.val = 24 := by omega
    rw [Dat.leavesExact_idle (dat11 V c) 2 t (idleAt11_2 t (fun h => h1 ((hcond11_1 t).mp h))) (noFlush11_2 t (fun h => h1 ((hcond11_1 t).mp h)))]
    rw [outsAt11_A V c t h0 h1]
    unfold sout3_A_0; (try dsimp only)
    rw [PhiS11_castSucc V c t, PhiS11_zero V c _ _ h0, PhiA11_eq]
    iintro ⟨⟨⟨HS0, Hr⟩, Hg⟩, Ho, ⟨%d0, H0⟩, ⟨%d1, H1⟩, ⟨%d2, H2⟩⟩
    iapply ((kernelRun3_A c (grid11.coords t) _ _ _ _ _ _ _ _ ((hcond11_0 t).mpr h0) (fun h => h1 ((hcond11_1 t).mp h)) (iblk11 V c 0 t) (iblk11 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat11 V c).leavesExact 2 t = owns (c : Thread nD τ) (ms11_2 t) fullShare ((dat11 V c).after 2 t) from by
        unfold Dat.leavesExact; rw [liveAt11_2 t ((hcond11_1 t).mpr h1)], after11_2]
      rw [outsAt11_C V c t h0 h1]
      unfold out3_C_2 sout3_C_0; (try dsimp only)
      rw [PhiS11_castSucc V c t, PhiS11_pos V c _ _ h0]
      iintro ⟨⟨⟨HS0, Hr⟩, Hg⟩, Ho, ⟨%d0, H0⟩, ⟨%d1, H1⟩, ⟨%d2, H2⟩⟩
      iapply ((kernelRun3_C c (grid11.coords t) _ _ _ _ _ _ _ _ (fun h => h0 ((hcond11_0 t).mp h)) ((hcond11_1 t).mpr h1) (iblk11 V c 0 t) (iblk11 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat11 V c) 2 t (idleAt11_2 t (fun h => h1 ((hcond11_1 t).mp h))) (noFlush11_2 t (fun h => h1 ((hcond11_1 t).mp h)))]
      rw [outsAt11_B V c t h0 h1]
      unfold sout3_B_0; (try dsimp only)
      rw [PhiS11_castSucc V c t, PhiS11_pos V c _ _ h0]
      iintro ⟨⟨⟨HS0, Hr⟩, Hg⟩, Ho, ⟨%d0, H0⟩, ⟨%d1, H1⟩, ⟨%d2, H2⟩⟩
      iapply ((kernelRun3_B c (grid11.coords t) _ _ _ _ _ _ _ _ (fun h => h0 ((hcond11_0 t).mp h)) (fun h => h1 ((hcond11_1 t).mp h)) (iblk11 V c 0 t) (iblk11 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the launch hands the region is the invariant before the first point. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After any point but the first the invariant gives the launch's back: the accumulator's named contents are forgotten. -/
theorem Phi_out11 (c : Dev nD) (t : Fin (cfg11.N + 1)) (ht : t.val ≠ 0) : (dat11 V c).Φ t ⊢ Pipeline.ΦA spec11 c := by
  rw [show (dat11 V c).Φ t = PhiS11 V c t.val (Nat.le_of_lt_succ t.isLt) from rfl, PhiS11_pos V c _ _ ht, PhiA11_eq]
  iintro ⟨⟨HS0, Hr⟩, Hg⟩
  isplitl [HS0 Hr]
  · isplitl [HS0]
    · iexists _; iexact HS0
    iexact Hr
  iexact Hg

/-- The same after the last point. -/
theorem hout11 (c : Dev nD) : (dat11 V c).Φ (Fin.last cfg11.N) ⊢ Pipeline.ΦA spec11 c :=
  Phi_out11 V c _ (by rw [Fin.val_last]; have : cfg11.N = 25 := N_11; omega)

end Cert.KernelIdeal.Hand

end
-- ==== Proof.KI.R12.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Ring
import Idealize.ShloMosaic.Lib.Tactic

/-!
# Region 12: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region12
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The activations' staging buffer holds the block of the current point at every point: the window is fetched at
    every point, is never cut and never idle, and the body leaves the block where it found it. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- The mean row's staging buffer holds its (one) block at every point: it is fetched at the first point only, its
    block index never moves afterwards, and the body leaves it in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The same of the variance row. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- The same of the scale row. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- The same of the shift row. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each buffer is read, and the output written, whole -/

/-- The whole of a block of 2000 rows. -/
noncomputable abbrev r12_0 : Rect S2000x64 := Rect.unit (s := S2000x64) ![0, 0] S2000x64.size inb_S2000x64_S2000x64_0_0
/-- The whole of a single row. -/
noncomputable abbrev r12_1 : Rect S1x64 := Rect.unit (s := S1x64) ![0, 0] S1x64.size inb_S1x64_S1x64_0_0

/-! ## What the body leaves in the output buffer -/

/-- The output buffer after the body, from the five input blocks: its one store, whose payload is the skeleton's. -/
noncomputable def out12_5 (x0 : Vec F S2000x64 .f32) (x1 : Vec F S1x64 .f32) (x2 : Vec F S1x64 .f32) (x3 : Vec F S1x64 .f32) (x4 : Vec F S1x64 .f32) :
    Vec F S2000x64 .f32 :=
  View.canon [⟨r12_0, k12_pay1 (View.ld x0 r12_0) (View.ld x1 r12_1) (View.ld x2 r12_1) (View.ld x3 r12_1) (View.ld x4 r12_1)⟩]

/-- The one store covers the buffer. -/
theorem cover12_5 (p0 : Vec F S2000x64 .f32) (y : S2000x64.Idx) :
    ∃ pc ∈ ([⟨r12_0, p0⟩] : List (View.Piece (Elt F) S2000x64 .f32)), y ∈ pc.1.set :=
  View.cover_of_tiled [⟨r12_0, p0⟩] S2000x64.size (by rfl) y

/-! ## The body's triple -/

set_option maxHeartbeats 1000000 in
/-- The body on whole staging buffers, the five inputs' at read contents x0 … x4 and the output's at anything, runs
    to a state in which the inputs' are as they were and the output's holds out12_5 of them. (The body also loads the
    output buffer before it stores to it; the loaded value is not used.) -/
theorem sound_kernel12 (c : Dev nD) (E : Set ℕ) (i : grid12.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out12_5 x0 x1 x2 x3 x4)) -∗ K ⟨⟩))
      ⊢ wp frame (wpE (defs₀ (F := F)) Variants.none c none) E (cc12__bn_softmax_kernel i arg1 harg1 arg2 harg2 arg3 harg3 arg4 harg4 arg5 harg5 arg6 harg6) K := by
  simp only [cc12__bn_softmax_kernel_eq_skeleton]; unfold cc12__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover12_5 _)

/-! ## The pipeline's proof data -/

/-- The proof data of the region's pipeline on core c: the arrays as the region finds them; after the body at point t
    each input's buffer at its block and the output's at out12_5 of the input blocks; the invariant that of a body which
    touches nothing but its windows; nothing owed; full shares. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out12_5 (iblk12 V c 0 t) (iblk12 V c 1 t) (iblk12 V c 2 t) (iblk12 V c 3 t) (iblk12 V c 4 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) :
    (dat12 V c).after 5 t = out12_5 (iblk12 V c 0 t) (iblk12 V c 1 t) (iblk12 V c 2 t) (iblk12 V c 3 t) (iblk12 V c 4 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d

/-! ## The body obligation, at a generic point -/

/-- What the body is called with at point t, the windows one by one, -/
noncomputable def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d)))

/-- and what it returns. -/
noncomputable def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t))

/-- The body at any point: the inputs' buffers hold their blocks, so the body's triple applies; the invariant and
    what the core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4]
  rw [show (dat12 V c).Φ t.succ = (dat12 V c).Φ t.castSucc from rfl,
    show (dat12 V c).owesAt () t.succ = (dat12 V c).owesAt () t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ (grid12.coords t) _ _ _ _ _ _ _ _ _ _ _ _
    (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation12 (c : Dev nD) : BodyObligation (dat12 (F := F) V c) (defs₀ (F := F)) Variants.none () Set.univ := fun t => by
  rw [bigSep_W12, bigSep_W12]
  exact sound_body12 V c t

end Region12

end Cert.KernelIdeal.Hand

end
-- ==== Proof.KI.R13.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.Regions
import Idealize.ShloMosaic.Lib.Tactic

/-! # Region 13: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region13
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The rows of X: the staging buffer the body is handed holds the block of the point, whether the
    point fetched it or not (an unfetched input has not moved its block index). -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- The matrix W: fetched at the first point only, and found in place at every later one. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: each buffer whole -/

noncomputable abbrev r13_0 : Rect S2000x64 := Rect.unit (s := S2000x64) ![0, 0] S2000x64.size inb_S2000x64_S2000x64_0_0
noncomputable abbrev r13_1 : Rect S64x64 := Rect.unit (s := S64x64) ![0, 0] S64x64.size inb_S64x64_S64x64_0_0
noncomputable abbrev r13_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out13_2 (x0 : Vec F S2000x64 .f32) (x1 : Vec F S64x64 .f32) : Vec F S2000x64 .f32 :=
  View.canon [⟨r13_2, k13_pay1 (View.ld x0 r13_0) (View.ld x1 r13_1)⟩]

/-- The store's rectangle is the whole buffer, so it covers every index. -/
theorem cover13_2 (p0 : Vec F S2000x64 .f32) (y : S2000x64.Idx) :
    ∃ pc ∈ ([⟨r13_2, p0⟩] : List (View.Piece (Elt F) S2000x64 .f32)), y ∈ pc.1.set :=
  View.cover_of_tiled [⟨r13_2, p0⟩] S2000x64.size (by rfl) y

/-! ## The body's triple -/

set_option maxHeartbeats 1000000 in
/-- On whole staging memrefs, the inputs' holding x0 and x1 and the output's holding anything, the body
    runs to a state where the inputs' are unchanged and the output's holds out13_2 x0 x1. The body also reads
    the output buffer before storing into it; the value read is not used. -/
theorem sound_kernel13 (c : Dev nD) (E : Set ℕ) (i : grid13.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13_2 x0 x1)) -∗ K ⟨⟩))
      ⊢ wp frame (wpE (defs₀ (F := F)) Variants.none c none) E (cc13__linear_kernel i arg1 harg1 arg2 harg2 arg3 harg3) K := by
  simp only [cc13__linear_kernel_eq_skeleton]; unfold cc13__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-! ## The pipeline's proof data -/

/-- The arrays as the region finds them; after the body at point t the inputs' buffers at their blocks
    and the output's at the product block; the invariant is the scoped rest and the generator register,
    untouched; nothing owed; full shares. -/
noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-! ## The body obligation, at a generic point -/

/-- What the body is called with at point t, window by window, -/
noncomputable def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
noncomputable def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

/-- The inputs' memrefs hold their blocks, so the body's triple applies; the invariant and what the core
    owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ (grid13.coords t) _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation13 (c : Dev nD) : BodyObligation (dat13 (F := F) V c) (defs₀ (F := F)) Variants.none () Set.univ := fun t => by
  rw [bigSep_W13, bigSep_W13]
  exact sound_body13 V c t

end Region13

end Cert.KernelIdeal.Hand

end
-- ==== Proof.KI.R14.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, for any proof data whose array is
    `V`'s and whose body leaves the block in place: the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1 likewise: fetched at the first point only, its block index never moves, so the buffer holds
    the block at every point. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2 likewise. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-! ## The body's two conditions on the grid coordinate -/

/-- The first conditional's condition (the point is the grid's first), from the grid coordinate. -/
noncomputable abbrev cond14_0 (i : grid14.Coords) : Prop := (Scalar.cmpi .ne (Scalar.extui (Scalar.cmpi .eq (BitVec.ofNat 32 (i 0).val) 0#32)) 0#32) = 1#1
/-- It holds at the first point only. -/
theorem hcond14_0 : ∀ t : Fin cfg14.N, cond14_0 (grid14.coords t) ↔ t.val % 25 = 0 :=
  (by decide +kernel : ∀ t : Fin grid14.N, cond14_0 (grid14.coords t) ↔ t.val % 25 = 0)

/-- The second conditional's condition (the point is the grid's last). -/
noncomputable abbrev cond14_1 (i : grid14.Coords) : Prop := k14_cond2 i = 1#1
/-- It holds at the last point only. -/
theorem hcond14_1 : ∀ t : Fin cfg14.N, cond14_1 (grid14.coords t) ↔ t.val % 25 = 24 :=
  (by decide +kernel : ∀ t : Fin grid14.N, cond14_1 (grid14.coords t) ↔ t.val % 25 = 24)

/-! ## Where the windows are idle -/

theorem liveAt14_0 : ∀ t : Fin cfg14.N, cfg14.idle 0 (grid14.coords t) = false := by decide +kernel
theorem liveAt14_1 : ∀ t : Fin cfg14.N, cfg14.idle 1 (grid14.coords t) = false := by decide +kernel
theorem liveAt14_2 : ∀ t : Fin cfg14.N, cfg14.idle 2 (grid14.coords t) = false := by decide +kernel
theorem liveAt14_3 : ∀ t : Fin cfg14.N, cfg14.idle 3 (grid14.coords t) = false := by decide +kernel
theorem liveAt14_4 : ∀ t : Fin cfg14.N, cfg14.idle 4 (grid14.coords t) = false := by decide +kernel
/-- At the first point the body stores nothing into output 5: the window is idle there and not written back. -/
theorem idleAt14_5_A : ∀ t : Fin cfg14.N, cond14_0 (grid14.coords t) → ¬cond14_1 (grid14.coords t) → cfg14.idle 5 (grid14.coords t) = true := by decide +kernel
theorem noFlush14_5_A : ∀ t : Fin cfg14.N, cond14_0 (grid14.coords t) → ¬cond14_1 (grid14.coords t) → (cfg14.win 5).flush t = false := by decide +kernel
/-- Nor at the middle points. -/
theorem idleAt14_5_B : ∀ t : Fin cfg14.N, ¬cond14_0 (grid14.coords t) → ¬cond14_1 (grid14.coords t) → cfg14.idle 5 (grid14.coords t) = true := by decide +kernel
theorem noFlush14_5_B : ∀ t : Fin cfg14.N, ¬cond14_0 (grid14.coords t) → ¬cond14_1 (grid14.coords t) → (cfg14.win 5).flush t = false := by decide +kernel
/-- At the last point it stores the accumulated sums there: the window is live. -/
theorem liveAt14_5_C : ∀ t : Fin cfg14.N, ¬cond14_0 (grid14.coords t) → cond14_1 (grid14.coords t) → cfg14.idle 5 (grid14.coords t) = false := by decide +kernel

/-! ## The memrefs the body is called with -/

/-- One staging buffer of each output window, through which its contents are stated (the choice does not matter:
    a covering list of writes reads the same through any view). -/
noncomputable abbrev VO14_3 : View sig .tc .vmem S2000x64 .f32 := (Memref.whole cc14_stg3_0 : Memref sig .tc .vmem S2000x64 .f32).view
noncomputable abbrev VO14_4 : View sig .tc .vmem S2000x64 .f32 := (Memref.whole cc14_stg4_0 : Memref sig .tc .vmem S2000x64 .f32).view
noncomputable abbrev VO14_5 : View sig .tc .vmem S1x64 .f32 := (Memref.whole cc14_stg5_0 : Memref sig .tc .vmem S1x64 .f32).view
/-- Each window's current staging memref at point `t`, as the pipeline passes it, and its wholeness. -/
noncomputable abbrev ms14_0 (t : Fin cfg14.N) : Memref sig .tc .vmem S2000x64 .f32 := win14_0.stage (cfg14.slots t 0)
abbrev hs14_0 (t : Fin cfg14.N) : (ms14_0 t).IsWhole := hstage14_0 ((cfg14.slots t 0).cast nbuf14_0)
noncomputable abbrev ms14_1 (t : Fin cfg14.N) : Memref sig .tc .vmem S1x64 .f32 := win14_1.stage (cfg14.slots t 1)
abbrev hs14_1 (t : Fin cfg14.N) : (ms14_1 t).IsWhole := hstage14_1 ((cfg14.slots t 1).cast nbuf14_1)
noncomputable abbrev ms14_2 (t : Fin cfg14.N) : Memref sig .tc .vmem S2000x64 .f32 := win14_2.stage (cfg14.slots t 2)
abbrev hs14_2 (t : Fin cfg14.N) : (ms14_2 t).IsWhole := hstage14_2 ((cfg14.slots t 2).cast nbuf14_2)
noncomputable abbrev ms14_3 (t : Fin cfg14.N) : Memref sig .tc .vmem S2000x64 .f32 := win14_3.stage (cfg14.slots t 3)
abbrev hs14_3 (t : Fin cfg14.N) : (ms14_3 t).IsWhole := hstage14_3 ((cfg14.slots t 3).cast nbuf14_3)
noncomputable abbrev ms14_4 (t : Fin cfg14.N) : Memref sig .tc .vmem S2000x64 .f32 := win14_4.stage (cfg14.slots t 4)
abbrev hs14_4 (t : Fin cfg14.N) : (ms14_4 t).IsWhole := hstage14_4 ((cfg14.slots t 4).cast nbuf14_4)
noncomputable abbrev ms14_5 (t : Fin cfg14.N) : Memref sig .tc .vmem S1x64 .f32 := win14_5.stage (cfg14.slots t 5)
abbrev hs14_5 (t : Fin cfg14.N) : (ms14_5 t).IsWhole := hstage14_5 ((cfg14.slots t 5).cast nbuf14_5)
/-- The scratch operand: a whole scoped buffer of the kernel's own, in which the column sums accumulate. -/
noncomputable abbrev scM14_0 : Memref sig .tc .vmem S1x64 .f32 := Memref.whole cc14_scratch0
noncomputable abbrev VS14_0 : View sig .tc .vmem S1x64 .f32 := scM14_0.view

/-- The other scoped buffers (every other call's staging buffers and scratch), unopened. -/
noncomputable abbrev restBut14 (c : Dev nD) : sProp 𝕄 :=
  Pipeline.scopedRestBut (Ix := Unit) (Name := ℕ) (U := UR sig nD τ) (Lvl := ℕ) (Val := Elt F) spec14 c [cc14_scratch0]

/-- The region's invariant as the launch hands it over, with the scratch operand split out as a memref owned at
    some contents: what the body obligation hands the run and takes back. -/
theorem PhiA14_eq (c : Dev nD) :
    (Pipeline.ΦA spec14 c : sProp 𝕄)
      = iprop(iprop(iprop((∃ d, owns (c : Thread nD τ) scM14_0 fullShare d)) ∗ restBut14 (F := F) c) ∗ (∃ r, prngReg c r)) := by
  unfold Pipeline.ΦA; rw [scopedRest14_split]; simp only [scM14_0, owns_whole]; try rfl

-- (the run's proof term is large: the definition's epilogue walks it past the default budget)
set_option maxHeartbeats 1000000 in
/-- The body AT THE FIRST POINT (the first conditional taken, the second not): the scratch, at anything, is reset and then
    receives the block's column sums; outputs 3, 4 receive their blocks; output 5 is handed back untouched.
    What the stores leave in each buffer is given as pieces (last first), found by running the body: on whole
    memrefs, the inputs at their contents `x0`, `x1`, `x2`, the body runs to the continuation holding the inputs as they
    were and each stored buffer with its pieces written. -/
noncomputable def kernelRun14_A (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) :
    Σ' (L3 : List (View.Piece (Elt F) S2000x64 .f32)) (L4 : List (View.Piece (Elt F) S2000x64 .f32)) (L5 : List (View.Piece (Elt F) S1x64 .f32)), { LS0 : List (View.Piece (Elt F) S1x64 .f32) //
      ∀ (xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc14_kernel i arg1 harg1 arg2 harg2 arg3 harg3 arg4 harg4 arg5 harg5 arg6 harg6 arg7 harg7) K } := by
  refine ⟨?_, ?_, [], ?_, fun xi5 E K => ?run⟩
  case run =>
    simp only [cc14_kernel_eq_skeleton]; unfold cc14_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]
    · iexists _; isplitr; · ipureintro; exact harg6.read_unread _
      iexact H5
    iexists _; iexact HS0

-- (the run's proof term is large: the definition's epilogue walks it past the default budget)
set_option maxHeartbeats 1000000 in
/-- The body AT A MIDDLE POINT (neither conditional taken): the scratch, at what the point before left (`xs0`), receives the
    block's column sums added to it; outputs 3, 4 receive their blocks; output 5 is handed back untouched.
    What the stores leave in each buffer is given as pieces (last first), found by running the body: on whole
    memrefs, the inputs at their contents `x0`, `x1`, `x2`, the body runs to the continuation holding the inputs as they
    were and each stored buffer with its pieces written. -/
noncomputable def kernelRun14_B (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) :
    Σ' (L3 : List (View.Piece (Elt F) S2000x64 .f32)) (L4 : List (View.Piece (Elt F) S2000x64 .f32)) (L5 : List (View.Piece (Elt F) S1x64 .f32)), { LS0 : List (View.Piece (Elt F) S1x64 .f32) //
      ∀ (xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc14_kernel i arg1 harg1 arg2 harg2 arg3 harg3 arg4 harg4 arg5 harg5 arg6 harg6 arg7 harg7) K } := by
  refine ⟨?_, ?_, [], ?_, fun xi5 E K => ?run⟩
  case run =>
    simp only [cc14_kernel_eq_skeleton]; unfold cc14_kernel_skel
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]
    · iexists _; isplitr; · ipureintro; exact harg6.read_unread _
      iexact H5
    iexists _; iexact HS0

-- (the run's proof term is large: the definition's epilogue walks it past the default budget)
set_option maxHeartbeats 1000000 in
/-- The body AT THE LAST POINT (the second conditional taken, the first not): the scratch, at what the point before left
    (`xs0`), receives the block's column sums added to it and is then copied into output 5; outputs 3, 4 receive their blocks.
    What the stores leave in each buffer is given as pieces (last first), found by running the body: on whole
    memrefs, the inputs at their contents `x0`, `x1`, `x2`, the body runs to the continuation holding the inputs as they
    were and each stored buffer with its pieces written. -/
noncomputable def kernelRun14_C (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) :
    Σ' (L3 : List (View.Piece (Elt F) S2000x64 .f32)) (L4 : List (View.Piece (Elt F) S2000x64 .f32)) (L5 : List (View.Piece (Elt F) S1x64 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc14_kernel i arg1 harg1 arg2 harg2 arg3 harg3 arg4 harg4 arg5 harg5 arg6 harg6 arg7 harg7) K } := by
  refine ⟨?_, ?_, ?_, ?_, fun E K => ?run⟩
  case run =>
    simp only [cc14_kernel_eq_skeleton]; unfold cc14_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact HS0

/-- Case A: the one store into output 3 covers its block. -/
theorem cover14_A_3 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) (y : S2000x64.Idx) :
    ∃ pc ∈ (kernelRun14_A c i arg1 harg1 arg2 harg2 arg3 harg3 arg4 harg4 arg5 harg5 arg6 harg6 arg7 harg7 hc0 hc1 x0 x1 x2).1, y ∈ pc.1.set :=
  View.cover_of_tiledL (kernelRun14_A c i arg1 harg1 arg2 harg2 arg3 harg3 arg4 harg4 arg5 harg5 arg6 harg6 arg7 harg7 hc0 hc1 x0 x1 x2).1 S2000x64.size (by sl_kernel_rfl) y

/-- What case A leaves in output 3's staging buffer: its pieces read back. -/
noncomputable def out14_A_3 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) : Vec F S2000x64 .f32 :=
  VO14_3.read (Elt F) (VO14_3.writes (Elt F) VO14_3.junk (kernelRun14_A c i arg1 harg1 arg2 harg2 arg3 harg3 arg4 harg4 arg5 harg5 arg6 harg6 arg7 harg7 hc0 hc1 x0 x1 x2).1)

/-- Case A: the one store into output 4 covers its block. -/
theorem cover14_A_4 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) (y : S2000x64.Idx) :
    ∃ pc ∈ (kernelRun14_A c i arg1 harg1 arg2 harg2 arg3 harg3 arg4 harg4 arg5 harg5 arg6 harg6 arg7 harg7 hc0 hc1 x0 x1 x2).2.1, y ∈ pc.1.set :=
  View.cover_of_tiledL (kernelRun14_A c i arg1 harg1 arg2 harg2 arg3 harg3 arg4 harg4 arg5 harg5 arg6 harg6 arg7 harg7 hc0 hc1 x0 x1 x2).2.1 S2000x64.size (by sl_kernel_rfl) y

/-- What case A leaves in output 4's staging buffer: its pieces read back. -/
noncomputable def out14_A_4 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) : Vec F S2000x64 .f32 :=
  VO14_4.read (Elt F) (VO14_4.writes (Elt F) VO14_4.junk (kernelRun14_A c i arg1 harg1 arg2 harg2 arg3 harg3 arg4 harg4 arg5 harg5 arg6 harg6 arg7 harg7 hc0 hc1 x0 x1 x2).2.1)

/-- What case A leaves in output 5's staging buffer — nothing is stored: an arbitrary value that nothing consults
    (at these points the window is neither written back nor read at the next point). -/
noncomputable def out14_A_5 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) : Vec F S1x64 .f32 :=
  VO14_5.read (Elt F) (VO14_5.writes (Elt F) VO14_5.junk (kernelRun14_A c i arg1 harg1 arg2 harg2 arg3 harg3 arg4 harg4 arg5 harg5 arg6 harg6 arg7 harg7 hc0 hc1 x0 x1 x2).2.2.1)

/-- Case A: the stores into the scratch cover it. -/
theorem scover14_A_0 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) (y : S1x64.Idx) :
    ∃ pc ∈ (kernelRun14_A c i arg1 harg1 arg2 harg2 arg3 harg3 arg4 harg4 arg5 harg5 arg6 harg6 arg7 harg7 hc0 hc1 x0 x1 x2).2.2.2.1, y ∈ pc.1.set :=
  View.cover_of_tiledL (kernelRun14_A c i arg1 harg1 arg2 harg2 arg3 harg3 arg4 harg4 arg5 harg5 arg6 harg6 arg7 harg7 hc0 hc1 x0 x1 x2).2.2.2.1 S1x64.size (by sl_kernel_rfl) y

/-- What case A leaves in the scratch: its pieces read back. -/
noncomputable def sout14_A_0 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : cond14_0 i) (hc1 : ¬cond14_1 i)
    (x0 : Vec F S2000x64 .f32) (x1 : Vec F S1x64 .f32) (x2 : Vec F S2000x64 .f32) : Vec F S1x64 .f32 :=
  VS14_0.read (Elt F) (VS14_0.writes (Elt F) VS14_0.junk (kernelRun14_A c i arg1 harg1 arg2 harg2 arg3 harg3 arg4 harg4 arg5 harg5 arg6 harg6 arg7 harg7 hc0 hc1 x0 x1 x2).2.2.2.1)

/-- Case B: the one store into output 3 covers its block. -/
theorem cover14_B_3 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) (y : S2000x64.Idx) :
    ∃ pc ∈ (kernelRun14_B c i arg1 harg1 arg2 harg2 arg3 harg3 arg4 harg4 arg5 harg5 arg6 harg6 arg7 harg7 hc0 hc1 x0 x1 x2 xs0).1, y ∈ pc.1.set :=
  View.cover_of_tiledL (kernelRun14_B c i arg1 harg1 arg2 harg2 arg3 harg3 arg4 harg4 arg5 harg5 arg6 harg6 arg7 harg7 hc0 hc1 x0 x1 x2 xs0).1 S2000x64.size (by sl_kernel_rfl) y

/-- What case B leaves in output 3's staging buffer: its pieces read back. -/
noncomputable def out14_B_3 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) : Vec F S2000x64 .f32 :=
  VO14_3.read (Elt F) (VO14_3.writes (Elt F) VO14_3.junk (kernelRun14_B c i arg1 harg1 arg2 harg2 arg3 harg3 arg4 harg4 arg5 harg5 arg6 harg6 arg7 harg7 hc0 hc1 x0 x1 x2 xs0).1)

/-- Case B: the one store into output 4 covers its block. -/
theorem cover14_B_4 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) (y : S2000x64.Idx) :
    ∃ pc ∈ (kernelRun14_B c i arg1 harg1 arg2 harg2 arg3 harg3 arg4 harg4 arg5 harg5 arg6 harg6 arg7 harg7 hc0 hc1 x0 x1 x2 xs0).2.1, y ∈ pc.1.set :=
  View.cover_of_tiledL (kernelRun14_B c i arg1 harg1 arg2 harg2 arg3 harg3 arg4 harg4 arg5 harg5 arg6 harg6 arg7 harg7 hc0 hc1 x0 x1 x2 xs0).2.1 S2000x64.size (by sl_kernel_rfl) y

/-- What case B leaves in output 4's staging buffer: its pieces read back. -/
noncomputable def out14_B_4 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) : Vec F S2000x64 .f32 :=
  VO14_4.read (Elt F) (VO14_4.writes (Elt F) VO14_4.junk (kernelRun14_B c i arg1 harg1 arg2 harg2 arg3 harg3 arg4 harg4 arg5 harg5 arg6 harg6 arg7 harg7 hc0 hc1 x0 x1 x2 xs0).2.1)

/-- What case B leaves in output 5's staging buffer — nothing is stored: an arbitrary value that nothing consults
    (at these points the window is neither written back nor read at the next point). -/
noncomputable def out14_B_5 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) : Vec F S1x64 .f32 :=
  VO14_5.read (Elt F) (VO14_5.writes (Elt F) VO14_5.junk (kernelRun14_B c i arg1 harg1 arg2 harg2 arg3 harg3 arg4 harg4 arg5 harg5 arg6 harg6 arg7 harg7 hc0 hc1 x0 x1 x2 xs0).2.2.1)

/-- Case B: the stores into the scratch cover it. -/
theorem scover14_B_0 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) (y : S1x64.Idx) :
    ∃ pc ∈ (kernelRun14_B c i arg1 harg1 arg2 harg2 arg3 harg3 arg4 harg4 arg5 harg5 arg6 harg6 arg7 harg7 hc0 hc1 x0 x1 x2 xs0).2.2.2.1, y ∈ pc.1.set :=
  View.cover_of_tiledL (kernelRun14_B c i arg1 harg1 arg2 harg2 arg3 harg3 arg4 harg4 arg5 harg5 arg6 harg6 arg7 harg7 hc0 hc1 x0 x1 x2 xs0).2.2.2.1 S1x64.size (by sl_kernel_rfl) y

/-- What case B leaves in the scratch: its pieces read back. -/
noncomputable def sout14_B_0 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : ¬cond14_1 i)
    (x0 : Vec F S2000x64 .f32) (x1 : Vec F S1x64 .f32) (x2 : Vec F S2000x64 .f32) (xs0 : Vec F S1x64 .f32) : Vec F S1x64 .f32 :=
  VS14_0.read (Elt F) (VS14_0.writes (Elt F) VS14_0.junk (kernelRun14_B c i arg1 harg1 arg2 harg2 arg3 harg3 arg4 harg4 arg5 harg5 arg6 harg6 arg7 harg7 hc0 hc1 x0 x1 x2 xs0).2.2.2.1)

/-- Case C: the one store into output 3 covers its block. -/
theorem cover14_C_3 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) (y : S2000x64.Idx) :
    ∃ pc ∈ (kernelRun14_C c i arg1 harg1 arg2 harg2 arg3 harg3 arg4 harg4 arg5 harg5 arg6 harg6 arg7 harg7 hc0 hc1 x0 x1 x2 xs0).1, y ∈ pc.1.set :=
  View.cover_of_tiledL (kernelRun14_C c i arg1 harg1 arg2 harg2 arg3 harg3 arg4 harg4 arg5 harg5 arg6 harg6 arg7 harg7 hc0 hc1 x0 x1 x2 xs0).1 S2000x64.size (by sl_kernel_rfl) y

/-- What case C leaves in output 3's staging buffer: its pieces read back. -/
noncomputable def out14_C_3 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) : Vec F S2000x64 .f32 :=
  VO14_3.read (Elt F) (VO14_3.writes (Elt F) VO14_3.junk (kernelRun14_C c i arg1 harg1 arg2 harg2 arg3 harg3 arg4 harg4 arg5 harg5 arg6 harg6 arg7 harg7 hc0 hc1 x0 x1 x2 xs0).1)

/-- Case C: the one store into output 4 covers its block. -/
theorem cover14_C_4 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) (y : S2000x64.Idx) :
    ∃ pc ∈ (kernelRun14_C c i arg1 harg1 arg2 harg2 arg3 harg3 arg4 harg4 arg5 harg5 arg6 harg6 arg7 harg7 hc0 hc1 x0 x1 x2 xs0).2.1, y ∈ pc.1.set :=
  View.cover_of_tiledL (kernelRun14_C c i arg1 harg1 arg2 harg2 arg3 harg3 arg4 harg4 arg5 harg5 arg6 harg6 arg7 harg7 hc0 hc1 x0 x1 x2 xs0).2.1 S2000x64.size (by sl_kernel_rfl) y

/-- What case C leaves in output 4's staging buffer: its pieces read back. -/
noncomputable def out14_C_4 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) : Vec F S2000x64 .f32 :=
  VO14_4.read (Elt F) (VO14_4.writes (Elt F) VO14_4.junk (kernelRun14_C c i arg1 harg1 arg2 harg2 arg3 harg3 arg4 harg4 arg5 harg5 arg6 harg6 arg7 harg7 hc0 hc1 x0 x1 x2 xs0).2.1)

/-- Case C: the one store into output 5 covers its block. -/
theorem cover14_C_5 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) (y : S1x64.Idx) :
    ∃ pc ∈ (kernelRun14_C c i arg1 harg1 arg2 harg2 arg3 harg3 arg4 harg4 arg5 harg5 arg6 harg6 arg7 harg7 hc0 hc1 x0 x1 x2 xs0).2.2.1, y ∈ pc.1.set :=
  View.cover_of_tiledL (kernelRun14_C c i arg1 harg1 arg2 harg2 arg3 harg3 arg4 harg4 arg5 harg5 arg6 harg6 arg7 harg7 hc0 hc1 x0 x1 x2 xs0).2.2.1 S1x64.size (by sl_kernel_rfl) y

/-- What case C leaves in output 5's staging buffer: its pieces read back. -/
noncomputable def out14_C_5 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) : Vec F S1x64 .f32 :=
  VO14_5.read (Elt F) (VO14_5.writes (Elt F) VO14_5.junk (kernelRun14_C c i arg1 harg1 arg2 harg2 arg3 harg3 arg4 harg4 arg5 harg5 arg6 harg6 arg7 harg7 hc0 hc1 x0 x1 x2 xs0).2.2.1)

/-- Case C: the stores into the scratch cover it. -/
theorem scover14_C_0 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) (y : S1x64.Idx) :
    ∃ pc ∈ (kernelRun14_C c i arg1 harg1 arg2 harg2 arg3 harg3 arg4 harg4 arg5 harg5 arg6 harg6 arg7 harg7 hc0 hc1 x0 x1 x2 xs0).2.2.2.1, y ∈ pc.1.set :=
  View.cover_of_tiledL (kernelRun14_C c i arg1 harg1 arg2 harg2 arg3 harg3 arg4 harg4 arg5 harg5 arg6 harg6 arg7 harg7 hc0 hc1 x0 x1 x2 xs0).2.2.2.1 S1x64.size (by sl_kernel_rfl) y

/-- What case C leaves in the scratch: its pieces read back. -/
noncomputable def sout14_C_0 (c : Dev nD) (i : grid14.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S1x64 .f32) (harg7 : arg7.IsWhole) (hc0 : ¬cond14_0 i) (hc1 : cond14_1 i)
    (x0 : Vec F S2000x64 .f32) (x1 : Vec F S1x64 .f32) (x2 : Vec F S2000x64 .f32) (xs0 : Vec F S1x64 .f32) : Vec F S1x64 .f32 :=
  VS14_0.read (Elt F) (VS14_0.writes (Elt F) VS14_0.junk (kernelRun14_C c i arg1 harg1 arg2 harg2 arg3 harg3 arg4 harg4 arg5 harg5 arg6 harg6 arg7 harg7 hc0 hc1 x0 x1 x2 xs0).2.2.2.1)

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt14 (c : Dev nD) : (n : ℕ) → n < cfg14.N → Vec F S2000x64 .f32 × Vec F S2000x64 .f32 × Vec F S1x64 .f32 × Vec F S1x64 .f32
  | 0, hn => (out14_A_3 c (grid14.coords ⟨0, hn⟩) (ms14_0 ⟨0, hn⟩) (hs14_0 ⟨0, hn⟩) (ms14_1 ⟨0, hn⟩) (hs14_1 ⟨0, hn⟩) (ms14_2 ⟨0, hn⟩) (hs14_2 ⟨0, hn⟩) (ms14_3 ⟨0, hn⟩) (hs14_3 ⟨0, hn⟩) (ms14_4 ⟨0, hn⟩) (hs14_4 ⟨0, hn⟩) (ms14_5 ⟨0, hn⟩) (hs14_5 ⟨0, hn⟩) scM14_0 (Memref.isWhole_whole _) ((hcond14_0 ⟨0, hn⟩).mpr (Nat.zero_mod _)) (fun h => (fun h => by (try dsimp only at h); omega) ((hcond14_1 ⟨0, hn⟩).mp h)) (iblk14 V c 0 ⟨0, hn⟩) (iblk14 V c 1 ⟨0, hn⟩) (iblk14 V c 2 ⟨0, hn⟩), out14_A_4 c (grid14.coords ⟨0, hn⟩) (ms14_0 ⟨0, hn⟩) (hs14_0 ⟨0, hn⟩) (ms14_1 ⟨0, hn⟩) (hs14_1 ⟨0, hn⟩) (ms14_2 ⟨0, hn⟩) (hs14_2 ⟨0, hn⟩) (ms14_3 ⟨0, hn⟩) (hs14_3 ⟨0, hn⟩) (ms14_4 ⟨0, hn⟩) (hs14_4 ⟨0, hn⟩) (ms14_5 ⟨0, hn⟩) (hs14_5 ⟨0, hn⟩) scM14_0 (Memref.isWhole_whole _) ((hcond14_0 ⟨0, hn⟩).mpr (Nat.zero_mod _)) (fun h => (fun h => by (try dsimp only at h); omega) ((hcond14_1 ⟨0, hn⟩).mp h)) (iblk14 V c 0 ⟨0, hn⟩) (iblk14 V c 1 ⟨0, hn⟩) (iblk14 V c 2 ⟨0, hn⟩), out14_A_5 c (grid14.coords ⟨0, hn⟩) (ms14_0 ⟨0, hn⟩) (hs14_0 ⟨0, hn⟩) (ms14_1 ⟨0, hn⟩) (hs14_1 ⟨0, hn⟩) (ms14_2 ⟨0, hn⟩) (hs14_2 ⟨0, hn⟩) (ms14_3 ⟨0, hn⟩) (hs14_3 ⟨0, hn⟩) (ms14_4 ⟨0, hn⟩) (hs14_4 ⟨0, hn⟩) (ms14_5 ⟨0, hn⟩) (hs14_5 ⟨0, hn⟩) scM14_0 (Memref.isWhole_whole _) ((hcond14_0 ⟨0, hn⟩).mpr (Nat.zero_mod _)) (fun h => (fun h => by (try dsimp only at h); omega) ((hcond14_1 ⟨0, hn⟩).mp h)) (iblk14 V c 0 ⟨0, hn⟩) (iblk14 V c 1 ⟨0, hn⟩) (iblk14 V c 2 ⟨0, hn⟩), sout14_A_0 c (grid14.coords ⟨0, hn⟩) (ms14_0 ⟨0, hn⟩) (hs14_0 ⟨0, hn⟩) (ms14_1 ⟨0, hn⟩) (hs14_1 ⟨0, hn⟩) (ms14_2 ⟨0, hn⟩) (hs14_2 ⟨0, hn⟩) (ms14_3 ⟨0, hn⟩) (hs14_3 ⟨0, hn⟩) (ms14_4 ⟨0, hn⟩) (hs14_4 ⟨0, hn⟩) (ms14_5 ⟨0, hn⟩) (hs14_5 ⟨0, hn⟩) scM14_0 (Memref.isWhole_whole _) ((hcond14_0 ⟨0, hn⟩).mpr (Nat.zero_mod _)) (fun h => (fun h => by (try dsimp only at h); omega) ((hcond14_1 ⟨0, hn⟩).mp h)) (iblk14 V c 0 ⟨0, hn⟩) (iblk14 V c 1 ⟨0, hn⟩) (iblk14 V c 2 ⟨0, hn⟩))
  | n + 1, hn =>
    if h0 : (n + 1) % 25 = 0 then
      if h1 : (n + 1) % 25 = 24 then
        False.elim (by omega)
      else
        (out14_A_3 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) ((hcond14_0 ⟨n + 1, hn⟩).mpr h0) (fun h => h1 ((hcond14_1 ⟨n + 1, hn⟩).mp h)) (iblk14 V c 0 ⟨n + 1, hn⟩) (iblk14 V c 1 ⟨n + 1, hn⟩) (iblk14 V c 2 ⟨n + 1, hn⟩), out14_A_4 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) ((hcond14_0 ⟨n + 1, hn⟩).mpr h0) (fun h => h1 ((hcond14_1 ⟨n + 1, hn⟩).mp h)) (iblk14 V c 0 ⟨n + 1, hn⟩) (iblk14 V c 1 ⟨n + 1, hn⟩) (iblk14 V c 2 ⟨n + 1, hn⟩), out14_A_5 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) ((hcond14_0 ⟨n + 1, hn⟩).mpr h0) (fun h => h1 ((hcond14_1 ⟨n + 1, hn⟩).mp h)) (iblk14 V c 0 ⟨n + 1, hn⟩) (iblk14 V c 1 ⟨n + 1, hn⟩) (iblk14 V c 2 ⟨n + 1, hn⟩), sout14_A_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) ((hcond14_0 ⟨n + 1, hn⟩).mpr h0) (fun h => h1 ((hcond14_1 ⟨n + 1, hn⟩).mp h)) (iblk14 V c 0 ⟨n + 1, hn⟩) (iblk14 V c 1 ⟨n + 1, hn⟩) (iblk14 V c 2 ⟨n + 1, hn⟩))
    else
      if h1 : (n + 1) % 25 = 24 then
        (out14_C_3 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (iblk14 V c 2 ⟨n + 1, hn⟩) (outsAt14 c n (Nat.lt_of_succ_lt hn)).2.2.2, out14_C_4 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (iblk14 V c 2 ⟨n + 1, hn⟩) (outsAt14 c n (Nat.lt_of_succ_lt hn)).2.2.2, out14_C_5 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (iblk14 V c 2 ⟨n + 1, hn⟩) (outsAt14 c n (Nat.lt_of_succ_lt hn)).2.2.2, sout14_C_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) ((hcond14_1 ⟨n + 1, hn⟩).mpr h1) (iblk14 V c 0 ⟨n + 1, hn⟩) (iblk14 V c 1 ⟨n + 1, hn⟩) (iblk14 V c 2 ⟨n + 1, hn⟩) (outsAt14 c n (Nat.lt_of_succ_lt hn)).2.2.2)
      else
        (out14_B_3 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) (fun h => h1 ((hcond14_1 ⟨n + 1, hn⟩).mp h)) (iblk14 V c 0 ⟨n + 1, hn⟩) (iblk14 V c 1 ⟨n + 1, hn⟩) (iblk14 V c 2 ⟨n + 1, hn⟩) (outsAt14 c n (Nat.lt_of_succ_lt hn)).2.2.2, out14_B_4 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) (fun h => h1 ((hcond14_1 ⟨n + 1, hn⟩).mp h)) (iblk14 V c 0 ⟨n + 1, hn⟩) (iblk14 V c 1 ⟨n + 1, hn⟩) (iblk14 V c 2 ⟨n + 1, hn⟩) (outsAt14 c n (Nat.lt_of_succ_lt hn)).2.2.2, out14_B_5 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) (fun h => h1 ((hcond14_1 ⟨n + 1, hn⟩).mp h)) (iblk14 V c 0 ⟨n + 1, hn⟩) (iblk14 V c 1 ⟨n + 1, hn⟩) (iblk14 V c 2 ⟨n + 1, hn⟩) (outsAt14 c n (Nat.lt_of_succ_lt hn)).2.2.2, sout14_B_0 c (grid14.coords ⟨n + 1, hn⟩) (ms14_0 ⟨n + 1, hn⟩) (hs14_0 ⟨n + 1, hn⟩) (ms14_1 ⟨n + 1, hn⟩) (hs14_1 ⟨n + 1, hn⟩) (ms14_2 ⟨n + 1, hn⟩) (hs14_2 ⟨n + 1, hn⟩) (ms14_3 ⟨n + 1, hn⟩) (hs14_3 ⟨n + 1, hn⟩) (ms14_4 ⟨n + 1, hn⟩) (hs14_4 ⟨n + 1, hn⟩) (ms14_5 ⟨n + 1, hn⟩) (hs14_5 ⟨n + 1, hn⟩) scM14_0 (Memref.isWhole_whole _) (fun h => h0 ((hcond14_0 ⟨n + 1, hn⟩).mp h)) (fun h => h1 ((hcond14_1 ⟨n + 1, hn⟩).mp h)) (iblk14 V c 0 ⟨n + 1, hn⟩) (iblk14 V c 1 ⟨n + 1, hn⟩) (iblk14 V c 2 ⟨n + 1, hn⟩) (outsAt14 c n (Nat.lt_of_succ_lt hn)).2.2.2)

/-- `outsAt14` at the first point: case A's contents. -/
theorem outsAt14_A (c : Dev nD) (t : Fin cfg14.N) (h0 : t.val % 25 = 0) (h1 : ¬t.val % 25 = 24) :
    outsAt14 V c t.val t.isLt = (out14_A_3 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) ((hcond14_0 t).mpr h0) (fun h => h1 ((hcond14_1 t).mp h)) (iblk14 V c 0 t) (iblk14 V c 1 t) (iblk14 V c 2 t), out14_A_4 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) ((hcond14_0 t).mpr h0) (fun h => h1 ((hcond14_1 t).mp h)) (iblk14 V c 0 t) (iblk14 V c 1 t) (iblk14 V c 2 t), out14_A_5 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) ((hcond14_0 t).mpr h0) (fun h => h1 ((hcond14_1 t).mp h)) (iblk14 V c 0 t) (iblk14 V c 1 t) (iblk14 V c 2 t), sout14_A_0 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) ((hcond14_0 t).mpr h0) (fun h => h1 ((hcond14_1 t).mp h)) (iblk14 V c 0 t) (iblk14 V c 1 t) (iblk14 V c 2 t)) := by
  obtain ⟨n, hn⟩ := t
  cases n with
  | zero => exact rfl
  | succ n => exact (dif_pos h0).trans ((dif_neg h1).trans rfl)

/-- `outsAt14` at a middle point: case B's contents, over what the point before left in the scratch. -/
theorem outsAt14_B (c : Dev nD) (t : Fin cfg14.N) (h0 : ¬t.val % 25 = 0) (h1 : ¬t.val % 25 = 24) :
    outsAt14 V c t.val t.isLt = (out14_B_3 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) (fun h => h1 ((hcond14_1 t).mp h)) (iblk14 V c 0 t) (iblk14 V c 1 t) (iblk14 V c 2 t) (outsAt14 V c (t.val - 1) (Nat.lt_of_le_of_lt (Nat.sub_le _ _) t.isLt)).2.2.2, out14_B_4 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) (fun h => h1 ((hcond14_1 t).mp h)) (iblk14 V c 0 t) (iblk14 V c 1 t) (iblk14 V c 2 t) (outsAt14 V c (t.val - 1) (Nat.lt_of_le_of_lt (Nat.sub_le _ _) t.isLt)).2.2.2, out14_B_5 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) (fun h => h1 ((hcond14_1 t).mp h)) (iblk14 V c 0 t) (iblk14 V c 1 t) (iblk14 V c 2 t) (outsAt14 V c (t.val - 1) (Nat.lt_of_le_of_lt (Nat.sub_le _ _) t.isLt)).2.2.2, sout14_B_0 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) (fun h => h1 ((hcond14_1 t).mp h)) (iblk14 V c 0 t) (iblk14 V c 1 t) (iblk14 V c 2 t) (outsAt14 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt14` at the last point: case C's contents, over what the point before left in the scratch. -/
theorem outsAt14_C (c : Dev nD) (t : Fin cfg14.N) (h0 : ¬t.val % 25 = 0) (h1 : t.val % 25 = 24) :
    outsAt14 V c t.val t.isLt = (out14_C_3 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) ((hcond14_1 t).mpr h1) (iblk14 V c 0 t) (iblk14 V c 1 t) (iblk14 V c 2 t) (outsAt14 V c (t.val - 1) (Nat.lt_of_le_of_lt (Nat.sub_le _ _) t.isLt)).2.2.2, out14_C_4 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) ((hcond14_1 t).mpr h1) (iblk14 V c 0 t) (iblk14 V c 1 t) (iblk14 V c 2 t) (outsAt14 V c (t.val - 1) (Nat.lt_of_le_of_lt (Nat.sub_le _ _) t.isLt)).2.2.2, out14_C_5 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) ((hcond14_1 t).mpr h1) (iblk14 V c 0 t) (iblk14 V c 1 t) (iblk14 V c 2 t) (outsAt14 V c (t.val - 1) (Nat.lt_of_le_of_lt (Nat.sub_le _ _) t.isLt)).2.2.2, sout14_C_0 c (grid14.coords t) (ms14_0 t) (hs14_0 t) (ms14_1 t) (hs14_1 t) (ms14_2 t) (hs14_2 t) (ms14_3 t) (hs14_3 t) (ms14_4 t) (hs14_4 t) (ms14_5 t) (hs14_5 t) scM14_0 (Memref.isWhole_whole _) (fun h => h0 ((hcond14_0 t).mp h)) ((hcond14_1 t).mpr h1) (iblk14 V c 0 t) (iblk14 V c 1 t) (iblk14 V c 2 t) (outsAt14 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt14`'s last component), the other
    scoped buffers unopened and the generator register at some state. -/
noncomputable def PhiS14 (c : Dev nD) : (n : ℕ) → n ≤ cfg14.N → sProp 𝕄
  | 0, _ => Pipeline.ΦA spec14 c
  | n + 1, hn => iprop(iprop(iprop(owns (c : Thread nD τ) scM14_0 fullShare ((outsAt14 V c n hn).2.2.2)) ∗ restBut14 (F := F) c) ∗ (∃ r, prngReg c r))

theorem PhiS14_zero (c : Dev nD) (n : ℕ) (h : n ≤ cfg14.N) (hz : n = 0) : PhiS14 V c n h = Pipeline.ΦA spec14 c := by
  subst hz; rfl

/-- After point `n` (before point `n + 1`): the scratch at that point's contents. -/
theorem PhiS14_succ (c : Dev nD) (n : ℕ) (hn : n < cfg14.N) :
    PhiS14 V c (n + 1) hn = iprop(iprop(iprop(owns (c : Thread nD τ) scM14_0 fullShare ((outsAt14 V c n hn).2.2.2)) ∗ restBut14 (F := F) c) ∗ (∃ r, prngReg c r)) := rfl

/-- Before a point that is not the first: the scratch at what the point before left. -/
theorem PhiS14_pos (c : Dev nD) (n : ℕ) (h : n ≤ cfg14.N) (hz : n ≠ 0) :
    PhiS14 V c n h = iprop(iprop(iprop(owns (c : Thread nD τ) scM14_0 fullShare ((outsAt14 V c (n - 1) (by omega)).2.2.2)) ∗ restBut14 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt14`; the invariant `PhiS14`; nothing owed;
    full shares. -/
noncomputable def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => (outsAt14 V c t.val t.isLt).1
    | ⟨4, _⟩ => (outsAt14 V c t.val t.isLt).2.1
    | ⟨5, _⟩ => (outsAt14 V c t.val t.isLt).2.2.1
  Φ t := PhiS14 V c t.val (Nat.le_of_lt_succ t.isLt)
  q _ := fullShare
  owed _ := 0

/-- The proof data's arrays are the region-entry contents. -/
theorem A_eq14 (c : Dev nD) (w : Fin cfg14.W) : (dat14 V c).A w = V c (Pipeline.arrRef spec14 w) := by
  dsimp only [dat14]

/-- The invariant at a point's start, restated at `t.val`. -/
theorem PhiS14_castSucc (c : Dev nD) (t : Fin cfg14.N) :
    (dat14 V c).Φ t.castSucc = PhiS14 V c t.val (Nat.le_of_lt t.isLt) := by
  dsimp only [dat14]; simp only [Fin.coe_castSucc]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = (outsAt14 V c t.val t.isLt).1 := by dsimp only [dat14]
theorem after14_4 (c : Dev nD) (t : Fin cfg14.N) : (dat14 V c).after 4 t = (outsAt14 V c t.val t.isLt).2.1 := by dsimp only [dat14]
theorem after14_5 (c : Dev nD) (t : Fin cfg14.N) : (dat14 V c).after 5 t = (outsAt14 V c t.val t.isLt).2.2.1 := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body obligation, at a generic point -/

/-- What the body is called with at point `t` (the windows one by one), -/
noncomputable def bodyPre14 (c : Dev nD) (t : Fin cfg14.N) : sProp 𝕄 :=
  iprop((dat14 V c).Φ t.castSucc ∗ (dat14 V c).owesAt () t.castSucc
    ∗ (∃ d, owns (c : Thread nD τ) (ms14_0 t) fullShare ((dat14 V c).before 0 t d))
    ∗ (∃ d, owns (c : Thread nD τ) (ms14_1 t) fullShare ((dat14 V c).before 1 t d))
    ∗ (∃ d, owns (c : Thread nD τ) (ms14_2 t) fullShare ((dat14 V c).before 2 t d))
    ∗ (∃ d, owns (c : Thread nD τ) (ms14_3 t) fullShare ((dat14 V c).before 3 t d))
    ∗ (∃ d, owns (c : Thread nD τ) (ms14_4 t) fullShare ((dat14 V c).before 4 t d))
    ∗ (∃ d, owns (c : Thread nD τ) (ms14_5 t) fullShare ((dat14 V c).before 5 t d)))

/-- and what it returns. -/
noncomputable def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t
    ∗ (dat14 V c).leavesExact 3 t
    ∗ (dat14 V c).leavesExact 4 t
    ∗ (dat14 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).owesAt () t.succ = (dat14 V c).owesAt () t.castSucc from rfl]
  rw [show (dat14 V c).Φ t.succ = PhiS14 V c (t.val + 1) t.isLt from rfl, PhiS14_succ]
  have hN : t.val < 25 := lt_of_lt_of_eq t.isLt (show cfg14.N = 25 from N_14)
  by_cases h0 : t.val % 25 = 0
  · by_cases h1 : t.val % 25 = 24
    · exfalso; omega
    · rw [show (dat14 V c).leavesExact 0 t = owns (c : Thread nD τ) (ms14_0 t) fullShare ((dat14 V c).after 0 t) from by
        unfold Dat.leavesExact; rw [liveAt14_0 t], after14_0]
      rw [show (dat14 V c).leavesExact 1 t = owns (c : Thread nD τ) (ms14_1 t) fullShare ((dat14 V c).after 1 t) from by
        unfold Dat.leavesExact; rw [liveAt14_1 t], after14_1]
      rw [show (dat14 V c).leavesExact 2 t = owns (c : Thread nD τ) (ms14_2 t) fullShare ((dat14 V c).after 2 t) from by
        unfold Dat.leavesExact; rw [liveAt14_2 t], after14_2]
      rw [show (dat14 V c).leavesExact 3 t = owns (c : Thread nD τ) (ms14_3 t) fullShare ((dat14 V c).after 3 t) from by
        unfold Dat.leavesExact; rw [liveAt14_3 t], after14_3]
      rw [show (dat14 V c).leavesExact 4 t = owns (c : Thread nD τ) (ms14_4 t) fullShare ((dat14 V c).after 4 t) from by
        unfold Dat.leavesExact; rw [liveAt14_4 t], after14_4]
      rw [Dat.leavesExact_idle (dat14 V c) 5 t (idleAt14_5_A t ((hcond14_0 t).mpr h0) (fun h => h1 ((hcond14_1 t).mp h))) (noFlush14_5_A t ((hcond14_0 t).mpr h0) (fun h => h1 ((hcond14_1 t).mp h)))]
      rw [outsAt14_A V c t h0 h1]
      unfold out14_A_3 out14_A_4 sout14_A_0; (try dsimp only)
      by_cases hz : t.val = 0
      · rw [PhiS14_castSucc V c t, PhiS14_zero V c _ _ hz, PhiA14_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid14.coords t) _ _ _ _ _ _ _ _ _ _ _ _ _ _ ((hcond14_0 t).mpr h0) (fun h => h1 ((hcond14_1 t).mp h)) (iblk14 V c 0 t) (iblk14 V c 1 t) (iblk14 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat14 V c).leavesExact 0 t = owns (c : Thread nD τ) (ms14_0 t) fullShare ((dat14 V c).after 0 t) from by
        unfold Dat.leavesExact; rw [liveAt14_0 t], after14_0]
      rw [show (dat14 V c).leavesExact 1 t = owns (c : Thread nD τ) (ms14_1 t) fullShare ((dat14 V c).after 1 t) from by
        unfold Dat.leavesExact; rw [liveAt14_1 t], after14_1]
      rw [show (dat14 V c).leavesExact 2 t = owns (c : Thread nD τ) (ms14_2 t) fullShare ((dat14 V c).after 2 t) from by
        unfold Dat.leavesExact; rw [liveAt14_2 t], after14_2]
      rw [show (dat14 V c).leavesExact 3 t = owns (c : Thread nD τ) (ms14_3 t) fullShare ((dat14 V c).after 3 t) from by
        unfold Dat.leavesExact; rw [liveAt14_3 t], after14_3]
      rw [show (dat14 V c).leavesExact 4 t = owns (c : Thread nD τ) (ms14_4 t) fullShare ((dat14 V c).after 4 t) from by
        unfold Dat.leavesExact; rw [liveAt14_4 t], after14_4]
      rw [show (dat14 V c).leavesExact 5 t = owns (c : Thread nD τ) (ms14_5 t) fullShare ((dat14 V c).after 5 t) from by
        unfold Dat.leavesExact; rw [liveAt14_5_C t (fun h => h0 ((hcond14_0 t).mp h)) ((hcond14_1 t).mpr h1)], after14_5]
      rw [outsAt14_C V c t h0 h1]
      unfold out14_C_3 out14_C_4 out14_C_5 sout14_C_0; (try dsimp only)
      by_cases hz : t.val = 0
      · exfalso; omega
      · rw [PhiS14_castSucc V c t, PhiS14_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid14.coords t) _ _ _ _ _ _ _ _ _ _ _ _ _ _ (fun h => h0 ((hcond14_0 t).mp h)) ((hcond14_1 t).mpr h1) (iblk14 V c 0 t) (iblk14 V c 1 t) (iblk14 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat14 V c).leavesExact 0 t = owns (c : Thread nD τ) (ms14_0 t) fullShare ((dat14 V c).after 0 t) from by
        unfold Dat.leavesExact; rw [liveAt14_0 t], after14_0]
      rw [show (dat14 V c).leavesExact 1 t = owns (c : Thread nD τ) (ms14_1 t) fullShare ((dat14 V c).after 1 t) from by
        unfold Dat.leavesExact; rw [liveAt14_1 t], after14_1]
      rw [show (dat14 V c).leavesExact 2 t = owns (c : Thread nD τ) (ms14_2 t) fullShare ((dat14 V c).after 2 t) from by
        unfold Dat.leavesExact; rw [liveAt14_2 t], after14_2]
      rw [show (dat14 V c).leavesExact 3 t = owns (c : Thread nD τ) (ms14_3 t) fullShare ((dat14 V c).after 3 t) from by
        unfold Dat.leavesExact; rw [liveAt14_3 t], after14_3]
      rw [show (dat14 V c).leavesExact 4 t = owns (c : Thread nD τ) (ms14_4 t) fullShare ((dat14 V c).after 4 t) from by
        unfold Dat.leavesExact; rw [liveAt14_4 t], after14_4]
      rw [Dat.leavesExact_idle (dat14 V c) 5 t (idleAt14_5_B t (fun h => h0 ((hcond14_0 t).mp h)) (fun h => h1 ((hcond14_1 t).mp h))) (noFlush14_5_B t (fun h => h0 ((hcond14_0 t).mp h)) (fun h => h1 ((hcond14_1 t).mp h)))]
      rw [outsAt14_B V c t h0 h1]
      unfold out14_B_3 out14_B_4 sout14_B_0; (try dsimp only)
      by_cases hz : t.val = 0
      · exfalso; omega
      · rw [PhiS14_castSucc V c t, PhiS14_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid14.coords t) _ _ _ _ _ _ _ _ _ _ _ _ _ _ (fun h => h0 ((hcond14_0 t).mp h)) (fun h => h1 ((hcond14_1 t).mp h)) (iblk14 V c 0 t) (iblk14 V c 1 t) (iblk14 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation14 (c : Dev nD) : BodyObligation (dat14 (F := F) V c) (defs₀ (F := F)) Variants.none () Set.univ := fun t => by
  rw [bigSep_W14, bigSep_W14]
  exact sound_body14 V c t

/-- What the launch hands the region is the invariant before the first point. -/
theorem hin14 (c : Dev nD) : Pipeline.ΦA spec14 c ⊢ (dat14 V c).Φ 0 := by
  rw [show (dat14 V c).Φ 0 = PhiS14 V c 0 (Nat.zero_le _) from rfl, PhiS14_zero V c 0 _ rfl]
  try exact Idealize.SL.BI.Entails.refl _

/-- After any point but the first the invariant gives it back: the scratch's named contents are forgotten. -/
theorem Phi_out14 (c : Dev nD) (t : Fin (cfg14.N + 1)) (ht : t.val ≠ 0) : (dat14 V c).Φ t ⊢ Pipeline.ΦA spec14 c := by
  rw [show (dat14 V c).Φ t = PhiS14 V c t.val (Nat.le_of_lt_succ t.isLt) from rfl, PhiS14_pos V c _ _ ht, PhiA14_eq]
  iintro ⟨⟨HS0, HR⟩, Hg⟩
  isplitl [HS0 HR]
  · isplitl [HS0]
    · iexists _; iexact HS0
    iexact HR
  iexact Hg

/-- The same after the last point. -/
theorem hout14 (c : Dev nD) : (dat14 V c).Φ (Fin.last cfg14.N) ⊢ Pipeline.ΦA spec14 c :=
  Phi_out14 V c _ (by rw [Fin.val_last]; have : cfg14.N = 25 := N_14; omega)

end Cert.KernelIdeal.Hand

end
-- ==== Proof.KI.R15.lean ====
import proofs.«408084_j48395691492010_3_alg».proof.Proof.KI.R3

/-! Region 15: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The row-tile window (window 0, fetched at every point) holds its block when the body runs. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- The mean window (window 1, one constant block fetched at the first point only) holds that block at every point. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-! ## The branch conditions and the idle points, over this region's grid (the same grid) -/

/-- The reset's condition holds at the first point only, -/
theorem hcond15_0 : ∀ t : Fin cfg15.N, cond3_0 (grid15.coords t) ↔ t.val = 0 := hcond3_0
/-- the final store's at the last point only. -/
theorem hcond15_1 : ∀ t : Fin cfg15.N, cond3_1 (grid15.coords t) ↔ t.val = 24 := hcond3_1

theorem liveAt15_0 : ∀ t : Fin cfg15.N, cfg15.idle 0 (grid15.coords t) = false := fun _ => rfl
theorem liveAt15_1 : ∀ t : Fin cfg15.N, cfg15.idle 1 (grid15.coords t) = false := fun _ => rfl
/-- Away from the last point the result window is idle, -/
theorem idleAt15_2 : ∀ t : Fin cfg15.N, ¬cond3_1 (grid15.coords t) → cfg15.idle 2 (grid15.coords t) = true := idleAt3_2
/-- and live at it. -/
theorem liveAt15_2 : ∀ t : Fin cfg15.N, cond3_1 (grid15.coords t) → cfg15.idle 2 (grid15.coords t) = false := liveAt3_2
/-- Away from the last point its block is not written back (the schedule's closed form). -/
theorem noFlush15_2 (t : Fin cfg15.N) (h : ¬cond3_1 (grid15.coords t)) : (cfg15.win 2).flush t = false := by
  have hN : t.val < 25 := lt_of_lt_of_eq t.isLt (show cfg15.N = 25 from N_15)
  have h24 : ¬t.val = 24 := fun e => h ((hcond15_1 t).mpr e)
  cases hf : (cfg15.win 2).flush t with
  | false => rfl
  | true => exact absurd (by have := (flush15_2 t).mp hf; omega) h24

/-! ## The memrefs the body is called with -/

noncomputable abbrev ms15_0 (t : Fin cfg15.N) : Memref sig .tc .vmem S2000x64 .f32 := win15_0.stage (cfg15.slots t 0)
abbrev hs15_0 (t : Fin cfg15.N) : (ms15_0 t).IsWhole := hstage15_0 ((cfg15.slots t 0).cast nbuf15_0)
noncomputable abbrev ms15_1 (t : Fin cfg15.N) : Memref sig .tc .vmem S1x64 .f32 := win15_1.stage (cfg15.slots t 1)
abbrev hs15_1 (t : Fin cfg15.N) : (ms15_1 t).IsWhole := hstage15_1 ((cfg15.slots t 1).cast nbuf15_1)
noncomputable abbrev ms15_2 (t : Fin cfg15.N) : Memref sig .tc .vmem S1x64 .f32 := win15_2.stage (cfg15.slots t 2)
abbrev hs15_2 (t : Fin cfg15.N) : (ms15_2 t).IsWhole := hstage15_2 ((cfg15.slots t 2).cast nbuf15_2)
/-- The accumulator: this call's own scratch buffer, whole. -/
noncomputable abbrev scM15_0 : Memref sig .tc .vmem S1x64 .f32 := Memref.whole cc15_scratch0

/-- The body the pipeline calls at point `t` is region 3's printed kernel on this region's memrefs: the two printed
    functions are the same term. -/
theorem bodyAt15_eq (t : Fin cfg15.N) :
    (bodyAt15 t : Prog (TpuEff nD τ sig (Elt F) Λ₀ .tc) PUnit)
      = cc3__var_kernel (grid15.coords t) (ms15_0 t) (hs15_0 t) (ms15_1 t) (hs15_1 t) (ms15_2 t) (hs15_2 t) scM15_0 (Memref.isWhole_whole _) := rfl

/-- The region-entry invariant with the accumulator split out of the scoped rest, as a memref owned at some contents. -/
theorem PhiA15_eq (c : Dev nD) :
    (Pipeline.ΦA spec15 c : sProp 𝕄)
      = iprop(iprop(iprop(∃ d, owns (c : Thread nD τ) scM15_0 fullShare d)
          ∗ Pipeline.scopedRestBut (Ix := Unit) (Name := ℕ) (U := UR sig nD τ) (Lvl := ℕ) (Val := Elt F) spec15 c [cc15_scratch0]) ∗ (∃ r, prngReg c r)) := by
  unfold Pipeline.ΦA; rw [scopedRest15_split]; simp only [scM15_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt15 (c : Dev nD) : (n : ℕ) → n < cfg15.N → Vec F S1x64 .f32 × Vec F S1x64 .f32
  | 0, hn => (idle3_2,
      sout3_A_0 c (grid15.coords ⟨0, hn⟩) (ms15_0 ⟨0, hn⟩) (hs15_0 ⟨0, hn⟩) (ms15_1 ⟨0, hn⟩) (hs15_1 ⟨0, hn⟩) (ms15_2 ⟨0, hn⟩) (hs15_2 ⟨0, hn⟩) scM15_0 (Memref.isWhole_whole _) ((hcond15_0 ⟨0, hn⟩).mpr rfl)
        (fun h => (fun h' : (0 : ℕ) = 24 => by omega) ((hcond15_1 ⟨0, hn⟩).mp h)) (iblk15 V c 0 ⟨0, hn⟩) (iblk15 V c 1 ⟨0, hn⟩))
  | n + 1, hn =>
    if h1 : n + 1 = 24 then
      (out3_C_2 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15_0 (Memref.isWhole_whole _) (fun h => (fun h' : n + 1 = 0 => by omega) ((hcond15_0 ⟨n + 1, hn⟩).mp h))
          ((hcond15_1 ⟨n + 1, hn⟩).mpr h1) (iblk15 V c 0 ⟨n + 1, hn⟩) (iblk15 V c 1 ⟨n + 1, hn⟩) (outsAt15 c n (Nat.lt_of_succ_lt hn)).2,
       sout3_C_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15_0 (Memref.isWhole_whole _) (fun h => (fun h' : n + 1 = 0 => by omega) ((hcond15_0 ⟨n + 1, hn⟩).mp h))
          ((hcond15_1 ⟨n + 1, hn⟩).mpr h1) (iblk15 V c 0 ⟨n + 1, hn⟩) (iblk15 V c 1 ⟨n + 1, hn⟩) (outsAt15 c n (Nat.lt_of_succ_lt hn)).2)
    else
      (idle3_2,
       sout3_B_0 c (grid15.coords ⟨n + 1, hn⟩) (ms15_0 ⟨n + 1, hn⟩) (hs15_0 ⟨n + 1, hn⟩) (ms15_1 ⟨n + 1, hn⟩) (hs15_1 ⟨n + 1, hn⟩) (ms15_2 ⟨n + 1, hn⟩) (hs15_2 ⟨n + 1, hn⟩) scM15_0 (Memref.isWhole_whole _) (fun h => (fun h' : n + 1 = 0 => by omega) ((hcond15_0 ⟨n + 1, hn⟩).mp h))
          (fun h => h1 ((hcond15_1 ⟨n + 1, hn⟩).mp h)) (iblk15 V c 0 ⟨n + 1, hn⟩) (iblk15 V c 1 ⟨n + 1, hn⟩) (outsAt15 c n (Nat.lt_of_succ_lt hn)).2)

theorem outsAt15_A (c : Dev nD) (t : Fin cfg15.N) (h0 : t.val = 0) (h1 : ¬t.val = 24) :
    outsAt15 V c t.val t.isLt = (idle3_2,
      sout3_A_0 c (grid15.coords t) (ms15_0 t) (hs15_0 t) (ms15_1 t) (hs15_1 t) (ms15_2 t) (hs15_2 t) scM15_0 (Memref.isWhole_whole _) ((hcond15_0 t).mpr h0) (fun h => h1 ((hcond15_1 t).mp h)) (iblk15 V c 0 t) (iblk15 V c 1 t)) := by
  obtain ⟨n, hn⟩ := t
  cases n with
  | zero => exact rfl
  | succ n => exact absurd h0 (Nat.succ_ne_zero n)

theorem outsAt15_B (c : Dev nD) (t : Fin cfg15.N) (h0 : ¬t.val = 0) (h1 : ¬t.val = 24) :
    outsAt15 V c t.val t.isLt = (idle3_2,
      sout3_B_0 c (grid15.coords t) (ms15_0 t) (hs15_0 t) (ms15_1 t) (hs15_1 t) (ms15_2 t) (hs15_2 t) scM15_0 (Memref.isWhole_whole _) (fun h => h0 ((hcond15_0 t).mp h)) (fun h => h1 ((hcond15_1 t).mp h)) (iblk15 V c 0 t) (iblk15 V c 1 t)
        (outsAt15 V c (t.val - 1) (Nat.lt_of_le_of_lt (Nat.sub_le _ _) t.isLt)).2) := by
  obtain ⟨n, hn⟩ := t
  cases n with
  | zero => exact absurd rfl h0
  | succ n => exact (dif_neg h1).trans rfl

theorem outsAt15_C (c : Dev nD) (t : Fin cfg15.N) (h0 : ¬t.val = 0) (h1 : t.val = 24) :
    outsAt15 V c t.val t.isLt =
      (out3_C_2 c (grid15.coords t) (ms15_0 t) (hs15_0 t) (ms15_1 t) (hs15_1 t) (ms15_2 t) (hs15_2 t) scM15_0 (Memref.isWhole_whole _) (fun h => h0 ((hcond15_0 t).mp h)) ((hcond15_1 t).mpr h1) (iblk15 V c 0 t) (iblk15 V c 1 t)
        (outsAt15 V c (t.val - 1) (Nat.lt_of_le_of_lt (Nat.sub_le _ _) t.isLt)).2,
       sout3_C_0 c (grid15.coords t) (ms15_0 t) (hs15_0 t) (ms15_1 t) (hs15_1 t) (ms15_2 t) (hs15_2 t) scM15_0 (Memref.isWhole_whole _) (fun h => h0 ((hcond15_0 t).mp h)) ((hcond15_1 t).mpr h1) (iblk15 V c 0 t) (iblk15 V c 1 t)
        (outsAt15 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS15 (c : Dev nD) : (n : ℕ) → n ≤ cfg15.N → sProp 𝕄
  | 0, _ => Pipeline.ΦA spec15 c
  | n + 1, hn => iprop(iprop(owns (c : Thread nD τ) scM15_0 fullShare ((outsAt15 V c n hn).2)
      ∗ Pipeline.scopedRestBut (Ix := Unit) (Name := ℕ) (U := UR sig nD τ) (Lvl := ℕ) (Val := Elt F) spec15 c [cc15_scratch0]) ∗ (∃ r, prngReg c r))

theorem PhiS15_zero (c : Dev nD) (n : ℕ) (h : n ≤ cfg15.N) (hz : n = 0) : PhiS15 V c n h = Pipeline.ΦA spec15 c := by
  subst hz; rfl

theorem PhiS15_succ (c : Dev nD) (n : ℕ) (hn : n < cfg15.N) :
    PhiS15 V c (n + 1) hn = iprop(iprop(owns (c : Thread nD τ) scM15_0 fullShare ((outsAt15 V c n hn).2)
      ∗ Pipeline.scopedRestBut (Ix := Unit) (Name := ℕ) (U := UR sig nD τ) (Lvl := ℕ) (Val := Elt F) spec15 c [cc15_scratch0]) ∗ (∃ r, prngReg c r)) := rfl

theorem PhiS15_pos (c : Dev nD) (n : ℕ) (h : n ≤ cfg15.N) (hz : n ≠ 0) :
    PhiS15 V c n h = iprop(iprop(owns (c : Thread nD τ) scM15_0 fullShare ((outsAt15 V c (n - 1) (by omega)).2)
      ∗ Pipeline.scopedRestBut (Ix := Unit) (Name := ℕ) (U := UR sig nD τ) (Lvl := ℕ) (Val := Elt F) spec15 c [cc15_scratch0]) ∗ (∃ r, prngReg c r)) := by
  cases n with
  | zero => exact absurd rfl hz
  | succ n => rfl

/-! ## The proof data -/

noncomputable def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => (outsAt15 V c t.val t.isLt).1
  Φ t := PhiS15 V c t.val (Nat.le_of_lt_succ t.isLt)
  q _ := fullShare
  owed _ := 0

theorem A_eq15 (c : Dev nD) (w : Fin cfg15.W) : (dat15 V c).A w = V c (Pipeline.arrRef spec15 w) := by
  dsimp only [dat15]

theorem PhiS15_castSucc (c : Dev nD) (t : Fin cfg15.N) :
    (dat15 V c).Φ t.castSucc = PhiS15 V c t.val (Nat.le_of_lt t.isLt) := by
  dsimp only [dat15]; simp only [Fin.coe_castSucc]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = (outsAt15 V c t.val t.isLt).1 := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-! ## The body obligation -/

noncomputable def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d)))

noncomputable def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t)

set_option maxHeartbeats 4800000 in
/-- The body at any point, from region 3's triples on this region's memrefs. -/
theorem sound_body15 (c : Dev nD) (t : Fin cfg15.N) :
    bodyPre15 V c t ⊢ wp frame (wpE (defs₀ (F := F)) Variants.none c none) Set.univ (bodyAt15 t) (fun _ => bodyPost15 V c t) := by
  rw [bodyAt15_eq (F := F) t]
  unfold bodyPre15 bodyPost15
  simp only [before15_0, before15_1]
  rw [show (dat15 V c).owesAt () t.succ = (dat15 V c).owesAt () t.castSucc from rfl]
  rw [show (dat15 V c).Φ t.succ = PhiS15 V c (t.val + 1) t.isLt from rfl, PhiS15_succ]
  have hN : t.val < 25 := lt_of_lt_of_eq t.isLt (show cfg15.N = 25 from N_15)
  rw [show (dat15 V c).leavesExact 0 t = owns (c : Thread nD τ) (ms15_0 t) fullShare ((dat15 V c).after 0 t) from by
    unfold Dat.leavesExact; rw [liveAt15_0 t], after15_0]
  rw [show (dat15 V c).leavesExact 1 t = owns (c : Thread nD τ) (ms15_1 t) fullShare ((dat15 V c).after 1 t) from by
    unfold Dat.leavesExact; rw [liveAt15_1 t], after15_1]
  by_cases h0 : t.val = 0
  · have h1 : ¬t.val = 24 := by omega
    rw [Dat.leavesExact_idle (dat15 V c) 2 t (idleAt15_2 t (fun h => h1 ((hcond15_1 t).mp h))) (noFlush15_2 t (fun h => h1 ((hcond15_1 t).mp h)))]
    rw [outsAt15_A V c t h0 h1]
    unfold sout3_A_0; (try dsimp only)
    rw [PhiS15_castSucc V c t, PhiS15_zero V c _ _ h0, PhiA15_eq]
    iintro ⟨⟨⟨HS0, Hr⟩, Hg⟩, Ho, ⟨%d0, H0⟩, ⟨%d1, H1⟩, ⟨%d2, H2⟩⟩
    iapply ((kernelRun3_A c (grid15.coords t) _ _ _ _ _ _ _ _ ((hcond15_0 t).mpr h0) (fun h => h1 ((hcond15_1 t).mp h)) (iblk15 V c 0 t) (iblk15 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat15 V c).leavesExact 2 t = owns (c : Thread nD τ) (ms15_2 t) fullShare ((dat15 V c).after 2 t) from by
        unfold Dat.leavesExact; rw [liveAt15_2 t ((hcond15_1 t).mpr h1)], after15_2]
      rw [outsAt15_C V c t h0 h1]
      unfold out3_C_2 sout3_C_0; (try dsimp only)
      rw [PhiS15_castSucc V c t, PhiS15_pos V c _ _ h0]
      iintro ⟨⟨⟨HS0, Hr⟩, Hg⟩, Ho, ⟨%d0, H0⟩, ⟨%d1, H1⟩, ⟨%d2, H2⟩⟩
      iapply ((kernelRun3_C c (grid15.coords t) _ _ _ _ _ _ _ _ (fun h => h0 ((hcond15_0 t).mp h)) ((hcond15_1 t).mpr h1) (iblk15 V c 0 t) (iblk15 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat15 V c) 2 t (idleAt15_2 t (fun h => h1 ((hcond15_1 t).mp h))) (noFlush15_2 t (fun h => h1 ((hcond15_1 t).mp h)))]
      rw [outsAt15_B V c t h0 h1]
      unfold sout3_B_0; (try dsimp only)
      rw [PhiS15_castSucc V c t, PhiS15_pos V c _ _ h0]
      iintro ⟨⟨⟨HS0, Hr⟩, Hg⟩, Ho, ⟨%d0, H0⟩, ⟨%d1, H1⟩, ⟨%d2, H2⟩⟩
      iapply ((kernelRun3_B c (grid15.coords t) _ _ _ _ _ _ _ _ (fun h => h0 ((hcond15_0 t).mp h)) (fun h => h1 ((hcond15_1 t).mp h)) (iblk15 V c 0 t) (iblk15 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation15 (c : Dev nD) : BodyObligation (dat15 (F := F) V c) (defs₀ (F := F)) Variants.none () Set.univ := fun t => by
  rw [bigSep_W15, bigSep_W15]
  exact sound_body15 V c t

/-- What the launch hands the region is the invariant before the first point. -/
theorem hin15 (c : Dev nD) : Pipeline.ΦA spec15 c ⊢ (dat15 V c).Φ 0 := by
  rw [show (dat15 V c).Φ 0 = PhiS15 V c 0 (Nat.zero_le _) from rfl, PhiS15_zero V c 0 _ rfl]
  try exact Idealize.SL.BI.Entails.refl _

/-- After any point but the first the invariant gives the launch's back: the accumulator's named contents are forgotten. -/
theorem Phi_out15 (c : Dev nD) (t : Fin (cfg15.N + 1)) (ht : t.val ≠ 0) : (dat15 V c).Φ t ⊢ Pipeline.ΦA spec15 c := by
  rw [show (dat15 V c).Φ t = PhiS15 V c t.val (Nat.le_of_lt_succ t.isLt) from rfl, PhiS15_pos V c _ _ ht, PhiA15_eq]
  iintro ⟨⟨HS0, Hr⟩, Hg⟩
  isplitl [HS0 Hr]
  · isplitl [HS0]
    · iexists _; iexact HS0
    iexact Hr
  iexact Hg

/-- The same after the last point. -/
theorem hout15 (c : Dev nD) : (dat15 V c).Φ (Fin.last cfg15.N) ⊢ Pipeline.ΦA spec15 c :=
  Phi_out15 V c _ (by rw [Fin.val_last]; have : cfg15.N = 25 := N_15; omega)

end Cert.KernelIdeal.Hand

end
-- ==== Proof.KI.R16.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Ring
import Idealize.ShloMosaic.Lib.Tactic

/-!
# Region 16: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region16
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- The activations' staging buffer holds the block of the current point at every point: the window is fetched at
    every point, is never cut and never idle, and the body leaves the block where it found it. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- The mean row's staging buffer holds its (one) block at every point: it is fetched at the first point only, its
    block index never moves afterwards, and the body leaves it in place. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- The same of the variance row. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-- The same of the scale row. -/
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)

/-- The same of the shift row. -/
theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)

/-! ## The body's accesses: each buffer is read, and the output written, whole -/

/-- The whole of a block of 2000 rows. -/
noncomputable abbrev r16_0 : Rect S2000x64 := Rect.unit (s := S2000x64) ![0, 0] S2000x64.size inb_S2000x64_S2000x64_0_0
/-- The whole of a single row. -/
noncomputable abbrev r16_1 : Rect S1x64 := Rect.unit (s := S1x64) ![0, 0] S1x64.size inb_S1x64_S1x64_0_0

/-! ## What the body leaves in the output buffer -/

/-- The output buffer after the body, from the five input blocks: its one store, whose payload is the skeleton's. -/
noncomputable def out16_5 (x0 : Vec F S2000x64 .f32) (x1 : Vec F S1x64 .f32) (x2 : Vec F S1x64 .f32) (x3 : Vec F S1x64 .f32) (x4 : Vec F S1x64 .f32) :
    Vec F S2000x64 .f32 :=
  View.canon [⟨r16_0, k16_pay1 (View.ld x0 r16_0) (View.ld x1 r16_1) (View.ld x2 r16_1) (View.ld x3 r16_1) (View.ld x4 r16_1)⟩]

/-- The one store covers the buffer. -/
theorem cover16_5 (p0 : Vec F S2000x64 .f32) (y : S2000x64.Idx) :
    ∃ pc ∈ ([⟨r16_0, p0⟩] : List (View.Piece (Elt F) S2000x64 .f32)), y ∈ pc.1.set :=
  View.cover_of_tiled [⟨r16_0, p0⟩] S2000x64.size (by rfl) y

/-! ## The body's triple -/

set_option maxHeartbeats 1000000 in
/-- The body on whole staging buffers, the five inputs' at read contents x0 … x4 and the output's at anything, runs
    to a state in which the inputs' are as they were and the output's holds out16_5 of them. (The body also loads the
    output buffer before it stores to it; the loaded value is not used.) -/
theorem sound_kernel16 (c : Dev nD) (E : Set ℕ) (i : grid16.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out16_5 x0 x1 x2 x3 x4)) -∗ K ⟨⟩))
      ⊢ wp frame (wpE (defs₀ (F := F)) Variants.none c none) E (cc16__bn_softmax_kernel i arg1 harg1 arg2 harg2 arg3 harg3 arg4 harg4 arg5 harg5 arg6 harg6) K := by
  simp only [cc16__bn_softmax_kernel_eq_skeleton]; unfold cc16__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover16_5 _)

/-! ## The pipeline's proof data -/

/-- The proof data of the region's pipeline on core c: the arrays as the region finds them; after the body at point t
    each input's buffer at its block and the output's at out16_5 of the input blocks; the invariant that of a body which
    touches nothing but its windows; nothing owed; full shares. -/
noncomputable def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => out16_5 (iblk16 V c 0 t) (iblk16 V c 1 t) (iblk16 V c 2 t) (iblk16 V c 3 t) (iblk16 V c 4 t)
  Φ _ := Pipeline.ΦA spec16 c
  q _ := fullShare
  owed _ := 0

/-- The proof data's arrays are the region-entry contents. -/
theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) :
    (dat16 V c).after 5 t = out16_5 (iblk16 V c 0 t) (iblk16 V c 1 t) (iblk16 V c 2 t) (iblk16 V c 3 t) (iblk16 V c 4 t) := by dsimp only [dat16]

/-- Each input's current staging buffer holds its block at every point, fetched there or not. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d

/-! ## The body obligation, at a generic point -/

/-- What the body is called with at point t, the windows one by one, -/
noncomputable def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d)))

/-- and what it returns. -/
noncomputable def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t))

/-- The body at any point: the inputs' buffers hold their blocks, so the body's triple applies; the invariant and
    what the core owes pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4]
  rw [show (dat16 V c).Φ t.succ = (dat16 V c).Φ t.castSucc from rfl,
    show (dat16 V c).owesAt () t.succ = (dat16 V c).owesAt () t.castSucc from rfl,
    after16_0, after16_1, after16_2, after16_3, after16_4, after16_5]
  iintro ⟨HΦ, Ho, ⟨%d0, H0⟩, ⟨%d1, H1⟩, ⟨%d2, H2⟩, ⟨%d3, H3⟩, ⟨%d4, H4⟩, ⟨%d5, H5⟩⟩
  iapply (sound_kernel16 c Set.univ (grid16.coords t) _ _ _ _ _ _ _ _ _ _ _ _
    (iblk16 V c 0 t) (iblk16 V c 1 t) (iblk16 V c 2 t) (iblk16 V c 3 t) (iblk16 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation16 (c : Dev nD) : BodyObligation (dat16 (F := F) V c) (defs₀ (F := F)) Variants.none () Set.univ := fun t => by
  rw [bigSep_W16, bigSep_W16]
  exact sound_body16 V c t

end Region16

end Cert.KernelIdeal.Hand

end
-- ==== Proof.KI.R17.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.Regions
import Idealize.ShloMosaic.Lib.Tactic

/-! # Region 17: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region17
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The rows of X: the staging buffer the body is handed holds the block of the point, whether the
    point fetched it or not (an unfetched input has not moved its block index). -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- The matrix W: fetched at the first point only, and found in place at every later one. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-! ## The body's accesses: each buffer whole -/

noncomputable abbrev r17_0 : Rect S2000x64 := Rect.unit (s := S2000x64) ![0, 0] S2000x64.size inb_S2000x64_S2000x64_0_0
noncomputable abbrev r17_1 : Rect S64x64 := Rect.unit (s := S64x64) ![0, 0] S64x64.size inb_S64x64_S64x64_0_0
noncomputable abbrev r17_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out17_2 (x0 : Vec F S2000x64 .f32) (x1 : Vec F S64x64 .f32) : Vec F S2000x64 .f32 :=
  View.canon [⟨r17_2, k17_pay1 (View.ld x0 r17_0) (View.ld x1 r17_1)⟩]

/-- The store's rectangle is the whole buffer, so it covers every index. -/
theorem cover17_2 (p0 : Vec F S2000x64 .f32) (y : S2000x64.Idx) :
    ∃ pc ∈ ([⟨r17_2, p0⟩] : List (View.Piece (Elt F) S2000x64 .f32)), y ∈ pc.1.set :=
  View.cover_of_tiled [⟨r17_2, p0⟩] S2000x64.size (by rfl) y

/-! ## The body's triple -/

set_option maxHeartbeats 1000000 in
/-- On whole staging memrefs, the inputs' holding x0 and x1 and the output's holding anything, the body
    runs to a state where the inputs' are unchanged and the output's holds out17_2 x0 x1. The body also reads
    the output buffer before storing into it; the value read is not used. -/
theorem sound_kernel17 (c : Dev nD) (E : Set ℕ) (i : grid17.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out17_2 x0 x1)) -∗ K ⟨⟩))
      ⊢ wp frame (wpE (defs₀ (F := F)) Variants.none c none) E (cc17__linear_kernel i arg1 harg1 arg2 harg2 arg3 harg3) K := by
  simp only [cc17__linear_kernel_eq_skeleton]; unfold cc17__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover17_2 _)

/-! ## The pipeline's proof data -/

/-- The arrays as the region finds them; after the body at point t the inputs' buffers at their blocks
    and the output's at the product block; the invariant is the scoped rest and the generator register,
    untouched; nothing owed; full shares. -/
noncomputable def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => out17_2 (iblk17 V c 0 t) (iblk17 V c 1 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = out17_2 (iblk17 V c 0 t) (iblk17 V c 1 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d

/-! ## The body obligation, at a generic point -/

/-- What the body is called with at point t, window by window, -/
noncomputable def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d)))

/-- and what it returns. -/
noncomputable def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t))

/-- The inputs' memrefs hold their blocks, so the body's triple applies; the invariant and what the core
    owes pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).Φ t.succ = (dat17 V c).Φ t.castSucc from rfl,
    show (dat17 V c).owesAt () t.succ = (dat17 V c).owesAt () t.castSucc from rfl,
    after17_0, after17_1, after17_2]
  iintro ⟨HΦ, Ho, ⟨%d0, H0⟩, ⟨%d1, H1⟩, ⟨%d2, H2⟩⟩
  iapply (sound_kernel17 c Set.univ (grid17.coords t) _ _ _ _ _ _ (iblk17 V c 0 t) (iblk17 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation17 (c : Dev nD) : BodyObligation (dat17 (F := F) V c) (defs₀ (F := F)) Variants.none () Set.univ := fun t => by
  rw [bigSep_W17, bigSep_W17]
  exact sound_body17 V c t

end Region17

end Cert.KernelIdeal.Hand

end
-- ==== Proof.KI.R18.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.R14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The kernel is region 14's

The two regions' printed kernel functions are the same function of the grid coordinate and the memrefs (the same
text over the same shapes; the grids and the last-point conditions are the same literals), so region 14's runs of the
body, its covers and its per-case contents — all stated over abstract coordinates and memrefs — serve this region. -/

theorem cc18_kernel_eq : cc18_kernel (F := F) = cc14_kernel (F := F) := rfl

/-! ## The windows' blocks -/

/-- Window `w`'s block at point `t`, read off its array as the region finds it (`V`). -/
noncomputable def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0's current staging buffer holds its block at every point, for any proof data whose array is
    `V`'s and whose body leaves the block in place: the window is uncut and never idle. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- Input window 1 likewise: fetched at the first point only, its block index never moves, so the buffer holds
    the block at every point. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- Input window 2 likewise. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-! ## The body's two conditions on the grid coordinate -/

/-- It holds at the first point only. -/
theorem hcond18_0 : ∀ t : Fin cfg18.N, cond14_0 (grid18.coords t) ↔ t.val % 25 = 0 :=
  (by decide +kernel : ∀ t : Fin grid18.N, cond14_0 (grid18.coords t) ↔ t.val % 25 = 0)

/-- It holds at the last point only. -/
theorem hcond18_1 : ∀ t : Fin cfg18.N, cond14_1 (grid18.coords t) ↔ t.val % 25 = 24 :=
  (by decide +kernel : ∀ t : Fin grid18.N, cond14_1 (grid18.coords t) ↔ t.val % 25 = 24)

/-! ## Where the windows are idle -/

theorem liveAt18_0 : ∀ t : Fin cfg18.N, cfg18.idle 0 (grid18.coords t) = false := by decide +kernel
theorem liveAt18_1 : ∀ t : Fin cfg18.N, cfg18.idle 1 (grid18.coords t) = false := by decide +kernel
theorem liveAt18_2 : ∀ t : Fin cfg18.N, cfg18.idle 2 (grid18.coords t) = false := by decide +kernel
theorem liveAt18_3 : ∀ t : Fin cfg18.N, cfg18.idle 3 (grid18.coords t) = false := by decide +kernel
theorem liveAt18_4 : ∀ t : Fin cfg18.N, cfg18.idle 4 (grid18.coords t) = false := by decide +kernel
/-- At the first point the body stores nothing into output 5: the window is idle there and not written back. -/
theorem idleAt18_5_A : ∀ t : Fin cfg18.N, cond14_0 (grid18.coords t) → ¬cond14_1 (grid18.coords t) → cfg18.idle 5 (grid18.coords t) = true := by decide +kernel
theorem noFlush18_5_A : ∀ t : Fin cfg18.N, cond14_0 (grid18.coords t) → ¬cond14_1 (grid18.coords t) → (cfg18.win 5).flush t = false := by decide +kernel
/-- Nor at the middle points. -/
theorem idleAt18_5_B : ∀ t : Fin cfg18.N, ¬cond14_0 (grid18.coords t) → ¬cond14_1 (grid18.coords t) → cfg18.idle 5 (grid18.coords t) = true := by decide +kernel
theorem noFlush18_5_B : ∀ t : Fin cfg18.N, ¬cond14_0 (grid18.coords t) → ¬cond14_1 (grid18.coords t) → (cfg18.win 5).flush t = false := by decide +kernel
/-- At the last point it stores the accumulated sums there: the window is live. -/
theorem liveAt18_5_C : ∀ t : Fin cfg18.N, ¬cond14_0 (grid18.coords t) → cond14_1 (grid18.coords t) → cfg18.idle 5 (grid18.coords t) = false := by decide +kernel

/-! ## The memrefs the body is called with -/

/-- Each window's current staging memref at point `t`, as the pipeline passes it, and its wholeness. -/
noncomputable abbrev ms18_0 (t : Fin cfg18.N) : Memref sig .tc .vmem S2000x64 .f32 := win18_0.stage (cfg18.slots t 0)
abbrev hs18_0 (t : Fin cfg18.N) : (ms18_0 t).IsWhole := hstage18_0 ((cfg18.slots t 0).cast nbuf18_0)
noncomputable abbrev ms18_1 (t : Fin cfg18.N) : Memref sig .tc .vmem S1x64 .f32 := win18_1.stage (cfg18.slots t 1)
abbrev hs18_1 (t : Fin cfg18.N) : (ms18_1 t).IsWhole := hstage18_1 ((cfg18.slots t 1).cast nbuf18_1)
noncomputable abbrev ms18_2 (t : Fin cfg18.N) : Memref sig .tc .vmem S2000x64 .f32 := win18_2.stage (cfg18.slots t 2)
abbrev hs18_2 (t : Fin cfg18.N) : (ms18_2 t).IsWhole := hstage18_2 ((cfg18.slots t 2).cast nbuf18_2)
noncomputable abbrev ms18_3 (t : Fin cfg18.N) : Memref sig .tc .vmem S2000x64 .f32 := win18_3.stage (cfg18.slots t 3)
abbrev hs18_3 (t : Fin cfg18.N) : (ms18_3 t).IsWhole := hstage18_3 ((cfg18.slots t 3).cast nbuf18_3)
noncomputable abbrev ms18_4 (t : Fin cfg18.N) : Memref sig .tc .vmem S2000x64 .f32 := win18_4.stage (cfg18.slots t 4)
abbrev hs18_4 (t : Fin cfg18.N) : (ms18_4 t).IsWhole := hstage18_4 ((cfg18.slots t 4).cast nbuf18_4)
noncomputable abbrev ms18_5 (t : Fin cfg18.N) : Memref sig .tc .vmem S1x64 .f32 := win18_5.stage (cfg18.slots t 5)
abbrev hs18_5 (t : Fin cfg18.N) : (ms18_5 t).IsWhole := hstage18_5 ((cfg18.slots t 5).cast nbuf18_5)
/-- The scratch operand: a whole scoped buffer of the kernel's own, in which the column sums accumulate. -/
noncomputable abbrev scM18_0 : Memref sig .tc .vmem S1x64 .f32 := Memref.whole cc18_scratch0

/-- The other scoped buffers (every other call's staging buffers and scratch), unopened. -/
noncomputable abbrev restBut18 (c : Dev nD) : sProp 𝕄 :=
  Pipeline.scopedRestBut (Ix := Unit) (Name := ℕ) (U := UR sig nD τ) (Lvl := ℕ) (Val := Elt F) spec18 c [cc18_scratch0]

/-- The region's invariant as the launch hands it over, with the scratch operand split out as a memref owned at
    some contents: what the body obligation hands the run and takes back. -/
theorem PhiA18_eq (c : Dev nD) :
    (Pipeline.ΦA spec18 c : sProp 𝕄)
      = iprop(iprop(iprop((∃ d, owns (c : Thread nD τ) scM18_0 fullShare d)) ∗ restBut18 (F := F) c) ∗ (∃ r, prngReg c r)) := by
  unfold Pipeline.ΦA; rw [scopedRest18_split]; simp only [scM18_0, owns_whole]; try rfl

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt18 (c : Dev nD) : (n : ℕ) → n < cfg18.N → Vec F S2000x64 .f32 × Vec F S2000x64 .f32 × Vec F S1x64 .f32 × Vec F S1x64 .f32
  | 0, hn => (out14_A_3 c (grid18.coords ⟨0, hn⟩) (ms18_0 ⟨0, hn⟩) (hs18_0 ⟨0, hn⟩) (ms18_1 ⟨0, hn⟩) (hs18_1 ⟨0, hn⟩) (ms18_2 ⟨0, hn⟩) (hs18_2 ⟨0, hn⟩) (ms18_3 ⟨0, hn⟩) (hs18_3 ⟨0, hn⟩) (ms18_4 ⟨0, hn⟩) (hs18_4 ⟨0, hn⟩) (ms18_5 ⟨0, hn⟩) (hs18_5 ⟨0, hn⟩) scM18_0 (Memref.isWhole_whole _) ((hcond18_0 ⟨0, hn⟩).mpr (Nat.zero_mod _)) (fun h => (fun h => by (try dsimp only at h); omega) ((hcond18_1 ⟨0, hn⟩).mp h)) (iblk18 V c 0 ⟨0, hn⟩) (iblk18 V c 1 ⟨0, hn⟩) (iblk18 V c 2 ⟨0, hn⟩), out14_A_4 c (grid18.coords ⟨0, hn⟩) (ms18_0 ⟨0, hn⟩) (hs18_0 ⟨0, hn⟩) (ms18_1 ⟨0, hn⟩) (hs18_1 ⟨0, hn⟩) (ms18_2 ⟨0, hn⟩) (hs18_2 ⟨0, hn⟩) (ms18_3 ⟨0, hn⟩) (hs18_3 ⟨0, hn⟩) (ms18_4 ⟨0, hn⟩) (hs18_4 ⟨0, hn⟩) (ms18_5 ⟨0, hn⟩) (hs18_5 ⟨0, hn⟩) scM18_0 (Memref.isWhole_whole _) ((hcond18_0 ⟨0, hn⟩).mpr (Nat.zero_mod _)) (fun h => (fun h => by (try dsimp only at h); omega) ((hcond18_1 ⟨0, hn⟩).mp h)) (iblk18 V c 0 ⟨0, hn⟩) (iblk18 V c 1 ⟨0, hn⟩) (iblk18 V c 2 ⟨0, hn⟩), out14_A_5 c (grid18.coords ⟨0, hn⟩) (ms18_0 ⟨0, hn⟩) (hs18_0 ⟨0, hn⟩) (ms18_1 ⟨0, hn⟩) (hs18_1 ⟨0, hn⟩) (ms18_2 ⟨0, hn⟩) (hs18_2 ⟨0, hn⟩) (ms18_3 ⟨0, hn⟩) (hs18_3 ⟨0, hn⟩) (ms18_4 ⟨0, hn⟩) (hs18_4 ⟨0, hn⟩) (ms18_5 ⟨0, hn⟩) (hs18_5 ⟨0, hn⟩) scM18_0 (Memref.isWhole_whole _) ((hcond18_0 ⟨0, hn⟩).mpr (Nat.zero_mod _)) (fun h => (fun h => by (try dsimp only at h); omega) ((hcond18_1 ⟨0, hn⟩).mp h)) (iblk18 V c 0 ⟨0, hn⟩) (iblk18 V c 1 ⟨0, hn⟩) (iblk18 V c 2 ⟨0, hn⟩), sout14_A_0 c (grid18.coords ⟨0, hn⟩) (ms18_0 ⟨0, hn⟩) (hs18_0 ⟨0, hn⟩) (ms18_1 ⟨0, hn⟩) (hs18_1 ⟨0, hn⟩) (ms18_2 ⟨0, hn⟩) (hs18_2 ⟨0, hn⟩) (ms18_3 ⟨0, hn⟩) (hs18_3 ⟨0, hn⟩) (ms18_4 ⟨0, hn⟩) (hs18_4 ⟨0, hn⟩) (ms18_5 ⟨0, hn⟩) (hs18_5 ⟨0, hn⟩) scM18_0 (Memref.isWhole_whole _) ((hcond18_0 ⟨0, hn⟩).mpr (Nat.zero_mod _)) (fun h => (fun h => by (try dsimp only at h); omega) ((hcond18_1 ⟨0, hn⟩).mp h)) (iblk18 V c 0 ⟨0, hn⟩) (iblk18 V c 1 ⟨0, hn⟩) (iblk18 V c 2 ⟨0, hn⟩))
  | n + 1, hn =>
    if h0 : (n + 1) % 25 = 0 then
      if h1 : (n + 1) % 25 = 24 then
        False.elim (by omega)
      else
        (out14_A_3 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) ((hcond18_0 ⟨n + 1, hn⟩).mpr h0) (fun h => h1 ((hcond18_1 ⟨n + 1, hn⟩).mp h)) (iblk18 V c 0 ⟨n + 1, hn⟩) (iblk18 V c 1 ⟨n + 1, hn⟩) (iblk18 V c 2 ⟨n + 1, hn⟩), out14_A_4 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) ((hcond18_0 ⟨n + 1, hn⟩).mpr h0) (fun h => h1 ((hcond18_1 ⟨n + 1, hn⟩).mp h)) (iblk18 V c 0 ⟨n + 1, hn⟩) (iblk18 V c 1 ⟨n + 1, hn⟩) (iblk18 V c 2 ⟨n + 1, hn⟩), out14_A_5 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) ((hcond18_0 ⟨n + 1, hn⟩).mpr h0) (fun h => h1 ((hcond18_1 ⟨n + 1, hn⟩).mp h)) (iblk18 V c 0 ⟨n + 1, hn⟩) (iblk18 V c 1 ⟨n + 1, hn⟩) (iblk18 V c 2 ⟨n + 1, hn⟩), sout14_A_0 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) ((hcond18_0 ⟨n + 1, hn⟩).mpr h0) (fun h => h1 ((hcond18_1 ⟨n + 1, hn⟩).mp h)) (iblk18 V c 0 ⟨n + 1, hn⟩) (iblk18 V c 1 ⟨n + 1, hn⟩) (iblk18 V c 2 ⟨n + 1, hn⟩))
    else
      if h1 : (n + 1) % 25 = 24 then
        (out14_C_3 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) ((hcond18_1 ⟨n + 1, hn⟩).mpr h1) (iblk18 V c 0 ⟨n + 1, hn⟩) (iblk18 V c 1 ⟨n + 1, hn⟩) (iblk18 V c 2 ⟨n + 1, hn⟩) (outsAt18 c n (Nat.lt_of_succ_lt hn)).2.2.2, out14_C_4 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) ((hcond18_1 ⟨n + 1, hn⟩).mpr h1) (iblk18 V c 0 ⟨n + 1, hn⟩) (iblk18 V c 1 ⟨n + 1, hn⟩) (iblk18 V c 2 ⟨n + 1, hn⟩) (outsAt18 c n (Nat.lt_of_succ_lt hn)).2.2.2, out14_C_5 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) ((hcond18_1 ⟨n + 1, hn⟩).mpr h1) (iblk18 V c 0 ⟨n + 1, hn⟩) (iblk18 V c 1 ⟨n + 1, hn⟩) (iblk18 V c 2 ⟨n + 1, hn⟩) (outsAt18 c n (Nat.lt_of_succ_lt hn)).2.2.2, sout14_C_0 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) ((hcond18_1 ⟨n + 1, hn⟩).mpr h1) (iblk18 V c 0 ⟨n + 1, hn⟩) (iblk18 V c 1 ⟨n + 1, hn⟩) (iblk18 V c 2 ⟨n + 1, hn⟩) (outsAt18 c n (Nat.lt_of_succ_lt hn)).2.2.2)
      else
        (out14_B_3 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) (fun h => h1 ((hcond18_1 ⟨n + 1, hn⟩).mp h)) (iblk18 V c 0 ⟨n + 1, hn⟩) (iblk18 V c 1 ⟨n + 1, hn⟩) (iblk18 V c 2 ⟨n + 1, hn⟩) (outsAt18 c n (Nat.lt_of_succ_lt hn)).2.2.2, out14_B_4 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) (fun h => h1 ((hcond18_1 ⟨n + 1, hn⟩).mp h)) (iblk18 V c 0 ⟨n + 1, hn⟩) (iblk18 V c 1 ⟨n + 1, hn⟩) (iblk18 V c 2 ⟨n + 1, hn⟩) (outsAt18 c n (Nat.lt_of_succ_lt hn)).2.2.2, out14_B_5 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) (fun h => h1 ((hcond18_1 ⟨n + 1, hn⟩).mp h)) (iblk18 V c 0 ⟨n + 1, hn⟩) (iblk18 V c 1 ⟨n + 1, hn⟩) (iblk18 V c 2 ⟨n + 1, hn⟩) (outsAt18 c n (Nat.lt_of_succ_lt hn)).2.2.2, sout14_B_0 c (grid18.coords ⟨n + 1, hn⟩) (ms18_0 ⟨n + 1, hn⟩) (hs18_0 ⟨n + 1, hn⟩) (ms18_1 ⟨n + 1, hn⟩) (hs18_1 ⟨n + 1, hn⟩) (ms18_2 ⟨n + 1, hn⟩) (hs18_2 ⟨n + 1, hn⟩) (ms18_3 ⟨n + 1, hn⟩) (hs18_3 ⟨n + 1, hn⟩) (ms18_4 ⟨n + 1, hn⟩) (hs18_4 ⟨n + 1, hn⟩) (ms18_5 ⟨n + 1, hn⟩) (hs18_5 ⟨n + 1, hn⟩) scM18_0 (Memref.isWhole_whole _) (fun h => h0 ((hcond18_0 ⟨n + 1, hn⟩).mp h)) (fun h => h1 ((hcond18_1 ⟨n + 1, hn⟩).mp h)) (iblk18 V c 0 ⟨n + 1, hn⟩) (iblk18 V c 1 ⟨n + 1, hn⟩) (iblk18 V c 2 ⟨n + 1, hn⟩) (outsAt18 c n (Nat.lt_of_succ_lt hn)).2.2.2)

/-- `outsAt18` at the first point: case A's contents. -/
theorem outsAt18_A (c : Dev nD) (t : Fin cfg18.N) (h0 : t.val % 25 = 0) (h1 : ¬t.val % 25 = 24) :
    outsAt18 V c t.val t.isLt = (out14_A_3 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) ((hcond18_0 t).mpr h0) (fun h => h1 ((hcond18_1 t).mp h)) (iblk18 V c 0 t) (iblk18 V c 1 t) (iblk18 V c 2 t), out14_A_4 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) ((hcond18_0 t).mpr h0) (fun h => h1 ((hcond18_1 t).mp h)) (iblk18 V c 0 t) (iblk18 V c 1 t) (iblk18 V c 2 t), out14_A_5 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) ((hcond18_0 t).mpr h0) (fun h => h1 ((hcond18_1 t).mp h)) (iblk18 V c 0 t) (iblk18 V c 1 t) (iblk18 V c 2 t), sout14_A_0 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) ((hcond18_0 t).mpr h0) (fun h => h1 ((hcond18_1 t).mp h)) (iblk18 V c 0 t) (iblk18 V c 1 t) (iblk18 V c 2 t)) := by
  obtain ⟨n, hn⟩ := t
  cases n with
  | zero => exact rfl
  | succ n => exact (dif_pos h0).trans ((dif_neg h1).trans rfl)

/-- `outsAt18` at a middle point: case B's contents, over what the point before left in the scratch. -/
theorem outsAt18_B (c : Dev nD) (t : Fin cfg18.N) (h0 : ¬t.val % 25 = 0) (h1 : ¬t.val % 25 = 24) :
    outsAt18 V c t.val t.isLt = (out14_B_3 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) (fun h => h1 ((hcond18_1 t).mp h)) (iblk18 V c 0 t) (iblk18 V c 1 t) (iblk18 V c 2 t) (outsAt18 V c (t.val - 1) (Nat.lt_of_le_of_lt (Nat.sub_le _ _) t.isLt)).2.2.2, out14_B_4 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) (fun h => h1 ((hcond18_1 t).mp h)) (iblk18 V c 0 t) (iblk18 V c 1 t) (iblk18 V c 2 t) (outsAt18 V c (t.val - 1) (Nat.lt_of_le_of_lt (Nat.sub_le _ _) t.isLt)).2.2.2, out14_B_5 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) (fun h => h1 ((hcond18_1 t).mp h)) (iblk18 V c 0 t) (iblk18 V c 1 t) (iblk18 V c 2 t) (outsAt18 V c (t.val - 1) (Nat.lt_of_le_of_lt (Nat.sub_le _ _) t.isLt)).2.2.2, sout14_B_0 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) (fun h => h1 ((hcond18_1 t).mp h)) (iblk18 V c 0 t) (iblk18 V c 1 t) (iblk18 V c 2 t) (outsAt18 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt18` at the last point: case C's contents, over what the point before left in the scratch. -/
theorem outsAt18_C (c : Dev nD) (t : Fin cfg18.N) (h0 : ¬t.val % 25 = 0) (h1 : t.val % 25 = 24) :
    outsAt18 V c t.val t.isLt = (out14_C_3 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) ((hcond18_1 t).mpr h1) (iblk18 V c 0 t) (iblk18 V c 1 t) (iblk18 V c 2 t) (outsAt18 V c (t.val - 1) (Nat.lt_of_le_of_lt (Nat.sub_le _ _) t.isLt)).2.2.2, out14_C_4 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) ((hcond18_1 t).mpr h1) (iblk18 V c 0 t) (iblk18 V c 1 t) (iblk18 V c 2 t) (outsAt18 V c (t.val - 1) (Nat.lt_of_le_of_lt (Nat.sub_le _ _) t.isLt)).2.2.2, out14_C_5 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) ((hcond18_1 t).mpr h1) (iblk18 V c 0 t) (iblk18 V c 1 t) (iblk18 V c 2 t) (outsAt18 V c (t.val - 1) (Nat.lt_of_le_of_lt (Nat.sub_le _ _) t.isLt)).2.2.2, sout14_C_0 c (grid18.coords t) (ms18_0 t) (hs18_0 t) (ms18_1 t) (hs18_1 t) (ms18_2 t) (hs18_2 t) (ms18_3 t) (hs18_3 t) (ms18_4 t) (hs18_4 t) (ms18_5 t) (hs18_5 t) scM18_0 (Memref.isWhole_whole _) (fun h => h0 ((hcond18_0 t).mp h)) ((hcond18_1 t).mpr h1) (iblk18 V c 0 t) (iblk18 V c 1 t) (iblk18 V c 2 t) (outsAt18 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt18`'s last component), the other
    scoped buffers unopened and the generator register at some state. -/
noncomputable def PhiS18 (c : Dev nD) : (n : ℕ) → n ≤ cfg18.N → sProp 𝕄
  | 0, _ => Pipeline.ΦA spec18 c
  | n + 1, hn => iprop(iprop(iprop(owns (c : Thread nD τ) scM18_0 fullShare ((outsAt18 V c n hn).2.2.2)) ∗ restBut18 (F := F) c) ∗ (∃ r, prngReg c r))

theorem PhiS18_zero (c : Dev nD) (n : ℕ) (h : n ≤ cfg18.N) (hz : n = 0) : PhiS18 V c n h = Pipeline.ΦA spec18 c := by
  subst hz; rfl

/-- After point `n` (before point `n + 1`): the scratch at that point's contents. -/
theorem PhiS18_succ (c : Dev nD) (n : ℕ) (hn : n < cfg18.N) :
    PhiS18 V c (n + 1) hn = iprop(iprop(iprop(owns (c : Thread nD τ) scM18_0 fullShare ((outsAt18 V c n hn).2.2.2)) ∗ restBut18 (F := F) c) ∗ (∃ r, prngReg c r)) := rfl

/-- Before a point that is not the first: the scratch at what the point before left. -/
theorem PhiS18_pos (c : Dev nD) (n : ℕ) (h : n ≤ cfg18.N) (hz : n ≠ 0) :
    PhiS18 V c n h = iprop(iprop(iprop(owns (c : Thread nD τ) scM18_0 fullShare ((outsAt18 V c (n - 1) (by omega)).2.2.2)) ∗ restBut18 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt18`; the invariant `PhiS18`; nothing owed;
    full shares. -/
noncomputable def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => (outsAt18 V c t.val t.isLt).1
    | ⟨4, _⟩ => (outsAt18 V c t.val t.isLt).2.1
    | ⟨5, _⟩ => (outsAt18 V c t.val t.isLt).2.2.1
  Φ t := PhiS18 V c t.val (Nat.le_of_lt_succ t.isLt)
  q _ := fullShare
  owed _ := 0

/-- The proof data's arrays are the region-entry contents. -/
theorem A_eq18 (c : Dev nD) (w : Fin cfg18.W) : (dat18 V c).A w = V c (Pipeline.arrRef spec18 w) := by
  dsimp only [dat18]

/-- The invariant at a point's start, restated at `t.val`. -/
theorem PhiS18_castSucc (c : Dev nD) (t : Fin cfg18.N) :
    (dat18 V c).Φ t.castSucc = PhiS18 V c t.val (Nat.le_of_lt t.isLt) := by
  dsimp only [dat18]; simp only [Fin.coe_castSucc]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = (outsAt18 V c t.val t.isLt).1 := by dsimp only [dat18]
theorem after18_4 (c : Dev nD) (t : Fin cfg18.N) : (dat18 V c).after 4 t = (outsAt18 V c t.val t.isLt).2.1 := by dsimp only [dat18]
theorem after18_5 (c : Dev nD) (t : Fin cfg18.N) : (dat18 V c).after 5 t = (outsAt18 V c t.val t.isLt).2.2.1 := by dsimp only [dat18]

/-- Each input's current staging buffer holds its block at every point, fetched there or not. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d

/-! ## The body obligation, at a generic point -/

/-- What the body is called with at point `t` (the windows one by one), -/
noncomputable def bodyPre18 (c : Dev nD) (t : Fin cfg18.N) : sProp 𝕄 :=
  iprop((dat18 V c).Φ t.castSucc ∗ (dat18 V c).owesAt () t.castSucc
    ∗ (∃ d, owns (c : Thread nD τ) (ms18_0 t) fullShare ((dat18 V c).before 0 t d))
    ∗ (∃ d, owns (c : Thread nD τ) (ms18_1 t) fullShare ((dat18 V c).before 1 t d))
    ∗ (∃ d, owns (c : Thread nD τ) (ms18_2 t) fullShare ((dat18 V c).before 2 t d))
    ∗ (∃ d, owns (c : Thread nD τ) (ms18_3 t) fullShare ((dat18 V c).before 3 t d))
    ∗ (∃ d, owns (c : Thread nD τ) (ms18_4 t) fullShare ((dat18 V c).before 4 t d))
    ∗ (∃ d, owns (c : Thread nD τ) (ms18_5 t) fullShare ((dat18 V c).before 5 t d)))

/-- and what it returns. -/
noncomputable def bodyPost18 (c : Dev nD) (t : Fin cfg18.N) : sProp 𝕄 :=
  iprop((dat18 V c).Φ t.succ ∗ (dat18 V c).owesAt () t.succ
    ∗ (dat18 V c).leavesExact 0 t
    ∗ (dat18 V c).leavesExact 1 t
    ∗ (dat18 V c).leavesExact 2 t
    ∗ (dat18 V c).leavesExact 3 t
    ∗ (dat18 V c).leavesExact 4 t
    ∗ (dat18 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  rw [cc18_kernel_eq]
  simp only [before18_0, before18_1, before18_2]
  rw [show (dat18 V c).owesAt () t.succ = (dat18 V c).owesAt () t.castSucc from rfl]
  rw [show (dat18 V c).Φ t.succ = PhiS18 V c (t.val + 1) t.isLt from rfl, PhiS18_succ]
  have hN : t.val < 25 := lt_of_lt_of_eq t.isLt (show cfg18.N = 25 from N_18)
  by_cases h0 : t.val % 25 = 0
  · by_cases h1 : t.val % 25 = 24
    · exfalso; omega
    · rw [show (dat18 V c).leavesExact 0 t = owns (c : Thread nD τ) (ms18_0 t) fullShare ((dat18 V c).after 0 t) from by
        unfold Dat.leavesExact; rw [liveAt18_0 t], after18_0]
      rw [show (dat18 V c).leavesExact 1 t = owns (c : Thread nD τ) (ms18_1 t) fullShare ((dat18 V c).after 1 t) from by
        unfold Dat.leavesExact; rw [liveAt18_1 t], after18_1]
      rw [show (dat18 V c).leavesExact 2 t = owns (c : Thread nD τ) (ms18_2 t) fullShare ((dat18 V c).after 2 t) from by
        unfold Dat.leavesExact; rw [liveAt18_2 t], after18_2]
      rw [show (dat18 V c).leavesExact 3 t = owns (c : Thread nD τ) (ms18_3 t) fullShare ((dat18 V c).after 3 t) from by
        unfold Dat.leavesExact; rw [liveAt18_3 t], after18_3]
      rw [show (dat18 V c).leavesExact 4 t = owns (c : Thread nD τ) (ms18_4 t) fullShare ((dat18 V c).after 4 t) from by
        unfold Dat.leavesExact; rw [liveAt18_4 t], after18_4]
      rw [Dat.leavesExact_idle (dat18 V c) 5 t (idleAt18_5_A t ((hcond18_0 t).mpr h0) (fun h => h1 ((hcond18_1 t).mp h))) (noFlush18_5_A t ((hcond18_0 t).mpr h0) (fun h => h1 ((hcond18_1 t).mp h)))]
      rw [outsAt18_A V c t h0 h1]
      unfold out14_A_3 out14_A_4 sout14_A_0; (try dsimp only)
      by_cases hz : t.val = 0
      · rw [PhiS18_castSucc V c t, PhiS18_zero V c _ _ hz, PhiA18_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid18.coords t) _ _ _ _ _ _ _ _ _ _ _ _ _ _ ((hcond18_0 t).mpr h0) (fun h => h1 ((hcond18_1 t).mp h)) (iblk18 V c 0 t) (iblk18 V c 1 t) (iblk18 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat18 V c).leavesExact 0 t = owns (c : Thread nD τ) (ms18_0 t) fullShare ((dat18 V c).after 0 t) from by
        unfold Dat.leavesExact; rw [liveAt18_0 t], after18_0]
      rw [show (dat18 V c).leavesExact 1 t = owns (c : Thread nD τ) (ms18_1 t) fullShare ((dat18 V c).after 1 t) from by
        unfold Dat.leavesExact; rw [liveAt18_1 t], after18_1]
      rw [show (dat18 V c).leavesExact 2 t = owns (c : Thread nD τ) (ms18_2 t) fullShare ((dat18 V c).after 2 t) from by
        unfold Dat.leavesExact; rw [liveAt18_2 t], after18_2]
      rw [show (dat18 V c).leavesExact 3 t = owns (c : Thread nD τ) (ms18_3 t) fullShare ((dat18 V c).after 3 t) from by
        unfold Dat.leavesExact; rw [liveAt18_3 t], after18_3]
      rw [show (dat18 V c).leavesExact 4 t = owns (c : Thread nD τ) (ms18_4 t) fullShare ((dat18 V c).after 4 t) from by
        unfold Dat.leavesExact; rw [liveAt18_4 t], after18_4]
      rw [show (dat18 V c).leavesExact 5 t = owns (c : Thread nD τ) (ms18_5 t) fullShare ((dat18 V c).after 5 t) from by
        unfold Dat.leavesExact; rw [liveAt18_5_C t (fun h => h0 ((hcond18_0 t).mp h)) ((hcond18_1 t).mpr h1)], after18_5]
      rw [outsAt18_C V c t h0 h1]
      unfold out14_C_3 out14_C_4 out14_C_5 sout14_C_0; (try dsimp only)
      by_cases hz : t.val = 0
      · exfalso; omega
      · rw [PhiS18_castSucc V c t, PhiS18_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid18.coords t) _ _ _ _ _ _ _ _ _ _ _ _ _ _ (fun h => h0 ((hcond18_0 t).mp h)) ((hcond18_1 t).mpr h1) (iblk18 V c 0 t) (iblk18 V c 1 t) (iblk18 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat18 V c).leavesExact 0 t = owns (c : Thread nD τ) (ms18_0 t) fullShare ((dat18 V c).after 0 t) from by
        unfold Dat.leavesExact; rw [liveAt18_0 t], after18_0]
      rw [show (dat18 V c).leavesExact 1 t = owns (c : Thread nD τ) (ms18_1 t) fullShare ((dat18 V c).after 1 t) from by
        unfold Dat.leavesExact; rw [liveAt18_1 t], after18_1]
      rw [show (dat18 V c).leavesExact 2 t = owns (c : Thread nD τ) (ms18_2 t) fullShare ((dat18 V c).after 2 t) from by
        unfold Dat.leavesExact; rw [liveAt18_2 t], after18_2]
      rw [show (dat18 V c).leavesExact 3 t = owns (c : Thread nD τ) (ms18_3 t) fullShare ((dat18 V c).after 3 t) from by
        unfold Dat.leavesExact; rw [liveAt18_3 t], after18_3]
      rw [show (dat18 V c).leavesExact 4 t = owns (c : Thread nD τ) (ms18_4 t) fullShare ((dat18 V c).after 4 t) from by
        unfold Dat.leavesExact; rw [liveAt18_4 t], after18_4]
      rw [Dat.leavesExact_idle (dat18 V c) 5 t (idleAt18_5_B t (fun h => h0 ((hcond18_0 t).mp h)) (fun h => h1 ((hcond18_1 t).mp h))) (noFlush18_5_B t (fun h => h0 ((hcond18_0 t).mp h)) (fun h => h1 ((hcond18_1 t).mp h)))]
      rw [outsAt18_B V c t h0 h1]
      unfold out14_B_3 out14_B_4 sout14_B_0; (try dsimp only)
      by_cases hz : t.val = 0
      · exfalso; omega
      · rw [PhiS18_castSucc V c t, PhiS18_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid18.coords t) _ _ _ _ _ _ _ _ _ _ _ _ _ _ (fun h => h0 ((hcond18_0 t).mp h)) (fun h => h1 ((hcond18_1 t).mp h)) (iblk18 V c 0 t) (iblk18 V c 1 t) (iblk18 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation18 (c : Dev nD) : BodyObligation (dat18 (F := F) V c) (defs₀ (F := F)) Variants.none () Set.univ := fun t => by
  rw [bigSep_W18, bigSep_W18]
  exact sound_body18 V c t

/-- What the launch hands the region is the invariant before the first point. -/
theorem hin18 (c : Dev nD) : Pipeline.ΦA spec18 c ⊢ (dat18 V c).Φ 0 := by
  rw [show (dat18 V c).Φ 0 = PhiS18 V c 0 (Nat.zero_le _) from rfl, PhiS18_zero V c 0 _ rfl]
  try exact Idealize.SL.BI.Entails.refl _

/-- After any point but the first the invariant gives it back: the scratch's named contents are forgotten. -/
theorem Phi_out18 (c : Dev nD) (t : Fin (cfg18.N + 1)) (ht : t.val ≠ 0) : (dat18 V c).Φ t ⊢ Pipeline.ΦA spec18 c := by
  rw [show (dat18 V c).Φ t = PhiS18 V c t.val (Nat.le_of_lt_succ t.isLt) from rfl, PhiS18_pos V c _ _ ht, PhiA18_eq]
  iintro ⟨⟨HS0, HR⟩, Hg⟩
  isplitl [HS0 HR]
  · isplitl [HS0]
    · iexists _; iexact HS0
    iexact HR
  iexact Hg

/-- The same after the last point. -/
theorem hout18 (c : Dev nD) : (dat18 V c).Φ (Fin.last cfg18.N) ⊢ Pipeline.ΦA spec18 c :=
  Phi_out18 V c _ (by rw [Fin.val_last]; have : cfg18.N = 25 := N_18; omega)

end Cert.KernelIdeal.Hand

end
-- ==== Proof.KI.R19.lean ====
import proofs.«408084_j48395691492010_3_alg».proof.Proof.KI.R3

/-! Region 19: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- The row-tile window (window 0, fetched at every point) holds its block when the body runs. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

/-- The mean window (window 1, one constant block fetched at the first point only) holds that block at every point. -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-! ## The branch conditions and the idle points, over this region's grid (the same grid) -/

/-- The reset's condition holds at the first point only, -/
theorem hcond19_0 : ∀ t : Fin cfg19.N, cond3_0 (grid19.coords t) ↔ t.val = 0 := hcond3_0
/-- the final store's at the last point only. -/
theorem hcond19_1 : ∀ t : Fin cfg19.N, cond3_1 (grid19.coords t) ↔ t.val = 24 := hcond3_1

theorem liveAt19_0 : ∀ t : Fin cfg19.N, cfg19.idle 0 (grid19.coords t) = false := fun _ => rfl
theorem liveAt19_1 : ∀ t : Fin cfg19.N, cfg19.idle 1 (grid19.coords t) = false := fun _ => rfl
/-- Away from the last point the result window is idle, -/
theorem idleAt19_2 : ∀ t : Fin cfg19.N, ¬cond3_1 (grid19.coords t) → cfg19.idle 2 (grid19.coords t) = true := idleAt3_2
/-- and live at it. -/
theorem liveAt19_2 : ∀ t : Fin cfg19.N, cond3_1 (grid19.coords t) → cfg19.idle 2 (grid19.coords t) = false := liveAt3_2
/-- Away from the last point its block is not written back (the schedule's closed form). -/
theorem noFlush19_2 (t : Fin cfg19.N) (h : ¬cond3_1 (grid19.coords t)) : (cfg19.win 2).flush t = false := by
  have hN : t.val < 25 := lt_of_lt_of_eq t.isLt (show cfg19.N = 25 from N_19)
  have h24 : ¬t.val = 24 := fun e => h ((hcond19_1 t).mpr e)
  cases hf : (cfg19.win 2).flush t with
  | false => rfl
  | true => exact absurd (by have := (flush19_2 t).mp hf; omega) h24

/-! ## The memrefs the body is called with -/

noncomputable abbrev ms19_0 (t : Fin cfg19.N) : Memref sig .tc .vmem S2000x64 .f32 := win19_0.stage (cfg19.slots t 0)
abbrev hs19_0 (t : Fin cfg19.N) : (ms19_0 t).IsWhole := hstage19_0 ((cfg19.slots t 0).cast nbuf19_0)
noncomputable abbrev ms19_1 (t : Fin cfg19.N) : Memref sig .tc .vmem S1x64 .f32 := win19_1.stage (cfg19.slots t 1)
abbrev hs19_1 (t : Fin cfg19.N) : (ms19_1 t).IsWhole := hstage19_1 ((cfg19.slots t 1).cast nbuf19_1)
noncomputable abbrev ms19_2 (t : Fin cfg19.N) : Memref sig .tc .vmem S1x64 .f32 := win19_2.stage (cfg19.slots t 2)
abbrev hs19_2 (t : Fin cfg19.N) : (ms19_2 t).IsWhole := hstage19_2 ((cfg19.slots t 2).cast nbuf19_2)
/-- The accumulator: this call's own scratch buffer, whole. -/
noncomputable abbrev scM19_0 : Memref sig .tc .vmem S1x64 .f32 := Memref.whole cc19_scratch0

/-- The body the pipeline calls at point `t` is region 3's printed kernel on this region's memrefs: the two printed
    functions are the same term. -/
theorem bodyAt19_eq (t : Fin cfg19.N) :
    (bodyAt19 t : Prog (TpuEff nD τ sig (Elt F) Λ₀ .tc) PUnit)
      = cc3__var_kernel (grid19.coords t) (ms19_0 t) (hs19_0 t) (ms19_1 t) (hs19_1 t) (ms19_2 t) (hs19_2 t) scM19_0 (Memref.isWhole_whole _) := rfl

/-- The region-entry invariant with the accumulator split out of the scoped rest, as a memref owned at some contents. -/
theorem PhiA19_eq (c : Dev nD) :
    (Pipeline.ΦA spec19 c : sProp 𝕄)
      = iprop(iprop(iprop(∃ d, owns (c : Thread nD τ) scM19_0 fullShare d)
          ∗ Pipeline.scopedRestBut (Ix := Unit) (Name := ℕ) (U := UR sig nD τ) (Lvl := ℕ) (Val := Elt F) spec19 c [cc19_scratch0]) ∗ (∃ r, prngReg c r)) := by
  unfold Pipeline.ΦA; rw [scopedRest19_split]; simp only [scM19_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt19 (c : Dev nD) : (n : ℕ) → n < cfg19.N → Vec F S1x64 .f32 × Vec F S1x64 .f32
  | 0, hn => (idle3_2,
      sout3_A_0 c (grid19.coords ⟨0, hn⟩) (ms19_0 ⟨0, hn⟩) (hs19_0 ⟨0, hn⟩) (ms19_1 ⟨0, hn⟩) (hs19_1 ⟨0, hn⟩) (ms19_2 ⟨0, hn⟩) (hs19_2 ⟨0, hn⟩) scM19_0 (Memref.isWhole_whole _) ((hcond19_0 ⟨0, hn⟩).mpr rfl)
        (fun h => (fun h' : (0 : ℕ) = 24 => by omega) ((hcond19_1 ⟨0, hn⟩).mp h)) (iblk19 V c 0 ⟨0, hn⟩) (iblk19 V c 1 ⟨0, hn⟩))
  | n + 1, hn =>
    if h1 : n + 1 = 24 then
      (out3_C_2 c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19_0 (Memref.isWhole_whole _) (fun h => (fun h' : n + 1 = 0 => by omega) ((hcond19_0 ⟨n + 1, hn⟩).mp h))
          ((hcond19_1 ⟨n + 1, hn⟩).mpr h1) (iblk19 V c 0 ⟨n + 1, hn⟩) (iblk19 V c 1 ⟨n + 1, hn⟩) (outsAt19 c n (Nat.lt_of_succ_lt hn)).2,
       sout3_C_0 c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19_0 (Memref.isWhole_whole _) (fun h => (fun h' : n + 1 = 0 => by omega) ((hcond19_0 ⟨n + 1, hn⟩).mp h))
          ((hcond19_1 ⟨n + 1, hn⟩).mpr h1) (iblk19 V c 0 ⟨n + 1, hn⟩) (iblk19 V c 1 ⟨n + 1, hn⟩) (outsAt19 c n (Nat.lt_of_succ_lt hn)).2)
    else
      (idle3_2,
       sout3_B_0 c (grid19.coords ⟨n + 1, hn⟩) (ms19_0 ⟨n + 1, hn⟩) (hs19_0 ⟨n + 1, hn⟩) (ms19_1 ⟨n + 1, hn⟩) (hs19_1 ⟨n + 1, hn⟩) (ms19_2 ⟨n + 1, hn⟩) (hs19_2 ⟨n + 1, hn⟩) scM19_0 (Memref.isWhole_whole _) (fun h => (fun h' : n + 1 = 0 => by omega) ((hcond19_0 ⟨n + 1, hn⟩).mp h))
          (fun h => h1 ((hcond19_1 ⟨n + 1, hn⟩).mp h)) (iblk19 V c 0 ⟨n + 1, hn⟩) (iblk19 V c 1 ⟨n + 1, hn⟩) (outsAt19 c n (Nat.lt_of_succ_lt hn)).2)

theorem outsAt19_A (c : Dev nD) (t : Fin cfg19.N) (h0 : t.val = 0) (h1 : ¬t.val = 24) :
    outsAt19 V c t.val t.isLt = (idle3_2,
      sout3_A_0 c (grid19.coords t) (ms19_0 t) (hs19_0 t) (ms19_1 t) (hs19_1 t) (ms19_2 t) (hs19_2 t) scM19_0 (Memref.isWhole_whole _) ((hcond19_0 t).mpr h0) (fun h => h1 ((hcond19_1 t).mp h)) (iblk19 V c 0 t) (iblk19 V c 1 t)) := by
  obtain ⟨n, hn⟩ := t
  cases n with
  | zero => exact rfl
  | succ n => exact absurd h0 (Nat.succ_ne_zero n)

theorem outsAt19_B (c : Dev nD) (t : Fin cfg19.N) (h0 : ¬t.val = 0) (h1 : ¬t.val = 24) :
    outsAt19 V c t.val t.isLt = (idle3_2,
      sout3_B_0 c (grid19.coords t) (ms19_0 t) (hs19_0 t) (ms19_1 t) (hs19_1 t) (ms19_2 t) (hs19_2 t) scM19_0 (Memref.isWhole_whole _) (fun h => h0 ((hcond19_0 t).mp h)) (fun h => h1 ((hcond19_1 t).mp h)) (iblk19 V c 0 t) (iblk19 V c 1 t)
        (outsAt19 V c (t.val - 1) (Nat.lt_of_le_of_lt (Nat.sub_le _ _) t.isLt)).2) := by
  obtain ⟨n, hn⟩ := t
  cases n with
  | zero => exact absurd rfl h0
  | succ n => exact (dif_neg h1).trans rfl

theorem outsAt19_C (c : Dev nD) (t : Fin cfg19.N) (h0 : ¬t.val = 0) (h1 : t.val = 24) :
    outsAt19 V c t.val t.isLt =
      (out3_C_2 c (grid19.coords t) (ms19_0 t) (hs19_0 t) (ms19_1 t) (hs19_1 t) (ms19_2 t) (hs19_2 t) scM19_0 (Memref.isWhole_whole _) (fun h => h0 ((hcond19_0 t).mp h)) ((hcond19_1 t).mpr h1) (iblk19 V c 0 t) (iblk19 V c 1 t)
        (outsAt19 V c (t.val - 1) (Nat.lt_of_le_of_lt (Nat.sub_le _ _) t.isLt)).2,
       sout3_C_0 c (grid19.coords t) (ms19_0 t) (hs19_0 t) (ms19_1 t) (hs19_1 t) (ms19_2 t) (hs19_2 t) scM19_0 (Memref.isWhole_whole _) (fun h => h0 ((hcond19_0 t).mp h)) ((hcond19_1 t).mpr h1) (iblk19 V c 0 t) (iblk19 V c 1 t)
        (outsAt19 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS19 (c : Dev nD) : (n : ℕ) → n ≤ cfg19.N → sProp 𝕄
  | 0, _ => Pipeline.ΦA spec19 c
  | n + 1, hn => iprop(iprop(owns (c : Thread nD τ) scM19_0 fullShare ((outsAt19 V c n hn).2)
      ∗ Pipeline.scopedRestBut (Ix := Unit) (Name := ℕ) (U := UR sig nD τ) (Lvl := ℕ) (Val := Elt F) spec19 c [cc19_scratch0]) ∗ (∃ r, prngReg c r))

theorem PhiS19_zero (c : Dev nD) (n : ℕ) (h : n ≤ cfg19.N) (hz : n = 0) : PhiS19 V c n h = Pipeline.ΦA spec19 c := by
  subst hz; rfl

theorem PhiS19_succ (c : Dev nD) (n : ℕ) (hn : n < cfg19.N) :
    PhiS19 V c (n + 1) hn = iprop(iprop(owns (c : Thread nD τ) scM19_0 fullShare ((outsAt19 V c n hn).2)
      ∗ Pipeline.scopedRestBut (Ix := Unit) (Name := ℕ) (U := UR sig nD τ) (Lvl := ℕ) (Val := Elt F) spec19 c [cc19_scratch0]) ∗ (∃ r, prngReg c r)) := rfl

theorem PhiS19_pos (c : Dev nD) (n : ℕ) (h : n ≤ cfg19.N) (hz : n ≠ 0) :
    PhiS19 V c n h = iprop(iprop(owns (c : Thread nD τ) scM19_0 fullShare ((outsAt19 V c (n - 1) (by omega)).2)
      ∗ Pipeline.scopedRestBut (Ix := Unit) (Name := ℕ) (U := UR sig nD τ) (Lvl := ℕ) (Val := Elt F) spec19 c [cc19_scratch0]) ∗ (∃ r, prngReg c r)) := by
  cases n with
  | zero => exact absurd rfl hz
  | succ n => rfl

/-! ## The proof data -/

noncomputable def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => (outsAt19 V c t.val t.isLt).1
  Φ t := PhiS19 V c t.val (Nat.le_of_lt_succ t.isLt)
  q _ := fullShare
  owed _ := 0

theorem A_eq19 (c : Dev nD) (w : Fin cfg19.W) : (dat19 V c).A w = V c (Pipeline.arrRef spec19 w) := by
  dsimp only [dat19]

theorem PhiS19_castSucc (c : Dev nD) (t : Fin cfg19.N) :
    (dat19 V c).Φ t.castSucc = PhiS19 V c t.val (Nat.le_of_lt t.isLt) := by
  dsimp only [dat19]; simp only [Fin.coe_castSucc]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = (outsAt19 V c t.val t.isLt).1 := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

/-! ## The body obligation -/

noncomputable def bodyPre19 (c : Dev nD) (t : Fin cfg19.N) : sProp 𝕄 :=
  iprop((dat19 V c).Φ t.castSucc ∗ (dat19 V c).owesAt () t.castSucc
    ∗ (∃ d, owns (c : Thread nD τ) (ms19_0 t) fullShare ((dat19 V c).before 0 t d))
    ∗ (∃ d, owns (c : Thread nD τ) (ms19_1 t) fullShare ((dat19 V c).before 1 t d))
    ∗ (∃ d, owns (c : Thread nD τ) (ms19_2 t) fullShare ((dat19 V c).before 2 t d)))

noncomputable def bodyPost19 (c : Dev nD) (t : Fin cfg19.N) : sProp 𝕄 :=
  iprop((dat19 V c).Φ t.succ ∗ (dat19 V c).owesAt () t.succ
    ∗ (dat19 V c).leavesExact 0 t
    ∗ (dat19 V c).leavesExact 1 t
    ∗ (dat19 V c).leavesExact 2 t)

set_option maxHeartbeats 4800000 in
/-- The body at any point, from region 3's triples on this region's memrefs. -/
theorem sound_body19 (c : Dev nD) (t : Fin cfg19.N) :
    bodyPre19 V c t ⊢ wp frame (wpE (defs₀ (F := F)) Variants.none c none) Set.univ (bodyAt19 t) (fun _ => bodyPost19 V c t) := by
  rw [bodyAt19_eq (F := F) t]
  unfold bodyPre19 bodyPost19
  simp only [before19_0, before19_1]
  rw [show (dat19 V c).owesAt () t.succ = (dat19 V c).owesAt () t.castSucc from rfl]
  rw [show (dat19 V c).Φ t.succ = PhiS19 V c (t.val + 1) t.isLt from rfl, PhiS19_succ]
  have hN : t.val < 25 := lt_of_lt_of_eq t.isLt (show cfg19.N = 25 from N_19)
  rw [show (dat19 V c).leavesExact 0 t = owns (c : Thread nD τ) (ms19_0 t) fullShare ((dat19 V c).after 0 t) from by
    unfold Dat.leavesExact; rw [liveAt19_0 t], after19_0]
  rw [show (dat19 V c).leavesExact 1 t = owns (c : Thread nD τ) (ms19_1 t) fullShare ((dat19 V c).after 1 t) from by
    unfold Dat.leavesExact; rw [liveAt19_1 t], after19_1]
  by_cases h0 : t.val = 0
  · have h1 : ¬t.val = 24 := by omega
    rw [Dat.leavesExact_idle (dat19 V c) 2 t (idleAt19_2 t (fun h => h1 ((hcond19_1 t).mp h))) (noFlush19_2 t (fun h => h1 ((hcond19_1 t).mp h)))]
    rw [outsAt19_A V c t h0 h1]
    unfold sout3_A_0; (try dsimp only)
    rw [PhiS19_castSucc V c t, PhiS19_zero V c _ _ h0, PhiA19_eq]
    iintro ⟨⟨⟨HS0, Hr⟩, Hg⟩, Ho, ⟨%d0, H0⟩, ⟨%d1, H1⟩, ⟨%d2, H2⟩⟩
    iapply ((kernelRun3_A c (grid19.coords t) _ _ _ _ _ _ _ _ ((hcond19_0 t).mpr h0) (fun h => h1 ((hcond19_1 t).mp h)) (iblk19 V c 0 t) (iblk19 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat19 V c).leavesExact 2 t = owns (c : Thread nD τ) (ms19_2 t) fullShare ((dat19 V c).after 2 t) from by
        unfold Dat.leavesExact; rw [liveAt19_2 t ((hcond19_1 t).mpr h1)], after19_2]
      rw [outsAt19_C V c t h0 h1]
      unfold out3_C_2 sout3_C_0; (try dsimp only)
      rw [PhiS19_castSucc V c t, PhiS19_pos V c _ _ h0]
      iintro ⟨⟨⟨HS0, Hr⟩, Hg⟩, Ho, ⟨%d0, H0⟩, ⟨%d1, H1⟩, ⟨%d2, H2⟩⟩
      iapply ((kernelRun3_C c (grid19.coords t) _ _ _ _ _ _ _ _ (fun h => h0 ((hcond19_0 t).mp h)) ((hcond19_1 t).mpr h1) (iblk19 V c 0 t) (iblk19 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat19 V c) 2 t (idleAt19_2 t (fun h => h1 ((hcond19_1 t).mp h))) (noFlush19_2 t (fun h => h1 ((hcond19_1 t).mp h)))]
      rw [outsAt19_B V c t h0 h1]
      unfold sout3_B_0; (try dsimp only)
      rw [PhiS19_castSucc V c t, PhiS19_pos V c _ _ h0]
      iintro ⟨⟨⟨HS0, Hr⟩, Hg⟩, Ho, ⟨%d0, H0⟩, ⟨%d1, H1⟩, ⟨%d2, H2⟩⟩
      iapply ((kernelRun3_B c (grid19.coords t) _ _ _ _ _ _ _ _ (fun h => h0 ((hcond19_0 t).mp h)) (fun h => h1 ((hcond19_1 t).mp h)) (iblk19 V c 0 t) (iblk19 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation19 (c : Dev nD) : BodyObligation (dat19 (F := F) V c) (defs₀ (F := F)) Variants.none () Set.univ := fun t => by
  rw [bigSep_W19, bigSep_W19]
  exact sound_body19 V c t

/-- What the launch hands the region is the invariant before the first point. -/
theorem hin19 (c : Dev nD) : Pipeline.ΦA spec19 c ⊢ (dat19 V c).Φ 0 := by
  rw [show (dat19 V c).Φ 0 = PhiS19 V c 0 (Nat.zero_le _) from rfl, PhiS19_zero V c 0 _ rfl]
  try exact Idealize.SL.BI.Entails.refl _

/-- After any point but the first the invariant gives the launch's back: the accumulator's named contents are forgotten. -/
theorem Phi_out19 (c : Dev nD) (t : Fin (cfg19.N + 1)) (ht : t.val ≠ 0) : (dat19 V c).Φ t ⊢ Pipeline.ΦA spec19 c := by
  rw [show (dat19 V c).Φ t = PhiS19 V c t.val (Nat.le_of_lt_succ t.isLt) from rfl, PhiS19_pos V c _ _ ht, PhiA19_eq]
  iintro ⟨⟨HS0, Hr⟩, Hg⟩
  isplitl [HS0 Hr]
  · isplitl [HS0]
    · iexists _; iexact HS0
    iexact Hr
  iexact Hg

/-- The same after the last point. -/
theorem hout19 (c : Dev nD) : (dat19 V c).Φ (Fin.last cfg19.N) ⊢ Pipeline.ΦA spec19 c :=
  Phi_out19 V c _ (by rw [Fin.val_last]; have : cfg19.N = 25 := N_19; omega)

end Cert.KernelIdeal.Hand

end
-- ==== Proof.KI.R20.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Ring
import Idealize.ShloMosaic.Lib.Tactic

/-!
# Region 20: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region20
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- The activations' staging buffer holds the block of the current point at every point: the window is fetched at
    every point, is never cut and never idle, and the body leaves the block where it found it. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

/-- The mean row's staging buffer holds its (one) block at every point: it is fetched at the first point only, its
    block index never moves afterwards, and the body leaves it in place. -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-- The same of the variance row. -/
theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)

/-- The same of the scale row. -/
theorem before20_3_of {c : Dev nD} (dat : Dat τ (Elt F) Unit ℕ (UR sig nD τ) ℕ cfg20 c) (hA : dat.A 3 = V c (Pipeline.arrRef spec20 3))
    (hafter : ∀ t, dat.after 3 t = iblk20 V c 3 t) (t : Fin cfg20.N) (d) : dat.before 3 t d = iblk20 V c 3 t :=
  (dat.before_in_eq_fetched 3 rfl (fun _ => rfl) (fun _ _ _ => rfl) (fun t => by rw [hafter]; unfold Dat.blockOf iblk20; rw [hA]; try rfl) t d).trans
    (by unfold Dat.fetched Dat.blockOf iblk20; rw [hA]; try rfl)

/-- The same of the shift row. -/
theorem before20_4_of {c : Dev nD} (dat : Dat τ (Elt F) Unit ℕ (UR sig nD τ) ℕ cfg20 c) (hA : dat.A 4 = V c (Pipeline.arrRef spec20 4))
    (hafter : ∀ t, dat.after 4 t = iblk20 V c 4 t) (t : Fin cfg20.N) (d) : dat.before 4 t d = iblk20 V c 4 t :=
  (dat.before_in_eq_fetched 4 rfl (fun _ => rfl) (fun _ _ _ => rfl) (fun t => by rw [hafter]; unfold Dat.blockOf iblk20; rw [hA]; try rfl) t d).trans
    (by unfold Dat.fetched Dat.blockOf iblk20; rw [hA]; try rfl)

/-! ## The body's accesses: each buffer is read, and the output written, whole -/

/-- The whole of a block of 2000 rows. -/
noncomputable abbrev r20_0 : Rect S2000x64 := Rect.unit (s := S2000x64) ![0, 0] S2000x64.size inb_S2000x64_S2000x64_0_0
/-- The whole of a single row. -/
noncomputable abbrev r20_1 : Rect S1x64 := Rect.unit (s := S1x64) ![0, 0] S1x64.size inb_S1x64_S1x64_0_0

/-! ## What the body leaves in the output buffer -/

/-- The output buffer after the body, from the five input blocks: its one store, whose payload is the skeleton's. -/
noncomputable def out20_5 (x0 : Vec F S2000x64 .f32) (x1 : Vec F S1x64 .f32) (x2 : Vec F S1x64 .f32) (x3 : Vec F S1x64 .f32) (x4 : Vec F S1x64 .f32) :
    Vec F S2000x64 .f32 :=
  View.canon [⟨r20_0, k20_pay1 (View.ld x0 r20_0) (View.ld x1 r20_1) (View.ld x2 r20_1) (View.ld x3 r20_1) (View.ld x4 r20_1)⟩]

/-- The one store covers the buffer. -/
theorem cover20_5 (p0 : Vec F S2000x64 .f32) (y : S2000x64.Idx) :
    ∃ pc ∈ ([⟨r20_0, p0⟩] : List (View.Piece (Elt F) S2000x64 .f32)), y ∈ pc.1.set :=
  View.cover_of_tiled [⟨r20_0, p0⟩] S2000x64.size (by rfl) y

/-! ## The body's triple -/

set_option maxHeartbeats 1000000 in
/-- The body on whole staging buffers, the five inputs' at read contents x0 … x4 and the output's at anything, runs
    to a state in which the inputs' are as they were and the output's holds out20_5 of them. (The body also loads the
    output buffer before it stores to it; the loaded value is not used.) -/
theorem sound_kernel20 (c : Dev nD) (E : Set ℕ) (i : grid20.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out20_5 x0 x1 x2 x3 x4)) -∗ K ⟨⟩))
      ⊢ wp frame (wpE (defs₀ (F := F)) Variants.none c none) E (cc20__bn_softmax_kernel i arg1 harg1 arg2 harg2 arg3 harg3 arg4 harg4 arg5 harg5 arg6 harg6) K := by
  simp only [cc20__bn_softmax_kernel_eq_skeleton]; unfold cc20__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover20_5 _)

/-! ## The pipeline's proof data -/

/-- The proof data of the region's pipeline on core c: the arrays as the region finds them; after the body at point t
    each input's buffer at its block and the output's at out20_5 of the input blocks; the invariant that of a body which
    touches nothing but its windows; nothing owed; full shares. -/
noncomputable def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => iblk20 V c 3 t
    | ⟨4, _⟩ => iblk20 V c 4 t
    | ⟨5, _⟩ => out20_5 (iblk20 V c 0 t) (iblk20 V c 1 t) (iblk20 V c 2 t) (iblk20 V c 3 t) (iblk20 V c 4 t)
  Φ _ := Pipeline.ΦA spec20 c
  q _ := fullShare
  owed _ := 0

/-- The proof data's arrays are the region-entry contents. -/
theorem A_eq20 (c : Dev nD) (w : Fin cfg20.W) : (dat20 V c).A w = V c (Pipeline.arrRef spec20 w) := by
  dsimp only [dat20]

/-- What the body leaves, window by window. -/
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = iblk20 V c 3 t := by dsimp only [dat20]
theorem after20_4 (c : Dev nD) (t : Fin cfg20.N) : (dat20 V c).after 4 t = iblk20 V c 4 t := by dsimp only [dat20]
theorem after20_5 (c : Dev nD) (t : Fin cfg20.N) :
    (dat20 V c).after 5 t = out20_5 (iblk20 V c 0 t) (iblk20 V c 1 t) (iblk20 V c 2 t) (iblk20 V c 3 t) (iblk20 V c 4 t) := by dsimp only [dat20]

/-- Each input's current staging buffer holds its block at every point, fetched there or not. -/
theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d
theorem before20_3 (c : Dev nD) (t : Fin cfg20.N) (d) : (dat20 V c).before 3 t d = iblk20 V c 3 t :=
  before20_3_of V (dat20 V c) (A_eq20 V c 3) (after20_3 V c) t d
theorem before20_4 (c : Dev nD) (t : Fin cfg20.N) (d) : (dat20 V c).before 4 t d = iblk20 V c 4 t :=
  before20_4_of V (dat20 V c) (A_eq20 V c 4) (after20_4 V c) t d

/-! ## The body obligation, at a generic point -/

/-- What the body is called with at point t, the windows one by one, -/
noncomputable def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d))
    ∗ (∃ d, owns (c : Thread nD τ) (st20_4 t) fullShare ((dat20 V c).before 4 t d))
    ∗ (∃ d, owns (c : Thread nD τ) (st20_5 t) fullShare ((dat20 V c).before 5 t d)))

/-- and what it returns. -/
noncomputable def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t)
    ∗ owns (c : Thread nD τ) (st20_4 t) fullShare ((dat20 V c).after 4 t)
    ∗ owns (c : Thread nD τ) (st20_5 t) fullShare ((dat20 V c).after 5 t))

/-- The body at any point: the inputs' buffers hold their blocks, so the body's triple applies; the invariant and
    what the core owes pass through unread. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2, before20_3, before20_4]
  rw [show (dat20 V c).Φ t.succ = (dat20 V c).Φ t.castSucc from rfl,
    show (dat20 V c).owesAt () t.succ = (dat20 V c).owesAt () t.castSucc from rfl,
    after20_0, after20_1, after20_2, after20_3, after20_4, after20_5]
  iintro ⟨HΦ, Ho, ⟨%d0, H0⟩, ⟨%d1, H1⟩, ⟨%d2, H2⟩, ⟨%d3, H3⟩, ⟨%d4, H4⟩, ⟨%d5, H5⟩⟩
  iapply (sound_kernel20 c Set.univ (grid20.coords t) _ _ _ _ _ _ _ _ _ _ _ _
    (iblk20 V c 0 t) (iblk20 V c 1 t) (iblk20 V c 2 t) (iblk20 V c 3 t) (iblk20 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation20 (c : Dev nD) : BodyObligation (dat20 (F := F) V c) (defs₀ (F := F)) Variants.none () Set.univ := fun t => by
  rw [bigSep_W20, bigSep_W20]
  exact sound_body20 V c t

end Region20

end Cert.KernelIdeal.Hand

end
-- ==== Proof.KI.R21.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.Regions
import Idealize.ShloMosaic.Lib.Tactic

/-! # Region 21: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region21
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- The rows of X: the staging buffer the body is handed holds the block of the point, whether the
    point fetched it or not (an unfetched input has not moved its block index). -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)

/-- The matrix W: fetched at the first point only, and found in place at every later one. -/
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

/-! ## The body's accesses: each buffer whole -/

noncomputable abbrev r21_0 : Rect S2000x64 := Rect.unit (s := S2000x64) ![0, 0] S2000x64.size inb_S2000x64_S2000x64_0_0
noncomputable abbrev r21_1 : Rect S64x64 := Rect.unit (s := S64x64) ![0, 0] S64x64.size inb_S64x64_S64x64_0_0
noncomputable abbrev r21_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out21_2 (x0 : Vec F S2000x64 .f32) (x1 : Vec F S64x64 .f32) : Vec F S2000x64 .f32 :=
  View.canon [⟨r21_2, k21_pay1 (View.ld x0 r21_0) (View.ld x1 r21_1)⟩]

/-- The store's rectangle is the whole buffer, so it covers every index. -/
theorem cover21_2 (p0 : Vec F S2000x64 .f32) (y : S2000x64.Idx) :
    ∃ pc ∈ ([⟨r21_2, p0⟩] : List (View.Piece (Elt F) S2000x64 .f32)), y ∈ pc.1.set :=
  View.cover_of_tiled [⟨r21_2, p0⟩] S2000x64.size (by rfl) y

/-! ## The body's triple -/

set_option maxHeartbeats 1000000 in
/-- On whole staging memrefs, the inputs' holding x0 and x1 and the output's holding anything, the body
    runs to a state where the inputs' are unchanged and the output's holds out21_2 x0 x1. The body also reads
    the output buffer before storing into it; the value read is not used. -/
theorem sound_kernel21 (c : Dev nD) (E : Set ℕ) (i : grid21.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out21_2 x0 x1)) -∗ K ⟨⟩))
      ⊢ wp frame (wpE (defs₀ (F := F)) Variants.none c none) E (cc21__linear_kernel i arg1 harg1 arg2 harg2 arg3 harg3) K := by
  simp only [cc21__linear_kernel_eq_skeleton]; unfold cc21__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover21_2 _)

/-! ## The pipeline's proof data -/

/-- The arrays as the region finds them; after the body at point t the inputs' buffers at their blocks
    and the output's at the product block; the invariant is the scoped rest and the generator register,
    untouched; nothing owed; full shares. -/
noncomputable def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => out21_2 (iblk21 V c 0 t) (iblk21 V c 1 t)
  Φ _ := Pipeline.ΦA spec21 c
  q _ := fullShare
  owed _ := 0

theorem A_eq21 (c : Dev nD) (w : Fin cfg21.W) : (dat21 V c).A w = V c (Pipeline.arrRef spec21 w) := by
  dsimp only [dat21]

theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = out21_2 (iblk21 V c 0 t) (iblk21 V c 1 t) := by dsimp only [dat21]

theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d

/-! ## The body obligation, at a generic point -/

/-- What the body is called with at point t, window by window, -/
noncomputable def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d)))

/-- and what it returns. -/
noncomputable def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t))

/-- The inputs' memrefs hold their blocks, so the body's triple applies; the invariant and what the core
    owes pass through unread. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1]
  rw [show (dat21 V c).Φ t.succ = (dat21 V c).Φ t.castSucc from rfl,
    show (dat21 V c).owesAt () t.succ = (dat21 V c).owesAt () t.castSucc from rfl,
    after21_0, after21_1, after21_2]
  iintro ⟨HΦ, Ho, ⟨%d0, H0⟩, ⟨%d1, H1⟩, ⟨%d2, H2⟩⟩
  iapply (sound_kernel21 c Set.univ (grid21.coords t) _ _ _ _ _ _ (iblk21 V c 0 t) (iblk21 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation21 (c : Dev nD) : BodyObligation (dat21 (F := F) V c) (defs₀ (F := F)) Variants.none () Set.univ := fun t => by
  rw [bigSep_W21, bigSep_W21]
  exact sound_body21 V c t

end Region21

end Cert.KernelIdeal.Hand

end
-- ==== Proof.KI.R22.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.R14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The kernel is region 14's

The two regions' printed kernel functions are the same function of the grid coordinate and the memrefs (the same
text over the same shapes; the grids and the last-point conditions are the same literals), so region 14's runs of the
body, its covers and its per-case contents — all stated over abstract coordinates and memrefs — serve this region. -/

theorem cc22_kernel_eq : cc22_kernel (F := F) = cc14_kernel (F := F) := rfl

/-! ## The windows' blocks -/

/-- Window `w`'s block at point `t`, read off its array as the region finds it (`V`). -/
noncomputable def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- Input window 0's current staging buffer holds its block at every point, for any proof data whose array is
    `V`'s and whose body leaves the block in place: the window is uncut and never idle. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)

/-- Input window 1 likewise: fetched at the first point only, its block index never moves, so the buffer holds
    the block at every point. -/
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)

/-- Input window 2 likewise. -/
theorem before22_2_of {c : Dev nD} (dat : Dat τ (Elt F) Unit ℕ (UR sig nD τ) ℕ cfg22 c) (hA : dat.A 2 = V c (Pipeline.arrRef spec22 2))
    (hafter : ∀ t, dat.after 2 t = iblk22 V c 2 t) (t : Fin cfg22.N) (d) : dat.before 2 t d = iblk22 V c 2 t :=
  (dat.before_in_eq_fetched 2 rfl (fun _ => rfl) (fun _ _ _ => rfl) (fun t => by rw [hafter]; unfold Dat.blockOf iblk22; rw [hA]; try rfl) t d).trans
    (by unfold Dat.fetched Dat.blockOf iblk22; rw [hA]; try rfl)

/-! ## The body's two conditions on the grid coordinate -/

/-- It holds at the first point only. -/
theorem hcond22_0 : ∀ t : Fin cfg22.N, cond14_0 (grid22.coords t) ↔ t.val % 25 = 0 :=
  (by decide +kernel : ∀ t : Fin grid22.N, cond14_0 (grid22.coords t) ↔ t.val % 25 = 0)

/-- It holds at the last point only. -/
theorem hcond22_1 : ∀ t : Fin cfg22.N, cond14_1 (grid22.coords t) ↔ t.val % 25 = 24 :=
  (by decide +kernel : ∀ t : Fin grid22.N, cond14_1 (grid22.coords t) ↔ t.val % 25 = 24)

/-! ## Where the windows are idle -/

theorem liveAt22_0 : ∀ t : Fin cfg22.N, cfg22.idle 0 (grid22.coords t) = false := by decide +kernel
theorem liveAt22_1 : ∀ t : Fin cfg22.N, cfg22.idle 1 (grid22.coords t) = false := by decide +kernel
theorem liveAt22_2 : ∀ t : Fin cfg22.N, cfg22.idle 2 (grid22.coords t) = false := by decide +kernel
theorem liveAt22_3 : ∀ t : Fin cfg22.N, cfg22.idle 3 (grid22.coords t) = false := by decide +kernel
theorem liveAt22_4 : ∀ t : Fin cfg22.N, cfg22.idle 4 (grid22.coords t) = false := by decide +kernel
/-- At the first point the body stores nothing into output 5: the window is idle there and not written back. -/
theorem idleAt22_5_A : ∀ t : Fin cfg22.N, cond14_0 (grid22.coords t) → ¬cond14_1 (grid22.coords t) → cfg22.idle 5 (grid22.coords t) = true := by decide +kernel
theorem noFlush22_5_A : ∀ t : Fin cfg22.N, cond14_0 (grid22.coords t) → ¬cond14_1 (grid22.coords t) → (cfg22.win 5).flush t = false := by decide +kernel
/-- Nor at the middle points. -/
theorem idleAt22_5_B : ∀ t : Fin cfg22.N, ¬cond14_0 (grid22.coords t) → ¬cond14_1 (grid22.coords t) → cfg22.idle 5 (grid22.coords t) = true := by decide +kernel
theorem noFlush22_5_B : ∀ t : Fin cfg22.N, ¬cond14_0 (grid22.coords t) → ¬cond14_1 (grid22.coords t) → (cfg22.win 5).flush t = false := by decide +kernel
/-- At the last point it stores the accumulated sums there: the window is live. -/
theorem liveAt22_5_C : ∀ t : Fin cfg22.N, ¬cond14_0 (grid22.coords t) → cond14_1 (grid22.coords t) → cfg22.idle 5 (grid22.coords t) = false := by decide +kernel

/-! ## The memrefs the body is called with -/

/-- Each window's current staging memref at point `t`, as the pipeline passes it, and its wholeness. -/
noncomputable abbrev ms22_0 (t : Fin cfg22.N) : Memref sig .tc .vmem S2000x64 .f32 := win22_0.stage (cfg22.slots t 0)
abbrev hs22_0 (t : Fin cfg22.N) : (ms22_0 t).IsWhole := hstage22_0 ((cfg22.slots t 0).cast nbuf22_0)
noncomputable abbrev ms22_1 (t : Fin cfg22.N) : Memref sig .tc .vmem S1x64 .f32 := win22_1.stage (cfg22.slots t 1)
abbrev hs22_1 (t : Fin cfg22.N) : (ms22_1 t).IsWhole := hstage22_1 ((cfg22.slots t 1).cast nbuf22_1)
noncomputable abbrev ms22_2 (t : Fin cfg22.N) : Memref sig .tc .vmem S2000x64 .f32 := win22_2.stage (cfg22.slots t 2)
abbrev hs22_2 (t : Fin cfg22.N) : (ms22_2 t).IsWhole := hstage22_2 ((cfg22.slots t 2).cast nbuf22_2)
noncomputable abbrev ms22_3 (t : Fin cfg22.N) : Memref sig .tc .vmem S2000x64 .f32 := win22_3.stage (cfg22.slots t 3)
abbrev hs22_3 (t : Fin cfg22.N) : (ms22_3 t).IsWhole := hstage22_3 ((cfg22.slots t 3).cast nbuf22_3)
noncomputable abbrev ms22_4 (t : Fin cfg22.N) : Memref sig .tc .vmem S2000x64 .f32 := win22_4.stage (cfg22.slots t 4)
abbrev hs22_4 (t : Fin cfg22.N) : (ms22_4 t).IsWhole := hstage22_4 ((cfg22.slots t 4).cast nbuf22_4)
noncomputable abbrev ms22_5 (t : Fin cfg22.N) : Memref sig .tc .vmem S1x64 .f32 := win22_5.stage (cfg22.slots t 5)
abbrev hs22_5 (t : Fin cfg22.N) : (ms22_5 t).IsWhole := hstage22_5 ((cfg22.slots t 5).cast nbuf22_5)
/-- The scratch operand: a whole scoped buffer of the kernel's own, in which the column sums accumulate. -/
noncomputable abbrev scM22_0 : Memref sig .tc .vmem S1x64 .f32 := Memref.whole cc22_scratch0

/-- The other scoped buffers (every other call's staging buffers and scratch), unopened. -/
noncomputable abbrev restBut22 (c : Dev nD) : sProp 𝕄 :=
  Pipeline.scopedRestBut (Ix := Unit) (Name := ℕ) (U := UR sig nD τ) (Lvl := ℕ) (Val := Elt F) spec22 c [cc22_scratch0]

/-- The region's invariant as the launch hands it over, with the scratch operand split out as a memref owned at
    some contents: what the body obligation hands the run and takes back. -/
theorem PhiA22_eq (c : Dev nD) :
    (Pipeline.ΦA spec22 c : sProp 𝕄)
      = iprop(iprop(iprop((∃ d, owns (c : Thread nD τ) scM22_0 fullShare d)) ∗ restBut22 (F := F) c) ∗ (∃ r, prngReg c r)) := by
  unfold Pipeline.ΦA; rw [scopedRest22_split]; simp only [scM22_0, owns_whole]; try rfl

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt22 (c : Dev nD) : (n : ℕ) → n < cfg22.N → Vec F S2000x64 .f32 × Vec F S2000x64 .f32 × Vec F S1x64 .f32 × Vec F S1x64 .f32
  | 0, hn => (out14_A_3 c (grid22.coords ⟨0, hn⟩) (ms22_0 ⟨0, hn⟩) (hs22_0 ⟨0, hn⟩) (ms22_1 ⟨0, hn⟩) (hs22_1 ⟨0, hn⟩) (ms22_2 ⟨0, hn⟩) (hs22_2 ⟨0, hn⟩) (ms22_3 ⟨0, hn⟩) (hs22_3 ⟨0, hn⟩) (ms22_4 ⟨0, hn⟩) (hs22_4 ⟨0, hn⟩) (ms22_5 ⟨0, hn⟩) (hs22_5 ⟨0, hn⟩) scM22_0 (Memref.isWhole_whole _) ((hcond22_0 ⟨0, hn⟩).mpr (Nat.zero_mod _)) (fun h => (fun h => by (try dsimp only at h); omega) ((hcond22_1 ⟨0, hn⟩).mp h)) (iblk22 V c 0 ⟨0, hn⟩) (iblk22 V c 1 ⟨0, hn⟩) (iblk22 V c 2 ⟨0, hn⟩), out14_A_4 c (grid22.coords ⟨0, hn⟩) (ms22_0 ⟨0, hn⟩) (hs22_0 ⟨0, hn⟩) (ms22_1 ⟨0, hn⟩) (hs22_1 ⟨0, hn⟩) (ms22_2 ⟨0, hn⟩) (hs22_2 ⟨0, hn⟩) (ms22_3 ⟨0, hn⟩) (hs22_3 ⟨0, hn⟩) (ms22_4 ⟨0, hn⟩) (hs22_4 ⟨0, hn⟩) (ms22_5 ⟨0, hn⟩) (hs22_5 ⟨0, hn⟩) scM22_0 (Memref.isWhole_whole _) ((hcond22_0 ⟨0, hn⟩).mpr (Nat.zero_mod _)) (fun h => (fun h => by (try dsimp only at h); omega) ((hcond22_1 ⟨0, hn⟩).mp h)) (iblk22 V c 0 ⟨0, hn⟩) (iblk22 V c 1 ⟨0, hn⟩) (iblk22 V c 2 ⟨0, hn⟩), out14_A_5 c (grid22.coords ⟨0, hn⟩) (ms22_0 ⟨0, hn⟩) (hs22_0 ⟨0, hn⟩) (ms22_1 ⟨0, hn⟩) (hs22_1 ⟨0, hn⟩) (ms22_2 ⟨0, hn⟩) (hs22_2 ⟨0, hn⟩) (ms22_3 ⟨0, hn⟩) (hs22_3 ⟨0, hn⟩) (ms22_4 ⟨0, hn⟩) (hs22_4 ⟨0, hn⟩) (ms22_5 ⟨0, hn⟩) (hs22_5 ⟨0, hn⟩) scM22_0 (Memref.isWhole_whole _) ((hcond22_0 ⟨0, hn⟩).mpr (Nat.zero_mod _)) (fun h => (fun h => by (try dsimp only at h); omega) ((hcond22_1 ⟨0, hn⟩).mp h)) (iblk22 V c 0 ⟨0, hn⟩) (iblk22 V c 1 ⟨0, hn⟩) (iblk22 V c 2 ⟨0, hn⟩), sout14_A_0 c (grid22.coords ⟨0, hn⟩) (ms22_0 ⟨0, hn⟩) (hs22_0 ⟨0, hn⟩) (ms22_1 ⟨0, hn⟩) (hs22_1 ⟨0, hn⟩) (ms22_2 ⟨0, hn⟩) (hs22_2 ⟨0, hn⟩) (ms22_3 ⟨0, hn⟩) (hs22_3 ⟨0, hn⟩) (ms22_4 ⟨0, hn⟩) (hs22_4 ⟨0, hn⟩) (ms22_5 ⟨0, hn⟩) (hs22_5 ⟨0, hn⟩) scM22_0 (Memref.isWhole_whole _) ((hcond22_0 ⟨0, hn⟩).mpr (Nat.zero_mod _)) (fun h => (fun h => by (try dsimp only at h); omega) ((hcond22_1 ⟨0, hn⟩).mp h)) (iblk22 V c 0 ⟨0, hn⟩) (iblk22 V c 1 ⟨0, hn⟩) (iblk22 V c 2 ⟨0, hn⟩))
  | n + 1, hn =>
    if h0 : (n + 1) % 25 = 0 then
      if h1 : (n + 1) % 25 = 24 then
        False.elim (by omega)
      else
        (out14_A_3 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) ((hcond22_0 ⟨n + 1, hn⟩).mpr h0) (fun h => h1 ((hcond22_1 ⟨n + 1, hn⟩).mp h)) (iblk22 V c 0 ⟨n + 1, hn⟩) (iblk22 V c 1 ⟨n + 1, hn⟩) (iblk22 V c 2 ⟨n + 1, hn⟩), out14_A_4 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) ((hcond22_0 ⟨n + 1, hn⟩).mpr h0) (fun h => h1 ((hcond22_1 ⟨n + 1, hn⟩).mp h)) (iblk22 V c 0 ⟨n + 1, hn⟩) (iblk22 V c 1 ⟨n + 1, hn⟩) (iblk22 V c 2 ⟨n + 1, hn⟩), out14_A_5 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) ((hcond22_0 ⟨n + 1, hn⟩).mpr h0) (fun h => h1 ((hcond22_1 ⟨n + 1, hn⟩).mp h)) (iblk22 V c 0 ⟨n + 1, hn⟩) (iblk22 V c 1 ⟨n + 1, hn⟩) (iblk22 V c 2 ⟨n + 1, hn⟩), sout14_A_0 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) ((hcond22_0 ⟨n + 1, hn⟩).mpr h0) (fun h => h1 ((hcond22_1 ⟨n + 1, hn⟩).mp h)) (iblk22 V c 0 ⟨n + 1, hn⟩) (iblk22 V c 1 ⟨n + 1, hn⟩) (iblk22 V c 2 ⟨n + 1, hn⟩))
    else
      if h1 : (n + 1) % 25 = 24 then
        (out14_C_3 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) ((hcond22_1 ⟨n + 1, hn⟩).mpr h1) (iblk22 V c 0 ⟨n + 1, hn⟩) (iblk22 V c 1 ⟨n + 1, hn⟩) (iblk22 V c 2 ⟨n + 1, hn⟩) (outsAt22 c n (Nat.lt_of_succ_lt hn)).2.2.2, out14_C_4 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) ((hcond22_1 ⟨n + 1, hn⟩).mpr h1) (iblk22 V c 0 ⟨n + 1, hn⟩) (iblk22 V c 1 ⟨n + 1, hn⟩) (iblk22 V c 2 ⟨n + 1, hn⟩) (outsAt22 c n (Nat.lt_of_succ_lt hn)).2.2.2, out14_C_5 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) ((hcond22_1 ⟨n + 1, hn⟩).mpr h1) (iblk22 V c 0 ⟨n + 1, hn⟩) (iblk22 V c 1 ⟨n + 1, hn⟩) (iblk22 V c 2 ⟨n + 1, hn⟩) (outsAt22 c n (Nat.lt_of_succ_lt hn)).2.2.2, sout14_C_0 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) ((hcond22_1 ⟨n + 1, hn⟩).mpr h1) (iblk22 V c 0 ⟨n + 1, hn⟩) (iblk22 V c 1 ⟨n + 1, hn⟩) (iblk22 V c 2 ⟨n + 1, hn⟩) (outsAt22 c n (Nat.lt_of_succ_lt hn)).2.2.2)
      else
        (out14_B_3 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) (fun h => h1 ((hcond22_1 ⟨n + 1, hn⟩).mp h)) (iblk22 V c 0 ⟨n + 1, hn⟩) (iblk22 V c 1 ⟨n + 1, hn⟩) (iblk22 V c 2 ⟨n + 1, hn⟩) (outsAt22 c n (Nat.lt_of_succ_lt hn)).2.2.2, out14_B_4 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) (fun h => h1 ((hcond22_1 ⟨n + 1, hn⟩).mp h)) (iblk22 V c 0 ⟨n + 1, hn⟩) (iblk22 V c 1 ⟨n + 1, hn⟩) (iblk22 V c 2 ⟨n + 1, hn⟩) (outsAt22 c n (Nat.lt_of_succ_lt hn)).2.2.2, out14_B_5 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) (fun h => h1 ((hcond22_1 ⟨n + 1, hn⟩).mp h)) (iblk22 V c 0 ⟨n + 1, hn⟩) (iblk22 V c 1 ⟨n + 1, hn⟩) (iblk22 V c 2 ⟨n + 1, hn⟩) (outsAt22 c n (Nat.lt_of_succ_lt hn)).2.2.2, sout14_B_0 c (grid22.coords ⟨n + 1, hn⟩) (ms22_0 ⟨n + 1, hn⟩) (hs22_0 ⟨n + 1, hn⟩) (ms22_1 ⟨n + 1, hn⟩) (hs22_1 ⟨n + 1, hn⟩) (ms22_2 ⟨n + 1, hn⟩) (hs22_2 ⟨n + 1, hn⟩) (ms22_3 ⟨n + 1, hn⟩) (hs22_3 ⟨n + 1, hn⟩) (ms22_4 ⟨n + 1, hn⟩) (hs22_4 ⟨n + 1, hn⟩) (ms22_5 ⟨n + 1, hn⟩) (hs22_5 ⟨n + 1, hn⟩) scM22_0 (Memref.isWhole_whole _) (fun h => h0 ((hcond22_0 ⟨n + 1, hn⟩).mp h)) (fun h => h1 ((hcond22_1 ⟨n + 1, hn⟩).mp h)) (iblk22 V c 0 ⟨n + 1, hn⟩) (iblk22 V c 1 ⟨n + 1, hn⟩) (iblk22 V c 2 ⟨n + 1, hn⟩) (outsAt22 c n (Nat.lt_of_succ_lt hn)).2.2.2)

/-- `outsAt22` at the first point: case A's contents. -/
theorem outsAt22_A (c : Dev nD) (t : Fin cfg22.N) (h0 : t.val % 25 = 0) (h1 : ¬t.val % 25 = 24) :
    outsAt22 V c t.val t.isLt = (out14_A_3 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) ((hcond22_0 t).mpr h0) (fun h => h1 ((hcond22_1 t).mp h)) (iblk22 V c 0 t) (iblk22 V c 1 t) (iblk22 V c 2 t), out14_A_4 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) ((hcond22_0 t).mpr h0) (fun h => h1 ((hcond22_1 t).mp h)) (iblk22 V c 0 t) (iblk22 V c 1 t) (iblk22 V c 2 t), out14_A_5 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) ((hcond22_0 t).mpr h0) (fun h => h1 ((hcond22_1 t).mp h)) (iblk22 V c 0 t) (iblk22 V c 1 t) (iblk22 V c 2 t), sout14_A_0 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) ((hcond22_0 t).mpr h0) (fun h => h1 ((hcond22_1 t).mp h)) (iblk22 V c 0 t) (iblk22 V c 1 t) (iblk22 V c 2 t)) := by
  obtain ⟨n, hn⟩ := t
  cases n with
  | zero => exact rfl
  | succ n => exact (dif_pos h0).trans ((dif_neg h1).trans rfl)

/-- `outsAt22` at a middle point: case B's contents, over what the point before left in the scratch. -/
theorem outsAt22_B (c : Dev nD) (t : Fin cfg22.N) (h0 : ¬t.val % 25 = 0) (h1 : ¬t.val % 25 = 24) :
    outsAt22 V c t.val t.isLt = (out14_B_3 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) (fun h => h1 ((hcond22_1 t).mp h)) (iblk22 V c 0 t) (iblk22 V c 1 t) (iblk22 V c 2 t) (outsAt22 V c (t.val - 1) (Nat.lt_of_le_of_lt (Nat.sub_le _ _) t.isLt)).2.2.2, out14_B_4 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) (fun h => h1 ((hcond22_1 t).mp h)) (iblk22 V c 0 t) (iblk22 V c 1 t) (iblk22 V c 2 t) (outsAt22 V c (t.val - 1) (Nat.lt_of_le_of_lt (Nat.sub_le _ _) t.isLt)).2.2.2, out14_B_5 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) (fun h => h1 ((hcond22_1 t).mp h)) (iblk22 V c 0 t) (iblk22 V c 1 t) (iblk22 V c 2 t) (outsAt22 V c (t.val - 1) (Nat.lt_of_le_of_lt (Nat.sub_le _ _) t.isLt)).2.2.2, sout14_B_0 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) (fun h => h1 ((hcond22_1 t).mp h)) (iblk22 V c 0 t) (iblk22 V c 1 t) (iblk22 V c 2 t) (outsAt22 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt22` at the last point: case C's contents, over what the point before left in the scratch. -/
theorem outsAt22_C (c : Dev nD) (t : Fin cfg22.N) (h0 : ¬t.val % 25 = 0) (h1 : t.val % 25 = 24) :
    outsAt22 V c t.val t.isLt = (out14_C_3 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) ((hcond22_1 t).mpr h1) (iblk22 V c 0 t) (iblk22 V c 1 t) (iblk22 V c 2 t) (outsAt22 V c (t.val - 1) (Nat.lt_of_le_of_lt (Nat.sub_le _ _) t.isLt)).2.2.2, out14_C_4 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) ((hcond22_1 t).mpr h1) (iblk22 V c 0 t) (iblk22 V c 1 t) (iblk22 V c 2 t) (outsAt22 V c (t.val - 1) (Nat.lt_of_le_of_lt (Nat.sub_le _ _) t.isLt)).2.2.2, out14_C_5 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) ((hcond22_1 t).mpr h1) (iblk22 V c 0 t) (iblk22 V c 1 t) (iblk22 V c 2 t) (outsAt22 V c (t.val - 1) (Nat.lt_of_le_of_lt (Nat.sub_le _ _) t.isLt)).2.2.2, sout14_C_0 c (grid22.coords t) (ms22_0 t) (hs22_0 t) (ms22_1 t) (hs22_1 t) (ms22_2 t) (hs22_2 t) (ms22_3 t) (hs22_3 t) (ms22_4 t) (hs22_4 t) (ms22_5 t) (hs22_5 t) scM22_0 (Memref.isWhole_whole _) (fun h => h0 ((hcond22_0 t).mp h)) ((hcond22_1 t).mpr h1) (iblk22 V c 0 t) (iblk22 V c 1 t) (iblk22 V c 2 t) (outsAt22 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt22`'s last component), the other
    scoped buffers unopened and the generator register at some state. -/
noncomputable def PhiS22 (c : Dev nD) : (n : ℕ) → n ≤ cfg22.N → sProp 𝕄
  | 0, _ => Pipeline.ΦA spec22 c
  | n + 1, hn => iprop(iprop(iprop(owns (c : Thread nD τ) scM22_0 fullShare ((outsAt22 V c n hn).2.2.2)) ∗ restBut22 (F := F) c) ∗ (∃ r, prngReg c r))

theorem PhiS22_zero (c : Dev nD) (n : ℕ) (h : n ≤ cfg22.N) (hz : n = 0) : PhiS22 V c n h = Pipeline.ΦA spec22 c := by
  subst hz; rfl

/-- After point `n` (before point `n + 1`): the scratch at that point's contents. -/
theorem PhiS22_succ (c : Dev nD) (n : ℕ) (hn : n < cfg22.N) :
    PhiS22 V c (n + 1) hn = iprop(iprop(iprop(owns (c : Thread nD τ) scM22_0 fullShare ((outsAt22 V c n hn).2.2.2)) ∗ restBut22 (F := F) c) ∗ (∃ r, prngReg c r)) := rfl

/-- Before a point that is not the first: the scratch at what the point before left. -/
theorem PhiS22_pos (c : Dev nD) (n : ℕ) (h : n ≤ cfg22.N) (hz : n ≠ 0) :
    PhiS22 V c n h = iprop(iprop(iprop(owns (c : Thread nD τ) scM22_0 fullShare ((outsAt22 V c (n - 1) (by omega)).2.2.2)) ∗ restBut22 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt22`; the invariant `PhiS22`; nothing owed;
    full shares. -/
noncomputable def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => (outsAt22 V c t.val t.isLt).1
    | ⟨4, _⟩ => (outsAt22 V c t.val t.isLt).2.1
    | ⟨5, _⟩ => (outsAt22 V c t.val t.isLt).2.2.1
  Φ t := PhiS22 V c t.val (Nat.le_of_lt_succ t.isLt)
  q _ := fullShare
  owed _ := 0

/-- The proof data's arrays are the region-entry contents. -/
theorem A_eq22 (c : Dev nD) (w : Fin cfg22.W) : (dat22 V c).A w = V c (Pipeline.arrRef spec22 w) := by
  dsimp only [dat22]

/-- The invariant at a point's start, restated at `t.val`. -/
theorem PhiS22_castSucc (c : Dev nD) (t : Fin cfg22.N) :
    (dat22 V c).Φ t.castSucc = PhiS22 V c t.val (Nat.le_of_lt t.isLt) := by
  dsimp only [dat22]; simp only [Fin.coe_castSucc]

/-- What the body leaves, window by window. -/
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = (outsAt22 V c t.val t.isLt).1 := by dsimp only [dat22]
theorem after22_4 (c : Dev nD) (t : Fin cfg22.N) : (dat22 V c).after 4 t = (outsAt22 V c t.val t.isLt).2.1 := by dsimp only [dat22]
theorem after22_5 (c : Dev nD) (t : Fin cfg22.N) : (dat22 V c).after 5 t = (outsAt22 V c t.val t.isLt).2.2.1 := by dsimp only [dat22]

/-- Each input's current staging buffer holds its block at every point, fetched there or not. -/
theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d
theorem before22_2 (c : Dev nD) (t : Fin cfg22.N) (d) : (dat22 V c).before 2 t d = iblk22 V c 2 t :=
  before22_2_of V (dat22 V c) (A_eq22 V c 2) (after22_2 V c) t d

/-! ## The body obligation, at a generic point -/

/-- What the body is called with at point `t` (the windows one by one), -/
noncomputable def bodyPre22 (c : Dev nD) (t : Fin cfg22.N) : sProp 𝕄 :=
  iprop((dat22 V c).Φ t.castSucc ∗ (dat22 V c).owesAt () t.castSucc
    ∗ (∃ d, owns (c : Thread nD τ) (ms22_0 t) fullShare ((dat22 V c).before 0 t d))
    ∗ (∃ d, owns (c : Thread nD τ) (ms22_1 t) fullShare ((dat22 V c).before 1 t d))
    ∗ (∃ d, owns (c : Thread nD τ) (ms22_2 t) fullShare ((dat22 V c).before 2 t d))
    ∗ (∃ d, owns (c : Thread nD τ) (ms22_3 t) fullShare ((dat22 V c).before 3 t d))
    ∗ (∃ d, owns (c : Thread nD τ) (ms22_4 t) fullShare ((dat22 V c).before 4 t d))
    ∗ (∃ d, owns (c : Thread nD τ) (ms22_5 t) fullShare ((dat22 V c).before 5 t d)))

/-- and what it returns. -/
noncomputable def bodyPost22 (c : Dev nD) (t : Fin cfg22.N) : sProp 𝕄 :=
  iprop((dat22 V c).Φ t.succ ∗ (dat22 V c).owesAt () t.succ
    ∗ (dat22 V c).leavesExact 0 t
    ∗ (dat22 V c).leavesExact 1 t
    ∗ (dat22 V c).leavesExact 2 t
    ∗ (dat22 V c).leavesExact 3 t
    ∗ (dat22 V c).leavesExact 4 t
    ∗ (dat22 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  rw [cc22_kernel_eq]
  simp only [before22_0, before22_1, before22_2]
  rw [show (dat22 V c).owesAt () t.succ = (dat22 V c).owesAt () t.castSucc from rfl]
  rw [show (dat22 V c).Φ t.succ = PhiS22 V c (t.val + 1) t.isLt from rfl, PhiS22_succ]
  have hN : t.val < 25 := lt_of_lt_of_eq t.isLt (show cfg22.N = 25 from N_22)
  by_cases h0 : t.val % 25 = 0
  · by_cases h1 : t.val % 25 = 24
    · exfalso; omega
    · rw [show (dat22 V c).leavesExact 0 t = owns (c : Thread nD τ) (ms22_0 t) fullShare ((dat22 V c).after 0 t) from by
        unfold Dat.leavesExact; rw [liveAt22_0 t], after22_0]
      rw [show (dat22 V c).leavesExact 1 t = owns (c : Thread nD τ) (ms22_1 t) fullShare ((dat22 V c).after 1 t) from by
        unfold Dat.leavesExact; rw [liveAt22_1 t], after22_1]
      rw [show (dat22 V c).leavesExact 2 t = owns (c : Thread nD τ) (ms22_2 t) fullShare ((dat22 V c).after 2 t) from by
        unfold Dat.leavesExact; rw [liveAt22_2 t], after22_2]
      rw [show (dat22 V c).leavesExact 3 t = owns (c : Thread nD τ) (ms22_3 t) fullShare ((dat22 V c).after 3 t) from by
        unfold Dat.leavesExact; rw [liveAt22_3 t], after22_3]
      rw [show (dat22 V c).leavesExact 4 t = owns (c : Thread nD τ) (ms22_4 t) fullShare ((dat22 V c).after 4 t) from by
        unfold Dat.leavesExact; rw [liveAt22_4 t], after22_4]
      rw [Dat.leavesExact_idle (dat22 V c) 5 t (idleAt22_5_A t ((hcond22_0 t).mpr h0) (fun h => h1 ((hcond22_1 t).mp h))) (noFlush22_5_A t ((hcond22_0 t).mpr h0) (fun h => h1 ((hcond22_1 t).mp h)))]
      rw [outsAt22_A V c t h0 h1]
      unfold out14_A_3 out14_A_4 sout14_A_0; (try dsimp only)
      by_cases hz : t.val = 0
      · rw [PhiS22_castSucc V c t, PhiS22_zero V c _ _ hz, PhiA22_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid22.coords t) _ _ _ _ _ _ _ _ _ _ _ _ _ _ ((hcond22_0 t).mpr h0) (fun h => h1 ((hcond22_1 t).mp h)) (iblk22 V c 0 t) (iblk22 V c 1 t) (iblk22 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat22 V c).leavesExact 0 t = owns (c : Thread nD τ) (ms22_0 t) fullShare ((dat22 V c).after 0 t) from by
        unfold Dat.leavesExact; rw [liveAt22_0 t], after22_0]
      rw [show (dat22 V c).leavesExact 1 t = owns (c : Thread nD τ) (ms22_1 t) fullShare ((dat22 V c).after 1 t) from by
        unfold Dat.leavesExact; rw [liveAt22_1 t], after22_1]
      rw [show (dat22 V c).leavesExact 2 t = owns (c : Thread nD τ) (ms22_2 t) fullShare ((dat22 V c).after 2 t) from by
        unfold Dat.leavesExact; rw [liveAt22_2 t], after22_2]
      rw [show (dat22 V c).leavesExact 3 t = owns (c : Thread nD τ) (ms22_3 t) fullShare ((dat22 V c).after 3 t) from by
        unfold Dat.leavesExact; rw [liveAt22_3 t], after22_3]
      rw [show (dat22 V c).leavesExact 4 t = owns (c : Thread nD τ) (ms22_4 t) fullShare ((dat22 V c).after 4 t) from by
        unfold Dat.leavesExact; rw [liveAt22_4 t], after22_4]
      rw [show (dat22 V c).leavesExact 5 t = owns (c : Thread nD τ) (ms22_5 t) fullShare ((dat22 V c).after 5 t) from by
        unfold Dat.leavesExact; rw [liveAt22_5_C t (fun h => h0 ((hcond22_0 t).mp h)) ((hcond22_1 t).mpr h1)], after22_5]
      rw [outsAt22_C V c t h0 h1]
      unfold out14_C_3 out14_C_4 out14_C_5 sout14_C_0; (try dsimp only)
      by_cases hz : t.val = 0
      · exfalso; omega
      · rw [PhiS22_castSucc V c t, PhiS22_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid22.coords t) _ _ _ _ _ _ _ _ _ _ _ _ _ _ (fun h => h0 ((hcond22_0 t).mp h)) ((hcond22_1 t).mpr h1) (iblk22 V c 0 t) (iblk22 V c 1 t) (iblk22 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat22 V c).leavesExact 0 t = owns (c : Thread nD τ) (ms22_0 t) fullShare ((dat22 V c).after 0 t) from by
        unfold Dat.leavesExact; rw [liveAt22_0 t], after22_0]
      rw [show (dat22 V c).leavesExact 1 t = owns (c : Thread nD τ) (ms22_1 t) fullShare ((dat22 V c).after 1 t) from by
        unfold Dat.leavesExact; rw [liveAt22_1 t], after22_1]
      rw [show (dat22 V c).leavesExact 2 t = owns (c : Thread nD τ) (ms22_2 t) fullShare ((dat22 V c).after 2 t) from by
        unfold Dat.leavesExact; rw [liveAt22_2 t], after22_2]
      rw [show (dat22 V c).leavesExact 3 t = owns (c : Thread nD τ) (ms22_3 t) fullShare ((dat22 V c).after 3 t) from by
        unfold Dat.leavesExact; rw [liveAt22_3 t], after22_3]
      rw [show (dat22 V c).leavesExact 4 t = owns (c : Thread nD τ) (ms22_4 t) fullShare ((dat22 V c).after 4 t) from by
        unfold Dat.leavesExact; rw [liveAt22_4 t], after22_4]
      rw [Dat.leavesExact_idle (dat22 V c) 5 t (idleAt22_5_B t (fun h => h0 ((hcond22_0 t).mp h)) (fun h => h1 ((hcond22_1 t).mp h))) (noFlush22_5_B t (fun h => h0 ((hcond22_0 t).mp h)) (fun h => h1 ((hcond22_1 t).mp h)))]
      rw [outsAt22_B V c t h0 h1]
      unfold out14_B_3 out14_B_4 sout14_B_0; (try dsimp only)
      by_cases hz : t.val = 0
      · exfalso; omega
      · rw [PhiS22_castSucc V c t, PhiS22_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid22.coords t) _ _ _ _ _ _ _ _ _ _ _ _ _ _ (fun h => h0 ((hcond22_0 t).mp h)) (fun h => h1 ((hcond22_1 t).mp h)) (iblk22 V c 0 t) (iblk22 V c 1 t) (iblk22 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation22 (c : Dev nD) : BodyObligation (dat22 (F := F) V c) (defs₀ (F := F)) Variants.none () Set.univ := fun t => by
  rw [bigSep_W22, bigSep_W22]
  exact sound_body22 V c t

/-- What the launch hands the region is the invariant before the first point. -/
theorem hin22 (c : Dev nD) : Pipeline.ΦA spec22 c ⊢ (dat22 V c).Φ 0 := by
  rw [show (dat22 V c).Φ 0 = PhiS22 V c 0 (Nat.zero_le _) from rfl, PhiS22_zero V c 0 _ rfl]
  try exact Idealize.SL.BI.Entails.refl _

/-- After any point but the first the invariant gives it back: the scratch's named contents are forgotten. -/
theorem Phi_out22 (c : Dev nD) (t : Fin (cfg22.N + 1)) (ht : t.val ≠ 0) : (dat22 V c).Φ t ⊢ Pipeline.ΦA spec22 c := by
  rw [show (dat22 V c).Φ t = PhiS22 V c t.val (Nat.le_of_lt_succ t.isLt) from rfl, PhiS22_pos V c _ _ ht, PhiA22_eq]
  iintro ⟨⟨HS0, HR⟩, Hg⟩
  isplitl [HS0 HR]
  · isplitl [HS0]
    · iexists _; iexact HS0
    iexact HR
  iexact Hg

/-- The same after the last point. -/
theorem hout22 (c : Dev nD) : (dat22 V c).Φ (Fin.last cfg22.N) ⊢ Pipeline.ΦA spec22 c :=
  Phi_out22 V c _ (by rw [Fin.val_last]; have : cfg22.N = 25 := N_22; omega)

end Cert.KernelIdeal.Hand

end
-- ==== Proof.KI.R23.lean ====
import proofs.«408084_j48395691492010_3_alg».proof.Proof.KI.R3

/-! Region 23: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- The row-tile window (window 0, fetched at every point) holds its block when the body runs. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)

/-- The mean window (window 1, one constant block fetched at the first point only) holds that block at every point. -/
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)

/-! ## The branch conditions and the idle points, over this region's grid (the same grid) -/

/-- The reset's condition holds at the first point only, -/
theorem hcond23_0 : ∀ t : Fin cfg23.N, cond3_0 (grid23.coords t) ↔ t.val = 0 := hcond3_0
/-- the final store's at the last point only. -/
theorem hcond23_1 : ∀ t : Fin cfg23.N, cond3_1 (grid23.coords t) ↔ t.val = 24 := hcond3_1

theorem liveAt23_0 : ∀ t : Fin cfg23.N, cfg23.idle 0 (grid23.coords t) = false := fun _ => rfl
theorem liveAt23_1 : ∀ t : Fin cfg23.N, cfg23.idle 1 (grid23.coords t) = false := fun _ => rfl
/-- Away from the last point the result window is idle, -/
theorem idleAt23_2 : ∀ t : Fin cfg23.N, ¬cond3_1 (grid23.coords t) → cfg23.idle 2 (grid23.coords t) = true := idleAt3_2
/-- and live at it. -/
theorem liveAt23_2 : ∀ t : Fin cfg23.N, cond3_1 (grid23.coords t) → cfg23.idle 2 (grid23.coords t) = false := liveAt3_2
/-- Away from the last point its block is not written back (the schedule's closed form). -/
theorem noFlush23_2 (t : Fin cfg23.N) (h : ¬cond3_1 (grid23.coords t)) : (cfg23.win 2).flush t = false := by
  have hN : t.val < 25 := lt_of_lt_of_eq t.isLt (show cfg23.N = 25 from N_23)
  have h24 : ¬t.val = 24 := fun e => h ((hcond23_1 t).mpr e)
  cases hf : (cfg23.win 2).flush t with
  | false => rfl
  | true => exact absurd (by have := (flush23_2 t).mp hf; omega) h24

/-! ## The memrefs the body is called with -/

noncomputable abbrev ms23_0 (t : Fin cfg23.N) : Memref sig .tc .vmem S2000x64 .f32 := win23_0.stage (cfg23.slots t 0)
abbrev hs23_0 (t : Fin cfg23.N) : (ms23_0 t).IsWhole := hstage23_0 ((cfg23.slots t 0).cast nbuf23_0)
noncomputable abbrev ms23_1 (t : Fin cfg23.N) : Memref sig .tc .vmem S1x64 .f32 := win23_1.stage (cfg23.slots t 1)
abbrev hs23_1 (t : Fin cfg23.N) : (ms23_1 t).IsWhole := hstage23_1 ((cfg23.slots t 1).cast nbuf23_1)
noncomputable abbrev ms23_2 (t : Fin cfg23.N) : Memref sig .tc .vmem S1x64 .f32 := win23_2.stage (cfg23.slots t 2)
abbrev hs23_2 (t : Fin cfg23.N) : (ms23_2 t).IsWhole := hstage23_2 ((cfg23.slots t 2).cast nbuf23_2)
/-- The accumulator: this call's own scratch buffer, whole. -/
noncomputable abbrev scM23_0 : Memref sig .tc .vmem S1x64 .f32 := Memref.whole cc23_scratch0

/-- The body the pipeline calls at point `t` is region 3's printed kernel on this region's memrefs: the two printed
    functions are the same term. -/
theorem bodyAt23_eq (t : Fin cfg23.N) :
    (bodyAt23 t : Prog (TpuEff nD τ sig (Elt F) Λ₀ .tc) PUnit)
      = cc3__var_kernel (grid23.coords t) (ms23_0 t) (hs23_0 t) (ms23_1 t) (hs23_1 t) (ms23_2 t) (hs23_2 t) scM23_0 (Memref.isWhole_whole _) := rfl

/-- The region-entry invariant with the accumulator split out of the scoped rest, as a memref owned at some contents. -/
theorem PhiA23_eq (c : Dev nD) :
    (Pipeline.ΦA spec23 c : sProp 𝕄)
      = iprop(iprop(iprop(∃ d, owns (c : Thread nD τ) scM23_0 fullShare d)
          ∗ Pipeline.scopedRestBut (Ix := Unit) (Name := ℕ) (U := UR sig nD τ) (Lvl := ℕ) (Val := Elt F) spec23 c [cc23_scratch0]) ∗ (∃ r, prngReg c r)) := by
  unfold Pipeline.ΦA; rw [scopedRest23_split]; simp only [scM23_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt23 (c : Dev nD) : (n : ℕ) → n < cfg23.N → Vec F S1x64 .f32 × Vec F S1x64 .f32
  | 0, hn => (idle3_2,
      sout3_A_0 c (grid23.coords ⟨0, hn⟩) (ms23_0 ⟨0, hn⟩) (hs23_0 ⟨0, hn⟩) (ms23_1 ⟨0, hn⟩) (hs23_1 ⟨0, hn⟩) (ms23_2 ⟨0, hn⟩) (hs23_2 ⟨0, hn⟩) scM23_0 (Memref.isWhole_whole _) ((hcond23_0 ⟨0, hn⟩).mpr rfl)
        (fun h => (fun h' : (0 : ℕ) = 24 => by omega) ((hcond23_1 ⟨0, hn⟩).mp h)) (iblk23 V c 0 ⟨0, hn⟩) (iblk23 V c 1 ⟨0, hn⟩))
  | n + 1, hn =>
    if h1 : n + 1 = 24 then
      (out3_C_2 c (grid23.coords ⟨n + 1, hn⟩) (ms23_0 ⟨n + 1, hn⟩) (hs23_0 ⟨n + 1, hn⟩) (ms23_1 ⟨n + 1, hn⟩) (hs23_1 ⟨n + 1, hn⟩) (ms23_2 ⟨n + 1, hn⟩) (hs23_2 ⟨n + 1, hn⟩) scM23_0 (Memref.isWhole_whole _) (fun h => (fun h' : n + 1 = 0 => by omega) ((hcond23_0 ⟨n + 1, hn⟩).mp h))
          ((hcond23_1 ⟨n + 1, hn⟩).mpr h1) (iblk23 V c 0 ⟨n + 1, hn⟩) (iblk23 V c 1 ⟨n + 1, hn⟩) (outsAt23 c n (Nat.lt_of_succ_lt hn)).2,
       sout3_C_0 c (grid23.coords ⟨n + 1, hn⟩) (ms23_0 ⟨n + 1, hn⟩) (hs23_0 ⟨n + 1, hn⟩) (ms23_1 ⟨n + 1, hn⟩) (hs23_1 ⟨n + 1, hn⟩) (ms23_2 ⟨n + 1, hn⟩) (hs23_2 ⟨n + 1, hn⟩) scM23_0 (Memref.isWhole_whole _) (fun h => (fun h' : n + 1 = 0 => by omega) ((hcond23_0 ⟨n + 1, hn⟩).mp h))
          ((hcond23_1 ⟨n + 1, hn⟩).mpr h1) (iblk23 V c 0 ⟨n + 1, hn⟩) (iblk23 V c 1 ⟨n + 1, hn⟩) (outsAt23 c n (Nat.lt_of_succ_lt hn)).2)
    else
      (idle3_2,
       sout3_B_0 c (grid23.coords ⟨n + 1, hn⟩) (ms23_0 ⟨n + 1, hn⟩) (hs23_0 ⟨n + 1, hn⟩) (ms23_1 ⟨n + 1, hn⟩) (hs23_1 ⟨n + 1, hn⟩) (ms23_2 ⟨n + 1, hn⟩) (hs23_2 ⟨n + 1, hn⟩) scM23_0 (Memref.isWhole_whole _) (fun h => (fun h' : n + 1 = 0 => by omega) ((hcond23_0 ⟨n + 1, hn⟩).mp h))
          (fun h => h1 ((hcond23_1 ⟨n + 1, hn⟩).mp h)) (iblk23 V c 0 ⟨n + 1, hn⟩) (iblk23 V c 1 ⟨n + 1, hn⟩) (outsAt23 c n (Nat.lt_of_succ_lt hn)).2)

theorem outsAt23_A (c : Dev nD) (t : Fin cfg23.N) (h0 : t.val = 0) (h1 : ¬t.val = 24) :
    outsAt23 V c t.val t.isLt = (idle3_2,
      sout3_A_0 c (grid23.coords t) (ms23_0 t) (hs23_0 t) (ms23_1 t) (hs23_1 t) (ms23_2 t) (hs23_2 t) scM23_0 (Memref.isWhole_whole _) ((hcond23_0 t).mpr h0) (fun h => h1 ((hcond23_1 t).mp h)) (iblk23 V c 0 t) (iblk23 V c 1 t)) := by
  obtain ⟨n, hn⟩ := t
  cases n with
  | zero => exact rfl
  | succ n => exact absurd h0 (Nat.succ_ne_zero n)

theorem outsAt23_B (c : Dev nD) (t : Fin cfg23.N) (h0 : ¬t.val = 0) (h1 : ¬t.val = 24) :
    outsAt23 V c t.val t.isLt = (idle3_2,
      sout3_B_0 c (grid23.coords t) (ms23_0 t) (hs23_0 t) (ms23_1 t) (hs23_1 t) (ms23_2 t) (hs23_2 t) scM23_0 (Memref.isWhole_whole _) (fun h => h0 ((hcond23_0 t).mp h)) (fun h => h1 ((hcond23_1 t).mp h)) (iblk23 V c 0 t) (iblk23 V c 1 t)
        (outsAt23 V c (t.val - 1) (Nat.lt_of_le_of_lt (Nat.sub_le _ _) t.isLt)).2) := by
  obtain ⟨n, hn⟩ := t
  cases n with
  | zero => exact absurd rfl h0
  | succ n => exact (dif_neg h1).trans rfl

theorem outsAt23_C (c : Dev nD) (t : Fin cfg23.N) (h0 : ¬t.val = 0) (h1 : t.val = 24) :
    outsAt23 V c t.val t.isLt =
      (out3_C_2 c (grid23.coords t) (ms23_0 t) (hs23_0 t) (ms23_1 t) (hs23_1 t) (ms23_2 t) (hs23_2 t) scM23_0 (Memref.isWhole_whole _) (fun h => h0 ((hcond23_0 t).mp h)) ((hcond23_1 t).mpr h1) (iblk23 V c 0 t) (iblk23 V c 1 t)
        (outsAt23 V c (t.val - 1) (Nat.lt_of_le_of_lt (Nat.sub_le _ _) t.isLt)).2,
       sout3_C_0 c (grid23.coords t) (ms23_0 t) (hs23_0 t) (ms23_1 t) (hs23_1 t) (ms23_2 t) (hs23_2 t) scM23_0 (Memref.isWhole_whole _) (fun h => h0 ((hcond23_0 t).mp h)) ((hcond23_1 t).mpr h1) (iblk23 V c 0 t) (iblk23 V c 1 t)
        (outsAt23 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS23 (c : Dev nD) : (n : ℕ) → n ≤ cfg23.N → sProp 𝕄
  | 0, _ => Pipeline.ΦA spec23 c
  | n + 1, hn => iprop(iprop(owns (c : Thread nD τ) scM23_0 fullShare ((outsAt23 V c n hn).2)
      ∗ Pipeline.scopedRestBut (Ix := Unit) (Name := ℕ) (U := UR sig nD τ) (Lvl := ℕ) (Val := Elt F) spec23 c [cc23_scratch0]) ∗ (∃ r, prngReg c r))

theorem PhiS23_zero (c : Dev nD) (n : ℕ) (h : n ≤ cfg23.N) (hz : n = 0) : PhiS23 V c n h = Pipeline.ΦA spec23 c := by
  subst hz; rfl

theorem PhiS23_succ (c : Dev nD) (n : ℕ) (hn : n < cfg23.N) :
    PhiS23 V c (n + 1) hn = iprop(iprop(owns (c : Thread nD τ) scM23_0 fullShare ((outsAt23 V c n hn).2)
      ∗ Pipeline.scopedRestBut (Ix := Unit) (Name := ℕ) (U := UR sig nD τ) (Lvl := ℕ) (Val := Elt F) spec23 c [cc23_scratch0]) ∗ (∃ r, prngReg c r)) := rfl

theorem PhiS23_pos (c : Dev nD) (n : ℕ) (h : n ≤ cfg23.N) (hz : n ≠ 0) :
    PhiS23 V c n h = iprop(iprop(owns (c : Thread nD τ) scM23_0 fullShare ((outsAt23 V c (n - 1) (by omega)).2)
      ∗ Pipeline.scopedRestBut (Ix := Unit) (Name := ℕ) (U := UR sig nD τ) (Lvl := ℕ) (Val := Elt F) spec23 c [cc23_scratch0]) ∗ (∃ r, prngReg c r)) := by
  cases n with
  | zero => exact absurd rfl hz
  | succ n => rfl

/-! ## The proof data -/

noncomputable def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => (outsAt23 V c t.val t.isLt).1
  Φ t := PhiS23 V c t.val (Nat.le_of_lt_succ t.isLt)
  q _ := fullShare
  owed _ := 0

theorem A_eq23 (c : Dev nD) (w : Fin cfg23.W) : (dat23 V c).A w = V c (Pipeline.arrRef spec23 w) := by
  dsimp only [dat23]

theorem PhiS23_castSucc (c : Dev nD) (t : Fin cfg23.N) :
    (dat23 V c).Φ t.castSucc = PhiS23 V c t.val (Nat.le_of_lt t.isLt) := by
  dsimp only [dat23]; simp only [Fin.coe_castSucc]

theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = (outsAt23 V c t.val t.isLt).1 := by dsimp only [dat23]

theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d

/-! ## The body obligation -/

noncomputable def bodyPre23 (c : Dev nD) (t : Fin cfg23.N) : sProp 𝕄 :=
  iprop((dat23 V c).Φ t.castSucc ∗ (dat23 V c).owesAt () t.castSucc
    ∗ (∃ d, owns (c : Thread nD τ) (ms23_0 t) fullShare ((dat23 V c).before 0 t d))
    ∗ (∃ d, owns (c : Thread nD τ) (ms23_1 t) fullShare ((dat23 V c).before 1 t d))
    ∗ (∃ d, owns (c : Thread nD τ) (ms23_2 t) fullShare ((dat23 V c).before 2 t d)))

noncomputable def bodyPost23 (c : Dev nD) (t : Fin cfg23.N) : sProp 𝕄 :=
  iprop((dat23 V c).Φ t.succ ∗ (dat23 V c).owesAt () t.succ
    ∗ (dat23 V c).leavesExact 0 t
    ∗ (dat23 V c).leavesExact 1 t
    ∗ (dat23 V c).leavesExact 2 t)

set_option maxHeartbeats 4800000 in
/-- The body at any point, from region 3's triples on this region's memrefs. -/
theorem sound_body23 (c : Dev nD) (t : Fin cfg23.N) :
    bodyPre23 V c t ⊢ wp frame (wpE (defs₀ (F := F)) Variants.none c none) Set.univ (bodyAt23 t) (fun _ => bodyPost23 V c t) := by
  rw [bodyAt23_eq (F := F) t]
  unfold bodyPre23 bodyPost23
  simp only [before23_0, before23_1]
  rw [show (dat23 V c).owesAt () t.succ = (dat23 V c).owesAt () t.castSucc from rfl]
  rw [show (dat23 V c).Φ t.succ = PhiS23 V c (t.val + 1) t.isLt from rfl, PhiS23_succ]
  have hN : t.val < 25 := lt_of_lt_of_eq t.isLt (show cfg23.N = 25 from N_23)
  rw [show (dat23 V c).leavesExact 0 t = owns (c : Thread nD τ) (ms23_0 t) fullShare ((dat23 V c).after 0 t) from by
    unfold Dat.leavesExact; rw [liveAt23_0 t], after23_0]
  rw [show (dat23 V c).leavesExact 1 t = owns (c : Thread nD τ) (ms23_1 t) fullShare ((dat23 V c).after 1 t) from by
    unfold Dat.leavesExact; rw [liveAt23_1 t], after23_1]
  by_cases h0 : t.val = 0
  · have h1 : ¬t.val = 24 := by omega
    rw [Dat.leavesExact_idle (dat23 V c) 2 t (idleAt23_2 t (fun h => h1 ((hcond23_1 t).mp h))) (noFlush23_2 t (fun h => h1 ((hcond23_1 t).mp h)))]
    rw [outsAt23_A V c t h0 h1]
    unfold sout3_A_0; (try dsimp only)
    rw [PhiS23_castSucc V c t, PhiS23_zero V c _ _ h0, PhiA23_eq]
    iintro ⟨⟨⟨HS0, Hr⟩, Hg⟩, Ho, ⟨%d0, H0⟩, ⟨%d1, H1⟩, ⟨%d2, H2⟩⟩
    iapply ((kernelRun3_A c (grid23.coords t) _ _ _ _ _ _ _ _ ((hcond23_0 t).mpr h0) (fun h => h1 ((hcond23_1 t).mp h)) (iblk23 V c 0 t) (iblk23 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat23 V c).leavesExact 2 t = owns (c : Thread nD τ) (ms23_2 t) fullShare ((dat23 V c).after 2 t) from by
        unfold Dat.leavesExact; rw [liveAt23_2 t ((hcond23_1 t).mpr h1)], after23_2]
      rw [outsAt23_C V c t h0 h1]
      unfold out3_C_2 sout3_C_0; (try dsimp only)
      rw [PhiS23_castSucc V c t, PhiS23_pos V c _ _ h0]
      iintro ⟨⟨⟨HS0, Hr⟩, Hg⟩, Ho, ⟨%d0, H0⟩, ⟨%d1, H1⟩, ⟨%d2, H2⟩⟩
      iapply ((kernelRun3_C c (grid23.coords t) _ _ _ _ _ _ _ _ (fun h => h0 ((hcond23_0 t).mp h)) ((hcond23_1 t).mpr h1) (iblk23 V c 0 t) (iblk23 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat23 V c) 2 t (idleAt23_2 t (fun h => h1 ((hcond23_1 t).mp h))) (noFlush23_2 t (fun h => h1 ((hcond23_1 t).mp h)))]
      rw [outsAt23_B V c t h0 h1]
      unfold sout3_B_0; (try dsimp only)
      rw [PhiS23_castSucc V c t, PhiS23_pos V c _ _ h0]
      iintro ⟨⟨⟨HS0, Hr⟩, Hg⟩, Ho, ⟨%d0, H0⟩, ⟨%d1, H1⟩, ⟨%d2, H2⟩⟩
      iapply ((kernelRun3_B c (grid23.coords t) _ _ _ _ _ _ _ _ (fun h => h0 ((hcond23_0 t).mp h)) (fun h => h1 ((hcond23_1 t).mp h)) (iblk23 V c 0 t) (iblk23 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation23 (c : Dev nD) : BodyObligation (dat23 (F := F) V c) (defs₀ (F := F)) Variants.none () Set.univ := fun t => by
  rw [bigSep_W23, bigSep_W23]
  exact sound_body23 V c t

/-- What the launch hands the region is the invariant before the first point. -/
theorem hin23 (c : Dev nD) : Pipeline.ΦA spec23 c ⊢ (dat23 V c).Φ 0 := by
  rw [show (dat23 V c).Φ 0 = PhiS23 V c 0 (Nat.zero_le _) from rfl, PhiS23_zero V c 0 _ rfl]
  try exact Idealize.SL.BI.Entails.refl _

/-- After any point but the first the invariant gives the launch's back: the accumulator's named contents are forgotten. -/
theorem Phi_out23 (c : Dev nD) (t : Fin (cfg23.N + 1)) (ht : t.val ≠ 0) : (dat23 V c).Φ t ⊢ Pipeline.ΦA spec23 c := by
  rw [show (dat23 V c).Φ t = PhiS23 V c t.val (Nat.le_of_lt_succ t.isLt) from rfl, PhiS23_pos V c _ _ ht, PhiA23_eq]
  iintro ⟨⟨HS0, Hr⟩, Hg⟩
  isplitl [HS0 Hr]
  · isplitl [HS0]
    · iexists _; iexact HS0
    iexact Hr
  iexact Hg

/-- The same after the last point. -/
theorem hout23 (c : Dev nD) : (dat23 V c).Φ (Fin.last cfg23.N) ⊢ Pipeline.ΦA spec23 c :=
  Phi_out23 V c _ (by rw [Fin.val_last]; have : cfg23.N = 25 := N_23; omega)

end Cert.KernelIdeal.Hand

end
-- ==== Proof.KI.R24.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Ring
import Idealize.ShloMosaic.Lib.Tactic

/-!
# Region 24: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region24
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk24 (c : Dev nD) (w : Fin cfg24.W) (t : Fin cfg24.N) : ((cfg24.win w).xblock (cfg24.grid.coords t)).Idx → Elt F (cfg24.win w).elt :=
  ((cfg24.win w).blk t).view.read (Elt F) (V c (Pipeline.arrRef spec24 w))

/-- The activations' staging buffer holds the block of the current point at every point: the window is fetched at
    every point, is never cut and never idle, and the body leaves the block where it found it. -/
theorem before24_0_of {c : Dev nD} (dat : Dat τ (Elt F) Unit ℕ (UR sig nD τ) ℕ cfg24 c) (hA : dat.A 0 = V c (Pipeline.arrRef spec24 0))
    (hafter : ∀ t, dat.after 0 t = iblk24 V c 0 t) (t : Fin cfg24.N) (d) : dat.before 0 t d = iblk24 V c 0 t :=
  (dat.before_in_eq_fetched 0 rfl (fun _ => rfl) (fun _ _ _ => rfl) (fun t => by rw [hafter]; unfold Dat.blockOf iblk24; rw [hA]; try rfl) t d).trans
    (by unfold Dat.fetched Dat.blockOf iblk24; rw [hA]; try rfl)

/-- The mean row's staging buffer holds its (one) block at every point: it is fetched at the first point only, its
    block index never moves afterwards, and the body leaves it in place. -/
theorem before24_1_of {c : Dev nD} (dat : Dat τ (Elt F) Unit ℕ (UR sig nD τ) ℕ cfg24 c) (hA : dat.A 1 = V c (Pipeline.arrRef spec24 1))
    (hafter : ∀ t, dat.after 1 t = iblk24 V c 1 t) (t : Fin cfg24.N) (d) : dat.before 1 t d = iblk24 V c 1 t :=
  (dat.before_in_eq_fetched 1 rfl (fun _ => rfl) (fun _ _ _ => rfl) (fun t => by rw [hafter]; unfold Dat.blockOf iblk24; rw [hA]; try rfl) t d).trans
    (by unfold Dat.fetched Dat.blockOf iblk24; rw [hA]; try rfl)

/-- The same of the variance row. -/
theorem before24_2_of {c : Dev nD} (dat : Dat τ (Elt F) Unit ℕ (UR sig nD τ) ℕ cfg24 c) (hA : dat.A 2 = V c (Pipeline.arrRef spec24 2))
    (hafter : ∀ t, dat.after 2 t = iblk24 V c 2 t) (t : Fin cfg24.N) (d) : dat.before 2 t d = iblk24 V c 2 t :=
  (dat.before_in_eq_fetched 2 rfl (fun _ => rfl) (fun _ _ _ => rfl) (fun t => by rw [hafter]; unfold Dat.blockOf iblk24; rw [hA]; try rfl) t d).trans
    (by unfold Dat.fetched Dat.blockOf iblk24; rw [hA]; try rfl)

/-- The same of the scale row. -/
theorem before24_3_of {c : Dev nD} (dat : Dat τ (Elt F) Unit ℕ (UR sig nD τ) ℕ cfg24 c) (hA : dat.A 3 = V c (Pipeline.arrRef spec24 3))
    (hafter : ∀ t, dat.after 3 t = iblk24 V c 3 t) (t : Fin cfg24.N) (d) : dat.before 3 t d = iblk24 V c 3 t :=
  (dat.before_in_eq_fetched 3 rfl (fun _ => rfl) (fun _ _ _ => rfl) (fun t => by rw [hafter]; unfold Dat.blockOf iblk24; rw [hA]; try rfl) t d).trans
    (by unfold Dat.fetched Dat.blockOf iblk24; rw [hA]; try rfl)

/-- The same of the shift row. -/
theorem before24_4_of {c : Dev nD} (dat : Dat τ (Elt F) Unit ℕ (UR sig nD τ) ℕ cfg24 c) (hA : dat.A 4 = V c (Pipeline.arrRef spec24 4))
    (hafter : ∀ t, dat.after 4 t = iblk24 V c 4 t) (t : Fin cfg24.N) (d) : dat.before 4 t d = iblk24 V c 4 t :=
  (dat.before_in_eq_fetched 4 rfl (fun _ => rfl) (fun _ _ _ => rfl) (fun t => by rw [hafter]; unfold Dat.blockOf iblk24; rw [hA]; try rfl) t d).trans
    (by unfold Dat.fetched Dat.blockOf iblk24; rw [hA]; try rfl)

/-! ## The body's accesses: each buffer is read, and the output written, whole -/

/-- The whole of a block of 2000 rows. -/
noncomputable abbrev r24_0 : Rect S2000x64 := Rect.unit (s := S2000x64) ![0, 0] S2000x64.size inb_S2000x64_S2000x64_0_0
/-- The whole of a single row. -/
noncomputable abbrev r24_1 : Rect S1x64 := Rect.unit (s := S1x64) ![0, 0] S1x64.size inb_S1x64_S1x64_0_0

/-! ## What the body leaves in the output buffer -/

/-- The output buffer after the body, from the five input blocks: its one store, whose payload is the skeleton's. -/
noncomputable def out24_5 (x0 : Vec F S2000x64 .f32) (x1 : Vec F S1x64 .f32) (x2 : Vec F S1x64 .f32) (x3 : Vec F S1x64 .f32) (x4 : Vec F S1x64 .f32) :
    Vec F S2000x64 .f32 :=
  View.canon [⟨r24_0, k24_pay1 (View.ld x0 r24_0) (View.ld x1 r24_1) (View.ld x2 r24_1) (View.ld x3 r24_1) (View.ld x4 r24_1)⟩]

/-- The one store covers the buffer. -/
theorem cover24_5 (p0 : Vec F S2000x64 .f32) (y : S2000x64.Idx) :
    ∃ pc ∈ ([⟨r24_0, p0⟩] : List (View.Piece (Elt F) S2000x64 .f32)), y ∈ pc.1.set :=
  View.cover_of_tiled [⟨r24_0, p0⟩] S2000x64.size (by rfl) y

/-! ## The body's triple -/

set_option maxHeartbeats 1000000 in
/-- The body on whole staging buffers, the five inputs' at read contents x0 … x4 and the output's at anything, runs
    to a state in which the inputs' are as they were and the output's holds out24_5 of them. (The body also loads the
    output buffer before it stores to it; the loaded value is not used.) -/
theorem sound_kernel24 (c : Dev nD) (E : Set ℕ) (i : grid24.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out24_5 x0 x1 x2 x3 x4)) -∗ K ⟨⟩))
      ⊢ wp frame (wpE (defs₀ (F := F)) Variants.none c none) E (cc24__bn_softmax_kernel i arg1 harg1 arg2 harg2 arg3 harg3 arg4 harg4 arg5 harg5 arg6 harg6) K := by
  simp only [cc24__bn_softmax_kernel_eq_skeleton]; unfold cc24__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover24_5 _)

/-! ## The pipeline's proof data -/

/-- The proof data of the region's pipeline on core c: the arrays as the region finds them; after the body at point t
    each input's buffer at its block and the output's at out24_5 of the input blocks; the invariant that of a body which
    touches nothing but its windows; nothing owed; full shares. -/
noncomputable def dat24 (c : Dev nD) : Dat τ (Elt F) Unit ℕ (UR sig nD τ) ℕ cfg24 c where
  A w := V c (Pipeline.arrRef spec24 w)
  after w t := match w with
    | ⟨0, _⟩ => iblk24 V c 0 t
    | ⟨1, _⟩ => iblk24 V c 1 t
    | ⟨2, _⟩ => iblk24 V c 2 t
    | ⟨3, _⟩ => iblk24 V c 3 t
    | ⟨4, _⟩ => iblk24 V c 4 t
    | ⟨5, _⟩ => out24_5 (iblk24 V c 0 t) (iblk24 V c 1 t) (iblk24 V c 2 t) (iblk24 V c 3 t) (iblk24 V c 4 t)
  Φ _ := Pipeline.ΦA spec24 c
  q _ := fullShare
  owed _ := 0

/-- The proof data's arrays are the region-entry contents. -/
theorem A_eq24 (c : Dev nD) (w : Fin cfg24.W) : (dat24 V c).A w = V c (Pipeline.arrRef spec24 w) := by
  dsimp only [dat24]

/-- What the body leaves, window by window. -/
theorem after24_0 (c : Dev nD) (t : Fin cfg24.N) : (dat24 V c).after 0 t = iblk24 V c 0 t := by dsimp only [dat24]
theorem after24_1 (c : Dev nD) (t : Fin cfg24.N) : (dat24 V c).after 1 t = iblk24 V c 1 t := by dsimp only [dat24]
theorem after24_2 (c : Dev nD) (t : Fin cfg24.N) : (dat24 V c).after 2 t = iblk24 V c 2 t := by dsimp only [dat24]
theorem after24_3 (c : Dev nD) (t : Fin cfg24.N) : (dat24 V c).after 3 t = iblk24 V c 3 t := by dsimp only [dat24]
theorem after24_4 (c : Dev nD) (t : Fin cfg24.N) : (dat24 V c).after 4 t = iblk24 V c 4 t := by dsimp only [dat24]
theorem after24_5 (c : Dev nD) (t : Fin cfg24.N) :
    (dat24 V c).after 5 t = out24_5 (iblk24 V c 0 t) (iblk24 V c 1 t) (iblk24 V c 2 t) (iblk24 V c 3 t) (iblk24 V c 4 t) := by dsimp only [dat24]

/-- Each input's current staging buffer holds its block at every point, fetched there or not. -/
theorem before24_0 (c : Dev nD) (t : Fin cfg24.N) (d) : (dat24 V c).before 0 t d = iblk24 V c 0 t :=
  before24_0_of V (dat24 V c) (A_eq24 V c 0) (after24_0 V c) t d
theorem before24_1 (c : Dev nD) (t : Fin cfg24.N) (d) : (dat24 V c).before 1 t d = iblk24 V c 1 t :=
  before24_1_of V (dat24 V c) (A_eq24 V c 1) (after24_1 V c) t d
theorem before24_2 (c : Dev nD) (t : Fin cfg24.N) (d) : (dat24 V c).before 2 t d = iblk24 V c 2 t :=
  before24_2_of V (dat24 V c) (A_eq24 V c 2) (after24_2 V c) t d
theorem before24_3 (c : Dev nD) (t : Fin cfg24.N) (d) : (dat24 V c).before 3 t d = iblk24 V c 3 t :=
  before24_3_of V (dat24 V c) (A_eq24 V c 3) (after24_3 V c) t d
theorem before24_4 (c : Dev nD) (t : Fin cfg24.N) (d) : (dat24 V c).before 4 t d = iblk24 V c 4 t :=
  before24_4_of V (dat24 V c) (A_eq24 V c 4) (after24_4 V c) t d

/-! ## The body obligation, at a generic point -/

/-- What the body is called with at point t, the windows one by one, -/
noncomputable def bodyPre24 (c : Dev nD) (t : Fin cfg24.N) : sProp 𝕄 :=
  iprop((dat24 V c).Φ t.castSucc ∗ (dat24 V c).owesAt () t.castSucc
    ∗ (∃ d, owns (c : Thread nD τ) (st24_0 t) fullShare ((dat24 V c).before 0 t d))
    ∗ (∃ d, owns (c : Thread nD τ) (st24_1 t) fullShare ((dat24 V c).before 1 t d))
    ∗ (∃ d, owns (c : Thread nD τ) (st24_2 t) fullShare ((dat24 V c).before 2 t d))
    ∗ (∃ d, owns (c : Thread nD τ) (st24_3 t) fullShare ((dat24 V c).before 3 t d))
    ∗ (∃ d, owns (c : Thread nD τ) (st24_4 t) fullShare ((dat24 V c).before 4 t d))
    ∗ (∃ d, owns (c : Thread nD τ) (st24_5 t) fullShare ((dat24 V c).before 5 t d)))

/-- and what it returns. -/
noncomputable def bodyPost24 (c : Dev nD) (t : Fin cfg24.N) : sProp 𝕄 :=
  iprop((dat24 V c).Φ t.succ ∗ (dat24 V c).owesAt () t.succ
    ∗ owns (c : Thread nD τ) (st24_0 t) fullShare ((dat24 V c).after 0 t)
    ∗ owns (c : Thread nD τ) (st24_1 t) fullShare ((dat24 V c).after 1 t)
    ∗ owns (c : Thread nD τ) (st24_2 t) fullShare ((dat24 V c).after 2 t)
    ∗ owns (c : Thread nD τ) (st24_3 t) fullShare ((dat24 V c).after 3 t)
    ∗ owns (c : Thread nD τ) (st24_4 t) fullShare ((dat24 V c).after 4 t)
    ∗ owns (c : Thread nD τ) (st24_5 t) fullShare ((dat24 V c).after 5 t))

/-- The body at any point: the inputs' buffers hold their blocks, so the body's triple applies; the invariant and
    what the core owes pass through unread. -/
theorem sound_body24 (c : Dev nD) (t : Fin cfg24.N) :
    bodyPre24 V c t ⊢ wp frame (wpE (defs₀ (F := F)) Variants.none c none) Set.univ (bodyAt24 t) (fun _ => bodyPost24 V c t) := by
  unfold bodyPre24 bodyPost24 bodyAt24
  simp only [before24_0, before24_1, before24_2, before24_3, before24_4]
  rw [show (dat24 V c).Φ t.succ = (dat24 V c).Φ t.castSucc from rfl,
    show (dat24 V c).owesAt () t.succ = (dat24 V c).owesAt () t.castSucc from rfl,
    after24_0, after24_1, after24_2, after24_3, after24_4, after24_5]
  iintro ⟨HΦ, Ho, ⟨%d0, H0⟩, ⟨%d1, H1⟩, ⟨%d2, H2⟩, ⟨%d3, H3⟩, ⟨%d4, H4⟩, ⟨%d5, H5⟩⟩
  iapply (sound_kernel24 c Set.univ (grid24.coords t) _ _ _ _ _ _ _ _ _ _ _ _
    (iblk24 V c 0 t) (iblk24 V c 1 t) (iblk24 V c 2 t) (iblk24 V c 3 t) (iblk24 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation24 (c : Dev nD) : BodyObligation (dat24 (F := F) V c) (defs₀ (F := F)) Variants.none () Set.univ := fun t => by
  rw [bigSep_W24, bigSep_W24]
  exact sound_body24 V c t

end Region24

end Cert.KernelIdeal.Hand

end
-- ==== Proof.KI.R25.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.Regions
import Idealize.ShloMosaic.Lib.Tactic

/-! # Region 25: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region25
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk25 (c : Dev nD) (w : Fin cfg25.W) (t : Fin cfg25.N) : ((cfg25.win w).xblock (cfg25.grid.coords t)).Idx → Elt F (cfg25.win w).elt :=
  ((cfg25.win w).blk t).view.read (Elt F) (V c (Pipeline.arrRef spec25 w))

/-- The rows of X: the staging buffer the body is handed holds the block of the point, whether the
    point fetched it or not (an unfetched input has not moved its block index). -/
theorem before25_0_of {c : Dev nD} (dat : Dat τ (Elt F) Unit ℕ (UR sig nD τ) ℕ cfg25 c) (hA : dat.A 0 = V c (Pipeline.arrRef spec25 0))
    (hafter : ∀ t, dat.after 0 t = iblk25 V c 0 t) (t : Fin cfg25.N) (d) : dat.before 0 t d = iblk25 V c 0 t :=
  (dat.before_in_eq_fetched 0 rfl (fun _ => rfl) (fun _ _ _ => rfl) (fun t => by rw [hafter]; unfold Dat.blockOf iblk25; rw [hA]; try rfl) t d).trans
    (by unfold Dat.fetched Dat.blockOf iblk25; rw [hA]; try rfl)

/-- The matrix W: fetched at the first point only, and found in place at every later one. -/
theorem before25_1_of {c : Dev nD} (dat : Dat τ (Elt F) Unit ℕ (UR sig nD τ) ℕ cfg25 c) (hA : dat.A 1 = V c (Pipeline.arrRef spec25 1))
    (hafter : ∀ t, dat.after 1 t = iblk25 V c 1 t) (t : Fin cfg25.N) (d) : dat.before 1 t d = iblk25 V c 1 t :=
  (dat.before_in_eq_fetched 1 rfl (fun _ => rfl) (fun _ _ _ => rfl) (fun t => by rw [hafter]; unfold Dat.blockOf iblk25; rw [hA]; try rfl) t d).trans
    (by unfold Dat.fetched Dat.blockOf iblk25; rw [hA]; try rfl)

/-! ## The body's accesses: each buffer whole -/

noncomputable abbrev r25_0 : Rect S2000x64 := Rect.unit (s := S2000x64) ![0, 0] S2000x64.size inb_S2000x64_S2000x64_0_0
noncomputable abbrev r25_1 : Rect S64x64 := Rect.unit (s := S64x64) ![0, 0] S64x64.size inb_S64x64_S64x64_0_0
noncomputable abbrev r25_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out25_2 (x0 : Vec F S2000x64 .f32) (x1 : Vec F S64x64 .f32) : Vec F S2000x64 .f32 :=
  View.canon [⟨r25_2, k25_pay1 (View.ld x0 r25_0) (View.ld x1 r25_1)⟩]

/-- The store's rectangle is the whole buffer, so it covers every index. -/
theorem cover25_2 (p0 : Vec F S2000x64 .f32) (y : S2000x64.Idx) :
    ∃ pc ∈ ([⟨r25_2, p0⟩] : List (View.Piece (Elt F) S2000x64 .f32)), y ∈ pc.1.set :=
  View.cover_of_tiled [⟨r25_2, p0⟩] S2000x64.size (by rfl) y

/-! ## The body's triple -/

set_option maxHeartbeats 1000000 in
/-- On whole staging memrefs, the inputs' holding x0 and x1 and the output's holding anything, the body
    runs to a state where the inputs' are unchanged and the output's holds out25_2 x0 x1. The body also reads
    the output buffer before storing into it; the value read is not used. -/
theorem sound_kernel25 (c : Dev nD) (E : Set ℕ) (i : grid25.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out25_2 x0 x1)) -∗ K ⟨⟩))
      ⊢ wp frame (wpE (defs₀ (F := F)) Variants.none c none) E (cc25__linear_kernel i arg1 harg1 arg2 harg2 arg3 harg3) K := by
  simp only [cc25__linear_kernel_eq_skeleton]; unfold cc25__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover25_2 _)

/-! ## The pipeline's proof data -/

/-- The arrays as the region finds them; after the body at point t the inputs' buffers at their blocks
    and the output's at the product block; the invariant is the scoped rest and the generator register,
    untouched; nothing owed; full shares. -/
noncomputable def dat25 (c : Dev nD) : Dat τ (Elt F) Unit ℕ (UR sig nD τ) ℕ cfg25 c where
  A w := V c (Pipeline.arrRef spec25 w)
  after w t := match w with
    | ⟨0, _⟩ => iblk25 V c 0 t
    | ⟨1, _⟩ => iblk25 V c 1 t
    | ⟨2, _⟩ => out25_2 (iblk25 V c 0 t) (iblk25 V c 1 t)
  Φ _ := Pipeline.ΦA spec25 c
  q _ := fullShare
  owed _ := 0

theorem A_eq25 (c : Dev nD) (w : Fin cfg25.W) : (dat25 V c).A w = V c (Pipeline.arrRef spec25 w) := by
  dsimp only [dat25]

theorem after25_0 (c : Dev nD) (t : Fin cfg25.N) : (dat25 V c).after 0 t = iblk25 V c 0 t := by dsimp only [dat25]
theorem after25_1 (c : Dev nD) (t : Fin cfg25.N) : (dat25 V c).after 1 t = iblk25 V c 1 t := by dsimp only [dat25]
theorem after25_2 (c : Dev nD) (t : Fin cfg25.N) : (dat25 V c).after 2 t = out25_2 (iblk25 V c 0 t) (iblk25 V c 1 t) := by dsimp only [dat25]

theorem before25_0 (c : Dev nD) (t : Fin cfg25.N) (d) : (dat25 V c).before 0 t d = iblk25 V c 0 t :=
  before25_0_of V (dat25 V c) (A_eq25 V c 0) (after25_0 V c) t d
theorem before25_1 (c : Dev nD) (t : Fin cfg25.N) (d) : (dat25 V c).before 1 t d = iblk25 V c 1 t :=
  before25_1_of V (dat25 V c) (A_eq25 V c 1) (after25_1 V c) t d

/-! ## The body obligation, at a generic point -/

/-- What the body is called with at point t, window by window, -/
noncomputable def bodyPre25 (c : Dev nD) (t : Fin cfg25.N) : sProp 𝕄 :=
  iprop((dat25 V c).Φ t.castSucc ∗ (dat25 V c).owesAt () t.castSucc
    ∗ (∃ d, owns (c : Thread nD τ) (st25_0 t) fullShare ((dat25 V c).before 0 t d))
    ∗ (∃ d, owns (c : Thread nD τ) (st25_1 t) fullShare ((dat25 V c).before 1 t d))
    ∗ (∃ d, owns (c : Thread nD τ) (st25_2 t) fullShare ((dat25 V c).before 2 t d)))

/-- and what it returns. -/
noncomputable def bodyPost25 (c : Dev nD) (t : Fin cfg25.N) : sProp 𝕄 :=
  iprop((dat25 V c).Φ t.succ ∗ (dat25 V c).owesAt () t.succ
    ∗ owns (c : Thread nD τ) (st25_0 t) fullShare ((dat25 V c).after 0 t)
    ∗ owns (c : Thread nD τ) (st25_1 t) fullShare ((dat25 V c).after 1 t)
    ∗ owns (c : Thread nD τ) (st25_2 t) fullShare ((dat25 V c).after 2 t))

/-- The inputs' memrefs hold their blocks, so the body's triple applies; the invariant and what the core
    owes pass through unread. -/
theorem sound_body25 (c : Dev nD) (t : Fin cfg25.N) :
    bodyPre25 V c t ⊢ wp frame (wpE (defs₀ (F := F)) Variants.none c none) Set.univ (bodyAt25 t) (fun _ => bodyPost25 V c t) := by
  unfold bodyPre25 bodyPost25 bodyAt25
  simp only [before25_0, before25_1]
  rw [show (dat25 V c).Φ t.succ = (dat25 V c).Φ t.castSucc from rfl,
    show (dat25 V c).owesAt () t.succ = (dat25 V c).owesAt () t.castSucc from rfl,
    after25_0, after25_1, after25_2]
  iintro ⟨HΦ, Ho, ⟨%d0, H0⟩, ⟨%d1, H1⟩, ⟨%d2, H2⟩⟩
  iapply (sound_kernel25 c Set.univ (grid25.coords t) _ _ _ _ _ _ (iblk25 V c 0 t) (iblk25 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation25 (c : Dev nD) : BodyObligation (dat25 (F := F) V c) (defs₀ (F := F)) Variants.none () Set.univ := fun t => by
  rw [bigSep_W25, bigSep_W25]
  exact sound_body25 V c t

end Region25

end Cert.KernelIdeal.Hand

end
-- ==== Proof.KI.R26.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.R14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The kernel is region 14's

The two regions' printed kernel functions are the same function of the grid coordinate and the memrefs (the same
text over the same shapes; the grids and the last-point conditions are the same literals), so region 14's runs of the
body, its covers and its per-case contents — all stated over abstract coordinates and memrefs — serve this region. -/

theorem cc26_kernel_eq : cc26_kernel (F := F) = cc14_kernel (F := F) := rfl

/-! ## The windows' blocks -/

/-- Window `w`'s block at point `t`, read off its array as the region finds it (`V`). -/
noncomputable def iblk26 (c : Dev nD) (w : Fin cfg26.W) (t : Fin cfg26.N) : ((cfg26.win w).xblock (cfg26.grid.coords t)).Idx → Elt F (cfg26.win w).elt :=
  ((cfg26.win w).blk t).view.read (Elt F) (V c (Pipeline.arrRef spec26 w))

/-- Input window 0's current staging buffer holds its block at every point, for any proof data whose array is
    `V`'s and whose body leaves the block in place: the window is uncut and never idle. -/
theorem before26_0_of {c : Dev nD} (dat : Dat τ (Elt F) Unit ℕ (UR sig nD τ) ℕ cfg26 c) (hA : dat.A 0 = V c (Pipeline.arrRef spec26 0))
    (hafter : ∀ t, dat.after 0 t = iblk26 V c 0 t) (t : Fin cfg26.N) (d) : dat.before 0 t d = iblk26 V c 0 t :=
  (dat.before_in_eq_fetched 0 rfl (fun _ => rfl) (fun _ _ _ => rfl) (fun t => by rw [hafter]; unfold Dat.blockOf iblk26; rw [hA]; try rfl) t d).trans
    (by unfold Dat.fetched Dat.blockOf iblk26; rw [hA]; try rfl)

/-- Input window 1 likewise: fetched at the first point only, its block index never moves, so the buffer holds
    the block at every point. -/
theorem before26_1_of {c : Dev nD} (dat : Dat τ (Elt F) Unit ℕ (UR sig nD τ) ℕ cfg26 c) (hA : dat.A 1 = V c (Pipeline.arrRef spec26 1))
    (hafter : ∀ t, dat.after 1 t = iblk26 V c 1 t) (t : Fin cfg26.N) (d) : dat.before 1 t d = iblk26 V c 1 t :=
  (dat.before_in_eq_fetched 1 rfl (fun _ => rfl) (fun _ _ _ => rfl) (fun t => by rw [hafter]; unfold Dat.blockOf iblk26; rw [hA]; try rfl) t d).trans
    (by unfold Dat.fetched Dat.blockOf iblk26; rw [hA]; try rfl)

/-- Input window 2 likewise. -/
theorem before26_2_of {c : Dev nD} (dat : Dat τ (Elt F) Unit ℕ (UR sig nD τ) ℕ cfg26 c) (hA : dat.A 2 = V c (Pipeline.arrRef spec26 2))
    (hafter : ∀ t, dat.after 2 t = iblk26 V c 2 t) (t : Fin cfg26.N) (d) : dat.before 2 t d = iblk26 V c 2 t :=
  (dat.before_in_eq_fetched 2 rfl (fun _ => rfl) (fun _ _ _ => rfl) (fun t => by rw [hafter]; unfold Dat.blockOf iblk26; rw [hA]; try rfl) t d).trans
    (by unfold Dat.fetched Dat.blockOf iblk26; rw [hA]; try rfl)

/-! ## The body's two conditions on the grid coordinate -/

/-- It holds at the first point only. -/
theorem hcond26_0 : ∀ t : Fin cfg26.N, cond14_0 (grid26.coords t) ↔ t.val % 25 = 0 :=
  (by decide +kernel : ∀ t : Fin grid26.N, cond14_0 (grid26.coords t) ↔ t.val % 25 = 0)

/-- It holds at the last point only. -/
theorem hcond26_1 : ∀ t : Fin cfg26.N, cond14_1 (grid26.coords t) ↔ t.val % 25 = 24 :=
  (by decide +kernel : ∀ t : Fin grid26.N, cond14_1 (grid26.coords t) ↔ t.val % 25 = 24)

/-! ## Where the windows are idle -/

theorem liveAt26_0 : ∀ t : Fin cfg26.N, cfg26.idle 0 (grid26.coords t) = false := by decide +kernel
theorem liveAt26_1 : ∀ t : Fin cfg26.N, cfg26.idle 1 (grid26.coords t) = false := by decide +kernel
theorem liveAt26_2 : ∀ t : Fin cfg26.N, cfg26.idle 2 (grid26.coords t) = false := by decide +kernel
theorem liveAt26_3 : ∀ t : Fin cfg26.N, cfg26.idle 3 (grid26.coords t) = false := by decide +kernel
theorem liveAt26_4 : ∀ t : Fin cfg26.N, cfg26.idle 4 (grid26.coords t) = false := by decide +kernel
/-- At the first point the body stores nothing into output 5: the window is idle there and not written back. -/
theorem idleAt26_5_A : ∀ t : Fin cfg26.N, cond14_0 (grid26.coords t) → ¬cond14_1 (grid26.coords t) → cfg26.idle 5 (grid26.coords t) = true := by decide +kernel
theorem noFlush26_5_A : ∀ t : Fin cfg26.N, cond14_0 (grid26.coords t) → ¬cond14_1 (grid26.coords t) → (cfg26.win 5).flush t = false := by decide +kernel
/-- Nor at the middle points. -/
theorem idleAt26_5_B : ∀ t : Fin cfg26.N, ¬cond14_0 (grid26.coords t) → ¬cond14_1 (grid26.coords t) → cfg26.idle 5 (grid26.coords t) = true := by decide +kernel
theorem noFlush26_5_B : ∀ t : Fin cfg26.N, ¬cond14_0 (grid26.coords t) → ¬cond14_1 (grid26.coords t) → (cfg26.win 5).flush t = false := by decide +kernel
/-- At the last point it stores the accumulated sums there: the window is live. -/
theorem liveAt26_5_C : ∀ t : Fin cfg26.N, ¬cond14_0 (grid26.coords t) → cond14_1 (grid26.coords t) → cfg26.idle 5 (grid26.coords t) = false := by decide +kernel

/-! ## The memrefs the body is called with -/

/-- Each window's current staging memref at point `t`, as the pipeline passes it, and its wholeness. -/
noncomputable abbrev ms26_0 (t : Fin cfg26.N) : Memref sig .tc .vmem S2000x64 .f32 := win26_0.stage (cfg26.slots t 0)
abbrev hs26_0 (t : Fin cfg26.N) : (ms26_0 t).IsWhole := hstage26_0 ((cfg26.slots t 0).cast nbuf26_0)
noncomputable abbrev ms26_1 (t : Fin cfg26.N) : Memref sig .tc .vmem S1x64 .f32 := win26_1.stage (cfg26.slots t 1)
abbrev hs26_1 (t : Fin cfg26.N) : (ms26_1 t).IsWhole := hstage26_1 ((cfg26.slots t 1).cast nbuf26_1)
noncomputable abbrev ms26_2 (t : Fin cfg26.N) : Memref sig .tc .vmem S2000x64 .f32 := win26_2.stage (cfg26.slots t 2)
abbrev hs26_2 (t : Fin cfg26.N) : (ms26_2 t).IsWhole := hstage26_2 ((cfg26.slots t 2).cast nbuf26_2)
noncomputable abbrev ms26_3 (t : Fin cfg26.N) : Memref sig .tc .vmem S2000x64 .f32 := win26_3.stage (cfg26.slots t 3)
abbrev hs26_3 (t : Fin cfg26.N) : (ms26_3 t).IsWhole := hstage26_3 ((cfg26.slots t 3).cast nbuf26_3)
noncomputable abbrev ms26_4 (t : Fin cfg26.N) : Memref sig .tc .vmem S2000x64 .f32 := win26_4.stage (cfg26.slots t 4)
abbrev hs26_4 (t : Fin cfg26.N) : (ms26_4 t).IsWhole := hstage26_4 ((cfg26.slots t 4).cast nbuf26_4)
noncomputable abbrev ms26_5 (t : Fin cfg26.N) : Memref sig .tc .vmem S1x64 .f32 := win26_5.stage (cfg26.slots t 5)
abbrev hs26_5 (t : Fin cfg26.N) : (ms26_5 t).IsWhole := hstage26_5 ((cfg26.slots t 5).cast nbuf26_5)
/-- The scratch operand: a whole scoped buffer of the kernel's own, in which the column sums accumulate. -/
noncomputable abbrev scM26_0 : Memref sig .tc .vmem S1x64 .f32 := Memref.whole cc26_scratch0

/-- The other scoped buffers (every other call's staging buffers and scratch), unopened. -/
noncomputable abbrev restBut26 (c : Dev nD) : sProp 𝕄 :=
  Pipeline.scopedRestBut (Ix := Unit) (Name := ℕ) (U := UR sig nD τ) (Lvl := ℕ) (Val := Elt F) spec26 c [cc26_scratch0]

/-- The region's invariant as the launch hands it over, with the scratch operand split out as a memref owned at
    some contents: what the body obligation hands the run and takes back. -/
theorem PhiA26_eq (c : Dev nD) :
    (Pipeline.ΦA spec26 c : sProp 𝕄)
      = iprop(iprop(iprop((∃ d, owns (c : Thread nD τ) scM26_0 fullShare d)) ∗ restBut26 (F := F) c) ∗ (∃ r, prngReg c r)) := by
  unfold Pipeline.ΦA; rw [scopedRest26_split]; simp only [scM26_0, owns_whole]; try rfl

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt26 (c : Dev nD) : (n : ℕ) → n < cfg26.N → Vec F S2000x64 .f32 × Vec F S2000x64 .f32 × Vec F S1x64 .f32 × Vec F S1x64 .f32
  | 0, hn => (out14_A_3 c (grid26.coords ⟨0, hn⟩) (ms26_0 ⟨0, hn⟩) (hs26_0 ⟨0, hn⟩) (ms26_1 ⟨0, hn⟩) (hs26_1 ⟨0, hn⟩) (ms26_2 ⟨0, hn⟩) (hs26_2 ⟨0, hn⟩) (ms26_3 ⟨0, hn⟩) (hs26_3 ⟨0, hn⟩) (ms26_4 ⟨0, hn⟩) (hs26_4 ⟨0, hn⟩) (ms26_5 ⟨0, hn⟩) (hs26_5 ⟨0, hn⟩) scM26_0 (Memref.isWhole_whole _) ((hcond26_0 ⟨0, hn⟩).mpr (Nat.zero_mod _)) (fun h => (fun h => by (try dsimp only at h); omega) ((hcond26_1 ⟨0, hn⟩).mp h)) (iblk26 V c 0 ⟨0, hn⟩) (iblk26 V c 1 ⟨0, hn⟩) (iblk26 V c 2 ⟨0, hn⟩), out14_A_4 c (grid26.coords ⟨0, hn⟩) (ms26_0 ⟨0, hn⟩) (hs26_0 ⟨0, hn⟩) (ms26_1 ⟨0, hn⟩) (hs26_1 ⟨0, hn⟩) (ms26_2 ⟨0, hn⟩) (hs26_2 ⟨0, hn⟩) (ms26_3 ⟨0, hn⟩) (hs26_3 ⟨0, hn⟩) (ms26_4 ⟨0, hn⟩) (hs26_4 ⟨0, hn⟩) (ms26_5 ⟨0, hn⟩) (hs26_5 ⟨0, hn⟩) scM26_0 (Memref.isWhole_whole _) ((hcond26_0 ⟨0, hn⟩).mpr (Nat.zero_mod _)) (fun h => (fun h => by (try dsimp only at h); omega) ((hcond26_1 ⟨0, hn⟩).mp h)) (iblk26 V c 0 ⟨0, hn⟩) (iblk26 V c 1 ⟨0, hn⟩) (iblk26 V c 2 ⟨0, hn⟩), out14_A_5 c (grid26.coords ⟨0, hn⟩) (ms26_0 ⟨0, hn⟩) (hs26_0 ⟨0, hn⟩) (ms26_1 ⟨0, hn⟩) (hs26_1 ⟨0, hn⟩) (ms26_2 ⟨0, hn⟩) (hs26_2 ⟨0, hn⟩) (ms26_3 ⟨0, hn⟩) (hs26_3 ⟨0, hn⟩) (ms26_4 ⟨0, hn⟩) (hs26_4 ⟨0, hn⟩) (ms26_5 ⟨0, hn⟩) (hs26_5 ⟨0, hn⟩) scM26_0 (Memref.isWhole_whole _) ((hcond26_0 ⟨0, hn⟩).mpr (Nat.zero_mod _)) (fun h => (fun h => by (try dsimp only at h); omega) ((hcond26_1 ⟨0, hn⟩).mp h)) (iblk26 V c 0 ⟨0, hn⟩) (iblk26 V c 1 ⟨0, hn⟩) (iblk26 V c 2 ⟨0, hn⟩), sout14_A_0 c (grid26.coords ⟨0, hn⟩) (ms26_0 ⟨0, hn⟩) (hs26_0 ⟨0, hn⟩) (ms26_1 ⟨0, hn⟩) (hs26_1 ⟨0, hn⟩) (ms26_2 ⟨0, hn⟩) (hs26_2 ⟨0, hn⟩) (ms26_3 ⟨0, hn⟩) (hs26_3 ⟨0, hn⟩) (ms26_4 ⟨0, hn⟩) (hs26_4 ⟨0, hn⟩) (ms26_5 ⟨0, hn⟩) (hs26_5 ⟨0, hn⟩) scM26_0 (Memref.isWhole_whole _) ((hcond26_0 ⟨0, hn⟩).mpr (Nat.zero_mod _)) (fun h => (fun h => by (try dsimp only at h); omega) ((hcond26_1 ⟨0, hn⟩).mp h)) (iblk26 V c 0 ⟨0, hn⟩) (iblk26 V c 1 ⟨0, hn⟩) (iblk26 V c 2 ⟨0, hn⟩))
  | n + 1, hn =>
    if h0 : (n + 1) % 25 = 0 then
      if h1 : (n + 1) % 25 = 24 then
        False.elim (by omega)
      else
        (out14_A_3 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) ((hcond26_0 ⟨n + 1, hn⟩).mpr h0) (fun h => h1 ((hcond26_1 ⟨n + 1, hn⟩).mp h)) (iblk26 V c 0 ⟨n + 1, hn⟩) (iblk26 V c 1 ⟨n + 1, hn⟩) (iblk26 V c 2 ⟨n + 1, hn⟩), out14_A_4 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) ((hcond26_0 ⟨n + 1, hn⟩).mpr h0) (fun h => h1 ((hcond26_1 ⟨n + 1, hn⟩).mp h)) (iblk26 V c 0 ⟨n + 1, hn⟩) (iblk26 V c 1 ⟨n + 1, hn⟩) (iblk26 V c 2 ⟨n + 1, hn⟩), out14_A_5 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) ((hcond26_0 ⟨n + 1, hn⟩).mpr h0) (fun h => h1 ((hcond26_1 ⟨n + 1, hn⟩).mp h)) (iblk26 V c 0 ⟨n + 1, hn⟩) (iblk26 V c 1 ⟨n + 1, hn⟩) (iblk26 V c 2 ⟨n + 1, hn⟩), sout14_A_0 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) ((hcond26_0 ⟨n + 1, hn⟩).mpr h0) (fun h => h1 ((hcond26_1 ⟨n + 1, hn⟩).mp h)) (iblk26 V c 0 ⟨n + 1, hn⟩) (iblk26 V c 1 ⟨n + 1, hn⟩) (iblk26 V c 2 ⟨n + 1, hn⟩))
    else
      if h1 : (n + 1) % 25 = 24 then
        (out14_C_3 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) ((hcond26_1 ⟨n + 1, hn⟩).mpr h1) (iblk26 V c 0 ⟨n + 1, hn⟩) (iblk26 V c 1 ⟨n + 1, hn⟩) (iblk26 V c 2 ⟨n + 1, hn⟩) (outsAt26 c n (Nat.lt_of_succ_lt hn)).2.2.2, out14_C_4 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) ((hcond26_1 ⟨n + 1, hn⟩).mpr h1) (iblk26 V c 0 ⟨n + 1, hn⟩) (iblk26 V c 1 ⟨n + 1, hn⟩) (iblk26 V c 2 ⟨n + 1, hn⟩) (outsAt26 c n (Nat.lt_of_succ_lt hn)).2.2.2, out14_C_5 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) ((hcond26_1 ⟨n + 1, hn⟩).mpr h1) (iblk26 V c 0 ⟨n + 1, hn⟩) (iblk26 V c 1 ⟨n + 1, hn⟩) (iblk26 V c 2 ⟨n + 1, hn⟩) (outsAt26 c n (Nat.lt_of_succ_lt hn)).2.2.2, sout14_C_0 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) ((hcond26_1 ⟨n + 1, hn⟩).mpr h1) (iblk26 V c 0 ⟨n + 1, hn⟩) (iblk26 V c 1 ⟨n + 1, hn⟩) (iblk26 V c 2 ⟨n + 1, hn⟩) (outsAt26 c n (Nat.lt_of_succ_lt hn)).2.2.2)
      else
        (out14_B_3 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) (fun h => h1 ((hcond26_1 ⟨n + 1, hn⟩).mp h)) (iblk26 V c 0 ⟨n + 1, hn⟩) (iblk26 V c 1 ⟨n + 1, hn⟩) (iblk26 V c 2 ⟨n + 1, hn⟩) (outsAt26 c n (Nat.lt_of_succ_lt hn)).2.2.2, out14_B_4 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) (fun h => h1 ((hcond26_1 ⟨n + 1, hn⟩).mp h)) (iblk26 V c 0 ⟨n + 1, hn⟩) (iblk26 V c 1 ⟨n + 1, hn⟩) (iblk26 V c 2 ⟨n + 1, hn⟩) (outsAt26 c n (Nat.lt_of_succ_lt hn)).2.2.2, out14_B_5 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) (fun h => h1 ((hcond26_1 ⟨n + 1, hn⟩).mp h)) (iblk26 V c 0 ⟨n + 1, hn⟩) (iblk26 V c 1 ⟨n + 1, hn⟩) (iblk26 V c 2 ⟨n + 1, hn⟩) (outsAt26 c n (Nat.lt_of_succ_lt hn)).2.2.2, sout14_B_0 c (grid26.coords ⟨n + 1, hn⟩) (ms26_0 ⟨n + 1, hn⟩) (hs26_0 ⟨n + 1, hn⟩) (ms26_1 ⟨n + 1, hn⟩) (hs26_1 ⟨n + 1, hn⟩) (ms26_2 ⟨n + 1, hn⟩) (hs26_2 ⟨n + 1, hn⟩) (ms26_3 ⟨n + 1, hn⟩) (hs26_3 ⟨n + 1, hn⟩) (ms26_4 ⟨n + 1, hn⟩) (hs26_4 ⟨n + 1, hn⟩) (ms26_5 ⟨n + 1, hn⟩) (hs26_5 ⟨n + 1, hn⟩) scM26_0 (Memref.isWhole_whole _) (fun h => h0 ((hcond26_0 ⟨n + 1, hn⟩).mp h)) (fun h => h1 ((hcond26_1 ⟨n + 1, hn⟩).mp h)) (iblk26 V c 0 ⟨n + 1, hn⟩) (iblk26 V c 1 ⟨n + 1, hn⟩) (iblk26 V c 2 ⟨n + 1, hn⟩) (outsAt26 c n (Nat.lt_of_succ_lt hn)).2.2.2)

/-- `outsAt26` at the first point: case A's contents. -/
theorem outsAt26_A (c : Dev nD) (t : Fin cfg26.N) (h0 : t.val % 25 = 0) (h1 : ¬t.val % 25 = 24) :
    outsAt26 V c t.val t.isLt = (out14_A_3 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) ((hcond26_0 t).mpr h0) (fun h => h1 ((hcond26_1 t).mp h)) (iblk26 V c 0 t) (iblk26 V c 1 t) (iblk26 V c 2 t), out14_A_4 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) ((hcond26_0 t).mpr h0) (fun h => h1 ((hcond26_1 t).mp h)) (iblk26 V c 0 t) (iblk26 V c 1 t) (iblk26 V c 2 t), out14_A_5 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) ((hcond26_0 t).mpr h0) (fun h => h1 ((hcond26_1 t).mp h)) (iblk26 V c 0 t) (iblk26 V c 1 t) (iblk26 V c 2 t), sout14_A_0 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) ((hcond26_0 t).mpr h0) (fun h => h1 ((hcond26_1 t).mp h)) (iblk26 V c 0 t) (iblk26 V c 1 t) (iblk26 V c 2 t)) := by
  obtain ⟨n, hn⟩ := t
  cases n with
  | zero => exact rfl
  | succ n => exact (dif_pos h0).trans ((dif_neg h1).trans rfl)

/-- `outsAt26` at a middle point: case B's contents, over what the point before left in the scratch. -/
theorem outsAt26_B (c : Dev nD) (t : Fin cfg26.N) (h0 : ¬t.val % 25 = 0) (h1 : ¬t.val % 25 = 24) :
    outsAt26 V c t.val t.isLt = (out14_B_3 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) (fun h => h1 ((hcond26_1 t).mp h)) (iblk26 V c 0 t) (iblk26 V c 1 t) (iblk26 V c 2 t) (outsAt26 V c (t.val - 1) (Nat.lt_of_le_of_lt (Nat.sub_le _ _) t.isLt)).2.2.2, out14_B_4 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) (fun h => h1 ((hcond26_1 t).mp h)) (iblk26 V c 0 t) (iblk26 V c 1 t) (iblk26 V c 2 t) (outsAt26 V c (t.val - 1) (Nat.lt_of_le_of_lt (Nat.sub_le _ _) t.isLt)).2.2.2, out14_B_5 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) (fun h => h1 ((hcond26_1 t).mp h)) (iblk26 V c 0 t) (iblk26 V c 1 t) (iblk26 V c 2 t) (outsAt26 V c (t.val - 1) (Nat.lt_of_le_of_lt (Nat.sub_le _ _) t.isLt)).2.2.2, sout14_B_0 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) (fun h => h1 ((hcond26_1 t).mp h)) (iblk26 V c 0 t) (iblk26 V c 1 t) (iblk26 V c 2 t) (outsAt26 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt26` at the last point: case C's contents, over what the point before left in the scratch. -/
theorem outsAt26_C (c : Dev nD) (t : Fin cfg26.N) (h0 : ¬t.val % 25 = 0) (h1 : t.val % 25 = 24) :
    outsAt26 V c t.val t.isLt = (out14_C_3 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) ((hcond26_1 t).mpr h1) (iblk26 V c 0 t) (iblk26 V c 1 t) (iblk26 V c 2 t) (outsAt26 V c (t.val - 1) (Nat.lt_of_le_of_lt (Nat.sub_le _ _) t.isLt)).2.2.2, out14_C_4 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) ((hcond26_1 t).mpr h1) (iblk26 V c 0 t) (iblk26 V c 1 t) (iblk26 V c 2 t) (outsAt26 V c (t.val - 1) (Nat.lt_of_le_of_lt (Nat.sub_le _ _) t.isLt)).2.2.2, out14_C_5 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) ((hcond26_1 t).mpr h1) (iblk26 V c 0 t) (iblk26 V c 1 t) (iblk26 V c 2 t) (outsAt26 V c (t.val - 1) (Nat.lt_of_le_of_lt (Nat.sub_le _ _) t.isLt)).2.2.2, sout14_C_0 c (grid26.coords t) (ms26_0 t) (hs26_0 t) (ms26_1 t) (hs26_1 t) (ms26_2 t) (hs26_2 t) (ms26_3 t) (hs26_3 t) (ms26_4 t) (hs26_4 t) (ms26_5 t) (hs26_5 t) scM26_0 (Memref.isWhole_whole _) (fun h => h0 ((hcond26_0 t).mp h)) ((hcond26_1 t).mpr h1) (iblk26 V c 0 t) (iblk26 V c 1 t) (iblk26 V c 2 t) (outsAt26 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt26`'s last component), the other
    scoped buffers unopened and the generator register at some state. -/
noncomputable def PhiS26 (c : Dev nD) : (n : ℕ) → n ≤ cfg26.N → sProp 𝕄
  | 0, _ => Pipeline.ΦA spec26 c
  | n + 1, hn => iprop(iprop(iprop(owns (c : Thread nD τ) scM26_0 fullShare ((outsAt26 V c n hn).2.2.2)) ∗ restBut26 (F := F) c) ∗ (∃ r, prngReg c r))

theorem PhiS26_zero (c : Dev nD) (n : ℕ) (h : n ≤ cfg26.N) (hz : n = 0) : PhiS26 V c n h = Pipeline.ΦA spec26 c := by
  subst hz; rfl

/-- After point `n` (before point `n + 1`): the scratch at that point's contents. -/
theorem PhiS26_succ (c : Dev nD) (n : ℕ) (hn : n < cfg26.N) :
    PhiS26 V c (n + 1) hn = iprop(iprop(iprop(owns (c : Thread nD τ) scM26_0 fullShare ((outsAt26 V c n hn).2.2.2)) ∗ restBut26 (F := F) c) ∗ (∃ r, prngReg c r)) := rfl

/-- Before a point that is not the first: the scratch at what the point before left. -/
theorem PhiS26_pos (c : Dev nD) (n : ℕ) (h : n ≤ cfg26.N) (hz : n ≠ 0) :
    PhiS26 V c n h = iprop(iprop(iprop(owns (c : Thread nD τ) scM26_0 fullShare ((outsAt26 V c (n - 1) (by omega)).2.2.2)) ∗ restBut26 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt26`; the invariant `PhiS26`; nothing owed;
    full shares. -/
noncomputable def dat26 (c : Dev nD) : Dat τ (Elt F) Unit ℕ (UR sig nD τ) ℕ cfg26 c where
  A w := V c (Pipeline.arrRef spec26 w)
  after w t := match w with
    | ⟨0, _⟩ => iblk26 V c 0 t
    | ⟨1, _⟩ => iblk26 V c 1 t
    | ⟨2, _⟩ => iblk26 V c 2 t
    | ⟨3, _⟩ => (outsAt26 V c t.val t.isLt).1
    | ⟨4, _⟩ => (outsAt26 V c t.val t.isLt).2.1
    | ⟨5, _⟩ => (outsAt26 V c t.val t.isLt).2.2.1
  Φ t := PhiS26 V c t.val (Nat.le_of_lt_succ t.isLt)
  q _ := fullShare
  owed _ := 0

/-- The proof data's arrays are the region-entry contents. -/
theorem A_eq26 (c : Dev nD) (w : Fin cfg26.W) : (dat26 V c).A w = V c (Pipeline.arrRef spec26 w) := by
  dsimp only [dat26]

/-- The invariant at a point's start, restated at `t.val`. -/
theorem PhiS26_castSucc (c : Dev nD) (t : Fin cfg26.N) :
    (dat26 V c).Φ t.castSucc = PhiS26 V c t.val (Nat.le_of_lt t.isLt) := by
  dsimp only [dat26]; simp only [Fin.coe_castSucc]

/-- What the body leaves, window by window. -/
theorem after26_0 (c : Dev nD) (t : Fin cfg26.N) : (dat26 V c).after 0 t = iblk26 V c 0 t := by dsimp only [dat26]
theorem after26_1 (c : Dev nD) (t : Fin cfg26.N) : (dat26 V c).after 1 t = iblk26 V c 1 t := by dsimp only [dat26]
theorem after26_2 (c : Dev nD) (t : Fin cfg26.N) : (dat26 V c).after 2 t = iblk26 V c 2 t := by dsimp only [dat26]
theorem after26_3 (c : Dev nD) (t : Fin cfg26.N) : (dat26 V c).after 3 t = (outsAt26 V c t.val t.isLt).1 := by dsimp only [dat26]
theorem after26_4 (c : Dev nD) (t : Fin cfg26.N) : (dat26 V c).after 4 t = (outsAt26 V c t.val t.isLt).2.1 := by dsimp only [dat26]
theorem after26_5 (c : Dev nD) (t : Fin cfg26.N) : (dat26 V c).after 5 t = (outsAt26 V c t.val t.isLt).2.2.1 := by dsimp only [dat26]

/-- Each input's current staging buffer holds its block at every point, fetched there or not. -/
theorem before26_0 (c : Dev nD) (t : Fin cfg26.N) (d) : (dat26 V c).before 0 t d = iblk26 V c 0 t :=
  before26_0_of V (dat26 V c) (A_eq26 V c 0) (after26_0 V c) t d
theorem before26_1 (c : Dev nD) (t : Fin cfg26.N) (d) : (dat26 V c).before 1 t d = iblk26 V c 1 t :=
  before26_1_of V (dat26 V c) (A_eq26 V c 1) (after26_1 V c) t d
theorem before26_2 (c : Dev nD) (t : Fin cfg26.N) (d) : (dat26 V c).before 2 t d = iblk26 V c 2 t :=
  before26_2_of V (dat26 V c) (A_eq26 V c 2) (after26_2 V c) t d

/-! ## The body obligation, at a generic point -/

/-- What the body is called with at point `t` (the windows one by one), -/
noncomputable def bodyPre26 (c : Dev nD) (t : Fin cfg26.N) : sProp 𝕄 :=
  iprop((dat26 V c).Φ t.castSucc ∗ (dat26 V c).owesAt () t.castSucc
    ∗ (∃ d, owns (c : Thread nD τ) (ms26_0 t) fullShare ((dat26 V c).before 0 t d))
    ∗ (∃ d, owns (c : Thread nD τ) (ms26_1 t) fullShare ((dat26 V c).before 1 t d))
    ∗ (∃ d, owns (c : Thread nD τ) (ms26_2 t) fullShare ((dat26 V c).before 2 t d))
    ∗ (∃ d, owns (c : Thread nD τ) (ms26_3 t) fullShare ((dat26 V c).before 3 t d))
    ∗ (∃ d, owns (c : Thread nD τ) (ms26_4 t) fullShare ((dat26 V c).before 4 t d))
    ∗ (∃ d, owns (c : Thread nD τ) (ms26_5 t) fullShare ((dat26 V c).before 5 t d)))

/-- and what it returns. -/
noncomputable def bodyPost26 (c : Dev nD) (t : Fin cfg26.N) : sProp 𝕄 :=
  iprop((dat26 V c).Φ t.succ ∗ (dat26 V c).owesAt () t.succ
    ∗ (dat26 V c).leavesExact 0 t
    ∗ (dat26 V c).leavesExact 1 t
    ∗ (dat26 V c).leavesExact 2 t
    ∗ (dat26 V c).leavesExact 3 t
    ∗ (dat26 V c).leavesExact 4 t
    ∗ (dat26 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body26 (c : Dev nD) (t : Fin cfg26.N) :
    bodyPre26 V c t ⊢ wp frame (wpE (defs₀ (F := F)) Variants.none c none) Set.univ (bodyAt26 t) (fun _ => bodyPost26 V c t) := by
  unfold bodyPre26 bodyPost26 bodyAt26
  rw [cc26_kernel_eq]
  simp only [before26_0, before26_1, before26_2]
  rw [show (dat26 V c).owesAt () t.succ = (dat26 V c).owesAt () t.castSucc from rfl]
  rw [show (dat26 V c).Φ t.succ = PhiS26 V c (t.val + 1) t.isLt from rfl, PhiS26_succ]
  have hN : t.val < 25 := lt_of_lt_of_eq t.isLt (show cfg26.N = 25 from N_26)
  by_cases h0 : t.val % 25 = 0
  · by_cases h1 : t.val % 25 = 24
    · exfalso; omega
    · rw [show (dat26 V c).leavesExact 0 t = owns (c : Thread nD τ) (ms26_0 t) fullShare ((dat26 V c).after 0 t) from by
        unfold Dat.leavesExact; rw [liveAt26_0 t], after26_0]
      rw [show (dat26 V c).leavesExact 1 t = owns (c : Thread nD τ) (ms26_1 t) fullShare ((dat26 V c).after 1 t) from by
        unfold Dat.leavesExact; rw [liveAt26_1 t], after26_1]
      rw [show (dat26 V c).leavesExact 2 t = owns (c : Thread nD τ) (ms26_2 t) fullShare ((dat26 V c).after 2 t) from by
        unfold Dat.leavesExact; rw [liveAt26_2 t], after26_2]
      rw [show (dat26 V c).leavesExact 3 t = owns (c : Thread nD τ) (ms26_3 t) fullShare ((dat26 V c).after 3 t) from by
        unfold Dat.leavesExact; rw [liveAt26_3 t], after26_3]
      rw [show (dat26 V c).leavesExact 4 t = owns (c : Thread nD τ) (ms26_4 t) fullShare ((dat26 V c).after 4 t) from by
        unfold Dat.leavesExact; rw [liveAt26_4 t], after26_4]
      rw [Dat.leavesExact_idle (dat26 V c) 5 t (idleAt26_5_A t ((hcond26_0 t).mpr h0) (fun h => h1 ((hcond26_1 t).mp h))) (noFlush26_5_A t ((hcond26_0 t).mpr h0) (fun h => h1 ((hcond26_1 t).mp h)))]
      rw [outsAt26_A V c t h0 h1]
      unfold out14_A_3 out14_A_4 sout14_A_0; (try dsimp only)
      by_cases hz : t.val = 0
      · rw [PhiS26_castSucc V c t, PhiS26_zero V c _ _ hz, PhiA26_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid26.coords t) _ _ _ _ _ _ _ _ _ _ _ _ _ _ ((hcond26_0 t).mpr h0) (fun h => h1 ((hcond26_1 t).mp h)) (iblk26 V c 0 t) (iblk26 V c 1 t) (iblk26 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat26 V c).leavesExact 0 t = owns (c : Thread nD τ) (ms26_0 t) fullShare ((dat26 V c).after 0 t) from by
        unfold Dat.leavesExact; rw [liveAt26_0 t], after26_0]
      rw [show (dat26 V c).leavesExact 1 t = owns (c : Thread nD τ) (ms26_1 t) fullShare ((dat26 V c).after 1 t) from by
        unfold Dat.leavesExact; rw [liveAt26_1 t], after26_1]
      rw [show (dat26 V c).leavesExact 2 t = owns (c : Thread nD τ) (ms26_2 t) fullShare ((dat26 V c).after 2 t) from by
        unfold Dat.leavesExact; rw [liveAt26_2 t], after26_2]
      rw [show (dat26 V c).leavesExact 3 t = owns (c : Thread nD τ) (ms26_3 t) fullShare ((dat26 V c).after 3 t) from by
        unfold Dat.leavesExact; rw [liveAt26_3 t], after26_3]
      rw [show (dat26 V c).leavesExact 4 t = owns (c : Thread nD τ) (ms26_4 t) fullShare ((dat26 V c).after 4 t) from by
        unfold Dat.leavesExact; rw [liveAt26_4 t], after26_4]
      rw [show (dat26 V c).leavesExact 5 t = owns (c : Thread nD τ) (ms26_5 t) fullShare ((dat26 V c).after 5 t) from by
        unfold Dat.leavesExact; rw [liveAt26_5_C t (fun h => h0 ((hcond26_0 t).mp h)) ((hcond26_1 t).mpr h1)], after26_5]
      rw [outsAt26_C V c t h0 h1]
      unfold out14_C_3 out14_C_4 out14_C_5 sout14_C_0; (try dsimp only)
      by_cases hz : t.val = 0
      · exfalso; omega
      · rw [PhiS26_castSucc V c t, PhiS26_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid26.coords t) _ _ _ _ _ _ _ _ _ _ _ _ _ _ (fun h => h0 ((hcond26_0 t).mp h)) ((hcond26_1 t).mpr h1) (iblk26 V c 0 t) (iblk26 V c 1 t) (iblk26 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat26 V c).leavesExact 0 t = owns (c : Thread nD τ) (ms26_0 t) fullShare ((dat26 V c).after 0 t) from by
        unfold Dat.leavesExact; rw [liveAt26_0 t], after26_0]
      rw [show (dat26 V c).leavesExact 1 t = owns (c : Thread nD τ) (ms26_1 t) fullShare ((dat26 V c).after 1 t) from by
        unfold Dat.leavesExact; rw [liveAt26_1 t], after26_1]
      rw [show (dat26 V c).leavesExact 2 t = owns (c : Thread nD τ) (ms26_2 t) fullShare ((dat26 V c).after 2 t) from by
        unfold Dat.leavesExact; rw [liveAt26_2 t], after26_2]
      rw [show (dat26 V c).leavesExact 3 t = owns (c : Thread nD τ) (ms26_3 t) fullShare ((dat26 V c).after 3 t) from by
        unfold Dat.leavesExact; rw [liveAt26_3 t], after26_3]
      rw [show (dat26 V c).leavesExact 4 t = owns (c : Thread nD τ) (ms26_4 t) fullShare ((dat26 V c).after 4 t) from by
        unfold Dat.leavesExact; rw [liveAt26_4 t], after26_4]
      rw [Dat.leavesExact_idle (dat26 V c) 5 t (idleAt26_5_B t (fun h => h0 ((hcond26_0 t).mp h)) (fun h => h1 ((hcond26_1 t).mp h))) (noFlush26_5_B t (fun h => h0 ((hcond26_0 t).mp h)) (fun h => h1 ((hcond26_1 t).mp h)))]
      rw [outsAt26_B V c t h0 h1]
      unfold out14_B_3 out14_B_4 sout14_B_0; (try dsimp only)
      by_cases hz : t.val = 0
      · exfalso; omega
      · rw [PhiS26_castSucc V c t, PhiS26_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid26.coords t) _ _ _ _ _ _ _ _ _ _ _ _ _ _ (fun h => h0 ((hcond26_0 t).mp h)) (fun h => h1 ((hcond26_1 t).mp h)) (iblk26 V c 0 t) (iblk26 V c 1 t) (iblk26 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation26 (c : Dev nD) : BodyObligation (dat26 (F := F) V c) (defs₀ (F := F)) Variants.none () Set.univ := fun t => by
  rw [bigSep_W26, bigSep_W26]
  exact sound_body26 V c t

/-- What the launch hands the region is the invariant before the first point. -/
theorem hin26 (c : Dev nD) : Pipeline.ΦA spec26 c ⊢ (dat26 V c).Φ 0 := by
  rw [show (dat26 V c).Φ 0 = PhiS26 V c 0 (Nat.zero_le _) from rfl, PhiS26_zero V c 0 _ rfl]
  try exact Idealize.SL.BI.Entails.refl _

/-- After any point but the first the invariant gives it back: the scratch's named contents are forgotten. -/
theorem Phi_out26 (c : Dev nD) (t : Fin (cfg26.N + 1)) (ht : t.val ≠ 0) : (dat26 V c).Φ t ⊢ Pipeline.ΦA spec26 c := by
  rw [show (dat26 V c).Φ t = PhiS26 V c t.val (Nat.le_of_lt_succ t.isLt) from rfl, PhiS26_pos V c _ _ ht, PhiA26_eq]
  iintro ⟨⟨HS0, HR⟩, Hg⟩
  isplitl [HS0 HR]
  · isplitl [HS0]
    · iexists _; iexact HS0
    iexact HR
  iexact Hg

/-- The same after the last point. -/
theorem hout26 (c : Dev nD) : (dat26 V c).Φ (Fin.last cfg26.N) ⊢ Pipeline.ΦA spec26 c :=
  Phi_out26 V c _ (by rw [Fin.val_last]; have : cfg26.N = 25 := N_26; omega)

end Cert.KernelIdeal.Hand

end
-- ==== Proof.KI.R27.lean ====
import proofs.«408084_j48395691492010_3_alg».proof.Proof.KI.R3

/-! Region 27: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk27 (c : Dev nD) (w : Fin cfg27.W) (t : Fin cfg27.N) : ((cfg27.win w).xblock (cfg27.grid.coords t)).Idx → Elt F (cfg27.win w).elt :=
  ((cfg27.win w).blk t).view.read (Elt F) (V c (Pipeline.arrRef spec27 w))

/-- The row-tile window (window 0, fetched at every point) holds its block when the body runs. -/
theorem before27_0_of {c : Dev nD} (dat : Dat τ (Elt F) Unit ℕ (UR sig nD τ) ℕ cfg27 c) (hA : dat.A 0 = V c (Pipeline.arrRef spec27 0))
    (hafter : ∀ t, dat.after 0 t = iblk27 V c 0 t) (t : Fin cfg27.N) (d) : dat.before 0 t d = iblk27 V c 0 t :=
  (dat.before_in_eq_fetched 0 rfl (fun _ => rfl) (fun _ _ _ => rfl) (fun t => by rw [hafter]; unfold Dat.blockOf iblk27; rw [hA]; try rfl) t d).trans
    (by unfold Dat.fetched Dat.blockOf iblk27; rw [hA]; try rfl)

/-- The mean window (window 1, one constant block fetched at the first point only) holds that block at every point. -/
theorem before27_1_of {c : Dev nD} (dat : Dat τ (Elt F) Unit ℕ (UR sig nD τ) ℕ cfg27 c) (hA : dat.A 1 = V c (Pipeline.arrRef spec27 1))
    (hafter : ∀ t, dat.after 1 t = iblk27 V c 1 t) (t : Fin cfg27.N) (d) : dat.before 1 t d = iblk27 V c 1 t :=
  (dat.before_in_eq_fetched 1 rfl (fun _ => rfl) (fun _ _ _ => rfl) (fun t => by rw [hafter]; unfold Dat.blockOf iblk27; rw [hA]; try rfl) t d).trans
    (by unfold Dat.fetched Dat.blockOf iblk27; rw [hA]; try rfl)

/-! ## The branch conditions and the idle points, over this region's grid (the same grid) -/

/-- The reset's condition holds at the first point only, -/
theorem hcond27_0 : ∀ t : Fin cfg27.N, cond3_0 (grid27.coords t) ↔ t.val = 0 := hcond3_0
/-- the final store's at the last point only. -/
theorem hcond27_1 : ∀ t : Fin cfg27.N, cond3_1 (grid27.coords t) ↔ t.val = 24 := hcond3_1

theorem liveAt27_0 : ∀ t : Fin cfg27.N, cfg27.idle 0 (grid27.coords t) = false := fun _ => rfl
theorem liveAt27_1 : ∀ t : Fin cfg27.N, cfg27.idle 1 (grid27.coords t) = false := fun _ => rfl
/-- Away from the last point the result window is idle, -/
theorem idleAt27_2 : ∀ t : Fin cfg27.N, ¬cond3_1 (grid27.coords t) → cfg27.idle 2 (grid27.coords t) = true := idleAt3_2
/-- and live at it. -/
theorem liveAt27_2 : ∀ t : Fin cfg27.N, cond3_1 (grid27.coords t) → cfg27.idle 2 (grid27.coords t) = false := liveAt3_2
/-- Away from the last point its block is not written back (the schedule's closed form). -/
theorem noFlush27_2 (t : Fin cfg27.N) (h : ¬cond3_1 (grid27.coords t)) : (cfg27.win 2).flush t = false := by
  have hN : t.val < 25 := lt_of_lt_of_eq t.isLt (show cfg27.N = 25 from N_27)
  have h24 : ¬t.val = 24 := fun e => h ((hcond27_1 t).mpr e)
  cases hf : (cfg27.win 2).flush t with
  | false => rfl
  | true => exact absurd (by have := (flush27_2 t).mp hf; omega) h24

/-! ## The memrefs the body is called with -/

noncomputable abbrev ms27_0 (t : Fin cfg27.N) : Memref sig .tc .vmem S2000x64 .f32 := win27_0.stage (cfg27.slots t 0)
abbrev hs27_0 (t : Fin cfg27.N) : (ms27_0 t).IsWhole := hstage27_0 ((cfg27.slots t 0).cast nbuf27_0)
noncomputable abbrev ms27_1 (t : Fin cfg27.N) : Memref sig .tc .vmem S1x64 .f32 := win27_1.stage (cfg27.slots t 1)
abbrev hs27_1 (t : Fin cfg27.N) : (ms27_1 t).IsWhole := hstage27_1 ((cfg27.slots t 1).cast nbuf27_1)
noncomputable abbrev ms27_2 (t : Fin cfg27.N) : Memref sig .tc .vmem S1x64 .f32 := win27_2.stage (cfg27.slots t 2)
abbrev hs27_2 (t : Fin cfg27.N) : (ms27_2 t).IsWhole := hstage27_2 ((cfg27.slots t 2).cast nbuf27_2)
/-- The accumulator: this call's own scratch buffer, whole. -/
noncomputable abbrev scM27_0 : Memref sig .tc .vmem S1x64 .f32 := Memref.whole cc27_scratch0

/-- The body the pipeline calls at point `t` is region 3's printed kernel on this region's memrefs: the two printed
    functions are the same term. -/
theorem bodyAt27_eq (t : Fin cfg27.N) :
    (bodyAt27 t : Prog (TpuEff nD τ sig (Elt F) Λ₀ .tc) PUnit)
      = cc3__var_kernel (grid27.coords t) (ms27_0 t) (hs27_0 t) (ms27_1 t) (hs27_1 t) (ms27_2 t) (hs27_2 t) scM27_0 (Memref.isWhole_whole _) := rfl

/-- The region-entry invariant with the accumulator split out of the scoped rest, as a memref owned at some contents. -/
theorem PhiA27_eq (c : Dev nD) :
    (Pipeline.ΦA spec27 c : sProp 𝕄)
      = iprop(iprop(iprop(∃ d, owns (c : Thread nD τ) scM27_0 fullShare d)
          ∗ Pipeline.scopedRestBut (Ix := Unit) (Name := ℕ) (U := UR sig nD τ) (Lvl := ℕ) (Val := Elt F) spec27 c [cc27_scratch0]) ∗ (∃ r, prngReg c r)) := by
  unfold Pipeline.ΦA; rw [scopedRest27_split]; simp only [scM27_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt27 (c : Dev nD) : (n : ℕ) → n < cfg27.N → Vec F S1x64 .f32 × Vec F S1x64 .f32
  | 0, hn => (idle3_2,
      sout3_A_0 c (grid27.coords ⟨0, hn⟩) (ms27_0 ⟨0, hn⟩) (hs27_0 ⟨0, hn⟩) (ms27_1 ⟨0, hn⟩) (hs27_1 ⟨0, hn⟩) (ms27_2 ⟨0, hn⟩) (hs27_2 ⟨0, hn⟩) scM27_0 (Memref.isWhole_whole _) ((hcond27_0 ⟨0, hn⟩).mpr rfl)
        (fun h => (fun h' : (0 : ℕ) = 24 => by omega) ((hcond27_1 ⟨0, hn⟩).mp h)) (iblk27 V c 0 ⟨0, hn⟩) (iblk27 V c 1 ⟨0, hn⟩))
  | n + 1, hn =>
    if h1 : n + 1 = 24 then
      (out3_C_2 c (grid27.coords ⟨n + 1, hn⟩) (ms27_0 ⟨n + 1, hn⟩) (hs27_0 ⟨n + 1, hn⟩) (ms27_1 ⟨n + 1, hn⟩) (hs27_1 ⟨n + 1, hn⟩) (ms27_2 ⟨n + 1, hn⟩) (hs27_2 ⟨n + 1, hn⟩) scM27_0 (Memref.isWhole_whole _) (fun h => (fun h' : n + 1 = 0 => by omega) ((hcond27_0 ⟨n + 1, hn⟩).mp h))
          ((hcond27_1 ⟨n + 1, hn⟩).mpr h1) (iblk27 V c 0 ⟨n + 1, hn⟩) (iblk27 V c 1 ⟨n + 1, hn⟩) (outsAt27 c n (Nat.lt_of_succ_lt hn)).2,
       sout3_C_0 c (grid27.coords ⟨n + 1, hn⟩) (ms27_0 ⟨n + 1, hn⟩) (hs27_0 ⟨n + 1, hn⟩) (ms27_1 ⟨n + 1, hn⟩) (hs27_1 ⟨n + 1, hn⟩) (ms27_2 ⟨n + 1, hn⟩) (hs27_2 ⟨n + 1, hn⟩) scM27_0 (Memref.isWhole_whole _) (fun h => (fun h' : n + 1 = 0 => by omega) ((hcond27_0 ⟨n + 1, hn⟩).mp h))
          ((hcond27_1 ⟨n + 1, hn⟩).mpr h1) (iblk27 V c 0 ⟨n + 1, hn⟩) (iblk27 V c 1 ⟨n + 1, hn⟩) (outsAt27 c n (Nat.lt_of_succ_lt hn)).2)
    else
      (idle3_2,
       sout3_B_0 c (grid27.coords ⟨n + 1, hn⟩) (ms27_0 ⟨n + 1, hn⟩) (hs27_0 ⟨n + 1, hn⟩) (ms27_1 ⟨n + 1, hn⟩) (hs27_1 ⟨n + 1, hn⟩) (ms27_2 ⟨n + 1, hn⟩) (hs27_2 ⟨n + 1, hn⟩) scM27_0 (Memref.isWhole_whole _) (fun h => (fun h' : n + 1 = 0 => by omega) ((hcond27_0 ⟨n + 1, hn⟩).mp h))
          (fun h => h1 ((hcond27_1 ⟨n + 1, hn⟩).mp h)) (iblk27 V c 0 ⟨n + 1, hn⟩) (iblk27 V c 1 ⟨n + 1, hn⟩) (outsAt27 c n (Nat.lt_of_succ_lt hn)).2)

theorem outsAt27_A (c : Dev nD) (t : Fin cfg27.N) (h0 : t.val = 0) (h1 : ¬t.val = 24) :
    outsAt27 V c t.val t.isLt = (idle3_2,
      sout3_A_0 c (grid27.coords t) (ms27_0 t) (hs27_0 t) (ms27_1 t) (hs27_1 t) (ms27_2 t) (hs27_2 t) scM27_0 (Memref.isWhole_whole _) ((hcond27_0 t).mpr h0) (fun h => h1 ((hcond27_1 t).mp h)) (iblk27 V c 0 t) (iblk27 V c 1 t)) := by
  obtain ⟨n, hn⟩ := t
  cases n with
  | zero => exact rfl
  | succ n => exact absurd h0 (Nat.succ_ne_zero n)

theorem outsAt27_B (c : Dev nD) (t : Fin cfg27.N) (h0 : ¬t.val = 0) (h1 : ¬t.val = 24) :
    outsAt27 V c t.val t.isLt = (idle3_2,
      sout3_B_0 c (grid27.coords t) (ms27_0 t) (hs27_0 t) (ms27_1 t) (hs27_1 t) (ms27_2 t) (hs27_2 t) scM27_0 (Memref.isWhole_whole _) (fun h => h0 ((hcond27_0 t).mp h)) (fun h => h1 ((hcond27_1 t).mp h)) (iblk27 V c 0 t) (iblk27 V c 1 t)
        (outsAt27 V c (t.val - 1) (Nat.lt_of_le_of_lt (Nat.sub_le _ _) t.isLt)).2) := by
  obtain ⟨n, hn⟩ := t
  cases n with
  | zero => exact absurd rfl h0
  | succ n => exact (dif_neg h1).trans rfl

theorem outsAt27_C (c : Dev nD) (t : Fin cfg27.N) (h0 : ¬t.val = 0) (h1 : t.val = 24) :
    outsAt27 V c t.val t.isLt =
      (out3_C_2 c (grid27.coords t) (ms27_0 t) (hs27_0 t) (ms27_1 t) (hs27_1 t) (ms27_2 t) (hs27_2 t) scM27_0 (Memref.isWhole_whole _) (fun h => h0 ((hcond27_0 t).mp h)) ((hcond27_1 t).mpr h1) (iblk27 V c 0 t) (iblk27 V c 1 t)
        (outsAt27 V c (t.val - 1) (Nat.lt_of_le_of_lt (Nat.sub_le _ _) t.isLt)).2,
       sout3_C_0 c (grid27.coords t) (ms27_0 t) (hs27_0 t) (ms27_1 t) (hs27_1 t) (ms27_2 t) (hs27_2 t) scM27_0 (Memref.isWhole_whole _) (fun h => h0 ((hcond27_0 t).mp h)) ((hcond27_1 t).mpr h1) (iblk27 V c 0 t) (iblk27 V c 1 t)
        (outsAt27 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS27 (c : Dev nD) : (n : ℕ) → n ≤ cfg27.N → sProp 𝕄
  | 0, _ => Pipeline.ΦA spec27 c
  | n + 1, hn => iprop(iprop(owns (c : Thread nD τ) scM27_0 fullShare ((outsAt27 V c n hn).2)
      ∗ Pipeline.scopedRestBut (Ix := Unit) (Name := ℕ) (U := UR sig nD τ) (Lvl := ℕ) (Val := Elt F) spec27 c [cc27_scratch0]) ∗ (∃ r, prngReg c r))

theorem PhiS27_zero (c : Dev nD) (n : ℕ) (h : n ≤ cfg27.N) (hz : n = 0) : PhiS27 V c n h = Pipeline.ΦA spec27 c := by
  subst hz; rfl

theorem PhiS27_succ (c : Dev nD) (n : ℕ) (hn : n < cfg27.N) :
    PhiS27 V c (n + 1) hn = iprop(iprop(owns (c : Thread nD τ) scM27_0 fullShare ((outsAt27 V c n hn).2)
      ∗ Pipeline.scopedRestBut (Ix := Unit) (Name := ℕ) (U := UR sig nD τ) (Lvl := ℕ) (Val := Elt F) spec27 c [cc27_scratch0]) ∗ (∃ r, prngReg c r)) := rfl

theorem PhiS27_pos (c : Dev nD) (n : ℕ) (h : n ≤ cfg27.N) (hz : n ≠ 0) :
    PhiS27 V c n h = iprop(iprop(owns (c : Thread nD τ) scM27_0 fullShare ((outsAt27 V c (n - 1) (by omega)).2)
      ∗ Pipeline.scopedRestBut (Ix := Unit) (Name := ℕ) (U := UR sig nD τ) (Lvl := ℕ) (Val := Elt F) spec27 c [cc27_scratch0]) ∗ (∃ r, prngReg c r)) := by
  cases n with
  | zero => exact absurd rfl hz
  | succ n => rfl

/-! ## The proof data -/

noncomputable def dat27 (c : Dev nD) : Dat τ (Elt F) Unit ℕ (UR sig nD τ) ℕ cfg27 c where
  A w := V c (Pipeline.arrRef spec27 w)
  after w t := match w with
    | ⟨0, _⟩ => iblk27 V c 0 t
    | ⟨1, _⟩ => iblk27 V c 1 t
    | ⟨2, _⟩ => (outsAt27 V c t.val t.isLt).1
  Φ t := PhiS27 V c t.val (Nat.le_of_lt_succ t.isLt)
  q _ := fullShare
  owed _ := 0

theorem A_eq27 (c : Dev nD) (w : Fin cfg27.W) : (dat27 V c).A w = V c (Pipeline.arrRef spec27 w) := by
  dsimp only [dat27]

theorem PhiS27_castSucc (c : Dev nD) (t : Fin cfg27.N) :
    (dat27 V c).Φ t.castSucc = PhiS27 V c t.val (Nat.le_of_lt t.isLt) := by
  dsimp only [dat27]; simp only [Fin.coe_castSucc]

theorem after27_0 (c : Dev nD) (t : Fin cfg27.N) : (dat27 V c).after 0 t = iblk27 V c 0 t := by dsimp only [dat27]
theorem after27_1 (c : Dev nD) (t : Fin cfg27.N) : (dat27 V c).after 1 t = iblk27 V c 1 t := by dsimp only [dat27]
theorem after27_2 (c : Dev nD) (t : Fin cfg27.N) : (dat27 V c).after 2 t = (outsAt27 V c t.val t.isLt).1 := by dsimp only [dat27]

theorem before27_0 (c : Dev nD) (t : Fin cfg27.N) (d) : (dat27 V c).before 0 t d = iblk27 V c 0 t :=
  before27_0_of V (dat27 V c) (A_eq27 V c 0) (after27_0 V c) t d
theorem before27_1 (c : Dev nD) (t : Fin cfg27.N) (d) : (dat27 V c).before 1 t d = iblk27 V c 1 t :=
  before27_1_of V (dat27 V c) (A_eq27 V c 1) (after27_1 V c) t d

/-! ## The body obligation -/

noncomputable def bodyPre27 (c : Dev nD) (t : Fin cfg27.N) : sProp 𝕄 :=
  iprop((dat27 V c).Φ t.castSucc ∗ (dat27 V c).owesAt () t.castSucc
    ∗ (∃ d, owns (c : Thread nD τ) (ms27_0 t) fullShare ((dat27 V c).before 0 t d))
    ∗ (∃ d, owns (c : Thread nD τ) (ms27_1 t) fullShare ((dat27 V c).before 1 t d))
    ∗ (∃ d, owns (c : Thread nD τ) (ms27_2 t) fullShare ((dat27 V c).before 2 t d)))

noncomputable def bodyPost27 (c : Dev nD) (t : Fin cfg27.N) : sProp 𝕄 :=
  iprop((dat27 V c).Φ t.succ ∗ (dat27 V c).owesAt () t.succ
    ∗ (dat27 V c).leavesExact 0 t
    ∗ (dat27 V c).leavesExact 1 t
    ∗ (dat27 V c).leavesExact 2 t)

set_option maxHeartbeats 4800000 in
/-- The body at any point, from region 3's triples on this region's memrefs. -/
theorem sound_body27 (c : Dev nD) (t : Fin cfg27.N) :
    bodyPre27 V c t ⊢ wp frame (wpE (defs₀ (F := F)) Variants.none c none) Set.univ (bodyAt27 t) (fun _ => bodyPost27 V c t) := by
  rw [bodyAt27_eq (F := F) t]
  unfold bodyPre27 bodyPost27
  simp only [before27_0, before27_1]
  rw [show (dat27 V c).owesAt () t.succ = (dat27 V c).owesAt () t.castSucc from rfl]
  rw [show (dat27 V c).Φ t.succ = PhiS27 V c (t.val + 1) t.isLt from rfl, PhiS27_succ]
  have hN : t.val < 25 := lt_of_lt_of_eq t.isLt (show cfg27.N = 25 from N_27)
  rw [show (dat27 V c).leavesExact 0 t = owns (c : Thread nD τ) (ms27_0 t) fullShare ((dat27 V c).after 0 t) from by
    unfold Dat.leavesExact; rw [liveAt27_0 t], after27_0]
  rw [show (dat27 V c).leavesExact 1 t = owns (c : Thread nD τ) (ms27_1 t) fullShare ((dat27 V c).after 1 t) from by
    unfold Dat.leavesExact; rw [liveAt27_1 t], after27_1]
  by_cases h0 : t.val = 0
  · have h1 : ¬t.val = 24 := by omega
    rw [Dat.leavesExact_idle (dat27 V c) 2 t (idleAt27_2 t (fun h => h1 ((hcond27_1 t).mp h))) (noFlush27_2 t (fun h => h1 ((hcond27_1 t).mp h)))]
    rw [outsAt27_A V c t h0 h1]
    unfold sout3_A_0; (try dsimp only)
    rw [PhiS27_castSucc V c t, PhiS27_zero V c _ _ h0, PhiA27_eq]
    iintro ⟨⟨⟨HS0, Hr⟩, Hg⟩, Ho, ⟨%d0, H0⟩, ⟨%d1, H1⟩, ⟨%d2, H2⟩⟩
    iapply ((kernelRun3_A c (grid27.coords t) _ _ _ _ _ _ _ _ ((hcond27_0 t).mpr h0) (fun h => h1 ((hcond27_1 t).mp h)) (iblk27 V c 0 t) (iblk27 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat27 V c).leavesExact 2 t = owns (c : Thread nD τ) (ms27_2 t) fullShare ((dat27 V c).after 2 t) from by
        unfold Dat.leavesExact; rw [liveAt27_2 t ((hcond27_1 t).mpr h1)], after27_2]
      rw [outsAt27_C V c t h0 h1]
      unfold out3_C_2 sout3_C_0; (try dsimp only)
      rw [PhiS27_castSucc V c t, PhiS27_pos V c _ _ h0]
      iintro ⟨⟨⟨HS0, Hr⟩, Hg⟩, Ho, ⟨%d0, H0⟩, ⟨%d1, H1⟩, ⟨%d2, H2⟩⟩
      iapply ((kernelRun3_C c (grid27.coords t) _ _ _ _ _ _ _ _ (fun h => h0 ((hcond27_0 t).mp h)) ((hcond27_1 t).mpr h1) (iblk27 V c 0 t) (iblk27 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat27 V c) 2 t (idleAt27_2 t (fun h => h1 ((hcond27_1 t).mp h))) (noFlush27_2 t (fun h => h1 ((hcond27_1 t).mp h)))]
      rw [outsAt27_B V c t h0 h1]
      unfold sout3_B_0; (try dsimp only)
      rw [PhiS27_castSucc V c t, PhiS27_pos V c _ _ h0]
      iintro ⟨⟨⟨HS0, Hr⟩, Hg⟩, Ho, ⟨%d0, H0⟩, ⟨%d1, H1⟩, ⟨%d2, H2⟩⟩
      iapply ((kernelRun3_B c (grid27.coords t) _ _ _ _ _ _ _ _ (fun h => h0 ((hcond27_0 t).mp h)) (fun h => h1 ((hcond27_1 t).mp h)) (iblk27 V c 0 t) (iblk27 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation27 (c : Dev nD) : BodyObligation (dat27 (F := F) V c) (defs₀ (F := F)) Variants.none () Set.univ := fun t => by
  rw [bigSep_W27, bigSep_W27]
  exact sound_body27 V c t

/-- What the launch hands the region is the invariant before the first point. -/
theorem hin27 (c : Dev nD) : Pipeline.ΦA spec27 c ⊢ (dat27 V c).Φ 0 := by
  rw [show (dat27 V c).Φ 0 = PhiS27 V c 0 (Nat.zero_le _) from rfl, PhiS27_zero V c 0 _ rfl]
  try exact Idealize.SL.BI.Entails.refl _

/-- After any point but the first the invariant gives the launch's back: the accumulator's named contents are forgotten. -/
theorem Phi_out27 (c : Dev nD) (t : Fin (cfg27.N + 1)) (ht : t.val ≠ 0) : (dat27 V c).Φ t ⊢ Pipeline.ΦA spec27 c := by
  rw [show (dat27 V c).Φ t = PhiS27 V c t.val (Nat.le_of_lt_succ t.isLt) from rfl, PhiS27_pos V c _ _ ht, PhiA27_eq]
  iintro ⟨⟨HS0, Hr⟩, Hg⟩
  isplitl [HS0 Hr]
  · isplitl [HS0]
    · iexists _; iexact HS0
    iexact Hr
  iexact Hg

/-- The same after the last point. -/
theorem hout27 (c : Dev nD) : (dat27 V c).Φ (Fin.last cfg27.N) ⊢ Pipeline.ΦA spec27 c :=
  Phi_out27 V c _ (by rw [Fin.val_last]; have : cfg27.N = 25 := N_27; omega)

end Cert.KernelIdeal.Hand

end
-- ==== Proof.KI.R28.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Ring
import Idealize.ShloMosaic.Lib.Tactic

/-!
# Region 28: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region28
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk28 (c : Dev nD) (w : Fin cfg28.W) (t : Fin cfg28.N) : ((cfg28.win w).xblock (cfg28.grid.coords t)).Idx → Elt F (cfg28.win w).elt :=
  ((cfg28.win w).blk t).view.read (Elt F) (V c (Pipeline.arrRef spec28 w))

/-- The activations' staging buffer holds the block of the current point at every point: the window is fetched at
    every point, is never cut and never idle, and the body leaves the block where it found it. -/
theorem before28_0_of {c : Dev nD} (dat : Dat τ (Elt F) Unit ℕ (UR sig nD τ) ℕ cfg28 c) (hA : dat.A 0 = V c (Pipeline.arrRef spec28 0))
    (hafter : ∀ t, dat.after 0 t = iblk28 V c 0 t) (t : Fin cfg28.N) (d) : dat.before 0 t d = iblk28 V c 0 t :=
  (dat.before_in_eq_fetched 0 rfl (fun _ => rfl) (fun _ _ _ => rfl) (fun t => by rw [hafter]; unfold Dat.blockOf iblk28; rw [hA]; try rfl) t d).trans
    (by unfold Dat.fetched Dat.blockOf iblk28; rw [hA]; try rfl)

/-- The mean row's staging buffer holds its (one) block at every point: it is fetched at the first point only, its
    block index never moves afterwards, and the body leaves it in place. -/
theorem before28_1_of {c : Dev nD} (dat : Dat τ (Elt F) Unit ℕ (UR sig nD τ) ℕ cfg28 c) (hA : dat.A 1 = V c (Pipeline.arrRef spec28 1))
    (hafter : ∀ t, dat.after 1 t = iblk28 V c 1 t) (t : Fin cfg28.N) (d) : dat.before 1 t d = iblk28 V c 1 t :=
  (dat.before_in_eq_fetched 1 rfl (fun _ => rfl) (fun _ _ _ => rfl) (fun t => by rw [hafter]; unfold Dat.blockOf iblk28; rw [hA]; try rfl) t d).trans
    (by unfold Dat.fetched Dat.blockOf iblk28; rw [hA]; try rfl)

/-- The same of the variance row. -/
theorem before28_2_of {c : Dev nD} (dat : Dat τ (Elt F) Unit ℕ (UR sig nD τ) ℕ cfg28 c) (hA : dat.A 2 = V c (Pipeline.arrRef spec28 2))
    (hafter : ∀ t, dat.after 2 t = iblk28 V c 2 t) (t : Fin cfg28.N) (d) : dat.before 2 t d = iblk28 V c 2 t :=
  (dat.before_in_eq_fetched 2 rfl (fun _ => rfl) (fun _ _ _ => rfl) (fun t => by rw [hafter]; unfold Dat.blockOf iblk28; rw [hA]; try rfl) t d).trans
    (by unfold Dat.fetched Dat.blockOf iblk28; rw [hA]; try rfl)

/-- The same of the scale row. -/
theorem before28_3_of {c : Dev nD} (dat : Dat τ (Elt F) Unit ℕ (UR sig nD τ) ℕ cfg28 c) (hA : dat.A 3 = V c (Pipeline.arrRef spec28 3))
    (hafter : ∀ t, dat.after 3 t = iblk28 V c 3 t) (t : Fin cfg28.N) (d) : dat.before 3 t d = iblk28 V c 3 t :=
  (dat.before_in_eq_fetched 3 rfl (fun _ => rfl) (fun _ _ _ => rfl) (fun t => by rw [hafter]; unfold Dat.blockOf iblk28; rw [hA]; try rfl) t d).trans
    (by unfold Dat.fetched Dat.blockOf iblk28; rw [hA]; try rfl)

/-- The same of the shift row. -/
theorem before28_4_of {c : Dev nD} (dat : Dat τ (Elt F) Unit ℕ (UR sig nD τ) ℕ cfg28 c) (hA : dat.A 4 = V c (Pipeline.arrRef spec28 4))
    (hafter : ∀ t, dat.after 4 t = iblk28 V c 4 t) (t : Fin cfg28.N) (d) : dat.before 4 t d = iblk28 V c 4 t :=
  (dat.before_in_eq_fetched 4 rfl (fun _ => rfl) (fun _ _ _ => rfl) (fun t => by rw [hafter]; unfold Dat.blockOf iblk28; rw [hA]; try rfl) t d).trans
    (by unfold Dat.fetched Dat.blockOf iblk28; rw [hA]; try rfl)

/-! ## The body's accesses: each buffer is read, and the output written, whole -/

/-- The whole of a block of 2000 rows. -/
noncomputable abbrev r28_0 : Rect S2000x64 := Rect.unit (s := S2000x64) ![0, 0] S2000x64.size inb_S2000x64_S2000x64_0_0
/-- The whole of a single row. -/
noncomputable abbrev r28_1 : Rect S1x64 := Rect.unit (s := S1x64) ![0, 0] S1x64.size inb_S1x64_S1x64_0_0

/-! ## What the body leaves in the output buffer -/

/-- The output buffer after the body, from the five input blocks: its one store, whose payload is the skeleton's. -/
noncomputable def out28_5 (x0 : Vec F S2000x64 .f32) (x1 : Vec F S1x64 .f32) (x2 : Vec F S1x64 .f32) (x3 : Vec F S1x64 .f32) (x4 : Vec F S1x64 .f32) :
    Vec F S2000x64 .f32 :=
  View.canon [⟨r28_0, k28_pay1 (View.ld x0 r28_0) (View.ld x1 r28_1) (View.ld x2 r28_1) (View.ld x3 r28_1) (View.ld x4 r28_1)⟩]

/-- The one store covers the buffer. -/
theorem cover28_5 (p0 : Vec F S2000x64 .f32) (y : S2000x64.Idx) :
    ∃ pc ∈ ([⟨r28_0, p0⟩] : List (View.Piece (Elt F) S2000x64 .f32)), y ∈ pc.1.set :=
  View.cover_of_tiled [⟨r28_0, p0⟩] S2000x64.size (by rfl) y

/-! ## The body's triple -/

set_option maxHeartbeats 1000000 in
/-- The body on whole staging buffers, the five inputs' at read contents x0 … x4 and the output's at anything, runs
    to a state in which the inputs' are as they were and the output's holds out28_5 of them. (The body also loads the
    output buffer before it stores to it; the loaded value is not used.) -/
theorem sound_kernel28 (c : Dev nD) (E : Set ℕ) (i : grid28.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out28_5 x0 x1 x2 x3 x4)) -∗ K ⟨⟩))
      ⊢ wp frame (wpE (defs₀ (F := F)) Variants.none c none) E (cc28__bn_softmax_kernel i arg1 harg1 arg2 harg2 arg3 harg3 arg4 harg4 arg5 harg5 arg6 harg6) K := by
  simp only [cc28__bn_softmax_kernel_eq_skeleton]; unfold cc28__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover28_5 _)

/-! ## The pipeline's proof data -/

/-- The proof data of the region's pipeline on core c: the arrays as the region finds them; after the body at point t
    each input's buffer at its block and the output's at out28_5 of the input blocks; the invariant that of a body which
    touches nothing but its windows; nothing owed; full shares. -/
noncomputable def dat28 (c : Dev nD) : Dat τ (Elt F) Unit ℕ (UR sig nD τ) ℕ cfg28 c where
  A w := V c (Pipeline.arrRef spec28 w)
  after w t := match w with
    | ⟨0, _⟩ => iblk28 V c 0 t
    | ⟨1, _⟩ => iblk28 V c 1 t
    | ⟨2, _⟩ => iblk28 V c 2 t
    | ⟨3, _⟩ => iblk28 V c 3 t
    | ⟨4, _⟩ => iblk28 V c 4 t
    | ⟨5, _⟩ => out28_5 (iblk28 V c 0 t) (iblk28 V c 1 t) (iblk28 V c 2 t) (iblk28 V c 3 t) (iblk28 V c 4 t)
  Φ _ := Pipeline.ΦA spec28 c
  q _ := fullShare
  owed _ := 0

/-- The proof data's arrays are the region-entry contents. -/
theorem A_eq28 (c : Dev nD) (w : Fin cfg28.W) : (dat28 V c).A w = V c (Pipeline.arrRef spec28 w) := by
  dsimp only [dat28]

/-- What the body leaves, window by window. -/
theorem after28_0 (c : Dev nD) (t : Fin cfg28.N) : (dat28 V c).after 0 t = iblk28 V c 0 t := by dsimp only [dat28]
theorem after28_1 (c : Dev nD) (t : Fin cfg28.N) : (dat28 V c).after 1 t = iblk28 V c 1 t := by dsimp only [dat28]
theorem after28_2 (c : Dev nD) (t : Fin cfg28.N) : (dat28 V c).after 2 t = iblk28 V c 2 t := by dsimp only [dat28]
theorem after28_3 (c : Dev nD) (t : Fin cfg28.N) : (dat28 V c).after 3 t = iblk28 V c 3 t := by dsimp only [dat28]
theorem after28_4 (c : Dev nD) (t : Fin cfg28.N) : (dat28 V c).after 4 t = iblk28 V c 4 t := by dsimp only [dat28]
theorem after28_5 (c : Dev nD) (t : Fin cfg28.N) :
    (dat28 V c).after 5 t = out28_5 (iblk28 V c 0 t) (iblk28 V c 1 t) (iblk28 V c 2 t) (iblk28 V c 3 t) (iblk28 V c 4 t) := by dsimp only [dat28]

/-- Each input's current staging buffer holds its block at every point, fetched there or not. -/
theorem before28_0 (c : Dev nD) (t : Fin cfg28.N) (d) : (dat28 V c).before 0 t d = iblk28 V c 0 t :=
  before28_0_of V (dat28 V c) (A_eq28 V c 0) (after28_0 V c) t d
theorem before28_1 (c : Dev nD) (t : Fin cfg28.N) (d) : (dat28 V c).before 1 t d = iblk28 V c 1 t :=
  before28_1_of V (dat28 V c) (A_eq28 V c 1) (after28_1 V c) t d
theorem before28_2 (c : Dev nD) (t : Fin cfg28.N) (d) : (dat28 V c).before 2 t d = iblk28 V c 2 t :=
  before28_2_of V (dat28 V c) (A_eq28 V c 2) (after28_2 V c) t d
theorem before28_3 (c : Dev nD) (t : Fin cfg28.N) (d) : (dat28 V c).before 3 t d = iblk28 V c 3 t :=
  before28_3_of V (dat28 V c) (A_eq28 V c 3) (after28_3 V c) t d
theorem before28_4 (c : Dev nD) (t : Fin cfg28.N) (d) : (dat28 V c).before 4 t d = iblk28 V c 4 t :=
  before28_4_of V (dat28 V c) (A_eq28 V c 4) (after28_4 V c) t d

/-! ## The body obligation, at a generic point -/

/-- What the body is called with at point t, the windows one by one, -/
noncomputable def bodyPre28 (c : Dev nD) (t : Fin cfg28.N) : sProp 𝕄 :=
  iprop((dat28 V c).Φ t.castSucc ∗ (dat28 V c).owesAt () t.castSucc
    ∗ (∃ d, owns (c : Thread nD τ) (st28_0 t) fullShare ((dat28 V c).before 0 t d))
    ∗ (∃ d, owns (c : Thread nD τ) (st28_1 t) fullShare ((dat28 V c).before 1 t d))
    ∗ (∃ d, owns (c : Thread nD τ) (st28_2 t) fullShare ((dat28 V c).before 2 t d))
    ∗ (∃ d, owns (c : Thread nD τ) (st28_3 t) fullShare ((dat28 V c).before 3 t d))
    ∗ (∃ d, owns (c : Thread nD τ) (st28_4 t) fullShare ((dat28 V c).before 4 t d))
    ∗ (∃ d, owns (c : Thread nD τ) (st28_5 t) fullShare ((dat28 V c).before 5 t d)))

/-- and what it returns. -/
noncomputable def bodyPost28 (c : Dev nD) (t : Fin cfg28.N) : sProp 𝕄 :=
  iprop((dat28 V c).Φ t.succ ∗ (dat28 V c).owesAt () t.succ
    ∗ owns (c : Thread nD τ) (st28_0 t) fullShare ((dat28 V c).after 0 t)
    ∗ owns (c : Thread nD τ) (st28_1 t) fullShare ((dat28 V c).after 1 t)
    ∗ owns (c : Thread nD τ) (st28_2 t) fullShare ((dat28 V c).after 2 t)
    ∗ owns (c : Thread nD τ) (st28_3 t) fullShare ((dat28 V c).after 3 t)
    ∗ owns (c : Thread nD τ) (st28_4 t) fullShare ((dat28 V c).after 4 t)
    ∗ owns (c : Thread nD τ) (st28_5 t) fullShare ((dat28 V c).after 5 t))

/-- The body at any point: the inputs' buffers hold their blocks, so the body's triple applies; the invariant and
    what the core owes pass through unread. -/
theorem sound_body28 (c : Dev nD) (t : Fin cfg28.N) :
    bodyPre28 V c t ⊢ wp frame (wpE (defs₀ (F := F)) Variants.none c none) Set.univ (bodyAt28 t) (fun _ => bodyPost28 V c t) := by
  unfold bodyPre28 bodyPost28 bodyAt28
  simp only [before28_0, before28_1, before28_2, before28_3, before28_4]
  rw [show (dat28 V c).Φ t.succ = (dat28 V c).Φ t.castSucc from rfl,
    show (dat28 V c).owesAt () t.succ = (dat28 V c).owesAt () t.castSucc from rfl,
    after28_0, after28_1, after28_2, after28_3, after28_4, after28_5]
  iintro ⟨HΦ, Ho, ⟨%d0, H0⟩, ⟨%d1, H1⟩, ⟨%d2, H2⟩, ⟨%d3, H3⟩, ⟨%d4, H4⟩, ⟨%d5, H5⟩⟩
  iapply (sound_kernel28 c Set.univ (grid28.coords t) _ _ _ _ _ _ _ _ _ _ _ _
    (iblk28 V c 0 t) (iblk28 V c 1 t) (iblk28 V c 2 t) (iblk28 V c 3 t) (iblk28 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation28 (c : Dev nD) : BodyObligation (dat28 (F := F) V c) (defs₀ (F := F)) Variants.none () Set.univ := fun t => by
  rw [bigSep_W28, bigSep_W28]
  exact sound_body28 V c t

end Region28

end Cert.KernelIdeal.Hand

end
-- ==== Proof.KI.R29.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.Regions
import Idealize.ShloMosaic.Lib.Tactic

/-! # Region 29: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region29
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk29 (c : Dev nD) (w : Fin cfg29.W) (t : Fin cfg29.N) : ((cfg29.win w).xblock (cfg29.grid.coords t)).Idx → Elt F (cfg29.win w).elt :=
  ((cfg29.win w).blk t).view.read (Elt F) (V c (Pipeline.arrRef spec29 w))

/-- The rows of X: the staging buffer the body is handed holds the block of the point, whether the
    point fetched it or not (an unfetched input has not moved its block index). -/
theorem before29_0_of {c : Dev nD} (dat : Dat τ (Elt F) Unit ℕ (UR sig nD τ) ℕ cfg29 c) (hA : dat.A 0 = V c (Pipeline.arrRef spec29 0))
    (hafter : ∀ t, dat.after 0 t = iblk29 V c 0 t) (t : Fin cfg29.N) (d) : dat.before 0 t d = iblk29 V c 0 t :=
  (dat.before_in_eq_fetched 0 rfl (fun _ => rfl) (fun _ _ _ => rfl) (fun t => by rw [hafter]; unfold Dat.blockOf iblk29; rw [hA]; try rfl) t d).trans
    (by unfold Dat.fetched Dat.blockOf iblk29; rw [hA]; try rfl)

/-- The matrix W: fetched at the first point only, and found in place at every later one. -/
theorem before29_1_of {c : Dev nD} (dat : Dat τ (Elt F) Unit ℕ (UR sig nD τ) ℕ cfg29 c) (hA : dat.A 1 = V c (Pipeline.arrRef spec29 1))
    (hafter : ∀ t, dat.after 1 t = iblk29 V c 1 t) (t : Fin cfg29.N) (d) : dat.before 1 t d = iblk29 V c 1 t :=
  (dat.before_in_eq_fetched 1 rfl (fun _ => rfl) (fun _ _ _ => rfl) (fun t => by rw [hafter]; unfold Dat.blockOf iblk29; rw [hA]; try rfl) t d).trans
    (by unfold Dat.fetched Dat.blockOf iblk29; rw [hA]; try rfl)

/-! ## The body's accesses: each buffer whole -/

noncomputable abbrev r29_0 : Rect S2000x64 := Rect.unit (s := S2000x64) ![0, 0] S2000x64.size inb_S2000x64_S2000x64_0_0
noncomputable abbrev r29_1 : Rect S64x64 := Rect.unit (s := S64x64) ![0, 0] S64x64.size inb_S64x64_S64x64_0_0
noncomputable abbrev r29_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out29_2 (x0 : Vec F S2000x64 .f32) (x1 : Vec F S64x64 .f32) : Vec F S2000x64 .f32 :=
  View.canon [⟨r29_2, k29_pay1 (View.ld x0 r29_0) (View.ld x1 r29_1)⟩]

/-- The store's rectangle is the whole buffer, so it covers every index. -/
theorem cover29_2 (p0 : Vec F S2000x64 .f32) (y : S2000x64.Idx) :
    ∃ pc ∈ ([⟨r29_2, p0⟩] : List (View.Piece (Elt F) S2000x64 .f32)), y ∈ pc.1.set :=
  View.cover_of_tiled [⟨r29_2, p0⟩] S2000x64.size (by rfl) y

/-! ## The body's triple -/

set_option maxHeartbeats 1000000 in
/-- On whole staging memrefs, the inputs' holding x0 and x1 and the output's holding anything, the body
    runs to a state where the inputs' are unchanged and the output's holds out29_2 x0 x1. The body also reads
    the output buffer before storing into it; the value read is not used. -/
theorem sound_kernel29 (c : Dev nD) (E : Set ℕ) (i : grid29.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out29_2 x0 x1)) -∗ K ⟨⟩))
      ⊢ wp frame (wpE (defs₀ (F := F)) Variants.none c none) E (cc29__linear_kernel i arg1 harg1 arg2 harg2 arg3 harg3) K := by
  simp only [cc29__linear_kernel_eq_skeleton]; unfold cc29__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover29_2 _)

/-! ## The pipeline's proof data -/

/-- The arrays as the region finds them; after the body at point t the inputs' buffers at their blocks
    and the output's at the product block; the invariant is the scoped rest and the generator register,
    untouched; nothing owed; full shares. -/
noncomputable def dat29 (c : Dev nD) : Dat τ (Elt F) Unit ℕ (UR sig nD τ) ℕ cfg29 c where
  A w := V c (Pipeline.arrRef spec29 w)
  after w t := match w with
    | ⟨0, _⟩ => iblk29 V c 0 t
    | ⟨1, _⟩ => iblk29 V c 1 t
    | ⟨2, _⟩ => out29_2 (iblk29 V c 0 t) (iblk29 V c 1 t)
  Φ _ := Pipeline.ΦA spec29 c
  q _ := fullShare
  owed _ := 0

theorem A_eq29 (c : Dev nD) (w : Fin cfg29.W) : (dat29 V c).A w = V c (Pipeline.arrRef spec29 w) := by
  dsimp only [dat29]

theorem after29_0 (c : Dev nD) (t : Fin cfg29.N) : (dat29 V c).after 0 t = iblk29 V c 0 t := by dsimp only [dat29]
theorem after29_1 (c : Dev nD) (t : Fin cfg29.N) : (dat29 V c).after 1 t = iblk29 V c 1 t := by dsimp only [dat29]
theorem after29_2 (c : Dev nD) (t : Fin cfg29.N) : (dat29 V c).after 2 t = out29_2 (iblk29 V c 0 t) (iblk29 V c 1 t) := by dsimp only [dat29]

theorem before29_0 (c : Dev nD) (t : Fin cfg29.N) (d) : (dat29 V c).before 0 t d = iblk29 V c 0 t :=
  before29_0_of V (dat29 V c) (A_eq29 V c 0) (after29_0 V c) t d
theorem before29_1 (c : Dev nD) (t : Fin cfg29.N) (d) : (dat29 V c).before 1 t d = iblk29 V c 1 t :=
  before29_1_of V (dat29 V c) (A_eq29 V c 1) (after29_1 V c) t d

/-! ## The body obligation, at a generic point -/

/-- What the body is called with at point t, window by window, -/
noncomputable def bodyPre29 (c : Dev nD) (t : Fin cfg29.N) : sProp 𝕄 :=
  iprop((dat29 V c).Φ t.castSucc ∗ (dat29 V c).owesAt () t.castSucc
    ∗ (∃ d, owns (c : Thread nD τ) (st29_0 t) fullShare ((dat29 V c).before 0 t d))
    ∗ (∃ d, owns (c : Thread nD τ) (st29_1 t) fullShare ((dat29 V c).before 1 t d))
    ∗ (∃ d, owns (c : Thread nD τ) (st29_2 t) fullShare ((dat29 V c).before 2 t d)))

/-- and what it returns. -/
noncomputable def bodyPost29 (c : Dev nD) (t : Fin cfg29.N) : sProp 𝕄 :=
  iprop((dat29 V c).Φ t.succ ∗ (dat29 V c).owesAt () t.succ
    ∗ owns (c : Thread nD τ) (st29_0 t) fullShare ((dat29 V c).after 0 t)
    ∗ owns (c : Thread nD τ) (st29_1 t) fullShare ((dat29 V c).after 1 t)
    ∗ owns (c : Thread nD τ) (st29_2 t) fullShare ((dat29 V c).after 2 t))

/-- The inputs' memrefs hold their blocks, so the body's triple applies; the invariant and what the core
    owes pass through unread. -/
theorem sound_body29 (c : Dev nD) (t : Fin cfg29.N) :
    bodyPre29 V c t ⊢ wp frame (wpE (defs₀ (F := F)) Variants.none c none) Set.univ (bodyAt29 t) (fun _ => bodyPost29 V c t) := by
  unfold bodyPre29 bodyPost29 bodyAt29
  simp only [before29_0, before29_1]
  rw [show (dat29 V c).Φ t.succ = (dat29 V c).Φ t.castSucc from rfl,
    show (dat29 V c).owesAt () t.succ = (dat29 V c).owesAt () t.castSucc from rfl,
    after29_0, after29_1, after29_2]
  iintro ⟨HΦ, Ho, ⟨%d0, H0⟩, ⟨%d1, H1⟩, ⟨%d2, H2⟩⟩
  iapply (sound_kernel29 c Set.univ (grid29.coords t) _ _ _ _ _ _ (iblk29 V c 0 t) (iblk29 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation29 (c : Dev nD) : BodyObligation (dat29 (F := F) V c) (defs₀ (F := F)) Variants.none () Set.univ := fun t => by
  rw [bigSep_W29, bigSep_W29]
  exact sound_body29 V c t

end Region29

end Cert.KernelIdeal.Hand

end
-- ==== Proof.KI.R30.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.R14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The kernel is region 14's

The two regions' printed kernel functions are the same function of the grid coordinate and the memrefs (the same
text over the same shapes; the grids and the last-point conditions are the same literals), so region 14's runs of the
body, its covers and its per-case contents — all stated over abstract coordinates and memrefs — serve this region. -/

theorem cc30_kernel_eq : cc30_kernel (F := F) = cc14_kernel (F := F) := rfl

/-! ## The windows' blocks -/

/-- Window `w`'s block at point `t`, read off its array as the region finds it (`V`). -/
noncomputable def iblk30 (c : Dev nD) (w : Fin cfg30.W) (t : Fin cfg30.N) : ((cfg30.win w).xblock (cfg30.grid.coords t)).Idx → Elt F (cfg30.win w).elt :=
  ((cfg30.win w).blk t).view.read (Elt F) (V c (Pipeline.arrRef spec30 w))

/-- Input window 0's current staging buffer holds its block at every point, for any proof data whose array is
    `V`'s and whose body leaves the block in place: the window is uncut and never idle. -/
theorem before30_0_of {c : Dev nD} (dat : Dat τ (Elt F) Unit ℕ (UR sig nD τ) ℕ cfg30 c) (hA : dat.A 0 = V c (Pipeline.arrRef spec30 0))
    (hafter : ∀ t, dat.after 0 t = iblk30 V c 0 t) (t : Fin cfg30.N) (d) : dat.before 0 t d = iblk30 V c 0 t :=
  (dat.before_in_eq_fetched 0 rfl (fun _ => rfl) (fun _ _ _ => rfl) (fun t => by rw [hafter]; unfold Dat.blockOf iblk30; rw [hA]; try rfl) t d).trans
    (by unfold Dat.fetched Dat.blockOf iblk30; rw [hA]; try rfl)

/-- Input window 1 likewise: fetched at the first point only, its block index never moves, so the buffer holds
    the block at every point. -/
theorem before30_1_of {c : Dev nD} (dat : Dat τ (Elt F) Unit ℕ (UR sig nD τ) ℕ cfg30 c) (hA : dat.A 1 = V c (Pipeline.arrRef spec30 1))
    (hafter : ∀ t, dat.after 1 t = iblk30 V c 1 t) (t : Fin cfg30.N) (d) : dat.before 1 t d = iblk30 V c 1 t :=
  (dat.before_in_eq_fetched 1 rfl (fun _ => rfl) (fun _ _ _ => rfl) (fun t => by rw [hafter]; unfold Dat.blockOf iblk30; rw [hA]; try rfl) t d).trans
    (by unfold Dat.fetched Dat.blockOf iblk30; rw [hA]; try rfl)

/-- Input window 2 likewise. -/
theorem before30_2_of {c : Dev nD} (dat : Dat τ (Elt F) Unit ℕ (UR sig nD τ) ℕ cfg30 c) (hA : dat.A 2 = V c (Pipeline.arrRef spec30 2))
    (hafter : ∀ t, dat.after 2 t = iblk30 V c 2 t) (t : Fin cfg30.N) (d) : dat.before 2 t d = iblk30 V c 2 t :=
  (dat.before_in_eq_fetched 2 rfl (fun _ => rfl) (fun _ _ _ => rfl) (fun t => by rw [hafter]; unfold Dat.blockOf iblk30; rw [hA]; try rfl) t d).trans
    (by unfold Dat.fetched Dat.blockOf iblk30; rw [hA]; try rfl)

/-! ## The body's two conditions on the grid coordinate -/

/-- It holds at the first point only. -/
theorem hcond30_0 : ∀ t : Fin cfg30.N, cond14_0 (grid30.coords t) ↔ t.val % 25 = 0 :=
  (by decide +kernel : ∀ t : Fin grid30.N, cond14_0 (grid30.coords t) ↔ t.val % 25 = 0)

/-- It holds at the last point only. -/
theorem hcond30_1 : ∀ t : Fin cfg30.N, cond14_1 (grid30.coords t) ↔ t.val % 25 = 24 :=
  (by decide +kernel : ∀ t : Fin grid30.N, cond14_1 (grid30.coords t) ↔ t.val % 25 = 24)

/-! ## Where the windows are idle -/

theorem liveAt30_0 : ∀ t : Fin cfg30.N, cfg30.idle 0 (grid30.coords t) = false := by decide +kernel
theorem liveAt30_1 : ∀ t : Fin cfg30.N, cfg30.idle 1 (grid30.coords t) = false := by decide +kernel
theorem liveAt30_2 : ∀ t : Fin cfg30.N, cfg30.idle 2 (grid30.coords t) = false := by decide +kernel
theorem liveAt30_3 : ∀ t : Fin cfg30.N, cfg30.idle 3 (grid30.coords t) = false := by decide +kernel
theorem liveAt30_4 : ∀ t : Fin cfg30.N, cfg30.idle 4 (grid30.coords t) = false := by decide +kernel
/-- At the first point the body stores nothing into output 5: the window is idle there and not written back. -/
theorem idleAt30_5_A : ∀ t : Fin cfg30.N, cond14_0 (grid30.coords t) → ¬cond14_1 (grid30.coords t) → cfg30.idle 5 (grid30.coords t) = true := by decide +kernel
theorem noFlush30_5_A : ∀ t : Fin cfg30.N, cond14_0 (grid30.coords t) → ¬cond14_1 (grid30.coords t) → (cfg30.win 5).flush t = false := by decide +kernel
/-- Nor at the middle points. -/
theorem idleAt30_5_B : ∀ t : Fin cfg30.N, ¬cond14_0 (grid30.coords t) → ¬cond14_1 (grid30.coords t) → cfg30.idle 5 (grid30.coords t) = true := by decide +kernel
theorem noFlush30_5_B : ∀ t : Fin cfg30.N, ¬cond14_0 (grid30.coords t) → ¬cond14_1 (grid30.coords t) → (cfg30.win 5).flush t = false := by decide +kernel
/-- At the last point it stores the accumulated sums there: the window is live. -/
theorem liveAt30_5_C : ∀ t : Fin cfg30.N, ¬cond14_0 (grid30.coords t) → cond14_1 (grid30.coords t) → cfg30.idle 5 (grid30.coords t) = false := by decide +kernel

/-! ## The memrefs the body is called with -/

/-- Each window's current staging memref at point `t`, as the pipeline passes it, and its wholeness. -/
noncomputable abbrev ms30_0 (t : Fin cfg30.N) : Memref sig .tc .vmem S2000x64 .f32 := win30_0.stage (cfg30.slots t 0)
abbrev hs30_0 (t : Fin cfg30.N) : (ms30_0 t).IsWhole := hstage30_0 ((cfg30.slots t 0).cast nbuf30_0)
noncomputable abbrev ms30_1 (t : Fin cfg30.N) : Memref sig .tc .vmem S1x64 .f32 := win30_1.stage (cfg30.slots t 1)
abbrev hs30_1 (t : Fin cfg30.N) : (ms30_1 t).IsWhole := hstage30_1 ((cfg30.slots t 1).cast nbuf30_1)
noncomputable abbrev ms30_2 (t : Fin cfg30.N) : Memref sig .tc .vmem S2000x64 .f32 := win30_2.stage (cfg30.slots t 2)
abbrev hs30_2 (t : Fin cfg30.N) : (ms30_2 t).IsWhole := hstage30_2 ((cfg30.slots t 2).cast nbuf30_2)
noncomputable abbrev ms30_3 (t : Fin cfg30.N) : Memref sig .tc .vmem S2000x64 .f32 := win30_3.stage (cfg30.slots t 3)
abbrev hs30_3 (t : Fin cfg30.N) : (ms30_3 t).IsWhole := hstage30_3 ((cfg30.slots t 3).cast nbuf30_3)
noncomputable abbrev ms30_4 (t : Fin cfg30.N) : Memref sig .tc .vmem S2000x64 .f32 := win30_4.stage (cfg30.slots t 4)
abbrev hs30_4 (t : Fin cfg30.N) : (ms30_4 t).IsWhole := hstage30_4 ((cfg30.slots t 4).cast nbuf30_4)
noncomputable abbrev ms30_5 (t : Fin cfg30.N) : Memref sig .tc .vmem S1x64 .f32 := win30_5.stage (cfg30.slots t 5)
abbrev hs30_5 (t : Fin cfg30.N) : (ms30_5 t).IsWhole := hstage30_5 ((cfg30.slots t 5).cast nbuf30_5)
/-- The scratch operand: a whole scoped buffer of the kernel's own, in which the column sums accumulate. -/
noncomputable abbrev scM30_0 : Memref sig .tc .vmem S1x64 .f32 := Memref.whole cc30_scratch0

/-- The other scoped buffers (every other call's staging buffers and scratch), unopened. -/
noncomputable abbrev restBut30 (c : Dev nD) : sProp 𝕄 :=
  Pipeline.scopedRestBut (Ix := Unit) (Name := ℕ) (U := UR sig nD τ) (Lvl := ℕ) (Val := Elt F) spec30 c [cc30_scratch0]

/-- The region's invariant as the launch hands it over, with the scratch operand split out as a memref owned at
    some contents: what the body obligation hands the run and takes back. -/
theorem PhiA30_eq (c : Dev nD) :
    (Pipeline.ΦA spec30 c : sProp 𝕄)
      = iprop(iprop(iprop((∃ d, owns (c : Thread nD τ) scM30_0 fullShare d)) ∗ restBut30 (F := F) c) ∗ (∃ r, prngReg c r)) := by
  unfold Pipeline.ΦA; rw [scopedRest30_split]; simp only [scM30_0, owns_whole]; try rfl

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt30 (c : Dev nD) : (n : ℕ) → n < cfg30.N → Vec F S2000x64 .f32 × Vec F S2000x64 .f32 × Vec F S1x64 .f32 × Vec F S1x64 .f32
  | 0, hn => (out14_A_3 c (grid30.coords ⟨0, hn⟩) (ms30_0 ⟨0, hn⟩) (hs30_0 ⟨0, hn⟩) (ms30_1 ⟨0, hn⟩) (hs30_1 ⟨0, hn⟩) (ms30_2 ⟨0, hn⟩) (hs30_2 ⟨0, hn⟩) (ms30_3 ⟨0, hn⟩) (hs30_3 ⟨0, hn⟩) (ms30_4 ⟨0, hn⟩) (hs30_4 ⟨0, hn⟩) (ms30_5 ⟨0, hn⟩) (hs30_5 ⟨0, hn⟩) scM30_0 (Memref.isWhole_whole _) ((hcond30_0 ⟨0, hn⟩).mpr (Nat.zero_mod _)) (fun h => (fun h => by (try dsimp only at h); omega) ((hcond30_1 ⟨0, hn⟩).mp h)) (iblk30 V c 0 ⟨0, hn⟩) (iblk30 V c 1 ⟨0, hn⟩) (iblk30 V c 2 ⟨0, hn⟩), out14_A_4 c (grid30.coords ⟨0, hn⟩) (ms30_0 ⟨0, hn⟩) (hs30_0 ⟨0, hn⟩) (ms30_1 ⟨0, hn⟩) (hs30_1 ⟨0, hn⟩) (ms30_2 ⟨0, hn⟩) (hs30_2 ⟨0, hn⟩) (ms30_3 ⟨0, hn⟩) (hs30_3 ⟨0, hn⟩) (ms30_4 ⟨0, hn⟩) (hs30_4 ⟨0, hn⟩) (ms30_5 ⟨0, hn⟩) (hs30_5 ⟨0, hn⟩) scM30_0 (Memref.isWhole_whole _) ((hcond30_0 ⟨0, hn⟩).mpr (Nat.zero_mod _)) (fun h => (fun h => by (try dsimp only at h); omega) ((hcond30_1 ⟨0, hn⟩).mp h)) (iblk30 V c 0 ⟨0, hn⟩) (iblk30 V c 1 ⟨0, hn⟩) (iblk30 V c 2 ⟨0, hn⟩), out14_A_5 c (grid30.coords ⟨0, hn⟩) (ms30_0 ⟨0, hn⟩) (hs30_0 ⟨0, hn⟩) (ms30_1 ⟨0, hn⟩) (hs30_1 ⟨0, hn⟩) (ms30_2 ⟨0, hn⟩) (hs30_2 ⟨0, hn⟩) (ms30_3 ⟨0, hn⟩) (hs30_3 ⟨0, hn⟩) (ms30_4 ⟨0, hn⟩) (hs30_4 ⟨0, hn⟩) (ms30_5 ⟨0, hn⟩) (hs30_5 ⟨0, hn⟩) scM30_0 (Memref.isWhole_whole _) ((hcond30_0 ⟨0, hn⟩).mpr (Nat.zero_mod _)) (fun h => (fun h => by (try dsimp only at h); omega) ((hcond30_1 ⟨0, hn⟩).mp h)) (iblk30 V c 0 ⟨0, hn⟩) (iblk30 V c 1 ⟨0, hn⟩) (iblk30 V c 2 ⟨0, hn⟩), sout14_A_0 c (grid30.coords ⟨0, hn⟩) (ms30_0 ⟨0, hn⟩) (hs30_0 ⟨0, hn⟩) (ms30_1 ⟨0, hn⟩) (hs30_1 ⟨0, hn⟩) (ms30_2 ⟨0, hn⟩) (hs30_2 ⟨0, hn⟩) (ms30_3 ⟨0, hn⟩) (hs30_3 ⟨0, hn⟩) (ms30_4 ⟨0, hn⟩) (hs30_4 ⟨0, hn⟩) (ms30_5 ⟨0, hn⟩) (hs30_5 ⟨0, hn⟩) scM30_0 (Memref.isWhole_whole _) ((hcond30_0 ⟨0, hn⟩).mpr (Nat.zero_mod _)) (fun h => (fun h => by (try dsimp only at h); omega) ((hcond30_1 ⟨0, hn⟩).mp h)) (iblk30 V c 0 ⟨0, hn⟩) (iblk30 V c 1 ⟨0, hn⟩) (iblk30 V c 2 ⟨0, hn⟩))
  | n + 1, hn =>
    if h0 : (n + 1) % 25 = 0 then
      if h1 : (n + 1) % 25 = 24 then
        False.elim (by omega)
      else
        (out14_A_3 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) ((hcond30_0 ⟨n + 1, hn⟩).mpr h0) (fun h => h1 ((hcond30_1 ⟨n + 1, hn⟩).mp h)) (iblk30 V c 0 ⟨n + 1, hn⟩) (iblk30 V c 1 ⟨n + 1, hn⟩) (iblk30 V c 2 ⟨n + 1, hn⟩), out14_A_4 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) ((hcond30_0 ⟨n + 1, hn⟩).mpr h0) (fun h => h1 ((hcond30_1 ⟨n + 1, hn⟩).mp h)) (iblk30 V c 0 ⟨n + 1, hn⟩) (iblk30 V c 1 ⟨n + 1, hn⟩) (iblk30 V c 2 ⟨n + 1, hn⟩), out14_A_5 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) ((hcond30_0 ⟨n + 1, hn⟩).mpr h0) (fun h => h1 ((hcond30_1 ⟨n + 1, hn⟩).mp h)) (iblk30 V c 0 ⟨n + 1, hn⟩) (iblk30 V c 1 ⟨n + 1, hn⟩) (iblk30 V c 2 ⟨n + 1, hn⟩), sout14_A_0 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) ((hcond30_0 ⟨n + 1, hn⟩).mpr h0) (fun h => h1 ((hcond30_1 ⟨n + 1, hn⟩).mp h)) (iblk30 V c 0 ⟨n + 1, hn⟩) (iblk30 V c 1 ⟨n + 1, hn⟩) (iblk30 V c 2 ⟨n + 1, hn⟩))
    else
      if h1 : (n + 1) % 25 = 24 then
        (out14_C_3 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) ((hcond30_1 ⟨n + 1, hn⟩).mpr h1) (iblk30 V c 0 ⟨n + 1, hn⟩) (iblk30 V c 1 ⟨n + 1, hn⟩) (iblk30 V c 2 ⟨n + 1, hn⟩) (outsAt30 c n (Nat.lt_of_succ_lt hn)).2.2.2, out14_C_4 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) ((hcond30_1 ⟨n + 1, hn⟩).mpr h1) (iblk30 V c 0 ⟨n + 1, hn⟩) (iblk30 V c 1 ⟨n + 1, hn⟩) (iblk30 V c 2 ⟨n + 1, hn⟩) (outsAt30 c n (Nat.lt_of_succ_lt hn)).2.2.2, out14_C_5 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) ((hcond30_1 ⟨n + 1, hn⟩).mpr h1) (iblk30 V c 0 ⟨n + 1, hn⟩) (iblk30 V c 1 ⟨n + 1, hn⟩) (iblk30 V c 2 ⟨n + 1, hn⟩) (outsAt30 c n (Nat.lt_of_succ_lt hn)).2.2.2, sout14_C_0 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) ((hcond30_1 ⟨n + 1, hn⟩).mpr h1) (iblk30 V c 0 ⟨n + 1, hn⟩) (iblk30 V c 1 ⟨n + 1, hn⟩) (iblk30 V c 2 ⟨n + 1, hn⟩) (outsAt30 c n (Nat.lt_of_succ_lt hn)).2.2.2)
      else
        (out14_B_3 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) (fun h => h1 ((hcond30_1 ⟨n + 1, hn⟩).mp h)) (iblk30 V c 0 ⟨n + 1, hn⟩) (iblk30 V c 1 ⟨n + 1, hn⟩) (iblk30 V c 2 ⟨n + 1, hn⟩) (outsAt30 c n (Nat.lt_of_succ_lt hn)).2.2.2, out14_B_4 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) (fun h => h1 ((hcond30_1 ⟨n + 1, hn⟩).mp h)) (iblk30 V c 0 ⟨n + 1, hn⟩) (iblk30 V c 1 ⟨n + 1, hn⟩) (iblk30 V c 2 ⟨n + 1, hn⟩) (outsAt30 c n (Nat.lt_of_succ_lt hn)).2.2.2, out14_B_5 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) (fun h => h1 ((hcond30_1 ⟨n + 1, hn⟩).mp h)) (iblk30 V c 0 ⟨n + 1, hn⟩) (iblk30 V c 1 ⟨n + 1, hn⟩) (iblk30 V c 2 ⟨n + 1, hn⟩) (outsAt30 c n (Nat.lt_of_succ_lt hn)).2.2.2, sout14_B_0 c (grid30.coords ⟨n + 1, hn⟩) (ms30_0 ⟨n + 1, hn⟩) (hs30_0 ⟨n + 1, hn⟩) (ms30_1 ⟨n + 1, hn⟩) (hs30_1 ⟨n + 1, hn⟩) (ms30_2 ⟨n + 1, hn⟩) (hs30_2 ⟨n + 1, hn⟩) (ms30_3 ⟨n + 1, hn⟩) (hs30_3 ⟨n + 1, hn⟩) (ms30_4 ⟨n + 1, hn⟩) (hs30_4 ⟨n + 1, hn⟩) (ms30_5 ⟨n + 1, hn⟩) (hs30_5 ⟨n + 1, hn⟩) scM30_0 (Memref.isWhole_whole _) (fun h => h0 ((hcond30_0 ⟨n + 1, hn⟩).mp h)) (fun h => h1 ((hcond30_1 ⟨n + 1, hn⟩).mp h)) (iblk30 V c 0 ⟨n + 1, hn⟩) (iblk30 V c 1 ⟨n + 1, hn⟩) (iblk30 V c 2 ⟨n + 1, hn⟩) (outsAt30 c n (Nat.lt_of_succ_lt hn)).2.2.2)

/-- `outsAt30` at the first point: case A's contents. -/
theorem outsAt30_A (c : Dev nD) (t : Fin cfg30.N) (h0 : t.val % 25 = 0) (h1 : ¬t.val % 25 = 24) :
    outsAt30 V c t.val t.isLt = (out14_A_3 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) ((hcond30_0 t).mpr h0) (fun h => h1 ((hcond30_1 t).mp h)) (iblk30 V c 0 t) (iblk30 V c 1 t) (iblk30 V c 2 t), out14_A_4 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) ((hcond30_0 t).mpr h0) (fun h => h1 ((hcond30_1 t).mp h)) (iblk30 V c 0 t) (iblk30 V c 1 t) (iblk30 V c 2 t), out14_A_5 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) ((hcond30_0 t).mpr h0) (fun h => h1 ((hcond30_1 t).mp h)) (iblk30 V c 0 t) (iblk30 V c 1 t) (iblk30 V c 2 t), sout14_A_0 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) ((hcond30_0 t).mpr h0) (fun h => h1 ((hcond30_1 t).mp h)) (iblk30 V c 0 t) (iblk30 V c 1 t) (iblk30 V c 2 t)) := by
  obtain ⟨n, hn⟩ := t
  cases n with
  | zero => exact rfl
  | succ n => exact (dif_pos h0).trans ((dif_neg h1).trans rfl)

/-- `outsAt30` at a middle point: case B's contents, over what the point before left in the scratch. -/
theorem outsAt30_B (c : Dev nD) (t : Fin cfg30.N) (h0 : ¬t.val % 25 = 0) (h1 : ¬t.val % 25 = 24) :
    outsAt30 V c t.val t.isLt = (out14_B_3 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) (fun h => h1 ((hcond30_1 t).mp h)) (iblk30 V c 0 t) (iblk30 V c 1 t) (iblk30 V c 2 t) (outsAt30 V c (t.val - 1) (Nat.lt_of_le_of_lt (Nat.sub_le _ _) t.isLt)).2.2.2, out14_B_4 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) (fun h => h1 ((hcond30_1 t).mp h)) (iblk30 V c 0 t) (iblk30 V c 1 t) (iblk30 V c 2 t) (outsAt30 V c (t.val - 1) (Nat.lt_of_le_of_lt (Nat.sub_le _ _) t.isLt)).2.2.2, out14_B_5 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) (fun h => h1 ((hcond30_1 t).mp h)) (iblk30 V c 0 t) (iblk30 V c 1 t) (iblk30 V c 2 t) (outsAt30 V c (t.val - 1) (Nat.lt_of_le_of_lt (Nat.sub_le _ _) t.isLt)).2.2.2, sout14_B_0 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) (fun h => h1 ((hcond30_1 t).mp h)) (iblk30 V c 0 t) (iblk30 V c 1 t) (iblk30 V c 2 t) (outsAt30 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt30` at the last point: case C's contents, over what the point before left in the scratch. -/
theorem outsAt30_C (c : Dev nD) (t : Fin cfg30.N) (h0 : ¬t.val % 25 = 0) (h1 : t.val % 25 = 24) :
    outsAt30 V c t.val t.isLt = (out14_C_3 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) ((hcond30_1 t).mpr h1) (iblk30 V c 0 t) (iblk30 V c 1 t) (iblk30 V c 2 t) (outsAt30 V c (t.val - 1) (Nat.lt_of_le_of_lt (Nat.sub_le _ _) t.isLt)).2.2.2, out14_C_4 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) ((hcond30_1 t).mpr h1) (iblk30 V c 0 t) (iblk30 V c 1 t) (iblk30 V c 2 t) (outsAt30 V c (t.val - 1) (Nat.lt_of_le_of_lt (Nat.sub_le _ _) t.isLt)).2.2.2, out14_C_5 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) ((hcond30_1 t).mpr h1) (iblk30 V c 0 t) (iblk30 V c 1 t) (iblk30 V c 2 t) (outsAt30 V c (t.val - 1) (Nat.lt_of_le_of_lt (Nat.sub_le _ _) t.isLt)).2.2.2, sout14_C_0 c (grid30.coords t) (ms30_0 t) (hs30_0 t) (ms30_1 t) (hs30_1 t) (ms30_2 t) (hs30_2 t) (ms30_3 t) (hs30_3 t) (ms30_4 t) (hs30_4 t) (ms30_5 t) (hs30_5 t) scM30_0 (Memref.isWhole_whole _) (fun h => h0 ((hcond30_0 t).mp h)) ((hcond30_1 t).mpr h1) (iblk30 V c 0 t) (iblk30 V c 1 t) (iblk30 V c 2 t) (outsAt30 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt30`'s last component), the other
    scoped buffers unopened and the generator register at some state. -/
noncomputable def PhiS30 (c : Dev nD) : (n : ℕ) → n ≤ cfg30.N → sProp 𝕄
  | 0, _ => Pipeline.ΦA spec30 c
  | n + 1, hn => iprop(iprop(iprop(owns (c : Thread nD τ) scM30_0 fullShare ((outsAt30 V c n hn).2.2.2)) ∗ restBut30 (F := F) c) ∗ (∃ r, prngReg c r))

theorem PhiS30_zero (c : Dev nD) (n : ℕ) (h : n ≤ cfg30.N) (hz : n = 0) : PhiS30 V c n h = Pipeline.ΦA spec30 c := by
  subst hz; rfl

/-- After point `n` (before point `n + 1`): the scratch at that point's contents. -/
theorem PhiS30_succ (c : Dev nD) (n : ℕ) (hn : n < cfg30.N) :
    PhiS30 V c (n + 1) hn = iprop(iprop(iprop(owns (c : Thread nD τ) scM30_0 fullShare ((outsAt30 V c n hn).2.2.2)) ∗ restBut30 (F := F) c) ∗ (∃ r, prngReg c r)) := rfl

/-- Before a point that is not the first: the scratch at what the point before left. -/
theorem PhiS30_pos (c : Dev nD) (n : ℕ) (h : n ≤ cfg30.N) (hz : n ≠ 0) :
    PhiS30 V c n h = iprop(iprop(iprop(owns (c : Thread nD τ) scM30_0 fullShare ((outsAt30 V c (n - 1) (by omega)).2.2.2)) ∗ restBut30 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt30`; the invariant `PhiS30`; nothing owed;
    full shares. -/
noncomputable def dat30 (c : Dev nD) : Dat τ (Elt F) Unit ℕ (UR sig nD τ) ℕ cfg30 c where
  A w := V c (Pipeline.arrRef spec30 w)
  after w t := match w with
    | ⟨0, _⟩ => iblk30 V c 0 t
    | ⟨1, _⟩ => iblk30 V c 1 t
    | ⟨2, _⟩ => iblk30 V c 2 t
    | ⟨3, _⟩ => (outsAt30 V c t.val t.isLt).1
    | ⟨4, _⟩ => (outsAt30 V c t.val t.isLt).2.1
    | ⟨5, _⟩ => (outsAt30 V c t.val t.isLt).2.2.1
  Φ t := PhiS30 V c t.val (Nat.le_of_lt_succ t.isLt)
  q _ := fullShare
  owed _ := 0

/-- The proof data's arrays are the region-entry contents. -/
theorem A_eq30 (c : Dev nD) (w : Fin cfg30.W) : (dat30 V c).A w = V c (Pipeline.arrRef spec30 w) := by
  dsimp only [dat30]

/-- The invariant at a point's start, restated at `t.val`. -/
theorem PhiS30_castSucc (c : Dev nD) (t : Fin cfg30.N) :
    (dat30 V c).Φ t.castSucc = PhiS30 V c t.val (Nat.le_of_lt t.isLt) := by
  dsimp only [dat30]; simp only [Fin.coe_castSucc]

/-- What the body leaves, window by window. -/
theorem after30_0 (c : Dev nD) (t : Fin cfg30.N) : (dat30 V c).after 0 t = iblk30 V c 0 t := by dsimp only [dat30]
theorem after30_1 (c : Dev nD) (t : Fin cfg30.N) : (dat30 V c).after 1 t = iblk30 V c 1 t := by dsimp only [dat30]
theorem after30_2 (c : Dev nD) (t : Fin cfg30.N) : (dat30 V c).after 2 t = iblk30 V c 2 t := by dsimp only [dat30]
theorem after30_3 (c : Dev nD) (t : Fin cfg30.N) : (dat30 V c).after 3 t = (outsAt30 V c t.val t.isLt).1 := by dsimp only [dat30]
theorem after30_4 (c : Dev nD) (t : Fin cfg30.N) : (dat30 V c).after 4 t = (outsAt30 V c t.val t.isLt).2.1 := by dsimp only [dat30]
theorem after30_5 (c : Dev nD) (t : Fin cfg30.N) : (dat30 V c).after 5 t = (outsAt30 V c t.val t.isLt).2.2.1 := by dsimp only [dat30]

/-- Each input's current staging buffer holds its block at every point, fetched there or not. -/
theorem before30_0 (c : Dev nD) (t : Fin cfg30.N) (d) : (dat30 V c).before 0 t d = iblk30 V c 0 t :=
  before30_0_of V (dat30 V c) (A_eq30 V c 0) (after30_0 V c) t d
theorem before30_1 (c : Dev nD) (t : Fin cfg30.N) (d) : (dat30 V c).before 1 t d = iblk30 V c 1 t :=
  before30_1_of V (dat30 V c) (A_eq30 V c 1) (after30_1 V c) t d
theorem before30_2 (c : Dev nD) (t : Fin cfg30.N) (d) : (dat30 V c).before 2 t d = iblk30 V c 2 t :=
  before30_2_of V (dat30 V c) (A_eq30 V c 2) (after30_2 V c) t d

/-! ## The body obligation, at a generic point -/

/-- What the body is called with at point `t` (the windows one by one), -/
noncomputable def bodyPre30 (c : Dev nD) (t : Fin cfg30.N) : sProp 𝕄 :=
  iprop((dat30 V c).Φ t.castSucc ∗ (dat30 V c).owesAt () t.castSucc
    ∗ (∃ d, owns (c : Thread nD τ) (ms30_0 t) fullShare ((dat30 V c).before 0 t d))
    ∗ (∃ d, owns (c : Thread nD τ) (ms30_1 t) fullShare ((dat30 V c).before 1 t d))
    ∗ (∃ d, owns (c : Thread nD τ) (ms30_2 t) fullShare ((dat30 V c).before 2 t d))
    ∗ (∃ d, owns (c : Thread nD τ) (ms30_3 t) fullShare ((dat30 V c).before 3 t d))
    ∗ (∃ d, owns (c : Thread nD τ) (ms30_4 t) fullShare ((dat30 V c).before 4 t d))
    ∗ (∃ d, owns (c : Thread nD τ) (ms30_5 t) fullShare ((dat30 V c).before 5 t d)))

/-- and what it returns. -/
noncomputable def bodyPost30 (c : Dev nD) (t : Fin cfg30.N) : sProp 𝕄 :=
  iprop((dat30 V c).Φ t.succ ∗ (dat30 V c).owesAt () t.succ
    ∗ (dat30 V c).leavesExact 0 t
    ∗ (dat30 V c).leavesExact 1 t
    ∗ (dat30 V c).leavesExact 2 t
    ∗ (dat30 V c).leavesExact 3 t
    ∗ (dat30 V c).leavesExact 4 t
    ∗ (dat30 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body30 (c : Dev nD) (t : Fin cfg30.N) :
    bodyPre30 V c t ⊢ wp frame (wpE (defs₀ (F := F)) Variants.none c none) Set.univ (bodyAt30 t) (fun _ => bodyPost30 V c t) := by
  unfold bodyPre30 bodyPost30 bodyAt30
  rw [cc30_kernel_eq]
  simp only [before30_0, before30_1, before30_2]
  rw [show (dat30 V c).owesAt () t.succ = (dat30 V c).owesAt () t.castSucc from rfl]
  rw [show (dat30 V c).Φ t.succ = PhiS30 V c (t.val + 1) t.isLt from rfl, PhiS30_succ]
  have hN : t.val < 25 := lt_of_lt_of_eq t.isLt (show cfg30.N = 25 from N_30)
  by_cases h0 : t.val % 25 = 0
  · by_cases h1 : t.val % 25 = 24
    · exfalso; omega
    · rw [show (dat30 V c).leavesExact 0 t = owns (c : Thread nD τ) (ms30_0 t) fullShare ((dat30 V c).after 0 t) from by
        unfold Dat.leavesExact; rw [liveAt30_0 t], after30_0]
      rw [show (dat30 V c).leavesExact 1 t = owns (c : Thread nD τ) (ms30_1 t) fullShare ((dat30 V c).after 1 t) from by
        unfold Dat.leavesExact; rw [liveAt30_1 t], after30_1]
      rw [show (dat30 V c).leavesExact 2 t = owns (c : Thread nD τ) (ms30_2 t) fullShare ((dat30 V c).after 2 t) from by
        unfold Dat.leavesExact; rw [liveAt30_2 t], after30_2]
      rw [show (dat30 V c).leavesExact 3 t = owns (c : Thread nD τ) (ms30_3 t) fullShare ((dat30 V c).after 3 t) from by
        unfold Dat.leavesExact; rw [liveAt30_3 t], after30_3]
      rw [show (dat30 V c).leavesExact 4 t = owns (c : Thread nD τ) (ms30_4 t) fullShare ((dat30 V c).after 4 t) from by
        unfold Dat.leavesExact; rw [liveAt30_4 t], after30_4]
      rw [Dat.leavesExact_idle (dat30 V c) 5 t (idleAt30_5_A t ((hcond30_0 t).mpr h0) (fun h => h1 ((hcond30_1 t).mp h))) (noFlush30_5_A t ((hcond30_0 t).mpr h0) (fun h => h1 ((hcond30_1 t).mp h)))]
      rw [outsAt30_A V c t h0 h1]
      unfold out14_A_3 out14_A_4 sout14_A_0; (try dsimp only)
      by_cases hz : t.val = 0
      · rw [PhiS30_castSucc V c t, PhiS30_zero V c _ _ hz, PhiA30_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid30.coords t) _ _ _ _ _ _ _ _ _ _ _ _ _ _ ((hcond30_0 t).mpr h0) (fun h => h1 ((hcond30_1 t).mp h)) (iblk30 V c 0 t) (iblk30 V c 1 t) (iblk30 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat30 V c).leavesExact 0 t = owns (c : Thread nD τ) (ms30_0 t) fullShare ((dat30 V c).after 0 t) from by
        unfold Dat.leavesExact; rw [liveAt30_0 t], after30_0]
      rw [show (dat30 V c).leavesExact 1 t = owns (c : Thread nD τ) (ms30_1 t) fullShare ((dat30 V c).after 1 t) from by
        unfold Dat.leavesExact; rw [liveAt30_1 t], after30_1]
      rw [show (dat30 V c).leavesExact 2 t = owns (c : Thread nD τ) (ms30_2 t) fullShare ((dat30 V c).after 2 t) from by
        unfold Dat.leavesExact; rw [liveAt30_2 t], after30_2]
      rw [show (dat30 V c).leavesExact 3 t = owns (c : Thread nD τ) (ms30_3 t) fullShare ((dat30 V c).after 3 t) from by
        unfold Dat.leavesExact; rw [liveAt30_3 t], after30_3]
      rw [show (dat30 V c).leavesExact 4 t = owns (c : Thread nD τ) (ms30_4 t) fullShare ((dat30 V c).after 4 t) from by
        unfold Dat.leavesExact; rw [liveAt30_4 t], after30_4]
      rw [show (dat30 V c).leavesExact 5 t = owns (c : Thread nD τ) (ms30_5 t) fullShare ((dat30 V c).after 5 t) from by
        unfold Dat.leavesExact; rw [liveAt30_5_C t (fun h => h0 ((hcond30_0 t).mp h)) ((hcond30_1 t).mpr h1)], after30_5]
      rw [outsAt30_C V c t h0 h1]
      unfold out14_C_3 out14_C_4 out14_C_5 sout14_C_0; (try dsimp only)
      by_cases hz : t.val = 0
      · exfalso; omega
      · rw [PhiS30_castSucc V c t, PhiS30_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid30.coords t) _ _ _ _ _ _ _ _ _ _ _ _ _ _ (fun h => h0 ((hcond30_0 t).mp h)) ((hcond30_1 t).mpr h1) (iblk30 V c 0 t) (iblk30 V c 1 t) (iblk30 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat30 V c).leavesExact 0 t = owns (c : Thread nD τ) (ms30_0 t) fullShare ((dat30 V c).after 0 t) from by
        unfold Dat.leavesExact; rw [liveAt30_0 t], after30_0]
      rw [show (dat30 V c).leavesExact 1 t = owns (c : Thread nD τ) (ms30_1 t) fullShare ((dat30 V c).after 1 t) from by
        unfold Dat.leavesExact; rw [liveAt30_1 t], after30_1]
      rw [show (dat30 V c).leavesExact 2 t = owns (c : Thread nD τ) (ms30_2 t) fullShare ((dat30 V c).after 2 t) from by
        unfold Dat.leavesExact; rw [liveAt30_2 t], after30_2]
      rw [show (dat30 V c).leavesExact 3 t = owns (c : Thread nD τ) (ms30_3 t) fullShare ((dat30 V c).after 3 t) from by
        unfold Dat.leavesExact; rw [liveAt30_3 t], after30_3]
      rw [show (dat30 V c).leavesExact 4 t = owns (c : Thread nD τ) (ms30_4 t) fullShare ((dat30 V c).after 4 t) from by
        unfold Dat.leavesExact; rw [liveAt30_4 t], after30_4]
      rw [Dat.leavesExact_idle (dat30 V c) 5 t (idleAt30_5_B t (fun h => h0 ((hcond30_0 t).mp h)) (fun h => h1 ((hcond30_1 t).mp h))) (noFlush30_5_B t (fun h => h0 ((hcond30_0 t).mp h)) (fun h => h1 ((hcond30_1 t).mp h)))]
      rw [outsAt30_B V c t h0 h1]
      unfold out14_B_3 out14_B_4 sout14_B_0; (try dsimp only)
      by_cases hz : t.val = 0
      · exfalso; omega
      · rw [PhiS30_castSucc V c t, PhiS30_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid30.coords t) _ _ _ _ _ _ _ _ _ _ _ _ _ _ (fun h => h0 ((hcond30_0 t).mp h)) (fun h => h1 ((hcond30_1 t).mp h)) (iblk30 V c 0 t) (iblk30 V c 1 t) (iblk30 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation30 (c : Dev nD) : BodyObligation (dat30 (F := F) V c) (defs₀ (F := F)) Variants.none () Set.univ := fun t => by
  rw [bigSep_W30, bigSep_W30]
  exact sound_body30 V c t

/-- What the launch hands the region is the invariant before the first point. -/
theorem hin30 (c : Dev nD) : Pipeline.ΦA spec30 c ⊢ (dat30 V c).Φ 0 := by
  rw [show (dat30 V c).Φ 0 = PhiS30 V c 0 (Nat.zero_le _) from rfl, PhiS30_zero V c 0 _ rfl]
  try exact Idealize.SL.BI.Entails.refl _

/-- After any point but the first the invariant gives it back: the scratch's named contents are forgotten. -/
theorem Phi_out30 (c : Dev nD) (t : Fin (cfg30.N + 1)) (ht : t.val ≠ 0) : (dat30 V c).Φ t ⊢ Pipeline.ΦA spec30 c := by
  rw [show (dat30 V c).Φ t = PhiS30 V c t.val (Nat.le_of_lt_succ t.isLt) from rfl, PhiS30_pos V c _ _ ht, PhiA30_eq]
  iintro ⟨⟨HS0, HR⟩, Hg⟩
  isplitl [HS0 HR]
  · isplitl [HS0]
    · iexists _; iexact HS0
    iexact HR
  iexact Hg

/-- The same after the last point. -/
theorem hout30 (c : Dev nD) : (dat30 V c).Φ (Fin.last cfg30.N) ⊢ Pipeline.ΦA spec30 c :=
  Phi_out30 V c _ (by rw [Fin.val_last]; have : cfg30.N = 25 := N_30; omega)

end Cert.KernelIdeal.Hand

end
-- ==== Proof.KI.R31.lean ====
import proofs.«408084_j48395691492010_3_alg».proof.Proof.KI.R3

/-! Region 31: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk31 (c : Dev nD) (w : Fin cfg31.W) (t : Fin cfg31.N) : ((cfg31.win w).xblock (cfg31.grid.coords t)).Idx → Elt F (cfg31.win w).elt :=
  ((cfg31.win w).blk t).view.read (Elt F) (V c (Pipeline.arrRef spec31 w))

/-- The row-tile window (window 0, fetched at every point) holds its block when the body runs. -/
theorem before31_0_of {c : Dev nD} (dat : Dat τ (Elt F) Unit ℕ (UR sig nD τ) ℕ cfg31 c) (hA : dat.A 0 = V c (Pipeline.arrRef spec31 0))
    (hafter : ∀ t, dat.after 0 t = iblk31 V c 0 t) (t : Fin cfg31.N) (d) : dat.before 0 t d = iblk31 V c 0 t :=
  (dat.before_in_eq_fetched 0 rfl (fun _ => rfl) (fun _ _ _ => rfl) (fun t => by rw [hafter]; unfold Dat.blockOf iblk31; rw [hA]; try rfl) t d).trans
    (by unfold Dat.fetched Dat.blockOf iblk31; rw [hA]; try rfl)

/-- The mean window (window 1, one constant block fetched at the first point only) holds that block at every point. -/
theorem before31_1_of {c : Dev nD} (dat : Dat τ (Elt F) Unit ℕ (UR sig nD τ) ℕ cfg31 c) (hA : dat.A 1 = V c (Pipeline.arrRef spec31 1))
    (hafter : ∀ t, dat.after 1 t = iblk31 V c 1 t) (t : Fin cfg31.N) (d) : dat.before 1 t d = iblk31 V c 1 t :=
  (dat.before_in_eq_fetched 1 rfl (fun _ => rfl) (fun _ _ _ => rfl) (fun t => by rw [hafter]; unfold Dat.blockOf iblk31; rw [hA]; try rfl) t d).trans
    (by unfold Dat.fetched Dat.blockOf iblk31; rw [hA]; try rfl)

/-! ## The branch conditions and the idle points, over this region's grid (the same grid) -/

/-- The reset's condition holds at the first point only, -/
theorem hcond31_0 : ∀ t : Fin cfg31.N, cond3_0 (grid31.coords t) ↔ t.val = 0 := hcond3_0
/-- the final store's at the last point only. -/
theorem hcond31_1 : ∀ t : Fin cfg31.N, cond3_1 (grid31.coords t) ↔ t.val = 24 := hcond3_1

theorem liveAt31_0 : ∀ t : Fin cfg31.N, cfg31.idle 0 (grid31.coords t) = false := fun _ => rfl
theorem liveAt31_1 : ∀ t : Fin cfg31.N, cfg31.idle 1 (grid31.coords t) = false := fun _ => rfl
/-- Away from the last point the result window is idle, -/
theorem idleAt31_2 : ∀ t : Fin cfg31.N, ¬cond3_1 (grid31.coords t) → cfg31.idle 2 (grid31.coords t) = true := idleAt3_2
/-- and live at it. -/
theorem liveAt31_2 : ∀ t : Fin cfg31.N, cond3_1 (grid31.coords t) → cfg31.idle 2 (grid31.coords t) = false := liveAt3_2
/-- Away from the last point its block is not written back (the schedule's closed form). -/
theorem noFlush31_2 (t : Fin cfg31.N) (h : ¬cond3_1 (grid31.coords t)) : (cfg31.win 2).flush t = false := by
  have hN : t.val < 25 := lt_of_lt_of_eq t.isLt (show cfg31.N = 25 from N_31)
  have h24 : ¬t.val = 24 := fun e => h ((hcond31_1 t).mpr e)
  cases hf : (cfg31.win 2).flush t with
  | false => rfl
  | true => exact absurd (by have := (flush31_2 t).mp hf; omega) h24

/-! ## The memrefs the body is called with -/

noncomputable abbrev ms31_0 (t : Fin cfg31.N) : Memref sig .tc .vmem S2000x64 .f32 := win31_0.stage (cfg31.slots t 0)
abbrev hs31_0 (t : Fin cfg31.N) : (ms31_0 t).IsWhole := hstage31_0 ((cfg31.slots t 0).cast nbuf31_0)
noncomputable abbrev ms31_1 (t : Fin cfg31.N) : Memref sig .tc .vmem S1x64 .f32 := win31_1.stage (cfg31.slots t 1)
abbrev hs31_1 (t : Fin cfg31.N) : (ms31_1 t).IsWhole := hstage31_1 ((cfg31.slots t 1).cast nbuf31_1)
noncomputable abbrev ms31_2 (t : Fin cfg31.N) : Memref sig .tc .vmem S1x64 .f32 := win31_2.stage (cfg31.slots t 2)
abbrev hs31_2 (t : Fin cfg31.N) : (ms31_2 t).IsWhole := hstage31_2 ((cfg31.slots t 2).cast nbuf31_2)
/-- The accumulator: this call's own scratch buffer, whole. -/
noncomputable abbrev scM31_0 : Memref sig .tc .vmem S1x64 .f32 := Memref.whole cc31_scratch0

/-- The body the pipeline calls at point `t` is region 3's printed kernel on this region's memrefs: the two printed
    functions are the same term. -/
theorem bodyAt31_eq (t : Fin cfg31.N) :
    (bodyAt31 t : Prog (TpuEff nD τ sig (Elt F) Λ₀ .tc) PUnit)
      = cc3__var_kernel (grid31.coords t) (ms31_0 t) (hs31_0 t) (ms31_1 t) (hs31_1 t) (ms31_2 t) (hs31_2 t) scM31_0 (Memref.isWhole_whole _) := rfl

/-- The region-entry invariant with the accumulator split out of the scoped rest, as a memref owned at some contents. -/
theorem PhiA31_eq (c : Dev nD) :
    (Pipeline.ΦA spec31 c : sProp 𝕄)
      = iprop(iprop(iprop(∃ d, owns (c : Thread nD τ) scM31_0 fullShare d)
          ∗ Pipeline.scopedRestBut (Ix := Unit) (Name := ℕ) (U := UR sig nD τ) (Lvl := ℕ) (Val := Elt F) spec31 c [cc31_scratch0]) ∗ (∃ r, prngReg c r)) := by
  unfold Pipeline.ΦA; rw [scopedRest31_split]; simp only [scM31_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt31 (c : Dev nD) : (n : ℕ) → n < cfg31.N → Vec F S1x64 .f32 × Vec F S1x64 .f32
  | 0, hn => (idle3_2,
      sout3_A_0 c (grid31.coords ⟨0, hn⟩) (ms31_0 ⟨0, hn⟩) (hs31_0 ⟨0, hn⟩) (ms31_1 ⟨0, hn⟩) (hs31_1 ⟨0, hn⟩) (ms31_2 ⟨0, hn⟩) (hs31_2 ⟨0, hn⟩) scM31_0 (Memref.isWhole_whole _) ((hcond31_0 ⟨0, hn⟩).mpr rfl)
        (fun h => (fun h' : (0 : ℕ) = 24 => by omega) ((hcond31_1 ⟨0, hn⟩).mp h)) (iblk31 V c 0 ⟨0, hn⟩) (iblk31 V c 1 ⟨0, hn⟩))
  | n + 1, hn =>
    if h1 : n + 1 = 24 then
      (out3_C_2 c (grid31.coords ⟨n + 1, hn⟩) (ms31_0 ⟨n + 1, hn⟩) (hs31_0 ⟨n + 1, hn⟩) (ms31_1 ⟨n + 1, hn⟩) (hs31_1 ⟨n + 1, hn⟩) (ms31_2 ⟨n + 1, hn⟩) (hs31_2 ⟨n + 1, hn⟩) scM31_0 (Memref.isWhole_whole _) (fun h => (fun h' : n + 1 = 0 => by omega) ((hcond31_0 ⟨n + 1, hn⟩).mp h))
          ((hcond31_1 ⟨n + 1, hn⟩).mpr h1) (iblk31 V c 0 ⟨n + 1, hn⟩) (iblk31 V c 1 ⟨n + 1, hn⟩) (outsAt31 c n (Nat.lt_of_succ_lt hn)).2,
       sout3_C_0 c (grid31.coords ⟨n + 1, hn⟩) (ms31_0 ⟨n + 1, hn⟩) (hs31_0 ⟨n + 1, hn⟩) (ms31_1 ⟨n + 1, hn⟩) (hs31_1 ⟨n + 1, hn⟩) (ms31_2 ⟨n + 1, hn⟩) (hs31_2 ⟨n + 1, hn⟩) scM31_0 (Memref.isWhole_whole _) (fun h => (fun h' : n + 1 = 0 => by omega) ((hcond31_0 ⟨n + 1, hn⟩).mp h))
          ((hcond31_1 ⟨n + 1, hn⟩).mpr h1) (iblk31 V c 0 ⟨n + 1, hn⟩) (iblk31 V c 1 ⟨n + 1, hn⟩) (outsAt31 c n (Nat.lt_of_succ_lt hn)).2)
    else
      (idle3_2,
       sout3_B_0 c (grid31.coords ⟨n + 1, hn⟩) (ms31_0 ⟨n + 1, hn⟩) (hs31_0 ⟨n + 1, hn⟩) (ms31_1 ⟨n + 1, hn⟩) (hs31_1 ⟨n + 1, hn⟩) (ms31_2 ⟨n + 1, hn⟩) (hs31_2 ⟨n + 1, hn⟩) scM31_0 (Memref.isWhole_whole _) (fun h => (fun h' : n + 1 = 0 => by omega) ((hcond31_0 ⟨n + 1, hn⟩).mp h))
          (fun h => h1 ((hcond31_1 ⟨n + 1, hn⟩).mp h)) (iblk31 V c 0 ⟨n + 1, hn⟩) (iblk31 V c 1 ⟨n + 1, hn⟩) (outsAt31 c n (Nat.lt_of_succ_lt hn)).2)

theorem outsAt31_A (c : Dev nD) (t : Fin cfg31.N) (h0 : t.val = 0) (h1 : ¬t.val = 24) :
    outsAt31 V c t.val t.isLt = (idle3_2,
      sout3_A_0 c (grid31.coords t) (ms31_0 t) (hs31_0 t) (ms31_1 t) (hs31_1 t) (ms31_2 t) (hs31_2 t) scM31_0 (Memref.isWhole_whole _) ((hcond31_0 t).mpr h0) (fun h => h1 ((hcond31_1 t).mp h)) (iblk31 V c 0 t) (iblk31 V c 1 t)) := by
  obtain ⟨n, hn⟩ := t
  cases n with
  | zero => exact rfl
  | succ n => exact absurd h0 (Nat.succ_ne_zero n)

theorem outsAt31_B (c : Dev nD) (t : Fin cfg31.N) (h0 : ¬t.val = 0) (h1 : ¬t.val = 24) :
    outsAt31 V c t.val t.isLt = (idle3_2,
      sout3_B_0 c (grid31.coords t) (ms31_0 t) (hs31_0 t) (ms31_1 t) (hs31_1 t) (ms31_2 t) (hs31_2 t) scM31_0 (Memref.isWhole_whole _) (fun h => h0 ((hcond31_0 t).mp h)) (fun h => h1 ((hcond31_1 t).mp h)) (iblk31 V c 0 t) (iblk31 V c 1 t)
        (outsAt31 V c (t.val - 1) (Nat.lt_of_le_of_lt (Nat.sub_le _ _) t.isLt)).2) := by
  obtain ⟨n, hn⟩ := t
  cases n with
  | zero => exact absurd rfl h0
  | succ n => exact (dif_neg h1).trans rfl

theorem outsAt31_C (c : Dev nD) (t : Fin cfg31.N) (h0 : ¬t.val = 0) (h1 : t.val = 24) :
    outsAt31 V c t.val t.isLt =
      (out3_C_2 c (grid31.coords t) (ms31_0 t) (hs31_0 t) (ms31_1 t) (hs31_1 t) (ms31_2 t) (hs31_2 t) scM31_0 (Memref.isWhole_whole _) (fun h => h0 ((hcond31_0 t).mp h)) ((hcond31_1 t).mpr h1) (iblk31 V c 0 t) (iblk31 V c 1 t)
        (outsAt31 V c (t.val - 1) (Nat.lt_of_le_of_lt (Nat.sub_le _ _) t.isLt)).2,
       sout3_C_0 c (grid31.coords t) (ms31_0 t) (hs31_0 t) (ms31_1 t) (hs31_1 t) (ms31_2 t) (hs31_2 t) scM31_0 (Memref.isWhole_whole _) (fun h => h0 ((hcond31_0 t).mp h)) ((hcond31_1 t).mpr h1) (iblk31 V c 0 t) (iblk31 V c 1 t)
        (outsAt31 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS31 (c : Dev nD) : (n : ℕ) → n ≤ cfg31.N → sProp 𝕄
  | 0, _ => Pipeline.ΦA spec31 c
  | n + 1, hn => iprop(iprop(owns (c : Thread nD τ) scM31_0 fullShare ((outsAt31 V c n hn).2)
      ∗ Pipeline.scopedRestBut (Ix := Unit) (Name := ℕ) (U := UR sig nD τ) (Lvl := ℕ) (Val := Elt F) spec31 c [cc31_scratch0]) ∗ (∃ r, prngReg c r))

theorem PhiS31_zero (c : Dev nD) (n : ℕ) (h : n ≤ cfg31.N) (hz : n = 0) : PhiS31 V c n h = Pipeline.ΦA spec31 c := by
  subst hz; rfl

theorem PhiS31_succ (c : Dev nD) (n : ℕ) (hn : n < cfg31.N) :
    PhiS31 V c (n + 1) hn = iprop(iprop(owns (c : Thread nD τ) scM31_0 fullShare ((outsAt31 V c n hn).2)
      ∗ Pipeline.scopedRestBut (Ix := Unit) (Name := ℕ) (U := UR sig nD τ) (Lvl := ℕ) (Val := Elt F) spec31 c [cc31_scratch0]) ∗ (∃ r, prngReg c r)) := rfl

theorem PhiS31_pos (c : Dev nD) (n : ℕ) (h : n ≤ cfg31.N) (hz : n ≠ 0) :
    PhiS31 V c n h = iprop(iprop(owns (c : Thread nD τ) scM31_0 fullShare ((outsAt31 V c (n - 1) (by omega)).2)
      ∗ Pipeline.scopedRestBut (Ix := Unit) (Name := ℕ) (U := UR sig nD τ) (Lvl := ℕ) (Val := Elt F) spec31 c [cc31_scratch0]) ∗ (∃ r, prngReg c r)) := by
  cases n with
  | zero => exact absurd rfl hz
  | succ n => rfl

/-! ## The proof data -/

noncomputable def dat31 (c : Dev nD) : Dat τ (Elt F) Unit ℕ (UR sig nD τ) ℕ cfg31 c where
  A w := V c (Pipeline.arrRef spec31 w)
  after w t := match w with
    | ⟨0, _⟩ => iblk31 V c 0 t
    | ⟨1, _⟩ => iblk31 V c 1 t
    | ⟨2, _⟩ => (outsAt31 V c t.val t.isLt).1
  Φ t := PhiS31 V c t.val (Nat.le_of_lt_succ t.isLt)
  q _ := fullShare
  owed _ := 0

theorem A_eq31 (c : Dev nD) (w : Fin cfg31.W) : (dat31 V c).A w = V c (Pipeline.arrRef spec31 w) := by
  dsimp only [dat31]

theorem PhiS31_castSucc (c : Dev nD) (t : Fin cfg31.N) :
    (dat31 V c).Φ t.castSucc = PhiS31 V c t.val (Nat.le_of_lt t.isLt) := by
  dsimp only [dat31]; simp only [Fin.coe_castSucc]

theorem after31_0 (c : Dev nD) (t : Fin cfg31.N) : (dat31 V c).after 0 t = iblk31 V c 0 t := by dsimp only [dat31]
theorem after31_1 (c : Dev nD) (t : Fin cfg31.N) : (dat31 V c).after 1 t = iblk31 V c 1 t := by dsimp only [dat31]
theorem after31_2 (c : Dev nD) (t : Fin cfg31.N) : (dat31 V c).after 2 t = (outsAt31 V c t.val t.isLt).1 := by dsimp only [dat31]

theorem before31_0 (c : Dev nD) (t : Fin cfg31.N) (d) : (dat31 V c).before 0 t d = iblk31 V c 0 t :=
  before31_0_of V (dat31 V c) (A_eq31 V c 0) (after31_0 V c) t d
theorem before31_1 (c : Dev nD) (t : Fin cfg31.N) (d) : (dat31 V c).before 1 t d = iblk31 V c 1 t :=
  before31_1_of V (dat31 V c) (A_eq31 V c 1) (after31_1 V c) t d

/-! ## The body obligation -/

noncomputable def bodyPre31 (c : Dev nD) (t : Fin cfg31.N) : sProp 𝕄 :=
  iprop((dat31 V c).Φ t.castSucc ∗ (dat31 V c).owesAt () t.castSucc
    ∗ (∃ d, owns (c : Thread nD τ) (ms31_0 t) fullShare ((dat31 V c).before 0 t d))
    ∗ (∃ d, owns (c : Thread nD τ) (ms31_1 t) fullShare ((dat31 V c).before 1 t d))
    ∗ (∃ d, owns (c : Thread nD τ) (ms31_2 t) fullShare ((dat31 V c).before 2 t d)))

noncomputable def bodyPost31 (c : Dev nD) (t : Fin cfg31.N) : sProp 𝕄 :=
  iprop((dat31 V c).Φ t.succ ∗ (dat31 V c).owesAt () t.succ
    ∗ (dat31 V c).leavesExact 0 t
    ∗ (dat31 V c).leavesExact 1 t
    ∗ (dat31 V c).leavesExact 2 t)

set_option maxHeartbeats 4800000 in
/-- The body at any point, from region 3's triples on this region's memrefs. -/
theorem sound_body31 (c : Dev nD) (t : Fin cfg31.N) :
    bodyPre31 V c t ⊢ wp frame (wpE (defs₀ (F := F)) Variants.none c none) Set.univ (bodyAt31 t) (fun _ => bodyPost31 V c t) := by
  rw [bodyAt31_eq (F := F) t]
  unfold bodyPre31 bodyPost31
  simp only [before31_0, before31_1]
  rw [show (dat31 V c).owesAt () t.succ = (dat31 V c).owesAt () t.castSucc from rfl]
  rw [show (dat31 V c).Φ t.succ = PhiS31 V c (t.val + 1) t.isLt from rfl, PhiS31_succ]
  have hN : t.val < 25 := lt_of_lt_of_eq t.isLt (show cfg31.N = 25 from N_31)
  rw [show (dat31 V c).leavesExact 0 t = owns (c : Thread nD τ) (ms31_0 t) fullShare ((dat31 V c).after 0 t) from by
    unfold Dat.leavesExact; rw [liveAt31_0 t], after31_0]
  rw [show (dat31 V c).leavesExact 1 t = owns (c : Thread nD τ) (ms31_1 t) fullShare ((dat31 V c).after 1 t) from by
    unfold Dat.leavesExact; rw [liveAt31_1 t], after31_1]
  by_cases h0 : t.val = 0
  · have h1 : ¬t.val = 24 := by omega
    rw [Dat.leavesExact_idle (dat31 V c) 2 t (idleAt31_2 t (fun h => h1 ((hcond31_1 t).mp h))) (noFlush31_2 t (fun h => h1 ((hcond31_1 t).mp h)))]
    rw [outsAt31_A V c t h0 h1]
    unfold sout3_A_0; (try dsimp only)
    rw [PhiS31_castSucc V c t, PhiS31_zero V c _ _ h0, PhiA31_eq]
    iintro ⟨⟨⟨HS0, Hr⟩, Hg⟩, Ho, ⟨%d0, H0⟩, ⟨%d1, H1⟩, ⟨%d2, H2⟩⟩
    iapply ((kernelRun3_A c (grid31.coords t) _ _ _ _ _ _ _ _ ((hcond31_0 t).mpr h0) (fun h => h1 ((hcond31_1 t).mp h)) (iblk31 V c 0 t) (iblk31 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat31 V c).leavesExact 2 t = owns (c : Thread nD τ) (ms31_2 t) fullShare ((dat31 V c).after 2 t) from by
        unfold Dat.leavesExact; rw [liveAt31_2 t ((hcond31_1 t).mpr h1)], after31_2]
      rw [outsAt31_C V c t h0 h1]
      unfold out3_C_2 sout3_C_0; (try dsimp only)
      rw [PhiS31_castSucc V c t, PhiS31_pos V c _ _ h0]
      iintro ⟨⟨⟨HS0, Hr⟩, Hg⟩, Ho, ⟨%d0, H0⟩, ⟨%d1, H1⟩, ⟨%d2, H2⟩⟩
      iapply ((kernelRun3_C c (grid31.coords t) _ _ _ _ _ _ _ _ (fun h => h0 ((hcond31_0 t).mp h)) ((hcond31_1 t).mpr h1) (iblk31 V c 0 t) (iblk31 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat31 V c) 2 t (idleAt31_2 t (fun h => h1 ((hcond31_1 t).mp h))) (noFlush31_2 t (fun h => h1 ((hcond31_1 t).mp h)))]
      rw [outsAt31_B V c t h0 h1]
      unfold sout3_B_0; (try dsimp only)
      rw [PhiS31_castSucc V c t, PhiS31_pos V c _ _ h0]
      iintro ⟨⟨⟨HS0, Hr⟩, Hg⟩, Ho, ⟨%d0, H0⟩, ⟨%d1, H1⟩, ⟨%d2, H2⟩⟩
      iapply ((kernelRun3_B c (grid31.coords t) _ _ _ _ _ _ _ _ (fun h => h0 ((hcond31_0 t).mp h)) (fun h => h1 ((hcond31_1 t).mp h)) (iblk31 V c 0 t) (iblk31 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation31 (c : Dev nD) : BodyObligation (dat31 (F := F) V c) (defs₀ (F := F)) Variants.none () Set.univ := fun t => by
  rw [bigSep_W31, bigSep_W31]
  exact sound_body31 V c t

/-- What the launch hands the region is the invariant before the first point. -/
theorem hin31 (c : Dev nD) : Pipeline.ΦA spec31 c ⊢ (dat31 V c).Φ 0 := by
  rw [show (dat31 V c).Φ 0 = PhiS31 V c 0 (Nat.zero_le _) from rfl, PhiS31_zero V c 0 _ rfl]
  try exact Idealize.SL.BI.Entails.refl _

/-- After any point but the first the invariant gives the launch's back: the accumulator's named contents are forgotten. -/
theorem Phi_out31 (c : Dev nD) (t : Fin (cfg31.N + 1)) (ht : t.val ≠ 0) : (dat31 V c).Φ t ⊢ Pipeline.ΦA spec31 c := by
  rw [show (dat31 V c).Φ t = PhiS31 V c t.val (Nat.le_of_lt_succ t.isLt) from rfl, PhiS31_pos V c _ _ ht, PhiA31_eq]
  iintro ⟨⟨HS0, Hr⟩, Hg⟩
  isplitl [HS0 Hr]
  · isplitl [HS0]
    · iexists _; iexact HS0
    iexact Hr
  iexact Hg

/-- The same after the last point. -/
theorem hout31 (c : Dev nD) : (dat31 V c).Φ (Fin.last cfg31.N) ⊢ Pipeline.ΦA spec31 c :=
  Phi_out31 V c _ (by rw [Fin.val_last]; have : cfg31.N = 25 := N_31; omega)

end Cert.KernelIdeal.Hand

end
-- ==== Proof.KI.R32.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Ring
import Idealize.ShloMosaic.Lib.Tactic

/-!
# Region 32: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region32
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk32 (c : Dev nD) (w : Fin cfg32.W) (t : Fin cfg32.N) : ((cfg32.win w).xblock (cfg32.grid.coords t)).Idx → Elt F (cfg32.win w).elt :=
  ((cfg32.win w).blk t).view.read (Elt F) (V c (Pipeline.arrRef spec32 w))

/-- The activations' staging buffer holds the block of the current point at every point: the window is fetched at
    every point, is never cut and never idle, and the body leaves the block where it found it. -/
theorem before32_0_of {c : Dev nD} (dat : Dat τ (Elt F) Unit ℕ (UR sig nD τ) ℕ cfg32 c) (hA : dat.A 0 = V c (Pipeline.arrRef spec32 0))
    (hafter : ∀ t, dat.after 0 t = iblk32 V c 0 t) (t : Fin cfg32.N) (d) : dat.before 0 t d = iblk32 V c 0 t :=
  (dat.before_in_eq_fetched 0 rfl (fun _ => rfl) (fun _ _ _ => rfl) (fun t => by rw [hafter]; unfold Dat.blockOf iblk32; rw [hA]; try rfl) t d).trans
    (by unfold Dat.fetched Dat.blockOf iblk32; rw [hA]; try rfl)

/-- The mean row's staging buffer holds its (one) block at every point: it is fetched at the first point only, its
    block index never moves afterwards, and the body leaves it in place. -/
theorem before32_1_of {c : Dev nD} (dat : Dat τ (Elt F) Unit ℕ (UR sig nD τ) ℕ cfg32 c) (hA : dat.A 1 = V c (Pipeline.arrRef spec32 1))
    (hafter : ∀ t, dat.after 1 t = iblk32 V c 1 t) (t : Fin cfg32.N) (d) : dat.before 1 t d = iblk32 V c 1 t :=
  (dat.before_in_eq_fetched 1 rfl (fun _ => rfl) (fun _ _ _ => rfl) (fun t => by rw [hafter]; unfold Dat.blockOf iblk32; rw [hA]; try rfl) t d).trans
    (by unfold Dat.fetched Dat.blockOf iblk32; rw [hA]; try rfl)

/-- The same of the variance row. -/
theorem before32_2_of {c : Dev nD} (dat : Dat τ (Elt F) Unit ℕ (UR sig nD τ) ℕ cfg32 c) (hA : dat.A 2 = V c (Pipeline.arrRef spec32 2))
    (hafter : ∀ t, dat.after 2 t = iblk32 V c 2 t) (t : Fin cfg32.N) (d) : dat.before 2 t d = iblk32 V c 2 t :=
  (dat.before_in_eq_fetched 2 rfl (fun _ => rfl) (fun _ _ _ => rfl) (fun t => by rw [hafter]; unfold Dat.blockOf iblk32; rw [hA]; try rfl) t d).trans
    (by unfold Dat.fetched Dat.blockOf iblk32; rw [hA]; try rfl)

/-- The same of the scale row. -/
theorem before32_3_of {c : Dev nD} (dat : Dat τ (Elt F) Unit ℕ (UR sig nD τ) ℕ cfg32 c) (hA : dat.A 3 = V c (Pipeline.arrRef spec32 3))
    (hafter : ∀ t, dat.after 3 t = iblk32 V c 3 t) (t : Fin cfg32.N) (d) : dat.before 3 t d = iblk32 V c 3 t :=
  (dat.before_in_eq_fetched 3 rfl (fun _ => rfl) (fun _ _ _ => rfl) (fun t => by rw [hafter]; unfold Dat.blockOf iblk32; rw [hA]; try rfl) t d).trans
    (by unfold Dat.fetched Dat.blockOf iblk32; rw [hA]; try rfl)

/-- The same of the shift row. -/
theorem before32_4_of {c : Dev nD} (dat : Dat τ (Elt F) Unit ℕ (UR sig nD τ) ℕ cfg32 c) (hA : dat.A 4 = V c (Pipeline.arrRef spec32 4))
    (hafter : ∀ t, dat.after 4 t = iblk32 V c 4 t) (t : Fin cfg32.N) (d) : dat.before 4 t d = iblk32 V c 4 t :=
  (dat.before_in_eq_fetched 4 rfl (fun _ => rfl) (fun _ _ _ => rfl) (fun t => by rw [hafter]; unfold Dat.blockOf iblk32; rw [hA]; try rfl) t d).trans
    (by unfold Dat.fetched Dat.blockOf iblk32; rw [hA]; try rfl)

/-! ## The body's accesses: each buffer is read, and the output written, whole -/

/-- The whole of a block of 2000 rows. -/
noncomputable abbrev r32_0 : Rect S2000x64 := Rect.unit (s := S2000x64) ![0, 0] S2000x64.size inb_S2000x64_S2000x64_0_0
/-- The whole of a single row. -/
noncomputable abbrev r32_1 : Rect S1x64 := Rect.unit (s := S1x64) ![0, 0] S1x64.size inb_S1x64_S1x64_0_0

/-! ## What the body leaves in the output buffer -/

/-- The output buffer after the body, from the five input blocks: its one store, whose payload is the skeleton's. -/
noncomputable def out32_5 (x0 : Vec F S2000x64 .f32) (x1 : Vec F S1x64 .f32) (x2 : Vec F S1x64 .f32) (x3 : Vec F S1x64 .f32) (x4 : Vec F S1x64 .f32) :
    Vec F S2000x64 .f32 :=
  View.canon [⟨r32_0, k32_pay1 (View.ld x0 r32_0) (View.ld x1 r32_1) (View.ld x2 r32_1) (View.ld x3 r32_1) (View.ld x4 r32_1)⟩]

/-- The one store covers the buffer. -/
theorem cover32_5 (p0 : Vec F S2000x64 .f32) (y : S2000x64.Idx) :
    ∃ pc ∈ ([⟨r32_0, p0⟩] : List (View.Piece (Elt F) S2000x64 .f32)), y ∈ pc.1.set :=
  View.cover_of_tiled [⟨r32_0, p0⟩] S2000x64.size (by rfl) y

/-! ## The body's triple -/

set_option maxHeartbeats 1000000 in
/-- The body on whole staging buffers, the five inputs' at read contents x0 … x4 and the output's at anything, runs
    to a state in which the inputs' are as they were and the output's holds out32_5 of them. (The body also loads the
    output buffer before it stores to it; the loaded value is not used.) -/
theorem sound_kernel32 (c : Dev nD) (E : Set ℕ) (i : grid32.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out32_5 x0 x1 x2 x3 x4)) -∗ K ⟨⟩))
      ⊢ wp frame (wpE (defs₀ (F := F)) Variants.none c none) E (cc32__bn_softmax_kernel i arg1 harg1 arg2 harg2 arg3 harg3 arg4 harg4 arg5 harg5 arg6 harg6) K := by
  simp only [cc32__bn_softmax_kernel_eq_skeleton]; unfold cc32__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover32_5 _)

/-! ## The pipeline's proof data -/

/-- The proof data of the region's pipeline on core c: the arrays as the region finds them; after the body at point t
    each input's buffer at its block and the output's at out32_5 of the input blocks; the invariant that of a body which
    touches nothing but its windows; nothing owed; full shares. -/
noncomputable def dat32 (c : Dev nD) : Dat τ (Elt F) Unit ℕ (UR sig nD τ) ℕ cfg32 c where
  A w := V c (Pipeline.arrRef spec32 w)
  after w t := match w with
    | ⟨0, _⟩ => iblk32 V c 0 t
    | ⟨1, _⟩ => iblk32 V c 1 t
    | ⟨2, _⟩ => iblk32 V c 2 t
    | ⟨3, _⟩ => iblk32 V c 3 t
    | ⟨4, _⟩ => iblk32 V c 4 t
    | ⟨5, _⟩ => out32_5 (iblk32 V c 0 t) (iblk32 V c 1 t) (iblk32 V c 2 t) (iblk32 V c 3 t) (iblk32 V c 4 t)
  Φ _ := Pipeline.ΦA spec32 c
  q _ := fullShare
  owed _ := 0

/-- The proof data's arrays are the region-entry contents. -/
theorem A_eq32 (c : Dev nD) (w : Fin cfg32.W) : (dat32 V c).A w = V c (Pipeline.arrRef spec32 w) := by
  dsimp only [dat32]

/-- What the body leaves, window by window. -/
theorem after32_0 (c : Dev nD) (t : Fin cfg32.N) : (dat32 V c).after 0 t = iblk32 V c 0 t := by dsimp only [dat32]
theorem after32_1 (c : Dev nD) (t : Fin cfg32.N) : (dat32 V c).after 1 t = iblk32 V c 1 t := by dsimp only [dat32]
theorem after32_2 (c : Dev nD) (t : Fin cfg32.N) : (dat32 V c).after 2 t = iblk32 V c 2 t := by dsimp only [dat32]
theorem after32_3 (c : Dev nD) (t : Fin cfg32.N) : (dat32 V c).after 3 t = iblk32 V c 3 t := by dsimp only [dat32]
theorem after32_4 (c : Dev nD) (t : Fin cfg32.N) : (dat32 V c).after 4 t = iblk32 V c 4 t := by dsimp only [dat32]
theorem after32_5 (c : Dev nD) (t : Fin cfg32.N) :
    (dat32 V c).after 5 t = out32_5 (iblk32 V c 0 t) (iblk32 V c 1 t) (iblk32 V c 2 t) (iblk32 V c 3 t) (iblk32 V c 4 t) := by dsimp only [dat32]

/-- Each input's current staging buffer holds its block at every point, fetched there or not. -/
theorem before32_0 (c : Dev nD) (t : Fin cfg32.N) (d) : (dat32 V c).before 0 t d = iblk32 V c 0 t :=
  before32_0_of V (dat32 V c) (A_eq32 V c 0) (after32_0 V c) t d
theorem before32_1 (c : Dev nD) (t : Fin cfg32.N) (d) : (dat32 V c).before 1 t d = iblk32 V c 1 t :=
  before32_1_of V (dat32 V c) (A_eq32 V c 1) (after32_1 V c) t d
theorem before32_2 (c : Dev nD) (t : Fin cfg32.N) (d) : (dat32 V c).before 2 t d = iblk32 V c 2 t :=
  before32_2_of V (dat32 V c) (A_eq32 V c 2) (after32_2 V c) t d
theorem before32_3 (c : Dev nD) (t : Fin cfg32.N) (d) : (dat32 V c).before 3 t d = iblk32 V c 3 t :=
  before32_3_of V (dat32 V c) (A_eq32 V c 3) (after32_3 V c) t d
theorem before32_4 (c : Dev nD) (t : Fin cfg32.N) (d) : (dat32 V c).before 4 t d = iblk32 V c 4 t :=
  before32_4_of V (dat32 V c) (A_eq32 V c 4) (after32_4 V c) t d

/-! ## The body obligation, at a generic point -/

/-- What the body is called with at point t, the windows one by one, -/
noncomputable def bodyPre32 (c : Dev nD) (t : Fin cfg32.N) : sProp 𝕄 :=
  iprop((dat32 V c).Φ t.castSucc ∗ (dat32 V c).owesAt () t.castSucc
    ∗ (∃ d, owns (c : Thread nD τ) (st32_0 t) fullShare ((dat32 V c).before 0 t d))
    ∗ (∃ d, owns (c : Thread nD τ) (st32_1 t) fullShare ((dat32 V c).before 1 t d))
    ∗ (∃ d, owns (c : Thread nD τ) (st32_2 t) fullShare ((dat32 V c).before 2 t d))
    ∗ (∃ d, owns (c : Thread nD τ) (st32_3 t) fullShare ((dat32 V c).before 3 t d))
    ∗ (∃ d, owns (c : Thread nD τ) (st32_4 t) fullShare ((dat32 V c).before 4 t d))
    ∗ (∃ d, owns (c : Thread nD τ) (st32_5 t) fullShare ((dat32 V c).before 5 t d)))

/-- and what it returns. -/
noncomputable def bodyPost32 (c : Dev nD) (t : Fin cfg32.N) : sProp 𝕄 :=
  iprop((dat32 V c).Φ t.succ ∗ (dat32 V c).owesAt () t.succ
    ∗ owns (c : Thread nD τ) (st32_0 t) fullShare ((dat32 V c).after 0 t)
    ∗ owns (c : Thread nD τ) (st32_1 t) fullShare ((dat32 V c).after 1 t)
    ∗ owns (c : Thread nD τ) (st32_2 t) fullShare ((dat32 V c).after 2 t)
    ∗ owns (c : Thread nD τ) (st32_3 t) fullShare ((dat32 V c).after 3 t)
    ∗ owns (c : Thread nD τ) (st32_4 t) fullShare ((dat32 V c).after 4 t)
    ∗ owns (c : Thread nD τ) (st32_5 t) fullShare ((dat32 V c).after 5 t))

/-- The body at any point: the inputs' buffers hold their blocks, so the body's triple applies; the invariant and
    what the core owes pass through unread. -/
theorem sound_body32 (c : Dev nD) (t : Fin cfg32.N) :
    bodyPre32 V c t ⊢ wp frame (wpE (defs₀ (F := F)) Variants.none c none) Set.univ (bodyAt32 t) (fun _ => bodyPost32 V c t) := by
  unfold bodyPre32 bodyPost32 bodyAt32
  simp only [before32_0, before32_1, before32_2, before32_3, before32_4]
  rw [show (dat32 V c).Φ t.succ = (dat32 V c).Φ t.castSucc from rfl,
    show (dat32 V c).owesAt () t.succ = (dat32 V c).owesAt () t.castSucc from rfl,
    after32_0, after32_1, after32_2, after32_3, after32_4, after32_5]
  iintro ⟨HΦ, Ho, ⟨%d0, H0⟩, ⟨%d1, H1⟩, ⟨%d2, H2⟩, ⟨%d3, H3⟩, ⟨%d4, H4⟩, ⟨%d5, H5⟩⟩
  iapply (sound_kernel32 c Set.univ (grid32.coords t) _ _ _ _ _ _ _ _ _ _ _ _
    (iblk32 V c 0 t) (iblk32 V c 1 t) (iblk32 V c 2 t) (iblk32 V c 3 t) (iblk32 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation32 (c : Dev nD) : BodyObligation (dat32 (F := F) V c) (defs₀ (F := F)) Variants.none () Set.univ := fun t => by
  rw [bigSep_W32, bigSep_W32]
  exact sound_body32 V c t

end Region32

end Cert.KernelIdeal.Hand

end
-- ==== Proof.KI.R33.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.Regions
import Idealize.ShloMosaic.Lib.Tactic

/-! # Region 33: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region33
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk33 (c : Dev nD) (w : Fin cfg33.W) (t : Fin cfg33.N) : ((cfg33.win w).xblock (cfg33.grid.coords t)).Idx → Elt F (cfg33.win w).elt :=
  ((cfg33.win w).blk t).view.read (Elt F) (V c (Pipeline.arrRef spec33 w))

/-- The rows of X: the staging buffer the body is handed holds the block of the point, whether the
    point fetched it or not (an unfetched input has not moved its block index). -/
theorem before33_0_of {c : Dev nD} (dat : Dat τ (Elt F) Unit ℕ (UR sig nD τ) ℕ cfg33 c) (hA : dat.A 0 = V c (Pipeline.arrRef spec33 0))
    (hafter : ∀ t, dat.after 0 t = iblk33 V c 0 t) (t : Fin cfg33.N) (d) : dat.before 0 t d = iblk33 V c 0 t :=
  (dat.before_in_eq_fetched 0 rfl (fun _ => rfl) (fun _ _ _ => rfl) (fun t => by rw [hafter]; unfold Dat.blockOf iblk33; rw [hA]; try rfl) t d).trans
    (by unfold Dat.fetched Dat.blockOf iblk33; rw [hA]; try rfl)

/-- The matrix W: fetched at the first point only, and found in place at every later one. -/
theorem before33_1_of {c : Dev nD} (dat : Dat τ (Elt F) Unit ℕ (UR sig nD τ) ℕ cfg33 c) (hA : dat.A 1 = V c (Pipeline.arrRef spec33 1))
    (hafter : ∀ t, dat.after 1 t = iblk33 V c 1 t) (t : Fin cfg33.N) (d) : dat.before 1 t d = iblk33 V c 1 t :=
  (dat.before_in_eq_fetched 1 rfl (fun _ => rfl) (fun _ _ _ => rfl) (fun t => by rw [hafter]; unfold Dat.blockOf iblk33; rw [hA]; try rfl) t d).trans
    (by unfold Dat.fetched Dat.blockOf iblk33; rw [hA]; try rfl)

/-! ## The body's accesses: each buffer whole -/

noncomputable abbrev r33_0 : Rect S2000x64 := Rect.unit (s := S2000x64) ![0, 0] S2000x64.size inb_S2000x64_S2000x64_0_0
noncomputable abbrev r33_1 : Rect S64x64 := Rect.unit (s := S64x64) ![0, 0] S64x64.size inb_S64x64_S64x64_0_0
noncomputable abbrev r33_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out33_2 (x0 : Vec F S2000x64 .f32) (x1 : Vec F S64x64 .f32) : Vec F S2000x64 .f32 :=
  View.canon [⟨r33_2, k33_pay1 (View.ld x0 r33_0) (View.ld x1 r33_1)⟩]

/-- The store's rectangle is the whole buffer, so it covers every index. -/
theorem cover33_2 (p0 : Vec F S2000x64 .f32) (y : S2000x64.Idx) :
    ∃ pc ∈ ([⟨r33_2, p0⟩] : List (View.Piece (Elt F) S2000x64 .f32)), y ∈ pc.1.set :=
  View.cover_of_tiled [⟨r33_2, p0⟩] S2000x64.size (by rfl) y

/-! ## The body's triple -/

set_option maxHeartbeats 1000000 in
/-- On whole staging memrefs, the inputs' holding x0 and x1 and the output's holding anything, the body
    runs to a state where the inputs' are unchanged and the output's holds out33_2 x0 x1. The body also reads
    the output buffer before storing into it; the value read is not used. -/
theorem sound_kernel33 (c : Dev nD) (E : Set ℕ) (i : grid33.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out33_2 x0 x1)) -∗ K ⟨⟩))
      ⊢ wp frame (wpE (defs₀ (F := F)) Variants.none c none) E (cc33__linear_kernel i arg1 harg1 arg2 harg2 arg3 harg3) K := by
  simp only [cc33__linear_kernel_eq_skeleton]; unfold cc33__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover33_2 _)

/-! ## The pipeline's proof data -/

/-- The arrays as the region finds them; after the body at point t the inputs' buffers at their blocks
    and the output's at the product block; the invariant is the scoped rest and the generator register,
    untouched; nothing owed; full shares. -/
noncomputable def dat33 (c : Dev nD) : Dat τ (Elt F) Unit ℕ (UR sig nD τ) ℕ cfg33 c where
  A w := V c (Pipeline.arrRef spec33 w)
  after w t := match w with
    | ⟨0, _⟩ => iblk33 V c 0 t
    | ⟨1, _⟩ => iblk33 V c 1 t
    | ⟨2, _⟩ => out33_2 (iblk33 V c 0 t) (iblk33 V c 1 t)
  Φ _ := Pipeline.ΦA spec33 c
  q _ := fullShare
  owed _ := 0

theorem A_eq33 (c : Dev nD) (w : Fin cfg33.W) : (dat33 V c).A w = V c (Pipeline.arrRef spec33 w) := by
  dsimp only [dat33]

theorem after33_0 (c : Dev nD) (t : Fin cfg33.N) : (dat33 V c).after 0 t = iblk33 V c 0 t := by dsimp only [dat33]
theorem after33_1 (c : Dev nD) (t : Fin cfg33.N) : (dat33 V c).after 1 t = iblk33 V c 1 t := by dsimp only [dat33]
theorem after33_2 (c : Dev nD) (t : Fin cfg33.N) : (dat33 V c).after 2 t = out33_2 (iblk33 V c 0 t) (iblk33 V c 1 t) := by dsimp only [dat33]

theorem before33_0 (c : Dev nD) (t : Fin cfg33.N) (d) : (dat33 V c).before 0 t d = iblk33 V c 0 t :=
  before33_0_of V (dat33 V c) (A_eq33 V c 0) (after33_0 V c) t d
theorem before33_1 (c : Dev nD) (t : Fin cfg33.N) (d) : (dat33 V c).before 1 t d = iblk33 V c 1 t :=
  before33_1_of V (dat33 V c) (A_eq33 V c 1) (after33_1 V c) t d

/-! ## The body obligation, at a generic point -/

/-- What the body is called with at point t, window by window, -/
noncomputable def bodyPre33 (c : Dev nD) (t : Fin cfg33.N) : sProp 𝕄 :=
  iprop((dat33 V c).Φ t.castSucc ∗ (dat33 V c).owesAt () t.castSucc
    ∗ (∃ d, owns (c : Thread nD τ) (st33_0 t) fullShare ((dat33 V c).before 0 t d))
    ∗ (∃ d, owns (c : Thread nD τ) (st33_1 t) fullShare ((dat33 V c).before 1 t d))
    ∗ (∃ d, owns (c : Thread nD τ) (st33_2 t) fullShare ((dat33 V c).before 2 t d)))

/-- and what it returns. -/
noncomputable def bodyPost33 (c : Dev nD) (t : Fin cfg33.N) : sProp 𝕄 :=
  iprop((dat33 V c).Φ t.succ ∗ (dat33 V c).owesAt () t.succ
    ∗ owns (c : Thread nD τ) (st33_0 t) fullShare ((dat33 V c).after 0 t)
    ∗ owns (c : Thread nD τ) (st33_1 t) fullShare ((dat33 V c).after 1 t)
    ∗ owns (c : Thread nD τ) (st33_2 t) fullShare ((dat33 V c).after 2 t))

/-- The inputs' memrefs hold their blocks, so the body's triple applies; the invariant and what the core
    owes pass through unread. -/
theorem sound_body33 (c : Dev nD) (t : Fin cfg33.N) :
    bodyPre33 V c t ⊢ wp frame (wpE (defs₀ (F := F)) Variants.none c none) Set.univ (bodyAt33 t) (fun _ => bodyPost33 V c t) := by
  unfold bodyPre33 bodyPost33 bodyAt33
  simp only [before33_0, before33_1]
  rw [show (dat33 V c).Φ t.succ = (dat33 V c).Φ t.castSucc from rfl,
    show (dat33 V c).owesAt () t.succ = (dat33 V c).owesAt () t.castSucc from rfl,
    after33_0, after33_1, after33_2]
  iintro ⟨HΦ, Ho, ⟨%d0, H0⟩, ⟨%d1, H1⟩, ⟨%d2, H2⟩⟩
  iapply (sound_kernel33 c Set.univ (grid33.coords t) _ _ _ _ _ _ (iblk33 V c 0 t) (iblk33 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation33 (c : Dev nD) : BodyObligation (dat33 (F := F) V c) (defs₀ (F := F)) Variants.none () Set.univ := fun t => by
  rw [bigSep_W33, bigSep_W33]
  exact sound_body33 V c t

end Region33

end Cert.KernelIdeal.Hand

end
-- ==== Proof.KI.R34.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.R14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The kernel is region 14's

The two regions' printed kernel functions are the same function of the grid coordinate and the memrefs (the same
text over the same shapes; the grids and the last-point conditions are the same literals), so region 14's runs of the
body, its covers and its per-case contents — all stated over abstract coordinates and memrefs — serve this region. -/

theorem cc34_kernel_eq : cc34_kernel (F := F) = cc14_kernel (F := F) := rfl

/-! ## The windows' blocks -/

/-- Window `w`'s block at point `t`, read off its array as the region finds it (`V`). -/
noncomputable def iblk34 (c : Dev nD) (w : Fin cfg34.W) (t : Fin cfg34.N) : ((cfg34.win w).xblock (cfg34.grid.coords t)).Idx → Elt F (cfg34.win w).elt :=
  ((cfg34.win w).blk t).view.read (Elt F) (V c (Pipeline.arrRef spec34 w))

/-- Input window 0's current staging buffer holds its block at every point, for any proof data whose array is
    `V`'s and whose body leaves the block in place: the window is uncut and never idle. -/
theorem before34_0_of {c : Dev nD} (dat : Dat τ (Elt F) Unit ℕ (UR sig nD τ) ℕ cfg34 c) (hA : dat.A 0 = V c (Pipeline.arrRef spec34 0))
    (hafter : ∀ t, dat.after 0 t = iblk34 V c 0 t) (t : Fin cfg34.N) (d) : dat.before 0 t d = iblk34 V c 0 t :=
  (dat.before_in_eq_fetched 0 rfl (fun _ => rfl) (fun _ _ _ => rfl) (fun t => by rw [hafter]; unfold Dat.blockOf iblk34; rw [hA]; try rfl) t d).trans
    (by unfold Dat.fetched Dat.blockOf iblk34; rw [hA]; try rfl)

/-- Input window 1 likewise: fetched at the first point only, its block index never moves, so the buffer holds
    the block at every point. -/
theorem before34_1_of {c : Dev nD} (dat : Dat τ (Elt F) Unit ℕ (UR sig nD τ) ℕ cfg34 c) (hA : dat.A 1 = V c (Pipeline.arrRef spec34 1))
    (hafter : ∀ t, dat.after 1 t = iblk34 V c 1 t) (t : Fin cfg34.N) (d) : dat.before 1 t d = iblk34 V c 1 t :=
  (dat.before_in_eq_fetched 1 rfl (fun _ => rfl) (fun _ _ _ => rfl) (fun t => by rw [hafter]; unfold Dat.blockOf iblk34; rw [hA]; try rfl) t d).trans
    (by unfold Dat.fetched Dat.blockOf iblk34; rw [hA]; try rfl)

/-- Input window 2 likewise. -/
theorem before34_2_of {c : Dev nD} (dat : Dat τ (Elt F) Unit ℕ (UR sig nD τ) ℕ cfg34 c) (hA : dat.A 2 = V c (Pipeline.arrRef spec34 2))
    (hafter : ∀ t, dat.after 2 t = iblk34 V c 2 t) (t : Fin cfg34.N) (d) : dat.before 2 t d = iblk34 V c 2 t :=
  (dat.before_in_eq_fetched 2 rfl (fun _ => rfl) (fun _ _ _ => rfl) (fun t => by rw [hafter]; unfold Dat.blockOf iblk34; rw [hA]; try rfl) t d).trans
    (by unfold Dat.fetched Dat.blockOf iblk34; rw [hA]; try rfl)

/-! ## The body's two conditions on the grid coordinate -/

/-- It holds at the first point only. -/
theorem hcond34_0 : ∀ t : Fin cfg34.N, cond14_0 (grid34.coords t) ↔ t.val % 25 = 0 :=
  (by decide +kernel : ∀ t : Fin grid34.N, cond14_0 (grid34.coords t) ↔ t.val % 25 = 0)

/-- It holds at the last point only. -/
theorem hcond34_1 : ∀ t : Fin cfg34.N, cond14_1 (grid34.coords t) ↔ t.val % 25 = 24 :=
  (by decide +kernel : ∀ t : Fin grid34.N, cond14_1 (grid34.coords t) ↔ t.val % 25 = 24)

/-! ## Where the windows are idle -/

theorem liveAt34_0 : ∀ t : Fin cfg34.N, cfg34.idle 0 (grid34.coords t) = false := by decide +kernel
theorem liveAt34_1 : ∀ t : Fin cfg34.N, cfg34.idle 1 (grid34.coords t) = false := by decide +kernel
theorem liveAt34_2 : ∀ t : Fin cfg34.N, cfg34.idle 2 (grid34.coords t) = false := by decide +kernel
theorem liveAt34_3 : ∀ t : Fin cfg34.N, cfg34.idle 3 (grid34.coords t) = false := by decide +kernel
theorem liveAt34_4 : ∀ t : Fin cfg34.N, cfg34.idle 4 (grid34.coords t) = false := by decide +kernel
/-- At the first point the body stores nothing into output 5: the window is idle there and not written back. -/
theorem idleAt34_5_A : ∀ t : Fin cfg34.N, cond14_0 (grid34.coords t) → ¬cond14_1 (grid34.coords t) → cfg34.idle 5 (grid34.coords t) = true := by decide +kernel
theorem noFlush34_5_A : ∀ t : Fin cfg34.N, cond14_0 (grid34.coords t) → ¬cond14_1 (grid34.coords t) → (cfg34.win 5).flush t = false := by decide +kernel
/-- Nor at the middle points. -/
theorem idleAt34_5_B : ∀ t : Fin cfg34.N, ¬cond14_0 (grid34.coords t) → ¬cond14_1 (grid34.coords t) → cfg34.idle 5 (grid34.coords t) = true := by decide +kernel
theorem noFlush34_5_B : ∀ t : Fin cfg34.N, ¬cond14_0 (grid34.coords t) → ¬cond14_1 (grid34.coords t) → (cfg34.win 5).flush t = false := by decide +kernel
/-- At the last point it stores the accumulated sums there: the window is live. -/
theorem liveAt34_5_C : ∀ t : Fin cfg34.N, ¬cond14_0 (grid34.coords t) → cond14_1 (grid34.coords t) → cfg34.idle 5 (grid34.coords t) = false := by decide +kernel

/-! ## The memrefs the body is called with -/

/-- Each window's current staging memref at point `t`, as the pipeline passes it, and its wholeness. -/
noncomputable abbrev ms34_0 (t : Fin cfg34.N) : Memref sig .tc .vmem S2000x64 .f32 := win34_0.stage (cfg34.slots t 0)
abbrev hs34_0 (t : Fin cfg34.N) : (ms34_0 t).IsWhole := hstage34_0 ((cfg34.slots t 0).cast nbuf34_0)
noncomputable abbrev ms34_1 (t : Fin cfg34.N) : Memref sig .tc .vmem S1x64 .f32 := win34_1.stage (cfg34.slots t 1)
abbrev hs34_1 (t : Fin cfg34.N) : (ms34_1 t).IsWhole := hstage34_1 ((cfg34.slots t 1).cast nbuf34_1)
noncomputable abbrev ms34_2 (t : Fin cfg34.N) : Memref sig .tc .vmem S2000x64 .f32 := win34_2.stage (cfg34.slots t 2)
abbrev hs34_2 (t : Fin cfg34.N) : (ms34_2 t).IsWhole := hstage34_2 ((cfg34.slots t 2).cast nbuf34_2)
noncomputable abbrev ms34_3 (t : Fin cfg34.N) : Memref sig .tc .vmem S2000x64 .f32 := win34_3.stage (cfg34.slots t 3)
abbrev hs34_3 (t : Fin cfg34.N) : (ms34_3 t).IsWhole := hstage34_3 ((cfg34.slots t 3).cast nbuf34_3)
noncomputable abbrev ms34_4 (t : Fin cfg34.N) : Memref sig .tc .vmem S2000x64 .f32 := win34_4.stage (cfg34.slots t 4)
abbrev hs34_4 (t : Fin cfg34.N) : (ms34_4 t).IsWhole := hstage34_4 ((cfg34.slots t 4).cast nbuf34_4)
noncomputable abbrev ms34_5 (t : Fin cfg34.N) : Memref sig .tc .vmem S1x64 .f32 := win34_5.stage (cfg34.slots t 5)
abbrev hs34_5 (t : Fin cfg34.N) : (ms34_5 t).IsWhole := hstage34_5 ((cfg34.slots t 5).cast nbuf34_5)
/-- The scratch operand: a whole scoped buffer of the kernel's own, in which the column sums accumulate. -/
noncomputable abbrev scM34_0 : Memref sig .tc .vmem S1x64 .f32 := Memref.whole cc34_scratch0

/-- The other scoped buffers (every other call's staging buffers and scratch), unopened. -/
noncomputable abbrev restBut34 (c : Dev nD) : sProp 𝕄 :=
  Pipeline.scopedRestBut (Ix := Unit) (Name := ℕ) (U := UR sig nD τ) (Lvl := ℕ) (Val := Elt F) spec34 c [cc34_scratch0]

/-- The region's invariant as the launch hands it over, with the scratch operand split out as a memref owned at
    some contents: what the body obligation hands the run and takes back. -/
theorem PhiA34_eq (c : Dev nD) :
    (Pipeline.ΦA spec34 c : sProp 𝕄)
      = iprop(iprop(iprop((∃ d, owns (c : Thread nD τ) scM34_0 fullShare d)) ∗ restBut34 (F := F) c) ∗ (∃ r, prngReg c r)) := by
  unfold Pipeline.ΦA; rw [scopedRest34_split]; simp only [scM34_0, owns_whole]; try rfl

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt34 (c : Dev nD) : (n : ℕ) → n < cfg34.N → Vec F S2000x64 .f32 × Vec F S2000x64 .f32 × Vec F S1x64 .f32 × Vec F S1x64 .f32
  | 0, hn => (out14_A_3 c (grid34.coords ⟨0, hn⟩) (ms34_0 ⟨0, hn⟩) (hs34_0 ⟨0, hn⟩) (ms34_1 ⟨0, hn⟩) (hs34_1 ⟨0, hn⟩) (ms34_2 ⟨0, hn⟩) (hs34_2 ⟨0, hn⟩) (ms34_3 ⟨0, hn⟩) (hs34_3 ⟨0, hn⟩) (ms34_4 ⟨0, hn⟩) (hs34_4 ⟨0, hn⟩) (ms34_5 ⟨0, hn⟩) (hs34_5 ⟨0, hn⟩) scM34_0 (Memref.isWhole_whole _) ((hcond34_0 ⟨0, hn⟩).mpr (Nat.zero_mod _)) (fun h => (fun h => by (try dsimp only at h); omega) ((hcond34_1 ⟨0, hn⟩).mp h)) (iblk34 V c 0 ⟨0, hn⟩) (iblk34 V c 1 ⟨0, hn⟩) (iblk34 V c 2 ⟨0, hn⟩), out14_A_4 c (grid34.coords ⟨0, hn⟩) (ms34_0 ⟨0, hn⟩) (hs34_0 ⟨0, hn⟩) (ms34_1 ⟨0, hn⟩) (hs34_1 ⟨0, hn⟩) (ms34_2 ⟨0, hn⟩) (hs34_2 ⟨0, hn⟩) (ms34_3 ⟨0, hn⟩) (hs34_3 ⟨0, hn⟩) (ms34_4 ⟨0, hn⟩) (hs34_4 ⟨0, hn⟩) (ms34_5 ⟨0, hn⟩) (hs34_5 ⟨0, hn⟩) scM34_0 (Memref.isWhole_whole _) ((hcond34_0 ⟨0, hn⟩).mpr (Nat.zero_mod _)) (fun h => (fun h => by (try dsimp only at h); omega) ((hcond34_1 ⟨0, hn⟩).mp h)) (iblk34 V c 0 ⟨0, hn⟩) (iblk34 V c 1 ⟨0, hn⟩) (iblk34 V c 2 ⟨0, hn⟩), out14_A_5 c (grid34.coords ⟨0, hn⟩) (ms34_0 ⟨0, hn⟩) (hs34_0 ⟨0, hn⟩) (ms34_1 ⟨0, hn⟩) (hs34_1 ⟨0, hn⟩) (ms34_2 ⟨0, hn⟩) (hs34_2 ⟨0, hn⟩) (ms34_3 ⟨0, hn⟩) (hs34_3 ⟨0, hn⟩) (ms34_4 ⟨0, hn⟩) (hs34_4 ⟨0, hn⟩) (ms34_5 ⟨0, hn⟩) (hs34_5 ⟨0, hn⟩) scM34_0 (Memref.isWhole_whole _) ((hcond34_0 ⟨0, hn⟩).mpr (Nat.zero_mod _)) (fun h => (fun h => by (try dsimp only at h); omega) ((hcond34_1 ⟨0, hn⟩).mp h)) (iblk34 V c 0 ⟨0, hn⟩) (iblk34 V c 1 ⟨0, hn⟩) (iblk34 V c 2 ⟨0, hn⟩), sout14_A_0 c (grid34.coords ⟨0, hn⟩) (ms34_0 ⟨0, hn⟩) (hs34_0 ⟨0, hn⟩) (ms34_1 ⟨0, hn⟩) (hs34_1 ⟨0, hn⟩) (ms34_2 ⟨0, hn⟩) (hs34_2 ⟨0, hn⟩) (ms34_3 ⟨0, hn⟩) (hs34_3 ⟨0, hn⟩) (ms34_4 ⟨0, hn⟩) (hs34_4 ⟨0, hn⟩) (ms34_5 ⟨0, hn⟩) (hs34_5 ⟨0, hn⟩) scM34_0 (Memref.isWhole_whole _) ((hcond34_0 ⟨0, hn⟩).mpr (Nat.zero_mod _)) (fun h => (fun h => by (try dsimp only at h); omega) ((hcond34_1 ⟨0, hn⟩).mp h)) (iblk34 V c 0 ⟨0, hn⟩) (iblk34 V c 1 ⟨0, hn⟩) (iblk34 V c 2 ⟨0, hn⟩))
  | n + 1, hn =>
    if h0 : (n + 1) % 25 = 0 then
      if h1 : (n + 1) % 25 = 24 then
        False.elim (by omega)
      else
        (out14_A_3 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) ((hcond34_0 ⟨n + 1, hn⟩).mpr h0) (fun h => h1 ((hcond34_1 ⟨n + 1, hn⟩).mp h)) (iblk34 V c 0 ⟨n + 1, hn⟩) (iblk34 V c 1 ⟨n + 1, hn⟩) (iblk34 V c 2 ⟨n + 1, hn⟩), out14_A_4 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) ((hcond34_0 ⟨n + 1, hn⟩).mpr h0) (fun h => h1 ((hcond34_1 ⟨n + 1, hn⟩).mp h)) (iblk34 V c 0 ⟨n + 1, hn⟩) (iblk34 V c 1 ⟨n + 1, hn⟩) (iblk34 V c 2 ⟨n + 1, hn⟩), out14_A_5 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) ((hcond34_0 ⟨n + 1, hn⟩).mpr h0) (fun h => h1 ((hcond34_1 ⟨n + 1, hn⟩).mp h)) (iblk34 V c 0 ⟨n + 1, hn⟩) (iblk34 V c 1 ⟨n + 1, hn⟩) (iblk34 V c 2 ⟨n + 1, hn⟩), sout14_A_0 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) ((hcond34_0 ⟨n + 1, hn⟩).mpr h0) (fun h => h1 ((hcond34_1 ⟨n + 1, hn⟩).mp h)) (iblk34 V c 0 ⟨n + 1, hn⟩) (iblk34 V c 1 ⟨n + 1, hn⟩) (iblk34 V c 2 ⟨n + 1, hn⟩))
    else
      if h1 : (n + 1) % 25 = 24 then
        (out14_C_3 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) ((hcond34_1 ⟨n + 1, hn⟩).mpr h1) (iblk34 V c 0 ⟨n + 1, hn⟩) (iblk34 V c 1 ⟨n + 1, hn⟩) (iblk34 V c 2 ⟨n + 1, hn⟩) (outsAt34 c n (Nat.lt_of_succ_lt hn)).2.2.2, out14_C_4 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) ((hcond34_1 ⟨n + 1, hn⟩).mpr h1) (iblk34 V c 0 ⟨n + 1, hn⟩) (iblk34 V c 1 ⟨n + 1, hn⟩) (iblk34 V c 2 ⟨n + 1, hn⟩) (outsAt34 c n (Nat.lt_of_succ_lt hn)).2.2.2, out14_C_5 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) ((hcond34_1 ⟨n + 1, hn⟩).mpr h1) (iblk34 V c 0 ⟨n + 1, hn⟩) (iblk34 V c 1 ⟨n + 1, hn⟩) (iblk34 V c 2 ⟨n + 1, hn⟩) (outsAt34 c n (Nat.lt_of_succ_lt hn)).2.2.2, sout14_C_0 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) ((hcond34_1 ⟨n + 1, hn⟩).mpr h1) (iblk34 V c 0 ⟨n + 1, hn⟩) (iblk34 V c 1 ⟨n + 1, hn⟩) (iblk34 V c 2 ⟨n + 1, hn⟩) (outsAt34 c n (Nat.lt_of_succ_lt hn)).2.2.2)
      else
        (out14_B_3 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) (fun h => h1 ((hcond34_1 ⟨n + 1, hn⟩).mp h)) (iblk34 V c 0 ⟨n + 1, hn⟩) (iblk34 V c 1 ⟨n + 1, hn⟩) (iblk34 V c 2 ⟨n + 1, hn⟩) (outsAt34 c n (Nat.lt_of_succ_lt hn)).2.2.2, out14_B_4 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) (fun h => h1 ((hcond34_1 ⟨n + 1, hn⟩).mp h)) (iblk34 V c 0 ⟨n + 1, hn⟩) (iblk34 V c 1 ⟨n + 1, hn⟩) (iblk34 V c 2 ⟨n + 1, hn⟩) (outsAt34 c n (Nat.lt_of_succ_lt hn)).2.2.2, out14_B_5 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) (fun h => h1 ((hcond34_1 ⟨n + 1, hn⟩).mp h)) (iblk34 V c 0 ⟨n + 1, hn⟩) (iblk34 V c 1 ⟨n + 1, hn⟩) (iblk34 V c 2 ⟨n + 1, hn⟩) (outsAt34 c n (Nat.lt_of_succ_lt hn)).2.2.2, sout14_B_0 c (grid34.coords ⟨n + 1, hn⟩) (ms34_0 ⟨n + 1, hn⟩) (hs34_0 ⟨n + 1, hn⟩) (ms34_1 ⟨n + 1, hn⟩) (hs34_1 ⟨n + 1, hn⟩) (ms34_2 ⟨n + 1, hn⟩) (hs34_2 ⟨n + 1, hn⟩) (ms34_3 ⟨n + 1, hn⟩) (hs34_3 ⟨n + 1, hn⟩) (ms34_4 ⟨n + 1, hn⟩) (hs34_4 ⟨n + 1, hn⟩) (ms34_5 ⟨n + 1, hn⟩) (hs34_5 ⟨n + 1, hn⟩) scM34_0 (Memref.isWhole_whole _) (fun h => h0 ((hcond34_0 ⟨n + 1, hn⟩).mp h)) (fun h => h1 ((hcond34_1 ⟨n + 1, hn⟩).mp h)) (iblk34 V c 0 ⟨n + 1, hn⟩) (iblk34 V c 1 ⟨n + 1, hn⟩) (iblk34 V c 2 ⟨n + 1, hn⟩) (outsAt34 c n (Nat.lt_of_succ_lt hn)).2.2.2)

/-- `outsAt34` at the first point: case A's contents. -/
theorem outsAt34_A (c : Dev nD) (t : Fin cfg34.N) (h0 : t.val % 25 = 0) (h1 : ¬t.val % 25 = 24) :
    outsAt34 V c t.val t.isLt = (out14_A_3 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) ((hcond34_0 t).mpr h0) (fun h => h1 ((hcond34_1 t).mp h)) (iblk34 V c 0 t) (iblk34 V c 1 t) (iblk34 V c 2 t), out14_A_4 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) ((hcond34_0 t).mpr h0) (fun h => h1 ((hcond34_1 t).mp h)) (iblk34 V c 0 t) (iblk34 V c 1 t) (iblk34 V c 2 t), out14_A_5 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) ((hcond34_0 t).mpr h0) (fun h => h1 ((hcond34_1 t).mp h)) (iblk34 V c 0 t) (iblk34 V c 1 t) (iblk34 V c 2 t), sout14_A_0 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) ((hcond34_0 t).mpr h0) (fun h => h1 ((hcond34_1 t).mp h)) (iblk34 V c 0 t) (iblk34 V c 1 t) (iblk34 V c 2 t)) := by
  obtain ⟨n, hn⟩ := t
  cases n with
  | zero => exact rfl
  | succ n => exact (dif_pos h0).trans ((dif_neg h1).trans rfl)

/-- `outsAt34` at a middle point: case B's contents, over what the point before left in the scratch. -/
theorem outsAt34_B (c : Dev nD) (t : Fin cfg34.N) (h0 : ¬t.val % 25 = 0) (h1 : ¬t.val % 25 = 24) :
    outsAt34 V c t.val t.isLt = (out14_B_3 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) (fun h => h1 ((hcond34_1 t).mp h)) (iblk34 V c 0 t) (iblk34 V c 1 t) (iblk34 V c 2 t) (outsAt34 V c (t.val - 1) (Nat.lt_of_le_of_lt (Nat.sub_le _ _) t.isLt)).2.2.2, out14_B_4 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) (fun h => h1 ((hcond34_1 t).mp h)) (iblk34 V c 0 t) (iblk34 V c 1 t) (iblk34 V c 2 t) (outsAt34 V c (t.val - 1) (Nat.lt_of_le_of_lt (Nat.sub_le _ _) t.isLt)).2.2.2, out14_B_5 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) (fun h => h1 ((hcond34_1 t).mp h)) (iblk34 V c 0 t) (iblk34 V c 1 t) (iblk34 V c 2 t) (outsAt34 V c (t.val - 1) (Nat.lt_of_le_of_lt (Nat.sub_le _ _) t.isLt)).2.2.2, sout14_B_0 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) (fun h => h1 ((hcond34_1 t).mp h)) (iblk34 V c 0 t) (iblk34 V c 1 t) (iblk34 V c 2 t) (outsAt34 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt34` at the last point: case C's contents, over what the point before left in the scratch. -/
theorem outsAt34_C (c : Dev nD) (t : Fin cfg34.N) (h0 : ¬t.val % 25 = 0) (h1 : t.val % 25 = 24) :
    outsAt34 V c t.val t.isLt = (out14_C_3 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) ((hcond34_1 t).mpr h1) (iblk34 V c 0 t) (iblk34 V c 1 t) (iblk34 V c 2 t) (outsAt34 V c (t.val - 1) (Nat.lt_of_le_of_lt (Nat.sub_le _ _) t.isLt)).2.2.2, out14_C_4 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) ((hcond34_1 t).mpr h1) (iblk34 V c 0 t) (iblk34 V c 1 t) (iblk34 V c 2 t) (outsAt34 V c (t.val - 1) (Nat.lt_of_le_of_lt (Nat.sub_le _ _) t.isLt)).2.2.2, out14_C_5 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) ((hcond34_1 t).mpr h1) (iblk34 V c 0 t) (iblk34 V c 1 t) (iblk34 V c 2 t) (outsAt34 V c (t.val - 1) (Nat.lt_of_le_of_lt (Nat.sub_le _ _) t.isLt)).2.2.2, sout14_C_0 c (grid34.coords t) (ms34_0 t) (hs34_0 t) (ms34_1 t) (hs34_1 t) (ms34_2 t) (hs34_2 t) (ms34_3 t) (hs34_3 t) (ms34_4 t) (hs34_4 t) (ms34_5 t) (hs34_5 t) scM34_0 (Memref.isWhole_whole _) (fun h => h0 ((hcond34_0 t).mp h)) ((hcond34_1 t).mpr h1) (iblk34 V c 0 t) (iblk34 V c 1 t) (iblk34 V c 2 t) (outsAt34 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt34`'s last component), the other
    scoped buffers unopened and the generator register at some state. -/
noncomputable def PhiS34 (c : Dev nD) : (n : ℕ) → n ≤ cfg34.N → sProp 𝕄
  | 0, _ => Pipeline.ΦA spec34 c
  | n + 1, hn => iprop(iprop(iprop(owns (c : Thread nD τ) scM34_0 fullShare ((outsAt34 V c n hn).2.2.2)) ∗ restBut34 (F := F) c) ∗ (∃ r, prngReg c r))

theorem PhiS34_zero (c : Dev nD) (n : ℕ) (h : n ≤ cfg34.N) (hz : n = 0) : PhiS34 V c n h = Pipeline.ΦA spec34 c := by
  subst hz; rfl

/-- After point `n` (before point `n + 1`): the scratch at that point's contents. -/
theorem PhiS34_succ (c : Dev nD) (n : ℕ) (hn : n < cfg34.N) :
    PhiS34 V c (n + 1) hn = iprop(iprop(iprop(owns (c : Thread nD τ) scM34_0 fullShare ((outsAt34 V c n hn).2.2.2)) ∗ restBut34 (F := F) c) ∗ (∃ r, prngReg c r)) := rfl

/-- Before a point that is not the first: the scratch at what the point before left. -/
theorem PhiS34_pos (c : Dev nD) (n : ℕ) (h : n ≤ cfg34.N) (hz : n ≠ 0) :
    PhiS34 V c n h = iprop(iprop(iprop(owns (c : Thread nD τ) scM34_0 fullShare ((outsAt34 V c (n - 1) (by omega)).2.2.2)) ∗ restBut34 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt34`; the invariant `PhiS34`; nothing owed;
    full shares. -/
noncomputable def dat34 (c : Dev nD) : Dat τ (Elt F) Unit ℕ (UR sig nD τ) ℕ cfg34 c where
  A w := V c (Pipeline.arrRef spec34 w)
  after w t := match w with
    | ⟨0, _⟩ => iblk34 V c 0 t
    | ⟨1, _⟩ => iblk34 V c 1 t
    | ⟨2, _⟩ => iblk34 V c 2 t
    | ⟨3, _⟩ => (outsAt34 V c t.val t.isLt).1
    | ⟨4, _⟩ => (outsAt34 V c t.val t.isLt).2.1
    | ⟨5, _⟩ => (outsAt34 V c t.val t.isLt).2.2.1
  Φ t := PhiS34 V c t.val (Nat.le_of_lt_succ t.isLt)
  q _ := fullShare
  owed _ := 0

/-- The proof data's arrays are the region-entry contents. -/
theorem A_eq34 (c : Dev nD) (w : Fin cfg34.W) : (dat34 V c).A w = V c (Pipeline.arrRef spec34 w) := by
  dsimp only [dat34]

/-- The invariant at a point's start, restated at `t.val`. -/
theorem PhiS34_castSucc (c : Dev nD) (t : Fin cfg34.N) :
    (dat34 V c).Φ t.castSucc = PhiS34 V c t.val (Nat.le_of_lt t.isLt) := by
  dsimp only [dat34]; simp only [Fin.coe_castSucc]

/-- What the body leaves, window by window. -/
theorem after34_0 (c : Dev nD) (t : Fin cfg34.N) : (dat34 V c).after 0 t = iblk34 V c 0 t := by dsimp only [dat34]
theorem after34_1 (c : Dev nD) (t : Fin cfg34.N) : (dat34 V c).after 1 t = iblk34 V c 1 t := by dsimp only [dat34]
theorem after34_2 (c : Dev nD) (t : Fin cfg34.N) : (dat34 V c).after 2 t = iblk34 V c 2 t := by dsimp only [dat34]
theorem after34_3 (c : Dev nD) (t : Fin cfg34.N) : (dat34 V c).after 3 t = (outsAt34 V c t.val t.isLt).1 := by dsimp only [dat34]
theorem after34_4 (c : Dev nD) (t : Fin cfg34.N) : (dat34 V c).after 4 t = (outsAt34 V c t.val t.isLt).2.1 := by dsimp only [dat34]
theorem after34_5 (c : Dev nD) (t : Fin cfg34.N) : (dat34 V c).after 5 t = (outsAt34 V c t.val t.isLt).2.2.1 := by dsimp only [dat34]

/-- Each input's current staging buffer holds its block at every point, fetched there or not. -/
theorem before34_0 (c : Dev nD) (t : Fin cfg34.N) (d) : (dat34 V c).before 0 t d = iblk34 V c 0 t :=
  before34_0_of V (dat34 V c) (A_eq34 V c 0) (after34_0 V c) t d
theorem before34_1 (c : Dev nD) (t : Fin cfg34.N) (d) : (dat34 V c).before 1 t d = iblk34 V c 1 t :=
  before34_1_of V (dat34 V c) (A_eq34 V c 1) (after34_1 V c) t d
theorem before34_2 (c : Dev nD) (t : Fin cfg34.N) (d) : (dat34 V c).before 2 t d = iblk34 V c 2 t :=
  before34_2_of V (dat34 V c) (A_eq34 V c 2) (after34_2 V c) t d

/-! ## The body obligation, at a generic point -/

/-- What the body is called with at point `t` (the windows one by one), -/
noncomputable def bodyPre34 (c : Dev nD) (t : Fin cfg34.N) : sProp 𝕄 :=
  iprop((dat34 V c).Φ t.castSucc ∗ (dat34 V c).owesAt () t.castSucc
    ∗ (∃ d, owns (c : Thread nD τ) (ms34_0 t) fullShare ((dat34 V c).before 0 t d))
    ∗ (∃ d, owns (c : Thread nD τ) (ms34_1 t) fullShare ((dat34 V c).before 1 t d))
    ∗ (∃ d, owns (c : Thread nD τ) (ms34_2 t) fullShare ((dat34 V c).before 2 t d))
    ∗ (∃ d, owns (c : Thread nD τ) (ms34_3 t) fullShare ((dat34 V c).before 3 t d))
    ∗ (∃ d, owns (c : Thread nD τ) (ms34_4 t) fullShare ((dat34 V c).before 4 t d))
    ∗ (∃ d, owns (c : Thread nD τ) (ms34_5 t) fullShare ((dat34 V c).before 5 t d)))

/-- and what it returns. -/
noncomputable def bodyPost34 (c : Dev nD) (t : Fin cfg34.N) : sProp 𝕄 :=
  iprop((dat34 V c).Φ t.succ ∗ (dat34 V c).owesAt () t.succ
    ∗ (dat34 V c).leavesExact 0 t
    ∗ (dat34 V c).leavesExact 1 t
    ∗ (dat34 V c).leavesExact 2 t
    ∗ (dat34 V c).leavesExact 3 t
    ∗ (dat34 V c).leavesExact 4 t
    ∗ (dat34 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body34 (c : Dev nD) (t : Fin cfg34.N) :
    bodyPre34 V c t ⊢ wp frame (wpE (defs₀ (F := F)) Variants.none c none) Set.univ (bodyAt34 t) (fun _ => bodyPost34 V c t) := by
  unfold bodyPre34 bodyPost34 bodyAt34
  rw [cc34_kernel_eq]
  simp only [before34_0, before34_1, before34_2]
  rw [show (dat34 V c).owesAt () t.succ = (dat34 V c).owesAt () t.castSucc from rfl]
  rw [show (dat34 V c).Φ t.succ = PhiS34 V c (t.val + 1) t.isLt from rfl, PhiS34_succ]
  have hN : t.val < 25 := lt_of_lt_of_eq t.isLt (show cfg34.N = 25 from N_34)
  by_cases h0 : t.val % 25 = 0
  · by_cases h1 : t.val % 25 = 24
    · exfalso; omega
    · rw [show (dat34 V c).leavesExact 0 t = owns (c : Thread nD τ) (ms34_0 t) fullShare ((dat34 V c).after 0 t) from by
        unfold Dat.leavesExact; rw [liveAt34_0 t], after34_0]
      rw [show (dat34 V c).leavesExact 1 t = owns (c : Thread nD τ) (ms34_1 t) fullShare ((dat34 V c).after 1 t) from by
        unfold Dat.leavesExact; rw [liveAt34_1 t], after34_1]
      rw [show (dat34 V c).leavesExact 2 t = owns (c : Thread nD τ) (ms34_2 t) fullShare ((dat34 V c).after 2 t) from by
        unfold Dat.leavesExact; rw [liveAt34_2 t], after34_2]
      rw [show (dat34 V c).leavesExact 3 t = owns (c : Thread nD τ) (ms34_3 t) fullShare ((dat34 V c).after 3 t) from by
        unfold Dat.leavesExact; rw [liveAt34_3 t], after34_3]
      rw [show (dat34 V c).leavesExact 4 t = owns (c : Thread nD τ) (ms34_4 t) fullShare ((dat34 V c).after 4 t) from by
        unfold Dat.leavesExact; rw [liveAt34_4 t], after34_4]
      rw [Dat.leavesExact_idle (dat34 V c) 5 t (idleAt34_5_A t ((hcond34_0 t).mpr h0) (fun h => h1 ((hcond34_1 t).mp h))) (noFlush34_5_A t ((hcond34_0 t).mpr h0) (fun h => h1 ((hcond34_1 t).mp h)))]
      rw [outsAt34_A V c t h0 h1]
      unfold out14_A_3 out14_A_4 sout14_A_0; (try dsimp only)
      by_cases hz : t.val = 0
      · rw [PhiS34_castSucc V c t, PhiS34_zero V c _ _ hz, PhiA34_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid34.coords t) _ _ _ _ _ _ _ _ _ _ _ _ _ _ ((hcond34_0 t).mpr h0) (fun h => h1 ((hcond34_1 t).mp h)) (iblk34 V c 0 t) (iblk34 V c 1 t) (iblk34 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat34 V c).leavesExact 0 t = owns (c : Thread nD τ) (ms34_0 t) fullShare ((dat34 V c).after 0 t) from by
        unfold Dat.leavesExact; rw [liveAt34_0 t], after34_0]
      rw [show (dat34 V c).leavesExact 1 t = owns (c : Thread nD τ) (ms34_1 t) fullShare ((dat34 V c).after 1 t) from by
        unfold Dat.leavesExact; rw [liveAt34_1 t], after34_1]
      rw [show (dat34 V c).leavesExact 2 t = owns (c : Thread nD τ) (ms34_2 t) fullShare ((dat34 V c).after 2 t) from by
        unfold Dat.leavesExact; rw [liveAt34_2 t], after34_2]
      rw [show (dat34 V c).leavesExact 3 t = owns (c : Thread nD τ) (ms34_3 t) fullShare ((dat34 V c).after 3 t) from by
        unfold Dat.leavesExact; rw [liveAt34_3 t], after34_3]
      rw [show (dat34 V c).leavesExact 4 t = owns (c : Thread nD τ) (ms34_4 t) fullShare ((dat34 V c).after 4 t) from by
        unfold Dat.leavesExact; rw [liveAt34_4 t], after34_4]
      rw [show (dat34 V c).leavesExact 5 t = owns (c : Thread nD τ) (ms34_5 t) fullShare ((dat34 V c).after 5 t) from by
        unfold Dat.leavesExact; rw [liveAt34_5_C t (fun h => h0 ((hcond34_0 t).mp h)) ((hcond34_1 t).mpr h1)], after34_5]
      rw [outsAt34_C V c t h0 h1]
      unfold out14_C_3 out14_C_4 out14_C_5 sout14_C_0; (try dsimp only)
      by_cases hz : t.val = 0
      · exfalso; omega
      · rw [PhiS34_castSucc V c t, PhiS34_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid34.coords t) _ _ _ _ _ _ _ _ _ _ _ _ _ _ (fun h => h0 ((hcond34_0 t).mp h)) ((hcond34_1 t).mpr h1) (iblk34 V c 0 t) (iblk34 V c 1 t) (iblk34 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat34 V c).leavesExact 0 t = owns (c : Thread nD τ) (ms34_0 t) fullShare ((dat34 V c).after 0 t) from by
        unfold Dat.leavesExact; rw [liveAt34_0 t], after34_0]
      rw [show (dat34 V c).leavesExact 1 t = owns (c : Thread nD τ) (ms34_1 t) fullShare ((dat34 V c).after 1 t) from by
        unfold Dat.leavesExact; rw [liveAt34_1 t], after34_1]
      rw [show (dat34 V c).leavesExact 2 t = owns (c : Thread nD τ) (ms34_2 t) fullShare ((dat34 V c).after 2 t) from by
        unfold Dat.leavesExact; rw [liveAt34_2 t], after34_2]
      rw [show (dat34 V c).leavesExact 3 t = owns (c : Thread nD τ) (ms34_3 t) fullShare ((dat34 V c).after 3 t) from by
        unfold Dat.leavesExact; rw [liveAt34_3 t], after34_3]
      rw [show (dat34 V c).leavesExact 4 t = owns (c : Thread nD τ) (ms34_4 t) fullShare ((dat34 V c).after 4 t) from by
        unfold Dat.leavesExact; rw [liveAt34_4 t], after34_4]
      rw [Dat.leavesExact_idle (dat34 V c) 5 t (idleAt34_5_B t (fun h => h0 ((hcond34_0 t).mp h)) (fun h => h1 ((hcond34_1 t).mp h))) (noFlush34_5_B t (fun h => h0 ((hcond34_0 t).mp h)) (fun h => h1 ((hcond34_1 t).mp h)))]
      rw [outsAt34_B V c t h0 h1]
      unfold out14_B_3 out14_B_4 sout14_B_0; (try dsimp only)
      by_cases hz : t.val = 0
      · exfalso; omega
      · rw [PhiS34_castSucc V c t, PhiS34_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid34.coords t) _ _ _ _ _ _ _ _ _ _ _ _ _ _ (fun h => h0 ((hcond34_0 t).mp h)) (fun h => h1 ((hcond34_1 t).mp h)) (iblk34 V c 0 t) (iblk34 V c 1 t) (iblk34 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation34 (c : Dev nD) : BodyObligation (dat34 (F := F) V c) (defs₀ (F := F)) Variants.none () Set.univ := fun t => by
  rw [bigSep_W34, bigSep_W34]
  exact sound_body34 V c t

/-- What the launch hands the region is the invariant before the first point. -/
theorem hin34 (c : Dev nD) : Pipeline.ΦA spec34 c ⊢ (dat34 V c).Φ 0 := by
  rw [show (dat34 V c).Φ 0 = PhiS34 V c 0 (Nat.zero_le _) from rfl, PhiS34_zero V c 0 _ rfl]
  try exact Idealize.SL.BI.Entails.refl _

/-- After any point but the first the invariant gives it back: the scratch's named contents are forgotten. -/
theorem Phi_out34 (c : Dev nD) (t : Fin (cfg34.N + 1)) (ht : t.val ≠ 0) : (dat34 V c).Φ t ⊢ Pipeline.ΦA spec34 c := by
  rw [show (dat34 V c).Φ t = PhiS34 V c t.val (Nat.le_of_lt_succ t.isLt) from rfl, PhiS34_pos V c _ _ ht, PhiA34_eq]
  iintro ⟨⟨HS0, HR⟩, Hg⟩
  isplitl [HS0 HR]
  · isplitl [HS0]
    · iexists _; iexact HS0
    iexact HR
  iexact Hg

/-- The same after the last point. -/
theorem hout34 (c : Dev nD) : (dat34 V c).Φ (Fin.last cfg34.N) ⊢ Pipeline.ΦA spec34 c :=
  Phi_out34 V c _ (by rw [Fin.val_last]; have : cfg34.N = 25 := N_34; omega)

end Cert.KernelIdeal.Hand

end
-- ==== Proof.KI.R35.lean ====
import proofs.«408084_j48395691492010_3_alg».proof.Proof.KI.R3

/-! Region 35: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk35 (c : Dev nD) (w : Fin cfg35.W) (t : Fin cfg35.N) : ((cfg35.win w).xblock (cfg35.grid.coords t)).Idx → Elt F (cfg35.win w).elt :=
  ((cfg35.win w).blk t).view.read (Elt F) (V c (Pipeline.arrRef spec35 w))

/-- The row-tile window (window 0, fetched at every point) holds its block when the body runs. -/
theorem before35_0_of {c : Dev nD} (dat : Dat τ (Elt F) Unit ℕ (UR sig nD τ) ℕ cfg35 c) (hA : dat.A 0 = V c (Pipeline.arrRef spec35 0))
    (hafter : ∀ t, dat.after 0 t = iblk35 V c 0 t) (t : Fin cfg35.N) (d) : dat.before 0 t d = iblk35 V c 0 t :=
  (dat.before_in_eq_fetched 0 rfl (fun _ => rfl) (fun _ _ _ => rfl) (fun t => by rw [hafter]; unfold Dat.blockOf iblk35; rw [hA]; try rfl) t d).trans
    (by unfold Dat.fetched Dat.blockOf iblk35; rw [hA]; try rfl)

/-- The mean window (window 1, one constant block fetched at the first point only) holds that block at every point. -/
theorem before35_1_of {c : Dev nD} (dat : Dat τ (Elt F) Unit ℕ (UR sig nD τ) ℕ cfg35 c) (hA : dat.A 1 = V c (Pipeline.arrRef spec35 1))
    (hafter : ∀ t, dat.after 1 t = iblk35 V c 1 t) (t : Fin cfg35.N) (d) : dat.before 1 t d = iblk35 V c 1 t :=
  (dat.before_in_eq_fetched 1 rfl (fun _ => rfl) (fun _ _ _ => rfl) (fun t => by rw [hafter]; unfold Dat.blockOf iblk35; rw [hA]; try rfl) t d).trans
    (by unfold Dat.fetched Dat.blockOf iblk35; rw [hA]; try rfl)

/-! ## The branch conditions and the idle points, over this region's grid (the same grid) -/

/-- The reset's condition holds at the first point only, -/
theorem hcond35_0 : ∀ t : Fin cfg35.N, cond3_0 (grid35.coords t) ↔ t.val = 0 := hcond3_0
/-- the final store's at the last point only. -/
theorem hcond35_1 : ∀ t : Fin cfg35.N, cond3_1 (grid35.coords t) ↔ t.val = 24 := hcond3_1

theorem liveAt35_0 : ∀ t : Fin cfg35.N, cfg35.idle 0 (grid35.coords t) = false := fun _ => rfl
theorem liveAt35_1 : ∀ t : Fin cfg35.N, cfg35.idle 1 (grid35.coords t) = false := fun _ => rfl
/-- Away from the last point the result window is idle, -/
theorem idleAt35_2 : ∀ t : Fin cfg35.N, ¬cond3_1 (grid35.coords t) → cfg35.idle 2 (grid35.coords t) = true := idleAt3_2
/-- and live at it. -/
theorem liveAt35_2 : ∀ t : Fin cfg35.N, cond3_1 (grid35.coords t) → cfg35.idle 2 (grid35.coords t) = false := liveAt3_2
/-- Away from the last point its block is not written back (the schedule's closed form). -/
theorem noFlush35_2 (t : Fin cfg35.N) (h : ¬cond3_1 (grid35.coords t)) : (cfg35.win 2).flush t = false := by
  have hN : t.val < 25 := lt_of_lt_of_eq t.isLt (show cfg35.N = 25 from N_35)
  have h24 : ¬t.val = 24 := fun e => h ((hcond35_1 t).mpr e)
  cases hf : (cfg35.win 2).flush t with
  | false => rfl
  | true => exact absurd (by have := (flush35_2 t).mp hf; omega) h24

/-! ## The memrefs the body is called with -/

noncomputable abbrev ms35_0 (t : Fin cfg35.N) : Memref sig .tc .vmem S2000x64 .f32 := win35_0.stage (cfg35.slots t 0)
abbrev hs35_0 (t : Fin cfg35.N) : (ms35_0 t).IsWhole := hstage35_0 ((cfg35.slots t 0).cast nbuf35_0)
noncomputable abbrev ms35_1 (t : Fin cfg35.N) : Memref sig .tc .vmem S1x64 .f32 := win35_1.stage (cfg35.slots t 1)
abbrev hs35_1 (t : Fin cfg35.N) : (ms35_1 t).IsWhole := hstage35_1 ((cfg35.slots t 1).cast nbuf35_1)
noncomputable abbrev ms35_2 (t : Fin cfg35.N) : Memref sig .tc .vmem S1x64 .f32 := win35_2.stage (cfg35.slots t 2)
abbrev hs35_2 (t : Fin cfg35.N) : (ms35_2 t).IsWhole := hstage35_2 ((cfg35.slots t 2).cast nbuf35_2)
/-- The accumulator: this call's own scratch buffer, whole. -/
noncomputable abbrev scM35_0 : Memref sig .tc .vmem S1x64 .f32 := Memref.whole cc35_scratch0

/-- The body the pipeline calls at point `t` is region 3's printed kernel on this region's memrefs: the two printed
    functions are the same term. -/
theorem bodyAt35_eq (t : Fin cfg35.N) :
    (bodyAt35 t : Prog (TpuEff nD τ sig (Elt F) Λ₀ .tc) PUnit)
      = cc3__var_kernel (grid35.coords t) (ms35_0 t) (hs35_0 t) (ms35_1 t) (hs35_1 t) (ms35_2 t) (hs35_2 t) scM35_0 (Memref.isWhole_whole _) := rfl

/-- The region-entry invariant with the accumulator split out of the scoped rest, as a memref owned at some contents. -/
theorem PhiA35_eq (c : Dev nD) :
    (Pipeline.ΦA spec35 c : sProp 𝕄)
      = iprop(iprop(iprop(∃ d, owns (c : Thread nD τ) scM35_0 fullShare d)
          ∗ Pipeline.scopedRestBut (Ix := Unit) (Name := ℕ) (U := UR sig nD τ) (Lvl := ℕ) (Val := Elt F) spec35 c [cc35_scratch0]) ∗ (∃ r, prngReg c r)) := by
  unfold Pipeline.ΦA; rw [scopedRest35_split]; simp only [scM35_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt35 (c : Dev nD) : (n : ℕ) → n < cfg35.N → Vec F S1x64 .f32 × Vec F S1x64 .f32
  | 0, hn => (idle3_2,
      sout3_A_0 c (grid35.coords ⟨0, hn⟩) (ms35_0 ⟨0, hn⟩) (hs35_0 ⟨0, hn⟩) (ms35_1 ⟨0, hn⟩) (hs35_1 ⟨0, hn⟩) (ms35_2 ⟨0, hn⟩) (hs35_2 ⟨0, hn⟩) scM35_0 (Memref.isWhole_whole _) ((hcond35_0 ⟨0, hn⟩).mpr rfl)
        (fun h => (fun h' : (0 : ℕ) = 24 => by omega) ((hcond35_1 ⟨0, hn⟩).mp h)) (iblk35 V c 0 ⟨0, hn⟩) (iblk35 V c 1 ⟨0, hn⟩))
  | n + 1, hn =>
    if h1 : n + 1 = 24 then
      (out3_C_2 c (grid35.coords ⟨n + 1, hn⟩) (ms35_0 ⟨n + 1, hn⟩) (hs35_0 ⟨n + 1, hn⟩) (ms35_1 ⟨n + 1, hn⟩) (hs35_1 ⟨n + 1, hn⟩) (ms35_2 ⟨n + 1, hn⟩) (hs35_2 ⟨n + 1, hn⟩) scM35_0 (Memref.isWhole_whole _) (fun h => (fun h' : n + 1 = 0 => by omega) ((hcond35_0 ⟨n + 1, hn⟩).mp h))
          ((hcond35_1 ⟨n + 1, hn⟩).mpr h1) (iblk35 V c 0 ⟨n + 1, hn⟩) (iblk35 V c 1 ⟨n + 1, hn⟩) (outsAt35 c n (Nat.lt_of_succ_lt hn)).2,
       sout3_C_0 c (grid35.coords ⟨n + 1, hn⟩) (ms35_0 ⟨n + 1, hn⟩) (hs35_0 ⟨n + 1, hn⟩) (ms35_1 ⟨n + 1, hn⟩) (hs35_1 ⟨n + 1, hn⟩) (ms35_2 ⟨n + 1, hn⟩) (hs35_2 ⟨n + 1, hn⟩) scM35_0 (Memref.isWhole_whole _) (fun h => (fun h' : n + 1 = 0 => by omega) ((hcond35_0 ⟨n + 1, hn⟩).mp h))
          ((hcond35_1 ⟨n + 1, hn⟩).mpr h1) (iblk35 V c 0 ⟨n + 1, hn⟩) (iblk35 V c 1 ⟨n + 1, hn⟩) (outsAt35 c n (Nat.lt_of_succ_lt hn)).2)
    else
      (idle3_2,
       sout3_B_0 c (grid35.coords ⟨n + 1, hn⟩) (ms35_0 ⟨n + 1, hn⟩) (hs35_0 ⟨n + 1, hn⟩) (ms35_1 ⟨n + 1, hn⟩) (hs35_1 ⟨n + 1, hn⟩) (ms35_2 ⟨n + 1, hn⟩) (hs35_2 ⟨n + 1, hn⟩) scM35_0 (Memref.isWhole_whole _) (fun h => (fun h' : n + 1 = 0 => by omega) ((hcond35_0 ⟨n + 1, hn⟩).mp h))
          (fun h => h1 ((hcond35_1 ⟨n + 1, hn⟩).mp h)) (iblk35 V c 0 ⟨n + 1, hn⟩) (iblk35 V c 1 ⟨n + 1, hn⟩) (outsAt35 c n (Nat.lt_of_succ_lt hn)).2)

theorem outsAt35_A (c : Dev nD) (t : Fin cfg35.N) (h0 : t.val = 0) (h1 : ¬t.val = 24) :
    outsAt35 V c t.val t.isLt = (idle3_2,
      sout3_A_0 c (grid35.coords t) (ms35_0 t) (hs35_0 t) (ms35_1 t) (hs35_1 t) (ms35_2 t) (hs35_2 t) scM35_0 (Memref.isWhole_whole _) ((hcond35_0 t).mpr h0) (fun h => h1 ((hcond35_1 t).mp h)) (iblk35 V c 0 t) (iblk35 V c 1 t)) := by
  obtain ⟨n, hn⟩ := t
  cases n with
  | zero => exact rfl
  | succ n => exact absurd h0 (Nat.succ_ne_zero n)

theorem outsAt35_B (c : Dev nD) (t : Fin cfg35.N) (h0 : ¬t.val = 0) (h1 : ¬t.val = 24) :
    outsAt35 V c t.val t.isLt = (idle3_2,
      sout3_B_0 c (grid35.coords t) (ms35_0 t) (hs35_0 t) (ms35_1 t) (hs35_1 t) (ms35_2 t) (hs35_2 t) scM35_0 (Memref.isWhole_whole _) (fun h => h0 ((hcond35_0 t).mp h)) (fun h => h1 ((hcond35_1 t).mp h)) (iblk35 V c 0 t) (iblk35 V c 1 t)
        (outsAt35 V c (t.val - 1) (Nat.lt_of_le_of_lt (Nat.sub_le _ _) t.isLt)).2) := by
  obtain ⟨n, hn⟩ := t
  cases n with
  | zero => exact absurd rfl h0
  | succ n => exact (dif_neg h1).trans rfl

theorem outsAt35_C (c : Dev nD) (t : Fin cfg35.N) (h0 : ¬t.val = 0) (h1 : t.val = 24) :
    outsAt35 V c t.val t.isLt =
      (out3_C_2 c (grid35.coords t) (ms35_0 t) (hs35_0 t) (ms35_1 t) (hs35_1 t) (ms35_2 t) (hs35_2 t) scM35_0 (Memref.isWhole_whole _) (fun h => h0 ((hcond35_0 t).mp h)) ((hcond35_1 t).mpr h1) (iblk35 V c 0 t) (iblk35 V c 1 t)
        (outsAt35 V c (t.val - 1) (Nat.lt_of_le_of_lt (Nat.sub_le _ _) t.isLt)).2,
       sout3_C_0 c (grid35.coords t) (ms35_0 t) (hs35_0 t) (ms35_1 t) (hs35_1 t) (ms35_2 t) (hs35_2 t) scM35_0 (Memref.isWhole_whole _) (fun h => h0 ((hcond35_0 t).mp h)) ((hcond35_1 t).mpr h1) (iblk35 V c 0 t) (iblk35 V c 1 t)
        (outsAt35 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS35 (c : Dev nD) : (n : ℕ) → n ≤ cfg35.N → sProp 𝕄
  | 0, _ => Pipeline.ΦA spec35 c
  | n + 1, hn => iprop(iprop(owns (c : Thread nD τ) scM35_0 fullShare ((outsAt35 V c n hn).2)
      ∗ Pipeline.scopedRestBut (Ix := Unit) (Name := ℕ) (U := UR sig nD τ) (Lvl := ℕ) (Val := Elt F) spec35 c [cc35_scratch0]) ∗ (∃ r, prngReg c r))

theorem PhiS35_zero (c : Dev nD) (n : ℕ) (h : n ≤ cfg35.N) (hz : n = 0) : PhiS35 V c n h = Pipeline.ΦA spec35 c := by
  subst hz; rfl

theorem PhiS35_succ (c : Dev nD) (n : ℕ) (hn : n < cfg35.N) :
    PhiS35 V c (n + 1) hn = iprop(iprop(owns (c : Thread nD τ) scM35_0 fullShare ((outsAt35 V c n hn).2)
      ∗ Pipeline.scopedRestBut (Ix := Unit) (Name := ℕ) (U := UR sig nD τ) (Lvl := ℕ) (Val := Elt F) spec35 c [cc35_scratch0]) ∗ (∃ r, prngReg c r)) := rfl

theorem PhiS35_pos (c : Dev nD) (n : ℕ) (h : n ≤ cfg35.N) (hz : n ≠ 0) :
    PhiS35 V c n h = iprop(iprop(owns (c : Thread nD τ) scM35_0 fullShare ((outsAt35 V c (n - 1) (by omega)).2)
      ∗ Pipeline.scopedRestBut (Ix := Unit) (Name := ℕ) (U := UR sig nD τ) (Lvl := ℕ) (Val := Elt F) spec35 c [cc35_scratch0]) ∗ (∃ r, prngReg c r)) := by
  cases n with
  | zero => exact absurd rfl hz
  | succ n => rfl

/-! ## The proof data -/

noncomputable def dat35 (c : Dev nD) : Dat τ (Elt F) Unit ℕ (UR sig nD τ) ℕ cfg35 c where
  A w := V c (Pipeline.arrRef spec35 w)
  after w t := match w with
    | ⟨0, _⟩ => iblk35 V c 0 t
    | ⟨1, _⟩ => iblk35 V c 1 t
    | ⟨2, _⟩ => (outsAt35 V c t.val t.isLt).1
  Φ t := PhiS35 V c t.val (Nat.le_of_lt_succ t.isLt)
  q _ := fullShare
  owed _ := 0

theorem A_eq35 (c : Dev nD) (w : Fin cfg35.W) : (dat35 V c).A w = V c (Pipeline.arrRef spec35 w) := by
  dsimp only [dat35]

theorem PhiS35_castSucc (c : Dev nD) (t : Fin cfg35.N) :
    (dat35 V c).Φ t.castSucc = PhiS35 V c t.val (Nat.le_of_lt t.isLt) := by
  dsimp only [dat35]; simp only [Fin.coe_castSucc]

theorem after35_0 (c : Dev nD) (t : Fin cfg35.N) : (dat35 V c).after 0 t = iblk35 V c 0 t := by dsimp only [dat35]
theorem after35_1 (c : Dev nD) (t : Fin cfg35.N) : (dat35 V c).after 1 t = iblk35 V c 1 t := by dsimp only [dat35]
theorem after35_2 (c : Dev nD) (t : Fin cfg35.N) : (dat35 V c).after 2 t = (outsAt35 V c t.val t.isLt).1 := by dsimp only [dat35]

theorem before35_0 (c : Dev nD) (t : Fin cfg35.N) (d) : (dat35 V c).before 0 t d = iblk35 V c 0 t :=
  before35_0_of V (dat35 V c) (A_eq35 V c 0) (after35_0 V c) t d
theorem before35_1 (c : Dev nD) (t : Fin cfg35.N) (d) : (dat35 V c).before 1 t d = iblk35 V c 1 t :=
  before35_1_of V (dat35 V c) (A_eq35 V c 1) (after35_1 V c) t d

/-! ## The body obligation -/

noncomputable def bodyPre35 (c : Dev nD) (t : Fin cfg35.N) : sProp 𝕄 :=
  iprop((dat35 V c).Φ t.castSucc ∗ (dat35 V c).owesAt () t.castSucc
    ∗ (∃ d, owns (c : Thread nD τ) (ms35_0 t) fullShare ((dat35 V c).before 0 t d))
    ∗ (∃ d, owns (c : Thread nD τ) (ms35_1 t) fullShare ((dat35 V c).before 1 t d))
    ∗ (∃ d, owns (c : Thread nD τ) (ms35_2 t) fullShare ((dat35 V c).before 2 t d)))

noncomputable def bodyPost35 (c : Dev nD) (t : Fin cfg35.N) : sProp 𝕄 :=
  iprop((dat35 V c).Φ t.succ ∗ (dat35 V c).owesAt () t.succ
    ∗ (dat35 V c).leavesExact 0 t
    ∗ (dat35 V c).leavesExact 1 t
    ∗ (dat35 V c).leavesExact 2 t)

set_option maxHeartbeats 4800000 in
/-- The body at any point, from region 3's triples on this region's memrefs. -/
theorem sound_body35 (c : Dev nD) (t : Fin cfg35.N) :
    bodyPre35 V c t ⊢ wp frame (wpE (defs₀ (F := F)) Variants.none c none) Set.univ (bodyAt35 t) (fun _ => bodyPost35 V c t) := by
  rw [bodyAt35_eq (F := F) t]
  unfold bodyPre35 bodyPost35
  simp only [before35_0, before35_1]
  rw [show (dat35 V c).owesAt () t.succ = (dat35 V c).owesAt () t.castSucc from rfl]
  rw [show (dat35 V c).Φ t.succ = PhiS35 V c (t.val + 1) t.isLt from rfl, PhiS35_succ]
  have hN : t.val < 25 := lt_of_lt_of_eq t.isLt (show cfg35.N = 25 from N_35)
  rw [show (dat35 V c).leavesExact 0 t = owns (c : Thread nD τ) (ms35_0 t) fullShare ((dat35 V c).after 0 t) from by
    unfold Dat.leavesExact; rw [liveAt35_0 t], after35_0]
  rw [show (dat35 V c).leavesExact 1 t = owns (c : Thread nD τ) (ms35_1 t) fullShare ((dat35 V c).after 1 t) from by
    unfold Dat.leavesExact; rw [liveAt35_1 t], after35_1]
  by_cases h0 : t.val = 0
  · have h1 : ¬t.val = 24 := by omega
    rw [Dat.leavesExact_idle (dat35 V c) 2 t (idleAt35_2 t (fun h => h1 ((hcond35_1 t).mp h))) (noFlush35_2 t (fun h => h1 ((hcond35_1 t).mp h)))]
    rw [outsAt35_A V c t h0 h1]
    unfold sout3_A_0; (try dsimp only)
    rw [PhiS35_castSucc V c t, PhiS35_zero V c _ _ h0, PhiA35_eq]
    iintro ⟨⟨⟨HS0, Hr⟩, Hg⟩, Ho, ⟨%d0, H0⟩, ⟨%d1, H1⟩, ⟨%d2, H2⟩⟩
    iapply ((kernelRun3_A c (grid35.coords t) _ _ _ _ _ _ _ _ ((hcond35_0 t).mpr h0) (fun h => h1 ((hcond35_1 t).mp h)) (iblk35 V c 0 t) (iblk35 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat35 V c).leavesExact 2 t = owns (c : Thread nD τ) (ms35_2 t) fullShare ((dat35 V c).after 2 t) from by
        unfold Dat.leavesExact; rw [liveAt35_2 t ((hcond35_1 t).mpr h1)], after35_2]
      rw [outsAt35_C V c t h0 h1]
      unfold out3_C_2 sout3_C_0; (try dsimp only)
      rw [PhiS35_castSucc V c t, PhiS35_pos V c _ _ h0]
      iintro ⟨⟨⟨HS0, Hr⟩, Hg⟩, Ho, ⟨%d0, H0⟩, ⟨%d1, H1⟩, ⟨%d2, H2⟩⟩
      iapply ((kernelRun3_C c (grid35.coords t) _ _ _ _ _ _ _ _ (fun h => h0 ((hcond35_0 t).mp h)) ((hcond35_1 t).mpr h1) (iblk35 V c 0 t) (iblk35 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat35 V c) 2 t (idleAt35_2 t (fun h => h1 ((hcond35_1 t).mp h))) (noFlush35_2 t (fun h => h1 ((hcond35_1 t).mp h)))]
      rw [outsAt35_B V c t h0 h1]
      unfold sout3_B_0; (try dsimp only)
      rw [PhiS35_castSucc V c t, PhiS35_pos V c _ _ h0]
      iintro ⟨⟨⟨HS0, Hr⟩, Hg⟩, Ho, ⟨%d0, H0⟩, ⟨%d1, H1⟩, ⟨%d2, H2⟩⟩
      iapply ((kernelRun3_B c (grid35.coords t) _ _ _ _ _ _ _ _ (fun h => h0 ((hcond35_0 t).mp h)) (fun h => h1 ((hcond35_1 t).mp h)) (iblk35 V c 0 t) (iblk35 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation35 (c : Dev nD) : BodyObligation (dat35 (F := F) V c) (defs₀ (F := F)) Variants.none () Set.univ := fun t => by
  rw [bigSep_W35, bigSep_W35]
  exact sound_body35 V c t

/-- What the launch hands the region is the invariant before the first point. -/
theorem hin35 (c : Dev nD) : Pipeline.ΦA spec35 c ⊢ (dat35 V c).Φ 0 := by
  rw [show (dat35 V c).Φ 0 = PhiS35 V c 0 (Nat.zero_le _) from rfl, PhiS35_zero V c 0 _ rfl]
  try exact Idealize.SL.BI.Entails.refl _

/-- After any point but the first the invariant gives the launch's back: the accumulator's named contents are forgotten. -/
theorem Phi_out35 (c : Dev nD) (t : Fin (cfg35.N + 1)) (ht : t.val ≠ 0) : (dat35 V c).Φ t ⊢ Pipeline.ΦA spec35 c := by
  rw [show (dat35 V c).Φ t = PhiS35 V c t.val (Nat.le_of_lt_succ t.isLt) from rfl, PhiS35_pos V c _ _ ht, PhiA35_eq]
  iintro ⟨⟨HS0, Hr⟩, Hg⟩
  isplitl [HS0 Hr]
  · isplitl [HS0]
    · iexists _; iexact HS0
    iexact Hr
  iexact Hg

/-- The same after the last point. -/
theorem hout35 (c : Dev nD) : (dat35 V c).Φ (Fin.last cfg35.N) ⊢ Pipeline.ΦA spec35 c :=
  Phi_out35 V c _ (by rw [Fin.val_last]; have : cfg35.N = 25 := N_35; omega)

end Cert.KernelIdeal.Hand

end
-- ==== Proof.KI.R36.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Ring
import Idealize.ShloMosaic.Lib.Tactic

/-!
# Region 36: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region36
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk36 (c : Dev nD) (w : Fin cfg36.W) (t : Fin cfg36.N) : ((cfg36.win w).xblock (cfg36.grid.coords t)).Idx → Elt F (cfg36.win w).elt :=
  ((cfg36.win w).blk t).view.read (Elt F) (V c (Pipeline.arrRef spec36 w))

/-- The activations' staging buffer holds the block of the current point at every point: the window is fetched at
    every point, is never cut and never idle, and the body leaves the block where it found it. -/
theorem before36_0_of {c : Dev nD} (dat : Dat τ (Elt F) Unit ℕ (UR sig nD τ) ℕ cfg36 c) (hA : dat.A 0 = V c (Pipeline.arrRef spec36 0))
    (hafter : ∀ t, dat.after 0 t = iblk36 V c 0 t) (t : Fin cfg36.N) (d) : dat.before 0 t d = iblk36 V c 0 t :=
  (dat.before_in_eq_fetched 0 rfl (fun _ => rfl) (fun _ _ _ => rfl) (fun t => by rw [hafter]; unfold Dat.blockOf iblk36; rw [hA]; try rfl) t d).trans
    (by unfold Dat.fetched Dat.blockOf iblk36; rw [hA]; try rfl)

/-- The mean row's staging buffer holds its (one) block at every point: it is fetched at the first point only, its
    block index never moves afterwards, and the body leaves it in place. -/
theorem before36_1_of {c : Dev nD} (dat : Dat τ (Elt F) Unit ℕ (UR sig nD τ) ℕ cfg36 c) (hA : dat.A 1 = V c (Pipeline.arrRef spec36 1))
    (hafter : ∀ t, dat.after 1 t = iblk36 V c 1 t) (t : Fin cfg36.N) (d) : dat.before 1 t d = iblk36 V c 1 t :=
  (dat.before_in_eq_fetched 1 rfl (fun _ => rfl) (fun _ _ _ => rfl) (fun t => by rw [hafter]; unfold Dat.blockOf iblk36; rw [hA]; try rfl) t d).trans
    (by unfold Dat.fetched Dat.blockOf iblk36; rw [hA]; try rfl)

/-- The same of the variance row. -/
theorem before36_2_of {c : Dev nD} (dat : Dat τ (Elt F) Unit ℕ (UR sig nD τ) ℕ cfg36 c) (hA : dat.A 2 = V c (Pipeline.arrRef spec36 2))
    (hafter : ∀ t, dat.after 2 t = iblk36 V c 2 t) (t : Fin cfg36.N) (d) : dat.before 2 t d = iblk36 V c 2 t :=
  (dat.before_in_eq_fetched 2 rfl (fun _ => rfl) (fun _ _ _ => rfl) (fun t => by rw [hafter]; unfold Dat.blockOf iblk36; rw [hA]; try rfl) t d).trans
    (by unfold Dat.fetched Dat.blockOf iblk36; rw [hA]; try rfl)

/-- The same of the scale row. -/
theorem before36_3_of {c : Dev nD} (dat : Dat τ (Elt F) Unit ℕ (UR sig nD τ) ℕ cfg36 c) (hA : dat.A 3 = V c (Pipeline.arrRef spec36 3))
    (hafter : ∀ t, dat.after 3 t = iblk36 V c 3 t) (t : Fin cfg36.N) (d) : dat.before 3 t d = iblk36 V c 3 t :=
  (dat.before_in_eq_fetched 3 rfl (fun _ => rfl) (fun _ _ _ => rfl) (fun t => by rw [hafter]; unfold Dat.blockOf iblk36; rw [hA]; try rfl) t d).trans
    (by unfold Dat.fetched Dat.blockOf iblk36; rw [hA]; try rfl)

/-- The same of the shift row. -/
theorem before36_4_of {c : Dev nD} (dat : Dat τ (Elt F) Unit ℕ (UR sig nD τ) ℕ cfg36 c) (hA : dat.A 4 = V c (Pipeline.arrRef spec36 4))
    (hafter : ∀ t, dat.after 4 t = iblk36 V c 4 t) (t : Fin cfg36.N) (d) : dat.before 4 t d = iblk36 V c 4 t :=
  (dat.before_in_eq_fetched 4 rfl (fun _ => rfl) (fun _ _ _ => rfl) (fun t => by rw [hafter]; unfold Dat.blockOf iblk36; rw [hA]; try rfl) t d).trans
    (by unfold Dat.fetched Dat.blockOf iblk36; rw [hA]; try rfl)

/-! ## The body's accesses: each buffer is read, and the output written, whole -/

/-- The whole of a block of 2000 rows. -/
noncomputable abbrev r36_0 : Rect S2000x64 := Rect.unit (s := S2000x64) ![0, 0] S2000x64.size inb_S2000x64_S2000x64_0_0
/-- The whole of a single row. -/
noncomputable abbrev r36_1 : Rect S1x64 := Rect.unit (s := S1x64) ![0, 0] S1x64.size inb_S1x64_S1x64_0_0

/-! ## What the body leaves in the output buffer -/

/-- The output buffer after the body, from the five input blocks: its one store, whose payload is the skeleton's. -/
noncomputable def out36_5 (x0 : Vec F S2000x64 .f32) (x1 : Vec F S1x64 .f32) (x2 : Vec F S1x64 .f32) (x3 : Vec F S1x64 .f32) (x4 : Vec F S1x64 .f32) :
    Vec F S2000x64 .f32 :=
  View.canon [⟨r36_0, k36_pay1 (View.ld x0 r36_0) (View.ld x1 r36_1) (View.ld x2 r36_1) (View.ld x3 r36_1) (View.ld x4 r36_1)⟩]

/-- The one store covers the buffer. -/
theorem cover36_5 (p0 : Vec F S2000x64 .f32) (y : S2000x64.Idx) :
    ∃ pc ∈ ([⟨r36_0, p0⟩] : List (View.Piece (Elt F) S2000x64 .f32)), y ∈ pc.1.set :=
  View.cover_of_tiled [⟨r36_0, p0⟩] S2000x64.size (by rfl) y

/-! ## The body's triple -/

set_option maxHeartbeats 1000000 in
/-- The body on whole staging buffers, the five inputs' at read contents x0 … x4 and the output's at anything, runs
    to a state in which the inputs' are as they were and the output's holds out36_5 of them. (The body also loads the
    output buffer before it stores to it; the loaded value is not used.) -/
theorem sound_kernel36 (c : Dev nD) (E : Set ℕ) (i : grid36.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out36_5 x0 x1 x2 x3 x4)) -∗ K ⟨⟩))
      ⊢ wp frame (wpE (defs₀ (F := F)) Variants.none c none) E (cc36__bn_softmax_kernel i arg1 harg1 arg2 harg2 arg3 harg3 arg4 harg4 arg5 harg5 arg6 harg6) K := by
  simp only [cc36__bn_softmax_kernel_eq_skeleton]; unfold cc36__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover36_5 _)

/-! ## The pipeline's proof data -/

/-- The proof data of the region's pipeline on core c: the arrays as the region finds them; after the body at point t
    each input's buffer at its block and the output's at out36_5 of the input blocks; the invariant that of a body which
    touches nothing but its windows; nothing owed; full shares. -/
noncomputable def dat36 (c : Dev nD) : Dat τ (Elt F) Unit ℕ (UR sig nD τ) ℕ cfg36 c where
  A w := V c (Pipeline.arrRef spec36 w)
  after w t := match w with
    | ⟨0, _⟩ => iblk36 V c 0 t
    | ⟨1, _⟩ => iblk36 V c 1 t
    | ⟨2, _⟩ => iblk36 V c 2 t
    | ⟨3, _⟩ => iblk36 V c 3 t
    | ⟨4, _⟩ => iblk36 V c 4 t
    | ⟨5, _⟩ => out36_5 (iblk36 V c 0 t) (iblk36 V c 1 t) (iblk36 V c 2 t) (iblk36 V c 3 t) (iblk36 V c 4 t)
  Φ _ := Pipeline.ΦA spec36 c
  q _ := fullShare
  owed _ := 0

/-- The proof data's arrays are the region-entry contents. -/
theorem A_eq36 (c : Dev nD) (w : Fin cfg36.W) : (dat36 V c).A w = V c (Pipeline.arrRef spec36 w) := by
  dsimp only [dat36]

/-- What the body leaves, window by window. -/
theorem after36_0 (c : Dev nD) (t : Fin cfg36.N) : (dat36 V c).after 0 t = iblk36 V c 0 t := by dsimp only [dat36]
theorem after36_1 (c : Dev nD) (t : Fin cfg36.N) : (dat36 V c).after 1 t = iblk36 V c 1 t := by dsimp only [dat36]
theorem after36_2 (c : Dev nD) (t : Fin cfg36.N) : (dat36 V c).after 2 t = iblk36 V c 2 t := by dsimp only [dat36]
theorem after36_3 (c : Dev nD) (t : Fin cfg36.N) : (dat36 V c).after 3 t = iblk36 V c 3 t := by dsimp only [dat36]
theorem after36_4 (c : Dev nD) (t : Fin cfg36.N) : (dat36 V c).after 4 t = iblk36 V c 4 t := by dsimp only [dat36]
theorem after36_5 (c : Dev nD) (t : Fin cfg36.N) :
    (dat36 V c).after 5 t = out36_5 (iblk36 V c 0 t) (iblk36 V c 1 t) (iblk36 V c 2 t) (iblk36 V c 3 t) (iblk36 V c 4 t) := by dsimp only [dat36]

/-- Each input's current staging buffer holds its block at every point, fetched there or not. -/
theorem before36_0 (c : Dev nD) (t : Fin cfg36.N) (d) : (dat36 V c).before 0 t d = iblk36 V c 0 t :=
  before36_0_of V (dat36 V c) (A_eq36 V c 0) (after36_0 V c) t d
theorem before36_1 (c : Dev nD) (t : Fin cfg36.N) (d) : (dat36 V c).before 1 t d = iblk36 V c 1 t :=
  before36_1_of V (dat36 V c) (A_eq36 V c 1) (after36_1 V c) t d
theorem before36_2 (c : Dev nD) (t : Fin cfg36.N) (d) : (dat36 V c).before 2 t d = iblk36 V c 2 t :=
  before36_2_of V (dat36 V c) (A_eq36 V c 2) (after36_2 V c) t d
theorem before36_3 (c : Dev nD) (t : Fin cfg36.N) (d) : (dat36 V c).before 3 t d = iblk36 V c 3 t :=
  before36_3_of V (dat36 V c) (A_eq36 V c 3) (after36_3 V c) t d
theorem before36_4 (c : Dev nD) (t : Fin cfg36.N) (d) : (dat36 V c).before 4 t d = iblk36 V c 4 t :=
  before36_4_of V (dat36 V c) (A_eq36 V c 4) (after36_4 V c) t d

/-! ## The body obligation, at a generic point -/

/-- What the body is called with at point t, the windows one by one, -/
noncomputable def bodyPre36 (c : Dev nD) (t : Fin cfg36.N) : sProp 𝕄 :=
  iprop((dat36 V c).Φ t.castSucc ∗ (dat36 V c).owesAt () t.castSucc
    ∗ (∃ d, owns (c : Thread nD τ) (st36_0 t) fullShare ((dat36 V c).before 0 t d))
    ∗ (∃ d, owns (c : Thread nD τ) (st36_1 t) fullShare ((dat36 V c).before 1 t d))
    ∗ (∃ d, owns (c : Thread nD τ) (st36_2 t) fullShare ((dat36 V c).before 2 t d))
    ∗ (∃ d, owns (c : Thread nD τ) (st36_3 t) fullShare ((dat36 V c).before 3 t d))
    ∗ (∃ d, owns (c : Thread nD τ) (st36_4 t) fullShare ((dat36 V c).before 4 t d))
    ∗ (∃ d, owns (c : Thread nD τ) (st36_5 t) fullShare ((dat36 V c).before 5 t d)))

/-- and what it returns. -/
noncomputable def bodyPost36 (c : Dev nD) (t : Fin cfg36.N) : sProp 𝕄 :=
  iprop((dat36 V c).Φ t.succ ∗ (dat36 V c).owesAt () t.succ
    ∗ owns (c : Thread nD τ) (st36_0 t) fullShare ((dat36 V c).after 0 t)
    ∗ owns (c : Thread nD τ) (st36_1 t) fullShare ((dat36 V c).after 1 t)
    ∗ owns (c : Thread nD τ) (st36_2 t) fullShare ((dat36 V c).after 2 t)
    ∗ owns (c : Thread nD τ) (st36_3 t) fullShare ((dat36 V c).after 3 t)
    ∗ owns (c : Thread nD τ) (st36_4 t) fullShare ((dat36 V c).after 4 t)
    ∗ owns (c : Thread nD τ) (st36_5 t) fullShare ((dat36 V c).after 5 t))

/-- The body at any point: the inputs' buffers hold their blocks, so the body's triple applies; the invariant and
    what the core owes pass through unread. -/
theorem sound_body36 (c : Dev nD) (t : Fin cfg36.N) :
    bodyPre36 V c t ⊢ wp frame (wpE (defs₀ (F := F)) Variants.none c none) Set.univ (bodyAt36 t) (fun _ => bodyPost36 V c t) := by
  unfold bodyPre36 bodyPost36 bodyAt36
  simp only [before36_0, before36_1, before36_2, before36_3, before36_4]
  rw [show (dat36 V c).Φ t.succ = (dat36 V c).Φ t.castSucc from rfl,
    show (dat36 V c).owesAt () t.succ = (dat36 V c).owesAt () t.castSucc from rfl,
    after36_0, after36_1, after36_2, after36_3, after36_4, after36_5]
  iintro ⟨HΦ, Ho, ⟨%d0, H0⟩, ⟨%d1, H1⟩, ⟨%d2, H2⟩, ⟨%d3, H3⟩, ⟨%d4, H4⟩, ⟨%d5, H5⟩⟩
  iapply (sound_kernel36 c Set.univ (grid36.coords t) _ _ _ _ _ _ _ _ _ _ _ _
    (iblk36 V c 0 t) (iblk36 V c 1 t) (iblk36 V c 2 t) (iblk36 V c 3 t) (iblk36 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation36 (c : Dev nD) : BodyObligation (dat36 (F := F) V c) (defs₀ (F := F)) Variants.none () Set.univ := fun t => by
  rw [bigSep_W36, bigSep_W36]
  exact sound_body36 V c t

end Region36

end Cert.KernelIdeal.Hand

end
-- ==== Proof.KI.R37.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.Regions
import Idealize.ShloMosaic.Lib.Tactic

/-! # Region 37: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region37
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk37 (c : Dev nD) (w : Fin cfg37.W) (t : Fin cfg37.N) : ((cfg37.win w).xblock (cfg37.grid.coords t)).Idx → Elt F (cfg37.win w).elt :=
  ((cfg37.win w).blk t).view.read (Elt F) (V c (Pipeline.arrRef spec37 w))

/-- The rows of X: the staging buffer the body is handed holds the block of the point, whether the
    point fetched it or not (an unfetched input has not moved its block index). -/
theorem before37_0_of {c : Dev nD} (dat : Dat τ (Elt F) Unit ℕ (UR sig nD τ) ℕ cfg37 c) (hA : dat.A 0 = V c (Pipeline.arrRef spec37 0))
    (hafter : ∀ t, dat.after 0 t = iblk37 V c 0 t) (t : Fin cfg37.N) (d) : dat.before 0 t d = iblk37 V c 0 t :=
  (dat.before_in_eq_fetched 0 rfl (fun _ => rfl) (fun _ _ _ => rfl) (fun t => by rw [hafter]; unfold Dat.blockOf iblk37; rw [hA]; try rfl) t d).trans
    (by unfold Dat.fetched Dat.blockOf iblk37; rw [hA]; try rfl)

/-- The matrix W: fetched at the first point only, and found in place at every later one. -/
theorem before37_1_of {c : Dev nD} (dat : Dat τ (Elt F) Unit ℕ (UR sig nD τ) ℕ cfg37 c) (hA : dat.A 1 = V c (Pipeline.arrRef spec37 1))
    (hafter : ∀ t, dat.after 1 t = iblk37 V c 1 t) (t : Fin cfg37.N) (d) : dat.before 1 t d = iblk37 V c 1 t :=
  (dat.before_in_eq_fetched 1 rfl (fun _ => rfl) (fun _ _ _ => rfl) (fun t => by rw [hafter]; unfold Dat.blockOf iblk37; rw [hA]; try rfl) t d).trans
    (by unfold Dat.fetched Dat.blockOf iblk37; rw [hA]; try rfl)

/-! ## The body's accesses: each buffer whole -/

noncomputable abbrev r37_0 : Rect S2000x64 := Rect.unit (s := S2000x64) ![0, 0] S2000x64.size inb_S2000x64_S2000x64_0_0
noncomputable abbrev r37_1 : Rect S64x64 := Rect.unit (s := S64x64) ![0, 0] S64x64.size inb_S64x64_S64x64_0_0
noncomputable abbrev r37_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out37_2 (x0 : Vec F S2000x64 .f32) (x1 : Vec F S64x64 .f32) : Vec F S2000x64 .f32 :=
  View.canon [⟨r37_2, k37_pay1 (View.ld x0 r37_0) (View.ld x1 r37_1)⟩]

/-- The store's rectangle is the whole buffer, so it covers every index. -/
theorem cover37_2 (p0 : Vec F S2000x64 .f32) (y : S2000x64.Idx) :
    ∃ pc ∈ ([⟨r37_2, p0⟩] : List (View.Piece (Elt F) S2000x64 .f32)), y ∈ pc.1.set :=
  View.cover_of_tiled [⟨r37_2, p0⟩] S2000x64.size (by rfl) y

/-! ## The body's triple -/

set_option maxHeartbeats 1000000 in
/-- On whole staging memrefs, the inputs' holding x0 and x1 and the output's holding anything, the body
    runs to a state where the inputs' are unchanged and the output's holds out37_2 x0 x1. The body also reads
    the output buffer before storing into it; the value read is not used. -/
theorem sound_kernel37 (c : Dev nD) (E : Set ℕ) (i : grid37.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out37_2 x0 x1)) -∗ K ⟨⟩))
      ⊢ wp frame (wpE (defs₀ (F := F)) Variants.none c none) E (cc37__linear_kernel i arg1 harg1 arg2 harg2 arg3 harg3) K := by
  simp only [cc37__linear_kernel_eq_skeleton]; unfold cc37__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover37_2 _)

/-! ## The pipeline's proof data -/

/-- The arrays as the region finds them; after the body at point t the inputs' buffers at their blocks
    and the output's at the product block; the invariant is the scoped rest and the generator register,
    untouched; nothing owed; full shares. -/
noncomputable def dat37 (c : Dev nD) : Dat τ (Elt F) Unit ℕ (UR sig nD τ) ℕ cfg37 c where
  A w := V c (Pipeline.arrRef spec37 w)
  after w t := match w with
    | ⟨0, _⟩ => iblk37 V c 0 t
    | ⟨1, _⟩ => iblk37 V c 1 t
    | ⟨2, _⟩ => out37_2 (iblk37 V c 0 t) (iblk37 V c 1 t)
  Φ _ := Pipeline.ΦA spec37 c
  q _ := fullShare
  owed _ := 0

theorem A_eq37 (c : Dev nD) (w : Fin cfg37.W) : (dat37 V c).A w = V c (Pipeline.arrRef spec37 w) := by
  dsimp only [dat37]

theorem after37_0 (c : Dev nD) (t : Fin cfg37.N) : (dat37 V c).after 0 t = iblk37 V c 0 t := by dsimp only [dat37]
theorem after37_1 (c : Dev nD) (t : Fin cfg37.N) : (dat37 V c).after 1 t = iblk37 V c 1 t := by dsimp only [dat37]
theorem after37_2 (c : Dev nD) (t : Fin cfg37.N) : (dat37 V c).after 2 t = out37_2 (iblk37 V c 0 t) (iblk37 V c 1 t) := by dsimp only [dat37]

theorem before37_0 (c : Dev nD) (t : Fin cfg37.N) (d) : (dat37 V c).before 0 t d = iblk37 V c 0 t :=
  before37_0_of V (dat37 V c) (A_eq37 V c 0) (after37_0 V c) t d
theorem before37_1 (c : Dev nD) (t : Fin cfg37.N) (d) : (dat37 V c).before 1 t d = iblk37 V c 1 t :=
  before37_1_of V (dat37 V c) (A_eq37 V c 1) (after37_1 V c) t d

/-! ## The body obligation, at a generic point -/

/-- What the body is called with at point t, window by window, -/
noncomputable def bodyPre37 (c : Dev nD) (t : Fin cfg37.N) : sProp 𝕄 :=
  iprop((dat37 V c).Φ t.castSucc ∗ (dat37 V c).owesAt () t.castSucc
    ∗ (∃ d, owns (c : Thread nD τ) (st37_0 t) fullShare ((dat37 V c).before 0 t d))
    ∗ (∃ d, owns (c : Thread nD τ) (st37_1 t) fullShare ((dat37 V c).before 1 t d))
    ∗ (∃ d, owns (c : Thread nD τ) (st37_2 t) fullShare ((dat37 V c).before 2 t d)))

/-- and what it returns. -/
noncomputable def bodyPost37 (c : Dev nD) (t : Fin cfg37.N) : sProp 𝕄 :=
  iprop((dat37 V c).Φ t.succ ∗ (dat37 V c).owesAt () t.succ
    ∗ owns (c : Thread nD τ) (st37_0 t) fullShare ((dat37 V c).after 0 t)
    ∗ owns (c : Thread nD τ) (st37_1 t) fullShare ((dat37 V c).after 1 t)
    ∗ owns (c : Thread nD τ) (st37_2 t) fullShare ((dat37 V c).after 2 t))

/-- The inputs' memrefs hold their blocks, so the body's triple applies; the invariant and what the core
    owes pass through unread. -/
theorem sound_body37 (c : Dev nD) (t : Fin cfg37.N) :
    bodyPre37 V c t ⊢ wp frame (wpE (defs₀ (F := F)) Variants.none c none) Set.univ (bodyAt37 t) (fun _ => bodyPost37 V c t) := by
  unfold bodyPre37 bodyPost37 bodyAt37
  simp only [before37_0, before37_1]
  rw [show (dat37 V c).Φ t.succ = (dat37 V c).Φ t.castSucc from rfl,
    show (dat37 V c).owesAt () t.succ = (dat37 V c).owesAt () t.castSucc from rfl,
    after37_0, after37_1, after37_2]
  iintro ⟨HΦ, Ho, ⟨%d0, H0⟩, ⟨%d1, H1⟩, ⟨%d2, H2⟩⟩
  iapply (sound_kernel37 c Set.univ (grid37.coords t) _ _ _ _ _ _ (iblk37 V c 0 t) (iblk37 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation37 (c : Dev nD) : BodyObligation (dat37 (F := F) V c) (defs₀ (F := F)) Variants.none () Set.univ := fun t => by
  rw [bigSep_W37, bigSep_W37]
  exact sound_body37 V c t

end Region37

end Cert.KernelIdeal.Hand

end
-- ==== Proof.KI.R38.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.R14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The kernel is region 14's

The two regions' printed kernel functions are the same function of the grid coordinate and the memrefs (the same
text over the same shapes; the grids and the last-point conditions are the same literals), so region 14's runs of the
body, its covers and its per-case contents — all stated over abstract coordinates and memrefs — serve this region. -/

theorem cc38_kernel_eq : cc38_kernel (F := F) = cc14_kernel (F := F) := rfl

/-! ## The windows' blocks -/

/-- Window `w`'s block at point `t`, read off its array as the region finds it (`V`). -/
noncomputable def iblk38 (c : Dev nD) (w : Fin cfg38.W) (t : Fin cfg38.N) : ((cfg38.win w).xblock (cfg38.grid.coords t)).Idx → Elt F (cfg38.win w).elt :=
  ((cfg38.win w).blk t).view.read (Elt F) (V c (Pipeline.arrRef spec38 w))

/-- Input window 0's current staging buffer holds its block at every point, for any proof data whose array is
    `V`'s and whose body leaves the block in place: the window is uncut and never idle. -/
theorem before38_0_of {c : Dev nD} (dat : Dat τ (Elt F) Unit ℕ (UR sig nD τ) ℕ cfg38 c) (hA : dat.A 0 = V c (Pipeline.arrRef spec38 0))
    (hafter : ∀ t, dat.after 0 t = iblk38 V c 0 t) (t : Fin cfg38.N) (d) : dat.before 0 t d = iblk38 V c 0 t :=
  (dat.before_in_eq_fetched 0 rfl (fun _ => rfl) (fun _ _ _ => rfl) (fun t => by rw [hafter]; unfold Dat.blockOf iblk38; rw [hA]; try rfl) t d).trans
    (by unfold Dat.fetched Dat.blockOf iblk38; rw [hA]; try rfl)

/-- Input window 1 likewise: fetched at the first point only, its block index never moves, so the buffer holds
    the block at every point. -/
theorem before38_1_of {c : Dev nD} (dat : Dat τ (Elt F) Unit ℕ (UR sig nD τ) ℕ cfg38 c) (hA : dat.A 1 = V c (Pipeline.arrRef spec38 1))
    (hafter : ∀ t, dat.after 1 t = iblk38 V c 1 t) (t : Fin cfg38.N) (d) : dat.before 1 t d = iblk38 V c 1 t :=
  (dat.before_in_eq_fetched 1 rfl (fun _ => rfl) (fun _ _ _ => rfl) (fun t => by rw [hafter]; unfold Dat.blockOf iblk38; rw [hA]; try rfl) t d).trans
    (by unfold Dat.fetched Dat.blockOf iblk38; rw [hA]; try rfl)

/-- Input window 2 likewise. -/
theorem before38_2_of {c : Dev nD} (dat : Dat τ (Elt F) Unit ℕ (UR sig nD τ) ℕ cfg38 c) (hA : dat.A 2 = V c (Pipeline.arrRef spec38 2))
    (hafter : ∀ t, dat.after 2 t = iblk38 V c 2 t) (t : Fin cfg38.N) (d) : dat.before 2 t d = iblk38 V c 2 t :=
  (dat.before_in_eq_fetched 2 rfl (fun _ => rfl) (fun _ _ _ => rfl) (fun t => by rw [hafter]; unfold Dat.blockOf iblk38; rw [hA]; try rfl) t d).trans
    (by unfold Dat.fetched Dat.blockOf iblk38; rw [hA]; try rfl)

/-! ## The body's two conditions on the grid coordinate -/

/-- It holds at the first point only. -/
theorem hcond38_0 : ∀ t : Fin cfg38.N, cond14_0 (grid38.coords t) ↔ t.val % 25 = 0 :=
  (by decide +kernel : ∀ t : Fin grid38.N, cond14_0 (grid38.coords t) ↔ t.val % 25 = 0)

/-- It holds at the last point only. -/
theorem hcond38_1 : ∀ t : Fin cfg38.N, cond14_1 (grid38.coords t) ↔ t.val % 25 = 24 :=
  (by decide +kernel : ∀ t : Fin grid38.N, cond14_1 (grid38.coords t) ↔ t.val % 25 = 24)

/-! ## Where the windows are idle -/

theorem liveAt38_0 : ∀ t : Fin cfg38.N, cfg38.idle 0 (grid38.coords t) = false := by decide +kernel
theorem liveAt38_1 : ∀ t : Fin cfg38.N, cfg38.idle 1 (grid38.coords t) = false := by decide +kernel
theorem liveAt38_2 : ∀ t : Fin cfg38.N, cfg38.idle 2 (grid38.coords t) = false := by decide +kernel
theorem liveAt38_3 : ∀ t : Fin cfg38.N, cfg38.idle 3 (grid38.coords t) = false := by decide +kernel
theorem liveAt38_4 : ∀ t : Fin cfg38.N, cfg38.idle 4 (grid38.coords t) = false := by decide +kernel
/-- At the first point the body stores nothing into output 5: the window is idle there and not written back. -/
theorem idleAt38_5_A : ∀ t : Fin cfg38.N, cond14_0 (grid38.coords t) → ¬cond14_1 (grid38.coords t) → cfg38.idle 5 (grid38.coords t) = true := by decide +kernel
theorem noFlush38_5_A : ∀ t : Fin cfg38.N, cond14_0 (grid38.coords t) → ¬cond14_1 (grid38.coords t) → (cfg38.win 5).flush t = false := by decide +kernel
/-- Nor at the middle points. -/
theorem idleAt38_5_B : ∀ t : Fin cfg38.N, ¬cond14_0 (grid38.coords t) → ¬cond14_1 (grid38.coords t) → cfg38.idle 5 (grid38.coords t) = true := by decide +kernel
theorem noFlush38_5_B : ∀ t : Fin cfg38.N, ¬cond14_0 (grid38.coords t) → ¬cond14_1 (grid38.coords t) → (cfg38.win 5).flush t = false := by decide +kernel
/-- At the last point it stores the accumulated sums there: the window is live. -/
theorem liveAt38_5_C : ∀ t : Fin cfg38.N, ¬cond14_0 (grid38.coords t) → cond14_1 (grid38.coords t) → cfg38.idle 5 (grid38.coords t) = false := by decide +kernel

/-! ## The memrefs the body is called with -/

/-- Each window's current staging memref at point `t`, as the pipeline passes it, and its wholeness. -/
noncomputable abbrev ms38_0 (t : Fin cfg38.N) : Memref sig .tc .vmem S2000x64 .f32 := win38_0.stage (cfg38.slots t 0)
abbrev hs38_0 (t : Fin cfg38.N) : (ms38_0 t).IsWhole := hstage38_0 ((cfg38.slots t 0).cast nbuf38_0)
noncomputable abbrev ms38_1 (t : Fin cfg38.N) : Memref sig .tc .vmem S1x64 .f32 := win38_1.stage (cfg38.slots t 1)
abbrev hs38_1 (t : Fin cfg38.N) : (ms38_1 t).IsWhole := hstage38_1 ((cfg38.slots t 1).cast nbuf38_1)
noncomputable abbrev ms38_2 (t : Fin cfg38.N) : Memref sig .tc .vmem S2000x64 .f32 := win38_2.stage (cfg38.slots t 2)
abbrev hs38_2 (t : Fin cfg38.N) : (ms38_2 t).IsWhole := hstage38_2 ((cfg38.slots t 2).cast nbuf38_2)
noncomputable abbrev ms38_3 (t : Fin cfg38.N) : Memref sig .tc .vmem S2000x64 .f32 := win38_3.stage (cfg38.slots t 3)
abbrev hs38_3 (t : Fin cfg38.N) : (ms38_3 t).IsWhole := hstage38_3 ((cfg38.slots t 3).cast nbuf38_3)
noncomputable abbrev ms38_4 (t : Fin cfg38.N) : Memref sig .tc .vmem S2000x64 .f32 := win38_4.stage (cfg38.slots t 4)
abbrev hs38_4 (t : Fin cfg38.N) : (ms38_4 t).IsWhole := hstage38_4 ((cfg38.slots t 4).cast nbuf38_4)
noncomputable abbrev ms38_5 (t : Fin cfg38.N) : Memref sig .tc .vmem S1x64 .f32 := win38_5.stage (cfg38.slots t 5)
abbrev hs38_5 (t : Fin cfg38.N) : (ms38_5 t).IsWhole := hstage38_5 ((cfg38.slots t 5).cast nbuf38_5)
/-- The scratch operand: a whole scoped buffer of the kernel's own, in which the column sums accumulate. -/
noncomputable abbrev scM38_0 : Memref sig .tc .vmem S1x64 .f32 := Memref.whole cc38_scratch0

/-- The other scoped buffers (every other call's staging buffers and scratch), unopened. -/
noncomputable abbrev restBut38 (c : Dev nD) : sProp 𝕄 :=
  Pipeline.scopedRestBut (Ix := Unit) (Name := ℕ) (U := UR sig nD τ) (Lvl := ℕ) (Val := Elt F) spec38 c [cc38_scratch0]

/-- The region's invariant as the launch hands it over, with the scratch operand split out as a memref owned at
    some contents: what the body obligation hands the run and takes back. -/
theorem PhiA38_eq (c : Dev nD) :
    (Pipeline.ΦA spec38 c : sProp 𝕄)
      = iprop(iprop(iprop((∃ d, owns (c : Thread nD τ) scM38_0 fullShare d)) ∗ restBut38 (F := F) c) ∗ (∃ r, prngReg c r)) := by
  unfold Pipeline.ΦA; rw [scopedRest38_split]; simp only [scM38_0, owns_whole]; try rfl

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt38 (c : Dev nD) : (n : ℕ) → n < cfg38.N → Vec F S2000x64 .f32 × Vec F S2000x64 .f32 × Vec F S1x64 .f32 × Vec F S1x64 .f32
  | 0, hn => (out14_A_3 c (grid38.coords ⟨0, hn⟩) (ms38_0 ⟨0, hn⟩) (hs38_0 ⟨0, hn⟩) (ms38_1 ⟨0, hn⟩) (hs38_1 ⟨0, hn⟩) (ms38_2 ⟨0, hn⟩) (hs38_2 ⟨0, hn⟩) (ms38_3 ⟨0, hn⟩) (hs38_3 ⟨0, hn⟩) (ms38_4 ⟨0, hn⟩) (hs38_4 ⟨0, hn⟩) (ms38_5 ⟨0, hn⟩) (hs38_5 ⟨0, hn⟩) scM38_0 (Memref.isWhole_whole _) ((hcond38_0 ⟨0, hn⟩).mpr (Nat.zero_mod _)) (fun h => (fun h => by (try dsimp only at h); omega) ((hcond38_1 ⟨0, hn⟩).mp h)) (iblk38 V c 0 ⟨0, hn⟩) (iblk38 V c 1 ⟨0, hn⟩) (iblk38 V c 2 ⟨0, hn⟩), out14_A_4 c (grid38.coords ⟨0, hn⟩) (ms38_0 ⟨0, hn⟩) (hs38_0 ⟨0, hn⟩) (ms38_1 ⟨0, hn⟩) (hs38_1 ⟨0, hn⟩) (ms38_2 ⟨0, hn⟩) (hs38_2 ⟨0, hn⟩) (ms38_3 ⟨0, hn⟩) (hs38_3 ⟨0, hn⟩) (ms38_4 ⟨0, hn⟩) (hs38_4 ⟨0, hn⟩) (ms38_5 ⟨0, hn⟩) (hs38_5 ⟨0, hn⟩) scM38_0 (Memref.isWhole_whole _) ((hcond38_0 ⟨0, hn⟩).mpr (Nat.zero_mod _)) (fun h => (fun h => by (try dsimp only at h); omega) ((hcond38_1 ⟨0, hn⟩).mp h)) (iblk38 V c 0 ⟨0, hn⟩) (iblk38 V c 1 ⟨0, hn⟩) (iblk38 V c 2 ⟨0, hn⟩), out14_A_5 c (grid38.coords ⟨0, hn⟩) (ms38_0 ⟨0, hn⟩) (hs38_0 ⟨0, hn⟩) (ms38_1 ⟨0, hn⟩) (hs38_1 ⟨0, hn⟩) (ms38_2 ⟨0, hn⟩) (hs38_2 ⟨0, hn⟩) (ms38_3 ⟨0, hn⟩) (hs38_3 ⟨0, hn⟩) (ms38_4 ⟨0, hn⟩) (hs38_4 ⟨0, hn⟩) (ms38_5 ⟨0, hn⟩) (hs38_5 ⟨0, hn⟩) scM38_0 (Memref.isWhole_whole _) ((hcond38_0 ⟨0, hn⟩).mpr (Nat.zero_mod _)) (fun h => (fun h => by (try dsimp only at h); omega) ((hcond38_1 ⟨0, hn⟩).mp h)) (iblk38 V c 0 ⟨0, hn⟩) (iblk38 V c 1 ⟨0, hn⟩) (iblk38 V c 2 ⟨0, hn⟩), sout14_A_0 c (grid38.coords ⟨0, hn⟩) (ms38_0 ⟨0, hn⟩) (hs38_0 ⟨0, hn⟩) (ms38_1 ⟨0, hn⟩) (hs38_1 ⟨0, hn⟩) (ms38_2 ⟨0, hn⟩) (hs38_2 ⟨0, hn⟩) (ms38_3 ⟨0, hn⟩) (hs38_3 ⟨0, hn⟩) (ms38_4 ⟨0, hn⟩) (hs38_4 ⟨0, hn⟩) (ms38_5 ⟨0, hn⟩) (hs38_5 ⟨0, hn⟩) scM38_0 (Memref.isWhole_whole _) ((hcond38_0 ⟨0, hn⟩).mpr (Nat.zero_mod _)) (fun h => (fun h => by (try dsimp only at h); omega) ((hcond38_1 ⟨0, hn⟩).mp h)) (iblk38 V c 0 ⟨0, hn⟩) (iblk38 V c 1 ⟨0, hn⟩) (iblk38 V c 2 ⟨0, hn⟩))
  | n + 1, hn =>
    if h0 : (n + 1) % 25 = 0 then
      if h1 : (n + 1) % 25 = 24 then
        False.elim (by omega)
      else
        (out14_A_3 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) ((hcond38_0 ⟨n + 1, hn⟩).mpr h0) (fun h => h1 ((hcond38_1 ⟨n + 1, hn⟩).mp h)) (iblk38 V c 0 ⟨n + 1, hn⟩) (iblk38 V c 1 ⟨n + 1, hn⟩) (iblk38 V c 2 ⟨n + 1, hn⟩), out14_A_4 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) ((hcond38_0 ⟨n + 1, hn⟩).mpr h0) (fun h => h1 ((hcond38_1 ⟨n + 1, hn⟩).mp h)) (iblk38 V c 0 ⟨n + 1, hn⟩) (iblk38 V c 1 ⟨n + 1, hn⟩) (iblk38 V c 2 ⟨n + 1, hn⟩), out14_A_5 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) ((hcond38_0 ⟨n + 1, hn⟩).mpr h0) (fun h => h1 ((hcond38_1 ⟨n + 1, hn⟩).mp h)) (iblk38 V c 0 ⟨n + 1, hn⟩) (iblk38 V c 1 ⟨n + 1, hn⟩) (iblk38 V c 2 ⟨n + 1, hn⟩), sout14_A_0 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) ((hcond38_0 ⟨n + 1, hn⟩).mpr h0) (fun h => h1 ((hcond38_1 ⟨n + 1, hn⟩).mp h)) (iblk38 V c 0 ⟨n + 1, hn⟩) (iblk38 V c 1 ⟨n + 1, hn⟩) (iblk38 V c 2 ⟨n + 1, hn⟩))
    else
      if h1 : (n + 1) % 25 = 24 then
        (out14_C_3 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) ((hcond38_1 ⟨n + 1, hn⟩).mpr h1) (iblk38 V c 0 ⟨n + 1, hn⟩) (iblk38 V c 1 ⟨n + 1, hn⟩) (iblk38 V c 2 ⟨n + 1, hn⟩) (outsAt38 c n (Nat.lt_of_succ_lt hn)).2.2.2, out14_C_4 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) ((hcond38_1 ⟨n + 1, hn⟩).mpr h1) (iblk38 V c 0 ⟨n + 1, hn⟩) (iblk38 V c 1 ⟨n + 1, hn⟩) (iblk38 V c 2 ⟨n + 1, hn⟩) (outsAt38 c n (Nat.lt_of_succ_lt hn)).2.2.2, out14_C_5 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) ((hcond38_1 ⟨n + 1, hn⟩).mpr h1) (iblk38 V c 0 ⟨n + 1, hn⟩) (iblk38 V c 1 ⟨n + 1, hn⟩) (iblk38 V c 2 ⟨n + 1, hn⟩) (outsAt38 c n (Nat.lt_of_succ_lt hn)).2.2.2, sout14_C_0 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) ((hcond38_1 ⟨n + 1, hn⟩).mpr h1) (iblk38 V c 0 ⟨n + 1, hn⟩) (iblk38 V c 1 ⟨n + 1, hn⟩) (iblk38 V c 2 ⟨n + 1, hn⟩) (outsAt38 c n (Nat.lt_of_succ_lt hn)).2.2.2)
      else
        (out14_B_3 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) (fun h => h1 ((hcond38_1 ⟨n + 1, hn⟩).mp h)) (iblk38 V c 0 ⟨n + 1, hn⟩) (iblk38 V c 1 ⟨n + 1, hn⟩) (iblk38 V c 2 ⟨n + 1, hn⟩) (outsAt38 c n (Nat.lt_of_succ_lt hn)).2.2.2, out14_B_4 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) (fun h => h1 ((hcond38_1 ⟨n + 1, hn⟩).mp h)) (iblk38 V c 0 ⟨n + 1, hn⟩) (iblk38 V c 1 ⟨n + 1, hn⟩) (iblk38 V c 2 ⟨n + 1, hn⟩) (outsAt38 c n (Nat.lt_of_succ_lt hn)).2.2.2, out14_B_5 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) (fun h => h1 ((hcond38_1 ⟨n + 1, hn⟩).mp h)) (iblk38 V c 0 ⟨n + 1, hn⟩) (iblk38 V c 1 ⟨n + 1, hn⟩) (iblk38 V c 2 ⟨n + 1, hn⟩) (outsAt38 c n (Nat.lt_of_succ_lt hn)).2.2.2, sout14_B_0 c (grid38.coords ⟨n + 1, hn⟩) (ms38_0 ⟨n + 1, hn⟩) (hs38_0 ⟨n + 1, hn⟩) (ms38_1 ⟨n + 1, hn⟩) (hs38_1 ⟨n + 1, hn⟩) (ms38_2 ⟨n + 1, hn⟩) (hs38_2 ⟨n + 1, hn⟩) (ms38_3 ⟨n + 1, hn⟩) (hs38_3 ⟨n + 1, hn⟩) (ms38_4 ⟨n + 1, hn⟩) (hs38_4 ⟨n + 1, hn⟩) (ms38_5 ⟨n + 1, hn⟩) (hs38_5 ⟨n + 1, hn⟩) scM38_0 (Memref.isWhole_whole _) (fun h => h0 ((hcond38_0 ⟨n + 1, hn⟩).mp h)) (fun h => h1 ((hcond38_1 ⟨n + 1, hn⟩).mp h)) (iblk38 V c 0 ⟨n + 1, hn⟩) (iblk38 V c 1 ⟨n + 1, hn⟩) (iblk38 V c 2 ⟨n + 1, hn⟩) (outsAt38 c n (Nat.lt_of_succ_lt hn)).2.2.2)

/-- `outsAt38` at the first point: case A's contents. -/
theorem outsAt38_A (c : Dev nD) (t : Fin cfg38.N) (h0 : t.val % 25 = 0) (h1 : ¬t.val % 25 = 24) :
    outsAt38 V c t.val t.isLt = (out14_A_3 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) ((hcond38_0 t).mpr h0) (fun h => h1 ((hcond38_1 t).mp h)) (iblk38 V c 0 t) (iblk38 V c 1 t) (iblk38 V c 2 t), out14_A_4 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) ((hcond38_0 t).mpr h0) (fun h => h1 ((hcond38_1 t).mp h)) (iblk38 V c 0 t) (iblk38 V c 1 t) (iblk38 V c 2 t), out14_A_5 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) ((hcond38_0 t).mpr h0) (fun h => h1 ((hcond38_1 t).mp h)) (iblk38 V c 0 t) (iblk38 V c 1 t) (iblk38 V c 2 t), sout14_A_0 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) ((hcond38_0 t).mpr h0) (fun h => h1 ((hcond38_1 t).mp h)) (iblk38 V c 0 t) (iblk38 V c 1 t) (iblk38 V c 2 t)) := by
  obtain ⟨n, hn⟩ := t
  cases n with
  | zero => exact rfl
  | succ n => exact (dif_pos h0).trans ((dif_neg h1).trans rfl)

/-- `outsAt38` at a middle point: case B's contents, over what the point before left in the scratch. -/
theorem outsAt38_B (c : Dev nD) (t : Fin cfg38.N) (h0 : ¬t.val % 25 = 0) (h1 : ¬t.val % 25 = 24) :
    outsAt38 V c t.val t.isLt = (out14_B_3 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) (fun h => h1 ((hcond38_1 t).mp h)) (iblk38 V c 0 t) (iblk38 V c 1 t) (iblk38 V c 2 t) (outsAt38 V c (t.val - 1) (Nat.lt_of_le_of_lt (Nat.sub_le _ _) t.isLt)).2.2.2, out14_B_4 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) (fun h => h1 ((hcond38_1 t).mp h)) (iblk38 V c 0 t) (iblk38 V c 1 t) (iblk38 V c 2 t) (outsAt38 V c (t.val - 1) (Nat.lt_of_le_of_lt (Nat.sub_le _ _) t.isLt)).2.2.2, out14_B_5 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) (fun h => h1 ((hcond38_1 t).mp h)) (iblk38 V c 0 t) (iblk38 V c 1 t) (iblk38 V c 2 t) (outsAt38 V c (t.val - 1) (Nat.lt_of_le_of_lt (Nat.sub_le _ _) t.isLt)).2.2.2, sout14_B_0 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) (fun h => h1 ((hcond38_1 t).mp h)) (iblk38 V c 0 t) (iblk38 V c 1 t) (iblk38 V c 2 t) (outsAt38 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt38` at the last point: case C's contents, over what the point before left in the scratch. -/
theorem outsAt38_C (c : Dev nD) (t : Fin cfg38.N) (h0 : ¬t.val % 25 = 0) (h1 : t.val % 25 = 24) :
    outsAt38 V c t.val t.isLt = (out14_C_3 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) ((hcond38_1 t).mpr h1) (iblk38 V c 0 t) (iblk38 V c 1 t) (iblk38 V c 2 t) (outsAt38 V c (t.val - 1) (Nat.lt_of_le_of_lt (Nat.sub_le _ _) t.isLt)).2.2.2, out14_C_4 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) ((hcond38_1 t).mpr h1) (iblk38 V c 0 t) (iblk38 V c 1 t) (iblk38 V c 2 t) (outsAt38 V c (t.val - 1) (Nat.lt_of_le_of_lt (Nat.sub_le _ _) t.isLt)).2.2.2, out14_C_5 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) ((hcond38_1 t).mpr h1) (iblk38 V c 0 t) (iblk38 V c 1 t) (iblk38 V c 2 t) (outsAt38 V c (t.val - 1) (Nat.lt_of_le_of_lt (Nat.sub_le _ _) t.isLt)).2.2.2, sout14_C_0 c (grid38.coords t) (ms38_0 t) (hs38_0 t) (ms38_1 t) (hs38_1 t) (ms38_2 t) (hs38_2 t) (ms38_3 t) (hs38_3 t) (ms38_4 t) (hs38_4 t) (ms38_5 t) (hs38_5 t) scM38_0 (Memref.isWhole_whole _) (fun h => h0 ((hcond38_0 t).mp h)) ((hcond38_1 t).mpr h1) (iblk38 V c 0 t) (iblk38 V c 1 t) (iblk38 V c 2 t) (outsAt38 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt38`'s last component), the other
    scoped buffers unopened and the generator register at some state. -/
noncomputable def PhiS38 (c : Dev nD) : (n : ℕ) → n ≤ cfg38.N → sProp 𝕄
  | 0, _ => Pipeline.ΦA spec38 c
  | n + 1, hn => iprop(iprop(iprop(owns (c : Thread nD τ) scM38_0 fullShare ((outsAt38 V c n hn).2.2.2)) ∗ restBut38 (F := F) c) ∗ (∃ r, prngReg c r))

theorem PhiS38_zero (c : Dev nD) (n : ℕ) (h : n ≤ cfg38.N) (hz : n = 0) : PhiS38 V c n h = Pipeline.ΦA spec38 c := by
  subst hz; rfl

/-- After point `n` (before point `n + 1`): the scratch at that point's contents. -/
theorem PhiS38_succ (c : Dev nD) (n : ℕ) (hn : n < cfg38.N) :
    PhiS38 V c (n + 1) hn = iprop(iprop(iprop(owns (c : Thread nD τ) scM38_0 fullShare ((outsAt38 V c n hn).2.2.2)) ∗ restBut38 (F := F) c) ∗ (∃ r, prngReg c r)) := rfl

/-- Before a point that is not the first: the scratch at what the point before left. -/
theorem PhiS38_pos (c : Dev nD) (n : ℕ) (h : n ≤ cfg38.N) (hz : n ≠ 0) :
    PhiS38 V c n h = iprop(iprop(iprop(owns (c : Thread nD τ) scM38_0 fullShare ((outsAt38 V c (n - 1) (by omega)).2.2.2)) ∗ restBut38 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt38`; the invariant `PhiS38`; nothing owed;
    full shares. -/
noncomputable def dat38 (c : Dev nD) : Dat τ (Elt F) Unit ℕ (UR sig nD τ) ℕ cfg38 c where
  A w := V c (Pipeline.arrRef spec38 w)
  after w t := match w with
    | ⟨0, _⟩ => iblk38 V c 0 t
    | ⟨1, _⟩ => iblk38 V c 1 t
    | ⟨2, _⟩ => iblk38 V c 2 t
    | ⟨3, _⟩ => (outsAt38 V c t.val t.isLt).1
    | ⟨4, _⟩ => (outsAt38 V c t.val t.isLt).2.1
    | ⟨5, _⟩ => (outsAt38 V c t.val t.isLt).2.2.1
  Φ t := PhiS38 V c t.val (Nat.le_of_lt_succ t.isLt)
  q _ := fullShare
  owed _ := 0

/-- The proof data's arrays are the region-entry contents. -/
theorem A_eq38 (c : Dev nD) (w : Fin cfg38.W) : (dat38 V c).A w = V c (Pipeline.arrRef spec38 w) := by
  dsimp only [dat38]

/-- The invariant at a point's start, restated at `t.val`. -/
theorem PhiS38_castSucc (c : Dev nD) (t : Fin cfg38.N) :
    (dat38 V c).Φ t.castSucc = PhiS38 V c t.val (Nat.le_of_lt t.isLt) := by
  dsimp only [dat38]; simp only [Fin.coe_castSucc]

/-- What the body leaves, window by window. -/
theorem after38_0 (c : Dev nD) (t : Fin cfg38.N) : (dat38 V c).after 0 t = iblk38 V c 0 t := by dsimp only [dat38]
theorem after38_1 (c : Dev nD) (t : Fin cfg38.N) : (dat38 V c).after 1 t = iblk38 V c 1 t := by dsimp only [dat38]
theorem after38_2 (c : Dev nD) (t : Fin cfg38.N) : (dat38 V c).after 2 t = iblk38 V c 2 t := by dsimp only [dat38]
theorem after38_3 (c : Dev nD) (t : Fin cfg38.N) : (dat38 V c).after 3 t = (outsAt38 V c t.val t.isLt).1 := by dsimp only [dat38]
theorem after38_4 (c : Dev nD) (t : Fin cfg38.N) : (dat38 V c).after 4 t = (outsAt38 V c t.val t.isLt).2.1 := by dsimp only [dat38]
theorem after38_5 (c : Dev nD) (t : Fin cfg38.N) : (dat38 V c).after 5 t = (outsAt38 V c t.val t.isLt).2.2.1 := by dsimp only [dat38]

/-- Each input's current staging buffer holds its block at every point, fetched there or not. -/
theorem before38_0 (c : Dev nD) (t : Fin cfg38.N) (d) : (dat38 V c).before 0 t d = iblk38 V c 0 t :=
  before38_0_of V (dat38 V c) (A_eq38 V c 0) (after38_0 V c) t d
theorem before38_1 (c : Dev nD) (t : Fin cfg38.N) (d) : (dat38 V c).before 1 t d = iblk38 V c 1 t :=
  before38_1_of V (dat38 V c) (A_eq38 V c 1) (after38_1 V c) t d
theorem before38_2 (c : Dev nD) (t : Fin cfg38.N) (d) : (dat38 V c).before 2 t d = iblk38 V c 2 t :=
  before38_2_of V (dat38 V c) (A_eq38 V c 2) (after38_2 V c) t d

/-! ## The body obligation, at a generic point -/

/-- What the body is called with at point `t` (the windows one by one), -/
noncomputable def bodyPre38 (c : Dev nD) (t : Fin cfg38.N) : sProp 𝕄 :=
  iprop((dat38 V c).Φ t.castSucc ∗ (dat38 V c).owesAt () t.castSucc
    ∗ (∃ d, owns (c : Thread nD τ) (ms38_0 t) fullShare ((dat38 V c).before 0 t d))
    ∗ (∃ d, owns (c : Thread nD τ) (ms38_1 t) fullShare ((dat38 V c).before 1 t d))
    ∗ (∃ d, owns (c : Thread nD τ) (ms38_2 t) fullShare ((dat38 V c).before 2 t d))
    ∗ (∃ d, owns (c : Thread nD τ) (ms38_3 t) fullShare ((dat38 V c).before 3 t d))
    ∗ (∃ d, owns (c : Thread nD τ) (ms38_4 t) fullShare ((dat38 V c).before 4 t d))
    ∗ (∃ d, owns (c : Thread nD τ) (ms38_5 t) fullShare ((dat38 V c).before 5 t d)))

/-- and what it returns. -/
noncomputable def bodyPost38 (c : Dev nD) (t : Fin cfg38.N) : sProp 𝕄 :=
  iprop((dat38 V c).Φ t.succ ∗ (dat38 V c).owesAt () t.succ
    ∗ (dat38 V c).leavesExact 0 t
    ∗ (dat38 V c).leavesExact 1 t
    ∗ (dat38 V c).leavesExact 2 t
    ∗ (dat38 V c).leavesExact 3 t
    ∗ (dat38 V c).leavesExact 4 t
    ∗ (dat38 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body38 (c : Dev nD) (t : Fin cfg38.N) :
    bodyPre38 V c t ⊢ wp frame (wpE (defs₀ (F := F)) Variants.none c none) Set.univ (bodyAt38 t) (fun _ => bodyPost38 V c t) := by
  unfold bodyPre38 bodyPost38 bodyAt38
  rw [cc38_kernel_eq]
  simp only [before38_0, before38_1, before38_2]
  rw [show (dat38 V c).owesAt () t.succ = (dat38 V c).owesAt () t.castSucc from rfl]
  rw [show (dat38 V c).Φ t.succ = PhiS38 V c (t.val + 1) t.isLt from rfl, PhiS38_succ]
  have hN : t.val < 25 := lt_of_lt_of_eq t.isLt (show cfg38.N = 25 from N_38)
  by_cases h0 : t.val % 25 = 0
  · by_cases h1 : t.val % 25 = 24
    · exfalso; omega
    · rw [show (dat38 V c).leavesExact 0 t = owns (c : Thread nD τ) (ms38_0 t) fullShare ((dat38 V c).after 0 t) from by
        unfold Dat.leavesExact; rw [liveAt38_0 t], after38_0]
      rw [show (dat38 V c).leavesExact 1 t = owns (c : Thread nD τ) (ms38_1 t) fullShare ((dat38 V c).after 1 t) from by
        unfold Dat.leavesExact; rw [liveAt38_1 t], after38_1]
      rw [show (dat38 V c).leavesExact 2 t = owns (c : Thread nD τ) (ms38_2 t) fullShare ((dat38 V c).after 2 t) from by
        unfold Dat.leavesExact; rw [liveAt38_2 t], after38_2]
      rw [show (dat38 V c).leavesExact 3 t = owns (c : Thread nD τ) (ms38_3 t) fullShare ((dat38 V c).after 3 t) from by
        unfold Dat.leavesExact; rw [liveAt38_3 t], after38_3]
      rw [show (dat38 V c).leavesExact 4 t = owns (c : Thread nD τ) (ms38_4 t) fullShare ((dat38 V c).after 4 t) from by
        unfold Dat.leavesExact; rw [liveAt38_4 t], after38_4]
      rw [Dat.leavesExact_idle (dat38 V c) 5 t (idleAt38_5_A t ((hcond38_0 t).mpr h0) (fun h => h1 ((hcond38_1 t).mp h))) (noFlush38_5_A t ((hcond38_0 t).mpr h0) (fun h => h1 ((hcond38_1 t).mp h)))]
      rw [outsAt38_A V c t h0 h1]
      unfold out14_A_3 out14_A_4 sout14_A_0; (try dsimp only)
      by_cases hz : t.val = 0
      · rw [PhiS38_castSucc V c t, PhiS38_zero V c _ _ hz, PhiA38_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid38.coords t) _ _ _ _ _ _ _ _ _ _ _ _ _ _ ((hcond38_0 t).mpr h0) (fun h => h1 ((hcond38_1 t).mp h)) (iblk38 V c 0 t) (iblk38 V c 1 t) (iblk38 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat38 V c).leavesExact 0 t = owns (c : Thread nD τ) (ms38_0 t) fullShare ((dat38 V c).after 0 t) from by
        unfold Dat.leavesExact; rw [liveAt38_0 t], after38_0]
      rw [show (dat38 V c).leavesExact 1 t = owns (c : Thread nD τ) (ms38_1 t) fullShare ((dat38 V c).after 1 t) from by
        unfold Dat.leavesExact; rw [liveAt38_1 t], after38_1]
      rw [show (dat38 V c).leavesExact 2 t = owns (c : Thread nD τ) (ms38_2 t) fullShare ((dat38 V c).after 2 t) from by
        unfold Dat.leavesExact; rw [liveAt38_2 t], after38_2]
      rw [show (dat38 V c).leavesExact 3 t = owns (c : Thread nD τ) (ms38_3 t) fullShare ((dat38 V c).after 3 t) from by
        unfold Dat.leavesExact; rw [liveAt38_3 t], after38_3]
      rw [show (dat38 V c).leavesExact 4 t = owns (c : Thread nD τ) (ms38_4 t) fullShare ((dat38 V c).after 4 t) from by
        unfold Dat.leavesExact; rw [liveAt38_4 t], after38_4]
      rw [show (dat38 V c).leavesExact 5 t = owns (c : Thread nD τ) (ms38_5 t) fullShare ((dat38 V c).after 5 t) from by
        unfold Dat.leavesExact; rw [liveAt38_5_C t (fun h => h0 ((hcond38_0 t).mp h)) ((hcond38_1 t).mpr h1)], after38_5]
      rw [outsAt38_C V c t h0 h1]
      unfold out14_C_3 out14_C_4 out14_C_5 sout14_C_0; (try dsimp only)
      by_cases hz : t.val = 0
      · exfalso; omega
      · rw [PhiS38_castSucc V c t, PhiS38_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid38.coords t) _ _ _ _ _ _ _ _ _ _ _ _ _ _ (fun h => h0 ((hcond38_0 t).mp h)) ((hcond38_1 t).mpr h1) (iblk38 V c 0 t) (iblk38 V c 1 t) (iblk38 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat38 V c).leavesExact 0 t = owns (c : Thread nD τ) (ms38_0 t) fullShare ((dat38 V c).after 0 t) from by
        unfold Dat.leavesExact; rw [liveAt38_0 t], after38_0]
      rw [show (dat38 V c).leavesExact 1 t = owns (c : Thread nD τ) (ms38_1 t) fullShare ((dat38 V c).after 1 t) from by
        unfold Dat.leavesExact; rw [liveAt38_1 t], after38_1]
      rw [show (dat38 V c).leavesExact 2 t = owns (c : Thread nD τ) (ms38_2 t) fullShare ((dat38 V c).after 2 t) from by
        unfold Dat.leavesExact; rw [liveAt38_2 t], after38_2]
      rw [show (dat38 V c).leavesExact 3 t = owns (c : Thread nD τ) (ms38_3 t) fullShare ((dat38 V c).after 3 t) from by
        unfold Dat.leavesExact; rw [liveAt38_3 t], after38_3]
      rw [show (dat38 V c).leavesExact 4 t = owns (c : Thread nD τ) (ms38_4 t) fullShare ((dat38 V c).after 4 t) from by
        unfold Dat.leavesExact; rw [liveAt38_4 t], after38_4]
      rw [Dat.leavesExact_idle (dat38 V c) 5 t (idleAt38_5_B t (fun h => h0 ((hcond38_0 t).mp h)) (fun h => h1 ((hcond38_1 t).mp h))) (noFlush38_5_B t (fun h => h0 ((hcond38_0 t).mp h)) (fun h => h1 ((hcond38_1 t).mp h)))]
      rw [outsAt38_B V c t h0 h1]
      unfold out14_B_3 out14_B_4 sout14_B_0; (try dsimp only)
      by_cases hz : t.val = 0
      · exfalso; omega
      · rw [PhiS38_castSucc V c t, PhiS38_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid38.coords t) _ _ _ _ _ _ _ _ _ _ _ _ _ _ (fun h => h0 ((hcond38_0 t).mp h)) (fun h => h1 ((hcond38_1 t).mp h)) (iblk38 V c 0 t) (iblk38 V c 1 t) (iblk38 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation38 (c : Dev nD) : BodyObligation (dat38 (F := F) V c) (defs₀ (F := F)) Variants.none () Set.univ := fun t => by
  rw [bigSep_W38, bigSep_W38]
  exact sound_body38 V c t

/-- What the launch hands the region is the invariant before the first point. -/
theorem hin38 (c : Dev nD) : Pipeline.ΦA spec38 c ⊢ (dat38 V c).Φ 0 := by
  rw [show (dat38 V c).Φ 0 = PhiS38 V c 0 (Nat.zero_le _) from rfl, PhiS38_zero V c 0 _ rfl]
  try exact Idealize.SL.BI.Entails.refl _

/-- After any point but the first the invariant gives it back: the scratch's named contents are forgotten. -/
theorem Phi_out38 (c : Dev nD) (t : Fin (cfg38.N + 1)) (ht : t.val ≠ 0) : (dat38 V c).Φ t ⊢ Pipeline.ΦA spec38 c := by
  rw [show (dat38 V c).Φ t = PhiS38 V c t.val (Nat.le_of_lt_succ t.isLt) from rfl, PhiS38_pos V c _ _ ht, PhiA38_eq]
  iintro ⟨⟨HS0, HR⟩, Hg⟩
  isplitl [HS0 HR]
  · isplitl [HS0]
    · iexists _; iexact HS0
    iexact HR
  iexact Hg

/-- The same after the last point. -/
theorem hout38 (c : Dev nD) : (dat38 V c).Φ (Fin.last cfg38.N) ⊢ Pipeline.ΦA spec38 c :=
  Phi_out38 V c _ (by rw [Fin.val_last]; have : cfg38.N = 25 := N_38; omega)

end Cert.KernelIdeal.Hand

end
-- ==== Proof.KI.R39.lean ====
import proofs.«408084_j48395691492010_3_alg».proof.Proof.KI.R3

/-! Region 39: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk39 (c : Dev nD) (w : Fin cfg39.W) (t : Fin cfg39.N) : ((cfg39.win w).xblock (cfg39.grid.coords t)).Idx → Elt F (cfg39.win w).elt :=
  ((cfg39.win w).blk t).view.read (Elt F) (V c (Pipeline.arrRef spec39 w))

/-- The row-tile window (window 0, fetched at every point) holds its block when the body runs. -/
theorem before39_0_of {c : Dev nD} (dat : Dat τ (Elt F) Unit ℕ (UR sig nD τ) ℕ cfg39 c) (hA : dat.A 0 = V c (Pipeline.arrRef spec39 0))
    (hafter : ∀ t, dat.after 0 t = iblk39 V c 0 t) (t : Fin cfg39.N) (d) : dat.before 0 t d = iblk39 V c 0 t :=
  (dat.before_in_eq_fetched 0 rfl (fun _ => rfl) (fun _ _ _ => rfl) (fun t => by rw [hafter]; unfold Dat.blockOf iblk39; rw [hA]; try rfl) t d).trans
    (by unfold Dat.fetched Dat.blockOf iblk39; rw [hA]; try rfl)

/-- The mean window (window 1, one constant block fetched at the first point only) holds that block at every point. -/
theorem before39_1_of {c : Dev nD} (dat : Dat τ (Elt F) Unit ℕ (UR sig nD τ) ℕ cfg39 c) (hA : dat.A 1 = V c (Pipeline.arrRef spec39 1))
    (hafter : ∀ t, dat.after 1 t = iblk39 V c 1 t) (t : Fin cfg39.N) (d) : dat.before 1 t d = iblk39 V c 1 t :=
  (dat.before_in_eq_fetched 1 rfl (fun _ => rfl) (fun _ _ _ => rfl) (fun t => by rw [hafter]; unfold Dat.blockOf iblk39; rw [hA]; try rfl) t d).trans
    (by unfold Dat.fetched Dat.blockOf iblk39; rw [hA]; try rfl)

/-! ## The branch conditions and the idle points, over this region's grid (the same grid) -/

/-- The reset's condition holds at the first point only, -/
theorem hcond39_0 : ∀ t : Fin cfg39.N, cond3_0 (grid39.coords t) ↔ t.val = 0 := hcond3_0
/-- the final store's at the last point only. -/
theorem hcond39_1 : ∀ t : Fin cfg39.N, cond3_1 (grid39.coords t) ↔ t.val = 24 := hcond3_1

theorem liveAt39_0 : ∀ t : Fin cfg39.N, cfg39.idle 0 (grid39.coords t) = false := fun _ => rfl
theorem liveAt39_1 : ∀ t : Fin cfg39.N, cfg39.idle 1 (grid39.coords t) = false := fun _ => rfl
/-- Away from the last point the result window is idle, -/
theorem idleAt39_2 : ∀ t : Fin cfg39.N, ¬cond3_1 (grid39.coords t) → cfg39.idle 2 (grid39.coords t) = true := idleAt3_2
/-- and live at it. -/
theorem liveAt39_2 : ∀ t : Fin cfg39.N, cond3_1 (grid39.coords t) → cfg39.idle 2 (grid39.coords t) = false := liveAt3_2
/-- Away from the last point its block is not written back (the schedule's closed form). -/
theorem noFlush39_2 (t : Fin cfg39.N) (h : ¬cond3_1 (grid39.coords t)) : (cfg39.win 2).flush t = false := by
  have hN : t.val < 25 := lt_of_lt_of_eq t.isLt (show cfg39.N = 25 from N_39)
  have h24 : ¬t.val = 24 := fun e => h ((hcond39_1 t).mpr e)
  cases hf : (cfg39.win 2).flush t with
  | false => rfl
  | true => exact absurd (by have := (flush39_2 t).mp hf; omega) h24

/-! ## The memrefs the body is called with -/

noncomputable abbrev ms39_0 (t : Fin cfg39.N) : Memref sig .tc .vmem S2000x64 .f32 := win39_0.stage (cfg39.slots t 0)
abbrev hs39_0 (t : Fin cfg39.N) : (ms39_0 t).IsWhole := hstage39_0 ((cfg39.slots t 0).cast nbuf39_0)
noncomputable abbrev ms39_1 (t : Fin cfg39.N) : Memref sig .tc .vmem S1x64 .f32 := win39_1.stage (cfg39.slots t 1)
abbrev hs39_1 (t : Fin cfg39.N) : (ms39_1 t).IsWhole := hstage39_1 ((cfg39.slots t 1).cast nbuf39_1)
noncomputable abbrev ms39_2 (t : Fin cfg39.N) : Memref sig .tc .vmem S1x64 .f32 := win39_2.stage (cfg39.slots t 2)
abbrev hs39_2 (t : Fin cfg39.N) : (ms39_2 t).IsWhole := hstage39_2 ((cfg39.slots t 2).cast nbuf39_2)
/-- The accumulator: this call's own scratch buffer, whole. -/
noncomputable abbrev scM39_0 : Memref sig .tc .vmem S1x64 .f32 := Memref.whole cc39_scratch0

/-- The body the pipeline calls at point `t` is region 3's printed kernel on this region's memrefs: the two printed
    functions are the same term. -/
theorem bodyAt39_eq (t : Fin cfg39.N) :
    (bodyAt39 t : Prog (TpuEff nD τ sig (Elt F) Λ₀ .tc) PUnit)
      = cc3__var_kernel (grid39.coords t) (ms39_0 t) (hs39_0 t) (ms39_1 t) (hs39_1 t) (ms39_2 t) (hs39_2 t) scM39_0 (Memref.isWhole_whole _) := rfl

/-- The region-entry invariant with the accumulator split out of the scoped rest, as a memref owned at some contents. -/
theorem PhiA39_eq (c : Dev nD) :
    (Pipeline.ΦA spec39 c : sProp 𝕄)
      = iprop(iprop(iprop(∃ d, owns (c : Thread nD τ) scM39_0 fullShare d)
          ∗ Pipeline.scopedRestBut (Ix := Unit) (Name := ℕ) (U := UR sig nD τ) (Lvl := ℕ) (Val := Elt F) spec39 c [cc39_scratch0]) ∗ (∃ r, prngReg c r)) := by
  unfold Pipeline.ΦA; rw [scopedRest39_split]; simp only [scM39_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt39 (c : Dev nD) : (n : ℕ) → n < cfg39.N → Vec F S1x64 .f32 × Vec F S1x64 .f32
  | 0, hn => (idle3_2,
      sout3_A_0 c (grid39.coords ⟨0, hn⟩) (ms39_0 ⟨0, hn⟩) (hs39_0 ⟨0, hn⟩) (ms39_1 ⟨0, hn⟩) (hs39_1 ⟨0, hn⟩) (ms39_2 ⟨0, hn⟩) (hs39_2 ⟨0, hn⟩) scM39_0 (Memref.isWhole_whole _) ((hcond39_0 ⟨0, hn⟩).mpr rfl)
        (fun h => (fun h' : (0 : ℕ) = 24 => by omega) ((hcond39_1 ⟨0, hn⟩).mp h)) (iblk39 V c 0 ⟨0, hn⟩) (iblk39 V c 1 ⟨0, hn⟩))
  | n + 1, hn =>
    if h1 : n + 1 = 24 then
      (out3_C_2 c (grid39.coords ⟨n + 1, hn⟩) (ms39_0 ⟨n + 1, hn⟩) (hs39_0 ⟨n + 1, hn⟩) (ms39_1 ⟨n + 1, hn⟩) (hs39_1 ⟨n + 1, hn⟩) (ms39_2 ⟨n + 1, hn⟩) (hs39_2 ⟨n + 1, hn⟩) scM39_0 (Memref.isWhole_whole _) (fun h => (fun h' : n + 1 = 0 => by omega) ((hcond39_0 ⟨n + 1, hn⟩).mp h))
          ((hcond39_1 ⟨n + 1, hn⟩).mpr h1) (iblk39 V c 0 ⟨n + 1, hn⟩) (iblk39 V c 1 ⟨n + 1, hn⟩) (outsAt39 c n (Nat.lt_of_succ_lt hn)).2,
       sout3_C_0 c (grid39.coords ⟨n + 1, hn⟩) (ms39_0 ⟨n + 1, hn⟩) (hs39_0 ⟨n + 1, hn⟩) (ms39_1 ⟨n + 1, hn⟩) (hs39_1 ⟨n + 1, hn⟩) (ms39_2 ⟨n + 1, hn⟩) (hs39_2 ⟨n + 1, hn⟩) scM39_0 (Memref.isWhole_whole _) (fun h => (fun h' : n + 1 = 0 => by omega) ((hcond39_0 ⟨n + 1, hn⟩).mp h))
          ((hcond39_1 ⟨n + 1, hn⟩).mpr h1) (iblk39 V c 0 ⟨n + 1, hn⟩) (iblk39 V c 1 ⟨n + 1, hn⟩) (outsAt39 c n (Nat.lt_of_succ_lt hn)).2)
    else
      (idle3_2,
       sout3_B_0 c (grid39.coords ⟨n + 1, hn⟩) (ms39_0 ⟨n + 1, hn⟩) (hs39_0 ⟨n + 1, hn⟩) (ms39_1 ⟨n + 1, hn⟩) (hs39_1 ⟨n + 1, hn⟩) (ms39_2 ⟨n + 1, hn⟩) (hs39_2 ⟨n + 1, hn⟩) scM39_0 (Memref.isWhole_whole _) (fun h => (fun h' : n + 1 = 0 => by omega) ((hcond39_0 ⟨n + 1, hn⟩).mp h))
          (fun h => h1 ((hcond39_1 ⟨n + 1, hn⟩).mp h)) (iblk39 V c 0 ⟨n + 1, hn⟩) (iblk39 V c 1 ⟨n + 1, hn⟩) (outsAt39 c n (Nat.lt_of_succ_lt hn)).2)

theorem outsAt39_A (c : Dev nD) (t : Fin cfg39.N) (h0 : t.val = 0) (h1 : ¬t.val = 24) :
    outsAt39 V c t.val t.isLt = (idle3_2,
      sout3_A_0 c (grid39.coords t) (ms39_0 t) (hs39_0 t) (ms39_1 t) (hs39_1 t) (ms39_2 t) (hs39_2 t) scM39_0 (Memref.isWhole_whole _) ((hcond39_0 t).mpr h0) (fun h => h1 ((hcond39_1 t).mp h)) (iblk39 V c 0 t) (iblk39 V c 1 t)) := by
  obtain ⟨n, hn⟩ := t
  cases n with
  | zero => exact rfl
  | succ n => exact absurd h0 (Nat.succ_ne_zero n)

theorem outsAt39_B (c : Dev nD) (t : Fin cfg39.N) (h0 : ¬t.val = 0) (h1 : ¬t.val = 24) :
    outsAt39 V c t.val t.isLt = (idle3_2,
      sout3_B_0 c (grid39.coords t) (ms39_0 t) (hs39_0 t) (ms39_1 t) (hs39_1 t) (ms39_2 t) (hs39_2 t) scM39_0 (Memref.isWhole_whole _) (fun h => h0 ((hcond39_0 t).mp h)) (fun h => h1 ((hcond39_1 t).mp h)) (iblk39 V c 0 t) (iblk39 V c 1 t)
        (outsAt39 V c (t.val - 1) (Nat.lt_of_le_of_lt (Nat.sub_le _ _) t.isLt)).2) := by
  obtain ⟨n, hn⟩ := t
  cases n with
  | zero => exact absurd rfl h0
  | succ n => exact (dif_neg h1).trans rfl

theorem outsAt39_C (c : Dev nD) (t : Fin cfg39.N) (h0 : ¬t.val = 0) (h1 : t.val = 24) :
    outsAt39 V c t.val t.isLt =
      (out3_C_2 c (grid39.coords t) (ms39_0 t) (hs39_0 t) (ms39_1 t) (hs39_1 t) (ms39_2 t) (hs39_2 t) scM39_0 (Memref.isWhole_whole _) (fun h => h0 ((hcond39_0 t).mp h)) ((hcond39_1 t).mpr h1) (iblk39 V c 0 t) (iblk39 V c 1 t)
        (outsAt39 V c (t.val - 1) (Nat.lt_of_le_of_lt (Nat.sub_le _ _) t.isLt)).2,
       sout3_C_0 c (grid39.coords t) (ms39_0 t) (hs39_0 t) (ms39_1 t) (hs39_1 t) (ms39_2 t) (hs39_2 t) scM39_0 (Memref.isWhole_whole _) (fun h => h0 ((hcond39_0 t).mp h)) ((hcond39_1 t).mpr h1) (iblk39 V c 0 t) (iblk39 V c 1 t)
        (outsAt39 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS39 (c : Dev nD) : (n : ℕ) → n ≤ cfg39.N → sProp 𝕄
  | 0, _ => Pipeline.ΦA spec39 c
  | n + 1, hn => iprop(iprop(owns (c : Thread nD τ) scM39_0 fullShare ((outsAt39 V c n hn).2)
      ∗ Pipeline.scopedRestBut (Ix := Unit) (Name := ℕ) (U := UR sig nD τ) (Lvl := ℕ) (Val := Elt F) spec39 c [cc39_scratch0]) ∗ (∃ r, prngReg c r))

theorem PhiS39_zero (c : Dev nD) (n : ℕ) (h : n ≤ cfg39.N) (hz : n = 0) : PhiS39 V c n h = Pipeline.ΦA spec39 c := by
  subst hz; rfl

theorem PhiS39_succ (c : Dev nD) (n : ℕ) (hn : n < cfg39.N) :
    PhiS39 V c (n + 1) hn = iprop(iprop(owns (c : Thread nD τ) scM39_0 fullShare ((outsAt39 V c n hn).2)
      ∗ Pipeline.scopedRestBut (Ix := Unit) (Name := ℕ) (U := UR sig nD τ) (Lvl := ℕ) (Val := Elt F) spec39 c [cc39_scratch0]) ∗ (∃ r, prngReg c r)) := rfl

theorem PhiS39_pos (c : Dev nD) (n : ℕ) (h : n ≤ cfg39.N) (hz : n ≠ 0) :
    PhiS39 V c n h = iprop(iprop(owns (c : Thread nD τ) scM39_0 fullShare ((outsAt39 V c (n - 1) (by omega)).2)
      ∗ Pipeline.scopedRestBut (Ix := Unit) (Name := ℕ) (U := UR sig nD τ) (Lvl := ℕ) (Val := Elt F) spec39 c [cc39_scratch0]) ∗ (∃ r, prngReg c r)) := by
  cases n with
  | zero => exact absurd rfl hz
  | succ n => rfl

/-! ## The proof data -/

noncomputable def dat39 (c : Dev nD) : Dat τ (Elt F) Unit ℕ (UR sig nD τ) ℕ cfg39 c where
  A w := V c (Pipeline.arrRef spec39 w)
  after w t := match w with
    | ⟨0, _⟩ => iblk39 V c 0 t
    | ⟨1, _⟩ => iblk39 V c 1 t
    | ⟨2, _⟩ => (outsAt39 V c t.val t.isLt).1
  Φ t := PhiS39 V c t.val (Nat.le_of_lt_succ t.isLt)
  q _ := fullShare
  owed _ := 0

theorem A_eq39 (c : Dev nD) (w : Fin cfg39.W) : (dat39 V c).A w = V c (Pipeline.arrRef spec39 w) := by
  dsimp only [dat39]

theorem PhiS39_castSucc (c : Dev nD) (t : Fin cfg39.N) :
    (dat39 V c).Φ t.castSucc = PhiS39 V c t.val (Nat.le_of_lt t.isLt) := by
  dsimp only [dat39]; simp only [Fin.coe_castSucc]

theorem after39_0 (c : Dev nD) (t : Fin cfg39.N) : (dat39 V c).after 0 t = iblk39 V c 0 t := by dsimp only [dat39]
theorem after39_1 (c : Dev nD) (t : Fin cfg39.N) : (dat39 V c).after 1 t = iblk39 V c 1 t := by dsimp only [dat39]
theorem after39_2 (c : Dev nD) (t : Fin cfg39.N) : (dat39 V c).after 2 t = (outsAt39 V c t.val t.isLt).1 := by dsimp only [dat39]

theorem before39_0 (c : Dev nD) (t : Fin cfg39.N) (d) : (dat39 V c).before 0 t d = iblk39 V c 0 t :=
  before39_0_of V (dat39 V c) (A_eq39 V c 0) (after39_0 V c) t d
theorem before39_1 (c : Dev nD) (t : Fin cfg39.N) (d) : (dat39 V c).before 1 t d = iblk39 V c 1 t :=
  before39_1_of V (dat39 V c) (A_eq39 V c 1) (after39_1 V c) t d

/-! ## The body obligation -/

noncomputable def bodyPre39 (c : Dev nD) (t : Fin cfg39.N) : sProp 𝕄 :=
  iprop((dat39 V c).Φ t.castSucc ∗ (dat39 V c).owesAt () t.castSucc
    ∗ (∃ d, owns (c : Thread nD τ) (ms39_0 t) fullShare ((dat39 V c).before 0 t d))
    ∗ (∃ d, owns (c : Thread nD τ) (ms39_1 t) fullShare ((dat39 V c).before 1 t d))
    ∗ (∃ d, owns (c : Thread nD τ) (ms39_2 t) fullShare ((dat39 V c).before 2 t d)))

noncomputable def bodyPost39 (c : Dev nD) (t : Fin cfg39.N) : sProp 𝕄 :=
  iprop((dat39 V c).Φ t.succ ∗ (dat39 V c).owesAt () t.succ
    ∗ (dat39 V c).leavesExact 0 t
    ∗ (dat39 V c).leavesExact 1 t
    ∗ (dat39 V c).leavesExact 2 t)

set_option maxHeartbeats 4800000 in
/-- The body at any point, from region 3's triples on this region's memrefs. -/
theorem sound_body39 (c : Dev nD) (t : Fin cfg39.N) :
    bodyPre39 V c t ⊢ wp frame (wpE (defs₀ (F := F)) Variants.none c none) Set.univ (bodyAt39 t) (fun _ => bodyPost39 V c t) := by
  rw [bodyAt39_eq (F := F) t]
  unfold bodyPre39 bodyPost39
  simp only [before39_0, before39_1]
  rw [show (dat39 V c).owesAt () t.succ = (dat39 V c).owesAt () t.castSucc from rfl]
  rw [show (dat39 V c).Φ t.succ = PhiS39 V c (t.val + 1) t.isLt from rfl, PhiS39_succ]
  have hN : t.val < 25 := lt_of_lt_of_eq t.isLt (show cfg39.N = 25 from N_39)
  rw [show (dat39 V c).leavesExact 0 t = owns (c : Thread nD τ) (ms39_0 t) fullShare ((dat39 V c).after 0 t) from by
    unfold Dat.leavesExact; rw [liveAt39_0 t], after39_0]
  rw [show (dat39 V c).leavesExact 1 t = owns (c : Thread nD τ) (ms39_1 t) fullShare ((dat39 V c).after 1 t) from by
    unfold Dat.leavesExact; rw [liveAt39_1 t], after39_1]
  by_cases h0 : t.val = 0
  · have h1 : ¬t.val = 24 := by omega
    rw [Dat.leavesExact_idle (dat39 V c) 2 t (idleAt39_2 t (fun h => h1 ((hcond39_1 t).mp h))) (noFlush39_2 t (fun h => h1 ((hcond39_1 t).mp h)))]
    rw [outsAt39_A V c t h0 h1]
    unfold sout3_A_0; (try dsimp only)
    rw [PhiS39_castSucc V c t, PhiS39_zero V c _ _ h0, PhiA39_eq]
    iintro ⟨⟨⟨HS0, Hr⟩, Hg⟩, Ho, ⟨%d0, H0⟩, ⟨%d1, H1⟩, ⟨%d2, H2⟩⟩
    iapply ((kernelRun3_A c (grid39.coords t) _ _ _ _ _ _ _ _ ((hcond39_0 t).mpr h0) (fun h => h1 ((hcond39_1 t).mp h)) (iblk39 V c 0 t) (iblk39 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat39 V c).leavesExact 2 t = owns (c : Thread nD τ) (ms39_2 t) fullShare ((dat39 V c).after 2 t) from by
        unfold Dat.leavesExact; rw [liveAt39_2 t ((hcond39_1 t).mpr h1)], after39_2]
      rw [outsAt39_C V c t h0 h1]
      unfold out3_C_2 sout3_C_0; (try dsimp only)
      rw [PhiS39_castSucc V c t, PhiS39_pos V c _ _ h0]
      iintro ⟨⟨⟨HS0, Hr⟩, Hg⟩, Ho, ⟨%d0, H0⟩, ⟨%d1, H1⟩, ⟨%d2, H2⟩⟩
      iapply ((kernelRun3_C c (grid39.coords t) _ _ _ _ _ _ _ _ (fun h => h0 ((hcond39_0 t).mp h)) ((hcond39_1 t).mpr h1) (iblk39 V c 0 t) (iblk39 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat39 V c) 2 t (idleAt39_2 t (fun h => h1 ((hcond39_1 t).mp h))) (noFlush39_2 t (fun h => h1 ((hcond39_1 t).mp h)))]
      rw [outsAt39_B V c t h0 h1]
      unfold sout3_B_0; (try dsimp only)
      rw [PhiS39_castSucc V c t, PhiS39_pos V c _ _ h0]
      iintro ⟨⟨⟨HS0, Hr⟩, Hg⟩, Ho, ⟨%d0, H0⟩, ⟨%d1, H1⟩, ⟨%d2, H2⟩⟩
      iapply ((kernelRun3_B c (grid39.coords t) _ _ _ _ _ _ _ _ (fun h => h0 ((hcond39_0 t).mp h)) (fun h => h1 ((hcond39_1 t).mp h)) (iblk39 V c 0 t) (iblk39 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation39 (c : Dev nD) : BodyObligation (dat39 (F := F) V c) (defs₀ (F := F)) Variants.none () Set.univ := fun t => by
  rw [bigSep_W39, bigSep_W39]
  exact sound_body39 V c t

/-- What the launch hands the region is the invariant before the first point. -/
theorem hin39 (c : Dev nD) : Pipeline.ΦA spec39 c ⊢ (dat39 V c).Φ 0 := by
  rw [show (dat39 V c).Φ 0 = PhiS39 V c 0 (Nat.zero_le _) from rfl, PhiS39_zero V c 0 _ rfl]
  try exact Idealize.SL.BI.Entails.refl _

/-- After any point but the first the invariant gives the launch's back: the accumulator's named contents are forgotten. -/
theorem Phi_out39 (c : Dev nD) (t : Fin (cfg39.N + 1)) (ht : t.val ≠ 0) : (dat39 V c).Φ t ⊢ Pipeline.ΦA spec39 c := by
  rw [show (dat39 V c).Φ t = PhiS39 V c t.val (Nat.le_of_lt_succ t.isLt) from rfl, PhiS39_pos V c _ _ ht, PhiA39_eq]
  iintro ⟨⟨HS0, Hr⟩, Hg⟩
  isplitl [HS0 Hr]
  · isplitl [HS0]
    · iexists _; iexact HS0
    iexact Hr
  iexact Hg

/-- The same after the last point. -/
theorem hout39 (c : Dev nD) : (dat39 V c).Φ (Fin.last cfg39.N) ⊢ Pipeline.ΦA spec39 c :=
  Phi_out39 V c _ (by rw [Fin.val_last]; have : cfg39.N = 25 := N_39; omega)

end Cert.KernelIdeal.Hand

end
-- ==== Proof.KI.R40.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Ring
import Idealize.ShloMosaic.Lib.Tactic

/-!
# Region 40: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region40
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk40 (c : Dev nD) (w : Fin cfg40.W) (t : Fin cfg40.N) : ((cfg40.win w).xblock (cfg40.grid.coords t)).Idx → Elt F (cfg40.win w).elt :=
  ((cfg40.win w).blk t).view.read (Elt F) (V c (Pipeline.arrRef spec40 w))

/-- The activations' staging buffer holds the block of the current point at every point: the window is fetched at
    every point, is never cut and never idle, and the body leaves the block where it found it. -/
theorem before40_0_of {c : Dev nD} (dat : Dat τ (Elt F) Unit ℕ (UR sig nD τ) ℕ cfg40 c) (hA : dat.A 0 = V c (Pipeline.arrRef spec40 0))
    (hafter : ∀ t, dat.after 0 t = iblk40 V c 0 t) (t : Fin cfg40.N) (d) : dat.before 0 t d = iblk40 V c 0 t :=
  (dat.before_in_eq_fetched 0 rfl (fun _ => rfl) (fun _ _ _ => rfl) (fun t => by rw [hafter]; unfold Dat.blockOf iblk40; rw [hA]; try rfl) t d).trans
    (by unfold Dat.fetched Dat.blockOf iblk40; rw [hA]; try rfl)

/-- The mean row's staging buffer holds its (one) block at every point: it is fetched at the first point only, its
    block index never moves afterwards, and the body leaves it in place. -/
theorem before40_1_of {c : Dev nD} (dat : Dat τ (Elt F) Unit ℕ (UR sig nD τ) ℕ cfg40 c) (hA : dat.A 1 = V c (Pipeline.arrRef spec40 1))
    (hafter : ∀ t, dat.after 1 t = iblk40 V c 1 t) (t : Fin cfg40.N) (d) : dat.before 1 t d = iblk40 V c 1 t :=
  (dat.before_in_eq_fetched 1 rfl (fun _ => rfl) (fun _ _ _ => rfl) (fun t => by rw [hafter]; unfold Dat.blockOf iblk40; rw [hA]; try rfl) t d).trans
    (by unfold Dat.fetched Dat.blockOf iblk40; rw [hA]; try rfl)

/-- The same of the variance row. -/
theorem before40_2_of {c : Dev nD} (dat : Dat τ (Elt F) Unit ℕ (UR sig nD τ) ℕ cfg40 c) (hA : dat.A 2 = V c (Pipeline.arrRef spec40 2))
    (hafter : ∀ t, dat.after 2 t = iblk40 V c 2 t) (t : Fin cfg40.N) (d) : dat.before 2 t d = iblk40 V c 2 t :=
  (dat.before_in_eq_fetched 2 rfl (fun _ => rfl) (fun _ _ _ => rfl) (fun t => by rw [hafter]; unfold Dat.blockOf iblk40; rw [hA]; try rfl) t d).trans
    (by unfold Dat.fetched Dat.blockOf iblk40; rw [hA]; try rfl)

/-- The same of the scale row. -/
theorem before40_3_of {c : Dev nD} (dat : Dat τ (Elt F) Unit ℕ (UR sig nD τ) ℕ cfg40 c) (hA : dat.A 3 = V c (Pipeline.arrRef spec40 3))
    (hafter : ∀ t, dat.after 3 t = iblk40 V c 3 t) (t : Fin cfg40.N) (d) : dat.before 3 t d = iblk40 V c 3 t :=
  (dat.before_in_eq_fetched 3 rfl (fun _ => rfl) (fun _ _ _ => rfl) (fun t => by rw [hafter]; unfold Dat.blockOf iblk40; rw [hA]; try rfl) t d).trans
    (by unfold Dat.fetched Dat.blockOf iblk40; rw [hA]; try rfl)

/-- The same of the shift row. -/
theorem before40_4_of {c : Dev nD} (dat : Dat τ (Elt F) Unit ℕ (UR sig nD τ) ℕ cfg40 c) (hA : dat.A 4 = V c (Pipeline.arrRef spec40 4))
    (hafter : ∀ t, dat.after 4 t = iblk40 V c 4 t) (t : Fin cfg40.N) (d) : dat.before 4 t d = iblk40 V c 4 t :=
  (dat.before_in_eq_fetched 4 rfl (fun _ => rfl) (fun _ _ _ => rfl) (fun t => by rw [hafter]; unfold Dat.blockOf iblk40; rw [hA]; try rfl) t d).trans
    (by unfold Dat.fetched Dat.blockOf iblk40; rw [hA]; try rfl)

/-! ## The body's accesses: each buffer is read, and the output written, whole -/

/-- The whole of a block of 2000 rows. -/
noncomputable abbrev r40_0 : Rect S2000x64 := Rect.unit (s := S2000x64) ![0, 0] S2000x64.size inb_S2000x64_S2000x64_0_0
/-- The whole of a single row. -/
noncomputable abbrev r40_1 : Rect S1x64 := Rect.unit (s := S1x64) ![0, 0] S1x64.size inb_S1x64_S1x64_0_0

/-! ## What the body leaves in the output buffer -/

/-- The output buffer after the body, from the five input blocks: its one store, whose payload is the skeleton's. -/
noncomputable def out40_5 (x0 : Vec F S2000x64 .f32) (x1 : Vec F S1x64 .f32) (x2 : Vec F S1x64 .f32) (x3 : Vec F S1x64 .f32) (x4 : Vec F S1x64 .f32) :
    Vec F S2000x64 .f32 :=
  View.canon [⟨r40_0, k40_pay1 (View.ld x0 r40_0) (View.ld x1 r40_1) (View.ld x2 r40_1) (View.ld x3 r40_1) (View.ld x4 r40_1)⟩]

/-- The one store covers the buffer. -/
theorem cover40_5 (p0 : Vec F S2000x64 .f32) (y : S2000x64.Idx) :
    ∃ pc ∈ ([⟨r40_0, p0⟩] : List (View.Piece (Elt F) S2000x64 .f32)), y ∈ pc.1.set :=
  View.cover_of_tiled [⟨r40_0, p0⟩] S2000x64.size (by rfl) y

/-! ## The body's triple -/

set_option maxHeartbeats 1000000 in
/-- The body on whole staging buffers, the five inputs' at read contents x0 … x4 and the output's at anything, runs
    to a state in which the inputs' are as they were and the output's holds out40_5 of them. (The body also loads the
    output buffer before it stores to it; the loaded value is not used.) -/
theorem sound_kernel40 (c : Dev nD) (E : Set ℕ) (i : grid40.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out40_5 x0 x1 x2 x3 x4)) -∗ K ⟨⟩))
      ⊢ wp frame (wpE (defs₀ (F := F)) Variants.none c none) E (cc40__bn_softmax_kernel i arg1 harg1 arg2 harg2 arg3 harg3 arg4 harg4 arg5 harg5 arg6 harg6) K := by
  simp only [cc40__bn_softmax_kernel_eq_skeleton]; unfold cc40__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover40_5 _)

/-! ## The pipeline's proof data -/

/-- The proof data of the region's pipeline on core c: the arrays as the region finds them; after the body at point t
    each input's buffer at its block and the output's at out40_5 of the input blocks; the invariant that of a body which
    touches nothing but its windows; nothing owed; full shares. -/
noncomputable def dat40 (c : Dev nD) : Dat τ (Elt F) Unit ℕ (UR sig nD τ) ℕ cfg40 c where
  A w := V c (Pipeline.arrRef spec40 w)
  after w t := match w with
    | ⟨0, _⟩ => iblk40 V c 0 t
    | ⟨1, _⟩ => iblk40 V c 1 t
    | ⟨2, _⟩ => iblk40 V c 2 t
    | ⟨3, _⟩ => iblk40 V c 3 t
    | ⟨4, _⟩ => iblk40 V c 4 t
    | ⟨5, _⟩ => out40_5 (iblk40 V c 0 t) (iblk40 V c 1 t) (iblk40 V c 2 t) (iblk40 V c 3 t) (iblk40 V c 4 t)
  Φ _ := Pipeline.ΦA spec40 c
  q _ := fullShare
  owed _ := 0

/-- The proof data's arrays are the region-entry contents. -/
theorem A_eq40 (c : Dev nD) (w : Fin cfg40.W) : (dat40 V c).A w = V c (Pipeline.arrRef spec40 w) := by
  dsimp only [dat40]

/-- What the body leaves, window by window. -/
theorem after40_0 (c : Dev nD) (t : Fin cfg40.N) : (dat40 V c).after 0 t = iblk40 V c 0 t := by dsimp only [dat40]
theorem after40_1 (c : Dev nD) (t : Fin cfg40.N) : (dat40 V c).after 1 t = iblk40 V c 1 t := by dsimp only [dat40]
theorem after40_2 (c : Dev nD) (t : Fin cfg40.N) : (dat40 V c).after 2 t = iblk40 V c 2 t := by dsimp only [dat40]
theorem after40_3 (c : Dev nD) (t : Fin cfg40.N) : (dat40 V c).after 3 t = iblk40 V c 3 t := by dsimp only [dat40]
theorem after40_4 (c : Dev nD) (t : Fin cfg40.N) : (dat40 V c).after 4 t = iblk40 V c 4 t := by dsimp only [dat40]
theorem after40_5 (c : Dev nD) (t : Fin cfg40.N) :
    (dat40 V c).after 5 t = out40_5 (iblk40 V c 0 t) (iblk40 V c 1 t) (iblk40 V c 2 t) (iblk40 V c 3 t) (iblk40 V c 4 t) := by dsimp only [dat40]

/-- Each input's current staging buffer holds its block at every point, fetched there or not. -/
theorem before40_0 (c : Dev nD) (t : Fin cfg40.N) (d) : (dat40 V c).before 0 t d = iblk40 V c 0 t :=
  before40_0_of V (dat40 V c) (A_eq40 V c 0) (after40_0 V c) t d
theorem before40_1 (c : Dev nD) (t : Fin cfg40.N) (d) : (dat40 V c).before 1 t d = iblk40 V c 1 t :=
  before40_1_of V (dat40 V c) (A_eq40 V c 1) (after40_1 V c) t d
theorem before40_2 (c : Dev nD) (t : Fin cfg40.N) (d) : (dat40 V c).before 2 t d = iblk40 V c 2 t :=
  before40_2_of V (dat40 V c) (A_eq40 V c 2) (after40_2 V c) t d
theorem before40_3 (c : Dev nD) (t : Fin cfg40.N) (d) : (dat40 V c).before 3 t d = iblk40 V c 3 t :=
  before40_3_of V (dat40 V c) (A_eq40 V c 3) (after40_3 V c) t d
theorem before40_4 (c : Dev nD) (t : Fin cfg40.N) (d) : (dat40 V c).before 4 t d = iblk40 V c 4 t :=
  before40_4_of V (dat40 V c) (A_eq40 V c 4) (after40_4 V c) t d

/-! ## The body obligation, at a generic point -/

/-- What the body is called with at point t, the windows one by one, -/
noncomputable def bodyPre40 (c : Dev nD) (t : Fin cfg40.N) : sProp 𝕄 :=
  iprop((dat40 V c).Φ t.castSucc ∗ (dat40 V c).owesAt () t.castSucc
    ∗ (∃ d, owns (c : Thread nD τ) (st40_0 t) fullShare ((dat40 V c).before 0 t d))
    ∗ (∃ d, owns (c : Thread nD τ) (st40_1 t) fullShare ((dat40 V c).before 1 t d))
    ∗ (∃ d, owns (c : Thread nD τ) (st40_2 t) fullShare ((dat40 V c).before 2 t d))
    ∗ (∃ d, owns (c : Thread nD τ) (st40_3 t) fullShare ((dat40 V c).before 3 t d))
    ∗ (∃ d, owns (c : Thread nD τ) (st40_4 t) fullShare ((dat40 V c).before 4 t d))
    ∗ (∃ d, owns (c : Thread nD τ) (st40_5 t) fullShare ((dat40 V c).before 5 t d)))

/-- and what it returns. -/
noncomputable def bodyPost40 (c : Dev nD) (t : Fin cfg40.N) : sProp 𝕄 :=
  iprop((dat40 V c).Φ t.succ ∗ (dat40 V c).owesAt () t.succ
    ∗ owns (c : Thread nD τ) (st40_0 t) fullShare ((dat40 V c).after 0 t)
    ∗ owns (c : Thread nD τ) (st40_1 t) fullShare ((dat40 V c).after 1 t)
    ∗ owns (c : Thread nD τ) (st40_2 t) fullShare ((dat40 V c).after 2 t)
    ∗ owns (c : Thread nD τ) (st40_3 t) fullShare ((dat40 V c).after 3 t)
    ∗ owns (c : Thread nD τ) (st40_4 t) fullShare ((dat40 V c).after 4 t)
    ∗ owns (c : Thread nD τ) (st40_5 t) fullShare ((dat40 V c).after 5 t))

/-- The body at any point: the inputs' buffers hold their blocks, so the body's triple applies; the invariant and
    what the core owes pass through unread. -/
theorem sound_body40 (c : Dev nD) (t : Fin cfg40.N) :
    bodyPre40 V c t ⊢ wp frame (wpE (defs₀ (F := F)) Variants.none c none) Set.univ (bodyAt40 t) (fun _ => bodyPost40 V c t) := by
  unfold bodyPre40 bodyPost40 bodyAt40
  simp only [before40_0, before40_1, before40_2, before40_3, before40_4]
  rw [show (dat40 V c).Φ t.succ = (dat40 V c).Φ t.castSucc from rfl,
    show (dat40 V c).owesAt () t.succ = (dat40 V c).owesAt () t.castSucc from rfl,
    after40_0, after40_1, after40_2, after40_3, after40_4, after40_5]
  iintro ⟨HΦ, Ho, ⟨%d0, H0⟩, ⟨%d1, H1⟩, ⟨%d2, H2⟩, ⟨%d3, H3⟩, ⟨%d4, H4⟩, ⟨%d5, H5⟩⟩
  iapply (sound_kernel40 c Set.univ (grid40.coords t) _ _ _ _ _ _ _ _ _ _ _ _
    (iblk40 V c 0 t) (iblk40 V c 1 t) (iblk40 V c 2 t) (iblk40 V c 3 t) (iblk40 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation40 (c : Dev nD) : BodyObligation (dat40 (F := F) V c) (defs₀ (F := F)) Variants.none () Set.univ := fun t => by
  rw [bigSep_W40, bigSep_W40]
  exact sound_body40 V c t

end Region40

end Cert.KernelIdeal.Hand

end
-- ==== Proof.KI.R41.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.Regions
import Idealize.ShloMosaic.Lib.Tactic

/-! # Region 41: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region41
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk41 (c : Dev nD) (w : Fin cfg41.W) (t : Fin cfg41.N) : ((cfg41.win w).xblock (cfg41.grid.coords t)).Idx → Elt F (cfg41.win w).elt :=
  ((cfg41.win w).blk t).view.read (Elt F) (V c (Pipeline.arrRef spec41 w))

/-- The rows of X: the staging buffer the body is handed holds the block of the point, whether the
    point fetched it or not (an unfetched input has not moved its block index). -/
theorem before41_0_of {c : Dev nD} (dat : Dat τ (Elt F) Unit ℕ (UR sig nD τ) ℕ cfg41 c) (hA : dat.A 0 = V c (Pipeline.arrRef spec41 0))
    (hafter : ∀ t, dat.after 0 t = iblk41 V c 0 t) (t : Fin cfg41.N) (d) : dat.before 0 t d = iblk41 V c 0 t :=
  (dat.before_in_eq_fetched 0 rfl (fun _ => rfl) (fun _ _ _ => rfl) (fun t => by rw [hafter]; unfold Dat.blockOf iblk41; rw [hA]; try rfl) t d).trans
    (by unfold Dat.fetched Dat.blockOf iblk41; rw [hA]; try rfl)

/-- The matrix W: fetched at the first point only, and found in place at every later one. -/
theorem before41_1_of {c : Dev nD} (dat : Dat τ (Elt F) Unit ℕ (UR sig nD τ) ℕ cfg41 c) (hA : dat.A 1 = V c (Pipeline.arrRef spec41 1))
    (hafter : ∀ t, dat.after 1 t = iblk41 V c 1 t) (t : Fin cfg41.N) (d) : dat.before 1 t d = iblk41 V c 1 t :=
  (dat.before_in_eq_fetched 1 rfl (fun _ => rfl) (fun _ _ _ => rfl) (fun t => by rw [hafter]; unfold Dat.blockOf iblk41; rw [hA]; try rfl) t d).trans
    (by unfold Dat.fetched Dat.blockOf iblk41; rw [hA]; try rfl)

/-! ## The body's accesses: each buffer whole -/

noncomputable abbrev r41_0 : Rect S2000x64 := Rect.unit (s := S2000x64) ![0, 0] S2000x64.size inb_S2000x64_S2000x64_0_0
noncomputable abbrev r41_1 : Rect S64x64 := Rect.unit (s := S64x64) ![0, 0] S64x64.size inb_S64x64_S64x64_0_0
noncomputable abbrev r41_2 : Rect S2000x64 := Rect.unit (s := S2000x64) ![0, 0] S2000x64.size inb_S2000x64_S2000x64_0_0

/-! ## What the body leaves in the output window's buffer -/

/-- The product block: the one store, over the whole buffer, of the payload at the two blocks read. -/
noncomputable def out41_2 (x0 : Vec F S2000x64 .f32) (x1 : Vec F S64x64 .f32) : Vec F S2000x64 .f32 :=
  View.canon [⟨r41_2, k41_pay1 (View.ld x0 r41_0) (View.ld x1 r41_1)⟩]

/-- The store's rectangle is the whole buffer, so it covers every index. -/
theorem cover41_2 (p0 : Vec F S2000x64 .f32) (y : S2000x64.Idx) :
    ∃ pc ∈ ([⟨r41_2, p0⟩] : List (View.Piece (Elt F) S2000x64 .f32)), y ∈ pc.1.set :=
  View.cover_of_tiled [⟨r41_2, p0⟩] S2000x64.size (by rfl) y

/-! ## The body's triple -/

set_option maxHeartbeats 1000000 in
/-- On whole staging memrefs, the inputs' holding x0 and x1 and the output's holding anything, the body
    runs to a state where the inputs' are unchanged and the output's holds out41_2 x0 x1. The body also reads
    the output buffer before storing into it; the value read is not used. -/
theorem sound_kernel41 (c : Dev nD) (E : Set ℕ) (i : grid41.Coords) (arg1 : Memref sig .tc .vmem S2000x64 .f32) (harg1 : arg1.IsWhole) (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out41_2 x0 x1)) -∗ K ⟨⟩))
      ⊢ wp frame (wpE (defs₀ (F := F)) Variants.none c none) E (cc41__linear_kernel i arg1 harg1 arg2 harg2 arg3 harg3) K := by
  simp only [cc41__linear_kernel_eq_skeleton]; unfold cc41__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover41_2 _)

/-! ## The pipeline's proof data -/

/-- The arrays as the region finds them; after the body at point t the inputs' buffers at their blocks
    and the output's at the product block; the invariant is the scoped rest and the generator register,
    untouched; nothing owed; full shares. -/
noncomputable def dat41 (c : Dev nD) : Dat τ (Elt F) Unit ℕ (UR sig nD τ) ℕ cfg41 c where
  A w := V c (Pipeline.arrRef spec41 w)
  after w t := match w with
    | ⟨0, _⟩ => iblk41 V c 0 t
    | ⟨1, _⟩ => iblk41 V c 1 t
    | ⟨2, _⟩ => out41_2 (iblk41 V c 0 t) (iblk41 V c 1 t)
  Φ _ := Pipeline.ΦA spec41 c
  q _ := fullShare
  owed _ := 0

theorem A_eq41 (c : Dev nD) (w : Fin cfg41.W) : (dat41 V c).A w = V c (Pipeline.arrRef spec41 w) := by
  dsimp only [dat41]

theorem after41_0 (c : Dev nD) (t : Fin cfg41.N) : (dat41 V c).after 0 t = iblk41 V c 0 t := by dsimp only [dat41]
theorem after41_1 (c : Dev nD) (t : Fin cfg41.N) : (dat41 V c).after 1 t = iblk41 V c 1 t := by dsimp only [dat41]
theorem after41_2 (c : Dev nD) (t : Fin cfg41.N) : (dat41 V c).after 2 t = out41_2 (iblk41 V c 0 t) (iblk41 V c 1 t) := by dsimp only [dat41]

theorem before41_0 (c : Dev nD) (t : Fin cfg41.N) (d) : (dat41 V c).before 0 t d = iblk41 V c 0 t :=
  before41_0_of V (dat41 V c) (A_eq41 V c 0) (after41_0 V c) t d
theorem before41_1 (c : Dev nD) (t : Fin cfg41.N) (d) : (dat41 V c).before 1 t d = iblk41 V c 1 t :=
  before41_1_of V (dat41 V c) (A_eq41 V c 1) (after41_1 V c) t d

/-! ## The body obligation, at a generic point -/

/-- What the body is called with at point t, window by window, -/
noncomputable def bodyPre41 (c : Dev nD) (t : Fin cfg41.N) : sProp 𝕄 :=
  iprop((dat41 V c).Φ t.castSucc ∗ (dat41 V c).owesAt () t.castSucc
    ∗ (∃ d, owns (c : Thread nD τ) (st41_0 t) fullShare ((dat41 V c).before 0 t d))
    ∗ (∃ d, owns (c : Thread nD τ) (st41_1 t) fullShare ((dat41 V c).before 1 t d))
    ∗ (∃ d, owns (c : Thread nD τ) (st41_2 t) fullShare ((dat41 V c).before 2 t d)))

/-- and what it returns. -/
noncomputable def bodyPost41 (c : Dev nD) (t : Fin cfg41.N) : sProp 𝕄 :=
  iprop((dat41 V c).Φ t.succ ∗ (dat41 V c).owesAt () t.succ
    ∗ owns (c : Thread nD τ) (st41_0 t) fullShare ((dat41 V c).after 0 t)
    ∗ owns (c : Thread nD τ) (st41_1 t) fullShare ((dat41 V c).after 1 t)
    ∗ owns (c : Thread nD τ) (st41_2 t) fullShare ((dat41 V c).after 2 t))

/-- The inputs' memrefs hold their blocks, so the body's triple applies; the invariant and what the core
    owes pass through unread. -/
theorem sound_body41 (c : Dev nD) (t : Fin cfg41.N) :
    bodyPre41 V c t ⊢ wp frame (wpE (defs₀ (F := F)) Variants.none c none) Set.univ (bodyAt41 t) (fun _ => bodyPost41 V c t) := by
  unfold bodyPre41 bodyPost41 bodyAt41
  simp only [before41_0, before41_1]
  rw [show (dat41 V c).Φ t.succ = (dat41 V c).Φ t.castSucc from rfl,
    show (dat41 V c).owesAt () t.succ = (dat41 V c).owesAt () t.castSucc from rfl,
    after41_0, after41_1, after41_2]
  iintro ⟨HΦ, Ho, ⟨%d0, H0⟩, ⟨%d1, H1⟩, ⟨%d2, H2⟩⟩
  iapply (sound_kernel41 c Set.univ (grid41.coords t) _ _ _ _ _ _ (iblk41 V c 0 t) (iblk41 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation41 (c : Dev nD) : BodyObligation (dat41 (F := F) V c) (defs₀ (F := F)) Variants.none () Set.univ := fun t => by
  rw [bigSep_W41, bigSep_W41]
  exact sound_body41 V c t

end Region41

end Cert.KernelIdeal.Hand

end
-- ==== Proof.KI.R42.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.R14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of the long axes' extents is checked by a structural recursion one
-- step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The kernel is region 14's

The two regions' printed kernel functions are the same function of the grid coordinate and the memrefs (the same
text over the same shapes; the grids and the last-point conditions are the same literals), so region 14's runs of the
body, its covers and its per-case contents — all stated over abstract coordinates and memrefs — serve this region. -/

theorem cc42_kernel_eq : cc42_kernel (F := F) = cc14_kernel (F := F) := rfl

/-! ## The windows' blocks -/

/-- Window `w`'s block at point `t`, read off its array as the region finds it (`V`). -/
noncomputable def iblk42 (c : Dev nD) (w : Fin cfg42.W) (t : Fin cfg42.N) : ((cfg42.win w).xblock (cfg42.grid.coords t)).Idx → Elt F (cfg42.win w).elt :=
  ((cfg42.win w).blk t).view.read (Elt F) (V c (Pipeline.arrRef spec42 w))

/-- Input window 0's current staging buffer holds its block at every point, for any proof data whose array is
    `V`'s and whose body leaves the block in place: the window is uncut and never idle. -/
theorem before42_0_of {c : Dev nD} (dat : Dat τ (Elt F) Unit ℕ (UR sig nD τ) ℕ cfg42 c) (hA : dat.A 0 = V c (Pipeline.arrRef spec42 0))
    (hafter : ∀ t, dat.after 0 t = iblk42 V c 0 t) (t : Fin cfg42.N) (d) : dat.before 0 t d = iblk42 V c 0 t :=
  (dat.before_in_eq_fetched 0 rfl (fun _ => rfl) (fun _ _ _ => rfl) (fun t => by rw [hafter]; unfold Dat.blockOf iblk42; rw [hA]; try rfl) t d).trans
    (by unfold Dat.fetched Dat.blockOf iblk42; rw [hA]; try rfl)

/-- Input window 1 likewise: fetched at the first point only, its block index never moves, so the buffer holds
    the block at every point. -/
theorem before42_1_of {c : Dev nD} (dat : Dat τ (Elt F) Unit ℕ (UR sig nD τ) ℕ cfg42 c) (hA : dat.A 1 = V c (Pipeline.arrRef spec42 1))
    (hafter : ∀ t, dat.after 1 t = iblk42 V c 1 t) (t : Fin cfg42.N) (d) : dat.before 1 t d = iblk42 V c 1 t :=
  (dat.before_in_eq_fetched 1 rfl (fun _ => rfl) (fun _ _ _ => rfl) (fun t => by rw [hafter]; unfold Dat.blockOf iblk42; rw [hA]; try rfl) t d).trans
    (by unfold Dat.fetched Dat.blockOf iblk42; rw [hA]; try rfl)

/-- Input window 2 likewise. -/
theorem before42_2_of {c : Dev nD} (dat : Dat τ (Elt F) Unit ℕ (UR sig nD τ) ℕ cfg42 c) (hA : dat.A 2 = V c (Pipeline.arrRef spec42 2))
    (hafter : ∀ t, dat.after 2 t = iblk42 V c 2 t) (t : Fin cfg42.N) (d) : dat.before 2 t d = iblk42 V c 2 t :=
  (dat.before_in_eq_fetched 2 rfl (fun _ => rfl) (fun _ _ _ => rfl) (fun t => by rw [hafter]; unfold Dat.blockOf iblk42; rw [hA]; try rfl) t d).trans
    (by unfold Dat.fetched Dat.blockOf iblk42; rw [hA]; try rfl)

/-! ## The body's two conditions on the grid coordinate -/

/-- It holds at the first point only. -/
theorem hcond42_0 : ∀ t : Fin cfg42.N, cond14_0 (grid42.coords t) ↔ t.val % 25 = 0 :=
  (by decide +kernel : ∀ t : Fin grid42.N, cond14_0 (grid42.coords t) ↔ t.val % 25 = 0)

/-- It holds at the last point only. -/
theorem hcond42_1 : ∀ t : Fin cfg42.N, cond14_1 (grid42.coords t) ↔ t.val % 25 = 24 :=
  (by decide +kernel : ∀ t : Fin grid42.N, cond14_1 (grid42.coords t) ↔ t.val % 25 = 24)

/-! ## Where the windows are idle -/

theorem liveAt42_0 : ∀ t : Fin cfg42.N, cfg42.idle 0 (grid42.coords t) = false := by decide +kernel
theorem liveAt42_1 : ∀ t : Fin cfg42.N, cfg42.idle 1 (grid42.coords t) = false := by decide +kernel
theorem liveAt42_2 : ∀ t : Fin cfg42.N, cfg42.idle 2 (grid42.coords t) = false := by decide +kernel
theorem liveAt42_3 : ∀ t : Fin cfg42.N, cfg42.idle 3 (grid42.coords t) = false := by decide +kernel
theorem liveAt42_4 : ∀ t : Fin cfg42.N, cfg42.idle 4 (grid42.coords t) = false := by decide +kernel
/-- At the first point the body stores nothing into output 5: the window is idle there and not written back. -/
theorem idleAt42_5_A : ∀ t : Fin cfg42.N, cond14_0 (grid42.coords t) → ¬cond14_1 (grid42.coords t) → cfg42.idle 5 (grid42.coords t) = true := by decide +kernel
theorem noFlush42_5_A : ∀ t : Fin cfg42.N, cond14_0 (grid42.coords t) → ¬cond14_1 (grid42.coords t) → (cfg42.win 5).flush t = false := by decide +kernel
/-- Nor at the middle points. -/
theorem idleAt42_5_B : ∀ t : Fin cfg42.N, ¬cond14_0 (grid42.coords t) → ¬cond14_1 (grid42.coords t) → cfg42.idle 5 (grid42.coords t) = true := by decide +kernel
theorem noFlush42_5_B : ∀ t : Fin cfg42.N, ¬cond14_0 (grid42.coords t) → ¬cond14_1 (grid42.coords t) → (cfg42.win 5).flush t = false := by decide +kernel
/-- At the last point it stores the accumulated sums there: the window is live. -/
theorem liveAt42_5_C : ∀ t : Fin cfg42.N, ¬cond14_0 (grid42.coords t) → cond14_1 (grid42.coords t) → cfg42.idle 5 (grid42.coords t) = false := by decide +kernel

/-! ## The memrefs the body is called with -/

/-- Each window's current staging memref at point `t`, as the pipeline passes it, and its wholeness. -/
noncomputable abbrev ms42_0 (t : Fin cfg42.N) : Memref sig .tc .vmem S2000x64 .f32 := win42_0.stage (cfg42.slots t 0)
abbrev hs42_0 (t : Fin cfg42.N) : (ms42_0 t).IsWhole := hstage42_0 ((cfg42.slots t 0).cast nbuf42_0)
noncomputable abbrev ms42_1 (t : Fin cfg42.N) : Memref sig .tc .vmem S1x64 .f32 := win42_1.stage (cfg42.slots t 1)
abbrev hs42_1 (t : Fin cfg42.N) : (ms42_1 t).IsWhole := hstage42_1 ((cfg42.slots t 1).cast nbuf42_1)
noncomputable abbrev ms42_2 (t : Fin cfg42.N) : Memref sig .tc .vmem S2000x64 .f32 := win42_2.stage (cfg42.slots t 2)
abbrev hs42_2 (t : Fin cfg42.N) : (ms42_2 t).IsWhole := hstage42_2 ((cfg42.slots t 2).cast nbuf42_2)
noncomputable abbrev ms42_3 (t : Fin cfg42.N) : Memref sig .tc .vmem S2000x64 .f32 := win42_3.stage (cfg42.slots t 3)
abbrev hs42_3 (t : Fin cfg42.N) : (ms42_3 t).IsWhole := hstage42_3 ((cfg42.slots t 3).cast nbuf42_3)
noncomputable abbrev ms42_4 (t : Fin cfg42.N) : Memref sig .tc .vmem S2000x64 .f32 := win42_4.stage (cfg42.slots t 4)
abbrev hs42_4 (t : Fin cfg42.N) : (ms42_4 t).IsWhole := hstage42_4 ((cfg42.slots t 4).cast nbuf42_4)
noncomputable abbrev ms42_5 (t : Fin cfg42.N) : Memref sig .tc .vmem S1x64 .f32 := win42_5.stage (cfg42.slots t 5)
abbrev hs42_5 (t : Fin cfg42.N) : (ms42_5 t).IsWhole := hstage42_5 ((cfg42.slots t 5).cast nbuf42_5)
/-- The scratch operand: a whole scoped buffer of the kernel's own, in which the column sums accumulate. -/
noncomputable abbrev scM42_0 : Memref sig .tc .vmem S1x64 .f32 := Memref.whole cc42_scratch0

/-- The other scoped buffers (every other call's staging buffers and scratch), unopened. -/
noncomputable abbrev restBut42 (c : Dev nD) : sProp 𝕄 :=
  Pipeline.scopedRestBut (Ix := Unit) (Name := ℕ) (U := UR sig nD τ) (Lvl := ℕ) (Val := Elt F) spec42 c [cc42_scratch0]

/-- The region's invariant as the launch hands it over, with the scratch operand split out as a memref owned at
    some contents: what the body obligation hands the run and takes back. -/
theorem PhiA42_eq (c : Dev nD) :
    (Pipeline.ΦA spec42 c : sProp 𝕄)
      = iprop(iprop(iprop((∃ d, owns (c : Thread nD τ) scM42_0 fullShare d)) ∗ restBut42 (F := F) c) ∗ (∃ r, prngReg c r)) := by
  unfold Pipeline.ΦA; rw [scopedRest42_split]; simp only [scM42_0, owns_whole]; try rfl

/-! ## What the outputs and the scratch hold after each point -/

/-- THE ACCUMULATION. What the three outputs' staging buffers and the scratch hold after the body at position `n`
    (output 3, output 4, output 5, the scratch): the case the closed forms select at `n`, run at the point's memrefs and input
    blocks, the scratch before it at what this leaves at `n - 1`. No point meets both conditions. -/
noncomputable def outsAt42 (c : Dev nD) : (n : ℕ) → n < cfg42.N → Vec F S2000x64 .f32 × Vec F S2000x64 .f32 × Vec F S1x64 .f32 × Vec F S1x64 .f32
  | 0, hn => (out14_A_3 c (grid42.coords ⟨0, hn⟩) (ms42_0 ⟨0, hn⟩) (hs42_0 ⟨0, hn⟩) (ms42_1 ⟨0, hn⟩) (hs42_1 ⟨0, hn⟩) (ms42_2 ⟨0, hn⟩) (hs42_2 ⟨0, hn⟩) (ms42_3 ⟨0, hn⟩) (hs42_3 ⟨0, hn⟩) (ms42_4 ⟨0, hn⟩) (hs42_4 ⟨0, hn⟩) (ms42_5 ⟨0, hn⟩) (hs42_5 ⟨0, hn⟩) scM42_0 (Memref.isWhole_whole _) ((hcond42_0 ⟨0, hn⟩).mpr (Nat.zero_mod _)) (fun h => (fun h => by (try dsimp only at h); omega) ((hcond42_1 ⟨0, hn⟩).mp h)) (iblk42 V c 0 ⟨0, hn⟩) (iblk42 V c 1 ⟨0, hn⟩) (iblk42 V c 2 ⟨0, hn⟩), out14_A_4 c (grid42.coords ⟨0, hn⟩) (ms42_0 ⟨0, hn⟩) (hs42_0 ⟨0, hn⟩) (ms42_1 ⟨0, hn⟩) (hs42_1 ⟨0, hn⟩) (ms42_2 ⟨0, hn⟩) (hs42_2 ⟨0, hn⟩) (ms42_3 ⟨0, hn⟩) (hs42_3 ⟨0, hn⟩) (ms42_4 ⟨0, hn⟩) (hs42_4 ⟨0, hn⟩) (ms42_5 ⟨0, hn⟩) (hs42_5 ⟨0, hn⟩) scM42_0 (Memref.isWhole_whole _) ((hcond42_0 ⟨0, hn⟩).mpr (Nat.zero_mod _)) (fun h => (fun h => by (try dsimp only at h); omega) ((hcond42_1 ⟨0, hn⟩).mp h)) (iblk42 V c 0 ⟨0, hn⟩) (iblk42 V c 1 ⟨0, hn⟩) (iblk42 V c 2 ⟨0, hn⟩), out14_A_5 c (grid42.coords ⟨0, hn⟩) (ms42_0 ⟨0, hn⟩) (hs42_0 ⟨0, hn⟩) (ms42_1 ⟨0, hn⟩) (hs42_1 ⟨0, hn⟩) (ms42_2 ⟨0, hn⟩) (hs42_2 ⟨0, hn⟩) (ms42_3 ⟨0, hn⟩) (hs42_3 ⟨0, hn⟩) (ms42_4 ⟨0, hn⟩) (hs42_4 ⟨0, hn⟩) (ms42_5 ⟨0, hn⟩) (hs42_5 ⟨0, hn⟩) scM42_0 (Memref.isWhole_whole _) ((hcond42_0 ⟨0, hn⟩).mpr (Nat.zero_mod _)) (fun h => (fun h => by (try dsimp only at h); omega) ((hcond42_1 ⟨0, hn⟩).mp h)) (iblk42 V c 0 ⟨0, hn⟩) (iblk42 V c 1 ⟨0, hn⟩) (iblk42 V c 2 ⟨0, hn⟩), sout14_A_0 c (grid42.coords ⟨0, hn⟩) (ms42_0 ⟨0, hn⟩) (hs42_0 ⟨0, hn⟩) (ms42_1 ⟨0, hn⟩) (hs42_1 ⟨0, hn⟩) (ms42_2 ⟨0, hn⟩) (hs42_2 ⟨0, hn⟩) (ms42_3 ⟨0, hn⟩) (hs42_3 ⟨0, hn⟩) (ms42_4 ⟨0, hn⟩) (hs42_4 ⟨0, hn⟩) (ms42_5 ⟨0, hn⟩) (hs42_5 ⟨0, hn⟩) scM42_0 (Memref.isWhole_whole _) ((hcond42_0 ⟨0, hn⟩).mpr (Nat.zero_mod _)) (fun h => (fun h => by (try dsimp only at h); omega) ((hcond42_1 ⟨0, hn⟩).mp h)) (iblk42 V c 0 ⟨0, hn⟩) (iblk42 V c 1 ⟨0, hn⟩) (iblk42 V c 2 ⟨0, hn⟩))
  | n + 1, hn =>
    if h0 : (n + 1) % 25 = 0 then
      if h1 : (n + 1) % 25 = 24 then
        False.elim (by omega)
      else
        (out14_A_3 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) ((hcond42_0 ⟨n + 1, hn⟩).mpr h0) (fun h => h1 ((hcond42_1 ⟨n + 1, hn⟩).mp h)) (iblk42 V c 0 ⟨n + 1, hn⟩) (iblk42 V c 1 ⟨n + 1, hn⟩) (iblk42 V c 2 ⟨n + 1, hn⟩), out14_A_4 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) ((hcond42_0 ⟨n + 1, hn⟩).mpr h0) (fun h => h1 ((hcond42_1 ⟨n + 1, hn⟩).mp h)) (iblk42 V c 0 ⟨n + 1, hn⟩) (iblk42 V c 1 ⟨n + 1, hn⟩) (iblk42 V c 2 ⟨n + 1, hn⟩), out14_A_5 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) ((hcond42_0 ⟨n + 1, hn⟩).mpr h0) (fun h => h1 ((hcond42_1 ⟨n + 1, hn⟩).mp h)) (iblk42 V c 0 ⟨n + 1, hn⟩) (iblk42 V c 1 ⟨n + 1, hn⟩) (iblk42 V c 2 ⟨n + 1, hn⟩), sout14_A_0 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) ((hcond42_0 ⟨n + 1, hn⟩).mpr h0) (fun h => h1 ((hcond42_1 ⟨n + 1, hn⟩).mp h)) (iblk42 V c 0 ⟨n + 1, hn⟩) (iblk42 V c 1 ⟨n + 1, hn⟩) (iblk42 V c 2 ⟨n + 1, hn⟩))
    else
      if h1 : (n + 1) % 25 = 24 then
        (out14_C_3 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) ((hcond42_1 ⟨n + 1, hn⟩).mpr h1) (iblk42 V c 0 ⟨n + 1, hn⟩) (iblk42 V c 1 ⟨n + 1, hn⟩) (iblk42 V c 2 ⟨n + 1, hn⟩) (outsAt42 c n (Nat.lt_of_succ_lt hn)).2.2.2, out14_C_4 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) ((hcond42_1 ⟨n + 1, hn⟩).mpr h1) (iblk42 V c 0 ⟨n + 1, hn⟩) (iblk42 V c 1 ⟨n + 1, hn⟩) (iblk42 V c 2 ⟨n + 1, hn⟩) (outsAt42 c n (Nat.lt_of_succ_lt hn)).2.2.2, out14_C_5 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) ((hcond42_1 ⟨n + 1, hn⟩).mpr h1) (iblk42 V c 0 ⟨n + 1, hn⟩) (iblk42 V c 1 ⟨n + 1, hn⟩) (iblk42 V c 2 ⟨n + 1, hn⟩) (outsAt42 c n (Nat.lt_of_succ_lt hn)).2.2.2, sout14_C_0 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) ((hcond42_1 ⟨n + 1, hn⟩).mpr h1) (iblk42 V c 0 ⟨n + 1, hn⟩) (iblk42 V c 1 ⟨n + 1, hn⟩) (iblk42 V c 2 ⟨n + 1, hn⟩) (outsAt42 c n (Nat.lt_of_succ_lt hn)).2.2.2)
      else
        (out14_B_3 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) (fun h => h1 ((hcond42_1 ⟨n + 1, hn⟩).mp h)) (iblk42 V c 0 ⟨n + 1, hn⟩) (iblk42 V c 1 ⟨n + 1, hn⟩) (iblk42 V c 2 ⟨n + 1, hn⟩) (outsAt42 c n (Nat.lt_of_succ_lt hn)).2.2.2, out14_B_4 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) (fun h => h1 ((hcond42_1 ⟨n + 1, hn⟩).mp h)) (iblk42 V c 0 ⟨n + 1, hn⟩) (iblk42 V c 1 ⟨n + 1, hn⟩) (iblk42 V c 2 ⟨n + 1, hn⟩) (outsAt42 c n (Nat.lt_of_succ_lt hn)).2.2.2, out14_B_5 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) (fun h => h1 ((hcond42_1 ⟨n + 1, hn⟩).mp h)) (iblk42 V c 0 ⟨n + 1, hn⟩) (iblk42 V c 1 ⟨n + 1, hn⟩) (iblk42 V c 2 ⟨n + 1, hn⟩) (outsAt42 c n (Nat.lt_of_succ_lt hn)).2.2.2, sout14_B_0 c (grid42.coords ⟨n + 1, hn⟩) (ms42_0 ⟨n + 1, hn⟩) (hs42_0 ⟨n + 1, hn⟩) (ms42_1 ⟨n + 1, hn⟩) (hs42_1 ⟨n + 1, hn⟩) (ms42_2 ⟨n + 1, hn⟩) (hs42_2 ⟨n + 1, hn⟩) (ms42_3 ⟨n + 1, hn⟩) (hs42_3 ⟨n + 1, hn⟩) (ms42_4 ⟨n + 1, hn⟩) (hs42_4 ⟨n + 1, hn⟩) (ms42_5 ⟨n + 1, hn⟩) (hs42_5 ⟨n + 1, hn⟩) scM42_0 (Memref.isWhole_whole _) (fun h => h0 ((hcond42_0 ⟨n + 1, hn⟩).mp h)) (fun h => h1 ((hcond42_1 ⟨n + 1, hn⟩).mp h)) (iblk42 V c 0 ⟨n + 1, hn⟩) (iblk42 V c 1 ⟨n + 1, hn⟩) (iblk42 V c 2 ⟨n + 1, hn⟩) (outsAt42 c n (Nat.lt_of_succ_lt hn)).2.2.2)

/-- `outsAt42` at the first point: case A's contents. -/
theorem outsAt42_A (c : Dev nD) (t : Fin cfg42.N) (h0 : t.val % 25 = 0) (h1 : ¬t.val % 25 = 24) :
    outsAt42 V c t.val t.isLt = (out14_A_3 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) ((hcond42_0 t).mpr h0) (fun h => h1 ((hcond42_1 t).mp h)) (iblk42 V c 0 t) (iblk42 V c 1 t) (iblk42 V c 2 t), out14_A_4 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) ((hcond42_0 t).mpr h0) (fun h => h1 ((hcond42_1 t).mp h)) (iblk42 V c 0 t) (iblk42 V c 1 t) (iblk42 V c 2 t), out14_A_5 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) ((hcond42_0 t).mpr h0) (fun h => h1 ((hcond42_1 t).mp h)) (iblk42 V c 0 t) (iblk42 V c 1 t) (iblk42 V c 2 t), sout14_A_0 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) ((hcond42_0 t).mpr h0) (fun h => h1 ((hcond42_1 t).mp h)) (iblk42 V c 0 t) (iblk42 V c 1 t) (iblk42 V c 2 t)) := by
  obtain ⟨n, hn⟩ := t
  cases n with
  | zero => exact rfl
  | succ n => exact (dif_pos h0).trans ((dif_neg h1).trans rfl)

/-- `outsAt42` at a middle point: case B's contents, over what the point before left in the scratch. -/
theorem outsAt42_B (c : Dev nD) (t : Fin cfg42.N) (h0 : ¬t.val % 25 = 0) (h1 : ¬t.val % 25 = 24) :
    outsAt42 V c t.val t.isLt = (out14_B_3 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) (fun h => h1 ((hcond42_1 t).mp h)) (iblk42 V c 0 t) (iblk42 V c 1 t) (iblk42 V c 2 t) (outsAt42 V c (t.val - 1) (Nat.lt_of_le_of_lt (Nat.sub_le _ _) t.isLt)).2.2.2, out14_B_4 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) (fun h => h1 ((hcond42_1 t).mp h)) (iblk42 V c 0 t) (iblk42 V c 1 t) (iblk42 V c 2 t) (outsAt42 V c (t.val - 1) (Nat.lt_of_le_of_lt (Nat.sub_le _ _) t.isLt)).2.2.2, out14_B_5 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) (fun h => h1 ((hcond42_1 t).mp h)) (iblk42 V c 0 t) (iblk42 V c 1 t) (iblk42 V c 2 t) (outsAt42 V c (t.val - 1) (Nat.lt_of_le_of_lt (Nat.sub_le _ _) t.isLt)).2.2.2, sout14_B_0 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) (fun h => h1 ((hcond42_1 t).mp h)) (iblk42 V c 0 t) (iblk42 V c 1 t) (iblk42 V c 2 t) (outsAt42 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt42` at the last point: case C's contents, over what the point before left in the scratch. -/
theorem outsAt42_C (c : Dev nD) (t : Fin cfg42.N) (h0 : ¬t.val % 25 = 0) (h1 : t.val % 25 = 24) :
    outsAt42 V c t.val t.isLt = (out14_C_3 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) ((hcond42_1 t).mpr h1) (iblk42 V c 0 t) (iblk42 V c 1 t) (iblk42 V c 2 t) (outsAt42 V c (t.val - 1) (Nat.lt_of_le_of_lt (Nat.sub_le _ _) t.isLt)).2.2.2, out14_C_4 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) ((hcond42_1 t).mpr h1) (iblk42 V c 0 t) (iblk42 V c 1 t) (iblk42 V c 2 t) (outsAt42 V c (t.val - 1) (Nat.lt_of_le_of_lt (Nat.sub_le _ _) t.isLt)).2.2.2, out14_C_5 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) ((hcond42_1 t).mpr h1) (iblk42 V c 0 t) (iblk42 V c 1 t) (iblk42 V c 2 t) (outsAt42 V c (t.val - 1) (Nat.lt_of_le_of_lt (Nat.sub_le _ _) t.isLt)).2.2.2, sout14_C_0 c (grid42.coords t) (ms42_0 t) (hs42_0 t) (ms42_1 t) (hs42_1 t) (ms42_2 t) (hs42_2 t) (ms42_3 t) (hs42_3 t) (ms42_4 t) (hs42_4 t) (ms42_5 t) (hs42_5 t) scM42_0 (Memref.isWhole_whole _) (fun h => h0 ((hcond42_0 t).mp h)) ((hcond42_1 t).mpr h1) (iblk42 V c 0 t) (iblk42 V c 1 t) (iblk42 V c 2 t) (outsAt42 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the scratch at
    anything); afterwards the scratch at what the point before left in it (`outsAt42`'s last component), the other
    scoped buffers unopened and the generator register at some state. -/
noncomputable def PhiS42 (c : Dev nD) : (n : ℕ) → n ≤ cfg42.N → sProp 𝕄
  | 0, _ => Pipeline.ΦA spec42 c
  | n + 1, hn => iprop(iprop(iprop(owns (c : Thread nD τ) scM42_0 fullShare ((outsAt42 V c n hn).2.2.2)) ∗ restBut42 (F := F) c) ∗ (∃ r, prngReg c r))

theorem PhiS42_zero (c : Dev nD) (n : ℕ) (h : n ≤ cfg42.N) (hz : n = 0) : PhiS42 V c n h = Pipeline.ΦA spec42 c := by
  subst hz; rfl

/-- After point `n` (before point `n + 1`): the scratch at that point's contents. -/
theorem PhiS42_succ (c : Dev nD) (n : ℕ) (hn : n < cfg42.N) :
    PhiS42 V c (n + 1) hn = iprop(iprop(iprop(owns (c : Thread nD τ) scM42_0 fullShare ((outsAt42 V c n hn).2.2.2)) ∗ restBut42 (F := F) c) ∗ (∃ r, prngReg c r)) := rfl

/-- Before a point that is not the first: the scratch at what the point before left. -/
theorem PhiS42_pos (c : Dev nD) (n : ℕ) (h : n ≤ cfg42.N) (hz : n ≠ 0) :
    PhiS42 V c n h = iprop(iprop(iprop(owns (c : Thread nD τ) scM42_0 fullShare ((outsAt42 V c (n - 1) (by omega)).2.2.2)) ∗ restBut42 (F := F) c) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the outputs' at `outsAt42`; the invariant `PhiS42`; nothing owed;
    full shares. -/
noncomputable def dat42 (c : Dev nD) : Dat τ (Elt F) Unit ℕ (UR sig nD τ) ℕ cfg42 c where
  A w := V c (Pipeline.arrRef spec42 w)
  after w t := match w with
    | ⟨0, _⟩ => iblk42 V c 0 t
    | ⟨1, _⟩ => iblk42 V c 1 t
    | ⟨2, _⟩ => iblk42 V c 2 t
    | ⟨3, _⟩ => (outsAt42 V c t.val t.isLt).1
    | ⟨4, _⟩ => (outsAt42 V c t.val t.isLt).2.1
    | ⟨5, _⟩ => (outsAt42 V c t.val t.isLt).2.2.1
  Φ t := PhiS42 V c t.val (Nat.le_of_lt_succ t.isLt)
  q _ := fullShare
  owed _ := 0

/-- The proof data's arrays are the region-entry contents. -/
theorem A_eq42 (c : Dev nD) (w : Fin cfg42.W) : (dat42 V c).A w = V c (Pipeline.arrRef spec42 w) := by
  dsimp only [dat42]

/-- The invariant at a point's start, restated at `t.val`. -/
theorem PhiS42_castSucc (c : Dev nD) (t : Fin cfg42.N) :
    (dat42 V c).Φ t.castSucc = PhiS42 V c t.val (Nat.le_of_lt t.isLt) := by
  dsimp only [dat42]; simp only [Fin.coe_castSucc]

/-- What the body leaves, window by window. -/
theorem after42_0 (c : Dev nD) (t : Fin cfg42.N) : (dat42 V c).after 0 t = iblk42 V c 0 t := by dsimp only [dat42]
theorem after42_1 (c : Dev nD) (t : Fin cfg42.N) : (dat42 V c).after 1 t = iblk42 V c 1 t := by dsimp only [dat42]
theorem after42_2 (c : Dev nD) (t : Fin cfg42.N) : (dat42 V c).after 2 t = iblk42 V c 2 t := by dsimp only [dat42]
theorem after42_3 (c : Dev nD) (t : Fin cfg42.N) : (dat42 V c).after 3 t = (outsAt42 V c t.val t.isLt).1 := by dsimp only [dat42]
theorem after42_4 (c : Dev nD) (t : Fin cfg42.N) : (dat42 V c).after 4 t = (outsAt42 V c t.val t.isLt).2.1 := by dsimp only [dat42]
theorem after42_5 (c : Dev nD) (t : Fin cfg42.N) : (dat42 V c).after 5 t = (outsAt42 V c t.val t.isLt).2.2.1 := by dsimp only [dat42]

/-- Each input's current staging buffer holds its block at every point, fetched there or not. -/
theorem before42_0 (c : Dev nD) (t : Fin cfg42.N) (d) : (dat42 V c).before 0 t d = iblk42 V c 0 t :=
  before42_0_of V (dat42 V c) (A_eq42 V c 0) (after42_0 V c) t d
theorem before42_1 (c : Dev nD) (t : Fin cfg42.N) (d) : (dat42 V c).before 1 t d = iblk42 V c 1 t :=
  before42_1_of V (dat42 V c) (A_eq42 V c 1) (after42_1 V c) t d
theorem before42_2 (c : Dev nD) (t : Fin cfg42.N) (d) : (dat42 V c).before 2 t d = iblk42 V c 2 t :=
  before42_2_of V (dat42 V c) (A_eq42 V c 2) (after42_2 V c) t d

/-! ## The body obligation, at a generic point -/

/-- What the body is called with at point `t` (the windows one by one), -/
noncomputable def bodyPre42 (c : Dev nD) (t : Fin cfg42.N) : sProp 𝕄 :=
  iprop((dat42 V c).Φ t.castSucc ∗ (dat42 V c).owesAt () t.castSucc
    ∗ (∃ d, owns (c : Thread nD τ) (ms42_0 t) fullShare ((dat42 V c).before 0 t d))
    ∗ (∃ d, owns (c : Thread nD τ) (ms42_1 t) fullShare ((dat42 V c).before 1 t d))
    ∗ (∃ d, owns (c : Thread nD τ) (ms42_2 t) fullShare ((dat42 V c).before 2 t d))
    ∗ (∃ d, owns (c : Thread nD τ) (ms42_3 t) fullShare ((dat42 V c).before 3 t d))
    ∗ (∃ d, owns (c : Thread nD τ) (ms42_4 t) fullShare ((dat42 V c).before 4 t d))
    ∗ (∃ d, owns (c : Thread nD τ) (ms42_5 t) fullShare ((dat42 V c).before 5 t d)))

/-- and what it returns. -/
noncomputable def bodyPost42 (c : Dev nD) (t : Fin cfg42.N) : sProp 𝕄 :=
  iprop((dat42 V c).Φ t.succ ∗ (dat42 V c).owesAt () t.succ
    ∗ (dat42 V c).leavesExact 0 t
    ∗ (dat42 V c).leavesExact 1 t
    ∗ (dat42 V c).leavesExact 2 t
    ∗ (dat42 V c).leavesExact 3 t
    ∗ (dat42 V c).leavesExact 4 t
    ∗ (dat42 V c).leavesExact 5 t)

set_option maxHeartbeats 4800000 in
/-- The body at any point: the inputs' memrefs hold their blocks; the closed forms say which case the point is in;
    that case's run applies; the invariant hands the body the scratch at what the point before left (at anything at
    the first point) and takes it back at this point's contents; the other scoped buffers, the generator register and
    what the core owes pass through untouched. -/
theorem sound_body42 (c : Dev nD) (t : Fin cfg42.N) :
    bodyPre42 V c t ⊢ wp frame (wpE (defs₀ (F := F)) Variants.none c none) Set.univ (bodyAt42 t) (fun _ => bodyPost42 V c t) := by
  unfold bodyPre42 bodyPost42 bodyAt42
  rw [cc42_kernel_eq]
  simp only [before42_0, before42_1, before42_2]
  rw [show (dat42 V c).owesAt () t.succ = (dat42 V c).owesAt () t.castSucc from rfl]
  rw [show (dat42 V c).Φ t.succ = PhiS42 V c (t.val + 1) t.isLt from rfl, PhiS42_succ]
  have hN : t.val < 25 := lt_of_lt_of_eq t.isLt (show cfg42.N = 25 from N_42)
  by_cases h0 : t.val % 25 = 0
  · by_cases h1 : t.val % 25 = 24
    · exfalso; omega
    · rw [show (dat42 V c).leavesExact 0 t = owns (c : Thread nD τ) (ms42_0 t) fullShare ((dat42 V c).after 0 t) from by
        unfold Dat.leavesExact; rw [liveAt42_0 t], after42_0]
      rw [show (dat42 V c).leavesExact 1 t = owns (c : Thread nD τ) (ms42_1 t) fullShare ((dat42 V c).after 1 t) from by
        unfold Dat.leavesExact; rw [liveAt42_1 t], after42_1]
      rw [show (dat42 V c).leavesExact 2 t = owns (c : Thread nD τ) (ms42_2 t) fullShare ((dat42 V c).after 2 t) from by
        unfold Dat.leavesExact; rw [liveAt42_2 t], after42_2]
      rw [show (dat42 V c).leavesExact 3 t = owns (c : Thread nD τ) (ms42_3 t) fullShare ((dat42 V c).after 3 t) from by
        unfold Dat.leavesExact; rw [liveAt42_3 t], after42_3]
      rw [show (dat42 V c).leavesExact 4 t = owns (c : Thread nD τ) (ms42_4 t) fullShare ((dat42 V c).after 4 t) from by
        unfold Dat.leavesExact; rw [liveAt42_4 t], after42_4]
      rw [Dat.leavesExact_idle (dat42 V c) 5 t (idleAt42_5_A t ((hcond42_0 t).mpr h0) (fun h => h1 ((hcond42_1 t).mp h))) (noFlush42_5_A t ((hcond42_0 t).mpr h0) (fun h => h1 ((hcond42_1 t).mp h)))]
      rw [outsAt42_A V c t h0 h1]
      unfold out14_A_3 out14_A_4 sout14_A_0; (try dsimp only)
      by_cases hz : t.val = 0
      · rw [PhiS42_castSucc V c t, PhiS42_zero V c _ _ hz, PhiA42_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_A c (grid42.coords t) _ _ _ _ _ _ _ _ _ _ _ _ _ _ ((hcond42_0 t).mpr h0) (fun h => h1 ((hcond42_1 t).mp h)) (iblk42 V c 0 t) (iblk42 V c 1 t) (iblk42 V c 2 t)).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_A_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_A_3 c _ _ _ _ _ _ _ _ _ _ _ _ _ _ _ _ _ _ _ _)
        isplitl [H4]
        · unfold owns; iexists _; isplitr
          swap; · iexact H4
          ipureintro; exact View.read_writes_of_cover _ _ _ _ _ (cover14_A_4 c _ _ _ _ _ _ _ _ _ _ _ _ _ _ _ _ _ _ _ _)
        iexists _; iexact H5
      · exfalso; omega
  · by_cases h1 : t.val % 25 = 24
    · rw [show (dat42 V c).leavesExact 0 t = owns (c : Thread nD τ) (ms42_0 t) fullShare ((dat42 V c).after 0 t) from by
        unfold Dat.leavesExact; rw [liveAt42_0 t], after42_0]
      rw [show (dat42 V c).leavesExact 1 t = owns (c : Thread nD τ) (ms42_1 t) fullShare ((dat42 V c).after 1 t) from by
        unfold Dat.leavesExact; rw [liveAt42_1 t], after42_1]
      rw [show (dat42 V c).leavesExact 2 t = owns (c : Thread nD τ) (ms42_2 t) fullShare ((dat42 V c).after 2 t) from by
        unfold Dat.leavesExact; rw [liveAt42_2 t], after42_2]
      rw [show (dat42 V c).leavesExact 3 t = owns (c : Thread nD τ) (ms42_3 t) fullShare ((dat42 V c).after 3 t) from by
        unfold Dat.leavesExact; rw [liveAt42_3 t], after42_3]
      rw [show (dat42 V c).leavesExact 4 t = owns (c : Thread nD τ) (ms42_4 t) fullShare ((dat42 V c).after 4 t) from by
        unfold Dat.leavesExact; rw [liveAt42_4 t], after42_4]
      rw [show (dat42 V c).leavesExact 5 t = owns (c : Thread nD τ) (ms42_5 t) fullShare ((dat42 V c).after 5 t) from by
        unfold Dat.leavesExact; rw [liveAt42_5_C t (fun h => h0 ((hcond42_0 t).mp h)) ((hcond42_1 t).mpr h1)], after42_5]
      rw [outsAt42_C V c t h0 h1]
      unfold out14_C_3 out14_C_4 out14_C_5 sout14_C_0; (try dsimp only)
      by_cases hz : t.val = 0
      · exfalso; omega
      · rw [PhiS42_castSucc V c t, PhiS42_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_C c (grid42.coords t) _ _ _ _ _ _ _ _ _ _ _ _ _ _ (fun h => h0 ((hcond42_0 t).mp h)) ((hcond42_1 t).mpr h1) (iblk42 V c 0 t) (iblk42 V c 1 t) (iblk42 V c 2 t) _).2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        iintro ⟨H0, H1, H2, ⟨%e3, H3⟩, ⟨%e4, H4⟩, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_C_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_C_3 c _ _ _ _ _ _ _ _ _ _ _ _ _ _ _ _ _ _ _ _ _)
        isplitl [H4]
        · unfold owns; iexists _; isplitr
          swap; · iexact H4
          ipureintro; exact View.read_writes_of_cover _ _ _ _ _ (cover14_C_4 c _ _ _ _ _ _ _ _ _ _ _ _ _ _ _ _ _ _ _ _ _)
        unfold owns; iexists _; isplitr
        swap; · iexact H5
        ipureintro; exact View.read_writes_of_cover _ _ _ _ _ (cover14_C_5 c _ _ _ _ _ _ _ _ _ _ _ _ _ _ _ _ _ _ _ _ _)
    · rw [show (dat42 V c).leavesExact 0 t = owns (c : Thread nD τ) (ms42_0 t) fullShare ((dat42 V c).after 0 t) from by
        unfold Dat.leavesExact; rw [liveAt42_0 t], after42_0]
      rw [show (dat42 V c).leavesExact 1 t = owns (c : Thread nD τ) (ms42_1 t) fullShare ((dat42 V c).after 1 t) from by
        unfold Dat.leavesExact; rw [liveAt42_1 t], after42_1]
      rw [show (dat42 V c).leavesExact 2 t = owns (c : Thread nD τ) (ms42_2 t) fullShare ((dat42 V c).after 2 t) from by
        unfold Dat.leavesExact; rw [liveAt42_2 t], after42_2]
      rw [show (dat42 V c).leavesExact 3 t = owns (c : Thread nD τ) (ms42_3 t) fullShare ((dat42 V c).after 3 t) from by
        unfold Dat.leavesExact; rw [liveAt42_3 t], after42_3]
      rw [show (dat42 V c).leavesExact 4 t = owns (c : Thread nD τ) (ms42_4 t) fullShare ((dat42 V c).after 4 t) from by
        unfold Dat.leavesExact; rw [liveAt42_4 t], after42_4]
      rw [Dat.leavesExact_idle (dat42 V c) 5 t (idleAt42_5_B t (fun h => h0 ((hcond42_0 t).mp h)) (fun h => h1 ((hcond42_1 t).mp h))) (noFlush42_5_B t (fun h => h0 ((hcond42_0 t).mp h)) (fun h => h1 ((hcond42_1 t).mp h)))]
      rw [outsAt42_B V c t h0 h1]
      unfold out14_B_3 out14_B_4 sout14_B_0; (try dsimp only)
      by_cases hz : t.val = 0
      · exfalso; omega
      · rw [PhiS42_castSucc V c t, PhiS42_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun14_B c (grid42.coords t) _ _ _ _ _ _ _ _ _ _ _ _ _ _ (fun h => h0 ((hcond42_0 t).mp h)) (fun h => h1 ((hcond42_1 t).mp h)) (iblk42 V c 0 t) (iblk42 V c 1 t) (iblk42 V c 2 t) _).2.2.2.2 _ Set.univ _)
        isplitl [H0]; · iexact H0
        isplitl [H1]; · iexact H1
        isplitl [H2]; · iexact H2
        isplitl [H3]; · iexists _; iexact H3
        isplitl [H4]; · iexists _; iexact H4
        isplitl [H5]; · iexact H5
        isplitl [HS0]; · iexact HS0
        iintro ⟨H0, H1, H2, ⟨%e3, H3⟩, ⟨%e4, H4⟩, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover14_B_0 c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover14_B_3 c _ _ _ _ _ _ _ _ _ _ _ _ _ _ _ _ _ _ _ _ _)
        isplitl [H4]
        · unfold owns; iexists _; isplitr
          swap; · iexact H4
          ipureintro; exact View.read_writes_of_cover _ _ _ _ _ (cover14_B_4 c _ _ _ _ _ _ _ _ _ _ _ _ _ _ _ _ _ _ _ _ _)
        iexists _; iexact H5

/-- The library's body obligation, at every point. -/
theorem body_obligation42 (c : Dev nD) : BodyObligation (dat42 (F := F) V c) (defs₀ (F := F)) Variants.none () Set.univ := fun t => by
  rw [bigSep_W42, bigSep_W42]
  exact sound_body42 V c t

/-- What the launch hands the region is the invariant before the first point. -/
theorem hin42 (c : Dev nD) : Pipeline.ΦA spec42 c ⊢ (dat42 V c).Φ 0 := by
  rw [show (dat42 V c).Φ 0 = PhiS42 V c 0 (Nat.zero_le _) from rfl, PhiS42_zero V c 0 _ rfl]
  try exact Idealize.SL.BI.Entails.refl _

/-- After any point but the first the invariant gives it back: the scratch's named contents are forgotten. -/
theorem Phi_out42 (c : Dev nD) (t : Fin (cfg42.N + 1)) (ht : t.val ≠ 0) : (dat42 V c).Φ t ⊢ Pipeline.ΦA spec42 c := by
  rw [show (dat42 V c).Φ t = PhiS42 V c t.val (Nat.le_of_lt_succ t.isLt) from rfl, PhiS42_pos V c _ _ ht, PhiA42_eq]
  iintro ⟨⟨HS0, HR⟩, Hg⟩
  isplitl [HS0 HR]
  · isplitl [HS0]
    · iexists _; iexact HS0
    iexact HR
  iexact Hg

/-- The same after the last point. -/
theorem hout42 (c : Dev nD) : (dat42 V c).Φ (Fin.last cfg42.N) ⊢ Pipeline.ΦA spec42 c :=
  Phi_out42 V c _ (by rw [Fin.val_last]; have : cfg42.N = 25 := N_42; omega)

end Cert.KernelIdeal.Hand

end
-- ==== Proof.KI.R43.lean ====
import proofs.«408084_j48395691492010_3_alg».proof.Proof.KI.R3

/-! Region 43: the second pass of the column variance again, on this layer's arrays. Its printed kernel is region 3's
(one term, up to the names of the constants in it), at the same shapes, over the same grid of 25 row tiles; so the body's
triples in the three control cases, and what each case leaves in the accumulator and in the result's buffer, are those
proved for region 3 over arbitrary memrefs. Here: this region's blocks and schedule facts, the contents point by point
along the grid, the proof data over them and the body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk43 (c : Dev nD) (w : Fin cfg43.W) (t : Fin cfg43.N) : ((cfg43.win w).xblock (cfg43.grid.coords t)).Idx → Elt F (cfg43.win w).elt :=
  ((cfg43.win w).blk t).view.read (Elt F) (V c (Pipeline.arrRef spec43 w))

/-- The row-tile window (window 0, fetched at every point) holds its block when the body runs. -/
theorem before43_0_of {c : Dev nD} (dat : Dat τ (Elt F) Unit ℕ (UR sig nD τ) ℕ cfg43 c) (hA : dat.A 0 = V c (Pipeline.arrRef spec43 0))
    (hafter : ∀ t, dat.after 0 t = iblk43 V c 0 t) (t : Fin cfg43.N) (d) : dat.before 0 t d = iblk43 V c 0 t :=
  (dat.before_in_eq_fetched 0 rfl (fun _ => rfl) (fun _ _ _ => rfl) (fun t => by rw [hafter]; unfold Dat.blockOf iblk43; rw [hA]; try rfl) t d).trans
    (by unfold Dat.fetched Dat.blockOf iblk43; rw [hA]; try rfl)

/-- The mean window (window 1, one constant block fetched at the first point only) holds that block at every point. -/
theorem before43_1_of {c : Dev nD} (dat : Dat τ (Elt F) Unit ℕ (UR sig nD τ) ℕ cfg43 c) (hA : dat.A 1 = V c (Pipeline.arrRef spec43 1))
    (hafter : ∀ t, dat.after 1 t = iblk43 V c 1 t) (t : Fin cfg43.N) (d) : dat.before 1 t d = iblk43 V c 1 t :=
  (dat.before_in_eq_fetched 1 rfl (fun _ => rfl) (fun _ _ _ => rfl) (fun t => by rw [hafter]; unfold Dat.blockOf iblk43; rw [hA]; try rfl) t d).trans
    (by unfold Dat.fetched Dat.blockOf iblk43; rw [hA]; try rfl)

/-! ## The branch conditions and the idle points, over this region's grid (the same grid) -/

/-- The reset's condition holds at the first point only, -/
theorem hcond43_0 : ∀ t : Fin cfg43.N, cond3_0 (grid43.coords t) ↔ t.val = 0 := hcond3_0
/-- the final store's at the last point only. -/
theorem hcond43_1 : ∀ t : Fin cfg43.N, cond3_1 (grid43.coords t) ↔ t.val = 24 := hcond3_1

theorem liveAt43_0 : ∀ t : Fin cfg43.N, cfg43.idle 0 (grid43.coords t) = false := fun _ => rfl
theorem liveAt43_1 : ∀ t : Fin cfg43.N, cfg43.idle 1 (grid43.coords t) = false := fun _ => rfl
/-- Away from the last point the result window is idle, -/
theorem idleAt43_2 : ∀ t : Fin cfg43.N, ¬cond3_1 (grid43.coords t) → cfg43.idle 2 (grid43.coords t) = true := idleAt3_2
/-- and live at it. -/
theorem liveAt43_2 : ∀ t : Fin cfg43.N, cond3_1 (grid43.coords t) → cfg43.idle 2 (grid43.coords t) = false := liveAt3_2
/-- Away from the last point its block is not written back (the schedule's closed form). -/
theorem noFlush43_2 (t : Fin cfg43.N) (h : ¬cond3_1 (grid43.coords t)) : (cfg43.win 2).flush t = false := by
  have hN : t.val < 25 := lt_of_lt_of_eq t.isLt (show cfg43.N = 25 from N_43)
  have h24 : ¬t.val = 24 := fun e => h ((hcond43_1 t).mpr e)
  cases hf : (cfg43.win 2).flush t with
  | false => rfl
  | true => exact absurd (by have := (flush43_2 t).mp hf; omega) h24

/-! ## The memrefs the body is called with -/

noncomputable abbrev ms43_0 (t : Fin cfg43.N) : Memref sig .tc .vmem S2000x64 .f32 := win43_0.stage (cfg43.slots t 0)
abbrev hs43_0 (t : Fin cfg43.N) : (ms43_0 t).IsWhole := hstage43_0 ((cfg43.slots t 0).cast nbuf43_0)
noncomputable abbrev ms43_1 (t : Fin cfg43.N) : Memref sig .tc .vmem S1x64 .f32 := win43_1.stage (cfg43.slots t 1)
abbrev hs43_1 (t : Fin cfg43.N) : (ms43_1 t).IsWhole := hstage43_1 ((cfg43.slots t 1).cast nbuf43_1)
noncomputable abbrev ms43_2 (t : Fin cfg43.N) : Memref sig .tc .vmem S1x64 .f32 := win43_2.stage (cfg43.slots t 2)
abbrev hs43_2 (t : Fin cfg43.N) : (ms43_2 t).IsWhole := hstage43_2 ((cfg43.slots t 2).cast nbuf43_2)
/-- The accumulator: this call's own scratch buffer, whole. -/
noncomputable abbrev scM43_0 : Memref sig .tc .vmem S1x64 .f32 := Memref.whole cc43_scratch0

/-- The body the pipeline calls at point `t` is region 3's printed kernel on this region's memrefs: the two printed
    functions are the same term. -/
theorem bodyAt43_eq (t : Fin cfg43.N) :
    (bodyAt43 t : Prog (TpuEff nD τ sig (Elt F) Λ₀ .tc) PUnit)
      = cc3__var_kernel (grid43.coords t) (ms43_0 t) (hs43_0 t) (ms43_1 t) (hs43_1 t) (ms43_2 t) (hs43_2 t) scM43_0 (Memref.isWhole_whole _) := rfl

/-- The region-entry invariant with the accumulator split out of the scoped rest, as a memref owned at some contents. -/
theorem PhiA43_eq (c : Dev nD) :
    (Pipeline.ΦA spec43 c : sProp 𝕄)
      = iprop(iprop(iprop(∃ d, owns (c : Thread nD τ) scM43_0 fullShare d)
          ∗ Pipeline.scopedRestBut (Ix := Unit) (Name := ℕ) (U := UR sig nD τ) (Lvl := ℕ) (Val := Elt F) spec43 c [cc43_scratch0]) ∗ (∃ r, prngReg c r)) := by
  unfold Pipeline.ΦA; rw [scopedRest43_split]; simp only [scM43_0, owns_whole]; try rfl

/-! ## Point by point -/

/-- What the result's buffer and the accumulator hold after the body at point `n` (a pair: result, accumulator): the
    first-tile case at point 0; afterwards the last-tile case at point 24 and the middle case elsewhere, each over what the
    point before left in the accumulator. -/
noncomputable def outsAt43 (c : Dev nD) : (n : ℕ) → n < cfg43.N → Vec F S1x64 .f32 × Vec F S1x64 .f32
  | 0, hn => (idle3_2,
      sout3_A_0 c (grid43.coords ⟨0, hn⟩) (ms43_0 ⟨0, hn⟩) (hs43_0 ⟨0, hn⟩) (ms43_1 ⟨0, hn⟩) (hs43_1 ⟨0, hn⟩) (ms43_2 ⟨0, hn⟩) (hs43_2 ⟨0, hn⟩) scM43_0 (Memref.isWhole_whole _) ((hcond43_0 ⟨0, hn⟩).mpr rfl)
        (fun h => (fun h' : (0 : ℕ) = 24 => by omega) ((hcond43_1 ⟨0, hn⟩).mp h)) (iblk43 V c 0 ⟨0, hn⟩) (iblk43 V c 1 ⟨0, hn⟩))
  | n + 1, hn =>
    if h1 : n + 1 = 24 then
      (out3_C_2 c (grid43.coords ⟨n + 1, hn⟩) (ms43_0 ⟨n + 1, hn⟩) (hs43_0 ⟨n + 1, hn⟩) (ms43_1 ⟨n + 1, hn⟩) (hs43_1 ⟨n + 1, hn⟩) (ms43_2 ⟨n + 1, hn⟩) (hs43_2 ⟨n + 1, hn⟩) scM43_0 (Memref.isWhole_whole _) (fun h => (fun h' : n + 1 = 0 => by omega) ((hcond43_0 ⟨n + 1, hn⟩).mp h))
          ((hcond43_1 ⟨n + 1, hn⟩).mpr h1) (iblk43 V c 0 ⟨n + 1, hn⟩) (iblk43 V c 1 ⟨n + 1, hn⟩) (outsAt43 c n (Nat.lt_of_succ_lt hn)).2,
       sout3_C_0 c (grid43.coords ⟨n + 1, hn⟩) (ms43_0 ⟨n + 1, hn⟩) (hs43_0 ⟨n + 1, hn⟩) (ms43_1 ⟨n + 1, hn⟩) (hs43_1 ⟨n + 1, hn⟩) (ms43_2 ⟨n + 1, hn⟩) (hs43_2 ⟨n + 1, hn⟩) scM43_0 (Memref.isWhole_whole _) (fun h => (fun h' : n + 1 = 0 => by omega) ((hcond43_0 ⟨n + 1, hn⟩).mp h))
          ((hcond43_1 ⟨n + 1, hn⟩).mpr h1) (iblk43 V c 0 ⟨n + 1, hn⟩) (iblk43 V c 1 ⟨n + 1, hn⟩) (outsAt43 c n (Nat.lt_of_succ_lt hn)).2)
    else
      (idle3_2,
       sout3_B_0 c (grid43.coords ⟨n + 1, hn⟩) (ms43_0 ⟨n + 1, hn⟩) (hs43_0 ⟨n + 1, hn⟩) (ms43_1 ⟨n + 1, hn⟩) (hs43_1 ⟨n + 1, hn⟩) (ms43_2 ⟨n + 1, hn⟩) (hs43_2 ⟨n + 1, hn⟩) scM43_0 (Memref.isWhole_whole _) (fun h => (fun h' : n + 1 = 0 => by omega) ((hcond43_0 ⟨n + 1, hn⟩).mp h))
          (fun h => h1 ((hcond43_1 ⟨n + 1, hn⟩).mp h)) (iblk43 V c 0 ⟨n + 1, hn⟩) (iblk43 V c 1 ⟨n + 1, hn⟩) (outsAt43 c n (Nat.lt_of_succ_lt hn)).2)

theorem outsAt43_A (c : Dev nD) (t : Fin cfg43.N) (h0 : t.val = 0) (h1 : ¬t.val = 24) :
    outsAt43 V c t.val t.isLt = (idle3_2,
      sout3_A_0 c (grid43.coords t) (ms43_0 t) (hs43_0 t) (ms43_1 t) (hs43_1 t) (ms43_2 t) (hs43_2 t) scM43_0 (Memref.isWhole_whole _) ((hcond43_0 t).mpr h0) (fun h => h1 ((hcond43_1 t).mp h)) (iblk43 V c 0 t) (iblk43 V c 1 t)) := by
  obtain ⟨n, hn⟩ := t
  cases n with
  | zero => exact rfl
  | succ n => exact absurd h0 (Nat.succ_ne_zero n)

theorem outsAt43_B (c : Dev nD) (t : Fin cfg43.N) (h0 : ¬t.val = 0) (h1 : ¬t.val = 24) :
    outsAt43 V c t.val t.isLt = (idle3_2,
      sout3_B_0 c (grid43.coords t) (ms43_0 t) (hs43_0 t) (ms43_1 t) (hs43_1 t) (ms43_2 t) (hs43_2 t) scM43_0 (Memref.isWhole_whole _) (fun h => h0 ((hcond43_0 t).mp h)) (fun h => h1 ((hcond43_1 t).mp h)) (iblk43 V c 0 t) (iblk43 V c 1 t)
        (outsAt43 V c (t.val - 1) (Nat.lt_of_le_of_lt (Nat.sub_le _ _) t.isLt)).2) := by
  obtain ⟨n, hn⟩ := t
  cases n with
  | zero => exact absurd rfl h0
  | succ n => exact (dif_neg h1).trans rfl

theorem outsAt43_C (c : Dev nD) (t : Fin cfg43.N) (h0 : ¬t.val = 0) (h1 : t.val = 24) :
    outsAt43 V c t.val t.isLt =
      (out3_C_2 c (grid43.coords t) (ms43_0 t) (hs43_0 t) (ms43_1 t) (hs43_1 t) (ms43_2 t) (hs43_2 t) scM43_0 (Memref.isWhole_whole _) (fun h => h0 ((hcond43_0 t).mp h)) ((hcond43_1 t).mpr h1) (iblk43 V c 0 t) (iblk43 V c 1 t)
        (outsAt43 V c (t.val - 1) (Nat.lt_of_le_of_lt (Nat.sub_le _ _) t.isLt)).2,
       sout3_C_0 c (grid43.coords t) (ms43_0 t) (hs43_0 t) (ms43_1 t) (hs43_1 t) (ms43_2 t) (hs43_2 t) scM43_0 (Memref.isWhole_whole _) (fun h => h0 ((hcond43_0 t).mp h)) ((hcond43_1 t).mpr h1) (iblk43 V c 0 t) (iblk43 V c 1 t)
        (outsAt43 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over; afterwards the
    accumulator at what the point before left in it, the other scoped buffers at anything, the generator register at some state. -/
noncomputable def PhiS43 (c : Dev nD) : (n : ℕ) → n ≤ cfg43.N → sProp 𝕄
  | 0, _ => Pipeline.ΦA spec43 c
  | n + 1, hn => iprop(iprop(owns (c : Thread nD τ) scM43_0 fullShare ((outsAt43 V c n hn).2)
      ∗ Pipeline.scopedRestBut (Ix := Unit) (Name := ℕ) (U := UR sig nD τ) (Lvl := ℕ) (Val := Elt F) spec43 c [cc43_scratch0]) ∗ (∃ r, prngReg c r))

theorem PhiS43_zero (c : Dev nD) (n : ℕ) (h : n ≤ cfg43.N) (hz : n = 0) : PhiS43 V c n h = Pipeline.ΦA spec43 c := by
  subst hz; rfl

theorem PhiS43_succ (c : Dev nD) (n : ℕ) (hn : n < cfg43.N) :
    PhiS43 V c (n + 1) hn = iprop(iprop(owns (c : Thread nD τ) scM43_0 fullShare ((outsAt43 V c n hn).2)
      ∗ Pipeline.scopedRestBut (Ix := Unit) (Name := ℕ) (U := UR sig nD τ) (Lvl := ℕ) (Val := Elt F) spec43 c [cc43_scratch0]) ∗ (∃ r, prngReg c r)) := rfl

theorem PhiS43_pos (c : Dev nD) (n : ℕ) (h : n ≤ cfg43.N) (hz : n ≠ 0) :
    PhiS43 V c n h = iprop(iprop(owns (c : Thread nD τ) scM43_0 fullShare ((outsAt43 V c (n - 1) (by omega)).2)
      ∗ Pipeline.scopedRestBut (Ix := Unit) (Name := ℕ) (U := UR sig nD τ) (Lvl := ℕ) (Val := Elt F) spec43 c [cc43_scratch0]) ∗ (∃ r, prngReg c r)) := by
  cases n with
  | zero => exact absurd rfl hz
  | succ n => rfl

/-! ## The proof data -/

noncomputable def dat43 (c : Dev nD) : Dat τ (Elt F) Unit ℕ (UR sig nD τ) ℕ cfg43 c where
  A w := V c (Pipeline.arrRef spec43 w)
  after w t := match w with
    | ⟨0, _⟩ => iblk43 V c 0 t
    | ⟨1, _⟩ => iblk43 V c 1 t
    | ⟨2, _⟩ => (outsAt43 V c t.val t.isLt).1
  Φ t := PhiS43 V c t.val (Nat.le_of_lt_succ t.isLt)
  q _ := fullShare
  owed _ := 0

theorem A_eq43 (c : Dev nD) (w : Fin cfg43.W) : (dat43 V c).A w = V c (Pipeline.arrRef spec43 w) := by
  dsimp only [dat43]

theorem PhiS43_castSucc (c : Dev nD) (t : Fin cfg43.N) :
    (dat43 V c).Φ t.castSucc = PhiS43 V c t.val (Nat.le_of_lt t.isLt) := by
  dsimp only [dat43]; simp only [Fin.coe_castSucc]

theorem after43_0 (c : Dev nD) (t : Fin cfg43.N) : (dat43 V c).after 0 t = iblk43 V c 0 t := by dsimp only [dat43]
theorem after43_1 (c : Dev nD) (t : Fin cfg43.N) : (dat43 V c).after 1 t = iblk43 V c 1 t := by dsimp only [dat43]
theorem after43_2 (c : Dev nD) (t : Fin cfg43.N) : (dat43 V c).after 2 t = (outsAt43 V c t.val t.isLt).1 := by dsimp only [dat43]

theorem before43_0 (c : Dev nD) (t : Fin cfg43.N) (d) : (dat43 V c).before 0 t d = iblk43 V c 0 t :=
  before43_0_of V (dat43 V c) (A_eq43 V c 0) (after43_0 V c) t d
theorem before43_1 (c : Dev nD) (t : Fin cfg43.N) (d) : (dat43 V c).before 1 t d = iblk43 V c 1 t :=
  before43_1_of V (dat43 V c) (A_eq43 V c 1) (after43_1 V c) t d

/-! ## The body obligation -/

noncomputable def bodyPre43 (c : Dev nD) (t : Fin cfg43.N) : sProp 𝕄 :=
  iprop((dat43 V c).Φ t.castSucc ∗ (dat43 V c).owesAt () t.castSucc
    ∗ (∃ d, owns (c : Thread nD τ) (ms43_0 t) fullShare ((dat43 V c).before 0 t d))
    ∗ (∃ d, owns (c : Thread nD τ) (ms43_1 t) fullShare ((dat43 V c).before 1 t d))
    ∗ (∃ d, owns (c : Thread nD τ) (ms43_2 t) fullShare ((dat43 V c).before 2 t d)))

noncomputable def bodyPost43 (c : Dev nD) (t : Fin cfg43.N) : sProp 𝕄 :=
  iprop((dat43 V c).Φ t.succ ∗ (dat43 V c).owesAt () t.succ
    ∗ (dat43 V c).leavesExact 0 t
    ∗ (dat43 V c).leavesExact 1 t
    ∗ (dat43 V c).leavesExact 2 t)

set_option maxHeartbeats 4800000 in
/-- The body at any point, from region 3's triples on this region's memrefs. -/
theorem sound_body43 (c : Dev nD) (t : Fin cfg43.N) :
    bodyPre43 V c t ⊢ wp frame (wpE (defs₀ (F := F)) Variants.none c none) Set.univ (bodyAt43 t) (fun _ => bodyPost43 V c t) := by
  rw [bodyAt43_eq (F := F) t]
  unfold bodyPre43 bodyPost43
  simp only [before43_0, before43_1]
  rw [show (dat43 V c).owesAt () t.succ = (dat43 V c).owesAt () t.castSucc from rfl]
  rw [show (dat43 V c).Φ t.succ = PhiS43 V c (t.val + 1) t.isLt from rfl, PhiS43_succ]
  have hN : t.val < 25 := lt_of_lt_of_eq t.isLt (show cfg43.N = 25 from N_43)
  rw [show (dat43 V c).leavesExact 0 t = owns (c : Thread nD τ) (ms43_0 t) fullShare ((dat43 V c).after 0 t) from by
    unfold Dat.leavesExact; rw [liveAt43_0 t], after43_0]
  rw [show (dat43 V c).leavesExact 1 t = owns (c : Thread nD τ) (ms43_1 t) fullShare ((dat43 V c).after 1 t) from by
    unfold Dat.leavesExact; rw [liveAt43_1 t], after43_1]
  by_cases h0 : t.val = 0
  · have h1 : ¬t.val = 24 := by omega
    rw [Dat.leavesExact_idle (dat43 V c) 2 t (idleAt43_2 t (fun h => h1 ((hcond43_1 t).mp h))) (noFlush43_2 t (fun h => h1 ((hcond43_1 t).mp h)))]
    rw [outsAt43_A V c t h0 h1]
    unfold sout3_A_0; (try dsimp only)
    rw [PhiS43_castSucc V c t, PhiS43_zero V c _ _ h0, PhiA43_eq]
    iintro ⟨⟨⟨HS0, Hr⟩, Hg⟩, Ho, ⟨%d0, H0⟩, ⟨%d1, H1⟩, ⟨%d2, H2⟩⟩
    iapply ((kernelRun3_A c (grid43.coords t) _ _ _ _ _ _ _ _ ((hcond43_0 t).mpr h0) (fun h => h1 ((hcond43_1 t).mp h)) (iblk43 V c 0 t) (iblk43 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat43 V c).leavesExact 2 t = owns (c : Thread nD τ) (ms43_2 t) fullShare ((dat43 V c).after 2 t) from by
        unfold Dat.leavesExact; rw [liveAt43_2 t ((hcond43_1 t).mpr h1)], after43_2]
      rw [outsAt43_C V c t h0 h1]
      unfold out3_C_2 sout3_C_0; (try dsimp only)
      rw [PhiS43_castSucc V c t, PhiS43_pos V c _ _ h0]
      iintro ⟨⟨⟨HS0, Hr⟩, Hg⟩, Ho, ⟨%d0, H0⟩, ⟨%d1, H1⟩, ⟨%d2, H2⟩⟩
      iapply ((kernelRun3_C c (grid43.coords t) _ _ _ _ _ _ _ _ (fun h => h0 ((hcond43_0 t).mp h)) ((hcond43_1 t).mpr h1) (iblk43 V c 0 t) (iblk43 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _)
    · rw [Dat.leavesExact_idle (dat43 V c) 2 t (idleAt43_2 t (fun h => h1 ((hcond43_1 t).mp h))) (noFlush43_2 t (fun h => h1 ((hcond43_1 t).mp h)))]
      rw [outsAt43_B V c t h0 h1]
      unfold sout3_B_0; (try dsimp only)
      rw [PhiS43_castSucc V c t, PhiS43_pos V c _ _ h0]
      iintro ⟨⟨⟨HS0, Hr⟩, Hg⟩, Ho, ⟨%d0, H0⟩, ⟨%d1, H1⟩, ⟨%d2, H2⟩⟩
      iapply ((kernelRun3_B c (grid43.coords t) _ _ _ _ _ _ _ _ (fun h => h0 ((hcond43_0 t).mp h)) (fun h => h1 ((hcond43_1 t).mp h)) (iblk43 V c 0 t) (iblk43 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation43 (c : Dev nD) : BodyObligation (dat43 (F := F) V c) (defs₀ (F := F)) Variants.none () Set.univ := fun t => by
  rw [bigSep_W43, bigSep_W43]
  exact sound_body43 V c t

/-- What the launch hands the region is the invariant before the first point. -/
theorem hin43 (c : Dev nD) : Pipeline.ΦA spec43 c ⊢ (dat43 V c).Φ 0 := by
  rw [show (dat43 V c).Φ 0 = PhiS43 V c 0 (Nat.zero_le _) from rfl, PhiS43_zero V c 0 _ rfl]
  try exact Idealize.SL.BI.Entails.refl _

/-- After any point but the first the invariant gives the launch's back: the accumulator's named contents are forgotten. -/
theorem Phi_out43 (c : Dev nD) (t : Fin (cfg43.N + 1)) (ht : t.val ≠ 0) : (dat43 V c).Φ t ⊢ Pipeline.ΦA spec43 c := by
  rw [show (dat43 V c).Φ t = PhiS43 V c t.val (Nat.le_of_lt_succ t.isLt) from rfl, PhiS43_pos V c _ _ ht, PhiA43_eq]
  iintro ⟨⟨HS0, Hr⟩, Hg⟩
  isplitl [HS0 Hr]
  · isplitl [HS0]
    · iexists _; iexact HS0
    iexact Hr
  iexact Hg

/-- The same after the last point. -/
theorem hout43 (c : Dev nD) : (dat43 V c).Φ (Fin.last cfg43.N) ⊢ Pipeline.ΦA spec43 c :=
  Phi_out43 V c _ (by rw [Fin.val_last]; have : cfg43.N = 25 := N_43; omega)

end Cert.KernelIdeal.Hand

end
-- ==== Proof.KI.R44.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Ring
import Idealize.ShloMosaic.Lib.Tactic

/-!
# Region 44: batch-norm affine followed by a row softmax with one added to the denominator

The body reads a block of 2000 rows of the activations and four single rows (column mean, column variance, scale,
shift), and writes the block of 2000 rows

  out[i,j] = e[i,j] / (1 + Σ_j' e[i,j']),   e[i,j] = exp (bn[i,j] - max_j' bn[i,j']),
  bn[i,j]  = (x[i,j] - mean[j]) * rsqrt (var[j] + eps) * gamma[j] + beta[j].

It keeps nothing from one grid point to the next, so what it leaves in the output block is a function of the five
input blocks at that point alone. This file states that function, proves the body's triple against it, and packs the
result as the pipeline's proof data and body obligation.
-/

-- membership of an index in a rectangle with 2000 rows is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region44
-- the contents of every buffer of the core at the moment the region is entered
variable (V : (c : Dev nD) → (b : Ref sig .tc) → Buf (Elt F) ((c : Thread nD τ).loc b))

/-! ## The windows' blocks -/

/-- Window w's block at grid point t, read off the window's array as the region finds it. -/
noncomputable def iblk44 (c : Dev nD) (w : Fin cfg44.W) (t : Fin cfg44.N) : ((cfg44.win w).xblock (cfg44.grid.coords t)).Idx → Elt F (cfg44.win w).elt :=
  ((cfg44.win w).blk t).view.read (Elt F) (V c (Pipeline.arrRef spec44 w))

/-- The activations' staging buffer holds the block of the current point at every point: the window is fetched at
    every point, is never cut and never idle, and the body leaves the block where it found it. -/
theorem before44_0_of {c : Dev nD} (dat : Dat τ (Elt F) Unit ℕ (UR sig nD τ) ℕ cfg44 c) (hA : dat.A 0 = V c (Pipeline.arrRef spec44 0))
    (hafter : ∀ t, dat.after 0 t = iblk44 V c 0 t) (t : Fin cfg44.N) (d) : dat.before 0 t d = iblk44 V c 0 t :=
  (dat.before_in_eq_fetched 0 rfl (fun _ => rfl) (fun _ _ _ => rfl) (fun t => by rw [hafter]; unfold Dat.blockOf iblk44; rw [hA]; try rfl) t d).trans
    (by unfold Dat.fetched Dat.blockOf iblk44; rw [hA]; try rfl)

/-- The mean row's staging buffer holds its (one) block at every point: it is fetched at the first point only, its
    block index never moves afterwards, and the body leaves it in place. -/
theorem before44_1_of {c : Dev nD} (dat : Dat τ (Elt F) Unit ℕ (UR sig nD τ) ℕ cfg44 c) (hA : dat.A 1 = V c (Pipeline.arrRef spec44 1))
    (hafter : ∀ t, dat.after 1 t = iblk44 V c 1 t) (t : Fin cfg44.N) (d) : dat.before 1 t d = iblk44 V c 1 t :=
  (dat.before_in_eq_fetched 1 rfl (fun _ => rfl) (fun _ _ _ => rfl) (fun t => by rw [hafter]; unfold Dat.blockOf iblk44; rw [hA]; try rfl) t d).trans
    (by unfold Dat.fetched Dat.blockOf iblk44; rw [hA]; try rfl)

/-- The same of the variance row. -/
theorem before44_2_of {c : Dev nD} (dat : Dat τ (Elt F) Unit ℕ (UR sig nD τ) ℕ cfg44 c) (hA : dat.A 2 = V c (Pipeline.arrRef spec44 2))
    (hafter : ∀ t, dat.after 2 t = iblk44 V c 2 t) (t : Fin cfg44.N) (d) : dat.before 2 t d = iblk44 V c 2 t :=
  (dat.before_in_eq_fetched 2 rfl (fun _ => rfl) (fun _ _ _ => rfl) (fun t => by rw [hafter]; unfold Dat.blockOf iblk44; rw [hA]; try rfl) t d).trans
    (by unfold Dat.fetched Dat.blockOf iblk44; rw [hA]; try rfl)

/-- The same of the scale row. -/
theorem before44_3_of {c : Dev nD} (dat : Dat τ (Elt F) Unit ℕ (UR sig nD τ) ℕ cfg44 c) (hA : dat.A 3 = V c (Pipeline.arrRef spec44 3))
    (hafter : ∀ t, dat.after 3 t = iblk44 V c 3 t) (t : Fin cfg44.N) (d) : dat.before 3 t d = iblk44 V c 3 t :=
  (dat.before_in_eq_fetched 3 rfl (fun _ => rfl) (fun _ _ _ => rfl) (fun t => by rw [hafter]; unfold Dat.blockOf iblk44; rw [hA]; try rfl) t d).trans
    (by unfold Dat.fetched Dat.blockOf iblk44; rw [hA]; try rfl)

/-- The same of the shift row. -/
theorem before44_4_of {c : Dev nD} (dat : Dat τ (Elt F) Unit ℕ (UR sig nD τ) ℕ cfg44 c) (hA : dat.A 4 = V c (Pipeline.arrRef spec44 4))
    (hafter : ∀ t, dat.after 4 t = iblk44 V c 4 t) (t : Fin cfg44.N) (d) : dat.before 4 t d = iblk44 V c 4 t :=
  (dat.before_in_eq_fetched 4 rfl (fun _ => rfl) (fun _ _ _ => rfl) (fun t => by rw [hafter]; unfold Dat.blockOf iblk44; rw [hA]; try rfl) t d).trans
    (by unfold Dat.fetched Dat.blockOf iblk44; rw [hA]; try rfl)

/-! ## The body's accesses: each buffer is read, and the output written, whole -/

/-- The whole of a block of 2000 rows. -/
noncomputable abbrev r44_0 : Rect S2000x64 := Rect.unit (s := S2000x64) ![0, 0] S2000x64.size inb_S2000x64_S2000x64_0_0
/-- The whole of a single row. -/
noncomputable abbrev r44_1 : Rect S1x64 := Rect.unit (s := S1x64) ![0, 0] S1x64.size inb_S1x64_S1x64_0_0

/-! ## What the body leaves in the output buffer -/

/-- The output buffer after the body, from the five input blocks: its one store, whose payload is the skeleton's. -/
noncomputable def out44_5 (x0 : Vec F S2000x64 .f32) (x1 : Vec F S1x64 .f32) (x2 : Vec F S1x64 .f32) (x3 : Vec F S1x64 .f32) (x4 : Vec F S1x64 .f32) :
    Vec F S2000x64 .f32 :=
  View.canon [⟨r44_0, k44_pay1 (View.ld x0 r44_0) (View.ld x1 r44_1) (View.ld x2 r44_1) (View.ld x3 r44_1) (View.ld x4 r44_1)⟩]

/-- The one store covers the buffer. -/
theorem cover44_5 (p0 : Vec F S2000x64 .f32) (y : S2000x64.Idx) :
    ∃ pc ∈ ([⟨r44_0, p0⟩] : List (View.Piece (Elt F) S2000x64 .f32)), y ∈ pc.1.set :=
  View.cover_of_tiled [⟨r44_0, p0⟩] S2000x64.size (by rfl) y

/-! ## The body's triple -/

set_option maxHeartbeats 1000000 in
/-- The body on whole staging buffers, the five inputs' at read contents x0 … x4 and the output's at anything, runs
    to a state in which the inputs' are as they were and the output's holds out44_5 of them. (The body also loads the
    output buffer before it stores to it; the loaded value is not used.) -/
theorem sound_kernel44 (c : Dev nD) (E : Set ℕ) (i : grid44.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out44_5 x0 x1 x2 x3 x4)) -∗ K ⟨⟩))
      ⊢ wp frame (wpE (defs₀ (F := F)) Variants.none c none) E (cc44__bn_softmax_kernel i arg1 harg1 arg2 harg2 arg3 harg3 arg4 harg4 arg5 harg5 arg6 harg6) K := by
  simp only [cc44__bn_softmax_kernel_eq_skeleton]; unfold cc44__bn_softmax_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover44_5 _)

/-! ## The pipeline's proof data -/

/-- The proof data of the region's pipeline on core c: the arrays as the region finds them; after the body at point t
    each input's buffer at its block and the output's at out44_5 of the input blocks; the invariant that of a body which
    touches nothing but its windows; nothing owed; full shares. -/
noncomputable def dat44 (c : Dev nD) : Dat τ (Elt F) Unit ℕ (UR sig nD τ) ℕ cfg44 c where
  A w := V c (Pipeline.arrRef spec44 w)
  after w t := match w with
    | ⟨0, _⟩ => iblk44 V c 0 t
    | ⟨1, _⟩ => iblk44 V c 1 t
    | ⟨2, _⟩ => iblk44 V c 2 t
    | ⟨3, _⟩ => iblk44 V c 3 t
    | ⟨4, _⟩ => iblk44 V c 4 t
    | ⟨5, _⟩ => out44_5 (iblk44 V c 0 t) (iblk44 V c 1 t) (iblk44 V c 2 t) (iblk44 V c 3 t) (iblk44 V c 4 t)
  Φ _ := Pipeline.ΦA spec44 c
  q _ := fullShare
  owed _ := 0

/-- The proof data's arrays are the region-entry contents. -/
theorem A_eq44 (c : Dev nD) (w : Fin cfg44.W) : (dat44 V c).A w = V c (Pipeline.arrRef spec44 w) := by
  dsimp only [dat44]

/-- What the body leaves, window by window. -/
theorem after44_0 (c : Dev nD) (t : Fin cfg44.N) : (dat44 V c).after 0 t = iblk44 V c 0 t := by dsimp only [dat44]
theorem after44_1 (c : Dev nD) (t : Fin cfg44.N) : (dat44 V c).after 1 t = iblk44 V c 1 t := by dsimp only [dat44]
theorem after44_2 (c : Dev nD) (t : Fin cfg44.N) : (dat44 V c).after 2 t = iblk44 V c 2 t := by dsimp only [dat44]
theorem after44_3 (c : Dev nD) (t : Fin cfg44.N) : (dat44 V c).after 3 t = iblk44 V c 3 t := by dsimp only [dat44]
theorem after44_4 (c : Dev nD) (t : Fin cfg44.N) : (dat44 V c).after 4 t = iblk44 V c 4 t := by dsimp only [dat44]
theorem after44_5 (c : Dev nD) (t : Fin cfg44.N) :
    (dat44 V c).after 5 t = out44_5 (iblk44 V c 0 t) (iblk44 V c 1 t) (iblk44 V c 2 t) (iblk44 V c 3 t) (iblk44 V c 4 t) := by dsimp only [dat44]

/-- Each input's current staging buffer holds its block at every point, fetched there or not. -/
theorem before44_0 (c : Dev nD) (t : Fin cfg44.N) (d) : (dat44 V c).before 0 t d = iblk44 V c 0 t :=
  before44_0_of V (dat44 V c) (A_eq44 V c 0) (after44_0 V c) t d
theorem before44_1 (c : Dev nD) (t : Fin cfg44.N) (d) : (dat44 V c).before 1 t d = iblk44 V c 1 t :=
  before44_1_of V (dat44 V c) (A_eq44 V c 1) (after44_1 V c) t d
theorem before44_2 (c : Dev nD) (t : Fin cfg44.N) (d) : (dat44 V c).before 2 t d = iblk44 V c 2 t :=
  before44_2_of V (dat44 V c) (A_eq44 V c 2) (after44_2 V c) t d
theorem before44_3 (c : Dev nD) (t : Fin cfg44.N) (d) : (dat44 V c).before 3 t d = iblk44 V c 3 t :=
  before44_3_of V (dat44 V c) (A_eq44 V c 3) (after44_3 V c) t d
theorem before44_4 (c : Dev nD) (t : Fin cfg44.N) (d) : (dat44 V c).before 4 t d = iblk44 V c 4 t :=
  before44_4_of V (dat44 V c) (A_eq44 V c 4) (after44_4 V c) t d

/-! ## The body obligation, at a generic point -/

/-- What the body is called with at point t, the windows one by one, -/
noncomputable def bodyPre44 (c : Dev nD) (t : Fin cfg44.N) : sProp 𝕄 :=
  iprop((dat44 V c).Φ t.castSucc ∗ (dat44 V c).owesAt () t.castSucc
    ∗ (∃ d, owns (c : Thread nD τ) (st44_0 t) fullShare ((dat44 V c).before 0 t d))
    ∗ (∃ d, owns (c : Thread nD τ) (st44_1 t) fullShare ((dat44 V c).before 1 t d))
    ∗ (∃ d, owns (c : Thread nD τ) (st44_2 t) fullShare ((dat44 V c).before 2 t d))
    ∗ (∃ d, owns (c : Thread nD τ) (st44_3 t) fullShare ((dat44 V c).before 3 t d))
    ∗ (∃ d, owns (c : Thread nD τ) (st44_4 t) fullShare ((dat44 V c).before 4 t d))
    ∗ (∃ d, owns (c : Thread nD τ) (st44_5 t) fullShare ((dat44 V c).before 5 t d)))

/-- and what it returns. -/
noncomputable def bodyPost44 (c : Dev nD) (t : Fin cfg44.N) : sProp 𝕄 :=
  iprop((dat44 V c).Φ t.succ ∗ (dat44 V c).owesAt () t.succ
    ∗ owns (c : Thread nD τ) (st44_0 t) fullShare ((dat44 V c).after 0 t)
    ∗ owns (c : Thread nD τ) (st44_1 t) fullShare ((dat44 V c).after 1 t)
    ∗ owns (c : Thread nD τ) (st44_2 t) fullShare ((dat44 V c).after 2 t)
    ∗ owns (c : Thread nD τ) (st44_3 t) fullShare ((dat44 V c).after 3 t)
    ∗ owns (c : Thread nD τ) (st44_4 t) fullShare ((dat44 V c).after 4 t)
    ∗ owns (c : Thread nD τ) (st44_5 t) fullShare ((dat44 V c).after 5 t))

/-- The body at any point: the inputs' buffers hold their blocks, so the body's triple applies; the invariant and
    what the core owes pass through unread. -/
theorem sound_body44 (c : Dev nD) (t : Fin cfg44.N) :
    bodyPre44 V c t ⊢ wp frame (wpE (defs₀ (F := F)) Variants.none c none) Set.univ (bodyAt44 t) (fun _ => bodyPost44 V c t) := by
  unfold bodyPre44 bodyPost44 bodyAt44
  simp only [before44_0, before44_1, before44_2, before44_3, before44_4]
  rw [show (dat44 V c).Φ t.succ = (dat44 V c).Φ t.castSucc from rfl,
    show (dat44 V c).owesAt () t.succ = (dat44 V c).owesAt () t.castSucc from rfl,
    after44_0, after44_1, after44_2, after44_3, after44_4, after44_5]
  iintro ⟨HΦ, Ho, ⟨%d0, H0⟩, ⟨%d1, H1⟩, ⟨%d2, H2⟩, ⟨%d3, H3⟩, ⟨%d4, H4⟩, ⟨%d5, H5⟩⟩
  iapply (sound_kernel44 c Set.univ (grid44.coords t) _ _ _ _ _ _ _ _ _ _ _ _
    (iblk44 V c 0 t) (iblk44 V c 1 t) (iblk44 V c 2 t) (iblk44 V c 3 t) (iblk44 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation44 (c : Dev nD) : BodyObligation (dat44 (F := F) V c) (defs₀ (F := F)) Variants.none () Set.univ := fun t => by
  rw [bigSep_W44, bigSep_W44]
  exact sound_body44 V c t

end Region44

end Cert.KernelIdeal.Hand

end
-- ==== Proof.KI.R45.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.Regions
import Idealize.ShloMosaic.Lib.Tactic

/-! # Region 45: the row-tiled product Y = X · W

At each grid point the body reads a block of consecutive rows of X (window 0), the whole of W
(window 1, the same block at every point), and writes the block of products of those rows into window 2.
This file states what each staging buffer holds after the body as a function of the blocks read, proves
the body's triple against that, and from it the pipeline's body obligation; then it reads the output
array after the last point as one function of the two input arrays, entry by entry. -/

-- membership of an index in a rectangle with a long axis is found by structural recursion on the coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region45
-- the buffer contents when the region is entered: everything below is a function of them
variable (V : (c : Dev nD) → (b : Ref sig .tc) → Buf (Elt F) ((c : Thread nD τ).loc b))

/-! ## The windows' blocks -/

/-- Window w's block at point t, cut out of its array as the region finds it. -/
noncomputable def iblk45 (c : Dev nD) (w : Fin cfg45.W) (t : Fin cfg45.N) : ((cfg45.win w).xblock (cfg45.grid.coords t)).Idx → Elt F (cfg45.win w).elt :=
  ((cfg45.win w).blk t).view.read (Elt F) (V c (Pipeline.arrRef spec45 w))

/-- The rows of X: the staging buffer the body is handed holds the block of the point, whether the
    point fetched it or not (an unfetched input has not moved its block index). -/
theorem before45_0_of {c : Dev nD} (dat : Dat τ (Elt F) Unit ℕ (UR sig nD τ) ℕ cfg45 c) (hA : dat.A 0 = V c (Pipeline.arrRef spec45 0))
    (hafter : ∀ t, dat.after 0 t = iblk45 V c 0 t) (t : Fin cfg45.N) (d) : dat.before 0 t d = iblk45 V c 0 t :=
  (dat.before_in_eq_fetched 0 rfl (fun _ => rfl) (fun _ _ _ => rfl) (fun t => by rw [hafter]; unfold Dat.blockOf iblk45; rw [hA]; try rfl) t d).trans
    (by unfold Dat.fetched Dat.blockOf iblk45; rw [hA]; try rfl)

/-- The matrix W: fetched at the first point only, and found in place at every later one. -/
theorem before45_1_of {c : Dev nD} (dat : Dat τ (Elt F) Unit ℕ (UR sig nD τ) ℕ cfg45 c) (hA : dat.A 1 = V c (Pipeline.arrRef spec45 1))
    (hafter : ∀ t, dat.after 1 t = iblk45 V c 1 t) (t : Fin cfg45.N) (d) : dat.before 1 t d = iblk45 V c 1 t :=
  (dat.before_in_eq_fetched 1 rfl (fun _ => rfl) (fun _ _ _ => rfl) (fun t => by rw [hafter]; unfold Dat.blockOf iblk45; rw [hA]; try rfl) t d).trans
    (by unfold Dat.fetched Dat.blockOf iblk45; rw [hA]; try rfl)

/-! ## The body's accesses: each buffer whole -/

noncomputable abbrev r45_0 : Rect S2000x64 := Rect.unit (s := S2000x64) ![0, 0] S2000x64.size inb_S2000x64_S2000x64_0_0
noncomputable abbrev r45_1 : Rect S64x32 := Rect.unit (s := S64x32) ![0, 0] S64x32.size inb_S64x32_S64x32_0_0
noncomputable abbrev r45_2 : Rect S2000x32 := Rect.unit (s := S2000x32) ![0, 0] S2000x32.size inb_S2000x32_S2000x32_0_0

/-! ## What the body leaves in the output window's buffer -/

/-- The product block: the one store, over the whole buffer, of the payload at the two blocks read. -/
noncomputable def out45_2 (x0 : Vec F S2000x64 .f32) (x1 : Vec F S64x32 .f32) : Vec F S2000x32 .f32 :=
  View.canon [⟨r45_2, k45_pay1 (View.ld x0 r45_0) (View.ld x1 r45_1)⟩]

/-- The store's rectangle is the whole buffer, so it covers every index. -/
theorem cover45_2 (p0 : Vec F S2000x32 .f32) (y : S2000x32.Idx) :
    ∃ pc ∈ ([⟨r45_2, p0⟩] : List (View.Piece (Elt F) S2000x32 .f32)), y ∈ pc.1.set :=
  View.cover_of_tiled [⟨r45_2, p0⟩] S2000x32.size (by rfl) y

/-! ## The body's triple -/

set_option maxHeartbeats 1000000 in
/-- On whole staging memrefs, the inputs' holding x0 and x1 and the output's holding anything, the body
    runs to a state where the inputs' are unchanged and the output's holds out45_2 x0 x1. The body also reads
    the output buffer before storing into it; the value read is not used. -/
theorem sound_kernel45 (c : Dev nD) (E : Set ℕ) (i : grid45.Coords) (arg1 : Memref sig .tc .vmem S2000x64 .f32) (harg1 : arg1.IsWhole) (arg2 : Memref sig .tc .vmem S64x32 .f32) (harg2 : arg2.IsWhole) (arg3 : Memref sig .tc .vmem S2000x32 .f32) (harg3 : arg3.IsWhole)
    (x0 : Vec F S2000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out45_2 x0 x1)) -∗ K ⟨⟩))
      ⊢ wp frame (wpE (defs₀ (F := F)) Variants.none c none) E (cc45__linear_kernel i arg1 harg1 arg2 harg2 arg3 harg3) K := by
  simp only [cc45__linear_kernel_eq_skeleton]; unfold cc45__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover45_2 _)

/-! ## The pipeline's proof data -/

/-- The arrays as the region finds them; after the body at point t the inputs' buffers at their blocks
    and the output's at the product block; the invariant is the scoped rest and the generator register,
    untouched; nothing owed; full shares. -/
noncomputable def dat45 (c : Dev nD) : Dat τ (Elt F) Unit ℕ (UR sig nD τ) ℕ cfg45 c where
  A w := V c (Pipeline.arrRef spec45 w)
  after w t := match w with
    | ⟨0, _⟩ => iblk45 V c 0 t
    | ⟨1, _⟩ => iblk45 V c 1 t
    | ⟨2, _⟩ => out45_2 (iblk45 V c 0 t) (iblk45 V c 1 t)
  Φ _ := Pipeline.ΦA spec45 c
  q _ := fullShare
  owed _ := 0

theorem A_eq45 (c : Dev nD) (w : Fin cfg45.W) : (dat45 V c).A w = V c (Pipeline.arrRef spec45 w) := by
  dsimp only [dat45]

theorem after45_0 (c : Dev nD) (t : Fin cfg45.N) : (dat45 V c).after 0 t = iblk45 V c 0 t := by dsimp only [dat45]
theorem after45_1 (c : Dev nD) (t : Fin cfg45.N) : (dat45 V c).after 1 t = iblk45 V c 1 t := by dsimp only [dat45]
theorem after45_2 (c : Dev nD) (t : Fin cfg45.N) : (dat45 V c).after 2 t = out45_2 (iblk45 V c 0 t) (iblk45 V c 1 t) := by dsimp only [dat45]

theorem before45_0 (c : Dev nD) (t : Fin cfg45.N) (d) : (dat45 V c).before 0 t d = iblk45 V c 0 t :=
  before45_0_of V (dat45 V c) (A_eq45 V c 0) (after45_0 V c) t d
theorem before45_1 (c : Dev nD) (t : Fin cfg45.N) (d) : (dat45 V c).before 1 t d = iblk45 V c 1 t :=
  before45_1_of V (dat45 V c) (A_eq45 V c 1) (after45_1 V c) t d

/-! ## The body obligation, at a generic point -/

/-- What the body is called with at point t, window by window, -/
noncomputable def bodyPre45 (c : Dev nD) (t : Fin cfg45.N) : sProp 𝕄 :=
  iprop((dat45 V c).Φ t.castSucc ∗ (dat45 V c).owesAt () t.castSucc
    ∗ (∃ d, owns (c : Thread nD τ) (st45_0 t) fullShare ((dat45 V c).before 0 t d))
    ∗ (∃ d, owns (c : Thread nD τ) (st45_1 t) fullShare ((dat45 V c).before 1 t d))
    ∗ (∃ d, owns (c : Thread nD τ) (st45_2 t) fullShare ((dat45 V c).before 2 t d)))

/-- and what it returns. -/
noncomputable def bodyPost45 (c : Dev nD) (t : Fin cfg45.N) : sProp 𝕄 :=
  iprop((dat45 V c).Φ t.succ ∗ (dat45 V c).owesAt () t.succ
    ∗ owns (c : Thread nD τ) (st45_0 t) fullShare ((dat45 V c).after 0 t)
    ∗ owns (c : Thread nD τ) (st45_1 t) fullShare ((dat45 V c).after 1 t)
    ∗ owns (c : Thread nD τ) (st45_2 t) fullShare ((dat45 V c).after 2 t))

/-- The inputs' memrefs hold their blocks, so the body's triple applies; the invariant and what the core
    owes pass through unread. -/
theorem sound_body45 (c : Dev nD) (t : Fin cfg45.N) :
    bodyPre45 V c t ⊢ wp frame (wpE (defs₀ (F := F)) Variants.none c none) Set.univ (bodyAt45 t) (fun _ => bodyPost45 V c t) := by
  unfold bodyPre45 bodyPost45 bodyAt45
  simp only [before45_0, before45_1]
  rw [show (dat45 V c).Φ t.succ = (dat45 V c).Φ t.castSucc from rfl,
    show (dat45 V c).owesAt () t.succ = (dat45 V c).owesAt () t.castSucc from rfl,
    after45_0, after45_1, after45_2]
  iintro ⟨HΦ, Ho, ⟨%d0, H0⟩, ⟨%d1, H1⟩, ⟨%d2, H2⟩⟩
  iapply (sound_kernel45 c Set.univ (grid45.coords t) _ _ _ _ _ _ (iblk45 V c 0 t) (iblk45 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation45 (c : Dev nD) : BodyObligation (dat45 (F := F) V c) (defs₀ (F := F)) Variants.none () Set.univ := fun t => by
  rw [bigSep_W45, bigSep_W45]
  exact sound_body45 V c t

end Region45

end Cert.KernelIdeal.Hand

end
-- ==== Proof.KI.R46.lean ====
/- Region 46: each row of agg + b is mapped to its softmax with a one added to the denominator
   (s = e / (1 + Σ e), e = exp (v − row maximum of v), v = agg + b), block of 2000 rows by block, and the column
   sums of s are accumulated over the 25 row blocks in a [1, 32] accumulator that lives across the grid points.
   The body branches twice on the grid coordinate: at the first point it zeroes the accumulator, at the last point
   it copies the accumulator into the [1, 32] output block. Three cases meet the grid: A (the first point),
   B (the points strictly between), C (the last point).
   This module: what the cases share; the body run once per case; what each case leaves in the outputs and in the
   accumulator, and what they hold point by point; the proof data of the pipeline; the body obligation; the
   invariant at the region's two ends. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## The windows' blocks -/

/-- Window `w`'s block at point `t`, read off its array as the region finds it. -/
noncomputable def iblk46 (c : Dev nD) (w : Fin cfg46.W) (t : Fin cfg46.N) : ((cfg46.win w).xblock (cfg46.grid.coords t)).Idx → Elt F (cfg46.win w).elt :=
  ((cfg46.win w).blk t).view.read (Elt F) (V c (Pipeline.arrRef spec46 w))

/-- The row block of agg: its staging buffer holds the block of the point, fetched there or not, for any proof data
    whose array is the entry contents and whose body leaves the block in place. -/
theorem before46_0_of {c : Dev nD} (dat : Dat τ (Elt F) Unit ℕ (UR sig nD τ) ℕ cfg46 c) (hA : dat.A 0 = V c (Pipeline.arrRef spec46 0))
    (hafter : ∀ t, dat.after 0 t = iblk46 V c 0 t) (t : Fin cfg46.N) (d) : dat.before 0 t d = iblk46 V c 0 t :=
  (dat.before_in_eq_fetched 0 rfl (fun _ => rfl) (fun _ _ _ => rfl) (fun t => by rw [hafter]; unfold Dat.blockOf iblk46; rw [hA]; try rfl) t d).trans
    (by unfold Dat.fetched Dat.blockOf iblk46; rw [hA]; try rfl)

/-- The bias row b: its one block is fetched at the first point only and its index never moves, so the buffer holds
    it at every point. -/
theorem before46_1_of {c : Dev nD} (dat : Dat τ (Elt F) Unit ℕ (UR sig nD τ) ℕ cfg46 c) (hA : dat.A 1 = V c (Pipeline.arrRef spec46 1))
    (hafter : ∀ t, dat.after 1 t = iblk46 V c 1 t) (t : Fin cfg46.N) (d) : dat.before 1 t d = iblk46 V c 1 t :=
  (dat.before_in_eq_fetched 1 rfl (fun _ => rfl) (fun _ _ _ => rfl) (fun t => by rw [hafter]; unfold Dat.blockOf iblk46; rw [hA]; try rfl) t d).trans
    (by unfold Dat.fetched Dat.blockOf iblk46; rw [hA]; try rfl)

end Entry

/-! ## The body's two conditions on the grid coordinate -/

/-- "This is the first row block": the condition under which the accumulator is zeroed. -/
noncomputable abbrev cond46_0 (i : grid46.Coords) : Prop := (Scalar.cmpi .ne (Scalar.extui (Scalar.cmpi .eq (BitVec.ofNat 32 (i 0).val) 0#32)) 0#32) = 1#1
/-- It holds at point 0 only — decided over the grid. -/
theorem hcond46_0 : ∀ t : Fin cfg46.N, cond46_0 (grid46.coords t) ↔ t.val = 0 :=
  (by decide +kernel : ∀ t : Fin grid46.N, cond46_0 (grid46.coords t) ↔ t.val = 0)

/-- "This is the last row block": the condition under which the accumulator is copied out. -/
noncomputable abbrev cond46_1 (i : grid46.Coords) : Prop := k46_cond2 i = 1#1
/-- It holds at point 24 only — decided over the grid. -/
theorem hcond46_1 : ∀ t : Fin cfg46.N, cond46_1 (grid46.coords t) ↔ t.val = 24 :=
  (by decide +kernel : ∀ t : Fin grid46.N, cond46_1 (grid46.coords t) ↔ t.val = 24)

/-! ## Where the windows are idle -/

theorem liveAt46_0 : ∀ t : Fin cfg46.N, cfg46.idle 0 (grid46.coords t) = false := fun _ => rfl
theorem liveAt46_1 : ∀ t : Fin cfg46.N, cfg46.idle 1 (grid46.coords t) = false := fun _ => rfl
theorem liveAt46_2 : ∀ t : Fin cfg46.N, cfg46.idle 2 (grid46.coords t) = false := fun _ => rfl
/-- Before the last point nothing is stored into the column-sum block, and it is not written back there. -/
theorem idleAt46_3 : ∀ t : Fin cfg46.N, ¬cond46_1 (grid46.coords t) → cfg46.idle 3 (grid46.coords t) = true := by decide +kernel
theorem noFlush46_3 : ∀ t : Fin cfg46.N, ¬cond46_1 (grid46.coords t) → (cfg46.win 3).flush t = false := by decide +kernel
/-- At the last point it is stored. -/
theorem liveAt46_3 : ∀ t : Fin cfg46.N, cond46_1 (grid46.coords t) → cfg46.idle 3 (grid46.coords t) = false := by decide +kernel

/-! ## The staging memrefs and the accumulator -/

/-- One staging buffer of each output window, through which its contents are stated (the choice does not matter). -/
noncomputable abbrev VO46_2 : View sig .tc .vmem S2000x32 .f32 := (Memref.whole cc46_stg2_0 : Memref sig .tc .vmem S2000x32 .f32).view
noncomputable abbrev VO46_3 : View sig .tc .vmem S1x32 .f32 := (Memref.whole cc46_stg3_0 : Memref sig .tc .vmem S1x32 .f32).view
/-- Each window's current staging memref at point `t`, as the pipeline passes it to the body, and its wholeness. -/
noncomputable abbrev ms46_0 (t : Fin cfg46.N) : Memref sig .tc .vmem S2000x32 .f32 := win46_0.stage (cfg46.slots t 0)
noncomputable abbrev hs46_0 (t : Fin cfg46.N) : (ms46_0 t).IsWhole := hstage46_0 ((cfg46.slots t 0).cast nbuf46_0)
noncomputable abbrev ms46_1 (t : Fin cfg46.N) : Memref sig .tc .vmem S1x32 .f32 := win46_1.stage (cfg46.slots t 1)
noncomputable abbrev hs46_1 (t : Fin cfg46.N) : (ms46_1 t).IsWhole := hstage46_1 ((cfg46.slots t 1).cast nbuf46_1)
noncomputable abbrev ms46_2 (t : Fin cfg46.N) : Memref sig .tc .vmem S2000x32 .f32 := win46_2.stage (cfg46.slots t 2)
noncomputable abbrev hs46_2 (t : Fin cfg46.N) : (ms46_2 t).IsWhole := hstage46_2 ((cfg46.slots t 2).cast nbuf46_2)
noncomputable abbrev ms46_3 (t : Fin cfg46.N) : Memref sig .tc .vmem S1x32 .f32 := win46_3.stage (cfg46.slots t 3)
noncomputable abbrev hs46_3 (t : Fin cfg46.N) : (ms46_3 t).IsWhole := hstage46_3 ((cfg46.slots t 3).cast nbuf46_3)
/-- The accumulator: a whole scoped buffer of the kernel's own, passed beside the windows. -/
noncomputable abbrev scM46_0 : Memref sig .tc .vmem S1x32 .f32 := Memref.whole cc46_scratch0
/-- The accumulator as a view: what it holds is stated through it. -/
noncomputable abbrev VS46_0 : View sig .tc .vmem S1x32 .f32 := scM46_0.view

/-- What the region is handed, with the accumulator split out of the scoped buffers as a memref owned at some
    contents: what the body obligation hands the body and takes back. -/
theorem PhiA46_eq (c : Dev nD) :
    (Pipeline.ΦA spec46 c : sProp 𝕄)
      = iprop(iprop(iprop((∃ d, owns (c : Thread nD τ) scM46_0 fullShare d))
          ∗ Pipeline.scopedRestBut (Ix := Unit) (Name := ℕ) (U := UR sig nD τ) (Lvl := ℕ) (Val := Elt F) spec46 c [cc46_scratch0]) ∗ (∃ r, prngReg c r)) := by
  unfold Pipeline.ΦA; rw [scopedRest46_split]; simp only [scM46_0, owns_whole]; try rfl

/-! # Case A's run -/

set_option maxHeartbeats 4000000 in
/-- What the body's stores leave in each output's staging memref and in the accumulator, as pieces (last first), in
    case A, with the proof that on whole memrefs — the inputs' at their blocks `x0` (rows of agg), `x1` (b) — the
    body runs to the continuation holding the inputs' as they were and each stored buffer with its pieces written.
    The pieces are found by running the body's memory operations one by one. -/
noncomputable def kernelRun46_A (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond46_0 i) (hc1 : ¬cond46_1 i)
    (x0 : Vec F S2000x32 .f32) (x1 : Vec F S1x32 .f32) :
    Σ' (L2 : List (View.Piece (Elt F) S2000x32 .f32)) (L3 : List (View.Piece (Elt F) S1x32 .f32)), { LS0 : List (View.Piece (Elt F) S1x32 .f32) //
      ∀ (xi3 : Vec F S1x32 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc46__bias_softmax_stats_kernel i arg1 harg1 arg2 harg2 arg3 harg3 arg4 harg4 arg5 harg5) K } := by
  refine ⟨?_, [], ?_, fun xi3 E K => ?run⟩
  case run =>
    simp only [cc46__bias_softmax_stats_kernel_eq_skeleton]; unfold cc46__bias_softmax_stats_kernel_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

/-! # Case B's run -/

set_option maxHeartbeats 4000000 in
/-- What the body's stores leave in each output's staging memref and in the accumulator, as pieces (last first), in
    case B, with the proof that on whole memrefs — the inputs' at their blocks `x0` (rows of agg), `x1` (b) — the
    body runs to the continuation holding the inputs' as they were and each stored buffer with its pieces written.
    The pieces are found by running the body's memory operations one by one. -/
noncomputable def kernelRun46_B (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : ¬cond46_1 i)
    (x0 : Vec F S2000x32 .f32) (x1 : Vec F S1x32 .f32) (xs0 : Vec F S1x32 .f32) :
    Σ' (L2 : List (View.Piece (Elt F) S2000x32 .f32)) (L3 : List (View.Piece (Elt F) S1x32 .f32)), { LS0 : List (View.Piece (Elt F) S1x32 .f32) //
      ∀ (xi3 : Vec F S1x32 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc46__bias_softmax_stats_kernel i arg1 harg1 arg2 harg2 arg3 harg3 arg4 harg4 arg5 harg5) K } := by
  refine ⟨?_, [], ?_, fun xi3 E K => ?run⟩
  case run =>
    simp only [cc46__bias_softmax_stats_kernel_eq_skeleton]; unfold cc46__bias_softmax_stats_kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

/-! # Case C's run -/

set_option maxHeartbeats 4000000 in
/-- What the body's stores leave in each output's staging memref and in the accumulator, as pieces (last first), in
    case C, with the proof that on whole memrefs — the inputs' at their blocks `x0` (rows of agg), `x1` (b) — the
    body runs to the continuation holding the inputs' as they were and each stored buffer with its pieces written.
    The pieces are found by running the body's memory operations one by one. -/
noncomputable def kernelRun46_C (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) :
    Σ' (L2 : List (View.Piece (Elt F) S2000x32 .f32)) (L3 : List (View.Piece (Elt F) S1x32 .f32)), { LS0 : List (View.Piece (Elt F) S1x32 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc46__bias_softmax_stats_kernel i arg1 harg1 arg2 harg2 arg3 harg3 arg4 harg4 arg5 harg5) K } := by
  refine ⟨?_, ?_, ?_, fun E K => ?run⟩
  case run =>
    simp only [cc46__bias_softmax_stats_kernel_eq_skeleton]; unfold cc46__bias_softmax_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; iexact H3
    iexists _; iexact HS0

/-! # What the cases leave, point by point; the proof data; the body obligation -/

variable (V : (c : Dev nD) → (b : Ref sig .tc) → Buf (Elt F) ((c : Thread nD τ).loc b))

/-! ## What each case leaves in each output's staging buffer and in the accumulator -/

/-! ### Case A: the first row block -/

/-- The one store of the softmax block tiles the [2000, 32] staging buffer, so the case's pieces cover it. -/
theorem cover46_A_2 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond46_0 i) (hc1 : ¬cond46_1 i)
    (x0 : Vec F S2000x32 .f32) (x1 : Vec F S1x32 .f32) (y : S2000x32.Idx) :
    ∃ pc ∈ (kernelRun46_A c i arg1 harg1 arg2 harg2 arg3 harg3 arg4 harg4 arg5 harg5 hc0 hc1 x0 x1).1, y ∈ pc.1.set :=
  View.cover_of_tiledL (kernelRun46_A c i arg1 harg1 arg2 harg2 arg3 harg3 arg4 harg4 arg5 harg5 hc0 hc1 x0 x1).1 S2000x32.size (by sl_kernel_rfl) y

/-- What case A leaves in the softmax block's staging buffer: its pieces read back. -/
noncomputable def out46_A_2 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond46_0 i) (hc1 : ¬cond46_1 i)
    (x0 : Vec F S2000x32 .f32) (x1 : Vec F S1x32 .f32) : Vec F S2000x32 .f32 :=
  VO46_2.read (Elt F) (VO46_2.writes (Elt F) VO46_2.junk (kernelRun46_A c i arg1 harg1 arg2 harg2 arg3 harg3 arg4 harg4 arg5 harg5 hc0 hc1 x0 x1).1)

/-- Case A stores nothing into the column-sum buffer (the window is idle there and not written back): no pieces —
    an arbitrary value that nothing consults. -/
noncomputable def out46_A_3 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond46_0 i) (hc1 : ¬cond46_1 i)
    (x0 : Vec F S2000x32 .f32) (x1 : Vec F S1x32 .f32) : Vec F S1x32 .f32 :=
  VO46_3.read (Elt F) (VO46_3.writes (Elt F) VO46_3.junk (kernelRun46_A c i arg1 harg1 arg2 harg2 arg3 harg3 arg4 harg4 arg5 harg5 hc0 hc1 x0 x1).2.1)

/-- Case A's last store into the accumulator is whole, so its pieces cover it. -/
theorem scover46_A_0 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond46_0 i) (hc1 : ¬cond46_1 i)
    (x0 : Vec F S2000x32 .f32) (x1 : Vec F S1x32 .f32) (y : S1x32.Idx) :
    ∃ pc ∈ (kernelRun46_A c i arg1 harg1 arg2 harg2 arg3 harg3 arg4 harg4 arg5 harg5 hc0 hc1 x0 x1).2.2.1, y ∈ pc.1.set :=
  View.cover_of_tiledL (kernelRun46_A c i arg1 harg1 arg2 harg2 arg3 harg3 arg4 harg4 arg5 harg5 hc0 hc1 x0 x1).2.2.1 S1x32.size (by sl_kernel_rfl) y

/-- What case A leaves in the accumulator: its pieces read back. -/
noncomputable def sout46_A_0 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond46_0 i) (hc1 : ¬cond46_1 i)
    (x0 : Vec F S2000x32 .f32) (x1 : Vec F S1x32 .f32) : Vec F S1x32 .f32 :=
  VS46_0.read (Elt F) (VS46_0.writes (Elt F) VS46_0.junk (kernelRun46_A c i arg1 harg1 arg2 harg2 arg3 harg3 arg4 harg4 arg5 harg5 hc0 hc1 x0 x1).2.2.1)

/-! ### Case B: a middle row block -/

/-- The one store of the softmax block tiles the [2000, 32] staging buffer, so the case's pieces cover it. -/
theorem cover46_B_2 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : ¬cond46_1 i)
    (x0 : Vec F S2000x32 .f32) (x1 : Vec F S1x32 .f32) (xs0 : Vec F S1x32 .f32) (y : S2000x32.Idx) :
    ∃ pc ∈ (kernelRun46_B c i arg1 harg1 arg2 harg2 arg3 harg3 arg4 harg4 arg5 harg5 hc0 hc1 x0 x1 xs0).1, y ∈ pc.1.set :=
  View.cover_of_tiledL (kernelRun46_B c i arg1 harg1 arg2 harg2 arg3 harg3 arg4 harg4 arg5 harg5 hc0 hc1 x0 x1 xs0).1 S2000x32.size (by sl_kernel_rfl) y

/-- What case B leaves in the softmax block's staging buffer: its pieces read back. -/
noncomputable def out46_B_2 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : ¬cond46_1 i)
    (x0 : Vec F S2000x32 .f32) (x1 : Vec F S1x32 .f32) (xs0 : Vec F S1x32 .f32) : Vec F S2000x32 .f32 :=
  VO46_2.read (Elt F) (VO46_2.writes (Elt F) VO46_2.junk (kernelRun46_B c i arg1 harg1 arg2 harg2 arg3 harg3 arg4 harg4 arg5 harg5 hc0 hc1 x0 x1 xs0).1)

/-- Case B stores nothing into the column-sum buffer (the window is idle there and not written back): no pieces —
    an arbitrary value that nothing consults. -/
noncomputable def out46_B_3 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : ¬cond46_1 i)
    (x0 : Vec F S2000x32 .f32) (x1 : Vec F S1x32 .f32) (xs0 : Vec F S1x32 .f32) : Vec F S1x32 .f32 :=
  VO46_3.read (Elt F) (VO46_3.writes (Elt F) VO46_3.junk (kernelRun46_B c i arg1 harg1 arg2 harg2 arg3 harg3 arg4 harg4 arg5 harg5 hc0 hc1 x0 x1 xs0).2.1)

/-- Case B's last store into the accumulator is whole, so its pieces cover it. -/
theorem scover46_B_0 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : ¬cond46_1 i)
    (x0 : Vec F S2000x32 .f32) (x1 : Vec F S1x32 .f32) (xs0 : Vec F S1x32 .f32) (y : S1x32.Idx) :
    ∃ pc ∈ (kernelRun46_B c i arg1 harg1 arg2 harg2 arg3 harg3 arg4 harg4 arg5 harg5 hc0 hc1 x0 x1 xs0).2.2.1, y ∈ pc.1.set :=
  View.cover_of_tiledL (kernelRun46_B c i arg1 harg1 arg2 harg2 arg3 harg3 arg4 harg4 arg5 harg5 hc0 hc1 x0 x1 xs0).2.2.1 S1x32.size (by sl_kernel_rfl) y

/-- What case B leaves in the accumulator: its pieces read back. -/
noncomputable def sout46_B_0 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : ¬cond46_1 i)
    (x0 : Vec F S2000x32 .f32) (x1 : Vec F S1x32 .f32) (xs0 : Vec F S1x32 .f32) : Vec F S1x32 .f32 :=
  VS46_0.read (Elt F) (VS46_0.writes (Elt F) VS46_0.junk (kernelRun46_B c i arg1 harg1 arg2 harg2 arg3 harg3 arg4 harg4 arg5 harg5 hc0 hc1 x0 x1 xs0).2.2.1)

/-! ### Case C: the last row block -/

/-- The one store of the softmax block tiles the [2000, 32] staging buffer, so the case's pieces cover it. -/
theorem cover46_C_2 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) (y : S2000x32.Idx) :
    ∃ pc ∈ (kernelRun46_C c i arg1 harg1 arg2 harg2 arg3 harg3 arg4 harg4 arg5 harg5 hc0 hc1 x0 x1 xs0).1, y ∈ pc.1.set :=
  View.cover_of_tiledL (kernelRun46_C c i arg1 harg1 arg2 harg2 arg3 harg3 arg4 harg4 arg5 harg5 hc0 hc1 x0 x1 xs0).1 S2000x32.size (by sl_kernel_rfl) y

/-- What case C leaves in the softmax block's staging buffer: its pieces read back. -/
noncomputable def out46_C_2 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) : Vec F S2000x32 .f32 :=
  VO46_2.read (Elt F) (VO46_2.writes (Elt F) VO46_2.junk (kernelRun46_C c i arg1 harg1 arg2 harg2 arg3 harg3 arg4 harg4 arg5 harg5 hc0 hc1 x0 x1 xs0).1)

/-- The copy of the accumulator tiles the [1, 32] column-sum buffer, so the case's pieces cover it. -/
theorem cover46_C_3 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) (y : S1x32.Idx) :
    ∃ pc ∈ (kernelRun46_C c i arg1 harg1 arg2 harg2 arg3 harg3 arg4 harg4 arg5 harg5 hc0 hc1 x0 x1 xs0).2.1, y ∈ pc.1.set :=
  View.cover_of_tiledL (kernelRun46_C c i arg1 harg1 arg2 harg2 arg3 harg3 arg4 harg4 arg5 harg5 hc0 hc1 x0 x1 xs0).2.1 S1x32.size (by sl_kernel_rfl) y

/-- What case C leaves in the column-sum buffer: its pieces read back. -/
noncomputable def out46_C_3 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) : Vec F S1x32 .f32 :=
  VO46_3.read (Elt F) (VO46_3.writes (Elt F) VO46_3.junk (kernelRun46_C c i arg1 harg1 arg2 harg2 arg3 harg3 arg4 harg4 arg5 harg5 hc0 hc1 x0 x1 xs0).2.1)

/-- Case C's last store into the accumulator is whole, so its pieces cover it. -/
theorem scover46_C_0 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) (y : S1x32.Idx) :
    ∃ pc ∈ (kernelRun46_C c i arg1 harg1 arg2 harg2 arg3 harg3 arg4 harg4 arg5 harg5 hc0 hc1 x0 x1 xs0).2.2.1, y ∈ pc.1.set :=
  View.cover_of_tiledL (kernelRun46_C c i arg1 harg1 arg2 harg2 arg3 harg3 arg4 harg4 arg5 harg5 hc0 hc1 x0 x1 xs0).2.2.1 S1x32.size (by sl_kernel_rfl) y

/-- What case C leaves in the accumulator: its pieces read back. -/
noncomputable def sout46_C_0 (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) : Vec F S1x32 .f32 :=
  VS46_0.read (Elt F) (VS46_0.writes (Elt F) VS46_0.junk (kernelRun46_C c i arg1 harg1 arg2 harg2 arg3 harg3 arg4 harg4 arg5 harg5 hc0 hc1 x0 x1 xs0).2.2.1)

/-! ## What the outputs and the accumulator hold after each point -/

/-- THE ACCUMULATION. What the two outputs' staging buffers and the accumulator hold after the body at position `n`
    (a triple: the softmax block, the column-sum block, the accumulator): the case of the point, run at the point's memrefs
    and input blocks; at a point after the first the accumulator starts from what the point before left in it. -/
noncomputable def outsAt46 (c : Dev nD) : (n : ℕ) → n < cfg46.N → Vec F S2000x32 .f32 × Vec F S1x32 .f32 × Vec F S1x32 .f32
  | 0, hn =>
    (out46_A_2 c (grid46.coords ⟨0, hn⟩) (ms46_0 ⟨0, hn⟩) (hs46_0 ⟨0, hn⟩) (ms46_1 ⟨0, hn⟩) (hs46_1 ⟨0, hn⟩) (ms46_2 ⟨0, hn⟩) (hs46_2 ⟨0, hn⟩) (ms46_3 ⟨0, hn⟩) (hs46_3 ⟨0, hn⟩) scM46_0 (Memref.isWhole_whole _) ((hcond46_0 ⟨0, hn⟩).mpr rfl) (fun h => absurd (show (0 : ℕ) = 24 from (hcond46_1 ⟨0, hn⟩).mp h) (by decide)) (iblk46 V c 0 ⟨0, hn⟩) (iblk46 V c 1 ⟨0, hn⟩),
      out46_A_3 c (grid46.coords ⟨0, hn⟩) (ms46_0 ⟨0, hn⟩) (hs46_0 ⟨0, hn⟩) (ms46_1 ⟨0, hn⟩) (hs46_1 ⟨0, hn⟩) (ms46_2 ⟨0, hn⟩) (hs46_2 ⟨0, hn⟩) (ms46_3 ⟨0, hn⟩) (hs46_3 ⟨0, hn⟩) scM46_0 (Memref.isWhole_whole _) ((hcond46_0 ⟨0, hn⟩).mpr rfl) (fun h => absurd (show (0 : ℕ) = 24 from (hcond46_1 ⟨0, hn⟩).mp h) (by decide)) (iblk46 V c 0 ⟨0, hn⟩) (iblk46 V c 1 ⟨0, hn⟩),
      sout46_A_0 c (grid46.coords ⟨0, hn⟩) (ms46_0 ⟨0, hn⟩) (hs46_0 ⟨0, hn⟩) (ms46_1 ⟨0, hn⟩) (hs46_1 ⟨0, hn⟩) (ms46_2 ⟨0, hn⟩) (hs46_2 ⟨0, hn⟩) (ms46_3 ⟨0, hn⟩) (hs46_3 ⟨0, hn⟩) scM46_0 (Memref.isWhole_whole _) ((hcond46_0 ⟨0, hn⟩).mpr rfl) (fun h => absurd (show (0 : ℕ) = 24 from (hcond46_1 ⟨0, hn⟩).mp h) (by decide)) (iblk46 V c 0 ⟨0, hn⟩) (iblk46 V c 1 ⟨0, hn⟩))
  | n + 1, hn =>
    if h1 : n + 1 = 24 then
      (out46_C_2 c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) (ms46_3 ⟨n + 1, hn⟩) (hs46_3 ⟨n + 1, hn⟩) scM46_0 (Memref.isWhole_whole _) (fun h => absurd ((hcond46_0 ⟨n + 1, hn⟩).mp h) (Nat.succ_ne_zero n)) ((hcond46_1 ⟨n + 1, hn⟩).mpr h1) (iblk46 V c 0 ⟨n + 1, hn⟩) (iblk46 V c 1 ⟨n + 1, hn⟩) (outsAt46 c n (Nat.lt_of_succ_lt hn)).2.2,
      out46_C_3 c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) (ms46_3 ⟨n + 1, hn⟩) (hs46_3 ⟨n + 1, hn⟩) scM46_0 (Memref.isWhole_whole _) (fun h => absurd ((hcond46_0 ⟨n + 1, hn⟩).mp h) (Nat.succ_ne_zero n)) ((hcond46_1 ⟨n + 1, hn⟩).mpr h1) (iblk46 V c 0 ⟨n + 1, hn⟩) (iblk46 V c 1 ⟨n + 1, hn⟩) (outsAt46 c n (Nat.lt_of_succ_lt hn)).2.2,
      sout46_C_0 c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) (ms46_3 ⟨n + 1, hn⟩) (hs46_3 ⟨n + 1, hn⟩) scM46_0 (Memref.isWhole_whole _) (fun h => absurd ((hcond46_0 ⟨n + 1, hn⟩).mp h) (Nat.succ_ne_zero n)) ((hcond46_1 ⟨n + 1, hn⟩).mpr h1) (iblk46 V c 0 ⟨n + 1, hn⟩) (iblk46 V c 1 ⟨n + 1, hn⟩) (outsAt46 c n (Nat.lt_of_succ_lt hn)).2.2)
    else
      (out46_B_2 c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) (ms46_3 ⟨n + 1, hn⟩) (hs46_3 ⟨n + 1, hn⟩) scM46_0 (Memref.isWhole_whole _) (fun h => absurd ((hcond46_0 ⟨n + 1, hn⟩).mp h) (Nat.succ_ne_zero n)) (fun h => h1 ((hcond46_1 ⟨n + 1, hn⟩).mp h)) (iblk46 V c 0 ⟨n + 1, hn⟩) (iblk46 V c 1 ⟨n + 1, hn⟩) (outsAt46 c n (Nat.lt_of_succ_lt hn)).2.2,
      out46_B_3 c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) (ms46_3 ⟨n + 1, hn⟩) (hs46_3 ⟨n + 1, hn⟩) scM46_0 (Memref.isWhole_whole _) (fun h => absurd ((hcond46_0 ⟨n + 1, hn⟩).mp h) (Nat.succ_ne_zero n)) (fun h => h1 ((hcond46_1 ⟨n + 1, hn⟩).mp h)) (iblk46 V c 0 ⟨n + 1, hn⟩) (iblk46 V c 1 ⟨n + 1, hn⟩) (outsAt46 c n (Nat.lt_of_succ_lt hn)).2.2,
      sout46_B_0 c (grid46.coords ⟨n + 1, hn⟩) (ms46_0 ⟨n + 1, hn⟩) (hs46_0 ⟨n + 1, hn⟩) (ms46_1 ⟨n + 1, hn⟩) (hs46_1 ⟨n + 1, hn⟩) (ms46_2 ⟨n + 1, hn⟩) (hs46_2 ⟨n + 1, hn⟩) (ms46_3 ⟨n + 1, hn⟩) (hs46_3 ⟨n + 1, hn⟩) scM46_0 (Memref.isWhole_whole _) (fun h => absurd ((hcond46_0 ⟨n + 1, hn⟩).mp h) (Nat.succ_ne_zero n)) (fun h => h1 ((hcond46_1 ⟨n + 1, hn⟩).mp h)) (iblk46 V c 0 ⟨n + 1, hn⟩) (iblk46 V c 1 ⟨n + 1, hn⟩) (outsAt46 c n (Nat.lt_of_succ_lt hn)).2.2)

/-- `outsAt46` at the first point: case A's contents. -/
theorem outsAt46_A (c : Dev nD) (t : Fin cfg46.N) (h0 : t.val = 0) (h1 : ¬t.val = 24) :
    outsAt46 V c t.val t.isLt =
      (out46_A_2 c (grid46.coords t) (ms46_0 t) (hs46_0 t) (ms46_1 t) (hs46_1 t) (ms46_2 t) (hs46_2 t) (ms46_3 t) (hs46_3 t) scM46_0 (Memref.isWhole_whole _) ((hcond46_0 t).mpr h0) (fun h => h1 ((hcond46_1 t).mp h)) (iblk46 V c 0 t) (iblk46 V c 1 t),
      out46_A_3 c (grid46.coords t) (ms46_0 t) (hs46_0 t) (ms46_1 t) (hs46_1 t) (ms46_2 t) (hs46_2 t) (ms46_3 t) (hs46_3 t) scM46_0 (Memref.isWhole_whole _) ((hcond46_0 t).mpr h0) (fun h => h1 ((hcond46_1 t).mp h)) (iblk46 V c 0 t) (iblk46 V c 1 t),
      sout46_A_0 c (grid46.coords t) (ms46_0 t) (hs46_0 t) (ms46_1 t) (hs46_1 t) (ms46_2 t) (hs46_2 t) (ms46_3 t) (hs46_3 t) scM46_0 (Memref.isWhole_whole _) ((hcond46_0 t).mpr h0) (fun h => h1 ((hcond46_1 t).mp h)) (iblk46 V c 0 t) (iblk46 V c 1 t)) := by
  obtain ⟨n, hn⟩ := t
  cases n with
  | zero => exact rfl
  | succ n => exact absurd h0 (Nat.succ_ne_zero n)

/-- `outsAt46` at a middle point: case B's contents, over what the point before left in the accumulator. -/
theorem outsAt46_B (c : Dev nD) (t : Fin cfg46.N) (h0 : ¬t.val = 0) (h1 : ¬t.val = 24) :
    outsAt46 V c t.val t.isLt =
      (out46_B_2 c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) (fun h => h1 ((hcond46_1 t).mp h)) (iblk46 V c 0 t) (iblk46 V c 1 t) (outsAt46 V c (t.val - 1) (Nat.lt_of_le_of_lt (Nat.sub_le _ _) t.isLt)).2.2,
      out46_B_3 c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) (fun h => h1 ((hcond46_1 t).mp h)) (iblk46 V c 0 t) (iblk46 V c 1 t) (outsAt46 V c (t.val - 1) (Nat.lt_of_le_of_lt (Nat.sub_le _ _) t.isLt)).2.2,
      sout46_B_0 c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) (fun h => h1 ((hcond46_1 t).mp h)) (iblk46 V c 0 t) (iblk46 V c 1 t) (outsAt46 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt46` at the last point: case C's contents, over what the point before left in the accumulator. -/
theorem outsAt46_C (c : Dev nD) (t : Fin cfg46.N) (h0 : ¬t.val = 0) (h1 : t.val = 24) :
    outsAt46 V c t.val t.isLt =
      (out46_C_2 c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) ((hcond46_1 t).mpr h1) (iblk46 V c 0 t) (iblk46 V c 1 t) (outsAt46 V c (t.val - 1) (Nat.lt_of_le_of_lt (Nat.sub_le _ _) t.isLt)).2.2,
      out46_C_3 c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) ((hcond46_1 t).mpr h1) (iblk46 V c 0 t) (iblk46 V c 1 t) (outsAt46 V c (t.val - 1) (Nat.lt_of_le_of_lt (Nat.sub_le _ _) t.isLt)).2.2,
      sout46_C_0 c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) ((hcond46_1 t).mpr h1) (iblk46 V c 0 t) (iblk46 V c 1 t) (outsAt46 V c (t.val - 1) (Nat.lt_of_le_of_lt (Nat.sub_le _ _) t.isLt)).2.2) := by
  obtain ⟨n, hn⟩ := t
  cases n with
  | zero => exact absurd rfl h0
  | succ n => exact (dif_pos h1).trans rfl

/-! ## The invariant -/

/-- The region invariant before position `n`: before the first point what the region is handed (the accumulator at
    anything); afterwards the accumulator at what the point before left in it (`outsAt46`'s third component), the other
    scoped buffers at anything, the generator register at some state. -/
noncomputable def PhiS46 (c : Dev nD) : (n : ℕ) → n ≤ cfg46.N → sProp 𝕄
  | 0, _ => Pipeline.ΦA spec46 c
  | n + 1, hn => iprop(iprop(iprop(owns (c : Thread nD τ) scM46_0 fullShare ((outsAt46 V c n hn).2.2)) ∗ Pipeline.scopedRestBut (Ix := Unit) (Name := ℕ) (U := UR sig nD τ) (Lvl := ℕ) (Val := Elt F) spec46 c [cc46_scratch0]) ∗ (∃ r, prngReg c r))

theorem PhiS46_zero (c : Dev nD) (n : ℕ) (h : n ≤ cfg46.N) (hz : n = 0) : PhiS46 V c n h = Pipeline.ΦA spec46 c := by
  subst hz; rfl

/-- After point `n` (before point `n + 1`): the accumulator at that point's contents. -/
theorem PhiS46_succ (c : Dev nD) (n : ℕ) (hn : n < cfg46.N) :
    PhiS46 V c (n + 1) hn = iprop(iprop(iprop(owns (c : Thread nD τ) scM46_0 fullShare ((outsAt46 V c n hn).2.2)) ∗ Pipeline.scopedRestBut (Ix := Unit) (Name := ℕ) (U := UR sig nD τ) (Lvl := ℕ) (Val := Elt F) spec46 c [cc46_scratch0]) ∗ (∃ r, prngReg c r)) := rfl

/-- Before a point that is not the first: the accumulator at what the point before left. -/
theorem PhiS46_pos (c : Dev nD) (n : ℕ) (h : n ≤ cfg46.N) (hz : n ≠ 0) :
    PhiS46 V c n h = iprop(iprop(iprop(owns (c : Thread nD τ) scM46_0 fullShare ((outsAt46 V c (n - 1) (by omega)).2.2)) ∗ Pipeline.scopedRestBut (Ix := Unit) (Name := ℕ) (U := UR sig nD τ) (Lvl := ℕ) (Val := Elt F) spec46 c [cc46_scratch0]) ∗ (∃ r, prngReg c r)) := by
  cases n with
  | zero => exact absurd rfl hz
  | succ n => rfl

/-! ## The pipeline's proof data -/

/-- The proof data of pipeline 46 on core `c`: the arrays as the region finds them; after the body at point `t` each
    input's buffer at its block and the outputs' at `outsAt46`'s components; the invariant `PhiS46`; nothing owed;
    full shares. -/
noncomputable def dat46 (c : Dev nD) : Dat τ (Elt F) Unit ℕ (UR sig nD τ) ℕ cfg46 c where
  A w := V c (Pipeline.arrRef spec46 w)
  after w t := match w with
    | ⟨0, _⟩ => iblk46 V c 0 t
    | ⟨1, _⟩ => iblk46 V c 1 t
    | ⟨2, _⟩ => (outsAt46 V c t.val t.isLt).1
    | ⟨3, _⟩ => (outsAt46 V c t.val t.isLt).2.1
  Φ t := PhiS46 V c t.val (Nat.le_of_lt_succ t.isLt)
  q _ := fullShare
  owed _ := 0

/-- The proof data's arrays are the region-entry contents. -/
theorem A_eq46 (c : Dev nD) (w : Fin cfg46.W) : (dat46 V c).A w = V c (Pipeline.arrRef spec46 w) := by
  dsimp only [dat46]

/-- The invariant at a point's start, restated at `t.val`. -/
theorem PhiS46_castSucc (c : Dev nD) (t : Fin cfg46.N) :
    (dat46 V c).Φ t.castSucc = PhiS46 V c t.val (Nat.le_of_lt t.isLt) := by
  dsimp only [dat46]; simp only [Fin.coe_castSucc]

/-- What the body leaves, window by window. -/
theorem after46_0 (c : Dev nD) (t : Fin cfg46.N) : (dat46 V c).after 0 t = iblk46 V c 0 t := by dsimp only [dat46]
theorem after46_1 (c : Dev nD) (t : Fin cfg46.N) : (dat46 V c).after 1 t = iblk46 V c 1 t := by dsimp only [dat46]
theorem after46_2 (c : Dev nD) (t : Fin cfg46.N) : (dat46 V c).after 2 t = (outsAt46 V c t.val t.isLt).1 := by dsimp only [dat46]
theorem after46_3 (c : Dev nD) (t : Fin cfg46.N) : (dat46 V c).after 3 t = (outsAt46 V c t.val t.isLt).2.1 := by dsimp only [dat46]

/-- Each input's current staging buffer holds its block at every point, fetched there or not. -/
theorem before46_0 (c : Dev nD) (t : Fin cfg46.N) (d) : (dat46 V c).before 0 t d = iblk46 V c 0 t :=
  before46_0_of V (dat46 V c) (A_eq46 V c 0) (after46_0 V c) t d
theorem before46_1 (c : Dev nD) (t : Fin cfg46.N) (d) : (dat46 V c).before 1 t d = iblk46 V c 1 t :=
  before46_1_of V (dat46 V c) (A_eq46 V c 1) (after46_1 V c) t d

/-! ## The body obligation, at a generic point -/

/-- What the body is called with at point `t`, the windows one by one, -/
noncomputable def bodyPre46 (c : Dev nD) (t : Fin cfg46.N) : sProp 𝕄 :=
  iprop((dat46 V c).Φ t.castSucc ∗ (dat46 V c).owesAt () t.castSucc
    ∗ (∃ d, owns (c : Thread nD τ) (ms46_0 t) fullShare ((dat46 V c).before 0 t d))
    ∗ (∃ d, owns (c : Thread nD τ) (ms46_1 t) fullShare ((dat46 V c).before 1 t d))
    ∗ (∃ d, owns (c : Thread nD τ) (ms46_2 t) fullShare ((dat46 V c).before 2 t d))
    ∗ (∃ d, owns (c : Thread nD τ) (ms46_3 t) fullShare ((dat46 V c).before 3 t d)))

/-- and what it returns. -/
noncomputable def bodyPost46 (c : Dev nD) (t : Fin cfg46.N) : sProp 𝕄 :=
  iprop((dat46 V c).Φ t.succ ∗ (dat46 V c).owesAt () t.succ
    ∗ (dat46 V c).leavesExact 0 t
    ∗ (dat46 V c).leavesExact 1 t
    ∗ (dat46 V c).leavesExact 2 t
    ∗ (dat46 V c).leavesExact 3 t)

set_option maxHeartbeats 4800000 in
/-- The body at any point: the inputs' memrefs hold their blocks; the point is the first, a middle or the last one
    (`by_cases` on the closed forms of the two conditions), so that case's run applies; the invariant hands the body the
    accumulator at what the point before left (at anything at the first point), and takes it back at this point's
    contents, the other scoped buffers and the generator register untouched; the core owes nothing throughout. -/
theorem sound_body46 (c : Dev nD) (t : Fin cfg46.N) :
    bodyPre46 V c t ⊢ wp frame (wpE (defs₀ (F := F)) Variants.none c none) Set.univ (bodyAt46 t) (fun _ => bodyPost46 V c t) := by
  unfold bodyPre46 bodyPost46 bodyAt46
  simp only [before46_0, before46_1]
  rw [show (dat46 V c).owesAt () t.succ = (dat46 V c).owesAt () t.castSucc from rfl]
  rw [show (dat46 V c).Φ t.succ = PhiS46 V c (t.val + 1) t.isLt from rfl, PhiS46_succ]
  have hN : t.val < 25 := lt_of_lt_of_eq t.isLt (show cfg46.N = 25 from N_46)
  rw [show (dat46 V c).leavesExact 0 t = owns (c : Thread nD τ) (ms46_0 t) fullShare ((dat46 V c).after 0 t) from by
    unfold Dat.leavesExact; rw [liveAt46_0 t], after46_0]
  rw [show (dat46 V c).leavesExact 1 t = owns (c : Thread nD τ) (ms46_1 t) fullShare ((dat46 V c).after 1 t) from by
    unfold Dat.leavesExact; rw [liveAt46_1 t], after46_1]
  rw [show (dat46 V c).leavesExact 2 t = owns (c : Thread nD τ) (ms46_2 t) fullShare ((dat46 V c).after 2 t) from by
    unfold Dat.leavesExact; rw [liveAt46_2 t], after46_2]
  by_cases h0 : t.val = 0
  · have h1 : ¬t.val = 24 := by omega
    rw [Dat.leavesExact_idle (dat46 V c) 3 t (idleAt46_3 t (fun h => h1 ((hcond46_1 t).mp h))) (noFlush46_3 t (fun h => h1 ((hcond46_1 t).mp h)))]
    rw [outsAt46_A V c t h0 h1]
    unfold out46_A_2 sout46_A_0; (try dsimp only)
    rw [PhiS46_castSucc V c t, PhiS46_zero V c _ _ h0, PhiA46_eq]
    iintro ⟨⟨⟨HS0, HR⟩, Hg⟩, Ho, ⟨%d0, H0⟩, ⟨%d1, H1⟩, ⟨%d2, H2⟩, ⟨%d3, H3⟩⟩
    iapply ((kernelRun46_A c (grid46.coords t) _ _ _ _ _ _ _ _ _ _ ((hcond46_0 t).mpr h0) (fun h => h1 ((hcond46_1 t).mp h)) (iblk46 V c 0 t) (iblk46 V c 1 t)).2.2.2 _ Set.univ _)
    isplitl [H0]; · iexact H0
    isplitl [H1]; · iexact H1
    isplitl [H2]; · iexists _; iexact H2
    isplitl [H3]; · iexact H3
    isplitl [HS0]; · iexact HS0
    iintro ⟨H0, H1, ⟨%e2, H2⟩, H3, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover46_A_0 c _ _ _ _ _ _ _ _ _ _ _ _ _ _ _)
        iexact HR
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover46_A_2 c _ _ _ _ _ _ _ _ _ _ _ _ _ _ _)
    iexists _; iexact H3
  · by_cases h1 : t.val = 24
    · rw [show (dat46 V c).leavesExact 3 t = owns (c : Thread nD τ) (ms46_3 t) fullShare ((dat46 V c).after 3 t) from by
        unfold Dat.leavesExact; rw [liveAt46_3 t ((hcond46_1 t).mpr h1)], after46_3]
      rw [outsAt46_C V c t h0 h1]
      unfold out46_C_2 out46_C_3 sout46_C_0; (try dsimp only)
      rw [PhiS46_castSucc V c t, PhiS46_pos V c _ _ h0]
      iintro ⟨⟨⟨HS0, HR⟩, Hg⟩, Ho, ⟨%d0, H0⟩, ⟨%d1, H1⟩, ⟨%d2, H2⟩, ⟨%d3, H3⟩⟩
      iapply ((kernelRun46_C c (grid46.coords t) _ _ _ _ _ _ _ _ _ _ (fun h => h0 ((hcond46_0 t).mp h)) ((hcond46_1 t).mpr h1) (iblk46 V c 0 t) (iblk46 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover46_C_0 c _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover46_C_2 c _ _ _ _ _ _ _ _ _ _ _ _ _ _ _ _)
      unfold owns; iexists _; isplitr
      swap; · iexact H3
      ipureintro; exact View.read_writes_of_cover _ _ _ _ _ (cover46_C_3 c _ _ _ _ _ _ _ _ _ _ _ _ _ _ _ _)
    · rw [Dat.leavesExact_idle (dat46 V c) 3 t (idleAt46_3 t (fun h => h1 ((hcond46_1 t).mp h))) (noFlush46_3 t (fun h => h1 ((hcond46_1 t).mp h)))]
      rw [outsAt46_B V c t h0 h1]
      unfold out46_B_2 sout46_B_0; (try dsimp only)
      rw [PhiS46_castSucc V c t, PhiS46_pos V c _ _ h0]
      iintro ⟨⟨⟨HS0, HR⟩, Hg⟩, Ho, ⟨%d0, H0⟩, ⟨%d1, H1⟩, ⟨%d2, H2⟩, ⟨%d3, H3⟩⟩
      iapply ((kernelRun46_B c (grid46.coords t) _ _ _ _ _ _ _ _ _ _ (fun h => h0 ((hcond46_0 t).mp h)) (fun h => h1 ((hcond46_1 t).mp h)) (iblk46 V c 0 t) (iblk46 V c 1 t) _).2.2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover46_B_0 c _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover46_B_2 c _ _ _ _ _ _ _ _ _ _ _ _ _ _ _ _)
      iexists _; iexact H3

/-- The library's body obligation, at every point. -/
theorem body_obligation46 (c : Dev nD) : BodyObligation (dat46 (F := F) V c) (defs₀ (F := F)) Variants.none () Set.univ := fun t => by
  rw [bigSep_W46, bigSep_W46]
  exact sound_body46 V c t

/-- What the launch hands the region is the invariant before the first point. -/
theorem hin46 (c : Dev nD) : Pipeline.ΦA spec46 c ⊢ (dat46 V c).Φ 0 := by
  rw [show (dat46 V c).Φ 0 = PhiS46 V c 0 (Nat.zero_le _) from rfl, PhiS46_zero V c 0 _ rfl]
  try exact Idealize.SL.BI.Entails.refl _

/-- After any point but the first the invariant gives back what the region was handed: the accumulator's named
    contents are forgotten. -/
theorem Phi_out46 (c : Dev nD) (t : Fin (cfg46.N + 1)) (ht : t.val ≠ 0) : (dat46 V c).Φ t ⊢ Pipeline.ΦA spec46 c := by
  rw [show (dat46 V c).Φ t = PhiS46 V c t.val (Nat.le_of_lt_succ t.isLt) from rfl, PhiS46_pos V c _ _ ht, PhiA46_eq]
  iintro ⟨⟨HS0, HR⟩, Hg⟩
  isplitl [HS0 HR]
  · isplitl [HS0]
    · iexists _; iexact HS0
    iexact HR
  iexact Hg

/-- The same after the last point. -/
theorem hout46 (c : Dev nD) : (dat46 V c).Φ (Fin.last cfg46.N) ⊢ Pipeline.ΦA spec46 c :=
  Phi_out46 V c _ (by rw [Fin.val_last]; have : cfg46.N = 25 := N_46; omega)

end Cert.KernelIdeal.Hand

end
-- ==== Proof.KI.R47.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 47: the second pass of the column variance. Over the 25 row tiles of 2000 rows the body adds, column by
column, the tile's sum of squared deviations (x − mean)² into a one-row accumulator that it zeroes at the first tile and
copies to the one-row result at the last. Here: the windows' blocks, the two branch conditions over the grid, the body's
triple in each of the three control cases (first tile, a middle tile, last tile), what each case leaves in the accumulator
and in the result's buffer, those contents point by point along the grid, the proof data over them and the body
obligation; the invariant carries the accumulator at the contents the point before left. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array at the region-entry contents `V`. -/
noncomputable def iblk47 (c : Dev nD) (w : Fin cfg47.W) (t : Fin cfg47.N) : ((cfg47.win w).xblock (cfg47.grid.coords t)).Idx → Elt F (cfg47.win w).elt :=
  ((cfg47.win w).blk t).view.read (Elt F) (V c (Pipeline.arrRef spec47 w))

/-- The row-tile window (window 0, fetched at every point) holds its block when the body runs, for any proof data
    whose array is `V`'s and whose body leaves the block in place. -/
theorem before47_0_of {c : Dev nD} (dat : Dat τ (Elt F) Unit ℕ (UR sig nD τ) ℕ cfg47 c) (hA : dat.A 0 = V c (Pipeline.arrRef spec47 0))
    (hafter : ∀ t, dat.after 0 t = iblk47 V c 0 t) (t : Fin cfg47.N) (d) : dat.before 0 t d = iblk47 V c 0 t :=
  (dat.before_in_eq_fetched 0 rfl (fun _ => rfl) (fun _ _ _ => rfl) (fun t => by rw [hafter]; unfold Dat.blockOf iblk47; rw [hA]; try rfl) t d).trans
    (by unfold Dat.fetched Dat.blockOf iblk47; rw [hA]; try rfl)

/-- The mean window (window 1, one constant block fetched at the first point only) holds that block at every point:
    where it is not fetched its block index has not moved. -/
theorem before47_1_of {c : Dev nD} (dat : Dat τ (Elt F) Unit ℕ (UR sig nD τ) ℕ cfg47 c) (hA : dat.A 1 = V c (Pipeline.arrRef spec47 1))
    (hafter : ∀ t, dat.after 1 t = iblk47 V c 1 t) (t : Fin cfg47.N) (d) : dat.before 1 t d = iblk47 V c 1 t :=
  (dat.before_in_eq_fetched 1 rfl (fun _ => rfl) (fun _ _ _ => rfl) (fun t => by rw [hafter]; unfold Dat.blockOf iblk47; rw [hA]; try rfl) t d).trans
    (by unfold Dat.fetched Dat.blockOf iblk47; rw [hA]; try rfl)

/-! ## The two branch conditions, over the grid -/

/-- The condition of the first conditional (the accumulator's reset): the grid coordinate is 0. -/
abbrev cond47_0 (i : grid47.Coords) : Prop := (Scalar.cmpi .ne (Scalar.extui (Scalar.cmpi .eq (BitVec.ofNat 32 (i 0).val) 0#32)) 0#32) = 1#1
/-- It holds at the first point only. -/
theorem hcond47_0 : ∀ t : Fin cfg47.N, cond47_0 (grid47.coords t) ↔ t.val = 0 :=
  (by decide +kernel : ∀ t : Fin grid47.N, cond47_0 (grid47.coords t) ↔ t.val = 0)

/-- The condition of the second conditional (the accumulator stored to the output): the grid coordinate is 24. -/
abbrev cond47_1 (i : grid47.Coords) : Prop := k47_cond2 i = 1#1
/-- It holds at the last point only. -/
theorem hcond47_1 : ∀ t : Fin cfg47.N, cond47_1 (grid47.coords t) ↔ t.val = 24 :=
  (by decide +kernel : ∀ t : Fin grid47.N, cond47_1 (grid47.coords t) ↔ t.val = 24)

/-! ## Where the windows are idle -/

theorem liveAt47_0 : ∀ t : Fin cfg47.N, cfg47.idle 0 (grid47.coords t) = false := by decide +kernel
theorem liveAt47_1 : ∀ t : Fin cfg47.N, cfg47.idle 1 (grid47.coords t) = false := by decide +kernel
/-- Away from the last point the body stores nothing into the output window: it is idle there, -/
theorem idleAt47_2 : ∀ t : Fin cfg47.N, ¬cond47_1 (grid47.coords t) → cfg47.idle 2 (grid47.coords t) = true := by decide +kernel
/-- and its block is not written back there. -/
theorem noFlush47_2 : ∀ t : Fin cfg47.N, ¬cond47_1 (grid47.coords t) → (cfg47.win 2).flush t = false := by decide +kernel
/-- At the last point the output window is live. -/
theorem liveAt47_2 : ∀ t : Fin cfg47.N, cond47_1 (grid47.coords t) → cfg47.idle 2 (grid47.coords t) = false := by decide +kernel

/-! ## The memrefs the body is called with -/

/-- The output window's one staging buffer as a view: what the body leaves in it is stated through it. -/
noncomputable abbrev VO47_2 : View sig .tc .vmem S1x32 .f32 := (Memref.whole cc47_stg2_0 : Memref sig .tc .vmem S1x32 .f32).view
/-- Each window's current staging memref at point `t`, and its wholeness. -/
noncomputable abbrev ms47_0 (t : Fin cfg47.N) : Memref sig .tc .vmem S2000x32 .f32 := win47_0.stage (cfg47.slots t 0)
abbrev hs47_0 (t : Fin cfg47.N) : (ms47_0 t).IsWhole := hstage47_0 ((cfg47.slots t 0).cast nbuf47_0)
noncomputable abbrev ms47_1 (t : Fin cfg47.N) : Memref sig .tc .vmem S1x32 .f32 := win47_1.stage (cfg47.slots t 1)
abbrev hs47_1 (t : Fin cfg47.N) : (ms47_1 t).IsWhole := hstage47_1 ((cfg47.slots t 1).cast nbuf47_1)
noncomputable abbrev ms47_2 (t : Fin cfg47.N) : Memref sig .tc .vmem S1x32 .f32 := win47_2.stage (cfg47.slots t 2)
abbrev hs47_2 (t : Fin cfg47.N) : (ms47_2 t).IsWhole := hstage47_2 ((cfg47.slots t 2).cast nbuf47_2)
/-- The accumulator: the kernel's own scratch buffer, whole, passed beside the windows, -/
noncomputable abbrev scM47_0 : Memref sig .tc .vmem S1x32 .f32 := Memref.whole cc47_scratch0
/-- and as a view. -/
noncomputable abbrev VS47_0 : View sig .tc .vmem S1x32 .f32 := scM47_0.view

/-- The region-entry invariant with the accumulator split out of the scoped rest, as a memref owned at some contents. -/
theorem PhiA47_eq (c : Dev nD) :
    (Pipeline.ΦA spec47 c : sProp 𝕄)
      = iprop(iprop(iprop(∃ d, owns (c : Thread nD τ) scM47_0 fullShare d)
          ∗ Pipeline.scopedRestBut (Ix := Unit) (Name := ℕ) (U := UR sig nD τ) (Lvl := ℕ) (Val := Elt F) spec47 c [cc47_scratch0]) ∗ (∃ r, prngReg c r)) := by
  unfold Pipeline.ΦA; rw [scopedRest47_split]; simp only [scM47_0, owns_whole]; try rfl

/-! ## The body, once per control case -/

set_option maxHeartbeats 1000000 in
/-- CASE A (the first point: the reset taken, the final store not). On whole memrefs — the two inputs at contents
    `x0`, `x1`, the output's buffer at `xi2` handed back untouched, the accumulator at anything — the body runs to the
    continuation holding the inputs as they were and the accumulator with the pieces `LS0` written (the zero fill, then
    the first tile's column sums added to what is read back): the pieces are found by running the body. -/
noncomputable def kernelRun47_A (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : cond47_0 i) (hc1 : ¬cond47_1 i)
    (x0 : Vec F S2000x32 .f32) (x1 : Vec F S1x32 .f32) :
    { LS0 : List (View.Piece (Elt F) S1x32 .f32) //
      ∀ (xi2 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc47__var_kernel i arg1 harg1 arg2 harg2 arg3 harg3 arg4 harg4) K } := by
  refine ⟨?_, fun xi2 E K => ?run⟩
  case run =>
    simp only [cc47__var_kernel_eq_skeleton]; unfold cc47__var_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE B (a middle point: neither conditional taken). The accumulator comes in at the contents `xs0` the point before
    left and goes out with one piece written: the tile's column sums added to `xs0`. -/
noncomputable def kernelRun47_B (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : ¬cond47_1 i)
    (x0 : Vec F S2000x32 .f32) (x1 : Vec F S1x32 .f32) (xs0 : Vec F S1x32 .f32) :
    { LS0 : List (View.Piece (Elt F) S1x32 .f32) //
      ∀ (xi2 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc47__var_kernel i arg1 harg1 arg2 harg2 arg3 harg3 arg4 harg4) K } := by
  refine ⟨?_, fun xi2 E K => ?run⟩
  case run =>
    simp only [cc47__var_kernel_eq_skeleton]; unfold cc47__var_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE C (the last point: the reset not taken, the final store taken). As case B, and the output's buffer, at anything
    before, goes out with the pieces `L2` written: the accumulator read back after its update. -/
noncomputable def kernelRun47_C (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : cond47_1 i)
    (x0 : Vec F S2000x32 .f32) (x1 : Vec F S1x32 .f32) (xs0 : Vec F S1x32 .f32) :
    Σ' (L2 : List (View.Piece (Elt F) S1x32 .f32)), { LS0 : List (View.Piece (Elt F) S1x32 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc47__var_kernel i arg1 harg1 arg2 harg2 arg3 harg3 arg4 harg4) K } := by
  refine ⟨?_, ?_, fun E K => ?run⟩
  case run =>
    simp only [cc47__var_kernel_eq_skeleton]; unfold cc47__var_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves in the accumulator and in the output's buffer -/

/-- At the points where the output window is idle its `after` is never consulted (the window is neither written back
    there nor read at the next point): an arbitrary value. -/
noncomputable def idle47_2 : Vec F S1x32 .f32 := VO47_2.read (Elt F) VO47_2.junk

/-- Case A's pieces cover the accumulator (each is the whole row). -/
theorem scover47_A_0 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : cond47_0 i) (hc1 : ¬cond47_1 i)
    (x0 : Vec F S2000x32 .f32) (x1 : Vec F S1x32 .f32) (y : S1x32.Idx) :
    ∃ pc ∈ (kernelRun47_A c i arg1 harg1 arg2 harg2 arg3 harg3 arg4 harg4 hc0 hc1 x0 x1).1, y ∈ pc.1.set :=
  View.cover_of_tiledL (kernelRun47_A c i arg1 harg1 arg2 harg2 arg3 harg3 arg4 harg4 hc0 hc1 x0 x1).1 S1x32.size (by sl_kernel_rfl) y

/-- What case A leaves in the accumulator: its pieces read back. -/
noncomputable def sout47_A_0 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : cond47_0 i) (hc1 : ¬cond47_1 i)
    (x0 : Vec F S2000x32 .f32) (x1 : Vec F S1x32 .f32) : Vec F S1x32 .f32 :=
  VS47_0.read (Elt F) (VS47_0.writes (Elt F) VS47_0.junk (kernelRun47_A c i arg1 harg1 arg2 harg2 arg3 harg3 arg4 harg4 hc0 hc1 x0 x1).1)

/-- Case B's one piece covers the accumulator. -/
theorem scover47_B_0 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : ¬cond47_1 i)
    (x0 : Vec F S2000x32 .f32) (x1 : Vec F S1x32 .f32) (xs0 : Vec F S1x32 .f32) (y : S1x32.Idx) :
    ∃ pc ∈ (kernelRun47_B c i arg1 harg1 arg2 harg2 arg3 harg3 arg4 harg4 hc0 hc1 x0 x1 xs0).1, y ∈ pc.1.set :=
  View.cover_of_tiledL (kernelRun47_B c i arg1 harg1 arg2 harg2 arg3 harg3 arg4 harg4 hc0 hc1 x0 x1 xs0).1 S1x32.size (by sl_kernel_rfl) y

/-- What case B leaves in the accumulator. -/
noncomputable def sout47_B_0 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : ¬cond47_1 i)
    (x0 : Vec F S2000x32 .f32) (x1 : Vec F S1x32 .f32) (xs0 : Vec F S1x32 .f32) : Vec F S1x32 .f32 :=
  VS47_0.read (Elt F) (VS47_0.writes (Elt F) VS47_0.junk (kernelRun47_B c i arg1 harg1 arg2 harg2 arg3 harg3 arg4 harg4 hc0 hc1 x0 x1 xs0).1)

/-- Case C's one store covers the output's buffer. -/
theorem cover47_C_2 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : cond47_1 i)
    (x0 : Vec F S2000x32 .f32) (x1 : Vec F S1x32 .f32) (xs0 : Vec F S1x32 .f32) (y : S1x32.Idx) :
    ∃ pc ∈ (kernelRun47_C c i arg1 harg1 arg2 harg2 arg3 harg3 arg4 harg4 hc0 hc1 x0 x1 xs0).1, y ∈ pc.1.set :=
  View.cover_of_tiledL (kernelRun47_C c i arg1 harg1 arg2 harg2 arg3 harg3 arg4 harg4 hc0 hc1 x0 x1 xs0).1 S1x32.size (by sl_kernel_rfl) y

/-- What case C leaves in the output's buffer. -/
noncomputable def out47_C_2 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : cond47_1 i)
    (x0 : Vec F S2000x32 .f32) (x1 : Vec F S1x32 .f32) (xs0 : Vec F S1x32 .f32) : Vec F S1x32 .f32 :=
  VO47_2.read (Elt F) (VO47_2.writes (Elt F) VO47_2.junk (kernelRun47_C c i arg1 harg1 arg2 harg2 arg3 harg3 arg4 harg4 hc0 hc1 x0 x1 xs0).1)

/-- Case C's one piece covers the accumulator. -/
theorem scover47_C_0 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : cond47_1 i)
    (x0 : Vec F S2000x32 .f32) (x1 : Vec F S1x32 .f32) (xs0 : Vec F S1x32 .f32) (y : S1x32.Idx) :
    ∃ pc ∈ (kernelRun47_C c i arg1 harg1 arg2 harg2 arg3 harg3 arg4 harg4 hc0 hc1 x0 x1 xs0).2.1, y ∈ pc.1.set :=
  View.cover_of_tiledL (kernelRun47_C c i arg1 harg1 arg2 harg2 arg3 harg3 arg4 harg4 hc0 hc1 x0 x1 xs0).2.1 S1x32.size (by sl_kernel_rfl) y

/-- What case C leaves in the accumulator. -/
noncomputable def sout47_C_0 (c : Dev nD) (i : grid47.Coords) (arg1 : Memref sig .tc .vmem S2000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (hc0 : ¬cond47_0 i) (hc1 : cond47_1 i)
    (x0 : Vec F S2000x32 .f32) (x1 : Vec F S1x32 .f32) (xs0 : Vec F S1x32 .f32) : Vec F S1x32 .f32 :=
  VS47_0.read (Elt F) (VS47_0.writes (Elt F) VS47_0.junk (kernelRun47_C c i arg1 harg1 arg2 harg2 arg3 harg3 arg4 harg4 hc0 hc1 x0 x1 xs0).2.1)

/-! ## Point by point -/

/-- What the output's buffer and the accumulator hold after the body at point `n` (a pair: output, accumulator): case A
    at the first point; afterwards case C at point 24 and case B elsewhere, each over what the point before left in the
    accumulator. -/
noncomputable def outsAt47 (c : Dev nD) : (n : ℕ) → n < cfg47.N → Vec F S1x32 .f32 × Vec F S1x32 .f32
  | 0, hn => (idle47_2,
      sout47_A_0 c (grid47.coords ⟨0, hn⟩) (ms47_0 ⟨0, hn⟩) (hs47_0 ⟨0, hn⟩) (ms47_1 ⟨0, hn⟩) (hs47_1 ⟨0, hn⟩) (ms47_2 ⟨0, hn⟩) (hs47_2 ⟨0, hn⟩) scM47_0 (Memref.isWhole_whole _) ((hcond47_0 ⟨0, hn⟩).mpr rfl)
        (fun h => (fun h' : (0 : ℕ) = 24 => by omega) ((hcond47_1 ⟨0, hn⟩).mp h)) (iblk47 V c 0 ⟨0, hn⟩) (iblk47 V c 1 ⟨0, hn⟩))
  | n + 1, hn =>
    if h1 : n + 1 = 24 then
      (out47_C_2 c (grid47.coords ⟨n + 1, hn⟩) (ms47_0 ⟨n + 1, hn⟩) (hs47_0 ⟨n + 1, hn⟩) (ms47_1 ⟨n + 1, hn⟩) (hs47_1 ⟨n + 1, hn⟩) (ms47_2 ⟨n + 1, hn⟩) (hs47_2 ⟨n + 1, hn⟩) scM47_0 (Memref.isWhole_whole _) (fun h => (fun h' : n + 1 = 0 => by omega) ((hcond47_0 ⟨n + 1, hn⟩).mp h))
          ((hcond47_1 ⟨n + 1, hn⟩).mpr h1) (iblk47 V c 0 ⟨n + 1, hn⟩) (iblk47 V c 1 ⟨n + 1, hn⟩) (outsAt47 c n (Nat.lt_of_succ_lt hn)).2,
       sout47_C_0 c (grid47.coords ⟨n + 1, hn⟩) (ms47_0 ⟨n + 1, hn⟩) (hs47_0 ⟨n + 1, hn⟩) (ms47_1 ⟨n + 1, hn⟩) (hs47_1 ⟨n + 1, hn⟩) (ms47_2 ⟨n + 1, hn⟩) (hs47_2 ⟨n + 1, hn⟩) scM47_0 (Memref.isWhole_whole _) (fun h => (fun h' : n + 1 = 0 => by omega) ((hcond47_0 ⟨n + 1, hn⟩).mp h))
          ((hcond47_1 ⟨n + 1, hn⟩).mpr h1) (iblk47 V c 0 ⟨n + 1, hn⟩) (iblk47 V c 1 ⟨n + 1, hn⟩) (outsAt47 c n (Nat.lt_of_succ_lt hn)).2)
    else
      (idle47_2,
       sout47_B_0 c (grid47.coords ⟨n + 1, hn⟩) (ms47_0 ⟨n + 1, hn⟩) (hs47_0 ⟨n + 1, hn⟩) (ms47_1 ⟨n + 1, hn⟩) (hs47_1 ⟨n + 1, hn⟩) (ms47_2 ⟨n + 1, hn⟩) (hs47_2 ⟨n + 1, hn⟩) scM47_0 (Memref.isWhole_whole _) (fun h => (fun h' : n + 1 = 0 => by omega) ((hcond47_0 ⟨n + 1, hn⟩).mp h))
          (fun h => h1 ((hcond47_1 ⟨n + 1, hn⟩).mp h)) (iblk47 V c 0 ⟨n + 1, hn⟩) (iblk47 V c 1 ⟨n + 1, hn⟩) (outsAt47 c n (Nat.lt_of_succ_lt hn)).2)

/-- `outsAt47` at the first point. -/
theorem outsAt47_A (c : Dev nD) (t : Fin cfg47.N) (h0 : t.val = 0) (h1 : ¬t.val = 24) :
    outsAt47 V c t.val t.isLt = (idle47_2,
      sout47_A_0 c (grid47.coords t) (ms47_0 t) (hs47_0 t) (ms47_1 t) (hs47_1 t) (ms47_2 t) (hs47_2 t) scM47_0 (Memref.isWhole_whole _) ((hcond47_0 t).mpr h0) (fun h => h1 ((hcond47_1 t).mp h)) (iblk47 V c 0 t) (iblk47 V c 1 t)) := by
  obtain ⟨n, hn⟩ := t
  cases n with
  | zero => exact rfl
  | succ n => exact absurd h0 (Nat.succ_ne_zero n)

/-- `outsAt47` at a middle point: case B over what the point before left. -/
theorem outsAt47_B (c : Dev nD) (t : Fin cfg47.N) (h0 : ¬t.val = 0) (h1 : ¬t.val = 24) :
    outsAt47 V c t.val t.isLt = (idle47_2,
      sout47_B_0 c (grid47.coords t) (ms47_0 t) (hs47_0 t) (ms47_1 t) (hs47_1 t) (ms47_2 t) (hs47_2 t) scM47_0 (Memref.isWhole_whole _) (fun h => h0 ((hcond47_0 t).mp h)) (fun h => h1 ((hcond47_1 t).mp h)) (iblk47 V c 0 t) (iblk47 V c 1 t)
        (outsAt47 V c (t.val - 1) (Nat.lt_of_le_of_lt (Nat.sub_le _ _) t.isLt)).2) := by
  obtain ⟨n, hn⟩ := t
  cases n with
  | zero => exact absurd rfl h0
  | succ n => exact (dif_neg h1).trans rfl

/-- `outsAt47` at the last point: case C over what the point before left. -/
theorem outsAt47_C (c : Dev nD) (t : Fin cfg47.N) (h0 : ¬t.val = 0) (h1 : t.val = 24) :
    outsAt47 V c t.val t.isLt =
      (out47_C_2 c (grid47.coords t) (ms47_0 t) (hs47_0 t) (ms47_1 t) (hs47_1 t) (ms47_2 t) (hs47_2 t) scM47_0 (Memref.isWhole_whole _) (fun h => h0 ((hcond47_0 t).mp h)) ((hcond47_1 t).mpr h1) (iblk47 V c 0 t) (iblk47 V c 1 t)
        (outsAt47 V c (t.val - 1) (Nat.lt_of_le_of_lt (Nat.sub_le _ _) t.isLt)).2,
       sout47_C_0 c (grid47.coords t) (ms47_0 t) (hs47_0 t) (ms47_1 t) (hs47_1 t) (ms47_2 t) (hs47_2 t) scM47_0 (Memref.isWhole_whole _) (fun h => h0 ((hcond47_0 t).mp h)) ((hcond47_1 t).mpr h1) (iblk47 V c 0 t) (iblk47 V c 1 t)
        (outsAt47 V c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point what the launch hands over (every scoped buffer
    at anything); afterwards the accumulator at what the point before left in it, the other scoped buffers at anything,
    the generator register at some state. -/
noncomputable def PhiS47 (c : Dev nD) : (n : ℕ) → n ≤ cfg47.N → sProp 𝕄
  | 0, _ => Pipeline.ΦA spec47 c
  | n + 1, hn => iprop(iprop(owns (c : Thread nD τ) scM47_0 fullShare ((outsAt47 V c n hn).2)
      ∗ Pipeline.scopedRestBut (Ix := Unit) (Name := ℕ) (U := UR sig nD τ) (Lvl := ℕ) (Val := Elt F) spec47 c [cc47_scratch0]) ∗ (∃ r, prngReg c r))

theorem PhiS47_zero (c : Dev nD) (n : ℕ) (h : n ≤ cfg47.N) (hz : n = 0) : PhiS47 V c n h = Pipeline.ΦA spec47 c := by
  subst hz; rfl

theorem PhiS47_succ (c : Dev nD) (n : ℕ) (hn : n < cfg47.N) :
    PhiS47 V c (n + 1) hn = iprop(iprop(owns (c : Thread nD τ) scM47_0 fullShare ((outsAt47 V c n hn).2)
      ∗ Pipeline.scopedRestBut (Ix := Unit) (Name := ℕ) (U := UR sig nD τ) (Lvl := ℕ) (Val := Elt F) spec47 c [cc47_scratch0]) ∗ (∃ r, prngReg c r)) := rfl

theorem PhiS47_pos (c : Dev nD) (n : ℕ) (h : n ≤ cfg47.N) (hz : n ≠ 0) :
    PhiS47 V c n h = iprop(iprop(owns (c : Thread nD τ) scM47_0 fullShare ((outsAt47 V c (n - 1) (by omega)).2)
      ∗ Pipeline.scopedRestBut (Ix := Unit) (Name := ℕ) (U := UR sig nD τ) (Lvl := ℕ) (Val := Elt F) spec47 c [cc47_scratch0]) ∗ (∃ r, prngReg c r)) := by
  cases n with
  | zero => exact absurd rfl hz
  | succ n => rfl

/-! ## The proof data -/

/-- The proof data of this region on core `c`: the arrays as the region finds them (`V`); after the body each input's
    buffer at its block and the output's at `outsAt47`'s first component; the invariant `PhiS47`; nothing owed; full shares. -/
noncomputable def dat47 (c : Dev nD) : Dat τ (Elt F) Unit ℕ (UR sig nD τ) ℕ cfg47 c where
  A w := V c (Pipeline.arrRef spec47 w)
  after w t := match w with
    | ⟨0, _⟩ => iblk47 V c 0 t
    | ⟨1, _⟩ => iblk47 V c 1 t
    | ⟨2, _⟩ => (outsAt47 V c t.val t.isLt).1
  Φ t := PhiS47 V c t.val (Nat.le_of_lt_succ t.isLt)
  q _ := fullShare
  owed _ := 0

theorem A_eq47 (c : Dev nD) (w : Fin cfg47.W) : (dat47 V c).A w = V c (Pipeline.arrRef spec47 w) := by
  dsimp only [dat47]

theorem PhiS47_castSucc (c : Dev nD) (t : Fin cfg47.N) :
    (dat47 V c).Φ t.castSucc = PhiS47 V c t.val (Nat.le_of_lt t.isLt) := by
  dsimp only [dat47]; simp only [Fin.coe_castSucc]

theorem after47_0 (c : Dev nD) (t : Fin cfg47.N) : (dat47 V c).after 0 t = iblk47 V c 0 t := by dsimp only [dat47]
theorem after47_1 (c : Dev nD) (t : Fin cfg47.N) : (dat47 V c).after 1 t = iblk47 V c 1 t := by dsimp only [dat47]
theorem after47_2 (c : Dev nD) (t : Fin cfg47.N) : (dat47 V c).after 2 t = (outsAt47 V c t.val t.isLt).1 := by dsimp only [dat47]

theorem before47_0 (c : Dev nD) (t : Fin cfg47.N) (d) : (dat47 V c).before 0 t d = iblk47 V c 0 t :=
  before47_0_of V (dat47 V c) (A_eq47 V c 0) (after47_0 V c) t d
theorem before47_1 (c : Dev nD) (t : Fin cfg47.N) (d) : (dat47 V c).before 1 t d = iblk47 V c 1 t :=
  before47_1_of V (dat47 V c) (A_eq47 V c 1) (after47_1 V c) t d

/-! ## The body obligation -/

/-- What the body is called with at point `t`, the windows one by one, -/
noncomputable def bodyPre47 (c : Dev nD) (t : Fin cfg47.N) : sProp 𝕄 :=
  iprop((dat47 V c).Φ t.castSucc ∗ (dat47 V c).owesAt () t.castSucc
    ∗ (∃ d, owns (c : Thread nD τ) (ms47_0 t) fullShare ((dat47 V c).before 0 t d))
    ∗ (∃ d, owns (c : Thread nD τ) (ms47_1 t) fullShare ((dat47 V c).before 1 t d))
    ∗ (∃ d, owns (c : Thread nD τ) (ms47_2 t) fullShare ((dat47 V c).before 2 t d)))

/-- and what it returns. -/
noncomputable def bodyPost47 (c : Dev nD) (t : Fin cfg47.N) : sProp 𝕄 :=
  iprop((dat47 V c).Φ t.succ ∗ (dat47 V c).owesAt () t.succ
    ∗ (dat47 V c).leavesExact 0 t
    ∗ (dat47 V c).leavesExact 1 t
    ∗ (dat47 V c).leavesExact 2 t)

set_option maxHeartbeats 4800000 in
/-- The body at any point. The inputs' memrefs hold their blocks; the point's position says which case it is in; the
    invariant hands the body the accumulator (at anything at the first point, else at what the point before left) and
    takes it back at this point's contents; away from the last point the output's buffer goes back as it came. -/
theorem sound_body47 (c : Dev nD) (t : Fin cfg47.N) :
    bodyPre47 V c t ⊢ wp frame (wpE (defs₀ (F := F)) Variants.none c none) Set.univ (bodyAt47 t) (fun _ => bodyPost47 V c t) := by
  unfold bodyPre47 bodyPost47 bodyAt47
  simp only [before47_0, before47_1]
  rw [show (dat47 V c).owesAt () t.succ = (dat47 V c).owesAt () t.castSucc from rfl]
  rw [show (dat47 V c).Φ t.succ = PhiS47 V c (t.val + 1) t.isLt from rfl, PhiS47_succ]
  have hN : t.val < 25 := lt_of_lt_of_eq t.isLt (show cfg47.N = 25 from N_47)
  rw [show (dat47 V c).leavesExact 0 t = owns (c : Thread nD τ) (ms47_0 t) fullShare ((dat47 V c).after 0 t) from by
    unfold Dat.leavesExact; rw [liveAt47_0 t], after47_0]
  rw [show (dat47 V c).leavesExact 1 t = owns (c : Thread nD τ) (ms47_1 t) fullShare ((dat47 V c).after 1 t) from by
    unfold Dat.leavesExact; rw [liveAt47_1 t], after47_1]
  by_cases h0 : t.val = 0
  · have h1 : ¬t.val = 24 := by omega
    rw [Dat.leavesExact_idle (dat47 V c) 2 t (idleAt47_2 t (fun h => h1 ((hcond47_1 t).mp h))) (noFlush47_2 t (fun h => h1 ((hcond47_1 t).mp h)))]
    rw [outsAt47_A V c t h0 h1]
    unfold sout47_A_0; (try dsimp only)
    rw [PhiS47_castSucc V c t, PhiS47_zero V c _ _ h0, PhiA47_eq]
    iintro ⟨⟨⟨HS0, Hr⟩, Hg⟩, Ho, ⟨%d0, H0⟩, ⟨%d1, H1⟩, ⟨%d2, H2⟩⟩
    iapply ((kernelRun47_A c (grid47.coords t) _ _ _ _ _ _ _ _ ((hcond47_0 t).mpr h0) (fun h => h1 ((hcond47_1 t).mp h)) (iblk47 V c 0 t) (iblk47 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover47_A_0 c _ _ _ _ _ _ _ _ _ _ _ _ _)
        iexact Hr
      iexact Hg
    isplitl [Ho]; · iexact Ho
    isplitl [H0]; · iexact H0
    isplitl [H1]; · iexact H1
    iexists _; iexact H2
  · by_cases h1 : t.val = 24
    · rw [show (dat47 V c).leavesExact 2 t = owns (c : Thread nD τ) (ms47_2 t) fullShare ((dat47 V c).after 2 t) from by
        unfold Dat.leavesExact; rw [liveAt47_2 t ((hcond47_1 t).mpr h1)], after47_2]
      rw [outsAt47_C V c t h0 h1]
      unfold out47_C_2 sout47_C_0; (try dsimp only)
      rw [PhiS47_castSucc V c t, PhiS47_pos V c _ _ h0]
      iintro ⟨⟨⟨HS0, Hr⟩, Hg⟩, Ho, ⟨%d0, H0⟩, ⟨%d1, H1⟩, ⟨%d2, H2⟩⟩
      iapply ((kernelRun47_C c (grid47.coords t) _ _ _ _ _ _ _ _ (fun h => h0 ((hcond47_0 t).mp h)) ((hcond47_1 t).mpr h1) (iblk47 V c 0 t) (iblk47 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover47_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover47_C_2 c _ _ _ _ _ _ _ _ _ _ _ _ _ _)
    · rw [Dat.leavesExact_idle (dat47 V c) 2 t (idleAt47_2 t (fun h => h1 ((hcond47_1 t).mp h))) (noFlush47_2 t (fun h => h1 ((hcond47_1 t).mp h)))]
      rw [outsAt47_B V c t h0 h1]
      unfold sout47_B_0; (try dsimp only)
      rw [PhiS47_castSucc V c t, PhiS47_pos V c _ _ h0]
      iintro ⟨⟨⟨HS0, Hr⟩, Hg⟩, Ho, ⟨%d0, H0⟩, ⟨%d1, H1⟩, ⟨%d2, H2⟩⟩
      iapply ((kernelRun47_B c (grid47.coords t) _ _ _ _ _ _ _ _ (fun h => h0 ((hcond47_0 t).mp h)) (fun h => h1 ((hcond47_1 t).mp h)) (iblk47 V c 0 t) (iblk47 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover47_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation47 (c : Dev nD) : BodyObligation (dat47 (F := F) V c) (defs₀ (F := F)) Variants.none () Set.univ := fun t => by
  rw [bigSep_W47, bigSep_W47]
  exact sound_body47 V c t

/-- What the launch hands the region is the invariant before the first point. -/
theorem hin47 (c : Dev nD) : Pipeline.ΦA spec47 c ⊢ (dat47 V c).Φ 0 := by
  rw [show (dat47 V c).Φ 0 = PhiS47 V c 0 (Nat.zero_le _) from rfl, PhiS47_zero V c 0 _ rfl]
  try exact Idealize.SL.BI.Entails.refl _

/-- After any point but the first the invariant gives the launch's back: the accumulator's named contents are forgotten. -/
theorem Phi_out47 (c : Dev nD) (t : Fin (cfg47.N + 1)) (ht : t.val ≠ 0) : (dat47 V c).Φ t ⊢ Pipeline.ΦA spec47 c := by
  rw [show (dat47 V c).Φ t = PhiS47 V c t.val (Nat.le_of_lt_succ t.isLt) from rfl, PhiS47_pos V c _ _ ht, PhiA47_eq]
  iintro ⟨⟨HS0, Hr⟩, Hg⟩
  isplitl [HS0 Hr]
  · isplitl [HS0]
    · iexists _; iexact HS0
    iexact Hr
  iexact Hg

/-- The same after the last point. -/
theorem hout47 (c : Dev nD) : (dat47 V c).Φ (Fin.last cfg47.N) ⊢ Pipeline.ΦA spec47 c :=
  Phi_out47 V c _ (by rw [Fin.val_last]; have : cfg47.N = 25 := N_47; omega)

end Cert.KernelIdeal.Hand

end
-- ==== Proof.KI.R48.lean ====
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.Frame
import Idealize.ShloMosaic.Lib.Pipeline.FrameBody
import Idealize.ShloMosaic.Lib.Pipeline.Regions
import Idealize.ShloMosaic.Lib.Ring
import Idealize.ShloMosaic.Lib.Tactic

/-! # Region 48: batch-norm affine map followed by a product with a one-column matrix

The kernel of custom_call 48 reads, at every grid point, a block of 2000 rows of the activations
(window 0), the four per-column rows mean, variance, scale and shift (windows 1 to 4, each 1 x 32), the
one-column weight matrix (window 5, 32 x 1), and writes a block of 2000 rows of the one-column result
(window 6).  Nothing is carried from one grid point to the next and no store is conditional, so what the
body leaves in the output buffer is a pure function of the six input blocks.

This file gives the proof data of the pipeline at arbitrary region-entry contents and discharges the body
obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region48
-- the buffer contents of the core when the region is entered
variable (V : (c : Dev nD) → (b : Ref sig .tc) → Buf (Elt F) ((c : Thread nD τ).loc b))

/-! ## The windows' blocks -/

/-- Window w's block at grid point t, read off the window's array as the region finds it. -/
noncomputable def iblk48 (c : Dev nD) (w : Fin cfg48.W) (t : Fin cfg48.N) : ((cfg48.win w).xblock (cfg48.grid.coords t)).Idx → Elt F (cfg48.win w).elt :=
  ((cfg48.win w).blk t).view.read (Elt F) (V c (Pipeline.arrRef spec48 w))

/-- An input window's current staging buffer holds the window's block at every point, whether the block
    was fetched at that point or not (if not, the block index has not moved since it was): for any proof data
    whose array is the entry array and whose body leaves the block in place. -/
theorem before48_0_of {c : Dev nD} (dat : Dat τ (Elt F) Unit ℕ (UR sig nD τ) ℕ cfg48 c) (hA : dat.A 0 = V c (Pipeline.arrRef spec48 0))
    (hafter : ∀ t, dat.after 0 t = iblk48 V c 0 t) (t : Fin cfg48.N) (d) : dat.before 0 t d = iblk48 V c 0 t :=
  (dat.before_in_eq_fetched 0 rfl (fun _ => rfl) (fun _ _ _ => rfl) (fun t => by rw [hafter]; unfold Dat.blockOf iblk48; rw [hA]; try rfl) t d).trans
    (by unfold Dat.fetched Dat.blockOf iblk48; rw [hA]; try rfl)

theorem before48_1_of {c : Dev nD} (dat : Dat τ (Elt F) Unit ℕ (UR sig nD τ) ℕ cfg48 c) (hA : dat.A 1 = V c (Pipeline.arrRef spec48 1))
    (hafter : ∀ t, dat.after 1 t = iblk48 V c 1 t) (t : Fin cfg48.N) (d) : dat.before 1 t d = iblk48 V c 1 t :=
  (dat.before_in_eq_fetched 1 rfl (fun _ => rfl) (fun _ _ _ => rfl) (fun t => by rw [hafter]; unfold Dat.blockOf iblk48; rw [hA]; try rfl) t d).trans
    (by unfold Dat.fetched Dat.blockOf iblk48; rw [hA]; try rfl)

theorem before48_2_of {c : Dev nD} (dat : Dat τ (Elt F) Unit ℕ (UR sig nD τ) ℕ cfg48 c) (hA : dat.A 2 = V c (Pipeline.arrRef spec48 2))
    (hafter : ∀ t, dat.after 2 t = iblk48 V c 2 t) (t : Fin cfg48.N) (d) : dat.before 2 t d = iblk48 V c 2 t :=
  (dat.before_in_eq_fetched 2 rfl (fun _ => rfl) (fun _ _ _ => rfl) (fun t => by rw [hafter]; unfold Dat.blockOf iblk48; rw [hA]; try rfl) t d).trans
    (by unfold Dat.fetched Dat.blockOf iblk48; rw [hA]; try rfl)

theorem before48_3_of {c : Dev nD} (dat : Dat τ (Elt F) Unit ℕ (UR sig nD τ) ℕ cfg48 c) (hA : dat.A 3 = V c (Pipeline.arrRef spec48 3))
    (hafter : ∀ t, dat.after 3 t = iblk48 V c 3 t) (t : Fin cfg48.N) (d) : dat.before 3 t d = iblk48 V c 3 t :=
  (dat.before_in_eq_fetched 3 rfl (fun _ => rfl) (fun _ _ _ => rfl) (fun t => by rw [hafter]; unfold Dat.blockOf iblk48; rw [hA]; try rfl) t d).trans
    (by unfold Dat.fetched Dat.blockOf iblk48; rw [hA]; try rfl)

theorem before48_4_of {c : Dev nD} (dat : Dat τ (Elt F) Unit ℕ (UR sig nD τ) ℕ cfg48 c) (hA : dat.A 4 = V c (Pipeline.arrRef spec48 4))
    (hafter : ∀ t, dat.after 4 t = iblk48 V c 4 t) (t : Fin cfg48.N) (d) : dat.before 4 t d = iblk48 V c 4 t :=
  (dat.before_in_eq_fetched 4 rfl (fun _ => rfl) (fun _ _ _ => rfl) (fun t => by rw [hafter]; unfold Dat.blockOf iblk48; rw [hA]; try rfl) t d).trans
    (by unfold Dat.fetched Dat.blockOf iblk48; rw [hA]; try rfl)

theorem before48_5_of {c : Dev nD} (dat : Dat τ (Elt F) Unit ℕ (UR sig nD τ) ℕ cfg48 c) (hA : dat.A 5 = V c (Pipeline.arrRef spec48 5))
    (hafter : ∀ t, dat.after 5 t = iblk48 V c 5 t) (t : Fin cfg48.N) (d) : dat.before 5 t d = iblk48 V c 5 t :=
  (dat.before_in_eq_fetched 5 rfl (fun _ => rfl) (fun _ _ _ => rfl) (fun t => by rw [hafter]; unfold Dat.blockOf iblk48; rw [hA]; try rfl) t d).trans
    (by unfold Dat.fetched Dat.blockOf iblk48; rw [hA]; try rfl)

/-! ## The body's accesses: every load and the one store take a whole buffer -/

noncomputable abbrev r48_0 : Rect S2000x32 := Rect.unit (s := S2000x32) ![0, 0] S2000x32.size inb_S2000x32_S2000x32_0_0
noncomputable abbrev r48_1 : Rect S1x32 := Rect.unit (s := S1x32) ![0, 0] S1x32.size inb_S1x32_S1x32_0_0
noncomputable abbrev r48_2 : Rect S32x1 := Rect.unit (s := S32x1) ![0, 0] S32x1.size inb_S32x1_S32x1_0_0
noncomputable abbrev r48_3 : Rect S2000x1 := Rect.unit (s := S2000x1) ![0, 0] S2000x1.size inb_S2000x1_S2000x1_0_0

/-! ## What the body leaves in the output window's buffer -/

/-- Window 6's staging buffer after the body, from the six input blocks: the one store, whose value is the
    skeleton's payload at the loaded blocks. -/
noncomputable def out48_6 (x0 : Vec F S2000x32 .f32) (x1 : Vec F S1x32 .f32) (x2 : Vec F S1x32 .f32) (x3 : Vec F S1x32 .f32) (x4 : Vec F S1x32 .f32) (x5 : Vec F S32x1 .f32) : Vec F S2000x1 .f32 :=
  View.canon [⟨r48_3, k48_pay1 (View.ld x0 r48_0) (View.ld x1 r48_1) (View.ld x2 r48_1) (View.ld x3 r48_1) (View.ld x4 r48_1) (View.ld x5 r48_2)⟩]

/-- The one store takes the whole buffer, so it covers it. -/
theorem cover48_6 (p0 : Vec F S2000x1 .f32) (y : S2000x1.Idx) :
    ∃ pc ∈ ([⟨r48_3, p0⟩] : List (View.Piece (Elt F) S2000x1 .f32)), y ∈ pc.1.set :=
  View.cover_of_tiled [⟨r48_3, p0⟩] S2000x1.size (by rfl) y

/-! ## The body's triple -/

set_option maxHeartbeats 1000000 in
/-- The kernel body on whole staging memrefs — the inputs' holding x0 .. x5, the output's holding anything —
    runs to a state where the inputs' are as they were and the output's holds out48_6 of the inputs. -/
theorem sound_kernel48 (c : Dev nD) (E : Set ℕ) (i : grid48.Coords)
    (arg1 : Memref sig .tc .vmem S2000x32 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S1x32 .f32) (harg4 : arg4.IsWhole)
    (arg5 : Memref sig .tc .vmem S1x32 .f32) (harg5 : arg5.IsWhole) (arg6 : Memref sig .tc .vmem S32x1 .f32) (harg6 : arg6.IsWhole)
    (arg7 : Memref sig .tc .vmem S2000x1 .f32) (harg7 : arg7.IsWhole)
    (x0 : Vec F S2000x32 .f32) (x1 : Vec F S1x32 .f32) (x2 : Vec F S1x32 .f32) (x3 : Vec F S1x32 .f32) (x4 : Vec F S1x32 .f32) (x5 : Vec F S32x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out48_6 x0 x1 x2 x3 x4 x5)) -∗ K ⟨⟩))
      ⊢ wp frame (wpE (defs₀ (F := F)) Variants.none c none) E
          (cc48__bn_matvec_kernel i arg1 harg1 arg2 harg2 arg3 harg3 arg4 harg4 arg5 harg5 arg6 harg6 arg7 harg7) K := by
  simp only [cc48__bn_matvec_kernel_eq_skeleton]; unfold cc48__bn_matvec_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover48_6 _)

/-! ## The pipeline's proof data -/

/-- The proof data of pipeline 48 on core c: the arrays as the region finds them; after the body at point t
    each input's buffer still at its block and the output's at out48_6 of the input blocks; the invariant that
    of a body which touches nothing but its staging buffers; nothing owed; full shares. -/
noncomputable def dat48 (c : Dev nD) : Dat τ (Elt F) Unit ℕ (UR sig nD τ) ℕ cfg48 c where
  A w := V c (Pipeline.arrRef spec48 w)
  after w t := match w with
    | ⟨0, _⟩ => iblk48 V c 0 t
    | ⟨1, _⟩ => iblk48 V c 1 t
    | ⟨2, _⟩ => iblk48 V c 2 t
    | ⟨3, _⟩ => iblk48 V c 3 t
    | ⟨4, _⟩ => iblk48 V c 4 t
    | ⟨5, _⟩ => iblk48 V c 5 t
    | ⟨6, _⟩ => out48_6 (iblk48 V c 0 t) (iblk48 V c 1 t) (iblk48 V c 2 t) (iblk48 V c 3 t) (iblk48 V c 4 t) (iblk48 V c 5 t)
  Φ _ := Pipeline.ΦA spec48 c
  q _ := fullShare
  owed _ := 0

/-- The proof data's arrays are the region-entry contents. -/
theorem A_eq48 (c : Dev nD) (w : Fin cfg48.W) : (dat48 V c).A w = V c (Pipeline.arrRef spec48 w) := by
  dsimp only [dat48]

/-- What the body leaves, window by window. -/
theorem after48_0 (c : Dev nD) (t : Fin cfg48.N) : (dat48 V c).after 0 t = iblk48 V c 0 t := by dsimp only [dat48]
theorem after48_1 (c : Dev nD) (t : Fin cfg48.N) : (dat48 V c).after 1 t = iblk48 V c 1 t := by dsimp only [dat48]
theorem after48_2 (c : Dev nD) (t : Fin cfg48.N) : (dat48 V c).after 2 t = iblk48 V c 2 t := by dsimp only [dat48]
theorem after48_3 (c : Dev nD) (t : Fin cfg48.N) : (dat48 V c).after 3 t = iblk48 V c 3 t := by dsimp only [dat48]
theorem after48_4 (c : Dev nD) (t : Fin cfg48.N) : (dat48 V c).after 4 t = iblk48 V c 4 t := by dsimp only [dat48]
theorem after48_5 (c : Dev nD) (t : Fin cfg48.N) : (dat48 V c).after 5 t = iblk48 V c 5 t := by dsimp only [dat48]
theorem after48_6 (c : Dev nD) (t : Fin cfg48.N) : (dat48 V c).after 6 t
    = out48_6 (iblk48 V c 0 t) (iblk48 V c 1 t) (iblk48 V c 2 t) (iblk48 V c 3 t) (iblk48 V c 4 t) (iblk48 V c 5 t) := by dsimp only [dat48]

/-- Each input's current staging buffer holds its block at every point. -/
theorem before48_0 (c : Dev nD) (t : Fin cfg48.N) (d) : (dat48 V c).before 0 t d = iblk48 V c 0 t :=
  before48_0_of V (dat48 V c) (A_eq48 V c 0) (after48_0 V c) t d
theorem before48_1 (c : Dev nD) (t : Fin cfg48.N) (d) : (dat48 V c).before 1 t d = iblk48 V c 1 t :=
  before48_1_of V (dat48 V c) (A_eq48 V c 1) (after48_1 V c) t d
theorem before48_2 (c : Dev nD) (t : Fin cfg48.N) (d) : (dat48 V c).before 2 t d = iblk48 V c 2 t :=
  before48_2_of V (dat48 V c) (A_eq48 V c 2) (after48_2 V c) t d
theorem before48_3 (c : Dev nD) (t : Fin cfg48.N) (d) : (dat48 V c).before 3 t d = iblk48 V c 3 t :=
  before48_3_of V (dat48 V c) (A_eq48 V c 3) (after48_3 V c) t d
theorem before48_4 (c : Dev nD) (t : Fin cfg48.N) (d) : (dat48 V c).before 4 t d = iblk48 V c 4 t :=
  before48_4_of V (dat48 V c) (A_eq48 V c 4) (after48_4 V c) t d
theorem before48_5 (c : Dev nD) (t : Fin cfg48.N) (d) : (dat48 V c).before 5 t d = iblk48 V c 5 t :=
  before48_5_of V (dat48 V c) (A_eq48 V c 5) (after48_5 V c) t d

/-! ## The body obligation, at a generic point -/

/-- What the body is called with at point t, the windows one by one, -/
noncomputable def bodyPre48 (c : Dev nD) (t : Fin cfg48.N) : sProp 𝕄 :=
  iprop((dat48 V c).Φ t.castSucc ∗ (dat48 V c).owesAt () t.castSucc
    ∗ (∃ d, owns (c : Thread nD τ) (st48_0 t) fullShare ((dat48 V c).before 0 t d))
    ∗ (∃ d, owns (c : Thread nD τ) (st48_1 t) fullShare ((dat48 V c).before 1 t d))
    ∗ (∃ d, owns (c : Thread nD τ) (st48_2 t) fullShare ((dat48 V c).before 2 t d))
    ∗ (∃ d, owns (c : Thread nD τ) (st48_3 t) fullShare ((dat48 V c).before 3 t d))
    ∗ (∃ d, owns (c : Thread nD τ) (st48_4 t) fullShare ((dat48 V c).before 4 t d))
    ∗ (∃ d, owns (c : Thread nD τ) (st48_5 t) fullShare ((dat48 V c).before 5 t d))
    ∗ (∃ d, owns (c : Thread nD τ) (st48_6 t) fullShare ((dat48 V c).before 6 t d)))

/-- and what it returns. -/
noncomputable def bodyPost48 (c : Dev nD) (t : Fin cfg48.N) : sProp 𝕄 :=
  iprop((dat48 V c).Φ t.succ ∗ (dat48 V c).owesAt () t.succ
    ∗ owns (c : Thread nD τ) (st48_0 t) fullShare ((dat48 V c).after 0 t)
    ∗ owns (c : Thread nD τ) (st48_1 t) fullShare ((dat48 V c).after 1 t)
    ∗ owns (c : Thread nD τ) (st48_2 t) fullShare ((dat48 V c).after 2 t)
    ∗ owns (c : Thread nD τ) (st48_3 t) fullShare ((dat48 V c).after 3 t)
    ∗ owns (c : Thread nD τ) (st48_4 t) fullShare ((dat48 V c).after 4 t)
    ∗ owns (c : Thread nD τ) (st48_5 t) fullShare ((dat48 V c).after 5 t)
    ∗ owns (c : Thread nD τ) (st48_6 t) fullShare ((dat48 V c).after 6 t))

/-- The body at any point: the inputs' memrefs hold their blocks, so the body's triple applies; the invariant
    and what the core owes pass through unread. -/
theorem sound_body48 (c : Dev nD) (t : Fin cfg48.N) :
    bodyPre48 V c t ⊢ wp frame (wpE (defs₀ (F := F)) Variants.none c none) Set.univ (bodyAt48 t) (fun _ => bodyPost48 V c t) := by
  unfold bodyPre48 bodyPost48 bodyAt48
  simp only [before48_0, before48_1, before48_2, before48_3, before48_4, before48_5]
  rw [show (dat48 V c).Φ t.succ = (dat48 V c).Φ t.castSucc from rfl,
    show (dat48 V c).owesAt () t.succ = (dat48 V c).owesAt () t.castSucc from rfl,
    after48_0, after48_1, after48_2, after48_3, after48_4, after48_5, after48_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel48 c Set.univ _ _ _ _ _ _ _ _ _ _ _ _ _ _ _
    (iblk48 V c 0 t) (iblk48 V c 1 t) (iblk48 V c 2 t) (iblk48 V c 3 t) (iblk48 V c 4 t) (iblk48 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation48 (c : Dev nD) : BodyObligation (dat48 (F := F) V c) (defs₀ (F := F)) Variants.none () Set.univ := fun t => by
  rw [bigSep_W48, bigSep_W48]
  exact sound_body48 V c t

end Region48

end Cert.KernelIdeal.Hand

end
-- ==== Proof.KI.Chain.lean ====
/- The buffer contents at every boundary of @main's 101 segments, as a fold from the launch memory: a host
   stretch applies its operations' pure functions, a kernel region replaces its windows' arrays by what the
   pipeline's write-backs leave (each output the fold of its blocks, each input as entered). -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.R0
import proofs.«408084_j48395691492010_3_alg».proof.Proof.KI.R1
import proofs.«408084_j48395691492010_3_alg».proof.Proof.KI.R2
import proofs.«408084_j48395691492010_3_alg».proof.Proof.KI.R3
import proofs.«408084_j48395691492010_3_alg».proof.Proof.KI.R4
import proofs.«408084_j48395691492010_3_alg».proof.Proof.KI.R5
import proofs.«408084_j48395691492010_3_alg».proof.Proof.KI.R6
import proofs.«408084_j48395691492010_3_alg».proof.Proof.KI.R7
import proofs.«408084_j48395691492010_3_alg».proof.Proof.KI.R8
import proofs.«408084_j48395691492010_3_alg».proof.Proof.KI.R9
import proofs.«408084_j48395691492010_3_alg».proof.Proof.KI.R10
import proofs.«408084_j48395691492010_3_alg».proof.Proof.KI.R11
import proofs.«408084_j48395691492010_3_alg».proof.Proof.KI.R12
import proofs.«408084_j48395691492010_3_alg».proof.Proof.KI.R13
import proofs.«408084_j48395691492010_3_alg».proof.Proof.KI.R14
import proofs.«408084_j48395691492010_3_alg».proof.Proof.KI.R15
import proofs.«408084_j48395691492010_3_alg».proof.Proof.KI.R16
import proofs.«408084_j48395691492010_3_alg».proof.Proof.KI.R17
import proofs.«408084_j48395691492010_3_alg».proof.Proof.KI.R18
import proofs.«408084_j48395691492010_3_alg».proof.Proof.KI.R19
import proofs.«408084_j48395691492010_3_alg».proof.Proof.KI.R20
import proofs.«408084_j48395691492010_3_alg».proof.Proof.KI.R21
import proofs.«408084_j48395691492010_3_alg».proof.Proof.KI.R22
import proofs.«408084_j48395691492010_3_alg».proof.Proof.KI.R23
import proofs.«408084_j48395691492010_3_alg».proof.Proof.KI.R24
import proofs.«408084_j48395691492010_3_alg».proof.Proof.KI.R25
import proofs.«408084_j48395691492010_3_alg».proof.Proof.KI.R26
import proofs.«408084_j48395691492010_3_alg».proof.Proof.KI.R27
import proofs.«408084_j48395691492010_3_alg».proof.Proof.KI.R28
import proofs.«408084_j48395691492010_3_alg».proof.Proof.KI.R29
import proofs.«408084_j48395691492010_3_alg».proof.Proof.KI.R30
import proofs.«408084_j48395691492010_3_alg».proof.Proof.KI.R31
import proofs.«408084_j48395691492010_3_alg».proof.Proof.KI.R32
import proofs.«408084_j48395691492010_3_alg».proof.Proof.KI.R33
import proofs.«408084_j48395691492010_3_alg».proof.Proof.KI.R34
import proofs.«408084_j48395691492010_3_alg».proof.Proof.KI.R35
import proofs.«408084_j48395691492010_3_alg».proof.Proof.KI.R36
import proofs.«408084_j48395691492010_3_alg».proof.Proof.KI.R37
import proofs.«408084_j48395691492010_3_alg».proof.Proof.KI.R38
import proofs.«408084_j48395691492010_3_alg».proof.Proof.KI.R39
import proofs.«408084_j48395691492010_3_alg».proof.Proof.KI.R40
import proofs.«408084_j48395691492010_3_alg».proof.Proof.KI.R41
import proofs.«408084_j48395691492010_3_alg».proof.Proof.KI.R42
import proofs.«408084_j48395691492010_3_alg».proof.Proof.KI.R43
import proofs.«408084_j48395691492010_3_alg».proof.Proof.KI.R44
import proofs.«408084_j48395691492010_3_alg».proof.Proof.KI.R45
import proofs.«408084_j48395691492010_3_alg».proof.Proof.KI.R46
import proofs.«408084_j48395691492010_3_alg».proof.Proof.KI.R47
import proofs.«408084_j48395691492010_3_alg».proof.Proof.KI.R48
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
noncomputable abbrev B0 : Dev nD → Valuation τ sig (Elt F) := fun c b => (s₀ m ρ).mem ((c : Dev nD), b)
/-- After the host stretch `hostOps0`. -/
noncomputable abbrev B1 : Dev nD → Valuation τ sig (Elt F) := fun c => StableHlo.after hostOps0 (B0 m ρ c)
/-- After the host stretch `hostOps0_1`. -/
noncomputable abbrev B2 : Dev nD → Valuation τ sig (Elt F) := fun c => StableHlo.after hostOps0_1 (B1 m ρ c)
/-- After the host stretch `hostOps0_2`. -/
noncomputable abbrev B3 : Dev nD → Valuation τ sig (Elt F) := fun c => StableHlo.after hostOps0_2 (B2 m ρ c)

/-- Region 0's entry contents read at the TensorCore's references. -/
noncomputable abbrev E0 : (c : Dev nD) → (b : Ref sig .tc) → Buf (Elt F) ((c : Thread nD τ).loc b) := fun c b => B3 m ρ c b
/-- At region 0's exit: its arrays at what the pipeline leaves, every other buffer as entered. -/
noncomputable def B4 (c : Dev nD) : Valuation τ sig (Elt F) :=
  Pipeline.withArrays spec0 c (B3 m ρ c) fun w => (dat0 (E0 m ρ) c).arrAt w cfg0.N
theorem B4_arr (c : Dev nD) (w : Fin cfg0.W) :
    B4 m ρ c (Proc.devRef .tc (Pipeline.arrRef spec0 w)) = (dat0 (E0 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
/-- Region 0's exit contents read at the TensorCore's references. -/
noncomputable abbrev X0 : (c : Dev nD) → (b : Ref sig .tc) → Buf (Elt F) ((c : Thread nD τ).loc b) := fun c b => B4 m ρ c b
theorem hF0 (c : Dev nD) (w : Fin cfg0.W) : (dat0 (E0 m ρ) c).arrAt w cfg0.N = X0 m ρ c (Pipeline.arrRef spec0 w) :=
  (B4_arr m ρ c w).symm
theorem hrest0 (c : Dev nD) : ∀ b, b ∉ Finset.univ.image (Pipeline.arrRef spec0) → X0 m ρ c b = E0 m ρ c b :=
  fun b hb => B4_of_ne m ρ c b fun w e => hb (Finset.mem_image.mpr ⟨w, Finset.mem_univ _, e⟩)
/-- After the host stretch `hostOps1`. -/
noncomputable abbrev B5 : Dev nD → Valuation τ sig (Elt F) := fun c => StableHlo.after hostOps1 (B4 m ρ c)

/-- Region 1's entry contents read at the TensorCore's references. -/
noncomputable abbrev E1 : (c : Dev nD) → (b : Ref sig .tc) → Buf (Elt F) ((c : Thread nD τ).loc b) := fun c b => B5 m ρ c b
/-- At region 1's exit: its arrays at what the pipeline leaves, every other buffer as entered. -/
noncomputable def B6 (c : Dev nD) : Valuation τ sig (Elt F) :=
  Pipeline.withArrays spec1 c (B5 m ρ c) fun w => (dat1 (E1 m ρ) c).arrAt w cfg1.N
theorem B6_arr (c : Dev nD) (w : Fin cfg1.W) :
    B6 m ρ c (Proc.devRef .tc (Pipeline.arrRef spec1 w)) = (dat1 (E1 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
/-- Region 1's exit contents read at the TensorCore's references. -/
noncomputable abbrev X1 : (c : Dev nD) → (b : Ref sig .tc) → Buf (Elt F) ((c : Thread nD τ).loc b) := fun c b => B6 m ρ c b
theorem hF1 (c : Dev nD) (w : Fin cfg1.W) : (dat1 (E1 m ρ) c).arrAt w cfg1.N = X1 m ρ c (Pipeline.arrRef spec1 w) :=
  (B6_arr m ρ c w).symm
theorem hrest1 (c : Dev nD) : ∀ b, b ∉ Finset.univ.image (Pipeline.arrRef spec1) → X1 m ρ c b = E1 m ρ c b :=
  fun b hb => B6_of_ne m ρ c b fun w e => hb (Finset.mem_image.mpr ⟨w, Finset.mem_univ _, e⟩)
/-- After the host stretch `hostOps2`. -/
noncomputable abbrev B7 : Dev nD → Valuation τ sig (Elt F) := fun c => StableHlo.after hostOps2 (B6 m ρ c)

/-- Region 2's entry contents read at the TensorCore's references. -/
noncomputable abbrev E2 : (c : Dev nD) → (b : Ref sig .tc) → Buf (Elt F) ((c : Thread nD τ).loc b) := fun c b => B7 m ρ c b
/-- At region 2's exit: its arrays at what the pipeline leaves, every other buffer as entered. -/
noncomputable def B8 (c : Dev nD) : Valuation τ sig (Elt F) :=
  Pipeline.withArrays spec2 c (B7 m ρ c) fun w => (dat2 (E2 m ρ) c).arrAt w cfg2.N
theorem B8_arr (c : Dev nD) (w : Fin cfg2.W) :
    B8 m ρ c (Proc.devRef .tc (Pipeline.arrRef spec2 w)) = (dat2 (E2 m ρ) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) := by
  unfold B8; exact Pipeline.withArrays_of_ne spec2 c _ _ b hb
/-- Region 2's exit contents read at the TensorCore's references. -/
noncomputable abbrev X2 : (c : Dev nD) → (b : Ref sig .tc) → Buf (Elt F) ((c : Thread nD τ).loc b) := fun c b => B8 m ρ c b
theorem hF2 (c : Dev nD) (w : Fin cfg2.W) : (dat2 (E2 m ρ) c).arrAt w cfg2.N = X2 m ρ c (Pipeline.arrRef spec2 w) :=
  (B8_arr m ρ c w).symm
theorem hrest2 (c : Dev nD) : ∀ b, b ∉ Finset.univ.image (Pipeline.arrRef spec2) → X2 m ρ c b = E2 m ρ c b :=
  fun b hb => B8_of_ne m ρ c b fun w e => hb (Finset.mem_image.mpr ⟨w, Finset.mem_univ _, e⟩)
/-- After the host stretch `hostOps3`. -/
noncomputable abbrev B9 : Dev nD → Valuation τ sig (Elt F) := fun c => StableHlo.after hostOps3 (B8 m ρ c)

/-- Region 3's entry contents read at the TensorCore's references. -/
noncomputable abbrev E3 : (c : Dev nD) → (b : Ref sig .tc) → Buf (Elt F) ((c : Thread nD τ).loc b) := fun c b => B9 m ρ c b
/-- At region 3's exit: its arrays at what the pipeline leaves, every other buffer as entered. -/
noncomputable def B10 (c : Dev nD) : Valuation τ sig (Elt F) :=
  Pipeline.withArrays spec3 c (B9 m ρ c) fun w => (dat3 (E3 m ρ) c).arrAt w cfg3.N
theorem B10_arr (c : Dev nD) (w : Fin cfg3.W) :
    B10 m ρ c (Proc.devRef .tc (Pipeline.arrRef spec3 w)) = (dat3 (E3 m ρ) c).arrAt w cfg3.N := by
  unfold B10; exact Pipeline.withArrays_arr spec3 launch3.win.arr_inj c _ _ w
theorem B10_of_ne (c : Dev nD) (b : Ref sig .tc) (hb : ∀ w, Pipeline.arrRef spec3 w ≠ b) :
    B10 m ρ c (Proc.devRef .tc b) = B9 m ρ c (Proc.devRef .tc b) := by
  unfold B10; exact Pipeline.withArrays_of_ne spec3 c _ _ b hb
/-- Region 3's exit contents read at the TensorCore's references. -/
noncomputable abbrev X3 : (c : Dev nD) → (b : Ref sig .tc) → Buf (Elt F) ((c : Thread nD τ).loc b) := fun c b => B10 m ρ c b
theorem hF3 (c : Dev nD) (w : Fin cfg3.W) : (dat3 (E3 m ρ) c).arrAt w cfg3.N = X3 m ρ c (Pipeline.arrRef spec3 w) :=
  (B10_arr m ρ c w).symm
theorem hrest3 (c : Dev nD) : ∀ b, b ∉ Finset.univ.image (Pipeline.arrRef spec3) → X3 m ρ c b = E3 m ρ c b :=
  fun b hb => B10_of_ne m ρ c b fun w e => hb (Finset.mem_image.mpr ⟨w, Finset.mem_univ _, e⟩)
/-- After the host stretch `hostOps4`. -/
noncomputable abbrev B11 : Dev nD → Valuation τ sig (Elt F) := fun c => StableHlo.after hostOps4 (B10 m ρ c)

/-- Region 4's entry contents read at the TensorCore's references. -/
noncomputable abbrev E4 : (c : Dev nD) → (b : Ref sig .tc) → Buf (Elt F) ((c : Thread nD τ).loc b) := fun c b => B11 m ρ c b
/-- At region 4's exit: its arrays at what the pipeline leaves, every other buffer as entered. -/
noncomputable def B12 (c : Dev nD) : Valuation τ sig (Elt F) :=
  Pipeline.withArrays spec4 c (B11 m ρ c) fun w => (dat4 (E4 m ρ) c).arrAt w cfg4.N
theorem B12_arr (c : Dev nD) (w : Fin cfg4.W) :
    B12 m ρ c (Proc.devRef .tc (Pipeline.arrRef spec4 w)) = (dat4 (E4 m ρ) c).arrAt w cfg4.N := by
  unfold B12; exact Pipeline.withArrays_arr spec4 launch4.win.arr_inj c _ _ w
theorem B12_of_ne (c : Dev nD) (b : Ref sig .tc) (hb : ∀ w, Pipeline.arrRef spec4 w ≠ b) :
    B12 m ρ c (Proc.devRef .tc b) = B11 m ρ c (Proc.devRef .tc b) := by
  unfold B12; exact Pipeline.withArrays_of_ne spec4 c _ _ b hb
/-- Region 4's exit contents read at the TensorCore's references. -/
noncomputable abbrev X4 : (c : Dev nD) → (b : Ref sig .tc) → Buf (Elt F) ((c : Thread nD τ).loc b) := fun c b => B12 m ρ c b
theorem hF4 (c : Dev nD) (w : Fin cfg4.W) : (dat4 (E4 m ρ) c).arrAt w cfg4.N = X4 m ρ c (Pipeline.arrRef spec4 w) :=
  (B12_arr m ρ c w).symm
theorem hrest4 (c : Dev nD) : ∀ b, b ∉ Finset.univ.image (Pipeline.arrRef spec4) → X4 m ρ c b = E4 m ρ c b :=
  fun b hb => B12_of_ne m ρ c b fun w e => hb (Finset.mem_image.mpr ⟨w, Finset.mem_univ _, e⟩)
/-- After the host stretch `hostOps5`. -/
noncomputable abbrev B13 : Dev nD → Valuation τ sig (Elt F) := fun c => StableHlo.after hostOps5 (B12 m ρ c)

/-- Region 5's entry contents read at the TensorCore's references. -/
noncomputable abbrev E5 : (c : Dev nD) → (b : Ref sig .tc) → Buf (Elt F) ((c : Thread nD τ).loc b) := fun c b => B13 m ρ c b
/-- At region 5's exit: its arrays at what the pipeline leaves, every other buffer as entered. -/
noncomputable def B14 (c : Dev nD) : Valuation τ sig (Elt F) :=
  Pipeline.withArrays spec5 c (B13 m ρ c) fun w => (dat5 (E5 m ρ) c).arrAt w cfg5.N
theorem B14_arr (c : Dev nD) (w : Fin cfg5.W) :
    B14 m ρ c (Proc.devRef .tc (Pipeline.arrRef spec5 w)) = (dat5 (E5 m ρ) c).arrAt w cfg5.N := by
  unfold B14; exact Pipeline.withArrays_arr spec5 launch5.win.arr_inj c _ _ w
theorem B14_of_ne (c : Dev nD) (b : Ref sig .tc) (hb : ∀ w, Pipeline.arrRef spec5 w ≠ b) :
    B14 m ρ c (Proc.devRef .tc b) = B13 m ρ c (Proc.devRef .tc b) := by
  unfold B14; exact Pipeline.withArrays_of_ne spec5 c _ _ b hb
/-- Region 5's exit contents read at the TensorCore's references. -/
noncomputable abbrev X5 : (c : Dev nD) → (b : Ref sig .tc) → Buf (Elt F) ((c : Thread nD τ).loc b) := fun c b => B14 m ρ c b
theorem hF5 (c : Dev nD) (w : Fin cfg5.W) : (dat5 (E5 m ρ) c).arrAt w cfg5.N = X5 m ρ c (Pipeline.arrRef spec5 w) :=
  (B14_arr m ρ c w).symm
theorem hrest5 (c : Dev nD) : ∀ b, b ∉ Finset.univ.image (Pipeline.arrRef spec5) → X5 m ρ c b = E5 m ρ c b :=
  fun b hb => B14_of_ne m ρ c b fun w e => hb (Finset.mem_image.mpr ⟨w, Finset.mem_univ _, e⟩)
/-- After the host stretch `hostOps6`. -/
noncomputable abbrev B15 : Dev nD → Valuation τ sig (Elt F) := fun c => StableHlo.after hostOps6 (B14 m ρ c)

/-- Region 6's entry contents read at the TensorCore's references. -/
noncomputable abbrev E6 : (c : Dev nD) → (b : Ref sig .tc) → Buf (Elt F) ((c : Thread nD τ).loc b) := fun c b => B15 m ρ c b
/-- At region 6's exit: its arrays at what the pipeline leaves, every other buffer as entered. -/
noncomputable def B16 (c : Dev nD) : Valuation τ sig (Elt F) :=
  Pipeline.withArrays spec6 c (B15 m ρ c) fun w => (dat6 (E6 m ρ) c).arrAt w cfg6.N
theorem B16_arr (c : Dev nD) (w : Fin cfg6.W) :
    B16 m ρ c (Proc.devRef .tc (Pipeline.arrRef spec6 w)) = (dat6 (E6 m ρ) c).arrAt w cfg6.N := by
  unfold B16; exact Pipeline.withArrays_arr spec6 launch6.win.arr_inj c _ _ w
theorem B16_of_ne (c : Dev nD) (b : Ref sig .tc) (hb : ∀ w, Pipeline.arrRef spec6 w ≠ b) :
    B16 m ρ c (Proc.devRef .tc b) = B15 m ρ c (Proc.devRef .tc b) := by
  unfold B16; exact Pipeline.withArrays_of_ne spec6 c _ _ b hb
/-- Region 6's exit contents read at the TensorCore's references. -/
noncomputable abbrev X6 : (c : Dev nD) → (b : Ref sig .tc) → Buf (Elt F) ((c : Thread nD τ).loc b) := fun c b => B16 m ρ c b
theorem hF6 (c : Dev nD) (w : Fin cfg6.W) : (dat6 (E6 m ρ) c).arrAt w cfg6.N = X6 m ρ c (Pipeline.arrRef spec6 w) :=
  (B16_arr m ρ c w).symm
theorem hrest6 (c : Dev nD) : ∀ b, b ∉ Finset.univ.image (Pipeline.arrRef spec6) → X6 m ρ c b = E6 m ρ c b :=
  fun b hb => B16_of_ne m ρ c b fun w e => hb (Finset.mem_image.mpr ⟨w, Finset.mem_univ _, e⟩)
/-- After the host stretch `hostOps7`. -/
noncomputable abbrev B17 : Dev nD → Valuation τ sig (Elt F) := fun c => StableHlo.after hostOps7 (B16 m ρ c)

/-- Region 7's entry contents read at the TensorCore's references. -/
noncomputable abbrev E7 : (c : Dev nD) → (b : Ref sig .tc) → Buf (Elt F) ((c : Thread nD τ).loc b) := fun c b => B17 m ρ c b
/-- At region 7's exit: its arrays at what the pipeline leaves, every other buffer as entered. -/
noncomputable def B18 (c : Dev nD) : Valuation τ sig (Elt F) :=
  Pipeline.withArrays spec7 c (B17 m ρ c) fun w => (dat7 (E7 m ρ) c).arrAt w cfg7.N
theorem B18_arr (c : Dev nD) (w : Fin cfg7.W) :
    B18 m ρ c (Proc.devRef .tc (Pipeline.arrRef spec7 w)) = (dat7 (E7 m ρ) c).arrAt w cfg7.N := by
  unfold B18; exact Pipeline.withArrays_arr spec7 launch7.win.arr_inj c _ _ w
theorem B18_of_ne (c : Dev nD) (b : Ref sig .tc) (hb : ∀ w, Pipeline.arrRef spec7 w ≠ b) :
    B18 m ρ c (Proc.devRef .tc b) = B17 m ρ c (Proc.devRef .tc b) := by
  unfold B18; exact Pipeline.withArrays_of_ne spec7 c _ _ b hb
/-- Region 7's exit contents read at the TensorCore's references. -/
noncomputable abbrev X7 : (c : Dev nD) → (b : Ref sig .tc) → Buf (Elt F) ((c : Thread nD τ).loc b) := fun c b => B18 m ρ c b
theorem hF7 (c : Dev nD) (w : Fin cfg7.W) : (dat7 (E7 m ρ) c).arrAt w cfg7.N = X7 m ρ c (Pipeline.arrRef spec7 w) :=
  (B18_arr m ρ c w).symm
theorem hrest7 (c : Dev nD) : ∀ b, b ∉ Finset.univ.image (Pipeline.arrRef spec7) → X7 m ρ c b = E7 m ρ c b :=
  fun b hb => B18_of_ne m ρ c b fun w e => hb (Finset.mem_image.mpr ⟨w, Finset.mem_univ _, e⟩)
/-- After the host stretch `hostOps8`. -/
noncomputable abbrev B19 : Dev nD → Valuation τ sig (Elt F) := fun c => StableHlo.after hostOps8 (B18 m ρ c)

/-- Region 8's entry contents read at the TensorCore's references. -/
noncomputable abbrev E8 : (c : Dev nD) → (b : Ref sig .tc) → Buf (Elt F) ((c : Thread nD τ).loc b) := fun c b => B19 m ρ c b
/-- At region 8's exit: its arrays at what the pipeline leaves, every other buffer as entered. -/
noncomputable def B20 (c : Dev nD) : Valuation τ sig (Elt F) :=
  Pipeline.withArrays spec8 c (B19 m ρ c) fun w => (dat8 (E8 m ρ) c).arrAt w cfg8.N
theorem B20_arr (c : Dev nD) (w : Fin cfg8.W) :
    B20 m ρ c (Proc.devRef .tc (Pipeline.arrRef spec8 w)) = (dat8 (E8 m ρ) c).arrAt w cfg8.N := by
  unfold B20; exact Pipeline.withArrays_arr spec8 launch8.win.arr_inj c _ _ w
theorem B20_of_ne (c : Dev nD) (b : Ref sig .tc) (hb : ∀ w, Pipeline.arrRef spec8 w ≠ b) :
    B20 m ρ c (Proc.devRef .tc b) = B19 m ρ c (Proc.devRef .tc b) := by
  unfold B20; exact Pipeline.withArrays_of_ne spec8 c _ _ b hb
/-- Region 8's exit contents read at the TensorCore's references. -/
noncomputable abbrev X8 : (c : Dev nD) → (b : Ref sig .tc) → Buf (Elt F) ((c : Thread nD τ).loc b) := fun c b => B20 m ρ c b
theorem hF8 (c : Dev nD) (w : Fin cfg8.W) : (dat8 (E8 m ρ) c).arrAt w cfg8.N = X8 m ρ c (Pipeline.arrRef spec8 w) :=
  (B20_arr m ρ c w).symm
theorem hrest8 (c : Dev nD) : ∀ b, b ∉ Finset.univ.image (Pipeline.arrRef spec8) → X8 m ρ c b = E8 m ρ c b :=
  fun b hb => B20_of_ne m ρ c b fun w e => hb (Finset.mem_image.mpr ⟨w, Finset.mem_univ _, e⟩)
/-- After the host stretch `hostOps9`. -/
noncomputable abbrev B21 : Dev nD → Valuation τ sig (Elt F) := fun c => StableHlo.after hostOps9 (B20 m ρ c)

/-- Region 9's entry contents read at the TensorCore's references. -/
noncomputable abbrev E9 : (c : Dev nD) → (b : Ref sig .tc) → Buf (Elt F) ((c : Thread nD τ).loc b) := fun c b => B21 m ρ c b
/-- At region 9's exit: its arrays at what the pipeline leaves, every other buffer as entered. -/
noncomputable def B22 (c : Dev nD) : Valuation τ sig (Elt F) :=
  Pipeline.withArrays spec9 c (B21 m ρ c) fun w => (dat9 (E9 m ρ) c).arrAt w cfg9.N
theorem B22_arr (c : Dev nD) (w : Fin cfg9.W) :
    B22 m ρ c (Proc.devRef .tc (Pipeline.arrRef spec9 w)) = (dat9 (E9 m ρ) c).arrAt w cfg9.N := by
  unfold B22; exact Pipeline.withArrays_arr spec9 launch9.win.arr_inj c _ _ w
theorem B22_of_ne (c : Dev nD) (b : Ref sig .tc) (hb : ∀ w, Pipeline.arrRef spec9 w ≠ b) :
    B22 m ρ c (Proc.devRef .tc b) = B21 m ρ c (Proc.devRef .tc b) := by
  unfold B22; exact Pipeline.withArrays_of_ne spec9 c _ _ b hb
/-- Region 9's exit contents read at the TensorCore's references. -/
noncomputable abbrev X9 : (c : Dev nD) → (b : Ref sig .tc) → Buf (Elt F) ((c : Thread nD τ).loc b) := fun c b => B22 m ρ c b
theorem hF9 (c : Dev nD) (w : Fin cfg9.W) : (dat9 (E9 m ρ) c).arrAt w cfg9.N = X9 m ρ c (Pipeline.arrRef spec9 w) :=
  (B22_arr m ρ c w).symm
theorem hrest9 (c : Dev nD) : ∀ b, b ∉ Finset.univ.image (Pipeline.arrRef spec9) → X9 m ρ c b = E9 m ρ c b :=
  fun b hb => B22_of_ne m ρ c b fun w e => hb (Finset.mem_image.mpr ⟨w, Finset.mem_univ _, e⟩)
/-- After the host stretch `hostOps10`. -/
noncomputable abbrev B23 : Dev nD → Valuation τ sig (Elt F) := fun c => StableHlo.after hostOps10 (B22 m ρ c)

/-- Region 10's entry contents read at the TensorCore's references. -/
noncomputable abbrev E10 : (c : Dev nD) → (b : Ref sig .tc) → Buf (Elt F) ((c : Thread nD τ).loc b) := fun c b => B23 m ρ c b
/-- At region 10's exit: its arrays at what the pipeline leaves, every other buffer as entered. -/
noncomputable def B24 (c : Dev nD) : Valuation τ sig (Elt F) :=
  Pipeline.withArrays spec10 c (B23 m ρ c) fun w => (dat10 (E10 m ρ) c).arrAt w cfg10.N
theorem B24_arr (c : Dev nD) (w : Fin cfg10.W) :
    B24 m ρ c (Proc.devRef .tc (Pipeline.arrRef spec10 w)) = (dat10 (E10 m ρ) c).arrAt w cfg10.N := by
  unfold B24; exact Pipeline.withArrays_arr spec10 launch10.win.arr_inj c _ _ w
theorem B24_of_ne (c : Dev nD) (b : Ref sig .tc) (hb : ∀ w, Pipeline.arrRef spec10 w ≠ b) :
    B24 m ρ c (Proc.devRef .tc b) = B23 m ρ c (Proc.devRef .tc b) := by
  unfold B24; exact Pipeline.withArrays_of_ne spec10 c _ _ b hb
/-- Region 10's exit contents read at the TensorCore's references. -/
noncomputable abbrev X10 : (c : Dev nD) → (b : Ref sig .tc) → Buf (Elt F) ((c : Thread nD τ).loc b) := fun c b => B24 m ρ c b
theorem hF10 (c : Dev nD) (w : Fin cfg10.W) : (dat10 (E10 m ρ) c).arrAt w cfg10.N = X10 m ρ c (Pipeline.arrRef spec10 w) :=
  (B24_arr m ρ c w).symm
theorem hrest10 (c : Dev nD) : ∀ b, b ∉ Finset.univ.image (Pipeline.arrRef spec10) → X10 m ρ c b = E10 m ρ c b :=
  fun b hb => B24_of_ne m ρ c b fun w e => hb (Finset.mem_image.mpr ⟨w, Finset.mem_univ _, e⟩)
/-- After the host stretch `hostOps11`. -/
noncomputable abbrev B25 : Dev nD → Valuation τ sig (Elt F) := fun c => StableHlo.after hostOps11 (B24 m ρ c)

/-- Region 11's entry contents read at the TensorCore's references. -/
noncomputable abbrev E11 : (c : Dev nD) → (b : Ref sig .tc) → Buf (Elt F) ((c : Thread nD τ).loc b) := fun c b => B25 m ρ c b
/-- At region 11's exit: its arrays at what the pipeline leaves, every other buffer as entered. -/
noncomputable def B26 (c : Dev nD) : Valuation τ sig (Elt F) :=
  Pipeline.withArrays spec11 c (B25 m ρ c) fun w => (dat11 (E11 m ρ) c).arrAt w cfg11.N
theorem B26_arr (c : Dev nD) (w : Fin cfg11.W) :
    B26 m ρ c (Proc.devRef .tc (Pipeline.arrRef spec11 w)) = (dat11 (E11 m ρ) c).arrAt w cfg11.N := by
  unfold B26; exact Pipeline.withArrays_arr spec11 launch11.win.arr_inj c _ _ w
theorem B26_of_ne (c : Dev nD) (b : Ref sig .tc) (hb : ∀ w, Pipeline.arrRef spec11 w ≠ b) :
    B26 m ρ c (Proc.devRef .tc b) = B25 m ρ c (Proc.devRef .tc b) := by
  unfold B26; exact Pipeline.withArrays_of_ne spec11 c _ _ b hb
/-- Region 11's exit contents read at the TensorCore's references. -/
noncomputable abbrev X11 : (c : Dev nD) → (b : Ref sig .tc) → Buf (Elt F) ((c : Thread nD τ).loc b) := fun c b => B26 m ρ c b
theorem hF11 (c : Dev nD) (w : Fin cfg11.W) : (dat11 (E11 m ρ) c).arrAt w cfg11.N = X11 m ρ c (Pipeline.arrRef spec11 w) :=
  (B26_arr m ρ c w).symm
theorem hrest11 (c : Dev nD) : ∀ b, b ∉ Finset.univ.image (Pipeline.arrRef spec11) → X11 m ρ c b = E11 m ρ c b :=
  fun b hb => B26_of_ne m ρ c b fun w e => hb (Finset.mem_image.mpr ⟨w, Finset.mem_univ _, e⟩)
/-- After the host stretch `hostOps12`. -/
noncomputable abbrev B27 : Dev nD → Valuation τ sig (Elt F) := fun c => StableHlo.after hostOps12 (B26 m ρ c)

/-- Region 12's entry contents read at the TensorCore's references. -/
noncomputable abbrev E12 : (c : Dev nD) → (b : Ref sig .tc) → Buf (Elt F) ((c : Thread nD τ).loc b) := fun c b => B27 m ρ c b
/-- At region 12's exit: its arrays at what the pipeline leaves, every other buffer as entered. -/
noncomputable def B28 (c : Dev nD) : Valuation τ sig (Elt F) :=
  Pipeline.withArrays spec12 c (B27 m ρ c) fun w => (dat12 (E12 m ρ) c).arrAt w cfg12.N
theorem B28_arr (c : Dev nD) (w : Fin cfg12.W) :
    B28 m ρ c (Proc.devRef .tc (Pipeline.arrRef spec12 w)) = (dat12 (E12 m ρ) c).arrAt w cfg12.N := by
  unfold B28; exact Pipeline.withArrays_arr spec12 launch12.win.arr_inj c _ _ w
theorem B28_of_ne (c : Dev nD) (b : Ref sig .tc) (hb : ∀ w, Pipeline.arrRef spec12 w ≠ b) :
    B28 m ρ c (Proc.devRef .tc b) = B27 m ρ c (Proc.devRef .tc b) := by
  unfold B28; exact Pipeline.withArrays_of_ne spec12 c _ _ b hb
/-- Region 12's exit contents read at the TensorCore's references. -/
noncomputable abbrev X12 : (c : Dev nD) → (b : Ref sig .tc) → Buf (Elt F) ((c : Thread nD τ).loc b) := fun c b => B28 m ρ c b
theorem hF12 (c : Dev nD) (w : Fin cfg12.W) : (dat12 (E12 m ρ) c).arrAt w cfg12.N = X12 m ρ c (Pipeline.arrRef spec12 w) :=
  (B28_arr m ρ c w).symm
theorem hrest12 (c : Dev nD) : ∀ b, b ∉ Finset.univ.image (Pipeline.arrRef spec12) → X12 m ρ c b = E12 m ρ c b :=
  fun b hb => B28_of_ne m ρ c b fun w e => hb (Finset.mem_image.mpr ⟨w, Finset.mem_univ _, e⟩)
/-- After the host stretch `hostOps13`. -/
noncomputable abbrev B29 : Dev nD → Valuation τ sig (Elt F) := fun c => StableHlo.after hostOps13 (B28 m ρ c)

/-- Region 13's entry contents read at the TensorCore's references. -/
noncomputable abbrev E13 : (c : Dev nD) → (b : Ref sig .tc) → Buf (Elt F) ((c : Thread nD τ).loc b) := fun c b => B29 m ρ c b
/-- At region 13's exit: its arrays at what the pipeline leaves, every other buffer as entered. -/
noncomputable def B30 (c : Dev nD) : Valuation τ sig (Elt F) :=
  Pipeline.withArrays spec13 c (B29 m ρ c) fun w => (dat13 (E13 m ρ) c).arrAt w cfg13.N
theorem B30_arr (c : Dev nD) (w : Fin cfg13.W) :
    B30 m ρ c (Proc.devRef .tc (Pipeline.arrRef spec13 w)) = (dat13 (E13 m ρ) c).arrAt w cfg13.N := by
  unfold B30; exact Pipeline.withArrays_arr spec13 launch13.win.arr_inj c _ _ w
theorem B30_of_ne (c : Dev nD) (b : Ref sig .tc) (hb : ∀ w, Pipeline.arrRef spec13 w ≠ b) :
    B30 m ρ c (Proc.devRef .tc b) = B29 m ρ c (Proc.devRef .tc b) := by
  unfold B30; exact Pipeline.withArrays_of_ne spec13 c _ _ b hb
/-- Region 13's exit contents read at the TensorCore's references. -/
noncomputable abbrev X13 : (c : Dev nD) → (b : Ref sig .tc) → Buf (Elt F) ((c : Thread nD τ).loc b) := fun c b => B30 m ρ c b
theorem hF13 (c : Dev nD) (w : Fin cfg13.W) : (dat13 (E13 m ρ) c).arrAt w cfg13.N = X13 m ρ c (Pipeline.arrRef spec13 w) :=
  (B30_arr m ρ c w).symm
theorem hrest13 (c : Dev nD) : ∀ b, b ∉ Finset.univ.image (Pipeline.arrRef spec13) → X13 m ρ c b = E13 m ρ c b :=
  fun b hb => B30_of_ne m ρ c b fun w e => hb (Finset.mem_image.mpr ⟨w, Finset.mem_univ _, e⟩)
/-- After the host stretch `hostOps14`. -/
noncomputable abbrev B31 : Dev nD → Valuation τ sig (Elt F) := fun c => StableHlo.after hostOps14 (B30 m ρ c)

/-- Region 14's entry contents read at the TensorCore's references. -/
noncomputable abbrev E14 : (c : Dev nD) → (b : Ref sig .tc) → Buf (Elt F) ((c : Thread nD τ).loc b) := fun c b => B31 m ρ c b
/-- At region 14's exit: its arrays at what the pipeline leaves, every other buffer as entered. -/
noncomputable def B32 (c : Dev nD) : Valuation τ sig (Elt F) :=
  Pipeline.withArrays spec14 c (B31 m ρ c) fun w => (dat14 (E14 m ρ) c).arrAt w cfg14.N
theorem B32_arr (c : Dev nD) (w : Fin cfg14.W) :
    B32 m ρ c (Proc.devRef .tc (Pipeline.arrRef spec14 w)) = (dat14 (E14 m ρ) c).arrAt w cfg14.N := by
  unfold B32; exact Pipeline.withArrays_arr spec14 launch14.win.arr_inj c _ _ w
theorem B32_of_ne (c : Dev nD) (b : Ref sig .tc) (hb : ∀ w, Pipeline.arrRef spec14 w ≠ b) :
    B32 m ρ c (Proc.devRef .tc b) = B31 m ρ c (Proc.devRef .tc b) := by
  unfold B32; exact Pipeline.withArrays_of_ne spec14 c _ _ b hb
/-- Region 14's exit contents read at the TensorCore's references. -/
noncomputable abbrev X14 : (c : Dev nD) → (b : Ref sig .tc) → Buf (Elt F) ((c : Thread nD τ).loc b) := fun c b => B32 m ρ c b
theorem hF14 (c : Dev nD) (w : Fin cfg14.W) : (dat14 (E14 m ρ) c).arrAt w cfg14.N = X14 m ρ c (Pipeline.arrRef spec14 w) :=
  (B32_arr m ρ c w).symm
theorem hrest14 (c : Dev nD) : ∀ b, b ∉ Finset.univ.image (Pipeline.arrRef spec14) → X14 m ρ c b = E14 m ρ c b :=
  fun b hb => B32_of_ne m ρ c b fun w e => hb (Finset.mem_image.mpr ⟨w, Finset.mem_univ _, e⟩)
/-- After the host stretch `hostOps15`. -/
noncomputable abbrev B33 : Dev nD → Valuation τ sig (Elt F) := fun c => StableHlo.after hostOps15 (B32 m ρ c)

/-- Region 15's entry contents read at the TensorCore's references. -/
noncomputable abbrev E15 : (c : Dev nD) → (b : Ref sig .tc) → Buf (Elt F) ((c : Thread nD τ).loc b) := fun c b => B33 m ρ c b
/-- At region 15's exit: its arrays at what the pipeline leaves, every other buffer as entered. -/
noncomputable def B34 (c : Dev nD) : Valuation τ sig (Elt F) :=
  Pipeline.withArrays spec15 c (B33 m ρ c) fun w => (dat15 (E15 m ρ) c).arrAt w cfg15.N
theorem B34_arr (c : Dev nD) (w : Fin cfg15.W) :
    B34 m ρ c (Proc.devRef .tc (Pipeline.arrRef spec15 w)) = (dat15 (E15 m ρ) c).arrAt w cfg15.N := by
  unfold B34; exact Pipeline.withArrays_arr spec15 launch15.win.arr_inj c _ _ w
theorem B34_of_ne (c : Dev nD) (b : Ref sig .tc) (hb : ∀ w, Pipeline.arrRef spec15 w ≠ b) :
    B34 m ρ c (Proc.devRef .tc b) = B33 m ρ c (Proc.devRef .tc b) := by
  unfold B34; exact Pipeline.withArrays_of_ne spec15 c _ _ b hb
/-- Region 15's exit contents read at the TensorCore's references. -/
noncomputable abbrev X15 : (c : Dev nD) → (b : Ref sig .tc) → Buf (Elt F) ((c : Thread nD τ).loc b) := fun c b => B34 m ρ c b
theorem hF15 (c : Dev nD) (w : Fin cfg15.W) : (dat15 (E15 m ρ) c).arrAt w cfg15.N = X15 m ρ c (Pipeline.arrRef spec15 w) :=
  (B34_arr m ρ c w).symm
theorem hrest15 (c : Dev nD) : ∀ b, b ∉ Finset.univ.image (Pipeline.arrRef spec15) → X15 m ρ c b = E15 m ρ c b :=
  fun b hb => B34_of_ne m ρ c b fun w e => hb (Finset.mem_image.mpr ⟨w, Finset.mem_univ _, e⟩)
/-- After the host stretch `hostOps16`. -/
noncomputable abbrev B35 : Dev nD → Valuation τ sig (Elt F) := fun c => StableHlo.after hostOps16 (B34 m ρ c)

/-- Region 16's entry contents read at the TensorCore's references. -/
noncomputable abbrev E16 : (c : Dev nD) → (b : Ref sig .tc) → Buf (Elt F) ((c : Thread nD τ).loc b) := fun c b => B35 m ρ c b
/-- At region 16's exit: its arrays at what the pipeline leaves, every other buffer as entered. -/
noncomputable def B36 (c : Dev nD) : Valuation τ sig (Elt F) :=
  Pipeline.withArrays spec16 c (B35 m ρ c) fun w => (dat16 (E16 m ρ) c).arrAt w cfg16.N
theorem B36_arr (c : Dev nD) (w : Fin cfg16.W) :
    B36 m ρ c (Proc.devRef .tc (Pipeline.arrRef spec16 w)) = (dat16 (E16 m ρ) c).arrAt w cfg16.N := by
  unfold B36; exact Pipeline.withArrays_arr spec16 launch16.win.arr_inj c _ _ w
theorem B36_of_ne (c : Dev nD) (b : Ref sig .tc) (hb : ∀ w, Pipeline.arrRef spec16 w ≠ b) :
    B36 m ρ c (Proc.devRef .tc b) = B35 m ρ c (Proc.devRef .tc b) := by
  unfold B36; exact Pipeline.withArrays_of_ne spec16 c _ _ b hb
/-- Region 16's exit contents read at the TensorCore's references. -/
noncomputable abbrev X16 : (c : Dev nD) → (b : Ref sig .tc) → Buf (Elt F) ((c : Thread nD τ).loc b) := fun c b => B36 m ρ c b
theorem hF16 (c : Dev nD) (w : Fin cfg16.W) : (dat16 (E16 m ρ) c).arrAt w cfg16.N = X16 m ρ c (Pipeline.arrRef spec16 w) :=
  (B36_arr m ρ c w).symm
theorem hrest16 (c : Dev nD) : ∀ b, b ∉ Finset.univ.image (Pipeline.arrRef spec16) → X16 m ρ c b = E16 m ρ c b :=
  fun b hb => B36_of_ne m ρ c b fun w e => hb (Finset.mem_image.mpr ⟨w, Finset.mem_univ _, e⟩)
/-- After the host stretch `hostOps17`. -/
noncomputable abbrev B37 : Dev nD → Valuation τ sig (Elt F) := fun c => StableHlo.after hostOps17 (B36 m ρ c)

/-- Region 17's entry contents read at the TensorCore's references. -/
noncomputable abbrev E17 : (c : Dev nD) → (b : Ref sig .tc) → Buf (Elt F) ((c : Thread nD τ).loc b) := fun c b => B37 m ρ c b
/-- At region 17's exit: its arrays at what the pipeline leaves, every other buffer as entered. -/
noncomputable def B38 (c : Dev nD) : Valuation τ sig (Elt F) :=
  Pipeline.withArrays spec17 c (B37 m ρ c) fun w => (dat17 (E17 m ρ) c).arrAt w cfg17.N
theorem B38_arr (c : Dev nD) (w : Fin cfg17.W) :
    B38 m ρ c (Proc.devRef .tc (Pipeline.arrRef spec17 w)) = (dat17 (E17 m ρ) c).arrAt w cfg17.N := by
  unfold B38; exact Pipeline.withArrays_arr spec17 launch17.win.arr_inj c _ _ w
theorem B38_of_ne (c : Dev nD) (b : Ref sig .tc) (hb : ∀ w, Pipeline.arrRef spec17 w ≠ b) :
    B38 m ρ c (Proc.devRef .tc b) = B37 m ρ c (Proc.devRef .tc b) := by
  unfold B38; exact Pipeline.withArrays_of_ne spec17 c _ _ b hb
/-- Region 17's exit contents read at the TensorCore's references. -/
noncomputable abbrev X17 : (c : Dev nD) → (b : Ref sig .tc) → Buf (Elt F) ((c : Thread nD τ).loc b) := fun c b => B38 m ρ c b
theorem hF17 (c : Dev nD) (w : Fin cfg17.W) : (dat17 (E17 m ρ) c).arrAt w cfg17.N = X17 m ρ c (Pipeline.arrRef spec17 w) :=
  (B38_arr m ρ c w).symm
theorem hrest17 (c : Dev nD) : ∀ b, b ∉ Finset.univ.image (Pipeline.arrRef spec17) → X17 m ρ c b = E17 m ρ c b :=
  fun b hb => B38_of_ne m ρ c b fun w e => hb (Finset.mem_image.mpr ⟨w, Finset.mem_univ _, e⟩)
/-- After the host stretch `hostOps18`. -/
noncomputable abbrev B39 : Dev nD → Valuation τ sig (Elt F) := fun c => StableHlo.after hostOps18 (B38 m ρ c)

/-- Region 18's entry contents read at the TensorCore's references. -/
noncomputable abbrev E18 : (c : Dev nD) → (b : Ref sig .tc) → Buf (Elt F) ((c : Thread nD τ).loc b) := fun c b => B39 m ρ c b
/-- At region 18's exit: its arrays at what the pipeline leaves, every other buffer as entered. -/
noncomputable def B40 (c : Dev nD) : Valuation τ sig (Elt F) :=
  Pipeline.withArrays spec18 c (B39 m ρ c) fun w => (dat18 (E18 m ρ) c).arrAt w cfg18.N
theorem B40_arr (c : Dev nD) (w : Fin cfg18.W) :
    B40 m ρ c (Proc.devRef .tc (Pipeline.arrRef spec18 w)) = (dat18 (E18 m ρ) c).arrAt w cfg18.N := by
  unfold B40; exact Pipeline.withArrays_arr spec18 launch18.win.arr_inj c _ _ w
theorem B40_of_ne (c : Dev nD) (b : Ref sig .tc) (hb : ∀ w, Pipeline.arrRef spec18 w ≠ b) :
    B40 m ρ c (Proc.devRef .tc b) = B39 m ρ c (Proc.devRef .tc b) := by
  unfold B40; exact Pipeline.withArrays_of_ne spec18 c _ _ b hb
/-- Region 18's exit contents read at the TensorCore's references. -/
noncomputable abbrev X18 : (c : Dev nD) → (b : Ref sig .tc) → Buf (Elt F) ((c : Thread nD τ).loc b) := fun c b => B40 m ρ c b
theorem hF18 (c : Dev nD) (w : Fin cfg18.W) : (dat18 (E18 m ρ) c).arrAt w cfg18.N = X18 m ρ c (Pipeline.arrRef spec18 w) :=
  (B40_arr m ρ c w).symm
theorem hrest18 (c : Dev nD) : ∀ b, b ∉ Finset.univ.image (Pipeline.arrRef spec18) → X18 m ρ c b = E18 m ρ c b :=
  fun b hb => B40_of_ne m ρ c b fun w e => hb (Finset.mem_image.mpr ⟨w, Finset.mem_univ _, e⟩)
/-- After the host stretch `hostOps19`. -/
noncomputable abbrev B41 : Dev nD → Valuation τ sig (Elt F) := fun c => StableHlo.after hostOps19 (B40 m ρ c)

/-- Region 19's entry contents read at the TensorCore's references. -/
noncomputable abbrev E19 : (c : Dev nD) → (b : Ref sig .tc) → Buf (Elt F) ((c : Thread nD τ).loc b) := fun c b => B41 m ρ c b
/-- At region 19's exit: its arrays at what the pipeline leaves, every other buffer as entered. -/
noncomputable def B42 (c : Dev nD) : Valuation τ sig (Elt F) :=
  Pipeline.withArrays spec19 c (B41 m ρ c) fun w => (dat19 (E19 m ρ) c).arrAt w cfg19.N
theorem B42_arr (c : Dev nD) (w : Fin cfg19.W) :
    B42 m ρ c (Proc.devRef .tc (Pipeline.arrRef spec19 w)) = (dat19 (E19 m ρ) c).arrAt w cfg19.N := by
  unfold B42; exact Pipeline.withArrays_arr spec19 launch19.win.arr_inj c _ _ w
theorem B42_of_ne (c : Dev nD) (b : Ref sig .tc) (hb : ∀ w, Pipeline.arrRef spec19 w ≠ b) :
    B42 m ρ c (Proc.devRef .tc b) = B41 m ρ c (Proc.devRef .tc b) := by
  unfold B42; exact Pipeline.withArrays_of_ne spec19 c _ _ b hb
/-- Region 19's exit contents read at the TensorCore's references. -/
noncomputable abbrev X19 : (c : Dev nD) → (b : Ref sig .tc) → Buf (Elt F) ((c : Thread nD τ).loc b) := fun c b => B42 m ρ c b
theorem hF19 (c : Dev nD) (w : Fin cfg19.W) : (dat19 (E19 m ρ) c).arrAt w cfg19.N = X19 m ρ c (Pipeline.arrRef spec19 w) :=
  (B42_arr m ρ c w).symm
theorem hrest19 (c : Dev nD) : ∀ b, b ∉ Finset.univ.image (Pipeline.arrRef spec19) → X19 m ρ c b = E19 m ρ c b :=
  fun b hb => B42_of_ne m ρ c b fun w e => hb (Finset.mem_image.mpr ⟨w, Finset.mem_univ _, e⟩)
/-- After the host stretch `hostOps20`. -/
noncomputable abbrev B43 : Dev nD → Valuation τ sig (Elt F) := fun c => StableHlo.after hostOps20 (B42 m ρ c)

/-- Region 20's entry contents read at the TensorCore's references. -/
noncomputable abbrev E20 : (c : Dev nD) → (b : Ref sig .tc) → Buf (Elt F) ((c : Thread nD τ).loc b) := fun c b => B43 m ρ c b
/-- At region 20's exit: its arrays at what the pipeline leaves, every other buffer as entered. -/
noncomputable def B44 (c : Dev nD) : Valuation τ sig (Elt F) :=
  Pipeline.withArrays spec20 c (B43 m ρ c) fun w => (dat20 (E20 m ρ) c).arrAt w cfg20.N
theorem B44_arr (c : Dev nD) (w : Fin cfg20.W) :
    B44 m ρ c (Proc.devRef .tc (Pipeline.arrRef spec20 w)) = (dat20 (E20 m ρ) c).arrAt w cfg20.N := by
  unfold B44; exact Pipeline.withArrays_arr spec20 launch20.win.arr_inj c _ _ w
theorem B44_of_ne (c : Dev nD) (b : Ref sig .tc) (hb : ∀ w, Pipeline.arrRef spec20 w ≠ b) :
    B44 m ρ c (Proc.devRef .tc b) = B43 m ρ c (Proc.devRef .tc b) := by
  unfold B44; exact Pipeline.withArrays_of_ne spec20 c _ _ b hb
/-- Region 20's exit contents read at the TensorCore's references. -/
noncomputable abbrev X20 : (c : Dev nD) → (b : Ref sig .tc) → Buf (Elt F) ((c : Thread nD τ).loc b) := fun c b => B44 m ρ c b
theorem hF20 (c : Dev nD) (w : Fin cfg20.W) : (dat20 (E20 m ρ) c).arrAt w cfg20.N = X20 m ρ c (Pipeline.arrRef spec20 w) :=
  (B44_arr m ρ c w).symm
theorem hrest20 (c : Dev nD) : ∀ b, b ∉ Finset.univ.image (Pipeline.arrRef spec20) → X20 m ρ c b = E20 m ρ c b :=
  fun b hb => B44_of_ne m ρ c b fun w e => hb (Finset.mem_image.mpr ⟨w, Finset.mem_univ _, e⟩)
/-- After the host stretch `hostOps21`. -/
noncomputable abbrev B45 : Dev nD → Valuation τ sig (Elt F) := fun c => StableHlo.after hostOps21 (B44 m ρ c)

/-- Region 21's entry contents read at the TensorCore's references. -/
noncomputable abbrev E21 : (c : Dev nD) → (b : Ref sig .tc) → Buf (Elt F) ((c : Thread nD τ).loc b) := fun c b => B45 m ρ c b
/-- At region 21's exit: its arrays at what the pipeline leaves, every other buffer as entered. -/
noncomputable def B46 (c : Dev nD) : Valuation τ sig (Elt F) :=
  Pipeline.withArrays spec21 c (B45 m ρ c) fun w => (dat21 (E21 m ρ) c).arrAt w cfg21.N
theorem B46_arr (c : Dev nD) (w : Fin cfg21.W) :
    B46 m ρ c (Proc.devRef .tc (Pipeline.arrRef spec21 w)) = (dat21 (E21 m ρ) c).arrAt w cfg21.N := by
  unfold B46; exact Pipeline.withArrays_arr spec21 launch21.win.arr_inj c _ _ w
theorem B46_of_ne (c : Dev nD) (b : Ref sig .tc) (hb : ∀ w, Pipeline.arrRef spec21 w ≠ b) :
    B46 m ρ c (Proc.devRef .tc b) = B45 m ρ c (Proc.devRef .tc b) := by
  unfold B46; exact Pipeline.withArrays_of_ne spec21 c _ _ b hb
/-- Region 21's exit contents read at the TensorCore's references. -/
noncomputable abbrev X21 : (c : Dev nD) → (b : Ref sig .tc) → Buf (Elt F) ((c : Thread nD τ).loc b) := fun c b => B46 m ρ c b
theorem hF21 (c : Dev nD) (w : Fin cfg21.W) : (dat21 (E21 m ρ) c).arrAt w cfg21.N = X21 m ρ c (Pipeline.arrRef spec21 w) :=
  (B46_arr m ρ c w).symm
theorem hrest21 (c : Dev nD) : ∀ b, b ∉ Finset.univ.image (Pipeline.arrRef spec21) → X21 m ρ c b = E21 m ρ c b :=
  fun b hb => B46_of_ne m ρ c b fun w e => hb (Finset.mem_image.mpr ⟨w, Finset.mem_univ _, e⟩)
/-- After the host stretch `hostOps22`. -/
noncomputable abbrev B47 : Dev nD → Valuation τ sig (Elt F) := fun c => StableHlo.after hostOps22 (B46 m ρ c)

/-- Region 22's entry contents read at the TensorCore's references. -/
noncomputable abbrev E22 : (c : Dev nD) → (b : Ref sig .tc) → Buf (Elt F) ((c : Thread nD τ).loc b) := fun c b => B47 m ρ c b
/-- At region 22's exit: its arrays at what the pipeline leaves, every other buffer as entered. -/
noncomputable def B48 (c : Dev nD) : Valuation τ sig (Elt F) :=
  Pipeline.withArrays spec22 c (B47 m ρ c) fun w => (dat22 (E22 m ρ) c).arrAt w cfg22.N
theorem B48_arr (c : Dev nD) (w : Fin cfg22.W) :
    B48 m ρ c (Proc.devRef .tc (Pipeline.arrRef spec22 w)) = (dat22 (E22 m ρ) c).arrAt w cfg22.N := by
  unfold B48; exact Pipeline.withArrays_arr spec22 launch22.win.arr_inj c _ _ w
theorem B48_of_ne (c : Dev nD) (b : Ref sig .tc) (hb : ∀ w, Pipeline.arrRef spec22 w ≠ b) :
    B48 m ρ c (Proc.devRef .tc b) = B47 m ρ c (Proc.devRef .tc b) := by
  unfold B48; exact Pipeline.withArrays_of_ne spec22 c _ _ b hb
/-- Region 22's exit contents read at the TensorCore's references. -/
noncomputable abbrev X22 : (c : Dev nD) → (b : Ref sig .tc) → Buf (Elt F) ((c : Thread nD τ).loc b) := fun c b => B48 m ρ c b
theorem hF22 (c : Dev nD) (w : Fin cfg22.W) : (dat22 (E22 m ρ) c).arrAt w cfg22.N = X22 m ρ c (Pipeline.arrRef spec22 w) :=
  (B48_arr m ρ c w).symm
theorem hrest22 (c : Dev nD) : ∀ b, b ∉ Finset.univ.image (Pipeline.arrRef spec22) → X22 m ρ c b = E22 m ρ c b :=
  fun b hb => B48_of_ne m ρ c b fun w e => hb (Finset.mem_image.mpr ⟨w, Finset.mem_univ _, e⟩)
/-- After the host stretch `hostOps23`. -/
noncomputable abbrev B49 : Dev nD → Valuation τ sig (Elt F) := fun c => StableHlo.after hostOps23 (B48 m ρ c)

/-- Region 23's entry contents read at the TensorCore's references. -/
noncomputable abbrev E23 : (c : Dev nD) → (b : Ref sig .tc) → Buf (Elt F) ((c : Thread nD τ).loc b) := fun c b => B49 m ρ c b
/-- At region 23's exit: its arrays at what the pipeline leaves, every other buffer as entered. -/
noncomputable def B50 (c : Dev nD) : Valuation τ sig (Elt F) :=
  Pipeline.withArrays spec23 c (B49 m ρ c) fun w => (dat23 (E23 m ρ) c).arrAt w cfg23.N
theorem B50_arr (c : Dev nD) (w : Fin cfg23.W) :
    B50 m ρ c (Proc.devRef .tc (Pipeline.arrRef spec23 w)) = (dat23 (E23 m ρ) c).arrAt w cfg23.N := by
  unfold B50; exact Pipeline.withArrays_arr spec23 launch23.win.arr_inj c _ _ w
theorem B50_of_ne (c : Dev nD) (b : Ref sig .tc) (hb : ∀ w, Pipeline.arrRef spec23 w ≠ b) :
    B50 m ρ c (Proc.devRef .tc b) = B49 m ρ c (Proc.devRef .tc b) := by
  unfold B50; exact Pipeline.withArrays_of_ne spec23 c _ _ b hb
/-- Region 23's exit contents read at the TensorCore's references. -/
noncomputable abbrev X23 : (c : Dev nD) → (b : Ref sig .tc) → Buf (Elt F) ((c : Thread nD τ).loc b) := fun c b => B50 m ρ c b
theorem hF23 (c : Dev nD) (w : Fin cfg23.W) : (dat23 (E23 m ρ) c).arrAt w cfg23.N = X23 m ρ c (Pipeline.arrRef spec23 w) :=
  (B50_arr m ρ c w).symm
theorem hrest23 (c : Dev nD) : ∀ b, b ∉ Finset.univ.image (Pipeline.arrRef spec23) → X23 m ρ c b = E23 m ρ c b :=
  fun b hb => B50_of_ne m ρ c b fun w e => hb (Finset.mem_image.mpr ⟨w, Finset.mem_univ _, e⟩)
/-- After the host stretch `hostOps24`. -/
noncomputable abbrev B51 : Dev nD → Valuation τ sig (Elt F) := fun c => StableHlo.after hostOps24 (B50 m ρ c)

/-- Region 24's entry contents read at the TensorCore's references. -/
noncomputable abbrev E24 : (c : Dev nD) → (b : Ref sig .tc) → Buf (Elt F) ((c : Thread nD τ).loc b) := fun c b => B51 m ρ c b
/-- At region 24's exit: its arrays at what the pipeline leaves, every other buffer as entered. -/
noncomputable def B52 (c : Dev nD) : Valuation τ sig (Elt F) :=
  Pipeline.withArrays spec24 c (B51 m ρ c) fun w => (dat24 (E24 m ρ) c).arrAt w cfg24.N
theorem B52_arr (c : Dev nD) (w : Fin cfg24.W) :
    B52 m ρ c (Proc.devRef .tc (Pipeline.arrRef spec24 w)) = (dat24 (E24 m ρ) c).arrAt w cfg24.N := by
  unfold B52; exact Pipeline.withArrays_arr spec24 launch24.win.arr_inj c _ _ w
theorem B52_of_ne (c : Dev nD) (b : Ref sig .tc) (hb : ∀ w, Pipeline.arrRef spec24 w ≠ b) :
    B52 m ρ c (Proc.devRef .tc b) = B51 m ρ c (Proc.devRef .tc b) := by
  unfold B52; exact Pipeline.withArrays_of_ne spec24 c _ _ b hb
/-- Region 24's exit contents read at the TensorCore's references. -/
noncomputable abbrev X24 : (c : Dev nD) → (b : Ref sig .tc) → Buf (Elt F) ((c : Thread nD τ).loc b) := fun c b => B52 m ρ c b
theorem hF24 (c : Dev nD) (w : Fin cfg24.W) : (dat24 (E24 m ρ) c).arrAt w cfg24.N = X24 m ρ c (Pipeline.arrRef spec24 w) :=
  (B52_arr m ρ c w).symm
theorem hrest24 (c : Dev nD) : ∀ b, b ∉ Finset.univ.image (Pipeline.arrRef spec24) → X24 m ρ c b = E24 m ρ c b :=
  fun b hb => B52_of_ne m ρ c b fun w e => hb (Finset.mem_image.mpr ⟨w, Finset.mem_univ _, e⟩)
/-- After the host stretch `hostOps25`. -/
noncomputable abbrev B53 : Dev nD → Valuation τ sig (Elt F) := fun c => StableHlo.after hostOps25 (B52 m ρ c)

/-- Region 25's entry contents read at the TensorCore's references. -/
noncomputable abbrev E25 : (c : Dev nD) → (b : Ref sig .tc) → Buf (Elt F) ((c : Thread nD τ).loc b) := fun c b => B53 m ρ c b
/-- At region 25's exit: its arrays at what the pipeline leaves, every other buffer as entered. -/
noncomputable def B54 (c : Dev nD) : Valuation τ sig (Elt F) :=
  Pipeline.withArrays spec25 c (B53 m ρ c) fun w => (dat25 (E25 m ρ) c).arrAt w cfg25.N
theorem B54_arr (c : Dev nD) (w : Fin cfg25.W) :
    B54 m ρ c (Proc.devRef .tc (Pipeline.arrRef spec25 w)) = (dat25 (E25 m ρ) c).arrAt w cfg25.N := by
  unfold B54; exact Pipeline.withArrays_arr spec25 launch25.win.arr_inj c _ _ w
theorem B54_of_ne (c : Dev nD) (b : Ref sig .tc) (hb : ∀ w, Pipeline.arrRef spec25 w ≠ b) :
    B54 m ρ c (Proc.devRef .tc b) = B53 m ρ c (Proc.devRef .tc b) := by
  unfold B54; exact Pipeline.withArrays_of_ne spec25 c _ _ b hb
/-- Region 25's exit contents read at the TensorCore's references. -/
noncomputable abbrev X25 : (c : Dev nD) → (b : Ref sig .tc) → Buf (Elt F) ((c : Thread nD τ).loc b) := fun c b => B54 m ρ c b
theorem hF25 (c : Dev nD) (w : Fin cfg25.W) : (dat25 (E25 m ρ) c).arrAt w cfg25.N = X25 m ρ c (Pipeline.arrRef spec25 w) :=
  (B54_arr m ρ c w).symm
theorem hrest25 (c : Dev nD) : ∀ b, b ∉ Finset.univ.image (Pipeline.arrRef spec25) → X25 m ρ c b = E25 m ρ c b :=
  fun b hb => B54_of_ne m ρ c b fun w e => hb (Finset.mem_image.mpr ⟨w, Finset.mem_univ _, e⟩)
/-- After the host stretch `hostOps26`. -/
noncomputable abbrev B55 : Dev nD → Valuation τ sig (Elt F) := fun c => StableHlo.after hostOps26 (B54 m ρ c)

/-- Region 26's entry contents read at the TensorCore's references. -/
noncomputable abbrev E26 : (c : Dev nD) → (b : Ref sig .tc) → Buf (Elt F) ((c : Thread nD τ).loc b) := fun c b => B55 m ρ c b
/-- At region 26's exit: its arrays at what the pipeline leaves, every other buffer as entered. -/
noncomputable def B56 (c : Dev nD) : Valuation τ sig (Elt F) :=
  Pipeline.withArrays spec26 c (B55 m ρ c) fun w => (dat26 (E26 m ρ) c).arrAt w cfg26.N
theorem B56_arr (c : Dev nD) (w : Fin cfg26.W) :
    B56 m ρ c (Proc.devRef .tc (Pipeline.arrRef spec26 w)) = (dat26 (E26 m ρ) c).arrAt w cfg26.N := by
  unfold B56; exact Pipeline.withArrays_arr spec26 launch26.win.arr_inj c _ _ w
theorem B56_of_ne (c : Dev nD) (b : Ref sig .tc) (hb : ∀ w, Pipeline.arrRef spec26 w ≠ b) :
    B56 m ρ c (Proc.devRef .tc b) = B55 m ρ c (Proc.devRef .tc b) := by
  unfold B56; exact Pipeline.withArrays_of_ne spec26 c _ _ b hb
/-- Region 26's exit contents read at the TensorCore's references. -/
noncomputable abbrev X26 : (c : Dev nD) → (b : Ref sig .tc) → Buf (Elt F) ((c : Thread nD τ).loc b) := fun c b => B56 m ρ c b
theorem hF26 (c : Dev nD) (w : Fin cfg26.W) : (dat26 (E26 m ρ) c).arrAt w cfg26.N = X26 m ρ c (Pipeline.arrRef spec26 w) :=
  (B56_arr m ρ c w).symm
theorem hrest26 (c : Dev nD) : ∀ b, b ∉ Finset.univ.image (Pipeline.arrRef spec26) → X26 m ρ c b = E26 m ρ c b :=
  fun b hb => B56_of_ne m ρ c b fun w e => hb (Finset.mem_image.mpr ⟨w, Finset.mem_univ _, e⟩)
/-- After the host stretch `hostOps27`. -/
noncomputable abbrev B57 : Dev nD → Valuation τ sig (Elt F) := fun c => StableHlo.after hostOps27 (B56 m ρ c)

/-- Region 27's entry contents read at the TensorCore's references. -/
noncomputable abbrev E27 : (c : Dev nD) → (b : Ref sig .tc) → Buf (Elt F) ((c : Thread nD τ).loc b) := fun c b => B57 m ρ c b
/-- At region 27's exit: its arrays at what the pipeline leaves, every other buffer as entered. -/
noncomputable def B58 (c : Dev nD) : Valuation τ sig (Elt F) :=
  Pipeline.withArrays spec27 c (B57 m ρ c) fun w => (dat27 (E27 m ρ) c).arrAt w cfg27.N
theorem B58_arr (c : Dev nD) (w : Fin cfg27.W) :
    B58 m ρ c (Proc.devRef .tc (Pipeline.arrRef spec27 w)) = (dat27 (E27 m ρ) c).arrAt w cfg27.N := by
  unfold B58; exact Pipeline.withArrays_arr spec27 launch27.win.arr_inj c _ _ w
theorem B58_of_ne (c : Dev nD) (b : Ref sig .tc) (hb : ∀ w, Pipeline.arrRef spec27 w ≠ b) :
    B58 m ρ c (Proc.devRef .tc b) = B57 m ρ c (Proc.devRef .tc b) := by
  unfold B58; exact Pipeline.withArrays_of_ne spec27 c _ _ b hb
/-- Region 27's exit contents read at the TensorCore's references. -/
noncomputable abbrev X27 : (c : Dev nD) → (b : Ref sig .tc) → Buf (Elt F) ((c : Thread nD τ).loc b) := fun c b => B58 m ρ c b
theorem hF27 (c : Dev nD) (w : Fin cfg27.W) : (dat27 (E27 m ρ) c).arrAt w cfg27.N = X27 m ρ c (Pipeline.arrRef spec27 w) :=
  (B58_arr m ρ c w).symm
theorem hrest27 (c : Dev nD) : ∀ b, b ∉ Finset.univ.image (Pipeline.arrRef spec27) → X27 m ρ c b = E27 m ρ c b :=
  fun b hb => B58_of_ne m ρ c b fun w e => hb (Finset.mem_image.mpr ⟨w, Finset.mem_univ _, e⟩)
/-- After the host stretch `hostOps28`. -/
noncomputable abbrev B59 : Dev nD → Valuation τ sig (Elt F) := fun c => StableHlo.after hostOps28 (B58 m ρ c)

/-- Region 28's entry contents read at the TensorCore's references. -/
noncomputable abbrev E28 : (c : Dev nD) → (b : Ref sig .tc) → Buf (Elt F) ((c : Thread nD τ).loc b) := fun c b => B59 m ρ c b
/-- At region 28's exit: its arrays at what the pipeline leaves, every other buffer as entered. -/
noncomputable def B60 (c : Dev nD) : Valuation τ sig (Elt F) :=
  Pipeline.withArrays spec28 c (B59 m ρ c) fun w => (dat28 (E28 m ρ) c).arrAt w cfg28.N
theorem B60_arr (c : Dev nD) (w : Fin cfg28.W) :
    B60 m ρ c (Proc.devRef .tc (Pipeline.arrRef spec28 w)) = (dat28 (E28 m ρ) c).arrAt w cfg28.N := by
  unfold B60; exact Pipeline.withArrays_arr spec28 launch28.win.arr_inj c _ _ w
theorem B60_of_ne (c : Dev nD) (b : Ref sig .tc) (hb : ∀ w, Pipeline.arrRef spec28 w ≠ b) :
    B60 m ρ c (Proc.devRef .tc b) = B59 m ρ c (Proc.devRef .tc b) := by
  unfold B60; exact Pipeline.withArrays_of_ne spec28 c _ _ b hb
/-- Region 28's exit contents read at the TensorCore's references. -/
noncomputable abbrev X28 : (c : Dev nD) → (b : Ref sig .tc) → Buf (Elt F) ((c : Thread nD τ).loc b) := fun c b => B60 m ρ c b
theorem hF28 (c : Dev nD) (w : Fin cfg28.W) : (dat28 (E28 m ρ) c).arrAt w cfg28.N = X28 m ρ c (Pipeline.arrRef spec28 w) :=
  (B60_arr m ρ c w).symm
theorem hrest28 (c : Dev nD) : ∀ b, b ∉ Finset.univ.image (Pipeline.arrRef spec28) → X28 m ρ c b = E28 m ρ c b :=
  fun b hb => B60_of_ne m ρ c b fun w e => hb (Finset.mem_image.mpr ⟨w, Finset.mem_univ _, e⟩)
/-- After the host stretch `hostOps29`. -/
noncomputable abbrev B61 : Dev nD → Valuation τ sig (Elt F) := fun c => StableHlo.after hostOps29 (B60 m ρ c)

/-- Region 29's entry contents read at the TensorCore's references. -/
noncomputable abbrev E29 : (c : Dev nD) → (b : Ref sig .tc) → Buf (Elt F) ((c : Thread nD τ).loc b) := fun c b => B61 m ρ c b
/-- At region 29's exit: its arrays at what the pipeline leaves, every other buffer as entered. -/
noncomputable def B62 (c : Dev nD) : Valuation τ sig (Elt F) :=
  Pipeline.withArrays spec29 c (B61 m ρ c) fun w => (dat29 (E29 m ρ) c).arrAt w cfg29.N
theorem B62_arr (c : Dev nD) (w : Fin cfg29.W) :
    B62 m ρ c (Proc.devRef .tc (Pipeline.arrRef spec29 w)) = (dat29 (E29 m ρ) c).arrAt w cfg29.N := by
  unfold B62; exact Pipeline.withArrays_arr spec29 launch29.win.arr_inj c _ _ w
theorem B62_of_ne (c : Dev nD) (b : Ref sig .tc) (hb : ∀ w, Pipeline.arrRef spec29 w ≠ b) :
    B62 m ρ c (Proc.devRef .tc b) = B61 m ρ c (Proc.devRef .tc b) := by
  unfold B62; exact Pipeline.withArrays_of_ne spec29 c _ _ b hb
/-- Region 29's exit contents read at the TensorCore's references. -/
noncomputable abbrev X29 : (c : Dev nD) → (b : Ref sig .tc) → Buf (Elt F) ((c : Thread nD τ).loc b) := fun c b => B62 m ρ c b
theorem hF29 (c : Dev nD) (w : Fin cfg29.W) : (dat29 (E29 m ρ) c).arrAt w cfg29.N = X29 m ρ c (Pipeline.arrRef spec29 w) :=
  (B62_arr m ρ c w).symm
theorem hrest29 (c : Dev nD) : ∀ b, b ∉ Finset.univ.image (Pipeline.arrRef spec29) → X29 m ρ c b = E29 m ρ c b :=
  fun b hb => B62_of_ne m ρ c b fun w e => hb (Finset.mem_image.mpr ⟨w, Finset.mem_univ _, e⟩)
/-- After the host stretch `hostOps30`. -/
noncomputable abbrev B63 : Dev nD → Valuation τ sig (Elt F) := fun c => StableHlo.after hostOps30 (B62 m ρ c)

/-- Region 30's entry contents read at the TensorCore's references. -/
noncomputable abbrev E30 : (c : Dev nD) → (b : Ref sig .tc) → Buf (Elt F) ((c : Thread nD τ).loc b) := fun c b => B63 m ρ c b
/-- At region 30's exit: its arrays at what the pipeline leaves, every other buffer as entered. -/
noncomputable def B64 (c : Dev nD) : Valuation τ sig (Elt F) :=
  Pipeline.withArrays spec30 c (B63 m ρ c) fun w => (dat30 (E30 m ρ) c).arrAt w cfg30.N
theorem B64_arr (c : Dev nD) (w : Fin cfg30.W) :
    B64 m ρ c (Proc.devRef .tc (Pipeline.arrRef spec30 w)) = (dat30 (E30 m ρ) c).arrAt w cfg30.N := by
  unfold B64; exact Pipeline.withArrays_arr spec30 launch30.win.arr_inj c _ _ w
theorem B64_of_ne (c : Dev nD) (b : Ref sig .tc) (hb : ∀ w, Pipeline.arrRef spec30 w ≠ b) :
    B64 m ρ c (Proc.devRef .tc b) = B63 m ρ c (Proc.devRef .tc b) := by
  unfold B64; exact Pipeline.withArrays_of_ne spec30 c _ _ b hb
/-- Region 30's exit contents read at the TensorCore's references. -/
noncomputable abbrev X30 : (c : Dev nD) → (b : Ref sig .tc) → Buf (Elt F) ((c : Thread nD τ).loc b) := fun c b => B64 m ρ c b
theorem hF30 (c : Dev nD) (w : Fin cfg30.W) : (dat30 (E30 m ρ) c).arrAt w cfg30.N = X30 m ρ c (Pipeline.arrRef spec30 w) :=
  (B64_arr m ρ c w).symm
theorem hrest30 (c : Dev nD) : ∀ b, b ∉ Finset.univ.image (Pipeline.arrRef spec30) → X30 m ρ c b = E30 m ρ c b :=
  fun b hb => B64_of_ne m ρ c b fun w e => hb (Finset.mem_image.mpr ⟨w, Finset.mem_univ _, e⟩)
/-- After the host stretch `hostOps31`. -/
noncomputable abbrev B65 : Dev nD → Valuation τ sig (Elt F) := fun c => StableHlo.after hostOps31 (B64 m ρ c)

/-- Region 31's entry contents read at the TensorCore's references. -/
noncomputable abbrev E31 : (c : Dev nD) → (b : Ref sig .tc) → Buf (Elt F) ((c : Thread nD τ).loc b) := fun c b => B65 m ρ c b
/-- At region 31's exit: its arrays at what the pipeline leaves, every other buffer as entered. -/
noncomputable def B66 (c : Dev nD) : Valuation τ sig (Elt F) :=
  Pipeline.withArrays spec31 c (B65 m ρ c) fun w => (dat31 (E31 m ρ) c).arrAt w cfg31.N
theorem B66_arr (c : Dev nD) (w : Fin cfg31.W) :
    B66 m ρ c (Proc.devRef .tc (Pipeline.arrRef spec31 w)) = (dat31 (E31 m ρ) c).arrAt w cfg31.N := by
  unfold B66; exact Pipeline.withArrays_arr spec31 launch31.win.arr_inj c _ _ w
theorem B66_of_ne (c : Dev nD) (b : Ref sig .tc) (hb : ∀ w, Pipeline.arrRef spec31 w ≠ b) :
    B66 m ρ c (Proc.devRef .tc b) = B65 m ρ c (Proc.devRef .tc b) := by
  unfold B66; exact Pipeline.withArrays_of_ne spec31 c _ _ b hb
/-- Region 31's exit contents read at the TensorCore's references. -/
noncomputable abbrev X31 : (c : Dev nD) → (b : Ref sig .tc) → Buf (Elt F) ((c : Thread nD τ).loc b) := fun c b => B66 m ρ c b
theorem hF31 (c : Dev nD) (w : Fin cfg31.W) : (dat31 (E31 m ρ) c).arrAt w cfg31.N = X31 m ρ c (Pipeline.arrRef spec31 w) :=
  (B66_arr m ρ c w).symm
theorem hrest31 (c : Dev nD) : ∀ b, b ∉ Finset.univ.image (Pipeline.arrRef spec31) → X31 m ρ c b = E31 m ρ c b :=
  fun b hb => B66_of_ne m ρ c b fun w e => hb (Finset.mem_image.mpr ⟨w, Finset.mem_univ _, e⟩)
/-- After the host stretch `hostOps32`. -/
noncomputable abbrev B67 : Dev nD → Valuation τ sig (Elt F) := fun c => StableHlo.after hostOps32 (B66 m ρ c)

/-- Region 32's entry contents read at the TensorCore's references. -/
noncomputable abbrev E32 : (c : Dev nD) → (b : Ref sig .tc) → Buf (Elt F) ((c : Thread nD τ).loc b) := fun c b => B67 m ρ c b
/-- At region 32's exit: its arrays at what the pipeline leaves, every other buffer as entered. -/
noncomputable def B68 (c : Dev nD) : Valuation τ sig (Elt F) :=
  Pipeline.withArrays spec32 c (B67 m ρ c) fun w => (dat32 (E32 m ρ) c).arrAt w cfg32.N
theorem B68_arr (c : Dev nD) (w : Fin cfg32.W) :
    B68 m ρ c (Proc.devRef .tc (Pipeline.arrRef spec32 w)) = (dat32 (E32 m ρ) c).arrAt w cfg32.N := by
  unfold B68; exact Pipeline.withArrays_arr spec32 launch32.win.arr_inj c _ _ w
theorem B68_of_ne (c : Dev nD) (b : Ref sig .tc) (hb : ∀ w, Pipeline.arrRef spec32 w ≠ b) :
    B68 m ρ c (Proc.devRef .tc b) = B67 m ρ c (Proc.devRef .tc b) := by
  unfold B68; exact Pipeline.withArrays_of_ne spec32 c _ _ b hb
/-- Region 32's exit contents read at the TensorCore's references. -/
noncomputable abbrev X32 : (c : Dev nD) → (b : Ref sig .tc) → Buf (Elt F) ((c : Thread nD τ).loc b) := fun c b => B68 m ρ c b
theorem hF32 (c : Dev nD) (w : Fin cfg32.W) : (dat32 (E32 m ρ) c).arrAt w cfg32.N = X32 m ρ c (Pipeline.arrRef spec32 w) :=
  (B68_arr m ρ c w).symm
theorem hrest32 (c : Dev nD) : ∀ b, b ∉ Finset.univ.image (Pipeline.arrRef spec32) → X32 m ρ c b = E32 m ρ c b :=
  fun b hb => B68_of_ne m ρ c b fun w e => hb (Finset.mem_image.mpr ⟨w, Finset.mem_univ _, e⟩)
/-- After the host stretch `hostOps33`. -/
noncomputable abbrev B69 : Dev nD → Valuation τ sig (Elt F) := fun c => StableHlo.after hostOps33 (B68 m ρ c)

/-- Region 33's entry contents read at the TensorCore's references. -/
noncomputable abbrev E33 : (c : Dev nD) → (b : Ref sig .tc) → Buf (Elt F) ((c : Thread nD τ).loc b) := fun c b => B69 m ρ c b
/-- At region 33's exit: its arrays at what the pipeline leaves, every other buffer as entered. -/
noncomputable def B70 (c : Dev nD) : Valuation τ sig (Elt F) :=
  Pipeline.withArrays spec33 c (B69 m ρ c) fun w => (dat33 (E33 m ρ) c).arrAt w cfg33.N
theorem B70_arr (c : Dev nD) (w : Fin cfg33.W) :
    B70 m ρ c (Proc.devRef .tc (Pipeline.arrRef spec33 w)) = (dat33 (E33 m ρ) c).arrAt w cfg33.N := by
  unfold B70; exact Pipeline.withArrays_arr spec33 launch33.win.arr_inj c _ _ w
theorem B70_of_ne (c : Dev nD) (b : Ref sig .tc) (hb : ∀ w, Pipeline.arrRef spec33 w ≠ b) :
    B70 m ρ c (Proc.devRef .tc b) = B69 m ρ c (Proc.devRef .tc b) := by
  unfold B70; exact Pipeline.withArrays_of_ne spec33 c _ _ b hb
/-- Region 33's exit contents read at the TensorCore's references. -/
noncomputable abbrev X33 : (c : Dev nD) → (b : Ref sig .tc) → Buf (Elt F) ((c : Thread nD τ).loc b) := fun c b => B70 m ρ c b
theorem hF33 (c : Dev nD) (w : Fin cfg33.W) : (dat33 (E33 m ρ) c).arrAt w cfg33.N = X33 m ρ c (Pipeline.arrRef spec33 w) :=
  (B70_arr m ρ c w).symm
theorem hrest33 (c : Dev nD) : ∀ b, b ∉ Finset.univ.image (Pipeline.arrRef spec33) → X33 m ρ c b = E33 m ρ c b :=
  fun b hb => B70_of_ne m ρ c b fun w e => hb (Finset.mem_image.mpr ⟨w, Finset.mem_univ _, e⟩)
/-- After the host stretch `hostOps34`. -/
noncomputable abbrev B71 : Dev nD → Valuation τ sig (Elt F) := fun c => StableHlo.after hostOps34 (B70 m ρ c)

/-- Region 34's entry contents read at the TensorCore's references. -/
noncomputable abbrev E34 : (c : Dev nD) → (b : Ref sig .tc) → Buf (Elt F) ((c : Thread nD τ).loc b) := fun c b => B71 m ρ c b
/-- At region 34's exit: its arrays at what the pipeline leaves, every other buffer as entered. -/
noncomputable def B72 (c : Dev nD) : Valuation τ sig (Elt F) :=
  Pipeline.withArrays spec34 c (B71 m ρ c) fun w => (dat34 (E34 m ρ) c).arrAt w cfg34.N
theorem B72_arr (c : Dev nD) (w : Fin cfg34.W) :
    B72 m ρ c (Proc.devRef .tc (Pipeline.arrRef spec34 w)) = (dat34 (E34 m ρ) c).arrAt w cfg34.N := by
  unfold B72; exact Pipeline.withArrays_arr spec34 launch34.win.arr_inj c _ _ w
theorem B72_of_ne (c : Dev nD) (b : Ref sig .tc) (hb : ∀ w, Pipeline.arrRef spec34 w ≠ b) :
    B72 m ρ c (Proc.devRef .tc b) = B71 m ρ c (Proc.devRef .tc b) := by
  unfold B72; exact Pipeline.withArrays_of_ne spec34 c _ _ b hb
/-- Region 34's exit contents read at the TensorCore's references. -/
noncomputable abbrev X34 : (c : Dev nD) → (b : Ref sig .tc) → Buf (Elt F) ((c : Thread nD τ).loc b) := fun c b => B72 m ρ c b
theorem hF34 (c : Dev nD) (w : Fin cfg34.W) : (dat34 (E34 m ρ) c).arrAt w cfg34.N = X34 m ρ c (Pipeline.arrRef spec34 w) :=
  (B72_arr m ρ c w).symm
theorem hrest34 (c : Dev nD) : ∀ b, b ∉ Finset.univ.image (Pipeline.arrRef spec34) → X34 m ρ c b = E34 m ρ c b :=
  fun b hb => B72_of_ne m ρ c b fun w e => hb (Finset.mem_image.mpr ⟨w, Finset.mem_univ _, e⟩)
/-- After the host stretch `hostOps35`. -/
noncomputable abbrev B73 : Dev nD → Valuation τ sig (Elt F) := fun c => StableHlo.after hostOps35 (B72 m ρ c)

/-- Region 35's entry contents read at the TensorCore's references. -/
noncomputable abbrev E35 : (c : Dev nD) → (b : Ref sig .tc) → Buf (Elt F) ((c : Thread nD τ).loc b) := fun c b => B73 m ρ c b
/-- At region 35's exit: its arrays at what the pipeline leaves, every other buffer as entered. -/
noncomputable def B74 (c : Dev nD) : Valuation τ sig (Elt F) :=
  Pipeline.withArrays spec35 c (B73 m ρ c) fun w => (dat35 (E35 m ρ) c).arrAt w cfg35.N
theorem B74_arr (c : Dev nD) (w : Fin cfg35.W) :
    B74 m ρ c (Proc.devRef .tc (Pipeline.arrRef spec35 w)) = (dat35 (E35 m ρ) c).arrAt w cfg35.N := by
  unfold B74; exact Pipeline.withArrays_arr spec35 launch35.win.arr_inj c _ _ w
theorem B74_of_ne (c : Dev nD) (b : Ref sig .tc) (hb : ∀ w, Pipeline.arrRef spec35 w ≠ b) :
    B74 m ρ c (Proc.devRef .tc b) = B73 m ρ c (Proc.devRef .tc b) := by
  unfold B74; exact Pipeline.withArrays_of_ne spec35 c _ _ b hb
/-- Region 35's exit contents read at the TensorCore's references. -/
noncomputable abbrev X35 : (c : Dev nD) → (b : Ref sig .tc) → Buf (Elt F) ((c : Thread nD τ).loc b) := fun c b => B74 m ρ c b
theorem hF35 (c : Dev nD) (w : Fin cfg35.W) : (dat35 (E35 m ρ) c).arrAt w cfg35.N = X35 m ρ c (Pipeline.arrRef spec35 w) :=
  (B74_arr m ρ c w).symm
theorem hrest35 (c : Dev nD) : ∀ b, b ∉ Finset.univ.image (Pipeline.arrRef spec35) → X35 m ρ c b = E35 m ρ c b :=
  fun b hb => B74_of_ne m ρ c b fun w e => hb (Finset.mem_image.mpr ⟨w, Finset.mem_univ _, e⟩)
/-- After the host stretch `hostOps36`. -/
noncomputable abbrev B75 : Dev nD → Valuation τ sig (Elt F) := fun c => StableHlo.after hostOps36 (B74 m ρ c)

/-- Region 36's entry contents read at the TensorCore's references. -/
noncomputable abbrev E36 : (c : Dev nD) → (b : Ref sig .tc) → Buf (Elt F) ((c : Thread nD τ).loc b) := fun c b => B75 m ρ c b
/-- At region 36's exit: its arrays at what the pipeline leaves, every other buffer as entered. -/
noncomputable def B76 (c : Dev nD) : Valuation τ sig (Elt F) :=
  Pipeline.withArrays spec36 c (B75 m ρ c) fun w => (dat36 (E36 m ρ) c).arrAt w cfg36.N
theorem B76_arr (c : Dev nD) (w : Fin cfg36.W) :
    B76 m ρ c (Proc.devRef .tc (Pipeline.arrRef spec36 w)) = (dat36 (E36 m ρ) c).arrAt w cfg36.N := by
  unfold B76; exact Pipeline.withArrays_arr spec36 launch36.win.arr_inj c _ _ w
theorem B76_of_ne (c : Dev nD) (b : Ref sig .tc) (hb : ∀ w, Pipeline.arrRef spec36 w ≠ b) :
    B76 m ρ c (Proc.devRef .tc b) = B75 m ρ c (Proc.devRef .tc b) := by
  unfold B76; exact Pipeline.withArrays_of_ne spec36 c _ _ b hb
/-- Region 36's exit contents read at the TensorCore's references. -/
noncomputable abbrev X36 : (c : Dev nD) → (b : Ref sig .tc) → Buf (Elt F) ((c : Thread nD τ).loc b) := fun c b => B76 m ρ c b
theorem hF36 (c : Dev nD) (w : Fin cfg36.W) : (dat36 (E36 m ρ) c).arrAt w cfg36.N = X36 m ρ c (Pipeline.arrRef spec36 w) :=
  (B76_arr m ρ c w).symm
theorem hrest36 (c : Dev nD) : ∀ b, b ∉ Finset.univ.image (Pipeline.arrRef spec36) → X36 m ρ c b = E36 m ρ c b :=
  fun b hb => B76_of_ne m ρ c b fun w e => hb (Finset.mem_image.mpr ⟨w, Finset.mem_univ _, e⟩)
/-- After the host stretch `hostOps37`. -/
noncomputable abbrev B77 : Dev nD → Valuation τ sig (Elt F) := fun c => StableHlo.after hostOps37 (B76 m ρ c)

/-- Region 37's entry contents read at the TensorCore's references. -/
noncomputable abbrev E37 : (c : Dev nD) → (b : Ref sig .tc) → Buf (Elt F) ((c : Thread nD τ).loc b) := fun c b => B77 m ρ c b
/-- At region 37's exit: its arrays at what the pipeline leaves, every other buffer as entered. -/
noncomputable def B78 (c : Dev nD) : Valuation τ sig (Elt F) :=
  Pipeline.withArrays spec37 c (B77 m ρ c) fun w => (dat37 (E37 m ρ) c).arrAt w cfg37.N
theorem B78_arr (c : Dev nD) (w : Fin cfg37.W) :
    B78 m ρ c (Proc.devRef .tc (Pipeline.arrRef spec37 w)) = (dat37 (E37 m ρ) c).arrAt w cfg37.N := by
  unfold B78; exact Pipeline.withArrays_arr spec37 launch37.win.arr_inj c _ _ w
theorem B78_of_ne (c : Dev nD) (b : Ref sig .tc) (hb : ∀ w, Pipeline.arrRef spec37 w ≠ b) :
    B78 m ρ c (Proc.devRef .tc b) = B77 m ρ c (Proc.devRef .tc b) := by
  unfold B78; exact Pipeline.withArrays_of_ne spec37 c _ _ b hb
/-- Region 37's exit contents read at the TensorCore's references. -/
noncomputable abbrev X37 : (c : Dev nD) → (b : Ref sig .tc) → Buf (Elt F) ((c : Thread nD τ).loc b) := fun c b => B78 m ρ c b
theorem hF37 (c : Dev nD) (w : Fin cfg37.W) : (dat37 (E37 m ρ) c).arrAt w cfg37.N = X37 m ρ c (Pipeline.arrRef spec37 w) :=
  (B78_arr m ρ c w).symm
theorem hrest37 (c : Dev nD) : ∀ b, b ∉ Finset.univ.image (Pipeline.arrRef spec37) → X37 m ρ c b = E37 m ρ c b :=
  fun b hb => B78_of_ne m ρ c b fun w e => hb (Finset.mem_image.mpr ⟨w, Finset.mem_univ _, e⟩)
/-- After the host stretch `hostOps38`. -/
noncomputable abbrev B79 : Dev nD → Valuation τ sig (Elt F) := fun c => StableHlo.after hostOps38 (B78 m ρ c)

/-- Region 38's entry contents read at the TensorCore's references. -/
noncomputable abbrev E38 : (c : Dev nD) → (b : Ref sig .tc) → Buf (Elt F) ((c : Thread nD τ).loc b) := fun c b => B79 m ρ c b
/-- At region 38's exit: its arrays at what the pipeline leaves, every other buffer as entered. -/
noncomputable def B80 (c : Dev nD) : Valuation τ sig (Elt F) :=
  Pipeline.withArrays spec38 c (B79 m ρ c) fun w => (dat38 (E38 m ρ) c).arrAt w cfg38.N
theorem B80_arr (c : Dev nD) (w : Fin cfg38.W) :
    B80 m ρ c (Proc.devRef .tc (Pipeline.arrRef spec38 w)) = (dat38 (E38 m ρ) c).arrAt w cfg38.N := by
  unfold B80; exact Pipeline.withArrays_arr spec38 launch38.win.arr_inj c _ _ w
theorem B80_of_ne (c : Dev nD) (b : Ref sig .tc) (hb : ∀ w, Pipeline.arrRef spec38 w ≠ b) :
    B80 m ρ c (Proc.devRef .tc b) = B79 m ρ c (Proc.devRef .tc b) := by
  unfold B80; exact Pipeline.withArrays_of_ne spec38 c _ _ b hb
/-- Region 38's exit contents read at the TensorCore's references. -/
noncomputable abbrev X38 : (c : Dev nD) → (b : Ref sig .tc) → Buf (Elt F) ((c : Thread nD τ).loc b) := fun c b => B80 m ρ c b
theorem hF38 (c : Dev nD) (w : Fin cfg38.W) : (dat38 (E38 m ρ) c).arrAt w cfg38.N = X38 m ρ c (Pipeline.arrRef spec38 w) :=
  (B80_arr m ρ c w).symm
theorem hrest38 (c : Dev nD) : ∀ b, b ∉ Finset.univ.image (Pipeline.arrRef spec38) → X38 m ρ c b = E38 m ρ c b :=
  fun b hb => B80_of_ne m ρ c b fun w e => hb (Finset.mem_image.mpr ⟨w, Finset.mem_univ _, e⟩)
/-- After the host stretch `hostOps39`. -/
noncomputable abbrev B81 : Dev nD → Valuation τ sig (Elt F) := fun c => StableHlo.after hostOps39 (B80 m ρ c)

/-- Region 39's entry contents read at the TensorCore's references. -/
noncomputable abbrev E39 : (c : Dev nD) → (b : Ref sig .tc) → Buf (Elt F) ((c : Thread nD τ).loc b) := fun c b => B81 m ρ c b
/-- At region 39's exit: its arrays at what the pipeline leaves, every other buffer as entered. -/
noncomputable def B82 (c : Dev nD) : Valuation τ sig (Elt F) :=
  Pipeline.withArrays spec39 c (B81 m ρ c) fun w => (dat39 (E39 m ρ) c).arrAt w cfg39.N
theorem B82_arr (c : Dev nD) (w : Fin cfg39.W) :
    B82 m ρ c (Proc.devRef .tc (Pipeline.arrRef spec39 w)) = (dat39 (E39 m ρ) c).arrAt w cfg39.N := by
  unfold B82; exact Pipeline.withArrays_arr spec39 launch39.win.arr_inj c _ _ w
theorem B82_of_ne (c : Dev nD) (b : Ref sig .tc) (hb : ∀ w, Pipeline.arrRef spec39 w ≠ b) :
    B82 m ρ c (Proc.devRef .tc b) = B81 m ρ c (Proc.devRef .tc b) := by
  unfold B82; exact Pipeline.withArrays_of_ne spec39 c _ _ b hb
/-- Region 39's exit contents read at the TensorCore's references. -/
noncomputable abbrev X39 : (c : Dev nD) → (b : Ref sig .tc) → Buf (Elt F) ((c : Thread nD τ).loc b) := fun c b => B82 m ρ c b
theorem hF39 (c : Dev nD) (w : Fin cfg39.W) : (dat39 (E39 m ρ) c).arrAt w cfg39.N = X39 m ρ c (Pipeline.arrRef spec39 w) :=
  (B82_arr m ρ c w).symm
theorem hrest39 (c : Dev nD) : ∀ b, b ∉ Finset.univ.image (Pipeline.arrRef spec39) → X39 m ρ c b = E39 m ρ c b :=
  fun b hb => B82_of_ne m ρ c b fun w e => hb (Finset.mem_image.mpr ⟨w, Finset.mem_univ _, e⟩)
/-- After the host stretch `hostOps40`. -/
noncomputable abbrev B83 : Dev nD → Valuation τ sig (Elt F) := fun c => StableHlo.after hostOps40 (B82 m ρ c)

/-- Region 40's entry contents read at the TensorCore's references. -/
noncomputable abbrev E40 : (c : Dev nD) → (b : Ref sig .tc) → Buf (Elt F) ((c : Thread nD τ).loc b) := fun c b => B83 m ρ c b
/-- At region 40's exit: its arrays at what the pipeline leaves, every other buffer as entered. -/
noncomputable def B84 (c : Dev nD) : Valuation τ sig (Elt F) :=
  Pipeline.withArrays spec40 c (B83 m ρ c) fun w => (dat40 (E40 m ρ) c).arrAt w cfg40.N
theorem B84_arr (c : Dev nD) (w : Fin cfg40.W) :
    B84 m ρ c (Proc.devRef .tc (Pipeline.arrRef spec40 w)) = (dat40 (E40 m ρ) c).arrAt w cfg40.N := by
  unfold B84; exact Pipeline.withArrays_arr spec40 launch40.win.arr_inj c _ _ w
theorem B84_of_ne (c : Dev nD) (b : Ref sig .tc) (hb : ∀ w, Pipeline.arrRef spec40 w ≠ b) :
    B84 m ρ c (Proc.devRef .tc b) = B83 m ρ c (Proc.devRef .tc b) := by
  unfold B84; exact Pipeline.withArrays_of_ne spec40 c _ _ b hb
/-- Region 40's exit contents read at the TensorCore's references. -/
noncomputable abbrev X40 : (c : Dev nD) → (b : Ref sig .tc) → Buf (Elt F) ((c : Thread nD τ).loc b) := fun c b => B84 m ρ c b
theorem hF40 (c : Dev nD) (w : Fin cfg40.W) : (dat40 (E40 m ρ) c).arrAt w cfg40.N = X40 m ρ c (Pipeline.arrRef spec40 w) :=
  (B84_arr m ρ c w).symm
theorem hrest40 (c : Dev nD) : ∀ b, b ∉ Finset.univ.image (Pipeline.arrRef spec40) → X40 m ρ c b = E40 m ρ c b :=
  fun b hb => B84_of_ne m ρ c b fun w e => hb (Finset.mem_image.mpr ⟨w, Finset.mem_univ _, e⟩)
/-- After the host stretch `hostOps41`. -/
noncomputable abbrev B85 : Dev nD → Valuation τ sig (Elt F) := fun c => StableHlo.after hostOps41 (B84 m ρ c)

/-- Region 41's entry contents read at the TensorCore's references. -/
noncomputable abbrev E41 : (c : Dev nD) → (b : Ref sig .tc) → Buf (Elt F) ((c : Thread nD τ).loc b) := fun c b => B85 m ρ c b
/-- At region 41's exit: its arrays at what the pipeline leaves, every other buffer as entered. -/
noncomputable def B86 (c : Dev nD) : Valuation τ sig (Elt F) :=
  Pipeline.withArrays spec41 c (B85 m ρ c) fun w => (dat41 (E41 m ρ) c).arrAt w cfg41.N
theorem B86_arr (c : Dev nD) (w : Fin cfg41.W) :
    B86 m ρ c (Proc.devRef .tc (Pipeline.arrRef spec41 w)) = (dat41 (E41 m ρ) c).arrAt w cfg41.N := by
  unfold B86; exact Pipeline.withArrays_arr spec41 launch41.win.arr_inj c _ _ w
theorem B86_of_ne (c : Dev nD) (b : Ref sig .tc) (hb : ∀ w, Pipeline.arrRef spec41 w ≠ b) :
    B86 m ρ c (Proc.devRef .tc b) = B85 m ρ c (Proc.devRef .tc b) := by
  unfold B86; exact Pipeline.withArrays_of_ne spec41 c _ _ b hb
/-- Region 41's exit contents read at the TensorCore's references. -/
noncomputable abbrev X41 : (c : Dev nD) → (b : Ref sig .tc) → Buf (Elt F) ((c : Thread nD τ).loc b) := fun c b => B86 m ρ c b
theorem hF41 (c : Dev nD) (w : Fin cfg41.W) : (dat41 (E41 m ρ) c).arrAt w cfg41.N = X41 m ρ c (Pipeline.arrRef spec41 w) :=
  (B86_arr m ρ c w).symm
theorem hrest41 (c : Dev nD) : ∀ b, b ∉ Finset.univ.image (Pipeline.arrRef spec41) → X41 m ρ c b = E41 m ρ c b :=
  fun b hb => B86_of_ne m ρ c b fun w e => hb (Finset.mem_image.mpr ⟨w, Finset.mem_univ _, e⟩)
/-- After the host stretch `hostOps42`. -/
noncomputable abbrev B87 : Dev nD → Valuation τ sig (Elt F) := fun c => StableHlo.after hostOps42 (B86 m ρ c)

/-- Region 42's entry contents read at the TensorCore's references. -/
noncomputable abbrev E42 : (c : Dev nD) → (b : Ref sig .tc) → Buf (Elt F) ((c : Thread nD τ).loc b) := fun c b => B87 m ρ c b
/-- At region 42's exit: its arrays at what the pipeline leaves, every other buffer as entered. -/
noncomputable def B88 (c : Dev nD) : Valuation τ sig (Elt F) :=
  Pipeline.withArrays spec42 c (B87 m ρ c) fun w => (dat42 (E42 m ρ) c).arrAt w cfg42.N
theorem B88_arr (c : Dev nD) (w : Fin cfg42.W) :
    B88 m ρ c (Proc.devRef .tc (Pipeline.arrRef spec42 w)) = (dat42 (E42 m ρ) c).arrAt w cfg42.N := by
  unfold B88; exact Pipeline.withArrays_arr spec42 launch42.win.arr_inj c _ _ w
theorem B88_of_ne (c : Dev nD) (b : Ref sig .tc) (hb : ∀ w, Pipeline.arrRef spec42 w ≠ b) :
    B88 m ρ c (Proc.devRef .tc b) = B87 m ρ c (Proc.devRef .tc b) := by
  unfold B88; exact Pipeline.withArrays_of_ne spec42 c _ _ b hb
/-- Region 42's exit contents read at the TensorCore's references. -/
noncomputable abbrev X42 : (c : Dev nD) → (b : Ref sig .tc) → Buf (Elt F) ((c : Thread nD τ).loc b) := fun c b => B88 m ρ c b
theorem hF42 (c : Dev nD) (w : Fin cfg42.W) : (dat42 (E42 m ρ) c).arrAt w cfg42.N = X42 m ρ c (Pipeline.arrRef spec42 w) :=
  (B88_arr m ρ c w).symm
theorem hrest42 (c : Dev nD) : ∀ b, b ∉ Finset.univ.image (Pipeline.arrRef spec42) → X42 m ρ c b = E42 m ρ c b :=
  fun b hb => B88_of_ne m ρ c b fun w e => hb (Finset.mem_image.mpr ⟨w, Finset.mem_univ _, e⟩)
/-- After the host stretch `hostOps43`. -/
noncomputable abbrev B89 : Dev nD → Valuation τ sig (Elt F) := fun c => StableHlo.after hostOps43 (B88 m ρ c)

/-- Region 43's entry contents read at the TensorCore's references. -/
noncomputable abbrev E43 : (c : Dev nD) → (b : Ref sig .tc) → Buf (Elt F) ((c : Thread nD τ).loc b) := fun c b => B89 m ρ c b
/-- At region 43's exit: its arrays at what the pipeline leaves, every other buffer as entered. -/
noncomputable def B90 (c : Dev nD) : Valuation τ sig (Elt F) :=
  Pipeline.withArrays spec43 c (B89 m ρ c) fun w => (dat43 (E43 m ρ) c).arrAt w cfg43.N
theorem B90_arr (c : Dev nD) (w : Fin cfg43.W) :
    B90 m ρ c (Proc.devRef .tc (Pipeline.arrRef spec43 w)) = (dat43 (E43 m ρ) c).arrAt w cfg43.N := by
  unfold B90; exact Pipeline.withArrays_arr spec43 launch43.win.arr_inj c _ _ w
theorem B90_of_ne (c : Dev nD) (b : Ref sig .tc) (hb : ∀ w, Pipeline.arrRef spec43 w ≠ b) :
    B90 m ρ c (Proc.devRef .tc b) = B89 m ρ c (Proc.devRef .tc b) := by
  unfold B90; exact Pipeline.withArrays_of_ne spec43 c _ _ b hb
/-- Region 43's exit contents read at the TensorCore's references. -/
noncomputable abbrev X43 : (c : Dev nD) → (b : Ref sig .tc) → Buf (Elt F) ((c : Thread nD τ).loc b) := fun c b => B90 m ρ c b
theorem hF43 (c : Dev nD) (w : Fin cfg43.W) : (dat43 (E43 m ρ) c).arrAt w cfg43.N = X43 m ρ c (Pipeline.arrRef spec43 w) :=
  (B90_arr m ρ c w).symm
theorem hrest43 (c : Dev nD) : ∀ b, b ∉ Finset.univ.image (Pipeline.arrRef spec43) → X43 m ρ c b = E43 m ρ c b :=
  fun b hb => B90_of_ne m ρ c b fun w e => hb (Finset.mem_image.mpr ⟨w, Finset.mem_univ _, e⟩)
/-- After the host stretch `hostOps44`. -/
noncomputable abbrev B91 : Dev nD → Valuation τ sig (Elt F) := fun c => StableHlo.after hostOps44 (B90 m ρ c)

/-- Region 44's entry contents read at the TensorCore's references. -/
noncomputable abbrev E44 : (c : Dev nD) → (b : Ref sig .tc) → Buf (Elt F) ((c : Thread nD τ).loc b) := fun c b => B91 m ρ c b
/-- At region 44's exit: its arrays at what the pipeline leaves, every other buffer as entered. -/
noncomputable def B92 (c : Dev nD) : Valuation τ sig (Elt F) :=
  Pipeline.withArrays spec44 c (B91 m ρ c) fun w => (dat44 (E44 m ρ) c).arrAt w cfg44.N
theorem B92_arr (c : Dev nD) (w : Fin cfg44.W) :
    B92 m ρ c (Proc.devRef .tc (Pipeline.arrRef spec44 w)) = (dat44 (E44 m ρ) c).arrAt w cfg44.N := by
  unfold B92; exact Pipeline.withArrays_arr spec44 launch44.win.arr_inj c _ _ w
theorem B92_of_ne (c : Dev nD) (b : Ref sig .tc) (hb : ∀ w, Pipeline.arrRef spec44 w ≠ b) :
    B92 m ρ c (Proc.devRef .tc b) = B91 m ρ c (Proc.devRef .tc b) := by
  unfold B92; exact Pipeline.withArrays_of_ne spec44 c _ _ b hb
/-- Region 44's exit contents read at the TensorCore's references. -/
noncomputable abbrev X44 : (c : Dev nD) → (b : Ref sig .tc) → Buf (Elt F) ((c : Thread nD τ).loc b) := fun c b => B92 m ρ c b
theorem hF44 (c : Dev nD) (w : Fin cfg44.W) : (dat44 (E44 m ρ) c).arrAt w cfg44.N = X44 m ρ c (Pipeline.arrRef spec44 w) :=
  (B92_arr m ρ c w).symm
theorem hrest44 (c : Dev nD) : ∀ b, b ∉ Finset.univ.image (Pipeline.arrRef spec44) → X44 m ρ c b = E44 m ρ c b :=
  fun b hb => B92_of_ne m ρ c b fun w e => hb (Finset.mem_image.mpr ⟨w, Finset.mem_univ _, e⟩)
/-- After the host stretch `hostOps45`. -/
noncomputable abbrev B93 : Dev nD → Valuation τ sig (Elt F) := fun c => StableHlo.after hostOps45 (B92 m ρ c)

/-- Region 45's entry contents read at the TensorCore's references. -/
noncomputable abbrev E45 : (c : Dev nD) → (b : Ref sig .tc) → Buf (Elt F) ((c : Thread nD τ).loc b) := fun c b => B93 m ρ c b
/-- At region 45's exit: its arrays at what the pipeline leaves, every other buffer as entered. -/
noncomputable def B94 (c : Dev nD) : Valuation τ sig (Elt F) :=
  Pipeline.withArrays spec45 c (B93 m ρ c) fun w => (dat45 (E45 m ρ) c).arrAt w cfg45.N
theorem B94_arr (c : Dev nD) (w : Fin cfg45.W) :
    B94 m ρ c (Proc.devRef .tc (Pipeline.arrRef spec45 w)) = (dat45 (E45 m ρ) c).arrAt w cfg45.N := by
  unfold B94; exact Pipeline.withArrays_arr spec45 launch45.win.arr_inj c _ _ w
theorem B94_of_ne (c : Dev nD) (b : Ref sig .tc) (hb : ∀ w, Pipeline.arrRef spec45 w ≠ b) :
    B94 m ρ c (Proc.devRef .tc b) = B93 m ρ c (Proc.devRef .tc b) := by
  unfold B94; exact Pipeline.withArrays_of_ne spec45 c _ _ b hb
/-- Region 45's exit contents read at the TensorCore's references. -/
noncomputable abbrev X45 : (c : Dev nD) → (b : Ref sig .tc) → Buf (Elt F) ((c : Thread nD τ).loc b) := fun c b => B94 m ρ c b
theorem hF45 (c : Dev nD) (w : Fin cfg45.W) : (dat45 (E45 m ρ) c).arrAt w cfg45.N = X45 m ρ c (Pipeline.arrRef spec45 w) :=
  (B94_arr m ρ c w).symm
theorem hrest45 (c : Dev nD) : ∀ b, b ∉ Finset.univ.image (Pipeline.arrRef spec45) → X45 m ρ c b = E45 m ρ c b :=
  fun b hb => B94_of_ne m ρ c b fun w e => hb (Finset.mem_image.mpr ⟨w, Finset.mem_univ _, e⟩)
/-- After the host stretch `hostOps46`. -/
noncomputable abbrev B95 : Dev nD → Valuation τ sig (Elt F) := fun c => StableHlo.after hostOps46 (B94 m ρ c)

/-- Region 46's entry contents read at the TensorCore's references. -/
noncomputable abbrev E46 : (c : Dev nD) → (b : Ref sig .tc) → Buf (Elt F) ((c : Thread nD τ).loc b) := fun c b => B95 m ρ c b
/-- At region 46's exit: its arrays at what the pipeline leaves, every other buffer as entered. -/
noncomputable def B96 (c : Dev nD) : Valuation τ sig (Elt F) :=
  Pipeline.withArrays spec46 c (B95 m ρ c) fun w => (dat46 (E46 m ρ) c).arrAt w cfg46.N
theorem B96_arr (c : Dev nD) (w : Fin cfg46.W) :
    B96 m ρ c (Proc.devRef .tc (Pipeline.arrRef spec46 w)) = (dat46 (E46 m ρ) c).arrAt w cfg46.N := by
  unfold B96; exact Pipeline.withArrays_arr spec46 launch46.win.arr_inj c _ _ w
theorem B96_of_ne (c : Dev nD) (b : Ref sig .tc) (hb : ∀ w, Pipeline.arrRef spec46 w ≠ b) :
    B96 m ρ c (Proc.devRef .tc b) = B95 m ρ c (Proc.devRef .tc b) := by
  unfold B96; exact Pipeline.withArrays_of_ne spec46 c _ _ b hb
/-- Region 46's exit contents read at the TensorCore's references. -/
noncomputable abbrev X46 : (c : Dev nD) → (b : Ref sig .tc) → Buf (Elt F) ((c : Thread nD τ).loc b) := fun c b => B96 m ρ c b
theorem hF46 (c : Dev nD) (w : Fin cfg46.W) : (dat46 (E46 m ρ) c).arrAt w cfg46.N = X46 m ρ c (Pipeline.arrRef spec46 w) :=
  (B96_arr m ρ c w).symm
theorem hrest46 (c : Dev nD) : ∀ b, b ∉ Finset.univ.image (Pipeline.arrRef spec46) → X46 m ρ c b = E46 m ρ c b :=
  fun b hb => B96_of_ne m ρ c b fun w e => hb (Finset.mem_image.mpr ⟨w, Finset.mem_univ _, e⟩)
/-- After the host stretch `hostOps47`. -/
noncomputable abbrev B97 : Dev nD → Valuation τ sig (Elt F) := fun c => StableHlo.after hostOps47 (B96 m ρ c)

/-- Region 47's entry contents read at the TensorCore's references. -/
noncomputable abbrev E47 : (c : Dev nD) → (b : Ref sig .tc) → Buf (Elt F) ((c : Thread nD τ).loc b) := fun c b => B97 m ρ c b
/-- At region 47's exit: its arrays at what the pipeline leaves, every other buffer as entered. -/
noncomputable def B98 (c : Dev nD) : Valuation τ sig (Elt F) :=
  Pipeline.withArrays spec47 c (B97 m ρ c) fun w => (dat47 (E47 m ρ) c).arrAt w cfg47.N
theorem B98_arr (c : Dev nD) (w : Fin cfg47.W) :
    B98 m ρ c (Proc.devRef .tc (Pipeline.arrRef spec47 w)) = (dat47 (E47 m ρ) c).arrAt w cfg47.N := by
  unfold B98; exact Pipeline.withArrays_arr spec47 launch47.win.arr_inj c _ _ w
theorem B98_of_ne (c : Dev nD) (b : Ref sig .tc) (hb : ∀ w, Pipeline.arrRef spec47 w ≠ b) :
    B98 m ρ c (Proc.devRef .tc b) = B97 m ρ c (Proc.devRef .tc b) := by
  unfold B98; exact Pipeline.withArrays_of_ne spec47 c _ _ b hb
/-- Region 47's exit contents read at the TensorCore's references. -/
noncomputable abbrev X47 : (c : Dev nD) → (b : Ref sig .tc) → Buf (Elt F) ((c : Thread nD τ).loc b) := fun c b => B98 m ρ c b
theorem hF47 (c : Dev nD) (w : Fin cfg47.W) : (dat47 (E47 m ρ) c).arrAt w cfg47.N = X47 m ρ c (Pipeline.arrRef spec47 w) :=
  (B98_arr m ρ c w).symm
theorem hrest47 (c : Dev nD) : ∀ b, b ∉ Finset.univ.image (Pipeline.arrRef spec47) → X47 m ρ c b = E47 m ρ c b :=
  fun b hb => B98_of_ne m ρ c b fun w e => hb (Finset.mem_image.mpr ⟨w, Finset.mem_univ _, e⟩)
/-- After the host stretch `hostOps48`. -/
noncomputable abbrev B99 : Dev nD → Valuation τ sig (Elt F) := fun c => StableHlo.after hostOps48 (B98 m ρ c)

/-- Region 48's entry contents read at the TensorCore's references. -/
noncomputable abbrev E48 : (c : Dev nD) → (b : Ref sig .tc) → Buf (Elt F) ((c : Thread nD τ).loc b) := fun c b => B99 m ρ c b
/-- At region 48's exit: its arrays at what the pipeline leaves, every other buffer as entered. -/
noncomputable def B100 (c : Dev nD) : Valuation τ sig (Elt F) :=
  Pipeline.withArrays spec48 c (B99 m ρ c) fun w => (dat48 (E48 m ρ) c).arrAt w cfg48.N
theorem B100_arr (c : Dev nD) (w : Fin cfg48.W) :
    B100 m ρ c (Proc.devRef .tc (Pipeline.arrRef spec48 w)) = (dat48 (E48 m ρ) c).arrAt w cfg48.N := by
  unfold B100; exact Pipeline.withArrays_arr spec48 launch48.win.arr_inj c _ _ w
theorem B100_of_ne (c : Dev nD) (b : Ref sig .tc) (hb : ∀ w, Pipeline.arrRef spec48 w ≠ b) :
    B100 m ρ c (Proc.devRef .tc b) = B99 m ρ c (Proc.devRef .tc b) := by
  unfold B100; exact Pipeline.withArrays_of_ne spec48 c _ _ b hb
/-- Region 48's exit contents read at the TensorCore's references. -/
noncomputable abbrev X48 : (c : Dev nD) → (b : Ref sig .tc) → Buf (Elt F) ((c : Thread nD τ).loc b) := fun c b => B100 m ρ c b
theorem hF48 (c : Dev nD) (w : Fin cfg48.W) : (dat48 (E48 m ρ) c).arrAt w cfg48.N = X48 m ρ c (Pipeline.arrRef spec48 w) :=
  (B100_arr m ρ c w).symm
theorem hrest48 (c : Dev nD) : ∀ b, b ∉ Finset.univ.image (Pipeline.arrRef spec48) → X48 m ρ c b = E48 m ρ c b :=
  fun b hb => B100_of_ne m ρ c b fun w e => hb (Finset.mem_image.mpr ⟨w, Finset.mem_univ _, e⟩)
/-- After the host stretch `hostOps49`. -/
noncomputable abbrev B101 : Dev nD → Valuation τ sig (Elt F) := fun c => StableHlo.after hostOps49 (B100 m ρ c)

/-! ## The proof data family and what rides beside the buffers -/

/-- No pipeline has a prefetched table. -/
noncomputable abbrev adm : (p : Fin 49) → (pcfgs (F := F) p).Adm := fun p => (cfgs p).toPCfg_adm
/-- Every pipeline's proof data, each at its region's entry contents: a literal match, so that the pinned configuration at a numeral reduces to the printed one. -/
noncomputable def pdats : (p : Fin 49) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
  | ⟨4, _⟩ => fun c => dat4 (E4 m ρ) c
  | ⟨5, _⟩ => fun c => dat5 (E5 m ρ) c
  | ⟨6, _⟩ => fun c => dat6 (E6 m ρ) c
  | ⟨7, _⟩ => fun c => dat7 (E7 m ρ) c
  | ⟨8, _⟩ => fun c => dat8 (E8 m ρ) c
  | ⟨9, _⟩ => fun c => dat9 (E9 m ρ) c
  | ⟨10, _⟩ => fun c => dat10 (E10 m ρ) c
  | ⟨11, _⟩ => fun c => dat11 (E11 m ρ) c
  | ⟨12, _⟩ => fun c => dat12 (E12 m ρ) c
  | ⟨13, _⟩ => fun c => dat13 (E13 m ρ) c
  | ⟨14, _⟩ => fun c => dat14 (E14 m ρ) c
  | ⟨15, _⟩ => fun c => dat15 (E15 m ρ) c
  | ⟨16, _⟩ => fun c => dat16 (E16 m ρ) c
  | ⟨17, _⟩ => fun c => dat17 (E17 m ρ) c
  | ⟨18, _⟩ => fun c => dat18 (E18 m ρ) c
  | ⟨19, _⟩ => fun c => dat19 (E19 m ρ) c
  | ⟨20, _⟩ => fun c => dat20 (E20 m ρ) c
  | ⟨21, _⟩ => fun c => dat21 (E21 m ρ) c
  | ⟨22, _⟩ => fun c => dat22 (E22 m ρ) c
  | ⟨23, _⟩ => fun c => dat23 (E23 m ρ) c
  | ⟨24, _⟩ => fun c => dat24 (E24 m ρ) c
  | ⟨25, _⟩ => fun c => dat25 (E25 m ρ) c
  | ⟨26, _⟩ => fun c => dat26 (E26 m ρ) c
  | ⟨27, _⟩ => fun c => dat27 (E27 m ρ) c
  | ⟨28, _⟩ => fun c => dat28 (E28 m ρ) c
  | ⟨29, _⟩ => fun c => dat29 (E29 m ρ) c
  | ⟨30, _⟩ => fun c => dat30 (E30 m ρ) c
  | ⟨31, _⟩ => fun c => dat31 (E31 m ρ) c
  | ⟨32, _⟩ => fun c => dat32 (E32 m ρ) c
  | ⟨33, _⟩ => fun c => dat33 (E33 m ρ) c
  | ⟨34, _⟩ => fun c => dat34 (E34 m ρ) c
  | ⟨35, _⟩ => fun c => dat35 (E35 m ρ) c
  | ⟨36, _⟩ => fun c => dat36 (E36 m ρ) c
  | ⟨37, _⟩ => fun c => dat37 (E37 m ρ) c
  | ⟨38, _⟩ => fun c => dat38 (E38 m ρ) c
  | ⟨39, _⟩ => fun c => dat39 (E39 m ρ) c
  | ⟨40, _⟩ => fun c => dat40 (E40 m ρ) c
  | ⟨41, _⟩ => fun c => dat41 (E41 m ρ) c
  | ⟨42, _⟩ => fun c => dat42 (E42 m ρ) c
  | ⟨43, _⟩ => fun c => dat43 (E43 m ρ) c
  | ⟨44, _⟩ => fun c => dat44 (E44 m ρ) c
  | ⟨45, _⟩ => fun c => dat45 (E45 m ρ) c
  | ⟨46, _⟩ => fun c => dat46 (E46 m ρ) c
  | ⟨47, _⟩ => fun c => dat47 (E47 m ρ) c
  | ⟨48, _⟩ => fun c => dat48 (E48 m ρ) c
  | ⟨_ + 49, h⟩ => absurd h (Nat.not_lt.2 (Nat.le_add_left _ _))
noncomputable abbrev 𝒱₀ : Variants := Variants.none
noncomputable abbrev L : GSem nD τ sig → Finset Unit := fun _ => ∅
noncomputable abbrev lv : GSem nD τ sig → Unit → ℕ := fun _ _ => 0
/-- Beside the buffers through every segment: the core's generator register at some state and its debts, none. -/
noncomputable abbrev R (c : Dev nD) : sProp 𝕄 := iprop((∃ r, prngReg c r) ∗ ∃ W, owes (c : Thread nD τ) (0 : CellTallies nD τ sig Unit) W)
/-- A host stretch as a segment over the unscoped references from the contents `W`. -/
noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
theorem hostOps6_fresh : (hostOps6 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor
theorem hostOps8_fresh : (hostOps8 : List (HloOp τ sig (Elt F))).Forall fun op => op.fresh = ∅ := by
  simp only [List.Forall]; repeat' constructor
theorem hostOps9_fresh : (hostOps9 : List (HloOp τ sig (Elt F))).Forall fun op => op.fresh = ∅ := by
  simp only [List.Forall]; repeat' constructor
theorem hostOps10_fresh : (hostOps10 : List (HloOp τ sig (Elt F))).Forall fun op => op.fresh = ∅ := by
  simp only [List.Forall]; repeat' constructor
theorem hostOps11_fresh : (hostOps11 : List (HloOp τ sig (Elt F))).Forall fun op => op.fresh = ∅ := by
  simp only [List.Forall]; repeat' constructor
theorem hostOps12_fresh : (hostOps12 : List (HloOp τ sig (Elt F))).Forall fun op => op.fresh = ∅ := by
  simp only [List.Forall]; repeat' constructor
theorem hostOps13_fresh : (hostOps13 : List (HloOp τ sig (Elt F))).Forall fun op => op.fresh = ∅ := by
  simp only [List.Forall]; repeat' constructor
theorem hostOps14_fresh : (hostOps14 : List (HloOp τ sig (Elt F))).Forall fun op => op.fresh = ∅ := by
  simp only [List.Forall]; repeat' constructor
theorem hostOps15_fresh : (hostOps15 : List (HloOp τ sig (Elt F))).Forall fun op => op.fresh = ∅ := by
  simp only [List.Forall]; repeat' constructor
theorem hostOps16_fresh : (hostOps16 : List (HloOp τ sig (Elt F))).Forall fun op => op.fresh = ∅ := by
  simp only [List.Forall]; repeat' constructor
theorem hostOps17_fresh : (hostOps17 : List (HloOp τ sig (Elt F))).Forall fun op => op.fresh = ∅ := by
  simp only [List.Forall]; repeat' constructor
theorem hostOps18_fresh : (hostOps18 : List (HloOp τ sig (Elt F))).Forall fun op => op.fresh = ∅ := by
  simp only [List.Forall]; repeat' constructor
theorem hostOps19_fresh : (hostOps19 : List (HloOp τ sig (Elt F))).Forall fun op => op.fresh = ∅ := by
  simp only [List.Forall]; repeat' constructor
theorem hostOps20_fresh : (hostOps20 : List (HloOp τ sig (Elt F))).Forall fun op => op.fresh = ∅ := by
  simp only [List.Forall]; repeat' constructor
theorem hostOps21_fresh : (hostOps21 : List (HloOp τ sig (Elt F))).Forall fun op => op.fresh = ∅ := by
  simp only [List.Forall]; repeat' constructor
theorem hostOps22_fresh : (hostOps22 : List (HloOp τ sig (Elt F))).Forall fun op => op.fresh = ∅ := by
  simp only [List.Forall]; repeat' constructor
theorem hostOps23_fresh : (hostOps23 : List (HloOp τ sig (Elt F))).Forall fun op => op.fresh = ∅ := by
  simp only [List.Forall]; repeat' constructor
theorem hostOps24_fresh : (hostOps24 : List (HloOp τ sig (Elt F))).Forall fun op => op.fresh = ∅ := by
  simp only [List.Forall]; repeat' constructor
theorem hostOps25_fresh : (hostOps25 : List (HloOp τ sig (Elt F))).Forall fun op => op.fresh = ∅ := by
  simp only [List.Forall]; repeat' constructor
theorem hostOps26_fresh : (hostOps26 : List (HloOp τ sig (Elt F))).Forall fun op => op.fresh = ∅ := by
  simp only [List.Forall]; repeat' constructor
theorem hostOps27_fresh : (hostOps27 : List (HloOp τ sig (Elt F))).Forall fun op => op.fresh = ∅ := by
  simp only [List.Forall]; repeat' constructor
theorem hostOps28_fresh : (hostOps28 : List (HloOp τ sig (Elt F))).Forall fun op => op.fresh = ∅ := by
  simp only [List.Forall]; repeat' constructor
theorem hostOps29_fresh : (hostOps29 : List (HloOp τ sig (Elt F))).Forall fun op => op.fresh = ∅ := by
  simp only [List.Forall]; repeat' constructor
theorem hostOps30_fresh : (hostOps30 : List (HloOp τ sig (Elt F))).Forall fun op => op.fresh = ∅ := by
  simp only [List.Forall]; repeat' constructor
theorem hostOps31_fresh : (hostOps31 : List (HloOp τ sig (Elt F))).Forall fun op => op.fresh = ∅ := by
  simp only [List.Forall]; repeat' constructor
theorem hostOps32_fresh : (hostOps32 : List (HloOp τ sig (Elt F))).Forall fun op => op.fresh = ∅ := by
  simp only [List.Forall]; repeat' constructor
theorem hostOps33_fresh : (hostOps33 : List (HloOp τ sig (Elt F))).Forall fun op => op.fresh = ∅ := by
  simp only [List.Forall]; repeat' constructor
theorem hostOps34_fresh : (hostOps34 : List (HloOp τ sig (Elt F))).Forall fun op => op.fresh = ∅ := by
  simp only [List.Forall]; repeat' constructor
theorem hostOps35_fresh : (hostOps35 : List (HloOp τ sig (Elt F))).Forall fun op => op.fresh = ∅ := by
  simp only [List.Forall]; repeat' constructor
theorem hostOps36_fresh : (hostOps36 : List (HloOp τ sig (Elt F))).Forall fun op => op.fresh = ∅ := by
  simp only [List.Forall]; repeat' constructor
theorem hostOps37_fresh : (hostOps37 : List (HloOp τ sig (Elt F))).Forall fun op => op.fresh = ∅ := by
  simp only [List.Forall]; repeat' constructor
theorem hostOps38_fresh : (hostOps38 : List (HloOp τ sig (Elt F))).Forall fun op => op.fresh = ∅ := by
  simp only [List.Forall]; repeat' constructor
theorem hostOps39_fresh : (hostOps39 : List (HloOp τ sig (Elt F))).Forall fun op => op.fresh = ∅ := by
  simp only [List.Forall]; repeat' constructor
theorem hostOps40_fresh : (hostOps40 : List (HloOp τ sig (Elt F))).Forall fun op => op.fresh = ∅ := by
  simp only [List.Forall]; repeat' constructor
theorem hostOps41_fresh : (hostOps41 : List (HloOp τ sig (Elt F))).Forall fun op => op.fresh = ∅ := by
  simp only [List.Forall]; repeat' constructor
theorem hostOps42_fresh : (hostOps42 : List (HloOp τ sig (Elt F))).Forall fun op => op.fresh = ∅ := by
  simp only [List.Forall]; repeat' constructor
theorem hostOps43_fresh : (hostOps43 : List (HloOp τ sig (Elt F))).Forall fun op => op.fresh = ∅ := by
  simp only [List.Forall]; repeat' constructor
theorem hostOps44_fresh : (hostOps44 : List (HloOp τ sig (Elt F))).Forall fun op => op.fresh = ∅ := by
  simp only [List.Forall]; repeat' constructor
theorem hostOps45_fresh : (hostOps45 : List (HloOp τ sig (Elt F))).Forall fun op => op.fresh = ∅ := by
  simp only [List.Forall]; repeat' constructor
theorem hostOps46_fresh : (hostOps46 : List (HloOp τ sig (Elt F))).Forall fun op => op.fresh = ∅ := by
  simp only [List.Forall]; repeat' constructor
theorem hostOps47_fresh : (hostOps47 : List (HloOp τ sig (Elt F))).Forall fun op => op.fresh = ∅ := by
  simp only [List.Forall]; repeat' constructor
theorem hostOps48_fresh : (hostOps48 : List (HloOp τ sig (Elt F))).Forall fun op => op.fresh = ∅ := by
  simp only [List.Forall]; repeat' constructor
theorem hostOps49_fresh : (hostOps49 : List (HloOp τ sig (Elt F))).Forall fun op => op.fresh = ∅ := by
  simp only [List.Forall]; repeat' constructor
/-- The last thread state without the debts: every unscoped buffer at the last boundary's contents, the generator register at some state. -/
noncomputable abbrev Tₙ (c : Dev nD) : sProp 𝕄 := iprop(StableHlo.held (c : Thread nD τ) (Pipeline.ucRefs τ sig) (B101 m ρ c) ∗ ∃ r, prngReg c r)

end Cert.KernelIdeal.Hand

end
-- ==== Proof.KI.Reg0.lean ====
/- Region 0 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/- Region 1 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/- Region 2 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec2 c ⊢ (pdats m ρ 2 c).Φ 0 from hin2 (E2 m ρ) c)
    unfold Pipeline.ΦA
    iintro ⟨Hp, -, Hr⟩
    isplitl [Hr]; · iexact Hr
    iexact Hp
  hout c := by
    rw [Pipeline.ownSems0_none]
    refine BI.Laws.entails_trans (show (pdats m ρ 2 c).Φ (Fin.last _) ⊢ Pipeline.ΦA spec2 c from hout2 (E2 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
/- Region 3 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (B9 m ρ c) ∗ R c)
  post c := iprop(StableHlo.held (c : Thread nD τ) (Pipeline.ucRefs τ sig) (B10 m ρ c) ∗ R c)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec3 c ⊢ (pdats m ρ 3 c).Φ 0 from hin3 (E3 m ρ) c)
    unfold Pipeline.ΦA
    iintro ⟨Hp, -, Hr⟩
    isplitl [Hr]; · iexact Hr
    iexact Hp
  hout c := by
    rw [Pipeline.ownSems0_none]
    refine BI.Laws.entails_trans (show (pdats m ρ 3 c).Φ (Fin.last _) ⊢ Pipeline.ΦA spec3 c from hout3 (E3 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (X3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4.lean ====
/- Region 4 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m ρ) c).loose
  hwaits := Pipeline.hwaits_of_owed_zero _ _ _ _ L lv 4 fun _ _ => rfl
  pre c := iprop(StableHlo.held (c : Thread nD τ) (Pipeline.ucRefs τ sig) (B11 m ρ c) ∗ R c)
  post c := iprop(StableHlo.held (c : Thread nD τ) (Pipeline.ucRefs τ sig) (B12 m ρ c) ∗ R c)
  X c := iprop(∃ r, prngReg c r)
  Y c := iprop(∃ r, prngReg c r)
  Z c := Pipeline.unscopedRest (Ix := Unit) (Name := ℕ) (U := UR sig nD τ) (Lvl := ℕ) spec4 c (E4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E4 m ρ c) (X4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg5.lean ====
/- Region 5 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E5 m ρ) c).loose
  hwaits := Pipeline.hwaits_of_owed_zero _ _ _ _ L lv 5 fun _ _ => rfl
  pre c := iprop(StableHlo.held (c : Thread nD τ) (Pipeline.ucRefs τ sig) (B13 m ρ c) ∗ R c)
  post c := iprop(StableHlo.held (c : Thread nD τ) (Pipeline.ucRefs τ sig) (B14 m ρ c) ∗ R c)
  X c := iprop(∃ r, prngReg c r)
  Y c := iprop(∃ r, prngReg c r)
  Z c := Pipeline.unscopedRest (Ix := Unit) (Name := ℕ) (U := UR sig nD τ) (Lvl := ℕ) spec5 c (E5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (E5 m ρ c) (X5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg6.lean ====
/- Region 6 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E6 m ρ) c).loose
  hwaits := Pipeline.hwaits_of_owed_zero _ _ _ _ L lv 6 fun _ _ => rfl
  pre c := iprop(StableHlo.held (c : Thread nD τ) (Pipeline.ucRefs τ sig) (B15 m ρ c) ∗ R c)
  post c := iprop(StableHlo.held (c : Thread nD τ) (Pipeline.ucRefs τ sig) (B16 m ρ c) ∗ R c)
  X c := iprop(∃ r, prngReg c r)
  Y c := iprop(∃ r, prngReg c r)
  Z c := Pipeline.unscopedRest (Ix := Unit) (Name := ℕ) (U := UR sig nD τ) (Lvl := ℕ) spec6 c (E6 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec6 c ⊢ (pdats m ρ 6 c).Φ 0 from hin6 (E6 m ρ) c)
    unfold Pipeline.ΦA
    iintro ⟨Hp, -, Hr⟩
    isplitl [Hr]; · iexact Hr
    iexact Hp
  hout c := by
    rw [Pipeline.ownSems0_none]
    refine BI.Laws.entails_trans (show (pdats m ρ 6 c).Φ (Fin.last _) ⊢ Pipeline.ΦA spec6 c from hout6 (E6 m ρ) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (E6 m ρ c) (X6 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg7.lean ====
/- Region 7 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E7 m ρ) c).loose
  hwaits := Pipeline.hwaits_of_owed_zero _ _ _ _ L lv 7 fun _ _ => rfl
  pre c := iprop(StableHlo.held (c : Thread nD τ) (Pipeline.ucRefs τ sig) (B17 m ρ c) ∗ R c)
  post c := iprop(StableHlo.held (c : Thread nD τ) (Pipeline.ucRefs τ sig) (B18 m ρ c) ∗ R c)
  X c := iprop(∃ r, prngReg c r)
  Y c := iprop(∃ r, prngReg c r)
  Z c := Pipeline.unscopedRest (Ix := Unit) (Name := ℕ) (U := UR sig nD τ) (Lvl := ℕ) spec7 c (E7 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec7 c ⊢ (pdats m ρ 7 c).Φ 0 from hin7 (E7 m ρ) c)
    unfold Pipeline.ΦA
    iintro ⟨Hp, -, Hr⟩
    isplitl [Hr]; · iexact Hr
    iexact Hp
  hout c := by
    rw [Pipeline.ownSems0_none]
    refine BI.Laws.entails_trans (show (pdats m ρ 7 c).Φ (Fin.last _) ⊢ Pipeline.ΦA spec7 c from hout7 (E7 m ρ) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (E7 m ρ c) (X7 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg8.lean ====
/- Region 8 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E8 m ρ) c).loose
  hwaits := Pipeline.hwaits_of_owed_zero _ _ _ _ L lv 8 fun _ _ => rfl
  pre c := iprop(StableHlo.held (c : Thread nD τ) (Pipeline.ucRefs τ sig) (B19 m ρ c) ∗ R c)
  post c := iprop(StableHlo.held (c : Thread nD τ) (Pipeline.ucRefs τ sig) (B20 m ρ c) ∗ R c)
  X c := iprop(∃ r, prngReg c r)
  Y c := iprop(∃ r, prngReg c r)
  Z c := Pipeline.unscopedRest (Ix := Unit) (Name := ℕ) (U := UR sig nD τ) (Lvl := ℕ) spec8 c (E8 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (E8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (E8 m ρ c) (X8 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg9.lean ====
/- Region 9 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (E9 m ρ) c).loose
  hwaits := Pipeline.hwaits_of_owed_zero _ _ _ _ L lv 9 fun _ _ => rfl
  pre c := iprop(StableHlo.held (c : Thread nD τ) (Pipeline.ucRefs τ sig) (B21 m ρ c) ∗ R c)
  post c := iprop(StableHlo.held (c : Thread nD τ) (Pipeline.ucRefs τ sig) (B22 m ρ c) ∗ R c)
  X c := iprop(∃ r, prngReg c r)
  Y c := iprop(∃ r, prngReg c r)
  Z c := Pipeline.unscopedRest (Ix := Unit) (Name := ℕ) (U := UR sig nD τ) (Lvl := ℕ) spec9 c (E9 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (E9 m ρ c) (X9 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg10.lean ====
/- Region 10 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (E10 m ρ) c).loose
  hwaits := Pipeline.hwaits_of_owed_zero _ _ _ _ L lv 10 fun _ _ => rfl
  pre c := iprop(StableHlo.held (c : Thread nD τ) (Pipeline.ucRefs τ sig) (B23 m ρ c) ∗ R c)
  post c := iprop(StableHlo.held (c : Thread nD τ) (Pipeline.ucRefs τ sig) (B24 m ρ c) ∗ R c)
  X c := iprop(∃ r, prngReg c r)
  Y c := iprop(∃ r, prngReg c r)
  Z c := Pipeline.unscopedRest (Ix := Unit) (Name := ℕ) (U := UR sig nD τ) (Lvl := ℕ) spec10 c (E10 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (E10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec10 c ⊢ (pdats m ρ 10 c).Φ 0 from hin10 (E10 m ρ) c)
    unfold Pipeline.ΦA
    iintro ⟨Hp, -, Hr⟩
    isplitl [Hr]; · iexact Hr
    iexact Hp
  hout c := by
    rw [Pipeline.ownSems0_none]
    refine BI.Laws.entails_trans (show (pdats m ρ 10 c).Φ (Fin.last _) ⊢ Pipeline.ΦA spec10 c from hout10 (E10 m ρ) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (E10 m ρ c) (X10 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg11.lean ====
/- Region 11 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (E11 m ρ) c).loose
  hwaits := Pipeline.hwaits_of_owed_zero _ _ _ _ L lv 11 fun _ _ => rfl
  pre c := iprop(StableHlo.held (c : Thread nD τ) (Pipeline.ucRefs τ sig) (B25 m ρ c) ∗ R c)
  post c := iprop(StableHlo.held (c : Thread nD τ) (Pipeline.ucRefs τ sig) (B26 m ρ c) ∗ R c)
  X c := iprop(∃ r, prngReg c r)
  Y c := iprop(∃ r, prngReg c r)
  Z c := Pipeline.unscopedRest (Ix := Unit) (Name := ℕ) (U := UR sig nD τ) (Lvl := ℕ) spec11 c (E11 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec11 c ⊢ (pdats m ρ 11 c).Φ 0 from hin11 (E11 m ρ) c)
    unfold Pipeline.ΦA
    iintro ⟨Hp, -, Hr⟩
    isplitl [Hr]; · iexact Hr
    iexact Hp
  hout c := by
    rw [Pipeline.ownSems0_none]
    refine BI.Laws.entails_trans (show (pdats m ρ 11 c).Φ (Fin.last _) ⊢ Pipeline.ΦA spec11 c from hout11 (E11 m ρ) c) ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (E11 m ρ c) (X11 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg12.lean ====
/- Region 12 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (E12 m ρ) c).loose
  hwaits := Pipeline.hwaits_of_owed_zero _ _ _ _ L lv 12 fun _ _ => rfl
  pre c := iprop(StableHlo.held (c : Thread nD τ) (Pipeline.ucRefs τ sig) (B27 m ρ c) ∗ R c)
  post c := iprop(StableHlo.held (c : Thread nD τ) (Pipeline.ucRefs τ sig) (B28 m ρ c) ∗ R c)
  X c := iprop(∃ r, prngReg c r)
  Y c := iprop(∃ r, prngReg c r)
  Z c := Pipeline.unscopedRest (Ix := Unit) (Name := ℕ) (U := UR sig nD τ) (Lvl := ℕ) spec12 c (E12 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (E12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (E12 m ρ c) (X12 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg13.lean ====
/- Region 13 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (E13 m ρ) c).loose
  hwaits := Pipeline.hwaits_of_owed_zero _ _ _ _ L lv 13 fun _ _ => rfl
  pre c := iprop(StableHlo.held (c : Thread nD τ) (Pipeline.ucRefs τ sig) (B29 m ρ c) ∗ R c)
  post c := iprop(StableHlo.held (c : Thread nD τ) (Pipeline.ucRefs τ sig) (B30 m ρ c) ∗ R c)
  X c := iprop(∃ r, prngReg c r)
  Y c := iprop(∃ r, prngReg c r)
  Z c := Pipeline.unscopedRest (Ix := Unit) (Name := ℕ) (U := UR sig nD τ) (Lvl := ℕ) spec13 c (E13 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (E13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (E13 m ρ c) (X13 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg14.lean ====
/- Region 14 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (E14 m ρ) c).loose
  hwaits := Pipeline.hwaits_of_owed_zero _ _ _ _ L lv 14 fun _ _ => rfl
  pre c := iprop(StableHlo.held (c : Thread nD τ) (Pipeline.ucRefs τ sig) (B31 m ρ c) ∗ R c)
  post c := iprop(StableHlo.held (c : Thread nD τ) (Pipeline.ucRefs τ sig) (B32 m ρ c) ∗ R c)
  X c := iprop(∃ r, prngReg c r)
  Y c := iprop(∃ r, prngReg c r)
  Z c := Pipeline.unscopedRest (Ix := Unit) (Name := ℕ) (U := UR sig nD τ) (Lvl := ℕ) spec14 c (E14 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (E14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec14 c ⊢ (pdats m ρ 14 c).Φ 0 from hin14 (E14 m ρ) c)
    unfold Pipeline.ΦA
    iintro ⟨Hp, -, Hr⟩
    isplitl [Hr]; · iexact Hr
    iexact Hp
  hout c := by
    rw [Pipeline.ownSems0_none]
    refine BI.Laws.entails_trans (show (pdats m ρ 14 c).Φ (Fin.last _) ⊢ Pipeline.ΦA spec14 c from hout14 (E14 m ρ) c) ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (E14 m ρ c) (X14 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg15.lean ====
/- Region 15 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (E15 m ρ) c).loose
  hwaits := Pipeline.hwaits_of_owed_zero _ _ _ _ L lv 15 fun _ _ => rfl
  pre c := iprop(StableHlo.held (c : Thread nD τ) (Pipeline.ucRefs τ sig) (B33 m ρ c) ∗ R c)
  post c := iprop(StableHlo.held (c : Thread nD τ) (Pipeline.ucRefs τ sig) (B34 m ρ c) ∗ R c)
  X c := iprop(∃ r, prngReg c r)
  Y c := iprop(∃ r, prngReg c r)
  Z c := Pipeline.unscopedRest (Ix := Unit) (Name := ℕ) (U := UR sig nD τ) (Lvl := ℕ) spec15 c (E15 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec15 c ⊢ (pdats m ρ 15 c).Φ 0 from hin15 (E15 m ρ) c)
    unfold Pipeline.ΦA
    iintro ⟨Hp, -, Hr⟩
    isplitl [Hr]; · iexact Hr
    iexact Hp
  hout c := by
    rw [Pipeline.ownSems0_none]
    refine BI.Laws.entails_trans (show (pdats m ρ 15 c).Φ (Fin.last _) ⊢ Pipeline.ΦA spec15 c from hout15 (E15 m ρ) c) ?_
    unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (E15 m ρ c) (X15 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg16.lean ====
/- Region 16 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (E16 m ρ) c).loose
  hwaits := Pipeline.hwaits_of_owed_zero _ _ _ _ L lv 16 fun _ _ => rfl
  pre c := iprop(StableHlo.held (c : Thread nD τ) (Pipeline.ucRefs τ sig) (B35 m ρ c) ∗ R c)
  post c := iprop(StableHlo.held (c : Thread nD τ) (Pipeline.ucRefs τ sig) (B36 m ρ c) ∗ R c)
  X c := iprop(∃ r, prngReg c r)
  Y c := iprop(∃ r, prngReg c r)
  Z c := Pipeline.unscopedRest (Ix := Unit) (Name := ℕ) (U := UR sig nD τ) (Lvl := ℕ) spec16 c (E16 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (E16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (E16 m ρ c) (X16 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg17.lean ====
/- Region 17 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (E17 m ρ) c).loose
  hwaits := Pipeline.hwaits_of_owed_zero _ _ _ _ L lv 17 fun _ _ => rfl
  pre c := iprop(StableHlo.held (c : Thread nD τ) (Pipeline.ucRefs τ sig) (B37 m ρ c) ∗ R c)
  post c := iprop(StableHlo.held (c : Thread nD τ) (Pipeline.ucRefs τ sig) (B38 m ρ c) ∗ R c)
  X c := iprop(∃ r, prngReg c r)
  Y c := iprop(∃ r, prngReg c r)
  Z c := Pipeline.unscopedRest (Ix := Unit) (Name := ℕ) (U := UR sig nD τ) (Lvl := ℕ) spec17 c (E17 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (E17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (E17 m ρ c) (X17 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg18.lean ====
/- Region 18 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (E18 m ρ) c).loose
  hwaits := Pipeline.hwaits_of_owed_zero _ _ _ _ L lv 18 fun _ _ => rfl
  pre c := iprop(StableHlo.held (c : Thread nD τ) (Pipeline.ucRefs τ sig) (B39 m ρ c) ∗ R c)
  post c := iprop(StableHlo.held (c : Thread nD τ) (Pipeline.ucRefs τ sig) (B40 m ρ c) ∗ R c)
  X c := iprop(∃ r, prngReg c r)
  Y c := iprop(∃ r, prngReg c r)
  Z c := Pipeline.unscopedRest (Ix := Unit) (Name := ℕ) (U := UR sig nD τ) (Lvl := ℕ) spec18 c (E18 m ρ c)
  hentry c := by
    rw [Pipeline.ownSems0_none]
    have hsplit := Pipeline.arrays_of_unscopedBufs (p := 18) (pcfgs (F := F)) adm (pdats m ρ) launch18.win launch18.arr_whole c
      ((pdats m ρ 18 c).share_full fun _ => rfl) (E18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec18 c ⊢ (pdats m ρ 18 c).Φ 0 from hin18 (E18 m ρ) c)
    unfold Pipeline.ΦA
    iintro ⟨Hp, -, Hr⟩
    isplitl [Hr]; · iexact Hr
    iexact Hp
  hout c := by
    rw [Pipeline.ownSems0_none]
    refine BI.Laws.entails_trans (show (pdats m ρ 18 c).Φ (Fin.last _) ⊢ Pipeline.ΦA spec18 c from hout18 (E18 m ρ) c) ?_
    unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (E18 m ρ c) (X18 m ρ c) ((pdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg19.lean ====
/- Region 19 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg19 : Pipeline.RegionSeg (pcfgs (F := F)) adm (pdats m ρ) () defs₀ 𝒱₀ L lv 19 where
  win := launch19.win.to₀
  block_pos := launch19.block_pos
  stage_whole := launch19.stage_whole
  K := PEmpty
  osem k := k.elim
  ho := Pipeline.OwnSemFacts.none _
  hbody c := (body_obligation19 (E19 m ρ) c).loose
  hwaits := Pipeline.hwaits_of_owed_zero _ _ _ _ L lv 19 fun _ _ => rfl
  pre c := iprop(StableHlo.held (c : Thread nD τ) (Pipeline.ucRefs τ sig) (B41 m ρ c) ∗ R c)
  post c := iprop(StableHlo.held (c : Thread nD τ) (Pipeline.ucRefs τ sig) (B42 m ρ c) ∗ R c)
  X c := iprop(∃ r, prngReg c r)
  Y c := iprop(∃ r, prngReg c r)
  Z c := Pipeline.unscopedRest (Ix := Unit) (Name := ℕ) (U := UR sig nD τ) (Lvl := ℕ) spec19 c (E19 m ρ c)
  hentry c := by
    rw [Pipeline.ownSems0_none]
    have hsplit := Pipeline.arrays_of_unscopedBufs (p := 19) (pcfgs (F := F)) adm (pdats m ρ) launch19.win launch19.arr_whole c
      ((pdats m ρ 19 c).share_full fun _ => rfl) (E19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec19 c ⊢ (pdats m ρ 19 c).Φ 0 from hin19 (E19 m ρ) c)
    unfold Pipeline.ΦA
    iintro ⟨Hp, -, Hr⟩
    isplitl [Hr]; · iexact Hr
    iexact Hp
  hout c := by
    rw [Pipeline.ownSems0_none]
    refine BI.Laws.entails_trans (show (pdats m ρ 19 c).Φ (Fin.last _) ⊢ Pipeline.ΦA spec19 c from hout19 (E19 m ρ) c) ?_
    unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m ρ) ((pdats m ρ 19 c).share_full fun _ => rfl)
      (E19 m ρ c) (X19 m ρ c) ((pdats m ρ 19 c).arrAt · cfg19.N) (hF19 m ρ c) (hrest19 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg20.lean ====
/- Region 20 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg20 : Pipeline.RegionSeg (pcfgs (F := F)) adm (pdats m ρ) () defs₀ 𝒱₀ L lv 20 where
  win := launch20.win.to₀
  block_pos := launch20.block_pos
  stage_whole := launch20.stage_whole
  K := PEmpty
  osem k := k.elim
  ho := Pipeline.OwnSemFacts.none _
  hbody c := (body_obligation20 (E20 m ρ) c).loose
  hwaits := Pipeline.hwaits_of_owed_zero _ _ _ _ L lv 20 fun _ _ => rfl
  pre c := iprop(StableHlo.held (c : Thread nD τ) (Pipeline.ucRefs τ sig) (B43 m ρ c) ∗ R c)
  post c := iprop(StableHlo.held (c : Thread nD τ) (Pipeline.ucRefs τ sig) (B44 m ρ c) ∗ R c)
  X c := iprop(∃ r, prngReg c r)
  Y c := iprop(∃ r, prngReg c r)
  Z c := Pipeline.unscopedRest (Ix := Unit) (Name := ℕ) (U := UR sig nD τ) (Lvl := ℕ) spec20 c (E20 m ρ c)
  hentry c := by
    rw [Pipeline.ownSems0_none]
    have hsplit := Pipeline.arrays_of_unscopedBufs (p := 20) (pcfgs (F := F)) adm (pdats m ρ) launch20.win launch20.arr_whole c
      ((pdats m ρ 20 c).share_full fun _ => rfl) (E20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m ρ 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m ρ) ((pdats m ρ 20 c).share_full fun _ => rfl)
      (E20 m ρ c) (X20 m ρ c) ((pdats m ρ 20 c).arrAt · cfg20.N) (hF20 m ρ c) (hrest20 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg21.lean ====
/- Region 21 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg21 : Pipeline.RegionSeg (pcfgs (F := F)) adm (pdats m ρ) () defs₀ 𝒱₀ L lv 21 where
  win := launch21.win.to₀
  block_pos := launch21.block_pos
  stage_whole := launch21.stage_whole
  K := PEmpty
  osem k := k.elim
  ho := Pipeline.OwnSemFacts.none _
  hbody c := (body_obligation21 (E21 m ρ) c).loose
  hwaits := Pipeline.hwaits_of_owed_zero _ _ _ _ L lv 21 fun _ _ => rfl
  pre c := iprop(StableHlo.held (c : Thread nD τ) (Pipeline.ucRefs τ sig) (B45 m ρ c) ∗ R c)
  post c := iprop(StableHlo.held (c : Thread nD τ) (Pipeline.ucRefs τ sig) (B46 m ρ c) ∗ R c)
  X c := iprop(∃ r, prngReg c r)
  Y c := iprop(∃ r, prngReg c r)
  Z c := Pipeline.unscopedRest (Ix := Unit) (Name := ℕ) (U := UR sig nD τ) (Lvl := ℕ) spec21 c (E21 m ρ c)
  hentry c := by
    rw [Pipeline.ownSems0_none]
    have hsplit := Pipeline.arrays_of_unscopedBufs (p := 21) (pcfgs (F := F)) adm (pdats m ρ) launch21.win launch21.arr_whole c
      ((pdats m ρ 21 c).share_full fun _ => rfl) (E21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m ρ 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) adm (Ix := Unit) (Name := ℕ) (U := UR sig nD τ) (Lvl := ℕ)
      launch21.win launch21.arr_whole c (pdats m ρ) ((pdats m ρ 21 c).share_full fun _ => rfl)
      (E21 m ρ c) (X21 m ρ c) ((pdats m ρ 21 c).arrAt · cfg21.N) (hF21 m ρ c) (hrest21 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg22.lean ====
/- Region 22 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg22 : Pipeline.RegionSeg (pcfgs (F := F)) adm (pdats m ρ) () defs₀ 𝒱₀ L lv 22 where
  win := launch22.win.to₀
  block_pos := launch22.block_pos
  stage_whole := launch22.stage_whole
  K := PEmpty
  osem k := k.elim
  ho := Pipeline.OwnSemFacts.none _
  hbody c := (body_obligation22 (E22 m ρ) c).loose
  hwaits := Pipeline.hwaits_of_owed_zero _ _ _ _ L lv 22 fun _ _ => rfl
  pre c := iprop(StableHlo.held (c : Thread nD τ) (Pipeline.ucRefs τ sig) (B47 m ρ c) ∗ R c)
  post c := iprop(StableHlo.held (c : Thread nD τ) (Pipeline.ucRefs τ sig) (B48 m ρ c) ∗ R c)
  X c := iprop(∃ r, prngReg c r)
  Y c := iprop(∃ r, prngReg c r)
  Z c := Pipeline.unscopedRest (Ix := Unit) (Name := ℕ) (U := UR sig nD τ) (Lvl := ℕ) spec22 c (E22 m ρ c)
  hentry c := by
    rw [Pipeline.ownSems0_none]
    have hsplit := Pipeline.arrays_of_unscopedBufs (p := 22) (pcfgs (F := F)) adm (pdats m ρ) launch22.win launch22.arr_whole c
      ((pdats m ρ 22 c).share_full fun _ => rfl) (E22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec22 c ⊢ (pdats m ρ 22 c).Φ 0 from hin22 (E22 m ρ) c)
    unfold Pipeline.ΦA
    iintro ⟨Hp, -, Hr⟩
    isplitl [Hr]; · iexact Hr
    iexact Hp
  hout c := by
    rw [Pipeline.ownSems0_none]
    refine BI.Laws.entails_trans (show (pdats m ρ 22 c).Φ (Fin.last _) ⊢ Pipeline.ΦA spec22 c from hout22 (E22 m ρ) c) ?_
    unfold Pipeline.ΦA
    iintro ⟨Hr, Hp⟩
    isplitl [Hp]; · iexact Hp
    isplitr; · iempintro
    iexact Hr
  hexit c := by
    have hjoin := Pipeline.unscopedBufs_of_arrays (p := 22) (pcfgs (F := F)) adm (Ix := Unit) (Name := ℕ) (U := UR sig nD τ) (Lvl := ℕ)
      launch22.win launch22.arr_whole c (pdats m ρ) ((pdats m ρ 22 c).share_full fun _ => rfl)
      (E22 m ρ c) (X22 m ρ c) ((pdats m ρ 22 c).arrAt · cfg22.N) (hF22 m ρ c) (hrest22 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg23.lean ====
/- Region 23 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg23 : Pipeline.RegionSeg (pcfgs (F := F)) adm (pdats m ρ) () defs₀ 𝒱₀ L lv 23 where
  win := launch23.win.to₀
  block_pos := launch23.block_pos
  stage_whole := launch23.stage_whole
  K := PEmpty
  osem k := k.elim
  ho := Pipeline.OwnSemFacts.none _
  hbody c := (body_obligation23 (E23 m ρ) c).loose
  hwaits := Pipeline.hwaits_of_owed_zero _ _ _ _ L lv 23 fun _ _ => rfl
  pre c := iprop(StableHlo.held (c : Thread nD τ) (Pipeline.ucRefs τ sig) (B49 m ρ c) ∗ R c)
  post c := iprop(StableHlo.held (c : Thread nD τ) (Pipeline.ucRefs τ sig) (B50 m ρ c) ∗ R c)
  X c := iprop(∃ r, prngReg c r)
  Y c := iprop(∃ r, prngReg c r)
  Z c := Pipeline.unscopedRest (Ix := Unit) (Name := ℕ) (U := UR sig nD τ) (Lvl := ℕ) spec23 c (E23 m ρ c)
  hentry c := by
    rw [Pipeline.ownSems0_none]
    have hsplit := Pipeline.arrays_of_unscopedBufs (p := 23) (pcfgs (F := F)) adm (pdats m ρ) launch23.win launch23.arr_whole c
      ((pdats m ρ 23 c).share_full fun _ => rfl) (E23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec23 c ⊢ (pdats m ρ 23 c).Φ 0 from hin23 (E23 m ρ) c)
    unfold Pipeline.ΦA
    iintro ⟨Hp, -, Hr⟩
    isplitl [Hr]; · iexact Hr
    iexact Hp
  hout c := by
    rw [Pipeline.ownSems0_none]
    refine BI.Laws.entails_trans (show (pdats m ρ 23 c).Φ (Fin.last _) ⊢ Pipeline.ΦA spec23 c from hout23 (E23 m ρ) c) ?_
    unfold Pipeline.ΦA
    iintro ⟨Hr, Hp⟩
    isplitl [Hp]; · iexact Hp
    isplitr; · iempintro
    iexact Hr
  hexit c := by
    have hjoin := Pipeline.unscopedBufs_of_arrays (p := 23) (pcfgs (F := F)) adm (Ix := Unit) (Name := ℕ) (U := UR sig nD τ) (Lvl := ℕ)
      launch23.win launch23.arr_whole c (pdats m ρ) ((pdats m ρ 23 c).share_full fun _ => rfl)
      (E23 m ρ c) (X23 m ρ c) ((pdats m ρ 23 c).arrAt · cfg23.N) (hF23 m ρ c) (hrest23 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg24.lean ====
/- Region 24 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg24 : Pipeline.RegionSeg (pcfgs (F := F)) adm (pdats m ρ) () defs₀ 𝒱₀ L lv 24 where
  win := launch24.win.to₀
  block_pos := launch24.block_pos
  stage_whole := launch24.stage_whole
  K := PEmpty
  osem k := k.elim
  ho := Pipeline.OwnSemFacts.none _
  hbody c := (body_obligation24 (E24 m ρ) c).loose
  hwaits := Pipeline.hwaits_of_owed_zero _ _ _ _ L lv 24 fun _ _ => rfl
  pre c := iprop(StableHlo.held (c : Thread nD τ) (Pipeline.ucRefs τ sig) (B51 m ρ c) ∗ R c)
  post c := iprop(StableHlo.held (c : Thread nD τ) (Pipeline.ucRefs τ sig) (B52 m ρ c) ∗ R c)
  X c := iprop(∃ r, prngReg c r)
  Y c := iprop(∃ r, prngReg c r)
  Z c := Pipeline.unscopedRest (Ix := Unit) (Name := ℕ) (U := UR sig nD τ) (Lvl := ℕ) spec24 c (E24 m ρ c)
  hentry c := by
    rw [Pipeline.ownSems0_none]
    have hsplit := Pipeline.arrays_of_unscopedBufs (p := 24) (pcfgs (F := F)) adm (pdats m ρ) launch24.win launch24.arr_whole c
      ((pdats m ρ 24 c).share_full fun _ => rfl) (E24 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 24 c).Φ 0 = Pipeline.ΦA spec24 c from rfl]; unfold Pipeline.ΦA
    iintro ⟨Hp, -, Hr⟩
    isplitl [Hr]; · iexact Hr
    iexact Hp
  hout c := by
    rw [Pipeline.ownSems0_none, show (pdats m ρ 24 c).Φ (Fin.last _) = Pipeline.ΦA spec24 c from rfl]; unfold Pipeline.ΦA
    iintro ⟨Hr, Hp⟩
    isplitl [Hp]; · iexact Hp
    isplitr; · iempintro
    iexact Hr
  hexit c := by
    have hjoin := Pipeline.unscopedBufs_of_arrays (p := 24) (pcfgs (F := F)) adm (Ix := Unit) (Name := ℕ) (U := UR sig nD τ) (Lvl := ℕ)
      launch24.win launch24.arr_whole c (pdats m ρ) ((pdats m ρ 24 c).share_full fun _ => rfl)
      (E24 m ρ c) (X24 m ρ c) ((pdats m ρ 24 c).arrAt · cfg24.N) (hF24 m ρ c) (hrest24 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg25.lean ====
/- Region 25 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg25 : Pipeline.RegionSeg (pcfgs (F := F)) adm (pdats m ρ) () defs₀ 𝒱₀ L lv 25 where
  win := launch25.win.to₀
  block_pos := launch25.block_pos
  stage_whole := launch25.stage_whole
  K := PEmpty
  osem k := k.elim
  ho := Pipeline.OwnSemFacts.none _
  hbody c := (body_obligation25 (E25 m ρ) c).loose
  hwaits := Pipeline.hwaits_of_owed_zero _ _ _ _ L lv 25 fun _ _ => rfl
  pre c := iprop(StableHlo.held (c : Thread nD τ) (Pipeline.ucRefs τ sig) (B53 m ρ c) ∗ R c)
  post c := iprop(StableHlo.held (c : Thread nD τ) (Pipeline.ucRefs τ sig) (B54 m ρ c) ∗ R c)
  X c := iprop(∃ r, prngReg c r)
  Y c := iprop(∃ r, prngReg c r)
  Z c := Pipeline.unscopedRest (Ix := Unit) (Name := ℕ) (U := UR sig nD τ) (Lvl := ℕ) spec25 c (E25 m ρ c)
  hentry c := by
    rw [Pipeline.ownSems0_none]
    have hsplit := Pipeline.arrays_of_unscopedBufs (p := 25) (pcfgs (F := F)) adm (pdats m ρ) launch25.win launch25.arr_whole c
      ((pdats m ρ 25 c).share_full fun _ => rfl) (E25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 25 c).Φ 0 = Pipeline.ΦA spec25 c from rfl]; unfold Pipeline.ΦA
    iintro ⟨Hp, -, Hr⟩
    isplitl [Hr]; · iexact Hr
    iexact Hp
  hout c := by
    rw [Pipeline.ownSems0_none, show (pdats m ρ 25 c).Φ (Fin.last _) = Pipeline.ΦA spec25 c from rfl]; unfold Pipeline.ΦA
    iintro ⟨Hr, Hp⟩
    isplitl [Hp]; · iexact Hp
    isplitr; · iempintro
    iexact Hr
  hexit c := by
    have hjoin := Pipeline.unscopedBufs_of_arrays (p := 25) (pcfgs (F := F)) adm (Ix := Unit) (Name := ℕ) (U := UR sig nD τ) (Lvl := ℕ)
      launch25.win launch25.arr_whole c (pdats m ρ) ((pdats m ρ 25 c).share_full fun _ => rfl)
      (E25 m ρ c) (X25 m ρ c) ((pdats m ρ 25 c).arrAt · cfg25.N) (hF25 m ρ c) (hrest25 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg26.lean ====
/- Region 26 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg26 : Pipeline.RegionSeg (pcfgs (F := F)) adm (pdats m ρ) () defs₀ 𝒱₀ L lv 26 where
  win := launch26.win.to₀
  block_pos := launch26.block_pos
  stage_whole := launch26.stage_whole
  K := PEmpty
  osem k := k.elim
  ho := Pipeline.OwnSemFacts.none _
  hbody c := (body_obligation26 (E26 m ρ) c).loose
  hwaits := Pipeline.hwaits_of_owed_zero _ _ _ _ L lv 26 fun _ _ => rfl
  pre c := iprop(StableHlo.held (c : Thread nD τ) (Pipeline.ucRefs τ sig) (B55 m ρ c) ∗ R c)
  post c := iprop(StableHlo.held (c : Thread nD τ) (Pipeline.ucRefs τ sig) (B56 m ρ c) ∗ R c)
  X c := iprop(∃ r, prngReg c r)
  Y c := iprop(∃ r, prngReg c r)
  Z c := Pipeline.unscopedRest (Ix := Unit) (Name := ℕ) (U := UR sig nD τ) (Lvl := ℕ) spec26 c (E26 m ρ c)
  hentry c := by
    rw [Pipeline.ownSems0_none]
    have hsplit := Pipeline.arrays_of_unscopedBufs (p := 26) (pcfgs (F := F)) adm (pdats m ρ) launch26.win launch26.arr_whole c
      ((pdats m ρ 26 c).share_full fun _ => rfl) (E26 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec26 c ⊢ (pdats m ρ 26 c).Φ 0 from hin26 (E26 m ρ) c)
    unfold Pipeline.ΦA
    iintro ⟨Hp, -, Hr⟩
    isplitl [Hr]; · iexact Hr
    iexact Hp
  hout c := by
    rw [Pipeline.ownSems0_none]
    refine BI.Laws.entails_trans (show (pdats m ρ 26 c).Φ (Fin.last _) ⊢ Pipeline.ΦA spec26 c from hout26 (E26 m ρ) c) ?_
    unfold Pipeline.ΦA
    iintro ⟨Hr, Hp⟩
    isplitl [Hp]; · iexact Hp
    isplitr; · iempintro
    iexact Hr
  hexit c := by
    have hjoin := Pipeline.unscopedBufs_of_arrays (p := 26) (pcfgs (F := F)) adm (Ix := Unit) (Name := ℕ) (U := UR sig nD τ) (Lvl := ℕ)
      launch26.win launch26.arr_whole c (pdats m ρ) ((pdats m ρ 26 c).share_full fun _ => rfl)
      (E26 m ρ c) (X26 m ρ c) ((pdats m ρ 26 c).arrAt · cfg26.N) (hF26 m ρ c) (hrest26 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg27.lean ====
/- Region 27 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg27 : Pipeline.RegionSeg (pcfgs (F := F)) adm (pdats m ρ) () defs₀ 𝒱₀ L lv 27 where
  win := launch27.win.to₀
  block_pos := launch27.block_pos
  stage_whole := launch27.stage_whole
  K := PEmpty
  osem k := k.elim
  ho := Pipeline.OwnSemFacts.none _
  hbody c := (body_obligation27 (E27 m ρ) c).loose
  hwaits := Pipeline.hwaits_of_owed_zero _ _ _ _ L lv 27 fun _ _ => rfl
  pre c := iprop(StableHlo.held (c : Thread nD τ) (Pipeline.ucRefs τ sig) (B57 m ρ c) ∗ R c)
  post c := iprop(StableHlo.held (c : Thread nD τ) (Pipeline.ucRefs τ sig) (B58 m ρ c) ∗ R c)
  X c := iprop(∃ r, prngReg c r)
  Y c := iprop(∃ r, prngReg c r)
  Z c := Pipeline.unscopedRest (Ix := Unit) (Name := ℕ) (U := UR sig nD τ) (Lvl := ℕ) spec27 c (E27 m ρ c)
  hentry c := by
    rw [Pipeline.ownSems0_none]
    have hsplit := Pipeline.arrays_of_unscopedBufs (p := 27) (pcfgs (F := F)) adm (pdats m ρ) launch27.win launch27.arr_whole c
      ((pdats m ρ 27 c).share_full fun _ => rfl) (E27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec27 c ⊢ (pdats m ρ 27 c).Φ 0 from hin27 (E27 m ρ) c)
    unfold Pipeline.ΦA
    iintro ⟨Hp, -, Hr⟩
    isplitl [Hr]; · iexact Hr
    iexact Hp
  hout c := by
    rw [Pipeline.ownSems0_none]
    refine BI.Laws.entails_trans (show (pdats m ρ 27 c).Φ (Fin.last _) ⊢ Pipeline.ΦA spec27 c from hout27 (E27 m ρ) c) ?_
    unfold Pipeline.ΦA
    iintro ⟨Hr, Hp⟩
    isplitl [Hp]; · iexact Hp
    isplitr; · iempintro
    iexact Hr
  hexit c := by
    have hjoin := Pipeline.unscopedBufs_of_arrays (p := 27) (pcfgs (F := F)) adm (Ix := Unit) (Name := ℕ) (U := UR sig nD τ) (Lvl := ℕ)
      launch27.win launch27.arr_whole c (pdats m ρ) ((pdats m ρ 27 c).share_full fun _ => rfl)
      (E27 m ρ c) (X27 m ρ c) ((pdats m ρ 27 c).arrAt · cfg27.N) (hF27 m ρ c) (hrest27 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg28.lean ====
/- Region 28 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg28 : Pipeline.RegionSeg (pcfgs (F := F)) adm (pdats m ρ) () defs₀ 𝒱₀ L lv 28 where
  win := launch28.win.to₀
  block_pos := launch28.block_pos
  stage_whole := launch28.stage_whole
  K := PEmpty
  osem k := k.elim
  ho := Pipeline.OwnSemFacts.none _
  hbody c := (body_obligation28 (E28 m ρ) c).loose
  hwaits := Pipeline.hwaits_of_owed_zero _ _ _ _ L lv 28 fun _ _ => rfl
  pre c := iprop(StableHlo.held (c : Thread nD τ) (Pipeline.ucRefs τ sig) (B59 m ρ c) ∗ R c)
  post c := iprop(StableHlo.held (c : Thread nD τ) (Pipeline.ucRefs τ sig) (B60 m ρ c) ∗ R c)
  X c := iprop(∃ r, prngReg c r)
  Y c := iprop(∃ r, prngReg c r)
  Z c := Pipeline.unscopedRest (Ix := Unit) (Name := ℕ) (U := UR sig nD τ) (Lvl := ℕ) spec28 c (E28 m ρ c)
  hentry c := by
    rw [Pipeline.ownSems0_none]
    have hsplit := Pipeline.arrays_of_unscopedBufs (p := 28) (pcfgs (F := F)) adm (pdats m ρ) launch28.win launch28.arr_whole c
      ((pdats m ρ 28 c).share_full fun _ => rfl) (E28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 28 c).Φ 0 = Pipeline.ΦA spec28 c from rfl]; unfold Pipeline.ΦA
    iintro ⟨Hp, -, Hr⟩
    isplitl [Hr]; · iexact Hr
    iexact Hp
  hout c := by
    rw [Pipeline.ownSems0_none, show (pdats m ρ 28 c).Φ (Fin.last _) = Pipeline.ΦA spec28 c from rfl]; unfold Pipeline.ΦA
    iintro ⟨Hr, Hp⟩
    isplitl [Hp]; · iexact Hp
    isplitr; · iempintro
    iexact Hr
  hexit c := by
    have hjoin := Pipeline.unscopedBufs_of_arrays (p := 28) (pcfgs (F := F)) adm (Ix := Unit) (Name := ℕ) (U := UR sig nD τ) (Lvl := ℕ)
      launch28.win launch28.arr_whole c (pdats m ρ) ((pdats m ρ 28 c).share_full fun _ => rfl)
      (E28 m ρ c) (X28 m ρ c) ((pdats m ρ 28 c).arrAt · cfg28.N) (hF28 m ρ c) (hrest28 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg29.lean ====
/- Region 29 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg29 : Pipeline.RegionSeg (pcfgs (F := F)) adm (pdats m ρ) () defs₀ 𝒱₀ L lv 29 where
  win := launch29.win.to₀
  block_pos := launch29.block_pos
  stage_whole := launch29.stage_whole
  K := PEmpty
  osem k := k.elim
  ho := Pipeline.OwnSemFacts.none _
  hbody c := (body_obligation29 (E29 m ρ) c).loose
  hwaits := Pipeline.hwaits_of_owed_zero _ _ _ _ L lv 29 fun _ _ => rfl
  pre c := iprop(StableHlo.held (c : Thread nD τ) (Pipeline.ucRefs τ sig) (B61 m ρ c) ∗ R c)
  post c := iprop(StableHlo.held (c : Thread nD τ) (Pipeline.ucRefs τ sig) (B62 m ρ c) ∗ R c)
  X c := iprop(∃ r, prngReg c r)
  Y c := iprop(∃ r, prngReg c r)
  Z c := Pipeline.unscopedRest (Ix := Unit) (Name := ℕ) (U := UR sig nD τ) (Lvl := ℕ) spec29 c (E29 m ρ c)
  hentry c := by
    rw [Pipeline.ownSems0_none]
    have hsplit := Pipeline.arrays_of_unscopedBufs (p := 29) (pcfgs (F := F)) adm (pdats m ρ) launch29.win launch29.arr_whole c
      ((pdats m ρ 29 c).share_full fun _ => rfl) (E29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 29 c).Φ 0 = Pipeline.ΦA spec29 c from rfl]; unfold Pipeline.ΦA
    iintro ⟨Hp, -, Hr⟩
    isplitl [Hr]; · iexact Hr
    iexact Hp
  hout c := by
    rw [Pipeline.ownSems0_none, show (pdats m ρ 29 c).Φ (Fin.last _) = Pipeline.ΦA spec29 c from rfl]; unfold Pipeline.ΦA
    iintro ⟨Hr, Hp⟩
    isplitl [Hp]; · iexact Hp
    isplitr; · iempintro
    iexact Hr
  hexit c := by
    have hjoin := Pipeline.unscopedBufs_of_arrays (p := 29) (pcfgs (F := F)) adm (Ix := Unit) (Name := ℕ) (U := UR sig nD τ) (Lvl := ℕ)
      launch29.win launch29.arr_whole c (pdats m ρ) ((pdats m ρ 29 c).share_full fun _ => rfl)
      (E29 m ρ c) (X29 m ρ c) ((pdats m ρ 29 c).arrAt · cfg29.N) (hF29 m ρ c) (hrest29 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg30.lean ====
/- Region 30 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg30 : Pipeline.RegionSeg (pcfgs (F := F)) adm (pdats m ρ) () defs₀ 𝒱₀ L lv 30 where
  win := launch30.win.to₀
  block_pos := launch30.block_pos
  stage_whole := launch30.stage_whole
  K := PEmpty
  osem k := k.elim
  ho := Pipeline.OwnSemFacts.none _
  hbody c := (body_obligation30 (E30 m ρ) c).loose
  hwaits := Pipeline.hwaits_of_owed_zero _ _ _ _ L lv 30 fun _ _ => rfl
  pre c := iprop(StableHlo.held (c : Thread nD τ) (Pipeline.ucRefs τ sig) (B63 m ρ c) ∗ R c)
  post c := iprop(StableHlo.held (c : Thread nD τ) (Pipeline.ucRefs τ sig) (B64 m ρ c) ∗ R c)
  X c := iprop(∃ r, prngReg c r)
  Y c := iprop(∃ r, prngReg c r)
  Z c := Pipeline.unscopedRest (Ix := Unit) (Name := ℕ) (U := UR sig nD τ) (Lvl := ℕ) spec30 c (E30 m ρ c)
  hentry c := by
    rw [Pipeline.ownSems0_none]
    have hsplit := Pipeline.arrays_of_unscopedBufs (p := 30) (pcfgs (F := F)) adm (pdats m ρ) launch30.win launch30.arr_whole c
      ((pdats m ρ 30 c).share_full fun _ => rfl) (E30 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec30 c ⊢ (pdats m ρ 30 c).Φ 0 from hin30 (E30 m ρ) c)
    unfold Pipeline.ΦA
    iintro ⟨Hp, -, Hr⟩
    isplitl [Hr]; · iexact Hr
    iexact Hp
  hout c := by
    rw [Pipeline.ownSems0_none]
    refine BI.Laws.entails_trans (show (pdats m ρ 30 c).Φ (Fin.last _) ⊢ Pipeline.ΦA spec30 c from hout30 (E30 m ρ) c) ?_
    unfold Pipeline.ΦA
    iintro ⟨Hr, Hp⟩
    isplitl [Hp]; · iexact Hp
    isplitr; · iempintro
    iexact Hr
  hexit c := by
    have hjoin := Pipeline.unscopedBufs_of_arrays (p := 30) (pcfgs (F := F)) adm (Ix := Unit) (Name := ℕ) (U := UR sig nD τ) (Lvl := ℕ)
      launch30.win launch30.arr_whole c (pdats m ρ) ((pdats m ρ 30 c).share_full fun _ => rfl)
      (E30 m ρ c) (X30 m ρ c) ((pdats m ρ 30 c).arrAt · cfg30.N) (hF30 m ρ c) (hrest30 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg31.lean ====
/- Region 31 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg31 : Pipeline.RegionSeg (pcfgs (F := F)) adm (pdats m ρ) () defs₀ 𝒱₀ L lv 31 where
  win := launch31.win.to₀
  block_pos := launch31.block_pos
  stage_whole := launch31.stage_whole
  K := PEmpty
  osem k := k.elim
  ho := Pipeline.OwnSemFacts.none _
  hbody c := (body_obligation31 (E31 m ρ) c).loose
  hwaits := Pipeline.hwaits_of_owed_zero _ _ _ _ L lv 31 fun _ _ => rfl
  pre c := iprop(StableHlo.held (c : Thread nD τ) (Pipeline.ucRefs τ sig) (B65 m ρ c) ∗ R c)
  post c := iprop(StableHlo.held (c : Thread nD τ) (Pipeline.ucRefs τ sig) (B66 m ρ c) ∗ R c)
  X c := iprop(∃ r, prngReg c r)
  Y c := iprop(∃ r, prngReg c r)
  Z c := Pipeline.unscopedRest (Ix := Unit) (Name := ℕ) (U := UR sig nD τ) (Lvl := ℕ) spec31 c (E31 m ρ c)
  hentry c := by
    rw [Pipeline.ownSems0_none]
    have hsplit := Pipeline.arrays_of_unscopedBufs (p := 31) (pcfgs (F := F)) adm (pdats m ρ) launch31.win launch31.arr_whole c
      ((pdats m ρ 31 c).share_full fun _ => rfl) (E31 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec31 c ⊢ (pdats m ρ 31 c).Φ 0 from hin31 (E31 m ρ) c)
    unfold Pipeline.ΦA
    iintro ⟨Hp, -, Hr⟩
    isplitl [Hr]; · iexact Hr
    iexact Hp
  hout c := by
    rw [Pipeline.ownSems0_none]
    refine BI.Laws.entails_trans (show (pdats m ρ 31 c).Φ (Fin.last _) ⊢ Pipeline.ΦA spec31 c from hout31 (E31 m ρ) c) ?_
    unfold Pipeline.ΦA
    iintro ⟨Hr, Hp⟩
    isplitl [Hp]; · iexact Hp
    isplitr; · iempintro
    iexact Hr
  hexit c := by
    have hjoin := Pipeline.unscopedBufs_of_arrays (p := 31) (pcfgs (F := F)) adm (Ix := Unit) (Name := ℕ) (U := UR sig nD τ) (Lvl := ℕ)
      launch31.win launch31.arr_whole c (pdats m ρ) ((pdats m ρ 31 c).share_full fun _ => rfl)
      (E31 m ρ c) (X31 m ρ c) ((pdats m ρ 31 c).arrAt · cfg31.N) (hF31 m ρ c) (hrest31 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg32.lean ====
/- Region 32 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg32 : Pipeline.RegionSeg (pcfgs (F := F)) adm (pdats m ρ) () defs₀ 𝒱₀ L lv 32 where
  win := launch32.win.to₀
  block_pos := launch32.block_pos
  stage_whole := launch32.stage_whole
  K := PEmpty
  osem k := k.elim
  ho := Pipeline.OwnSemFacts.none _
  hbody c := (body_obligation32 (E32 m ρ) c).loose
  hwaits := Pipeline.hwaits_of_owed_zero _ _ _ _ L lv 32 fun _ _ => rfl
  pre c := iprop(StableHlo.held (c : Thread nD τ) (Pipeline.ucRefs τ sig) (B67 m ρ c) ∗ R c)
  post c := iprop(StableHlo.held (c : Thread nD τ) (Pipeline.ucRefs τ sig) (B68 m ρ c) ∗ R c)
  X c := iprop(∃ r, prngReg c r)
  Y c := iprop(∃ r, prngReg c r)
  Z c := Pipeline.unscopedRest (Ix := Unit) (Name := ℕ) (U := UR sig nD τ) (Lvl := ℕ) spec32 c (E32 m ρ c)
  hentry c := by
    rw [Pipeline.ownSems0_none]
    have hsplit := Pipeline.arrays_of_unscopedBufs (p := 32) (pcfgs (F := F)) adm (pdats m ρ) launch32.win launch32.arr_whole c
      ((pdats m ρ 32 c).share_full fun _ => rfl) (E32 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 32 c).Φ 0 = Pipeline.ΦA spec32 c from rfl]; unfold Pipeline.ΦA
    iintro ⟨Hp, -, Hr⟩
    isplitl [Hr]; · iexact Hr
    iexact Hp
  hout c := by
    rw [Pipeline.ownSems0_none, show (pdats m ρ 32 c).Φ (Fin.last _) = Pipeline.ΦA spec32 c from rfl]; unfold Pipeline.ΦA
    iintro ⟨Hr, Hp⟩
    isplitl [Hp]; · iexact Hp
    isplitr; · iempintro
    iexact Hr
  hexit c := by
    have hjoin := Pipeline.unscopedBufs_of_arrays (p := 32) (pcfgs (F := F)) adm (Ix := Unit) (Name := ℕ) (U := UR sig nD τ) (Lvl := ℕ)
      launch32.win launch32.arr_whole c (pdats m ρ) ((pdats m ρ 32 c).share_full fun _ => rfl)
      (E32 m ρ c) (X32 m ρ c) ((pdats m ρ 32 c).arrAt · cfg32.N) (hF32 m ρ c) (hrest32 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg33.lean ====
/- Region 33 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg33 : Pipeline.RegionSeg (pcfgs (F := F)) adm (pdats m ρ) () defs₀ 𝒱₀ L lv 33 where
  win := launch33.win.to₀
  block_pos := launch33.block_pos
  stage_whole := launch33.stage_whole
  K := PEmpty
  osem k := k.elim
  ho := Pipeline.OwnSemFacts.none _
  hbody c := (body_obligation33 (E33 m ρ) c).loose
  hwaits := Pipeline.hwaits_of_owed_zero _ _ _ _ L lv 33 fun _ _ => rfl
  pre c := iprop(StableHlo.held (c : Thread nD τ) (Pipeline.ucRefs τ sig) (B69 m ρ c) ∗ R c)
  post c := iprop(StableHlo.held (c : Thread nD τ) (Pipeline.ucRefs τ sig) (B70 m ρ c) ∗ R c)
  X c := iprop(∃ r, prngReg c r)
  Y c := iprop(∃ r, prngReg c r)
  Z c := Pipeline.unscopedRest (Ix := Unit) (Name := ℕ) (U := UR sig nD τ) (Lvl := ℕ) spec33 c (E33 m ρ c)
  hentry c := by
    rw [Pipeline.ownSems0_none]
    have hsplit := Pipeline.arrays_of_unscopedBufs (p := 33) (pcfgs (F := F)) adm (pdats m ρ) launch33.win launch33.arr_whole c
      ((pdats m ρ 33 c).share_full fun _ => rfl) (E33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 33 c).Φ 0 = Pipeline.ΦA spec33 c from rfl]; unfold Pipeline.ΦA
    iintro ⟨Hp, -, Hr⟩
    isplitl [Hr]; · iexact Hr
    iexact Hp
  hout c := by
    rw [Pipeline.ownSems0_none, show (pdats m ρ 33 c).Φ (Fin.last _) = Pipeline.ΦA spec33 c from rfl]; unfold Pipeline.ΦA
    iintro ⟨Hr, Hp⟩
    isplitl [Hp]; · iexact Hp
    isplitr; · iempintro
    iexact Hr
  hexit c := by
    have hjoin := Pipeline.unscopedBufs_of_arrays (p := 33) (pcfgs (F := F)) adm (Ix := Unit) (Name := ℕ) (U := UR sig nD τ) (Lvl := ℕ)
      launch33.win launch33.arr_whole c (pdats m ρ) ((pdats m ρ 33 c).share_full fun _ => rfl)
      (E33 m ρ c) (X33 m ρ c) ((pdats m ρ 33 c).arrAt · cfg33.N) (hF33 m ρ c) (hrest33 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg34.lean ====
/- Region 34 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg34 : Pipeline.RegionSeg (pcfgs (F := F)) adm (pdats m ρ) () defs₀ 𝒱₀ L lv 34 where
  win := launch34.win.to₀
  block_pos := launch34.block_pos
  stage_whole := launch34.stage_whole
  K := PEmpty
  osem k := k.elim
  ho := Pipeline.OwnSemFacts.none _
  hbody c := (body_obligation34 (E34 m ρ) c).loose
  hwaits := Pipeline.hwaits_of_owed_zero _ _ _ _ L lv 34 fun _ _ => rfl
  pre c := iprop(StableHlo.held (c : Thread nD τ) (Pipeline.ucRefs τ sig) (B71 m ρ c) ∗ R c)
  post c := iprop(StableHlo.held (c : Thread nD τ) (Pipeline.ucRefs τ sig) (B72 m ρ c) ∗ R c)
  X c := iprop(∃ r, prngReg c r)
  Y c := iprop(∃ r, prngReg c r)
  Z c := Pipeline.unscopedRest (Ix := Unit) (Name := ℕ) (U := UR sig nD τ) (Lvl := ℕ) spec34 c (E34 m ρ c)
  hentry c := by
    rw [Pipeline.ownSems0_none]
    have hsplit := Pipeline.arrays_of_unscopedBufs (p := 34) (pcfgs (F := F)) adm (pdats m ρ) launch34.win launch34.arr_whole c
      ((pdats m ρ 34 c).share_full fun _ => rfl) (E34 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec34 c ⊢ (pdats m ρ 34 c).Φ 0 from hin34 (E34 m ρ) c)
    unfold Pipeline.ΦA
    iintro ⟨Hp, -, Hr⟩
    isplitl [Hr]; · iexact Hr
    iexact Hp
  hout c := by
    rw [Pipeline.ownSems0_none]
    refine BI.Laws.entails_trans (show (pdats m ρ 34 c).Φ (Fin.last _) ⊢ Pipeline.ΦA spec34 c from hout34 (E34 m ρ) c) ?_
    unfold Pipeline.ΦA
    iintro ⟨Hr, Hp⟩
    isplitl [Hp]; · iexact Hp
    isplitr; · iempintro
    iexact Hr
  hexit c := by
    have hjoin := Pipeline.unscopedBufs_of_arrays (p := 34) (pcfgs (F := F)) adm (Ix := Unit) (Name := ℕ) (U := UR sig nD τ) (Lvl := ℕ)
      launch34.win launch34.arr_whole c (pdats m ρ) ((pdats m ρ 34 c).share_full fun _ => rfl)
      (E34 m ρ c) (X34 m ρ c) ((pdats m ρ 34 c).arrAt · cfg34.N) (hF34 m ρ c) (hrest34 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg35.lean ====
/- Region 35 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg35 : Pipeline.RegionSeg (pcfgs (F := F)) adm (pdats m ρ) () defs₀ 𝒱₀ L lv 35 where
  win := launch35.win.to₀
  block_pos := launch35.block_pos
  stage_whole := launch35.stage_whole
  K := PEmpty
  osem k := k.elim
  ho := Pipeline.OwnSemFacts.none _
  hbody c := (body_obligation35 (E35 m ρ) c).loose
  hwaits := Pipeline.hwaits_of_owed_zero _ _ _ _ L lv 35 fun _ _ => rfl
  pre c := iprop(StableHlo.held (c : Thread nD τ) (Pipeline.ucRefs τ sig) (B73 m ρ c) ∗ R c)
  post c := iprop(StableHlo.held (c : Thread nD τ) (Pipeline.ucRefs τ sig) (B74 m ρ c) ∗ R c)
  X c := iprop(∃ r, prngReg c r)
  Y c := iprop(∃ r, prngReg c r)
  Z c := Pipeline.unscopedRest (Ix := Unit) (Name := ℕ) (U := UR sig nD τ) (Lvl := ℕ) spec35 c (E35 m ρ c)
  hentry c := by
    rw [Pipeline.ownSems0_none]
    have hsplit := Pipeline.arrays_of_unscopedBufs (p := 35) (pcfgs (F := F)) adm (pdats m ρ) launch35.win launch35.arr_whole c
      ((pdats m ρ 35 c).share_full fun _ => rfl) (E35 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec35 c ⊢ (pdats m ρ 35 c).Φ 0 from hin35 (E35 m ρ) c)
    unfold Pipeline.ΦA
    iintro ⟨Hp, -, Hr⟩
    isplitl [Hr]; · iexact Hr
    iexact Hp
  hout c := by
    rw [Pipeline.ownSems0_none]
    refine BI.Laws.entails_trans (show (pdats m ρ 35 c).Φ (Fin.last _) ⊢ Pipeline.ΦA spec35 c from hout35 (E35 m ρ) c) ?_
    unfold Pipeline.ΦA
    iintro ⟨Hr, Hp⟩
    isplitl [Hp]; · iexact Hp
    isplitr; · iempintro
    iexact Hr
  hexit c := by
    have hjoin := Pipeline.unscopedBufs_of_arrays (p := 35) (pcfgs (F := F)) adm (Ix := Unit) (Name := ℕ) (U := UR sig nD τ) (Lvl := ℕ)
      launch35.win launch35.arr_whole c (pdats m ρ) ((pdats m ρ 35 c).share_full fun _ => rfl)
      (E35 m ρ c) (X35 m ρ c) ((pdats m ρ 35 c).arrAt · cfg35.N) (hF35 m ρ c) (hrest35 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg36.lean ====
/- Region 36 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg36 : Pipeline.RegionSeg (pcfgs (F := F)) adm (pdats m ρ) () defs₀ 𝒱₀ L lv 36 where
  win := launch36.win.to₀
  block_pos := launch36.block_pos
  stage_whole := launch36.stage_whole
  K := PEmpty
  osem k := k.elim
  ho := Pipeline.OwnSemFacts.none _
  hbody c := (body_obligation36 (E36 m ρ) c).loose
  hwaits := Pipeline.hwaits_of_owed_zero _ _ _ _ L lv 36 fun _ _ => rfl
  pre c := iprop(StableHlo.held (c : Thread nD τ) (Pipeline.ucRefs τ sig) (B75 m ρ c) ∗ R c)
  post c := iprop(StableHlo.held (c : Thread nD τ) (Pipeline.ucRefs τ sig) (B76 m ρ c) ∗ R c)
  X c := iprop(∃ r, prngReg c r)
  Y c := iprop(∃ r, prngReg c r)
  Z c := Pipeline.unscopedRest (Ix := Unit) (Name := ℕ) (U := UR sig nD τ) (Lvl := ℕ) spec36 c (E36 m ρ c)
  hentry c := by
    rw [Pipeline.ownSems0_none]
    have hsplit := Pipeline.arrays_of_unscopedBufs (p := 36) (pcfgs (F := F)) adm (pdats m ρ) launch36.win launch36.arr_whole c
      ((pdats m ρ 36 c).share_full fun _ => rfl) (E36 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 36 c).Φ 0 = Pipeline.ΦA spec36 c from rfl]; unfold Pipeline.ΦA
    iintro ⟨Hp, -, Hr⟩
    isplitl [Hr]; · iexact Hr
    iexact Hp
  hout c := by
    rw [Pipeline.ownSems0_none, show (pdats m ρ 36 c).Φ (Fin.last _) = Pipeline.ΦA spec36 c from rfl]; unfold Pipeline.ΦA
    iintro ⟨Hr, Hp⟩
    isplitl [Hp]; · iexact Hp
    isplitr; · iempintro
    iexact Hr
  hexit c := by
    have hjoin := Pipeline.unscopedBufs_of_arrays (p := 36) (pcfgs (F := F)) adm (Ix := Unit) (Name := ℕ) (U := UR sig nD τ) (Lvl := ℕ)
      launch36.win launch36.arr_whole c (pdats m ρ) ((pdats m ρ 36 c).share_full fun _ => rfl)
      (E36 m ρ c) (X36 m ρ c) ((pdats m ρ 36 c).arrAt · cfg36.N) (hF36 m ρ c) (hrest36 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg37.lean ====
/- Region 37 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg37 : Pipeline.RegionSeg (pcfgs (F := F)) adm (pdats m ρ) () defs₀ 𝒱₀ L lv 37 where
  win := launch37.win.to₀
  block_pos := launch37.block_pos
  stage_whole := launch37.stage_whole
  K := PEmpty
  osem k := k.elim
  ho := Pipeline.OwnSemFacts.none _
  hbody c := (body_obligation37 (E37 m ρ) c).loose
  hwaits := Pipeline.hwaits_of_owed_zero _ _ _ _ L lv 37 fun _ _ => rfl
  pre c := iprop(StableHlo.held (c : Thread nD τ) (Pipeline.ucRefs τ sig) (B77 m ρ c) ∗ R c)
  post c := iprop(StableHlo.held (c : Thread nD τ) (Pipeline.ucRefs τ sig) (B78 m ρ c) ∗ R c)
  X c := iprop(∃ r, prngReg c r)
  Y c := iprop(∃ r, prngReg c r)
  Z c := Pipeline.unscopedRest (Ix := Unit) (Name := ℕ) (U := UR sig nD τ) (Lvl := ℕ) spec37 c (E37 m ρ c)
  hentry c := by
    rw [Pipeline.ownSems0_none]
    have hsplit := Pipeline.arrays_of_unscopedBufs (p := 37) (pcfgs (F := F)) adm (pdats m ρ) launch37.win launch37.arr_whole c
      ((pdats m ρ 37 c).share_full fun _ => rfl) (E37 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 37 c).Φ 0 = Pipeline.ΦA spec37 c from rfl]; unfold Pipeline.ΦA
    iintro ⟨Hp, -, Hr⟩
    isplitl [Hr]; · iexact Hr
    iexact Hp
  hout c := by
    rw [Pipeline.ownSems0_none, show (pdats m ρ 37 c).Φ (Fin.last _) = Pipeline.ΦA spec37 c from rfl]; unfold Pipeline.ΦA
    iintro ⟨Hr, Hp⟩
    isplitl [Hp]; · iexact Hp
    isplitr; · iempintro
    iexact Hr
  hexit c := by
    have hjoin := Pipeline.unscopedBufs_of_arrays (p := 37) (pcfgs (F := F)) adm (Ix := Unit) (Name := ℕ) (U := UR sig nD τ) (Lvl := ℕ)
      launch37.win launch37.arr_whole c (pdats m ρ) ((pdats m ρ 37 c).share_full fun _ => rfl)
      (E37 m ρ c) (X37 m ρ c) ((pdats m ρ 37 c).arrAt · cfg37.N) (hF37 m ρ c) (hrest37 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg38.lean ====
/- Region 38 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg38 : Pipeline.RegionSeg (pcfgs (F := F)) adm (pdats m ρ) () defs₀ 𝒱₀ L lv 38 where
  win := launch38.win.to₀
  block_pos := launch38.block_pos
  stage_whole := launch38.stage_whole
  K := PEmpty
  osem k := k.elim
  ho := Pipeline.OwnSemFacts.none _
  hbody c := (body_obligation38 (E38 m ρ) c).loose
  hwaits := Pipeline.hwaits_of_owed_zero _ _ _ _ L lv 38 fun _ _ => rfl
  pre c := iprop(StableHlo.held (c : Thread nD τ) (Pipeline.ucRefs τ sig) (B79 m ρ c) ∗ R c)
  post c := iprop(StableHlo.held (c : Thread nD τ) (Pipeline.ucRefs τ sig) (B80 m ρ c) ∗ R c)
  X c := iprop(∃ r, prngReg c r)
  Y c := iprop(∃ r, prngReg c r)
  Z c := Pipeline.unscopedRest (Ix := Unit) (Name := ℕ) (U := UR sig nD τ) (Lvl := ℕ) spec38 c (E38 m ρ c)
  hentry c := by
    rw [Pipeline.ownSems0_none]
    have hsplit := Pipeline.arrays_of_unscopedBufs (p := 38) (pcfgs (F := F)) adm (pdats m ρ) launch38.win launch38.arr_whole c
      ((pdats m ρ 38 c).share_full fun _ => rfl) (E38 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec38 c ⊢ (pdats m ρ 38 c).Φ 0 from hin38 (E38 m ρ) c)
    unfold Pipeline.ΦA
    iintro ⟨Hp, -, Hr⟩
    isplitl [Hr]; · iexact Hr
    iexact Hp
  hout c := by
    rw [Pipeline.ownSems0_none]
    refine BI.Laws.entails_trans (show (pdats m ρ 38 c).Φ (Fin.last _) ⊢ Pipeline.ΦA spec38 c from hout38 (E38 m ρ) c) ?_
    unfold Pipeline.ΦA
    iintro ⟨Hr, Hp⟩
    isplitl [Hp]; · iexact Hp
    isplitr; · iempintro
    iexact Hr
  hexit c := by
    have hjoin := Pipeline.unscopedBufs_of_arrays (p := 38) (pcfgs (F := F)) adm (Ix := Unit) (Name := ℕ) (U := UR sig nD τ) (Lvl := ℕ)
      launch38.win launch38.arr_whole c (pdats m ρ) ((pdats m ρ 38 c).share_full fun _ => rfl)
      (E38 m ρ c) (X38 m ρ c) ((pdats m ρ 38 c).arrAt · cfg38.N) (hF38 m ρ c) (hrest38 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg39.lean ====
/- Region 39 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg39 : Pipeline.RegionSeg (pcfgs (F := F)) adm (pdats m ρ) () defs₀ 𝒱₀ L lv 39 where
  win := launch39.win.to₀
  block_pos := launch39.block_pos
  stage_whole := launch39.stage_whole
  K := PEmpty
  osem k := k.elim
  ho := Pipeline.OwnSemFacts.none _
  hbody c := (body_obligation39 (E39 m ρ) c).loose
  hwaits := Pipeline.hwaits_of_owed_zero _ _ _ _ L lv 39 fun _ _ => rfl
  pre c := iprop(StableHlo.held (c : Thread nD τ) (Pipeline.ucRefs τ sig) (B81 m ρ c) ∗ R c)
  post c := iprop(StableHlo.held (c : Thread nD τ) (Pipeline.ucRefs τ sig) (B82 m ρ c) ∗ R c)
  X c := iprop(∃ r, prngReg c r)
  Y c := iprop(∃ r, prngReg c r)
  Z c := Pipeline.unscopedRest (Ix := Unit) (Name := ℕ) (U := UR sig nD τ) (Lvl := ℕ) spec39 c (E39 m ρ c)
  hentry c := by
    rw [Pipeline.ownSems0_none]
    have hsplit := Pipeline.arrays_of_unscopedBufs (p := 39) (pcfgs (F := F)) adm (pdats m ρ) launch39.win launch39.arr_whole c
      ((pdats m ρ 39 c).share_full fun _ => rfl) (E39 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec39 c ⊢ (pdats m ρ 39 c).Φ 0 from hin39 (E39 m ρ) c)
    unfold Pipeline.ΦA
    iintro ⟨Hp, -, Hr⟩
    isplitl [Hr]; · iexact Hr
    iexact Hp
  hout c := by
    rw [Pipeline.ownSems0_none]
    refine BI.Laws.entails_trans (show (pdats m ρ 39 c).Φ (Fin.last _) ⊢ Pipeline.ΦA spec39 c from hout39 (E39 m ρ) c) ?_
    unfold Pipeline.ΦA
    iintro ⟨Hr, Hp⟩
    isplitl [Hp]; · iexact Hp
    isplitr; · iempintro
    iexact Hr
  hexit c := by
    have hjoin := Pipeline.unscopedBufs_of_arrays (p := 39) (pcfgs (F := F)) adm (Ix := Unit) (Name := ℕ) (U := UR sig nD τ) (Lvl := ℕ)
      launch39.win launch39.arr_whole c (pdats m ρ) ((pdats m ρ 39 c).share_full fun _ => rfl)
      (E39 m ρ c) (X39 m ρ c) ((pdats m ρ 39 c).arrAt · cfg39.N) (hF39 m ρ c) (hrest39 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg40.lean ====
/- Region 40 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg40 : Pipeline.RegionSeg (pcfgs (F := F)) adm (pdats m ρ) () defs₀ 𝒱₀ L lv 40 where
  win := launch40.win.to₀
  block_pos := launch40.block_pos
  stage_whole := launch40.stage_whole
  K := PEmpty
  osem k := k.elim
  ho := Pipeline.OwnSemFacts.none _
  hbody c := (body_obligation40 (E40 m ρ) c).loose
  hwaits := Pipeline.hwaits_of_owed_zero _ _ _ _ L lv 40 fun _ _ => rfl
  pre c := iprop(StableHlo.held (c : Thread nD τ) (Pipeline.ucRefs τ sig) (B83 m ρ c) ∗ R c)
  post c := iprop(StableHlo.held (c : Thread nD τ) (Pipeline.ucRefs τ sig) (B84 m ρ c) ∗ R c)
  X c := iprop(∃ r, prngReg c r)
  Y c := iprop(∃ r, prngReg c r)
  Z c := Pipeline.unscopedRest (Ix := Unit) (Name := ℕ) (U := UR sig nD τ) (Lvl := ℕ) spec40 c (E40 m ρ c)
  hentry c := by
    rw [Pipeline.ownSems0_none]
    have hsplit := Pipeline.arrays_of_unscopedBufs (p := 40) (pcfgs (F := F)) adm (pdats m ρ) launch40.win launch40.arr_whole c
      ((pdats m ρ 40 c).share_full fun _ => rfl) (E40 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 40 c).Φ 0 = Pipeline.ΦA spec40 c from rfl]; unfold Pipeline.ΦA
    iintro ⟨Hp, -, Hr⟩
    isplitl [Hr]; · iexact Hr
    iexact Hp
  hout c := by
    rw [Pipeline.ownSems0_none, show (pdats m ρ 40 c).Φ (Fin.last _) = Pipeline.ΦA spec40 c from rfl]; unfold Pipeline.ΦA
    iintro ⟨Hr, Hp⟩
    isplitl [Hp]; · iexact Hp
    isplitr; · iempintro
    iexact Hr
  hexit c := by
    have hjoin := Pipeline.unscopedBufs_of_arrays (p := 40) (pcfgs (F := F)) adm (Ix := Unit) (Name := ℕ) (U := UR sig nD τ) (Lvl := ℕ)
      launch40.win launch40.arr_whole c (pdats m ρ) ((pdats m ρ 40 c).share_full fun _ => rfl)
      (E40 m ρ c) (X40 m ρ c) ((pdats m ρ 40 c).arrAt · cfg40.N) (hF40 m ρ c) (hrest40 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg41.lean ====
/- Region 41 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg41 : Pipeline.RegionSeg (pcfgs (F := F)) adm (pdats m ρ) () defs₀ 𝒱₀ L lv 41 where
  win := launch41.win.to₀
  block_pos := launch41.block_pos
  stage_whole := launch41.stage_whole
  K := PEmpty
  osem k := k.elim
  ho := Pipeline.OwnSemFacts.none _
  hbody c := (body_obligation41 (E41 m ρ) c).loose
  hwaits := Pipeline.hwaits_of_owed_zero _ _ _ _ L lv 41 fun _ _ => rfl
  pre c := iprop(StableHlo.held (c : Thread nD τ) (Pipeline.ucRefs τ sig) (B85 m ρ c) ∗ R c)
  post c := iprop(StableHlo.held (c : Thread nD τ) (Pipeline.ucRefs τ sig) (B86 m ρ c) ∗ R c)
  X c := iprop(∃ r, prngReg c r)
  Y c := iprop(∃ r, prngReg c r)
  Z c := Pipeline.unscopedRest (Ix := Unit) (Name := ℕ) (U := UR sig nD τ) (Lvl := ℕ) spec41 c (E41 m ρ c)
  hentry c := by
    rw [Pipeline.ownSems0_none]
    have hsplit := Pipeline.arrays_of_unscopedBufs (p := 41) (pcfgs (F := F)) adm (pdats m ρ) launch41.win launch41.arr_whole c
      ((pdats m ρ 41 c).share_full fun _ => rfl) (E41 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 41 c).Φ 0 = Pipeline.ΦA spec41 c from rfl]; unfold Pipeline.ΦA
    iintro ⟨Hp, -, Hr⟩
    isplitl [Hr]; · iexact Hr
    iexact Hp
  hout c := by
    rw [Pipeline.ownSems0_none, show (pdats m ρ 41 c).Φ (Fin.last _) = Pipeline.ΦA spec41 c from rfl]; unfold Pipeline.ΦA
    iintro ⟨Hr, Hp⟩
    isplitl [Hp]; · iexact Hp
    isplitr; · iempintro
    iexact Hr
  hexit c := by
    have hjoin := Pipeline.unscopedBufs_of_arrays (p := 41) (pcfgs (F := F)) adm (Ix := Unit) (Name := ℕ) (U := UR sig nD τ) (Lvl := ℕ)
      launch41.win launch41.arr_whole c (pdats m ρ) ((pdats m ρ 41 c).share_full fun _ => rfl)
      (E41 m ρ c) (X41 m ρ c) ((pdats m ρ 41 c).arrAt · cfg41.N) (hF41 m ρ c) (hrest41 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg42.lean ====
/- Region 42 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg42 : Pipeline.RegionSeg (pcfgs (F := F)) adm (pdats m ρ) () defs₀ 𝒱₀ L lv 42 where
  win := launch42.win.to₀
  block_pos := launch42.block_pos
  stage_whole := launch42.stage_whole
  K := PEmpty
  osem k := k.elim
  ho := Pipeline.OwnSemFacts.none _
  hbody c := (body_obligation42 (E42 m ρ) c).loose
  hwaits := Pipeline.hwaits_of_owed_zero _ _ _ _ L lv 42 fun _ _ => rfl
  pre c := iprop(StableHlo.held (c : Thread nD τ) (Pipeline.ucRefs τ sig) (B87 m ρ c) ∗ R c)
  post c := iprop(StableHlo.held (c : Thread nD τ) (Pipeline.ucRefs τ sig) (B88 m ρ c) ∗ R c)
  X c := iprop(∃ r, prngReg c r)
  Y c := iprop(∃ r, prngReg c r)
  Z c := Pipeline.unscopedRest (Ix := Unit) (Name := ℕ) (U := UR sig nD τ) (Lvl := ℕ) spec42 c (E42 m ρ c)
  hentry c := by
    rw [Pipeline.ownSems0_none]
    have hsplit := Pipeline.arrays_of_unscopedBufs (p := 42) (pcfgs (F := F)) adm (pdats m ρ) launch42.win launch42.arr_whole c
      ((pdats m ρ 42 c).share_full fun _ => rfl) (E42 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec42 c ⊢ (pdats m ρ 42 c).Φ 0 from hin42 (E42 m ρ) c)
    unfold Pipeline.ΦA
    iintro ⟨Hp, -, Hr⟩
    isplitl [Hr]; · iexact Hr
    iexact Hp
  hout c := by
    rw [Pipeline.ownSems0_none]
    refine BI.Laws.entails_trans (show (pdats m ρ 42 c).Φ (Fin.last _) ⊢ Pipeline.ΦA spec42 c from hout42 (E42 m ρ) c) ?_
    unfold Pipeline.ΦA
    iintro ⟨Hr, Hp⟩
    isplitl [Hp]; · iexact Hp
    isplitr; · iempintro
    iexact Hr
  hexit c := by
    have hjoin := Pipeline.unscopedBufs_of_arrays (p := 42) (pcfgs (F := F)) adm (Ix := Unit) (Name := ℕ) (U := UR sig nD τ) (Lvl := ℕ)
      launch42.win launch42.arr_whole c (pdats m ρ) ((pdats m ρ 42 c).share_full fun _ => rfl)
      (E42 m ρ c) (X42 m ρ c) ((pdats m ρ 42 c).arrAt · cfg42.N) (hF42 m ρ c) (hrest42 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg43.lean ====
/- Region 43 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg43 : Pipeline.RegionSeg (pcfgs (F := F)) adm (pdats m ρ) () defs₀ 𝒱₀ L lv 43 where
  win := launch43.win.to₀
  block_pos := launch43.block_pos
  stage_whole := launch43.stage_whole
  K := PEmpty
  osem k := k.elim
  ho := Pipeline.OwnSemFacts.none _
  hbody c := (body_obligation43 (E43 m ρ) c).loose
  hwaits := Pipeline.hwaits_of_owed_zero _ _ _ _ L lv 43 fun _ _ => rfl
  pre c := iprop(StableHlo.held (c : Thread nD τ) (Pipeline.ucRefs τ sig) (B89 m ρ c) ∗ R c)
  post c := iprop(StableHlo.held (c : Thread nD τ) (Pipeline.ucRefs τ sig) (B90 m ρ c) ∗ R c)
  X c := iprop(∃ r, prngReg c r)
  Y c := iprop(∃ r, prngReg c r)
  Z c := Pipeline.unscopedRest (Ix := Unit) (Name := ℕ) (U := UR sig nD τ) (Lvl := ℕ) spec43 c (E43 m ρ c)
  hentry c := by
    rw [Pipeline.ownSems0_none]
    have hsplit := Pipeline.arrays_of_unscopedBufs (p := 43) (pcfgs (F := F)) adm (pdats m ρ) launch43.win launch43.arr_whole c
      ((pdats m ρ 43 c).share_full fun _ => rfl) (E43 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec43 c ⊢ (pdats m ρ 43 c).Φ 0 from hin43 (E43 m ρ) c)
    unfold Pipeline.ΦA
    iintro ⟨Hp, -, Hr⟩
    isplitl [Hr]; · iexact Hr
    iexact Hp
  hout c := by
    rw [Pipeline.ownSems0_none]
    refine BI.Laws.entails_trans (show (pdats m ρ 43 c).Φ (Fin.last _) ⊢ Pipeline.ΦA spec43 c from hout43 (E43 m ρ) c) ?_
    unfold Pipeline.ΦA
    iintro ⟨Hr, Hp⟩
    isplitl [Hp]; · iexact Hp
    isplitr; · iempintro
    iexact Hr
  hexit c := by
    have hjoin := Pipeline.unscopedBufs_of_arrays (p := 43) (pcfgs (F := F)) adm (Ix := Unit) (Name := ℕ) (U := UR sig nD τ) (Lvl := ℕ)
      launch43.win launch43.arr_whole c (pdats m ρ) ((pdats m ρ 43 c).share_full fun _ => rfl)
      (E43 m ρ c) (X43 m ρ c) ((pdats m ρ 43 c).arrAt · cfg43.N) (hF43 m ρ c) (hrest43 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg44.lean ====
/- Region 44 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg44 : Pipeline.RegionSeg (pcfgs (F := F)) adm (pdats m ρ) () defs₀ 𝒱₀ L lv 44 where
  win := launch44.win.to₀
  block_pos := launch44.block_pos
  stage_whole := launch44.stage_whole
  K := PEmpty
  osem k := k.elim
  ho := Pipeline.OwnSemFacts.none _
  hbody c := (body_obligation44 (E44 m ρ) c).loose
  hwaits := Pipeline.hwaits_of_owed_zero _ _ _ _ L lv 44 fun _ _ => rfl
  pre c := iprop(StableHlo.held (c : Thread nD τ) (Pipeline.ucRefs τ sig) (B91 m ρ c) ∗ R c)
  post c := iprop(StableHlo.held (c : Thread nD τ) (Pipeline.ucRefs τ sig) (B92 m ρ c) ∗ R c)
  X c := iprop(∃ r, prngReg c r)
  Y c := iprop(∃ r, prngReg c r)
  Z c := Pipeline.unscopedRest (Ix := Unit) (Name := ℕ) (U := UR sig nD τ) (Lvl := ℕ) spec44 c (E44 m ρ c)
  hentry c := by
    rw [Pipeline.ownSems0_none]
    have hsplit := Pipeline.arrays_of_unscopedBufs (p := 44) (pcfgs (F := F)) adm (pdats m ρ) launch44.win launch44.arr_whole c
      ((pdats m ρ 44 c).share_full fun _ => rfl) (E44 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 44 c).Φ 0 = Pipeline.ΦA spec44 c from rfl]; unfold Pipeline.ΦA
    iintro ⟨Hp, -, Hr⟩
    isplitl [Hr]; · iexact Hr
    iexact Hp
  hout c := by
    rw [Pipeline.ownSems0_none, show (pdats m ρ 44 c).Φ (Fin.last _) = Pipeline.ΦA spec44 c from rfl]; unfold Pipeline.ΦA
    iintro ⟨Hr, Hp⟩
    isplitl [Hp]; · iexact Hp
    isplitr; · iempintro
    iexact Hr
  hexit c := by
    have hjoin := Pipeline.unscopedBufs_of_arrays (p := 44) (pcfgs (F := F)) adm (Ix := Unit) (Name := ℕ) (U := UR sig nD τ) (Lvl := ℕ)
      launch44.win launch44.arr_whole c (pdats m ρ) ((pdats m ρ 44 c).share_full fun _ => rfl)
      (E44 m ρ c) (X44 m ρ c) ((pdats m ρ 44 c).arrAt · cfg44.N) (hF44 m ρ c) (hrest44 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg45.lean ====
/- Region 45 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg45 : Pipeline.RegionSeg (pcfgs (F := F)) adm (pdats m ρ) () defs₀ 𝒱₀ L lv 45 where
  win := launch45.win.to₀
  block_pos := launch45.block_pos
  stage_whole := launch45.stage_whole
  K := PEmpty
  osem k := k.elim
  ho := Pipeline.OwnSemFacts.none _
  hbody c := (body_obligation45 (E45 m ρ) c).loose
  hwaits := Pipeline.hwaits_of_owed_zero _ _ _ _ L lv 45 fun _ _ => rfl
  pre c := iprop(StableHlo.held (c : Thread nD τ) (Pipeline.ucRefs τ sig) (B93 m ρ c) ∗ R c)
  post c := iprop(StableHlo.held (c : Thread nD τ) (Pipeline.ucRefs τ sig) (B94 m ρ c) ∗ R c)
  X c := iprop(∃ r, prngReg c r)
  Y c := iprop(∃ r, prngReg c r)
  Z c := Pipeline.unscopedRest (Ix := Unit) (Name := ℕ) (U := UR sig nD τ) (Lvl := ℕ) spec45 c (E45 m ρ c)
  hentry c := by
    rw [Pipeline.ownSems0_none]
    have hsplit := Pipeline.arrays_of_unscopedBufs (p := 45) (pcfgs (F := F)) adm (pdats m ρ) launch45.win launch45.arr_whole c
      ((pdats m ρ 45 c).share_full fun _ => rfl) (E45 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 45 c).Φ 0 = Pipeline.ΦA spec45 c from rfl]; unfold Pipeline.ΦA
    iintro ⟨Hp, -, Hr⟩
    isplitl [Hr]; · iexact Hr
    iexact Hp
  hout c := by
    rw [Pipeline.ownSems0_none, show (pdats m ρ 45 c).Φ (Fin.last _) = Pipeline.ΦA spec45 c from rfl]; unfold Pipeline.ΦA
    iintro ⟨Hr, Hp⟩
    isplitl [Hp]; · iexact Hp
    isplitr; · iempintro
    iexact Hr
  hexit c := by
    have hjoin := Pipeline.unscopedBufs_of_arrays (p := 45) (pcfgs (F := F)) adm (Ix := Unit) (Name := ℕ) (U := UR sig nD τ) (Lvl := ℕ)
      launch45.win launch45.arr_whole c (pdats m ρ) ((pdats m ρ 45 c).share_full fun _ => rfl)
      (E45 m ρ c) (X45 m ρ c) ((pdats m ρ 45 c).arrAt · cfg45.N) (hF45 m ρ c) (hrest45 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg46.lean ====
/- Region 46 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg46 : Pipeline.RegionSeg (pcfgs (F := F)) adm (pdats m ρ) () defs₀ 𝒱₀ L lv 46 where
  win := launch46.win.to₀
  block_pos := launch46.block_pos
  stage_whole := launch46.stage_whole
  K := PEmpty
  osem k := k.elim
  ho := Pipeline.OwnSemFacts.none _
  hbody c := (body_obligation46 (E46 m ρ) c).loose
  hwaits := Pipeline.hwaits_of_owed_zero _ _ _ _ L lv 46 fun _ _ => rfl
  pre c := iprop(StableHlo.held (c : Thread nD τ) (Pipeline.ucRefs τ sig) (B95 m ρ c) ∗ R c)
  post c := iprop(StableHlo.held (c : Thread nD τ) (Pipeline.ucRefs τ sig) (B96 m ρ c) ∗ R c)
  X c := iprop(∃ r, prngReg c r)
  Y c := iprop(∃ r, prngReg c r)
  Z c := Pipeline.unscopedRest (Ix := Unit) (Name := ℕ) (U := UR sig nD τ) (Lvl := ℕ) spec46 c (E46 m ρ c)
  hentry c := by
    rw [Pipeline.ownSems0_none]
    have hsplit := Pipeline.arrays_of_unscopedBufs (p := 46) (pcfgs (F := F)) adm (pdats m ρ) launch46.win launch46.arr_whole c
      ((pdats m ρ 46 c).share_full fun _ => rfl) (E46 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec46 c ⊢ (pdats m ρ 46 c).Φ 0 from hin46 (E46 m ρ) c)
    unfold Pipeline.ΦA
    iintro ⟨Hp, -, Hr⟩
    isplitl [Hr]; · iexact Hr
    iexact Hp
  hout c := by
    rw [Pipeline.ownSems0_none]
    refine BI.Laws.entails_trans (show (pdats m ρ 46 c).Φ (Fin.last _) ⊢ Pipeline.ΦA spec46 c from hout46 (E46 m ρ) c) ?_
    unfold Pipeline.ΦA
    iintro ⟨Hr, Hp⟩
    isplitl [Hp]; · iexact Hp
    isplitr; · iempintro
    iexact Hr
  hexit c := by
    have hjoin := Pipeline.unscopedBufs_of_arrays (p := 46) (pcfgs (F := F)) adm (Ix := Unit) (Name := ℕ) (U := UR sig nD τ) (Lvl := ℕ)
      launch46.win launch46.arr_whole c (pdats m ρ) ((pdats m ρ 46 c).share_full fun _ => rfl)
      (E46 m ρ c) (X46 m ρ c) ((pdats m ρ 46 c).arrAt · cfg46.N) (hF46 m ρ c) (hrest46 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg47.lean ====
/- Region 47 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg47 : Pipeline.RegionSeg (pcfgs (F := F)) adm (pdats m ρ) () defs₀ 𝒱₀ L lv 47 where
  win := launch47.win.to₀
  block_pos := launch47.block_pos
  stage_whole := launch47.stage_whole
  K := PEmpty
  osem k := k.elim
  ho := Pipeline.OwnSemFacts.none _
  hbody c := (body_obligation47 (E47 m ρ) c).loose
  hwaits := Pipeline.hwaits_of_owed_zero _ _ _ _ L lv 47 fun _ _ => rfl
  pre c := iprop(StableHlo.held (c : Thread nD τ) (Pipeline.ucRefs τ sig) (B97 m ρ c) ∗ R c)
  post c := iprop(StableHlo.held (c : Thread nD τ) (Pipeline.ucRefs τ sig) (B98 m ρ c) ∗ R c)
  X c := iprop(∃ r, prngReg c r)
  Y c := iprop(∃ r, prngReg c r)
  Z c := Pipeline.unscopedRest (Ix := Unit) (Name := ℕ) (U := UR sig nD τ) (Lvl := ℕ) spec47 c (E47 m ρ c)
  hentry c := by
    rw [Pipeline.ownSems0_none]
    have hsplit := Pipeline.arrays_of_unscopedBufs (p := 47) (pcfgs (F := F)) adm (pdats m ρ) launch47.win launch47.arr_whole c
      ((pdats m ρ 47 c).share_full fun _ => rfl) (E47 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Laws.entails_trans ?_ (show Pipeline.ΦA spec47 c ⊢ (pdats m ρ 47 c).Φ 0 from hin47 (E47 m ρ) c)
    unfold Pipeline.ΦA
    iintro ⟨Hp, -, Hr⟩
    isplitl [Hr]; · iexact Hr
    iexact Hp
  hout c := by
    rw [Pipeline.ownSems0_none]
    refine BI.Laws.entails_trans (show (pdats m ρ 47 c).Φ (Fin.last _) ⊢ Pipeline.ΦA spec47 c from hout47 (E47 m ρ) c) ?_
    unfold Pipeline.ΦA
    iintro ⟨Hr, Hp⟩
    isplitl [Hp]; · iexact Hp
    isplitr; · iempintro
    iexact Hr
  hexit c := by
    have hjoin := Pipeline.unscopedBufs_of_arrays (p := 47) (pcfgs (F := F)) adm (Ix := Unit) (Name := ℕ) (U := UR sig nD τ) (Lvl := ℕ)
      launch47.win launch47.arr_whole c (pdats m ρ) ((pdats m ρ 47 c).share_full fun _ => rfl)
      (E47 m ρ c) (X47 m ρ c) ((pdats m ρ 47 c).arrAt · cfg47.N) (hF47 m ρ c) (hrest47 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg48.lean ====
/- Region 48 of @main as a segment over the thread state: entered from every unscoped buffer at the boundary's
   contents, its arrays split out and put back at the exit contents, the generator register into the body's invariant
   and out, nothing owed, no semaphore of the kernel's own. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import proofs.«408084_j48395691492010_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
noncomputable def reg48 : Pipeline.RegionSeg (pcfgs (F := F)) adm (pdats m ρ) () defs₀ 𝒱₀ L lv 48 where
  win := launch48.win.to₀
  block_pos := launch48.block_pos
  stage_whole := launch48.stage_whole
  K := PEmpty
  osem k := k.elim
  ho := Pipeline.OwnSemFacts.none _
  hbody c := (body_obligation48 (E48 m ρ) c).loose
  hwaits := Pipeline.hwaits_of_owed_zero _ _ _ _ L lv 48 fun _ _ => rfl
  pre c := iprop(StableHlo.held (c : Thread nD τ) (Pipeline.ucRefs τ sig) (B99 m ρ c) ∗ R c)
  post c := iprop(StableHlo.held (c : Thread nD τ) (Pipeline.ucRefs τ sig) (B100 m ρ c) ∗ R c)
  X c := iprop(∃ r, prngReg c r)
  Y c := iprop(∃ r, prngReg c r)
  Z c := Pipeline.unscopedRest (Ix := Unit) (Name := ℕ) (U := UR sig nD τ) (Lvl := ℕ) spec48 c (E48 m ρ c)
  hentry c := by
    rw [Pipeline.ownSems0_none]
    have hsplit := Pipeline.arrays_of_unscopedBufs (p := 48) (pcfgs (F := F)) adm (pdats m ρ) launch48.win launch48.arr_whole c
      ((pdats m ρ 48 c).share_full fun _ => rfl) (E48 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 48 c).Φ 0 = Pipeline.ΦA spec48 c from rfl]; unfold Pipeline.ΦA
    iintro ⟨Hp, -, Hr⟩
    isplitl [Hr]; · iexact Hr
    iexact Hp
  hout c := by
    rw [Pipeline.ownSems0_none, show (pdats m ρ 48 c).Φ (Fin.last _) = Pipeline.ΦA spec48 c from rfl]; unfold Pipeline.ΦA
    iintro ⟨Hr, Hp⟩
    isplitl [Hp]; · iexact Hp
    isplitr; · iempintro
    iexact Hr
  hexit c := by
    have hjoin := Pipeline.unscopedBufs_of_arrays (p := 48) (pcfgs (F := F)) adm (Ix := Unit) (Name := ℕ) (U := UR sig nD τ) (Lvl := ℕ)
      launch48.win launch48.arr_whole c (pdats m ρ) ((pdats m ρ 48 c).share_full fun _ => rfl)
      (E48 m ρ c) (X48 m ρ c) ((pdats m ρ 48 c).arrAt · cfg48.N) (hF48 m ρ c) (hrest48 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/- @main as the list of its 101 segments, and the launch: every weakly fair execution terminates, nothing faulting,
   with every unscoped buffer at the last boundary's contents. -/
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«408084_j48395691492010_3_alg».proof.Proof.KI.Reg0
import proofs.«408084_j48395691492010_3_alg».proof.Proof.KI.Reg1
import proofs.«408084_j48395691492010_3_alg».proof.Proof.KI.Reg2
import proofs.«408084_j48395691492010_3_alg».proof.Proof.KI.Reg3
import proofs.«408084_j48395691492010_3_alg».proof.Proof.KI.Reg4
import proofs.«408084_j48395691492010_3_alg».proof.Proof.KI.Reg5
import proofs.«408084_j48395691492010_3_alg».proof.Proof.KI.Reg6
import proofs.«408084_j48395691492010_3_alg».proof.Proof.KI.Reg7
import proofs.«408084_j48395691492010_3_alg».proof.Proof.KI.Reg8
import proofs.«408084_j48395691492010_3_alg».proof.Proof.KI.Reg9
import proofs.«408084_j48395691492010_3_alg».proof.Proof.KI.Reg10
import proofs.«408084_j48395691492010_3_alg».proof.Proof.KI.Reg11
import proofs.«408084_j48395691492010_3_alg».proof.Proof.KI.Reg12
import proofs.«408084_j48395691492010_3_alg».proof.Proof.KI.Reg13
import proofs.«408084_j48395691492010_3_alg».proof.Proof.KI.Reg14
import proofs.«408084_j48395691492010_3_alg».proof.Proof.KI.Reg15
import proofs.«408084_j48395691492010_3_alg».proof.Proof.KI.Reg16
import proofs.«408084_j48395691492010_3_alg».proof.Proof.KI.Reg17
import proofs.«408084_j48395691492010_3_alg».proof.Proof.KI.Reg18
import proofs.«408084_j48395691492010_3_alg».proof.Proof.KI.Reg19
import proofs.«408084_j48395691492010_3_alg».proof.Proof.KI.Reg20
import proofs.«408084_j48395691492010_3_alg».proof.Proof.KI.Reg21
import proofs.«408084_j48395691492010_3_alg».proof.Proof.KI.Reg22
import proofs.«408084_j48395691492010_3_alg».proof.Proof.KI.Reg23
import proofs.«408084_j48395691492010_3_alg».proof.Proof.KI.Reg24
import proofs.«408084_j48395691492010_3_alg».proof.Proof.KI.Reg25
import proofs.«408084_j48395691492010_3_alg».proof.Proof.KI.Reg26
import proofs.«408084_j48395691492010_3_alg».proof.Proof.KI.Reg27
import proofs.«408084_j48395691492010_3_alg».proof.Proof.KI.Reg28
import proofs.«408084_j48395691492010_3_alg».proof.Proof.KI.Reg29
import proofs.«408084_j48395691492010_3_alg».proof.Proof.KI.Reg30
import proofs.«408084_j48395691492010_3_alg».proof.Proof.KI.Reg31
import proofs.«408084_j48395691492010_3_alg».proof.Proof.KI.Reg32
import proofs.«408084_j48395691492010_3_alg».proof.Proof.KI.Reg33
import proofs.«408084_j48395691492010_3_alg».proof.Proof.KI.Reg34
import proofs.«408084_j48395691492010_3_alg».proof.Proof.KI.Reg35
import proofs.«408084_j48395691492010_3_alg».proof.Proof.KI.Reg36
import proofs.«408084_j48395691492010_3_alg».proof.Proof.KI.Reg37
import proofs.«408084_j48395691492010_3_alg».proof.Proof.KI.Reg38
import proofs.«408084_j48395691492010_3_alg».proof.Proof.KI.Reg39
import proofs.«408084_j48395691492010_3_alg».proof.Proof.KI.Reg40
import proofs.«408084_j48395691492010_3_alg».proof.Proof.KI.Reg41
import proofs.«408084_j48395691492010_3_alg».proof.Proof.KI.Reg42
import proofs.«408084_j48395691492010_3_alg».proof.Proof.KI.Reg43
import proofs.«408084_j48395691492010_3_alg».proof.Proof.KI.Reg44
import proofs.«408084_j48395691492010_3_alg».proof.Proof.KI.Reg45
import proofs.«408084_j48395691492010_3_alg».proof.Proof.KI.Reg46
import proofs.«408084_j48395691492010_3_alg».proof.Proof.KI.Reg47
import proofs.«408084_j48395691492010_3_alg».proof.Proof.KI.Reg48

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev segs : List (Pipeline.Seg (pcfgs (F := F)) adm (pdats m ρ) () defs₀ 𝒱₀ L lv) :=
  [
    .host (hseg hostOps0 hostOps0_sub hostOps0_fresh (B0 m ρ)),
    .host (hseg hostOps0_1 hostOps0_1_sub hostOps0_1_fresh (B1 m ρ)),
    .host (hseg hostOps0_2 hostOps0_2_sub hostOps0_2_fresh (B2 m ρ)),
    .region (reg0 m ρ),
    .host (hseg hostOps1 hostOps1_sub hostOps1_fresh (B4 m ρ)),
    .region (reg1 m ρ),
    .host (hseg hostOps2 hostOps2_sub hostOps2_fresh (B6 m ρ)),
    .region (reg2 m ρ),
    .host (hseg hostOps3 hostOps3_sub hostOps3_fresh (B8 m ρ)),
    .region (reg3 m ρ),
    .host (hseg hostOps4 hostOps4_sub hostOps4_fresh (B10 m ρ)),
    .region (reg4 m ρ),
    .host (hseg hostOps5 hostOps5_sub hostOps5_fresh (B12 m ρ)),
    .region (reg5 m ρ),
    .host (hseg hostOps6 hostOps6_sub hostOps6_fresh (B14 m ρ)),
    .region (reg6 m ρ),
    .host (hseg hostOps7 hostOps7_sub hostOps7_fresh (B16 m ρ)),
    .region (reg7 m ρ),
    .host (hseg hostOps8 hostOps8_sub hostOps8_fresh (B18 m ρ)),
    .region (reg8 m ρ),
    .host (hseg hostOps9 hostOps9_sub hostOps9_fresh (B20 m ρ)),
    .region (reg9 m ρ),
    .host (hseg hostOps10 hostOps10_sub hostOps10_fresh (B22 m ρ)),
    .region (reg10 m ρ),
    .host (hseg hostOps11 hostOps11_sub hostOps11_fresh (B24 m ρ)),
    .region (reg11 m ρ),
    .host (hseg hostOps12 hostOps12_sub hostOps12_fresh (B26 m ρ)),
    .region (reg12 m ρ),
    .host (hseg hostOps13 hostOps13_sub hostOps13_fresh (B28 m ρ)),
    .region (reg13 m ρ),
    .host (hseg hostOps14 hostOps14_sub hostOps14_fresh (B30 m ρ)),
    .region (reg14 m ρ),
    .host (hseg hostOps15 hostOps15_sub hostOps15_fresh (B32 m ρ)),
    .region (reg15 m ρ),
    .host (hseg hostOps16 hostOps16_sub hostOps16_fresh (B34 m ρ)),
    .region (reg16 m ρ),
    .host (hseg hostOps17 hostOps17_sub hostOps17_fresh (B36 m ρ)),
    .region (reg17 m ρ),
    .host (hseg hostOps18 hostOps18_sub hostOps18_fresh (B38 m ρ)),
    .region (reg18 m ρ),
    .host (hseg hostOps19 hostOps19_sub hostOps19_fresh (B40 m ρ)),
    .region (reg19 m ρ),
    .host (hseg hostOps20 hostOps20_sub hostOps20_fresh (B42 m ρ)),
    .region (reg20 m ρ),
    .host (hseg hostOps21 hostOps21_sub hostOps21_fresh (B44 m ρ)),
    .region (reg21 m ρ),
    .host (hseg hostOps22 hostOps22_sub hostOps22_fresh (B46 m ρ)),
    .region (reg22 m ρ),
    .host (hseg hostOps23 hostOps23_sub hostOps23_fresh (B48 m ρ)),
    .region (reg23 m ρ),
    .host (hseg hostOps24 hostOps24_sub hostOps24_fresh (B50 m ρ)),
    .region (reg24 m ρ),
    .host (hseg hostOps25 hostOps25_sub hostOps25_fresh (B52 m ρ)),
    .region (reg25 m ρ),
    .host (hseg hostOps26 hostOps26_sub hostOps26_fresh (B54 m ρ)),
    .region (reg26 m ρ),
    .host (hseg hostOps27 hostOps27_sub hostOps27_fresh (B56 m ρ)),
    .region (reg27 m ρ),
    .host (hseg hostOps28 hostOps28_sub hostOps28_fresh (B58 m ρ)),
    .region (reg28 m ρ),
    .host (hseg hostOps29 hostOps29_sub hostOps29_fresh (B60 m ρ)),
    .region (reg29 m ρ),
    .host (hseg hostOps30 hostOps30_sub hostOps30_fresh (B62 m ρ)),
    .region (reg30 m ρ),
    .host (hseg hostOps31 hostOps31_sub hostOps31_fresh (B64 m ρ)),
    .region (reg31 m ρ),
    .host (hseg hostOps32 hostOps32_sub hostOps32_fresh (B66 m ρ)),
    .region (reg32 m ρ),
    .host (hseg hostOps33 hostOps33_sub hostOps33_fresh (B68 m ρ)),
    .region (reg33 m ρ),
    .host (hseg hostOps34 hostOps34_sub hostOps34_fresh (B70 m ρ)),
    .region (reg34 m ρ),
    .host (hseg hostOps35 hostOps35_sub hostOps35_fresh (B72 m ρ)),
    .region (reg35 m ρ),
    .host (hseg hostOps36 hostOps36_sub hostOps36_fresh (B74 m ρ)),
    .region (reg36 m ρ),
    .host (hseg hostOps37 hostOps37_sub hostOps37_fresh (B76 m ρ)),
    .region (reg37 m ρ),
    .host (hseg hostOps38 hostOps38_sub hostOps38_fresh (B78 m ρ)),
    .region (reg38 m ρ),
    .host (hseg hostOps39 hostOps39_sub hostOps39_fresh (B80 m ρ)),
    .region (reg39 m ρ),
    .host (hseg hostOps40 hostOps40_sub hostOps40_fresh (B82 m ρ)),
    .region (reg40 m ρ),
    .host (hseg hostOps41 hostOps41_sub hostOps41_fresh (B84 m ρ)),
    .region (reg41 m ρ),
    .host (hseg hostOps42 hostOps42_sub hostOps42_fresh (B86 m ρ)),
    .region (reg42 m ρ),
    .host (hseg hostOps43 hostOps43_sub hostOps43_fresh (B88 m ρ)),
    .region (reg43 m ρ),
    .host (hseg hostOps44 hostOps44_sub hostOps44_fresh (B90 m ρ)),
    .region (reg44 m ρ),
    .host (hseg hostOps45 hostOps45_sub hostOps45_fresh (B92 m ρ)),
    .region (reg45 m ρ),
    .host (hseg hostOps46 hostOps46_sub hostOps46_fresh (B94 m ρ)),
    .region (reg46 m ρ),
    .host (hseg hostOps47 hostOps47_sub hostOps47_fresh (B96 m ρ)),
    .region (reg47 m ρ),
    .host (hseg hostOps48 hostOps48_sub hostOps48_fresh (B98 m ρ)),
    .region (reg48 m ρ),
    .host (hseg hostOps49 hostOps49_sub hostOps49_fresh (B100 m ρ)) ]

theorem main_run (c : Dev nD) : main (F := F) c = Pipeline.Seg.run (segs m ρ) := (main_chain c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = B101 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B101 m ρ c) ∗ R c) ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B101 m ρ c b)
    (hfin := fun c s' => by
      iintro ⟨⟨Hh, -⟩, HSI⟩
      unfold StableHlo.held
      imodintro
      iapply (pointsTo_read_all (Pipeline.ucRefs τ sig) (fun b => (((c : Thread nD τ)).1, b)) (B101 m ρ c) s')
      isplitl [Hh] <;> iassumption)
    (hQ := fun s h c => h c)

end Cert.KernelIdeal.Hand

end
-- ==== Proof.KI.Args.lean ====
/- @main's 27 arguments end as launched. A reference is a memory space, an index there and the fact that the
   processor names it; the arguments are the references of index below 27, and every buffer a host operation
   writes, and every array of a kernel region but two input windows, is a computed value, of index 27 or more.
   So across a host stretch an argument keeps its contents because it is none of the stretch's result buffers
   (one comparison of indices per operation, whichever argument it is), across a region because it is none of the
   region's arrays or is an input window, whose fold is the entry array; the fold of the 101 segments at an
   argument's buffer thus walks back to the launch memory. The host-stretch lemma is also stated for any buffer
   that is none of the stretch's results. -/
import proofs.«408084_j48395691492010_3_alg».proof.Proof.KI.Chain
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A reference among @main's arguments: its index is below the first computed value's. -/
abbrev IsArg (b : Ref sig .tc) : Prop := (b.idx : ℕ) < 27

/-- An argument is not a reference of index 27 or more. -/
theorem ne_of_isArg {b y : Ref sig .tc} (hb : IsArg b) (hy : 27 ≤ (y.idx : ℕ)) : b ≠ y := by
  rintro rfl; exact absurd hb (Nat.not_lt.mpr hy)

/-! ## Across a host stretch -/

/-- Operation by operation, the line `ops` writes the references `ys`: each its one result buffer. -/
abbrev Writes (ops : List (HloOp τ sig (Elt F))) (ys : List (Ref sig .tc)) : Prop :=
  List.Forall₂ (fun op y => op.writes = {Proc.devRef (τ := τ) .tc y}) ops ys

/-- A reference that is none of a line's result buffers holds after the line what it held before. -/
theorem after_of_writes {ops : List (HloOp τ sig (Elt F))} {ys : List (Ref sig .tc)} (h : Writes ops ys)
    (W : Valuation τ sig (Elt F)) {b : Ref sig .tc} (hb : b ∉ ys) :
    StableHlo.after ops W (Proc.devRef .tc b) = W (Proc.devRef .tc b) := by
  refine StableHlo.after_of_forall_not_mem ops W ?_
  induction h with
  | nil => intro op hop; cases hop
  | cons hw _ ih =>
    intro op hop
    rcases List.mem_cons.mp hop with rfl | hop
    · rw [hw, Finset.mem_singleton]
      exact StableHlo.devRef_ne_of_ne fun e => hb (e ▸ List.mem_cons_self)
    · exact ih (fun hm => hb (List.mem_cons_of_mem _ hm)) op hop

/-- So does an argument, when every result buffer of the line is a computed value (the indices compared as one
    Boolean conjunction over the list). -/
theorem after_of_writes_isArg {ops : List (HloOp τ sig (Elt F))} {ys : List (Ref sig .tc)} (h : Writes ops ys)
    (hidx : (ys.all fun y => decide (27 ≤ (y.idx : ℕ))) = true)
    (W : Valuation τ sig (Elt F)) {b : Ref sig .tc} (hb : IsArg b) :
    StableHlo.after ops W (Proc.devRef .tc b) = W (Proc.devRef .tc b) :=
  after_of_writes h W fun hm => absurd hb (Nat.not_lt.mpr (of_decide_eq_true (List.all_eq_true.mp hidx b hm)))

/-- The buffers `hostOps0` writes, in order. -/
noncomputable abbrev wr0 : List (Ref sig .tc) := [main_v0, main_v1, main_v2, main_v3, main_v4, main_v5, main_v6, main_cst, main_v7, main_v8, main_cst_0, main_v9, main_v10, main_v11, main_cst_1, main_v12, main_v13, main_cst_2, main_v14, main_v15, main_v16, main_cst_3]
set_option maxHeartbeats 4000000 in
theorem hostOps0_writes : Writes (F := F) hostOps0 wr0 := by
  repeat' first | exact List.Forall₂.nil | refine List.Forall₂.cons rfl ?_
theorem wr0_idx : (wr0.all fun y => decide (27 ≤ (y.idx : ℕ))) = true := by decide
/-- A buffer that is none of them holds after the stretch what it held before. -/
theorem keep_hostOps0_of_not_mem (W : Valuation τ sig (Elt F)) (b : Ref sig .tc) (hb : b ∉ wr0) :
    StableHlo.after hostOps0 W (Proc.devRef .tc b) = W (Proc.devRef .tc b) := after_of_writes hostOps0_writes W hb
/-- In particular an argument does. -/
theorem keep_hostOps0 (W : Valuation τ sig (Elt F)) (b : Ref sig .tc) (hb : IsArg b) :
    StableHlo.after hostOps0 W (Proc.devRef .tc b) = W (Proc.devRef .tc b) :=
  after_of_writes_isArg hostOps0_writes wr0_idx W hb

/-- The buffers `hostOps0_1` writes, in order. -/
noncomputable abbrev wr0_1 : List (Ref sig .tc) := [main_call0_v0, main_call0_v1, main_v17]
set_option maxHeartbeats 4000000 in
theorem hostOps0_1_writes : Writes (F := F) hostOps0_1 wr0_1 := by
  repeat' first | exact List.Forall₂.nil | refine List.Forall₂.cons rfl ?_
theorem wr0_1_idx : (wr0_1.all fun y => decide (27 ≤ (y.idx : ℕ))) = true := by decide
/-- A buffer that is none of them holds after the stretch what it held before. -/
theorem keep_hostOps0_1_of_not_mem (W : Valuation τ sig (Elt F)) (b : Ref sig .tc) (hb : b ∉ wr0_1) :
    StableHlo.after hostOps0_1 W (Proc.devRef .tc b) = W (Proc.devRef .tc b) := after_of_writes hostOps0_1_writes W hb
/-- In particular an argument does. -/
theorem keep_hostOps0_1 (W : Valuation τ sig (Elt F)) (b : Ref sig .tc) (hb : IsArg b) :
    StableHlo.after hostOps0_1 W (Proc.devRef .tc b) = W (Proc.devRef .tc b) :=
  after_of_writes_isArg hostOps0_1_writes wr0_1_idx W hb

/-- The buffers `hostOps0_2` writes, in order. -/
noncomputable abbrev wr0_2 : List (Ref sig .tc) := [main_c, main_v18, main_v19, main_c_4, main_v20, main_v21, main_v22, main_v23, main_v24, main_v25, main_c_5, main_v26, main_v27, main_c_6, main_v28, main_v29, main_v30, main_v31, main_v32, main_v33, main_v34, main_v35, main_v36]
set_option maxHeartbeats 4000000 in
theorem hostOps0_2_writes : Writes (F := F) hostOps0_2 wr0_2 := by
  repeat' first | exact List.Forall₂.nil | refine List.Forall₂.cons rfl ?_
theorem wr0_2_idx : (wr0_2.all fun y => decide (27 ≤ (y.idx : ℕ))) = true := by decide
/-- A buffer that is none of them holds after the stretch what it held before. -/
theorem keep_hostOps0_2_of_not_mem (W : Valuation τ sig (Elt F)) (b : Ref sig .tc) (hb : b ∉ wr0_2) :
    StableHlo.after hostOps0_2 W (Proc.devRef .tc b) = W (Proc.devRef .tc b) := after_of_writes hostOps0_2_writes W hb
/-- In particular an argument does. -/
theorem keep_hostOps0_2 (W : Valuation τ sig (Elt F)) (b : Ref sig .tc) (hb : IsArg b) :
    StableHlo.after hostOps0_2 W (Proc.devRef .tc b) = W (Proc.devRef .tc b) :=
  after_of_writes_isArg hostOps0_2_writes wr0_2_idx W hb

/-- The buffers `hostOps1` writes, in order. -/
noncomputable abbrev wr1 : List (Ref sig .tc) := [main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_c_7, main_v103, main_v104, main_c_8, main_v105, main_v106, main_v107, main_v108, main_v109, main_v110, main_v111, main_v112, main_cst_9, main_v113, main_v114, main_v115]
set_option maxHeartbeats 4000000 in
theorem hostOps1_writes : Writes (F := F) hostOps1 wr1 := by
  repeat' first | exact List.Forall₂.nil | refine List.Forall₂.cons rfl ?_
theorem wr1_idx : (wr1.all fun y => decide (27 ≤ (y.idx : ℕ))) = true := by decide
/-- A buffer that is none of them holds after the stretch what it held before. -/
theorem keep_hostOps1_of_not_mem (W : Valuation τ sig (Elt F)) (b : Ref sig .tc) (hb : b ∉ wr1) :
    StableHlo.after hostOps1 W (Proc.devRef .tc b) = W (Proc.devRef .tc b) := after_of_writes hostOps1_writes W hb
/-- In particular an argument does. -/
theorem keep_hostOps1 (W : Valuation τ sig (Elt F)) (b : Ref sig .tc) (hb : IsArg b) :
    StableHlo.after hostOps1 W (Proc.devRef .tc b) = W (Proc.devRef .tc b) :=
  after_of_writes_isArg hostOps1_writes wr1_idx W hb

/-- The buffers `hostOps2` writes, in order. -/
noncomputable abbrev wr2 : List (Ref sig .tc) := [main_v117]
set_option maxHeartbeats 4000000 in
theorem hostOps2_writes : Writes (F := F) hostOps2 wr2 := by
  repeat' first | exact List.Forall₂.nil | refine List.Forall₂.cons rfl ?_
theorem wr2_idx : (wr2.all fun y => decide (27 ≤ (y.idx : ℕ))) = true := by decide
/-- A buffer that is none of them holds after the stretch what it held before. -/
theorem keep_hostOps2_of_not_mem (W : Valuation τ sig (Elt F)) (b : Ref sig .tc) (hb : b ∉ wr2) :
    StableHlo.after hostOps2 W (Proc.devRef .tc b) = W (Proc.devRef .tc b) := after_of_writes hostOps2_writes W hb
/-- In particular an argument does. -/
theorem keep_hostOps2 (W : Valuation τ sig (Elt F)) (b : Ref sig .tc) (hb : IsArg b) :
    StableHlo.after hostOps2 W (Proc.devRef .tc b) = W (Proc.devRef .tc b) :=
  after_of_writes_isArg hostOps2_writes wr2_idx W hb

/-- The buffers `hostOps3` writes, in order. -/
noncomputable abbrev wr3 : List (Ref sig .tc) := [main_cst_10, main_v119, main_v120]
set_option maxHeartbeats 4000000 in
theorem hostOps3_writes : Writes (F := F) hostOps3 wr3 := by
  repeat' first | exact List.Forall₂.nil | refine List.Forall₂.cons rfl ?_
theorem wr3_idx : (wr3.all fun y => decide (27 ≤ (y.idx : ℕ))) = true := by decide
/-- A buffer that is none of them holds after the stretch what it held before. -/
theorem keep_hostOps3_of_not_mem (W : Valuation τ sig (Elt F)) (b : Ref sig .tc) (hb : b ∉ wr3) :
    StableHlo.after hostOps3 W (Proc.devRef .tc b) = W (Proc.devRef .tc b) := after_of_writes hostOps3_writes W hb
/-- In particular an argument does. -/
theorem keep_hostOps3 (W : Valuation τ sig (Elt F)) (b : Ref sig .tc) (hb : IsArg b) :
    StableHlo.after hostOps3 W (Proc.devRef .tc b) = W (Proc.devRef .tc b) :=
  after_of_writes_isArg hostOps3_writes wr3_idx W hb

/-- The buffers `hostOps4` writes, in order. -/
noncomputable abbrev wr4 : List (Ref sig .tc) := [main_cst_11, main_v122, main_v123, main_v124, main_v125]
set_option maxHeartbeats 4000000 in
theorem hostOps4_writes : Writes (F := F) hostOps4 wr4 := by
  repeat' first | exact List.Forall₂.nil | refine List.Forall₂.cons rfl ?_
theorem wr4_idx : (wr4.all fun y => decide (27 ≤ (y.idx : ℕ))) = true := by decide
/-- A buffer that is none of them holds after the stretch what it held before. -/
theorem keep_hostOps4_of_not_mem (W : Valuation τ sig (Elt F)) (b : Ref sig .tc) (hb : b ∉ wr4) :
    StableHlo.after hostOps4 W (Proc.devRef .tc b) = W (Proc.devRef .tc b) := after_of_writes hostOps4_writes W hb
/-- In particular an argument does. -/
theorem keep_hostOps4 (W : Valuation τ sig (Elt F)) (b : Ref sig .tc) (hb : IsArg b) :
    StableHlo.after hostOps4 W (Proc.devRef .tc b) = W (Proc.devRef .tc b) :=
  after_of_writes_isArg hostOps4_writes wr4_idx W hb

/-- The buffers `hostOps5` writes, in order. -/
noncomputable abbrev wr5 : List (Ref sig .tc) := [main_v127, main_c_12, main_v128, main_v129, main_c_13, main_v130, main_v131, main_v132, main_v133, main_v134, main_v135, main_v136, main_v137, main_cst_14, main_v138, main_v139, main_v140]
set_option maxHeartbeats 4000000 in
theorem hostOps5_writes : Writes (F := F) hostOps5 wr5 := by
  repeat' first | exact List.Forall₂.nil | refine List.Forall₂.cons rfl ?_
theorem wr5_idx : (wr5.all fun y => decide (27 ≤ (y.idx : ℕ))) = true := by decide
/-- A buffer that is none of them holds after the stretch what it held before. -/
theorem keep_hostOps5_of_not_mem (W : Valuation τ sig (Elt F)) (b : Ref sig .tc) (hb : b ∉ wr5) :
    StableHlo.after hostOps5 W (Proc.devRef .tc b) = W (Proc.devRef .tc b) := after_of_writes hostOps5_writes W hb
/-- In particular an argument does. -/
theorem keep_hostOps5 (W : Valuation τ sig (Elt F)) (b : Ref sig .tc) (hb : IsArg b) :
    StableHlo.after hostOps5 W (Proc.devRef .tc b) = W (Proc.devRef .tc b) :=
  after_of_writes_isArg hostOps5_writes wr5_idx W hb

/-- The buffers `hostOps6` writes, in order. -/
noncomputable abbrev wr6 : List (Ref sig .tc) := [main_v142]
set_option maxHeartbeats 4000000 in
theorem hostOps6_writes : Writes (F := F) hostOps6 wr6 := by
  repeat' first | exact List.Forall₂.nil | refine List.Forall₂.cons rfl ?_
theorem wr6_idx : (wr6.all fun y => decide (27 ≤ (y.idx : ℕ))) = true := by decide
/-- A buffer that is none of them holds after the stretch what it held before. -/
theorem keep_hostOps6_of_not_mem (W : Valuation τ sig (Elt F)) (b : Ref sig .tc) (hb : b ∉ wr6) :
    StableHlo.after hostOps6 W (Proc.devRef .tc b) = W (Proc.devRef .tc b) := after_of_writes hostOps6_writes W hb
/-- In particular an argument does. -/
theorem keep_hostOps6 (W : Valuation τ sig (Elt F)) (b : Ref sig .tc) (hb : IsArg b) :
    StableHlo.after hostOps6 W (Proc.devRef .tc b) = W (Proc.devRef .tc b) :=
  after_of_writes_isArg hostOps6_writes wr6_idx W hb

/-- The buffers `hostOps7` writes, in order. -/
noncomputable abbrev wr7 : List (Ref sig .tc) := [main_cst_15, main_v144, main_v145]
set_option maxHeartbeats 4000000 in
theorem hostOps7_writes : Writes (F := F) hostOps7 wr7 := by
  repeat' first | exact List.Forall₂.nil | refine List.Forall₂.cons rfl ?_
theorem wr7_idx : (wr7.all fun y => decide (27 ≤ (y.idx : ℕ))) = true := by decide
/-- A buffer that is none of them holds after the stretch what it held before. -/
theorem keep_hostOps7_of_not_mem (W : Valuation τ sig (Elt F)) (b : Ref sig .tc) (hb : b ∉ wr7) :
    StableHlo.after hostOps7 W (Proc.devRef .tc b) = W (Proc.devRef .tc b) := after_of_writes hostOps7_writes W hb
/-- In particular an argument does. -/
theorem keep_hostOps7 (W : Valuation τ sig (Elt F)) (b : Ref sig .tc) (hb : IsArg b) :
    StableHlo.after hostOps7 W (Proc.devRef .tc b) = W (Proc.devRef .tc b) :=
  after_of_writes_isArg hostOps7_writes wr7_idx W hb

/-- The buffers `hostOps8` writes, in order. -/
noncomputable abbrev wr8 : List (Ref sig .tc) := [main_cst_16, main_v147, main_v148, main_v149, main_v150]
set_option maxHeartbeats 4000000 in
theorem hostOps8_writes : Writes (F := F) hostOps8 wr8 := by
  repeat' first | exact List.Forall₂.nil | refine List.Forall₂.cons rfl ?_
theorem wr8_idx : (wr8.all fun y => decide (27 ≤ (y.idx : ℕ))) = true := by decide
/-- A buffer that is none of them holds after the stretch what it held before. -/
theorem keep_hostOps8_of_not_mem (W : Valuation τ sig (Elt F)) (b : Ref sig .tc) (hb : b ∉ wr8) :
    StableHlo.after hostOps8 W (Proc.devRef .tc b) = W (Proc.devRef .tc b) := after_of_writes hostOps8_writes W hb
/-- In particular an argument does. -/
theorem keep_hostOps8 (W : Valuation τ sig (Elt F)) (b : Ref sig .tc) (hb : IsArg b) :
    StableHlo.after hostOps8 W (Proc.devRef .tc b) = W (Proc.devRef .tc b) :=
  after_of_writes_isArg hostOps8_writes wr8_idx W hb

/-- The buffers `hostOps9` writes, in order. -/
noncomputable abbrev wr9 : List (Ref sig .tc) := [main_v152]
set_option maxHeartbeats 4000000 in
theorem hostOps9_writes : Writes (F := F) hostOps9 wr9 := by
  repeat' first | exact List.Forall₂.nil | refine List.Forall₂.cons rfl ?_
theorem wr9_idx : (wr9.all fun y => decide (27 ≤ (y.idx : ℕ))) = true := by decide
/-- A buffer that is none of them holds after the stretch what it held before. -/
theorem keep_hostOps9_of_not_mem (W : Valuation τ sig (Elt F)) (b : Ref sig .tc) (hb : b ∉ wr9) :
    StableHlo.after hostOps9 W (Proc.devRef .tc b) = W (Proc.devRef .tc b) := after_of_writes hostOps9_writes W hb
/-- In particular an argument does. -/
theorem keep_hostOps9 (W : Valuation τ sig (Elt F)) (b : Ref sig .tc) (hb : IsArg b) :
    StableHlo.after hostOps9 W (Proc.devRef .tc b) = W (Proc.devRef .tc b) :=
  after_of_writes_isArg hostOps9_writes wr9_idx W hb

/-- The buffers `hostOps10` writes, in order. -/
noncomputable abbrev wr10 : List (Ref sig .tc) := [main_c_17, main_v154, main_v155, main_c_18, main_v156, main_v157, main_v158, main_v159, main_v160, main_v161, main_v162, main_v163, main_cst_19, main_v164, main_v165, main_v166, main_v167]
set_option maxHeartbeats 4000000 in
theorem hostOps10_writes : Writes (F := F) hostOps10 wr10 := by
  repeat' first | exact List.Forall₂.nil | refine List.Forall₂.cons rfl ?_
theorem wr10_idx : (wr10.all fun y => decide (27 ≤ (y.idx : ℕ))) = true := by decide
/-- A buffer that is none of them holds after the stretch what it held before. -/
theorem keep_hostOps10_of_not_mem (W : Valuation τ sig (Elt F)) (b : Ref sig .tc) (hb : b ∉ wr10) :
    StableHlo.after hostOps10 W (Proc.devRef .tc b) = W (Proc.devRef .tc b) := after_of_writes hostOps10_writes W hb
/-- In particular an argument does. -/
theorem keep_hostOps10 (W : Valuation τ sig (Elt F)) (b : Ref sig .tc) (hb : IsArg b) :
    StableHlo.after hostOps10 W (Proc.devRef .tc b) = W (Proc.devRef .tc b) :=
  after_of_writes_isArg hostOps10_writes wr10_idx W hb

/-- The buffers `hostOps11` writes, in order. -/
noncomputable abbrev wr11 : List (Ref sig .tc) := [main_cst_20, main_v169, main_v170]
set_option maxHeartbeats 4000000 in
theorem hostOps11_writes : Writes (F := F) hostOps11 wr11 := by
  repeat' first | exact List.Forall₂.nil | refine List.Forall₂.cons rfl ?_
theorem wr11_idx : (wr11.all fun y => decide (27 ≤ (y.idx : ℕ))) = true := by decide
/-- A buffer that is none of them holds after the stretch what it held before. -/
theorem keep_hostOps11_of_not_mem (W : Valuation τ sig (Elt F)) (b : Ref sig .tc) (hb : b ∉ wr11) :
    StableHlo.after hostOps11 W (Proc.devRef .tc b) = W (Proc.devRef .tc b) := after_of_writes hostOps11_writes W hb
/-- In particular an argument does. -/
theorem keep_hostOps11 (W : Valuation τ sig (Elt F)) (b : Ref sig .tc) (hb : IsArg b) :
    StableHlo.after hostOps11 W (Proc.devRef .tc b) = W (Proc.devRef .tc b) :=
  after_of_writes_isArg hostOps11_writes wr11_idx W hb

/-- The buffers `hostOps12` writes, in order. -/
noncomputable abbrev wr12 : List (Ref sig .tc) := [main_cst_21, main_v172, main_v173, main_v174, main_v175]
set_option maxHeartbeats 4000000 in
theorem hostOps12_writes : Writes (F := F) hostOps12 wr12 := by
  repeat' first | exact List.Forall₂.nil | refine List.Forall₂.cons rfl ?_
theorem wr12_idx : (wr12.all fun y => decide (27 ≤ (y.idx : ℕ))) = true := by decide
/-- A buffer that is none of them holds after the stretch what it held before. -/
theorem keep_hostOps12_of_not_mem (W : Valuation τ sig (Elt F)) (b : Ref sig .tc) (hb : b ∉ wr12) :
    StableHlo.after hostOps12 W (Proc.devRef .tc b) = W (Proc.devRef .tc b) := after_of_writes hostOps12_writes W hb
/-- In particular an argument does. -/
theorem keep_hostOps12 (W : Valuation τ sig (Elt F)) (b : Ref sig .tc) (hb : IsArg b) :
    StableHlo.after hostOps12 W (Proc.devRef .tc b) = W (Proc.devRef .tc b) :=
  after_of_writes_isArg hostOps12_writes wr12_idx W hb

/-- The buffers `hostOps13` writes, in order. -/
noncomputable abbrev wr13 : List (Ref sig .tc) := [main_v177]
set_option maxHeartbeats 4000000 in
theorem hostOps13_writes : Writes (F := F) hostOps13 wr13 := by
  repeat' first | exact List.Forall₂.nil | refine List.Forall₂.cons rfl ?_
theorem wr13_idx : (wr13.all fun y => decide (27 ≤ (y.idx : ℕ))) = true := by decide
/-- A buffer that is none of them holds after the stretch what it held before. -/
theorem keep_hostOps13_of_not_mem (W : Valuation τ sig (Elt F)) (b : Ref sig .tc) (hb : b ∉ wr13) :
    StableHlo.after hostOps13 W (Proc.devRef .tc b) = W (Proc.devRef .tc b) := after_of_writes hostOps13_writes W hb
/-- In particular an argument does. -/
theorem keep_hostOps13 (W : Valuation τ sig (Elt F)) (b : Ref sig .tc) (hb : IsArg b) :
    StableHlo.after hostOps13 W (Proc.devRef .tc b) = W (Proc.devRef .tc b) :=
  after_of_writes_isArg hostOps13_writes wr13_idx W hb

/-- The buffers `hostOps14` writes, in order. -/
noncomputable abbrev wr14 : List (Ref sig .tc) := [main_c_22, main_v179, main_v180, main_c_23, main_v181, main_v182, main_v183, main_v184, main_v185, main_v186, main_v187, main_v188, main_cst_24, main_v189, main_v190, main_v191, main_v192]
set_option maxHeartbeats 4000000 in
theorem hostOps14_writes : Writes (F := F) hostOps14 wr14 := by
  repeat' first | exact List.Forall₂.nil | refine List.Forall₂.cons rfl ?_
theorem wr14_idx : (wr14.all fun y => decide (27 ≤ (y.idx : ℕ))) = true := by decide
/-- A buffer that is none of them holds after the stretch what it held before. -/
theorem keep_hostOps14_of_not_mem (W : Valuation τ sig (Elt F)) (b : Ref sig .tc) (hb : b ∉ wr14) :
    StableHlo.after hostOps14 W (Proc.devRef .tc b) = W (Proc.devRef .tc b) := after_of_writes hostOps14_writes W hb
/-- In particular an argument does. -/
theorem keep_hostOps14 (W : Valuation τ sig (Elt F)) (b : Ref sig .tc) (hb : IsArg b) :
    StableHlo.after hostOps14 W (Proc.devRef .tc b) = W (Proc.devRef .tc b) :=
  after_of_writes_isArg hostOps14_writes wr14_idx W hb

/-- The buffers `hostOps15` writes, in order. -/
noncomputable abbrev wr15 : List (Ref sig .tc) := [main_cst_25, main_v194, main_v195]
set_option maxHeartbeats 4000000 in
theorem hostOps15_writes : Writes (F := F) hostOps15 wr15 := by
  repeat' first | exact List.Forall₂.nil | refine List.Forall₂.cons rfl ?_
theorem wr15_idx : (wr15.all fun y => decide (27 ≤ (y.idx : ℕ))) = true := by decide
/-- A buffer that is none of them holds after the stretch what it held before. -/
theorem keep_hostOps15_of_not_mem (W : Valuation τ sig (Elt F)) (b : Ref sig .tc) (hb : b ∉ wr15) :
    StableHlo.after hostOps15 W (Proc.devRef .tc b) = W (Proc.devRef .tc b) := after_of_writes hostOps15_writes W hb
/-- In particular an argument does. -/
theorem keep_hostOps15 (W : Valuation τ sig (Elt F)) (b : Ref sig .tc) (hb : IsArg b) :
    StableHlo.after hostOps15 W (Proc.devRef .tc b) = W (Proc.devRef .tc b) :=
  after_of_writes_isArg hostOps15_writes wr15_idx W hb

/-- The buffers `hostOps16` writes, in order. -/
noncomputable abbrev wr16 : List (Ref sig .tc) := [main_cst_26, main_v197, main_v198, main_v199, main_v200]
set_option maxHeartbeats 4000000 in
theorem hostOps16_writes : Writes (F := F) hostOps16 wr16 := by
  repeat' first | exact List.Forall₂.nil | refine List.Forall₂.cons rfl ?_
theorem wr16_idx : (wr16.all fun y => decide (27 ≤ (y.idx : ℕ))) = true := by decide
/-- A buffer that is none of them holds after the stretch what it held before. -/
theorem keep_hostOps16_of_not_mem (W : Valuation τ sig (Elt F)) (b : Ref sig .tc) (hb : b ∉ wr16) :
    StableHlo.after hostOps16 W (Proc.devRef .tc b) = W (Proc.devRef .tc b) := after_of_writes hostOps16_writes W hb
/-- In particular an argument does. -/
theorem keep_hostOps16 (W : Valuation τ sig (Elt F)) (b : Ref sig .tc) (hb : IsArg b) :
    StableHlo.after hostOps16 W (Proc.devRef .tc b) = W (Proc.devRef .tc b) :=
  after_of_writes_isArg hostOps16_writes wr16_idx W hb

/-- The buffers `hostOps17` writes, in order. -/
noncomputable abbrev wr17 : List (Ref sig .tc) := [main_v202]
set_option maxHeartbeats 4000000 in
theorem hostOps17_writes : Writes (F := F) hostOps17 wr17 := by
  repeat' first | exact List.Forall₂.nil | refine List.Forall₂.cons rfl ?_
theorem wr17_idx : (wr17.all fun y => decide (27 ≤ (y.idx : ℕ))) = true := by decide
/-- A buffer that is none of them holds after the stretch what it held before. -/
theorem keep_hostOps17_of_not_mem (W : Valuation τ sig (Elt F)) (b : Ref sig .tc) (hb : b ∉ wr17) :
    StableHlo.after hostOps17 W (Proc.devRef .tc b) = W (Proc.devRef .tc b) := after_of_writes hostOps17_writes W hb
/-- In particular an argument does. -/
theorem keep_hostOps17 (W : Valuation τ sig (Elt F)) (b : Ref sig .tc) (hb : IsArg b) :
    StableHlo.after hostOps17 W (Proc.devRef .tc b) = W (Proc.devRef .tc b) :=
  after_of_writes_isArg hostOps17_writes wr17_idx W hb

/-- The buffers `hostOps18` writes, in order. -/
noncomputable abbrev wr18 : List (Ref sig .tc) := [main_c_27, main_v204, main_v205, main_c_28, main_v206, main_v207, main_v208, main_v209, main_v210, main_v211, main_v212, main_v213, main_cst_29, main_v214, main_v215, main_v216, main_v217]
set_option maxHeartbeats 4000000 in
theorem hostOps18_writes : Writes (F := F) hostOps18 wr18 := by
  repeat' first | exact List.Forall₂.nil | refine List.Forall₂.cons rfl ?_
theorem wr18_idx : (wr18.all fun y => decide (27 ≤ (y.idx : ℕ))) = true := by decide
/-- A buffer that is none of them holds after the stretch what it held before. -/
theorem keep_hostOps18_of_not_mem (W : Valuation τ sig (Elt F)) (b : Ref sig .tc) (hb : b ∉ wr18) :
    StableHlo.after hostOps18 W (Proc.devRef .tc b) = W (Proc.devRef .tc b) := after_of_writes hostOps18_writes W hb
/-- In particular an argument does. -/
theorem keep_hostOps18 (W : Valuation τ sig (Elt F)) (b : Ref sig .tc) (hb : IsArg b) :
    StableHlo.after hostOps18 W (Proc.devRef .tc b) = W (Proc.devRef .tc b) :=
  after_of_writes_isArg hostOps18_writes wr18_idx W hb

/-- The buffers `hostOps19` writes, in order. -/
noncomputable abbrev wr19 : List (Ref sig .tc) := [main_cst_30, main_v219, main_v220]
set_option maxHeartbeats 4000000 in
theorem hostOps19_writes : Writes (F := F) hostOps19 wr19 := by
  repeat' first | exact List.Forall₂.nil | refine List.Forall₂.cons rfl ?_
theorem wr19_idx : (wr19.all fun y => decide (27 ≤ (y.idx : ℕ))) = true := by decide
/-- A buffer that is none of them holds after the stretch what it held before. -/
theorem keep_hostOps19_of_not_mem (W : Valuation τ sig (Elt F)) (b : Ref sig .tc) (hb : b ∉ wr19) :
    StableHlo.after hostOps19 W (Proc.devRef .tc b) = W (Proc.devRef .tc b) := after_of_writes hostOps19_writes W hb
/-- In particular an argument does. -/
theorem keep_hostOps19 (W : Valuation τ sig (Elt F)) (b : Ref sig .tc) (hb : IsArg b) :
    StableHlo.after hostOps19 W (Proc.devRef .tc b) = W (Proc.devRef .tc b) :=
  after_of_writes_isArg hostOps19_writes wr19_idx W hb

/-- The buffers `hostOps20` writes, in order. -/
noncomputable abbrev wr20 : List (Ref sig .tc) := [main_cst_31, main_v222, main_v223, main_v224, main_v225]
set_option maxHeartbeats 4000000 in
theorem hostOps20_writes : Writes (F := F) hostOps20 wr20 := by
  repeat' first | exact List.Forall₂.nil | refine List.Forall₂.cons rfl ?_
theorem wr20_idx : (wr20.all fun y => decide (27 ≤ (y.idx : ℕ))) = true := by decide
/-- A buffer that is none of them holds after the stretch what it held before. -/
theorem keep_hostOps20_of_not_mem (W : Valuation τ sig (Elt F)) (b : Ref sig .tc) (hb : b ∉ wr20) :
    StableHlo.after hostOps20 W (Proc.devRef .tc b) = W (Proc.devRef .tc b) := after_of_writes hostOps20_writes W hb
/-- In particular an argument does. -/
theorem keep_hostOps20 (W : Valuation τ sig (Elt F)) (b : Ref sig .tc) (hb : IsArg b) :
    StableHlo.after hostOps20 W (Proc.devRef .tc b) = W (Proc.devRef .tc b) :=
  after_of_writes_isArg hostOps20_writes wr20_idx W hb

/-- The buffers `hostOps21` writes, in order. -/
noncomputable abbrev wr21 : List (Ref sig .tc) := [main_v227]
set_option maxHeartbeats 4000000 in
theorem hostOps21_writes : Writes (F := F) hostOps21 wr21 := by
  repeat' first | exact List.Forall₂.nil | refine List.Forall₂.cons rfl ?_
theorem wr21_idx : (wr21.all fun y => decide (27 ≤ (y.idx : ℕ))) = true := by decide
/-- A buffer that is none of them holds after the stretch what it held before. -/
theorem keep_hostOps21_of_not_mem (W : Valuation τ sig (Elt F)) (b : Ref sig .tc) (hb : b ∉ wr21) :
    StableHlo.after hostOps21 W (Proc.devRef .tc b) = W (Proc.devRef .tc b) := after_of_writes hostOps21_writes W hb
/-- In particular an argument does. -/
theorem keep_hostOps21 (W : Valuation τ sig (Elt F)) (b : Ref sig .tc) (hb : IsArg b) :
    StableHlo.after hostOps21 W (Proc.devRef .tc b) = W (Proc.devRef .tc b) :=
  after_of_writes_isArg hostOps21_writes wr21_idx W hb

/-- The buffers `hostOps22` writes, in order. -/
noncomputable abbrev wr22 : List (Ref sig .tc) := [main_c_32, main_v229, main_v230, main_c_33, main_v231, main_v232, main_v233, main_v234, main_v235, main_v236, main_v237, main_v238, main_cst_34, main_v239, main_v240, main_v241, main_v242]
set_option maxHeartbeats 4000000 in
theorem hostOps22_writes : Writes (F := F) hostOps22 wr22 := by
  repeat' first | exact List.Forall₂.nil | refine List.Forall₂.cons rfl ?_
theorem wr22_idx : (wr22.all fun y => decide (27 ≤ (y.idx : ℕ))) = true := by decide
/-- A buffer that is none of them holds after the stretch what it held before. -/
theorem keep_hostOps22_of_not_mem (W : Valuation τ sig (Elt F)) (b : Ref sig .tc) (hb : b ∉ wr22) :
    StableHlo.after hostOps22 W (Proc.devRef .tc b) = W (Proc.devRef .tc b) := after_of_writes hostOps22_writes W hb
/-- In particular an argument does. -/
theorem keep_hostOps22 (W : Valuation τ sig (Elt F)) (b : Ref sig .tc) (hb : IsArg b) :
    StableHlo.after hostOps22 W (Proc.devRef .tc b) = W (Proc.devRef .tc b) :=
  after_of_writes_isArg hostOps22_writes wr22_idx W hb

/-- The buffers `hostOps23` writes, in order. -/
noncomputable abbrev wr23 : List (Ref sig .tc) := [main_cst_35, main_v244, main_v245]
set_option maxHeartbeats 4000000 in
theorem hostOps23_writes : Writes (F := F) hostOps23 wr23 := by
  repeat' first | exact List.Forall₂.nil | refine List.Forall₂.cons rfl ?_
theorem wr23_idx : (wr23.all fun y => decide (27 ≤ (y.idx : ℕ))) = true := by decide
/-- A buffer that is none of them holds after the stretch what it held before. -/
theorem keep_hostOps23_of_not_mem (W : Valuation τ sig (Elt F)) (b : Ref sig .tc) (hb : b ∉ wr23) :
    StableHlo.after hostOps23 W (Proc.devRef .tc b) = W (Proc.devRef .tc b) := after_of_writes hostOps23_writes W hb
/-- In particular an argument does. -/
theorem keep_hostOps23 (W : Valuation τ sig (Elt F)) (b : Ref sig .tc) (hb : IsArg b) :
    StableHlo.after hostOps23 W (Proc.devRef .tc b) = W (Proc.devRef .tc b) :=
  after_of_writes_isArg hostOps23_writes wr23_idx W hb

/-- The buffers `hostOps24` writes, in order. -/
noncomputable abbrev wr24 : List (Ref sig .tc) := [main_cst_36, main_v247, main_v248, main_v249, main_v250]
set_option maxHeartbeats 4000000 in
theorem hostOps24_writes : Writes (F := F) hostOps24 wr24 := by
  repeat' first | exact List.Forall₂.nil | refine List.Forall₂.cons rfl ?_
theorem wr24_idx : (wr24.all fun y => decide (27 ≤ (y.idx : ℕ))) = true := by decide
/-- A buffer that is none of them holds after the stretch what it held before. -/
theorem keep_hostOps24_of_not_mem (W : Valuation τ sig (Elt F)) (b : Ref sig .tc) (hb : b ∉ wr24) :
    StableHlo.after hostOps24 W (Proc.devRef .tc b) = W (Proc.devRef .tc b) := after_of_writes hostOps24_writes W hb
/-- In particular an argument does. -/
theorem keep_hostOps24 (W : Valuation τ sig (Elt F)) (b : Ref sig .tc) (hb : IsArg b) :
    StableHlo.after hostOps24 W (Proc.devRef .tc b) = W (Proc.devRef .tc b) :=
  after_of_writes_isArg hostOps24_writes wr24_idx W hb

/-- The buffers `hostOps25` writes, in order. -/
noncomputable abbrev wr25 : List (Ref sig .tc) := [main_v252]
set_option maxHeartbeats 4000000 in
theorem hostOps25_writes : Writes (F := F) hostOps25 wr25 := by
  repeat' first | exact List.Forall₂.nil | refine List.Forall₂.cons rfl ?_
theorem wr25_idx : (wr25.all fun y => decide (27 ≤ (y.idx : ℕ))) = true := by decide
/-- A buffer that is none of them holds after the stretch what it held before. -/
theorem keep_hostOps25_of_not_mem (W : Valuation τ sig (Elt F)) (b : Ref sig .tc) (hb : b ∉ wr25) :
    StableHlo.after hostOps25 W (Proc.devRef .tc b) = W (Proc.devRef .tc b) := after_of_writes hostOps25_writes W hb
/-- In particular an argument does. -/
theorem keep_hostOps25 (W : Valuation τ sig (Elt F)) (b : Ref sig .tc) (hb : IsArg b) :
    StableHlo.after hostOps25 W (Proc.devRef .tc b) = W (Proc.devRef .tc b) :=
  after_of_writes_isArg hostOps25_writes wr25_idx W hb

/-- The buffers `hostOps26` writes, in order. -/
noncomputable abbrev wr26 : List (Ref sig .tc) := [main_c_37, main_v254, main_v255, main_c_38, main_v256, main_v257, main_v258, main_v259, main_v260, main_v261, main_v262, main_v263, main_cst_39, main_v264, main_v265, main_v266, main_v267]
set_option maxHeartbeats 4000000 in
theorem hostOps26_writes : Writes (F := F) hostOps26 wr26 := by
  repeat' first | exact List.Forall₂.nil | refine List.Forall₂.cons rfl ?_
theorem wr26_idx : (wr26.all fun y => decide (27 ≤ (y.idx : ℕ))) = true := by decide
/-- A buffer that is none of them holds after the stretch what it held before. -/
theorem keep_hostOps26_of_not_mem (W : Valuation τ sig (Elt F)) (b : Ref sig .tc) (hb : b ∉ wr26) :
    StableHlo.after hostOps26 W (Proc.devRef .tc b) = W (Proc.devRef .tc b) := after_of_writes hostOps26_writes W hb
/-- In particular an argument does. -/
theorem keep_hostOps26 (W : Valuation τ sig (Elt F)) (b : Ref sig .tc) (hb : IsArg b) :
    StableHlo.after hostOps26 W (Proc.devRef .tc b) = W (Proc.devRef .tc b) :=
  after_of_writes_isArg hostOps26_writes wr26_idx W hb

/-- The buffers `hostOps27` writes, in order. -/
noncomputable abbrev wr27 : List (Ref sig .tc) := [main_cst_40, main_v269, main_v270]
set_option maxHeartbeats 4000000 in
theorem hostOps27_writes : Writes (F := F) hostOps27 wr27 := by
  repeat' first | exact List.Forall₂.nil | refine List.Forall₂.cons rfl ?_
theorem wr27_idx : (wr27.all fun y => decide (27 ≤ (y.idx : ℕ))) = true := by decide
/-- A buffer that is none of them holds after the stretch what it held before. -/
theorem keep_hostOps27_of_not_mem (W : Valuation τ sig (Elt F)) (b : Ref sig .tc) (hb : b ∉ wr27) :
    StableHlo.after hostOps27 W (Proc.devRef .tc b) = W (Proc.devRef .tc b) := after_of_writes hostOps27_writes W hb
/-- In particular an argument does. -/
theorem keep_hostOps27 (W : Valuation τ sig (Elt F)) (b : Ref sig .tc) (hb : IsArg b) :
    StableHlo.after hostOps27 W (Proc.devRef .tc b) = W (Proc.devRef .tc b) :=
  after_of_writes_isArg hostOps27_writes wr27_idx W hb

/-- The buffers `hostOps28` writes, in order. -/
noncomputable abbrev wr28 : List (Ref sig .tc) := [main_cst_41, main_v272, main_v273, main_v274, main_v275]
set_option maxHeartbeats 4000000 in
theorem hostOps28_writes : Writes (F := F) hostOps28 wr28 := by
  repeat' first | exact List.Forall₂.nil | refine List.Forall₂.cons rfl ?_
theorem wr28_idx : (wr28.all fun y => decide (27 ≤ (y.idx : ℕ))) = true := by decide
/-- A buffer that is none of them holds after the stretch what it held before. -/
theorem keep_hostOps28_of_not_mem (W : Valuation τ sig (Elt F)) (b : Ref sig .tc) (hb : b ∉ wr28) :
    StableHlo.after hostOps28 W (Proc.devRef .tc b) = W (Proc.devRef .tc b) := after_of_writes hostOps28_writes W hb
/-- In particular an argument does. -/
theorem keep_hostOps28 (W : Valuation τ sig (Elt F)) (b : Ref sig .tc) (hb : IsArg b) :
    StableHlo.after hostOps28 W (Proc.devRef .tc b) = W (Proc.devRef .tc b) :=
  after_of_writes_isArg hostOps28_writes wr28_idx W hb

/-- The buffers `hostOps29` writes, in order. -/
noncomputable abbrev wr29 : List (Ref sig .tc) := [main_v277]
set_option maxHeartbeats 4000000 in
theorem hostOps29_writes : Writes (F := F) hostOps29 wr29 := by
  repeat' first | exact List.Forall₂.nil | refine List.Forall₂.cons rfl ?_
theorem wr29_idx : (wr29.all fun y => decide (27 ≤ (y.idx : ℕ))) = true := by decide
/-- A buffer that is none of them holds after the stretch what it held before. -/
theorem keep_hostOps29_of_not_mem (W : Valuation τ sig (Elt F)) (b : Ref sig .tc) (hb : b ∉ wr29) :
    StableHlo.after hostOps29 W (Proc.devRef .tc b) = W (Proc.devRef .tc b) := after_of_writes hostOps29_writes W hb
/-- In particular an argument does. -/
theorem keep_hostOps29 (W : Valuation τ sig (Elt F)) (b : Ref sig .tc) (hb : IsArg b) :
    StableHlo.after hostOps29 W (Proc.devRef .tc b) = W (Proc.devRef .tc b) :=
  after_of_writes_isArg hostOps29_writes wr29_idx W hb

/-- The buffers `hostOps30` writes, in order. -/
noncomputable abbrev wr30 : List (Ref sig .tc) := [main_c_42, main_v279, main_v280, main_c_43, main_v281, main_v282, main_v283, main_v284, main_v285, main_v286, main_v287, main_v288, main_cst_44, main_v289, main_v290, main_v291, main_v292]
set_option maxHeartbeats 4000000 in
theorem hostOps30_writes : Writes (F := F) hostOps30 wr30 := by
  repeat' first | exact List.Forall₂.nil | refine List.Forall₂.cons rfl ?_
theorem wr30_idx : (wr30.all fun y => decide (27 ≤ (y.idx : ℕ))) = true := by decide
/-- A buffer that is none of them holds after the stretch what it held before. -/
theorem keep_hostOps30_of_not_mem (W : Valuation τ sig (Elt F)) (b : Ref sig .tc) (hb : b ∉ wr30) :
    StableHlo.after hostOps30 W (Proc.devRef .tc b) = W (Proc.devRef .tc b) := after_of_writes hostOps30_writes W hb
/-- In particular an argument does. -/
theorem keep_hostOps30 (W : Valuation τ sig (Elt F)) (b : Ref sig .tc) (hb : IsArg b) :
    StableHlo.after hostOps30 W (Proc.devRef .tc b) = W (Proc.devRef .tc b) :=
  after_of_writes_isArg hostOps30_writes wr30_idx W hb

/-- The buffers `hostOps31` writes, in order. -/
noncomputable abbrev wr31 : List (Ref sig .tc) := [main_cst_45, main_v294, main_v295]
set_option maxHeartbeats 4000000 in
theorem hostOps31_writes : Writes (F := F) hostOps31 wr31 := by
  repeat' first | exact List.Forall₂.nil | refine List.Forall₂.cons rfl ?_
theorem wr31_idx : (wr31.all fun y => decide (27 ≤ (y.idx : ℕ))) = true := by decide
/-- A buffer that is none of them holds after the stretch what it held before. -/
theorem keep_hostOps31_of_not_mem (W : Valuation τ sig (Elt F)) (b : Ref sig .tc) (hb : b ∉ wr31) :
    StableHlo.after hostOps31 W (Proc.devRef .tc b) = W (Proc.devRef .tc b) := after_of_writes hostOps31_writes W hb
/-- In particular an argument does. -/
theorem keep_hostOps31 (W : Valuation τ sig (Elt F)) (b : Ref sig .tc) (hb : IsArg b) :
    StableHlo.after hostOps31 W (Proc.devRef .tc b) = W (Proc.devRef .tc b) :=
  after_of_writes_isArg hostOps31_writes wr31_idx W hb

/-- The buffers `hostOps32` writes, in order. -/
noncomputable abbrev wr32 : List (Ref sig .tc) := [main_cst_46, main_v297, main_v298, main_v299, main_v300]
set_option maxHeartbeats 4000000 in
theorem hostOps32_writes : Writes (F := F) hostOps32 wr32 := by
  repeat' first | exact List.Forall₂.nil | refine List.Forall₂.cons rfl ?_
theorem wr32_idx : (wr32.all fun y => decide (27 ≤ (y.idx : ℕ))) = true := by decide
/-- A buffer that is none of them holds after the stretch what it held before. -/
theorem keep_hostOps32_of_not_mem (W : Valuation τ sig (Elt F)) (b : Ref sig .tc) (hb : b ∉ wr32) :
    StableHlo.after hostOps32 W (Proc.devRef .tc b) = W (Proc.devRef .tc b) := after_of_writes hostOps32_writes W hb
/-- In particular an argument does. -/
theorem keep_hostOps32 (W : Valuation τ sig (Elt F)) (b : Ref sig .tc) (hb : IsArg b) :
    StableHlo.after hostOps32 W (Proc.devRef .tc b) = W (Proc.devRef .tc b) :=
  after_of_writes_isArg hostOps32_writes wr32_idx W hb

/-- The buffers `hostOps33` writes, in order. -/
noncomputable abbrev wr33 : List (Ref sig .tc) := [main_v302]
set_option maxHeartbeats 4000000 in
theorem hostOps33_writes : Writes (F := F) hostOps33 wr33 := by
  repeat' first | exact List.Forall₂.nil | refine List.Forall₂.cons rfl ?_
theorem wr33_idx : (wr33.all fun y => decide (27 ≤ (y.idx : ℕ))) = true := by decide
/-- A buffer that is none of them holds after the stretch what it held before. -/
theorem keep_hostOps33_of_not_mem (W : Valuation τ sig (Elt F)) (b : Ref sig .tc) (hb : b ∉ wr33) :
    StableHlo.after hostOps33 W (Proc.devRef .tc b) = W (Proc.devRef .tc b) := after_of_writes hostOps33_writes W hb
/-- In particular an argument does. -/
theorem keep_hostOps33 (W : Valuation τ sig (Elt F)) (b : Ref sig .tc) (hb : IsArg b) :
    StableHlo.after hostOps33 W (Proc.devRef .tc b) = W (Proc.devRef .tc b) :=
  after_of_writes_isArg hostOps33_writes wr33_idx W hb

/-- The buffers `hostOps34` writes, in order. -/
noncomputable abbrev wr34 : List (Ref sig .tc) := [main_c_47, main_v304, main_v305, main_c_48, main_v306, main_v307, main_v308, main_v309, main_v310, main_v311, main_v312, main_v313, main_cst_49, main_v314, main_v315, main_v316, main_v317]
set_option maxHeartbeats 4000000 in
theorem hostOps34_writes : Writes (F := F) hostOps34 wr34 := by
  repeat' first | exact List.Forall₂.nil | refine List.Forall₂.cons rfl ?_
theorem wr34_idx : (wr34.all fun y => decide (27 ≤ (y.idx : ℕ))) = true := by decide
/-- A buffer that is none of them holds after the stretch what it held before. -/
theorem keep_hostOps34_of_not_mem (W : Valuation τ sig (Elt F)) (b : Ref sig .tc) (hb : b ∉ wr34) :
    StableHlo.after hostOps34 W (Proc.devRef .tc b) = W (Proc.devRef .tc b) := after_of_writes hostOps34_writes W hb
/-- In particular an argument does. -/
theorem keep_hostOps34 (W : Valuation τ sig (Elt F)) (b : Ref sig .tc) (hb : IsArg b) :
    StableHlo.after hostOps34 W (Proc.devRef .tc b) = W (Proc.devRef .tc b) :=
  after_of_writes_isArg hostOps34_writes wr34_idx W hb

/-- The buffers `hostOps35` writes, in order. -/
noncomputable abbrev wr35 : List (Ref sig .tc) := [main_cst_50, main_v319, main_v320]
set_option maxHeartbeats 4000000 in
theorem hostOps35_writes : Writes (F := F) hostOps35 wr35 := by
  repeat' first | exact List.Forall₂.nil | refine List.Forall₂.cons rfl ?_
theorem wr35_idx : (wr35.all fun y => decide (27 ≤ (y.idx : ℕ))) = true := by decide
/-- A buffer that is none of them holds after the stretch what it held before. -/
theorem keep_hostOps35_of_not_mem (W : Valuation τ sig (Elt F)) (b : Ref sig .tc) (hb : b ∉ wr35) :
    StableHlo.after hostOps35 W (Proc.devRef .tc b) = W (Proc.devRef .tc b) := after_of_writes hostOps35_writes W hb
/-- In particular an argument does. -/
theorem keep_hostOps35 (W : Valuation τ sig (Elt F)) (b : Ref sig .tc) (hb : IsArg b) :
    StableHlo.after hostOps35 W (Proc.devRef .tc b) = W (Proc.devRef .tc b) :=
  after_of_writes_isArg hostOps35_writes wr35_idx W hb

/-- The buffers `hostOps36` writes, in order. -/
noncomputable abbrev wr36 : List (Ref sig .tc) := [main_cst_51, main_v322, main_v323, main_v324, main_v325]
set_option maxHeartbeats 4000000 in
theorem hostOps36_writes : Writes (F := F) hostOps36 wr36 := by
  repeat' first | exact List.Forall₂.nil | refine List.Forall₂.cons rfl ?_
theorem wr36_idx : (wr36.all fun y => decide (27 ≤ (y.idx : ℕ))) = true := by decide
/-- A buffer that is none of them holds after the stretch what it held before. -/
theorem keep_hostOps36_of_not_mem (W : Valuation τ sig (Elt F)) (b : Ref sig .tc) (hb : b ∉ wr36) :
    StableHlo.after hostOps36 W (Proc.devRef .tc b) = W (Proc.devRef .tc b) := after_of_writes hostOps36_writes W hb
/-- In particular an argument does. -/
theorem keep_hostOps36 (W : Valuation τ sig (Elt F)) (b : Ref sig .tc) (hb : IsArg b) :
    StableHlo.after hostOps36 W (Proc.devRef .tc b) = W (Proc.devRef .tc b) :=
  after_of_writes_isArg hostOps36_writes wr36_idx W hb

/-- The buffers `hostOps37` writes, in order. -/
noncomputable abbrev wr37 : List (Ref sig .tc) := [main_v327]
set_option maxHeartbeats 4000000 in
theorem hostOps37_writes : Writes (F := F) hostOps37 wr37 := by
  repeat' first | exact List.Forall₂.nil | refine List.Forall₂.cons rfl ?_
theorem wr37_idx : (wr37.all fun y => decide (27 ≤ (y.idx : ℕ))) = true := by decide
/-- A buffer that is none of them holds after the stretch what it held before. -/
theorem keep_hostOps37_of_not_mem (W : Valuation τ sig (Elt F)) (b : Ref sig .tc) (hb : b ∉ wr37) :
    StableHlo.after hostOps37 W (Proc.devRef .tc b) = W (Proc.devRef .tc b) := after_of_writes hostOps37_writes W hb
/-- In particular an argument does. -/
theorem keep_hostOps37 (W : Valuation τ sig (Elt F)) (b : Ref sig .tc) (hb : IsArg b) :
    StableHlo.after hostOps37 W (Proc.devRef .tc b) = W (Proc.devRef .tc b) :=
  after_of_writes_isArg hostOps37_writes wr37_idx W hb

/-- The buffers `hostOps38` writes, in order. -/
noncomputable abbrev wr38 : List (Ref sig .tc) := [main_c_52, main_v329, main_v330, main_c_53, main_v331, main_v332, main_v333, main_v334, main_v335, main_v336, main_v337, main_v338, main_cst_54, main_v339, main_v340, main_v341, main_v342]
set_option maxHeartbeats 4000000 in
theorem hostOps38_writes : Writes (F := F) hostOps38 wr38 := by
  repeat' first | exact List.Forall₂.nil | refine List.Forall₂.cons rfl ?_
theorem wr38_idx : (wr38.all fun y => decide (27 ≤ (y.idx : ℕ))) = true := by decide
/-- A buffer that is none of them holds after the stretch what it held before. -/
theorem keep_hostOps38_of_not_mem (W : Valuation τ sig (Elt F)) (b : Ref sig .tc) (hb : b ∉ wr38) :
    StableHlo.after hostOps38 W (Proc.devRef .tc b) = W (Proc.devRef .tc b) := after_of_writes hostOps38_writes W hb
/-- In particular an argument does. -/
theorem keep_hostOps38 (W : Valuation τ sig (Elt F)) (b : Ref sig .tc) (hb : IsArg b) :
    StableHlo.after hostOps38 W (Proc.devRef .tc b) = W (Proc.devRef .tc b) :=
  after_of_writes_isArg hostOps38_writes wr38_idx W hb

/-- The buffers `hostOps39` writes, in order. -/
noncomputable abbrev wr39 : List (Ref sig .tc) := [main_cst_55, main_v344, main_v345]
set_option maxHeartbeats 4000000 in
theorem hostOps39_writes : Writes (F := F) hostOps39 wr39 := by
  repeat' first | exact List.Forall₂.nil | refine List.Forall₂.cons rfl ?_
theorem wr39_idx : (wr39.all fun y => decide (27 ≤ (y.idx : ℕ))) = true := by decide
/-- A buffer that is none of them holds after the stretch what it held before. -/
theorem keep_hostOps39_of_not_mem (W : Valuation τ sig (Elt F)) (b : Ref sig .tc) (hb : b ∉ wr39) :
    StableHlo.after hostOps39 W (Proc.devRef .tc b) = W (Proc.devRef .tc b) := after_of_writes hostOps39_writes W hb
/-- In particular an argument does. -/
theorem keep_hostOps39 (W : Valuation τ sig (Elt F)) (b : Ref sig .tc) (hb : IsArg b) :
    StableHlo.after hostOps39 W (Proc.devRef .tc b) = W (Proc.devRef .tc b) :=
  after_of_writes_isArg hostOps39_writes wr39_idx W hb

/-- The buffers `hostOps40` writes, in order. -/
noncomputable abbrev wr40 : List (Ref sig .tc) := [main_cst_56, main_v347, main_v348, main_v349, main_v350]
set_option maxHeartbeats 4000000 in
theorem hostOps40_writes : Writes (F := F) hostOps40 wr40 := by
  repeat' first | exact List.Forall₂.nil | refine List.Forall₂.cons rfl ?_
theorem wr40_idx : (wr40.all fun y => decide (27 ≤ (y.idx : ℕ))) = true := by decide
/-- A buffer that is none of them holds after the stretch what it held before. -/
theorem keep_hostOps40_of_not_mem (W : Valuation τ sig (Elt F)) (b : Ref sig .tc) (hb : b ∉ wr40) :
    StableHlo.after hostOps40 W (Proc.devRef .tc b) = W (Proc.devRef .tc b) := after_of_writes hostOps40_writes W hb
/-- In particular an argument does. -/
theorem keep_hostOps40 (W : Valuation τ sig (Elt F)) (b : Ref sig .tc) (hb : IsArg b) :
    StableHlo.after hostOps40 W (Proc.devRef .tc b) = W (Proc.devRef .tc b) :=
  after_of_writes_isArg hostOps40_writes wr40_idx W hb

/-- The buffers `hostOps41` writes, in order. -/
noncomputable abbrev wr41 : List (Ref sig .tc) := [main_v352]
set_option maxHeartbeats 4000000 in
theorem hostOps41_writes : Writes (F := F) hostOps41 wr41 := by
  repeat' first | exact List.Forall₂.nil | refine List.Forall₂.cons rfl ?_
theorem wr41_idx : (wr41.all fun y => decide (27 ≤ (y.idx : ℕ))) = true := by decide
/-- A buffer that is none of them holds after the stretch what it held before. -/
theorem keep_hostOps41_of_not_mem (W : Valuation τ sig (Elt F)) (b : Ref sig .tc) (hb : b ∉ wr41) :
    StableHlo.after hostOps41 W (Proc.devRef .tc b) = W (Proc.devRef .tc b) := after_of_writes hostOps41_writes W hb
/-- In particular an argument does. -/
theorem keep_hostOps41 (W : Valuation τ sig (Elt F)) (b : Ref sig .tc) (hb : IsArg b) :
    StableHlo.after hostOps41 W (Proc.devRef .tc b) = W (Proc.devRef .tc b) :=
  after_of_writes_isArg hostOps41_writes wr41_idx W hb

/-- The buffers `hostOps42` writes, in order. -/
noncomputable abbrev wr42 : List (Ref sig .tc) := [main_c_57, main_v354, main_v355, main_c_58, main_v356, main_v357, main_v358, main_v359, main_v360, main_v361, main_v362, main_v363, main_cst_59, main_v364, main_v365, main_v366, main_v367]
set_option maxHeartbeats 4000000 in
theorem hostOps42_writes : Writes (F := F) hostOps42 wr42 := by
  repeat' first | exact List.Forall₂.nil | refine List.Forall₂.cons rfl ?_
theorem wr42_idx : (wr42.all fun y => decide (27 ≤ (y.idx : ℕ))) = true := by decide
/-- A buffer that is none of them holds after the stretch what it held before. -/
theorem keep_hostOps42_of_not_mem (W : Valuation τ sig (Elt F)) (b : Ref sig .tc) (hb : b ∉ wr42) :
    StableHlo.after hostOps42 W (Proc.devRef .tc b) = W (Proc.devRef .tc b) := after_of_writes hostOps42_writes W hb
/-- In particular an argument does. -/
theorem keep_hostOps42 (W : Valuation τ sig (Elt F)) (b : Ref sig .tc) (hb : IsArg b) :
    StableHlo.after hostOps42 W (Proc.devRef .tc b) = W (Proc.devRef .tc b) :=
  after_of_writes_isArg hostOps42_writes wr42_idx W hb

/-- The buffers `hostOps43` writes, in order. -/
noncomputable abbrev wr43 : List (Ref sig .tc) := [main_cst_60, main_v369, main_v370]
set_option maxHeartbeats 4000000 in
theorem hostOps43_writes : Writes (F := F) hostOps43 wr43 := by
  repeat' first | exact List.Forall₂.nil | refine List.Forall₂.cons rfl ?_
theorem wr43_idx : (wr43.all fun y => decide (27 ≤ (y.idx : ℕ))) = true := by decide
/-- A buffer that is none of them holds after the stretch what it held before. -/
theorem keep_hostOps43_of_not_mem (W : Valuation τ sig (Elt F)) (b : Ref sig .tc) (hb : b ∉ wr43) :
    StableHlo.after hostOps43 W (Proc.devRef .tc b) = W (Proc.devRef .tc b) := after_of_writes hostOps43_writes W hb
/-- In particular an argument does. -/
theorem keep_hostOps43 (W : Valuation τ sig (Elt F)) (b : Ref sig .tc) (hb : IsArg b) :
    StableHlo.after hostOps43 W (Proc.devRef .tc b) = W (Proc.devRef .tc b) :=
  after_of_writes_isArg hostOps43_writes wr43_idx W hb

/-- The buffers `hostOps44` writes, in order. -/
noncomputable abbrev wr44 : List (Ref sig .tc) := [main_cst_61, main_v372, main_v373, main_v374, main_v375]
set_option maxHeartbeats 4000000 in
theorem hostOps44_writes : Writes (F := F) hostOps44 wr44 := by
  repeat' first | exact List.Forall₂.nil | refine List.Forall₂.cons rfl ?_
theorem wr44_idx : (wr44.all fun y => decide (27 ≤ (y.idx : ℕ))) = true := by decide
/-- A buffer that is none of them holds after the stretch what it held before. -/
theorem keep_hostOps44_of_not_mem (W : Valuation τ sig (Elt F)) (b : Ref sig .tc) (hb : b ∉ wr44) :
    StableHlo.after hostOps44 W (Proc.devRef .tc b) = W (Proc.devRef .tc b) := after_of_writes hostOps44_writes W hb
/-- In particular an argument does. -/
theorem keep_hostOps44 (W : Valuation τ sig (Elt F)) (b : Ref sig .tc) (hb : IsArg b) :
    StableHlo.after hostOps44 W (Proc.devRef .tc b) = W (Proc.devRef .tc b) :=
  after_of_writes_isArg hostOps44_writes wr44_idx W hb

/-- The buffers `hostOps45` writes, in order. -/
noncomputable abbrev wr45 : List (Ref sig .tc) := [main_v377]
set_option maxHeartbeats 4000000 in
theorem hostOps45_writes : Writes (F := F) hostOps45 wr45 := by
  repeat' first | exact List.Forall₂.nil | refine List.Forall₂.cons rfl ?_
theorem wr45_idx : (wr45.all fun y => decide (27 ≤ (y.idx : ℕ))) = true := by decide
/-- A buffer that is none of them holds after the stretch what it held before. -/
theorem keep_hostOps45_of_not_mem (W : Valuation τ sig (Elt F)) (b : Ref sig .tc) (hb : b ∉ wr45) :
    StableHlo.after hostOps45 W (Proc.devRef .tc b) = W (Proc.devRef .tc b) := after_of_writes hostOps45_writes W hb
/-- In particular an argument does. -/
theorem keep_hostOps45 (W : Valuation τ sig (Elt F)) (b : Ref sig .tc) (hb : IsArg b) :
    StableHlo.after hostOps45 W (Proc.devRef .tc b) = W (Proc.devRef .tc b) :=
  after_of_writes_isArg hostOps45_writes wr45_idx W hb

/-- The buffers `hostOps46` writes, in order. -/
noncomputable abbrev wr46 : List (Ref sig .tc) := [main_c_62, main_v379, main_v380, main_c_63, main_v381, main_v382, main_v383, main_v384, main_v385, main_v386, main_v387, main_v388, main_cst_64, main_v389, main_v390, main_v391, main_v392]
set_option maxHeartbeats 4000000 in
theorem hostOps46_writes : Writes (F := F) hostOps46 wr46 := by
  repeat' first | exact List.Forall₂.nil | refine List.Forall₂.cons rfl ?_
theorem wr46_idx : (wr46.all fun y => decide (27 ≤ (y.idx : ℕ))) = true := by decide
/-- A buffer that is none of them holds after the stretch what it held before. -/
theorem keep_hostOps46_of_not_mem (W : Valuation τ sig (Elt F)) (b : Ref sig .tc) (hb : b ∉ wr46) :
    StableHlo.after hostOps46 W (Proc.devRef .tc b) = W (Proc.devRef .tc b) := after_of_writes hostOps46_writes W hb
/-- In particular an argument does. -/
theorem keep_hostOps46 (W : Valuation τ sig (Elt F)) (b : Ref sig .tc) (hb : IsArg b) :
    StableHlo.after hostOps46 W (Proc.devRef .tc b) = W (Proc.devRef .tc b) :=
  after_of_writes_isArg hostOps46_writes wr46_idx W hb

/-- The buffers `hostOps47` writes, in order. -/
noncomputable abbrev wr47 : List (Ref sig .tc) := [main_cst_65, main_v394, main_v395]
set_option maxHeartbeats 4000000 in
theorem hostOps47_writes : Writes (F := F) hostOps47 wr47 := by
  repeat' first | exact List.Forall₂.nil | refine List.Forall₂.cons rfl ?_
theorem wr47_idx : (wr47.all fun y => decide (27 ≤ (y.idx : ℕ))) = true := by decide
/-- A buffer that is none of them holds after the stretch what it held before. -/
theorem keep_hostOps47_of_not_mem (W : Valuation τ sig (Elt F)) (b : Ref sig .tc) (hb : b ∉ wr47) :
    StableHlo.after hostOps47 W (Proc.devRef .tc b) = W (Proc.devRef .tc b) := after_of_writes hostOps47_writes W hb
/-- In particular an argument does. -/
theorem keep_hostOps47 (W : Valuation τ sig (Elt F)) (b : Ref sig .tc) (hb : IsArg b) :
    StableHlo.after hostOps47 W (Proc.devRef .tc b) = W (Proc.devRef .tc b) :=
  after_of_writes_isArg hostOps47_writes wr47_idx W hb

/-- The buffers `hostOps48` writes, in order. -/
noncomputable abbrev wr48 : List (Ref sig .tc) := [main_cst_66, main_v397, main_v398, main_v399, main_v400]
set_option maxHeartbeats 4000000 in
theorem hostOps48_writes : Writes (F := F) hostOps48 wr48 := by
  repeat' first | exact List.Forall₂.nil | refine List.Forall₂.cons rfl ?_
theorem wr48_idx : (wr48.all fun y => decide (27 ≤ (y.idx : ℕ))) = true := by decide
/-- A buffer that is none of them holds after the stretch what it held before. -/
theorem keep_hostOps48_of_not_mem (W : Valuation τ sig (Elt F)) (b : Ref sig .tc) (hb : b ∉ wr48) :
    StableHlo.after hostOps48 W (Proc.devRef .tc b) = W (Proc.devRef .tc b) := after_of_writes hostOps48_writes W hb
/-- In particular an argument does. -/
theorem keep_hostOps48 (W : Valuation τ sig (Elt F)) (b : Ref sig .tc) (hb : IsArg b) :
    StableHlo.after hostOps48 W (Proc.devRef .tc b) = W (Proc.devRef .tc b) :=
  after_of_writes_isArg hostOps48_writes wr48_idx W hb

/-- The buffers `hostOps49` writes, in order. -/
noncomputable abbrev wr49 : List (Ref sig .tc) := [main_v402]
set_option maxHeartbeats 4000000 in
theorem hostOps49_writes : Writes (F := F) hostOps49 wr49 := by
  repeat' first | exact List.Forall₂.nil | refine List.Forall₂.cons rfl ?_
theorem wr49_idx : (wr49.all fun y => decide (27 ≤ (y.idx : ℕ))) = true := by decide
/-- A buffer that is none of them holds after the stretch what it held before. -/
theorem keep_hostOps49_of_not_mem (W : Valuation τ sig (Elt F)) (b : Ref sig .tc) (hb : b ∉ wr49) :
    StableHlo.after hostOps49 W (Proc.devRef .tc b) = W (Proc.devRef .tc b) := after_of_writes hostOps49_writes W hb
/-- In particular an argument does. -/
theorem keep_hostOps49 (W : Valuation τ sig (Elt F)) (b : Ref sig .tc) (hb : IsArg b) :
    StableHlo.after hostOps49 W (Proc.devRef .tc b) = W (Proc.devRef .tc b) :=
  after_of_writes_isArg hostOps49_writes wr49_idx W hb

/-! ## Across a kernel region -/

variable (m : (ℓ : Loc nD τ sig) → Buf (Elt F) ℓ) (ρ : Dev nD → PrngReg)

/-- Region 0's arrays are computed values, but window 1: the argument `main_arg4`, an input. -/
theorem win0_idx : ∀ w, w = 1 ∨ 27 ≤ ((Pipeline.arrRef spec0 w).idx : ℕ) := by decide
/-- An input window's array is, in the region's proof data, the entry contents throughout (whatever they are). -/
theorem A_in0 (V : (c : Dev nD) → (b : Ref sig .tc) → Buf (Elt F) ((c : Thread nD τ).loc b)) (c : Dev nD) :
    (dat0 V c).A 1 = V c (Pipeline.arrRef spec0 1) := by
  first | exact A_eq0 V c 1 | rfl
/-- So region 0 leaves every argument as it found it: the one it reads through a window by that window's
    fold, which for an input is the entry array; the others because they are none of its arrays. -/
theorem keep_reg0 (c : Dev nD) (b : Ref sig .tc) (hb : IsArg b) :
    B4 m ρ c (Proc.devRef .tc b) = B3 m ρ c (Proc.devRef .tc b) := by
  by_cases h : b = main_arg4
  · subst h
    exact (B4_arr m ρ c 1).trans (((dat0 (E0 m ρ) c).arrAt_in 1 rfl _).trans (A_in0 (E0 m ρ) c))
  · refine B4_of_ne m ρ c b fun w => ?_
    rcases win0_idx w with rfl | hw
    · exact fun e => h e.symm
    · exact (ne_of_isArg hb hw).symm

/-- Region 1's arrays are computed values: none is an argument. -/
theorem win1_idx : ∀ w, 27 ≤ ((Pipeline.arrRef spec1 w).idx : ℕ) := by decide
/-- So region 1 leaves every argument as it found it. -/
theorem keep_reg1 (c : Dev nD) (b : Ref sig .tc) (hb : IsArg b) :
    B6 m ρ c (Proc.devRef .tc b) = B5 m ρ c (Proc.devRef .tc b) :=
  B6_of_ne m ρ c b fun w => (ne_of_isArg hb (win1_idx w)).symm

/-- Region 2's arrays are computed values: none is an argument. -/
theorem win2_idx : ∀ w, 27 ≤ ((Pipeline.arrRef spec2 w).idx : ℕ) := by decide
/-- So region 2 leaves every argument as it found it. -/
theorem keep_reg2 (c : Dev nD) (b : Ref sig .tc) (hb : IsArg b) :
    B8 m ρ c (Proc.devRef .tc b) = B7 m ρ c (Proc.devRef .tc b) :=
  B8_of_ne m ρ c b fun w => (ne_of_isArg hb (win2_idx w)).symm

/-- Region 3's arrays are computed values: none is an argument. -/
theorem win3_idx : ∀ w, 27 ≤ ((Pipeline.arrRef spec3 w).idx : ℕ) := by decide
/-- So region 3 leaves every argument as it found it. -/
theorem keep_reg3 (c : Dev nD) (b : Ref sig .tc) (hb : IsArg b) :
    B10 m ρ c (Proc.devRef .tc b) = B9 m ρ c (Proc.devRef .tc b) :=
  B10_of_ne m ρ c b fun w => (ne_of_isArg hb (win3_idx w)).symm

/-- Region 4's arrays are computed values: none is an argument. -/
theorem win4_idx : ∀ w, 27 ≤ ((Pipeline.arrRef spec4 w).idx : ℕ) := by decide
/-- So region 4 leaves every argument as it found it. -/
theorem keep_reg4 (c : Dev nD) (b : Ref sig .tc) (hb : IsArg b) :
    B12 m ρ c (Proc.devRef .tc b) = B11 m ρ c (Proc.devRef .tc b) :=
  B12_of_ne m ρ c b fun w => (ne_of_isArg hb (win4_idx w)).symm

/-- Region 5's arrays are computed values: none is an argument. -/
theorem win5_idx : ∀ w, 27 ≤ ((Pipeline.arrRef spec5 w).idx : ℕ) := by decide
/-- So region 5 leaves every argument as it found it. -/
theorem keep_reg5 (c : Dev nD) (b : Ref sig .tc) (hb : IsArg b) :
    B14 m ρ c (Proc.devRef .tc b) = B13 m ρ c (Proc.devRef .tc b) :=
  B14_of_ne m ρ c b fun w => (ne_of_isArg hb (win5_idx w)).symm

/-- Region 6's arrays are computed values: none is an argument. -/
theorem win6_idx : ∀ w, 27 ≤ ((Pipeline.arrRef spec6 w).idx : ℕ) := by decide
/-- So region 6 leaves every argument as it found it. -/
theorem keep_reg6 (c : Dev nD) (b : Ref sig .tc) (hb : IsArg b) :
    B16 m ρ c (Proc.devRef .tc b) = B15 m ρ c (Proc.devRef .tc b) :=
  B16_of_ne m ρ c b fun w => (ne_of_isArg hb (win6_idx w)).symm

/-- Region 7's arrays are computed values: none is an argument. -/
theorem win7_idx : ∀ w, 27 ≤ ((Pipeline.arrRef spec7 w).idx : ℕ) := by decide
/-- So region 7 leaves every argument as it found it. -/
theorem keep_reg7 (c : Dev nD) (b : Ref sig .tc) (hb : IsArg b) :
    B18 m ρ c (Proc.devRef .tc b) = B17 m ρ c (Proc.devRef .tc b) :=
  B18_of_ne m ρ c b fun w => (ne_of_isArg hb (win7_idx w)).symm

/-- Region 8's arrays are computed values: none is an argument. -/
theorem win8_idx : ∀ w, 27 ≤ ((Pipeline.arrRef spec8 w).idx : ℕ) := by decide
/-- So region 8 leaves every argument as it found it. -/
theorem keep_reg8 (c : Dev nD) (b : Ref sig .tc) (hb : IsArg b) :
    B20 m ρ c (Proc.devRef .tc b) = B19 m ρ c (Proc.devRef .tc b) :=
  B20_of_ne m ρ c b fun w => (ne_of_isArg hb (win8_idx w)).symm

/-- Region 9's arrays are computed values: none is an argument. -/
theorem win9_idx : ∀ w, 27 ≤ ((Pipeline.arrRef spec9 w).idx : ℕ) := by decide
/-- So region 9 leaves every argument as it found it. -/
theorem keep_reg9 (c : Dev nD) (b : Ref sig .tc) (hb : IsArg b) :
    B22 m ρ c (Proc.devRef .tc b) = B21 m ρ c (Proc.devRef .tc b) :=
  B22_of_ne m ρ c b fun w => (ne_of_isArg hb (win9_idx w)).symm

/-- Region 10's arrays are computed values: none is an argument. -/
theorem win10_idx : ∀ w, 27 ≤ ((Pipeline.arrRef spec10 w).idx : ℕ) := by decide
/-- So region 10 leaves every argument as it found it. -/
theorem keep_reg10 (c : Dev nD) (b : Ref sig .tc) (hb : IsArg b) :
    B24 m ρ c (Proc.devRef .tc b) = B23 m ρ c (Proc.devRef .tc b) :=
  B24_of_ne m ρ c b fun w => (ne_of_isArg hb (win10_idx w)).symm

/-- Region 11's arrays are computed values: none is an argument. -/
theorem win11_idx : ∀ w, 27 ≤ ((Pipeline.arrRef spec11 w).idx : ℕ) := by decide
/-- So region 11 leaves every argument as it found it. -/
theorem keep_reg11 (c : Dev nD) (b : Ref sig .tc) (hb : IsArg b) :
    B26 m ρ c (Proc.devRef .tc b) = B25 m ρ c (Proc.devRef .tc b) :=
  B26_of_ne m ρ c b fun w => (ne_of_isArg hb (win11_idx w)).symm

/-- Region 12's arrays are computed values: none is an argument. -/
theorem win12_idx : ∀ w, 27 ≤ ((Pipeline.arrRef spec12 w).idx : ℕ) := by decide
/-- So region 12 leaves every argument as it found it. -/
theorem keep_reg12 (c : Dev nD) (b : Ref sig .tc) (hb : IsArg b) :
    B28 m ρ c (Proc.devRef .tc b) = B27 m ρ c (Proc.devRef .tc b) :=
  B28_of_ne m ρ c b fun w => (ne_of_isArg hb (win12_idx w)).symm

/-- Region 13's arrays are computed values: none is an argument. -/
theorem win13_idx : ∀ w, 27 ≤ ((Pipeline.arrRef spec13 w).idx : ℕ) := by decide
/-- So region 13 leaves every argument as it found it. -/
theorem keep_reg13 (c : Dev nD) (b : Ref sig .tc) (hb : IsArg b) :
    B30 m ρ c (Proc.devRef .tc b) = B29 m ρ c (Proc.devRef .tc b) :=
  B30_of_ne m ρ c b fun w => (ne_of_isArg hb (win13_idx w)).symm

/-- Region 14's arrays are computed values: none is an argument. -/
theorem win14_idx : ∀ w, 27 ≤ ((Pipeline.arrRef spec14 w).idx : ℕ) := by decide
/-- So region 14 leaves every argument as it found it. -/
theorem keep_reg14 (c : Dev nD) (b : Ref sig .tc) (hb : IsArg b) :
    B32 m ρ c (Proc.devRef .tc b) = B31 m ρ c (Proc.devRef .tc b) :=
  B32_of_ne m ρ c b fun w => (ne_of_isArg hb (win14_idx w)).symm

/-- Region 15's arrays are computed values: none is an argument. -/
theorem win15_idx : ∀ w, 27 ≤ ((Pipeline.arrRef spec15 w).idx : ℕ) := by decide
/-- So region 15 leaves every argument as it found it. -/
theorem keep_reg15 (c : Dev nD) (b : Ref sig .tc) (hb : IsArg b) :
    B34 m ρ c (Proc.devRef .tc b) = B33 m ρ c (Proc.devRef .tc b) :=
  B34_of_ne m ρ c b fun w => (ne_of_isArg hb (win15_idx w)).symm

/-- Region 16's arrays are computed values: none is an argument. -/
theorem win16_idx : ∀ w, 27 ≤ ((Pipeline.arrRef spec16 w).idx : ℕ) := by decide
/-- So region 16 leaves every argument as it found it. -/
theorem keep_reg16 (c : Dev nD) (b : Ref sig .tc) (hb : IsArg b) :
    B36 m ρ c (Proc.devRef .tc b) = B35 m ρ c (Proc.devRef .tc b) :=
  B36_of_ne m ρ c b fun w => (ne_of_isArg hb (win16_idx w)).symm

/-- Region 17's arrays are computed values: none is an argument. -/
theorem win17_idx : ∀ w, 27 ≤ ((Pipeline.arrRef spec17 w).idx : ℕ) := by decide
/-- So region 17 leaves every argument as it found it. -/
theorem keep_reg17 (c : Dev nD) (b : Ref sig .tc) (hb : IsArg b) :
    B38 m ρ c (Proc.devRef .tc b) = B37 m ρ c (Proc.devRef .tc b) :=
  B38_of_ne m ρ c b fun w => (ne_of_isArg hb (win17_idx w)).symm

/-- Region 18's arrays are computed values: none is an argument. -/
theorem win18_idx : ∀ w, 27 ≤ ((Pipeline.arrRef spec18 w).idx : ℕ) := by decide
/-- So region 18 leaves every argument as it found it. -/
theorem keep_reg18 (c : Dev nD) (b : Ref sig .tc) (hb : IsArg b) :
    B40 m ρ c (Proc.devRef .tc b) = B39 m ρ c (Proc.devRef .tc b) :=
  B40_of_ne m ρ c b fun w => (ne_of_isArg hb (win18_idx w)).symm

/-- Region 19's arrays are computed values: none is an argument. -/
theorem win19_idx : ∀ w, 27 ≤ ((Pipeline.arrRef spec19 w).idx : ℕ) := by decide
/-- So region 19 leaves every argument as it found it. -/
theorem keep_reg19 (c : Dev nD) (b : Ref sig .tc) (hb : IsArg b) :
    B42 m ρ c (Proc.devRef .tc b) = B41 m ρ c (Proc.devRef .tc b) :=
  B42_of_ne m ρ c b fun w => (ne_of_isArg hb (win19_idx w)).symm

/-- Region 20's arrays are computed values: none is an argument. -/
theorem win20_idx : ∀ w, 27 ≤ ((Pipeline.arrRef spec20 w).idx : ℕ) := by decide
/-- So region 20 leaves every argument as it found it. -/
theorem keep_reg20 (c : Dev nD) (b : Ref sig .tc) (hb : IsArg b) :
    B44 m ρ c (Proc.devRef .tc b) = B43 m ρ c (Proc.devRef .tc b) :=
  B44_of_ne m ρ c b fun w => (ne_of_isArg hb (win20_idx w)).symm

/-- Region 21's arrays are computed values: none is an argument. -/
theorem win21_idx : ∀ w, 27 ≤ ((Pipeline.arrRef spec21 w).idx : ℕ) := by decide
/-- So region 21 leaves every argument as it found it. -/
theorem keep_reg21 (c : Dev nD) (b : Ref sig .tc) (hb : IsArg b) :
    B46 m ρ c (Proc.devRef .tc b) = B45 m ρ c (Proc.devRef .tc b) :=
  B46_of_ne m ρ c b fun w => (ne_of_isArg hb (win21_idx w)).symm

/-- Region 22's arrays are computed values: none is an argument. -/
theorem win22_idx : ∀ w, 27 ≤ ((Pipeline.arrRef spec22 w).idx : ℕ) := by decide
/-- So region 22 leaves every argument as it found it. -/
theorem keep_reg22 (c : Dev nD) (b : Ref sig .tc) (hb : IsArg b) :
    B48 m ρ c (Proc.devRef .tc b) = B47 m ρ c (Proc.devRef .tc b) :=
  B48_of_ne m ρ c b fun w => (ne_of_isArg hb (win22_idx w)).symm

/-- Region 23's arrays are computed values: none is an argument. -/
theorem win23_idx : ∀ w, 27 ≤ ((Pipeline.arrRef spec23 w).idx : ℕ) := by decide
/-- So region 23 leaves every argument as it found it. -/
theorem keep_reg23 (c : Dev nD) (b : Ref sig .tc) (hb : IsArg b) :
    B50 m ρ c (Proc.devRef .tc b) = B49 m ρ c (Proc.devRef .tc b) :=
  B50_of_ne m ρ c b fun w => (ne_of_isArg hb (win23_idx w)).symm

/-- Region 24's arrays are computed values: none is an argument. -/
theorem win24_idx : ∀ w, 27 ≤ ((Pipeline.arrRef spec24 w).idx : ℕ) := by decide
/-- So region 24 leaves every argument as it found it. -/
theorem keep_reg24 (c : Dev nD) (b : Ref sig .tc) (hb : IsArg b) :
    B52 m ρ c (Proc.devRef .tc b) = B51 m ρ c (Proc.devRef .tc b) :=
  B52_of_ne m ρ c b fun w => (ne_of_isArg hb (win24_idx w)).symm

/-- Region 25's arrays are computed values: none is an argument. -/
theorem win25_idx : ∀ w, 27 ≤ ((Pipeline.arrRef spec25 w).idx : ℕ) := by decide
/-- So region 25 leaves every argument as it found it. -/
theorem keep_reg25 (c : Dev nD) (b : Ref sig .tc) (hb : IsArg b) :
    B54 m ρ c (Proc.devRef .tc b) = B53 m ρ c (Proc.devRef .tc b) :=
  B54_of_ne m ρ c b fun w => (ne_of_isArg hb (win25_idx w)).symm

/-- Region 26's arrays are computed values: none is an argument. -/
theorem win26_idx : ∀ w, 27 ≤ ((Pipeline.arrRef spec26 w).idx : ℕ) := by decide
/-- So region 26 leaves every argument as it found it. -/
theorem keep_reg26 (c : Dev nD) (b : Ref sig .tc) (hb : IsArg b) :
    B56 m ρ c (Proc.devRef .tc b) = B55 m ρ c (Proc.devRef .tc b) :=
  B56_of_ne m ρ c b fun w => (ne_of_isArg hb (win26_idx w)).symm

/-- Region 27's arrays are computed values: none is an argument. -/
theorem win27_idx : ∀ w, 27 ≤ ((Pipeline.arrRef spec27 w).idx : ℕ) := by decide
/-- So region 27 leaves every argument as it found it. -/
theorem keep_reg27 (c : Dev nD) (b : Ref sig .tc) (hb : IsArg b) :
    B58 m ρ c (Proc.devRef .tc b) = B57 m ρ c (Proc.devRef .tc b) :=
  B58_of_ne m ρ c b fun w => (ne_of_isArg hb (win27_idx w)).symm

/-- Region 28's arrays are computed values: none is an argument. -/
theorem win28_idx : ∀ w, 27 ≤ ((Pipeline.arrRef spec28 w).idx : ℕ) := by decide
/-- So region 28 leaves every argument as it found it. -/
theorem keep_reg28 (c : Dev nD) (b : Ref sig .tc) (hb : IsArg b) :
    B60 m ρ c (Proc.devRef .tc b) = B59 m ρ c (Proc.devRef .tc b) :=
  B60_of_ne m ρ c b fun w => (ne_of_isArg hb (win28_idx w)).symm

/-- Region 29's arrays are computed values: none is an argument. -/
theorem win29_idx : ∀ w, 27 ≤ ((Pipeline.arrRef spec29 w).idx : ℕ) := by decide
/-- So region 29 leaves every argument as it found it. -/
theorem keep_reg29 (c : Dev nD) (b : Ref sig .tc) (hb : IsArg b) :
    B62 m ρ c (Proc.devRef .tc b) = B61 m ρ c (Proc.devRef .tc b) :=
  B62_of_ne m ρ c b fun w => (ne_of_isArg hb (win29_idx w)).symm

/-- Region 30's arrays are computed values: none is an argument. -/
theorem win30_idx : ∀ w, 27 ≤ ((Pipeline.arrRef spec30 w).idx : ℕ) := by decide
/-- So region 30 leaves every argument as it found it. -/
theorem keep_reg30 (c : Dev nD) (b : Ref sig .tc) (hb : IsArg b) :
    B64 m ρ c (Proc.devRef .tc b) = B63 m ρ c (Proc.devRef .tc b) :=
  B64_of_ne m ρ c b fun w => (ne_of_isArg hb (win30_idx w)).symm

/-- Region 31's arrays are computed values: none is an argument. -/
theorem win31_idx : ∀ w, 27 ≤ ((Pipeline.arrRef spec31 w).idx : ℕ) := by decide
/-- So region 31 leaves every argument as it found it. -/
theorem keep_reg31 (c : Dev nD) (b : Ref sig .tc) (hb : IsArg b) :
    B66 m ρ c (Proc.devRef .tc b) = B65 m ρ c (Proc.devRef .tc b) :=
  B66_of_ne m ρ c b fun w => (ne_of_isArg hb (win31_idx w)).symm

/-- Region 32's arrays are computed values: none is an argument. -/
theorem win32_idx : ∀ w, 27 ≤ ((Pipeline.arrRef spec32 w).idx : ℕ) := by decide
/-- So region 32 leaves every argument as it found it. -/
theorem keep_reg32 (c : Dev nD) (b : Ref sig .tc) (hb : IsArg b) :
    B68 m ρ c (Proc.devRef .tc b) = B67 m ρ c (Proc.devRef .tc b) :=
  B68_of_ne m ρ c b fun w => (ne_of_isArg hb (win32_idx w)).symm

/-- Region 33's arrays are computed values: none is an argument. -/
theorem win33_idx : ∀ w, 27 ≤ ((Pipeline.arrRef spec33 w).idx : ℕ) := by decide
/-- So region 33 leaves every argument as it found it. -/
theorem keep_reg33 (c : Dev nD) (b : Ref sig .tc) (hb : IsArg b) :
    B70 m ρ c (Proc.devRef .tc b) = B69 m ρ c (Proc.devRef .tc b) :=
  B70_of_ne m ρ c b fun w => (ne_of_isArg hb (win33_idx w)).symm

/-- Region 34's arrays are computed values: none is an argument. -/
theorem win34_idx : ∀ w, 27 ≤ ((Pipeline.arrRef spec34 w).idx : ℕ) := by decide
/-- So region 34 leaves every argument as it found it. -/
theorem keep_reg34 (c : Dev nD) (b : Ref sig .tc) (hb : IsArg b) :
    B72 m ρ c (Proc.devRef .tc b) = B71 m ρ c (Proc.devRef .tc b) :=
  B72_of_ne m ρ c b fun w => (ne_of_isArg hb (win34_idx w)).symm

/-- Region 35's arrays are computed values: none is an argument. -/
theorem win35_idx : ∀ w, 27 ≤ ((Pipeline.arrRef spec35 w).idx : ℕ) := by decide
/-- So region 35 leaves every argument as it found it. -/
theorem keep_reg35 (c : Dev nD) (b : Ref sig .tc) (hb : IsArg b) :
    B74 m ρ c (Proc.devRef .tc b) = B73 m ρ c (Proc.devRef .tc b) :=
  B74_of_ne m ρ c b fun w => (ne_of_isArg hb (win35_idx w)).symm

/-- Region 36's arrays are computed values: none is an argument. -/
theorem win36_idx : ∀ w, 27 ≤ ((Pipeline.arrRef spec36 w).idx : ℕ) := by decide
/-- So region 36 leaves every argument as it found it. -/
theorem keep_reg36 (c : Dev nD) (b : Ref sig .tc) (hb : IsArg b) :
    B76 m ρ c (Proc.devRef .tc b) = B75 m ρ c (Proc.devRef .tc b) :=
  B76_of_ne m ρ c b fun w => (ne_of_isArg hb (win36_idx w)).symm

/-- Region 37's arrays are computed values: none is an argument. -/
theorem win37_idx : ∀ w, 27 ≤ ((Pipeline.arrRef spec37 w).idx : ℕ) := by decide
/-- So region 37 leaves every argument as it found it. -/
theorem keep_reg37 (c : Dev nD) (b : Ref sig .tc) (hb : IsArg b) :
    B78 m ρ c (Proc.devRef .tc b) = B77 m ρ c (Proc.devRef .tc b) :=
  B78_of_ne m ρ c b fun w => (ne_of_isArg hb (win37_idx w)).symm

/-- Region 38's arrays are computed values: none is an argument. -/
theorem win38_idx : ∀ w, 27 ≤ ((Pipeline.arrRef spec38 w).idx : ℕ) := by decide
/-- So region 38 leaves every argument as it found it. -/
theorem keep_reg38 (c : Dev nD) (b : Ref sig .tc) (hb : IsArg b) :
    B80 m ρ c (Proc.devRef .tc b) = B79 m ρ c (Proc.devRef .tc b) :=
  B80_of_ne m ρ c b fun w => (ne_of_isArg hb (win38_idx w)).symm

/-- Region 39's arrays are computed values: none is an argument. -/
theorem win39_idx : ∀ w, 27 ≤ ((Pipeline.arrRef spec39 w).idx : ℕ) := by decide
/-- So region 39 leaves every argument as it found it. -/
theorem keep_reg39 (c : Dev nD) (b : Ref sig .tc) (hb : IsArg b) :
    B82 m ρ c (Proc.devRef .tc b) = B81 m ρ c (Proc.devRef .tc b) :=
  B82_of_ne m ρ c b fun w => (ne_of_isArg hb (win39_idx w)).symm

/-- Region 40's arrays are computed values: none is an argument. -/
theorem win40_idx : ∀ w, 27 ≤ ((Pipeline.arrRef spec40 w).idx : ℕ) := by decide
/-- So region 40 leaves every argument as it found it. -/
theorem keep_reg40 (c : Dev nD) (b : Ref sig .tc) (hb : IsArg b) :
    B84 m ρ c (Proc.devRef .tc b) = B83 m ρ c (Proc.devRef .tc b) :=
  B84_of_ne m ρ c b fun w => (ne_of_isArg hb (win40_idx w)).symm

/-- Region 41's arrays are computed values: none is an argument. -/
theorem win41_idx : ∀ w, 27 ≤ ((Pipeline.arrRef spec41 w).idx : ℕ) := by decide
/-- So region 41 leaves every argument as it found it. -/
theorem keep_reg41 (c : Dev nD) (b : Ref sig .tc) (hb : IsArg b) :
    B86 m ρ c (Proc.devRef .tc b) = B85 m ρ c (Proc.devRef .tc b) :=
  B86_of_ne m ρ c b fun w => (ne_of_isArg hb (win41_idx w)).symm

/-- Region 42's arrays are computed values: none is an argument. -/
theorem win42_idx : ∀ w, 27 ≤ ((Pipeline.arrRef spec42 w).idx : ℕ) := by decide
/-- So region 42 leaves every argument as it found it. -/
theorem keep_reg42 (c : Dev nD) (b : Ref sig .tc) (hb : IsArg b) :
    B88 m ρ c (Proc.devRef .tc b) = B87 m ρ c (Proc.devRef .tc b) :=
  B88_of_ne m ρ c b fun w => (ne_of_isArg hb (win42_idx w)).symm

/-- Region 43's arrays are computed values: none is an argument. -/
theorem win43_idx : ∀ w, 27 ≤ ((Pipeline.arrRef spec43 w).idx : ℕ) := by decide
/-- So region 43 leaves every argument as it found it. -/
theorem keep_reg43 (c : Dev nD) (b : Ref sig .tc) (hb : IsArg b) :
    B90 m ρ c (Proc.devRef .tc b) = B89 m ρ c (Proc.devRef .tc b) :=
  B90_of_ne m ρ c b fun w => (ne_of_isArg hb (win43_idx w)).symm

/-- Region 44's arrays are computed values: none is an argument. -/
theorem win44_idx : ∀ w, 27 ≤ ((Pipeline.arrRef spec44 w).idx : ℕ) := by decide
/-- So region 44 leaves every argument as it found it. -/
theorem keep_reg44 (c : Dev nD) (b : Ref sig .tc) (hb : IsArg b) :
    B92 m ρ c (Proc.devRef .tc b) = B91 m ρ c (Proc.devRef .tc b) :=
  B92_of_ne m ρ c b fun w => (ne_of_isArg hb (win44_idx w)).symm

/-- Region 45's arrays are computed values: none is an argument. -/
theorem win45_idx : ∀ w, 27 ≤ ((Pipeline.arrRef spec45 w).idx : ℕ) := by decide
/-- So region 45 leaves every argument as it found it. -/
theorem keep_reg45 (c : Dev nD) (b : Ref sig .tc) (hb : IsArg b) :
    B94 m ρ c (Proc.devRef .tc b) = B93 m ρ c (Proc.devRef .tc b) :=
  B94_of_ne m ρ c b fun w => (ne_of_isArg hb (win45_idx w)).symm

/-- Region 46's arrays are computed values: none is an argument. -/
theorem win46_idx : ∀ w, 27 ≤ ((Pipeline.arrRef spec46 w).idx : ℕ) := by decide
/-- So region 46 leaves every argument as it found it. -/
theorem keep_reg46 (c : Dev nD) (b : Ref sig .tc) (hb : IsArg b) :
    B96 m ρ c (Proc.devRef .tc b) = B95 m ρ c (Proc.devRef .tc b) :=
  B96_of_ne m ρ c b fun w => (ne_of_isArg hb (win46_idx w)).symm

/-- Region 47's arrays are computed values: none is an argument. -/
theorem win47_idx : ∀ w, 27 ≤ ((Pipeline.arrRef spec47 w).idx : ℕ) := by decide
/-- So region 47 leaves every argument as it found it. -/
theorem keep_reg47 (c : Dev nD) (b : Ref sig .tc) (hb : IsArg b) :
    B98 m ρ c (Proc.devRef .tc b) = B97 m ρ c (Proc.devRef .tc b) :=
  B98_of_ne m ρ c b fun w => (ne_of_isArg hb (win47_idx w)).symm

/-- Region 48's arrays are computed values, but window 5: the argument `main_arg26`, an input. -/
theorem win48_idx : ∀ w, w = 5 ∨ 27 ≤ ((Pipeline.arrRef spec48 w).idx : ℕ) := by decide
/-- An input window's array is, in the region's proof data, the entry contents throughout (whatever they are). -/
theorem A_in48 (V : (c : Dev nD) → (b : Ref sig .tc) → Buf (Elt F) ((c : Thread nD τ).loc b)) (c : Dev nD) :
    (dat48 V c).A 5 = V c (Pipeline.arrRef spec48 5) := by
  first | exact A_eq48 V c 5 | rfl
/-- So region 48 leaves every argument as it found it: the one it reads through a window by that window's
    fold, which for an input is the entry array; the others because they are none of its arrays. -/
theorem keep_reg48 (c : Dev nD) (b : Ref sig .tc) (hb : IsArg b) :
    B100 m ρ c (Proc.devRef .tc b) = B99 m ρ c (Proc.devRef .tc b) := by
  by_cases h : b = main_arg26
  · subst h
    exact (B100_arr m ρ c 5).trans (((dat48 (E48 m ρ) c).arrAt_in 5 rfl _).trans (A_in48 (E48 m ρ) c))
  · refine B100_of_ne m ρ c b fun w => ?_
    rcases win48_idx w with rfl | hw
    · exact fun e => h e.symm
    · exact (ne_of_isArg hb hw).symm

/-! ## At every boundary an argument holds the launch memory's array -/

theorem B0_isArg (c : Dev nD) (b : Ref sig .tc) (hb : IsArg b) :
    B0 m ρ c (Proc.devRef .tc b) = m ((c : Thread nD τ).loc b) := rfl
theorem B1_isArg (c : Dev nD) (b : Ref sig .tc) (hb : IsArg b) :
    B1 m ρ c (Proc.devRef .tc b) = m ((c : Thread nD τ).loc b) :=
  (keep_hostOps0 (B0 m ρ c) b hb).trans (B0_isArg m ρ c b hb)
theorem B2_isArg (c : Dev nD) (b : Ref sig .tc) (hb : IsArg b) :
    B2 m ρ c (Proc.devRef .tc b) = m ((c : Thread nD τ).loc b) :=
  (keep_hostOps0_1 (B1 m ρ c) b hb).trans (B1_isArg m ρ c b hb)
theorem B3_isArg (c : Dev nD) (b : Ref sig .tc) (hb : IsArg b) :
    B3 m ρ c (Proc.devRef .tc b) = m ((c : Thread nD τ).loc b) :=
  (keep_hostOps0_2 (B2 m ρ c) b hb).trans (B2_isArg m ρ c b hb)
theorem B4_isArg (c : Dev nD) (b : Ref sig .tc) (hb : IsArg b) :
    B4 m ρ c (Proc.devRef .tc b) = m ((c : Thread nD τ).loc b) :=
  (keep_reg0 m ρ c b hb).trans (B3_isArg m ρ c b hb)
theorem B5_isArg (c : Dev nD) (b : Ref sig .tc) (hb : IsArg b) :
    B5 m ρ c (Proc.devRef .tc b) = m ((c : Thread nD τ).loc b) :=
  (keep_hostOps1 (B4 m ρ c) b hb).trans (B4_isArg m ρ c b hb)
theorem B6_isArg (c : Dev nD) (b : Ref sig .tc) (hb : IsArg b) :
    B6 m ρ c (Proc.devRef .tc b) = m ((c : Thread nD τ).loc b) :=
  (keep_reg1 m ρ c b hb).trans (B5_isArg m ρ c b hb)
theorem B7_isArg (c : Dev nD) (b : Ref sig .tc) (hb : IsArg b) :
    B7 m ρ c (Proc.devRef .tc b) = m ((c : Thread nD τ).loc b) :=
  (keep_hostOps2 (B6 m ρ c) b hb).trans (B6_isArg m ρ c b hb)
theorem B8_isArg (c : Dev nD) (b : Ref sig .tc) (hb : IsArg b) :
    B8 m ρ c (Proc.devRef .tc b) = m ((c : Thread nD τ).loc b) :=
  (keep_reg2 m ρ c b hb).trans (B7_isArg m ρ c b hb)
theorem B9_isArg (c : Dev nD) (b : Ref sig .tc) (hb : IsArg b) :
    B9 m ρ c (Proc.devRef .tc b) = m ((c : Thread nD τ).loc b) :=
  (keep_hostOps3 (B8 m ρ c) b hb).trans (B8_isArg m ρ c b hb)
theorem B10_isArg (c : Dev nD) (b : Ref sig .tc) (hb : IsArg b) :
    B10 m ρ c (Proc.devRef .tc b) = m ((c : Thread nD τ).loc b) :=
  (keep_reg3 m ρ c b hb).trans (B9_isArg m ρ c b hb)
theorem B11_isArg (c : Dev nD) (b : Ref sig .tc) (hb : IsArg b) :
    B11 m ρ c (Proc.devRef .tc b) = m ((c : Thread nD τ).loc b) :=
  (keep_hostOps4 (B10 m ρ c) b hb).trans (B10_isArg m ρ c b hb)
theorem B12_isArg (c : Dev nD) (b : Ref sig .tc) (hb : IsArg b) :
    B12 m ρ c (Proc.devRef .tc b) = m ((c : Thread nD τ).loc b) :=
  (keep_reg4 m ρ c b hb).trans (B11_isArg m ρ c b hb)
theorem B13_isArg (c : Dev nD) (b : Ref sig .tc) (hb : IsArg b) :
    B13 m ρ c (Proc.devRef .tc b) = m ((c : Thread nD τ).loc b) :=
  (keep_hostOps5 (B12 m ρ c) b hb).trans (B12_isArg m ρ c b hb)
theorem B14_isArg (c : Dev nD) (b : Ref sig .tc) (hb : IsArg b) :
    B14 m ρ c (Proc.devRef .tc b) = m ((c : Thread nD τ).loc b) :=
  (keep_reg5 m ρ c b hb).trans (B13_isArg m ρ c b hb)
theorem B15_isArg (c : Dev nD) (b : Ref sig .tc) (hb : IsArg b) :
    B15 m ρ c (Proc.devRef .tc b) = m ((c : Thread nD τ).loc b) :=
  (keep_hostOps6 (B14 m ρ c) b hb).trans (B14_isArg m ρ c b hb)
theorem B16_isArg (c : Dev nD) (b : Ref sig .tc) (hb : IsArg b) :
    B16 m ρ c (Proc.devRef .tc b) = m ((c : Thread nD τ).loc b) :=
  (keep_reg6 m ρ c b hb).trans (B15_isArg m ρ c b hb)
theorem B17_isArg (c : Dev nD) (b : Ref sig .tc) (hb : IsArg b) :
    B17 m ρ c (Proc.devRef .tc b) = m ((c : Thread nD τ).loc b) :=
  (keep_hostOps7 (B16 m ρ c) b hb).trans (B16_isArg m ρ c b hb)
theorem B18_isArg (c : Dev nD) (b : Ref sig .tc) (hb : IsArg b) :
    B18 m ρ c (Proc.devRef .tc b) = m ((c : Thread nD τ).loc b) :=
  (keep_reg7 m ρ c b hb).trans (B17_isArg m ρ c b hb)
theorem B19_isArg (c : Dev nD) (b : Ref sig .tc) (hb : IsArg b) :
    B19 m ρ c (Proc.devRef .tc b) = m ((c : Thread nD τ).loc b) :=
  (keep_hostOps8 (B18 m ρ c) b hb).trans (B18_isArg m ρ c b hb)
theorem B20_isArg (c : Dev nD) (b : Ref sig .tc) (hb : IsArg b) :
    B20 m ρ c (Proc.devRef .tc b) = m ((c : Thread nD τ).loc b) :=
  (keep_reg8 m ρ c b hb).trans (B19_isArg m ρ c b hb)
theorem B21_isArg (c : Dev nD) (b : Ref sig .tc) (hb : IsArg b) :
    B21 m ρ c (Proc.devRef .tc b) = m ((c : Thread nD τ).loc b) :=
  (keep_hostOps9 (B20 m ρ c) b hb).trans (B20_isArg m ρ c b hb)
theorem B22_isArg (c : Dev nD) (b : Ref sig .tc) (hb : IsArg b) :
    B22 m ρ c (Proc.devRef .tc b) = m ((c : Thread nD τ).loc b) :=
  (keep_reg9 m ρ c b hb).trans (B21_isArg m ρ c b hb)
theorem B23_isArg (c : Dev nD) (b : Ref sig .tc) (hb : IsArg b) :
    B23 m ρ c (Proc.devRef .tc b) = m ((c : Thread nD τ).loc b) :=
  (keep_hostOps10 (B22 m ρ c) b hb).trans (B22_isArg m ρ c b hb)
theorem B24_isArg (c : Dev nD) (b : Ref sig .tc) (hb : IsArg b) :
    B24 m ρ c (Proc.devRef .tc b) = m ((c : Thread nD τ).loc b) :=
  (keep_reg10 m ρ c b hb).trans (B23_isArg m ρ c b hb)
theorem B25_isArg (c : Dev nD) (b : Ref sig .tc) (hb : IsArg b) :
    B25 m ρ c (Proc.devRef .tc b) = m ((c : Thread nD τ).loc b) :=
  (keep_hostOps11 (B24 m ρ c) b hb).trans (B24_isArg m ρ c b hb)
theorem B26_isArg (c : Dev nD) (b : Ref sig .tc) (hb : IsArg b) :
    B26 m ρ c (Proc.devRef .tc b) = m ((c : Thread nD τ).loc b) :=
  (keep_reg11 m ρ c b hb).trans (B25_isArg m ρ c b hb)
theorem B27_isArg (c : Dev nD) (b : Ref sig .tc) (hb : IsArg b) :
    B27 m ρ c (Proc.devRef .tc b) = m ((c : Thread nD τ).loc b) :=
  (keep_hostOps12 (B26 m ρ c) b hb).trans (B26_isArg m ρ c b hb)
theorem B28_isArg (c : Dev nD) (b : Ref sig .tc) (hb : IsArg b) :
    B28 m ρ c (Proc.devRef .tc b) = m ((c : Thread nD τ).loc b) :=
  (keep_reg12 m ρ c b hb).trans (B27_isArg m ρ c b hb)
theorem B29_isArg (c : Dev nD) (b : Ref sig .tc) (hb : IsArg b) :
    B29 m ρ c (Proc.devRef .tc b) = m ((c : Thread nD τ).loc b) :=
  (keep_hostOps13 (B28 m ρ c) b hb).trans (B28_isArg m ρ c b hb)
theorem B30_isArg (c : Dev nD) (b : Ref sig .tc) (hb : IsArg b) :
    B30 m ρ c (Proc.devRef .tc b) = m ((c : Thread nD τ).loc b) :=
  (keep_reg13 m ρ c b hb).trans (B29_isArg m ρ c b hb)
theorem B31_isArg (c : Dev nD) (b : Ref sig .tc) (hb : IsArg b) :
    B31 m ρ c (Proc.devRef .tc b) = m ((c : Thread nD τ).loc b) :=
  (keep_hostOps14 (B30 m ρ c) b hb).trans (B30_isArg m ρ c b hb)
theorem B32_isArg (c : Dev nD) (b : Ref sig .tc) (hb : IsArg b) :
    B32 m ρ c (Proc.devRef .tc b) = m ((c : Thread nD τ).loc b) :=
  (keep_reg14 m ρ c b hb).trans (B31_isArg m ρ c b hb)
theorem B33_isArg (c : Dev nD) (b : Ref sig .tc) (hb : IsArg b) :
    B33 m ρ c (Proc.devRef .tc b) = m ((c : Thread nD τ).loc b) :=
  (keep_hostOps15 (B32 m ρ c) b hb).trans (B32_isArg m ρ c b hb)
theorem B34_isArg (c : Dev nD) (b : Ref sig .tc) (hb : IsArg b) :
    B34 m ρ c (Proc.devRef .tc b) = m ((c : Thread nD τ).loc b) :=
  (keep_reg15 m ρ c b hb).trans (B33_isArg m ρ c b hb)
theorem B35_isArg (c : Dev nD) (b : Ref sig .tc) (hb : IsArg b) :
    B35 m ρ c (Proc.devRef .tc b) = m ((c : Thread nD τ).loc b) :=
  (keep_hostOps16 (B34 m ρ c) b hb).trans (B34_isArg m ρ c b hb)
theorem B36_isArg (c : Dev nD) (b : Ref sig .tc) (hb : IsArg b) :
    B36 m ρ c (Proc.devRef .tc b) = m ((c : Thread nD τ).loc b) :=
  (keep_reg16 m ρ c b hb).trans (B35_isArg m ρ c b hb)
theorem B37_isArg (c : Dev nD) (b : Ref sig .tc) (hb : IsArg b) :
    B37 m ρ c (Proc.devRef .tc b) = m ((c : Thread nD τ).loc b) :=
  (keep_hostOps17 (B36 m ρ c) b hb).trans (B36_isArg m ρ c b hb)
theorem B38_isArg (c : Dev nD) (b : Ref sig .tc) (hb : IsArg b) :
    B38 m ρ c (Proc.devRef .tc b) = m ((c : Thread nD τ).loc b) :=
  (keep_reg17 m ρ c b hb).trans (B37_isArg m ρ c b hb)
theorem B39_isArg (c : Dev nD) (b : Ref sig .tc) (hb : IsArg b) :
    B39 m ρ c (Proc.devRef .tc b) = m ((c : Thread nD τ).loc b) :=
  (keep_hostOps18 (B38 m ρ c) b hb).trans (B38_isArg m ρ c b hb)
theorem B40_isArg (c : Dev nD) (b : Ref sig .tc) (hb : IsArg b) :
    B40 m ρ c (Proc.devRef .tc b) = m ((c : Thread nD τ).loc b) :=
  (keep_reg18 m ρ c b hb).trans (B39_isArg m ρ c b hb)
theorem B41_isArg (c : Dev nD) (b : Ref sig .tc) (hb : IsArg b) :
    B41 m ρ c (Proc.devRef .tc b) = m ((c : Thread nD τ).loc b) :=
  (keep_hostOps19 (B40 m ρ c) b hb).trans (B40_isArg m ρ c b hb)
theorem B42_isArg (c : Dev nD) (b : Ref sig .tc) (hb : IsArg b) :
    B42 m ρ c (Proc.devRef .tc b) = m ((c : Thread nD τ).loc b) :=
  (keep_reg19 m ρ c b hb).trans (B41_isArg m ρ c b hb)
theorem B43_isArg (c : Dev nD) (b : Ref sig .tc) (hb : IsArg b) :
    B43 m ρ c (Proc.devRef .tc b) = m ((c : Thread nD τ).loc b) :=
  (keep_hostOps20 (B42 m ρ c) b hb).trans (B42_isArg m ρ c b hb)
theorem B44_isArg (c : Dev nD) (b : Ref sig .tc) (hb : IsArg b) :
    B44 m ρ c (Proc.devRef .tc b) = m ((c : Thread nD τ).loc b) :=
  (keep_reg20 m ρ c b hb).trans (B43_isArg m ρ c b hb)
theorem B45_isArg (c : Dev nD) (b : Ref sig .tc) (hb : IsArg b) :
    B45 m ρ c (Proc.devRef .tc b) = m ((c : Thread nD τ).loc b) :=
  (keep_hostOps21 (B44 m ρ c) b hb).trans (B44_isArg m ρ c b hb)
theorem B46_isArg (c : Dev nD) (b : Ref sig .tc) (hb : IsArg b) :
    B46 m ρ c (Proc.devRef .tc b) = m ((c : Thread nD τ).loc b) :=
  (keep_reg21 m ρ c b hb).trans (B45_isArg m ρ c b hb)
theorem B47_isArg (c : Dev nD) (b : Ref sig .tc) (hb : IsArg b) :
    B47 m ρ c (Proc.devRef .tc b) = m ((c : Thread nD τ).loc b) :=
  (keep_hostOps22 (B46 m ρ c) b hb).trans (B46_isArg m ρ c b hb)
theorem B48_isArg (c : Dev nD) (b : Ref sig .tc) (hb : IsArg b) :
    B48 m ρ c (Proc.devRef .tc b) = m ((c : Thread nD τ).loc b) :=
  (keep_reg22 m ρ c b hb).trans (B47_isArg m ρ c b hb)
theorem B49_isArg (c : Dev nD) (b : Ref sig .tc) (hb : IsArg b) :
    B49 m ρ c (Proc.devRef .tc b) = m ((c : Thread nD τ).loc b) :=
  (keep_hostOps23 (B48 m ρ c) b hb).trans (B48_isArg m ρ c b hb)
theorem B50_isArg (c : Dev nD) (b : Ref sig .tc) (hb : IsArg b) :
    B50 m ρ c (Proc.devRef .tc b) = m ((c : Thread nD τ).loc b) :=
  (keep_reg23 m ρ c b hb).trans (B49_isArg m ρ c b hb)
theorem B51_isArg (c : Dev nD) (b : Ref sig .tc) (hb : IsArg b) :
    B51 m ρ c (Proc.devRef .tc b) = m ((c : Thread nD τ).loc b) :=
  (keep_hostOps24 (B50 m ρ c) b hb).trans (B50_isArg m ρ c b hb)
theorem B52_isArg (c : Dev nD) (b : Ref sig .tc) (hb : IsArg b) :
    B52 m ρ c (Proc.devRef .tc b) = m ((c : Thread nD τ).loc b) :=
  (keep_reg24 m ρ c b hb).trans (B51_isArg m ρ c b hb)
theorem B53_isArg (c : Dev nD) (b : Ref sig .tc) (hb : IsArg b) :
    B53 m ρ c (Proc.devRef .tc b) = m ((c : Thread nD τ).loc b) :=
  (keep_hostOps25 (B52 m ρ c) b hb).trans (B52_isArg m ρ c b hb)
theorem B54_isArg (c : Dev nD) (b : Ref sig .tc) (hb : IsArg b) :
    B54 m ρ c (Proc.devRef .tc b) = m ((c : Thread nD τ).loc b) :=
  (keep_reg25 m ρ c b hb).trans (B53_isArg m ρ c b hb)
theorem B55_isArg (c : Dev nD) (b : Ref sig .tc) (hb : IsArg b) :
    B55 m ρ c (Proc.devRef .tc b) = m ((c : Thread nD τ).loc b) :=
  (keep_hostOps26 (B54 m ρ c) b hb).trans (B54_isArg m ρ c b hb)
theorem B56_isArg (c : Dev nD) (b : Ref sig .tc) (hb : IsArg b) :
    B56 m ρ c (Proc.devRef .tc b) = m ((c : Thread nD τ).loc b) :=
  (keep_reg26 m ρ c b hb).trans (B55_isArg m ρ c b hb)
theorem B57_isArg (c : Dev nD) (b : Ref sig .tc) (hb : IsArg b) :
    B57 m ρ c (Proc.devRef .tc b) = m ((c : Thread nD τ).loc b) :=
  (keep_hostOps27 (B56 m ρ c) b hb).trans (B56_isArg m ρ c b hb)
theorem B58_isArg (c : Dev nD) (b : Ref sig .tc) (hb : IsArg b) :
    B58 m ρ c (Proc.devRef .tc b) = m ((c : Thread nD τ).loc b) :=
  (keep_reg27 m ρ c b hb).trans (B57_isArg m ρ c b hb)
theorem B59_isArg (c : Dev nD) (b : Ref sig .tc) (hb : IsArg b) :
    B59 m ρ c (Proc.devRef .tc b) = m ((c : Thread nD τ).loc b) :=
  (keep_hostOps28 (B58 m ρ c) b hb).trans (B58_isArg m ρ c b hb)
theorem B60_isArg (c : Dev nD) (b : Ref sig .tc) (hb : IsArg b) :
    B60 m ρ c (Proc.devRef .tc b) = m ((c : Thread nD τ).loc b) :=
  (keep_reg28 m ρ c b hb).trans (B59_isArg m ρ c b hb)
theorem B61_isArg (c : Dev nD) (b : Ref sig .tc) (hb : IsArg b) :
    B61 m ρ c (Proc.devRef .tc b) = m ((c : Thread nD τ).loc b) :=
  (keep_hostOps29 (B60 m ρ c) b hb).trans (B60_isArg m ρ c b hb)
theorem B62_isArg (c : Dev nD) (b : Ref sig .tc) (hb : IsArg b) :
    B62 m ρ c (Proc.devRef .tc b) = m ((c : Thread nD τ).loc b) :=
  (keep_reg29 m ρ c b hb).trans (B61_isArg m ρ c b hb)
theorem B63_isArg (c : Dev nD) (b : Ref sig .tc) (hb : IsArg b) :
    B63 m ρ c (Proc.devRef .tc b) = m ((c : Thread nD τ).loc b) :=
  (keep_hostOps30 (B62 m ρ c) b hb).trans (B62_isArg m ρ c b hb)
theorem B64_isArg (c : Dev nD) (b : Ref sig .tc) (hb : IsArg b) :
    B64 m ρ c (Proc.devRef .tc b) = m ((c : Thread nD τ).loc b) :=
  (keep_reg30 m ρ c b hb).trans (B63_isArg m ρ c b hb)
theorem B65_isArg (c : Dev nD) (b : Ref sig .tc) (hb : IsArg b) :
    B65 m ρ c (Proc.devRef .tc b) = m ((c : Thread nD τ).loc b) :=
  (keep_hostOps31 (B64 m ρ c) b hb).trans (B64_isArg m ρ c b hb)
theorem B66_isArg (c : Dev nD) (b : Ref sig .tc) (hb : IsArg b) :
    B66 m ρ c (Proc.devRef .tc b) = m ((c : Thread nD τ).loc b) :=
  (keep_reg31 m ρ c b hb).trans (B65_isArg m ρ c b hb)
theorem B67_isArg (c : Dev nD) (b : Ref sig .tc) (hb : IsArg b) :
    B67 m ρ c (Proc.devRef .tc b) = m ((c : Thread nD τ).loc b) :=
  (keep_hostOps32 (B66 m ρ c) b hb).trans (B66_isArg m ρ c b hb)
theorem B68_isArg (c : Dev nD) (b : Ref sig .tc) (hb : IsArg b) :
    B68 m ρ c (Proc.devRef .tc b) = m ((c : Thread nD τ).loc b) :=
  (keep_reg32 m ρ c b hb).trans (B67_isArg m ρ c b hb)
theorem B69_isArg (c : Dev nD) (b : Ref sig .tc) (hb : IsArg b) :
    B69 m ρ c (Proc.devRef .tc b) = m ((c : Thread nD τ).loc b) :=
  (keep_hostOps33 (B68 m ρ c) b hb).trans (B68_isArg m ρ c b hb)
theorem B70_isArg (c : Dev nD) (b : Ref sig .tc) (hb : IsArg b) :
    B70 m ρ c (Proc.devRef .tc b) = m ((c : Thread nD τ).loc b) :=
  (keep_reg33 m ρ c b hb).trans (B69_isArg m ρ c b hb)
theorem B71_isArg (c : Dev nD) (b : Ref sig .tc) (hb : IsArg b) :
    B71 m ρ c (Proc.devRef .tc b) = m ((c : Thread nD τ).loc b) :=
  (keep_hostOps34 (B70 m ρ c) b hb).trans (B70_isArg m ρ c b hb)
theorem B72_isArg (c : Dev nD) (b : Ref sig .tc) (hb : IsArg b) :
    B72 m ρ c (Proc.devRef .tc b) = m ((c : Thread nD τ).loc b) :=
  (keep_reg34 m ρ c b hb).trans (B71_isArg m ρ c b hb)
theorem B73_isArg (c : Dev nD) (b : Ref sig .tc) (hb : IsArg b) :
    B73 m ρ c (Proc.devRef .tc b) = m ((c : Thread nD τ).loc b) :=
  (keep_hostOps35 (B72 m ρ c) b hb).trans (B72_isArg m ρ c b hb)
theorem B74_isArg (c : Dev nD) (b : Ref sig .tc) (hb : IsArg b) :
    B74 m ρ c (Proc.devRef .tc b) = m ((c : Thread nD τ).loc b) :=
  (keep_reg35 m ρ c b hb).trans (B73_isArg m ρ c b hb)
theorem B75_isArg (c : Dev nD) (b : Ref sig .tc) (hb : IsArg b) :
    B75 m ρ c (Proc.devRef .tc b) = m ((c : Thread nD τ).loc b) :=
  (keep_hostOps36 (B74 m ρ c) b hb).trans (B74_isArg m ρ c b hb)
theorem B76_isArg (c : Dev nD) (b : Ref sig .tc) (hb : IsArg b) :
    B76 m ρ c (Proc.devRef .tc b) = m ((c : Thread nD τ).loc b) :=
  (keep_reg36 m ρ c b hb).trans (B75_isArg m ρ c b hb)
theorem B77_isArg (c : Dev nD) (b : Ref sig .tc) (hb : IsArg b) :
    B77 m ρ c (Proc.devRef .tc b) = m ((c : Thread nD τ).loc b) :=
  (keep_hostOps37 (B76 m ρ c) b hb).trans (B76_isArg m ρ c b hb)
theorem B78_isArg (c : Dev nD) (b : Ref sig .tc) (hb : IsArg b) :
    B78 m ρ c (Proc.devRef .tc b) = m ((c : Thread nD τ).loc b) :=
  (keep_reg37 m ρ c b hb).trans (B77_isArg m ρ c b hb)
theorem B79_isArg (c : Dev nD) (b : Ref sig .tc) (hb : IsArg b) :
    B79 m ρ c (Proc.devRef .tc b) = m ((c : Thread nD τ).loc b) :=
  (keep_hostOps38 (B78 m ρ c) b hb).trans (B78_isArg m ρ c b hb)
theorem B80_isArg (c : Dev nD) (b : Ref sig .tc) (hb : IsArg b) :
    B80 m ρ c (Proc.devRef .tc b) = m ((c : Thread nD τ).loc b) :=
  (keep_reg38 m ρ c b hb).trans (B79_isArg m ρ c b hb)
theorem B81_isArg (c : Dev nD) (b : Ref sig .tc) (hb : IsArg b) :
    B81 m ρ c (Proc.devRef .tc b) = m ((c : Thread nD τ).loc b) :=
  (keep_hostOps39 (B80 m ρ c) b hb).trans (B80_isArg m ρ c b hb)
theorem B82_isArg (c : Dev nD) (b : Ref sig .tc) (hb : IsArg b) :
    B82 m ρ c (Proc.devRef .tc b) = m ((c : Thread nD τ).loc b) :=
  (keep_reg39 m ρ c b hb).trans (B81_isArg m ρ c b hb)
theorem B83_isArg (c : Dev nD) (b : Ref sig .tc) (hb : IsArg b) :
    B83 m ρ c (Proc.devRef .tc b) = m ((c : Thread nD τ).loc b) :=
  (keep_hostOps40 (B82 m ρ c) b hb).trans (B82_isArg m ρ c b hb)
theorem B84_isArg (c : Dev nD) (b : Ref sig .tc) (hb : IsArg b) :
    B84 m ρ c (Proc.devRef .tc b) = m ((c : Thread nD τ).loc b) :=
  (keep_reg40 m ρ c b hb).trans (B83_isArg m ρ c b hb)
theorem B85_isArg (c : Dev nD) (b : Ref sig .tc) (hb : IsArg b) :
    B85 m ρ c (Proc.devRef .tc b) = m ((c : Thread nD τ).loc b) :=
  (keep_hostOps41 (B84 m ρ c) b hb).trans (B84_isArg m ρ c b hb)
theorem B86_isArg (c : Dev nD) (b : Ref sig .tc) (hb : IsArg b) :
    B86 m ρ c (Proc.devRef .tc b) = m ((c : Thread nD τ).loc b) :=
  (keep_reg41 m ρ c b hb).trans (B85_isArg m ρ c b hb)
theorem B87_isArg (c : Dev nD) (b : Ref sig .tc) (hb : IsArg b) :
    B87 m ρ c (Proc.devRef .tc b) = m ((c : Thread nD τ).loc b) :=
  (keep_hostOps42 (B86 m ρ c) b hb).trans (B86_isArg m ρ c b hb)
theorem B88_isArg (c : Dev nD) (b : Ref sig .tc) (hb : IsArg b) :
    B88 m ρ c (Proc.devRef .tc b) = m ((c : Thread nD τ).loc b) :=
  (keep_reg42 m ρ c b hb).trans (B87_isArg m ρ c b hb)
theorem B89_isArg (c : Dev nD) (b : Ref sig .tc) (hb : IsArg b) :
    B89 m ρ c (Proc.devRef .tc b) = m ((c : Thread nD τ).loc b) :=
  (keep_hostOps43 (B88 m ρ c) b hb).trans (B88_isArg m ρ c b hb)
theorem B90_isArg (c : Dev nD) (b : Ref sig .tc) (hb : IsArg b) :
    B90 m ρ c (Proc.devRef .tc b) = m ((c : Thread nD τ).loc b) :=
  (keep_reg43 m ρ c b hb).trans (B89_isArg m ρ c b hb)
theorem B91_isArg (c : Dev nD) (b : Ref sig .tc) (hb : IsArg b) :
    B91 m ρ c (Proc.devRef .tc b) = m ((c : Thread nD τ).loc b) :=
  (keep_hostOps44 (B90 m ρ c) b hb).trans (B90_isArg m ρ c b hb)
theorem B92_isArg (c : Dev nD) (b : Ref sig .tc) (hb : IsArg b) :
    B92 m ρ c (Proc.devRef .tc b) = m ((c : Thread nD τ).loc b) :=
  (keep_reg44 m ρ c b hb).trans (B91_isArg m ρ c b hb)
theorem B93_isArg (c : Dev nD) (b : Ref sig .tc) (hb : IsArg b) :
    B93 m ρ c (Proc.devRef .tc b) = m ((c : Thread nD τ).loc b) :=
  (keep_hostOps45 (B92 m ρ c) b hb).trans (B92_isArg m ρ c b hb)
theorem B94_isArg (c : Dev nD) (b : Ref sig .tc) (hb : IsArg b) :
    B94 m ρ c (Proc.devRef .tc b) = m ((c : Thread nD τ).loc b) :=
  (keep_reg45 m ρ c b hb).trans (B93_isArg m ρ c b hb)
theorem B95_isArg (c : Dev nD) (b : Ref sig .tc) (hb : IsArg b) :
    B95 m ρ c (Proc.devRef .tc b) = m ((c : Thread nD τ).loc b) :=
  (keep_hostOps46 (B94 m ρ c) b hb).trans (B94_isArg m ρ c b hb)
theorem B96_isArg (c : Dev nD) (b : Ref sig .tc) (hb : IsArg b) :
    B96 m ρ c (Proc.devRef .tc b) = m ((c : Thread nD τ).loc b) :=
  (keep_reg46 m ρ c b hb).trans (B95_isArg m ρ c b hb)
theorem B97_isArg (c : Dev nD) (b : Ref sig .tc) (hb : IsArg b) :
    B97 m ρ c (Proc.devRef .tc b) = m ((c : Thread nD τ).loc b) :=
  (keep_hostOps47 (B96 m ρ c) b hb).trans (B96_isArg m ρ c b hb)
theorem B98_isArg (c : Dev nD) (b : Ref sig .tc) (hb : IsArg b) :
    B98 m ρ c (Proc.devRef .tc b) = m ((c : Thread nD τ).loc b) :=
  (keep_reg47 m ρ c b hb).trans (B97_isArg m ρ c b hb)
theorem B99_isArg (c : Dev nD) (b : Ref sig .tc) (hb : IsArg b) :
    B99 m ρ c (Proc.devRef .tc b) = m ((c : Thread nD τ).loc b) :=
  (keep_hostOps48 (B98 m ρ c) b hb).trans (B98_isArg m ρ c b hb)
theorem B100_isArg (c : Dev nD) (b : Ref sig .tc) (hb : IsArg b) :
    B100 m ρ c (Proc.devRef .tc b) = m ((c : Thread nD τ).loc b) :=
  (keep_reg48 m ρ c b hb).trans (B99_isArg m ρ c b hb)
theorem B101_isArg (c : Dev nD) (b : Ref sig .tc) (hb : IsArg b) :
    B101 m ρ c (Proc.devRef .tc b) = m ((c : Thread nD τ).loc b) :=
  (keep_hostOps49 (B100 m ρ c) b hb).trans (B100_isArg m ρ c b hb)

/-! ## The arguments at @main's end -/

theorem B101_arg0 (c : Dev nD) : B101 m ρ c (Proc.devRef .tc main_arg0) = m ((c : Thread nD τ).loc main_arg0) :=
  B101_isArg m ρ c main_arg0 (by decide)
theorem B101_arg1 (c : Dev nD) : B101 m ρ c (Proc.devRef .tc main_arg1) = m ((c : Thread nD τ).loc main_arg1) :=
  B101_isArg m ρ c main_arg1 (by decide)
theorem B101_arg2 (c : Dev nD) : B101 m ρ c (Proc.devRef .tc main_arg2) = m ((c : Thread nD τ).loc main_arg2) :=
  B101_isArg m ρ c main_arg2 (by decide)
theorem B101_arg3 (c : Dev nD) : B101 m ρ c (Proc.devRef .tc main_arg3) = m ((c : Thread nD τ).loc main_arg3) :=
  B101_isArg m ρ c main_arg3 (by decide)
theorem B101_arg4 (c : Dev nD) : B101 m ρ c (Proc.devRef .tc main_arg4) = m ((c : Thread nD τ).loc main_arg4) :=
  B101_isArg m ρ c main_arg4 (by decide)
theorem B101_arg5 (c : Dev nD) : B101 m ρ c (Proc.devRef .tc main_arg5) = m ((c : Thread nD τ).loc main_arg5) :=
  B101_isArg m ρ c main_arg5 (by decide)
theorem B101_arg6 (c : Dev nD) : B101 m ρ c (Proc.devRef .tc main_arg6) = m ((c : Thread nD τ).loc main_arg6) :=
  B101_isArg m ρ c main_arg6 (by decide)
theorem B101_arg7 (c : Dev nD) : B101 m ρ c (Proc.devRef .tc main_arg7) = m ((c : Thread nD τ).loc main_arg7) :=
  B101_isArg m ρ c main_arg7 (by decide)
theorem B101_arg8 (c : Dev nD) : B101 m ρ c (Proc.devRef .tc main_arg8) = m ((c : Thread nD τ).loc main_arg8) :=
  B101_isArg m ρ c main_arg8 (by decide)
theorem B101_arg9 (c : Dev nD) : B101 m ρ c (Proc.devRef .tc main_arg9) = m ((c : Thread nD τ).loc main_arg9) :=
  B101_isArg m ρ c main_arg9 (by decide)
theorem B101_arg10 (c : Dev nD) : B101 m ρ c (Proc.devRef .tc main_arg10) = m ((c : Thread nD τ).loc main_arg10) :=
  B101_isArg m ρ c main_arg10 (by decide)
theorem B101_arg11 (c : Dev nD) : B101 m ρ c (Proc.devRef .tc main_arg11) = m ((c : Thread nD τ).loc main_arg11) :=
  B101_isArg m ρ c main_arg11 (by decide)
theorem B101_arg12 (c : Dev nD) : B101 m ρ c (Proc.devRef .tc main_arg12) = m ((c : Thread nD τ).loc main_arg12) :=
  B101_isArg m ρ c main_arg12 (by decide)
theorem B101_arg13 (c : Dev nD) : B101 m ρ c (Proc.devRef .tc main_arg13) = m ((c : Thread nD τ).loc main_arg13) :=
  B101_isArg m ρ c main_arg13 (by decide)
theorem B101_arg14 (c : Dev nD) : B101 m ρ c (Proc.devRef .tc main_arg14) = m ((c : Thread nD τ).loc main_arg14) :=
  B101_isArg m ρ c main_arg14 (by decide)
theorem B101_arg15 (c : Dev nD) : B101 m ρ c (Proc.devRef .tc main_arg15) = m ((c : Thread nD τ).loc main_arg15) :=
  B101_isArg m ρ c main_arg15 (by decide)
theorem B101_arg16 (c : Dev nD) : B101 m ρ c (Proc.devRef .tc main_arg16) = m ((c : Thread nD τ).loc main_arg16) :=
  B101_isArg m ρ c main_arg16 (by decide)
theorem B101_arg17 (c : Dev nD) : B101 m ρ c (Proc.devRef .tc main_arg17) = m ((c : Thread nD τ).loc main_arg17) :=
  B101_isArg m ρ c main_arg17 (by decide)
theorem B101_arg18 (c : Dev nD) : B101 m ρ c (Proc.devRef .tc main_arg18) = m ((c : Thread nD τ).loc main_arg18) :=
  B101_isArg m ρ c main_arg18 (by decide)
theorem B101_arg19 (c : Dev nD) : B101 m ρ c (Proc.devRef .tc main_arg19) = m ((c : Thread nD τ).loc main_arg19) :=
  B101_isArg m ρ c main_arg19 (by decide)
theorem B101_arg20 (c : Dev nD) : B101 m ρ c (Proc.devRef .tc main_arg20) = m ((c : Thread nD τ).loc main_arg20) :=
  B101_isArg m ρ c main_arg20 (by decide)
theorem B101_arg21 (c : Dev nD) : B101 m ρ c (Proc.devRef .tc main_arg21) = m ((c : Thread nD τ).loc main_arg21) :=
  B101_isArg m ρ c main_arg21 (by decide)
theorem B101_arg22 (c : Dev nD) : B101 m ρ c (Proc.devRef .tc main_arg22) = m ((c : Thread nD τ).loc main_arg22) :=
  B101_isArg m ρ c main_arg22 (by decide)
theorem B101_arg23 (c : Dev nD) : B101 m ρ c (Proc.devRef .tc main_arg23) = m ((c : Thread nD τ).loc main_arg23) :=
  B101_isArg m ρ c main_arg23 (by decide)
theorem B101_arg24 (c : Dev nD) : B101 m ρ c (Proc.devRef .tc main_arg24) = m ((c : Thread nD τ).loc main_arg24) :=
  B101_isArg m ρ c main_arg24 (by decide)
theorem B101_arg25 (c : Dev nD) : B101 m ρ c (Proc.devRef .tc main_arg25) = m ((c : Thread nD τ).loc main_arg25) :=
  B101_isArg m ρ c main_arg25 (by decide)
theorem B101_arg26 (c : Dev nD) : B101 m ρ c (Proc.devRef .tc main_arg26) = m ((c : Thread nD τ).loc main_arg26) :=
  B101_isArg m ρ c main_arg26 (by decide)

end Cert.KernelIdeal.Hand

end
-- ==== Proof.KI.Pack.lean ====
/- The launch read at the result buffer and at the argument buffers: the result is the last boundary's contents there, and every
   argument array ends as launched. -/
import proofs.«408084_j48395691492010_3_alg».proof.Proof.KI.Run
import proofs.«408084_j48395691492010_3_alg».proof.Proof.KI.Args
import proofs.«408084_j48395691492010_3_alg».proof.Proof.Gen.KernelIdeal.Launch
import proofs.«408084_j48395691492010_3_alg».proof.Proof.Gen.KernelIdeal.Skeleton
import proofs.«408084_j48395691492010_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_packed : θ_run defs (onTc (τ := τ) (main (F := F))) ⟨m, fun _ => 0, ρ⟩ (fun r => ∀ c : Dev nD,
      r.2.mem ((c.tc : Thread nD τ).loc main_v402) = B101 m ρ c (Proc.devRef .tc main_v402)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
    ⟨h c _ (mem_uc main_v402 (by decide)),
      (h c _ (mem_uc main_arg0 (by decide))).trans (B101_arg0 m ρ c),
      (h c _ (mem_uc main_arg1 (by decide))).trans (B101_arg1 m ρ c),
      (h c _ (mem_uc main_arg2 (by decide))).trans (B101_arg2 m ρ c),
      (h c _ (mem_uc main_arg3 (by decide))).trans (B101_arg3 m ρ c),
      (h c _ (mem_uc main_arg4 (by decide))).trans (B101_arg4 m ρ c),
      (h c _ (mem_uc main_arg5 (by decide))).trans (B101_arg5 m ρ c),
      (h c _ (mem_uc main_arg6 (by decide))).trans (B101_arg6 m ρ c),
      (h c _ (mem_uc main_arg7 (by decide))).trans (B101_arg7 m ρ c),
      (h c _ (mem_uc main_arg8 (by decide))).trans (B101_arg8 m ρ c),
      (h c _ (mem_uc main_arg9 (by decide))).trans (B101_arg9 m ρ c),
      (h c _ (mem_uc main_arg10 (by decide))).trans (B101_arg10 m ρ c),
      (h c _ (mem_uc main_arg11 (by decide))).trans (B101_arg11 m ρ c),
      (h c _ (mem_uc main_arg12 (by decide))).trans (B101_arg12 m ρ c),
      (h c _ (mem_uc main_arg13 (by decide))).trans (B101_arg13 m ρ c),
      (h c _ (mem_uc main_arg14 (by decide))).trans (B101_arg14 m ρ c),
      (h c _ (mem_uc main_arg15 (by decide))).trans (B101_arg15 m ρ c),
      (h c _ (mem_uc main_arg16 (by decide))).trans (B101_arg16 m ρ c),
      (h c _ (mem_uc main_arg17 (by decide))).trans (B101_arg17 m ρ c),
      (h c _ (mem_uc main_arg18 (by decide))).trans (B101_arg18 m ρ c),
      (h c _ (mem_uc main_arg19 (by decide))).trans (B101_arg19 m ρ c),
      (h c _ (mem_uc main_arg20 (by decide))).trans (B101_arg20 m ρ c),
      (h c _ (mem_uc main_arg21 (by decide))).trans (B101_arg21 m ρ c),
      (h c _ (mem_uc main_arg22 (by decide))).trans (B101_arg22 m ρ c),
      (h c _ (mem_uc main_arg23 (by decide))).trans (B101_arg23 m ρ c),
      (h c _ (mem_uc main_arg24 (by decide))).trans (B101_arg24 m ρ c),
      (h c _ (mem_uc main_arg25 (by decide))).trans (B101_arg25 m ρ c),
      (h c _ (mem_uc main_arg26 (by decide))).trans (B101_arg26 m ρ c)⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => (h c).2) (run_packed m ρ)

end Cert.KernelIdeal.Hand

end
-- ==== Proof.Ref.Ops.lean ====
import proofs.«408084_j48395691492010_3_alg».proof.Proof.Gen.ReferenceIdeal
import Idealize.ShloMosaic.Lib.StableHlo.Run

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v5`: a concatenation along dimension 0, its two operands plain arguments. -/
noncomputable def fn_main_v5 : (⟨S640000, .i32⟩ : BufTy).Contents (Elt F) → (⟨S50000, .i32⟩ : BufTy).Contents (Elt F) → (⟨S690000, .i32⟩ : BufTy).Contents (Elt F) :=
  (fun a b => concatenate S690000 0 [⟨S640000, a⟩, ⟨S50000, b⟩] concatenates_S640000_S50000_S690000_d0)

/-- The function of the operation that writes `main_v6`: a concatenation along dimension 0, its two operands plain arguments. -/
noncomputable def fn_main_v6 : (⟨S640000, .i32⟩ : BufTy).Contents (Elt F) → (⟨S50000, .i32⟩ : BufTy).Contents (Elt F) → (⟨S690000, .i32⟩ : BufTy).Contents (Elt F) :=
  (fun a b => concatenate S690000 0 [⟨S640000, a⟩, ⟨S50000, b⟩] concatenates_S640000_S50000_S690000_d0)

/-- The function of the operation that writes `main_v8`: a concatenation along dimension 0, its two operands plain arguments. -/
noncomputable def fn_main_v8 : (⟨S640000, .f32⟩ : BufTy).Contents (Elt F) → (⟨S50000, .f32⟩ : BufTy).Contents (Elt F) → (⟨S690000, .f32⟩ : BufTy).Contents (Elt F) :=
  (fun a b => concatenate S690000 0 [⟨S640000, a⟩, ⟨S50000, b⟩] concatenates_S640000_S50000_S690000_d0)

/-- @main's operations 1 … 62 of 1102 (window `main_part0`; a call's operations are the callee's, over the call's buffers). -/
noncomputable abbrev ops_part0 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_v4 (iotaInDim S50000 32 0),
    binary main_v1 main_v4 main_v5 (fn_main_v5 (F := F)),
    binary main_v3 main_v4 main_v6 (fn_main_v6 (F := F)),
    nullary main_cst (constant S_ .f32 0x3F800000#32),
    unary main_cst main_v7 (broadcastInDim S50000 ![] bcast_S_S50000 : (⟨S_, .f32⟩ : BufTy).Contents (Elt F) → (⟨S50000, .f32⟩ : BufTy).Contents (Elt F)),
    binary main_arg2 main_v7 main_v8 (fn_main_v8 (F := F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S690000x1 ![0] bcast_S690000_S690000x1_0 : (⟨S690000, .i32⟩ : BufTy).Contents (Elt F) → (⟨S690000x1, .i32⟩ : BufTy).Contents (Elt F)),
    ternary main_v9 main_v10 main_v8 main_v11 ((fun x i u => Host.scatterAdd scatter_S50000_S690000x1_S690000_n_0_0_1 x i u) : (⟨S50000, .f32⟩ : BufTy).Contents (Elt F) → (⟨S690000x1, .i32⟩ : BufTy).Contents (Elt F) → (⟨S690000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x0DA24260#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_cst_3 (constant S_ .f32 0x00000000#32),
    TRef.unary (TRef.of main_cst_3 : TRef sig ⟨S_, .f32⟩) main_call0.v0 id,
    TRef.unary main_call0.v0 main_call0.v1 (broadcastInDim S50000 ![] bcast_S_S50000),
    TRef.ternary (TRef.of main_v13 : TRef sig ⟨S50000, .i1⟩) (TRef.of main_v16 : TRef sig ⟨S50000, .f32⟩) main_call0.v1 main_call0.v2 select,
    nullary main_c (constantI S_ 32 0#32),
    unary main_c main_v18 (broadcastInDim S690000 ![] bcast_S_S690000 : (⟨S_, .i32⟩ : BufTy).Contents (Elt F) → (⟨S690000, .i32⟩ : BufTy).Contents (Elt F)),
    binary main_v5 main_v18 main_v19 (cmpi .slt : (⟨S690000, .i32⟩ : BufTy).Contents (Elt F) → (⟨S690000, .i32⟩ : BufTy).Contents (Elt F) → (⟨S690000, .i1⟩ : BufTy).Contents (Elt F)),
    nullary main_c_4 (constantI S_ 32 50000#32),
    unary main_c_4 main_v20 (broadcastInDim S690000 ![] bcast_S_S690000 : (⟨S_, .i32⟩ : BufTy).Contents (Elt F) → (⟨S690000, .i32⟩ : BufTy).Contents (Elt F)),
    binary main_v5 main_v20 main_v21 (addi : (⟨S690000, .i32⟩ : BufTy).Contents (Elt F) → (⟨S690000, .i32⟩ : BufTy).Contents (Elt F) → (⟨S690000, .i32⟩ : BufTy).Contents (Elt F)),
    ternary main_v19 main_v21 main_v5 main_v22 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v22 main_v23 (broadcastInDim S690000x1 ![0] bcast_S690000_S690000x1_0 : (⟨S690000, .i32⟩ : BufTy).Contents (Elt F) → (⟨S690000x1, .i32⟩ : BufTy).Contents (Elt F)),
    binary main_v17 main_v23 main_v24 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    binary main_v24 main_v8 main_v25 (mulf : (⟨S690000, .f32⟩ : BufTy).Contents (Elt F) → (⟨S690000, .f32⟩ : BufTy).Contents (Elt F) → (⟨S690000, .f32⟩ : BufTy).Contents (Elt F)),
    nullary main_c_5 (constantI S_ 32 0#32),
    unary main_c_5 main_v26 (broadcastInDim S690000 ![] bcast_S_S690000 : (⟨S_, .i32⟩ : BufTy).Contents (Elt F) → (⟨S690000, .i32⟩ : BufTy).Contents (Elt F)),
    binary main_v6 main_v26 main_v27 (cmpi .slt : (⟨S690000, .i32⟩ : BufTy).Contents (Elt F) → (⟨S690000, .i32⟩ : BufTy).Contents (Elt F) → (⟨S690000, .i1⟩ : BufTy).Contents (Elt F)),
    nullary main_c_6 (constantI S_ 32 50000#32),
    unary main_c_6 main_v28 (broadcastInDim S690000 ![] bcast_S_S690000 : (⟨S_, .i32⟩ : BufTy).Contents (Elt F) → (⟨S690000, .i32⟩ : BufTy).Contents (Elt F)),
    binary main_v6 main_v28 main_v29 (addi : (⟨S690000, .i32⟩ : BufTy).Contents (Elt F) → (⟨S690000, .i32⟩ : BufTy).Contents (Elt F) → (⟨S690000, .i32⟩ : BufTy).Contents (Elt F)),
    ternary main_v27 main_v29 main_v6 main_v30 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v30 main_v31 (broadcastInDim S690000x1 ![0] bcast_S690000_S690000x1_0 : (⟨S690000, .i32⟩ : BufTy).Contents (Elt F) → (⟨S690000x1, .i32⟩ : BufTy).Contents (Elt F)),
    binary main_v17 main_v31 main_v32 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    binary main_v25 main_v32 main_v33 (mulf : (⟨S690000, .f32⟩ : BufTy).Contents (Elt F) → (⟨S690000, .f32⟩ : BufTy).Contents (Elt F) → (⟨S690000, .f32⟩ : BufTy).Contents (Elt F)),
    unary main_arg0 main_v34 ((extractStridedSlice S50000x4 ![0, 0] · slices_S50000x22_S50000x4_0_0) : (⟨S50000x22, .f32⟩ : BufTy).Contents (Elt F) → (⟨S50000x4, .f32⟩ : BufTy).Contents (Elt F)),
    unary main_arg0 main_v35 ((extractStridedSlice S50000x18 ![0, 4] · slices_S50000x22_S50000x18_0_4) : (⟨S50000x22, .f32⟩ : BufTy).Contents (Elt F) → (⟨S50000x18, .f32⟩ : BufTy).Contents (Elt F)),
    binary main_v35 main_arg4 main_v36 ((fun l r => Host.dotGeneral dot_S50000x18_S18x4_S50000x4_1_0_0_1_n_n none l r) : (⟨S50000x18, .f32⟩ : BufTy).Contents (Elt F) → (⟨S18x4, .f32⟩ : BufTy).Contents (Elt F) → (⟨S50000x4, .f32⟩ : BufTy).Contents (Elt F)),
    unary main_arg5 main_v37 (broadcastInDim S1x4 ![1] bcast_S4_S1x4_1 : (⟨S4, .f32⟩ : BufTy).Contents (Elt F) → (⟨S1x4, .f32⟩ : BufTy).Contents (Elt F)),
    unary main_v37 main_v38 (broadcastInDim S50000x4 ![0, 1] bcast_S1x4_S50000x4_0_1 : (⟨S1x4, .f32⟩ : BufTy).Contents (Elt F) → (⟨S50000x4, .f32⟩ : BufTy).Contents (Elt F)),
    binary main_v36 main_v38 main_v39 (addf : (⟨S50000x4, .f32⟩ : BufTy).Contents (Elt F) → (⟨S50000x4, .f32⟩ : BufTy).Contents (Elt F) → (⟨S50000x4, .f32⟩ : BufTy).Contents (Elt F)),
    binary main_v39 main_v34 main_v40 (addf : (⟨S50000x4, .f32⟩ : BufTy).Contents (Elt F) → (⟨S50000x4, .f32⟩ : BufTy).Contents (Elt F) → (⟨S50000x4, .f32⟩ : BufTy).Contents (Elt F)),
    unary main_arg12 main_v41 ((extractStridedSlice S1x64x64 ![0, 0, 0] · slices_S8x64x64_S1x64x64_0_0_0) : (⟨S8x64x64, .f32⟩ : BufTy).Contents (Elt F) → (⟨S1x64x64, .f32⟩ : BufTy).Contents (Elt F)),
    reshape main_v41 main_v42 rfl shapeCasts_S1x64x64_S64x64,
    unary main_arg13 main_v43 ((extractStridedSlice S1x64 ![0, 0] · slices_S8x64_S1x64_0_0) : (⟨S8x64, .f32⟩ : BufTy).Contents (Elt F) → (⟨S1x64, .f32⟩ : BufTy).Contents (Elt F)),
    reshape main_v43 main_v44 rfl shapeCasts_S1x64_S64,
    unary main_arg12 main_v45 ((extractStridedSlice S1x64x64 ![1, 0, 0] · slices_S8x64x64_S1x64x64_1_0_0) : (⟨S8x64x64, .f32⟩ : BufTy).Contents (Elt F) → (⟨S1x64x64, .f32⟩ : BufTy).Contents (Elt F)),
    reshape main_v45 main_v46 rfl shapeCasts_S1x64x64_S64x64,
    unary main_arg13 main_v47 ((extractStridedSlice S1x64 ![1, 0] · slices_S8x64_S1x64_1_0) : (⟨S8x64, .f32⟩ : BufTy).Contents (Elt F) → (⟨S1x64, .f32⟩ : BufTy).Contents (Elt F)),
    reshape main_v47 main_v48 rfl shapeCasts_S1x64_S64,
    unary main_arg12 main_v49 ((extractStridedSlice S1x64x64 ![2, 0, 0] · slices_S8x64x64_S1x64x64_2_0_0) : (⟨S8x64x64, .f32⟩ : BufTy).Contents (Elt F) → (⟨S1x64x64, .f32⟩ : BufTy).Contents (Elt F)),
    reshape main_v49 main_v50 rfl shapeCasts_S1x64x64_S64x64 ]

/-- @main's operations 63 … 122 of 1102 (window `main_part1`; a call's operations are the callee's, over the call's buffers). -/
noncomputable abbrev ops_part1 : List (HloOp τ sig (Elt F)) :=
  [ unary main_arg13 main_v51 ((extractStridedSlice S1x64 ![2, 0] · slices_S8x64_S1x64_2_0) : (⟨S8x64, .f32⟩ : BufTy).Contents (Elt F) → (⟨S1x64, .f32⟩ : BufTy).Contents (Elt F)),
    reshape main_v51 main_v52 rfl shapeCasts_S1x64_S64,
    unary main_arg12 main_v53 ((extractStridedSlice S1x64x64 ![3, 0, 0] · slices_S8x64x64_S1x64x64_3_0_0) : (⟨S8x64x64, .f32⟩ : BufTy).Contents (Elt F) → (⟨S1x64x64, .f32⟩ : BufTy).Contents (Elt F)),
    reshape main_v53 main_v54 rfl shapeCasts_S1x64x64_S64x64,
    unary main_arg13 main_v55 ((extractStridedSlice S1x64 ![3, 0] · slices_S8x64_S1x64_3_0) : (⟨S8x64, .f32⟩ : BufTy).Contents (Elt F) → (⟨S1x64, .f32⟩ : BufTy).Contents (Elt F)),
    reshape main_v55 main_v56 rfl shapeCasts_S1x64_S64,
    unary main_arg12 main_v57 ((extractStridedSlice S1x64x64 ![4, 0, 0] · slices_S8x64x64_S1x64x64_4_0_0) : (⟨S8x64x64, .f32⟩ : BufTy).Contents (Elt F) → (⟨S1x64x64, .f32⟩ : BufTy).Contents (Elt F)),
    reshape main_v57 main_v58 rfl shapeCasts_S1x64x64_S64x64,
    unary main_arg13 main_v59 ((extractStridedSlice S1x64 ![4, 0] · slices_S8x64_S1x64_4_0) : (⟨S8x64, .f32⟩ : BufTy).Contents (Elt F) → (⟨S1x64, .f32⟩ : BufTy).Contents (Elt F)),
    reshape main_v59 main_v60 rfl shapeCasts_S1x64_S64,
    unary main_arg12 main_v61 ((extractStridedSlice S1x64x64 ![5, 0, 0] · slices_S8x64x64_S1x64x64_5_0_0) : (⟨S8x64x64, .f32⟩ : BufTy).Contents (Elt F) → (⟨S1x64x64, .f32⟩ : BufTy).Contents (Elt F)),
    reshape main_v61 main_v62 rfl shapeCasts_S1x64x64_S64x64,
    unary main_arg13 main_v63 ((extractStridedSlice S1x64 ![5, 0] · slices_S8x64_S1x64_5_0) : (⟨S8x64, .f32⟩ : BufTy).Contents (Elt F) → (⟨S1x64, .f32⟩ : BufTy).Contents (Elt F)),
    reshape main_v63 main_v64 rfl shapeCasts_S1x64_S64,
    unary main_arg12 main_v65 ((extractStridedSlice S1x64x64 ![6, 0, 0] · slices_S8x64x64_S1x64x64_6_0_0) : (⟨S8x64x64, .f32⟩ : BufTy).Contents (Elt F) → (⟨S1x64x64, .f32⟩ : BufTy).Contents (Elt F)),
    reshape main_v65 main_v66 rfl shapeCasts_S1x64x64_S64x64,
    unary main_arg13 main_v67 ((extractStridedSlice S1x64 ![6, 0] · slices_S8x64_S1x64_6_0) : (⟨S8x64, .f32⟩ : BufTy).Contents (Elt F) → (⟨S1x64, .f32⟩ : BufTy).Contents (Elt F)),
    reshape main_v67 main_v68 rfl shapeCasts_S1x64_S64,
    unary main_arg12 main_v69 ((extractStridedSlice S1x64x64 ![7, 0, 0] · slices_S8x64x64_S1x64x64_7_0_0) : (⟨S8x64x64, .f32⟩ : BufTy).Contents (Elt F) → (⟨S1x64x64, .f32⟩ : BufTy).Contents (Elt F)),
    reshape main_v69 main_v70 rfl shapeCasts_S1x64x64_S64x64,
    unary main_arg13 main_v71 ((extractStridedSlice S1x64 ![7, 0] · slices_S8x64_S1x64_7_0) : (⟨S8x64, .f32⟩ : BufTy).Contents (Elt F) → (⟨S1x64, .f32⟩ : BufTy).Contents (Elt F)),
    reshape main_v71 main_v72 rfl shapeCasts_S1x64_S64,
    unary main_arg22 main_v73 ((extractStridedSlice S1x64 ![0, 0] · slices_S8x64_S1x64_0_0) : (⟨S8x64, .f32⟩ : BufTy).Contents (Elt F) → (⟨S1x64, .f32⟩ : BufTy).Contents (Elt F)),
    reshape main_v73 main_v74 rfl shapeCasts_S1x64_S64,
    unary main_arg23 main_v75 ((extractStridedSlice S1x64 ![0, 0] · slices_S8x64_S1x64_0_0) : (⟨S8x64, .f32⟩ : BufTy).Contents (Elt F) → (⟨S1x64, .f32⟩ : BufTy).Contents (Elt F)),
    reshape main_v75 main_v76 rfl shapeCasts_S1x64_S64,
    unary main_arg22 main_v77 ((extractStridedSlice S1x64 ![1, 0] · slices_S8x64_S1x64_1_0) : (⟨S8x64, .f32⟩ : BufTy).Contents (Elt F) → (⟨S1x64, .f32⟩ : BufTy).Contents (Elt F)),
    reshape main_v77 main_v78 rfl shapeCasts_S1x64_S64,
    unary main_arg23 main_v79 ((extractStridedSlice S1x64 ![1, 0] · slices_S8x64_S1x64_1_0) : (⟨S8x64, .f32⟩ : BufTy).Contents (Elt F) → (⟨S1x64, .f32⟩ : BufTy).Contents (Elt F)),
    reshape main_v79 main_v80 rfl shapeCasts_S1x64_S64,
    unary main_arg22 main_v81 ((extractStridedSlice S1x64 ![2, 0] · slices_S8x64_S1x64_2_0) : (⟨S8x64, .f32⟩ : BufTy).Contents (Elt F) → (⟨S1x64, .f32⟩ : BufTy).Contents (Elt F)),
    reshape main_v81 main_v82 rfl shapeCasts_S1x64_S64,
    unary main_arg23 main_v83 ((extractStridedSlice S1x64 ![2, 0] · slices_S8x64_S1x64_2_0) : (⟨S8x64, .f32⟩ : BufTy).Contents (Elt F) → (⟨S1x64, .f32⟩ : BufTy).Contents (Elt F)),
    reshape main_v83 main_v84 rfl shapeCasts_S1x64_S64,
    unary main_arg22 main_v85 ((extractStridedSlice S1x64 ![3, 0] · slices_S8x64_S1x64_3_0) : (⟨S8x64, .f32⟩ : BufTy).Contents (Elt F) → (⟨S1x64, .f32⟩ : BufTy).Contents (Elt F)),
    reshape main_v85 main_v86 rfl shapeCasts_S1x64_S64,
    unary main_arg23 main_v87 ((extractStridedSlice S1x64 ![3, 0] · slices_S8x64_S1x64_3_0) : (⟨S8x64, .f32⟩ : BufTy).Contents (Elt F) → (⟨S1x64, .f32⟩ : BufTy).Contents (Elt F)),
    reshape main_v87 main_v88 rfl shapeCasts_S1x64_S64,
    unary main_arg22 main_v89 ((extractStridedSlice S1x64 ![4, 0] · slices_S8x64_S1x64_4_0) : (⟨S8x64, .f32⟩ : BufTy).Contents (Elt F) → (⟨S1x64, .f32⟩ : BufTy).Contents (Elt F)),
    reshape main_v89 main_v90 rfl shapeCasts_S1x64_S64,
    unary main_arg23 main_v91 ((extractStridedSlice S1x64 ![4, 0] · slices_S8x64_S1x64_4_0) : (⟨S8x64, .f32⟩ : BufTy).Contents (Elt F) → (⟨S1x64, .f32⟩ : BufTy).Contents (Elt F)),
    reshape main_v91 main_v92 rfl shapeCasts_S1x64_S64,
    unary main_arg22 main_v93 ((extractStridedSlice S1x64 ![5, 0] · slices_S8x64_S1x64_5_0) : (⟨S8x64, .f32⟩ : BufTy).Contents (Elt F) → (⟨S1x64, .f32⟩ : BufTy).Contents (Elt F)),
    reshape main_v93 main_v94 rfl shapeCasts_S1x64_S64,
    unary main_arg23 main_v95 ((extractStridedSlice S1x64 ![5, 0] · slices_S8x64_S1x64_5_0) : (⟨S8x64, .f32⟩ : BufTy).Contents (Elt F) → (⟨S1x64, .f32⟩ : BufTy).Contents (Elt F)),
    reshape main_v95 main_v96 rfl shapeCasts_S1x64_S64,
    unary main_arg22 main_v97 ((extractStridedSlice S1x64 ![6, 0] · slices_S8x64_S1x64_6_0) : (⟨S8x64, .f32⟩ : BufTy).Contents (Elt F) → (⟨S1x64, .f32⟩ : BufTy).Contents (Elt F)),
    reshape main_v97 main_v98 rfl shapeCasts_S1x64_S64,
    unary main_arg23 main_v99 ((extractStridedSlice S1x64 ![6, 0] · slices_S8x64_S1x64_6_0) : (⟨S8x64, .f32⟩ : BufTy).Contents (Elt F) → (⟨S1x64, .f32⟩ : BufTy).Contents (Elt F)),
    reshape main_v99 main_v100 rfl shapeCasts_S1x64_S64,
    unary main_arg22 main_v101 ((extractStridedSlice S1x64 ![7, 0] · slices_S8x64_S1x64_7_0) : (⟨S8x64, .f32⟩ : BufTy).Contents (Elt F) → (⟨S1x64, .f32⟩ : BufTy).Contents (Elt F)),
    reshape main_v101 main_v102 rfl shapeCasts_S1x64_S64,
    unary main_arg23 main_v103 ((extractStridedSlice S1x64 ![7, 0] · slices_S8x64_S1x64_7_0) : (⟨S8x64, .f32⟩ : BufTy).Contents (Elt F) → (⟨S1x64, .f32⟩ : BufTy).Contents (Elt F)),
    reshape main_v103 main_v104 rfl shapeCasts_S1x64_S64,
    unary main_arg6 main_v105 ((transpose S4x64 [1, 0] · transposes_S64x4_S4x64_1_0) : (⟨S64x4, .f32⟩ : BufTy).Contents (Elt F) → (⟨S4x64, .f32⟩ : BufTy).Contents (Elt F)),
    binary main_v40 main_v105 main_v106 ((fun l r => Host.dotGeneral dot_S50000x4_S4x64_S50000x64_1_0_0_1_n_n none l r) : (⟨S50000x4, .f32⟩ : BufTy).Contents (Elt F) → (⟨S4x64, .f32⟩ : BufTy).Contents (Elt F) → (⟨S50000x64, .f32⟩ : BufTy).Contents (Elt F)),
    unary main_v33 main_v107 (broadcastInDim S690000x1 ![0] bcast_S690000_S690000x1_0 : (⟨S690000, .f32⟩ : BufTy).Contents (Elt F) → (⟨S690000x1, .f32⟩ : BufTy).Contents (Elt F)),
    nullary main_c_7 (constantI S_ 32 0#32),
    unary main_c_7 main_v108 (broadcastInDim S690000 ![] bcast_S_S690000 : (⟨S_, .i32⟩ : BufTy).Contents (Elt F) → (⟨S690000, .i32⟩ : BufTy).Contents (Elt F)),
    binary main_v5 main_v108 main_v109 (cmpi .slt : (⟨S690000, .i32⟩ : BufTy).Contents (Elt F) → (⟨S690000, .i32⟩ : BufTy).Contents (Elt F) → (⟨S690000, .i1⟩ : BufTy).Contents (Elt F)) ]

/-- @main's operations 123 … 203 of 1102 (window `main_part2`; a call's operations are the callee's, over the call's buffers). -/
noncomputable abbrev ops_part2 : List (HloOp τ sig (Elt F)) :=
  [ nullary main_c_8 (constantI S_ 32 50000#32),
    unary main_c_8 main_v110 (broadcastInDim S690000 ![] bcast_S_S690000 : (⟨S_, .i32⟩ : BufTy).Contents (Elt F) → (⟨S690000, .i32⟩ : BufTy).Contents (Elt F)),
    binary main_v5 main_v110 main_v111 (addi : (⟨S690000, .i32⟩ : BufTy).Contents (Elt F) → (⟨S690000, .i32⟩ : BufTy).Contents (Elt F) → (⟨S690000, .i32⟩ : BufTy).Contents (Elt F)),
    ternary main_v109 main_v111 main_v5 main_v112 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v112 main_v113 (broadcastInDim S690000x1 ![0] bcast_S690000_S690000x1_0 : (⟨S690000, .i32⟩ : BufTy).Contents (Elt F) → (⟨S690000x1, .i32⟩ : BufTy).Contents (Elt F)),
    binary main_v106 main_v113 main_v114 ((fun x i => Host.gather gather_S50000x64_S690000x1_S690000x64_1_0_n_n_0_1_164 x i) : (⟨S50000x64, .f32⟩ : BufTy).Contents (Elt F) → (⟨S690000x1, .i32⟩ : BufTy).Contents (Elt F) → (⟨S690000x64, .f32⟩ : BufTy).Contents (Elt F)),
    unary main_v107 main_v115 (broadcastInDim S690000x64 ![0, 1] bcast_S690000x1_S690000x64_0_1 : (⟨S690000x1, .f32⟩ : BufTy).Contents (Elt F) → (⟨S690000x64, .f32⟩ : BufTy).Contents (Elt F)),
    binary main_v115 main_v114 main_v116 (mulf : (⟨S690000x64, .f32⟩ : BufTy).Contents (Elt F) → (⟨S690000x64, .f32⟩ : BufTy).Contents (Elt F) → (⟨S690000x64, .f32⟩ : BufTy).Contents (Elt F)),
    nullary main_cst_9 (constant S_ .f32 0x00000000#32),
    unary main_cst_9 main_v117 (broadcastInDim S50000x64 ![] bcast_S_S50000x64 : (⟨S_, .f32⟩ : BufTy).Contents (Elt F) → (⟨S50000x64, .f32⟩ : BufTy).Contents (Elt F)),
    unary main_v6 main_v118 (broadcastInDim S690000x1 ![0] bcast_S690000_S690000x1_0 : (⟨S690000, .i32⟩ : BufTy).Contents (Elt F) → (⟨S690000x1, .i32⟩ : BufTy).Contents (Elt F)),
    ternary main_v117 main_v118 main_v116 main_v119 ((fun x i u => Host.scatterAdd scatter_S50000x64_S690000x1_S690000x64_1_0_0_1 x i u) : (⟨S50000x64, .f32⟩ : BufTy).Contents (Elt F) → (⟨S690000x1, .i32⟩ : BufTy).Contents (Elt F) → (⟨S690000x64, .f32⟩ : BufTy).Contents (Elt F) → (⟨S50000x64, .f32⟩ : BufTy).Contents (Elt F)),
    unary main_arg7 main_v120 (broadcastInDim S1x64 ![1] bcast_S64_S1x64_1 : (⟨S64, .f32⟩ : BufTy).Contents (Elt F) → (⟨S1x64, .f32⟩ : BufTy).Contents (Elt F)),
    unary main_v120 main_v121 (broadcastInDim S50000x64 ![0, 1] bcast_S1x64_S50000x64_0_1 : (⟨S1x64, .f32⟩ : BufTy).Contents (Elt F) → (⟨S50000x64, .f32⟩ : BufTy).Contents (Elt F)),
    binary main_v119 main_v121 main_v122 (addf : (⟨S50000x64, .f32⟩ : BufTy).Contents (Elt F) → (⟨S50000x64, .f32⟩ : BufTy).Contents (Elt F) → (⟨S50000x64, .f32⟩ : BufTy).Contents (Elt F)),
    nullary main_cst_10 (constant S_ .f32 0x00000000#32),
    binary main_v122 main_cst_10 main_v123 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_11 (constant S_ .f32 0x47435000#32),
    unary main_cst_11 main_v124 (broadcastInDim S64 ![] bcast_S_S64 : (⟨S_, .f32⟩ : BufTy).Contents (Elt F) → (⟨S64, .f32⟩ : BufTy).Contents (Elt F)),
    binary main_v123 main_v124 main_v125 (Host.divf : (⟨S64, .f32⟩ : BufTy).Contents (Elt F) → (⟨S64, .f32⟩ : BufTy).Contents (Elt F) → (⟨S64, .f32⟩ : BufTy).Contents (Elt F)),
    nullary main_c_12 (constantI S_ 32 0#32),
    TRef.nullary main_call1.cst (constant S_ .f32 0x00000000#32),
    TRef.binary (TRef.of main_v122 : TRef sig ⟨S50000x64, .f32⟩) main_call1.cst main_call1.v0 (fun x v => Host.reduceAdd x v reducesTo_S50000x64_S64_d0 h_S_),
    TRef.unary main_call1.v0 main_call1.v1 (broadcastInDim S1x64 ![1] bcast_S64_S1x64_1),
    TRef.nullary main_call1.cst_0 (constant S_ .f32 0x47435000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S50000x64 ![0, 1] bcast_S1x64_S50000x64_0_1),
    TRef.binary (TRef.of main_v122 : TRef sig ⟨S50000x64, .f32⟩) main_call1.v4 main_call1.v5 subf,
    TRef.binary main_call1.v5 main_call1.v5 main_call1.v6 mulf,
    TRef.unary (TRef.of main_c_12 : TRef sig ⟨S_, .i32⟩) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b),
    unary main_v125 main_v127 (broadcastInDim S1x64 ![1] bcast_S64_S1x64_1 : (⟨S64, .f32⟩ : BufTy).Contents (Elt F) → (⟨S1x64, .f32⟩ : BufTy).Contents (Elt F)),
    unary main_v127 main_v128 (broadcastInDim S50000x64 ![0, 1] bcast_S1x64_S50000x64_0_1 : (⟨S1x64, .f32⟩ : BufTy).Contents (Elt F) → (⟨S50000x64, .f32⟩ : BufTy).Contents (Elt F)),
    binary main_v122 main_v128 main_v129 (subf : (⟨S50000x64, .f32⟩ : BufTy).Contents (Elt F) → (⟨S50000x64, .f32⟩ : BufTy).Contents (Elt F) → (⟨S50000x64, .f32⟩ : BufTy).Contents (Elt F)),
    nullary main_cst_13 (constant S_ .f32 0x3727C5AC#32),
    unary main_cst_13 main_v130 (broadcastInDim S64 ![] bcast_S_S64 : (⟨S_, .f32⟩ : BufTy).Contents (Elt F) → (⟨S64, .f32⟩ : BufTy).Contents (Elt F)),
    binary main_v126 main_v130 main_v131 (addf : (⟨S64, .f32⟩ : BufTy).Contents (Elt F) → (⟨S64, .f32⟩ : BufTy).Contents (Elt F) → (⟨S64, .f32⟩ : BufTy).Contents (Elt F)),
    unary main_v131 main_v132 (Host.rsqrt : (⟨S64, .f32⟩ : BufTy).Contents (Elt F) → (⟨S64, .f32⟩ : BufTy).Contents (Elt F)),
    unary main_v132 main_v133 (broadcastInDim S1x64 ![1] bcast_S64_S1x64_1 : (⟨S64, .f32⟩ : BufTy).Contents (Elt F) → (⟨S1x64, .f32⟩ : BufTy).Contents (Elt F)),
    unary main_v133 main_v134 (broadcastInDim S50000x64 ![0, 1] bcast_S1x64_S50000x64_0_1 : (⟨S1x64, .f32⟩ : BufTy).Contents (Elt F) → (⟨S50000x64, .f32⟩ : BufTy).Contents (Elt F)),
    binary main_v129 main_v134 main_v135 (mulf : (⟨S50000x64, .f32⟩ : BufTy).Contents (Elt F) → (⟨S50000x64, .f32⟩ : BufTy).Contents (Elt F) → (⟨S50000x64, .f32⟩ : BufTy).Contents (Elt F)),
    unary main_arg16 main_v136 (broadcastInDim S1x64 ![1] bcast_S64_S1x64_1 : (⟨S64, .f32⟩ : BufTy).Contents (Elt F) → (⟨S1x64, .f32⟩ : BufTy).Contents (Elt F)),
    unary main_v136 main_v137 (broadcastInDim S50000x64 ![0, 1] bcast_S1x64_S50000x64_0_1 : (⟨S1x64, .f32⟩ : BufTy).Contents (Elt F) → (⟨S50000x64, .f32⟩ : BufTy).Contents (Elt F)),
    binary main_v135 main_v137 main_v138 (mulf : (⟨S50000x64, .f32⟩ : BufTy).Contents (Elt F) → (⟨S50000x64, .f32⟩ : BufTy).Contents (Elt F) → (⟨S50000x64, .f32⟩ : BufTy).Contents (Elt F)),
    unary main_arg17 main_v139 (broadcastInDim S1x64 ![1] bcast_S64_S1x64_1 : (⟨S64, .f32⟩ : BufTy).Contents (Elt F) → (⟨S1x64, .f32⟩ : BufTy).Contents (Elt F)),
    unary main_v139 main_v140 (broadcastInDim S50000x64 ![0, 1] bcast_S1x64_S50000x64_0_1 : (⟨S1x64, .f32⟩ : BufTy).Contents (Elt F) → (⟨S50000x64, .f32⟩ : BufTy).Contents (Elt F)),
    binary main_v138 main_v140 main_v141 (addf : (⟨S50000x64, .f32⟩ : BufTy).Contents (Elt F) → (⟨S50000x64, .f32⟩ : BufTy).Contents (Elt F) → (⟨S50000x64, .f32⟩ : BufTy).Contents (Elt F)),
    nullary main_cst_14 (constant S_ .f32 0xFF800000#32),
    binary main_v141 main_cst_14 main_v142 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v142 main_v143 (broadcastInDim S50000x1 ![0] bcast_S50000_S50000x1_0 : (⟨S50000, .f32⟩ : BufTy).Contents (Elt F) → (⟨S50000x1, .f32⟩ : BufTy).Contents (Elt F)),
    unary main_v143 main_v144 (broadcastInDim S50000x64 ![0, 1] bcast_S50000x1_S50000x64_0_1 : (⟨S50000x1, .f32⟩ : BufTy).Contents (Elt F) → (⟨S50000x64, .f32⟩ : BufTy).Contents (Elt F)),
    binary main_v141 main_v144 main_v145 (subf : (⟨S50000x64, .f32⟩ : BufTy).Contents (Elt F) → (⟨S50000x64, .f32⟩ : BufTy).Contents (Elt F) → (⟨S50000x64, .f32⟩ : BufTy).Contents (Elt F)),
    unary main_v145 main_v146 (Host.exp : (⟨S50000x64, .f32⟩ : BufTy).Contents (Elt F) → (⟨S50000x64, .f32⟩ : BufTy).Contents (Elt F)),
    nullary main_cst_15 (constant S_ .f32 0x00000000#32),
    binary main_v146 main_cst_15 main_v147 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v147 main_v148 (broadcastInDim S50000x1 ![0] bcast_S50000_S50000x1_0 : (⟨S50000, .f32⟩ : BufTy).Contents (Elt F) → (⟨S50000x1, .f32⟩ : BufTy).Contents (Elt F)),
    nullary main_cst_16 (constant S_ .f32 0x3F800000#32),
    unary main_cst_16 main_v149 (broadcastInDim S50000x1 ![] bcast_S_S50000x1 : (⟨S_, .f32⟩ : BufTy).Contents (Elt F) → (⟨S50000x1, .f32⟩ : BufTy).Contents (Elt F)),
    binary main_v149 main_v148 main_v150 (addf : (⟨S50000x1, .f32⟩ : BufTy).Contents (Elt F) → (⟨S50000x1, .f32⟩ : BufTy).Contents (Elt F) → (⟨S50000x1, .f32⟩ : BufTy).Contents (Elt F)),
    unary main_v150 main_v151 (broadcastInDim S50000x64 ![0, 1] bcast_S50000x1_S50000x64_0_1 : (⟨S50000x1, .f32⟩ : BufTy).Contents (Elt F) → (⟨S50000x64, .f32⟩ : BufTy).Contents (Elt F)),
    binary main_v146 main_v151 main_v152 (Host.divf : (⟨S50000x64, .f32⟩ : BufTy).Contents (Elt F) → (⟨S50000x64, .f32⟩ : BufTy).Contents (Elt F) → (⟨S50000x64, .f32⟩ : BufTy).Contents (Elt F)),
    unary main_arg8 main_v153 ((transpose S64x128 [1, 0] · transposes_S128x64_S64x128_1_0) : (⟨S128x64, .f32⟩ : BufTy).Contents (Elt F) → (⟨S64x128, .f32⟩ : BufTy).Contents (Elt F)),
    binary main_v152 main_v153 main_v154 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_v33 main_v155 (broadcastInDim S690000x1 ![0] bcast_S690000_S690000x1_0 : (⟨S690000, .f32⟩ : BufTy).Contents (Elt F) → (⟨S690000x1, .f32⟩ : BufTy).Contents (Elt F)),
    nullary main_c_17 (constantI S_ 32 0#32),
    unary main_c_17 main_v156 (broadcastInDim S690000 ![] bcast_S_S690000 : (⟨S_, .i32⟩ : BufTy).Contents (Elt F) → (⟨S690000, .i32⟩ : BufTy).Contents (Elt F)),
    binary main_v5 main_v156 main_v157 (cmpi .slt : (⟨S690000, .i32⟩ : BufTy).Contents (Elt F) → (⟨S690000, .i32⟩ : BufTy).Contents (Elt F) → (⟨S690000, .i1⟩ : BufTy).Contents (Elt F)),
    nullary main_c_18 (constantI S_ 32 50000#32),
    unary main_c_18 main_v158 (broadcastInDim S690000 ![] bcast_S_S690000 : (⟨S_, .i32⟩ : BufTy).Contents (Elt F) → (⟨S690000, .i32⟩ : BufTy).Contents (Elt F)) ]

/-- @main's operations 204 … 284 of 1102 (window `main_part3`; a call's operations are the callee's, over the call's buffers). -/
noncomputable abbrev ops_part3 : List (HloOp τ sig (Elt F)) :=
  [ binary main_v5 main_v158 main_v159 (addi : (⟨S690000, .i32⟩ : BufTy).Contents (Elt F) → (⟨S690000, .i32⟩ : BufTy).Contents (Elt F) → (⟨S690000, .i32⟩ : BufTy).Contents (Elt F)),
    ternary main_v157 main_v159 main_v5 main_v160 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v160 main_v161 (broadcastInDim S690000x1 ![0] bcast_S690000_S690000x1_0 : (⟨S690000, .i32⟩ : BufTy).Contents (Elt F) → (⟨S690000x1, .i32⟩ : BufTy).Contents (Elt F)),
    binary main_v154 main_v161 main_v162 ((fun x i => Host.gather gather_S50000x128_S690000x1_S690000x128_1_0_n_n_0_1_1128 x i) : (⟨S50000x128, .f32⟩ : BufTy).Contents (Elt F) → (⟨S690000x1, .i32⟩ : BufTy).Contents (Elt F) → (⟨S690000x128, .f32⟩ : BufTy).Contents (Elt F)),
    unary main_v155 main_v163 (broadcastInDim S690000x128 ![0, 1] bcast_S690000x1_S690000x128_0_1 : (⟨S690000x1, .f32⟩ : BufTy).Contents (Elt F) → (⟨S690000x128, .f32⟩ : BufTy).Contents (Elt F)),
    binary main_v163 main_v162 main_v164 (mulf : (⟨S690000x128, .f32⟩ : BufTy).Contents (Elt F) → (⟨S690000x128, .f32⟩ : BufTy).Contents (Elt F) → (⟨S690000x128, .f32⟩ : BufTy).Contents (Elt F)),
    nullary main_cst_19 (constant S_ .f32 0x00000000#32),
    unary main_cst_19 main_v165 (broadcastInDim S50000x128 ![] bcast_S_S50000x128 : (⟨S_, .f32⟩ : BufTy).Contents (Elt F) → (⟨S50000x128, .f32⟩ : BufTy).Contents (Elt F)),
    unary main_v6 main_v166 (broadcastInDim S690000x1 ![0] bcast_S690000_S690000x1_0 : (⟨S690000, .i32⟩ : BufTy).Contents (Elt F) → (⟨S690000x1, .i32⟩ : BufTy).Contents (Elt F)),
    ternary main_v165 main_v166 main_v164 main_v167 ((fun x i u => Host.scatterAdd scatter_S50000x128_S690000x1_S690000x128_1_0_0_1 x i u) : (⟨S50000x128, .f32⟩ : BufTy).Contents (Elt F) → (⟨S690000x1, .i32⟩ : BufTy).Contents (Elt F) → (⟨S690000x128, .f32⟩ : BufTy).Contents (Elt F) → (⟨S50000x128, .f32⟩ : BufTy).Contents (Elt F)),
    unary main_arg9 main_v168 (broadcastInDim S1x128 ![1] bcast_S128_S1x128_1 : (⟨S128, .f32⟩ : BufTy).Contents (Elt F) → (⟨S1x128, .f32⟩ : BufTy).Contents (Elt F)),
    unary main_v168 main_v169 (broadcastInDim S50000x128 ![0, 1] bcast_S1x128_S50000x128_0_1 : (⟨S1x128, .f32⟩ : BufTy).Contents (Elt F) → (⟨S50000x128, .f32⟩ : BufTy).Contents (Elt F)),
    binary main_v167 main_v169 main_v170 (addf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x00000000#32),
    binary main_v170 main_cst_20 main_v171 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_21 (constant S_ .f32 0x47435000#32),
    unary main_cst_21 main_v172 (broadcastInDim S128 ![] bcast_S_S128 : (⟨S_, .f32⟩ : BufTy).Contents (Elt F) → (⟨S128, .f32⟩ : BufTy).Contents (Elt F)),
    binary main_v171 main_v172 main_v173 (Host.divf : (⟨S128, .f32⟩ : BufTy).Contents (Elt F) → (⟨S128, .f32⟩ : BufTy).Contents (Elt F) → (⟨S128, .f32⟩ : BufTy).Contents (Elt F)),
    nullary main_c_22 (constantI S_ 32 0#32),
    TRef.nullary main_call2.cst (constant S_ .f32 0x00000000#32),
    TRef.binary (TRef.of main_v170 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (TRef.of main_v170 : TRef sig ⟨S50000x128, .f32⟩) main_call2.v4 main_call2.v5 subf,
    TRef.binary main_call2.v5 main_call2.v5 main_call2.v6 mulf,
    TRef.unary (TRef.of main_c_22 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v173 main_v175 (broadcastInDim S1x128 ![1] bcast_S128_S1x128_1 : (⟨S128, .f32⟩ : BufTy).Contents (Elt F) → (⟨S1x128, .f32⟩ : BufTy).Contents (Elt F)),
    unary main_v175 main_v176 (broadcastInDim S50000x128 ![0, 1] bcast_S1x128_S50000x128_0_1 : (⟨S1x128, .f32⟩ : BufTy).Contents (Elt F) → (⟨S50000x128, .f32⟩ : BufTy).Contents (Elt F)),
    binary main_v170 main_v176 main_v177 (subf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x3727C5AC#32),
    unary main_cst_23 main_v178 (broadcastInDim S128 ![] bcast_S_S128 : (⟨S_, .f32⟩ : BufTy).Contents (Elt F) → (⟨S128, .f32⟩ : BufTy).Contents (Elt F)),
    binary main_v174 main_v178 main_v179 (addf : (⟨S128, .f32⟩ : BufTy).Contents (Elt F) → (⟨S128, .f32⟩ : BufTy).Contents (Elt F) → (⟨S128, .f32⟩ : BufTy).Contents (Elt F)),
    unary main_v179 main_v180 (Host.rsqrt : (⟨S128, .f32⟩ : BufTy).Contents (Elt F) → (⟨S128, .f32⟩ : BufTy).Contents (Elt F)),
    unary main_v180 main_v181 (broadcastInDim S1x128 ![1] bcast_S128_S1x128_1 : (⟨S128, .f32⟩ : BufTy).Contents (Elt F) → (⟨S1x128, .f32⟩ : BufTy).Contents (Elt F)),
    unary main_v181 main_v182 (broadcastInDim S50000x128 ![0, 1] bcast_S1x128_S50000x128_0_1 : (⟨S1x128, .f32⟩ : BufTy).Contents (Elt F) → (⟨S50000x128, .f32⟩ : BufTy).Contents (Elt F)),
    binary main_v177 main_v182 main_v183 (mulf : (⟨S50000x128, .f32⟩ : BufTy).Contents (Elt F) → (⟨S50000x128, .f32⟩ : BufTy).Contents (Elt F) → (⟨S50000x128, .f32⟩ : BufTy).Contents (Elt F)),
    unary main_arg18 main_v184 (broadcastInDim S1x128 ![1] bcast_S128_S1x128_1 : (⟨S128, .f32⟩ : BufTy).Contents (Elt F) → (⟨S1x128, .f32⟩ : BufTy).Contents (Elt F)),
    unary main_v184 main_v185 (broadcastInDim S50000x128 ![0, 1] bcast_S1x128_S50000x128_0_1 : (⟨S1x128, .f32⟩ : BufTy).Contents (Elt F) → (⟨S50000x128, .f32⟩ : BufTy).Contents (Elt F)),
    binary main_v183 main_v185 main_v186 (mulf : (⟨S50000x128, .f32⟩ : BufTy).Contents (Elt F) → (⟨S50000x128, .f32⟩ : BufTy).Contents (Elt F) → (⟨S50000x128, .f32⟩ : BufTy).Contents (Elt F)),
    unary main_arg19 main_v187 (broadcastInDim S1x128 ![1] bcast_S128_S1x128_1 : (⟨S128, .f32⟩ : BufTy).Contents (Elt F) → (⟨S1x128, .f32⟩ : BufTy).Contents (Elt F)),
    unary main_v187 main_v188 (broadcastInDim S50000x128 ![0, 1] bcast_S1x128_S50000x128_0_1 : (⟨S1x128, .f32⟩ : BufTy).Contents (Elt F) → (⟨S50000x128, .f32⟩ : BufTy).Contents (Elt F)),
    binary main_v186 main_v188 main_v189 (addf : (⟨S50000x128, .f32⟩ : BufTy).Contents (Elt F) → (⟨S50000x128, .f32⟩ : BufTy).Contents (Elt F) → (⟨S50000x128, .f32⟩ : BufTy).Contents (Elt F)),
    nullary main_cst_24 (constant S_ .f32 0xFF800000#32),
    binary main_v189 main_cst_24 main_v190 ((fun x v => Host.reduce FloatOps.maximumf x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v190 main_v191 (broadcastInDim S50000x1 ![0] bcast_S50000_S50000x1_0 : (⟨S50000, .f32⟩ : BufTy).Contents (Elt F) → (⟨S50000x1, .f32⟩ : BufTy).Contents (Elt F)),
    unary main_v191 main_v192 (broadcastInDim S50000x128 ![0, 1] bcast_S50000x1_S50000x128_0_1 : (⟨S50000x1, .f32⟩ : BufTy).Contents (Elt F) → (⟨S50000x128, .f32⟩ : BufTy).Contents (Elt F)),
    binary main_v189 main_v192 main_v193 (subf : (⟨S50000x128, .f32⟩ : BufTy).Contents (Elt F) → (⟨S50000x128, .f32⟩ : BufTy).Contents (Elt F) → (⟨S50000x128, .f32⟩ : BufTy).Contents (Elt F)),
    unary main_v193 main_v194 (Host.exp : (⟨S50000x128, .f32⟩ : BufTy).Contents (Elt F) → (⟨S50000x128, .f32⟩ : BufTy).Contents (Elt F)),
    nullary main_cst_25 (constant S_ .f32 0x00000000#32),
    binary main_v194 main_cst_25 main_v195 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v195 main_v196 (broadcastInDim S50000x1 ![0] bcast_S50000_S50000x1_0 : (⟨S50000, .f32⟩ : BufTy).Contents (Elt F) → (⟨S50000x1, .f32⟩ : BufTy).Contents (Elt F)),
    nullary main_cst_26 (constant S_ .f32 0x3F800000#32),
    unary main_cst_26 main_v197 (broadcastInDim S50000x1 ![] bcast_S_S50000x1 : (⟨S_, .f32⟩ : BufTy).Contents (Elt F) → (⟨S50000x1, .f32⟩ : BufTy).Contents (Elt F)),
    binary main_v197 main_v196 main_v198 (addf : (⟨S50000x1, .f32⟩ : BufTy).Contents (Elt F) → (⟨S50000x1, .f32⟩ : BufTy).Contents (Elt F) → (⟨S50000x1, .f32⟩ : BufTy).Contents (Elt F)),
    unary main_v198 main_v199 (broadcastInDim S50000x128 ![0, 1] bcast_S50000x1_S50000x128_0_1 : (⟨S50000x1, .f32⟩ : BufTy).Contents (Elt F) → (⟨S50000x128, .f32⟩ : BufTy).Contents (Elt F)),
    binary main_v194 main_v199 main_v200 (Host.divf : (⟨S50000x128, .f32⟩ : BufTy).Contents (Elt F) → (⟨S50000x128, .f32⟩ : BufTy).Contents (Elt F) → (⟨S50000x128, .f32⟩ : BufTy).Contents (Elt F)),
    unary main_arg10 main_v201 ((transpose S128x64 [1, 0] · transposes_S64x128_S128x64_1_0) : (⟨S64x128, .f32⟩ : BufTy).Contents (Elt F) → (⟨S128x64, .f32⟩ : BufTy).Contents (Elt F)),
    binary main_v200 main_v201 main_v202 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v33 main_v203 (broadcastInDim S690000x1 ![0] bcast_S690000_S690000x1_0 : (⟨S690000, .f32⟩ : BufTy).Contents (Elt F) → (⟨S690000x1, .f32⟩ : BufTy).Contents (Elt F)),
    nullary main_c_27 (constantI S_ 32 0#32),
    unary main_c_27 main_v204 (broadcastInDim S690000 ![] bcast_S_S690000 : (⟨S_, .i32⟩ : BufTy).Contents (Elt F) → (⟨S690000, .i32⟩ : BufTy).Contents (Elt F)),
    binary main_v5 main_v204 main_v205 (cmpi .slt : (⟨S690000, .i32⟩ : BufTy).Contents (Elt F) → (⟨S690000, .i32⟩ : BufTy).Contents (Elt F) → (⟨S690000, .i1⟩ : BufTy).Contents (Elt F)),
    nullary main_c_28 (constantI S_ 32 50000#32),
    unary main_c_28 main_v206 (broadcastInDim S690000 ![] bcast_S_S690000 : (⟨S_, .i32⟩ : BufTy).Contents (Elt F) → (⟨S690000, .i32⟩ : BufTy).Contents (Elt F)),
    binary main_v5 main_v206 main_v207 (addi : (⟨S690000, .i32⟩ : BufTy).Contents (Elt F) → (⟨S690000, .i32⟩ : BufTy).Contents (Elt F) → (⟨S690000, .i32⟩ : BufTy).Contents (Elt F)),
    ternary main_v205 main_v207 main_v5 main_v208 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)) ]

/-- @main's operations 285 … 365 of 1102 (window `main_part4`; a call's operations are the callee's, over the call's buffers). -/
noncomputable abbrev ops_part4 : List (HloOp τ sig (Elt F)) :=
  [ unary main_v208 main_v209 (broadcastInDim S690000x1 ![0] bcast_S690000_S690000x1_0 : (⟨S690000, .i32⟩ : BufTy).Contents (Elt F) → (⟨S690000x1, .i32⟩ : BufTy).Contents (Elt F)),
    binary main_v202 main_v209 main_v210 ((fun x i => Host.gather gather_S50000x64_S690000x1_S690000x64_1_0_n_n_0_1_164 x i) : (⟨S50000x64, .f32⟩ : BufTy).Contents (Elt F) → (⟨S690000x1, .i32⟩ : BufTy).Contents (Elt F) → (⟨S690000x64, .f32⟩ : BufTy).Contents (Elt F)),
    unary main_v203 main_v211 (broadcastInDim S690000x64 ![0, 1] bcast_S690000x1_S690000x64_0_1 : (⟨S690000x1, .f32⟩ : BufTy).Contents (Elt F) → (⟨S690000x64, .f32⟩ : BufTy).Contents (Elt F)),
    binary main_v211 main_v210 main_v212 (mulf : (⟨S690000x64, .f32⟩ : BufTy).Contents (Elt F) → (⟨S690000x64, .f32⟩ : BufTy).Contents (Elt F) → (⟨S690000x64, .f32⟩ : BufTy).Contents (Elt F)),
    nullary main_cst_29 (constant S_ .f32 0x00000000#32),
    unary main_cst_29 main_v213 (broadcastInDim S50000x64 ![] bcast_S_S50000x64 : (⟨S_, .f32⟩ : BufTy).Contents (Elt F) → (⟨S50000x64, .f32⟩ : BufTy).Contents (Elt F)),
    unary main_v6 main_v214 (broadcastInDim S690000x1 ![0] bcast_S690000_S690000x1_0 : (⟨S690000, .i32⟩ : BufTy).Contents (Elt F) → (⟨S690000x1, .i32⟩ : BufTy).Contents (Elt F)),
    ternary main_v213 main_v214 main_v212 main_v215 ((fun x i u => Host.scatterAdd scatter_S50000x64_S690000x1_S690000x64_1_0_0_1 x i u) : (⟨S50000x64, .f32⟩ : BufTy).Contents (Elt F) → (⟨S690000x1, .i32⟩ : BufTy).Contents (Elt F) → (⟨S690000x64, .f32⟩ : BufTy).Contents (Elt F) → (⟨S50000x64, .f32⟩ : BufTy).Contents (Elt F)),
    unary main_arg11 main_v216 (broadcastInDim S1x64 ![1] bcast_S64_S1x64_1 : (⟨S64, .f32⟩ : BufTy).Contents (Elt F) → (⟨S1x64, .f32⟩ : BufTy).Contents (Elt F)),
    unary main_v216 main_v217 (broadcastInDim S50000x64 ![0, 1] bcast_S1x64_S50000x64_0_1 : (⟨S1x64, .f32⟩ : BufTy).Contents (Elt F) → (⟨S50000x64, .f32⟩ : BufTy).Contents (Elt F)),
    binary main_v215 main_v217 main_v218 (addf : (⟨S50000x64, .f32⟩ : BufTy).Contents (Elt F) → (⟨S50000x64, .f32⟩ : BufTy).Contents (Elt F) → (⟨S50000x64, .f32⟩ : BufTy).Contents (Elt F)),
    nullary main_cst_30 (constant S_ .f32 0x00000000#32),
    binary main_v218 main_cst_30 main_v219 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_31 (constant S_ .f32 0x47435000#32),
    unary main_cst_31 main_v220 (broadcastInDim S64 ![] bcast_S_S64 : (⟨S_, .f32⟩ : BufTy).Contents (Elt F) → (⟨S64, .f32⟩ : BufTy).Contents (Elt F)),
    binary main_v219 main_v220 main_v221 (Host.divf : (⟨S64, .f32⟩ : BufTy).Contents (Elt F) → (⟨S64, .f32⟩ : BufTy).Contents (Elt F) → (⟨S64, .f32⟩ : BufTy).Contents (Elt F)),
    nullary main_c_32 (constantI S_ 32 0#32),
    TRef.nullary main_call3.cst (constant S_ .f32 0x00000000#32),
    TRef.binary (TRef.of main_v218 : TRef sig ⟨S50000x64, .f32⟩) main_call3.cst main_call3.v0 (fun x v => Host.reduceAdd x v reducesTo_S50000x64_S64_d0 h_S_),
    TRef.unary main_call3.v0 main_call3.v1 (broadcastInDim S1x64 ![1] bcast_S64_S1x64_1),
    TRef.nullary main_call3.cst_0 (constant S_ .f32 0x47435000#32),
    TRef.unary main_call3.cst_0 main_call3.v2 (broadcastInDim S1x64 ![] bcast_S_S1x64),
    TRef.binary main_call3.v1 main_call3.v2 main_call3.v3 Host.divf,
    TRef.unary main_call3.v3 main_call3.v4 (broadcastInDim S50000x64 ![0, 1] bcast_S1x64_S50000x64_0_1),
    TRef.binary (TRef.of main_v218 : TRef sig ⟨S50000x64, .f32⟩) main_call3.v4 main_call3.v5 subf,
    TRef.binary main_call3.v5 main_call3.v5 main_call3.v6 mulf,
    TRef.unary (TRef.of main_c_32 : TRef sig ⟨S_, .i32⟩) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x64_S64_d0 h_S_),
    TRef.unary main_call3.v8 main_call3.v10 (broadcastInDim S64 ![] bcast_S_S64),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S64 ![] bcast_S_S64),
    TRef.ternary main_call3.v12 main_call3.v11 main_call3.call0.v1 main_call3.call0.v2 (fun p a b => select (broadcastInDim S64 ![] bcast_S_S64 p) a b),
    unary main_v221 main_v223 (broadcastInDim S1x64 ![1] bcast_S64_S1x64_1 : (⟨S64, .f32⟩ : BufTy).Contents (Elt F) → (⟨S1x64, .f32⟩ : BufTy).Contents (Elt F)),
    unary main_v223 main_v224 (broadcastInDim S50000x64 ![0, 1] bcast_S1x64_S50000x64_0_1 : (⟨S1x64, .f32⟩ : BufTy).Contents (Elt F) → (⟨S50000x64, .f32⟩ : BufTy).Contents (Elt F)),
    binary main_v218 main_v224 main_v225 (subf : (⟨S50000x64, .f32⟩ : BufTy).Contents (Elt F) → (⟨S50000x64, .f32⟩ : BufTy).Contents (Elt F) → (⟨S50000x64, .f32⟩ : BufTy).Contents (Elt F)),
    nullary main_cst_33 (constant S_ .f32 0x3727C5AC#32),
    unary main_cst_33 main_v226 (broadcastInDim S64 ![] bcast_S_S64 : (⟨S_, .f32⟩ : BufTy).Contents (Elt F) → (⟨S64, .f32⟩ : BufTy).Contents (Elt F)),
    binary main_v222 main_v226 main_v227 (addf : (⟨S64, .f32⟩ : BufTy).Contents (Elt F) → (⟨S64, .f32⟩ : BufTy).Contents (Elt F) → (⟨S64, .f32⟩ : BufTy).Contents (Elt F)),
    unary main_v227 main_v228 (Host.rsqrt : (⟨S64, .f32⟩ : BufTy).Contents (Elt F) → (⟨S64, .f32⟩ : BufTy).Contents (Elt F)),
    unary main_v228 main_v229 (broadcastInDim S1x64 ![1] bcast_S64_S1x64_1 : (⟨S64, .f32⟩ : BufTy).Contents (Elt F) → (⟨S1x64, .f32⟩ : BufTy).Contents (Elt F)),
    unary main_v229 main_v230 (broadcastInDim S50000x64 ![0, 1] bcast_S1x64_S50000x64_0_1 : (⟨S1x64, .f32⟩ : BufTy).Contents (Elt F) → (⟨S50000x64, .f32⟩ : BufTy).Contents (Elt F)),
    binary main_v225 main_v230 main_v231 (mulf : (⟨S50000x64, .f32⟩ : BufTy).Contents (Elt F) → (⟨S50000x64, .f32⟩ : BufTy).Contents (Elt F) → (⟨S50000x64, .f32⟩ : BufTy).Contents (Elt F)),
    unary main_arg20 main_v232 (broadcastInDim S1x64 ![1] bcast_S64_S1x64_1 : (⟨S64, .f32⟩ : BufTy).Contents (Elt F) → (⟨S1x64, .f32⟩ : BufTy).Contents (Elt F)),
    unary main_v232 main_v233 (broadcastInDim S50000x64 ![0, 1] bcast_S1x64_S50000x64_0_1 : (⟨S1x64, .f32⟩ : BufTy).Contents (Elt F) → (⟨S50000x64, .f32⟩ : BufTy).Contents (Elt F)),
    binary main_v231 main_v233 main_v234 (mulf : (⟨S50000x64, .f32⟩ : BufTy).Contents (Elt F) → (⟨S50000x64, .f32⟩ : BufTy).Contents (Elt F) → (⟨S50000x64, .f32⟩ : BufTy).Contents (Elt F)),
    unary main_arg21 main_v235 (broadcastInDim S1x64 ![1] bcast_S64_S1x64_1 : (⟨S64, .f32⟩ : BufTy).Contents (Elt F) → (⟨S1x64, .f32⟩ : BufTy).Contents (Elt F)),
    unary main_v235 main_v236 (broadcastInDim S50000x64 ![0, 1] bcast_S1x64_S50000x64_0_1 : (⟨S1x64, .f32⟩ : BufTy).Contents (Elt F) → (⟨S50000x64, .f32⟩ : BufTy).Contents (Elt F)),
    binary main_v234 main_v236 main_v237 (addf : (⟨S50000x64, .f32⟩ : BufTy).Contents (Elt F) → (⟨S50000x64, .f32⟩ : BufTy).Contents (Elt F) → (⟨S50000x64, .f32⟩ : BufTy).Contents (Elt F)),
    nullary main_cst_34 (constant S_ .f32 0xFF800000#32),
    binary main_v237 main_cst_34 main_v238 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v238 main_v239 (broadcastInDim S50000x1 ![0] bcast_S50000_S50000x1_0 : (⟨S50000, .f32⟩ : BufTy).Contents (Elt F) → (⟨S50000x1, .f32⟩ : BufTy).Contents (Elt F)),
    unary main_v239 main_v240 (broadcastInDim S50000x64 ![0, 1] bcast_S50000x1_S50000x64_0_1 : (⟨S50000x1, .f32⟩ : BufTy).Contents (Elt F) → (⟨S50000x64, .f32⟩ : BufTy).Contents (Elt F)),
    binary main_v237 main_v240 main_v241 (subf : (⟨S50000x64, .f32⟩ : BufTy).Contents (Elt F) → (⟨S50000x64, .f32⟩ : BufTy).Contents (Elt F) → (⟨S50000x64, .f32⟩ : BufTy).Contents (Elt F)),
    unary main_v241 main_v242 (Host.exp : (⟨S50000x64, .f32⟩ : BufTy).Contents (Elt F) → (⟨S50000x64, .f32⟩ : BufTy).Contents (Elt F)),
    nullary main_cst_35 (constant S_ .f32 0x00000000#32),
    binary main_v242 main_cst_35 main_v243 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v243 main_v244 (broadcastInDim S50000x1 ![0] bcast_S50000_S50000x1_0 : (⟨S50000, .f32⟩ : BufTy).Contents (Elt F) → (⟨S50000x1, .f32⟩ : BufTy).Contents (Elt F)),
    nullary main_cst_36 (constant S_ .f32 0x3F800000#32),
    unary main_cst_36 main_v245 (broadcastInDim S50000x1 ![] bcast_S_S50000x1 : (⟨S_, .f32⟩ : BufTy).Contents (Elt F) → (⟨S50000x1, .f32⟩ : BufTy).Contents (Elt F)),
    binary main_v245 main_v244 main_v246 (addf : (⟨S50000x1, .f32⟩ : BufTy).Contents (Elt F) → (⟨S50000x1, .f32⟩ : BufTy).Contents (Elt F) → (⟨S50000x1, .f32⟩ : BufTy).Contents (Elt F)),
    unary main_v246 main_v247 (broadcastInDim S50000x64 ![0, 1] bcast_S50000x1_S50000x64_0_1 : (⟨S50000x1, .f32⟩ : BufTy).Contents (Elt F) → (⟨S50000x64, .f32⟩ : BufTy).Contents (Elt F)),
    binary main_v242 main_v247 main_v248 (Host.divf : (⟨S50000x64, .f32⟩ : BufTy).Contents (Elt F) → (⟨S50000x64, .f32⟩ : BufTy).Contents (Elt F) → (⟨S50000x64, .f32⟩ : BufTy).Contents (Elt F)),
    unary main_v42 main_v249 ((transpose S64x64 [1, 0] · transposes_S64x64_S64x64_1_0) : (⟨S64x64, .f32⟩ : BufTy).Contents (Elt F) → (⟨S64x64, .f32⟩ : BufTy).Contents (Elt F)),
    binary main_v248 main_v249 main_v250 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v33 main_v251 (broadcastInDim S690000x1 ![0] bcast_S690000_S690000x1_0 : (⟨S690000, .f32⟩ : BufTy).Contents (Elt F) → (⟨S690000x1, .f32⟩ : BufTy).Contents (Elt F)),
    nullary main_c_37 (constantI S_ 32 0#32),
    unary main_c_37 main_v252 (broadcastInDim S690000 ![] bcast_S_S690000 : (⟨S_, .i32⟩ : BufTy).Contents (Elt F) → (⟨S690000, .i32⟩ : BufTy).Contents (Elt F)),
    binary main_v5 main_v252 main_v253 (cmpi .slt : (⟨S690000, .i32⟩ : BufTy).Contents (Elt F) → (⟨S690000, .i32⟩ : BufTy).Contents (Elt F) → (⟨S690000, .i1⟩ : BufTy).Contents (Elt F)),
    nullary main_c_38 (constantI S_ 32 50000#32),
    unary main_c_38 main_v254 (broadcastInDim S690000 ![] bcast_S_S690000 : (⟨S_, .i32⟩ : BufTy).Contents (Elt F) → (⟨S690000, .i32⟩ : BufTy).Contents (Elt F)),
    binary main_v5 main_v254 main_v255 (addi : (⟨S690000, .i32⟩ : BufTy).Contents (Elt F) → (⟨S690000, .i32⟩ : BufTy).Contents (Elt F) → (⟨S690000, .i32⟩ : BufTy).Contents (Elt F)),
    ternary main_v253 main_v255 main_v5 main_v256 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v256 main_v257 (broadcastInDim S690000x1 ![0] bcast_S690000_S690000x1_0 : (⟨S690000, .i32⟩ : BufTy).Contents (Elt F) → (⟨S690000x1, .i32⟩ : BufTy).Contents (Elt F)),
    binary main_v250 main_v257 main_v258 ((fun x i => Host.gather gather_S50000x64_S690000x1_S690000x64_1_0_n_n_0_1_164 x i) : (⟨S50000x64, .f32⟩ : BufTy).Contents (Elt F) → (⟨S690000x1, .i32⟩ : BufTy).Contents (Elt F) → (⟨S690000x64, .f32⟩ : BufTy).Contents (Elt F)) ]

/-- @main's operations 366 … 446 of 1102 (window `main_part5`; a call's operations are the callee's, over the call's buffers). -/
noncomputable abbrev ops_part5 : List (HloOp τ sig (Elt F)) :=
  [ unary main_v251 main_v259 (broadcastInDim S690000x64 ![0, 1] bcast_S690000x1_S690000x64_0_1 : (⟨S690000x1, .f32⟩ : BufTy).Contents (Elt F) → (⟨S690000x64, .f32⟩ : BufTy).Contents (Elt F)),
    binary main_v259 main_v258 main_v260 (mulf : (⟨S690000x64, .f32⟩ : BufTy).Contents (Elt F) → (⟨S690000x64, .f32⟩ : BufTy).Contents (Elt F) → (⟨S690000x64, .f32⟩ : BufTy).Contents (Elt F)),
    nullary main_cst_39 (constant S_ .f32 0x00000000#32),
    unary main_cst_39 main_v261 (broadcastInDim S50000x64 ![] bcast_S_S50000x64 : (⟨S_, .f32⟩ : BufTy).Contents (Elt F) → (⟨S50000x64, .f32⟩ : BufTy).Contents (Elt F)),
    unary main_v6 main_v262 (broadcastInDim S690000x1 ![0] bcast_S690000_S690000x1_0 : (⟨S690000, .i32⟩ : BufTy).Contents (Elt F) → (⟨S690000x1, .i32⟩ : BufTy).Contents (Elt F)),
    ternary main_v261 main_v262 main_v260 main_v263 ((fun x i u => Host.scatterAdd scatter_S50000x64_S690000x1_S690000x64_1_0_0_1 x i u) : (⟨S50000x64, .f32⟩ : BufTy).Contents (Elt F) → (⟨S690000x1, .i32⟩ : BufTy).Contents (Elt F) → (⟨S690000x64, .f32⟩ : BufTy).Contents (Elt F) → (⟨S50000x64, .f32⟩ : BufTy).Contents (Elt F)),
    unary main_v44 main_v264 (broadcastInDim S1x64 ![1] bcast_S64_S1x64_1 : (⟨S64, .f32⟩ : BufTy).Contents (Elt F) → (⟨S1x64, .f32⟩ : BufTy).Contents (Elt F)),
    unary main_v264 main_v265 (broadcastInDim S50000x64 ![0, 1] bcast_S1x64_S50000x64_0_1 : (⟨S1x64, .f32⟩ : BufTy).Contents (Elt F) → (⟨S50000x64, .f32⟩ : BufTy).Contents (Elt F)),
    binary main_v263 main_v265 main_v266 (addf : (⟨S50000x64, .f32⟩ : BufTy).Contents (Elt F) → (⟨S50000x64, .f32⟩ : BufTy).Contents (Elt F) → (⟨S50000x64, .f32⟩ : BufTy).Contents (Elt F)),
    binary main_v266 main_v218 main_v267 (addf : (⟨S50000x64, .f32⟩ : BufTy).Contents (Elt F) → (⟨S50000x64, .f32⟩ : BufTy).Contents (Elt F) → (⟨S50000x64, .f32⟩ : BufTy).Contents (Elt F)),
    nullary main_cst_40 (constant S_ .f32 0x00000000#32),
    binary main_v267 main_cst_40 main_v268 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_41 (constant S_ .f32 0x47435000#32),
    unary main_cst_41 main_v269 (broadcastInDim S64 ![] bcast_S_S64 : (⟨S_, .f32⟩ : BufTy).Contents (Elt F) → (⟨S64, .f32⟩ : BufTy).Contents (Elt F)),
    binary main_v268 main_v269 main_v270 (Host.divf : (⟨S64, .f32⟩ : BufTy).Contents (Elt F) → (⟨S64, .f32⟩ : BufTy).Contents (Elt F) → (⟨S64, .f32⟩ : BufTy).Contents (Elt F)),
    nullary main_c_42 (constantI S_ 32 0#32),
    TRef.nullary main_call4.cst (constant S_ .f32 0x00000000#32),
    TRef.binary (TRef.of main_v267 : TRef sig ⟨S50000x64, .f32⟩) main_call4.cst main_call4.v0 (fun x v => Host.reduceAdd x v reducesTo_S50000x64_S64_d0 h_S_),
    TRef.unary main_call4.v0 main_call4.v1 (broadcastInDim S1x64 ![1] bcast_S64_S1x64_1),
    TRef.nullary main_call4.cst_0 (constant S_ .f32 0x47435000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S50000x64 ![0, 1] bcast_S1x64_S50000x64_0_1),
    TRef.binary (TRef.of main_v267 : TRef sig ⟨S50000x64, .f32⟩) main_call4.v4 main_call4.v5 subf,
    TRef.binary main_call4.v5 main_call4.v5 main_call4.v6 mulf,
    TRef.unary (TRef.of main_c_42 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v270 main_v272 (broadcastInDim S1x64 ![1] bcast_S64_S1x64_1 : (⟨S64, .f32⟩ : BufTy).Contents (Elt F) → (⟨S1x64, .f32⟩ : BufTy).Contents (Elt F)),
    unary main_v272 main_v273 (broadcastInDim S50000x64 ![0, 1] bcast_S1x64_S50000x64_0_1 : (⟨S1x64, .f32⟩ : BufTy).Contents (Elt F) → (⟨S50000x64, .f32⟩ : BufTy).Contents (Elt F)),
    binary main_v267 main_v273 main_v274 (subf : (⟨S50000x64, .f32⟩ : BufTy).Contents (Elt F) → (⟨S50000x64, .f32⟩ : BufTy).Contents (Elt F) → (⟨S50000x64, .f32⟩ : BufTy).Contents (Elt F)),
    nullary main_cst_43 (constant S_ .f32 0x3727C5AC#32),
    unary main_cst_43 main_v275 (broadcastInDim S64 ![] bcast_S_S64 : (⟨S_, .f32⟩ : BufTy).Contents (Elt F) → (⟨S64, .f32⟩ : BufTy).Contents (Elt F)),
    binary main_v271 main_v275 main_v276 (addf : (⟨S64, .f32⟩ : BufTy).Contents (Elt F) → (⟨S64, .f32⟩ : BufTy).Contents (Elt F) → (⟨S64, .f32⟩ : BufTy).Contents (Elt F)),
    unary main_v276 main_v277 (Host.rsqrt : (⟨S64, .f32⟩ : BufTy).Contents (Elt F) → (⟨S64, .f32⟩ : BufTy).Contents (Elt F)),
    unary main_v277 main_v278 (broadcastInDim S1x64 ![1] bcast_S64_S1x64_1 : (⟨S64, .f32⟩ : BufTy).Contents (Elt F) → (⟨S1x64, .f32⟩ : BufTy).Contents (Elt F)),
    unary main_v278 main_v279 (broadcastInDim S50000x64 ![0, 1] bcast_S1x64_S50000x64_0_1 : (⟨S1x64, .f32⟩ : BufTy).Contents (Elt F) → (⟨S50000x64, .f32⟩ : BufTy).Contents (Elt F)),
    binary main_v274 main_v279 main_v280 (mulf : (⟨S50000x64, .f32⟩ : BufTy).Contents (Elt F) → (⟨S50000x64, .f32⟩ : BufTy).Contents (Elt F) → (⟨S50000x64, .f32⟩ : BufTy).Contents (Elt F)),
    unary main_v74 main_v281 (broadcastInDim S1x64 ![1] bcast_S64_S1x64_1 : (⟨S64, .f32⟩ : BufTy).Contents (Elt F) → (⟨S1x64, .f32⟩ : BufTy).Contents (Elt F)),
    unary main_v281 main_v282 (broadcastInDim S50000x64 ![0, 1] bcast_S1x64_S50000x64_0_1 : (⟨S1x64, .f32⟩ : BufTy).Contents (Elt F) → (⟨S50000x64, .f32⟩ : BufTy).Contents (Elt F)),
    binary main_v280 main_v282 main_v283 (mulf : (⟨S50000x64, .f32⟩ : BufTy).Contents (Elt F) → (⟨S50000x64, .f32⟩ : BufTy).Contents (Elt F) → (⟨S50000x64, .f32⟩ : BufTy).Contents (Elt F)),
    unary main_v76 main_v284 (broadcastInDim S1x64 ![1] bcast_S64_S1x64_1 : (⟨S64, .f32⟩ : BufTy).Contents (Elt F) → (⟨S1x64, .f32⟩ : BufTy).Contents (Elt F)),
    unary main_v284 main_v285 (broadcastInDim S50000x64 ![0, 1] bcast_S1x64_S50000x64_0_1 : (⟨S1x64, .f32⟩ : BufTy).Contents (Elt F) → (⟨S50000x64, .f32⟩ : BufTy).Contents (Elt F)),
    binary main_v283 main_v285 main_v286 (addf : (⟨S50000x64, .f32⟩ : BufTy).Contents (Elt F) → (⟨S50000x64, .f32⟩ : BufTy).Contents (Elt F) → (⟨S50000x64, .f32⟩ : BufTy).Contents (Elt F)),
    nullary main_cst_44 (constant S_ .f32 0xFF800000#32),
    binary main_v286 main_cst_44 main_v287 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v287 main_v288 (broadcastInDim S50000x1 ![0] bcast_S50000_S50000x1_0 : (⟨S50000, .f32⟩ : BufTy).Contents (Elt F) → (⟨S50000x1, .f32⟩ : BufTy).Contents (Elt F)),
    unary main_v288 main_v289 (broadcastInDim S50000x64 ![0, 1] bcast_S50000x1_S50000x64_0_1 : (⟨S50000x1, .f32⟩ : BufTy).Contents (Elt F) → (⟨S50000x64, .f32⟩ : BufTy).Contents (Elt F)),
    binary main_v286 main_v289 main_v290 (subf : (⟨S50000x64, .f32⟩ : BufTy).Contents (Elt F) → (⟨S50000x64, .f32⟩ : BufTy).Contents (Elt F) → (⟨S50000x64, .f32⟩ : BufTy).Contents (Elt F)),
    unary main_v290 main_v291 (Host.exp : (⟨S50000x64, .f32⟩ : BufTy).Contents (Elt F) → (⟨S50000x64, .f32⟩ : BufTy).Contents (Elt F)),
    nullary main_cst_45 (constant S_ .f32 0x00000000#32),
    binary main_v291 main_cst_45 main_v292 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v292 main_v293 (broadcastInDim S50000x1 ![0] bcast_S50000_S50000x1_0 : (⟨S50000, .f32⟩ : BufTy).Contents (Elt F) → (⟨S50000x1, .f32⟩ : BufTy).Contents (Elt F)),
    nullary main_cst_46 (constant S_ .f32 0x3F800000#32),
    unary main_cst_46 main_v294 (broadcastInDim S50000x1 ![] bcast_S_S50000x1 : (⟨S_, .f32⟩ : BufTy).Contents (Elt F) → (⟨S50000x1, .f32⟩ : BufTy).Contents (Elt F)),
    binary main_v294 main_v293 main_v295 (addf : (⟨S50000x1, .f32⟩ : BufTy).Contents (Elt F) → (⟨S50000x1, .f32⟩ : BufTy).Contents (Elt F) → (⟨S50000x1, .f32⟩ : BufTy).Contents (Elt F)),
    unary main_v295 main_v296 (broadcastInDim S50000x64 ![0, 1] bcast_S50000x1_S50000x64_0_1 : (⟨S50000x1, .f32⟩ : BufTy).Contents (Elt F) → (⟨S50000x64, .f32⟩ : BufTy).Contents (Elt F)),
    binary main_v291 main_v296 main_v297 (Host.divf : (⟨S50000x64, .f32⟩ : BufTy).Contents (Elt F) → (⟨S50000x64, .f32⟩ : BufTy).Contents (Elt F) → (⟨S50000x64, .f32⟩ : BufTy).Contents (Elt F)),
    unary main_v46 main_v298 ((transpose S64x64 [1, 0] · transposes_S64x64_S64x64_1_0) : (⟨S64x64, .f32⟩ : BufTy).Contents (Elt F) → (⟨S64x64, .f32⟩ : BufTy).Contents (Elt F)),
    binary main_v297 main_v298 main_v299 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v33 main_v300 (broadcastInDim S690000x1 ![0] bcast_S690000_S690000x1_0 : (⟨S690000, .f32⟩ : BufTy).Contents (Elt F) → (⟨S690000x1, .f32⟩ : BufTy).Contents (Elt F)),
    nullary main_c_47 (constantI S_ 32 0#32),
    unary main_c_47 main_v301 (broadcastInDim S690000 ![] bcast_S_S690000 : (⟨S_, .i32⟩ : BufTy).Contents (Elt F) → (⟨S690000, .i32⟩ : BufTy).Contents (Elt F)),
    binary main_v5 main_v301 main_v302 (cmpi .slt : (⟨S690000, .i32⟩ : BufTy).Contents (Elt F) → (⟨S690000, .i32⟩ : BufTy).Contents (Elt F) → (⟨S690000, .i1⟩ : BufTy).Contents (Elt F)),
    nullary main_c_48 (constantI S_ 32 50000#32),
    unary main_c_48 main_v303 (broadcastInDim S690000 ![] bcast_S_S690000 : (⟨S_, .i32⟩ : BufTy).Contents (Elt F) → (⟨S690000, .i32⟩ : BufTy).Contents (Elt F)),
    binary main_v5 main_v303 main_v304 (addi : (⟨S690000, .i32⟩ : BufTy).Contents (Elt F) → (⟨S690000, .i32⟩ : BufTy).Contents (Elt F) → (⟨S690000, .i32⟩ : BufTy).Contents (Elt F)),
    ternary main_v302 main_v304 main_v5 main_v305 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v305 main_v306 (broadcastInDim S690000x1 ![0] bcast_S690000_S690000x1_0 : (⟨S690000, .i32⟩ : BufTy).Contents (Elt F) → (⟨S690000x1, .i32⟩ : BufTy).Contents (Elt F)),
    binary main_v299 main_v306 main_v307 ((fun x i => Host.gather gather_S50000x64_S690000x1_S690000x64_1_0_n_n_0_1_164 x i) : (⟨S50000x64, .f32⟩ : BufTy).Contents (Elt F) → (⟨S690000x1, .i32⟩ : BufTy).Contents (Elt F) → (⟨S690000x64, .f32⟩ : BufTy).Contents (Elt F)),
    unary main_v300 main_v308 (broadcastInDim S690000x64 ![0, 1] bcast_S690000x1_S690000x64_0_1 : (⟨S690000x1, .f32⟩ : BufTy).Contents (Elt F) → (⟨S690000x64, .f32⟩ : BufTy).Contents (Elt F)) ]

/-- @main's operations 447 … 527 of 1102 (window `main_part6`; a call's operations are the callee's, over the call's buffers). -/
noncomputable abbrev ops_part6 : List (HloOp τ sig (Elt F)) :=
  [ binary main_v308 main_v307 main_v309 (mulf : (⟨S690000x64, .f32⟩ : BufTy).Contents (Elt F) → (⟨S690000x64, .f32⟩ : BufTy).Contents (Elt F) → (⟨S690000x64, .f32⟩ : BufTy).Contents (Elt F)),
    nullary main_cst_49 (constant S_ .f32 0x00000000#32),
    unary main_cst_49 main_v310 (broadcastInDim S50000x64 ![] bcast_S_S50000x64 : (⟨S_, .f32⟩ : BufTy).Contents (Elt F) → (⟨S50000x64, .f32⟩ : BufTy).Contents (Elt F)),
    unary main_v6 main_v311 (broadcastInDim S690000x1 ![0] bcast_S690000_S690000x1_0 : (⟨S690000, .i32⟩ : BufTy).Contents (Elt F) → (⟨S690000x1, .i32⟩ : BufTy).Contents (Elt F)),
    ternary main_v310 main_v311 main_v309 main_v312 ((fun x i u => Host.scatterAdd scatter_S50000x64_S690000x1_S690000x64_1_0_0_1 x i u) : (⟨S50000x64, .f32⟩ : BufTy).Contents (Elt F) → (⟨S690000x1, .i32⟩ : BufTy).Contents (Elt F) → (⟨S690000x64, .f32⟩ : BufTy).Contents (Elt F) → (⟨S50000x64, .f32⟩ : BufTy).Contents (Elt F)),
    unary main_v48 main_v313 (broadcastInDim S1x64 ![1] bcast_S64_S1x64_1 : (⟨S64, .f32⟩ : BufTy).Contents (Elt F) → (⟨S1x64, .f32⟩ : BufTy).Contents (Elt F)),
    unary main_v313 main_v314 (broadcastInDim S50000x64 ![0, 1] bcast_S1x64_S50000x64_0_1 : (⟨S1x64, .f32⟩ : BufTy).Contents (Elt F) → (⟨S50000x64, .f32⟩ : BufTy).Contents (Elt F)),
    binary main_v312 main_v314 main_v315 (addf : (⟨S50000x64, .f32⟩ : BufTy).Contents (Elt F) → (⟨S50000x64, .f32⟩ : BufTy).Contents (Elt F) → (⟨S50000x64, .f32⟩ : BufTy).Contents (Elt F)),
    binary main_v315 main_v218 main_v316 (addf : (⟨S50000x64, .f32⟩ : BufTy).Contents (Elt F) → (⟨S50000x64, .f32⟩ : BufTy).Contents (Elt F) → (⟨S50000x64, .f32⟩ : BufTy).Contents (Elt F)),
    binary main_v316 main_v266 main_v317 (addf : (⟨S50000x64, .f32⟩ : BufTy).Contents (Elt F) → (⟨S50000x64, .f32⟩ : BufTy).Contents (Elt F) → (⟨S50000x64, .f32⟩ : BufTy).Contents (Elt F)),
    nullary main_cst_50 (constant S_ .f32 0x00000000#32),
    binary main_v317 main_cst_50 main_v318 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_51 (constant S_ .f32 0x47435000#32),
    unary main_cst_51 main_v319 (broadcastInDim S64 ![] bcast_S_S64 : (⟨S_, .f32⟩ : BufTy).Contents (Elt F) → (⟨S64, .f32⟩ : BufTy).Contents (Elt F)),
    binary main_v318 main_v319 main_v320 (Host.divf : (⟨S64, .f32⟩ : BufTy).Contents (Elt F) → (⟨S64, .f32⟩ : BufTy).Contents (Elt F) → (⟨S64, .f32⟩ : BufTy).Contents (Elt F)),
    nullary main_c_52 (constantI S_ 32 0#32),
    TRef.nullary main_call5.cst (constant S_ .f32 0x00000000#32),
    TRef.binary (TRef.of main_v317 : TRef sig ⟨S50000x64, .f32⟩) main_call5.cst main_call5.v0 (fun x v => Host.reduceAdd x v reducesTo_S50000x64_S64_d0 h_S_),
    TRef.unary main_call5.v0 main_call5.v1 (broadcastInDim S1x64 ![1] bcast_S64_S1x64_1),
    TRef.nullary main_call5.cst_0 (constant S_ .f32 0x47435000#32),
    TRef.unary main_call5.cst_0 main_call5.v2 (broadcastInDim S1x64 ![] bcast_S_S1x64),
    TRef.binary main_call5.v1 main_call5.v2 main_call5.v3 Host.divf,
    TRef.unary main_call5.v3 main_call5.v4 (broadcastInDim S50000x64 ![0, 1] bcast_S1x64_S50000x64_0_1),
    TRef.binary (TRef.of main_v317 : TRef sig ⟨S50000x64, .f32⟩) main_call5.v4 main_call5.v5 subf,
    TRef.binary main_call5.v5 main_call5.v5 main_call5.v6 mulf,
    TRef.unary (TRef.of main_c_52 : TRef sig ⟨S_, .i32⟩) main_call5.v7 (sitofp .f32),
    TRef.nullary main_call5.cst_1 (constant S_ .f32 0x47435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x64_S64_d0 h_S_),
    TRef.unary main_call5.v8 main_call5.v10 (broadcastInDim S64 ![] bcast_S_S64),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S64 ![] bcast_S_S64),
    TRef.ternary main_call5.v12 main_call5.v11 main_call5.call0.v1 main_call5.call0.v2 (fun p a b => select (broadcastInDim S64 ![] bcast_S_S64 p) a b),
    unary main_v320 main_v322 (broadcastInDim S1x64 ![1] bcast_S64_S1x64_1 : (⟨S64, .f32⟩ : BufTy).Contents (Elt F) → (⟨S1x64, .f32⟩ : BufTy).Contents (Elt F)),
    unary main_v322 main_v323 (broadcastInDim S50000x64 ![0, 1] bcast_S1x64_S50000x64_0_1 : (⟨S1x64, .f32⟩ : BufTy).Contents (Elt F) → (⟨S50000x64, .f32⟩ : BufTy).Contents (Elt F)),
    binary main_v317 main_v323 main_v324 (subf : (⟨S50000x64, .f32⟩ : BufTy).Contents (Elt F) → (⟨S50000x64, .f32⟩ : BufTy).Contents (Elt F) → (⟨S50000x64, .f32⟩ : BufTy).Contents (Elt F)),
    nullary main_cst_53 (constant S_ .f32 0x3727C5AC#32),
    unary main_cst_53 main_v325 (broadcastInDim S64 ![] bcast_S_S64 : (⟨S_, .f32⟩ : BufTy).Contents (Elt F) → (⟨S64, .f32⟩ : BufTy).Contents (Elt F)),
    binary main_v321 main_v325 main_v326 (addf : (⟨S64, .f32⟩ : BufTy).Contents (Elt F) → (⟨S64, .f32⟩ : BufTy).Contents (Elt F) → (⟨S64, .f32⟩ : BufTy).Contents (Elt F)),
    unary main_v326 main_v327 (Host.rsqrt : (⟨S64, .f32⟩ : BufTy).Contents (Elt F) → (⟨S64, .f32⟩ : BufTy).Contents (Elt F)),
    unary main_v327 main_v328 (broadcastInDim S1x64 ![1] bcast_S64_S1x64_1 : (⟨S64, .f32⟩ : BufTy).Contents (Elt F) → (⟨S1x64, .f32⟩ : BufTy).Contents (Elt F)),
    unary main_v328 main_v329 (broadcastInDim S50000x64 ![0, 1] bcast_S1x64_S50000x64_0_1 : (⟨S1x64, .f32⟩ : BufTy).Contents (Elt F) → (⟨S50000x64, .f32⟩ : BufTy).Contents (Elt F)),
    binary main_v324 main_v329 main_v330 (mulf : (⟨S50000x64, .f32⟩ : BufTy).Contents (Elt F) → (⟨S50000x64, .f32⟩ : BufTy).Contents (Elt F) → (⟨S50000x64, .f32⟩ : BufTy).Contents (Elt F)),
    unary main_v78 main_v331 (broadcastInDim S1x64 ![1] bcast_S64_S1x64_1 : (⟨S64, .f32⟩ : BufTy).Contents (Elt F) → (⟨S1x64, .f32⟩ : BufTy).Contents (Elt F)),
    unary main_v331 main_v332 (broadcastInDim S50000x64 ![0, 1] bcast_S1x64_S50000x64_0_1 : (⟨S1x64, .f32⟩ : BufTy).Contents (Elt F) → (⟨S50000x64, .f32⟩ : BufTy).Contents (Elt F)),
    binary main_v330 main_v332 main_v333 (mulf : (⟨S50000x64, .f32⟩ : BufTy).Contents (Elt F) → (⟨S50000x64, .f32⟩ : BufTy).Contents (Elt F) → (⟨S50000x64, .f32⟩ : BufTy).Contents (Elt F)),
    unary main_v80 main_v334 (broadcastInDim S1x64 ![1] bcast_S64_S1x64_1 : (⟨S64, .f32⟩ : BufTy).Contents (Elt F) → (⟨S1x64, .f32⟩ : BufTy).Contents (Elt F)),
    unary main_v334 main_v335 (broadcastInDim S50000x64 ![0, 1] bcast_S1x64_S50000x64_0_1 : (⟨S1x64, .f32⟩ : BufTy).Contents (Elt F) → (⟨S50000x64, .f32⟩ : BufTy).Contents (Elt F)),
    binary main_v333 main_v335 main_v336 (addf : (⟨S50000x64, .f32⟩ : BufTy).Contents (Elt F) → (⟨S50000x64, .f32⟩ : BufTy).Contents (Elt F) → (⟨S50000x64, .f32⟩ : BufTy).Contents (Elt F)),
    nullary main_cst_54 (constant S_ .f32 0xFF800000#32),
    binary main_v336 main_cst_54 main_v337 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v337 main_v338 (broadcastInDim S50000x1 ![0] bcast_S50000_S50000x1_0 : (⟨S50000, .f32⟩ : BufTy).Contents (Elt F) → (⟨S50000x1, .f32⟩ : BufTy).Contents (Elt F)),
    unary main_v338 main_v339 (broadcastInDim S50000x64 ![0, 1] bcast_S50000x1_S50000x64_0_1 : (⟨S50000x1, .f32⟩ : BufTy).Contents (Elt F) → (⟨S50000x64, .f32⟩ : BufTy).Contents (Elt F)),
    binary main_v336 main_v339 main_v340 (subf : (⟨S50000x64, .f32⟩ : BufTy).Contents (Elt F) → (⟨S50000x64, .f32⟩ : BufTy).Contents (Elt F) → (⟨S50000x64, .f32⟩ : BufTy).Contents (Elt F)),
    unary main_v340 main_v341 (Host.exp : (⟨S50000x64, .f32⟩ : BufTy).Contents (Elt F) → (⟨S50000x64, .f32⟩ : BufTy).Contents (Elt F)),
    nullary main_cst_55 (constant S_ .f32 0x00000000#32),
    binary main_v341 main_cst_55 main_v342 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v342 main_v343 (broadcastInDim S50000x1 ![0] bcast_S50000_S50000x1_0 : (⟨S50000, .f32⟩ : BufTy).Contents (Elt F) → (⟨S50000x1, .f32⟩ : BufTy).Contents (Elt F)),
    nullary main_cst_56 (constant S_ .f32 0x3F800000#32),
    unary main_cst_56 main_v344 (broadcastInDim S50000x1 ![] bcast_S_S50000x1 : (⟨S_, .f32⟩ : BufTy).Contents (Elt F) → (⟨S50000x1, .f32⟩ : BufTy).Contents (Elt F)),
    binary main_v344 main_v343 main_v345 (addf : (⟨S50000x1, .f32⟩ : BufTy).Contents (Elt F) → (⟨S50000x1, .f32⟩ : BufTy).Contents (Elt F) → (⟨S50000x1, .f32⟩ : BufTy).Contents (Elt F)),
    unary main_v345 main_v346 (broadcastInDim S50000x64 ![0, 1] bcast_S50000x1_S50000x64_0_1 : (⟨S50000x1, .f32⟩ : BufTy).Contents (Elt F) → (⟨S50000x64, .f32⟩ : BufTy).Contents (Elt F)),
    binary main_v341 main_v346 main_v347 (Host.divf : (⟨S50000x64, .f32⟩ : BufTy).Contents (Elt F) → (⟨S50000x64, .f32⟩ : BufTy).Contents (Elt F) → (⟨S50000x64, .f32⟩ : BufTy).Contents (Elt F)),
    unary main_v50 main_v348 ((transpose S64x64 [1, 0] · transposes_S64x64_S64x64_1_0) : (⟨S64x64, .f32⟩ : BufTy).Contents (Elt F) → (⟨S64x64, .f32⟩ : BufTy).Contents (Elt F)),
    binary main_v347 main_v348 main_v349 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v33 main_v350 (broadcastInDim S690000x1 ![0] bcast_S690000_S690000x1_0 : (⟨S690000, .f32⟩ : BufTy).Contents (Elt F) → (⟨S690000x1, .f32⟩ : BufTy).Contents (Elt F)),
    nullary main_c_57 (constantI S_ 32 0#32),
    unary main_c_57 main_v351 (broadcastInDim S690000 ![] bcast_S_S690000 : (⟨S_, .i32⟩ : BufTy).Contents (Elt F) → (⟨S690000, .i32⟩ : BufTy).Contents (Elt F)),
    binary main_v5 main_v351 main_v352 (cmpi .slt : (⟨S690000, .i32⟩ : BufTy).Contents (Elt F) → (⟨S690000, .i32⟩ : BufTy).Contents (Elt F) → (⟨S690000, .i1⟩ : BufTy).Contents (Elt F)),
    nullary main_c_58 (constantI S_ 32 50000#32),
    unary main_c_58 main_v353 (broadcastInDim S690000 ![] bcast_S_S690000 : (⟨S_, .i32⟩ : BufTy).Contents (Elt F) → (⟨S690000, .i32⟩ : BufTy).Contents (Elt F)),
    binary main_v5 main_v353 main_v354 (addi : (⟨S690000, .i32⟩ : BufTy).Contents (Elt F) → (⟨S690000, .i32⟩ : BufTy).Contents (Elt F) → (⟨S690000, .i32⟩ : BufTy).Contents (Elt F)),
    ternary main_v352 main_v354 main_v5 main_v355 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v355 main_v356 (broadcastInDim S690000x1 ![0] bcast_S690000_S690000x1_0 : (⟨S690000, .i32⟩ : BufTy).Contents (Elt F) → (⟨S690000x1, .i32⟩ : BufTy).Contents (Elt F)),
    binary main_v349 main_v356 main_v357 ((fun x i => Host.gather gather_S50000x64_S690000x1_S690000x64_1_0_n_n_0_1_164 x i) : (⟨S50000x64, .f32⟩ : BufTy).Contents (Elt F) → (⟨S690000x1, .i32⟩ : BufTy).Contents (Elt F) → (⟨S690000x64, .f32⟩ : BufTy).Contents (Elt F)),
    unary main_v350 main_v358 (broadcastInDim S690000x64 ![0, 1] bcast_S690000x1_S690000x64_0_1 : (⟨S690000x1, .f32⟩ : BufTy).Contents (Elt F) → (⟨S690000x64, .f32⟩ : BufTy).Contents (Elt F)) ]

/-- @main's operations 528 … 608 of 1102 (window `main_part7`; a call's operations are the callee's, over the call's buffers). -/
noncomputable abbrev ops_part7 : List (HloOp τ sig (Elt F)) :=
  [ binary main_v358 main_v357 main_v359 (mulf : (⟨S690000x64, .f32⟩ : BufTy).Contents (Elt F) → (⟨S690000x64, .f32⟩ : BufTy).Contents (Elt F) → (⟨S690000x64, .f32⟩ : BufTy).Contents (Elt F)),
    nullary main_cst_59 (constant S_ .f32 0x00000000#32),
    unary main_cst_59 main_v360 (broadcastInDim S50000x64 ![] bcast_S_S50000x64 : (⟨S_, .f32⟩ : BufTy).Contents (Elt F) → (⟨S50000x64, .f32⟩ : BufTy).Contents (Elt F)),
    unary main_v6 main_v361 (broadcastInDim S690000x1 ![0] bcast_S690000_S690000x1_0 : (⟨S690000, .i32⟩ : BufTy).Contents (Elt F) → (⟨S690000x1, .i32⟩ : BufTy).Contents (Elt F)),
    ternary main_v360 main_v361 main_v359 main_v362 ((fun x i u => Host.scatterAdd scatter_S50000x64_S690000x1_S690000x64_1_0_0_1 x i u) : (⟨S50000x64, .f32⟩ : BufTy).Contents (Elt F) → (⟨S690000x1, .i32⟩ : BufTy).Contents (Elt F) → (⟨S690000x64, .f32⟩ : BufTy).Contents (Elt F) → (⟨S50000x64, .f32⟩ : BufTy).Contents (Elt F)),
    unary main_v52 main_v363 (broadcastInDim S1x64 ![1] bcast_S64_S1x64_1 : (⟨S64, .f32⟩ : BufTy).Contents (Elt F) → (⟨S1x64, .f32⟩ : BufTy).Contents (Elt F)),
    unary main_v363 main_v364 (broadcastInDim S50000x64 ![0, 1] bcast_S1x64_S50000x64_0_1 : (⟨S1x64, .f32⟩ : BufTy).Contents (Elt F) → (⟨S50000x64, .f32⟩ : BufTy).Contents (Elt F)),
    binary main_v362 main_v364 main_v365 (addf : (⟨S50000x64, .f32⟩ : BufTy).Contents (Elt F) → (⟨S50000x64, .f32⟩ : BufTy).Contents (Elt F) → (⟨S50000x64, .f32⟩ : BufTy).Contents (Elt F)),
    binary main_v365 main_v218 main_v366 (addf : (⟨S50000x64, .f32⟩ : BufTy).Contents (Elt F) → (⟨S50000x64, .f32⟩ : BufTy).Contents (Elt F) → (⟨S50000x64, .f32⟩ : BufTy).Contents (Elt F)),
    binary main_v366 main_v266 main_v367 (addf : (⟨S50000x64, .f32⟩ : BufTy).Contents (Elt F) → (⟨S50000x64, .f32⟩ : BufTy).Contents (Elt F) → (⟨S50000x64, .f32⟩ : BufTy).Contents (Elt F)),
    binary main_v367 main_v315 main_v368 (addf : (⟨S50000x64, .f32⟩ : BufTy).Contents (Elt F) → (⟨S50000x64, .f32⟩ : BufTy).Contents (Elt F) → (⟨S50000x64, .f32⟩ : BufTy).Contents (Elt F)),
    nullary main_cst_60 (constant S_ .f32 0x00000000#32),
    binary main_v368 main_cst_60 main_v369 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_61 (constant S_ .f32 0x47435000#32),
    unary main_cst_61 main_v370 (broadcastInDim S64 ![] bcast_S_S64 : (⟨S_, .f32⟩ : BufTy).Contents (Elt F) → (⟨S64, .f32⟩ : BufTy).Contents (Elt F)),
    binary main_v369 main_v370 main_v371 (Host.divf : (⟨S64, .f32⟩ : BufTy).Contents (Elt F) → (⟨S64, .f32⟩ : BufTy).Contents (Elt F) → (⟨S64, .f32⟩ : BufTy).Contents (Elt F)),
    nullary main_c_62 (constantI S_ 32 0#32),
    TRef.nullary main_call6.cst (constant S_ .f32 0x00000000#32),
    TRef.binary (TRef.of main_v368 : TRef sig ⟨S50000x64, .f32⟩) main_call6.cst main_call6.v0 (fun x v => Host.reduceAdd x v reducesTo_S50000x64_S64_d0 h_S_),
    TRef.unary main_call6.v0 main_call6.v1 (broadcastInDim S1x64 ![1] bcast_S64_S1x64_1),
    TRef.nullary main_call6.cst_0 (constant S_ .f32 0x47435000#32),
    TRef.unary main_call6.cst_0 main_call6.v2 (broadcastInDim S1x64 ![] bcast_S_S1x64),
    TRef.binary main_call6.v1 main_call6.v2 main_call6.v3 Host.divf,
    TRef.unary main_call6.v3 main_call6.v4 (broadcastInDim S50000x64 ![0, 1] bcast_S1x64_S50000x64_0_1),
    TRef.binary (TRef.of main_v368 : TRef sig ⟨S50000x64, .f32⟩) main_call6.v4 main_call6.v5 subf,
    TRef.binary main_call6.v5 main_call6.v5 main_call6.v6 mulf,
    TRef.unary (TRef.of main_c_62 : TRef sig ⟨S_, .i32⟩) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x64_S64_d0 h_S_),
    TRef.unary main_call6.v8 main_call6.v10 (broadcastInDim S64 ![] bcast_S_S64),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S64 ![] bcast_S_S64),
    TRef.ternary main_call6.v12 main_call6.v11 main_call6.call0.v1 main_call6.call0.v2 (fun p a b => select (broadcastInDim S64 ![] bcast_S_S64 p) a b),
    unary main_v371 main_v373 (broadcastInDim S1x64 ![1] bcast_S64_S1x64_1 : (⟨S64, .f32⟩ : BufTy).Contents (Elt F) → (⟨S1x64, .f32⟩ : BufTy).Contents (Elt F)),
    unary main_v373 main_v374 (broadcastInDim S50000x64 ![0, 1] bcast_S1x64_S50000x64_0_1 : (⟨S1x64, .f32⟩ : BufTy).Contents (Elt F) → (⟨S50000x64, .f32⟩ : BufTy).Contents (Elt F)),
    binary main_v368 main_v374 main_v375 (subf : (⟨S50000x64, .f32⟩ : BufTy).Contents (Elt F) → (⟨S50000x64, .f32⟩ : BufTy).Contents (Elt F) → (⟨S50000x64, .f32⟩ : BufTy).Contents (Elt F)),
    nullary main_cst_63 (constant S_ .f32 0x3727C5AC#32),
    unary main_cst_63 main_v376 (broadcastInDim S64 ![] bcast_S_S64 : (⟨S_, .f32⟩ : BufTy).Contents (Elt F) → (⟨S64, .f32⟩ : BufTy).Contents (Elt F)),
    binary main_v372 main_v376 main_v377 (addf : (⟨S64, .f32⟩ : BufTy).Contents (Elt F) → (⟨S64, .f32⟩ : BufTy).Contents (Elt F) → (⟨S64, .f32⟩ : BufTy).Contents (Elt F)),
    unary main_v377 main_v378 (Host.rsqrt : (⟨S64, .f32⟩ : BufTy).Contents (Elt F) → (⟨S64, .f32⟩ : BufTy).Contents (Elt F)),
    unary main_v378 main_v379 (broadcastInDim S1x64 ![1] bcast_S64_S1x64_1 : (⟨S64, .f32⟩ : BufTy).Contents (Elt F) → (⟨S1x64, .f32⟩ : BufTy).Contents (Elt F)),
    unary main_v379 main_v380 (broadcastInDim S50000x64 ![0, 1] bcast_S1x64_S50000x64_0_1 : (⟨S1x64, .f32⟩ : BufTy).Contents (Elt F) → (⟨S50000x64, .f32⟩ : BufTy).Contents (Elt F)),
    binary main_v375 main_v380 main_v381 (mulf : (⟨S50000x64, .f32⟩ : BufTy).Contents (Elt F) → (⟨S50000x64, .f32⟩ : BufTy).Contents (Elt F) → (⟨S50000x64, .f32⟩ : BufTy).Contents (Elt F)),
    unary main_v82 main_v382 (broadcastInDim S1x64 ![1] bcast_S64_S1x64_1 : (⟨S64, .f32⟩ : BufTy).Contents (Elt F) → (⟨S1x64, .f32⟩ : BufTy).Contents (Elt F)),
    unary main_v382 main_v383 (broadcastInDim S50000x64 ![0, 1] bcast_S1x64_S50000x64_0_1 : (⟨S1x64, .f32⟩ : BufTy).Contents (Elt F) → (⟨S50000x64, .f32⟩ : BufTy).Contents (Elt F)),
    binary main_v381 main_v383 main_v384 (mulf : (⟨S50000x64, .f32⟩ : BufTy).Contents (Elt F) → (⟨S50000x64, .f32⟩ : BufTy).Contents (Elt F) → (⟨S50000x64, .f32⟩ : BufTy).Contents (Elt F)),
    unary main_v84 main_v385 (broadcastInDim S1x64 ![1] bcast_S64_S1x64_1 : (⟨S64, .f32⟩ : BufTy).Contents (Elt F) → (⟨S1x64, .f32⟩ : BufTy).Contents (Elt F)),
    unary main_v385 main_v386 (broadcastInDim S50000x64 ![0, 1] bcast_S1x64_S50000x64_0_1 : (⟨S1x64, .f32⟩ : BufTy).Contents (Elt F) → (⟨S50000x64, .f32⟩ : BufTy).Contents (Elt F)),
    binary main_v384 main_v386 main_v387 (addf : (⟨S50000x64, .f32⟩ : BufTy).Contents (Elt F) → (⟨S50000x64, .f32⟩ : BufTy).Contents (Elt F) → (⟨S50000x64, .f32⟩ : BufTy).Contents (Elt F)),
    nullary main_cst_64 (constant S_ .f32 0xFF800000#32),
    binary main_v387 main_cst_64 main_v388 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v388 main_v389 (broadcastInDim S50000x1 ![0] bcast_S50000_S50000x1_0 : (⟨S50000, .f32⟩ : BufTy).Contents (Elt F) → (⟨S50000x1, .f32⟩ : BufTy).Contents (Elt F)),
    unary main_v389 main_v390 (broadcastInDim S50000x64 ![0, 1] bcast_S50000x1_S50000x64_0_1 : (⟨S50000x1, .f32⟩ : BufTy).Contents (Elt F) → (⟨S50000x64, .f32⟩ : BufTy).Contents (Elt F)),
    binary main_v387 main_v390 main_v391 (subf : (⟨S50000x64, .f32⟩ : BufTy).Contents (Elt F) → (⟨S50000x64, .f32⟩ : BufTy).Contents (Elt F) → (⟨S50000x64, .f32⟩ : BufTy).Contents (Elt F)),
    unary main_v391 main_v392 (Host.exp : (⟨S50000x64, .f32⟩ : BufTy).Contents (Elt F) → (⟨S50000x64, .f32⟩ : BufTy).Contents (Elt F)),
    nullary main_cst_65 (constant S_ .f32 0x00000000#32),
    binary main_v392 main_cst_65 main_v393 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v393 main_v394 (broadcastInDim S50000x1 ![0] bcast_S50000_S50000x1_0 : (⟨S50000, .f32⟩ : BufTy).Contents (Elt F) → (⟨S50000x1, .f32⟩ : BufTy).Contents (Elt F)),
    nullary main_cst_66 (constant S_ .f32 0x3F800000#32),
    unary main_cst_66 main_v395 (broadcastInDim S50000x1 ![] bcast_S_S50000x1 : (⟨S_, .f32⟩ : BufTy).Contents (Elt F) → (⟨S50000x1, .f32⟩ : BufTy).Contents (Elt F)),
    binary main_v395 main_v394 main_v396 (addf : (⟨S50000x1, .f32⟩ : BufTy).Contents (Elt F) → (⟨S50000x1, .f32⟩ : BufTy).Contents (Elt F) → (⟨S50000x1, .f32⟩ : BufTy).Contents (Elt F)),
    unary main_v396 main_v397 (broadcastInDim S50000x64 ![0, 1] bcast_S50000x1_S50000x64_0_1 : (⟨S50000x1, .f32⟩ : BufTy).Contents (Elt F) → (⟨S50000x64, .f32⟩ : BufTy).Contents (Elt F)),
    binary main_v392 main_v397 main_v398 (Host.divf : (⟨S50000x64, .f32⟩ : BufTy).Contents (Elt F) → (⟨S50000x64, .f32⟩ : BufTy).Contents (Elt F) → (⟨S50000x64, .f32⟩ : BufTy).Contents (Elt F)),
    unary main_v54 main_v399 ((transpose S64x64 [1, 0] · transposes_S64x64_S64x64_1_0) : (⟨S64x64, .f32⟩ : BufTy).Contents (Elt F) → (⟨S64x64, .f32⟩ : BufTy).Contents (Elt F)),
    binary main_v398 main_v399 main_v400 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v33 main_v401 (broadcastInDim S690000x1 ![0] bcast_S690000_S690000x1_0 : (⟨S690000, .f32⟩ : BufTy).Contents (Elt F) → (⟨S690000x1, .f32⟩ : BufTy).Contents (Elt F)),
    nullary main_c_67 (constantI S_ 32 0#32),
    unary main_c_67 main_v402 (broadcastInDim S690000 ![] bcast_S_S690000 : (⟨S_, .i32⟩ : BufTy).Contents (Elt F) → (⟨S690000, .i32⟩ : BufTy).Contents (Elt F)),
    binary main_v5 main_v402 main_v403 (cmpi .slt : (⟨S690000, .i32⟩ : BufTy).Contents (Elt F) → (⟨S690000, .i32⟩ : BufTy).Contents (Elt F) → (⟨S690000, .i1⟩ : BufTy).Contents (Elt F)),
    nullary main_c_68 (constantI S_ 32 50000#32),
    unary main_c_68 main_v404 (broadcastInDim S690000 ![] bcast_S_S690000 : (⟨S_, .i32⟩ : BufTy).Contents (Elt F) → (⟨S690000, .i32⟩ : BufTy).Contents (Elt F)),
    binary main_v5 main_v404 main_v405 (addi : (⟨S690000, .i32⟩ : BufTy).Contents (Elt F) → (⟨S690000, .i32⟩ : BufTy).Contents (Elt F) → (⟨S690000, .i32⟩ : BufTy).Contents (Elt F)),
    ternary main_v403 main_v405 main_v5 main_v406 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v406 main_v407 (broadcastInDim S690000x1 ![0] bcast_S690000_S690000x1_0 : (⟨S690000, .i32⟩ : BufTy).Contents (Elt F) → (⟨S690000x1, .i32⟩ : BufTy).Contents (Elt F)),
    binary main_v400 main_v407 main_v408 ((fun x i => Host.gather gather_S50000x64_S690000x1_S690000x64_1_0_n_n_0_1_164 x i) : (⟨S50000x64, .f32⟩ : BufTy).Contents (Elt F) → (⟨S690000x1, .i32⟩ : BufTy).Contents (Elt F) → (⟨S690000x64, .f32⟩ : BufTy).Contents (Elt F)) ]

/-- @main's operations 609 … 689 of 1102 (window `main_part8`; a call's operations are the callee's, over the call's buffers). -/
noncomputable abbrev ops_part8 : List (HloOp τ sig (Elt F)) :=
  [ unary main_v401 main_v409 (broadcastInDim S690000x64 ![0, 1] bcast_S690000x1_S690000x64_0_1 : (⟨S690000x1, .f32⟩ : BufTy).Contents (Elt F) → (⟨S690000x64, .f32⟩ : BufTy).Contents (Elt F)),
    binary main_v409 main_v408 main_v410 (mulf : (⟨S690000x64, .f32⟩ : BufTy).Contents (Elt F) → (⟨S690000x64, .f32⟩ : BufTy).Contents (Elt F) → (⟨S690000x64, .f32⟩ : BufTy).Contents (Elt F)),
    nullary main_cst_69 (constant S_ .f32 0x00000000#32),
    unary main_cst_69 main_v411 (broadcastInDim S50000x64 ![] bcast_S_S50000x64 : (⟨S_, .f32⟩ : BufTy).Contents (Elt F) → (⟨S50000x64, .f32⟩ : BufTy).Contents (Elt F)),
    unary main_v6 main_v412 (broadcastInDim S690000x1 ![0] bcast_S690000_S690000x1_0 : (⟨S690000, .i32⟩ : BufTy).Contents (Elt F) → (⟨S690000x1, .i32⟩ : BufTy).Contents (Elt F)),
    ternary main_v411 main_v412 main_v410 main_v413 ((fun x i u => Host.scatterAdd scatter_S50000x64_S690000x1_S690000x64_1_0_0_1 x i u) : (⟨S50000x64, .f32⟩ : BufTy).Contents (Elt F) → (⟨S690000x1, .i32⟩ : BufTy).Contents (Elt F) → (⟨S690000x64, .f32⟩ : BufTy).Contents (Elt F) → (⟨S50000x64, .f32⟩ : BufTy).Contents (Elt F)),
    unary main_v56 main_v414 (broadcastInDim S1x64 ![1] bcast_S64_S1x64_1 : (⟨S64, .f32⟩ : BufTy).Contents (Elt F) → (⟨S1x64, .f32⟩ : BufTy).Contents (Elt F)),
    unary main_v414 main_v415 (broadcastInDim S50000x64 ![0, 1] bcast_S1x64_S50000x64_0_1 : (⟨S1x64, .f32⟩ : BufTy).Contents (Elt F) → (⟨S50000x64, .f32⟩ : BufTy).Contents (Elt F)),
    binary main_v413 main_v415 main_v416 (addf : (⟨S50000x64, .f32⟩ : BufTy).Contents (Elt F) → (⟨S50000x64, .f32⟩ : BufTy).Contents (Elt F) → (⟨S50000x64, .f32⟩ : BufTy).Contents (Elt F)),
    binary main_v416 main_v218 main_v417 (addf : (⟨S50000x64, .f32⟩ : BufTy).Contents (Elt F) → (⟨S50000x64, .f32⟩ : BufTy).Contents (Elt F) → (⟨S50000x64, .f32⟩ : BufTy).Contents (Elt F)),
    binary main_v417 main_v266 main_v418 (addf : (⟨S50000x64, .f32⟩ : BufTy).Contents (Elt F) → (⟨S50000x64, .f32⟩ : BufTy).Contents (Elt F) → (⟨S50000x64, .f32⟩ : BufTy).Contents (Elt F)),
    binary main_v418 main_v315 main_v419 (addf : (⟨S50000x64, .f32⟩ : BufTy).Contents (Elt F) → (⟨S50000x64, .f32⟩ : BufTy).Contents (Elt F) → (⟨S50000x64, .f32⟩ : BufTy).Contents (Elt F)),
    binary main_v419 main_v365 main_v420 (addf : (⟨S50000x64, .f32⟩ : BufTy).Contents (Elt F) → (⟨S50000x64, .f32⟩ : BufTy).Contents (Elt F) → (⟨S50000x64, .f32⟩ : BufTy).Contents (Elt F)),
    nullary main_cst_70 (constant S_ .f32 0x00000000#32),
    binary main_v420 main_cst_70 main_v421 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_71 (constant S_ .f32 0x47435000#32),
    unary main_cst_71 main_v422 (broadcastInDim S64 ![] bcast_S_S64 : (⟨S_, .f32⟩ : BufTy).Contents (Elt F) → (⟨S64, .f32⟩ : BufTy).Contents (Elt F)),
    binary main_v421 main_v422 main_v423 (Host.divf : (⟨S64, .f32⟩ : BufTy).Contents (Elt F) → (⟨S64, .f32⟩ : BufTy).Contents (Elt F) → (⟨S64, .f32⟩ : BufTy).Contents (Elt F)),
    nullary main_c_72 (constantI S_ 32 0#32),
    TRef.nullary main_call7.cst (constant S_ .f32 0x00000000#32),
    TRef.binary (TRef.of main_v420 : TRef sig ⟨S50000x64, .f32⟩) main_call7.cst main_call7.v0 (fun x v => Host.reduceAdd x v reducesTo_S50000x64_S64_d0 h_S_),
    TRef.unary main_call7.v0 main_call7.v1 (broadcastInDim S1x64 ![1] bcast_S64_S1x64_1),
    TRef.nullary main_call7.cst_0 (constant S_ .f32 0x47435000#32),
    TRef.unary main_call7.cst_0 main_call7.v2 (broadcastInDim S1x64 ![] bcast_S_S1x64),
    TRef.binary main_call7.v1 main_call7.v2 main_call7.v3 Host.divf,
    TRef.unary main_call7.v3 main_call7.v4 (broadcastInDim S50000x64 ![0, 1] bcast_S1x64_S50000x64_0_1),
    TRef.binary (TRef.of main_v420 : TRef sig ⟨S50000x64, .f32⟩) main_call7.v4 main_call7.v5 subf,
    TRef.binary main_call7.v5 main_call7.v5 main_call7.v6 mulf,
    TRef.unary (TRef.of main_c_72 : TRef sig ⟨S_, .i32⟩) main_call7.v7 (sitofp .f32),
    TRef.nullary main_call7.cst_1 (constant S_ .f32 0x47435000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S50000x64_S64_d0 h_S_),
    TRef.unary main_call7.v8 main_call7.v10 (broadcastInDim S64 ![] bcast_S_S64),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S64 ![] bcast_S_S64),
    TRef.ternary main_call7.v12 main_call7.v11 main_call7.call0.v1 main_call7.call0.v2 (fun p a b => select (broadcastInDim S64 ![] bcast_S_S64 p) a b),
    unary main_v423 main_v425 (broadcastInDim S1x64 ![1] bcast_S64_S1x64_1 : (⟨S64, .f32⟩ : BufTy).Contents (Elt F) → (⟨S1x64, .f32⟩ : BufTy).Contents (Elt F)),
    unary main_v425 main_v426 (broadcastInDim S50000x64 ![0, 1] bcast_S1x64_S50000x64_0_1 : (⟨S1x64, .f32⟩ : BufTy).Contents (Elt F) → (⟨S50000x64, .f32⟩ : BufTy).Contents (Elt F)),
    binary main_v420 main_v426 main_v427 (subf : (⟨S50000x64, .f32⟩ : BufTy).Contents (Elt F) → (⟨S50000x64, .f32⟩ : BufTy).Contents (Elt F) → (⟨S50000x64, .f32⟩ : BufTy).Contents (Elt F)),
    nullary main_cst_73 (constant S_ .f32 0x3727C5AC#32),
    unary main_cst_73 main_v428 (broadcastInDim S64 ![] bcast_S_S64 : (⟨S_, .f32⟩ : BufTy).Contents (Elt F) → (⟨S64, .f32⟩ : BufTy).Contents (Elt F)),
    binary main_v424 main_v428 main_v429 (addf : (⟨S64, .f32⟩ : BufTy).Contents (Elt F) → (⟨S64, .f32⟩ : BufTy).Contents (Elt F) → (⟨S64, .f32⟩ : BufTy).Contents (Elt F)),
    unary main_v429 main_v430 (Host.rsqrt : (⟨S64, .f32⟩ : BufTy).Contents (Elt F) → (⟨S64, .f32⟩ : BufTy).Contents (Elt F)),
    unary main_v430 main_v431 (broadcastInDim S1x64 ![1] bcast_S64_S1x64_1 : (⟨S64, .f32⟩ : BufTy).Contents (Elt F) → (⟨S1x64, .f32⟩ : BufTy).Contents (Elt F)),
    unary main_v431 main_v432 (broadcastInDim S50000x64 ![0, 1] bcast_S1x64_S50000x64_0_1 : (⟨S1x64, .f32⟩ : BufTy).Contents (Elt F) → (⟨S50000x64, .f32⟩ : BufTy).Contents (Elt F)),
    binary main_v427 main_v432 main_v433 (mulf : (⟨S50000x64, .f32⟩ : BufTy).Contents (Elt F) → (⟨S50000x64, .f32⟩ : BufTy).Contents (Elt F) → (⟨S50000x64, .f32⟩ : BufTy).Contents (Elt F)),
    unary main_v86 main_v434 (broadcastInDim S1x64 ![1] bcast_S64_S1x64_1 : (⟨S64, .f32⟩ : BufTy).Contents (Elt F) → (⟨S1x64, .f32⟩ : BufTy).Contents (Elt F)),
    unary main_v434 main_v435 (broadcastInDim S50000x64 ![0, 1] bcast_S1x64_S50000x64_0_1 : (⟨S1x64, .f32⟩ : BufTy).Contents (Elt F) → (⟨S50000x64, .f32⟩ : BufTy).Contents (Elt F)),
    binary main_v433 main_v435 main_v436 (mulf : (⟨S50000x64, .f32⟩ : BufTy).Contents (Elt F) → (⟨S50000x64, .f32⟩ : BufTy).Contents (Elt F) → (⟨S50000x64, .f32⟩ : BufTy).Contents (Elt F)),
    unary main_v88 main_v437 (broadcastInDim S1x64 ![1] bcast_S64_S1x64_1 : (⟨S64, .f32⟩ : BufTy).Contents (Elt F) → (⟨S1x64, .f32⟩ : BufTy).Contents (Elt F)),
    unary main_v437 main_v438 (broadcastInDim S50000x64 ![0, 1] bcast_S1x64_S50000x64_0_1 : (⟨S1x64, .f32⟩ : BufTy).Contents (Elt F) → (⟨S50000x64, .f32⟩ : BufTy).Contents (Elt F)),
    binary main_v436 main_v438 main_v439 (addf : (⟨S50000x64, .f32⟩ : BufTy).Contents (Elt F) → (⟨S50000x64, .f32⟩ : BufTy).Contents (Elt F) → (⟨S50000x64, .f32⟩ : BufTy).Contents (Elt F)),
    nullary main_cst_74 (constant S_ .f32 0xFF800000#32),
    binary main_v439 main_cst_74 main_v440 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v440 main_v441 (broadcastInDim S50000x1 ![0] bcast_S50000_S50000x1_0 : (⟨S50000, .f32⟩ : BufTy).Contents (Elt F) → (⟨S50000x1, .f32⟩ : BufTy).Contents (Elt F)),
    unary main_v441 main_v442 (broadcastInDim S50000x64 ![0, 1] bcast_S50000x1_S50000x64_0_1 : (⟨S50000x1, .f32⟩ : BufTy).Contents (Elt F) → (⟨S50000x64, .f32⟩ : BufTy).Contents (Elt F)),
    binary main_v439 main_v442 main_v443 (subf : (⟨S50000x64, .f32⟩ : BufTy).Contents (Elt F) → (⟨S50000x64, .f32⟩ : BufTy).Contents (Elt F) → (⟨S50000x64, .f32⟩ : BufTy).Contents (Elt F)),
    unary main_v443 main_v444 (Host.exp : (⟨S50000x64, .f32⟩ : BufTy).Contents (Elt F) → (⟨S50000x64, .f32⟩ : BufTy).Contents (Elt F)),
    nullary main_cst_75 (constant S_ .f32 0x00000000#32),
    binary main_v444 main_cst_75 main_v445 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v445 main_v446 (broadcastInDim S50000x1 ![0] bcast_S50000_S50000x1_0 : (⟨S50000, .f32⟩ : BufTy).Contents (Elt F) → (⟨S50000x1, .f32⟩ : BufTy).Contents (Elt F)),
    nullary main_cst_76 (constant S_ .f32 0x3F800000#32),
    unary main_cst_76 main_v447 (broadcastInDim S50000x1 ![] bcast_S_S50000x1 : (⟨S_, .f32⟩ : BufTy).Contents (Elt F) → (⟨S50000x1, .f32⟩ : BufTy).Contents (Elt F)),
    binary main_v447 main_v446 main_v448 (addf : (⟨S50000x1, .f32⟩ : BufTy).Contents (Elt F) → (⟨S50000x1, .f32⟩ : BufTy).Contents (Elt F) → (⟨S50000x1, .f32⟩ : BufTy).Contents (Elt F)),
    unary main_v448 main_v449 (broadcastInDim S50000x64 ![0, 1] bcast_S50000x1_S50000x64_0_1 : (⟨S50000x1, .f32⟩ : BufTy).Contents (Elt F) → (⟨S50000x64, .f32⟩ : BufTy).Contents (Elt F)),
    binary main_v444 main_v449 main_v450 (Host.divf : (⟨S50000x64, .f32⟩ : BufTy).Contents (Elt F) → (⟨S50000x64, .f32⟩ : BufTy).Contents (Elt F) → (⟨S50000x64, .f32⟩ : BufTy).Contents (Elt F)),
    unary main_v58 main_v451 ((transpose S64x64 [1, 0] · transposes_S64x64_S64x64_1_0) : (⟨S64x64, .f32⟩ : BufTy).Contents (Elt F) → (⟨S64x64, .f32⟩ : BufTy).Contents (Elt F)),
    binary main_v450 main_v451 main_v452 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v33 main_v453 (broadcastInDim S690000x1 ![0] bcast_S690000_S690000x1_0 : (⟨S690000, .f32⟩ : BufTy).Contents (Elt F) → (⟨S690000x1, .f32⟩ : BufTy).Contents (Elt F)),
    nullary main_c_77 (constantI S_ 32 0#32),
    unary main_c_77 main_v454 (broadcastInDim S690000 ![] bcast_S_S690000 : (⟨S_, .i32⟩ : BufTy).Contents (Elt F) → (⟨S690000, .i32⟩ : BufTy).Contents (Elt F)),
    binary main_v5 main_v454 main_v455 (cmpi .slt : (⟨S690000, .i32⟩ : BufTy).Contents (Elt F) → (⟨S690000, .i32⟩ : BufTy).Contents (Elt F) → (⟨S690000, .i1⟩ : BufTy).Contents (Elt F)),
    nullary main_c_78 (constantI S_ 32 50000#32),
    unary main_c_78 main_v456 (broadcastInDim S690000 ![] bcast_S_S690000 : (⟨S_, .i32⟩ : BufTy).Contents (Elt F) → (⟨S690000, .i32⟩ : BufTy).Contents (Elt F)),
    binary main_v5 main_v456 main_v457 (addi : (⟨S690000, .i32⟩ : BufTy).Contents (Elt F) → (⟨S690000, .i32⟩ : BufTy).Contents (Elt F) → (⟨S690000, .i32⟩ : BufTy).Contents (Elt F)),
    ternary main_v455 main_v457 main_v5 main_v458 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)) ]

/-- @main's operations 690 … 770 of 1102 (window `main_part9`; a call's operations are the callee's, over the call's buffers). -/
noncomputable abbrev ops_part9 : List (HloOp τ sig (Elt F)) :=
  [ unary main_v458 main_v459 (broadcastInDim S690000x1 ![0] bcast_S690000_S690000x1_0 : (⟨S690000, .i32⟩ : BufTy).Contents (Elt F) → (⟨S690000x1, .i32⟩ : BufTy).Contents (Elt F)),
    binary main_v452 main_v459 main_v460 ((fun x i => Host.gather gather_S50000x64_S690000x1_S690000x64_1_0_n_n_0_1_164 x i) : (⟨S50000x64, .f32⟩ : BufTy).Contents (Elt F) → (⟨S690000x1, .i32⟩ : BufTy).Contents (Elt F) → (⟨S690000x64, .f32⟩ : BufTy).Contents (Elt F)),
    unary main_v453 main_v461 (broadcastInDim S690000x64 ![0, 1] bcast_S690000x1_S690000x64_0_1 : (⟨S690000x1, .f32⟩ : BufTy).Contents (Elt F) → (⟨S690000x64, .f32⟩ : BufTy).Contents (Elt F)),
    binary main_v461 main_v460 main_v462 (mulf : (⟨S690000x64, .f32⟩ : BufTy).Contents (Elt F) → (⟨S690000x64, .f32⟩ : BufTy).Contents (Elt F) → (⟨S690000x64, .f32⟩ : BufTy).Contents (Elt F)),
    nullary main_cst_79 (constant S_ .f32 0x00000000#32),
    unary main_cst_79 main_v463 (broadcastInDim S50000x64 ![] bcast_S_S50000x64 : (⟨S_, .f32⟩ : BufTy).Contents (Elt F) → (⟨S50000x64, .f32⟩ : BufTy).Contents (Elt F)),
    unary main_v6 main_v464 (broadcastInDim S690000x1 ![0] bcast_S690000_S690000x1_0 : (⟨S690000, .i32⟩ : BufTy).Contents (Elt F) → (⟨S690000x1, .i32⟩ : BufTy).Contents (Elt F)),
    ternary main_v463 main_v464 main_v462 main_v465 ((fun x i u => Host.scatterAdd scatter_S50000x64_S690000x1_S690000x64_1_0_0_1 x i u) : (⟨S50000x64, .f32⟩ : BufTy).Contents (Elt F) → (⟨S690000x1, .i32⟩ : BufTy).Contents (Elt F) → (⟨S690000x64, .f32⟩ : BufTy).Contents (Elt F) → (⟨S50000x64, .f32⟩ : BufTy).Contents (Elt F)),
    unary main_v60 main_v466 (broadcastInDim S1x64 ![1] bcast_S64_S1x64_1 : (⟨S64, .f32⟩ : BufTy).Contents (Elt F) → (⟨S1x64, .f32⟩ : BufTy).Contents (Elt F)),
    unary main_v466 main_v467 (broadcastInDim S50000x64 ![0, 1] bcast_S1x64_S50000x64_0_1 : (⟨S1x64, .f32⟩ : BufTy).Contents (Elt F) → (⟨S50000x64, .f32⟩ : BufTy).Contents (Elt F)),
    binary main_v465 main_v467 main_v468 (addf : (⟨S50000x64, .f32⟩ : BufTy).Contents (Elt F) → (⟨S50000x64, .f32⟩ : BufTy).Contents (Elt F) → (⟨S50000x64, .f32⟩ : BufTy).Contents (Elt F)),
    binary main_v468 main_v218 main_v469 (addf : (⟨S50000x64, .f32⟩ : BufTy).Contents (Elt F) → (⟨S50000x64, .f32⟩ : BufTy).Contents (Elt F) → (⟨S50000x64, .f32⟩ : BufTy).Contents (Elt F)),
    binary main_v469 main_v266 main_v470 (addf : (⟨S50000x64, .f32⟩ : BufTy).Contents (Elt F) → (⟨S50000x64, .f32⟩ : BufTy).Contents (Elt F) → (⟨S50000x64, .f32⟩ : BufTy).Contents (Elt F)),
    binary main_v470 main_v315 main_v471 (addf : (⟨S50000x64, .f32⟩ : BufTy).Contents (Elt F) → (⟨S50000x64, .f32⟩ : BufTy).Contents (Elt F) → (⟨S50000x64, .f32⟩ : BufTy).Contents (Elt F)),
    binary main_v471 main_v365 main_v472 (addf : (⟨S50000x64, .f32⟩ : BufTy).Contents (Elt F) → (⟨S50000x64, .f32⟩ : BufTy).Contents (Elt F) → (⟨S50000x64, .f32⟩ : BufTy).Contents (Elt F)),
    binary main_v472 main_v416 main_v473 (addf : (⟨S50000x64, .f32⟩ : BufTy).Contents (Elt F) → (⟨S50000x64, .f32⟩ : BufTy).Contents (Elt F) → (⟨S50000x64, .f32⟩ : BufTy).Contents (Elt F)),
    nullary main_cst_80 (constant S_ .f32 0x00000000#32),
    binary main_v473 main_cst_80 main_v474 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_81 (constant S_ .f32 0x47435000#32),
    unary main_cst_81 main_v475 (broadcastInDim S64 ![] bcast_S_S64 : (⟨S_, .f32⟩ : BufTy).Contents (Elt F) → (⟨S64, .f32⟩ : BufTy).Contents (Elt F)),
    binary main_v474 main_v475 main_v476 (Host.divf : (⟨S64, .f32⟩ : BufTy).Contents (Elt F) → (⟨S64, .f32⟩ : BufTy).Contents (Elt F) → (⟨S64, .f32⟩ : BufTy).Contents (Elt F)),
    nullary main_c_82 (constantI S_ 32 0#32),
    TRef.nullary main_call8.cst (constant S_ .f32 0x00000000#32),
    TRef.binary (TRef.of main_v473 : TRef sig ⟨S50000x64, .f32⟩) main_call8.cst main_call8.v0 (fun x v => Host.reduceAdd x v reducesTo_S50000x64_S64_d0 h_S_),
    TRef.unary main_call8.v0 main_call8.v1 (broadcastInDim S1x64 ![1] bcast_S64_S1x64_1),
    TRef.nullary main_call8.cst_0 (constant S_ .f32 0x47435000#32),
    TRef.unary main_call8.cst_0 main_call8.v2 (broadcastInDim S1x64 ![] bcast_S_S1x64),
    TRef.binary main_call8.v1 main_call8.v2 main_call8.v3 Host.divf,
    TRef.unary main_call8.v3 main_call8.v4 (broadcastInDim S50000x64 ![0, 1] bcast_S1x64_S50000x64_0_1),
    TRef.binary (TRef.of main_v473 : TRef sig ⟨S50000x64, .f32⟩) main_call8.v4 main_call8.v5 subf,
    TRef.binary main_call8.v5 main_call8.v5 main_call8.v6 mulf,
    TRef.unary (TRef.of main_c_82 : TRef sig ⟨S_, .i32⟩) main_call8.v7 (sitofp .f32),
    TRef.nullary main_call8.cst_1 (constant S_ .f32 0x47435000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S50000x64_S64_d0 h_S_),
    TRef.unary main_call8.v8 main_call8.v10 (broadcastInDim S64 ![] bcast_S_S64),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S64 ![] bcast_S_S64),
    TRef.ternary main_call8.v12 main_call8.v11 main_call8.call0.v1 main_call8.call0.v2 (fun p a b => select (broadcastInDim S64 ![] bcast_S_S64 p) a b),
    unary main_v476 main_v478 (broadcastInDim S1x64 ![1] bcast_S64_S1x64_1 : (⟨S64, .f32⟩ : BufTy).Contents (Elt F) → (⟨S1x64, .f32⟩ : BufTy).Contents (Elt F)),
    unary main_v478 main_v479 (broadcastInDim S50000x64 ![0, 1] bcast_S1x64_S50000x64_0_1 : (⟨S1x64, .f32⟩ : BufTy).Contents (Elt F) → (⟨S50000x64, .f32⟩ : BufTy).Contents (Elt F)),
    binary main_v473 main_v479 main_v480 (subf : (⟨S50000x64, .f32⟩ : BufTy).Contents (Elt F) → (⟨S50000x64, .f32⟩ : BufTy).Contents (Elt F) → (⟨S50000x64, .f32⟩ : BufTy).Contents (Elt F)),
    nullary main_cst_83 (constant S_ .f32 0x3727C5AC#32),
    unary main_cst_83 main_v481 (broadcastInDim S64 ![] bcast_S_S64 : (⟨S_, .f32⟩ : BufTy).Contents (Elt F) → (⟨S64, .f32⟩ : BufTy).Contents (Elt F)),
    binary main_v477 main_v481 main_v482 (addf : (⟨S64, .f32⟩ : BufTy).Contents (Elt F) → (⟨S64, .f32⟩ : BufTy).Contents (Elt F) → (⟨S64, .f32⟩ : BufTy).Contents (Elt F)),
    unary main_v482 main_v483 (Host.rsqrt : (⟨S64, .f32⟩ : BufTy).Contents (Elt F) → (⟨S64, .f32⟩ : BufTy).Contents (Elt F)),
    unary main_v483 main_v484 (broadcastInDim S1x64 ![1] bcast_S64_S1x64_1 : (⟨S64, .f32⟩ : BufTy).Contents (Elt F) → (⟨S1x64, .f32⟩ : BufTy).Contents (Elt F)),
    unary main_v484 main_v485 (broadcastInDim S50000x64 ![0, 1] bcast_S1x64_S50000x64_0_1 : (⟨S1x64, .f32⟩ : BufTy).Contents (Elt F) → (⟨S50000x64, .f32⟩ : BufTy).Contents (Elt F)),
    binary main_v480 main_v485 main_v486 (mulf : (⟨S50000x64, .f32⟩ : BufTy).Contents (Elt F) → (⟨S50000x64, .f32⟩ : BufTy).Contents (Elt F) → (⟨S50000x64, .f32⟩ : BufTy).Contents (Elt F)),
    unary main_v90 main_v487 (broadcastInDim S1x64 ![1] bcast_S64_S1x64_1 : (⟨S64, .f32⟩ : BufTy).Contents (Elt F) → (⟨S1x64, .f32⟩ : BufTy).Contents (Elt F)),
    unary main_v487 main_v488 (broadcastInDim S50000x64 ![0, 1] bcast_S1x64_S50000x64_0_1 : (⟨S1x64, .f32⟩ : BufTy).Contents (Elt F) → (⟨S50000x64, .f32⟩ : BufTy).Contents (Elt F)),
    binary main_v486 main_v488 main_v489 (mulf : (⟨S50000x64, .f32⟩ : BufTy).Contents (Elt F) → (⟨S50000x64, .f32⟩ : BufTy).Contents (Elt F) → (⟨S50000x64, .f32⟩ : BufTy).Contents (Elt F)),
    unary main_v92 main_v490 (broadcastInDim S1x64 ![1] bcast_S64_S1x64_1 : (⟨S64, .f32⟩ : BufTy).Contents (Elt F) → (⟨S1x64, .f32⟩ : BufTy).Contents (Elt F)),
    unary main_v490 main_v491 (broadcastInDim S50000x64 ![0, 1] bcast_S1x64_S50000x64_0_1 : (⟨S1x64, .f32⟩ : BufTy).Contents (Elt F) → (⟨S50000x64, .f32⟩ : BufTy).Contents (Elt F)),
    binary main_v489 main_v491 main_v492 (addf : (⟨S50000x64, .f32⟩ : BufTy).Contents (Elt F) → (⟨S50000x64, .f32⟩ : BufTy).Contents (Elt F) → (⟨S50000x64, .f32⟩ : BufTy).Contents (Elt F)),
    nullary main_cst_84 (constant S_ .f32 0xFF800000#32),
    binary main_v492 main_cst_84 main_v493 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v493 main_v494 (broadcastInDim S50000x1 ![0] bcast_S50000_S50000x1_0 : (⟨S50000, .f32⟩ : BufTy).Contents (Elt F) → (⟨S50000x1, .f32⟩ : BufTy).Contents (Elt F)),
    unary main_v494 main_v495 (broadcastInDim S50000x64 ![0, 1] bcast_S50000x1_S50000x64_0_1 : (⟨S50000x1, .f32⟩ : BufTy).Contents (Elt F) → (⟨S50000x64, .f32⟩ : BufTy).Contents (Elt F)),
    binary main_v492 main_v495 main_v496 (subf : (⟨S50000x64, .f32⟩ : BufTy).Contents (Elt F) → (⟨S50000x64, .f32⟩ : BufTy).Contents (Elt F) → (⟨S50000x64, .f32⟩ : BufTy).Contents (Elt F)),
    unary main_v496 main_v497 (Host.exp : (⟨S50000x64, .f32⟩ : BufTy).Contents (Elt F) → (⟨S50000x64, .f32⟩ : BufTy).Contents (Elt F)),
    nullary main_cst_85 (constant S_ .f32 0x00000000#32),
    binary main_v497 main_cst_85 main_v498 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v498 main_v499 (broadcastInDim S50000x1 ![0] bcast_S50000_S50000x1_0 : (⟨S50000, .f32⟩ : BufTy).Contents (Elt F) → (⟨S50000x1, .f32⟩ : BufTy).Contents (Elt F)),
    nullary main_cst_86 (constant S_ .f32 0x3F800000#32),
    unary main_cst_86 main_v500 (broadcastInDim S50000x1 ![] bcast_S_S50000x1 : (⟨S_, .f32⟩ : BufTy).Contents (Elt F) → (⟨S50000x1, .f32⟩ : BufTy).Contents (Elt F)),
    binary main_v500 main_v499 main_v501 (addf : (⟨S50000x1, .f32⟩ : BufTy).Contents (Elt F) → (⟨S50000x1, .f32⟩ : BufTy).Contents (Elt F) → (⟨S50000x1, .f32⟩ : BufTy).Contents (Elt F)),
    unary main_v501 main_v502 (broadcastInDim S50000x64 ![0, 1] bcast_S50000x1_S50000x64_0_1 : (⟨S50000x1, .f32⟩ : BufTy).Contents (Elt F) → (⟨S50000x64, .f32⟩ : BufTy).Contents (Elt F)),
    binary main_v497 main_v502 main_v503 (Host.divf : (⟨S50000x64, .f32⟩ : BufTy).Contents (Elt F) → (⟨S50000x64, .f32⟩ : BufTy).Contents (Elt F) → (⟨S50000x64, .f32⟩ : BufTy).Contents (Elt F)),
    unary main_v62 main_v504 ((transpose S64x64 [1, 0] · transposes_S64x64_S64x64_1_0) : (⟨S64x64, .f32⟩ : BufTy).Contents (Elt F) → (⟨S64x64, .f32⟩ : BufTy).Contents (Elt F)),
    binary main_v503 main_v504 main_v505 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v33 main_v506 (broadcastInDim S690000x1 ![0] bcast_S690000_S690000x1_0 : (⟨S690000, .f32⟩ : BufTy).Contents (Elt F) → (⟨S690000x1, .f32⟩ : BufTy).Contents (Elt F)),
    nullary main_c_87 (constantI S_ 32 0#32),
    unary main_c_87 main_v507 (broadcastInDim S690000 ![] bcast_S_S690000 : (⟨S_, .i32⟩ : BufTy).Contents (Elt F) → (⟨S690000, .i32⟩ : BufTy).Contents (Elt F)),
    binary main_v5 main_v507 main_v508 (cmpi .slt : (⟨S690000, .i32⟩ : BufTy).Contents (Elt F) → (⟨S690000, .i32⟩ : BufTy).Contents (Elt F) → (⟨S690000, .i1⟩ : BufTy).Contents (Elt F)),
    nullary main_c_88 (constantI S_ 32 50000#32) ]

/-- @main's operations 771 … 851 of 1102 (window `main_part10`; a call's operations are the callee's, over the call's buffers). -/
noncomputable abbrev ops_part10 : List (HloOp τ sig (Elt F)) :=
  [ unary main_c_88 main_v509 (broadcastInDim S690000 ![] bcast_S_S690000 : (⟨S_, .i32⟩ : BufTy).Contents (Elt F) → (⟨S690000, .i32⟩ : BufTy).Contents (Elt F)),
    binary main_v5 main_v509 main_v510 (addi : (⟨S690000, .i32⟩ : BufTy).Contents (Elt F) → (⟨S690000, .i32⟩ : BufTy).Contents (Elt F) → (⟨S690000, .i32⟩ : BufTy).Contents (Elt F)),
    ternary main_v508 main_v510 main_v5 main_v511 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v511 main_v512 (broadcastInDim S690000x1 ![0] bcast_S690000_S690000x1_0 : (⟨S690000, .i32⟩ : BufTy).Contents (Elt F) → (⟨S690000x1, .i32⟩ : BufTy).Contents (Elt F)),
    binary main_v505 main_v512 main_v513 ((fun x i => Host.gather gather_S50000x64_S690000x1_S690000x64_1_0_n_n_0_1_164 x i) : (⟨S50000x64, .f32⟩ : BufTy).Contents (Elt F) → (⟨S690000x1, .i32⟩ : BufTy).Contents (Elt F) → (⟨S690000x64, .f32⟩ : BufTy).Contents (Elt F)),
    unary main_v506 main_v514 (broadcastInDim S690000x64 ![0, 1] bcast_S690000x1_S690000x64_0_1 : (⟨S690000x1, .f32⟩ : BufTy).Contents (Elt F) → (⟨S690000x64, .f32⟩ : BufTy).Contents (Elt F)),
    binary main_v514 main_v513 main_v515 (mulf : (⟨S690000x64, .f32⟩ : BufTy).Contents (Elt F) → (⟨S690000x64, .f32⟩ : BufTy).Contents (Elt F) → (⟨S690000x64, .f32⟩ : BufTy).Contents (Elt F)),
    nullary main_cst_89 (constant S_ .f32 0x00000000#32),
    unary main_cst_89 main_v516 (broadcastInDim S50000x64 ![] bcast_S_S50000x64 : (⟨S_, .f32⟩ : BufTy).Contents (Elt F) → (⟨S50000x64, .f32⟩ : BufTy).Contents (Elt F)),
    unary main_v6 main_v517 (broadcastInDim S690000x1 ![0] bcast_S690000_S690000x1_0 : (⟨S690000, .i32⟩ : BufTy).Contents (Elt F) → (⟨S690000x1, .i32⟩ : BufTy).Contents (Elt F)),
    ternary main_v516 main_v517 main_v515 main_v518 ((fun x i u => Host.scatterAdd scatter_S50000x64_S690000x1_S690000x64_1_0_0_1 x i u) : (⟨S50000x64, .f32⟩ : BufTy).Contents (Elt F) → (⟨S690000x1, .i32⟩ : BufTy).Contents (Elt F) → (⟨S690000x64, .f32⟩ : BufTy).Contents (Elt F) → (⟨S50000x64, .f32⟩ : BufTy).Contents (Elt F)),
    unary main_v64 main_v519 (broadcastInDim S1x64 ![1] bcast_S64_S1x64_1 : (⟨S64, .f32⟩ : BufTy).Contents (Elt F) → (⟨S1x64, .f32⟩ : BufTy).Contents (Elt F)),
    unary main_v519 main_v520 (broadcastInDim S50000x64 ![0, 1] bcast_S1x64_S50000x64_0_1 : (⟨S1x64, .f32⟩ : BufTy).Contents (Elt F) → (⟨S50000x64, .f32⟩ : BufTy).Contents (Elt F)),
    binary main_v518 main_v520 main_v521 (addf : (⟨S50000x64, .f32⟩ : BufTy).Contents (Elt F) → (⟨S50000x64, .f32⟩ : BufTy).Contents (Elt F) → (⟨S50000x64, .f32⟩ : BufTy).Contents (Elt F)),
    binary main_v521 main_v218 main_v522 (addf : (⟨S50000x64, .f32⟩ : BufTy).Contents (Elt F) → (⟨S50000x64, .f32⟩ : BufTy).Contents (Elt F) → (⟨S50000x64, .f32⟩ : BufTy).Contents (Elt F)),
    binary main_v522 main_v266 main_v523 (addf : (⟨S50000x64, .f32⟩ : BufTy).Contents (Elt F) → (⟨S50000x64, .f32⟩ : BufTy).Contents (Elt F) → (⟨S50000x64, .f32⟩ : BufTy).Contents (Elt F)),
    binary main_v523 main_v315 main_v524 (addf : (⟨S50000x64, .f32⟩ : BufTy).Contents (Elt F) → (⟨S50000x64, .f32⟩ : BufTy).Contents (Elt F) → (⟨S50000x64, .f32⟩ : BufTy).Contents (Elt F)),
    binary main_v524 main_v365 main_v525 (addf : (⟨S50000x64, .f32⟩ : BufTy).Contents (Elt F) → (⟨S50000x64, .f32⟩ : BufTy).Contents (Elt F) → (⟨S50000x64, .f32⟩ : BufTy).Contents (Elt F)),
    binary main_v525 main_v416 main_v526 (addf : (⟨S50000x64, .f32⟩ : BufTy).Contents (Elt F) → (⟨S50000x64, .f32⟩ : BufTy).Contents (Elt F) → (⟨S50000x64, .f32⟩ : BufTy).Contents (Elt F)),
    binary main_v526 main_v468 main_v527 (addf : (⟨S50000x64, .f32⟩ : BufTy).Contents (Elt F) → (⟨S50000x64, .f32⟩ : BufTy).Contents (Elt F) → (⟨S50000x64, .f32⟩ : BufTy).Contents (Elt F)),
    nullary main_cst_90 (constant S_ .f32 0x00000000#32),
    binary main_v527 main_cst_90 main_v528 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_91 (constant S_ .f32 0x47435000#32),
    unary main_cst_91 main_v529 (broadcastInDim S64 ![] bcast_S_S64 : (⟨S_, .f32⟩ : BufTy).Contents (Elt F) → (⟨S64, .f32⟩ : BufTy).Contents (Elt F)),
    binary main_v528 main_v529 main_v530 (Host.divf : (⟨S64, .f32⟩ : BufTy).Contents (Elt F) → (⟨S64, .f32⟩ : BufTy).Contents (Elt F) → (⟨S64, .f32⟩ : BufTy).Contents (Elt F)),
    nullary main_c_92 (constantI S_ 32 0#32),
    TRef.nullary main_call9.cst (constant S_ .f32 0x00000000#32),
    TRef.binary (TRef.of main_v527 : TRef sig ⟨S50000x64, .f32⟩) main_call9.cst main_call9.v0 (fun x v => Host.reduceAdd x v reducesTo_S50000x64_S64_d0 h_S_),
    TRef.unary main_call9.v0 main_call9.v1 (broadcastInDim S1x64 ![1] bcast_S64_S1x64_1),
    TRef.nullary main_call9.cst_0 (constant S_ .f32 0x47435000#32),
    TRef.unary main_call9.cst_0 main_call9.v2 (broadcastInDim S1x64 ![] bcast_S_S1x64),
    TRef.binary main_call9.v1 main_call9.v2 main_call9.v3 Host.divf,
    TRef.unary main_call9.v3 main_call9.v4 (broadcastInDim S50000x64 ![0, 1] bcast_S1x64_S50000x64_0_1),
    TRef.binary (TRef.of main_v527 : TRef sig ⟨S50000x64, .f32⟩) main_call9.v4 main_call9.v5 subf,
    TRef.binary main_call9.v5 main_call9.v5 main_call9.v6 mulf,
    TRef.unary (TRef.of main_c_92 : TRef sig ⟨S_, .i32⟩) main_call9.v7 (sitofp .f32),
    TRef.nullary main_call9.cst_1 (constant S_ .f32 0x47435000#32),
    TRef.binary main_call9.cst_1 main_call9.v7 main_call9.v8 subf,
    TRef.nullary main_call9.cst_2 (constant S_ .f32 0x00000000#32),
    TRef.binary main_call9.v6 main_call9.cst_2 main_call9.v9 (fun x v => Host.reduceAdd x v reducesTo_S50000x64_S64_d0 h_S_),
    TRef.unary main_call9.v8 main_call9.v10 (broadcastInDim S64 ![] bcast_S_S64),
    TRef.binary main_call9.v9 main_call9.v10 main_call9.v11 Host.divf,
    TRef.nullary main_call9.cst_3 (constant S_ .f32 0x00000000#32),
    TRef.binary main_call9.v8 main_call9.cst_3 main_call9.v12 (cmpf .ogt),
    TRef.nullary main_call9.cst_4 (constant S_ .f32 0x7FC00000#32),
    TRef.unary main_call9.cst_4 main_call9.call0.v0 id,
    TRef.unary main_call9.call0.v0 main_call9.call0.v1 (broadcastInDim S64 ![] bcast_S_S64),
    TRef.ternary main_call9.v12 main_call9.v11 main_call9.call0.v1 main_call9.call0.v2 (fun p a b => select (broadcastInDim S64 ![] bcast_S_S64 p) a b),
    unary main_v530 main_v532 (broadcastInDim S1x64 ![1] bcast_S64_S1x64_1 : (⟨S64, .f32⟩ : BufTy).Contents (Elt F) → (⟨S1x64, .f32⟩ : BufTy).Contents (Elt F)),
    unary main_v532 main_v533 (broadcastInDim S50000x64 ![0, 1] bcast_S1x64_S50000x64_0_1 : (⟨S1x64, .f32⟩ : BufTy).Contents (Elt F) → (⟨S50000x64, .f32⟩ : BufTy).Contents (Elt F)),
    binary main_v527 main_v533 main_v534 (subf : (⟨S50000x64, .f32⟩ : BufTy).Contents (Elt F) → (⟨S50000x64, .f32⟩ : BufTy).Contents (Elt F) → (⟨S50000x64, .f32⟩ : BufTy).Contents (Elt F)),
    nullary main_cst_93 (constant S_ .f32 0x3727C5AC#32),
    unary main_cst_93 main_v535 (broadcastInDim S64 ![] bcast_S_S64 : (⟨S_, .f32⟩ : BufTy).Contents (Elt F) → (⟨S64, .f32⟩ : BufTy).Contents (Elt F)),
    binary main_v531 main_v535 main_v536 (addf : (⟨S64, .f32⟩ : BufTy).Contents (Elt F) → (⟨S64, .f32⟩ : BufTy).Contents (Elt F) → (⟨S64, .f32⟩ : BufTy).Contents (Elt F)),
    unary main_v536 main_v537 (Host.rsqrt : (⟨S64, .f32⟩ : BufTy).Contents (Elt F) → (⟨S64, .f32⟩ : BufTy).Contents (Elt F)),
    unary main_v537 main_v538 (broadcastInDim S1x64 ![1] bcast_S64_S1x64_1 : (⟨S64, .f32⟩ : BufTy).Contents (Elt F) → (⟨S1x64, .f32⟩ : BufTy).Contents (Elt F)),
    unary main_v538 main_v539 (broadcastInDim S50000x64 ![0, 1] bcast_S1x64_S50000x64_0_1 : (⟨S1x64, .f32⟩ : BufTy).Contents (Elt F) → (⟨S50000x64, .f32⟩ : BufTy).Contents (Elt F)),
    binary main_v534 main_v539 main_v540 (mulf : (⟨S50000x64, .f32⟩ : BufTy).Contents (Elt F) → (⟨S50000x64, .f32⟩ : BufTy).Contents (Elt F) → (⟨S50000x64, .f32⟩ : BufTy).Contents (Elt F)),
    unary main_v94 main_v541 (broadcastInDim S1x64 ![1] bcast_S64_S1x64_1 : (⟨S64, .f32⟩ : BufTy).Contents (Elt F) → (⟨S1x64, .f32⟩ : BufTy).Contents (Elt F)),
    unary main_v541 main_v542 (broadcastInDim S50000x64 ![0, 1] bcast_S1x64_S50000x64_0_1 : (⟨S1x64, .f32⟩ : BufTy).Contents (Elt F) → (⟨S50000x64, .f32⟩ : BufTy).Contents (Elt F)),
    binary main_v540 main_v542 main_v543 (mulf : (⟨S50000x64, .f32⟩ : BufTy).Contents (Elt F) → (⟨S50000x64, .f32⟩ : BufTy).Contents (Elt F) → (⟨S50000x64, .f32⟩ : BufTy).Contents (Elt F)),
    unary main_v96 main_v544 (broadcastInDim S1x64 ![1] bcast_S64_S1x64_1 : (⟨S64, .f32⟩ : BufTy).Contents (Elt F) → (⟨S1x64, .f32⟩ : BufTy).Contents (Elt F)),
    unary main_v544 main_v545 (broadcastInDim S50000x64 ![0, 1] bcast_S1x64_S50000x64_0_1 : (⟨S1x64, .f32⟩ : BufTy).Contents (Elt F) → (⟨S50000x64, .f32⟩ : BufTy).Contents (Elt F)),
    binary main_v543 main_v545 main_v546 (addf : (⟨S50000x64, .f32⟩ : BufTy).Contents (Elt F) → (⟨S50000x64, .f32⟩ : BufTy).Contents (Elt F) → (⟨S50000x64, .f32⟩ : BufTy).Contents (Elt F)),
    nullary main_cst_94 (constant S_ .f32 0xFF800000#32),
    binary main_v546 main_cst_94 main_v547 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v547 main_v548 (broadcastInDim S50000x1 ![0] bcast_S50000_S50000x1_0 : (⟨S50000, .f32⟩ : BufTy).Contents (Elt F) → (⟨S50000x1, .f32⟩ : BufTy).Contents (Elt F)),
    unary main_v548 main_v549 (broadcastInDim S50000x64 ![0, 1] bcast_S50000x1_S50000x64_0_1 : (⟨S50000x1, .f32⟩ : BufTy).Contents (Elt F) → (⟨S50000x64, .f32⟩ : BufTy).Contents (Elt F)),
    binary main_v546 main_v549 main_v550 (subf : (⟨S50000x64, .f32⟩ : BufTy).Contents (Elt F) → (⟨S50000x64, .f32⟩ : BufTy).Contents (Elt F) → (⟨S50000x64, .f32⟩ : BufTy).Contents (Elt F)),
    unary main_v550 main_v551 (Host.exp : (⟨S50000x64, .f32⟩ : BufTy).Contents (Elt F) → (⟨S50000x64, .f32⟩ : BufTy).Contents (Elt F)),
    nullary main_cst_95 (constant S_ .f32 0x00000000#32),
    binary main_v551 main_cst_95 main_v552 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v552 main_v553 (broadcastInDim S50000x1 ![0] bcast_S50000_S50000x1_0 : (⟨S50000, .f32⟩ : BufTy).Contents (Elt F) → (⟨S50000x1, .f32⟩ : BufTy).Contents (Elt F)),
    nullary main_cst_96 (constant S_ .f32 0x3F800000#32),
    unary main_cst_96 main_v554 (broadcastInDim S50000x1 ![] bcast_S_S50000x1 : (⟨S_, .f32⟩ : BufTy).Contents (Elt F) → (⟨S50000x1, .f32⟩ : BufTy).Contents (Elt F)),
    binary main_v554 main_v553 main_v555 (addf : (⟨S50000x1, .f32⟩ : BufTy).Contents (Elt F) → (⟨S50000x1, .f32⟩ : BufTy).Contents (Elt F) → (⟨S50000x1, .f32⟩ : BufTy).Contents (Elt F)),
    unary main_v555 main_v556 (broadcastInDim S50000x64 ![0, 1] bcast_S50000x1_S50000x64_0_1 : (⟨S50000x1, .f32⟩ : BufTy).Contents (Elt F) → (⟨S50000x64, .f32⟩ : BufTy).Contents (Elt F)),
    binary main_v551 main_v556 main_v557 (Host.divf : (⟨S50000x64, .f32⟩ : BufTy).Contents (Elt F) → (⟨S50000x64, .f32⟩ : BufTy).Contents (Elt F) → (⟨S50000x64, .f32⟩ : BufTy).Contents (Elt F)),
    unary main_v66 main_v558 ((transpose S64x64 [1, 0] · transposes_S64x64_S64x64_1_0) : (⟨S64x64, .f32⟩ : BufTy).Contents (Elt F) → (⟨S64x64, .f32⟩ : BufTy).Contents (Elt F)),
    binary main_v557 main_v558 main_v559 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v33 main_v560 (broadcastInDim S690000x1 ![0] bcast_S690000_S690000x1_0 : (⟨S690000, .f32⟩ : BufTy).Contents (Elt F) → (⟨S690000x1, .f32⟩ : BufTy).Contents (Elt F)) ]

/-- @main's operations 852 … 932 of 1102 (window `main_part11`; a call's operations are the callee's, over the call's buffers). -/
noncomputable abbrev ops_part11 : List (HloOp τ sig (Elt F)) :=
  [ nullary main_c_97 (constantI S_ 32 0#32),
    unary main_c_97 main_v561 (broadcastInDim S690000 ![] bcast_S_S690000 : (⟨S_, .i32⟩ : BufTy).Contents (Elt F) → (⟨S690000, .i32⟩ : BufTy).Contents (Elt F)),
    binary main_v5 main_v561 main_v562 (cmpi .slt : (⟨S690000, .i32⟩ : BufTy).Contents (Elt F) → (⟨S690000, .i32⟩ : BufTy).Contents (Elt F) → (⟨S690000, .i1⟩ : BufTy).Contents (Elt F)),
    nullary main_c_98 (constantI S_ 32 50000#32),
    unary main_c_98 main_v563 (broadcastInDim S690000 ![] bcast_S_S690000 : (⟨S_, .i32⟩ : BufTy).Contents (Elt F) → (⟨S690000, .i32⟩ : BufTy).Contents (Elt F)),
    binary main_v5 main_v563 main_v564 (addi : (⟨S690000, .i32⟩ : BufTy).Contents (Elt F) → (⟨S690000, .i32⟩ : BufTy).Contents (Elt F) → (⟨S690000, .i32⟩ : BufTy).Contents (Elt F)),
    ternary main_v562 main_v564 main_v5 main_v565 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v565 main_v566 (broadcastInDim S690000x1 ![0] bcast_S690000_S690000x1_0 : (⟨S690000, .i32⟩ : BufTy).Contents (Elt F) → (⟨S690000x1, .i32⟩ : BufTy).Contents (Elt F)),
    binary main_v559 main_v566 main_v567 ((fun x i => Host.gather gather_S50000x64_S690000x1_S690000x64_1_0_n_n_0_1_164 x i) : (⟨S50000x64, .f32⟩ : BufTy).Contents (Elt F) → (⟨S690000x1, .i32⟩ : BufTy).Contents (Elt F) → (⟨S690000x64, .f32⟩ : BufTy).Contents (Elt F)),
    unary main_v560 main_v568 (broadcastInDim S690000x64 ![0, 1] bcast_S690000x1_S690000x64_0_1 : (⟨S690000x1, .f32⟩ : BufTy).Contents (Elt F) → (⟨S690000x64, .f32⟩ : BufTy).Contents (Elt F)),
    binary main_v568 main_v567 main_v569 (mulf : (⟨S690000x64, .f32⟩ : BufTy).Contents (Elt F) → (⟨S690000x64, .f32⟩ : BufTy).Contents (Elt F) → (⟨S690000x64, .f32⟩ : BufTy).Contents (Elt F)),
    nullary main_cst_99 (constant S_ .f32 0x00000000#32),
    unary main_cst_99 main_v570 (broadcastInDim S50000x64 ![] bcast_S_S50000x64 : (⟨S_, .f32⟩ : BufTy).Contents (Elt F) → (⟨S50000x64, .f32⟩ : BufTy).Contents (Elt F)),
    unary main_v6 main_v571 (broadcastInDim S690000x1 ![0] bcast_S690000_S690000x1_0 : (⟨S690000, .i32⟩ : BufTy).Contents (Elt F) → (⟨S690000x1, .i32⟩ : BufTy).Contents (Elt F)),
    ternary main_v570 main_v571 main_v569 main_v572 ((fun x i u => Host.scatterAdd scatter_S50000x64_S690000x1_S690000x64_1_0_0_1 x i u) : (⟨S50000x64, .f32⟩ : BufTy).Contents (Elt F) → (⟨S690000x1, .i32⟩ : BufTy).Contents (Elt F) → (⟨S690000x64, .f32⟩ : BufTy).Contents (Elt F) → (⟨S50000x64, .f32⟩ : BufTy).Contents (Elt F)),
    unary main_v68 main_v573 (broadcastInDim S1x64 ![1] bcast_S64_S1x64_1 : (⟨S64, .f32⟩ : BufTy).Contents (Elt F) → (⟨S1x64, .f32⟩ : BufTy).Contents (Elt F)),
    unary main_v573 main_v574 (broadcastInDim S50000x64 ![0, 1] bcast_S1x64_S50000x64_0_1 : (⟨S1x64, .f32⟩ : BufTy).Contents (Elt F) → (⟨S50000x64, .f32⟩ : BufTy).Contents (Elt F)),
    binary main_v572 main_v574 main_v575 (addf : (⟨S50000x64, .f32⟩ : BufTy).Contents (Elt F) → (⟨S50000x64, .f32⟩ : BufTy).Contents (Elt F) → (⟨S50000x64, .f32⟩ : BufTy).Contents (Elt F)),
    binary main_v575 main_v218 main_v576 (addf : (⟨S50000x64, .f32⟩ : BufTy).Contents (Elt F) → (⟨S50000x64, .f32⟩ : BufTy).Contents (Elt F) → (⟨S50000x64, .f32⟩ : BufTy).Contents (Elt F)),
    binary main_v576 main_v266 main_v577 (addf : (⟨S50000x64, .f32⟩ : BufTy).Contents (Elt F) → (⟨S50000x64, .f32⟩ : BufTy).Contents (Elt F) → (⟨S50000x64, .f32⟩ : BufTy).Contents (Elt F)),
    binary main_v577 main_v315 main_v578 (addf : (⟨S50000x64, .f32⟩ : BufTy).Contents (Elt F) → (⟨S50000x64, .f32⟩ : BufTy).Contents (Elt F) → (⟨S50000x64, .f32⟩ : BufTy).Contents (Elt F)),
    binary main_v578 main_v365 main_v579 (addf : (⟨S50000x64, .f32⟩ : BufTy).Contents (Elt F) → (⟨S50000x64, .f32⟩ : BufTy).Contents (Elt F) → (⟨S50000x64, .f32⟩ : BufTy).Contents (Elt F)),
    binary main_v579 main_v416 main_v580 (addf : (⟨S50000x64, .f32⟩ : BufTy).Contents (Elt F) → (⟨S50000x64, .f32⟩ : BufTy).Contents (Elt F) → (⟨S50000x64, .f32⟩ : BufTy).Contents (Elt F)),
    binary main_v580 main_v468 main_v581 (addf : (⟨S50000x64, .f32⟩ : BufTy).Contents (Elt F) → (⟨S50000x64, .f32⟩ : BufTy).Contents (Elt F) → (⟨S50000x64, .f32⟩ : BufTy).Contents (Elt F)),
    binary main_v581 main_v521 main_v582 (addf : (⟨S50000x64, .f32⟩ : BufTy).Contents (Elt F) → (⟨S50000x64, .f32⟩ : BufTy).Contents (Elt F) → (⟨S50000x64, .f32⟩ : BufTy).Contents (Elt F)),
    nullary main_cst_100 (constant S_ .f32 0x00000000#32),
    binary main_v582 main_cst_100 main_v583 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_101 (constant S_ .f32 0x47435000#32),
    unary main_cst_101 main_v584 (broadcastInDim S64 ![] bcast_S_S64 : (⟨S_, .f32⟩ : BufTy).Contents (Elt F) → (⟨S64, .f32⟩ : BufTy).Contents (Elt F)),
    binary main_v583 main_v584 main_v585 (Host.divf : (⟨S64, .f32⟩ : BufTy).Contents (Elt F) → (⟨S64, .f32⟩ : BufTy).Contents (Elt F) → (⟨S64, .f32⟩ : BufTy).Contents (Elt F)),
    nullary main_c_102 (constantI S_ 32 0#32),
    TRef.nullary main_call10.cst (constant S_ .f32 0x00000000#32),
    TRef.binary (TRef.of main_v582 : TRef sig ⟨S50000x64, .f32⟩) main_call10.cst main_call10.v0 (fun x v => Host.reduceAdd x v reducesTo_S50000x64_S64_d0 h_S_),
    TRef.unary main_call10.v0 main_call10.v1 (broadcastInDim S1x64 ![1] bcast_S64_S1x64_1),
    TRef.nullary main_call10.cst_0 (constant S_ .f32 0x47435000#32),
    TRef.unary main_call10.cst_0 main_call10.v2 (broadcastInDim S1x64 ![] bcast_S_S1x64),
    TRef.binary main_call10.v1 main_call10.v2 main_call10.v3 Host.divf,
    TRef.unary main_call10.v3 main_call10.v4 (broadcastInDim S50000x64 ![0, 1] bcast_S1x64_S50000x64_0_1),
    TRef.binary (TRef.of main_v582 : TRef sig ⟨S50000x64, .f32⟩) main_call10.v4 main_call10.v5 subf,
    TRef.binary main_call10.v5 main_call10.v5 main_call10.v6 mulf,
    TRef.unary (TRef.of main_c_102 : TRef sig ⟨S_, .i32⟩) main_call10.v7 (sitofp .f32),
    TRef.nullary main_call10.cst_1 (constant S_ .f32 0x47435000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S50000x64_S64_d0 h_S_),
    TRef.unary main_call10.v8 main_call10.v10 (broadcastInDim S64 ![] bcast_S_S64),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10.call0.v0 id,
    TRef.unary main_call10.call0.v0 main_call10.call0.v1 (broadcastInDim S64 ![] bcast_S_S64),
    TRef.ternary main_call10.v12 main_call10.v11 main_call10.call0.v1 main_call10.call0.v2 (fun p a b => select (broadcastInDim S64 ![] bcast_S_S64 p) a b),
    unary main_v585 main_v587 (broadcastInDim S1x64 ![1] bcast_S64_S1x64_1 : (⟨S64, .f32⟩ : BufTy).Contents (Elt F) → (⟨S1x64, .f32⟩ : BufTy).Contents (Elt F)),
    unary main_v587 main_v588 (broadcastInDim S50000x64 ![0, 1] bcast_S1x64_S50000x64_0_1 : (⟨S1x64, .f32⟩ : BufTy).Contents (Elt F) → (⟨S50000x64, .f32⟩ : BufTy).Contents (Elt F)),
    binary main_v582 main_v588 main_v589 (subf : (⟨S50000x64, .f32⟩ : BufTy).Contents (Elt F) → (⟨S50000x64, .f32⟩ : BufTy).Contents (Elt F) → (⟨S50000x64, .f32⟩ : BufTy).Contents (Elt F)),
    nullary main_cst_103 (constant S_ .f32 0x3727C5AC#32),
    unary main_cst_103 main_v590 (broadcastInDim S64 ![] bcast_S_S64 : (⟨S_, .f32⟩ : BufTy).Contents (Elt F) → (⟨S64, .f32⟩ : BufTy).Contents (Elt F)),
    binary main_v586 main_v590 main_v591 (addf : (⟨S64, .f32⟩ : BufTy).Contents (Elt F) → (⟨S64, .f32⟩ : BufTy).Contents (Elt F) → (⟨S64, .f32⟩ : BufTy).Contents (Elt F)),
    unary main_v591 main_v592 (Host.rsqrt : (⟨S64, .f32⟩ : BufTy).Contents (Elt F) → (⟨S64, .f32⟩ : BufTy).Contents (Elt F)),
    unary main_v592 main_v593 (broadcastInDim S1x64 ![1] bcast_S64_S1x64_1 : (⟨S64, .f32⟩ : BufTy).Contents (Elt F) → (⟨S1x64, .f32⟩ : BufTy).Contents (Elt F)),
    unary main_v593 main_v594 (broadcastInDim S50000x64 ![0, 1] bcast_S1x64_S50000x64_0_1 : (⟨S1x64, .f32⟩ : BufTy).Contents (Elt F) → (⟨S50000x64, .f32⟩ : BufTy).Contents (Elt F)),
    binary main_v589 main_v594 main_v595 (mulf : (⟨S50000x64, .f32⟩ : BufTy).Contents (Elt F) → (⟨S50000x64, .f32⟩ : BufTy).Contents (Elt F) → (⟨S50000x64, .f32⟩ : BufTy).Contents (Elt F)),
    unary main_v98 main_v596 (broadcastInDim S1x64 ![1] bcast_S64_S1x64_1 : (⟨S64, .f32⟩ : BufTy).Contents (Elt F) → (⟨S1x64, .f32⟩ : BufTy).Contents (Elt F)),
    unary main_v596 main_v597 (broadcastInDim S50000x64 ![0, 1] bcast_S1x64_S50000x64_0_1 : (⟨S1x64, .f32⟩ : BufTy).Contents (Elt F) → (⟨S50000x64, .f32⟩ : BufTy).Contents (Elt F)),
    binary main_v595 main_v597 main_v598 (mulf : (⟨S50000x64, .f32⟩ : BufTy).Contents (Elt F) → (⟨S50000x64, .f32⟩ : BufTy).Contents (Elt F) → (⟨S50000x64, .f32⟩ : BufTy).Contents (Elt F)),
    unary main_v100 main_v599 (broadcastInDim S1x64 ![1] bcast_S64_S1x64_1 : (⟨S64, .f32⟩ : BufTy).Contents (Elt F) → (⟨S1x64, .f32⟩ : BufTy).Contents (Elt F)),
    unary main_v599 main_v600 (broadcastInDim S50000x64 ![0, 1] bcast_S1x64_S50000x64_0_1 : (⟨S1x64, .f32⟩ : BufTy).Contents (Elt F) → (⟨S50000x64, .f32⟩ : BufTy).Contents (Elt F)),
    binary main_v598 main_v600 main_v601 (addf : (⟨S50000x64, .f32⟩ : BufTy).Contents (Elt F) → (⟨S50000x64, .f32⟩ : BufTy).Contents (Elt F) → (⟨S50000x64, .f32⟩ : BufTy).Contents (Elt F)),
    nullary main_cst_104 (constant S_ .f32 0xFF800000#32),
    binary main_v601 main_cst_104 main_v602 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v602 main_v603 (broadcastInDim S50000x1 ![0] bcast_S50000_S50000x1_0 : (⟨S50000, .f32⟩ : BufTy).Contents (Elt F) → (⟨S50000x1, .f32⟩ : BufTy).Contents (Elt F)),
    unary main_v603 main_v604 (broadcastInDim S50000x64 ![0, 1] bcast_S50000x1_S50000x64_0_1 : (⟨S50000x1, .f32⟩ : BufTy).Contents (Elt F) → (⟨S50000x64, .f32⟩ : BufTy).Contents (Elt F)),
    binary main_v601 main_v604 main_v605 (subf : (⟨S50000x64, .f32⟩ : BufTy).Contents (Elt F) → (⟨S50000x64, .f32⟩ : BufTy).Contents (Elt F) → (⟨S50000x64, .f32⟩ : BufTy).Contents (Elt F)),
    unary main_v605 main_v606 (Host.exp : (⟨S50000x64, .f32⟩ : BufTy).Contents (Elt F) → (⟨S50000x64, .f32⟩ : BufTy).Contents (Elt F)),
    nullary main_cst_105 (constant S_ .f32 0x00000000#32),
    binary main_v606 main_cst_105 main_v607 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v607 main_v608 (broadcastInDim S50000x1 ![0] bcast_S50000_S50000x1_0 : (⟨S50000, .f32⟩ : BufTy).Contents (Elt F) → (⟨S50000x1, .f32⟩ : BufTy).Contents (Elt F)),
    nullary main_cst_106 (constant S_ .f32 0x3F800000#32),
    unary main_cst_106 main_v609 (broadcastInDim S50000x1 ![] bcast_S_S50000x1 : (⟨S_, .f32⟩ : BufTy).Contents (Elt F) → (⟨S50000x1, .f32⟩ : BufTy).Contents (Elt F)),
    binary main_v609 main_v608 main_v610 (addf : (⟨S50000x1, .f32⟩ : BufTy).Contents (Elt F) → (⟨S50000x1, .f32⟩ : BufTy).Contents (Elt F) → (⟨S50000x1, .f32⟩ : BufTy).Contents (Elt F)) ]

/-- @main's operations 933 … 1013 of 1102 (window `main_part12`; a call's operations are the callee's, over the call's buffers). -/
noncomputable abbrev ops_part12 : List (HloOp τ sig (Elt F)) :=
  [ unary main_v610 main_v611 (broadcastInDim S50000x64 ![0, 1] bcast_S50000x1_S50000x64_0_1 : (⟨S50000x1, .f32⟩ : BufTy).Contents (Elt F) → (⟨S50000x64, .f32⟩ : BufTy).Contents (Elt F)),
    binary main_v606 main_v611 main_v612 (Host.divf : (⟨S50000x64, .f32⟩ : BufTy).Contents (Elt F) → (⟨S50000x64, .f32⟩ : BufTy).Contents (Elt F) → (⟨S50000x64, .f32⟩ : BufTy).Contents (Elt F)),
    unary main_v70 main_v613 ((transpose S64x64 [1, 0] · transposes_S64x64_S64x64_1_0) : (⟨S64x64, .f32⟩ : BufTy).Contents (Elt F) → (⟨S64x64, .f32⟩ : BufTy).Contents (Elt F)),
    binary main_v612 main_v613 main_v614 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v33 main_v615 (broadcastInDim S690000x1 ![0] bcast_S690000_S690000x1_0 : (⟨S690000, .f32⟩ : BufTy).Contents (Elt F) → (⟨S690000x1, .f32⟩ : BufTy).Contents (Elt F)),
    nullary main_c_107 (constantI S_ 32 0#32),
    unary main_c_107 main_v616 (broadcastInDim S690000 ![] bcast_S_S690000 : (⟨S_, .i32⟩ : BufTy).Contents (Elt F) → (⟨S690000, .i32⟩ : BufTy).Contents (Elt F)),
    binary main_v5 main_v616 main_v617 (cmpi .slt : (⟨S690000, .i32⟩ : BufTy).Contents (Elt F) → (⟨S690000, .i32⟩ : BufTy).Contents (Elt F) → (⟨S690000, .i1⟩ : BufTy).Contents (Elt F)),
    nullary main_c_108 (constantI S_ 32 50000#32),
    unary main_c_108 main_v618 (broadcastInDim S690000 ![] bcast_S_S690000 : (⟨S_, .i32⟩ : BufTy).Contents (Elt F) → (⟨S690000, .i32⟩ : BufTy).Contents (Elt F)),
    binary main_v5 main_v618 main_v619 (addi : (⟨S690000, .i32⟩ : BufTy).Contents (Elt F) → (⟨S690000, .i32⟩ : BufTy).Contents (Elt F) → (⟨S690000, .i32⟩ : BufTy).Contents (Elt F)),
    ternary main_v617 main_v619 main_v5 main_v620 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v620 main_v621 (broadcastInDim S690000x1 ![0] bcast_S690000_S690000x1_0 : (⟨S690000, .i32⟩ : BufTy).Contents (Elt F) → (⟨S690000x1, .i32⟩ : BufTy).Contents (Elt F)),
    binary main_v614 main_v621 main_v622 ((fun x i => Host.gather gather_S50000x64_S690000x1_S690000x64_1_0_n_n_0_1_164 x i) : (⟨S50000x64, .f32⟩ : BufTy).Contents (Elt F) → (⟨S690000x1, .i32⟩ : BufTy).Contents (Elt F) → (⟨S690000x64, .f32⟩ : BufTy).Contents (Elt F)),
    unary main_v615 main_v623 (broadcastInDim S690000x64 ![0, 1] bcast_S690000x1_S690000x64_0_1 : (⟨S690000x1, .f32⟩ : BufTy).Contents (Elt F) → (⟨S690000x64, .f32⟩ : BufTy).Contents (Elt F)),
    binary main_v623 main_v622 main_v624 (mulf : (⟨S690000x64, .f32⟩ : BufTy).Contents (Elt F) → (⟨S690000x64, .f32⟩ : BufTy).Contents (Elt F) → (⟨S690000x64, .f32⟩ : BufTy).Contents (Elt F)),
    nullary main_cst_109 (constant S_ .f32 0x00000000#32),
    unary main_cst_109 main_v625 (broadcastInDim S50000x64 ![] bcast_S_S50000x64 : (⟨S_, .f32⟩ : BufTy).Contents (Elt F) → (⟨S50000x64, .f32⟩ : BufTy).Contents (Elt F)),
    unary main_v6 main_v626 (broadcastInDim S690000x1 ![0] bcast_S690000_S690000x1_0 : (⟨S690000, .i32⟩ : BufTy).Contents (Elt F) → (⟨S690000x1, .i32⟩ : BufTy).Contents (Elt F)),
    ternary main_v625 main_v626 main_v624 main_v627 ((fun x i u => Host.scatterAdd scatter_S50000x64_S690000x1_S690000x64_1_0_0_1 x i u) : (⟨S50000x64, .f32⟩ : BufTy).Contents (Elt F) → (⟨S690000x1, .i32⟩ : BufTy).Contents (Elt F) → (⟨S690000x64, .f32⟩ : BufTy).Contents (Elt F) → (⟨S50000x64, .f32⟩ : BufTy).Contents (Elt F)),
    unary main_v72 main_v628 (broadcastInDim S1x64 ![1] bcast_S64_S1x64_1 : (⟨S64, .f32⟩ : BufTy).Contents (Elt F) → (⟨S1x64, .f32⟩ : BufTy).Contents (Elt F)),
    unary main_v628 main_v629 (broadcastInDim S50000x64 ![0, 1] bcast_S1x64_S50000x64_0_1 : (⟨S1x64, .f32⟩ : BufTy).Contents (Elt F) → (⟨S50000x64, .f32⟩ : BufTy).Contents (Elt F)),
    binary main_v627 main_v629 main_v630 (addf : (⟨S50000x64, .f32⟩ : BufTy).Contents (Elt F) → (⟨S50000x64, .f32⟩ : BufTy).Contents (Elt F) → (⟨S50000x64, .f32⟩ : BufTy).Contents (Elt F)),
    binary main_v630 main_v218 main_v631 (addf : (⟨S50000x64, .f32⟩ : BufTy).Contents (Elt F) → (⟨S50000x64, .f32⟩ : BufTy).Contents (Elt F) → (⟨S50000x64, .f32⟩ : BufTy).Contents (Elt F)),
    binary main_v631 main_v266 main_v632 (addf : (⟨S50000x64, .f32⟩ : BufTy).Contents (Elt F) → (⟨S50000x64, .f32⟩ : BufTy).Contents (Elt F) → (⟨S50000x64, .f32⟩ : BufTy).Contents (Elt F)),
    binary main_v632 main_v315 main_v633 (addf : (⟨S50000x64, .f32⟩ : BufTy).Contents (Elt F) → (⟨S50000x64, .f32⟩ : BufTy).Contents (Elt F) → (⟨S50000x64, .f32⟩ : BufTy).Contents (Elt F)),
    binary main_v633 main_v365 main_v634 (addf : (⟨S50000x64, .f32⟩ : BufTy).Contents (Elt F) → (⟨S50000x64, .f32⟩ : BufTy).Contents (Elt F) → (⟨S50000x64, .f32⟩ : BufTy).Contents (Elt F)),
    binary main_v634 main_v416 main_v635 (addf : (⟨S50000x64, .f32⟩ : BufTy).Contents (Elt F) → (⟨S50000x64, .f32⟩ : BufTy).Contents (Elt F) → (⟨S50000x64, .f32⟩ : BufTy).Contents (Elt F)),
    binary main_v635 main_v468 main_v636 (addf : (⟨S50000x64, .f32⟩ : BufTy).Contents (Elt F) → (⟨S50000x64, .f32⟩ : BufTy).Contents (Elt F) → (⟨S50000x64, .f32⟩ : BufTy).Contents (Elt F)),
    binary main_v636 main_v521 main_v637 (addf : (⟨S50000x64, .f32⟩ : BufTy).Contents (Elt F) → (⟨S50000x64, .f32⟩ : BufTy).Contents (Elt F) → (⟨S50000x64, .f32⟩ : BufTy).Contents (Elt F)),
    binary main_v637 main_v575 main_v638 (addf : (⟨S50000x64, .f32⟩ : BufTy).Contents (Elt F) → (⟨S50000x64, .f32⟩ : BufTy).Contents (Elt F) → (⟨S50000x64, .f32⟩ : BufTy).Contents (Elt F)),
    nullary main_cst_110 (constant S_ .f32 0x00000000#32),
    binary main_v638 main_cst_110 main_v639 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_111 (constant S_ .f32 0x47435000#32),
    unary main_cst_111 main_v640 (broadcastInDim S64 ![] bcast_S_S64 : (⟨S_, .f32⟩ : BufTy).Contents (Elt F) → (⟨S64, .f32⟩ : BufTy).Contents (Elt F)),
    binary main_v639 main_v640 main_v641 (Host.divf : (⟨S64, .f32⟩ : BufTy).Contents (Elt F) → (⟨S64, .f32⟩ : BufTy).Contents (Elt F) → (⟨S64, .f32⟩ : BufTy).Contents (Elt F)),
    nullary main_c_112 (constantI S_ 32 0#32),
    TRef.nullary main_call11.cst (constant S_ .f32 0x00000000#32),
    TRef.binary (TRef.of main_v638 : TRef sig ⟨S50000x64, .f32⟩) main_call11.cst main_call11.v0 (fun x v => Host.reduceAdd x v reducesTo_S50000x64_S64_d0 h_S_),
    TRef.unary main_call11.v0 main_call11.v1 (broadcastInDim S1x64 ![1] bcast_S64_S1x64_1),
    TRef.nullary main_call11.cst_0 (constant S_ .f32 0x47435000#32),
    TRef.unary main_call11.cst_0 main_call11.v2 (broadcastInDim S1x64 ![] bcast_S_S1x64),
    TRef.binary main_call11.v1 main_call11.v2 main_call11.v3 Host.divf,
    TRef.unary main_call11.v3 main_call11.v4 (broadcastInDim S50000x64 ![0, 1] bcast_S1x64_S50000x64_0_1),
    TRef.binary (TRef.of main_v638 : TRef sig ⟨S50000x64, .f32⟩) main_call11.v4 main_call11.v5 subf,
    TRef.binary main_call11.v5 main_call11.v5 main_call11.v6 mulf,
    TRef.unary (TRef.of main_c_112 : TRef sig ⟨S_, .i32⟩) main_call11.v7 (sitofp .f32),
    TRef.nullary main_call11.cst_1 (constant S_ .f32 0x47435000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S50000x64_S64_d0 h_S_),
    TRef.unary main_call11.v8 main_call11.v10 (broadcastInDim S64 ![] bcast_S_S64),
    TRef.binary main_call11.v9 main_call11.v10 main_call11.v11 Host.divf,
    TRef.nullary main_call11.cst_3 (constant S_ .f32 0x00000000#32),
    TRef.binary main_call11.v8 main_call11.cst_3 main_call11.v12 (cmpf .ogt),
    TRef.nullary main_call11.cst_4 (constant S_ .f32 0x7FC00000#32),
    TRef.unary main_call11.cst_4 main_call11.call0.v0 id,
    TRef.unary main_call11.call0.v0 main_call11.call0.v1 (broadcastInDim S64 ![] bcast_S_S64),
    TRef.ternary main_call11.v12 main_call11.v11 main_call11.call0.v1 main_call11.call0.v2 (fun p a b => select (broadcastInDim S64 ![] bcast_S_S64 p) a b),
    unary main_v641 main_v643 (broadcastInDim S1x64 ![1] bcast_S64_S1x64_1 : (⟨S64, .f32⟩ : BufTy).Contents (Elt F) → (⟨S1x64, .f32⟩ : BufTy).Contents (Elt F)),
    unary main_v643 main_v644 (broadcastInDim S50000x64 ![0, 1] bcast_S1x64_S50000x64_0_1 : (⟨S1x64, .f32⟩ : BufTy).Contents (Elt F) → (⟨S50000x64, .f32⟩ : BufTy).Contents (Elt F)),
    binary main_v638 main_v644 main_v645 (subf : (⟨S50000x64, .f32⟩ : BufTy).Contents (Elt F) → (⟨S50000x64, .f32⟩ : BufTy).Contents (Elt F) → (⟨S50000x64, .f32⟩ : BufTy).Contents (Elt F)),
    nullary main_cst_113 (constant S_ .f32 0x3727C5AC#32),
    unary main_cst_113 main_v646 (broadcastInDim S64 ![] bcast_S_S64 : (⟨S_, .f32⟩ : BufTy).Contents (Elt F) → (⟨S64, .f32⟩ : BufTy).Contents (Elt F)),
    binary main_v642 main_v646 main_v647 (addf : (⟨S64, .f32⟩ : BufTy).Contents (Elt F) → (⟨S64, .f32⟩ : BufTy).Contents (Elt F) → (⟨S64, .f32⟩ : BufTy).Contents (Elt F)),
    unary main_v647 main_v648 (Host.rsqrt : (⟨S64, .f32⟩ : BufTy).Contents (Elt F) → (⟨S64, .f32⟩ : BufTy).Contents (Elt F)),
    unary main_v648 main_v649 (broadcastInDim S1x64 ![1] bcast_S64_S1x64_1 : (⟨S64, .f32⟩ : BufTy).Contents (Elt F) → (⟨S1x64, .f32⟩ : BufTy).Contents (Elt F)),
    unary main_v649 main_v650 (broadcastInDim S50000x64 ![0, 1] bcast_S1x64_S50000x64_0_1 : (⟨S1x64, .f32⟩ : BufTy).Contents (Elt F) → (⟨S50000x64, .f32⟩ : BufTy).Contents (Elt F)),
    binary main_v645 main_v650 main_v651 (mulf : (⟨S50000x64, .f32⟩ : BufTy).Contents (Elt F) → (⟨S50000x64, .f32⟩ : BufTy).Contents (Elt F) → (⟨S50000x64, .f32⟩ : BufTy).Contents (Elt F)),
    unary main_v102 main_v652 (broadcastInDim S1x64 ![1] bcast_S64_S1x64_1 : (⟨S64, .f32⟩ : BufTy).Contents (Elt F) → (⟨S1x64, .f32⟩ : BufTy).Contents (Elt F)),
    unary main_v652 main_v653 (broadcastInDim S50000x64 ![0, 1] bcast_S1x64_S50000x64_0_1 : (⟨S1x64, .f32⟩ : BufTy).Contents (Elt F) → (⟨S50000x64, .f32⟩ : BufTy).Contents (Elt F)),
    binary main_v651 main_v653 main_v654 (mulf : (⟨S50000x64, .f32⟩ : BufTy).Contents (Elt F) → (⟨S50000x64, .f32⟩ : BufTy).Contents (Elt F) → (⟨S50000x64, .f32⟩ : BufTy).Contents (Elt F)),
    unary main_v104 main_v655 (broadcastInDim S1x64 ![1] bcast_S64_S1x64_1 : (⟨S64, .f32⟩ : BufTy).Contents (Elt F) → (⟨S1x64, .f32⟩ : BufTy).Contents (Elt F)),
    unary main_v655 main_v656 (broadcastInDim S50000x64 ![0, 1] bcast_S1x64_S50000x64_0_1 : (⟨S1x64, .f32⟩ : BufTy).Contents (Elt F) → (⟨S50000x64, .f32⟩ : BufTy).Contents (Elt F)),
    binary main_v654 main_v656 main_v657 (addf : (⟨S50000x64, .f32⟩ : BufTy).Contents (Elt F) → (⟨S50000x64, .f32⟩ : BufTy).Contents (Elt F) → (⟨S50000x64, .f32⟩ : BufTy).Contents (Elt F)),
    nullary main_cst_114 (constant S_ .f32 0xFF800000#32),
    binary main_v657 main_cst_114 main_v658 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v658 main_v659 (broadcastInDim S50000x1 ![0] bcast_S50000_S50000x1_0 : (⟨S50000, .f32⟩ : BufTy).Contents (Elt F) → (⟨S50000x1, .f32⟩ : BufTy).Contents (Elt F)),
    unary main_v659 main_v660 (broadcastInDim S50000x64 ![0, 1] bcast_S50000x1_S50000x64_0_1 : (⟨S50000x1, .f32⟩ : BufTy).Contents (Elt F) → (⟨S50000x64, .f32⟩ : BufTy).Contents (Elt F)),
    binary main_v657 main_v660 main_v661 (subf : (⟨S50000x64, .f32⟩ : BufTy).Contents (Elt F) → (⟨S50000x64, .f32⟩ : BufTy).Contents (Elt F) → (⟨S50000x64, .f32⟩ : BufTy).Contents (Elt F)),
    unary main_v661 main_v662 (Host.exp : (⟨S50000x64, .f32⟩ : BufTy).Contents (Elt F) → (⟨S50000x64, .f32⟩ : BufTy).Contents (Elt F)) ]

/-- @main's operations 1014 … 1094 of 1102 (window `main_part13`; a call's operations are the callee's, over the call's buffers). -/
noncomputable abbrev ops_part13 : List (HloOp τ sig (Elt F)) :=
  [ nullary main_cst_115 (constant S_ .f32 0x00000000#32),
    binary main_v662 main_cst_115 main_v663 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v663 main_v664 (broadcastInDim S50000x1 ![0] bcast_S50000_S50000x1_0 : (⟨S50000, .f32⟩ : BufTy).Contents (Elt F) → (⟨S50000x1, .f32⟩ : BufTy).Contents (Elt F)),
    nullary main_cst_116 (constant S_ .f32 0x3F800000#32),
    unary main_cst_116 main_v665 (broadcastInDim S50000x1 ![] bcast_S_S50000x1 : (⟨S_, .f32⟩ : BufTy).Contents (Elt F) → (⟨S50000x1, .f32⟩ : BufTy).Contents (Elt F)),
    binary main_v665 main_v664 main_v666 (addf : (⟨S50000x1, .f32⟩ : BufTy).Contents (Elt F) → (⟨S50000x1, .f32⟩ : BufTy).Contents (Elt F) → (⟨S50000x1, .f32⟩ : BufTy).Contents (Elt F)),
    unary main_v666 main_v667 (broadcastInDim S50000x64 ![0, 1] bcast_S50000x1_S50000x64_0_1 : (⟨S50000x1, .f32⟩ : BufTy).Contents (Elt F) → (⟨S50000x64, .f32⟩ : BufTy).Contents (Elt F)),
    binary main_v662 main_v667 main_v668 (Host.divf : (⟨S50000x64, .f32⟩ : BufTy).Contents (Elt F) → (⟨S50000x64, .f32⟩ : BufTy).Contents (Elt F) → (⟨S50000x64, .f32⟩ : BufTy).Contents (Elt F)),
    unary main_arg14 main_v669 ((transpose S64x32 [1, 0] · transposes_S32x64_S64x32_1_0) : (⟨S32x64, .f32⟩ : BufTy).Contents (Elt F) → (⟨S64x32, .f32⟩ : BufTy).Contents (Elt F)),
    binary main_v668 main_v669 main_v670 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    unary main_v33 main_v671 (broadcastInDim S690000x1 ![0] bcast_S690000_S690000x1_0 : (⟨S690000, .f32⟩ : BufTy).Contents (Elt F) → (⟨S690000x1, .f32⟩ : BufTy).Contents (Elt F)),
    nullary main_c_117 (constantI S_ 32 0#32),
    unary main_c_117 main_v672 (broadcastInDim S690000 ![] bcast_S_S690000 : (⟨S_, .i32⟩ : BufTy).Contents (Elt F) → (⟨S690000, .i32⟩ : BufTy).Contents (Elt F)),
    binary main_v5 main_v672 main_v673 (cmpi .slt : (⟨S690000, .i32⟩ : BufTy).Contents (Elt F) → (⟨S690000, .i32⟩ : BufTy).Contents (Elt F) → (⟨S690000, .i1⟩ : BufTy).Contents (Elt F)),
    nullary main_c_118 (constantI S_ 32 50000#32),
    unary main_c_118 main_v674 (broadcastInDim S690000 ![] bcast_S_S690000 : (⟨S_, .i32⟩ : BufTy).Contents (Elt F) → (⟨S690000, .i32⟩ : BufTy).Contents (Elt F)),
    binary main_v5 main_v674 main_v675 (addi : (⟨S690000, .i32⟩ : BufTy).Contents (Elt F) → (⟨S690000, .i32⟩ : BufTy).Contents (Elt F) → (⟨S690000, .i32⟩ : BufTy).Contents (Elt F)),
    ternary main_v673 main_v675 main_v5 main_v676 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    unary main_v676 main_v677 (broadcastInDim S690000x1 ![0] bcast_S690000_S690000x1_0 : (⟨S690000, .i32⟩ : BufTy).Contents (Elt F) → (⟨S690000x1, .i32⟩ : BufTy).Contents (Elt F)),
    binary main_v670 main_v677 main_v678 ((fun x i => Host.gather gather_S50000x32_S690000x1_S690000x32_1_0_n_n_0_1_132 x i) : (⟨S50000x32, .f32⟩ : BufTy).Contents (Elt F) → (⟨S690000x1, .i32⟩ : BufTy).Contents (Elt F) → (⟨S690000x32, .f32⟩ : BufTy).Contents (Elt F)),
    unary main_v671 main_v679 (broadcastInDim S690000x32 ![0, 1] bcast_S690000x1_S690000x32_0_1 : (⟨S690000x1, .f32⟩ : BufTy).Contents (Elt F) → (⟨S690000x32, .f32⟩ : BufTy).Contents (Elt F)),
    binary main_v679 main_v678 main_v680 (mulf : (⟨S690000x32, .f32⟩ : BufTy).Contents (Elt F) → (⟨S690000x32, .f32⟩ : BufTy).Contents (Elt F) → (⟨S690000x32, .f32⟩ : BufTy).Contents (Elt F)),
    nullary main_cst_119 (constant S_ .f32 0x00000000#32),
    unary main_cst_119 main_v681 (broadcastInDim S50000x32 ![] bcast_S_S50000x32 : (⟨S_, .f32⟩ : BufTy).Contents (Elt F) → (⟨S50000x32, .f32⟩ : BufTy).Contents (Elt F)),
    unary main_v6 main_v682 (broadcastInDim S690000x1 ![0] bcast_S690000_S690000x1_0 : (⟨S690000, .i32⟩ : BufTy).Contents (Elt F) → (⟨S690000x1, .i32⟩ : BufTy).Contents (Elt F)),
    ternary main_v681 main_v682 main_v680 main_v683 ((fun x i u => Host.scatterAdd scatter_S50000x32_S690000x1_S690000x32_1_0_0_1 x i u) : (⟨S50000x32, .f32⟩ : BufTy).Contents (Elt F) → (⟨S690000x1, .i32⟩ : BufTy).Contents (Elt F) → (⟨S690000x32, .f32⟩ : BufTy).Contents (Elt F) → (⟨S50000x32, .f32⟩ : BufTy).Contents (Elt F)),
    unary main_arg15 main_v684 (broadcastInDim S1x32 ![1] bcast_S32_S1x32_1 : (⟨S32, .f32⟩ : BufTy).Contents (Elt F) → (⟨S1x32, .f32⟩ : BufTy).Contents (Elt F)),
    unary main_v684 main_v685 (broadcastInDim S50000x32 ![0, 1] bcast_S1x32_S50000x32_0_1 : (⟨S1x32, .f32⟩ : BufTy).Contents (Elt F) → (⟨S50000x32, .f32⟩ : BufTy).Contents (Elt F)),
    binary main_v683 main_v685 main_v686 (addf : (⟨S50000x32, .f32⟩ : BufTy).Contents (Elt F) → (⟨S50000x32, .f32⟩ : BufTy).Contents (Elt F) → (⟨S50000x32, .f32⟩ : BufTy).Contents (Elt F)),
    nullary main_cst_120 (constant S_ .f32 0xFF800000#32),
    binary main_v686 main_cst_120 main_v687 ((fun x v => Host.reduce FloatOps.maximumf x v reducesTo_S50000x32_S50000_d1 h_S_) : (⟨S50000x32, .f32⟩ : BufTy).Contents (Elt F) → (⟨S_, .f32⟩ : BufTy).Contents (Elt F) → (⟨S50000, .f32⟩ : BufTy).Contents (Elt F)),
    unary main_v687 main_v688 (broadcastInDim S50000x1 ![0] bcast_S50000_S50000x1_0 : (⟨S50000, .f32⟩ : BufTy).Contents (Elt F) → (⟨S50000x1, .f32⟩ : BufTy).Contents (Elt F)),
    unary main_v688 main_v689 (broadcastInDim S50000x32 ![0, 1] bcast_S50000x1_S50000x32_0_1 : (⟨S50000x1, .f32⟩ : BufTy).Contents (Elt F) → (⟨S50000x32, .f32⟩ : BufTy).Contents (Elt F)),
    binary main_v686 main_v689 main_v690 (subf : (⟨S50000x32, .f32⟩ : BufTy).Contents (Elt F) → (⟨S50000x32, .f32⟩ : BufTy).Contents (Elt F) → (⟨S50000x32, .f32⟩ : BufTy).Contents (Elt F)),
    unary main_v690 main_v691 (Host.exp : (⟨S50000x32, .f32⟩ : BufTy).Contents (Elt F) → (⟨S50000x32, .f32⟩ : BufTy).Contents (Elt F)),
    nullary main_cst_121 (constant S_ .f32 0x00000000#32),
    binary main_v691 main_cst_121 main_v692 ((fun x v => Host.reduceAdd x v reducesTo_S50000x32_S50000_d1 h_S_) : (⟨S50000x32, .f32⟩ : BufTy).Contents (Elt F) → (⟨S_, .f32⟩ : BufTy).Contents (Elt F) → (⟨S50000, .f32⟩ : BufTy).Contents (Elt F)),
    unary main_v692 main_v693 (broadcastInDim S50000x1 ![0] bcast_S50000_S50000x1_0 : (⟨S50000, .f32⟩ : BufTy).Contents (Elt F) → (⟨S50000x1, .f32⟩ : BufTy).Contents (Elt F)),
    nullary main_cst_122 (constant S_ .f32 0x3F800000#32),
    unary main_cst_122 main_v694 (broadcastInDim S50000x1 ![] bcast_S_S50000x1 : (⟨S_, .f32⟩ : BufTy).Contents (Elt F) → (⟨S50000x1, .f32⟩ : BufTy).Contents (Elt F)),
    binary main_v694 main_v693 main_v695 (addf : (⟨S50000x1, .f32⟩ : BufTy).Contents (Elt F) → (⟨S50000x1, .f32⟩ : BufTy).Contents (Elt F) → (⟨S50000x1, .f32⟩ : BufTy).Contents (Elt F)),
    unary main_v695 main_v696 (broadcastInDim S50000x32 ![0, 1] bcast_S50000x1_S50000x32_0_1 : (⟨S50000x1, .f32⟩ : BufTy).Contents (Elt F) → (⟨S50000x32, .f32⟩ : BufTy).Contents (Elt F)),
    binary main_v691 main_v696 main_v697 (Host.divf : (⟨S50000x32, .f32⟩ : BufTy).Contents (Elt F) → (⟨S50000x32, .f32⟩ : BufTy).Contents (Elt F) → (⟨S50000x32, .f32⟩ : BufTy).Contents (Elt F)),
    nullary main_cst_123 (constant S_ .f32 0x00000000#32),
    binary main_v697 main_cst_123 main_v698 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    nullary main_cst_124 (constant S_ .f32 0x47435000#32),
    unary main_cst_124 main_v699 (broadcastInDim S32 ![] bcast_S_S32 : (⟨S_, .f32⟩ : BufTy).Contents (Elt F) → (⟨S32, .f32⟩ : BufTy).Contents (Elt F)),
    binary main_v698 main_v699 main_v700 (Host.divf : (⟨S32, .f32⟩ : BufTy).Contents (Elt F) → (⟨S32, .f32⟩ : BufTy).Contents (Elt F) → (⟨S32, .f32⟩ : BufTy).Contents (Elt F)),
    nullary main_c_125 (constantI S_ 32 0#32),
    TRef.nullary main_call12.cst (constant S_ .f32 0x00000000#32),
    TRef.binary (TRef.of main_v697 : TRef sig ⟨S50000x32, .f32⟩) main_call12.cst main_call12.v0 (fun x v => Host.reduceAdd x v reducesTo_S50000x32_S32_d0 h_S_),
    TRef.unary main_call12.v0 main_call12.v1 (broadcastInDim S1x32 ![1] bcast_S32_S1x32_1),
    TRef.nullary main_call12.cst_0 (constant S_ .f32 0x47435000#32),
    TRef.unary main_call12.cst_0 main_call12.v2 (broadcastInDim S1x32 ![] bcast_S_S1x32),
    TRef.binary main_call12.v1 main_call12.v2 main_call12.v3 Host.divf,
    TRef.unary main_call12.v3 main_call12.v4 (broadcastInDim S50000x32 ![0, 1] bcast_S1x32_S50000x32_0_1),
    TRef.binary (TRef.of main_v697 : TRef sig ⟨S50000x32, .f32⟩) main_call12.v4 main_call12.v5 subf,
    TRef.binary main_call12.v5 main_call12.v5 main_call12.v6 mulf,
    TRef.unary (TRef.of main_c_125 : TRef sig ⟨S_, .i32⟩) main_call12.v7 (sitofp .f32),
    TRef.nullary main_call12.cst_1 (constant S_ .f32 0x47435000#32),
    TRef.binary main_call12.cst_1 main_call12.v7 main_call12.v8 subf,
    TRef.nullary main_call12.cst_2 (constant S_ .f32 0x00000000#32),
    TRef.binary main_call12.v6 main_call12.cst_2 main_call12.v9 (fun x v => Host.reduceAdd x v reducesTo_S50000x32_S32_d0 h_S_),
    TRef.unary main_call12.v8 main_call12.v10 (broadcastInDim S32 ![] bcast_S_S32),
    TRef.binary main_call12.v9 main_call12.v10 main_call12.v11 Host.divf,
    TRef.nullary main_call12.cst_3 (constant S_ .f32 0x00000000#32),
    TRef.binary main_call12.v8 main_call12.cst_3 main_call12.v12 (cmpf .ogt),
    TRef.nullary main_call12.cst_4 (constant S_ .f32 0x7FC00000#32),
    TRef.unary main_call12.cst_4 main_call12.call0.v0 id,
    TRef.unary main_call12.call0.v0 main_call12.call0.v1 (broadcastInDim S32 ![] bcast_S_S32),
    TRef.ternary main_call12.v12 main_call12.v11 main_call12.call0.v1 main_call12.call0.v2 (fun p a b => select (broadcastInDim S32 ![] bcast_S_S32 p) a b),
    unary main_v700 main_v702 (broadcastInDim S1x32 ![1] bcast_S32_S1x32_1 : (⟨S32, .f32⟩ : BufTy).Contents (Elt F) → (⟨S1x32, .f32⟩ : BufTy).Contents (Elt F)),
    unary main_v702 main_v703 (broadcastInDim S50000x32 ![0, 1] bcast_S1x32_S50000x32_0_1 : (⟨S1x32, .f32⟩ : BufTy).Contents (Elt F) → (⟨S50000x32, .f32⟩ : BufTy).Contents (Elt F)),
    binary main_v697 main_v703 main_v704 (subf : (⟨S50000x32, .f32⟩ : BufTy).Contents (Elt F) → (⟨S50000x32, .f32⟩ : BufTy).Contents (Elt F) → (⟨S50000x32, .f32⟩ : BufTy).Contents (Elt F)),
    nullary main_cst_126 (constant S_ .f32 0x3727C5AC#32),
    unary main_cst_126 main_v705 (broadcastInDim S32 ![] bcast_S_S32 : (⟨S_, .f32⟩ : BufTy).Contents (Elt F) → (⟨S32, .f32⟩ : BufTy).Contents (Elt F)),
    binary main_v701 main_v705 main_v706 (addf : (⟨S32, .f32⟩ : BufTy).Contents (Elt F) → (⟨S32, .f32⟩ : BufTy).Contents (Elt F) → (⟨S32, .f32⟩ : BufTy).Contents (Elt F)),
    unary main_v706 main_v707 (Host.rsqrt : (⟨S32, .f32⟩ : BufTy).Contents (Elt F) → (⟨S32, .f32⟩ : BufTy).Contents (Elt F)),
    unary main_v707 main_v708 (broadcastInDim S1x32 ![1] bcast_S32_S1x32_1 : (⟨S32, .f32⟩ : BufTy).Contents (Elt F) → (⟨S1x32, .f32⟩ : BufTy).Contents (Elt F)),
    unary main_v708 main_v709 (broadcastInDim S50000x32 ![0, 1] bcast_S1x32_S50000x32_0_1 : (⟨S1x32, .f32⟩ : BufTy).Contents (Elt F) → (⟨S50000x32, .f32⟩ : BufTy).Contents (Elt F)),
    binary main_v704 main_v709 main_v710 (mulf : (⟨S50000x32, .f32⟩ : BufTy).Contents (Elt F) → (⟨S50000x32, .f32⟩ : BufTy).Contents (Elt F) → (⟨S50000x32, .f32⟩ : BufTy).Contents (Elt F)) ]

/-- @main's operations 1095 … 1102 of 1102 (window `main_part14`; a call's operations are the callee's, over the call's buffers). -/
noncomputable abbrev ops_part14 : List (HloOp τ sig (Elt F)) :=
  [ unary main_arg24 main_v711 (broadcastInDim S1x32 ![1] bcast_S32_S1x32_1 : (⟨S32, .f32⟩ : BufTy).Contents (Elt F) → (⟨S1x32, .f32⟩ : BufTy).Contents (Elt F)),
    unary main_v711 main_v712 (broadcastInDim S50000x32 ![0, 1] bcast_S1x32_S50000x32_0_1 : (⟨S1x32, .f32⟩ : BufTy).Contents (Elt F) → (⟨S50000x32, .f32⟩ : BufTy).Contents (Elt F)),
    binary main_v710 main_v712 main_v713 (mulf : (⟨S50000x32, .f32⟩ : BufTy).Contents (Elt F) → (⟨S50000x32, .f32⟩ : BufTy).Contents (Elt F) → (⟨S50000x32, .f32⟩ : BufTy).Contents (Elt F)),
    unary main_arg25 main_v714 (broadcastInDim S1x32 ![1] bcast_S32_S1x32_1 : (⟨S32, .f32⟩ : BufTy).Contents (Elt F) → (⟨S1x32, .f32⟩ : BufTy).Contents (Elt F)),
    unary main_v714 main_v715 (broadcastInDim S50000x32 ![0, 1] bcast_S1x32_S50000x32_0_1 : (⟨S1x32, .f32⟩ : BufTy).Contents (Elt F) → (⟨S50000x32, .f32⟩ : BufTy).Contents (Elt F)),
    binary main_v713 main_v715 main_v716 (addf : (⟨S50000x32, .f32⟩ : BufTy).Contents (Elt F) → (⟨S50000x32, .f32⟩ : BufTy).Contents (Elt F) → (⟨S50000x32, .f32⟩ : BufTy).Contents (Elt F)),
    binary main_v716 main_arg26 main_v717 ((fun l r => Host.dotGeneral dot_S50000x32_S32x1_S50000x1_1_0_0_1_n_n none l r) : (⟨S50000x32, .f32⟩ : BufTy).Contents (Elt F) → (⟨S32x1, .f32⟩ : BufTy).Contents (Elt F) → (⟨S50000x1, .f32⟩ : BufTy).Contents (Elt F)),
    reshape main_v717 main_v718 rfl shapeCasts_S50000x1_S50000 ]

/-- @main's 1102 operations, in order. -/
noncomputable abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14))))))))))))))

end Cert.ReferenceIdeal.Hand

end
-- ==== Proof.Ref.Defs.lean ====
import proofs.«408084_j48395691492010_3_alg».proof.Proof.Ref.Ops

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The named intermediates: each is its operation's function applied to its operands' terms, an operand that is
    itself named cited by its name, an argument read off the contents `V0` the run starts from. -/

noncomputable def res_main_v4 (V0 : Valuation τ sig (Elt F)) : (Proc.devRef .tc main_v4 : DevRef τ sig).ty.Contents (Elt F) :=
  iotaInDim S50000 32 0

/-- The edges' source nodes, then one self loop per node. -/
noncomputable def res_main_v5 (V0 : Valuation τ sig (Elt F)) : (Proc.devRef .tc main_v5 : DevRef τ sig).ty.Contents (Elt F) :=
  fn_main_v5 (shapeCast S640000 (extractStridedSlice S1x640000 ![0, 0] (V0 (Proc.devRef .tc main_arg1)) slices_S2x640000_S1x640000_0_0) shapeCasts_S1x640000_S640000) (res_main_v4 V0)

/-- The edges' target nodes, then one self loop per node. -/
noncomputable def res_main_v6 (V0 : Valuation τ sig (Elt F)) : (Proc.devRef .tc main_v6 : DevRef τ sig).ty.Contents (Elt F) :=
  fn_main_v6 (shapeCast S640000 (extractStridedSlice S1x640000 ![1, 0] (V0 (Proc.devRef .tc main_arg1)) slices_S2x640000_S1x640000_1_0) shapeCasts_S1x640000_S640000) (res_main_v4 V0)

/-- The edge weights, then weight one per self loop. -/
noncomputable def res_main_v8 (V0 : Valuation τ sig (Elt F)) : (Proc.devRef .tc main_v8 : DevRef τ sig).ty.Contents (Elt F) :=
  fn_main_v8 (V0 (Proc.devRef .tc main_arg2)) (broadcastInDim S50000 ![] bcast_S_S50000 (constant S_ .f32 0x3F800000#32))

/-- Each node's weighted in-degree (segment sum of the weights by target). -/
noncomputable def res_main_v11 (V0 : Valuation τ sig (Elt F)) : (Proc.devRef .tc main_v11 : DevRef τ sig).ty.Contents (Elt F) :=
  Host.scatterAdd scatter_S50000_S690000x1_S690000_n_0_0_1 (broadcastInDim S50000 ![] bcast_S_S50000 (constant S_ .f32 0x00000000#32)) (broadcastInDim S690000x1 ![0] bcast_S690000_S690000x1_0 (res_main_v6 V0)) (res_main_v8 V0)

/-- Deg^(-1/2) where the degree is positive, else zero. -/
noncomputable def res_main_v17 (V0 : Valuation τ sig (Elt F)) : (Proc.devRef .tc main_v17 : DevRef τ sig).ty.Contents (Elt F) :=
  select (cmpf .ogt (res_main_v11 V0) (broadcastInDim S50000 ![] bcast_S_S50000 (constant S_ .f32 0x00000000#32))) (Host.rsqrt (maximumf (res_main_v11 V0) (broadcastInDim S50000 ![] bcast_S_S50000 (constant S_ .f32 0x0DA24260#32)))) (broadcastInDim S50000 ![] bcast_S_S50000 (id (constant S_ .f32 0x00000000#32)))

/-- The symmetric normalisation dis[src] · w · dis[dst] per edge. -/
noncomputable def res_main_v33 (V0 : Valuation τ sig (Elt F)) : (Proc.devRef .tc main_v33 : DevRef τ sig).ty.Contents (Elt F) :=
  mulf (mulf (Host.gather gather_S50000_S690000x1_S690000_n_0_n_n_0_1_1 (res_main_v17 V0) (broadcastInDim S690000x1 ![0] bcast_S690000_S690000x1_0 (select (cmpi .slt (res_main_v5 V0) (broadcastInDim S690000 ![] bcast_S_S690000 (constantI S_ 32 0#32))) (addi (res_main_v5 V0) (broadcastInDim S690000 ![] bcast_S_S690000 (constantI S_ 32 50000#32))) (res_main_v5 V0)))) (res_main_v8 V0)) (Host.gather gather_S50000_S690000x1_S690000_n_0_n_n_0_1_1 (res_main_v17 V0) (broadcastInDim S690000x1 ![0] bcast_S690000_S690000x1_0 (select (cmpi .slt (res_main_v6 V0) (broadcastInDim S690000 ![] bcast_S_S690000 (constantI S_ 32 0#32))) (addi (res_main_v6 V0) (broadcastInDim S690000 ![] bcast_S_S690000 (constantI S_ 32 50000#32))) (res_main_v6 V0))))

/-- The input features: x[:, 4:22] · ESG_weight + ESG_bias + x[:, 0:4]. -/
noncomputable def res_main_v40 (V0 : Valuation τ sig (Elt F)) : (Proc.devRef .tc main_v40 : DevRef τ sig).ty.Contents (Elt F) :=
  addf (addf (Host.dotGeneral dot_S50000x18_S18x4_S50000x4_1_0_0_1_n_n none (extractStridedSlice S50000x18 ![0, 4] (V0 (Proc.devRef .tc main_arg0)) slices_S50000x22_S50000x18_0_4) (V0 (Proc.devRef .tc main_arg4))) (broadcastInDim S50000x4 ![0, 1] bcast_S1x4_S50000x4_0_1 (broadcastInDim S1x4 ![1] bcast_S4_S1x4_1 (V0 (Proc.devRef .tc main_arg5))))) (extractStridedSlice S50000x4 ![0, 0] (V0 (Proc.devRef .tc main_arg0)) slices_S50000x22_S50000x4_0_0)

noncomputable def res_main_v42 (V0 : Valuation τ sig (Elt F)) : (Proc.devRef .tc main_v42 : DevRef τ sig).ty.Contents (Elt F) :=
  shapeCast S64x64 (extractStridedSlice S1x64x64 ![0, 0, 0] (V0 (Proc.devRef .tc main_arg12)) slices_S8x64x64_S1x64x64_0_0_0) shapeCasts_S1x64x64_S64x64

noncomputable def res_main_v44 (V0 : Valuation τ sig (Elt F)) : (Proc.devRef .tc main_v44 : DevRef τ sig).ty.Contents (Elt F) :=
  shapeCast S64 (extractStridedSlice S1x64 ![0, 0] (V0 (Proc.devRef .tc main_arg13)) slices_S8x64_S1x64_0_0) shapeCasts_S1x64_S64

noncomputable def res_main_v46 (V0 : Valuation τ sig (Elt F)) : (Proc.devRef .tc main_v46 : DevRef τ sig).ty.Contents (Elt F) :=
  shapeCast S64x64 (extractStridedSlice S1x64x64 ![1, 0, 0] (V0 (Proc.devRef .tc main_arg12)) slices_S8x64x64_S1x64x64_1_0_0) shapeCasts_S1x64x64_S64x64

noncomputable def res_main_v48 (V0 : Valuation τ sig (Elt F)) : (Proc.devRef .tc main_v48 : DevRef τ sig).ty.Contents (Elt F) :=
  shapeCast S64 (extractStridedSlice S1x64 ![1, 0] (V0 (Proc.devRef .tc main_arg13)) slices_S8x64_S1x64_1_0) shapeCasts_S1x64_S64

noncomputable def res_main_v50 (V0 : Valuation τ sig (Elt F)) : (Proc.devRef .tc main_v50 : DevRef τ sig).ty.Contents (Elt F) :=
  shapeCast S64x64 (extractStridedSlice S1x64x64 ![2, 0, 0] (V0 (Proc.devRef .tc main_arg12)) slices_S8x64x64_S1x64x64_2_0_0) shapeCasts_S1x64x64_S64x64

noncomputable def res_main_v52 (V0 : Valuation τ sig (Elt F)) : (Proc.devRef .tc main_v52 : DevRef τ sig).ty.Contents (Elt F) :=
  shapeCast S64 (extractStridedSlice S1x64 ![2, 0] (V0 (Proc.devRef .tc main_arg13)) slices_S8x64_S1x64_2_0) shapeCasts_S1x64_S64

noncomputable def res_main_v54 (V0 : Valuation τ sig (Elt F)) : (Proc.devRef .tc main_v54 : DevRef τ sig).ty.Contents (Elt F) :=
  shapeCast S64x64 (extractStridedSlice S1x64x64 ![3, 0, 0] (V0 (Proc.devRef .tc main_arg12)) slices_S8x64x64_S1x64x64_3_0_0) shapeCasts_S1x64x64_S64x64

noncomputable def res_main_v56 (V0 : Valuation τ sig (Elt F)) : (Proc.devRef .tc main_v56 : DevRef τ sig).ty.Contents (Elt F) :=
  shapeCast S64 (extractStridedSlice S1x64 ![3, 0] (V0 (Proc.devRef .tc main_arg13)) slices_S8x64_S1x64_3_0) shapeCasts_S1x64_S64

noncomputable def res_main_v58 (V0 : Valuation τ sig (Elt F)) : (Proc.devRef .tc main_v58 : DevRef τ sig).ty.Contents (Elt F) :=
  shapeCast S64x64 (extractStridedSlice S1x64x64 ![4, 0, 0] (V0 (Proc.devRef .tc main_arg12)) slices_S8x64x64_S1x64x64_4_0_0) shapeCasts_S1x64x64_S64x64

noncomputable def res_main_v60 (V0 : Valuation τ sig (Elt F)) : (Proc.devRef .tc main_v60 : DevRef τ sig).ty.Contents (Elt F) :=
  shapeCast S64 (extractStridedSlice S1x64 ![4, 0] (V0 (Proc.devRef .tc main_arg13)) slices_S8x64_S1x64_4_0) shapeCasts_S1x64_S64

noncomputable def res_main_v62 (V0 : Valuation τ sig (Elt F)) : (Proc.devRef .tc main_v62 : DevRef τ sig).ty.Contents (Elt F) :=
  shapeCast S64x64 (extractStridedSlice S1x64x64 ![5, 0, 0] (V0 (Proc.devRef .tc main_arg12)) slices_S8x64x64_S1x64x64_5_0_0) shapeCasts_S1x64x64_S64x64

noncomputable def res_main_v64 (V0 : Valuation τ sig (Elt F)) : (Proc.devRef .tc main_v64 : DevRef τ sig).ty.Contents (Elt F) :=
  shapeCast S64 (extractStridedSlice S1x64 ![5, 0] (V0 (Proc.devRef .tc main_arg13)) slices_S8x64_S1x64_5_0) shapeCasts_S1x64_S64

noncomputable def res_main_v66 (V0 : Valuation τ sig (Elt F)) : (Proc.devRef .tc main_v66 : DevRef τ sig).ty.Contents (Elt F) :=
  shapeCast S64x64 (extractStridedSlice S1x64x64 ![6, 0, 0] (V0 (Proc.devRef .tc main_arg12)) slices_S8x64x64_S1x64x64_6_0_0) shapeCasts_S1x64x64_S64x64

noncomputable def res_main_v68 (V0 : Valuation τ sig (Elt F)) : (Proc.devRef .tc main_v68 : DevRef τ sig).ty.Contents (Elt F) :=
  shapeCast S64 (extractStridedSlice S1x64 ![6, 0] (V0 (Proc.devRef .tc main_arg13)) slices_S8x64_S1x64_6_0) shapeCasts_S1x64_S64

noncomputable def res_main_v70 (V0 : Valuation τ sig (Elt F)) : (Proc.devRef .tc main_v70 : DevRef τ sig).ty.Contents (Elt F) :=
  shapeCast S64x64 (extractStridedSlice S1x64x64 ![7, 0, 0] (V0 (Proc.devRef .tc main_arg12)) slices_S8x64x64_S1x64x64_7_0_0) shapeCasts_S1x64x64_S64x64

noncomputable def res_main_v72 (V0 : Valuation τ sig (Elt F)) : (Proc.devRef .tc main_v72 : DevRef τ sig).ty.Contents (Elt F) :=
  shapeCast S64 (extractStridedSlice S1x64 ![7, 0] (V0 (Proc.devRef .tc main_arg13)) slices_S8x64_S1x64_7_0) shapeCasts_S1x64_S64

noncomputable def res_main_v74 (V0 : Valuation τ sig (Elt F)) : (Proc.devRef .tc main_v74 : DevRef τ sig).ty.Contents (Elt F) :=
  shapeCast S64 (extractStridedSlice S1x64 ![0, 0] (V0 (Proc.devRef .tc main_arg22)) slices_S8x64_S1x64_0_0) shapeCasts_S1x64_S64

noncomputable def res_main_v76 (V0 : Valuation τ sig (Elt F)) : (Proc.devRef .tc main_v76 : DevRef τ sig).ty.Contents (Elt F) :=
  shapeCast S64 (extractStridedSlice S1x64 ![0, 0] (V0 (Proc.devRef .tc main_arg23)) slices_S8x64_S1x64_0_0) shapeCasts_S1x64_S64

noncomputable def res_main_v78 (V0 : Valuation τ sig (Elt F)) : (Proc.devRef .tc main_v78 : DevRef τ sig).ty.Contents (Elt F) :=
  shapeCast S64 (extractStridedSlice S1x64 ![1, 0] (V0 (Proc.devRef .tc main_arg22)) slices_S8x64_S1x64_1_0) shapeCasts_S1x64_S64

noncomputable def res_main_v80 (V0 : Valuation τ sig (Elt F)) : (Proc.devRef .tc main_v80 : DevRef τ sig).ty.Contents (Elt F) :=
  shapeCast S64 (extractStridedSlice S1x64 ![1, 0] (V0 (Proc.devRef .tc main_arg23)) slices_S8x64_S1x64_1_0) shapeCasts_S1x64_S64

noncomputable def res_main_v82 (V0 : Valuation τ sig (Elt F)) : (Proc.devRef .tc main_v82 : DevRef τ sig).ty.Contents (Elt F) :=
  shapeCast S64 (extractStridedSlice S1x64 ![2, 0] (V0 (Proc.devRef .tc main_arg22)) slices_S8x64_S1x64_2_0) shapeCasts_S1x64_S64

noncomputable def res_main_v84 (V0 : Valuation τ sig (Elt F)) : (Proc.devRef .tc main_v84 : DevRef τ sig).ty.Contents (Elt F) :=
  shapeCast S64 (extractStridedSlice S1x64 ![2, 0] (V0 (Proc.devRef .tc main_arg23)) slices_S8x64_S1x64_2_0) shapeCasts_S1x64_S64

noncomputable def res_main_v86 (V0 : Valuation τ sig (Elt F)) : (Proc.devRef .tc main_v86 : DevRef τ sig).ty.Contents (Elt F) :=
  shapeCast S64 (extractStridedSlice S1x64 ![3, 0] (V0 (Proc.devRef .tc main_arg22)) slices_S8x64_S1x64_3_0) shapeCasts_S1x64_S64

noncomputable def res_main_v88 (V0 : Valuation τ sig (Elt F)) : (Proc.devRef .tc main_v88 : DevRef τ sig).ty.Contents (Elt F) :=
  shapeCast S64 (extractStridedSlice S1x64 ![3, 0] (V0 (Proc.devRef .tc main_arg23)) slices_S8x64_S1x64_3_0) shapeCasts_S1x64_S64

noncomputable def res_main_v90 (V0 : Valuation τ sig (Elt F)) : (Proc.devRef .tc main_v90 : DevRef τ sig).ty.Contents (Elt F) :=
  shapeCast S64 (extractStridedSlice S1x64 ![4, 0] (V0 (Proc.devRef .tc main_arg22)) slices_S8x64_S1x64_4_0) shapeCasts_S1x64_S64

noncomputable def res_main_v92 (V0 : Valuation τ sig (Elt F)) : (Proc.devRef .tc main_v92 : DevRef τ sig).ty.Contents (Elt F) :=
  shapeCast S64 (extractStridedSlice S1x64 ![4, 0] (V0 (Proc.devRef .tc main_arg23)) slices_S8x64_S1x64_4_0) shapeCasts_S1x64_S64

noncomputable def res_main_v94 (V0 : Valuation τ sig (Elt F)) : (Proc.devRef .tc main_v94 : DevRef τ sig).ty.Contents (Elt F) :=
  shapeCast S64 (extractStridedSlice S1x64 ![5, 0] (V0 (Proc.devRef .tc main_arg22)) slices_S8x64_S1x64_5_0) shapeCasts_S1x64_S64

noncomputable def res_main_v96 (V0 : Valuation τ sig (Elt F)) : (Proc.devRef .tc main_v96 : DevRef τ sig).ty.Contents (Elt F) :=
  shapeCast S64 (extractStridedSlice S1x64 ![5, 0] (V0 (Proc.devRef .tc main_arg23)) slices_S8x64_S1x64_5_0) shapeCasts_S1x64_S64

noncomputable def res_main_v98 (V0 : Valuation τ sig (Elt F)) : (Proc.devRef .tc main_v98 : DevRef τ sig).ty.Contents (Elt F) :=
  shapeCast S64 (extractStridedSlice S1x64 ![6, 0] (V0 (Proc.devRef .tc main_arg22)) slices_S8x64_S1x64_6_0) shapeCasts_S1x64_S64

noncomputable def res_main_v100 (V0 : Valuation τ sig (Elt F)) : (Proc.devRef .tc main_v100 : DevRef τ sig).ty.Contents (Elt F) :=
  shapeCast S64 (extractStridedSlice S1x64 ![6, 0] (V0 (Proc.devRef .tc main_arg23)) slices_S8x64_S1x64_6_0) shapeCasts_S1x64_S64

noncomputable def res_main_v102 (V0 : Valuation τ sig (Elt F)) : (Proc.devRef .tc main_v102 : DevRef τ sig).ty.Contents (Elt F) :=
  shapeCast S64 (extractStridedSlice S1x64 ![7, 0] (V0 (Proc.devRef .tc main_arg22)) slices_S8x64_S1x64_7_0) shapeCasts_S1x64_S64

noncomputable def res_main_v104 (V0 : Valuation τ sig (Elt F)) : (Proc.devRef .tc main_v104 : DevRef τ sig).ty.Contents (Elt F) :=
  shapeCast S64 (extractStridedSlice S1x64 ![7, 0] (V0 (Proc.devRef .tc main_arg23)) slices_S8x64_S1x64_7_0) shapeCasts_S1x64_S64

/-- Layer 0: the matmul x · Wᵀ. -/
noncomputable def res_main_v106 (V0 : Valuation τ sig (Elt F)) : (Proc.devRef .tc main_v106 : DevRef τ sig).ty.Contents (Elt F) :=
  Host.dotGeneral dot_S50000x4_S4x64_S50000x64_1_0_0_1_n_n none (res_main_v40 V0) (transpose S4x64 [1, 0] (V0 (Proc.devRef .tc main_arg6)) transposes_S64x4_S4x64_1_0)

noncomputable def res_main_v107 (V0 : Valuation τ sig (Elt F)) : (Proc.devRef .tc main_v107 : DevRef τ sig).ty.Contents (Elt F) :=
  broadcastInDim S690000x1 ![0] bcast_S690000_S690000x1_0 (res_main_v33 V0)

noncomputable def res_main_v109 (V0 : Valuation τ sig (Elt F)) : (Proc.devRef .tc main_v109 : DevRef τ sig).ty.Contents (Elt F) :=
  cmpi .slt (res_main_v5 V0) (broadcastInDim S690000 ![] bcast_S_S690000 (constantI S_ 32 0#32))

/-- Layer 0: the segment sum by target of norm · (the matmul's rows gathered by source). -/
noncomputable def res_main_v119 (V0 : Valuation τ sig (Elt F)) : (Proc.devRef .tc main_v119 : DevRef τ sig).ty.Contents (Elt F) :=
  Host.scatterAdd scatter_S50000x64_S690000x1_S690000x64_1_0_0_1 (broadcastInDim S50000x64 ![] bcast_S_S50000x64 (constant S_ .f32 0x00000000#32)) (broadcastInDim S690000x1 ![0] bcast_S690000_S690000x1_0 (res_main_v6 V0)) (mulf (broadcastInDim S690000x64 ![0, 1] bcast_S690000x1_S690000x64_0_1 (res_main_v107 V0)) (Host.gather gather_S50000x64_S690000x1_S690000x64_1_0_n_n_0_1_164 (res_main_v106 V0) (broadcastInDim S690000x1 ![0] bcast_S690000_S690000x1_0 (select (res_main_v109 V0) (addi (res_main_v5 V0) (broadcastInDim S690000 ![] bcast_S_S690000 (constantI S_ 32 50000#32))) (res_main_v5 V0)))))

/-- Layer 0: the aggregation plus the bias; Layer 0: what the batch-norm normalises. -/
noncomputable def res_main_v122 (V0 : Valuation τ sig (Elt F)) : (Proc.devRef .tc main_v122 : DevRef τ sig).ty.Contents (Elt F) :=
  addf (res_main_v119 V0) (broadcastInDim S50000x64 ![0, 1] bcast_S1x64_S50000x64_0_1 (broadcastInDim S1x64 ![1] bcast_S64_S1x64_1 (V0 (Proc.devRef .tc main_arg7))))

/-- Layer 0: the batch-norm input's column means. -/
noncomputable def res_main_v125 (V0 : Valuation τ sig (Elt F)) : (Proc.devRef .tc main_v125 : DevRef τ sig).ty.Contents (Elt F) :=
  Host.divf (Host.reduceAdd (res_main_v122 V0) (constant S_ .f32 0x00000000#32) reducesTo_S50000x64_S64_d0 h_S_) (broadcastInDim S64 ![] bcast_S_S64 (constant S_ .f32 0x47435000#32))

noncomputable def res_main_call1_v5 (V0 : Valuation τ sig (Elt F)) : (Proc.devRef .tc main_call1_v5 : DevRef τ sig).ty.Contents (Elt F) :=
  subf (res_main_v122 V0) (broadcastInDim S50000x64 ![0, 1] bcast_S1x64_S50000x64_0_1 (Host.divf (broadcastInDim S1x64 ![1] bcast_S64_S1x64_1 (Host.reduceAdd (res_main_v122 V0) (constant S_ .f32 0x00000000#32) reducesTo_S50000x64_S64_d0 h_S_)) (broadcastInDim S1x64 ![] bcast_S_S1x64 (constant S_ .f32 0x47435000#32))))

noncomputable def res_main_call1_v8 (V0 : Valuation τ sig (Elt F)) : (Proc.devRef .tc main_call1_v8 : DevRef τ sig).ty.Contents (Elt F) :=
  subf (constant S_ .f32 0x47435000#32) (sitofp .f32 (constantI S_ 32 0#32))

/-- Layer 0: the batch-norm input's column variances (biased). -/
noncomputable def res_main_v126 (V0 : Valuation τ sig (Elt F)) : (Proc.devRef .tc main_v126 : DevRef τ sig).ty.Contents (Elt F) :=
  select (broadcastInDim S64 ![] bcast_S_S64 (cmpf .ogt (res_main_call1_v8 V0) (constant S_ .f32 0x00000000#32))) (Host.divf (Host.reduceAdd (mulf (res_main_call1_v5 V0) (res_main_call1_v5 V0)) (constant S_ .f32 0x00000000#32) reducesTo_S50000x64_S64_d0 h_S_) (broadcastInDim S64 ![] bcast_S_S64 (res_main_call1_v8 V0))) (broadcastInDim S64 ![] bcast_S_S64 (id (constant S_ .f32 0x7FC00000#32)))

/-- Layer 0: the batch-norm: (x − mean) · rsqrt(var + ε) · γ + β; Layer 0: what softmax_one is taken of. -/
noncomputable def res_main_v141 (V0 : Valuation τ sig (Elt F)) : (Proc.devRef .tc main_v141 : DevRef τ sig).ty.Contents (Elt F) :=
  addf (mulf (mulf (subf (res_main_v122 V0) (broadcastInDim S50000x64 ![0, 1] bcast_S1x64_S50000x64_0_1 (broadcastInDim S1x64 ![1] bcast_S64_S1x64_1 (res_main_v125 V0)))) (broadcastInDim S50000x64 ![0, 1] bcast_S1x64_S50000x64_0_1 (broadcastInDim S1x64 ![1] bcast_S64_S1x64_1 (Host.rsqrt (addf (res_main_v126 V0) (broadcastInDim S64 ![] bcast_S_S64 (constant S_ .f32 0x3727C5AC#32))))))) (broadcastInDim S50000x64 ![0, 1] bcast_S1x64_S50000x64_0_1 (broadcastInDim S1x64 ![1] bcast_S64_S1x64_1 (V0 (Proc.devRef .tc main_arg16))))) (broadcastInDim S50000x64 ![0, 1] bcast_S1x64_S50000x64_0_1 (broadcastInDim S1x64 ![1] bcast_S64_S1x64_1 (V0 (Proc.devRef .tc main_arg17))))

noncomputable def res_main_v146 (V0 : Valuation τ sig (Elt F)) : (Proc.devRef .tc main_v146 : DevRef τ sig).ty.Contents (Elt F) :=
  Host.exp (subf (res_main_v141 V0) (broadcastInDim S50000x64 ![0, 1] bcast_S50000x1_S50000x64_0_1 (broadcastInDim S50000x1 ![0] bcast_S50000_S50000x1_0 (Host.reduce FloatOps.maximumf (res_main_v141 V0) (constant S_ .f32 0xFF800000#32) reducesTo_S50000x64_S50000_d1 h_S_))))

/-- Layer 0: softmax_one along the rows: e / (1 + Σ e), e = exp(x − row max). -/
noncomputable def res_main_v152 (V0 : Valuation τ sig (Elt F)) : (Proc.devRef .tc main_v152 : DevRef τ sig).ty.Contents (Elt F) :=
  Host.divf (res_main_v146 V0) (broadcastInDim S50000x64 ![0, 1] bcast_S50000x1_S50000x64_0_1 (addf (broadcastInDim S50000x1 ![] bcast_S_S50000x1 (constant S_ .f32 0x3F800000#32)) (broadcastInDim S50000x1 ![0] bcast_S50000_S50000x1_0 (Host.reduceAdd (res_main_v146 V0) (constant S_ .f32 0x00000000#32) reducesTo_S50000x64_S50000_d1 h_S_))))

/-- Layer 1: the matmul x · Wᵀ. -/
noncomputable def res_main_v154 (V0 : Valuation τ sig (Elt F)) : (Proc.devRef .tc main_v154 : DevRef τ sig).ty.Contents (Elt F) :=
  Host.dotGeneral dot_S50000x64_S64x128_S50000x128_1_0_0_1_n_n none (res_main_v152 V0) (transpose S64x128 [1, 0] (V0 (Proc.devRef .tc main_arg8)) transposes_S128x64_S64x128_1_0)

noncomputable def res_main_v155 (V0 : Valuation τ sig (Elt F)) : (Proc.devRef .tc main_v155 : DevRef τ sig).ty.Contents (Elt F) :=
  broadcastInDim S690000x1 ![0] bcast_S690000_S690000x1_0 (res_main_v33 V0)

noncomputable def res_main_v157 (V0 : Valuation τ sig (Elt F)) : (Proc.devRef .tc main_v157 : DevRef τ sig).ty.Contents (Elt F) :=
  cmpi .slt (res_main_v5 V0) (broadcastInDim S690000 ![] bcast_S_S690000 (constantI S_ 32 0#32))

noncomputable def res_main_v158 (V0 : Valuation τ sig (Elt F)) : (Proc.devRef .tc main_v158 : DevRef τ sig).ty.Contents (Elt F) :=
  broadcastInDim S690000 ![] bcast_S_S690000 (constantI S_ 32 50000#32)

/-- Layer 1: the segment sum by target of norm · (the matmul's rows gathered by source). -/
noncomputable def res_main_v167 (V0 : Valuation τ sig (Elt F)) : (Proc.devRef .tc main_v167 : DevRef τ sig).ty.Contents (Elt F) :=
  Host.scatterAdd scatter_S50000x128_S690000x1_S690000x128_1_0_0_1 (broadcastInDim S50000x128 ![] bcast_S_S50000x128 (constant S_ .f32 0x00000000#32)) (broadcastInDim S690000x1 ![0] bcast_S690000_S690000x1_0 (res_main_v6 V0)) (mulf (broadcastInDim S690000x128 ![0, 1] bcast_S690000x1_S690000x128_0_1 (res_main_v155 V0)) (Host.gather gather_S50000x128_S690000x1_S690000x128_1_0_n_n_0_1_1128 (res_main_v154 V0) (broadcastInDim S690000x1 ![0] bcast_S690000_S690000x1_0 (select (res_main_v157 V0) (addi (res_main_v5 V0) (res_main_v158 V0)) (res_main_v5 V0)))))

/-- Layer 1: the aggregation plus the bias; Layer 1: what the batch-norm normalises. -/
noncomputable def res_main_v170 (V0 : Valuation τ sig (Elt F)) : (Proc.devRef .tc main_v170 : DevRef τ sig).ty.Contents (Elt F) :=
  addf (res_main_v167 V0) (broadcastInDim S50000x128 ![0, 1] bcast_S1x128_S50000x128_0_1 (broadcastInDim S1x128 ![1] bcast_S128_S1x128_1 (V0 (Proc.devRef .tc main_arg9))))

/-- Layer 1: the batch-norm input's column means. -/
noncomputable def res_main_v173 (V0 : Valuation τ sig (Elt F)) : (Proc.devRef .tc main_v173 : DevRef τ sig).ty.Contents (Elt F) :=
  Host.divf (Host.reduceAdd (res_main_v170 V0) (constant S_ .f32 0x00000000#32) reducesTo_S50000x128_S128_d0 h_S_) (broadcastInDim S128 ![] bcast_S_S128 (constant S_ .f32 0x47435000#32))

noncomputable def res_main_call2_v5 (V0 : Valuation τ sig (Elt F)) : (Proc.devRef .tc main_call2_v5 : DevRef τ sig).ty.Contents (Elt F) :=
  subf (res_main_v170 V0) (broadcastInDim S50000x128 ![0, 1] bcast_S1x128_S50000x128_0_1 (Host.divf (broadcastInDim S1x128 ![1] bcast_S128_S1x128_1 (Host.reduceAdd (res_main_v170 V0) (constant S_ .f32 0x00000000#32) reducesTo_S50000x128_S128_d0 h_S_)) (broadcastInDim S1x128 ![] bcast_S_S1x128 (constant S_ .f32 0x47435000#32))))

noncomputable def res_main_call2_v8 (V0 : Valuation τ sig (Elt F)) : (Proc.devRef .tc main_call2_v8 : DevRef τ sig).ty.Contents (Elt F) :=
  subf (constant S_ .f32 0x47435000#32) (sitofp .f32 (constantI S_ 32 0#32))

/-- Layer 1: the batch-norm input's column variances (biased). -/
noncomputable def res_main_v174 (V0 : Valuation τ sig (Elt F)) : (Proc.devRef .tc main_v174 : DevRef τ sig).ty.Contents (Elt F) :=
  select (broadcastInDim S128 ![] bcast_S_S128 (cmpf .ogt (res_main_call2_v8 V0) (constant S_ .f32 0x00000000#32))) (Host.divf (Host.reduceAdd (mulf (res_main_call2_v5 V0) (res_main_call2_v5 V0)) (constant S_ .f32 0x00000000#32) reducesTo_S50000x128_S128_d0 h_S_) (broadcastInDim S128 ![] bcast_S_S128 (res_main_call2_v8 V0))) (broadcastInDim S128 ![] bcast_S_S128 (id (constant S_ .f32 0x7FC00000#32)))

/-- Layer 1: the batch-norm: (x − mean) · rsqrt(var + ε) · γ + β; Layer 1: what softmax_one is taken of. -/
noncomputable def res_main_v189 (V0 : Valuation τ sig (Elt F)) : (Proc.devRef .tc main_v189 : DevRef τ sig).ty.Contents (Elt F) :=
  addf (mulf (mulf (subf (res_main_v170 V0) (broadcastInDim S50000x128 ![0, 1] bcast_S1x128_S50000x128_0_1 (broadcastInDim S1x128 ![1] bcast_S128_S1x128_1 (res_main_v173 V0)))) (broadcastInDim S50000x128 ![0, 1] bcast_S1x128_S50000x128_0_1 (broadcastInDim S1x128 ![1] bcast_S128_S1x128_1 (Host.rsqrt (addf (res_main_v174 V0) (broadcastInDim S128 ![] bcast_S_S128 (constant S_ .f32 0x3727C5AC#32))))))) (broadcastInDim S50000x128 ![0, 1] bcast_S1x128_S50000x128_0_1 (broadcastInDim S1x128 ![1] bcast_S128_S1x128_1 (V0 (Proc.devRef .tc main_arg18))))) (broadcastInDim S50000x128 ![0, 1] bcast_S1x128_S50000x128_0_1 (broadcastInDim S1x128 ![1] bcast_S128_S1x128_1 (V0 (Proc.devRef .tc main_arg19))))

noncomputable def res_main_v194 (V0 : Valuation τ sig (Elt F)) : (Proc.devRef .tc main_v194 : DevRef τ sig).ty.Contents (Elt F) :=
  Host.exp (subf (res_main_v189 V0) (broadcastInDim S50000x128 ![0, 1] bcast_S50000x1_S50000x128_0_1 (broadcastInDim S50000x1 ![0] bcast_S50000_S50000x1_0 (Host.reduce FloatOps.maximumf (res_main_v189 V0) (constant S_ .f32 0xFF800000#32) reducesTo_S50000x128_S50000_d1 h_S_))))

/-- Layer 1: softmax_one along the rows: e / (1 + Σ e), e = exp(x − row max). -/
noncomputable def res_main_v200 (V0 : Valuation τ sig (Elt F)) : (Proc.devRef .tc main_v200 : DevRef τ sig).ty.Contents (Elt F) :=
  Host.divf (res_main_v194 V0) (broadcastInDim S50000x128 ![0, 1] bcast_S50000x1_S50000x128_0_1 (addf (broadcastInDim S50000x1 ![] bcast_S_S50000x1 (constant S_ .f32 0x3F800000#32)) (broadcastInDim S50000x1 ![0] bcast_S50000_S50000x1_0 (Host.reduceAdd (res_main_v194 V0) (constant S_ .f32 0x00000000#32) reducesTo_S50000x128_S50000_d1 h_S_))))

/-- Layer 2: the matmul x · Wᵀ. -/
noncomputable def res_main_v202 (V0 : Valuation τ sig (Elt F)) : (Proc.devRef .tc main_v202 : DevRef τ sig).ty.Contents (Elt F) :=
  Host.dotGeneral dot_S50000x128_S128x64_S50000x64_1_0_0_1_n_n none (res_main_v200 V0) (transpose S128x64 [1, 0] (V0 (Proc.devRef .tc main_arg10)) transposes_S64x128_S128x64_1_0)

noncomputable def res_main_v203 (V0 : Valuation τ sig (Elt F)) : (Proc.devRef .tc main_v203 : DevRef τ sig).ty.Contents (Elt F) :=
  broadcastInDim S690000x1 ![0] bcast_S690000_S690000x1_0 (res_main_v33 V0)

noncomputable def res_main_v208 (V0 : Valuation τ sig (Elt F)) : (Proc.devRef .tc main_v208 : DevRef τ sig).ty.Contents (Elt F) :=
  select (cmpi .slt (res_main_v5 V0) (broadcastInDim S690000 ![] bcast_S_S690000 (constantI S_ 32 0#32))) (addi (res_main_v5 V0) (broadcastInDim S690000 ![] bcast_S_S690000 (constantI S_ 32 50000#32))) (res_main_v5 V0)

/-- Layer 2: the segment sum by target of norm · (the matmul's rows gathered by source). -/
noncomputable def res_main_v215 (V0 : Valuation τ sig (Elt F)) : (Proc.devRef .tc main_v215 : DevRef τ sig).ty.Contents (Elt F) :=
  Host.scatterAdd scatter_S50000x64_S690000x1_S690000x64_1_0_0_1 (broadcastInDim S50000x64 ![] bcast_S_S50000x64 (constant S_ .f32 0x00000000#32)) (broadcastInDim S690000x1 ![0] bcast_S690000_S690000x1_0 (res_main_v6 V0)) (mulf (broadcastInDim S690000x64 ![0, 1] bcast_S690000x1_S690000x64_0_1 (res_main_v203 V0)) (Host.gather gather_S50000x64_S690000x1_S690000x64_1_0_n_n_0_1_164 (res_main_v202 V0) (broadcastInDim S690000x1 ![0] bcast_S690000_S690000x1_0 (res_main_v208 V0))))

/-- Layer 2: the aggregation plus the bias; Layer 2: what the batch-norm normalises. -/
noncomputable def res_main_v218 (V0 : Valuation τ sig (Elt F)) : (Proc.devRef .tc main_v218 : DevRef τ sig).ty.Contents (Elt F) :=
  addf (res_main_v215 V0) (broadcastInDim S50000x64 ![0, 1] bcast_S1x64_S50000x64_0_1 (broadcastInDim S1x64 ![1] bcast_S64_S1x64_1 (V0 (Proc.devRef .tc main_arg11))))

/-- Layer 2: the batch-norm input's column means. -/
noncomputable def res_main_v221 (V0 : Valuation τ sig (Elt F)) : (Proc.devRef .tc main_v221 : DevRef τ sig).ty.Contents (Elt F) :=
  Host.divf (Host.reduceAdd (res_main_v218 V0) (constant S_ .f32 0x00000000#32) reducesTo_S50000x64_S64_d0 h_S_) (broadcastInDim S64 ![] bcast_S_S64 (constant S_ .f32 0x47435000#32))

noncomputable def res_main_call3_v5 (V0 : Valuation τ sig (Elt F)) : (Proc.devRef .tc main_call3_v5 : DevRef τ sig).ty.Contents (Elt F) :=
  subf (res_main_v218 V0) (broadcastInDim S50000x64 ![0, 1] bcast_S1x64_S50000x64_0_1 (Host.divf (broadcastInDim S1x64 ![1] bcast_S64_S1x64_1 (Host.reduceAdd (res_main_v218 V0) (constant S_ .f32 0x00000000#32) reducesTo_S50000x64_S64_d0 h_S_)) (broadcastInDim S1x64 ![] bcast_S_S1x64 (constant S_ .f32 0x47435000#32))))

noncomputable def res_main_call3_v8 (V0 : Valuation τ sig (Elt F)) : (Proc.devRef .tc main_call3_v8 : DevRef τ sig).ty.Contents (Elt F) :=
  subf (constant S_ .f32 0x47435000#32) (sitofp .f32 (constantI S_ 32 0#32))

/-- Layer 2: the batch-norm input's column variances (biased). -/
noncomputable def res_main_v222 (V0 : Valuation τ sig (Elt F)) : (Proc.devRef .tc main_v222 : DevRef τ sig).ty.Contents (Elt F) :=
  select (broadcastInDim S64 ![] bcast_S_S64 (cmpf .ogt (res_main_call3_v8 V0) (constant S_ .f32 0x00000000#32))) (Host.divf (Host.reduceAdd (mulf (res_main_call3_v5 V0) (res_main_call3_v5 V0)) (constant S_ .f32 0x00000000#32) reducesTo_S50000x64_S64_d0 h_S_) (broadcastInDim S64 ![] bcast_S_S64 (res_main_call3_v8 V0))) (broadcastInDim S64 ![] bcast_S_S64 (id (constant S_ .f32 0x7FC00000#32)))

/-- Layer 2: the batch-norm: (x − mean) · rsqrt(var + ε) · γ + β; Layer 2: what softmax_one is taken of. -/
noncomputable def res_main_v237 (V0 : Valuation τ sig (Elt F)) : (Proc.devRef .tc main_v237 : DevRef τ sig).ty.Contents (Elt F) :=
  addf (mulf (mulf (subf (res_main_v218 V0) (broadcastInDim S50000x64 ![0, 1] bcast_S1x64_S50000x64_0_1 (broadcastInDim S1x64 ![1] bcast_S64_S1x64_1 (res_main_v221 V0)))) (broadcastInDim S50000x64 ![0, 1] bcast_S1x64_S50000x64_0_1 (broadcastInDim S1x64 ![1] bcast_S64_S1x64_1 (Host.rsqrt (addf (res_main_v222 V0) (broadcastInDim S64 ![] bcast_S_S64 (constant S_ .f32 0x3727C5AC#32))))))) (broadcastInDim S50000x64 ![0, 1] bcast_S1x64_S50000x64_0_1 (broadcastInDim S1x64 ![1] bcast_S64_S1x64_1 (V0 (Proc.devRef .tc main_arg20))))) (broadcastInDim S50000x64 ![0, 1] bcast_S1x64_S50000x64_0_1 (broadcastInDim S1x64 ![1] bcast_S64_S1x64_1 (V0 (Proc.devRef .tc main_arg21))))

noncomputable def res_main_v242 (V0 : Valuation τ sig (Elt F)) : (Proc.devRef .tc main_v242 : DevRef τ sig).ty.Contents (Elt F) :=
  Host.exp (subf (res_main_v237 V0) (broadcastInDim S50000x64 ![0, 1] bcast_S50000x1_S50000x64_0_1 (broadcastInDim S50000x1 ![0] bcast_S50000_S50000x1_0 (Host.reduce FloatOps.maximumf (res_main_v237 V0) (constant S_ .f32 0xFF800000#32) reducesTo_S50000x64_S50000_d1 h_S_))))

/-- Layer 2: softmax_one along the rows: e / (1 + Σ e), e = exp(x − row max). -/
noncomputable def res_main_v248 (V0 : Valuation τ sig (Elt F)) : (Proc.devRef .tc main_v248 : DevRef τ sig).ty.Contents (Elt F) :=
  Host.divf (res_main_v242 V0) (broadcastInDim S50000x64 ![0, 1] bcast_S50000x1_S50000x64_0_1 (addf (broadcastInDim S50000x1 ![] bcast_S_S50000x1 (constant S_ .f32 0x3F800000#32)) (broadcastInDim S50000x1 ![0] bcast_S50000_S50000x1_0 (Host.reduceAdd (res_main_v242 V0) (constant S_ .f32 0x00000000#32) reducesTo_S50000x64_S50000_d1 h_S_))))

/-- Layer 3: the matmul x · Wᵀ. -/
noncomputable def res_main_v250 (V0 : Valuation τ sig (Elt F)) : (Proc.devRef .tc main_v250 : DevRef τ sig).ty.Contents (Elt F) :=
  Host.dotGeneral dot_S50000x64_S64x64_S50000x64_1_0_0_1_n_n none (res_main_v248 V0) (transpose S64x64 [1, 0] (res_main_v42 V0) transposes_S64x64_S64x64_1_0)

noncomputable def res_main_v251 (V0 : Valuation τ sig (Elt F)) : (Proc.devRef .tc main_v251 : DevRef τ sig).ty.Contents (Elt F) :=
  broadcastInDim S690000x1 ![0] bcast_S690000_S690000x1_0 (res_main_v33 V0)

noncomputable def res_main_v258 (V0 : Valuation τ sig (Elt F)) : (Proc.devRef .tc main_v258 : DevRef τ sig).ty.Contents (Elt F) :=
  Host.gather gather_S50000x64_S690000x1_S690000x64_1_0_n_n_0_1_164 (res_main_v250 V0) (broadcastInDim S690000x1 ![0] bcast_S690000_S690000x1_0 (select (cmpi .slt (res_main_v5 V0) (broadcastInDim S690000 ![] bcast_S_S690000 (constantI S_ 32 0#32))) (addi (res_main_v5 V0) (broadcastInDim S690000 ![] bcast_S_S690000 (constantI S_ 32 50000#32))) (res_main_v5 V0)))

/-- Layer 3: the segment sum by target of norm · (the matmul's rows gathered by source). -/
noncomputable def res_main_v263 (V0 : Valuation τ sig (Elt F)) : (Proc.devRef .tc main_v263 : DevRef τ sig).ty.Contents (Elt F) :=
  Host.scatterAdd scatter_S50000x64_S690000x1_S690000x64_1_0_0_1 (broadcastInDim S50000x64 ![] bcast_S_S50000x64 (constant S_ .f32 0x00000000#32)) (broadcastInDim S690000x1 ![0] bcast_S690000_S690000x1_0 (res_main_v6 V0)) (mulf (broadcastInDim S690000x64 ![0, 1] bcast_S690000x1_S690000x64_0_1 (res_main_v251 V0)) (res_main_v258 V0))

/-- Layer 3: the aggregation plus the bias. -/
noncomputable def res_main_v266 (V0 : Valuation τ sig (Elt F)) : (Proc.devRef .tc main_v266 : DevRef τ sig).ty.Contents (Elt F) :=
  addf (res_main_v263 V0) (broadcastInDim S50000x64 ![0, 1] bcast_S1x64_S50000x64_0_1 (broadcastInDim S1x64 ![1] bcast_S64_S1x64_1 (res_main_v44 V0)))

/-- Layer 3: what the batch-norm normalises (the convolution plus the earlier layers' residuals). -/
noncomputable def res_main_v267 (V0 : Valuation τ sig (Elt F)) : (Proc.devRef .tc main_v267 : DevRef τ sig).ty.Contents (Elt F) :=
  addf (res_main_v266 V0) (res_main_v218 V0)

/-- Layer 3: the batch-norm input's column means. -/
noncomputable def res_main_v270 (V0 : Valuation τ sig (Elt F)) : (Proc.devRef .tc main_v270 : DevRef τ sig).ty.Contents (Elt F) :=
  Host.divf (Host.reduceAdd (res_main_v267 V0) (constant S_ .f32 0x00000000#32) reducesTo_S50000x64_S64_d0 h_S_) (broadcastInDim S64 ![] bcast_S_S64 (constant S_ .f32 0x47435000#32))

noncomputable def res_main_call4_v5 (V0 : Valuation τ sig (Elt F)) : (Proc.devRef .tc main_call4_v5 : DevRef τ sig).ty.Contents (Elt F) :=
  subf (res_main_v267 V0) (broadcastInDim S50000x64 ![0, 1] bcast_S1x64_S50000x64_0_1 (Host.divf (broadcastInDim S1x64 ![1] bcast_S64_S1x64_1 (Host.reduceAdd (res_main_v267 V0) (constant S_ .f32 0x00000000#32) reducesTo_S50000x64_S64_d0 h_S_)) (broadcastInDim S1x64 ![] bcast_S_S1x64 (constant S_ .f32 0x47435000#32))))

noncomputable def res_main_call4_v8 (V0 : Valuation τ sig (Elt F)) : (Proc.devRef .tc main_call4_v8 : DevRef τ sig).ty.Contents (Elt F) :=
  subf (constant S_ .f32 0x47435000#32) (sitofp .f32 (constantI S_ 32 0#32))

/-- Layer 3: the batch-norm input's column variances (biased). -/
noncomputable def res_main_v271 (V0 : Valuation τ sig (Elt F)) : (Proc.devRef .tc main_v271 : DevRef τ sig).ty.Contents (Elt F) :=
  select (broadcastInDim S64 ![] bcast_S_S64 (cmpf .ogt (res_main_call4_v8 V0) (constant S_ .f32 0x00000000#32))) (Host.divf (Host.reduceAdd (mulf (res_main_call4_v5 V0) (res_main_call4_v5 V0)) (constant S_ .f32 0x00000000#32) reducesTo_S50000x64_S64_d0 h_S_) (broadcastInDim S64 ![] bcast_S_S64 (res_main_call4_v8 V0))) (broadcastInDim S64 ![] bcast_S_S64 (id (constant S_ .f32 0x7FC00000#32)))

/-- Layer 3: the batch-norm: (x − mean) · rsqrt(var + ε) · γ + β; Layer 3: what softmax_one is taken of. -/
noncomputable def res_main_v286 (V0 : Valuation τ sig (Elt F)) : (Proc.devRef .tc main_v286 : DevRef τ sig).ty.Contents (Elt F) :=
  addf (mulf (mulf (subf (res_main_v267 V0) (broadcastInDim S50000x64 ![0, 1] bcast_S1x64_S50000x64_0_1 (broadcastInDim S1x64 ![1] bcast_S64_S1x64_1 (res_main_v270 V0)))) (broadcastInDim S50000x64 ![0, 1] bcast_S1x64_S50000x64_0_1 (broadcastInDim S1x64 ![1] bcast_S64_S1x64_1 (Host.rsqrt (addf (res_main_v271 V0) (broadcastInDim S64 ![] bcast_S_S64 (constant S_ .f32 0x3727C5AC#32))))))) (broadcastInDim S50000x64 ![0, 1] bcast_S1x64_S50000x64_0_1 (broadcastInDim S1x64 ![1] bcast_S64_S1x64_1 (res_main_v74 V0)))) (broadcastInDim S50000x64 ![0, 1] bcast_S1x64_S50000x64_0_1 (broadcastInDim S1x64 ![1] bcast_S64_S1x64_1 (res_main_v76 V0)))

noncomputable def res_main_v291 (V0 : Valuation τ sig (Elt F)) : (Proc.devRef .tc main_v291 : DevRef τ sig).ty.Contents (Elt F) :=
  Host.exp (subf (res_main_v286 V0) (broadcastInDim S50000x64 ![0, 1] bcast_S50000x1_S50000x64_0_1 (broadcastInDim S50000x1 ![0] bcast_S50000_S50000x1_0 (Host.reduce FloatOps.maximumf (res_main_v286 V0) (constant S_ .f32 0xFF800000#32) reducesTo_S50000x64_S50000_d1 h_S_))))

/-- Layer 3: softmax_one along the rows: e / (1 + Σ e), e = exp(x − row max). -/
noncomputable def res_main_v297 (V0 : Valuation τ sig (Elt F)) : (Proc.devRef .tc main_v297 : DevRef τ sig).ty.Contents (Elt F) :=
  Host.divf (res_main_v291 V0) (broadcastInDim S50000x64 ![0, 1] bcast_S50000x1_S50000x64_0_1 (addf (broadcastInDim S50000x1 ![] bcast_S_S50000x1 (constant S_ .f32 0x3F800000#32)) (broadcastInDim S50000x1 ![0] bcast_S50000_S50000x1_0 (Host.reduceAdd (res_main_v291 V0) (constant S_ .f32 0x00000000#32) reducesTo_S50000x64_S50000_d1 h_S_))))

/-- Layer 4: the matmul x · Wᵀ. -/
noncomputable def res_main_v299 (V0 : Valuation τ sig (Elt F)) : (Proc.devRef .tc main_v299 : DevRef τ sig).ty.Contents (Elt F) :=
  Host.dotGeneral dot_S50000x64_S64x64_S50000x64_1_0_0_1_n_n none (res_main_v297 V0) (transpose S64x64 [1, 0] (res_main_v46 V0) transposes_S64x64_S64x64_1_0)

noncomputable def res_main_v307 (V0 : Valuation τ sig (Elt F)) : (Proc.devRef .tc main_v307 : DevRef τ sig).ty.Contents (Elt F) :=
  Host.gather gather_S50000x64_S690000x1_S690000x64_1_0_n_n_0_1_164 (res_main_v299 V0) (broadcastInDim S690000x1 ![0] bcast_S690000_S690000x1_0 (select (cmpi .slt (res_main_v5 V0) (broadcastInDim S690000 ![] bcast_S_S690000 (constantI S_ 32 0#32))) (addi (res_main_v5 V0) (broadcastInDim S690000 ![] bcast_S_S690000 (constantI S_ 32 50000#32))) (res_main_v5 V0)))

noncomputable def res_main_v308 (V0 : Valuation τ sig (Elt F)) : (Proc.devRef .tc main_v308 : DevRef τ sig).ty.Contents (Elt F) :=
  broadcastInDim S690000x64 ![0, 1] bcast_S690000x1_S690000x64_0_1 (broadcastInDim S690000x1 ![0] bcast_S690000_S690000x1_0 (res_main_v33 V0))

/-- Layer 4: the segment sum by target of norm · (the matmul's rows gathered by source). -/
noncomputable def res_main_v312 (V0 : Valuation τ sig (Elt F)) : (Proc.devRef .tc main_v312 : DevRef τ sig).ty.Contents (Elt F) :=
  Host.scatterAdd scatter_S50000x64_S690000x1_S690000x64_1_0_0_1 (broadcastInDim S50000x64 ![] bcast_S_S50000x64 (constant S_ .f32 0x00000000#32)) (broadcastInDim S690000x1 ![0] bcast_S690000_S690000x1_0 (res_main_v6 V0)) (mulf (res_main_v308 V0) (res_main_v307 V0))

/-- Layer 4: the aggregation plus the bias. -/
noncomputable def res_main_v315 (V0 : Valuation τ sig (Elt F)) : (Proc.devRef .tc main_v315 : DevRef τ sig).ty.Contents (Elt F) :=
  addf (res_main_v312 V0) (broadcastInDim S50000x64 ![0, 1] bcast_S1x64_S50000x64_0_1 (broadcastInDim S1x64 ![1] bcast_S64_S1x64_1 (res_main_v48 V0)))

/-- Layer 4: what the batch-norm normalises (the convolution plus the earlier layers' residuals). -/
noncomputable def res_main_v317 (V0 : Valuation τ sig (Elt F)) : (Proc.devRef .tc main_v317 : DevRef τ sig).ty.Contents (Elt F) :=
  addf (addf (res_main_v315 V0) (res_main_v218 V0)) (res_main_v266 V0)

/-- Layer 4: the batch-norm input's column means. -/
noncomputable def res_main_v320 (V0 : Valuation τ sig (Elt F)) : (Proc.devRef .tc main_v320 : DevRef τ sig).ty.Contents (Elt F) :=
  Host.divf (Host.reduceAdd (res_main_v317 V0) (constant S_ .f32 0x00000000#32) reducesTo_S50000x64_S64_d0 h_S_) (broadcastInDim S64 ![] bcast_S_S64 (constant S_ .f32 0x47435000#32))

noncomputable def res_main_call5_v5 (V0 : Valuation τ sig (Elt F)) : (Proc.devRef .tc main_call5_v5 : DevRef τ sig).ty.Contents (Elt F) :=
  subf (res_main_v317 V0) (broadcastInDim S50000x64 ![0, 1] bcast_S1x64_S50000x64_0_1 (Host.divf (broadcastInDim S1x64 ![1] bcast_S64_S1x64_1 (Host.reduceAdd (res_main_v317 V0) (constant S_ .f32 0x00000000#32) reducesTo_S50000x64_S64_d0 h_S_)) (broadcastInDim S1x64 ![] bcast_S_S1x64 (constant S_ .f32 0x47435000#32))))

noncomputable def res_main_call5_v8 (V0 : Valuation τ sig (Elt F)) : (Proc.devRef .tc main_call5_v8 : DevRef τ sig).ty.Contents (Elt F) :=
  subf (constant S_ .f32 0x47435000#32) (sitofp .f32 (constantI S_ 32 0#32))

/-- Layer 4: the batch-norm input's column variances (biased). -/
noncomputable def res_main_v321 (V0 : Valuation τ sig (Elt F)) : (Proc.devRef .tc main_v321 : DevRef τ sig).ty.Contents (Elt F) :=
  select (broadcastInDim S64 ![] bcast_S_S64 (cmpf .ogt (res_main_call5_v8 V0) (constant S_ .f32 0x00000000#32))) (Host.divf (Host.reduceAdd (mulf (res_main_call5_v5 V0) (res_main_call5_v5 V0)) (constant S_ .f32 0x00000000#32) reducesTo_S50000x64_S64_d0 h_S_) (broadcastInDim S64 ![] bcast_S_S64 (res_main_call5_v8 V0))) (broadcastInDim S64 ![] bcast_S_S64 (id (constant S_ .f32 0x7FC00000#32)))

/-- Layer 4: the batch-norm: (x − mean) · rsqrt(var + ε) · γ + β; Layer 4: what softmax_one is taken of. -/
noncomputable def res_main_v336 (V0 : Valuation τ sig (Elt F)) : (Proc.devRef .tc main_v336 : DevRef τ sig).ty.Contents (Elt F) :=
  addf (mulf (mulf (subf (res_main_v317 V0) (broadcastInDim S50000x64 ![0, 1] bcast_S1x64_S50000x64_0_1 (broadcastInDim S1x64 ![1] bcast_S64_S1x64_1 (res_main_v320 V0)))) (broadcastInDim S50000x64 ![0, 1] bcast_S1x64_S50000x64_0_1 (broadcastInDim S1x64 ![1] bcast_S64_S1x64_1 (Host.rsqrt (addf (res_main_v321 V0) (broadcastInDim S64 ![] bcast_S_S64 (constant S_ .f32 0x3727C5AC#32))))))) (broadcastInDim S50000x64 ![0, 1] bcast_S1x64_S50000x64_0_1 (broadcastInDim S1x64 ![1] bcast_S64_S1x64_1 (res_main_v78 V0)))) (broadcastInDim S50000x64 ![0, 1] bcast_S1x64_S50000x64_0_1 (broadcastInDim S1x64 ![1] bcast_S64_S1x64_1 (res_main_v80 V0)))

noncomputable def res_main_v341 (V0 : Valuation τ sig (Elt F)) : (Proc.devRef .tc main_v341 : DevRef τ sig).ty.Contents (Elt F) :=
  Host.exp (subf (res_main_v336 V0) (broadcastInDim S50000x64 ![0, 1] bcast_S50000x1_S50000x64_0_1 (broadcastInDim S50000x1 ![0] bcast_S50000_S50000x1_0 (Host.reduce FloatOps.maximumf (res_main_v336 V0) (constant S_ .f32 0xFF800000#32) reducesTo_S50000x64_S50000_d1 h_S_))))

/-- Layer 4: softmax_one along the rows: e / (1 + Σ e), e = exp(x − row max). -/
noncomputable def res_main_v347 (V0 : Valuation τ sig (Elt F)) : (Proc.devRef .tc main_v347 : DevRef τ sig).ty.Contents (Elt F) :=
  Host.divf (res_main_v341 V0) (broadcastInDim S50000x64 ![0, 1] bcast_S50000x1_S50000x64_0_1 (addf (broadcastInDim S50000x1 ![] bcast_S_S50000x1 (constant S_ .f32 0x3F800000#32)) (broadcastInDim S50000x1 ![0] bcast_S50000_S50000x1_0 (Host.reduceAdd (res_main_v341 V0) (constant S_ .f32 0x00000000#32) reducesTo_S50000x64_S50000_d1 h_S_))))

/-- Layer 5: the matmul x · Wᵀ. -/
noncomputable def res_main_v349 (V0 : Valuation τ sig (Elt F)) : (Proc.devRef .tc main_v349 : DevRef τ sig).ty.Contents (Elt F) :=
  Host.dotGeneral dot_S50000x64_S64x64_S50000x64_1_0_0_1_n_n none (res_main_v347 V0) (transpose S64x64 [1, 0] (res_main_v50 V0) transposes_S64x64_S64x64_1_0)

noncomputable def res_main_v357 (V0 : Valuation τ sig (Elt F)) : (Proc.devRef .tc main_v357 : DevRef τ sig).ty.Contents (Elt F) :=
  Host.gather gather_S50000x64_S690000x1_S690000x64_1_0_n_n_0_1_164 (res_main_v349 V0) (broadcastInDim S690000x1 ![0] bcast_S690000_S690000x1_0 (select (cmpi .slt (res_main_v5 V0) (broadcastInDim S690000 ![] bcast_S_S690000 (constantI S_ 32 0#32))) (addi (res_main_v5 V0) (broadcastInDim S690000 ![] bcast_S_S690000 (constantI S_ 32 50000#32))) (res_main_v5 V0)))

noncomputable def res_main_v358 (V0 : Valuation τ sig (Elt F)) : (Proc.devRef .tc main_v358 : DevRef τ sig).ty.Contents (Elt F) :=
  broadcastInDim S690000x64 ![0, 1] bcast_S690000x1_S690000x64_0_1 (broadcastInDim S690000x1 ![0] bcast_S690000_S690000x1_0 (res_main_v33 V0))

/-- Layer 5: the segment sum by target of norm · (the matmul's rows gathered by source). -/
noncomputable def res_main_v362 (V0 : Valuation τ sig (Elt F)) : (Proc.devRef .tc main_v362 : DevRef τ sig).ty.Contents (Elt F) :=
  Host.scatterAdd scatter_S50000x64_S690000x1_S690000x64_1_0_0_1 (broadcastInDim S50000x64 ![] bcast_S_S50000x64 (constant S_ .f32 0x00000000#32)) (broadcastInDim S690000x1 ![0] bcast_S690000_S690000x1_0 (res_main_v6 V0)) (mulf (res_main_v358 V0) (res_main_v357 V0))

/-- Layer 5: the aggregation plus the bias. -/
noncomputable def res_main_v365 (V0 : Valuation τ sig (Elt F)) : (Proc.devRef .tc main_v365 : DevRef τ sig).ty.Contents (Elt F) :=
  addf (res_main_v362 V0) (broadcastInDim S50000x64 ![0, 1] bcast_S1x64_S50000x64_0_1 (broadcastInDim S1x64 ![1] bcast_S64_S1x64_1 (res_main_v52 V0)))

/-- Layer 5: what the batch-norm normalises (the convolution plus the earlier layers' residuals). -/
noncomputable def res_main_v368 (V0 : Valuation τ sig (Elt F)) : (Proc.devRef .tc main_v368 : DevRef τ sig).ty.Contents (Elt F) :=
  addf (addf (addf (res_main_v365 V0) (res_main_v218 V0)) (res_main_v266 V0)) (res_main_v315 V0)

/-- Layer 5: the batch-norm input's column means. -/
noncomputable def res_main_v371 (V0 : Valuation τ sig (Elt F)) : (Proc.devRef .tc main_v371 : DevRef τ sig).ty.Contents (Elt F) :=
  Host.divf (Host.reduceAdd (res_main_v368 V0) (constant S_ .f32 0x00000000#32) reducesTo_S50000x64_S64_d0 h_S_) (broadcastInDim S64 ![] bcast_S_S64 (constant S_ .f32 0x47435000#32))

noncomputable def res_main_call6_v5 (V0 : Valuation τ sig (Elt F)) : (Proc.devRef .tc main_call6_v5 : DevRef τ sig).ty.Contents (Elt F) :=
  subf (res_main_v368 V0) (broadcastInDim S50000x64 ![0, 1] bcast_S1x64_S50000x64_0_1 (Host.divf (broadcastInDim S1x64 ![1] bcast_S64_S1x64_1 (Host.reduceAdd (res_main_v368 V0) (constant S_ .f32 0x00000000#32) reducesTo_S50000x64_S64_d0 h_S_)) (broadcastInDim S1x64 ![] bcast_S_S1x64 (constant S_ .f32 0x47435000#32))))

noncomputable def res_main_call6_v8 (V0 : Valuation τ sig (Elt F)) : (Proc.devRef .tc main_call6_v8 : DevRef τ sig).ty.Contents (Elt F) :=
  subf (constant S_ .f32 0x47435000#32) (sitofp .f32 (constantI S_ 32 0#32))

/-- Layer 5: the batch-norm input's column variances (biased). -/
noncomputable def res_main_v372 (V0 : Valuation τ sig (Elt F)) : (Proc.devRef .tc main_v372 : DevRef τ sig).ty.Contents (Elt F) :=
  select (broadcastInDim S64 ![] bcast_S_S64 (cmpf .ogt (res_main_call6_v8 V0) (constant S_ .f32 0x00000000#32))) (Host.divf (Host.reduceAdd (mulf (res_main_call6_v5 V0) (res_main_call6_v5 V0)) (constant S_ .f32 0x00000000#32) reducesTo_S50000x64_S64_d0 h_S_) (broadcastInDim S64 ![] bcast_S_S64 (res_main_call6_v8 V0))) (broadcastInDim S64 ![] bcast_S_S64 (id (constant S_ .f32 0x7FC00000#32)))

/-- Layer 5: the batch-norm: (x − mean) · rsqrt(var + ε) · γ + β; Layer 5: what softmax_one is taken of. -/
noncomputable def res_main_v387 (V0 : Valuation τ sig (Elt F)) : (Proc.devRef .tc main_v387 : DevRef τ sig).ty.Contents (Elt F) :=
  addf (mulf (mulf (subf (res_main_v368 V0) (broadcastInDim S50000x64 ![0, 1] bcast_S1x64_S50000x64_0_1 (broadcastInDim S1x64 ![1] bcast_S64_S1x64_1 (res_main_v371 V0)))) (broadcastInDim S50000x64 ![0, 1] bcast_S1x64_S50000x64_0_1 (broadcastInDim S1x64 ![1] bcast_S64_S1x64_1 (Host.rsqrt (addf (res_main_v372 V0) (broadcastInDim S64 ![] bcast_S_S64 (constant S_ .f32 0x3727C5AC#32))))))) (broadcastInDim S50000x64 ![0, 1] bcast_S1x64_S50000x64_0_1 (broadcastInDim S1x64 ![1] bcast_S64_S1x64_1 (res_main_v82 V0)))) (broadcastInDim S50000x64 ![0, 1] bcast_S1x64_S50000x64_0_1 (broadcastInDim S1x64 ![1] bcast_S64_S1x64_1 (res_main_v84 V0)))

noncomputable def res_main_v392 (V0 : Valuation τ sig (Elt F)) : (Proc.devRef .tc main_v392 : DevRef τ sig).ty.Contents (Elt F) :=
  Host.exp (subf (res_main_v387 V0) (broadcastInDim S50000x64 ![0, 1] bcast_S50000x1_S50000x64_0_1 (broadcastInDim S50000x1 ![0] bcast_S50000_S50000x1_0 (Host.reduce FloatOps.maximumf (res_main_v387 V0) (constant S_ .f32 0xFF800000#32) reducesTo_S50000x64_S50000_d1 h_S_))))

/-- Layer 5: softmax_one along the rows: e / (1 + Σ e), e = exp(x − row max). -/
noncomputable def res_main_v398 (V0 : Valuation τ sig (Elt F)) : (Proc.devRef .tc main_v398 : DevRef τ sig).ty.Contents (Elt F) :=
  Host.divf (res_main_v392 V0) (broadcastInDim S50000x64 ![0, 1] bcast_S50000x1_S50000x64_0_1 (addf (broadcastInDim S50000x1 ![] bcast_S_S50000x1 (constant S_ .f32 0x3F800000#32)) (broadcastInDim S50000x1 ![0] bcast_S50000_S50000x1_0 (Host.reduceAdd (res_main_v392 V0) (constant S_ .f32 0x00000000#32) reducesTo_S50000x64_S50000_d1 h_S_))))

/-- Layer 6: the matmul x · Wᵀ. -/
noncomputable def res_main_v400 (V0 : Valuation τ sig (Elt F)) : (Proc.devRef .tc main_v400 : DevRef τ sig).ty.Contents (Elt F) :=
  Host.dotGeneral dot_S50000x64_S64x64_S50000x64_1_0_0_1_n_n none (res_main_v398 V0) (transpose S64x64 [1, 0] (res_main_v54 V0) transposes_S64x64_S64x64_1_0)

noncomputable def res_main_v401 (V0 : Valuation τ sig (Elt F)) : (Proc.devRef .tc main_v401 : DevRef τ sig).ty.Contents (Elt F) :=
  broadcastInDim S690000x1 ![0] bcast_S690000_S690000x1_0 (res_main_v33 V0)

noncomputable def res_main_v408 (V0 : Valuation τ sig (Elt F)) : (Proc.devRef .tc main_v408 : DevRef τ sig).ty.Contents (Elt F) :=
  Host.gather gather_S50000x64_S690000x1_S690000x64_1_0_n_n_0_1_164 (res_main_v400 V0) (broadcastInDim S690000x1 ![0] bcast_S690000_S690000x1_0 (select (cmpi .slt (res_main_v5 V0) (broadcastInDim S690000 ![] bcast_S_S690000 (constantI S_ 32 0#32))) (addi (res_main_v5 V0) (broadcastInDim S690000 ![] bcast_S_S690000 (constantI S_ 32 50000#32))) (res_main_v5 V0)))

/-- Layer 6: the segment sum by target of norm · (the matmul's rows gathered by source). -/
noncomputable def res_main_v413 (V0 : Valuation τ sig (Elt F)) : (Proc.devRef .tc main_v413 : DevRef τ sig).ty.Contents (Elt F) :=
  Host.scatterAdd scatter_S50000x64_S690000x1_S690000x64_1_0_0_1 (broadcastInDim S50000x64 ![] bcast_S_S50000x64 (constant S_ .f32 0x00000000#32)) (broadcastInDim S690000x1 ![0] bcast_S690000_S690000x1_0 (res_main_v6 V0)) (mulf (broadcastInDim S690000x64 ![0, 1] bcast_S690000x1_S690000x64_0_1 (res_main_v401 V0)) (res_main_v408 V0))

/-- Layer 6: the aggregation plus the bias. -/
noncomputable def res_main_v416 (V0 : Valuation τ sig (Elt F)) : (Proc.devRef .tc main_v416 : DevRef τ sig).ty.Contents (Elt F) :=
  addf (res_main_v413 V0) (broadcastInDim S50000x64 ![0, 1] bcast_S1x64_S50000x64_0_1 (broadcastInDim S1x64 ![1] bcast_S64_S1x64_1 (res_main_v56 V0)))

/-- Layer 6: what the batch-norm normalises (the convolution plus the earlier layers' residuals). -/
noncomputable def res_main_v420 (V0 : Valuation τ sig (Elt F)) : (Proc.devRef .tc main_v420 : DevRef τ sig).ty.Contents (Elt F) :=
  addf (addf (addf (addf (res_main_v416 V0) (res_main_v218 V0)) (res_main_v266 V0)) (res_main_v315 V0)) (res_main_v365 V0)

/-- Layer 6: the batch-norm input's column means. -/
noncomputable def res_main_v423 (V0 : Valuation τ sig (Elt F)) : (Proc.devRef .tc main_v423 : DevRef τ sig).ty.Contents (Elt F) :=
  Host.divf (Host.reduceAdd (res_main_v420 V0) (constant S_ .f32 0x00000000#32) reducesTo_S50000x64_S64_d0 h_S_) (broadcastInDim S64 ![] bcast_S_S64 (constant S_ .f32 0x47435000#32))

noncomputable def res_main_call7_v5 (V0 : Valuation τ sig (Elt F)) : (Proc.devRef .tc main_call7_v5 : DevRef τ sig).ty.Contents (Elt F) :=
  subf (res_main_v420 V0) (broadcastInDim S50000x64 ![0, 1] bcast_S1x64_S50000x64_0_1 (Host.divf (broadcastInDim S1x64 ![1] bcast_S64_S1x64_1 (Host.reduceAdd (res_main_v420 V0) (constant S_ .f32 0x00000000#32) reducesTo_S50000x64_S64_d0 h_S_)) (broadcastInDim S1x64 ![] bcast_S_S1x64 (constant S_ .f32 0x47435000#32))))

noncomputable def res_main_call7_v8 (V0 : Valuation τ sig (Elt F)) : (Proc.devRef .tc main_call7_v8 : DevRef τ sig).ty.Contents (Elt F) :=
  subf (constant S_ .f32 0x47435000#32) (sitofp .f32 (constantI S_ 32 0#32))

/-- Layer 6: the batch-norm input's column variances (biased). -/
noncomputable def res_main_v424 (V0 : Valuation τ sig (Elt F)) : (Proc.devRef .tc main_v424 : DevRef τ sig).ty.Contents (Elt F) :=
  select (broadcastInDim S64 ![] bcast_S_S64 (cmpf .ogt (res_main_call7_v8 V0) (constant S_ .f32 0x00000000#32))) (Host.divf (Host.reduceAdd (mulf (res_main_call7_v5 V0) (res_main_call7_v5 V0)) (constant S_ .f32 0x00000000#32) reducesTo_S50000x64_S64_d0 h_S_) (broadcastInDim S64 ![] bcast_S_S64 (res_main_call7_v8 V0))) (broadcastInDim S64 ![] bcast_S_S64 (id (constant S_ .f32 0x7FC00000#32)))

/-- Layer 6: the batch-norm: (x − mean) · rsqrt(var + ε) · γ + β; Layer 6: what softmax_one is taken of. -/
noncomputable def res_main_v439 (V0 : Valuation τ sig (Elt F)) : (Proc.devRef .tc main_v439 : DevRef τ sig).ty.Contents (Elt F) :=
  addf (mulf (mulf (subf (res_main_v420 V0) (broadcastInDim S50000x64 ![0, 1] bcast_S1x64_S50000x64_0_1 (broadcastInDim S1x64 ![1] bcast_S64_S1x64_1 (res_main_v423 V0)))) (broadcastInDim S50000x64 ![0, 1] bcast_S1x64_S50000x64_0_1 (broadcastInDim S1x64 ![1] bcast_S64_S1x64_1 (Host.rsqrt (addf (res_main_v424 V0) (broadcastInDim S64 ![] bcast_S_S64 (constant S_ .f32 0x3727C5AC#32))))))) (broadcastInDim S50000x64 ![0, 1] bcast_S1x64_S50000x64_0_1 (broadcastInDim S1x64 ![1] bcast_S64_S1x64_1 (res_main_v86 V0)))) (broadcastInDim S50000x64 ![0, 1] bcast_S1x64_S50000x64_0_1 (broadcastInDim S1x64 ![1] bcast_S64_S1x64_1 (res_main_v88 V0)))

noncomputable def res_main_v444 (V0 : Valuation τ sig (Elt F)) : (Proc.devRef .tc main_v444 : DevRef τ sig).ty.Contents (Elt F) :=
  Host.exp (subf (res_main_v439 V0) (broadcastInDim S50000x64 ![0, 1] bcast_S50000x1_S50000x64_0_1 (broadcastInDim S50000x1 ![0] bcast_S50000_S50000x1_0 (Host.reduce FloatOps.maximumf (res_main_v439 V0) (constant S_ .f32 0xFF800000#32) reducesTo_S50000x64_S50000_d1 h_S_))))

/-- Layer 6: softmax_one along the rows: e / (1 + Σ e), e = exp(x − row max). -/
noncomputable def res_main_v450 (V0 : Valuation τ sig (Elt F)) : (Proc.devRef .tc main_v450 : DevRef τ sig).ty.Contents (Elt F) :=
  Host.divf (res_main_v444 V0) (broadcastInDim S50000x64 ![0, 1] bcast_S50000x1_S50000x64_0_1 (addf (broadcastInDim S50000x1 ![] bcast_S_S50000x1 (constant S_ .f32 0x3F800000#32)) (broadcastInDim S50000x1 ![0] bcast_S50000_S50000x1_0 (Host.reduceAdd (res_main_v444 V0) (constant S_ .f32 0x00000000#32) reducesTo_S50000x64_S50000_d1 h_S_))))

/-- Layer 7: the matmul x · Wᵀ. -/
noncomputable def res_main_v452 (V0 : Valuation τ sig (Elt F)) : (Proc.devRef .tc main_v452 : DevRef τ sig).ty.Contents (Elt F) :=
  Host.dotGeneral dot_S50000x64_S64x64_S50000x64_1_0_0_1_n_n none (res_main_v450 V0) (transpose S64x64 [1, 0] (res_main_v58 V0) transposes_S64x64_S64x64_1_0)

noncomputable def res_main_v453 (V0 : Valuation τ sig (Elt F)) : (Proc.devRef .tc main_v453 : DevRef τ sig).ty.Contents (Elt F) :=
  broadcastInDim S690000x1 ![0] bcast_S690000_S690000x1_0 (res_main_v33 V0)

noncomputable def res_main_v458 (V0 : Valuation τ sig (Elt F)) : (Proc.devRef .tc main_v458 : DevRef τ sig).ty.Contents (Elt F) :=
  select (cmpi .slt (res_main_v5 V0) (broadcastInDim S690000 ![] bcast_S_S690000 (constantI S_ 32 0#32))) (addi (res_main_v5 V0) (broadcastInDim S690000 ![] bcast_S_S690000 (constantI S_ 32 50000#32))) (res_main_v5 V0)

/-- Layer 7: the segment sum by target of norm · (the matmul's rows gathered by source). -/
noncomputable def res_main_v465 (V0 : Valuation τ sig (Elt F)) : (Proc.devRef .tc main_v465 : DevRef τ sig).ty.Contents (Elt F) :=
  Host.scatterAdd scatter_S50000x64_S690000x1_S690000x64_1_0_0_1 (broadcastInDim S50000x64 ![] bcast_S_S50000x64 (constant S_ .f32 0x00000000#32)) (broadcastInDim S690000x1 ![0] bcast_S690000_S690000x1_0 (res_main_v6 V0)) (mulf (broadcastInDim S690000x64 ![0, 1] bcast_S690000x1_S690000x64_0_1 (res_main_v453 V0)) (Host.gather gather_S50000x64_S690000x1_S690000x64_1_0_n_n_0_1_164 (res_main_v452 V0) (broadcastInDim S690000x1 ![0] bcast_S690000_S690000x1_0 (res_main_v458 V0))))

/-- Layer 7: the aggregation plus the bias. -/
noncomputable def res_main_v468 (V0 : Valuation τ sig (Elt F)) : (Proc.devRef .tc main_v468 : DevRef τ sig).ty.Contents (Elt F) :=
  addf (res_main_v465 V0) (broadcastInDim S50000x64 ![0, 1] bcast_S1x64_S50000x64_0_1 (broadcastInDim S1x64 ![1] bcast_S64_S1x64_1 (res_main_v60 V0)))

/-- Layer 7: what the batch-norm normalises (the convolution plus the earlier layers' residuals). -/
noncomputable def res_main_v473 (V0 : Valuation τ sig (Elt F)) : (Proc.devRef .tc main_v473 : DevRef τ sig).ty.Contents (Elt F) :=
  addf (addf (addf (addf (addf (res_main_v468 V0) (res_main_v218 V0)) (res_main_v266 V0)) (res_main_v315 V0)) (res_main_v365 V0)) (res_main_v416 V0)

/-- Layer 7: the batch-norm input's column means. -/
noncomputable def res_main_v476 (V0 : Valuation τ sig (Elt F)) : (Proc.devRef .tc main_v476 : DevRef τ sig).ty.Contents (Elt F) :=
  Host.divf (Host.reduceAdd (res_main_v473 V0) (constant S_ .f32 0x00000000#32) reducesTo_S50000x64_S64_d0 h_S_) (broadcastInDim S64 ![] bcast_S_S64 (constant S_ .f32 0x47435000#32))

noncomputable def res_main_call8_v5 (V0 : Valuation τ sig (Elt F)) : (Proc.devRef .tc main_call8_v5 : DevRef τ sig).ty.Contents (Elt F) :=
  subf (res_main_v473 V0) (broadcastInDim S50000x64 ![0, 1] bcast_S1x64_S50000x64_0_1 (Host.divf (broadcastInDim S1x64 ![1] bcast_S64_S1x64_1 (Host.reduceAdd (res_main_v473 V0) (constant S_ .f32 0x00000000#32) reducesTo_S50000x64_S64_d0 h_S_)) (broadcastInDim S1x64 ![] bcast_S_S1x64 (constant S_ .f32 0x47435000#32))))

noncomputable def res_main_call8_v8 (V0 : Valuation τ sig (Elt F)) : (Proc.devRef .tc main_call8_v8 : DevRef τ sig).ty.Contents (Elt F) :=
  subf (constant S_ .f32 0x47435000#32) (sitofp .f32 (constantI S_ 32 0#32))

/-- Layer 7: the batch-norm input's column variances (biased). -/
noncomputable def res_main_v477 (V0 : Valuation τ sig (Elt F)) : (Proc.devRef .tc main_v477 : DevRef τ sig).ty.Contents (Elt F) :=
  select (broadcastInDim S64 ![] bcast_S_S64 (cmpf .ogt (res_main_call8_v8 V0) (constant S_ .f32 0x00000000#32))) (Host.divf (Host.reduceAdd (mulf (res_main_call8_v5 V0) (res_main_call8_v5 V0)) (constant S_ .f32 0x00000000#32) reducesTo_S50000x64_S64_d0 h_S_) (broadcastInDim S64 ![] bcast_S_S64 (res_main_call8_v8 V0))) (broadcastInDim S64 ![] bcast_S_S64 (id (constant S_ .f32 0x7FC00000#32)))

/-- Layer 7: the batch-norm: (x − mean) · rsqrt(var + ε) · γ + β; Layer 7: what softmax_one is taken of. -/
noncomputable def res_main_v492 (V0 : Valuation τ sig (Elt F)) : (Proc.devRef .tc main_v492 : DevRef τ sig).ty.Contents (Elt F) :=
  addf (mulf (mulf (subf (res_main_v473 V0) (broadcastInDim S50000x64 ![0, 1] bcast_S1x64_S50000x64_0_1 (broadcastInDim S1x64 ![1] bcast_S64_S1x64_1 (res_main_v476 V0)))) (broadcastInDim S50000x64 ![0, 1] bcast_S1x64_S50000x64_0_1 (broadcastInDim S1x64 ![1] bcast_S64_S1x64_1 (Host.rsqrt (addf (res_main_v477 V0) (broadcastInDim S64 ![] bcast_S_S64 (constant S_ .f32 0x3727C5AC#32))))))) (broadcastInDim S50000x64 ![0, 1] bcast_S1x64_S50000x64_0_1 (broadcastInDim S1x64 ![1] bcast_S64_S1x64_1 (res_main_v90 V0)))) (broadcastInDim S50000x64 ![0, 1] bcast_S1x64_S50000x64_0_1 (broadcastInDim S1x64 ![1] bcast_S64_S1x64_1 (res_main_v92 V0)))

noncomputable def res_main_v497 (V0 : Valuation τ sig (Elt F)) : (Proc.devRef .tc main_v497 : DevRef τ sig).ty.Contents (Elt F) :=
  Host.exp (subf (res_main_v492 V0) (broadcastInDim S50000x64 ![0, 1] bcast_S50000x1_S50000x64_0_1 (broadcastInDim S50000x1 ![0] bcast_S50000_S50000x1_0 (Host.reduce FloatOps.maximumf (res_main_v492 V0) (constant S_ .f32 0xFF800000#32) reducesTo_S50000x64_S50000_d1 h_S_))))

/-- Layer 7: softmax_one along the rows: e / (1 + Σ e), e = exp(x − row max). -/
noncomputable def res_main_v503 (V0 : Valuation τ sig (Elt F)) : (Proc.devRef .tc main_v503 : DevRef τ sig).ty.Contents (Elt F) :=
  Host.divf (res_main_v497 V0) (broadcastInDim S50000x64 ![0, 1] bcast_S50000x1_S50000x64_0_1 (addf (broadcastInDim S50000x1 ![] bcast_S_S50000x1 (constant S_ .f32 0x3F800000#32)) (broadcastInDim S50000x1 ![0] bcast_S50000_S50000x1_0 (Host.reduceAdd (res_main_v497 V0) (constant S_ .f32 0x00000000#32) reducesTo_S50000x64_S50000_d1 h_S_))))

/-- Layer 8: the matmul x · Wᵀ. -/
noncomputable def res_main_v505 (V0 : Valuation τ sig (Elt F)) : (Proc.devRef .tc main_v505 : DevRef τ sig).ty.Contents (Elt F) :=
  Host.dotGeneral dot_S50000x64_S64x64_S50000x64_1_0_0_1_n_n none (res_main_v503 V0) (transpose S64x64 [1, 0] (res_main_v62 V0) transposes_S64x64_S64x64_1_0)

noncomputable def res_main_v506 (V0 : Valuation τ sig (Elt F)) : (Proc.devRef .tc main_v506 : DevRef τ sig).ty.Contents (Elt F) :=
  broadcastInDim S690000x1 ![0] bcast_S690000_S690000x1_0 (res_main_v33 V0)

noncomputable def res_main_v508 (V0 : Valuation τ sig (Elt F)) : (Proc.devRef .tc main_v508 : DevRef τ sig).ty.Contents (Elt F) :=
  cmpi .slt (res_main_v5 V0) (broadcastInDim S690000 ![] bcast_S_S690000 (constantI S_ 32 0#32))

noncomputable def res_main_c_88 (V0 : Valuation τ sig (Elt F)) : (Proc.devRef .tc main_c_88 : DevRef τ sig).ty.Contents (Elt F) :=
  constantI S_ 32 50000#32

/-- Layer 8: the segment sum by target of norm · (the matmul's rows gathered by source). -/
noncomputable def res_main_v518 (V0 : Valuation τ sig (Elt F)) : (Proc.devRef .tc main_v518 : DevRef τ sig).ty.Contents (Elt F) :=
  Host.scatterAdd scatter_S50000x64_S690000x1_S690000x64_1_0_0_1 (broadcastInDim S50000x64 ![] bcast_S_S50000x64 (constant S_ .f32 0x00000000#32)) (broadcastInDim S690000x1 ![0] bcast_S690000_S690000x1_0 (res_main_v6 V0)) (mulf (broadcastInDim S690000x64 ![0, 1] bcast_S690000x1_S690000x64_0_1 (res_main_v506 V0)) (Host.gather gather_S50000x64_S690000x1_S690000x64_1_0_n_n_0_1_164 (res_main_v505 V0) (broadcastInDim S690000x1 ![0] bcast_S690000_S690000x1_0 (select (res_main_v508 V0) (addi (res_main_v5 V0) (broadcastInDim S690000 ![] bcast_S_S690000 (res_main_c_88 V0))) (res_main_v5 V0)))))

/-- Layer 8: the aggregation plus the bias. -/
noncomputable def res_main_v521 (V0 : Valuation τ sig (Elt F)) : (Proc.devRef .tc main_v521 : DevRef τ sig).ty.Contents (Elt F) :=
  addf (res_main_v518 V0) (broadcastInDim S50000x64 ![0, 1] bcast_S1x64_S50000x64_0_1 (broadcastInDim S1x64 ![1] bcast_S64_S1x64_1 (res_main_v64 V0)))

/-- Layer 8: what the batch-norm normalises (the convolution plus the earlier layers' residuals). -/
noncomputable def res_main_v527 (V0 : Valuation τ sig (Elt F)) : (Proc.devRef .tc main_v527 : DevRef τ sig).ty.Contents (Elt F) :=
  addf (addf (addf (addf (addf (addf (res_main_v521 V0) (res_main_v218 V0)) (res_main_v266 V0)) (res_main_v315 V0)) (res_main_v365 V0)) (res_main_v416 V0)) (res_main_v468 V0)

/-- Layer 8: the batch-norm input's column means. -/
noncomputable def res_main_v530 (V0 : Valuation τ sig (Elt F)) : (Proc.devRef .tc main_v530 : DevRef τ sig).ty.Contents (Elt F) :=
  Host.divf (Host.reduceAdd (res_main_v527 V0) (constant S_ .f32 0x00000000#32) reducesTo_S50000x64_S64_d0 h_S_) (broadcastInDim S64 ![] bcast_S_S64 (constant S_ .f32 0x47435000#32))

noncomputable def res_main_call9_v5 (V0 : Valuation τ sig (Elt F)) : (Proc.devRef .tc main_call9_v5 : DevRef τ sig).ty.Contents (Elt F) :=
  subf (res_main_v527 V0) (broadcastInDim S50000x64 ![0, 1] bcast_S1x64_S50000x64_0_1 (Host.divf (broadcastInDim S1x64 ![1] bcast_S64_S1x64_1 (Host.reduceAdd (res_main_v527 V0) (constant S_ .f32 0x00000000#32) reducesTo_S50000x64_S64_d0 h_S_)) (broadcastInDim S1x64 ![] bcast_S_S1x64 (constant S_ .f32 0x47435000#32))))

noncomputable def res_main_call9_v8 (V0 : Valuation τ sig (Elt F)) : (Proc.devRef .tc main_call9_v8 : DevRef τ sig).ty.Contents (Elt F) :=
  subf (constant S_ .f32 0x47435000#32) (sitofp .f32 (constantI S_ 32 0#32))

/-- Layer 8: the batch-norm input's column variances (biased). -/
noncomputable def res_main_v531 (V0 : Valuation τ sig (Elt F)) : (Proc.devRef .tc main_v531 : DevRef τ sig).ty.Contents (Elt F) :=
  select (broadcastInDim S64 ![] bcast_S_S64 (cmpf .ogt (res_main_call9_v8 V0) (constant S_ .f32 0x00000000#32))) (Host.divf (Host.reduceAdd (mulf (res_main_call9_v5 V0) (res_main_call9_v5 V0)) (constant S_ .f32 0x00000000#32) reducesTo_S50000x64_S64_d0 h_S_) (broadcastInDim S64 ![] bcast_S_S64 (res_main_call9_v8 V0))) (broadcastInDim S64 ![] bcast_S_S64 (id (constant S_ .f32 0x7FC00000#32)))

/-- Layer 8: the batch-norm: (x − mean) · rsqrt(var + ε) · γ + β; Layer 8: what softmax_one is taken of. -/
noncomputable def res_main_v546 (V0 : Valuation τ sig (Elt F)) : (Proc.devRef .tc main_v546 : DevRef τ sig).ty.Contents (Elt F) :=
  addf (mulf (mulf (subf (res_main_v527 V0) (broadcastInDim S50000x64 ![0, 1] bcast_S1x64_S50000x64_0_1 (broadcastInDim S1x64 ![1] bcast_S64_S1x64_1 (res_main_v530 V0)))) (broadcastInDim S50000x64 ![0, 1] bcast_S1x64_S50000x64_0_1 (broadcastInDim S1x64 ![1] bcast_S64_S1x64_1 (Host.rsqrt (addf (res_main_v531 V0) (broadcastInDim S64 ![] bcast_S_S64 (constant S_ .f32 0x3727C5AC#32))))))) (broadcastInDim S50000x64 ![0, 1] bcast_S1x64_S50000x64_0_1 (broadcastInDim S1x64 ![1] bcast_S64_S1x64_1 (res_main_v94 V0)))) (broadcastInDim S50000x64 ![0, 1] bcast_S1x64_S50000x64_0_1 (broadcastInDim S1x64 ![1] bcast_S64_S1x64_1 (res_main_v96 V0)))

noncomputable def res_main_v551 (V0 : Valuation τ sig (Elt F)) : (Proc.devRef .tc main_v551 : DevRef τ sig).ty.Contents (Elt F) :=
  Host.exp (subf (res_main_v546 V0) (broadcastInDim S50000x64 ![0, 1] bcast_S50000x1_S50000x64_0_1 (broadcastInDim S50000x1 ![0] bcast_S50000_S50000x1_0 (Host.reduce FloatOps.maximumf (res_main_v546 V0) (constant S_ .f32 0xFF800000#32) reducesTo_S50000x64_S50000_d1 h_S_))))

/-- Layer 8: softmax_one along the rows: e / (1 + Σ e), e = exp(x − row max). -/
noncomputable def res_main_v557 (V0 : Valuation τ sig (Elt F)) : (Proc.devRef .tc main_v557 : DevRef τ sig).ty.Contents (Elt F) :=
  Host.divf (res_main_v551 V0) (broadcastInDim S50000x64 ![0, 1] bcast_S50000x1_S50000x64_0_1 (addf (broadcastInDim S50000x1 ![] bcast_S_S50000x1 (constant S_ .f32 0x3F800000#32)) (broadcastInDim S50000x1 ![0] bcast_S50000_S50000x1_0 (Host.reduceAdd (res_main_v551 V0) (constant S_ .f32 0x00000000#32) reducesTo_S50000x64_S50000_d1 h_S_))))

/-- Layer 9: the matmul x · Wᵀ. -/
noncomputable def res_main_v559 (V0 : Valuation τ sig (Elt F)) : (Proc.devRef .tc main_v559 : DevRef τ sig).ty.Contents (Elt F) :=
  Host.dotGeneral dot_S50000x64_S64x64_S50000x64_1_0_0_1_n_n none (res_main_v557 V0) (transpose S64x64 [1, 0] (res_main_v66 V0) transposes_S64x64_S64x64_1_0)

noncomputable def res_main_v560 (V0 : Valuation τ sig (Elt F)) : (Proc.devRef .tc main_v560 : DevRef τ sig).ty.Contents (Elt F) :=
  broadcastInDim S690000x1 ![0] bcast_S690000_S690000x1_0 (res_main_v33 V0)

/-- Layer 9: the segment sum by target of norm · (the matmul's rows gathered by source). -/
noncomputable def res_main_v572 (V0 : Valuation τ sig (Elt F)) : (Proc.devRef .tc main_v572 : DevRef τ sig).ty.Contents (Elt F) :=
  Host.scatterAdd scatter_S50000x64_S690000x1_S690000x64_1_0_0_1 (broadcastInDim S50000x64 ![] bcast_S_S50000x64 (constant S_ .f32 0x00000000#32)) (broadcastInDim S690000x1 ![0] bcast_S690000_S690000x1_0 (res_main_v6 V0)) (mulf (broadcastInDim S690000x64 ![0, 1] bcast_S690000x1_S690000x64_0_1 (res_main_v560 V0)) (Host.gather gather_S50000x64_S690000x1_S690000x64_1_0_n_n_0_1_164 (res_main_v559 V0) (broadcastInDim S690000x1 ![0] bcast_S690000_S690000x1_0 (select (cmpi .slt (res_main_v5 V0) (broadcastInDim S690000 ![] bcast_S_S690000 (constantI S_ 32 0#32))) (addi (res_main_v5 V0) (broadcastInDim S690000 ![] bcast_S_S690000 (constantI S_ 32 50000#32))) (res_main_v5 V0)))))

/-- Layer 9: the aggregation plus the bias. -/
noncomputable def res_main_v575 (V0 : Valuation τ sig (Elt F)) : (Proc.devRef .tc main_v575 : DevRef τ sig).ty.Contents (Elt F) :=
  addf (res_main_v572 V0) (broadcastInDim S50000x64 ![0, 1] bcast_S1x64_S50000x64_0_1 (broadcastInDim S1x64 ![1] bcast_S64_S1x64_1 (res_main_v68 V0)))

/-- Layer 9: what the batch-norm normalises (the convolution plus the earlier layers' residuals). -/
noncomputable def res_main_v582 (V0 : Valuation τ sig (Elt F)) : (Proc.devRef .tc main_v582 : DevRef τ sig).ty.Contents (Elt F) :=
  addf (addf (addf (addf (addf (addf (addf (res_main_v575 V0) (res_main_v218 V0)) (res_main_v266 V0)) (res_main_v315 V0)) (res_main_v365 V0)) (res_main_v416 V0)) (res_main_v468 V0)) (res_main_v521 V0)

/-- Layer 9: the batch-norm input's column means. -/
noncomputable def res_main_v585 (V0 : Valuation τ sig (Elt F)) : (Proc.devRef .tc main_v585 : DevRef τ sig).ty.Contents (Elt F) :=
  Host.divf (Host.reduceAdd (res_main_v582 V0) (constant S_ .f32 0x00000000#32) reducesTo_S50000x64_S64_d0 h_S_) (broadcastInDim S64 ![] bcast_S_S64 (constant S_ .f32 0x47435000#32))

noncomputable def res_main_call10_v5 (V0 : Valuation τ sig (Elt F)) : (Proc.devRef .tc main_call10_v5 : DevRef τ sig).ty.Contents (Elt F) :=
  subf (res_main_v582 V0) (broadcastInDim S50000x64 ![0, 1] bcast_S1x64_S50000x64_0_1 (Host.divf (broadcastInDim S1x64 ![1] bcast_S64_S1x64_1 (Host.reduceAdd (res_main_v582 V0) (constant S_ .f32 0x00000000#32) reducesTo_S50000x64_S64_d0 h_S_)) (broadcastInDim S1x64 ![] bcast_S_S1x64 (constant S_ .f32 0x47435000#32))))

noncomputable def res_main_call10_v8 (V0 : Valuation τ sig (Elt F)) : (Proc.devRef .tc main_call10_v8 : DevRef τ sig).ty.Contents (Elt F) :=
  subf (constant S_ .f32 0x47435000#32) (sitofp .f32 (constantI S_ 32 0#32))

/-- Layer 9: the batch-norm input's column variances (biased). -/
noncomputable def res_main_v586 (V0 : Valuation τ sig (Elt F)) : (Proc.devRef .tc main_v586 : DevRef τ sig).ty.Contents (Elt F) :=
  select (broadcastInDim S64 ![] bcast_S_S64 (cmpf .ogt (res_main_call10_v8 V0) (constant S_ .f32 0x00000000#32))) (Host.divf (Host.reduceAdd (mulf (res_main_call10_v5 V0) (res_main_call10_v5 V0)) (constant S_ .f32 0x00000000#32) reducesTo_S50000x64_S64_d0 h_S_) (broadcastInDim S64 ![] bcast_S_S64 (res_main_call10_v8 V0))) (broadcastInDim S64 ![] bcast_S_S64 (id (constant S_ .f32 0x7FC00000#32)))

/-- Layer 9: the batch-norm: (x − mean) · rsqrt(var + ε) · γ + β; Layer 9: what softmax_one is taken of. -/
noncomputable def res_main_v601 (V0 : Valuation τ sig (Elt F)) : (Proc.devRef .tc main_v601 : DevRef τ sig).ty.Contents (Elt F) :=
  addf (mulf (mulf (subf (res_main_v582 V0) (broadcastInDim S50000x64 ![0, 1] bcast_S1x64_S50000x64_0_1 (broadcastInDim S1x64 ![1] bcast_S64_S1x64_1 (res_main_v585 V0)))) (broadcastInDim S50000x64 ![0, 1] bcast_S1x64_S50000x64_0_1 (broadcastInDim S1x64 ![1] bcast_S64_S1x64_1 (Host.rsqrt (addf (res_main_v586 V0) (broadcastInDim S64 ![] bcast_S_S64 (constant S_ .f32 0x3727C5AC#32))))))) (broadcastInDim S50000x64 ![0, 1] bcast_S1x64_S50000x64_0_1 (broadcastInDim S1x64 ![1] bcast_S64_S1x64_1 (res_main_v98 V0)))) (broadcastInDim S50000x64 ![0, 1] bcast_S1x64_S50000x64_0_1 (broadcastInDim S1x64 ![1] bcast_S64_S1x64_1 (res_main_v100 V0)))

noncomputable def res_main_v606 (V0 : Valuation τ sig (Elt F)) : (Proc.devRef .tc main_v606 : DevRef τ sig).ty.Contents (Elt F) :=
  Host.exp (subf (res_main_v601 V0) (broadcastInDim S50000x64 ![0, 1] bcast_S50000x1_S50000x64_0_1 (broadcastInDim S50000x1 ![0] bcast_S50000_S50000x1_0 (Host.reduce FloatOps.maximumf (res_main_v601 V0) (constant S_ .f32 0xFF800000#32) reducesTo_S50000x64_S50000_d1 h_S_))))

noncomputable def res_main_v610 (V0 : Valuation τ sig (Elt F)) : (Proc.devRef .tc main_v610 : DevRef τ sig).ty.Contents (Elt F) :=
  addf (broadcastInDim S50000x1 ![] bcast_S_S50000x1 (constant S_ .f32 0x3F800000#32)) (broadcastInDim S50000x1 ![0] bcast_S50000_S50000x1_0 (Host.reduceAdd (res_main_v606 V0) (constant S_ .f32 0x00000000#32) reducesTo_S50000x64_S50000_d1 h_S_))

/-- Layer 9: softmax_one along the rows: e / (1 + Σ e), e = exp(x − row max). -/
noncomputable def res_main_v612 (V0 : Valuation τ sig (Elt F)) : (Proc.devRef .tc main_v612 : DevRef τ sig).ty.Contents (Elt F) :=
  Host.divf (res_main_v606 V0) (broadcastInDim S50000x64 ![0, 1] bcast_S50000x1_S50000x64_0_1 (res_main_v610 V0))

/-- Layer 10: the matmul x · Wᵀ. -/
noncomputable def res_main_v614 (V0 : Valuation τ sig (Elt F)) : (Proc.devRef .tc main_v614 : DevRef τ sig).ty.Contents (Elt F) :=
  Host.dotGeneral dot_S50000x64_S64x64_S50000x64_1_0_0_1_n_n none (res_main_v612 V0) (transpose S64x64 [1, 0] (res_main_v70 V0) transposes_S64x64_S64x64_1_0)

/-- Layer 10: the segment sum by target of norm · (the matmul's rows gathered by source). -/
noncomputable def res_main_v627 (V0 : Valuation τ sig (Elt F)) : (Proc.devRef .tc main_v627 : DevRef τ sig).ty.Contents (Elt F) :=
  Host.scatterAdd scatter_S50000x64_S690000x1_S690000x64_1_0_0_1 (broadcastInDim S50000x64 ![] bcast_S_S50000x64 (constant S_ .f32 0x00000000#32)) (broadcastInDim S690000x1 ![0] bcast_S690000_S690000x1_0 (res_main_v6 V0)) (mulf (broadcastInDim S690000x64 ![0, 1] bcast_S690000x1_S690000x64_0_1 (broadcastInDim S690000x1 ![0] bcast_S690000_S690000x1_0 (res_main_v33 V0))) (Host.gather gather_S50000x64_S690000x1_S690000x64_1_0_n_n_0_1_164 (res_main_v614 V0) (broadcastInDim S690000x1 ![0] bcast_S690000_S690000x1_0 (select (cmpi .slt (res_main_v5 V0) (broadcastInDim S690000 ![] bcast_S_S690000 (constantI S_ 32 0#32))) (addi (res_main_v5 V0) (broadcastInDim S690000 ![] bcast_S_S690000 (constantI S_ 32 50000#32))) (res_main_v5 V0)))))

/-- Layer 10: the aggregation plus the bias. -/
noncomputable def res_main_v630 (V0 : Valuation τ sig (Elt F)) : (Proc.devRef .tc main_v630 : DevRef τ sig).ty.Contents (Elt F) :=
  addf (res_main_v627 V0) (broadcastInDim S50000x64 ![0, 1] bcast_S1x64_S50000x64_0_1 (broadcastInDim S1x64 ![1] bcast_S64_S1x64_1 (res_main_v72 V0)))

/-- Layer 10: what the batch-norm normalises (the convolution plus the earlier layers' residuals). -/
noncomputable def res_main_v638 (V0 : Valuation τ sig (Elt F)) : (Proc.devRef .tc main_v638 : DevRef τ sig).ty.Contents (Elt F) :=
  addf (addf (addf (addf (addf (addf (addf (addf (res_main_v630 V0) (res_main_v218 V0)) (res_main_v266 V0)) (res_main_v315 V0)) (res_main_v365 V0)) (res_main_v416 V0)) (res_main_v468 V0)) (res_main_v521 V0)) (res_main_v575 V0)

/-- Layer 10: the batch-norm input's column means. -/
noncomputable def res_main_v641 (V0 : Valuation τ sig (Elt F)) : (Proc.devRef .tc main_v641 : DevRef τ sig).ty.Contents (Elt F) :=
  Host.divf (Host.reduceAdd (res_main_v638 V0) (constant S_ .f32 0x00000000#32) reducesTo_S50000x64_S64_d0 h_S_) (broadcastInDim S64 ![] bcast_S_S64 (constant S_ .f32 0x47435000#32))

noncomputable def res_main_call11_v5 (V0 : Valuation τ sig (Elt F)) : (Proc.devRef .tc main_call11_v5 : DevRef τ sig).ty.Contents (Elt F) :=
  subf (res_main_v638 V0) (broadcastInDim S50000x64 ![0, 1] bcast_S1x64_S50000x64_0_1 (Host.divf (broadcastInDim S1x64 ![1] bcast_S64_S1x64_1 (Host.reduceAdd (res_main_v638 V0) (constant S_ .f32 0x00000000#32) reducesTo_S50000x64_S64_d0 h_S_)) (broadcastInDim S1x64 ![] bcast_S_S1x64 (constant S_ .f32 0x47435000#32))))

noncomputable def res_main_call11_v8 (V0 : Valuation τ sig (Elt F)) : (Proc.devRef .tc main_call11_v8 : DevRef τ sig).ty.Contents (Elt F) :=
  subf (constant S_ .f32 0x47435000#32) (sitofp .f32 (constantI S_ 32 0#32))

/-- Layer 10: the batch-norm input's column variances (biased). -/
noncomputable def res_main_v642 (V0 : Valuation τ sig (Elt F)) : (Proc.devRef .tc main_v642 : DevRef τ sig).ty.Contents (Elt F) :=
  select (broadcastInDim S64 ![] bcast_S_S64 (cmpf .ogt (res_main_call11_v8 V0) (constant S_ .f32 0x00000000#32))) (Host.divf (Host.reduceAdd (mulf (res_main_call11_v5 V0) (res_main_call11_v5 V0)) (constant S_ .f32 0x00000000#32) reducesTo_S50000x64_S64_d0 h_S_) (broadcastInDim S64 ![] bcast_S_S64 (res_main_call11_v8 V0))) (broadcastInDim S64 ![] bcast_S_S64 (id (constant S_ .f32 0x7FC00000#32)))

/-- Layer 10: the batch-norm: (x − mean) · rsqrt(var + ε) · γ + β; Layer 10: what softmax_one is taken of. -/
noncomputable def res_main_v657 (V0 : Valuation τ sig (Elt F)) : (Proc.devRef .tc main_v657 : DevRef τ sig).ty.Contents (Elt F) :=
  addf (mulf (mulf (subf (res_main_v638 V0) (broadcastInDim S50000x64 ![0, 1] bcast_S1x64_S50000x64_0_1 (broadcastInDim S1x64 ![1] bcast_S64_S1x64_1 (res_main_v641 V0)))) (broadcastInDim S50000x64 ![0, 1] bcast_S1x64_S50000x64_0_1 (broadcastInDim S1x64 ![1] bcast_S64_S1x64_1 (Host.rsqrt (addf (res_main_v642 V0) (broadcastInDim S64 ![] bcast_S_S64 (constant S_ .f32 0x3727C5AC#32))))))) (broadcastInDim S50000x64 ![0, 1] bcast_S1x64_S50000x64_0_1 (broadcastInDim S1x64 ![1] bcast_S64_S1x64_1 (res_main_v102 V0)))) (broadcastInDim S50000x64 ![0, 1] bcast_S1x64_S50000x64_0_1 (broadcastInDim S1x64 ![1] bcast_S64_S1x64_1 (res_main_v104 V0)))

noncomputable def res_main_v662 (V0 : Valuation τ sig (Elt F)) : (Proc.devRef .tc main_v662 : DevRef τ sig).ty.Contents (Elt F) :=
  Host.exp (subf (res_main_v657 V0) (broadcastInDim S50000x64 ![0, 1] bcast_S50000x1_S50000x64_0_1 (broadcastInDim S50000x1 ![0] bcast_S50000_S50000x1_0 (Host.reduce FloatOps.maximumf (res_main_v657 V0) (constant S_ .f32 0xFF800000#32) reducesTo_S50000x64_S50000_d1 h_S_))))

/-- Layer 10: softmax_one along the rows: e / (1 + Σ e), e = exp(x − row max). -/
noncomputable def res_main_v668 (V0 : Valuation τ sig (Elt F)) : (Proc.devRef .tc main_v668 : DevRef τ sig).ty.Contents (Elt F) :=
  Host.divf (res_main_v662 V0) (broadcastInDim S50000x64 ![0, 1] bcast_S50000x1_S50000x64_0_1 (addf (broadcastInDim S50000x1 ![] bcast_S_S50000x1 (constant S_ .f32 0x3F800000#32)) (broadcastInDim S50000x1 ![0] bcast_S50000_S50000x1_0 (Host.reduceAdd (res_main_v662 V0) (constant S_ .f32 0x00000000#32) reducesTo_S50000x64_S50000_d1 h_S_))))

/-- Layer 11: the matmul x · Wᵀ. -/
noncomputable def res_main_v670 (V0 : Valuation τ sig (Elt F)) : (Proc.devRef .tc main_v670 : DevRef τ sig).ty.Contents (Elt F) :=
  Host.dotGeneral dot_S50000x64_S64x32_S50000x32_1_0_0_1_n_n none (res_main_v668 V0) (transpose S64x32 [1, 0] (V0 (Proc.devRef .tc main_arg14)) transposes_S32x64_S64x32_1_0)

/-- Layer 11: the segment sum by target of norm · (the matmul's rows gathered by source). -/
noncomputable def res_main_v683 (V0 : Valuation τ sig (Elt F)) : (Proc.devRef .tc main_v683 : DevRef τ sig).ty.Contents (Elt F) :=
  Host.scatterAdd scatter_S50000x32_S690000x1_S690000x32_1_0_0_1 (broadcastInDim S50000x32 ![] bcast_S_S50000x32 (constant S_ .f32 0x00000000#32)) (broadcastInDim S690000x1 ![0] bcast_S690000_S690000x1_0 (res_main_v6 V0)) (mulf (broadcastInDim S690000x32 ![0, 1] bcast_S690000x1_S690000x32_0_1 (broadcastInDim S690000x1 ![0] bcast_S690000_S690000x1_0 (res_main_v33 V0))) (Host.gather gather_S50000x32_S690000x1_S690000x32_1_0_n_n_0_1_132 (res_main_v670 V0) (broadcastInDim S690000x1 ![0] bcast_S690000_S690000x1_0 (select (cmpi .slt (res_main_v5 V0) (broadcastInDim S690000 ![] bcast_S_S690000 (constantI S_ 32 0#32))) (addi (res_main_v5 V0) (broadcastInDim S690000 ![] bcast_S_S690000 (constantI S_ 32 50000#32))) (res_main_v5 V0)))))

/-- Layer 11: the aggregation plus the bias; Layer 11: what softmax_one is taken of. -/
noncomputable def res_main_v686 (V0 : Valuation τ sig (Elt F)) : (Proc.devRef .tc main_v686 : DevRef τ sig).ty.Contents (Elt F) :=
  addf (res_main_v683 V0) (broadcastInDim S50000x32 ![0, 1] bcast_S1x32_S50000x32_0_1 (broadcastInDim S1x32 ![1] bcast_S32_S1x32_1 (V0 (Proc.devRef .tc main_arg15))))

noncomputable def res_main_v691 (V0 : Valuation τ sig (Elt F)) : (Proc.devRef .tc main_v691 : DevRef τ sig).ty.Contents (Elt F) :=
  Host.exp (subf (res_main_v686 V0) (broadcastInDim S50000x32 ![0, 1] bcast_S50000x1_S50000x32_0_1 (broadcastInDim S50000x1 ![0] bcast_S50000_S50000x1_0 (Host.reduce FloatOps.maximumf (res_main_v686 V0) (constant S_ .f32 0xFF800000#32) reducesTo_S50000x32_S50000_d1 h_S_))))

/-- Layer 11: what the batch-norm normalises; Layer 11: softmax_one along the rows: e / (1 + Σ e), e = exp(x − row max). -/
noncomputable def res_main_v697 (V0 : Valuation τ sig (Elt F)) : (Proc.devRef .tc main_v697 : DevRef τ sig).ty.Contents (Elt F) :=
  Host.divf (res_main_v691 V0) (broadcastInDim S50000x32 ![0, 1] bcast_S50000x1_S50000x32_0_1 (addf (broadcastInDim S50000x1 ![] bcast_S_S50000x1 (constant S_ .f32 0x3F800000#32)) (broadcastInDim S50000x1 ![0] bcast_S50000_S50000x1_0 (Host.reduceAdd (res_main_v691 V0) (constant S_ .f32 0x00000000#32) reducesTo_S50000x32_S50000_d1 h_S_))))

/-- Layer 11: the batch-norm input's column means. -/
noncomputable def res_main_v700 (V0 : Valuation τ sig (Elt F)) : (Proc.devRef .tc main_v700 : DevRef τ sig).ty.Contents (Elt F) :=
  Host.divf (Host.reduceAdd (res_main_v697 V0) (constant S_ .f32 0x00000000#32) reducesTo_S50000x32_S32_d0 h_S_) (broadcastInDim S32 ![] bcast_S_S32 (constant S_ .f32 0x47435000#32))

noncomputable def res_main_call12_v5 (V0 : Valuation τ sig (Elt F)) : (Proc.devRef .tc main_call12_v5 : DevRef τ sig).ty.Contents (Elt F) :=
  subf (res_main_v697 V0) (broadcastInDim S50000x32 ![0, 1] bcast_S1x32_S50000x32_0_1 (Host.divf (broadcastInDim S1x32 ![1] bcast_S32_S1x32_1 (Host.reduceAdd (res_main_v697 V0) (constant S_ .f32 0x00000000#32) reducesTo_S50000x32_S32_d0 h_S_)) (broadcastInDim S1x32 ![] bcast_S_S1x32 (constant S_ .f32 0x47435000#32))))

noncomputable def res_main_call12_v8 (V0 : Valuation τ sig (Elt F)) : (Proc.devRef .tc main_call12_v8 : DevRef τ sig).ty.Contents (Elt F) :=
  subf (constant S_ .f32 0x47435000#32) (sitofp .f32 (constantI S_ 32 0#32))

/-- Layer 11: the batch-norm input's column variances (biased). -/
noncomputable def res_main_v701 (V0 : Valuation τ sig (Elt F)) : (Proc.devRef .tc main_v701 : DevRef τ sig).ty.Contents (Elt F) :=
  select (broadcastInDim S32 ![] bcast_S_S32 (cmpf .ogt (res_main_call12_v8 V0) (constant S_ .f32 0x00000000#32))) (Host.divf (Host.reduceAdd (mulf (res_main_call12_v5 V0) (res_main_call12_v5 V0)) (constant S_ .f32 0x00000000#32) reducesTo_S50000x32_S32_d0 h_S_) (broadcastInDim S32 ![] bcast_S_S32 (res_main_call12_v8 V0))) (broadcastInDim S32 ![] bcast_S_S32 (id (constant S_ .f32 0x7FC00000#32)))

noncomputable def res_main_v710 (V0 : Valuation τ sig (Elt F)) : (Proc.devRef .tc main_v710 : DevRef τ sig).ty.Contents (Elt F) :=
  mulf (subf (res_main_v697 V0) (broadcastInDim S50000x32 ![0, 1] bcast_S1x32_S50000x32_0_1 (broadcastInDim S1x32 ![1] bcast_S32_S1x32_1 (res_main_v700 V0)))) (broadcastInDim S50000x32 ![0, 1] bcast_S1x32_S50000x32_0_1 (broadcastInDim S1x32 ![1] bcast_S32_S1x32_1 (Host.rsqrt (addf (res_main_v701 V0) (broadcastInDim S32 ![] bcast_S_S32 (constant S_ .f32 0x3727C5AC#32))))))

/-- Layer 11: the batch-norm: (x − mean) · rsqrt(var + ε) · γ + β. -/
noncomputable def res_main_v716 (V0 : Valuation τ sig (Elt F)) : (Proc.devRef .tc main_v716 : DevRef τ sig).ty.Contents (Elt F) :=
  addf (mulf (res_main_v710 V0) (broadcastInDim S50000x32 ![0, 1] bcast_S1x32_S50000x32_0_1 (broadcastInDim S1x32 ![1] bcast_S32_S1x32_1 (V0 (Proc.devRef .tc main_arg24))))) (broadcastInDim S50000x32 ![0, 1] bcast_S1x32_S50000x32_0_1 (broadcastInDim S1x32 ![1] bcast_S32_S1x32_1 (V0 (Proc.devRef .tc main_arg25))))

noncomputable def res_main_v718 (V0 : Valuation τ sig (Elt F)) : (Proc.devRef .tc main_v718 : DevRef τ sig).ty.Contents (Elt F) :=
  shapeCast S50000 (Host.dotGeneral dot_S50000x32_S32x1_S50000x1_1_0_0_1_n_n none (res_main_v716 V0) (V0 (Proc.devRef .tc main_arg26))) shapeCasts_S50000x1_S50000

/-! ## The stages by name

    The same intermediates under the names of the network's stages (abbreviations: each unfolds to its `res_‹buffer›`). -/

/-- The edges' source nodes, then one self loop per node. -/
noncomputable abbrev gSrc (V0 : Valuation τ sig (Elt F)) : (Proc.devRef .tc main_v5 : DevRef τ sig).ty.Contents (Elt F) := res_main_v5 V0
/-- The edges' target nodes, then one self loop per node. -/
noncomputable abbrev gDst (V0 : Valuation τ sig (Elt F)) : (Proc.devRef .tc main_v6 : DevRef τ sig).ty.Contents (Elt F) := res_main_v6 V0
/-- The edge weights, then weight one per self loop. -/
noncomputable abbrev gW (V0 : Valuation τ sig (Elt F)) : (Proc.devRef .tc main_v8 : DevRef τ sig).ty.Contents (Elt F) := res_main_v8 V0
/-- Each node's weighted in-degree (segment sum of the weights by target). -/
noncomputable abbrev gDeg (V0 : Valuation τ sig (Elt F)) : (Proc.devRef .tc main_v11 : DevRef τ sig).ty.Contents (Elt F) := res_main_v11 V0
/-- Deg^(-1/2) where the degree is positive, else zero. -/
noncomputable abbrev gDis (V0 : Valuation τ sig (Elt F)) : (Proc.devRef .tc main_v17 : DevRef τ sig).ty.Contents (Elt F) := res_main_v17 V0
/-- The symmetric normalisation dis[src] · w · dis[dst] per edge. -/
noncomputable abbrev gNorm (V0 : Valuation τ sig (Elt F)) : (Proc.devRef .tc main_v33 : DevRef τ sig).ty.Contents (Elt F) := res_main_v33 V0
/-- The input features: x[:, 4:22] · ESG_weight + ESG_bias + x[:, 0:4]. -/
noncomputable abbrev xIn (V0 : Valuation τ sig (Elt F)) : (Proc.devRef .tc main_v40 : DevRef τ sig).ty.Contents (Elt F) := res_main_v40 V0
/-- Layer 0: the matmul x · Wᵀ. -/
noncomputable abbrev lin0 (V0 : Valuation τ sig (Elt F)) : (Proc.devRef .tc main_v106 : DevRef τ sig).ty.Contents (Elt F) := res_main_v106 V0
/-- Layer 0: the segment sum by target of norm · (the matmul's rows gathered by source). -/
noncomputable abbrev agg0 (V0 : Valuation τ sig (Elt F)) : (Proc.devRef .tc main_v119 : DevRef τ sig).ty.Contents (Elt F) := res_main_v119 V0
/-- Layer 0: the aggregation plus the bias. -/
noncomputable abbrev conv0 (V0 : Valuation τ sig (Elt F)) : (Proc.devRef .tc main_v122 : DevRef τ sig).ty.Contents (Elt F) := res_main_v122 V0
/-- Layer 0: what the batch-norm normalises. -/
noncomputable abbrev bnIn0 (V0 : Valuation τ sig (Elt F)) : (Proc.devRef .tc main_v122 : DevRef τ sig).ty.Contents (Elt F) := res_main_v122 V0
/-- Layer 0: the batch-norm input's column means. -/
noncomputable abbrev mean0 (V0 : Valuation τ sig (Elt F)) : (Proc.devRef .tc main_v125 : DevRef τ sig).ty.Contents (Elt F) := res_main_v125 V0
/-- Layer 0: the batch-norm input's column variances (biased). -/
noncomputable abbrev var0 (V0 : Valuation τ sig (Elt F)) : (Proc.devRef .tc main_v126 : DevRef τ sig).ty.Contents (Elt F) := res_main_v126 V0
/-- Layer 0: the batch-norm: (x − mean) · rsqrt(var + ε) · γ + β. -/
noncomputable abbrev bn0 (V0 : Valuation τ sig (Elt F)) : (Proc.devRef .tc main_v141 : DevRef τ sig).ty.Contents (Elt F) := res_main_v141 V0
/-- Layer 0: what softmax_one is taken of. -/
noncomputable abbrev smIn0 (V0 : Valuation τ sig (Elt F)) : (Proc.devRef .tc main_v141 : DevRef τ sig).ty.Contents (Elt F) := res_main_v141 V0
/-- Layer 0: softmax_one along the rows: e / (1 + Σ e), e = exp(x − row max). -/
noncomputable abbrev act0 (V0 : Valuation τ sig (Elt F)) : (Proc.devRef .tc main_v152 : DevRef τ sig).ty.Contents (Elt F) := res_main_v152 V0
/-- Layer 1: the matmul x · Wᵀ. -/
noncomputable abbrev lin1 (V0 : Valuation τ sig (Elt F)) : (Proc.devRef .tc main_v154 : DevRef τ sig).ty.Contents (Elt F) := res_main_v154 V0
/-- Layer 1: the segment sum by target of norm · (the matmul's rows gathered by source). -/
noncomputable abbrev agg1 (V0 : Valuation τ sig (Elt F)) : (Proc.devRef .tc main_v167 : DevRef τ sig).ty.Contents (Elt F) := res_main_v167 V0
/-- Layer 1: the aggregation plus the bias. -/
noncomputable abbrev conv1 (V0 : Valuation τ sig (Elt F)) : (Proc.devRef .tc main_v170 : DevRef τ sig).ty.Contents (Elt F) := res_main_v170 V0
/-- Layer 1: what the batch-norm normalises. -/
noncomputable abbrev bnIn1 (V0 : Valuation τ sig (Elt F)) : (Proc.devRef .tc main_v170 : DevRef τ sig).ty.Contents (Elt F) := res_main_v170 V0
/-- Layer 1: the batch-norm input's column means. -/
noncomputable abbrev mean1 (V0 : Valuation τ sig (Elt F)) : (Proc.devRef .tc main_v173 : DevRef τ sig).ty.Contents (Elt F) := res_main_v173 V0
/-- Layer 1: the batch-norm input's column variances (biased). -/
noncomputable abbrev var1 (V0 : Valuation τ sig (Elt F)) : (Proc.devRef .tc main_v174 : DevRef τ sig).ty.Contents (Elt F) := res_main_v174 V0
/-- Layer 1: the batch-norm: (x − mean) · rsqrt(var + ε) · γ + β. -/
noncomputable abbrev bn1 (V0 : Valuation τ sig (Elt F)) : (Proc.devRef .tc main_v189 : DevRef τ sig).ty.Contents (Elt F) := res_main_v189 V0
/-- Layer 1: what softmax_one is taken of. -/
noncomputable abbrev smIn1 (V0 : Valuation τ sig (Elt F)) : (Proc.devRef .tc main_v189 : DevRef τ sig).ty.Contents (Elt F) := res_main_v189 V0
/-- Layer 1: softmax_one along the rows: e / (1 + Σ e), e = exp(x − row max). -/
noncomputable abbrev act1 (V0 : Valuation τ sig (Elt F)) : (Proc.devRef .tc main_v200 : DevRef τ sig).ty.Contents (Elt F) := res_main_v200 V0
/-- Layer 2: the matmul x · Wᵀ. -/
noncomputable abbrev lin2 (V0 : Valuation τ sig (Elt F)) : (Proc.devRef .tc main_v202 : DevRef τ sig).ty.Contents (Elt F) := res_main_v202 V0
/-- Layer 2: the segment sum by target of norm · (the matmul's rows gathered by source). -/
noncomputable abbrev agg2 (V0 : Valuation τ sig (Elt F)) : (Proc.devRef .tc main_v215 : DevRef τ sig).ty.Contents (Elt F) := res_main_v215 V0
/-- Layer 2: the aggregation plus the bias. -/
noncomputable abbrev conv2 (V0 : Valuation τ sig (Elt F)) : (Proc.devRef .tc main_v218 : DevRef τ sig).ty.Contents (Elt F) := res_main_v218 V0
/-- Layer 2: what the batch-norm normalises. -/
noncomputable abbrev bnIn2 (V0 : Valuation τ sig (Elt F)) : (Proc.devRef .tc main_v218 : DevRef τ sig).ty.Contents (Elt F) := res_main_v218 V0
/-- Layer 2: the batch-norm input's column means. -/
noncomputable abbrev mean2 (V0 : Valuation τ sig (Elt F)) : (Proc.devRef .tc main_v221 : DevRef τ sig).ty.Contents (Elt F) := res_main_v221 V0
/-- Layer 2: the batch-norm input's column variances (biased). -/
noncomputable abbrev var2 (V0 : Valuation τ sig (Elt F)) : (Proc.devRef .tc main_v222 : DevRef τ sig).ty.Contents (Elt F) := res_main_v222 V0
/-- Layer 2: the batch-norm: (x − mean) · rsqrt(var + ε) · γ + β. -/
noncomputable abbrev bn2 (V0 : Valuation τ sig (Elt F)) : (Proc.devRef .tc main_v237 : DevRef τ sig).ty.Contents (Elt F) := res_main_v237 V0
/-- Layer 2: what softmax_one is taken of. -/
noncomputable abbrev smIn2 (V0 : Valuation τ sig (Elt F)) : (Proc.devRef .tc main_v237 : DevRef τ sig).ty.Contents (Elt F) := res_main_v237 V0
/-- Layer 2: softmax_one along the rows: e / (1 + Σ e), e = exp(x − row max). -/
noncomputable abbrev act2 (V0 : Valuation τ sig (Elt F)) : (Proc.devRef .tc main_v248 : DevRef τ sig).ty.Contents (Elt F) := res_main_v248 V0
/-- Layer 3: the matmul x · Wᵀ. -/
noncomputable abbrev lin3 (V0 : Valuation τ sig (Elt F)) : (Proc.devRef .tc main_v250 : DevRef τ sig).ty.Contents (Elt F) := res_main_v250 V0
/-- Layer 3: the segment sum by target of norm · (the matmul's rows gathered by source). -/
noncomputable abbrev agg3 (V0 : Valuation τ sig (Elt F)) : (Proc.devRef .tc main_v263 : DevRef τ sig).ty.Contents (Elt F) := res_main_v263 V0
/-- Layer 3: the aggregation plus the bias. -/
noncomputable abbrev conv3 (V0 : Valuation τ sig (Elt F)) : (Proc.devRef .tc main_v266 : DevRef τ sig).ty.Contents (Elt F) := res_main_v266 V0
/-- Layer 3: what the batch-norm normalises (the convolution plus the earlier layers' residuals). -/
noncomputable abbrev bnIn3 (V0 : Valuation τ sig (Elt F)) : (Proc.devRef .tc main_v267 : DevRef τ sig).ty.Contents (Elt F) := res_main_v267 V0
/-- Layer 3: the batch-norm input's column means. -/
noncomputable abbrev mean3 (V0 : Valuation τ sig (Elt F)) : (Proc.devRef .tc main_v270 : DevRef τ sig).ty.Contents (Elt F) := res_main_v270 V0
/-- Layer 3: the batch-norm input's column variances (biased). -/
noncomputable abbrev var3 (V0 : Valuation τ sig (Elt F)) : (Proc.devRef .tc main_v271 : DevRef τ sig).ty.Contents (Elt F) := res_main_v271 V0
/-- Layer 3: the batch-norm: (x − mean) · rsqrt(var + ε) · γ + β. -/
noncomputable abbrev bn3 (V0 : Valuation τ sig (Elt F)) : (Proc.devRef .tc main_v286 : DevRef τ sig).ty.Contents (Elt F) := res_main_v286 V0
/-- Layer 3: what softmax_one is taken of. -/
noncomputable abbrev smIn3 (V0 : Valuation τ sig (Elt F)) : (Proc.devRef .tc main_v286 : DevRef τ sig).ty.Contents (Elt F) := res_main_v286 V0
/-- Layer 3: softmax_one along the rows: e / (1 + Σ e), e = exp(x − row max). -/
noncomputable abbrev act3 (V0 : Valuation τ sig (Elt F)) : (Proc.devRef .tc main_v297 : DevRef τ sig).ty.Contents (Elt F) := res_main_v297 V0
/-- Layer 4: the matmul x · Wᵀ. -/
noncomputable abbrev lin4 (V0 : Valuation τ sig (Elt F)) : (Proc.devRef .tc main_v299 : DevRef τ sig).ty.Contents (Elt F) := res_main_v299 V0
/-- Layer 4: the segment sum by target of norm · (the matmul's rows gathered by source). -/
noncomputable abbrev agg4 (V0 : Valuation τ sig (Elt F)) : (Proc.devRef .tc main_v312 : DevRef τ sig).ty.Contents (Elt F) := res_main_v312 V0
/-- Layer 4: the aggregation plus the bias. -/
noncomputable abbrev conv4 (V0 : Valuation τ sig (Elt F)) : (Proc.devRef .tc main_v315 : DevRef τ sig).ty.Contents (Elt F) := res_main_v315 V0
/-- Layer 4: what the batch-norm normalises (the convolution plus the earlier layers' residuals). -/
noncomputable abbrev bnIn4 (V0 : Valuation τ sig (Elt F)) : (Proc.devRef .tc main_v317 : DevRef τ sig).ty.Contents (Elt F) := res_main_v317 V0
/-- Layer 4: the batch-norm input's column means. -/
noncomputable abbrev mean4 (V0 : Valuation τ sig (Elt F)) : (Proc.devRef .tc main_v320 : DevRef τ sig).ty.Contents (Elt F) := res_main_v320 V0
/-- Layer 4: the batch-norm input's column variances (biased). -/
noncomputable abbrev var4 (V0 : Valuation τ sig (Elt F)) : (Proc.devRef .tc main_v321 : DevRef τ sig).ty.Contents (Elt F) := res_main_v321 V0
/-- Layer 4: the batch-norm: (x − mean) · rsqrt(var + ε) · γ + β. -/
noncomputable abbrev bn4 (V0 : Valuation τ sig (Elt F)) : (Proc.devRef .tc main_v336 : DevRef τ sig).ty.Contents (Elt F) := res_main_v336 V0
/-- Layer 4: what softmax_one is taken of. -/
noncomputable abbrev smIn4 (V0 : Valuation τ sig (Elt F)) : (Proc.devRef .tc main_v336 : DevRef τ sig).ty.Contents (Elt F) := res_main_v336 V0
/-- Layer 4: softmax_one along the rows: e / (1 + Σ e), e = exp(x − row max). -/
noncomputable abbrev act4 (V0 : Valuation τ sig (Elt F)) : (Proc.devRef .tc main_v347 : DevRef τ sig).ty.Contents (Elt F) := res_main_v347 V0
/-- Layer 5: the matmul x · Wᵀ. -/
noncomputable abbrev lin5 (V0 : Valuation τ sig (Elt F)) : (Proc.devRef .tc main_v349 : DevRef τ sig).ty.Contents (Elt F) := res_main_v349 V0
/-- Layer 5: the segment sum by target of norm · (the matmul's rows gathered by source). -/
noncomputable abbrev agg5 (V0 : Valuation τ sig (Elt F)) : (Proc.devRef .tc main_v362 : DevRef τ sig).ty.Contents (Elt F) := res_main_v362 V0
/-- Layer 5: the aggregation plus the bias. -/
noncomputable abbrev conv5 (V0 : Valuation τ sig (Elt F)) : (Proc.devRef .tc main_v365 : DevRef τ sig).ty.Contents (Elt F) := res_main_v365 V0
/-- Layer 5: what the batch-norm normalises (the convolution plus the earlier layers' residuals). -/
noncomputable abbrev bnIn5 (V0 : Valuation τ sig (Elt F)) : (Proc.devRef .tc main_v368 : DevRef τ sig).ty.Contents (Elt F) := res_main_v368 V0
/-- Layer 5: the batch-norm input's column means. -/
noncomputable abbrev mean5 (V0 : Valuation τ sig (Elt F)) : (Proc.devRef .tc main_v371 : DevRef τ sig).ty.Contents (Elt F) := res_main_v371 V0
/-- Layer 5: the batch-norm input's column variances (biased). -/
noncomputable abbrev var5 (V0 : Valuation τ sig (Elt F)) : (Proc.devRef .tc main_v372 : DevRef τ sig).ty.Contents (Elt F) := res_main_v372 V0
/-- Layer 5: the batch-norm: (x − mean) · rsqrt(var + ε) · γ + β. -/
noncomputable abbrev bn5 (V0 : Valuation τ sig (Elt F)) : (Proc.devRef .tc main_v387 : DevRef τ sig).ty.Contents (Elt F) := res_main_v387 V0
/-- Layer 5: what softmax_one is taken of. -/
noncomputable abbrev smIn5 (V0 : Valuation τ sig (Elt F)) : (Proc.devRef .tc main_v387 : DevRef τ sig).ty.Contents (Elt F) := res_main_v387 V0
/-- Layer 5: softmax_one along the rows: e / (1 + Σ e), e = exp(x − row max). -/
noncomputable abbrev act5 (V0 : Valuation τ sig (Elt F)) : (Proc.devRef .tc main_v398 : DevRef τ sig).ty.Contents (Elt F) := res_main_v398 V0
/-- Layer 6: the matmul x · Wᵀ. -/
noncomputable abbrev lin6 (V0 : Valuation τ sig (Elt F)) : (Proc.devRef .tc main_v400 : DevRef τ sig).ty.Contents (Elt F) := res_main_v400 V0
/-- Layer 6: the segment sum by target of norm · (the matmul's rows gathered by source). -/
noncomputable abbrev agg6 (V0 : Valuation τ sig (Elt F)) : (Proc.devRef .tc main_v413 : DevRef τ sig).ty.Contents (Elt F) := res_main_v413 V0
/-- Layer 6: the aggregation plus the bias. -/
noncomputable abbrev conv6 (V0 : Valuation τ sig (Elt F)) : (Proc.devRef .tc main_v416 : DevRef τ sig).ty.Contents (Elt F) := res_main_v416 V0
/-- Layer 6: what the batch-norm normalises (the convolution plus the earlier layers' residuals). -/
noncomputable abbrev bnIn6 (V0 : Valuation τ sig (Elt F)) : (Proc.devRef .tc main_v420 : DevRef τ sig).ty.Contents (Elt F) := res_main_v420 V0
/-- Layer 6: the batch-norm input's column means. -/
noncomputable abbrev mean6 (V0 : Valuation τ sig (Elt F)) : (Proc.devRef .tc main_v423 : DevRef τ sig).ty.Contents (Elt F) := res_main_v423 V0
/-- Layer 6: the batch-norm input's column variances (biased). -/
noncomputable abbrev var6 (V0 : Valuation τ sig (Elt F)) : (Proc.devRef .tc main_v424 : DevRef τ sig).ty.Contents (Elt F) := res_main_v424 V0
/-- Layer 6: the batch-norm: (x − mean) · rsqrt(var + ε) · γ + β. -/
noncomputable abbrev bn6 (V0 : Valuation τ sig (Elt F)) : (Proc.devRef .tc main_v439 : DevRef τ sig).ty.Contents (Elt F) := res_main_v439 V0
/-- Layer 6: what softmax_one is taken of. -/
noncomputable abbrev smIn6 (V0 : Valuation τ sig (Elt F)) : (Proc.devRef .tc main_v439 : DevRef τ sig).ty.Contents (Elt F) := res_main_v439 V0
/-- Layer 6: softmax_one along the rows: e / (1 + Σ e), e = exp(x − row max). -/
noncomputable abbrev act6 (V0 : Valuation τ sig (Elt F)) : (Proc.devRef .tc main_v450 : DevRef τ sig).ty.Contents (Elt F) := res_main_v450 V0
/-- Layer 7: the matmul x · Wᵀ. -/
noncomputable abbrev lin7 (V0 : Valuation τ sig (Elt F)) : (Proc.devRef .tc main_v452 : DevRef τ sig).ty.Contents (Elt F) := res_main_v452 V0
/-- Layer 7: the segment sum by target of norm · (the matmul's rows gathered by source). -/
noncomputable abbrev agg7 (V0 : Valuation τ sig (Elt F)) : (Proc.devRef .tc main_v465 : DevRef τ sig).ty.Contents (Elt F) := res_main_v465 V0
/-- Layer 7: the aggregation plus the bias. -/
noncomputable abbrev conv7 (V0 : Valuation τ sig (Elt F)) : (Proc.devRef .tc main_v468 : DevRef τ sig).ty.Contents (Elt F) := res_main_v468 V0
/-- Layer 7: what the batch-norm normalises (the convolution plus the earlier layers' residuals). -/
noncomputable abbrev bnIn7 (V0 : Valuation τ sig (Elt F)) : (Proc.devRef .tc main_v473 : DevRef τ sig).ty.Contents (Elt F) := res_main_v473 V0
/-- Layer 7: the batch-norm input's column means. -/
noncomputable abbrev mean7 (V0 : Valuation τ sig (Elt F)) : (Proc.devRef .tc main_v476 : DevRef τ sig).ty.Contents (Elt F) := res_main_v476 V0
/-- Layer 7: the batch-norm input's column variances (biased). -/
noncomputable abbrev var7 (V0 : Valuation τ sig (Elt F)) : (Proc.devRef .tc main_v477 : DevRef τ sig).ty.Contents (Elt F) := res_main_v477 V0
/-- Layer 7: the batch-norm: (x − mean) · rsqrt(var + ε) · γ + β. -/
noncomputable abbrev bn7 (V0 : Valuation τ sig (Elt F)) : (Proc.devRef .tc main_v492 : DevRef τ sig).ty.Contents (Elt F) := res_main_v492 V0
/-- Layer 7: what softmax_one is taken of. -/
noncomputable abbrev smIn7 (V0 : Valuation τ sig (Elt F)) : (Proc.devRef .tc main_v492 : DevRef τ sig).ty.Contents (Elt F) := res_main_v492 V0
/-- Layer 7: softmax_one along the rows: e / (1 + Σ e), e = exp(x − row max). -/
noncomputable abbrev act7 (V0 : Valuation τ sig (Elt F)) : (Proc.devRef .tc main_v503 : DevRef τ sig).ty.Contents (Elt F) := res_main_v503 V0
/-- Layer 8: the matmul x · Wᵀ. -/
noncomputable abbrev lin8 (V0 : Valuation τ sig (Elt F)) : (Proc.devRef .tc main_v505 : DevRef τ sig).ty.Contents (Elt F) := res_main_v505 V0
/-- Layer 8: the segment sum by target of norm · (the matmul's rows gathered by source). -/
noncomputable abbrev agg8 (V0 : Valuation τ sig (Elt F)) : (Proc.devRef .tc main_v518 : DevRef τ sig).ty.Contents (Elt F) := res_main_v518 V0
/-- Layer 8: the aggregation plus the bias. -/
noncomputable abbrev conv8 (V0 : Valuation τ sig (Elt F)) : (Proc.devRef .tc main_v521 : DevRef τ sig).ty.Contents (Elt F) := res_main_v521 V0
/-- Layer 8: what the batch-norm normalises (the convolution plus the earlier layers' residuals). -/
noncomputable abbrev bnIn8 (V0 : Valuation τ sig (Elt F)) : (Proc.devRef .tc main_v527 : DevRef τ sig).ty.Contents (Elt F) := res_main_v527 V0
/-- Layer 8: the batch-norm input's column means. -/
noncomputable abbrev mean8 (V0 : Valuation τ sig (Elt F)) : (Proc.devRef .tc main_v530 : DevRef τ sig).ty.Contents (Elt F) := res_main_v530 V0
/-- Layer 8: the batch-norm input's column variances (biased). -/
noncomputable abbrev var8 (V0 : Valuation τ sig (Elt F)) : (Proc.devRef .tc main_v531 : DevRef τ sig).ty.Contents (Elt F) := res_main_v531 V0
/-- Layer 8: the batch-norm: (x − mean) · rsqrt(var + ε) · γ + β. -/
noncomputable abbrev bn8 (V0 : Valuation τ sig (Elt F)) : (Proc.devRef .tc main_v546 : DevRef τ sig).ty.Contents (Elt F) := res_main_v546 V0
/-- Layer 8: what softmax_one is taken of. -/
noncomputable abbrev smIn8 (V0 : Valuation τ sig (Elt F)) : (Proc.devRef .tc main_v546 : DevRef τ sig).ty.Contents (Elt F) := res_main_v546 V0
/-- Layer 8: softmax_one along the rows: e / (1 + Σ e), e = exp(x − row max). -/
noncomputable abbrev act8 (V0 : Valuation τ sig (Elt F)) : (Proc.devRef .tc main_v557 : DevRef τ sig).ty.Contents (Elt F) := res_main_v557 V0
/-- Layer 9: the matmul x · Wᵀ. -/
noncomputable abbrev lin9 (V0 : Valuation τ sig (Elt F)) : (Proc.devRef .tc main_v559 : DevRef τ sig).ty.Contents (Elt F) := res_main_v559 V0
/-- Layer 9: the segment sum by target of norm · (the matmul's rows gathered by source). -/
noncomputable abbrev agg9 (V0 : Valuation τ sig (Elt F)) : (Proc.devRef .tc main_v572 : DevRef τ sig).ty.Contents (Elt F) := res_main_v572 V0
/-- Layer 9: the aggregation plus the bias. -/
noncomputable abbrev conv9 (V0 : Valuation τ sig (Elt F)) : (Proc.devRef .tc main_v575 : DevRef τ sig).ty.Contents (Elt F) := res_main_v575 V0
/-- Layer 9: what the batch-norm normalises (the convolution plus the earlier layers' residuals). -/
noncomputable abbrev bnIn9 (V0 : Valuation τ sig (Elt F)) : (Proc.devRef .tc main_v582 : DevRef τ sig).ty.Contents (Elt F) := res_main_v582 V0
/-- Layer 9: the batch-norm input's column means. -/
noncomputable abbrev mean9 (V0 : Valuation τ sig (Elt F)) : (Proc.devRef .tc main_v585 : DevRef τ sig).ty.Contents (Elt F) := res_main_v585 V0
/-- Layer 9: the batch-norm input's column variances (biased). -/
noncomputable abbrev var9 (V0 : Valuation τ sig (Elt F)) : (Proc.devRef .tc main_v586 : DevRef τ sig).ty.Contents (Elt F) := res_main_v586 V0
/-- Layer 9: the batch-norm: (x − mean) · rsqrt(var + ε) · γ + β. -/
noncomputable abbrev bn9 (V0 : Valuation τ sig (Elt F)) : (Proc.devRef .tc main_v601 : DevRef τ sig).ty.Contents (Elt F) := res_main_v601 V0
/-- Layer 9: what softmax_one is taken of. -/
noncomputable abbrev smIn9 (V0 : Valuation τ sig (Elt F)) : (Proc.devRef .tc main_v601 : DevRef τ sig).ty.Contents (Elt F) := res_main_v601 V0
/-- Layer 9: softmax_one along the rows: e / (1 + Σ e), e = exp(x − row max). -/
noncomputable abbrev act9 (V0 : Valuation τ sig (Elt F)) : (Proc.devRef .tc main_v612 : DevRef τ sig).ty.Contents (Elt F) := res_main_v612 V0
/-- Layer 10: the matmul x · Wᵀ. -/
noncomputable abbrev lin10 (V0 : Valuation τ sig (Elt F)) : (Proc.devRef .tc main_v614 : DevRef τ sig).ty.Contents (Elt F) := res_main_v614 V0
/-- Layer 10: the segment sum by target of norm · (the matmul's rows gathered by source). -/
noncomputable abbrev agg10 (V0 : Valuation τ sig (Elt F)) : (Proc.devRef .tc main_v627 : DevRef τ sig).ty.Contents (Elt F) := res_main_v627 V0
/-- Layer 10: the aggregation plus the bias. -/
noncomputable abbrev conv10 (V0 : Valuation τ sig (Elt F)) : (Proc.devRef .tc main_v630 : DevRef τ sig).ty.Contents (Elt F) := res_main_v630 V0
/-- Layer 10: what the batch-norm normalises (the convolution plus the earlier layers' residuals). -/
noncomputable abbrev bnIn10 (V0 : Valuation τ sig (Elt F)) : (Proc.devRef .tc main_v638 : DevRef τ sig).ty.Contents (Elt F) := res_main_v638 V0
/-- Layer 10: the batch-norm input's column means. -/
noncomputable abbrev mean10 (V0 : Valuation τ sig (Elt F)) : (Proc.devRef .tc main_v641 : DevRef τ sig).ty.Contents (Elt F) := res_main_v641 V0
/-- Layer 10: the batch-norm input's column variances (biased). -/
noncomputable abbrev var10 (V0 : Valuation τ sig (Elt F)) : (Proc.devRef .tc main_v642 : DevRef τ sig).ty.Contents (Elt F) := res_main_v642 V0
/-- Layer 10: the batch-norm: (x − mean) · rsqrt(var + ε) · γ + β. -/
noncomputable abbrev bn10 (V0 : Valuation τ sig (Elt F)) : (Proc.devRef .tc main_v657 : DevRef τ sig).ty.Contents (Elt F) := res_main_v657 V0
/-- Layer 10: what softmax_one is taken of. -/
noncomputable abbrev smIn10 (V0 : Valuation τ sig (Elt F)) : (Proc.devRef .tc main_v657 : DevRef τ sig).ty.Contents (Elt F) := res_main_v657 V0
/-- Layer 10: softmax_one along the rows: e / (1 + Σ e), e = exp(x − row max). -/
noncomputable abbrev act10 (V0 : Valuation τ sig (Elt F)) : (Proc.devRef .tc main_v668 : DevRef τ sig).ty.Contents (Elt F) := res_main_v668 V0
/-- Layer 11: the matmul x · Wᵀ. -/
noncomputable abbrev lin11 (V0 : Valuation τ sig (Elt F)) : (Proc.devRef .tc main_v670 : DevRef τ sig).ty.Contents (Elt F) := res_main_v670 V0
/-- Layer 11: the segment sum by target of norm · (the matmul's rows gathered by source). -/
noncomputable abbrev agg11 (V0 : Valuation τ sig (Elt F)) : (Proc.devRef .tc main_v683 : DevRef τ sig).ty.Contents (Elt F) := res_main_v683 V0
/-- Layer 11: the aggregation plus the bias. -/
noncomputable abbrev conv11 (V0 : Valuation τ sig (Elt F)) : (Proc.devRef .tc main_v686 : DevRef τ sig).ty.Contents (Elt F) := res_main_v686 V0
/-- Layer 11: what the batch-norm normalises. -/
noncomputable abbrev bnIn11 (V0 : Valuation τ sig (Elt F)) : (Proc.devRef .tc main_v697 : DevRef τ sig).ty.Contents (Elt F) := res_main_v697 V0
/-- Layer 11: the batch-norm input's column means. -/
noncomputable abbrev mean11 (V0 : Valuation τ sig (Elt F)) : (Proc.devRef .tc main_v700 : DevRef τ sig).ty.Contents (Elt F) := res_main_v700 V0
/-- Layer 11: the batch-norm input's column variances (biased). -/
noncomputable abbrev var11 (V0 : Valuation τ sig (Elt F)) : (Proc.devRef .tc main_v701 : DevRef τ sig).ty.Contents (Elt F) := res_main_v701 V0
/-- Layer 11: the batch-norm: (x − mean) · rsqrt(var + ε) · γ + β. -/
noncomputable abbrev bn11 (V0 : Valuation τ sig (Elt F)) : (Proc.devRef .tc main_v716 : DevRef τ sig).ty.Contents (Elt F) := res_main_v716 V0
/-- Layer 11: what softmax_one is taken of. -/
noncomputable abbrev smIn11 (V0 : Valuation τ sig (Elt F)) : (Proc.devRef .tc main_v686 : DevRef τ sig).ty.Contents (Elt F) := res_main_v686 V0
/-- Layer 11: softmax_one along the rows: e / (1 + Σ e), e = exp(x − row max). -/
noncomputable abbrev act11 (V0 : Valuation τ sig (Elt F)) : (Proc.devRef .tc main_v697 : DevRef τ sig).ty.Contents (Elt F) := res_main_v697 V0

end Cert.ReferenceIdeal.Hand

end
-- ==== Proof.Ref.Win0.lean ====
import proofs.«408084_j48395691492010_3_alg».proof.Proof.Ref.Defs

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part0`'s operations write. -/
noncomputable abbrev ops_part0_W : List (Ref sig .tc) := [main_v0, main_v1, main_v2, main_v3, main_v4, main_v5, main_v6, main_cst, main_v7, main_v8, main_cst_0, main_v9, main_v10, main_v11, main_cst_1, main_v12, main_v13, main_cst_2, main_v14, main_v15, main_v16, main_cst_3, main_call0_v0, main_call0_v1, main_v17, main_c, main_v18, main_v19, main_c_4, main_v20, main_v21, main_v22, main_v23, main_v24, main_v25, main_c_5, main_v26, main_v27, main_c_6, main_v28, main_v29, main_v30, main_v31, main_v32, main_v33, main_v34, main_v35, main_v36, main_v37, main_v38, main_v39, main_v40, main_v41, main_v42, main_v43, main_v44, main_v45, main_v46, main_v47, main_v48, main_v49, main_v50]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem ops_part0_sub : (ops_part0 : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

/-! What the window leaves in each buffer it writes that a later window reads, from any contents `V` in which the
    buffers it reads hold their named terms over `V0`. -/

set_option maxRecDepth 8192 in
set_option maxHeartbeats 2000000 in
theorem w0_main_v5 (V V0 : Valuation τ sig (Elt F))
    (h_main_arg1 : V (no_index (Proc.devRef .tc main_arg1)) = V0 (Proc.devRef .tc main_arg1)) :
    after ops_part0 V (no_index (Proc.devRef .tc main_v5)) = res_main_v5 V0 := by
  simp only [ops_part0]
  after_results_simp
  all_goals (try simp only [h_main_arg1])
  all_goals rfl

set_option maxRecDepth 8192 in
set_option maxHeartbeats 2000000 in
theorem w0_main_v6 (V V0 : Valuation τ sig (Elt F))
    (h_main_arg1 : V (no_index (Proc.devRef .tc main_arg1)) = V0 (Proc.devRef .tc main_arg1)) :
    after ops_part0 V (no_index (Proc.devRef .tc main_v6)) = res_main_v6 V0 := by
  simp only [ops_part0]
  after_results_simp
  all_goals (try simp only [h_main_arg1])
  all_goals rfl

set_option maxRecDepth 8192 in
set_option maxHeartbeats 2000000 in
theorem w0_main_v33 (V V0 : Valuation τ sig (Elt F))
    (h_main_arg1 : V (no_index (Proc.devRef .tc main_arg1)) = V0 (Proc.devRef .tc main_arg1))
    (h_main_arg2 : V (no_index (Proc.devRef .tc main_arg2)) = V0 (Proc.devRef .tc main_arg2)) :
    after ops_part0 V (no_index (Proc.devRef .tc main_v33)) = res_main_v33 V0 := by
  simp only [ops_part0]
  after_results_simp
  all_goals (try simp only [h_main_arg1, h_main_arg2])
  all_goals rfl

set_option maxRecDepth 8192 in
set_option maxHeartbeats 2000000 in
theorem w0_main_v40 (V V0 : Valuation τ sig (Elt F))
    (h_main_arg0 : V (no_index (Proc.devRef .tc main_arg0)) = V0 (Proc.devRef .tc main_arg0))
    (h_main_arg4 : V (no_index (Proc.devRef .tc main_arg4)) = V0 (Proc.devRef .tc main_arg4))
    (h_main_arg5 : V (no_index (Proc.devRef .tc main_arg5)) = V0 (Proc.devRef .tc main_arg5)) :
    after ops_part0 V (no_index (Proc.devRef .tc main_v40)) = res_main_v40 V0 := by
  simp only [ops_part0]
  after_results_simp
  all_goals (try simp only [h_main_arg0, h_main_arg4, h_main_arg5])
  all_goals rfl

set_option maxRecDepth 8192 in
set_option maxHeartbeats 2000000 in
theorem w0_main_v42 (V V0 : Valuation τ sig (Elt F))
    (h_main_arg12 : V (no_index (Proc.devRef .tc main_arg12)) = V0 (Proc.devRef .tc main_arg12)) :
    after ops_part0 V (no_index (Proc.devRef .tc main_v42)) = res_main_v42 V0 := by
  simp only [ops_part0]
  after_results_simp
  all_goals (try simp only [h_main_arg12])
  all_goals rfl

set_option maxRecDepth 8192 in
set_option maxHeartbeats 2000000 in
theorem w0_main_v44 (V V0 : Valuation τ sig (Elt F))
    (h_main_arg13 : V (no_index (Proc.devRef .tc main_arg13)) = V0 (Proc.devRef .tc main_arg13)) :
    after ops_part0 V (no_index (Proc.devRef .tc main_v44)) = res_main_v44 V0 := by
  simp only [ops_part0]
  after_results_simp
  all_goals (try simp only [h_main_arg13])
  all_goals rfl

set_option maxRecDepth 8192 in
set_option maxHeartbeats 2000000 in
theorem w0_main_v46 (V V0 : Valuation τ sig (Elt F))
    (h_main_arg12 : V (no_index (Proc.devRef .tc main_arg12)) = V0 (Proc.devRef .tc main_arg12)) :
    after ops_part0 V (no_index (Proc.devRef .tc main_v46)) = res_main_v46 V0 := by
  simp only [ops_part0]
  after_results_simp
  all_goals (try simp only [h_main_arg12])
  all_goals rfl

set_option maxRecDepth 8192 in
set_option maxHeartbeats 2000000 in
theorem w0_main_v48 (V V0 : Valuation τ sig (Elt F))
    (h_main_arg13 : V (no_index (Proc.devRef .tc main_arg13)) = V0 (Proc.devRef .tc main_arg13)) :
    after ops_part0 V (no_index (Proc.devRef .tc main_v48)) = res_main_v48 V0 := by
  simp only [ops_part0]
  after_results_simp
  all_goals (try simp only [h_main_arg13])
  all_goals rfl

set_option maxRecDepth 8192 in
set_option maxHeartbeats 2000000 in
theorem w0_main_v50 (V V0 : Valuation τ sig (Elt F))
    (h_main_arg12 : V (no_index (Proc.devRef .tc main_arg12)) = V0 (Proc.devRef .tc main_arg12)) :
    after ops_part0 V (no_index (Proc.devRef .tc main_v50)) = res_main_v50 V0 := by
  simp only [ops_part0]
  after_results_simp
  all_goals (try simp only [h_main_arg12])
  all_goals rfl

end Cert.ReferenceIdeal.Hand

end
-- ==== Proof.Ref.Win1.lean ====
import proofs.«408084_j48395691492010_3_alg».proof.Proof.Ref.Defs

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part1`'s operations write. -/
noncomputable abbrev ops_part1_W : List (Ref sig .tc) := [main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_c_7, main_v108, main_v109]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem ops_part1_sub : (ops_part1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., nullary_bufs_sub .., unary_bufs_sub .., binary_bufs_sub ..⟩

/-! What the window leaves in each buffer it writes that a later window reads, from any contents `V` in which the
    buffers it reads hold their named terms over `V0`. -/

set_option maxRecDepth 8192 in
set_option maxHeartbeats 2000000 in
theorem w1_main_v52 (V V0 : Valuation τ sig (Elt F))
    (h_main_arg13 : V (no_index (Proc.devRef .tc main_arg13)) = V0 (Proc.devRef .tc main_arg13)) :
    after ops_part1 V (no_index (Proc.devRef .tc main_v52)) = res_main_v52 V0 := by
  simp only [ops_part1]
  after_results_simp
  all_goals (try simp only [h_main_arg13])
  all_goals rfl

set_option maxRecDepth 8192 in
set_option maxHeartbeats 2000000 in
theorem w1_main_v54 (V V0 : Valuation τ sig (Elt F))
    (h_main_arg12 : V (no_index (Proc.devRef .tc main_arg12)) = V0 (Proc.devRef .tc main_arg12)) :
    after ops_part1 V (no_index (Proc.devRef .tc main_v54)) = res_main_v54 V0 := by
  simp only [ops_part1]
  after_results_simp
  all_goals (try simp only [h_main_arg12])
  all_goals rfl

set_option maxRecDepth 8192 in
set_option maxHeartbeats 2000000 in
theorem w1_main_v56 (V V0 : Valuation τ sig (Elt F))
    (h_main_arg13 : V (no_index (Proc.devRef .tc main_arg13)) = V0 (Proc.devRef .tc main_arg13)) :
    after ops_part1 V (no_index (Proc.devRef .tc main_v56)) = res_main_v56 V0 := by
  simp only [ops_part1]
  after_results_simp
  all_goals (try simp only [h_main_arg13])
  all_goals rfl

set_option maxRecDepth 8192 in
set_option maxHeartbeats 2000000 in
theorem w1_main_v58 (V V0 : Valuation τ sig (Elt F))
    (h_main_arg12 : V (no_index (Proc.devRef .tc main_arg12)) = V0 (Proc.devRef .tc main_arg12)) :
    after ops_part1 V (no_index (Proc.devRef .tc main_v58)) = res_main_v58 V0 := by
  simp only [ops_part1]
  after_results_simp
  all_goals (try simp only [h_main_arg12])
  all_goals rfl

set_option maxRecDepth 8192 in
set_option maxHeartbeats 2000000 in
theorem w1_main_v60 (V V0 : Valuation τ sig (Elt F))
    (h_main_arg13 : V (no_index (Proc.devRef .tc main_arg13)) = V0 (Proc.devRef .tc main_arg13)) :
    after ops_part1 V (no_index (Proc.devRef .tc main_v60)) = res_main_v60 V0 := by
  simp only [ops_part1]
  after_results_simp
  all_goals (try simp only [h_main_arg13])
  all_goals rfl

set_option maxRecDepth 8192 in
set_option maxHeartbeats 2000000 in
theorem w1_main_v62 (V V0 : Valuation τ sig (Elt F))
    (h_main_arg12 : V (no_index (Proc.devRef .tc main_arg12)) = V0 (Proc.devRef .tc main_arg12)) :
    after ops_part1 V (no_index (Proc.devRef .tc main_v62)) = res_main_v62 V0 := by
  simp only [ops_part1]
  after_results_simp
  all_goals (try simp only [h_main_arg12])
  all_goals rfl

set_option maxRecDepth 8192 in
set_option maxHeartbeats 2000000 in
theorem w1_main_v64 (V V0 : Valuation τ sig (Elt F))
    (h_main_arg13 : V (no_index (Proc.devRef .tc main_arg13)) = V0 (Proc.devRef .tc main_arg13)) :
    after ops_part1 V (no_index (Proc.devRef .tc main_v64)) = res_main_v64 V0 := by
  simp only [ops_part1]
  after_results_simp
  all_goals (try simp only [h_main_arg13])
  all_goals rfl

set_option maxRecDepth 8192 in
set_option maxHeartbeats 2000000 in
theorem w1_main_v66 (V V0 : Valuation τ sig (Elt F))
    (h_main_arg12 : V (no_index (Proc.devRef .tc main_arg12)) = V0 (Proc.devRef .tc main_arg12)) :
    after ops_part1 V (no_index (Proc.devRef .tc main_v66)) = res_main_v66 V0 := by
  simp only [ops_part1]
  after_results_simp
  all_goals (try simp only [h_main_arg12])
  all_goals rfl

set_option maxRecDepth 8192 in
set_option maxHeartbeats 2000000 in
theorem w1_main_v68 (V V0 : Valuation τ sig (Elt F))
    (h_main_arg13 : V (no_index (Proc.devRef .tc main_arg13)) = V0 (Proc.devRef .tc main_arg13)) :
    after ops_part1 V (no_index (Proc.devRef .tc main_v68)) = res_main_v68 V0 := by
  simp only [ops_part1]
  after_results_simp
  all_goals (try simp only [h_main_arg13])
  all_goals rfl

set_option maxRecDepth 8192 in
set_option maxHeartbeats 2000000 in
theorem w1_main_v70 (V V0 : Valuation τ sig (Elt F))
    (h_main_arg12 : V (no_index (Proc.devRef .tc main_arg12)) = V0 (Proc.devRef .tc main_arg12)) :
    after ops_part1 V (no_index (Proc.devRef .tc main_v70)) = res_main_v70 V0 := by
  simp only [ops_part1]
  after_results_simp
  all_goals (try simp only [h_main_arg12])
  all_goals rfl

set_option maxRecDepth 8192 in
set_option maxHeartbeats 2000000 in
theorem w1_main_v72 (V V0 : Valuation τ sig (Elt F))
    (h_main_arg13 : V (no_index (Proc.devRef .tc main_arg13)) = V0 (Proc.devRef .tc main_arg13)) :
    after ops_part1 V (no_index (Proc.devRef .tc main_v72)) = res_main_v72 V0 := by
  simp only [ops_part1]
  after_results_simp
  all_goals (try simp only [h_main_arg13])
  all_goals rfl

set_option maxRecDepth 8192 in
set_option maxHeartbeats 2000000 in
theorem w1_main_v74 (V V0 : Valuation τ sig (Elt F))
    (h_main_arg22 : V (no_index (Proc.devRef .tc main_arg22)) = V0 (Proc.devRef .tc main_arg22)) :
    after ops_part1 V (no_index (Proc.devRef .tc main_v74)) = res_main_v74 V0 := by
  simp only [ops_part1]
  after_results_simp
  all_goals (try simp only [h_main_arg22])
  all_goals rfl

set_option maxRecDepth 8192 in
set_option maxHeartbeats 2000000 in
theorem w1_main_v76 (V V0 : Valuation τ sig (Elt F))
    (h_main_arg23 : V (no_index (Proc.devRef .tc main_arg23)) = V0 (Proc.devRef .tc main_arg23)) :
    after ops_part1 V (no_index (Proc.devRef .tc main_v76)) = res_main_v76 V0 := by
  simp only [ops_part1]
  after_results_simp
  all_goals (try simp only [h_main_arg23])
  all_goals rfl

set_option maxRecDepth 8192 in
set_option maxHeartbeats 2000000 in
theorem w1_main_v78 (V V0 : Valuation τ sig (Elt F))
    (h_main_arg22 : V (no_index (Proc.devRef .tc main_arg22)) = V0 (Proc.devRef .tc main_arg22)) :
    after ops_part1 V (no_index (Proc.devRef .tc main_v78)) = res_main_v78 V0 := by
  simp only [ops_part1]
  after_results_simp
  all_goals (try simp only [h_main_arg22])
  all_goals rfl

set_option maxRecDepth 8192 in
set_option maxHeartbeats 2000000 in
theorem w1_main_v80 (V V0 : Valuation τ sig (Elt F))
    (h_main_arg23 : V (no_index (Proc.devRef .tc main_arg23)) = V0 (Proc.devRef .tc main_arg23)) :
    after ops_part1 V (no_index (Proc.devRef .tc main_v80)) = res_main_v80 V0 := by
  simp only [ops_part1]
  after_results_simp
  all_goals (try simp only [h_main_arg23])
  all_goals rfl

set_option maxRecDepth 8192 in
set_option maxHeartbeats 2000000 in
theorem w1_main_v82 (V V0 : Valuation τ sig (Elt F))
    (h_main_arg22 : V (no_index (Proc.devRef .tc main_arg22)) = V0 (Proc.devRef .tc main_arg22)) :
    after ops_part1 V (no_index (Proc.devRef .tc main_v82)) = res_main_v82 V0 := by
  simp only [ops_part1]
  after_results_simp
  all_goals (try simp only [h_main_arg22])
  all_goals rfl

set_option maxRecDepth 8192 in
set_option maxHeartbeats 2000000 in
theorem w1_main_v84 (V V0 : Valuation τ sig (Elt F))
    (h_main_arg23 : V (no_index (Proc.devRef .tc main_arg23)) = V0 (Proc.devRef .tc main_arg23)) :
    after ops_part1 V (no_index (Proc.devRef .tc main_v84)) = res_main_v84 V0 := by
  simp only [ops_part1]
  after_results_simp
  all_goals (try simp only [h_main_arg23])
  all_goals rfl

set_option maxRecDepth 8192 in
set_option maxHeartbeats 2000000 in
theorem w1_main_v86 (V V0 : Valuation τ sig (Elt F))
    (h_main_arg22 : V (no_index (Proc.devRef .tc main_arg22)) = V0 (Proc.devRef .tc main_arg22)) :
    after ops_part1 V (no_index (Proc.devRef .tc main_v86)) = res_main_v86 V0 := by
  simp only [ops_part1]
  after_results_simp
  all_goals (try simp only [h_main_arg22])
  all_goals rfl

set_option maxRecDepth 8192 in
set_option maxHeartbeats 2000000 in
theorem w1_main_v88 (V V0 : Valuation τ sig (Elt F))
    (h_main_arg23 : V (no_index (Proc.devRef .tc main_arg23)) = V0 (Proc.devRef .tc main_arg23)) :
    after ops_part1 V (no_index (Proc.devRef .tc main_v88)) = res_main_v88 V0 := by
  simp only [ops_part1]
  after_results_simp
  all_goals (try simp only [h_main_arg23])
  all_goals rfl

set_option maxRecDepth 8192 in
set_option maxHeartbeats 2000000 in
theorem w1_main_v90 (V V0 : Valuation τ sig (Elt F))
    (h_main_arg22 : V (no_index (Proc.devRef .tc main_arg22)) = V0 (Proc.devRef .tc main_arg22)) :
    after ops_part1 V (no_index (Proc.devRef .tc main_v90)) = res_main_v90 V0 := by
  simp only [ops_part1]
  after_results_simp
  all_goals (try simp only [h_main_arg22])
  all_goals rfl

set_option maxRecDepth 8192 in
set_option maxHeartbeats 2000000 in
theorem w1_main_v92 (V V0 : Valuation τ sig (Elt F))
    (h_main_arg23 : V (no_index (Proc.devRef .tc main_arg23)) = V0 (Proc.devRef .tc main_arg23)) :
    after ops_part1 V (no_index (Proc.devRef .tc main_v92)) = res_main_v92 V0 := by
  simp only [ops_part1]
  after_results_simp
  all_goals (try simp only [h_main_arg23])
  all_goals rfl

set_option maxRecDepth 8192 in
set_option maxHeartbeats 2000000 in
theorem w1_main_v94 (V V0 : Valuation τ sig (Elt F))
    (h_main_arg22 : V (no_index (Proc.devRef .tc main_arg22)) = V0 (Proc.devRef .tc main_arg22)) :
    after ops_part1 V (no_index (Proc.devRef .tc main_v94)) = res_main_v94 V0 := by
  simp only [ops_part1]
  after_results_simp
  all_goals (try simp only [h_main_arg22])
  all_goals rfl

set_option maxRecDepth 8192 in
set_option maxHeartbeats 2000000 in
theorem w1_main_v96 (V V0 : Valuation τ sig (Elt F))
    (h_main_arg23 : V (no_index (Proc.devRef .tc main_arg23)) = V0 (Proc.devRef .tc main_arg23)) :
    after ops_part1 V (no_index (Proc.devRef .tc main_v96)) = res_main_v96 V0 := by
  simp only [ops_part1]
  after_results_simp
  all_goals (try simp only [h_main_arg23])
  all_goals rfl

set_option maxRecDepth 8192 in
set_option maxHeartbeats 2000000 in
theorem w1_main_v98 (V V0 : Valuation τ sig (Elt F))
    (h_main_arg22 : V (no_index (Proc.devRef .tc main_arg22)) = V0 (Proc.devRef .tc main_arg22)) :
    after ops_part1 V (no_index (Proc.devRef .tc main_v98)) = res_main_v98 V0 := by
  simp only [ops_part1]
  after_results_simp
  all_goals (try simp only [h_main_arg22])
  all_goals rfl

set_option maxRecDepth 8192 in
set_option maxHeartbeats 2000000 in
theorem w1_main_v100 (V V0 : Valuation τ sig (Elt F))
    (h_main_arg23 : V (no_index (Proc.devRef .tc main_arg23)) = V0 (Proc.devRef .tc main_arg23)) :
    after ops_part1 V (no_index (Proc.devRef .tc main_v100)) = res_main_v100 V0 := by
  simp only [ops_part1]
  after_results_simp
  all_goals (try simp only [h_main_arg23])
  all_goals rfl

set_option maxRecDepth 8192 in
set_option maxHeartbeats 2000000 in
theorem w1_main_v102 (V V0 : Valuation τ sig (Elt F))
    (h_main_arg22 : V (no_index (Proc.devRef .tc main_arg22)) = V0 (Proc.devRef .tc main_arg22)) :
    after ops_part1 V (no_index (Proc.devRef .tc main_v102)) = res_main_v102 V0 := by
  simp only [ops_part1]
  after_results_simp
  all_goals (try simp only [h_main_arg22])
  all_goals rfl

set_option maxRecDepth 8192 in
set_option maxHeartbeats 2000000 in
theorem w1_main_v104 (V V0 : Valuation τ sig (Elt F))
    (h_main_arg23 : V (no_index (Proc.devRef .tc main_arg23)) = V0 (Proc.devRef .tc main_arg23)) :
    after ops_part1 V (no_index (Proc.devRef .tc main_v104)) = res_main_v104 V0 := by
  simp only [ops_part1]
  after_results_simp
  all_goals (try simp only [h_main_arg23])
  all_goals rfl

set_option maxRecDepth 8192 in
set_option maxHeartbeats 2000000 in
theorem w1_main_v106 (V V0 : Valuation τ sig (Elt F))
    (h_main_arg6 : V (no_index (Proc.devRef .tc main_arg6)) = V0 (Proc.devRef .tc main_arg6))
    (h_main_v40 : V (no_index (Proc.devRef .tc main_v40)) = res_main_v40 V0) :
    after ops_part1 V (no_index (Proc.devRef .tc main_v106)) = res_main_v106 V0 := by
  simp only [ops_part1]
  after_results_simp
  all_goals (try simp only [h_main_arg6, h_main_v40])
  all_goals rfl

set_option maxRecDepth 8192 in
set_option maxHeartbeats 2000000 in
theorem w1_main_v107 (V V0 : Valuation τ sig (Elt F))
    (h_main_v33 : V (no_index (Proc.devRef .tc main_v33)) = res_main_v33 V0) :
    after ops_part1 V (no_index (Proc.devRef .tc main_v107)) = res_main_v107 V0 := by
  simp only [ops_part1]
  after_results_simp
  all_goals (try simp only [h_main_v33])
  all_goals rfl

set_option maxRecDepth 8192 in
set_option maxHeartbeats 2000000 in
theorem w1_main_v109 (V V0 : Valuation τ sig (Elt F))
    (h_main_v5 : V (no_index (Proc.devRef .tc main_v5)) = res_main_v5 V0) :
    after ops_part1 V (no_index (Proc.devRef .tc main_v109)) = res_main_v109 V0 := by
  simp only [ops_part1]
  after_results_simp
  all_goals (try simp only [h_main_v5])
  all_goals rfl

end Cert.ReferenceIdeal.Hand

end
-- ==== Proof.Ref.Win2.lean ====
import proofs.«408084_j48395691492010_3_alg».proof.Proof.Ref.Defs

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part2`'s operations write. -/
noncomputable abbrev ops_part2_W : List (Ref sig .tc) := [main_c_8, main_v110, main_v111, main_v112, main_v113, main_v114, main_v115, main_v116, main_cst_9, main_v117, main_v118, main_v119, main_v120, main_v121, main_v122, main_cst_10, main_v123, main_cst_11, main_v124, main_v125, main_c_12, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v126, main_v127, main_v128, main_v129, main_cst_13, main_v130, main_v131, main_v132, main_v133, main_v134, main_v135, main_v136, main_v137, main_v138, main_v139, main_v140, main_v141, main_cst_14, main_v142, main_v143, main_v144, main_v145, main_v146, main_cst_15, main_v147, main_v148, main_cst_16, main_v149, main_v150, main_v151, main_v152, main_v153, main_v154, main_v155, main_c_17, main_v156, main_v157, main_c_18, main_v158]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem ops_part2_sub : (ops_part2 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., unary_bufs_sub .., binary_bufs_sub .., unary_bufs_sub .., nullary_bufs_sub .., unary_bufs_sub .., binary_bufs_sub .., nullary_bufs_sub .., unary_bufs_sub ..⟩

/-! What the window leaves in each buffer it writes that a later window reads, from any contents `V` in which the
    buffers it reads hold their named terms over `V0`. -/

set_option maxRecDepth 8192 in
set_option maxHeartbeats 2000000 in
theorem w2_main_v154 (V V0 : Valuation τ sig (Elt F))
    (h_main_arg7 : V (no_index (Proc.devRef .tc main_arg7)) = V0 (Proc.devRef .tc main_arg7))
    (h_main_arg8 : V (no_index (Proc.devRef .tc main_arg8)) = V0 (Proc.devRef .tc main_arg8))
    (h_main_arg16 : V (no_index (Proc.devRef .tc main_arg16)) = V0 (Proc.devRef .tc main_arg16))
    (h_main_arg17 : V (no_index (Proc.devRef .tc main_arg17)) = V0 (Proc.devRef .tc main_arg17))
    (h_main_v5 : V (no_index (Proc.devRef .tc main_v5)) = res_main_v5 V0)
    (h_main_v6 : V (no_index (Proc.devRef .tc main_v6)) = res_main_v6 V0)
    (h_main_v106 : V (no_index (Proc.devRef .tc main_v106)) = res_main_v106 V0)
    (h_main_v107 : V (no_index (Proc.devRef .tc main_v107)) = res_main_v107 V0)
    (h_main_v109 : V (no_index (Proc.devRef .tc main_v109)) = res_main_v109 V0) :
    after ops_part2 V (no_index (Proc.devRef .tc main_v154)) = res_main_v154 V0 := by
  simp only [ops_part2]
  after_results_simp
  all_goals (try simp only [h_main_arg7, h_main_arg8, h_main_arg16, h_main_arg17, h_main_v5, h_main_v6, h_main_v106, h_main_v107, h_main_v109])
  all_goals rfl

set_option maxRecDepth 8192 in
set_option maxHeartbeats 2000000 in
theorem w2_main_v155 (V V0 : Valuation τ sig (Elt F))
    (h_main_v33 : V (no_index (Proc.devRef .tc main_v33)) = res_main_v33 V0) :
    after ops_part2 V (no_index (Proc.devRef .tc main_v155)) = res_main_v155 V0 := by
  simp only [ops_part2]
  after_results_simp
  all_goals (try simp only [h_main_v33])
  all_goals rfl

set_option maxRecDepth 8192 in
set_option maxHeartbeats 2000000 in
theorem w2_main_v157 (V V0 : Valuation τ sig (Elt F))
    (h_main_v5 : V (no_index (Proc.devRef .tc main_v5)) = res_main_v5 V0) :
    after ops_part2 V (no_index (Proc.devRef .tc main_v157)) = res_main_v157 V0 := by
  simp only [ops_part2]
  after_results_simp
  all_goals (try simp only [h_main_v5])
  all_goals rfl

set_option maxRecDepth 8192 in
set_option maxHeartbeats 2000000 in
theorem w2_main_v158 (V V0 : Valuation τ sig (Elt F)) :
    after ops_part2 V (no_index (Proc.devRef .tc main_v158)) = res_main_v158 V0 := by
  simp only [ops_part2]
  after_results_simp
  all_goals rfl

end Cert.ReferenceIdeal.Hand

end
-- ==== Proof.Ref.Win3.lean ====
import proofs.«408084_j48395691492010_3_alg».proof.Proof.Ref.Defs

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part3`'s operations write. -/
noncomputable abbrev ops_part3_W : List (Ref sig .tc) := [main_v159, main_v160, main_v161, main_v162, main_v163, main_v164, main_cst_19, main_v165, main_v166, main_v167, main_v168, main_v169, main_v170, main_cst_20, main_v171, main_cst_21, main_v172, main_v173, main_c_22, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v174, main_v175, main_v176, main_v177, main_cst_23, main_v178, main_v179, main_v180, main_v181, main_v182, main_v183, main_v184, main_v185, main_v186, main_v187, main_v188, main_v189, main_cst_24, main_v190, main_v191, main_v192, main_v193, main_v194, main_cst_25, main_v195, main_v196, main_cst_26, main_v197, main_v198, main_v199, main_v200, main_v201, main_v202, main_v203, main_c_27, main_v204, main_v205, main_c_28, main_v206, main_v207, main_v208]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem ops_part3_sub : (ops_part3 : List (HloOp τ sig (Elt F))).Forall fun op => op.bufs ⊆ tcRefs τ sig :=
  ⟨binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub ..⟩

/-! What the window leaves in each buffer it writes that a later window reads, from any contents `V` in which the
    buffers it reads hold their named terms over `V0`. -/

set_option maxRecDepth 8192 in
set_option maxHeartbeats 2000000 in
theorem w3_main_v202 (V V0 : Valuation τ sig (Elt F))
    (h_main_arg9 : V (no_index (Proc.devRef .tc main_arg9)) = V0 (Proc.devRef .tc main_arg9))
    (h_main_arg10 : V (no_index (Proc.devRef .tc main_arg10)) = V0 (Proc.devRef .tc main_arg10))
    (h_main_arg18 : V (no_index (Proc.devRef .tc main_arg18)) = V0 (Proc.devRef .tc main_arg18))
    (h_main_arg19 : V (no_index (Proc.devRef .tc main_arg19)) = V0 (Proc.devRef .tc main_arg19))
    (h_main_v5 : V (no_index (Proc.devRef .tc main_v5)) = res_main_v5 V0)
    (h_main_v6 : V (no_index (Proc.devRef .tc main_v6)) = res_main_v6 V0)
    (h_main_v154 : V (no_index (Proc.devRef .tc main_v154)) = res_main_v154 V0)
    (h_main_v155 : V (no_index (Proc.devRef .tc main_v155)) = res_main_v155 V0)
    (h_main_v157 : V (no_index (Proc.devRef .tc main_v157)) = res_main_v157 V0)
    (h_main_v158 : V (no_index (Proc.devRef .tc main_v158)) = res_main_v158 V0) :
    after ops_part3 V (no_index (Proc.devRef .tc main_v202)) = res_main_v202 V0 := by
  simp only [ops_part3]
  after_results_simp
  all_goals (try simp only [h_main_arg9, h_main_arg10, h_main_arg18, h_main_arg19, h_main_v5, h_main_v6, h_main_v154, h_main_v155, h_main_v157, h_main_v158])
  all_goals rfl

set_option maxRecDepth 8192 in
set_option maxHeartbeats 2000000 in
theorem w3_main_v203 (V V0 : Valuation τ sig (Elt F))
    (h_main_v33 : V (no_index (Proc.devRef .tc main_v33)) = res_main_v33 V0) :
    after ops_part3 V (no_index (Proc.devRef .tc main_v203)) = res_main_v203 V0 := by
  simp only [ops_part3]
  after_results_simp
  all_goals (try simp only [h_main_v33])
  all_goals rfl

set_option maxRecDepth 8192 in
set_option maxHeartbeats 2000000 in
theorem w3_main_v208 (V V0 : Valuation τ sig (Elt F))
    (h_main_v5 : V (no_index (Proc.devRef .tc main_v5)) = res_main_v5 V0) :
    after ops_part3 V (no_index (Proc.devRef .tc main_v208)) = res_main_v208 V0 := by
  simp only [ops_part3]
  after_results_simp
  all_goals (try simp only [h_main_v5])
  all_goals rfl

end Cert.ReferenceIdeal.Hand

end
-- ==== Proof.Ref.Win4.lean ====
import proofs.«408084_j48395691492010_3_alg».proof.Proof.Ref.Defs

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part4`'s operations write. -/
noncomputable abbrev ops_part4_W : List (Ref sig .tc) := [main_v209, main_v210, main_v211, main_v212, main_cst_29, main_v213, main_v214, main_v215, main_v216, main_v217, main_v218, main_cst_30, main_v219, main_cst_31, main_v220, main_v221, main_c_32, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v222, main_v223, main_v224, main_v225, main_cst_33, main_v226, main_v227, main_v228, main_v229, main_v230, main_v231, main_v232, main_v233, main_v234, main_v235, main_v236, main_v237, main_cst_34, main_v238, main_v239, main_v240, main_v241, main_v242, main_cst_35, main_v243, main_v244, main_cst_36, main_v245, main_v246, main_v247, main_v248, main_v249, main_v250, main_v251, main_c_37, main_v252, main_v253, main_c_38, main_v254, main_v255, main_v256, main_v257, main_v258]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem ops_part4_sub : (ops_part4 : List (HloOp τ sig (Elt F))).Forall fun op => op.bufs ⊆ tcRefs τ sig :=
  ⟨unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩

/-! What the window leaves in each buffer it writes that a later window reads, from any contents `V` in which the
    buffers it reads hold their named terms over `V0`. -/

set_option maxRecDepth 8192 in
set_option maxHeartbeats 2000000 in
theorem w4_main_v218 (V V0 : Valuation τ sig (Elt F))
    (h_main_arg11 : V (no_index (Proc.devRef .tc main_arg11)) = V0 (Proc.devRef .tc main_arg11))
    (h_main_v6 : V (no_index (Proc.devRef .tc main_v6)) = res_main_v6 V0)
    (h_main_v202 : V (no_index (Proc.devRef .tc main_v202)) = res_main_v202 V0)
    (h_main_v203 : V (no_index (Proc.devRef .tc main_v203)) = res_main_v203 V0)
    (h_main_v208 : V (no_index (Proc.devRef .tc main_v208)) = res_main_v208 V0) :
    after ops_part4 V (no_index (Proc.devRef .tc main_v218)) = res_main_v218 V0 := by
  simp only [ops_part4]
  after_results_simp
  all_goals (try simp only [h_main_arg11, h_main_v6, h_main_v202, h_main_v203, h_main_v208])
  all_goals rfl

set_option maxRecDepth 8192 in
set_option maxHeartbeats 2000000 in
theorem w4_main_v251 (V V0 : Valuation τ sig (Elt F))
    (h_main_v33 : V (no_index (Proc.devRef .tc main_v33)) = res_main_v33 V0) :
    after ops_part4 V (no_index (Proc.devRef .tc main_v251)) = res_main_v251 V0 := by
  simp only [ops_part4]
  after_results_simp
  all_goals (try simp only [h_main_v33])
  all_goals rfl

set_option maxRecDepth 8192 in
set_option maxHeartbeats 2000000 in
theorem w4_main_v258 (V V0 : Valuation τ sig (Elt F))
    (h_main_arg11 : V (no_index (Proc.devRef .tc main_arg11)) = V0 (Proc.devRef .tc main_arg11))
    (h_main_arg20 : V (no_index (Proc.devRef .tc main_arg20)) = V0 (Proc.devRef .tc main_arg20))
    (h_main_arg21 : V (no_index (Proc.devRef .tc main_arg21)) = V0 (Proc.devRef .tc main_arg21))
    (h_main_v5 : V (no_index (Proc.devRef .tc main_v5)) = res_main_v5 V0)
    (h_main_v6 : V (no_index (Proc.devRef .tc main_v6)) = res_main_v6 V0)
    (h_main_v42 : V (no_index (Proc.devRef .tc main_v42)) = res_main_v42 V0)
    (h_main_v202 : V (no_index (Proc.devRef .tc main_v202)) = res_main_v202 V0)
    (h_main_v203 : V (no_index (Proc.devRef .tc main_v203)) = res_main_v203 V0)
    (h_main_v208 : V (no_index (Proc.devRef .tc main_v208)) = res_main_v208 V0) :
    after ops_part4 V (no_index (Proc.devRef .tc main_v258)) = res_main_v258 V0 := by
  simp only [ops_part4]
  after_results_simp
  all_goals (try simp only [h_main_arg11, h_main_arg20, h_main_arg21, h_main_v5, h_main_v6, h_main_v42, h_main_v202, h_main_v203, h_main_v208])
  all_goals rfl

end Cert.ReferenceIdeal.Hand

end
-- ==== Proof.Ref.Win5.lean ====
import proofs.«408084_j48395691492010_3_alg».proof.Proof.Ref.Defs

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part5`'s operations write. -/
noncomputable abbrev ops_part5_W : List (Ref sig .tc) := [main_v259, main_v260, main_cst_39, main_v261, main_v262, main_v263, main_v264, main_v265, main_v266, main_v267, main_cst_40, main_v268, main_cst_41, main_v269, main_v270, main_c_42, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v271, main_v272, main_v273, main_v274, main_cst_43, main_v275, main_v276, main_v277, main_v278, main_v279, main_v280, main_v281, main_v282, main_v283, main_v284, main_v285, main_v286, main_cst_44, main_v287, main_v288, main_v289, main_v290, main_v291, main_cst_45, main_v292, main_v293, main_cst_46, main_v294, main_v295, main_v296, main_v297, main_v298, main_v299, main_v300, main_c_47, main_v301, main_v302, main_c_48, main_v303, main_v304, main_v305, main_v306, main_v307, main_v308]
set_option maxRecDepth 8192 in
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem ops_part5_sub : (ops_part5 : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩

/-! What the window leaves in each buffer it writes that a later window reads, from any contents `V` in which the
    buffers it reads hold their named terms over `V0`. -/

set_option maxRecDepth 8192 in
set_option maxHeartbeats 2000000 in
theorem w5_main_v266 (V V0 : Valuation τ sig (Elt F))
    (h_main_v6 : V (no_index (Proc.devRef .tc main_v6)) = res_main_v6 V0)
    (h_main_v44 : V (no_index (Proc.devRef .tc main_v44)) = res_main_v44 V0)
    (h_main_v251 : V (no_index (Proc.devRef .tc main_v251)) = res_main_v251 V0)
    (h_main_v258 : V (no_index (Proc.devRef .tc main_v258)) = res_main_v258 V0) :
    after ops_part5 V (no_index (Proc.devRef .tc main_v266)) = res_main_v266 V0 := by
  simp only [ops_part5]
  after_results_simp
  all_goals (try simp only [h_main_v6, h_main_v44, h_main_v251, h_main_v258])
  all_goals rfl

set_option maxRecDepth 8192 in
set_option maxHeartbeats 2000000 in
theorem w5_main_v307 (V V0 : Valuation τ sig (Elt F))
    (h_main_v5 : V (no_index (Proc.devRef .tc main_v5)) = res_main_v5 V0)
    (h_main_v6 : V (no_index (Proc.devRef .tc main_v6)) = res_main_v6 V0)
    (h_main_v44 : V (no_index (Proc.devRef .tc main_v44)) = res_main_v44 V0)
    (h_main_v46 : V (no_index (Proc.devRef .tc main_v46)) = res_main_v46 V0)
    (h_main_v74 : V (no_index (Proc.devRef .tc main_v74)) = res_main_v74 V0)
    (h_main_v76 : V (no_index (Proc.devRef .tc main_v76)) = res_main_v76 V0)
    (h_main_v218 : V (no_index (Proc.devRef .tc main_v218)) = res_main_v218 V0)
    (h_main_v251 : V (no_index (Proc.devRef .tc main_v251)) = res_main_v251 V0)
    (h_main_v258 : V (no_index (Proc.devRef .tc main_v258)) = res_main_v258 V0) :
    after ops_part5 V (no_index (Proc.devRef .tc main_v307)) = res_main_v307 V0 := by
  simp only [ops_part5]
  after_results_simp
  all_goals (try simp only [h_main_v5, h_main_v6, h_main_v44, h_main_v46, h_main_v74, h_main_v76, h_main_v218, h_main_v251, h_main_v258])
  all_goals rfl

set_option maxRecDepth 8192 in
set_option maxHeartbeats 2000000 in
theorem w5_main_v308 (V V0 : Valuation τ sig (Elt F))
    (h_main_v33 : V (no_index (Proc.devRef .tc main_v33)) = res_main_v33 V0) :
    after ops_part5 V (no_index (Proc.devRef .tc main_v308)) = res_main_v308 V0 := by
  simp only [ops_part5]
  after_results_simp
  all_goals (try simp only [h_main_v33])
  all_goals rfl

end Cert.ReferenceIdeal.Hand

end
-- ==== Proof.Ref.Win6.lean ====
import proofs.«408084_j48395691492010_3_alg».proof.Proof.Ref.Defs

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part6`'s operations write. -/
noncomputable abbrev ops_part6_W : List (Ref sig .tc) := [main_v309, main_cst_49, main_v310, main_v311, main_v312, main_v313, main_v314, main_v315, main_v316, main_v317, main_cst_50, main_v318, main_cst_51, main_v319, main_v320, main_c_52, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v321, main_v322, main_v323, main_v324, main_cst_53, main_v325, main_v326, main_v327, main_v328, main_v329, main_v330, main_v331, main_v332, main_v333, main_v334, main_v335, main_v336, main_cst_54, main_v337, main_v338, main_v339, main_v340, main_v341, main_cst_55, main_v342, main_v343, main_cst_56, main_v344, main_v345, main_v346, main_v347, main_v348, main_v349, main_v350, main_c_57, main_v351, main_v352, main_c_58, main_v353, main_v354, main_v355, main_v356, main_v357, main_v358]
set_option maxRecDepth 8192 in
theorem ops_part6_writes : (ops_part6 : List (HloOp τ sig (Elt F))).Forall fun op => op.writes ⊆ (ops_part6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem ops_part6_sub : (ops_part6 : List (HloOp τ sig (Elt F))).Forall fun op => op.bufs ⊆ tcRefs τ sig :=
  ⟨binary_bufs_sub .., nullary_bufs_sub .., unary_bufs_sub .., unary_bufs_sub .., ternary_bufs_sub .., unary_bufs_sub .., unary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩

/-! What the window leaves in each buffer it writes that a later window reads, from any contents `V` in which the
    buffers it reads hold their named terms over `V0`. -/

set_option maxRecDepth 8192 in
set_option maxHeartbeats 2000000 in
theorem w6_main_v315 (V V0 : Valuation τ sig (Elt F))
    (h_main_v6 : V (no_index (Proc.devRef .tc main_v6)) = res_main_v6 V0)
    (h_main_v48 : V (no_index (Proc.devRef .tc main_v48)) = res_main_v48 V0)
    (h_main_v307 : V (no_index (Proc.devRef .tc main_v307)) = res_main_v307 V0)
    (h_main_v308 : V (no_index (Proc.devRef .tc main_v308)) = res_main_v308 V0) :
    after ops_part6 V (no_index (Proc.devRef .tc main_v315)) = res_main_v315 V0 := by
  simp only [ops_part6]
  after_results_simp
  all_goals (try simp only [h_main_v6, h_main_v48, h_main_v307, h_main_v308])
  all_goals rfl

set_option maxRecDepth 8192 in
set_option maxHeartbeats 2000000 in
theorem w6_main_v357 (V V0 : Valuation τ sig (Elt F))
    (h_main_v5 : V (no_index (Proc.devRef .tc main_v5)) = res_main_v5 V0)
    (h_main_v6 : V (no_index (Proc.devRef .tc main_v6)) = res_main_v6 V0)
    (h_main_v48 : V (no_index (Proc.devRef .tc main_v48)) = res_main_v48 V0)
    (h_main_v50 : V (no_index (Proc.devRef .tc main_v50)) = res_main_v50 V0)
    (h_main_v78 : V (no_index (Proc.devRef .tc main_v78)) = res_main_v78 V0)
    (h_main_v80 : V (no_index (Proc.devRef .tc main_v80)) = res_main_v80 V0)
    (h_main_v218 : V (no_index (Proc.devRef .tc main_v218)) = res_main_v218 V0)
    (h_main_v266 : V (no_index (Proc.devRef .tc main_v266)) = res_main_v266 V0)
    (h_main_v307 : V (no_index (Proc.devRef .tc main_v307)) = res_main_v307 V0)
    (h_main_v308 : V (no_index (Proc.devRef .tc main_v308)) = res_main_v308 V0) :
    after ops_part6 V (no_index (Proc.devRef .tc main_v357)) = res_main_v357 V0 := by
  simp only [ops_part6]
  after_results_simp
  all_goals (try simp only [h_main_v5, h_main_v6, h_main_v48, h_main_v50, h_main_v78, h_main_v80, h_main_v218, h_main_v266, h_main_v307, h_main_v308])
  all_goals rfl

set_option maxRecDepth 8192 in
set_option maxHeartbeats 2000000 in
theorem w6_main_v358 (V V0 : Valuation τ sig (Elt F))
    (h_main_v33 : V (no_index (Proc.devRef .tc main_v33)) = res_main_v33 V0) :
    after ops_part6 V (no_index (Proc.devRef .tc main_v358)) = res_main_v358 V0 := by
  simp only [ops_part6]
  after_results_simp
  all_goals (try simp only [h_main_v33])
  all_goals rfl

end Cert.ReferenceIdeal.Hand

end
-- ==== Proof.Ref.Win7.lean ====
import proofs.«408084_j48395691492010_3_alg».proof.Proof.Ref.Defs

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part7`'s operations write. -/
noncomputable abbrev ops_part7_W : List (Ref sig .tc) := [main_v359, main_cst_59, main_v360, main_v361, main_v362, main_v363, main_v364, main_v365, main_v366, main_v367, main_v368, main_cst_60, main_v369, main_cst_61, main_v370, main_v371, main_c_62, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v372, main_v373, main_v374, main_v375, main_cst_63, main_v376, main_v377, main_v378, main_v379, main_v380, main_v381, main_v382, main_v383, main_v384, main_v385, main_v386, main_v387, main_cst_64, main_v388, main_v389, main_v390, main_v391, main_v392, main_cst_65, main_v393, main_v394, main_cst_66, main_v395, main_v396, main_v397, main_v398, main_v399, main_v400, main_v401, main_c_67, main_v402, main_v403, main_c_68, main_v404, main_v405, main_v406, main_v407, main_v408]
set_option maxRecDepth 8192 in
theorem ops_part7_writes : (ops_part7 : List (HloOp τ sig (Elt F))).Forall fun op => op.writes ⊆ (ops_part7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem ops_part7_sub : (ops_part7 : List (HloOp τ sig (Elt F))).Forall fun op => op.bufs ⊆ tcRefs τ sig :=
  ⟨binary_bufs_sub .., nullary_bufs_sub .., unary_bufs_sub .., unary_bufs_sub .., ternary_bufs_sub .., unary_bufs_sub .., unary_bufs_sub .., binary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩

/-! What the window leaves in each buffer it writes that a later window reads, from any contents `V` in which the
    buffers it reads hold their named terms over `V0`. -/

set_option maxRecDepth 8192 in
set_option maxHeartbeats 2000000 in
theorem w7_main_v365 (V V0 : Valuation τ sig (Elt F))
    (h_main_v6 : V (no_index (Proc.devRef .tc main_v6)) = res_main_v6 V0)
    (h_main_v52 : V (no_index (Proc.devRef .tc main_v52)) = res_main_v52 V0)
    (h_main_v357 : V (no_index (Proc.devRef .tc main_v357)) = res_main_v357 V0)
    (h_main_v358 : V (no_index (Proc.devRef .tc main_v358)) = res_main_v358 V0) :
    after ops_part7 V (no_index (Proc.devRef .tc main_v365)) = res_main_v365 V0 := by
  simp only [ops_part7]
  after_results_simp
  all_goals (try simp only [h_main_v6, h_main_v52, h_main_v357, h_main_v358])
  all_goals rfl

set_option maxRecDepth 8192 in
set_option maxHeartbeats 2000000 in
theorem w7_main_v401 (V V0 : Valuation τ sig (Elt F))
    (h_main_v33 : V (no_index (Proc.devRef .tc main_v33)) = res_main_v33 V0) :
    after ops_part7 V (no_index (Proc.devRef .tc main_v401)) = res_main_v401 V0 := by
  simp only [ops_part7]
  after_results_simp
  all_goals (try simp only [h_main_v33])
  all_goals rfl

set_option maxRecDepth 8192 in
set_option maxHeartbeats 2000000 in
theorem w7_main_v408 (V V0 : Valuation τ sig (Elt F))
    (h_main_v5 : V (no_index (Proc.devRef .tc main_v5)) = res_main_v5 V0)
    (h_main_v6 : V (no_index (Proc.devRef .tc main_v6)) = res_main_v6 V0)
    (h_main_v52 : V (no_index (Proc.devRef .tc main_v52)) = res_main_v52 V0)
    (h_main_v54 : V (no_index (Proc.devRef .tc main_v54)) = res_main_v54 V0)
    (h_main_v82 : V (no_index (Proc.devRef .tc main_v82)) = res_main_v82 V0)
    (h_main_v84 : V (no_index (Proc.devRef .tc main_v84)) = res_main_v84 V0)
    (h_main_v218 : V (no_index (Proc.devRef .tc main_v218)) = res_main_v218 V0)
    (h_main_v266 : V (no_index (Proc.devRef .tc main_v266)) = res_main_v266 V0)
    (h_main_v315 : V (no_index (Proc.devRef .tc main_v315)) = res_main_v315 V0)
    (h_main_v357 : V (no_index (Proc.devRef .tc main_v357)) = res_main_v357 V0)
    (h_main_v358 : V (no_index (Proc.devRef .tc main_v358)) = res_main_v358 V0) :
    after ops_part7 V (no_index (Proc.devRef .tc main_v408)) = res_main_v408 V0 := by
  simp only [ops_part7]
  after_results_simp
  all_goals (try simp only [h_main_v5, h_main_v6, h_main_v52, h_main_v54, h_main_v82, h_main_v84, h_main_v218, h_main_v266, h_main_v315, h_main_v357, h_main_v358])
  all_goals rfl

end Cert.ReferenceIdeal.Hand

end
-- ==== Proof.Ref.Win8.lean ====
import proofs.«408084_j48395691492010_3_alg».proof.Proof.Ref.Defs

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part8`'s operations write. -/
noncomputable abbrev ops_part8_W : List (Ref sig .tc) := [main_v409, main_v410, main_cst_69, main_v411, main_v412, main_v413, main_v414, main_v415, main_v416, main_v417, main_v418, main_v419, main_v420, main_cst_70, main_v421, main_cst_71, main_v422, main_v423, main_c_72, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v424, main_v425, main_v426, main_v427, main_cst_73, main_v428, main_v429, main_v430, main_v431, main_v432, main_v433, main_v434, main_v435, main_v436, main_v437, main_v438, main_v439, main_cst_74, main_v440, main_v441, main_v442, main_v443, main_v444, main_cst_75, main_v445, main_v446, main_cst_76, main_v447, main_v448, main_v449, main_v450, main_v451, main_v452, main_v453, main_c_77, main_v454, main_v455, main_c_78, main_v456, main_v457, main_v458]
set_option maxRecDepth 8192 in
theorem ops_part8_writes : (ops_part8 : List (HloOp τ sig (Elt F))).Forall fun op => op.writes ⊆ (ops_part8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem ops_part8_sub : (ops_part8 : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub ..⟩

/-! What the window leaves in each buffer it writes that a later window reads, from any contents `V` in which the
    buffers it reads hold their named terms over `V0`. -/

set_option maxRecDepth 8192 in
set_option maxHeartbeats 2000000 in
theorem w8_main_v416 (V V0 : Valuation τ sig (Elt F))
    (h_main_v6 : V (no_index (Proc.devRef .tc main_v6)) = res_main_v6 V0)
    (h_main_v56 : V (no_index (Proc.devRef .tc main_v56)) = res_main_v56 V0)
    (h_main_v401 : V (no_index (Proc.devRef .tc main_v401)) = res_main_v401 V0)
    (h_main_v408 : V (no_index (Proc.devRef .tc main_v408)) = res_main_v408 V0) :
    after ops_part8 V (no_index (Proc.devRef .tc main_v416)) = res_main_v416 V0 := by
  simp only [ops_part8]
  after_results_simp
  all_goals (try simp only [h_main_v6, h_main_v56, h_main_v401, h_main_v408])
  all_goals rfl

set_option maxRecDepth 8192 in
set_option maxHeartbeats 2000000 in
theorem w8_main_v452 (V V0 : Valuation τ sig (Elt F))
    (h_main_v6 : V (no_index (Proc.devRef .tc main_v6)) = res_main_v6 V0)
    (h_main_v56 : V (no_index (Proc.devRef .tc main_v56)) = res_main_v56 V0)
    (h_main_v58 : V (no_index (Proc.devRef .tc main_v58)) = res_main_v58 V0)
    (h_main_v86 : V (no_index (Proc.devRef .tc main_v86)) = res_main_v86 V0)
    (h_main_v88 : V (no_index (Proc.devRef .tc main_v88)) = res_main_v88 V0)
    (h_main_v218 : V (no_index (Proc.devRef .tc main_v218)) = res_main_v218 V0)
    (h_main_v266 : V (no_index (Proc.devRef .tc main_v266)) = res_main_v266 V0)
    (h_main_v315 : V (no_index (Proc.devRef .tc main_v315)) = res_main_v315 V0)
    (h_main_v365 : V (no_index (Proc.devRef .tc main_v365)) = res_main_v365 V0)
    (h_main_v401 : V (no_index (Proc.devRef .tc main_v401)) = res_main_v401 V0)
    (h_main_v408 : V (no_index (Proc.devRef .tc main_v408)) = res_main_v408 V0) :
    after ops_part8 V (no_index (Proc.devRef .tc main_v452)) = res_main_v452 V0 := by
  simp only [ops_part8]
  after_results_simp
  all_goals (try simp only [h_main_v6, h_main_v56, h_main_v58, h_main_v86, h_main_v88, h_main_v218, h_main_v266, h_main_v315, h_main_v365, h_main_v401, h_main_v408])
  all_goals rfl

set_option maxRecDepth 8192 in
set_option maxHeartbeats 2000000 in
theorem w8_main_v453 (V V0 : Valuation τ sig (Elt F))
    (h_main_v33 : V (no_index (Proc.devRef .tc main_v33)) = res_main_v33 V0) :
    after ops_part8 V (no_index (Proc.devRef .tc main_v453)) = res_main_v453 V0 := by
  simp only [ops_part8]
  after_results_simp
  all_goals (try simp only [h_main_v33])
  all_goals rfl

set_option maxRecDepth 8192 in
set_option maxHeartbeats 2000000 in
theorem w8_main_v458 (V V0 : Valuation τ sig (Elt F))
    (h_main_v5 : V (no_index (Proc.devRef .tc main_v5)) = res_main_v5 V0) :
    after ops_part8 V (no_index (Proc.devRef .tc main_v458)) = res_main_v458 V0 := by
  simp only [ops_part8]
  after_results_simp
  all_goals (try simp only [h_main_v5])
  all_goals rfl

end Cert.ReferenceIdeal.Hand

end
-- ==== Proof.Ref.Win9.lean ====
import proofs.«408084_j48395691492010_3_alg».proof.Proof.Ref.Defs

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part9`'s operations write. -/
noncomputable abbrev ops_part9_W : List (Ref sig .tc) := [main_v459, main_v460, main_v461, main_v462, main_cst_79, main_v463, main_v464, main_v465, main_v466, main_v467, main_v468, main_v469, main_v470, main_v471, main_v472, main_v473, main_cst_80, main_v474, main_cst_81, main_v475, main_v476, main_c_82, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v477, main_v478, main_v479, main_v480, main_cst_83, main_v481, main_v482, main_v483, main_v484, main_v485, main_v486, main_v487, main_v488, main_v489, main_v490, main_v491, main_v492, main_cst_84, main_v493, main_v494, main_v495, main_v496, main_v497, main_cst_85, main_v498, main_v499, main_cst_86, main_v500, main_v501, main_v502, main_v503, main_v504, main_v505, main_v506, main_c_87, main_v507, main_v508, main_c_88]
set_option maxRecDepth 8192 in
theorem ops_part9_writes : (ops_part9 : List (HloOp τ sig (Elt F))).Forall fun op => op.writes ⊆ (ops_part9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem ops_part9_sub : (ops_part9 : List (HloOp τ sig (Elt F))).Forall fun op => op.bufs ⊆ tcRefs τ sig :=
  ⟨unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., unary_bufs_sub .., binary_bufs_sub .., unary_bufs_sub .., nullary_bufs_sub .., unary_bufs_sub .., binary_bufs_sub .., nullary_bufs_sub ..⟩

/-! What the window leaves in each buffer it writes that a later window reads, from any contents `V` in which the
    buffers it reads hold their named terms over `V0`. -/

set_option maxRecDepth 8192 in
set_option maxHeartbeats 2000000 in
theorem w9_main_v468 (V V0 : Valuation τ sig (Elt F))
    (h_main_v6 : V (no_index (Proc.devRef .tc main_v6)) = res_main_v6 V0)
    (h_main_v60 : V (no_index (Proc.devRef .tc main_v60)) = res_main_v60 V0)
    (h_main_v452 : V (no_index (Proc.devRef .tc main_v452)) = res_main_v452 V0)
    (h_main_v453 : V (no_index (Proc.devRef .tc main_v453)) = res_main_v453 V0)
    (h_main_v458 : V (no_index (Proc.devRef .tc main_v458)) = res_main_v458 V0) :
    after ops_part9 V (no_index (Proc.devRef .tc main_v468)) = res_main_v468 V0 := by
  simp only [ops_part9]
  after_results_simp
  all_goals (try simp only [h_main_v6, h_main_v60, h_main_v452, h_main_v453, h_main_v458])
  all_goals rfl

set_option maxRecDepth 8192 in
set_option maxHeartbeats 2000000 in
theorem w9_main_v505 (V V0 : Valuation τ sig (Elt F))
    (h_main_v6 : V (no_index (Proc.devRef .tc main_v6)) = res_main_v6 V0)
    (h_main_v60 : V (no_index (Proc.devRef .tc main_v60)) = res_main_v60 V0)
    (h_main_v62 : V (no_index (Proc.devRef .tc main_v62)) = res_main_v62 V0)
    (h_main_v90 : V (no_index (Proc.devRef .tc main_v90)) = res_main_v90 V0)
    (h_main_v92 : V (no_index (Proc.devRef .tc main_v92)) = res_main_v92 V0)
    (h_main_v218 : V (no_index (Proc.devRef .tc main_v218)) = res_main_v218 V0)
    (h_main_v266 : V (no_index (Proc.devRef .tc main_v266)) = res_main_v266 V0)
    (h_main_v315 : V (no_index (Proc.devRef .tc main_v315)) = res_main_v315 V0)
    (h_main_v365 : V (no_index (Proc.devRef .tc main_v365)) = res_main_v365 V0)
    (h_main_v416 : V (no_index (Proc.devRef .tc main_v416)) = res_main_v416 V0)
    (h_main_v452 : V (no_index (Proc.devRef .tc main_v452)) = res_main_v452 V0)
    (h_main_v453 : V (no_index (Proc.devRef .tc main_v453)) = res_main_v453 V0)
    (h_main_v458 : V (no_index (Proc.devRef .tc main_v458)) = res_main_v458 V0) :
    after ops_part9 V (no_index (Proc.devRef .tc main_v505)) = res_main_v505 V0 := by
  simp only [ops_part9]
  after_results_simp
  all_goals (try simp only [h_main_v6, h_main_v60, h_main_v62, h_main_v90, h_main_v92, h_main_v218, h_main_v266, h_main_v315, h_main_v365, h_main_v416, h_main_v452, h_main_v453, h_main_v458])
  all_goals rfl

set_option maxRecDepth 8192 in
set_option maxHeartbeats 2000000 in
theorem w9_main_v506 (V V0 : Valuation τ sig (Elt F))
    (h_main_v33 : V (no_index (Proc.devRef .tc main_v33)) = res_main_v33 V0) :
    after ops_part9 V (no_index (Proc.devRef .tc main_v506)) = res_main_v506 V0 := by
  simp only [ops_part9]
  after_results_simp
  all_goals (try simp only [h_main_v33])
  all_goals rfl

set_option maxRecDepth 8192 in
set_option maxHeartbeats 2000000 in
theorem w9_main_v508 (V V0 : Valuation τ sig (Elt F))
    (h_main_v5 : V (no_index (Proc.devRef .tc main_v5)) = res_main_v5 V0) :
    after ops_part9 V (no_index (Proc.devRef .tc main_v508)) = res_main_v508 V0 := by
  simp only [ops_part9]
  after_results_simp
  all_goals (try simp only [h_main_v5])
  all_goals rfl

set_option maxRecDepth 8192 in
set_option maxHeartbeats 2000000 in
theorem w9_main_c_88 (V V0 : Valuation τ sig (Elt F)) :
    after ops_part9 V (no_index (Proc.devRef .tc main_c_88)) = res_main_c_88 V0 := by
  simp only [ops_part9]
  after_results_simp
  all_goals rfl

end Cert.ReferenceIdeal.Hand

end
-- ==== Proof.Ref.Win10.lean ====
import proofs.«408084_j48395691492010_3_alg».proof.Proof.Ref.Defs

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part10`'s operations write. -/
noncomputable abbrev ops_part10_W : List (Ref sig .tc) := [main_v509, main_v510, main_v511, main_v512, main_v513, main_v514, main_v515, main_cst_89, main_v516, main_v517, main_v518, main_v519, main_v520, main_v521, main_v522, main_v523, main_v524, main_v525, main_v526, main_v527, main_cst_90, main_v528, main_cst_91, main_v529, main_v530, main_c_92, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v531, main_v532, main_v533, main_v534, main_cst_93, main_v535, main_v536, main_v537, main_v538, main_v539, main_v540, main_v541, main_v542, main_v543, main_v544, main_v545, main_v546, main_cst_94, main_v547, main_v548, main_v549, main_v550, main_v551, main_cst_95, main_v552, main_v553, main_cst_96, main_v554, main_v555, main_v556, main_v557, main_v558, main_v559, main_v560]
set_option maxRecDepth 8192 in
theorem ops_part10_writes : (ops_part10 : List (HloOp τ sig (Elt F))).Forall fun op => op.writes ⊆ (ops_part10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem ops_part10_sub : (ops_part10 : List (HloOp τ sig (Elt F))).Forall fun op => op.bufs ⊆ tcRefs τ sig :=
  ⟨unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., unary_bufs_sub .., binary_bufs_sub .., unary_bufs_sub ..⟩

/-! What the window leaves in each buffer it writes that a later window reads, from any contents `V` in which the
    buffers it reads hold their named terms over `V0`. -/

set_option maxRecDepth 8192 in
set_option maxHeartbeats 2000000 in
theorem w10_main_v521 (V V0 : Valuation τ sig (Elt F))
    (h_main_v5 : V (no_index (Proc.devRef .tc main_v5)) = res_main_v5 V0)
    (h_main_v6 : V (no_index (Proc.devRef .tc main_v6)) = res_main_v6 V0)
    (h_main_v64 : V (no_index (Proc.devRef .tc main_v64)) = res_main_v64 V0)
    (h_main_v505 : V (no_index (Proc.devRef .tc main_v505)) = res_main_v505 V0)
    (h_main_v506 : V (no_index (Proc.devRef .tc main_v506)) = res_main_v506 V0)
    (h_main_v508 : V (no_index (Proc.devRef .tc main_v508)) = res_main_v508 V0)
    (h_main_c_88 : V (no_index (Proc.devRef .tc main_c_88)) = res_main_c_88 V0) :
    after ops_part10 V (no_index (Proc.devRef .tc main_v521)) = res_main_v521 V0 := by
  simp only [ops_part10]
  after_results_simp
  all_goals (try simp only [h_main_v5, h_main_v6, h_main_v64, h_main_v505, h_main_v506, h_main_v508, h_main_c_88])
  all_goals rfl

set_option maxRecDepth 8192 in
set_option maxHeartbeats 2000000 in
theorem w10_main_v559 (V V0 : Valuation τ sig (Elt F))
    (h_main_v5 : V (no_index (Proc.devRef .tc main_v5)) = res_main_v5 V0)
    (h_main_v6 : V (no_index (Proc.devRef .tc main_v6)) = res_main_v6 V0)
    (h_main_v64 : V (no_index (Proc.devRef .tc main_v64)) = res_main_v64 V0)
    (h_main_v66 : V (no_index (Proc.devRef .tc main_v66)) = res_main_v66 V0)
    (h_main_v94 : V (no_index (Proc.devRef .tc main_v94)) = res_main_v94 V0)
    (h_main_v96 : V (no_index (Proc.devRef .tc main_v96)) = res_main_v96 V0)
    (h_main_v218 : V (no_index (Proc.devRef .tc main_v218)) = res_main_v218 V0)
    (h_main_v266 : V (no_index (Proc.devRef .tc main_v266)) = res_main_v266 V0)
    (h_main_v315 : V (no_index (Proc.devRef .tc main_v315)) = res_main_v315 V0)
    (h_main_v365 : V (no_index (Proc.devRef .tc main_v365)) = res_main_v365 V0)
    (h_main_v416 : V (no_index (Proc.devRef .tc main_v416)) = res_main_v416 V0)
    (h_main_v468 : V (no_index (Proc.devRef .tc main_v468)) = res_main_v468 V0)
    (h_main_v505 : V (no_index (Proc.devRef .tc main_v505)) = res_main_v505 V0)
    (h_main_v506 : V (no_index (Proc.devRef .tc main_v506)) = res_main_v506 V0)
    (h_main_v508 : V (no_index (Proc.devRef .tc main_v508)) = res_main_v508 V0)
    (h_main_c_88 : V (no_index (Proc.devRef .tc main_c_88)) = res_main_c_88 V0) :
    after ops_part10 V (no_index (Proc.devRef .tc main_v559)) = res_main_v559 V0 := by
  simp only [ops_part10]
  after_results_simp
  all_goals (try simp only [h_main_v5, h_main_v6, h_main_v64, h_main_v66, h_main_v94, h_main_v96, h_main_v218, h_main_v266, h_main_v315, h_main_v365, h_main_v416, h_main_v468, h_main_v505, h_main_v506, h_main_v508, h_main_c_88])
  all_goals rfl

set_option maxRecDepth 8192 in
set_option maxHeartbeats 2000000 in
theorem w10_main_v560 (V V0 : Valuation τ sig (Elt F))
    (h_main_v33 : V (no_index (Proc.devRef .tc main_v33)) = res_main_v33 V0) :
    after ops_part10 V (no_index (Proc.devRef .tc main_v560)) = res_main_v560 V0 := by
  simp only [ops_part10]
  after_results_simp
  all_goals (try simp only [h_main_v33])
  all_goals rfl

end Cert.ReferenceIdeal.Hand

end
-- ==== Proof.Ref.Win11.lean ====
import proofs.«408084_j48395691492010_3_alg».proof.Proof.Ref.Defs

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part11`'s operations write. -/
noncomputable abbrev ops_part11_W : List (Ref sig .tc) := [main_c_97, main_v561, main_v562, main_c_98, main_v563, main_v564, main_v565, main_v566, main_v567, main_v568, main_v569, main_cst_99, main_v570, main_v571, main_v572, main_v573, main_v574, main_v575, main_v576, main_v577, main_v578, main_v579, main_v580, main_v581, main_v582, main_cst_100, main_v583, main_cst_101, main_v584, main_v585, main_c_102, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v586, main_v587, main_v588, main_v589, main_cst_103, main_v590, main_v591, main_v592, main_v593, main_v594, main_v595, main_v596, main_v597, main_v598, main_v599, main_v600, main_v601, main_cst_104, main_v602, main_v603, main_v604, main_v605, main_v606, main_cst_105, main_v607, main_v608, main_cst_106, main_v609, main_v610]
set_option maxRecDepth 8192 in
theorem ops_part11_writes : (ops_part11 : List (HloOp τ sig (Elt F))).Forall fun op => op.writes ⊆ (ops_part11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem ops_part11_sub : (ops_part11 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., binary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub ..⟩

/-! What the window leaves in each buffer it writes that a later window reads, from any contents `V` in which the
    buffers it reads hold their named terms over `V0`. -/

set_option maxRecDepth 8192 in
set_option maxHeartbeats 2000000 in
theorem w11_main_v575 (V V0 : Valuation τ sig (Elt F))
    (h_main_v5 : V (no_index (Proc.devRef .tc main_v5)) = res_main_v5 V0)
    (h_main_v6 : V (no_index (Proc.devRef .tc main_v6)) = res_main_v6 V0)
    (h_main_v68 : V (no_index (Proc.devRef .tc main_v68)) = res_main_v68 V0)
    (h_main_v559 : V (no_index (Proc.devRef .tc main_v559)) = res_main_v559 V0)
    (h_main_v560 : V (no_index (Proc.devRef .tc main_v560)) = res_main_v560 V0) :
    after ops_part11 V (no_index (Proc.devRef .tc main_v575)) = res_main_v575 V0 := by
  simp only [ops_part11]
  after_results_simp
  all_goals (try simp only [h_main_v5, h_main_v6, h_main_v68, h_main_v559, h_main_v560])
  all_goals rfl

set_option maxRecDepth 8192 in
set_option maxHeartbeats 2000000 in
theorem w11_main_v606 (V V0 : Valuation τ sig (Elt F))
    (h_main_v5 : V (no_index (Proc.devRef .tc main_v5)) = res_main_v5 V0)
    (h_main_v6 : V (no_index (Proc.devRef .tc main_v6)) = res_main_v6 V0)
    (h_main_v68 : V (no_index (Proc.devRef .tc main_v68)) = res_main_v68 V0)
    (h_main_v98 : V (no_index (Proc.devRef .tc main_v98)) = res_main_v98 V0)
    (h_main_v100 : V (no_index (Proc.devRef .tc main_v100)) = res_main_v100 V0)
    (h_main_v218 : V (no_index (Proc.devRef .tc main_v218)) = res_main_v218 V0)
    (h_main_v266 : V (no_index (Proc.devRef .tc main_v266)) = res_main_v266 V0)
    (h_main_v315 : V (no_index (Proc.devRef .tc main_v315)) = res_main_v315 V0)
    (h_main_v365 : V (no_index (Proc.devRef .tc main_v365)) = res_main_v365 V0)
    (h_main_v416 : V (no_index (Proc.devRef .tc main_v416)) = res_main_v416 V0)
    (h_main_v468 : V (no_index (Proc.devRef .tc main_v468)) = res_main_v468 V0)
    (h_main_v521 : V (no_index (Proc.devRef .tc main_v521)) = res_main_v521 V0)
    (h_main_v559 : V (no_index (Proc.devRef .tc main_v559)) = res_main_v559 V0)
    (h_main_v560 : V (no_index (Proc.devRef .tc main_v560)) = res_main_v560 V0) :
    after ops_part11 V (no_index (Proc.devRef .tc main_v606)) = res_main_v606 V0 := by
  simp only [ops_part11]
  after_results_simp
  all_goals (try simp only [h_main_v5, h_main_v6, h_main_v68, h_main_v98, h_main_v100, h_main_v218, h_main_v266, h_main_v315, h_main_v365, h_main_v416, h_main_v468, h_main_v521, h_main_v559, h_main_v560])
  all_goals rfl

set_option maxRecDepth 8192 in
set_option maxHeartbeats 2000000 in
theorem w11_main_v610 (V V0 : Valuation τ sig (Elt F))
    (h_main_v5 : V (no_index (Proc.devRef .tc main_v5)) = res_main_v5 V0)
    (h_main_v6 : V (no_index (Proc.devRef .tc main_v6)) = res_main_v6 V0)
    (h_main_v68 : V (no_index (Proc.devRef .tc main_v68)) = res_main_v68 V0)
    (h_main_v98 : V (no_index (Proc.devRef .tc main_v98)) = res_main_v98 V0)
    (h_main_v100 : V (no_index (Proc.devRef .tc main_v100)) = res_main_v100 V0)
    (h_main_v218 : V (no_index (Proc.devRef .tc main_v218)) = res_main_v218 V0)
    (h_main_v266 : V (no_index (Proc.devRef .tc main_v266)) = res_main_v266 V0)
    (h_main_v315 : V (no_index (Proc.devRef .tc main_v315)) = res_main_v315 V0)
    (h_main_v365 : V (no_index (Proc.devRef .tc main_v365)) = res_main_v365 V0)
    (h_main_v416 : V (no_index (Proc.devRef .tc main_v416)) = res_main_v416 V0)
    (h_main_v468 : V (no_index (Proc.devRef .tc main_v468)) = res_main_v468 V0)
    (h_main_v521 : V (no_index (Proc.devRef .tc main_v521)) = res_main_v521 V0)
    (h_main_v559 : V (no_index (Proc.devRef .tc main_v559)) = res_main_v559 V0)
    (h_main_v560 : V (no_index (Proc.devRef .tc main_v560)) = res_main_v560 V0) :
    after ops_part11 V (no_index (Proc.devRef .tc main_v610)) = res_main_v610 V0 := by
  simp only [ops_part11]
  after_results_simp
  all_goals (try simp only [h_main_v5, h_main_v6, h_main_v68, h_main_v98, h_main_v100, h_main_v218, h_main_v266, h_main_v315, h_main_v365, h_main_v416, h_main_v468, h_main_v521, h_main_v559, h_main_v560])
  all_goals rfl

end Cert.ReferenceIdeal.Hand

end
-- ==== Proof.Ref.Win12.lean ====
import proofs.«408084_j48395691492010_3_alg».proof.Proof.Ref.Defs

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part12`'s operations write. -/
noncomputable abbrev ops_part12_W : List (Ref sig .tc) := [main_v611, main_v612, main_v613, main_v614, main_v615, main_c_107, main_v616, main_v617, main_c_108, main_v618, main_v619, main_v620, main_v621, main_v622, main_v623, main_v624, main_cst_109, main_v625, main_v626, main_v627, main_v628, main_v629, main_v630, main_v631, main_v632, main_v633, main_v634, main_v635, main_v636, main_v637, main_v638, main_cst_110, main_v639, main_cst_111, main_v640, main_v641, main_c_112, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v642, main_v643, main_v644, main_v645, main_cst_113, main_v646, main_v647, main_v648, main_v649, main_v650, main_v651, main_v652, main_v653, main_v654, main_v655, main_v656, main_v657, main_cst_114, main_v658, main_v659, main_v660, main_v661, main_v662]
set_option maxRecDepth 8192 in
theorem ops_part12_writes : (ops_part12 : List (HloOp τ sig (Elt F))).Forall fun op => op.writes ⊆ (ops_part12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem ops_part12_sub : (ops_part12 : List (HloOp τ sig (Elt F))).Forall fun op => op.bufs ⊆ tcRefs τ sig :=
  ⟨unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., binary_bufs_sub .., binary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., unary_bufs_sub .., binary_bufs_sub .., unary_bufs_sub ..⟩

/-! What the window leaves in each buffer it writes that a later window reads, from any contents `V` in which the
    buffers it reads hold their named terms over `V0`. -/

set_option maxRecDepth 8192 in
set_option maxHeartbeats 2000000 in
theorem w12_main_v662 (V V0 : Valuation τ sig (Elt F))
    (h_main_v5 : V (no_index (Proc.devRef .tc main_v5)) = res_main_v5 V0)
    (h_main_v6 : V (no_index (Proc.devRef .tc main_v6)) = res_main_v6 V0)
    (h_main_v33 : V (no_index (Proc.devRef .tc main_v33)) = res_main_v33 V0)
    (h_main_v70 : V (no_index (Proc.devRef .tc main_v70)) = res_main_v70 V0)
    (h_main_v72 : V (no_index (Proc.devRef .tc main_v72)) = res_main_v72 V0)
    (h_main_v102 : V (no_index (Proc.devRef .tc main_v102)) = res_main_v102 V0)
    (h_main_v104 : V (no_index (Proc.devRef .tc main_v104)) = res_main_v104 V0)
    (h_main_v218 : V (no_index (Proc.devRef .tc main_v218)) = res_main_v218 V0)
    (h_main_v266 : V (no_index (Proc.devRef .tc main_v266)) = res_main_v266 V0)
    (h_main_v315 : V (no_index (Proc.devRef .tc main_v315)) = res_main_v315 V0)
    (h_main_v365 : V (no_index (Proc.devRef .tc main_v365)) = res_main_v365 V0)
    (h_main_v416 : V (no_index (Proc.devRef .tc main_v416)) = res_main_v416 V0)
    (h_main_v468 : V (no_index (Proc.devRef .tc main_v468)) = res_main_v468 V0)
    (h_main_v521 : V (no_index (Proc.devRef .tc main_v521)) = res_main_v521 V0)
    (h_main_v575 : V (no_index (Proc.devRef .tc main_v575)) = res_main_v575 V0)
    (h_main_v606 : V (no_index (Proc.devRef .tc main_v606)) = res_main_v606 V0)
    (h_main_v610 : V (no_index (Proc.devRef .tc main_v610)) = res_main_v610 V0) :
    after ops_part12 V (no_index (Proc.devRef .tc main_v662)) = res_main_v662 V0 := by
  simp only [ops_part12]
  after_results_simp
  all_goals (try simp only [h_main_v5, h_main_v6, h_main_v33, h_main_v70, h_main_v72, h_main_v102, h_main_v104, h_main_v218, h_main_v266, h_main_v315, h_main_v365, h_main_v416, h_main_v468, h_main_v521, h_main_v575, h_main_v606, h_main_v610])
  all_goals rfl

end Cert.ReferenceIdeal.Hand

end
-- ==== Proof.Ref.Win13.lean ====
import proofs.«408084_j48395691492010_3_alg».proof.Proof.Ref.Defs

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part13`'s operations write. -/
noncomputable abbrev ops_part13_W : List (Ref sig .tc) := [main_cst_115, main_v663, main_v664, main_cst_116, main_v665, main_v666, main_v667, main_v668, main_v669, main_v670, main_v671, main_c_117, main_v672, main_v673, main_c_118, main_v674, main_v675, main_v676, main_v677, main_v678, main_v679, main_v680, main_cst_119, main_v681, main_v682, main_v683, main_v684, main_v685, main_v686, main_cst_120, main_v687, main_v688, main_v689, main_v690, main_v691, main_cst_121, main_v692, main_v693, main_cst_122, main_v694, main_v695, main_v696, main_v697, main_cst_123, main_v698, main_cst_124, main_v699, main_v700, main_c_125, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v701, main_v702, main_v703, main_v704, main_cst_126, main_v705, main_v706, main_v707, main_v708, main_v709, main_v710]
set_option maxRecDepth 8192 in
theorem ops_part13_writes : (ops_part13 : List (HloOp τ sig (Elt F))).Forall fun op => op.writes ⊆ (ops_part13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem ops_part13_sub : (ops_part13 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩

/-! What the window leaves in each buffer it writes that a later window reads, from any contents `V` in which the
    buffers it reads hold their named terms over `V0`. -/

set_option maxRecDepth 8192 in
set_option maxHeartbeats 2000000 in
theorem w13_main_v710 (V V0 : Valuation τ sig (Elt F))
    (h_main_arg14 : V (no_index (Proc.devRef .tc main_arg14)) = V0 (Proc.devRef .tc main_arg14))
    (h_main_arg15 : V (no_index (Proc.devRef .tc main_arg15)) = V0 (Proc.devRef .tc main_arg15))
    (h_main_v5 : V (no_index (Proc.devRef .tc main_v5)) = res_main_v5 V0)
    (h_main_v6 : V (no_index (Proc.devRef .tc main_v6)) = res_main_v6 V0)
    (h_main_v33 : V (no_index (Proc.devRef .tc main_v33)) = res_main_v33 V0)
    (h_main_v662 : V (no_index (Proc.devRef .tc main_v662)) = res_main_v662 V0) :
    after ops_part13 V (no_index (Proc.devRef .tc main_v710)) = res_main_v710 V0 := by
  simp only [ops_part13]
  after_results_simp
  all_goals (try simp only [h_main_arg14, h_main_arg15, h_main_v5, h_main_v6, h_main_v33, h_main_v662])
  all_goals rfl

end Cert.ReferenceIdeal.Hand

end
-- ==== Proof.Ref.Win14.lean ====
import proofs.«408084_j48395691492010_3_alg».proof.Proof.Ref.Defs

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window `main_part14`'s operations write. -/
noncomputable abbrev ops_part14_W : List (Ref sig .tc) := [main_v711, main_v712, main_v713, main_v714, main_v715, main_v716, main_v717, main_v718]
set_option maxRecDepth 8192 in
theorem ops_part14_writes : (ops_part14 : List (HloOp τ sig (Elt F))).Forall fun op => op.writes ⊆ (ops_part14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
set_option maxRecDepth 8192 in
theorem ops_part14_sub : (ops_part14 : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., reshape_bufs_sub ..⟩

/-! What the window leaves in each buffer it writes that a later window reads, from any contents `V` in which the
    buffers it reads hold their named terms over `V0`. -/

set_option maxRecDepth 8192 in
set_option maxHeartbeats 2000000 in
theorem w14_main_v718 (V V0 : Valuation τ sig (Elt F))
    (h_main_arg24 : V (no_index (Proc.devRef .tc main_arg24)) = V0 (Proc.devRef .tc main_arg24))
    (h_main_arg25 : V (no_index (Proc.devRef .tc main_arg25)) = V0 (Proc.devRef .tc main_arg25))
    (h_main_arg26 : V (no_index (Proc.devRef .tc main_arg26)) = V0 (Proc.devRef .tc main_arg26))
    (h_main_v710 : V (no_index (Proc.devRef .tc main_v710)) = res_main_v710 V0) :
    after ops_part14 V (no_index (Proc.devRef .tc main_v718)) = res_main_v718 V0 := by
  simp only [ops_part14]
  after_results_simp
  all_goals (try simp only [h_main_arg24, h_main_arg25, h_main_arg26, h_main_v710])
  all_goals rfl

end Cert.ReferenceIdeal.Hand

end
-- ==== Proof.Ref.Chain.lean ====
import proofs.«408084_j48395691492010_3_alg».proof.Proof.Ref.Win0
import proofs.«408084_j48395691492010_3_alg».proof.Proof.Ref.Win1
import proofs.«408084_j48395691492010_3_alg».proof.Proof.Ref.Win2
import proofs.«408084_j48395691492010_3_alg».proof.Proof.Ref.Win3
import proofs.«408084_j48395691492010_3_alg».proof.Proof.Ref.Win4
import proofs.«408084_j48395691492010_3_alg».proof.Proof.Ref.Win5
import proofs.«408084_j48395691492010_3_alg».proof.Proof.Ref.Win6
import proofs.«408084_j48395691492010_3_alg».proof.Proof.Ref.Win7
import proofs.«408084_j48395691492010_3_alg».proof.Proof.Ref.Win8
import proofs.«408084_j48395691492010_3_alg».proof.Proof.Ref.Win9
import proofs.«408084_j48395691492010_3_alg».proof.Proof.Ref.Win10
import proofs.«408084_j48395691492010_3_alg».proof.Proof.Ref.Win11
import proofs.«408084_j48395691492010_3_alg».proof.Proof.Ref.Win12
import proofs.«408084_j48395691492010_3_alg».proof.Proof.Ref.Win13
import proofs.«408084_j48395691492010_3_alg».proof.Proof.Ref.Win14
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
noncomputable def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl
theorem val0_main_arg18 (V0 : Valuation τ sig (Elt F)) : val0 V0 (no_index (Proc.devRef .tc main_arg18)) = V0 (Proc.devRef .tc main_arg18) := rfl
theorem val0_main_arg19 (V0 : Valuation τ sig (Elt F)) : val0 V0 (no_index (Proc.devRef .tc main_arg19)) = V0 (Proc.devRef .tc main_arg19) := rfl
theorem val0_main_arg20 (V0 : Valuation τ sig (Elt F)) : val0 V0 (no_index (Proc.devRef .tc main_arg20)) = V0 (Proc.devRef .tc main_arg20) := rfl
theorem val0_main_arg21 (V0 : Valuation τ sig (Elt F)) : val0 V0 (no_index (Proc.devRef .tc main_arg21)) = V0 (Proc.devRef .tc main_arg21) := rfl
theorem val0_main_arg22 (V0 : Valuation τ sig (Elt F)) : val0 V0 (no_index (Proc.devRef .tc main_arg22)) = V0 (Proc.devRef .tc main_arg22) := rfl
theorem val0_main_arg23 (V0 : Valuation τ sig (Elt F)) : val0 V0 (no_index (Proc.devRef .tc main_arg23)) = V0 (Proc.devRef .tc main_arg23) := rfl
theorem val0_main_arg24 (V0 : Valuation τ sig (Elt F)) : val0 V0 (no_index (Proc.devRef .tc main_arg24)) = V0 (Proc.devRef .tc main_arg24) := rfl
theorem val0_main_arg25 (V0 : Valuation τ sig (Elt F)) : val0 V0 (no_index (Proc.devRef .tc main_arg25)) = V0 (Proc.devRef .tc main_arg25) := rfl
theorem val0_main_arg26 (V0 : Valuation τ sig (Elt F)) : val0 V0 (no_index (Proc.devRef .tc main_arg26)) = V0 (Proc.devRef .tc main_arg26) := rfl

/-- The device's buffer contents after @main's first 1 window. -/
noncomputable def val1 (V0 : Valuation τ sig (Elt F)) : Valuation τ sig (Elt F) := after ops_part0 (val0 V0)
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val1_main_arg16 (V0 : Valuation τ sig (Elt F)) : val1 V0 (no_index (Proc.devRef .tc main_arg16)) = V0 (Proc.devRef .tc main_arg16) :=
  (val1_keep V0 main_arg16 (by decide)).trans (val0_main_arg16 V0)
theorem val1_main_arg17 (V0 : Valuation τ sig (Elt F)) : val1 V0 (no_index (Proc.devRef .tc main_arg17)) = V0 (Proc.devRef .tc main_arg17) :=
  (val1_keep V0 main_arg17 (by decide)).trans (val0_main_arg17 V0)
theorem val1_main_arg18 (V0 : Valuation τ sig (Elt F)) : val1 V0 (no_index (Proc.devRef .tc main_arg18)) = V0 (Proc.devRef .tc main_arg18) :=
  (val1_keep V0 main_arg18 (by decide)).trans (val0_main_arg18 V0)
theorem val1_main_arg19 (V0 : Valuation τ sig (Elt F)) : val1 V0 (no_index (Proc.devRef .tc main_arg19)) = V0 (Proc.devRef .tc main_arg19) :=
  (val1_keep V0 main_arg19 (by decide)).trans (val0_main_arg19 V0)
theorem val1_main_arg20 (V0 : Valuation τ sig (Elt F)) : val1 V0 (no_index (Proc.devRef .tc main_arg20)) = V0 (Proc.devRef .tc main_arg20) :=
  (val1_keep V0 main_arg20 (by decide)).trans (val0_main_arg20 V0)
theorem val1_main_arg21 (V0 : Valuation τ sig (Elt F)) : val1 V0 (no_index (Proc.devRef .tc main_arg21)) = V0 (Proc.devRef .tc main_arg21) :=
  (val1_keep V0 main_arg21 (by decide)).trans (val0_main_arg21 V0)
theorem val1_main_arg22 (V0 : Valuation τ sig (Elt F)) : val1 V0 (no_index (Proc.devRef .tc main_arg22)) = V0 (Proc.devRef .tc main_arg22) :=
  (val1_keep V0 main_arg22 (by decide)).trans (val0_main_arg22 V0)
theorem val1_main_arg23 (V0 : Valuation τ sig (Elt F)) : val1 V0 (no_index (Proc.devRef .tc main_arg23)) = V0 (Proc.devRef .tc main_arg23) :=
  (val1_keep V0 main_arg23 (by decide)).trans (val0_main_arg23 V0)
theorem val1_main_arg24 (V0 : Valuation τ sig (Elt F)) : val1 V0 (no_index (Proc.devRef .tc main_arg24)) = V0 (Proc.devRef .tc main_arg24) :=
  (val1_keep V0 main_arg24 (by decide)).trans (val0_main_arg24 V0)
theorem val1_main_arg25 (V0 : Valuation τ sig (Elt F)) : val1 V0 (no_index (Proc.devRef .tc main_arg25)) = V0 (Proc.devRef .tc main_arg25) :=
  (val1_keep V0 main_arg25 (by decide)).trans (val0_main_arg25 V0)
theorem val1_main_arg26 (V0 : Valuation τ sig (Elt F)) : val1 V0 (no_index (Proc.devRef .tc main_arg26)) = V0 (Proc.devRef .tc main_arg26) :=
  (val1_keep V0 main_arg26 (by decide)).trans (val0_main_arg26 V0)
theorem val1_main_v5 (V0 : Valuation τ sig (Elt F)) : val1 V0 (no_index (Proc.devRef .tc main_v5)) = res_main_v5 V0 :=
  w0_main_v5 (val0 V0) V0 (val0_main_arg1 V0)
theorem val1_main_v6 (V0 : Valuation τ sig (Elt F)) : val1 V0 (no_index (Proc.devRef .tc main_v6)) = res_main_v6 V0 :=
  w0_main_v6 (val0 V0) V0 (val0_main_arg1 V0)
theorem val1_main_v33 (V0 : Valuation τ sig (Elt F)) : val1 V0 (no_index (Proc.devRef .tc main_v33)) = res_main_v33 V0 :=
  w0_main_v33 (val0 V0) V0 (val0_main_arg1 V0) (val0_main_arg2 V0)
theorem val1_main_v40 (V0 : Valuation τ sig (Elt F)) : val1 V0 (no_index (Proc.devRef .tc main_v40)) = res_main_v40 V0 :=
  w0_main_v40 (val0 V0) V0 (val0_main_arg0 V0) (val0_main_arg4 V0) (val0_main_arg5 V0)
theorem val1_main_v42 (V0 : Valuation τ sig (Elt F)) : val1 V0 (no_index (Proc.devRef .tc main_v42)) = res_main_v42 V0 :=
  w0_main_v42 (val0 V0) V0 (val0_main_arg12 V0)
theorem val1_main_v44 (V0 : Valuation τ sig (Elt F)) : val1 V0 (no_index (Proc.devRef .tc main_v44)) = res_main_v44 V0 :=
  w0_main_v44 (val0 V0) V0 (val0_main_arg13 V0)
theorem val1_main_v46 (V0 : Valuation τ sig (Elt F)) : val1 V0 (no_index (Proc.devRef .tc main_v46)) = res_main_v46 V0 :=
  w0_main_v46 (val0 V0) V0 (val0_main_arg12 V0)
theorem val1_main_v48 (V0 : Valuation τ sig (Elt F)) : val1 V0 (no_index (Proc.devRef .tc main_v48)) = res_main_v48 V0 :=
  w0_main_v48 (val0 V0) V0 (val0_main_arg13 V0)
theorem val1_main_v50 (V0 : Valuation τ sig (Elt F)) : val1 V0 (no_index (Proc.devRef .tc main_v50)) = res_main_v50 V0 :=
  w0_main_v50 (val0 V0) V0 (val0_main_arg12 V0)

/-- The device's buffer contents after @main's first 2 windows. -/
noncomputable def val2 (V0 : Valuation τ sig (Elt F)) : Valuation τ sig (Elt F) := after ops_part1 (val1 V0)
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_arg18 (V0 : Valuation τ sig (Elt F)) : val2 V0 (no_index (Proc.devRef .tc main_arg18)) = V0 (Proc.devRef .tc main_arg18) :=
  (val2_keep V0 main_arg18 (by decide)).trans (val1_main_arg18 V0)
theorem val2_main_arg19 (V0 : Valuation τ sig (Elt F)) : val2 V0 (no_index (Proc.devRef .tc main_arg19)) = V0 (Proc.devRef .tc main_arg19) :=
  (val2_keep V0 main_arg19 (by decide)).trans (val1_main_arg19 V0)
theorem val2_main_arg20 (V0 : Valuation τ sig (Elt F)) : val2 V0 (no_index (Proc.devRef .tc main_arg20)) = V0 (Proc.devRef .tc main_arg20) :=
  (val2_keep V0 main_arg20 (by decide)).trans (val1_main_arg20 V0)
theorem val2_main_arg21 (V0 : Valuation τ sig (Elt F)) : val2 V0 (no_index (Proc.devRef .tc main_arg21)) = V0 (Proc.devRef .tc main_arg21) :=
  (val2_keep V0 main_arg21 (by decide)).trans (val1_main_arg21 V0)
theorem val2_main_arg22 (V0 : Valuation τ sig (Elt F)) : val2 V0 (no_index (Proc.devRef .tc main_arg22)) = V0 (Proc.devRef .tc main_arg22) :=
  (val2_keep V0 main_arg22 (by decide)).trans (val1_main_arg22 V0)
theorem val2_main_arg23 (V0 : Valuation τ sig (Elt F)) : val2 V0 (no_index (Proc.devRef .tc main_arg23)) = V0 (Proc.devRef .tc main_arg23) :=
  (val2_keep V0 main_arg23 (by decide)).trans (val1_main_arg23 V0)
theorem val2_main_arg24 (V0 : Valuation τ sig (Elt F)) : val2 V0 (no_index (Proc.devRef .tc main_arg24)) = V0 (Proc.devRef .tc main_arg24) :=
  (val2_keep V0 main_arg24 (by decide)).trans (val1_main_arg24 V0)
theorem val2_main_arg25 (V0 : Valuation τ sig (Elt F)) : val2 V0 (no_index (Proc.devRef .tc main_arg25)) = V0 (Proc.devRef .tc main_arg25) :=
  (val2_keep V0 main_arg25 (by decide)).trans (val1_main_arg25 V0)
theorem val2_main_arg26 (V0 : Valuation τ sig (Elt F)) : val2 V0 (no_index (Proc.devRef .tc main_arg26)) = V0 (Proc.devRef .tc main_arg26) :=
  (val2_keep V0 main_arg26 (by decide)).trans (val1_main_arg26 V0)
theorem val2_main_v5 (V0 : Valuation τ sig (Elt F)) : val2 V0 (no_index (Proc.devRef .tc main_v5)) = res_main_v5 V0 :=
  (val2_keep V0 main_v5 (by decide)).trans (val1_main_v5 V0)
theorem val2_main_v6 (V0 : Valuation τ sig (Elt F)) : val2 V0 (no_index (Proc.devRef .tc main_v6)) = res_main_v6 V0 :=
  (val2_keep V0 main_v6 (by decide)).trans (val1_main_v6 V0)
theorem val2_main_v33 (V0 : Valuation τ sig (Elt F)) : val2 V0 (no_index (Proc.devRef .tc main_v33)) = res_main_v33 V0 :=
  (val2_keep V0 main_v33 (by decide)).trans (val1_main_v33 V0)
theorem val2_main_v42 (V0 : Valuation τ sig (Elt F)) : val2 V0 (no_index (Proc.devRef .tc main_v42)) = res_main_v42 V0 :=
  (val2_keep V0 main_v42 (by decide)).trans (val1_main_v42 V0)
theorem val2_main_v44 (V0 : Valuation τ sig (Elt F)) : val2 V0 (no_index (Proc.devRef .tc main_v44)) = res_main_v44 V0 :=
  (val2_keep V0 main_v44 (by decide)).trans (val1_main_v44 V0)
theorem val2_main_v46 (V0 : Valuation τ sig (Elt F)) : val2 V0 (no_index (Proc.devRef .tc main_v46)) = res_main_v46 V0 :=
  (val2_keep V0 main_v46 (by decide)).trans (val1_main_v46 V0)
theorem val2_main_v48 (V0 : Valuation τ sig (Elt F)) : val2 V0 (no_index (Proc.devRef .tc main_v48)) = res_main_v48 V0 :=
  (val2_keep V0 main_v48 (by decide)).trans (val1_main_v48 V0)
theorem val2_main_v50 (V0 : Valuation τ sig (Elt F)) : val2 V0 (no_index (Proc.devRef .tc main_v50)) = res_main_v50 V0 :=
  (val2_keep V0 main_v50 (by decide)).trans (val1_main_v50 V0)
theorem val2_main_v52 (V0 : Valuation τ sig (Elt F)) : val2 V0 (no_index (Proc.devRef .tc main_v52)) = res_main_v52 V0 :=
  w1_main_v52 (val1 V0) V0 (val1_main_arg13 V0)
theorem val2_main_v54 (V0 : Valuation τ sig (Elt F)) : val2 V0 (no_index (Proc.devRef .tc main_v54)) = res_main_v54 V0 :=
  w1_main_v54 (val1 V0) V0 (val1_main_arg12 V0)
theorem val2_main_v56 (V0 : Valuation τ sig (Elt F)) : val2 V0 (no_index (Proc.devRef .tc main_v56)) = res_main_v56 V0 :=
  w1_main_v56 (val1 V0) V0 (val1_main_arg13 V0)
theorem val2_main_v58 (V0 : Valuation τ sig (Elt F)) : val2 V0 (no_index (Proc.devRef .tc main_v58)) = res_main_v58 V0 :=
  w1_main_v58 (val1 V0) V0 (val1_main_arg12 V0)
theorem val2_main_v60 (V0 : Valuation τ sig (Elt F)) : val2 V0 (no_index (Proc.devRef .tc main_v60)) = res_main_v60 V0 :=
  w1_main_v60 (val1 V0) V0 (val1_main_arg13 V0)
theorem val2_main_v62 (V0 : Valuation τ sig (Elt F)) : val2 V0 (no_index (Proc.devRef .tc main_v62)) = res_main_v62 V0 :=
  w1_main_v62 (val1 V0) V0 (val1_main_arg12 V0)
theorem val2_main_v64 (V0 : Valuation τ sig (Elt F)) : val2 V0 (no_index (Proc.devRef .tc main_v64)) = res_main_v64 V0 :=
  w1_main_v64 (val1 V0) V0 (val1_main_arg13 V0)
theorem val2_main_v66 (V0 : Valuation τ sig (Elt F)) : val2 V0 (no_index (Proc.devRef .tc main_v66)) = res_main_v66 V0 :=
  w1_main_v66 (val1 V0) V0 (val1_main_arg12 V0)
theorem val2_main_v68 (V0 : Valuation τ sig (Elt F)) : val2 V0 (no_index (Proc.devRef .tc main_v68)) = res_main_v68 V0 :=
  w1_main_v68 (val1 V0) V0 (val1_main_arg13 V0)
theorem val2_main_v70 (V0 : Valuation τ sig (Elt F)) : val2 V0 (no_index (Proc.devRef .tc main_v70)) = res_main_v70 V0 :=
  w1_main_v70 (val1 V0) V0 (val1_main_arg12 V0)
theorem val2_main_v72 (V0 : Valuation τ sig (Elt F)) : val2 V0 (no_index (Proc.devRef .tc main_v72)) = res_main_v72 V0 :=
  w1_main_v72 (val1 V0) V0 (val1_main_arg13 V0)
theorem val2_main_v74 (V0 : Valuation τ sig (Elt F)) : val2 V0 (no_index (Proc.devRef .tc main_v74)) = res_main_v74 V0 :=
  w1_main_v74 (val1 V0) V0 (val1_main_arg22 V0)
theorem val2_main_v76 (V0 : Valuation τ sig (Elt F)) : val2 V0 (no_index (Proc.devRef .tc main_v76)) = res_main_v76 V0 :=
  w1_main_v76 (val1 V0) V0 (val1_main_arg23 V0)
theorem val2_main_v78 (V0 : Valuation τ sig (Elt F)) : val2 V0 (no_index (Proc.devRef .tc main_v78)) = res_main_v78 V0 :=
  w1_main_v78 (val1 V0) V0 (val1_main_arg22 V0)
theorem val2_main_v80 (V0 : Valuation τ sig (Elt F)) : val2 V0 (no_index (Proc.devRef .tc main_v80)) = res_main_v80 V0 :=
  w1_main_v80 (val1 V0) V0 (val1_main_arg23 V0)
theorem val2_main_v82 (V0 : Valuation τ sig (Elt F)) : val2 V0 (no_index (Proc.devRef .tc main_v82)) = res_main_v82 V0 :=
  w1_main_v82 (val1 V0) V0 (val1_main_arg22 V0)
theorem val2_main_v84 (V0 : Valuation τ sig (Elt F)) : val2 V0 (no_index (Proc.devRef .tc main_v84)) = res_main_v84 V0 :=
  w1_main_v84 (val1 V0) V0 (val1_main_arg23 V0)
theorem val2_main_v86 (V0 : Valuation τ sig (Elt F)) : val2 V0 (no_index (Proc.devRef .tc main_v86)) = res_main_v86 V0 :=
  w1_main_v86 (val1 V0) V0 (val1_main_arg22 V0)
theorem val2_main_v88 (V0 : Valuation τ sig (Elt F)) : val2 V0 (no_index (Proc.devRef .tc main_v88)) = res_main_v88 V0 :=
  w1_main_v88 (val1 V0) V0 (val1_main_arg23 V0)
theorem val2_main_v90 (V0 : Valuation τ sig (Elt F)) : val2 V0 (no_index (Proc.devRef .tc main_v90)) = res_main_v90 V0 :=
  w1_main_v90 (val1 V0) V0 (val1_main_arg22 V0)
theorem val2_main_v92 (V0 : Valuation τ sig (Elt F)) : val2 V0 (no_index (Proc.devRef .tc main_v92)) = res_main_v92 V0 :=
  w1_main_v92 (val1 V0) V0 (val1_main_arg23 V0)
theorem val2_main_v94 (V0 : Valuation τ sig (Elt F)) : val2 V0 (no_index (Proc.devRef .tc main_v94)) = res_main_v94 V0 :=
  w1_main_v94 (val1 V0) V0 (val1_main_arg22 V0)
theorem val2_main_v96 (V0 : Valuation τ sig (Elt F)) : val2 V0 (no_index (Proc.devRef .tc main_v96)) = res_main_v96 V0 :=
  w1_main_v96 (val1 V0) V0 (val1_main_arg23 V0)
theorem val2_main_v98 (V0 : Valuation τ sig (Elt F)) : val2 V0 (no_index (Proc.devRef .tc main_v98)) = res_main_v98 V0 :=
  w1_main_v98 (val1 V0) V0 (val1_main_arg22 V0)
theorem val2_main_v100 (V0 : Valuation τ sig (Elt F)) : val2 V0 (no_index (Proc.devRef .tc main_v100)) = res_main_v100 V0 :=
  w1_main_v100 (val1 V0) V0 (val1_main_arg23 V0)
theorem val2_main_v102 (V0 : Valuation τ sig (Elt F)) : val2 V0 (no_index (Proc.devRef .tc main_v102)) = res_main_v102 V0 :=
  w1_main_v102 (val1 V0) V0 (val1_main_arg22 V0)
theorem val2_main_v104 (V0 : Valuation τ sig (Elt F)) : val2 V0 (no_index (Proc.devRef .tc main_v104)) = res_main_v104 V0 :=
  w1_main_v104 (val1 V0) V0 (val1_main_arg23 V0)
theorem val2_main_v106 (V0 : Valuation τ sig (Elt F)) : val2 V0 (no_index (Proc.devRef .tc main_v106)) = res_main_v106 V0 :=
  w1_main_v106 (val1 V0) V0 (val1_main_arg6 V0) (val1_main_v40 V0)
theorem val2_main_v107 (V0 : Valuation τ sig (Elt F)) : val2 V0 (no_index (Proc.devRef .tc main_v107)) = res_main_v107 V0 :=
  w1_main_v107 (val1 V0) V0 (val1_main_v33 V0)
theorem val2_main_v109 (V0 : Valuation τ sig (Elt F)) : val2 V0 (no_index (Proc.devRef .tc main_v109)) = res_main_v109 V0 :=
  w1_main_v109 (val1 V0) V0 (val1_main_v5 V0)

/-- The device's buffer contents after @main's first 3 windows. -/
noncomputable def val3 (V0 : Valuation τ sig (Elt F)) : Valuation τ sig (Elt F) := after ops_part2 (val2 V0)
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_main_arg17 V0)
theorem val3_main_arg18 (V0 : Valuation τ sig (Elt F)) : val3 V0 (no_index (Proc.devRef .tc main_arg18)) = V0 (Proc.devRef .tc main_arg18) :=
  (val3_keep V0 main_arg18 (by decide)).trans (val2_main_arg18 V0)
theorem val3_main_arg19 (V0 : Valuation τ sig (Elt F)) : val3 V0 (no_index (Proc.devRef .tc main_arg19)) = V0 (Proc.devRef .tc main_arg19) :=
  (val3_keep V0 main_arg19 (by decide)).trans (val2_main_arg19 V0)
theorem val3_main_arg20 (V0 : Valuation τ sig (Elt F)) : val3 V0 (no_index (Proc.devRef .tc main_arg20)) = V0 (Proc.devRef .tc main_arg20) :=
  (val3_keep V0 main_arg20 (by decide)).trans (val2_main_arg20 V0)
theorem val3_main_arg21 (V0 : Valuation τ sig (Elt F)) : val3 V0 (no_index (Proc.devRef .tc main_arg21)) = V0 (Proc.devRef .tc main_arg21) :=
  (val3_keep V0 main_arg21 (by decide)).trans (val2_main_arg21 V0)
theorem val3_main_arg22 (V0 : Valuation τ sig (Elt F)) : val3 V0 (no_index (Proc.devRef .tc main_arg22)) = V0 (Proc.devRef .tc main_arg22) :=
  (val3_keep V0 main_arg22 (by decide)).trans (val2_main_arg22 V0)
theorem val3_main_arg23 (V0 : Valuation τ sig (Elt F)) : val3 V0 (no_index (Proc.devRef .tc main_arg23)) = V0 (Proc.devRef .tc main_arg23) :=
  (val3_keep V0 main_arg23 (by decide)).trans (val2_main_arg23 V0)
theorem val3_main_arg24 (V0 : Valuation τ sig (Elt F)) : val3 V0 (no_index (Proc.devRef .tc main_arg24)) = V0 (Proc.devRef .tc main_arg24) :=
  (val3_keep V0 main_arg24 (by decide)).trans (val2_main_arg24 V0)
theorem val3_main_arg25 (V0 : Valuation τ sig (Elt F)) : val3 V0 (no_index (Proc.devRef .tc main_arg25)) = V0 (Proc.devRef .tc main_arg25) :=
  (val3_keep V0 main_arg25 (by decide)).trans (val2_main_arg25 V0)
theorem val3_main_arg26 (V0 : Valuation τ sig (Elt F)) : val3 V0 (no_index (Proc.devRef .tc main_arg26)) = V0 (Proc.devRef .tc main_arg26) :=
  (val3_keep V0 main_arg26 (by decide)).trans (val2_main_arg26 V0)
theorem val3_main_v5 (V0 : Valuation τ sig (Elt F)) : val3 V0 (no_index (Proc.devRef .tc main_v5)) = res_main_v5 V0 :=
  (val3_keep V0 main_v5 (by decide)).trans (val2_main_v5 V0)
theorem val3_main_v6 (V0 : Valuation τ sig (Elt F)) : val3 V0 (no_index (Proc.devRef .tc main_v6)) = res_main_v6 V0 :=
  (val3_keep V0 main_v6 (by decide)).trans (val2_main_v6 V0)
theorem val3_main_v33 (V0 : Valuation τ sig (Elt F)) : val3 V0 (no_index (Proc.devRef .tc main_v33)) = res_main_v33 V0 :=
  (val3_keep V0 main_v33 (by decide)).trans (val2_main_v33 V0)
theorem val3_main_v42 (V0 : Valuation τ sig (Elt F)) : val3 V0 (no_index (Proc.devRef .tc main_v42)) = res_main_v42 V0 :=
  (val3_keep V0 main_v42 (by decide)).trans (val2_main_v42 V0)
theorem val3_main_v44 (V0 : Valuation τ sig (Elt F)) : val3 V0 (no_index (Proc.devRef .tc main_v44)) = res_main_v44 V0 :=
  (val3_keep V0 main_v44 (by decide)).trans (val2_main_v44 V0)
theorem val3_main_v46 (V0 : Valuation τ sig (Elt F)) : val3 V0 (no_index (Proc.devRef .tc main_v46)) = res_main_v46 V0 :=
  (val3_keep V0 main_v46 (by decide)).trans (val2_main_v46 V0)
theorem val3_main_v48 (V0 : Valuation τ sig (Elt F)) : val3 V0 (no_index (Proc.devRef .tc main_v48)) = res_main_v48 V0 :=
  (val3_keep V0 main_v48 (by decide)).trans (val2_main_v48 V0)
theorem val3_main_v50 (V0 : Valuation τ sig (Elt F)) : val3 V0 (no_index (Proc.devRef .tc main_v50)) = res_main_v50 V0 :=
  (val3_keep V0 main_v50 (by decide)).trans (val2_main_v50 V0)
theorem val3_main_v52 (V0 : Valuation τ sig (Elt F)) : val3 V0 (no_index (Proc.devRef .tc main_v52)) = res_main_v52 V0 :=
  (val3_keep V0 main_v52 (by decide)).trans (val2_main_v52 V0)
theorem val3_main_v54 (V0 : Valuation τ sig (Elt F)) : val3 V0 (no_index (Proc.devRef .tc main_v54)) = res_main_v54 V0 :=
  (val3_keep V0 main_v54 (by decide)).trans (val2_main_v54 V0)
theorem val3_main_v56 (V0 : Valuation τ sig (Elt F)) : val3 V0 (no_index (Proc.devRef .tc main_v56)) = res_main_v56 V0 :=
  (val3_keep V0 main_v56 (by decide)).trans (val2_main_v56 V0)
theorem val3_main_v58 (V0 : Valuation τ sig (Elt F)) : val3 V0 (no_index (Proc.devRef .tc main_v58)) = res_main_v58 V0 :=
  (val3_keep V0 main_v58 (by decide)).trans (val2_main_v58 V0)
theorem val3_main_v60 (V0 : Valuation τ sig (Elt F)) : val3 V0 (no_index (Proc.devRef .tc main_v60)) = res_main_v60 V0 :=
  (val3_keep V0 main_v60 (by decide)).trans (val2_main_v60 V0)
theorem val3_main_v62 (V0 : Valuation τ sig (Elt F)) : val3 V0 (no_index (Proc.devRef .tc main_v62)) = res_main_v62 V0 :=
  (val3_keep V0 main_v62 (by decide)).trans (val2_main_v62 V0)
theorem val3_main_v64 (V0 : Valuation τ sig (Elt F)) : val3 V0 (no_index (Proc.devRef .tc main_v64)) = res_main_v64 V0 :=
  (val3_keep V0 main_v64 (by decide)).trans (val2_main_v64 V0)
theorem val3_main_v66 (V0 : Valuation τ sig (Elt F)) : val3 V0 (no_index (Proc.devRef .tc main_v66)) = res_main_v66 V0 :=
  (val3_keep V0 main_v66 (by decide)).trans (val2_main_v66 V0)
theorem val3_main_v68 (V0 : Valuation τ sig (Elt F)) : val3 V0 (no_index (Proc.devRef .tc main_v68)) = res_main_v68 V0 :=
  (val3_keep V0 main_v68 (by decide)).trans (val2_main_v68 V0)
theorem val3_main_v70 (V0 : Valuation τ sig (Elt F)) : val3 V0 (no_index (Proc.devRef .tc main_v70)) = res_main_v70 V0 :=
  (val3_keep V0 main_v70 (by decide)).trans (val2_main_v70 V0)
theorem val3_main_v72 (V0 : Valuation τ sig (Elt F)) : val3 V0 (no_index (Proc.devRef .tc main_v72)) = res_main_v72 V0 :=
  (val3_keep V0 main_v72 (by decide)).trans (val2_main_v72 V0)
theorem val3_main_v74 (V0 : Valuation τ sig (Elt F)) : val3 V0 (no_index (Proc.devRef .tc main_v74)) = res_main_v74 V0 :=
  (val3_keep V0 main_v74 (by decide)).trans (val2_main_v74 V0)
theorem val3_main_v76 (V0 : Valuation τ sig (Elt F)) : val3 V0 (no_index (Proc.devRef .tc main_v76)) = res_main_v76 V0 :=
  (val3_keep V0 main_v76 (by decide)).trans (val2_main_v76 V0)
theorem val3_main_v78 (V0 : Valuation τ sig (Elt F)) : val3 V0 (no_index (Proc.devRef .tc main_v78)) = res_main_v78 V0 :=
  (val3_keep V0 main_v78 (by decide)).trans (val2_main_v78 V0)
theorem val3_main_v80 (V0 : Valuation τ sig (Elt F)) : val3 V0 (no_index (Proc.devRef .tc main_v80)) = res_main_v80 V0 :=
  (val3_keep V0 main_v80 (by decide)).trans (val2_main_v80 V0)
theorem val3_main_v82 (V0 : Valuation τ sig (Elt F)) : val3 V0 (no_index (Proc.devRef .tc main_v82)) = res_main_v82 V0 :=
  (val3_keep V0 main_v82 (by decide)).trans (val2_main_v82 V0)
theorem val3_main_v84 (V0 : Valuation τ sig (Elt F)) : val3 V0 (no_index (Proc.devRef .tc main_v84)) = res_main_v84 V0 :=
  (val3_keep V0 main_v84 (by decide)).trans (val2_main_v84 V0)
theorem val3_main_v86 (V0 : Valuation τ sig (Elt F)) : val3 V0 (no_index (Proc.devRef .tc main_v86)) = res_main_v86 V0 :=
  (val3_keep V0 main_v86 (by decide)).trans (val2_main_v86 V0)
theorem val3_main_v88 (V0 : Valuation τ sig (Elt F)) : val3 V0 (no_index (Proc.devRef .tc main_v88)) = res_main_v88 V0 :=
  (val3_keep V0 main_v88 (by decide)).trans (val2_main_v88 V0)
theorem val3_main_v90 (V0 : Valuation τ sig (Elt F)) : val3 V0 (no_index (Proc.devRef .tc main_v90)) = res_main_v90 V0 :=
  (val3_keep V0 main_v90 (by decide)).trans (val2_main_v90 V0)
theorem val3_main_v92 (V0 : Valuation τ sig (Elt F)) : val3 V0 (no_index (Proc.devRef .tc main_v92)) = res_main_v92 V0 :=
  (val3_keep V0 main_v92 (by decide)).trans (val2_main_v92 V0)
theorem val3_main_v94 (V0 : Valuation τ sig (Elt F)) : val3 V0 (no_index (Proc.devRef .tc main_v94)) = res_main_v94 V0 :=
  (val3_keep V0 main_v94 (by decide)).trans (val2_main_v94 V0)
theorem val3_main_v96 (V0 : Valuation τ sig (Elt F)) : val3 V0 (no_index (Proc.devRef .tc main_v96)) = res_main_v96 V0 :=
  (val3_keep V0 main_v96 (by decide)).trans (val2_main_v96 V0)
theorem val3_main_v98 (V0 : Valuation τ sig (Elt F)) : val3 V0 (no_index (Proc.devRef .tc main_v98)) = res_main_v98 V0 :=
  (val3_keep V0 main_v98 (by decide)).trans (val2_main_v98 V0)
theorem val3_main_v100 (V0 : Valuation τ sig (Elt F)) : val3 V0 (no_index (Proc.devRef .tc main_v100)) = res_main_v100 V0 :=
  (val3_keep V0 main_v100 (by decide)).trans (val2_main_v100 V0)
theorem val3_main_v102 (V0 : Valuation τ sig (Elt F)) : val3 V0 (no_index (Proc.devRef .tc main_v102)) = res_main_v102 V0 :=
  (val3_keep V0 main_v102 (by decide)).trans (val2_main_v102 V0)
theorem val3_main_v104 (V0 : Valuation τ sig (Elt F)) : val3 V0 (no_index (Proc.devRef .tc main_v104)) = res_main_v104 V0 :=
  (val3_keep V0 main_v104 (by decide)).trans (val2_main_v104 V0)
theorem val3_main_v154 (V0 : Valuation τ sig (Elt F)) : val3 V0 (no_index (Proc.devRef .tc main_v154)) = res_main_v154 V0 :=
  w2_main_v154 (val2 V0) V0 (val2_main_arg7 V0) (val2_main_arg8 V0) (val2_main_arg16 V0) (val2_main_arg17 V0) (val2_main_v5 V0) (val2_main_v6 V0) (val2_main_v106 V0) (val2_main_v107 V0) (val2_main_v109 V0)
theorem val3_main_v155 (V0 : Valuation τ sig (Elt F)) : val3 V0 (no_index (Proc.devRef .tc main_v155)) = res_main_v155 V0 :=
  w2_main_v155 (val2 V0) V0 (val2_main_v33 V0)
theorem val3_main_v157 (V0 : Valuation τ sig (Elt F)) : val3 V0 (no_index (Proc.devRef .tc main_v157)) = res_main_v157 V0 :=
  w2_main_v157 (val2 V0) V0 (val2_main_v5 V0)
theorem val3_main_v158 (V0 : Valuation τ sig (Elt F)) : val3 V0 (no_index (Proc.devRef .tc main_v158)) = res_main_v158 V0 :=
  w2_main_v158 (val2 V0) V0

/-- The device's buffer contents after @main's first 4 windows. -/
noncomputable def val4 (V0 : Valuation τ sig (Elt F)) : Valuation τ sig (Elt F) := after ops_part3 (val3 V0)
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_arg17 (V0 : Valuation τ sig (Elt F)) : val4 V0 (no_index (Proc.devRef .tc main_arg17)) = V0 (Proc.devRef .tc main_arg17) :=
  (val4_keep V0 main_arg17 (by decide)).trans (val3_main_arg17 V0)
theorem val4_main_arg18 (V0 : Valuation τ sig (Elt F)) : val4 V0 (no_index (Proc.devRef .tc main_arg18)) = V0 (Proc.devRef .tc main_arg18) :=
  (val4_keep V0 main_arg18 (by decide)).trans (val3_main_arg18 V0)
theorem val4_main_arg19 (V0 : Valuation τ sig (Elt F)) : val4 V0 (no_index (Proc.devRef .tc main_arg19)) = V0 (Proc.devRef .tc main_arg19) :=
  (val4_keep V0 main_arg19 (by decide)).trans (val3_main_arg19 V0)
theorem val4_main_arg20 (V0 : Valuation τ sig (Elt F)) : val4 V0 (no_index (Proc.devRef .tc main_arg20)) = V0 (Proc.devRef .tc main_arg20) :=
  (val4_keep V0 main_arg20 (by decide)).trans (val3_main_arg20 V0)
theorem val4_main_arg21 (V0 : Valuation τ sig (Elt F)) : val4 V0 (no_index (Proc.devRef .tc main_arg21)) = V0 (Proc.devRef .tc main_arg21) :=
  (val4_keep V0 main_arg21 (by decide)).trans (val3_main_arg21 V0)
theorem val4_main_arg22 (V0 : Valuation τ sig (Elt F)) : val4 V0 (no_index (Proc.devRef .tc main_arg22)) = V0 (Proc.devRef .tc main_arg22) :=
  (val4_keep V0 main_arg22 (by decide)).trans (val3_main_arg22 V0)
theorem val4_main_arg23 (V0 : Valuation τ sig (Elt F)) : val4 V0 (no_index (Proc.devRef .tc main_arg23)) = V0 (Proc.devRef .tc main_arg23) :=
  (val4_keep V0 main_arg23 (by decide)).trans (val3_main_arg23 V0)
theorem val4_main_arg24 (V0 : Valuation τ sig (Elt F)) : val4 V0 (no_index (Proc.devRef .tc main_arg24)) = V0 (Proc.devRef .tc main_arg24) :=
  (val4_keep V0 main_arg24 (by decide)).trans (val3_main_arg24 V0)
theorem val4_main_arg25 (V0 : Valuation τ sig (Elt F)) : val4 V0 (no_index (Proc.devRef .tc main_arg25)) = V0 (Proc.devRef .tc main_arg25) :=
  (val4_keep V0 main_arg25 (by decide)).trans (val3_main_arg25 V0)
theorem val4_main_arg26 (V0 : Valuation τ sig (Elt F)) : val4 V0 (no_index (Proc.devRef .tc main_arg26)) = V0 (Proc.devRef .tc main_arg26) :=
  (val4_keep V0 main_arg26 (by decide)).trans (val3_main_arg26 V0)
theorem val4_main_v5 (V0 : Valuation τ sig (Elt F)) : val4 V0 (no_index (Proc.devRef .tc main_v5)) = res_main_v5 V0 :=
  (val4_keep V0 main_v5 (by decide)).trans (val3_main_v5 V0)
theorem val4_main_v6 (V0 : Valuation τ sig (Elt F)) : val4 V0 (no_index (Proc.devRef .tc main_v6)) = res_main_v6 V0 :=
  (val4_keep V0 main_v6 (by decide)).trans (val3_main_v6 V0)
theorem val4_main_v33 (V0 : Valuation τ sig (Elt F)) : val4 V0 (no_index (Proc.devRef .tc main_v33)) = res_main_v33 V0 :=
  (val4_keep V0 main_v33 (by decide)).trans (val3_main_v33 V0)
theorem val4_main_v42 (V0 : Valuation τ sig (Elt F)) : val4 V0 (no_index (Proc.devRef .tc main_v42)) = res_main_v42 V0 :=
  (val4_keep V0 main_v42 (by decide)).trans (val3_main_v42 V0)
theorem val4_main_v44 (V0 : Valuation τ sig (Elt F)) : val4 V0 (no_index (Proc.devRef .tc main_v44)) = res_main_v44 V0 :=
  (val4_keep V0 main_v44 (by decide)).trans (val3_main_v44 V0)
theorem val4_main_v46 (V0 : Valuation τ sig (Elt F)) : val4 V0 (no_index (Proc.devRef .tc main_v46)) = res_main_v46 V0 :=
  (val4_keep V0 main_v46 (by decide)).trans (val3_main_v46 V0)
theorem val4_main_v48 (V0 : Valuation τ sig (Elt F)) : val4 V0 (no_index (Proc.devRef .tc main_v48)) = res_main_v48 V0 :=
  (val4_keep V0 main_v48 (by decide)).trans (val3_main_v48 V0)
theorem val4_main_v50 (V0 : Valuation τ sig (Elt F)) : val4 V0 (no_index (Proc.devRef .tc main_v50)) = res_main_v50 V0 :=
  (val4_keep V0 main_v50 (by decide)).trans (val3_main_v50 V0)
theorem val4_main_v52 (V0 : Valuation τ sig (Elt F)) : val4 V0 (no_index (Proc.devRef .tc main_v52)) = res_main_v52 V0 :=
  (val4_keep V0 main_v52 (by decide)).trans (val3_main_v52 V0)
theorem val4_main_v54 (V0 : Valuation τ sig (Elt F)) : val4 V0 (no_index (Proc.devRef .tc main_v54)) = res_main_v54 V0 :=
  (val4_keep V0 main_v54 (by decide)).trans (val3_main_v54 V0)
theorem val4_main_v56 (V0 : Valuation τ sig (Elt F)) : val4 V0 (no_index (Proc.devRef .tc main_v56)) = res_main_v56 V0 :=
  (val4_keep V0 main_v56 (by decide)).trans (val3_main_v56 V0)
theorem val4_main_v58 (V0 : Valuation τ sig (Elt F)) : val4 V0 (no_index (Proc.devRef .tc main_v58)) = res_main_v58 V0 :=
  (val4_keep V0 main_v58 (by decide)).trans (val3_main_v58 V0)
theorem val4_main_v60 (V0 : Valuation τ sig (Elt F)) : val4 V0 (no_index (Proc.devRef .tc main_v60)) = res_main_v60 V0 :=
  (val4_keep V0 main_v60 (by decide)).trans (val3_main_v60 V0)
theorem val4_main_v62 (V0 : Valuation τ sig (Elt F)) : val4 V0 (no_index (Proc.devRef .tc main_v62)) = res_main_v62 V0 :=
  (val4_keep V0 main_v62 (by decide)).trans (val3_main_v62 V0)
theorem val4_main_v64 (V0 : Valuation τ sig (Elt F)) : val4 V0 (no_index (Proc.devRef .tc main_v64)) = res_main_v64 V0 :=
  (val4_keep V0 main_v64 (by decide)).trans (val3_main_v64 V0)
theorem val4_main_v66 (V0 : Valuation τ sig (Elt F)) : val4 V0 (no_index (Proc.devRef .tc main_v66)) = res_main_v66 V0 :=
  (val4_keep V0 main_v66 (by decide)).trans (val3_main_v66 V0)
theorem val4_main_v68 (V0 : Valuation τ sig (Elt F)) : val4 V0 (no_index (Proc.devRef .tc main_v68)) = res_main_v68 V0 :=
  (val4_keep V0 main_v68 (by decide)).trans (val3_main_v68 V0)
theorem val4_main_v70 (V0 : Valuation τ sig (Elt F)) : val4 V0 (no_index (Proc.devRef .tc main_v70)) = res_main_v70 V0 :=
  (val4_keep V0 main_v70 (by decide)).trans (val3_main_v70 V0)
theorem val4_main_v72 (V0 : Valuation τ sig (Elt F)) : val4 V0 (no_index (Proc.devRef .tc main_v72)) = res_main_v72 V0 :=
  (val4_keep V0 main_v72 (by decide)).trans (val3_main_v72 V0)
theorem val4_main_v74 (V0 : Valuation τ sig (Elt F)) : val4 V0 (no_index (Proc.devRef .tc main_v74)) = res_main_v74 V0 :=
  (val4_keep V0 main_v74 (by decide)).trans (val3_main_v74 V0)
theorem val4_main_v76 (V0 : Valuation τ sig (Elt F)) : val4 V0 (no_index (Proc.devRef .tc main_v76)) = res_main_v76 V0 :=
  (val4_keep V0 main_v76 (by decide)).trans (val3_main_v76 V0)
theorem val4_main_v78 (V0 : Valuation τ sig (Elt F)) : val4 V0 (no_index (Proc.devRef .tc main_v78)) = res_main_v78 V0 :=
  (val4_keep V0 main_v78 (by decide)).trans (val3_main_v78 V0)
theorem val4_main_v80 (V0 : Valuation τ sig (Elt F)) : val4 V0 (no_index (Proc.devRef .tc main_v80)) = res_main_v80 V0 :=
  (val4_keep V0 main_v80 (by decide)).trans (val3_main_v80 V0)
theorem val4_main_v82 (V0 : Valuation τ sig (Elt F)) : val4 V0 (no_index (Proc.devRef .tc main_v82)) = res_main_v82 V0 :=
  (val4_keep V0 main_v82 (by decide)).trans (val3_main_v82 V0)
theorem val4_main_v84 (V0 : Valuation τ sig (Elt F)) : val4 V0 (no_index (Proc.devRef .tc main_v84)) = res_main_v84 V0 :=
  (val4_keep V0 main_v84 (by decide)).trans (val3_main_v84 V0)
theorem val4_main_v86 (V0 : Valuation τ sig (Elt F)) : val4 V0 (no_index (Proc.devRef .tc main_v86)) = res_main_v86 V0 :=
  (val4_keep V0 main_v86 (by decide)).trans (val3_main_v86 V0)
theorem val4_main_v88 (V0 : Valuation τ sig (Elt F)) : val4 V0 (no_index (Proc.devRef .tc main_v88)) = res_main_v88 V0 :=
  (val4_keep V0 main_v88 (by decide)).trans (val3_main_v88 V0)
theorem val4_main_v90 (V0 : Valuation τ sig (Elt F)) : val4 V0 (no_index (Proc.devRef .tc main_v90)) = res_main_v90 V0 :=
  (val4_keep V0 main_v90 (by decide)).trans (val3_main_v90 V0)
theorem val4_main_v92 (V0 : Valuation τ sig (Elt F)) : val4 V0 (no_index (Proc.devRef .tc main_v92)) = res_main_v92 V0 :=
  (val4_keep V0 main_v92 (by decide)).trans (val3_main_v92 V0)
theorem val4_main_v94 (V0 : Valuation τ sig (Elt F)) : val4 V0 (no_index (Proc.devRef .tc main_v94)) = res_main_v94 V0 :=
  (val4_keep V0 main_v94 (by decide)).trans (val3_main_v94 V0)
theorem val4_main_v96 (V0 : Valuation τ sig (Elt F)) : val4 V0 (no_index (Proc.devRef .tc main_v96)) = res_main_v96 V0 :=
  (val4_keep V0 main_v96 (by decide)).trans (val3_main_v96 V0)
theorem val4_main_v98 (V0 : Valuation τ sig (Elt F)) : val4 V0 (no_index (Proc.devRef .tc main_v98)) = res_main_v98 V0 :=
  (val4_keep V0 main_v98 (by decide)).trans (val3_main_v98 V0)
theorem val4_main_v100 (V0 : Valuation τ sig (Elt F)) : val4 V0 (no_index (Proc.devRef .tc main_v100)) = res_main_v100 V0 :=
  (val4_keep V0 main_v100 (by decide)).trans (val3_main_v100 V0)
theorem val4_main_v102 (V0 : Valuation τ sig (Elt F)) : val4 V0 (no_index (Proc.devRef .tc main_v102)) = res_main_v102 V0 :=
  (val4_keep V0 main_v102 (by decide)).trans (val3_main_v102 V0)
theorem val4_main_v104 (V0 : Valuation τ sig (Elt F)) : val4 V0 (no_index (Proc.devRef .tc main_v104)) = res_main_v104 V0 :=
  (val4_keep V0 main_v104 (by decide)).trans (val3_main_v104 V0)
theorem val4_main_v202 (V0 : Valuation τ sig (Elt F)) : val4 V0 (no_index (Proc.devRef .tc main_v202)) = res_main_v202 V0 :=
  w3_main_v202 (val3 V0) V0 (val3_main_arg9 V0) (val3_main_arg10 V0) (val3_main_arg18 V0) (val3_main_arg19 V0) (val3_main_v5 V0) (val3_main_v6 V0) (val3_main_v154 V0) (val3_main_v155 V0) (val3_main_v157 V0) (val3_main_v158 V0)
theorem val4_main_v203 (V0 : Valuation τ sig (Elt F)) : val4 V0 (no_index (Proc.devRef .tc main_v203)) = res_main_v203 V0 :=
  w3_main_v203 (val3 V0) V0 (val3_main_v33 V0)
theorem val4_main_v208 (V0 : Valuation τ sig (Elt F)) : val4 V0 (no_index (Proc.devRef .tc main_v208)) = res_main_v208 V0 :=
  w3_main_v208 (val3 V0) V0 (val3_main_v5 V0)

/-- The device's buffer contents after @main's first 5 windows. -/
noncomputable def val5 (V0 : Valuation τ sig (Elt F)) : Valuation τ sig (Elt F) := after ops_part4 (val4 V0)
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)
theorem val5_main_arg17 (V0 : Valuation τ sig (Elt F)) : val5 V0 (no_index (Proc.devRef .tc main_arg17)) = V0 (Proc.devRef .tc main_arg17) :=
  (val5_keep V0 main_arg17 (by decide)).trans (val4_main_arg17 V0)
theorem val5_main_arg18 (V0 : Valuation τ sig (Elt F)) : val5 V0 (no_index (Proc.devRef .tc main_arg18)) = V0 (Proc.devRef .tc main_arg18) :=
  (val5_keep V0 main_arg18 (by decide)).trans (val4_main_arg18 V0)
theorem val5_main_arg19 (V0 : Valuation τ sig (Elt F)) : val5 V0 (no_index (Proc.devRef .tc main_arg19)) = V0 (Proc.devRef .tc main_arg19) :=
  (val5_keep V0 main_arg19 (by decide)).trans (val4_main_arg19 V0)
theorem val5_main_arg20 (V0 : Valuation τ sig (Elt F)) : val5 V0 (no_index (Proc.devRef .tc main_arg20)) = V0 (Proc.devRef .tc main_arg20) :=
  (val5_keep V0 main_arg20 (by decide)).trans (val4_main_arg20 V0)
theorem val5_main_arg21 (V0 : Valuation τ sig (Elt F)) : val5 V0 (no_index (Proc.devRef .tc main_arg21)) = V0 (Proc.devRef .tc main_arg21) :=
  (val5_keep V0 main_arg21 (by decide)).trans (val4_main_arg21 V0)
theorem val5_main_arg22 (V0 : Valuation τ sig (Elt F)) : val5 V0 (no_index (Proc.devRef .tc main_arg22)) = V0 (Proc.devRef .tc main_arg22) :=
  (val5_keep V0 main_arg22 (by decide)).trans (val4_main_arg22 V0)
theorem val5_main_arg23 (V0 : Valuation τ sig (Elt F)) : val5 V0 (no_index (Proc.devRef .tc main_arg23)) = V0 (Proc.devRef .tc main_arg23) :=
  (val5_keep V0 main_arg23 (by decide)).trans (val4_main_arg23 V0)
theorem val5_main_arg24 (V0 : Valuation τ sig (Elt F)) : val5 V0 (no_index (Proc.devRef .tc main_arg24)) = V0 (Proc.devRef .tc main_arg24) :=
  (val5_keep V0 main_arg24 (by decide)).trans (val4_main_arg24 V0)
theorem val5_main_arg25 (V0 : Valuation τ sig (Elt F)) : val5 V0 (no_index (Proc.devRef .tc main_arg25)) = V0 (Proc.devRef .tc main_arg25) :=
  (val5_keep V0 main_arg25 (by decide)).trans (val4_main_arg25 V0)
theorem val5_main_arg26 (V0 : Valuation τ sig (Elt F)) : val5 V0 (no_index (Proc.devRef .tc main_arg26)) = V0 (Proc.devRef .tc main_arg26) :=
  (val5_keep V0 main_arg26 (by decide)).trans (val4_main_arg26 V0)
theorem val5_main_v5 (V0 : Valuation τ sig (Elt F)) : val5 V0 (no_index (Proc.devRef .tc main_v5)) = res_main_v5 V0 :=
  (val5_keep V0 main_v5 (by decide)).trans (val4_main_v5 V0)
theorem val5_main_v6 (V0 : Valuation τ sig (Elt F)) : val5 V0 (no_index (Proc.devRef .tc main_v6)) = res_main_v6 V0 :=
  (val5_keep V0 main_v6 (by decide)).trans (val4_main_v6 V0)
theorem val5_main_v33 (V0 : Valuation τ sig (Elt F)) : val5 V0 (no_index (Proc.devRef .tc main_v33)) = res_main_v33 V0 :=
  (val5_keep V0 main_v33 (by decide)).trans (val4_main_v33 V0)
theorem val5_main_v44 (V0 : Valuation τ sig (Elt F)) : val5 V0 (no_index (Proc.devRef .tc main_v44)) = res_main_v44 V0 :=
  (val5_keep V0 main_v44 (by decide)).trans (val4_main_v44 V0)
theorem val5_main_v46 (V0 : Valuation τ sig (Elt F)) : val5 V0 (no_index (Proc.devRef .tc main_v46)) = res_main_v46 V0 :=
  (val5_keep V0 main_v46 (by decide)).trans (val4_main_v46 V0)
theorem val5_main_v48 (V0 : Valuation τ sig (Elt F)) : val5 V0 (no_index (Proc.devRef .tc main_v48)) = res_main_v48 V0 :=
  (val5_keep V0 main_v48 (by decide)).trans (val4_main_v48 V0)
theorem val5_main_v50 (V0 : Valuation τ sig (Elt F)) : val5 V0 (no_index (Proc.devRef .tc main_v50)) = res_main_v50 V0 :=
  (val5_keep V0 main_v50 (by decide)).trans (val4_main_v50 V0)
theorem val5_main_v52 (V0 : Valuation τ sig (Elt F)) : val5 V0 (no_index (Proc.devRef .tc main_v52)) = res_main_v52 V0 :=
  (val5_keep V0 main_v52 (by decide)).trans (val4_main_v52 V0)
theorem val5_main_v54 (V0 : Valuation τ sig (Elt F)) : val5 V0 (no_index (Proc.devRef .tc main_v54)) = res_main_v54 V0 :=
  (val5_keep V0 main_v54 (by decide)).trans (val4_main_v54 V0)
theorem val5_main_v56 (V0 : Valuation τ sig (Elt F)) : val5 V0 (no_index (Proc.devRef .tc main_v56)) = res_main_v56 V0 :=
  (val5_keep V0 main_v56 (by decide)).trans (val4_main_v56 V0)
theorem val5_main_v58 (V0 : Valuation τ sig (Elt F)) : val5 V0 (no_index (Proc.devRef .tc main_v58)) = res_main_v58 V0 :=
  (val5_keep V0 main_v58 (by decide)).trans (val4_main_v58 V0)
theorem val5_main_v60 (V0 : Valuation τ sig (Elt F)) : val5 V0 (no_index (Proc.devRef .tc main_v60)) = res_main_v60 V0 :=
  (val5_keep V0 main_v60 (by decide)).trans (val4_main_v60 V0)
theorem val5_main_v62 (V0 : Valuation τ sig (Elt F)) : val5 V0 (no_index (Proc.devRef .tc main_v62)) = res_main_v62 V0 :=
  (val5_keep V0 main_v62 (by decide)).trans (val4_main_v62 V0)
theorem val5_main_v64 (V0 : Valuation τ sig (Elt F)) : val5 V0 (no_index (Proc.devRef .tc main_v64)) = res_main_v64 V0 :=
  (val5_keep V0 main_v64 (by decide)).trans (val4_main_v64 V0)
theorem val5_main_v66 (V0 : Valuation τ sig (Elt F)) : val5 V0 (no_index (Proc.devRef .tc main_v66)) = res_main_v66 V0 :=
  (val5_keep V0 main_v66 (by decide)).trans (val4_main_v66 V0)
theorem val5_main_v68 (V0 : Valuation τ sig (Elt F)) : val5 V0 (no_index (Proc.devRef .tc main_v68)) = res_main_v68 V0 :=
  (val5_keep V0 main_v68 (by decide)).trans (val4_main_v68 V0)
theorem val5_main_v70 (V0 : Valuation τ sig (Elt F)) : val5 V0 (no_index (Proc.devRef .tc main_v70)) = res_main_v70 V0 :=
  (val5_keep V0 main_v70 (by decide)).trans (val4_main_v70 V0)
theorem val5_main_v72 (V0 : Valuation τ sig (Elt F)) : val5 V0 (no_index (Proc.devRef .tc main_v72)) = res_main_v72 V0 :=
  (val5_keep V0 main_v72 (by decide)).trans (val4_main_v72 V0)
theorem val5_main_v74 (V0 : Valuation τ sig (Elt F)) : val5 V0 (no_index (Proc.devRef .tc main_v74)) = res_main_v74 V0 :=
  (val5_keep V0 main_v74 (by decide)).trans (val4_main_v74 V0)
theorem val5_main_v76 (V0 : Valuation τ sig (Elt F)) : val5 V0 (no_index (Proc.devRef .tc main_v76)) = res_main_v76 V0 :=
  (val5_keep V0 main_v76 (by decide)).trans (val4_main_v76 V0)
theorem val5_main_v78 (V0 : Valuation τ sig (Elt F)) : val5 V0 (no_index (Proc.devRef .tc main_v78)) = res_main_v78 V0 :=
  (val5_keep V0 main_v78 (by decide)).trans (val4_main_v78 V0)
theorem val5_main_v80 (V0 : Valuation τ sig (Elt F)) : val5 V0 (no_index (Proc.devRef .tc main_v80)) = res_main_v80 V0 :=
  (val5_keep V0 main_v80 (by decide)).trans (val4_main_v80 V0)
theorem val5_main_v82 (V0 : Valuation τ sig (Elt F)) : val5 V0 (no_index (Proc.devRef .tc main_v82)) = res_main_v82 V0 :=
  (val5_keep V0 main_v82 (by decide)).trans (val4_main_v82 V0)
theorem val5_main_v84 (V0 : Valuation τ sig (Elt F)) : val5 V0 (no_index (Proc.devRef .tc main_v84)) = res_main_v84 V0 :=
  (val5_keep V0 main_v84 (by decide)).trans (val4_main_v84 V0)
theorem val5_main_v86 (V0 : Valuation τ sig (Elt F)) : val5 V0 (no_index (Proc.devRef .tc main_v86)) = res_main_v86 V0 :=
  (val5_keep V0 main_v86 (by decide)).trans (val4_main_v86 V0)
theorem val5_main_v88 (V0 : Valuation τ sig (Elt F)) : val5 V0 (no_index (Proc.devRef .tc main_v88)) = res_main_v88 V0 :=
  (val5_keep V0 main_v88 (by decide)).trans (val4_main_v88 V0)
theorem val5_main_v90 (V0 : Valuation τ sig (Elt F)) : val5 V0 (no_index (Proc.devRef .tc main_v90)) = res_main_v90 V0 :=
  (val5_keep V0 main_v90 (by decide)).trans (val4_main_v90 V0)
theorem val5_main_v92 (V0 : Valuation τ sig (Elt F)) : val5 V0 (no_index (Proc.devRef .tc main_v92)) = res_main_v92 V0 :=
  (val5_keep V0 main_v92 (by decide)).trans (val4_main_v92 V0)
theorem val5_main_v94 (V0 : Valuation τ sig (Elt F)) : val5 V0 (no_index (Proc.devRef .tc main_v94)) = res_main_v94 V0 :=
  (val5_keep V0 main_v94 (by decide)).trans (val4_main_v94 V0)
theorem val5_main_v96 (V0 : Valuation τ sig (Elt F)) : val5 V0 (no_index (Proc.devRef .tc main_v96)) = res_main_v96 V0 :=
  (val5_keep V0 main_v96 (by decide)).trans (val4_main_v96 V0)
theorem val5_main_v98 (V0 : Valuation τ sig (Elt F)) : val5 V0 (no_index (Proc.devRef .tc main_v98)) = res_main_v98 V0 :=
  (val5_keep V0 main_v98 (by decide)).trans (val4_main_v98 V0)
theorem val5_main_v100 (V0 : Valuation τ sig (Elt F)) : val5 V0 (no_index (Proc.devRef .tc main_v100)) = res_main_v100 V0 :=
  (val5_keep V0 main_v100 (by decide)).trans (val4_main_v100 V0)
theorem val5_main_v102 (V0 : Valuation τ sig (Elt F)) : val5 V0 (no_index (Proc.devRef .tc main_v102)) = res_main_v102 V0 :=
  (val5_keep V0 main_v102 (by decide)).trans (val4_main_v102 V0)
theorem val5_main_v104 (V0 : Valuation τ sig (Elt F)) : val5 V0 (no_index (Proc.devRef .tc main_v104)) = res_main_v104 V0 :=
  (val5_keep V0 main_v104 (by decide)).trans (val4_main_v104 V0)
theorem val5_main_v218 (V0 : Valuation τ sig (Elt F)) : val5 V0 (no_index (Proc.devRef .tc main_v218)) = res_main_v218 V0 :=
  w4_main_v218 (val4 V0) V0 (val4_main_arg11 V0) (val4_main_v6 V0) (val4_main_v202 V0) (val4_main_v203 V0) (val4_main_v208 V0)
theorem val5_main_v251 (V0 : Valuation τ sig (Elt F)) : val5 V0 (no_index (Proc.devRef .tc main_v251)) = res_main_v251 V0 :=
  w4_main_v251 (val4 V0) V0 (val4_main_v33 V0)
theorem val5_main_v258 (V0 : Valuation τ sig (Elt F)) : val5 V0 (no_index (Proc.devRef .tc main_v258)) = res_main_v258 V0 :=
  w4_main_v258 (val4 V0) V0 (val4_main_arg11 V0) (val4_main_arg20 V0) (val4_main_arg21 V0) (val4_main_v5 V0) (val4_main_v6 V0) (val4_main_v42 V0) (val4_main_v202 V0) (val4_main_v203 V0) (val4_main_v208 V0)

/-- The device's buffer contents after @main's first 6 windows. -/
noncomputable def val6 (V0 : Valuation τ sig (Elt F)) : Valuation τ sig (Elt F) := after ops_part5 (val5 V0)
/-- A buffer that window `main_part5` does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)
theorem val6_main_arg17 (V0 : Valuation τ sig (Elt F)) : val6 V0 (no_index (Proc.devRef .tc main_arg17)) = V0 (Proc.devRef .tc main_arg17) :=
  (val6_keep V0 main_arg17 (by decide)).trans (val5_main_arg17 V0)
theorem val6_main_arg18 (V0 : Valuation τ sig (Elt F)) : val6 V0 (no_index (Proc.devRef .tc main_arg18)) = V0 (Proc.devRef .tc main_arg18) :=
  (val6_keep V0 main_arg18 (by decide)).trans (val5_main_arg18 V0)
theorem val6_main_arg19 (V0 : Valuation τ sig (Elt F)) : val6 V0 (no_index (Proc.devRef .tc main_arg19)) = V0 (Proc.devRef .tc main_arg19) :=
  (val6_keep V0 main_arg19 (by decide)).trans (val5_main_arg19 V0)
theorem val6_main_arg20 (V0 : Valuation τ sig (Elt F)) : val6 V0 (no_index (Proc.devRef .tc main_arg20)) = V0 (Proc.devRef .tc main_arg20) :=
  (val6_keep V0 main_arg20 (by decide)).trans (val5_main_arg20 V0)
theorem val6_main_arg21 (V0 : Valuation τ sig (Elt F)) : val6 V0 (no_index (Proc.devRef .tc main_arg21)) = V0 (Proc.devRef .tc main_arg21) :=
  (val6_keep V0 main_arg21 (by decide)).trans (val5_main_arg21 V0)
theorem val6_main_arg22 (V0 : Valuation τ sig (Elt F)) : val6 V0 (no_index (Proc.devRef .tc main_arg22)) = V0 (Proc.devRef .tc main_arg22) :=
  (val6_keep V0 main_arg22 (by decide)).trans (val5_main_arg22 V0)
theorem val6_main_arg23 (V0 : Valuation τ sig (Elt F)) : val6 V0 (no_index (Proc.devRef .tc main_arg23)) = V0 (Proc.devRef .tc main_arg23) :=
  (val6_keep V0 main_arg23 (by decide)).trans (val5_main_arg23 V0)
theorem val6_main_arg24 (V0 : Valuation τ sig (Elt F)) : val6 V0 (no_index (Proc.devRef .tc main_arg24)) = V0 (Proc.devRef .tc main_arg24) :=
  (val6_keep V0 main_arg24 (by decide)).trans (val5_main_arg24 V0)
theorem val6_main_arg25 (V0 : Valuation τ sig (Elt F)) : val6 V0 (no_index (Proc.devRef .tc main_arg25)) = V0 (Proc.devRef .tc main_arg25) :=
  (val6_keep V0 main_arg25 (by decide)).trans (val5_main_arg25 V0)
theorem val6_main_arg26 (V0 : Valuation τ sig (Elt F)) : val6 V0 (no_index (Proc.devRef .tc main_arg26)) = V0 (Proc.devRef .tc main_arg26) :=
  (val6_keep V0 main_arg26 (by decide)).trans (val5_main_arg26 V0)
theorem val6_main_v5 (V0 : Valuation τ sig (Elt F)) : val6 V0 (no_index (Proc.devRef .tc main_v5)) = res_main_v5 V0 :=
  (val6_keep V0 main_v5 (by decide)).trans (val5_main_v5 V0)
theorem val6_main_v6 (V0 : Valuation τ sig (Elt F)) : val6 V0 (no_index (Proc.devRef .tc main_v6)) = res_main_v6 V0 :=
  (val6_keep V0 main_v6 (by decide)).trans (val5_main_v6 V0)
theorem val6_main_v33 (V0 : Valuation τ sig (Elt F)) : val6 V0 (no_index (Proc.devRef .tc main_v33)) = res_main_v33 V0 :=
  (val6_keep V0 main_v33 (by decide)).trans (val5_main_v33 V0)
theorem val6_main_v48 (V0 : Valuation τ sig (Elt F)) : val6 V0 (no_index (Proc.devRef .tc main_v48)) = res_main_v48 V0 :=
  (val6_keep V0 main_v48 (by decide)).trans (val5_main_v48 V0)
theorem val6_main_v50 (V0 : Valuation τ sig (Elt F)) : val6 V0 (no_index (Proc.devRef .tc main_v50)) = res_main_v50 V0 :=
  (val6_keep V0 main_v50 (by decide)).trans (val5_main_v50 V0)
theorem val6_main_v52 (V0 : Valuation τ sig (Elt F)) : val6 V0 (no_index (Proc.devRef .tc main_v52)) = res_main_v52 V0 :=
  (val6_keep V0 main_v52 (by decide)).trans (val5_main_v52 V0)
theorem val6_main_v54 (V0 : Valuation τ sig (Elt F)) : val6 V0 (no_index (Proc.devRef .tc main_v54)) = res_main_v54 V0 :=
  (val6_keep V0 main_v54 (by decide)).trans (val5_main_v54 V0)
theorem val6_main_v56 (V0 : Valuation τ sig (Elt F)) : val6 V0 (no_index (Proc.devRef .tc main_v56)) = res_main_v56 V0 :=
  (val6_keep V0 main_v56 (by decide)).trans (val5_main_v56 V0)
theorem val6_main_v58 (V0 : Valuation τ sig (Elt F)) : val6 V0 (no_index (Proc.devRef .tc main_v58)) = res_main_v58 V0 :=
  (val6_keep V0 main_v58 (by decide)).trans (val5_main_v58 V0)
theorem val6_main_v60 (V0 : Valuation τ sig (Elt F)) : val6 V0 (no_index (Proc.devRef .tc main_v60)) = res_main_v60 V0 :=
  (val6_keep V0 main_v60 (by decide)).trans (val5_main_v60 V0)
theorem val6_main_v62 (V0 : Valuation τ sig (Elt F)) : val6 V0 (no_index (Proc.devRef .tc main_v62)) = res_main_v62 V0 :=
  (val6_keep V0 main_v62 (by decide)).trans (val5_main_v62 V0)
theorem val6_main_v64 (V0 : Valuation τ sig (Elt F)) : val6 V0 (no_index (Proc.devRef .tc main_v64)) = res_main_v64 V0 :=
  (val6_keep V0 main_v64 (by decide)).trans (val5_main_v64 V0)
theorem val6_main_v66 (V0 : Valuation τ sig (Elt F)) : val6 V0 (no_index (Proc.devRef .tc main_v66)) = res_main_v66 V0 :=
  (val6_keep V0 main_v66 (by decide)).trans (val5_main_v66 V0)
theorem val6_main_v68 (V0 : Valuation τ sig (Elt F)) : val6 V0 (no_index (Proc.devRef .tc main_v68)) = res_main_v68 V0 :=
  (val6_keep V0 main_v68 (by decide)).trans (val5_main_v68 V0)
theorem val6_main_v70 (V0 : Valuation τ sig (Elt F)) : val6 V0 (no_index (Proc.devRef .tc main_v70)) = res_main_v70 V0 :=
  (val6_keep V0 main_v70 (by decide)).trans (val5_main_v70 V0)
theorem val6_main_v72 (V0 : Valuation τ sig (Elt F)) : val6 V0 (no_index (Proc.devRef .tc main_v72)) = res_main_v72 V0 :=
  (val6_keep V0 main_v72 (by decide)).trans (val5_main_v72 V0)
theorem val6_main_v78 (V0 : Valuation τ sig (Elt F)) : val6 V0 (no_index (Proc.devRef .tc main_v78)) = res_main_v78 V0 :=
  (val6_keep V0 main_v78 (by decide)).trans (val5_main_v78 V0)
theorem val6_main_v80 (V0 : Valuation τ sig (Elt F)) : val6 V0 (no_index (Proc.devRef .tc main_v80)) = res_main_v80 V0 :=
  (val6_keep V0 main_v80 (by decide)).trans (val5_main_v80 V0)
theorem val6_main_v82 (V0 : Valuation τ sig (Elt F)) : val6 V0 (no_index (Proc.devRef .tc main_v82)) = res_main_v82 V0 :=
  (val6_keep V0 main_v82 (by decide)).trans (val5_main_v82 V0)
theorem val6_main_v84 (V0 : Valuation τ sig (Elt F)) : val6 V0 (no_index (Proc.devRef .tc main_v84)) = res_main_v84 V0 :=
  (val6_keep V0 main_v84 (by decide)).trans (val5_main_v84 V0)
theorem val6_main_v86 (V0 : Valuation τ sig (Elt F)) : val6 V0 (no_index (Proc.devRef .tc main_v86)) = res_main_v86 V0 :=
  (val6_keep V0 main_v86 (by decide)).trans (val5_main_v86 V0)
theorem val6_main_v88 (V0 : Valuation τ sig (Elt F)) : val6 V0 (no_index (Proc.devRef .tc main_v88)) = res_main_v88 V0 :=
  (val6_keep V0 main_v88 (by decide)).trans (val5_main_v88 V0)
theorem val6_main_v90 (V0 : Valuation τ sig (Elt F)) : val6 V0 (no_index (Proc.devRef .tc main_v90)) = res_main_v90 V0 :=
  (val6_keep V0 main_v90 (by decide)).trans (val5_main_v90 V0)
theorem val6_main_v92 (V0 : Valuation τ sig (Elt F)) : val6 V0 (no_index (Proc.devRef .tc main_v92)) = res_main_v92 V0 :=
  (val6_keep V0 main_v92 (by decide)).trans (val5_main_v92 V0)
theorem val6_main_v94 (V0 : Valuation τ sig (Elt F)) : val6 V0 (no_index (Proc.devRef .tc main_v94)) = res_main_v94 V0 :=
  (val6_keep V0 main_v94 (by decide)).trans (val5_main_v94 V0)
theorem val6_main_v96 (V0 : Valuation τ sig (Elt F)) : val6 V0 (no_index (Proc.devRef .tc main_v96)) = res_main_v96 V0 :=
  (val6_keep V0 main_v96 (by decide)).trans (val5_main_v96 V0)
theorem val6_main_v98 (V0 : Valuation τ sig (Elt F)) : val6 V0 (no_index (Proc.devRef .tc main_v98)) = res_main_v98 V0 :=
  (val6_keep V0 main_v98 (by decide)).trans (val5_main_v98 V0)
theorem val6_main_v100 (V0 : Valuation τ sig (Elt F)) : val6 V0 (no_index (Proc.devRef .tc main_v100)) = res_main_v100 V0 :=
  (val6_keep V0 main_v100 (by decide)).trans (val5_main_v100 V0)
theorem val6_main_v102 (V0 : Valuation τ sig (Elt F)) : val6 V0 (no_index (Proc.devRef .tc main_v102)) = res_main_v102 V0 :=
  (val6_keep V0 main_v102 (by decide)).trans (val5_main_v102 V0)
theorem val6_main_v104 (V0 : Valuation τ sig (Elt F)) : val6 V0 (no_index (Proc.devRef .tc main_v104)) = res_main_v104 V0 :=
  (val6_keep V0 main_v104 (by decide)).trans (val5_main_v104 V0)
theorem val6_main_v218 (V0 : Valuation τ sig (Elt F)) : val6 V0 (no_index (Proc.devRef .tc main_v218)) = res_main_v218 V0 :=
  (val6_keep V0 main_v218 (by decide)).trans (val5_main_v218 V0)
theorem val6_main_v266 (V0 : Valuation τ sig (Elt F)) : val6 V0 (no_index (Proc.devRef .tc main_v266)) = res_main_v266 V0 :=
  w5_main_v266 (val5 V0) V0 (val5_main_v6 V0) (val5_main_v44 V0) (val5_main_v251 V0) (val5_main_v258 V0)
theorem val6_main_v307 (V0 : Valuation τ sig (Elt F)) : val6 V0 (no_index (Proc.devRef .tc main_v307)) = res_main_v307 V0 :=
  w5_main_v307 (val5 V0) V0 (val5_main_v5 V0) (val5_main_v6 V0) (val5_main_v44 V0) (val5_main_v46 V0) (val5_main_v74 V0) (val5_main_v76 V0) (val5_main_v218 V0) (val5_main_v251 V0) (val5_main_v258 V0)
theorem val6_main_v308 (V0 : Valuation τ sig (Elt F)) : val6 V0 (no_index (Proc.devRef .tc main_v308)) = res_main_v308 V0 :=
  w5_main_v308 (val5 V0) V0 (val5_main_v33 V0)

/-- The device's buffer contents after @main's first 7 windows. -/
noncomputable def val7 (V0 : Valuation τ sig (Elt F)) : Valuation τ sig (Elt F) := after ops_part6 (val6 V0)
/-- A buffer that window `main_part6` does not write keeps its contents through it. -/
theorem val7_keep (V0 : Valuation τ sig (Elt F)) (r : Ref sig .tc) (h : r ∉ ops_part6_W) :
    val7 V0 (Proc.devRef .tc r) = val6 V0 (Proc.devRef .tc r) :=
  after_of_writes_sub ops_part6 _ ops_part6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_arg16 (V0 : Valuation τ sig (Elt F)) : val7 V0 (no_index (Proc.devRef .tc main_arg16)) = V0 (Proc.devRef .tc main_arg16) :=
  (val7_keep V0 main_arg16 (by decide)).trans (val6_main_arg16 V0)
theorem val7_main_arg17 (V0 : Valuation τ sig (Elt F)) : val7 V0 (no_index (Proc.devRef .tc main_arg17)) = V0 (Proc.devRef .tc main_arg17) :=
  (val7_keep V0 main_arg17 (by decide)).trans (val6_main_arg17 V0)
theorem val7_main_arg18 (V0 : Valuation τ sig (Elt F)) : val7 V0 (no_index (Proc.devRef .tc main_arg18)) = V0 (Proc.devRef .tc main_arg18) :=
  (val7_keep V0 main_arg18 (by decide)).trans (val6_main_arg18 V0)
theorem val7_main_arg19 (V0 : Valuation τ sig (Elt F)) : val7 V0 (no_index (Proc.devRef .tc main_arg19)) = V0 (Proc.devRef .tc main_arg19) :=
  (val7_keep V0 main_arg19 (by decide)).trans (val6_main_arg19 V0)
theorem val7_main_arg20 (V0 : Valuation τ sig (Elt F)) : val7 V0 (no_index (Proc.devRef .tc main_arg20)) = V0 (Proc.devRef .tc main_arg20) :=
  (val7_keep V0 main_arg20 (by decide)).trans (val6_main_arg20 V0)
theorem val7_main_arg21 (V0 : Valuation τ sig (Elt F)) : val7 V0 (no_index (Proc.devRef .tc main_arg21)) = V0 (Proc.devRef .tc main_arg21) :=
  (val7_keep V0 main_arg21 (by decide)).trans (val6_main_arg21 V0)
theorem val7_main_arg22 (V0 : Valuation τ sig (Elt F)) : val7 V0 (no_index (Proc.devRef .tc main_arg22)) = V0 (Proc.devRef .tc main_arg22) :=
  (val7_keep V0 main_arg22 (by decide)).trans (val6_main_arg22 V0)
theorem val7_main_arg23 (V0 : Valuation τ sig (Elt F)) : val7 V0 (no_index (Proc.devRef .tc main_arg23)) = V0 (Proc.devRef .tc main_arg23) :=
  (val7_keep V0 main_arg23 (by decide)).trans (val6_main_arg23 V0)
theorem val7_main_arg24 (V0 : Valuation τ sig (Elt F)) : val7 V0 (no_index (Proc.devRef .tc main_arg24)) = V0 (Proc.devRef .tc main_arg24) :=
  (val7_keep V0 main_arg24 (by decide)).trans (val6_main_arg24 V0)
theorem val7_main_arg25 (V0 : Valuation τ sig (Elt F)) : val7 V0 (no_index (Proc.devRef .tc main_arg25)) = V0 (Proc.devRef .tc main_arg25) :=
  (val7_keep V0 main_arg25 (by decide)).trans (val6_main_arg25 V0)
theorem val7_main_arg26 (V0 : Valuation τ sig (Elt F)) : val7 V0 (no_index (Proc.devRef .tc main_arg26)) = V0 (Proc.devRef .tc main_arg26) :=
  (val7_keep V0 main_arg26 (by decide)).trans (val6_main_arg26 V0)
theorem val7_main_v5 (V0 : Valuation τ sig (Elt F)) : val7 V0 (no_index (Proc.devRef .tc main_v5)) = res_main_v5 V0 :=
  (val7_keep V0 main_v5 (by decide)).trans (val6_main_v5 V0)
theorem val7_main_v6 (V0 : Valuation τ sig (Elt F)) : val7 V0 (no_index (Proc.devRef .tc main_v6)) = res_main_v6 V0 :=
  (val7_keep V0 main_v6 (by decide)).trans (val6_main_v6 V0)
theorem val7_main_v33 (V0 : Valuation τ sig (Elt F)) : val7 V0 (no_index (Proc.devRef .tc main_v33)) = res_main_v33 V0 :=
  (val7_keep V0 main_v33 (by decide)).trans (val6_main_v33 V0)
theorem val7_main_v52 (V0 : Valuation τ sig (Elt F)) : val7 V0 (no_index (Proc.devRef .tc main_v52)) = res_main_v52 V0 :=
  (val7_keep V0 main_v52 (by decide)).trans (val6_main_v52 V0)
theorem val7_main_v54 (V0 : Valuation τ sig (Elt F)) : val7 V0 (no_index (Proc.devRef .tc main_v54)) = res_main_v54 V0 :=
  (val7_keep V0 main_v54 (by decide)).trans (val6_main_v54 V0)
theorem val7_main_v56 (V0 : Valuation τ sig (Elt F)) : val7 V0 (no_index (Proc.devRef .tc main_v56)) = res_main_v56 V0 :=
  (val7_keep V0 main_v56 (by decide)).trans (val6_main_v56 V0)
theorem val7_main_v58 (V0 : Valuation τ sig (Elt F)) : val7 V0 (no_index (Proc.devRef .tc main_v58)) = res_main_v58 V0 :=
  (val7_keep V0 main_v58 (by decide)).trans (val6_main_v58 V0)
theorem val7_main_v60 (V0 : Valuation τ sig (Elt F)) : val7 V0 (no_index (Proc.devRef .tc main_v60)) = res_main_v60 V0 :=
  (val7_keep V0 main_v60 (by decide)).trans (val6_main_v60 V0)
theorem val7_main_v62 (V0 : Valuation τ sig (Elt F)) : val7 V0 (no_index (Proc.devRef .tc main_v62)) = res_main_v62 V0 :=
  (val7_keep V0 main_v62 (by decide)).trans (val6_main_v62 V0)
theorem val7_main_v64 (V0 : Valuation τ sig (Elt F)) : val7 V0 (no_index (Proc.devRef .tc main_v64)) = res_main_v64 V0 :=
  (val7_keep V0 main_v64 (by decide)).trans (val6_main_v64 V0)
theorem val7_main_v66 (V0 : Valuation τ sig (Elt F)) : val7 V0 (no_index (Proc.devRef .tc main_v66)) = res_main_v66 V0 :=
  (val7_keep V0 main_v66 (by decide)).trans (val6_main_v66 V0)
theorem val7_main_v68 (V0 : Valuation τ sig (Elt F)) : val7 V0 (no_index (Proc.devRef .tc main_v68)) = res_main_v68 V0 :=
  (val7_keep V0 main_v68 (by decide)).trans (val6_main_v68 V0)
theorem val7_main_v70 (V0 : Valuation τ sig (Elt F)) : val7 V0 (no_index (Proc.devRef .tc main_v70)) = res_main_v70 V0 :=
  (val7_keep V0 main_v70 (by decide)).trans (val6_main_v70 V0)
theorem val7_main_v72 (V0 : Valuation τ sig (Elt F)) : val7 V0 (no_index (Proc.devRef .tc main_v72)) = res_main_v72 V0 :=
  (val7_keep V0 main_v72 (by decide)).trans (val6_main_v72 V0)
theorem val7_main_v82 (V0 : Valuation τ sig (Elt F)) : val7 V0 (no_index (Proc.devRef .tc main_v82)) = res_main_v82 V0 :=
  (val7_keep V0 main_v82 (by decide)).trans (val6_main_v82 V0)
theorem val7_main_v84 (V0 : Valuation τ sig (Elt F)) : val7 V0 (no_index (Proc.devRef .tc main_v84)) = res_main_v84 V0 :=
  (val7_keep V0 main_v84 (by decide)).trans (val6_main_v84 V0)
theorem val7_main_v86 (V0 : Valuation τ sig (Elt F)) : val7 V0 (no_index (Proc.devRef .tc main_v86)) = res_main_v86 V0 :=
  (val7_keep V0 main_v86 (by decide)).trans (val6_main_v86 V0)
theorem val7_main_v88 (V0 : Valuation τ sig (Elt F)) : val7 V0 (no_index (Proc.devRef .tc main_v88)) = res_main_v88 V0 :=
  (val7_keep V0 main_v88 (by decide)).trans (val6_main_v88 V0)
theorem val7_main_v90 (V0 : Valuation τ sig (Elt F)) : val7 V0 (no_index (Proc.devRef .tc main_v90)) = res_main_v90 V0 :=
  (val7_keep V0 main_v90 (by decide)).trans (val6_main_v90 V0)
theorem val7_main_v92 (V0 : Valuation τ sig (Elt F)) : val7 V0 (no_index (Proc.devRef .tc main_v92)) = res_main_v92 V0 :=
  (val7_keep V0 main_v92 (by decide)).trans (val6_main_v92 V0)
theorem val7_main_v94 (V0 : Valuation τ sig (Elt F)) : val7 V0 (no_index (Proc.devRef .tc main_v94)) = res_main_v94 V0 :=
  (val7_keep V0 main_v94 (by decide)).trans (val6_main_v94 V0)
theorem val7_main_v96 (V0 : Valuation τ sig (Elt F)) : val7 V0 (no_index (Proc.devRef .tc main_v96)) = res_main_v96 V0 :=
  (val7_keep V0 main_v96 (by decide)).trans (val6_main_v96 V0)
theorem val7_main_v98 (V0 : Valuation τ sig (Elt F)) : val7 V0 (no_index (Proc.devRef .tc main_v98)) = res_main_v98 V0 :=
  (val7_keep V0 main_v98 (by decide)).trans (val6_main_v98 V0)
theorem val7_main_v100 (V0 : Valuation τ sig (Elt F)) : val7 V0 (no_index (Proc.devRef .tc main_v100)) = res_main_v100 V0 :=
  (val7_keep V0 main_v100 (by decide)).trans (val6_main_v100 V0)
theorem val7_main_v102 (V0 : Valuation τ sig (Elt F)) : val7 V0 (no_index (Proc.devRef .tc main_v102)) = res_main_v102 V0 :=
  (val7_keep V0 main_v102 (by decide)).trans (val6_main_v102 V0)
theorem val7_main_v104 (V0 : Valuation τ sig (Elt F)) : val7 V0 (no_index (Proc.devRef .tc main_v104)) = res_main_v104 V0 :=
  (val7_keep V0 main_v104 (by decide)).trans (val6_main_v104 V0)
theorem val7_main_v218 (V0 : Valuation τ sig (Elt F)) : val7 V0 (no_index (Proc.devRef .tc main_v218)) = res_main_v218 V0 :=
  (val7_keep V0 main_v218 (by decide)).trans (val6_main_v218 V0)
theorem val7_main_v266 (V0 : Valuation τ sig (Elt F)) : val7 V0 (no_index (Proc.devRef .tc main_v266)) = res_main_v266 V0 :=
  (val7_keep V0 main_v266 (by decide)).trans (val6_main_v266 V0)
theorem val7_main_v315 (V0 : Valuation τ sig (Elt F)) : val7 V0 (no_index (Proc.devRef .tc main_v315)) = res_main_v315 V0 :=
  w6_main_v315 (val6 V0) V0 (val6_main_v6 V0) (val6_main_v48 V0) (val6_main_v307 V0) (val6_main_v308 V0)
theorem val7_main_v357 (V0 : Valuation τ sig (Elt F)) : val7 V0 (no_index (Proc.devRef .tc main_v357)) = res_main_v357 V0 :=
  w6_main_v357 (val6 V0) V0 (val6_main_v5 V0) (val6_main_v6 V0) (val6_main_v48 V0) (val6_main_v50 V0) (val6_main_v78 V0) (val6_main_v80 V0) (val6_main_v218 V0) (val6_main_v266 V0) (val6_main_v307 V0) (val6_main_v308 V0)
theorem val7_main_v358 (V0 : Valuation τ sig (Elt F)) : val7 V0 (no_index (Proc.devRef .tc main_v358)) = res_main_v358 V0 :=
  w6_main_v358 (val6 V0) V0 (val6_main_v33 V0)

/-- The device's buffer contents after @main's first 8 windows. -/
noncomputable def val8 (V0 : Valuation τ sig (Elt F)) : Valuation τ sig (Elt F) := after ops_part7 (val7 V0)
/-- A buffer that window `main_part7` does not write keeps its contents through it. -/
theorem val8_keep (V0 : Valuation τ sig (Elt F)) (r : Ref sig .tc) (h : r ∉ ops_part7_W) :
    val8 V0 (Proc.devRef .tc r) = val7 V0 (Proc.devRef .tc r) :=
  after_of_writes_sub ops_part7 _ ops_part7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val8_main_arg16 (V0 : Valuation τ sig (Elt F)) : val8 V0 (no_index (Proc.devRef .tc main_arg16)) = V0 (Proc.devRef .tc main_arg16) :=
  (val8_keep V0 main_arg16 (by decide)).trans (val7_main_arg16 V0)
theorem val8_main_arg17 (V0 : Valuation τ sig (Elt F)) : val8 V0 (no_index (Proc.devRef .tc main_arg17)) = V0 (Proc.devRef .tc main_arg17) :=
  (val8_keep V0 main_arg17 (by decide)).trans (val7_main_arg17 V0)
theorem val8_main_arg18 (V0 : Valuation τ sig (Elt F)) : val8 V0 (no_index (Proc.devRef .tc main_arg18)) = V0 (Proc.devRef .tc main_arg18) :=
  (val8_keep V0 main_arg18 (by decide)).trans (val7_main_arg18 V0)
theorem val8_main_arg19 (V0 : Valuation τ sig (Elt F)) : val8 V0 (no_index (Proc.devRef .tc main_arg19)) = V0 (Proc.devRef .tc main_arg19) :=
  (val8_keep V0 main_arg19 (by decide)).trans (val7_main_arg19 V0)
theorem val8_main_arg20 (V0 : Valuation τ sig (Elt F)) : val8 V0 (no_index (Proc.devRef .tc main_arg20)) = V0 (Proc.devRef .tc main_arg20) :=
  (val8_keep V0 main_arg20 (by decide)).trans (val7_main_arg20 V0)
theorem val8_main_arg21 (V0 : Valuation τ sig (Elt F)) : val8 V0 (no_index (Proc.devRef .tc main_arg21)) = V0 (Proc.devRef .tc main_arg21) :=
  (val8_keep V0 main_arg21 (by decide)).trans (val7_main_arg21 V0)
theorem val8_main_arg22 (V0 : Valuation τ sig (Elt F)) : val8 V0 (no_index (Proc.devRef .tc main_arg22)) = V0 (Proc.devRef .tc main_arg22) :=
  (val8_keep V0 main_arg22 (by decide)).trans (val7_main_arg22 V0)
theorem val8_main_arg23 (V0 : Valuation τ sig (Elt F)) : val8 V0 (no_index (Proc.devRef .tc main_arg23)) = V0 (Proc.devRef .tc main_arg23) :=
  (val8_keep V0 main_arg23 (by decide)).trans (val7_main_arg23 V0)
theorem val8_main_arg24 (V0 : Valuation τ sig (Elt F)) : val8 V0 (no_index (Proc.devRef .tc main_arg24)) = V0 (Proc.devRef .tc main_arg24) :=
  (val8_keep V0 main_arg24 (by decide)).trans (val7_main_arg24 V0)
theorem val8_main_arg25 (V0 : Valuation τ sig (Elt F)) : val8 V0 (no_index (Proc.devRef .tc main_arg25)) = V0 (Proc.devRef .tc main_arg25) :=
  (val8_keep V0 main_arg25 (by decide)).trans (val7_main_arg25 V0)
theorem val8_main_arg26 (V0 : Valuation τ sig (Elt F)) : val8 V0 (no_index (Proc.devRef .tc main_arg26)) = V0 (Proc.devRef .tc main_arg26) :=
  (val8_keep V0 main_arg26 (by decide)).trans (val7_main_arg26 V0)
theorem val8_main_v5 (V0 : Valuation τ sig (Elt F)) : val8 V0 (no_index (Proc.devRef .tc main_v5)) = res_main_v5 V0 :=
  (val8_keep V0 main_v5 (by decide)).trans (val7_main_v5 V0)
theorem val8_main_v6 (V0 : Valuation τ sig (Elt F)) : val8 V0 (no_index (Proc.devRef .tc main_v6)) = res_main_v6 V0 :=
  (val8_keep V0 main_v6 (by decide)).trans (val7_main_v6 V0)
theorem val8_main_v33 (V0 : Valuation τ sig (Elt F)) : val8 V0 (no_index (Proc.devRef .tc main_v33)) = res_main_v33 V0 :=
  (val8_keep V0 main_v33 (by decide)).trans (val7_main_v33 V0)
theorem val8_main_v56 (V0 : Valuation τ sig (Elt F)) : val8 V0 (no_index (Proc.devRef .tc main_v56)) = res_main_v56 V0 :=
  (val8_keep V0 main_v56 (by decide)).trans (val7_main_v56 V0)
theorem val8_main_v58 (V0 : Valuation τ sig (Elt F)) : val8 V0 (no_index (Proc.devRef .tc main_v58)) = res_main_v58 V0 :=
  (val8_keep V0 main_v58 (by decide)).trans (val7_main_v58 V0)
theorem val8_main_v60 (V0 : Valuation τ sig (Elt F)) : val8 V0 (no_index (Proc.devRef .tc main_v60)) = res_main_v60 V0 :=
  (val8_keep V0 main_v60 (by decide)).trans (val7_main_v60 V0)
theorem val8_main_v62 (V0 : Valuation τ sig (Elt F)) : val8 V0 (no_index (Proc.devRef .tc main_v62)) = res_main_v62 V0 :=
  (val8_keep V0 main_v62 (by decide)).trans (val7_main_v62 V0)
theorem val8_main_v64 (V0 : Valuation τ sig (Elt F)) : val8 V0 (no_index (Proc.devRef .tc main_v64)) = res_main_v64 V0 :=
  (val8_keep V0 main_v64 (by decide)).trans (val7_main_v64 V0)
theorem val8_main_v66 (V0 : Valuation τ sig (Elt F)) : val8 V0 (no_index (Proc.devRef .tc main_v66)) = res_main_v66 V0 :=
  (val8_keep V0 main_v66 (by decide)).trans (val7_main_v66 V0)
theorem val8_main_v68 (V0 : Valuation τ sig (Elt F)) : val8 V0 (no_index (Proc.devRef .tc main_v68)) = res_main_v68 V0 :=
  (val8_keep V0 main_v68 (by decide)).trans (val7_main_v68 V0)
theorem val8_main_v70 (V0 : Valuation τ sig (Elt F)) : val8 V0 (no_index (Proc.devRef .tc main_v70)) = res_main_v70 V0 :=
  (val8_keep V0 main_v70 (by decide)).trans (val7_main_v70 V0)
theorem val8_main_v72 (V0 : Valuation τ sig (Elt F)) : val8 V0 (no_index (Proc.devRef .tc main_v72)) = res_main_v72 V0 :=
  (val8_keep V0 main_v72 (by decide)).trans (val7_main_v72 V0)
theorem val8_main_v86 (V0 : Valuation τ sig (Elt F)) : val8 V0 (no_index (Proc.devRef .tc main_v86)) = res_main_v86 V0 :=
  (val8_keep V0 main_v86 (by decide)).trans (val7_main_v86 V0)
theorem val8_main_v88 (V0 : Valuation τ sig (Elt F)) : val8 V0 (no_index (Proc.devRef .tc main_v88)) = res_main_v88 V0 :=
  (val8_keep V0 main_v88 (by decide)).trans (val7_main_v88 V0)
theorem val8_main_v90 (V0 : Valuation τ sig (Elt F)) : val8 V0 (no_index (Proc.devRef .tc main_v90)) = res_main_v90 V0 :=
  (val8_keep V0 main_v90 (by decide)).trans (val7_main_v90 V0)
theorem val8_main_v92 (V0 : Valuation τ sig (Elt F)) : val8 V0 (no_index (Proc.devRef .tc main_v92)) = res_main_v92 V0 :=
  (val8_keep V0 main_v92 (by decide)).trans (val7_main_v92 V0)
theorem val8_main_v94 (V0 : Valuation τ sig (Elt F)) : val8 V0 (no_index (Proc.devRef .tc main_v94)) = res_main_v94 V0 :=
  (val8_keep V0 main_v94 (by decide)).trans (val7_main_v94 V0)
theorem val8_main_v96 (V0 : Valuation τ sig (Elt F)) : val8 V0 (no_index (Proc.devRef .tc main_v96)) = res_main_v96 V0 :=
  (val8_keep V0 main_v96 (by decide)).trans (val7_main_v96 V0)
theorem val8_main_v98 (V0 : Valuation τ sig (Elt F)) : val8 V0 (no_index (Proc.devRef .tc main_v98)) = res_main_v98 V0 :=
  (val8_keep V0 main_v98 (by decide)).trans (val7_main_v98 V0)
theorem val8_main_v100 (V0 : Valuation τ sig (Elt F)) : val8 V0 (no_index (Proc.devRef .tc main_v100)) = res_main_v100 V0 :=
  (val8_keep V0 main_v100 (by decide)).trans (val7_main_v100 V0)
theorem val8_main_v102 (V0 : Valuation τ sig (Elt F)) : val8 V0 (no_index (Proc.devRef .tc main_v102)) = res_main_v102 V0 :=
  (val8_keep V0 main_v102 (by decide)).trans (val7_main_v102 V0)
theorem val8_main_v104 (V0 : Valuation τ sig (Elt F)) : val8 V0 (no_index (Proc.devRef .tc main_v104)) = res_main_v104 V0 :=
  (val8_keep V0 main_v104 (by decide)).trans (val7_main_v104 V0)
theorem val8_main_v218 (V0 : Valuation τ sig (Elt F)) : val8 V0 (no_index (Proc.devRef .tc main_v218)) = res_main_v218 V0 :=
  (val8_keep V0 main_v218 (by decide)).trans (val7_main_v218 V0)
theorem val8_main_v266 (V0 : Valuation τ sig (Elt F)) : val8 V0 (no_index (Proc.devRef .tc main_v266)) = res_main_v266 V0 :=
  (val8_keep V0 main_v266 (by decide)).trans (val7_main_v266 V0)
theorem val8_main_v315 (V0 : Valuation τ sig (Elt F)) : val8 V0 (no_index (Proc.devRef .tc main_v315)) = res_main_v315 V0 :=
  (val8_keep V0 main_v315 (by decide)).trans (val7_main_v315 V0)
theorem val8_main_v365 (V0 : Valuation τ sig (Elt F)) : val8 V0 (no_index (Proc.devRef .tc main_v365)) = res_main_v365 V0 :=
  w7_main_v365 (val7 V0) V0 (val7_main_v6 V0) (val7_main_v52 V0) (val7_main_v357 V0) (val7_main_v358 V0)
theorem val8_main_v401 (V0 : Valuation τ sig (Elt F)) : val8 V0 (no_index (Proc.devRef .tc main_v401)) = res_main_v401 V0 :=
  w7_main_v401 (val7 V0) V0 (val7_main_v33 V0)
theorem val8_main_v408 (V0 : Valuation τ sig (Elt F)) : val8 V0 (no_index (Proc.devRef .tc main_v408)) = res_main_v408 V0 :=
  w7_main_v408 (val7 V0) V0 (val7_main_v5 V0) (val7_main_v6 V0) (val7_main_v52 V0) (val7_main_v54 V0) (val7_main_v82 V0) (val7_main_v84 V0) (val7_main_v218 V0) (val7_main_v266 V0) (val7_main_v315 V0) (val7_main_v357 V0) (val7_main_v358 V0)

/-- The device's buffer contents after @main's first 9 windows. -/
noncomputable def val9 (V0 : Valuation τ sig (Elt F)) : Valuation τ sig (Elt F) := after ops_part8 (val8 V0)
/-- A buffer that window `main_part8` does not write keeps its contents through it. -/
theorem val9_keep (V0 : Valuation τ sig (Elt F)) (r : Ref sig .tc) (h : r ∉ ops_part8_W) :
    val9 V0 (Proc.devRef .tc r) = val8 V0 (Proc.devRef .tc r) :=
  after_of_writes_sub ops_part8 _ ops_part8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
theorem val9_main_arg16 (V0 : Valuation τ sig (Elt F)) : val9 V0 (no_index (Proc.devRef .tc main_arg16)) = V0 (Proc.devRef .tc main_arg16) :=
  (val9_keep V0 main_arg16 (by decide)).trans (val8_main_arg16 V0)
theorem val9_main_arg17 (V0 : Valuation τ sig (Elt F)) : val9 V0 (no_index (Proc.devRef .tc main_arg17)) = V0 (Proc.devRef .tc main_arg17) :=
  (val9_keep V0 main_arg17 (by decide)).trans (val8_main_arg17 V0)
theorem val9_main_arg18 (V0 : Valuation τ sig (Elt F)) : val9 V0 (no_index (Proc.devRef .tc main_arg18)) = V0 (Proc.devRef .tc main_arg18) :=
  (val9_keep V0 main_arg18 (by decide)).trans (val8_main_arg18 V0)
theorem val9_main_arg19 (V0 : Valuation τ sig (Elt F)) : val9 V0 (no_index (Proc.devRef .tc main_arg19)) = V0 (Proc.devRef .tc main_arg19) :=
  (val9_keep V0 main_arg19 (by decide)).trans (val8_main_arg19 V0)
theorem val9_main_arg20 (V0 : Valuation τ sig (Elt F)) : val9 V0 (no_index (Proc.devRef .tc main_arg20)) = V0 (Proc.devRef .tc main_arg20) :=
  (val9_keep V0 main_arg20 (by decide)).trans (val8_main_arg20 V0)
theorem val9_main_arg21 (V0 : Valuation τ sig (Elt F)) : val9 V0 (no_index (Proc.devRef .tc main_arg21)) = V0 (Proc.devRef .tc main_arg21) :=
  (val9_keep V0 main_arg21 (by decide)).trans (val8_main_arg21 V0)
theorem val9_main_arg22 (V0 : Valuation τ sig (Elt F)) : val9 V0 (no_index (Proc.devRef .tc main_arg22)) = V0 (Proc.devRef .tc main_arg22) :=
  (val9_keep V0 main_arg22 (by decide)).trans (val8_main_arg22 V0)
theorem val9_main_arg23 (V0 : Valuation τ sig (Elt F)) : val9 V0 (no_index (Proc.devRef .tc main_arg23)) = V0 (Proc.devRef .tc main_arg23) :=
  (val9_keep V0 main_arg23 (by decide)).trans (val8_main_arg23 V0)
theorem val9_main_arg24 (V0 : Valuation τ sig (Elt F)) : val9 V0 (no_index (Proc.devRef .tc main_arg24)) = V0 (Proc.devRef .tc main_arg24) :=
  (val9_keep V0 main_arg24 (by decide)).trans (val8_main_arg24 V0)
theorem val9_main_arg25 (V0 : Valuation τ sig (Elt F)) : val9 V0 (no_index (Proc.devRef .tc main_arg25)) = V0 (Proc.devRef .tc main_arg25) :=
  (val9_keep V0 main_arg25 (by decide)).trans (val8_main_arg25 V0)
theorem val9_main_arg26 (V0 : Valuation τ sig (Elt F)) : val9 V0 (no_index (Proc.devRef .tc main_arg26)) = V0 (Proc.devRef .tc main_arg26) :=
  (val9_keep V0 main_arg26 (by decide)).trans (val8_main_arg26 V0)
theorem val9_main_v5 (V0 : Valuation τ sig (Elt F)) : val9 V0 (no_index (Proc.devRef .tc main_v5)) = res_main_v5 V0 :=
  (val9_keep V0 main_v5 (by decide)).trans (val8_main_v5 V0)
theorem val9_main_v6 (V0 : Valuation τ sig (Elt F)) : val9 V0 (no_index (Proc.devRef .tc main_v6)) = res_main_v6 V0 :=
  (val9_keep V0 main_v6 (by decide)).trans (val8_main_v6 V0)
theorem val9_main_v33 (V0 : Valuation τ sig (Elt F)) : val9 V0 (no_index (Proc.devRef .tc main_v33)) = res_main_v33 V0 :=
  (val9_keep V0 main_v33 (by decide)).trans (val8_main_v33 V0)
theorem val9_main_v60 (V0 : Valuation τ sig (Elt F)) : val9 V0 (no_index (Proc.devRef .tc main_v60)) = res_main_v60 V0 :=
  (val9_keep V0 main_v60 (by decide)).trans (val8_main_v60 V0)
theorem val9_main_v62 (V0 : Valuation τ sig (Elt F)) : val9 V0 (no_index (Proc.devRef .tc main_v62)) = res_main_v62 V0 :=
  (val9_keep V0 main_v62 (by decide)).trans (val8_main_v62 V0)
theorem val9_main_v64 (V0 : Valuation τ sig (Elt F)) : val9 V0 (no_index (Proc.devRef .tc main_v64)) = res_main_v64 V0 :=
  (val9_keep V0 main_v64 (by decide)).trans (val8_main_v64 V0)
theorem val9_main_v66 (V0 : Valuation τ sig (Elt F)) : val9 V0 (no_index (Proc.devRef .tc main_v66)) = res_main_v66 V0 :=
  (val9_keep V0 main_v66 (by decide)).trans (val8_main_v66 V0)
theorem val9_main_v68 (V0 : Valuation τ sig (Elt F)) : val9 V0 (no_index (Proc.devRef .tc main_v68)) = res_main_v68 V0 :=
  (val9_keep V0 main_v68 (by decide)).trans (val8_main_v68 V0)
theorem val9_main_v70 (V0 : Valuation τ sig (Elt F)) : val9 V0 (no_index (Proc.devRef .tc main_v70)) = res_main_v70 V0 :=
  (val9_keep V0 main_v70 (by decide)).trans (val8_main_v70 V0)
theorem val9_main_v72 (V0 : Valuation τ sig (Elt F)) : val9 V0 (no_index (Proc.devRef .tc main_v72)) = res_main_v72 V0 :=
  (val9_keep V0 main_v72 (by decide)).trans (val8_main_v72 V0)
theorem val9_main_v90 (V0 : Valuation τ sig (Elt F)) : val9 V0 (no_index (Proc.devRef .tc main_v90)) = res_main_v90 V0 :=
  (val9_keep V0 main_v90 (by decide)).trans (val8_main_v90 V0)
theorem val9_main_v92 (V0 : Valuation τ sig (Elt F)) : val9 V0 (no_index (Proc.devRef .tc main_v92)) = res_main_v92 V0 :=
  (val9_keep V0 main_v92 (by decide)).trans (val8_main_v92 V0)
theorem val9_main_v94 (V0 : Valuation τ sig (Elt F)) : val9 V0 (no_index (Proc.devRef .tc main_v94)) = res_main_v94 V0 :=
  (val9_keep V0 main_v94 (by decide)).trans (val8_main_v94 V0)
theorem val9_main_v96 (V0 : Valuation τ sig (Elt F)) : val9 V0 (no_index (Proc.devRef .tc main_v96)) = res_main_v96 V0 :=
  (val9_keep V0 main_v96 (by decide)).trans (val8_main_v96 V0)
theorem val9_main_v98 (V0 : Valuation τ sig (Elt F)) : val9 V0 (no_index (Proc.devRef .tc main_v98)) = res_main_v98 V0 :=
  (val9_keep V0 main_v98 (by decide)).trans (val8_main_v98 V0)
theorem val9_main_v100 (V0 : Valuation τ sig (Elt F)) : val9 V0 (no_index (Proc.devRef .tc main_v100)) = res_main_v100 V0 :=
  (val9_keep V0 main_v100 (by decide)).trans (val8_main_v100 V0)
theorem val9_main_v102 (V0 : Valuation τ sig (Elt F)) : val9 V0 (no_index (Proc.devRef .tc main_v102)) = res_main_v102 V0 :=
  (val9_keep V0 main_v102 (by decide)).trans (val8_main_v102 V0)
theorem val9_main_v104 (V0 : Valuation τ sig (Elt F)) : val9 V0 (no_index (Proc.devRef .tc main_v104)) = res_main_v104 V0 :=
  (val9_keep V0 main_v104 (by decide)).trans (val8_main_v104 V0)
theorem val9_main_v218 (V0 : Valuation τ sig (Elt F)) : val9 V0 (no_index (Proc.devRef .tc main_v218)) = res_main_v218 V0 :=
  (val9_keep V0 main_v218 (by decide)).trans (val8_main_v218 V0)
theorem val9_main_v266 (V0 : Valuation τ sig (Elt F)) : val9 V0 (no_index (Proc.devRef .tc main_v266)) = res_main_v266 V0 :=
  (val9_keep V0 main_v266 (by decide)).trans (val8_main_v266 V0)
theorem val9_main_v315 (V0 : Valuation τ sig (Elt F)) : val9 V0 (no_index (Proc.devRef .tc main_v315)) = res_main_v315 V0 :=
  (val9_keep V0 main_v315 (by decide)).trans (val8_main_v315 V0)
theorem val9_main_v365 (V0 : Valuation τ sig (Elt F)) : val9 V0 (no_index (Proc.devRef .tc main_v365)) = res_main_v365 V0 :=
  (val9_keep V0 main_v365 (by decide)).trans (val8_main_v365 V0)
theorem val9_main_v416 (V0 : Valuation τ sig (Elt F)) : val9 V0 (no_index (Proc.devRef .tc main_v416)) = res_main_v416 V0 :=
  w8_main_v416 (val8 V0) V0 (val8_main_v6 V0) (val8_main_v56 V0) (val8_main_v401 V0) (val8_main_v408 V0)
theorem val9_main_v452 (V0 : Valuation τ sig (Elt F)) : val9 V0 (no_index (Proc.devRef .tc main_v452)) = res_main_v452 V0 :=
  w8_main_v452 (val8 V0) V0 (val8_main_v6 V0) (val8_main_v56 V0) (val8_main_v58 V0) (val8_main_v86 V0) (val8_main_v88 V0) (val8_main_v218 V0) (val8_main_v266 V0) (val8_main_v315 V0) (val8_main_v365 V0) (val8_main_v401 V0) (val8_main_v408 V0)
theorem val9_main_v453 (V0 : Valuation τ sig (Elt F)) : val9 V0 (no_index (Proc.devRef .tc main_v453)) = res_main_v453 V0 :=
  w8_main_v453 (val8 V0) V0 (val8_main_v33 V0)
theorem val9_main_v458 (V0 : Valuation τ sig (Elt F)) : val9 V0 (no_index (Proc.devRef .tc main_v458)) = res_main_v458 V0 :=
  w8_main_v458 (val8 V0) V0 (val8_main_v5 V0)

/-- The device's buffer contents after @main's first 10 windows. -/
noncomputable def val10 (V0 : Valuation τ sig (Elt F)) : Valuation τ sig (Elt F) := after ops_part9 (val9 V0)
/-- A buffer that window `main_part9` does not write keeps its contents through it. -/
theorem val10_keep (V0 : Valuation τ sig (Elt F)) (r : Ref sig .tc) (h : r ∉ ops_part9_W) :
    val10 V0 (Proc.devRef .tc r) = val9 V0 (Proc.devRef .tc r) :=
  after_of_writes_sub ops_part9 _ ops_part9_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_arg11 (V0 : Valuation τ sig (Elt F)) : val10 V0 (no_index (Proc.devRef .tc main_arg11)) = V0 (Proc.devRef .tc main_arg11) :=
  (val10_keep V0 main_arg11 (by decide)).trans (val9_main_arg11 V0)
theorem val10_main_arg12 (V0 : Valuation τ sig (Elt F)) : val10 V0 (no_index (Proc.devRef .tc main_arg12)) = V0 (Proc.devRef .tc main_arg12) :=
  (val10_keep V0 main_arg12 (by decide)).trans (val9_main_arg12 V0)
theorem val10_main_arg13 (V0 : Valuation τ sig (Elt F)) : val10 V0 (no_index (Proc.devRef .tc main_arg13)) = V0 (Proc.devRef .tc main_arg13) :=
  (val10_keep V0 main_arg13 (by decide)).trans (val9_main_arg13 V0)
theorem val10_main_arg14 (V0 : Valuation τ sig (Elt F)) : val10 V0 (no_index (Proc.devRef .tc main_arg14)) = V0 (Proc.devRef .tc main_arg14) :=
  (val10_keep V0 main_arg14 (by decide)).trans (val9_main_arg14 V0)
theorem val10_main_arg15 (V0 : Valuation τ sig (Elt F)) : val10 V0 (no_index (Proc.devRef .tc main_arg15)) = V0 (Proc.devRef .tc main_arg15) :=
  (val10_keep V0 main_arg15 (by decide)).trans (val9_main_arg15 V0)
theorem val10_main_arg16 (V0 : Valuation τ sig (Elt F)) : val10 V0 (no_index (Proc.devRef .tc main_arg16)) = V0 (Proc.devRef .tc main_arg16) :=
  (val10_keep V0 main_arg16 (by decide)).trans (val9_main_arg16 V0)
theorem val10_main_arg17 (V0 : Valuation τ sig (Elt F)) : val10 V0 (no_index (Proc.devRef .tc main_arg17)) = V0 (Proc.devRef .tc main_arg17) :=
  (val10_keep V0 main_arg17 (by decide)).trans (val9_main_arg17 V0)
theorem val10_main_arg18 (V0 : Valuation τ sig (Elt F)) : val10 V0 (no_index (Proc.devRef .tc main_arg18)) = V0 (Proc.devRef .tc main_arg18) :=
  (val10_keep V0 main_arg18 (by decide)).trans (val9_main_arg18 V0)
theorem val10_main_arg19 (V0 : Valuation τ sig (Elt F)) : val10 V0 (no_index (Proc.devRef .tc main_arg19)) = V0 (Proc.devRef .tc main_arg19) :=
  (val10_keep V0 main_arg19 (by decide)).trans (val9_main_arg19 V0)
theorem val10_main_arg20 (V0 : Valuation τ sig (Elt F)) : val10 V0 (no_index (Proc.devRef .tc main_arg20)) = V0 (Proc.devRef .tc main_arg20) :=
  (val10_keep V0 main_arg20 (by decide)).trans (val9_main_arg20 V0)
theorem val10_main_arg21 (V0 : Valuation τ sig (Elt F)) : val10 V0 (no_index (Proc.devRef .tc main_arg21)) = V0 (Proc.devRef .tc main_arg21) :=
  (val10_keep V0 main_arg21 (by decide)).trans (val9_main_arg21 V0)
theorem val10_main_arg22 (V0 : Valuation τ sig (Elt F)) : val10 V0 (no_index (Proc.devRef .tc main_arg22)) = V0 (Proc.devRef .tc main_arg22) :=
  (val10_keep V0 main_arg22 (by decide)).trans (val9_main_arg22 V0)
theorem val10_main_arg23 (V0 : Valuation τ sig (Elt F)) : val10 V0 (no_index (Proc.devRef .tc main_arg23)) = V0 (Proc.devRef .tc main_arg23) :=
  (val10_keep V0 main_arg23 (by decide)).trans (val9_main_arg23 V0)
theorem val10_main_arg24 (V0 : Valuation τ sig (Elt F)) : val10 V0 (no_index (Proc.devRef .tc main_arg24)) = V0 (Proc.devRef .tc main_arg24) :=
  (val10_keep V0 main_arg24 (by decide)).trans (val9_main_arg24 V0)
theorem val10_main_arg25 (V0 : Valuation τ sig (Elt F)) : val10 V0 (no_index (Proc.devRef .tc main_arg25)) = V0 (Proc.devRef .tc main_arg25) :=
  (val10_keep V0 main_arg25 (by decide)).trans (val9_main_arg25 V0)
theorem val10_main_arg26 (V0 : Valuation τ sig (Elt F)) : val10 V0 (no_index (Proc.devRef .tc main_arg26)) = V0 (Proc.devRef .tc main_arg26) :=
  (val10_keep V0 main_arg26 (by decide)).trans (val9_main_arg26 V0)
theorem val10_main_v5 (V0 : Valuation τ sig (Elt F)) : val10 V0 (no_index (Proc.devRef .tc main_v5)) = res_main_v5 V0 :=
  (val10_keep V0 main_v5 (by decide)).trans (val9_main_v5 V0)
theorem val10_main_v6 (V0 : Valuation τ sig (Elt F)) : val10 V0 (no_index (Proc.devRef .tc main_v6)) = res_main_v6 V0 :=
  (val10_keep V0 main_v6 (by decide)).trans (val9_main_v6 V0)
theorem val10_main_v33 (V0 : Valuation τ sig (Elt F)) : val10 V0 (no_index (Proc.devRef .tc main_v33)) = res_main_v33 V0 :=
  (val10_keep V0 main_v33 (by decide)).trans (val9_main_v33 V0)
theorem val10_main_v64 (V0 : Valuation τ sig (Elt F)) : val10 V0 (no_index (Proc.devRef .tc main_v64)) = res_main_v64 V0 :=
  (val10_keep V0 main_v64 (by decide)).trans (val9_main_v64 V0)
theorem val10_main_v66 (V0 : Valuation τ sig (Elt F)) : val10 V0 (no_index (Proc.devRef .tc main_v66)) = res_main_v66 V0 :=
  (val10_keep V0 main_v66 (by decide)).trans (val9_main_v66 V0)
theorem val10_main_v68 (V0 : Valuation τ sig (Elt F)) : val10 V0 (no_index (Proc.devRef .tc main_v68)) = res_main_v68 V0 :=
  (val10_keep V0 main_v68 (by decide)).trans (val9_main_v68 V0)
theorem val10_main_v70 (V0 : Valuation τ sig (Elt F)) : val10 V0 (no_index (Proc.devRef .tc main_v70)) = res_main_v70 V0 :=
  (val10_keep V0 main_v70 (by decide)).trans (val9_main_v70 V0)
theorem val10_main_v72 (V0 : Valuation τ sig (Elt F)) : val10 V0 (no_index (Proc.devRef .tc main_v72)) = res_main_v72 V0 :=
  (val10_keep V0 main_v72 (by decide)).trans (val9_main_v72 V0)
theorem val10_main_v94 (V0 : Valuation τ sig (Elt F)) : val10 V0 (no_index (Proc.devRef .tc main_v94)) = res_main_v94 V0 :=
  (val10_keep V0 main_v94 (by decide)).trans (val9_main_v94 V0)
theorem val10_main_v96 (V0 : Valuation τ sig (Elt F)) : val10 V0 (no_index (Proc.devRef .tc main_v96)) = res_main_v96 V0 :=
  (val10_keep V0 main_v96 (by decide)).trans (val9_main_v96 V0)
theorem val10_main_v98 (V0 : Valuation τ sig (Elt F)) : val10 V0 (no_index (Proc.devRef .tc main_v98)) = res_main_v98 V0 :=
  (val10_keep V0 main_v98 (by decide)).trans (val9_main_v98 V0)
theorem val10_main_v100 (V0 : Valuation τ sig (Elt F)) : val10 V0 (no_index (Proc.devRef .tc main_v100)) = res_main_v100 V0 :=
  (val10_keep V0 main_v100 (by decide)).trans (val9_main_v100 V0)
theorem val10_main_v102 (V0 : Valuation τ sig (Elt F)) : val10 V0 (no_index (Proc.devRef .tc main_v102)) = res_main_v102 V0 :=
  (val10_keep V0 main_v102 (by decide)).trans (val9_main_v102 V0)
theorem val10_main_v104 (V0 : Valuation τ sig (Elt F)) : val10 V0 (no_index (Proc.devRef .tc main_v104)) = res_main_v104 V0 :=
  (val10_keep V0 main_v104 (by decide)).trans (val9_main_v104 V0)
theorem val10_main_v218 (V0 : Valuation τ sig (Elt F)) : val10 V0 (no_index (Proc.devRef .tc main_v218)) = res_main_v218 V0 :=
  (val10_keep V0 main_v218 (by decide)).trans (val9_main_v218 V0)
theorem val10_main_v266 (V0 : Valuation τ sig (Elt F)) : val10 V0 (no_index (Proc.devRef .tc main_v266)) = res_main_v266 V0 :=
  (val10_keep V0 main_v266 (by decide)).trans (val9_main_v266 V0)
theorem val10_main_v315 (V0 : Valuation τ sig (Elt F)) : val10 V0 (no_index (Proc.devRef .tc main_v315)) = res_main_v315 V0 :=
  (val10_keep V0 main_v315 (by decide)).trans (val9_main_v315 V0)
theorem val10_main_v365 (V0 : Valuation τ sig (Elt F)) : val10 V0 (no_index (Proc.devRef .tc main_v365)) = res_main_v365 V0 :=
  (val10_keep V0 main_v365 (by decide)).trans (val9_main_v365 V0)
theorem val10_main_v416 (V0 : Valuation τ sig (Elt F)) : val10 V0 (no_index (Proc.devRef .tc main_v416)) = res_main_v416 V0 :=
  (val10_keep V0 main_v416 (by decide)).trans (val9_main_v416 V0)
theorem val10_main_v468 (V0 : Valuation τ sig (Elt F)) : val10 V0 (no_index (Proc.devRef .tc main_v468)) = res_main_v468 V0 :=
  w9_main_v468 (val9 V0) V0 (val9_main_v6 V0) (val9_main_v60 V0) (val9_main_v452 V0) (val9_main_v453 V0) (val9_main_v458 V0)
theorem val10_main_v505 (V0 : Valuation τ sig (Elt F)) : val10 V0 (no_index (Proc.devRef .tc main_v505)) = res_main_v505 V0 :=
  w9_main_v505 (val9 V0) V0 (val9_main_v6 V0) (val9_main_v60 V0) (val9_main_v62 V0) (val9_main_v90 V0) (val9_main_v92 V0) (val9_main_v218 V0) (val9_main_v266 V0) (val9_main_v315 V0) (val9_main_v365 V0) (val9_main_v416 V0) (val9_main_v452 V0) (val9_main_v453 V0) (val9_main_v458 V0)
theorem val10_main_v506 (V0 : Valuation τ sig (Elt F)) : val10 V0 (no_index (Proc.devRef .tc main_v506)) = res_main_v506 V0 :=
  w9_main_v506 (val9 V0) V0 (val9_main_v33 V0)
theorem val10_main_v508 (V0 : Valuation τ sig (Elt F)) : val10 V0 (no_index (Proc.devRef .tc main_v508)) = res_main_v508 V0 :=
  w9_main_v508 (val9 V0) V0 (val9_main_v5 V0)
theorem val10_main_c_88 (V0 : Valuation τ sig (Elt F)) : val10 V0 (no_index (Proc.devRef .tc main_c_88)) = res_main_c_88 V0 :=
  w9_main_c_88 (val9 V0) V0

/-- The device's buffer contents after @main's first 11 windows. -/
noncomputable def val11 (V0 : Valuation τ sig (Elt F)) : Valuation τ sig (Elt F) := after ops_part10 (val10 V0)
/-- A buffer that window `main_part10` does not write keeps its contents through it. -/
theorem val11_keep (V0 : Valuation τ sig (Elt F)) (r : Ref sig .tc) (h : r ∉ ops_part10_W) :
    val11 V0 (Proc.devRef .tc r) = val10 V0 (Proc.devRef .tc r) :=
  after_of_writes_sub ops_part10 _ ops_part10_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
theorem val11_main_arg10 (V0 : Valuation τ sig (Elt F)) : val11 V0 (no_index (Proc.devRef .tc main_arg10)) = V0 (Proc.devRef .tc main_arg10) :=
  (val11_keep V0 main_arg10 (by decide)).trans (val10_main_arg10 V0)
theorem val11_main_arg11 (V0 : Valuation τ sig (Elt F)) : val11 V0 (no_index (Proc.devRef .tc main_arg11)) = V0 (Proc.devRef .tc main_arg11) :=
  (val11_keep V0 main_arg11 (by decide)).trans (val10_main_arg11 V0)
theorem val11_main_arg12 (V0 : Valuation τ sig (Elt F)) : val11 V0 (no_index (Proc.devRef .tc main_arg12)) = V0 (Proc.devRef .tc main_arg12) :=
  (val11_keep V0 main_arg12 (by decide)).trans (val10_main_arg12 V0)
theorem val11_main_arg13 (V0 : Valuation τ sig (Elt F)) : val11 V0 (no_index (Proc.devRef .tc main_arg13)) = V0 (Proc.devRef .tc main_arg13) :=
  (val11_keep V0 main_arg13 (by decide)).trans (val10_main_arg13 V0)
theorem val11_main_arg14 (V0 : Valuation τ sig (Elt F)) : val11 V0 (no_index (Proc.devRef .tc main_arg14)) = V0 (Proc.devRef .tc main_arg14) :=
  (val11_keep V0 main_arg14 (by decide)).trans (val10_main_arg14 V0)
theorem val11_main_arg15 (V0 : Valuation τ sig (Elt F)) : val11 V0 (no_index (Proc.devRef .tc main_arg15)) = V0 (Proc.devRef .tc main_arg15) :=
  (val11_keep V0 main_arg15 (by decide)).trans (val10_main_arg15 V0)
theorem val11_main_arg16 (V0 : Valuation τ sig (Elt F)) : val11 V0 (no_index (Proc.devRef .tc main_arg16)) = V0 (Proc.devRef .tc main_arg16) :=
  (val11_keep V0 main_arg16 (by decide)).trans (val10_main_arg16 V0)
theorem val11_main_arg17 (V0 : Valuation τ sig (Elt F)) : val11 V0 (no_index (Proc.devRef .tc main_arg17)) = V0 (Proc.devRef .tc main_arg17) :=
  (val11_keep V0 main_arg17 (by decide)).trans (val10_main_arg17 V0)
theorem val11_main_arg18 (V0 : Valuation τ sig (Elt F)) : val11 V0 (no_index (Proc.devRef .tc main_arg18)) = V0 (Proc.devRef .tc main_arg18) :=
  (val11_keep V0 main_arg18 (by decide)).trans (val10_main_arg18 V0)
theorem val11_main_arg19 (V0 : Valuation τ sig (Elt F)) : val11 V0 (no_index (Proc.devRef .tc main_arg19)) = V0 (Proc.devRef .tc main_arg19) :=
  (val11_keep V0 main_arg19 (by decide)).trans (val10_main_arg19 V0)
theorem val11_main_arg20 (V0 : Valuation τ sig (Elt F)) : val11 V0 (no_index (Proc.devRef .tc main_arg20)) = V0 (Proc.devRef .tc main_arg20) :=
  (val11_keep V0 main_arg20 (by decide)).trans (val10_main_arg20 V0)
theorem val11_main_arg21 (V0 : Valuation τ sig (Elt F)) : val11 V0 (no_index (Proc.devRef .tc main_arg21)) = V0 (Proc.devRef .tc main_arg21) :=
  (val11_keep V0 main_arg21 (by decide)).trans (val10_main_arg21 V0)
theorem val11_main_arg22 (V0 : Valuation τ sig (Elt F)) : val11 V0 (no_index (Proc.devRef .tc main_arg22)) = V0 (Proc.devRef .tc main_arg22) :=
  (val11_keep V0 main_arg22 (by decide)).trans (val10_main_arg22 V0)
theorem val11_main_arg23 (V0 : Valuation τ sig (Elt F)) : val11 V0 (no_index (Proc.devRef .tc main_arg23)) = V0 (Proc.devRef .tc main_arg23) :=
  (val11_keep V0 main_arg23 (by decide)).trans (val10_main_arg23 V0)
theorem val11_main_arg24 (V0 : Valuation τ sig (Elt F)) : val11 V0 (no_index (Proc.devRef .tc main_arg24)) = V0 (Proc.devRef .tc main_arg24) :=
  (val11_keep V0 main_arg24 (by decide)).trans (val10_main_arg24 V0)
theorem val11_main_arg25 (V0 : Valuation τ sig (Elt F)) : val11 V0 (no_index (Proc.devRef .tc main_arg25)) = V0 (Proc.devRef .tc main_arg25) :=
  (val11_keep V0 main_arg25 (by decide)).trans (val10_main_arg25 V0)
theorem val11_main_arg26 (V0 : Valuation τ sig (Elt F)) : val11 V0 (no_index (Proc.devRef .tc main_arg26)) = V0 (Proc.devRef .tc main_arg26) :=
  (val11_keep V0 main_arg26 (by decide)).trans (val10_main_arg26 V0)
theorem val11_main_v5 (V0 : Valuation τ sig (Elt F)) : val11 V0 (no_index (Proc.devRef .tc main_v5)) = res_main_v5 V0 :=
  (val11_keep V0 main_v5 (by decide)).trans (val10_main_v5 V0)
theorem val11_main_v6 (V0 : Valuation τ sig (Elt F)) : val11 V0 (no_index (Proc.devRef .tc main_v6)) = res_main_v6 V0 :=
  (val11_keep V0 main_v6 (by decide)).trans (val10_main_v6 V0)
theorem val11_main_v33 (V0 : Valuation τ sig (Elt F)) : val11 V0 (no_index (Proc.devRef .tc main_v33)) = res_main_v33 V0 :=
  (val11_keep V0 main_v33 (by decide)).trans (val10_main_v33 V0)
theorem val11_main_v68 (V0 : Valuation τ sig (Elt F)) : val11 V0 (no_index (Proc.devRef .tc main_v68)) = res_main_v68 V0 :=
  (val11_keep V0 main_v68 (by decide)).trans (val10_main_v68 V0)
theorem val11_main_v70 (V0 : Valuation τ sig (Elt F)) : val11 V0 (no_index (Proc.devRef .tc main_v70)) = res_main_v70 V0 :=
  (val11_keep V0 main_v70 (by decide)).trans (val10_main_v70 V0)
theorem val11_main_v72 (V0 : Valuation τ sig (Elt F)) : val11 V0 (no_index (Proc.devRef .tc main_v72)) = res_main_v72 V0 :=
  (val11_keep V0 main_v72 (by decide)).trans (val10_main_v72 V0)
theorem val11_main_v98 (V0 : Valuation τ sig (Elt F)) : val11 V0 (no_index (Proc.devRef .tc main_v98)) = res_main_v98 V0 :=
  (val11_keep V0 main_v98 (by decide)).trans (val10_main_v98 V0)
theorem val11_main_v100 (V0 : Valuation τ sig (Elt F)) : val11 V0 (no_index (Proc.devRef .tc main_v100)) = res_main_v100 V0 :=
  (val11_keep V0 main_v100 (by decide)).trans (val10_main_v100 V0)
theorem val11_main_v102 (V0 : Valuation τ sig (Elt F)) : val11 V0 (no_index (Proc.devRef .tc main_v102)) = res_main_v102 V0 :=
  (val11_keep V0 main_v102 (by decide)).trans (val10_main_v102 V0)
theorem val11_main_v104 (V0 : Valuation τ sig (Elt F)) : val11 V0 (no_index (Proc.devRef .tc main_v104)) = res_main_v104 V0 :=
  (val11_keep V0 main_v104 (by decide)).trans (val10_main_v104 V0)
theorem val11_main_v218 (V0 : Valuation τ sig (Elt F)) : val11 V0 (no_index (Proc.devRef .tc main_v218)) = res_main_v218 V0 :=
  (val11_keep V0 main_v218 (by decide)).trans (val10_main_v218 V0)
theorem val11_main_v266 (V0 : Valuation τ sig (Elt F)) : val11 V0 (no_index (Proc.devRef .tc main_v266)) = res_main_v266 V0 :=
  (val11_keep V0 main_v266 (by decide)).trans (val10_main_v266 V0)
theorem val11_main_v315 (V0 : Valuation τ sig (Elt F)) : val11 V0 (no_index (Proc.devRef .tc main_v315)) = res_main_v315 V0 :=
  (val11_keep V0 main_v315 (by decide)).trans (val10_main_v315 V0)
theorem val11_main_v365 (V0 : Valuation τ sig (Elt F)) : val11 V0 (no_index (Proc.devRef .tc main_v365)) = res_main_v365 V0 :=
  (val11_keep V0 main_v365 (by decide)).trans (val10_main_v365 V0)
theorem val11_main_v416 (V0 : Valuation τ sig (Elt F)) : val11 V0 (no_index (Proc.devRef .tc main_v416)) = res_main_v416 V0 :=
  (val11_keep V0 main_v416 (by decide)).trans (val10_main_v416 V0)
theorem val11_main_v468 (V0 : Valuation τ sig (Elt F)) : val11 V0 (no_index (Proc.devRef .tc main_v468)) = res_main_v468 V0 :=
  (val11_keep V0 main_v468 (by decide)).trans (val10_main_v468 V0)
theorem val11_main_v521 (V0 : Valuation τ sig (Elt F)) : val11 V0 (no_index (Proc.devRef .tc main_v521)) = res_main_v521 V0 :=
  w10_main_v521 (val10 V0) V0 (val10_main_v5 V0) (val10_main_v6 V0) (val10_main_v64 V0) (val10_main_v505 V0) (val10_main_v506 V0) (val10_main_v508 V0) (val10_main_c_88 V0)
theorem val11_main_v559 (V0 : Valuation τ sig (Elt F)) : val11 V0 (no_index (Proc.devRef .tc main_v559)) = res_main_v559 V0 :=
  w10_main_v559 (val10 V0) V0 (val10_main_v5 V0) (val10_main_v6 V0) (val10_main_v64 V0) (val10_main_v66 V0) (val10_main_v94 V0) (val10_main_v96 V0) (val10_main_v218 V0) (val10_main_v266 V0) (val10_main_v315 V0) (val10_main_v365 V0) (val10_main_v416 V0) (val10_main_v468 V0) (val10_main_v505 V0) (val10_main_v506 V0) (val10_main_v508 V0) (val10_main_c_88 V0)
theorem val11_main_v560 (V0 : Valuation τ sig (Elt F)) : val11 V0 (no_index (Proc.devRef .tc main_v560)) = res_main_v560 V0 :=
  w10_main_v560 (val10 V0) V0 (val10_main_v33 V0)

/-- The device's buffer contents after @main's first 12 windows. -/
noncomputable def val12 (V0 : Valuation τ sig (Elt F)) : Valuation τ sig (Elt F) := after ops_part11 (val11 V0)
/-- A buffer that window `main_part11` does not write keeps its contents through it. -/
theorem val12_keep (V0 : Valuation τ sig (Elt F)) (r : Ref sig .tc) (h : r ∉ ops_part11_W) :
    val12 V0 (Proc.devRef .tc r) = val11 V0 (Proc.devRef .tc r) :=
  after_of_writes_sub ops_part11 _ ops_part11_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_arg5 (V0 : Valuation τ sig (Elt F)) : val12 V0 (no_index (Proc.devRef .tc main_arg5)) = V0 (Proc.devRef .tc main_arg5) :=
  (val12_keep V0 main_arg5 (by decide)).trans (val11_main_arg5 V0)
theorem val12_main_arg6 (V0 : Valuation τ sig (Elt F)) : val12 V0 (no_index (Proc.devRef .tc main_arg6)) = V0 (Proc.devRef .tc main_arg6) :=
  (val12_keep V0 main_arg6 (by decide)).trans (val11_main_arg6 V0)
theorem val12_main_arg7 (V0 : Valuation τ sig (Elt F)) : val12 V0 (no_index (Proc.devRef .tc main_arg7)) = V0 (Proc.devRef .tc main_arg7) :=
  (val12_keep V0 main_arg7 (by decide)).trans (val11_main_arg7 V0)
theorem val12_main_arg8 (V0 : Valuation τ sig (Elt F)) : val12 V0 (no_index (Proc.devRef .tc main_arg8)) = V0 (Proc.devRef .tc main_arg8) :=
  (val12_keep V0 main_arg8 (by decide)).trans (val11_main_arg8 V0)
theorem val12_main_arg9 (V0 : Valuation τ sig (Elt F)) : val12 V0 (no_index (Proc.devRef .tc main_arg9)) = V0 (Proc.devRef .tc main_arg9) :=
  (val12_keep V0 main_arg9 (by decide)).trans (val11_main_arg9 V0)
theorem val12_main_arg10 (V0 : Valuation τ sig (Elt F)) : val12 V0 (no_index (Proc.devRef .tc main_arg10)) = V0 (Proc.devRef .tc main_arg10) :=
  (val12_keep V0 main_arg10 (by decide)).trans (val11_main_arg10 V0)
theorem val12_main_arg11 (V0 : Valuation τ sig (Elt F)) : val12 V0 (no_index (Proc.devRef .tc main_arg11)) = V0 (Proc.devRef .tc main_arg11) :=
  (val12_keep V0 main_arg11 (by decide)).trans (val11_main_arg11 V0)
theorem val12_main_arg12 (V0 : Valuation τ sig (Elt F)) : val12 V0 (no_index (Proc.devRef .tc main_arg12)) = V0 (Proc.devRef .tc main_arg12) :=
  (val12_keep V0 main_arg12 (by decide)).trans (val11_main_arg12 V0)
theorem val12_main_arg13 (V0 : Valuation τ sig (Elt F)) : val12 V0 (no_index (Proc.devRef .tc main_arg13)) = V0 (Proc.devRef .tc main_arg13) :=
  (val12_keep V0 main_arg13 (by decide)).trans (val11_main_arg13 V0)
theorem val12_main_arg14 (V0 : Valuation τ sig (Elt F)) : val12 V0 (no_index (Proc.devRef .tc main_arg14)) = V0 (Proc.devRef .tc main_arg14) :=
  (val12_keep V0 main_arg14 (by decide)).trans (val11_main_arg14 V0)
theorem val12_main_arg15 (V0 : Valuation τ sig (Elt F)) : val12 V0 (no_index (Proc.devRef .tc main_arg15)) = V0 (Proc.devRef .tc main_arg15) :=
  (val12_keep V0 main_arg15 (by decide)).trans (val11_main_arg15 V0)
theorem val12_main_arg16 (V0 : Valuation τ sig (Elt F)) : val12 V0 (no_index (Proc.devRef .tc main_arg16)) = V0 (Proc.devRef .tc main_arg16) :=
  (val12_keep V0 main_arg16 (by decide)).trans (val11_main_arg16 V0)
theorem val12_main_arg17 (V0 : Valuation τ sig (Elt F)) : val12 V0 (no_index (Proc.devRef .tc main_arg17)) = V0 (Proc.devRef .tc main_arg17) :=
  (val12_keep V0 main_arg17 (by decide)).trans (val11_main_arg17 V0)
theorem val12_main_arg18 (V0 : Valuation τ sig (Elt F)) : val12 V0 (no_index (Proc.devRef .tc main_arg18)) = V0 (Proc.devRef .tc main_arg18) :=
  (val12_keep V0 main_arg18 (by decide)).trans (val11_main_arg18 V0)
theorem val12_main_arg19 (V0 : Valuation τ sig (Elt F)) : val12 V0 (no_index (Proc.devRef .tc main_arg19)) = V0 (Proc.devRef .tc main_arg19) :=
  (val12_keep V0 main_arg19 (by decide)).trans (val11_main_arg19 V0)
theorem val12_main_arg20 (V0 : Valuation τ sig (Elt F)) : val12 V0 (no_index (Proc.devRef .tc main_arg20)) = V0 (Proc.devRef .tc main_arg20) :=
  (val12_keep V0 main_arg20 (by decide)).trans (val11_main_arg20 V0)
theorem val12_main_arg21 (V0 : Valuation τ sig (Elt F)) : val12 V0 (no_index (Proc.devRef .tc main_arg21)) = V0 (Proc.devRef .tc main_arg21) :=
  (val12_keep V0 main_arg21 (by decide)).trans (val11_main_arg21 V0)
theorem val12_main_arg22 (V0 : Valuation τ sig (Elt F)) : val12 V0 (no_index (Proc.devRef .tc main_arg22)) = V0 (Proc.devRef .tc main_arg22) :=
  (val12_keep V0 main_arg22 (by decide)).trans (val11_main_arg22 V0)
theorem val12_main_arg23 (V0 : Valuation τ sig (Elt F)) : val12 V0 (no_index (Proc.devRef .tc main_arg23)) = V0 (Proc.devRef .tc main_arg23) :=
  (val12_keep V0 main_arg23 (by decide)).trans (val11_main_arg23 V0)
theorem val12_main_arg24 (V0 : Valuation τ sig (Elt F)) : val12 V0 (no_index (Proc.devRef .tc main_arg24)) = V0 (Proc.devRef .tc main_arg24) :=
  (val12_keep V0 main_arg24 (by decide)).trans (val11_main_arg24 V0)
theorem val12_main_arg25 (V0 : Valuation τ sig (Elt F)) : val12 V0 (no_index (Proc.devRef .tc main_arg25)) = V0 (Proc.devRef .tc main_arg25) :=
  (val12_keep V0 main_arg25 (by decide)).trans (val11_main_arg25 V0)
theorem val12_main_arg26 (V0 : Valuation τ sig (Elt F)) : val12 V0 (no_index (Proc.devRef .tc main_arg26)) = V0 (Proc.devRef .tc main_arg26) :=
  (val12_keep V0 main_arg26 (by decide)).trans (val11_main_arg26 V0)
theorem val12_main_v5 (V0 : Valuation τ sig (Elt F)) : val12 V0 (no_index (Proc.devRef .tc main_v5)) = res_main_v5 V0 :=
  (val12_keep V0 main_v5 (by decide)).trans (val11_main_v5 V0)
theorem val12_main_v6 (V0 : Valuation τ sig (Elt F)) : val12 V0 (no_index (Proc.devRef .tc main_v6)) = res_main_v6 V0 :=
  (val12_keep V0 main_v6 (by decide)).trans (val11_main_v6 V0)
theorem val12_main_v33 (V0 : Valuation τ sig (Elt F)) : val12 V0 (no_index (Proc.devRef .tc main_v33)) = res_main_v33 V0 :=
  (val12_keep V0 main_v33 (by decide)).trans (val11_main_v33 V0)
theorem val12_main_v70 (V0 : Valuation τ sig (Elt F)) : val12 V0 (no_index (Proc.devRef .tc main_v70)) = res_main_v70 V0 :=
  (val12_keep V0 main_v70 (by decide)).trans (val11_main_v70 V0)
theorem val12_main_v72 (V0 : Valuation τ sig (Elt F)) : val12 V0 (no_index (Proc.devRef .tc main_v72)) = res_main_v72 V0 :=
  (val12_keep V0 main_v72 (by decide)).trans (val11_main_v72 V0)
theorem val12_main_v102 (V0 : Valuation τ sig (Elt F)) : val12 V0 (no_index (Proc.devRef .tc main_v102)) = res_main_v102 V0 :=
  (val12_keep V0 main_v102 (by decide)).trans (val11_main_v102 V0)
theorem val12_main_v104 (V0 : Valuation τ sig (Elt F)) : val12 V0 (no_index (Proc.devRef .tc main_v104)) = res_main_v104 V0 :=
  (val12_keep V0 main_v104 (by decide)).trans (val11_main_v104 V0)
theorem val12_main_v218 (V0 : Valuation τ sig (Elt F)) : val12 V0 (no_index (Proc.devRef .tc main_v218)) = res_main_v218 V0 :=
  (val12_keep V0 main_v218 (by decide)).trans (val11_main_v218 V0)
theorem val12_main_v266 (V0 : Valuation τ sig (Elt F)) : val12 V0 (no_index (Proc.devRef .tc main_v266)) = res_main_v266 V0 :=
  (val12_keep V0 main_v266 (by decide)).trans (val11_main_v266 V0)
theorem val12_main_v315 (V0 : Valuation τ sig (Elt F)) : val12 V0 (no_index (Proc.devRef .tc main_v315)) = res_main_v315 V0 :=
  (val12_keep V0 main_v315 (by decide)).trans (val11_main_v315 V0)
theorem val12_main_v365 (V0 : Valuation τ sig (Elt F)) : val12 V0 (no_index (Proc.devRef .tc main_v365)) = res_main_v365 V0 :=
  (val12_keep V0 main_v365 (by decide)).trans (val11_main_v365 V0)
theorem val12_main_v416 (V0 : Valuation τ sig (Elt F)) : val12 V0 (no_index (Proc.devRef .tc main_v416)) = res_main_v416 V0 :=
  (val12_keep V0 main_v416 (by decide)).trans (val11_main_v416 V0)
theorem val12_main_v468 (V0 : Valuation τ sig (Elt F)) : val12 V0 (no_index (Proc.devRef .tc main_v468)) = res_main_v468 V0 :=
  (val12_keep V0 main_v468 (by decide)).trans (val11_main_v468 V0)
theorem val12_main_v521 (V0 : Valuation τ sig (Elt F)) : val12 V0 (no_index (Proc.devRef .tc main_v521)) = res_main_v521 V0 :=
  (val12_keep V0 main_v521 (by decide)).trans (val11_main_v521 V0)
theorem val12_main_v575 (V0 : Valuation τ sig (Elt F)) : val12 V0 (no_index (Proc.devRef .tc main_v575)) = res_main_v575 V0 :=
  w11_main_v575 (val11 V0) V0 (val11_main_v5 V0) (val11_main_v6 V0) (val11_main_v68 V0) (val11_main_v559 V0) (val11_main_v560 V0)
theorem val12_main_v606 (V0 : Valuation τ sig (Elt F)) : val12 V0 (no_index (Proc.devRef .tc main_v606)) = res_main_v606 V0 :=
  w11_main_v606 (val11 V0) V0 (val11_main_v5 V0) (val11_main_v6 V0) (val11_main_v68 V0) (val11_main_v98 V0) (val11_main_v100 V0) (val11_main_v218 V0) (val11_main_v266 V0) (val11_main_v315 V0) (val11_main_v365 V0) (val11_main_v416 V0) (val11_main_v468 V0) (val11_main_v521 V0) (val11_main_v559 V0) (val11_main_v560 V0)
theorem val12_main_v610 (V0 : Valuation τ sig (Elt F)) : val12 V0 (no_index (Proc.devRef .tc main_v610)) = res_main_v610 V0 :=
  w11_main_v610 (val11 V0) V0 (val11_main_v5 V0) (val11_main_v6 V0) (val11_main_v68 V0) (val11_main_v98 V0) (val11_main_v100 V0) (val11_main_v218 V0) (val11_main_v266 V0) (val11_main_v315 V0) (val11_main_v365 V0) (val11_main_v416 V0) (val11_main_v468 V0) (val11_main_v521 V0) (val11_main_v559 V0) (val11_main_v560 V0)

/-- The device's buffer contents after @main's first 13 windows. -/
noncomputable def val13 (V0 : Valuation τ sig (Elt F)) : Valuation τ sig (Elt F) := after ops_part12 (val12 V0)
/-- A buffer that window `main_part12` does not write keeps its contents through it. -/
theorem val13_keep (V0 : Valuation τ sig (Elt F)) (r : Ref sig .tc) (h : r ∉ ops_part12_W) :
    val13 V0 (Proc.devRef .tc r) = val12 V0 (Proc.devRef .tc r) :=
  after_of_writes_sub ops_part12 _ ops_part12_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide)).trans (val12_main_arg3 V0)
theorem val13_main_arg4 (V0 : Valuation τ sig (Elt F)) : val13 V0 (no_index (Proc.devRef .tc main_arg4)) = V0 (Proc.devRef .tc main_arg4) :=
  (val13_keep V0 main_arg4 (by decide)).trans (val12_main_arg4 V0)
theorem val13_main_arg5 (V0 : Valuation τ sig (Elt F)) : val13 V0 (no_index (Proc.devRef .tc main_arg5)) = V0 (Proc.devRef .tc main_arg5) :=
  (val13_keep V0 main_arg5 (by decide)).trans (val12_main_arg5 V0)
theorem val13_main_arg6 (V0 : Valuation τ sig (Elt F)) : val13 V0 (no_index (Proc.devRef .tc main_arg6)) = V0 (Proc.devRef .tc main_arg6) :=
  (val13_keep V0 main_arg6 (by decide)).trans (val12_main_arg6 V0)
theorem val13_main_arg7 (V0 : Valuation τ sig (Elt F)) : val13 V0 (no_index (Proc.devRef .tc main_arg7)) = V0 (Proc.devRef .tc main_arg7) :=
  (val13_keep V0 main_arg7 (by decide)).trans (val12_main_arg7 V0)
theorem val13_main_arg8 (V0 : Valuation τ sig (Elt F)) : val13 V0 (no_index (Proc.devRef .tc main_arg8)) = V0 (Proc.devRef .tc main_arg8) :=
  (val13_keep V0 main_arg8 (by decide)).trans (val12_main_arg8 V0)
theorem val13_main_arg9 (V0 : Valuation τ sig (Elt F)) : val13 V0 (no_index (Proc.devRef .tc main_arg9)) = V0 (Proc.devRef .tc main_arg9) :=
  (val13_keep V0 main_arg9 (by decide)).trans (val12_main_arg9 V0)
theorem val13_main_arg10 (V0 : Valuation τ sig (Elt F)) : val13 V0 (no_index (Proc.devRef .tc main_arg10)) = V0 (Proc.devRef .tc main_arg10) :=
  (val13_keep V0 main_arg10 (by decide)).trans (val12_main_arg10 V0)
theorem val13_main_arg11 (V0 : Valuation τ sig (Elt F)) : val13 V0 (no_index (Proc.devRef .tc main_arg11)) = V0 (Proc.devRef .tc main_arg11) :=
  (val13_keep V0 main_arg11 (by decide)).trans (val12_main_arg11 V0)
theorem val13_main_arg12 (V0 : Valuation τ sig (Elt F)) : val13 V0 (no_index (Proc.devRef .tc main_arg12)) = V0 (Proc.devRef .tc main_arg12) :=
  (val13_keep V0 main_arg12 (by decide)).trans (val12_main_arg12 V0)
theorem val13_main_arg13 (V0 : Valuation τ sig (Elt F)) : val13 V0 (no_index (Proc.devRef .tc main_arg13)) = V0 (Proc.devRef .tc main_arg13) :=
  (val13_keep V0 main_arg13 (by decide)).trans (val12_main_arg13 V0)
theorem val13_main_arg14 (V0 : Valuation τ sig (Elt F)) : val13 V0 (no_index (Proc.devRef .tc main_arg14)) = V0 (Proc.devRef .tc main_arg14) :=
  (val13_keep V0 main_arg14 (by decide)).trans (val12_main_arg14 V0)
theorem val13_main_arg15 (V0 : Valuation τ sig (Elt F)) : val13 V0 (no_index (Proc.devRef .tc main_arg15)) = V0 (Proc.devRef .tc main_arg15) :=
  (val13_keep V0 main_arg15 (by decide)).trans (val12_main_arg15 V0)
theorem val13_main_arg16 (V0 : Valuation τ sig (Elt F)) : val13 V0 (no_index (Proc.devRef .tc main_arg16)) = V0 (Proc.devRef .tc main_arg16) :=
  (val13_keep V0 main_arg16 (by decide)).trans (val12_main_arg16 V0)
theorem val13_main_arg17 (V0 : Valuation τ sig (Elt F)) : val13 V0 (no_index (Proc.devRef .tc main_arg17)) = V0 (Proc.devRef .tc main_arg17) :=
  (val13_keep V0 main_arg17 (by decide)).trans (val12_main_arg17 V0)
theorem val13_main_arg18 (V0 : Valuation τ sig (Elt F)) : val13 V0 (no_index (Proc.devRef .tc main_arg18)) = V0 (Proc.devRef .tc main_arg18) :=
  (val13_keep V0 main_arg18 (by decide)).trans (val12_main_arg18 V0)
theorem val13_main_arg19 (V0 : Valuation τ sig (Elt F)) : val13 V0 (no_index (Proc.devRef .tc main_arg19)) = V0 (Proc.devRef .tc main_arg19) :=
  (val13_keep V0 main_arg19 (by decide)).trans (val12_main_arg19 V0)
theorem val13_main_arg20 (V0 : Valuation τ sig (Elt F)) : val13 V0 (no_index (Proc.devRef .tc main_arg20)) = V0 (Proc.devRef .tc main_arg20) :=
  (val13_keep V0 main_arg20 (by decide)).trans (val12_main_arg20 V0)
theorem val13_main_arg21 (V0 : Valuation τ sig (Elt F)) : val13 V0 (no_index (Proc.devRef .tc main_arg21)) = V0 (Proc.devRef .tc main_arg21) :=
  (val13_keep V0 main_arg21 (by decide)).trans (val12_main_arg21 V0)
theorem val13_main_arg22 (V0 : Valuation τ sig (Elt F)) : val13 V0 (no_index (Proc.devRef .tc main_arg22)) = V0 (Proc.devRef .tc main_arg22) :=
  (val13_keep V0 main_arg22 (by decide)).trans (val12_main_arg22 V0)
theorem val13_main_arg23 (V0 : Valuation τ sig (Elt F)) : val13 V0 (no_index (Proc.devRef .tc main_arg23)) = V0 (Proc.devRef .tc main_arg23) :=
  (val13_keep V0 main_arg23 (by decide)).trans (val12_main_arg23 V0)
theorem val13_main_arg24 (V0 : Valuation τ sig (Elt F)) : val13 V0 (no_index (Proc.devRef .tc main_arg24)) = V0 (Proc.devRef .tc main_arg24) :=
  (val13_keep V0 main_arg24 (by decide)).trans (val12_main_arg24 V0)
theorem val13_main_arg25 (V0 : Valuation τ sig (Elt F)) : val13 V0 (no_index (Proc.devRef .tc main_arg25)) = V0 (Proc.devRef .tc main_arg25) :=
  (val13_keep V0 main_arg25 (by decide)).trans (val12_main_arg25 V0)
theorem val13_main_arg26 (V0 : Valuation τ sig (Elt F)) : val13 V0 (no_index (Proc.devRef .tc main_arg26)) = V0 (Proc.devRef .tc main_arg26) :=
  (val13_keep V0 main_arg26 (by decide)).trans (val12_main_arg26 V0)
theorem val13_main_v5 (V0 : Valuation τ sig (Elt F)) : val13 V0 (no_index (Proc.devRef .tc main_v5)) = res_main_v5 V0 :=
  (val13_keep V0 main_v5 (by decide)).trans (val12_main_v5 V0)
theorem val13_main_v6 (V0 : Valuation τ sig (Elt F)) : val13 V0 (no_index (Proc.devRef .tc main_v6)) = res_main_v6 V0 :=
  (val13_keep V0 main_v6 (by decide)).trans (val12_main_v6 V0)
theorem val13_main_v33 (V0 : Valuation τ sig (Elt F)) : val13 V0 (no_index (Proc.devRef .tc main_v33)) = res_main_v33 V0 :=
  (val13_keep V0 main_v33 (by decide)).trans (val12_main_v33 V0)
theorem val13_main_v662 (V0 : Valuation τ sig (Elt F)) : val13 V0 (no_index (Proc.devRef .tc main_v662)) = res_main_v662 V0 :=
  w12_main_v662 (val12 V0) V0 (val12_main_v5 V0) (val12_main_v6 V0) (val12_main_v33 V0) (val12_main_v70 V0) (val12_main_v72 V0) (val12_main_v102 V0) (val12_main_v104 V0) (val12_main_v218 V0) (val12_main_v266 V0) (val12_main_v315 V0) (val12_main_v365 V0) (val12_main_v416 V0) (val12_main_v468 V0) (val12_main_v521 V0) (val12_main_v575 V0) (val12_main_v606 V0) (val12_main_v610 V0)

/-- The device's buffer contents after @main's first 14 windows. -/
noncomputable def val14 (V0 : Valuation τ sig (Elt F)) : Valuation τ sig (Elt F) := after ops_part13 (val13 V0)
/-- A buffer that window `main_part13` does not write keeps its contents through it. -/
theorem val14_keep (V0 : Valuation τ sig (Elt F)) (r : Ref sig .tc) (h : r ∉ ops_part13_W) :
    val14 V0 (Proc.devRef .tc r) = val13 V0 (Proc.devRef .tc r) :=
  after_of_writes_sub ops_part13 _ ops_part13_writes h
theorem val14_main_arg0 (V0 : Valuation τ sig (Elt F)) : val14 V0 (no_index (Proc.devRef .tc main_arg0)) = V0 (Proc.devRef .tc main_arg0) :=
  (val14_keep V0 main_arg0 (by decide)).trans (val13_main_arg0 V0)
theorem val14_main_arg1 (V0 : Valuation τ sig (Elt F)) : val14 V0 (no_index (Proc.devRef .tc main_arg1)) = V0 (Proc.devRef .tc main_arg1) :=
  (val14_keep V0 main_arg1 (by decide)).trans (val13_main_arg1 V0)
theorem val14_main_arg2 (V0 : Valuation τ sig (Elt F)) : val14 V0 (no_index (Proc.devRef .tc main_arg2)) = V0 (Proc.devRef .tc main_arg2) :=
  (val14_keep V0 main_arg2 (by decide)).trans (val13_main_arg2 V0)
theorem val14_main_arg3 (V0 : Valuation τ sig (Elt F)) : val14 V0 (no_index (Proc.devRef .tc main_arg3)) = V0 (Proc.devRef .tc main_arg3) :=
  (val14_keep V0 main_arg3 (by decide)).trans (val13_main_arg3 V0)
theorem val14_main_arg4 (V0 : Valuation τ sig (Elt F)) : val14 V0 (no_index (Proc.devRef .tc main_arg4)) = V0 (Proc.devRef .tc main_arg4) :=
  (val14_keep V0 main_arg4 (by decide)).trans (val13_main_arg4 V0)
theorem val14_main_arg5 (V0 : Valuation τ sig (Elt F)) : val14 V0 (no_index (Proc.devRef .tc main_arg5)) = V0 (Proc.devRef .tc main_arg5) :=
  (val14_keep V0 main_arg5 (by decide)).trans (val13_main_arg5 V0)
theorem val14_main_arg6 (V0 : Valuation τ sig (Elt F)) : val14 V0 (no_index (Proc.devRef .tc main_arg6)) = V0 (Proc.devRef .tc main_arg6) :=
  (val14_keep V0 main_arg6 (by decide)).trans (val13_main_arg6 V0)
theorem val14_main_arg7 (V0 : Valuation τ sig (Elt F)) : val14 V0 (no_index (Proc.devRef .tc main_arg7)) = V0 (Proc.devRef .tc main_arg7) :=
  (val14_keep V0 main_arg7 (by decide)).trans (val13_main_arg7 V0)
theorem val14_main_arg8 (V0 : Valuation τ sig (Elt F)) : val14 V0 (no_index (Proc.devRef .tc main_arg8)) = V0 (Proc.devRef .tc main_arg8) :=
  (val14_keep V0 main_arg8 (by decide)).trans (val13_main_arg8 V0)
theorem val14_main_arg9 (V0 : Valuation τ sig (Elt F)) : val14 V0 (no_index (Proc.devRef .tc main_arg9)) = V0 (Proc.devRef .tc main_arg9) :=
  (val14_keep V0 main_arg9 (by decide)).trans (val13_main_arg9 V0)
theorem val14_main_arg10 (V0 : Valuation τ sig (Elt F)) : val14 V0 (no_index (Proc.devRef .tc main_arg10)) = V0 (Proc.devRef .tc main_arg10) :=
  (val14_keep V0 main_arg10 (by decide)).trans (val13_main_arg10 V0)
theorem val14_main_arg11 (V0 : Valuation τ sig (Elt F)) : val14 V0 (no_index (Proc.devRef .tc main_arg11)) = V0 (Proc.devRef .tc main_arg11) :=
  (val14_keep V0 main_arg11 (by decide)).trans (val13_main_arg11 V0)
theorem val14_main_arg12 (V0 : Valuation τ sig (Elt F)) : val14 V0 (no_index (Proc.devRef .tc main_arg12)) = V0 (Proc.devRef .tc main_arg12) :=
  (val14_keep V0 main_arg12 (by decide)).trans (val13_main_arg12 V0)
theorem val14_main_arg13 (V0 : Valuation τ sig (Elt F)) : val14 V0 (no_index (Proc.devRef .tc main_arg13)) = V0 (Proc.devRef .tc main_arg13) :=
  (val14_keep V0 main_arg13 (by decide)).trans (val13_main_arg13 V0)
theorem val14_main_arg14 (V0 : Valuation τ sig (Elt F)) : val14 V0 (no_index (Proc.devRef .tc main_arg14)) = V0 (Proc.devRef .tc main_arg14) :=
  (val14_keep V0 main_arg14 (by decide)).trans (val13_main_arg14 V0)
theorem val14_main_arg15 (V0 : Valuation τ sig (Elt F)) : val14 V0 (no_index (Proc.devRef .tc main_arg15)) = V0 (Proc.devRef .tc main_arg15) :=
  (val14_keep V0 main_arg15 (by decide)).trans (val13_main_arg15 V0)
theorem val14_main_arg16 (V0 : Valuation τ sig (Elt F)) : val14 V0 (no_index (Proc.devRef .tc main_arg16)) = V0 (Proc.devRef .tc main_arg16) :=
  (val14_keep V0 main_arg16 (by decide)).trans (val13_main_arg16 V0)
theorem val14_main_arg17 (V0 : Valuation τ sig (Elt F)) : val14 V0 (no_index (Proc.devRef .tc main_arg17)) = V0 (Proc.devRef .tc main_arg17) :=
  (val14_keep V0 main_arg17 (by decide)).trans (val13_main_arg17 V0)
theorem val14_main_arg18 (V0 : Valuation τ sig (Elt F)) : val14 V0 (no_index (Proc.devRef .tc main_arg18)) = V0 (Proc.devRef .tc main_arg18) :=
  (val14_keep V0 main_arg18 (by decide)).trans (val13_main_arg18 V0)
theorem val14_main_arg19 (V0 : Valuation τ sig (Elt F)) : val14 V0 (no_index (Proc.devRef .tc main_arg19)) = V0 (Proc.devRef .tc main_arg19) :=
  (val14_keep V0 main_arg19 (by decide)).trans (val13_main_arg19 V0)
theorem val14_main_arg20 (V0 : Valuation τ sig (Elt F)) : val14 V0 (no_index (Proc.devRef .tc main_arg20)) = V0 (Proc.devRef .tc main_arg20) :=
  (val14_keep V0 main_arg20 (by decide)).trans (val13_main_arg20 V0)
theorem val14_main_arg21 (V0 : Valuation τ sig (Elt F)) : val14 V0 (no_index (Proc.devRef .tc main_arg21)) = V0 (Proc.devRef .tc main_arg21) :=
  (val14_keep V0 main_arg21 (by decide)).trans (val13_main_arg21 V0)
theorem val14_main_arg22 (V0 : Valuation τ sig (Elt F)) : val14 V0 (no_index (Proc.devRef .tc main_arg22)) = V0 (Proc.devRef .tc main_arg22) :=
  (val14_keep V0 main_arg22 (by decide)).trans (val13_main_arg22 V0)
theorem val14_main_arg23 (V0 : Valuation τ sig (Elt F)) : val14 V0 (no_index (Proc.devRef .tc main_arg23)) = V0 (Proc.devRef .tc main_arg23) :=
  (val14_keep V0 main_arg23 (by decide)).trans (val13_main_arg23 V0)
theorem val14_main_arg24 (V0 : Valuation τ sig (Elt F)) : val14 V0 (no_index (Proc.devRef .tc main_arg24)) = V0 (Proc.devRef .tc main_arg24) :=
  (val14_keep V0 main_arg24 (by decide)).trans (val13_main_arg24 V0)
theorem val14_main_arg25 (V0 : Valuation τ sig (Elt F)) : val14 V0 (no_index (Proc.devRef .tc main_arg25)) = V0 (Proc.devRef .tc main_arg25) :=
  (val14_keep V0 main_arg25 (by decide)).trans (val13_main_arg25 V0)
theorem val14_main_arg26 (V0 : Valuation τ sig (Elt F)) : val14 V0 (no_index (Proc.devRef .tc main_arg26)) = V0 (Proc.devRef .tc main_arg26) :=
  (val14_keep V0 main_arg26 (by decide)).trans (val13_main_arg26 V0)
theorem val14_main_v710 (V0 : Valuation τ sig (Elt F)) : val14 V0 (no_index (Proc.devRef .tc main_v710)) = res_main_v710 V0 :=
  w13_main_v710 (val13 V0) V0 (val13_main_arg14 V0) (val13_main_arg15 V0) (val13_main_v5 V0) (val13_main_v6 V0) (val13_main_v33 V0) (val13_main_v662 V0)

/-- The device's buffer contents after @main's first 15 windows. -/
noncomputable def val15 (V0 : Valuation τ sig (Elt F)) : Valuation τ sig (Elt F) := after ops_part14 (val14 V0)
/-- A buffer that window `main_part14` does not write keeps its contents through it. -/
theorem val15_keep (V0 : Valuation τ sig (Elt F)) (r : Ref sig .tc) (h : r ∉ ops_part14_W) :
    val15 V0 (Proc.devRef .tc r) = val14 V0 (Proc.devRef .tc r) :=
  after_of_writes_sub ops_part14 _ ops_part14_writes h
theorem val15_main_arg0 (V0 : Valuation τ sig (Elt F)) : val15 V0 (no_index (Proc.devRef .tc main_arg0)) = V0 (Proc.devRef .tc main_arg0) :=
  (val15_keep V0 main_arg0 (by decide)).trans (val14_main_arg0 V0)
theorem val15_main_arg1 (V0 : Valuation τ sig (Elt F)) : val15 V0 (no_index (Proc.devRef .tc main_arg1)) = V0 (Proc.devRef .tc main_arg1) :=
  (val15_keep V0 main_arg1 (by decide)).trans (val14_main_arg1 V0)
theorem val15_main_arg2 (V0 : Valuation τ sig (Elt F)) : val15 V0 (no_index (Proc.devRef .tc main_arg2)) = V0 (Proc.devRef .tc main_arg2) :=
  (val15_keep V0 main_arg2 (by decide)).trans (val14_main_arg2 V0)
theorem val15_main_arg3 (V0 : Valuation τ sig (Elt F)) : val15 V0 (no_index (Proc.devRef .tc main_arg3)) = V0 (Proc.devRef .tc main_arg3) :=
  (val15_keep V0 main_arg3 (by decide)).trans (val14_main_arg3 V0)
theorem val15_main_arg4 (V0 : Valuation τ sig (Elt F)) : val15 V0 (no_index (Proc.devRef .tc main_arg4)) = V0 (Proc.devRef .tc main_arg4) :=
  (val15_keep V0 main_arg4 (by decide)).trans (val14_main_arg4 V0)
theorem val15_main_arg5 (V0 : Valuation τ sig (Elt F)) : val15 V0 (no_index (Proc.devRef .tc main_arg5)) = V0 (Proc.devRef .tc main_arg5) :=
  (val15_keep V0 main_arg5 (by decide)).trans (val14_main_arg5 V0)
theorem val15_main_arg6 (V0 : Valuation τ sig (Elt F)) : val15 V0 (no_index (Proc.devRef .tc main_arg6)) = V0 (Proc.devRef .tc main_arg6) :=
  (val15_keep V0 main_arg6 (by decide)).trans (val14_main_arg6 V0)
theorem val15_main_arg7 (V0 : Valuation τ sig (Elt F)) : val15 V0 (no_index (Proc.devRef .tc main_arg7)) = V0 (Proc.devRef .tc main_arg7) :=
  (val15_keep V0 main_arg7 (by decide)).trans (val14_main_arg7 V0)
theorem val15_main_arg8 (V0 : Valuation τ sig (Elt F)) : val15 V0 (no_index (Proc.devRef .tc main_arg8)) = V0 (Proc.devRef .tc main_arg8) :=
  (val15_keep V0 main_arg8 (by decide)).trans (val14_main_arg8 V0)
theorem val15_main_arg9 (V0 : Valuation τ sig (Elt F)) : val15 V0 (no_index (Proc.devRef .tc main_arg9)) = V0 (Proc.devRef .tc main_arg9) :=
  (val15_keep V0 main_arg9 (by decide)).trans (val14_main_arg9 V0)
theorem val15_main_arg10 (V0 : Valuation τ sig (Elt F)) : val15 V0 (no_index (Proc.devRef .tc main_arg10)) = V0 (Proc.devRef .tc main_arg10) :=
  (val15_keep V0 main_arg10 (by decide)).trans (val14_main_arg10 V0)
theorem val15_main_arg11 (V0 : Valuation τ sig (Elt F)) : val15 V0 (no_index (Proc.devRef .tc main_arg11)) = V0 (Proc.devRef .tc main_arg11) :=
  (val15_keep V0 main_arg11 (by decide)).trans (val14_main_arg11 V0)
theorem val15_main_arg12 (V0 : Valuation τ sig (Elt F)) : val15 V0 (no_index (Proc.devRef .tc main_arg12)) = V0 (Proc.devRef .tc main_arg12) :=
  (val15_keep V0 main_arg12 (by decide)).trans (val14_main_arg12 V0)
theorem val15_main_arg13 (V0 : Valuation τ sig (Elt F)) : val15 V0 (no_index (Proc.devRef .tc main_arg13)) = V0 (Proc.devRef .tc main_arg13) :=
  (val15_keep V0 main_arg13 (by decide)).trans (val14_main_arg13 V0)
theorem val15_main_arg14 (V0 : Valuation τ sig (Elt F)) : val15 V0 (no_index (Proc.devRef .tc main_arg14)) = V0 (Proc.devRef .tc main_arg14) :=
  (val15_keep V0 main_arg14 (by decide)).trans (val14_main_arg14 V0)
theorem val15_main_arg15 (V0 : Valuation τ sig (Elt F)) : val15 V0 (no_index (Proc.devRef .tc main_arg15)) = V0 (Proc.devRef .tc main_arg15) :=
  (val15_keep V0 main_arg15 (by decide)).trans (val14_main_arg15 V0)
theorem val15_main_arg16 (V0 : Valuation τ sig (Elt F)) : val15 V0 (no_index (Proc.devRef .tc main_arg16)) = V0 (Proc.devRef .tc main_arg16) :=
  (val15_keep V0 main_arg16 (by decide)).trans (val14_main_arg16 V0)
theorem val15_main_arg17 (V0 : Valuation τ sig (Elt F)) : val15 V0 (no_index (Proc.devRef .tc main_arg17)) = V0 (Proc.devRef .tc main_arg17) :=
  (val15_keep V0 main_arg17 (by decide)).trans (val14_main_arg17 V0)
theorem val15_main_arg18 (V0 : Valuation τ sig (Elt F)) : val15 V0 (no_index (Proc.devRef .tc main_arg18)) = V0 (Proc.devRef .tc main_arg18) :=
  (val15_keep V0 main_arg18 (by decide)).trans (val14_main_arg18 V0)
theorem val15_main_arg19 (V0 : Valuation τ sig (Elt F)) : val15 V0 (no_index (Proc.devRef .tc main_arg19)) = V0 (Proc.devRef .tc main_arg19) :=
  (val15_keep V0 main_arg19 (by decide)).trans (val14_main_arg19 V0)
theorem val15_main_arg20 (V0 : Valuation τ sig (Elt F)) : val15 V0 (no_index (Proc.devRef .tc main_arg20)) = V0 (Proc.devRef .tc main_arg20) :=
  (val15_keep V0 main_arg20 (by decide)).trans (val14_main_arg20 V0)
theorem val15_main_arg21 (V0 : Valuation τ sig (Elt F)) : val15 V0 (no_index (Proc.devRef .tc main_arg21)) = V0 (Proc.devRef .tc main_arg21) :=
  (val15_keep V0 main_arg21 (by decide)).trans (val14_main_arg21 V0)
theorem val15_main_arg22 (V0 : Valuation τ sig (Elt F)) : val15 V0 (no_index (Proc.devRef .tc main_arg22)) = V0 (Proc.devRef .tc main_arg22) :=
  (val15_keep V0 main_arg22 (by decide)).trans (val14_main_arg22 V0)
theorem val15_main_arg23 (V0 : Valuation τ sig (Elt F)) : val15 V0 (no_index (Proc.devRef .tc main_arg23)) = V0 (Proc.devRef .tc main_arg23) :=
  (val15_keep V0 main_arg23 (by decide)).trans (val14_main_arg23 V0)
theorem val15_main_arg24 (V0 : Valuation τ sig (Elt F)) : val15 V0 (no_index (Proc.devRef .tc main_arg24)) = V0 (Proc.devRef .tc main_arg24) :=
  (val15_keep V0 main_arg24 (by decide)).trans (val14_main_arg24 V0)
theorem val15_main_arg25 (V0 : Valuation τ sig (Elt F)) : val15 V0 (no_index (Proc.devRef .tc main_arg25)) = V0 (Proc.devRef .tc main_arg25) :=
  (val15_keep V0 main_arg25 (by decide)).trans (val14_main_arg25 V0)
theorem val15_main_arg26 (V0 : Valuation τ sig (Elt F)) : val15 V0 (no_index (Proc.devRef .tc main_arg26)) = V0 (Proc.devRef .tc main_arg26) :=
  (val15_keep V0 main_arg26 (by decide)).trans (val14_main_arg26 V0)
theorem val15_main_v718 (V0 : Valuation τ sig (Elt F)) : val15 V0 (no_index (Proc.devRef .tc main_v718)) = res_main_v718 V0 :=
  w14_main_v718 (val14 V0) V0 (val14_main_arg24 V0) (val14_main_arg25 V0) (val14_main_arg26 V0) (val14_main_v710 V0)

theorem after_ops (V0 : Valuation τ sig (Elt F)) : after ops V0 = val15 V0 := by
  simp only [ops, after_append]
  rfl

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h, List.forall_iff_forall_mem.mp ops_part7_sub op h, List.forall_iff_forall_mem.mp ops_part8_sub op h, List.forall_iff_forall_mem.mp ops_part9_sub op h, List.forall_iff_forall_mem.mp ops_part10_sub op h, List.forall_iff_forall_mem.mp ops_part11_sub op h, List.forall_iff_forall_mem.mp ops_part12_sub op h, List.forall_iff_forall_mem.mp ops_part13_sub op h, List.forall_iff_forall_mem.mp ops_part14_sub op h]

end Cert.ReferenceIdeal.Hand

end
-- ==== Proof.Ref.MainEq.lean ====
import proofs.«408084_j48395691492010_3_alg».proof.Proof.Ref.Ops

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq ops_part0 := by
  simp only [main_part0, fn_where.body, seq, bind_assoc, pure_bind]
  rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := by
  simp only [main_part2, fn_var.body, fn_where_0.body, seq, bind_assoc, pure_bind]
  rfl
set_option maxRecDepth 8192 in
set_option maxHeartbeats 4000000 in
theorem main_part3_eq (c : Dev nD) : main_part3 (F := F) c = seq ops_part3 := by
  simp only [main_part3, fn_var_1.body, fn_where_2.body, seq, bind_assoc, pure_bind]
  rfl
set_option maxRecDepth 8192 in
set_option maxHeartbeats 4000000 in
theorem main_part4_eq (c : Dev nD) : main_part4 (F := F) c = seq ops_part4 := by
  simp only [main_part4, fn_var.body, fn_where_0.body, seq, bind_assoc, pure_bind]
  rfl
set_option maxRecDepth 8192 in
set_option maxHeartbeats 4000000 in
theorem main_part5_eq (c : Dev nD) : main_part5 (F := F) c = seq ops_part5 := by
  simp only [main_part5, fn_var.body, fn_where_0.body, seq, bind_assoc, pure_bind]
  rfl
set_option maxRecDepth 8192 in
set_option maxHeartbeats 4000000 in
theorem main_part6_eq (c : Dev nD) : main_part6 (F := F) c = seq ops_part6 := by
  simp only [main_part6, fn_var.body, fn_where_0.body, seq, bind_assoc, pure_bind]
  rfl
set_option maxRecDepth 8192 in
set_option maxHeartbeats 4000000 in
theorem main_part7_eq (c : Dev nD) : main_part7 (F := F) c = seq ops_part7 := by
  simp only [main_part7, fn_var.body, fn_where_0.body, seq, bind_assoc, pure_bind]
  rfl
set_option maxRecDepth 8192 in
set_option maxHeartbeats 4000000 in
theorem main_part8_eq (c : Dev nD) : main_part8 (F := F) c = seq ops_part8 := by
  simp only [main_part8, fn_var.body, fn_where_0.body, seq, bind_assoc, pure_bind]
  rfl
set_option maxRecDepth 8192 in
set_option maxHeartbeats 4000000 in
theorem main_part9_eq (c : Dev nD) : main_part9 (F := F) c = seq ops_part9 := by
  simp only [main_part9, fn_var.body, fn_where_0.body, seq, bind_assoc, pure_bind]
  rfl
set_option maxRecDepth 8192 in
set_option maxHeartbeats 4000000 in
theorem main_part10_eq (c : Dev nD) : main_part10 (F := F) c = seq ops_part10 := by
  simp only [main_part10, fn_var.body, fn_where_0.body, seq, bind_assoc, pure_bind]
  rfl
set_option maxRecDepth 8192 in
set_option maxHeartbeats 4000000 in
theorem main_part11_eq (c : Dev nD) : main_part11 (F := F) c = seq ops_part11 := by
  simp only [main_part11, fn_var.body, fn_where_0.body, seq, bind_assoc, pure_bind]
  rfl
set_option maxRecDepth 8192 in
set_option maxHeartbeats 4000000 in
theorem main_part12_eq (c : Dev nD) : main_part12 (F := F) c = seq ops_part12 := by
  simp only [main_part12, fn_var.body, fn_where_0.body, seq, bind_assoc, pure_bind]
  rfl
set_option maxRecDepth 8192 in
set_option maxHeartbeats 4000000 in
theorem main_part13_eq (c : Dev nD) : main_part13 (F := F) c = seq ops_part13 := by
  simp only [main_part13, fn_var_3.body, fn_where_4.body, seq, bind_assoc, pure_bind]
  rfl
set_option maxRecDepth 8192 in
set_option maxHeartbeats 4000000 in
theorem main_part14_eq (c : Dev nD) : main_part14 (F := F) c = seq ops_part14 := rfl

set_option maxRecDepth 8192 in
/-- @main is its windows in order, each a straight line: joined by `seq_append`. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.Ref.Fresh.lean ====
import proofs.«408084_j48395691492010_3_alg».proof.Proof.Ref.Ops

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! No operation of the line leaves a result to be chosen: each is one of the builders, whose set of such
    buffers is empty by computation. Window by window, then for the whole line. -/

set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part6_fresh : (ops_part6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part7_fresh : (ops_part7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part8_fresh : (ops_part8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part9_fresh : (ops_part9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part10_fresh : (ops_part10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part11_fresh : (ops_part11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part12_fresh : (ops_part12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part13_fresh : (ops_part13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part14_fresh : (ops_part14 : List (HloOp τ sig (Elt F))).Forall fun op => op.fresh = ∅ :=
  ⟨rfl, rfl, rfl, rfl, rfl, rfl, rfl, rfl⟩

theorem ops_fresh : ∀ op ∈ (ops : List (HloOp τ sig (Elt F))), op.fresh = ∅ := fun op h => by
  simp only [ops, List.mem_append] at h
  rcases h with h | h | h | h | h | h | h | h | h | h | h | h | h | h | h
  exacts [List.forall_iff_forall_mem.mp ops_part0_fresh op h, List.forall_iff_forall_mem.mp ops_part1_fresh op h, List.forall_iff_forall_mem.mp ops_part2_fresh op h, List.forall_iff_forall_mem.mp ops_part3_fresh op h, List.forall_iff_forall_mem.mp ops_part4_fresh op h, List.forall_iff_forall_mem.mp ops_part5_fresh op h, List.forall_iff_forall_mem.mp ops_part6_fresh op h, List.forall_iff_forall_mem.mp ops_part7_fresh op h, List.forall_iff_forall_mem.mp ops_part8_fresh op h, List.forall_iff_forall_mem.mp ops_part9_fresh op h, List.forall_iff_forall_mem.mp ops_part10_fresh op h, List.forall_iff_forall_mem.mp ops_part11_fresh op h, List.forall_iff_forall_mem.mp ops_part12_fresh op h, List.forall_iff_forall_mem.mp ops_part13_fresh op h, List.forall_iff_forall_mem.mp ops_part14_fresh op h]

end Cert.ReferenceIdeal.Hand

end
-- ==== Proof.Ref.Run.lean ====
import proofs.«408084_j48395691492010_3_alg».proof.Proof.Ref.Chain
import proofs.«408084_j48395691492010_3_alg».proof.Proof.Ref.MainEq
import proofs.«408084_j48395691492010_3_alg».proof.Proof.Ref.Fresh

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The result of @main as a term of the launch contents, over the named intermediates. -/
noncomputable abbrev res_out (V0 : Valuation τ sig (Elt F)) : (Proc.devRef .tc main_v718 : DevRef τ sig).ty.Contents (Elt F) := res_main_v718 V0

/-- On every device, for any float values, from any memory with zero counters: every weakly fair execution of @main
    terminates with the result at `res_out` of the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v718) = res_out (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun r h c =>
      have key : ∀ b : Ref sig .tc, r.2.mem ((c.tc : Thread nD τ).loc b) = val15 (launchContents m c) (Proc.devRef .tc b) :=
        fun b => (h c b).trans (congrFun (after_ops (launchContents m c)) (Proc.devRef .tc b))
      ⟨(key main_v718).trans (val15_main_v718 (launchContents m c)),
       (key main_arg0).trans (val15_main_arg0 (launchContents m c)),
       (key main_arg1).trans (val15_main_arg1 (launchContents m c)),
       (key main_arg2).trans (val15_main_arg2 (launchContents m c)),
       (key main_arg3).trans (val15_main_arg3 (launchContents m c)),
       (key main_arg4).trans (val15_main_arg4 (launchContents m c)),
       (key main_arg5).trans (val15_main_arg5 (launchContents m c)),
       (key main_arg6).trans (val15_main_arg6 (launchContents m c)),
       (key main_arg7).trans (val15_main_arg7 (launchContents m c)),
       (key main_arg8).trans (val15_main_arg8 (launchContents m c)),
       (key main_arg9).trans (val15_main_arg9 (launchContents m c)),
       (key main_arg10).trans (val15_main_arg10 (launchContents m c)),
       (key main_arg11).trans (val15_main_arg11 (launchContents m c)),
       (key main_arg12).trans (val15_main_arg12 (launchContents m c)),
       (key main_arg13).trans (val15_main_arg13 (launchContents m c)),
       (key main_arg14).trans (val15_main_arg14 (launchContents m c)),
       (key main_arg15).trans (val15_main_arg15 (launchContents m c)),
       (key main_arg16).trans (val15_main_arg16 (launchContents m c)),
       (key main_arg17).trans (val15_main_arg17 (launchContents m c)),
       (key main_arg18).trans (val15_main_arg18 (launchContents m c)),
       (key main_arg19).trans (val15_main_arg19 (launchContents m c)),
       (key main_arg20).trans (val15_main_arg20 (launchContents m c)),
       (key main_arg21).trans (val15_main_arg21 (launchContents m c)),
       (key main_arg22).trans (val15_main_arg22 (launchContents m c)),
       (key main_arg23).trans (val15_main_arg23 (launchContents m c)),
       (key main_arg24).trans (val15_main_arg24 (launchContents m c)),
       (key main_arg25).trans (val15_main_arg25 (launchContents m c)),
       (key main_arg26).trans (val15_main_arg26 (launchContents m c))⟩)
    (run_seq scopedRefs_eq scopedSems_eq defs main (fun _ => ops) main_eq (fun _ => ops_sub) m ρ (fun _ => ops_fresh))

end Cert.ReferenceIdeal.Hand

end
-- ==== Proof.Val.Shell.lean ====
/-
  The comparison of the two programs at the ideal values, reduced to ONE equation per device.

  Both programs run from launch memories that agree on the 27 argument arrays, and each leaves its arguments as
  launched. The kernel program ends with its result array holding the last boundary's contents; the reference ends
  with its result array holding its result term of the launch contents. So once that term equals those contents
  (the hypothesis `heq`, an equation between two arrays of extended reals), the comparison holds: the kernel
  program's run is used as it is, the reference's run is weakened through the equation.

  Also each argument's agreement read in the form the inner modules use it: the reference's launch contents at the
  argument are the kernel program's launch memory there (the same equation, the left side spelled through the launch
  contents).
-/
import proofs.«408084_j48395691492010_3_alg».proof.Defs
import proofs.«408084_j48395691492010_3_alg».proof.Proof.KI.Pack
import proofs.«408084_j48395691492010_3_alg».proof.Proof.Ref.Run

noncomputable section

namespace Cert.Proof.Val

open Idealize.ShloMosaic Idealize.ShloMosaic.TcCoe Idealize.SL.Sem
open Idealize.ShloMosaic.StableHlo (launchContents)

/-- The two launch memories hold the same 27 argument arrays on device `c`: the agreement the comparison of the two
    programs assumes, argument by argument in position order. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
  ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
  ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
  ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
  ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)

/-! ## One argument's agreement, read through the launch contents -/

theorem agree_0 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (launchContents m' c) (Proc.devRef .tc Cert.ReferenceIdeal.main_arg0) = m ((c : Thread Cert.KernelIdeal.nD Cert.KernelIdeal.τ).loc Cert.KernelIdeal.main_arg0) := h
theorem agree_1 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (launchContents m' c) (Proc.devRef .tc Cert.ReferenceIdeal.main_arg1) = m ((c : Thread Cert.KernelIdeal.nD Cert.KernelIdeal.τ).loc Cert.KernelIdeal.main_arg1) := h
theorem agree_2 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (launchContents m' c) (Proc.devRef .tc Cert.ReferenceIdeal.main_arg2) = m ((c : Thread Cert.KernelIdeal.nD Cert.KernelIdeal.τ).loc Cert.KernelIdeal.main_arg2) := h
theorem agree_3 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (launchContents m' c) (Proc.devRef .tc Cert.ReferenceIdeal.main_arg3) = m ((c : Thread Cert.KernelIdeal.nD Cert.KernelIdeal.τ).loc Cert.KernelIdeal.main_arg3) := h
theorem agree_4 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (launchContents m' c) (Proc.devRef .tc Cert.ReferenceIdeal.main_arg4) = m ((c : Thread Cert.KernelIdeal.nD Cert.KernelIdeal.τ).loc Cert.KernelIdeal.main_arg4) := h
theorem agree_5 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (launchContents m' c) (Proc.devRef .tc Cert.ReferenceIdeal.main_arg5) = m ((c : Thread Cert.KernelIdeal.nD Cert.KernelIdeal.τ).loc Cert.KernelIdeal.main_arg5) := h
theorem agree_6 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (launchContents m' c) (Proc.devRef .tc Cert.ReferenceIdeal.main_arg6) = m ((c : Thread Cert.KernelIdeal.nD Cert.KernelIdeal.τ).loc Cert.KernelIdeal.main_arg6) := h
theorem agree_7 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (launchContents m' c) (Proc.devRef .tc Cert.ReferenceIdeal.main_arg7) = m ((c : Thread Cert.KernelIdeal.nD Cert.KernelIdeal.τ).loc Cert.KernelIdeal.main_arg7) := h
theorem agree_8 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (launchContents m' c) (Proc.devRef .tc Cert.ReferenceIdeal.main_arg8) = m ((c : Thread Cert.KernelIdeal.nD Cert.KernelIdeal.τ).loc Cert.KernelIdeal.main_arg8) := h
theorem agree_9 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (launchContents m' c) (Proc.devRef .tc Cert.ReferenceIdeal.main_arg9) = m ((c : Thread Cert.KernelIdeal.nD Cert.KernelIdeal.τ).loc Cert.KernelIdeal.main_arg9) := h
theorem agree_10 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (launchContents m' c) (Proc.devRef .tc Cert.ReferenceIdeal.main_arg10) = m ((c : Thread Cert.KernelIdeal.nD Cert.KernelIdeal.τ).loc Cert.KernelIdeal.main_arg10) := h
theorem agree_11 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    (launchContents m' c) (Proc.devRef .tc Cert.ReferenceIdeal.main_arg11) = m ((c : Thread Cert.KernelIdeal.nD Cert.KernelIdeal.τ).loc Cert.KernelIdeal.main_arg11) := h
theorem agree_12 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (launchContents m' c) (Proc.devRef .tc Cert.ReferenceIdeal.main_arg12) = m ((c : Thread Cert.KernelIdeal.nD Cert.KernelIdeal.τ).loc Cert.KernelIdeal.main_arg12) := h
theorem agree_13 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    (launchContents m' c) (Proc.devRef .tc Cert.ReferenceIdeal.main_arg13) = m ((c : Thread Cert.KernelIdeal.nD Cert.KernelIdeal.τ).loc Cert.KernelIdeal.main_arg13) := h
theorem agree_14 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    (launchContents m' c) (Proc.devRef .tc Cert.ReferenceIdeal.main_arg14) = m ((c : Thread Cert.KernelIdeal.nD Cert.KernelIdeal.τ).loc Cert.KernelIdeal.main_arg14) := h
theorem agree_15 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    (launchContents m' c) (Proc.devRef .tc Cert.ReferenceIdeal.main_arg15) = m ((c : Thread Cert.KernelIdeal.nD Cert.KernelIdeal.τ).loc Cert.KernelIdeal.main_arg15) := h
theorem agree_16 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    (launchContents m' c) (Proc.devRef .tc Cert.ReferenceIdeal.main_arg16) = m ((c : Thread Cert.KernelIdeal.nD Cert.KernelIdeal.τ).loc Cert.KernelIdeal.main_arg16) := h
theorem agree_17 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    (launchContents m' c) (Proc.devRef .tc Cert.ReferenceIdeal.main_arg17) = m ((c : Thread Cert.KernelIdeal.nD Cert.KernelIdeal.τ).loc Cert.KernelIdeal.main_arg17) := h
theorem agree_18 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    (launchContents m' c) (Proc.devRef .tc Cert.ReferenceIdeal.main_arg18) = m ((c : Thread Cert.KernelIdeal.nD Cert.KernelIdeal.τ).loc Cert.KernelIdeal.main_arg18) := h
theorem agree_19 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    (launchContents m' c) (Proc.devRef .tc Cert.ReferenceIdeal.main_arg19) = m ((c : Thread Cert.KernelIdeal.nD Cert.KernelIdeal.τ).loc Cert.KernelIdeal.main_arg19) := h
theorem agree_20 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    (launchContents m' c) (Proc.devRef .tc Cert.ReferenceIdeal.main_arg20) = m ((c : Thread Cert.KernelIdeal.nD Cert.KernelIdeal.τ).loc Cert.KernelIdeal.main_arg20) := h
theorem agree_21 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    (launchContents m' c) (Proc.devRef .tc Cert.ReferenceIdeal.main_arg21) = m ((c : Thread Cert.KernelIdeal.nD Cert.KernelIdeal.τ).loc Cert.KernelIdeal.main_arg21) := h
theorem agree_22 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    (launchContents m' c) (Proc.devRef .tc Cert.ReferenceIdeal.main_arg22) = m ((c : Thread Cert.KernelIdeal.nD Cert.KernelIdeal.τ).loc Cert.KernelIdeal.main_arg22) := h
theorem agree_23 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    (launchContents m' c) (Proc.devRef .tc Cert.ReferenceIdeal.main_arg23) = m ((c : Thread Cert.KernelIdeal.nD Cert.KernelIdeal.τ).loc Cert.KernelIdeal.main_arg23) := h
theorem agree_24 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    (launchContents m' c) (Proc.devRef .tc Cert.ReferenceIdeal.main_arg24) = m ((c : Thread Cert.KernelIdeal.nD Cert.KernelIdeal.τ).loc Cert.KernelIdeal.main_arg24) := h
theorem agree_25 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    (launchContents m' c) (Proc.devRef .tc Cert.ReferenceIdeal.main_arg25) = m ((c : Thread Cert.KernelIdeal.nD Cert.KernelIdeal.τ).loc Cert.KernelIdeal.main_arg25) := h
theorem agree_26 {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    (launchContents m' c) (Proc.devRef .tc Cert.ReferenceIdeal.main_arg26) = m ((c : Thread Cert.KernelIdeal.nD Cert.KernelIdeal.τ).loc Cert.KernelIdeal.main_arg26) := h

/-! ## The comparison, from the one equation -/

/-- The two programs compute the same result from agreeing arguments, given that the reference's result term of
    its launch contents is the kernel program's last boundary's contents at the result array. -/
theorem algebraic_of [hKernelIdeal : Cert.KernelIdeal.Facts] [hReferenceIdeal : Cert.ReferenceIdeal.Facts]
    [hPre_finite_inputs : Cert.Pre_finite_inputs.Facts]
    (heq : ∀ (m : (ℓ : Loc Cert.KernelIdeal.nD Cert.KernelIdeal.τ Cert.KernelIdeal.sig) → Buf (Elt Ideal) ℓ) (ρ : Dev Cert.KernelIdeal.nD → PrngReg)
      (m' : (ℓ : Loc Cert.ReferenceIdeal.nD Cert.ReferenceIdeal.τ Cert.ReferenceIdeal.sig) → Buf (Elt Ideal) ℓ) (c : Dev Cert.KernelIdeal.nD),
      Cert.Pre_KernelIdeal m → Agree m m' c →
      Cert.ReferenceIdeal.Hand.res_main_v718 (launchContents m' c)
        = Cert.KernelIdeal.Hand.B101 m ρ c (Proc.devRef .tc Cert.KernelIdeal.main_v402)) :
    Cert.algebraic_KernelIdeal_ReferenceIdeal := by
  intro m g m' g' hpre hagree
  refine ⟨fun c => Cert.KernelIdeal.Hand.B101 m g c (Proc.devRef .tc Cert.KernelIdeal.main_v402),
    Cert.KernelIdeal.Hand.run_packed (F := Ideal) m g, ?_⟩
  exact (θ_run (Cert.ReferenceIdeal.defs (F := Ideal)) _ _).mono
    (fun _ h c => ⟨(h c).1.trans (heq m g m' c hpre (hagree c)), (h c).2⟩)
    (Cert.ReferenceIdeal.Hand.run (F := Ideal) m' g')

end Cert.Proof.Val

end
-- ==== Proof.Val.Pre.lean ====
/-
  The host prelude both programs share, read on the kernel program's side.

  Both programs begin with the same preparation of their inputs: the edge lists are the two rows of the edge
  index with one self loop per node appended; the edge weights get a one per self loop; a node's degree is the
  sum of the weights of the edges that end in it; the normalisation of an edge is
  deg^(-1/2)[source] · weight · deg^(-1/2)[target], with deg^(-1/2) read as zero where the degree is not positive;
  and each layer's matrix, bias, scale and shift are one row block of the stacked arrays with the unit axis dropped.

  Here each of these arrays, as the kernel program's buffers hold it after the stretch of host operations that
  computes it, is shown equal — as a whole array, over the extended reals — to the array of the same name in the
  other program, whenever the two programs are launched on the same arguments. Every statement is first proved
  over an arbitrary starting valuation `W` (one stretch of operations is a function of the contents it starts
  from), then stated at the boundaries of the kernel program's run.
-/
import proofs.«408084_j48395691492010_3_alg».proof.Proof.KI.Args
import proofs.«408084_j48395691492010_3_alg».proof.Proof.Ref.Defs
import Idealize.ShloMosaic.Lib.Tactic
import Idealize.ShloMosaic.PureOps.Ideal
set_option maxRecDepth 16384

noncomputable section

namespace Cert.Val.Pre

open Cert.KernelIdeal Cert.KernelIdeal.Gen Cert.KernelIdeal.Hand
open Idealize.ShloMosaic Idealize.ShloMosaic.TcCoe Idealize.ShloMosaic.Tactic
open Idealize.SL.Sem

section OverAnyStart

variable (W : Valuation τ sig (Elt Ideal))
variable (R : Valuation Cert.ReferenceIdeal.τ Cert.ReferenceIdeal.sig (Elt Ideal))

/-! ### The first stretch: edge lists with self loops, weights, degree -/

set_option maxHeartbeats 4000000 in
/-- The source list: the first row of the edge index, then the node numbers. -/
theorem k5 : StableHlo.after hostOps0 W (Proc.devRef .tc main_v5) =
    concatenate S690000 0 [⟨S640000, shapeCast S640000 (extractStridedSlice S1x640000 ![0, 0] (W (Proc.devRef .tc main_arg1)) slices_S2x640000_S1x640000_0_0) shapeCasts_S1x640000_S640000⟩, ⟨S50000, iotaInDim S50000 32 0⟩] concatenates_S640000_S50000_S690000_d0 := by
  after_results_simp <;> rfl

set_option maxHeartbeats 4000000 in
/-- The target list: the second row of the edge index, then the node numbers. -/
theorem k6 : StableHlo.after hostOps0 W (Proc.devRef .tc main_v6) =
    concatenate S690000 0 [⟨S640000, shapeCast S640000 (extractStridedSlice S1x640000 ![1, 0] (W (Proc.devRef .tc main_arg1)) slices_S2x640000_S1x640000_1_0) shapeCasts_S1x640000_S640000⟩, ⟨S50000, iotaInDim S50000 32 0⟩] concatenates_S640000_S50000_S690000_d0 := by
  after_results_simp <;> rfl

set_option maxHeartbeats 4000000 in
/-- The weights: the edge weights, then a one per self loop. -/
theorem k8 : StableHlo.after hostOps0 W (Proc.devRef .tc main_v8) =
    concatenate S690000 0 [⟨S640000, W (Proc.devRef .tc main_arg2)⟩, ⟨S50000, broadcastInDim S50000 ![] bcast_S_S50000 (constant (F := Ideal) S_ .f32 0x3F800000#32)⟩] concatenates_S640000_S50000_S690000_d0 := by
  after_results_simp <;> rfl

set_option maxHeartbeats 4000000 in
/-- The degree is the segment sum of the weights by target. -/
theorem k11 : StableHlo.after hostOps0 W (Proc.devRef .tc main_v11) =
    Host.scatterAdd (F := Ideal) scatter_S50000_S690000x1_S690000_n_0_0_1 (broadcastInDim S50000 ![] bcast_S_S50000 (constant (F := Ideal) S_ .f32 0x00000000#32))
      (broadcastInDim S690000x1 ![0] bcast_S690000_S690000x1_0 (StableHlo.after hostOps0 W (Proc.devRef .tc main_v6)))
      (StableHlo.after hostOps0 W (Proc.devRef .tc main_v8)) := by
  after_results_simp <;> rfl

set_option maxHeartbeats 4000000 in
/-- Where the degree is positive. -/
theorem k13 : StableHlo.after hostOps0 W (Proc.devRef .tc main_v13) =
    cmpf (F := Ideal) .ogt (StableHlo.after hostOps0 W (Proc.devRef .tc main_v11)) (broadcastInDim S50000 ![] bcast_S_S50000 (constant (F := Ideal) S_ .f32 0x00000000#32)) := by
  after_results_simp <;> rfl

set_option maxHeartbeats 4000000 in
/-- The reciprocal square root of the degree, the degree first raised to a tiny positive floor. -/
theorem k16 : StableHlo.after hostOps0 W (Proc.devRef .tc main_v16) =
    Host.rsqrt (F := Ideal) (maximumf (F := Ideal) (StableHlo.after hostOps0 W (Proc.devRef .tc main_v11)) (broadcastInDim S50000 ![] bcast_S_S50000 (constant (F := Ideal) S_ .f32 0x0DA24260#32))) := by
  after_results_simp <;> rfl

set_option maxHeartbeats 4000000 in
/-- The zero the selection falls back to. -/
theorem kc3 : StableHlo.after hostOps0 W (Proc.devRef .tc main_cst_3) = constant (F := Ideal) S_ .f32 0x00000000#32 := by
  after_results_simp <;> rfl

/-! ### The second stretch: the selection -/

set_option maxHeartbeats 4000000 in
theorem k17 : StableHlo.after hostOps0_1 W (Proc.devRef .tc main_v17) =
    select (W (Proc.devRef .tc main_v13)) (W (Proc.devRef .tc main_v16)) (broadcastInDim S50000 ![] bcast_S_S50000 (id (W (Proc.devRef .tc main_cst_3)))) := by
  after_results_simp <;> rfl

/-! ### The third stretch: the symmetric normalisation per edge -/

set_option maxHeartbeats 4000000 in
theorem k33 : StableHlo.after hostOps0_2 W (Proc.devRef .tc main_v33) =
    mulf (F := Ideal) (φ := .f32) (mulf (F := Ideal) (φ := .f32) (Host.gather gather_S50000_S690000x1_S690000_n_0_n_n_0_1_1 (W (Proc.devRef .tc main_v17)) (broadcastInDim S690000x1 ![0] bcast_S690000_S690000x1_0 (select (cmpi .slt (W (Proc.devRef .tc main_v5)) (broadcastInDim S690000 ![] bcast_S_S690000 (constantI S_ 32 0#32))) (addi (W (Proc.devRef .tc main_v5)) (broadcastInDim S690000 ![] bcast_S_S690000 (constantI S_ 32 50000#32))) (W (Proc.devRef .tc main_v5))))) (W (Proc.devRef .tc main_v8))) (Host.gather gather_S50000_S690000x1_S690000_n_0_n_n_0_1_1 (W (Proc.devRef .tc main_v17)) (broadcastInDim S690000x1 ![0] bcast_S690000_S690000x1_0 (select (cmpi .slt (W (Proc.devRef .tc main_v6)) (broadcastInDim S690000 ![] bcast_S_S690000 (constantI S_ 32 0#32))) (addi (W (Proc.devRef .tc main_v6)) (broadcastInDim S690000 ![] bcast_S_S690000 (constantI S_ 32 50000#32))) (W (Proc.devRef .tc main_v6))))) := by
  after_results_simp <;> rfl

/-! ### The same arrays on the other program's side -/

theorem s5 (h1 : R (Proc.devRef .tc Cert.ReferenceIdeal.main_arg1) = W (Proc.devRef .tc main_arg1)) :
    StableHlo.after hostOps0 W (Proc.devRef .tc main_v5) = Cert.ReferenceIdeal.Hand.res_main_v5 R := by
  rw [k5, ← h1]
  rfl

theorem s6 (h1 : R (Proc.devRef .tc Cert.ReferenceIdeal.main_arg1) = W (Proc.devRef .tc main_arg1)) :
    StableHlo.after hostOps0 W (Proc.devRef .tc main_v6) = Cert.ReferenceIdeal.Hand.res_main_v6 R := by
  rw [k6, ← h1]
  rfl

theorem s8 (h2 : R (Proc.devRef .tc Cert.ReferenceIdeal.main_arg2) = W (Proc.devRef .tc main_arg2)) :
    StableHlo.after hostOps0 W (Proc.devRef .tc main_v8) = Cert.ReferenceIdeal.Hand.res_main_v8 R := by
  rw [k8, ← h2]
  rfl

theorem s11 (h1 : R (Proc.devRef .tc Cert.ReferenceIdeal.main_arg1) = W (Proc.devRef .tc main_arg1))
    (h2 : R (Proc.devRef .tc Cert.ReferenceIdeal.main_arg2) = W (Proc.devRef .tc main_arg2)) :
    StableHlo.after hostOps0 W (Proc.devRef .tc main_v11) = Cert.ReferenceIdeal.Hand.res_main_v11 R := by
  rw [k11, s6 W R h1, s8 W R h2]
  rfl

theorem s17 (h1 : R (Proc.devRef .tc Cert.ReferenceIdeal.main_arg1) = W (Proc.devRef .tc main_arg1))
    (h2 : R (Proc.devRef .tc Cert.ReferenceIdeal.main_arg2) = W (Proc.devRef .tc main_arg2)) :
    StableHlo.after hostOps0_1 (StableHlo.after hostOps0 W) (Proc.devRef .tc main_v17) = Cert.ReferenceIdeal.Hand.res_main_v17 R := by
  rw [k17, k13, k16, kc3, s11 W R h1 h2]
  rfl

theorem keep1_v5 : StableHlo.after hostOps0_1 W (Proc.devRef .tc main_v5) = W (Proc.devRef .tc main_v5) := by
  after_results_simp <;> rfl
theorem keep1_v6 : StableHlo.after hostOps0_1 W (Proc.devRef .tc main_v6) = W (Proc.devRef .tc main_v6) := by
  after_results_simp <;> rfl
theorem keep1_v8 : StableHlo.after hostOps0_1 W (Proc.devRef .tc main_v8) = W (Proc.devRef .tc main_v8) := by
  after_results_simp <;> rfl

theorem s33 (h1 : R (Proc.devRef .tc Cert.ReferenceIdeal.main_arg1) = W (Proc.devRef .tc main_arg1))
    (h2 : R (Proc.devRef .tc Cert.ReferenceIdeal.main_arg2) = W (Proc.devRef .tc main_arg2)) :
    StableHlo.after hostOps0_2 (StableHlo.after hostOps0_1 (StableHlo.after hostOps0 W)) (Proc.devRef .tc main_v33) = Cert.ReferenceIdeal.Hand.res_main_v33 R := by
  rw [k33, s17 W R h1 h2, keep1_v5, keep1_v6, keep1_v8, s5 W R h1, s6 W R h1, s8 W R h2]
  rfl

/-! ### The fourth stretch: the per-layer slices of the stacked weights

Layer `i`'s matrix is row block `i` of the stacked matrices with the leading unit axis dropped; its bias, scale and
shift are row `i` of the stacked vectors, likewise. -/

set_option maxHeartbeats 4000000 in
theorem kW_0 : StableHlo.after hostOps1 W (Proc.devRef .tc main_v39) =
    shapeCast S64x64 (extractStridedSlice S1x64x64 ![0, 0, 0] (W (Proc.devRef .tc main_arg12)) slices_S8x64x64_S1x64x64_0_0_0) shapeCasts_S1x64x64_S64x64 := by
  after_results_simp <;> rfl
set_option maxHeartbeats 4000000 in
theorem kb_0 : StableHlo.after hostOps1 W (Proc.devRef .tc main_v41) =
    shapeCast S64 (extractStridedSlice S1x64 ![0, 0] (W (Proc.devRef .tc main_arg13)) slices_S8x64_S1x64_0_0) shapeCasts_S1x64_S64 := by
  after_results_simp <;> rfl
set_option maxHeartbeats 4000000 in
theorem kg_0 : StableHlo.after hostOps1 W (Proc.devRef .tc main_v71) =
    shapeCast S64 (extractStridedSlice S1x64 ![0, 0] (W (Proc.devRef .tc main_arg22)) slices_S8x64_S1x64_0_0) shapeCasts_S1x64_S64 := by
  after_results_simp <;> rfl
set_option maxHeartbeats 4000000 in
theorem kbe_0 : StableHlo.after hostOps1 W (Proc.devRef .tc main_v73) =
    shapeCast S64 (extractStridedSlice S1x64 ![0, 0] (W (Proc.devRef .tc main_arg23)) slices_S8x64_S1x64_0_0) shapeCasts_S1x64_S64 := by
  after_results_simp <;> rfl

set_option maxHeartbeats 4000000 in
theorem kW_1 : StableHlo.after hostOps1 W (Proc.devRef .tc main_v43) =
    shapeCast S64x64 (extractStridedSlice S1x64x64 ![1, 0, 0] (W (Proc.devRef .tc main_arg12)) slices_S8x64x64_S1x64x64_1_0_0) shapeCasts_S1x64x64_S64x64 := by
  after_results_simp <;> rfl
set_option maxHeartbeats 4000000 in
theorem kb_1 : StableHlo.after hostOps1 W (Proc.devRef .tc main_v45) =
    shapeCast S64 (extractStridedSlice S1x64 ![1, 0] (W (Proc.devRef .tc main_arg13)) slices_S8x64_S1x64_1_0) shapeCasts_S1x64_S64 := by
  after_results_simp <;> rfl
set_option maxHeartbeats 4000000 in
theorem kg_1 : StableHlo.after hostOps1 W (Proc.devRef .tc main_v75) =
    shapeCast S64 (extractStridedSlice S1x64 ![1, 0] (W (Proc.devRef .tc main_arg22)) slices_S8x64_S1x64_1_0) shapeCasts_S1x64_S64 := by
  after_results_simp <;> rfl
set_option maxHeartbeats 4000000 in
theorem kbe_1 : StableHlo.after hostOps1 W (Proc.devRef .tc main_v77) =
    shapeCast S64 (extractStridedSlice S1x64 ![1, 0] (W (Proc.devRef .tc main_arg23)) slices_S8x64_S1x64_1_0) shapeCasts_S1x64_S64 := by
  after_results_simp <;> rfl

set_option maxHeartbeats 4000000 in
theorem kW_2 : StableHlo.after hostOps1 W (Proc.devRef .tc main_v47) =
    shapeCast S64x64 (extractStridedSlice S1x64x64 ![2, 0, 0] (W (Proc.devRef .tc main_arg12)) slices_S8x64x64_S1x64x64_2_0_0) shapeCasts_S1x64x64_S64x64 := by
  after_results_simp <;> rfl
set_option maxHeartbeats 4000000 in
theorem kb_2 : StableHlo.after hostOps1 W (Proc.devRef .tc main_v49) =
    shapeCast S64 (extractStridedSlice S1x64 ![2, 0] (W (Proc.devRef .tc main_arg13)) slices_S8x64_S1x64_2_0) shapeCasts_S1x64_S64 := by
  after_results_simp <;> rfl
set_option maxHeartbeats 4000000 in
theorem kg_2 : StableHlo.after hostOps1 W (Proc.devRef .tc main_v79) =
    shapeCast S64 (extractStridedSlice S1x64 ![2, 0] (W (Proc.devRef .tc main_arg22)) slices_S8x64_S1x64_2_0) shapeCasts_S1x64_S64 := by
  after_results_simp <;> rfl
set_option maxHeartbeats 4000000 in
theorem kbe_2 : StableHlo.after hostOps1 W (Proc.devRef .tc main_v81) =
    shapeCast S64 (extractStridedSlice S1x64 ![2, 0] (W (Proc.devRef .tc main_arg23)) slices_S8x64_S1x64_2_0) shapeCasts_S1x64_S64 := by
  after_results_simp <;> rfl

set_option maxHeartbeats 4000000 in
theorem kW_3 : StableHlo.after hostOps1 W (Proc.devRef .tc main_v51) =
    shapeCast S64x64 (extractStridedSlice S1x64x64 ![3, 0, 0] (W (Proc.devRef .tc main_arg12)) slices_S8x64x64_S1x64x64_3_0_0) shapeCasts_S1x64x64_S64x64 := by
  after_results_simp <;> rfl
set_option maxHeartbeats 4000000 in
theorem kb_3 : StableHlo.after hostOps1 W (Proc.devRef .tc main_v53) =
    shapeCast S64 (extractStridedSlice S1x64 ![3, 0] (W (Proc.devRef .tc main_arg13)) slices_S8x64_S1x64_3_0) shapeCasts_S1x64_S64 := by
  after_results_simp <;> rfl
set_option maxHeartbeats 4000000 in
theorem kg_3 : StableHlo.after hostOps1 W (Proc.devRef .tc main_v83) =
    shapeCast S64 (extractStridedSlice S1x64 ![3, 0] (W (Proc.devRef .tc main_arg22)) slices_S8x64_S1x64_3_0) shapeCasts_S1x64_S64 := by
  after_results_simp <;> rfl
set_option maxHeartbeats 4000000 in
theorem kbe_3 : StableHlo.after hostOps1 W (Proc.devRef .tc main_v85) =
    shapeCast S64 (extractStridedSlice S1x64 ![3, 0] (W (Proc.devRef .tc main_arg23)) slices_S8x64_S1x64_3_0) shapeCasts_S1x64_S64 := by
  after_results_simp <;> rfl

set_option maxHeartbeats 4000000 in
theorem kW_4 : StableHlo.after hostOps1 W (Proc.devRef .tc main_v55) =
    shapeCast S64x64 (extractStridedSlice S1x64x64 ![4, 0, 0] (W (Proc.devRef .tc main_arg12)) slices_S8x64x64_S1x64x64_4_0_0) shapeCasts_S1x64x64_S64x64 := by
  after_results_simp <;> rfl
set_option maxHeartbeats 4000000 in
theorem kb_4 : StableHlo.after hostOps1 W (Proc.devRef .tc main_v57) =
    shapeCast S64 (extractStridedSlice S1x64 ![4, 0] (W (Proc.devRef .tc main_arg13)) slices_S8x64_S1x64_4_0) shapeCasts_S1x64_S64 := by
  after_results_simp <;> rfl
set_option maxHeartbeats 4000000 in
theorem kg_4 : StableHlo.after hostOps1 W (Proc.devRef .tc main_v87) =
    shapeCast S64 (extractStridedSlice S1x64 ![4, 0] (W (Proc.devRef .tc main_arg22)) slices_S8x64_S1x64_4_0) shapeCasts_S1x64_S64 := by
  after_results_simp <;> rfl
set_option maxHeartbeats 4000000 in
theorem kbe_4 : StableHlo.after hostOps1 W (Proc.devRef .tc main_v89) =
    shapeCast S64 (extractStridedSlice S1x64 ![4, 0] (W (Proc.devRef .tc main_arg23)) slices_S8x64_S1x64_4_0) shapeCasts_S1x64_S64 := by
  after_results_simp <;> rfl

set_option maxHeartbeats 4000000 in
theorem kW_5 : StableHlo.after hostOps1 W (Proc.devRef .tc main_v59) =
    shapeCast S64x64 (extractStridedSlice S1x64x64 ![5, 0, 0] (W (Proc.devRef .tc main_arg12)) slices_S8x64x64_S1x64x64_5_0_0) shapeCasts_S1x64x64_S64x64 := by
  after_results_simp <;> rfl
set_option maxHeartbeats 4000000 in
theorem kb_5 : StableHlo.after hostOps1 W (Proc.devRef .tc main_v61) =
    shapeCast S64 (extractStridedSlice S1x64 ![5, 0] (W (Proc.devRef .tc main_arg13)) slices_S8x64_S1x64_5_0) shapeCasts_S1x64_S64 := by
  after_results_simp <;> rfl
set_option maxHeartbeats 4000000 in
theorem kg_5 : StableHlo.after hostOps1 W (Proc.devRef .tc main_v91) =
    shapeCast S64 (extractStridedSlice S1x64 ![5, 0] (W (Proc.devRef .tc main_arg22)) slices_S8x64_S1x64_5_0) shapeCasts_S1x64_S64 := by
  after_results_simp <;> rfl
set_option maxHeartbeats 4000000 in
theorem kbe_5 : StableHlo.after hostOps1 W (Proc.devRef .tc main_v93) =
    shapeCast S64 (extractStridedSlice S1x64 ![5, 0] (W (Proc.devRef .tc main_arg23)) slices_S8x64_S1x64_5_0) shapeCasts_S1x64_S64 := by
  after_results_simp <;> rfl

set_option maxHeartbeats 4000000 in
theorem kW_6 : StableHlo.after hostOps1 W (Proc.devRef .tc main_v63) =
    shapeCast S64x64 (extractStridedSlice S1x64x64 ![6, 0, 0] (W (Proc.devRef .tc main_arg12)) slices_S8x64x64_S1x64x64_6_0_0) shapeCasts_S1x64x64_S64x64 := by
  after_results_simp <;> rfl
set_option maxHeartbeats 4000000 in
theorem kb_6 : StableHlo.after hostOps1 W (Proc.devRef .tc main_v65) =
    shapeCast S64 (extractStridedSlice S1x64 ![6, 0] (W (Proc.devRef .tc main_arg13)) slices_S8x64_S1x64_6_0) shapeCasts_S1x64_S64 := by
  after_results_simp <;> rfl
set_option maxHeartbeats 4000000 in
theorem kg_6 : StableHlo.after hostOps1 W (Proc.devRef .tc main_v95) =
    shapeCast S64 (extractStridedSlice S1x64 ![6, 0] (W (Proc.devRef .tc main_arg22)) slices_S8x64_S1x64_6_0) shapeCasts_S1x64_S64 := by
  after_results_simp <;> rfl
set_option maxHeartbeats 4000000 in
theorem kbe_6 : StableHlo.after hostOps1 W (Proc.devRef .tc main_v97) =
    shapeCast S64 (extractStridedSlice S1x64 ![6, 0] (W (Proc.devRef .tc main_arg23)) slices_S8x64_S1x64_6_0) shapeCasts_S1x64_S64 := by
  after_results_simp <;> rfl

set_option maxHeartbeats 4000000 in
theorem kW_7 : StableHlo.after hostOps1 W (Proc.devRef .tc main_v67) =
    shapeCast S64x64 (extractStridedSlice S1x64x64 ![7, 0, 0] (W (Proc.devRef .tc main_arg12)) slices_S8x64x64_S1x64x64_7_0_0) shapeCasts_S1x64x64_S64x64 := by
  after_results_simp <;> rfl
set_option maxHeartbeats 4000000 in
theorem kb_7 : StableHlo.after hostOps1 W (Proc.devRef .tc main_v69) =
    shapeCast S64 (extractStridedSlice S1x64 ![7, 0] (W (Proc.devRef .tc main_arg13)) slices_S8x64_S1x64_7_0) shapeCasts_S1x64_S64 := by
  after_results_simp <;> rfl
set_option maxHeartbeats 4000000 in
theorem kg_7 : StableHlo.after hostOps1 W (Proc.devRef .tc main_v99) =
    shapeCast S64 (extractStridedSlice S1x64 ![7, 0] (W (Proc.devRef .tc main_arg22)) slices_S8x64_S1x64_7_0) shapeCasts_S1x64_S64 := by
  after_results_simp <;> rfl
set_option maxHeartbeats 4000000 in
theorem kbe_7 : StableHlo.after hostOps1 W (Proc.devRef .tc main_v101) =
    shapeCast S64 (extractStridedSlice S1x64 ![7, 0] (W (Proc.devRef .tc main_arg23)) slices_S8x64_S1x64_7_0) shapeCasts_S1x64_S64 := by
  after_results_simp <;> rfl

end OverAnyStart

section AtTheBoundaries

variable (m : (ℓ : Loc nD τ sig) → Buf (Elt Ideal) ℓ) (ρ : Dev nD → PrngReg) (c : Dev nD)
variable (R : Valuation Cert.ReferenceIdeal.τ Cert.ReferenceIdeal.sig (Elt Ideal))

/-! ### The edge lists and the normalisation at the third boundary

The third boundary is three stretches after launch; the second and third stretch write neither edge list. -/

/-- The source list the kernel program holds is the other program's. -/
theorem pre_src (h1 : R (Proc.devRef .tc Cert.ReferenceIdeal.main_arg1) = m ((c : Thread nD τ).loc main_arg1)) :
    B3 m ρ c (Proc.devRef .tc main_v5) = Cert.ReferenceIdeal.Hand.res_main_v5 R :=
  (keep_hostOps0_2_of_not_mem (B2 m ρ c) main_v5 (by decide)).trans
    ((keep_hostOps0_1_of_not_mem (B1 m ρ c) main_v5 (by decide)).trans
      (s5 (B0 m ρ c) R (h1.trans (B0_isArg m ρ c main_arg1 (by decide)).symm)))

/-- The target list the kernel program holds is the other program's. -/
theorem pre_dst (h1 : R (Proc.devRef .tc Cert.ReferenceIdeal.main_arg1) = m ((c : Thread nD τ).loc main_arg1)) :
    B3 m ρ c (Proc.devRef .tc main_v6) = Cert.ReferenceIdeal.Hand.res_main_v6 R :=
  (keep_hostOps0_2_of_not_mem (B2 m ρ c) main_v6 (by decide)).trans
    ((keep_hostOps0_1_of_not_mem (B1 m ρ c) main_v6 (by decide)).trans
      (s6 (B0 m ρ c) R (h1.trans (B0_isArg m ρ c main_arg1 (by decide)).symm)))

/-- The per-edge normalisation the kernel program holds is the other program's. -/
theorem pre_norm (h1 : R (Proc.devRef .tc Cert.ReferenceIdeal.main_arg1) = m ((c : Thread nD τ).loc main_arg1))
    (h2 : R (Proc.devRef .tc Cert.ReferenceIdeal.main_arg2) = m ((c : Thread nD τ).loc main_arg2)) :
    B3 m ρ c (Proc.devRef .tc main_v33) = Cert.ReferenceIdeal.Hand.res_main_v33 R :=
  s33 (B0 m ρ c) R (h1.trans (B0_isArg m ρ c main_arg1 (by decide)).symm)
    (h2.trans (B0_isArg m ρ c main_arg2 (by decide)).symm)

/-! ### The layers' weights at the fifth boundary -/

theorem pre_W_0 (h12 : R (Proc.devRef .tc Cert.ReferenceIdeal.main_arg12) = m ((c : Thread nD τ).loc main_arg12)) :
    B5 m ρ c (Proc.devRef .tc main_v39) = Cert.ReferenceIdeal.Hand.res_main_v42 R := by
  refine (kW_0 (B4 m ρ c)).trans ?_
  rw [B4_isArg m ρ c main_arg12 (by decide), ← h12]
  rfl

theorem pre_b_0 (h13 : R (Proc.devRef .tc Cert.ReferenceIdeal.main_arg13) = m ((c : Thread nD τ).loc main_arg13)) :
    B5 m ρ c (Proc.devRef .tc main_v41) = Cert.ReferenceIdeal.Hand.res_main_v44 R := by
  refine (kb_0 (B4 m ρ c)).trans ?_
  rw [B4_isArg m ρ c main_arg13 (by decide), ← h13]
  rfl

theorem pre_g_0 (h22 : R (Proc.devRef .tc Cert.ReferenceIdeal.main_arg22) = m ((c : Thread nD τ).loc main_arg22)) :
    B5 m ρ c (Proc.devRef .tc main_v71) = Cert.ReferenceIdeal.Hand.res_main_v74 R := by
  refine (kg_0 (B4 m ρ c)).trans ?_
  rw [B4_isArg m ρ c main_arg22 (by decide), ← h22]
  rfl

theorem pre_be_0 (h23 : R (Proc.devRef .tc Cert.ReferenceIdeal.main_arg23) = m ((c : Thread nD τ).loc main_arg23)) :
    B5 m ρ c (Proc.devRef .tc main_v73) = Cert.ReferenceIdeal.Hand.res_main_v76 R := by
  refine (kbe_0 (B4 m ρ c)).trans ?_
  rw [B4_isArg m ρ c main_arg23 (by decide), ← h23]
  rfl

theorem pre_W_1 (h12 : R (Proc.devRef .tc Cert.ReferenceIdeal.main_arg12) = m ((c : Thread nD τ).loc main_arg12)) :
    B5 m ρ c (Proc.devRef .tc main_v43) = Cert.ReferenceIdeal.Hand.res_main_v46 R := by
  refine (kW_1 (B4 m ρ c)).trans ?_
  rw [B4_isArg m ρ c main_arg12 (by decide), ← h12]
  rfl

theorem pre_b_1 (h13 : R (Proc.devRef .tc Cert.ReferenceIdeal.main_arg13) = m ((c : Thread nD τ).loc main_arg13)) :
    B5 m ρ c (Proc.devRef .tc main_v45) = Cert.ReferenceIdeal.Hand.res_main_v48 R := by
  refine (kb_1 (B4 m ρ c)).trans ?_
  rw [B4_isArg m ρ c main_arg13 (by decide), ← h13]
  rfl

theorem pre_g_1 (h22 : R (Proc.devRef .tc Cert.ReferenceIdeal.main_arg22) = m ((c : Thread nD τ).loc main_arg22)) :
    B5 m ρ c (Proc.devRef .tc main_v75) = Cert.ReferenceIdeal.Hand.res_main_v78 R := by
  refine (kg_1 (B4 m ρ c)).trans ?_
  rw [B4_isArg m ρ c main_arg22 (by decide), ← h22]
  rfl

theorem pre_be_1 (h23 : R (Proc.devRef .tc Cert.ReferenceIdeal.main_arg23) = m ((c : Thread nD τ).loc main_arg23)) :
    B5 m ρ c (Proc.devRef .tc main_v77) = Cert.ReferenceIdeal.Hand.res_main_v80 R := by
  refine (kbe_1 (B4 m ρ c)).trans ?_
  rw [B4_isArg m ρ c main_arg23 (by decide), ← h23]
  rfl

theorem pre_W_2 (h12 : R (Proc.devRef .tc Cert.ReferenceIdeal.main_arg12) = m ((c : Thread nD τ).loc main_arg12)) :
    B5 m ρ c (Proc.devRef .tc main_v47) = Cert.ReferenceIdeal.Hand.res_main_v50 R := by
  refine (kW_2 (B4 m ρ c)).trans ?_
  rw [B4_isArg m ρ c main_arg12 (by decide), ← h12]
  rfl

theorem pre_b_2 (h13 : R (Proc.devRef .tc Cert.ReferenceIdeal.main_arg13) = m ((c : Thread nD τ).loc main_arg13)) :
    B5 m ρ c (Proc.devRef .tc main_v49) = Cert.ReferenceIdeal.Hand.res_main_v52 R := by
  refine (kb_2 (B4 m ρ c)).trans ?_
  rw [B4_isArg m ρ c main_arg13 (by decide), ← h13]
  rfl

theorem pre_g_2 (h22 : R (Proc.devRef .tc Cert.ReferenceIdeal.main_arg22) = m ((c : Thread nD τ).loc main_arg22)) :
    B5 m ρ c (Proc.devRef .tc main_v79) = Cert.ReferenceIdeal.Hand.res_main_v82 R := by
  refine (kg_2 (B4 m ρ c)).trans ?_
  rw [B4_isArg m ρ c main_arg22 (by decide), ← h22]
  rfl

theorem pre_be_2 (h23 : R (Proc.devRef .tc Cert.ReferenceIdeal.main_arg23) = m ((c : Thread nD τ).loc main_arg23)) :
    B5 m ρ c (Proc.devRef .tc main_v81) = Cert.ReferenceIdeal.Hand.res_main_v84 R := by
  refine (kbe_2 (B4 m ρ c)).trans ?_
  rw [B4_isArg m ρ c main_arg23 (by decide), ← h23]
  rfl

theorem pre_W_3 (h12 : R (Proc.devRef .tc Cert.ReferenceIdeal.main_arg12) = m ((c : Thread nD τ).loc main_arg12)) :
    B5 m ρ c (Proc.devRef .tc main_v51) = Cert.ReferenceIdeal.Hand.res_main_v54 R := by
  refine (kW_3 (B4 m ρ c)).trans ?_
  rw [B4_isArg m ρ c main_arg12 (by decide), ← h12]
  rfl

theorem pre_b_3 (h13 : R (Proc.devRef .tc Cert.ReferenceIdeal.main_arg13) = m ((c : Thread nD τ).loc main_arg13)) :
    B5 m ρ c (Proc.devRef .tc main_v53) = Cert.ReferenceIdeal.Hand.res_main_v56 R := by
  refine (kb_3 (B4 m ρ c)).trans ?_
  rw [B4_isArg m ρ c main_arg13 (by decide), ← h13]
  rfl

theorem pre_g_3 (h22 : R (Proc.devRef .tc Cert.ReferenceIdeal.main_arg22) = m ((c : Thread nD τ).loc main_arg22)) :
    B5 m ρ c (Proc.devRef .tc main_v83) = Cert.ReferenceIdeal.Hand.res_main_v86 R := by
  refine (kg_3 (B4 m ρ c)).trans ?_
  rw [B4_isArg m ρ c main_arg22 (by decide), ← h22]
  rfl

theorem pre_be_3 (h23 : R (Proc.devRef .tc Cert.ReferenceIdeal.main_arg23) = m ((c : Thread nD τ).loc main_arg23)) :
    B5 m ρ c (Proc.devRef .tc main_v85) = Cert.ReferenceIdeal.Hand.res_main_v88 R := by
  refine (kbe_3 (B4 m ρ c)).trans ?_
  rw [B4_isArg m ρ c main_arg23 (by decide), ← h23]
  rfl

theorem pre_W_4 (h12 : R (Proc.devRef .tc Cert.ReferenceIdeal.main_arg12) = m ((c : Thread nD τ).loc main_arg12)) :
    B5 m ρ c (Proc.devRef .tc main_v55) = Cert.ReferenceIdeal.Hand.res_main_v58 R := by
  refine (kW_4 (B4 m ρ c)).trans ?_
  rw [B4_isArg m ρ c main_arg12 (by decide), ← h12]
  rfl

theorem pre_b_4 (h13 : R (Proc.devRef .tc Cert.ReferenceIdeal.main_arg13) = m ((c : Thread nD τ).loc main_arg13)) :
    B5 m ρ c (Proc.devRef .tc main_v57) = Cert.ReferenceIdeal.Hand.res_main_v60 R := by
  refine (kb_4 (B4 m ρ c)).trans ?_
  rw [B4_isArg m ρ c main_arg13 (by decide), ← h13]
  rfl

theorem pre_g_4 (h22 : R (Proc.devRef .tc Cert.ReferenceIdeal.main_arg22) = m ((c : Thread nD τ).loc main_arg22)) :
    B5 m ρ c (Proc.devRef .tc main_v87) = Cert.ReferenceIdeal.Hand.res_main_v90 R := by
  refine (kg_4 (B4 m ρ c)).trans ?_
  rw [B4_isArg m ρ c main_arg22 (by decide), ← h22]
  rfl

theorem pre_be_4 (h23 : R (Proc.devRef .tc Cert.ReferenceIdeal.main_arg23) = m ((c : Thread nD τ).loc main_arg23)) :
    B5 m ρ c (Proc.devRef .tc main_v89) = Cert.ReferenceIdeal.Hand.res_main_v92 R := by
  refine (kbe_4 (B4 m ρ c)).trans ?_
  rw [B4_isArg m ρ c main_arg23 (by decide), ← h23]
  rfl

theorem pre_W_5 (h12 : R (Proc.devRef .tc Cert.ReferenceIdeal.main_arg12) = m ((c : Thread nD τ).loc main_arg12)) :
    B5 m ρ c (Proc.devRef .tc main_v59) = Cert.ReferenceIdeal.Hand.res_main_v62 R := by
  refine (kW_5 (B4 m ρ c)).trans ?_
  rw [B4_isArg m ρ c main_arg12 (by decide), ← h12]
  rfl

theorem pre_b_5 (h13 : R (Proc.devRef .tc Cert.ReferenceIdeal.main_arg13) = m ((c : Thread nD τ).loc main_arg13)) :
    B5 m ρ c (Proc.devRef .tc main_v61) = Cert.ReferenceIdeal.Hand.res_main_v64 R := by
  refine (kb_5 (B4 m ρ c)).trans ?_
  rw [B4_isArg m ρ c main_arg13 (by decide), ← h13]
  rfl

theorem pre_g_5 (h22 : R (Proc.devRef .tc Cert.ReferenceIdeal.main_arg22) = m ((c : Thread nD τ).loc main_arg22)) :
    B5 m ρ c (Proc.devRef .tc main_v91) = Cert.ReferenceIdeal.Hand.res_main_v94 R := by
  refine (kg_5 (B4 m ρ c)).trans ?_
  rw [B4_isArg m ρ c main_arg22 (by decide), ← h22]
  rfl

theorem pre_be_5 (h23 : R (Proc.devRef .tc Cert.ReferenceIdeal.main_arg23) = m ((c : Thread nD τ).loc main_arg23)) :
    B5 m ρ c (Proc.devRef .tc main_v93) = Cert.ReferenceIdeal.Hand.res_main_v96 R := by
  refine (kbe_5 (B4 m ρ c)).trans ?_
  rw [B4_isArg m ρ c main_arg23 (by decide), ← h23]
  rfl

theorem pre_W_6 (h12 : R (Proc.devRef .tc Cert.ReferenceIdeal.main_arg12) = m ((c : Thread nD τ).loc main_arg12)) :
    B5 m ρ c (Proc.devRef .tc main_v63) = Cert.ReferenceIdeal.Hand.res_main_v66 R := by
  refine (kW_6 (B4 m ρ c)).trans ?_
  rw [B4_isArg m ρ c main_arg12 (by decide), ← h12]
  rfl

theorem pre_b_6 (h13 : R (Proc.devRef .tc Cert.ReferenceIdeal.main_arg13) = m ((c : Thread nD τ).loc main_arg13)) :
    B5 m ρ c (Proc.devRef .tc main_v65) = Cert.ReferenceIdeal.Hand.res_main_v68 R := by
  refine (kb_6 (B4 m ρ c)).trans ?_
  rw [B4_isArg m ρ c main_arg13 (by decide), ← h13]
  rfl

theorem pre_g_6 (h22 : R (Proc.devRef .tc Cert.ReferenceIdeal.main_arg22) = m ((c : Thread nD τ).loc main_arg22)) :
    B5 m ρ c (Proc.devRef .tc main_v95) = Cert.ReferenceIdeal.Hand.res_main_v98 R := by
  refine (kg_6 (B4 m ρ c)).trans ?_
  rw [B4_isArg m ρ c main_arg22 (by decide), ← h22]
  rfl

theorem pre_be_6 (h23 : R (Proc.devRef .tc Cert.ReferenceIdeal.main_arg23) = m ((c : Thread nD τ).loc main_arg23)) :
    B5 m ρ c (Proc.devRef .tc main_v97) = Cert.ReferenceIdeal.Hand.res_main_v100 R := by
  refine (kbe_6 (B4 m ρ c)).trans ?_
  rw [B4_isArg m ρ c main_arg23 (by decide), ← h23]
  rfl

theorem pre_W_7 (h12 : R (Proc.devRef .tc Cert.ReferenceIdeal.main_arg12) = m ((c : Thread nD τ).loc main_arg12)) :
    B5 m ρ c (Proc.devRef .tc main_v67) = Cert.ReferenceIdeal.Hand.res_main_v70 R := by
  refine (kW_7 (B4 m ρ c)).trans ?_
  rw [B4_isArg m ρ c main_arg12 (by decide), ← h12]
  rfl

theorem pre_b_7 (h13 : R (Proc.devRef .tc Cert.ReferenceIdeal.main_arg13) = m ((c : Thread nD τ).loc main_arg13)) :
    B5 m ρ c (Proc.devRef .tc main_v69) = Cert.ReferenceIdeal.Hand.res_main_v72 R := by
  refine (kb_7 (B4 m ρ c)).trans ?_
  rw [B4_isArg m ρ c main_arg13 (by decide), ← h13]
  rfl

theorem pre_g_7 (h22 : R (Proc.devRef .tc Cert.ReferenceIdeal.main_arg22) = m ((c : Thread nD τ).loc main_arg22)) :
    B5 m ρ c (Proc.devRef .tc main_v99) = Cert.ReferenceIdeal.Hand.res_main_v102 R := by
  refine (kg_7 (B4 m ρ c)).trans ?_
  rw [B4_isArg m ρ c main_arg22 (by decide), ← h22]
  rfl

theorem pre_be_7 (h23 : R (Proc.devRef .tc Cert.ReferenceIdeal.main_arg23) = m ((c : Thread nD τ).loc main_arg23)) :
    B5 m ρ c (Proc.devRef .tc main_v101) = Cert.ReferenceIdeal.Hand.res_main_v104 R := by
  refine (kbe_7 (B4 m ρ c)).trans ?_
  rw [B4_isArg m ρ c main_arg23 (by decide), ← h23]
  rfl

end AtTheBoundaries

end Cert.Val.Pre
-- ==== Proof.KI.R0v.lean ====
/- Region 0 of the program, the value reading: the output array after the region, as ONE function G0 of the arrays
   the region finds, index by index,  out[p, q] = ((x · w)[p, q] + b[0, q]) + feat[p, q].
   First what each grid point writes back (block t of G0), then the cover of the array by the 25 blocks (row r lies in
   tile r / 2000), hence the whole array; last, over the extended reals, the product read as a sum over the 18
   contraction positions. -/
import proofs.«408084_j48395691492010_3_alg».proof.Proof.KI.R0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]

section Region0
-- the TensorCore's buffer contents when the region is entered
variable (V : (c : Dev nD) → (b : Ref sig .tc) → Buf (Elt F) ((c : Thread nD τ).loc b))

/-! # The output array after the region, index by index -/

/-! ## The output array as one function of the entry arrays -/

theorem rowTile0_lt (n : Fin 25) (r : Fin 2000) : n.val * 2000 + r.val < 50000 := by
  have := n.isLt; have := r.isLt; omega
theorem rowDiv0_lt (p : Fin 50000) : p.val / 2000 < 25 := by have := p.isLt; omega
theorem rowMod0_lt (p : Fin 50000) : p.val % 2000 < 2000 := Nat.mod_lt _ (by decide)

/-- Row tile n (2000 rows) of the 50000 × 18 array. -/
noncomputable def rowTile0 (a0 : S50000x18.Idx → Elt F .f32) (n : Fin 25) : FVec F S2000x18 .f32 :=
  fun j => a0 (ix2 (⟨n.val * 2000 + (j 0).val, rowTile0_lt n (j 0)⟩ : Fin 50000) (j 1))

/-- out[p, q] = ((x · w)[p, q] + b[0, q]) + feat[p, q], the product taken on the row tile that holds row p. -/
noncomputable def G0 (a0 : S50000x18.Idx → Elt F .f32) (a1 : S18x4.Idx → Elt F .f32) (a2 : S1x4.Idx → Elt F .f32) (a3 : S50000x4.Idx → Elt F .f32) :
    S50000x4.Idx → Elt F .f32 := fun i =>
  FloatOps.addf (FloatOps.addf
    (matmul dot_S2000x18_S18x4_S2000x4_1_0_0_1_n_n (some .fp32) (rowTile0 a0 ⟨(i 0).val / 2000, rowDiv0_lt (i 0)⟩) a1 (constant S2000x4 .f32 0x00000000#32)
      (ix2 (⟨(i 0).val % 2000, rowMod0_lt (i 0)⟩ : Fin 2000) (i 1)))
    (a2 (ix2 (0 : Fin 1) (i 1)))) (a3 i)

/-- G0 at row  n · 2000 + p : the product is the one on tile n, read at row p. -/
theorem G0_tile (a0 : S50000x18.Idx → Elt F .f32) (a1 : S18x4.Idx → Elt F .f32) (a2 : S1x4.Idx → Elt F .f32) (a3 : S50000x4.Idx → Elt F .f32)
    (n : Fin 25) (p : Fin 2000) (q : Fin 4) :
    G0 a0 a1 a2 a3 (ix2 (⟨n.val * 2000 + p.val, rowTile0_lt n p⟩ : Fin 50000) q)
      = FloatOps.addf (FloatOps.addf
          (matmul dot_S2000x18_S18x4_S2000x4_1_0_0_1_n_n (some .fp32) (rowTile0 a0 n) a1 (constant S2000x4 .f32 0x00000000#32) (ix2 p q))
          (a2 (ix2 (0 : Fin 1) q))) (a3 (ix2 (⟨n.val * 2000 + p.val, rowTile0_lt n p⟩ : Fin 50000) q)) := by
  have hn : (⟨(n.val * 2000 + p.val) / 2000, rowDiv0_lt ⟨n.val * 2000 + p.val, rowTile0_lt n p⟩⟩ : Fin 25) = n :=
    Fin.ext (by show (n.val * 2000 + p.val) / 2000 = n.val; have := p.isLt; omega)
  have hp : (⟨(n.val * 2000 + p.val) % 2000, rowMod0_lt ⟨n.val * 2000 + p.val, rowTile0_lt n p⟩⟩ : Fin 2000) = p :=
    Fin.ext (by show (n.val * 2000 + p.val) % 2000 = p.val; have := p.isLt; omega)
  unfold G0
  show FloatOps.addf (FloatOps.addf
      (matmul dot_S2000x18_S18x4_S2000x4_1_0_0_1_n_n (some .fp32)
        (rowTile0 a0 ⟨(n.val * 2000 + p.val) / 2000, rowDiv0_lt ⟨n.val * 2000 + p.val, rowTile0_lt n p⟩⟩) a1 (constant S2000x4 .f32 0x00000000#32)
        (ix2 (⟨(n.val * 2000 + p.val) % 2000, rowMod0_lt ⟨n.val * 2000 + p.val, rowTile0_lt n p⟩⟩ : Fin 2000) q))
      (a2 (ix2 (0 : Fin 1) q))) (a3 (ix2 (⟨n.val * 2000 + p.val, rowTile0_lt n p⟩ : Fin 50000) q)) = _
  rw [hn, hp]

/-! ## The body's payload at an index -/

/-- (x · w + b) + feat at row p, column q of a block: the casts are identities and the bias row is read at row 0. -/
theorem pay0_apply (v0 : Vec F S2000x18 .f32) (v2 : Vec F S18x4 .f32) (v4 : Vec F S1x4 .f32) (v8 : Vec F S2000x4 .f32) (p : Fin 2000) (q : Fin 4) :
    k0_pay1 v0 v2 v4 v8 (ix2 p q)
      = FloatOps.addf (FloatOps.addf
          (matmul dot_S2000x18_S18x4_S2000x4_1_0_0_1_n_n (some .fp32) v0 v2 (constant S2000x4 .f32 0x00000000#32) (ix2 p q))
          (v4 (ix2 (0 : Fin 1) q))) (v8 (ix2 p q)) := by
  unfold k0_pay1
  simp only [shapeCast_self]
  show FloatOps.addf (FloatOps.addf
      (matmul dot_S2000x18_S18x4_S2000x4_1_0_0_1_n_n (some .fp32) v0 v2 (constant S2000x4 .f32 0x00000000#32) (ix2 p q))
      (broadcastTo S2000x4 v4 broadcasts_S1x4_S2000x4 (ix2 p q))) (v8 (ix2 p q)) = _
  rw [broadcastTo_apply v4 broadcasts_S1x4_S2000x4 (ix2 p q) (ix2 (0 : Fin 1) q)
    (fun a => by match a with | ⟨0, _⟩ => rfl | ⟨1, _⟩ => rfl)]

/-! ## What each point writes back -/

theorem hz0 : (![0, 0] : Fin 2 → Nat) = fun _ => 0 := funext fun a => by fin_cases a <;> rfl

/-- The printed index maps, decided over the 25 points: the two row-tiled inputs move with the output's row tile, the
    weight and the bias stay at block (0, 0), and the output's row tile stays below 25. -/
theorem idx_facts0 : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2)
    ∧ win0_3.index t (1 : Fin 2) = 0
    ∧ win0_4.index t (0 : Fin 2) ≤ 24 ∧ win0_4.index t (1 : Fin 2) = 0 :=
  (by decide +kernel : ∀ t : Fin grid0.N, _)

/-- Every row tile is some point's. -/
theorem idx_onto0 : ∀ (q0 : Fin 25), ∃ t : Fin cfg0.N, win0_4.index t = ![q0.val, 0] :=
  (by decide +kernel : ∀ (q0 : Fin 25), ∃ t : Fin grid0.N, win0_4.index t = ![q0.val, 0])

/-- The algebraic step, over any blocks: if the four blocks are the row tile n of x, the whole of w, the whole of b, and
    (at row p, column q) row n · 2000 + p of feat, the payload at (p, q) is G0 at row n · 2000 + p. -/
theorem pay0_eq_G0 (a0 : S50000x18.Idx → Elt F .f32) (a1 : S18x4.Idx → Elt F .f32) (a2 : S1x4.Idx → Elt F .f32) (a3 : S50000x4.Idx → Elt F .f32)
    (n : Fin 25) (p : Fin 2000) (q : Fin 4)
    (x0 : Vec F S2000x18 .f32) (x1 : Vec F S18x4 .f32) (x2 : Vec F S1x4 .f32) (x3 : Vec F S2000x4 .f32)
    (h0 : x0 = rowTile0 a0 n) (h1 : x1 = a1) (h2 : x2 = a2)
    (h3 : x3 (ix2 p q) = a3 (ix2 (⟨n.val * 2000 + p.val, rowTile0_lt n p⟩ : Fin 50000) q)) :
    k0_pay1 x0 x1 x2 x3 (ix2 p q) = G0 a0 a1 a2 a3 (ix2 (⟨n.val * 2000 + p.val, rowTile0_lt n p⟩ : Fin 50000) q) := by
  subst h0 h1 h2
  rw [pay0_apply (rowTile0 a0 n) x1 x2 x3 p q, G0_tile a0 x1 x2 a3 n p q, h3]

/-- Row p, column q of the output's block at point t is row (tile) · 2000 + p, column q of the array. -/
theorem emb0_4 (t : Fin cfg0.N) (p : Fin 2000) (q : Fin 4) (hn : win0_4.index t (0 : Fin 2) < 25) (e41 : win0_4.index t (1 : Fin 2) = 0) :
    ((cfg0.win 4).blk t).view.emb (ix2 p q)
      = ix2 (⟨win0_4.index t (0 : Fin 2) * 2000 + p.val, rowTile0_lt ⟨win0_4.index t (0 : Fin 2), hn⟩ p⟩ : Fin 50000) q := by
  funext a; apply Fin.ext
  match a with
  | ⟨0, _⟩ => show win0_4.index t (0 : Fin 2) * 2000 + 1 * p.val = win0_4.index t (0 : Fin 2) * 2000 + p.val; omega
  | ⟨1, _⟩ => show win0_4.index t (1 : Fin 2) * 4 + 1 * q.val = q.val; omega

/-- Each input block at point t, read where the output's block says: x's is the row tile of the output's; -/
theorem blk0_0_eq (c : Dev nD) (t : Fin cfg0.N) (hn : win0_4.index t (0 : Fin 2) < 25)
    (e00 : win0_0.index t (0 : Fin 2) = win0_4.index t (0 : Fin 2)) (e01 : win0_0.index t (1 : Fin 2) = 0) :
    (iblk0 V c 0 t : Vec F S2000x18 .f32) = rowTile0 (V c (Pipeline.arrRef spec0 0)) ⟨win0_4.index t (0 : Fin 2), hn⟩ := by
  funext j'
  obtain ⟨r, k, rfl⟩ : ∃ (r : Fin 2000) (k : Fin 18), j' = ix2 r k := ⟨j' 0, j' 1, eq_ix2 j'⟩
  show V c (Pipeline.arrRef spec0 0) (((cfg0.win 0).blk t).view.emb (ix2 r k))
    = V c (Pipeline.arrRef spec0 0) (ix2 (⟨win0_4.index t (0 : Fin 2) * 2000 + r.val, rowTile0_lt ⟨win0_4.index t (0 : Fin 2), hn⟩ r⟩ : Fin 50000) k)
  refine congrArg (V c (Pipeline.arrRef spec0 0)) ?_
  funext a; apply Fin.ext
  match a with
  | ⟨0, _⟩ => show win0_0.index t (0 : Fin 2) * 2000 + 1 * r.val = win0_4.index t (0 : Fin 2) * 2000 + r.val; omega
  | ⟨1, _⟩ => show win0_0.index t (1 : Fin 2) * 18 + 1 * k.val = k.val; omega

/-- w's is the whole array; -/
theorem blk0_1_eq (c : Dev nD) (t : Fin cfg0.N) (e10 : win0_1.index t (0 : Fin 2) = 0) (e11 : win0_1.index t (1 : Fin 2) = 0) :
    (iblk0 V c 1 t : Vec F S18x4 .f32) = V c (Pipeline.arrRef spec0 1) := by
  funext j'
  obtain ⟨k, q', rfl⟩ : ∃ (k : Fin 18) (q' : Fin 4), j' = ix2 k q' := ⟨j' 0, j' 1, eq_ix2 j'⟩
  show V c (Pipeline.arrRef spec0 1) (((cfg0.win 1).blk t).view.emb (ix2 k q')) = V c (Pipeline.arrRef spec0 1) (ix2 k q')
  refine congrArg (V c (Pipeline.arrRef spec0 1)) ?_
  funext a; apply Fin.ext
  match a with
  | ⟨0, _⟩ => show win0_1.index t (0 : Fin 2) * 18 + 1 * k.val = k.val; omega
  | ⟨1, _⟩ => show win0_1.index t (1 : Fin 2) * 4 + 1 * q'.val = q'.val; omega

/-- b's is the whole array; -/
theorem blk0_2_eq (c : Dev nD) (t : Fin cfg0.N) (e20 : win0_2.index t (0 : Fin 2) = 0) (e21 : win0_2.index t (1 : Fin 2) = 0) :
    (iblk0 V c 2 t : Vec F S1x4 .f32) = V c (Pipeline.arrRef spec0 2) := by
  funext j'
  obtain ⟨z, q', rfl⟩ : ∃ (z : Fin 1) (q' : Fin 4), j' = ix2 z q' := ⟨j' 0, j' 1, eq_ix2 j'⟩
  show V c (Pipeline.arrRef spec0 2) (((cfg0.win 2).blk t).view.emb (ix2 z q')) = V c (Pipeline.arrRef spec0 2) (ix2 z q')
  refine congrArg (V c (Pipeline.arrRef spec0 2)) ?_
  funext a; apply Fin.ext
  match a with
  | ⟨0, _⟩ => show win0_2.index t (0 : Fin 2) * 1 + 1 * z.val = z.val; omega
  | ⟨1, _⟩ => show win0_2.index t (1 : Fin 2) * 4 + 1 * q'.val = q'.val; omega

/-- feat's, at row p and column q, is row (tile) · 2000 + p of the array. -/
theorem blk0_3_at (c : Dev nD) (t : Fin cfg0.N) (hn : win0_4.index t (0 : Fin 2) < 25)
    (e30 : win0_3.index t (0 : Fin 2) = win0_4.index t (0 : Fin 2)) (e31 : win0_3.index t (1 : Fin 2) = 0) (p : Fin 2000) (q : Fin 4) :
    (iblk0 V c 3 t : Vec F S2000x4 .f32) (ix2 p q) = V c (Pipeline.arrRef spec0 3)
      (ix2 (⟨win0_4.index t (0 : Fin 2) * 2000 + p.val, rowTile0_lt ⟨win0_4.index t (0 : Fin 2), hn⟩ p⟩ : Fin 50000) q) := by
  show V c (Pipeline.arrRef spec0 3) (((cfg0.win 3).blk t).view.emb (ix2 p q)) = V c (Pipeline.arrRef spec0 3)
      (ix2 (⟨win0_4.index t (0 : Fin 2) * 2000 + p.val, rowTile0_lt ⟨win0_4.index t (0 : Fin 2), hn⟩ p⟩ : Fin 50000) q)
  refine congrArg (V c (Pipeline.arrRef spec0 3)) ?_
  funext a; apply Fin.ext
  match a with
  | ⟨0, _⟩ => show win0_3.index t (0 : Fin 2) * 2000 + 1 * p.val = win0_4.index t (0 : Fin 2) * 2000 + p.val; omega
  | ⟨1, _⟩ => show win0_3.index t (1 : Fin 2) * 4 + 1 * q.val = q.val; omega

/-- What point t writes back is block t of G0 of the arrays as the region finds them. -/
theorem flushed0_4_eq (c : Dev nD) (t : Fin cfg0.N) :
    (dat0 V c).flushed 4 t = ((cfg0.win 4).blk t).view.read (Elt F)
      (G0 (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  unfold out0_4
  rw [View.canon_unit_zero hz0]
  simp only [View.ld_unit_zero (S := S2000x18) hz0, View.ld_unit_zero (S := S18x4) hz0, View.ld_unit_zero (S := S1x4) hz0,
    View.ld_unit_zero (S := S2000x4) hz0]
  obtain ⟨e00, e01, e10, e11, e20, e21, e30, e31, e4le, e41⟩ := idx_facts0 t
  have hn : win0_4.index t (0 : Fin 2) < 25 := by omega
  funext j
  obtain ⟨p, q, rfl⟩ : ∃ (p : Fin 2000) (q : Fin 4), j = ix2 p q := ⟨j 0, j 1, eq_ix2 j⟩
  show k0_pay1 (iblk0 V c 0 t) (iblk0 V c 1 t) (iblk0 V c 2 t) (iblk0 V c 3 t) (ix2 p q)
    = G0 (V c (Pipeline.arrRef spec0 0)) (V c (Pipeline.arrRef spec0 1)) (V c (Pipeline.arrRef spec0 2)) (V c (Pipeline.arrRef spec0 3))
        (((cfg0.win 4).blk t).view.emb (ix2 p q))
  rw [emb0_4 t p q hn e41]
  exact pay0_eq_G0 (V c (Pipeline.arrRef spec0 0)) (V c (Pipeline.arrRef spec0 1)) (V c (Pipeline.arrRef spec0 2)) (V c (Pipeline.arrRef spec0 3))
    ⟨win0_4.index t (0 : Fin 2), hn⟩ p q (iblk0 V c 0 t) (iblk0 V c 1 t) (iblk0 V c 2 t) (iblk0 V c 3 t)
    (blk0_0_eq V c t hn e00 e01) (blk0_1_eq V c t e10 e11) (blk0_2_eq V c t e20 e21) (blk0_3_at V c t hn e30 e31 p q)

/-! ## From the blocks to the array -/

/-- An index of the output array is in point t's block iff each coordinate is in the block's range on its axis. -/
theorem mem_blk0_4 (t : Fin cfg0.N) (i : S50000x4.Idx) :
    i ∈ ((cfg0.win 4).blk t).view.set ↔ ∀ a : Fin 2, win0_4.index t a * S2000x4.size a ≤ (i a).val ∧ (i a).val < win0_4.index t a * S2000x4.size a + S2000x4.size a := by
  show i ∈ ((View.whole main_v37).slice (win0_4.rect t)).set ↔ _
  rw [View.set_slice_whole, Rect.mem_set_unit]
  exact Iff.rfl

/-- Every index of the output array is in the block of the point whose row tile holds its row: row r is in tile r / 2000. -/
theorem covered0_4 (i : S50000x4.Idx) :
    ∃ t : Fin cfg0.N, (cfg0.win 4).flush t = true ∧ i ∈ ((cfg0.win 4).blk t).view.set := by
  have hi0 : (i 0).val < 50000 := (i 0).isLt
  have hi1 : (i 1).val < 4 := (i 1).isLt
  obtain ⟨t, ht⟩ := idx_onto0 ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_blk0_4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 4 ≤ (i 1).val ∧ (i 1).val < win0_4.index t (1 : Fin 2) * 4 + 4; omega

/-- The output array after the region is G0 of the arrays as the region finds them. -/
theorem final0_4 (c : Dev nD) : (dat0 V c).arrAt 4 cfg0.N
    = G0 (V c (Pipeline.arrRef spec0 0)) (V c (Pipeline.arrRef spec0 1)) (V c (Pipeline.arrRef spec0 2)) (V c (Pipeline.arrRef spec0 3)) :=
  (dat0 V c).arrAt_eq_of_cover 4 _ (fun t _ => flushed0_4_eq V c t) covered0_4

end Region0

/-! # G0 at an index, over the extended reals -/

/-! ## The product's operand indices, axis by axis -/

theorem lhs_dot0_0 (j : S2000x4.Idx) (k : dot_S2000x18_S18x4_S2000x4_1_0_0_1_n_n.contr.Idx) :
    (dot_S2000x18_S18x4_S2000x4_1_0_0_1_n_n.lhsIdx j k 0).val = (j 0).val := rfl
theorem lhs_dot0_1 (j : S2000x4.Idx) (k : dot_S2000x18_S18x4_S2000x4_1_0_0_1_n_n.contr.Idx) :
    (dot_S2000x18_S18x4_S2000x4_1_0_0_1_n_n.lhsIdx j k 1).val = (k ⟨0, by decide⟩).val :=
  DotDims.lhsIdx_val_of_single dot_S2000x18_S18x4_S2000x4_1_0_0_1_n_n (cl := 1) rfl j k
theorem rhs_dot0_0 (j : S2000x4.Idx) (k : dot_S2000x18_S18x4_S2000x4_1_0_0_1_n_n.contr.Idx) :
    (dot_S2000x18_S18x4_S2000x4_1_0_0_1_n_n.rhsIdx j k 0).val = (k ⟨0, by decide⟩).val :=
  DotDims.rhsIdx_val_of_single dot_S2000x18_S18x4_S2000x4_1_0_0_1_n_n (cr := 0) rfl j k
theorem rhs_dot0_1 (j : S2000x4.Idx) (k : dot_S2000x18_S18x4_S2000x4_1_0_0_1_n_n.contr.Idx) :
    (dot_S2000x18_S18x4_S2000x4_1_0_0_1_n_n.rhsIdx j k 1).val = (j 1).val := rfl

/-- The product into the zero accumulator, at an index: the sum over the 18 contraction positions. -/
theorem matmul0_apply (lhs : FVec Ideal S2000x18 .f32) (rhs : FVec Ideal S18x4 .f32) (p : Fin 2000) (q : Fin 4) :
    matmul dot_S2000x18_S18x4_S2000x4_1_0_0_1_n_n (some .fp32) lhs rhs (constant (F := Ideal) S2000x4 .f32 0x00000000#32) (ix2 p q)
      = ∑ k : Fin 18, lhs (ix2 p k) * rhs (ix2 k q) := by
  refine (Ideal.matmul_constant_zero_apply dot_S2000x18_S18x4_S2000x4_1_0_0_1_n_n (some .fp32) lhs rhs (ix2 p q)).trans ?_
  rw [← Equiv.sum_comp (contrEquiv1 dot_S2000x18_S18x4_S2000x4_1_0_0_1_n_n 18 rfl rfl).symm]
  refine Finset.sum_congr rfl fun k _ => ?_
  have hk := contrEquiv1_symm_val dot_S2000x18_S18x4_S2000x4_1_0_0_1_n_n 18 rfl rfl k
  congr 2
  · funext a; apply Fin.ext
    match a with
    | ⟨0, _⟩ => exact lhs_dot0_0 _ _
    | ⟨1, _⟩ => exact (lhs_dot0_1 _ _).trans hk
  · funext a; apply Fin.ext
    match a with
    | ⟨0, _⟩ => exact (rhs_dot0_0 _ _).trans hk
    | ⟨1, _⟩ => exact rhs_dot0_1 _ _

/-- out[p, q] = (Σ_k x[p, k] · w[k, q]) + b[0, q] + feat[p, q]. -/
theorem G0_apply (a0 : S50000x18.Idx → Elt Ideal .f32) (a1 : S18x4.Idx → Elt Ideal .f32) (a2 : S1x4.Idx → Elt Ideal .f32) (a3 : S50000x4.Idx → Elt Ideal .f32)
    (p : Fin 50000) (q : Fin 4) :
    G0 (F := Ideal) a0 a1 a2 a3 (ix2 p q) = (∑ k : Fin 18, a0 (ix2 p k) * a1 (ix2 k q)) + a2 (ix2 (0 : Fin 1) q) + a3 (ix2 p q) := by
  unfold G0
  show (matmul dot_S2000x18_S18x4_S2000x4_1_0_0_1_n_n (some .fp32) (rowTile0 a0 ⟨p.val / 2000, rowDiv0_lt p⟩) a1 (constant (F := Ideal) S2000x4 .f32 0x00000000#32)
      (ix2 (⟨p.val % 2000, rowMod0_lt p⟩ : Fin 2000) q) + a2 (ix2 (0 : Fin 1) q)) + a3 (ix2 p q) = _
  rw [matmul0_apply]
  congr 2
  refine Finset.sum_congr rfl fun k _ => ?_
  congr 1
  unfold rowTile0
  refine congrArg a0 ?_
  funext a; apply Fin.ext
  match a with
  | ⟨0, _⟩ => show p.val / 2000 * 2000 + p.val % 2000 = p.val; omega
  | ⟨1, _⟩ => rfl

end Cert.KernelIdeal.Hand

end
-- ==== Proof.Val.SpecFn.lean ====
/-
  The per-layer statistics and activations of the network, by coordinates over the extended reals.

  A layer's input to its batch-norm is an array `x : [N, C]`. Its column mean is the column sum divided by
  the row count, its (biased) column variance the column sum of squared deviations from the mean divided by
  the row count; the batch-norm rescales each column, `(x − μ) · rsqrt (v + ε) · γ + β`; and the row
  activation `softmax_one` is `exp (y − max y) / (1 + Σ exp (y − max y))` along each row. Both programs
  compute exactly these, one through whole-array host operations, the other block by block; each side's
  reading at an index is stated against the functions below, so the two meet here.

  Literals are kept as the values of their bit patterns (`Ideal.ofBits .f32 …`): the row count 50000.0, the
  batch-norm's ε, the 1.0 of `softmax_one`'s denominator and the −∞ a row maximum starts from. Division,
  exponential and reciprocal square root are the ideal instance's (`Ideal.div`, `Ideal.exp`, `Ideal.rsqrt`),
  the same functions for a host operation and for a kernel's.
-/
import Mathlib.Data.EReal.Operations
import Mathlib.Algebra.BigOperators.Ring.Finset
import Idealize.ShloMosaic.PureOps.Ideal

noncomputable section

open scoped BigOperators

namespace Cert.Val

open Idealize.ShloMosaic

variable {N C : ℕ}

/-- The row count 50000.0 as the programs print it. -/
noncomputable def cRows : EReal := Ideal.ofBits .f32 0x47435000#32
/-- The batch-norm's ε as the programs print it. -/
noncomputable def cEps : EReal := Ideal.ofBits .f32 0x3727C5AC#32
/-- The 1.0 of `softmax_one`'s denominator. -/
noncomputable def cOne : EReal := Ideal.ofBits .f32 0x3F800000#32
/-- The −∞ a row maximum starts from. -/
noncomputable def cNegInf : EReal := Ideal.ofBits .f32 0xFF800000#32

/-- Column sums. -/
noncomputable def colSum (x : Fin N → Fin C → EReal) (j : Fin C) : EReal := ∑ i, x i j
/-- Column means: the column sum over the row count. -/
noncomputable def colMean (x : Fin N → Fin C → EReal) (j : Fin C) : EReal := Ideal.div (colSum x j) cRows
/-- Column sums of squared deviations from `μ`. -/
noncomputable def colSsq (x : Fin N → Fin C → EReal) (μ : Fin C → EReal) (j : Fin C) : EReal :=
  ∑ i, (x i j - μ j) * (x i j - μ j)
/-- Biased column variances about the column means. -/
noncomputable def colVar (x : Fin N → Fin C → EReal) (j : Fin C) : EReal := Ideal.div (colSsq x (colMean x) j) cRows
/-- The batch-norm at an entry, from given column statistics. -/
noncomputable def bnAt (x : Fin N → Fin C → EReal) (μ v γ β : Fin C → EReal) (i : Fin N) (j : Fin C) : EReal :=
  (x i j - μ j) * Ideal.rsqrt (v j + cEps) * γ j + β j
/-- A row's maximum, folded from −∞. -/
noncomputable def rowMax (y : Fin C → EReal) : EReal := (Finset.univ : Finset (Fin C)).fold max cNegInf y
/-- `softmax_one` of a row at a column. -/
noncomputable def smOne (y : Fin C → EReal) (j : Fin C) : EReal :=
  Ideal.div (Ideal.exp (y j - rowMax y)) (cOne + ∑ j', Ideal.exp (y j' - rowMax y))
/-- A layer's activation: `softmax_one` of the batch-norm with the array's own column statistics. -/
noncomputable def act (x : Fin N → Fin C → EReal) (γ β : Fin C → EReal) (i : Fin N) (j : Fin C) : EReal :=
  smOne (fun j' => bnAt x (colMean x) (colVar x) γ β i j') j

end Cert.Val

end
-- ==== Proof.KI.R10v.lean ====
import proofs.«408084_j48395691492010_3_alg».proof.Proof.KI.R10
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! Region 10, the values. The two full-size results both hold, row by row, the aggregate plus the bias row (the
second is the running sum a later layer adds to, which starts as this layer's own sum). The one-row result ends
holding, column by column, the sum over the 25 row tiles — folded tile by tile from the zero row — of each tile's
column sum of those rows. First each control case's found pieces read back as the payloads; then the accumulator
after each point as the fold, by induction on the point; then the three result arrays after the last point; last
the readings at the ideal values, entry by entry. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem hz10 : (![0, 0] : Fin 2 → Nat) = fun _ => 0 := funext fun a => by fin_cases a <;> rfl

/-! ## The found pieces, read back -/

/-- Every point leaves in the first full-size result's buffer the block plus the bias row, -/
theorem out10_A_2_eq (c : Dev nD) (i : grid10.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc0 : cond10_0 i) (hc1 : ¬cond10_1 i)
    (x0 : Vec F S2000x64 .f32) (x1 : Vec F S1x64 .f32) :
    out10_A_2 c i a1 h1 a2 h2 a3 h3 a4 h4 a5 h5 a6 h6 hc0 hc1 x0 x1 = k10_pay2 x0 x1 := by
  unfold out10_A_2
  rw [View.read_writes_eq_canon _ _ _ (cover10_A_2 c i a1 h1 a2 h2 a3 h3 a4 h4 a5 h5 a6 h6 hc0 hc1 x0 x1)]
  unfold kernelRun10_A
  dsimp only
  sl_unfold_words
  rw [View.canon_unit_zero hz10]
  simp only [View.readAt_eq_ld, h1.read_unread, h2.read_unread, h3.read_unread, h4.read_unread, h5.read_unread, h6.read_unread, View.ld_unit_zero (S := S2000x64) hz10, View.ld_unit_zero (S := S1x64) hz10]

theorem out10_B_2_eq (c : Dev nD) (i : grid10.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc0 : ¬cond10_0 i) (hc1 : ¬cond10_1 i)
    (x0 : Vec F S2000x64 .f32) (x1 : Vec F S1x64 .f32) (xs0 : Vec F S1x64 .f32) :
    out10_B_2 c i a1 h1 a2 h2 a3 h3 a4 h4 a5 h5 a6 h6 hc0 hc1 x0 x1 xs0 = k10_pay2 x0 x1 := by
  unfold out10_B_2
  rw [View.read_writes_eq_canon _ _ _ (cover10_B_2 c i a1 h1 a2 h2 a3 h3 a4 h4 a5 h5 a6 h6 hc0 hc1 x0 x1 xs0)]
  unfold kernelRun10_B
  dsimp only
  sl_unfold_words
  rw [View.canon_unit_zero hz10]
  simp only [View.readAt_eq_ld, h1.read_unread, h2.read_unread, h3.read_unread, h4.read_unread, h5.read_unread, h6.read_unread, View.ld_unit_zero (S := S2000x64) hz10, View.ld_unit_zero (S := S1x64) hz10]

theorem out10_C_2_eq (c : Dev nD) (i : grid10.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc0 : ¬cond10_0 i) (hc1 : cond10_1 i)
    (x0 : Vec F S2000x64 .f32) (x1 : Vec F S1x64 .f32) (xs0 : Vec F S1x64 .f32) :
    out10_C_2 c i a1 h1 a2 h2 a3 h3 a4 h4 a5 h5 a6 h6 hc0 hc1 x0 x1 xs0 = k10_pay2 x0 x1 := by
  unfold out10_C_2
  rw [View.read_writes_eq_canon _ _ _ (cover10_C_2 c i a1 h1 a2 h2 a3 h3 a4 h4 a5 h5 a6 h6 hc0 hc1 x0 x1 xs0)]
  unfold kernelRun10_C
  dsimp only
  sl_unfold_words
  rw [View.canon_unit_zero hz10]
  simp only [View.readAt_eq_ld, h1.read_unread, h2.read_unread, h3.read_unread, h4.read_unread, h5.read_unread, h6.read_unread, View.ld_unit_zero (S := S2000x64) hz10, View.ld_unit_zero (S := S1x64) hz10]

/-- and the same in the second full-size result's buffer. -/
theorem out10_A_3_eq (c : Dev nD) (i : grid10.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc0 : cond10_0 i) (hc1 : ¬cond10_1 i)
    (x0 : Vec F S2000x64 .f32) (x1 : Vec F S1x64 .f32) :
    out10_A_3 c i a1 h1 a2 h2 a3 h3 a4 h4 a5 h5 a6 h6 hc0 hc1 x0 x1 = k10_pay2 x0 x1 := by
  unfold out10_A_3
  rw [View.read_writes_eq_canon _ _ _ (cover10_A_3 c i a1 h1 a2 h2 a3 h3 a4 h4 a5 h5 a6 h6 hc0 hc1 x0 x1)]
  unfold kernelRun10_A
  dsimp only
  sl_unfold_words
  rw [View.canon_unit_zero hz10]
  simp only [View.readAt_eq_ld, h1.read_unread, h2.read_unread, h3.read_unread, h4.read_unread, h5.read_unread, h6.read_unread, View.ld_unit_zero (S := S2000x64) hz10, View.ld_unit_zero (S := S1x64) hz10]

theorem out10_B_3_eq (c : Dev nD) (i : grid10.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc0 : ¬cond10_0 i) (hc1 : ¬cond10_1 i)
    (x0 : Vec F S2000x64 .f32) (x1 : Vec F S1x64 .f32) (xs0 : Vec F S1x64 .f32) :
    out10_B_3 c i a1 h1 a2 h2 a3 h3 a4 h4 a5 h5 a6 h6 hc0 hc1 x0 x1 xs0 = k10_pay2 x0 x1 := by
  unfold out10_B_3
  rw [View.read_writes_eq_canon _ _ _ (cover10_B_3 c i a1 h1 a2 h2 a3 h3 a4 h4 a5 h5 a6 h6 hc0 hc1 x0 x1 xs0)]
  unfold kernelRun10_B
  dsimp only
  sl_unfold_words
  rw [View.canon_unit_zero hz10]
  simp only [View.readAt_eq_ld, h1.read_unread, h2.read_unread, h3.read_unread, h4.read_unread, h5.read_unread, h6.read_unread, View.ld_unit_zero (S := S2000x64) hz10, View.ld_unit_zero (S := S1x64) hz10]

theorem out10_C_3_eq (c : Dev nD) (i : grid10.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc0 : ¬cond10_0 i) (hc1 : cond10_1 i)
    (x0 : Vec F S2000x64 .f32) (x1 : Vec F S1x64 .f32) (xs0 : Vec F S1x64 .f32) :
    out10_C_3 c i a1 h1 a2 h2 a3 h3 a4 h4 a5 h5 a6 h6 hc0 hc1 x0 x1 xs0 = k10_pay2 x0 x1 := by
  unfold out10_C_3
  rw [View.read_writes_eq_canon _ _ _ (cover10_C_3 c i a1 h1 a2 h2 a3 h3 a4 h4 a5 h5 a6 h6 hc0 hc1 x0 x1 xs0)]
  unfold kernelRun10_C
  dsimp only
  sl_unfold_words
  rw [View.canon_unit_zero hz10]
  simp only [View.readAt_eq_ld, h1.read_unread, h2.read_unread, h3.read_unread, h4.read_unread, h5.read_unread, h6.read_unread, View.ld_unit_zero (S := S2000x64) hz10, View.ld_unit_zero (S := S1x64) hz10]

/-- The first point zeroes the accumulator, reads the zero row back and leaves the tile step applied to it. -/
theorem sout10_A_0_eq (c : Dev nD) (i : grid10.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc0 : cond10_0 i) (hc1 : ¬cond10_1 i)
    (x0 : Vec F S2000x64 .f32) (x1 : Vec F S1x64 .f32) :
    sout10_A_0 c i a1 h1 a2 h2 a3 h3 a4 h4 a5 h5 a6 h6 hc0 hc1 x0 x1 = k10_pay3 x0 x1 (k10_pay1 (F := F)) := by
  unfold sout10_A_0
  rw [View.read_writes_eq_canon _ _ _ (scover10_A_0 c i a1 h1 a2 h2 a3 h3 a4 h4 a5 h5 a6 h6 hc0 hc1 x0 x1)]
  unfold kernelRun10_A
  dsimp only
  sl_unfold_words
  rw [View.canon_cons_unit_zero (S := S1x64) hz10, View.readCov_unit_zero (S := S1x64) _ hz10]
  simp only [View.readAt_eq_ld, h1.read_unread, h2.read_unread, h3.read_unread, h4.read_unread, h5.read_unread, h6.read_unread, View.ld_unit_zero (S := S2000x64) hz10, View.ld_unit_zero (S := S1x64) hz10]

/-- A middle point leaves in the accumulator the tile step applied to what it held. -/
theorem sout10_B_0_eq (c : Dev nD) (i : grid10.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc0 : ¬cond10_0 i) (hc1 : ¬cond10_1 i)
    (x0 : Vec F S2000x64 .f32) (x1 : Vec F S1x64 .f32) (xs0 : Vec F S1x64 .f32) :
    sout10_B_0 c i a1 h1 a2 h2 a3 h3 a4 h4 a5 h5 a6 h6 hc0 hc1 x0 x1 xs0 = k10_pay3 x0 x1 xs0 := by
  unfold sout10_B_0
  rw [View.read_writes_eq_canon _ _ _ (scover10_B_0 c i a1 h1 a2 h2 a3 h3 a4 h4 a5 h5 a6 h6 hc0 hc1 x0 x1 xs0)]
  unfold kernelRun10_B
  dsimp only
  sl_unfold_words
  rw [View.canon_unit_zero hz10]
  simp only [View.readAt_eq_ld, h1.read_unread, h2.read_unread, h3.read_unread, h4.read_unread, h5.read_unread, h6.read_unread, View.ld_unit_zero (S := S2000x64) hz10, View.ld_unit_zero (S := S1x64) hz10]

/-- The last point leaves the same in the accumulator, -/
theorem sout10_C_0_eq (c : Dev nD) (i : grid10.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc0 : ¬cond10_0 i) (hc1 : cond10_1 i)
    (x0 : Vec F S2000x64 .f32) (x1 : Vec F S1x64 .f32) (xs0 : Vec F S1x64 .f32) :
    sout10_C_0 c i a1 h1 a2 h2 a3 h3 a4 h4 a5 h5 a6 h6 hc0 hc1 x0 x1 xs0 = k10_pay3 x0 x1 xs0 := by
  unfold sout10_C_0
  rw [View.read_writes_eq_canon _ _ _ (scover10_C_0 c i a1 h1 a2 h2 a3 h3 a4 h4 a5 h5 a6 h6 hc0 hc1 x0 x1 xs0)]
  unfold kernelRun10_C
  dsimp only
  sl_unfold_words
  rw [View.canon_unit_zero hz10]
  simp only [View.readAt_eq_ld, h1.read_unread, h2.read_unread, h3.read_unread, h4.read_unread, h5.read_unread, h6.read_unread, View.ld_unit_zero (S := S2000x64) hz10, View.ld_unit_zero (S := S1x64) hz10]

/-- and stores to the one-row result's buffer what it then reads back from the accumulator: the same row. -/
theorem out10_C_4_eq (c : Dev nD) (i : grid10.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S1x64 .f32) (h5 : a5.IsWhole) (a6 : Memref sig .tc .vmem S1x64 .f32) (h6 : a6.IsWhole) (hc0 : ¬cond10_0 i) (hc1 : cond10_1 i)
    (x0 : Vec F S2000x64 .f32) (x1 : Vec F S1x64 .f32) (xs0 : Vec F S1x64 .f32) :
    out10_C_4 c i a1 h1 a2 h2 a3 h3 a4 h4 a5 h5 a6 h6 hc0 hc1 x0 x1 xs0 = k10_pay3 x0 x1 xs0 := by
  unfold out10_C_4
  rw [View.read_writes_eq_canon _ _ _ (cover10_C_4 c i a1 h1 a2 h2 a3 h3 a4 h4 a5 h5 a6 h6 hc0 hc1 x0 x1 xs0)]
  unfold kernelRun10_C
  dsimp only
  sl_unfold_words
  rw [View.canon_unit_zero hz10, View.readCov_unit_zero (S := S1x64) _ hz10]
  simp only [View.readAt_eq_ld, h1.read_unread, h2.read_unread, h3.read_unread, h4.read_unread, h5.read_unread, h6.read_unread, View.ld_unit_zero (S := S2000x64) hz10, View.ld_unit_zero (S := S1x64) hz10]

/-! ## The arrays and their blocks, at their literal types -/

/-- The array of the aggregated rows, as the region finds it, -/
noncomputable abbrev xarr10 (c : Dev nD) : Vec F S50000x64 .f32 := V c (Pipeline.arrRef spec10 0)
/-- and the bias row. -/
noncomputable abbrev barr10 (c : Dev nD) : Vec F S1x64 .f32 := V c (Pipeline.arrRef spec10 1)

/-- Row tile n of an array of 50000 rows: rows 2000 n … 2000 n + 1999. -/
noncomputable def tile10 (X : Vec F S50000x64 .f32) (n : Fin 25) : Vec F S2000x64 .f32 :=
  fun j => X (ix2 ⟨2000 * n.val + (j 0).val, by have := idx2_lt0 j; have := n.isLt; omega⟩ ⟨(j 1).val, idx2_lt1 j⟩)

theorem tile10_apply (X : Vec F S50000x64 .f32) (n : Fin 25) (r : Fin 2000) (q : Fin 64) :
    tile10 X n (ix2 r q) = X (ix2 ⟨2000 * n.val + r.val, by have := n.isLt; have := r.isLt; omega⟩ q) := rfl

/-- The row-tile windows' block index is the grid point; the one-row windows never move. -/
theorem index10_0 : ∀ t : Fin cfg10.N, win10_0.index t 0 = t.val ∧ win10_0.index t 1 = 0 :=
  (by decide +kernel : ∀ t : Fin grid10.N, win10_0.index t 0 = t.val ∧ win10_0.index t 1 = 0)
theorem index10_1 : ∀ t : Fin cfg10.N, win10_1.index t 0 = 0 ∧ win10_1.index t 1 = 0 :=
  (by decide +kernel : ∀ t : Fin grid10.N, win10_1.index t 0 = 0 ∧ win10_1.index t 1 = 0)
theorem index10_2 : ∀ t : Fin cfg10.N, win10_2.index t 0 = t.val ∧ win10_2.index t 1 = 0 :=
  (by decide +kernel : ∀ t : Fin grid10.N, win10_2.index t 0 = t.val ∧ win10_2.index t 1 = 0)
theorem index10_3 : ∀ t : Fin cfg10.N, win10_3.index t 0 = t.val ∧ win10_3.index t 1 = 0 :=
  (by decide +kernel : ∀ t : Fin grid10.N, win10_3.index t 0 = t.val ∧ win10_3.index t 1 = 0)
theorem index10_4 : ∀ t : Fin cfg10.N, win10_4.index t 0 = 0 ∧ win10_4.index t 1 = 0 :=
  (by decide +kernel : ∀ t : Fin grid10.N, win10_4.index t 0 = 0 ∧ win10_4.index t 1 = 0)
theorem xsize10_4 : ∀ t : Fin cfg10.N, win10_4.xsize (grid10.coords t) 0 = 1 ∧ win10_4.xsize (grid10.coords t) 1 = 64 :=
  (by decide +kernel : ∀ t : Fin grid10.N, win10_4.xsize (grid10.coords t) 0 = 1 ∧ win10_4.xsize (grid10.coords t) 1 = 64)

/-- The row-tile window's block at point t is row tile t of the array. -/
theorem xblk10_eq (c : Dev nD) (t : Fin cfg10.N) (hN : t.val < 25) :
    (iblk10 V c 0 t : Vec F S2000x64 .f32) = tile10 (xarr10 V c) ⟨t.val, hN⟩ := by
  have hi := index10_0 t
  funext j
  unfold iblk10 tile10
  rw [View.read_apply]
  show V c (Pipeline.arrRef spec10 0) _ = V c (Pipeline.arrRef spec10 0) _
  congr 1
  funext a
  apply Fin.ext
  match a with
  | ⟨0, _⟩ => show win10_0.index t 0 * 2000 + 1 * (j 0).val = 2000 * t.val + (j 0).val; rw [hi.1]; omega
  | ⟨1, _⟩ => show win10_0.index t 1 * 64 + 1 * (j 1).val = (j 1).val; rw [hi.2]; omega

/-- The bias window's block is the whole one-row array, at every point. -/
theorem bblk10_eq (c : Dev nD) (t : Fin cfg10.N) : (iblk10 V c 1 t : Vec F S1x64 .f32) = barr10 V c := by
  have hi := index10_1 t
  funext j
  unfold iblk10
  rw [View.read_apply]
  show V c (Pipeline.arrRef spec10 1) _ = V c (Pipeline.arrRef spec10 1) j
  congr 1
  funext a
  apply Fin.ext
  match a with
  | ⟨0, _⟩ => show win10_1.index t 0 * 1 + 1 * (j 0).val = (j 0).val; rw [hi.1]; omega
  | ⟨1, _⟩ => show win10_1.index t 1 * 64 + 1 * (j 1).val = (j 1).val; rw [hi.2]; omega

/-! ## The three results as functions of the two arrays -/

/-- THE FIRST FULL-SIZE RESULT: entry i is the payload at the row tile holding row i 0 and at the bias row, read at the
    row's place in its tile and column i 1. -/
noncomputable def G10_2 (X : Vec F S50000x64 .f32) (B : Vec F S1x64 .f32) : Vec F S50000x64 .f32 :=
  fun i => k10_pay2 (tile10 X ⟨(i 0).val / 2000, by have := idx2_lt0 i; omega⟩) B (ix2 ⟨(i 0).val % 2000, Nat.mod_lt _ (by decide)⟩ (i 1))

/-- THE SECOND FULL-SIZE RESULT (the running sum handed on): the same function of the same two arrays. -/
noncomputable def G10_3 (X : Vec F S50000x64 .f32) (B : Vec F S1x64 .f32) : Vec F S50000x64 .f32 := G10_2 X B

/-- The accumulator after row tile n: the tile step from the zero row at tile 0, then from what the tile before left. -/
noncomputable def acc10 (X : Vec F S50000x64 .f32) (B : Vec F S1x64 .f32) : (n : ℕ) → n < 25 → Vec F S1x64 .f32
  | 0, h => k10_pay3 (tile10 X ⟨0, h⟩) B (k10_pay1 (F := F))
  | n + 1, h => k10_pay3 (tile10 X ⟨n + 1, h⟩) B (acc10 X B n (Nat.lt_of_succ_lt h))

/-- THE ONE-ROW RESULT: the fold after the last tile. -/
noncomputable def G10_4 (X : Vec F S50000x64 .f32) (B : Vec F S1x64 .f32) : Vec F S1x64 .f32 := acc10 X B 24 (by decide)

/-! ## What the buffers hold after each point -/

/-- The first full-size result's buffer after point n: tile n plus the bias row. -/
theorem outsAt10_pre2 (c : Dev nD) : ∀ (n : ℕ) (h : n < cfg10.N) (h' : n < 25),
    (outsAt10 V c n h).1 = k10_pay2 (tile10 (xarr10 V c) ⟨n, h'⟩) (barr10 V c)
  | 0, h, h' => by
    rw [outsAt10_A V c ⟨0, h⟩ (Nat.zero_mod 25) (fun e => by have e' : (0 : ℕ) % 25 = 24 := e; omega)]
    dsimp only
    rw [out10_A_2_eq, xblk10_eq V c ⟨0, h⟩ h', bblk10_eq V c ⟨0, h⟩]
  | n + 1, h, h' => by
    have hm : (n + 1) % 25 = n + 1 := Nat.mod_eq_of_lt h'
    by_cases h24 : n + 1 = 24
    · rw [outsAt10_C V c ⟨n + 1, h⟩ (fun e => by have e' : (n + 1) % 25 = 0 := e; omega) (by show (n + 1) % 25 = 24; omega)]
      dsimp only
      rw [out10_C_2_eq, xblk10_eq V c ⟨n + 1, h⟩ h', bblk10_eq V c ⟨n + 1, h⟩]
    · rw [outsAt10_B V c ⟨n + 1, h⟩ (fun e => by have e' : (n + 1) % 25 = 0 := e; omega) (fun e => by have e' : (n + 1) % 25 = 24 := e; omega)]
      dsimp only
      rw [out10_B_2_eq, xblk10_eq V c ⟨n + 1, h⟩ h', bblk10_eq V c ⟨n + 1, h⟩]

/-- The second full-size result's buffer after point n: the same. -/
theorem outsAt10_pre3 (c : Dev nD) : ∀ (n : ℕ) (h : n < cfg10.N) (h' : n < 25),
    (outsAt10 V c n h).2.1 = k10_pay2 (tile10 (xarr10 V c) ⟨n, h'⟩) (barr10 V c)
  | 0, h, h' => by
    rw [outsAt10_A V c ⟨0, h⟩ (Nat.zero_mod 25) (fun e => by have e' : (0 : ℕ) % 25 = 24 := e; omega)]
    dsimp only
    rw [out10_A_3_eq, xblk10_eq V c ⟨0, h⟩ h', bblk10_eq V c ⟨0, h⟩]
  | n + 1, h, h' => by
    have hm : (n + 1) % 25 = n + 1 := Nat.mod_eq_of_lt h'
    by_cases h24 : n + 1 = 24
    · rw [outsAt10_C V c ⟨n + 1, h⟩ (fun e => by have e' : (n + 1) % 25 = 0 := e; omega) (by show (n + 1) % 25 = 24; omega)]
      dsimp only
      rw [out10_C_3_eq, xblk10_eq V c ⟨n + 1, h⟩ h', bblk10_eq V c ⟨n + 1, h⟩]
    · rw [outsAt10_B V c ⟨n + 1, h⟩ (fun e => by have e' : (n + 1) % 25 = 0 := e; omega) (fun e => by have e' : (n + 1) % 25 = 24 := e; omega)]
      dsimp only
      rw [out10_B_3_eq, xblk10_eq V c ⟨n + 1, h⟩ h', bblk10_eq V c ⟨n + 1, h⟩]

/-- What the accumulator holds after point n is the fold up to tile n: by induction on the point. -/
theorem outsAt10_acc (c : Dev nD) : ∀ (n : ℕ) (h : n < cfg10.N) (h' : n < 25),
    (outsAt10 V c n h).2.2.2 = acc10 (xarr10 V c) (barr10 V c) n h'
  | 0, h, h' => by
    rw [outsAt10_A V c ⟨0, h⟩ (Nat.zero_mod 25) (fun e => by have e' : (0 : ℕ) % 25 = 24 := e; omega)]
    dsimp only
    rw [sout10_A_0_eq, xblk10_eq V c ⟨0, h⟩ h', bblk10_eq V c ⟨0, h⟩]
    rfl
  | n + 1, h, h' => by
    have ih := outsAt10_acc c n (Nat.lt_of_succ_lt h) (Nat.lt_of_succ_lt h')
    have hm : (n + 1) % 25 = n + 1 := Nat.mod_eq_of_lt h'
    by_cases h24 : n + 1 = 24
    · rw [outsAt10_C V c ⟨n + 1, h⟩ (fun e => by have e' : (n + 1) % 25 = 0 := e; omega) (by show (n + 1) % 25 = 24; omega)]
      dsimp only
      rw [sout10_C_0_eq, xblk10_eq V c ⟨n + 1, h⟩ h', bblk10_eq V c ⟨n + 1, h⟩]
      show k10_pay3 _ _ (outsAt10 V c n _).2.2.2 = k10_pay3 _ _ (acc10 _ _ n _)
      rw [ih]
    · rw [outsAt10_B V c ⟨n + 1, h⟩ (fun e => by have e' : (n + 1) % 25 = 0 := e; omega) (fun e => by have e' : (n + 1) % 25 = 24 := e; omega)]
      dsimp only
      rw [sout10_B_0_eq, xblk10_eq V c ⟨n + 1, h⟩ h', bblk10_eq V c ⟨n + 1, h⟩]
      show k10_pay3 _ _ (outsAt10 V c n _).2.2.2 = k10_pay3 _ _ (acc10 _ _ n _)
      rw [ih]

/-- At the last point the one-row result's buffer is left holding the whole fold. -/
theorem outsAt10_last (c : Dev nD) (t : Fin cfg10.N) (h24 : t.val = 24) :
    (outsAt10 V c t.val t.isLt).2.2.1 = G10_4 (xarr10 V c) (barr10 V c) := by
  obtain ⟨n, hn⟩ := t
  obtain rfl : n = 24 := h24
  rw [outsAt10_C V c ⟨24, hn⟩ (fun e => by have e' : (24 : ℕ) % 25 = 0 := e; omega) (by show (24 : ℕ) % 25 = 24; omega)]
  dsimp only
  rw [out10_C_4_eq, xblk10_eq V c ⟨24, hn⟩ (by show (24 : ℕ) < 25; omega), bblk10_eq V c ⟨24, hn⟩]
  show k10_pay3 _ _ (outsAt10 V c 23 _).2.2.2 = k10_pay3 _ _ (acc10 _ _ 23 _)
  rw [outsAt10_acc V c 23 _ (by decide)]

/-! ## The two full-size result arrays after the run -/

/-- What point t writes back of the first full-size result is block t of the result function of the arrays. -/
theorem flushed10_2 (c : Dev nD) (t : Fin cfg10.N) :
    (dat10 V c).flushed 2 t = ((cfg10.win 2).blk t).view.read (Elt F) (G10_2 (xarr10 V c) (barr10 V c)) := by
  have hN : t.val < 25 := lt_of_lt_of_eq t.isLt (show cfg10.N = 25 from N_10)
  have hi := index10_2 t
  show (cfg10.win 2).cut (grid10.coords t) ((dat10 V c).after 2 t) = _
  rw [after10_2, outsAt10_pre2 V c t.val t.isLt hN]
  funext j
  have hj0 : (j 0).val < 2000 := (j 0).isLt
  show k10_pay2 (tile10 (xarr10 V c) ⟨t.val, hN⟩) (barr10 V c) j = G10_2 (xarr10 V c) (barr10 V c) (((cfg10.win 2).blk t).view.emb j)
  have hrow : ((((cfg10.win 2).blk t).view.emb j : S50000x64.Idx) 0).val = t.val * 2000 + (j 0).val := by
    show win10_2.index t 0 * 2000 + 1 * (j 0).val = t.val * 2000 + (j 0).val
    rw [hi.1]; omega
  have hcol : ((((cfg10.win 2).blk t).view.emb j : S50000x64.Idx) 1).val = (j 1).val := by
    show win10_2.index t 1 * 64 + 1 * (j 1).val = (j 1).val
    rw [hi.2]; omega
  unfold G10_2
  have htile : (⟨((((cfg10.win 2).blk t).view.emb j : S50000x64.Idx) 0).val / 2000, by have := idx2_lt0 (((cfg10.win 2).blk t).view.emb j : S50000x64.Idx); omega⟩ : Fin 25) = ⟨t.val, hN⟩ :=
    Fin.ext (by show ((((cfg10.win 2).blk t).view.emb j : S50000x64.Idx) 0).val / 2000 = t.val; rw [hrow]; omega)
  have hplace : (ix2 ⟨((((cfg10.win 2).blk t).view.emb j : S50000x64.Idx) 0).val % 2000, Nat.mod_lt _ (by decide)⟩ ((((cfg10.win 2).blk t).view.emb j : S50000x64.Idx) 1) : S2000x64.Idx) = j := by
    funext d; apply Fin.ext
    match d with
    | ⟨0, _⟩ => show ((((cfg10.win 2).blk t).view.emb j : S50000x64.Idx) 0).val % 2000 = (j 0).val; rw [hrow]; omega
    | ⟨1, _⟩ => exact hcol
  rw [htile, hplace]

/-- An index of the array is in point t's block iff each coordinate is in the block's range on its axis. -/
theorem mem_blk10_2 (t : Fin cfg10.N) (i : S50000x64.Idx) :
    i ∈ ((cfg10.win 2).blk t).view.set ↔ ∀ a : Fin 2, win10_2.index t a * S2000x64.size a ≤ (i a).val ∧ (i a).val < win10_2.index t a * S2000x64.size a + S2000x64.size a := by
  show i ∈ ((View.whole (Pipeline.arrRef spec10 2)).slice (win10_2.rect t)).set ↔ _
  rw [View.set_slice_whole, Rect.mem_set_unit]
  exact Iff.rfl

/-- Every index of the full-size array is in some point's block: row r in the block of point r / 2000. -/
theorem covered10_2 (i : S50000x64.Idx) :
    ∃ t : Fin cfg10.N, (cfg10.win 2).flush t = true ∧ i ∈ ((cfg10.win 2).blk t).view.set := by
  have hi0 : (i 0).val < 50000 := (i 0).isLt
  refine ⟨⟨(i 0).val / 2000, by rw [show cfg10.N = 25 from N_10]; omega⟩, flush10_2 _, ?_⟩
  have hi := index10_2 ⟨(i 0).val / 2000, by rw [show cfg10.N = 25 from N_10]; omega⟩
  rw [mem_blk10_2]
  intro a
  match a with
  | ⟨0, _⟩ =>
    show win10_2.index _ 0 * 2000 ≤ (i 0).val ∧ (i 0).val < win10_2.index _ 0 * 2000 + 2000
    rw [hi.1]; show (i 0).val / 2000 * 2000 ≤ (i 0).val ∧ (i 0).val < (i 0).val / 2000 * 2000 + 2000; omega
  | ⟨1, _⟩ =>
    show win10_2.index _ 1 * S2000x64.size 1 ≤ (i 1).val ∧ (i 1).val < win10_2.index _ 1 * S2000x64.size 1 + S2000x64.size 1
    rw [hi.2, Nat.zero_mul, Nat.zero_add]; exact ⟨Nat.zero_le _, (i 1).isLt⟩

/-- So the first full-size result array ends holding the result function of the two arrays. -/
theorem final10_2 (c : Dev nD) :
    (dat10 V c).arrAt 2 cfg10.N = G10_2 (V c (Pipeline.arrRef spec10 0)) (V c (Pipeline.arrRef spec10 1)) :=
  (dat10 V c).arrAt_eq_of_cover 2 (G10_2 (xarr10 V c) (barr10 V c)) (fun t _ => flushed10_2 V c t) covered10_2

/-- What point t writes back of the second full-size result is block t of the result function of the arrays. -/
theorem flushed10_3 (c : Dev nD) (t : Fin cfg10.N) :
    (dat10 V c).flushed 3 t = ((cfg10.win 3).blk t).view.read (Elt F) (G10_3 (xarr10 V c) (barr10 V c)) := by
  have hN : t.val < 25 := lt_of_lt_of_eq t.isLt (show cfg10.N = 25 from N_10)
  have hi := index10_3 t
  show (cfg10.win 3).cut (grid10.coords t) ((dat10 V c).after 3 t) = _
  rw [after10_3, outsAt10_pre3 V c t.val t.isLt hN]
  funext j
  have hj0 : (j 0).val < 2000 := (j 0).isLt
  show k10_pay2 (tile10 (xarr10 V c) ⟨t.val, hN⟩) (barr10 V c) j = G10_3 (xarr10 V c) (barr10 V c) (((cfg10.win 3).blk t).view.emb j)
  have hrow : ((((cfg10.win 3).blk t).view.emb j : S50000x64.Idx) 0).val = t.val * 2000 + (j 0).val := by
    show win10_3.index t 0 * 2000 + 1 * (j 0).val = t.val * 2000 + (j 0).val
    rw [hi.1]; omega
  have hcol : ((((cfg10.win 3).blk t).view.emb j : S50000x64.Idx) 1).val = (j 1).val := by
    show win10_3.index t 1 * 64 + 1 * (j 1).val = (j 1).val
    rw [hi.2]; omega
  unfold G10_3 G10_2
  have htile : (⟨((((cfg10.win 3).blk t).view.emb j : S50000x64.Idx) 0).val / 2000, by have := idx2_lt0 (((cfg10.win 3).blk t).view.emb j : S50000x64.Idx); omega⟩ : Fin 25) = ⟨t.val, hN⟩ :=
    Fin.ext (by show ((((cfg10.win 3).blk t).view.emb j : S50000x64.Idx) 0).val / 2000 = t.val; rw [hrow]; omega)
  have hplace : (ix2 ⟨((((cfg10.win 3).blk t).view.emb j : S50000x64.Idx) 0).val % 2000, Nat.mod_lt _ (by decide)⟩ ((((cfg10.win 3).blk t).view.emb j : S50000x64.Idx) 1) : S2000x64.Idx) = j := by
    funext d; apply Fin.ext
    match d with
    | ⟨0, _⟩ => show ((((cfg10.win 3).blk t).view.emb j : S50000x64.Idx) 0).val % 2000 = (j 0).val; rw [hrow]; omega
    | ⟨1, _⟩ => exact hcol
  rw [htile, hplace]

/-- An index of the array is in point t's block iff each coordinate is in the block's range on its axis. -/
theorem mem_blk10_3 (t : Fin cfg10.N) (i : S50000x64.Idx) :
    i ∈ ((cfg10.win 3).blk t).view.set ↔ ∀ a : Fin 2, win10_3.index t a * S2000x64.size a ≤ (i a).val ∧ (i a).val < win10_3.index t a * S2000x64.size a + S2000x64.size a := by
  show i ∈ ((View.whole (Pipeline.arrRef spec10 3)).slice (win10_3.rect t)).set ↔ _
  rw [View.set_slice_whole, Rect.mem_set_unit]
  exact Iff.rfl

/-- Every index of the full-size array is in some point's block: row r in the block of point r / 2000. -/
theorem covered10_3 (i : S50000x64.Idx) :
    ∃ t : Fin cfg10.N, (cfg10.win 3).flush t = true ∧ i ∈ ((cfg10.win 3).blk t).view.set := by
  have hi0 : (i 0).val < 50000 := (i 0).isLt
  refine ⟨⟨(i 0).val / 2000, by rw [show cfg10.N = 25 from N_10]; omega⟩, flush10_3 _, ?_⟩
  have hi := index10_3 ⟨(i 0).val / 2000, by rw [show cfg10.N = 25 from N_10]; omega⟩
  rw [mem_blk10_3]
  intro a
  match a with
  | ⟨0, _⟩ =>
    show win10_3.index _ 0 * 2000 ≤ (i 0).val ∧ (i 0).val < win10_3.index _ 0 * 2000 + 2000
    rw [hi.1]; show (i 0).val / 2000 * 2000 ≤ (i 0).val ∧ (i 0).val < (i 0).val / 2000 * 2000 + 2000; omega
  | ⟨1, _⟩ =>
    show win10_3.index _ 1 * S2000x64.size 1 ≤ (i 1).val ∧ (i 1).val < win10_3.index _ 1 * S2000x64.size 1 + S2000x64.size 1
    rw [hi.2, Nat.zero_mul, Nat.zero_add]; exact ⟨Nat.zero_le _, (i 1).isLt⟩

/-- So the second full-size result array ends holding the result function of the two arrays. -/
theorem final10_3 (c : Dev nD) :
    (dat10 V c).arrAt 3 cfg10.N = G10_3 (V c (Pipeline.arrRef spec10 0)) (V c (Pipeline.arrRef spec10 1)) :=
  (dat10 V c).arrAt_eq_of_cover 3 (G10_3 (xarr10 V c) (barr10 V c)) (fun t _ => flushed10_3 V c t) covered10_3

/-! ## The one-row result array after the run -/

/-- The one write-back (at the last point) writes the fold: the result's block there is the whole one-row array. -/
theorem flushed10_4 (c : Dev nD) (t : Fin cfg10.N) (hf : (cfg10.win 4).flush t = true) :
    (dat10 V c).flushed 4 t = ((cfg10.win 4).blk t).view.read (Elt F) (G10_4 (xarr10 V c) (barr10 V c)) := by
  have hN : t.val < 25 := lt_of_lt_of_eq t.isLt (show cfg10.N = 25 from N_10)
  have h24 : t.val = 24 := by have := (flush10_4 t).mp hf; omega
  have hi := index10_4 t
  show (cfg10.win 4).cut (grid10.coords t) ((dat10 V c).after 4 t) = _
  rw [after10_4, outsAt10_last V c t h24]
  have hz' : (fun a => win10_4.index t a * main_v168_2.ty.shape.size a) = fun _ => 0 := funext fun a => by
    match a with
    | ⟨0, _⟩ => show win10_4.index t 0 * _ = 0; rw [hi.1, Nat.zero_mul]
    | ⟨1, _⟩ => show win10_4.index t 1 * _ = 0; rw [hi.2, Nat.zero_mul]
  exact (Memref.read_access_unit_zero (Elt F) main_v168_2 hz' (fun a => by rw [congrFun hz' a]; simp) (G10_4 (xarr10 V c) (barr10 V c))).symm

/-- So the one-row result array ends holding the fold. -/
theorem final10_4 (c : Dev nD) : (dat10 V c).arrAt 4 cfg10.N = G10_4 (V c (Pipeline.arrRef spec10 0)) (V c (Pipeline.arrRef spec10 1)) := by
  have h24 : (24 : ℕ) < cfg10.N := by rw [show cfg10.N = 25 from N_10]; omega
  refine (dat10 V c).arrAt_eq_of_cover 4 (G10_4 (xarr10 V c) (barr10 V c)) (flushed10_4 V c) fun i =>
    ⟨⟨24, h24⟩, (flush10_4 _).mpr rfl, ?_⟩
  have hi := index10_4 ⟨24, h24⟩
  have hx := xsize10_4 ⟨24, h24⟩
  show i ∈ ((View.whole main_v168_2).slice (win10_4.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win10_4.index ⟨24, h24⟩ 0 * win10_4.size 0 ≤ (i 0 : Nat) ∧ (i 0 : Nat) < win10_4.index ⟨24, h24⟩ 0 * win10_4.size 0 + win10_4.xsize (grid10.coords ⟨24, h24⟩) 0
    rw [hi.1, hx.1]; omega
  | ⟨1, _⟩ =>
    show win10_4.index ⟨24, h24⟩ 1 * win10_4.size 1 ≤ (i 1 : Nat) ∧ (i 1 : Nat) < win10_4.index ⟨24, h24⟩ 1 * win10_4.size 1 + win10_4.xsize (grid10.coords ⟨24, h24⟩) 1
    rw [hi.2, hx.2]; omega

/-! ## At the ideal values, at an index -/

section IdealReading
open scoped BigOperators

/-- The zero row, at a column. -/
theorem pay1_apply10 (q : Fin 64) : (k10_pay1 (F := Ideal)) (ix2 (0 : Fin 1) q) = 0 := by
  unfold k10_pay1
  simp only [shapeCast_self]
  exact Ideal.ofBits_zero_f32

/-- The block plus the bias row, at an entry. -/
theorem pay2_apply10 (x : FVec Ideal S2000x64 .f32) (b : FVec Ideal S1x64 .f32) (r : Fin 2000) (q : Fin 64) :
    k10_pay2 (F := Ideal) x b (ix2 r q) = x (ix2 r q) + b (ix2 (0 : Fin 1) q) := by
  unfold k10_pay2
  simp only [shapeCast_self]
  refine (addf_apply _ _ _).trans ?_
  have hb : ∀ (h : S1x64.Broadcasts S2000x64), broadcastTo S2000x64 b h (ix2 r q) = b (ix2 (0 : Fin 1) q) :=
    fun h => broadcastTo_1b_ab_apply (a := 2000) (b := 64) b h r q
  rw [hb]

/-- The tile step, at a column: the accumulator's entry plus the tile's column sum of the rows plus the bias. -/
theorem pay3_apply10 (x : FVec Ideal S2000x64 .f32) (b acc : FVec Ideal S1x64 .f32) (q : Fin 64) :
    k10_pay3 (F := Ideal) x b acc (ix2 (0 : Fin 1) q)
      = acc (ix2 (0 : Fin 1) q) + ∑ r : Fin 2000, (x (ix2 r q) + b (ix2 (0 : Fin 1) q)) := by
  unfold k10_pay3
  simp only [shapeCast_self]
  refine (addf_apply _ _ _).trans ?_
  refine congrArg (acc (ix2 (0 : Fin 1) q) + ·) ?_
  refine (shapeCast_a_1a_apply _ _ (0 : Fin 1) q).trans ?_
  refine (Ideal.multiReduction_add_single _ _ _ _ _ (ix1 q)).trans ?_
  refine Finset.sum_congr rfl fun (r : Fin 2000) _ => ?_
  have hl : ∀ (h : S2000x64.Reduces [0] S64), h.lift (ix1 q) r = ix2 r q :=
    fun h => funext fun a => Fin.ext (by fin_cases a <;> rfl)
  rw [hl, pay2_apply10]

/-- THE FIRST FULL-SIZE RESULT at the ideal values: the aggregate's entry plus the bias of its column. -/
theorem G10_2_apply (X : FVec Ideal S50000x64 .f32) (B : FVec Ideal S1x64 .f32) (r : Fin 50000) (q : Fin 64) :
    G10_2 (F := Ideal) X B (ix2 r q) = X (ix2 r q) + B (ix2 (0 : Fin 1) q) := by
  unfold G10_2
  rw [pay2_apply10, tile10_apply]
  have hrow : (ix2 (⟨2000 * (r.val / 2000) + r.val % 2000, by have := r.isLt; omega⟩ : Fin 50000) q : S50000x64.Idx) = ix2 r q := by
    funext d; apply Fin.ext
    match d with
    | ⟨0, _⟩ => show 2000 * (r.val / 2000) + r.val % 2000 = r.val; omega
    | ⟨1, _⟩ => rfl
  exact congrArg (fun z => X z + B (ix2 (0 : Fin 1) q)) hrow

/-- THE SECOND FULL-SIZE RESULT at the ideal values: the same entry. -/
theorem G10_3_apply (X : FVec Ideal S50000x64 .f32) (B : FVec Ideal S1x64 .f32) (r : Fin 50000) (q : Fin 64) :
    G10_3 (F := Ideal) X B (ix2 r q) = X (ix2 r q) + B (ix2 (0 : Fin 1) q) :=
  G10_2_apply X B r q

/-- Row r of tile s. -/
def row10 (s : ℕ) (hs : s < 25) (r : Fin 2000) : Fin 50000 := ⟨2000 * s + r.val, by have := r.isLt; omega⟩

/-- The fold after tile n, at a column: the tiles' column sums added up in tile order. -/
theorem acc10_apply (X : FVec Ideal S50000x64 .f32) (B : FVec Ideal S1x64 .f32) (q : Fin 64) : ∀ (n : ℕ) (h : n < 25),
    acc10 (F := Ideal) X B n h (ix2 (0 : Fin 1) q)
      = ∑ s : Fin (n + 1), ∑ r : Fin 2000, (X (ix2 (row10 s.val (by have := s.isLt; omega) r) q) + B (ix2 (0 : Fin 1) q))
  | 0, h => by
    show k10_pay3 (F := Ideal) _ _ _ (ix2 (0 : Fin 1) q) = _
    rw [pay3_apply10, pay1_apply10, zero_add, Fin.sum_univ_one]
    rfl
  | n + 1, h => by
    show k10_pay3 (F := Ideal) _ _ _ (ix2 (0 : Fin 1) q) = _
    rw [Fin.sum_univ_castSucc, pay3_apply10, acc10_apply X B q n (Nat.lt_of_succ_lt h)]
    rfl

/-- Twenty-five tiles of 2000 rows are the 50000 rows. -/
theorem sum_tiles10 (f : Fin 50000 → EReal) :
    ∑ s : Fin 25, ∑ r : Fin 2000, f (row10 s.val s.isLt r) = ∑ i : Fin 50000, f i := by
  rw [← Equiv.sum_comp (finProdFinEquiv (m := 25) (n := 2000)) f, Fintype.sum_prod_type]
  refine Finset.sum_congr rfl fun s _ => Finset.sum_congr rfl fun r _ => congrArg f (Fin.ext ?_)
  show 2000 * s.val + r.val = r.val + 2000 * s.val
  omega

/-- THE ONE-ROW RESULT at the ideal values: column q is the column's sum, over all the rows, of the aggregate's
    entry plus the bias of the column. -/
theorem G10_4_apply (X : FVec Ideal S50000x64 .f32) (B : FVec Ideal S1x64 .f32) (q : Fin 64) :
    G10_4 (F := Ideal) X B (ix2 (0 : Fin 1) q)
      = Cert.Val.colSum (fun i j => X (ix2 i j) + B (ix2 (0 : Fin 1) j)) q := by
  unfold G10_4 Cert.Val.colSum
  rw [acc10_apply X B q 24 (by omega)]
  exact sum_tiles10 (fun i => X (ix2 i q) + B (ix2 (0 : Fin 1) q))

end IdealReading

end Cert.KernelIdeal.Hand

end
-- ==== Proof.KI.R3v.lean ====
import proofs.«408084_j48395691492010_3_alg».proof.Proof.KI.R3
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! Region 3, the value: the one-row result ends holding, column by column, the sum over the 25 row tiles — folded tile by
tile from the zero row — of each tile's column sum of squared deviations (x − mean)². First each control case's found
pieces read back as the tile step applied to the accumulator; then the accumulator after each point as the fold, by
induction on the point; then the result array as the fold after the last point. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem hz3 : (![0, 0] : Fin 2 → Nat) = fun _ => 0 := funext fun a => by fin_cases a <;> rfl

/-! ## The found pieces, read back -/

/-- A middle point leaves in the accumulator the tile step applied to what it held. -/
theorem sout3_B_eq (c : Dev nD) (i : grid3.Coords) (a1 : Memref sig .tc .vmem S2000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (hc0 : ¬cond3_0 i) (hc1 : ¬cond3_1 i)
    (x0 : Vec F S2000x64 .f32) (x1 : Vec F S1x64 .f32) (xs0 : Vec F S1x64 .f32) :
    sout3_B_0 c i a1 h1 a2 h2 a3 h3 a4 h4 hc0 hc1 x0 x1 xs0 = k3_pay2 x0 x1 xs0 := by
  unfold sout3_B_0
  rw [View.read_writes_eq_canon _ _ _ (scover3_B_0 c i a1 h1 a2 h2 a3 h3 a4 h4 hc0 hc1 x0 x1 xs0)]
  unfold kernelRun3_B
  dsimp only
  sl_unfold_words
  rw [View.canon_unit_zero hz3]
  simp only [View.readAt_eq_ld, h1.read_unread, h2.read_unread, h4.read_unread, View.ld_unit_zero (S := S2000x64) hz3, View.ld_unit_zero (S := S1x64) hz3]

/-- The last point leaves the same in the accumulator, -/
theorem sout3_C_eq (c : Dev nD) (i : grid3.Coords) (a1 : Memref sig .tc .vmem S2000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (hc0 : ¬cond3_0 i) (hc1 : cond3_1 i)
    (x0 : Vec F S2000x64 .f32) (x1 : Vec F S1x64 .f32) (xs0 : Vec F S1x64 .f32) :
    sout3_C_0 c i a1 h1 a2 h2 a3 h3 a4 h4 hc0 hc1 x0 x1 xs0 = k3_pay2 x0 x1 xs0 := by
  unfold sout3_C_0
  rw [View.read_writes_eq_canon _ _ _ (scover3_C_0 c i a1 h1 a2 h2 a3 h3 a4 h4 hc0 hc1 x0 x1 xs0)]
  unfold kernelRun3_C
  dsimp only
  sl_unfold_words
  rw [View.canon_unit_zero hz3]
  simp only [View.readAt_eq_ld, h1.read_unread, h2.read_unread, h4.read_unread, View.ld_unit_zero (S := S2000x64) hz3, View.ld_unit_zero (S := S1x64) hz3]

/-- and stores to the result's buffer what it then reads back from the accumulator: the same row. -/
theorem out3_C_eq (c : Dev nD) (i : grid3.Coords) (a1 : Memref sig .tc .vmem S2000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (hc0 : ¬cond3_0 i) (hc1 : cond3_1 i)
    (x0 : Vec F S2000x64 .f32) (x1 : Vec F S1x64 .f32) (xs0 : Vec F S1x64 .f32) :
    out3_C_2 c i a1 h1 a2 h2 a3 h3 a4 h4 hc0 hc1 x0 x1 xs0 = k3_pay2 x0 x1 xs0 := by
  unfold out3_C_2
  rw [View.read_writes_eq_canon _ _ _ (cover3_C_2 c i a1 h1 a2 h2 a3 h3 a4 h4 hc0 hc1 x0 x1 xs0)]
  unfold kernelRun3_C
  dsimp only
  sl_unfold_words
  rw [View.canon_unit_zero hz3, View.readCov_unit_zero (S := S1x64) _ hz3]
  simp only [View.readAt_eq_ld, h1.read_unread, h2.read_unread, h4.read_unread, View.ld_unit_zero (S := S2000x64) hz3, View.ld_unit_zero (S := S1x64) hz3]

/-- The first point zeroes the accumulator, reads the zero row back and leaves the tile step applied to it. -/
theorem sout3_A_eq (c : Dev nD) (i : grid3.Coords) (a1 : Memref sig .tc .vmem S2000x64 .f32) (h1 : a1.IsWhole) (a2 : Memref sig .tc .vmem S1x64 .f32) (h2 : a2.IsWhole) (a3 : Memref sig .tc .vmem S1x64 .f32) (h3 : a3.IsWhole) (a4 : Memref sig .tc .vmem S1x64 .f32) (h4 : a4.IsWhole) (hc0 : cond3_0 i) (hc1 : ¬cond3_1 i)
    (x0 : Vec F S2000x64 .f32) (x1 : Vec F S1x64 .f32) :
    sout3_A_0 c i a1 h1 a2 h2 a3 h3 a4 h4 hc0 hc1 x0 x1 = k3_pay2 x0 x1 (k3_pay1 (F := F)) := by
  unfold sout3_A_0
  rw [View.read_writes_eq_canon _ _ _ (scover3_A_0 c i a1 h1 a2 h2 a3 h3 a4 h4 hc0 hc1 x0 x1)]
  unfold kernelRun3_A
  dsimp only
  sl_unfold_words
  rw [View.canon_cons_unit_zero (S := S1x64) hz3, View.readCov_unit_zero (S := S1x64) _ hz3]
  simp only [View.readAt_eq_ld, h1.read_unread, h2.read_unread, View.ld_unit_zero (S := S2000x64) hz3, View.ld_unit_zero (S := S1x64) hz3]

/-! ## The arrays and their blocks, at their literal types -/

/-- The [50000, D] array of the rows, as the region finds it, -/
noncomputable abbrev xarr3 (c : Dev nD) : Vec F S50000x64 .f32 := V c (Pipeline.arrRef spec3 0)
/-- and the one row of column means. -/
noncomputable abbrev marr3 (c : Dev nD) : Vec F S1x64 .f32 := V c (Pipeline.arrRef spec3 1)

/-- Row tile `n` of an array of 50000 rows: rows 2000 n … 2000 n + 1999. -/
noncomputable def tile3 (X : Vec F S50000x64 .f32) (n : Fin 25) : Vec F S2000x64 .f32 :=
  fun j => X (ix2 ⟨2000 * n.val + (j 0).val, by have := idx2_lt0 j; have := n.isLt; omega⟩ ⟨(j 1).val, idx2_lt1 j⟩)

theorem tile3_apply (X : Vec F S50000x64 .f32) (n : Fin 25) (r : Fin 2000) (q : Fin 64) :
    tile3 X n (ix2 r q) = X (ix2 ⟨2000 * n.val + r.val, by have := n.isLt; have := r.isLt; omega⟩ q) := rfl

/-- The row-tile window's block index is the grid point; the mean window's never moves. -/
theorem index3_0 : ∀ t : Fin cfg3.N, win3_0.index t 0 = t.val ∧ win3_0.index t 1 = 0 :=
  (by decide +kernel : ∀ t : Fin grid3.N, win3_0.index t 0 = t.val ∧ win3_0.index t 1 = 0)
theorem index3_2 : ∀ t : Fin cfg3.N, win3_2.index t 0 = 0 ∧ win3_2.index t 1 = 0 :=
  (by decide +kernel : ∀ t : Fin grid3.N, win3_2.index t 0 = 0 ∧ win3_2.index t 1 = 0)
theorem xsize3_2 : ∀ t : Fin cfg3.N, win3_2.xsize (grid3.coords t) 0 = 1 ∧ win3_2.xsize (grid3.coords t) 1 = 64 :=
  (by decide +kernel : ∀ t : Fin grid3.N, win3_2.xsize (grid3.coords t) 0 = 1 ∧ win3_2.xsize (grid3.coords t) 1 = 64)
theorem index3_1 : ∀ t : Fin cfg3.N, win3_1.index t 0 = 0 ∧ win3_1.index t 1 = 0 :=
  (by decide +kernel : ∀ t : Fin grid3.N, win3_1.index t 0 = 0 ∧ win3_1.index t 1 = 0)

/-- The row-tile window's block at point `t` is row tile `t` of the array. -/
theorem xblk3_eq (c : Dev nD) (t : Fin cfg3.N) (hN : t.val < 25) :
    (iblk3 V c 0 t : Vec F S2000x64 .f32) = tile3 (xarr3 V c) ⟨t.val, hN⟩ := by
  have hi := index3_0 t
  funext j
  unfold iblk3 tile3
  rw [View.read_apply]
  show V c (Pipeline.arrRef spec3 0) _ = V c (Pipeline.arrRef spec3 0) _
  congr 1
  funext a
  apply Fin.ext
  match a with
  | ⟨0, _⟩ => show win3_0.index t 0 * 2000 + 1 * (j 0).val = 2000 * t.val + (j 0).val; rw [hi.1]; omega
  | ⟨1, _⟩ => show win3_0.index t 1 * 64 + 1 * (j 1).val = (j 1).val; rw [hi.2]; omega

/-- The mean window's block is the whole one-row array, at every point. -/
theorem mblk3_eq (c : Dev nD) (t : Fin cfg3.N) : (iblk3 V c 1 t : Vec F S1x64 .f32) = marr3 V c := by
  have hi := index3_1 t
  funext j
  unfold iblk3
  rw [View.read_apply]
  show V c (Pipeline.arrRef spec3 1) _ = V c (Pipeline.arrRef spec3 1) j
  congr 1
  funext a
  apply Fin.ext
  match a with
  | ⟨0, _⟩ => show win3_1.index t 0 * 1 + 1 * (j 0).val = (j 0).val; rw [hi.1]; omega
  | ⟨1, _⟩ => show win3_1.index t 1 * 64 + 1 * (j 1).val = (j 1).val; rw [hi.2]; omega

/-! ## The fold over the row tiles -/

/-- The accumulator after row tile `n`: the tile step from the zero row at tile 0, then from what the tile before left. -/
noncomputable def acc3 (X : Vec F S50000x64 .f32) (Mu : Vec F S1x64 .f32) : (n : ℕ) → n < 25 → Vec F S1x64 .f32
  | 0, h => k3_pay2 (tile3 X ⟨0, h⟩) Mu (k3_pay1 (F := F))
  | n + 1, h => k3_pay2 (tile3 X ⟨n + 1, h⟩) Mu (acc3 X Mu n (Nat.lt_of_succ_lt h))

/-- THE RESULT as one function of the two arrays: the fold after the last tile. -/
noncomputable def G3_2 (X : Vec F S50000x64 .f32) (Mu : Vec F S1x64 .f32) : Vec F S1x64 .f32 := acc3 X Mu 24 (by decide)

/-- What the accumulator holds after point `n` is the fold up to tile `n`: by induction on the point. -/
theorem outsAt3_acc (c : Dev nD) : ∀ (n : ℕ) (h : n < cfg3.N) (h' : n < 25),
    (outsAt3 V c n h).2 = acc3 (xarr3 V c) (marr3 V c) n h'
  | 0, h, h' => by
    rw [outsAt3_A V c ⟨0, h⟩ rfl (fun e => by have e' : (0 : ℕ) = 24 := e; omega)]
    dsimp only
    rw [sout3_A_eq, xblk3_eq V c ⟨0, h⟩ h', mblk3_eq V c ⟨0, h⟩]
    rfl
  | n + 1, h, h' => by
    have ih := outsAt3_acc c n (Nat.lt_of_succ_lt h) (Nat.lt_of_succ_lt h')
    by_cases h24 : n + 1 = 24
    · rw [outsAt3_C V c ⟨n + 1, h⟩ (Nat.succ_ne_zero n) h24]
      dsimp only
      rw [sout3_C_eq, xblk3_eq V c ⟨n + 1, h⟩ h', mblk3_eq V c ⟨n + 1, h⟩]
      show k3_pay2 _ _ (outsAt3 V c n _).2 = k3_pay2 _ _ (acc3 _ _ n _)
      rw [ih]
    · rw [outsAt3_B V c ⟨n + 1, h⟩ (Nat.succ_ne_zero n) h24]
      dsimp only
      rw [sout3_B_eq, xblk3_eq V c ⟨n + 1, h⟩ h', mblk3_eq V c ⟨n + 1, h⟩]
      show k3_pay2 _ _ (outsAt3 V c n _).2 = k3_pay2 _ _ (acc3 _ _ n _)
      rw [ih]

/-- At the last point the result's buffer is left holding the whole fold. -/
theorem outsAt3_last (c : Dev nD) (t : Fin cfg3.N) (h24 : t.val = 24) :
    (outsAt3 V c t.val t.isLt).1 = G3_2 (xarr3 V c) (marr3 V c) := by
  obtain ⟨n, hn⟩ := t
  obtain rfl : n = 24 := h24
  rw [outsAt3_C V c ⟨24, hn⟩ (fun e => by have e' : (24 : ℕ) = 0 := e; omega) rfl]
  dsimp only
  rw [out3_C_eq, xblk3_eq V c ⟨24, hn⟩ (by show (24 : ℕ) < 25; omega), mblk3_eq V c ⟨24, hn⟩]
  show k3_pay2 _ _ (outsAt3 V c 23 _).2 = k3_pay2 _ _ (acc3 _ _ 23 _)
  rw [outsAt3_acc V c 23 _ (by decide)]

/-! ## The result array after the run -/

/-- The one write-back (at the last point) writes the fold: the result's block there is the whole one-row array. -/
theorem flushed3_2 (c : Dev nD) (t : Fin cfg3.N) (hf : (cfg3.win 2).flush t = true) :
    (dat3 V c).flushed 2 t = ((cfg3.win 2).blk t).view.read (Elt F) (G3_2 (xarr3 V c) (marr3 V c)) := by
  have hN : t.val < 25 := lt_of_lt_of_eq t.isLt (show cfg3.N = 25 from N_3)
  have h24 : t.val = 24 := by have := (flush3_2 t).mp hf; omega
  have hi := index3_2 t
  show (cfg3.win 2).cut (grid3.coords t) ((dat3 V c).after 2 t) = _
  rw [after3_2, outsAt3_last V c t h24]
  have hz' : (fun a => win3_2.index t a * main_v121.ty.shape.size a) = fun _ => 0 := funext fun a => by
    match a with
    | ⟨0, _⟩ => show win3_2.index t 0 * _ = 0; rw [hi.1, Nat.zero_mul]
    | ⟨1, _⟩ => show win3_2.index t 1 * _ = 0; rw [hi.2, Nat.zero_mul]
  exact (Memref.read_access_unit_zero (Elt F) main_v121 hz' (fun a => by rw [congrFun hz' a]; simp) (G3_2 (xarr3 V c) (marr3 V c))).symm

/-- So the result array ends holding the fold. -/
theorem final3_2 (c : Dev nD) : (dat3 V c).arrAt 2 cfg3.N = G3_2 (V c (Pipeline.arrRef spec3 0)) (V c (Pipeline.arrRef spec3 1)) := by
  have h24 : (24 : ℕ) < cfg3.N := by rw [show cfg3.N = 25 from N_3]; omega
  refine (dat3 V c).arrAt_eq_of_cover 2 (G3_2 (xarr3 V c) (marr3 V c)) (flushed3_2 V c) fun i =>
    ⟨⟨24, h24⟩, (flush3_2 _).mpr rfl, ?_⟩
  have hi := index3_2 ⟨24, h24⟩
  have hx := xsize3_2 ⟨24, h24⟩
  show i ∈ ((View.whole main_v121).slice (win3_2.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win3_2.index ⟨24, h24⟩ 0 * win3_2.size 0 ≤ (i 0 : Nat) ∧ (i 0 : Nat) < win3_2.index ⟨24, h24⟩ 0 * win3_2.size 0 + win3_2.xsize (grid3.coords ⟨24, h24⟩) 0
    rw [hi.1, hx.1]; omega
  | ⟨1, _⟩ =>
    show win3_2.index ⟨24, h24⟩ 1 * win3_2.size 1 ≤ (i 1 : Nat) ∧ (i 1 : Nat) < win3_2.index ⟨24, h24⟩ 1 * win3_2.size 1 + win3_2.xsize (grid3.coords ⟨24, h24⟩) 1
    rw [hi.2, hx.2]; omega

/-! ## At the ideal values, at an index -/

section IdealReading
open scoped BigOperators

/-- The zero row, at a column. -/
theorem pay1_apply3 (q : Fin 64) : (k3_pay1 (F := Ideal)) (ix2 (0 : Fin 1) q) = 0 := by
  unfold k3_pay1
  simp only [shapeCast_self]
  exact Ideal.ofBits_zero_f32

/-- The tile step, at a column: the accumulator's entry plus the tile's column sum of squared deviations. -/
theorem pay2_apply3 (x : FVec Ideal S2000x64 .f32) (mu acc : FVec Ideal S1x64 .f32) (q : Fin 64) :
    k3_pay2 (F := Ideal) x mu acc (ix2 (0 : Fin 1) q)
      = acc (ix2 (0 : Fin 1) q)
        + ∑ r : Fin 2000, (x (ix2 r q) - mu (ix2 (0 : Fin 1) q)) * (x (ix2 r q) - mu (ix2 (0 : Fin 1) q)) := by
  unfold k3_pay2
  simp only [shapeCast_self]
  refine (addf_apply _ _ _).trans ?_
  refine congrArg (acc (ix2 (0 : Fin 1) q) + ·) ?_
  refine (shapeCast_a_1a_apply _ _ (0 : Fin 1) q).trans ?_
  refine (Ideal.multiReduction_add_single _ _ _ _ _ (ix1 q)).trans ?_
  refine Finset.sum_congr rfl fun (r : Fin 2000) _ => ?_
  have hl : ∀ (h : S2000x64.Reduces [0] S64), h.lift (ix1 q) r = ix2 r q :=
    fun h => funext fun a => Fin.ext (by fin_cases a <;> rfl)
  have hb : ∀ (h : S1x64.Broadcasts S2000x64), broadcastTo S2000x64 mu h (ix2 r q) = mu (ix2 (0 : Fin 1) q) :=
    fun h => broadcastTo_1b_ab_apply (a := 2000) (b := 64) mu h r q
  refine (mulf_apply _ _ _).trans ?_
  rw [subf_apply, hl, hb]

/-- The squared deviation of row `i` in column `q`. -/
noncomputable def sq3 (X : FVec Ideal S50000x64 .f32) (Mu : FVec Ideal S1x64 .f32) (q : Fin 64) (i : Fin 50000) : EReal :=
  (X (ix2 i q) - Mu (ix2 (0 : Fin 1) q)) * (X (ix2 i q) - Mu (ix2 (0 : Fin 1) q))

/-- Row `r` of tile `s`. -/
def row3 (s : ℕ) (hs : s < 25) (r : Fin 2000) : Fin 50000 := ⟨2000 * s + r.val, by have := r.isLt; omega⟩

/-- The fold after tile `n`, at a column: the tiles' column sums added up in tile order. -/
theorem acc3_apply (X : FVec Ideal S50000x64 .f32) (Mu : FVec Ideal S1x64 .f32) (q : Fin 64) : ∀ (n : ℕ) (h : n < 25),
    acc3 (F := Ideal) X Mu n h (ix2 (0 : Fin 1) q)
      = ∑ s : Fin (n + 1), ∑ r : Fin 2000, sq3 X Mu q (row3 s.val (by have := s.isLt; omega) r)
  | 0, h => by
    show k3_pay2 (F := Ideal) _ _ _ (ix2 (0 : Fin 1) q) = _
    rw [pay2_apply3, pay1_apply3, zero_add, Fin.sum_univ_one]
    rfl
  | n + 1, h => by
    show k3_pay2 (F := Ideal) _ _ _ (ix2 (0 : Fin 1) q) = _
    rw [Fin.sum_univ_castSucc, pay2_apply3, acc3_apply X Mu q n (Nat.lt_of_succ_lt h)]
    rfl

/-- Twenty-five tiles of 2000 rows are the 50000 rows. -/
theorem sum_tiles3 (f : Fin 50000 → EReal) :
    ∑ s : Fin 25, ∑ r : Fin 2000, f (row3 s.val s.isLt r) = ∑ i : Fin 50000, f i := by
  rw [← Equiv.sum_comp (finProdFinEquiv (m := 25) (n := 2000)) f, Fintype.sum_prod_type]
  refine Finset.sum_congr rfl fun s _ => Finset.sum_congr rfl fun r _ => congrArg f (Fin.ext ?_)
  show 2000 * s.val + r.val = r.val + 2000 * s.val
  omega

/-- THE RESULT at the ideal values: column `q` of the one row is the column's sum of squared deviations from the
    given means over all 50000 rows. -/
theorem G3_2_apply (X : FVec Ideal S50000x64 .f32) (Mu : FVec Ideal S1x64 .f32) (q : Fin 64) :
    G3_2 (F := Ideal) X Mu (ix2 (0 : Fin 1) q)
      = Cert.Val.colSsq (fun i j => X (ix2 i j)) (fun j => Mu (ix2 (0 : Fin 1) j)) q := by
  unfold G3_2 Cert.Val.colSsq
  rw [acc3_apply X Mu q 24 (by omega)]
  exact sum_tiles3 (sq3 X Mu q)

end IdealReading

end Cert.KernelIdeal.Hand

end
-- ==== Proof.KI.R11v.lean ====
import proofs.«408084_j48395691492010_3_alg».proof.Proof.KI.R11
import proofs.«408084_j48395691492010_3_alg».proof.Proof.KI.R3v

/-! Region 11, the value: the same kernel as region 3 at the same shapes, so the result is the same function `G3_2` of this
region's two arrays — the fold over the 25 row tiles, from the zero row, of each tile's column sum of squared deviations.
The found pieces read back and the fold's reading at the ideal values are region 3's; here: this region's blocks as
tiles of its arrays, the accumulator after each point as the fold (by induction on the point), and the result array. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The [50000, D] array of the rows, as the region finds it, -/
noncomputable abbrev xarr11 (c : Dev nD) : Vec F S50000x64 .f32 := V c (Pipeline.arrRef spec11 0)
/-- and the one row of column means. -/
noncomputable abbrev marr11 (c : Dev nD) : Vec F S1x64 .f32 := V c (Pipeline.arrRef spec11 1)

theorem index11_0 : ∀ t : Fin cfg11.N, win11_0.index t 0 = t.val ∧ win11_0.index t 1 = 0 :=
  (by decide +kernel : ∀ t : Fin grid11.N, win11_0.index t 0 = t.val ∧ win11_0.index t 1 = 0)
theorem index11_1 : ∀ t : Fin cfg11.N, win11_1.index t 0 = 0 ∧ win11_1.index t 1 = 0 :=
  (by decide +kernel : ∀ t : Fin grid11.N, win11_1.index t 0 = 0 ∧ win11_1.index t 1 = 0)
theorem index11_2 : ∀ t : Fin cfg11.N, win11_2.index t 0 = 0 ∧ win11_2.index t 1 = 0 :=
  (by decide +kernel : ∀ t : Fin grid11.N, win11_2.index t 0 = 0 ∧ win11_2.index t 1 = 0)
theorem xsize11_2 : ∀ t : Fin cfg11.N, win11_2.xsize (grid11.coords t) 0 = 1 ∧ win11_2.xsize (grid11.coords t) 1 = 64 :=
  (by decide +kernel : ∀ t : Fin grid11.N, win11_2.xsize (grid11.coords t) 0 = 1 ∧ win11_2.xsize (grid11.coords t) 1 = 64)

/-- The row-tile window's block at point `t` is row tile `t` of the array. -/
theorem xblk11_eq (c : Dev nD) (t : Fin cfg11.N) (hN : t.val < 25) :
    (iblk11 V c 0 t : Vec F S2000x64 .f32) = tile3 (xarr11 V c) ⟨t.val, hN⟩ := by
  have hi := index11_0 t
  funext j
  unfold iblk11 tile3
  rw [View.read_apply]
  show V c (Pipeline.arrRef spec11 0) _ = V c (Pipeline.arrRef spec11 0) _
  congr 1
  funext a
  apply Fin.ext
  match a with
  | ⟨0, _⟩ => show win11_0.index t 0 * 2000 + 1 * (j 0).val = 2000 * t.val + (j 0).val; rw [hi.1]; omega
  | ⟨1, _⟩ => show win11_0.index t 1 * 64 + 1 * (j 1).val = (j 1).val; rw [hi.2]; omega

/-- The mean window's block is the whole one-row array, at every point. -/
theorem mblk11_eq (c : Dev nD) (t : Fin cfg11.N) : (iblk11 V c 1 t : Vec F S1x64 .f32) = marr11 V c := by
  have hi := index11_1 t
  funext j
  unfold iblk11
  rw [View.read_apply]
  show V c (Pipeline.arrRef spec11 1) _ = V c (Pipeline.arrRef spec11 1) j
  congr 1
  funext a
  apply Fin.ext
  match a with
  | ⟨0, _⟩ => show win11_1.index t 0 * 1 + 1 * (j 0).val = (j 0).val; rw [hi.1]; omega
  | ⟨1, _⟩ => show win11_1.index t 1 * 64 + 1 * (j 1).val = (j 1).val; rw [hi.2]; omega

/-- What the accumulator holds after point `n` is the fold up to tile `n`: by induction on the point. -/
theorem outsAt11_acc (c : Dev nD) : ∀ (n : ℕ) (h : n < cfg11.N) (h' : n < 25),
    (outsAt11 V c n h).2 = acc3 (xarr11 V c) (marr11 V c) n h'
  | 0, h, h' => by
    rw [outsAt11_A V c ⟨0, h⟩ rfl (fun e => by have e' : (0 : ℕ) = 24 := e; omega)]
    dsimp only
    rw [sout3_A_eq, xblk11_eq V c ⟨0, h⟩ h', mblk11_eq V c ⟨0, h⟩]
    rfl
  | n + 1, h, h' => by
    have ih := outsAt11_acc c n (Nat.lt_of_succ_lt h) (Nat.lt_of_succ_lt h')
    by_cases h24 : n + 1 = 24
    · rw [outsAt11_C V c ⟨n + 1, h⟩ (Nat.succ_ne_zero n) h24]
      dsimp only
      rw [sout3_C_eq, xblk11_eq V c ⟨n + 1, h⟩ h', mblk11_eq V c ⟨n + 1, h⟩]
      show k3_pay2 _ _ (outsAt11 V c n _).2 = k3_pay2 _ _ (acc3 _ _ n _)
      rw [ih]
    · rw [outsAt11_B V c ⟨n + 1, h⟩ (Nat.succ_ne_zero n) h24]
      dsimp only
      rw [sout3_B_eq, xblk11_eq V c ⟨n + 1, h⟩ h', mblk11_eq V c ⟨n + 1, h⟩]
      show k3_pay2 _ _ (outsAt11 V c n _).2 = k3_pay2 _ _ (acc3 _ _ n _)
      rw [ih]

/-- At the last point the result's buffer is left holding the whole fold. -/
theorem outsAt11_last (c : Dev nD) (t : Fin cfg11.N) (h24 : t.val = 24) :
    (outsAt11 V c t.val t.isLt).1 = G3_2 (xarr11 V c) (marr11 V c) := by
  obtain ⟨n, hn⟩ := t
  obtain rfl : n = 24 := h24
  rw [outsAt11_C V c ⟨24, hn⟩ (fun e => by have e' : (24 : ℕ) = 0 := e; omega) rfl]
  dsimp only
  rw [out3_C_eq, xblk11_eq V c ⟨24, hn⟩ (by show (24 : ℕ) < 25; omega), mblk11_eq V c ⟨24, hn⟩]
  show k3_pay2 _ _ (outsAt11 V c 23 _).2 = k3_pay2 _ _ (acc3 _ _ 23 _)
  rw [outsAt11_acc V c 23 _ (by decide)]

/-- The one write-back (at the last point) writes the fold: the result's block there is the whole one-row array. -/
theorem flushed11_2 (c : Dev nD) (t : Fin cfg11.N) (hf : (cfg11.win 2).flush t = true) :
    (dat11 V c).flushed 2 t = ((cfg11.win 2).blk t).view.read (Elt F) (G3_2 (xarr11 V c) (marr11 V c)) := by
  have hN : t.val < 25 := lt_of_lt_of_eq t.isLt (show cfg11.N = 25 from N_11)
  have h24 : t.val = 24 := by have := (flush11_2 t).mp hf; omega
  have hi := index11_2 t
  show (cfg11.win 2).cut (grid11.coords t) ((dat11 V c).after 2 t) = _
  rw [after11_2, outsAt11_last V c t h24]
  have hz' : (fun a => win11_2.index t a * main_v171.ty.shape.size a) = fun _ => 0 := funext fun a => by
    match a with
    | ⟨0, _⟩ => show win11_2.index t 0 * _ = 0; rw [hi.1, Nat.zero_mul]
    | ⟨1, _⟩ => show win11_2.index t 1 * _ = 0; rw [hi.2, Nat.zero_mul]
  exact (Memref.read_access_unit_zero (Elt F) main_v171 hz' (fun a => by rw [congrFun hz' a]; simp) (G3_2 (xarr11 V c) (marr11 V c))).symm

/-- So the result array ends holding the fold: region 3's function of this region's two arrays. -/
theorem final11_2 (c : Dev nD) : (dat11 V c).arrAt 2 cfg11.N = G3_2 (V c (Pipeline.arrRef spec11 0)) (V c (Pipeline.arrRef spec11 1)) := by
  have h24 : (24 : ℕ) < cfg11.N := by rw [show cfg11.N = 25 from N_11]; omega
  refine (dat11 V c).arrAt_eq_of_cover 2 (G3_2 (xarr11 V c) (marr11 V c)) (flushed11_2 V c) fun i =>
    ⟨⟨24, h24⟩, (flush11_2 _).mpr rfl, ?_⟩
  have hi := index11_2 ⟨24, h24⟩
  have hx := xsize11_2 ⟨24, h24⟩
  show i ∈ ((View.whole main_v171).slice (win11_2.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win11_2.index ⟨24, h24⟩ 0 * win11_2.size 0 ≤ (i 0 : Nat) ∧ (i 0 : Nat) < win11_2.index ⟨24, h24⟩ 0 * win11_2.size 0 + win11_2.xsize (grid11.coords ⟨24, h24⟩) 0
    rw [hi.1, hx.1]; omega
  | ⟨1, _⟩ =>
    show win11_2.index ⟨24, h24⟩ 1 * win11_2.size 1 ≤ (i 1 : Nat) ∧ (i 1 : Nat) < win11_2.index ⟨24, h24⟩ 1 * win11_2.size 1 + win11_2.xsize (grid11.coords ⟨24, h24⟩) 1
    rw [hi.2, hx.2]; omega

end Cert.KernelIdeal.Hand

end
-- ==== Proof.KI.R12v.lean ====
import proofs.«408084_j48395691492010_3_alg».proof.Proof.KI.R12
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws

/-!
# Region 12: the array it leaves, as one function of the arrays it finds

Every grid point writes one block of 2000 rows of the output, and the 25 blocks tile the 50000 rows; the four
single-row inputs are the same block at every point. So the output array after the run is one function of the five
arrays the region finds. Entry (r, q) is computed from row r of the activations alone:

  bn[r,k] = (x[r,k] - mean[k]) * rsqrt (var[k] + eps) * gamma[k] + beta[k],
  out[r,q] = exp (bn[r,q] - max_k bn[r,k]) / (1 + Σ_k exp (bn[r,k] - max_k bn[r,k])).

At a generic float instance the row's sum is the instance's reduction of the whole 2000-row block that holds the
row, so the function is stated through that block; over the extended reals the reduction is a sum over the row and
the block drops out.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable {F : FTy → Type} [FloatOps F]

/-! ## The layout operations of the body, read at an index -/

section Layout12
variable {α : Type}

/-- A vector of 2000 entries cast to a column reads, at (p, 0), entry p. -/
theorem castCol12 (v : S2000.Idx → α) (h : S2000.ShapeCasts S2000x1) :
    shapeCast S2000x1 v h = fun y => v (ix1 (y 0)) := by
  funext y
  obtain ⟨p, u, rfl⟩ : ∃ (p : Fin 2000) (u : Fin 1), y = ix2 p u := ⟨y 0, y 1, eq_ix2 y⟩
  refine shapeCast_apply v h (ix2 p u) (ix1 p) ?_
  have hu : u.val = 0 := by omega
  rw [Shape.rowMajor_val_two, Shape.rowMajor_val_one]
  show p.val = p.val * 1 + u.val
  rw [hu, Nat.mul_one, Nat.add_zero]

/-- A column broadcast along the rows reads, at (p, k), the column's entry p. -/
theorem bcastCol12 (v : S2000x1.Idx → α) (h : S2000x1.Broadcasts S2000x64) :
    broadcastTo S2000x64 v h = fun y => v (ix2 (y 0) (0 : Fin 1)) := by
  funext y
  obtain ⟨p, k, rfl⟩ : ∃ (p : Fin 2000) (k : Fin 64), y = ix2 p k := ⟨y 0, y 1, eq_ix2 y⟩
  refine broadcastTo_apply v h (ix2 p k) (ix2 p (0 : Fin 1)) fun ax => ?_
  match ax with
  | ⟨0, _⟩ => rfl
  | ⟨1, _⟩ => rfl

/-- A single row broadcast down the block reads, at (p, k), the row's entry k. -/
theorem bcastRow12 (v : S1x64.Idx → α) (h : S1x64.Broadcasts S2000x64) :
    broadcastTo S2000x64 v h = fun y => v (ix2 (0 : Fin 1) (y 1)) := by
  funext y
  obtain ⟨p, k, rfl⟩ : ∃ (p : Fin 2000) (k : Fin 64), y = ix2 p k := ⟨y 0, y 1, eq_ix2 y⟩
  exact broadcastTo_1b_ab_apply v h p k

end Layout12

/-! ## The body's result on a block, by coordinates -/

/-- The batch-norm of a block, entry by entry, in the body's order of operations. -/
noncomputable def bn12 (v0 : Vec F S2000x64 .f32) (v2 v6 v13 v17 : Vec F S1x64 .f32) : FVec F S2000x64 .f32 := fun y =>
  FloatOps.addf (FloatOps.mulf (FloatOps.mulf (FloatOps.subf (v0 y) (v2 (ix2 (0 : Fin 1) (y 1))))
      (FloatOps.rsqrt (FloatOps.addf (v6 (ix2 (0 : Fin 1) (y 1))) (FloatOps.ofBits .f32 0x3727C5AC#32))))
      (v13 (ix2 (0 : Fin 1) (y 1)))) (v17 (ix2 (0 : Fin 1) (y 1)))

/-- Its row maxima: the body's reduction along the columns, started from minus infinity. -/
noncomputable def mx12 (v0 : Vec F S2000x64 .f32) (v2 v6 v13 v17 : Vec F S1x64 .f32) : FVec F S2000 .f32 :=
  multiReduction .maximumf [1] S2000 (bn12 v0 v2 v6 v13 v17) 0xFF800000#32 reduces_S2000x64_S2000 (.inl rfl) rfl

/-- The exponentials of the batch-norm less its row maximum. -/
noncomputable def e12 (v0 : Vec F S2000x64 .f32) (v2 v6 v13 v17 : Vec F S1x64 .f32) : FVec F S2000x64 .f32 := fun y =>
  FloatOps.exp (FloatOps.subf (bn12 v0 v2 v6 v13 v17 y) (mx12 v0 v2 v6 v13 v17 (ix1 (y 0))))

/-- Their row sums: the body's reduction along the columns, started from zero. -/
noncomputable def sm12 (v0 : Vec F S2000x64 .f32) (v2 v6 v13 v17 : Vec F S1x64 .f32) : FVec F S2000 .f32 :=
  multiReduction .add [1] S2000 (e12 v0 v2 v6 v13 v17) 0x00000000#32 reduces_S2000x64_S2000 (.inl rfl) rfl

/-- What the body stores: each exponential over one plus its row's sum. -/
noncomputable def P12 (v0 : Vec F S2000x64 .f32) (v2 v6 v13 v17 : Vec F S1x64 .f32) : Vec F S2000x64 .f32 := fun y =>
  FloatOps.divf (e12 v0 v2 v6 v13 v17 y)
    (FloatOps.addf (FloatOps.ofBits .f32 0x3F800000#32) (sm12 v0 v2 v6 v13 v17 (ix1 (y 0))))

/-- The skeleton's payload is that function: its layout operations read at an index, the rest unfolds. -/
theorem pay12_eq (v0 : Vec F S2000x64 .f32) (v2 v6 v13 v17 : Vec F S1x64 .f32) :
    k12_pay1 v0 v2 v6 v13 v17 = P12 v0 v2 v6 v13 v17 := by
  unfold k12_pay1
  simp only [shapeCast_self, bcastRow12, bcastCol12, castCol12]
  rfl

/-! ## The output array as one function of the arrays the region finds -/

/-- Rows q·2000 … q·2000 + 1999 of an array of 50000 rows. -/
noncomputable def rows12 (x : S50000x64.Idx → Elt F .f32) (q : Fin 25) : Vec F S2000x64 .f32 := fun y =>
  x (ix2 (⟨q.val * 2000 + (y 0).val, by have := idx2_lt0 y; have := q.isLt; omega⟩ : Fin 50000) (y 1))

/-- The block of 2000 rows that holds an entry's row, -/
noncomputable def blkOf12 (i : S50000x64.Idx) : Fin 25 := ⟨(i 0).val / 2000, by have := idx2_lt0 i; omega⟩
/-- and the row's place in it. -/
noncomputable def rowIn12 (i : S50000x64.Idx) : Fin 2000 := ⟨(i 0).val % 2000, Nat.mod_lt _ (by decide)⟩

/-- The output array: at each entry, the body's result on the block of 2000 rows of the activations that holds
    the entry's row, at the row's place in the block. -/
noncomputable def G12 (x : S50000x64.Idx → Elt F .f32) (mu va ga be : S1x64.Idx → Elt F .f32) : S50000x64.Idx → Elt F .f32 := fun i =>
  P12 (rows12 x (blkOf12 i)) mu va ga be (ix2 (rowIn12 i) (i 1))

/-- The output array read under block q at a place j of the block. -/
theorem G12_blk (x : S50000x64.Idx → Elt F .f32) (mu va ga be : S1x64.Idx → Elt F .f32) (q : Fin 25) (j : S2000x64.Idx)
    (i : S50000x64.Idx) (h0 : (i 0).val = q.val * 2000 + (j 0).val) (h1 : (i 1).val = (j 1).val) :
    G12 x mu va ga be i = P12 (rows12 x q) mu va ga be j := by
  have hj0 : (j 0).val < 2000 := idx2_lt0 j
  have hq : blkOf12 i = q := Fin.ext (by show (i 0).val / 2000 = q.val; omega)
  have hj : ix2 (rowIn12 i) (i 1) = j := by
    funext a
    match a with
    | ⟨0, _⟩ => exact Fin.ext (by show (i 0).val % 2000 = (j 0).val; omega)
    | ⟨1, _⟩ => exact Fin.ext h1
  unfold G12
  rw [hq]
  exact congrArg (P12 (rows12 x q) mu va ga be) hj

section Region12v
variable (V : (c : Dev nD) → (b : Ref sig .tc) → Buf (Elt F) ((c : Thread nD τ).loc b))

theorem hz12 : (![0, 0] : Fin 2 → Nat) = fun _ => 0 := funext fun a => by fin_cases a <;> rfl

/-- The windows' block indices, decided over the 25 grid points: the activations and the output move one block of
    rows per point, the four single rows stay. -/
theorem idx12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0 :=
  (by decide +kernel : ∀ t : Fin grid12.N, _)

/-- The activations' block at point t is rows t·2000 … of their array. -/
theorem iblk12_0_eq (c : Dev nD) (t : Fin cfg12.N) :
    (iblk12 V c 0 t : S2000x64.Idx → Elt F .f32) = rows12 (V c (Pipeline.arrRef spec12 0)) (t.cast N_12) := by
  obtain ⟨e0, e1, -⟩ := idx12 t
  funext y
  show V c (Pipeline.arrRef spec12 0) (((cfg12.win 0).blk t).view.emb y) = V c (Pipeline.arrRef spec12 0) _
  refine congrArg _ (funext fun a => Fin.ext ?_)
  match a with
  | ⟨0, _⟩ => show win12_0.index t (0 : Fin 2) * 2000 + 1 * (y 0).val = t.val * 2000 + (y 0).val; omega
  | ⟨1, _⟩ => show win12_0.index t (1 : Fin 2) * 64 + 1 * (y 1).val = (y 1).val; omega

/-- Each single row's block is, at every point, its whole array. -/
theorem iblk12_1_eq (c : Dev nD) (t : Fin cfg12.N) : (iblk12 V c 1 t : S1x64.Idx → Elt F .f32) = V c (Pipeline.arrRef spec12 1) := by
  obtain ⟨-, -, e0, e1, -⟩ := idx12 t
  funext y
  show V c (Pipeline.arrRef spec12 1) (((cfg12.win 1).blk t).view.emb y) = V c (Pipeline.arrRef spec12 1) y
  refine congrArg _ (funext fun a => Fin.ext ?_)
  match a with
  | ⟨0, _⟩ => show win12_1.index t (0 : Fin 2) * 1 + 1 * (y 0).val = (y 0).val; omega
  | ⟨1, _⟩ => show win12_1.index t (1 : Fin 2) * 64 + 1 * (y 1).val = (y 1).val; omega
theorem iblk12_2_eq (c : Dev nD) (t : Fin cfg12.N) : (iblk12 V c 2 t : S1x64.Idx → Elt F .f32) = V c (Pipeline.arrRef spec12 2) := by
  obtain ⟨-, -, -, -, e0, e1, -⟩ := idx12 t
  funext y
  show V c (Pipeline.arrRef spec12 2) (((cfg12.win 2).blk t).view.emb y) = V c (Pipeline.arrRef spec12 2) y
  refine congrArg _ (funext fun a => Fin.ext ?_)
  match a with
  | ⟨0, _⟩ => show win12_2.index t (0 : Fin 2) * 1 + 1 * (y 0).val = (y 0).val; omega
  | ⟨1, _⟩ => show win12_2.index t (1 : Fin 2) * 64 + 1 * (y 1).val = (y 1).val; omega
theorem iblk12_3_eq (c : Dev nD) (t : Fin cfg12.N) : (iblk12 V c 3 t : S1x64.Idx → Elt F .f32) = V c (Pipeline.arrRef spec12 3) := by
  obtain ⟨-, -, -, -, -, -, e0, e1, -⟩ := idx12 t
  funext y
  show V c (Pipeline.arrRef spec12 3) (((cfg12.win 3).blk t).view.emb y) = V c (Pipeline.arrRef spec12 3) y
  refine congrArg _ (funext fun a => Fin.ext ?_)
  match a with
  | ⟨0, _⟩ => show win12_3.index t (0 : Fin 2) * 1 + 1 * (y 0).val = (y 0).val; omega
  | ⟨1, _⟩ => show win12_3.index t (1 : Fin 2) * 64 + 1 * (y 1).val = (y 1).val; omega
theorem iblk12_4_eq (c : Dev nD) (t : Fin cfg12.N) : (iblk12 V c 4 t : S1x64.Idx → Elt F .f32) = V c (Pipeline.arrRef spec12 4) := by
  obtain ⟨-, -, -, -, -, -, -, -, e0, e1, -⟩ := idx12 t
  funext y
  show V c (Pipeline.arrRef spec12 4) (((cfg12.win 4).blk t).view.emb y) = V c (Pipeline.arrRef spec12 4) y
  refine congrArg _ (funext fun a => Fin.ext ?_)
  match a with
  | ⟨0, _⟩ => show win12_4.index t (0 : Fin 2) * 1 + 1 * (y 0).val = (y 0).val; omega
  | ⟨1, _⟩ => show win12_4.index t (1 : Fin 2) * 64 + 1 * (y 1).val = (y 1).val; omega

set_option maxHeartbeats 1000000 in
/-- What point t writes back is block t of the output array. -/
theorem flushed12_eq (c : Dev nD) (t : Fin cfg12.N) :
    (dat12 V c).flushed 5 t = ((cfg12.win 5).blk t).view.read (Elt F)
      (G12 (V c (Pipeline.arrRef spec12 0)) (V c (Pipeline.arrRef spec12 1)) (V c (Pipeline.arrRef spec12 2))
        (V c (Pipeline.arrRef spec12 3)) (V c (Pipeline.arrRef spec12 4))) := by
  show (cfg12.win 5).cut (grid12.coords t) ((dat12 V c).after 5 t) = _
  rw [after12_5]
  unfold out12_5
  rw [View.canon_unit_zero hz12]
  simp only [View.ld_unit_zero (S := S2000x64) hz12, View.ld_unit_zero (S := S1x64) hz12]
  rw [pay12_eq, iblk12_0_eq, iblk12_1_eq, iblk12_2_eq, iblk12_3_eq, iblk12_4_eq]
  obtain ⟨-, -, -, -, -, -, -, -, -, -, e0, e1⟩ := idx12 t
  funext j
  show P12 (rows12 _ (t.cast N_12)) _ _ _ _ j = G12 _ _ _ _ _ (((cfg12.win 5).blk t).view.emb j)
  refine (G12_blk _ _ _ _ _ (t.cast N_12) j (((cfg12.win 5).blk t).view.emb j) ?_ ?_).symm
  · show win12_5.index t (0 : Fin 2) * 2000 + 1 * (j 0).val = t.val * 2000 + (j 0).val; omega
  · show win12_5.index t (1 : Fin 2) * 64 + 1 * (j 1).val = (j 1).val; omega

/-- An entry of the array is in point t's block iff each coordinate is in the block's range on its axis. -/
theorem mem_blk12 (t : Fin cfg12.N) (i : S50000x64.Idx) :
    i ∈ ((cfg12.win 5).blk t).view.set ↔ ∀ a : Fin 2, win12_5.index t a * S2000x64.size a ≤ (i a).val ∧ (i a).val < win12_5.index t a * S2000x64.size a + S2000x64.size a := by
  show i ∈ ((View.whole main_v176).slice (win12_5.rect t)).set ↔ _
  rw [View.set_slice_whole, Rect.mem_set_unit]
  exact Iff.rfl

/-- Every entry is in the block of the point numbered by its row over 2000. -/
theorem covered12 (i : S50000x64.Idx) : ∃ t : Fin cfg12.N, (cfg12.win 5).flush t = true ∧ i ∈ ((cfg12.win 5).blk t).view.set := by
  have hi0 : (i 0).val < 50000 := idx2_lt0 i
  have hi1 : (i 1).val < 64 := idx2_lt1 i
  have ht : ∃ t : Fin cfg12.N, t.val = (i 0).val / 2000 := ⟨(⟨(i 0).val / 2000, by omega⟩ : Fin 25).cast N_12.symm, rfl⟩
  obtain ⟨t, ht⟩ := ht
  obtain ⟨-, -, -, -, -, -, -, -, -, -, e0, e1⟩ := idx12 t
  refine ⟨t, flush12_5 t, ?_⟩
  rw [mem_blk12]
  intro a
  match a with
  | ⟨0, _⟩ => show win12_5.index t (0 : Fin 2) * 2000 ≤ (i 0).val ∧ (i 0).val < win12_5.index t (0 : Fin 2) * 2000 + 2000; omega
  | ⟨1, _⟩ => show win12_5.index t (1 : Fin 2) * 64 ≤ (i 1).val ∧ (i 1).val < win12_5.index t (1 : Fin 2) * 64 + 64; omega

/-- The output array after the run. -/
theorem final12_5 (c : Dev nD) :
    (dat12 V c).arrAt 5 cfg12.N = G12 (V c (Pipeline.arrRef spec12 0)) (V c (Pipeline.arrRef spec12 1)) (V c (Pipeline.arrRef spec12 2))
      (V c (Pipeline.arrRef spec12 3)) (V c (Pipeline.arrRef spec12 4)) :=
  (dat12 V c).arrAt_eq_of_cover 5 _ (fun t _ => flushed12_eq V c t) covered12

end Region12v

/-! ## The output array over the extended reals, entry by entry -/

section Ideal12

/-- The source entry of a row reduction over a block: the result's row p with k put back on the column axis. -/
theorem lift12 (h : S2000x64.Reduces [1] S2000) (p : Fin 2000) (k : Fin 64) : h.lift (ix1 p) k = ix2 p k := by
  funext a
  match a with
  | ⟨0, _⟩ => exact Fin.ext rfl
  | ⟨1, _⟩ => exact Fin.ext rfl

section Block12
variable (X : Vec Ideal S2000x64 .f32) (mu va ga be : Vec Ideal S1x64 .f32)

/-- The block's batch-norm at an entry. -/
theorem bn12_apply (p : Fin 2000) (k : Fin 64) :
    bn12 (F := Ideal) X mu va ga be (ix2 p k)
      = ((X (ix2 p k) : EReal) - mu (ix2 0 k)) * Ideal.rsqrt (va (ix2 0 k) + Cert.Val.cEps) * ga (ix2 0 k) + be (ix2 0 k) := rfl

/-- A row's maximum: the fold of max over the row, from minus infinity. -/
theorem mx12_apply (p : Fin 2000) :
    mx12 (F := Ideal) X mu va ga be (ix1 p) = Cert.Val.rowMax (fun k : Fin 64 => bn12 (F := Ideal) X mu va ga be (ix2 p k)) := by
  unfold mx12
  refine (Ideal.multiReduction_maximumf_single (bn12 (F := Ideal) X mu va ga be) 0xFF800000#32 reduces_S2000x64_S2000 (.inl rfl) rfl
    (ix1 p)).trans ?_
  have hf : (bn12 (F := Ideal) X mu va ga be ∘ (reduces_S2000x64_S2000).lift (ix1 p))
      = fun k : Fin 64 => bn12 (F := Ideal) X mu va ga be (ix2 p k) :=
    funext fun k => congrArg (bn12 (F := Ideal) X mu va ga be) (lift12 _ p k)
  exact congrArg (fun f => (Finset.univ : Finset (Fin 64)).fold max Cert.Val.cNegInf f) hf

/-- The exponentials at an entry. -/
theorem e12_apply (p : Fin 2000) (k : Fin 64) :
    e12 (F := Ideal) X mu va ga be (ix2 p k)
      = Ideal.exp (bn12 (F := Ideal) X mu va ga be (ix2 p k) - Cert.Val.rowMax (fun k' : Fin 64 => bn12 (F := Ideal) X mu va ga be (ix2 p k'))) := by
  show Ideal.exp (bn12 (F := Ideal) X mu va ga be (ix2 p k) - mx12 (F := Ideal) X mu va ga be (ix1 p)) = _
  rw [mx12_apply]

/-- A row's sum of exponentials: the sum over the row. -/
theorem sm12_apply (p : Fin 2000) :
    sm12 (F := Ideal) X mu va ga be (ix1 p) = ∑ k : Fin 64, e12 (F := Ideal) X mu va ga be (ix2 p k) := by
  unfold sm12
  refine (Ideal.multiReduction_add_single (e12 (F := Ideal) X mu va ga be) 0x00000000#32 reduces_S2000x64_S2000 (.inl rfl) rfl
    (ix1 p)).trans ?_
  exact Finset.sum_congr rfl fun k _ => congrArg (e12 (F := Ideal) X mu va ga be) (lift12 _ p k)

/-- What the body stores, at an entry. -/
theorem P12_apply (p : Fin 2000) (k : Fin 64) :
    P12 (F := Ideal) X mu va ga be (ix2 p k)
      = Ideal.div (e12 (F := Ideal) X mu va ga be (ix2 p k)) (Cert.Val.cOne + sm12 (F := Ideal) X mu va ga be (ix1 p)) := rfl

end Block12

/-- The block that holds row r, read at the row's place, is row r of the array. -/
theorem rows12_at (x : S50000x64.Idx → Elt Ideal .f32) (r : Fin 50000) (q k : Fin 64) :
    rows12 x (blkOf12 (ix2 r q)) (ix2 (rowIn12 (ix2 r q)) k) = x (ix2 r k) := by
  unfold rows12
  refine congrArg x (funext fun a => ?_)
  match a with
  | ⟨0, _⟩ => exact Fin.ext (by show (r.val / 2000) * 2000 + r.val % 2000 = r.val; omega)
  | ⟨1, _⟩ => rfl

/-- THE OUTPUT ARRAY AT AN ENTRY: the row softmax with one added to the denominator, of the batch-norm of row r of
    the activations with the given column statistics, scale and shift. -/
theorem G12_apply (x : S50000x64.Idx → Elt Ideal .f32) (mu va ga be : S1x64.Idx → Elt Ideal .f32) (r : Fin 50000) (q : Fin 64) :
    G12 (F := Ideal) x mu va ga be (ix2 r q)
      = Cert.Val.smOne (fun j' => Cert.Val.bnAt (fun i j => x (ix2 i j)) (fun j => mu (ix2 0 j)) (fun j => va (ix2 0 j))
          (fun j => ga (ix2 0 j)) (fun j => be (ix2 0 j)) r j') q := by
  have hb : ∀ k : Fin 64, bn12 (F := Ideal) (rows12 x (blkOf12 (ix2 r q))) mu va ga be (ix2 (rowIn12 (ix2 r q)) k)
      = Cert.Val.bnAt (fun i j => x (ix2 i j)) (fun j => mu (ix2 0 j)) (fun j => va (ix2 0 j))
          (fun j => ga (ix2 0 j)) (fun j => be (ix2 0 j)) r k := by
    intro k
    rw [bn12_apply, rows12_at]
    rfl
  show P12 (F := Ideal) (rows12 x (blkOf12 (ix2 r q))) mu va ga be (ix2 (rowIn12 (ix2 r q)) q) = _
  rw [P12_apply, sm12_apply]
  simp only [e12_apply, hb]
  rfl

end Ideal12

end Cert.KernelIdeal.Hand

end
-- ==== Proof.KI.R13v.lean ====
import proofs.«408084_j48395691492010_3_alg».proof.Proof.KI.R13
import Idealize.ShloMosaic.Lib.Pipeline.Value
import Idealize.ShloMosaic.Lib.ValueIdx
import Idealize.ShloMosaic.PureOps.Ideal.Laws

/-! # Region 13, read: the output array is the product of the two input arrays

The frame part gives, point by point, the block of products the body leaves in the output window. Here the
blocks are put together: after the last point the output array is one function G13 of the two input arrays
as the region finds them, and at the ideal values entry (r, q) of it is the sum over k of x (r, k) · w (k, q). -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Value13

/-- The contracted extent (columns of X, rows of W) and the number of columns of W. -/
abbrev kdim13 : Nat := 64
abbrev ncol13 : Nat := 64

/-! ## The product as a function of the two arrays

The unit that multiplies is given a block of rows at a time, so the function of the arrays is stated that
way: entry (r, q) is the entry of the product of the block of rows holding row r with W, at that row's
place in the block. At the ideal values a block's product is the sum over the contracted axis, and the
blocks fall away. -/

/-- The block of consecutive rows of x that holds row r, its rows numbered from the block's first. -/
noncomputable def rowsOf13 (x : S50000x64.Idx → Elt F .f32) (r : Fin 50000) : Vec F S2000x64 .f32 :=
  fun y => x (ix2 ⟨r.val / 2000 * 2000 + (y 0).val, by
    have h0 : (y 0).val < 2000 := (y 0).isLt
    have hr := r.isLt
    omega⟩ (y 1))

/-- Entry i of the product: the payload at the block of rows holding row i 0 and at W, read at the row's
    place in its block and column i 1. -/
noncomputable def G13 (x : S50000x64.Idx → Elt F .f32) (w : S64x64.Idx → Elt F .f32) : S50000x64.Idx → Elt F .f32 :=
  fun i => k13_pay1 (rowsOf13 x (i 0)) w (ix2 ⟨(i 0).val % 2000, Nat.mod_lt _ (by decide)⟩ (i 1))

/-- Entry i of the product from ANY description of the block b that holds its row: the block of rows as
    xb, the matrix as wb, the entry's place in the block as j. -/
theorem G13_of_block (x : S50000x64.Idx → Elt F .f32) (w : S64x64.Idx → Elt F .f32) (b : Nat)
    (i : S50000x64.Idx) (j : S2000x64.Idx) (h0 : (i 0).val = b * 2000 + (j 0).val) (h1 : (i 1).val = (j 1).val)
    (xb : Vec F S2000x64 .f32) (wb : Vec F S64x64 .f32) (hw : wb = w)
    (hx : ∀ (y : S2000x64.Idx) (hy : b * 2000 + (y 0).val < 50000), xb y = x (ix2 ⟨b * 2000 + (y 0).val, hy⟩ (y 1))) :
    G13 x w i = k13_pay1 xb wb j := by
  have hj0 : (j 0).val < 2000 := (j 0).isLt
  have hi0 : (i 0).val < 50000 := (i 0).isLt
  have hrows : rowsOf13 x (i 0) = xb := by
    funext y
    have hy0 : (y 0).val < 2000 := (y 0).isLt
    have hq : (i 0).val / 2000 * 2000 = b * 2000 := by omega
    rw [hx y (by omega)]
    unfold rowsOf13
    congr 1
    funext d; apply Fin.ext
    match d with
    | ⟨0, _⟩ => show (i 0).val / 2000 * 2000 + (y 0).val = b * 2000 + (y 0).val; omega
    | ⟨1, _⟩ => rfl
  have hplace : (ix2 ⟨(i 0).val % 2000, Nat.mod_lt _ (by decide)⟩ (i 1) : S2000x64.Idx) = j := by
    funext d; apply Fin.ext
    match d with
    | ⟨0, _⟩ => show (i 0).val % 2000 = (j 0).val; omega
    | ⟨1, _⟩ => exact h1
  unfold G13
  rw [hrows, hplace, hw]

/-! ### The operand indices of the contraction, axis by axis -/

theorem lhsAx13_0 (j : S2000x64.Idx) (k : dot_S2000x64_S64x64_S2000x64_1_0_0_1_n_n.contr.Idx) :
    (dot_S2000x64_S64x64_S2000x64_1_0_0_1_n_n.lhsIdx j k (0 : Fin 2)).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

theorem lhsAx13_1 (j : S2000x64.Idx) (k : dot_S2000x64_S64x64_S2000x64_1_0_0_1_n_n.contr.Idx) :
    (dot_S2000x64_S64x64_S2000x64_1_0_0_1_n_n.lhsIdx j k (1 : Fin 2)).val = (k ⟨0, by decide⟩).val :=
  dot_S2000x64_S64x64_S2000x64_1_0_0_1_n_n.lhsIdx_val_of_single (cl := (1 : Fin 2)) rfl j k

theorem rhsAx13_0 (j : S2000x64.Idx) (k : dot_S2000x64_S64x64_S2000x64_1_0_0_1_n_n.contr.Idx) :
    (dot_S2000x64_S64x64_S2000x64_1_0_0_1_n_n.rhsIdx j k (0 : Fin 2)).val = (k ⟨0, by decide⟩).val :=
  dot_S2000x64_S64x64_S2000x64_1_0_0_1_n_n.rhsIdx_val_of_single (cr := (0 : Fin 2)) rfl j k

theorem rhsAx13_1 (j : S2000x64.Idx) (k : dot_S2000x64_S64x64_S2000x64_1_0_0_1_n_n.contr.Idx) :
    (dot_S2000x64_S64x64_S2000x64_1_0_0_1_n_n.rhsIdx j k (1 : Fin 2)).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The payload at the ideal values, at an index: the sum over the contracted axis. -/
theorem k13_pay1_apply (a : Vec Ideal S2000x64 .f32) (b : Vec Ideal S64x64 .f32) (p : Fin 2000) (q : Fin ncol13) :
    k13_pay1 (F := Ideal) a b (ix2 p q) = ∑ k : Fin kdim13, a (ix2 p k) * b (ix2 k q) := by
  unfold k13_pay1
  simp only [shapeCast_self]
  refine (Ideal.matmul_constant_zero_apply _ _ _ _ _).trans ?_
  rw [← Equiv.sum_comp (contrEquiv1 dot_S2000x64_S64x64_S2000x64_1_0_0_1_n_n kdim13 rfl rfl).symm]
  refine Finset.sum_congr rfl fun k _ => ?_
  have hl : dot_S2000x64_S64x64_S2000x64_1_0_0_1_n_n.lhsIdx (ix2 p q) ((contrEquiv1 dot_S2000x64_S64x64_S2000x64_1_0_0_1_n_n kdim13 rfl rfl).symm k) = ix2 p k := by
    funext d; apply Fin.ext
    match d with
    | ⟨0, _⟩ => exact lhsAx13_0 _ _
    | ⟨1, _⟩ => exact (lhsAx13_1 _ _).trans (contrEquiv1_symm_val _ kdim13 rfl rfl k)
  have hr : dot_S2000x64_S64x64_S2000x64_1_0_0_1_n_n.rhsIdx (ix2 p q) ((contrEquiv1 dot_S2000x64_S64x64_S2000x64_1_0_0_1_n_n kdim13 rfl rfl).symm k) = ix2 k q := by
    funext d; apply Fin.ext
    match d with
    | ⟨0, _⟩ => exact (rhsAx13_0 _ _).trans (contrEquiv1_symm_val _ kdim13 rfl rfl k)
    | ⟨1, _⟩ => exact rhsAx13_1 _ _
  rw [hl, hr]

/-- Entry (r, q) of the product at the ideal values: the sum over k of x (r, k) · w (k, q). -/
theorem G13_apply (x : S50000x64.Idx → Elt Ideal .f32) (w : S64x64.Idx → Elt Ideal .f32) (r : Fin 50000) (q : Fin ncol13) :
    G13 (F := Ideal) x w (ix2 r q) = ∑ k : Fin kdim13, x (ix2 r k) * w (ix2 k q) := by
  unfold G13
  rw [k13_pay1_apply]
  refine Finset.sum_congr rfl fun k _ => ?_
  unfold rowsOf13
  have hrow : (ix2 (⟨r.val / 2000 * 2000 + r.val % 2000, by have := r.isLt; omega⟩ : Fin 50000) k : S50000x64.Idx) = ix2 r k := by
    funext d; apply Fin.ext
    match d with
    | ⟨0, _⟩ => show r.val / 2000 * 2000 + r.val % 2000 = r.val; omega
    | ⟨1, _⟩ => rfl
  exact congrArg (fun z => x z * w (ix2 k q)) hrow

end Value13

/-! ## From the blocks written back to the array -/

section Final13
variable (V : (c : Dev nD) → (b : Ref sig .tc) → Buf (Elt F) ((c : Thread nD τ).loc b))

theorem hz13 : (![0, 0] : Fin 2 → Nat) = fun _ => 0 := funext fun a => by fin_cases a <;> rfl

/-- The index maps over the grid: the rows of X and of the product move with the point, one block a point;
    W stays; no window moves along its columns. -/
theorem idx_facts13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0 :=
  (by decide +kernel : ∀ t : Fin grid13.N, _)

/-- What point t writes back is block t of the product of the arrays as the region finds them. -/
theorem flushed13_2_eq (c : Dev nD) (t : Fin cfg13.N) :
    (dat13 V c).flushed 2 t = ((cfg13.win 2).blk t).view.read (Elt F) (G13 (V c (Pipeline.arrRef spec13 0)) (V c (Pipeline.arrRef spec13 1))) := by
  show (cfg13.win 2).cut (grid13.coords t) ((dat13 V c).after 2 t) = _
  rw [after13_2]
  unfold out13_2
  rw [View.canon_unit_zero hz13]
  simp only [View.ld_unit_zero (S := S2000x64) hz13, View.ld_unit_zero (S := S64x64) hz13]
  obtain ⟨e0, e1, e2, e3, e4, e5⟩ := idx_facts13 t
  funext j
  show k13_pay1 (iblk13 V c 0 t) (iblk13 V c 1 t) j = G13 (V c (Pipeline.arrRef spec13 0)) (V c (Pipeline.arrRef spec13 1)) (((cfg13.win 2).blk t).view.emb j)
  refine (G13_of_block _ _ t.val _ j ?_ ?_ _ _ ?_ ?_).symm
  · show win13_2.index t (0 : Fin 2) * 2000 + 1 * (j 0).val = t.val * 2000 + (j 0).val
    rw [e4]; omega
  · show win13_2.index t (1 : Fin 2) * S2000x64.size 1 + 1 * (j 1).val = (j 1).val
    rw [e5]; omega
  · funext y
    show V c (Pipeline.arrRef spec13 1) (((cfg13.win 1).blk t).view.emb y) = V c (Pipeline.arrRef spec13 1) y
    congr 1
    funext d; apply Fin.ext
    match d with
    | ⟨0, _⟩ => show win13_1.index t (0 : Fin 2) * S64x64.size 0 + 1 * (y 0).val = (y 0).val; rw [e2]; omega
    | ⟨1, _⟩ => show win13_1.index t (1 : Fin 2) * S64x64.size 1 + 1 * (y 1).val = (y 1).val; rw [e3]; omega
  · intro y hy
    show V c (Pipeline.arrRef spec13 0) (((cfg13.win 0).blk t).view.emb y) = V c (Pipeline.arrRef spec13 0) (ix2 ⟨t.val * 2000 + (y 0).val, hy⟩ (y 1))
    congr 1
    funext d; apply Fin.ext
    match d with
    | ⟨0, _⟩ => show win13_0.index t (0 : Fin 2) * 2000 + 1 * (y 0).val = t.val * 2000 + (y 0).val; rw [e0]; omega
    | ⟨1, _⟩ => show win13_0.index t (1 : Fin 2) * S2000x64.size 1 + 1 * (y 1).val = (y 1).val; rw [e1]; omega

/-- An index of the array is in point t's block iff each coordinate is in the block's range on its axis. -/
theorem mem_blk13_2 (t : Fin cfg13.N) (i : S50000x64.Idx) :
    i ∈ ((cfg13.win 2).blk t).view.set ↔ ∀ a : Fin 2, win13_2.index t a * S2000x64.size a ≤ (i a).val ∧ (i a).val < win13_2.index t a * S2000x64.size a + S2000x64.size a := by
  show i ∈ ((View.whole (Pipeline.arrRef spec13 2)).slice (win13_2.rect t)).set ↔ _
  rw [View.set_slice_whole, Rect.mem_set_unit]
  exact Iff.rfl

/-- Every index of the array is in some point's block: row r in the block of point r / 2000. -/
theorem covered13_2 (i : S50000x64.Idx) :
    ∃ t : Fin cfg13.N, (cfg13.win 2).flush t = true ∧ i ∈ ((cfg13.win 2).blk t).view.set := by
  have hi0 : (i 0).val < 50000 := (i 0).isLt
  refine ⟨⟨(i 0).val / 2000, by rw [show cfg13.N = 25 from N_13]; omega⟩, flush13_2 _, ?_⟩
  obtain ⟨e0, e1, e2, e3, e4, e5⟩ := idx_facts13 ⟨(i 0).val / 2000, by rw [show cfg13.N = 25 from N_13]; omega⟩
  rw [mem_blk13_2]
  intro a
  match a with
  | ⟨0, _⟩ =>
    show win13_2.index _ (0 : Fin 2) * 2000 ≤ (i 0).val ∧ (i 0).val < win13_2.index _ (0 : Fin 2) * 2000 + 2000
    rw [e4]; show (i 0).val / 2000 * 2000 ≤ (i 0).val ∧ (i 0).val < (i 0).val / 2000 * 2000 + 2000; omega
  | ⟨1, _⟩ =>
    show win13_2.index _ (1 : Fin 2) * S2000x64.size 1 ≤ (i 1).val ∧ (i 1).val < win13_2.index _ (1 : Fin 2) * S2000x64.size 1 + S2000x64.size 1
    rw [e5, Nat.zero_mul, Nat.zero_add]; exact ⟨Nat.zero_le _, (i 1).isLt⟩

/-- The output array after the last point is the product of the two input arrays as the region finds them. -/
theorem final13_2 (c : Dev nD) :
    (dat13 V c).arrAt 2 cfg13.N = G13 (V c (Pipeline.arrRef spec13 0)) (V c (Pipeline.arrRef spec13 1)) :=
  (dat13 V c).arrAt_eq_of_cover 2 (G13 (V c (Pipeline.arrRef spec13 0)) (V c (Pipeline.arrRef spec13 1)))
    (fun t _ => flushed13_2_eq V c t) covered13_2

end Final13

end Cert.KernelIdeal.Hand

end
-- ==== Proof.KI.R14v.lean ====
import proofs.«408084_j48395691492010_3_alg».proof.Proof.KI.R14
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! Region 14, the values. The first full-size result holds, row by row, (aggregate + bias row) + carried-in array; the
second, the carried-in array + (aggregate + bias row). The one-row result ends holding, column by column, the sum over the
25 row tiles — folded tile by tile from the zero row — of each tile's column sum of the first result's rows. First each
control case's found pieces read back as the payloads; then the accumulator after each point as the fold, by induction on
the point; then the three result arrays after the last point; last the readings at the ideal values, entry by entry. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem hz14 : (![0, 0] : Fin 2 → Nat) = fun _ => 0 := funext fun a => by fin_cases a <;> rfl

/-! ## The found pieces, read back -/

/-- Every point leaves in the first full-size result's buffer the block plus the bias row plus the carried block, -/
theorem out14_A_3_eq (c : Dev nD) (i : grid14.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc0 : cond14_0 i) (hc1 : ¬cond14_1 i)
    (x0 : Vec F S2000x64 .f32) (x1 : Vec F S1x64 .f32) (x2 : Vec F S2000x64 .f32) :
    out14_A_3 c i a1 h1 a2 h2 a3 h3 a4 h4 a5 h5 a6 h6 a7 h7 hc0 hc1 x0 x1 x2 = k14_pay3 x0 x1 x2 := by
  unfold out14_A_3
  rw [View.read_writes_eq_canon _ _ _ (cover14_A_3 c i a1 h1 a2 h2 a3 h3 a4 h4 a5 h5 a6 h6 a7 h7 hc0 hc1 x0 x1 x2)]
  unfold kernelRun14_A
  dsimp only
  sl_unfold_words
  rw [View.canon_unit_zero hz14]
  simp only [View.readAt_eq_ld, h1.read_unread, h2.read_unread, h3.read_unread, h4.read_unread, h5.read_unread, h6.read_unread, h7.read_unread, View.ld_unit_zero (S := S2000x64) hz14, View.ld_unit_zero (S := S1x64) hz14]

theorem out14_B_3_eq (c : Dev nD) (i : grid14.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc0 : ¬cond14_0 i) (hc1 : ¬cond14_1 i)
    (x0 : Vec F S2000x64 .f32) (x1 : Vec F S1x64 .f32) (x2 : Vec F S2000x64 .f32) (xs0 : Vec F S1x64 .f32) :
    out14_B_3 c i a1 h1 a2 h2 a3 h3 a4 h4 a5 h5 a6 h6 a7 h7 hc0 hc1 x0 x1 x2 xs0 = k14_pay3 x0 x1 x2 := by
  unfold out14_B_3
  rw [View.read_writes_eq_canon _ _ _ (cover14_B_3 c i a1 h1 a2 h2 a3 h3 a4 h4 a5 h5 a6 h6 a7 h7 hc0 hc1 x0 x1 x2 xs0)]
  unfold kernelRun14_B
  dsimp only
  sl_unfold_words
  rw [View.canon_unit_zero hz14]
  simp only [View.readAt_eq_ld, h1.read_unread, h2.read_unread, h3.read_unread, h4.read_unread, h5.read_unread, h6.read_unread, h7.read_unread, View.ld_unit_zero (S := S2000x64) hz14, View.ld_unit_zero (S := S1x64) hz14]

theorem out14_C_3_eq (c : Dev nD) (i : grid14.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc0 : ¬cond14_0 i) (hc1 : cond14_1 i)
    (x0 : Vec F S2000x64 .f32) (x1 : Vec F S1x64 .f32) (x2 : Vec F S2000x64 .f32) (xs0 : Vec F S1x64 .f32) :
    out14_C_3 c i a1 h1 a2 h2 a3 h3 a4 h4 a5 h5 a6 h6 a7 h7 hc0 hc1 x0 x1 x2 xs0 = k14_pay3 x0 x1 x2 := by
  unfold out14_C_3
  rw [View.read_writes_eq_canon _ _ _ (cover14_C_3 c i a1 h1 a2 h2 a3 h3 a4 h4 a5 h5 a6 h6 a7 h7 hc0 hc1 x0 x1 x2 xs0)]
  unfold kernelRun14_C
  dsimp only
  sl_unfold_words
  rw [View.canon_unit_zero hz14]
  simp only [View.readAt_eq_ld, h1.read_unread, h2.read_unread, h3.read_unread, h4.read_unread, h5.read_unread, h6.read_unread, h7.read_unread, View.ld_unit_zero (S := S2000x64) hz14, View.ld_unit_zero (S := S1x64) hz14]

/-- and in the second's the carried block plus the block plus the bias row. -/
theorem out14_A_4_eq (c : Dev nD) (i : grid14.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc0 : cond14_0 i) (hc1 : ¬cond14_1 i)
    (x0 : Vec F S2000x64 .f32) (x1 : Vec F S1x64 .f32) (x2 : Vec F S2000x64 .f32) :
    out14_A_4 c i a1 h1 a2 h2 a3 h3 a4 h4 a5 h5 a6 h6 a7 h7 hc0 hc1 x0 x1 x2 = k14_pay4 x0 x1 x2 := by
  unfold out14_A_4
  rw [View.read_writes_eq_canon _ _ _ (cover14_A_4 c i a1 h1 a2 h2 a3 h3 a4 h4 a5 h5 a6 h6 a7 h7 hc0 hc1 x0 x1 x2)]
  unfold kernelRun14_A
  dsimp only
  sl_unfold_words
  rw [View.canon_unit_zero hz14]
  simp only [View.readAt_eq_ld, h1.read_unread, h2.read_unread, h3.read_unread, h4.read_unread, h5.read_unread, h6.read_unread, h7.read_unread, View.ld_unit_zero (S := S2000x64) hz14, View.ld_unit_zero (S := S1x64) hz14]

theorem out14_B_4_eq (c : Dev nD) (i : grid14.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc0 : ¬cond14_0 i) (hc1 : ¬cond14_1 i)
    (x0 : Vec F S2000x64 .f32) (x1 : Vec F S1x64 .f32) (x2 : Vec F S2000x64 .f32) (xs0 : Vec F S1x64 .f32) :
    out14_B_4 c i a1 h1 a2 h2 a3 h3 a4 h4 a5 h5 a6 h6 a7 h7 hc0 hc1 x0 x1 x2 xs0 = k14_pay4 x0 x1 x2 := by
  unfold out14_B_4
  rw [View.read_writes_eq_canon _ _ _ (cover14_B_4 c i a1 h1 a2 h2 a3 h3 a4 h4 a5 h5 a6 h6 a7 h7 hc0 hc1 x0 x1 x2 xs0)]
  unfold kernelRun14_B
  dsimp only
  sl_unfold_words
  rw [View.canon_unit_zero hz14]
  simp only [View.readAt_eq_ld, h1.read_unread, h2.read_unread, h3.read_unread, h4.read_unread, h5.read_unread, h6.read_unread, h7.read_unread, View.ld_unit_zero (S := S2000x64) hz14, View.ld_unit_zero (S := S1x64) hz14]

theorem out14_C_4_eq (c : Dev nD) (i : grid14.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc0 : ¬cond14_0 i) (hc1 : cond14_1 i)
    (x0 : Vec F S2000x64 .f32) (x1 : Vec F S1x64 .f32) (x2 : Vec F S2000x64 .f32) (xs0 : Vec F S1x64 .f32) :
    out14_C_4 c i a1 h1 a2 h2 a3 h3 a4 h4 a5 h5 a6 h6 a7 h7 hc0 hc1 x0 x1 x2 xs0 = k14_pay4 x0 x1 x2 := by
  unfold out14_C_4
  rw [View.read_writes_eq_canon _ _ _ (cover14_C_4 c i a1 h1 a2 h2 a3 h3 a4 h4 a5 h5 a6 h6 a7 h7 hc0 hc1 x0 x1 x2 xs0)]
  unfold kernelRun14_C
  dsimp only
  sl_unfold_words
  rw [View.canon_unit_zero hz14]
  simp only [View.readAt_eq_ld, h1.read_unread, h2.read_unread, h3.read_unread, h4.read_unread, h5.read_unread, h6.read_unread, h7.read_unread, View.ld_unit_zero (S := S2000x64) hz14, View.ld_unit_zero (S := S1x64) hz14]

/-- The first point zeroes the accumulator, reads the zero row back and leaves the tile step applied to it. -/
theorem sout14_A_0_eq (c : Dev nD) (i : grid14.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc0 : cond14_0 i) (hc1 : ¬cond14_1 i)
    (x0 : Vec F S2000x64 .f32) (x1 : Vec F S1x64 .f32) (x2 : Vec F S2000x64 .f32) :
    sout14_A_0 c i a1 h1 a2 h2 a3 h3 a4 h4 a5 h5 a6 h6 a7 h7 hc0 hc1 x0 x1 x2 = k14_pay5 x0 x1 x2 (k14_pay1 (F := F)) := by
  unfold sout14_A_0
  rw [View.read_writes_eq_canon _ _ _ (scover14_A_0 c i a1 h1 a2 h2 a3 h3 a4 h4 a5 h5 a6 h6 a7 h7 hc0 hc1 x0 x1 x2)]
  unfold kernelRun14_A
  dsimp only
  sl_unfold_words
  rw [View.canon_cons_unit_zero (S := S1x64) hz14, View.readCov_unit_zero (S := S1x64) _ hz14]
  simp only [View.readAt_eq_ld, h1.read_unread, h2.read_unread, h3.read_unread, h4.read_unread, h5.read_unread, h6.read_unread, h7.read_unread, View.ld_unit_zero (S := S2000x64) hz14, View.ld_unit_zero (S := S1x64) hz14]

/-- A middle point leaves in the accumulator the tile step applied to what it held. -/
theorem sout14_B_0_eq (c : Dev nD) (i : grid14.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc0 : ¬cond14_0 i) (hc1 : ¬cond14_1 i)
    (x0 : Vec F S2000x64 .f32) (x1 : Vec F S1x64 .f32) (x2 : Vec F S2000x64 .f32) (xs0 : Vec F S1x64 .f32) :
    sout14_B_0 c i a1 h1 a2 h2 a3 h3 a4 h4 a5 h5 a6 h6 a7 h7 hc0 hc1 x0 x1 x2 xs0 = k14_pay5 x0 x1 x2 xs0 := by
  unfold sout14_B_0
  rw [View.read_writes_eq_canon _ _ _ (scover14_B_0 c i a1 h1 a2 h2 a3 h3 a4 h4 a5 h5 a6 h6 a7 h7 hc0 hc1 x0 x1 x2 xs0)]
  unfold kernelRun14_B
  dsimp only
  sl_unfold_words
  rw [View.canon_unit_zero hz14]
  simp only [View.readAt_eq_ld, h1.read_unread, h2.read_unread, h3.read_unread, h4.read_unread, h5.read_unread, h6.read_unread, h7.read_unread, View.ld_unit_zero (S := S2000x64) hz14, View.ld_unit_zero (S := S1x64) hz14]

/-- The last point leaves the same in the accumulator, -/
theorem sout14_C_0_eq (c : Dev nD) (i : grid14.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc0 : ¬cond14_0 i) (hc1 : cond14_1 i)
    (x0 : Vec F S2000x64 .f32) (x1 : Vec F S1x64 .f32) (x2 : Vec F S2000x64 .f32) (xs0 : Vec F S1x64 .f32) :
    sout14_C_0 c i a1 h1 a2 h2 a3 h3 a4 h4 a5 h5 a6 h6 a7 h7 hc0 hc1 x0 x1 x2 xs0 = k14_pay5 x0 x1 x2 xs0 := by
  unfold sout14_C_0
  rw [View.read_writes_eq_canon _ _ _ (scover14_C_0 c i a1 h1 a2 h2 a3 h3 a4 h4 a5 h5 a6 h6 a7 h7 hc0 hc1 x0 x1 x2 xs0)]
  unfold kernelRun14_C
  dsimp only
  sl_unfold_words
  rw [View.canon_unit_zero hz14]
  simp only [View.readAt_eq_ld, h1.read_unread, h2.read_unread, h3.read_unread, h4.read_unread, h5.read_unread, h6.read_unread, h7.read_unread, View.ld_unit_zero (S := S2000x64) hz14, View.ld_unit_zero (S := S1x64) hz14]

/-- and stores to the one-row result's buffer what it then reads back from the accumulator: the same row. -/
theorem out14_C_5_eq (c : Dev nD) (i : grid14.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S2000x64 .f32) (h4 : a4.IsWhole) (a5 : Memref sig .tc .vmem S2000x64 .f32) (h5 : a5.IsWhole) (a6 : Memref sig .tc .vmem S1x64 .f32) (h6 : a6.IsWhole) (a7 : Memref sig .tc .vmem S1x64 .f32) (h7 : a7.IsWhole) (hc0 : ¬cond14_0 i) (hc1 : cond14_1 i)
    (x0 : Vec F S2000x64 .f32) (x1 : Vec F S1x64 .f32) (x2 : Vec F S2000x64 .f32) (xs0 : Vec F S1x64 .f32) :
    out14_C_5 c i a1 h1 a2 h2 a3 h3 a4 h4 a5 h5 a6 h6 a7 h7 hc0 hc1 x0 x1 x2 xs0 = k14_pay5 x0 x1 x2 xs0 := by
  unfold out14_C_5
  rw [View.read_writes_eq_canon _ _ _ (cover14_C_5 c i a1 h1 a2 h2 a3 h3 a4 h4 a5 h5 a6 h6 a7 h7 hc0 hc1 x0 x1 x2 xs0)]
  unfold kernelRun14_C
  dsimp only
  sl_unfold_words
  rw [View.canon_unit_zero hz14, View.readCov_unit_zero (S := S1x64) _ hz14]
  simp only [View.readAt_eq_ld, h1.read_unread, h2.read_unread, h3.read_unread, h4.read_unread, h5.read_unread, h6.read_unread, h7.read_unread, View.ld_unit_zero (S := S2000x64) hz14, View.ld_unit_zero (S := S1x64) hz14]

/-! ## The arrays and their blocks, at their literal types -/

/-- The array of the aggregated rows, as the region finds it, -/
noncomputable abbrev xarr14 (c : Dev nD) : Vec F S50000x64 .f32 := V c (Pipeline.arrRef spec14 0)
/-- the bias row, -/
noncomputable abbrev barr14 (c : Dev nD) : Vec F S1x64 .f32 := V c (Pipeline.arrRef spec14 1)
/-- and the carried-in array. -/
noncomputable abbrev carr14 (c : Dev nD) : Vec F S50000x64 .f32 := V c (Pipeline.arrRef spec14 2)

/-- Row tile n of an array of 50000 rows: rows 2000 n … 2000 n + 1999. -/
noncomputable def tile14 (X : Vec F S50000x64 .f32) (n : Fin 25) : Vec F S2000x64 .f32 :=
  fun j => X (ix2 ⟨2000 * n.val + (j 0).val, by have := idx2_lt0 j; have := n.isLt; omega⟩ ⟨(j 1).val, idx2_lt1 j⟩)

theorem tile14_apply (X : Vec F S50000x64 .f32) (n : Fin 25) (r : Fin 2000) (q : Fin 64) :
    tile14 X n (ix2 r q) = X (ix2 ⟨2000 * n.val + r.val, by have := n.isLt; have := r.isLt; omega⟩ q) := rfl

/-- The row-tile windows' block index is the grid point; the one-row windows never move. -/
theorem index14_0 : ∀ t : Fin cfg14.N, win14_0.index t 0 = t.val ∧ win14_0.index t 1 = 0 :=
  (by decide +kernel : ∀ t : Fin grid14.N, win14_0.index t 0 = t.val ∧ win14_0.index t 1 = 0)
theorem index14_1 : ∀ t : Fin cfg14.N, win14_1.index t 0 = 0 ∧ win14_1.index t 1 = 0 :=
  (by decide +kernel : ∀ t : Fin grid14.N, win14_1.index t 0 = 0 ∧ win14_1.index t 1 = 0)
theorem index14_2 : ∀ t : Fin cfg14.N, win14_2.index t 0 = t.val ∧ win14_2.index t 1 = 0 :=
  (by decide +kernel : ∀ t : Fin grid14.N, win14_2.index t 0 = t.val ∧ win14_2.index t 1 = 0)
theorem index14_3 : ∀ t : Fin cfg14.N, win14_3.index t 0 = t.val ∧ win14_3.index t 1 = 0 :=
  (by decide +kernel : ∀ t : Fin grid14.N, win14_3.index t 0 = t.val ∧ win14_3.index t 1 = 0)
theorem index14_4 : ∀ t : Fin cfg14.N, win14_4.index t 0 = t.val ∧ win14_4.index t 1 = 0 :=
  (by decide +kernel : ∀ t : Fin grid14.N, win14_4.index t 0 = t.val ∧ win14_4.index t 1 = 0)
theorem index14_5 : ∀ t : Fin cfg14.N, win14_5.index t 0 = 0 ∧ win14_5.index t 1 = 0 :=
  (by decide +kernel : ∀ t : Fin grid14.N, win14_5.index t 0 = 0 ∧ win14_5.index t 1 = 0)
theorem xsize14_5 : ∀ t : Fin cfg14.N, win14_5.xsize (grid14.coords t) 0 = 1 ∧ win14_5.xsize (grid14.coords t) 1 = 64 :=
  (by decide +kernel : ∀ t : Fin grid14.N, win14_5.xsize (grid14.coords t) 0 = 1 ∧ win14_5.xsize (grid14.coords t) 1 = 64)

/-- The aggregate window's block at point t is row tile t of its array. -/
theorem xblk14_eq (c : Dev nD) (t : Fin cfg14.N) (hN : t.val < 25) :
    (iblk14 V c 0 t : Vec F S2000x64 .f32) = tile14 (xarr14 V c) ⟨t.val, hN⟩ := by
  have hi := index14_0 t
  funext j
  unfold iblk14 tile14
  rw [View.read_apply]
  show V c (Pipeline.arrRef spec14 0) _ = V c (Pipeline.arrRef spec14 0) _
  congr 1
  funext a
  apply Fin.ext
  match a with
  | ⟨0, _⟩ => show win14_0.index t 0 * 2000 + 1 * (j 0).val = 2000 * t.val + (j 0).val; rw [hi.1]; omega
  | ⟨1, _⟩ => show win14_0.index t 1 * 64 + 1 * (j 1).val = (j 1).val; rw [hi.2]; omega

/-- The bias window's block is the whole one-row array, at every point. -/
theorem bblk14_eq (c : Dev nD) (t : Fin cfg14.N) : (iblk14 V c 1 t : Vec F S1x64 .f32) = barr14 V c := by
  have hi := index14_1 t
  funext j
  unfold iblk14
  rw [View.read_apply]
  show V c (Pipeline.arrRef spec14 1) _ = V c (Pipeline.arrRef spec14 1) j
  congr 1
  funext a
  apply Fin.ext
  match a with
  | ⟨0, _⟩ => show win14_1.index t 0 * 1 + 1 * (j 0).val = (j 0).val; rw [hi.1]; omega
  | ⟨1, _⟩ => show win14_1.index t 1 * 64 + 1 * (j 1).val = (j 1).val; rw [hi.2]; omega

/-- The carried-in window's block at point t is row tile t of its array. -/
theorem cblk14_eq (c : Dev nD) (t : Fin cfg14.N) (hN : t.val < 25) :
    (iblk14 V c 2 t : Vec F S2000x64 .f32) = tile14 (carr14 V c) ⟨t.val, hN⟩ := by
  have hi := index14_2 t
  funext j
  unfold iblk14 tile14
  rw [View.read_apply]
  show V c (Pipeline.arrRef spec14 2) _ = V c (Pipeline.arrRef spec14 2) _
  congr 1
  funext a
  apply Fin.ext
  match a with
  | ⟨0, _⟩ => show win14_2.index t 0 * 2000 + 1 * (j 0).val = 2000 * t.val + (j 0).val; rw [hi.1]; omega
  | ⟨1, _⟩ => show win14_2.index t 1 * 64 + 1 * (j 1).val = (j 1).val; rw [hi.2]; omega

/-! ## The three results as functions of the three arrays -/

/-- THE FIRST FULL-SIZE RESULT: entry i is the payload at the row tiles holding row i 0 and at the bias row, read at the row's place in its tile and column i 1. -/
noncomputable def G14_3 (X : Vec F S50000x64 .f32) (B : Vec F S1x64 .f32) (C : Vec F S50000x64 .f32) : Vec F S50000x64 .f32 :=
  fun i => k14_pay3 (tile14 X ⟨(i 0).val / 2000, by have := idx2_lt0 i; omega⟩) B (tile14 C ⟨(i 0).val / 2000, by have := idx2_lt0 i; omega⟩)
    (ix2 ⟨(i 0).val % 2000, Nat.mod_lt _ (by decide)⟩ (i 1))

/-- THE SECOND FULL-SIZE RESULT, likewise. -/
noncomputable def G14_4 (X : Vec F S50000x64 .f32) (B : Vec F S1x64 .f32) (C : Vec F S50000x64 .f32) : Vec F S50000x64 .f32 :=
  fun i => k14_pay4 (tile14 X ⟨(i 0).val / 2000, by have := idx2_lt0 i; omega⟩) B (tile14 C ⟨(i 0).val / 2000, by have := idx2_lt0 i; omega⟩)
    (ix2 ⟨(i 0).val % 2000, Nat.mod_lt _ (by decide)⟩ (i 1))

/-- The accumulator after row tile n: the tile step from the zero row at tile 0, then from what the tile before left. -/
noncomputable def acc14 (X : Vec F S50000x64 .f32) (B : Vec F S1x64 .f32) (C : Vec F S50000x64 .f32) : (n : ℕ) → n < 25 → Vec F S1x64 .f32
  | 0, h => k14_pay5 (tile14 X ⟨0, h⟩) B (tile14 C ⟨0, h⟩) (k14_pay1 (F := F))
  | n + 1, h => k14_pay5 (tile14 X ⟨n + 1, h⟩) B (tile14 C ⟨n + 1, h⟩) (acc14 X B C n (Nat.lt_of_succ_lt h))

/-- THE ONE-ROW RESULT: the fold after the last tile. -/
noncomputable def G14_5 (X : Vec F S50000x64 .f32) (B : Vec F S1x64 .f32) (C : Vec F S50000x64 .f32) : Vec F S1x64 .f32 := acc14 X B C 24 (by decide)

/-! ## What the buffers hold after each point -/

/-- The first full-size result's buffer after point n. -/
theorem outsAt14_pre (c : Dev nD) : ∀ (n : ℕ) (h : n < cfg14.N) (h' : n < 25),
    (outsAt14 V c n h).1 = k14_pay3 (tile14 (xarr14 V c) ⟨n, h'⟩) (barr14 V c) (tile14 (carr14 V c) ⟨n, h'⟩)
  | 0, h, h' => by
    rw [outsAt14_A V c ⟨0, h⟩ (Nat.zero_mod 25) (fun e => by have e' : (0 : ℕ) % 25 = 24 := e; omega)]
    dsimp only
    rw [out14_A_3_eq, xblk14_eq V c ⟨0, h⟩ h', bblk14_eq V c ⟨0, h⟩, cblk14_eq V c ⟨0, h⟩ h']
  | n + 1, h, h' => by
    have hm : (n + 1) % 25 = n + 1 := Nat.mod_eq_of_lt h'
    by_cases h24 : n + 1 = 24
    · rw [outsAt14_C V c ⟨n + 1, h⟩ (fun e => by have e' : (n + 1) % 25 = 0 := e; omega) (by show (n + 1) % 25 = 24; omega)]
      dsimp only
      rw [out14_C_3_eq, xblk14_eq V c ⟨n + 1, h⟩ h', bblk14_eq V c ⟨n + 1, h⟩, cblk14_eq V c ⟨n + 1, h⟩ h']
    · rw [outsAt14_B V c ⟨n + 1, h⟩ (fun e => by have e' : (n + 1) % 25 = 0 := e; omega) (fun e => by have e' : (n + 1) % 25 = 24 := e; omega)]
      dsimp only
      rw [out14_B_3_eq, xblk14_eq V c ⟨n + 1, h⟩ h', bblk14_eq V c ⟨n + 1, h⟩, cblk14_eq V c ⟨n + 1, h⟩ h']

/-- The second full-size result's buffer after point n. -/
theorem outsAt14_cum (c : Dev nD) : ∀ (n : ℕ) (h : n < cfg14.N) (h' : n < 25),
    (outsAt14 V c n h).2.1 = k14_pay4 (tile14 (xarr14 V c) ⟨n, h'⟩) (barr14 V c) (tile14 (carr14 V c) ⟨n, h'⟩)
  | 0, h, h' => by
    rw [outsAt14_A V c ⟨0, h⟩ (Nat.zero_mod 25) (fun e => by have e' : (0 : ℕ) % 25 = 24 := e; omega)]
    dsimp only
    rw [out14_A_4_eq, xblk14_eq V c ⟨0, h⟩ h', bblk14_eq V c ⟨0, h⟩, cblk14_eq V c ⟨0, h⟩ h']
  | n + 1, h, h' => by
    have hm : (n + 1) % 25 = n + 1 := Nat.mod_eq_of_lt h'
    by_cases h24 : n + 1 = 24
    · rw [outsAt14_C V c ⟨n + 1, h⟩ (fun e => by have e' : (n + 1) % 25 = 0 := e; omega) (by show (n + 1) % 25 = 24; omega)]
      dsimp only
      rw [out14_C_4_eq, xblk14_eq V c ⟨n + 1, h⟩ h', bblk14_eq V c ⟨n + 1, h⟩, cblk14_eq V c ⟨n + 1, h⟩ h']
    · rw [outsAt14_B V c ⟨n + 1, h⟩ (fun e => by have e' : (n + 1) % 25 = 0 := e; omega) (fun e => by have e' : (n + 1) % 25 = 24 := e; omega)]
      dsimp only
      rw [out14_B_4_eq, xblk14_eq V c ⟨n + 1, h⟩ h', bblk14_eq V c ⟨n + 1, h⟩, cblk14_eq V c ⟨n + 1, h⟩ h']

/-- What the accumulator holds after point n is the fold up to tile n: by induction on the point. -/
theorem outsAt14_acc (c : Dev nD) : ∀ (n : ℕ) (h : n < cfg14.N) (h' : n < 25),
    (outsAt14 V c n h).2.2.2 = acc14 (xarr14 V c) (barr14 V c) (carr14 V c) n h'
  | 0, h, h' => by
    rw [outsAt14_A V c ⟨0, h⟩ (Nat.zero_mod 25) (fun e => by have e' : (0 : ℕ) % 25 = 24 := e; omega)]
    dsimp only
    rw [sout14_A_0_eq, xblk14_eq V c ⟨0, h⟩ h', bblk14_eq V c ⟨0, h⟩, cblk14_eq V c ⟨0, h⟩ h']
    rfl
  | n + 1, h, h' => by
    have ih := outsAt14_acc c n (Nat.lt_of_succ_lt h) (Nat.lt_of_succ_lt h')
    have hm : (n + 1) % 25 = n + 1 := Nat.mod_eq_of_lt h'
    by_cases h24 : n + 1 = 24
    · rw [outsAt14_C V c ⟨n + 1, h⟩ (fun e => by have e' : (n + 1) % 25 = 0 := e; omega) (by show (n + 1) % 25 = 24; omega)]
      dsimp only
      rw [sout14_C_0_eq, xblk14_eq V c ⟨n + 1, h⟩ h', bblk14_eq V c ⟨n + 1, h⟩, cblk14_eq V c ⟨n + 1, h⟩ h']
      show k14_pay5 _ _ _ (outsAt14 V c n _).2.2.2 = k14_pay5 _ _ _ (acc14 _ _ _ n _)
      rw [ih]
    · rw [outsAt14_B V c ⟨n + 1, h⟩ (fun e => by have e' : (n + 1) % 25 = 0 := e; omega) (fun e => by have e' : (n + 1) % 25 = 24 := e; omega)]
      dsimp only
      rw [sout14_B_0_eq, xblk14_eq V c ⟨n + 1, h⟩ h', bblk14_eq V c ⟨n + 1, h⟩, cblk14_eq V c ⟨n + 1, h⟩ h']
      show k14_pay5 _ _ _ (outsAt14 V c n _).2.2.2 = k14_pay5 _ _ _ (acc14 _ _ _ n _)
      rw [ih]

/-- At the last point the one-row result's buffer is left holding the whole fold. -/
theorem outsAt14_last (c : Dev nD) (t : Fin cfg14.N) (h24 : t.val = 24) :
    (outsAt14 V c t.val t.isLt).2.2.1 = G14_5 (xarr14 V c) (barr14 V c) (carr14 V c) := by
  obtain ⟨n, hn⟩ := t
  obtain rfl : n = 24 := h24
  rw [outsAt14_C V c ⟨24, hn⟩ (fun e => by have e' : (24 : ℕ) % 25 = 0 := e; omega) (by show (24 : ℕ) % 25 = 24; omega)]
  dsimp only
  rw [out14_C_5_eq, xblk14_eq V c ⟨24, hn⟩ (by show (24 : ℕ) < 25; omega), bblk14_eq V c ⟨24, hn⟩, cblk14_eq V c ⟨24, hn⟩ (by show (24 : ℕ) < 25; omega)]
  show k14_pay5 _ _ _ (outsAt14 V c 23 _).2.2.2 = k14_pay5 _ _ _ (acc14 _ _ _ 23 _)
  rw [outsAt14_acc V c 23 _ (by decide)]

/-! ## The full-size result arrays after the run -/

/-- What point t writes back of the first full-size result array is block t of G14_3 of the arrays. -/
theorem flushed14_3 (c : Dev nD) (t : Fin cfg14.N) :
    (dat14 V c).flushed 3 t = ((cfg14.win 3).blk t).view.read (Elt F) (G14_3 (xarr14 V c) (barr14 V c) (carr14 V c)) := by
  have hN : t.val < 25 := lt_of_lt_of_eq t.isLt (show cfg14.N = 25 from N_14)
  have hi := index14_3 t
  show (cfg14.win 3).cut (grid14.coords t) ((dat14 V c).after 3 t) = _
  rw [after14_3, outsAt14_pre V c t.val t.isLt hN]
  funext j
  have hj0 : (j 0).val < 2000 := (j 0).isLt
  show k14_pay3 (tile14 (xarr14 V c) ⟨t.val, hN⟩) (barr14 V c) (tile14 (carr14 V c) ⟨t.val, hN⟩) j = G14_3 (xarr14 V c) (barr14 V c) (carr14 V c) (((cfg14.win 3).blk t).view.emb j)
  have hrow : ((((cfg14.win 3).blk t).view.emb j : S50000x64.Idx) 0).val = t.val * 2000 + (j 0).val := by
    show win14_3.index t 0 * 2000 + 1 * (j 0).val = t.val * 2000 + (j 0).val
    rw [hi.1]; omega
  have hcol : ((((cfg14.win 3).blk t).view.emb j : S50000x64.Idx) 1).val = (j 1).val := by
    show win14_3.index t 1 * 64 + 1 * (j 1).val = (j 1).val
    rw [hi.2]; omega
  unfold G14_3
  have htile : (⟨((((cfg14.win 3).blk t).view.emb j : S50000x64.Idx) 0).val / 2000, by have := idx2_lt0 (((cfg14.win 3).blk t).view.emb j : S50000x64.Idx); omega⟩ : Fin 25) = ⟨t.val, hN⟩ :=
    Fin.ext (by show ((((cfg14.win 3).blk t).view.emb j : S50000x64.Idx) 0).val / 2000 = t.val; rw [hrow]; omega)
  have hplace : (ix2 ⟨((((cfg14.win 3).blk t).view.emb j : S50000x64.Idx) 0).val % 2000, Nat.mod_lt _ (by decide)⟩ ((((cfg14.win 3).blk t).view.emb j : S50000x64.Idx) 1) : S2000x64.Idx) = j := by
    funext d; apply Fin.ext
    match d with
    | ⟨0, _⟩ => show ((((cfg14.win 3).blk t).view.emb j : S50000x64.Idx) 0).val % 2000 = (j 0).val; rw [hrow]; omega
    | ⟨1, _⟩ => exact hcol
  rw [htile, hplace]

/-- An index of the array is in point t's block iff each coordinate is in the block's range on its axis. -/
theorem mem_blk14_3 (t : Fin cfg14.N) (i : S50000x64.Idx) :
    i ∈ ((cfg14.win 3).blk t).view.set ↔ ∀ a : Fin 2, win14_3.index t a * S2000x64.size a ≤ (i a).val ∧ (i a).val < win14_3.index t a * S2000x64.size a + S2000x64.size a := by
  show i ∈ ((View.whole (Pipeline.arrRef spec14 3)).slice (win14_3.rect t)).set ↔ _
  rw [View.set_slice_whole, Rect.mem_set_unit]
  exact Iff.rfl

/-- Every index of the array is in some point's block: row r in the block of point r / 2000. -/
theorem covered14_3 (i : S50000x64.Idx) :
    ∃ t : Fin cfg14.N, (cfg14.win 3).flush t = true ∧ i ∈ ((cfg14.win 3).blk t).view.set := by
  have hi0 : (i 0).val < 50000 := (i 0).isLt
  refine ⟨⟨(i 0).val / 2000, by rw [show cfg14.N = 25 from N_14]; omega⟩, flush14_3 _, ?_⟩
  have hi := index14_3 ⟨(i 0).val / 2000, by rw [show cfg14.N = 25 from N_14]; omega⟩
  rw [mem_blk14_3]
  intro a
  match a with
  | ⟨0, _⟩ =>
    show win14_3.index _ 0 * 2000 ≤ (i 0).val ∧ (i 0).val < win14_3.index _ 0 * 2000 + 2000
    rw [hi.1]; show (i 0).val / 2000 * 2000 ≤ (i 0).val ∧ (i 0).val < (i 0).val / 2000 * 2000 + 2000; omega
  | ⟨1, _⟩ =>
    show win14_3.index _ 1 * S2000x64.size 1 ≤ (i 1).val ∧ (i 1).val < win14_3.index _ 1 * S2000x64.size 1 + S2000x64.size 1
    rw [hi.2, Nat.zero_mul, Nat.zero_add]; exact ⟨Nat.zero_le _, (i 1).isLt⟩

/-- So the first full-size result array ends holding G14_3 of the three arrays. -/
theorem final14_3 (c : Dev nD) :
    (dat14 V c).arrAt 3 cfg14.N = G14_3 (V c (Pipeline.arrRef spec14 0)) (V c (Pipeline.arrRef spec14 1)) (V c (Pipeline.arrRef spec14 2)) :=
  (dat14 V c).arrAt_eq_of_cover 3 (G14_3 (xarr14 V c) (barr14 V c) (carr14 V c)) (fun t _ => flushed14_3 V c t) covered14_3

/-- What point t writes back of the second full-size result array is block t of G14_4 of the arrays. -/
theorem flushed14_4 (c : Dev nD) (t : Fin cfg14.N) :
    (dat14 V c).flushed 4 t = ((cfg14.win 4).blk t).view.read (Elt F) (G14_4 (xarr14 V c) (barr14 V c) (carr14 V c)) := by
  have hN : t.val < 25 := lt_of_lt_of_eq t.isLt (show cfg14.N = 25 from N_14)
  have hi := index14_4 t
  show (cfg14.win 4).cut (grid14.coords t) ((dat14 V c).after 4 t) = _
  rw [after14_4, outsAt14_cum V c t.val t.isLt hN]
  funext j
  have hj0 : (j 0).val < 2000 := (j 0).isLt
  show k14_pay4 (tile14 (xarr14 V c) ⟨t.val, hN⟩) (barr14 V c) (tile14 (carr14 V c) ⟨t.val, hN⟩) j = G14_4 (xarr14 V c) (barr14 V c) (carr14 V c) (((cfg14.win 4).blk t).view.emb j)
  have hrow : ((((cfg14.win 4).blk t).view.emb j : S50000x64.Idx) 0).val = t.val * 2000 + (j 0).val := by
    show win14_4.index t 0 * 2000 + 1 * (j 0).val = t.val * 2000 + (j 0).val
    rw [hi.1]; omega
  have hcol : ((((cfg14.win 4).blk t).view.emb j : S50000x64.Idx) 1).val = (j 1).val := by
    show win14_4.index t 1 * 64 + 1 * (j 1).val = (j 1).val
    rw [hi.2]; omega
  unfold G14_4
  have htile : (⟨((((cfg14.win 4).blk t).view.emb j : S50000x64.Idx) 0).val / 2000, by have := idx2_lt0 (((cfg14.win 4).blk t).view.emb j : S50000x64.Idx); omega⟩ : Fin 25) = ⟨t.val, hN⟩ :=
    Fin.ext (by show ((((cfg14.win 4).blk t).view.emb j : S50000x64.Idx) 0).val / 2000 = t.val; rw [hrow]; omega)
  have hplace : (ix2 ⟨((((cfg14.win 4).blk t).view.emb j : S50000x64.Idx) 0).val % 2000, Nat.mod_lt _ (by decide)⟩ ((((cfg14.win 4).blk t).view.emb j : S50000x64.Idx) 1) : S2000x64.Idx) = j := by
    funext d; apply Fin.ext
    match d with
    | ⟨0, _⟩ => show ((((cfg14.win 4).blk t).view.emb j : S50000x64.Idx) 0).val % 2000 = (j 0).val; rw [hrow]; omega
    | ⟨1, _⟩ => exact hcol
  rw [htile, hplace]

/-- An index of the array is in point t's block iff each coordinate is in the block's range on its axis. -/
theorem mem_blk14_4 (t : Fin cfg14.N) (i : S50000x64.Idx) :
    i ∈ ((cfg14.win 4).blk t).view.set ↔ ∀ a : Fin 2, win14_4.index t a * S2000x64.size a ≤ (i a).val ∧ (i a).val < win14_4.index t a * S2000x64.size a + S2000x64.size a := by
  show i ∈ ((View.whole (Pipeline.arrRef spec14 4)).slice (win14_4.rect t)).set ↔ _
  rw [View.set_slice_whole, Rect.mem_set_unit]
  exact Iff.rfl

/-- Every index of the array is in some point's block: row r in the block of point r / 2000. -/
theorem covered14_4 (i : S50000x64.Idx) :
    ∃ t : Fin cfg14.N, (cfg14.win 4).flush t = true ∧ i ∈ ((cfg14.win 4).blk t).view.set := by
  have hi0 : (i 0).val < 50000 := (i 0).isLt
  refine ⟨⟨(i 0).val / 2000, by rw [show cfg14.N = 25 from N_14]; omega⟩, flush14_4 _, ?_⟩
  have hi := index14_4 ⟨(i 0).val / 2000, by rw [show cfg14.N = 25 from N_14]; omega⟩
  rw [mem_blk14_4]
  intro a
  match a with
  | ⟨0, _⟩ =>
    show win14_4.index _ 0 * 2000 ≤ (i 0).val ∧ (i 0).val < win14_4.index _ 0 * 2000 + 2000
    rw [hi.1]; show (i 0).val / 2000 * 2000 ≤ (i 0).val ∧ (i 0).val < (i 0).val / 2000 * 2000 + 2000; omega
  | ⟨1, _⟩ =>
    show win14_4.index _ 1 * S2000x64.size 1 ≤ (i 1).val ∧ (i 1).val < win14_4.index _ 1 * S2000x64.size 1 + S2000x64.size 1
    rw [hi.2, Nat.zero_mul, Nat.zero_add]; exact ⟨Nat.zero_le _, (i 1).isLt⟩

/-- So the second full-size result array ends holding G14_4 of the three arrays. -/
theorem final14_4 (c : Dev nD) :
    (dat14 V c).arrAt 4 cfg14.N = G14_4 (V c (Pipeline.arrRef spec14 0)) (V c (Pipeline.arrRef spec14 1)) (V c (Pipeline.arrRef spec14 2)) :=
  (dat14 V c).arrAt_eq_of_cover 4 (G14_4 (xarr14 V c) (barr14 V c) (carr14 V c)) (fun t _ => flushed14_4 V c t) covered14_4

/-! ## The one-row result array after the run -/

/-- The one write-back (at the last point) writes the fold: the result's block there is the whole one-row array. -/
theorem flushed14_5 (c : Dev nD) (t : Fin cfg14.N) (hf : (cfg14.win 5).flush t = true) :
    (dat14 V c).flushed 5 t = ((cfg14.win 5).blk t).view.read (Elt F) (G14_5 (xarr14 V c) (barr14 V c) (carr14 V c)) := by
  have hN : t.val < 25 := lt_of_lt_of_eq t.isLt (show cfg14.N = 25 from N_14)
  have h24 : t.val = 24 := by have := (flush14_5 t).mp hf; omega
  have hi := index14_5 t
  show (cfg14.win 5).cut (grid14.coords t) ((dat14 V c).after 5 t) = _
  rw [after14_5, outsAt14_last V c t h24]
  have hz' : (fun a => win14_5.index t a * main_v193_2.ty.shape.size a) = fun _ => 0 := funext fun a => by
    match a with
    | ⟨0, _⟩ => show win14_5.index t 0 * _ = 0; rw [hi.1, Nat.zero_mul]
    | ⟨1, _⟩ => show win14_5.index t 1 * _ = 0; rw [hi.2, Nat.zero_mul]
  exact (Memref.read_access_unit_zero (Elt F) main_v193_2 hz' (fun a => by rw [congrFun hz' a]; simp) (G14_5 (xarr14 V c) (barr14 V c) (carr14 V c))).symm

/-- So the one-row result array ends holding the fold. -/
theorem final14_5 (c : Dev nD) :
    (dat14 V c).arrAt 5 cfg14.N = G14_5 (V c (Pipeline.arrRef spec14 0)) (V c (Pipeline.arrRef spec14 1)) (V c (Pipeline.arrRef spec14 2)) := by
  have h24 : (24 : ℕ) < cfg14.N := by rw [show cfg14.N = 25 from N_14]; omega
  refine (dat14 V c).arrAt_eq_of_cover 5 (G14_5 (xarr14 V c) (barr14 V c) (carr14 V c)) (flushed14_5 V c) fun i =>
    ⟨⟨24, h24⟩, (flush14_5 _).mpr rfl, ?_⟩
  have hi := index14_5 ⟨24, h24⟩
  have hx := xsize14_5 ⟨24, h24⟩
  show i ∈ ((View.whole main_v193_2).slice (win14_5.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win14_5.index ⟨24, h24⟩ 0 * win14_5.size 0 ≤ (i 0 : Nat) ∧ (i 0 : Nat) < win14_5.index ⟨24, h24⟩ 0 * win14_5.size 0 + win14_5.xsize (grid14.coords ⟨24, h24⟩) 0
    rw [hi.1, hx.1]; omega
  | ⟨1, _⟩ =>
    show win14_5.index ⟨24, h24⟩ 1 * win14_5.size 1 ≤ (i 1 : Nat) ∧ (i 1 : Nat) < win14_5.index ⟨24, h24⟩ 1 * win14_5.size 1 + win14_5.xsize (grid14.coords ⟨24, h24⟩) 1
    rw [hi.2, hx.2]; omega

/-! ## At the ideal values, at an index -/

section IdealReading
open scoped BigOperators

/-- The zero row, at a column. -/
theorem pay1_apply14 (q : Fin 64) : (k14_pay1 (F := Ideal)) (ix2 (0 : Fin 1) q) = 0 := by
  unfold k14_pay1
  simp only [shapeCast_self]
  exact Ideal.ofBits_zero_f32

/-- The block plus the bias row, at an entry. -/
theorem pay2_apply14 (x : FVec Ideal S2000x64 .f32) (b : FVec Ideal S1x64 .f32) (r : Fin 2000) (q : Fin 64) :
    k14_pay2 (F := Ideal) x b (ix2 r q) = x (ix2 r q) + b (ix2 (0 : Fin 1) q) := by
  unfold k14_pay2
  simp only [shapeCast_self]
  refine (addf_apply _ _ _).trans ?_
  have hb : ∀ (h : S1x64.Broadcasts S2000x64), broadcastTo S2000x64 b h (ix2 r q) = b (ix2 (0 : Fin 1) q) :=
    fun h => broadcastTo_1b_ab_apply (a := 2000) (b := 64) b h r q
  rw [hb]

/-- The first full-size payload, at an entry: (block + bias) + carried block. -/
theorem pay3_apply14 (x : FVec Ideal S2000x64 .f32) (b : FVec Ideal S1x64 .f32) (cin : FVec Ideal S2000x64 .f32) (r : Fin 2000) (q : Fin 64) :
    k14_pay3 (F := Ideal) x b cin (ix2 r q) = (x (ix2 r q) + b (ix2 (0 : Fin 1) q)) + cin (ix2 r q) := by
  unfold k14_pay3
  simp only [shapeCast_self]
  refine (addf_apply _ _ _).trans ?_
  rw [pay2_apply14]

/-- The second full-size payload, at an entry: carried block + (block + bias). -/
theorem pay4_apply14 (x : FVec Ideal S2000x64 .f32) (b : FVec Ideal S1x64 .f32) (cin : FVec Ideal S2000x64 .f32) (r : Fin 2000) (q : Fin 64) :
    k14_pay4 (F := Ideal) x b cin (ix2 r q) = cin (ix2 r q) + (x (ix2 r q) + b (ix2 (0 : Fin 1) q)) := by
  unfold k14_pay4
  simp only [shapeCast_self]
  refine (addf_apply _ _ _).trans ?_
  rw [pay2_apply14]

/-- The tile step, at a column: the accumulator's entry plus the tile's column sum of the first result's rows. -/
theorem pay5_apply14 (x : FVec Ideal S2000x64 .f32) (b : FVec Ideal S1x64 .f32) (cin : FVec Ideal S2000x64 .f32) (acc : FVec Ideal S1x64 .f32) (q : Fin 64) :
    k14_pay5 (F := Ideal) x b cin acc (ix2 (0 : Fin 1) q)
      = acc (ix2 (0 : Fin 1) q) + ∑ r : Fin 2000, ((x (ix2 r q) + b (ix2 (0 : Fin 1) q)) + cin (ix2 r q)) := by
  unfold k14_pay5
  simp only [shapeCast_self]
  refine (addf_apply _ _ _).trans ?_
  refine congrArg (acc (ix2 (0 : Fin 1) q) + ·) ?_
  refine (shapeCast_a_1a_apply _ _ (0 : Fin 1) q).trans ?_
  refine (Ideal.multiReduction_add_single _ _ _ _ _ (ix1 q)).trans ?_
  refine Finset.sum_congr rfl fun (r : Fin 2000) _ => ?_
  have hl : ∀ (h : S2000x64.Reduces [0] S64), h.lift (ix1 q) r = ix2 r q :=
    fun h => funext fun a => Fin.ext (by fin_cases a <;> rfl)
  rw [hl, pay3_apply14]

/-- Row r of tile s. -/
def row14 (s : ℕ) (hs : s < 25) (r : Fin 2000) : Fin 50000 := ⟨2000 * s + r.val, by have := r.isLt; omega⟩

/-- A row is row (r mod 2000) of tile (r div 2000). -/
theorem ix_row14 (r : Fin 50000) (q : Fin 64) :
    (ix2 (⟨2000 * (r.val / 2000) + r.val % 2000, by have := r.isLt; omega⟩ : Fin 50000) q : S50000x64.Idx) = ix2 r q := by
  funext d; apply Fin.ext
  match d with
  | ⟨0, _⟩ => show 2000 * (r.val / 2000) + r.val % 2000 = r.val; omega
  | ⟨1, _⟩ => rfl

/-- THE FIRST FULL-SIZE RESULT at the ideal values: (aggregate + bias of the column) + carried-in entry. -/
theorem G14_3_apply (X : FVec Ideal S50000x64 .f32) (B : FVec Ideal S1x64 .f32) (C : FVec Ideal S50000x64 .f32) (r : Fin 50000) (q : Fin 64) :
    G14_3 (F := Ideal) X B C (ix2 r q) = (X (ix2 r q) + B (ix2 (0 : Fin 1) q)) + C (ix2 r q) := by
  unfold G14_3
  rw [pay3_apply14, tile14_apply, tile14_apply]
  exact congrArg (fun z => (X z + B (ix2 (0 : Fin 1) q)) + C z) (ix_row14 r q)

/-- THE SECOND FULL-SIZE RESULT at the ideal values: carried-in entry + (aggregate + bias of the column). -/
theorem G14_4_apply (X : FVec Ideal S50000x64 .f32) (B : FVec Ideal S1x64 .f32) (C : FVec Ideal S50000x64 .f32) (r : Fin 50000) (q : Fin 64) :
    G14_4 (F := Ideal) X B C (ix2 r q) = C (ix2 r q) + (X (ix2 r q) + B (ix2 (0 : Fin 1) q)) := by
  unfold G14_4
  rw [pay4_apply14, tile14_apply, tile14_apply]
  exact congrArg (fun z => C z + (X z + B (ix2 (0 : Fin 1) q))) (ix_row14 r q)

/-- The fold after tile n, at a column: the tiles' column sums added up in tile order. -/
theorem acc14_apply (X : FVec Ideal S50000x64 .f32) (B : FVec Ideal S1x64 .f32) (C : FVec Ideal S50000x64 .f32) (q : Fin 64) : ∀ (n : ℕ) (h : n < 25),
    acc14 (F := Ideal) X B C n h (ix2 (0 : Fin 1) q)
      = ∑ s : Fin (n + 1), ∑ r : Fin 2000,
          ((X (ix2 (row14 s.val (by have := s.isLt; omega) r) q) + B (ix2 (0 : Fin 1) q)) + C (ix2 (row14 s.val (by have := s.isLt; omega) r) q))
  | 0, h => by
    show k14_pay5 (F := Ideal) _ _ _ _ (ix2 (0 : Fin 1) q) = _
    rw [pay5_apply14, pay1_apply14, zero_add, Fin.sum_univ_one]
    rfl
  | n + 1, h => by
    show k14_pay5 (F := Ideal) _ _ _ _ (ix2 (0 : Fin 1) q) = _
    rw [Fin.sum_univ_castSucc, pay5_apply14, acc14_apply X B C q n (Nat.lt_of_succ_lt h)]
    rfl

/-- Twenty-five tiles of 2000 rows are the 50000 rows. -/
theorem sum_tiles14 (f : Fin 50000 → EReal) :
    ∑ s : Fin 25, ∑ r : Fin 2000, f (row14 s.val s.isLt r) = ∑ i : Fin 50000, f i := by
  rw [← Equiv.sum_comp (finProdFinEquiv (m := 25) (n := 2000)) f, Fintype.sum_prod_type]
  refine Finset.sum_congr rfl fun s _ => Finset.sum_congr rfl fun r _ => congrArg f (Fin.ext ?_)
  show 2000 * s.val + r.val = r.val + 2000 * s.val
  omega

/-- THE ONE-ROW RESULT at the ideal values: column q is the column's sum, over all the rows, of the first result's entries. -/
theorem G14_5_apply (X : FVec Ideal S50000x64 .f32) (B : FVec Ideal S1x64 .f32) (C : FVec Ideal S50000x64 .f32) (q : Fin 64) :
    G14_5 (F := Ideal) X B C (ix2 (0 : Fin 1) q)
      = Cert.Val.colSum (fun i j => (X (ix2 i j) + B (ix2 (0 : Fin 1) j)) + C (ix2 i j)) q := by
  unfold G14_5 Cert.Val.colSum
  rw [acc14_apply X B C q 24 (by omega)]
  exact sum_tiles14 (fun i => (X (ix2 i q) + B (ix2 (0 : Fin 1) q)) + C (ix2 i q))

end IdealReading

end Cert.KernelIdeal.Hand

end
-- ==== Proof.KI.R15v.lean ====
import proofs.«408084_j48395691492010_3_alg».proof.Proof.KI.R15
import proofs.«408084_j48395691492010_3_alg».proof.Proof.KI.R3v

/-! Region 15, the value: the same kernel as region 3 at the same shapes, so the result is the same function `G3_2` of this
region's two arrays — the fold over the 25 row tiles, from the zero row, of each tile's column sum of squared deviations.
The found pieces read back and the fold's reading at the ideal values are region 3's; here: this region's blocks as
tiles of its arrays, the accumulator after each point as the fold (by induction on the point), and the result array. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The [50000, D] array of the rows, as the region finds it, -/
noncomputable abbrev xarr15 (c : Dev nD) : Vec F S50000x64 .f32 := V c (Pipeline.arrRef spec15 0)
/-- and the one row of column means. -/
noncomputable abbrev marr15 (c : Dev nD) : Vec F S1x64 .f32 := V c (Pipeline.arrRef spec15 1)

theorem index15_0 : ∀ t : Fin cfg15.N, win15_0.index t 0 = t.val ∧ win15_0.index t 1 = 0 :=
  (by decide +kernel : ∀ t : Fin grid15.N, win15_0.index t 0 = t.val ∧ win15_0.index t 1 = 0)
theorem index15_1 : ∀ t : Fin cfg15.N, win15_1.index t 0 = 0 ∧ win15_1.index t 1 = 0 :=
  (by decide +kernel : ∀ t : Fin grid15.N, win15_1.index t 0 = 0 ∧ win15_1.index t 1 = 0)
theorem index15_2 : ∀ t : Fin cfg15.N, win15_2.index t 0 = 0 ∧ win15_2.index t 1 = 0 :=
  (by decide +kernel : ∀ t : Fin grid15.N, win15_2.index t 0 = 0 ∧ win15_2.index t 1 = 0)
theorem xsize15_2 : ∀ t : Fin cfg15.N, win15_2.xsize (grid15.coords t) 0 = 1 ∧ win15_2.xsize (grid15.coords t) 1 = 64 :=
  (by decide +kernel : ∀ t : Fin grid15.N, win15_2.xsize (grid15.coords t) 0 = 1 ∧ win15_2.xsize (grid15.coords t) 1 = 64)

/-- The row-tile window's block at point `t` is row tile `t` of the array. -/
theorem xblk15_eq (c : Dev nD) (t : Fin cfg15.N) (hN : t.val < 25) :
    (iblk15 V c 0 t : Vec F S2000x64 .f32) = tile3 (xarr15 V c) ⟨t.val, hN⟩ := by
  have hi := index15_0 t
  funext j
  unfold iblk15 tile3
  rw [View.read_apply]
  show V c (Pipeline.arrRef spec15 0) _ = V c (Pipeline.arrRef spec15 0) _
  congr 1
  funext a
  apply Fin.ext
  match a with
  | ⟨0, _⟩ => show win15_0.index t 0 * 2000 + 1 * (j 0).val = 2000 * t.val + (j 0).val; rw [hi.1]; omega
  | ⟨1, _⟩ => show win15_0.index t 1 * 64 + 1 * (j 1).val = (j 1).val; rw [hi.2]; omega

/-- The mean window's block is the whole one-row array, at every point. -/
theorem mblk15_eq (c : Dev nD) (t : Fin cfg15.N) : (iblk15 V c 1 t : Vec F S1x64 .f32) = marr15 V c := by
  have hi := index15_1 t
  funext j
  unfold iblk15
  rw [View.read_apply]
  show V c (Pipeline.arrRef spec15 1) _ = V c (Pipeline.arrRef spec15 1) j
  congr 1
  funext a
  apply Fin.ext
  match a with
  | ⟨0, _⟩ => show win15_1.index t 0 * 1 + 1 * (j 0).val = (j 0).val; rw [hi.1]; omega
  | ⟨1, _⟩ => show win15_1.index t 1 * 64 + 1 * (j 1).val = (j 1).val; rw [hi.2]; omega

/-- What the accumulator holds after point `n` is the fold up to tile `n`: by induction on the point. -/
theorem outsAt15_acc (c : Dev nD) : ∀ (n : ℕ) (h : n < cfg15.N) (h' : n < 25),
    (outsAt15 V c n h).2 = acc3 (xarr15 V c) (marr15 V c) n h'
  | 0, h, h' => by
    rw [outsAt15_A V c ⟨0, h⟩ rfl (fun e => by have e' : (0 : ℕ) = 24 := e; omega)]
    dsimp only
    rw [sout3_A_eq, xblk15_eq V c ⟨0, h⟩ h', mblk15_eq V c ⟨0, h⟩]
    rfl
  | n + 1, h, h' => by
    have ih := outsAt15_acc c n (Nat.lt_of_succ_lt h) (Nat.lt_of_succ_lt h')
    by_cases h24 : n + 1 = 24
    · rw [outsAt15_C V c ⟨n + 1, h⟩ (Nat.succ_ne_zero n) h24]
      dsimp only
      rw [sout3_C_eq, xblk15_eq V c ⟨n + 1, h⟩ h', mblk15_eq V c ⟨n + 1, h⟩]
      show k3_pay2 _ _ (outsAt15 V c n _).2 = k3_pay2 _ _ (acc3 _ _ n _)
      rw [ih]
    · rw [outsAt15_B V c ⟨n + 1, h⟩ (Nat.succ_ne_zero n) h24]
      dsimp only
      rw [sout3_B_eq, xblk15_eq V c ⟨n + 1, h⟩ h', mblk15_eq V c ⟨n + 1, h⟩]
      show k3_pay2 _ _ (outsAt15 V c n _).2 = k3_pay2 _ _ (acc3 _ _ n _)
      rw [ih]

/-- At the last point the result's buffer is left holding the whole fold. -/
theorem outsAt15_last (c : Dev nD) (t : Fin cfg15.N) (h24 : t.val = 24) :
    (outsAt15 V c t.val t.isLt).1 = G3_2 (xarr15 V c) (marr15 V c) := by
  obtain ⟨n, hn⟩ := t
  obtain rfl : n = 24 := h24
  rw [outsAt15_C V c ⟨24, hn⟩ (fun e => by have e' : (24 : ℕ) = 0 := e; omega) rfl]
  dsimp only
  rw [out3_C_eq, xblk15_eq V c ⟨24, hn⟩ (by show (24 : ℕ) < 25; omega), mblk15_eq V c ⟨24, hn⟩]
  show k3_pay2 _ _ (outsAt15 V c 23 _).2 = k3_pay2 _ _ (acc3 _ _ 23 _)
  rw [outsAt15_acc V c 23 _ (by decide)]

/-- The one write-back (at the last point) writes the fold: the result's block there is the whole one-row array. -/
theorem flushed15_2 (c : Dev nD) (t : Fin cfg15.N) (hf : (cfg15.win 2).flush t = true) :
    (dat15 V c).flushed 2 t = ((cfg15.win 2).blk t).view.read (Elt F) (G3_2 (xarr15 V c) (marr15 V c)) := by
  have hN : t.val < 25 := lt_of_lt_of_eq t.isLt (show cfg15.N = 25 from N_15)
  have h24 : t.val = 24 := by have := (flush15_2 t).mp hf; omega
  have hi := index15_2 t
  show (cfg15.win 2).cut (grid15.coords t) ((dat15 V c).after 2 t) = _
  rw [after15_2, outsAt15_last V c t h24]
  have hz' : (fun a => win15_2.index t a * main_v196.ty.shape.size a) = fun _ => 0 := funext fun a => by
    match a with
    | ⟨0, _⟩ => show win15_2.index t 0 * _ = 0; rw [hi.1, Nat.zero_mul]
    | ⟨1, _⟩ => show win15_2.index t 1 * _ = 0; rw [hi.2, Nat.zero_mul]
  exact (Memref.read_access_unit_zero (Elt F) main_v196 hz' (fun a => by rw [congrFun hz' a]; simp) (G3_2 (xarr15 V c) (marr15 V c))).symm

/-- So the result array ends holding the fold: region 3's function of this region's two arrays. -/
theorem final15_2 (c : Dev nD) : (dat15 V c).arrAt 2 cfg15.N = G3_2 (V c (Pipeline.arrRef spec15 0)) (V c (Pipeline.arrRef spec15 1)) := by
  have h24 : (24 : ℕ) < cfg15.N := by rw [show cfg15.N = 25 from N_15]; omega
  refine (dat15 V c).arrAt_eq_of_cover 2 (G3_2 (xarr15 V c) (marr15 V c)) (flushed15_2 V c) fun i =>
    ⟨⟨24, h24⟩, (flush15_2 _).mpr rfl, ?_⟩
  have hi := index15_2 ⟨24, h24⟩
  have hx := xsize15_2 ⟨24, h24⟩
  show i ∈ ((View.whole main_v196).slice (win15_2.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win15_2.index ⟨24, h24⟩ 0 * win15_2.size 0 ≤ (i 0 : Nat) ∧ (i 0 : Nat) < win15_2.index ⟨24, h24⟩ 0 * win15_2.size 0 + win15_2.xsize (grid15.coords ⟨24, h24⟩) 0
    rw [hi.1, hx.1]; omega
  | ⟨1, _⟩ =>
    show win15_2.index ⟨24, h24⟩ 1 * win15_2.size 1 ≤ (i 1 : Nat) ∧ (i 1 : Nat) < win15_2.index ⟨24, h24⟩ 1 * win15_2.size 1 + win15_2.xsize (grid15.coords ⟨24, h24⟩) 1
    rw [hi.2, hx.2]; omega

end Cert.KernelIdeal.Hand

end
-- ==== Proof.KI.R16v.lean ====
import proofs.«408084_j48395691492010_3_alg».proof.Proof.KI.R16
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws

/-!
# Region 16: the array it leaves, as one function of the arrays it finds

Every grid point writes one block of 2000 rows of the output, and the 25 blocks tile the 50000 rows; the four
single-row inputs are the same block at every point. So the output array after the run is one function of the five
arrays the region finds. Entry (r, q) is computed from row r of the activations alone:

  bn[r,k] = (x[r,k] - mean[k]) * rsqrt (var[k] + eps) * gamma[k] + beta[k],
  out[r,q] = exp (bn[r,q] - max_k bn[r,k]) / (1 + Σ_k exp (bn[r,k] - max_k bn[r,k])).

At a generic float instance the row's sum is the instance's reduction of the whole 2000-row block that holds the
row, so the function is stated through that block; over the extended reals the reduction is a sum over the row and
the block drops out.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable {F : FTy → Type} [FloatOps F]

/-! ## The layout operations of the body, read at an index -/

section Layout16
variable {α : Type}

/-- A vector of 2000 entries cast to a column reads, at (p, 0), entry p. -/
theorem castCol16 (v : S2000.Idx → α) (h : S2000.ShapeCasts S2000x1) :
    shapeCast S2000x1 v h = fun y => v (ix1 (y 0)) := by
  funext y
  obtain ⟨p, u, rfl⟩ : ∃ (p : Fin 2000) (u : Fin 1), y = ix2 p u := ⟨y 0, y 1, eq_ix2 y⟩
  refine shapeCast_apply v h (ix2 p u) (ix1 p) ?_
  have hu : u.val = 0 := by omega
  rw [Shape.rowMajor_val_two, Shape.rowMajor_val_one]
  show p.val = p.val * 1 + u.val
  rw [hu, Nat.mul_one, Nat.add_zero]

/-- A column broadcast along the rows reads, at (p, k), the column's entry p. -/
theorem bcastCol16 (v : S2000x1.Idx → α) (h : S2000x1.Broadcasts S2000x64) :
    broadcastTo S2000x64 v h = fun y => v (ix2 (y 0) (0 : Fin 1)) := by
  funext y
  obtain ⟨p, k, rfl⟩ : ∃ (p : Fin 2000) (k : Fin 64), y = ix2 p k := ⟨y 0, y 1, eq_ix2 y⟩
  refine broadcastTo_apply v h (ix2 p k) (ix2 p (0 : Fin 1)) fun ax => ?_
  match ax with
  | ⟨0, _⟩ => rfl
  | ⟨1, _⟩ => rfl

/-- A single row broadcast down the block reads, at (p, k), the row's entry k. -/
theorem bcastRow16 (v : S1x64.Idx → α) (h : S1x64.Broadcasts S2000x64) :
    broadcastTo S2000x64 v h = fun y => v (ix2 (0 : Fin 1) (y 1)) := by
  funext y
  obtain ⟨p, k, rfl⟩ : ∃ (p : Fin 2000) (k : Fin 64), y = ix2 p k := ⟨y 0, y 1, eq_ix2 y⟩
  exact broadcastTo_1b_ab_apply v h p k

end Layout16

/-! ## The body's result on a block, by coordinates -/

/-- The batch-norm of a block, entry by entry, in the body's order of operations. -/
noncomputable def bn16 (v0 : Vec F S2000x64 .f32) (v2 v6 v13 v17 : Vec F S1x64 .f32) : FVec F S2000x64 .f32 := fun y =>
  FloatOps.addf (FloatOps.mulf (FloatOps.mulf (FloatOps.subf (v0 y) (v2 (ix2 (0 : Fin 1) (y 1))))
      (FloatOps.rsqrt (FloatOps.addf (v6 (ix2 (0 : Fin 1) (y 1))) (FloatOps.ofBits .f32 0x3727C5AC#32))))
      (v13 (ix2 (0 : Fin 1) (y 1)))) (v17 (ix2 (0 : Fin 1) (y 1)))

/-- Its row maxima: the body's reduction along the columns, started from minus infinity. -/
noncomputable def mx16 (v0 : Vec F S2000x64 .f32) (v2 v6 v13 v17 : Vec F S1x64 .f32) : FVec F S2000 .f32 :=
  multiReduction .maximumf [1] S2000 (bn16 v0 v2 v6 v13 v17) 0xFF800000#32 reduces_S2000x64_S2000 (.inl rfl) rfl

/-- The exponentials of the batch-norm less its row maximum. -/
noncomputable def e16 (v0 : Vec F S2000x64 .f32) (v2 v6 v13 v17 : Vec F S1x64 .f32) : FVec F S2000x64 .f32 := fun y =>
  FloatOps.exp (FloatOps.subf (bn16 v0 v2 v6 v13 v17 y) (mx16 v0 v2 v6 v13 v17 (ix1 (y 0))))

/-- Their row sums: the body's reduction along the columns, started from zero. -/
noncomputable def sm16 (v0 : Vec F S2000x64 .f32) (v2 v6 v13 v17 : Vec F S1x64 .f32) : FVec F S2000 .f32 :=
  multiReduction .add [1] S2000 (e16 v0 v2 v6 v13 v17) 0x00000000#32 reduces_S2000x64_S2000 (.inl rfl) rfl

/-- What the body stores: each exponential over one plus its row's sum. -/
noncomputable def P16 (v0 : Vec F S2000x64 .f32) (v2 v6 v13 v17 : Vec F S1x64 .f32) : Vec F S2000x64 .f32 := fun y =>
  FloatOps.divf (e16 v0 v2 v6 v13 v17 y)
    (FloatOps.addf (FloatOps.ofBits .f32 0x3F800000#32) (sm16 v0 v2 v6 v13 v17 (ix1 (y 0))))

/-- The skeleton's payload is that function: its layout operations read at an index, the rest unfolds. -/
theorem pay16_eq (v0 : Vec F S2000x64 .f32) (v2 v6 v13 v17 : Vec F S1x64 .f32) :
    k16_pay1 v0 v2 v6 v13 v17 = P16 v0 v2 v6 v13 v17 := by
  unfold k16_pay1
  simp only [shapeCast_self, bcastRow16, bcastCol16, castCol16]
  rfl

/-! ## The output array as one function of the arrays the region finds -/

/-- Rows q·2000 … q·2000 + 1999 of an array of 50000 rows. -/
noncomputable def rows16 (x : S50000x64.Idx → Elt F .f32) (q : Fin 25) : Vec F S2000x64 .f32 := fun y =>
  x (ix2 (⟨q.val * 2000 + (y 0).val, by have := idx2_lt0 y; have := q.isLt; omega⟩ : Fin 50000) (y 1))

/-- The block of 2000 rows that holds an entry's row, -/
noncomputable def blkOf16 (i : S50000x64.Idx) : Fin 25 := ⟨(i 0).val / 2000, by have := idx2_lt0 i; omega⟩
/-- and the row's place in it. -/
noncomputable def rowIn16 (i : S50000x64.Idx) : Fin 2000 := ⟨(i 0).val % 2000, Nat.mod_lt _ (by decide)⟩

/-- The output array: at each entry, the body's result on the block of 2000 rows of the activations that holds
    the entry's row, at the row's place in the block. -/
noncomputable def G16 (x : S50000x64.Idx → Elt F .f32) (mu va ga be : S1x64.Idx → Elt F .f32) : S50000x64.Idx → Elt F .f32 := fun i =>
  P16 (rows16 x (blkOf16 i)) mu va ga be (ix2 (rowIn16 i) (i 1))

/-- The output array read under block q at a place j of the block. -/
theorem G16_blk (x : S50000x64.Idx → Elt F .f32) (mu va ga be : S1x64.Idx → Elt F .f32) (q : Fin 25) (j : S2000x64.Idx)
    (i : S50000x64.Idx) (h0 : (i 0).val = q.val * 2000 + (j 0).val) (h1 : (i 1).val = (j 1).val) :
    G16 x mu va ga be i = P16 (rows16 x q) mu va ga be j := by
  have hj0 : (j 0).val < 2000 := idx2_lt0 j
  have hq : blkOf16 i = q := Fin.ext (by show (i 0).val / 2000 = q.val; omega)
  have hj : ix2 (rowIn16 i) (i 1) = j := by
    funext a
    match a with
    | ⟨0, _⟩ => exact Fin.ext (by show (i 0).val % 2000 = (j 0).val; omega)
    | ⟨1, _⟩ => exact Fin.ext h1
  unfold G16
  rw [hq]
  exact congrArg (P16 (rows16 x q) mu va ga be) hj

section Region16v
variable (V : (c : Dev nD) → (b : Ref sig .tc) → Buf (Elt F) ((c : Thread nD τ).loc b))

theorem hz16 : (![0, 0] : Fin 2 → Nat) = fun _ => 0 := funext fun a => by fin_cases a <;> rfl

/-- The windows' block indices, decided over the 25 grid points: the activations and the output move one block of
    rows per point, the four single rows stay. -/
theorem idx16 : ∀ t : Fin cfg16.N,
    win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = t.val ∧ win16_5.index t (1 : Fin 2) = 0 :=
  (by decide +kernel : ∀ t : Fin grid16.N, _)

/-- The activations' block at point t is rows t·2000 … of their array. -/
theorem iblk16_0_eq (c : Dev nD) (t : Fin cfg16.N) :
    (iblk16 V c 0 t : S2000x64.Idx → Elt F .f32) = rows16 (V c (Pipeline.arrRef spec16 0)) (t.cast N_16) := by
  obtain ⟨e0, e1, -⟩ := idx16 t
  funext y
  show V c (Pipeline.arrRef spec16 0) (((cfg16.win 0).blk t).view.emb y) = V c (Pipeline.arrRef spec16 0) _
  refine congrArg _ (funext fun a => Fin.ext ?_)
  match a with
  | ⟨0, _⟩ => show win16_0.index t (0 : Fin 2) * 2000 + 1 * (y 0).val = t.val * 2000 + (y 0).val; omega
  | ⟨1, _⟩ => show win16_0.index t (1 : Fin 2) * 64 + 1 * (y 1).val = (y 1).val; omega

/-- Each single row's block is, at every point, its whole array. -/
theorem iblk16_1_eq (c : Dev nD) (t : Fin cfg16.N) : (iblk16 V c 1 t : S1x64.Idx → Elt F .f32) = V c (Pipeline.arrRef spec16 1) := by
  obtain ⟨-, -, e0, e1, -⟩ := idx16 t
  funext y
  show V c (Pipeline.arrRef spec16 1) (((cfg16.win 1).blk t).view.emb y) = V c (Pipeline.arrRef spec16 1) y
  refine congrArg _ (funext fun a => Fin.ext ?_)
  match a with
  | ⟨0, _⟩ => show win16_1.index t (0 : Fin 2) * 1 + 1 * (y 0).val = (y 0).val; omega
  | ⟨1, _⟩ => show win16_1.index t (1 : Fin 2) * 64 + 1 * (y 1).val = (y 1).val; omega
theorem iblk16_2_eq (c : Dev nD) (t : Fin cfg16.N) : (iblk16 V c 2 t : S1x64.Idx → Elt F .f32) = V c (Pipeline.arrRef spec16 2) := by
  obtain ⟨-, -, -, -, e0, e1, -⟩ := idx16 t
  funext y
  show V c (Pipeline.arrRef spec16 2) (((cfg16.win 2).blk t).view.emb y) = V c (Pipeline.arrRef spec16 2) y
  refine congrArg _ (funext fun a => Fin.ext ?_)
  match a with
  | ⟨0, _⟩ => show win16_2.index t (0 : Fin 2) * 1 + 1 * (y 0).val = (y 0).val; omega
  | ⟨1, _⟩ => show win16_2.index t (1 : Fin 2) * 64 + 1 * (y 1).val = (y 1).val; omega
theorem iblk16_3_eq (c : Dev nD) (t : Fin cfg16.N) : (iblk16 V c 3 t : S1x64.Idx → Elt F .f32) = V c (Pipeline.arrRef spec16 3) := by
  obtain ⟨-, -, -, -, -, -, e0, e1, -⟩ := idx16 t
  funext y
  show V c (Pipeline.arrRef spec16 3) (((cfg16.win 3).blk t).view.emb y) = V c (Pipeline.arrRef spec16 3) y
  refine congrArg _ (funext fun a => Fin.ext ?_)
  match a with
  | ⟨0, _⟩ => show win16_3.index t (0 : Fin 2) * 1 + 1 * (y 0).val = (y 0).val; omega
  | ⟨1, _⟩ => show win16_3.index t (1 : Fin 2) * 64 + 1 * (y 1).val = (y 1).val; omega
theorem iblk16_4_eq (c : Dev nD) (t : Fin cfg16.N) : (iblk16 V c 4 t : S1x64.Idx → Elt F .f32) = V c (Pipeline.arrRef spec16 4) := by
  obtain ⟨-, -, -, -, -, -, -, -, e0, e1, -⟩ := idx16 t
  funext y
  show V c (Pipeline.arrRef spec16 4) (((cfg16.win 4).blk t).view.emb y) = V c (Pipeline.arrRef spec16 4) y
  refine congrArg _ (funext fun a => Fin.ext ?_)
  match a with
  | ⟨0, _⟩ => show win16_4.index t (0 : Fin 2) * 1 + 1 * (y 0).val = (y 0).val; omega
  | ⟨1, _⟩ => show win16_4.index t (1 : Fin 2) * 64 + 1 * (y 1).val = (y 1).val; omega

set_option maxHeartbeats 1000000 in
/-- What point t writes back is block t of the output array. -/
theorem flushed16_eq (c : Dev nD) (t : Fin cfg16.N) :
    (dat16 V c).flushed 5 t = ((cfg16.win 5).blk t).view.read (Elt F)
      (G16 (V c (Pipeline.arrRef spec16 0)) (V c (Pipeline.arrRef spec16 1)) (V c (Pipeline.arrRef spec16 2))
        (V c (Pipeline.arrRef spec16 3)) (V c (Pipeline.arrRef spec16 4))) := by
  show (cfg16.win 5).cut (grid16.coords t) ((dat16 V c).after 5 t) = _
  rw [after16_5]
  unfold out16_5
  rw [View.canon_unit_zero hz16]
  simp only [View.ld_unit_zero (S := S2000x64) hz16, View.ld_unit_zero (S := S1x64) hz16]
  rw [pay16_eq, iblk16_0_eq, iblk16_1_eq, iblk16_2_eq, iblk16_3_eq, iblk16_4_eq]
  obtain ⟨-, -, -, -, -, -, -, -, -, -, e0, e1⟩ := idx16 t
  funext j
  show P16 (rows16 _ (t.cast N_16)) _ _ _ _ j = G16 _ _ _ _ _ (((cfg16.win 5).blk t).view.emb j)
  refine (G16_blk _ _ _ _ _ (t.cast N_16) j (((cfg16.win 5).blk t).view.emb j) ?_ ?_).symm
  · show win16_5.index t (0 : Fin 2) * 2000 + 1 * (j 0).val = t.val * 2000 + (j 0).val; omega
  · show win16_5.index t (1 : Fin 2) * 64 + 1 * (j 1).val = (j 1).val; omega

/-- An entry of the array is in point t's block iff each coordinate is in the block's range on its axis. -/
theorem mem_blk16 (t : Fin cfg16.N) (i : S50000x64.Idx) :
    i ∈ ((cfg16.win 5).blk t).view.set ↔ ∀ a : Fin 2, win16_5.index t a * S2000x64.size a ≤ (i a).val ∧ (i a).val < win16_5.index t a * S2000x64.size a + S2000x64.size a := by
  show i ∈ ((View.whole main_v201).slice (win16_5.rect t)).set ↔ _
  rw [View.set_slice_whole, Rect.mem_set_unit]
  exact Iff.rfl

/-- Every entry is in the block of the point numbered by its row over 2000. -/
theorem covered16 (i : S50000x64.Idx) : ∃ t : Fin cfg16.N, (cfg16.win 5).flush t = true ∧ i ∈ ((cfg16.win 5).blk t).view.set := by
  have hi0 : (i 0).val < 50000 := idx2_lt0 i
  have hi1 : (i 1).val < 64 := idx2_lt1 i
  have ht : ∃ t : Fin cfg16.N, t.val = (i 0).val / 2000 := ⟨(⟨(i 0).val / 2000, by omega⟩ : Fin 25).cast N_16.symm, rfl⟩
  obtain ⟨t, ht⟩ := ht
  obtain ⟨-, -, -, -, -, -, -, -, -, -, e0, e1⟩ := idx16 t
  refine ⟨t, flush16_5 t, ?_⟩
  rw [mem_blk16]
  intro a
  match a with
  | ⟨0, _⟩ => show win16_5.index t (0 : Fin 2) * 2000 ≤ (i 0).val ∧ (i 0).val < win16_5.index t (0 : Fin 2) * 2000 + 2000; omega
  | ⟨1, _⟩ => show win16_5.index t (1 : Fin 2) * 64 ≤ (i 1).val ∧ (i 1).val < win16_5.index t (1 : Fin 2) * 64 + 64; omega

/-- The output array after the run. -/
theorem final16_5 (c : Dev nD) :
    (dat16 V c).arrAt 5 cfg16.N = G16 (V c (Pipeline.arrRef spec16 0)) (V c (Pipeline.arrRef spec16 1)) (V c (Pipeline.arrRef spec16 2))
      (V c (Pipeline.arrRef spec16 3)) (V c (Pipeline.arrRef spec16 4)) :=
  (dat16 V c).arrAt_eq_of_cover 5 _ (fun t _ => flushed16_eq V c t) covered16

end Region16v

/-! ## The output array over the extended reals, entry by entry -/

section Ideal16

/-- The source entry of a row reduction over a block: the result's row p with k put back on the column axis. -/
theorem lift16 (h : S2000x64.Reduces [1] S2000) (p : Fin 2000) (k : Fin 64) : h.lift (ix1 p) k = ix2 p k := by
  funext a
  match a with
  | ⟨0, _⟩ => exact Fin.ext rfl
  | ⟨1, _⟩ => exact Fin.ext rfl

section Block16
variable (X : Vec Ideal S2000x64 .f32) (mu va ga be : Vec Ideal S1x64 .f32)

/-- The block's batch-norm at an entry. -/
theorem bn16_apply (p : Fin 2000) (k : Fin 64) :
    bn16 (F := Ideal) X mu va ga be (ix2 p k)
      = ((X (ix2 p k) : EReal) - mu (ix2 0 k)) * Ideal.rsqrt (va (ix2 0 k) + Cert.Val.cEps) * ga (ix2 0 k) + be (ix2 0 k) := rfl

/-- A row's maximum: the fold of max over the row, from minus infinity. -/
theorem mx16_apply (p : Fin 2000) :
    mx16 (F := Ideal) X mu va ga be (ix1 p) = Cert.Val.rowMax (fun k : Fin 64 => bn16 (F := Ideal) X mu va ga be (ix2 p k)) := by
  unfold mx16
  refine (Ideal.multiReduction_maximumf_single (bn16 (F := Ideal) X mu va ga be) 0xFF800000#32 reduces_S2000x64_S2000 (.inl rfl) rfl
    (ix1 p)).trans ?_
  have hf : (bn16 (F := Ideal) X mu va ga be ∘ (reduces_S2000x64_S2000).lift (ix1 p))
      = fun k : Fin 64 => bn16 (F := Ideal) X mu va ga be (ix2 p k) :=
    funext fun k => congrArg (bn16 (F := Ideal) X mu va ga be) (lift16 _ p k)
  exact congrArg (fun f => (Finset.univ : Finset (Fin 64)).fold max Cert.Val.cNegInf f) hf

/-- The exponentials at an entry. -/
theorem e16_apply (p : Fin 2000) (k : Fin 64) :
    e16 (F := Ideal) X mu va ga be (ix2 p k)
      = Ideal.exp (bn16 (F := Ideal) X mu va ga be (ix2 p k) - Cert.Val.rowMax (fun k' : Fin 64 => bn16 (F := Ideal) X mu va ga be (ix2 p k'))) := by
  show Ideal.exp (bn16 (F := Ideal) X mu va ga be (ix2 p k) - mx16 (F := Ideal) X mu va ga be (ix1 p)) = _
  rw [mx16_apply]

/-- A row's sum of exponentials: the sum over the row. -/
theorem sm16_apply (p : Fin 2000) :
    sm16 (F := Ideal) X mu va ga be (ix1 p) = ∑ k : Fin 64, e16 (F := Ideal) X mu va ga be (ix2 p k) := by
  unfold sm16
  refine (Ideal.multiReduction_add_single (e16 (F := Ideal) X mu va ga be) 0x00000000#32 reduces_S2000x64_S2000 (.inl rfl) rfl
    (ix1 p)).trans ?_
  exact Finset.sum_congr rfl fun k _ => congrArg (e16 (F := Ideal) X mu va ga be) (lift16 _ p k)

/-- What the body stores, at an entry. -/
theorem P16_apply (p : Fin 2000) (k : Fin 64) :
    P16 (F := Ideal) X mu va ga be (ix2 p k)
      = Ideal.div (e16 (F := Ideal) X mu va ga be (ix2 p k)) (Cert.Val.cOne + sm16 (F := Ideal) X mu va ga be (ix1 p)) := rfl

end Block16

/-- The block that holds row r, read at the row's place, is row r of the array. -/
theorem rows16_at (x : S50000x64.Idx → Elt Ideal .f32) (r : Fin 50000) (q k : Fin 64) :
    rows16 x (blkOf16 (ix2 r q)) (ix2 (rowIn16 (ix2 r q)) k) = x (ix2 r k) := by
  unfold rows16
  refine congrArg x (funext fun a => ?_)
  match a with
  | ⟨0, _⟩ => exact Fin.ext (by show (r.val / 2000) * 2000 + r.val % 2000 = r.val; omega)
  | ⟨1, _⟩ => rfl

/-- THE OUTPUT ARRAY AT AN ENTRY: the row softmax with one added to the denominator, of the batch-norm of row r of
    the activations with the given column statistics, scale and shift. -/
theorem G16_apply (x : S50000x64.Idx → Elt Ideal .f32) (mu va ga be : S1x64.Idx → Elt Ideal .f32) (r : Fin 50000) (q : Fin 64) :
    G16 (F := Ideal) x mu va ga be (ix2 r q)
      = Cert.Val.smOne (fun j' => Cert.Val.bnAt (fun i j => x (ix2 i j)) (fun j => mu (ix2 0 j)) (fun j => va (ix2 0 j))
          (fun j => ga (ix2 0 j)) (fun j => be (ix2 0 j)) r j') q := by
  have hb : ∀ k : Fin 64, bn16 (F := Ideal) (rows16 x (blkOf16 (ix2 r q))) mu va ga be (ix2 (rowIn16 (ix2 r q)) k)
      = Cert.Val.bnAt (fun i j => x (ix2 i j)) (fun j => mu (ix2 0 j)) (fun j => va (ix2 0 j))
          (fun j => ga (ix2 0 j)) (fun j => be (ix2 0 j)) r k := by
    intro k
    rw [bn16_apply, rows16_at]
    rfl
  show P16 (F := Ideal) (rows16 x (blkOf16 (ix2 r q))) mu va ga be (ix2 (rowIn16 (ix2 r q)) q) = _
  rw [P16_apply, sm16_apply]
  simp only [e16_apply, hb]
  rfl

end Ideal16

end Cert.KernelIdeal.Hand

end
-- ==== Proof.KI.R17v.lean ====
import proofs.«408084_j48395691492010_3_alg».proof.Proof.KI.R17
import Idealize.ShloMosaic.Lib.Pipeline.Value
import Idealize.ShloMosaic.Lib.ValueIdx
import Idealize.ShloMosaic.PureOps.Ideal.Laws

/-! # Region 17, read: the output array is the product of the two input arrays

The frame part gives, point by point, the block of products the body leaves in the output window. Here the
blocks are put together: after the last point the output array is one function G17 of the two input arrays
as the region finds them, and at the ideal values entry (r, q) of it is the sum over k of x (r, k) · w (k, q). -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Value17

/-- The contracted extent (columns of X, rows of W) and the number of columns of W. -/
abbrev kdim17 : Nat := 64
abbrev ncol17 : Nat := 64

/-! ## The product as a function of the two arrays

The unit that multiplies is given a block of rows at a time, so the function of the arrays is stated that
way: entry (r, q) is the entry of the product of the block of rows holding row r with W, at that row's
place in the block. At the ideal values a block's product is the sum over the contracted axis, and the
blocks fall away. -/

/-- The block of consecutive rows of x that holds row r, its rows numbered from the block's first. -/
noncomputable def rowsOf17 (x : S50000x64.Idx → Elt F .f32) (r : Fin 50000) : Vec F S2000x64 .f32 :=
  fun y => x (ix2 ⟨r.val / 2000 * 2000 + (y 0).val, by
    have h0 : (y 0).val < 2000 := (y 0).isLt
    have hr := r.isLt
    omega⟩ (y 1))

/-- Entry i of the product: the payload at the block of rows holding row i 0 and at W, read at the row's
    place in its block and column i 1. -/
noncomputable def G17 (x : S50000x64.Idx → Elt F .f32) (w : S64x64.Idx → Elt F .f32) : S50000x64.Idx → Elt F .f32 :=
  fun i => k17_pay1 (rowsOf17 x (i 0)) w (ix2 ⟨(i 0).val % 2000, Nat.mod_lt _ (by decide)⟩ (i 1))

/-- Entry i of the product from ANY description of the block b that holds its row: the block of rows as
    xb, the matrix as wb, the entry's place in the block as j. -/
theorem G17_of_block (x : S50000x64.Idx → Elt F .f32) (w : S64x64.Idx → Elt F .f32) (b : Nat)
    (i : S50000x64.Idx) (j : S2000x64.Idx) (h0 : (i 0).val = b * 2000 + (j 0).val) (h1 : (i 1).val = (j 1).val)
    (xb : Vec F S2000x64 .f32) (wb : Vec F S64x64 .f32) (hw : wb = w)
    (hx : ∀ (y : S2000x64.Idx) (hy : b * 2000 + (y 0).val < 50000), xb y = x (ix2 ⟨b * 2000 + (y 0).val, hy⟩ (y 1))) :
    G17 x w i = k17_pay1 xb wb j := by
  have hj0 : (j 0).val < 2000 := (j 0).isLt
  have hi0 : (i 0).val < 50000 := (i 0).isLt
  have hrows : rowsOf17 x (i 0) = xb := by
    funext y
    have hy0 : (y 0).val < 2000 := (y 0).isLt
    have hq : (i 0).val / 2000 * 2000 = b * 2000 := by omega
    rw [hx y (by omega)]
    unfold rowsOf17
    congr 1
    funext d; apply Fin.ext
    match d with
    | ⟨0, _⟩ => show (i 0).val / 2000 * 2000 + (y 0).val = b * 2000 + (y 0).val; omega
    | ⟨1, _⟩ => rfl
  have hplace : (ix2 ⟨(i 0).val % 2000, Nat.mod_lt _ (by decide)⟩ (i 1) : S2000x64.Idx) = j := by
    funext d; apply Fin.ext
    match d with
    | ⟨0, _⟩ => show (i 0).val % 2000 = (j 0).val; omega
    | ⟨1, _⟩ => exact h1
  unfold G17
  rw [hrows, hplace, hw]

/-! ### The operand indices of the contraction, axis by axis -/

theorem lhsAx17_0 (j : S2000x64.Idx) (k : dot_S2000x64_S64x64_S2000x64_1_0_0_1_n_n.contr.Idx) :
    (dot_S2000x64_S64x64_S2000x64_1_0_0_1_n_n.lhsIdx j k (0 : Fin 2)).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

theorem lhsAx17_1 (j : S2000x64.Idx) (k : dot_S2000x64_S64x64_S2000x64_1_0_0_1_n_n.contr.Idx) :
    (dot_S2000x64_S64x64_S2000x64_1_0_0_1_n_n.lhsIdx j k (1 : Fin 2)).val = (k ⟨0, by decide⟩).val :=
  dot_S2000x64_S64x64_S2000x64_1_0_0_1_n_n.lhsIdx_val_of_single (cl := (1 : Fin 2)) rfl j k

theorem rhsAx17_0 (j : S2000x64.Idx) (k : dot_S2000x64_S64x64_S2000x64_1_0_0_1_n_n.contr.Idx) :
    (dot_S2000x64_S64x64_S2000x64_1_0_0_1_n_n.rhsIdx j k (0 : Fin 2)).val = (k ⟨0, by decide⟩).val :=
  dot_S2000x64_S64x64_S2000x64_1_0_0_1_n_n.rhsIdx_val_of_single (cr := (0 : Fin 2)) rfl j k

theorem rhsAx17_1 (j : S2000x64.Idx) (k : dot_S2000x64_S64x64_S2000x64_1_0_0_1_n_n.contr.Idx) :
    (dot_S2000x64_S64x64_S2000x64_1_0_0_1_n_n.rhsIdx j k (1 : Fin 2)).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The payload at the ideal values, at an index: the sum over the contracted axis. -/
theorem k17_pay1_apply (a : Vec Ideal S2000x64 .f32) (b : Vec Ideal S64x64 .f32) (p : Fin 2000) (q : Fin ncol17) :
    k17_pay1 (F := Ideal) a b (ix2 p q) = ∑ k : Fin kdim17, a (ix2 p k) * b (ix2 k q) := by
  unfold k17_pay1
  simp only [shapeCast_self]
  refine (Ideal.matmul_constant_zero_apply _ _ _ _ _).trans ?_
  rw [← Equiv.sum_comp (contrEquiv1 dot_S2000x64_S64x64_S2000x64_1_0_0_1_n_n kdim17 rfl rfl).symm]
  refine Finset.sum_congr rfl fun k _ => ?_
  have hl : dot_S2000x64_S64x64_S2000x64_1_0_0_1_n_n.lhsIdx (ix2 p q) ((contrEquiv1 dot_S2000x64_S64x64_S2000x64_1_0_0_1_n_n kdim17 rfl rfl).symm k) = ix2 p k := by
    funext d; apply Fin.ext
    match d with
    | ⟨0, _⟩ => exact lhsAx17_0 _ _
    | ⟨1, _⟩ => exact (lhsAx17_1 _ _).trans (contrEquiv1_symm_val _ kdim17 rfl rfl k)
  have hr : dot_S2000x64_S64x64_S2000x64_1_0_0_1_n_n.rhsIdx (ix2 p q) ((contrEquiv1 dot_S2000x64_S64x64_S2000x64_1_0_0_1_n_n kdim17 rfl rfl).symm k) = ix2 k q := by
    funext d; apply Fin.ext
    match d with
    | ⟨0, _⟩ => exact (rhsAx17_0 _ _).trans (contrEquiv1_symm_val _ kdim17 rfl rfl k)
    | ⟨1, _⟩ => exact rhsAx17_1 _ _
  rw [hl, hr]

/-- Entry (r, q) of the product at the ideal values: the sum over k of x (r, k) · w (k, q). -/
theorem G17_apply (x : S50000x64.Idx → Elt Ideal .f32) (w : S64x64.Idx → Elt Ideal .f32) (r : Fin 50000) (q : Fin ncol17) :
    G17 (F := Ideal) x w (ix2 r q) = ∑ k : Fin kdim17, x (ix2 r k) * w (ix2 k q) := by
  unfold G17
  rw [k17_pay1_apply]
  refine Finset.sum_congr rfl fun k _ => ?_
  unfold rowsOf17
  have hrow : (ix2 (⟨r.val / 2000 * 2000 + r.val % 2000, by have := r.isLt; omega⟩ : Fin 50000) k : S50000x64.Idx) = ix2 r k := by
    funext d; apply Fin.ext
    match d with
    | ⟨0, _⟩ => show r.val / 2000 * 2000 + r.val % 2000 = r.val; omega
    | ⟨1, _⟩ => rfl
  exact congrArg (fun z => x z * w (ix2 k q)) hrow

end Value17

/-! ## From the blocks written back to the array -/

section Final17
variable (V : (c : Dev nD) → (b : Ref sig .tc) → Buf (Elt F) ((c : Thread nD τ).loc b))

theorem hz17 : (![0, 0] : Fin 2 → Nat) = fun _ => 0 := funext fun a => by fin_cases a <;> rfl

/-- The index maps over the grid: the rows of X and of the product move with the point, one block a point;
    W stays; no window moves along its columns. -/
theorem idx_facts17 : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = t.val ∧ win17_2.index t (1 : Fin 2) = 0 :=
  (by decide +kernel : ∀ t : Fin grid17.N, _)

/-- What point t writes back is block t of the product of the arrays as the region finds them. -/
theorem flushed17_2_eq (c : Dev nD) (t : Fin cfg17.N) :
    (dat17 V c).flushed 2 t = ((cfg17.win 2).blk t).view.read (Elt F) (G17 (V c (Pipeline.arrRef spec17 0)) (V c (Pipeline.arrRef spec17 1))) := by
  show (cfg17.win 2).cut (grid17.coords t) ((dat17 V c).after 2 t) = _
  rw [after17_2]
  unfold out17_2
  rw [View.canon_unit_zero hz17]
  simp only [View.ld_unit_zero (S := S2000x64) hz17, View.ld_unit_zero (S := S64x64) hz17]
  obtain ⟨e0, e1, e2, e3, e4, e5⟩ := idx_facts17 t
  funext j
  show k17_pay1 (iblk17 V c 0 t) (iblk17 V c 1 t) j = G17 (V c (Pipeline.arrRef spec17 0)) (V c (Pipeline.arrRef spec17 1)) (((cfg17.win 2).blk t).view.emb j)
  refine (G17_of_block _ _ t.val _ j ?_ ?_ _ _ ?_ ?_).symm
  · show win17_2.index t (0 : Fin 2) * 2000 + 1 * (j 0).val = t.val * 2000 + (j 0).val
    rw [e4]; omega
  · show win17_2.index t (1 : Fin 2) * S2000x64.size 1 + 1 * (j 1).val = (j 1).val
    rw [e5]; omega
  · funext y
    show V c (Pipeline.arrRef spec17 1) (((cfg17.win 1).blk t).view.emb y) = V c (Pipeline.arrRef spec17 1) y
    congr 1
    funext d; apply Fin.ext
    match d with
    | ⟨0, _⟩ => show win17_1.index t (0 : Fin 2) * S64x64.size 0 + 1 * (y 0).val = (y 0).val; rw [e2]; omega
    | ⟨1, _⟩ => show win17_1.index t (1 : Fin 2) * S64x64.size 1 + 1 * (y 1).val = (y 1).val; rw [e3]; omega
  · intro y hy
    show V c (Pipeline.arrRef spec17 0) (((cfg17.win 0).blk t).view.emb y) = V c (Pipeline.arrRef spec17 0) (ix2 ⟨t.val * 2000 + (y 0).val, hy⟩ (y 1))
    congr 1
    funext d; apply Fin.ext
    match d with
    | ⟨0, _⟩ => show win17_0.index t (0 : Fin 2) * 2000 + 1 * (y 0).val = t.val * 2000 + (y 0).val; rw [e0]; omega
    | ⟨1, _⟩ => show win17_0.index t (1 : Fin 2) * S2000x64.size 1 + 1 * (y 1).val = (y 1).val; rw [e1]; omega

/-- An index of the array is in point t's block iff each coordinate is in the block's range on its axis. -/
theorem mem_blk17_2 (t : Fin cfg17.N) (i : S50000x64.Idx) :
    i ∈ ((cfg17.win 2).blk t).view.set ↔ ∀ a : Fin 2, win17_2.index t a * S2000x64.size a ≤ (i a).val ∧ (i a).val < win17_2.index t a * S2000x64.size a + S2000x64.size a := by
  show i ∈ ((View.whole (Pipeline.arrRef spec17 2)).slice (win17_2.rect t)).set ↔ _
  rw [View.set_slice_whole, Rect.mem_set_unit]
  exact Iff.rfl

/-- Every index of the array is in some point's block: row r in the block of point r / 2000. -/
theorem covered17_2 (i : S50000x64.Idx) :
    ∃ t : Fin cfg17.N, (cfg17.win 2).flush t = true ∧ i ∈ ((cfg17.win 2).blk t).view.set := by
  have hi0 : (i 0).val < 50000 := (i 0).isLt
  refine ⟨⟨(i 0).val / 2000, by rw [show cfg17.N = 25 from N_17]; omega⟩, flush17_2 _, ?_⟩
  obtain ⟨e0, e1, e2, e3, e4, e5⟩ := idx_facts17 ⟨(i 0).val / 2000, by rw [show cfg17.N = 25 from N_17]; omega⟩
  rw [mem_blk17_2]
  intro a
  match a with
  | ⟨0, _⟩ =>
    show win17_2.index _ (0 : Fin 2) * 2000 ≤ (i 0).val ∧ (i 0).val < win17_2.index _ (0 : Fin 2) * 2000 + 2000
    rw [e4]; show (i 0).val / 2000 * 2000 ≤ (i 0).val ∧ (i 0).val < (i 0).val / 2000 * 2000 + 2000; omega
  | ⟨1, _⟩ =>
    show win17_2.index _ (1 : Fin 2) * S2000x64.size 1 ≤ (i 1).val ∧ (i 1).val < win17_2.index _ (1 : Fin 2) * S2000x64.size 1 + S2000x64.size 1
    rw [e5, Nat.zero_mul, Nat.zero_add]; exact ⟨Nat.zero_le _, (i 1).isLt⟩

/-- The output array after the last point is the product of the two input arrays as the region finds them. -/
theorem final17_2 (c : Dev nD) :
    (dat17 V c).arrAt 2 cfg17.N = G17 (V c (Pipeline.arrRef spec17 0)) (V c (Pipeline.arrRef spec17 1)) :=
  (dat17 V c).arrAt_eq_of_cover 2 (G17 (V c (Pipeline.arrRef spec17 0)) (V c (Pipeline.arrRef spec17 1)))
    (fun t _ => flushed17_2_eq V c t) covered17_2

end Final17

end Cert.KernelIdeal.Hand

end
-- ==== Proof.KI.R18v.lean ====
import proofs.«408084_j48395691492010_3_alg».proof.Proof.KI.R18
import proofs.«408084_j48395691492010_3_alg».proof.Proof.KI.R14v
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! Region 18, the values. The kernel is region 14's word for word, so what each control case leaves in the buffers,
the row tiles, the fold and the three results as functions of the three arrays (G14_3, G14_4, G14_5) are region 14's;
here they are read at this region's windows: the blocks of its arrays, what its buffers hold after each point, and
its three result arrays after the last point. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The arrays and their blocks, at their literal types -/

/-- The array of the aggregated rows, as the region finds it, -/
noncomputable abbrev xarr18 (c : Dev nD) : Vec F S50000x64 .f32 := V c (Pipeline.arrRef spec18 0)
/-- the bias row, -/
noncomputable abbrev barr18 (c : Dev nD) : Vec F S1x64 .f32 := V c (Pipeline.arrRef spec18 1)
/-- and the carried-in array. -/
noncomputable abbrev carr18 (c : Dev nD) : Vec F S50000x64 .f32 := V c (Pipeline.arrRef spec18 2)

/-- The row-tile windows' block index is the grid point; the one-row windows never move. -/
theorem index18_0 : ∀ t : Fin cfg18.N, win18_0.index t 0 = t.val ∧ win18_0.index t 1 = 0 :=
  (by decide +kernel : ∀ t : Fin grid18.N, win18_0.index t 0 = t.val ∧ win18_0.index t 1 = 0)
theorem index18_1 : ∀ t : Fin cfg18.N, win18_1.index t 0 = 0 ∧ win18_1.index t 1 = 0 :=
  (by decide +kernel : ∀ t : Fin grid18.N, win18_1.index t 0 = 0 ∧ win18_1.index t 1 = 0)
theorem index18_2 : ∀ t : Fin cfg18.N, win18_2.index t 0 = t.val ∧ win18_2.index t 1 = 0 :=
  (by decide +kernel : ∀ t : Fin grid18.N, win18_2.index t 0 = t.val ∧ win18_2.index t 1 = 0)
theorem index18_3 : ∀ t : Fin cfg18.N, win18_3.index t 0 = t.val ∧ win18_3.index t 1 = 0 :=
  (by decide +kernel : ∀ t : Fin grid18.N, win18_3.index t 0 = t.val ∧ win18_3.index t 1 = 0)
theorem index18_4 : ∀ t : Fin cfg18.N, win18_4.index t 0 = t.val ∧ win18_4.index t 1 = 0 :=
  (by decide +kernel : ∀ t : Fin grid18.N, win18_4.index t 0 = t.val ∧ win18_4.index t 1 = 0)
theorem index18_5 : ∀ t : Fin cfg18.N, win18_5.index t 0 = 0 ∧ win18_5.index t 1 = 0 :=
  (by decide +kernel : ∀ t : Fin grid18.N, win18_5.index t 0 = 0 ∧ win18_5.index t 1 = 0)
theorem xsize18_5 : ∀ t : Fin cfg18.N, win18_5.xsize (grid18.coords t) 0 = 1 ∧ win18_5.xsize (grid18.coords t) 1 = 64 :=
  (by decide +kernel : ∀ t : Fin grid18.N, win18_5.xsize (grid18.coords t) 0 = 1 ∧ win18_5.xsize (grid18.coords t) 1 = 64)

/-- The aggregate window's block at point t is row tile t of its array. -/
theorem xblk18_eq (c : Dev nD) (t : Fin cfg18.N) (hN : t.val < 25) :
    (iblk18 V c 0 t : Vec F S2000x64 .f32) = tile14 (xarr18 V c) ⟨t.val, hN⟩ := by
  have hi := index18_0 t
  funext j
  unfold iblk18 tile14
  rw [View.read_apply]
  show V c (Pipeline.arrRef spec18 0) _ = V c (Pipeline.arrRef spec18 0) _
  congr 1
  funext a
  apply Fin.ext
  match a with
  | ⟨0, _⟩ => show win18_0.index t 0 * 2000 + 1 * (j 0).val = 2000 * t.val + (j 0).val; rw [hi.1]; omega
  | ⟨1, _⟩ => show win18_0.index t 1 * 64 + 1 * (j 1).val = (j 1).val; rw [hi.2]; omega

/-- The bias window's block is the whole one-row array, at every point. -/
theorem bblk18_eq (c : Dev nD) (t : Fin cfg18.N) : (iblk18 V c 1 t : Vec F S1x64 .f32) = barr18 V c := by
  have hi := index18_1 t
  funext j
  unfold iblk18
  rw [View.read_apply]
  show V c (Pipeline.arrRef spec18 1) _ = V c (Pipeline.arrRef spec18 1) j
  congr 1
  funext a
  apply Fin.ext
  match a with
  | ⟨0, _⟩ => show win18_1.index t 0 * 1 + 1 * (j 0).val = (j 0).val; rw [hi.1]; omega
  | ⟨1, _⟩ => show win18_1.index t 1 * 64 + 1 * (j 1).val = (j 1).val; rw [hi.2]; omega

/-- The carried-in window's block at point t is row tile t of its array. -/
theorem cblk18_eq (c : Dev nD) (t : Fin cfg18.N) (hN : t.val < 25) :
    (iblk18 V c 2 t : Vec F S2000x64 .f32) = tile14 (carr18 V c) ⟨t.val, hN⟩ := by
  have hi := index18_2 t
  funext j
  unfold iblk18 tile14
  rw [View.read_apply]
  show V c (Pipeline.arrRef spec18 2) _ = V c (Pipeline.arrRef spec18 2) _
  congr 1
  funext a
  apply Fin.ext
  match a with
  | ⟨0, _⟩ => show win18_2.index t 0 * 2000 + 1 * (j 0).val = 2000 * t.val + (j 0).val; rw [hi.1]; omega
  | ⟨1, _⟩ => show win18_2.index t 1 * 64 + 1 * (j 1).val = (j 1).val; rw [hi.2]; omega

/-! ## What the buffers hold after each point -/

/-- The first full-size result's buffer after point n. -/
theorem outsAt18_pre (c : Dev nD) : ∀ (n : ℕ) (h : n < cfg18.N) (h' : n < 25),
    (outsAt18 V c n h).1 = k14_pay3 (tile14 (xarr18 V c) ⟨n, h'⟩) (barr18 V c) (tile14 (carr18 V c) ⟨n, h'⟩)
  | 0, h, h' => by
    rw [outsAt18_A V c ⟨0, h⟩ (Nat.zero_mod 25) (fun e => by have e' : (0 : ℕ) % 25 = 24 := e; omega)]
    dsimp only
    rw [out14_A_3_eq, xblk18_eq V c ⟨0, h⟩ h', bblk18_eq V c ⟨0, h⟩, cblk18_eq V c ⟨0, h⟩ h']
  | n + 1, h, h' => by
    have hm : (n + 1) % 25 = n + 1 := Nat.mod_eq_of_lt h'
    by_cases h24 : n + 1 = 24
    · rw [outsAt18_C V c ⟨n + 1, h⟩ (fun e => by have e' : (n + 1) % 25 = 0 := e; omega) (by show (n + 1) % 25 = 24; omega)]
      dsimp only
      rw [out14_C_3_eq, xblk18_eq V c ⟨n + 1, h⟩ h', bblk18_eq V c ⟨n + 1, h⟩, cblk18_eq V c ⟨n + 1, h⟩ h']
    · rw [outsAt18_B V c ⟨n + 1, h⟩ (fun e => by have e' : (n + 1) % 25 = 0 := e; omega) (fun e => by have e' : (n + 1) % 25 = 24 := e; omega)]
      dsimp only
      rw [out14_B_3_eq, xblk18_eq V c ⟨n + 1, h⟩ h', bblk18_eq V c ⟨n + 1, h⟩, cblk18_eq V c ⟨n + 1, h⟩ h']

/-- The second full-size result's buffer after point n. -/
theorem outsAt18_cum (c : Dev nD) : ∀ (n : ℕ) (h : n < cfg18.N) (h' : n < 25),
    (outsAt18 V c n h).2.1 = k14_pay4 (tile14 (xarr18 V c) ⟨n, h'⟩) (barr18 V c) (tile14 (carr18 V c) ⟨n, h'⟩)
  | 0, h, h' => by
    rw [outsAt18_A V c ⟨0, h⟩ (Nat.zero_mod 25) (fun e => by have e' : (0 : ℕ) % 25 = 24 := e; omega)]
    dsimp only
    rw [out14_A_4_eq, xblk18_eq V c ⟨0, h⟩ h', bblk18_eq V c ⟨0, h⟩, cblk18_eq V c ⟨0, h⟩ h']
  | n + 1, h, h' => by
    have hm : (n + 1) % 25 = n + 1 := Nat.mod_eq_of_lt h'
    by_cases h24 : n + 1 = 24
    · rw [outsAt18_C V c ⟨n + 1, h⟩ (fun e => by have e' : (n + 1) % 25 = 0 := e; omega) (by show (n + 1) % 25 = 24; omega)]
      dsimp only
      rw [out14_C_4_eq, xblk18_eq V c ⟨n + 1, h⟩ h', bblk18_eq V c ⟨n + 1, h⟩, cblk18_eq V c ⟨n + 1, h⟩ h']
    · rw [outsAt18_B V c ⟨n + 1, h⟩ (fun e => by have e' : (n + 1) % 25 = 0 := e; omega) (fun e => by have e' : (n + 1) % 25 = 24 := e; omega)]
      dsimp only
      rw [out14_B_4_eq, xblk18_eq V c ⟨n + 1, h⟩ h', bblk18_eq V c ⟨n + 1, h⟩, cblk18_eq V c ⟨n + 1, h⟩ h']

/-- What the accumulator holds after point n is the fold up to tile n: by induction on the point. -/
theorem outsAt18_acc (c : Dev nD) : ∀ (n : ℕ) (h : n < cfg18.N) (h' : n < 25),
    (outsAt18 V c n h).2.2.2 = acc14 (xarr18 V c) (barr18 V c) (carr18 V c) n h'
  | 0, h, h' => by
    rw [outsAt18_A V c ⟨0, h⟩ (Nat.zero_mod 25) (fun e => by have e' : (0 : ℕ) % 25 = 24 := e; omega)]
    dsimp only
    rw [sout14_A_0_eq, xblk18_eq V c ⟨0, h⟩ h', bblk18_eq V c ⟨0, h⟩, cblk18_eq V c ⟨0, h⟩ h']
    rfl
  | n + 1, h, h' => by
    have ih := outsAt18_acc c n (Nat.lt_of_succ_lt h) (Nat.lt_of_succ_lt h')
    have hm : (n + 1) % 25 = n + 1 := Nat.mod_eq_of_lt h'
    by_cases h24 : n + 1 = 24
    · rw [outsAt18_C V c ⟨n + 1, h⟩ (fun e => by have e' : (n + 1) % 25 = 0 := e; omega) (by show (n + 1) % 25 = 24; omega)]
      dsimp only
      rw [sout14_C_0_eq, xblk18_eq V c ⟨n + 1, h⟩ h', bblk18_eq V c ⟨n + 1, h⟩, cblk18_eq V c ⟨n + 1, h⟩ h']
      show k14_pay5 _ _ _ (outsAt18 V c n _).2.2.2 = k14_pay5 _ _ _ (acc14 _ _ _ n _)
      rw [ih]
    · rw [outsAt18_B V c ⟨n + 1, h⟩ (fun e => by have e' : (n + 1) % 25 = 0 := e; omega) (fun e => by have e' : (n + 1) % 25 = 24 := e; omega)]
      dsimp only
      rw [sout14_B_0_eq, xblk18_eq V c ⟨n + 1, h⟩ h', bblk18_eq V c ⟨n + 1, h⟩, cblk18_eq V c ⟨n + 1, h⟩ h']
      show k14_pay5 _ _ _ (outsAt18 V c n _).2.2.2 = k14_pay5 _ _ _ (acc14 _ _ _ n _)
      rw [ih]

/-- At the last point the one-row result's buffer is left holding the whole fold. -/
theorem outsAt18_last (c : Dev nD) (t : Fin cfg18.N) (h24 : t.val = 24) :
    (outsAt18 V c t.val t.isLt).2.2.1 = G14_5 (xarr18 V c) (barr18 V c) (carr18 V c) := by
  obtain ⟨n, hn⟩ := t
  obtain rfl : n = 24 := h24
  rw [outsAt18_C V c ⟨24, hn⟩ (fun e => by have e' : (24 : ℕ) % 25 = 0 := e; omega) (by show (24 : ℕ) % 25 = 24; omega)]
  dsimp only
  rw [out14_C_5_eq, xblk18_eq V c ⟨24, hn⟩ (by show (24 : ℕ) < 25; omega), bblk18_eq V c ⟨24, hn⟩, cblk18_eq V c ⟨24, hn⟩ (by show (24 : ℕ) < 25; omega)]
  show k14_pay5 _ _ _ (outsAt18 V c 23 _).2.2.2 = k14_pay5 _ _ _ (acc14 _ _ _ 23 _)
  rw [outsAt18_acc V c 23 _ (by decide)]

/-! ## The full-size result arrays after the run -/

/-- What point t writes back of the first full-size result array is block t of G14_3 of the arrays. -/
theorem flushed18_3 (c : Dev nD) (t : Fin cfg18.N) :
    (dat18 V c).flushed 3 t = ((cfg18.win 3).blk t).view.read (Elt F) (G14_3 (xarr18 V c) (barr18 V c) (carr18 V c)) := by
  have hN : t.val < 25 := lt_of_lt_of_eq t.isLt (show cfg18.N = 25 from N_18)
  have hi := index18_3 t
  show (cfg18.win 3).cut (grid18.coords t) ((dat18 V c).after 3 t) = _
  rw [after18_3, outsAt18_pre V c t.val t.isLt hN]
  funext j
  have hj0 : (j 0).val < 2000 := (j 0).isLt
  show k14_pay3 (tile14 (xarr18 V c) ⟨t.val, hN⟩) (barr18 V c) (tile14 (carr18 V c) ⟨t.val, hN⟩) j = G14_3 (xarr18 V c) (barr18 V c) (carr18 V c) (((cfg18.win 3).blk t).view.emb j)
  have hrow : ((((cfg18.win 3).blk t).view.emb j : S50000x64.Idx) 0).val = t.val * 2000 + (j 0).val := by
    show win18_3.index t 0 * 2000 + 1 * (j 0).val = t.val * 2000 + (j 0).val
    rw [hi.1]; omega
  have hcol : ((((cfg18.win 3).blk t).view.emb j : S50000x64.Idx) 1).val = (j 1).val := by
    show win18_3.index t 1 * 64 + 1 * (j 1).val = (j 1).val
    rw [hi.2]; omega
  unfold G14_3
  have htile : (⟨((((cfg18.win 3).blk t).view.emb j : S50000x64.Idx) 0).val / 2000, by have := idx2_lt0 (((cfg18.win 3).blk t).view.emb j : S50000x64.Idx); omega⟩ : Fin 25) = ⟨t.val, hN⟩ :=
    Fin.ext (by show ((((cfg18.win 3).blk t).view.emb j : S50000x64.Idx) 0).val / 2000 = t.val; rw [hrow]; omega)
  have hplace : (ix2 ⟨((((cfg18.win 3).blk t).view.emb j : S50000x64.Idx) 0).val % 2000, Nat.mod_lt _ (by decide)⟩ ((((cfg18.win 3).blk t).view.emb j : S50000x64.Idx) 1) : S2000x64.Idx) = j := by
    funext d; apply Fin.ext
    match d with
    | ⟨0, _⟩ => show ((((cfg18.win 3).blk t).view.emb j : S50000x64.Idx) 0).val % 2000 = (j 0).val; rw [hrow]; omega
    | ⟨1, _⟩ => exact hcol
  rw [htile, hplace]

/-- An index of the array is in point t's block iff each coordinate is in the block's range on its axis. -/
theorem mem_blk18_3 (t : Fin cfg18.N) (i : S50000x64.Idx) :
    i ∈ ((cfg18.win 3).blk t).view.set ↔ ∀ a : Fin 2, win18_3.index t a * S2000x64.size a ≤ (i a).val ∧ (i a).val < win18_3.index t a * S2000x64.size a + S2000x64.size a := by
  show i ∈ ((View.whole (Pipeline.arrRef spec18 3)).slice (win18_3.rect t)).set ↔ _
  rw [View.set_slice_whole, Rect.mem_set_unit]
  exact Iff.rfl

/-- Every index of the array is in some point's block: row r in the block of point r / 2000. -/
theorem covered18_3 (i : S50000x64.Idx) :
    ∃ t : Fin cfg18.N, (cfg18.win 3).flush t = true ∧ i ∈ ((cfg18.win 3).blk t).view.set := by
  have hi0 : (i 0).val < 50000 := (i 0).isLt
  refine ⟨⟨(i 0).val / 2000, by rw [show cfg18.N = 25 from N_18]; omega⟩, flush18_3 _, ?_⟩
  have hi := index18_3 ⟨(i 0).val / 2000, by rw [show cfg18.N = 25 from N_18]; omega⟩
  rw [mem_blk18_3]
  intro a
  match a with
  | ⟨0, _⟩ =>
    show win18_3.index _ 0 * 2000 ≤ (i 0).val ∧ (i 0).val < win18_3.index _ 0 * 2000 + 2000
    rw [hi.1]; show (i 0).val / 2000 * 2000 ≤ (i 0).val ∧ (i 0).val < (i 0).val / 2000 * 2000 + 2000; omega
  | ⟨1, _⟩ =>
    show win18_3.index _ 1 * S2000x64.size 1 ≤ (i 1).val ∧ (i 1).val < win18_3.index _ 1 * S2000x64.size 1 + S2000x64.size 1
    rw [hi.2, Nat.zero_mul, Nat.zero_add]; exact ⟨Nat.zero_le _, (i 1).isLt⟩

/-- So the first full-size result array ends holding G14_3 of the three arrays. -/
theorem final18_3 (c : Dev nD) :
    (dat18 V c).arrAt 3 cfg18.N = G14_3 (V c (Pipeline.arrRef spec18 0)) (V c (Pipeline.arrRef spec18 1)) (V c (Pipeline.arrRef spec18 2)) :=
  (dat18 V c).arrAt_eq_of_cover 3 (G14_3 (xarr18 V c) (barr18 V c) (carr18 V c)) (fun t _ => flushed18_3 V c t) covered18_3

/-- What point t writes back of the second full-size result array is block t of G14_4 of the arrays. -/
theorem flushed18_4 (c : Dev nD) (t : Fin cfg18.N) :
    (dat18 V c).flushed 4 t = ((cfg18.win 4).blk t).view.read (Elt F) (G14_4 (xarr18 V c) (barr18 V c) (carr18 V c)) := by
  have hN : t.val < 25 := lt_of_lt_of_eq t.isLt (show cfg18.N = 25 from N_18)
  have hi := index18_4 t
  show (cfg18.win 4).cut (grid18.coords t) ((dat18 V c).after 4 t) = _
  rw [after18_4, outsAt18_cum V c t.val t.isLt hN]
  funext j
  have hj0 : (j 0).val < 2000 := (j 0).isLt
  show k14_pay4 (tile14 (xarr18 V c) ⟨t.val, hN⟩) (barr18 V c) (tile14 (carr18 V c) ⟨t.val, hN⟩) j = G14_4 (xarr18 V c) (barr18 V c) (carr18 V c) (((cfg18.win 4).blk t).view.emb j)
  have hrow : ((((cfg18.win 4).blk t).view.emb j : S50000x64.Idx) 0).val = t.val * 2000 + (j 0).val := by
    show win18_4.index t 0 * 2000 + 1 * (j 0).val = t.val * 2000 + (j 0).val
    rw [hi.1]; omega
  have hcol : ((((cfg18.win 4).blk t).view.emb j : S50000x64.Idx) 1).val = (j 1).val := by
    show win18_4.index t 1 * 64 + 1 * (j 1).val = (j 1).val
    rw [hi.2]; omega
  unfold G14_4
  have htile : (⟨((((cfg18.win 4).blk t).view.emb j : S50000x64.Idx) 0).val / 2000, by have := idx2_lt0 (((cfg18.win 4).blk t).view.emb j : S50000x64.Idx); omega⟩ : Fin 25) = ⟨t.val, hN⟩ :=
    Fin.ext (by show ((((cfg18.win 4).blk t).view.emb j : S50000x64.Idx) 0).val / 2000 = t.val; rw [hrow]; omega)
  have hplace : (ix2 ⟨((((cfg18.win 4).blk t).view.emb j : S50000x64.Idx) 0).val % 2000, Nat.mod_lt _ (by decide)⟩ ((((cfg18.win 4).blk t).view.emb j : S50000x64.Idx) 1) : S2000x64.Idx) = j := by
    funext d; apply Fin.ext
    match d with
    | ⟨0, _⟩ => show ((((cfg18.win 4).blk t).view.emb j : S50000x64.Idx) 0).val % 2000 = (j 0).val; rw [hrow]; omega
    | ⟨1, _⟩ => exact hcol
  rw [htile, hplace]

/-- An index of the array is in point t's block iff each coordinate is in the block's range on its axis. -/
theorem mem_blk18_4 (t : Fin cfg18.N) (i : S50000x64.Idx) :
    i ∈ ((cfg18.win 4).blk t).view.set ↔ ∀ a : Fin 2, win18_4.index t a * S2000x64.size a ≤ (i a).val ∧ (i a).val < win18_4.index t a * S2000x64.size a + S2000x64.size a := by
  show i ∈ ((View.whole (Pipeline.arrRef spec18 4)).slice (win18_4.rect t)).set ↔ _
  rw [View.set_slice_whole, Rect.mem_set_unit]
  exact Iff.rfl

/-- Every index of the array is in some point's block: row r in the block of point r / 2000. -/
theorem covered18_4 (i : S50000x64.Idx) :
    ∃ t : Fin cfg18.N, (cfg18.win 4).flush t = true ∧ i ∈ ((cfg18.win 4).blk t).view.set := by
  have hi0 : (i 0).val < 50000 := (i 0).isLt
  refine ⟨⟨(i 0).val / 2000, by rw [show cfg18.N = 25 from N_18]; omega⟩, flush18_4 _, ?_⟩
  have hi := index18_4 ⟨(i 0).val / 2000, by rw [show cfg18.N = 25 from N_18]; omega⟩
  rw [mem_blk18_4]
  intro a
  match a with
  | ⟨0, _⟩ =>
    show win18_4.index _ 0 * 2000 ≤ (i 0).val ∧ (i 0).val < win18_4.index _ 0 * 2000 + 2000
    rw [hi.1]; show (i 0).val / 2000 * 2000 ≤ (i 0).val ∧ (i 0).val < (i 0).val / 2000 * 2000 + 2000; omega
  | ⟨1, _⟩ =>
    show win18_4.index _ 1 * S2000x64.size 1 ≤ (i 1).val ∧ (i 1).val < win18_4.index _ 1 * S2000x64.size 1 + S2000x64.size 1
    rw [hi.2, Nat.zero_mul, Nat.zero_add]; exact ⟨Nat.zero_le _, (i 1).isLt⟩

/-- So the second full-size result array ends holding G14_4 of the three arrays. -/
theorem final18_4 (c : Dev nD) :
    (dat18 V c).arrAt 4 cfg18.N = G14_4 (V c (Pipeline.arrRef spec18 0)) (V c (Pipeline.arrRef spec18 1)) (V c (Pipeline.arrRef spec18 2)) :=
  (dat18 V c).arrAt_eq_of_cover 4 (G14_4 (xarr18 V c) (barr18 V c) (carr18 V c)) (fun t _ => flushed18_4 V c t) covered18_4

/-! ## The one-row result array after the run -/

/-- The one write-back (at the last point) writes the fold: the result's block there is the whole one-row array. -/
theorem flushed18_5 (c : Dev nD) (t : Fin cfg18.N) (hf : (cfg18.win 5).flush t = true) :
    (dat18 V c).flushed 5 t = ((cfg18.win 5).blk t).view.read (Elt F) (G14_5 (xarr18 V c) (barr18 V c) (carr18 V c)) := by
  have hN : t.val < 25 := lt_of_lt_of_eq t.isLt (show cfg18.N = 25 from N_18)
  have h24 : t.val = 24 := by have := (flush18_5 t).mp hf; omega
  have hi := index18_5 t
  show (cfg18.win 5).cut (grid18.coords t) ((dat18 V c).after 5 t) = _
  rw [after18_5, outsAt18_last V c t h24]
  have hz' : (fun a => win18_5.index t a * main_v218_2.ty.shape.size a) = fun _ => 0 := funext fun a => by
    match a with
    | ⟨0, _⟩ => show win18_5.index t 0 * _ = 0; rw [hi.1, Nat.zero_mul]
    | ⟨1, _⟩ => show win18_5.index t 1 * _ = 0; rw [hi.2, Nat.zero_mul]
  exact (Memref.read_access_unit_zero (Elt F) main_v218_2 hz' (fun a => by rw [congrFun hz' a]; simp) (G14_5 (xarr18 V c) (barr18 V c) (carr18 V c))).symm

/-- So the one-row result array ends holding the fold. -/
theorem final18_5 (c : Dev nD) :
    (dat18 V c).arrAt 5 cfg18.N = G14_5 (V c (Pipeline.arrRef spec18 0)) (V c (Pipeline.arrRef spec18 1)) (V c (Pipeline.arrRef spec18 2)) := by
  have h24 : (24 : ℕ) < cfg18.N := by rw [show cfg18.N = 25 from N_18]; omega
  refine (dat18 V c).arrAt_eq_of_cover 5 (G14_5 (xarr18 V c) (barr18 V c) (carr18 V c)) (flushed18_5 V c) fun i =>
    ⟨⟨24, h24⟩, (flush18_5 _).mpr rfl, ?_⟩
  have hi := index18_5 ⟨24, h24⟩
  have hx := xsize18_5 ⟨24, h24⟩
  show i ∈ ((View.whole main_v218_2).slice (win18_5.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win18_5.index ⟨24, h24⟩ 0 * win18_5.size 0 ≤ (i 0 : Nat) ∧ (i 0 : Nat) < win18_5.index ⟨24, h24⟩ 0 * win18_5.size 0 + win18_5.xsize (grid18.coords ⟨24, h24⟩) 0
    rw [hi.1, hx.1]; omega
  | ⟨1, _⟩ =>
    show win18_5.index ⟨24, h24⟩ 1 * win18_5.size 1 ≤ (i 1 : Nat) ∧ (i 1 : Nat) < win18_5.index ⟨24, h24⟩ 1 * win18_5.size 1 + win18_5.xsize (grid18.coords ⟨24, h24⟩) 1
    rw [hi.2, hx.2]; omega

end Cert.KernelIdeal.Hand

end
-- ==== Proof.KI.R19v.lean ====
import proofs.«408084_j48395691492010_3_alg».proof.Proof.KI.R19
import proofs.«408084_j48395691492010_3_alg».proof.Proof.KI.R3v

/-! Region 19, the value: the same kernel as region 3 at the same shapes, so the result is the same function `G3_2` of this
region's two arrays — the fold over the 25 row tiles, from the zero row, of each tile's column sum of squared deviations.
The found pieces read back and the fold's reading at the ideal values are region 3's; here: this region's blocks as
tiles of its arrays, the accumulator after each point as the fold (by induction on the point), and the result array. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The [50000, D] array of the rows, as the region finds it, -/
noncomputable abbrev xarr19 (c : Dev nD) : Vec F S50000x64 .f32 := V c (Pipeline.arrRef spec19 0)
/-- and the one row of column means. -/
noncomputable abbrev marr19 (c : Dev nD) : Vec F S1x64 .f32 := V c (Pipeline.arrRef spec19 1)

theorem index19_0 : ∀ t : Fin cfg19.N, win19_0.index t 0 = t.val ∧ win19_0.index t 1 = 0 :=
  (by decide +kernel : ∀ t : Fin grid19.N, win19_0.index t 0 = t.val ∧ win19_0.index t 1 = 0)
theorem index19_1 : ∀ t : Fin cfg19.N, win19_1.index t 0 = 0 ∧ win19_1.index t 1 = 0 :=
  (by decide +kernel : ∀ t : Fin grid19.N, win19_1.index t 0 = 0 ∧ win19_1.index t 1 = 0)
theorem index19_2 : ∀ t : Fin cfg19.N, win19_2.index t 0 = 0 ∧ win19_2.index t 1 = 0 :=
  (by decide +kernel : ∀ t : Fin grid19.N, win19_2.index t 0 = 0 ∧ win19_2.index t 1 = 0)
theorem xsize19_2 : ∀ t : Fin cfg19.N, win19_2.xsize (grid19.coords t) 0 = 1 ∧ win19_2.xsize (grid19.coords t) 1 = 64 :=
  (by decide +kernel : ∀ t : Fin grid19.N, win19_2.xsize (grid19.coords t) 0 = 1 ∧ win19_2.xsize (grid19.coords t) 1 = 64)

/-- The row-tile window's block at point `t` is row tile `t` of the array. -/
theorem xblk19_eq (c : Dev nD) (t : Fin cfg19.N) (hN : t.val < 25) :
    (iblk19 V c 0 t : Vec F S2000x64 .f32) = tile3 (xarr19 V c) ⟨t.val, hN⟩ := by
  have hi := index19_0 t
  funext j
  unfold iblk19 tile3
  rw [View.read_apply]
  show V c (Pipeline.arrRef spec19 0) _ = V c (Pipeline.arrRef spec19 0) _
  congr 1
  funext a
  apply Fin.ext
  match a with
  | ⟨0, _⟩ => show win19_0.index t 0 * 2000 + 1 * (j 0).val = 2000 * t.val + (j 0).val; rw [hi.1]; omega
  | ⟨1, _⟩ => show win19_0.index t 1 * 64 + 1 * (j 1).val = (j 1).val; rw [hi.2]; omega

/-- The mean window's block is the whole one-row array, at every point. -/
theorem mblk19_eq (c : Dev nD) (t : Fin cfg19.N) : (iblk19 V c 1 t : Vec F S1x64 .f32) = marr19 V c := by
  have hi := index19_1 t
  funext j
  unfold iblk19
  rw [View.read_apply]
  show V c (Pipeline.arrRef spec19 1) _ = V c (Pipeline.arrRef spec19 1) j
  congr 1
  funext a
  apply Fin.ext
  match a with
  | ⟨0, _⟩ => show win19_1.index t 0 * 1 + 1 * (j 0).val = (j 0).val; rw [hi.1]; omega
  | ⟨1, _⟩ => show win19_1.index t 1 * 64 + 1 * (j 1).val = (j 1).val; rw [hi.2]; omega

/-- What the accumulator holds after point `n` is the fold up to tile `n`: by induction on the point. -/
theorem outsAt19_acc (c : Dev nD) : ∀ (n : ℕ) (h : n < cfg19.N) (h' : n < 25),
    (outsAt19 V c n h).2 = acc3 (xarr19 V c) (marr19 V c) n h'
  | 0, h, h' => by
    rw [outsAt19_A V c ⟨0, h⟩ rfl (fun e => by have e' : (0 : ℕ) = 24 := e; omega)]
    dsimp only
    rw [sout3_A_eq, xblk19_eq V c ⟨0, h⟩ h', mblk19_eq V c ⟨0, h⟩]
    rfl
  | n + 1, h, h' => by
    have ih := outsAt19_acc c n (Nat.lt_of_succ_lt h) (Nat.lt_of_succ_lt h')
    by_cases h24 : n + 1 = 24
    · rw [outsAt19_C V c ⟨n + 1, h⟩ (Nat.succ_ne_zero n) h24]
      dsimp only
      rw [sout3_C_eq, xblk19_eq V c ⟨n + 1, h⟩ h', mblk19_eq V c ⟨n + 1, h⟩]
      show k3_pay2 _ _ (outsAt19 V c n _).2 = k3_pay2 _ _ (acc3 _ _ n _)
      rw [ih]
    · rw [outsAt19_B V c ⟨n + 1, h⟩ (Nat.succ_ne_zero n) h24]
      dsimp only
      rw [sout3_B_eq, xblk19_eq V c ⟨n + 1, h⟩ h', mblk19_eq V c ⟨n + 1, h⟩]
      show k3_pay2 _ _ (outsAt19 V c n _).2 = k3_pay2 _ _ (acc3 _ _ n _)
      rw [ih]

/-- At the last point the result's buffer is left holding the whole fold. -/
theorem outsAt19_last (c : Dev nD) (t : Fin cfg19.N) (h24 : t.val = 24) :
    (outsAt19 V c t.val t.isLt).1 = G3_2 (xarr19 V c) (marr19 V c) := by
  obtain ⟨n, hn⟩ := t
  obtain rfl : n = 24 := h24
  rw [outsAt19_C V c ⟨24, hn⟩ (fun e => by have e' : (24 : ℕ) = 0 := e; omega) rfl]
  dsimp only
  rw [out3_C_eq, xblk19_eq V c ⟨24, hn⟩ (by show (24 : ℕ) < 25; omega), mblk19_eq V c ⟨24, hn⟩]
  show k3_pay2 _ _ (outsAt19 V c 23 _).2 = k3_pay2 _ _ (acc3 _ _ 23 _)
  rw [outsAt19_acc V c 23 _ (by decide)]

/-- The one write-back (at the last point) writes the fold: the result's block there is the whole one-row array. -/
theorem flushed19_2 (c : Dev nD) (t : Fin cfg19.N) (hf : (cfg19.win 2).flush t = true) :
    (dat19 V c).flushed 2 t = ((cfg19.win 2).blk t).view.read (Elt F) (G3_2 (xarr19 V c) (marr19 V c)) := by
  have hN : t.val < 25 := lt_of_lt_of_eq t.isLt (show cfg19.N = 25 from N_19)
  have h24 : t.val = 24 := by have := (flush19_2 t).mp hf; omega
  have hi := index19_2 t
  show (cfg19.win 2).cut (grid19.coords t) ((dat19 V c).after 2 t) = _
  rw [after19_2, outsAt19_last V c t h24]
  have hz' : (fun a => win19_2.index t a * main_v221.ty.shape.size a) = fun _ => 0 := funext fun a => by
    match a with
    | ⟨0, _⟩ => show win19_2.index t 0 * _ = 0; rw [hi.1, Nat.zero_mul]
    | ⟨1, _⟩ => show win19_2.index t 1 * _ = 0; rw [hi.2, Nat.zero_mul]
  exact (Memref.read_access_unit_zero (Elt F) main_v221 hz' (fun a => by rw [congrFun hz' a]; simp) (G3_2 (xarr19 V c) (marr19 V c))).symm

/-- So the result array ends holding the fold: region 3's function of this region's two arrays. -/
theorem final19_2 (c : Dev nD) : (dat19 V c).arrAt 2 cfg19.N = G3_2 (V c (Pipeline.arrRef spec19 0)) (V c (Pipeline.arrRef spec19 1)) := by
  have h24 : (24 : ℕ) < cfg19.N := by rw [show cfg19.N = 25 from N_19]; omega
  refine (dat19 V c).arrAt_eq_of_cover 2 (G3_2 (xarr19 V c) (marr19 V c)) (flushed19_2 V c) fun i =>
    ⟨⟨24, h24⟩, (flush19_2 _).mpr rfl, ?_⟩
  have hi := index19_2 ⟨24, h24⟩
  have hx := xsize19_2 ⟨24, h24⟩
  show i ∈ ((View.whole main_v221).slice (win19_2.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win19_2.index ⟨24, h24⟩ 0 * win19_2.size 0 ≤ (i 0 : Nat) ∧ (i 0 : Nat) < win19_2.index ⟨24, h24⟩ 0 * win19_2.size 0 + win19_2.xsize (grid19.coords ⟨24, h24⟩) 0
    rw [hi.1, hx.1]; omega
  | ⟨1, _⟩ =>
    show win19_2.index ⟨24, h24⟩ 1 * win19_2.size 1 ≤ (i 1 : Nat) ∧ (i 1 : Nat) < win19_2.index ⟨24, h24⟩ 1 * win19_2.size 1 + win19_2.xsize (grid19.coords ⟨24, h24⟩) 1
    rw [hi.2, hx.2]; omega

end Cert.KernelIdeal.Hand

end
-- ==== Proof.KI.R1v.lean ====
import proofs.«408084_j48395691492010_3_alg».proof.Proof.KI.R1
import Idealize.ShloMosaic.Lib.Pipeline.Value
import Idealize.ShloMosaic.Lib.ValueIdx
import Idealize.ShloMosaic.PureOps.Ideal.Laws

/-! # Region 1, read: the output array is the product of the two input arrays

The frame part gives, point by point, the block of products the body leaves in the output window. Here the
blocks are put together: after the last point the output array is one function G1 of the two input arrays
as the region finds them, and at the ideal values entry (r, q) of it is the sum over k of x (r, k) · w (k, q). -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Value1

/-- The contracted extent (columns of X, rows of W) and the number of columns of W. -/
abbrev kdim1 : Nat := 4
abbrev ncol1 : Nat := 64

/-! ## The product as a function of the two arrays

The unit that multiplies is given a block of rows at a time, so the function of the arrays is stated that
way: entry (r, q) is the entry of the product of the block of rows holding row r with W, at that row's
place in the block. At the ideal values a block's product is the sum over the contracted axis, and the
blocks fall away. -/

/-- The block of consecutive rows of x that holds row r, its rows numbered from the block's first. -/
noncomputable def rowsOf1 (x : S50000x4.Idx → Elt F .f32) (r : Fin 50000) : Vec F S2000x4 .f32 :=
  fun y => x (ix2 ⟨r.val / 2000 * 2000 + (y 0).val, by
    have h0 : (y 0).val < 2000 := (y 0).isLt
    have hr := r.isLt
    omega⟩ (y 1))

/-- Entry i of the product: the payload at the block of rows holding row i 0 and at W, read at the row's
    place in its block and column i 1. -/
noncomputable def G1 (x : S50000x4.Idx → Elt F .f32) (w : S4x64.Idx → Elt F .f32) : S50000x64.Idx → Elt F .f32 :=
  fun i => k1_pay1 (rowsOf1 x (i 0)) w (ix2 ⟨(i 0).val % 2000, Nat.mod_lt _ (by decide)⟩ (i 1))

/-- Entry i of the product from ANY description of the block b that holds its row: the block of rows as
    xb, the matrix as wb, the entry's place in the block as j. -/
theorem G1_of_block (x : S50000x4.Idx → Elt F .f32) (w : S4x64.Idx → Elt F .f32) (b : Nat)
    (i : S50000x64.Idx) (j : S2000x64.Idx) (h0 : (i 0).val = b * 2000 + (j 0).val) (h1 : (i 1).val = (j 1).val)
    (xb : Vec F S2000x4 .f32) (wb : Vec F S4x64 .f32) (hw : wb = w)
    (hx : ∀ (y : S2000x4.Idx) (hy : b * 2000 + (y 0).val < 50000), xb y = x (ix2 ⟨b * 2000 + (y 0).val, hy⟩ (y 1))) :
    G1 x w i = k1_pay1 xb wb j := by
  have hj0 : (j 0).val < 2000 := (j 0).isLt
  have hi0 : (i 0).val < 50000 := (i 0).isLt
  have hrows : rowsOf1 x (i 0) = xb := by
    funext y
    have hy0 : (y 0).val < 2000 := (y 0).isLt
    have hq : (i 0).val / 2000 * 2000 = b * 2000 := by omega
    rw [hx y (by omega)]
    unfold rowsOf1
    congr 1
    funext d; apply Fin.ext
    match d with
    | ⟨0, _⟩ => show (i 0).val / 2000 * 2000 + (y 0).val = b * 2000 + (y 0).val; omega
    | ⟨1, _⟩ => rfl
  have hplace : (ix2 ⟨(i 0).val % 2000, Nat.mod_lt _ (by decide)⟩ (i 1) : S2000x64.Idx) = j := by
    funext d; apply Fin.ext
    match d with
    | ⟨0, _⟩ => show (i 0).val % 2000 = (j 0).val; omega
    | ⟨1, _⟩ => exact h1
  unfold G1
  rw [hrows, hplace, hw]

/-! ### The operand indices of the contraction, axis by axis -/

theorem lhsAx1_0 (j : S2000x64.Idx) (k : dot_S2000x4_S4x64_S2000x64_1_0_0_1_n_n.contr.Idx) :
    (dot_S2000x4_S4x64_S2000x64_1_0_0_1_n_n.lhsIdx j k (0 : Fin 2)).val = (j 0).val := by
  unfold DotDims.lhsIdx
  rw [dif_neg (show ¬(0 : Fin S2000x4.rank) ∈ dot_S2000x4_S4x64_S2000x64_1_0_0_1_n_n.lhsBatch by decide),
    dif_pos (show (0 : Fin S2000x4.rank) ∈ dot_S2000x4_S4x64_S2000x64_1_0_0_1_n_n.lhsNonContracting by decide)]
  rfl

theorem lhsAx1_1 (j : S2000x64.Idx) (k : dot_S2000x4_S4x64_S2000x64_1_0_0_1_n_n.contr.Idx) :
    (dot_S2000x4_S4x64_S2000x64_1_0_0_1_n_n.lhsIdx j k (1 : Fin 2)).val = (k ⟨0, by decide⟩).val :=
  dot_S2000x4_S4x64_S2000x64_1_0_0_1_n_n.lhsIdx_val_of_single (cl := (1 : Fin 2)) rfl j k

theorem rhsAx1_0 (j : S2000x64.Idx) (k : dot_S2000x4_S4x64_S2000x64_1_0_0_1_n_n.contr.Idx) :
    (dot_S2000x4_S4x64_S2000x64_1_0_0_1_n_n.rhsIdx j k (0 : Fin 2)).val = (k ⟨0, by decide⟩).val :=
  dot_S2000x4_S4x64_S2000x64_1_0_0_1_n_n.rhsIdx_val_of_single (cr := (0 : Fin 2)) rfl j k

theorem rhsAx1_1 (j : S2000x64.Idx) (k : dot_S2000x4_S4x64_S2000x64_1_0_0_1_n_n.contr.Idx) :
    (dot_S2000x4_S4x64_S2000x64_1_0_0_1_n_n.rhsIdx j k (1 : Fin 2)).val = (j 1).val := by
  unfold DotDims.rhsIdx
  rw [dif_neg (show ¬(1 : Fin S4x64.rank) ∈ dot_S2000x4_S4x64_S2000x64_1_0_0_1_n_n.rhsBatch by decide),
    dif_pos (show (1 : Fin S4x64.rank) ∈ dot_S2000x4_S4x64_S2000x64_1_0_0_1_n_n.rhsNonContracting by decide)]
  rfl

/-- The payload at the ideal values, at an index: the sum over the contracted axis. -/
theorem k1_pay1_apply (a : Vec Ideal S2000x4 .f32) (b : Vec Ideal S4x64 .f32) (p : Fin 2000) (q : Fin ncol1) :
    k1_pay1 (F := Ideal) a b (ix2 p q) = ∑ k : Fin kdim1, a (ix2 p k) * b (ix2 k q) := by
  unfold k1_pay1
  simp only [shapeCast_self]
  refine (Ideal.matmul_constant_zero_apply _ _ _ _ _).trans ?_
  rw [← Equiv.sum_comp (contrEquiv1 dot_S2000x4_S4x64_S2000x64_1_0_0_1_n_n kdim1 rfl rfl).symm]
  refine Finset.sum_congr rfl fun k _ => ?_
  have hl : dot_S2000x4_S4x64_S2000x64_1_0_0_1_n_n.lhsIdx (ix2 p q) ((contrEquiv1 dot_S2000x4_S4x64_S2000x64_1_0_0_1_n_n kdim1 rfl rfl).symm k) = ix2 p k := by
    funext d; apply Fin.ext
    match d with
    | ⟨0, _⟩ => exact lhsAx1_0 _ _
    | ⟨1, _⟩ => exact (lhsAx1_1 _ _).trans (contrEquiv1_symm_val _ kdim1 rfl rfl k)
  have hr : dot_S2000x4_S4x64_S2000x64_1_0_0_1_n_n.rhsIdx (ix2 p q) ((contrEquiv1 dot_S2000x4_S4x64_S2000x64_1_0_0_1_n_n kdim1 rfl rfl).symm k) = ix2 k q := by
    funext d; apply Fin.ext
    match d with
    | ⟨0, _⟩ => exact (rhsAx1_0 _ _).trans (contrEquiv1_symm_val _ kdim1 rfl rfl k)
    | ⟨1, _⟩ => exact rhsAx1_1 _ _
  rw [hl, hr]

/-- Entry (r, q) of the product at the ideal values: the sum over k of x (r, k) · w (k, q). -/
theorem G1_apply (x : S50000x4.Idx → Elt Ideal .f32) (w : S4x64.Idx → Elt Ideal .f32) (r : Fin 50000) (q : Fin ncol1) :
    G1 (F := Ideal) x w (ix2 r q) = ∑ k : Fin kdim1, x (ix2 r k) * w (ix2 k q) := by
  unfold G1
  rw [k1_pay1_apply]
  refine Finset.sum_congr rfl fun k _ => ?_
  unfold rowsOf1
  have hrow : (ix2 (⟨r.val / 2000 * 2000 + r.val % 2000, by have := r.isLt; omega⟩ : Fin 50000) k : S50000x4.Idx) = ix2 r k := by
    funext d; apply Fin.ext
    match d with
    | ⟨0, _⟩ => show r.val / 2000 * 2000 + r.val % 2000 = r.val; omega
    | ⟨1, _⟩ => rfl
  exact congrArg (fun z => x z * w (ix2 k q)) hrow

end Value1

/-! ## From the blocks written back to the array -/

section Final1
variable (V : (c : Dev nD) → (b : Ref sig .tc) → Buf (Elt F) ((c : Thread nD τ).loc b))

theorem hz1 : (![0, 0] : Fin 2 → Nat) = fun _ => 0 := funext fun a => by fin_cases a <;> rfl

/-- The index maps over the grid: the rows of X and of the product move with the point, one block a point;
    W stays; no window moves along its columns. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the arrays as the region finds them. -/
theorem flushed1_2_eq (c : Dev nD) (t : Fin cfg1.N) :
    (dat1 V c).flushed 2 t = ((cfg1.win 2).blk t).view.read (Elt F) (G1 (V c (Pipeline.arrRef spec1 0)) (V c (Pipeline.arrRef spec1 1))) := by
  show (cfg1.win 2).cut (grid1.coords t) ((dat1 V c).after 2 t) = _
  rw [after1_2]
  unfold out1_2
  rw [View.canon_unit_zero hz1]
  simp only [View.ld_unit_zero (S := S2000x4) hz1, View.ld_unit_zero (S := S4x64) hz1]
  obtain ⟨e0, e1, e2, e3, e4, e5⟩ := idx_facts1 t
  funext j
  show k1_pay1 (iblk1 V c 0 t) (iblk1 V c 1 t) j = G1 (V c (Pipeline.arrRef spec1 0)) (V c (Pipeline.arrRef spec1 1)) (((cfg1.win 2).blk t).view.emb j)
  refine (G1_of_block _ _ t.val _ j ?_ ?_ _ _ ?_ ?_).symm
  · show win1_2.index t (0 : Fin 2) * 2000 + 1 * (j 0).val = t.val * 2000 + (j 0).val
    rw [e4]; omega
  · show win1_2.index t (1 : Fin 2) * S2000x64.size 1 + 1 * (j 1).val = (j 1).val
    rw [e5]; omega
  · funext y
    show V c (Pipeline.arrRef spec1 1) (((cfg1.win 1).blk t).view.emb y) = V c (Pipeline.arrRef spec1 1) y
    congr 1
    funext d; apply Fin.ext
    match d with
    | ⟨0, _⟩ => show win1_1.index t (0 : Fin 2) * S4x64.size 0 + 1 * (y 0).val = (y 0).val; rw [e2]; omega
    | ⟨1, _⟩ => show win1_1.index t (1 : Fin 2) * S4x64.size 1 + 1 * (y 1).val = (y 1).val; rw [e3]; omega
  · intro y hy
    show V c (Pipeline.arrRef spec1 0) (((cfg1.win 0).blk t).view.emb y) = V c (Pipeline.arrRef spec1 0) (ix2 ⟨t.val * 2000 + (y 0).val, hy⟩ (y 1))
    congr 1
    funext d; apply Fin.ext
    match d with
    | ⟨0, _⟩ => show win1_0.index t (0 : Fin 2) * 2000 + 1 * (y 0).val = t.val * 2000 + (y 0).val; rw [e0]; omega
    | ⟨1, _⟩ => show win1_0.index t (1 : Fin 2) * S2000x4.size 1 + 1 * (y 1).val = (y 1).val; rw [e1]; omega

/-- An index of the array is in point t's block iff each coordinate is in the block's range on its axis. -/
theorem mem_blk1_2 (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole (Pipeline.arrRef spec1 2)).slice (win1_2.rect t)).set ↔ _
  rw [View.set_slice_whole, Rect.mem_set_unit]
  exact Iff.rfl

/-- Every index of the array is in some point's block: row r in the block of point r / 2000. -/
theorem covered1_2 (i : S50000x64.Idx) :
    ∃ t : Fin cfg1.N, (cfg1.win 2).flush t = true ∧ i ∈ ((cfg1.win 2).blk t).view.set := by
  have hi0 : (i 0).val < 50000 := (i 0).isLt
  refine ⟨⟨(i 0).val / 2000, by rw [show cfg1.N = 25 from N_1]; omega⟩, flush1_2 _, ?_⟩
  obtain ⟨e0, e1, e2, e3, e4, e5⟩ := idx_facts1 ⟨(i 0).val / 2000, by rw [show cfg1.N = 25 from N_1]; omega⟩
  rw [mem_blk1_2]
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * S2000x64.size 1 ≤ (i 1).val ∧ (i 1).val < win1_2.index _ (1 : Fin 2) * S2000x64.size 1 + S2000x64.size 1
    rw [e5, Nat.zero_mul, Nat.zero_add]; exact ⟨Nat.zero_le _, (i 1).isLt⟩

/-- The output array after the last point is the product of the two input arrays as the region finds them. -/
theorem final1_2 (c : Dev nD) :
    (dat1 V c).arrAt 2 cfg1.N = G1 (V c (Pipeline.arrRef spec1 0)) (V c (Pipeline.arrRef spec1 1)) :=
  (dat1 V c).arrAt_eq_of_cover 2 (G1 (V c (Pipeline.arrRef spec1 0)) (V c (Pipeline.arrRef spec1 1)))
    (fun t _ => flushed1_2_eq V c t) covered1_2

end Final1

end Cert.KernelIdeal.Hand

end
-- ==== Proof.KI.R20v.lean ====
import proofs.«408084_j48395691492010_3_alg».proof.Proof.KI.R20
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws

/-!
# Region 20: the array it leaves, as one function of the arrays it finds

Every grid point writes one block of 2000 rows of the output, and the 25 blocks tile the 50000 rows; the four
single-row inputs are the same block at every point. So the output array after the run is one function of the five
arrays the region finds. Entry (r, q) is computed from row r of the activations alone:

  bn[r,k] = (x[r,k] - mean[k]) * rsqrt (var[k] + eps) * gamma[k] + beta[k],
  out[r,q] = exp (bn[r,q] - max_k bn[r,k]) / (1 + Σ_k exp (bn[r,k] - max_k bn[r,k])).

At a generic float instance the row's sum is the instance's reduction of the whole 2000-row block that holds the
row, so the function is stated through that block; over the extended reals the reduction is a sum over the row and
the block drops out.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable {F : FTy → Type} [FloatOps F]

/-! ## The layout operations of the body, read at an index -/

section Layout20
variable {α : Type}

/-- A vector of 2000 entries cast to a column reads, at (p, 0), entry p. -/
theorem castCol20 (v : S2000.Idx → α) (h : S2000.ShapeCasts S2000x1) :
    shapeCast S2000x1 v h = fun y => v (ix1 (y 0)) := by
  funext y
  obtain ⟨p, u, rfl⟩ : ∃ (p : Fin 2000) (u : Fin 1), y = ix2 p u := ⟨y 0, y 1, eq_ix2 y⟩
  refine shapeCast_apply v h (ix2 p u) (ix1 p) ?_
  have hu : u.val = 0 := by omega
  rw [Shape.rowMajor_val_two, Shape.rowMajor_val_one]
  show p.val = p.val * 1 + u.val
  rw [hu, Nat.mul_one, Nat.add_zero]

/-- A column broadcast along the rows reads, at (p, k), the column's entry p. -/
theorem bcastCol20 (v : S2000x1.Idx → α) (h : S2000x1.Broadcasts S2000x64) :
    broadcastTo S2000x64 v h = fun y => v (ix2 (y 0) (0 : Fin 1)) := by
  funext y
  obtain ⟨p, k, rfl⟩ : ∃ (p : Fin 2000) (k : Fin 64), y = ix2 p k := ⟨y 0, y 1, eq_ix2 y⟩
  refine broadcastTo_apply v h (ix2 p k) (ix2 p (0 : Fin 1)) fun ax => ?_
  match ax with
  | ⟨0, _⟩ => rfl
  | ⟨1, _⟩ => rfl

/-- A single row broadcast down the block reads, at (p, k), the row's entry k. -/
theorem bcastRow20 (v : S1x64.Idx → α) (h : S1x64.Broadcasts S2000x64) :
    broadcastTo S2000x64 v h = fun y => v (ix2 (0 : Fin 1) (y 1)) := by
  funext y
  obtain ⟨p, k, rfl⟩ : ∃ (p : Fin 2000) (k : Fin 64), y = ix2 p k := ⟨y 0, y 1, eq_ix2 y⟩
  exact broadcastTo_1b_ab_apply v h p k

end Layout20

/-! ## The body's result on a block, by coordinates -/

/-- The batch-norm of a block, entry by entry, in the body's order of operations. -/
noncomputable def bn20 (v0 : Vec F S2000x64 .f32) (v2 v6 v13 v17 : Vec F S1x64 .f32) : FVec F S2000x64 .f32 := fun y =>
  FloatOps.addf (FloatOps.mulf (FloatOps.mulf (FloatOps.subf (v0 y) (v2 (ix2 (0 : Fin 1) (y 1))))
      (FloatOps.rsqrt (FloatOps.addf (v6 (ix2 (0 : Fin 1) (y 1))) (FloatOps.ofBits .f32 0x3727C5AC#32))))
      (v13 (ix2 (0 : Fin 1) (y 1)))) (v17 (ix2 (0 : Fin 1) (y 1)))

/-- Its row maxima: the body's reduction along the columns, started from minus infinity. -/
noncomputable def mx20 (v0 : Vec F S2000x64 .f32) (v2 v6 v13 v17 : Vec F S1x64 .f32) : FVec F S2000 .f32 :=
  multiReduction .maximumf [1] S2000 (bn20 v0 v2 v6 v13 v17) 0xFF800000#32 reduces_S2000x64_S2000 (.inl rfl) rfl

/-- The exponentials of the batch-norm less its row maximum. -/
noncomputable def e20 (v0 : Vec F S2000x64 .f32) (v2 v6 v13 v17 : Vec F S1x64 .f32) : FVec F S2000x64 .f32 := fun y =>
  FloatOps.exp (FloatOps.subf (bn20 v0 v2 v6 v13 v17 y) (mx20 v0 v2 v6 v13 v17 (ix1 (y 0))))

/-- Their row sums: the body's reduction along the columns, started from zero. -/
noncomputable def sm20 (v0 : Vec F S2000x64 .f32) (v2 v6 v13 v17 : Vec F S1x64 .f32) : FVec F S2000 .f32 :=
  multiReduction .add [1] S2000 (e20 v0 v2 v6 v13 v17) 0x00000000#32 reduces_S2000x64_S2000 (.inl rfl) rfl

/-- What the body stores: each exponential over one plus its row's sum. -/
noncomputable def P20 (v0 : Vec F S2000x64 .f32) (v2 v6 v13 v17 : Vec F S1x64 .f32) : Vec F S2000x64 .f32 := fun y =>
  FloatOps.divf (e20 v0 v2 v6 v13 v17 y)
    (FloatOps.addf (FloatOps.ofBits .f32 0x3F800000#32) (sm20 v0 v2 v6 v13 v17 (ix1 (y 0))))

/-- The skeleton's payload is that function: its layout operations read at an index, the rest unfolds. -/
theorem pay20_eq (v0 : Vec F S2000x64 .f32) (v2 v6 v13 v17 : Vec F S1x64 .f32) :
    k20_pay1 v0 v2 v6 v13 v17 = P20 v0 v2 v6 v13 v17 := by
  unfold k20_pay1
  simp only [shapeCast_self, bcastRow20, bcastCol20, castCol20]
  rfl

/-! ## The output array as one function of the arrays the region finds -/

/-- Rows q·2000 … q·2000 + 1999 of an array of 50000 rows. -/
noncomputable def rows20 (x : S50000x64.Idx → Elt F .f32) (q : Fin 25) : Vec F S2000x64 .f32 := fun y =>
  x (ix2 (⟨q.val * 2000 + (y 0).val, by have := idx2_lt0 y; have := q.isLt; omega⟩ : Fin 50000) (y 1))

/-- The block of 2000 rows that holds an entry's row, -/
noncomputable def blkOf20 (i : S50000x64.Idx) : Fin 25 := ⟨(i 0).val / 2000, by have := idx2_lt0 i; omega⟩
/-- and the row's place in it. -/
noncomputable def rowIn20 (i : S50000x64.Idx) : Fin 2000 := ⟨(i 0).val % 2000, Nat.mod_lt _ (by decide)⟩

/-- The output array: at each entry, the body's result on the block of 2000 rows of the activations that holds
    the entry's row, at the row's place in the block. -/
noncomputable def G20 (x : S50000x64.Idx → Elt F .f32) (mu va ga be : S1x64.Idx → Elt F .f32) : S50000x64.Idx → Elt F .f32 := fun i =>
  P20 (rows20 x (blkOf20 i)) mu va ga be (ix2 (rowIn20 i) (i 1))

/-- The output array read under block q at a place j of the block. -/
theorem G20_blk (x : S50000x64.Idx → Elt F .f32) (mu va ga be : S1x64.Idx → Elt F .f32) (q : Fin 25) (j : S2000x64.Idx)
    (i : S50000x64.Idx) (h0 : (i 0).val = q.val * 2000 + (j 0).val) (h1 : (i 1).val = (j 1).val) :
    G20 x mu va ga be i = P20 (rows20 x q) mu va ga be j := by
  have hj0 : (j 0).val < 2000 := idx2_lt0 j
  have hq : blkOf20 i = q := Fin.ext (by show (i 0).val / 2000 = q.val; omega)
  have hj : ix2 (rowIn20 i) (i 1) = j := by
    funext a
    match a with
    | ⟨0, _⟩ => exact Fin.ext (by show (i 0).val % 2000 = (j 0).val; omega)
    | ⟨1, _⟩ => exact Fin.ext h1
  unfold G20
  rw [hq]
  exact congrArg (P20 (rows20 x q) mu va ga be) hj

section Region20v
variable (V : (c : Dev nD) → (b : Ref sig .tc) → Buf (Elt F) ((c : Thread nD τ).loc b))

theorem hz20 : (![0, 0] : Fin 2 → Nat) = fun _ => 0 := funext fun a => by fin_cases a <;> rfl

/-- The windows' block indices, decided over the 25 grid points: the activations and the output move one block of
    rows per point, the four single rows stay. -/
theorem idx20 : ∀ t : Fin cfg20.N,
    win20_0.index t (0 : Fin 2) = t.val ∧ win20_0.index t (1 : Fin 2) = 0
    ∧ win20_1.index t (0 : Fin 2) = 0 ∧ win20_1.index t (1 : Fin 2) = 0
    ∧ win20_2.index t (0 : Fin 2) = 0 ∧ win20_2.index t (1 : Fin 2) = 0
    ∧ win20_3.index t (0 : Fin 2) = 0 ∧ win20_3.index t (1 : Fin 2) = 0
    ∧ win20_4.index t (0 : Fin 2) = 0 ∧ win20_4.index t (1 : Fin 2) = 0
    ∧ win20_5.index t (0 : Fin 2) = t.val ∧ win20_5.index t (1 : Fin 2) = 0 :=
  (by decide +kernel : ∀ t : Fin grid20.N, _)

/-- The activations' block at point t is rows t·2000 … of their array. -/
theorem iblk20_0_eq (c : Dev nD) (t : Fin cfg20.N) :
    (iblk20 V c 0 t : S2000x64.Idx → Elt F .f32) = rows20 (V c (Pipeline.arrRef spec20 0)) (t.cast N_20) := by
  obtain ⟨e0, e1, -⟩ := idx20 t
  funext y
  show V c (Pipeline.arrRef spec20 0) (((cfg20.win 0).blk t).view.emb y) = V c (Pipeline.arrRef spec20 0) _
  refine congrArg _ (funext fun a => Fin.ext ?_)
  match a with
  | ⟨0, _⟩ => show win20_0.index t (0 : Fin 2) * 2000 + 1 * (y 0).val = t.val * 2000 + (y 0).val; omega
  | ⟨1, _⟩ => show win20_0.index t (1 : Fin 2) * 64 + 1 * (y 1).val = (y 1).val; omega

/-- Each single row's block is, at every point, its whole array. -/
theorem iblk20_1_eq (c : Dev nD) (t : Fin cfg20.N) : (iblk20 V c 1 t : S1x64.Idx → Elt F .f32) = V c (Pipeline.arrRef spec20 1) := by
  obtain ⟨-, -, e0, e1, -⟩ := idx20 t
  funext y
  show V c (Pipeline.arrRef spec20 1) (((cfg20.win 1).blk t).view.emb y) = V c (Pipeline.arrRef spec20 1) y
  refine congrArg _ (funext fun a => Fin.ext ?_)
  match a with
  | ⟨0, _⟩ => show win20_1.index t (0 : Fin 2) * 1 + 1 * (y 0).val = (y 0).val; omega
  | ⟨1, _⟩ => show win20_1.index t (1 : Fin 2) * 64 + 1 * (y 1).val = (y 1).val; omega
theorem iblk20_2_eq (c : Dev nD) (t : Fin cfg20.N) : (iblk20 V c 2 t : S1x64.Idx → Elt F .f32) = V c (Pipeline.arrRef spec20 2) := by
  obtain ⟨-, -, -, -, e0, e1, -⟩ := idx20 t
  funext y
  show V c (Pipeline.arrRef spec20 2) (((cfg20.win 2).blk t).view.emb y) = V c (Pipeline.arrRef spec20 2) y
  refine congrArg _ (funext fun a => Fin.ext ?_)
  match a with
  | ⟨0, _⟩ => show win20_2.index t (0 : Fin 2) * 1 + 1 * (y 0).val = (y 0).val; omega
  | ⟨1, _⟩ => show win20_2.index t (1 : Fin 2) * 64 + 1 * (y 1).val = (y 1).val; omega
theorem iblk20_3_eq (c : Dev nD) (t : Fin cfg20.N) : (iblk20 V c 3 t : S1x64.Idx → Elt F .f32) = V c (Pipeline.arrRef spec20 3) := by
  obtain ⟨-, -, -, -, -, -, e0, e1, -⟩ := idx20 t
  funext y
  show V c (Pipeline.arrRef spec20 3) (((cfg20.win 3).blk t).view.emb y) = V c (Pipeline.arrRef spec20 3) y
  refine congrArg _ (funext fun a => Fin.ext ?_)
  match a with
  | ⟨0, _⟩ => show win20_3.index t (0 : Fin 2) * 1 + 1 * (y 0).val = (y 0).val; omega
  | ⟨1, _⟩ => show win20_3.index t (1 : Fin 2) * 64 + 1 * (y 1).val = (y 1).val; omega
theorem iblk20_4_eq (c : Dev nD) (t : Fin cfg20.N) : (iblk20 V c 4 t : S1x64.Idx → Elt F .f32) = V c (Pipeline.arrRef spec20 4) := by
  obtain ⟨-, -, -, -, -, -, -, -, e0, e1, -⟩ := idx20 t
  funext y
  show V c (Pipeline.arrRef spec20 4) (((cfg20.win 4).blk t).view.emb y) = V c (Pipeline.arrRef spec20 4) y
  refine congrArg _ (funext fun a => Fin.ext ?_)
  match a with
  | ⟨0, _⟩ => show win20_4.index t (0 : Fin 2) * 1 + 1 * (y 0).val = (y 0).val; omega
  | ⟨1, _⟩ => show win20_4.index t (1 : Fin 2) * 64 + 1 * (y 1).val = (y 1).val; omega

set_option maxHeartbeats 1000000 in
/-- What point t writes back is block t of the output array. -/
theorem flushed20_eq (c : Dev nD) (t : Fin cfg20.N) :
    (dat20 V c).flushed 5 t = ((cfg20.win 5).blk t).view.read (Elt F)
      (G20 (V c (Pipeline.arrRef spec20 0)) (V c (Pipeline.arrRef spec20 1)) (V c (Pipeline.arrRef spec20 2))
        (V c (Pipeline.arrRef spec20 3)) (V c (Pipeline.arrRef spec20 4))) := by
  show (cfg20.win 5).cut (grid20.coords t) ((dat20 V c).after 5 t) = _
  rw [after20_5]
  unfold out20_5
  rw [View.canon_unit_zero hz20]
  simp only [View.ld_unit_zero (S := S2000x64) hz20, View.ld_unit_zero (S := S1x64) hz20]
  rw [pay20_eq, iblk20_0_eq, iblk20_1_eq, iblk20_2_eq, iblk20_3_eq, iblk20_4_eq]
  obtain ⟨-, -, -, -, -, -, -, -, -, -, e0, e1⟩ := idx20 t
  funext j
  show P20 (rows20 _ (t.cast N_20)) _ _ _ _ j = G20 _ _ _ _ _ (((cfg20.win 5).blk t).view.emb j)
  refine (G20_blk _ _ _ _ _ (t.cast N_20) j (((cfg20.win 5).blk t).view.emb j) ?_ ?_).symm
  · show win20_5.index t (0 : Fin 2) * 2000 + 1 * (j 0).val = t.val * 2000 + (j 0).val; omega
  · show win20_5.index t (1 : Fin 2) * 64 + 1 * (j 1).val = (j 1).val; omega

/-- An entry of the array is in point t's block iff each coordinate is in the block's range on its axis. -/
theorem mem_blk20 (t : Fin cfg20.N) (i : S50000x64.Idx) :
    i ∈ ((cfg20.win 5).blk t).view.set ↔ ∀ a : Fin 2, win20_5.index t a * S2000x64.size a ≤ (i a).val ∧ (i a).val < win20_5.index t a * S2000x64.size a + S2000x64.size a := by
  show i ∈ ((View.whole main_v226).slice (win20_5.rect t)).set ↔ _
  rw [View.set_slice_whole, Rect.mem_set_unit]
  exact Iff.rfl

/-- Every entry is in the block of the point numbered by its row over 2000. -/
theorem covered20 (i : S50000x64.Idx) : ∃ t : Fin cfg20.N, (cfg20.win 5).flush t = true ∧ i ∈ ((cfg20.win 5).blk t).view.set := by
  have hi0 : (i 0).val < 50000 := idx2_lt0 i
  have hi1 : (i 1).val < 64 := idx2_lt1 i
  have ht : ∃ t : Fin cfg20.N, t.val = (i 0).val / 2000 := ⟨(⟨(i 0).val / 2000, by omega⟩ : Fin 25).cast N_20.symm, rfl⟩
  obtain ⟨t, ht⟩ := ht
  obtain ⟨-, -, -, -, -, -, -, -, -, -, e0, e1⟩ := idx20 t
  refine ⟨t, flush20_5 t, ?_⟩
  rw [mem_blk20]
  intro a
  match a with
  | ⟨0, _⟩ => show win20_5.index t (0 : Fin 2) * 2000 ≤ (i 0).val ∧ (i 0).val < win20_5.index t (0 : Fin 2) * 2000 + 2000; omega
  | ⟨1, _⟩ => show win20_5.index t (1 : Fin 2) * 64 ≤ (i 1).val ∧ (i 1).val < win20_5.index t (1 : Fin 2) * 64 + 64; omega

/-- The output array after the run. -/
theorem final20_5 (c : Dev nD) :
    (dat20 V c).arrAt 5 cfg20.N = G20 (V c (Pipeline.arrRef spec20 0)) (V c (Pipeline.arrRef spec20 1)) (V c (Pipeline.arrRef spec20 2))
      (V c (Pipeline.arrRef spec20 3)) (V c (Pipeline.arrRef spec20 4)) :=
  (dat20 V c).arrAt_eq_of_cover 5 _ (fun t _ => flushed20_eq V c t) covered20

end Region20v

/-! ## The output array over the extended reals, entry by entry -/

section Ideal20

/-- The source entry of a row reduction over a block: the result's row p with k put back on the column axis. -/
theorem lift20 (h : S2000x64.Reduces [1] S2000) (p : Fin 2000) (k : Fin 64) : h.lift (ix1 p) k = ix2 p k := by
  funext a
  match a with
  | ⟨0, _⟩ => exact Fin.ext rfl
  | ⟨1, _⟩ => exact Fin.ext rfl

section Block20
variable (X : Vec Ideal S2000x64 .f32) (mu va ga be : Vec Ideal S1x64 .f32)

/-- The block's batch-norm at an entry. -/
theorem bn20_apply (p : Fin 2000) (k : Fin 64) :
    bn20 (F := Ideal) X mu va ga be (ix2 p k)
      = ((X (ix2 p k) : EReal) - mu (ix2 0 k)) * Ideal.rsqrt (va (ix2 0 k) + Cert.Val.cEps) * ga (ix2 0 k) + be (ix2 0 k) := rfl

/-- A row's maximum: the fold of max over the row, from minus infinity. -/
theorem mx20_apply (p : Fin 2000) :
    mx20 (F := Ideal) X mu va ga be (ix1 p) = Cert.Val.rowMax (fun k : Fin 64 => bn20 (F := Ideal) X mu va ga be (ix2 p k)) := by
  unfold mx20
  refine (Ideal.multiReduction_maximumf_single (bn20 (F := Ideal) X mu va ga be) 0xFF800000#32 reduces_S2000x64_S2000 (.inl rfl) rfl
    (ix1 p)).trans ?_
  have hf : (bn20 (F := Ideal) X mu va ga be ∘ (reduces_S2000x64_S2000).lift (ix1 p))
      = fun k : Fin 64 => bn20 (F := Ideal) X mu va ga be (ix2 p k) :=
    funext fun k => congrArg (bn20 (F := Ideal) X mu va ga be) (lift20 _ p k)
  exact congrArg (fun f => (Finset.univ : Finset (Fin 64)).fold max Cert.Val.cNegInf f) hf

/-- The exponentials at an entry. -/
theorem e20_apply (p : Fin 2000) (k : Fin 64) :
    e20 (F := Ideal) X mu va ga be (ix2 p k)
      = Ideal.exp (bn20 (F := Ideal) X mu va ga be (ix2 p k) - Cert.Val.rowMax (fun k' : Fin 64 => bn20 (F := Ideal) X mu va ga be (ix2 p k'))) := by
  show Ideal.exp (bn20 (F := Ideal) X mu va ga be (ix2 p k) - mx20 (F := Ideal) X mu va ga be (ix1 p)) = _
  rw [mx20_apply]

/-- A row's sum of exponentials: the sum over the row. -/
theorem sm20_apply (p : Fin 2000) :
    sm20 (F := Ideal) X mu va ga be (ix1 p) = ∑ k : Fin 64, e20 (F := Ideal) X mu va ga be (ix2 p k) := by
  unfold sm20
  refine (Ideal.multiReduction_add_single (e20 (F := Ideal) X mu va ga be) 0x00000000#32 reduces_S2000x64_S2000 (.inl rfl) rfl
    (ix1 p)).trans ?_
  exact Finset.sum_congr rfl fun k _ => congrArg (e20 (F := Ideal) X mu va ga be) (lift20 _ p k)

/-- What the body stores, at an entry. -/
theorem P20_apply (p : Fin 2000) (k : Fin 64) :
    P20 (F := Ideal) X mu va ga be (ix2 p k)
      = Ideal.div (e20 (F := Ideal) X mu va ga be (ix2 p k)) (Cert.Val.cOne + sm20 (F := Ideal) X mu va ga be (ix1 p)) := rfl

end Block20

/-- The block that holds row r, read at the row's place, is row r of the array. -/
theorem rows20_at (x : S50000x64.Idx → Elt Ideal .f32) (r : Fin 50000) (q k : Fin 64) :
    rows20 x (blkOf20 (ix2 r q)) (ix2 (rowIn20 (ix2 r q)) k) = x (ix2 r k) := by
  unfold rows20
  refine congrArg x (funext fun a => ?_)
  match a with
  | ⟨0, _⟩ => exact Fin.ext (by show (r.val / 2000) * 2000 + r.val % 2000 = r.val; omega)
  | ⟨1, _⟩ => rfl

/-- THE OUTPUT ARRAY AT AN ENTRY: the row softmax with one added to the denominator, of the batch-norm of row r of
    the activations with the given column statistics, scale and shift. -/
theorem G20_apply (x : S50000x64.Idx → Elt Ideal .f32) (mu va ga be : S1x64.Idx → Elt Ideal .f32) (r : Fin 50000) (q : Fin 64) :
    G20 (F := Ideal) x mu va ga be (ix2 r q)
      = Cert.Val.smOne (fun j' => Cert.Val.bnAt (fun i j => x (ix2 i j)) (fun j => mu (ix2 0 j)) (fun j => va (ix2 0 j))
          (fun j => ga (ix2 0 j)) (fun j => be (ix2 0 j)) r j') q := by
  have hb : ∀ k : Fin 64, bn20 (F := Ideal) (rows20 x (blkOf20 (ix2 r q))) mu va ga be (ix2 (rowIn20 (ix2 r q)) k)
      = Cert.Val.bnAt (fun i j => x (ix2 i j)) (fun j => mu (ix2 0 j)) (fun j => va (ix2 0 j))
          (fun j => ga (ix2 0 j)) (fun j => be (ix2 0 j)) r k := by
    intro k
    rw [bn20_apply, rows20_at]
    rfl
  show P20 (F := Ideal) (rows20 x (blkOf20 (ix2 r q))) mu va ga be (ix2 (rowIn20 (ix2 r q)) q) = _
  rw [P20_apply, sm20_apply]
  simp only [e20_apply, hb]
  rfl

end Ideal20

end Cert.KernelIdeal.Hand

end
-- ==== Proof.KI.R21v.lean ====
import proofs.«408084_j48395691492010_3_alg».proof.Proof.KI.R21
import Idealize.ShloMosaic.Lib.Pipeline.Value
import Idealize.ShloMosaic.Lib.ValueIdx
import Idealize.ShloMosaic.PureOps.Ideal.Laws

/-! # Region 21, read: the output array is the product of the two input arrays

The frame part gives, point by point, the block of products the body leaves in the output window. Here the
blocks are put together: after the last point the output array is one function G21 of the two input arrays
as the region finds them, and at the ideal values entry (r, q) of it is the sum over k of x (r, k) · w (k, q). -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Value21

/-- The contracted extent (columns of X, rows of W) and the number of columns of W. -/
abbrev kdim21 : Nat := 64
abbrev ncol21 : Nat := 64

/-! ## The product as a function of the two arrays

The unit that multiplies is given a block of rows at a time, so the function of the arrays is stated that
way: entry (r, q) is the entry of the product of the block of rows holding row r with W, at that row's
place in the block. At the ideal values a block's product is the sum over the contracted axis, and the
blocks fall away. -/

/-- The block of consecutive rows of x that holds row r, its rows numbered from the block's first. -/
noncomputable def rowsOf21 (x : S50000x64.Idx → Elt F .f32) (r : Fin 50000) : Vec F S2000x64 .f32 :=
  fun y => x (ix2 ⟨r.val / 2000 * 2000 + (y 0).val, by
    have h0 : (y 0).val < 2000 := (y 0).isLt
    have hr := r.isLt
    omega⟩ (y 1))

/-- Entry i of the product: the payload at the block of rows holding row i 0 and at W, read at the row's
    place in its block and column i 1. -/
noncomputable def G21 (x : S50000x64.Idx → Elt F .f32) (w : S64x64.Idx → Elt F .f32) : S50000x64.Idx → Elt F .f32 :=
  fun i => k21_pay1 (rowsOf21 x (i 0)) w (ix2 ⟨(i 0).val % 2000, Nat.mod_lt _ (by decide)⟩ (i 1))

/-- Entry i of the product from ANY description of the block b that holds its row: the block of rows as
    xb, the matrix as wb, the entry's place in the block as j. -/
theorem G21_of_block (x : S50000x64.Idx → Elt F .f32) (w : S64x64.Idx → Elt F .f32) (b : Nat)
    (i : S50000x64.Idx) (j : S2000x64.Idx) (h0 : (i 0).val = b * 2000 + (j 0).val) (h1 : (i 1).val = (j 1).val)
    (xb : Vec F S2000x64 .f32) (wb : Vec F S64x64 .f32) (hw : wb = w)
    (hx : ∀ (y : S2000x64.Idx) (hy : b * 2000 + (y 0).val < 50000), xb y = x (ix2 ⟨b * 2000 + (y 0).val, hy⟩ (y 1))) :
    G21 x w i = k21_pay1 xb wb j := by
  have hj0 : (j 0).val < 2000 := (j 0).isLt
  have hi0 : (i 0).val < 50000 := (i 0).isLt
  have hrows : rowsOf21 x (i 0) = xb := by
    funext y
    have hy0 : (y 0).val < 2000 := (y 0).isLt
    have hq : (i 0).val / 2000 * 2000 = b * 2000 := by omega
    rw [hx y (by omega)]
    unfold rowsOf21
    congr 1
    funext d; apply Fin.ext
    match d with
    | ⟨0, _⟩ => show (i 0).val / 2000 * 2000 + (y 0).val = b * 2000 + (y 0).val; omega
    | ⟨1, _⟩ => rfl
  have hplace : (ix2 ⟨(i 0).val % 2000, Nat.mod_lt _ (by decide)⟩ (i 1) : S2000x64.Idx) = j := by
    funext d; apply Fin.ext
    match d with
    | ⟨0, _⟩ => show (i 0).val % 2000 = (j 0).val; omega
    | ⟨1, _⟩ => exact h1
  unfold G21
  rw [hrows, hplace, hw]

/-! ### The operand indices of the contraction, axis by axis -/

theorem lhsAx21_0 (j : S2000x64.Idx) (k : dot_S2000x64_S64x64_S2000x64_1_0_0_1_n_n.contr.Idx) :
    (dot_S2000x64_S64x64_S2000x64_1_0_0_1_n_n.lhsIdx j k (0 : Fin 2)).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

theorem lhsAx21_1 (j : S2000x64.Idx) (k : dot_S2000x64_S64x64_S2000x64_1_0_0_1_n_n.contr.Idx) :
    (dot_S2000x64_S64x64_S2000x64_1_0_0_1_n_n.lhsIdx j k (1 : Fin 2)).val = (k ⟨0, by decide⟩).val :=
  dot_S2000x64_S64x64_S2000x64_1_0_0_1_n_n.lhsIdx_val_of_single (cl := (1 : Fin 2)) rfl j k

theorem rhsAx21_0 (j : S2000x64.Idx) (k : dot_S2000x64_S64x64_S2000x64_1_0_0_1_n_n.contr.Idx) :
    (dot_S2000x64_S64x64_S2000x64_1_0_0_1_n_n.rhsIdx j k (0 : Fin 2)).val = (k ⟨0, by decide⟩).val :=
  dot_S2000x64_S64x64_S2000x64_1_0_0_1_n_n.rhsIdx_val_of_single (cr := (0 : Fin 2)) rfl j k

theorem rhsAx21_1 (j : S2000x64.Idx) (k : dot_S2000x64_S64x64_S2000x64_1_0_0_1_n_n.contr.Idx) :
    (dot_S2000x64_S64x64_S2000x64_1_0_0_1_n_n.rhsIdx j k (1 : Fin 2)).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The payload at the ideal values, at an index: the sum over the contracted axis. -/
theorem k21_pay1_apply (a : Vec Ideal S2000x64 .f32) (b : Vec Ideal S64x64 .f32) (p : Fin 2000) (q : Fin ncol21) :
    k21_pay1 (F := Ideal) a b (ix2 p q) = ∑ k : Fin kdim21, a (ix2 p k) * b (ix2 k q) := by
  unfold k21_pay1
  simp only [shapeCast_self]
  refine (Ideal.matmul_constant_zero_apply _ _ _ _ _).trans ?_
  rw [← Equiv.sum_comp (contrEquiv1 dot_S2000x64_S64x64_S2000x64_1_0_0_1_n_n kdim21 rfl rfl).symm]
  refine Finset.sum_congr rfl fun k _ => ?_
  have hl : dot_S2000x64_S64x64_S2000x64_1_0_0_1_n_n.lhsIdx (ix2 p q) ((contrEquiv1 dot_S2000x64_S64x64_S2000x64_1_0_0_1_n_n kdim21 rfl rfl).symm k) = ix2 p k := by
    funext d; apply Fin.ext
    match d with
    | ⟨0, _⟩ => exact lhsAx21_0 _ _
    | ⟨1, _⟩ => exact (lhsAx21_1 _ _).trans (contrEquiv1_symm_val _ kdim21 rfl rfl k)
  have hr : dot_S2000x64_S64x64_S2000x64_1_0_0_1_n_n.rhsIdx (ix2 p q) ((contrEquiv1 dot_S2000x64_S64x64_S2000x64_1_0_0_1_n_n kdim21 rfl rfl).symm k) = ix2 k q := by
    funext d; apply Fin.ext
    match d with
    | ⟨0, _⟩ => exact (rhsAx21_0 _ _).trans (contrEquiv1_symm_val _ kdim21 rfl rfl k)
    | ⟨1, _⟩ => exact rhsAx21_1 _ _
  rw [hl, hr]

/-- Entry (r, q) of the product at the ideal values: the sum over k of x (r, k) · w (k, q). -/
theorem G21_apply (x : S50000x64.Idx → Elt Ideal .f32) (w : S64x64.Idx → Elt Ideal .f32) (r : Fin 50000) (q : Fin ncol21) :
    G21 (F := Ideal) x w (ix2 r q) = ∑ k : Fin kdim21, x (ix2 r k) * w (ix2 k q) := by
  unfold G21
  rw [k21_pay1_apply]
  refine Finset.sum_congr rfl fun k _ => ?_
  unfold rowsOf21
  have hrow : (ix2 (⟨r.val / 2000 * 2000 + r.val % 2000, by have := r.isLt; omega⟩ : Fin 50000) k : S50000x64.Idx) = ix2 r k := by
    funext d; apply Fin.ext
    match d with
    | ⟨0, _⟩ => show r.val / 2000 * 2000 + r.val % 2000 = r.val; omega
    | ⟨1, _⟩ => rfl
  exact congrArg (fun z => x z * w (ix2 k q)) hrow

end Value21

/-! ## From the blocks written back to the array -/

section Final21
variable (V : (c : Dev nD) → (b : Ref sig .tc) → Buf (Elt F) ((c : Thread nD τ).loc b))

theorem hz21 : (![0, 0] : Fin 2 → Nat) = fun _ => 0 := funext fun a => by fin_cases a <;> rfl

/-- The index maps over the grid: the rows of X and of the product move with the point, one block a point;
    W stays; no window moves along its columns. -/
theorem idx_facts21 : ∀ t : Fin cfg21.N,
    win21_0.index t (0 : Fin 2) = t.val ∧ win21_0.index t (1 : Fin 2) = 0
    ∧ win21_1.index t (0 : Fin 2) = 0 ∧ win21_1.index t (1 : Fin 2) = 0
    ∧ win21_2.index t (0 : Fin 2) = t.val ∧ win21_2.index t (1 : Fin 2) = 0 :=
  (by decide +kernel : ∀ t : Fin grid21.N, _)

/-- What point t writes back is block t of the product of the arrays as the region finds them. -/
theorem flushed21_2_eq (c : Dev nD) (t : Fin cfg21.N) :
    (dat21 V c).flushed 2 t = ((cfg21.win 2).blk t).view.read (Elt F) (G21 (V c (Pipeline.arrRef spec21 0)) (V c (Pipeline.arrRef spec21 1))) := by
  show (cfg21.win 2).cut (grid21.coords t) ((dat21 V c).after 2 t) = _
  rw [after21_2]
  unfold out21_2
  rw [View.canon_unit_zero hz21]
  simp only [View.ld_unit_zero (S := S2000x64) hz21, View.ld_unit_zero (S := S64x64) hz21]
  obtain ⟨e0, e1, e2, e3, e4, e5⟩ := idx_facts21 t
  funext j
  show k21_pay1 (iblk21 V c 0 t) (iblk21 V c 1 t) j = G21 (V c (Pipeline.arrRef spec21 0)) (V c (Pipeline.arrRef spec21 1)) (((cfg21.win 2).blk t).view.emb j)
  refine (G21_of_block _ _ t.val _ j ?_ ?_ _ _ ?_ ?_).symm
  · show win21_2.index t (0 : Fin 2) * 2000 + 1 * (j 0).val = t.val * 2000 + (j 0).val
    rw [e4]; omega
  · show win21_2.index t (1 : Fin 2) * S2000x64.size 1 + 1 * (j 1).val = (j 1).val
    rw [e5]; omega
  · funext y
    show V c (Pipeline.arrRef spec21 1) (((cfg21.win 1).blk t).view.emb y) = V c (Pipeline.arrRef spec21 1) y
    congr 1
    funext d; apply Fin.ext
    match d with
    | ⟨0, _⟩ => show win21_1.index t (0 : Fin 2) * S64x64.size 0 + 1 * (y 0).val = (y 0).val; rw [e2]; omega
    | ⟨1, _⟩ => show win21_1.index t (1 : Fin 2) * S64x64.size 1 + 1 * (y 1).val = (y 1).val; rw [e3]; omega
  · intro y hy
    show V c (Pipeline.arrRef spec21 0) (((cfg21.win 0).blk t).view.emb y) = V c (Pipeline.arrRef spec21 0) (ix2 ⟨t.val * 2000 + (y 0).val, hy⟩ (y 1))
    congr 1
    funext d; apply Fin.ext
    match d with
    | ⟨0, _⟩ => show win21_0.index t (0 : Fin 2) * 2000 + 1 * (y 0).val = t.val * 2000 + (y 0).val; rw [e0]; omega
    | ⟨1, _⟩ => show win21_0.index t (1 : Fin 2) * S2000x64.size 1 + 1 * (y 1).val = (y 1).val; rw [e1]; omega

/-- An index of the array is in point t's block iff each coordinate is in the block's range on its axis. -/
theorem mem_blk21_2 (t : Fin cfg21.N) (i : S50000x64.Idx) :
    i ∈ ((cfg21.win 2).blk t).view.set ↔ ∀ a : Fin 2, win21_2.index t a * S2000x64.size a ≤ (i a).val ∧ (i a).val < win21_2.index t a * S2000x64.size a + S2000x64.size a := by
  show i ∈ ((View.whole (Pipeline.arrRef spec21 2)).slice (win21_2.rect t)).set ↔ _
  rw [View.set_slice_whole, Rect.mem_set_unit]
  exact Iff.rfl

/-- Every index of the array is in some point's block: row r in the block of point r / 2000. -/
theorem covered21_2 (i : S50000x64.Idx) :
    ∃ t : Fin cfg21.N, (cfg21.win 2).flush t = true ∧ i ∈ ((cfg21.win 2).blk t).view.set := by
  have hi0 : (i 0).val < 50000 := (i 0).isLt
  refine ⟨⟨(i 0).val / 2000, by rw [show cfg21.N = 25 from N_21]; omega⟩, flush21_2 _, ?_⟩
  obtain ⟨e0, e1, e2, e3, e4, e5⟩ := idx_facts21 ⟨(i 0).val / 2000, by rw [show cfg21.N = 25 from N_21]; omega⟩
  rw [mem_blk21_2]
  intro a
  match a with
  | ⟨0, _⟩ =>
    show win21_2.index _ (0 : Fin 2) * 2000 ≤ (i 0).val ∧ (i 0).val < win21_2.index _ (0 : Fin 2) * 2000 + 2000
    rw [e4]; show (i 0).val / 2000 * 2000 ≤ (i 0).val ∧ (i 0).val < (i 0).val / 2000 * 2000 + 2000; omega
  | ⟨1, _⟩ =>
    show win21_2.index _ (1 : Fin 2) * S2000x64.size 1 ≤ (i 1).val ∧ (i 1).val < win21_2.index _ (1 : Fin 2) * S2000x64.size 1 + S2000x64.size 1
    rw [e5, Nat.zero_mul, Nat.zero_add]; exact ⟨Nat.zero_le _, (i 1).isLt⟩

/-- The output array after the last point is the product of the two input arrays as the region finds them. -/
theorem final21_2 (c : Dev nD) :
    (dat21 V c).arrAt 2 cfg21.N = G21 (V c (Pipeline.arrRef spec21 0)) (V c (Pipeline.arrRef spec21 1)) :=
  (dat21 V c).arrAt_eq_of_cover 2 (G21 (V c (Pipeline.arrRef spec21 0)) (V c (Pipeline.arrRef spec21 1)))
    (fun t _ => flushed21_2_eq V c t) covered21_2

end Final21

end Cert.KernelIdeal.Hand

end
-- ==== Proof.KI.R22v.lean ====
import proofs.«408084_j48395691492010_3_alg».proof.Proof.KI.R22
import proofs.«408084_j48395691492010_3_alg».proof.Proof.KI.R14v
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! Region 22, the values. The kernel is region 14's word for word, so what each control case leaves in the buffers,
the row tiles, the fold and the three results as functions of the three arrays (G14_3, G14_4, G14_5) are region 14's;
here they are read at this region's windows: the blocks of its arrays, what its buffers hold after each point, and
its three result arrays after the last point. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The arrays and their blocks, at their literal types -/

/-- The array of the aggregated rows, as the region finds it, -/
noncomputable abbrev xarr22 (c : Dev nD) : Vec F S50000x64 .f32 := V c (Pipeline.arrRef spec22 0)
/-- the bias row, -/
noncomputable abbrev barr22 (c : Dev nD) : Vec F S1x64 .f32 := V c (Pipeline.arrRef spec22 1)
/-- and the carried-in array. -/
noncomputable abbrev carr22 (c : Dev nD) : Vec F S50000x64 .f32 := V c (Pipeline.arrRef spec22 2)

/-- The row-tile windows' block index is the grid point; the one-row windows never move. -/
theorem index22_0 : ∀ t : Fin cfg22.N, win22_0.index t 0 = t.val ∧ win22_0.index t 1 = 0 :=
  (by decide +kernel : ∀ t : Fin grid22.N, win22_0.index t 0 = t.val ∧ win22_0.index t 1 = 0)
theorem index22_1 : ∀ t : Fin cfg22.N, win22_1.index t 0 = 0 ∧ win22_1.index t 1 = 0 :=
  (by decide +kernel : ∀ t : Fin grid22.N, win22_1.index t 0 = 0 ∧ win22_1.index t 1 = 0)
theorem index22_2 : ∀ t : Fin cfg22.N, win22_2.index t 0 = t.val ∧ win22_2.index t 1 = 0 :=
  (by decide +kernel : ∀ t : Fin grid22.N, win22_2.index t 0 = t.val ∧ win22_2.index t 1 = 0)
theorem index22_3 : ∀ t : Fin cfg22.N, win22_3.index t 0 = t.val ∧ win22_3.index t 1 = 0 :=
  (by decide +kernel : ∀ t : Fin grid22.N, win22_3.index t 0 = t.val ∧ win22_3.index t 1 = 0)
theorem index22_4 : ∀ t : Fin cfg22.N, win22_4.index t 0 = t.val ∧ win22_4.index t 1 = 0 :=
  (by decide +kernel : ∀ t : Fin grid22.N, win22_4.index t 0 = t.val ∧ win22_4.index t 1 = 0)
theorem index22_5 : ∀ t : Fin cfg22.N, win22_5.index t 0 = 0 ∧ win22_5.index t 1 = 0 :=
  (by decide +kernel : ∀ t : Fin grid22.N, win22_5.index t 0 = 0 ∧ win22_5.index t 1 = 0)
theorem xsize22_5 : ∀ t : Fin cfg22.N, win22_5.xsize (grid22.coords t) 0 = 1 ∧ win22_5.xsize (grid22.coords t) 1 = 64 :=
  (by decide +kernel : ∀ t : Fin grid22.N, win22_5.xsize (grid22.coords t) 0 = 1 ∧ win22_5.xsize (grid22.coords t) 1 = 64)

/-- The aggregate window's block at point t is row tile t of its array. -/
theorem xblk22_eq (c : Dev nD) (t : Fin cfg22.N) (hN : t.val < 25) :
    (iblk22 V c 0 t : Vec F S2000x64 .f32) = tile14 (xarr22 V c) ⟨t.val, hN⟩ := by
  have hi := index22_0 t
  funext j
  unfold iblk22 tile14
  rw [View.read_apply]
  show V c (Pipeline.arrRef spec22 0) _ = V c (Pipeline.arrRef spec22 0) _
  congr 1
  funext a
  apply Fin.ext
  match a with
  | ⟨0, _⟩ => show win22_0.index t 0 * 2000 + 1 * (j 0).val = 2000 * t.val + (j 0).val; rw [hi.1]; omega
  | ⟨1, _⟩ => show win22_0.index t 1 * 64 + 1 * (j 1).val = (j 1).val; rw [hi.2]; omega

/-- The bias window's block is the whole one-row array, at every point. -/
theorem bblk22_eq (c : Dev nD) (t : Fin cfg22.N) : (iblk22 V c 1 t : Vec F S1x64 .f32) = barr22 V c := by
  have hi := index22_1 t
  funext j
  unfold iblk22
  rw [View.read_apply]
  show V c (Pipeline.arrRef spec22 1) _ = V c (Pipeline.arrRef spec22 1) j
  congr 1
  funext a
  apply Fin.ext
  match a with
  | ⟨0, _⟩ => show win22_1.index t 0 * 1 + 1 * (j 0).val = (j 0).val; rw [hi.1]; omega
  | ⟨1, _⟩ => show win22_1.index t 1 * 64 + 1 * (j 1).val = (j 1).val; rw [hi.2]; omega

/-- The carried-in window's block at point t is row tile t of its array. -/
theorem cblk22_eq (c : Dev nD) (t : Fin cfg22.N) (hN : t.val < 25) :
    (iblk22 V c 2 t : Vec F S2000x64 .f32) = tile14 (carr22 V c) ⟨t.val, hN⟩ := by
  have hi := index22_2 t
  funext j
  unfold iblk22 tile14
  rw [View.read_apply]
  show V c (Pipeline.arrRef spec22 2) _ = V c (Pipeline.arrRef spec22 2) _
  congr 1
  funext a
  apply Fin.ext
  match a with
  | ⟨0, _⟩ => show win22_2.index t 0 * 2000 + 1 * (j 0).val = 2000 * t.val + (j 0).val; rw [hi.1]; omega
  | ⟨1, _⟩ => show win22_2.index t 1 * 64 + 1 * (j 1).val = (j 1).val; rw [hi.2]; omega

/-! ## What the buffers hold after each point -/

/-- The first full-size result's buffer after point n. -/
theorem outsAt22_pre (c : Dev nD) : ∀ (n : ℕ) (h : n < cfg22.N) (h' : n < 25),
    (outsAt22 V c n h).1 = k14_pay3 (tile14 (xarr22 V c) ⟨n, h'⟩) (barr22 V c) (tile14 (carr22 V c) ⟨n, h'⟩)
  | 0, h, h' => by
    rw [outsAt22_A V c ⟨0, h⟩ (Nat.zero_mod 25) (fun e => by have e' : (0 : ℕ) % 25 = 24 := e; omega)]
    dsimp only
    rw [out14_A_3_eq, xblk22_eq V c ⟨0, h⟩ h', bblk22_eq V c ⟨0, h⟩, cblk22_eq V c ⟨0, h⟩ h']
  | n + 1, h, h' => by
    have hm : (n + 1) % 25 = n + 1 := Nat.mod_eq_of_lt h'
    by_cases h24 : n + 1 = 24
    · rw [outsAt22_C V c ⟨n + 1, h⟩ (fun e => by have e' : (n + 1) % 25 = 0 := e; omega) (by show (n + 1) % 25 = 24; omega)]
      dsimp only
      rw [out14_C_3_eq, xblk22_eq V c ⟨n + 1, h⟩ h', bblk22_eq V c ⟨n + 1, h⟩, cblk22_eq V c ⟨n + 1, h⟩ h']
    · rw [outsAt22_B V c ⟨n + 1, h⟩ (fun e => by have e' : (n + 1) % 25 = 0 := e; omega) (fun e => by have e' : (n + 1) % 25 = 24 := e; omega)]
      dsimp only
      rw [out14_B_3_eq, xblk22_eq V c ⟨n + 1, h⟩ h', bblk22_eq V c ⟨n + 1, h⟩, cblk22_eq V c ⟨n + 1, h⟩ h']

/-- The second full-size result's buffer after point n. -/
theorem outsAt22_cum (c : Dev nD) : ∀ (n : ℕ) (h : n < cfg22.N) (h' : n < 25),
    (outsAt22 V c n h).2.1 = k14_pay4 (tile14 (xarr22 V c) ⟨n, h'⟩) (barr22 V c) (tile14 (carr22 V c) ⟨n, h'⟩)
  | 0, h, h' => by
    rw [outsAt22_A V c ⟨0, h⟩ (Nat.zero_mod 25) (fun e => by have e' : (0 : ℕ) % 25 = 24 := e; omega)]
    dsimp only
    rw [out14_A_4_eq, xblk22_eq V c ⟨0, h⟩ h', bblk22_eq V c ⟨0, h⟩, cblk22_eq V c ⟨0, h⟩ h']
  | n + 1, h, h' => by
    have hm : (n + 1) % 25 = n + 1 := Nat.mod_eq_of_lt h'
    by_cases h24 : n + 1 = 24
    · rw [outsAt22_C V c ⟨n + 1, h⟩ (fun e => by have e' : (n + 1) % 25 = 0 := e; omega) (by show (n + 1) % 25 = 24; omega)]
      dsimp only
      rw [out14_C_4_eq, xblk22_eq V c ⟨n + 1, h⟩ h', bblk22_eq V c ⟨n + 1, h⟩, cblk22_eq V c ⟨n + 1, h⟩ h']
    · rw [outsAt22_B V c ⟨n + 1, h⟩ (fun e => by have e' : (n + 1) % 25 = 0 := e; omega) (fun e => by have e' : (n + 1) % 25 = 24 := e; omega)]
      dsimp only
      rw [out14_B_4_eq, xblk22_eq V c ⟨n + 1, h⟩ h', bblk22_eq V c ⟨n + 1, h⟩, cblk22_eq V c ⟨n + 1, h⟩ h']

/-- What the accumulator holds after point n is the fold up to tile n: by induction on the point. -/
theorem outsAt22_acc (c : Dev nD) : ∀ (n : ℕ) (h : n < cfg22.N) (h' : n < 25),
    (outsAt22 V c n h).2.2.2 = acc14 (xarr22 V c) (barr22 V c) (carr22 V c) n h'
  | 0, h, h' => by
    rw [outsAt22_A V c ⟨0, h⟩ (Nat.zero_mod 25) (fun e => by have e' : (0 : ℕ) % 25 = 24 := e; omega)]
    dsimp only
    rw [sout14_A_0_eq, xblk22_eq V c ⟨0, h⟩ h', bblk22_eq V c ⟨0, h⟩, cblk22_eq V c ⟨0, h⟩ h']
    rfl
  | n + 1, h, h' => by
    have ih := outsAt22_acc c n (Nat.lt_of_succ_lt h) (Nat.lt_of_succ_lt h')
    have hm : (n + 1) % 25 = n + 1 := Nat.mod_eq_of_lt h'
    by_cases h24 : n + 1 = 24
    · rw [outsAt22_C V c ⟨n + 1, h⟩ (fun e => by have e' : (n + 1) % 25 = 0 := e; omega) (by show (n + 1) % 25 = 24; omega)]
      dsimp only
      rw [sout14_C_0_eq, xblk22_eq V c ⟨n + 1, h⟩ h', bblk22_eq V c ⟨n + 1, h⟩, cblk22_eq V c ⟨n + 1, h⟩ h']
      show k14_pay5 _ _ _ (outsAt22 V c n _).2.2.2 = k14_pay5 _ _ _ (acc14 _ _ _ n _)
      rw [ih]
    · rw [outsAt22_B V c ⟨n + 1, h⟩ (fun e => by have e' : (n + 1) % 25 = 0 := e; omega) (fun e => by have e' : (n + 1) % 25 = 24 := e; omega)]
      dsimp only
      rw [sout14_B_0_eq, xblk22_eq V c ⟨n + 1, h⟩ h', bblk22_eq V c ⟨n + 1, h⟩, cblk22_eq V c ⟨n + 1, h⟩ h']
      show k14_pay5 _ _ _ (outsAt22 V c n _).2.2.2 = k14_pay5 _ _ _ (acc14 _ _ _ n _)
      rw [ih]

/-- At the last point the one-row result's buffer is left holding the whole fold. -/
theorem outsAt22_last (c : Dev nD) (t : Fin cfg22.N) (h24 : t.val = 24) :
    (outsAt22 V c t.val t.isLt).2.2.1 = G14_5 (xarr22 V c) (barr22 V c) (carr22 V c) := by
  obtain ⟨n, hn⟩ := t
  obtain rfl : n = 24 := h24
  rw [outsAt22_C V c ⟨24, hn⟩ (fun e => by have e' : (24 : ℕ) % 25 = 0 := e; omega) (by show (24 : ℕ) % 25 = 24; omega)]
  dsimp only
  rw [out14_C_5_eq, xblk22_eq V c ⟨24, hn⟩ (by show (24 : ℕ) < 25; omega), bblk22_eq V c ⟨24, hn⟩, cblk22_eq V c ⟨24, hn⟩ (by show (24 : ℕ) < 25; omega)]
  show k14_pay5 _ _ _ (outsAt22 V c 23 _).2.2.2 = k14_pay5 _ _ _ (acc14 _ _ _ 23 _)
  rw [outsAt22_acc V c 23 _ (by decide)]

/-! ## The full-size result arrays after the run -/

/-- What point t writes back of the first full-size result array is block t of G14_3 of the arrays. -/
theorem flushed22_3 (c : Dev nD) (t : Fin cfg22.N) :
    (dat22 V c).flushed 3 t = ((cfg22.win 3).blk t).view.read (Elt F) (G14_3 (xarr22 V c) (barr22 V c) (carr22 V c)) := by
  have hN : t.val < 25 := lt_of_lt_of_eq t.isLt (show cfg22.N = 25 from N_22)
  have hi := index22_3 t
  show (cfg22.win 3).cut (grid22.coords t) ((dat22 V c).after 3 t) = _
  rw [after22_3, outsAt22_pre V c t.val t.isLt hN]
  funext j
  have hj0 : (j 0).val < 2000 := (j 0).isLt
  show k14_pay3 (tile14 (xarr22 V c) ⟨t.val, hN⟩) (barr22 V c) (tile14 (carr22 V c) ⟨t.val, hN⟩) j = G14_3 (xarr22 V c) (barr22 V c) (carr22 V c) (((cfg22.win 3).blk t).view.emb j)
  have hrow : ((((cfg22.win 3).blk t).view.emb j : S50000x64.Idx) 0).val = t.val * 2000 + (j 0).val := by
    show win22_3.index t 0 * 2000 + 1 * (j 0).val = t.val * 2000 + (j 0).val
    rw [hi.1]; omega
  have hcol : ((((cfg22.win 3).blk t).view.emb j : S50000x64.Idx) 1).val = (j 1).val := by
    show win22_3.index t 1 * 64 + 1 * (j 1).val = (j 1).val
    rw [hi.2]; omega
  unfold G14_3
  have htile : (⟨((((cfg22.win 3).blk t).view.emb j : S50000x64.Idx) 0).val / 2000, by have := idx2_lt0 (((cfg22.win 3).blk t).view.emb j : S50000x64.Idx); omega⟩ : Fin 25) = ⟨t.val, hN⟩ :=
    Fin.ext (by show ((((cfg22.win 3).blk t).view.emb j : S50000x64.Idx) 0).val / 2000 = t.val; rw [hrow]; omega)
  have hplace : (ix2 ⟨((((cfg22.win 3).blk t).view.emb j : S50000x64.Idx) 0).val % 2000, Nat.mod_lt _ (by decide)⟩ ((((cfg22.win 3).blk t).view.emb j : S50000x64.Idx) 1) : S2000x64.Idx) = j := by
    funext d; apply Fin.ext
    match d with
    | ⟨0, _⟩ => show ((((cfg22.win 3).blk t).view.emb j : S50000x64.Idx) 0).val % 2000 = (j 0).val; rw [hrow]; omega
    | ⟨1, _⟩ => exact hcol
  rw [htile, hplace]

/-- An index of the array is in point t's block iff each coordinate is in the block's range on its axis. -/
theorem mem_blk22_3 (t : Fin cfg22.N) (i : S50000x64.Idx) :
    i ∈ ((cfg22.win 3).blk t).view.set ↔ ∀ a : Fin 2, win22_3.index t a * S2000x64.size a ≤ (i a).val ∧ (i a).val < win22_3.index t a * S2000x64.size a + S2000x64.size a := by
  show i ∈ ((View.whole (Pipeline.arrRef spec22 3)).slice (win22_3.rect t)).set ↔ _
  rw [View.set_slice_whole, Rect.mem_set_unit]
  exact Iff.rfl

/-- Every index of the array is in some point's block: row r in the block of point r / 2000. -/
theorem covered22_3 (i : S50000x64.Idx) :
    ∃ t : Fin cfg22.N, (cfg22.win 3).flush t = true ∧ i ∈ ((cfg22.win 3).blk t).view.set := by
  have hi0 : (i 0).val < 50000 := (i 0).isLt
  refine ⟨⟨(i 0).val / 2000, by rw [show cfg22.N = 25 from N_22]; omega⟩, flush22_3 _, ?_⟩
  have hi := index22_3 ⟨(i 0).val / 2000, by rw [show cfg22.N = 25 from N_22]; omega⟩
  rw [mem_blk22_3]
  intro a
  match a with
  | ⟨0, _⟩ =>
    show win22_3.index _ 0 * 2000 ≤ (i 0).val ∧ (i 0).val < win22_3.index _ 0 * 2000 + 2000
    rw [hi.1]; show (i 0).val / 2000 * 2000 ≤ (i 0).val ∧ (i 0).val < (i 0).val / 2000 * 2000 + 2000; omega
  | ⟨1, _⟩ =>
    show win22_3.index _ 1 * S2000x64.size 1 ≤ (i 1).val ∧ (i 1).val < win22_3.index _ 1 * S2000x64.size 1 + S2000x64.size 1
    rw [hi.2, Nat.zero_mul, Nat.zero_add]; exact ⟨Nat.zero_le _, (i 1).isLt⟩

/-- So the first full-size result array ends holding G14_3 of the three arrays. -/
theorem final22_3 (c : Dev nD) :
    (dat22 V c).arrAt 3 cfg22.N = G14_3 (V c (Pipeline.arrRef spec22 0)) (V c (Pipeline.arrRef spec22 1)) (V c (Pipeline.arrRef spec22 2)) :=
  (dat22 V c).arrAt_eq_of_cover 3 (G14_3 (xarr22 V c) (barr22 V c) (carr22 V c)) (fun t _ => flushed22_3 V c t) covered22_3

/-- What point t writes back of the second full-size result array is block t of G14_4 of the arrays. -/
theorem flushed22_4 (c : Dev nD) (t : Fin cfg22.N) :
    (dat22 V c).flushed 4 t = ((cfg22.win 4).blk t).view.read (Elt F) (G14_4 (xarr22 V c) (barr22 V c) (carr22 V c)) := by
  have hN : t.val < 25 := lt_of_lt_of_eq t.isLt (show cfg22.N = 25 from N_22)
  have hi := index22_4 t
  show (cfg22.win 4).cut (grid22.coords t) ((dat22 V c).after 4 t) = _
  rw [after22_4, outsAt22_cum V c t.val t.isLt hN]
  funext j
  have hj0 : (j 0).val < 2000 := (j 0).isLt
  show k14_pay4 (tile14 (xarr22 V c) ⟨t.val, hN⟩) (barr22 V c) (tile14 (carr22 V c) ⟨t.val, hN⟩) j = G14_4 (xarr22 V c) (barr22 V c) (carr22 V c) (((cfg22.win 4).blk t).view.emb j)
  have hrow : ((((cfg22.win 4).blk t).view.emb j : S50000x64.Idx) 0).val = t.val * 2000 + (j 0).val := by
    show win22_4.index t 0 * 2000 + 1 * (j 0).val = t.val * 2000 + (j 0).val
    rw [hi.1]; omega
  have hcol : ((((cfg22.win 4).blk t).view.emb j : S50000x64.Idx) 1).val = (j 1).val := by
    show win22_4.index t 1 * 64 + 1 * (j 1).val = (j 1).val
    rw [hi.2]; omega
  unfold G14_4
  have htile : (⟨((((cfg22.win 4).blk t).view.emb j : S50000x64.Idx) 0).val / 2000, by have := idx2_lt0 (((cfg22.win 4).blk t).view.emb j : S50000x64.Idx); omega⟩ : Fin 25) = ⟨t.val, hN⟩ :=
    Fin.ext (by show ((((cfg22.win 4).blk t).view.emb j : S50000x64.Idx) 0).val / 2000 = t.val; rw [hrow]; omega)
  have hplace : (ix2 ⟨((((cfg22.win 4).blk t).view.emb j : S50000x64.Idx) 0).val % 2000, Nat.mod_lt _ (by decide)⟩ ((((cfg22.win 4).blk t).view.emb j : S50000x64.Idx) 1) : S2000x64.Idx) = j := by
    funext d; apply Fin.ext
    match d with
    | ⟨0, _⟩ => show ((((cfg22.win 4).blk t).view.emb j : S50000x64.Idx) 0).val % 2000 = (j 0).val; rw [hrow]; omega
    | ⟨1, _⟩ => exact hcol
  rw [htile, hplace]

/-- An index of the array is in point t's block iff each coordinate is in the block's range on its axis. -/
theorem mem_blk22_4 (t : Fin cfg22.N) (i : S50000x64.Idx) :
    i ∈ ((cfg22.win 4).blk t).view.set ↔ ∀ a : Fin 2, win22_4.index t a * S2000x64.size a ≤ (i a).val ∧ (i a).val < win22_4.index t a * S2000x64.size a + S2000x64.size a := by
  show i ∈ ((View.whole (Pipeline.arrRef spec22 4)).slice (win22_4.rect t)).set ↔ _
  rw [View.set_slice_whole, Rect.mem_set_unit]
  exact Iff.rfl

/-- Every index of the array is in some point's block: row r in the block of point r / 2000. -/
theorem covered22_4 (i : S50000x64.Idx) :
    ∃ t : Fin cfg22.N, (cfg22.win 4).flush t = true ∧ i ∈ ((cfg22.win 4).blk t).view.set := by
  have hi0 : (i 0).val < 50000 := (i 0).isLt
  refine ⟨⟨(i 0).val / 2000, by rw [show cfg22.N = 25 from N_22]; omega⟩, flush22_4 _, ?_⟩
  have hi := index22_4 ⟨(i 0).val / 2000, by rw [show cfg22.N = 25 from N_22]; omega⟩
  rw [mem_blk22_4]
  intro a
  match a with
  | ⟨0, _⟩ =>
    show win22_4.index _ 0 * 2000 ≤ (i 0).val ∧ (i 0).val < win22_4.index _ 0 * 2000 + 2000
    rw [hi.1]; show (i 0).val / 2000 * 2000 ≤ (i 0).val ∧ (i 0).val < (i 0).val / 2000 * 2000 + 2000; omega
  | ⟨1, _⟩ =>
    show win22_4.index _ 1 * S2000x64.size 1 ≤ (i 1).val ∧ (i 1).val < win22_4.index _ 1 * S2000x64.size 1 + S2000x64.size 1
    rw [hi.2, Nat.zero_mul, Nat.zero_add]; exact ⟨Nat.zero_le _, (i 1).isLt⟩

/-- So the second full-size result array ends holding G14_4 of the three arrays. -/
theorem final22_4 (c : Dev nD) :
    (dat22 V c).arrAt 4 cfg22.N = G14_4 (V c (Pipeline.arrRef spec22 0)) (V c (Pipeline.arrRef spec22 1)) (V c (Pipeline.arrRef spec22 2)) :=
  (dat22 V c).arrAt_eq_of_cover 4 (G14_4 (xarr22 V c) (barr22 V c) (carr22 V c)) (fun t _ => flushed22_4 V c t) covered22_4

/-! ## The one-row result array after the run -/

/-- The one write-back (at the last point) writes the fold: the result's block there is the whole one-row array. -/
theorem flushed22_5 (c : Dev nD) (t : Fin cfg22.N) (hf : (cfg22.win 5).flush t = true) :
    (dat22 V c).flushed 5 t = ((cfg22.win 5).blk t).view.read (Elt F) (G14_5 (xarr22 V c) (barr22 V c) (carr22 V c)) := by
  have hN : t.val < 25 := lt_of_lt_of_eq t.isLt (show cfg22.N = 25 from N_22)
  have h24 : t.val = 24 := by have := (flush22_5 t).mp hf; omega
  have hi := index22_5 t
  show (cfg22.win 5).cut (grid22.coords t) ((dat22 V c).after 5 t) = _
  rw [after22_5, outsAt22_last V c t h24]
  have hz' : (fun a => win22_5.index t a * main_v243_2.ty.shape.size a) = fun _ => 0 := funext fun a => by
    match a with
    | ⟨0, _⟩ => show win22_5.index t 0 * _ = 0; rw [hi.1, Nat.zero_mul]
    | ⟨1, _⟩ => show win22_5.index t 1 * _ = 0; rw [hi.2, Nat.zero_mul]
  exact (Memref.read_access_unit_zero (Elt F) main_v243_2 hz' (fun a => by rw [congrFun hz' a]; simp) (G14_5 (xarr22 V c) (barr22 V c) (carr22 V c))).symm

/-- So the one-row result array ends holding the fold. -/
theorem final22_5 (c : Dev nD) :
    (dat22 V c).arrAt 5 cfg22.N = G14_5 (V c (Pipeline.arrRef spec22 0)) (V c (Pipeline.arrRef spec22 1)) (V c (Pipeline.arrRef spec22 2)) := by
  have h24 : (24 : ℕ) < cfg22.N := by rw [show cfg22.N = 25 from N_22]; omega
  refine (dat22 V c).arrAt_eq_of_cover 5 (G14_5 (xarr22 V c) (barr22 V c) (carr22 V c)) (flushed22_5 V c) fun i =>
    ⟨⟨24, h24⟩, (flush22_5 _).mpr rfl, ?_⟩
  have hi := index22_5 ⟨24, h24⟩
  have hx := xsize22_5 ⟨24, h24⟩
  show i ∈ ((View.whole main_v243_2).slice (win22_5.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win22_5.index ⟨24, h24⟩ 0 * win22_5.size 0 ≤ (i 0 : Nat) ∧ (i 0 : Nat) < win22_5.index ⟨24, h24⟩ 0 * win22_5.size 0 + win22_5.xsize (grid22.coords ⟨24, h24⟩) 0
    rw [hi.1, hx.1]; omega
  | ⟨1, _⟩ =>
    show win22_5.index ⟨24, h24⟩ 1 * win22_5.size 1 ≤ (i 1 : Nat) ∧ (i 1 : Nat) < win22_5.index ⟨24, h24⟩ 1 * win22_5.size 1 + win22_5.xsize (grid22.coords ⟨24, h24⟩) 1
    rw [hi.2, hx.2]; omega

end Cert.KernelIdeal.Hand

end
-- ==== Proof.KI.R23v.lean ====
import proofs.«408084_j48395691492010_3_alg».proof.Proof.KI.R23
import proofs.«408084_j48395691492010_3_alg».proof.Proof.KI.R3v

/-! Region 23, the value: the same kernel as region 3 at the same shapes, so the result is the same function `G3_2` of this
region's two arrays — the fold over the 25 row tiles, from the zero row, of each tile's column sum of squared deviations.
The found pieces read back and the fold's reading at the ideal values are region 3's; here: this region's blocks as
tiles of its arrays, the accumulator after each point as the fold (by induction on the point), and the result array. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The [50000, D] array of the rows, as the region finds it, -/
noncomputable abbrev xarr23 (c : Dev nD) : Vec F S50000x64 .f32 := V c (Pipeline.arrRef spec23 0)
/-- and the one row of column means. -/
noncomputable abbrev marr23 (c : Dev nD) : Vec F S1x64 .f32 := V c (Pipeline.arrRef spec23 1)

theorem index23_0 : ∀ t : Fin cfg23.N, win23_0.index t 0 = t.val ∧ win23_0.index t 1 = 0 :=
  (by decide +kernel : ∀ t : Fin grid23.N, win23_0.index t 0 = t.val ∧ win23_0.index t 1 = 0)
theorem index23_1 : ∀ t : Fin cfg23.N, win23_1.index t 0 = 0 ∧ win23_1.index t 1 = 0 :=
  (by decide +kernel : ∀ t : Fin grid23.N, win23_1.index t 0 = 0 ∧ win23_1.index t 1 = 0)
theorem index23_2 : ∀ t : Fin cfg23.N, win23_2.index t 0 = 0 ∧ win23_2.index t 1 = 0 :=
  (by decide +kernel : ∀ t : Fin grid23.N, win23_2.index t 0 = 0 ∧ win23_2.index t 1 = 0)
theorem xsize23_2 : ∀ t : Fin cfg23.N, win23_2.xsize (grid23.coords t) 0 = 1 ∧ win23_2.xsize (grid23.coords t) 1 = 64 :=
  (by decide +kernel : ∀ t : Fin grid23.N, win23_2.xsize (grid23.coords t) 0 = 1 ∧ win23_2.xsize (grid23.coords t) 1 = 64)

/-- The row-tile window's block at point `t` is row tile `t` of the array. -/
theorem xblk23_eq (c : Dev nD) (t : Fin cfg23.N) (hN : t.val < 25) :
    (iblk23 V c 0 t : Vec F S2000x64 .f32) = tile3 (xarr23 V c) ⟨t.val, hN⟩ := by
  have hi := index23_0 t
  funext j
  unfold iblk23 tile3
  rw [View.read_apply]
  show V c (Pipeline.arrRef spec23 0) _ = V c (Pipeline.arrRef spec23 0) _
  congr 1
  funext a
  apply Fin.ext
  match a with
  | ⟨0, _⟩ => show win23_0.index t 0 * 2000 + 1 * (j 0).val = 2000 * t.val + (j 0).val; rw [hi.1]; omega
  | ⟨1, _⟩ => show win23_0.index t 1 * 64 + 1 * (j 1).val = (j 1).val; rw [hi.2]; omega

/-- The mean window's block is the whole one-row array, at every point. -/
theorem mblk23_eq (c : Dev nD) (t : Fin cfg23.N) : (iblk23 V c 1 t : Vec F S1x64 .f32) = marr23 V c := by
  have hi := index23_1 t
  funext j
  unfold iblk23
  rw [View.read_apply]
  show V c (Pipeline.arrRef spec23 1) _ = V c (Pipeline.arrRef spec23 1) j
  congr 1
  funext a
  apply Fin.ext
  match a with
  | ⟨0, _⟩ => show win23_1.index t 0 * 1 + 1 * (j 0).val = (j 0).val; rw [hi.1]; omega
  | ⟨1, _⟩ => show win23_1.index t 1 * 64 + 1 * (j 1).val = (j 1).val; rw [hi.2]; omega

/-- What the accumulator holds after point `n` is the fold up to tile `n`: by induction on the point. -/
theorem outsAt23_acc (c : Dev nD) : ∀ (n : ℕ) (h : n < cfg23.N) (h' : n < 25),
    (outsAt23 V c n h).2 = acc3 (xarr23 V c) (marr23 V c) n h'
  | 0, h, h' => by
    rw [outsAt23_A V c ⟨0, h⟩ rfl (fun e => by have e' : (0 : ℕ) = 24 := e; omega)]
    dsimp only
    rw [sout3_A_eq, xblk23_eq V c ⟨0, h⟩ h', mblk23_eq V c ⟨0, h⟩]
    rfl
  | n + 1, h, h' => by
    have ih := outsAt23_acc c n (Nat.lt_of_succ_lt h) (Nat.lt_of_succ_lt h')
    by_cases h24 : n + 1 = 24
    · rw [outsAt23_C V c ⟨n + 1, h⟩ (Nat.succ_ne_zero n) h24]
      dsimp only
      rw [sout3_C_eq, xblk23_eq V c ⟨n + 1, h⟩ h', mblk23_eq V c ⟨n + 1, h⟩]
      show k3_pay2 _ _ (outsAt23 V c n _).2 = k3_pay2 _ _ (acc3 _ _ n _)
      rw [ih]
    · rw [outsAt23_B V c ⟨n + 1, h⟩ (Nat.succ_ne_zero n) h24]
      dsimp only
      rw [sout3_B_eq, xblk23_eq V c ⟨n + 1, h⟩ h', mblk23_eq V c ⟨n + 1, h⟩]
      show k3_pay2 _ _ (outsAt23 V c n _).2 = k3_pay2 _ _ (acc3 _ _ n _)
      rw [ih]

/-- At the last point the result's buffer is left holding the whole fold. -/
theorem outsAt23_last (c : Dev nD) (t : Fin cfg23.N) (h24 : t.val = 24) :
    (outsAt23 V c t.val t.isLt).1 = G3_2 (xarr23 V c) (marr23 V c) := by
  obtain ⟨n, hn⟩ := t
  obtain rfl : n = 24 := h24
  rw [outsAt23_C V c ⟨24, hn⟩ (fun e => by have e' : (24 : ℕ) = 0 := e; omega) rfl]
  dsimp only
  rw [out3_C_eq, xblk23_eq V c ⟨24, hn⟩ (by show (24 : ℕ) < 25; omega), mblk23_eq V c ⟨24, hn⟩]
  show k3_pay2 _ _ (outsAt23 V c 23 _).2 = k3_pay2 _ _ (acc3 _ _ 23 _)
  rw [outsAt23_acc V c 23 _ (by decide)]

/-- The one write-back (at the last point) writes the fold: the result's block there is the whole one-row array. -/
theorem flushed23_2 (c : Dev nD) (t : Fin cfg23.N) (hf : (cfg23.win 2).flush t = true) :
    (dat23 V c).flushed 2 t = ((cfg23.win 2).blk t).view.read (Elt F) (G3_2 (xarr23 V c) (marr23 V c)) := by
  have hN : t.val < 25 := lt_of_lt_of_eq t.isLt (show cfg23.N = 25 from N_23)
  have h24 : t.val = 24 := by have := (flush23_2 t).mp hf; omega
  have hi := index23_2 t
  show (cfg23.win 2).cut (grid23.coords t) ((dat23 V c).after 2 t) = _
  rw [after23_2, outsAt23_last V c t h24]
  have hz' : (fun a => win23_2.index t a * main_v246.ty.shape.size a) = fun _ => 0 := funext fun a => by
    match a with
    | ⟨0, _⟩ => show win23_2.index t 0 * _ = 0; rw [hi.1, Nat.zero_mul]
    | ⟨1, _⟩ => show win23_2.index t 1 * _ = 0; rw [hi.2, Nat.zero_mul]
  exact (Memref.read_access_unit_zero (Elt F) main_v246 hz' (fun a => by rw [congrFun hz' a]; simp) (G3_2 (xarr23 V c) (marr23 V c))).symm

/-- So the result array ends holding the fold: region 3's function of this region's two arrays. -/
theorem final23_2 (c : Dev nD) : (dat23 V c).arrAt 2 cfg23.N = G3_2 (V c (Pipeline.arrRef spec23 0)) (V c (Pipeline.arrRef spec23 1)) := by
  have h24 : (24 : ℕ) < cfg23.N := by rw [show cfg23.N = 25 from N_23]; omega
  refine (dat23 V c).arrAt_eq_of_cover 2 (G3_2 (xarr23 V c) (marr23 V c)) (flushed23_2 V c) fun i =>
    ⟨⟨24, h24⟩, (flush23_2 _).mpr rfl, ?_⟩
  have hi := index23_2 ⟨24, h24⟩
  have hx := xsize23_2 ⟨24, h24⟩
  show i ∈ ((View.whole main_v246).slice (win23_2.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win23_2.index ⟨24, h24⟩ 0 * win23_2.size 0 ≤ (i 0 : Nat) ∧ (i 0 : Nat) < win23_2.index ⟨24, h24⟩ 0 * win23_2.size 0 + win23_2.xsize (grid23.coords ⟨24, h24⟩) 0
    rw [hi.1, hx.1]; omega
  | ⟨1, _⟩ =>
    show win23_2.index ⟨24, h24⟩ 1 * win23_2.size 1 ≤ (i 1 : Nat) ∧ (i 1 : Nat) < win23_2.index ⟨24, h24⟩ 1 * win23_2.size 1 + win23_2.xsize (grid23.coords ⟨24, h24⟩) 1
    rw [hi.2, hx.2]; omega

end Cert.KernelIdeal.Hand

end
-- ==== Proof.KI.R24v.lean ====
import proofs.«408084_j48395691492010_3_alg».proof.Proof.KI.R24
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws

/-!
# Region 24: the array it leaves, as one function of the arrays it finds

Every grid point writes one block of 2000 rows of the output, and the 25 blocks tile the 50000 rows; the four
single-row inputs are the same block at every point. So the output array after the run is one function of the five
arrays the region finds. Entry (r, q) is computed from row r of the activations alone:

  bn[r,k] = (x[r,k] - mean[k]) * rsqrt (var[k] + eps) * gamma[k] + beta[k],
  out[r,q] = exp (bn[r,q] - max_k bn[r,k]) / (1 + Σ_k exp (bn[r,k] - max_k bn[r,k])).

At a generic float instance the row's sum is the instance's reduction of the whole 2000-row block that holds the
row, so the function is stated through that block; over the extended reals the reduction is a sum over the row and
the block drops out.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable {F : FTy → Type} [FloatOps F]

/-! ## The layout operations of the body, read at an index -/

section Layout24
variable {α : Type}

/-- A vector of 2000 entries cast to a column reads, at (p, 0), entry p. -/
theorem castCol24 (v : S2000.Idx → α) (h : S2000.ShapeCasts S2000x1) :
    shapeCast S2000x1 v h = fun y => v (ix1 (y 0)) := by
  funext y
  obtain ⟨p, u, rfl⟩ : ∃ (p : Fin 2000) (u : Fin 1), y = ix2 p u := ⟨y 0, y 1, eq_ix2 y⟩
  refine shapeCast_apply v h (ix2 p u) (ix1 p) ?_
  have hu : u.val = 0 := by omega
  rw [Shape.rowMajor_val_two, Shape.rowMajor_val_one]
  show p.val = p.val * 1 + u.val
  rw [hu, Nat.mul_one, Nat.add_zero]

/-- A column broadcast along the rows reads, at (p, k), the column's entry p. -/
theorem bcastCol24 (v : S2000x1.Idx → α) (h : S2000x1.Broadcasts S2000x64) :
    broadcastTo S2000x64 v h = fun y => v (ix2 (y 0) (0 : Fin 1)) := by
  funext y
  obtain ⟨p, k, rfl⟩ : ∃ (p : Fin 2000) (k : Fin 64), y = ix2 p k := ⟨y 0, y 1, eq_ix2 y⟩
  refine broadcastTo_apply v h (ix2 p k) (ix2 p (0 : Fin 1)) fun ax => ?_
  match ax with
  | ⟨0, _⟩ => rfl
  | ⟨1, _⟩ => rfl

/-- A single row broadcast down the block reads, at (p, k), the row's entry k. -/
theorem bcastRow24 (v : S1x64.Idx → α) (h : S1x64.Broadcasts S2000x64) :
    broadcastTo S2000x64 v h = fun y => v (ix2 (0 : Fin 1) (y 1)) := by
  funext y
  obtain ⟨p, k, rfl⟩ : ∃ (p : Fin 2000) (k : Fin 64), y = ix2 p k := ⟨y 0, y 1, eq_ix2 y⟩
  exact broadcastTo_1b_ab_apply v h p k

end Layout24

/-! ## The body's result on a block, by coordinates -/

/-- The batch-norm of a block, entry by entry, in the body's order of operations. -/
noncomputable def bn24 (v0 : Vec F S2000x64 .f32) (v2 v6 v13 v17 : Vec F S1x64 .f32) : FVec F S2000x64 .f32 := fun y =>
  FloatOps.addf (FloatOps.mulf (FloatOps.mulf (FloatOps.subf (v0 y) (v2 (ix2 (0 : Fin 1) (y 1))))
      (FloatOps.rsqrt (FloatOps.addf (v6 (ix2 (0 : Fin 1) (y 1))) (FloatOps.ofBits .f32 0x3727C5AC#32))))
      (v13 (ix2 (0 : Fin 1) (y 1)))) (v17 (ix2 (0 : Fin 1) (y 1)))

/-- Its row maxima: the body's reduction along the columns, started from minus infinity. -/
noncomputable def mx24 (v0 : Vec F S2000x64 .f32) (v2 v6 v13 v17 : Vec F S1x64 .f32) : FVec F S2000 .f32 :=
  multiReduction .maximumf [1] S2000 (bn24 v0 v2 v6 v13 v17) 0xFF800000#32 reduces_S2000x64_S2000 (.inl rfl) rfl

/-- The exponentials of the batch-norm less its row maximum. -/
noncomputable def e24 (v0 : Vec F S2000x64 .f32) (v2 v6 v13 v17 : Vec F S1x64 .f32) : FVec F S2000x64 .f32 := fun y =>
  FloatOps.exp (FloatOps.subf (bn24 v0 v2 v6 v13 v17 y) (mx24 v0 v2 v6 v13 v17 (ix1 (y 0))))

/-- Their row sums: the body's reduction along the columns, started from zero. -/
noncomputable def sm24 (v0 : Vec F S2000x64 .f32) (v2 v6 v13 v17 : Vec F S1x64 .f32) : FVec F S2000 .f32 :=
  multiReduction .add [1] S2000 (e24 v0 v2 v6 v13 v17) 0x00000000#32 reduces_S2000x64_S2000 (.inl rfl) rfl

/-- What the body stores: each exponential over one plus its row's sum. -/
noncomputable def P24 (v0 : Vec F S2000x64 .f32) (v2 v6 v13 v17 : Vec F S1x64 .f32) : Vec F S2000x64 .f32 := fun y =>
  FloatOps.divf (e24 v0 v2 v6 v13 v17 y)
    (FloatOps.addf (FloatOps.ofBits .f32 0x3F800000#32) (sm24 v0 v2 v6 v13 v17 (ix1 (y 0))))

/-- The skeleton's payload is that function: its layout operations read at an index, the rest unfolds. -/
theorem pay24_eq (v0 : Vec F S2000x64 .f32) (v2 v6 v13 v17 : Vec F S1x64 .f32) :
    k24_pay1 v0 v2 v6 v13 v17 = P24 v0 v2 v6 v13 v17 := by
  unfold k24_pay1
  simp only [shapeCast_self, bcastRow24, bcastCol24, castCol24]
  rfl

/-! ## The output array as one function of the arrays the region finds -/

/-- Rows q·2000 … q·2000 + 1999 of an array of 50000 rows. -/
noncomputable def rows24 (x : S50000x64.Idx → Elt F .f32) (q : Fin 25) : Vec F S2000x64 .f32 := fun y =>
  x (ix2 (⟨q.val * 2000 + (y 0).val, by have := idx2_lt0 y; have := q.isLt; omega⟩ : Fin 50000) (y 1))

/-- The block of 2000 rows that holds an entry's row, -/
noncomputable def blkOf24 (i : S50000x64.Idx) : Fin 25 := ⟨(i 0).val / 2000, by have := idx2_lt0 i; omega⟩
/-- and the row's place in it. -/
noncomputable def rowIn24 (i : S50000x64.Idx) : Fin 2000 := ⟨(i 0).val % 2000, Nat.mod_lt _ (by decide)⟩

/-- The output array: at each entry, the body's result on the block of 2000 rows of the activations that holds
    the entry's row, at the row's place in the block. -/
noncomputable def G24 (x : S50000x64.Idx → Elt F .f32) (mu va ga be : S1x64.Idx → Elt F .f32) : S50000x64.Idx → Elt F .f32 := fun i =>
  P24 (rows24 x (blkOf24 i)) mu va ga be (ix2 (rowIn24 i) (i 1))

/-- The output array read under block q at a place j of the block. -/
theorem G24_blk (x : S50000x64.Idx → Elt F .f32) (mu va ga be : S1x64.Idx → Elt F .f32) (q : Fin 25) (j : S2000x64.Idx)
    (i : S50000x64.Idx) (h0 : (i 0).val = q.val * 2000 + (j 0).val) (h1 : (i 1).val = (j 1).val) :
    G24 x mu va ga be i = P24 (rows24 x q) mu va ga be j := by
  have hj0 : (j 0).val < 2000 := idx2_lt0 j
  have hq : blkOf24 i = q := Fin.ext (by show (i 0).val / 2000 = q.val; omega)
  have hj : ix2 (rowIn24 i) (i 1) = j := by
    funext a
    match a with
    | ⟨0, _⟩ => exact Fin.ext (by show (i 0).val % 2000 = (j 0).val; omega)
    | ⟨1, _⟩ => exact Fin.ext h1
  unfold G24
  rw [hq]
  exact congrArg (P24 (rows24 x q) mu va ga be) hj

section Region24v
variable (V : (c : Dev nD) → (b : Ref sig .tc) → Buf (Elt F) ((c : Thread nD τ).loc b))

theorem hz24 : (![0, 0] : Fin 2 → Nat) = fun _ => 0 := funext fun a => by fin_cases a <;> rfl

/-- The windows' block indices, decided over the 25 grid points: the activations and the output move one block of
    rows per point, the four single rows stay. -/
theorem idx24 : ∀ t : Fin cfg24.N,
    win24_0.index t (0 : Fin 2) = t.val ∧ win24_0.index t (1 : Fin 2) = 0
    ∧ win24_1.index t (0 : Fin 2) = 0 ∧ win24_1.index t (1 : Fin 2) = 0
    ∧ win24_2.index t (0 : Fin 2) = 0 ∧ win24_2.index t (1 : Fin 2) = 0
    ∧ win24_3.index t (0 : Fin 2) = 0 ∧ win24_3.index t (1 : Fin 2) = 0
    ∧ win24_4.index t (0 : Fin 2) = 0 ∧ win24_4.index t (1 : Fin 2) = 0
    ∧ win24_5.index t (0 : Fin 2) = t.val ∧ win24_5.index t (1 : Fin 2) = 0 :=
  (by decide +kernel : ∀ t : Fin grid24.N, _)

/-- The activations' block at point t is rows t·2000 … of their array. -/
theorem iblk24_0_eq (c : Dev nD) (t : Fin cfg24.N) :
    (iblk24 V c 0 t : S2000x64.Idx → Elt F .f32) = rows24 (V c (Pipeline.arrRef spec24 0)) (t.cast N_24) := by
  obtain ⟨e0, e1, -⟩ := idx24 t
  funext y
  show V c (Pipeline.arrRef spec24 0) (((cfg24.win 0).blk t).view.emb y) = V c (Pipeline.arrRef spec24 0) _
  refine congrArg _ (funext fun a => Fin.ext ?_)
  match a with
  | ⟨0, _⟩ => show win24_0.index t (0 : Fin 2) * 2000 + 1 * (y 0).val = t.val * 2000 + (y 0).val; omega
  | ⟨1, _⟩ => show win24_0.index t (1 : Fin 2) * 64 + 1 * (y 1).val = (y 1).val; omega

/-- Each single row's block is, at every point, its whole array. -/
theorem iblk24_1_eq (c : Dev nD) (t : Fin cfg24.N) : (iblk24 V c 1 t : S1x64.Idx → Elt F .f32) = V c (Pipeline.arrRef spec24 1) := by
  obtain ⟨-, -, e0, e1, -⟩ := idx24 t
  funext y
  show V c (Pipeline.arrRef spec24 1) (((cfg24.win 1).blk t).view.emb y) = V c (Pipeline.arrRef spec24 1) y
  refine congrArg _ (funext fun a => Fin.ext ?_)
  match a with
  | ⟨0, _⟩ => show win24_1.index t (0 : Fin 2) * 1 + 1 * (y 0).val = (y 0).val; omega
  | ⟨1, _⟩ => show win24_1.index t (1 : Fin 2) * 64 + 1 * (y 1).val = (y 1).val; omega
theorem iblk24_2_eq (c : Dev nD) (t : Fin cfg24.N) : (iblk24 V c 2 t : S1x64.Idx → Elt F .f32) = V c (Pipeline.arrRef spec24 2) := by
  obtain ⟨-, -, -, -, e0, e1, -⟩ := idx24 t
  funext y
  show V c (Pipeline.arrRef spec24 2) (((cfg24.win 2).blk t).view.emb y) = V c (Pipeline.arrRef spec24 2) y
  refine congrArg _ (funext fun a => Fin.ext ?_)
  match a with
  | ⟨0, _⟩ => show win24_2.index t (0 : Fin 2) * 1 + 1 * (y 0).val = (y 0).val; omega
  | ⟨1, _⟩ => show win24_2.index t (1 : Fin 2) * 64 + 1 * (y 1).val = (y 1).val; omega
theorem iblk24_3_eq (c : Dev nD) (t : Fin cfg24.N) : (iblk24 V c 3 t : S1x64.Idx → Elt F .f32) = V c (Pipeline.arrRef spec24 3) := by
  obtain ⟨-, -, -, -, -, -, e0, e1, -⟩ := idx24 t
  funext y
  show V c (Pipeline.arrRef spec24 3) (((cfg24.win 3).blk t).view.emb y) = V c (Pipeline.arrRef spec24 3) y
  refine congrArg _ (funext fun a => Fin.ext ?_)
  match a with
  | ⟨0, _⟩ => show win24_3.index t (0 : Fin 2) * 1 + 1 * (y 0).val = (y 0).val; omega
  | ⟨1, _⟩ => show win24_3.index t (1 : Fin 2) * 64 + 1 * (y 1).val = (y 1).val; omega
theorem iblk24_4_eq (c : Dev nD) (t : Fin cfg24.N) : (iblk24 V c 4 t : S1x64.Idx → Elt F .f32) = V c (Pipeline.arrRef spec24 4) := by
  obtain ⟨-, -, -, -, -, -, -, -, e0, e1, -⟩ := idx24 t
  funext y
  show V c (Pipeline.arrRef spec24 4) (((cfg24.win 4).blk t).view.emb y) = V c (Pipeline.arrRef spec24 4) y
  refine congrArg _ (funext fun a => Fin.ext ?_)
  match a with
  | ⟨0, _⟩ => show win24_4.index t (0 : Fin 2) * 1 + 1 * (y 0).val = (y 0).val; omega
  | ⟨1, _⟩ => show win24_4.index t (1 : Fin 2) * 64 + 1 * (y 1).val = (y 1).val; omega

set_option maxHeartbeats 1000000 in
/-- What point t writes back is block t of the output array. -/
theorem flushed24_eq (c : Dev nD) (t : Fin cfg24.N) :
    (dat24 V c).flushed 5 t = ((cfg24.win 5).blk t).view.read (Elt F)
      (G24 (V c (Pipeline.arrRef spec24 0)) (V c (Pipeline.arrRef spec24 1)) (V c (Pipeline.arrRef spec24 2))
        (V c (Pipeline.arrRef spec24 3)) (V c (Pipeline.arrRef spec24 4))) := by
  show (cfg24.win 5).cut (grid24.coords t) ((dat24 V c).after 5 t) = _
  rw [after24_5]
  unfold out24_5
  rw [View.canon_unit_zero hz24]
  simp only [View.ld_unit_zero (S := S2000x64) hz24, View.ld_unit_zero (S := S1x64) hz24]
  rw [pay24_eq, iblk24_0_eq, iblk24_1_eq, iblk24_2_eq, iblk24_3_eq, iblk24_4_eq]
  obtain ⟨-, -, -, -, -, -, -, -, -, -, e0, e1⟩ := idx24 t
  funext j
  show P24 (rows24 _ (t.cast N_24)) _ _ _ _ j = G24 _ _ _ _ _ (((cfg24.win 5).blk t).view.emb j)
  refine (G24_blk _ _ _ _ _ (t.cast N_24) j (((cfg24.win 5).blk t).view.emb j) ?_ ?_).symm
  · show win24_5.index t (0 : Fin 2) * 2000 + 1 * (j 0).val = t.val * 2000 + (j 0).val; omega
  · show win24_5.index t (1 : Fin 2) * 64 + 1 * (j 1).val = (j 1).val; omega

/-- An entry of the array is in point t's block iff each coordinate is in the block's range on its axis. -/
theorem mem_blk24 (t : Fin cfg24.N) (i : S50000x64.Idx) :
    i ∈ ((cfg24.win 5).blk t).view.set ↔ ∀ a : Fin 2, win24_5.index t a * S2000x64.size a ≤ (i a).val ∧ (i a).val < win24_5.index t a * S2000x64.size a + S2000x64.size a := by
  show i ∈ ((View.whole main_v251).slice (win24_5.rect t)).set ↔ _
  rw [View.set_slice_whole, Rect.mem_set_unit]
  exact Iff.rfl

/-- Every entry is in the block of the point numbered by its row over 2000. -/
theorem covered24 (i : S50000x64.Idx) : ∃ t : Fin cfg24.N, (cfg24.win 5).flush t = true ∧ i ∈ ((cfg24.win 5).blk t).view.set := by
  have hi0 : (i 0).val < 50000 := idx2_lt0 i
  have hi1 : (i 1).val < 64 := idx2_lt1 i
  have ht : ∃ t : Fin cfg24.N, t.val = (i 0).val / 2000 := ⟨(⟨(i 0).val / 2000, by omega⟩ : Fin 25).cast N_24.symm, rfl⟩
  obtain ⟨t, ht⟩ := ht
  obtain ⟨-, -, -, -, -, -, -, -, -, -, e0, e1⟩ := idx24 t
  refine ⟨t, flush24_5 t, ?_⟩
  rw [mem_blk24]
  intro a
  match a with
  | ⟨0, _⟩ => show win24_5.index t (0 : Fin 2) * 2000 ≤ (i 0).val ∧ (i 0).val < win24_5.index t (0 : Fin 2) * 2000 + 2000; omega
  | ⟨1, _⟩ => show win24_5.index t (1 : Fin 2) * 64 ≤ (i 1).val ∧ (i 1).val < win24_5.index t (1 : Fin 2) * 64 + 64; omega

/-- The output array after the run. -/
theorem final24_5 (c : Dev nD) :
    (dat24 V c).arrAt 5 cfg24.N = G24 (V c (Pipeline.arrRef spec24 0)) (V c (Pipeline.arrRef spec24 1)) (V c (Pipeline.arrRef spec24 2))
      (V c (Pipeline.arrRef spec24 3)) (V c (Pipeline.arrRef spec24 4)) :=
  (dat24 V c).arrAt_eq_of_cover 5 _ (fun t _ => flushed24_eq V c t) covered24

end Region24v

/-! ## The output array over the extended reals, entry by entry -/

section Ideal24

/-- The source entry of a row reduction over a block: the result's row p with k put back on the column axis. -/
theorem lift24 (h : S2000x64.Reduces [1] S2000) (p : Fin 2000) (k : Fin 64) : h.lift (ix1 p) k = ix2 p k := by
  funext a
  match a with
  | ⟨0, _⟩ => exact Fin.ext rfl
  | ⟨1, _⟩ => exact Fin.ext rfl

section Block24
variable (X : Vec Ideal S2000x64 .f32) (mu va ga be : Vec Ideal S1x64 .f32)

/-- The block's batch-norm at an entry. -/
theorem bn24_apply (p : Fin 2000) (k : Fin 64) :
    bn24 (F := Ideal) X mu va ga be (ix2 p k)
      = ((X (ix2 p k) : EReal) - mu (ix2 0 k)) * Ideal.rsqrt (va (ix2 0 k) + Cert.Val.cEps) * ga (ix2 0 k) + be (ix2 0 k) := rfl

/-- A row's maximum: the fold of max over the row, from minus infinity. -/
theorem mx24_apply (p : Fin 2000) :
    mx24 (F := Ideal) X mu va ga be (ix1 p) = Cert.Val.rowMax (fun k : Fin 64 => bn24 (F := Ideal) X mu va ga be (ix2 p k)) := by
  unfold mx24
  refine (Ideal.multiReduction_maximumf_single (bn24 (F := Ideal) X mu va ga be) 0xFF800000#32 reduces_S2000x64_S2000 (.inl rfl) rfl
    (ix1 p)).trans ?_
  have hf : (bn24 (F := Ideal) X mu va ga be ∘ (reduces_S2000x64_S2000).lift (ix1 p))
      = fun k : Fin 64 => bn24 (F := Ideal) X mu va ga be (ix2 p k) :=
    funext fun k => congrArg (bn24 (F := Ideal) X mu va ga be) (lift24 _ p k)
  exact congrArg (fun f => (Finset.univ : Finset (Fin 64)).fold max Cert.Val.cNegInf f) hf

/-- The exponentials at an entry. -/
theorem e24_apply (p : Fin 2000) (k : Fin 64) :
    e24 (F := Ideal) X mu va ga be (ix2 p k)
      = Ideal.exp (bn24 (F := Ideal) X mu va ga be (ix2 p k) - Cert.Val.rowMax (fun k' : Fin 64 => bn24 (F := Ideal) X mu va ga be (ix2 p k'))) := by
  show Ideal.exp (bn24 (F := Ideal) X mu va ga be (ix2 p k) - mx24 (F := Ideal) X mu va ga be (ix1 p)) = _
  rw [mx24_apply]

/-- A row's sum of exponentials: the sum over the row. -/
theorem sm24_apply (p : Fin 2000) :
    sm24 (F := Ideal) X mu va ga be (ix1 p) = ∑ k : Fin 64, e24 (F := Ideal) X mu va ga be (ix2 p k) := by
  unfold sm24
  refine (Ideal.multiReduction_add_single (e24 (F := Ideal) X mu va ga be) 0x00000000#32 reduces_S2000x64_S2000 (.inl rfl) rfl
    (ix1 p)).trans ?_
  exact Finset.sum_congr rfl fun k _ => congrArg (e24 (F := Ideal) X mu va ga be) (lift24 _ p k)

/-- What the body stores, at an entry. -/
theorem P24_apply (p : Fin 2000) (k : Fin 64) :
    P24 (F := Ideal) X mu va ga be (ix2 p k)
      = Ideal.div (e24 (F := Ideal) X mu va ga be (ix2 p k)) (Cert.Val.cOne + sm24 (F := Ideal) X mu va ga be (ix1 p)) := rfl

end Block24

/-- The block that holds row r, read at the row's place, is row r of the array. -/
theorem rows24_at (x : S50000x64.Idx → Elt Ideal .f32) (r : Fin 50000) (q k : Fin 64) :
    rows24 x (blkOf24 (ix2 r q)) (ix2 (rowIn24 (ix2 r q)) k) = x (ix2 r k) := by
  unfold rows24
  refine congrArg x (funext fun a => ?_)
  match a with
  | ⟨0, _⟩ => exact Fin.ext (by show (r.val / 2000) * 2000 + r.val % 2000 = r.val; omega)
  | ⟨1, _⟩ => rfl

/-- THE OUTPUT ARRAY AT AN ENTRY: the row softmax with one added to the denominator, of the batch-norm of row r of
    the activations with the given column statistics, scale and shift. -/
theorem G24_apply (x : S50000x64.Idx → Elt Ideal .f32) (mu va ga be : S1x64.Idx → Elt Ideal .f32) (r : Fin 50000) (q : Fin 64) :
    G24 (F := Ideal) x mu va ga be (ix2 r q)
      = Cert.Val.smOne (fun j' => Cert.Val.bnAt (fun i j => x (ix2 i j)) (fun j => mu (ix2 0 j)) (fun j => va (ix2 0 j))
          (fun j => ga (ix2 0 j)) (fun j => be (ix2 0 j)) r j') q := by
  have hb : ∀ k : Fin 64, bn24 (F := Ideal) (rows24 x (blkOf24 (ix2 r q))) mu va ga be (ix2 (rowIn24 (ix2 r q)) k)
      = Cert.Val.bnAt (fun i j => x (ix2 i j)) (fun j => mu (ix2 0 j)) (fun j => va (ix2 0 j))
          (fun j => ga (ix2 0 j)) (fun j => be (ix2 0 j)) r k := by
    intro k
    rw [bn24_apply, rows24_at]
    rfl
  show P24 (F := Ideal) (rows24 x (blkOf24 (ix2 r q))) mu va ga be (ix2 (rowIn24 (ix2 r q)) q) = _
  rw [P24_apply, sm24_apply]
  simp only [e24_apply, hb]
  rfl

end Ideal24

end Cert.KernelIdeal.Hand

end
-- ==== Proof.KI.R25v.lean ====
import proofs.«408084_j48395691492010_3_alg».proof.Proof.KI.R25
import Idealize.ShloMosaic.Lib.Pipeline.Value
import Idealize.ShloMosaic.Lib.ValueIdx
import Idealize.ShloMosaic.PureOps.Ideal.Laws

/-! # Region 25, read: the output array is the product of the two input arrays

The frame part gives, point by point, the block of products the body leaves in the output window. Here the
blocks are put together: after the last point the output array is one function G25 of the two input arrays
as the region finds them, and at the ideal values entry (r, q) of it is the sum over k of x (r, k) · w (k, q). -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Value25

/-- The contracted extent (columns of X, rows of W) and the number of columns of W. -/
abbrev kdim25 : Nat := 64
abbrev ncol25 : Nat := 64

/-! ## The product as a function of the two arrays

The unit that multiplies is given a block of rows at a time, so the function of the arrays is stated that
way: entry (r, q) is the entry of the product of the block of rows holding row r with W, at that row's
place in the block. At the ideal values a block's product is the sum over the contracted axis, and the
blocks fall away. -/

/-- The block of consecutive rows of x that holds row r, its rows numbered from the block's first. -/
noncomputable def rowsOf25 (x : S50000x64.Idx → Elt F .f32) (r : Fin 50000) : Vec F S2000x64 .f32 :=
  fun y => x (ix2 ⟨r.val / 2000 * 2000 + (y 0).val, by
    have h0 : (y 0).val < 2000 := (y 0).isLt
    have hr := r.isLt
    omega⟩ (y 1))

/-- Entry i of the product: the payload at the block of rows holding row i 0 and at W, read at the row's
    place in its block and column i 1. -/
noncomputable def G25 (x : S50000x64.Idx → Elt F .f32) (w : S64x64.Idx → Elt F .f32) : S50000x64.Idx → Elt F .f32 :=
  fun i => k25_pay1 (rowsOf25 x (i 0)) w (ix2 ⟨(i 0).val % 2000, Nat.mod_lt _ (by decide)⟩ (i 1))

/-- Entry i of the product from ANY description of the block b that holds its row: the block of rows as
    xb, the matrix as wb, the entry's place in the block as j. -/
theorem G25_of_block (x : S50000x64.Idx → Elt F .f32) (w : S64x64.Idx → Elt F .f32) (b : Nat)
    (i : S50000x64.Idx) (j : S2000x64.Idx) (h0 : (i 0).val = b * 2000 + (j 0).val) (h1 : (i 1).val = (j 1).val)
    (xb : Vec F S2000x64 .f32) (wb : Vec F S64x64 .f32) (hw : wb = w)
    (hx : ∀ (y : S2000x64.Idx) (hy : b * 2000 + (y 0).val < 50000), xb y = x (ix2 ⟨b * 2000 + (y 0).val, hy⟩ (y 1))) :
    G25 x w i = k25_pay1 xb wb j := by
  have hj0 : (j 0).val < 2000 := (j 0).isLt
  have hi0 : (i 0).val < 50000 := (i 0).isLt
  have hrows : rowsOf25 x (i 0) = xb := by
    funext y
    have hy0 : (y 0).val < 2000 := (y 0).isLt
    have hq : (i 0).val / 2000 * 2000 = b * 2000 := by omega
    rw [hx y (by omega)]
    unfold rowsOf25
    congr 1
    funext d; apply Fin.ext
    match d with
    | ⟨0, _⟩ => show (i 0).val / 2000 * 2000 + (y 0).val = b * 2000 + (y 0).val; omega
    | ⟨1, _⟩ => rfl
  have hplace : (ix2 ⟨(i 0).val % 2000, Nat.mod_lt _ (by decide)⟩ (i 1) : S2000x64.Idx) = j := by
    funext d; apply Fin.ext
    match d with
    | ⟨0, _⟩ => show (i 0).val % 2000 = (j 0).val; omega
    | ⟨1, _⟩ => exact h1
  unfold G25
  rw [hrows, hplace, hw]

/-! ### The operand indices of the contraction, axis by axis -/

theorem lhsAx25_0 (j : S2000x64.Idx) (k : dot_S2000x64_S64x64_S2000x64_1_0_0_1_n_n.contr.Idx) :
    (dot_S2000x64_S64x64_S2000x64_1_0_0_1_n_n.lhsIdx j k (0 : Fin 2)).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

theorem lhsAx25_1 (j : S2000x64.Idx) (k : dot_S2000x64_S64x64_S2000x64_1_0_0_1_n_n.contr.Idx) :
    (dot_S2000x64_S64x64_S2000x64_1_0_0_1_n_n.lhsIdx j k (1 : Fin 2)).val = (k ⟨0, by decide⟩).val :=
  dot_S2000x64_S64x64_S2000x64_1_0_0_1_n_n.lhsIdx_val_of_single (cl := (1 : Fin 2)) rfl j k

theorem rhsAx25_0 (j : S2000x64.Idx) (k : dot_S2000x64_S64x64_S2000x64_1_0_0_1_n_n.contr.Idx) :
    (dot_S2000x64_S64x64_S2000x64_1_0_0_1_n_n.rhsIdx j k (0 : Fin 2)).val = (k ⟨0, by decide⟩).val :=
  dot_S2000x64_S64x64_S2000x64_1_0_0_1_n_n.rhsIdx_val_of_single (cr := (0 : Fin 2)) rfl j k

theorem rhsAx25_1 (j : S2000x64.Idx) (k : dot_S2000x64_S64x64_S2000x64_1_0_0_1_n_n.contr.Idx) :
    (dot_S2000x64_S64x64_S2000x64_1_0_0_1_n_n.rhsIdx j k (1 : Fin 2)).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The payload at the ideal values, at an index: the sum over the contracted axis. -/
theorem k25_pay1_apply (a : Vec Ideal S2000x64 .f32) (b : Vec Ideal S64x64 .f32) (p : Fin 2000) (q : Fin ncol25) :
    k25_pay1 (F := Ideal) a b (ix2 p q) = ∑ k : Fin kdim25, a (ix2 p k) * b (ix2 k q) := by
  unfold k25_pay1
  simp only [shapeCast_self]
  refine (Ideal.matmul_constant_zero_apply _ _ _ _ _).trans ?_
  rw [← Equiv.sum_comp (contrEquiv1 dot_S2000x64_S64x64_S2000x64_1_0_0_1_n_n kdim25 rfl rfl).symm]
  refine Finset.sum_congr rfl fun k _ => ?_
  have hl : dot_S2000x64_S64x64_S2000x64_1_0_0_1_n_n.lhsIdx (ix2 p q) ((contrEquiv1 dot_S2000x64_S64x64_S2000x64_1_0_0_1_n_n kdim25 rfl rfl).symm k) = ix2 p k := by
    funext d; apply Fin.ext
    match d with
    | ⟨0, _⟩ => exact lhsAx25_0 _ _
    | ⟨1, _⟩ => exact (lhsAx25_1 _ _).trans (contrEquiv1_symm_val _ kdim25 rfl rfl k)
  have hr : dot_S2000x64_S64x64_S2000x64_1_0_0_1_n_n.rhsIdx (ix2 p q) ((contrEquiv1 dot_S2000x64_S64x64_S2000x64_1_0_0_1_n_n kdim25 rfl rfl).symm k) = ix2 k q := by
    funext d; apply Fin.ext
    match d with
    | ⟨0, _⟩ => exact (rhsAx25_0 _ _).trans (contrEquiv1_symm_val _ kdim25 rfl rfl k)
    | ⟨1, _⟩ => exact rhsAx25_1 _ _
  rw [hl, hr]

/-- Entry (r, q) of the product at the ideal values: the sum over k of x (r, k) · w (k, q). -/
theorem G25_apply (x : S50000x64.Idx → Elt Ideal .f32) (w : S64x64.Idx → Elt Ideal .f32) (r : Fin 50000) (q : Fin ncol25) :
    G25 (F := Ideal) x w (ix2 r q) = ∑ k : Fin kdim25, x (ix2 r k) * w (ix2 k q) := by
  unfold G25
  rw [k25_pay1_apply]
  refine Finset.sum_congr rfl fun k _ => ?_
  unfold rowsOf25
  have hrow : (ix2 (⟨r.val / 2000 * 2000 + r.val % 2000, by have := r.isLt; omega⟩ : Fin 50000) k : S50000x64.Idx) = ix2 r k := by
    funext d; apply Fin.ext
    match d with
    | ⟨0, _⟩ => show r.val / 2000 * 2000 + r.val % 2000 = r.val; omega
    | ⟨1, _⟩ => rfl
  exact congrArg (fun z => x z * w (ix2 k q)) hrow

end Value25

/-! ## From the blocks written back to the array -/

section Final25
variable (V : (c : Dev nD) → (b : Ref sig .tc) → Buf (Elt F) ((c : Thread nD τ).loc b))

theorem hz25 : (![0, 0] : Fin 2 → Nat) = fun _ => 0 := funext fun a => by fin_cases a <;> rfl

/-- The index maps over the grid: the rows of X and of the product move with the point, one block a point;
    W stays; no window moves along its columns. -/
theorem idx_facts25 : ∀ t : Fin cfg25.N,
    win25_0.index t (0 : Fin 2) = t.val ∧ win25_0.index t (1 : Fin 2) = 0
    ∧ win25_1.index t (0 : Fin 2) = 0 ∧ win25_1.index t (1 : Fin 2) = 0
    ∧ win25_2.index t (0 : Fin 2) = t.val ∧ win25_2.index t (1 : Fin 2) = 0 :=
  (by decide +kernel : ∀ t : Fin grid25.N, _)

/-- What point t writes back is block t of the product of the arrays as the region finds them. -/
theorem flushed25_2_eq (c : Dev nD) (t : Fin cfg25.N) :
    (dat25 V c).flushed 2 t = ((cfg25.win 2).blk t).view.read (Elt F) (G25 (V c (Pipeline.arrRef spec25 0)) (V c (Pipeline.arrRef spec25 1))) := by
  show (cfg25.win 2).cut (grid25.coords t) ((dat25 V c).after 2 t) = _
  rw [after25_2]
  unfold out25_2
  rw [View.canon_unit_zero hz25]
  simp only [View.ld_unit_zero (S := S2000x64) hz25, View.ld_unit_zero (S := S64x64) hz25]
  obtain ⟨e0, e1, e2, e3, e4, e5⟩ := idx_facts25 t
  funext j
  show k25_pay1 (iblk25 V c 0 t) (iblk25 V c 1 t) j = G25 (V c (Pipeline.arrRef spec25 0)) (V c (Pipeline.arrRef spec25 1)) (((cfg25.win 2).blk t).view.emb j)
  refine (G25_of_block _ _ t.val _ j ?_ ?_ _ _ ?_ ?_).symm
  · show win25_2.index t (0 : Fin 2) * 2000 + 1 * (j 0).val = t.val * 2000 + (j 0).val
    rw [e4]; omega
  · show win25_2.index t (1 : Fin 2) * S2000x64.size 1 + 1 * (j 1).val = (j 1).val
    rw [e5]; omega
  · funext y
    show V c (Pipeline.arrRef spec25 1) (((cfg25.win 1).blk t).view.emb y) = V c (Pipeline.arrRef spec25 1) y
    congr 1
    funext d; apply Fin.ext
    match d with
    | ⟨0, _⟩ => show win25_1.index t (0 : Fin 2) * S64x64.size 0 + 1 * (y 0).val = (y 0).val; rw [e2]; omega
    | ⟨1, _⟩ => show win25_1.index t (1 : Fin 2) * S64x64.size 1 + 1 * (y 1).val = (y 1).val; rw [e3]; omega
  · intro y hy
    show V c (Pipeline.arrRef spec25 0) (((cfg25.win 0).blk t).view.emb y) = V c (Pipeline.arrRef spec25 0) (ix2 ⟨t.val * 2000 + (y 0).val, hy⟩ (y 1))
    congr 1
    funext d; apply Fin.ext
    match d with
    | ⟨0, _⟩ => show win25_0.index t (0 : Fin 2) * 2000 + 1 * (y 0).val = t.val * 2000 + (y 0).val; rw [e0]; omega
    | ⟨1, _⟩ => show win25_0.index t (1 : Fin 2) * S2000x64.size 1 + 1 * (y 1).val = (y 1).val; rw [e1]; omega

/-- An index of the array is in point t's block iff each coordinate is in the block's range on its axis. -/
theorem mem_blk25_2 (t : Fin cfg25.N) (i : S50000x64.Idx) :
    i ∈ ((cfg25.win 2).blk t).view.set ↔ ∀ a : Fin 2, win25_2.index t a * S2000x64.size a ≤ (i a).val ∧ (i a).val < win25_2.index t a * S2000x64.size a + S2000x64.size a := by
  show i ∈ ((View.whole (Pipeline.arrRef spec25 2)).slice (win25_2.rect t)).set ↔ _
  rw [View.set_slice_whole, Rect.mem_set_unit]
  exact Iff.rfl

/-- Every index of the array is in some point's block: row r in the block of point r / 2000. -/
theorem covered25_2 (i : S50000x64.Idx) :
    ∃ t : Fin cfg25.N, (cfg25.win 2).flush t = true ∧ i ∈ ((cfg25.win 2).blk t).view.set := by
  have hi0 : (i 0).val < 50000 := (i 0).isLt
  refine ⟨⟨(i 0).val / 2000, by rw [show cfg25.N = 25 from N_25]; omega⟩, flush25_2 _, ?_⟩
  obtain ⟨e0, e1, e2, e3, e4, e5⟩ := idx_facts25 ⟨(i 0).val / 2000, by rw [show cfg25.N = 25 from N_25]; omega⟩
  rw [mem_blk25_2]
  intro a
  match a with
  | ⟨0, _⟩ =>
    show win25_2.index _ (0 : Fin 2) * 2000 ≤ (i 0).val ∧ (i 0).val < win25_2.index _ (0 : Fin 2) * 2000 + 2000
    rw [e4]; show (i 0).val / 2000 * 2000 ≤ (i 0).val ∧ (i 0).val < (i 0).val / 2000 * 2000 + 2000; omega
  | ⟨1, _⟩ =>
    show win25_2.index _ (1 : Fin 2) * S2000x64.size 1 ≤ (i 1).val ∧ (i 1).val < win25_2.index _ (1 : Fin 2) * S2000x64.size 1 + S2000x64.size 1
    rw [e5, Nat.zero_mul, Nat.zero_add]; exact ⟨Nat.zero_le _, (i 1).isLt⟩

/-- The output array after the last point is the product of the two input arrays as the region finds them. -/
theorem final25_2 (c : Dev nD) :
    (dat25 V c).arrAt 2 cfg25.N = G25 (V c (Pipeline.arrRef spec25 0)) (V c (Pipeline.arrRef spec25 1)) :=
  (dat25 V c).arrAt_eq_of_cover 2 (G25 (V c (Pipeline.arrRef spec25 0)) (V c (Pipeline.arrRef spec25 1)))
    (fun t _ => flushed25_2_eq V c t) covered25_2

end Final25

end Cert.KernelIdeal.Hand

end
-- ==== Proof.KI.R26v.lean ====
import proofs.«408084_j48395691492010_3_alg».proof.Proof.KI.R26
import proofs.«408084_j48395691492010_3_alg».proof.Proof.KI.R14v
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! Region 26, the values. The kernel is region 14's word for word, so what each control case leaves in the buffers,
the row tiles, the fold and the three results as functions of the three arrays (G14_3, G14_4, G14_5) are region 14's;
here they are read at this region's windows: the blocks of its arrays, what its buffers hold after each point, and
its three result arrays after the last point. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The arrays and their blocks, at their literal types -/

/-- The array of the aggregated rows, as the region finds it, -/
noncomputable abbrev xarr26 (c : Dev nD) : Vec F S50000x64 .f32 := V c (Pipeline.arrRef spec26 0)
/-- the bias row, -/
noncomputable abbrev barr26 (c : Dev nD) : Vec F S1x64 .f32 := V c (Pipeline.arrRef spec26 1)
/-- and the carried-in array. -/
noncomputable abbrev carr26 (c : Dev nD) : Vec F S50000x64 .f32 := V c (Pipeline.arrRef spec26 2)

/-- The row-tile windows' block index is the grid point; the one-row windows never move. -/
theorem index26_0 : ∀ t : Fin cfg26.N, win26_0.index t 0 = t.val ∧ win26_0.index t 1 = 0 :=
  (by decide +kernel : ∀ t : Fin grid26.N, win26_0.index t 0 = t.val ∧ win26_0.index t 1 = 0)
theorem index26_1 : ∀ t : Fin cfg26.N, win26_1.index t 0 = 0 ∧ win26_1.index t 1 = 0 :=
  (by decide +kernel : ∀ t : Fin grid26.N, win26_1.index t 0 = 0 ∧ win26_1.index t 1 = 0)
theorem index26_2 : ∀ t : Fin cfg26.N, win26_2.index t 0 = t.val ∧ win26_2.index t 1 = 0 :=
  (by decide +kernel : ∀ t : Fin grid26.N, win26_2.index t 0 = t.val ∧ win26_2.index t 1 = 0)
theorem index26_3 : ∀ t : Fin cfg26.N, win26_3.index t 0 = t.val ∧ win26_3.index t 1 = 0 :=
  (by decide +kernel : ∀ t : Fin grid26.N, win26_3.index t 0 = t.val ∧ win26_3.index t 1 = 0)
theorem index26_4 : ∀ t : Fin cfg26.N, win26_4.index t 0 = t.val ∧ win26_4.index t 1 = 0 :=
  (by decide +kernel : ∀ t : Fin grid26.N, win26_4.index t 0 = t.val ∧ win26_4.index t 1 = 0)
theorem index26_5 : ∀ t : Fin cfg26.N, win26_5.index t 0 = 0 ∧ win26_5.index t 1 = 0 :=
  (by decide +kernel : ∀ t : Fin grid26.N, win26_5.index t 0 = 0 ∧ win26_5.index t 1 = 0)
theorem xsize26_5 : ∀ t : Fin cfg26.N, win26_5.xsize (grid26.coords t) 0 = 1 ∧ win26_5.xsize (grid26.coords t) 1 = 64 :=
  (by decide +kernel : ∀ t : Fin grid26.N, win26_5.xsize (grid26.coords t) 0 = 1 ∧ win26_5.xsize (grid26.coords t) 1 = 64)

/-- The aggregate window's block at point t is row tile t of its array. -/
theorem xblk26_eq (c : Dev nD) (t : Fin cfg26.N) (hN : t.val < 25) :
    (iblk26 V c 0 t : Vec F S2000x64 .f32) = tile14 (xarr26 V c) ⟨t.val, hN⟩ := by
  have hi := index26_0 t
  funext j
  unfold iblk26 tile14
  rw [View.read_apply]
  show V c (Pipeline.arrRef spec26 0) _ = V c (Pipeline.arrRef spec26 0) _
  congr 1
  funext a
  apply Fin.ext
  match a with
  | ⟨0, _⟩ => show win26_0.index t 0 * 2000 + 1 * (j 0).val = 2000 * t.val + (j 0).val; rw [hi.1]; omega
  | ⟨1, _⟩ => show win26_0.index t 1 * 64 + 1 * (j 1).val = (j 1).val; rw [hi.2]; omega

/-- The bias window's block is the whole one-row array, at every point. -/
theorem bblk26_eq (c : Dev nD) (t : Fin cfg26.N) : (iblk26 V c 1 t : Vec F S1x64 .f32) = barr26 V c := by
  have hi := index26_1 t
  funext j
  unfold iblk26
  rw [View.read_apply]
  show V c (Pipeline.arrRef spec26 1) _ = V c (Pipeline.arrRef spec26 1) j
  congr 1
  funext a
  apply Fin.ext
  match a with
  | ⟨0, _⟩ => show win26_1.index t 0 * 1 + 1 * (j 0).val = (j 0).val; rw [hi.1]; omega
  | ⟨1, _⟩ => show win26_1.index t 1 * 64 + 1 * (j 1).val = (j 1).val; rw [hi.2]; omega

/-- The carried-in window's block at point t is row tile t of its array. -/
theorem cblk26_eq (c : Dev nD) (t : Fin cfg26.N) (hN : t.val < 25) :
    (iblk26 V c 2 t : Vec F S2000x64 .f32) = tile14 (carr26 V c) ⟨t.val, hN⟩ := by
  have hi := index26_2 t
  funext j
  unfold iblk26 tile14
  rw [View.read_apply]
  show V c (Pipeline.arrRef spec26 2) _ = V c (Pipeline.arrRef spec26 2) _
  congr 1
  funext a
  apply Fin.ext
  match a with
  | ⟨0, _⟩ => show win26_2.index t 0 * 2000 + 1 * (j 0).val = 2000 * t.val + (j 0).val; rw [hi.1]; omega
  | ⟨1, _⟩ => show win26_2.index t 1 * 64 + 1 * (j 1).val = (j 1).val; rw [hi.2]; omega

/-! ## What the buffers hold after each point -/

/-- The first full-size result's buffer after point n. -/
theorem outsAt26_pre (c : Dev nD) : ∀ (n : ℕ) (h : n < cfg26.N) (h' : n < 25),
    (outsAt26 V c n h).1 = k14_pay3 (tile14 (xarr26 V c) ⟨n, h'⟩) (barr26 V c) (tile14 (carr26 V c) ⟨n, h'⟩)
  | 0, h, h' => by
    rw [outsAt26_A V c ⟨0, h⟩ (Nat.zero_mod 25) (fun e => by have e' : (0 : ℕ) % 25 = 24 := e; omega)]
    dsimp only
    rw [out14_A_3_eq, xblk26_eq V c ⟨0, h⟩ h', bblk26_eq V c ⟨0, h⟩, cblk26_eq V c ⟨0, h⟩ h']
  | n + 1, h, h' => by
    have hm : (n + 1) % 25 = n + 1 := Nat.mod_eq_of_lt h'
    by_cases h24 : n + 1 = 24
    · rw [outsAt26_C V c ⟨n + 1, h⟩ (fun e => by have e' : (n + 1) % 25 = 0 := e; omega) (by show (n + 1) % 25 = 24; omega)]
      dsimp only
      rw [out14_C_3_eq, xblk26_eq V c ⟨n + 1, h⟩ h', bblk26_eq V c ⟨n + 1, h⟩, cblk26_eq V c ⟨n + 1, h⟩ h']
    · rw [outsAt26_B V c ⟨n + 1, h⟩ (fun e => by have e' : (n + 1) % 25 = 0 := e; omega) (fun e => by have e' : (n + 1) % 25 = 24 := e; omega)]
      dsimp only
      rw [out14_B_3_eq, xblk26_eq V c ⟨n + 1, h⟩ h', bblk26_eq V c ⟨n + 1, h⟩, cblk26_eq V c ⟨n + 1, h⟩ h']

/-- The second full-size result's buffer after point n. -/
theorem outsAt26_cum (c : Dev nD) : ∀ (n : ℕ) (h : n < cfg26.N) (h' : n < 25),
    (outsAt26 V c n h).2.1 = k14_pay4 (tile14 (xarr26 V c) ⟨n, h'⟩) (barr26 V c) (tile14 (carr26 V c) ⟨n, h'⟩)
  | 0, h, h' => by
    rw [outsAt26_A V c ⟨0, h⟩ (Nat.zero_mod 25) (fun e => by have e' : (0 : ℕ) % 25 = 24 := e; omega)]
    dsimp only
    rw [out14_A_4_eq, xblk26_eq V c ⟨0, h⟩ h', bblk26_eq V c ⟨0, h⟩, cblk26_eq V c ⟨0, h⟩ h']
  | n + 1, h, h' => by
    have hm : (n + 1) % 25 = n + 1 := Nat.mod_eq_of_lt h'
    by_cases h24 : n + 1 = 24
    · rw [outsAt26_C V c ⟨n + 1, h⟩ (fun e => by have e' : (n + 1) % 25 = 0 := e; omega) (by show (n + 1) % 25 = 24; omega)]
      dsimp only
      rw [out14_C_4_eq, xblk26_eq V c ⟨n + 1, h⟩ h', bblk26_eq V c ⟨n + 1, h⟩, cblk26_eq V c ⟨n + 1, h⟩ h']
    · rw [outsAt26_B V c ⟨n + 1, h⟩ (fun e => by have e' : (n + 1) % 25 = 0 := e; omega) (fun e => by have e' : (n + 1) % 25 = 24 := e; omega)]
      dsimp only
      rw [out14_B_4_eq, xblk26_eq V c ⟨n + 1, h⟩ h', bblk26_eq V c ⟨n + 1, h⟩, cblk26_eq V c ⟨n + 1, h⟩ h']

/-- What the accumulator holds after point n is the fold up to tile n: by induction on the point. -/
theorem outsAt26_acc (c : Dev nD) : ∀ (n : ℕ) (h : n < cfg26.N) (h' : n < 25),
    (outsAt26 V c n h).2.2.2 = acc14 (xarr26 V c) (barr26 V c) (carr26 V c) n h'
  | 0, h, h' => by
    rw [outsAt26_A V c ⟨0, h⟩ (Nat.zero_mod 25) (fun e => by have e' : (0 : ℕ) % 25 = 24 := e; omega)]
    dsimp only
    rw [sout14_A_0_eq, xblk26_eq V c ⟨0, h⟩ h', bblk26_eq V c ⟨0, h⟩, cblk26_eq V c ⟨0, h⟩ h']
    rfl
  | n + 1, h, h' => by
    have ih := outsAt26_acc c n (Nat.lt_of_succ_lt h) (Nat.lt_of_succ_lt h')
    have hm : (n + 1) % 25 = n + 1 := Nat.mod_eq_of_lt h'
    by_cases h24 : n + 1 = 24
    · rw [outsAt26_C V c ⟨n + 1, h⟩ (fun e => by have e' : (n + 1) % 25 = 0 := e; omega) (by show (n + 1) % 25 = 24; omega)]
      dsimp only
      rw [sout14_C_0_eq, xblk26_eq V c ⟨n + 1, h⟩ h', bblk26_eq V c ⟨n + 1, h⟩, cblk26_eq V c ⟨n + 1, h⟩ h']
      show k14_pay5 _ _ _ (outsAt26 V c n _).2.2.2 = k14_pay5 _ _ _ (acc14 _ _ _ n _)
      rw [ih]
    · rw [outsAt26_B V c ⟨n + 1, h⟩ (fun e => by have e' : (n + 1) % 25 = 0 := e; omega) (fun e => by have e' : (n + 1) % 25 = 24 := e; omega)]
      dsimp only
      rw [sout14_B_0_eq, xblk26_eq V c ⟨n + 1, h⟩ h', bblk26_eq V c ⟨n + 1, h⟩, cblk26_eq V c ⟨n + 1, h⟩ h']
      show k14_pay5 _ _ _ (outsAt26 V c n _).2.2.2 = k14_pay5 _ _ _ (acc14 _ _ _ n _)
      rw [ih]

/-- At the last point the one-row result's buffer is left holding the whole fold. -/
theorem outsAt26_last (c : Dev nD) (t : Fin cfg26.N) (h24 : t.val = 24) :
    (outsAt26 V c t.val t.isLt).2.2.1 = G14_5 (xarr26 V c) (barr26 V c) (carr26 V c) := by
  obtain ⟨n, hn⟩ := t
  obtain rfl : n = 24 := h24
  rw [outsAt26_C V c ⟨24, hn⟩ (fun e => by have e' : (24 : ℕ) % 25 = 0 := e; omega) (by show (24 : ℕ) % 25 = 24; omega)]
  dsimp only
  rw [out14_C_5_eq, xblk26_eq V c ⟨24, hn⟩ (by show (24 : ℕ) < 25; omega), bblk26_eq V c ⟨24, hn⟩, cblk26_eq V c ⟨24, hn⟩ (by show (24 : ℕ) < 25; omega)]
  show k14_pay5 _ _ _ (outsAt26 V c 23 _).2.2.2 = k14_pay5 _ _ _ (acc14 _ _ _ 23 _)
  rw [outsAt26_acc V c 23 _ (by decide)]

/-! ## The full-size result arrays after the run -/

/-- What point t writes back of the first full-size result array is block t of G14_3 of the arrays. -/
theorem flushed26_3 (c : Dev nD) (t : Fin cfg26.N) :
    (dat26 V c).flushed 3 t = ((cfg26.win 3).blk t).view.read (Elt F) (G14_3 (xarr26 V c) (barr26 V c) (carr26 V c)) := by
  have hN : t.val < 25 := lt_of_lt_of_eq t.isLt (show cfg26.N = 25 from N_26)
  have hi := index26_3 t
  show (cfg26.win 3).cut (grid26.coords t) ((dat26 V c).after 3 t) = _
  rw [after26_3, outsAt26_pre V c t.val t.isLt hN]
  funext j
  have hj0 : (j 0).val < 2000 := (j 0).isLt
  show k14_pay3 (tile14 (xarr26 V c) ⟨t.val, hN⟩) (barr26 V c) (tile14 (carr26 V c) ⟨t.val, hN⟩) j = G14_3 (xarr26 V c) (barr26 V c) (carr26 V c) (((cfg26.win 3).blk t).view.emb j)
  have hrow : ((((cfg26.win 3).blk t).view.emb j : S50000x64.Idx) 0).val = t.val * 2000 + (j 0).val := by
    show win26_3.index t 0 * 2000 + 1 * (j 0).val = t.val * 2000 + (j 0).val
    rw [hi.1]; omega
  have hcol : ((((cfg26.win 3).blk t).view.emb j : S50000x64.Idx) 1).val = (j 1).val := by
    show win26_3.index t 1 * 64 + 1 * (j 1).val = (j 1).val
    rw [hi.2]; omega
  unfold G14_3
  have htile : (⟨((((cfg26.win 3).blk t).view.emb j : S50000x64.Idx) 0).val / 2000, by have := idx2_lt0 (((cfg26.win 3).blk t).view.emb j : S50000x64.Idx); omega⟩ : Fin 25) = ⟨t.val, hN⟩ :=
    Fin.ext (by show ((((cfg26.win 3).blk t).view.emb j : S50000x64.Idx) 0).val / 2000 = t.val; rw [hrow]; omega)
  have hplace : (ix2 ⟨((((cfg26.win 3).blk t).view.emb j : S50000x64.Idx) 0).val % 2000, Nat.mod_lt _ (by decide)⟩ ((((cfg26.win 3).blk t).view.emb j : S50000x64.Idx) 1) : S2000x64.Idx) = j := by
    funext d; apply Fin.ext
    match d with
    | ⟨0, _⟩ => show ((((cfg26.win 3).blk t).view.emb j : S50000x64.Idx) 0).val % 2000 = (j 0).val; rw [hrow]; omega
    | ⟨1, _⟩ => exact hcol
  rw [htile, hplace]

/-- An index of the array is in point t's block iff each coordinate is in the block's range on its axis. -/
theorem mem_blk26_3 (t : Fin cfg26.N) (i : S50000x64.Idx) :
    i ∈ ((cfg26.win 3).blk t).view.set ↔ ∀ a : Fin 2, win26_3.index t a * S2000x64.size a ≤ (i a).val ∧ (i a).val < win26_3.index t a * S2000x64.size a + S2000x64.size a := by
  show i ∈ ((View.whole (Pipeline.arrRef spec26 3)).slice (win26_3.rect t)).set ↔ _
  rw [View.set_slice_whole, Rect.mem_set_unit]
  exact Iff.rfl

/-- Every index of the array is in some point's block: row r in the block of point r / 2000. -/
theorem covered26_3 (i : S50000x64.Idx) :
    ∃ t : Fin cfg26.N, (cfg26.win 3).flush t = true ∧ i ∈ ((cfg26.win 3).blk t).view.set := by
  have hi0 : (i 0).val < 50000 := (i 0).isLt
  refine ⟨⟨(i 0).val / 2000, by rw [show cfg26.N = 25 from N_26]; omega⟩, flush26_3 _, ?_⟩
  have hi := index26_3 ⟨(i 0).val / 2000, by rw [show cfg26.N = 25 from N_26]; omega⟩
  rw [mem_blk26_3]
  intro a
  match a with
  | ⟨0, _⟩ =>
    show win26_3.index _ 0 * 2000 ≤ (i 0).val ∧ (i 0).val < win26_3.index _ 0 * 2000 + 2000
    rw [hi.1]; show (i 0).val / 2000 * 2000 ≤ (i 0).val ∧ (i 0).val < (i 0).val / 2000 * 2000 + 2000; omega
  | ⟨1, _⟩ =>
    show win26_3.index _ 1 * S2000x64.size 1 ≤ (i 1).val ∧ (i 1).val < win26_3.index _ 1 * S2000x64.size 1 + S2000x64.size 1
    rw [hi.2, Nat.zero_mul, Nat.zero_add]; exact ⟨Nat.zero_le _, (i 1).isLt⟩

/-- So the first full-size result array ends holding G14_3 of the three arrays. -/
theorem final26_3 (c : Dev nD) :
    (dat26 V c).arrAt 3 cfg26.N = G14_3 (V c (Pipeline.arrRef spec26 0)) (V c (Pipeline.arrRef spec26 1)) (V c (Pipeline.arrRef spec26 2)) :=
  (dat26 V c).arrAt_eq_of_cover 3 (G14_3 (xarr26 V c) (barr26 V c) (carr26 V c)) (fun t _ => flushed26_3 V c t) covered26_3

/-- What point t writes back of the second full-size result array is block t of G14_4 of the arrays. -/
theorem flushed26_4 (c : Dev nD) (t : Fin cfg26.N) :
    (dat26 V c).flushed 4 t = ((cfg26.win 4).blk t).view.read (Elt F) (G14_4 (xarr26 V c) (barr26 V c) (carr26 V c)) := by
  have hN : t.val < 25 := lt_of_lt_of_eq t.isLt (show cfg26.N = 25 from N_26)
  have hi := index26_4 t
  show (cfg26.win 4).cut (grid26.coords t) ((dat26 V c).after 4 t) = _
  rw [after26_4, outsAt26_cum V c t.val t.isLt hN]
  funext j
  have hj0 : (j 0).val < 2000 := (j 0).isLt
  show k14_pay4 (tile14 (xarr26 V c) ⟨t.val, hN⟩) (barr26 V c) (tile14 (carr26 V c) ⟨t.val, hN⟩) j = G14_4 (xarr26 V c) (barr26 V c) (carr26 V c) (((cfg26.win 4).blk t).view.emb j)
  have hrow : ((((cfg26.win 4).blk t).view.emb j : S50000x64.Idx) 0).val = t.val * 2000 + (j 0).val := by
    show win26_4.index t 0 * 2000 + 1 * (j 0).val = t.val * 2000 + (j 0).val
    rw [hi.1]; omega
  have hcol : ((((cfg26.win 4).blk t).view.emb j : S50000x64.Idx) 1).val = (j 1).val := by
    show win26_4.index t 1 * 64 + 1 * (j 1).val = (j 1).val
    rw [hi.2]; omega
  unfold G14_4
  have htile : (⟨((((cfg26.win 4).blk t).view.emb j : S50000x64.Idx) 0).val / 2000, by have := idx2_lt0 (((cfg26.win 4).blk t).view.emb j : S50000x64.Idx); omega⟩ : Fin 25) = ⟨t.val, hN⟩ :=
    Fin.ext (by show ((((cfg26.win 4).blk t).view.emb j : S50000x64.Idx) 0).val / 2000 = t.val; rw [hrow]; omega)
  have hplace : (ix2 ⟨((((cfg26.win 4).blk t).view.emb j : S50000x64.Idx) 0).val % 2000, Nat.mod_lt _ (by decide)⟩ ((((cfg26.win 4).blk t).view.emb j : S50000x64.Idx) 1) : S2000x64.Idx) = j := by
    funext d; apply Fin.ext
    match d with
    | ⟨0, _⟩ => show ((((cfg26.win 4).blk t).view.emb j : S50000x64.Idx) 0).val % 2000 = (j 0).val; rw [hrow]; omega
    | ⟨1, _⟩ => exact hcol
  rw [htile, hplace]

/-- An index of the array is in point t's block iff each coordinate is in the block's range on its axis. -/
theorem mem_blk26_4 (t : Fin cfg26.N) (i : S50000x64.Idx) :
    i ∈ ((cfg26.win 4).blk t).view.set ↔ ∀ a : Fin 2, win26_4.index t a * S2000x64.size a ≤ (i a).val ∧ (i a).val < win26_4.index t a * S2000x64.size a + S2000x64.size a := by
  show i ∈ ((View.whole (Pipeline.arrRef spec26 4)).slice (win26_4.rect t)).set ↔ _
  rw [View.set_slice_whole, Rect.mem_set_unit]
  exact Iff.rfl

/-- Every index of the array is in some point's block: row r in the block of point r / 2000. -/
theorem covered26_4 (i : S50000x64.Idx) :
    ∃ t : Fin cfg26.N, (cfg26.win 4).flush t = true ∧ i ∈ ((cfg26.win 4).blk t).view.set := by
  have hi0 : (i 0).val < 50000 := (i 0).isLt
  refine ⟨⟨(i 0).val / 2000, by rw [show cfg26.N = 25 from N_26]; omega⟩, flush26_4 _, ?_⟩
  have hi := index26_4 ⟨(i 0).val / 2000, by rw [show cfg26.N = 25 from N_26]; omega⟩
  rw [mem_blk26_4]
  intro a
  match a with
  | ⟨0, _⟩ =>
    show win26_4.index _ 0 * 2000 ≤ (i 0).val ∧ (i 0).val < win26_4.index _ 0 * 2000 + 2000
    rw [hi.1]; show (i 0).val / 2000 * 2000 ≤ (i 0).val ∧ (i 0).val < (i 0).val / 2000 * 2000 + 2000; omega
  | ⟨1, _⟩ =>
    show win26_4.index _ 1 * S2000x64.size 1 ≤ (i 1).val ∧ (i 1).val < win26_4.index _ 1 * S2000x64.size 1 + S2000x64.size 1
    rw [hi.2, Nat.zero_mul, Nat.zero_add]; exact ⟨Nat.zero_le _, (i 1).isLt⟩

/-- So the second full-size result array ends holding G14_4 of the three arrays. -/
theorem final26_4 (c : Dev nD) :
    (dat26 V c).arrAt 4 cfg26.N = G14_4 (V c (Pipeline.arrRef spec26 0)) (V c (Pipeline.arrRef spec26 1)) (V c (Pipeline.arrRef spec26 2)) :=
  (dat26 V c).arrAt_eq_of_cover 4 (G14_4 (xarr26 V c) (barr26 V c) (carr26 V c)) (fun t _ => flushed26_4 V c t) covered26_4

/-! ## The one-row result array after the run -/

/-- The one write-back (at the last point) writes the fold: the result's block there is the whole one-row array. -/
theorem flushed26_5 (c : Dev nD) (t : Fin cfg26.N) (hf : (cfg26.win 5).flush t = true) :
    (dat26 V c).flushed 5 t = ((cfg26.win 5).blk t).view.read (Elt F) (G14_5 (xarr26 V c) (barr26 V c) (carr26 V c)) := by
  have hN : t.val < 25 := lt_of_lt_of_eq t.isLt (show cfg26.N = 25 from N_26)
  have h24 : t.val = 24 := by have := (flush26_5 t).mp hf; omega
  have hi := index26_5 t
  show (cfg26.win 5).cut (grid26.coords t) ((dat26 V c).after 5 t) = _
  rw [after26_5, outsAt26_last V c t h24]
  have hz' : (fun a => win26_5.index t a * main_v268_2.ty.shape.size a) = fun _ => 0 := funext fun a => by
    match a with
    | ⟨0, _⟩ => show win26_5.index t 0 * _ = 0; rw [hi.1, Nat.zero_mul]
    | ⟨1, _⟩ => show win26_5.index t 1 * _ = 0; rw [hi.2, Nat.zero_mul]
  exact (Memref.read_access_unit_zero (Elt F) main_v268_2 hz' (fun a => by rw [congrFun hz' a]; simp) (G14_5 (xarr26 V c) (barr26 V c) (carr26 V c))).symm

/-- So the one-row result array ends holding the fold. -/
theorem final26_5 (c : Dev nD) :
    (dat26 V c).arrAt 5 cfg26.N = G14_5 (V c (Pipeline.arrRef spec26 0)) (V c (Pipeline.arrRef spec26 1)) (V c (Pipeline.arrRef spec26 2)) := by
  have h24 : (24 : ℕ) < cfg26.N := by rw [show cfg26.N = 25 from N_26]; omega
  refine (dat26 V c).arrAt_eq_of_cover 5 (G14_5 (xarr26 V c) (barr26 V c) (carr26 V c)) (flushed26_5 V c) fun i =>
    ⟨⟨24, h24⟩, (flush26_5 _).mpr rfl, ?_⟩
  have hi := index26_5 ⟨24, h24⟩
  have hx := xsize26_5 ⟨24, h24⟩
  show i ∈ ((View.whole main_v268_2).slice (win26_5.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win26_5.index ⟨24, h24⟩ 0 * win26_5.size 0 ≤ (i 0 : Nat) ∧ (i 0 : Nat) < win26_5.index ⟨24, h24⟩ 0 * win26_5.size 0 + win26_5.xsize (grid26.coords ⟨24, h24⟩) 0
    rw [hi.1, hx.1]; omega
  | ⟨1, _⟩ =>
    show win26_5.index ⟨24, h24⟩ 1 * win26_5.size 1 ≤ (i 1 : Nat) ∧ (i 1 : Nat) < win26_5.index ⟨24, h24⟩ 1 * win26_5.size 1 + win26_5.xsize (grid26.coords ⟨24, h24⟩) 1
    rw [hi.2, hx.2]; omega

end Cert.KernelIdeal.Hand

end
-- ==== Proof.KI.R27v.lean ====
import proofs.«408084_j48395691492010_3_alg».proof.Proof.KI.R27
import proofs.«408084_j48395691492010_3_alg».proof.Proof.KI.R3v

/-! Region 27, the value: the same kernel as region 3 at the same shapes, so the result is the same function `G3_2` of this
region's two arrays — the fold over the 25 row tiles, from the zero row, of each tile's column sum of squared deviations.
The found pieces read back and the fold's reading at the ideal values are region 3's; here: this region's blocks as
tiles of its arrays, the accumulator after each point as the fold (by induction on the point), and the result array. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The [50000, D] array of the rows, as the region finds it, -/
noncomputable abbrev xarr27 (c : Dev nD) : Vec F S50000x64 .f32 := V c (Pipeline.arrRef spec27 0)
/-- and the one row of column means. -/
noncomputable abbrev marr27 (c : Dev nD) : Vec F S1x64 .f32 := V c (Pipeline.arrRef spec27 1)

theorem index27_0 : ∀ t : Fin cfg27.N, win27_0.index t 0 = t.val ∧ win27_0.index t 1 = 0 :=
  (by decide +kernel : ∀ t : Fin grid27.N, win27_0.index t 0 = t.val ∧ win27_0.index t 1 = 0)
theorem index27_1 : ∀ t : Fin cfg27.N, win27_1.index t 0 = 0 ∧ win27_1.index t 1 = 0 :=
  (by decide +kernel : ∀ t : Fin grid27.N, win27_1.index t 0 = 0 ∧ win27_1.index t 1 = 0)
theorem index27_2 : ∀ t : Fin cfg27.N, win27_2.index t 0 = 0 ∧ win27_2.index t 1 = 0 :=
  (by decide +kernel : ∀ t : Fin grid27.N, win27_2.index t 0 = 0 ∧ win27_2.index t 1 = 0)
theorem xsize27_2 : ∀ t : Fin cfg27.N, win27_2.xsize (grid27.coords t) 0 = 1 ∧ win27_2.xsize (grid27.coords t) 1 = 64 :=
  (by decide +kernel : ∀ t : Fin grid27.N, win27_2.xsize (grid27.coords t) 0 = 1 ∧ win27_2.xsize (grid27.coords t) 1 = 64)

/-- The row-tile window's block at point `t` is row tile `t` of the array. -/
theorem xblk27_eq (c : Dev nD) (t : Fin cfg27.N) (hN : t.val < 25) :
    (iblk27 V c 0 t : Vec F S2000x64 .f32) = tile3 (xarr27 V c) ⟨t.val, hN⟩ := by
  have hi := index27_0 t
  funext j
  unfold iblk27 tile3
  rw [View.read_apply]
  show V c (Pipeline.arrRef spec27 0) _ = V c (Pipeline.arrRef spec27 0) _
  congr 1
  funext a
  apply Fin.ext
  match a with
  | ⟨0, _⟩ => show win27_0.index t 0 * 2000 + 1 * (j 0).val = 2000 * t.val + (j 0).val; rw [hi.1]; omega
  | ⟨1, _⟩ => show win27_0.index t 1 * 64 + 1 * (j 1).val = (j 1).val; rw [hi.2]; omega

/-- The mean window's block is the whole one-row array, at every point. -/
theorem mblk27_eq (c : Dev nD) (t : Fin cfg27.N) : (iblk27 V c 1 t : Vec F S1x64 .f32) = marr27 V c := by
  have hi := index27_1 t
  funext j
  unfold iblk27
  rw [View.read_apply]
  show V c (Pipeline.arrRef spec27 1) _ = V c (Pipeline.arrRef spec27 1) j
  congr 1
  funext a
  apply Fin.ext
  match a with
  | ⟨0, _⟩ => show win27_1.index t 0 * 1 + 1 * (j 0).val = (j 0).val; rw [hi.1]; omega
  | ⟨1, _⟩ => show win27_1.index t 1 * 64 + 1 * (j 1).val = (j 1).val; rw [hi.2]; omega

/-- What the accumulator holds after point `n` is the fold up to tile `n`: by induction on the point. -/
theorem outsAt27_acc (c : Dev nD) : ∀ (n : ℕ) (h : n < cfg27.N) (h' : n < 25),
    (outsAt27 V c n h).2 = acc3 (xarr27 V c) (marr27 V c) n h'
  | 0, h, h' => by
    rw [outsAt27_A V c ⟨0, h⟩ rfl (fun e => by have e' : (0 : ℕ) = 24 := e; omega)]
    dsimp only
    rw [sout3_A_eq, xblk27_eq V c ⟨0, h⟩ h', mblk27_eq V c ⟨0, h⟩]
    rfl
  | n + 1, h, h' => by
    have ih := outsAt27_acc c n (Nat.lt_of_succ_lt h) (Nat.lt_of_succ_lt h')
    by_cases h24 : n + 1 = 24
    · rw [outsAt27_C V c ⟨n + 1, h⟩ (Nat.succ_ne_zero n) h24]
      dsimp only
      rw [sout3_C_eq, xblk27_eq V c ⟨n + 1, h⟩ h', mblk27_eq V c ⟨n + 1, h⟩]
      show k3_pay2 _ _ (outsAt27 V c n _).2 = k3_pay2 _ _ (acc3 _ _ n _)
      rw [ih]
    · rw [outsAt27_B V c ⟨n + 1, h⟩ (Nat.succ_ne_zero n) h24]
      dsimp only
      rw [sout3_B_eq, xblk27_eq V c ⟨n + 1, h⟩ h', mblk27_eq V c ⟨n + 1, h⟩]
      show k3_pay2 _ _ (outsAt27 V c n _).2 = k3_pay2 _ _ (acc3 _ _ n _)
      rw [ih]

/-- At the last point the result's buffer is left holding the whole fold. -/
theorem outsAt27_last (c : Dev nD) (t : Fin cfg27.N) (h24 : t.val = 24) :
    (outsAt27 V c t.val t.isLt).1 = G3_2 (xarr27 V c) (marr27 V c) := by
  obtain ⟨n, hn⟩ := t
  obtain rfl : n = 24 := h24
  rw [outsAt27_C V c ⟨24, hn⟩ (fun e => by have e' : (24 : ℕ) = 0 := e; omega) rfl]
  dsimp only
  rw [out3_C_eq, xblk27_eq V c ⟨24, hn⟩ (by show (24 : ℕ) < 25; omega), mblk27_eq V c ⟨24, hn⟩]
  show k3_pay2 _ _ (outsAt27 V c 23 _).2 = k3_pay2 _ _ (acc3 _ _ 23 _)
  rw [outsAt27_acc V c 23 _ (by decide)]

/-- The one write-back (at the last point) writes the fold: the result's block there is the whole one-row array. -/
theorem flushed27_2 (c : Dev nD) (t : Fin cfg27.N) (hf : (cfg27.win 2).flush t = true) :
    (dat27 V c).flushed 2 t = ((cfg27.win 2).blk t).view.read (Elt F) (G3_2 (xarr27 V c) (marr27 V c)) := by
  have hN : t.val < 25 := lt_of_lt_of_eq t.isLt (show cfg27.N = 25 from N_27)
  have h24 : t.val = 24 := by have := (flush27_2 t).mp hf; omega
  have hi := index27_2 t
  show (cfg27.win 2).cut (grid27.coords t) ((dat27 V c).after 2 t) = _
  rw [after27_2, outsAt27_last V c t h24]
  have hz' : (fun a => win27_2.index t a * main_v271.ty.shape.size a) = fun _ => 0 := funext fun a => by
    match a with
    | ⟨0, _⟩ => show win27_2.index t 0 * _ = 0; rw [hi.1, Nat.zero_mul]
    | ⟨1, _⟩ => show win27_2.index t 1 * _ = 0; rw [hi.2, Nat.zero_mul]
  exact (Memref.read_access_unit_zero (Elt F) main_v271 hz' (fun a => by rw [congrFun hz' a]; simp) (G3_2 (xarr27 V c) (marr27 V c))).symm

/-- So the result array ends holding the fold: region 3's function of this region's two arrays. -/
theorem final27_2 (c : Dev nD) : (dat27 V c).arrAt 2 cfg27.N = G3_2 (V c (Pipeline.arrRef spec27 0)) (V c (Pipeline.arrRef spec27 1)) := by
  have h24 : (24 : ℕ) < cfg27.N := by rw [show cfg27.N = 25 from N_27]; omega
  refine (dat27 V c).arrAt_eq_of_cover 2 (G3_2 (xarr27 V c) (marr27 V c)) (flushed27_2 V c) fun i =>
    ⟨⟨24, h24⟩, (flush27_2 _).mpr rfl, ?_⟩
  have hi := index27_2 ⟨24, h24⟩
  have hx := xsize27_2 ⟨24, h24⟩
  show i ∈ ((View.whole main_v271).slice (win27_2.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win27_2.index ⟨24, h24⟩ 0 * win27_2.size 0 ≤ (i 0 : Nat) ∧ (i 0 : Nat) < win27_2.index ⟨24, h24⟩ 0 * win27_2.size 0 + win27_2.xsize (grid27.coords ⟨24, h24⟩) 0
    rw [hi.1, hx.1]; omega
  | ⟨1, _⟩ =>
    show win27_2.index ⟨24, h24⟩ 1 * win27_2.size 1 ≤ (i 1 : Nat) ∧ (i 1 : Nat) < win27_2.index ⟨24, h24⟩ 1 * win27_2.size 1 + win27_2.xsize (grid27.coords ⟨24, h24⟩) 1
    rw [hi.2, hx.2]; omega

end Cert.KernelIdeal.Hand

end
-- ==== Proof.KI.R28v.lean ====
import proofs.«408084_j48395691492010_3_alg».proof.Proof.KI.R28
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws

/-!
# Region 28: the array it leaves, as one function of the arrays it finds

Every grid point writes one block of 2000 rows of the output, and the 25 blocks tile the 50000 rows; the four
single-row inputs are the same block at every point. So the output array after the run is one function of the five
arrays the region finds. Entry (r, q) is computed from row r of the activations alone:

  bn[r,k] = (x[r,k] - mean[k]) * rsqrt (var[k] + eps) * gamma[k] + beta[k],
  out[r,q] = exp (bn[r,q] - max_k bn[r,k]) / (1 + Σ_k exp (bn[r,k] - max_k bn[r,k])).

At a generic float instance the row's sum is the instance's reduction of the whole 2000-row block that holds the
row, so the function is stated through that block; over the extended reals the reduction is a sum over the row and
the block drops out.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable {F : FTy → Type} [FloatOps F]

/-! ## The layout operations of the body, read at an index -/

section Layout28
variable {α : Type}

/-- A vector of 2000 entries cast to a column reads, at (p, 0), entry p. -/
theorem castCol28 (v : S2000.Idx → α) (h : S2000.ShapeCasts S2000x1) :
    shapeCast S2000x1 v h = fun y => v (ix1 (y 0)) := by
  funext y
  obtain ⟨p, u, rfl⟩ : ∃ (p : Fin 2000) (u : Fin 1), y = ix2 p u := ⟨y 0, y 1, eq_ix2 y⟩
  refine shapeCast_apply v h (ix2 p u) (ix1 p) ?_
  have hu : u.val = 0 := by omega
  rw [Shape.rowMajor_val_two, Shape.rowMajor_val_one]
  show p.val = p.val * 1 + u.val
  rw [hu, Nat.mul_one, Nat.add_zero]

/-- A column broadcast along the rows reads, at (p, k), the column's entry p. -/
theorem bcastCol28 (v : S2000x1.Idx → α) (h : S2000x1.Broadcasts S2000x64) :
    broadcastTo S2000x64 v h = fun y => v (ix2 (y 0) (0 : Fin 1)) := by
  funext y
  obtain ⟨p, k, rfl⟩ : ∃ (p : Fin 2000) (k : Fin 64), y = ix2 p k := ⟨y 0, y 1, eq_ix2 y⟩
  refine broadcastTo_apply v h (ix2 p k) (ix2 p (0 : Fin 1)) fun ax => ?_
  match ax with
  | ⟨0, _⟩ => rfl
  | ⟨1, _⟩ => rfl

/-- A single row broadcast down the block reads, at (p, k), the row's entry k. -/
theorem bcastRow28 (v : S1x64.Idx → α) (h : S1x64.Broadcasts S2000x64) :
    broadcastTo S2000x64 v h = fun y => v (ix2 (0 : Fin 1) (y 1)) := by
  funext y
  obtain ⟨p, k, rfl⟩ : ∃ (p : Fin 2000) (k : Fin 64), y = ix2 p k := ⟨y 0, y 1, eq_ix2 y⟩
  exact broadcastTo_1b_ab_apply v h p k

end Layout28

/-! ## The body's result on a block, by coordinates -/

/-- The batch-norm of a block, entry by entry, in the body's order of operations. -/
noncomputable def bn28 (v0 : Vec F S2000x64 .f32) (v2 v6 v13 v17 : Vec F S1x64 .f32) : FVec F S2000x64 .f32 := fun y =>
  FloatOps.addf (FloatOps.mulf (FloatOps.mulf (FloatOps.subf (v0 y) (v2 (ix2 (0 : Fin 1) (y 1))))
      (FloatOps.rsqrt (FloatOps.addf (v6 (ix2 (0 : Fin 1) (y 1))) (FloatOps.ofBits .f32 0x3727C5AC#32))))
      (v13 (ix2 (0 : Fin 1) (y 1)))) (v17 (ix2 (0 : Fin 1) (y 1)))

/-- Its row maxima: the body's reduction along the columns, started from minus infinity. -/
noncomputable def mx28 (v0 : Vec F S2000x64 .f32) (v2 v6 v13 v17 : Vec F S1x64 .f32) : FVec F S2000 .f32 :=
  multiReduction .maximumf [1] S2000 (bn28 v0 v2 v6 v13 v17) 0xFF800000#32 reduces_S2000x64_S2000 (.inl rfl) rfl

/-- The exponentials of the batch-norm less its row maximum. -/
noncomputable def e28 (v0 : Vec F S2000x64 .f32) (v2 v6 v13 v17 : Vec F S1x64 .f32) : FVec F S2000x64 .f32 := fun y =>
  FloatOps.exp (FloatOps.subf (bn28 v0 v2 v6 v13 v17 y) (mx28 v0 v2 v6 v13 v17 (ix1 (y 0))))

/-- Their row sums: the body's reduction along the columns, started from zero. -/
noncomputable def sm28 (v0 : Vec F S2000x64 .f32) (v2 v6 v13 v17 : Vec F S1x64 .f32) : FVec F S2000 .f32 :=
  multiReduction .add [1] S2000 (e28 v0 v2 v6 v13 v17) 0x00000000#32 reduces_S2000x64_S2000 (.inl rfl) rfl

/-- What the body stores: each exponential over one plus its row's sum. -/
noncomputable def P28 (v0 : Vec F S2000x64 .f32) (v2 v6 v13 v17 : Vec F S1x64 .f32) : Vec F S2000x64 .f32 := fun y =>
  FloatOps.divf (e28 v0 v2 v6 v13 v17 y)
    (FloatOps.addf (FloatOps.ofBits .f32 0x3F800000#32) (sm28 v0 v2 v6 v13 v17 (ix1 (y 0))))

/-- The skeleton's payload is that function: its layout operations read at an index, the rest unfolds. -/
theorem pay28_eq (v0 : Vec F S2000x64 .f32) (v2 v6 v13 v17 : Vec F S1x64 .f32) :
    k28_pay1 v0 v2 v6 v13 v17 = P28 v0 v2 v6 v13 v17 := by
  unfold k28_pay1
  simp only [shapeCast_self, bcastRow28, bcastCol28, castCol28]
  rfl

/-! ## The output array as one function of the arrays the region finds -/

/-- Rows q·2000 … q·2000 + 1999 of an array of 50000 rows. -/
noncomputable def rows28 (x : S50000x64.Idx → Elt F .f32) (q : Fin 25) : Vec F S2000x64 .f32 := fun y =>
  x (ix2 (⟨q.val * 2000 + (y 0).val, by have := idx2_lt0 y; have := q.isLt; omega⟩ : Fin 50000) (y 1))

/-- The block of 2000 rows that holds an entry's row, -/
noncomputable def blkOf28 (i : S50000x64.Idx) : Fin 25 := ⟨(i 0).val / 2000, by have := idx2_lt0 i; omega⟩
/-- and the row's place in it. -/
noncomputable def rowIn28 (i : S50000x64.Idx) : Fin 2000 := ⟨(i 0).val % 2000, Nat.mod_lt _ (by decide)⟩

/-- The output array: at each entry, the body's result on the block of 2000 rows of the activations that holds
    the entry's row, at the row's place in the block. -/
noncomputable def G28 (x : S50000x64.Idx → Elt F .f32) (mu va ga be : S1x64.Idx → Elt F .f32) : S50000x64.Idx → Elt F .f32 := fun i =>
  P28 (rows28 x (blkOf28 i)) mu va ga be (ix2 (rowIn28 i) (i 1))

/-- The output array read under block q at a place j of the block. -/
theorem G28_blk (x : S50000x64.Idx → Elt F .f32) (mu va ga be : S1x64.Idx → Elt F .f32) (q : Fin 25) (j : S2000x64.Idx)
    (i : S50000x64.Idx) (h0 : (i 0).val = q.val * 2000 + (j 0).val) (h1 : (i 1).val = (j 1).val) :
    G28 x mu va ga be i = P28 (rows28 x q) mu va ga be j := by
  have hj0 : (j 0).val < 2000 := idx2_lt0 j
  have hq : blkOf28 i = q := Fin.ext (by show (i 0).val / 2000 = q.val; omega)
  have hj : ix2 (rowIn28 i) (i 1) = j := by
    funext a
    match a with
    | ⟨0, _⟩ => exact Fin.ext (by show (i 0).val % 2000 = (j 0).val; omega)
    | ⟨1, _⟩ => exact Fin.ext h1
  unfold G28
  rw [hq]
  exact congrArg (P28 (rows28 x q) mu va ga be) hj

section Region28v
variable (V : (c : Dev nD) → (b : Ref sig .tc) → Buf (Elt F) ((c : Thread nD τ).loc b))

theorem hz28 : (![0, 0] : Fin 2 → Nat) = fun _ => 0 := funext fun a => by fin_cases a <;> rfl

/-- The windows' block indices, decided over the 25 grid points: the activations and the output move one block of
    rows per point, the four single rows stay. -/
theorem idx28 : ∀ t : Fin cfg28.N,
    win28_0.index t (0 : Fin 2) = t.val ∧ win28_0.index t (1 : Fin 2) = 0
    ∧ win28_1.index t (0 : Fin 2) = 0 ∧ win28_1.index t (1 : Fin 2) = 0
    ∧ win28_2.index t (0 : Fin 2) = 0 ∧ win28_2.index t (1 : Fin 2) = 0
    ∧ win28_3.index t (0 : Fin 2) = 0 ∧ win28_3.index t (1 : Fin 2) = 0
    ∧ win28_4.index t (0 : Fin 2) = 0 ∧ win28_4.index t (1 : Fin 2) = 0
    ∧ win28_5.index t (0 : Fin 2) = t.val ∧ win28_5.index t (1 : Fin 2) = 0 :=
  (by decide +kernel : ∀ t : Fin grid28.N, _)

/-- The activations' block at point t is rows t·2000 … of their array. -/
theorem iblk28_0_eq (c : Dev nD) (t : Fin cfg28.N) :
    (iblk28 V c 0 t : S2000x64.Idx → Elt F .f32) = rows28 (V c (Pipeline.arrRef spec28 0)) (t.cast N_28) := by
  obtain ⟨e0, e1, -⟩ := idx28 t
  funext y
  show V c (Pipeline.arrRef spec28 0) (((cfg28.win 0).blk t).view.emb y) = V c (Pipeline.arrRef spec28 0) _
  refine congrArg _ (funext fun a => Fin.ext ?_)
  match a with
  | ⟨0, _⟩ => show win28_0.index t (0 : Fin 2) * 2000 + 1 * (y 0).val = t.val * 2000 + (y 0).val; omega
  | ⟨1, _⟩ => show win28_0.index t (1 : Fin 2) * 64 + 1 * (y 1).val = (y 1).val; omega

/-- Each single row's block is, at every point, its whole array. -/
theorem iblk28_1_eq (c : Dev nD) (t : Fin cfg28.N) : (iblk28 V c 1 t : S1x64.Idx → Elt F .f32) = V c (Pipeline.arrRef spec28 1) := by
  obtain ⟨-, -, e0, e1, -⟩ := idx28 t
  funext y
  show V c (Pipeline.arrRef spec28 1) (((cfg28.win 1).blk t).view.emb y) = V c (Pipeline.arrRef spec28 1) y
  refine congrArg _ (funext fun a => Fin.ext ?_)
  match a with
  | ⟨0, _⟩ => show win28_1.index t (0 : Fin 2) * 1 + 1 * (y 0).val = (y 0).val; omega
  | ⟨1, _⟩ => show win28_1.index t (1 : Fin 2) * 64 + 1 * (y 1).val = (y 1).val; omega
theorem iblk28_2_eq (c : Dev nD) (t : Fin cfg28.N) : (iblk28 V c 2 t : S1x64.Idx → Elt F .f32) = V c (Pipeline.arrRef spec28 2) := by
  obtain ⟨-, -, -, -, e0, e1, -⟩ := idx28 t
  funext y
  show V c (Pipeline.arrRef spec28 2) (((cfg28.win 2).blk t).view.emb y) = V c (Pipeline.arrRef spec28 2) y
  refine congrArg _ (funext fun a => Fin.ext ?_)
  match a with
  | ⟨0, _⟩ => show win28_2.index t (0 : Fin 2) * 1 + 1 * (y 0).val = (y 0).val; omega
  | ⟨1, _⟩ => show win28_2.index t (1 : Fin 2) * 64 + 1 * (y 1).val = (y 1).val; omega
theorem iblk28_3_eq (c : Dev nD) (t : Fin cfg28.N) : (iblk28 V c 3 t : S1x64.Idx → Elt F .f32) = V c (Pipeline.arrRef spec28 3) := by
  obtain ⟨-, -, -, -, -, -, e0, e1, -⟩ := idx28 t
  funext y
  show V c (Pipeline.arrRef spec28 3) (((cfg28.win 3).blk t).view.emb y) = V c (Pipeline.arrRef spec28 3) y
  refine congrArg _ (funext fun a => Fin.ext ?_)
  match a with
  | ⟨0, _⟩ => show win28_3.index t (0 : Fin 2) * 1 + 1 * (y 0).val = (y 0).val; omega
  | ⟨1, _⟩ => show win28_3.index t (1 : Fin 2) * 64 + 1 * (y 1).val = (y 1).val; omega
theorem iblk28_4_eq (c : Dev nD) (t : Fin cfg28.N) : (iblk28 V c 4 t : S1x64.Idx → Elt F .f32) = V c (Pipeline.arrRef spec28 4) := by
  obtain ⟨-, -, -, -, -, -, -, -, e0, e1, -⟩ := idx28 t
  funext y
  show V c (Pipeline.arrRef spec28 4) (((cfg28.win 4).blk t).view.emb y) = V c (Pipeline.arrRef spec28 4) y
  refine congrArg _ (funext fun a => Fin.ext ?_)
  match a with
  | ⟨0, _⟩ => show win28_4.index t (0 : Fin 2) * 1 + 1 * (y 0).val = (y 0).val; omega
  | ⟨1, _⟩ => show win28_4.index t (1 : Fin 2) * 64 + 1 * (y 1).val = (y 1).val; omega

set_option maxHeartbeats 1000000 in
/-- What point t writes back is block t of the output array. -/
theorem flushed28_eq (c : Dev nD) (t : Fin cfg28.N) :
    (dat28 V c).flushed 5 t = ((cfg28.win 5).blk t).view.read (Elt F)
      (G28 (V c (Pipeline.arrRef spec28 0)) (V c (Pipeline.arrRef spec28 1)) (V c (Pipeline.arrRef spec28 2))
        (V c (Pipeline.arrRef spec28 3)) (V c (Pipeline.arrRef spec28 4))) := by
  show (cfg28.win 5).cut (grid28.coords t) ((dat28 V c).after 5 t) = _
  rw [after28_5]
  unfold out28_5
  rw [View.canon_unit_zero hz28]
  simp only [View.ld_unit_zero (S := S2000x64) hz28, View.ld_unit_zero (S := S1x64) hz28]
  rw [pay28_eq, iblk28_0_eq, iblk28_1_eq, iblk28_2_eq, iblk28_3_eq, iblk28_4_eq]
  obtain ⟨-, -, -, -, -, -, -, -, -, -, e0, e1⟩ := idx28 t
  funext j
  show P28 (rows28 _ (t.cast N_28)) _ _ _ _ j = G28 _ _ _ _ _ (((cfg28.win 5).blk t).view.emb j)
  refine (G28_blk _ _ _ _ _ (t.cast N_28) j (((cfg28.win 5).blk t).view.emb j) ?_ ?_).symm
  · show win28_5.index t (0 : Fin 2) * 2000 + 1 * (j 0).val = t.val * 2000 + (j 0).val; omega
  · show win28_5.index t (1 : Fin 2) * 64 + 1 * (j 1).val = (j 1).val; omega

/-- An entry of the array is in point t's block iff each coordinate is in the block's range on its axis. -/
theorem mem_blk28 (t : Fin cfg28.N) (i : S50000x64.Idx) :
    i ∈ ((cfg28.win 5).blk t).view.set ↔ ∀ a : Fin 2, win28_5.index t a * S2000x64.size a ≤ (i a).val ∧ (i a).val < win28_5.index t a * S2000x64.size a + S2000x64.size a := by
  show i ∈ ((View.whole main_v276).slice (win28_5.rect t)).set ↔ _
  rw [View.set_slice_whole, Rect.mem_set_unit]
  exact Iff.rfl

/-- Every entry is in the block of the point numbered by its row over 2000. -/
theorem covered28 (i : S50000x64.Idx) : ∃ t : Fin cfg28.N, (cfg28.win 5).flush t = true ∧ i ∈ ((cfg28.win 5).blk t).view.set := by
  have hi0 : (i 0).val < 50000 := idx2_lt0 i
  have hi1 : (i 1).val < 64 := idx2_lt1 i
  have ht : ∃ t : Fin cfg28.N, t.val = (i 0).val / 2000 := ⟨(⟨(i 0).val / 2000, by omega⟩ : Fin 25).cast N_28.symm, rfl⟩
  obtain ⟨t, ht⟩ := ht
  obtain ⟨-, -, -, -, -, -, -, -, -, -, e0, e1⟩ := idx28 t
  refine ⟨t, flush28_5 t, ?_⟩
  rw [mem_blk28]
  intro a
  match a with
  | ⟨0, _⟩ => show win28_5.index t (0 : Fin 2) * 2000 ≤ (i 0).val ∧ (i 0).val < win28_5.index t (0 : Fin 2) * 2000 + 2000; omega
  | ⟨1, _⟩ => show win28_5.index t (1 : Fin 2) * 64 ≤ (i 1).val ∧ (i 1).val < win28_5.index t (1 : Fin 2) * 64 + 64; omega

/-- The output array after the run. -/
theorem final28_5 (c : Dev nD) :
    (dat28 V c).arrAt 5 cfg28.N = G28 (V c (Pipeline.arrRef spec28 0)) (V c (Pipeline.arrRef spec28 1)) (V c (Pipeline.arrRef spec28 2))
      (V c (Pipeline.arrRef spec28 3)) (V c (Pipeline.arrRef spec28 4)) :=
  (dat28 V c).arrAt_eq_of_cover 5 _ (fun t _ => flushed28_eq V c t) covered28

end Region28v

/-! ## The output array over the extended reals, entry by entry -/

section Ideal28

/-- The source entry of a row reduction over a block: the result's row p with k put back on the column axis. -/
theorem lift28 (h : S2000x64.Reduces [1] S2000) (p : Fin 2000) (k : Fin 64) : h.lift (ix1 p) k = ix2 p k := by
  funext a
  match a with
  | ⟨0, _⟩ => exact Fin.ext rfl
  | ⟨1, _⟩ => exact Fin.ext rfl

section Block28
variable (X : Vec Ideal S2000x64 .f32) (mu va ga be : Vec Ideal S1x64 .f32)

/-- The block's batch-norm at an entry. -/
theorem bn28_apply (p : Fin 2000) (k : Fin 64) :
    bn28 (F := Ideal) X mu va ga be (ix2 p k)
      = ((X (ix2 p k) : EReal) - mu (ix2 0 k)) * Ideal.rsqrt (va (ix2 0 k) + Cert.Val.cEps) * ga (ix2 0 k) + be (ix2 0 k) := rfl

/-- A row's maximum: the fold of max over the row, from minus infinity. -/
theorem mx28_apply (p : Fin 2000) :
    mx28 (F := Ideal) X mu va ga be (ix1 p) = Cert.Val.rowMax (fun k : Fin 64 => bn28 (F := Ideal) X mu va ga be (ix2 p k)) := by
  unfold mx28
  refine (Ideal.multiReduction_maximumf_single (bn28 (F := Ideal) X mu va ga be) 0xFF800000#32 reduces_S2000x64_S2000 (.inl rfl) rfl
    (ix1 p)).trans ?_
  have hf : (bn28 (F := Ideal) X mu va ga be ∘ (reduces_S2000x64_S2000).lift (ix1 p))
      = fun k : Fin 64 => bn28 (F := Ideal) X mu va ga be (ix2 p k) :=
    funext fun k => congrArg (bn28 (F := Ideal) X mu va ga be) (lift28 _ p k)
  exact congrArg (fun f => (Finset.univ : Finset (Fin 64)).fold max Cert.Val.cNegInf f) hf

/-- The exponentials at an entry. -/
theorem e28_apply (p : Fin 2000) (k : Fin 64) :
    e28 (F := Ideal) X mu va ga be (ix2 p k)
      = Ideal.exp (bn28 (F := Ideal) X mu va ga be (ix2 p k) - Cert.Val.rowMax (fun k' : Fin 64 => bn28 (F := Ideal) X mu va ga be (ix2 p k'))) := by
  show Ideal.exp (bn28 (F := Ideal) X mu va ga be (ix2 p k) - mx28 (F := Ideal) X mu va ga be (ix1 p)) = _
  rw [mx28_apply]

/-- A row's sum of exponentials: the sum over the row. -/
theorem sm28_apply (p : Fin 2000) :
    sm28 (F := Ideal) X mu va ga be (ix1 p) = ∑ k : Fin 64, e28 (F := Ideal) X mu va ga be (ix2 p k) := by
  unfold sm28
  refine (Ideal.multiReduction_add_single (e28 (F := Ideal) X mu va ga be) 0x00000000#32 reduces_S2000x64_S2000 (.inl rfl) rfl
    (ix1 p)).trans ?_
  exact Finset.sum_congr rfl fun k _ => congrArg (e28 (F := Ideal) X mu va ga be) (lift28 _ p k)

/-- What the body stores, at an entry. -/
theorem P28_apply (p : Fin 2000) (k : Fin 64) :
    P28 (F := Ideal) X mu va ga be (ix2 p k)
      = Ideal.div (e28 (F := Ideal) X mu va ga be (ix2 p k)) (Cert.Val.cOne + sm28 (F := Ideal) X mu va ga be (ix1 p)) := rfl

end Block28

/-- The block that holds row r, read at the row's place, is row r of the array. -/
theorem rows28_at (x : S50000x64.Idx → Elt Ideal .f32) (r : Fin 50000) (q k : Fin 64) :
    rows28 x (blkOf28 (ix2 r q)) (ix2 (rowIn28 (ix2 r q)) k) = x (ix2 r k) := by
  unfold rows28
  refine congrArg x (funext fun a => ?_)
  match a with
  | ⟨0, _⟩ => exact Fin.ext (by show (r.val / 2000) * 2000 + r.val % 2000 = r.val; omega)
  | ⟨1, _⟩ => rfl

/-- THE OUTPUT ARRAY AT AN ENTRY: the row softmax with one added to the denominator, of the batch-norm of row r of
    the activations with the given column statistics, scale and shift. -/
theorem G28_apply (x : S50000x64.Idx → Elt Ideal .f32) (mu va ga be : S1x64.Idx → Elt Ideal .f32) (r : Fin 50000) (q : Fin 64) :
    G28 (F := Ideal) x mu va ga be (ix2 r q)
      = Cert.Val.smOne (fun j' => Cert.Val.bnAt (fun i j => x (ix2 i j)) (fun j => mu (ix2 0 j)) (fun j => va (ix2 0 j))
          (fun j => ga (ix2 0 j)) (fun j => be (ix2 0 j)) r j') q := by
  have hb : ∀ k : Fin 64, bn28 (F := Ideal) (rows28 x (blkOf28 (ix2 r q))) mu va ga be (ix2 (rowIn28 (ix2 r q)) k)
      = Cert.Val.bnAt (fun i j => x (ix2 i j)) (fun j => mu (ix2 0 j)) (fun j => va (ix2 0 j))
          (fun j => ga (ix2 0 j)) (fun j => be (ix2 0 j)) r k := by
    intro k
    rw [bn28_apply, rows28_at]
    rfl
  show P28 (F := Ideal) (rows28 x (blkOf28 (ix2 r q))) mu va ga be (ix2 (rowIn28 (ix2 r q)) q) = _
  rw [P28_apply, sm28_apply]
  simp only [e28_apply, hb]
  rfl

end Ideal28

end Cert.KernelIdeal.Hand

end
-- ==== Proof.KI.R29v.lean ====
import proofs.«408084_j48395691492010_3_alg».proof.Proof.KI.R29
import Idealize.ShloMosaic.Lib.Pipeline.Value
import Idealize.ShloMosaic.Lib.ValueIdx
import Idealize.ShloMosaic.PureOps.Ideal.Laws

/-! # Region 29, read: the output array is the product of the two input arrays

The frame part gives, point by point, the block of products the body leaves in the output window. Here the
blocks are put together: after the last point the output array is one function G29 of the two input arrays
as the region finds them, and at the ideal values entry (r, q) of it is the sum over k of x (r, k) · w (k, q). -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Value29

/-- The contracted extent (columns of X, rows of W) and the number of columns of W. -/
abbrev kdim29 : Nat := 64
abbrev ncol29 : Nat := 64

/-! ## The product as a function of the two arrays

The unit that multiplies is given a block of rows at a time, so the function of the arrays is stated that
way: entry (r, q) is the entry of the product of the block of rows holding row r with W, at that row's
place in the block. At the ideal values a block's product is the sum over the contracted axis, and the
blocks fall away. -/

/-- The block of consecutive rows of x that holds row r, its rows numbered from the block's first. -/
noncomputable def rowsOf29 (x : S50000x64.Idx → Elt F .f32) (r : Fin 50000) : Vec F S2000x64 .f32 :=
  fun y => x (ix2 ⟨r.val / 2000 * 2000 + (y 0).val, by
    have h0 : (y 0).val < 2000 := (y 0).isLt
    have hr := r.isLt
    omega⟩ (y 1))

/-- Entry i of the product: the payload at the block of rows holding row i 0 and at W, read at the row's
    place in its block and column i 1. -/
noncomputable def G29 (x : S50000x64.Idx → Elt F .f32) (w : S64x64.Idx → Elt F .f32) : S50000x64.Idx → Elt F .f32 :=
  fun i => k29_pay1 (rowsOf29 x (i 0)) w (ix2 ⟨(i 0).val % 2000, Nat.mod_lt _ (by decide)⟩ (i 1))

/-- Entry i of the product from ANY description of the block b that holds its row: the block of rows as
    xb, the matrix as wb, the entry's place in the block as j. -/
theorem G29_of_block (x : S50000x64.Idx → Elt F .f32) (w : S64x64.Idx → Elt F .f32) (b : Nat)
    (i : S50000x64.Idx) (j : S2000x64.Idx) (h0 : (i 0).val = b * 2000 + (j 0).val) (h1 : (i 1).val = (j 1).val)
    (xb : Vec F S2000x64 .f32) (wb : Vec F S64x64 .f32) (hw : wb = w)
    (hx : ∀ (y : S2000x64.Idx) (hy : b * 2000 + (y 0).val < 50000), xb y = x (ix2 ⟨b * 2000 + (y 0).val, hy⟩ (y 1))) :
    G29 x w i = k29_pay1 xb wb j := by
  have hj0 : (j 0).val < 2000 := (j 0).isLt
  have hi0 : (i 0).val < 50000 := (i 0).isLt
  have hrows : rowsOf29 x (i 0) = xb := by
    funext y
    have hy0 : (y 0).val < 2000 := (y 0).isLt
    have hq : (i 0).val / 2000 * 2000 = b * 2000 := by omega
    rw [hx y (by omega)]
    unfold rowsOf29
    congr 1
    funext d; apply Fin.ext
    match d with
    | ⟨0, _⟩ => show (i 0).val / 2000 * 2000 + (y 0).val = b * 2000 + (y 0).val; omega
    | ⟨1, _⟩ => rfl
  have hplace : (ix2 ⟨(i 0).val % 2000, Nat.mod_lt _ (by decide)⟩ (i 1) : S2000x64.Idx) = j := by
    funext d; apply Fin.ext
    match d with
    | ⟨0, _⟩ => show (i 0).val % 2000 = (j 0).val; omega
    | ⟨1, _⟩ => exact h1
  unfold G29
  rw [hrows, hplace, hw]

/-! ### The operand indices of the contraction, axis by axis -/

theorem lhsAx29_0 (j : S2000x64.Idx) (k : dot_S2000x64_S64x64_S2000x64_1_0_0_1_n_n.contr.Idx) :
    (dot_S2000x64_S64x64_S2000x64_1_0_0_1_n_n.lhsIdx j k (0 : Fin 2)).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

theorem lhsAx29_1 (j : S2000x64.Idx) (k : dot_S2000x64_S64x64_S2000x64_1_0_0_1_n_n.contr.Idx) :
    (dot_S2000x64_S64x64_S2000x64_1_0_0_1_n_n.lhsIdx j k (1 : Fin 2)).val = (k ⟨0, by decide⟩).val :=
  dot_S2000x64_S64x64_S2000x64_1_0_0_1_n_n.lhsIdx_val_of_single (cl := (1 : Fin 2)) rfl j k

theorem rhsAx29_0 (j : S2000x64.Idx) (k : dot_S2000x64_S64x64_S2000x64_1_0_0_1_n_n.contr.Idx) :
    (dot_S2000x64_S64x64_S2000x64_1_0_0_1_n_n.rhsIdx j k (0 : Fin 2)).val = (k ⟨0, by decide⟩).val :=
  dot_S2000x64_S64x64_S2000x64_1_0_0_1_n_n.rhsIdx_val_of_single (cr := (0 : Fin 2)) rfl j k

theorem rhsAx29_1 (j : S2000x64.Idx) (k : dot_S2000x64_S64x64_S2000x64_1_0_0_1_n_n.contr.Idx) :
    (dot_S2000x64_S64x64_S2000x64_1_0_0_1_n_n.rhsIdx j k (1 : Fin 2)).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The payload at the ideal values, at an index: the sum over the contracted axis. -/
theorem k29_pay1_apply (a : Vec Ideal S2000x64 .f32) (b : Vec Ideal S64x64 .f32) (p : Fin 2000) (q : Fin ncol29) :
    k29_pay1 (F := Ideal) a b (ix2 p q) = ∑ k : Fin kdim29, a (ix2 p k) * b (ix2 k q) := by
  unfold k29_pay1
  simp only [shapeCast_self]
  refine (Ideal.matmul_constant_zero_apply _ _ _ _ _).trans ?_
  rw [← Equiv.sum_comp (contrEquiv1 dot_S2000x64_S64x64_S2000x64_1_0_0_1_n_n kdim29 rfl rfl).symm]
  refine Finset.sum_congr rfl fun k _ => ?_
  have hl : dot_S2000x64_S64x64_S2000x64_1_0_0_1_n_n.lhsIdx (ix2 p q) ((contrEquiv1 dot_S2000x64_S64x64_S2000x64_1_0_0_1_n_n kdim29 rfl rfl).symm k) = ix2 p k := by
    funext d; apply Fin.ext
    match d with
    | ⟨0, _⟩ => exact lhsAx29_0 _ _
    | ⟨1, _⟩ => exact (lhsAx29_1 _ _).trans (contrEquiv1_symm_val _ kdim29 rfl rfl k)
  have hr : dot_S2000x64_S64x64_S2000x64_1_0_0_1_n_n.rhsIdx (ix2 p q) ((contrEquiv1 dot_S2000x64_S64x64_S2000x64_1_0_0_1_n_n kdim29 rfl rfl).symm k) = ix2 k q := by
    funext d; apply Fin.ext
    match d with
    | ⟨0, _⟩ => exact (rhsAx29_0 _ _).trans (contrEquiv1_symm_val _ kdim29 rfl rfl k)
    | ⟨1, _⟩ => exact rhsAx29_1 _ _
  rw [hl, hr]

/-- Entry (r, q) of the product at the ideal values: the sum over k of x (r, k) · w (k, q). -/
theorem G29_apply (x : S50000x64.Idx → Elt Ideal .f32) (w : S64x64.Idx → Elt Ideal .f32) (r : Fin 50000) (q : Fin ncol29) :
    G29 (F := Ideal) x w (ix2 r q) = ∑ k : Fin kdim29, x (ix2 r k) * w (ix2 k q) := by
  unfold G29
  rw [k29_pay1_apply]
  refine Finset.sum_congr rfl fun k _ => ?_
  unfold rowsOf29
  have hrow : (ix2 (⟨r.val / 2000 * 2000 + r.val % 2000, by have := r.isLt; omega⟩ : Fin 50000) k : S50000x64.Idx) = ix2 r k := by
    funext d; apply Fin.ext
    match d with
    | ⟨0, _⟩ => show r.val / 2000 * 2000 + r.val % 2000 = r.val; omega
    | ⟨1, _⟩ => rfl
  exact congrArg (fun z => x z * w (ix2 k q)) hrow

end Value29

/-! ## From the blocks written back to the array -/

section Final29
variable (V : (c : Dev nD) → (b : Ref sig .tc) → Buf (Elt F) ((c : Thread nD τ).loc b))

theorem hz29 : (![0, 0] : Fin 2 → Nat) = fun _ => 0 := funext fun a => by fin_cases a <;> rfl

/-- The index maps over the grid: the rows of X and of the product move with the point, one block a point;
    W stays; no window moves along its columns. -/
theorem idx_facts29 : ∀ t : Fin cfg29.N,
    win29_0.index t (0 : Fin 2) = t.val ∧ win29_0.index t (1 : Fin 2) = 0
    ∧ win29_1.index t (0 : Fin 2) = 0 ∧ win29_1.index t (1 : Fin 2) = 0
    ∧ win29_2.index t (0 : Fin 2) = t.val ∧ win29_2.index t (1 : Fin 2) = 0 :=
  (by decide +kernel : ∀ t : Fin grid29.N, _)

/-- What point t writes back is block t of the product of the arrays as the region finds them. -/
theorem flushed29_2_eq (c : Dev nD) (t : Fin cfg29.N) :
    (dat29 V c).flushed 2 t = ((cfg29.win 2).blk t).view.read (Elt F) (G29 (V c (Pipeline.arrRef spec29 0)) (V c (Pipeline.arrRef spec29 1))) := by
  show (cfg29.win 2).cut (grid29.coords t) ((dat29 V c).after 2 t) = _
  rw [after29_2]
  unfold out29_2
  rw [View.canon_unit_zero hz29]
  simp only [View.ld_unit_zero (S := S2000x64) hz29, View.ld_unit_zero (S := S64x64) hz29]
  obtain ⟨e0, e1, e2, e3, e4, e5⟩ := idx_facts29 t
  funext j
  show k29_pay1 (iblk29 V c 0 t) (iblk29 V c 1 t) j = G29 (V c (Pipeline.arrRef spec29 0)) (V c (Pipeline.arrRef spec29 1)) (((cfg29.win 2).blk t).view.emb j)
  refine (G29_of_block _ _ t.val _ j ?_ ?_ _ _ ?_ ?_).symm
  · show win29_2.index t (0 : Fin 2) * 2000 + 1 * (j 0).val = t.val * 2000 + (j 0).val
    rw [e4]; omega
  · show win29_2.index t (1 : Fin 2) * S2000x64.size 1 + 1 * (j 1).val = (j 1).val
    rw [e5]; omega
  · funext y
    show V c (Pipeline.arrRef spec29 1) (((cfg29.win 1).blk t).view.emb y) = V c (Pipeline.arrRef spec29 1) y
    congr 1
    funext d; apply Fin.ext
    match d with
    | ⟨0, _⟩ => show win29_1.index t (0 : Fin 2) * S64x64.size 0 + 1 * (y 0).val = (y 0).val; rw [e2]; omega
    | ⟨1, _⟩ => show win29_1.index t (1 : Fin 2) * S64x64.size 1 + 1 * (y 1).val = (y 1).val; rw [e3]; omega
  · intro y hy
    show V c (Pipeline.arrRef spec29 0) (((cfg29.win 0).blk t).view.emb y) = V c (Pipeline.arrRef spec29 0) (ix2 ⟨t.val * 2000 + (y 0).val, hy⟩ (y 1))
    congr 1
    funext d; apply Fin.ext
    match d with
    | ⟨0, _⟩ => show win29_0.index t (0 : Fin 2) * 2000 + 1 * (y 0).val = t.val * 2000 + (y 0).val; rw [e0]; omega
    | ⟨1, _⟩ => show win29_0.index t (1 : Fin 2) * S2000x64.size 1 + 1 * (y 1).val = (y 1).val; rw [e1]; omega

/-- An index of the array is in point t's block iff each coordinate is in the block's range on its axis. -/
theorem mem_blk29_2 (t : Fin cfg29.N) (i : S50000x64.Idx) :
    i ∈ ((cfg29.win 2).blk t).view.set ↔ ∀ a : Fin 2, win29_2.index t a * S2000x64.size a ≤ (i a).val ∧ (i a).val < win29_2.index t a * S2000x64.size a + S2000x64.size a := by
  show i ∈ ((View.whole (Pipeline.arrRef spec29 2)).slice (win29_2.rect t)).set ↔ _
  rw [View.set_slice_whole, Rect.mem_set_unit]
  exact Iff.rfl

/-- Every index of the array is in some point's block: row r in the block of point r / 2000. -/
theorem covered29_2 (i : S50000x64.Idx) :
    ∃ t : Fin cfg29.N, (cfg29.win 2).flush t = true ∧ i ∈ ((cfg29.win 2).blk t).view.set := by
  have hi0 : (i 0).val < 50000 := (i 0).isLt
  refine ⟨⟨(i 0).val / 2000, by rw [show cfg29.N = 25 from N_29]; omega⟩, flush29_2 _, ?_⟩
  obtain ⟨e0, e1, e2, e3, e4, e5⟩ := idx_facts29 ⟨(i 0).val / 2000, by rw [show cfg29.N = 25 from N_29]; omega⟩
  rw [mem_blk29_2]
  intro a
  match a with
  | ⟨0, _⟩ =>
    show win29_2.index _ (0 : Fin 2) * 2000 ≤ (i 0).val ∧ (i 0).val < win29_2.index _ (0 : Fin 2) * 2000 + 2000
    rw [e4]; show (i 0).val / 2000 * 2000 ≤ (i 0).val ∧ (i 0).val < (i 0).val / 2000 * 2000 + 2000; omega
  | ⟨1, _⟩ =>
    show win29_2.index _ (1 : Fin 2) * S2000x64.size 1 ≤ (i 1).val ∧ (i 1).val < win29_2.index _ (1 : Fin 2) * S2000x64.size 1 + S2000x64.size 1
    rw [e5, Nat.zero_mul, Nat.zero_add]; exact ⟨Nat.zero_le _, (i 1).isLt⟩

/-- The output array after the last point is the product of the two input arrays as the region finds them. -/
theorem final29_2 (c : Dev nD) :
    (dat29 V c).arrAt 2 cfg29.N = G29 (V c (Pipeline.arrRef spec29 0)) (V c (Pipeline.arrRef spec29 1)) :=
  (dat29 V c).arrAt_eq_of_cover 2 (G29 (V c (Pipeline.arrRef spec29 0)) (V c (Pipeline.arrRef spec29 1)))
    (fun t _ => flushed29_2_eq V c t) covered29_2

end Final29

end Cert.KernelIdeal.Hand

end
-- ==== Proof.KI.R2v.lean ====
import proofs.«408084_j48395691492010_3_alg».proof.Proof.KI.R2
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! Region 2, the values. The full-size result holds, row by row, the aggregate plus the bias row. The one-row
result ends holding, column by column, the sum over the 25 row tiles — folded tile by tile from the zero row — of
each tile's column sum of those rows. First each control case's found pieces read back as the payloads; then the
accumulator after each point as the fold, by induction on the point; then the two result arrays after the last
point; last the readings at the ideal values, entry by entry. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The number of columns. -/
abbrev ncol2 : Nat := 64

theorem hz2 : (![0, 0] : Fin 2 → Nat) = fun _ => 0 := funext fun a => by fin_cases a <;> rfl

/-! ## The found pieces, read back -/

/-- Every point leaves in the full-size result's buffer the block plus the bias row. -/
theorem out2_A_2_eq (c : Dev nD) (i : grid2.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc0 : cond2_0 i) (hc1 : ¬cond2_1 i)
    (x0 : Vec F S2000x64 .f32) (x1 : Vec F S1x64 .f32) :
    out2_A_2 c i a1 h1 a2 h2 a3 h3 a4 h4 a5 h5 hc0 hc1 x0 x1 = k2_pay2 x0 x1 := by
  unfold out2_A_2
  rw [View.read_writes_eq_canon _ _ _ (cover2_A_2 c i a1 h1 a2 h2 a3 h3 a4 h4 a5 h5 hc0 hc1 x0 x1)]
  unfold kernelRun2_A
  dsimp only
  sl_unfold_words
  rw [View.canon_unit_zero hz2]
  simp only [View.readAt_eq_ld, h1.read_unread, h2.read_unread, h4.read_unread, h5.read_unread, View.ld_unit_zero (S := S2000x64) hz2, View.ld_unit_zero (S := S1x64) hz2]

theorem out2_B_2_eq (c : Dev nD) (i : grid2.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc0 : ¬cond2_0 i) (hc1 : ¬cond2_1 i)
    (x0 : Vec F S2000x64 .f32) (x1 : Vec F S1x64 .f32) (xs0 : Vec F S1x64 .f32) :
    out2_B_2 c i a1 h1 a2 h2 a3 h3 a4 h4 a5 h5 hc0 hc1 x0 x1 xs0 = k2_pay2 x0 x1 := by
  unfold out2_B_2
  rw [View.read_writes_eq_canon _ _ _ (cover2_B_2 c i a1 h1 a2 h2 a3 h3 a4 h4 a5 h5 hc0 hc1 x0 x1 xs0)]
  unfold kernelRun2_B
  dsimp only
  sl_unfold_words
  rw [View.canon_unit_zero hz2]
  simp only [View.readAt_eq_ld, h1.read_unread, h2.read_unread, h4.read_unread, h5.read_unread, View.ld_unit_zero (S := S2000x64) hz2, View.ld_unit_zero (S := S1x64) hz2]

theorem out2_C_2_eq (c : Dev nD) (i : grid2.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc0 : ¬cond2_0 i) (hc1 : cond2_1 i)
    (x0 : Vec F S2000x64 .f32) (x1 : Vec F S1x64 .f32) (xs0 : Vec F S1x64 .f32) :
    out2_C_2 c i a1 h1 a2 h2 a3 h3 a4 h4 a5 h5 hc0 hc1 x0 x1 xs0 = k2_pay2 x0 x1 := by
  unfold out2_C_2
  rw [View.read_writes_eq_canon _ _ _ (cover2_C_2 c i a1 h1 a2 h2 a3 h3 a4 h4 a5 h5 hc0 hc1 x0 x1 xs0)]
  unfold kernelRun2_C
  dsimp only
  sl_unfold_words
  rw [View.canon_unit_zero hz2]
  simp only [View.readAt_eq_ld, h1.read_unread, h2.read_unread, h4.read_unread, h5.read_unread, View.ld_unit_zero (S := S2000x64) hz2, View.ld_unit_zero (S := S1x64) hz2]

/-- The first point zeroes the accumulator, reads the zero row back and leaves the tile step applied to it. -/
theorem sout2_A_0_eq (c : Dev nD) (i : grid2.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc0 : cond2_0 i) (hc1 : ¬cond2_1 i)
    (x0 : Vec F S2000x64 .f32) (x1 : Vec F S1x64 .f32) :
    sout2_A_0 c i a1 h1 a2 h2 a3 h3 a4 h4 a5 h5 hc0 hc1 x0 x1 = k2_pay3 x0 x1 (k2_pay1 (F := F)) := by
  unfold sout2_A_0
  rw [View.read_writes_eq_canon _ _ _ (scover2_A_0 c i a1 h1 a2 h2 a3 h3 a4 h4 a5 h5 hc0 hc1 x0 x1)]
  unfold kernelRun2_A
  dsimp only
  sl_unfold_words
  rw [View.canon_cons_unit_zero (S := S1x64) hz2, View.readCov_unit_zero (S := S1x64) _ hz2]
  simp only [View.readAt_eq_ld, h1.read_unread, h2.read_unread, h4.read_unread, h5.read_unread, View.ld_unit_zero (S := S2000x64) hz2, View.ld_unit_zero (S := S1x64) hz2]

/-- A middle point leaves in the accumulator the tile step applied to what it held. -/
theorem sout2_B_0_eq (c : Dev nD) (i : grid2.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc0 : ¬cond2_0 i) (hc1 : ¬cond2_1 i)
    (x0 : Vec F S2000x64 .f32) (x1 : Vec F S1x64 .f32) (xs0 : Vec F S1x64 .f32) :
    sout2_B_0 c i a1 h1 a2 h2 a3 h3 a4 h4 a5 h5 hc0 hc1 x0 x1 xs0 = k2_pay3 x0 x1 xs0 := by
  unfold sout2_B_0
  rw [View.read_writes_eq_canon _ _ _ (scover2_B_0 c i a1 h1 a2 h2 a3 h3 a4 h4 a5 h5 hc0 hc1 x0 x1 xs0)]
  unfold kernelRun2_B
  dsimp only
  sl_unfold_words
  rw [View.canon_unit_zero hz2]
  simp only [View.readAt_eq_ld, h1.read_unread, h2.read_unread, h4.read_unread, h5.read_unread, View.ld_unit_zero (S := S2000x64) hz2, View.ld_unit_zero (S := S1x64) hz2]

/-- The last point leaves the same in the accumulator, -/
theorem sout2_C_0_eq (c : Dev nD) (i : grid2.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc0 : ¬cond2_0 i) (hc1 : cond2_1 i)
    (x0 : Vec F S2000x64 .f32) (x1 : Vec F S1x64 .f32) (xs0 : Vec F S1x64 .f32) :
    sout2_C_0 c i a1 h1 a2 h2 a3 h3 a4 h4 a5 h5 hc0 hc1 x0 x1 xs0 = k2_pay3 x0 x1 xs0 := by
  unfold sout2_C_0
  rw [View.read_writes_eq_canon _ _ _ (scover2_C_0 c i a1 h1 a2 h2 a3 h3 a4 h4 a5 h5 hc0 hc1 x0 x1 xs0)]
  unfold kernelRun2_C
  dsimp only
  sl_unfold_words
  rw [View.canon_unit_zero hz2]
  simp only [View.readAt_eq_ld, h1.read_unread, h2.read_unread, h4.read_unread, h5.read_unread, View.ld_unit_zero (S := S2000x64) hz2, View.ld_unit_zero (S := S1x64) hz2]

/-- and stores to the one-row result's buffer what it then reads back from the accumulator: the same row. -/
theorem out2_C_3_eq (c : Dev nD) (i : grid2.Coords) (a1 : Memref sig .tc .vmem S2000x64 .f32) (h1 : a1.IsWhole) (a2 : Memref sig .tc .vmem S1x64 .f32) (h2 : a2.IsWhole) (a3 : Memref sig .tc .vmem S2000x64 .f32) (h3 : a3.IsWhole) (a4 : Memref sig .tc .vmem S1x64 .f32) (h4 : a4.IsWhole) (a5 : Memref sig .tc .vmem S1x64 .f32) (h5 : a5.IsWhole) (hc0 : ¬cond2_0 i) (hc1 : cond2_1 i)
    (x0 : Vec F S2000x64 .f32) (x1 : Vec F S1x64 .f32) (xs0 : Vec F S1x64 .f32) :
    out2_C_3 c i a1 h1 a2 h2 a3 h3 a4 h4 a5 h5 hc0 hc1 x0 x1 xs0 = k2_pay3 x0 x1 xs0 := by
  unfold out2_C_3
  rw [View.read_writes_eq_canon _ _ _ (cover2_C_3 c i a1 h1 a2 h2 a3 h3 a4 h4 a5 h5 hc0 hc1 x0 x1 xs0)]
  unfold kernelRun2_C
  dsimp only
  sl_unfold_words
  rw [View.canon_unit_zero hz2, View.readCov_unit_zero (S := S1x64) _ hz2]
  simp only [View.readAt_eq_ld, h1.read_unread, h2.read_unread, h4.read_unread, h5.read_unread, View.ld_unit_zero (S := S2000x64) hz2, View.ld_unit_zero (S := S1x64) hz2]

/-! ## The arrays and their blocks, at their literal types -/

/-- The array of the aggregated rows, as the region finds it, -/
noncomputable abbrev xarr2 (c : Dev nD) : Vec F S50000x64 .f32 := V c (Pipeline.arrRef spec2 0)
/-- and the bias row. -/
noncomputable abbrev barr2 (c : Dev nD) : Vec F S1x64 .f32 := V c (Pipeline.arrRef spec2 1)

/-- Row tile n of an array of 50000 rows: rows 2000 n … 2000 n + 1999. -/
noncomputable def tile2 (X : Vec F S50000x64 .f32) (n : Fin 25) : Vec F S2000x64 .f32 :=
  fun j => X (ix2 ⟨2000 * n.val + (j 0).val, by have := idx2_lt0 j; have := n.isLt; omega⟩ ⟨(j 1).val, idx2_lt1 j⟩)

theorem tile2_apply (X : Vec F S50000x64 .f32) (n : Fin 25) (r : Fin 2000) (q : Fin ncol2) :
    tile2 X n (ix2 r q) = X (ix2 ⟨2000 * n.val + r.val, by have := n.isLt; have := r.isLt; omega⟩ q) := rfl

/-- The row-tile windows' block index is the grid point; the one-row windows never move. -/
theorem index2_0 : ∀ t : Fin cfg2.N, win2_0.index t 0 = t.val ∧ win2_0.index t 1 = 0 :=
  (by decide +kernel : ∀ t : Fin grid2.N, win2_0.index t 0 = t.val ∧ win2_0.index t 1 = 0)
theorem index2_1 : ∀ t : Fin cfg2.N, win2_1.index t 0 = 0 ∧ win2_1.index t 1 = 0 :=
  (by decide +kernel : ∀ t : Fin grid2.N, win2_1.index t 0 = 0 ∧ win2_1.index t 1 = 0)
theorem index2_2 : ∀ t : Fin cfg2.N, win2_2.index t 0 = t.val ∧ win2_2.index t 1 = 0 :=
  (by decide +kernel : ∀ t : Fin grid2.N, win2_2.index t 0 = t.val ∧ win2_2.index t 1 = 0)
theorem index2_3 : ∀ t : Fin cfg2.N, win2_3.index t 0 = 0 ∧ win2_3.index t 1 = 0 :=
  (by decide +kernel : ∀ t : Fin grid2.N, win2_3.index t 0 = 0 ∧ win2_3.index t 1 = 0)
theorem xsize2_3 : ∀ t : Fin cfg2.N, win2_3.xsize (grid2.coords t) 0 = 1 ∧ win2_3.xsize (grid2.coords t) 1 = ncol2 :=
  (by decide +kernel : ∀ t : Fin grid2.N, win2_3.xsize (grid2.coords t) 0 = 1 ∧ win2_3.xsize (grid2.coords t) 1 = ncol2)

/-- The row-tile window's block at point t is row tile t of the array. -/
theorem xblk2_eq (c : Dev nD) (t : Fin cfg2.N) (hN : t.val < 25) :
    (iblk2 V c 0 t : Vec F S2000x64 .f32) = tile2 (xarr2 V c) ⟨t.val, hN⟩ := by
  have hi := index2_0 t
  funext j
  unfold iblk2 tile2
  rw [View.read_apply]
  show V c (Pipeline.arrRef spec2 0) _ = V c (Pipeline.arrRef spec2 0) _
  congr 1
  funext a
  apply Fin.ext
  match a with
  | ⟨0, _⟩ => show win2_0.index t 0 * 2000 + 1 * (j 0).val = 2000 * t.val + (j 0).val; rw [hi.1]; omega
  | ⟨1, _⟩ => show win2_0.index t 1 * ncol2 + 1 * (j 1).val = (j 1).val; rw [hi.2]; omega

/-- The bias window's block is the whole one-row array, at every point. -/
theorem bblk2_eq (c : Dev nD) (t : Fin cfg2.N) : (iblk2 V c 1 t : Vec F S1x64 .f32) = barr2 V c := by
  have hi := index2_1 t
  funext j
  unfold iblk2
  rw [View.read_apply]
  show V c (Pipeline.arrRef spec2 1) _ = V c (Pipeline.arrRef spec2 1) j
  congr 1
  funext a
  apply Fin.ext
  match a with
  | ⟨0, _⟩ => show win2_1.index t 0 * 1 + 1 * (j 0).val = (j 0).val; rw [hi.1]; omega
  | ⟨1, _⟩ => show win2_1.index t 1 * ncol2 + 1 * (j 1).val = (j 1).val; rw [hi.2]; omega

/-! ## The two results as functions of the two arrays -/

/-- THE FULL-SIZE RESULT: entry i is the payload at the row tile holding row i 0 and at the bias row, read at the
    row's place in its tile and column i 1. -/
noncomputable def G2_2 (X : Vec F S50000x64 .f32) (B : Vec F S1x64 .f32) : Vec F S50000x64 .f32 :=
  fun i => k2_pay2 (tile2 X ⟨(i 0).val / 2000, by have := idx2_lt0 i; omega⟩) B (ix2 ⟨(i 0).val % 2000, Nat.mod_lt _ (by decide)⟩ (i 1))

/-- The accumulator after row tile n: the tile step from the zero row at tile 0, then from what the tile before left. -/
noncomputable def acc2 (X : Vec F S50000x64 .f32) (B : Vec F S1x64 .f32) : (n : ℕ) → n < 25 → Vec F S1x64 .f32
  | 0, h => k2_pay3 (tile2 X ⟨0, h⟩) B (k2_pay1 (F := F))
  | n + 1, h => k2_pay3 (tile2 X ⟨n + 1, h⟩) B (acc2 X B n (Nat.lt_of_succ_lt h))

/-- THE ONE-ROW RESULT: the fold after the last tile. -/
noncomputable def G2_3 (X : Vec F S50000x64 .f32) (B : Vec F S1x64 .f32) : Vec F S1x64 .f32 := acc2 X B 24 (by decide)

/-! ## What the buffers hold after each point -/

/-- The full-size result's buffer after point n: tile n plus the bias row. -/
theorem outsAt2_pre (c : Dev nD) : ∀ (n : ℕ) (h : n < cfg2.N) (h' : n < 25),
    (outsAt2 V c n h).1 = k2_pay2 (tile2 (xarr2 V c) ⟨n, h'⟩) (barr2 V c)
  | 0, h, h' => by
    rw [outsAt2_A V c ⟨0, h⟩ (Nat.zero_mod 25) (fun e => by have e' : (0 : ℕ) % 25 = 24 := e; omega)]
    dsimp only
    rw [out2_A_2_eq, xblk2_eq V c ⟨0, h⟩ h', bblk2_eq V c ⟨0, h⟩]
  | n + 1, h, h' => by
    have hm : (n + 1) % 25 = n + 1 := Nat.mod_eq_of_lt h'
    by_cases h24 : n + 1 = 24
    · rw [outsAt2_C V c ⟨n + 1, h⟩ (fun e => by have e' : (n + 1) % 25 = 0 := e; omega) (by show (n + 1) % 25 = 24; omega)]
      dsimp only
      rw [out2_C_2_eq, xblk2_eq V c ⟨n + 1, h⟩ h', bblk2_eq V c ⟨n + 1, h⟩]
    · rw [outsAt2_B V c ⟨n + 1, h⟩ (fun e => by have e' : (n + 1) % 25 = 0 := e; omega) (fun e => by have e' : (n + 1) % 25 = 24 := e; omega)]
      dsimp only
      rw [out2_B_2_eq, xblk2_eq V c ⟨n + 1, h⟩ h', bblk2_eq V c ⟨n + 1, h⟩]

/-- What the accumulator holds after point n is the fold up to tile n: by induction on the point. -/
theorem outsAt2_acc (c : Dev nD) : ∀ (n : ℕ) (h : n < cfg2.N) (h' : n < 25),
    (outsAt2 V c n h).2.2 = acc2 (xarr2 V c) (barr2 V c) n h'
  | 0, h, h' => by
    rw [outsAt2_A V c ⟨0, h⟩ (Nat.zero_mod 25) (fun e => by have e' : (0 : ℕ) % 25 = 24 := e; omega)]
    dsimp only
    rw [sout2_A_0_eq, xblk2_eq V c ⟨0, h⟩ h', bblk2_eq V c ⟨0, h⟩]
    rfl
  | n + 1, h, h' => by
    have ih := outsAt2_acc c n (Nat.lt_of_succ_lt h) (Nat.lt_of_succ_lt h')
    have hm : (n + 1) % 25 = n + 1 := Nat.mod_eq_of_lt h'
    by_cases h24 : n + 1 = 24
    · rw [outsAt2_C V c ⟨n + 1, h⟩ (fun e => by have e' : (n + 1) % 25 = 0 := e; omega) (by show (n + 1) % 25 = 24; omega)]
      dsimp only
      rw [sout2_C_0_eq, xblk2_eq V c ⟨n + 1, h⟩ h', bblk2_eq V c ⟨n + 1, h⟩]
      show k2_pay3 _ _ (outsAt2 V c n _).2.2 = k2_pay3 _ _ (acc2 _ _ n _)
      rw [ih]
    · rw [outsAt2_B V c ⟨n + 1, h⟩ (fun e => by have e' : (n + 1) % 25 = 0 := e; omega) (fun e => by have e' : (n + 1) % 25 = 24 := e; omega)]
      dsimp only
      rw [sout2_B_0_eq, xblk2_eq V c ⟨n + 1, h⟩ h', bblk2_eq V c ⟨n + 1, h⟩]
      show k2_pay3 _ _ (outsAt2 V c n _).2.2 = k2_pay3 _ _ (acc2 _ _ n _)
      rw [ih]

/-- At the last point the one-row result's buffer is left holding the whole fold. -/
theorem outsAt2_last (c : Dev nD) (t : Fin cfg2.N) (h24 : t.val = 24) :
    (outsAt2 V c t.val t.isLt).2.1 = G2_3 (xarr2 V c) (barr2 V c) := by
  obtain ⟨n, hn⟩ := t
  obtain rfl : n = 24 := h24
  rw [outsAt2_C V c ⟨24, hn⟩ (fun e => by have e' : (24 : ℕ) % 25 = 0 := e; omega) (by show (24 : ℕ) % 25 = 24; omega)]
  dsimp only
  rw [out2_C_3_eq, xblk2_eq V c ⟨24, hn⟩ (by show (24 : ℕ) < 25; omega), bblk2_eq V c ⟨24, hn⟩]
  show k2_pay3 _ _ (outsAt2 V c 23 _).2.2 = k2_pay3 _ _ (acc2 _ _ 23 _)
  rw [outsAt2_acc V c 23 _ (by decide)]

/-! ## The full-size result array after the run -/

/-- What point t writes back of the full-size result is block t of G2_2 of the arrays. -/
theorem flushed2_2 (c : Dev nD) (t : Fin cfg2.N) :
    (dat2 V c).flushed 2 t = ((cfg2.win 2).blk t).view.read (Elt F) (G2_2 (xarr2 V c) (barr2 V c)) := by
  have hN : t.val < 25 := lt_of_lt_of_eq t.isLt (show cfg2.N = 25 from N_2)
  have hi := index2_2 t
  show (cfg2.win 2).cut (grid2.coords t) ((dat2 V c).after 2 t) = _
  rw [after2_2, outsAt2_pre V c t.val t.isLt hN]
  funext j
  have hj0 : (j 0).val < 2000 := (j 0).isLt
  show k2_pay2 (tile2 (xarr2 V c) ⟨t.val, hN⟩) (barr2 V c) j = G2_2 (xarr2 V c) (barr2 V c) (((cfg2.win 2).blk t).view.emb j)
  have hrow : ((((cfg2.win 2).blk t).view.emb j : S50000x64.Idx) 0).val = t.val * 2000 + (j 0).val := by
    show win2_2.index t 0 * 2000 + 1 * (j 0).val = t.val * 2000 + (j 0).val
    rw [hi.1]; omega
  have hcol : ((((cfg2.win 2).blk t).view.emb j : S50000x64.Idx) 1).val = (j 1).val := by
    show win2_2.index t 1 * ncol2 + 1 * (j 1).val = (j 1).val
    rw [hi.2]; omega
  unfold G2_2
  have htile : (⟨((((cfg2.win 2).blk t).view.emb j : S50000x64.Idx) 0).val / 2000, by have := idx2_lt0 (((cfg2.win 2).blk t).view.emb j : S50000x64.Idx); omega⟩ : Fin 25) = ⟨t.val, hN⟩ :=
    Fin.ext (by show ((((cfg2.win 2).blk t).view.emb j : S50000x64.Idx) 0).val / 2000 = t.val; rw [hrow]; omega)
  have hplace : (ix2 ⟨((((cfg2.win 2).blk t).view.emb j : S50000x64.Idx) 0).val % 2000, Nat.mod_lt _ (by decide)⟩ ((((cfg2.win 2).blk t).view.emb j : S50000x64.Idx) 1) : S2000x64.Idx) = j := by
    funext d; apply Fin.ext
    match d with
    | ⟨0, _⟩ => show ((((cfg2.win 2).blk t).view.emb j : S50000x64.Idx) 0).val % 2000 = (j 0).val; rw [hrow]; omega
    | ⟨1, _⟩ => exact hcol
  rw [htile, hplace]

/-- An index of the array is in point t's block iff each coordinate is in the block's range on its axis. -/
theorem mem_blk2_2 (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole (Pipeline.arrRef spec2 2)).slice (win2_2.rect t)).set ↔ _
  rw [View.set_slice_whole, Rect.mem_set_unit]
  exact Iff.rfl

/-- Every index of the full-size array is in some point's block: row r in the block of point r / 2000. -/
theorem covered2_2 (i : S50000x64.Idx) :
    ∃ t : Fin cfg2.N, (cfg2.win 2).flush t = true ∧ i ∈ ((cfg2.win 2).blk t).view.set := by
  have hi0 : (i 0).val < 50000 := (i 0).isLt
  refine ⟨⟨(i 0).val / 2000, by rw [show cfg2.N = 25 from N_2]; omega⟩, flush2_2 _, ?_⟩
  have hi := index2_2 ⟨(i 0).val / 2000, by rw [show cfg2.N = 25 from N_2]; omega⟩
  rw [mem_blk2_2]
  intro a
  match a with
  | ⟨0, _⟩ =>
    show win2_2.index _ 0 * 2000 ≤ (i 0).val ∧ (i 0).val < win2_2.index _ 0 * 2000 + 2000
    rw [hi.1]; show (i 0).val / 2000 * 2000 ≤ (i 0).val ∧ (i 0).val < (i 0).val / 2000 * 2000 + 2000; omega
  | ⟨1, _⟩ =>
    show win2_2.index _ 1 * S2000x64.size 1 ≤ (i 1).val ∧ (i 1).val < win2_2.index _ 1 * S2000x64.size 1 + S2000x64.size 1
    rw [hi.2, Nat.zero_mul, Nat.zero_add]; exact ⟨Nat.zero_le _, (i 1).isLt⟩

/-- So the full-size result array ends holding G2_2 of the two arrays. -/
theorem final2_2 (c : Dev nD) :
    (dat2 V c).arrAt 2 cfg2.N = G2_2 (V c (Pipeline.arrRef spec2 0)) (V c (Pipeline.arrRef spec2 1)) :=
  (dat2 V c).arrAt_eq_of_cover 2 (G2_2 (xarr2 V c) (barr2 V c)) (fun t _ => flushed2_2 V c t) covered2_2

/-! ## The one-row result array after the run -/

/-- The one write-back (at the last point) writes the fold: the result's block there is the whole one-row array. -/
theorem flushed2_3 (c : Dev nD) (t : Fin cfg2.N) (hf : (cfg2.win 3).flush t = true) :
    (dat2 V c).flushed 3 t = ((cfg2.win 3).blk t).view.read (Elt F) (G2_3 (xarr2 V c) (barr2 V c)) := by
  have hN : t.val < 25 := lt_of_lt_of_eq t.isLt (show cfg2.N = 25 from N_2)
  have h24 : t.val = 24 := by have := (flush2_3 t).mp hf; omega
  have hi := index2_3 t
  show (cfg2.win 3).cut (grid2.coords t) ((dat2 V c).after 3 t) = _
  rw [after2_3, outsAt2_last V c t h24]
  have hz' : (fun a => win2_3.index t a * main_v118_1.ty.shape.size a) = fun _ => 0 := funext fun a => by
    match a with
    | ⟨0, _⟩ => show win2_3.index t 0 * _ = 0; rw [hi.1, Nat.zero_mul]
    | ⟨1, _⟩ => show win2_3.index t 1 * _ = 0; rw [hi.2, Nat.zero_mul]
  exact (Memref.read_access_unit_zero (Elt F) main_v118_1 hz' (fun a => by rw [congrFun hz' a]; simp) (G2_3 (xarr2 V c) (barr2 V c))).symm

/-- So the one-row result array ends holding the fold. -/
theorem final2_3 (c : Dev nD) : (dat2 V c).arrAt 3 cfg2.N = G2_3 (V c (Pipeline.arrRef spec2 0)) (V c (Pipeline.arrRef spec2 1)) := by
  have h24 : (24 : ℕ) < cfg2.N := by rw [show cfg2.N = 25 from N_2]; omega
  refine (dat2 V c).arrAt_eq_of_cover 3 (G2_3 (xarr2 V c) (barr2 V c)) (flushed2_3 V c) fun i =>
    ⟨⟨24, h24⟩, (flush2_3 _).mpr rfl, ?_⟩
  have hi := index2_3 ⟨24, h24⟩
  have hx := xsize2_3 ⟨24, h24⟩
  show i ∈ ((View.whole main_v118_1).slice (win2_3.rect ⟨24, h24⟩)).set
  rw [View.set_slice_whole, Rect.mem_set_unit]
  intro a
  have h0 : (i 0 : Nat) < 1 := (i 0).isLt
  have h1 : (i 1 : Nat) < ncol2 := (i 1).isLt
  match a with
  | ⟨0, _⟩ =>
    show win2_3.index ⟨24, h24⟩ 0 * win2_3.size 0 ≤ (i 0 : Nat) ∧ (i 0 : Nat) < win2_3.index ⟨24, h24⟩ 0 * win2_3.size 0 + win2_3.xsize (grid2.coords ⟨24, h24⟩) 0
    rw [hi.1, hx.1]; omega
  | ⟨1, _⟩ =>
    show win2_3.index ⟨24, h24⟩ 1 * win2_3.size 1 ≤ (i 1 : Nat) ∧ (i 1 : Nat) < win2_3.index ⟨24, h24⟩ 1 * win2_3.size 1 + win2_3.xsize (grid2.coords ⟨24, h24⟩) 1
    rw [hi.2, hx.2]; omega

/-! ## At the ideal values, at an index -/

section IdealReading
open scoped BigOperators

/-- The zero row, at a column. -/
theorem pay1_apply2 (q : Fin ncol2) : (k2_pay1 (F := Ideal)) (ix2 (0 : Fin 1) q) = 0 := by
  unfold k2_pay1
  simp only [shapeCast_self]
  exact Ideal.ofBits_zero_f32

/-- The block plus the bias row, at an entry. -/
theorem pay2_apply2 (x : FVec Ideal S2000x64 .f32) (b : FVec Ideal S1x64 .f32) (r : Fin 2000) (q : Fin ncol2) :
    k2_pay2 (F := Ideal) x b (ix2 r q) = x (ix2 r q) + b (ix2 (0 : Fin 1) q) := by
  unfold k2_pay2
  simp only [shapeCast_self]
  refine (addf_apply _ _ _).trans ?_
  have hb : ∀ (h : S1x64.Broadcasts S2000x64), broadcastTo S2000x64 b h (ix2 r q) = b (ix2 (0 : Fin 1) q) :=
    fun h => broadcastTo_1b_ab_apply (a := 2000) (b := ncol2) b h r q
  rw [hb]

/-- The tile step, at a column: the accumulator's entry plus the tile's column sum of the rows plus the bias. -/
theorem pay3_apply2 (x : FVec Ideal S2000x64 .f32) (b acc : FVec Ideal S1x64 .f32) (q : Fin ncol2) :
    k2_pay3 (F := Ideal) x b acc (ix2 (0 : Fin 1) q)
      = acc (ix2 (0 : Fin 1) q) + ∑ r : Fin 2000, (x (ix2 r q) + b (ix2 (0 : Fin 1) q)) := by
  unfold k2_pay3
  simp only [shapeCast_self]
  refine (addf_apply _ _ _).trans ?_
  refine congrArg (acc (ix2 (0 : Fin 1) q) + ·) ?_
  refine (shapeCast_a_1a_apply _ _ (0 : Fin 1) q).trans ?_
  refine (Ideal.multiReduction_add_single _ _ _ _ _ (ix1 q)).trans ?_
  refine Finset.sum_congr rfl fun (r : Fin 2000) _ => ?_
  have hl : ∀ (h : S2000x64.Reduces [0] S64), h.lift (ix1 q) r = ix2 r q :=
    fun h => funext fun a => Fin.ext (by fin_cases a <;> rfl)
  rw [hl, pay2_apply2]

/-- THE FULL-SIZE RESULT at the ideal values: the aggregate's entry plus the bias of its column. -/
theorem G2_2_apply (X : FVec Ideal S50000x64 .f32) (B : FVec Ideal S1x64 .f32) (r : Fin 50000) (q : Fin ncol2) :
    G2_2 (F := Ideal) X B (ix2 r q) = X (ix2 r q) + B (ix2 (0 : Fin 1) q) := by
  unfold G2_2
  rw [pay2_apply2, tile2_apply]
  have hrow : (ix2 (⟨2000 * (r.val / 2000) + r.val % 2000, by have := r.isLt; omega⟩ : Fin 50000) q : S50000x64.Idx) = ix2 r q := by
    funext d; apply Fin.ext
    match d with
    | ⟨0, _⟩ => show 2000 * (r.val / 2000) + r.val % 2000 = r.val; omega
    | ⟨1, _⟩ => rfl
  exact congrArg (fun z => X z + B (ix2 (0 : Fin 1) q)) hrow

/-- Row r of tile s. -/
def row2 (s : ℕ) (hs : s < 25) (r : Fin 2000) : Fin 50000 := ⟨2000 * s + r.val, by have := r.isLt; omega⟩

/-- The fold after tile n, at a column: the tiles' column sums added up in tile order. -/
theorem acc2_apply (X : FVec Ideal S50000x64 .f32) (B : FVec Ideal S1x64 .f32) (q : Fin ncol2) : ∀ (n : ℕ) (h : n < 25),
    acc2 (F := Ideal) X B n h (ix2 (0 : Fin 1) q)
      = ∑ s : Fin (n + 1), ∑ r : Fin 2000, (X (ix2 (row2 s.val (by have := s.isLt; omega) r) q) + B (ix2 (0 : Fin 1) q))
  | 0, h => by
    show k2_pay3 (F := Ideal) _ _ _ (ix2 (0 : Fin 1) q) = _
    rw [pay3_apply2, pay1_apply2, zero_add, Fin.sum_univ_one]
    rfl
  | n + 1, h => by
    show k2_pay3 (F := Ideal) _ _ _ (ix2 (0 : Fin 1) q) = _
    rw [Fin.sum_univ_castSucc, pay3_apply2, acc2_apply X B q n (Nat.lt_of_succ_lt h)]
    rfl

/-- Twenty-five tiles of 2000 rows are the 50000 rows. -/
theorem sum_tiles2 (f : Fin 50000 → EReal) :
    ∑ s : Fin 25, ∑ r : Fin 2000, f (row2 s.val s.isLt r) = ∑ i : Fin 50000, f i := by
  rw [← Equiv.sum_comp (finProdFinEquiv (m := 25) (n := 2000)) f, Fintype.sum_prod_type]
  refine Finset.sum_congr rfl fun s _ => Finset.sum_congr rfl fun r _ => congrArg f (Fin.ext ?_)
  show 2000 * s.val + r.val = r.val + 2000 * s.val
  omega

/-- THE ONE-ROW RESULT at the ideal values: column q is the column's sum, over all the rows, of the aggregate's
    entry plus the bias of the column. -/
theorem G2_3_apply (X : FVec Ideal S50000x64 .f32) (B : FVec Ideal S1x64 .f32) (q : Fin ncol2) :
    G2_3 (F := Ideal) X B (ix2 (0 : Fin 1) q)
      = Cert.Val.colSum (fun i j => X (ix2 i j) + B (ix2 (0 : Fin 1) j)) q := by
  unfold G2_3 Cert.Val.colSum
  rw [acc2_apply X B q 24 (by omega)]
  exact sum_tiles2 (fun i => X (ix2 i q) + B (ix2 (0 : Fin 1) q))

end IdealReading

end Cert.KernelIdeal.Hand

end
-- ==== Proof.KI.R30v.lean ====
import proofs.«408084_j48395691492010_3_alg».proof.Proof.KI.R30
import proofs.«408084_j48395691492010_3_alg».proof.Proof.KI.R14v
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! Region 30, the values. The kernel is region 14's word for word, so what each control case leaves in the buffers,
the row tiles, the fold and the three results as functions of the three arrays (G14_3, G14_4, G14_5) are region 14's;
here they are read at this region's windows: the blocks of its arrays, what its buffers hold after each point, and
its three result arrays after the last point. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The arrays and their blocks, at their literal types -/

/-- The array of the aggregated rows, as the region finds it, -/
noncomputable abbrev xarr30 (c : Dev nD) : Vec F S50000x64 .f32 := V c (Pipeline.arrRef spec30 0)
/-- the bias row, -/
noncomputable abbrev barr30 (c : Dev nD) : Vec F S1x64 .f32 := V c (Pipeline.arrRef spec30 1)
/-- and the carried-in array. -/
noncomputable abbrev carr30 (c : Dev nD) : Vec F S50000x64 .f32 := V c (Pipeline.arrRef spec30 2)

/-- The row-tile windows' block index is the grid point; the one-row windows never move. -/
theorem index30_0 : ∀ t : Fin cfg30.N, win30_0.index t 0 = t.val ∧ win30_0.index t 1 = 0 :=
  (by decide +kernel : ∀ t : Fin grid30.N, win30_0.index t 0 = t.val ∧ win30_0.index t 1 = 0)
theorem index30_1 : ∀ t : Fin cfg30.N, win30_1.index t 0 = 0 ∧ win30_1.index t 1 = 0 :=
  (by decide +kernel : ∀ t : Fin grid30.N, win30_1.index t 0 = 0 ∧ win30_1.index t 1 = 0)
theorem index30_2 : ∀ t : Fin cfg30.N, win30_2.index t 0 = t.val ∧ win30_2.index t 1 = 0 :=
  (by decide +kernel : ∀ t : Fin grid30.N, win30_2.index t 0 = t.val ∧ win30_2.index t 1 = 0)
theorem index30_3 : ∀ t : Fin cfg30.N, win30_3.index t 0 = t.val ∧ win30_3.index t 1 = 0 :=
  (by decide +kernel : ∀ t : Fin grid30.N, win30_3.index t 0 = t.val ∧ win30_3.index t 1 = 0)
theorem index30_4 : ∀ t : Fin cfg30.N, win30_4.index t 0 = t.val ∧ win30_4.index t 1 = 0 :=
  (by decide +kernel : ∀ t : Fin grid30.N, win30_4.index t 0 = t.val ∧ win30_4.index t 1 = 0)
theorem index30_5 : ∀ t : Fin cfg30.N, win30_5.index t 0 = 0 ∧ win30_5.index t 1 = 0 :=
  (by decide +kernel : ∀ t : Fin grid30.N, win30_5.index t 0 = 0 ∧ win30_5.index t 1 = 0)
theorem xsize30_5 : ∀ t : Fin cfg30.N, win30_5.xsize (grid30.coords t) 0 = 1 ∧ win30_5.xsize (grid30.coords t) 1 = 64 :=
  (by decide +kernel : ∀ t : Fin grid30.N, win30_5.xsize (grid30.coords t) 0 = 1 ∧ win30_5.xsize (grid30.coords t) 1 = 64)

/-- The aggregate window's block at point t is row tile t of its array. -/
theorem xblk30_eq (c : Dev nD) (t : Fin cfg30.N) (hN : t.val < 25) :
    (iblk30 V c 0 t : Vec F S2000x64 .f32) = tile14 (xarr30 V c) ⟨t.val, hN⟩ := by
  have hi := index30_0 t
  funext j
  unfold iblk30 tile14
  rw [View.read_apply]
  show V c (Pipeline.arrRef spec30 0) _ = V c (Pipeline.arrRef spec30 0) _
  congr 1
  funext a
  apply Fin.ext
  match a with
  | ⟨0, _⟩ => show win30_0.index t 0 * 2000 + 1 * (j 0).val = 2000 * t.val + (j 0).val; rw [hi.1]; omega
  | ⟨1, _⟩ => show win30_0.index t 1 * 64 + 1 * (j 1).val = (j 1).val; rw [hi.2]; omega

/-- The bias window's block is the whole one-row array, at every point. -/
theorem bblk30_eq (c : Dev nD) (t : Fin cfg30.N) : (iblk30 V c 1 t : Vec F S1x64 .f32) = barr30 V c := by
  have hi := index30_1 t
  funext j
  unfold iblk30
  rw [View.read_apply]
  show V c (Pipeline.arrRef spec30 1) _ = V c (Pipeline.arrRef spec30 1) j
  congr 1
  funext a
  apply Fin.ext
  match a with
  | ⟨0, _⟩ => show win30_1.index t 0 * 1 + 1 * (j 0).val = (j 0).val; rw [hi.1]; omega
  | ⟨1, _⟩ => show win30_1.index t 1 * 64 + 1 * (j 1).val = (j 1).val; rw [hi.2]; omega

/-- The carried-in window's block at point t is row tile t of its array. -/
theorem cblk30_eq (c : Dev nD) (t : Fin cfg30.N) (hN : t.val < 25) :
    (iblk30 V c 2 t : Vec F S2000x64 .f32) = tile14 (carr30 V c) ⟨t.val, hN⟩ := by
  have hi := index30_2 t
  funext j
  unfold iblk30 tile14
  rw [View.read_apply]
  show V c (Pipeline.arrRef spec30 2) _ = V c (Pipeline.arrRef spec30 2) _
  congr 1
  funext a
  apply Fin.ext
  match a with
  | ⟨0, _⟩ => show win30_2.index t 0 * 2000 + 1 * (j 0).val = 2000 * t.val + (j 0).val; rw [hi.1]; omega
  | ⟨1, _⟩ => show win30_2.index t 1 * 64 + 1 * (j 1).val = (j 1).val; rw [hi.2]; omega

/-! ## What the buffers hold after each point -/

/-- The first full-size result's buffer after point n. -/
theorem outsAt30_pre (c : Dev nD) : ∀ (n : ℕ) (h : n < cfg30.N) (h' : n < 25),
    (outsAt30 V c n h).1 = k14_pay3 (tile14 (xarr30 V c) ⟨n, h'⟩) (barr30 V c) (tile14 (carr30 V c) ⟨n, h'⟩)
  | 0, h, h' => by
    rw [outsAt30_A V c ⟨0, h⟩ (Nat.zero_mod 25) (fun e => by have e' : (0 : ℕ) % 25 = 24 := e; omega)]
    dsimp only
    rw [out14_A_3_eq, xblk30_eq V c ⟨0, h⟩ h', bblk30_eq V c ⟨0, h⟩, cblk30_eq V c ⟨0, h⟩ h']
  | n + 1, h, h' => by
    have hm : (n + 1) % 25 = n + 1 := Nat.mod_eq_of_lt h'
    by_cases h24 : n + 1 = 24
    · rw [outsAt30_C V c ⟨n + 1, h⟩ (fun e => by have e' : (n + 1) % 25 = 0 := e; omega) (by show (n + 1) % 25 = 24; omega)]
      dsimp only
      rw [out14_C_3_eq, xblk30_eq V c ⟨n + 1, h⟩ h', bblk30_eq V c ⟨n + 1, h⟩, cblk30_eq V c ⟨n + 1, h⟩ h']
    · rw [outsAt30_B V c ⟨n + 1, h⟩ (fun e => by have e' : (n + 1) % 25 = 0 := e; omega) (fun e => by have e' : (n + 1) % 25 = 24 := e; omega)]
      dsimp only
      rw [out14_B_3_eq, xblk30_eq V c ⟨n + 1, h⟩ h', bblk30_eq V c ⟨n + 1, h⟩, cblk30_eq V c ⟨n + 1, h⟩ h']

/-- The second full-size result's buffer after point n. -/
theorem outsAt30_cum (c : Dev nD) : ∀ (n : ℕ) (h : n < cfg30.N) (h' : n < 25),
    (outsAt30 V c n h).2.1 = k14_pay4 (tile14 (xarr30 V c) ⟨n, h'⟩) (barr30 V c) (tile14 (carr30 V c) ⟨n, h'⟩)
  | 0, h, h' => by
    rw [outsAt30_A V c ⟨0, h⟩ (Nat.zero_mod 25) (fun e => by have e' : (0 : ℕ) % 25 = 24 := e; omega)]
    dsimp only
    rw [out14_A_4_eq, xblk30_eq V c ⟨0, h⟩ h', bblk30_eq V c ⟨0, h⟩, cblk30_eq V c ⟨0, h⟩ h']
  | n + 1, h, h' => by
    have hm : (n + 1) % 25 = n + 1 := Nat.mod_eq_of_lt h'
    by_cases h24 : n + 1 = 24
    · rw [outsAt30_C V c ⟨n + 1, h⟩ (fun e => by have e' : (n + 1) % 25 = 0 := e; omega) (by show (n + 1) % 25 = 24; omega)]
      dsimp only
      rw [out14_C_4_eq, xblk30_eq V c ⟨n + 1, h⟩ h', bblk30_eq V c ⟨n + 1, h⟩, cblk30_eq V c ⟨n + 1, h⟩ h']
    · rw [outsAt30_B V c ⟨n + 1, h⟩ (fun e => by have e' : (n + 1) % 25 = 0 := e; omega) (fun e => by have e' : (n + 1) % 25 = 24 := e; omega)]
      dsimp only
      rw [out14_B_4_eq, xblk30_eq V c ⟨n + 1, h⟩ h', bblk30_eq V c ⟨n + 1, h⟩, cblk30_eq V c ⟨n + 1, h⟩ h']

/-- What the accumulator holds after point n is the fold up to tile n: by induction on the point. -/
theorem outsAt30_acc (c : Dev nD) : ∀ (n : ℕ) (h : n < cfg30.N) (h' : n < 25),
    (outsAt30 V c n h).2.2.2 = acc14 (xarr30 V c) (barr30 V c) (carr30 V c) n h'
  | 0, h, h' => by
    rw [outsAt30_A V c ⟨0, h⟩ (Nat.zero_mod 25) (fun e => by have e' : (0 : ℕ) % 25 = 24 := e; omega)]
    dsimp only
    rw [sout14_A_0_eq, xblk30_eq V c ⟨0, h⟩ h', bblk30_eq V c ⟨0, h⟩, cblk30_eq V c ⟨0, h⟩ h']
    rfl
  | n + 1, h, h' => by
    have ih := outsAt30_acc c n (Nat.lt_of_succ_lt h) (Nat.lt_of_succ_lt h')
    have hm : (n + 1) % 25 = n + 1 := Nat.mod_eq_of_lt h'
    by_cases h24 : n + 1 = 24
    · rw [outsAt30_C V c ⟨n + 1, h⟩ (fun e => by have e' : (n + 1) % 25 = 0 := e; omega) (by show (n + 1) % 25 = 24; omega)]
      dsimp only
      rw [sout14_C_0_eq, xblk30_eq V c ⟨n + 1, h⟩ h', bblk30_eq V c ⟨n + 1, h⟩, cblk30_eq V c ⟨n + 1, h⟩ h']
      show k14_pay5 _ _ _ (outsAt30 V c n _).2.2.2 = k14_pay5 _ _ _ (acc14 _ _ _ n _)
      rw [ih]
    · rw [outsAt30_B V c ⟨n + 1, h⟩ (fun e => by have e' : (n + 1) % 25 = 0 := e; omega) (fun e => by have e' : (n + 1) % 25 = 24 := e; omega)]
      dsimp only
      rw [sout14_B_0_eq, xblk30_eq V c ⟨n + 1, h⟩ h', bblk30_eq V c ⟨n + 1, h⟩, cblk30_eq V c ⟨n + 1, h⟩ h']
      show k14_pay5 _ _ _ (outsAt30 V c n _).2.2.2 = k14_pay5 _ _ _ (acc14 _ _ _ n _)
      rw [ih]

/-- At the last point the one-row result's buffer is left holding the whole fold. -/
theorem outsAt30_last (c : Dev nD) (t : Fin cfg30.N) (h24 : t.val = 24) :
    (outsAt30 V c t.val t.isLt).2.2.1 = G14_5 (xarr30 V c) (barr30 V c) (carr30 V c) := by
  obtain ⟨n, hn⟩ := t
  obtain rfl : n = 24 := h24
  rw [outsAt30_C V c ⟨24, hn⟩ (fun e => by have e' : (24 : ℕ) % 25 = 0 := e; omega) (by show (24 : ℕ) % 25 = 24; omega)]
  dsimp only
  rw [out14_C_5_eq, xblk30_eq V c ⟨24, hn⟩ (by show (24 : ℕ) < 25; omega), bblk30_eq V c ⟨24, hn⟩, cblk30_eq V c ⟨24, hn⟩ (by show (24 : ℕ) < 25; omega)]
  show k14_pay5 _ _ _ (outsAt30 V c 23 _).2.2.2 = k14_pay5 _ _ _ (acc14 _ _ _ 23 _)
  rw [outsAt30_acc V c 23 _ (by decide)]

/-! ## The full-size result arrays after the run -/

/-- What point t writes back of the first full-size result array is block t of G14_3 of the arrays. -/
theorem flushed30_3 (c : Dev nD) (t : Fin cfg30.N) :
    (dat30 V c).flushed 3 t = ((cfg30.win 3).blk t).view.read (Elt F) (G14_3 (xarr30 V c) (barr30 V c) (carr30 V c)) := by
  have hN : t.val < 25 := lt_of_lt_of_eq t.isLt (show cfg30.N = 25 from N_30)
  have hi := index30_3 t
  show (cfg30.win 3).cut (grid30.coords t) ((dat30 V c).after 3 t) = _
  rw [after30_3, outsAt30_pre V c t.val t.isLt hN]
  funext j
  have hj0 : (j 0).val < 2000 := (j 0).isLt
  show k14_pay3 (tile14 (xarr30 V c) ⟨t.val, hN⟩) (barr30 V c) (tile14 (carr30 V c) ⟨t.val, hN⟩) j = G14_3 (xarr30 V c) (barr30 V c) (carr30 V c) (((cfg30.win 3).blk t).view.emb j)
  have hrow : ((((cfg30.win 3).blk t).view.emb j : S50000x64.Idx) 0).val = t.val * 2000 + (j 0).val := by
    show win30_3.index t 0 * 2000 + 1 * (j 0).val = t.val * 2000 + (j 0).val
    rw [hi.1]; omega
  have hcol : ((((cfg30.win 3).blk t).view.emb j : S50000x64.Idx) 1).val = (j 1).val := by
    show win30_3.index t 1 * 64 + 1 * (j 1).val = (j 1).val
    rw [hi.2]; omega
  unfold G14_3
  have htile : (⟨((((cfg30.win 3).blk t).view.emb j : S50000x64.Idx) 0).val / 2000, by have := idx2_lt0 (((cfg30.win 3).blk t).view.emb j : S50000x64.Idx); omega⟩ : Fin 25) = ⟨t.val, hN⟩ :=
    Fin.ext (by show ((((cfg30.win 3).blk t).view.emb j : S50000x64.Idx) 0).val / 2000 = t.val; rw [hrow]; omega)
  have hplace : (ix2 ⟨((((cfg30.win 3).blk t).view.emb j : S50000x64.Idx) 0).val % 2000, Nat.mod_lt _ (by decide)⟩ ((((cfg30.win 3).blk t).view.emb j : S50000x64.Idx) 1) : S2000x64.Idx) = j := by
    funext d; apply Fin.ext
    match d with
    | ⟨0, _⟩ => show ((((cfg30.win 3).blk t).view.emb j : S50000x64.Idx) 0).val % 2000 = (j 0).val; rw [hrow]; omega
    | ⟨1, _⟩ => exact hcol
  rw [htile, hplace]

/-- An index of the array is in point t's block iff each coordinate is in the block's range on its axis. -/
theorem mem_blk30_3 (t : Fin cfg30.N) (i : S50000x64.Idx) :
    i ∈ ((cfg30.win 3).blk t).view.set ↔ ∀ a : Fin 2, win30_3.index t a * S2000x64.size a ≤ (i a).val ∧ (i a).val < win30_3.index t a * S2000x64.size a + S2000x64.size a := by
  show i ∈ ((View.whole (Pipeline.arrRef spec30 3)).slice (win30_3.rect t)).set ↔ _
  rw [View.set_slice_whole, Rect.mem_set_unit]
  exact Iff.rfl

/-- Every index of the array is in some point's block: row r in the block of point r / 2000. -/
theorem covered30_3 (i : S50000x64.Idx) :
    ∃ t : Fin cfg30.N, (cfg30.win 3).flush t = true ∧ i ∈ ((cfg30.win 3).blk t).view.set := by
  have hi0 : (i 0).val < 50000 := (i 0).isLt
  refine ⟨⟨(i 0).val / 2000, by rw [show cfg30.N = 25 from N_30]; omega⟩, flush30_3 _, ?_⟩
  have hi := index30_3 ⟨(i 0).val / 2000, by rw [show cfg30.N = 25 from N_30]; omega⟩
  rw [mem_blk30_3]
  intro a
  match a with
  | ⟨0, _⟩ =>
    show win30_3.index _ 0 * 2000 ≤ (i 0).val ∧ (i 0).val < win30_3.index _ 0 * 2000 + 2000
    rw [hi.1]; show (i 0).val / 2000 * 2000 ≤ (i 0).val ∧ (i 0).val < (i 0).val / 2000 * 2000 + 2000; omega
  | ⟨1, _⟩ =>
    show win30_3.index _ 1 * S2000x64.size 1 ≤ (i 1).val ∧ (i 1).val < win30_3.index _ 1 * S2000x64.size 1 + S2000x64.size 1
    rw [hi.2, Nat.zero_mul, Nat.zero_add]; exact ⟨Nat.zero_le _, (i 1).isLt⟩

/-- So the first full-size result array ends holding G14_3 of the three arrays. -/
theorem final30_3 (c : Dev nD) :
    (dat30 V c).arrAt 3 cfg30.N = G14_3 (V c (Pipeline.arrRef spec30 0)) (V c (Pipeline.arrRef spec30 1)) (V c (Pipeline.arrRef spec30 2)) :=
  (dat30 V c).arrAt_eq_of_cover 3 (G14_3 (xarr30 V c) (barr30 V c) (carr30 V c)) (fun t _ => flushed30_3 V c t) covered30_3

/-- What point t writes back of the second full-size result array is block t of G14_4 of the arrays. -/
theorem flushed30_4 (c : Dev nD) (t : Fin cfg30.N) :
    (dat30 V c).flushed 4 t = ((cfg30.win 4).blk t).view.read (Elt F) (G14_4 (xarr30 V c) (barr30 V c) (carr30 V c)) := by
  have hN : t.val < 25 := lt_of_lt_of_eq t.isLt (show cfg30.N = 25 from N_30)
  have hi := index30_4 t
  show (cfg30.win 4).cut (grid30.coords t) ((dat30 V c).after 4 t) = _
  rw [after30_4, outsAt30_cum V c t.val t.isLt hN]
  funext j
  have hj0 : (j 0).val < 2000 := (j 0).isLt
  show k14_pay4 (tile14 (xarr30 V c) ⟨t.val, hN⟩) (barr30 V c) (tile14 (carr30 V c) ⟨t.val, hN⟩) j = G14_4 (xarr30 V c) (barr30 V c) (carr30 V c) (((cfg30.win 4).blk t).view.emb j)
  have hrow : ((((cfg30.win 4).blk t).view.emb j : S50000x64.Idx) 0).val = t.val * 2000 + (j 0).val := by
    show win30_4.index t 0 * 2000 + 1 * (j 0).val = t.val * 2000 + (j 0).val
    rw [hi.1]; omega
  have hcol : ((((cfg30.win 4).blk t).view.emb j : S50000x64.Idx) 1).val = (j 1).val := by
    show win30_4.index t 1 * 64 + 1 * (j 1).val = (j 1).val
    rw [hi.2]; omega
  unfold G14_4
  have htile : (⟨((((cfg30.win 4).blk t).view.emb j : S50000x64.Idx) 0).val / 2000, by have := idx2_lt0 (((cfg30.win 4).blk t).view.emb j : S50000x64.Idx); omega⟩ : Fin 25) = ⟨t.val, hN⟩ :=
    Fin.ext (by show ((((cfg30.win 4).blk t).view.emb j : S50000x64.Idx) 0).val / 2000 = t.val; rw [hrow]; omega)
  have hplace : (ix2 ⟨((((cfg30.win 4).blk t).view.emb j : S50000x64.Idx) 0).val % 2000, Nat.mod_lt _ (by decide)⟩ ((((cfg30.win 4).blk t).view.emb j : S50000x64.Idx) 1) : S2000x64.Idx) = j := by
    funext d; apply Fin.ext
    match d with
    | ⟨0, _⟩ => show ((((cfg30.win 4).blk t).view.emb j : S50000x64.Idx) 0).val % 2000 = (j 0).val; rw [hrow]; omega
    | ⟨1, _⟩ => exact hcol
  rw [htile, hplace]

/-- An index of the array is in point t's block iff each coordinate is in the block's range on its axis. -/
theorem mem_blk30_4 (t : Fin cfg30.N) (i : S50000x64.Idx) :
    i ∈ ((cfg30.win 4).blk t).view.set ↔ ∀ a : Fin 2, win30_4.index t a * S2000x64.size a ≤ (i a).val ∧ (i a).val < win30_4.index t a * S2000x64.size a + S2000x64.size a := by
  show i ∈ ((View.whole (Pipeline.arrRef spec30 4)).slice (win30_4.rect t)).set ↔ _
  rw [View.set_slice_whole, Rect.mem_set_unit]
  exact Iff.rfl

/-- Every index of the array is in some point's block: row r in the block of point r / 2000. -/
theorem covered30_4 (i : S50000x64.Idx) :
    ∃ t : Fin cfg30.N, (cfg30.win 4).flush t = true ∧ i ∈ ((cfg30.win 4).blk t).view.set := by
  have hi0 : (i 0).val < 50000 := (i 0).isLt
  refine ⟨⟨(i 0).val / 2000, by rw [show cfg30.N = 25 from N_30]; omega⟩, flush30_4 _, ?_⟩
  have hi := index30_4 ⟨(i 0).val / 2000, by rw [show cfg30.N = 25 from N_30]; omega⟩
  rw [mem_blk30_4]
  intro a
  match a with
  | ⟨0, _⟩ =>
    show win30_4.index _ 0 * 2000 ≤ (i 0).val ∧ (i 0).val < win30_4.index _ 0 * 2000 + 2000
    rw [hi.1]; show (i 0).val / 2000 * 2000 ≤ (i 0).val ∧ (i 0).val < (i 0).val / 2000 * 2000 + 2000; omega
  | ⟨1, _⟩ =>
    show win30_4.index _ 1 * S2000x64.size 1 ≤ (i 1).val ∧ (i 1).val < win30_4.index _ 1 * S2000x64.size 1 + S2000x64.size 1
    rw [hi.2, Nat.zero_mul, Nat.zero_add]; exact ⟨Nat.zero_le _, (i 1).isLt⟩

/-- So the second full-size result array ends holding G14_4 of the three arrays. -/
theorem final30_4 (c : Dev nD) :
    (dat30 V c).arrAt 4 cfg30.N = G14_4 (V c (Pipeline.arrRef spec30 0)) (V c (Pipeline.arrRef spec30 1)) (V c (Pipeline.arrRef spec30 2)) :=
  (dat30 V c).arrAt_eq_of_cover 4 (G14_4 (xarr30 V c) (barr30 V c) (carr30 V c)) (fun t _ => flushed30_4 V c t) covered30_4

/-! ## The one-row result array after the run -/

/-- The one write-back (at the last point) writes the fold: the result's block there is the whole one-row array. -/
theorem flushed30_5 (c : Dev nD) (t : Fin cfg30.N) (hf : (cfg30.win 5).flush t = true) :
    (dat30 V c).flushed 5 t = ((cfg30.win 5).blk t).view.read (Elt F) (G14_5 (xarr30 V c) (barr30 V c) (carr30 V c)) := by
  have hN : t.val < 25 := lt_of_lt_of_eq t.isLt (show cfg30.N = 25 from N_30)
  have h24 : t.val = 24 := by have := (flush30_5 t).mp hf; omega
  have hi := index30_5 t
  show (cfg30.win 5).cut (grid30.coords t) ((dat30 V c).after 5 t) = _
  rw [after30_5, outsAt30_last V c t h24]
  have hz' : (fun a => win30_5.index t a * main_v293_2.ty.shape.size a) = fun _ => 0 := funext fun a => by
    match a with
    | ⟨0, _⟩ => show win30_5.index t 0 * _ = 0; rw [hi.1, Nat.zero_mul]
    | ⟨1, _⟩ => show win30_5.index t 1 * _ = 0; rw [hi.2, Nat.zero_mul]
  exact (Memref.read_access_unit_zero (Elt F) main_v293_2 hz' (fun a => by rw [congrFun hz' a]; simp) (G14_5 (xarr30 V c) (barr30 V c) (carr30 V c))).symm

/-- So the one-row result array ends holding the fold. -/
theorem final30_5 (c : Dev nD) :
    (dat30 V c).arrAt 5 cfg30.N = G14_5 (V c (Pipeline.arrRef spec30 0)) (V c (Pipeline.arrRef spec30 1)) (V c (Pipeline.arrRef spec30 2)) := by
  have h24 : (24 : ℕ) < cfg30.N := by rw [show cfg30.N = 25 from N_30]; omega
  refine (dat30 V c).arrAt_eq_of_cover 5 (G14_5 (xarr30 V c) (barr30 V c) (carr30 V c)) (flushed30_5 V c) fun i =>
    ⟨⟨24, h24⟩, (flush30_5 _).mpr rfl, ?_⟩
  have hi := index30_5 ⟨24, h24⟩
  have hx := xsize30_5 ⟨24, h24⟩
  show i ∈ ((View.whole main_v293_2).slice (win30_5.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win30_5.index ⟨24, h24⟩ 0 * win30_5.size 0 ≤ (i 0 : Nat) ∧ (i 0 : Nat) < win30_5.index ⟨24, h24⟩ 0 * win30_5.size 0 + win30_5.xsize (grid30.coords ⟨24, h24⟩) 0
    rw [hi.1, hx.1]; omega
  | ⟨1, _⟩ =>
    show win30_5.index ⟨24, h24⟩ 1 * win30_5.size 1 ≤ (i 1 : Nat) ∧ (i 1 : Nat) < win30_5.index ⟨24, h24⟩ 1 * win30_5.size 1 + win30_5.xsize (grid30.coords ⟨24, h24⟩) 1
    rw [hi.2, hx.2]; omega

end Cert.KernelIdeal.Hand

end
-- ==== Proof.KI.R31v.lean ====
import proofs.«408084_j48395691492010_3_alg».proof.Proof.KI.R31
import proofs.«408084_j48395691492010_3_alg».proof.Proof.KI.R3v

/-! Region 31, the value: the same kernel as region 3 at the same shapes, so the result is the same function `G3_2` of this
region's two arrays — the fold over the 25 row tiles, from the zero row, of each tile's column sum of squared deviations.
The found pieces read back and the fold's reading at the ideal values are region 3's; here: this region's blocks as
tiles of its arrays, the accumulator after each point as the fold (by induction on the point), and the result array. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The [50000, D] array of the rows, as the region finds it, -/
noncomputable abbrev xarr31 (c : Dev nD) : Vec F S50000x64 .f32 := V c (Pipeline.arrRef spec31 0)
/-- and the one row of column means. -/
noncomputable abbrev marr31 (c : Dev nD) : Vec F S1x64 .f32 := V c (Pipeline.arrRef spec31 1)

theorem index31_0 : ∀ t : Fin cfg31.N, win31_0.index t 0 = t.val ∧ win31_0.index t 1 = 0 :=
  (by decide +kernel : ∀ t : Fin grid31.N, win31_0.index t 0 = t.val ∧ win31_0.index t 1 = 0)
theorem index31_1 : ∀ t : Fin cfg31.N, win31_1.index t 0 = 0 ∧ win31_1.index t 1 = 0 :=
  (by decide +kernel : ∀ t : Fin grid31.N, win31_1.index t 0 = 0 ∧ win31_1.index t 1 = 0)
theorem index31_2 : ∀ t : Fin cfg31.N, win31_2.index t 0 = 0 ∧ win31_2.index t 1 = 0 :=
  (by decide +kernel : ∀ t : Fin grid31.N, win31_2.index t 0 = 0 ∧ win31_2.index t 1 = 0)
theorem xsize31_2 : ∀ t : Fin cfg31.N, win31_2.xsize (grid31.coords t) 0 = 1 ∧ win31_2.xsize (grid31.coords t) 1 = 64 :=
  (by decide +kernel : ∀ t : Fin grid31.N, win31_2.xsize (grid31.coords t) 0 = 1 ∧ win31_2.xsize (grid31.coords t) 1 = 64)

/-- The row-tile window's block at point `t` is row tile `t` of the array. -/
theorem xblk31_eq (c : Dev nD) (t : Fin cfg31.N) (hN : t.val < 25) :
    (iblk31 V c 0 t : Vec F S2000x64 .f32) = tile3 (xarr31 V c) ⟨t.val, hN⟩ := by
  have hi := index31_0 t
  funext j
  unfold iblk31 tile3
  rw [View.read_apply]
  show V c (Pipeline.arrRef spec31 0) _ = V c (Pipeline.arrRef spec31 0) _
  congr 1
  funext a
  apply Fin.ext
  match a with
  | ⟨0, _⟩ => show win31_0.index t 0 * 2000 + 1 * (j 0).val = 2000 * t.val + (j 0).val; rw [hi.1]; omega
  | ⟨1, _⟩ => show win31_0.index t 1 * 64 + 1 * (j 1).val = (j 1).val; rw [hi.2]; omega

/-- The mean window's block is the whole one-row array, at every point. -/
theorem mblk31_eq (c : Dev nD) (t : Fin cfg31.N) : (iblk31 V c 1 t : Vec F S1x64 .f32) = marr31 V c := by
  have hi := index31_1 t
  funext j
  unfold iblk31
  rw [View.read_apply]
  show V c (Pipeline.arrRef spec31 1) _ = V c (Pipeline.arrRef spec31 1) j
  congr 1
  funext a
  apply Fin.ext
  match a with
  | ⟨0, _⟩ => show win31_1.index t 0 * 1 + 1 * (j 0).val = (j 0).val; rw [hi.1]; omega
  | ⟨1, _⟩ => show win31_1.index t 1 * 64 + 1 * (j 1).val = (j 1).val; rw [hi.2]; omega

/-- What the accumulator holds after point `n` is the fold up to tile `n`: by induction on the point. -/
theorem outsAt31_acc (c : Dev nD) : ∀ (n : ℕ) (h : n < cfg31.N) (h' : n < 25),
    (outsAt31 V c n h).2 = acc3 (xarr31 V c) (marr31 V c) n h'
  | 0, h, h' => by
    rw [outsAt31_A V c ⟨0, h⟩ rfl (fun e => by have e' : (0 : ℕ) = 24 := e; omega)]
    dsimp only
    rw [sout3_A_eq, xblk31_eq V c ⟨0, h⟩ h', mblk31_eq V c ⟨0, h⟩]
    rfl
  | n + 1, h, h' => by
    have ih := outsAt31_acc c n (Nat.lt_of_succ_lt h) (Nat.lt_of_succ_lt h')
    by_cases h24 : n + 1 = 24
    · rw [outsAt31_C V c ⟨n + 1, h⟩ (Nat.succ_ne_zero n) h24]
      dsimp only
      rw [sout3_C_eq, xblk31_eq V c ⟨n + 1, h⟩ h', mblk31_eq V c ⟨n + 1, h⟩]
      show k3_pay2 _ _ (outsAt31 V c n _).2 = k3_pay2 _ _ (acc3 _ _ n _)
      rw [ih]
    · rw [outsAt31_B V c ⟨n + 1, h⟩ (Nat.succ_ne_zero n) h24]
      dsimp only
      rw [sout3_B_eq, xblk31_eq V c ⟨n + 1, h⟩ h', mblk31_eq V c ⟨n + 1, h⟩]
      show k3_pay2 _ _ (outsAt31 V c n _).2 = k3_pay2 _ _ (acc3 _ _ n _)
      rw [ih]

/-- At the last point the result's buffer is left holding the whole fold. -/
theorem outsAt31_last (c : Dev nD) (t : Fin cfg31.N) (h24 : t.val = 24) :
    (outsAt31 V c t.val t.isLt).1 = G3_2 (xarr31 V c) (marr31 V c) := by
  obtain ⟨n, hn⟩ := t
  obtain rfl : n = 24 := h24
  rw [outsAt31_C V c ⟨24, hn⟩ (fun e => by have e' : (24 : ℕ) = 0 := e; omega) rfl]
  dsimp only
  rw [out3_C_eq, xblk31_eq V c ⟨24, hn⟩ (by show (24 : ℕ) < 25; omega), mblk31_eq V c ⟨24, hn⟩]
  show k3_pay2 _ _ (outsAt31 V c 23 _).2 = k3_pay2 _ _ (acc3 _ _ 23 _)
  rw [outsAt31_acc V c 23 _ (by decide)]

/-- The one write-back (at the last point) writes the fold: the result's block there is the whole one-row array. -/
theorem flushed31_2 (c : Dev nD) (t : Fin cfg31.N) (hf : (cfg31.win 2).flush t = true) :
    (dat31 V c).flushed 2 t = ((cfg31.win 2).blk t).view.read (Elt F) (G3_2 (xarr31 V c) (marr31 V c)) := by
  have hN : t.val < 25 := lt_of_lt_of_eq t.isLt (show cfg31.N = 25 from N_31)
  have h24 : t.val = 24 := by have := (flush31_2 t).mp hf; omega
  have hi := index31_2 t
  show (cfg31.win 2).cut (grid31.coords t) ((dat31 V c).after 2 t) = _
  rw [after31_2, outsAt31_last V c t h24]
  have hz' : (fun a => win31_2.index t a * main_v296.ty.shape.size a) = fun _ => 0 := funext fun a => by
    match a with
    | ⟨0, _⟩ => show win31_2.index t 0 * _ = 0; rw [hi.1, Nat.zero_mul]
    | ⟨1, _⟩ => show win31_2.index t 1 * _ = 0; rw [hi.2, Nat.zero_mul]
  exact (Memref.read_access_unit_zero (Elt F) main_v296 hz' (fun a => by rw [congrFun hz' a]; simp) (G3_2 (xarr31 V c) (marr31 V c))).symm

/-- So the result array ends holding the fold: region 3's function of this region's two arrays. -/
theorem final31_2 (c : Dev nD) : (dat31 V c).arrAt 2 cfg31.N = G3_2 (V c (Pipeline.arrRef spec31 0)) (V c (Pipeline.arrRef spec31 1)) := by
  have h24 : (24 : ℕ) < cfg31.N := by rw [show cfg31.N = 25 from N_31]; omega
  refine (dat31 V c).arrAt_eq_of_cover 2 (G3_2 (xarr31 V c) (marr31 V c)) (flushed31_2 V c) fun i =>
    ⟨⟨24, h24⟩, (flush31_2 _).mpr rfl, ?_⟩
  have hi := index31_2 ⟨24, h24⟩
  have hx := xsize31_2 ⟨24, h24⟩
  show i ∈ ((View.whole main_v296).slice (win31_2.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win31_2.index ⟨24, h24⟩ 0 * win31_2.size 0 ≤ (i 0 : Nat) ∧ (i 0 : Nat) < win31_2.index ⟨24, h24⟩ 0 * win31_2.size 0 + win31_2.xsize (grid31.coords ⟨24, h24⟩) 0
    rw [hi.1, hx.1]; omega
  | ⟨1, _⟩ =>
    show win31_2.index ⟨24, h24⟩ 1 * win31_2.size 1 ≤ (i 1 : Nat) ∧ (i 1 : Nat) < win31_2.index ⟨24, h24⟩ 1 * win31_2.size 1 + win31_2.xsize (grid31.coords ⟨24, h24⟩) 1
    rw [hi.2, hx.2]; omega

end Cert.KernelIdeal.Hand

end
-- ==== Proof.KI.R32v.lean ====
import proofs.«408084_j48395691492010_3_alg».proof.Proof.KI.R32
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws

/-!
# Region 32: the array it leaves, as one function of the arrays it finds

Every grid point writes one block of 2000 rows of the output, and the 25 blocks tile the 50000 rows; the four
single-row inputs are the same block at every point. So the output array after the run is one function of the five
arrays the region finds. Entry (r, q) is computed from row r of the activations alone:

  bn[r,k] = (x[r,k] - mean[k]) * rsqrt (var[k] + eps) * gamma[k] + beta[k],
  out[r,q] = exp (bn[r,q] - max_k bn[r,k]) / (1 + Σ_k exp (bn[r,k] - max_k bn[r,k])).

At a generic float instance the row's sum is the instance's reduction of the whole 2000-row block that holds the
row, so the function is stated through that block; over the extended reals the reduction is a sum over the row and
the block drops out.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable {F : FTy → Type} [FloatOps F]

/-! ## The layout operations of the body, read at an index -/

section Layout32
variable {α : Type}

/-- A vector of 2000 entries cast to a column reads, at (p, 0), entry p. -/
theorem castCol32 (v : S2000.Idx → α) (h : S2000.ShapeCasts S2000x1) :
    shapeCast S2000x1 v h = fun y => v (ix1 (y 0)) := by
  funext y
  obtain ⟨p, u, rfl⟩ : ∃ (p : Fin 2000) (u : Fin 1), y = ix2 p u := ⟨y 0, y 1, eq_ix2 y⟩
  refine shapeCast_apply v h (ix2 p u) (ix1 p) ?_
  have hu : u.val = 0 := by omega
  rw [Shape.rowMajor_val_two, Shape.rowMajor_val_one]
  show p.val = p.val * 1 + u.val
  rw [hu, Nat.mul_one, Nat.add_zero]

/-- A column broadcast along the rows reads, at (p, k), the column's entry p. -/
theorem bcastCol32 (v : S2000x1.Idx → α) (h : S2000x1.Broadcasts S2000x64) :
    broadcastTo S2000x64 v h = fun y => v (ix2 (y 0) (0 : Fin 1)) := by
  funext y
  obtain ⟨p, k, rfl⟩ : ∃ (p : Fin 2000) (k : Fin 64), y = ix2 p k := ⟨y 0, y 1, eq_ix2 y⟩
  refine broadcastTo_apply v h (ix2 p k) (ix2 p (0 : Fin 1)) fun ax => ?_
  match ax with
  | ⟨0, _⟩ => rfl
  | ⟨1, _⟩ => rfl

/-- A single row broadcast down the block reads, at (p, k), the row's entry k. -/
theorem bcastRow32 (v : S1x64.Idx → α) (h : S1x64.Broadcasts S2000x64) :
    broadcastTo S2000x64 v h = fun y => v (ix2 (0 : Fin 1) (y 1)) := by
  funext y
  obtain ⟨p, k, rfl⟩ : ∃ (p : Fin 2000) (k : Fin 64), y = ix2 p k := ⟨y 0, y 1, eq_ix2 y⟩
  exact broadcastTo_1b_ab_apply v h p k

end Layout32

/-! ## The body's result on a block, by coordinates -/

/-- The batch-norm of a block, entry by entry, in the body's order of operations. -/
noncomputable def bn32 (v0 : Vec F S2000x64 .f32) (v2 v6 v13 v17 : Vec F S1x64 .f32) : FVec F S2000x64 .f32 := fun y =>
  FloatOps.addf (FloatOps.mulf (FloatOps.mulf (FloatOps.subf (v0 y) (v2 (ix2 (0 : Fin 1) (y 1))))
      (FloatOps.rsqrt (FloatOps.addf (v6 (ix2 (0 : Fin 1) (y 1))) (FloatOps.ofBits .f32 0x3727C5AC#32))))
      (v13 (ix2 (0 : Fin 1) (y 1)))) (v17 (ix2 (0 : Fin 1) (y 1)))

/-- Its row maxima: the body's reduction along the columns, started from minus infinity. -/
noncomputable def mx32 (v0 : Vec F S2000x64 .f32) (v2 v6 v13 v17 : Vec F S1x64 .f32) : FVec F S2000 .f32 :=
  multiReduction .maximumf [1] S2000 (bn32 v0 v2 v6 v13 v17) 0xFF800000#32 reduces_S2000x64_S2000 (.inl rfl) rfl

/-- The exponentials of the batch-norm less its row maximum. -/
noncomputable def e32 (v0 : Vec F S2000x64 .f32) (v2 v6 v13 v17 : Vec F S1x64 .f32) : FVec F S2000x64 .f32 := fun y =>
  FloatOps.exp (FloatOps.subf (bn32 v0 v2 v6 v13 v17 y) (mx32 v0 v2 v6 v13 v17 (ix1 (y 0))))

/-- Their row sums: the body's reduction along the columns, started from zero. -/
noncomputable def sm32 (v0 : Vec F S2000x64 .f32) (v2 v6 v13 v17 : Vec F S1x64 .f32) : FVec F S2000 .f32 :=
  multiReduction .add [1] S2000 (e32 v0 v2 v6 v13 v17) 0x00000000#32 reduces_S2000x64_S2000 (.inl rfl) rfl

/-- What the body stores: each exponential over one plus its row's sum. -/
noncomputable def P32 (v0 : Vec F S2000x64 .f32) (v2 v6 v13 v17 : Vec F S1x64 .f32) : Vec F S2000x64 .f32 := fun y =>
  FloatOps.divf (e32 v0 v2 v6 v13 v17 y)
    (FloatOps.addf (FloatOps.ofBits .f32 0x3F800000#32) (sm32 v0 v2 v6 v13 v17 (ix1 (y 0))))

/-- The skeleton's payload is that function: its layout operations read at an index, the rest unfolds. -/
theorem pay32_eq (v0 : Vec F S2000x64 .f32) (v2 v6 v13 v17 : Vec F S1x64 .f32) :
    k32_pay1 v0 v2 v6 v13 v17 = P32 v0 v2 v6 v13 v17 := by
  unfold k32_pay1
  simp only [shapeCast_self, bcastRow32, bcastCol32, castCol32]
  rfl

/-! ## The output array as one function of the arrays the region finds -/

/-- Rows q·2000 … q·2000 + 1999 of an array of 50000 rows. -/
noncomputable def rows32 (x : S50000x64.Idx → Elt F .f32) (q : Fin 25) : Vec F S2000x64 .f32 := fun y =>
  x (ix2 (⟨q.val * 2000 + (y 0).val, by have := idx2_lt0 y; have := q.isLt; omega⟩ : Fin 50000) (y 1))

/-- The block of 2000 rows that holds an entry's row, -/
noncomputable def blkOf32 (i : S50000x64.Idx) : Fin 25 := ⟨(i 0).val / 2000, by have := idx2_lt0 i; omega⟩
/-- and the row's place in it. -/
noncomputable def rowIn32 (i : S50000x64.Idx) : Fin 2000 := ⟨(i 0).val % 2000, Nat.mod_lt _ (by decide)⟩

/-- The output array: at each entry, the body's result on the block of 2000 rows of the activations that holds
    the entry's row, at the row's place in the block. -/
noncomputable def G32 (x : S50000x64.Idx → Elt F .f32) (mu va ga be : S1x64.Idx → Elt F .f32) : S50000x64.Idx → Elt F .f32 := fun i =>
  P32 (rows32 x (blkOf32 i)) mu va ga be (ix2 (rowIn32 i) (i 1))

/-- The output array read under block q at a place j of the block. -/
theorem G32_blk (x : S50000x64.Idx → Elt F .f32) (mu va ga be : S1x64.Idx → Elt F .f32) (q : Fin 25) (j : S2000x64.Idx)
    (i : S50000x64.Idx) (h0 : (i 0).val = q.val * 2000 + (j 0).val) (h1 : (i 1).val = (j 1).val) :
    G32 x mu va ga be i = P32 (rows32 x q) mu va ga be j := by
  have hj0 : (j 0).val < 2000 := idx2_lt0 j
  have hq : blkOf32 i = q := Fin.ext (by show (i 0).val / 2000 = q.val; omega)
  have hj : ix2 (rowIn32 i) (i 1) = j := by
    funext a
    match a with
    | ⟨0, _⟩ => exact Fin.ext (by show (i 0).val % 2000 = (j 0).val; omega)
    | ⟨1, _⟩ => exact Fin.ext h1
  unfold G32
  rw [hq]
  exact congrArg (P32 (rows32 x q) mu va ga be) hj

section Region32v
variable (V : (c : Dev nD) → (b : Ref sig .tc) → Buf (Elt F) ((c : Thread nD τ).loc b))

theorem hz32 : (![0, 0] : Fin 2 → Nat) = fun _ => 0 := funext fun a => by fin_cases a <;> rfl

/-- The windows' block indices, decided over the 25 grid points: the activations and the output move one block of
    rows per point, the four single rows stay. -/
theorem idx32 : ∀ t : Fin cfg32.N,
    win32_0.index t (0 : Fin 2) = t.val ∧ win32_0.index t (1 : Fin 2) = 0
    ∧ win32_1.index t (0 : Fin 2) = 0 ∧ win32_1.index t (1 : Fin 2) = 0
    ∧ win32_2.index t (0 : Fin 2) = 0 ∧ win32_2.index t (1 : Fin 2) = 0
    ∧ win32_3.index t (0 : Fin 2) = 0 ∧ win32_3.index t (1 : Fin 2) = 0
    ∧ win32_4.index t (0 : Fin 2) = 0 ∧ win32_4.index t (1 : Fin 2) = 0
    ∧ win32_5.index t (0 : Fin 2) = t.val ∧ win32_5.index t (1 : Fin 2) = 0 :=
  (by decide +kernel : ∀ t : Fin grid32.N, _)

/-- The activations' block at point t is rows t·2000 … of their array. -/
theorem iblk32_0_eq (c : Dev nD) (t : Fin cfg32.N) :
    (iblk32 V c 0 t : S2000x64.Idx → Elt F .f32) = rows32 (V c (Pipeline.arrRef spec32 0)) (t.cast N_32) := by
  obtain ⟨e0, e1, -⟩ := idx32 t
  funext y
  show V c (Pipeline.arrRef spec32 0) (((cfg32.win 0).blk t).view.emb y) = V c (Pipeline.arrRef spec32 0) _
  refine congrArg _ (funext fun a => Fin.ext ?_)
  match a with
  | ⟨0, _⟩ => show win32_0.index t (0 : Fin 2) * 2000 + 1 * (y 0).val = t.val * 2000 + (y 0).val; omega
  | ⟨1, _⟩ => show win32_0.index t (1 : Fin 2) * 64 + 1 * (y 1).val = (y 1).val; omega

/-- Each single row's block is, at every point, its whole array. -/
theorem iblk32_1_eq (c : Dev nD) (t : Fin cfg32.N) : (iblk32 V c 1 t : S1x64.Idx → Elt F .f32) = V c (Pipeline.arrRef spec32 1) := by
  obtain ⟨-, -, e0, e1, -⟩ := idx32 t
  funext y
  show V c (Pipeline.arrRef spec32 1) (((cfg32.win 1).blk t).view.emb y) = V c (Pipeline.arrRef spec32 1) y
  refine congrArg _ (funext fun a => Fin.ext ?_)
  match a with
  | ⟨0, _⟩ => show win32_1.index t (0 : Fin 2) * 1 + 1 * (y 0).val = (y 0).val; omega
  | ⟨1, _⟩ => show win32_1.index t (1 : Fin 2) * 64 + 1 * (y 1).val = (y 1).val; omega
theorem iblk32_2_eq (c : Dev nD) (t : Fin cfg32.N) : (iblk32 V c 2 t : S1x64.Idx → Elt F .f32) = V c (Pipeline.arrRef spec32 2) := by
  obtain ⟨-, -, -, -, e0, e1, -⟩ := idx32 t
  funext y
  show V c (Pipeline.arrRef spec32 2) (((cfg32.win 2).blk t).view.emb y) = V c (Pipeline.arrRef spec32 2) y
  refine congrArg _ (funext fun a => Fin.ext ?_)
  match a with
  | ⟨0, _⟩ => show win32_2.index t (0 : Fin 2) * 1 + 1 * (y 0).val = (y 0).val; omega
  | ⟨1, _⟩ => show win32_2.index t (1 : Fin 2) * 64 + 1 * (y 1).val = (y 1).val; omega
theorem iblk32_3_eq (c : Dev nD) (t : Fin cfg32.N) : (iblk32 V c 3 t : S1x64.Idx → Elt F .f32) = V c (Pipeline.arrRef spec32 3) := by
  obtain ⟨-, -, -, -, -, -, e0, e1, -⟩ := idx32 t
  funext y
  show V c (Pipeline.arrRef spec32 3) (((cfg32.win 3).blk t).view.emb y) = V c (Pipeline.arrRef spec32 3) y
  refine congrArg _ (funext fun a => Fin.ext ?_)
  match a with
  | ⟨0, _⟩ => show win32_3.index t (0 : Fin 2) * 1 + 1 * (y 0).val = (y 0).val; omega
  | ⟨1, _⟩ => show win32_3.index t (1 : Fin 2) * 64 + 1 * (y 1).val = (y 1).val; omega
theorem iblk32_4_eq (c : Dev nD) (t : Fin cfg32.N) : (iblk32 V c 4 t : S1x64.Idx → Elt F .f32) = V c (Pipeline.arrRef spec32 4) := by
  obtain ⟨-, -, -, -, -, -, -, -, e0, e1, -⟩ := idx32 t
  funext y
  show V c (Pipeline.arrRef spec32 4) (((cfg32.win 4).blk t).view.emb y) = V c (Pipeline.arrRef spec32 4) y
  refine congrArg _ (funext fun a => Fin.ext ?_)
  match a with
  | ⟨0, _⟩ => show win32_4.index t (0 : Fin 2) * 1 + 1 * (y 0).val = (y 0).val; omega
  | ⟨1, _⟩ => show win32_4.index t (1 : Fin 2) * 64 + 1 * (y 1).val = (y 1).val; omega

set_option maxHeartbeats 1000000 in
/-- What point t writes back is block t of the output array. -/
theorem flushed32_eq (c : Dev nD) (t : Fin cfg32.N) :
    (dat32 V c).flushed 5 t = ((cfg32.win 5).blk t).view.read (Elt F)
      (G32 (V c (Pipeline.arrRef spec32 0)) (V c (Pipeline.arrRef spec32 1)) (V c (Pipeline.arrRef spec32 2))
        (V c (Pipeline.arrRef spec32 3)) (V c (Pipeline.arrRef spec32 4))) := by
  show (cfg32.win 5).cut (grid32.coords t) ((dat32 V c).after 5 t) = _
  rw [after32_5]
  unfold out32_5
  rw [View.canon_unit_zero hz32]
  simp only [View.ld_unit_zero (S := S2000x64) hz32, View.ld_unit_zero (S := S1x64) hz32]
  rw [pay32_eq, iblk32_0_eq, iblk32_1_eq, iblk32_2_eq, iblk32_3_eq, iblk32_4_eq]
  obtain ⟨-, -, -, -, -, -, -, -, -, -, e0, e1⟩ := idx32 t
  funext j
  show P32 (rows32 _ (t.cast N_32)) _ _ _ _ j = G32 _ _ _ _ _ (((cfg32.win 5).blk t).view.emb j)
  refine (G32_blk _ _ _ _ _ (t.cast N_32) j (((cfg32.win 5).blk t).view.emb j) ?_ ?_).symm
  · show win32_5.index t (0 : Fin 2) * 2000 + 1 * (j 0).val = t.val * 2000 + (j 0).val; omega
  · show win32_5.index t (1 : Fin 2) * 64 + 1 * (j 1).val = (j 1).val; omega

/-- An entry of the array is in point t's block iff each coordinate is in the block's range on its axis. -/
theorem mem_blk32 (t : Fin cfg32.N) (i : S50000x64.Idx) :
    i ∈ ((cfg32.win 5).blk t).view.set ↔ ∀ a : Fin 2, win32_5.index t a * S2000x64.size a ≤ (i a).val ∧ (i a).val < win32_5.index t a * S2000x64.size a + S2000x64.size a := by
  show i ∈ ((View.whole main_v301).slice (win32_5.rect t)).set ↔ _
  rw [View.set_slice_whole, Rect.mem_set_unit]
  exact Iff.rfl

/-- Every entry is in the block of the point numbered by its row over 2000. -/
theorem covered32 (i : S50000x64.Idx) : ∃ t : Fin cfg32.N, (cfg32.win 5).flush t = true ∧ i ∈ ((cfg32.win 5).blk t).view.set := by
  have hi0 : (i 0).val < 50000 := idx2_lt0 i
  have hi1 : (i 1).val < 64 := idx2_lt1 i
  have ht : ∃ t : Fin cfg32.N, t.val = (i 0).val / 2000 := ⟨(⟨(i 0).val / 2000, by omega⟩ : Fin 25).cast N_32.symm, rfl⟩
  obtain ⟨t, ht⟩ := ht
  obtain ⟨-, -, -, -, -, -, -, -, -, -, e0, e1⟩ := idx32 t
  refine ⟨t, flush32_5 t, ?_⟩
  rw [mem_blk32]
  intro a
  match a with
  | ⟨0, _⟩ => show win32_5.index t (0 : Fin 2) * 2000 ≤ (i 0).val ∧ (i 0).val < win32_5.index t (0 : Fin 2) * 2000 + 2000; omega
  | ⟨1, _⟩ => show win32_5.index t (1 : Fin 2) * 64 ≤ (i 1).val ∧ (i 1).val < win32_5.index t (1 : Fin 2) * 64 + 64; omega

/-- The output array after the run. -/
theorem final32_5 (c : Dev nD) :
    (dat32 V c).arrAt 5 cfg32.N = G32 (V c (Pipeline.arrRef spec32 0)) (V c (Pipeline.arrRef spec32 1)) (V c (Pipeline.arrRef spec32 2))
      (V c (Pipeline.arrRef spec32 3)) (V c (Pipeline.arrRef spec32 4)) :=
  (dat32 V c).arrAt_eq_of_cover 5 _ (fun t _ => flushed32_eq V c t) covered32

end Region32v

/-! ## The output array over the extended reals, entry by entry -/

section Ideal32

/-- The source entry of a row reduction over a block: the result's row p with k put back on the column axis. -/
theorem lift32 (h : S2000x64.Reduces [1] S2000) (p : Fin 2000) (k : Fin 64) : h.lift (ix1 p) k = ix2 p k := by
  funext a
  match a with
  | ⟨0, _⟩ => exact Fin.ext rfl
  | ⟨1, _⟩ => exact Fin.ext rfl

section Block32
variable (X : Vec Ideal S2000x64 .f32) (mu va ga be : Vec Ideal S1x64 .f32)

/-- The block's batch-norm at an entry. -/
theorem bn32_apply (p : Fin 2000) (k : Fin 64) :
    bn32 (F := Ideal) X mu va ga be (ix2 p k)
      = ((X (ix2 p k) : EReal) - mu (ix2 0 k)) * Ideal.rsqrt (va (ix2 0 k) + Cert.Val.cEps) * ga (ix2 0 k) + be (ix2 0 k) := rfl

/-- A row's maximum: the fold of max over the row, from minus infinity. -/
theorem mx32_apply (p : Fin 2000) :
    mx32 (F := Ideal) X mu va ga be (ix1 p) = Cert.Val.rowMax (fun k : Fin 64 => bn32 (F := Ideal) X mu va ga be (ix2 p k)) := by
  unfold mx32
  refine (Ideal.multiReduction_maximumf_single (bn32 (F := Ideal) X mu va ga be) 0xFF800000#32 reduces_S2000x64_S2000 (.inl rfl) rfl
    (ix1 p)).trans ?_
  have hf : (bn32 (F := Ideal) X mu va ga be ∘ (reduces_S2000x64_S2000).lift (ix1 p))
      = fun k : Fin 64 => bn32 (F := Ideal) X mu va ga be (ix2 p k) :=
    funext fun k => congrArg (bn32 (F := Ideal) X mu va ga be) (lift32 _ p k)
  exact congrArg (fun f => (Finset.univ : Finset (Fin 64)).fold max Cert.Val.cNegInf f) hf

/-- The exponentials at an entry. -/
theorem e32_apply (p : Fin 2000) (k : Fin 64) :
    e32 (F := Ideal) X mu va ga be (ix2 p k)
      = Ideal.exp (bn32 (F := Ideal) X mu va ga be (ix2 p k) - Cert.Val.rowMax (fun k' : Fin 64 => bn32 (F := Ideal) X mu va ga be (ix2 p k'))) := by
  show Ideal.exp (bn32 (F := Ideal) X mu va ga be (ix2 p k) - mx32 (F := Ideal) X mu va ga be (ix1 p)) = _
  rw [mx32_apply]

/-- A row's sum of exponentials: the sum over the row. -/
theorem sm32_apply (p : Fin 2000) :
    sm32 (F := Ideal) X mu va ga be (ix1 p) = ∑ k : Fin 64, e32 (F := Ideal) X mu va ga be (ix2 p k) := by
  unfold sm32
  refine (Ideal.multiReduction_add_single (e32 (F := Ideal) X mu va ga be) 0x00000000#32 reduces_S2000x64_S2000 (.inl rfl) rfl
    (ix1 p)).trans ?_
  exact Finset.sum_congr rfl fun k _ => congrArg (e32 (F := Ideal) X mu va ga be) (lift32 _ p k)

/-- What the body stores, at an entry. -/
theorem P32_apply (p : Fin 2000) (k : Fin 64) :
    P32 (F := Ideal) X mu va ga be (ix2 p k)
      = Ideal.div (e32 (F := Ideal) X mu va ga be (ix2 p k)) (Cert.Val.cOne + sm32 (F := Ideal) X mu va ga be (ix1 p)) := rfl

end Block32

/-- The block that holds row r, read at the row's place, is row r of the array. -/
theorem rows32_at (x : S50000x64.Idx → Elt Ideal .f32) (r : Fin 50000) (q k : Fin 64) :
    rows32 x (blkOf32 (ix2 r q)) (ix2 (rowIn32 (ix2 r q)) k) = x (ix2 r k) := by
  unfold rows32
  refine congrArg x (funext fun a => ?_)
  match a with
  | ⟨0, _⟩ => exact Fin.ext (by show (r.val / 2000) * 2000 + r.val % 2000 = r.val; omega)
  | ⟨1, _⟩ => rfl

/-- THE OUTPUT ARRAY AT AN ENTRY: the row softmax with one added to the denominator, of the batch-norm of row r of
    the activations with the given column statistics, scale and shift. -/
theorem G32_apply (x : S50000x64.Idx → Elt Ideal .f32) (mu va ga be : S1x64.Idx → Elt Ideal .f32) (r : Fin 50000) (q : Fin 64) :
    G32 (F := Ideal) x mu va ga be (ix2 r q)
      = Cert.Val.smOne (fun j' => Cert.Val.bnAt (fun i j => x (ix2 i j)) (fun j => mu (ix2 0 j)) (fun j => va (ix2 0 j))
          (fun j => ga (ix2 0 j)) (fun j => be (ix2 0 j)) r j') q := by
  have hb : ∀ k : Fin 64, bn32 (F := Ideal) (rows32 x (blkOf32 (ix2 r q))) mu va ga be (ix2 (rowIn32 (ix2 r q)) k)
      = Cert.Val.bnAt (fun i j => x (ix2 i j)) (fun j => mu (ix2 0 j)) (fun j => va (ix2 0 j))
          (fun j => ga (ix2 0 j)) (fun j => be (ix2 0 j)) r k := by
    intro k
    rw [bn32_apply, rows32_at]
    rfl
  show P32 (F := Ideal) (rows32 x (blkOf32 (ix2 r q))) mu va ga be (ix2 (rowIn32 (ix2 r q)) q) = _
  rw [P32_apply, sm32_apply]
  simp only [e32_apply, hb]
  rfl

end Ideal32

end Cert.KernelIdeal.Hand

end
-- ==== Proof.KI.R33v.lean ====
import proofs.«408084_j48395691492010_3_alg».proof.Proof.KI.R33
import Idealize.ShloMosaic.Lib.Pipeline.Value
import Idealize.ShloMosaic.Lib.ValueIdx
import Idealize.ShloMosaic.PureOps.Ideal.Laws

/-! # Region 33, read: the output array is the product of the two input arrays

The frame part gives, point by point, the block of products the body leaves in the output window. Here the
blocks are put together: after the last point the output array is one function G33 of the two input arrays
as the region finds them, and at the ideal values entry (r, q) of it is the sum over k of x (r, k) · w (k, q). -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Value33

/-- The contracted extent (columns of X, rows of W) and the number of columns of W. -/
abbrev kdim33 : Nat := 64
abbrev ncol33 : Nat := 64

/-! ## The product as a function of the two arrays

The unit that multiplies is given a block of rows at a time, so the function of the arrays is stated that
way: entry (r, q) is the entry of the product of the block of rows holding row r with W, at that row's
place in the block. At the ideal values a block's product is the sum over the contracted axis, and the
blocks fall away. -/

/-- The block of consecutive rows of x that holds row r, its rows numbered from the block's first. -/
noncomputable def rowsOf33 (x : S50000x64.Idx → Elt F .f32) (r : Fin 50000) : Vec F S2000x64 .f32 :=
  fun y => x (ix2 ⟨r.val / 2000 * 2000 + (y 0).val, by
    have h0 : (y 0).val < 2000 := (y 0).isLt
    have hr := r.isLt
    omega⟩ (y 1))

/-- Entry i of the product: the payload at the block of rows holding row i 0 and at W, read at the row's
    place in its block and column i 1. -/
noncomputable def G33 (x : S50000x64.Idx → Elt F .f32) (w : S64x64.Idx → Elt F .f32) : S50000x64.Idx → Elt F .f32 :=
  fun i => k33_pay1 (rowsOf33 x (i 0)) w (ix2 ⟨(i 0).val % 2000, Nat.mod_lt _ (by decide)⟩ (i 1))

/-- Entry i of the product from ANY description of the block b that holds its row: the block of rows as
    xb, the matrix as wb, the entry's place in the block as j. -/
theorem G33_of_block (x : S50000x64.Idx → Elt F .f32) (w : S64x64.Idx → Elt F .f32) (b : Nat)
    (i : S50000x64.Idx) (j : S2000x64.Idx) (h0 : (i 0).val = b * 2000 + (j 0).val) (h1 : (i 1).val = (j 1).val)
    (xb : Vec F S2000x64 .f32) (wb : Vec F S64x64 .f32) (hw : wb = w)
    (hx : ∀ (y : S2000x64.Idx) (hy : b * 2000 + (y 0).val < 50000), xb y = x (ix2 ⟨b * 2000 + (y 0).val, hy⟩ (y 1))) :
    G33 x w i = k33_pay1 xb wb j := by
  have hj0 : (j 0).val < 2000 := (j 0).isLt
  have hi0 : (i 0).val < 50000 := (i 0).isLt
  have hrows : rowsOf33 x (i 0) = xb := by
    funext y
    have hy0 : (y 0).val < 2000 := (y 0).isLt
    have hq : (i 0).val / 2000 * 2000 = b * 2000 := by omega
    rw [hx y (by omega)]
    unfold rowsOf33
    congr 1
    funext d; apply Fin.ext
    match d with
    | ⟨0, _⟩ => show (i 0).val / 2000 * 2000 + (y 0).val = b * 2000 + (y 0).val; omega
    | ⟨1, _⟩ => rfl
  have hplace : (ix2 ⟨(i 0).val % 2000, Nat.mod_lt _ (by decide)⟩ (i 1) : S2000x64.Idx) = j := by
    funext d; apply Fin.ext
    match d with
    | ⟨0, _⟩ => show (i 0).val % 2000 = (j 0).val; omega
    | ⟨1, _⟩ => exact h1
  unfold G33
  rw [hrows, hplace, hw]

/-! ### The operand indices of the contraction, axis by axis -/

theorem lhsAx33_0 (j : S2000x64.Idx) (k : dot_S2000x64_S64x64_S2000x64_1_0_0_1_n_n.contr.Idx) :
    (dot_S2000x64_S64x64_S2000x64_1_0_0_1_n_n.lhsIdx j k (0 : Fin 2)).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

theorem lhsAx33_1 (j : S2000x64.Idx) (k : dot_S2000x64_S64x64_S2000x64_1_0_0_1_n_n.contr.Idx) :
    (dot_S2000x64_S64x64_S2000x64_1_0_0_1_n_n.lhsIdx j k (1 : Fin 2)).val = (k ⟨0, by decide⟩).val :=
  dot_S2000x64_S64x64_S2000x64_1_0_0_1_n_n.lhsIdx_val_of_single (cl := (1 : Fin 2)) rfl j k

theorem rhsAx33_0 (j : S2000x64.Idx) (k : dot_S2000x64_S64x64_S2000x64_1_0_0_1_n_n.contr.Idx) :
    (dot_S2000x64_S64x64_S2000x64_1_0_0_1_n_n.rhsIdx j k (0 : Fin 2)).val = (k ⟨0, by decide⟩).val :=
  dot_S2000x64_S64x64_S2000x64_1_0_0_1_n_n.rhsIdx_val_of_single (cr := (0 : Fin 2)) rfl j k

theorem rhsAx33_1 (j : S2000x64.Idx) (k : dot_S2000x64_S64x64_S2000x64_1_0_0_1_n_n.contr.Idx) :
    (dot_S2000x64_S64x64_S2000x64_1_0_0_1_n_n.rhsIdx j k (1 : Fin 2)).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The payload at the ideal values, at an index: the sum over the contracted axis. -/
theorem k33_pay1_apply (a : Vec Ideal S2000x64 .f32) (b : Vec Ideal S64x64 .f32) (p : Fin 2000) (q : Fin ncol33) :
    k33_pay1 (F := Ideal) a b (ix2 p q) = ∑ k : Fin kdim33, a (ix2 p k) * b (ix2 k q) := by
  unfold k33_pay1
  simp only [shapeCast_self]
  refine (Ideal.matmul_constant_zero_apply _ _ _ _ _).trans ?_
  rw [← Equiv.sum_comp (contrEquiv1 dot_S2000x64_S64x64_S2000x64_1_0_0_1_n_n kdim33 rfl rfl).symm]
  refine Finset.sum_congr rfl fun k _ => ?_
  have hl : dot_S2000x64_S64x64_S2000x64_1_0_0_1_n_n.lhsIdx (ix2 p q) ((contrEquiv1 dot_S2000x64_S64x64_S2000x64_1_0_0_1_n_n kdim33 rfl rfl).symm k) = ix2 p k := by
    funext d; apply Fin.ext
    match d with
    | ⟨0, _⟩ => exact lhsAx33_0 _ _
    | ⟨1, _⟩ => exact (lhsAx33_1 _ _).trans (contrEquiv1_symm_val _ kdim33 rfl rfl k)
  have hr : dot_S2000x64_S64x64_S2000x64_1_0_0_1_n_n.rhsIdx (ix2 p q) ((contrEquiv1 dot_S2000x64_S64x64_S2000x64_1_0_0_1_n_n kdim33 rfl rfl).symm k) = ix2 k q := by
    funext d; apply Fin.ext
    match d with
    | ⟨0, _⟩ => exact (rhsAx33_0 _ _).trans (contrEquiv1_symm_val _ kdim33 rfl rfl k)
    | ⟨1, _⟩ => exact rhsAx33_1 _ _
  rw [hl, hr]

/-- Entry (r, q) of the product at the ideal values: the sum over k of x (r, k) · w (k, q). -/
theorem G33_apply (x : S50000x64.Idx → Elt Ideal .f32) (w : S64x64.Idx → Elt Ideal .f32) (r : Fin 50000) (q : Fin ncol33) :
    G33 (F := Ideal) x w (ix2 r q) = ∑ k : Fin kdim33, x (ix2 r k) * w (ix2 k q) := by
  unfold G33
  rw [k33_pay1_apply]
  refine Finset.sum_congr rfl fun k _ => ?_
  unfold rowsOf33
  have hrow : (ix2 (⟨r.val / 2000 * 2000 + r.val % 2000, by have := r.isLt; omega⟩ : Fin 50000) k : S50000x64.Idx) = ix2 r k := by
    funext d; apply Fin.ext
    match d with
    | ⟨0, _⟩ => show r.val / 2000 * 2000 + r.val % 2000 = r.val; omega
    | ⟨1, _⟩ => rfl
  exact congrArg (fun z => x z * w (ix2 k q)) hrow

end Value33

/-! ## From the blocks written back to the array -/

section Final33
variable (V : (c : Dev nD) → (b : Ref sig .tc) → Buf (Elt F) ((c : Thread nD τ).loc b))

theorem hz33 : (![0, 0] : Fin 2 → Nat) = fun _ => 0 := funext fun a => by fin_cases a <;> rfl

/-- The index maps over the grid: the rows of X and of the product move with the point, one block a point;
    W stays; no window moves along its columns. -/
theorem idx_facts33 : ∀ t : Fin cfg33.N,
    win33_0.index t (0 : Fin 2) = t.val ∧ win33_0.index t (1 : Fin 2) = 0
    ∧ win33_1.index t (0 : Fin 2) = 0 ∧ win33_1.index t (1 : Fin 2) = 0
    ∧ win33_2.index t (0 : Fin 2) = t.val ∧ win33_2.index t (1 : Fin 2) = 0 :=
  (by decide +kernel : ∀ t : Fin grid33.N, _)

/-- What point t writes back is block t of the product of the arrays as the region finds them. -/
theorem flushed33_2_eq (c : Dev nD) (t : Fin cfg33.N) :
    (dat33 V c).flushed 2 t = ((cfg33.win 2).blk t).view.read (Elt F) (G33 (V c (Pipeline.arrRef spec33 0)) (V c (Pipeline.arrRef spec33 1))) := by
  show (cfg33.win 2).cut (grid33.coords t) ((dat33 V c).after 2 t) = _
  rw [after33_2]
  unfold out33_2
  rw [View.canon_unit_zero hz33]
  simp only [View.ld_unit_zero (S := S2000x64) hz33, View.ld_unit_zero (S := S64x64) hz33]
  obtain ⟨e0, e1, e2, e3, e4, e5⟩ := idx_facts33 t
  funext j
  show k33_pay1 (iblk33 V c 0 t) (iblk33 V c 1 t) j = G33 (V c (Pipeline.arrRef spec33 0)) (V c (Pipeline.arrRef spec33 1)) (((cfg33.win 2).blk t).view.emb j)
  refine (G33_of_block _ _ t.val _ j ?_ ?_ _ _ ?_ ?_).symm
  · show win33_2.index t (0 : Fin 2) * 2000 + 1 * (j 0).val = t.val * 2000 + (j 0).val
    rw [e4]; omega
  · show win33_2.index t (1 : Fin 2) * S2000x64.size 1 + 1 * (j 1).val = (j 1).val
    rw [e5]; omega
  · funext y
    show V c (Pipeline.arrRef spec33 1) (((cfg33.win 1).blk t).view.emb y) = V c (Pipeline.arrRef spec33 1) y
    congr 1
    funext d; apply Fin.ext
    match d with
    | ⟨0, _⟩ => show win33_1.index t (0 : Fin 2) * S64x64.size 0 + 1 * (y 0).val = (y 0).val; rw [e2]; omega
    | ⟨1, _⟩ => show win33_1.index t (1 : Fin 2) * S64x64.size 1 + 1 * (y 1).val = (y 1).val; rw [e3]; omega
  · intro y hy
    show V c (Pipeline.arrRef spec33 0) (((cfg33.win 0).blk t).view.emb y) = V c (Pipeline.arrRef spec33 0) (ix2 ⟨t.val * 2000 + (y 0).val, hy⟩ (y 1))
    congr 1
    funext d; apply Fin.ext
    match d with
    | ⟨0, _⟩ => show win33_0.index t (0 : Fin 2) * 2000 + 1 * (y 0).val = t.val * 2000 + (y 0).val; rw [e0]; omega
    | ⟨1, _⟩ => show win33_0.index t (1 : Fin 2) * S2000x64.size 1 + 1 * (y 1).val = (y 1).val; rw [e1]; omega

/-- An index of the array is in point t's block iff each coordinate is in the block's range on its axis. -/
theorem mem_blk33_2 (t : Fin cfg33.N) (i : S50000x64.Idx) :
    i ∈ ((cfg33.win 2).blk t).view.set ↔ ∀ a : Fin 2, win33_2.index t a * S2000x64.size a ≤ (i a).val ∧ (i a).val < win33_2.index t a * S2000x64.size a + S2000x64.size a := by
  show i ∈ ((View.whole (Pipeline.arrRef spec33 2)).slice (win33_2.rect t)).set ↔ _
  rw [View.set_slice_whole, Rect.mem_set_unit]
  exact Iff.rfl

/-- Every index of the array is in some point's block: row r in the block of point r / 2000. -/
theorem covered33_2 (i : S50000x64.Idx) :
    ∃ t : Fin cfg33.N, (cfg33.win 2).flush t = true ∧ i ∈ ((cfg33.win 2).blk t).view.set := by
  have hi0 : (i 0).val < 50000 := (i 0).isLt
  refine ⟨⟨(i 0).val / 2000, by rw [show cfg33.N = 25 from N_33]; omega⟩, flush33_2 _, ?_⟩
  obtain ⟨e0, e1, e2, e3, e4, e5⟩ := idx_facts33 ⟨(i 0).val / 2000, by rw [show cfg33.N = 25 from N_33]; omega⟩
  rw [mem_blk33_2]
  intro a
  match a with
  | ⟨0, _⟩ =>
    show win33_2.index _ (0 : Fin 2) * 2000 ≤ (i 0).val ∧ (i 0).val < win33_2.index _ (0 : Fin 2) * 2000 + 2000
    rw [e4]; show (i 0).val / 2000 * 2000 ≤ (i 0).val ∧ (i 0).val < (i 0).val / 2000 * 2000 + 2000; omega
  | ⟨1, _⟩ =>
    show win33_2.index _ (1 : Fin 2) * S2000x64.size 1 ≤ (i 1).val ∧ (i 1).val < win33_2.index _ (1 : Fin 2) * S2000x64.size 1 + S2000x64.size 1
    rw [e5, Nat.zero_mul, Nat.zero_add]; exact ⟨Nat.zero_le _, (i 1).isLt⟩

/-- The output array after the last point is the product of the two input arrays as the region finds them. -/
theorem final33_2 (c : Dev nD) :
    (dat33 V c).arrAt 2 cfg33.N = G33 (V c (Pipeline.arrRef spec33 0)) (V c (Pipeline.arrRef spec33 1)) :=
  (dat33 V c).arrAt_eq_of_cover 2 (G33 (V c (Pipeline.arrRef spec33 0)) (V c (Pipeline.arrRef spec33 1)))
    (fun t _ => flushed33_2_eq V c t) covered33_2

end Final33

end Cert.KernelIdeal.Hand

end
-- ==== Proof.KI.R34v.lean ====
import proofs.«408084_j48395691492010_3_alg».proof.Proof.KI.R34
import proofs.«408084_j48395691492010_3_alg».proof.Proof.KI.R14v
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! Region 34, the values. The kernel is region 14's word for word, so what each control case leaves in the buffers,
the row tiles, the fold and the three results as functions of the three arrays (G14_3, G14_4, G14_5) are region 14's;
here they are read at this region's windows: the blocks of its arrays, what its buffers hold after each point, and
its three result arrays after the last point. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The arrays and their blocks, at their literal types -/

/-- The array of the aggregated rows, as the region finds it, -/
noncomputable abbrev xarr34 (c : Dev nD) : Vec F S50000x64 .f32 := V c (Pipeline.arrRef spec34 0)
/-- the bias row, -/
noncomputable abbrev barr34 (c : Dev nD) : Vec F S1x64 .f32 := V c (Pipeline.arrRef spec34 1)
/-- and the carried-in array. -/
noncomputable abbrev carr34 (c : Dev nD) : Vec F S50000x64 .f32 := V c (Pipeline.arrRef spec34 2)

/-- The row-tile windows' block index is the grid point; the one-row windows never move. -/
theorem index34_0 : ∀ t : Fin cfg34.N, win34_0.index t 0 = t.val ∧ win34_0.index t 1 = 0 :=
  (by decide +kernel : ∀ t : Fin grid34.N, win34_0.index t 0 = t.val ∧ win34_0.index t 1 = 0)
theorem index34_1 : ∀ t : Fin cfg34.N, win34_1.index t 0 = 0 ∧ win34_1.index t 1 = 0 :=
  (by decide +kernel : ∀ t : Fin grid34.N, win34_1.index t 0 = 0 ∧ win34_1.index t 1 = 0)
theorem index34_2 : ∀ t : Fin cfg34.N, win34_2.index t 0 = t.val ∧ win34_2.index t 1 = 0 :=
  (by decide +kernel : ∀ t : Fin grid34.N, win34_2.index t 0 = t.val ∧ win34_2.index t 1 = 0)
theorem index34_3 : ∀ t : Fin cfg34.N, win34_3.index t 0 = t.val ∧ win34_3.index t 1 = 0 :=
  (by decide +kernel : ∀ t : Fin grid34.N, win34_3.index t 0 = t.val ∧ win34_3.index t 1 = 0)
theorem index34_4 : ∀ t : Fin cfg34.N, win34_4.index t 0 = t.val ∧ win34_4.index t 1 = 0 :=
  (by decide +kernel : ∀ t : Fin grid34.N, win34_4.index t 0 = t.val ∧ win34_4.index t 1 = 0)
theorem index34_5 : ∀ t : Fin cfg34.N, win34_5.index t 0 = 0 ∧ win34_5.index t 1 = 0 :=
  (by decide +kernel : ∀ t : Fin grid34.N, win34_5.index t 0 = 0 ∧ win34_5.index t 1 = 0)
theorem xsize34_5 : ∀ t : Fin cfg34.N, win34_5.xsize (grid34.coords t) 0 = 1 ∧ win34_5.xsize (grid34.coords t) 1 = 64 :=
  (by decide +kernel : ∀ t : Fin grid34.N, win34_5.xsize (grid34.coords t) 0 = 1 ∧ win34_5.xsize (grid34.coords t) 1 = 64)

/-- The aggregate window's block at point t is row tile t of its array. -/
theorem xblk34_eq (c : Dev nD) (t : Fin cfg34.N) (hN : t.val < 25) :
    (iblk34 V c 0 t : Vec F S2000x64 .f32) = tile14 (xarr34 V c) ⟨t.val, hN⟩ := by
  have hi := index34_0 t
  funext j
  unfold iblk34 tile14
  rw [View.read_apply]
  show V c (Pipeline.arrRef spec34 0) _ = V c (Pipeline.arrRef spec34 0) _
  congr 1
  funext a
  apply Fin.ext
  match a with
  | ⟨0, _⟩ => show win34_0.index t 0 * 2000 + 1 * (j 0).val = 2000 * t.val + (j 0).val; rw [hi.1]; omega
  | ⟨1, _⟩ => show win34_0.index t 1 * 64 + 1 * (j 1).val = (j 1).val; rw [hi.2]; omega

/-- The bias window's block is the whole one-row array, at every point. -/
theorem bblk34_eq (c : Dev nD) (t : Fin cfg34.N) : (iblk34 V c 1 t : Vec F S1x64 .f32) = barr34 V c := by
  have hi := index34_1 t
  funext j
  unfold iblk34
  rw [View.read_apply]
  show V c (Pipeline.arrRef spec34 1) _ = V c (Pipeline.arrRef spec34 1) j
  congr 1
  funext a
  apply Fin.ext
  match a with
  | ⟨0, _⟩ => show win34_1.index t 0 * 1 + 1 * (j 0).val = (j 0).val; rw [hi.1]; omega
  | ⟨1, _⟩ => show win34_1.index t 1 * 64 + 1 * (j 1).val = (j 1).val; rw [hi.2]; omega

/-- The carried-in window's block at point t is row tile t of its array. -/
theorem cblk34_eq (c : Dev nD) (t : Fin cfg34.N) (hN : t.val < 25) :
    (iblk34 V c 2 t : Vec F S2000x64 .f32) = tile14 (carr34 V c) ⟨t.val, hN⟩ := by
  have hi := index34_2 t
  funext j
  unfold iblk34 tile14
  rw [View.read_apply]
  show V c (Pipeline.arrRef spec34 2) _ = V c (Pipeline.arrRef spec34 2) _
  congr 1
  funext a
  apply Fin.ext
  match a with
  | ⟨0, _⟩ => show win34_2.index t 0 * 2000 + 1 * (j 0).val = 2000 * t.val + (j 0).val; rw [hi.1]; omega
  | ⟨1, _⟩ => show win34_2.index t 1 * 64 + 1 * (j 1).val = (j 1).val; rw [hi.2]; omega

/-! ## What the buffers hold after each point -/

/-- The first full-size result's buffer after point n. -/
theorem outsAt34_pre (c : Dev nD) : ∀ (n : ℕ) (h : n < cfg34.N) (h' : n < 25),
    (outsAt34 V c n h).1 = k14_pay3 (tile14 (xarr34 V c) ⟨n, h'⟩) (barr34 V c) (tile14 (carr34 V c) ⟨n, h'⟩)
  | 0, h, h' => by
    rw [outsAt34_A V c ⟨0, h⟩ (Nat.zero_mod 25) (fun e => by have e' : (0 : ℕ) % 25 = 24 := e; omega)]
    dsimp only
    rw [out14_A_3_eq, xblk34_eq V c ⟨0, h⟩ h', bblk34_eq V c ⟨0, h⟩, cblk34_eq V c ⟨0, h⟩ h']
  | n + 1, h, h' => by
    have hm : (n + 1) % 25 = n + 1 := Nat.mod_eq_of_lt h'
    by_cases h24 : n + 1 = 24
    · rw [outsAt34_C V c ⟨n + 1, h⟩ (fun e => by have e' : (n + 1) % 25 = 0 := e; omega) (by show (n + 1) % 25 = 24; omega)]
      dsimp only
      rw [out14_C_3_eq, xblk34_eq V c ⟨n + 1, h⟩ h', bblk34_eq V c ⟨n + 1, h⟩, cblk34_eq V c ⟨n + 1, h⟩ h']
    · rw [outsAt34_B V c ⟨n + 1, h⟩ (fun e => by have e' : (n + 1) % 25 = 0 := e; omega) (fun e => by have e' : (n + 1) % 25 = 24 := e; omega)]
      dsimp only
      rw [out14_B_3_eq, xblk34_eq V c ⟨n + 1, h⟩ h', bblk34_eq V c ⟨n + 1, h⟩, cblk34_eq V c ⟨n + 1, h⟩ h']

/-- The second full-size result's buffer after point n. -/
theorem outsAt34_cum (c : Dev nD) : ∀ (n : ℕ) (h : n < cfg34.N) (h' : n < 25),
    (outsAt34 V c n h).2.1 = k14_pay4 (tile14 (xarr34 V c) ⟨n, h'⟩) (barr34 V c) (tile14 (carr34 V c) ⟨n, h'⟩)
  | 0, h, h' => by
    rw [outsAt34_A V c ⟨0, h⟩ (Nat.zero_mod 25) (fun e => by have e' : (0 : ℕ) % 25 = 24 := e; omega)]
    dsimp only
    rw [out14_A_4_eq, xblk34_eq V c ⟨0, h⟩ h', bblk34_eq V c ⟨0, h⟩, cblk34_eq V c ⟨0, h⟩ h']
  | n + 1, h, h' => by
    have hm : (n + 1) % 25 = n + 1 := Nat.mod_eq_of_lt h'
    by_cases h24 : n + 1 = 24
    · rw [outsAt34_C V c ⟨n + 1, h⟩ (fun e => by have e' : (n + 1) % 25 = 0 := e; omega) (by show (n + 1) % 25 = 24; omega)]
      dsimp only
      rw [out14_C_4_eq, xblk34_eq V c ⟨n + 1, h⟩ h', bblk34_eq V c ⟨n + 1, h⟩, cblk34_eq V c ⟨n + 1, h⟩ h']
    · rw [outsAt34_B V c ⟨n + 1, h⟩ (fun e => by have e' : (n + 1) % 25 = 0 := e; omega) (fun e => by have e' : (n + 1) % 25 = 24 := e; omega)]
      dsimp only
      rw [out14_B_4_eq, xblk34_eq V c ⟨n + 1, h⟩ h', bblk34_eq V c ⟨n + 1, h⟩, cblk34_eq V c ⟨n + 1, h⟩ h']

/-- What the accumulator holds after point n is the fold up to tile n: by induction on the point. -/
theorem outsAt34_acc (c : Dev nD) : ∀ (n : ℕ) (h : n < cfg34.N) (h' : n < 25),
    (outsAt34 V c n h).2.2.2 = acc14 (xarr34 V c) (barr34 V c) (carr34 V c) n h'
  | 0, h, h' => by
    rw [outsAt34_A V c ⟨0, h⟩ (Nat.zero_mod 25) (fun e => by have e' : (0 : ℕ) % 25 = 24 := e; omega)]
    dsimp only
    rw [sout14_A_0_eq, xblk34_eq V c ⟨0, h⟩ h', bblk34_eq V c ⟨0, h⟩, cblk34_eq V c ⟨0, h⟩ h']
    rfl
  | n + 1, h, h' => by
    have ih := outsAt34_acc c n (Nat.lt_of_succ_lt h) (Nat.lt_of_succ_lt h')
    have hm : (n + 1) % 25 = n + 1 := Nat.mod_eq_of_lt h'
    by_cases h24 : n + 1 = 24
    · rw [outsAt34_C V c ⟨n + 1, h⟩ (fun e => by have e' : (n + 1) % 25 = 0 := e; omega) (by show (n + 1) % 25 = 24; omega)]
      dsimp only
      rw [sout14_C_0_eq, xblk34_eq V c ⟨n + 1, h⟩ h', bblk34_eq V c ⟨n + 1, h⟩, cblk34_eq V c ⟨n + 1, h⟩ h']
      show k14_pay5 _ _ _ (outsAt34 V c n _).2.2.2 = k14_pay5 _ _ _ (acc14 _ _ _ n _)
      rw [ih]
    · rw [outsAt34_B V c ⟨n + 1, h⟩ (fun e => by have e' : (n + 1) % 25 = 0 := e; omega) (fun e => by have e' : (n + 1) % 25 = 24 := e; omega)]
      dsimp only
      rw [sout14_B_0_eq, xblk34_eq V c ⟨n + 1, h⟩ h', bblk34_eq V c ⟨n + 1, h⟩, cblk34_eq V c ⟨n + 1, h⟩ h']
      show k14_pay5 _ _ _ (outsAt34 V c n _).2.2.2 = k14_pay5 _ _ _ (acc14 _ _ _ n _)
      rw [ih]

/-- At the last point the one-row result's buffer is left holding the whole fold. -/
theorem outsAt34_last (c : Dev nD) (t : Fin cfg34.N) (h24 : t.val = 24) :
    (outsAt34 V c t.val t.isLt).2.2.1 = G14_5 (xarr34 V c) (barr34 V c) (carr34 V c) := by
  obtain ⟨n, hn⟩ := t
  obtain rfl : n = 24 := h24
  rw [outsAt34_C V c ⟨24, hn⟩ (fun e => by have e' : (24 : ℕ) % 25 = 0 := e; omega) (by show (24 : ℕ) % 25 = 24; omega)]
  dsimp only
  rw [out14_C_5_eq, xblk34_eq V c ⟨24, hn⟩ (by show (24 : ℕ) < 25; omega), bblk34_eq V c ⟨24, hn⟩, cblk34_eq V c ⟨24, hn⟩ (by show (24 : ℕ) < 25; omega)]
  show k14_pay5 _ _ _ (outsAt34 V c 23 _).2.2.2 = k14_pay5 _ _ _ (acc14 _ _ _ 23 _)
  rw [outsAt34_acc V c 23 _ (by decide)]

/-! ## The full-size result arrays after the run -/

/-- What point t writes back of the first full-size result array is block t of G14_3 of the arrays. -/
theorem flushed34_3 (c : Dev nD) (t : Fin cfg34.N) :
    (dat34 V c).flushed 3 t = ((cfg34.win 3).blk t).view.read (Elt F) (G14_3 (xarr34 V c) (barr34 V c) (carr34 V c)) := by
  have hN : t.val < 25 := lt_of_lt_of_eq t.isLt (show cfg34.N = 25 from N_34)
  have hi := index34_3 t
  show (cfg34.win 3).cut (grid34.coords t) ((dat34 V c).after 3 t) = _
  rw [after34_3, outsAt34_pre V c t.val t.isLt hN]
  funext j
  have hj0 : (j 0).val < 2000 := (j 0).isLt
  show k14_pay3 (tile14 (xarr34 V c) ⟨t.val, hN⟩) (barr34 V c) (tile14 (carr34 V c) ⟨t.val, hN⟩) j = G14_3 (xarr34 V c) (barr34 V c) (carr34 V c) (((cfg34.win 3).blk t).view.emb j)
  have hrow : ((((cfg34.win 3).blk t).view.emb j : S50000x64.Idx) 0).val = t.val * 2000 + (j 0).val := by
    show win34_3.index t 0 * 2000 + 1 * (j 0).val = t.val * 2000 + (j 0).val
    rw [hi.1]; omega
  have hcol : ((((cfg34.win 3).blk t).view.emb j : S50000x64.Idx) 1).val = (j 1).val := by
    show win34_3.index t 1 * 64 + 1 * (j 1).val = (j 1).val
    rw [hi.2]; omega
  unfold G14_3
  have htile : (⟨((((cfg34.win 3).blk t).view.emb j : S50000x64.Idx) 0).val / 2000, by have := idx2_lt0 (((cfg34.win 3).blk t).view.emb j : S50000x64.Idx); omega⟩ : Fin 25) = ⟨t.val, hN⟩ :=
    Fin.ext (by show ((((cfg34.win 3).blk t).view.emb j : S50000x64.Idx) 0).val / 2000 = t.val; rw [hrow]; omega)
  have hplace : (ix2 ⟨((((cfg34.win 3).blk t).view.emb j : S50000x64.Idx) 0).val % 2000, Nat.mod_lt _ (by decide)⟩ ((((cfg34.win 3).blk t).view.emb j : S50000x64.Idx) 1) : S2000x64.Idx) = j := by
    funext d; apply Fin.ext
    match d with
    | ⟨0, _⟩ => show ((((cfg34.win 3).blk t).view.emb j : S50000x64.Idx) 0).val % 2000 = (j 0).val; rw [hrow]; omega
    | ⟨1, _⟩ => exact hcol
  rw [htile, hplace]

/-- An index of the array is in point t's block iff each coordinate is in the block's range on its axis. -/
theorem mem_blk34_3 (t : Fin cfg34.N) (i : S50000x64.Idx) :
    i ∈ ((cfg34.win 3).blk t).view.set ↔ ∀ a : Fin 2, win34_3.index t a * S2000x64.size a ≤ (i a).val ∧ (i a).val < win34_3.index t a * S2000x64.size a + S2000x64.size a := by
  show i ∈ ((View.whole (Pipeline.arrRef spec34 3)).slice (win34_3.rect t)).set ↔ _
  rw [View.set_slice_whole, Rect.mem_set_unit]
  exact Iff.rfl

/-- Every index of the array is in some point's block: row r in the block of point r / 2000. -/
theorem covered34_3 (i : S50000x64.Idx) :
    ∃ t : Fin cfg34.N, (cfg34.win 3).flush t = true ∧ i ∈ ((cfg34.win 3).blk t).view.set := by
  have hi0 : (i 0).val < 50000 := (i 0).isLt
  refine ⟨⟨(i 0).val / 2000, by rw [show cfg34.N = 25 from N_34]; omega⟩, flush34_3 _, ?_⟩
  have hi := index34_3 ⟨(i 0).val / 2000, by rw [show cfg34.N = 25 from N_34]; omega⟩
  rw [mem_blk34_3]
  intro a
  match a with
  | ⟨0, _⟩ =>
    show win34_3.index _ 0 * 2000 ≤ (i 0).val ∧ (i 0).val < win34_3.index _ 0 * 2000 + 2000
    rw [hi.1]; show (i 0).val / 2000 * 2000 ≤ (i 0).val ∧ (i 0).val < (i 0).val / 2000 * 2000 + 2000; omega
  | ⟨1, _⟩ =>
    show win34_3.index _ 1 * S2000x64.size 1 ≤ (i 1).val ∧ (i 1).val < win34_3.index _ 1 * S2000x64.size 1 + S2000x64.size 1
    rw [hi.2, Nat.zero_mul, Nat.zero_add]; exact ⟨Nat.zero_le _, (i 1).isLt⟩

/-- So the first full-size result array ends holding G14_3 of the three arrays. -/
theorem final34_3 (c : Dev nD) :
    (dat34 V c).arrAt 3 cfg34.N = G14_3 (V c (Pipeline.arrRef spec34 0)) (V c (Pipeline.arrRef spec34 1)) (V c (Pipeline.arrRef spec34 2)) :=
  (dat34 V c).arrAt_eq_of_cover 3 (G14_3 (xarr34 V c) (barr34 V c) (carr34 V c)) (fun t _ => flushed34_3 V c t) covered34_3

/-- What point t writes back of the second full-size result array is block t of G14_4 of the arrays. -/
theorem flushed34_4 (c : Dev nD) (t : Fin cfg34.N) :
    (dat34 V c).flushed 4 t = ((cfg34.win 4).blk t).view.read (Elt F) (G14_4 (xarr34 V c) (barr34 V c) (carr34 V c)) := by
  have hN : t.val < 25 := lt_of_lt_of_eq t.isLt (show cfg34.N = 25 from N_34)
  have hi := index34_4 t
  show (cfg34.win 4).cut (grid34.coords t) ((dat34 V c).after 4 t) = _
  rw [after34_4, outsAt34_cum V c t.val t.isLt hN]
  funext j
  have hj0 : (j 0).val < 2000 := (j 0).isLt
  show k14_pay4 (tile14 (xarr34 V c) ⟨t.val, hN⟩) (barr34 V c) (tile14 (carr34 V c) ⟨t.val, hN⟩) j = G14_4 (xarr34 V c) (barr34 V c) (carr34 V c) (((cfg34.win 4).blk t).view.emb j)
  have hrow : ((((cfg34.win 4).blk t).view.emb j : S50000x64.Idx) 0).val = t.val * 2000 + (j 0).val := by
    show win34_4.index t 0 * 2000 + 1 * (j 0).val = t.val * 2000 + (j 0).val
    rw [hi.1]; omega
  have hcol : ((((cfg34.win 4).blk t).view.emb j : S50000x64.Idx) 1).val = (j 1).val := by
    show win34_4.index t 1 * 64 + 1 * (j 1).val = (j 1).val
    rw [hi.2]; omega
  unfold G14_4
  have htile : (⟨((((cfg34.win 4).blk t).view.emb j : S50000x64.Idx) 0).val / 2000, by have := idx2_lt0 (((cfg34.win 4).blk t).view.emb j : S50000x64.Idx); omega⟩ : Fin 25) = ⟨t.val, hN⟩ :=
    Fin.ext (by show ((((cfg34.win 4).blk t).view.emb j : S50000x64.Idx) 0).val / 2000 = t.val; rw [hrow]; omega)
  have hplace : (ix2 ⟨((((cfg34.win 4).blk t).view.emb j : S50000x64.Idx) 0).val % 2000, Nat.mod_lt _ (by decide)⟩ ((((cfg34.win 4).blk t).view.emb j : S50000x64.Idx) 1) : S2000x64.Idx) = j := by
    funext d; apply Fin.ext
    match d with
    | ⟨0, _⟩ => show ((((cfg34.win 4).blk t).view.emb j : S50000x64.Idx) 0).val % 2000 = (j 0).val; rw [hrow]; omega
    | ⟨1, _⟩ => exact hcol
  rw [htile, hplace]

/-- An index of the array is in point t's block iff each coordinate is in the block's range on its axis. -/
theorem mem_blk34_4 (t : Fin cfg34.N) (i : S50000x64.Idx) :
    i ∈ ((cfg34.win 4).blk t).view.set ↔ ∀ a : Fin 2, win34_4.index t a * S2000x64.size a ≤ (i a).val ∧ (i a).val < win34_4.index t a * S2000x64.size a + S2000x64.size a := by
  show i ∈ ((View.whole (Pipeline.arrRef spec34 4)).slice (win34_4.rect t)).set ↔ _
  rw [View.set_slice_whole, Rect.mem_set_unit]
  exact Iff.rfl

/-- Every index of the array is in some point's block: row r in the block of point r / 2000. -/
theorem covered34_4 (i : S50000x64.Idx) :
    ∃ t : Fin cfg34.N, (cfg34.win 4).flush t = true ∧ i ∈ ((cfg34.win 4).blk t).view.set := by
  have hi0 : (i 0).val < 50000 := (i 0).isLt
  refine ⟨⟨(i 0).val / 2000, by rw [show cfg34.N = 25 from N_34]; omega⟩, flush34_4 _, ?_⟩
  have hi := index34_4 ⟨(i 0).val / 2000, by rw [show cfg34.N = 25 from N_34]; omega⟩
  rw [mem_blk34_4]
  intro a
  match a with
  | ⟨0, _⟩ =>
    show win34_4.index _ 0 * 2000 ≤ (i 0).val ∧ (i 0).val < win34_4.index _ 0 * 2000 + 2000
    rw [hi.1]; show (i 0).val / 2000 * 2000 ≤ (i 0).val ∧ (i 0).val < (i 0).val / 2000 * 2000 + 2000; omega
  | ⟨1, _⟩ =>
    show win34_4.index _ 1 * S2000x64.size 1 ≤ (i 1).val ∧ (i 1).val < win34_4.index _ 1 * S2000x64.size 1 + S2000x64.size 1
    rw [hi.2, Nat.zero_mul, Nat.zero_add]; exact ⟨Nat.zero_le _, (i 1).isLt⟩

/-- So the second full-size result array ends holding G14_4 of the three arrays. -/
theorem final34_4 (c : Dev nD) :
    (dat34 V c).arrAt 4 cfg34.N = G14_4 (V c (Pipeline.arrRef spec34 0)) (V c (Pipeline.arrRef spec34 1)) (V c (Pipeline.arrRef spec34 2)) :=
  (dat34 V c).arrAt_eq_of_cover 4 (G14_4 (xarr34 V c) (barr34 V c) (carr34 V c)) (fun t _ => flushed34_4 V c t) covered34_4

/-! ## The one-row result array after the run -/

/-- The one write-back (at the last point) writes the fold: the result's block there is the whole one-row array. -/
theorem flushed34_5 (c : Dev nD) (t : Fin cfg34.N) (hf : (cfg34.win 5).flush t = true) :
    (dat34 V c).flushed 5 t = ((cfg34.win 5).blk t).view.read (Elt F) (G14_5 (xarr34 V c) (barr34 V c) (carr34 V c)) := by
  have hN : t.val < 25 := lt_of_lt_of_eq t.isLt (show cfg34.N = 25 from N_34)
  have h24 : t.val = 24 := by have := (flush34_5 t).mp hf; omega
  have hi := index34_5 t
  show (cfg34.win 5).cut (grid34.coords t) ((dat34 V c).after 5 t) = _
  rw [after34_5, outsAt34_last V c t h24]
  have hz' : (fun a => win34_5.index t a * main_v318_2.ty.shape.size a) = fun _ => 0 := funext fun a => by
    match a with
    | ⟨0, _⟩ => show win34_5.index t 0 * _ = 0; rw [hi.1, Nat.zero_mul]
    | ⟨1, _⟩ => show win34_5.index t 1 * _ = 0; rw [hi.2, Nat.zero_mul]
  exact (Memref.read_access_unit_zero (Elt F) main_v318_2 hz' (fun a => by rw [congrFun hz' a]; simp) (G14_5 (xarr34 V c) (barr34 V c) (carr34 V c))).symm

/-- So the one-row result array ends holding the fold. -/
theorem final34_5 (c : Dev nD) :
    (dat34 V c).arrAt 5 cfg34.N = G14_5 (V c (Pipeline.arrRef spec34 0)) (V c (Pipeline.arrRef spec34 1)) (V c (Pipeline.arrRef spec34 2)) := by
  have h24 : (24 : ℕ) < cfg34.N := by rw [show cfg34.N = 25 from N_34]; omega
  refine (dat34 V c).arrAt_eq_of_cover 5 (G14_5 (xarr34 V c) (barr34 V c) (carr34 V c)) (flushed34_5 V c) fun i =>
    ⟨⟨24, h24⟩, (flush34_5 _).mpr rfl, ?_⟩
  have hi := index34_5 ⟨24, h24⟩
  have hx := xsize34_5 ⟨24, h24⟩
  show i ∈ ((View.whole main_v318_2).slice (win34_5.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win34_5.index ⟨24, h24⟩ 0 * win34_5.size 0 ≤ (i 0 : Nat) ∧ (i 0 : Nat) < win34_5.index ⟨24, h24⟩ 0 * win34_5.size 0 + win34_5.xsize (grid34.coords ⟨24, h24⟩) 0
    rw [hi.1, hx.1]; omega
  | ⟨1, _⟩ =>
    show win34_5.index ⟨24, h24⟩ 1 * win34_5.size 1 ≤ (i 1 : Nat) ∧ (i 1 : Nat) < win34_5.index ⟨24, h24⟩ 1 * win34_5.size 1 + win34_5.xsize (grid34.coords ⟨24, h24⟩) 1
    rw [hi.2, hx.2]; omega

end Cert.KernelIdeal.Hand

end
-- ==== Proof.KI.R35v.lean ====
import proofs.«408084_j48395691492010_3_alg».proof.Proof.KI.R35
import proofs.«408084_j48395691492010_3_alg».proof.Proof.KI.R3v

/-! Region 35, the value: the same kernel as region 3 at the same shapes, so the result is the same function `G3_2` of this
region's two arrays — the fold over the 25 row tiles, from the zero row, of each tile's column sum of squared deviations.
The found pieces read back and the fold's reading at the ideal values are region 3's; here: this region's blocks as
tiles of its arrays, the accumulator after each point as the fold (by induction on the point), and the result array. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The [50000, D] array of the rows, as the region finds it, -/
noncomputable abbrev xarr35 (c : Dev nD) : Vec F S50000x64 .f32 := V c (Pipeline.arrRef spec35 0)
/-- and the one row of column means. -/
noncomputable abbrev marr35 (c : Dev nD) : Vec F S1x64 .f32 := V c (Pipeline.arrRef spec35 1)

theorem index35_0 : ∀ t : Fin cfg35.N, win35_0.index t 0 = t.val ∧ win35_0.index t 1 = 0 :=
  (by decide +kernel : ∀ t : Fin grid35.N, win35_0.index t 0 = t.val ∧ win35_0.index t 1 = 0)
theorem index35_1 : ∀ t : Fin cfg35.N, win35_1.index t 0 = 0 ∧ win35_1.index t 1 = 0 :=
  (by decide +kernel : ∀ t : Fin grid35.N, win35_1.index t 0 = 0 ∧ win35_1.index t 1 = 0)
theorem index35_2 : ∀ t : Fin cfg35.N, win35_2.index t 0 = 0 ∧ win35_2.index t 1 = 0 :=
  (by decide +kernel : ∀ t : Fin grid35.N, win35_2.index t 0 = 0 ∧ win35_2.index t 1 = 0)
theorem xsize35_2 : ∀ t : Fin cfg35.N, win35_2.xsize (grid35.coords t) 0 = 1 ∧ win35_2.xsize (grid35.coords t) 1 = 64 :=
  (by decide +kernel : ∀ t : Fin grid35.N, win35_2.xsize (grid35.coords t) 0 = 1 ∧ win35_2.xsize (grid35.coords t) 1 = 64)

/-- The row-tile window's block at point `t` is row tile `t` of the array. -/
theorem xblk35_eq (c : Dev nD) (t : Fin cfg35.N) (hN : t.val < 25) :
    (iblk35 V c 0 t : Vec F S2000x64 .f32) = tile3 (xarr35 V c) ⟨t.val, hN⟩ := by
  have hi := index35_0 t
  funext j
  unfold iblk35 tile3
  rw [View.read_apply]
  show V c (Pipeline.arrRef spec35 0) _ = V c (Pipeline.arrRef spec35 0) _
  congr 1
  funext a
  apply Fin.ext
  match a with
  | ⟨0, _⟩ => show win35_0.index t 0 * 2000 + 1 * (j 0).val = 2000 * t.val + (j 0).val; rw [hi.1]; omega
  | ⟨1, _⟩ => show win35_0.index t 1 * 64 + 1 * (j 1).val = (j 1).val; rw [hi.2]; omega

/-- The mean window's block is the whole one-row array, at every point. -/
theorem mblk35_eq (c : Dev nD) (t : Fin cfg35.N) : (iblk35 V c 1 t : Vec F S1x64 .f32) = marr35 V c := by
  have hi := index35_1 t
  funext j
  unfold iblk35
  rw [View.read_apply]
  show V c (Pipeline.arrRef spec35 1) _ = V c (Pipeline.arrRef spec35 1) j
  congr 1
  funext a
  apply Fin.ext
  match a with
  | ⟨0, _⟩ => show win35_1.index t 0 * 1 + 1 * (j 0).val = (j 0).val; rw [hi.1]; omega
  | ⟨1, _⟩ => show win35_1.index t 1 * 64 + 1 * (j 1).val = (j 1).val; rw [hi.2]; omega

/-- What the accumulator holds after point `n` is the fold up to tile `n`: by induction on the point. -/
theorem outsAt35_acc (c : Dev nD) : ∀ (n : ℕ) (h : n < cfg35.N) (h' : n < 25),
    (outsAt35 V c n h).2 = acc3 (xarr35 V c) (marr35 V c) n h'
  | 0, h, h' => by
    rw [outsAt35_A V c ⟨0, h⟩ rfl (fun e => by have e' : (0 : ℕ) = 24 := e; omega)]
    dsimp only
    rw [sout3_A_eq, xblk35_eq V c ⟨0, h⟩ h', mblk35_eq V c ⟨0, h⟩]
    rfl
  | n + 1, h, h' => by
    have ih := outsAt35_acc c n (Nat.lt_of_succ_lt h) (Nat.lt_of_succ_lt h')
    by_cases h24 : n + 1 = 24
    · rw [outsAt35_C V c ⟨n + 1, h⟩ (Nat.succ_ne_zero n) h24]
      dsimp only
      rw [sout3_C_eq, xblk35_eq V c ⟨n + 1, h⟩ h', mblk35_eq V c ⟨n + 1, h⟩]
      show k3_pay2 _ _ (outsAt35 V c n _).2 = k3_pay2 _ _ (acc3 _ _ n _)
      rw [ih]
    · rw [outsAt35_B V c ⟨n + 1, h⟩ (Nat.succ_ne_zero n) h24]
      dsimp only
      rw [sout3_B_eq, xblk35_eq V c ⟨n + 1, h⟩ h', mblk35_eq V c ⟨n + 1, h⟩]
      show k3_pay2 _ _ (outsAt35 V c n _).2 = k3_pay2 _ _ (acc3 _ _ n _)
      rw [ih]

/-- At the last point the result's buffer is left holding the whole fold. -/
theorem outsAt35_last (c : Dev nD) (t : Fin cfg35.N) (h24 : t.val = 24) :
    (outsAt35 V c t.val t.isLt).1 = G3_2 (xarr35 V c) (marr35 V c) := by
  obtain ⟨n, hn⟩ := t
  obtain rfl : n = 24 := h24
  rw [outsAt35_C V c ⟨24, hn⟩ (fun e => by have e' : (24 : ℕ) = 0 := e; omega) rfl]
  dsimp only
  rw [out3_C_eq, xblk35_eq V c ⟨24, hn⟩ (by show (24 : ℕ) < 25; omega), mblk35_eq V c ⟨24, hn⟩]
  show k3_pay2 _ _ (outsAt35 V c 23 _).2 = k3_pay2 _ _ (acc3 _ _ 23 _)
  rw [outsAt35_acc V c 23 _ (by decide)]

/-- The one write-back (at the last point) writes the fold: the result's block there is the whole one-row array. -/
theorem flushed35_2 (c : Dev nD) (t : Fin cfg35.N) (hf : (cfg35.win 2).flush t = true) :
    (dat35 V c).flushed 2 t = ((cfg35.win 2).blk t).view.read (Elt F) (G3_2 (xarr35 V c) (marr35 V c)) := by
  have hN : t.val < 25 := lt_of_lt_of_eq t.isLt (show cfg35.N = 25 from N_35)
  have h24 : t.val = 24 := by have := (flush35_2 t).mp hf; omega
  have hi := index35_2 t
  show (cfg35.win 2).cut (grid35.coords t) ((dat35 V c).after 2 t) = _
  rw [after35_2, outsAt35_last V c t h24]
  have hz' : (fun a => win35_2.index t a * main_v321.ty.shape.size a) = fun _ => 0 := funext fun a => by
    match a with
    | ⟨0, _⟩ => show win35_2.index t 0 * _ = 0; rw [hi.1, Nat.zero_mul]
    | ⟨1, _⟩ => show win35_2.index t 1 * _ = 0; rw [hi.2, Nat.zero_mul]
  exact (Memref.read_access_unit_zero (Elt F) main_v321 hz' (fun a => by rw [congrFun hz' a]; simp) (G3_2 (xarr35 V c) (marr35 V c))).symm

/-- So the result array ends holding the fold: region 3's function of this region's two arrays. -/
theorem final35_2 (c : Dev nD) : (dat35 V c).arrAt 2 cfg35.N = G3_2 (V c (Pipeline.arrRef spec35 0)) (V c (Pipeline.arrRef spec35 1)) := by
  have h24 : (24 : ℕ) < cfg35.N := by rw [show cfg35.N = 25 from N_35]; omega
  refine (dat35 V c).arrAt_eq_of_cover 2 (G3_2 (xarr35 V c) (marr35 V c)) (flushed35_2 V c) fun i =>
    ⟨⟨24, h24⟩, (flush35_2 _).mpr rfl, ?_⟩
  have hi := index35_2 ⟨24, h24⟩
  have hx := xsize35_2 ⟨24, h24⟩
  show i ∈ ((View.whole main_v321).slice (win35_2.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win35_2.index ⟨24, h24⟩ 0 * win35_2.size 0 ≤ (i 0 : Nat) ∧ (i 0 : Nat) < win35_2.index ⟨24, h24⟩ 0 * win35_2.size 0 + win35_2.xsize (grid35.coords ⟨24, h24⟩) 0
    rw [hi.1, hx.1]; omega
  | ⟨1, _⟩ =>
    show win35_2.index ⟨24, h24⟩ 1 * win35_2.size 1 ≤ (i 1 : Nat) ∧ (i 1 : Nat) < win35_2.index ⟨24, h24⟩ 1 * win35_2.size 1 + win35_2.xsize (grid35.coords ⟨24, h24⟩) 1
    rw [hi.2, hx.2]; omega

end Cert.KernelIdeal.Hand

end
-- ==== Proof.KI.R36v.lean ====
import proofs.«408084_j48395691492010_3_alg».proof.Proof.KI.R36
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws

/-!
# Region 36: the array it leaves, as one function of the arrays it finds

Every grid point writes one block of 2000 rows of the output, and the 25 blocks tile the 50000 rows; the four
single-row inputs are the same block at every point. So the output array after the run is one function of the five
arrays the region finds. Entry (r, q) is computed from row r of the activations alone:

  bn[r,k] = (x[r,k] - mean[k]) * rsqrt (var[k] + eps) * gamma[k] + beta[k],
  out[r,q] = exp (bn[r,q] - max_k bn[r,k]) / (1 + Σ_k exp (bn[r,k] - max_k bn[r,k])).

At a generic float instance the row's sum is the instance's reduction of the whole 2000-row block that holds the
row, so the function is stated through that block; over the extended reals the reduction is a sum over the row and
the block drops out.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable {F : FTy → Type} [FloatOps F]

/-! ## The layout operations of the body, read at an index -/

section Layout36
variable {α : Type}

/-- A vector of 2000 entries cast to a column reads, at (p, 0), entry p. -/
theorem castCol36 (v : S2000.Idx → α) (h : S2000.ShapeCasts S2000x1) :
    shapeCast S2000x1 v h = fun y => v (ix1 (y 0)) := by
  funext y
  obtain ⟨p, u, rfl⟩ : ∃ (p : Fin 2000) (u : Fin 1), y = ix2 p u := ⟨y 0, y 1, eq_ix2 y⟩
  refine shapeCast_apply v h (ix2 p u) (ix1 p) ?_
  have hu : u.val = 0 := by omega
  rw [Shape.rowMajor_val_two, Shape.rowMajor_val_one]
  show p.val = p.val * 1 + u.val
  rw [hu, Nat.mul_one, Nat.add_zero]

/-- A column broadcast along the rows reads, at (p, k), the column's entry p. -/
theorem bcastCol36 (v : S2000x1.Idx → α) (h : S2000x1.Broadcasts S2000x64) :
    broadcastTo S2000x64 v h = fun y => v (ix2 (y 0) (0 : Fin 1)) := by
  funext y
  obtain ⟨p, k, rfl⟩ : ∃ (p : Fin 2000) (k : Fin 64), y = ix2 p k := ⟨y 0, y 1, eq_ix2 y⟩
  refine broadcastTo_apply v h (ix2 p k) (ix2 p (0 : Fin 1)) fun ax => ?_
  match ax with
  | ⟨0, _⟩ => rfl
  | ⟨1, _⟩ => rfl

/-- A single row broadcast down the block reads, at (p, k), the row's entry k. -/
theorem bcastRow36 (v : S1x64.Idx → α) (h : S1x64.Broadcasts S2000x64) :
    broadcastTo S2000x64 v h = fun y => v (ix2 (0 : Fin 1) (y 1)) := by
  funext y
  obtain ⟨p, k, rfl⟩ : ∃ (p : Fin 2000) (k : Fin 64), y = ix2 p k := ⟨y 0, y 1, eq_ix2 y⟩
  exact broadcastTo_1b_ab_apply v h p k

end Layout36

/-! ## The body's result on a block, by coordinates -/

/-- The batch-norm of a block, entry by entry, in the body's order of operations. -/
noncomputable def bn36 (v0 : Vec F S2000x64 .f32) (v2 v6 v13 v17 : Vec F S1x64 .f32) : FVec F S2000x64 .f32 := fun y =>
  FloatOps.addf (FloatOps.mulf (FloatOps.mulf (FloatOps.subf (v0 y) (v2 (ix2 (0 : Fin 1) (y 1))))
      (FloatOps.rsqrt (FloatOps.addf (v6 (ix2 (0 : Fin 1) (y 1))) (FloatOps.ofBits .f32 0x3727C5AC#32))))
      (v13 (ix2 (0 : Fin 1) (y 1)))) (v17 (ix2 (0 : Fin 1) (y 1)))

/-- Its row maxima: the body's reduction along the columns, started from minus infinity. -/
noncomputable def mx36 (v0 : Vec F S2000x64 .f32) (v2 v6 v13 v17 : Vec F S1x64 .f32) : FVec F S2000 .f32 :=
  multiReduction .maximumf [1] S2000 (bn36 v0 v2 v6 v13 v17) 0xFF800000#32 reduces_S2000x64_S2000 (.inl rfl) rfl

/-- The exponentials of the batch-norm less its row maximum. -/
noncomputable def e36 (v0 : Vec F S2000x64 .f32) (v2 v6 v13 v17 : Vec F S1x64 .f32) : FVec F S2000x64 .f32 := fun y =>
  FloatOps.exp (FloatOps.subf (bn36 v0 v2 v6 v13 v17 y) (mx36 v0 v2 v6 v13 v17 (ix1 (y 0))))

/-- Their row sums: the body's reduction along the columns, started from zero. -/
noncomputable def sm36 (v0 : Vec F S2000x64 .f32) (v2 v6 v13 v17 : Vec F S1x64 .f32) : FVec F S2000 .f32 :=
  multiReduction .add [1] S2000 (e36 v0 v2 v6 v13 v17) 0x00000000#32 reduces_S2000x64_S2000 (.inl rfl) rfl

/-- What the body stores: each exponential over one plus its row's sum. -/
noncomputable def P36 (v0 : Vec F S2000x64 .f32) (v2 v6 v13 v17 : Vec F S1x64 .f32) : Vec F S2000x64 .f32 := fun y =>
  FloatOps.divf (e36 v0 v2 v6 v13 v17 y)
    (FloatOps.addf (FloatOps.ofBits .f32 0x3F800000#32) (sm36 v0 v2 v6 v13 v17 (ix1 (y 0))))

/-- The skeleton's payload is that function: its layout operations read at an index, the rest unfolds. -/
theorem pay36_eq (v0 : Vec F S2000x64 .f32) (v2 v6 v13 v17 : Vec F S1x64 .f32) :
    k36_pay1 v0 v2 v6 v13 v17 = P36 v0 v2 v6 v13 v17 := by
  unfold k36_pay1
  simp only [shapeCast_self, bcastRow36, bcastCol36, castCol36]
  rfl

/-! ## The output array as one function of the arrays the region finds -/

/-- Rows q·2000 … q·2000 + 1999 of an array of 50000 rows. -/
noncomputable def rows36 (x : S50000x64.Idx → Elt F .f32) (q : Fin 25) : Vec F S2000x64 .f32 := fun y =>
  x (ix2 (⟨q.val * 2000 + (y 0).val, by have := idx2_lt0 y; have := q.isLt; omega⟩ : Fin 50000) (y 1))

/-- The block of 2000 rows that holds an entry's row, -/
noncomputable def blkOf36 (i : S50000x64.Idx) : Fin 25 := ⟨(i 0).val / 2000, by have := idx2_lt0 i; omega⟩
/-- and the row's place in it. -/
noncomputable def rowIn36 (i : S50000x64.Idx) : Fin 2000 := ⟨(i 0).val % 2000, Nat.mod_lt _ (by decide)⟩

/-- The output array: at each entry, the body's result on the block of 2000 rows of the activations that holds
    the entry's row, at the row's place in the block. -/
noncomputable def G36 (x : S50000x64.Idx → Elt F .f32) (mu va ga be : S1x64.Idx → Elt F .f32) : S50000x64.Idx → Elt F .f32 := fun i =>
  P36 (rows36 x (blkOf36 i)) mu va ga be (ix2 (rowIn36 i) (i 1))

/-- The output array read under block q at a place j of the block. -/
theorem G36_blk (x : S50000x64.Idx → Elt F .f32) (mu va ga be : S1x64.Idx → Elt F .f32) (q : Fin 25) (j : S2000x64.Idx)
    (i : S50000x64.Idx) (h0 : (i 0).val = q.val * 2000 + (j 0).val) (h1 : (i 1).val = (j 1).val) :
    G36 x mu va ga be i = P36 (rows36 x q) mu va ga be j := by
  have hj0 : (j 0).val < 2000 := idx2_lt0 j
  have hq : blkOf36 i = q := Fin.ext (by show (i 0).val / 2000 = q.val; omega)
  have hj : ix2 (rowIn36 i) (i 1) = j := by
    funext a
    match a with
    | ⟨0, _⟩ => exact Fin.ext (by show (i 0).val % 2000 = (j 0).val; omega)
    | ⟨1, _⟩ => exact Fin.ext h1
  unfold G36
  rw [hq]
  exact congrArg (P36 (rows36 x q) mu va ga be) hj

section Region36v
variable (V : (c : Dev nD) → (b : Ref sig .tc) → Buf (Elt F) ((c : Thread nD τ).loc b))

theorem hz36 : (![0, 0] : Fin 2 → Nat) = fun _ => 0 := funext fun a => by fin_cases a <;> rfl

/-- The windows' block indices, decided over the 25 grid points: the activations and the output move one block of
    rows per point, the four single rows stay. -/
theorem idx36 : ∀ t : Fin cfg36.N,
    win36_0.index t (0 : Fin 2) = t.val ∧ win36_0.index t (1 : Fin 2) = 0
    ∧ win36_1.index t (0 : Fin 2) = 0 ∧ win36_1.index t (1 : Fin 2) = 0
    ∧ win36_2.index t (0 : Fin 2) = 0 ∧ win36_2.index t (1 : Fin 2) = 0
    ∧ win36_3.index t (0 : Fin 2) = 0 ∧ win36_3.index t (1 : Fin 2) = 0
    ∧ win36_4.index t (0 : Fin 2) = 0 ∧ win36_4.index t (1 : Fin 2) = 0
    ∧ win36_5.index t (0 : Fin 2) = t.val ∧ win36_5.index t (1 : Fin 2) = 0 :=
  (by decide +kernel : ∀ t : Fin grid36.N, _)

/-- The activations' block at point t is rows t·2000 … of their array. -/
theorem iblk36_0_eq (c : Dev nD) (t : Fin cfg36.N) :
    (iblk36 V c 0 t : S2000x64.Idx → Elt F .f32) = rows36 (V c (Pipeline.arrRef spec36 0)) (t.cast N_36) := by
  obtain ⟨e0, e1, -⟩ := idx36 t
  funext y
  show V c (Pipeline.arrRef spec36 0) (((cfg36.win 0).blk t).view.emb y) = V c (Pipeline.arrRef spec36 0) _
  refine congrArg _ (funext fun a => Fin.ext ?_)
  match a with
  | ⟨0, _⟩ => show win36_0.index t (0 : Fin 2) * 2000 + 1 * (y 0).val = t.val * 2000 + (y 0).val; omega
  | ⟨1, _⟩ => show win36_0.index t (1 : Fin 2) * 64 + 1 * (y 1).val = (y 1).val; omega

/-- Each single row's block is, at every point, its whole array. -/
theorem iblk36_1_eq (c : Dev nD) (t : Fin cfg36.N) : (iblk36 V c 1 t : S1x64.Idx → Elt F .f32) = V c (Pipeline.arrRef spec36 1) := by
  obtain ⟨-, -, e0, e1, -⟩ := idx36 t
  funext y
  show V c (Pipeline.arrRef spec36 1) (((cfg36.win 1).blk t).view.emb y) = V c (Pipeline.arrRef spec36 1) y
  refine congrArg _ (funext fun a => Fin.ext ?_)
  match a with
  | ⟨0, _⟩ => show win36_1.index t (0 : Fin 2) * 1 + 1 * (y 0).val = (y 0).val; omega
  | ⟨1, _⟩ => show win36_1.index t (1 : Fin 2) * 64 + 1 * (y 1).val = (y 1).val; omega
theorem iblk36_2_eq (c : Dev nD) (t : Fin cfg36.N) : (iblk36 V c 2 t : S1x64.Idx → Elt F .f32) = V c (Pipeline.arrRef spec36 2) := by
  obtain ⟨-, -, -, -, e0, e1, -⟩ := idx36 t
  funext y
  show V c (Pipeline.arrRef spec36 2) (((cfg36.win 2).blk t).view.emb y) = V c (Pipeline.arrRef spec36 2) y
  refine congrArg _ (funext fun a => Fin.ext ?_)
  match a with
  | ⟨0, _⟩ => show win36_2.index t (0 : Fin 2) * 1 + 1 * (y 0).val = (y 0).val; omega
  | ⟨1, _⟩ => show win36_2.index t (1 : Fin 2) * 64 + 1 * (y 1).val = (y 1).val; omega
theorem iblk36_3_eq (c : Dev nD) (t : Fin cfg36.N) : (iblk36 V c 3 t : S1x64.Idx → Elt F .f32) = V c (Pipeline.arrRef spec36 3) := by
  obtain ⟨-, -, -, -, -, -, e0, e1, -⟩ := idx36 t
  funext y
  show V c (Pipeline.arrRef spec36 3) (((cfg36.win 3).blk t).view.emb y) = V c (Pipeline.arrRef spec36 3) y
  refine congrArg _ (funext fun a => Fin.ext ?_)
  match a with
  | ⟨0, _⟩ => show win36_3.index t (0 : Fin 2) * 1 + 1 * (y 0).val = (y 0).val; omega
  | ⟨1, _⟩ => show win36_3.index t (1 : Fin 2) * 64 + 1 * (y 1).val = (y 1).val; omega
theorem iblk36_4_eq (c : Dev nD) (t : Fin cfg36.N) : (iblk36 V c 4 t : S1x64.Idx → Elt F .f32) = V c (Pipeline.arrRef spec36 4) := by
  obtain ⟨-, -, -, -, -, -, -, -, e0, e1, -⟩ := idx36 t
  funext y
  show V c (Pipeline.arrRef spec36 4) (((cfg36.win 4).blk t).view.emb y) = V c (Pipeline.arrRef spec36 4) y
  refine congrArg _ (funext fun a => Fin.ext ?_)
  match a with
  | ⟨0, _⟩ => show win36_4.index t (0 : Fin 2) * 1 + 1 * (y 0).val = (y 0).val; omega
  | ⟨1, _⟩ => show win36_4.index t (1 : Fin 2) * 64 + 1 * (y 1).val = (y 1).val; omega

set_option maxHeartbeats 1000000 in
/-- What point t writes back is block t of the output array. -/
theorem flushed36_eq (c : Dev nD) (t : Fin cfg36.N) :
    (dat36 V c).flushed 5 t = ((cfg36.win 5).blk t).view.read (Elt F)
      (G36 (V c (Pipeline.arrRef spec36 0)) (V c (Pipeline.arrRef spec36 1)) (V c (Pipeline.arrRef spec36 2))
        (V c (Pipeline.arrRef spec36 3)) (V c (Pipeline.arrRef spec36 4))) := by
  show (cfg36.win 5).cut (grid36.coords t) ((dat36 V c).after 5 t) = _
  rw [after36_5]
  unfold out36_5
  rw [View.canon_unit_zero hz36]
  simp only [View.ld_unit_zero (S := S2000x64) hz36, View.ld_unit_zero (S := S1x64) hz36]
  rw [pay36_eq, iblk36_0_eq, iblk36_1_eq, iblk36_2_eq, iblk36_3_eq, iblk36_4_eq]
  obtain ⟨-, -, -, -, -, -, -, -, -, -, e0, e1⟩ := idx36 t
  funext j
  show P36 (rows36 _ (t.cast N_36)) _ _ _ _ j = G36 _ _ _ _ _ (((cfg36.win 5).blk t).view.emb j)
  refine (G36_blk _ _ _ _ _ (t.cast N_36) j (((cfg36.win 5).blk t).view.emb j) ?_ ?_).symm
  · show win36_5.index t (0 : Fin 2) * 2000 + 1 * (j 0).val = t.val * 2000 + (j 0).val; omega
  · show win36_5.index t (1 : Fin 2) * 64 + 1 * (j 1).val = (j 1).val; omega

/-- An entry of the array is in point t's block iff each coordinate is in the block's range on its axis. -/
theorem mem_blk36 (t : Fin cfg36.N) (i : S50000x64.Idx) :
    i ∈ ((cfg36.win 5).blk t).view.set ↔ ∀ a : Fin 2, win36_5.index t a * S2000x64.size a ≤ (i a).val ∧ (i a).val < win36_5.index t a * S2000x64.size a + S2000x64.size a := by
  show i ∈ ((View.whole main_v326).slice (win36_5.rect t)).set ↔ _
  rw [View.set_slice_whole, Rect.mem_set_unit]
  exact Iff.rfl

/-- Every entry is in the block of the point numbered by its row over 2000. -/
theorem covered36 (i : S50000x64.Idx) : ∃ t : Fin cfg36.N, (cfg36.win 5).flush t = true ∧ i ∈ ((cfg36.win 5).blk t).view.set := by
  have hi0 : (i 0).val < 50000 := idx2_lt0 i
  have hi1 : (i 1).val < 64 := idx2_lt1 i
  have ht : ∃ t : Fin cfg36.N, t.val = (i 0).val / 2000 := ⟨(⟨(i 0).val / 2000, by omega⟩ : Fin 25).cast N_36.symm, rfl⟩
  obtain ⟨t, ht⟩ := ht
  obtain ⟨-, -, -, -, -, -, -, -, -, -, e0, e1⟩ := idx36 t
  refine ⟨t, flush36_5 t, ?_⟩
  rw [mem_blk36]
  intro a
  match a with
  | ⟨0, _⟩ => show win36_5.index t (0 : Fin 2) * 2000 ≤ (i 0).val ∧ (i 0).val < win36_5.index t (0 : Fin 2) * 2000 + 2000; omega
  | ⟨1, _⟩ => show win36_5.index t (1 : Fin 2) * 64 ≤ (i 1).val ∧ (i 1).val < win36_5.index t (1 : Fin 2) * 64 + 64; omega

/-- The output array after the run. -/
theorem final36_5 (c : Dev nD) :
    (dat36 V c).arrAt 5 cfg36.N = G36 (V c (Pipeline.arrRef spec36 0)) (V c (Pipeline.arrRef spec36 1)) (V c (Pipeline.arrRef spec36 2))
      (V c (Pipeline.arrRef spec36 3)) (V c (Pipeline.arrRef spec36 4)) :=
  (dat36 V c).arrAt_eq_of_cover 5 _ (fun t _ => flushed36_eq V c t) covered36

end Region36v

/-! ## The output array over the extended reals, entry by entry -/

section Ideal36

/-- The source entry of a row reduction over a block: the result's row p with k put back on the column axis. -/
theorem lift36 (h : S2000x64.Reduces [1] S2000) (p : Fin 2000) (k : Fin 64) : h.lift (ix1 p) k = ix2 p k := by
  funext a
  match a with
  | ⟨0, _⟩ => exact Fin.ext rfl
  | ⟨1, _⟩ => exact Fin.ext rfl

section Block36
variable (X : Vec Ideal S2000x64 .f32) (mu va ga be : Vec Ideal S1x64 .f32)

/-- The block's batch-norm at an entry. -/
theorem bn36_apply (p : Fin 2000) (k : Fin 64) :
    bn36 (F := Ideal) X mu va ga be (ix2 p k)
      = ((X (ix2 p k) : EReal) - mu (ix2 0 k)) * Ideal.rsqrt (va (ix2 0 k) + Cert.Val.cEps) * ga (ix2 0 k) + be (ix2 0 k) := rfl

/-- A row's maximum: the fold of max over the row, from minus infinity. -/
theorem mx36_apply (p : Fin 2000) :
    mx36 (F := Ideal) X mu va ga be (ix1 p) = Cert.Val.rowMax (fun k : Fin 64 => bn36 (F := Ideal) X mu va ga be (ix2 p k)) := by
  unfold mx36
  refine (Ideal.multiReduction_maximumf_single (bn36 (F := Ideal) X mu va ga be) 0xFF800000#32 reduces_S2000x64_S2000 (.inl rfl) rfl
    (ix1 p)).trans ?_
  have hf : (bn36 (F := Ideal) X mu va ga be ∘ (reduces_S2000x64_S2000).lift (ix1 p))
      = fun k : Fin 64 => bn36 (F := Ideal) X mu va ga be (ix2 p k) :=
    funext fun k => congrArg (bn36 (F := Ideal) X mu va ga be) (lift36 _ p k)
  exact congrArg (fun f => (Finset.univ : Finset (Fin 64)).fold max Cert.Val.cNegInf f) hf

/-- The exponentials at an entry. -/
theorem e36_apply (p : Fin 2000) (k : Fin 64) :
    e36 (F := Ideal) X mu va ga be (ix2 p k)
      = Ideal.exp (bn36 (F := Ideal) X mu va ga be (ix2 p k) - Cert.Val.rowMax (fun k' : Fin 64 => bn36 (F := Ideal) X mu va ga be (ix2 p k'))) := by
  show Ideal.exp (bn36 (F := Ideal) X mu va ga be (ix2 p k) - mx36 (F := Ideal) X mu va ga be (ix1 p)) = _
  rw [mx36_apply]

/-- A row's sum of exponentials: the sum over the row. -/
theorem sm36_apply (p : Fin 2000) :
    sm36 (F := Ideal) X mu va ga be (ix1 p) = ∑ k : Fin 64, e36 (F := Ideal) X mu va ga be (ix2 p k) := by
  unfold sm36
  refine (Ideal.multiReduction_add_single (e36 (F := Ideal) X mu va ga be) 0x00000000#32 reduces_S2000x64_S2000 (.inl rfl) rfl
    (ix1 p)).trans ?_
  exact Finset.sum_congr rfl fun k _ => congrArg (e36 (F := Ideal) X mu va ga be) (lift36 _ p k)

/-- What the body stores, at an entry. -/
theorem P36_apply (p : Fin 2000) (k : Fin 64) :
    P36 (F := Ideal) X mu va ga be (ix2 p k)
      = Ideal.div (e36 (F := Ideal) X mu va ga be (ix2 p k)) (Cert.Val.cOne + sm36 (F := Ideal) X mu va ga be (ix1 p)) := rfl

end Block36

/-- The block that holds row r, read at the row's place, is row r of the array. -/
theorem rows36_at (x : S50000x64.Idx → Elt Ideal .f32) (r : Fin 50000) (q k : Fin 64) :
    rows36 x (blkOf36 (ix2 r q)) (ix2 (rowIn36 (ix2 r q)) k) = x (ix2 r k) := by
  unfold rows36
  refine congrArg x (funext fun a => ?_)
  match a with
  | ⟨0, _⟩ => exact Fin.ext (by show (r.val / 2000) * 2000 + r.val % 2000 = r.val; omega)
  | ⟨1, _⟩ => rfl

/-- THE OUTPUT ARRAY AT AN ENTRY: the row softmax with one added to the denominator, of the batch-norm of row r of
    the activations with the given column statistics, scale and shift. -/
theorem G36_apply (x : S50000x64.Idx → Elt Ideal .f32) (mu va ga be : S1x64.Idx → Elt Ideal .f32) (r : Fin 50000) (q : Fin 64) :
    G36 (F := Ideal) x mu va ga be (ix2 r q)
      = Cert.Val.smOne (fun j' => Cert.Val.bnAt (fun i j => x (ix2 i j)) (fun j => mu (ix2 0 j)) (fun j => va (ix2 0 j))
          (fun j => ga (ix2 0 j)) (fun j => be (ix2 0 j)) r j') q := by
  have hb : ∀ k : Fin 64, bn36 (F := Ideal) (rows36 x (blkOf36 (ix2 r q))) mu va ga be (ix2 (rowIn36 (ix2 r q)) k)
      = Cert.Val.bnAt (fun i j => x (ix2 i j)) (fun j => mu (ix2 0 j)) (fun j => va (ix2 0 j))
          (fun j => ga (ix2 0 j)) (fun j => be (ix2 0 j)) r k := by
    intro k
    rw [bn36_apply, rows36_at]
    rfl
  show P36 (F := Ideal) (rows36 x (blkOf36 (ix2 r q))) mu va ga be (ix2 (rowIn36 (ix2 r q)) q) = _
  rw [P36_apply, sm36_apply]
  simp only [e36_apply, hb]
  rfl

end Ideal36

end Cert.KernelIdeal.Hand

end
-- ==== Proof.KI.R37v.lean ====
import proofs.«408084_j48395691492010_3_alg».proof.Proof.KI.R37
import Idealize.ShloMosaic.Lib.Pipeline.Value
import Idealize.ShloMosaic.Lib.ValueIdx
import Idealize.ShloMosaic.PureOps.Ideal.Laws

/-! # Region 37, read: the output array is the product of the two input arrays

The frame part gives, point by point, the block of products the body leaves in the output window. Here the
blocks are put together: after the last point the output array is one function G37 of the two input arrays
as the region finds them, and at the ideal values entry (r, q) of it is the sum over k of x (r, k) · w (k, q). -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Value37

/-- The contracted extent (columns of X, rows of W) and the number of columns of W. -/
abbrev kdim37 : Nat := 64
abbrev ncol37 : Nat := 64

/-! ## The product as a function of the two arrays

The unit that multiplies is given a block of rows at a time, so the function of the arrays is stated that
way: entry (r, q) is the entry of the product of the block of rows holding row r with W, at that row's
place in the block. At the ideal values a block's product is the sum over the contracted axis, and the
blocks fall away. -/

/-- The block of consecutive rows of x that holds row r, its rows numbered from the block's first. -/
noncomputable def rowsOf37 (x : S50000x64.Idx → Elt F .f32) (r : Fin 50000) : Vec F S2000x64 .f32 :=
  fun y => x (ix2 ⟨r.val / 2000 * 2000 + (y 0).val, by
    have h0 : (y 0).val < 2000 := (y 0).isLt
    have hr := r.isLt
    omega⟩ (y 1))

/-- Entry i of the product: the payload at the block of rows holding row i 0 and at W, read at the row's
    place in its block and column i 1. -/
noncomputable def G37 (x : S50000x64.Idx → Elt F .f32) (w : S64x64.Idx → Elt F .f32) : S50000x64.Idx → Elt F .f32 :=
  fun i => k37_pay1 (rowsOf37 x (i 0)) w (ix2 ⟨(i 0).val % 2000, Nat.mod_lt _ (by decide)⟩ (i 1))

/-- Entry i of the product from ANY description of the block b that holds its row: the block of rows as
    xb, the matrix as wb, the entry's place in the block as j. -/
theorem G37_of_block (x : S50000x64.Idx → Elt F .f32) (w : S64x64.Idx → Elt F .f32) (b : Nat)
    (i : S50000x64.Idx) (j : S2000x64.Idx) (h0 : (i 0).val = b * 2000 + (j 0).val) (h1 : (i 1).val = (j 1).val)
    (xb : Vec F S2000x64 .f32) (wb : Vec F S64x64 .f32) (hw : wb = w)
    (hx : ∀ (y : S2000x64.Idx) (hy : b * 2000 + (y 0).val < 50000), xb y = x (ix2 ⟨b * 2000 + (y 0).val, hy⟩ (y 1))) :
    G37 x w i = k37_pay1 xb wb j := by
  have hj0 : (j 0).val < 2000 := (j 0).isLt
  have hi0 : (i 0).val < 50000 := (i 0).isLt
  have hrows : rowsOf37 x (i 0) = xb := by
    funext y
    have hy0 : (y 0).val < 2000 := (y 0).isLt
    have hq : (i 0).val / 2000 * 2000 = b * 2000 := by omega
    rw [hx y (by omega)]
    unfold rowsOf37
    congr 1
    funext d; apply Fin.ext
    match d with
    | ⟨0, _⟩ => show (i 0).val / 2000 * 2000 + (y 0).val = b * 2000 + (y 0).val; omega
    | ⟨1, _⟩ => rfl
  have hplace : (ix2 ⟨(i 0).val % 2000, Nat.mod_lt _ (by decide)⟩ (i 1) : S2000x64.Idx) = j := by
    funext d; apply Fin.ext
    match d with
    | ⟨0, _⟩ => show (i 0).val % 2000 = (j 0).val; omega
    | ⟨1, _⟩ => exact h1
  unfold G37
  rw [hrows, hplace, hw]

/-! ### The operand indices of the contraction, axis by axis -/

theorem lhsAx37_0 (j : S2000x64.Idx) (k : dot_S2000x64_S64x64_S2000x64_1_0_0_1_n_n.contr.Idx) :
    (dot_S2000x64_S64x64_S2000x64_1_0_0_1_n_n.lhsIdx j k (0 : Fin 2)).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

theorem lhsAx37_1 (j : S2000x64.Idx) (k : dot_S2000x64_S64x64_S2000x64_1_0_0_1_n_n.contr.Idx) :
    (dot_S2000x64_S64x64_S2000x64_1_0_0_1_n_n.lhsIdx j k (1 : Fin 2)).val = (k ⟨0, by decide⟩).val :=
  dot_S2000x64_S64x64_S2000x64_1_0_0_1_n_n.lhsIdx_val_of_single (cl := (1 : Fin 2)) rfl j k

theorem rhsAx37_0 (j : S2000x64.Idx) (k : dot_S2000x64_S64x64_S2000x64_1_0_0_1_n_n.contr.Idx) :
    (dot_S2000x64_S64x64_S2000x64_1_0_0_1_n_n.rhsIdx j k (0 : Fin 2)).val = (k ⟨0, by decide⟩).val :=
  dot_S2000x64_S64x64_S2000x64_1_0_0_1_n_n.rhsIdx_val_of_single (cr := (0 : Fin 2)) rfl j k

theorem rhsAx37_1 (j : S2000x64.Idx) (k : dot_S2000x64_S64x64_S2000x64_1_0_0_1_n_n.contr.Idx) :
    (dot_S2000x64_S64x64_S2000x64_1_0_0_1_n_n.rhsIdx j k (1 : Fin 2)).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The payload at the ideal values, at an index: the sum over the contracted axis. -/
theorem k37_pay1_apply (a : Vec Ideal S2000x64 .f32) (b : Vec Ideal S64x64 .f32) (p : Fin 2000) (q : Fin ncol37) :
    k37_pay1 (F := Ideal) a b (ix2 p q) = ∑ k : Fin kdim37, a (ix2 p k) * b (ix2 k q) := by
  unfold k37_pay1
  simp only [shapeCast_self]
  refine (Ideal.matmul_constant_zero_apply _ _ _ _ _).trans ?_
  rw [← Equiv.sum_comp (contrEquiv1 dot_S2000x64_S64x64_S2000x64_1_0_0_1_n_n kdim37 rfl rfl).symm]
  refine Finset.sum_congr rfl fun k _ => ?_
  have hl : dot_S2000x64_S64x64_S2000x64_1_0_0_1_n_n.lhsIdx (ix2 p q) ((contrEquiv1 dot_S2000x64_S64x64_S2000x64_1_0_0_1_n_n kdim37 rfl rfl).symm k) = ix2 p k := by
    funext d; apply Fin.ext
    match d with
    | ⟨0, _⟩ => exact lhsAx37_0 _ _
    | ⟨1, _⟩ => exact (lhsAx37_1 _ _).trans (contrEquiv1_symm_val _ kdim37 rfl rfl k)
  have hr : dot_S2000x64_S64x64_S2000x64_1_0_0_1_n_n.rhsIdx (ix2 p q) ((contrEquiv1 dot_S2000x64_S64x64_S2000x64_1_0_0_1_n_n kdim37 rfl rfl).symm k) = ix2 k q := by
    funext d; apply Fin.ext
    match d with
    | ⟨0, _⟩ => exact (rhsAx37_0 _ _).trans (contrEquiv1_symm_val _ kdim37 rfl rfl k)
    | ⟨1, _⟩ => exact rhsAx37_1 _ _
  rw [hl, hr]

/-- Entry (r, q) of the product at the ideal values: the sum over k of x (r, k) · w (k, q). -/
theorem G37_apply (x : S50000x64.Idx → Elt Ideal .f32) (w : S64x64.Idx → Elt Ideal .f32) (r : Fin 50000) (q : Fin ncol37) :
    G37 (F := Ideal) x w (ix2 r q) = ∑ k : Fin kdim37, x (ix2 r k) * w (ix2 k q) := by
  unfold G37
  rw [k37_pay1_apply]
  refine Finset.sum_congr rfl fun k _ => ?_
  unfold rowsOf37
  have hrow : (ix2 (⟨r.val / 2000 * 2000 + r.val % 2000, by have := r.isLt; omega⟩ : Fin 50000) k : S50000x64.Idx) = ix2 r k := by
    funext d; apply Fin.ext
    match d with
    | ⟨0, _⟩ => show r.val / 2000 * 2000 + r.val % 2000 = r.val; omega
    | ⟨1, _⟩ => rfl
  exact congrArg (fun z => x z * w (ix2 k q)) hrow

end Value37

/-! ## From the blocks written back to the array -/

section Final37
variable (V : (c : Dev nD) → (b : Ref sig .tc) → Buf (Elt F) ((c : Thread nD τ).loc b))

theorem hz37 : (![0, 0] : Fin 2 → Nat) = fun _ => 0 := funext fun a => by fin_cases a <;> rfl

/-- The index maps over the grid: the rows of X and of the product move with the point, one block a point;
    W stays; no window moves along its columns. -/
theorem idx_facts37 : ∀ t : Fin cfg37.N,
    win37_0.index t (0 : Fin 2) = t.val ∧ win37_0.index t (1 : Fin 2) = 0
    ∧ win37_1.index t (0 : Fin 2) = 0 ∧ win37_1.index t (1 : Fin 2) = 0
    ∧ win37_2.index t (0 : Fin 2) = t.val ∧ win37_2.index t (1 : Fin 2) = 0 :=
  (by decide +kernel : ∀ t : Fin grid37.N, _)

/-- What point t writes back is block t of the product of the arrays as the region finds them. -/
theorem flushed37_2_eq (c : Dev nD) (t : Fin cfg37.N) :
    (dat37 V c).flushed 2 t = ((cfg37.win 2).blk t).view.read (Elt F) (G37 (V c (Pipeline.arrRef spec37 0)) (V c (Pipeline.arrRef spec37 1))) := by
  show (cfg37.win 2).cut (grid37.coords t) ((dat37 V c).after 2 t) = _
  rw [after37_2]
  unfold out37_2
  rw [View.canon_unit_zero hz37]
  simp only [View.ld_unit_zero (S := S2000x64) hz37, View.ld_unit_zero (S := S64x64) hz37]
  obtain ⟨e0, e1, e2, e3, e4, e5⟩ := idx_facts37 t
  funext j
  show k37_pay1 (iblk37 V c 0 t) (iblk37 V c 1 t) j = G37 (V c (Pipeline.arrRef spec37 0)) (V c (Pipeline.arrRef spec37 1)) (((cfg37.win 2).blk t).view.emb j)
  refine (G37_of_block _ _ t.val _ j ?_ ?_ _ _ ?_ ?_).symm
  · show win37_2.index t (0 : Fin 2) * 2000 + 1 * (j 0).val = t.val * 2000 + (j 0).val
    rw [e4]; omega
  · show win37_2.index t (1 : Fin 2) * S2000x64.size 1 + 1 * (j 1).val = (j 1).val
    rw [e5]; omega
  · funext y
    show V c (Pipeline.arrRef spec37 1) (((cfg37.win 1).blk t).view.emb y) = V c (Pipeline.arrRef spec37 1) y
    congr 1
    funext d; apply Fin.ext
    match d with
    | ⟨0, _⟩ => show win37_1.index t (0 : Fin 2) * S64x64.size 0 + 1 * (y 0).val = (y 0).val; rw [e2]; omega
    | ⟨1, _⟩ => show win37_1.index t (1 : Fin 2) * S64x64.size 1 + 1 * (y 1).val = (y 1).val; rw [e3]; omega
  · intro y hy
    show V c (Pipeline.arrRef spec37 0) (((cfg37.win 0).blk t).view.emb y) = V c (Pipeline.arrRef spec37 0) (ix2 ⟨t.val * 2000 + (y 0).val, hy⟩ (y 1))
    congr 1
    funext d; apply Fin.ext
    match d with
    | ⟨0, _⟩ => show win37_0.index t (0 : Fin 2) * 2000 + 1 * (y 0).val = t.val * 2000 + (y 0).val; rw [e0]; omega
    | ⟨1, _⟩ => show win37_0.index t (1 : Fin 2) * S2000x64.size 1 + 1 * (y 1).val = (y 1).val; rw [e1]; omega

/-- An index of the array is in point t's block iff each coordinate is in the block's range on its axis. -/
theorem mem_blk37_2 (t : Fin cfg37.N) (i : S50000x64.Idx) :
    i ∈ ((cfg37.win 2).blk t).view.set ↔ ∀ a : Fin 2, win37_2.index t a * S2000x64.size a ≤ (i a).val ∧ (i a).val < win37_2.index t a * S2000x64.size a + S2000x64.size a := by
  show i ∈ ((View.whole (Pipeline.arrRef spec37 2)).slice (win37_2.rect t)).set ↔ _
  rw [View.set_slice_whole, Rect.mem_set_unit]
  exact Iff.rfl

/-- Every index of the array is in some point's block: row r in the block of point r / 2000. -/
theorem covered37_2 (i : S50000x64.Idx) :
    ∃ t : Fin cfg37.N, (cfg37.win 2).flush t = true ∧ i ∈ ((cfg37.win 2).blk t).view.set := by
  have hi0 : (i 0).val < 50000 := (i 0).isLt
  refine ⟨⟨(i 0).val / 2000, by rw [show cfg37.N = 25 from N_37]; omega⟩, flush37_2 _, ?_⟩
  obtain ⟨e0, e1, e2, e3, e4, e5⟩ := idx_facts37 ⟨(i 0).val / 2000, by rw [show cfg37.N = 25 from N_37]; omega⟩
  rw [mem_blk37_2]
  intro a
  match a with
  | ⟨0, _⟩ =>
    show win37_2.index _ (0 : Fin 2) * 2000 ≤ (i 0).val ∧ (i 0).val < win37_2.index _ (0 : Fin 2) * 2000 + 2000
    rw [e4]; show (i 0).val / 2000 * 2000 ≤ (i 0).val ∧ (i 0).val < (i 0).val / 2000 * 2000 + 2000; omega
  | ⟨1, _⟩ =>
    show win37_2.index _ (1 : Fin 2) * S2000x64.size 1 ≤ (i 1).val ∧ (i 1).val < win37_2.index _ (1 : Fin 2) * S2000x64.size 1 + S2000x64.size 1
    rw [e5, Nat.zero_mul, Nat.zero_add]; exact ⟨Nat.zero_le _, (i 1).isLt⟩

/-- The output array after the last point is the product of the two input arrays as the region finds them. -/
theorem final37_2 (c : Dev nD) :
    (dat37 V c).arrAt 2 cfg37.N = G37 (V c (Pipeline.arrRef spec37 0)) (V c (Pipeline.arrRef spec37 1)) :=
  (dat37 V c).arrAt_eq_of_cover 2 (G37 (V c (Pipeline.arrRef spec37 0)) (V c (Pipeline.arrRef spec37 1)))
    (fun t _ => flushed37_2_eq V c t) covered37_2

end Final37

end Cert.KernelIdeal.Hand

end
-- ==== Proof.KI.R38v.lean ====
import proofs.«408084_j48395691492010_3_alg».proof.Proof.KI.R38
import proofs.«408084_j48395691492010_3_alg».proof.Proof.KI.R14v
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! Region 38, the values. The kernel is region 14's word for word, so what each control case leaves in the buffers,
the row tiles, the fold and the three results as functions of the three arrays (G14_3, G14_4, G14_5) are region 14's;
here they are read at this region's windows: the blocks of its arrays, what its buffers hold after each point, and
its three result arrays after the last point. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The arrays and their blocks, at their literal types -/

/-- The array of the aggregated rows, as the region finds it, -/
noncomputable abbrev xarr38 (c : Dev nD) : Vec F S50000x64 .f32 := V c (Pipeline.arrRef spec38 0)
/-- the bias row, -/
noncomputable abbrev barr38 (c : Dev nD) : Vec F S1x64 .f32 := V c (Pipeline.arrRef spec38 1)
/-- and the carried-in array. -/
noncomputable abbrev carr38 (c : Dev nD) : Vec F S50000x64 .f32 := V c (Pipeline.arrRef spec38 2)

/-- The row-tile windows' block index is the grid point; the one-row windows never move. -/
theorem index38_0 : ∀ t : Fin cfg38.N, win38_0.index t 0 = t.val ∧ win38_0.index t 1 = 0 :=
  (by decide +kernel : ∀ t : Fin grid38.N, win38_0.index t 0 = t.val ∧ win38_0.index t 1 = 0)
theorem index38_1 : ∀ t : Fin cfg38.N, win38_1.index t 0 = 0 ∧ win38_1.index t 1 = 0 :=
  (by decide +kernel : ∀ t : Fin grid38.N, win38_1.index t 0 = 0 ∧ win38_1.index t 1 = 0)
theorem index38_2 : ∀ t : Fin cfg38.N, win38_2.index t 0 = t.val ∧ win38_2.index t 1 = 0 :=
  (by decide +kernel : ∀ t : Fin grid38.N, win38_2.index t 0 = t.val ∧ win38_2.index t 1 = 0)
theorem index38_3 : ∀ t : Fin cfg38.N, win38_3.index t 0 = t.val ∧ win38_3.index t 1 = 0 :=
  (by decide +kernel : ∀ t : Fin grid38.N, win38_3.index t 0 = t.val ∧ win38_3.index t 1 = 0)
theorem index38_4 : ∀ t : Fin cfg38.N, win38_4.index t 0 = t.val ∧ win38_4.index t 1 = 0 :=
  (by decide +kernel : ∀ t : Fin grid38.N, win38_4.index t 0 = t.val ∧ win38_4.index t 1 = 0)
theorem index38_5 : ∀ t : Fin cfg38.N, win38_5.index t 0 = 0 ∧ win38_5.index t 1 = 0 :=
  (by decide +kernel : ∀ t : Fin grid38.N, win38_5.index t 0 = 0 ∧ win38_5.index t 1 = 0)
theorem xsize38_5 : ∀ t : Fin cfg38.N, win38_5.xsize (grid38.coords t) 0 = 1 ∧ win38_5.xsize (grid38.coords t) 1 = 64 :=
  (by decide +kernel : ∀ t : Fin grid38.N, win38_5.xsize (grid38.coords t) 0 = 1 ∧ win38_5.xsize (grid38.coords t) 1 = 64)

/-- The aggregate window's block at point t is row tile t of its array. -/
theorem xblk38_eq (c : Dev nD) (t : Fin cfg38.N) (hN : t.val < 25) :
    (iblk38 V c 0 t : Vec F S2000x64 .f32) = tile14 (xarr38 V c) ⟨t.val, hN⟩ := by
  have hi := index38_0 t
  funext j
  unfold iblk38 tile14
  rw [View.read_apply]
  show V c (Pipeline.arrRef spec38 0) _ = V c (Pipeline.arrRef spec38 0) _
  congr 1
  funext a
  apply Fin.ext
  match a with
  | ⟨0, _⟩ => show win38_0.index t 0 * 2000 + 1 * (j 0).val = 2000 * t.val + (j 0).val; rw [hi.1]; omega
  | ⟨1, _⟩ => show win38_0.index t 1 * 64 + 1 * (j 1).val = (j 1).val; rw [hi.2]; omega

/-- The bias window's block is the whole one-row array, at every point. -/
theorem bblk38_eq (c : Dev nD) (t : Fin cfg38.N) : (iblk38 V c 1 t : Vec F S1x64 .f32) = barr38 V c := by
  have hi := index38_1 t
  funext j
  unfold iblk38
  rw [View.read_apply]
  show V c (Pipeline.arrRef spec38 1) _ = V c (Pipeline.arrRef spec38 1) j
  congr 1
  funext a
  apply Fin.ext
  match a with
  | ⟨0, _⟩ => show win38_1.index t 0 * 1 + 1 * (j 0).val = (j 0).val; rw [hi.1]; omega
  | ⟨1, _⟩ => show win38_1.index t 1 * 64 + 1 * (j 1).val = (j 1).val; rw [hi.2]; omega

/-- The carried-in window's block at point t is row tile t of its array. -/
theorem cblk38_eq (c : Dev nD) (t : Fin cfg38.N) (hN : t.val < 25) :
    (iblk38 V c 2 t : Vec F S2000x64 .f32) = tile14 (carr38 V c) ⟨t.val, hN⟩ := by
  have hi := index38_2 t
  funext j
  unfold iblk38 tile14
  rw [View.read_apply]
  show V c (Pipeline.arrRef spec38 2) _ = V c (Pipeline.arrRef spec38 2) _
  congr 1
  funext a
  apply Fin.ext
  match a with
  | ⟨0, _⟩ => show win38_2.index t 0 * 2000 + 1 * (j 0).val = 2000 * t.val + (j 0).val; rw [hi.1]; omega
  | ⟨1, _⟩ => show win38_2.index t 1 * 64 + 1 * (j 1).val = (j 1).val; rw [hi.2]; omega

/-! ## What the buffers hold after each point -/

/-- The first full-size result's buffer after point n. -/
theorem outsAt38_pre (c : Dev nD) : ∀ (n : ℕ) (h : n < cfg38.N) (h' : n < 25),
    (outsAt38 V c n h).1 = k14_pay3 (tile14 (xarr38 V c) ⟨n, h'⟩) (barr38 V c) (tile14 (carr38 V c) ⟨n, h'⟩)
  | 0, h, h' => by
    rw [outsAt38_A V c ⟨0, h⟩ (Nat.zero_mod 25) (fun e => by have e' : (0 : ℕ) % 25 = 24 := e; omega)]
    dsimp only
    rw [out14_A_3_eq, xblk38_eq V c ⟨0, h⟩ h', bblk38_eq V c ⟨0, h⟩, cblk38_eq V c ⟨0, h⟩ h']
  | n + 1, h, h' => by
    have hm : (n + 1) % 25 = n + 1 := Nat.mod_eq_of_lt h'
    by_cases h24 : n + 1 = 24
    · rw [outsAt38_C V c ⟨n + 1, h⟩ (fun e => by have e' : (n + 1) % 25 = 0 := e; omega) (by show (n + 1) % 25 = 24; omega)]
      dsimp only
      rw [out14_C_3_eq, xblk38_eq V c ⟨n + 1, h⟩ h', bblk38_eq V c ⟨n + 1, h⟩, cblk38_eq V c ⟨n + 1, h⟩ h']
    · rw [outsAt38_B V c ⟨n + 1, h⟩ (fun e => by have e' : (n + 1) % 25 = 0 := e; omega) (fun e => by have e' : (n + 1) % 25 = 24 := e; omega)]
      dsimp only
      rw [out14_B_3_eq, xblk38_eq V c ⟨n + 1, h⟩ h', bblk38_eq V c ⟨n + 1, h⟩, cblk38_eq V c ⟨n + 1, h⟩ h']

/-- The second full-size result's buffer after point n. -/
theorem outsAt38_cum (c : Dev nD) : ∀ (n : ℕ) (h : n < cfg38.N) (h' : n < 25),
    (outsAt38 V c n h).2.1 = k14_pay4 (tile14 (xarr38 V c) ⟨n, h'⟩) (barr38 V c) (tile14 (carr38 V c) ⟨n, h'⟩)
  | 0, h, h' => by
    rw [outsAt38_A V c ⟨0, h⟩ (Nat.zero_mod 25) (fun e => by have e' : (0 : ℕ) % 25 = 24 := e; omega)]
    dsimp only
    rw [out14_A_4_eq, xblk38_eq V c ⟨0, h⟩ h', bblk38_eq V c ⟨0, h⟩, cblk38_eq V c ⟨0, h⟩ h']
  | n + 1, h, h' => by
    have hm : (n + 1) % 25 = n + 1 := Nat.mod_eq_of_lt h'
    by_cases h24 : n + 1 = 24
    · rw [outsAt38_C V c ⟨n + 1, h⟩ (fun e => by have e' : (n + 1) % 25 = 0 := e; omega) (by show (n + 1) % 25 = 24; omega)]
      dsimp only
      rw [out14_C_4_eq, xblk38_eq V c ⟨n + 1, h⟩ h', bblk38_eq V c ⟨n + 1, h⟩, cblk38_eq V c ⟨n + 1, h⟩ h']
    · rw [outsAt38_B V c ⟨n + 1, h⟩ (fun e => by have e' : (n + 1) % 25 = 0 := e; omega) (fun e => by have e' : (n + 1) % 25 = 24 := e; omega)]
      dsimp only
      rw [out14_B_4_eq, xblk38_eq V c ⟨n + 1, h⟩ h', bblk38_eq V c ⟨n + 1, h⟩, cblk38_eq V c ⟨n + 1, h⟩ h']

/-- What the accumulator holds after point n is the fold up to tile n: by induction on the point. -/
theorem outsAt38_acc (c : Dev nD) : ∀ (n : ℕ) (h : n < cfg38.N) (h' : n < 25),
    (outsAt38 V c n h).2.2.2 = acc14 (xarr38 V c) (barr38 V c) (carr38 V c) n h'
  | 0, h, h' => by
    rw [outsAt38_A V c ⟨0, h⟩ (Nat.zero_mod 25) (fun e => by have e' : (0 : ℕ) % 25 = 24 := e; omega)]
    dsimp only
    rw [sout14_A_0_eq, xblk38_eq V c ⟨0, h⟩ h', bblk38_eq V c ⟨0, h⟩, cblk38_eq V c ⟨0, h⟩ h']
    rfl
  | n + 1, h, h' => by
    have ih := outsAt38_acc c n (Nat.lt_of_succ_lt h) (Nat.lt_of_succ_lt h')
    have hm : (n + 1) % 25 = n + 1 := Nat.mod_eq_of_lt h'
    by_cases h24 : n + 1 = 24
    · rw [outsAt38_C V c ⟨n + 1, h⟩ (fun e => by have e' : (n + 1) % 25 = 0 := e; omega) (by show (n + 1) % 25 = 24; omega)]
      dsimp only
      rw [sout14_C_0_eq, xblk38_eq V c ⟨n + 1, h⟩ h', bblk38_eq V c ⟨n + 1, h⟩, cblk38_eq V c ⟨n + 1, h⟩ h']
      show k14_pay5 _ _ _ (outsAt38 V c n _).2.2.2 = k14_pay5 _ _ _ (acc14 _ _ _ n _)
      rw [ih]
    · rw [outsAt38_B V c ⟨n + 1, h⟩ (fun e => by have e' : (n + 1) % 25 = 0 := e; omega) (fun e => by have e' : (n + 1) % 25 = 24 := e; omega)]
      dsimp only
      rw [sout14_B_0_eq, xblk38_eq V c ⟨n + 1, h⟩ h', bblk38_eq V c ⟨n + 1, h⟩, cblk38_eq V c ⟨n + 1, h⟩ h']
      show k14_pay5 _ _ _ (outsAt38 V c n _).2.2.2 = k14_pay5 _ _ _ (acc14 _ _ _ n _)
      rw [ih]

/-- At the last point the one-row result's buffer is left holding the whole fold. -/
theorem outsAt38_last (c : Dev nD) (t : Fin cfg38.N) (h24 : t.val = 24) :
    (outsAt38 V c t.val t.isLt).2.2.1 = G14_5 (xarr38 V c) (barr38 V c) (carr38 V c) := by
  obtain ⟨n, hn⟩ := t
  obtain rfl : n = 24 := h24
  rw [outsAt38_C V c ⟨24, hn⟩ (fun e => by have e' : (24 : ℕ) % 25 = 0 := e; omega) (by show (24 : ℕ) % 25 = 24; omega)]
  dsimp only
  rw [out14_C_5_eq, xblk38_eq V c ⟨24, hn⟩ (by show (24 : ℕ) < 25; omega), bblk38_eq V c ⟨24, hn⟩, cblk38_eq V c ⟨24, hn⟩ (by show (24 : ℕ) < 25; omega)]
  show k14_pay5 _ _ _ (outsAt38 V c 23 _).2.2.2 = k14_pay5 _ _ _ (acc14 _ _ _ 23 _)
  rw [outsAt38_acc V c 23 _ (by decide)]

/-! ## The full-size result arrays after the run -/

/-- What point t writes back of the first full-size result array is block t of G14_3 of the arrays. -/
theorem flushed38_3 (c : Dev nD) (t : Fin cfg38.N) :
    (dat38 V c).flushed 3 t = ((cfg38.win 3).blk t).view.read (Elt F) (G14_3 (xarr38 V c) (barr38 V c) (carr38 V c)) := by
  have hN : t.val < 25 := lt_of_lt_of_eq t.isLt (show cfg38.N = 25 from N_38)
  have hi := index38_3 t
  show (cfg38.win 3).cut (grid38.coords t) ((dat38 V c).after 3 t) = _
  rw [after38_3, outsAt38_pre V c t.val t.isLt hN]
  funext j
  have hj0 : (j 0).val < 2000 := (j 0).isLt
  show k14_pay3 (tile14 (xarr38 V c) ⟨t.val, hN⟩) (barr38 V c) (tile14 (carr38 V c) ⟨t.val, hN⟩) j = G14_3 (xarr38 V c) (barr38 V c) (carr38 V c) (((cfg38.win 3).blk t).view.emb j)
  have hrow : ((((cfg38.win 3).blk t).view.emb j : S50000x64.Idx) 0).val = t.val * 2000 + (j 0).val := by
    show win38_3.index t 0 * 2000 + 1 * (j 0).val = t.val * 2000 + (j 0).val
    rw [hi.1]; omega
  have hcol : ((((cfg38.win 3).blk t).view.emb j : S50000x64.Idx) 1).val = (j 1).val := by
    show win38_3.index t 1 * 64 + 1 * (j 1).val = (j 1).val
    rw [hi.2]; omega
  unfold G14_3
  have htile : (⟨((((cfg38.win 3).blk t).view.emb j : S50000x64.Idx) 0).val / 2000, by have := idx2_lt0 (((cfg38.win 3).blk t).view.emb j : S50000x64.Idx); omega⟩ : Fin 25) = ⟨t.val, hN⟩ :=
    Fin.ext (by show ((((cfg38.win 3).blk t).view.emb j : S50000x64.Idx) 0).val / 2000 = t.val; rw [hrow]; omega)
  have hplace : (ix2 ⟨((((cfg38.win 3).blk t).view.emb j : S50000x64.Idx) 0).val % 2000, Nat.mod_lt _ (by decide)⟩ ((((cfg38.win 3).blk t).view.emb j : S50000x64.Idx) 1) : S2000x64.Idx) = j := by
    funext d; apply Fin.ext
    match d with
    | ⟨0, _⟩ => show ((((cfg38.win 3).blk t).view.emb j : S50000x64.Idx) 0).val % 2000 = (j 0).val; rw [hrow]; omega
    | ⟨1, _⟩ => exact hcol
  rw [htile, hplace]

/-- An index of the array is in point t's block iff each coordinate is in the block's range on its axis. -/
theorem mem_blk38_3 (t : Fin cfg38.N) (i : S50000x64.Idx) :
    i ∈ ((cfg38.win 3).blk t).view.set ↔ ∀ a : Fin 2, win38_3.index t a * S2000x64.size a ≤ (i a).val ∧ (i a).val < win38_3.index t a * S2000x64.size a + S2000x64.size a := by
  show i ∈ ((View.whole (Pipeline.arrRef spec38 3)).slice (win38_3.rect t)).set ↔ _
  rw [View.set_slice_whole, Rect.mem_set_unit]
  exact Iff.rfl

/-- Every index of the array is in some point's block: row r in the block of point r / 2000. -/
theorem covered38_3 (i : S50000x64.Idx) :
    ∃ t : Fin cfg38.N, (cfg38.win 3).flush t = true ∧ i ∈ ((cfg38.win 3).blk t).view.set := by
  have hi0 : (i 0).val < 50000 := (i 0).isLt
  refine ⟨⟨(i 0).val / 2000, by rw [show cfg38.N = 25 from N_38]; omega⟩, flush38_3 _, ?_⟩
  have hi := index38_3 ⟨(i 0).val / 2000, by rw [show cfg38.N = 25 from N_38]; omega⟩
  rw [mem_blk38_3]
  intro a
  match a with
  | ⟨0, _⟩ =>
    show win38_3.index _ 0 * 2000 ≤ (i 0).val ∧ (i 0).val < win38_3.index _ 0 * 2000 + 2000
    rw [hi.1]; show (i 0).val / 2000 * 2000 ≤ (i 0).val ∧ (i 0).val < (i 0).val / 2000 * 2000 + 2000; omega
  | ⟨1, _⟩ =>
    show win38_3.index _ 1 * S2000x64.size 1 ≤ (i 1).val ∧ (i 1).val < win38_3.index _ 1 * S2000x64.size 1 + S2000x64.size 1
    rw [hi.2, Nat.zero_mul, Nat.zero_add]; exact ⟨Nat.zero_le _, (i 1).isLt⟩

/-- So the first full-size result array ends holding G14_3 of the three arrays. -/
theorem final38_3 (c : Dev nD) :
    (dat38 V c).arrAt 3 cfg38.N = G14_3 (V c (Pipeline.arrRef spec38 0)) (V c (Pipeline.arrRef spec38 1)) (V c (Pipeline.arrRef spec38 2)) :=
  (dat38 V c).arrAt_eq_of_cover 3 (G14_3 (xarr38 V c) (barr38 V c) (carr38 V c)) (fun t _ => flushed38_3 V c t) covered38_3

/-- What point t writes back of the second full-size result array is block t of G14_4 of the arrays. -/
theorem flushed38_4 (c : Dev nD) (t : Fin cfg38.N) :
    (dat38 V c).flushed 4 t = ((cfg38.win 4).blk t).view.read (Elt F) (G14_4 (xarr38 V c) (barr38 V c) (carr38 V c)) := by
  have hN : t.val < 25 := lt_of_lt_of_eq t.isLt (show cfg38.N = 25 from N_38)
  have hi := index38_4 t
  show (cfg38.win 4).cut (grid38.coords t) ((dat38 V c).after 4 t) = _
  rw [after38_4, outsAt38_cum V c t.val t.isLt hN]
  funext j
  have hj0 : (j 0).val < 2000 := (j 0).isLt
  show k14_pay4 (tile14 (xarr38 V c) ⟨t.val, hN⟩) (barr38 V c) (tile14 (carr38 V c) ⟨t.val, hN⟩) j = G14_4 (xarr38 V c) (barr38 V c) (carr38 V c) (((cfg38.win 4).blk t).view.emb j)
  have hrow : ((((cfg38.win 4).blk t).view.emb j : S50000x64.Idx) 0).val = t.val * 2000 + (j 0).val := by
    show win38_4.index t 0 * 2000 + 1 * (j 0).val = t.val * 2000 + (j 0).val
    rw [hi.1]; omega
  have hcol : ((((cfg38.win 4).blk t).view.emb j : S50000x64.Idx) 1).val = (j 1).val := by
    show win38_4.index t 1 * 64 + 1 * (j 1).val = (j 1).val
    rw [hi.2]; omega
  unfold G14_4
  have htile : (⟨((((cfg38.win 4).blk t).view.emb j : S50000x64.Idx) 0).val / 2000, by have := idx2_lt0 (((cfg38.win 4).blk t).view.emb j : S50000x64.Idx); omega⟩ : Fin 25) = ⟨t.val, hN⟩ :=
    Fin.ext (by show ((((cfg38.win 4).blk t).view.emb j : S50000x64.Idx) 0).val / 2000 = t.val; rw [hrow]; omega)
  have hplace : (ix2 ⟨((((cfg38.win 4).blk t).view.emb j : S50000x64.Idx) 0).val % 2000, Nat.mod_lt _ (by decide)⟩ ((((cfg38.win 4).blk t).view.emb j : S50000x64.Idx) 1) : S2000x64.Idx) = j := by
    funext d; apply Fin.ext
    match d with
    | ⟨0, _⟩ => show ((((cfg38.win 4).blk t).view.emb j : S50000x64.Idx) 0).val % 2000 = (j 0).val; rw [hrow]; omega
    | ⟨1, _⟩ => exact hcol
  rw [htile, hplace]

/-- An index of the array is in point t's block iff each coordinate is in the block's range on its axis. -/
theorem mem_blk38_4 (t : Fin cfg38.N) (i : S50000x64.Idx) :
    i ∈ ((cfg38.win 4).blk t).view.set ↔ ∀ a : Fin 2, win38_4.index t a * S2000x64.size a ≤ (i a).val ∧ (i a).val < win38_4.index t a * S2000x64.size a + S2000x64.size a := by
  show i ∈ ((View.whole (Pipeline.arrRef spec38 4)).slice (win38_4.rect t)).set ↔ _
  rw [View.set_slice_whole, Rect.mem_set_unit]
  exact Iff.rfl

/-- Every index of the array is in some point's block: row r in the block of point r / 2000. -/
theorem covered38_4 (i : S50000x64.Idx) :
    ∃ t : Fin cfg38.N, (cfg38.win 4).flush t = true ∧ i ∈ ((cfg38.win 4).blk t).view.set := by
  have hi0 : (i 0).val < 50000 := (i 0).isLt
  refine ⟨⟨(i 0).val / 2000, by rw [show cfg38.N = 25 from N_38]; omega⟩, flush38_4 _, ?_⟩
  have hi := index38_4 ⟨(i 0).val / 2000, by rw [show cfg38.N = 25 from N_38]; omega⟩
  rw [mem_blk38_4]
  intro a
  match a with
  | ⟨0, _⟩ =>
    show win38_4.index _ 0 * 2000 ≤ (i 0).val ∧ (i 0).val < win38_4.index _ 0 * 2000 + 2000
    rw [hi.1]; show (i 0).val / 2000 * 2000 ≤ (i 0).val ∧ (i 0).val < (i 0).val / 2000 * 2000 + 2000; omega
  | ⟨1, _⟩ =>
    show win38_4.index _ 1 * S2000x64.size 1 ≤ (i 1).val ∧ (i 1).val < win38_4.index _ 1 * S2000x64.size 1 + S2000x64.size 1
    rw [hi.2, Nat.zero_mul, Nat.zero_add]; exact ⟨Nat.zero_le _, (i 1).isLt⟩

/-- So the second full-size result array ends holding G14_4 of the three arrays. -/
theorem final38_4 (c : Dev nD) :
    (dat38 V c).arrAt 4 cfg38.N = G14_4 (V c (Pipeline.arrRef spec38 0)) (V c (Pipeline.arrRef spec38 1)) (V c (Pipeline.arrRef spec38 2)) :=
  (dat38 V c).arrAt_eq_of_cover 4 (G14_4 (xarr38 V c) (barr38 V c) (carr38 V c)) (fun t _ => flushed38_4 V c t) covered38_4

/-! ## The one-row result array after the run -/

/-- The one write-back (at the last point) writes the fold: the result's block there is the whole one-row array. -/
theorem flushed38_5 (c : Dev nD) (t : Fin cfg38.N) (hf : (cfg38.win 5).flush t = true) :
    (dat38 V c).flushed 5 t = ((cfg38.win 5).blk t).view.read (Elt F) (G14_5 (xarr38 V c) (barr38 V c) (carr38 V c)) := by
  have hN : t.val < 25 := lt_of_lt_of_eq t.isLt (show cfg38.N = 25 from N_38)
  have h24 : t.val = 24 := by have := (flush38_5 t).mp hf; omega
  have hi := index38_5 t
  show (cfg38.win 5).cut (grid38.coords t) ((dat38 V c).after 5 t) = _
  rw [after38_5, outsAt38_last V c t h24]
  have hz' : (fun a => win38_5.index t a * main_v343_2.ty.shape.size a) = fun _ => 0 := funext fun a => by
    match a with
    | ⟨0, _⟩ => show win38_5.index t 0 * _ = 0; rw [hi.1, Nat.zero_mul]
    | ⟨1, _⟩ => show win38_5.index t 1 * _ = 0; rw [hi.2, Nat.zero_mul]
  exact (Memref.read_access_unit_zero (Elt F) main_v343_2 hz' (fun a => by rw [congrFun hz' a]; simp) (G14_5 (xarr38 V c) (barr38 V c) (carr38 V c))).symm

/-- So the one-row result array ends holding the fold. -/
theorem final38_5 (c : Dev nD) :
    (dat38 V c).arrAt 5 cfg38.N = G14_5 (V c (Pipeline.arrRef spec38 0)) (V c (Pipeline.arrRef spec38 1)) (V c (Pipeline.arrRef spec38 2)) := by
  have h24 : (24 : ℕ) < cfg38.N := by rw [show cfg38.N = 25 from N_38]; omega
  refine (dat38 V c).arrAt_eq_of_cover 5 (G14_5 (xarr38 V c) (barr38 V c) (carr38 V c)) (flushed38_5 V c) fun i =>
    ⟨⟨24, h24⟩, (flush38_5 _).mpr rfl, ?_⟩
  have hi := index38_5 ⟨24, h24⟩
  have hx := xsize38_5 ⟨24, h24⟩
  show i ∈ ((View.whole main_v343_2).slice (win38_5.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win38_5.index ⟨24, h24⟩ 0 * win38_5.size 0 ≤ (i 0 : Nat) ∧ (i 0 : Nat) < win38_5.index ⟨24, h24⟩ 0 * win38_5.size 0 + win38_5.xsize (grid38.coords ⟨24, h24⟩) 0
    rw [hi.1, hx.1]; omega
  | ⟨1, _⟩ =>
    show win38_5.index ⟨24, h24⟩ 1 * win38_5.size 1 ≤ (i 1 : Nat) ∧ (i 1 : Nat) < win38_5.index ⟨24, h24⟩ 1 * win38_5.size 1 + win38_5.xsize (grid38.coords ⟨24, h24⟩) 1
    rw [hi.2, hx.2]; omega

end Cert.KernelIdeal.Hand

end
-- ==== Proof.KI.R39v.lean ====
import proofs.«408084_j48395691492010_3_alg».proof.Proof.KI.R39
import proofs.«408084_j48395691492010_3_alg».proof.Proof.KI.R3v

/-! Region 39, the value: the same kernel as region 3 at the same shapes, so the result is the same function `G3_2` of this
region's two arrays — the fold over the 25 row tiles, from the zero row, of each tile's column sum of squared deviations.
The found pieces read back and the fold's reading at the ideal values are region 3's; here: this region's blocks as
tiles of its arrays, the accumulator after each point as the fold (by induction on the point), and the result array. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The [50000, D] array of the rows, as the region finds it, -/
noncomputable abbrev xarr39 (c : Dev nD) : Vec F S50000x64 .f32 := V c (Pipeline.arrRef spec39 0)
/-- and the one row of column means. -/
noncomputable abbrev marr39 (c : Dev nD) : Vec F S1x64 .f32 := V c (Pipeline.arrRef spec39 1)

theorem index39_0 : ∀ t : Fin cfg39.N, win39_0.index t 0 = t.val ∧ win39_0.index t 1 = 0 :=
  (by decide +kernel : ∀ t : Fin grid39.N, win39_0.index t 0 = t.val ∧ win39_0.index t 1 = 0)
theorem index39_1 : ∀ t : Fin cfg39.N, win39_1.index t 0 = 0 ∧ win39_1.index t 1 = 0 :=
  (by decide +kernel : ∀ t : Fin grid39.N, win39_1.index t 0 = 0 ∧ win39_1.index t 1 = 0)
theorem index39_2 : ∀ t : Fin cfg39.N, win39_2.index t 0 = 0 ∧ win39_2.index t 1 = 0 :=
  (by decide +kernel : ∀ t : Fin grid39.N, win39_2.index t 0 = 0 ∧ win39_2.index t 1 = 0)
theorem xsize39_2 : ∀ t : Fin cfg39.N, win39_2.xsize (grid39.coords t) 0 = 1 ∧ win39_2.xsize (grid39.coords t) 1 = 64 :=
  (by decide +kernel : ∀ t : Fin grid39.N, win39_2.xsize (grid39.coords t) 0 = 1 ∧ win39_2.xsize (grid39.coords t) 1 = 64)

/-- The row-tile window's block at point `t` is row tile `t` of the array. -/
theorem xblk39_eq (c : Dev nD) (t : Fin cfg39.N) (hN : t.val < 25) :
    (iblk39 V c 0 t : Vec F S2000x64 .f32) = tile3 (xarr39 V c) ⟨t.val, hN⟩ := by
  have hi := index39_0 t
  funext j
  unfold iblk39 tile3
  rw [View.read_apply]
  show V c (Pipeline.arrRef spec39 0) _ = V c (Pipeline.arrRef spec39 0) _
  congr 1
  funext a
  apply Fin.ext
  match a with
  | ⟨0, _⟩ => show win39_0.index t 0 * 2000 + 1 * (j 0).val = 2000 * t.val + (j 0).val; rw [hi.1]; omega
  | ⟨1, _⟩ => show win39_0.index t 1 * 64 + 1 * (j 1).val = (j 1).val; rw [hi.2]; omega

/-- The mean window's block is the whole one-row array, at every point. -/
theorem mblk39_eq (c : Dev nD) (t : Fin cfg39.N) : (iblk39 V c 1 t : Vec F S1x64 .f32) = marr39 V c := by
  have hi := index39_1 t
  funext j
  unfold iblk39
  rw [View.read_apply]
  show V c (Pipeline.arrRef spec39 1) _ = V c (Pipeline.arrRef spec39 1) j
  congr 1
  funext a
  apply Fin.ext
  match a with
  | ⟨0, _⟩ => show win39_1.index t 0 * 1 + 1 * (j 0).val = (j 0).val; rw [hi.1]; omega
  | ⟨1, _⟩ => show win39_1.index t 1 * 64 + 1 * (j 1).val = (j 1).val; rw [hi.2]; omega

/-- What the accumulator holds after point `n` is the fold up to tile `n`: by induction on the point. -/
theorem outsAt39_acc (c : Dev nD) : ∀ (n : ℕ) (h : n < cfg39.N) (h' : n < 25),
    (outsAt39 V c n h).2 = acc3 (xarr39 V c) (marr39 V c) n h'
  | 0, h, h' => by
    rw [outsAt39_A V c ⟨0, h⟩ rfl (fun e => by have e' : (0 : ℕ) = 24 := e; omega)]
    dsimp only
    rw [sout3_A_eq, xblk39_eq V c ⟨0, h⟩ h', mblk39_eq V c ⟨0, h⟩]
    rfl
  | n + 1, h, h' => by
    have ih := outsAt39_acc c n (Nat.lt_of_succ_lt h) (Nat.lt_of_succ_lt h')
    by_cases h24 : n + 1 = 24
    · rw [outsAt39_C V c ⟨n + 1, h⟩ (Nat.succ_ne_zero n) h24]
      dsimp only
      rw [sout3_C_eq, xblk39_eq V c ⟨n + 1, h⟩ h', mblk39_eq V c ⟨n + 1, h⟩]
      show k3_pay2 _ _ (outsAt39 V c n _).2 = k3_pay2 _ _ (acc3 _ _ n _)
      rw [ih]
    · rw [outsAt39_B V c ⟨n + 1, h⟩ (Nat.succ_ne_zero n) h24]
      dsimp only
      rw [sout3_B_eq, xblk39_eq V c ⟨n + 1, h⟩ h', mblk39_eq V c ⟨n + 1, h⟩]
      show k3_pay2 _ _ (outsAt39 V c n _).2 = k3_pay2 _ _ (acc3 _ _ n _)
      rw [ih]

/-- At the last point the result's buffer is left holding the whole fold. -/
theorem outsAt39_last (c : Dev nD) (t : Fin cfg39.N) (h24 : t.val = 24) :
    (outsAt39 V c t.val t.isLt).1 = G3_2 (xarr39 V c) (marr39 V c) := by
  obtain ⟨n, hn⟩ := t
  obtain rfl : n = 24 := h24
  rw [outsAt39_C V c ⟨24, hn⟩ (fun e => by have e' : (24 : ℕ) = 0 := e; omega) rfl]
  dsimp only
  rw [out3_C_eq, xblk39_eq V c ⟨24, hn⟩ (by show (24 : ℕ) < 25; omega), mblk39_eq V c ⟨24, hn⟩]
  show k3_pay2 _ _ (outsAt39 V c 23 _).2 = k3_pay2 _ _ (acc3 _ _ 23 _)
  rw [outsAt39_acc V c 23 _ (by decide)]

/-- The one write-back (at the last point) writes the fold: the result's block there is the whole one-row array. -/
theorem flushed39_2 (c : Dev nD) (t : Fin cfg39.N) (hf : (cfg39.win 2).flush t = true) :
    (dat39 V c).flushed 2 t = ((cfg39.win 2).blk t).view.read (Elt F) (G3_2 (xarr39 V c) (marr39 V c)) := by
  have hN : t.val < 25 := lt_of_lt_of_eq t.isLt (show cfg39.N = 25 from N_39)
  have h24 : t.val = 24 := by have := (flush39_2 t).mp hf; omega
  have hi := index39_2 t
  show (cfg39.win 2).cut (grid39.coords t) ((dat39 V c).after 2 t) = _
  rw [after39_2, outsAt39_last V c t h24]
  have hz' : (fun a => win39_2.index t a * main_v346.ty.shape.size a) = fun _ => 0 := funext fun a => by
    match a with
    | ⟨0, _⟩ => show win39_2.index t 0 * _ = 0; rw [hi.1, Nat.zero_mul]
    | ⟨1, _⟩ => show win39_2.index t 1 * _ = 0; rw [hi.2, Nat.zero_mul]
  exact (Memref.read_access_unit_zero (Elt F) main_v346 hz' (fun a => by rw [congrFun hz' a]; simp) (G3_2 (xarr39 V c) (marr39 V c))).symm

/-- So the result array ends holding the fold: region 3's function of this region's two arrays. -/
theorem final39_2 (c : Dev nD) : (dat39 V c).arrAt 2 cfg39.N = G3_2 (V c (Pipeline.arrRef spec39 0)) (V c (Pipeline.arrRef spec39 1)) := by
  have h24 : (24 : ℕ) < cfg39.N := by rw [show cfg39.N = 25 from N_39]; omega
  refine (dat39 V c).arrAt_eq_of_cover 2 (G3_2 (xarr39 V c) (marr39 V c)) (flushed39_2 V c) fun i =>
    ⟨⟨24, h24⟩, (flush39_2 _).mpr rfl, ?_⟩
  have hi := index39_2 ⟨24, h24⟩
  have hx := xsize39_2 ⟨24, h24⟩
  show i ∈ ((View.whole main_v346).slice (win39_2.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win39_2.index ⟨24, h24⟩ 0 * win39_2.size 0 ≤ (i 0 : Nat) ∧ (i 0 : Nat) < win39_2.index ⟨24, h24⟩ 0 * win39_2.size 0 + win39_2.xsize (grid39.coords ⟨24, h24⟩) 0
    rw [hi.1, hx.1]; omega
  | ⟨1, _⟩ =>
    show win39_2.index ⟨24, h24⟩ 1 * win39_2.size 1 ≤ (i 1 : Nat) ∧ (i 1 : Nat) < win39_2.index ⟨24, h24⟩ 1 * win39_2.size 1 + win39_2.xsize (grid39.coords ⟨24, h24⟩) 1
    rw [hi.2, hx.2]; omega

end Cert.KernelIdeal.Hand

end
-- ==== Proof.KI.R40v.lean ====
import proofs.«408084_j48395691492010_3_alg».proof.Proof.KI.R40
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws

/-!
# Region 40: the array it leaves, as one function of the arrays it finds

Every grid point writes one block of 2000 rows of the output, and the 25 blocks tile the 50000 rows; the four
single-row inputs are the same block at every point. So the output array after the run is one function of the five
arrays the region finds. Entry (r, q) is computed from row r of the activations alone:

  bn[r,k] = (x[r,k] - mean[k]) * rsqrt (var[k] + eps) * gamma[k] + beta[k],
  out[r,q] = exp (bn[r,q] - max_k bn[r,k]) / (1 + Σ_k exp (bn[r,k] - max_k bn[r,k])).

At a generic float instance the row's sum is the instance's reduction of the whole 2000-row block that holds the
row, so the function is stated through that block; over the extended reals the reduction is a sum over the row and
the block drops out.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable {F : FTy → Type} [FloatOps F]

/-! ## The layout operations of the body, read at an index -/

section Layout40
variable {α : Type}

/-- A vector of 2000 entries cast to a column reads, at (p, 0), entry p. -/
theorem castCol40 (v : S2000.Idx → α) (h : S2000.ShapeCasts S2000x1) :
    shapeCast S2000x1 v h = fun y => v (ix1 (y 0)) := by
  funext y
  obtain ⟨p, u, rfl⟩ : ∃ (p : Fin 2000) (u : Fin 1), y = ix2 p u := ⟨y 0, y 1, eq_ix2 y⟩
  refine shapeCast_apply v h (ix2 p u) (ix1 p) ?_
  have hu : u.val = 0 := by omega
  rw [Shape.rowMajor_val_two, Shape.rowMajor_val_one]
  show p.val = p.val * 1 + u.val
  rw [hu, Nat.mul_one, Nat.add_zero]

/-- A column broadcast along the rows reads, at (p, k), the column's entry p. -/
theorem bcastCol40 (v : S2000x1.Idx → α) (h : S2000x1.Broadcasts S2000x64) :
    broadcastTo S2000x64 v h = fun y => v (ix2 (y 0) (0 : Fin 1)) := by
  funext y
  obtain ⟨p, k, rfl⟩ : ∃ (p : Fin 2000) (k : Fin 64), y = ix2 p k := ⟨y 0, y 1, eq_ix2 y⟩
  refine broadcastTo_apply v h (ix2 p k) (ix2 p (0 : Fin 1)) fun ax => ?_
  match ax with
  | ⟨0, _⟩ => rfl
  | ⟨1, _⟩ => rfl

/-- A single row broadcast down the block reads, at (p, k), the row's entry k. -/
theorem bcastRow40 (v : S1x64.Idx → α) (h : S1x64.Broadcasts S2000x64) :
    broadcastTo S2000x64 v h = fun y => v (ix2 (0 : Fin 1) (y 1)) := by
  funext y
  obtain ⟨p, k, rfl⟩ : ∃ (p : Fin 2000) (k : Fin 64), y = ix2 p k := ⟨y 0, y 1, eq_ix2 y⟩
  exact broadcastTo_1b_ab_apply v h p k

end Layout40

/-! ## The body's result on a block, by coordinates -/

/-- The batch-norm of a block, entry by entry, in the body's order of operations. -/
noncomputable def bn40 (v0 : Vec F S2000x64 .f32) (v2 v6 v13 v17 : Vec F S1x64 .f32) : FVec F S2000x64 .f32 := fun y =>
  FloatOps.addf (FloatOps.mulf (FloatOps.mulf (FloatOps.subf (v0 y) (v2 (ix2 (0 : Fin 1) (y 1))))
      (FloatOps.rsqrt (FloatOps.addf (v6 (ix2 (0 : Fin 1) (y 1))) (FloatOps.ofBits .f32 0x3727C5AC#32))))
      (v13 (ix2 (0 : Fin 1) (y 1)))) (v17 (ix2 (0 : Fin 1) (y 1)))

/-- Its row maxima: the body's reduction along the columns, started from minus infinity. -/
noncomputable def mx40 (v0 : Vec F S2000x64 .f32) (v2 v6 v13 v17 : Vec F S1x64 .f32) : FVec F S2000 .f32 :=
  multiReduction .maximumf [1] S2000 (bn40 v0 v2 v6 v13 v17) 0xFF800000#32 reduces_S2000x64_S2000 (.inl rfl) rfl

/-- The exponentials of the batch-norm less its row maximum. -/
noncomputable def e40 (v0 : Vec F S2000x64 .f32) (v2 v6 v13 v17 : Vec F S1x64 .f32) : FVec F S2000x64 .f32 := fun y =>
  FloatOps.exp (FloatOps.subf (bn40 v0 v2 v6 v13 v17 y) (mx40 v0 v2 v6 v13 v17 (ix1 (y 0))))

/-- Their row sums: the body's reduction along the columns, started from zero. -/
noncomputable def sm40 (v0 : Vec F S2000x64 .f32) (v2 v6 v13 v17 : Vec F S1x64 .f32) : FVec F S2000 .f32 :=
  multiReduction .add [1] S2000 (e40 v0 v2 v6 v13 v17) 0x00000000#32 reduces_S2000x64_S2000 (.inl rfl) rfl

/-- What the body stores: each exponential over one plus its row's sum. -/
noncomputable def P40 (v0 : Vec F S2000x64 .f32) (v2 v6 v13 v17 : Vec F S1x64 .f32) : Vec F S2000x64 .f32 := fun y =>
  FloatOps.divf (e40 v0 v2 v6 v13 v17 y)
    (FloatOps.addf (FloatOps.ofBits .f32 0x3F800000#32) (sm40 v0 v2 v6 v13 v17 (ix1 (y 0))))

/-- The skeleton's payload is that function: its layout operations read at an index, the rest unfolds. -/
theorem pay40_eq (v0 : Vec F S2000x64 .f32) (v2 v6 v13 v17 : Vec F S1x64 .f32) :
    k40_pay1 v0 v2 v6 v13 v17 = P40 v0 v2 v6 v13 v17 := by
  unfold k40_pay1
  simp only [shapeCast_self, bcastRow40, bcastCol40, castCol40]
  rfl

/-! ## The output array as one function of the arrays the region finds -/

/-- Rows q·2000 … q·2000 + 1999 of an array of 50000 rows. -/
noncomputable def rows40 (x : S50000x64.Idx → Elt F .f32) (q : Fin 25) : Vec F S2000x64 .f32 := fun y =>
  x (ix2 (⟨q.val * 2000 + (y 0).val, by have := idx2_lt0 y; have := q.isLt; omega⟩ : Fin 50000) (y 1))

/-- The block of 2000 rows that holds an entry's row, -/
noncomputable def blkOf40 (i : S50000x64.Idx) : Fin 25 := ⟨(i 0).val / 2000, by have := idx2_lt0 i; omega⟩
/-- and the row's place in it. -/
noncomputable def rowIn40 (i : S50000x64.Idx) : Fin 2000 := ⟨(i 0).val % 2000, Nat.mod_lt _ (by decide)⟩

/-- The output array: at each entry, the body's result on the block of 2000 rows of the activations that holds
    the entry's row, at the row's place in the block. -/
noncomputable def G40 (x : S50000x64.Idx → Elt F .f32) (mu va ga be : S1x64.Idx → Elt F .f32) : S50000x64.Idx → Elt F .f32 := fun i =>
  P40 (rows40 x (blkOf40 i)) mu va ga be (ix2 (rowIn40 i) (i 1))

/-- The output array read under block q at a place j of the block. -/
theorem G40_blk (x : S50000x64.Idx → Elt F .f32) (mu va ga be : S1x64.Idx → Elt F .f32) (q : Fin 25) (j : S2000x64.Idx)
    (i : S50000x64.Idx) (h0 : (i 0).val = q.val * 2000 + (j 0).val) (h1 : (i 1).val = (j 1).val) :
    G40 x mu va ga be i = P40 (rows40 x q) mu va ga be j := by
  have hj0 : (j 0).val < 2000 := idx2_lt0 j
  have hq : blkOf40 i = q := Fin.ext (by show (i 0).val / 2000 = q.val; omega)
  have hj : ix2 (rowIn40 i) (i 1) = j := by
    funext a
    match a with
    | ⟨0, _⟩ => exact Fin.ext (by show (i 0).val % 2000 = (j 0).val; omega)
    | ⟨1, _⟩ => exact Fin.ext h1
  unfold G40
  rw [hq]
  exact congrArg (P40 (rows40 x q) mu va ga be) hj

section Region40v
variable (V : (c : Dev nD) → (b : Ref sig .tc) → Buf (Elt F) ((c : Thread nD τ).loc b))

theorem hz40 : (![0, 0] : Fin 2 → Nat) = fun _ => 0 := funext fun a => by fin_cases a <;> rfl

/-- The windows' block indices, decided over the 25 grid points: the activations and the output move one block of
    rows per point, the four single rows stay. -/
theorem idx40 : ∀ t : Fin cfg40.N,
    win40_0.index t (0 : Fin 2) = t.val ∧ win40_0.index t (1 : Fin 2) = 0
    ∧ win40_1.index t (0 : Fin 2) = 0 ∧ win40_1.index t (1 : Fin 2) = 0
    ∧ win40_2.index t (0 : Fin 2) = 0 ∧ win40_2.index t (1 : Fin 2) = 0
    ∧ win40_3.index t (0 : Fin 2) = 0 ∧ win40_3.index t (1 : Fin 2) = 0
    ∧ win40_4.index t (0 : Fin 2) = 0 ∧ win40_4.index t (1 : Fin 2) = 0
    ∧ win40_5.index t (0 : Fin 2) = t.val ∧ win40_5.index t (1 : Fin 2) = 0 :=
  (by decide +kernel : ∀ t : Fin grid40.N, _)

/-- The activations' block at point t is rows t·2000 … of their array. -/
theorem iblk40_0_eq (c : Dev nD) (t : Fin cfg40.N) :
    (iblk40 V c 0 t : S2000x64.Idx → Elt F .f32) = rows40 (V c (Pipeline.arrRef spec40 0)) (t.cast N_40) := by
  obtain ⟨e0, e1, -⟩ := idx40 t
  funext y
  show V c (Pipeline.arrRef spec40 0) (((cfg40.win 0).blk t).view.emb y) = V c (Pipeline.arrRef spec40 0) _
  refine congrArg _ (funext fun a => Fin.ext ?_)
  match a with
  | ⟨0, _⟩ => show win40_0.index t (0 : Fin 2) * 2000 + 1 * (y 0).val = t.val * 2000 + (y 0).val; omega
  | ⟨1, _⟩ => show win40_0.index t (1 : Fin 2) * 64 + 1 * (y 1).val = (y 1).val; omega

/-- Each single row's block is, at every point, its whole array. -/
theorem iblk40_1_eq (c : Dev nD) (t : Fin cfg40.N) : (iblk40 V c 1 t : S1x64.Idx → Elt F .f32) = V c (Pipeline.arrRef spec40 1) := by
  obtain ⟨-, -, e0, e1, -⟩ := idx40 t
  funext y
  show V c (Pipeline.arrRef spec40 1) (((cfg40.win 1).blk t).view.emb y) = V c (Pipeline.arrRef spec40 1) y
  refine congrArg _ (funext fun a => Fin.ext ?_)
  match a with
  | ⟨0, _⟩ => show win40_1.index t (0 : Fin 2) * 1 + 1 * (y 0).val = (y 0).val; omega
  | ⟨1, _⟩ => show win40_1.index t (1 : Fin 2) * 64 + 1 * (y 1).val = (y 1).val; omega
theorem iblk40_2_eq (c : Dev nD) (t : Fin cfg40.N) : (iblk40 V c 2 t : S1x64.Idx → Elt F .f32) = V c (Pipeline.arrRef spec40 2) := by
  obtain ⟨-, -, -, -, e0, e1, -⟩ := idx40 t
  funext y
  show V c (Pipeline.arrRef spec40 2) (((cfg40.win 2).blk t).view.emb y) = V c (Pipeline.arrRef spec40 2) y
  refine congrArg _ (funext fun a => Fin.ext ?_)
  match a with
  | ⟨0, _⟩ => show win40_2.index t (0 : Fin 2) * 1 + 1 * (y 0).val = (y 0).val; omega
  | ⟨1, _⟩ => show win40_2.index t (1 : Fin 2) * 64 + 1 * (y 1).val = (y 1).val; omega
theorem iblk40_3_eq (c : Dev nD) (t : Fin cfg40.N) : (iblk40 V c 3 t : S1x64.Idx → Elt F .f32) = V c (Pipeline.arrRef spec40 3) := by
  obtain ⟨-, -, -, -, -, -, e0, e1, -⟩ := idx40 t
  funext y
  show V c (Pipeline.arrRef spec40 3) (((cfg40.win 3).blk t).view.emb y) = V c (Pipeline.arrRef spec40 3) y
  refine congrArg _ (funext fun a => Fin.ext ?_)
  match a with
  | ⟨0, _⟩ => show win40_3.index t (0 : Fin 2) * 1 + 1 * (y 0).val = (y 0).val; omega
  | ⟨1, _⟩ => show win40_3.index t (1 : Fin 2) * 64 + 1 * (y 1).val = (y 1).val; omega
theorem iblk40_4_eq (c : Dev nD) (t : Fin cfg40.N) : (iblk40 V c 4 t : S1x64.Idx → Elt F .f32) = V c (Pipeline.arrRef spec40 4) := by
  obtain ⟨-, -, -, -, -, -, -, -, e0, e1, -⟩ := idx40 t
  funext y
  show V c (Pipeline.arrRef spec40 4) (((cfg40.win 4).blk t).view.emb y) = V c (Pipeline.arrRef spec40 4) y
  refine congrArg _ (funext fun a => Fin.ext ?_)
  match a with
  | ⟨0, _⟩ => show win40_4.index t (0 : Fin 2) * 1 + 1 * (y 0).val = (y 0).val; omega
  | ⟨1, _⟩ => show win40_4.index t (1 : Fin 2) * 64 + 1 * (y 1).val = (y 1).val; omega

set_option maxHeartbeats 1000000 in
/-- What point t writes back is block t of the output array. -/
theorem flushed40_eq (c : Dev nD) (t : Fin cfg40.N) :
    (dat40 V c).flushed 5 t = ((cfg40.win 5).blk t).view.read (Elt F)
      (G40 (V c (Pipeline.arrRef spec40 0)) (V c (Pipeline.arrRef spec40 1)) (V c (Pipeline.arrRef spec40 2))
        (V c (Pipeline.arrRef spec40 3)) (V c (Pipeline.arrRef spec40 4))) := by
  show (cfg40.win 5).cut (grid40.coords t) ((dat40 V c).after 5 t) = _
  rw [after40_5]
  unfold out40_5
  rw [View.canon_unit_zero hz40]
  simp only [View.ld_unit_zero (S := S2000x64) hz40, View.ld_unit_zero (S := S1x64) hz40]
  rw [pay40_eq, iblk40_0_eq, iblk40_1_eq, iblk40_2_eq, iblk40_3_eq, iblk40_4_eq]
  obtain ⟨-, -, -, -, -, -, -, -, -, -, e0, e1⟩ := idx40 t
  funext j
  show P40 (rows40 _ (t.cast N_40)) _ _ _ _ j = G40 _ _ _ _ _ (((cfg40.win 5).blk t).view.emb j)
  refine (G40_blk _ _ _ _ _ (t.cast N_40) j (((cfg40.win 5).blk t).view.emb j) ?_ ?_).symm
  · show win40_5.index t (0 : Fin 2) * 2000 + 1 * (j 0).val = t.val * 2000 + (j 0).val; omega
  · show win40_5.index t (1 : Fin 2) * 64 + 1 * (j 1).val = (j 1).val; omega

/-- An entry of the array is in point t's block iff each coordinate is in the block's range on its axis. -/
theorem mem_blk40 (t : Fin cfg40.N) (i : S50000x64.Idx) :
    i ∈ ((cfg40.win 5).blk t).view.set ↔ ∀ a : Fin 2, win40_5.index t a * S2000x64.size a ≤ (i a).val ∧ (i a).val < win40_5.index t a * S2000x64.size a + S2000x64.size a := by
  show i ∈ ((View.whole main_v351).slice (win40_5.rect t)).set ↔ _
  rw [View.set_slice_whole, Rect.mem_set_unit]
  exact Iff.rfl

/-- Every entry is in the block of the point numbered by its row over 2000. -/
theorem covered40 (i : S50000x64.Idx) : ∃ t : Fin cfg40.N, (cfg40.win 5).flush t = true ∧ i ∈ ((cfg40.win 5).blk t).view.set := by
  have hi0 : (i 0).val < 50000 := idx2_lt0 i
  have hi1 : (i 1).val < 64 := idx2_lt1 i
  have ht : ∃ t : Fin cfg40.N, t.val = (i 0).val / 2000 := ⟨(⟨(i 0).val / 2000, by omega⟩ : Fin 25).cast N_40.symm, rfl⟩
  obtain ⟨t, ht⟩ := ht
  obtain ⟨-, -, -, -, -, -, -, -, -, -, e0, e1⟩ := idx40 t
  refine ⟨t, flush40_5 t, ?_⟩
  rw [mem_blk40]
  intro a
  match a with
  | ⟨0, _⟩ => show win40_5.index t (0 : Fin 2) * 2000 ≤ (i 0).val ∧ (i 0).val < win40_5.index t (0 : Fin 2) * 2000 + 2000; omega
  | ⟨1, _⟩ => show win40_5.index t (1 : Fin 2) * 64 ≤ (i 1).val ∧ (i 1).val < win40_5.index t (1 : Fin 2) * 64 + 64; omega

/-- The output array after the run. -/
theorem final40_5 (c : Dev nD) :
    (dat40 V c).arrAt 5 cfg40.N = G40 (V c (Pipeline.arrRef spec40 0)) (V c (Pipeline.arrRef spec40 1)) (V c (Pipeline.arrRef spec40 2))
      (V c (Pipeline.arrRef spec40 3)) (V c (Pipeline.arrRef spec40 4)) :=
  (dat40 V c).arrAt_eq_of_cover 5 _ (fun t _ => flushed40_eq V c t) covered40

end Region40v

/-! ## The output array over the extended reals, entry by entry -/

section Ideal40

/-- The source entry of a row reduction over a block: the result's row p with k put back on the column axis. -/
theorem lift40 (h : S2000x64.Reduces [1] S2000) (p : Fin 2000) (k : Fin 64) : h.lift (ix1 p) k = ix2 p k := by
  funext a
  match a with
  | ⟨0, _⟩ => exact Fin.ext rfl
  | ⟨1, _⟩ => exact Fin.ext rfl

section Block40
variable (X : Vec Ideal S2000x64 .f32) (mu va ga be : Vec Ideal S1x64 .f32)

/-- The block's batch-norm at an entry. -/
theorem bn40_apply (p : Fin 2000) (k : Fin 64) :
    bn40 (F := Ideal) X mu va ga be (ix2 p k)
      = ((X (ix2 p k) : EReal) - mu (ix2 0 k)) * Ideal.rsqrt (va (ix2 0 k) + Cert.Val.cEps) * ga (ix2 0 k) + be (ix2 0 k) := rfl

/-- A row's maximum: the fold of max over the row, from minus infinity. -/
theorem mx40_apply (p : Fin 2000) :
    mx40 (F := Ideal) X mu va ga be (ix1 p) = Cert.Val.rowMax (fun k : Fin 64 => bn40 (F := Ideal) X mu va ga be (ix2 p k)) := by
  unfold mx40
  refine (Ideal.multiReduction_maximumf_single (bn40 (F := Ideal) X mu va ga be) 0xFF800000#32 reduces_S2000x64_S2000 (.inl rfl) rfl
    (ix1 p)).trans ?_
  have hf : (bn40 (F := Ideal) X mu va ga be ∘ (reduces_S2000x64_S2000).lift (ix1 p))
      = fun k : Fin 64 => bn40 (F := Ideal) X mu va ga be (ix2 p k) :=
    funext fun k => congrArg (bn40 (F := Ideal) X mu va ga be) (lift40 _ p k)
  exact congrArg (fun f => (Finset.univ : Finset (Fin 64)).fold max Cert.Val.cNegInf f) hf

/-- The exponentials at an entry. -/
theorem e40_apply (p : Fin 2000) (k : Fin 64) :
    e40 (F := Ideal) X mu va ga be (ix2 p k)
      = Ideal.exp (bn40 (F := Ideal) X mu va ga be (ix2 p k) - Cert.Val.rowMax (fun k' : Fin 64 => bn40 (F := Ideal) X mu va ga be (ix2 p k'))) := by
  show Ideal.exp (bn40 (F := Ideal) X mu va ga be (ix2 p k) - mx40 (F := Ideal) X mu va ga be (ix1 p)) = _
  rw [mx40_apply]

/-- A row's sum of exponentials: the sum over the row. -/
theorem sm40_apply (p : Fin 2000) :
    sm40 (F := Ideal) X mu va ga be (ix1 p) = ∑ k : Fin 64, e40 (F := Ideal) X mu va ga be (ix2 p k) := by
  unfold sm40
  refine (Ideal.multiReduction_add_single (e40 (F := Ideal) X mu va ga be) 0x00000000#32 reduces_S2000x64_S2000 (.inl rfl) rfl
    (ix1 p)).trans ?_
  exact Finset.sum_congr rfl fun k _ => congrArg (e40 (F := Ideal) X mu va ga be) (lift40 _ p k)

/-- What the body stores, at an entry. -/
theorem P40_apply (p : Fin 2000) (k : Fin 64) :
    P40 (F := Ideal) X mu va ga be (ix2 p k)
      = Ideal.div (e40 (F := Ideal) X mu va ga be (ix2 p k)) (Cert.Val.cOne + sm40 (F := Ideal) X mu va ga be (ix1 p)) := rfl

end Block40

/-- The block that holds row r, read at the row's place, is row r of the array. -/
theorem rows40_at (x : S50000x64.Idx → Elt Ideal .f32) (r : Fin 50000) (q k : Fin 64) :
    rows40 x (blkOf40 (ix2 r q)) (ix2 (rowIn40 (ix2 r q)) k) = x (ix2 r k) := by
  unfold rows40
  refine congrArg x (funext fun a => ?_)
  match a with
  | ⟨0, _⟩ => exact Fin.ext (by show (r.val / 2000) * 2000 + r.val % 2000 = r.val; omega)
  | ⟨1, _⟩ => rfl

/-- THE OUTPUT ARRAY AT AN ENTRY: the row softmax with one added to the denominator, of the batch-norm of row r of
    the activations with the given column statistics, scale and shift. -/
theorem G40_apply (x : S50000x64.Idx → Elt Ideal .f32) (mu va ga be : S1x64.Idx → Elt Ideal .f32) (r : Fin 50000) (q : Fin 64) :
    G40 (F := Ideal) x mu va ga be (ix2 r q)
      = Cert.Val.smOne (fun j' => Cert.Val.bnAt (fun i j => x (ix2 i j)) (fun j => mu (ix2 0 j)) (fun j => va (ix2 0 j))
          (fun j => ga (ix2 0 j)) (fun j => be (ix2 0 j)) r j') q := by
  have hb : ∀ k : Fin 64, bn40 (F := Ideal) (rows40 x (blkOf40 (ix2 r q))) mu va ga be (ix2 (rowIn40 (ix2 r q)) k)
      = Cert.Val.bnAt (fun i j => x (ix2 i j)) (fun j => mu (ix2 0 j)) (fun j => va (ix2 0 j))
          (fun j => ga (ix2 0 j)) (fun j => be (ix2 0 j)) r k := by
    intro k
    rw [bn40_apply, rows40_at]
    rfl
  show P40 (F := Ideal) (rows40 x (blkOf40 (ix2 r q))) mu va ga be (ix2 (rowIn40 (ix2 r q)) q) = _
  rw [P40_apply, sm40_apply]
  simp only [e40_apply, hb]
  rfl

end Ideal40

end Cert.KernelIdeal.Hand

end
-- ==== Proof.KI.R41v.lean ====
import proofs.«408084_j48395691492010_3_alg».proof.Proof.KI.R41
import Idealize.ShloMosaic.Lib.Pipeline.Value
import Idealize.ShloMosaic.Lib.ValueIdx
import Idealize.ShloMosaic.PureOps.Ideal.Laws

/-! # Region 41, read: the output array is the product of the two input arrays

The frame part gives, point by point, the block of products the body leaves in the output window. Here the
blocks are put together: after the last point the output array is one function G41 of the two input arrays
as the region finds them, and at the ideal values entry (r, q) of it is the sum over k of x (r, k) · w (k, q). -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Value41

/-- The contracted extent (columns of X, rows of W) and the number of columns of W. -/
abbrev kdim41 : Nat := 64
abbrev ncol41 : Nat := 64

/-! ## The product as a function of the two arrays

The unit that multiplies is given a block of rows at a time, so the function of the arrays is stated that
way: entry (r, q) is the entry of the product of the block of rows holding row r with W, at that row's
place in the block. At the ideal values a block's product is the sum over the contracted axis, and the
blocks fall away. -/

/-- The block of consecutive rows of x that holds row r, its rows numbered from the block's first. -/
noncomputable def rowsOf41 (x : S50000x64.Idx → Elt F .f32) (r : Fin 50000) : Vec F S2000x64 .f32 :=
  fun y => x (ix2 ⟨r.val / 2000 * 2000 + (y 0).val, by
    have h0 : (y 0).val < 2000 := (y 0).isLt
    have hr := r.isLt
    omega⟩ (y 1))

/-- Entry i of the product: the payload at the block of rows holding row i 0 and at W, read at the row's
    place in its block and column i 1. -/
noncomputable def G41 (x : S50000x64.Idx → Elt F .f32) (w : S64x64.Idx → Elt F .f32) : S50000x64.Idx → Elt F .f32 :=
  fun i => k41_pay1 (rowsOf41 x (i 0)) w (ix2 ⟨(i 0).val % 2000, Nat.mod_lt _ (by decide)⟩ (i 1))

/-- Entry i of the product from ANY description of the block b that holds its row: the block of rows as
    xb, the matrix as wb, the entry's place in the block as j. -/
theorem G41_of_block (x : S50000x64.Idx → Elt F .f32) (w : S64x64.Idx → Elt F .f32) (b : Nat)
    (i : S50000x64.Idx) (j : S2000x64.Idx) (h0 : (i 0).val = b * 2000 + (j 0).val) (h1 : (i 1).val = (j 1).val)
    (xb : Vec F S2000x64 .f32) (wb : Vec F S64x64 .f32) (hw : wb = w)
    (hx : ∀ (y : S2000x64.Idx) (hy : b * 2000 + (y 0).val < 50000), xb y = x (ix2 ⟨b * 2000 + (y 0).val, hy⟩ (y 1))) :
    G41 x w i = k41_pay1 xb wb j := by
  have hj0 : (j 0).val < 2000 := (j 0).isLt
  have hi0 : (i 0).val < 50000 := (i 0).isLt
  have hrows : rowsOf41 x (i 0) = xb := by
    funext y
    have hy0 : (y 0).val < 2000 := (y 0).isLt
    have hq : (i 0).val / 2000 * 2000 = b * 2000 := by omega
    rw [hx y (by omega)]
    unfold rowsOf41
    congr 1
    funext d; apply Fin.ext
    match d with
    | ⟨0, _⟩ => show (i 0).val / 2000 * 2000 + (y 0).val = b * 2000 + (y 0).val; omega
    | ⟨1, _⟩ => rfl
  have hplace : (ix2 ⟨(i 0).val % 2000, Nat.mod_lt _ (by decide)⟩ (i 1) : S2000x64.Idx) = j := by
    funext d; apply Fin.ext
    match d with
    | ⟨0, _⟩ => show (i 0).val % 2000 = (j 0).val; omega
    | ⟨1, _⟩ => exact h1
  unfold G41
  rw [hrows, hplace, hw]

/-! ### The operand indices of the contraction, axis by axis -/

theorem lhsAx41_0 (j : S2000x64.Idx) (k : dot_S2000x64_S64x64_S2000x64_1_0_0_1_n_n.contr.Idx) :
    (dot_S2000x64_S64x64_S2000x64_1_0_0_1_n_n.lhsIdx j k (0 : Fin 2)).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

theorem lhsAx41_1 (j : S2000x64.Idx) (k : dot_S2000x64_S64x64_S2000x64_1_0_0_1_n_n.contr.Idx) :
    (dot_S2000x64_S64x64_S2000x64_1_0_0_1_n_n.lhsIdx j k (1 : Fin 2)).val = (k ⟨0, by decide⟩).val :=
  dot_S2000x64_S64x64_S2000x64_1_0_0_1_n_n.lhsIdx_val_of_single (cl := (1 : Fin 2)) rfl j k

theorem rhsAx41_0 (j : S2000x64.Idx) (k : dot_S2000x64_S64x64_S2000x64_1_0_0_1_n_n.contr.Idx) :
    (dot_S2000x64_S64x64_S2000x64_1_0_0_1_n_n.rhsIdx j k (0 : Fin 2)).val = (k ⟨0, by decide⟩).val :=
  dot_S2000x64_S64x64_S2000x64_1_0_0_1_n_n.rhsIdx_val_of_single (cr := (0 : Fin 2)) rfl j k

theorem rhsAx41_1 (j : S2000x64.Idx) (k : dot_S2000x64_S64x64_S2000x64_1_0_0_1_n_n.contr.Idx) :
    (dot_S2000x64_S64x64_S2000x64_1_0_0_1_n_n.rhsIdx j k (1 : Fin 2)).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The payload at the ideal values, at an index: the sum over the contracted axis. -/
theorem k41_pay1_apply (a : Vec Ideal S2000x64 .f32) (b : Vec Ideal S64x64 .f32) (p : Fin 2000) (q : Fin ncol41) :
    k41_pay1 (F := Ideal) a b (ix2 p q) = ∑ k : Fin kdim41, a (ix2 p k) * b (ix2 k q) := by
  unfold k41_pay1
  simp only [shapeCast_self]
  refine (Ideal.matmul_constant_zero_apply _ _ _ _ _).trans ?_
  rw [← Equiv.sum_comp (contrEquiv1 dot_S2000x64_S64x64_S2000x64_1_0_0_1_n_n kdim41 rfl rfl).symm]
  refine Finset.sum_congr rfl fun k _ => ?_
  have hl : dot_S2000x64_S64x64_S2000x64_1_0_0_1_n_n.lhsIdx (ix2 p q) ((contrEquiv1 dot_S2000x64_S64x64_S2000x64_1_0_0_1_n_n kdim41 rfl rfl).symm k) = ix2 p k := by
    funext d; apply Fin.ext
    match d with
    | ⟨0, _⟩ => exact lhsAx41_0 _ _
    | ⟨1, _⟩ => exact (lhsAx41_1 _ _).trans (contrEquiv1_symm_val _ kdim41 rfl rfl k)
  have hr : dot_S2000x64_S64x64_S2000x64_1_0_0_1_n_n.rhsIdx (ix2 p q) ((contrEquiv1 dot_S2000x64_S64x64_S2000x64_1_0_0_1_n_n kdim41 rfl rfl).symm k) = ix2 k q := by
    funext d; apply Fin.ext
    match d with
    | ⟨0, _⟩ => exact (rhsAx41_0 _ _).trans (contrEquiv1_symm_val _ kdim41 rfl rfl k)
    | ⟨1, _⟩ => exact rhsAx41_1 _ _
  rw [hl, hr]

/-- Entry (r, q) of the product at the ideal values: the sum over k of x (r, k) · w (k, q). -/
theorem G41_apply (x : S50000x64.Idx → Elt Ideal .f32) (w : S64x64.Idx → Elt Ideal .f32) (r : Fin 50000) (q : Fin ncol41) :
    G41 (F := Ideal) x w (ix2 r q) = ∑ k : Fin kdim41, x (ix2 r k) * w (ix2 k q) := by
  unfold G41
  rw [k41_pay1_apply]
  refine Finset.sum_congr rfl fun k _ => ?_
  unfold rowsOf41
  have hrow : (ix2 (⟨r.val / 2000 * 2000 + r.val % 2000, by have := r.isLt; omega⟩ : Fin 50000) k : S50000x64.Idx) = ix2 r k := by
    funext d; apply Fin.ext
    match d with
    | ⟨0, _⟩ => show r.val / 2000 * 2000 + r.val % 2000 = r.val; omega
    | ⟨1, _⟩ => rfl
  exact congrArg (fun z => x z * w (ix2 k q)) hrow

end Value41

/-! ## From the blocks written back to the array -/

section Final41
variable (V : (c : Dev nD) → (b : Ref sig .tc) → Buf (Elt F) ((c : Thread nD τ).loc b))

theorem hz41 : (![0, 0] : Fin 2 → Nat) = fun _ => 0 := funext fun a => by fin_cases a <;> rfl

/-- The index maps over the grid: the rows of X and of the product move with the point, one block a point;
    W stays; no window moves along its columns. -/
theorem idx_facts41 : ∀ t : Fin cfg41.N,
    win41_0.index t (0 : Fin 2) = t.val ∧ win41_0.index t (1 : Fin 2) = 0
    ∧ win41_1.index t (0 : Fin 2) = 0 ∧ win41_1.index t (1 : Fin 2) = 0
    ∧ win41_2.index t (0 : Fin 2) = t.val ∧ win41_2.index t (1 : Fin 2) = 0 :=
  (by decide +kernel : ∀ t : Fin grid41.N, _)

/-- What point t writes back is block t of the product of the arrays as the region finds them. -/
theorem flushed41_2_eq (c : Dev nD) (t : Fin cfg41.N) :
    (dat41 V c).flushed 2 t = ((cfg41.win 2).blk t).view.read (Elt F) (G41 (V c (Pipeline.arrRef spec41 0)) (V c (Pipeline.arrRef spec41 1))) := by
  show (cfg41.win 2).cut (grid41.coords t) ((dat41 V c).after 2 t) = _
  rw [after41_2]
  unfold out41_2
  rw [View.canon_unit_zero hz41]
  simp only [View.ld_unit_zero (S := S2000x64) hz41, View.ld_unit_zero (S := S64x64) hz41]
  obtain ⟨e0, e1, e2, e3, e4, e5⟩ := idx_facts41 t
  funext j
  show k41_pay1 (iblk41 V c 0 t) (iblk41 V c 1 t) j = G41 (V c (Pipeline.arrRef spec41 0)) (V c (Pipeline.arrRef spec41 1)) (((cfg41.win 2).blk t).view.emb j)
  refine (G41_of_block _ _ t.val _ j ?_ ?_ _ _ ?_ ?_).symm
  · show win41_2.index t (0 : Fin 2) * 2000 + 1 * (j 0).val = t.val * 2000 + (j 0).val
    rw [e4]; omega
  · show win41_2.index t (1 : Fin 2) * S2000x64.size 1 + 1 * (j 1).val = (j 1).val
    rw [e5]; omega
  · funext y
    show V c (Pipeline.arrRef spec41 1) (((cfg41.win 1).blk t).view.emb y) = V c (Pipeline.arrRef spec41 1) y
    congr 1
    funext d; apply Fin.ext
    match d with
    | ⟨0, _⟩ => show win41_1.index t (0 : Fin 2) * S64x64.size 0 + 1 * (y 0).val = (y 0).val; rw [e2]; omega
    | ⟨1, _⟩ => show win41_1.index t (1 : Fin 2) * S64x64.size 1 + 1 * (y 1).val = (y 1).val; rw [e3]; omega
  · intro y hy
    show V c (Pipeline.arrRef spec41 0) (((cfg41.win 0).blk t).view.emb y) = V c (Pipeline.arrRef spec41 0) (ix2 ⟨t.val * 2000 + (y 0).val, hy⟩ (y 1))
    congr 1
    funext d; apply Fin.ext
    match d with
    | ⟨0, _⟩ => show win41_0.index t (0 : Fin 2) * 2000 + 1 * (y 0).val = t.val * 2000 + (y 0).val; rw [e0]; omega
    | ⟨1, _⟩ => show win41_0.index t (1 : Fin 2) * S2000x64.size 1 + 1 * (y 1).val = (y 1).val; rw [e1]; omega

/-- An index of the array is in point t's block iff each coordinate is in the block's range on its axis. -/
theorem mem_blk41_2 (t : Fin cfg41.N) (i : S50000x64.Idx) :
    i ∈ ((cfg41.win 2).blk t).view.set ↔ ∀ a : Fin 2, win41_2.index t a * S2000x64.size a ≤ (i a).val ∧ (i a).val < win41_2.index t a * S2000x64.size a + S2000x64.size a := by
  show i ∈ ((View.whole (Pipeline.arrRef spec41 2)).slice (win41_2.rect t)).set ↔ _
  rw [View.set_slice_whole, Rect.mem_set_unit]
  exact Iff.rfl

/-- Every index of the array is in some point's block: row r in the block of point r / 2000. -/
theorem covered41_2 (i : S50000x64.Idx) :
    ∃ t : Fin cfg41.N, (cfg41.win 2).flush t = true ∧ i ∈ ((cfg41.win 2).blk t).view.set := by
  have hi0 : (i 0).val < 50000 := (i 0).isLt
  refine ⟨⟨(i 0).val / 2000, by rw [show cfg41.N = 25 from N_41]; omega⟩, flush41_2 _, ?_⟩
  obtain ⟨e0, e1, e2, e3, e4, e5⟩ := idx_facts41 ⟨(i 0).val / 2000, by rw [show cfg41.N = 25 from N_41]; omega⟩
  rw [mem_blk41_2]
  intro a
  match a with
  | ⟨0, _⟩ =>
    show win41_2.index _ (0 : Fin 2) * 2000 ≤ (i 0).val ∧ (i 0).val < win41_2.index _ (0 : Fin 2) * 2000 + 2000
    rw [e4]; show (i 0).val / 2000 * 2000 ≤ (i 0).val ∧ (i 0).val < (i 0).val / 2000 * 2000 + 2000; omega
  | ⟨1, _⟩ =>
    show win41_2.index _ (1 : Fin 2) * S2000x64.size 1 ≤ (i 1).val ∧ (i 1).val < win41_2.index _ (1 : Fin 2) * S2000x64.size 1 + S2000x64.size 1
    rw [e5, Nat.zero_mul, Nat.zero_add]; exact ⟨Nat.zero_le _, (i 1).isLt⟩

/-- The output array after the last point is the product of the two input arrays as the region finds them. -/
theorem final41_2 (c : Dev nD) :
    (dat41 V c).arrAt 2 cfg41.N = G41 (V c (Pipeline.arrRef spec41 0)) (V c (Pipeline.arrRef spec41 1)) :=
  (dat41 V c).arrAt_eq_of_cover 2 (G41 (V c (Pipeline.arrRef spec41 0)) (V c (Pipeline.arrRef spec41 1)))
    (fun t _ => flushed41_2_eq V c t) covered41_2

end Final41

end Cert.KernelIdeal.Hand

end
-- ==== Proof.KI.R42v.lean ====
import proofs.«408084_j48395691492010_3_alg».proof.Proof.KI.R42
import proofs.«408084_j48395691492010_3_alg».proof.Proof.KI.R14v
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! Region 42, the values. The kernel is region 14's word for word, so what each control case leaves in the buffers,
the row tiles, the fold and the three results as functions of the three arrays (G14_3, G14_4, G14_5) are region 14's;
here they are read at this region's windows: the blocks of its arrays, what its buffers hold after each point, and
its three result arrays after the last point. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The arrays and their blocks, at their literal types -/

/-- The array of the aggregated rows, as the region finds it, -/
noncomputable abbrev xarr42 (c : Dev nD) : Vec F S50000x64 .f32 := V c (Pipeline.arrRef spec42 0)
/-- the bias row, -/
noncomputable abbrev barr42 (c : Dev nD) : Vec F S1x64 .f32 := V c (Pipeline.arrRef spec42 1)
/-- and the carried-in array. -/
noncomputable abbrev carr42 (c : Dev nD) : Vec F S50000x64 .f32 := V c (Pipeline.arrRef spec42 2)

/-- The row-tile windows' block index is the grid point; the one-row windows never move. -/
theorem index42_0 : ∀ t : Fin cfg42.N, win42_0.index t 0 = t.val ∧ win42_0.index t 1 = 0 :=
  (by decide +kernel : ∀ t : Fin grid42.N, win42_0.index t 0 = t.val ∧ win42_0.index t 1 = 0)
theorem index42_1 : ∀ t : Fin cfg42.N, win42_1.index t 0 = 0 ∧ win42_1.index t 1 = 0 :=
  (by decide +kernel : ∀ t : Fin grid42.N, win42_1.index t 0 = 0 ∧ win42_1.index t 1 = 0)
theorem index42_2 : ∀ t : Fin cfg42.N, win42_2.index t 0 = t.val ∧ win42_2.index t 1 = 0 :=
  (by decide +kernel : ∀ t : Fin grid42.N, win42_2.index t 0 = t.val ∧ win42_2.index t 1 = 0)
theorem index42_3 : ∀ t : Fin cfg42.N, win42_3.index t 0 = t.val ∧ win42_3.index t 1 = 0 :=
  (by decide +kernel : ∀ t : Fin grid42.N, win42_3.index t 0 = t.val ∧ win42_3.index t 1 = 0)
theorem index42_4 : ∀ t : Fin cfg42.N, win42_4.index t 0 = t.val ∧ win42_4.index t 1 = 0 :=
  (by decide +kernel : ∀ t : Fin grid42.N, win42_4.index t 0 = t.val ∧ win42_4.index t 1 = 0)
theorem index42_5 : ∀ t : Fin cfg42.N, win42_5.index t 0 = 0 ∧ win42_5.index t 1 = 0 :=
  (by decide +kernel : ∀ t : Fin grid42.N, win42_5.index t 0 = 0 ∧ win42_5.index t 1 = 0)
theorem xsize42_5 : ∀ t : Fin cfg42.N, win42_5.xsize (grid42.coords t) 0 = 1 ∧ win42_5.xsize (grid42.coords t) 1 = 64 :=
  (by decide +kernel : ∀ t : Fin grid42.N, win42_5.xsize (grid42.coords t) 0 = 1 ∧ win42_5.xsize (grid42.coords t) 1 = 64)

/-- The aggregate window's block at point t is row tile t of its array. -/
theorem xblk42_eq (c : Dev nD) (t : Fin cfg42.N) (hN : t.val < 25) :
    (iblk42 V c 0 t : Vec F S2000x64 .f32) = tile14 (xarr42 V c) ⟨t.val, hN⟩ := by
  have hi := index42_0 t
  funext j
  unfold iblk42 tile14
  rw [View.read_apply]
  show V c (Pipeline.arrRef spec42 0) _ = V c (Pipeline.arrRef spec42 0) _
  congr 1
  funext a
  apply Fin.ext
  match a with
  | ⟨0, _⟩ => show win42_0.index t 0 * 2000 + 1 * (j 0).val = 2000 * t.val + (j 0).val; rw [hi.1]; omega
  | ⟨1, _⟩ => show win42_0.index t 1 * 64 + 1 * (j 1).val = (j 1).val; rw [hi.2]; omega

/-- The bias window's block is the whole one-row array, at every point. -/
theorem bblk42_eq (c : Dev nD) (t : Fin cfg42.N) : (iblk42 V c 1 t : Vec F S1x64 .f32) = barr42 V c := by
  have hi := index42_1 t
  funext j
  unfold iblk42
  rw [View.read_apply]
  show V c (Pipeline.arrRef spec42 1) _ = V c (Pipeline.arrRef spec42 1) j
  congr 1
  funext a
  apply Fin.ext
  match a with
  | ⟨0, _⟩ => show win42_1.index t 0 * 1 + 1 * (j 0).val = (j 0).val; rw [hi.1]; omega
  | ⟨1, _⟩ => show win42_1.index t 1 * 64 + 1 * (j 1).val = (j 1).val; rw [hi.2]; omega

/-- The carried-in window's block at point t is row tile t of its array. -/
theorem cblk42_eq (c : Dev nD) (t : Fin cfg42.N) (hN : t.val < 25) :
    (iblk42 V c 2 t : Vec F S2000x64 .f32) = tile14 (carr42 V c) ⟨t.val, hN⟩ := by
  have hi := index42_2 t
  funext j
  unfold iblk42 tile14
  rw [View.read_apply]
  show V c (Pipeline.arrRef spec42 2) _ = V c (Pipeline.arrRef spec42 2) _
  congr 1
  funext a
  apply Fin.ext
  match a with
  | ⟨0, _⟩ => show win42_2.index t 0 * 2000 + 1 * (j 0).val = 2000 * t.val + (j 0).val; rw [hi.1]; omega
  | ⟨1, _⟩ => show win42_2.index t 1 * 64 + 1 * (j 1).val = (j 1).val; rw [hi.2]; omega

/-! ## What the buffers hold after each point -/

/-- The first full-size result's buffer after point n. -/
theorem outsAt42_pre (c : Dev nD) : ∀ (n : ℕ) (h : n < cfg42.N) (h' : n < 25),
    (outsAt42 V c n h).1 = k14_pay3 (tile14 (xarr42 V c) ⟨n, h'⟩) (barr42 V c) (tile14 (carr42 V c) ⟨n, h'⟩)
  | 0, h, h' => by
    rw [outsAt42_A V c ⟨0, h⟩ (Nat.zero_mod 25) (fun e => by have e' : (0 : ℕ) % 25 = 24 := e; omega)]
    dsimp only
    rw [out14_A_3_eq, xblk42_eq V c ⟨0, h⟩ h', bblk42_eq V c ⟨0, h⟩, cblk42_eq V c ⟨0, h⟩ h']
  | n + 1, h, h' => by
    have hm : (n + 1) % 25 = n + 1 := Nat.mod_eq_of_lt h'
    by_cases h24 : n + 1 = 24
    · rw [outsAt42_C V c ⟨n + 1, h⟩ (fun e => by have e' : (n + 1) % 25 = 0 := e; omega) (by show (n + 1) % 25 = 24; omega)]
      dsimp only
      rw [out14_C_3_eq, xblk42_eq V c ⟨n + 1, h⟩ h', bblk42_eq V c ⟨n + 1, h⟩, cblk42_eq V c ⟨n + 1, h⟩ h']
    · rw [outsAt42_B V c ⟨n + 1, h⟩ (fun e => by have e' : (n + 1) % 25 = 0 := e; omega) (fun e => by have e' : (n + 1) % 25 = 24 := e; omega)]
      dsimp only
      rw [out14_B_3_eq, xblk42_eq V c ⟨n + 1, h⟩ h', bblk42_eq V c ⟨n + 1, h⟩, cblk42_eq V c ⟨n + 1, h⟩ h']

/-- The second full-size result's buffer after point n. -/
theorem outsAt42_cum (c : Dev nD) : ∀ (n : ℕ) (h : n < cfg42.N) (h' : n < 25),
    (outsAt42 V c n h).2.1 = k14_pay4 (tile14 (xarr42 V c) ⟨n, h'⟩) (barr42 V c) (tile14 (carr42 V c) ⟨n, h'⟩)
  | 0, h, h' => by
    rw [outsAt42_A V c ⟨0, h⟩ (Nat.zero_mod 25) (fun e => by have e' : (0 : ℕ) % 25 = 24 := e; omega)]
    dsimp only
    rw [out14_A_4_eq, xblk42_eq V c ⟨0, h⟩ h', bblk42_eq V c ⟨0, h⟩, cblk42_eq V c ⟨0, h⟩ h']
  | n + 1, h, h' => by
    have hm : (n + 1) % 25 = n + 1 := Nat.mod_eq_of_lt h'
    by_cases h24 : n + 1 = 24
    · rw [outsAt42_C V c ⟨n + 1, h⟩ (fun e => by have e' : (n + 1) % 25 = 0 := e; omega) (by show (n + 1) % 25 = 24; omega)]
      dsimp only
      rw [out14_C_4_eq, xblk42_eq V c ⟨n + 1, h⟩ h', bblk42_eq V c ⟨n + 1, h⟩, cblk42_eq V c ⟨n + 1, h⟩ h']
    · rw [outsAt42_B V c ⟨n + 1, h⟩ (fun e => by have e' : (n + 1) % 25 = 0 := e; omega) (fun e => by have e' : (n + 1) % 25 = 24 := e; omega)]
      dsimp only
      rw [out14_B_4_eq, xblk42_eq V c ⟨n + 1, h⟩ h', bblk42_eq V c ⟨n + 1, h⟩, cblk42_eq V c ⟨n + 1, h⟩ h']

/-- What the accumulator holds after point n is the fold up to tile n: by induction on the point. -/
theorem outsAt42_acc (c : Dev nD) : ∀ (n : ℕ) (h : n < cfg42.N) (h' : n < 25),
    (outsAt42 V c n h).2.2.2 = acc14 (xarr42 V c) (barr42 V c) (carr42 V c) n h'
  | 0, h, h' => by
    rw [outsAt42_A V c ⟨0, h⟩ (Nat.zero_mod 25) (fun e => by have e' : (0 : ℕ) % 25 = 24 := e; omega)]
    dsimp only
    rw [sout14_A_0_eq, xblk42_eq V c ⟨0, h⟩ h', bblk42_eq V c ⟨0, h⟩, cblk42_eq V c ⟨0, h⟩ h']
    rfl
  | n + 1, h, h' => by
    have ih := outsAt42_acc c n (Nat.lt_of_succ_lt h) (Nat.lt_of_succ_lt h')
    have hm : (n + 1) % 25 = n + 1 := Nat.mod_eq_of_lt h'
    by_cases h24 : n + 1 = 24
    · rw [outsAt42_C V c ⟨n + 1, h⟩ (fun e => by have e' : (n + 1) % 25 = 0 := e; omega) (by show (n + 1) % 25 = 24; omega)]
      dsimp only
      rw [sout14_C_0_eq, xblk42_eq V c ⟨n + 1, h⟩ h', bblk42_eq V c ⟨n + 1, h⟩, cblk42_eq V c ⟨n + 1, h⟩ h']
      show k14_pay5 _ _ _ (outsAt42 V c n _).2.2.2 = k14_pay5 _ _ _ (acc14 _ _ _ n _)
      rw [ih]
    · rw [outsAt42_B V c ⟨n + 1, h⟩ (fun e => by have e' : (n + 1) % 25 = 0 := e; omega) (fun e => by have e' : (n + 1) % 25 = 24 := e; omega)]
      dsimp only
      rw [sout14_B_0_eq, xblk42_eq V c ⟨n + 1, h⟩ h', bblk42_eq V c ⟨n + 1, h⟩, cblk42_eq V c ⟨n + 1, h⟩ h']
      show k14_pay5 _ _ _ (outsAt42 V c n _).2.2.2 = k14_pay5 _ _ _ (acc14 _ _ _ n _)
      rw [ih]

/-- At the last point the one-row result's buffer is left holding the whole fold. -/
theorem outsAt42_last (c : Dev nD) (t : Fin cfg42.N) (h24 : t.val = 24) :
    (outsAt42 V c t.val t.isLt).2.2.1 = G14_5 (xarr42 V c) (barr42 V c) (carr42 V c) := by
  obtain ⟨n, hn⟩ := t
  obtain rfl : n = 24 := h24
  rw [outsAt42_C V c ⟨24, hn⟩ (fun e => by have e' : (24 : ℕ) % 25 = 0 := e; omega) (by show (24 : ℕ) % 25 = 24; omega)]
  dsimp only
  rw [out14_C_5_eq, xblk42_eq V c ⟨24, hn⟩ (by show (24 : ℕ) < 25; omega), bblk42_eq V c ⟨24, hn⟩, cblk42_eq V c ⟨24, hn⟩ (by show (24 : ℕ) < 25; omega)]
  show k14_pay5 _ _ _ (outsAt42 V c 23 _).2.2.2 = k14_pay5 _ _ _ (acc14 _ _ _ 23 _)
  rw [outsAt42_acc V c 23 _ (by decide)]

/-! ## The full-size result arrays after the run -/

/-- What point t writes back of the first full-size result array is block t of G14_3 of the arrays. -/
theorem flushed42_3 (c : Dev nD) (t : Fin cfg42.N) :
    (dat42 V c).flushed 3 t = ((cfg42.win 3).blk t).view.read (Elt F) (G14_3 (xarr42 V c) (barr42 V c) (carr42 V c)) := by
  have hN : t.val < 25 := lt_of_lt_of_eq t.isLt (show cfg42.N = 25 from N_42)
  have hi := index42_3 t
  show (cfg42.win 3).cut (grid42.coords t) ((dat42 V c).after 3 t) = _
  rw [after42_3, outsAt42_pre V c t.val t.isLt hN]
  funext j
  have hj0 : (j 0).val < 2000 := (j 0).isLt
  show k14_pay3 (tile14 (xarr42 V c) ⟨t.val, hN⟩) (barr42 V c) (tile14 (carr42 V c) ⟨t.val, hN⟩) j = G14_3 (xarr42 V c) (barr42 V c) (carr42 V c) (((cfg42.win 3).blk t).view.emb j)
  have hrow : ((((cfg42.win 3).blk t).view.emb j : S50000x64.Idx) 0).val = t.val * 2000 + (j 0).val := by
    show win42_3.index t 0 * 2000 + 1 * (j 0).val = t.val * 2000 + (j 0).val
    rw [hi.1]; omega
  have hcol : ((((cfg42.win 3).blk t).view.emb j : S50000x64.Idx) 1).val = (j 1).val := by
    show win42_3.index t 1 * 64 + 1 * (j 1).val = (j 1).val
    rw [hi.2]; omega
  unfold G14_3
  have htile : (⟨((((cfg42.win 3).blk t).view.emb j : S50000x64.Idx) 0).val / 2000, by have := idx2_lt0 (((cfg42.win 3).blk t).view.emb j : S50000x64.Idx); omega⟩ : Fin 25) = ⟨t.val, hN⟩ :=
    Fin.ext (by show ((((cfg42.win 3).blk t).view.emb j : S50000x64.Idx) 0).val / 2000 = t.val; rw [hrow]; omega)
  have hplace : (ix2 ⟨((((cfg42.win 3).blk t).view.emb j : S50000x64.Idx) 0).val % 2000, Nat.mod_lt _ (by decide)⟩ ((((cfg42.win 3).blk t).view.emb j : S50000x64.Idx) 1) : S2000x64.Idx) = j := by
    funext d; apply Fin.ext
    match d with
    | ⟨0, _⟩ => show ((((cfg42.win 3).blk t).view.emb j : S50000x64.Idx) 0).val % 2000 = (j 0).val; rw [hrow]; omega
    | ⟨1, _⟩ => exact hcol
  rw [htile, hplace]

/-- An index of the array is in point t's block iff each coordinate is in the block's range on its axis. -/
theorem mem_blk42_3 (t : Fin cfg42.N) (i : S50000x64.Idx) :
    i ∈ ((cfg42.win 3).blk t).view.set ↔ ∀ a : Fin 2, win42_3.index t a * S2000x64.size a ≤ (i a).val ∧ (i a).val < win42_3.index t a * S2000x64.size a + S2000x64.size a := by
  show i ∈ ((View.whole (Pipeline.arrRef spec42 3)).slice (win42_3.rect t)).set ↔ _
  rw [View.set_slice_whole, Rect.mem_set_unit]
  exact Iff.rfl

/-- Every index of the array is in some point's block: row r in the block of point r / 2000. -/
theorem covered42_3 (i : S50000x64.Idx) :
    ∃ t : Fin cfg42.N, (cfg42.win 3).flush t = true ∧ i ∈ ((cfg42.win 3).blk t).view.set := by
  have hi0 : (i 0).val < 50000 := (i 0).isLt
  refine ⟨⟨(i 0).val / 2000, by rw [show cfg42.N = 25 from N_42]; omega⟩, flush42_3 _, ?_⟩
  have hi := index42_3 ⟨(i 0).val / 2000, by rw [show cfg42.N = 25 from N_42]; omega⟩
  rw [mem_blk42_3]
  intro a
  match a with
  | ⟨0, _⟩ =>
    show win42_3.index _ 0 * 2000 ≤ (i 0).val ∧ (i 0).val < win42_3.index _ 0 * 2000 + 2000
    rw [hi.1]; show (i 0).val / 2000 * 2000 ≤ (i 0).val ∧ (i 0).val < (i 0).val / 2000 * 2000 + 2000; omega
  | ⟨1, _⟩ =>
    show win42_3.index _ 1 * S2000x64.size 1 ≤ (i 1).val ∧ (i 1).val < win42_3.index _ 1 * S2000x64.size 1 + S2000x64.size 1
    rw [hi.2, Nat.zero_mul, Nat.zero_add]; exact ⟨Nat.zero_le _, (i 1).isLt⟩

/-- So the first full-size result array ends holding G14_3 of the three arrays. -/
theorem final42_3 (c : Dev nD) :
    (dat42 V c).arrAt 3 cfg42.N = G14_3 (V c (Pipeline.arrRef spec42 0)) (V c (Pipeline.arrRef spec42 1)) (V c (Pipeline.arrRef spec42 2)) :=
  (dat42 V c).arrAt_eq_of_cover 3 (G14_3 (xarr42 V c) (barr42 V c) (carr42 V c)) (fun t _ => flushed42_3 V c t) covered42_3

/-- What point t writes back of the second full-size result array is block t of G14_4 of the arrays. -/
theorem flushed42_4 (c : Dev nD) (t : Fin cfg42.N) :
    (dat42 V c).flushed 4 t = ((cfg42.win 4).blk t).view.read (Elt F) (G14_4 (xarr42 V c) (barr42 V c) (carr42 V c)) := by
  have hN : t.val < 25 := lt_of_lt_of_eq t.isLt (show cfg42.N = 25 from N_42)
  have hi := index42_4 t
  show (cfg42.win 4).cut (grid42.coords t) ((dat42 V c).after 4 t) = _
  rw [after42_4, outsAt42_cum V c t.val t.isLt hN]
  funext j
  have hj0 : (j 0).val < 2000 := (j 0).isLt
  show k14_pay4 (tile14 (xarr42 V c) ⟨t.val, hN⟩) (barr42 V c) (tile14 (carr42 V c) ⟨t.val, hN⟩) j = G14_4 (xarr42 V c) (barr42 V c) (carr42 V c) (((cfg42.win 4).blk t).view.emb j)
  have hrow : ((((cfg42.win 4).blk t).view.emb j : S50000x64.Idx) 0).val = t.val * 2000 + (j 0).val := by
    show win42_4.index t 0 * 2000 + 1 * (j 0).val = t.val * 2000 + (j 0).val
    rw [hi.1]; omega
  have hcol : ((((cfg42.win 4).blk t).view.emb j : S50000x64.Idx) 1).val = (j 1).val := by
    show win42_4.index t 1 * 64 + 1 * (j 1).val = (j 1).val
    rw [hi.2]; omega
  unfold G14_4
  have htile : (⟨((((cfg42.win 4).blk t).view.emb j : S50000x64.Idx) 0).val / 2000, by have := idx2_lt0 (((cfg42.win 4).blk t).view.emb j : S50000x64.Idx); omega⟩ : Fin 25) = ⟨t.val, hN⟩ :=
    Fin.ext (by show ((((cfg42.win 4).blk t).view.emb j : S50000x64.Idx) 0).val / 2000 = t.val; rw [hrow]; omega)
  have hplace : (ix2 ⟨((((cfg42.win 4).blk t).view.emb j : S50000x64.Idx) 0).val % 2000, Nat.mod_lt _ (by decide)⟩ ((((cfg42.win 4).blk t).view.emb j : S50000x64.Idx) 1) : S2000x64.Idx) = j := by
    funext d; apply Fin.ext
    match d with
    | ⟨0, _⟩ => show ((((cfg42.win 4).blk t).view.emb j : S50000x64.Idx) 0).val % 2000 = (j 0).val; rw [hrow]; omega
    | ⟨1, _⟩ => exact hcol
  rw [htile, hplace]

/-- An index of the array is in point t's block iff each coordinate is in the block's range on its axis. -/
theorem mem_blk42_4 (t : Fin cfg42.N) (i : S50000x64.Idx) :
    i ∈ ((cfg42.win 4).blk t).view.set ↔ ∀ a : Fin 2, win42_4.index t a * S2000x64.size a ≤ (i a).val ∧ (i a).val < win42_4.index t a * S2000x64.size a + S2000x64.size a := by
  show i ∈ ((View.whole (Pipeline.arrRef spec42 4)).slice (win42_4.rect t)).set ↔ _
  rw [View.set_slice_whole, Rect.mem_set_unit]
  exact Iff.rfl

/-- Every index of the array is in some point's block: row r in the block of point r / 2000. -/
theorem covered42_4 (i : S50000x64.Idx) :
    ∃ t : Fin cfg42.N, (cfg42.win 4).flush t = true ∧ i ∈ ((cfg42.win 4).blk t).view.set := by
  have hi0 : (i 0).val < 50000 := (i 0).isLt
  refine ⟨⟨(i 0).val / 2000, by rw [show cfg42.N = 25 from N_42]; omega⟩, flush42_4 _, ?_⟩
  have hi := index42_4 ⟨(i 0).val / 2000, by rw [show cfg42.N = 25 from N_42]; omega⟩
  rw [mem_blk42_4]
  intro a
  match a with
  | ⟨0, _⟩ =>
    show win42_4.index _ 0 * 2000 ≤ (i 0).val ∧ (i 0).val < win42_4.index _ 0 * 2000 + 2000
    rw [hi.1]; show (i 0).val / 2000 * 2000 ≤ (i 0).val ∧ (i 0).val < (i 0).val / 2000 * 2000 + 2000; omega
  | ⟨1, _⟩ =>
    show win42_4.index _ 1 * S2000x64.size 1 ≤ (i 1).val ∧ (i 1).val < win42_4.index _ 1 * S2000x64.size 1 + S2000x64.size 1
    rw [hi.2, Nat.zero_mul, Nat.zero_add]; exact ⟨Nat.zero_le _, (i 1).isLt⟩

/-- So the second full-size result array ends holding G14_4 of the three arrays. -/
theorem final42_4 (c : Dev nD) :
    (dat42 V c).arrAt 4 cfg42.N = G14_4 (V c (Pipeline.arrRef spec42 0)) (V c (Pipeline.arrRef spec42 1)) (V c (Pipeline.arrRef spec42 2)) :=
  (dat42 V c).arrAt_eq_of_cover 4 (G14_4 (xarr42 V c) (barr42 V c) (carr42 V c)) (fun t _ => flushed42_4 V c t) covered42_4

/-! ## The one-row result array after the run -/

/-- The one write-back (at the last point) writes the fold: the result's block there is the whole one-row array. -/
theorem flushed42_5 (c : Dev nD) (t : Fin cfg42.N) (hf : (cfg42.win 5).flush t = true) :
    (dat42 V c).flushed 5 t = ((cfg42.win 5).blk t).view.read (Elt F) (G14_5 (xarr42 V c) (barr42 V c) (carr42 V c)) := by
  have hN : t.val < 25 := lt_of_lt_of_eq t.isLt (show cfg42.N = 25 from N_42)
  have h24 : t.val = 24 := by have := (flush42_5 t).mp hf; omega
  have hi := index42_5 t
  show (cfg42.win 5).cut (grid42.coords t) ((dat42 V c).after 5 t) = _
  rw [after42_5, outsAt42_last V c t h24]
  have hz' : (fun a => win42_5.index t a * main_v368_2.ty.shape.size a) = fun _ => 0 := funext fun a => by
    match a with
    | ⟨0, _⟩ => show win42_5.index t 0 * _ = 0; rw [hi.1, Nat.zero_mul]
    | ⟨1, _⟩ => show win42_5.index t 1 * _ = 0; rw [hi.2, Nat.zero_mul]
  exact (Memref.read_access_unit_zero (Elt F) main_v368_2 hz' (fun a => by rw [congrFun hz' a]; simp) (G14_5 (xarr42 V c) (barr42 V c) (carr42 V c))).symm

/-- So the one-row result array ends holding the fold. -/
theorem final42_5 (c : Dev nD) :
    (dat42 V c).arrAt 5 cfg42.N = G14_5 (V c (Pipeline.arrRef spec42 0)) (V c (Pipeline.arrRef spec42 1)) (V c (Pipeline.arrRef spec42 2)) := by
  have h24 : (24 : ℕ) < cfg42.N := by rw [show cfg42.N = 25 from N_42]; omega
  refine (dat42 V c).arrAt_eq_of_cover 5 (G14_5 (xarr42 V c) (barr42 V c) (carr42 V c)) (flushed42_5 V c) fun i =>
    ⟨⟨24, h24⟩, (flush42_5 _).mpr rfl, ?_⟩
  have hi := index42_5 ⟨24, h24⟩
  have hx := xsize42_5 ⟨24, h24⟩
  show i ∈ ((View.whole main_v368_2).slice (win42_5.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win42_5.index ⟨24, h24⟩ 0 * win42_5.size 0 ≤ (i 0 : Nat) ∧ (i 0 : Nat) < win42_5.index ⟨24, h24⟩ 0 * win42_5.size 0 + win42_5.xsize (grid42.coords ⟨24, h24⟩) 0
    rw [hi.1, hx.1]; omega
  | ⟨1, _⟩ =>
    show win42_5.index ⟨24, h24⟩ 1 * win42_5.size 1 ≤ (i 1 : Nat) ∧ (i 1 : Nat) < win42_5.index ⟨24, h24⟩ 1 * win42_5.size 1 + win42_5.xsize (grid42.coords ⟨24, h24⟩) 1
    rw [hi.2, hx.2]; omega

end Cert.KernelIdeal.Hand

end
-- ==== Proof.KI.R43v.lean ====
import proofs.«408084_j48395691492010_3_alg».proof.Proof.KI.R43
import proofs.«408084_j48395691492010_3_alg».proof.Proof.KI.R3v

/-! Region 43, the value: the same kernel as region 3 at the same shapes, so the result is the same function `G3_2` of this
region's two arrays — the fold over the 25 row tiles, from the zero row, of each tile's column sum of squared deviations.
The found pieces read back and the fold's reading at the ideal values are region 3's; here: this region's blocks as
tiles of its arrays, the accumulator after each point as the fold (by induction on the point), and the result array. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The [50000, D] array of the rows, as the region finds it, -/
noncomputable abbrev xarr43 (c : Dev nD) : Vec F S50000x64 .f32 := V c (Pipeline.arrRef spec43 0)
/-- and the one row of column means. -/
noncomputable abbrev marr43 (c : Dev nD) : Vec F S1x64 .f32 := V c (Pipeline.arrRef spec43 1)

theorem index43_0 : ∀ t : Fin cfg43.N, win43_0.index t 0 = t.val ∧ win43_0.index t 1 = 0 :=
  (by decide +kernel : ∀ t : Fin grid43.N, win43_0.index t 0 = t.val ∧ win43_0.index t 1 = 0)
theorem index43_1 : ∀ t : Fin cfg43.N, win43_1.index t 0 = 0 ∧ win43_1.index t 1 = 0 :=
  (by decide +kernel : ∀ t : Fin grid43.N, win43_1.index t 0 = 0 ∧ win43_1.index t 1 = 0)
theorem index43_2 : ∀ t : Fin cfg43.N, win43_2.index t 0 = 0 ∧ win43_2.index t 1 = 0 :=
  (by decide +kernel : ∀ t : Fin grid43.N, win43_2.index t 0 = 0 ∧ win43_2.index t 1 = 0)
theorem xsize43_2 : ∀ t : Fin cfg43.N, win43_2.xsize (grid43.coords t) 0 = 1 ∧ win43_2.xsize (grid43.coords t) 1 = 64 :=
  (by decide +kernel : ∀ t : Fin grid43.N, win43_2.xsize (grid43.coords t) 0 = 1 ∧ win43_2.xsize (grid43.coords t) 1 = 64)

/-- The row-tile window's block at point `t` is row tile `t` of the array. -/
theorem xblk43_eq (c : Dev nD) (t : Fin cfg43.N) (hN : t.val < 25) :
    (iblk43 V c 0 t : Vec F S2000x64 .f32) = tile3 (xarr43 V c) ⟨t.val, hN⟩ := by
  have hi := index43_0 t
  funext j
  unfold iblk43 tile3
  rw [View.read_apply]
  show V c (Pipeline.arrRef spec43 0) _ = V c (Pipeline.arrRef spec43 0) _
  congr 1
  funext a
  apply Fin.ext
  match a with
  | ⟨0, _⟩ => show win43_0.index t 0 * 2000 + 1 * (j 0).val = 2000 * t.val + (j 0).val; rw [hi.1]; omega
  | ⟨1, _⟩ => show win43_0.index t 1 * 64 + 1 * (j 1).val = (j 1).val; rw [hi.2]; omega

/-- The mean window's block is the whole one-row array, at every point. -/
theorem mblk43_eq (c : Dev nD) (t : Fin cfg43.N) : (iblk43 V c 1 t : Vec F S1x64 .f32) = marr43 V c := by
  have hi := index43_1 t
  funext j
  unfold iblk43
  rw [View.read_apply]
  show V c (Pipeline.arrRef spec43 1) _ = V c (Pipeline.arrRef spec43 1) j
  congr 1
  funext a
  apply Fin.ext
  match a with
  | ⟨0, _⟩ => show win43_1.index t 0 * 1 + 1 * (j 0).val = (j 0).val; rw [hi.1]; omega
  | ⟨1, _⟩ => show win43_1.index t 1 * 64 + 1 * (j 1).val = (j 1).val; rw [hi.2]; omega

/-- What the accumulator holds after point `n` is the fold up to tile `n`: by induction on the point. -/
theorem outsAt43_acc (c : Dev nD) : ∀ (n : ℕ) (h : n < cfg43.N) (h' : n < 25),
    (outsAt43 V c n h).2 = acc3 (xarr43 V c) (marr43 V c) n h'
  | 0, h, h' => by
    rw [outsAt43_A V c ⟨0, h⟩ rfl (fun e => by have e' : (0 : ℕ) = 24 := e; omega)]
    dsimp only
    rw [sout3_A_eq, xblk43_eq V c ⟨0, h⟩ h', mblk43_eq V c ⟨0, h⟩]
    rfl
  | n + 1, h, h' => by
    have ih := outsAt43_acc c n (Nat.lt_of_succ_lt h) (Nat.lt_of_succ_lt h')
    by_cases h24 : n + 1 = 24
    · rw [outsAt43_C V c ⟨n + 1, h⟩ (Nat.succ_ne_zero n) h24]
      dsimp only
      rw [sout3_C_eq, xblk43_eq V c ⟨n + 1, h⟩ h', mblk43_eq V c ⟨n + 1, h⟩]
      show k3_pay2 _ _ (outsAt43 V c n _).2 = k3_pay2 _ _ (acc3 _ _ n _)
      rw [ih]
    · rw [outsAt43_B V c ⟨n + 1, h⟩ (Nat.succ_ne_zero n) h24]
      dsimp only
      rw [sout3_B_eq, xblk43_eq V c ⟨n + 1, h⟩ h', mblk43_eq V c ⟨n + 1, h⟩]
      show k3_pay2 _ _ (outsAt43 V c n _).2 = k3_pay2 _ _ (acc3 _ _ n _)
      rw [ih]

/-- At the last point the result's buffer is left holding the whole fold. -/
theorem outsAt43_last (c : Dev nD) (t : Fin cfg43.N) (h24 : t.val = 24) :
    (outsAt43 V c t.val t.isLt).1 = G3_2 (xarr43 V c) (marr43 V c) := by
  obtain ⟨n, hn⟩ := t
  obtain rfl : n = 24 := h24
  rw [outsAt43_C V c ⟨24, hn⟩ (fun e => by have e' : (24 : ℕ) = 0 := e; omega) rfl]
  dsimp only
  rw [out3_C_eq, xblk43_eq V c ⟨24, hn⟩ (by show (24 : ℕ) < 25; omega), mblk43_eq V c ⟨24, hn⟩]
  show k3_pay2 _ _ (outsAt43 V c 23 _).2 = k3_pay2 _ _ (acc3 _ _ 23 _)
  rw [outsAt43_acc V c 23 _ (by decide)]

/-- The one write-back (at the last point) writes the fold: the result's block there is the whole one-row array. -/
theorem flushed43_2 (c : Dev nD) (t : Fin cfg43.N) (hf : (cfg43.win 2).flush t = true) :
    (dat43 V c).flushed 2 t = ((cfg43.win 2).blk t).view.read (Elt F) (G3_2 (xarr43 V c) (marr43 V c)) := by
  have hN : t.val < 25 := lt_of_lt_of_eq t.isLt (show cfg43.N = 25 from N_43)
  have h24 : t.val = 24 := by have := (flush43_2 t).mp hf; omega
  have hi := index43_2 t
  show (cfg43.win 2).cut (grid43.coords t) ((dat43 V c).after 2 t) = _
  rw [after43_2, outsAt43_last V c t h24]
  have hz' : (fun a => win43_2.index t a * main_v371.ty.shape.size a) = fun _ => 0 := funext fun a => by
    match a with
    | ⟨0, _⟩ => show win43_2.index t 0 * _ = 0; rw [hi.1, Nat.zero_mul]
    | ⟨1, _⟩ => show win43_2.index t 1 * _ = 0; rw [hi.2, Nat.zero_mul]
  exact (Memref.read_access_unit_zero (Elt F) main_v371 hz' (fun a => by rw [congrFun hz' a]; simp) (G3_2 (xarr43 V c) (marr43 V c))).symm

/-- So the result array ends holding the fold: region 3's function of this region's two arrays. -/
theorem final43_2 (c : Dev nD) : (dat43 V c).arrAt 2 cfg43.N = G3_2 (V c (Pipeline.arrRef spec43 0)) (V c (Pipeline.arrRef spec43 1)) := by
  have h24 : (24 : ℕ) < cfg43.N := by rw [show cfg43.N = 25 from N_43]; omega
  refine (dat43 V c).arrAt_eq_of_cover 2 (G3_2 (xarr43 V c) (marr43 V c)) (flushed43_2 V c) fun i =>
    ⟨⟨24, h24⟩, (flush43_2 _).mpr rfl, ?_⟩
  have hi := index43_2 ⟨24, h24⟩
  have hx := xsize43_2 ⟨24, h24⟩
  show i ∈ ((View.whole main_v371).slice (win43_2.rect ⟨24, h24⟩)).set
  rw [View.set_slice_whole, Rect.mem_set_unit]
  intro a
  have h0 : (i 0 : Nat) < 1 := (i 0).isLt
  have h1 : (i 1 : Nat) < 64 := (i 1).isLt
  match a with
  | ⟨0, _⟩ =>
    show win43_2.index ⟨24, h24⟩ 0 * win43_2.size 0 ≤ (i 0 : Nat) ∧ (i 0 : Nat) < win43_2.index ⟨24, h24⟩ 0 * win43_2.size 0 + win43_2.xsize (grid43.coords ⟨24, h24⟩) 0
    rw [hi.1, hx.1]; omega
  | ⟨1, _⟩ =>
    show win43_2.index ⟨24, h24⟩ 1 * win43_2.size 1 ≤ (i 1 : Nat) ∧ (i 1 : Nat) < win43_2.index ⟨24, h24⟩ 1 * win43_2.size 1 + win43_2.xsize (grid43.coords ⟨24, h24⟩) 1
    rw [hi.2, hx.2]; omega

end Cert.KernelIdeal.Hand

end
-- ==== Proof.KI.R44v.lean ====
import proofs.«408084_j48395691492010_3_alg».proof.Proof.KI.R44
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws

/-!
# Region 44: the array it leaves, as one function of the arrays it finds

Every grid point writes one block of 2000 rows of the output, and the 25 blocks tile the 50000 rows; the four
single-row inputs are the same block at every point. So the output array after the run is one function of the five
arrays the region finds. Entry (r, q) is computed from row r of the activations alone:

  bn[r,k] = (x[r,k] - mean[k]) * rsqrt (var[k] + eps) * gamma[k] + beta[k],
  out[r,q] = exp (bn[r,q] - max_k bn[r,k]) / (1 + Σ_k exp (bn[r,k] - max_k bn[r,k])).

At a generic float instance the row's sum is the instance's reduction of the whole 2000-row block that holds the
row, so the function is stated through that block; over the extended reals the reduction is a sum over the row and
the block drops out.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable {F : FTy → Type} [FloatOps F]

/-! ## The layout operations of the body, read at an index -/

section Layout44
variable {α : Type}

/-- A vector of 2000 entries cast to a column reads, at (p, 0), entry p. -/
theorem castCol44 (v : S2000.Idx → α) (h : S2000.ShapeCasts S2000x1) :
    shapeCast S2000x1 v h = fun y => v (ix1 (y 0)) := by
  funext y
  obtain ⟨p, u, rfl⟩ : ∃ (p : Fin 2000) (u : Fin 1), y = ix2 p u := ⟨y 0, y 1, eq_ix2 y⟩
  refine shapeCast_apply v h (ix2 p u) (ix1 p) ?_
  have hu : u.val = 0 := by omega
  rw [Shape.rowMajor_val_two, Shape.rowMajor_val_one]
  show p.val = p.val * 1 + u.val
  rw [hu, Nat.mul_one, Nat.add_zero]

/-- A column broadcast along the rows reads, at (p, k), the column's entry p. -/
theorem bcastCol44 (v : S2000x1.Idx → α) (h : S2000x1.Broadcasts S2000x64) :
    broadcastTo S2000x64 v h = fun y => v (ix2 (y 0) (0 : Fin 1)) := by
  funext y
  obtain ⟨p, k, rfl⟩ : ∃ (p : Fin 2000) (k : Fin 64), y = ix2 p k := ⟨y 0, y 1, eq_ix2 y⟩
  refine broadcastTo_apply v h (ix2 p k) (ix2 p (0 : Fin 1)) fun ax => ?_
  match ax with
  | ⟨0, _⟩ => rfl
  | ⟨1, _⟩ => rfl

/-- A single row broadcast down the block reads, at (p, k), the row's entry k. -/
theorem bcastRow44 (v : S1x64.Idx → α) (h : S1x64.Broadcasts S2000x64) :
    broadcastTo S2000x64 v h = fun y => v (ix2 (0 : Fin 1) (y 1)) := by
  funext y
  obtain ⟨p, k, rfl⟩ : ∃ (p : Fin 2000) (k : Fin 64), y = ix2 p k := ⟨y 0, y 1, eq_ix2 y⟩
  exact broadcastTo_1b_ab_apply v h p k

end Layout44

/-! ## The body's result on a block, by coordinates -/

/-- The batch-norm of a block, entry by entry, in the body's order of operations. -/
noncomputable def bn44 (v0 : Vec F S2000x64 .f32) (v2 v6 v13 v17 : Vec F S1x64 .f32) : FVec F S2000x64 .f32 := fun y =>
  FloatOps.addf (FloatOps.mulf (FloatOps.mulf (FloatOps.subf (v0 y) (v2 (ix2 (0 : Fin 1) (y 1))))
      (FloatOps.rsqrt (FloatOps.addf (v6 (ix2 (0 : Fin 1) (y 1))) (FloatOps.ofBits .f32 0x3727C5AC#32))))
      (v13 (ix2 (0 : Fin 1) (y 1)))) (v17 (ix2 (0 : Fin 1) (y 1)))

/-- Its row maxima: the body's reduction along the columns, started from minus infinity. -/
noncomputable def mx44 (v0 : Vec F S2000x64 .f32) (v2 v6 v13 v17 : Vec F S1x64 .f32) : FVec F S2000 .f32 :=
  multiReduction .maximumf [1] S2000 (bn44 v0 v2 v6 v13 v17) 0xFF800000#32 reduces_S2000x64_S2000 (.inl rfl) rfl

/-- The exponentials of the batch-norm less its row maximum. -/
noncomputable def e44 (v0 : Vec F S2000x64 .f32) (v2 v6 v13 v17 : Vec F S1x64 .f32) : FVec F S2000x64 .f32 := fun y =>
  FloatOps.exp (FloatOps.subf (bn44 v0 v2 v6 v13 v17 y) (mx44 v0 v2 v6 v13 v17 (ix1 (y 0))))

/-- Their row sums: the body's reduction along the columns, started from zero. -/
noncomputable def sm44 (v0 : Vec F S2000x64 .f32) (v2 v6 v13 v17 : Vec F S1x64 .f32) : FVec F S2000 .f32 :=
  multiReduction .add [1] S2000 (e44 v0 v2 v6 v13 v17) 0x00000000#32 reduces_S2000x64_S2000 (.inl rfl) rfl

/-- What the body stores: each exponential over one plus its row's sum. -/
noncomputable def P44 (v0 : Vec F S2000x64 .f32) (v2 v6 v13 v17 : Vec F S1x64 .f32) : Vec F S2000x64 .f32 := fun y =>
  FloatOps.divf (e44 v0 v2 v6 v13 v17 y)
    (FloatOps.addf (FloatOps.ofBits .f32 0x3F800000#32) (sm44 v0 v2 v6 v13 v17 (ix1 (y 0))))

/-- The skeleton's payload is that function: its layout operations read at an index, the rest unfolds. -/
theorem pay44_eq (v0 : Vec F S2000x64 .f32) (v2 v6 v13 v17 : Vec F S1x64 .f32) :
    k44_pay1 v0 v2 v6 v13 v17 = P44 v0 v2 v6 v13 v17 := by
  unfold k44_pay1
  simp only [shapeCast_self, bcastRow44, bcastCol44, castCol44]
  rfl

/-! ## The output array as one function of the arrays the region finds -/

/-- Rows q·2000 … q·2000 + 1999 of an array of 50000 rows. -/
noncomputable def rows44 (x : S50000x64.Idx → Elt F .f32) (q : Fin 25) : Vec F S2000x64 .f32 := fun y =>
  x (ix2 (⟨q.val * 2000 + (y 0).val, by have := idx2_lt0 y; have := q.isLt; omega⟩ : Fin 50000) (y 1))

/-- The block of 2000 rows that holds an entry's row, -/
noncomputable def blkOf44 (i : S50000x64.Idx) : Fin 25 := ⟨(i 0).val / 2000, by have := idx2_lt0 i; omega⟩
/-- and the row's place in it. -/
noncomputable def rowIn44 (i : S50000x64.Idx) : Fin 2000 := ⟨(i 0).val % 2000, Nat.mod_lt _ (by decide)⟩

/-- The output array: at each entry, the body's result on the block of 2000 rows of the activations that holds
    the entry's row, at the row's place in the block. -/
noncomputable def G44 (x : S50000x64.Idx → Elt F .f32) (mu va ga be : S1x64.Idx → Elt F .f32) : S50000x64.Idx → Elt F .f32 := fun i =>
  P44 (rows44 x (blkOf44 i)) mu va ga be (ix2 (rowIn44 i) (i 1))

/-- The output array read under block q at a place j of the block. -/
theorem G44_blk (x : S50000x64.Idx → Elt F .f32) (mu va ga be : S1x64.Idx → Elt F .f32) (q : Fin 25) (j : S2000x64.Idx)
    (i : S50000x64.Idx) (h0 : (i 0).val = q.val * 2000 + (j 0).val) (h1 : (i 1).val = (j 1).val) :
    G44 x mu va ga be i = P44 (rows44 x q) mu va ga be j := by
  have hj0 : (j 0).val < 2000 := idx2_lt0 j
  have hq : blkOf44 i = q := Fin.ext (by show (i 0).val / 2000 = q.val; omega)
  have hj : ix2 (rowIn44 i) (i 1) = j := by
    funext a
    match a with
    | ⟨0, _⟩ => exact Fin.ext (by show (i 0).val % 2000 = (j 0).val; omega)
    | ⟨1, _⟩ => exact Fin.ext h1
  unfold G44
  rw [hq]
  exact congrArg (P44 (rows44 x q) mu va ga be) hj

section Region44v
variable (V : (c : Dev nD) → (b : Ref sig .tc) → Buf (Elt F) ((c : Thread nD τ).loc b))

theorem hz44 : (![0, 0] : Fin 2 → Nat) = fun _ => 0 := funext fun a => by fin_cases a <;> rfl

/-- The windows' block indices, decided over the 25 grid points: the activations and the output move one block of
    rows per point, the four single rows stay. -/
theorem idx44 : ∀ t : Fin cfg44.N,
    win44_0.index t (0 : Fin 2) = t.val ∧ win44_0.index t (1 : Fin 2) = 0
    ∧ win44_1.index t (0 : Fin 2) = 0 ∧ win44_1.index t (1 : Fin 2) = 0
    ∧ win44_2.index t (0 : Fin 2) = 0 ∧ win44_2.index t (1 : Fin 2) = 0
    ∧ win44_3.index t (0 : Fin 2) = 0 ∧ win44_3.index t (1 : Fin 2) = 0
    ∧ win44_4.index t (0 : Fin 2) = 0 ∧ win44_4.index t (1 : Fin 2) = 0
    ∧ win44_5.index t (0 : Fin 2) = t.val ∧ win44_5.index t (1 : Fin 2) = 0 :=
  (by decide +kernel : ∀ t : Fin grid44.N, _)

/-- The activations' block at point t is rows t·2000 … of their array. -/
theorem iblk44_0_eq (c : Dev nD) (t : Fin cfg44.N) :
    (iblk44 V c 0 t : S2000x64.Idx → Elt F .f32) = rows44 (V c (Pipeline.arrRef spec44 0)) (t.cast N_44) := by
  obtain ⟨e0, e1, -⟩ := idx44 t
  funext y
  show V c (Pipeline.arrRef spec44 0) (((cfg44.win 0).blk t).view.emb y) = V c (Pipeline.arrRef spec44 0) _
  refine congrArg _ (funext fun a => Fin.ext ?_)
  match a with
  | ⟨0, _⟩ => show win44_0.index t (0 : Fin 2) * 2000 + 1 * (y 0).val = t.val * 2000 + (y 0).val; omega
  | ⟨1, _⟩ => show win44_0.index t (1 : Fin 2) * 64 + 1 * (y 1).val = (y 1).val; omega

/-- Each single row's block is, at every point, its whole array. -/
theorem iblk44_1_eq (c : Dev nD) (t : Fin cfg44.N) : (iblk44 V c 1 t : S1x64.Idx → Elt F .f32) = V c (Pipeline.arrRef spec44 1) := by
  obtain ⟨-, -, e0, e1, -⟩ := idx44 t
  funext y
  show V c (Pipeline.arrRef spec44 1) (((cfg44.win 1).blk t).view.emb y) = V c (Pipeline.arrRef spec44 1) y
  refine congrArg _ (funext fun a => Fin.ext ?_)
  match a with
  | ⟨0, _⟩ => show win44_1.index t (0 : Fin 2) * 1 + 1 * (y 0).val = (y 0).val; omega
  | ⟨1, _⟩ => show win44_1.index t (1 : Fin 2) * 64 + 1 * (y 1).val = (y 1).val; omega
theorem iblk44_2_eq (c : Dev nD) (t : Fin cfg44.N) : (iblk44 V c 2 t : S1x64.Idx → Elt F .f32) = V c (Pipeline.arrRef spec44 2) := by
  obtain ⟨-, -, -, -, e0, e1, -⟩ := idx44 t
  funext y
  show V c (Pipeline.arrRef spec44 2) (((cfg44.win 2).blk t).view.emb y) = V c (Pipeline.arrRef spec44 2) y
  refine congrArg _ (funext fun a => Fin.ext ?_)
  match a with
  | ⟨0, _⟩ => show win44_2.index t (0 : Fin 2) * 1 + 1 * (y 0).val = (y 0).val; omega
  | ⟨1, _⟩ => show win44_2.index t (1 : Fin 2) * 64 + 1 * (y 1).val = (y 1).val; omega
theorem iblk44_3_eq (c : Dev nD) (t : Fin cfg44.N) : (iblk44 V c 3 t : S1x64.Idx → Elt F .f32) = V c (Pipeline.arrRef spec44 3) := by
  obtain ⟨-, -, -, -, -, -, e0, e1, -⟩ := idx44 t
  funext y
  show V c (Pipeline.arrRef spec44 3) (((cfg44.win 3).blk t).view.emb y) = V c (Pipeline.arrRef spec44 3) y
  refine congrArg _ (funext fun a => Fin.ext ?_)
  match a with
  | ⟨0, _⟩ => show win44_3.index t (0 : Fin 2) * 1 + 1 * (y 0).val = (y 0).val; omega
  | ⟨1, _⟩ => show win44_3.index t (1 : Fin 2) * 64 + 1 * (y 1).val = (y 1).val; omega
theorem iblk44_4_eq (c : Dev nD) (t : Fin cfg44.N) : (iblk44 V c 4 t : S1x64.Idx → Elt F .f32) = V c (Pipeline.arrRef spec44 4) := by
  obtain ⟨-, -, -, -, -, -, -, -, e0, e1, -⟩ := idx44 t
  funext y
  show V c (Pipeline.arrRef spec44 4) (((cfg44.win 4).blk t).view.emb y) = V c (Pipeline.arrRef spec44 4) y
  refine congrArg _ (funext fun a => Fin.ext ?_)
  match a with
  | ⟨0, _⟩ => show win44_4.index t (0 : Fin 2) * 1 + 1 * (y 0).val = (y 0).val; omega
  | ⟨1, _⟩ => show win44_4.index t (1 : Fin 2) * 64 + 1 * (y 1).val = (y 1).val; omega

set_option maxHeartbeats 1000000 in
/-- What point t writes back is block t of the output array. -/
theorem flushed44_eq (c : Dev nD) (t : Fin cfg44.N) :
    (dat44 V c).flushed 5 t = ((cfg44.win 5).blk t).view.read (Elt F)
      (G44 (V c (Pipeline.arrRef spec44 0)) (V c (Pipeline.arrRef spec44 1)) (V c (Pipeline.arrRef spec44 2))
        (V c (Pipeline.arrRef spec44 3)) (V c (Pipeline.arrRef spec44 4))) := by
  show (cfg44.win 5).cut (grid44.coords t) ((dat44 V c).after 5 t) = _
  rw [after44_5]
  unfold out44_5
  rw [View.canon_unit_zero hz44]
  simp only [View.ld_unit_zero (S := S2000x64) hz44, View.ld_unit_zero (S := S1x64) hz44]
  rw [pay44_eq, iblk44_0_eq, iblk44_1_eq, iblk44_2_eq, iblk44_3_eq, iblk44_4_eq]
  obtain ⟨-, -, -, -, -, -, -, -, -, -, e0, e1⟩ := idx44 t
  funext j
  show P44 (rows44 _ (t.cast N_44)) _ _ _ _ j = G44 _ _ _ _ _ (((cfg44.win 5).blk t).view.emb j)
  refine (G44_blk _ _ _ _ _ (t.cast N_44) j (((cfg44.win 5).blk t).view.emb j) ?_ ?_).symm
  · show win44_5.index t (0 : Fin 2) * 2000 + 1 * (j 0).val = t.val * 2000 + (j 0).val; omega
  · show win44_5.index t (1 : Fin 2) * 64 + 1 * (j 1).val = (j 1).val; omega

/-- An entry of the array is in point t's block iff each coordinate is in the block's range on its axis. -/
theorem mem_blk44 (t : Fin cfg44.N) (i : S50000x64.Idx) :
    i ∈ ((cfg44.win 5).blk t).view.set ↔ ∀ a : Fin 2, win44_5.index t a * S2000x64.size a ≤ (i a).val ∧ (i a).val < win44_5.index t a * S2000x64.size a + S2000x64.size a := by
  show i ∈ ((View.whole main_v376).slice (win44_5.rect t)).set ↔ _
  rw [View.set_slice_whole, Rect.mem_set_unit]
  exact Iff.rfl

/-- Every entry is in the block of the point numbered by its row over 2000. -/
theorem covered44 (i : S50000x64.Idx) : ∃ t : Fin cfg44.N, (cfg44.win 5).flush t = true ∧ i ∈ ((cfg44.win 5).blk t).view.set := by
  have hi0 : (i 0).val < 50000 := idx2_lt0 i
  have hi1 : (i 1).val < 64 := idx2_lt1 i
  have ht : ∃ t : Fin cfg44.N, t.val = (i 0).val / 2000 := ⟨(⟨(i 0).val / 2000, by omega⟩ : Fin 25).cast N_44.symm, rfl⟩
  obtain ⟨t, ht⟩ := ht
  obtain ⟨-, -, -, -, -, -, -, -, -, -, e0, e1⟩ := idx44 t
  refine ⟨t, flush44_5 t, ?_⟩
  rw [mem_blk44]
  intro a
  match a with
  | ⟨0, _⟩ => show win44_5.index t (0 : Fin 2) * 2000 ≤ (i 0).val ∧ (i 0).val < win44_5.index t (0 : Fin 2) * 2000 + 2000; omega
  | ⟨1, _⟩ => show win44_5.index t (1 : Fin 2) * 64 ≤ (i 1).val ∧ (i 1).val < win44_5.index t (1 : Fin 2) * 64 + 64; omega

/-- The output array after the run. -/
theorem final44_5 (c : Dev nD) :
    (dat44 V c).arrAt 5 cfg44.N = G44 (V c (Pipeline.arrRef spec44 0)) (V c (Pipeline.arrRef spec44 1)) (V c (Pipeline.arrRef spec44 2))
      (V c (Pipeline.arrRef spec44 3)) (V c (Pipeline.arrRef spec44 4)) :=
  (dat44 V c).arrAt_eq_of_cover 5 _ (fun t _ => flushed44_eq V c t) covered44

end Region44v

/-! ## The output array over the extended reals, entry by entry -/

section Ideal44

/-- The source entry of a row reduction over a block: the result's row p with k put back on the column axis. -/
theorem lift44 (h : S2000x64.Reduces [1] S2000) (p : Fin 2000) (k : Fin 64) : h.lift (ix1 p) k = ix2 p k := by
  funext a
  match a with
  | ⟨0, _⟩ => exact Fin.ext rfl
  | ⟨1, _⟩ => exact Fin.ext rfl

section Block44
variable (X : Vec Ideal S2000x64 .f32) (mu va ga be : Vec Ideal S1x64 .f32)

/-- The block's batch-norm at an entry. -/
theorem bn44_apply (p : Fin 2000) (k : Fin 64) :
    bn44 (F := Ideal) X mu va ga be (ix2 p k)
      = ((X (ix2 p k) : EReal) - mu (ix2 0 k)) * Ideal.rsqrt (va (ix2 0 k) + Cert.Val.cEps) * ga (ix2 0 k) + be (ix2 0 k) := rfl

/-- A row's maximum: the fold of max over the row, from minus infinity. -/
theorem mx44_apply (p : Fin 2000) :
    mx44 (F := Ideal) X mu va ga be (ix1 p) = Cert.Val.rowMax (fun k : Fin 64 => bn44 (F := Ideal) X mu va ga be (ix2 p k)) := by
  unfold mx44
  refine (Ideal.multiReduction_maximumf_single (bn44 (F := Ideal) X mu va ga be) 0xFF800000#32 reduces_S2000x64_S2000 (.inl rfl) rfl
    (ix1 p)).trans ?_
  have hf : (bn44 (F := Ideal) X mu va ga be ∘ (reduces_S2000x64_S2000).lift (ix1 p))
      = fun k : Fin 64 => bn44 (F := Ideal) X mu va ga be (ix2 p k) :=
    funext fun k => congrArg (bn44 (F := Ideal) X mu va ga be) (lift44 _ p k)
  exact congrArg (fun f => (Finset.univ : Finset (Fin 64)).fold max Cert.Val.cNegInf f) hf

/-- The exponentials at an entry. -/
theorem e44_apply (p : Fin 2000) (k : Fin 64) :
    e44 (F := Ideal) X mu va ga be (ix2 p k)
      = Ideal.exp (bn44 (F := Ideal) X mu va ga be (ix2 p k) - Cert.Val.rowMax (fun k' : Fin 64 => bn44 (F := Ideal) X mu va ga be (ix2 p k'))) := by
  show Ideal.exp (bn44 (F := Ideal) X mu va ga be (ix2 p k) - mx44 (F := Ideal) X mu va ga be (ix1 p)) = _
  rw [mx44_apply]

/-- A row's sum of exponentials: the sum over the row. -/
theorem sm44_apply (p : Fin 2000) :
    sm44 (F := Ideal) X mu va ga be (ix1 p) = ∑ k : Fin 64, e44 (F := Ideal) X mu va ga be (ix2 p k) := by
  unfold sm44
  refine (Ideal.multiReduction_add_single (e44 (F := Ideal) X mu va ga be) 0x00000000#32 reduces_S2000x64_S2000 (.inl rfl) rfl
    (ix1 p)).trans ?_
  exact Finset.sum_congr rfl fun k _ => congrArg (e44 (F := Ideal) X mu va ga be) (lift44 _ p k)

/-- What the body stores, at an entry. -/
theorem P44_apply (p : Fin 2000) (k : Fin 64) :
    P44 (F := Ideal) X mu va ga be (ix2 p k)
      = Ideal.div (e44 (F := Ideal) X mu va ga be (ix2 p k)) (Cert.Val.cOne + sm44 (F := Ideal) X mu va ga be (ix1 p)) := rfl

end Block44

/-- The block that holds row r, read at the row's place, is row r of the array. -/
theorem rows44_at (x : S50000x64.Idx → Elt Ideal .f32) (r : Fin 50000) (q k : Fin 64) :
    rows44 x (blkOf44 (ix2 r q)) (ix2 (rowIn44 (ix2 r q)) k) = x (ix2 r k) := by
  unfold rows44
  refine congrArg x (funext fun a => ?_)
  match a with
  | ⟨0, _⟩ => exact Fin.ext (by show (r.val / 2000) * 2000 + r.val % 2000 = r.val; omega)
  | ⟨1, _⟩ => rfl

/-- THE OUTPUT ARRAY AT AN ENTRY: the row softmax with one added to the denominator, of the batch-norm of row r of
    the activations with the given column statistics, scale and shift. -/
theorem G44_apply (x : S50000x64.Idx → Elt Ideal .f32) (mu va ga be : S1x64.Idx → Elt Ideal .f32) (r : Fin 50000) (q : Fin 64) :
    G44 (F := Ideal) x mu va ga be (ix2 r q)
      = Cert.Val.smOne (fun j' => Cert.Val.bnAt (fun i j => x (ix2 i j)) (fun j => mu (ix2 0 j)) (fun j => va (ix2 0 j))
          (fun j => ga (ix2 0 j)) (fun j => be (ix2 0 j)) r j') q := by
  have hb : ∀ k : Fin 64, bn44 (F := Ideal) (rows44 x (blkOf44 (ix2 r q))) mu va ga be (ix2 (rowIn44 (ix2 r q)) k)
      = Cert.Val.bnAt (fun i j => x (ix2 i j)) (fun j => mu (ix2 0 j)) (fun j => va (ix2 0 j))
          (fun j => ga (ix2 0 j)) (fun j => be (ix2 0 j)) r k := by
    intro k
    rw [bn44_apply, rows44_at]
    rfl
  show P44 (F := Ideal) (rows44 x (blkOf44 (ix2 r q))) mu va ga be (ix2 (rowIn44 (ix2 r q)) q) = _
  rw [P44_apply, sm44_apply]
  simp only [e44_apply, hb]
  rfl

end Ideal44

end Cert.KernelIdeal.Hand

end
-- ==== Proof.KI.R45v.lean ====
import proofs.«408084_j48395691492010_3_alg».proof.Proof.KI.R45
import Idealize.ShloMosaic.Lib.Pipeline.Value
import Idealize.ShloMosaic.Lib.ValueIdx
import Idealize.ShloMosaic.PureOps.Ideal.Laws

/-! # Region 45, read: the output array is the product of the two input arrays

The frame part gives, point by point, the block of products the body leaves in the output window. Here the
blocks are put together: after the last point the output array is one function G45 of the two input arrays
as the region finds them, and at the ideal values entry (r, q) of it is the sum over k of x (r, k) · w (k, q). -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Value45

/-- The contracted extent (columns of X, rows of W) and the number of columns of W. -/
abbrev kdim45 : Nat := 64
abbrev ncol45 : Nat := 32

/-! ## The product as a function of the two arrays

The unit that multiplies is given a block of rows at a time, so the function of the arrays is stated that
way: entry (r, q) is the entry of the product of the block of rows holding row r with W, at that row's
place in the block. At the ideal values a block's product is the sum over the contracted axis, and the
blocks fall away. -/

/-- The block of consecutive rows of x that holds row r, its rows numbered from the block's first. -/
noncomputable def rowsOf45 (x : S50000x64.Idx → Elt F .f32) (r : Fin 50000) : Vec F S2000x64 .f32 :=
  fun y => x (ix2 ⟨r.val / 2000 * 2000 + (y 0).val, by
    have h0 : (y 0).val < 2000 := (y 0).isLt
    have hr := r.isLt
    omega⟩ (y 1))

/-- Entry i of the product: the payload at the block of rows holding row i 0 and at W, read at the row's
    place in its block and column i 1. -/
noncomputable def G45 (x : S50000x64.Idx → Elt F .f32) (w : S64x32.Idx → Elt F .f32) : S50000x32.Idx → Elt F .f32 :=
  fun i => k45_pay1 (rowsOf45 x (i 0)) w (ix2 ⟨(i 0).val % 2000, Nat.mod_lt _ (by decide)⟩ (i 1))

/-- Entry i of the product from ANY description of the block b that holds its row: the block of rows as
    xb, the matrix as wb, the entry's place in the block as j. -/
theorem G45_of_block (x : S50000x64.Idx → Elt F .f32) (w : S64x32.Idx → Elt F .f32) (b : Nat)
    (i : S50000x32.Idx) (j : S2000x32.Idx) (h0 : (i 0).val = b * 2000 + (j 0).val) (h1 : (i 1).val = (j 1).val)
    (xb : Vec F S2000x64 .f32) (wb : Vec F S64x32 .f32) (hw : wb = w)
    (hx : ∀ (y : S2000x64.Idx) (hy : b * 2000 + (y 0).val < 50000), xb y = x (ix2 ⟨b * 2000 + (y 0).val, hy⟩ (y 1))) :
    G45 x w i = k45_pay1 xb wb j := by
  have hj0 : (j 0).val < 2000 := (j 0).isLt
  have hi0 : (i 0).val < 50000 := (i 0).isLt
  have hrows : rowsOf45 x (i 0) = xb := by
    funext y
    have hy0 : (y 0).val < 2000 := (y 0).isLt
    have hq : (i 0).val / 2000 * 2000 = b * 2000 := by omega
    rw [hx y (by omega)]
    unfold rowsOf45
    congr 1
    funext d; apply Fin.ext
    match d with
    | ⟨0, _⟩ => show (i 0).val / 2000 * 2000 + (y 0).val = b * 2000 + (y 0).val; omega
    | ⟨1, _⟩ => rfl
  have hplace : (ix2 ⟨(i 0).val % 2000, Nat.mod_lt _ (by decide)⟩ (i 1) : S2000x32.Idx) = j := by
    funext d; apply Fin.ext
    match d with
    | ⟨0, _⟩ => show (i 0).val % 2000 = (j 0).val; omega
    | ⟨1, _⟩ => exact h1
  unfold G45
  rw [hrows, hplace, hw]

/-! ### The operand indices of the contraction, axis by axis -/

theorem lhsAx45_0 (j : S2000x32.Idx) (k : dot_S2000x64_S64x32_S2000x32_1_0_0_1_n_n.contr.Idx) :
    (dot_S2000x64_S64x32_S2000x32_1_0_0_1_n_n.lhsIdx j k (0 : Fin 2)).val = (j 0).val := by
  unfold DotDims.lhsIdx
  rw [dif_neg (show ¬(0 : Fin S2000x64.rank) ∈ dot_S2000x64_S64x32_S2000x32_1_0_0_1_n_n.lhsBatch by decide),
    dif_pos (show (0 : Fin S2000x64.rank) ∈ dot_S2000x64_S64x32_S2000x32_1_0_0_1_n_n.lhsNonContracting by decide)]
  rfl

theorem lhsAx45_1 (j : S2000x32.Idx) (k : dot_S2000x64_S64x32_S2000x32_1_0_0_1_n_n.contr.Idx) :
    (dot_S2000x64_S64x32_S2000x32_1_0_0_1_n_n.lhsIdx j k (1 : Fin 2)).val = (k ⟨0, by decide⟩).val :=
  dot_S2000x64_S64x32_S2000x32_1_0_0_1_n_n.lhsIdx_val_of_single (cl := (1 : Fin 2)) rfl j k

theorem rhsAx45_0 (j : S2000x32.Idx) (k : dot_S2000x64_S64x32_S2000x32_1_0_0_1_n_n.contr.Idx) :
    (dot_S2000x64_S64x32_S2000x32_1_0_0_1_n_n.rhsIdx j k (0 : Fin 2)).val = (k ⟨0, by decide⟩).val :=
  dot_S2000x64_S64x32_S2000x32_1_0_0_1_n_n.rhsIdx_val_of_single (cr := (0 : Fin 2)) rfl j k

theorem rhsAx45_1 (j : S2000x32.Idx) (k : dot_S2000x64_S64x32_S2000x32_1_0_0_1_n_n.contr.Idx) :
    (dot_S2000x64_S64x32_S2000x32_1_0_0_1_n_n.rhsIdx j k (1 : Fin 2)).val = (j 1).val := by
  unfold DotDims.rhsIdx
  rw [dif_neg (show ¬(1 : Fin S64x32.rank) ∈ dot_S2000x64_S64x32_S2000x32_1_0_0_1_n_n.rhsBatch by decide),
    dif_pos (show (1 : Fin S64x32.rank) ∈ dot_S2000x64_S64x32_S2000x32_1_0_0_1_n_n.rhsNonContracting by decide)]
  rfl

/-- The payload at the ideal values, at an index: the sum over the contracted axis. -/
theorem k45_pay1_apply (a : Vec Ideal S2000x64 .f32) (b : Vec Ideal S64x32 .f32) (p : Fin 2000) (q : Fin ncol45) :
    k45_pay1 (F := Ideal) a b (ix2 p q) = ∑ k : Fin kdim45, a (ix2 p k) * b (ix2 k q) := by
  unfold k45_pay1
  simp only [shapeCast_self]
  refine (Ideal.matmul_constant_zero_apply _ _ _ _ _).trans ?_
  rw [← Equiv.sum_comp (contrEquiv1 dot_S2000x64_S64x32_S2000x32_1_0_0_1_n_n kdim45 rfl rfl).symm]
  refine Finset.sum_congr rfl fun k _ => ?_
  have hl : dot_S2000x64_S64x32_S2000x32_1_0_0_1_n_n.lhsIdx (ix2 p q) ((contrEquiv1 dot_S2000x64_S64x32_S2000x32_1_0_0_1_n_n kdim45 rfl rfl).symm k) = ix2 p k := by
    funext d; apply Fin.ext
    match d with
    | ⟨0, _⟩ => exact lhsAx45_0 _ _
    | ⟨1, _⟩ => exact (lhsAx45_1 _ _).trans (contrEquiv1_symm_val _ kdim45 rfl rfl k)
  have hr : dot_S2000x64_S64x32_S2000x32_1_0_0_1_n_n.rhsIdx (ix2 p q) ((contrEquiv1 dot_S2000x64_S64x32_S2000x32_1_0_0_1_n_n kdim45 rfl rfl).symm k) = ix2 k q := by
    funext d; apply Fin.ext
    match d with
    | ⟨0, _⟩ => exact (rhsAx45_0 _ _).trans (contrEquiv1_symm_val _ kdim45 rfl rfl k)
    | ⟨1, _⟩ => exact rhsAx45_1 _ _
  rw [hl, hr]

/-- Entry (r, q) of the product at the ideal values: the sum over k of x (r, k) · w (k, q). -/
theorem G45_apply (x : S50000x64.Idx → Elt Ideal .f32) (w : S64x32.Idx → Elt Ideal .f32) (r : Fin 50000) (q : Fin ncol45) :
    G45 (F := Ideal) x w (ix2 r q) = ∑ k : Fin kdim45, x (ix2 r k) * w (ix2 k q) := by
  unfold G45
  rw [k45_pay1_apply]
  refine Finset.sum_congr rfl fun k _ => ?_
  unfold rowsOf45
  have hrow : (ix2 (⟨r.val / 2000 * 2000 + r.val % 2000, by have := r.isLt; omega⟩ : Fin 50000) k : S50000x64.Idx) = ix2 r k := by
    funext d; apply Fin.ext
    match d with
    | ⟨0, _⟩ => show r.val / 2000 * 2000 + r.val % 2000 = r.val; omega
    | ⟨1, _⟩ => rfl
  exact congrArg (fun z => x z * w (ix2 k q)) hrow

end Value45

/-! ## From the blocks written back to the array -/

section Final45
variable (V : (c : Dev nD) → (b : Ref sig .tc) → Buf (Elt F) ((c : Thread nD τ).loc b))

theorem hz45 : (![0, 0] : Fin 2 → Nat) = fun _ => 0 := funext fun a => by fin_cases a <;> rfl

/-- The index maps over the grid: the rows of X and of the product move with the point, one block a point;
    W stays; no window moves along its columns. -/
theorem idx_facts45 : ∀ t : Fin cfg45.N,
    win45_0.index t (0 : Fin 2) = t.val ∧ win45_0.index t (1 : Fin 2) = 0
    ∧ win45_1.index t (0 : Fin 2) = 0 ∧ win45_1.index t (1 : Fin 2) = 0
    ∧ win45_2.index t (0 : Fin 2) = t.val ∧ win45_2.index t (1 : Fin 2) = 0 :=
  (by decide +kernel : ∀ t : Fin grid45.N, _)

/-- What point t writes back is block t of the product of the arrays as the region finds them. -/
theorem flushed45_2_eq (c : Dev nD) (t : Fin cfg45.N) :
    (dat45 V c).flushed 2 t = ((cfg45.win 2).blk t).view.read (Elt F) (G45 (V c (Pipeline.arrRef spec45 0)) (V c (Pipeline.arrRef spec45 1))) := by
  show (cfg45.win 2).cut (grid45.coords t) ((dat45 V c).after 2 t) = _
  rw [after45_2]
  unfold out45_2
  rw [View.canon_unit_zero hz45]
  simp only [View.ld_unit_zero (S := S2000x64) hz45, View.ld_unit_zero (S := S64x32) hz45]
  obtain ⟨e0, e1, e2, e3, e4, e5⟩ := idx_facts45 t
  funext j
  show k45_pay1 (iblk45 V c 0 t) (iblk45 V c 1 t) j = G45 (V c (Pipeline.arrRef spec45 0)) (V c (Pipeline.arrRef spec45 1)) (((cfg45.win 2).blk t).view.emb j)
  refine (G45_of_block _ _ t.val _ j ?_ ?_ _ _ ?_ ?_).symm
  · show win45_2.index t (0 : Fin 2) * 2000 + 1 * (j 0).val = t.val * 2000 + (j 0).val
    rw [e4]; omega
  · show win45_2.index t (1 : Fin 2) * S2000x32.size 1 + 1 * (j 1).val = (j 1).val
    rw [e5]; omega
  · funext y
    show V c (Pipeline.arrRef spec45 1) (((cfg45.win 1).blk t).view.emb y) = V c (Pipeline.arrRef spec45 1) y
    congr 1
    funext d; apply Fin.ext
    match d with
    | ⟨0, _⟩ => show win45_1.index t (0 : Fin 2) * S64x32.size 0 + 1 * (y 0).val = (y 0).val; rw [e2]; omega
    | ⟨1, _⟩ => show win45_1.index t (1 : Fin 2) * S64x32.size 1 + 1 * (y 1).val = (y 1).val; rw [e3]; omega
  · intro y hy
    show V c (Pipeline.arrRef spec45 0) (((cfg45.win 0).blk t).view.emb y) = V c (Pipeline.arrRef spec45 0) (ix2 ⟨t.val * 2000 + (y 0).val, hy⟩ (y 1))
    congr 1
    funext d; apply Fin.ext
    match d with
    | ⟨0, _⟩ => show win45_0.index t (0 : Fin 2) * 2000 + 1 * (y 0).val = t.val * 2000 + (y 0).val; rw [e0]; omega
    | ⟨1, _⟩ => show win45_0.index t (1 : Fin 2) * S2000x64.size 1 + 1 * (y 1).val = (y 1).val; rw [e1]; omega

/-- An index of the array is in point t's block iff each coordinate is in the block's range on its axis. -/
theorem mem_blk45_2 (t : Fin cfg45.N) (i : S50000x32.Idx) :
    i ∈ ((cfg45.win 2).blk t).view.set ↔ ∀ a : Fin 2, win45_2.index t a * S2000x32.size a ≤ (i a).val ∧ (i a).val < win45_2.index t a * S2000x32.size a + S2000x32.size a := by
  show i ∈ ((View.whole (Pipeline.arrRef spec45 2)).slice (win45_2.rect t)).set ↔ _
  rw [View.set_slice_whole, Rect.mem_set_unit]
  exact Iff.rfl

/-- Every index of the array is in some point's block: row r in the block of point r / 2000. -/
theorem covered45_2 (i : S50000x32.Idx) :
    ∃ t : Fin cfg45.N, (cfg45.win 2).flush t = true ∧ i ∈ ((cfg45.win 2).blk t).view.set := by
  have hi0 : (i 0).val < 50000 := (i 0).isLt
  refine ⟨⟨(i 0).val / 2000, by rw [show cfg45.N = 25 from N_45]; omega⟩, flush45_2 _, ?_⟩
  obtain ⟨e0, e1, e2, e3, e4, e5⟩ := idx_facts45 ⟨(i 0).val / 2000, by rw [show cfg45.N = 25 from N_45]; omega⟩
  rw [mem_blk45_2]
  intro a
  match a with
  | ⟨0, _⟩ =>
    show win45_2.index _ (0 : Fin 2) * 2000 ≤ (i 0).val ∧ (i 0).val < win45_2.index _ (0 : Fin 2) * 2000 + 2000
    rw [e4]; show (i 0).val / 2000 * 2000 ≤ (i 0).val ∧ (i 0).val < (i 0).val / 2000 * 2000 + 2000; omega
  | ⟨1, _⟩ =>
    show win45_2.index _ (1 : Fin 2) * S2000x32.size 1 ≤ (i 1).val ∧ (i 1).val < win45_2.index _ (1 : Fin 2) * S2000x32.size 1 + S2000x32.size 1
    rw [e5, Nat.zero_mul, Nat.zero_add]; exact ⟨Nat.zero_le _, (i 1).isLt⟩

/-- The output array after the last point is the product of the two input arrays as the region finds them. -/
theorem final45_2 (c : Dev nD) :
    (dat45 V c).arrAt 2 cfg45.N = G45 (V c (Pipeline.arrRef spec45 0)) (V c (Pipeline.arrRef spec45 1)) :=
  (dat45 V c).arrAt_eq_of_cover 2 (G45 (V c (Pipeline.arrRef spec45 0)) (V c (Pipeline.arrRef spec45 1)))
    (fun t _ => flushed45_2_eq V c t) covered45_2

end Final45

end Cert.KernelIdeal.Hand

end
-- ==== Proof.KI.R46v.lean ====
/- Region 46, the values: the softmax array and the column-sum array after the run, each as one function of the
   two arrays the region finds (agg, [50000, 32]; the bias row b, [1, 32]).
   First what each case of the body leaves is read back as the body's payloads of the input blocks; so the
   accumulator after point n is the fold of the accumulating payload over the row blocks 0 … n (induction on the
   point). Then the blocks are put together: every row's softmax depends on that row alone, so the 25 blocks written
   back are the blocks of one whole-array function; the column sums are written back once, after the last point.
   Last, both arrays are read at an entry at the ideal values: s[r, q] is softmax-with-one of row r of agg + b, and
   the column sum is the sum of s[r, q] over all 50000 rows. -/
import proofs.«408084_j48395691492010_3_alg».proof.Proof.KI.R46
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (V : (c : Dev nD) → (b : Ref sig .tc) → Buf (Elt F) ((c : Thread nD τ).loc b))

theorem hz46 : (![0, 0] : Fin 2 → Nat) = fun _ => 0 := funext fun a => by fin_cases a <;> rfl

/-! ## What each case leaves, as the body's payloads -/

theorem out46_A_2_eq (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond46_0 i) (hc1 : ¬cond46_1 i)
    (x0 : Vec F S2000x32 .f32) (x1 : Vec F S1x32 .f32) :
    out46_A_2 c i arg1 harg1 arg2 harg2 arg3 harg3 arg4 harg4 arg5 harg5 hc0 hc1 x0 x1 = k46_pay2 x0 x1 := by
  unfold out46_A_2
  rw [View.read_writes_eq_canon _ _ _ (cover46_A_2 c i arg1 harg1 arg2 harg2 arg3 harg3 arg4 harg4 arg5 harg5 hc0 hc1 x0 x1)]
  unfold kernelRun46_A
  dsimp only
  sl_unfold_words
  rw [View.canon_unit_zero hz46]
  simp only [View.readAt_eq_ld, harg1.read_unread, harg2.read_unread, View.ld_unit_zero (S := S2000x32) hz46, View.ld_unit_zero (S := S1x32) hz46]

theorem out46_B_2_eq (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : ¬cond46_1 i)
    (x0 : Vec F S2000x32 .f32) (x1 : Vec F S1x32 .f32) (xs0 : Vec F S1x32 .f32) :
    out46_B_2 c i arg1 harg1 arg2 harg2 arg3 harg3 arg4 harg4 arg5 harg5 hc0 hc1 x0 x1 xs0 = k46_pay2 x0 x1 := by
  unfold out46_B_2
  rw [View.read_writes_eq_canon _ _ _ (cover46_B_2 c i arg1 harg1 arg2 harg2 arg3 harg3 arg4 harg4 arg5 harg5 hc0 hc1 x0 x1 xs0)]
  unfold kernelRun46_B
  dsimp only
  sl_unfold_words
  rw [View.canon_unit_zero hz46]
  simp only [View.readAt_eq_ld, harg1.read_unread, harg2.read_unread, View.ld_unit_zero (S := S2000x32) hz46, View.ld_unit_zero (S := S1x32) hz46]

theorem out46_C_2_eq (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) :
    out46_C_2 c i arg1 harg1 arg2 harg2 arg3 harg3 arg4 harg4 arg5 harg5 hc0 hc1 x0 x1 xs0 = k46_pay2 x0 x1 := by
  unfold out46_C_2
  rw [View.read_writes_eq_canon _ _ _ (cover46_C_2 c i arg1 harg1 arg2 harg2 arg3 harg3 arg4 harg4 arg5 harg5 hc0 hc1 x0 x1 xs0)]
  unfold kernelRun46_C
  dsimp only
  sl_unfold_words
  rw [View.canon_unit_zero hz46]
  simp only [View.readAt_eq_ld, harg1.read_unread, harg2.read_unread, View.ld_unit_zero (S := S2000x32) hz46, View.ld_unit_zero (S := S1x32) hz46]

theorem sout46_A_0_eq (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : cond46_0 i) (hc1 : ¬cond46_1 i)
    (x0 : Vec F S2000x32 .f32) (x1 : Vec F S1x32 .f32) :
    sout46_A_0 c i arg1 harg1 arg2 harg2 arg3 harg3 arg4 harg4 arg5 harg5 hc0 hc1 x0 x1 = k46_pay3 x0 x1 (k46_pay1 (F := F)) := by
  unfold sout46_A_0
  rw [View.read_writes_eq_canon _ _ _ (scover46_A_0 c i arg1 harg1 arg2 harg2 arg3 harg3 arg4 harg4 arg5 harg5 hc0 hc1 x0 x1)]
  unfold kernelRun46_A
  dsimp only
  sl_unfold_words
  rw [View.canon_cons_unit_zero (S := S1x32) hz46, View.readCov_unit_zero (S := S1x32) _ hz46]
  simp only [View.readAt_eq_ld, harg1.read_unread, harg2.read_unread, View.ld_unit_zero (S := S2000x32) hz46, View.ld_unit_zero (S := S1x32) hz46]

theorem sout46_B_0_eq (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : ¬cond46_1 i)
    (x0 : Vec F S2000x32 .f32) (x1 : Vec F S1x32 .f32) (xs0 : Vec F S1x32 .f32) :
    sout46_B_0 c i arg1 harg1 arg2 harg2 arg3 harg3 arg4 harg4 arg5 harg5 hc0 hc1 x0 x1 xs0 = k46_pay3 x0 x1 xs0 := by
  unfold sout46_B_0
  rw [View.read_writes_eq_canon _ _ _ (scover46_B_0 c i arg1 harg1 arg2 harg2 arg3 harg3 arg4 harg4 arg5 harg5 hc0 hc1 x0 x1 xs0)]
  unfold kernelRun46_B
  dsimp only
  sl_unfold_words
  rw [View.canon_unit_zero hz46]
  simp only [View.readAt_eq_ld, harg1.read_unread, harg2.read_unread, harg5.read_unread, View.ld_unit_zero (S := S2000x32) hz46, View.ld_unit_zero (S := S1x32) hz46]

theorem sout46_C_0_eq (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) :
    sout46_C_0 c i arg1 harg1 arg2 harg2 arg3 harg3 arg4 harg4 arg5 harg5 hc0 hc1 x0 x1 xs0 = k46_pay3 x0 x1 xs0 := by
  unfold sout46_C_0
  rw [View.read_writes_eq_canon _ _ _ (scover46_C_0 c i arg1 harg1 arg2 harg2 arg3 harg3 arg4 harg4 arg5 harg5 hc0 hc1 x0 x1 xs0)]
  unfold kernelRun46_C
  dsimp only
  sl_unfold_words
  rw [View.canon_unit_zero hz46]
  simp only [View.readAt_eq_ld, harg1.read_unread, harg2.read_unread, harg5.read_unread, View.ld_unit_zero (S := S2000x32) hz46, View.ld_unit_zero (S := S1x32) hz46]

theorem out46_C_3_eq (c : Dev nD) (i : grid46.Coords) (arg1 : Memref sig .tc .vmem S2000x32 .f32) (harg1 : arg1.IsWhole) (arg2 : Memref sig .tc .vmem S1x32 .f32) (harg2 : arg2.IsWhole) (arg3 : Memref sig .tc .vmem S2000x32 .f32) (harg3 : arg3.IsWhole) (arg4 : Memref sig .tc .vmem S1x32 .f32) (harg4 : arg4.IsWhole) (arg5 : Memref sig .tc .vmem S1x32 .f32) (harg5 : arg5.IsWhole) (hc0 : ¬cond46_0 i) (hc1 : cond46_1 i)
    (x0 : Vec F S2000x32 .f32) (x1 : Vec F S1x32 .f32) (xs0 : Vec F S1x32 .f32) :
    out46_C_3 c i arg1 harg1 arg2 harg2 arg3 harg3 arg4 harg4 arg5 harg5 hc0 hc1 x0 x1 xs0 = k46_pay3 x0 x1 xs0 := by
  unfold out46_C_3
  rw [View.read_writes_eq_canon _ _ _ (cover46_C_3 c i arg1 harg1 arg2 harg2 arg3 harg3 arg4 harg4 arg5 harg5 hc0 hc1 x0 x1 xs0)]
  unfold kernelRun46_C
  dsimp only
  sl_unfold_words
  rw [View.canon_unit_zero hz46, View.readCov_unit_zero (S := S1x32) _ hz46]
  simp only [View.readAt_eq_ld, harg1.read_unread, harg2.read_unread, harg5.read_unread, View.ld_unit_zero (S := S2000x32) hz46, View.ld_unit_zero (S := S1x32) hz46]

/-! ## The softmax block and the accumulator after each point, as the payloads of the input blocks -/

/-- After any point the softmax block's buffer holds the body's one payload of the point's two input blocks. -/
theorem outsAt46_1 (c : Dev nD) (t : Fin cfg46.N) :
    (outsAt46 V c t.val t.isLt).1 = k46_pay2 (iblk46 V c 0 t) (iblk46 V c 1 t) := by
  have hN : t.val < 25 := lt_of_lt_of_eq t.isLt (show cfg46.N = 25 from N_46)
  by_cases h0 : t.val = 0
  · have h1 : ¬t.val = 24 := by omega
    rw [outsAt46_A V c t h0 h1]; dsimp only
    exact out46_A_2_eq c (grid46.coords t) (ms46_0 t) (hs46_0 t) (ms46_1 t) (hs46_1 t) (ms46_2 t) (hs46_2 t) (ms46_3 t) (hs46_3 t) scM46_0 (Memref.isWhole_whole _) ((hcond46_0 t).mpr h0) (fun h => h1 ((hcond46_1 t).mp h)) (iblk46 V c 0 t) (iblk46 V c 1 t)
  · by_cases h1 : t.val = 24
    · rw [outsAt46_C V c t h0 h1]; dsimp only
      exact out46_C_2_eq c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) ((hcond46_1 t).mpr h1) (iblk46 V c 0 t) (iblk46 V c 1 t) _
    · rw [outsAt46_B V c t h0 h1]; dsimp only
      exact out46_B_2_eq c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) (fun h => h1 ((hcond46_1 t).mp h)) (iblk46 V c 0 t) (iblk46 V c 1 t) _

/-- The accumulator after point `n`: zero, then the column sums of the softmax blocks 0 … n added one after the other
    (the body's third payload folded over the points). -/
noncomputable def acc46 (c : Dev nD) : (n : ℕ) → n < cfg46.N → Vec F S1x32 .f32
  | 0, h => k46_pay3 (iblk46 V c 0 ⟨0, h⟩) (iblk46 V c 1 ⟨0, h⟩) (k46_pay1 (F := F))
  | n + 1, h => k46_pay3 (iblk46 V c 0 ⟨n + 1, h⟩) (iblk46 V c 1 ⟨n + 1, h⟩) (acc46 c n (Nat.lt_of_succ_lt h))

/-- What the accumulator holds after point `n` is that fold — by induction on the point. -/
theorem outsAt46_acc (c : Dev nD) : ∀ (n : ℕ) (h : n < cfg46.N), (outsAt46 V c n h).2.2 = acc46 V c n h
  | 0, h => by
    rw [outsAt46_A V c ⟨0, h⟩ rfl (fun e => absurd (show (0 : ℕ) = 24 from e) (by decide))]; dsimp only
    exact sout46_A_0_eq c (grid46.coords ⟨0, h⟩) (ms46_0 ⟨0, h⟩) (hs46_0 ⟨0, h⟩) (ms46_1 ⟨0, h⟩) (hs46_1 ⟨0, h⟩) (ms46_2 ⟨0, h⟩) (hs46_2 ⟨0, h⟩) (ms46_3 ⟨0, h⟩) (hs46_3 ⟨0, h⟩) scM46_0 (Memref.isWhole_whole _) ((hcond46_0 ⟨0, h⟩).mpr rfl) (fun e => absurd (show (0 : ℕ) = 24 from (hcond46_1 ⟨0, h⟩).mp e) (by decide)) (iblk46 V c 0 ⟨0, h⟩) (iblk46 V c 1 ⟨0, h⟩)
  | n + 1, h => by
    by_cases h1 : n + 1 = 24
    · rw [outsAt46_C V c ⟨n + 1, h⟩ (Nat.succ_ne_zero n) h1]; dsimp only
      refine (sout46_C_0_eq c (grid46.coords ⟨n + 1, h⟩) (ms46_0 ⟨n + 1, h⟩) (hs46_0 ⟨n + 1, h⟩) (ms46_1 ⟨n + 1, h⟩) (hs46_1 ⟨n + 1, h⟩) (ms46_2 ⟨n + 1, h⟩) (hs46_2 ⟨n + 1, h⟩) (ms46_3 ⟨n + 1, h⟩) (hs46_3 ⟨n + 1, h⟩) scM46_0 (Memref.isWhole_whole _) (fun e => absurd ((hcond46_0 ⟨n + 1, h⟩).mp e) (Nat.succ_ne_zero n)) ((hcond46_1 ⟨n + 1, h⟩).mpr h1) (iblk46 V c 0 ⟨n + 1, h⟩) (iblk46 V c 1 ⟨n + 1, h⟩) _).trans ?_
      show k46_pay3 (iblk46 V c 0 ⟨n + 1, h⟩) (iblk46 V c 1 ⟨n + 1, h⟩) (outsAt46 V c n (Nat.lt_of_succ_lt h)).2.2
        = k46_pay3 (iblk46 V c 0 ⟨n + 1, h⟩) (iblk46 V c 1 ⟨n + 1, h⟩) (acc46 V c n (Nat.lt_of_succ_lt h))
      rw [outsAt46_acc c n]
    · rw [outsAt46_B V c ⟨n + 1, h⟩ (Nat.succ_ne_zero n) h1]; dsimp only
      refine (sout46_B_0_eq c (grid46.coords ⟨n + 1, h⟩) (ms46_0 ⟨n + 1, h⟩) (hs46_0 ⟨n + 1, h⟩) (ms46_1 ⟨n + 1, h⟩) (hs46_1 ⟨n + 1, h⟩) (ms46_2 ⟨n + 1, h⟩) (hs46_2 ⟨n + 1, h⟩) (ms46_3 ⟨n + 1, h⟩) (hs46_3 ⟨n + 1, h⟩) scM46_0 (Memref.isWhole_whole _) (fun e => absurd ((hcond46_0 ⟨n + 1, h⟩).mp e) (Nat.succ_ne_zero n)) (fun e => h1 ((hcond46_1 ⟨n + 1, h⟩).mp e)) (iblk46 V c 0 ⟨n + 1, h⟩) (iblk46 V c 1 ⟨n + 1, h⟩) _).trans ?_
      show k46_pay3 (iblk46 V c 0 ⟨n + 1, h⟩) (iblk46 V c 1 ⟨n + 1, h⟩) (outsAt46 V c n (Nat.lt_of_succ_lt h)).2.2
        = k46_pay3 (iblk46 V c 0 ⟨n + 1, h⟩) (iblk46 V c 1 ⟨n + 1, h⟩) (acc46 V c n (Nat.lt_of_succ_lt h))
      rw [outsAt46_acc c n]

/-- At the last point the column-sum block's buffer is the copy of the accumulator. -/
theorem outsAt46_3_last (c : Dev nD) (t : Fin cfg46.N) (h1 : t.val = 24) :
    (outsAt46 V c t.val t.isLt).2.1 = (outsAt46 V c t.val t.isLt).2.2 := by
  have h0 : ¬t.val = 0 := by omega
  rw [outsAt46_C V c t h0 h1]; dsimp only
  exact (out46_C_3_eq c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) ((hcond46_1 t).mpr h1) (iblk46 V c 0 t) (iblk46 V c 1 t) _).trans
    (sout46_C_0_eq c (grid46.coords t) (ms46_0 t) (hs46_0 t) (ms46_1 t) (hs46_1 t) (ms46_2 t) (hs46_2 t) (ms46_3 t) (hs46_3 t) scM46_0 (Memref.isWhole_whole _) (fun h => h0 ((hcond46_0 t).mp h)) ((hcond46_1 t).mpr h1) (iblk46 V c 0 t) (iblk46 V c 1 t) _).symm

/-! ## From blocks to arrays -/

/-- Row block `q` of a [50000, 32] array: its rows 2000 q … 2000 q + 1999. -/
noncomputable def rows46 (a : Vec F S50000x32 .f32) (q : Fin 25) : Vec F S2000x32 .f32 :=
  fun y => a (ix2 (⟨q.val * 2000 + (y 0).val, by have := q.isLt; have := idx2_lt0 y; omega⟩ : Fin 50000) (⟨(y 1).val, idx2_lt1 y⟩ : Fin 32))

/-- THE SOFTMAX ARRAY: at row `r`, column `j` the body's payload of the row block that holds `r` (block `r / 2000`) and
    of the bias row, read at row `r % 2000` of the block — every row's value depends on that row alone
    (`G46_2_apply` reads it at the ideal values). -/
noncomputable def G46_2 (a : Vec F S50000x32 .f32) (b : Vec F S1x32 .f32) : Vec F S50000x32 .f32 :=
  fun i => k46_pay2 (rows46 a ⟨(i 0).val / 2000, by have := idx2_lt0 i; omega⟩) b
    (ix2 (⟨(i 0).val % 2000, Nat.mod_lt _ (by decide)⟩ : Fin 2000) (⟨(i 1).val, idx2_lt1 i⟩ : Fin 32))

/-- `G46_2` at an index of row block `q`, local index `y`: the payload of that block at `y`. -/
theorem G46_2_blk (a : Vec F S50000x32 .f32) (b : Vec F S1x32 .f32) (q : Fin 25) (y : S2000x32.Idx) (i : S50000x32.Idx)
    (h0 : (i 0).val = q.val * 2000 + (y 0).val) (h1 : (i 1).val = (y 1).val) :
    G46_2 a b i = k46_pay2 (rows46 a q) b y := by
  have hy0 : (y 0).val < 2000 := idx2_lt0 y
  have e1 : (i 0).val / 2000 = q.val := by omega
  have e2 : (i 0).val % 2000 = (y 0).val := by omega
  have hq : (⟨(i 0).val / 2000, by have := idx2_lt0 i; omega⟩ : Fin 25) = q := Fin.ext e1
  have hy : (ix2 (⟨(i 0).val % 2000, Nat.mod_lt _ (by decide)⟩ : Fin 2000) (⟨(i 1).val, idx2_lt1 i⟩ : Fin 32) : S2000x32.Idx) = y := by
    funext d
    match d with
    | ⟨0, _⟩ => exact Fin.ext e2
    | ⟨1, _⟩ => exact Fin.ext h1
  unfold G46_2
  rw [hq, hy]

/-- The column sums accumulated over the row blocks 0 … n, in block order: zero, then each block's column sums of the
    softmax added to what the blocks before left (the body's third payload folded over the row blocks of the array). -/
noncomputable def colAcc46 (a : Vec F S50000x32 .f32) (b : Vec F S1x32 .f32) : (n : ℕ) → n < 25 → Vec F S1x32 .f32
  | 0, h => k46_pay3 (rows46 a ⟨0, h⟩) b (k46_pay1 (F := F))
  | n + 1, h => k46_pay3 (rows46 a ⟨n + 1, h⟩) b (colAcc46 a b n (Nat.lt_of_succ_lt h))

/-- THE COLUMN-SUM ARRAY: the accumulation over all 25 row blocks (`G46_3_apply` reads it at the ideal values as the sum
    over all 50000 rows). -/
noncomputable def G46_3 (a : Vec F S50000x32 .f32) (b : Vec F S1x32 .f32) : Vec F S1x32 .f32 := colAcc46 a b 24 (by decide)

/-- The windows' block indices, decided over the grid: the two [2000, 32] windows move with the point along the rows,
    the two [1, 32] windows stay at their one block. -/
theorem idx46 : ∀ t : Fin cfg46.N, win46_0.index t (0 : Fin 2) = t.val ∧ win46_0.index t (1 : Fin 2) = 0
    ∧ win46_1.index t (0 : Fin 2) = 0 ∧ win46_1.index t (1 : Fin 2) = 0
    ∧ win46_2.index t (0 : Fin 2) = t.val ∧ win46_2.index t (1 : Fin 2) = 0
    ∧ win46_3.index t (0 : Fin 2) = 0 ∧ win46_3.index t (1 : Fin 2) = 0 :=
  (by decide +kernel : ∀ t : Fin grid46.N, _)

/-- The block of agg the body reads at point `t` is row block `t` of the array. -/
theorem iblk46_0_eq (c : Dev nD) (t : Fin cfg46.N) :
    (iblk46 V c 0 t : Vec F S2000x32 .f32) = rows46 (V c (Pipeline.arrRef spec46 0)) ⟨t.val, lt_of_lt_of_eq t.isLt N_46⟩ := by
  obtain ⟨e0, e1, -⟩ := idx46 t
  funext j
  unfold iblk46 rows46
  rw [View.read_apply]
  show V c (Pipeline.arrRef spec46 0) _ = V c (Pipeline.arrRef spec46 0) _
  congr 1
  funext a
  apply Fin.ext
  match a with
  | ⟨0, _⟩ => show win46_0.index t (0 : Fin 2) * 2000 + 1 * (j 0).val = t.val * 2000 + (j 0).val; rw [e0]; omega
  | ⟨1, _⟩ => show win46_0.index t (1 : Fin 2) * 32 + 1 * (j 1).val = (j 1).val; rw [e1]; omega

/-- The block of b the body reads at any point is the whole bias row. -/
theorem iblk46_1_eq (c : Dev nD) (t : Fin cfg46.N) :
    (iblk46 V c 1 t : Vec F S1x32 .f32) = (V c (Pipeline.arrRef spec46 1)) := by
  obtain ⟨-, -, e2, e3, -⟩ := idx46 t
  funext j
  unfold iblk46
  rw [View.read_apply]
  show V c (Pipeline.arrRef spec46 1) _ = V c (Pipeline.arrRef spec46 1) _
  congr 1
  funext a
  apply Fin.ext
  match a with
  | ⟨0, _⟩ => show win46_1.index t (0 : Fin 2) * 1 + 1 * (j 0).val = (j 0).val; rw [e2]; omega
  | ⟨1, _⟩ => show win46_1.index t (1 : Fin 2) * 32 + 1 * (j 1).val = (j 1).val; rw [e3]; omega

/-- The accumulator after point `n` is the accumulation over the array's row blocks 0 … n. -/
theorem acc46_eq (c : Dev nD) : ∀ (n : ℕ) (h : n < cfg46.N),
    acc46 V c n h = colAcc46 (V c (Pipeline.arrRef spec46 0)) (V c (Pipeline.arrRef spec46 1)) n (lt_of_lt_of_eq h N_46)
  | 0, h => by
    show k46_pay3 (iblk46 V c 0 ⟨0, h⟩) (iblk46 V c 1 ⟨0, h⟩) (k46_pay1 (F := F)) = k46_pay3 (rows46 (V c (Pipeline.arrRef spec46 0)) ⟨0, _⟩) (V c (Pipeline.arrRef spec46 1)) (k46_pay1 (F := F))
    rw [iblk46_0_eq, iblk46_1_eq]
  | n + 1, h => by
    show k46_pay3 (iblk46 V c 0 ⟨n + 1, h⟩) (iblk46 V c 1 ⟨n + 1, h⟩) (acc46 V c n (Nat.lt_of_succ_lt h))
      = k46_pay3 (rows46 (V c (Pipeline.arrRef spec46 0)) ⟨n + 1, _⟩) (V c (Pipeline.arrRef spec46 1)) (colAcc46 (V c (Pipeline.arrRef spec46 0)) (V c (Pipeline.arrRef spec46 1)) n _)
    rw [iblk46_0_eq, iblk46_1_eq, acc46_eq c n]

/-! ### The softmax array -/

/-- WHAT POINT `t` WRITES BACK into the softmax array is block `t` of `G46_2` of the two arrays as the region finds them. -/
theorem flushed46_2 (c : Dev nD) (t : Fin cfg46.N) :
    (dat46 V c).flushed 2 t = ((cfg46.win 2).blk t).view.read (Elt F) (G46_2 (V c (Pipeline.arrRef spec46 0)) (V c (Pipeline.arrRef spec46 1))) := by
  show (cfg46.win 2).cut (grid46.coords t) ((dat46 V c).after 2 t) = _
  rw [after46_2, outsAt46_1, iblk46_0_eq, iblk46_1_eq]
  obtain ⟨-, -, -, -, e4, e5, -⟩ := idx46 t
  funext j
  rw [View.read_apply]
  exact (G46_2_blk (V c (Pipeline.arrRef spec46 0)) (V c (Pipeline.arrRef spec46 1)) ⟨t.val, lt_of_lt_of_eq t.isLt N_46⟩ j (((cfg46.win 2).blk t).view.emb j)
    (by show win46_2.index t (0 : Fin 2) * 2000 + 1 * (j 0).val = t.val * 2000 + (j 0).val; rw [e4]; omega)
    (by show win46_2.index t (1 : Fin 2) * 32 + 1 * (j 1).val = (j 1).val; rw [e5]; omega)).symm

/-- An index of the softmax array is in point `t`'s block iff each coordinate is in the block's range on its axis. -/
theorem mem_blk46_2 (t : Fin cfg46.N) (i : S50000x32.Idx) :
    i ∈ ((cfg46.win 2).blk t).view.set ↔ ∀ a : Fin 2, win46_2.index t a * S2000x32.size a ≤ (i a).val ∧ (i a).val < win46_2.index t a * S2000x32.size a + S2000x32.size a := by
  show i ∈ ((View.whole main_v393_0).slice (win46_2.rect t)).set ↔ _
  rw [View.set_slice_whole, Rect.mem_set_unit]
  exact Iff.rfl

/-- THE SOFTMAX ARRAY after the run: the 25 row blocks tile it, each written back at its point. -/
theorem final46_2 (c : Dev nD) : (dat46 V c).arrAt 2 cfg46.N = G46_2 (V c (Pipeline.arrRef spec46 0)) (V c (Pipeline.arrRef spec46 1)) :=
  (dat46 V c).arrAt_eq_of_cover 2 (G46_2 (V c (Pipeline.arrRef spec46 0)) (V c (Pipeline.arrRef spec46 1))) (fun t _ => flushed46_2 V c t) fun i => by
    have hi0 : (i 0).val < 50000 := idx2_lt0 i
    have hi1 : (i 1).val < 32 := idx2_lt1 i
    have hN : cfg46.N = 25 := N_46
    refine ⟨⟨(i 0).val / 2000, by rw [hN]; omega⟩, flush46_2 _, ?_⟩
    rw [mem_blk46_2]
    obtain ⟨-, -, -, -, e4, e5, -⟩ := idx46 ⟨(i 0).val / 2000, by rw [hN]; omega⟩
    intro a
    match a with
    | ⟨0, _⟩ =>
      show win46_2.index _ (0 : Fin 2) * 2000 ≤ (i 0).val ∧ (i 0).val < win46_2.index _ (0 : Fin 2) * 2000 + 2000
      rw [e4]; dsimp only; omega
    | ⟨1, _⟩ =>
      show win46_2.index _ (1 : Fin 2) * 32 ≤ (i 1).val ∧ (i 1).val < win46_2.index _ (1 : Fin 2) * 32 + 32
      rw [e5]; omega

/-! ### The column-sum array -/

/-- The one write-back of the column-sum array, at the last point, writes the accumulation over all the row blocks:
    block (0, 0) of a [1, 32] array read through zero offsets is the array. -/
theorem flushed46_3 (c : Dev nD) (t : Fin cfg46.N) (hf : (cfg46.win 3).flush t = true) :
    (dat46 V c).flushed 3 t = ((cfg46.win 3).blk t).view.read (Elt F) (G46_3 (V c (Pipeline.arrRef spec46 0)) (V c (Pipeline.arrRef spec46 1))) := by
  have hN : cfg46.N = 25 := N_46
  have h24 : t.val = 24 := by have := (flush46_3 t).mp hf; have := t.isLt; omega
  obtain ⟨-, -, -, -, -, -, e6, e7⟩ := idx46 t
  show (cfg46.win 3).cut (grid46.coords t) ((dat46 V c).after 3 t) = _
  rw [after46_3, outsAt46_3_last V c t h24, outsAt46_acc, acc46_eq]
  obtain ⟨n, hn⟩ := t
  obtain rfl : n = 24 := h24
  funext j
  rw [View.read_apply]
  show colAcc46 (V c (Pipeline.arrRef spec46 0)) (V c (Pipeline.arrRef spec46 1)) 24 _ j = G46_3 (V c (Pipeline.arrRef spec46 0)) (V c (Pipeline.arrRef spec46 1)) _
  unfold G46_3
  congr 1
  funext a
  apply Fin.ext
  match a with
  | ⟨0, _⟩ => show (j 0).val = win46_3.index ⟨24, hn⟩ (0 : Fin 2) * 1 + 1 * (j 0).val; rw [e6]; omega
  | ⟨1, _⟩ => show (j 1).val = win46_3.index ⟨24, hn⟩ (1 : Fin 2) * 32 + 1 * (j 1).val; rw [e7]; omega

/-- An index of the column-sum array is in point `t`'s block iff each coordinate is in the block's range on its axis. -/
theorem mem_blk46_3 (t : Fin cfg46.N) (i : S1x32.Idx) :
    i ∈ ((cfg46.win 3).blk t).view.set ↔ ∀ a : Fin 2, win46_3.index t a * S1x32.size a ≤ (i a).val ∧ (i a).val < win46_3.index t a * S1x32.size a + S1x32.size a := by
  show i ∈ ((View.whole main_v393_1).slice (win46_3.rect t)).set ↔ _
  rw [View.set_slice_whole, Rect.mem_set_unit]
  exact Iff.rfl

/-- THE COLUMN-SUM ARRAY after the run: its one block, written back at the last point, is the whole array. -/
theorem final46_3 (c : Dev nD) : (dat46 V c).arrAt 3 cfg46.N = G46_3 (V c (Pipeline.arrRef spec46 0)) (V c (Pipeline.arrRef spec46 1)) :=
  (dat46 V c).arrAt_eq_of_cover 3 (G46_3 (V c (Pipeline.arrRef spec46 0)) (V c (Pipeline.arrRef spec46 1))) (flushed46_3 V c) fun i => by
    have hi0 : (i 0).val < 1 := idx2_lt0 i
    have hi1 : (i 1).val < 32 := idx2_lt1 i
    have hN : cfg46.N = 25 := N_46
    refine ⟨⟨24, by rw [hN]; decide⟩, (flush46_3 _).mpr rfl, ?_⟩
    rw [mem_blk46_3]
    obtain ⟨-, -, -, -, -, -, e6, e7⟩ := idx46 ⟨24, by rw [hN]; decide⟩
    intro a
    match a with
    | ⟨0, _⟩ =>
      show win46_3.index _ (0 : Fin 2) * 1 ≤ (i 0).val ∧ (i 0).val < win46_3.index _ (0 : Fin 2) * 1 + 1
      rw [e6]; omega
    | ⟨1, _⟩ =>
      show win46_3.index _ (1 : Fin 2) * 32 ≤ (i 1).val ∧ (i 1).val < win46_3.index _ (1 : Fin 2) * 32 + 32
      rw [e7]; omega

/-! ## The two arrays read at an index, at the ideal values -/

section AtIdeal

/-- An `[a]` array cast to `[a, 1]` reads, at `(i, u)`, the operand at `i`. -/
theorem shapeCast_a_a1_apply46 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply46 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Inserting coordinate `l` on the column axis of the row index `p` gives `(p, l)`. -/
theorem lift46_row (p : Fin 2000) (l : Fin 32) : reduces_S2000x32_S2000.lift (ix1 p) l = ix2 p l := by
  funext a; match a with | ⟨0, _⟩ => rfl | ⟨1, _⟩ => rfl
/-- Inserting coordinate `p` on the row axis of the column index `l` gives `(p, l)`. -/
theorem lift46_col (l : Fin 32) (p : Fin 2000) : reduces_S2000x32_S32.lift (ix1 l) p = ix2 p l := by
  funext a; match a with | ⟨0, _⟩ => rfl | ⟨1, _⟩ => rfl

/-- v = x + b, the bias row added to every row of the block. -/
noncomputable def t8_46 (x : S2000x32.Idx → EReal) (b : S1x32.Idx → EReal) : FVec Ideal S2000x32 .f32 :=
  addf (shapeCast S2000x32 x shapeCasts_S2000x32_S2000x32) (broadcastTo S2000x32 (shapeCast S1x32 b shapeCasts_S1x32_S1x32) broadcasts_S1x32_S2000x32)
/-- The row maxima of v. -/
noncomputable def t9_46 (x : S2000x32.Idx → EReal) (b : S1x32.Idx → EReal) : FVec Ideal S2000 .f32 :=
  multiReduction .maximumf [1] S2000 (t8_46 x b) 0xFF800000#32 reduces_S2000x32_S2000 (.inl rfl) rfl
/-- e = exp (v − row maximum). -/
noncomputable def t13_46 (x : S2000x32.Idx → EReal) (b : S1x32.Idx → EReal) : FVec Ideal S2000x32 .f32 :=
  exp (subf (t8_46 x b) (broadcastTo S2000x32 (shapeCast S2000x1 (t9_46 x b) shapeCasts_S2000_S2000x1) broadcasts_S2000x1_S2000x32))
/-- The denominators: one plus the row sums of e. -/
noncomputable def t17_46 (x : S2000x32.Idx → EReal) (b : S1x32.Idx → EReal) : FVec Ideal S2000x1 .f32 :=
  addf (broadcast S2000x1 (Scalar.ofBits .f32 0x3F800000#32 : Ideal .f32))
    (shapeCast S2000x1 (multiReduction .add [1] S2000 (t13_46 x b) 0x00000000#32 reduces_S2000x32_S2000 (.inl rfl) rfl) shapeCasts_S2000_S2000x1)

/-- The body's softmax payload is e over the denominators. -/
theorem pay2_eq46 (x : S2000x32.Idx → EReal) (b : S1x32.Idx → EReal) :
    k46_pay2 (F := Ideal) x b = divf (t13_46 x b) (broadcastTo S2000x32 (t17_46 x b) broadcasts_S2000x1_S2000x32) := rfl

theorem t8_apply46 (x : S2000x32.Idx → EReal) (b : S1x32.Idx → EReal) (p : Fin 2000) (l : Fin 32) :
    t8_46 x b (ix2 p l) = x (ix2 p l) + b (ix2 (0 : Fin 1) l) := by
  show shapeCast S2000x32 x shapeCasts_S2000x32_S2000x32 (ix2 p l)
    + broadcastTo S2000x32 (shapeCast S1x32 b shapeCasts_S1x32_S1x32) broadcasts_S1x32_S2000x32 (ix2 p l) = _
  rw [shapeCast_self, shapeCast_self, broadcastTo_1b_ab_apply]

theorem t9_apply46 (x : S2000x32.Idx → EReal) (b : S1x32.Idx → EReal) (p : Fin 2000) :
    t9_46 x b (ix1 p) = Cert.Val.rowMax (fun l' : Fin 32 => x (ix2 p l') + b (ix2 (0 : Fin 1) l')) := by
  unfold t9_46
  refine (Ideal.multiReduction_maximumf_single (t8_46 x b) 0xFF800000#32 reduces_S2000x32_S2000 (.inl rfl) rfl (ix1 p)).trans ?_
  have hf : (t8_46 x b ∘ reduces_S2000x32_S2000.lift (ix1 p)) = fun l' : Fin 32 => x (ix2 p l') + b (ix2 (0 : Fin 1) l') := by
    funext l'
    exact (congrArg (t8_46 x b) (lift46_row p l')).trans (t8_apply46 x b p l')
  rw [hf]
  rfl

theorem t13_apply46 (x : S2000x32.Idx → EReal) (b : S1x32.Idx → EReal) (p : Fin 2000) (l : Fin 32) :
    t13_46 x b (ix2 p l) = Ideal.exp ((x (ix2 p l) + b (ix2 (0 : Fin 1) l)) - Cert.Val.rowMax (fun l' : Fin 32 => x (ix2 p l') + b (ix2 (0 : Fin 1) l'))) := by
  show Ideal.exp (t8_46 x b (ix2 p l)
    - broadcastTo S2000x32 (shapeCast S2000x1 (t9_46 x b) shapeCasts_S2000_S2000x1) broadcasts_S2000x1_S2000x32 (ix2 p l)) = _
  rw [t8_apply46, broadcastTo_a1_ab_apply46, shapeCast_a_a1_apply46, t9_apply46]

theorem t17_apply46 (x : S2000x32.Idx → EReal) (b : S1x32.Idx → EReal) (p : Fin 2000) :
    t17_46 x b (ix2 p (0 : Fin 1)) = Cert.Val.cOne + ∑ l' : Fin 32, Ideal.exp ((x (ix2 p l') + b (ix2 (0 : Fin 1) l')) - Cert.Val.rowMax (fun l'' : Fin 32 => x (ix2 p l'') + b (ix2 (0 : Fin 1) l''))) := by
  show (Scalar.ofBits .f32 0x3F800000#32 : Ideal .f32)
    + shapeCast S2000x1 (multiReduction .add [1] S2000 (t13_46 x b) 0x00000000#32 reduces_S2000x32_S2000 (.inl rfl) rfl) shapeCasts_S2000_S2000x1 (ix2 p (0 : Fin 1)) = _
  rw [shapeCast_a_a1_apply46]
  refine congrArg₂ (· + ·) rfl ((Ideal.multiReduction_add_single (t13_46 x b) 0x00000000#32 reduces_S2000x32_S2000 (.inl rfl) rfl (ix1 p)).trans
    (Finset.sum_congr rfl fun l' _ => ?_))
  exact (congrArg (t13_46 x b) (lift46_row p l')).trans (t13_apply46 x b p l')

/-- THE SOFTMAX PAYLOAD AT AN ENTRY: row `p`, column `l` of the block is softmax-with-one of row `p` of x + b at `l`. -/
theorem pay2_apply46 (x : S2000x32.Idx → EReal) (b : S1x32.Idx → EReal) (p : Fin 2000) (l : Fin 32) :
    k46_pay2 (F := Ideal) x b (ix2 p l) = Cert.Val.smOne (fun l' : Fin 32 => x (ix2 p l') + b (ix2 (0 : Fin 1) l')) l := by
  rw [pay2_eq46]
  show Ideal.div (t13_46 x b (ix2 p l)) (broadcastTo S2000x32 (t17_46 x b) broadcasts_S2000x1_S2000x32 (ix2 p l)) = _
  rw [t13_apply46, broadcastTo_a1_ab_apply46, t17_apply46]
  rfl

/-- THE ACCUMULATING PAYLOAD AT AN ENTRY: the accumulator's entry plus the block's column sum of the softmax. -/
theorem pay3_apply46 (x : S2000x32.Idx → EReal) (b : S1x32.Idx → EReal) (acc : S1x32.Idx → EReal) (l : Fin 32) :
    k46_pay3 (F := Ideal) x b acc (ix2 (0 : Fin 1) l)
      = acc (ix2 (0 : Fin 1) l) + ∑ p : Fin 2000, Cert.Val.smOne (fun l' : Fin 32 => x (ix2 p l') + b (ix2 (0 : Fin 1) l')) l := by
  show shapeCast S1x32 (addf acc (shapeCast S1x32 (multiReduction .add [0] S32 (k46_pay2 (F := Ideal) x b) 0x00000000#32 reduces_S2000x32_S32 (.inl rfl) rfl) shapeCasts_S32_S1x32)) shapeCasts_S1x32_S1x32 (ix2 (0 : Fin 1) l) = _
  rw [shapeCast_self]
  show acc (ix2 (0 : Fin 1) l) + shapeCast S1x32 (multiReduction .add [0] S32 (k46_pay2 (F := Ideal) x b) 0x00000000#32 reduces_S2000x32_S32 (.inl rfl) rfl) shapeCasts_S32_S1x32 (ix2 (0 : Fin 1) l) = _
  rw [shapeCast_a_1a_apply]
  refine congrArg₂ (· + ·) rfl ((Ideal.multiReduction_add_single (k46_pay2 (F := Ideal) x b) 0x00000000#32 reduces_S2000x32_S32 (.inl rfl) rfl (ix1 l)).trans
    (Finset.sum_congr rfl fun p _ => ?_))
  exact (congrArg (k46_pay2 (F := Ideal) x b) (lift46_col l p)).trans (pay2_apply46 x b p l)

/-- The accumulator's reset value is zero at every entry. -/
theorem pay1_apply46 (l : Fin 32) : k46_pay1 (F := Ideal) (ix2 (0 : Fin 1) l) = (0 : EReal) := by
  show shapeCast S1x32 (broadcast S1x32 (Scalar.ofBits .f32 0x00000000#32 : Ideal .f32)) shapeCasts_S1x32_S1x32 (ix2 (0 : Fin 1) l) = 0
  rw [shapeCast_self]
  exact Ideal.ofBits_zero_f32

/-- Row `P` of row block `Q` is row `2000 Q + P` of the array. -/
theorem rows46_apply (a : Vec F S50000x32 .f32) (Q : Fin 25) (P : Fin 2000) (l : Fin 32) (r : Fin 50000)
    (h : r.val = Q.val * 2000 + P.val) : rows46 a Q (ix2 P l) = a (ix2 r l) := by
  show a (ix2 (⟨Q.val * 2000 + P.val, _⟩ : Fin 50000) (⟨l.val, _⟩ : Fin 32)) = a (ix2 r l)
  congr 1
  funext d
  match d with
  | ⟨0, _⟩ => exact Fin.ext h.symm
  | ⟨1, _⟩ => rfl

/-- THE SOFTMAX ARRAY AT AN ENTRY: s[r, q] = softmax-with-one of row r of agg + b, at q. -/
theorem G46_2_apply (a : S50000x32.Idx → EReal) (b : S1x32.Idx → EReal) (r : Fin 50000) (q : Fin 32) :
    G46_2 (F := Ideal) a b (ix2 r q) = Cert.Val.smOne (fun j' : Fin 32 => a (ix2 r j') + b (ix2 (0 : Fin 1) j')) q := by
  have hr : r.val < 50000 := r.isLt
  rw [G46_2_blk (F := Ideal) a b ⟨r.val / 2000, by omega⟩ (ix2 (⟨r.val % 2000, Nat.mod_lt _ (by decide)⟩ : Fin 2000) q) (ix2 r q)
    (by show r.val = r.val / 2000 * 2000 + r.val % 2000; omega) rfl, pay2_apply46]
  simp only [rows46_apply (F := Ideal) a ⟨r.val / 2000, by omega⟩ ⟨r.val % 2000, Nat.mod_lt _ (by decide)⟩ _ r
    (by show r.val = r.val / 2000 * 2000 + r.val % 2000; omega)]

/-- The column sum of the softmax over row block `Q` (zero past the last block). -/
noncomputable def blockSum46 (a : S50000x32.Idx → EReal) (b : S1x32.Idx → EReal) (q : Fin 32) (Q : ℕ) : EReal :=
  if hQ : Q < 25 then ∑ P : Fin 2000, Cert.Val.smOne (fun j' : Fin 32 => a (ix2 (⟨Q * 2000 + P.val, by have := P.isLt; omega⟩ : Fin 50000) j') + b (ix2 (0 : Fin 1) j')) q
  else 0

/-- One block's column sum of the payload is that block sum. -/
theorem blockSum46_eq (a : S50000x32.Idx → EReal) (b : S1x32.Idx → EReal) (q : Fin 32) (Q : ℕ) (hQ : Q < 25) :
    ∑ P : Fin 2000, Cert.Val.smOne (fun l' : Fin 32 => rows46 (F := Ideal) a ⟨Q, hQ⟩ (ix2 P l') + b (ix2 (0 : Fin 1) l')) q = blockSum46 a b q Q := by
  rw [blockSum46, dif_pos hQ]
  refine Finset.sum_congr rfl fun P _ => ?_
  simp only [rows46_apply (F := Ideal) a ⟨Q, hQ⟩ P _ ⟨Q * 2000 + P.val, by have := P.isLt; omega⟩ rfl]

/-- The accumulation over the row blocks 0 … n, at an entry: the sum of the blocks' column sums. -/
theorem colAcc46_apply (a : S50000x32.Idx → EReal) (b : S1x32.Idx → EReal) (q : Fin 32) : ∀ (n : ℕ) (h : n < 25),
    colAcc46 (F := Ideal) a b n h (ix2 (0 : Fin 1) q) = ∑ Q ∈ Finset.range (n + 1), blockSum46 a b q Q
  | 0, h => by
    show k46_pay3 (F := Ideal) (rows46 (F := Ideal) a ⟨0, h⟩) b (k46_pay1 (F := Ideal)) (ix2 (0 : Fin 1) q) = _
    rw [pay3_apply46, pay1_apply46, zero_add, blockSum46_eq]
    exact (Finset.sum_range_one _).symm
  | n + 1, h => by
    show k46_pay3 (F := Ideal) (rows46 (F := Ideal) a ⟨n + 1, h⟩) b (colAcc46 (F := Ideal) a b n (Nat.lt_of_succ_lt h)) (ix2 (0 : Fin 1) q) = _
    rw [pay3_apply46, colAcc46_apply a b q n (Nat.lt_of_succ_lt h), Finset.sum_range_succ _ (n + 1), blockSum46_eq]

/-- A sum over the 50000 rows, regrouped as 25 blocks of 2000 rows (commutativity and associativity of + only). -/
theorem sum_rows46 (f : Fin 50000 → EReal) :
    ∑ r : Fin 50000, f r = ∑ Q : Fin 25, ∑ P : Fin 2000, f ⟨Q.val * 2000 + P.val, by have := Q.isLt; have := P.isLt; omega⟩ := by
  exact ((Fintype.sum_equiv (finProdFinEquiv (m := 25) (n := 2000))
    (fun x : Fin 25 × Fin 2000 => f ⟨x.1.val * 2000 + x.2.val, by have := x.1.isLt; have := x.2.isLt; omega⟩)
    (fun r : Fin (25 * 2000) => f r)
    (fun x => congrArg f (Fin.ext (by show x.1.val * 2000 + x.2.val = x.2.val + 2000 * x.1.val; omega)))).symm).trans
    (Fintype.sum_prod_type (fun x : Fin 25 × Fin 2000 => f ⟨x.1.val * 2000 + x.2.val, by have := x.1.isLt; have := x.2.isLt; omega⟩))

/-- THE COLUMN-SUM ARRAY AT AN ENTRY: sum[0, q] = Σ over all 50000 rows r of s[r, q]. -/
theorem G46_3_apply (a : S50000x32.Idx → EReal) (b : S1x32.Idx → EReal) (q : Fin 32) :
    G46_3 (F := Ideal) a b (ix2 (0 : Fin 1) q)
      = Cert.Val.colSum (fun (i : Fin 50000) (j : Fin 32) => Cert.Val.smOne (fun j' : Fin 32 => a (ix2 i j') + b (ix2 (0 : Fin 1) j')) j) q := by
  unfold G46_3 Cert.Val.colSum
  rw [colAcc46_apply, sum_rows46, Finset.sum_range]
  refine Finset.sum_congr rfl fun Q _ => ?_
  rw [blockSum46, dif_pos Q.isLt]

end AtIdeal

end Cert.KernelIdeal.Hand

end
-- ==== Proof.KI.R47v.lean ====
import proofs.«408084_j48395691492010_3_alg».proof.Proof.KI.R47
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! Region 47, the value: the one-row result ends holding, column by column, the sum over the 25 row tiles — folded tile by
tile from the zero row — of each tile's column sum of squared deviations (x − mean)². First each control case's found
pieces read back as the tile step applied to the accumulator; then the accumulator after each point as the fold, by
induction on the point; then the result array as the fold after the last point. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem hz47 : (![0, 0] : Fin 2 → Nat) = fun _ => 0 := funext fun a => by fin_cases a <;> rfl

/-! ## The found pieces, read back -/

/-- A middle point leaves in the accumulator the tile step applied to what it held. -/
theorem sout47_B_eq (c : Dev nD) (i : grid47.Coords) (a1 : Memref sig .tc .vmem S2000x32 .f32) (h1 : a1.IsWhole) (a2 : Memref sig .tc .vmem S1x32 .f32) (h2 : a2.IsWhole) (a3 : Memref sig .tc .vmem S1x32 .f32) (h3 : a3.IsWhole) (a4 : Memref sig .tc .vmem S1x32 .f32) (h4 : a4.IsWhole) (hc0 : ¬cond47_0 i) (hc1 : ¬cond47_1 i)
    (x0 : Vec F S2000x32 .f32) (x1 : Vec F S1x32 .f32) (xs0 : Vec F S1x32 .f32) :
    sout47_B_0 c i a1 h1 a2 h2 a3 h3 a4 h4 hc0 hc1 x0 x1 xs0 = k47_pay2 x0 x1 xs0 := by
  unfold sout47_B_0
  rw [View.read_writes_eq_canon _ _ _ (scover47_B_0 c i a1 h1 a2 h2 a3 h3 a4 h4 hc0 hc1 x0 x1 xs0)]
  unfold kernelRun47_B
  dsimp only
  sl_unfold_words
  rw [View.canon_unit_zero hz47]
  simp only [View.readAt_eq_ld, h1.read_unread, h2.read_unread, h4.read_unread, View.ld_unit_zero (S := S2000x32) hz47, View.ld_unit_zero (S := S1x32) hz47]

/-- The last point leaves the same in the accumulator, -/
theorem sout47_C_eq (c : Dev nD) (i : grid47.Coords) (a1 : Memref sig .tc .vmem S2000x32 .f32) (h1 : a1.IsWhole) (a2 : Memref sig .tc .vmem S1x32 .f32) (h2 : a2.IsWhole) (a3 : Memref sig .tc .vmem S1x32 .f32) (h3 : a3.IsWhole) (a4 : Memref sig .tc .vmem S1x32 .f32) (h4 : a4.IsWhole) (hc0 : ¬cond47_0 i) (hc1 : cond47_1 i)
    (x0 : Vec F S2000x32 .f32) (x1 : Vec F S1x32 .f32) (xs0 : Vec F S1x32 .f32) :
    sout47_C_0 c i a1 h1 a2 h2 a3 h3 a4 h4 hc0 hc1 x0 x1 xs0 = k47_pay2 x0 x1 xs0 := by
  unfold sout47_C_0
  rw [View.read_writes_eq_canon _ _ _ (scover47_C_0 c i a1 h1 a2 h2 a3 h3 a4 h4 hc0 hc1 x0 x1 xs0)]
  unfold kernelRun47_C
  dsimp only
  sl_unfold_words
  rw [View.canon_unit_zero hz47]
  simp only [View.readAt_eq_ld, h1.read_unread, h2.read_unread, h4.read_unread, View.ld_unit_zero (S := S2000x32) hz47, View.ld_unit_zero (S := S1x32) hz47]

/-- and stores to the result's buffer what it then reads back from the accumulator: the same row. -/
theorem out47_C_eq (c : Dev nD) (i : grid47.Coords) (a1 : Memref sig .tc .vmem S2000x32 .f32) (h1 : a1.IsWhole) (a2 : Memref sig .tc .vmem S1x32 .f32) (h2 : a2.IsWhole) (a3 : Memref sig .tc .vmem S1x32 .f32) (h3 : a3.IsWhole) (a4 : Memref sig .tc .vmem S1x32 .f32) (h4 : a4.IsWhole) (hc0 : ¬cond47_0 i) (hc1 : cond47_1 i)
    (x0 : Vec F S2000x32 .f32) (x1 : Vec F S1x32 .f32) (xs0 : Vec F S1x32 .f32) :
    out47_C_2 c i a1 h1 a2 h2 a3 h3 a4 h4 hc0 hc1 x0 x1 xs0 = k47_pay2 x0 x1 xs0 := by
  unfold out47_C_2
  rw [View.read_writes_eq_canon _ _ _ (cover47_C_2 c i a1 h1 a2 h2 a3 h3 a4 h4 hc0 hc1 x0 x1 xs0)]
  unfold kernelRun47_C
  dsimp only
  sl_unfold_words
  rw [View.canon_unit_zero hz47, View.readCov_unit_zero (S := S1x32) _ hz47]
  simp only [View.readAt_eq_ld, h1.read_unread, h2.read_unread, h4.read_unread, View.ld_unit_zero (S := S2000x32) hz47, View.ld_unit_zero (S := S1x32) hz47]

/-- The first point zeroes the accumulator, reads the zero row back and leaves the tile step applied to it. -/
theorem sout47_A_eq (c : Dev nD) (i : grid47.Coords) (a1 : Memref sig .tc .vmem S2000x32 .f32) (h1 : a1.IsWhole) (a2 : Memref sig .tc .vmem S1x32 .f32) (h2 : a2.IsWhole) (a3 : Memref sig .tc .vmem S1x32 .f32) (h3 : a3.IsWhole) (a4 : Memref sig .tc .vmem S1x32 .f32) (h4 : a4.IsWhole) (hc0 : cond47_0 i) (hc1 : ¬cond47_1 i)
    (x0 : Vec F S2000x32 .f32) (x1 : Vec F S1x32 .f32) :
    sout47_A_0 c i a1 h1 a2 h2 a3 h3 a4 h4 hc0 hc1 x0 x1 = k47_pay2 x0 x1 (k47_pay1 (F := F)) := by
  unfold sout47_A_0
  rw [View.read_writes_eq_canon _ _ _ (scover47_A_0 c i a1 h1 a2 h2 a3 h3 a4 h4 hc0 hc1 x0 x1)]
  unfold kernelRun47_A
  dsimp only
  sl_unfold_words
  rw [View.canon_cons_unit_zero (S := S1x32) hz47, View.readCov_unit_zero (S := S1x32) _ hz47]
  simp only [View.readAt_eq_ld, h1.read_unread, h2.read_unread, View.ld_unit_zero (S := S2000x32) hz47, View.ld_unit_zero (S := S1x32) hz47]

/-! ## The arrays and their blocks, at their literal types -/

/-- The [50000, D] array of the rows, as the region finds it, -/
noncomputable abbrev xarr47 (c : Dev nD) : Vec F S50000x32 .f32 := V c (Pipeline.arrRef spec47 0)
/-- and the one row of column means. -/
noncomputable abbrev marr47 (c : Dev nD) : Vec F S1x32 .f32 := V c (Pipeline.arrRef spec47 1)

/-- Row tile `n` of an array of 50000 rows: rows 2000 n … 2000 n + 1999. -/
noncomputable def tile47 (X : Vec F S50000x32 .f32) (n : Fin 25) : Vec F S2000x32 .f32 :=
  fun j => X (ix2 ⟨2000 * n.val + (j 0).val, by have := idx2_lt0 j; have := n.isLt; omega⟩ ⟨(j 1).val, idx2_lt1 j⟩)

theorem tile47_apply (X : Vec F S50000x32 .f32) (n : Fin 25) (r : Fin 2000) (q : Fin 32) :
    tile47 X n (ix2 r q) = X (ix2 ⟨2000 * n.val + r.val, by have := n.isLt; have := r.isLt; omega⟩ q) := rfl

/-- The row-tile window's block index is the grid point; the mean window's never moves. -/
theorem index47_0 : ∀ t : Fin cfg47.N, win47_0.index t 0 = t.val ∧ win47_0.index t 1 = 0 :=
  (by decide +kernel : ∀ t : Fin grid47.N, win47_0.index t 0 = t.val ∧ win47_0.index t 1 = 0)
theorem index47_2 : ∀ t : Fin cfg47.N, win47_2.index t 0 = 0 ∧ win47_2.index t 1 = 0 :=
  (by decide +kernel : ∀ t : Fin grid47.N, win47_2.index t 0 = 0 ∧ win47_2.index t 1 = 0)
theorem xsize47_2 : ∀ t : Fin cfg47.N, win47_2.xsize (grid47.coords t) 0 = 1 ∧ win47_2.xsize (grid47.coords t) 1 = 32 :=
  (by decide +kernel : ∀ t : Fin grid47.N, win47_2.xsize (grid47.coords t) 0 = 1 ∧ win47_2.xsize (grid47.coords t) 1 = 32)
theorem index47_1 : ∀ t : Fin cfg47.N, win47_1.index t 0 = 0 ∧ win47_1.index t 1 = 0 :=
  (by decide +kernel : ∀ t : Fin grid47.N, win47_1.index t 0 = 0 ∧ win47_1.index t 1 = 0)

/-- The row-tile window's block at point `t` is row tile `t` of the array. -/
theorem xblk47_eq (c : Dev nD) (t : Fin cfg47.N) (hN : t.val < 25) :
    (iblk47 V c 0 t : Vec F S2000x32 .f32) = tile47 (xarr47 V c) ⟨t.val, hN⟩ := by
  have hi := index47_0 t
  funext j
  unfold iblk47 tile47
  rw [View.read_apply]
  show V c (Pipeline.arrRef spec47 0) _ = V c (Pipeline.arrRef spec47 0) _
  congr 1
  funext a
  apply Fin.ext
  match a with
  | ⟨0, _⟩ => show win47_0.index t 0 * 2000 + 1 * (j 0).val = 2000 * t.val + (j 0).val; rw [hi.1]; omega
  | ⟨1, _⟩ => show win47_0.index t 1 * 32 + 1 * (j 1).val = (j 1).val; rw [hi.2]; omega

/-- The mean window's block is the whole one-row array, at every point. -/
theorem mblk47_eq (c : Dev nD) (t : Fin cfg47.N) : (iblk47 V c 1 t : Vec F S1x32 .f32) = marr47 V c := by
  have hi := index47_1 t
  funext j
  unfold iblk47
  rw [View.read_apply]
  show V c (Pipeline.arrRef spec47 1) _ = V c (Pipeline.arrRef spec47 1) j
  congr 1
  funext a
  apply Fin.ext
  match a with
  | ⟨0, _⟩ => show win47_1.index t 0 * 1 + 1 * (j 0).val = (j 0).val; rw [hi.1]; omega
  | ⟨1, _⟩ => show win47_1.index t 1 * 32 + 1 * (j 1).val = (j 1).val; rw [hi.2]; omega

/-! ## The fold over the row tiles -/

/-- The accumulator after row tile `n`: the tile step from the zero row at tile 0, then from what the tile before left. -/
noncomputable def acc47 (X : Vec F S50000x32 .f32) (Mu : Vec F S1x32 .f32) : (n : ℕ) → n < 25 → Vec F S1x32 .f32
  | 0, h => k47_pay2 (tile47 X ⟨0, h⟩) Mu (k47_pay1 (F := F))
  | n + 1, h => k47_pay2 (tile47 X ⟨n + 1, h⟩) Mu (acc47 X Mu n (Nat.lt_of_succ_lt h))

/-- THE RESULT as one function of the two arrays: the fold after the last tile. -/
noncomputable def G47_2 (X : Vec F S50000x32 .f32) (Mu : Vec F S1x32 .f32) : Vec F S1x32 .f32 := acc47 X Mu 24 (by decide)

/-- What the accumulator holds after point `n` is the fold up to tile `n`: by induction on the point. -/
theorem outsAt47_acc (c : Dev nD) : ∀ (n : ℕ) (h : n < cfg47.N) (h' : n < 25),
    (outsAt47 V c n h).2 = acc47 (xarr47 V c) (marr47 V c) n h'
  | 0, h, h' => by
    rw [outsAt47_A V c ⟨0, h⟩ rfl (fun e => by have e' : (0 : ℕ) = 24 := e; omega)]
    dsimp only
    rw [sout47_A_eq, xblk47_eq V c ⟨0, h⟩ h', mblk47_eq V c ⟨0, h⟩]
    rfl
  | n + 1, h, h' => by
    have ih := outsAt47_acc c n (Nat.lt_of_succ_lt h) (Nat.lt_of_succ_lt h')
    by_cases h24 : n + 1 = 24
    · rw [outsAt47_C V c ⟨n + 1, h⟩ (Nat.succ_ne_zero n) h24]
      dsimp only
      rw [sout47_C_eq, xblk47_eq V c ⟨n + 1, h⟩ h', mblk47_eq V c ⟨n + 1, h⟩]
      show k47_pay2 _ _ (outsAt47 V c n _).2 = k47_pay2 _ _ (acc47 _ _ n _)
      rw [ih]
    · rw [outsAt47_B V c ⟨n + 1, h⟩ (Nat.succ_ne_zero n) h24]
      dsimp only
      rw [sout47_B_eq, xblk47_eq V c ⟨n + 1, h⟩ h', mblk47_eq V c ⟨n + 1, h⟩]
      show k47_pay2 _ _ (outsAt47 V c n _).2 = k47_pay2 _ _ (acc47 _ _ n _)
      rw [ih]

/-- At the last point the result's buffer is left holding the whole fold. -/
theorem outsAt47_last (c : Dev nD) (t : Fin cfg47.N) (h24 : t.val = 24) :
    (outsAt47 V c t.val t.isLt).1 = G47_2 (xarr47 V c) (marr47 V c) := by
  obtain ⟨n, hn⟩ := t
  obtain rfl : n = 24 := h24
  rw [outsAt47_C V c ⟨24, hn⟩ (fun e => by have e' : (24 : ℕ) = 0 := e; omega) rfl]
  dsimp only
  rw [out47_C_eq, xblk47_eq V c ⟨24, hn⟩ (by show (24 : ℕ) < 25; omega), mblk47_eq V c ⟨24, hn⟩]
  show k47_pay2 _ _ (outsAt47 V c 23 _).2 = k47_pay2 _ _ (acc47 _ _ 23 _)
  rw [outsAt47_acc V c 23 _ (by decide)]

/-! ## The result array after the run -/

/-- The one write-back (at the last point) writes the fold: the result's block there is the whole one-row array. -/
theorem flushed47_2 (c : Dev nD) (t : Fin cfg47.N) (hf : (cfg47.win 2).flush t = true) :
    (dat47 V c).flushed 2 t = ((cfg47.win 2).blk t).view.read (Elt F) (G47_2 (xarr47 V c) (marr47 V c)) := by
  have hN : t.val < 25 := lt_of_lt_of_eq t.isLt (show cfg47.N = 25 from N_47)
  have h24 : t.val = 24 := by have := (flush47_2 t).mp hf; omega
  have hi := index47_2 t
  show (cfg47.win 2).cut (grid47.coords t) ((dat47 V c).after 2 t) = _
  rw [after47_2, outsAt47_last V c t h24]
  have hz' : (fun a => win47_2.index t a * main_v396.ty.shape.size a) = fun _ => 0 := funext fun a => by
    match a with
    | ⟨0, _⟩ => show win47_2.index t 0 * _ = 0; rw [hi.1, Nat.zero_mul]
    | ⟨1, _⟩ => show win47_2.index t 1 * _ = 0; rw [hi.2, Nat.zero_mul]
  exact (Memref.read_access_unit_zero (Elt F) main_v396 hz' (fun a => by rw [congrFun hz' a]; simp) (G47_2 (xarr47 V c) (marr47 V c))).symm

/-- So the result array ends holding the fold. -/
theorem final47_2 (c : Dev nD) : (dat47 V c).arrAt 2 cfg47.N = G47_2 (V c (Pipeline.arrRef spec47 0)) (V c (Pipeline.arrRef spec47 1)) := by
  have h24 : (24 : ℕ) < cfg47.N := by rw [show cfg47.N = 25 from N_47]; omega
  refine (dat47 V c).arrAt_eq_of_cover 2 (G47_2 (xarr47 V c) (marr47 V c)) (flushed47_2 V c) fun i =>
    ⟨⟨24, h24⟩, (flush47_2 _).mpr rfl, ?_⟩
  have hi := index47_2 ⟨24, h24⟩
  have hx := xsize47_2 ⟨24, h24⟩
  show i ∈ ((View.whole main_v396).slice (win47_2.rect ⟨24, h24⟩)).set
  rw [View.set_slice_whole, Rect.mem_set_unit]
  intro a
  have h0 : (i 0 : Nat) < 1 := (i 0).isLt
  have h1 : (i 1 : Nat) < 32 := (i 1).isLt
  match a with
  | ⟨0, _⟩ =>
    show win47_2.index ⟨24, h24⟩ 0 * win47_2.size 0 ≤ (i 0 : Nat) ∧ (i 0 : Nat) < win47_2.index ⟨24, h24⟩ 0 * win47_2.size 0 + win47_2.xsize (grid47.coords ⟨24, h24⟩) 0
    rw [hi.1, hx.1]; omega
  | ⟨1, _⟩ =>
    show win47_2.index ⟨24, h24⟩ 1 * win47_2.size 1 ≤ (i 1 : Nat) ∧ (i 1 : Nat) < win47_2.index ⟨24, h24⟩ 1 * win47_2.size 1 + win47_2.xsize (grid47.coords ⟨24, h24⟩) 1
    rw [hi.2, hx.2]; omega

/-! ## At the ideal values, at an index -/

section IdealReading
open scoped BigOperators

/-- The zero row, at a column. -/
theorem pay1_apply47 (q : Fin 32) : (k47_pay1 (F := Ideal)) (ix2 (0 : Fin 1) q) = 0 := by
  unfold k47_pay1
  simp only [shapeCast_self]
  exact Ideal.ofBits_zero_f32

/-- The tile step, at a column: the accumulator's entry plus the tile's column sum of squared deviations. -/
theorem pay2_apply47 (x : FVec Ideal S2000x32 .f32) (mu acc : FVec Ideal S1x32 .f32) (q : Fin 32) :
    k47_pay2 (F := Ideal) x mu acc (ix2 (0 : Fin 1) q)
      = acc (ix2 (0 : Fin 1) q)
        + ∑ r : Fin 2000, (x (ix2 r q) - mu (ix2 (0 : Fin 1) q)) * (x (ix2 r q) - mu (ix2 (0 : Fin 1) q)) := by
  unfold k47_pay2
  simp only [shapeCast_self]
  refine (addf_apply _ _ _).trans ?_
  refine congrArg (acc (ix2 (0 : Fin 1) q) + ·) ?_
  refine (shapeCast_a_1a_apply _ _ (0 : Fin 1) q).trans ?_
  refine (Ideal.multiReduction_add_single _ _ _ _ _ (ix1 q)).trans ?_
  refine Finset.sum_congr rfl fun (r : Fin 2000) _ => ?_
  have hl : ∀ (h : S2000x32.Reduces [0] S32), h.lift (ix1 q) r = ix2 r q :=
    fun h => funext fun a => Fin.ext (by fin_cases a <;> rfl)
  have hb : ∀ (h : S1x32.Broadcasts S2000x32), broadcastTo S2000x32 mu h (ix2 r q) = mu (ix2 (0 : Fin 1) q) :=
    fun h => broadcastTo_1b_ab_apply (a := 2000) (b := 32) mu h r q
  refine (mulf_apply _ _ _).trans ?_
  rw [subf_apply, hl, hb]

/-- The squared deviation of row `i` in column `q`. -/
noncomputable def sq47 (X : FVec Ideal S50000x32 .f32) (Mu : FVec Ideal S1x32 .f32) (q : Fin 32) (i : Fin 50000) : EReal :=
  (X (ix2 i q) - Mu (ix2 (0 : Fin 1) q)) * (X (ix2 i q) - Mu (ix2 (0 : Fin 1) q))

/-- Row `r` of tile `s`. -/
def row47 (s : ℕ) (hs : s < 25) (r : Fin 2000) : Fin 50000 := ⟨2000 * s + r.val, by have := r.isLt; omega⟩

/-- The fold after tile `n`, at a column: the tiles' column sums added up in tile order. -/
theorem acc47_apply (X : FVec Ideal S50000x32 .f32) (Mu : FVec Ideal S1x32 .f32) (q : Fin 32) : ∀ (n : ℕ) (h : n < 25),
    acc47 (F := Ideal) X Mu n h (ix2 (0 : Fin 1) q)
      = ∑ s : Fin (n + 1), ∑ r : Fin 2000, sq47 X Mu q (row47 s.val (by have := s.isLt; omega) r)
  | 0, h => by
    show k47_pay2 (F := Ideal) _ _ _ (ix2 (0 : Fin 1) q) = _
    rw [pay2_apply47, pay1_apply47, zero_add, Fin.sum_univ_one]
    rfl
  | n + 1, h => by
    show k47_pay2 (F := Ideal) _ _ _ (ix2 (0 : Fin 1) q) = _
    rw [Fin.sum_univ_castSucc, pay2_apply47, acc47_apply X Mu q n (Nat.lt_of_succ_lt h)]
    rfl

/-- Twenty-five tiles of 2000 rows are the 50000 rows. -/
theorem sum_tiles47 (f : Fin 50000 → EReal) :
    ∑ s : Fin 25, ∑ r : Fin 2000, f (row47 s.val s.isLt r) = ∑ i : Fin 50000, f i := by
  rw [← Equiv.sum_comp (finProdFinEquiv (m := 25) (n := 2000)) f, Fintype.sum_prod_type]
  refine Finset.sum_congr rfl fun s _ => Finset.sum_congr rfl fun r _ => congrArg f (Fin.ext ?_)
  show 2000 * s.val + r.val = r.val + 2000 * s.val
  omega

/-- THE RESULT at the ideal values: column `q` of the one row is the column's sum of squared deviations from the
    given means over all 50000 rows. -/
theorem G47_2_apply (X : FVec Ideal S50000x32 .f32) (Mu : FVec Ideal S1x32 .f32) (q : Fin 32) :
    G47_2 (F := Ideal) X Mu (ix2 (0 : Fin 1) q)
      = Cert.Val.colSsq (fun i j => X (ix2 i j)) (fun j => Mu (ix2 (0 : Fin 1) j)) q := by
  unfold G47_2 Cert.Val.colSsq
  rw [acc47_apply X Mu q 24 (by omega)]
  exact sum_tiles47 (sq47 X Mu q)

end IdealReading

end Cert.KernelIdeal.Hand

end
-- ==== Proof.KI.R48v.lean ====
import proofs.«408084_j48395691492010_3_alg».proof.Proof.KI.R48
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! # Region 48, the value: batch-norm affine map followed by a product with a one-column matrix

The output array of region 48 after the whole run, read as one function of the six entry arrays (activations,
mean, variance, scale, shift, weight column), index by index: first for any float instance, block by block,
then at the extended reals as the sum over the 32 columns of the batch-norm of the row times the weight. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

-- the buffer contents of the core when the region is entered
variable (V : (c : Dev nD) → (b : Ref sig .tc) → Buf (Elt F) ((c : Thread nD τ).loc b))

section Value48
open Idealize.ShloMosaic.ValueIdx

/-- Both coordinates of the offset of every access are zero. -/
theorem off48_zero : (![0, 0] : Fin 2 → Nat) = fun _ => 0 := funext fun a => by fin_cases a <;> rfl

/-! ## The function -/

/-- The 2000 rows of the activations that make up block q. -/
noncomputable def rows48 (x : S50000x32.Idx → Elt F .f32) (q : Fin 25) : Vec F S2000x32 .f32 :=
  fun j => x (ix2 (⟨q.val * 2000 + (j 0).val, by have h0 := idx2_lt0 j; have hq := q.isLt; omega⟩ : Fin 50000) (j 1))

/-- What the output array holds after the run, as one function of the six entry arrays: row r of the result
    is the body's value on the block of 2000 rows that holds r, read at r's place in that block. The rows
    mean, variance, scale, shift and the weight column are the same for every block. -/
noncomputable def G48 (x : S50000x32.Idx → Elt F .f32) (mu : S1x32.Idx → Elt F .f32) (va : S1x32.Idx → Elt F .f32)
    (ga : S1x32.Idx → Elt F .f32) (be : S1x32.Idx → Elt F .f32) (w : S32x1.Idx → Elt F .f32) : S50000x1.Idx → Elt F .f32 :=
  fun i => k48_pay1 (rows48 x (⟨(i 0).val / 2000, by have h0 := idx2_lt0 i; omega⟩ : Fin 25)) mu va ga be w
    (ix2 (⟨(i 0).val % 2000, Nat.mod_lt _ (by decide)⟩ : Fin 2000) (i 1))

/-- At an index of block q, at place j in the block, the function is the body's value on block q at j. -/
theorem G48_block (x : S50000x32.Idx → Elt F .f32) (mu : S1x32.Idx → Elt F .f32) (va : S1x32.Idx → Elt F .f32)
    (ga : S1x32.Idx → Elt F .f32) (be : S1x32.Idx → Elt F .f32) (w : S32x1.Idx → Elt F .f32)
    (q : Fin 25) (j : S2000x1.Idx) (i : S50000x1.Idx)
    (h0 : (i 0).val = q.val * 2000 + (j 0).val) (h1 : (i 1).val = (j 1).val) :
    G48 x mu va ga be w i = k48_pay1 (rows48 x q) mu va ga be w j := by
  have hj0 := idx2_lt0 j
  have hq : (⟨(i 0).val / 2000, by have h0' := idx2_lt0 i; omega⟩ : Fin 25) = q := Fin.ext (by show (i 0).val / 2000 = q.val; omega)
  have hj : (ix2 (⟨(i 0).val % 2000, Nat.mod_lt _ (by decide)⟩ : Fin 2000) (i 1) : S2000x1.Idx) = j := funext fun a => Fin.ext (by
    match a with
    | ⟨0, _⟩ => show (i 0).val % 2000 = (j 0).val; omega
    | ⟨1, _⟩ => exact h1)
  unfold G48
  rw [hq, hj]

/-! ## The printed index maps, decided over the grid -/

/-- Windows 0 and 6 move with the grid point along the rows; windows 1 to 5 stay at their one block. -/
theorem idx_facts48 : ∀ t : Fin cfg48.N,
    win48_0.index t (0 : Fin 2) = t.val ∧ win48_0.index t (1 : Fin 2) = 0
    ∧ win48_1.index t (0 : Fin 2) = 0 ∧ win48_1.index t (1 : Fin 2) = 0
    ∧ win48_2.index t (0 : Fin 2) = 0 ∧ win48_2.index t (1 : Fin 2) = 0
    ∧ win48_3.index t (0 : Fin 2) = 0 ∧ win48_3.index t (1 : Fin 2) = 0
    ∧ win48_4.index t (0 : Fin 2) = 0 ∧ win48_4.index t (1 : Fin 2) = 0
    ∧ win48_5.index t (0 : Fin 2) = 0 ∧ win48_5.index t (1 : Fin 2) = 0
    ∧ win48_6.index t (0 : Fin 2) = t.val ∧ win48_6.index t (1 : Fin 2) = 0 :=
  (by decide +kernel : ∀ t : Fin grid48.N, _)

/-- A grid point is one of 25. -/
theorem lt48 (t : Fin cfg48.N) : t.val < 25 := lt_of_lt_of_eq t.isLt (N_48 : cfg48.N = 25)

/-! ## The input blocks at a point, read off the entry arrays -/

/-- Window 0's block at point t is block t of the rows of the activations. -/
theorem iblk48_0_eq (c : Dev nD) (t : Fin cfg48.N) :
    (iblk48 V c 0 t : Vec F S2000x32 .f32) = rows48 (V c (Pipeline.arrRef spec48 0)) ⟨t.val, lt48 t⟩ := by
  obtain ⟨e0, e1, -⟩ := idx_facts48 t
  funext j
  show V c (Pipeline.arrRef spec48 0) (((cfg48.win 0).blk t).view.emb j) = V c (Pipeline.arrRef spec48 0) _
  refine congrArg _ (funext fun a => Fin.ext ?_)
  match a with
  | ⟨0, _⟩ => show win48_0.index t (0 : Fin 2) * 2000 + 1 * (j 0).val = t.val * 2000 + (j 0).val; omega
  | ⟨1, _⟩ => show win48_0.index t (1 : Fin 2) * 32 + 1 * (j 1).val = (j 1).val; omega

/-- Windows 1 to 5 each hold their whole array at every point. -/
theorem iblk48_1_eq (c : Dev nD) (t : Fin cfg48.N) : (iblk48 V c 1 t : Vec F S1x32 .f32) = V c (Pipeline.arrRef spec48 1) := by
  obtain ⟨-, -, e0, e1, -⟩ := idx_facts48 t
  funext j
  show V c (Pipeline.arrRef spec48 1) (((cfg48.win 1).blk t).view.emb j) = V c (Pipeline.arrRef spec48 1) j
  refine congrArg _ (funext fun a => Fin.ext ?_)
  match a with
  | ⟨0, _⟩ => show win48_1.index t (0 : Fin 2) * 1 + 1 * (j 0).val = (j 0).val; omega
  | ⟨1, _⟩ => show win48_1.index t (1 : Fin 2) * 32 + 1 * (j 1).val = (j 1).val; omega

theorem iblk48_2_eq (c : Dev nD) (t : Fin cfg48.N) : (iblk48 V c 2 t : Vec F S1x32 .f32) = V c (Pipeline.arrRef spec48 2) := by
  obtain ⟨-, -, -, -, e0, e1, -⟩ := idx_facts48 t
  funext j
  show V c (Pipeline.arrRef spec48 2) (((cfg48.win 2).blk t).view.emb j) = V c (Pipeline.arrRef spec48 2) j
  refine congrArg _ (funext fun a => Fin.ext ?_)
  match a with
  | ⟨0, _⟩ => show win48_2.index t (0 : Fin 2) * 1 + 1 * (j 0).val = (j 0).val; omega
  | ⟨1, _⟩ => show win48_2.index t (1 : Fin 2) * 32 + 1 * (j 1).val = (j 1).val; omega

theorem iblk48_3_eq (c : Dev nD) (t : Fin cfg48.N) : (iblk48 V c 3 t : Vec F S1x32 .f32) = V c (Pipeline.arrRef spec48 3) := by
  obtain ⟨-, -, -, -, -, -, e0, e1, -⟩ := idx_facts48 t
  funext j
  show V c (Pipeline.arrRef spec48 3) (((cfg48.win 3).blk t).view.emb j) = V c (Pipeline.arrRef spec48 3) j
  refine congrArg _ (funext fun a => Fin.ext ?_)
  match a with
  | ⟨0, _⟩ => show win48_3.index t (0 : Fin 2) * 1 + 1 * (j 0).val = (j 0).val; omega
  | ⟨1, _⟩ => show win48_3.index t (1 : Fin 2) * 32 + 1 * (j 1).val = (j 1).val; omega

theorem iblk48_4_eq (c : Dev nD) (t : Fin cfg48.N) : (iblk48 V c 4 t : Vec F S1x32 .f32) = V c (Pipeline.arrRef spec48 4) := by
  obtain ⟨-, -, -, -, -, -, -, -, e0, e1, -⟩ := idx_facts48 t
  funext j
  show V c (Pipeline.arrRef spec48 4) (((cfg48.win 4).blk t).view.emb j) = V c (Pipeline.arrRef spec48 4) j
  refine congrArg _ (funext fun a => Fin.ext ?_)
  match a with
  | ⟨0, _⟩ => show win48_4.index t (0 : Fin 2) * 1 + 1 * (j 0).val = (j 0).val; omega
  | ⟨1, _⟩ => show win48_4.index t (1 : Fin 2) * 32 + 1 * (j 1).val = (j 1).val; omega

theorem iblk48_5_eq (c : Dev nD) (t : Fin cfg48.N) : (iblk48 V c 5 t : Vec F S32x1 .f32) = V c (Pipeline.arrRef spec48 5) := by
  obtain ⟨-, -, -, -, -, -, -, -, -, -, e0, e1, -⟩ := idx_facts48 t
  funext j
  show V c (Pipeline.arrRef spec48 5) (((cfg48.win 5).blk t).view.emb j) = V c (Pipeline.arrRef spec48 5) j
  refine congrArg _ (funext fun a => Fin.ext ?_)
  match a with
  | ⟨0, _⟩ => show win48_5.index t (0 : Fin 2) * 32 + 1 * (j 0).val = (j 0).val; omega
  | ⟨1, _⟩ => show win48_5.index t (1 : Fin 2) * 1 + 1 * (j 1).val = (j 1).val; omega

/-! ## What a point writes back -/

/-- What point t writes back is block t of G48 of the entry arrays. -/
theorem flushed48_6_eq (c : Dev nD) (t : Fin cfg48.N) :
    (dat48 V c).flushed 6 t = ((cfg48.win 6).blk t).view.read (Elt F)
      (G48 (V c (Pipeline.arrRef spec48 0)) (V c (Pipeline.arrRef spec48 1)) (V c (Pipeline.arrRef spec48 2))
        (V c (Pipeline.arrRef spec48 3)) (V c (Pipeline.arrRef spec48 4)) (V c (Pipeline.arrRef spec48 5))) := by
  show (cfg48.win 6).cut (grid48.coords t) ((dat48 V c).after 6 t) = _
  rw [after48_6]
  unfold out48_6
  rw [View.canon_unit_zero off48_zero]
  simp only [View.ld_unit_zero (S := S2000x32) off48_zero, View.ld_unit_zero (S := S1x32) off48_zero, View.ld_unit_zero (S := S32x1) off48_zero]
  obtain ⟨-, -, -, -, -, -, -, -, -, -, -, -, e0, e1⟩ := idx_facts48 t
  funext j
  show k48_pay1 (iblk48 V c 0 t) (iblk48 V c 1 t) (iblk48 V c 2 t) (iblk48 V c 3 t) (iblk48 V c 4 t) (iblk48 V c 5 t) j
    = G48 (V c (Pipeline.arrRef spec48 0)) (V c (Pipeline.arrRef spec48 1)) (V c (Pipeline.arrRef spec48 2))
        (V c (Pipeline.arrRef spec48 3)) (V c (Pipeline.arrRef spec48 4)) (V c (Pipeline.arrRef spec48 5)) (((cfg48.win 6).blk t).view.emb j)
  rw [G48_block _ _ _ _ _ _ ⟨t.val, lt48 t⟩ j _
    (by show win48_6.index t (0 : Fin 2) * 2000 + 1 * (j 0).val = t.val * 2000 + (j 0).val; omega)
    (by show win48_6.index t (1 : Fin 2) * 1 + 1 * (j 1).val = (j 1).val; omega),
    iblk48_0_eq, iblk48_1_eq, iblk48_2_eq, iblk48_3_eq, iblk48_4_eq, iblk48_5_eq]

/-! ## The blocks cover the array -/

/-- An index of the output array is in point t's block iff each coordinate is in the block's range. -/
theorem mem_blk48_6 (t : Fin cfg48.N) (i : S50000x1.Idx) :
    i ∈ ((cfg48.win 6).blk t).view.set ↔ ∀ a : Fin 2, win48_6.index t a * S2000x1.size a ≤ (i a).val ∧ (i a).val < win48_6.index t a * S2000x1.size a + S2000x1.size a := by
  show i ∈ ((View.whole main_v401).slice (win48_6.rect t)).set ↔ _
  rw [View.set_slice_whole, Rect.mem_set_unit]
  exact Iff.rfl

/-- Row r of the output is written back by the point r / 2000. -/
theorem cover48_6_arr (i : S50000x1.Idx) :
    ∃ t : Fin cfg48.N, (cfg48.win 6).flush t = true ∧ i ∈ ((cfg48.win 6).blk t).view.set := by
  have hi0 := idx2_lt0 i
  have hi1 := idx2_lt1 i
  have hN : cfg48.N = 25 := N_48
  have hlt : (i 0).val / 2000 < cfg48.N := by rw [hN]; omega
  refine ⟨⟨(i 0).val / 2000, hlt⟩, flush48_6 _, ?_⟩
  rw [mem_blk48_6]
  obtain ⟨-, -, -, -, -, -, -, -, -, -, -, -, e0, e1⟩ := idx_facts48 ⟨(i 0).val / 2000, hlt⟩
  have e0' : win48_6.index ⟨(i 0).val / 2000, hlt⟩ (0 : Fin 2) = (i 0).val / 2000 := e0
  intro a
  match a with
  | ⟨0, _⟩ => show win48_6.index _ (0 : Fin 2) * 2000 ≤ (i 0).val ∧ (i 0).val < win48_6.index _ (0 : Fin 2) * 2000 + 2000; omega
  | ⟨1, _⟩ => show win48_6.index _ (1 : Fin 2) * 1 ≤ (i 1).val ∧ (i 1).val < win48_6.index _ (1 : Fin 2) * 1 + 1; omega

/-- THE OUTPUT ARRAY after the run is G48 of the entry arrays. -/
theorem final48_6 (c : Dev nD) : (dat48 V c).arrAt 6 cfg48.N
    = G48 (V c (Pipeline.arrRef spec48 0)) (V c (Pipeline.arrRef spec48 1)) (V c (Pipeline.arrRef spec48 2))
        (V c (Pipeline.arrRef spec48 3)) (V c (Pipeline.arrRef spec48 4)) (V c (Pipeline.arrRef spec48 5)) :=
  (dat48 V c).arrAt_eq_of_cover 6 _ (fun t _ => flushed48_6_eq V c t) cover48_6_arr

/-! ## The function at an index, at the extended reals -/

/-- The matrix product's operand indices, axis by axis: the left operand's row is the result's row, its column the
    contraction position; the right operand's row is the contraction position, its column the result's column. -/
theorem lhs_mv48_0 (i : S2000x1.Idx) (q : dot_S2000x32_S32x1_S2000x1_1_0_0_1_n_n.contr.Idx) :
    (dot_S2000x32_S32x1_S2000x1_1_0_0_1_n_n.lhsIdx i q 0).val = (i 0).val := by
  unfold DotDims.lhsIdx
  rw [dif_neg (show ¬(0 : Fin S2000x32.rank) ∈ dot_S2000x32_S32x1_S2000x1_1_0_0_1_n_n.lhsBatch by decide),
    dif_pos (show (0 : Fin S2000x32.rank) ∈ dot_S2000x32_S32x1_S2000x1_1_0_0_1_n_n.lhsNonContracting by decide)]
  rfl
theorem lhs_mv48_1 (i : S2000x1.Idx) (q : dot_S2000x32_S32x1_S2000x1_1_0_0_1_n_n.contr.Idx) :
    (dot_S2000x32_S32x1_S2000x1_1_0_0_1_n_n.lhsIdx i q 1).val = (q ⟨0, by decide⟩).val :=
  dot_S2000x32_S32x1_S2000x1_1_0_0_1_n_n.lhsIdx_val_of_single rfl i q
theorem rhs_mv48_0 (i : S2000x1.Idx) (q : dot_S2000x32_S32x1_S2000x1_1_0_0_1_n_n.contr.Idx) :
    (dot_S2000x32_S32x1_S2000x1_1_0_0_1_n_n.rhsIdx i q 0).val = (q ⟨0, by decide⟩).val :=
  dot_S2000x32_S32x1_S2000x1_1_0_0_1_n_n.rhsIdx_val_of_single rfl i q
theorem rhs_mv48_1 (i : S2000x1.Idx) (q : dot_S2000x32_S32x1_S2000x1_1_0_0_1_n_n.contr.Idx) :
    (dot_S2000x32_S32x1_S2000x1_1_0_0_1_n_n.rhsIdx i q 1).val = (i 1).val := by
  unfold DotDims.rhsIdx
  rw [dif_neg (show ¬(1 : Fin S32x1.rank) ∈ dot_S2000x32_S32x1_S2000x1_1_0_0_1_n_n.rhsBatch by decide),
    dif_pos (show (1 : Fin S32x1.rank) ∈ dot_S2000x32_S32x1_S2000x1_1_0_0_1_n_n.rhsNonContracting by decide)]
  rfl

/-- The body's value at row p of a block: the batch-norm affine map of the row, column by column, times the
    weight column, summed over the 32 columns. No rounding is left at the extended reals. -/
theorem k48_pay1_apply (xb : FVec Ideal S2000x32 .f32) (mu : FVec Ideal S1x32 .f32) (va : FVec Ideal S1x32 .f32)
    (ga : FVec Ideal S1x32 .f32) (be : FVec Ideal S1x32 .f32) (w : FVec Ideal S32x1 .f32) (p : Fin 2000) (z : Fin 1) :
    k48_pay1 (F := Ideal) xb mu va ga be w (ix2 p z)
      = ∑ k : Fin 32, ((xb (ix2 p k) - mu (ix2 (0 : Fin 1) k))
            * Ideal.rsqrt (va (ix2 (0 : Fin 1) k) + Ideal.ofBits .f32 0x3727C5AC#32)
            * ga (ix2 (0 : Fin 1) k) + be (ix2 (0 : Fin 1) k)) * w (ix2 k z) := by
  unfold k48_pay1
  simp only [matmul]
  rw [Ideal.matmul_constant_zero_apply, ← Equiv.sum_comp (contrEquiv1 dot_S2000x32_S32x1_S2000x1_1_0_0_1_n_n 32 rfl rfl).symm]
  refine Finset.sum_congr rfl fun k _ => ?_
  have hk := contrEquiv1_symm_val dot_S2000x32_S32x1_S2000x1_1_0_0_1_n_n 32 rfl rfl k
  have el : dot_S2000x32_S32x1_S2000x1_1_0_0_1_n_n.lhsIdx (ix2 p z) ((contrEquiv1 dot_S2000x32_S32x1_S2000x1_1_0_0_1_n_n 32 rfl rfl).symm k) = ix2 p k :=
    funext fun a => Fin.ext (by
      match a with
      | ⟨0, _⟩ => exact lhs_mv48_0 _ _
      | ⟨1, _⟩ => exact (lhs_mv48_1 _ _).trans hk)
  have er : dot_S2000x32_S32x1_S2000x1_1_0_0_1_n_n.rhsIdx (ix2 p z) ((contrEquiv1 dot_S2000x32_S32x1_S2000x1_1_0_0_1_n_n 32 rfl rfl).symm k) = ix2 k z :=
    funext fun a => Fin.ext (by
      match a with
      | ⟨0, _⟩ => exact (rhs_mv48_0 _ _).trans hk
      | ⟨1, _⟩ => exact rhs_mv48_1 _ _)
  rw [el, er]
  simp only [addf_apply, mulf_apply, subf_apply, shapeCast_self, broadcastTo_1b_ab_apply]
  rfl

/-- THE FUNCTION AT AN INDEX, at the extended reals: out[r, 0] = Σ_k bn[r, k] · w[k, 0] with
    bn[r, k] = (x[r, k] − mean[0, k]) · rsqrt(var[0, k] + ε) · scale[0, k] + shift[0, k]. -/
theorem G48_apply_idx (x : FVec Ideal S50000x32 .f32) (mu : FVec Ideal S1x32 .f32) (va : FVec Ideal S1x32 .f32)
    (ga : FVec Ideal S1x32 .f32) (be : FVec Ideal S1x32 .f32) (w : FVec Ideal S32x1 .f32) (i : S50000x1.Idx) :
    G48 (F := Ideal) x mu va ga be w i
      = ∑ k : Fin 32, ((x (ix2 (i 0) k) - mu (ix2 (0 : Fin 1) k))
            * Ideal.rsqrt (va (ix2 (0 : Fin 1) k) + Ideal.ofBits .f32 0x3727C5AC#32)
            * ga (ix2 (0 : Fin 1) k) + be (ix2 (0 : Fin 1) k)) * w (ix2 k (i 1)) := by
  unfold G48
  refine (k48_pay1_apply _ mu va ga be w _ (i 1)).trans (Finset.sum_congr rfl fun k _ => ?_)
  have hx : rows48 (F := Ideal) x (⟨(i 0).val / 2000, by have h0 := idx2_lt0 i; omega⟩ : Fin 25)
      (ix2 (⟨(i 0).val % 2000, Nat.mod_lt _ (by decide)⟩ : Fin 2000) k) = x (ix2 (i 0) k) := by
    unfold rows48
    refine congrArg x (funext fun a => Fin.ext ?_)
    match a with
    | ⟨0, _⟩ => show (i 0).val / 2000 * 2000 + (i 0).val % 2000 = (i 0).val; omega
    | ⟨1, _⟩ => rfl
  rw [hx]

/-- The same in the network's own terms: row r of the result is the batch-norm of row r of the activations, with
    the given column statistics, scale and shift, times the weight column. -/
theorem G48_apply (x : FVec Ideal S50000x32 .f32) (mu : FVec Ideal S1x32 .f32) (va : FVec Ideal S1x32 .f32)
    (ga : FVec Ideal S1x32 .f32) (be : FVec Ideal S1x32 .f32) (w : FVec Ideal S32x1 .f32) (r : Fin 50000) :
    G48 (F := Ideal) x mu va ga be w (ix2 r (0 : Fin 1))
      = ∑ k : Fin 32, Cert.Val.bnAt (fun i j => x (ix2 i j)) (fun j => mu (ix2 (0 : Fin 1) j)) (fun j => va (ix2 (0 : Fin 1) j))
          (fun j => ga (ix2 (0 : Fin 1) j)) (fun j => be (ix2 (0 : Fin 1) j)) r k * w (ix2 k (0 : Fin 1)) :=
  G48_apply_idx x mu va ga be w (ix2 r (0 : Fin 1))

end Value48

end Cert.KernelIdeal.Hand

end
-- ==== Proof.KI.R4v.lean ====
import proofs.«408084_j48395691492010_3_alg».proof.Proof.KI.R4
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws

/-!
# Region 4: the array it leaves, as one function of the arrays it finds

Every grid point writes one block of 2000 rows of the output, and the 25 blocks tile the 50000 rows; the four
single-row inputs are the same block at every point. So the output array after the run is one function of the five
arrays the region finds. Entry (r, q) is computed from row r of the activations alone:

  bn[r,k] = (x[r,k] - mean[k]) * rsqrt (var[k] + eps) * gamma[k] + beta[k],
  out[r,q] = exp (bn[r,q] - max_k bn[r,k]) / (1 + Σ_k exp (bn[r,k] - max_k bn[r,k])).

At a generic float instance the row's sum is the instance's reduction of the whole 2000-row block that holds the
row, so the function is stated through that block; over the extended reals the reduction is a sum over the row and
the block drops out.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable {F : FTy → Type} [FloatOps F]

/-! ## The layout operations of the body, read at an index -/

section Layout4
variable {α : Type}

/-- A vector of 2000 entries cast to a column reads, at (p, 0), entry p. -/
theorem castCol4 (v : S2000.Idx → α) (h : S2000.ShapeCasts S2000x1) :
    shapeCast S2000x1 v h = fun y => v (ix1 (y 0)) := by
  funext y
  obtain ⟨p, u, rfl⟩ : ∃ (p : Fin 2000) (u : Fin 1), y = ix2 p u := ⟨y 0, y 1, eq_ix2 y⟩
  refine shapeCast_apply v h (ix2 p u) (ix1 p) ?_
  have hu : u.val = 0 := by omega
  rw [Shape.rowMajor_val_two, Shape.rowMajor_val_one]
  show p.val = p.val * 1 + u.val
  rw [hu, Nat.mul_one, Nat.add_zero]

/-- A column broadcast along the rows reads, at (p, k), the column's entry p. -/
theorem bcastCol4 (v : S2000x1.Idx → α) (h : S2000x1.Broadcasts S2000x64) :
    broadcastTo S2000x64 v h = fun y => v (ix2 (y 0) (0 : Fin 1)) := by
  funext y
  obtain ⟨p, k, rfl⟩ : ∃ (p : Fin 2000) (k : Fin 64), y = ix2 p k := ⟨y 0, y 1, eq_ix2 y⟩
  refine broadcastTo_apply v h (ix2 p k) (ix2 p (0 : Fin 1)) fun ax => ?_
  match ax with
  | ⟨0, _⟩ => rfl
  | ⟨1, _⟩ => rfl

/-- A single row broadcast down the block reads, at (p, k), the row's entry k. -/
theorem bcastRow4 (v : S1x64.Idx → α) (h : S1x64.Broadcasts S2000x64) :
    broadcastTo S2000x64 v h = fun y => v (ix2 (0 : Fin 1) (y 1)) := by
  funext y
  obtain ⟨p, k, rfl⟩ : ∃ (p : Fin 2000) (k : Fin 64), y = ix2 p k := ⟨y 0, y 1, eq_ix2 y⟩
  exact broadcastTo_1b_ab_apply v h p k

end Layout4

/-! ## The body's result on a block, by coordinates -/

/-- The batch-norm of a block, entry by entry, in the body's order of operations. -/
noncomputable def bn4 (v0 : Vec F S2000x64 .f32) (v2 v6 v13 v17 : Vec F S1x64 .f32) : FVec F S2000x64 .f32 := fun y =>
  FloatOps.addf (FloatOps.mulf (FloatOps.mulf (FloatOps.subf (v0 y) (v2 (ix2 (0 : Fin 1) (y 1))))
      (FloatOps.rsqrt (FloatOps.addf (v6 (ix2 (0 : Fin 1) (y 1))) (FloatOps.ofBits .f32 0x3727C5AC#32))))
      (v13 (ix2 (0 : Fin 1) (y 1)))) (v17 (ix2 (0 : Fin 1) (y 1)))

/-- Its row maxima: the body's reduction along the columns, started from minus infinity. -/
noncomputable def mx4 (v0 : Vec F S2000x64 .f32) (v2 v6 v13 v17 : Vec F S1x64 .f32) : FVec F S2000 .f32 :=
  multiReduction .maximumf [1] S2000 (bn4 v0 v2 v6 v13 v17) 0xFF800000#32 reduces_S2000x64_S2000 (.inl rfl) rfl

/-- The exponentials of the batch-norm less its row maximum. -/
noncomputable def e4 (v0 : Vec F S2000x64 .f32) (v2 v6 v13 v17 : Vec F S1x64 .f32) : FVec F S2000x64 .f32 := fun y =>
  FloatOps.exp (FloatOps.subf (bn4 v0 v2 v6 v13 v17 y) (mx4 v0 v2 v6 v13 v17 (ix1 (y 0))))

/-- Their row sums: the body's reduction along the columns, started from zero. -/
noncomputable def sm4 (v0 : Vec F S2000x64 .f32) (v2 v6 v13 v17 : Vec F S1x64 .f32) : FVec F S2000 .f32 :=
  multiReduction .add [1] S2000 (e4 v0 v2 v6 v13 v17) 0x00000000#32 reduces_S2000x64_S2000 (.inl rfl) rfl

/-- What the body stores: each exponential over one plus its row's sum. -/
noncomputable def P4 (v0 : Vec F S2000x64 .f32) (v2 v6 v13 v17 : Vec F S1x64 .f32) : Vec F S2000x64 .f32 := fun y =>
  FloatOps.divf (e4 v0 v2 v6 v13 v17 y)
    (FloatOps.addf (FloatOps.ofBits .f32 0x3F800000#32) (sm4 v0 v2 v6 v13 v17 (ix1 (y 0))))

/-- The skeleton's payload is that function: its layout operations read at an index, the rest unfolds. -/
theorem pay4_eq (v0 : Vec F S2000x64 .f32) (v2 v6 v13 v17 : Vec F S1x64 .f32) :
    k4_pay1 v0 v2 v6 v13 v17 = P4 v0 v2 v6 v13 v17 := by
  unfold k4_pay1
  simp only [shapeCast_self, bcastRow4, bcastCol4, castCol4]
  rfl

/-! ## The output array as one function of the arrays the region finds -/

/-- Rows q·2000 … q·2000 + 1999 of an array of 50000 rows. -/
noncomputable def rows4 (x : S50000x64.Idx → Elt F .f32) (q : Fin 25) : Vec F S2000x64 .f32 := fun y =>
  x (ix2 (⟨q.val * 2000 + (y 0).val, by have := idx2_lt0 y; have := q.isLt; omega⟩ : Fin 50000) (y 1))

/-- The block of 2000 rows that holds an entry's row, -/
noncomputable def blkOf4 (i : S50000x64.Idx) : Fin 25 := ⟨(i 0).val / 2000, by have := idx2_lt0 i; omega⟩
/-- and the row's place in it. -/
noncomputable def rowIn4 (i : S50000x64.Idx) : Fin 2000 := ⟨(i 0).val % 2000, Nat.mod_lt _ (by decide)⟩

/-- The output array: at each entry, the body's result on the block of 2000 rows of the activations that holds
    the entry's row, at the row's place in the block. -/
noncomputable def G4 (x : S50000x64.Idx → Elt F .f32) (mu va ga be : S1x64.Idx → Elt F .f32) : S50000x64.Idx → Elt F .f32 := fun i =>
  P4 (rows4 x (blkOf4 i)) mu va ga be (ix2 (rowIn4 i) (i 1))

/-- The output array read under block q at a place j of the block. -/
theorem G4_blk (x : S50000x64.Idx → Elt F .f32) (mu va ga be : S1x64.Idx → Elt F .f32) (q : Fin 25) (j : S2000x64.Idx)
    (i : S50000x64.Idx) (h0 : (i 0).val = q.val * 2000 + (j 0).val) (h1 : (i 1).val = (j 1).val) :
    G4 x mu va ga be i = P4 (rows4 x q) mu va ga be j := by
  have hj0 : (j 0).val < 2000 := idx2_lt0 j
  have hq : blkOf4 i = q := Fin.ext (by show (i 0).val / 2000 = q.val; omega)
  have hj : ix2 (rowIn4 i) (i 1) = j := by
    funext a
    match a with
    | ⟨0, _⟩ => exact Fin.ext (by show (i 0).val % 2000 = (j 0).val; omega)
    | ⟨1, _⟩ => exact Fin.ext h1
  unfold G4
  rw [hq]
  exact congrArg (P4 (rows4 x q) mu va ga be) hj

section Region4v
variable (V : (c : Dev nD) → (b : Ref sig .tc) → Buf (Elt F) ((c : Thread nD τ).loc b))

theorem hz4 : (![0, 0] : Fin 2 → Nat) = fun _ => 0 := funext fun a => by fin_cases a <;> rfl

/-- The windows' block indices, decided over the 25 grid points: the activations and the output move one block of
    rows per point, the four single rows stay. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The activations' block at point t is rows t·2000 … of their array. -/
theorem iblk4_0_eq (c : Dev nD) (t : Fin cfg4.N) :
    (iblk4 V c 0 t : S2000x64.Idx → Elt F .f32) = rows4 (V c (Pipeline.arrRef spec4 0)) (t.cast N_4) := by
  obtain ⟨e0, e1, -⟩ := idx4 t
  funext y
  show V c (Pipeline.arrRef spec4 0) (((cfg4.win 0).blk t).view.emb y) = V c (Pipeline.arrRef spec4 0) _
  refine congrArg _ (funext fun a => Fin.ext ?_)
  match a with
  | ⟨0, _⟩ => show win4_0.index t (0 : Fin 2) * 2000 + 1 * (y 0).val = t.val * 2000 + (y 0).val; omega
  | ⟨1, _⟩ => show win4_0.index t (1 : Fin 2) * 64 + 1 * (y 1).val = (y 1).val; omega

/-- Each single row's block is, at every point, its whole array. -/
theorem iblk4_1_eq (c : Dev nD) (t : Fin cfg4.N) : (iblk4 V c 1 t : S1x64.Idx → Elt F .f32) = V c (Pipeline.arrRef spec4 1) := by
  obtain ⟨-, -, e0, e1, -⟩ := idx4 t
  funext y
  show V c (Pipeline.arrRef spec4 1) (((cfg4.win 1).blk t).view.emb y) = V c (Pipeline.arrRef spec4 1) y
  refine congrArg _ (funext fun a => Fin.ext ?_)
  match a with
  | ⟨0, _⟩ => show win4_1.index t (0 : Fin 2) * 1 + 1 * (y 0).val = (y 0).val; omega
  | ⟨1, _⟩ => show win4_1.index t (1 : Fin 2) * 64 + 1 * (y 1).val = (y 1).val; omega
theorem iblk4_2_eq (c : Dev nD) (t : Fin cfg4.N) : (iblk4 V c 2 t : S1x64.Idx → Elt F .f32) = V c (Pipeline.arrRef spec4 2) := by
  obtain ⟨-, -, -, -, e0, e1, -⟩ := idx4 t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 64 + 1 * (y 1).val = (y 1).val; omega
theorem iblk4_3_eq (c : Dev nD) (t : Fin cfg4.N) : (iblk4 V c 3 t : S1x64.Idx → Elt F .f32) = V c (Pipeline.arrRef spec4 3) := by
  obtain ⟨-, -, -, -, -, -, e0, e1, -⟩ := idx4 t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 64 + 1 * (y 1).val = (y 1).val; omega
theorem iblk4_4_eq (c : Dev nD) (t : Fin cfg4.N) : (iblk4 V c 4 t : S1x64.Idx → Elt F .f32) = V c (Pipeline.arrRef spec4 4) := by
  obtain ⟨-, -, -, -, -, -, -, -, e0, e1, -⟩ := idx4 t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 64 + 1 * (y 1).val = (y 1).val; omega

set_option maxHeartbeats 1000000 in
/-- What point t writes back is block t of the output array. -/
theorem flushed4_eq (c : Dev nD) (t : Fin cfg4.N) :
    (dat4 V c).flushed 5 t = ((cfg4.win 5).blk t).view.read (Elt F)
      (G4 (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold out4_5
  rw [View.canon_unit_zero hz4]
  simp only [View.ld_unit_zero (S := S2000x64) hz4, View.ld_unit_zero (S := S1x64) hz4]
  rw [pay4_eq, iblk4_0_eq, iblk4_1_eq, iblk4_2_eq, iblk4_3_eq, iblk4_4_eq]
  obtain ⟨-, -, -, -, -, -, -, -, -, -, e0, e1⟩ := idx4 t
  funext j
  show P4 (rows4 _ (t.cast N_4)) _ _ _ _ j = G4 _ _ _ _ _ (((cfg4.win 5).blk t).view.emb j)
  refine (G4_blk _ _ _ _ _ (t.cast N_4) j (((cfg4.win 5).blk t).view.emb j) ?_ ?_).symm
  · show win4_5.index t (0 : Fin 2) * 2000 + 1 * (j 0).val = t.val * 2000 + (j 0).val; omega
  · show win4_5.index t (1 : Fin 2) * 64 + 1 * (j 1).val = (j 1).val; omega

/-- An entry of the array is in point t's block iff each coordinate is in the block's range on its axis. -/
theorem mem_blk4 (t : Fin cfg4.N) (i : S50000x64.Idx) :
    i ∈ ((cfg4.win 5).blk t).view.set ↔ ∀ a : Fin 2, win4_5.index t a * S2000x64.size a ≤ (i a).val ∧ (i a).val < win4_5.index t a * S2000x64.size a + S2000x64.size a := by
  show i ∈ ((View.whole main_v126).slice (win4_5.rect t)).set ↔ _
  rw [View.set_slice_whole, Rect.mem_set_unit]
  exact Iff.rfl

/-- Every entry is in the block of the point numbered by its row over 2000. -/
theorem covered4 (i : S50000x64.Idx) : ∃ t : Fin cfg4.N, (cfg4.win 5).flush t = true ∧ i ∈ ((cfg4.win 5).blk t).view.set := by
  have hi0 : (i 0).val < 50000 := idx2_lt0 i
  have hi1 : (i 1).val < 64 := idx2_lt1 i
  have ht : ∃ t : Fin cfg4.N, t.val = (i 0).val / 2000 := ⟨(⟨(i 0).val / 2000, by omega⟩ : Fin 25).cast N_4.symm, rfl⟩
  obtain ⟨t, ht⟩ := ht
  obtain ⟨-, -, -, -, -, -, -, -, -, -, e0, e1⟩ := idx4 t
  refine ⟨t, flush4_5 t, ?_⟩
  rw [mem_blk4]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 64 ≤ (i 1).val ∧ (i 1).val < win4_5.index t (1 : Fin 2) * 64 + 64; omega

/-- The output array after the run. -/
theorem final4_5 (c : Dev nD) :
    (dat4 V c).arrAt 5 cfg4.N = G4 (V c (Pipeline.arrRef spec4 0)) (V c (Pipeline.arrRef spec4 1)) (V c (Pipeline.arrRef spec4 2))
      (V c (Pipeline.arrRef spec4 3)) (V c (Pipeline.arrRef spec4 4)) :=
  (dat4 V c).arrAt_eq_of_cover 5 _ (fun t _ => flushed4_eq V c t) covered4

end Region4v

/-! ## The output array over the extended reals, entry by entry -/

section Ideal4

/-- The source entry of a row reduction over a block: the result's row p with k put back on the column axis. -/
theorem lift4 (h : S2000x64.Reduces [1] S2000) (p : Fin 2000) (k : Fin 64) : h.lift (ix1 p) k = ix2 p k := by
  funext a
  match a with
  | ⟨0, _⟩ => exact Fin.ext rfl
  | ⟨1, _⟩ => exact Fin.ext rfl

section Block4
variable (X : Vec Ideal S2000x64 .f32) (mu va ga be : Vec Ideal S1x64 .f32)

/-- The block's batch-norm at an entry. -/
theorem bn4_apply (p : Fin 2000) (k : Fin 64) :
    bn4 (F := Ideal) X mu va ga be (ix2 p k)
      = ((X (ix2 p k) : EReal) - mu (ix2 0 k)) * Ideal.rsqrt (va (ix2 0 k) + Cert.Val.cEps) * ga (ix2 0 k) + be (ix2 0 k) := rfl

/-- A row's maximum: the fold of max over the row, from minus infinity. -/
theorem mx4_apply (p : Fin 2000) :
    mx4 (F := Ideal) X mu va ga be (ix1 p) = Cert.Val.rowMax (fun k : Fin 64 => bn4 (F := Ideal) X mu va ga be (ix2 p k)) := by
  unfold mx4
  refine (Ideal.multiReduction_maximumf_single (bn4 (F := Ideal) X mu va ga be) 0xFF800000#32 reduces_S2000x64_S2000 (.inl rfl) rfl
    (ix1 p)).trans ?_
  have hf : (bn4 (F := Ideal) X mu va ga be ∘ (reduces_S2000x64_S2000).lift (ix1 p))
      = fun k : Fin 64 => bn4 (F := Ideal) X mu va ga be (ix2 p k) :=
    funext fun k => congrArg (bn4 (F := Ideal) X mu va ga be) (lift4 _ p k)
  exact congrArg (fun f => (Finset.univ : Finset (Fin 64)).fold max Cert.Val.cNegInf f) hf

/-- The exponentials at an entry. -/
theorem e4_apply (p : Fin 2000) (k : Fin 64) :
    e4 (F := Ideal) X mu va ga be (ix2 p k)
      = Ideal.exp (bn4 (F := Ideal) X mu va ga be (ix2 p k) - Cert.Val.rowMax (fun k' : Fin 64 => bn4 (F := Ideal) X mu va ga be (ix2 p k'))) := by
  show Ideal.exp (bn4 (F := Ideal) X mu va ga be (ix2 p k) - mx4 (F := Ideal) X mu va ga be (ix1 p)) = _
  rw [mx4_apply]

/-- A row's sum of exponentials: the sum over the row. -/
theorem sm4_apply (p : Fin 2000) :
    sm4 (F := Ideal) X mu va ga be (ix1 p) = ∑ k : Fin 64, e4 (F := Ideal) X mu va ga be (ix2 p k) := by
  unfold sm4
  refine (Ideal.multiReduction_add_single (e4 (F := Ideal) X mu va ga be) 0x00000000#32 reduces_S2000x64_S2000 (.inl rfl) rfl
    (ix1 p)).trans ?_
  exact Finset.sum_congr rfl fun k _ => congrArg (e4 (F := Ideal) X mu va ga be) (lift4 _ p k)

/-- What the body stores, at an entry. -/
theorem P4_apply (p : Fin 2000) (k : Fin 64) :
    P4 (F := Ideal) X mu va ga be (ix2 p k)
      = Ideal.div (e4 (F := Ideal) X mu va ga be (ix2 p k)) (Cert.Val.cOne + sm4 (F := Ideal) X mu va ga be (ix1 p)) := rfl

end Block4

/-- The block that holds row r, read at the row's place, is row r of the array. -/
theorem rows4_at (x : S50000x64.Idx → Elt Ideal .f32) (r : Fin 50000) (q k : Fin 64) :
    rows4 x (blkOf4 (ix2 r q)) (ix2 (rowIn4 (ix2 r q)) k) = x (ix2 r k) := by
  unfold rows4
  refine congrArg x (funext fun a => ?_)
  match a with
  | ⟨0, _⟩ => exact Fin.ext (by show (r.val / 2000) * 2000 + r.val % 2000 = r.val; omega)
  | ⟨1, _⟩ => rfl

/-- THE OUTPUT ARRAY AT AN ENTRY: the row softmax with one added to the denominator, of the batch-norm of row r of
    the activations with the given column statistics, scale and shift. -/
theorem G4_apply (x : S50000x64.Idx → Elt Ideal .f32) (mu va ga be : S1x64.Idx → Elt Ideal .f32) (r : Fin 50000) (q : Fin 64) :
    G4 (F := Ideal) x mu va ga be (ix2 r q)
      = Cert.Val.smOne (fun j' => Cert.Val.bnAt (fun i j => x (ix2 i j)) (fun j => mu (ix2 0 j)) (fun j => va (ix2 0 j))
          (fun j => ga (ix2 0 j)) (fun j => be (ix2 0 j)) r j') q := by
  have hb : ∀ k : Fin 64, bn4 (F := Ideal) (rows4 x (blkOf4 (ix2 r q))) mu va ga be (ix2 (rowIn4 (ix2 r q)) k)
      = Cert.Val.bnAt (fun i j => x (ix2 i j)) (fun j => mu (ix2 0 j)) (fun j => va (ix2 0 j))
          (fun j => ga (ix2 0 j)) (fun j => be (ix2 0 j)) r k := by
    intro k
    rw [bn4_apply, rows4_at]
    rfl
  show P4 (F := Ideal) (rows4 x (blkOf4 (ix2 r q))) mu va ga be (ix2 (rowIn4 (ix2 r q)) q) = _
  rw [P4_apply, sm4_apply]
  simp only [e4_apply, hb]
  rfl

end Ideal4

end Cert.KernelIdeal.Hand

end
-- ==== Proof.KI.R5v.lean ====
import proofs.«408084_j48395691492010_3_alg».proof.Proof.KI.R5
import Idealize.ShloMosaic.Lib.Pipeline.Value
import Idealize.ShloMosaic.Lib.ValueIdx
import Idealize.ShloMosaic.PureOps.Ideal.Laws

/-! # Region 5, read: the output array is the product of the two input arrays

The frame part gives, point by point, the block of products the body leaves in the output window. Here the
blocks are put together: after the last point the output array is one function G5 of the two input arrays
as the region finds them, and at the ideal values entry (r, q) of it is the sum over k of x (r, k) · w (k, q). -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Value5

/-- The contracted extent (columns of X, rows of W) and the number of columns of W. -/
abbrev kdim5 : Nat := 64
abbrev ncol5 : Nat := 128

/-! ## The product as a function of the two arrays

The unit that multiplies is given a block of rows at a time, so the function of the arrays is stated that
way: entry (r, q) is the entry of the product of the block of rows holding row r with W, at that row's
place in the block. At the ideal values a block's product is the sum over the contracted axis, and the
blocks fall away. -/

/-- The block of consecutive rows of x that holds row r, its rows numbered from the block's first. -/
noncomputable def rowsOf5 (x : S50000x64.Idx → Elt F .f32) (r : Fin 50000) : Vec F S2000x64 .f32 :=
  fun y => x (ix2 ⟨r.val / 2000 * 2000 + (y 0).val, by
    have h0 : (y 0).val < 2000 := (y 0).isLt
    have hr := r.isLt
    omega⟩ (y 1))

/-- Entry i of the product: the payload at the block of rows holding row i 0 and at W, read at the row's
    place in its block and column i 1. -/
noncomputable def G5 (x : S50000x64.Idx → Elt F .f32) (w : S64x128.Idx → Elt F .f32) : S50000x128.Idx → Elt F .f32 :=
  fun i => k5_pay1 (rowsOf5 x (i 0)) w (ix2 ⟨(i 0).val % 2000, Nat.mod_lt _ (by decide)⟩ (i 1))

/-- Entry i of the product from ANY description of the block b that holds its row: the block of rows as
    xb, the matrix as wb, the entry's place in the block as j. -/
theorem G5_of_block (x : S50000x64.Idx → Elt F .f32) (w : S64x128.Idx → Elt F .f32) (b : Nat)
    (i : S50000x128.Idx) (j : S2000x128.Idx) (h0 : (i 0).val = b * 2000 + (j 0).val) (h1 : (i 1).val = (j 1).val)
    (xb : Vec F S2000x64 .f32) (wb : Vec F S64x128 .f32) (hw : wb = w)
    (hx : ∀ (y : S2000x64.Idx) (hy : b * 2000 + (y 0).val < 50000), xb y = x (ix2 ⟨b * 2000 + (y 0).val, hy⟩ (y 1))) :
    G5 x w i = k5_pay1 xb wb j := by
  have hj0 : (j 0).val < 2000 := (j 0).isLt
  have hi0 : (i 0).val < 50000 := (i 0).isLt
  have hrows : rowsOf5 x (i 0) = xb := by
    funext y
    have hy0 : (y 0).val < 2000 := (y 0).isLt
    have hq : (i 0).val / 2000 * 2000 = b * 2000 := by omega
    rw [hx y (by omega)]
    unfold rowsOf5
    congr 1
    funext d; apply Fin.ext
    match d with
    | ⟨0, _⟩ => show (i 0).val / 2000 * 2000 + (y 0).val = b * 2000 + (y 0).val; omega
    | ⟨1, _⟩ => rfl
  have hplace : (ix2 ⟨(i 0).val % 2000, Nat.mod_lt _ (by decide)⟩ (i 1) : S2000x128.Idx) = j := by
    funext d; apply Fin.ext
    match d with
    | ⟨0, _⟩ => show (i 0).val % 2000 = (j 0).val; omega
    | ⟨1, _⟩ => exact h1
  unfold G5
  rw [hrows, hplace, hw]

/-! ### The operand indices of the contraction, axis by axis -/

theorem lhsAx5_0 (j : S2000x128.Idx) (k : dot_S2000x64_S64x128_S2000x128_1_0_0_1_n_n.contr.Idx) :
    (dot_S2000x64_S64x128_S2000x128_1_0_0_1_n_n.lhsIdx j k (0 : Fin 2)).val = (j 0).val := by
  unfold DotDims.lhsIdx
  rw [dif_neg (show ¬(0 : Fin S2000x64.rank) ∈ dot_S2000x64_S64x128_S2000x128_1_0_0_1_n_n.lhsBatch by decide),
    dif_pos (show (0 : Fin S2000x64.rank) ∈ dot_S2000x64_S64x128_S2000x128_1_0_0_1_n_n.lhsNonContracting by decide)]
  rfl

theorem lhsAx5_1 (j : S2000x128.Idx) (k : dot_S2000x64_S64x128_S2000x128_1_0_0_1_n_n.contr.Idx) :
    (dot_S2000x64_S64x128_S2000x128_1_0_0_1_n_n.lhsIdx j k (1 : Fin 2)).val = (k ⟨0, by decide⟩).val :=
  dot_S2000x64_S64x128_S2000x128_1_0_0_1_n_n.lhsIdx_val_of_single (cl := (1 : Fin 2)) rfl j k

theorem rhsAx5_0 (j : S2000x128.Idx) (k : dot_S2000x64_S64x128_S2000x128_1_0_0_1_n_n.contr.Idx) :
    (dot_S2000x64_S64x128_S2000x128_1_0_0_1_n_n.rhsIdx j k (0 : Fin 2)).val = (k ⟨0, by decide⟩).val :=
  dot_S2000x64_S64x128_S2000x128_1_0_0_1_n_n.rhsIdx_val_of_single (cr := (0 : Fin 2)) rfl j k

theorem rhsAx5_1 (j : S2000x128.Idx) (k : dot_S2000x64_S64x128_S2000x128_1_0_0_1_n_n.contr.Idx) :
    (dot_S2000x64_S64x128_S2000x128_1_0_0_1_n_n.rhsIdx j k (1 : Fin 2)).val = (j 1).val := by
  unfold DotDims.rhsIdx
  rw [dif_neg (show ¬(1 : Fin S64x128.rank) ∈ dot_S2000x64_S64x128_S2000x128_1_0_0_1_n_n.rhsBatch by decide),
    dif_pos (show (1 : Fin S64x128.rank) ∈ dot_S2000x64_S64x128_S2000x128_1_0_0_1_n_n.rhsNonContracting by decide)]
  rfl

/-- The payload at the ideal values, at an index: the sum over the contracted axis. -/
theorem k5_pay1_apply (a : Vec Ideal S2000x64 .f32) (b : Vec Ideal S64x128 .f32) (p : Fin 2000) (q : Fin ncol5) :
    k5_pay1 (F := Ideal) a b (ix2 p q) = ∑ k : Fin kdim5, a (ix2 p k) * b (ix2 k q) := by
  unfold k5_pay1
  simp only [shapeCast_self]
  refine (Ideal.matmul_constant_zero_apply _ _ _ _ _).trans ?_
  rw [← Equiv.sum_comp (contrEquiv1 dot_S2000x64_S64x128_S2000x128_1_0_0_1_n_n kdim5 rfl rfl).symm]
  refine Finset.sum_congr rfl fun k _ => ?_
  have hl : dot_S2000x64_S64x128_S2000x128_1_0_0_1_n_n.lhsIdx (ix2 p q) ((contrEquiv1 dot_S2000x64_S64x128_S2000x128_1_0_0_1_n_n kdim5 rfl rfl).symm k) = ix2 p k := by
    funext d; apply Fin.ext
    match d with
    | ⟨0, _⟩ => exact lhsAx5_0 _ _
    | ⟨1, _⟩ => exact (lhsAx5_1 _ _).trans (contrEquiv1_symm_val _ kdim5 rfl rfl k)
  have hr : dot_S2000x64_S64x128_S2000x128_1_0_0_1_n_n.rhsIdx (ix2 p q) ((contrEquiv1 dot_S2000x64_S64x128_S2000x128_1_0_0_1_n_n kdim5 rfl rfl).symm k) = ix2 k q := by
    funext d; apply Fin.ext
    match d with
    | ⟨0, _⟩ => exact (rhsAx5_0 _ _).trans (contrEquiv1_symm_val _ kdim5 rfl rfl k)
    | ⟨1, _⟩ => exact rhsAx5_1 _ _
  rw [hl, hr]

/-- Entry (r, q) of the product at the ideal values: the sum over k of x (r, k) · w (k, q). -/
theorem G5_apply (x : S50000x64.Idx → Elt Ideal .f32) (w : S64x128.Idx → Elt Ideal .f32) (r : Fin 50000) (q : Fin ncol5) :
    G5 (F := Ideal) x w (ix2 r q) = ∑ k : Fin kdim5, x (ix2 r k) * w (ix2 k q) := by
  unfold G5
  rw [k5_pay1_apply]
  refine Finset.sum_congr rfl fun k _ => ?_
  unfold rowsOf5
  have hrow : (ix2 (⟨r.val / 2000 * 2000 + r.val % 2000, by have := r.isLt; omega⟩ : Fin 50000) k : S50000x64.Idx) = ix2 r k := by
    funext d; apply Fin.ext
    match d with
    | ⟨0, _⟩ => show r.val / 2000 * 2000 + r.val % 2000 = r.val; omega
    | ⟨1, _⟩ => rfl
  exact congrArg (fun z => x z * w (ix2 k q)) hrow

end Value5

/-! ## From the blocks written back to the array -/

section Final5
variable (V : (c : Dev nD) → (b : Ref sig .tc) → Buf (Elt F) ((c : Thread nD τ).loc b))

theorem hz5 : (![0, 0] : Fin 2 → Nat) = fun _ => 0 := funext fun a => by fin_cases a <;> rfl

/-- The index maps over the grid: the rows of X and of the product move with the point, one block a point;
    W stays; no window moves along its columns. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the product of the arrays as the region finds them. -/
theorem flushed5_2_eq (c : Dev nD) (t : Fin cfg5.N) :
    (dat5 V c).flushed 2 t = ((cfg5.win 2).blk t).view.read (Elt F) (G5 (V c (Pipeline.arrRef spec5 0)) (V c (Pipeline.arrRef spec5 1))) := by
  show (cfg5.win 2).cut (grid5.coords t) ((dat5 V c).after 2 t) = _
  rw [after5_2]
  unfold out5_2
  rw [View.canon_unit_zero hz5]
  simp only [View.ld_unit_zero (S := S2000x64) hz5, View.ld_unit_zero (S := S64x128) hz5]
  obtain ⟨e0, e1, e2, e3, e4, e5⟩ := idx_facts5 t
  funext j
  show k5_pay1 (iblk5 V c 0 t) (iblk5 V c 1 t) j = G5 (V c (Pipeline.arrRef spec5 0)) (V c (Pipeline.arrRef spec5 1)) (((cfg5.win 2).blk t).view.emb j)
  refine (G5_of_block _ _ t.val _ j ?_ ?_ _ _ ?_ ?_).symm
  · show win5_2.index t (0 : Fin 2) * 2000 + 1 * (j 0).val = t.val * 2000 + (j 0).val
    rw [e4]; omega
  · show win5_2.index t (1 : Fin 2) * S2000x128.size 1 + 1 * (j 1).val = (j 1).val
    rw [e5]; omega
  · funext y
    show V c (Pipeline.arrRef spec5 1) (((cfg5.win 1).blk t).view.emb y) = V c (Pipeline.arrRef spec5 1) y
    congr 1
    funext d; apply Fin.ext
    match d with
    | ⟨0, _⟩ => show win5_1.index t (0 : Fin 2) * S64x128.size 0 + 1 * (y 0).val = (y 0).val; rw [e2]; omega
    | ⟨1, _⟩ => show win5_1.index t (1 : Fin 2) * S64x128.size 1 + 1 * (y 1).val = (y 1).val; rw [e3]; omega
  · intro y hy
    show V c (Pipeline.arrRef spec5 0) (((cfg5.win 0).blk t).view.emb y) = V c (Pipeline.arrRef spec5 0) (ix2 ⟨t.val * 2000 + (y 0).val, hy⟩ (y 1))
    congr 1
    funext d; apply Fin.ext
    match d with
    | ⟨0, _⟩ => show win5_0.index t (0 : Fin 2) * 2000 + 1 * (y 0).val = t.val * 2000 + (y 0).val; rw [e0]; omega
    | ⟨1, _⟩ => show win5_0.index t (1 : Fin 2) * S2000x64.size 1 + 1 * (y 1).val = (y 1).val; rw [e1]; omega

/-- An index of the array is in point t's block iff each coordinate is in the block's range on its axis. -/
theorem mem_blk5_2 (t : Fin cfg5.N) (i : S50000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole (Pipeline.arrRef spec5 2)).slice (win5_2.rect t)).set ↔ _
  rw [View.set_slice_whole, Rect.mem_set_unit]
  exact Iff.rfl

/-- Every index of the array is in some point's block: row r in the block of point r / 2000. -/
theorem covered5_2 (i : S50000x128.Idx) :
    ∃ t : Fin cfg5.N, (cfg5.win 2).flush t = true ∧ i ∈ ((cfg5.win 2).blk t).view.set := by
  have hi0 : (i 0).val < 50000 := (i 0).isLt
  refine ⟨⟨(i 0).val / 2000, by rw [show cfg5.N = 25 from N_5]; omega⟩, flush5_2 _, ?_⟩
  obtain ⟨e0, e1, e2, e3, e4, e5⟩ := idx_facts5 ⟨(i 0).val / 2000, by rw [show cfg5.N = 25 from N_5]; omega⟩
  rw [mem_blk5_2]
  intro a
  match a with
  | ⟨0, _⟩ =>
    show win5_2.index _ (0 : Fin 2) * 2000 ≤ (i 0).val ∧ (i 0).val < win5_2.index _ (0 : Fin 2) * 2000 + 2000
    rw [e4]; show (i 0).val / 2000 * 2000 ≤ (i 0).val ∧ (i 0).val < (i 0).val / 2000 * 2000 + 2000; omega
  | ⟨1, _⟩ =>
    show win5_2.index _ (1 : Fin 2) * S2000x128.size 1 ≤ (i 1).val ∧ (i 1).val < win5_2.index _ (1 : Fin 2) * S2000x128.size 1 + S2000x128.size 1
    rw [e5, Nat.zero_mul, Nat.zero_add]; exact ⟨Nat.zero_le _, (i 1).isLt⟩

/-- The output array after the last point is the product of the two input arrays as the region finds them. -/
theorem final5_2 (c : Dev nD) :
    (dat5 V c).arrAt 2 cfg5.N = G5 (V c (Pipeline.arrRef spec5 0)) (V c (Pipeline.arrRef spec5 1)) :=
  (dat5 V c).arrAt_eq_of_cover 2 (G5 (V c (Pipeline.arrRef spec5 0)) (V c (Pipeline.arrRef spec5 1)))
    (fun t _ => flushed5_2_eq V c t) covered5_2

end Final5

end Cert.KernelIdeal.Hand

end
-- ==== Proof.KI.R6v.lean ====
import proofs.«408084_j48395691492010_3_alg».proof.Proof.KI.R6
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! Region 6, the values. The full-size result holds, row by row, the aggregate plus the bias row. The one-row
result ends holding, column by column, the sum over the 25 row tiles — folded tile by tile from the zero row — of
each tile's column sum of those rows. First each control case's found pieces read back as the payloads; then the
accumulator after each point as the fold, by induction on the point; then the two result arrays after the last
point; last the readings at the ideal values, entry by entry. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The number of columns. -/
abbrev ncol6 : Nat := 128

theorem hz6 : (![0, 0] : Fin 2 → Nat) = fun _ => 0 := funext fun a => by fin_cases a <;> rfl

/-! ## The found pieces, read back -/

/-- Every point leaves in the full-size result's buffer the block plus the bias row. -/
theorem out6_A_2_eq (c : Dev nD) (i : grid6.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc0 : cond6_0 i) (hc1 : ¬cond6_1 i)
    (x0 : Vec F S2000x128 .f32) (x1 : Vec F S1x128 .f32) :
    out6_A_2 c i a1 h1 a2 h2 a3 h3 a4 h4 a5 h5 hc0 hc1 x0 x1 = k6_pay2 x0 x1 := by
  unfold out6_A_2
  rw [View.read_writes_eq_canon _ _ _ (cover6_A_2 c i a1 h1 a2 h2 a3 h3 a4 h4 a5 h5 hc0 hc1 x0 x1)]
  unfold kernelRun6_A
  dsimp only
  sl_unfold_words
  rw [View.canon_unit_zero hz6]
  simp only [View.readAt_eq_ld, h1.read_unread, h2.read_unread, h4.read_unread, h5.read_unread, View.ld_unit_zero (S := S2000x128) hz6, View.ld_unit_zero (S := S1x128) hz6]

theorem out6_B_2_eq (c : Dev nD) (i : grid6.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc0 : ¬cond6_0 i) (hc1 : ¬cond6_1 i)
    (x0 : Vec F S2000x128 .f32) (x1 : Vec F S1x128 .f32) (xs0 : Vec F S1x128 .f32) :
    out6_B_2 c i a1 h1 a2 h2 a3 h3 a4 h4 a5 h5 hc0 hc1 x0 x1 xs0 = k6_pay2 x0 x1 := by
  unfold out6_B_2
  rw [View.read_writes_eq_canon _ _ _ (cover6_B_2 c i a1 h1 a2 h2 a3 h3 a4 h4 a5 h5 hc0 hc1 x0 x1 xs0)]
  unfold kernelRun6_B
  dsimp only
  sl_unfold_words
  rw [View.canon_unit_zero hz6]
  simp only [View.readAt_eq_ld, h1.read_unread, h2.read_unread, h4.read_unread, h5.read_unread, View.ld_unit_zero (S := S2000x128) hz6, View.ld_unit_zero (S := S1x128) hz6]

theorem out6_C_2_eq (c : Dev nD) (i : grid6.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc0 : ¬cond6_0 i) (hc1 : cond6_1 i)
    (x0 : Vec F S2000x128 .f32) (x1 : Vec F S1x128 .f32) (xs0 : Vec F S1x128 .f32) :
    out6_C_2 c i a1 h1 a2 h2 a3 h3 a4 h4 a5 h5 hc0 hc1 x0 x1 xs0 = k6_pay2 x0 x1 := by
  unfold out6_C_2
  rw [View.read_writes_eq_canon _ _ _ (cover6_C_2 c i a1 h1 a2 h2 a3 h3 a4 h4 a5 h5 hc0 hc1 x0 x1 xs0)]
  unfold kernelRun6_C
  dsimp only
  sl_unfold_words
  rw [View.canon_unit_zero hz6]
  simp only [View.readAt_eq_ld, h1.read_unread, h2.read_unread, h4.read_unread, h5.read_unread, View.ld_unit_zero (S := S2000x128) hz6, View.ld_unit_zero (S := S1x128) hz6]

/-- The first point zeroes the accumulator, reads the zero row back and leaves the tile step applied to it. -/
theorem sout6_A_0_eq (c : Dev nD) (i : grid6.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc0 : cond6_0 i) (hc1 : ¬cond6_1 i)
    (x0 : Vec F S2000x128 .f32) (x1 : Vec F S1x128 .f32) :
    sout6_A_0 c i a1 h1 a2 h2 a3 h3 a4 h4 a5 h5 hc0 hc1 x0 x1 = k6_pay3 x0 x1 (k6_pay1 (F := F)) := by
  unfold sout6_A_0
  rw [View.read_writes_eq_canon _ _ _ (scover6_A_0 c i a1 h1 a2 h2 a3 h3 a4 h4 a5 h5 hc0 hc1 x0 x1)]
  unfold kernelRun6_A
  dsimp only
  sl_unfold_words
  rw [View.canon_cons_unit_zero (S := S1x128) hz6, View.readCov_unit_zero (S := S1x128) _ hz6]
  simp only [View.readAt_eq_ld, h1.read_unread, h2.read_unread, h4.read_unread, h5.read_unread, View.ld_unit_zero (S := S2000x128) hz6, View.ld_unit_zero (S := S1x128) hz6]

/-- A middle point leaves in the accumulator the tile step applied to what it held. -/
theorem sout6_B_0_eq (c : Dev nD) (i : grid6.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc0 : ¬cond6_0 i) (hc1 : ¬cond6_1 i)
    (x0 : Vec F S2000x128 .f32) (x1 : Vec F S1x128 .f32) (xs0 : Vec F S1x128 .f32) :
    sout6_B_0 c i a1 h1 a2 h2 a3 h3 a4 h4 a5 h5 hc0 hc1 x0 x1 xs0 = k6_pay3 x0 x1 xs0 := by
  unfold sout6_B_0
  rw [View.read_writes_eq_canon _ _ _ (scover6_B_0 c i a1 h1 a2 h2 a3 h3 a4 h4 a5 h5 hc0 hc1 x0 x1 xs0)]
  unfold kernelRun6_B
  dsimp only
  sl_unfold_words
  rw [View.canon_unit_zero hz6]
  simp only [View.readAt_eq_ld, h1.read_unread, h2.read_unread, h4.read_unread, h5.read_unread, View.ld_unit_zero (S := S2000x128) hz6, View.ld_unit_zero (S := S1x128) hz6]

/-- The last point leaves the same in the accumulator, -/
theorem sout6_C_0_eq (c : Dev nD) (i : grid6.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc0 : ¬cond6_0 i) (hc1 : cond6_1 i)
    (x0 : Vec F S2000x128 .f32) (x1 : Vec F S1x128 .f32) (xs0 : Vec F S1x128 .f32) :
    sout6_C_0 c i a1 h1 a2 h2 a3 h3 a4 h4 a5 h5 hc0 hc1 x0 x1 xs0 = k6_pay3 x0 x1 xs0 := by
  unfold sout6_C_0
  rw [View.read_writes_eq_canon _ _ _ (scover6_C_0 c i a1 h1 a2 h2 a3 h3 a4 h4 a5 h5 hc0 hc1 x0 x1 xs0)]
  unfold kernelRun6_C
  dsimp only
  sl_unfold_words
  rw [View.canon_unit_zero hz6]
  simp only [View.readAt_eq_ld, h1.read_unread, h2.read_unread, h4.read_unread, h5.read_unread, View.ld_unit_zero (S := S2000x128) hz6, View.ld_unit_zero (S := S1x128) hz6]

/-- and stores to the one-row result's buffer what it then reads back from the accumulator: the same row. -/
theorem out6_C_3_eq (c : Dev nD) (i : grid6.Coords) (a1 : Memref sig .tc .vmem S2000x128 .f32) (h1 : a1.IsWhole) (a2 : Memref sig .tc .vmem S1x128 .f32) (h2 : a2.IsWhole) (a3 : Memref sig .tc .vmem S2000x128 .f32) (h3 : a3.IsWhole) (a4 : Memref sig .tc .vmem S1x128 .f32) (h4 : a4.IsWhole) (a5 : Memref sig .tc .vmem S1x128 .f32) (h5 : a5.IsWhole) (hc0 : ¬cond6_0 i) (hc1 : cond6_1 i)
    (x0 : Vec F S2000x128 .f32) (x1 : Vec F S1x128 .f32) (xs0 : Vec F S1x128 .f32) :
    out6_C_3 c i a1 h1 a2 h2 a3 h3 a4 h4 a5 h5 hc0 hc1 x0 x1 xs0 = k6_pay3 x0 x1 xs0 := by
  unfold out6_C_3
  rw [View.read_writes_eq_canon _ _ _ (cover6_C_3 c i a1 h1 a2 h2 a3 h3 a4 h4 a5 h5 hc0 hc1 x0 x1 xs0)]
  unfold kernelRun6_C
  dsimp only
  sl_unfold_words
  rw [View.canon_unit_zero hz6, View.readCov_unit_zero (S := S1x128) _ hz6]
  simp only [View.readAt_eq_ld, h1.read_unread, h2.read_unread, h4.read_unread, h5.read_unread, View.ld_unit_zero (S := S2000x128) hz6, View.ld_unit_zero (S := S1x128) hz6]

/-! ## The arrays and their blocks, at their literal types -/

/-- The array of the aggregated rows, as the region finds it, -/
noncomputable abbrev xarr6 (c : Dev nD) : Vec F S50000x128 .f32 := V c (Pipeline.arrRef spec6 0)
/-- and the bias row. -/
noncomputable abbrev barr6 (c : Dev nD) : Vec F S1x128 .f32 := V c (Pipeline.arrRef spec6 1)

/-- Row tile n of an array of 50000 rows: rows 2000 n … 2000 n + 1999. -/
noncomputable def tile6 (X : Vec F S50000x128 .f32) (n : Fin 25) : Vec F S2000x128 .f32 :=
  fun j => X (ix2 ⟨2000 * n.val + (j 0).val, by have := idx2_lt0 j; have := n.isLt; omega⟩ ⟨(j 1).val, idx2_lt1 j⟩)

theorem tile6_apply (X : Vec F S50000x128 .f32) (n : Fin 25) (r : Fin 2000) (q : Fin ncol6) :
    tile6 X n (ix2 r q) = X (ix2 ⟨2000 * n.val + r.val, by have := n.isLt; have := r.isLt; omega⟩ q) := rfl

/-- The row-tile windows' block index is the grid point; the one-row windows never move. -/
theorem index6_0 : ∀ t : Fin cfg6.N, win6_0.index t 0 = t.val ∧ win6_0.index t 1 = 0 :=
  (by decide +kernel : ∀ t : Fin grid6.N, win6_0.index t 0 = t.val ∧ win6_0.index t 1 = 0)
theorem index6_1 : ∀ t : Fin cfg6.N, win6_1.index t 0 = 0 ∧ win6_1.index t 1 = 0 :=
  (by decide +kernel : ∀ t : Fin grid6.N, win6_1.index t 0 = 0 ∧ win6_1.index t 1 = 0)
theorem index6_2 : ∀ t : Fin cfg6.N, win6_2.index t 0 = t.val ∧ win6_2.index t 1 = 0 :=
  (by decide +kernel : ∀ t : Fin grid6.N, win6_2.index t 0 = t.val ∧ win6_2.index t 1 = 0)
theorem index6_3 : ∀ t : Fin cfg6.N, win6_3.index t 0 = 0 ∧ win6_3.index t 1 = 0 :=
  (by decide +kernel : ∀ t : Fin grid6.N, win6_3.index t 0 = 0 ∧ win6_3.index t 1 = 0)
theorem xsize6_3 : ∀ t : Fin cfg6.N, win6_3.xsize (grid6.coords t) 0 = 1 ∧ win6_3.xsize (grid6.coords t) 1 = ncol6 :=
  (by decide +kernel : ∀ t : Fin grid6.N, win6_3.xsize (grid6.coords t) 0 = 1 ∧ win6_3.xsize (grid6.coords t) 1 = ncol6)

/-- The row-tile window's block at point t is row tile t of the array. -/
theorem xblk6_eq (c : Dev nD) (t : Fin cfg6.N) (hN : t.val < 25) :
    (iblk6 V c 0 t : Vec F S2000x128 .f32) = tile6 (xarr6 V c) ⟨t.val, hN⟩ := by
  have hi := index6_0 t
  funext j
  unfold iblk6 tile6
  rw [View.read_apply]
  show V c (Pipeline.arrRef spec6 0) _ = V c (Pipeline.arrRef spec6 0) _
  congr 1
  funext a
  apply Fin.ext
  match a with
  | ⟨0, _⟩ => show win6_0.index t 0 * 2000 + 1 * (j 0).val = 2000 * t.val + (j 0).val; rw [hi.1]; omega
  | ⟨1, _⟩ => show win6_0.index t 1 * ncol6 + 1 * (j 1).val = (j 1).val; rw [hi.2]; omega

/-- The bias window's block is the whole one-row array, at every point. -/
theorem bblk6_eq (c : Dev nD) (t : Fin cfg6.N) : (iblk6 V c 1 t : Vec F S1x128 .f32) = barr6 V c := by
  have hi := index6_1 t
  funext j
  unfold iblk6
  rw [View.read_apply]
  show V c (Pipeline.arrRef spec6 1) _ = V c (Pipeline.arrRef spec6 1) j
  congr 1
  funext a
  apply Fin.ext
  match a with
  | ⟨0, _⟩ => show win6_1.index t 0 * 1 + 1 * (j 0).val = (j 0).val; rw [hi.1]; omega
  | ⟨1, _⟩ => show win6_1.index t 1 * ncol6 + 1 * (j 1).val = (j 1).val; rw [hi.2]; omega

/-! ## The two results as functions of the two arrays -/

/-- THE FULL-SIZE RESULT: entry i is the payload at the row tile holding row i 0 and at the bias row, read at the
    row's place in its tile and column i 1. -/
noncomputable def G6_2 (X : Vec F S50000x128 .f32) (B : Vec F S1x128 .f32) : Vec F S50000x128 .f32 :=
  fun i => k6_pay2 (tile6 X ⟨(i 0).val / 2000, by have := idx2_lt0 i; omega⟩) B (ix2 ⟨(i 0).val % 2000, Nat.mod_lt _ (by decide)⟩ (i 1))

/-- The accumulator after row tile n: the tile step from the zero row at tile 0, then from what the tile before left. -/
noncomputable def acc6 (X : Vec F S50000x128 .f32) (B : Vec F S1x128 .f32) : (n : ℕ) → n < 25 → Vec F S1x128 .f32
  | 0, h => k6_pay3 (tile6 X ⟨0, h⟩) B (k6_pay1 (F := F))
  | n + 1, h => k6_pay3 (tile6 X ⟨n + 1, h⟩) B (acc6 X B n (Nat.lt_of_succ_lt h))

/-- THE ONE-ROW RESULT: the fold after the last tile. -/
noncomputable def G6_3 (X : Vec F S50000x128 .f32) (B : Vec F S1x128 .f32) : Vec F S1x128 .f32 := acc6 X B 24 (by decide)

/-! ## What the buffers hold after each point -/

/-- The full-size result's buffer after point n: tile n plus the bias row. -/
theorem outsAt6_pre (c : Dev nD) : ∀ (n : ℕ) (h : n < cfg6.N) (h' : n < 25),
    (outsAt6 V c n h).1 = k6_pay2 (tile6 (xarr6 V c) ⟨n, h'⟩) (barr6 V c)
  | 0, h, h' => by
    rw [outsAt6_A V c ⟨0, h⟩ (Nat.zero_mod 25) (fun e => by have e' : (0 : ℕ) % 25 = 24 := e; omega)]
    dsimp only
    rw [out6_A_2_eq, xblk6_eq V c ⟨0, h⟩ h', bblk6_eq V c ⟨0, h⟩]
  | n + 1, h, h' => by
    have hm : (n + 1) % 25 = n + 1 := Nat.mod_eq_of_lt h'
    by_cases h24 : n + 1 = 24
    · rw [outsAt6_C V c ⟨n + 1, h⟩ (fun e => by have e' : (n + 1) % 25 = 0 := e; omega) (by show (n + 1) % 25 = 24; omega)]
      dsimp only
      rw [out6_C_2_eq, xblk6_eq V c ⟨n + 1, h⟩ h', bblk6_eq V c ⟨n + 1, h⟩]
    · rw [outsAt6_B V c ⟨n + 1, h⟩ (fun e => by have e' : (n + 1) % 25 = 0 := e; omega) (fun e => by have e' : (n + 1) % 25 = 24 := e; omega)]
      dsimp only
      rw [out6_B_2_eq, xblk6_eq V c ⟨n + 1, h⟩ h', bblk6_eq V c ⟨n + 1, h⟩]

/-- What the accumulator holds after point n is the fold up to tile n: by induction on the point. -/
theorem outsAt6_acc (c : Dev nD) : ∀ (n : ℕ) (h : n < cfg6.N) (h' : n < 25),
    (outsAt6 V c n h).2.2 = acc6 (xarr6 V c) (barr6 V c) n h'
  | 0, h, h' => by
    rw [outsAt6_A V c ⟨0, h⟩ (Nat.zero_mod 25) (fun e => by have e' : (0 : ℕ) % 25 = 24 := e; omega)]
    dsimp only
    rw [sout6_A_0_eq, xblk6_eq V c ⟨0, h⟩ h', bblk6_eq V c ⟨0, h⟩]
    rfl
  | n + 1, h, h' => by
    have ih := outsAt6_acc c n (Nat.lt_of_succ_lt h) (Nat.lt_of_succ_lt h')
    have hm : (n + 1) % 25 = n + 1 := Nat.mod_eq_of_lt h'
    by_cases h24 : n + 1 = 24
    · rw [outsAt6_C V c ⟨n + 1, h⟩ (fun e => by have e' : (n + 1) % 25 = 0 := e; omega) (by show (n + 1) % 25 = 24; omega)]
      dsimp only
      rw [sout6_C_0_eq, xblk6_eq V c ⟨n + 1, h⟩ h', bblk6_eq V c ⟨n + 1, h⟩]
      show k6_pay3 _ _ (outsAt6 V c n _).2.2 = k6_pay3 _ _ (acc6 _ _ n _)
      rw [ih]
    · rw [outsAt6_B V c ⟨n + 1, h⟩ (fun e => by have e' : (n + 1) % 25 = 0 := e; omega) (fun e => by have e' : (n + 1) % 25 = 24 := e; omega)]
      dsimp only
      rw [sout6_B_0_eq, xblk6_eq V c ⟨n + 1, h⟩ h', bblk6_eq V c ⟨n + 1, h⟩]
      show k6_pay3 _ _ (outsAt6 V c n _).2.2 = k6_pay3 _ _ (acc6 _ _ n _)
      rw [ih]

/-- At the last point the one-row result's buffer is left holding the whole fold. -/
theorem outsAt6_last (c : Dev nD) (t : Fin cfg6.N) (h24 : t.val = 24) :
    (outsAt6 V c t.val t.isLt).2.1 = G6_3 (xarr6 V c) (barr6 V c) := by
  obtain ⟨n, hn⟩ := t
  obtain rfl : n = 24 := h24
  rw [outsAt6_C V c ⟨24, hn⟩ (fun e => by have e' : (24 : ℕ) % 25 = 0 := e; omega) (by show (24 : ℕ) % 25 = 24; omega)]
  dsimp only
  rw [out6_C_3_eq, xblk6_eq V c ⟨24, hn⟩ (by show (24 : ℕ) < 25; omega), bblk6_eq V c ⟨24, hn⟩]
  show k6_pay3 _ _ (outsAt6 V c 23 _).2.2 = k6_pay3 _ _ (acc6 _ _ 23 _)
  rw [outsAt6_acc V c 23 _ (by decide)]

/-! ## The full-size result array after the run -/

/-- What point t writes back of the full-size result is block t of G6_2 of the arrays. -/
theorem flushed6_2 (c : Dev nD) (t : Fin cfg6.N) :
    (dat6 V c).flushed 2 t = ((cfg6.win 2).blk t).view.read (Elt F) (G6_2 (xarr6 V c) (barr6 V c)) := by
  have hN : t.val < 25 := lt_of_lt_of_eq t.isLt (show cfg6.N = 25 from N_6)
  have hi := index6_2 t
  show (cfg6.win 2).cut (grid6.coords t) ((dat6 V c).after 2 t) = _
  rw [after6_2, outsAt6_pre V c t.val t.isLt hN]
  funext j
  have hj0 : (j 0).val < 2000 := (j 0).isLt
  show k6_pay2 (tile6 (xarr6 V c) ⟨t.val, hN⟩) (barr6 V c) j = G6_2 (xarr6 V c) (barr6 V c) (((cfg6.win 2).blk t).view.emb j)
  have hrow : ((((cfg6.win 2).blk t).view.emb j : S50000x128.Idx) 0).val = t.val * 2000 + (j 0).val := by
    show win6_2.index t 0 * 2000 + 1 * (j 0).val = t.val * 2000 + (j 0).val
    rw [hi.1]; omega
  have hcol : ((((cfg6.win 2).blk t).view.emb j : S50000x128.Idx) 1).val = (j 1).val := by
    show win6_2.index t 1 * ncol6 + 1 * (j 1).val = (j 1).val
    rw [hi.2]; omega
  unfold G6_2
  have htile : (⟨((((cfg6.win 2).blk t).view.emb j : S50000x128.Idx) 0).val / 2000, by have := idx2_lt0 (((cfg6.win 2).blk t).view.emb j : S50000x128.Idx); omega⟩ : Fin 25) = ⟨t.val, hN⟩ :=
    Fin.ext (by show ((((cfg6.win 2).blk t).view.emb j : S50000x128.Idx) 0).val / 2000 = t.val; rw [hrow]; omega)
  have hplace : (ix2 ⟨((((cfg6.win 2).blk t).view.emb j : S50000x128.Idx) 0).val % 2000, Nat.mod_lt _ (by decide)⟩ ((((cfg6.win 2).blk t).view.emb j : S50000x128.Idx) 1) : S2000x128.Idx) = j := by
    funext d; apply Fin.ext
    match d with
    | ⟨0, _⟩ => show ((((cfg6.win 2).blk t).view.emb j : S50000x128.Idx) 0).val % 2000 = (j 0).val; rw [hrow]; omega
    | ⟨1, _⟩ => exact hcol
  rw [htile, hplace]

/-- An index of the array is in point t's block iff each coordinate is in the block's range on its axis. -/
theorem mem_blk6_2 (t : Fin cfg6.N) (i : S50000x128.Idx) :
    i ∈ ((cfg6.win 2).blk t).view.set ↔ ∀ a : Fin 2, win6_2.index t a * S2000x128.size a ≤ (i a).val ∧ (i a).val < win6_2.index t a * S2000x128.size a + S2000x128.size a := by
  show i ∈ ((View.whole (Pipeline.arrRef spec6 2)).slice (win6_2.rect t)).set ↔ _
  rw [View.set_slice_whole, Rect.mem_set_unit]
  exact Iff.rfl

/-- Every index of the full-size array is in some point's block: row r in the block of point r / 2000. -/
theorem covered6_2 (i : S50000x128.Idx) :
    ∃ t : Fin cfg6.N, (cfg6.win 2).flush t = true ∧ i ∈ ((cfg6.win 2).blk t).view.set := by
  have hi0 : (i 0).val < 50000 := (i 0).isLt
  refine ⟨⟨(i 0).val / 2000, by rw [show cfg6.N = 25 from N_6]; omega⟩, flush6_2 _, ?_⟩
  have hi := index6_2 ⟨(i 0).val / 2000, by rw [show cfg6.N = 25 from N_6]; omega⟩
  rw [mem_blk6_2]
  intro a
  match a with
  | ⟨0, _⟩ =>
    show win6_2.index _ 0 * 2000 ≤ (i 0).val ∧ (i 0).val < win6_2.index _ 0 * 2000 + 2000
    rw [hi.1]; show (i 0).val / 2000 * 2000 ≤ (i 0).val ∧ (i 0).val < (i 0).val / 2000 * 2000 + 2000; omega
  | ⟨1, _⟩ =>
    show win6_2.index _ 1 * S2000x128.size 1 ≤ (i 1).val ∧ (i 1).val < win6_2.index _ 1 * S2000x128.size 1 + S2000x128.size 1
    rw [hi.2, Nat.zero_mul, Nat.zero_add]; exact ⟨Nat.zero_le _, (i 1).isLt⟩

/-- So the full-size result array ends holding G6_2 of the two arrays. -/
theorem final6_2 (c : Dev nD) :
    (dat6 V c).arrAt 2 cfg6.N = G6_2 (V c (Pipeline.arrRef spec6 0)) (V c (Pipeline.arrRef spec6 1)) :=
  (dat6 V c).arrAt_eq_of_cover 2 (G6_2 (xarr6 V c) (barr6 V c)) (fun t _ => flushed6_2 V c t) covered6_2

/-! ## The one-row result array after the run -/

/-- The one write-back (at the last point) writes the fold: the result's block there is the whole one-row array. -/
theorem flushed6_3 (c : Dev nD) (t : Fin cfg6.N) (hf : (cfg6.win 3).flush t = true) :
    (dat6 V c).flushed 3 t = ((cfg6.win 3).blk t).view.read (Elt F) (G6_3 (xarr6 V c) (barr6 V c)) := by
  have hN : t.val < 25 := lt_of_lt_of_eq t.isLt (show cfg6.N = 25 from N_6)
  have h24 : t.val = 24 := by have := (flush6_3 t).mp hf; omega
  have hi := index6_3 t
  show (cfg6.win 3).cut (grid6.coords t) ((dat6 V c).after 3 t) = _
  rw [after6_3, outsAt6_last V c t h24]
  have hz' : (fun a => win6_3.index t a * main_v143_1.ty.shape.size a) = fun _ => 0 := funext fun a => by
    match a with
    | ⟨0, _⟩ => show win6_3.index t 0 * _ = 0; rw [hi.1, Nat.zero_mul]
    | ⟨1, _⟩ => show win6_3.index t 1 * _ = 0; rw [hi.2, Nat.zero_mul]
  exact (Memref.read_access_unit_zero (Elt F) main_v143_1 hz' (fun a => by rw [congrFun hz' a]; simp) (G6_3 (xarr6 V c) (barr6 V c))).symm

/-- So the one-row result array ends holding the fold. -/
theorem final6_3 (c : Dev nD) : (dat6 V c).arrAt 3 cfg6.N = G6_3 (V c (Pipeline.arrRef spec6 0)) (V c (Pipeline.arrRef spec6 1)) := by
  have h24 : (24 : ℕ) < cfg6.N := by rw [show cfg6.N = 25 from N_6]; omega
  refine (dat6 V c).arrAt_eq_of_cover 3 (G6_3 (xarr6 V c) (barr6 V c)) (flushed6_3 V c) fun i =>
    ⟨⟨24, h24⟩, (flush6_3 _).mpr rfl, ?_⟩
  have hi := index6_3 ⟨24, h24⟩
  have hx := xsize6_3 ⟨24, h24⟩
  show i ∈ ((View.whole main_v143_1).slice (win6_3.rect ⟨24, h24⟩)).set
  rw [View.set_slice_whole, Rect.mem_set_unit]
  intro a
  have h0 : (i 0 : Nat) < 1 := (i 0).isLt
  have h1 : (i 1 : Nat) < ncol6 := (i 1).isLt
  match a with
  | ⟨0, _⟩ =>
    show win6_3.index ⟨24, h24⟩ 0 * win6_3.size 0 ≤ (i 0 : Nat) ∧ (i 0 : Nat) < win6_3.index ⟨24, h24⟩ 0 * win6_3.size 0 + win6_3.xsize (grid6.coords ⟨24, h24⟩) 0
    rw [hi.1, hx.1]; omega
  | ⟨1, _⟩ =>
    show win6_3.index ⟨24, h24⟩ 1 * win6_3.size 1 ≤ (i 1 : Nat) ∧ (i 1 : Nat) < win6_3.index ⟨24, h24⟩ 1 * win6_3.size 1 + win6_3.xsize (grid6.coords ⟨24, h24⟩) 1
    rw [hi.2, hx.2]; omega

/-! ## At the ideal values, at an index -/

section IdealReading
open scoped BigOperators

/-- The zero row, at a column. -/
theorem pay1_apply6 (q : Fin ncol6) : (k6_pay1 (F := Ideal)) (ix2 (0 : Fin 1) q) = 0 := by
  unfold k6_pay1
  simp only [shapeCast_self]
  exact Ideal.ofBits_zero_f32

/-- The block plus the bias row, at an entry. -/
theorem pay2_apply6 (x : FVec Ideal S2000x128 .f32) (b : FVec Ideal S1x128 .f32) (r : Fin 2000) (q : Fin ncol6) :
    k6_pay2 (F := Ideal) x b (ix2 r q) = x (ix2 r q) + b (ix2 (0 : Fin 1) q) := by
  unfold k6_pay2
  simp only [shapeCast_self]
  refine (addf_apply _ _ _).trans ?_
  have hb : ∀ (h : S1x128.Broadcasts S2000x128), broadcastTo S2000x128 b h (ix2 r q) = b (ix2 (0 : Fin 1) q) :=
    fun h => broadcastTo_1b_ab_apply (a := 2000) (b := ncol6) b h r q
  rw [hb]

/-- The tile step, at a column: the accumulator's entry plus the tile's column sum of the rows plus the bias. -/
theorem pay3_apply6 (x : FVec Ideal S2000x128 .f32) (b acc : FVec Ideal S1x128 .f32) (q : Fin ncol6) :
    k6_pay3 (F := Ideal) x b acc (ix2 (0 : Fin 1) q)
      = acc (ix2 (0 : Fin 1) q) + ∑ r : Fin 2000, (x (ix2 r q) + b (ix2 (0 : Fin 1) q)) := by
  unfold k6_pay3
  simp only [shapeCast_self]
  refine (addf_apply _ _ _).trans ?_
  refine congrArg (acc (ix2 (0 : Fin 1) q) + ·) ?_
  refine (shapeCast_a_1a_apply _ _ (0 : Fin 1) q).trans ?_
  refine (Ideal.multiReduction_add_single _ _ _ _ _ (ix1 q)).trans ?_
  refine Finset.sum_congr rfl fun (r : Fin 2000) _ => ?_
  have hl : ∀ (h : S2000x128.Reduces [0] S128), h.lift (ix1 q) r = ix2 r q :=
    fun h => funext fun a => Fin.ext (by fin_cases a <;> rfl)
  rw [hl, pay2_apply6]

/-- THE FULL-SIZE RESULT at the ideal values: the aggregate's entry plus the bias of its column. -/
theorem G6_2_apply (X : FVec Ideal S50000x128 .f32) (B : FVec Ideal S1x128 .f32) (r : Fin 50000) (q : Fin ncol6) :
    G6_2 (F := Ideal) X B (ix2 r q) = X (ix2 r q) + B (ix2 (0 : Fin 1) q) := by
  unfold G6_2
  rw [pay2_apply6, tile6_apply]
  have hrow : (ix2 (⟨2000 * (r.val / 2000) + r.val % 2000, by have := r.isLt; omega⟩ : Fin 50000) q : S50000x128.Idx) = ix2 r q := by
    funext d; apply Fin.ext
    match d with
    | ⟨0, _⟩ => show 2000 * (r.val / 2000) + r.val % 2000 = r.val; omega
    | ⟨1, _⟩ => rfl
  exact congrArg (fun z => X z + B (ix2 (0 : Fin 1) q)) hrow

/-- Row r of tile s. -/
def row6 (s : ℕ) (hs : s < 25) (r : Fin 2000) : Fin 50000 := ⟨2000 * s + r.val, by have := r.isLt; omega⟩

/-- The fold after tile n, at a column: the tiles' column sums added up in tile order. -/
theorem acc6_apply (X : FVec Ideal S50000x128 .f32) (B : FVec Ideal S1x128 .f32) (q : Fin ncol6) : ∀ (n : ℕ) (h : n < 25),
    acc6 (F := Ideal) X B n h (ix2 (0 : Fin 1) q)
      = ∑ s : Fin (n + 1), ∑ r : Fin 2000, (X (ix2 (row6 s.val (by have := s.isLt; omega) r) q) + B (ix2 (0 : Fin 1) q))
  | 0, h => by
    show k6_pay3 (F := Ideal) _ _ _ (ix2 (0 : Fin 1) q) = _
    rw [pay3_apply6, pay1_apply6, zero_add, Fin.sum_univ_one]
    rfl
  | n + 1, h => by
    show k6_pay3 (F := Ideal) _ _ _ (ix2 (0 : Fin 1) q) = _
    rw [Fin.sum_univ_castSucc, pay3_apply6, acc6_apply X B q n (Nat.lt_of_succ_lt h)]
    rfl

/-- Twenty-five tiles of 2000 rows are the 50000 rows. -/
theorem sum_tiles6 (f : Fin 50000 → EReal) :
    ∑ s : Fin 25, ∑ r : Fin 2000, f (row6 s.val s.isLt r) = ∑ i : Fin 50000, f i := by
  rw [← Equiv.sum_comp (finProdFinEquiv (m := 25) (n := 2000)) f, Fintype.sum_prod_type]
  refine Finset.sum_congr rfl fun s _ => Finset.sum_congr rfl fun r _ => congrArg f (Fin.ext ?_)
  show 2000 * s.val + r.val = r.val + 2000 * s.val
  omega

/-- THE ONE-ROW RESULT at the ideal values: column q is the column's sum, over all the rows, of the aggregate's
    entry plus the bias of the column. -/
theorem G6_3_apply (X : FVec Ideal S50000x128 .f32) (B : FVec Ideal S1x128 .f32) (q : Fin ncol6) :
    G6_3 (F := Ideal) X B (ix2 (0 : Fin 1) q)
      = Cert.Val.colSum (fun i j => X (ix2 i j) + B (ix2 (0 : Fin 1) j)) q := by
  unfold G6_3 Cert.Val.colSum
  rw [acc6_apply X B q 24 (by omega)]
  exact sum_tiles6 (fun i => X (ix2 i q) + B (ix2 (0 : Fin 1) q))

end IdealReading

end Cert.KernelIdeal.Hand

end
-- ==== Proof.KI.R7v.lean ====
import proofs.«408084_j48395691492010_3_alg».proof.Proof.KI.R7
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-! Region 7, the value: the one-row result ends holding, column by column, the sum over the 25 row tiles — folded tile by
tile from the zero row — of each tile's column sum of squared deviations (x − mean)². First each control case's found
pieces read back as the tile step applied to the accumulator; then the accumulator after each point as the fold, by
induction on the point; then the result array as the fold after the last point. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem hz7 : (![0, 0] : Fin 2 → Nat) = fun _ => 0 := funext fun a => by fin_cases a <;> rfl

/-! ## The found pieces, read back -/

/-- A middle point leaves in the accumulator the tile step applied to what it held. -/
theorem sout7_B_eq (c : Dev nD) (i : grid7.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc0 : ¬cond7_0 i) (hc1 : ¬cond7_1 i)
    (x0 : Vec F S2000x128 .f32) (x1 : Vec F S1x128 .f32) (xs0 : Vec F S1x128 .f32) :
    sout7_B_0 c i a1 h1 a2 h2 a3 h3 a4 h4 hc0 hc1 x0 x1 xs0 = k7_pay2 x0 x1 xs0 := by
  unfold sout7_B_0
  rw [View.read_writes_eq_canon _ _ _ (scover7_B_0 c i a1 h1 a2 h2 a3 h3 a4 h4 hc0 hc1 x0 x1 xs0)]
  unfold kernelRun7_B
  dsimp only
  sl_unfold_words
  rw [View.canon_unit_zero hz7]
  simp only [View.readAt_eq_ld, h1.read_unread, h2.read_unread, h4.read_unread, View.ld_unit_zero (S := S2000x128) hz7, View.ld_unit_zero (S := S1x128) hz7]

/-- The last point leaves the same in the accumulator, -/
theorem sout7_C_eq (c : Dev nD) (i : grid7.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc0 : ¬cond7_0 i) (hc1 : cond7_1 i)
    (x0 : Vec F S2000x128 .f32) (x1 : Vec F S1x128 .f32) (xs0 : Vec F S1x128 .f32) :
    sout7_C_0 c i a1 h1 a2 h2 a3 h3 a4 h4 hc0 hc1 x0 x1 xs0 = k7_pay2 x0 x1 xs0 := by
  unfold sout7_C_0
  rw [View.read_writes_eq_canon _ _ _ (scover7_C_0 c i a1 h1 a2 h2 a3 h3 a4 h4 hc0 hc1 x0 x1 xs0)]
  unfold kernelRun7_C
  dsimp only
  sl_unfold_words
  rw [View.canon_unit_zero hz7]
  simp only [View.readAt_eq_ld, h1.read_unread, h2.read_unread, h4.read_unread, View.ld_unit_zero (S := S2000x128) hz7, View.ld_unit_zero (S := S1x128) hz7]

/-- and stores to the result's buffer what it then reads back from the accumulator: the same row. -/
theorem out7_C_eq (c : Dev nD) (i : grid7.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc0 : ¬cond7_0 i) (hc1 : cond7_1 i)
    (x0 : Vec F S2000x128 .f32) (x1 : Vec F S1x128 .f32) (xs0 : Vec F S1x128 .f32) :
    out7_C_2 c i a1 h1 a2 h2 a3 h3 a4 h4 hc0 hc1 x0 x1 xs0 = k7_pay2 x0 x1 xs0 := by
  unfold out7_C_2
  rw [View.read_writes_eq_canon _ _ _ (cover7_C_2 c i a1 h1 a2 h2 a3 h3 a4 h4 hc0 hc1 x0 x1 xs0)]
  unfold kernelRun7_C
  dsimp only
  sl_unfold_words
  rw [View.canon_unit_zero hz7, View.readCov_unit_zero (S := S1x128) _ hz7]
  simp only [View.readAt_eq_ld, h1.read_unread, h2.read_unread, h4.read_unread, View.ld_unit_zero (S := S2000x128) hz7, View.ld_unit_zero (S := S1x128) hz7]

/-- The first point zeroes the accumulator, reads the zero row back and leaves the tile step applied to it. -/
theorem sout7_A_eq (c : Dev nD) (i : grid7.Coords) (a1 : Memref sig .tc .vmem S2000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (hc0 : cond7_0 i) (hc1 : ¬cond7_1 i)
    (x0 : Vec F S2000x128 .f32) (x1 : Vec F S1x128 .f32) :
    sout7_A_0 c i a1 h1 a2 h2 a3 h3 a4 h4 hc0 hc1 x0 x1 = k7_pay2 x0 x1 (k7_pay1 (F := F)) := by
  unfold sout7_A_0
  rw [View.read_writes_eq_canon _ _ _ (scover7_A_0 c i a1 h1 a2 h2 a3 h3 a4 h4 hc0 hc1 x0 x1)]
  unfold kernelRun7_A
  dsimp only
  sl_unfold_words
  rw [View.canon_cons_unit_zero (S := S1x128) hz7, View.readCov_unit_zero (S := S1x128) _ hz7]
  simp only [View.readAt_eq_ld, h1.read_unread, h2.read_unread, View.ld_unit_zero (S := S2000x128) hz7, View.ld_unit_zero (S := S1x128) hz7]

/-! ## The arrays and their blocks, at their literal types -/

/-- The [50000, D] array of the rows, as the region finds it, -/
noncomputable abbrev xarr7 (c : Dev nD) : Vec F S50000x128 .f32 := V c (Pipeline.arrRef spec7 0)
/-- and the one row of column means. -/
noncomputable abbrev marr7 (c : Dev nD) : Vec F S1x128 .f32 := V c (Pipeline.arrRef spec7 1)

/-- Row tile `n` of an array of 50000 rows: rows 2000 n … 2000 n + 1999. -/
noncomputable def tile7 (X : Vec F S50000x128 .f32) (n : Fin 25) : Vec F S2000x128 .f32 :=
  fun j => X (ix2 ⟨2000 * n.val + (j 0).val, by have := idx2_lt0 j; have := n.isLt; omega⟩ ⟨(j 1).val, idx2_lt1 j⟩)

theorem tile7_apply (X : Vec F S50000x128 .f32) (n : Fin 25) (r : Fin 2000) (q : Fin 128) :
    tile7 X n (ix2 r q) = X (ix2 ⟨2000 * n.val + r.val, by have := n.isLt; have := r.isLt; omega⟩ q) := rfl

/-- The row-tile window's block index is the grid point; the mean window's never moves. -/
theorem index7_0 : ∀ t : Fin cfg7.N, win7_0.index t 0 = t.val ∧ win7_0.index t 1 = 0 :=
  (by decide +kernel : ∀ t : Fin grid7.N, win7_0.index t 0 = t.val ∧ win7_0.index t 1 = 0)
theorem index7_2 : ∀ t : Fin cfg7.N, win7_2.index t 0 = 0 ∧ win7_2.index t 1 = 0 :=
  (by decide +kernel : ∀ t : Fin grid7.N, win7_2.index t 0 = 0 ∧ win7_2.index t 1 = 0)
theorem xsize7_2 : ∀ t : Fin cfg7.N, win7_2.xsize (grid7.coords t) 0 = 1 ∧ win7_2.xsize (grid7.coords t) 1 = 128 :=
  (by decide +kernel : ∀ t : Fin grid7.N, win7_2.xsize (grid7.coords t) 0 = 1 ∧ win7_2.xsize (grid7.coords t) 1 = 128)
theorem index7_1 : ∀ t : Fin cfg7.N, win7_1.index t 0 = 0 ∧ win7_1.index t 1 = 0 :=
  (by decide +kernel : ∀ t : Fin grid7.N, win7_1.index t 0 = 0 ∧ win7_1.index t 1 = 0)

/-- The row-tile window's block at point `t` is row tile `t` of the array. -/
theorem xblk7_eq (c : Dev nD) (t : Fin cfg7.N) (hN : t.val < 25) :
    (iblk7 V c 0 t : Vec F S2000x128 .f32) = tile7 (xarr7 V c) ⟨t.val, hN⟩ := by
  have hi := index7_0 t
  funext j
  unfold iblk7 tile7
  rw [View.read_apply]
  show V c (Pipeline.arrRef spec7 0) _ = V c (Pipeline.arrRef spec7 0) _
  congr 1
  funext a
  apply Fin.ext
  match a with
  | ⟨0, _⟩ => show win7_0.index t 0 * 2000 + 1 * (j 0).val = 2000 * t.val + (j 0).val; rw [hi.1]; omega
  | ⟨1, _⟩ => show win7_0.index t 1 * 128 + 1 * (j 1).val = (j 1).val; rw [hi.2]; omega

/-- The mean window's block is the whole one-row array, at every point. -/
theorem mblk7_eq (c : Dev nD) (t : Fin cfg7.N) : (iblk7 V c 1 t : Vec F S1x128 .f32) = marr7 V c := by
  have hi := index7_1 t
  funext j
  unfold iblk7
  rw [View.read_apply]
  show V c (Pipeline.arrRef spec7 1) _ = V c (Pipeline.arrRef spec7 1) j
  congr 1
  funext a
  apply Fin.ext
  match a with
  | ⟨0, _⟩ => show win7_1.index t 0 * 1 + 1 * (j 0).val = (j 0).val; rw [hi.1]; omega
  | ⟨1, _⟩ => show win7_1.index t 1 * 128 + 1 * (j 1).val = (j 1).val; rw [hi.2]; omega

/-! ## The fold over the row tiles -/

/-- The accumulator after row tile `n`: the tile step from the zero row at tile 0, then from what the tile before left. -/
noncomputable def acc7 (X : Vec F S50000x128 .f32) (Mu : Vec F S1x128 .f32) : (n : ℕ) → n < 25 → Vec F S1x128 .f32
  | 0, h => k7_pay2 (tile7 X ⟨0, h⟩) Mu (k7_pay1 (F := F))
  | n + 1, h => k7_pay2 (tile7 X ⟨n + 1, h⟩) Mu (acc7 X Mu n (Nat.lt_of_succ_lt h))

/-- THE RESULT as one function of the two arrays: the fold after the last tile. -/
noncomputable def G7_2 (X : Vec F S50000x128 .f32) (Mu : Vec F S1x128 .f32) : Vec F S1x128 .f32 := acc7 X Mu 24 (by decide)

/-- What the accumulator holds after point `n` is the fold up to tile `n`: by induction on the point. -/
theorem outsAt7_acc (c : Dev nD) : ∀ (n : ℕ) (h : n < cfg7.N) (h' : n < 25),
    (outsAt7 V c n h).2 = acc7 (xarr7 V c) (marr7 V c) n h'
  | 0, h, h' => by
    rw [outsAt7_A V c ⟨0, h⟩ rfl (fun e => by have e' : (0 : ℕ) = 24 := e; omega)]
    dsimp only
    rw [sout7_A_eq, xblk7_eq V c ⟨0, h⟩ h', mblk7_eq V c ⟨0, h⟩]
    rfl
  | n + 1, h, h' => by
    have ih := outsAt7_acc c n (Nat.lt_of_succ_lt h) (Nat.lt_of_succ_lt h')
    by_cases h24 : n + 1 = 24
    · rw [outsAt7_C V c ⟨n + 1, h⟩ (Nat.succ_ne_zero n) h24]
      dsimp only
      rw [sout7_C_eq, xblk7_eq V c ⟨n + 1, h⟩ h', mblk7_eq V c ⟨n + 1, h⟩]
      show k7_pay2 _ _ (outsAt7 V c n _).2 = k7_pay2 _ _ (acc7 _ _ n _)
      rw [ih]
    · rw [outsAt7_B V c ⟨n + 1, h⟩ (Nat.succ_ne_zero n) h24]
      dsimp only
      rw [sout7_B_eq, xblk7_eq V c ⟨n + 1, h⟩ h', mblk7_eq V c ⟨n + 1, h⟩]
      show k7_pay2 _ _ (outsAt7 V c n _).2 = k7_pay2 _ _ (acc7 _ _ n _)
      rw [ih]

/-- At the last point the result's buffer is left holding the whole fold. -/
theorem outsAt7_last (c : Dev nD) (t : Fin cfg7.N) (h24 : t.val = 24) :
    (outsAt7 V c t.val t.isLt).1 = G7_2 (xarr7 V c) (marr7 V c) := by
  obtain ⟨n, hn⟩ := t
  obtain rfl : n = 24 := h24
  rw [outsAt7_C V c ⟨24, hn⟩ (fun e => by have e' : (24 : ℕ) = 0 := e; omega) rfl]
  dsimp only
  rw [out7_C_eq, xblk7_eq V c ⟨24, hn⟩ (by show (24 : ℕ) < 25; omega), mblk7_eq V c ⟨24, hn⟩]
  show k7_pay2 _ _ (outsAt7 V c 23 _).2 = k7_pay2 _ _ (acc7 _ _ 23 _)
  rw [outsAt7_acc V c 23 _ (by decide)]

/-! ## The result array after the run -/

/-- The one write-back (at the last point) writes the fold: the result's block there is the whole one-row array. -/
theorem flushed7_2 (c : Dev nD) (t : Fin cfg7.N) (hf : (cfg7.win 2).flush t = true) :
    (dat7 V c).flushed 2 t = ((cfg7.win 2).blk t).view.read (Elt F) (G7_2 (xarr7 V c) (marr7 V c)) := by
  have hN : t.val < 25 := lt_of_lt_of_eq t.isLt (show cfg7.N = 25 from N_7)
  have h24 : t.val = 24 := by have := (flush7_2 t).mp hf; omega
  have hi := index7_2 t
  show (cfg7.win 2).cut (grid7.coords t) ((dat7 V c).after 2 t) = _
  rw [after7_2, outsAt7_last V c t h24]
  have hz' : (fun a => win7_2.index t a * main_v146.ty.shape.size a) = fun _ => 0 := funext fun a => by
    match a with
    | ⟨0, _⟩ => show win7_2.index t 0 * _ = 0; rw [hi.1, Nat.zero_mul]
    | ⟨1, _⟩ => show win7_2.index t 1 * _ = 0; rw [hi.2, Nat.zero_mul]
  exact (Memref.read_access_unit_zero (Elt F) main_v146 hz' (fun a => by rw [congrFun hz' a]; simp) (G7_2 (xarr7 V c) (marr7 V c))).symm

/-- So the result array ends holding the fold. -/
theorem final7_2 (c : Dev nD) : (dat7 V c).arrAt 2 cfg7.N = G7_2 (V c (Pipeline.arrRef spec7 0)) (V c (Pipeline.arrRef spec7 1)) := by
  have h24 : (24 : ℕ) < cfg7.N := by rw [show cfg7.N = 25 from N_7]; omega
  refine (dat7 V c).arrAt_eq_of_cover 2 (G7_2 (xarr7 V c) (marr7 V c)) (flushed7_2 V c) fun i =>
    ⟨⟨24, h24⟩, (flush7_2 _).mpr rfl, ?_⟩
  have hi := index7_2 ⟨24, h24⟩
  have hx := xsize7_2 ⟨24, h24⟩
  show i ∈ ((View.whole main_v146).slice (win7_2.rect ⟨24, h24⟩)).set
  rw [View.set_slice_whole, Rect.mem_set_unit]
  intro a
  have h0 : (i 0 : Nat) < 1 := (i 0).isLt
  have h1 : (i 1 : Nat) < 128 := (i 1).isLt
  match a with
  | ⟨0, _⟩ =>
    show win7_2.index ⟨24, h24⟩ 0 * win7_2.size 0 ≤ (i 0 : Nat) ∧ (i 0 : Nat) < win7_2.index ⟨24, h24⟩ 0 * win7_2.size 0 + win7_2.xsize (grid7.coords ⟨24, h24⟩) 0
    rw [hi.1, hx.1]; omega
  | ⟨1, _⟩ =>
    show win7_2.index ⟨24, h24⟩ 1 * win7_2.size 1 ≤ (i 1 : Nat) ∧ (i 1 : Nat) < win7_2.index ⟨24, h24⟩ 1 * win7_2.size 1 + win7_2.xsize (grid7.coords ⟨24, h24⟩) 1
    rw [hi.2, hx.2]; omega

/-! ## At the ideal values, at an index -/

section IdealReading
open scoped BigOperators

/-- The zero row, at a column. -/
theorem pay1_apply7 (q : Fin 128) : (k7_pay1 (F := Ideal)) (ix2 (0 : Fin 1) q) = 0 := by
  unfold k7_pay1
  simp only [shapeCast_self]
  exact Ideal.ofBits_zero_f32

/-- The tile step, at a column: the accumulator's entry plus the tile's column sum of squared deviations. -/
theorem pay2_apply7 (x : FVec Ideal S2000x128 .f32) (mu acc : FVec Ideal S1x128 .f32) (q : Fin 128) :
    k7_pay2 (F := Ideal) x mu acc (ix2 (0 : Fin 1) q)
      = acc (ix2 (0 : Fin 1) q)
        + ∑ r : Fin 2000, (x (ix2 r q) - mu (ix2 (0 : Fin 1) q)) * (x (ix2 r q) - mu (ix2 (0 : Fin 1) q)) := by
  unfold k7_pay2
  simp only [shapeCast_self]
  refine (addf_apply _ _ _).trans ?_
  refine congrArg (acc (ix2 (0 : Fin 1) q) + ·) ?_
  refine (shapeCast_a_1a_apply _ _ (0 : Fin 1) q).trans ?_
  refine (Ideal.multiReduction_add_single _ _ _ _ _ (ix1 q)).trans ?_
  refine Finset.sum_congr rfl fun (r : Fin 2000) _ => ?_
  have hl : ∀ (h : S2000x128.Reduces [0] S128), h.lift (ix1 q) r = ix2 r q :=
    fun h => funext fun a => Fin.ext (by fin_cases a <;> rfl)
  have hb : ∀ (h : S1x128.Broadcasts S2000x128), broadcastTo S2000x128 mu h (ix2 r q) = mu (ix2 (0 : Fin 1) q) :=
    fun h => broadcastTo_1b_ab_apply (a := 2000) (b := 128) mu h r q
  refine (mulf_apply _ _ _).trans ?_
  rw [subf_apply, hl, hb]

/-- The squared deviation of row `i` in column `q`. -/
noncomputable def sq7 (X : FVec Ideal S50000x128 .f32) (Mu : FVec Ideal S1x128 .f32) (q : Fin 128) (i : Fin 50000) : EReal :=
  (X (ix2 i q) - Mu (ix2 (0 : Fin 1) q)) * (X (ix2 i q) - Mu (ix2 (0 : Fin 1) q))

/-- Row `r` of tile `s`. -/
def row7 (s : ℕ) (hs : s < 25) (r : Fin 2000) : Fin 50000 := ⟨2000 * s + r.val, by have := r.isLt; omega⟩

/-- The fold after tile `n`, at a column: the tiles' column sums added up in tile order. -/
theorem acc7_apply (X : FVec Ideal S50000x128 .f32) (Mu : FVec Ideal S1x128 .f32) (q : Fin 128) : ∀ (n : ℕ) (h : n < 25),
    acc7 (F := Ideal) X Mu n h (ix2 (0 : Fin 1) q)
      = ∑ s : Fin (n + 1), ∑ r : Fin 2000, sq7 X Mu q (row7 s.val (by have := s.isLt; omega) r)
  | 0, h => by
    show k7_pay2 (F := Ideal) _ _ _ (ix2 (0 : Fin 1) q) = _
    rw [pay2_apply7, pay1_apply7, zero_add, Fin.sum_univ_one]
    rfl
  | n + 1, h => by
    show k7_pay2 (F := Ideal) _ _ _ (ix2 (0 : Fin 1) q) = _
    rw [Fin.sum_univ_castSucc, pay2_apply7, acc7_apply X Mu q n (Nat.lt_of_succ_lt h)]
    rfl

/-- Twenty-five tiles of 2000 rows are the 50000 rows. -/
theorem sum_tiles7 (f : Fin 50000 → EReal) :
    ∑ s : Fin 25, ∑ r : Fin 2000, f (row7 s.val s.isLt r) = ∑ i : Fin 50000, f i := by
  rw [← Equiv.sum_comp (finProdFinEquiv (m := 25) (n := 2000)) f, Fintype.sum_prod_type]
  refine Finset.sum_congr rfl fun s _ => Finset.sum_congr rfl fun r _ => congrArg f (Fin.ext ?_)
  show 2000 * s.val + r.val = r.val + 2000 * s.val
  omega

/-- THE RESULT at the ideal values: column `q` of the one row is the column's sum of squared deviations from the
    given means over all 50000 rows. -/
theorem G7_2_apply (X : FVec Ideal S50000x128 .f32) (Mu : FVec Ideal S1x128 .f32) (q : Fin 128) :
    G7_2 (F := Ideal) X Mu (ix2 (0 : Fin 1) q)
      = Cert.Val.colSsq (fun i j => X (ix2 i j)) (fun j => Mu (ix2 (0 : Fin 1) j)) q := by
  unfold G7_2 Cert.Val.colSsq
  rw [acc7_apply X Mu q 24 (by omega)]
  exact sum_tiles7 (sq7 X Mu q)

end IdealReading

end Cert.KernelIdeal.Hand

end
-- ==== Proof.KI.R8v.lean ====
import proofs.«408084_j48395691492010_3_alg».proof.Proof.KI.R8
import proofs.«408084_j48395691492010_3_alg».proof.Proof.Val.SpecFn
import Idealize.ShloMosaic.Lib.Pipeline.Value
import Idealize.ShloMosaic.Lib.ValueIdx
import Idealize.ShloMosaic.Lib.ValueLayout
import Idealize.ShloMosaic.PureOps.Ideal.Laws

/-!
# Region 8: the array it leaves, as one function of the arrays it finds

Every grid point writes one block of 2000 rows of the output, and the 25 blocks tile the 50000 rows; the four
single-row inputs are the same block at every point. So the output array after the run is one function of the five
arrays the region finds. Entry (r, q) is computed from row r of the activations alone:

  bn[r,k] = (x[r,k] - mean[k]) * rsqrt (var[k] + eps) * gamma[k] + beta[k],
  out[r,q] = exp (bn[r,q] - max_k bn[r,k]) / (1 + Σ_k exp (bn[r,k] - max_k bn[r,k])).

At a generic float instance the row's sum is the instance's reduction of the whole 2000-row block that holds the
row, so the function is stated through that block; over the extended reals the reduction is a sum over the row and
the block drops out.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

variable {F : FTy → Type} [FloatOps F]

/-! ## The layout operations of the body, read at an index -/

section Layout8
variable {α : Type}

/-- A vector of 2000 entries cast to a column reads, at (p, 0), entry p. -/
theorem castCol8 (v : S2000.Idx → α) (h : S2000.ShapeCasts S2000x1) :
    shapeCast S2000x1 v h = fun y => v (ix1 (y 0)) := by
  funext y
  obtain ⟨p, u, rfl⟩ : ∃ (p : Fin 2000) (u : Fin 1), y = ix2 p u := ⟨y 0, y 1, eq_ix2 y⟩
  refine shapeCast_apply v h (ix2 p u) (ix1 p) ?_
  have hu : u.val = 0 := by omega
  rw [Shape.rowMajor_val_two, Shape.rowMajor_val_one]
  show p.val = p.val * 1 + u.val
  rw [hu, Nat.mul_one, Nat.add_zero]

/-- A column broadcast along the rows reads, at (p, k), the column's entry p. -/
theorem bcastCol8 (v : S2000x1.Idx → α) (h : S2000x1.Broadcasts S2000x128) :
    broadcastTo S2000x128 v h = fun y => v (ix2 (y 0) (0 : Fin 1)) := by
  funext y
  obtain ⟨p, k, rfl⟩ : ∃ (p : Fin 2000) (k : Fin 128), y = ix2 p k := ⟨y 0, y 1, eq_ix2 y⟩
  refine broadcastTo_apply v h (ix2 p k) (ix2 p (0 : Fin 1)) fun ax => ?_
  match ax with
  | ⟨0, _⟩ => rfl
  | ⟨1, _⟩ => rfl

/-- A single row broadcast down the block reads, at (p, k), the row's entry k. -/
theorem bcastRow8 (v : S1x128.Idx → α) (h : S1x128.Broadcasts S2000x128) :
    broadcastTo S2000x128 v h = fun y => v (ix2 (0 : Fin 1) (y 1)) := by
  funext y
  obtain ⟨p, k, rfl⟩ : ∃ (p : Fin 2000) (k : Fin 128), y = ix2 p k := ⟨y 0, y 1, eq_ix2 y⟩
  exact broadcastTo_1b_ab_apply v h p k

end Layout8

/-! ## The body's result on a block, by coordinates -/

/-- The batch-norm of a block, entry by entry, in the body's order of operations. -/
noncomputable def bn8 (v0 : Vec F S2000x128 .f32) (v2 v6 v13 v17 : Vec F S1x128 .f32) : FVec F S2000x128 .f32 := fun y =>
  FloatOps.addf (FloatOps.mulf (FloatOps.mulf (FloatOps.subf (v0 y) (v2 (ix2 (0 : Fin 1) (y 1))))
      (FloatOps.rsqrt (FloatOps.addf (v6 (ix2 (0 : Fin 1) (y 1))) (FloatOps.ofBits .f32 0x3727C5AC#32))))
      (v13 (ix2 (0 : Fin 1) (y 1)))) (v17 (ix2 (0 : Fin 1) (y 1)))

/-- Its row maxima: the body's reduction along the columns, started from minus infinity. -/
noncomputable def mx8 (v0 : Vec F S2000x128 .f32) (v2 v6 v13 v17 : Vec F S1x128 .f32) : FVec F S2000 .f32 :=
  multiReduction .maximumf [1] S2000 (bn8 v0 v2 v6 v13 v17) 0xFF800000#32 reduces_S2000x128_S2000 (.inl rfl) rfl

/-- The exponentials of the batch-norm less its row maximum. -/
noncomputable def e8 (v0 : Vec F S2000x128 .f32) (v2 v6 v13 v17 : Vec F S1x128 .f32) : FVec F S2000x128 .f32 := fun y =>
  FloatOps.exp (FloatOps.subf (bn8 v0 v2 v6 v13 v17 y) (mx8 v0 v2 v6 v13 v17 (ix1 (y 0))))

/-- Their row sums: the body's reduction along the columns, started from zero. -/
noncomputable def sm8 (v0 : Vec F S2000x128 .f32) (v2 v6 v13 v17 : Vec F S1x128 .f32) : FVec F S2000 .f32 :=
  multiReduction .add [1] S2000 (e8 v0 v2 v6 v13 v17) 0x00000000#32 reduces_S2000x128_S2000 (.inl rfl) rfl

/-- What the body stores: each exponential over one plus its row's sum. -/
noncomputable def P8 (v0 : Vec F S2000x128 .f32) (v2 v6 v13 v17 : Vec F S1x128 .f32) : Vec F S2000x128 .f32 := fun y =>
  FloatOps.divf (e8 v0 v2 v6 v13 v17 y)
    (FloatOps.addf (FloatOps.ofBits .f32 0x3F800000#32) (sm8 v0 v2 v6 v13 v17 (ix1 (y 0))))

/-- The skeleton's payload is that function: its layout operations read at an index, the rest unfolds. -/
theorem pay8_eq (v0 : Vec F S2000x128 .f32) (v2 v6 v13 v17 : Vec F S1x128 .f32) :
    k8_pay1 v0 v2 v6 v13 v17 = P8 v0 v2 v6 v13 v17 := by
  unfold k8_pay1
  simp only [shapeCast_self, bcastRow8, bcastCol8, castCol8]
  rfl

/-! ## The output array as one function of the arrays the region finds -/

/-- Rows q·2000 … q·2000 + 1999 of an array of 50000 rows. -/
noncomputable def rows8 (x : S50000x128.Idx → Elt F .f32) (q : Fin 25) : Vec F S2000x128 .f32 := fun y =>
  x (ix2 (⟨q.val * 2000 + (y 0).val, by have := idx2_lt0 y; have := q.isLt; omega⟩ : Fin 50000) (y 1))

/-- The block of 2000 rows that holds an entry's row, -/
noncomputable def blkOf8 (i : S50000x128.Idx) : Fin 25 := ⟨(i 0).val / 2000, by have := idx2_lt0 i; omega⟩
/-- and the row's place in it. -/
noncomputable def rowIn8 (i : S50000x128.Idx) : Fin 2000 := ⟨(i 0).val % 2000, Nat.mod_lt _ (by decide)⟩

/-- The output array: at each entry, the body's result on the block of 2000 rows of the activations that holds
    the entry's row, at the row's place in the block. -/
noncomputable def G8 (x : S50000x128.Idx → Elt F .f32) (mu va ga be : S1x128.Idx → Elt F .f32) : S50000x128.Idx → Elt F .f32 := fun i =>
  P8 (rows8 x (blkOf8 i)) mu va ga be (ix2 (rowIn8 i) (i 1))

/-- The output array read under block q at a place j of the block. -/
theorem G8_blk (x : S50000x128.Idx → Elt F .f32) (mu va ga be : S1x128.Idx → Elt F .f32) (q : Fin 25) (j : S2000x128.Idx)
    (i : S50000x128.Idx) (h0 : (i 0).val = q.val * 2000 + (j 0).val) (h1 : (i 1).val = (j 1).val) :
    G8 x mu va ga be i = P8 (rows8 x q) mu va ga be j := by
  have hj0 : (j 0).val < 2000 := idx2_lt0 j
  have hq : blkOf8 i = q := Fin.ext (by show (i 0).val / 2000 = q.val; omega)
  have hj : ix2 (rowIn8 i) (i 1) = j := by
    funext a
    match a with
    | ⟨0, _⟩ => exact Fin.ext (by show (i 0).val % 2000 = (j 0).val; omega)
    | ⟨1, _⟩ => exact Fin.ext h1
  unfold G8
  rw [hq]
  exact congrArg (P8 (rows8 x q) mu va ga be) hj

section Region8v
variable (V : (c : Dev nD) → (b : Ref sig .tc) → Buf (Elt F) ((c : Thread nD τ).loc b))

theorem hz8 : (![0, 0] : Fin 2 → Nat) = fun _ => 0 := funext fun a => by fin_cases a <;> rfl

/-- The windows' block indices, decided over the 25 grid points: the activations and the output move one block of
    rows per point, the four single rows stay. -/
theorem idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- The activations' block at point t is rows t·2000 … of their array. -/
theorem iblk8_0_eq (c : Dev nD) (t : Fin cfg8.N) :
    (iblk8 V c 0 t : S2000x128.Idx → Elt F .f32) = rows8 (V c (Pipeline.arrRef spec8 0)) (t.cast N_8) := by
  obtain ⟨e0, e1, -⟩ := idx8 t
  funext y
  show V c (Pipeline.arrRef spec8 0) (((cfg8.win 0).blk t).view.emb y) = V c (Pipeline.arrRef spec8 0) _
  refine congrArg _ (funext fun a => Fin.ext ?_)
  match a with
  | ⟨0, _⟩ => show win8_0.index t (0 : Fin 2) * 2000 + 1 * (y 0).val = t.val * 2000 + (y 0).val; omega
  | ⟨1, _⟩ => show win8_0.index t (1 : Fin 2) * 128 + 1 * (y 1).val = (y 1).val; omega

/-- Each single row's block is, at every point, its whole array. -/
theorem iblk8_1_eq (c : Dev nD) (t : Fin cfg8.N) : (iblk8 V c 1 t : S1x128.Idx → Elt F .f32) = V c (Pipeline.arrRef spec8 1) := by
  obtain ⟨-, -, e0, e1, -⟩ := idx8 t
  funext y
  show V c (Pipeline.arrRef spec8 1) (((cfg8.win 1).blk t).view.emb y) = V c (Pipeline.arrRef spec8 1) y
  refine congrArg _ (funext fun a => Fin.ext ?_)
  match a with
  | ⟨0, _⟩ => show win8_1.index t (0 : Fin 2) * 1 + 1 * (y 0).val = (y 0).val; omega
  | ⟨1, _⟩ => show win8_1.index t (1 : Fin 2) * 128 + 1 * (y 1).val = (y 1).val; omega
theorem iblk8_2_eq (c : Dev nD) (t : Fin cfg8.N) : (iblk8 V c 2 t : S1x128.Idx → Elt F .f32) = V c (Pipeline.arrRef spec8 2) := by
  obtain ⟨-, -, -, -, e0, e1, -⟩ := idx8 t
  funext y
  show V c (Pipeline.arrRef spec8 2) (((cfg8.win 2).blk t).view.emb y) = V c (Pipeline.arrRef spec8 2) y
  refine congrArg _ (funext fun a => Fin.ext ?_)
  match a with
  | ⟨0, _⟩ => show win8_2.index t (0 : Fin 2) * 1 + 1 * (y 0).val = (y 0).val; omega
  | ⟨1, _⟩ => show win8_2.index t (1 : Fin 2) * 128 + 1 * (y 1).val = (y 1).val; omega
theorem iblk8_3_eq (c : Dev nD) (t : Fin cfg8.N) : (iblk8 V c 3 t : S1x128.Idx → Elt F .f32) = V c (Pipeline.arrRef spec8 3) := by
  obtain ⟨-, -, -, -, -, -, e0, e1, -⟩ := idx8 t
  funext y
  show V c (Pipeline.arrRef spec8 3) (((cfg8.win 3).blk t).view.emb y) = V c (Pipeline.arrRef spec8 3) y
  refine congrArg _ (funext fun a => Fin.ext ?_)
  match a with
  | ⟨0, _⟩ => show win8_3.index t (0 : Fin 2) * 1 + 1 * (y 0).val = (y 0).val; omega
  | ⟨1, _⟩ => show win8_3.index t (1 : Fin 2) * 128 + 1 * (y 1).val = (y 1).val; omega
theorem iblk8_4_eq (c : Dev nD) (t : Fin cfg8.N) : (iblk8 V c 4 t : S1x128.Idx → Elt F .f32) = V c (Pipeline.arrRef spec8 4) := by
  obtain ⟨-, -, -, -, -, -, -, -, e0, e1, -⟩ := idx8 t
  funext y
  show V c (Pipeline.arrRef spec8 4) (((cfg8.win 4).blk t).view.emb y) = V c (Pipeline.arrRef spec8 4) y
  refine congrArg _ (funext fun a => Fin.ext ?_)
  match a with
  | ⟨0, _⟩ => show win8_4.index t (0 : Fin 2) * 1 + 1 * (y 0).val = (y 0).val; omega
  | ⟨1, _⟩ => show win8_4.index t (1 : Fin 2) * 128 + 1 * (y 1).val = (y 1).val; omega

set_option maxHeartbeats 1000000 in
/-- What point t writes back is block t of the output array. -/
theorem flushed8_eq (c : Dev nD) (t : Fin cfg8.N) :
    (dat8 V c).flushed 5 t = ((cfg8.win 5).blk t).view.read (Elt F)
      (G8 (V c (Pipeline.arrRef spec8 0)) (V c (Pipeline.arrRef spec8 1)) (V c (Pipeline.arrRef spec8 2))
        (V c (Pipeline.arrRef spec8 3)) (V c (Pipeline.arrRef spec8 4))) := by
  show (cfg8.win 5).cut (grid8.coords t) ((dat8 V c).after 5 t) = _
  rw [after8_5]
  unfold out8_5
  rw [View.canon_unit_zero hz8]
  simp only [View.ld_unit_zero (S := S2000x128) hz8, View.ld_unit_zero (S := S1x128) hz8]
  rw [pay8_eq, iblk8_0_eq, iblk8_1_eq, iblk8_2_eq, iblk8_3_eq, iblk8_4_eq]
  obtain ⟨-, -, -, -, -, -, -, -, -, -, e0, e1⟩ := idx8 t
  funext j
  show P8 (rows8 _ (t.cast N_8)) _ _ _ _ j = G8 _ _ _ _ _ (((cfg8.win 5).blk t).view.emb j)
  refine (G8_blk _ _ _ _ _ (t.cast N_8) j (((cfg8.win 5).blk t).view.emb j) ?_ ?_).symm
  · show win8_5.index t (0 : Fin 2) * 2000 + 1 * (j 0).val = t.val * 2000 + (j 0).val; omega
  · show win8_5.index t (1 : Fin 2) * 128 + 1 * (j 1).val = (j 1).val; omega

/-- An entry of the array is in point t's block iff each coordinate is in the block's range on its axis. -/
theorem mem_blk8 (t : Fin cfg8.N) (i : S50000x128.Idx) :
    i ∈ ((cfg8.win 5).blk t).view.set ↔ ∀ a : Fin 2, win8_5.index t a * S2000x128.size a ≤ (i a).val ∧ (i a).val < win8_5.index t a * S2000x128.size a + S2000x128.size a := by
  show i ∈ ((View.whole main_v151).slice (win8_5.rect t)).set ↔ _
  rw [View.set_slice_whole, Rect.mem_set_unit]
  exact Iff.rfl

/-- Every entry is in the block of the point numbered by its row over 2000. -/
theorem covered8 (i : S50000x128.Idx) : ∃ t : Fin cfg8.N, (cfg8.win 5).flush t = true ∧ i ∈ ((cfg8.win 5).blk t).view.set := by
  have hi0 : (i 0).val < 50000 := idx2_lt0 i
  have hi1 : (i 1).val < 128 := idx2_lt1 i
  have ht : ∃ t : Fin cfg8.N, t.val = (i 0).val / 2000 := ⟨(⟨(i 0).val / 2000, by omega⟩ : Fin 25).cast N_8.symm, rfl⟩
  obtain ⟨t, ht⟩ := ht
  obtain ⟨-, -, -, -, -, -, -, -, -, -, e0, e1⟩ := idx8 t
  refine ⟨t, flush8_5 t, ?_⟩
  rw [mem_blk8]
  intro a
  match a with
  | ⟨0, _⟩ => show win8_5.index t (0 : Fin 2) * 2000 ≤ (i 0).val ∧ (i 0).val < win8_5.index t (0 : Fin 2) * 2000 + 2000; omega
  | ⟨1, _⟩ => show win8_5.index t (1 : Fin 2) * 128 ≤ (i 1).val ∧ (i 1).val < win8_5.index t (1 : Fin 2) * 128 + 128; omega

/-- The output array after the run. -/
theorem final8_5 (c : Dev nD) :
    (dat8 V c).arrAt 5 cfg8.N = G8 (V c (Pipeline.arrRef spec8 0)) (V c (Pipeline.arrRef spec8 1)) (V c (Pipeline.arrRef spec8 2))
      (V c (Pipeline.arrRef spec8 3)) (V c (Pipeline.arrRef spec8 4)) :=
  (dat8 V c).arrAt_eq_of_cover 5 _ (fun t _ => flushed8_eq V c t) covered8

end Region8v

/-! ## The output array over the extended reals, entry by entry -/

section Ideal8

/-- The source entry of a row reduction over a block: the result's row p with k put back on the column axis. -/
theorem lift8 (h : S2000x128.Reduces [1] S2000) (p : Fin 2000) (k : Fin 128) : h.lift (ix1 p) k = ix2 p k := by
  funext a
  match a with
  | ⟨0, _⟩ => exact Fin.ext rfl
  | ⟨1, _⟩ => exact Fin.ext rfl

section Block8
variable (X : Vec Ideal S2000x128 .f32) (mu va ga be : Vec Ideal S1x128 .f32)

/-- The block's batch-norm at an entry. -/
theorem bn8_apply (p : Fin 2000) (k : Fin 128) :
    bn8 (F := Ideal) X mu va ga be (ix2 p k)
      = ((X (ix2 p k) : EReal) - mu (ix2 0 k)) * Ideal.rsqrt (va (ix2 0 k) + Cert.Val.cEps) * ga (ix2 0 k) + be (ix2 0 k) := rfl

/-- A row's maximum: the fold of max over the row, from minus infinity. -/
theorem mx8_apply (p : Fin 2000) :
    mx8 (F := Ideal) X mu va ga be (ix1 p) = Cert.Val.rowMax (fun k : Fin 128 => bn8 (F := Ideal) X mu va ga be (ix2 p k)) := by
  unfold mx8
  refine (Ideal.multiReduction_maximumf_single (bn8 (F := Ideal) X mu va ga be) 0xFF800000#32 reduces_S2000x128_S2000 (.inl rfl) rfl
    (ix1 p)).trans ?_
  have hf : (bn8 (F := Ideal) X mu va ga be ∘ (reduces_S2000x128_S2000).lift (ix1 p))
      = fun k : Fin 128 => bn8 (F := Ideal) X mu va ga be (ix2 p k) :=
    funext fun k => congrArg (bn8 (F := Ideal) X mu va ga be) (lift8 _ p k)
  exact congrArg (fun f => (Finset.univ : Finset (Fin 128)).fold max Cert.Val.cNegInf f) hf

/-- The exponentials at an entry. -/
theorem e8_apply (p : Fin 2000) (k : Fin 128) :
    e8 (F := Ideal) X mu va ga be (ix2 p k)
      = Ideal.exp (bn8 (F := Ideal) X mu va ga be (ix2 p k) - Cert.Val.rowMax (fun k' : Fin 128 => bn8 (F := Ideal) X mu va ga be (ix2 p k'))) := by
  show Ideal.exp (bn8 (F := Ideal) X mu va ga be (ix2 p k) - mx8 (F := Ideal) X mu va ga be (ix1 p)) = _
  rw [mx8_apply]

/-- A row's sum of exponentials: the sum over the row. -/
theorem sm8_apply (p : Fin 2000) :
    sm8 (F := Ideal) X mu va ga be (ix1 p) = ∑ k : Fin 128, e8 (F := Ideal) X mu va ga be (ix2 p k) := by
  unfold sm8
  refine (Ideal.multiReduction_add_single (e8 (F := Ideal) X mu va ga be) 0x00000000#32 reduces_S2000x128_S2000 (.inl rfl) rfl
    (ix1 p)).trans ?_
  exact Finset.sum_congr rfl fun k _ => congrArg (e8 (F := Ideal) X mu va ga be) (lift8 _ p k)

/-- What the body stores, at an entry. -/
theorem P8_apply (p : Fin 2000) (k : Fin 128) :
    P8 (F := Ideal) X mu va ga be (ix2 p k)
      = Ideal.div (e8 (F := Ideal) X mu va ga be (ix2 p k)) (Cert.Val.cOne + sm8 (F := Ideal) X mu va ga be (ix1 p)) := rfl

end Block8

/-- The block that holds row r, read at the row's place, is row r of the array. -/
theorem rows8_at (x : S50000x128.Idx → Elt Ideal .f32) (r : Fin 50000) (q k : Fin 128) :
    rows8 x (blkOf8 (ix2 r q)) (ix2 (rowIn8 (ix2 r q)) k) = x (ix2 r k) := by
  unfold rows8
  refine congrArg x (funext fun a => ?_)
  match a with
  | ⟨0, _⟩ => exact Fin.ext (by show (r.val / 2000) * 2000 + r.val % 2000 = r.val; omega)
  | ⟨1, _⟩ => rfl

/-- THE OUTPUT ARRAY AT AN ENTRY: the row softmax with one added to the denominator, of the batch-norm of row r of
    the activations with the given column statistics, scale and shift. -/
theorem G8_apply (x : S50000x128.Idx → Elt Ideal .f32) (mu va ga be : S1x128.Idx → Elt Ideal .f32) (r : Fin 50000) (q : Fin 128) :
    G8 (F := Ideal) x mu va ga be (ix2 r q)
      = Cert.Val.smOne (fun j' => Cert.Val.bnAt (fun i j => x (ix2 i j)) (fun j => mu (ix2 0 j)) (fun j => va (ix2 0 j))
          (fun j => ga (ix2 0 j)) (fun j => be (ix2 0 j)) r j') q := by
  have hb : ∀ k : Fin 128, bn8 (F := Ideal) (rows8 x (blkOf8 (ix2 r q))) mu va ga be (ix2 (rowIn8 (ix2 r q)) k)
      = Cert.Val.bnAt (fun i j => x (ix2 i j)) (fun j => mu (ix2 0 j)) (fun j => va (ix2 0 j))
          (fun j => ga (ix2 0 j)) (fun j => be (ix2 0 j)) r k := by
    intro k
    rw [bn8_apply, rows8_at]
    rfl
  show P8 (F := Ideal) (rows8 x (blkOf8 (ix2 r q))) mu va ga be (ix2 (rowIn8 (ix2 r q)) q) = _
  rw [P8_apply, sm8_apply]
  simp only [e8_apply, hb]
  rfl

end Ideal8

end Cert.KernelIdeal.Hand

end
-- ==== Proof.KI.R9v.lean ====
import proofs.«408084_j48395691492010_3_alg».proof.Proof.KI.R9
import Idealize.ShloMosaic.Lib.Pipeline.Value
import Idealize.ShloMosaic.Lib.ValueIdx
import Idealize.ShloMosaic.PureOps.Ideal.Laws

/-! # Region 9, read: the output array is the product of the two input arrays

The frame part gives, point by point, the block of products the body leaves in the output window. Here the
blocks are put together: after the last point the output array is one function G9 of the two input arrays
as the region finds them, and at the ideal values entry (r, q) of it is the sum over k of x (r, k) · w (k, q). -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

section Value9

/-- The contracted extent (columns of X, rows of W) and the number of columns of W. -/
abbrev kdim9 : Nat := 128
abbrev ncol9 : Nat := 64

/-! ## The product as a function of the two arrays

The unit that multiplies is given a block of rows at a time, so the function of the arrays is stated that
way: entry (r, q) is the entry of the product of the block of rows holding row r with W, at that row's
place in the block. At the ideal values a block's product is the sum over the contracted axis, and the
blocks fall away. -/

/-- The block of consecutive rows of x that holds row r, its rows numbered from the block's first. -/
noncomputable def rowsOf9 (x : S50000x128.Idx → Elt F .f32) (r : Fin 50000) : Vec F S2000x128 .f32 :=
  fun y => x (ix2 ⟨r.val / 2000 * 2000 + (y 0).val, by
    have h0 : (y 0).val < 2000 := (y 0).isLt
    have hr := r.isLt
    omega⟩ (y 1))

/-- Entry i of the product: the payload at the block of rows holding row i 0 and at W, read at the row's
    place in its block and column i 1. -/
noncomputable def G9 (x : S50000x128.Idx → Elt F .f32) (w : S128x64.Idx → Elt F .f32) : S50000x64.Idx → Elt F .f32 :=
  fun i => k9_pay1 (rowsOf9 x (i 0)) w (ix2 ⟨(i 0).val % 2000, Nat.mod_lt _ (by decide)⟩ (i 1))

/-- Entry i of the product from ANY description of the block b that holds its row: the block of rows as
    xb, the matrix as wb, the entry's place in the block as j. -/
theorem G9_of_block (x : S50000x128.Idx → Elt F .f32) (w : S128x64.Idx → Elt F .f32) (b : Nat)
    (i : S50000x64.Idx) (j : S2000x64.Idx) (h0 : (i 0).val = b * 2000 + (j 0).val) (h1 : (i 1).val = (j 1).val)
    (xb : Vec F S2000x128 .f32) (wb : Vec F S128x64 .f32) (hw : wb = w)
    (hx : ∀ (y : S2000x128.Idx) (hy : b * 2000 + (y 0).val < 50000), xb y = x (ix2 ⟨b * 2000 + (y 0).val, hy⟩ (y 1))) :
    G9 x w i = k9_pay1 xb wb j := by
  have hj0 : (j 0).val < 2000 := (j 0).isLt
  have hi0 : (i 0).val < 50000 := (i 0).isLt
  have hrows : rowsOf9 x (i 0) = xb := by
    funext y
    have hy0 : (y 0).val < 2000 := (y 0).isLt
    have hq : (i 0).val / 2000 * 2000 = b * 2000 := by omega
    rw [hx y (by omega)]
    unfold rowsOf9
    congr 1
    funext d; apply Fin.ext
    match d with
    | ⟨0, _⟩ => show (i 0).val / 2000 * 2000 + (y 0).val = b * 2000 + (y 0).val; omega
    | ⟨1, _⟩ => rfl
  have hplace : (ix2 ⟨(i 0).val % 2000, Nat.mod_lt _ (by decide)⟩ (i 1) : S2000x64.Idx) = j := by
    funext d; apply Fin.ext
    match d with
    | ⟨0, _⟩ => show (i 0).val % 2000 = (j 0).val; omega
    | ⟨1, _⟩ => exact h1
  unfold G9
  rw [hrows, hplace, hw]

/-! ### The operand indices of the contraction, axis by axis -/

theorem lhsAx9_0 (j : S2000x64.Idx) (k : dot_S2000x128_S128x64_S2000x64_1_0_0_1_n_n.contr.Idx) :
    (dot_S2000x128_S128x64_S2000x64_1_0_0_1_n_n.lhsIdx j k (0 : Fin 2)).val = (j 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

theorem lhsAx9_1 (j : S2000x64.Idx) (k : dot_S2000x128_S128x64_S2000x64_1_0_0_1_n_n.contr.Idx) :
    (dot_S2000x128_S128x64_S2000x64_1_0_0_1_n_n.lhsIdx j k (1 : Fin 2)).val = (k ⟨0, by decide⟩).val :=
  dot_S2000x128_S128x64_S2000x64_1_0_0_1_n_n.lhsIdx_val_of_single (cl := (1 : Fin 2)) rfl j k

theorem rhsAx9_0 (j : S2000x64.Idx) (k : dot_S2000x128_S128x64_S2000x64_1_0_0_1_n_n.contr.Idx) :
    (dot_S2000x128_S128x64_S2000x64_1_0_0_1_n_n.rhsIdx j k (0 : Fin 2)).val = (k ⟨0, by decide⟩).val :=
  dot_S2000x128_S128x64_S2000x64_1_0_0_1_n_n.rhsIdx_val_of_single (cr := (0 : Fin 2)) rfl j k

theorem rhsAx9_1 (j : S2000x64.Idx) (k : dot_S2000x128_S128x64_S2000x64_1_0_0_1_n_n.contr.Idx) :
    (dot_S2000x128_S128x64_S2000x64_1_0_0_1_n_n.rhsIdx j k (1 : Fin 2)).val = (j 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The payload at the ideal values, at an index: the sum over the contracted axis. -/
theorem k9_pay1_apply (a : Vec Ideal S2000x128 .f32) (b : Vec Ideal S128x64 .f32) (p : Fin 2000) (q : Fin ncol9) :
    k9_pay1 (F := Ideal) a b (ix2 p q) = ∑ k : Fin kdim9, a (ix2 p k) * b (ix2 k q) := by
  unfold k9_pay1
  simp only [shapeCast_self]
  refine (Ideal.matmul_constant_zero_apply _ _ _ _ _).trans ?_
  rw [← Equiv.sum_comp (contrEquiv1 dot_S2000x128_S128x64_S2000x64_1_0_0_1_n_n kdim9 rfl rfl).symm]
  refine Finset.sum_congr rfl fun k _ => ?_
  have hl : dot_S2000x128_S128x64_S2000x64_1_0_0_1_n_n.lhsIdx (ix2 p q) ((contrEquiv1 dot_S2000x128_S128x64_S2000x64_1_0_0_1_n_n kdim9 rfl rfl).symm k) = ix2 p k := by
    funext d; apply Fin.ext
    match d with
    | ⟨0, _⟩ => exact lhsAx9_0 _ _
    | ⟨1, _⟩ => exact (lhsAx9_1 _ _).trans (contrEquiv1_symm_val _ kdim9 rfl rfl k)
  have hr : dot_S2000x128_S128x64_S2000x64_1_0_0_1_n_n.rhsIdx (ix2 p q) ((contrEquiv1 dot_S2000x128_S128x64_S2000x64_1_0_0_1_n_n kdim9 rfl rfl).symm k) = ix2 k q := by
    funext d; apply Fin.ext
    match d with
    | ⟨0, _⟩ => exact (rhsAx9_0 _ _).trans (contrEquiv1_symm_val _ kdim9 rfl rfl k)
    | ⟨1, _⟩ => exact rhsAx9_1 _ _
  rw [hl, hr]

/-- Entry (r, q) of the product at the ideal values: the sum over k of x (r, k) · w (k, q). -/
theorem G9_apply (x : S50000x128.Idx → Elt Ideal .f32) (w : S128x64.Idx → Elt Ideal .f32) (r : Fin 50000) (q : Fin ncol9) :
    G9 (F := Ideal) x w (ix2 r q) = ∑ k : Fin kdim9, x (ix2 r k) * w (ix2 k q) := by
  unfold G9
  rw [k9_pay1_apply]
  refine Finset.sum_congr rfl fun k _ => ?_
  unfold rowsOf9
  have hrow : (ix2 (⟨r.val / 2000 * 2000 + r.val % 2000, by have := r.isLt; omega⟩ : Fin 50000) k : S50000x128.Idx) = ix2 r k := by
    funext d; apply Fin.ext
    match d with
    | ⟨0, _⟩ => show r.val / 2000 * 2000 + r.val % 2000 = r.val; omega
    | ⟨1, _⟩ => rfl
  exact congrArg (fun z => x z * w (ix2 k q)) hrow

end Value9

/-! ## From the blocks written back to the array -/

section Final9
variable (V : (c : Dev nD) → (b : Ref sig .tc) → Buf (Elt F) ((c : Thread nD τ).loc b))

theorem hz9 : (![0, 0] : Fin 2 → Nat) = fun _ => 0 := funext fun a => by fin_cases a <;> rfl

/-- The index maps over the grid: the rows of X and of the product move with the point, one block a point;
    W stays; no window moves along its columns. -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What point t writes back is block t of the product of the arrays as the region finds them. -/
theorem flushed9_2_eq (c : Dev nD) (t : Fin cfg9.N) :
    (dat9 V c).flushed 2 t = ((cfg9.win 2).blk t).view.read (Elt F) (G9 (V c (Pipeline.arrRef spec9 0)) (V c (Pipeline.arrRef spec9 1))) := by
  show (cfg9.win 2).cut (grid9.coords t) ((dat9 V c).after 2 t) = _
  rw [after9_2]
  unfold out9_2
  rw [View.canon_unit_zero hz9]
  simp only [View.ld_unit_zero (S := S2000x128) hz9, View.ld_unit_zero (S := S128x64) hz9]
  obtain ⟨e0, e1, e2, e3, e4, e5⟩ := idx_facts9 t
  funext j
  show k9_pay1 (iblk9 V c 0 t) (iblk9 V c 1 t) j = G9 (V c (Pipeline.arrRef spec9 0)) (V c (Pipeline.arrRef spec9 1)) (((cfg9.win 2).blk t).view.emb j)
  refine (G9_of_block _ _ t.val _ j ?_ ?_ _ _ ?_ ?_).symm
  · show win9_2.index t (0 : Fin 2) * 2000 + 1 * (j 0).val = t.val * 2000 + (j 0).val
    rw [e4]; omega
  · show win9_2.index t (1 : Fin 2) * S2000x64.size 1 + 1 * (j 1).val = (j 1).val
    rw [e5]; omega
  · funext y
    show V c (Pipeline.arrRef spec9 1) (((cfg9.win 1).blk t).view.emb y) = V c (Pipeline.arrRef spec9 1) y
    congr 1
    funext d; apply Fin.ext
    match d with
    | ⟨0, _⟩ => show win9_1.index t (0 : Fin 2) * S128x64.size 0 + 1 * (y 0).val = (y 0).val; rw [e2]; omega
    | ⟨1, _⟩ => show win9_1.index t (1 : Fin 2) * S128x64.size 1 + 1 * (y 1).val = (y 1).val; rw [e3]; omega
  · intro y hy
    show V c (Pipeline.arrRef spec9 0) (((cfg9.win 0).blk t).view.emb y) = V c (Pipeline.arrRef spec9 0) (ix2 ⟨t.val * 2000 + (y 0).val, hy⟩ (y 1))
    congr 1
    funext d; apply Fin.ext
    match d with
    | ⟨0, _⟩ => show win9_0.index t (0 : Fin 2) * 2000 + 1 * (y 0).val = t.val * 2000 + (y 0).val; rw [e0]; omega
    | ⟨1, _⟩ => show win9_0.index t (1 : Fin 2) * S2000x128.size 1 + 1 * (y 1).val = (y 1).val; rw [e1]; omega

/-- An index of the array is in point t's block iff each coordinate is in the block's range on its axis. -/
theorem mem_blk9_2 (t : Fin cfg9.N) (i : S50000x64.Idx) :
    i ∈ ((cfg9.win 2).blk t).view.set ↔ ∀ a : Fin 2, win9_2.index t a * S2000x64.size a ≤ (i a).val ∧ (i a).val < win9_2.index t a * S2000x64.size a + S2000x64.size a := by
  show i ∈ ((View.whole (Pipeline.arrRef spec9 2)).slice (win9_2.rect t)).set ↔ _
  rw [View.set_slice_whole, Rect.mem_set_unit]
  exact Iff.rfl

/-- Every index of the array is in some point's block: row r in the block of point r / 2000. -/
theorem covered9_2 (i : S50000x64.Idx) :
    ∃ t : Fin cfg9.N, (cfg9.win 2).flush t = true ∧ i ∈ ((cfg9.win 2).blk t).view.set := by
  have hi0 : (i 0).val < 50000 := (i 0).isLt
  refine ⟨⟨(i 0).val / 2000, by rw [show cfg9.N = 25 from N_9]; omega⟩, flush9_2 _, ?_⟩
  obtain ⟨e0, e1, e2, e3, e4, e5⟩ := idx_facts9 ⟨(i 0).val / 2000, by rw [show cfg9.N = 25 from N_9]; omega⟩
  rw [mem_blk9_2]
  intro a
  match a with
  | ⟨0, _⟩ =>
    show win9_2.index _ (0 : Fin 2) * 2000 ≤ (i 0).val ∧ (i 0).val < win9_2.index _ (0 : Fin 2) * 2000 + 2000
    rw [e4]; show (i 0).val / 2000 * 2000 ≤ (i 0).val ∧ (i 0).val < (i 0).val / 2000 * 2000 + 2000; omega
  | ⟨1, _⟩ =>
    show win9_2.index _ (1 : Fin 2) * S2000x64.size 1 ≤ (i 1).val ∧ (i 1).val < win9_2.index _ (1 : Fin 2) * S2000x64.size 1 + S2000x64.size 1
    rw [e5, Nat.zero_mul, Nat.zero_add]; exact ⟨Nat.zero_le _, (i 1).isLt⟩

/-- The output array after the last point is the product of the two input arrays as the region finds them. -/
theorem final9_2 (c : Dev nD) :
    (dat9 V c).arrAt 2 cfg9.N = G9 (V c (Pipeline.arrRef spec9 0)) (V c (Pipeline.arrRef spec9 1)) :=
  (dat9 V c).arrAt_eq_of_cover 2 (G9 (V c (Pipeline.arrRef spec9 0)) (V c (Pipeline.arrRef spec9 1)))
    (fun t _ => flushed9_2_eq V c t) covered9_2

end Final9

end Cert.KernelIdeal.Hand

end
-- ==== Proof.Val.RegVal.lean ====
/-
  What each kernel region computes, read at an index of its output arrays, over the extended reals: the
  output at the region's exit boundary as a function of the input arrays at its entry boundary. A linear
  region is the matrix product; a layer's first stage adds the bias (and the running residual) and sums the
  columns; the second sums the squared deviations from the mean; the third is the batch-norm followed by
  softmax_one along the rows.
-/
import proofs.«408084_j48395691492010_3_alg».proof.Proof.KI.Chain
import proofs.«408084_j48395691492010_3_alg».proof.Proof.KI.R0v
import proofs.«408084_j48395691492010_3_alg».proof.Proof.KI.R10v
import proofs.«408084_j48395691492010_3_alg».proof.Proof.KI.R11v
import proofs.«408084_j48395691492010_3_alg».proof.Proof.KI.R12v
import proofs.«408084_j48395691492010_3_alg».proof.Proof.KI.R13v
import proofs.«408084_j48395691492010_3_alg».proof.Proof.KI.R14v
import proofs.«408084_j48395691492010_3_alg».proof.Proof.KI.R15v
import proofs.«408084_j48395691492010_3_alg».proof.Proof.KI.R16v
import proofs.«408084_j48395691492010_3_alg».proof.Proof.KI.R17v
import proofs.«408084_j48395691492010_3_alg».proof.Proof.KI.R18v
import proofs.«408084_j48395691492010_3_alg».proof.Proof.KI.R19v
import proofs.«408084_j48395691492010_3_alg».proof.Proof.KI.R1v
import proofs.«408084_j48395691492010_3_alg».proof.Proof.KI.R20v
import proofs.«408084_j48395691492010_3_alg».proof.Proof.KI.R21v
import proofs.«408084_j48395691492010_3_alg».proof.Proof.KI.R22v
import proofs.«408084_j48395691492010_3_alg».proof.Proof.KI.R23v
import proofs.«408084_j48395691492010_3_alg».proof.Proof.KI.R24v
import proofs.«408084_j48395691492010_3_alg».proof.Proof.KI.R25v
import proofs.«408084_j48395691492010_3_alg».proof.Proof.KI.R26v
import proofs.«408084_j48395691492010_3_alg».proof.Proof.KI.R27v
import proofs.«408084_j48395691492010_3_alg».proof.Proof.KI.R28v
import proofs.«408084_j48395691492010_3_alg».proof.Proof.KI.R29v
import proofs.«408084_j48395691492010_3_alg».proof.Proof.KI.R2v
import proofs.«408084_j48395691492010_3_alg».proof.Proof.KI.R30v
import proofs.«408084_j48395691492010_3_alg».proof.Proof.KI.R31v
import proofs.«408084_j48395691492010_3_alg».proof.Proof.KI.R32v
import proofs.«408084_j48395691492010_3_alg».proof.Proof.KI.R33v
import proofs.«408084_j48395691492010_3_alg».proof.Proof.KI.R34v
import proofs.«408084_j48395691492010_3_alg».proof.Proof.KI.R35v
import proofs.«408084_j48395691492010_3_alg».proof.Proof.KI.R36v
import proofs.«408084_j48395691492010_3_alg».proof.Proof.KI.R37v
import proofs.«408084_j48395691492010_3_alg».proof.Proof.KI.R38v
import proofs.«408084_j48395691492010_3_alg».proof.Proof.KI.R39v
import proofs.«408084_j48395691492010_3_alg».proof.Proof.KI.R3v
import proofs.«408084_j48395691492010_3_alg».proof.Proof.KI.R40v
import proofs.«408084_j48395691492010_3_alg».proof.Proof.KI.R41v
import proofs.«408084_j48395691492010_3_alg».proof.Proof.KI.R42v
import proofs.«408084_j48395691492010_3_alg».proof.Proof.KI.R43v
import proofs.«408084_j48395691492010_3_alg».proof.Proof.KI.R44v
import proofs.«408084_j48395691492010_3_alg».proof.Proof.KI.R45v
import proofs.«408084_j48395691492010_3_alg».proof.Proof.KI.R46v
import proofs.«408084_j48395691492010_3_alg».proof.Proof.KI.R47v
import proofs.«408084_j48395691492010_3_alg».proof.Proof.KI.R48v
import proofs.«408084_j48395691492010_3_alg».proof.Proof.KI.R4v
import proofs.«408084_j48395691492010_3_alg».proof.Proof.KI.R5v
import proofs.«408084_j48395691492010_3_alg».proof.Proof.KI.R6v
import proofs.«408084_j48395691492010_3_alg».proof.Proof.KI.R7v
import proofs.«408084_j48395691492010_3_alg».proof.Proof.KI.R8v
import proofs.«408084_j48395691492010_3_alg».proof.Proof.KI.R9v
import proofs.«408084_j48395691492010_3_alg».proof.Proof.Val.SpecFn
import Idealize.ShloMosaic.Lib.ValueIdx
import Idealize.ShloMosaic.Lib.ValueLayout
import Idealize.ShloMosaic.Lib.StableHlo
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Cert.Val
open scoped BigOperators

variable (m : (ℓ : Loc nD τ sig) → Buf (Elt Ideal) ℓ) (ρ : Dev nD → PrngReg) (c : Dev nD)

/- The extended reals' sum and product, named outright: an array's entry has the element type of its buffer,
   which unfolds to the extended reals but is not syntactically them. -/
local notation:65 a:65 " +ᵉ " b:66 => HAdd.hAdd (α := EReal) (β := EReal) (γ := EReal) a b
local notation:70 a:70 " *ᵉ " b:71 => HMul.hMul (α := EReal) (β := EReal) (γ := EReal) a b
local notation:50 a:51 " =ᵉ " b:51 => Eq (α := EReal) a b

theorem regval0 (r : Fin 50000) (q : Fin 4) :
    (B4 m ρ c (Proc.devRef .tc main_v37) : S50000x4.Idx → EReal) (ix2 r q)
      =ᵉ (∑ k : Fin 18, (B3 m ρ c (Proc.devRef .tc main_v35) : S50000x18.Idx → EReal) (ix2 r k) *ᵉ (B3 m ρ c (Proc.devRef .tc main_arg4) : S18x4.Idx → EReal) (ix2 k q)) +ᵉ (B3 m ρ c (Proc.devRef .tc main_v36) : S1x4.Idx → EReal) (ix2 0 q) +ᵉ (B3 m ρ c (Proc.devRef .tc main_v34) : S50000x4.Idx → EReal) (ix2 r q) := by
  exact (congrFun ((B4_arr m ρ c 4).trans (final0_4 (E0 m ρ) c)) (ix2 r q)).trans (G0_apply ..)

theorem regval1 (r : Fin 50000) (q : Fin 64) :
    (B6 m ρ c (Proc.devRef .tc main_v116) : S50000x64.Idx → EReal) (ix2 r q)
      =ᵉ ∑ k : Fin 4, (B5 m ρ c (Proc.devRef .tc main_v115) : S50000x4.Idx → EReal) (ix2 r k) *ᵉ (B5 m ρ c (Proc.devRef .tc main_v102) : S4x64.Idx → EReal) (ix2 k q) := by
  exact (congrFun ((B6_arr m ρ c 2).trans (final1_2 (E1 m ρ) c)) (ix2 r q)).trans (G1_apply ..)

theorem regval2_pre (r : Fin 50000) (q : Fin 64) :
    (B8 m ρ c (Proc.devRef .tc main_v118_0) : S50000x64.Idx → EReal) (ix2 r q) =ᵉ ((B7 m ρ c (Proc.devRef .tc main_v116) : S50000x64.Idx → EReal) (ix2 r q) +ᵉ (B7 m ρ c (Proc.devRef .tc main_v117) : S1x64.Idx → EReal) (ix2 0 q)) := by
  exact (congrFun ((B8_arr m ρ c 2).trans (final2_2 (E2 m ρ) c)) (ix2 r q)).trans (G2_2_apply ..)
theorem regval2_sum (q : Fin 64) :
    (B8 m ρ c (Proc.devRef .tc main_v118_1) : S1x64.Idx → EReal) (ix2 0 q) =ᵉ colSum (fun i j => ((B7 m ρ c (Proc.devRef .tc main_v116) : S50000x64.Idx → EReal) (ix2 i j) +ᵉ (B7 m ρ c (Proc.devRef .tc main_v117) : S1x64.Idx → EReal) (ix2 0 j))) q := by
  exact (congrFun ((B8_arr m ρ c 3).trans (final2_3 (E2 m ρ) c)) (ix2 0 q)).trans (G2_3_apply ..)
/-- The column sums are those of the stage's own first output. -/
theorem regval2_sum' (q : Fin 64) :
    (B8 m ρ c (Proc.devRef .tc main_v118_1) : S1x64.Idx → EReal) (ix2 0 q) =ᵉ colSum (fun i j => (B8 m ρ c (Proc.devRef .tc main_v118_0) : S50000x64.Idx → EReal) (ix2 i j)) q := by
  rw [regval2_sum]
  show colSum _ q = colSum _ q
  unfold colSum
  exact Finset.sum_congr rfl fun i _ => (regval2_pre m ρ c i q).symm

theorem regval3 (q : Fin 64) :
    (B10 m ρ c (Proc.devRef .tc main_v121) : S1x64.Idx → EReal) (ix2 0 q) =ᵉ colSsq (fun i j => (B9 m ρ c (Proc.devRef .tc main_v118_0) : S50000x64.Idx → EReal) (ix2 i j)) (fun j => (B9 m ρ c (Proc.devRef .tc main_v120) : S1x64.Idx → EReal) (ix2 0 j)) q := by
  exact (congrFun ((B10_arr m ρ c 2).trans (final3_2 (E3 m ρ) c)) (ix2 0 q)).trans (G3_2_apply ..)

theorem regval4 (r : Fin 50000) (q : Fin 64) :
    (B12 m ρ c (Proc.devRef .tc main_v126) : S50000x64.Idx → EReal) (ix2 r q) =ᵉ smOne (fun j' => bnAt (fun i j => (B11 m ρ c (Proc.devRef .tc main_v118_0) : S50000x64.Idx → EReal) (ix2 i j)) (fun j => (B11 m ρ c (Proc.devRef .tc main_v120) : S1x64.Idx → EReal) (ix2 0 j)) (fun j => (B11 m ρ c (Proc.devRef .tc main_v123) : S1x64.Idx → EReal) (ix2 0 j))
        (fun j => (B11 m ρ c (Proc.devRef .tc main_v124) : S1x64.Idx → EReal) (ix2 0 j)) (fun j => (B11 m ρ c (Proc.devRef .tc main_v125) : S1x64.Idx → EReal) (ix2 0 j)) r j') q := by
  exact (congrFun ((B12_arr m ρ c 5).trans (final4_5 (E4 m ρ) c)) (ix2 r q)).trans (G4_apply ..)

theorem regval5 (r : Fin 50000) (q : Fin 128) :
    (B14 m ρ c (Proc.devRef .tc main_v141) : S50000x128.Idx → EReal) (ix2 r q)
      =ᵉ ∑ k : Fin 64, (B13 m ρ c (Proc.devRef .tc main_v140) : S50000x64.Idx → EReal) (ix2 r k) *ᵉ (B13 m ρ c (Proc.devRef .tc main_v127) : S64x128.Idx → EReal) (ix2 k q) := by
  exact (congrFun ((B14_arr m ρ c 2).trans (final5_2 (E5 m ρ) c)) (ix2 r q)).trans (G5_apply ..)

theorem regval6_pre (r : Fin 50000) (q : Fin 128) :
    (B16 m ρ c (Proc.devRef .tc main_v143_0) : S50000x128.Idx → EReal) (ix2 r q) =ᵉ ((B15 m ρ c (Proc.devRef .tc main_v141) : S50000x128.Idx → EReal) (ix2 r q) +ᵉ (B15 m ρ c (Proc.devRef .tc main_v142) : S1x128.Idx → EReal) (ix2 0 q)) := by
  exact (congrFun ((B16_arr m ρ c 2).trans (final6_2 (E6 m ρ) c)) (ix2 r q)).trans (G6_2_apply ..)
theorem regval6_sum (q : Fin 128) :
    (B16 m ρ c (Proc.devRef .tc main_v143_1) : S1x128.Idx → EReal) (ix2 0 q) =ᵉ colSum (fun i j => ((B15 m ρ c (Proc.devRef .tc main_v141) : S50000x128.Idx → EReal) (ix2 i j) +ᵉ (B15 m ρ c (Proc.devRef .tc main_v142) : S1x128.Idx → EReal) (ix2 0 j))) q := by
  exact (congrFun ((B16_arr m ρ c 3).trans (final6_3 (E6 m ρ) c)) (ix2 0 q)).trans (G6_3_apply ..)
/-- The column sums are those of the stage's own first output. -/
theorem regval6_sum' (q : Fin 128) :
    (B16 m ρ c (Proc.devRef .tc main_v143_1) : S1x128.Idx → EReal) (ix2 0 q) =ᵉ colSum (fun i j => (B16 m ρ c (Proc.devRef .tc main_v143_0) : S50000x128.Idx → EReal) (ix2 i j)) q := by
  rw [regval6_sum]
  show colSum _ q = colSum _ q
  unfold colSum
  exact Finset.sum_congr rfl fun i _ => (regval6_pre m ρ c i q).symm

theorem regval7 (q : Fin 128) :
    (B18 m ρ c (Proc.devRef .tc main_v146) : S1x128.Idx → EReal) (ix2 0 q) =ᵉ colSsq (fun i j => (B17 m ρ c (Proc.devRef .tc main_v143_0) : S50000x128.Idx → EReal) (ix2 i j)) (fun j => (B17 m ρ c (Proc.devRef .tc main_v145) : S1x128.Idx → EReal) (ix2 0 j)) q := by
  exact (congrFun ((B18_arr m ρ c 2).trans (final7_2 (E7 m ρ) c)) (ix2 0 q)).trans (G7_2_apply ..)

theorem regval8 (r : Fin 50000) (q : Fin 128) :
    (B20 m ρ c (Proc.devRef .tc main_v151) : S50000x128.Idx → EReal) (ix2 r q) =ᵉ smOne (fun j' => bnAt (fun i j => (B19 m ρ c (Proc.devRef .tc main_v143_0) : S50000x128.Idx → EReal) (ix2 i j)) (fun j => (B19 m ρ c (Proc.devRef .tc main_v145) : S1x128.Idx → EReal) (ix2 0 j)) (fun j => (B19 m ρ c (Proc.devRef .tc main_v148) : S1x128.Idx → EReal) (ix2 0 j))
        (fun j => (B19 m ρ c (Proc.devRef .tc main_v149) : S1x128.Idx → EReal) (ix2 0 j)) (fun j => (B19 m ρ c (Proc.devRef .tc main_v150) : S1x128.Idx → EReal) (ix2 0 j)) r j') q := by
  exact (congrFun ((B20_arr m ρ c 5).trans (final8_5 (E8 m ρ) c)) (ix2 r q)).trans (G8_apply ..)

theorem regval9 (r : Fin 50000) (q : Fin 64) :
    (B22 m ρ c (Proc.devRef .tc main_v153) : S50000x64.Idx → EReal) (ix2 r q)
      =ᵉ ∑ k : Fin 128, (B21 m ρ c (Proc.devRef .tc main_v151) : S50000x128.Idx → EReal) (ix2 r k) *ᵉ (B21 m ρ c (Proc.devRef .tc main_v152) : S128x64.Idx → EReal) (ix2 k q) := by
  exact (congrFun ((B22_arr m ρ c 2).trans (final9_2 (E9 m ρ) c)) (ix2 r q)).trans (G9_apply ..)

theorem regval10_pre (r : Fin 50000) (q : Fin 64) :
    (B24 m ρ c (Proc.devRef .tc main_v168_0) : S50000x64.Idx → EReal) (ix2 r q) =ᵉ ((B23 m ρ c (Proc.devRef .tc main_v166) : S50000x64.Idx → EReal) (ix2 r q) +ᵉ (B23 m ρ c (Proc.devRef .tc main_v167) : S1x64.Idx → EReal) (ix2 0 q)) := by
  exact (congrFun ((B24_arr m ρ c 2).trans (final10_2 (E10 m ρ) c)) (ix2 r q)).trans (G10_2_apply ..)
theorem regval10_cum (r : Fin 50000) (q : Fin 64) :
    (B24 m ρ c (Proc.devRef .tc main_v168_1) : S50000x64.Idx → EReal) (ix2 r q) =ᵉ ((B23 m ρ c (Proc.devRef .tc main_v166) : S50000x64.Idx → EReal) (ix2 r q) +ᵉ (B23 m ρ c (Proc.devRef .tc main_v167) : S1x64.Idx → EReal) (ix2 0 q)) := by
  exact (congrFun ((B24_arr m ρ c 3).trans (final10_3 (E10 m ρ) c)) (ix2 r q)).trans (G10_3_apply ..)
theorem regval10_sum (q : Fin 64) :
    (B24 m ρ c (Proc.devRef .tc main_v168_2) : S1x64.Idx → EReal) (ix2 0 q) =ᵉ colSum (fun i j => ((B23 m ρ c (Proc.devRef .tc main_v166) : S50000x64.Idx → EReal) (ix2 i j) +ᵉ (B23 m ρ c (Proc.devRef .tc main_v167) : S1x64.Idx → EReal) (ix2 0 j))) q := by
  exact (congrFun ((B24_arr m ρ c 4).trans (final10_4 (E10 m ρ) c)) (ix2 0 q)).trans (G10_4_apply ..)
/-- The column sums are those of the stage's own first output. -/
theorem regval10_sum' (q : Fin 64) :
    (B24 m ρ c (Proc.devRef .tc main_v168_2) : S1x64.Idx → EReal) (ix2 0 q) =ᵉ colSum (fun i j => (B24 m ρ c (Proc.devRef .tc main_v168_0) : S50000x64.Idx → EReal) (ix2 i j)) q := by
  rw [regval10_sum]
  show colSum _ q = colSum _ q
  unfold colSum
  exact Finset.sum_congr rfl fun i _ => (regval10_pre m ρ c i q).symm

theorem regval11 (q : Fin 64) :
    (B26 m ρ c (Proc.devRef .tc main_v171) : S1x64.Idx → EReal) (ix2 0 q) =ᵉ colSsq (fun i j => (B25 m ρ c (Proc.devRef .tc main_v168_0) : S50000x64.Idx → EReal) (ix2 i j)) (fun j => (B25 m ρ c (Proc.devRef .tc main_v170) : S1x64.Idx → EReal) (ix2 0 j)) q := by
  exact (congrFun ((B26_arr m ρ c 2).trans (final11_2 (E11 m ρ) c)) (ix2 0 q)).trans (G3_2_apply ..)

theorem regval12 (r : Fin 50000) (q : Fin 64) :
    (B28 m ρ c (Proc.devRef .tc main_v176) : S50000x64.Idx → EReal) (ix2 r q) =ᵉ smOne (fun j' => bnAt (fun i j => (B27 m ρ c (Proc.devRef .tc main_v168_0) : S50000x64.Idx → EReal) (ix2 i j)) (fun j => (B27 m ρ c (Proc.devRef .tc main_v170) : S1x64.Idx → EReal) (ix2 0 j)) (fun j => (B27 m ρ c (Proc.devRef .tc main_v173) : S1x64.Idx → EReal) (ix2 0 j))
        (fun j => (B27 m ρ c (Proc.devRef .tc main_v174) : S1x64.Idx → EReal) (ix2 0 j)) (fun j => (B27 m ρ c (Proc.devRef .tc main_v175) : S1x64.Idx → EReal) (ix2 0 j)) r j') q := by
  exact (congrFun ((B28_arr m ρ c 5).trans (final12_5 (E12 m ρ) c)) (ix2 r q)).trans (G12_apply ..)

theorem regval13 (r : Fin 50000) (q : Fin 64) :
    (B30 m ρ c (Proc.devRef .tc main_v178) : S50000x64.Idx → EReal) (ix2 r q)
      =ᵉ ∑ k : Fin 64, (B29 m ρ c (Proc.devRef .tc main_v176) : S50000x64.Idx → EReal) (ix2 r k) *ᵉ (B29 m ρ c (Proc.devRef .tc main_v177) : S64x64.Idx → EReal) (ix2 k q) := by
  exact (congrFun ((B30_arr m ρ c 2).trans (final13_2 (E13 m ρ) c)) (ix2 r q)).trans (G13_apply ..)

theorem regval14_pre (r : Fin 50000) (q : Fin 64) :
    (B32 m ρ c (Proc.devRef .tc main_v193_0) : S50000x64.Idx → EReal) (ix2 r q) =ᵉ ((B31 m ρ c (Proc.devRef .tc main_v191) : S50000x64.Idx → EReal) (ix2 r q) +ᵉ (B31 m ρ c (Proc.devRef .tc main_v192) : S1x64.Idx → EReal) (ix2 0 q)) +ᵉ (B31 m ρ c (Proc.devRef .tc main_v168_1) : S50000x64.Idx → EReal) (ix2 r q) := by
  exact (congrFun ((B32_arr m ρ c 3).trans (final14_3 (E14 m ρ) c)) (ix2 r q)).trans (G14_3_apply ..)
theorem regval14_cum (r : Fin 50000) (q : Fin 64) :
    (B32 m ρ c (Proc.devRef .tc main_v193_1) : S50000x64.Idx → EReal) (ix2 r q) =ᵉ (B31 m ρ c (Proc.devRef .tc main_v168_1) : S50000x64.Idx → EReal) (ix2 r q) +ᵉ ((B31 m ρ c (Proc.devRef .tc main_v191) : S50000x64.Idx → EReal) (ix2 r q) +ᵉ (B31 m ρ c (Proc.devRef .tc main_v192) : S1x64.Idx → EReal) (ix2 0 q)) := by
  exact (congrFun ((B32_arr m ρ c 4).trans (final14_4 (E14 m ρ) c)) (ix2 r q)).trans (G14_4_apply ..)
theorem regval14_sum (q : Fin 64) :
    (B32 m ρ c (Proc.devRef .tc main_v193_2) : S1x64.Idx → EReal) (ix2 0 q) =ᵉ colSum (fun i j => ((B31 m ρ c (Proc.devRef .tc main_v191) : S50000x64.Idx → EReal) (ix2 i j) +ᵉ (B31 m ρ c (Proc.devRef .tc main_v192) : S1x64.Idx → EReal) (ix2 0 j)) +ᵉ (B31 m ρ c (Proc.devRef .tc main_v168_1) : S50000x64.Idx → EReal) (ix2 i j)) q := by
  exact (congrFun ((B32_arr m ρ c 5).trans (final14_5 (E14 m ρ) c)) (ix2 0 q)).trans (G14_5_apply ..)
/-- The column sums are those of the stage's own first output. -/
theorem regval14_sum' (q : Fin 64) :
    (B32 m ρ c (Proc.devRef .tc main_v193_2) : S1x64.Idx → EReal) (ix2 0 q) =ᵉ colSum (fun i j => (B32 m ρ c (Proc.devRef .tc main_v193_0) : S50000x64.Idx → EReal) (ix2 i j)) q := by
  rw [regval14_sum]
  show colSum _ q = colSum _ q
  unfold colSum
  exact Finset.sum_congr rfl fun i _ => (regval14_pre m ρ c i q).symm

theorem regval15 (q : Fin 64) :
    (B34 m ρ c (Proc.devRef .tc main_v196) : S1x64.Idx → EReal) (ix2 0 q) =ᵉ colSsq (fun i j => (B33 m ρ c (Proc.devRef .tc main_v193_0) : S50000x64.Idx → EReal) (ix2 i j)) (fun j => (B33 m ρ c (Proc.devRef .tc main_v195) : S1x64.Idx → EReal) (ix2 0 j)) q := by
  exact (congrFun ((B34_arr m ρ c 2).trans (final15_2 (E15 m ρ) c)) (ix2 0 q)).trans (G3_2_apply ..)

theorem regval16 (r : Fin 50000) (q : Fin 64) :
    (B36 m ρ c (Proc.devRef .tc main_v201) : S50000x64.Idx → EReal) (ix2 r q) =ᵉ smOne (fun j' => bnAt (fun i j => (B35 m ρ c (Proc.devRef .tc main_v193_0) : S50000x64.Idx → EReal) (ix2 i j)) (fun j => (B35 m ρ c (Proc.devRef .tc main_v195) : S1x64.Idx → EReal) (ix2 0 j)) (fun j => (B35 m ρ c (Proc.devRef .tc main_v198) : S1x64.Idx → EReal) (ix2 0 j))
        (fun j => (B35 m ρ c (Proc.devRef .tc main_v199) : S1x64.Idx → EReal) (ix2 0 j)) (fun j => (B35 m ρ c (Proc.devRef .tc main_v200) : S1x64.Idx → EReal) (ix2 0 j)) r j') q := by
  exact (congrFun ((B36_arr m ρ c 5).trans (final16_5 (E16 m ρ) c)) (ix2 r q)).trans (G16_apply ..)

theorem regval17 (r : Fin 50000) (q : Fin 64) :
    (B38 m ρ c (Proc.devRef .tc main_v203) : S50000x64.Idx → EReal) (ix2 r q)
      =ᵉ ∑ k : Fin 64, (B37 m ρ c (Proc.devRef .tc main_v201) : S50000x64.Idx → EReal) (ix2 r k) *ᵉ (B37 m ρ c (Proc.devRef .tc main_v202) : S64x64.Idx → EReal) (ix2 k q) := by
  exact (congrFun ((B38_arr m ρ c 2).trans (final17_2 (E17 m ρ) c)) (ix2 r q)).trans (G17_apply ..)

theorem regval18_pre (r : Fin 50000) (q : Fin 64) :
    (B40 m ρ c (Proc.devRef .tc main_v218_0) : S50000x64.Idx → EReal) (ix2 r q) =ᵉ ((B39 m ρ c (Proc.devRef .tc main_v216) : S50000x64.Idx → EReal) (ix2 r q) +ᵉ (B39 m ρ c (Proc.devRef .tc main_v217) : S1x64.Idx → EReal) (ix2 0 q)) +ᵉ (B39 m ρ c (Proc.devRef .tc main_v193_1) : S50000x64.Idx → EReal) (ix2 r q) := by
  exact (congrFun ((B40_arr m ρ c 3).trans (final18_3 (E18 m ρ) c)) (ix2 r q)).trans (G14_3_apply ..)
theorem regval18_cum (r : Fin 50000) (q : Fin 64) :
    (B40 m ρ c (Proc.devRef .tc main_v218_1) : S50000x64.Idx → EReal) (ix2 r q) =ᵉ (B39 m ρ c (Proc.devRef .tc main_v193_1) : S50000x64.Idx → EReal) (ix2 r q) +ᵉ ((B39 m ρ c (Proc.devRef .tc main_v216) : S50000x64.Idx → EReal) (ix2 r q) +ᵉ (B39 m ρ c (Proc.devRef .tc main_v217) : S1x64.Idx → EReal) (ix2 0 q)) := by
  exact (congrFun ((B40_arr m ρ c 4).trans (final18_4 (E18 m ρ) c)) (ix2 r q)).trans (G14_4_apply ..)
theorem regval18_sum (q : Fin 64) :
    (B40 m ρ c (Proc.devRef .tc main_v218_2) : S1x64.Idx → EReal) (ix2 0 q) =ᵉ colSum (fun i j => ((B39 m ρ c (Proc.devRef .tc main_v216) : S50000x64.Idx → EReal) (ix2 i j) +ᵉ (B39 m ρ c (Proc.devRef .tc main_v217) : S1x64.Idx → EReal) (ix2 0 j)) +ᵉ (B39 m ρ c (Proc.devRef .tc main_v193_1) : S50000x64.Idx → EReal) (ix2 i j)) q := by
  exact (congrFun ((B40_arr m ρ c 5).trans (final18_5 (E18 m ρ) c)) (ix2 0 q)).trans (G14_5_apply ..)
/-- The column sums are those of the stage's own first output. -/
theorem regval18_sum' (q : Fin 64) :
    (B40 m ρ c (Proc.devRef .tc main_v218_2) : S1x64.Idx → EReal) (ix2 0 q) =ᵉ colSum (fun i j => (B40 m ρ c (Proc.devRef .tc main_v218_0) : S50000x64.Idx → EReal) (ix2 i j)) q := by
  rw [regval18_sum]
  show colSum _ q = colSum _ q
  unfold colSum
  exact Finset.sum_congr rfl fun i _ => (regval18_pre m ρ c i q).symm

theorem regval19 (q : Fin 64) :
    (B42 m ρ c (Proc.devRef .tc main_v221) : S1x64.Idx → EReal) (ix2 0 q) =ᵉ colSsq (fun i j => (B41 m ρ c (Proc.devRef .tc main_v218_0) : S50000x64.Idx → EReal) (ix2 i j)) (fun j => (B41 m ρ c (Proc.devRef .tc main_v220) : S1x64.Idx → EReal) (ix2 0 j)) q := by
  exact (congrFun ((B42_arr m ρ c 2).trans (final19_2 (E19 m ρ) c)) (ix2 0 q)).trans (G3_2_apply ..)

theorem regval20 (r : Fin 50000) (q : Fin 64) :
    (B44 m ρ c (Proc.devRef .tc main_v226) : S50000x64.Idx → EReal) (ix2 r q) =ᵉ smOne (fun j' => bnAt (fun i j => (B43 m ρ c (Proc.devRef .tc main_v218_0) : S50000x64.Idx → EReal) (ix2 i j)) (fun j => (B43 m ρ c (Proc.devRef .tc main_v220) : S1x64.Idx → EReal) (ix2 0 j)) (fun j => (B43 m ρ c (Proc.devRef .tc main_v223) : S1x64.Idx → EReal) (ix2 0 j))
        (fun j => (B43 m ρ c (Proc.devRef .tc main_v224) : S1x64.Idx → EReal) (ix2 0 j)) (fun j => (B43 m ρ c (Proc.devRef .tc main_v225) : S1x64.Idx → EReal) (ix2 0 j)) r j') q := by
  exact (congrFun ((B44_arr m ρ c 5).trans (final20_5 (E20 m ρ) c)) (ix2 r q)).trans (G20_apply ..)

theorem regval21 (r : Fin 50000) (q : Fin 64) :
    (B46 m ρ c (Proc.devRef .tc main_v228) : S50000x64.Idx → EReal) (ix2 r q)
      =ᵉ ∑ k : Fin 64, (B45 m ρ c (Proc.devRef .tc main_v226) : S50000x64.Idx → EReal) (ix2 r k) *ᵉ (B45 m ρ c (Proc.devRef .tc main_v227) : S64x64.Idx → EReal) (ix2 k q) := by
  exact (congrFun ((B46_arr m ρ c 2).trans (final21_2 (E21 m ρ) c)) (ix2 r q)).trans (G21_apply ..)

theorem regval22_pre (r : Fin 50000) (q : Fin 64) :
    (B48 m ρ c (Proc.devRef .tc main_v243_0) : S50000x64.Idx → EReal) (ix2 r q) =ᵉ ((B47 m ρ c (Proc.devRef .tc main_v241) : S50000x64.Idx → EReal) (ix2 r q) +ᵉ (B47 m ρ c (Proc.devRef .tc main_v242) : S1x64.Idx → EReal) (ix2 0 q)) +ᵉ (B47 m ρ c (Proc.devRef .tc main_v218_1) : S50000x64.Idx → EReal) (ix2 r q) := by
  exact (congrFun ((B48_arr m ρ c 3).trans (final22_3 (E22 m ρ) c)) (ix2 r q)).trans (G14_3_apply ..)
theorem regval22_cum (r : Fin 50000) (q : Fin 64) :
    (B48 m ρ c (Proc.devRef .tc main_v243_1) : S50000x64.Idx → EReal) (ix2 r q) =ᵉ (B47 m ρ c (Proc.devRef .tc main_v218_1) : S50000x64.Idx → EReal) (ix2 r q) +ᵉ ((B47 m ρ c (Proc.devRef .tc main_v241) : S50000x64.Idx → EReal) (ix2 r q) +ᵉ (B47 m ρ c (Proc.devRef .tc main_v242) : S1x64.Idx → EReal) (ix2 0 q)) := by
  exact (congrFun ((B48_arr m ρ c 4).trans (final22_4 (E22 m ρ) c)) (ix2 r q)).trans (G14_4_apply ..)
theorem regval22_sum (q : Fin 64) :
    (B48 m ρ c (Proc.devRef .tc main_v243_2) : S1x64.Idx → EReal) (ix2 0 q) =ᵉ colSum (fun i j => ((B47 m ρ c (Proc.devRef .tc main_v241) : S50000x64.Idx → EReal) (ix2 i j) +ᵉ (B47 m ρ c (Proc.devRef .tc main_v242) : S1x64.Idx → EReal) (ix2 0 j)) +ᵉ (B47 m ρ c (Proc.devRef .tc main_v218_1) : S50000x64.Idx → EReal) (ix2 i j)) q := by
  exact (congrFun ((B48_arr m ρ c 5).trans (final22_5 (E22 m ρ) c)) (ix2 0 q)).trans (G14_5_apply ..)
/-- The column sums are those of the stage's own first output. -/
theorem regval22_sum' (q : Fin 64) :
    (B48 m ρ c (Proc.devRef .tc main_v243_2) : S1x64.Idx → EReal) (ix2 0 q) =ᵉ colSum (fun i j => (B48 m ρ c (Proc.devRef .tc main_v243_0) : S50000x64.Idx → EReal) (ix2 i j)) q := by
  rw [regval22_sum]
  show colSum _ q = colSum _ q
  unfold colSum
  exact Finset.sum_congr rfl fun i _ => (regval22_pre m ρ c i q).symm

theorem regval23 (q : Fin 64) :
    (B50 m ρ c (Proc.devRef .tc main_v246) : S1x64.Idx → EReal) (ix2 0 q) =ᵉ colSsq (fun i j => (B49 m ρ c (Proc.devRef .tc main_v243_0) : S50000x64.Idx → EReal) (ix2 i j)) (fun j => (B49 m ρ c (Proc.devRef .tc main_v245) : S1x64.Idx → EReal) (ix2 0 j)) q := by
  exact (congrFun ((B50_arr m ρ c 2).trans (final23_2 (E23 m ρ) c)) (ix2 0 q)).trans (G3_2_apply ..)

theorem regval24 (r : Fin 50000) (q : Fin 64) :
    (B52 m ρ c (Proc.devRef .tc main_v251) : S50000x64.Idx → EReal) (ix2 r q) =ᵉ smOne (fun j' => bnAt (fun i j => (B51 m ρ c (Proc.devRef .tc main_v243_0) : S50000x64.Idx → EReal) (ix2 i j)) (fun j => (B51 m ρ c (Proc.devRef .tc main_v245) : S1x64.Idx → EReal) (ix2 0 j)) (fun j => (B51 m ρ c (Proc.devRef .tc main_v248) : S1x64.Idx → EReal) (ix2 0 j))
        (fun j => (B51 m ρ c (Proc.devRef .tc main_v249) : S1x64.Idx → EReal) (ix2 0 j)) (fun j => (B51 m ρ c (Proc.devRef .tc main_v250) : S1x64.Idx → EReal) (ix2 0 j)) r j') q := by
  exact (congrFun ((B52_arr m ρ c 5).trans (final24_5 (E24 m ρ) c)) (ix2 r q)).trans (G24_apply ..)

theorem regval25 (r : Fin 50000) (q : Fin 64) :
    (B54 m ρ c (Proc.devRef .tc main_v253) : S50000x64.Idx → EReal) (ix2 r q)
      =ᵉ ∑ k : Fin 64, (B53 m ρ c (Proc.devRef .tc main_v251) : S50000x64.Idx → EReal) (ix2 r k) *ᵉ (B53 m ρ c (Proc.devRef .tc main_v252) : S64x64.Idx → EReal) (ix2 k q) := by
  exact (congrFun ((B54_arr m ρ c 2).trans (final25_2 (E25 m ρ) c)) (ix2 r q)).trans (G25_apply ..)

theorem regval26_pre (r : Fin 50000) (q : Fin 64) :
    (B56 m ρ c (Proc.devRef .tc main_v268_0) : S50000x64.Idx → EReal) (ix2 r q) =ᵉ ((B55 m ρ c (Proc.devRef .tc main_v266) : S50000x64.Idx → EReal) (ix2 r q) +ᵉ (B55 m ρ c (Proc.devRef .tc main_v267) : S1x64.Idx → EReal) (ix2 0 q)) +ᵉ (B55 m ρ c (Proc.devRef .tc main_v243_1) : S50000x64.Idx → EReal) (ix2 r q) := by
  exact (congrFun ((B56_arr m ρ c 3).trans (final26_3 (E26 m ρ) c)) (ix2 r q)).trans (G14_3_apply ..)
theorem regval26_cum (r : Fin 50000) (q : Fin 64) :
    (B56 m ρ c (Proc.devRef .tc main_v268_1) : S50000x64.Idx → EReal) (ix2 r q) =ᵉ (B55 m ρ c (Proc.devRef .tc main_v243_1) : S50000x64.Idx → EReal) (ix2 r q) +ᵉ ((B55 m ρ c (Proc.devRef .tc main_v266) : S50000x64.Idx → EReal) (ix2 r q) +ᵉ (B55 m ρ c (Proc.devRef .tc main_v267) : S1x64.Idx → EReal) (ix2 0 q)) := by
  exact (congrFun ((B56_arr m ρ c 4).trans (final26_4 (E26 m ρ) c)) (ix2 r q)).trans (G14_4_apply ..)
theorem regval26_sum (q : Fin 64) :
    (B56 m ρ c (Proc.devRef .tc main_v268_2) : S1x64.Idx → EReal) (ix2 0 q) =ᵉ colSum (fun i j => ((B55 m ρ c (Proc.devRef .tc main_v266) : S50000x64.Idx → EReal) (ix2 i j) +ᵉ (B55 m ρ c (Proc.devRef .tc main_v267) : S1x64.Idx → EReal) (ix2 0 j)) +ᵉ (B55 m ρ c (Proc.devRef .tc main_v243_1) : S50000x64.Idx → EReal) (ix2 i j)) q := by
  exact (congrFun ((B56_arr m ρ c 5).trans (final26_5 (E26 m ρ) c)) (ix2 0 q)).trans (G14_5_apply ..)
/-- The column sums are those of the stage's own first output. -/
theorem regval26_sum' (q : Fin 64) :
    (B56 m ρ c (Proc.devRef .tc main_v268_2) : S1x64.Idx → EReal) (ix2 0 q) =ᵉ colSum (fun i j => (B56 m ρ c (Proc.devRef .tc main_v268_0) : S50000x64.Idx → EReal) (ix2 i j)) q := by
  rw [regval26_sum]
  show colSum _ q = colSum _ q
  unfold colSum
  exact Finset.sum_congr rfl fun i _ => (regval26_pre m ρ c i q).symm

theorem regval27 (q : Fin 64) :
    (B58 m ρ c (Proc.devRef .tc main_v271) : S1x64.Idx → EReal) (ix2 0 q) =ᵉ colSsq (fun i j => (B57 m ρ c (Proc.devRef .tc main_v268_0) : S50000x64.Idx → EReal) (ix2 i j)) (fun j => (B57 m ρ c (Proc.devRef .tc main_v270) : S1x64.Idx → EReal) (ix2 0 j)) q := by
  exact (congrFun ((B58_arr m ρ c 2).trans (final27_2 (E27 m ρ) c)) (ix2 0 q)).trans (G3_2_apply ..)

theorem regval28 (r : Fin 50000) (q : Fin 64) :
    (B60 m ρ c (Proc.devRef .tc main_v276) : S50000x64.Idx → EReal) (ix2 r q) =ᵉ smOne (fun j' => bnAt (fun i j => (B59 m ρ c (Proc.devRef .tc main_v268_0) : S50000x64.Idx → EReal) (ix2 i j)) (fun j => (B59 m ρ c (Proc.devRef .tc main_v270) : S1x64.Idx → EReal) (ix2 0 j)) (fun j => (B59 m ρ c (Proc.devRef .tc main_v273) : S1x64.Idx → EReal) (ix2 0 j))
        (fun j => (B59 m ρ c (Proc.devRef .tc main_v274) : S1x64.Idx → EReal) (ix2 0 j)) (fun j => (B59 m ρ c (Proc.devRef .tc main_v275) : S1x64.Idx → EReal) (ix2 0 j)) r j') q := by
  exact (congrFun ((B60_arr m ρ c 5).trans (final28_5 (E28 m ρ) c)) (ix2 r q)).trans (G28_apply ..)

theorem regval29 (r : Fin 50000) (q : Fin 64) :
    (B62 m ρ c (Proc.devRef .tc main_v278) : S50000x64.Idx → EReal) (ix2 r q)
      =ᵉ ∑ k : Fin 64, (B61 m ρ c (Proc.devRef .tc main_v276) : S50000x64.Idx → EReal) (ix2 r k) *ᵉ (B61 m ρ c (Proc.devRef .tc main_v277) : S64x64.Idx → EReal) (ix2 k q) := by
  exact (congrFun ((B62_arr m ρ c 2).trans (final29_2 (E29 m ρ) c)) (ix2 r q)).trans (G29_apply ..)

theorem regval30_pre (r : Fin 50000) (q : Fin 64) :
    (B64 m ρ c (Proc.devRef .tc main_v293_0) : S50000x64.Idx → EReal) (ix2 r q) =ᵉ ((B63 m ρ c (Proc.devRef .tc main_v291) : S50000x64.Idx → EReal) (ix2 r q) +ᵉ (B63 m ρ c (Proc.devRef .tc main_v292) : S1x64.Idx → EReal) (ix2 0 q)) +ᵉ (B63 m ρ c (Proc.devRef .tc main_v268_1) : S50000x64.Idx → EReal) (ix2 r q) := by
  exact (congrFun ((B64_arr m ρ c 3).trans (final30_3 (E30 m ρ) c)) (ix2 r q)).trans (G14_3_apply ..)
theorem regval30_cum (r : Fin 50000) (q : Fin 64) :
    (B64 m ρ c (Proc.devRef .tc main_v293_1) : S50000x64.Idx → EReal) (ix2 r q) =ᵉ (B63 m ρ c (Proc.devRef .tc main_v268_1) : S50000x64.Idx → EReal) (ix2 r q) +ᵉ ((B63 m ρ c (Proc.devRef .tc main_v291) : S50000x64.Idx → EReal) (ix2 r q) +ᵉ (B63 m ρ c (Proc.devRef .tc main_v292) : S1x64.Idx → EReal) (ix2 0 q)) := by
  exact (congrFun ((B64_arr m ρ c 4).trans (final30_4 (E30 m ρ) c)) (ix2 r q)).trans (G14_4_apply ..)
theorem regval30_sum (q : Fin 64) :
    (B64 m ρ c (Proc.devRef .tc main_v293_2) : S1x64.Idx → EReal) (ix2 0 q) =ᵉ colSum (fun i j => ((B63 m ρ c (Proc.devRef .tc main_v291) : S50000x64.Idx → EReal) (ix2 i j) +ᵉ (B63 m ρ c (Proc.devRef .tc main_v292) : S1x64.Idx → EReal) (ix2 0 j)) +ᵉ (B63 m ρ c (Proc.devRef .tc main_v268_1) : S50000x64.Idx → EReal) (ix2 i j)) q := by
  exact (congrFun ((B64_arr m ρ c 5).trans (final30_5 (E30 m ρ) c)) (ix2 0 q)).trans (G14_5_apply ..)
/-- The column sums are those of the stage's own first output. -/
theorem regval30_sum' (q : Fin 64) :
    (B64 m ρ c (Proc.devRef .tc main_v293_2) : S1x64.Idx → EReal) (ix2 0 q) =ᵉ colSum (fun i j => (B64 m ρ c (Proc.devRef .tc main_v293_0) : S50000x64.Idx → EReal) (ix2 i j)) q := by
  rw [regval30_sum]
  show colSum _ q = colSum _ q
  unfold colSum
  exact Finset.sum_congr rfl fun i _ => (regval30_pre m ρ c i q).symm

theorem regval31 (q : Fin 64) :
    (B66 m ρ c (Proc.devRef .tc main_v296) : S1x64.Idx → EReal) (ix2 0 q) =ᵉ colSsq (fun i j => (B65 m ρ c (Proc.devRef .tc main_v293_0) : S50000x64.Idx → EReal) (ix2 i j)) (fun j => (B65 m ρ c (Proc.devRef .tc main_v295) : S1x64.Idx → EReal) (ix2 0 j)) q := by
  exact (congrFun ((B66_arr m ρ c 2).trans (final31_2 (E31 m ρ) c)) (ix2 0 q)).trans (G3_2_apply ..)

theorem regval32 (r : Fin 50000) (q : Fin 64) :
    (B68 m ρ c (Proc.devRef .tc main_v301) : S50000x64.Idx → EReal) (ix2 r q) =ᵉ smOne (fun j' => bnAt (fun i j => (B67 m ρ c (Proc.devRef .tc main_v293_0) : S50000x64.Idx → EReal) (ix2 i j)) (fun j => (B67 m ρ c (Proc.devRef .tc main_v295) : S1x64.Idx → EReal) (ix2 0 j)) (fun j => (B67 m ρ c (Proc.devRef .tc main_v298) : S1x64.Idx → EReal) (ix2 0 j))
        (fun j => (B67 m ρ c (Proc.devRef .tc main_v299) : S1x64.Idx → EReal) (ix2 0 j)) (fun j => (B67 m ρ c (Proc.devRef .tc main_v300) : S1x64.Idx → EReal) (ix2 0 j)) r j') q := by
  exact (congrFun ((B68_arr m ρ c 5).trans (final32_5 (E32 m ρ) c)) (ix2 r q)).trans (G32_apply ..)

theorem regval33 (r : Fin 50000) (q : Fin 64) :
    (B70 m ρ c (Proc.devRef .tc main_v303) : S50000x64.Idx → EReal) (ix2 r q)
      =ᵉ ∑ k : Fin 64, (B69 m ρ c (Proc.devRef .tc main_v301) : S50000x64.Idx → EReal) (ix2 r k) *ᵉ (B69 m ρ c (Proc.devRef .tc main_v302) : S64x64.Idx → EReal) (ix2 k q) := by
  exact (congrFun ((B70_arr m ρ c 2).trans (final33_2 (E33 m ρ) c)) (ix2 r q)).trans (G33_apply ..)

theorem regval34_pre (r : Fin 50000) (q : Fin 64) :
    (B72 m ρ c (Proc.devRef .tc main_v318_0) : S50000x64.Idx → EReal) (ix2 r q) =ᵉ ((B71 m ρ c (Proc.devRef .tc main_v316) : S50000x64.Idx → EReal) (ix2 r q) +ᵉ (B71 m ρ c (Proc.devRef .tc main_v317) : S1x64.Idx → EReal) (ix2 0 q)) +ᵉ (B71 m ρ c (Proc.devRef .tc main_v293_1) : S50000x64.Idx → EReal) (ix2 r q) := by
  exact (congrFun ((B72_arr m ρ c 3).trans (final34_3 (E34 m ρ) c)) (ix2 r q)).trans (G14_3_apply ..)
theorem regval34_cum (r : Fin 50000) (q : Fin 64) :
    (B72 m ρ c (Proc.devRef .tc main_v318_1) : S50000x64.Idx → EReal) (ix2 r q) =ᵉ (B71 m ρ c (Proc.devRef .tc main_v293_1) : S50000x64.Idx → EReal) (ix2 r q) +ᵉ ((B71 m ρ c (Proc.devRef .tc main_v316) : S50000x64.Idx → EReal) (ix2 r q) +ᵉ (B71 m ρ c (Proc.devRef .tc main_v317) : S1x64.Idx → EReal) (ix2 0 q)) := by
  exact (congrFun ((B72_arr m ρ c 4).trans (final34_4 (E34 m ρ) c)) (ix2 r q)).trans (G14_4_apply ..)
theorem regval34_sum (q : Fin 64) :
    (B72 m ρ c (Proc.devRef .tc main_v318_2) : S1x64.Idx → EReal) (ix2 0 q) =ᵉ colSum (fun i j => ((B71 m ρ c (Proc.devRef .tc main_v316) : S50000x64.Idx → EReal) (ix2 i j) +ᵉ (B71 m ρ c (Proc.devRef .tc main_v317) : S1x64.Idx → EReal) (ix2 0 j)) +ᵉ (B71 m ρ c (Proc.devRef .tc main_v293_1) : S50000x64.Idx → EReal) (ix2 i j)) q := by
  exact (congrFun ((B72_arr m ρ c 5).trans (final34_5 (E34 m ρ) c)) (ix2 0 q)).trans (G14_5_apply ..)
/-- The column sums are those of the stage's own first output. -/
theorem regval34_sum' (q : Fin 64) :
    (B72 m ρ c (Proc.devRef .tc main_v318_2) : S1x64.Idx → EReal) (ix2 0 q) =ᵉ colSum (fun i j => (B72 m ρ c (Proc.devRef .tc main_v318_0) : S50000x64.Idx → EReal) (ix2 i j)) q := by
  rw [regval34_sum]
  show colSum _ q = colSum _ q
  unfold colSum
  exact Finset.sum_congr rfl fun i _ => (regval34_pre m ρ c i q).symm

theorem regval35 (q : Fin 64) :
    (B74 m ρ c (Proc.devRef .tc main_v321) : S1x64.Idx → EReal) (ix2 0 q) =ᵉ colSsq (fun i j => (B73 m ρ c (Proc.devRef .tc main_v318_0) : S50000x64.Idx → EReal) (ix2 i j)) (fun j => (B73 m ρ c (Proc.devRef .tc main_v320) : S1x64.Idx → EReal) (ix2 0 j)) q := by
  exact (congrFun ((B74_arr m ρ c 2).trans (final35_2 (E35 m ρ) c)) (ix2 0 q)).trans (G3_2_apply ..)

theorem regval36 (r : Fin 50000) (q : Fin 64) :
    (B76 m ρ c (Proc.devRef .tc main_v326) : S50000x64.Idx → EReal) (ix2 r q) =ᵉ smOne (fun j' => bnAt (fun i j => (B75 m ρ c (Proc.devRef .tc main_v318_0) : S50000x64.Idx → EReal) (ix2 i j)) (fun j => (B75 m ρ c (Proc.devRef .tc main_v320) : S1x64.Idx → EReal) (ix2 0 j)) (fun j => (B75 m ρ c (Proc.devRef .tc main_v323) : S1x64.Idx → EReal) (ix2 0 j))
        (fun j => (B75 m ρ c (Proc.devRef .tc main_v324) : S1x64.Idx → EReal) (ix2 0 j)) (fun j => (B75 m ρ c (Proc.devRef .tc main_v325) : S1x64.Idx → EReal) (ix2 0 j)) r j') q := by
  exact (congrFun ((B76_arr m ρ c 5).trans (final36_5 (E36 m ρ) c)) (ix2 r q)).trans (G36_apply ..)

theorem regval37 (r : Fin 50000) (q : Fin 64) :
    (B78 m ρ c (Proc.devRef .tc main_v328) : S50000x64.Idx → EReal) (ix2 r q)
      =ᵉ ∑ k : Fin 64, (B77 m ρ c (Proc.devRef .tc main_v326) : S50000x64.Idx → EReal) (ix2 r k) *ᵉ (B77 m ρ c (Proc.devRef .tc main_v327) : S64x64.Idx → EReal) (ix2 k q) := by
  exact (congrFun ((B78_arr m ρ c 2).trans (final37_2 (E37 m ρ) c)) (ix2 r q)).trans (G37_apply ..)

theorem regval38_pre (r : Fin 50000) (q : Fin 64) :
    (B80 m ρ c (Proc.devRef .tc main_v343_0) : S50000x64.Idx → EReal) (ix2 r q) =ᵉ ((B79 m ρ c (Proc.devRef .tc main_v341) : S50000x64.Idx → EReal) (ix2 r q) +ᵉ (B79 m ρ c (Proc.devRef .tc main_v342) : S1x64.Idx → EReal) (ix2 0 q)) +ᵉ (B79 m ρ c (Proc.devRef .tc main_v318_1) : S50000x64.Idx → EReal) (ix2 r q) := by
  exact (congrFun ((B80_arr m ρ c 3).trans (final38_3 (E38 m ρ) c)) (ix2 r q)).trans (G14_3_apply ..)
theorem regval38_cum (r : Fin 50000) (q : Fin 64) :
    (B80 m ρ c (Proc.devRef .tc main_v343_1) : S50000x64.Idx → EReal) (ix2 r q) =ᵉ (B79 m ρ c (Proc.devRef .tc main_v318_1) : S50000x64.Idx → EReal) (ix2 r q) +ᵉ ((B79 m ρ c (Proc.devRef .tc main_v341) : S50000x64.Idx → EReal) (ix2 r q) +ᵉ (B79 m ρ c (Proc.devRef .tc main_v342) : S1x64.Idx → EReal) (ix2 0 q)) := by
  exact (congrFun ((B80_arr m ρ c 4).trans (final38_4 (E38 m ρ) c)) (ix2 r q)).trans (G14_4_apply ..)
theorem regval38_sum (q : Fin 64) :
    (B80 m ρ c (Proc.devRef .tc main_v343_2) : S1x64.Idx → EReal) (ix2 0 q) =ᵉ colSum (fun i j => ((B79 m ρ c (Proc.devRef .tc main_v341) : S50000x64.Idx → EReal) (ix2 i j) +ᵉ (B79 m ρ c (Proc.devRef .tc main_v342) : S1x64.Idx → EReal) (ix2 0 j)) +ᵉ (B79 m ρ c (Proc.devRef .tc main_v318_1) : S50000x64.Idx → EReal) (ix2 i j)) q := by
  exact (congrFun ((B80_arr m ρ c 5).trans (final38_5 (E38 m ρ) c)) (ix2 0 q)).trans (G14_5_apply ..)
/-- The column sums are those of the stage's own first output. -/
theorem regval38_sum' (q : Fin 64) :
    (B80 m ρ c (Proc.devRef .tc main_v343_2) : S1x64.Idx → EReal) (ix2 0 q) =ᵉ colSum (fun i j => (B80 m ρ c (Proc.devRef .tc main_v343_0) : S50000x64.Idx → EReal) (ix2 i j)) q := by
  rw [regval38_sum]
  show colSum _ q = colSum _ q
  unfold colSum
  exact Finset.sum_congr rfl fun i _ => (regval38_pre m ρ c i q).symm

theorem regval39 (q : Fin 64) :
    (B82 m ρ c (Proc.devRef .tc main_v346) : S1x64.Idx → EReal) (ix2 0 q) =ᵉ colSsq (fun i j => (B81 m ρ c (Proc.devRef .tc main_v343_0) : S50000x64.Idx → EReal) (ix2 i j)) (fun j => (B81 m ρ c (Proc.devRef .tc main_v345) : S1x64.Idx → EReal) (ix2 0 j)) q := by
  exact (congrFun ((B82_arr m ρ c 2).trans (final39_2 (E39 m ρ) c)) (ix2 0 q)).trans (G3_2_apply ..)

theorem regval40 (r : Fin 50000) (q : Fin 64) :
    (B84 m ρ c (Proc.devRef .tc main_v351) : S50000x64.Idx → EReal) (ix2 r q) =ᵉ smOne (fun j' => bnAt (fun i j => (B83 m ρ c (Proc.devRef .tc main_v343_0) : S50000x64.Idx → EReal) (ix2 i j)) (fun j => (B83 m ρ c (Proc.devRef .tc main_v345) : S1x64.Idx → EReal) (ix2 0 j)) (fun j => (B83 m ρ c (Proc.devRef .tc main_v348) : S1x64.Idx → EReal) (ix2 0 j))
        (fun j => (B83 m ρ c (Proc.devRef .tc main_v349) : S1x64.Idx → EReal) (ix2 0 j)) (fun j => (B83 m ρ c (Proc.devRef .tc main_v350) : S1x64.Idx → EReal) (ix2 0 j)) r j') q := by
  exact (congrFun ((B84_arr m ρ c 5).trans (final40_5 (E40 m ρ) c)) (ix2 r q)).trans (G40_apply ..)

theorem regval41 (r : Fin 50000) (q : Fin 64) :
    (B86 m ρ c (Proc.devRef .tc main_v353) : S50000x64.Idx → EReal) (ix2 r q)
      =ᵉ ∑ k : Fin 64, (B85 m ρ c (Proc.devRef .tc main_v351) : S50000x64.Idx → EReal) (ix2 r k) *ᵉ (B85 m ρ c (Proc.devRef .tc main_v352) : S64x64.Idx → EReal) (ix2 k q) := by
  exact (congrFun ((B86_arr m ρ c 2).trans (final41_2 (E41 m ρ) c)) (ix2 r q)).trans (G41_apply ..)

theorem regval42_pre (r : Fin 50000) (q : Fin 64) :
    (B88 m ρ c (Proc.devRef .tc main_v368_0) : S50000x64.Idx → EReal) (ix2 r q) =ᵉ ((B87 m ρ c (Proc.devRef .tc main_v366) : S50000x64.Idx → EReal) (ix2 r q) +ᵉ (B87 m ρ c (Proc.devRef .tc main_v367) : S1x64.Idx → EReal) (ix2 0 q)) +ᵉ (B87 m ρ c (Proc.devRef .tc main_v343_1) : S50000x64.Idx → EReal) (ix2 r q) := by
  exact (congrFun ((B88_arr m ρ c 3).trans (final42_3 (E42 m ρ) c)) (ix2 r q)).trans (G14_3_apply ..)
theorem regval42_cum (r : Fin 50000) (q : Fin 64) :
    (B88 m ρ c (Proc.devRef .tc main_v368_1) : S50000x64.Idx → EReal) (ix2 r q) =ᵉ (B87 m ρ c (Proc.devRef .tc main_v343_1) : S50000x64.Idx → EReal) (ix2 r q) +ᵉ ((B87 m ρ c (Proc.devRef .tc main_v366) : S50000x64.Idx → EReal) (ix2 r q) +ᵉ (B87 m ρ c (Proc.devRef .tc main_v367) : S1x64.Idx → EReal) (ix2 0 q)) := by
  exact (congrFun ((B88_arr m ρ c 4).trans (final42_4 (E42 m ρ) c)) (ix2 r q)).trans (G14_4_apply ..)
theorem regval42_sum (q : Fin 64) :
    (B88 m ρ c (Proc.devRef .tc main_v368_2) : S1x64.Idx → EReal) (ix2 0 q) =ᵉ colSum (fun i j => ((B87 m ρ c (Proc.devRef .tc main_v366) : S50000x64.Idx → EReal) (ix2 i j) +ᵉ (B87 m ρ c (Proc.devRef .tc main_v367) : S1x64.Idx → EReal) (ix2 0 j)) +ᵉ (B87 m ρ c (Proc.devRef .tc main_v343_1) : S50000x64.Idx → EReal) (ix2 i j)) q := by
  exact (congrFun ((B88_arr m ρ c 5).trans (final42_5 (E42 m ρ) c)) (ix2 0 q)).trans (G14_5_apply ..)
/-- The column sums are those of the stage's own first output. -/
theorem regval42_sum' (q : Fin 64) :
    (B88 m ρ c (Proc.devRef .tc main_v368_2) : S1x64.Idx → EReal) (ix2 0 q) =ᵉ colSum (fun i j => (B88 m ρ c (Proc.devRef .tc main_v368_0) : S50000x64.Idx → EReal) (ix2 i j)) q := by
  rw [regval42_sum]
  show colSum _ q = colSum _ q
  unfold colSum
  exact Finset.sum_congr rfl fun i _ => (regval42_pre m ρ c i q).symm

theorem regval43 (q : Fin 64) :
    (B90 m ρ c (Proc.devRef .tc main_v371) : S1x64.Idx → EReal) (ix2 0 q) =ᵉ colSsq (fun i j => (B89 m ρ c (Proc.devRef .tc main_v368_0) : S50000x64.Idx → EReal) (ix2 i j)) (fun j => (B89 m ρ c (Proc.devRef .tc main_v370) : S1x64.Idx → EReal) (ix2 0 j)) q := by
  exact (congrFun ((B90_arr m ρ c 2).trans (final43_2 (E43 m ρ) c)) (ix2 0 q)).trans (G3_2_apply ..)

theorem regval44 (r : Fin 50000) (q : Fin 64) :
    (B92 m ρ c (Proc.devRef .tc main_v376) : S50000x64.Idx → EReal) (ix2 r q) =ᵉ smOne (fun j' => bnAt (fun i j => (B91 m ρ c (Proc.devRef .tc main_v368_0) : S50000x64.Idx → EReal) (ix2 i j)) (fun j => (B91 m ρ c (Proc.devRef .tc main_v370) : S1x64.Idx → EReal) (ix2 0 j)) (fun j => (B91 m ρ c (Proc.devRef .tc main_v373) : S1x64.Idx → EReal) (ix2 0 j))
        (fun j => (B91 m ρ c (Proc.devRef .tc main_v374) : S1x64.Idx → EReal) (ix2 0 j)) (fun j => (B91 m ρ c (Proc.devRef .tc main_v375) : S1x64.Idx → EReal) (ix2 0 j)) r j') q := by
  exact (congrFun ((B92_arr m ρ c 5).trans (final44_5 (E44 m ρ) c)) (ix2 r q)).trans (G44_apply ..)

theorem regval45 (r : Fin 50000) (q : Fin 32) :
    (B94 m ρ c (Proc.devRef .tc main_v378) : S50000x32.Idx → EReal) (ix2 r q)
      =ᵉ ∑ k : Fin 64, (B93 m ρ c (Proc.devRef .tc main_v376) : S50000x64.Idx → EReal) (ix2 r k) *ᵉ (B93 m ρ c (Proc.devRef .tc main_v377) : S64x32.Idx → EReal) (ix2 k q) := by
  exact (congrFun ((B94_arr m ρ c 2).trans (final45_2 (E45 m ρ) c)) (ix2 r q)).trans (G45_apply ..)

theorem regval46_s (r : Fin 50000) (q : Fin 32) :
    (B96 m ρ c (Proc.devRef .tc main_v393_0) : S50000x32.Idx → EReal) (ix2 r q) =ᵉ smOne (fun j' => (B95 m ρ c (Proc.devRef .tc main_v391) : S50000x32.Idx → EReal) (ix2 r j') +ᵉ (B95 m ρ c (Proc.devRef .tc main_v392) : S1x32.Idx → EReal) (ix2 0 j')) q := by
  exact (congrFun ((B96_arr m ρ c 2).trans (final46_2 (E46 m ρ) c)) (ix2 r q)).trans (G46_2_apply ..)
theorem regval46_sum (q : Fin 32) :
    (B96 m ρ c (Proc.devRef .tc main_v393_1) : S1x32.Idx → EReal) (ix2 0 q) =ᵉ colSum (fun i j => smOne (fun j' => (B95 m ρ c (Proc.devRef .tc main_v391) : S50000x32.Idx → EReal) (ix2 i j') +ᵉ (B95 m ρ c (Proc.devRef .tc main_v392) : S1x32.Idx → EReal) (ix2 0 j')) j) q := by
  exact (congrFun ((B96_arr m ρ c 3).trans (final46_3 (E46 m ρ) c)) (ix2 0 q)).trans (G46_3_apply ..)
theorem regval46_sum' (q : Fin 32) :
    (B96 m ρ c (Proc.devRef .tc main_v393_1) : S1x32.Idx → EReal) (ix2 0 q) =ᵉ colSum (fun i j => (B96 m ρ c (Proc.devRef .tc main_v393_0) : S50000x32.Idx → EReal) (ix2 i j)) q := by
  rw [regval46_sum]
  show colSum _ q = colSum _ q
  unfold colSum
  exact Finset.sum_congr rfl fun i _ => (regval46_s m ρ c i q).symm

theorem regval47 (q : Fin 32) :
    (B98 m ρ c (Proc.devRef .tc main_v396) : S1x32.Idx → EReal) (ix2 0 q) =ᵉ colSsq (fun i j => (B97 m ρ c (Proc.devRef .tc main_v393_0) : S50000x32.Idx → EReal) (ix2 i j)) (fun j => (B97 m ρ c (Proc.devRef .tc main_v395) : S1x32.Idx → EReal) (ix2 0 j)) q := by
  exact (congrFun ((B98_arr m ρ c 2).trans (final47_2 (E47 m ρ) c)) (ix2 0 q)).trans (G47_2_apply ..)

theorem regval48 (r : Fin 50000) :
    (B100 m ρ c (Proc.devRef .tc main_v401) : S50000x1.Idx → EReal) (ix2 r 0) =ᵉ ∑ k : Fin 32, bnAt (fun i j => (B99 m ρ c (Proc.devRef .tc main_v393_0) : S50000x32.Idx → EReal) (ix2 i j)) (fun j => (B99 m ρ c (Proc.devRef .tc main_v395) : S1x32.Idx → EReal) (ix2 0 j)) (fun j => (B99 m ρ c (Proc.devRef .tc main_v398) : S1x32.Idx → EReal) (ix2 0 j))
        (fun j => (B99 m ρ c (Proc.devRef .tc main_v399) : S1x32.Idx → EReal) (ix2 0 j)) (fun j => (B99 m ρ c (Proc.devRef .tc main_v400) : S1x32.Idx → EReal) (ix2 0 j)) r k *ᵉ (B99 m ρ c (Proc.devRef .tc main_arg26) : S32x1.Idx → EReal) (ix2 k 0) := by
  exact (congrFun ((B100_arr m ρ c 6).trans (final48_6 (E48 m ρ) c)) (ix2 r 0)).trans (G48_apply ..)

end Cert.KernelIdeal.Hand

end
-- ==== Proof.Spec.lean ====
/-
  The mathematics of the bridge between the two idealized programs, over the extended reals.

  A graph-convolution layer is a linear map on the feature axis composed with a weighted
  aggregation over the edges: row `i` of the aggregate is the sum, over the edges `e` whose
  destination is `i`, of `norm e` times row `src e` of the table. One program aggregates first
  and applies the linear map after; the other applies the linear map first. Over the reals the
  two agree by linearity,
      ∑ k, (∑ e, n e * x (s e) k) * w k j = ∑ e, n e * ∑ k, x (s e) k * w k j .
  On the extended reals multiplication does not distribute over addition at the infinities
  (`(⊤ + ⊥) * a` against `⊤ * a + ⊥ * a`), so the law is stated for tables, norms and weights
  whose every entry is a real number, and proved by moving to `ℝ`.

  Everything here is over plain coordinate types `Fin n → Fin c → EReal`, in ordinary finite sums;
  an array `X` of a program is read by its coordinates as `fun i k => X (ix2 i k)` where a law is used.
-/
import Mathlib.Data.EReal.Operations
import Mathlib.Algebra.BigOperators.Ring.Finset
import Idealize.ShloMosaic.PureOps.Ideal
import Idealize.ShloMosaic.Lib.ValueIdx

noncomputable section

open scoped BigOperators

namespace Cert.Spec

open Idealize.ShloMosaic Idealize.ShloMosaic.ValueIdx

/-! ## Extended reals that are real numbers -/

/-- An extended real that is (the image of) a real number: neither infinity. -/
def IsReal (a : EReal) : Prop := ∃ r : ℝ, a = (r : EReal)

theorem isReal_coe (r : ℝ) : IsReal (r : EReal) := ⟨r, rfl⟩

theorem isReal_iff {a : EReal} : IsReal a ↔ a ≠ ⊤ ∧ a ≠ ⊥ := by
  constructor
  · rintro ⟨r, rfl⟩; exact ⟨EReal.coe_ne_top r, EReal.coe_ne_bot r⟩
  · rintro ⟨ht, hb⟩; exact ⟨a.toReal, (EReal.coe_toReal ht hb).symm⟩

theorem isReal_zero : IsReal 0 := ⟨0, rfl⟩
theorem isReal_one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.neg {a : EReal} (ha : IsReal a) : IsReal (-a) := by
  obtain ⟨r, rfl⟩ := ha; exact ⟨-r, (EReal.coe_neg r).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

/-- The coercion `ℝ → EReal` commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-! ## The two stages, by coordinates -/

variable {n m c d : ℕ}

/-- The linear map on the feature axis: `out[i, j] = ∑ k, x[i, k] * w[k, j]`. -/
def linear (x : Fin n → Fin c → EReal) (w : Fin c → Fin d → EReal) : Fin n → Fin d → EReal :=
  fun i j => ∑ k, x i k * w k j

/-- The weighted aggregation over the edges: row `i` is the sum over the edges `e` with
    `dst e = some i` of `nrm e` times row `src e` of `x` (a scatter-add into zeros of the
    norm-scaled gathered rows). The destination is PARTIAL: an edge whose destination is no row
    of the table (`dst e = none`) contributes to no row, as an accumulating scatter drops an
    update that lands outside its operand. -/
def segsum (src : Fin m → Fin n) (dst : Fin m → Option (Fin n)) (nrm : Fin m → EReal)
    (x : Fin n → Fin c → EReal) : Fin n → Fin c → EReal :=
  fun i k => ∑ e ∈ Finset.univ.filter (fun e => dst e = some i), nrm e * x (src e) k

/-- AGGREGATE FIRST = TRANSFORM FIRST, when every norm, table entry and weight is a real number. -/
theorem linear_segsum (src : Fin m → Fin n) (dst : Fin m → Option (Fin n)) (nrm : Fin m → EReal)
    (x : Fin n → Fin c → EReal) (w : Fin c → Fin d → EReal) (hn : ∀ e, IsReal (nrm e)) (hx : ∀ i k, IsReal (x i k))
    (hw : ∀ k j, IsReal (w k j)) :
    linear (segsum src dst nrm x) w = segsum src dst nrm (linear x w) := by
  choose nr hnr using hn
  choose xr hxr using hx
  choose wr hwr using hw
  funext i j
  simp only [linear, segsum, hnr, hxr, hwr]
  simp only [← EReal.coe_mul, ← coe_sum]
  rw [EReal.coe_eq_coe_iff]
  simp only [Finset.sum_mul, Finset.mul_sum]
  rw [Finset.sum_comm]
  refine Finset.sum_congr rfl fun e _ => Finset.sum_congr rfl fun k _ => ?_
  ring

theorem isReal_linear {x : Fin n → Fin c → EReal} {w : Fin c → Fin d → EReal}
    (hx : ∀ i k, IsReal (x i k)) (hw : ∀ k j, IsReal (w k j)) (i : Fin n) (j : Fin d) :
    IsReal (linear x w i j) :=
  isReal_sum _ _ fun k _ => (hx i k).mul (hw k j)

theorem isReal_segsum {src : Fin m → Fin n} {dst : Fin m → Option (Fin n)} {nrm : Fin m → EReal}
    {x : Fin n → Fin c → EReal}
    (hn : ∀ e, IsReal (nrm e)) (hx : ∀ i k, IsReal (x i k)) (i : Fin n) (k : Fin c) :
    IsReal (segsum src dst nrm x i k) :=
  isReal_sum _ _ fun e _ => (hn e).mul (hx (src e) k)

end Cert.Spec

end
-- ==== Proof.LibRowGather.lean ====
/-
  A stablehlo.gather that picks whole rows of a rank-2 table, read at an index.

  What `table[idx]` of a table `[N, C]` at a vector of `n` row numbers lowers to: a gather whose start indices are the
  `[n, 1]` column of row numbers, whose operand axis 0 is collapsed and start-indexed, whose operand axis 1 is the one
  offset axis (result axis 1), with slice sizes `[1, C]`, no batching axes and the index vector on axis 1 of the
  start indices.  Result element `(p, q)` is the table at row "start index `p` read SIGNED and CLAMPED into
  `[0, N − 1]`" and column `q`: on axis 0 the slice has one row, so the clamp is to `N − 1`; on axis 1 the slice is the
  whole axis, the start is 0 and the offset coordinate is `q`.
-/
import Idealize.ShloMosaic.PureOps.ShapeOps
import Idealize.ShloMosaic.Lib.ValueIdx

namespace RowGather

open Idealize.ShloMosaic Idealize.ShloMosaic.ValueIdx

/-- THE ROW GATHER READ AT `(p, q)`.  `d` is any record of dimension numbers over an operand `[N, C]`, start indices
    `[n, 1]` and a result `[n, C]` whose lists are the row-take's (`hoff` … `hivd`: each holds by `rfl` for a printed
    record): offset axes `[1]`, collapsed slice axes `[0]`, no operand batching axes, start index map `[0]`, index vector
    on axis 1.  The result at `(p, q)` is the operand at row `min (toInt (idx (p, 0))).toNat (N − 1)` — the start index read
    as a signed integer, a negative one reading row 0 and one past the end reading the last row — and column `q`. -/
theorem rowGather_apply {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ix2 p (0 : Fin 1))).toInt.toNat (N - 1), by omega⟩ q) := by
  unfold Host.gather
  congr 1
  funext a
  have key0 : ∀ (l : List (Fin 2)) (k : Nat) (h : k < l.length), l = [0] →
      ((ix2 p q : (⟨2, ![n, C]⟩ : Shape).Idx) l[k]).val = p.val := fun l k h hl => by
    subst hl
    obtain rfl : k = 0 := by simpa using h
    rfl
  have key1 : ∀ (l : List (Fin 2)) (k : Nat) (h : k < l.length), l = [1] →
      ((ix2 p q : (⟨2, ![n, C]⟩ : Shape).Idx) l[k]).val = q.val := fun l k h hl => by
    subst hl
    obtain rfl : k = 0 := by simpa using h
    rfl
  have hb : ∀ a : Fin 2, a ∉ d.operandBatchingDims := fun a => by rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 p (0 : Fin 1))).toInt.toNat (N - 1)
    rw [hsl]
    congr 3
    congr 1
    funext b
    match b with
    | ⟨0, _⟩ =>
      -- the batch coordinate: result axis 0 is the one batch axis, reading the start indices' axis 0
      unfold GatherDims.siIdx
      rw [dif_neg (by rw [hivd]; simp)]
      unfold GatherDims.siCoord
      apply Fin.ext
      simp only [Fin.val_cast]
      have hbatch : d.batchDims = [0] := by
        show Shape.kept _ d.offsetDims = [0]
        rw [hoff]; rfl
      exact key0 d.batchDims _ _ hbatch
    | ⟨1, _⟩ =>
      -- the index vector's axis: component 0 of the start index, the place of operand axis 0 in the start index map
      unfold GatherDims.siIdx
      rw [dif_pos (by rw [hivd])]
      apply Fin.ext
      show List.idxOf (0 : Fin 2) d.startIndexMap = 0
      rw [hsim]; simp
  | ⟨1, _⟩ =>
    -- axis 1 is not start-indexed (start 0) and is the one kept axis: the offset coordinate is the result's on axis 1
    apply Fin.ext
    have hk : (1 : Fin 2) ∈ d.sKept := by
      rw [GatherDims.mem_sKept, hcoll]; exact ⟨by simp, hb 1⟩
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1)]
    unfold GatherDims.start GatherDims.offCoord
    rw [dif_neg hm, dif_pos hk]
    simp only [Nat.add_zero, Nat.zero_add]
    exact key1 d.offsetDims _ _ hoff

end RowGather
-- ==== Proof.Algebra.lean ====
/-
  The aggregate-first law over the host operations of the two programs, at the ideal values.

  Both programs spell the weighted aggregation of a table `X : [N, C]` over `m` edges as
      scatter-add (zeros [N, C]) (column of dst) (norm broadcast to [m, C] * gather X (column of src)),
  a `stablehlo.gather` of whole rows, an elementwise product with the edge norms, and an accumulating
  `stablehlo.scatter` of whole rows into zeros. Read at an index `(i, k)` this is `Spec.segsum`:
  the sum, over the edges `e` whose destination word names row `i`, of `norm e * X (src e, k)`. The
  two index maps differ in their corners, as the two operations do: the gather reads its start index
  SIGNED and CLAMPED into `[0, N − 1]` (`srcOf`), the scatter reads it signed and NOT clamped and drops
  an update whose row is outside `[0, N)` (`dstOf`, a partial map).

  With the host's `dot_general` of `X : [N, K]` by `Wt : [K, M]` read as `Spec.linear`, the law
  `Spec.linear_segsum` then says: the aggregate of `X` multiplied by `Wt` is the aggregate of
  `X · Wt`, when every entry of `X`, `Wt` and the norms is a real number.

  Every statement is over ANY record of dimension numbers whose lists are the printed ones (each
  list hypothesis holds by `rfl` for a printed record) and any proof of a broadcast's side condition,
  so that it applies to either program's own names.
-/
import Idealize.ShloMosaic.PureOps.Ideal
import Idealize.ShloMosaic.PureOps.Ideal.Laws
import Idealize.ShloMosaic.Lib.ValueIdx
import Idealize.ShloMosaic.Lib.StackMember
import proofs.«408084_j48395691492010_3_alg».proof.Proof.Spec
import Idealize.ShloMosaic.Lib.ReduceAll
import proofs.«408084_j48395691492010_3_alg».proof.Pre_finite_inputs
import proofs.«408084_j48395691492010_3_alg».proof.Proof.LibRowGather

noncomputable section

open scoped BigOperators

namespace Cert.Algebra

open Idealize.ShloMosaic Idealize.ShloMosaic.ValueIdx Cert.Spec

/-! ## The two row maps -/

/-- The table row a SCATTER's start word names for edge `e`: the integer `t e` itself, and no row when
    it is outside `[0, N)` (the update is dropped). -/
def dstOf {m : Nat} (N : Nat) (t : Fin m → Int) (e : Fin m) : Option (Fin N) :=
  if h : 0 ≤ t e ∧ t e < N then some ⟨(t e).toNat, by omega⟩ else none

/-- The table row a GATHER's start word names for edge `e`: the integer `t e` clamped into
    `[0, N − 1]`. -/
def srcOf {m : Nat} (N : Nat) (hN : 0 < N) (t : Fin m → Int) (e : Fin m) : Fin N :=
  ⟨min (t e).toNat (N - 1), by omega⟩

theorem ix2_inj {n0 n1 : Nat} {a a' : Fin n0} {b b' : Fin n1} :
    (ix2 a b : (⟨2, ![n0, n1]⟩ : Shape).Idx) = ix2 a' b' ↔ a = a' ∧ b = b' :=
  ⟨fun h => ⟨congrFun h 0, congrFun h 1⟩, fun ⟨h1, h2⟩ => by rw [h1, h2]⟩

/-! ## A scatter of whole rows, read at an index -/

section Scatter
variable {N C m w : Nat} (d : ScatterDims ⟨2, ![N, C]⟩ ⟨2, ![m, 1]⟩ ⟨2, ![m, C]⟩)
    (hu : d.updateWindowDims = [1]) (hi : d.insertedWindowDims = [0])
    (hs : d.scatterDimsToOperandDims = [0]) (hv : d.indexVectorDim = 1)

include hu hs hv in
/-- On operand axis 0 the window of update `(e, k)` starts at the start word `(e, 0)`, read signed. -/
theorem scatter_start0 (idx : IVec ⟨2, ![m, 1]⟩ w) (e : Fin m) (k : Fin C) :
    d.start (ix2 e k) idx 0 = (idx (ix2 e (0 : Fin 1))).toInt := by
  unfold ScatterDims.start
  rw [dif_pos (by rw [hs]; exact List.mem_singleton.mpr rfl)]
  congr 2
  funext b
  match b with
  | ⟨0, _⟩ =>
    -- the scatter coordinate: update axis 0 is the one scatter axis, reading the start indices' axis 0
    unfold ScatterDims.siIdx
    rw [dif_neg (by rw [hv]; simp)]
    unfold ScatterDims.siCoord
    apply Fin.ext
    simp only [Fin.val_cast]
    have key0 : ∀ (l : List (Fin 2)) (p : Nat) (h : p < l.length), l = [0] →
        ((ix2 e k : (⟨2, ![m, C]⟩ : Shape).Idx) l[p]).val = e.val := fun l p h hl => by
      subst hl
      obtain rfl : p = 0 := by simpa using h
      rfl
    have husc : d.uScatter = [0] := by
      show Shape.kept _ d.updateWindowDims = [0]
      rw [hu]; rfl
    exact key0 d.uScatter _ _ husc
  | ⟨1, _⟩ =>
    -- the index vector's axis: component 0 of the start index
    unfold ScatterDims.siIdx
    rw [dif_pos (by rw [hv])]
    apply Fin.ext
    show List.idxOf (0 : Fin 2) d.scatterDimsToOperandDims = 0
    rw [hs]; simp

include hs in
/-- Operand axis 1 is not start-indexed. -/
theorem scatter_start1 (idx : IVec ⟨2, ![m, 1]⟩ w) (j : (⟨2, ![m, C]⟩ : Shape).Idx) :
    d.start j idx 1 = 0 := by
  unfold ScatterDims.start
  rw [dif_neg (by rw [hs]; simp)]

include hi in
theorem scatter_sKept : d.sKept = [1] := by
  show Shape.kept _ d.insertedWindowDims = [1]
  rw [hi]; rfl

include hi in
/-- Operand axis 0 is inserted: no window coordinate. -/
theorem scatter_window0 (j : (⟨2, ![m, C]⟩ : Shape).Idx) : d.window j 0 = 0 := by
  unfold ScatterDims.window
  rw [dif_neg (by rw [scatter_sKept d hi]; simp)]

include hu hi in
/-- Operand axis 1 is the one window axis: the window coordinate is the update's on axis 1. -/
theorem scatter_window1 (e : Fin m) (k : Fin C) : d.window (ix2 e k) 1 = k.val := by
  unfold ScatterDims.window
  rw [dif_pos (by rw [scatter_sKept d hi]; exact List.mem_singleton.mpr rfl)]
  have key1 : ∀ (l : List (Fin 2)) (p : Nat) (h : p < l.length), l = [1] →
      ((ix2 e k : (⟨2, ![m, C]⟩ : Shape).Idx) l[p]).val = k.val := fun l p h hl => by
    subst hl
    obtain rfl : p = 0 := by simpa using h
    rfl
  exact key1 d.updateWindowDims _ _ hu

include hu hi hs hv in
/-- Where update `(e, k)` lands: row `dstOf` of its start word, column `k`; nowhere when that row is outside
    the table. -/
theorem scatter_resultIdx (idx : IVec ⟨2, ![m, 1]⟩ w) (e : Fin m) (k : Fin C) :
    d.resultIdx? (ix2 e k) idx
      = (dstOf N (fun e => (idx (ix2 e (0 : Fin 1))).toInt) e).map fun i => ix2 i k := by
  have h0 : d.start (ix2 e k) idx 0 + (d.window (ix2 e k) 0 : Int) = (idx (ix2 e (0 : Fin 1))).toInt := by
    rw [scatter_start0 d hu hs hv, scatter_window0 d hi]; simp
  have h1 : d.start (ix2 e k) idx 1 + (d.window (ix2 e k) 1 : Int) = (k.val : Int) := by
    rw [scatter_start1 d hs, scatter_window1 d hu hi]; simp
  unfold ScatterDims.resultIdx? dstOf
  by_cases h : 0 ≤ (idx (ix2 e (0 : Fin 1))).toInt ∧ (idx (ix2 e (0 : Fin 1))).toInt < N
  · have hall : ∀ a : Fin 2, 0 ≤ d.start (ix2 e k) idx a + (d.window (ix2 e k) a : Int) ∧
        d.start (ix2 e k) idx a + (d.window (ix2 e k) a : Int) < ((⟨2, ![N, C]⟩ : Shape).size a : Int) := by
      refine Fin.forall_fin_two.2 ⟨?_, ?_⟩
      · rw [h0]; exact h
      · rw [h1]
        exact ⟨Int.natCast_nonneg _, by exact_mod_cast k.isLt⟩
    rw [dif_pos hall, dif_pos h, Option.map_some]
    congr 1
    funext a
    apply Fin.ext
    revert a
    refine Fin.forall_fin_two.2 ⟨?_, ?_⟩
    · show (d.start (ix2 e k) idx 0 + (d.window (ix2 e k) 0 : Int)).toNat = (idx (ix2 e (0 : Fin 1))).toInt.toNat
      rw [h0]
    · show (d.start (ix2 e k) idx 1 + (d.window (ix2 e k) 1 : Int)).toNat = k.val
      rw [h1]; simp
  · have hnall : ¬ ∀ a : Fin 2, 0 ≤ d.start (ix2 e k) idx a + (d.window (ix2 e k) a : Int) ∧
        d.start (ix2 e k) idx a + (d.window (ix2 e k) a : Int) < ((⟨2, ![N, C]⟩ : Shape).size a : Int) := by
      intro hall
      have := hall 0
      rw [h0] at this
      exact h this
    rw [dif_neg hnall, dif_neg h]
    rfl

include hu hi hs hv in
/-- THE ROW SCATTER-ADD READ AT `(i, k)`: the operand's element plus the sum, over the update rows `e` whose
    start word names row `i`, of the update's element `(e, k)`. -/
theorem scatterAdd_rows_apply {φ : FTy} (x0 : FVec Ideal ⟨2, ![N, C]⟩ φ) (idx : IVec ⟨2, ![m, 1]⟩ w)
    (upd : FVec Ideal ⟨2, ![m, C]⟩ φ) (i : Fin N) (k : Fin C) :
    Host.scatterAdd d x0 idx upd (ix2 i k)
      = x0 (ix2 i k) + ∑ e ∈ Finset.univ.filter
          (fun e => dstOf N (fun e => (idx (ix2 e (0 : Fin 1))).toInt) e = some i), upd (ix2 e k) := by
  show Ideal.hostScatterAdd d x0 idx upd (ix2 i k) = _
  unfold Ideal.hostScatterAdd
  congr 1
  rw [Finset.sum_filter, Finset.sum_filter, sum_idx2]
  refine Finset.sum_congr rfl fun e _ => ?_
  simp only [scatter_resultIdx d hu hi hs hv]
  cases hrow : dstOf N (fun e => (idx (ix2 e (0 : Fin 1))).toInt) e with
  | none => simp
  | some i' =>
    simp only [Option.map_some, Option.some.injEq, ix2_inj]
    by_cases hii : i' = i
    · subst hii
      simp
    · simp [hii]

end Scatter

/-! ## Broadcasts, the zero table, a transpose and the plain product, read at an index -/

/-- A vector of `m` entries broadcast to an `[m, 1]` column reads its entry `e` at `(e, z)`. -/
theorem bcast_col_apply {α : Type} {m : Nat} (h : (⟨1, ![m]⟩ : Shape).BroadcastsInDim ⟨2, ![m, 1]⟩ ![0])
    (v : (⟨1, ![m]⟩ : Shape).Idx → α) (e : Fin m) (z : Fin 1) :
    broadcastInDim ⟨2, ![m, 1]⟩ ![0] h v (ix2 e z) = v (ix1 e) := by
  unfold broadcastInDim
  congr 1
  funext a
  obtain rfl : a = 0 := Subsingleton.elim _ _
  apply Fin.ext
  by_cases h1 : (⟨1, ![m]⟩ : Shape).size 0 = 1
  · rw [dif_pos h1]
    have hm : m = 1 := h1
    have := e.isLt
    show 0 = e.val
    omega
  · rw [dif_neg h1]
    rfl

/-- An `[m, 1]` column broadcast along its second axis to `[m, C]` reads its entry `(e, 0)` at `(e, k)`. -/
theorem bcast_row_apply {α : Type} {m C : Nat} (h : (⟨2, ![m, 1]⟩ : Shape).BroadcastsInDim ⟨2, ![m, C]⟩ ![0, 1])
    (u : (⟨2, ![m, 1]⟩ : Shape).Idx → α) (e : Fin m) (k : Fin C) :
    broadcastInDim ⟨2, ![m, C]⟩ ![0, 1] h u (ix2 e k) = u (ix2 e (0 : Fin 1)) := by
  unfold broadcastInDim
  congr 1
  funext a
  apply Fin.ext
  revert a
  refine Fin.forall_fin_two.2 ⟨?_, ?_⟩
  · by_cases h1 : (⟨2, ![m, 1]⟩ : Shape).size 0 = 1
    · rw [dif_pos h1]
      have hm : m = 1 := h1
      have := e.isLt
      show 0 = e.val
      omega
    · rw [dif_neg h1]
      rfl
  · rw [dif_pos (show (⟨2, ![m, 1]⟩ : Shape).size 1 = 1 from rfl)]
    rfl

/-- The scalar zero broadcast to any shape is zero everywhere. -/
theorem bcast_zero_apply {t : Shape} (h : (⟨0, ![]⟩ : Shape).BroadcastsInDim t ![]) (j : t.Idx) :
    broadcastInDim t ![] h (constant (F := Ideal) ⟨0, ![]⟩ .f32 0x00000000#32) j = (0 : EReal) := by
  unfold broadcastInDim
  rw [constant_apply]
  exact Ideal.ofBits_zero_f32

/-- A rank-2 transpose reads `(j, k)` at `(k, j)`. -/
theorem transpose10_apply {α : Type} {M K : Nat} (h : (⟨2, ![M, K]⟩ : Shape).Transposes [1, 0] ⟨2, ![K, M]⟩)
    (W : (⟨2, ![M, K]⟩ : Shape).Idx → α) (k : Fin K) (j : Fin M) :
    transpose ⟨2, ![K, M]⟩ [1, 0] W h (ix2 k j) = W (ix2 j k) := by
  unfold transpose
  congr 1
  funext a
  apply Fin.ext
  revert a
  refine Fin.forall_fin_two.2 ⟨?_, ?_⟩
  · rfl
  · rfl

/-- A record of dimension numbers with the plain product's lists IS the plain product's. -/
theorem dotDims_eq_plain {N K M : Nat} (d : DotDims ⟨2, ![N, K]⟩ ⟨2, ![K, M]⟩ ⟨2, ![N, M]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain N K M := by
  cases d
  simp only at h1 h2 h3 h4 h5 h6
  subst h1 h2 h3 h4 h5 h6
  rfl

/-- The host's product of `[N, K]` by `[K, M]` read at `(i, j)` is `Spec.linear`. -/
theorem dotGeneral_rows_apply {N K M : Nat} {φ₁ φ₂ : FTy} (d : DotDims ⟨2, ![N, K]⟩ ⟨2, ![K, M]⟩ ⟨2, ![N, M]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (A : FVec Ideal ⟨2, ![N, K]⟩ φ₁) (B : FVec Ideal ⟨2, ![K, M]⟩ φ₂)
    (i : Fin N) (j : Fin M) :
    Host.dotGeneral d prec A B (ix2 i j) = linear (fun i k => A (ix2 i k)) (fun k j => B (ix2 k j)) i j := by
  rw [dotDims_eq_plain d h1 h2 h3 h4 h5 h6]
  exact StackMember.dotGeneral_plain_apply prec A B i j

/-! ## The aggregation as both programs spell it -/

section Aggregate
variable {N C m w : Nat} (hN : 0 < N)
    (dg : GatherDims ⟨2, ![N, C]⟩ ⟨2, ![m, 1]⟩ ⟨2, ![m, C]⟩)
    (hg1 : dg.offsetDims = [1]) (hg2 : dg.collapsedSliceDims = [0]) (hg3 : dg.operandBatchingDims = [])
    (hg4 : dg.startIndexMap = [0]) (hg5 : dg.indexVectorDim = 1)
    (ds : ScatterDims ⟨2, ![N, C]⟩ ⟨2, ![m, 1]⟩ ⟨2, ![m, C]⟩)
    (hs1 : ds.updateWindowDims = [1]) (hs2 : ds.insertedWindowDims = [0])
    (hs3 : ds.scatterDimsToOperandDims = [0]) (hs4 : ds.indexVectorDim = 1)
    (hz : (⟨0, ![]⟩ : Shape).BroadcastsInDim ⟨2, ![N, C]⟩ ![])
    (hc : (⟨1, ![m]⟩ : Shape).BroadcastsInDim ⟨2, ![m, 1]⟩ ![0])
    (hr : (⟨2, ![m, 1]⟩ : Shape).BroadcastsInDim ⟨2, ![m, C]⟩ ![0, 1])

include hg1 hg2 hg3 hg4 hg5 hs1 hs2 hs3 hs4 in
/-- THE PRINTED AGGREGATION READ AT `(i, k)`: scatter-add into zeros, at the column of `dst`, of the norms
    (broadcast to a column, then along the rows) times the gather of `X` at the column of `src`, is
    `Spec.segsum` over the gather's clamped row map and the scatter's partial one. -/
theorem aggregate_apply (X : FVec Ideal ⟨2, ![N, C]⟩ .f32) (nrm : FVec Ideal ⟨1, ![m]⟩ .f32)
    (src dst : IVec ⟨1, ![m]⟩ w) (i : Fin N) (k : Fin C) :
    Host.scatterAdd ds (broadcastInDim ⟨2, ![N, C]⟩ ![] hz (constant ⟨0, ![]⟩ .f32 0x00000000#32))
        (broadcastInDim ⟨2, ![m, 1]⟩ ![0] hc dst)
        (mulf (broadcastInDim ⟨2, ![m, C]⟩ ![0, 1] hr (broadcastInDim ⟨2, ![m, 1]⟩ ![0] hc nrm))
          (Host.gather dg X (broadcastInDim ⟨2, ![m, 1]⟩ ![0] hc src))) (ix2 i k)
      = segsum (srcOf N hN fun e => (src (ix1 e)).toInt) (dstOf N fun e => (dst (ix1 e)).toInt)
          (fun e => nrm (ix1 e)) (fun i k => X (ix2 i k)) i k := by
  rw [scatterAdd_rows_apply ds hs1 hs2 hs3 hs4, bcast_zero_apply, zero_add]
  unfold segsum
  have hdst : (fun e : Fin m => (broadcastInDim ⟨2, ![m, 1]⟩ ![0] hc dst (ix2 e (0 : Fin 1))).toInt)
      = fun e => (dst (ix1 e)).toInt := funext fun e => by rw [bcast_col_apply]
  rw [hdst]
  refine Finset.sum_congr rfl fun e _ => ?_
  rw [mulf_apply, bcast_row_apply, bcast_col_apply,
    RowGather.rowGather_apply dg hg1 hg2 hg3 hg4 hg5 X _ e k hN]
  have hsrc : broadcastInDim ⟨2, ![m, 1]⟩ ![0] hc src (ix2 e (0 : Fin 1)) = src (ix1 e) :=
    bcast_col_apply hc src e 0
  have hrow : ∀ (p : min (broadcastInDim ⟨2, ![m, 1]⟩ ![0] hc src (ix2 e (0 : Fin 1))).toInt.toNat (N - 1) < N),
      (⟨_, p⟩ : Fin N) = srcOf N hN (fun e => (src (ix1 e)).toInt) e := fun p =>
    Fin.ext (by show min _ _ = min _ _; rw [hsrc])
  rw [hrow]

end Aggregate

/-! ## Aggregate first = transform first, over the printed terms -/

section Law
variable {N K M m w : Nat} (hN : 0 < N)
    (dgK : GatherDims ⟨2, ![N, K]⟩ ⟨2, ![m, 1]⟩ ⟨2, ![m, K]⟩)
    (hgK1 : dgK.offsetDims = [1]) (hgK2 : dgK.collapsedSliceDims = [0]) (hgK3 : dgK.operandBatchingDims = [])
    (hgK4 : dgK.startIndexMap = [0]) (hgK5 : dgK.indexVectorDim = 1)
    (dsK : ScatterDims ⟨2, ![N, K]⟩ ⟨2, ![m, 1]⟩ ⟨2, ![m, K]⟩)
    (hsK1 : dsK.updateWindowDims = [1]) (hsK2 : dsK.insertedWindowDims = [0])
    (hsK3 : dsK.scatterDimsToOperandDims = [0]) (hsK4 : dsK.indexVectorDim = 1)
    (dgM : GatherDims ⟨2, ![N, M]⟩ ⟨2, ![m, 1]⟩ ⟨2, ![m, M]⟩)
    (hgM1 : dgM.offsetDims = [1]) (hgM2 : dgM.collapsedSliceDims = [0]) (hgM3 : dgM.operandBatchingDims = [])
    (hgM4 : dgM.startIndexMap = [0]) (hgM5 : dgM.indexVectorDim = 1)
    (dsM : ScatterDims ⟨2, ![N, M]⟩ ⟨2, ![m, 1]⟩ ⟨2, ![m, M]⟩)
    (hsM1 : dsM.updateWindowDims = [1]) (hsM2 : dsM.insertedWindowDims = [0])
    (hsM3 : dsM.scatterDimsToOperandDims = [0]) (hsM4 : dsM.indexVectorDim = 1)
    (dd : DotDims ⟨2, ![N, K]⟩ ⟨2, ![K, M]⟩ ⟨2, ![N, M]⟩)
    (hd1 : dd.lhsContracting = [1]) (hd2 : dd.rhsContracting = [0]) (hd3 : dd.lhsNonContracting = [0])
    (hd4 : dd.rhsNonContracting = [1]) (hd5 : dd.lhsBatch = []) (hd6 : dd.rhsBatch = [])
    (hzK : (⟨0, ![]⟩ : Shape).BroadcastsInDim ⟨2, ![N, K]⟩ ![])
    (hzM : (⟨0, ![]⟩ : Shape).BroadcastsInDim ⟨2, ![N, M]⟩ ![])
    (hc : (⟨1, ![m]⟩ : Shape).BroadcastsInDim ⟨2, ![m, 1]⟩ ![0])
    (hrK : (⟨2, ![m, 1]⟩ : Shape).BroadcastsInDim ⟨2, ![m, K]⟩ ![0, 1])
    (hrM : (⟨2, ![m, 1]⟩ : Shape).BroadcastsInDim ⟨2, ![m, M]⟩ ![0, 1])

include hN hgK1 hgK2 hgK3 hgK4 hgK5 hsK1 hsK2 hsK3 hsK4 hgM1 hgM2 hgM3 hgM4 hgM5 hsM1 hsM2 hsM3 hsM4
  hd1 hd2 hd3 hd4 hd5 hd6 in
/-- AGGREGATE FIRST = TRANSFORM FIRST over the printed terms. The aggregation of `X : [N, K]` (one
    program's), multiplied on the feature axis by `Wt : [K, M]`, is the aggregation (the other's) of the
    host's product `X · Wt`, at every index, when every entry of `X`, `Wt` and the norms is a real number.
    The edge words `src`, `dst` are the same arrays on both sides and are arbitrary. -/
theorem aggregate_first (prec : Option ContractPrecision)
    (X : FVec Ideal ⟨2, ![N, K]⟩ .f32) (Wt : FVec Ideal ⟨2, ![K, M]⟩ .f32) (nrm : FVec Ideal ⟨1, ![m]⟩ .f32)
    (src dst : IVec ⟨1, ![m]⟩ w)
    (hX : ∀ p, IsReal (X p)) (hW : ∀ p, IsReal (Wt p)) (hn : ∀ p, IsReal (nrm p)) (i : Fin N) (j : Fin M) :
    ∑ k : Fin K,
        Host.scatterAdd dsK (broadcastInDim ⟨2, ![N, K]⟩ ![] hzK (constant ⟨0, ![]⟩ .f32 0x00000000#32))
          (broadcastInDim ⟨2, ![m, 1]⟩ ![0] hc dst)
          (mulf (broadcastInDim ⟨2, ![m, K]⟩ ![0, 1] hrK (broadcastInDim ⟨2, ![m, 1]⟩ ![0] hc nrm))
            (Host.gather dgK X (broadcastInDim ⟨2, ![m, 1]⟩ ![0] hc src))) (ix2 i k) * Wt (ix2 k j)
      = Host.scatterAdd dsM (broadcastInDim ⟨2, ![N, M]⟩ ![] hzM (constant ⟨0, ![]⟩ .f32 0x00000000#32))
          (broadcastInDim ⟨2, ![m, 1]⟩ ![0] hc dst)
          (mulf (broadcastInDim ⟨2, ![m, M]⟩ ![0, 1] hrM (broadcastInDim ⟨2, ![m, 1]⟩ ![0] hc nrm))
            (Host.gather dgM (Host.dotGeneral dd prec X Wt) (broadcastInDim ⟨2, ![m, 1]⟩ ![0] hc src))) (ix2 i j) := by
  rw [aggregate_apply hN dgM hgM1 hgM2 hgM3 hgM4 hgM5 dsM hsM1 hsM2 hsM3 hsM4 hzM hc hrM]
  have hdot : (fun (i : Fin N) (j : Fin M) => Host.dotGeneral dd prec X Wt (ix2 i j))
      = linear (fun i k => X (ix2 i k)) (fun k j => Wt (ix2 k j)) :=
    funext fun i => funext fun j => dotGeneral_rows_apply dd hd1 hd2 hd3 hd4 hd5 hd6 prec X Wt i j
  rw [hdot, ← linear_segsum _ _ _ _ _ (fun e => hn (ix1 e)) (fun i k => hX (ix2 i k)) (fun k j => hW (ix2 k j))]
  show _ = ∑ k : Fin K, _ * Wt (ix2 k j)
  refine Finset.sum_congr rfl fun k _ => ?_
  rw [aggregate_apply hN dgK hgK1 hgK2 hgK3 hgK4 hgK5 dsK hsK1 hsK2 hsK3 hsK4 hzK hc hrK]

end Law

/-! ## Real entries: what each operation keeps

"Every entry is a real number" is what the aggregate-first law asks of its tables. It is carried from the
inputs (where the precondition states it, `inputsReal_of_pre`) through every stage by the closure facts
below: sums, products and differences (`Cert.Spec`), maxima, a select, `exp` of a real, the quotient by a
nonzero real, `rsqrt` of a positive real; a variance is a sum of squares, so it is nonnegative and
`variance + ε` is positive for a positive `ε`; `1 + ∑ exp` is positive. -/

/-- `|x| < +∞`, with `|x|` spelled `max x (-x)`, says `x` is a real number. -/
theorem isReal_of_abs_lt_top {x : EReal} (h : max x (-x) < ⊤) : IsReal x := by
  induction x using EReal.rec with
  | bot => simp at h
  | coe r => exact ⟨r, rfl⟩
  | top => simp at h

/-- The f32 word `0x7F800000` denotes `+∞`. -/
theorem ofBits_inf_f32 : Ideal.ofBits .f32 0x7F800000#32 = ⊤ := by simp [Ideal.ofBits, Ideal.ieee]

theorem isReal_max {a b : EReal} (ha : IsReal a) (hb : IsReal b) : IsReal (max a b) := by
  rcases max_choice a b with h | h <;> rw [h] <;> assumption

theorem isReal_min {a b : EReal} (ha : IsReal a) (hb : IsReal b) : IsReal (min a b) := by
  rcases min_choice a b with h | h <;> rw [h] <;> assumption

theorem isReal_exp {a : EReal} (ha : IsReal a) : IsReal (Ideal.exp a) := by
  obtain ⟨r, rfl⟩ := ha; exact ⟨Real.exp r, rfl⟩

/-- `exp` of a real number is positive. -/
theorem exp_pos_of_isReal {a : EReal} (ha : IsReal a) : 0 < Ideal.exp a := by
  obtain ⟨r, rfl⟩ := ha
  show (0 : EReal) < ((Real.exp r : ℝ) : EReal)
  exact_mod_cast Real.exp_pos r

/-- `exp` is nonnegative everywhere (`exp ⊥ = 0`, `exp ⊤ = ⊤`). -/
theorem exp_nonneg (a : EReal) : 0 ≤ Ideal.exp a := by
  induction a using EReal.rec with
  | bot => exact le_of_eq Ideal.exp_bot.symm
  | coe r => exact (exp_pos_of_isReal (isReal_coe r)).le
  | top => rw [Ideal.exp_top]; exact le_top

/-- `rsqrt` of a positive real number is a real number. -/
theorem isReal_rsqrt {a : EReal} (ha : IsReal a) (hpos : 0 < a) : IsReal (Ideal.rsqrt a) := by
  obtain ⟨r, rfl⟩ := ha
  have hr : 0 < r := by exact_mod_cast hpos
  rw [Ideal.rsqrt_coe, if_neg (not_lt.2 hr.le), if_neg hr.ne']
  exact ⟨_, rfl⟩

/-- The quotient of a real number by a nonzero real number is a real number. -/
theorem isReal_div {a b : EReal} (ha : IsReal a) (hb : IsReal b) (h0 : b ≠ 0) : IsReal (Ideal.div a b) := by
  obtain ⟨r, rfl⟩ := ha; obtain ⟨s, rfl⟩ := hb
  have hs : s ≠ 0 := by intro h; apply h0; rw [h]; rfl
  rw [Ideal.div_coe hs]
  exact (isReal_coe r).mul (isReal_coe _)

theorem isReal_select {c : BitVec 1} {a b : EReal} (ha : IsReal a) (hb : IsReal b) :
    IsReal (Scalar.select c a b) := by
  unfold Scalar.select; split_ifs <;> assumption

/-- A square of a real number is nonnegative. -/
theorem mul_self_nonneg_of_isReal {a : EReal} (ha : IsReal a) : 0 ≤ a * a := by
  obtain ⟨r, rfl⟩ := ha
  rw [← EReal.coe_mul]; exact_mod_cast mul_self_nonneg r

theorem add_pos_of_nonneg_of_pos {a b : EReal} (ha : 0 ≤ a) (hb : 0 < b) : 0 < a + b :=
  lt_of_lt_of_le hb (le_add_of_nonneg_left ha)

/-- A sum of squares of real numbers (a variance's numerator) is nonnegative. -/
theorem sum_mul_self_nonneg {ι : Type*} (s : Finset ι) (f : ι → EReal) (h : ∀ i ∈ s, IsReal (f i)) :
    0 ≤ ∑ i ∈ s, f i * f i :=
  Finset.sum_nonneg fun i hi => mul_self_nonneg_of_isReal (h i hi)

/-- `1 + ∑ exp` is positive, whatever the exponents. -/
theorem one_add_sum_exp_pos {ι : Type*} (s : Finset ι) (f : ι → EReal) : 0 < 1 + ∑ i ∈ s, Ideal.exp (f i) := by
  rw [add_comm]
  exact add_pos_of_nonneg_of_pos (Finset.sum_nonneg fun i _ => exp_nonneg (f i)) zero_lt_one

/-! ### The host's shape operations and sums keep real entries -/

theorem isReal_gather {s si t : Shape} {w : Nat} (d : GatherDims s si t) (x : s.Idx → EReal)
    (idx : IVec si w) (hx : ∀ p, IsReal (x p)) (j : t.Idx) : IsReal (Host.gather d x idx j) := by
  unfold Host.gather; exact hx _

theorem isReal_broadcastInDim {s t : Shape} (dims : Fin s.rank → Fin t.rank) (h : s.BroadcastsInDim t dims)
    (x : s.Idx → EReal) (hx : ∀ p, IsReal (x p)) (j : t.Idx) : IsReal (broadcastInDim t dims h x j) := by
  unfold broadcastInDim; exact hx _

theorem isReal_transpose {s t : Shape} (perm : List (Fin s.rank)) (x : s.Idx → EReal) (h : s.Transposes perm t)
    (hx : ∀ p, IsReal (x p)) (j : t.Idx) : IsReal (transpose t perm x h j) := by
  unfold transpose; exact hx _

theorem isReal_scatterAdd {s si u : Shape} {w : Nat} {φ : FTy} (d : ScatterDims s si u) (x : FVec Ideal s φ)
    (idx : IVec si w) (upd : FVec Ideal u φ) (hx : ∀ p, IsReal (x p)) (hu : ∀ p, IsReal (upd p)) (i : s.Idx) :
    IsReal (Host.scatterAdd d x idx upd i) :=
  (hx i).add (isReal_sum _ _ fun j _ => hu j)

theorem isReal_dotGeneral {sl sr so : Shape} {φ₁ φ₂ : FTy} (d : DotDims sl sr so) (prec : Option ContractPrecision)
    (lhs : FVec Ideal sl φ₁) (rhs : FVec Ideal sr φ₂) (hl : ∀ p, IsReal (lhs p)) (hr : ∀ p, IsReal (rhs p))
    (j : so.Idx) : IsReal (Host.dotGeneral d prec lhs rhs j) := by
  show IsReal (FloatOps.dotGeneral d prec _ lhs rhs j)
  rw [Ideal.dotGeneral_apply]
  exact isReal_sum _ _ fun k _ => (hl _).mul (hr _)

theorem isReal_matmul {sl sr so : Shape} {φ₁ φ₂ : FTy} (d : DotDims sl sr so) (lhs : sl.Idx → EReal)
    (rhs : sr.Idx → EReal) (acc : so.Idx → EReal) (hl : ∀ p, IsReal (lhs p)) (hr : ∀ p, IsReal (rhs p))
    (ha : ∀ p, IsReal (acc p)) (j : so.Idx) : IsReal (Ideal.matmul d lhs rhs acc j) :=
  (ha j).add (isReal_sum _ _ fun k _ => (hl _).mul (hr _))

theorem isReal_hostReduceAdd {s t : Shape} {axes : List (Fin s.rank)} (h : s.ReducesTo axes t) (x : s.Idx → EReal)
    (init : EReal) (hx : ∀ p, IsReal (x p)) (hi : IsReal init) (j : t.Idx) : IsReal (Ideal.hostReduceAdd h x init j) :=
  hi.add (isReal_sum _ _ fun i _ => hx i)

theorem isReal_reduceAdd {s t : Shape} {axes : List (Fin s.rank)} (h : s.Reduces axes t) (x : s.Idx → EReal)
    (hx : ∀ p, IsReal (x p)) (j : t.Idx) : IsReal (Ideal.reduceAdd h x j) :=
  isReal_sum _ _ fun i _ => hx i

/-! ### From the precondition to real entries -/

/-- One `jnp.all(|x| < inf)` that is true says every entry of `x` is a real number. -/
theorem isReal_of_all {s : Shape} {axes : List (Fin s.rank)} (x : FVec Ideal s .f32)
    (hb : (⟨0, ![]⟩ : Shape).BroadcastsInDim s ![]) (hr : s.ReducesTo axes ⟨0, ![]⟩)
    (hu : 0 < (⟨0, ![]⟩ : Shape).numel)
    (e : Host.reduce IntOp.andi
        (cmpf .olt (Host.absf x) (broadcastInDim s ![] hb (constant ⟨0, ![]⟩ .f32 0x7F800000#32)))
        (constantI ⟨0, ![]⟩ 1 1#1) hr hu ix0 = 1#1) (j : s.Idx) : IsReal (x j) := by
  haveI : Subsingleton (⟨0, ![]⟩ : Shape).Idx := ⟨fun a b => funext fun d => d.elim0⟩
  have h1 := Host.reduce_andi_all _ _ hr hu ix0 e j
  rw [cmpf_apply] at h1
  have h2 : Ideal.cmp .olt (max (x j) (-(x j))) (Ideal.ofBits .f32 0x7F800000#32) = 1#1 := h1
  rw [ofBits_inf_f32] at h2
  apply isReal_of_abs_lt_top
  unfold Ideal.cmp at h2
  by_contra hlt
  simp [hlt] at h2

/-- A conjunction of two one-bit vectors, read at an index. -/
theorem andi_vec_eq_one {s : Shape} (x y : IVec s 1) (i : s.Idx) :
    andi x y i = 1#1 ↔ x i = 1#1 ∧ y i = 1#1 := IntOp.andi_eq_one

/-- Every float input's every entry is a real number. -/
structure InputsReal (a0 : FVec Ideal Cert.Pre_finite_inputs.S50000x22 .f32) (a2 : FVec Ideal Cert.Pre_finite_inputs.S640000 .f32) (a4 : FVec Ideal Cert.Pre_finite_inputs.S18x4 .f32) (a5 : FVec Ideal Cert.Pre_finite_inputs.S4 .f32) (a6 : FVec Ideal Cert.Pre_finite_inputs.S64x4 .f32) (a7 : FVec Ideal Cert.Pre_finite_inputs.S64 .f32) (a8 : FVec Ideal Cert.Pre_finite_inputs.S128x64 .f32) (a9 : FVec Ideal Cert.Pre_finite_inputs.S128 .f32) (a10 : FVec Ideal Cert.Pre_finite_inputs.S64x128 .f32) (a11 : FVec Ideal Cert.Pre_finite_inputs.S64 .f32) (a12 : FVec Ideal Cert.Pre_finite_inputs.S8x64x64 .f32) (a13 : FVec Ideal Cert.Pre_finite_inputs.S8x64 .f32) (a14 : FVec Ideal Cert.Pre_finite_inputs.S32x64 .f32) (a15 : FVec Ideal Cert.Pre_finite_inputs.S32 .f32) (a16 : FVec Ideal Cert.Pre_finite_inputs.S64 .f32) (a17 : FVec Ideal Cert.Pre_finite_inputs.S64 .f32) (a18 : FVec Ideal Cert.Pre_finite_inputs.S128 .f32) (a19 : FVec Ideal Cert.Pre_finite_inputs.S128 .f32) (a20 : FVec Ideal Cert.Pre_finite_inputs.S64 .f32) (a21 : FVec Ideal Cert.Pre_finite_inputs.S64 .f32) (a22 : FVec Ideal Cert.Pre_finite_inputs.S8x64 .f32) (a23 : FVec Ideal Cert.Pre_finite_inputs.S8x64 .f32) (a24 : FVec Ideal Cert.Pre_finite_inputs.S32 .f32) (a25 : FVec Ideal Cert.Pre_finite_inputs.S32 .f32) (a26 : FVec Ideal Cert.Pre_finite_inputs.S32x1 .f32) : Prop where
  r0 : ∀ j, IsReal (a0 j)
  r2 : ∀ j, IsReal (a2 j)
  r4 : ∀ j, IsReal (a4 j)
  r5 : ∀ j, IsReal (a5 j)
  r6 : ∀ j, IsReal (a6 j)
  r7 : ∀ j, IsReal (a7 j)
  r8 : ∀ j, IsReal (a8 j)
  r9 : ∀ j, IsReal (a9 j)
  r10 : ∀ j, IsReal (a10 j)
  r11 : ∀ j, IsReal (a11 j)
  r12 : ∀ j, IsReal (a12 j)
  r13 : ∀ j, IsReal (a13 j)
  r14 : ∀ j, IsReal (a14 j)
  r15 : ∀ j, IsReal (a15 j)
  r16 : ∀ j, IsReal (a16 j)
  r17 : ∀ j, IsReal (a17 j)
  r18 : ∀ j, IsReal (a18 j)
  r19 : ∀ j, IsReal (a19 j)
  r20 : ∀ j, IsReal (a20 j)
  r21 : ∀ j, IsReal (a21 j)
  r22 : ∀ j, IsReal (a22 j)
  r23 : ∀ j, IsReal (a23 j)
  r24 : ∀ j, IsReal (a24 j)
  r25 : ∀ j, IsReal (a25 j)
  r26 : ∀ j, IsReal (a26 j)

/-- THE PRECONDITION READ: `finite_inputs` all ones says every entry of every float input is a real number. -/
theorem inputsReal_of_pre [Cert.Pre_finite_inputs.Facts]
    (a0 : FVec Ideal Cert.Pre_finite_inputs.S50000x22 .f32) (a1 : IVec Cert.Pre_finite_inputs.S2x640000 32) (a2 : FVec Ideal Cert.Pre_finite_inputs.S640000 .f32) (a3 : IVec Cert.Pre_finite_inputs.S2x1024 32)
    (a4 : FVec Ideal Cert.Pre_finite_inputs.S18x4 .f32) (a5 : FVec Ideal Cert.Pre_finite_inputs.S4 .f32) (a6 : FVec Ideal Cert.Pre_finite_inputs.S64x4 .f32) (a7 : FVec Ideal Cert.Pre_finite_inputs.S64 .f32)
    (a8 : FVec Ideal Cert.Pre_finite_inputs.S128x64 .f32) (a9 : FVec Ideal Cert.Pre_finite_inputs.S128 .f32) (a10 : FVec Ideal Cert.Pre_finite_inputs.S64x128 .f32) (a11 : FVec Ideal Cert.Pre_finite_inputs.S64 .f32)
    (a12 : FVec Ideal Cert.Pre_finite_inputs.S8x64x64 .f32) (a13 : FVec Ideal Cert.Pre_finite_inputs.S8x64 .f32) (a14 : FVec Ideal Cert.Pre_finite_inputs.S32x64 .f32) (a15 : FVec Ideal Cert.Pre_finite_inputs.S32 .f32)
    (a16 : FVec Ideal Cert.Pre_finite_inputs.S64 .f32) (a17 : FVec Ideal Cert.Pre_finite_inputs.S64 .f32) (a18 : FVec Ideal Cert.Pre_finite_inputs.S128 .f32) (a19 : FVec Ideal Cert.Pre_finite_inputs.S128 .f32)
    (a20 : FVec Ideal Cert.Pre_finite_inputs.S64 .f32) (a21 : FVec Ideal Cert.Pre_finite_inputs.S64 .f32) (a22 : FVec Ideal Cert.Pre_finite_inputs.S8x64 .f32) (a23 : FVec Ideal Cert.Pre_finite_inputs.S8x64 .f32)
    (a24 : FVec Ideal Cert.Pre_finite_inputs.S32 .f32) (a25 : FVec Ideal Cert.Pre_finite_inputs.S32 .f32) (a26 : FVec Ideal Cert.Pre_finite_inputs.S32x1 .f32)
    (h : Cert.Pre_finite_inputs.fn (F := Ideal) a0 a1 a2 a3 a4 a5 a6 a7 a8 a9 a10 a11 a12 a13 a14 a15 a16 a17 a18 a19 a20 a21 a22 a23 a24 a25 a26 = fun _ => 1#1) :
    InputsReal a0 a2 a4 a5 a6 a7 a8 a9 a10 a11 a12 a13 a14 a15 a16 a17 a18 a19 a20 a21 a22 a23 a24 a25 a26 := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7] at h0
  simp only [andi_vec_eq_one] at h0
  obtain ⟨⟨⟨⟨⟨⟨⟨⟨⟨⟨⟨⟨⟨⟨⟨⟨⟨⟨⟨⟨⟨⟨⟨⟨hr0, hr2⟩, hr4⟩, hr5⟩, hr6⟩, hr7⟩, hr8⟩, hr9⟩, hr10⟩, hr11⟩, hr12⟩, hr13⟩, hr14⟩, hr15⟩, hr16⟩, hr17⟩, hr18⟩, hr19⟩, hr20⟩, hr21⟩, hr22⟩, hr23⟩, hr24⟩, hr25⟩, hr26⟩ := h0
  exact ⟨isReal_of_all a0 _ _ _ hr0,
    isReal_of_all a2 _ _ _ hr2,
    isReal_of_all a4 _ _ _ hr4,
    isReal_of_all a5 _ _ _ hr5,
    isReal_of_all a6 _ _ _ hr6,
    isReal_of_all a7 _ _ _ hr7,
    isReal_of_all a8 _ _ _ hr8,
    isReal_of_all a9 _ _ _ hr9,
    isReal_of_all a10 _ _ _ hr10,
    isReal_of_all a11 _ _ _ hr11,
    isReal_of_all a12 _ _ _ hr12,
    isReal_of_all a13 _ _ _ hr13,
    isReal_of_all a14 _ _ _ hr14,
    isReal_of_all a15 _ _ _ hr15,
    isReal_of_all a16 _ _ _ hr16,
    isReal_of_all a17 _ _ _ hr17,
    isReal_of_all a18 _ _ _ hr18,
    isReal_of_all a19 _ _ _ hr19,
    isReal_of_all a20 _ _ _ hr20,
    isReal_of_all a21 _ _ _ hr21,
    isReal_of_all a22 _ _ _ hr22,
    isReal_of_all a23 _ _ _ hr23,
    isReal_of_all a24 _ _ _ hr24,
    isReal_of_all a25 _ _ _ hr25,
    isReal_of_all a26 _ _ _ hr26⟩

end Cert.Algebra

end
-- ==== Proof.Val.Kesg.lean ====
/-
  The kernel program's side read at an index over the extended reals, against the coordinate functions of the
  value side: the input stage x[:, 4:22] · W + b + x[:, 0:4] over the launch arrays.
-/
import proofs.«408084_j48395691492010_3_alg».proof.Proof.KI.Args
import proofs.«408084_j48395691492010_3_alg».proof.Proof.Val.RegVal
import proofs.«408084_j48395691492010_3_alg».proof.Proof.Val.SpecFn
import proofs.«408084_j48395691492010_3_alg».proof.Proof.Algebra
import Idealize.ShloMosaic.Lib.ValueIdx
import Idealize.ShloMosaic.Lib.ValueLayout
import Idealize.ShloMosaic.Lib.StableHlo
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Cert.Val
open scoped BigOperators

variable (m : (ℓ : Loc nD τ sig) → Buf (Elt Ideal) ℓ) (ρ : Dev nD → PrngReg) (c : Dev nD)

/- The extended reals' sum and product, named outright: an array's entry has the element type of its buffer,
   which unfolds to the extended reals but is not syntactically them. -/
local notation:65 a:65 " +ᵉ " b:66 => HAdd.hAdd (α := EReal) (β := EReal) (γ := EReal) a b
local notation:70 a:70 " *ᵉ " b:71 => HMul.hMul (α := EReal) (β := EReal) (γ := EReal) a b
local notation:50 a:51 " =ᵉ " b:51 => Eq (α := EReal) a b

/-! ## The input stage -/

set_option maxHeartbeats 4000000 in
theorem hread_v34 : B3 m ρ c (Proc.devRef .tc main_v34) = (extractStridedSlice S50000x4 ![0, 0] (B2 m ρ c (Proc.devRef .tc main_arg0)) slices_S50000x22_S50000x4_0_0) := by
  show StableHlo.after hostOps0_2 (B2 m ρ c) (Proc.devRef .tc main_v34) = _
  after_results_simp <;> rfl

set_option maxHeartbeats 4000000 in
theorem hread_v35 : B3 m ρ c (Proc.devRef .tc main_v35) = (extractStridedSlice S50000x18 ![0, 4] (B2 m ρ c (Proc.devRef .tc main_arg0)) slices_S50000x22_S50000x18_0_4) := by
  show StableHlo.after hostOps0_2 (B2 m ρ c) (Proc.devRef .tc main_v35) = _
  after_results_simp <;> rfl

set_option maxHeartbeats 4000000 in
theorem hread_v36 : B3 m ρ c (Proc.devRef .tc main_v36) = (shapeCast S1x4 (B2 m ρ c (Proc.devRef .tc main_arg5)) shapeCasts_S4_S1x4) := by
  show StableHlo.after hostOps0_2 (B2 m ρ c) (Proc.devRef .tc main_v36) = _
  after_results_simp <;> rfl

/-- The input stage's output over the launch arrays: the product of x[:, 4:22] with the weight, plus the bias, plus x[:, 0:4], at an index. -/
theorem kesg (r : Fin 50000) (q : Fin 4) : (B4 m ρ c (Proc.devRef .tc main_v37) : S50000x4.Idx → EReal) (ix2 r q)
    =ᵉ (∑ k : Fin 18, (extractStridedSlice S50000x18 ![0, 4] (m ((c : Thread nD τ).loc main_arg0) : S50000x22.Idx → EReal) slices_S50000x22_S50000x18_0_4) (ix2 r k) *ᵉ (m ((c : Thread nD τ).loc main_arg4) : S18x4.Idx → EReal) (ix2 k q))
      +ᵉ (m ((c : Thread nD τ).loc main_arg5) : S4.Idx → EReal) (ix1 q) +ᵉ (extractStridedSlice S50000x4 ![0, 0] (m ((c : Thread nD τ).loc main_arg0) : S50000x22.Idx → EReal) slices_S50000x22_S50000x4_0_0) (ix2 r q) := by
  rw [regval0, hread_v34, hread_v35, hread_v36, shapeCast_a_1a_apply, B2_isArg m ρ c main_arg0 (by decide), B2_isArg m ρ c main_arg5 (by decide), B3_isArg m ρ c main_arg4 (by decide)]

end Cert.KernelIdeal.Hand

end
-- ==== Proof.Val.Carry.lean ====
/- Computed buffers carried from the boundary after they are written to the later boundaries they are read at.
   Between the two no segment writes the buffer: a host stretch keeps it because it is none of the stretch's result
   buffers; a kernel region keeps it because it is none of the region's arrays, or because it is the array of an
   INPUT window, whose fold over the grid is the array as entered. Each statement is the chain of these steps,
   one per segment crossed, a later one of the same buffer going on from the one before. -/
import proofs.«408084_j48395691492010_3_alg».proof.Proof.KI.Args
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## An input window's array is, in its region's proof data, the entry contents (whatever they are) -/

theorem A_win3_0 (V : (c : Dev nD) → (b : Ref sig .tc) → Buf (Elt F) ((c : Thread nD τ).loc b)) (c : Dev nD) :
    (dat3 V c).A 0 = V c (Pipeline.arrRef spec3 0) := by
  first | exact A_eq3 V c 0 | rfl
theorem A_win3_1 (V : (c : Dev nD) → (b : Ref sig .tc) → Buf (Elt F) ((c : Thread nD τ).loc b)) (c : Dev nD) :
    (dat3 V c).A 1 = V c (Pipeline.arrRef spec3 1) := by
  first | exact A_eq3 V c 1 | rfl
theorem A_win7_0 (V : (c : Dev nD) → (b : Ref sig .tc) → Buf (Elt F) ((c : Thread nD τ).loc b)) (c : Dev nD) :
    (dat7 V c).A 0 = V c (Pipeline.arrRef spec7 0) := by
  first | exact A_eq7 V c 0 | rfl
theorem A_win7_1 (V : (c : Dev nD) → (b : Ref sig .tc) → Buf (Elt F) ((c : Thread nD τ).loc b)) (c : Dev nD) :
    (dat7 V c).A 1 = V c (Pipeline.arrRef spec7 1) := by
  first | exact A_eq7 V c 1 | rfl
theorem A_win11_0 (V : (c : Dev nD) → (b : Ref sig .tc) → Buf (Elt F) ((c : Thread nD τ).loc b)) (c : Dev nD) :
    (dat11 V c).A 0 = V c (Pipeline.arrRef spec11 0) := by
  first | exact A_eq11 V c 0 | rfl
theorem A_win11_1 (V : (c : Dev nD) → (b : Ref sig .tc) → Buf (Elt F) ((c : Thread nD τ).loc b)) (c : Dev nD) :
    (dat11 V c).A 1 = V c (Pipeline.arrRef spec11 1) := by
  first | exact A_eq11 V c 1 | rfl
theorem A_win15_0 (V : (c : Dev nD) → (b : Ref sig .tc) → Buf (Elt F) ((c : Thread nD τ).loc b)) (c : Dev nD) :
    (dat15 V c).A 0 = V c (Pipeline.arrRef spec15 0) := by
  first | exact A_eq15 V c 0 | rfl
theorem A_win15_1 (V : (c : Dev nD) → (b : Ref sig .tc) → Buf (Elt F) ((c : Thread nD τ).loc b)) (c : Dev nD) :
    (dat15 V c).A 1 = V c (Pipeline.arrRef spec15 1) := by
  first | exact A_eq15 V c 1 | rfl
theorem A_win19_0 (V : (c : Dev nD) → (b : Ref sig .tc) → Buf (Elt F) ((c : Thread nD τ).loc b)) (c : Dev nD) :
    (dat19 V c).A 0 = V c (Pipeline.arrRef spec19 0) := by
  first | exact A_eq19 V c 0 | rfl
theorem A_win19_1 (V : (c : Dev nD) → (b : Ref sig .tc) → Buf (Elt F) ((c : Thread nD τ).loc b)) (c : Dev nD) :
    (dat19 V c).A 1 = V c (Pipeline.arrRef spec19 1) := by
  first | exact A_eq19 V c 1 | rfl
theorem A_win23_0 (V : (c : Dev nD) → (b : Ref sig .tc) → Buf (Elt F) ((c : Thread nD τ).loc b)) (c : Dev nD) :
    (dat23 V c).A 0 = V c (Pipeline.arrRef spec23 0) := by
  first | exact A_eq23 V c 0 | rfl
theorem A_win23_1 (V : (c : Dev nD) → (b : Ref sig .tc) → Buf (Elt F) ((c : Thread nD τ).loc b)) (c : Dev nD) :
    (dat23 V c).A 1 = V c (Pipeline.arrRef spec23 1) := by
  first | exact A_eq23 V c 1 | rfl
theorem A_win27_0 (V : (c : Dev nD) → (b : Ref sig .tc) → Buf (Elt F) ((c : Thread nD τ).loc b)) (c : Dev nD) :
    (dat27 V c).A 0 = V c (Pipeline.arrRef spec27 0) := by
  first | exact A_eq27 V c 0 | rfl
theorem A_win27_1 (V : (c : Dev nD) → (b : Ref sig .tc) → Buf (Elt F) ((c : Thread nD τ).loc b)) (c : Dev nD) :
    (dat27 V c).A 1 = V c (Pipeline.arrRef spec27 1) := by
  first | exact A_eq27 V c 1 | rfl
theorem A_win31_0 (V : (c : Dev nD) → (b : Ref sig .tc) → Buf (Elt F) ((c : Thread nD τ).loc b)) (c : Dev nD) :
    (dat31 V c).A 0 = V c (Pipeline.arrRef spec31 0) := by
  first | exact A_eq31 V c 0 | rfl
theorem A_win31_1 (V : (c : Dev nD) → (b : Ref sig .tc) → Buf (Elt F) ((c : Thread nD τ).loc b)) (c : Dev nD) :
    (dat31 V c).A 1 = V c (Pipeline.arrRef spec31 1) := by
  first | exact A_eq31 V c 1 | rfl
theorem A_win35_0 (V : (c : Dev nD) → (b : Ref sig .tc) → Buf (Elt F) ((c : Thread nD τ).loc b)) (c : Dev nD) :
    (dat35 V c).A 0 = V c (Pipeline.arrRef spec35 0) := by
  first | exact A_eq35 V c 0 | rfl
theorem A_win35_1 (V : (c : Dev nD) → (b : Ref sig .tc) → Buf (Elt F) ((c : Thread nD τ).loc b)) (c : Dev nD) :
    (dat35 V c).A 1 = V c (Pipeline.arrRef spec35 1) := by
  first | exact A_eq35 V c 1 | rfl
theorem A_win39_0 (V : (c : Dev nD) → (b : Ref sig .tc) → Buf (Elt F) ((c : Thread nD τ).loc b)) (c : Dev nD) :
    (dat39 V c).A 0 = V c (Pipeline.arrRef spec39 0) := by
  first | exact A_eq39 V c 0 | rfl
theorem A_win39_1 (V : (c : Dev nD) → (b : Ref sig .tc) → Buf (Elt F) ((c : Thread nD τ).loc b)) (c : Dev nD) :
    (dat39 V c).A 1 = V c (Pipeline.arrRef spec39 1) := by
  first | exact A_eq39 V c 1 | rfl
theorem A_win43_0 (V : (c : Dev nD) → (b : Ref sig .tc) → Buf (Elt F) ((c : Thread nD τ).loc b)) (c : Dev nD) :
    (dat43 V c).A 0 = V c (Pipeline.arrRef spec43 0) := by
  first | exact A_eq43 V c 0 | rfl
theorem A_win43_1 (V : (c : Dev nD) → (b : Ref sig .tc) → Buf (Elt F) ((c : Thread nD τ).loc b)) (c : Dev nD) :
    (dat43 V c).A 1 = V c (Pipeline.arrRef spec43 1) := by
  first | exact A_eq43 V c 1 | rfl
theorem A_win47_0 (V : (c : Dev nD) → (b : Ref sig .tc) → Buf (Elt F) ((c : Thread nD τ).loc b)) (c : Dev nD) :
    (dat47 V c).A 0 = V c (Pipeline.arrRef spec47 0) := by
  first | exact A_eq47 V c 0 | rfl
theorem A_win47_1 (V : (c : Dev nD) → (b : Ref sig .tc) → Buf (Elt F) ((c : Thread nD τ).loc b)) (c : Dev nD) :
    (dat47 V c).A 1 = V c (Pipeline.arrRef spec47 1) := by
  first | exact A_eq47 V c 1 | rfl

variable (m : (ℓ : Loc nD τ sig) → Buf (Elt F) ℓ) (ρ : Dev nD → PrngReg)

/-! ## The carries -/

/-! ### `main_v5` from boundary 3, to 4, 12, 22, 30, 38, 46, 54, 62, 70, 78, 86, 94 -/
theorem carry_v5_3_4 (c : Dev nD) :
    B4 m ρ c (Proc.devRef .tc main_v5) = B3 m ρ c (Proc.devRef .tc main_v5) :=
  (B4_of_ne m ρ c main_v5 (by decide))
theorem carry_v5_3_12 (c : Dev nD) :
    B12 m ρ c (Proc.devRef .tc main_v5) = B3 m ρ c (Proc.devRef .tc main_v5) :=
  (B12_of_ne m ρ c main_v5 (by decide)).trans <|
  (keep_hostOps4_of_not_mem (B10 m ρ c) main_v5 (by decide)).trans <|
  (B10_of_ne m ρ c main_v5 (by decide)).trans <|
  (keep_hostOps3_of_not_mem (B8 m ρ c) main_v5 (by decide)).trans <|
  (B8_of_ne m ρ c main_v5 (by decide)).trans <|
  (keep_hostOps2_of_not_mem (B6 m ρ c) main_v5 (by decide)).trans <|
  (B6_of_ne m ρ c main_v5 (by decide)).trans <|
  (keep_hostOps1_of_not_mem (B4 m ρ c) main_v5 (by decide)).trans <|
  carry_v5_3_4 m ρ c
theorem carry_v5_3_22 (c : Dev nD) :
    B22 m ρ c (Proc.devRef .tc main_v5) = B3 m ρ c (Proc.devRef .tc main_v5) :=
  (B22_of_ne m ρ c main_v5 (by decide)).trans <|
  (keep_hostOps9_of_not_mem (B20 m ρ c) main_v5 (by decide)).trans <|
  (B20_of_ne m ρ c main_v5 (by decide)).trans <|
  (keep_hostOps8_of_not_mem (B18 m ρ c) main_v5 (by decide)).trans <|
  (B18_of_ne m ρ c main_v5 (by decide)).trans <|
  (keep_hostOps7_of_not_mem (B16 m ρ c) main_v5 (by decide)).trans <|
  (B16_of_ne m ρ c main_v5 (by decide)).trans <|
  (keep_hostOps6_of_not_mem (B14 m ρ c) main_v5 (by decide)).trans <|
  (B14_of_ne m ρ c main_v5 (by decide)).trans <|
  (keep_hostOps5_of_not_mem (B12 m ρ c) main_v5 (by decide)).trans <|
  carry_v5_3_12 m ρ c
theorem carry_v5_3_30 (c : Dev nD) :
    B30 m ρ c (Proc.devRef .tc main_v5) = B3 m ρ c (Proc.devRef .tc main_v5) :=
  (B30_of_ne m ρ c main_v5 (by decide)).trans <|
  (keep_hostOps13_of_not_mem (B28 m ρ c) main_v5 (by decide)).trans <|
  (B28_of_ne m ρ c main_v5 (by decide)).trans <|
  (keep_hostOps12_of_not_mem (B26 m ρ c) main_v5 (by decide)).trans <|
  (B26_of_ne m ρ c main_v5 (by decide)).trans <|
  (keep_hostOps11_of_not_mem (B24 m ρ c) main_v5 (by decide)).trans <|
  (B24_of_ne m ρ c main_v5 (by decide)).trans <|
  (keep_hostOps10_of_not_mem (B22 m ρ c) main_v5 (by decide)).trans <|
  carry_v5_3_22 m ρ c
theorem carry_v5_3_38 (c : Dev nD) :
    B38 m ρ c (Proc.devRef .tc main_v5) = B3 m ρ c (Proc.devRef .tc main_v5) :=
  (B38_of_ne m ρ c main_v5 (by decide)).trans <|
  (keep_hostOps17_of_not_mem (B36 m ρ c) main_v5 (by decide)).trans <|
  (B36_of_ne m ρ c main_v5 (by decide)).trans <|
  (keep_hostOps16_of_not_mem (B34 m ρ c) main_v5 (by decide)).trans <|
  (B34_of_ne m ρ c main_v5 (by decide)).trans <|
  (keep_hostOps15_of_not_mem (B32 m ρ c) main_v5 (by decide)).trans <|
  (B32_of_ne m ρ c main_v5 (by decide)).trans <|
  (keep_hostOps14_of_not_mem (B30 m ρ c) main_v5 (by decide)).trans <|
  carry_v5_3_30 m ρ c
theorem carry_v5_3_46 (c : Dev nD) :
    B46 m ρ c (Proc.devRef .tc main_v5) = B3 m ρ c (Proc.devRef .tc main_v5) :=
  (B46_of_ne m ρ c main_v5 (by decide)).trans <|
  (keep_hostOps21_of_not_mem (B44 m ρ c) main_v5 (by decide)).trans <|
  (B44_of_ne m ρ c main_v5 (by decide)).trans <|
  (keep_hostOps20_of_not_mem (B42 m ρ c) main_v5 (by decide)).trans <|
  (B42_of_ne m ρ c main_v5 (by decide)).trans <|
  (keep_hostOps19_of_not_mem (B40 m ρ c) main_v5 (by decide)).trans <|
  (B40_of_ne m ρ c main_v5 (by decide)).trans <|
  (keep_hostOps18_of_not_mem (B38 m ρ c) main_v5 (by decide)).trans <|
  carry_v5_3_38 m ρ c
theorem carry_v5_3_54 (c : Dev nD) :
    B54 m ρ c (Proc.devRef .tc main_v5) = B3 m ρ c (Proc.devRef .tc main_v5) :=
  (B54_of_ne m ρ c main_v5 (by decide)).trans <|
  (keep_hostOps25_of_not_mem (B52 m ρ c) main_v5 (by decide)).trans <|
  (B52_of_ne m ρ c main_v5 (by decide)).trans <|
  (keep_hostOps24_of_not_mem (B50 m ρ c) main_v5 (by decide)).trans <|
  (B50_of_ne m ρ c main_v5 (by decide)).trans <|
  (keep_hostOps23_of_not_mem (B48 m ρ c) main_v5 (by decide)).trans <|
  (B48_of_ne m ρ c main_v5 (by decide)).trans <|
  (keep_hostOps22_of_not_mem (B46 m ρ c) main_v5 (by decide)).trans <|
  carry_v5_3_46 m ρ c
theorem carry_v5_3_62 (c : Dev nD) :
    B62 m ρ c (Proc.devRef .tc main_v5) = B3 m ρ c (Proc.devRef .tc main_v5) :=
  (B62_of_ne m ρ c main_v5 (by decide)).trans <|
  (keep_hostOps29_of_not_mem (B60 m ρ c) main_v5 (by decide)).trans <|
  (B60_of_ne m ρ c main_v5 (by decide)).trans <|
  (keep_hostOps28_of_not_mem (B58 m ρ c) main_v5 (by decide)).trans <|
  (B58_of_ne m ρ c main_v5 (by decide)).trans <|
  (keep_hostOps27_of_not_mem (B56 m ρ c) main_v5 (by decide)).trans <|
  (B56_of_ne m ρ c main_v5 (by decide)).trans <|
  (keep_hostOps26_of_not_mem (B54 m ρ c) main_v5 (by decide)).trans <|
  carry_v5_3_54 m ρ c
theorem carry_v5_3_70 (c : Dev nD) :
    B70 m ρ c (Proc.devRef .tc main_v5) = B3 m ρ c (Proc.devRef .tc main_v5) :=
  (B70_of_ne m ρ c main_v5 (by decide)).trans <|
  (keep_hostOps33_of_not_mem (B68 m ρ c) main_v5 (by decide)).trans <|
  (B68_of_ne m ρ c main_v5 (by decide)).trans <|
  (keep_hostOps32_of_not_mem (B66 m ρ c) main_v5 (by decide)).trans <|
  (B66_of_ne m ρ c main_v5 (by decide)).trans <|
  (keep_hostOps31_of_not_mem (B64 m ρ c) main_v5 (by decide)).trans <|
  (B64_of_ne m ρ c main_v5 (by decide)).trans <|
  (keep_hostOps30_of_not_mem (B62 m ρ c) main_v5 (by decide)).trans <|
  carry_v5_3_62 m ρ c
theorem carry_v5_3_78 (c : Dev nD) :
    B78 m ρ c (Proc.devRef .tc main_v5) = B3 m ρ c (Proc.devRef .tc main_v5) :=
  (B78_of_ne m ρ c main_v5 (by decide)).trans <|
  (keep_hostOps37_of_not_mem (B76 m ρ c) main_v5 (by decide)).trans <|
  (B76_of_ne m ρ c main_v5 (by decide)).trans <|
  (keep_hostOps36_of_not_mem (B74 m ρ c) main_v5 (by decide)).trans <|
  (B74_of_ne m ρ c main_v5 (by decide)).trans <|
  (keep_hostOps35_of_not_mem (B72 m ρ c) main_v5 (by decide)).trans <|
  (B72_of_ne m ρ c main_v5 (by decide)).trans <|
  (keep_hostOps34_of_not_mem (B70 m ρ c) main_v5 (by decide)).trans <|
  carry_v5_3_70 m ρ c
theorem carry_v5_3_86 (c : Dev nD) :
    B86 m ρ c (Proc.devRef .tc main_v5) = B3 m ρ c (Proc.devRef .tc main_v5) :=
  (B86_of_ne m ρ c main_v5 (by decide)).trans <|
  (keep_hostOps41_of_not_mem (B84 m ρ c) main_v5 (by decide)).trans <|
  (B84_of_ne m ρ c main_v5 (by decide)).trans <|
  (keep_hostOps40_of_not_mem (B82 m ρ c) main_v5 (by decide)).trans <|
  (B82_of_ne m ρ c main_v5 (by decide)).trans <|
  (keep_hostOps39_of_not_mem (B80 m ρ c) main_v5 (by decide)).trans <|
  (B80_of_ne m ρ c main_v5 (by decide)).trans <|
  (keep_hostOps38_of_not_mem (B78 m ρ c) main_v5 (by decide)).trans <|
  carry_v5_3_78 m ρ c
theorem carry_v5_3_94 (c : Dev nD) :
    B94 m ρ c (Proc.devRef .tc main_v5) = B3 m ρ c (Proc.devRef .tc main_v5) :=
  (B94_of_ne m ρ c main_v5 (by decide)).trans <|
  (keep_hostOps45_of_not_mem (B92 m ρ c) main_v5 (by decide)).trans <|
  (B92_of_ne m ρ c main_v5 (by decide)).trans <|
  (keep_hostOps44_of_not_mem (B90 m ρ c) main_v5 (by decide)).trans <|
  (B90_of_ne m ρ c main_v5 (by decide)).trans <|
  (keep_hostOps43_of_not_mem (B88 m ρ c) main_v5 (by decide)).trans <|
  (B88_of_ne m ρ c main_v5 (by decide)).trans <|
  (keep_hostOps42_of_not_mem (B86 m ρ c) main_v5 (by decide)).trans <|
  carry_v5_3_86 m ρ c

/-! ### `main_v6` from boundary 3, to 4, 12, 22, 30, 38, 46, 54, 62, 70, 78, 86, 94 -/
theorem carry_v6_3_4 (c : Dev nD) :
    B4 m ρ c (Proc.devRef .tc main_v6) = B3 m ρ c (Proc.devRef .tc main_v6) :=
  (B4_of_ne m ρ c main_v6 (by decide))
theorem carry_v6_3_12 (c : Dev nD) :
    B12 m ρ c (Proc.devRef .tc main_v6) = B3 m ρ c (Proc.devRef .tc main_v6) :=
  (B12_of_ne m ρ c main_v6 (by decide)).trans <|
  (keep_hostOps4_of_not_mem (B10 m ρ c) main_v6 (by decide)).trans <|
  (B10_of_ne m ρ c main_v6 (by decide)).trans <|
  (keep_hostOps3_of_not_mem (B8 m ρ c) main_v6 (by decide)).trans <|
  (B8_of_ne m ρ c main_v6 (by decide)).trans <|
  (keep_hostOps2_of_not_mem (B6 m ρ c) main_v6 (by decide)).trans <|
  (B6_of_ne m ρ c main_v6 (by decide)).trans <|
  (keep_hostOps1_of_not_mem (B4 m ρ c) main_v6 (by decide)).trans <|
  carry_v6_3_4 m ρ c
theorem carry_v6_3_22 (c : Dev nD) :
    B22 m ρ c (Proc.devRef .tc main_v6) = B3 m ρ c (Proc.devRef .tc main_v6) :=
  (B22_of_ne m ρ c main_v6 (by decide)).trans <|
  (keep_hostOps9_of_not_mem (B20 m ρ c) main_v6 (by decide)).trans <|
  (B20_of_ne m ρ c main_v6 (by decide)).trans <|
  (keep_hostOps8_of_not_mem (B18 m ρ c) main_v6 (by decide)).trans <|
  (B18_of_ne m ρ c main_v6 (by decide)).trans <|
  (keep_hostOps7_of_not_mem (B16 m ρ c) main_v6 (by decide)).trans <|
  (B16_of_ne m ρ c main_v6 (by decide)).trans <|
  (keep_hostOps6_of_not_mem (B14 m ρ c) main_v6 (by decide)).trans <|
  (B14_of_ne m ρ c main_v6 (by decide)).trans <|
  (keep_hostOps5_of_not_mem (B12 m ρ c) main_v6 (by decide)).trans <|
  carry_v6_3_12 m ρ c
theorem carry_v6_3_30 (c : Dev nD) :
    B30 m ρ c (Proc.devRef .tc main_v6) = B3 m ρ c (Proc.devRef .tc main_v6) :=
  (B30_of_ne m ρ c main_v6 (by decide)).trans <|
  (keep_hostOps13_of_not_mem (B28 m ρ c) main_v6 (by decide)).trans <|
  (B28_of_ne m ρ c main_v6 (by decide)).trans <|
  (keep_hostOps12_of_not_mem (B26 m ρ c) main_v6 (by decide)).trans <|
  (B26_of_ne m ρ c main_v6 (by decide)).trans <|
  (keep_hostOps11_of_not_mem (B24 m ρ c) main_v6 (by decide)).trans <|
  (B24_of_ne m ρ c main_v6 (by decide)).trans <|
  (keep_hostOps10_of_not_mem (B22 m ρ c) main_v6 (by decide)).trans <|
  carry_v6_3_22 m ρ c
theorem carry_v6_3_38 (c : Dev nD) :
    B38 m ρ c (Proc.devRef .tc main_v6) = B3 m ρ c (Proc.devRef .tc main_v6) :=
  (B38_of_ne m ρ c main_v6 (by decide)).trans <|
  (keep_hostOps17_of_not_mem (B36 m ρ c) main_v6 (by decide)).trans <|
  (B36_of_ne m ρ c main_v6 (by decide)).trans <|
  (keep_hostOps16_of_not_mem (B34 m ρ c) main_v6 (by decide)).trans <|
  (B34_of_ne m ρ c main_v6 (by decide)).trans <|
  (keep_hostOps15_of_not_mem (B32 m ρ c) main_v6 (by decide)).trans <|
  (B32_of_ne m ρ c main_v6 (by decide)).trans <|
  (keep_hostOps14_of_not_mem (B30 m ρ c) main_v6 (by decide)).trans <|
  carry_v6_3_30 m ρ c
theorem carry_v6_3_46 (c : Dev nD) :
    B46 m ρ c (Proc.devRef .tc main_v6) = B3 m ρ c (Proc.devRef .tc main_v6) :=
  (B46_of_ne m ρ c main_v6 (by decide)).trans <|
  (keep_hostOps21_of_not_mem (B44 m ρ c) main_v6 (by decide)).trans <|
  (B44_of_ne m ρ c main_v6 (by decide)).trans <|
  (keep_hostOps20_of_not_mem (B42 m ρ c) main_v6 (by decide)).trans <|
  (B42_of_ne m ρ c main_v6 (by decide)).trans <|
  (keep_hostOps19_of_not_mem (B40 m ρ c) main_v6 (by decide)).trans <|
  (B40_of_ne m ρ c main_v6 (by decide)).trans <|
  (keep_hostOps18_of_not_mem (B38 m ρ c) main_v6 (by decide)).trans <|
  carry_v6_3_38 m ρ c
theorem carry_v6_3_54 (c : Dev nD) :
    B54 m ρ c (Proc.devRef .tc main_v6) = B3 m ρ c (Proc.devRef .tc main_v6) :=
  (B54_of_ne m ρ c main_v6 (by decide)).trans <|
  (keep_hostOps25_of_not_mem (B52 m ρ c) main_v6 (by decide)).trans <|
  (B52_of_ne m ρ c main_v6 (by decide)).trans <|
  (keep_hostOps24_of_not_mem (B50 m ρ c) main_v6 (by decide)).trans <|
  (B50_of_ne m ρ c main_v6 (by decide)).trans <|
  (keep_hostOps23_of_not_mem (B48 m ρ c) main_v6 (by decide)).trans <|
  (B48_of_ne m ρ c main_v6 (by decide)).trans <|
  (keep_hostOps22_of_not_mem (B46 m ρ c) main_v6 (by decide)).trans <|
  carry_v6_3_46 m ρ c
theorem carry_v6_3_62 (c : Dev nD) :
    B62 m ρ c (Proc.devRef .tc main_v6) = B3 m ρ c (Proc.devRef .tc main_v6) :=
  (B62_of_ne m ρ c main_v6 (by decide)).trans <|
  (keep_hostOps29_of_not_mem (B60 m ρ c) main_v6 (by decide)).trans <|
  (B60_of_ne m ρ c main_v6 (by decide)).trans <|
  (keep_hostOps28_of_not_mem (B58 m ρ c) main_v6 (by decide)).trans <|
  (B58_of_ne m ρ c main_v6 (by decide)).trans <|
  (keep_hostOps27_of_not_mem (B56 m ρ c) main_v6 (by decide)).trans <|
  (B56_of_ne m ρ c main_v6 (by decide)).trans <|
  (keep_hostOps26_of_not_mem (B54 m ρ c) main_v6 (by decide)).trans <|
  carry_v6_3_54 m ρ c
theorem carry_v6_3_70 (c : Dev nD) :
    B70 m ρ c (Proc.devRef .tc main_v6) = B3 m ρ c (Proc.devRef .tc main_v6) :=
  (B70_of_ne m ρ c main_v6 (by decide)).trans <|
  (keep_hostOps33_of_not_mem (B68 m ρ c) main_v6 (by decide)).trans <|
  (B68_of_ne m ρ c main_v6 (by decide)).trans <|
  (keep_hostOps32_of_not_mem (B66 m ρ c) main_v6 (by decide)).trans <|
  (B66_of_ne m ρ c main_v6 (by decide)).trans <|
  (keep_hostOps31_of_not_mem (B64 m ρ c) main_v6 (by decide)).trans <|
  (B64_of_ne m ρ c main_v6 (by decide)).trans <|
  (keep_hostOps30_of_not_mem (B62 m ρ c) main_v6 (by decide)).trans <|
  carry_v6_3_62 m ρ c
theorem carry_v6_3_78 (c : Dev nD) :
    B78 m ρ c (Proc.devRef .tc main_v6) = B3 m ρ c (Proc.devRef .tc main_v6) :=
  (B78_of_ne m ρ c main_v6 (by decide)).trans <|
  (keep_hostOps37_of_not_mem (B76 m ρ c) main_v6 (by decide)).trans <|
  (B76_of_ne m ρ c main_v6 (by decide)).trans <|
  (keep_hostOps36_of_not_mem (B74 m ρ c) main_v6 (by decide)).trans <|
  (B74_of_ne m ρ c main_v6 (by decide)).trans <|
  (keep_hostOps35_of_not_mem (B72 m ρ c) main_v6 (by decide)).trans <|
  (B72_of_ne m ρ c main_v6 (by decide)).trans <|
  (keep_hostOps34_of_not_mem (B70 m ρ c) main_v6 (by decide)).trans <|
  carry_v6_3_70 m ρ c
theorem carry_v6_3_86 (c : Dev nD) :
    B86 m ρ c (Proc.devRef .tc main_v6) = B3 m ρ c (Proc.devRef .tc main_v6) :=
  (B86_of_ne m ρ c main_v6 (by decide)).trans <|
  (keep_hostOps41_of_not_mem (B84 m ρ c) main_v6 (by decide)).trans <|
  (B84_of_ne m ρ c main_v6 (by decide)).trans <|
  (keep_hostOps40_of_not_mem (B82 m ρ c) main_v6 (by decide)).trans <|
  (B82_of_ne m ρ c main_v6 (by decide)).trans <|
  (keep_hostOps39_of_not_mem (B80 m ρ c) main_v6 (by decide)).trans <|
  (B80_of_ne m ρ c main_v6 (by decide)).trans <|
  (keep_hostOps38_of_not_mem (B78 m ρ c) main_v6 (by decide)).trans <|
  carry_v6_3_78 m ρ c
theorem carry_v6_3_94 (c : Dev nD) :
    B94 m ρ c (Proc.devRef .tc main_v6) = B3 m ρ c (Proc.devRef .tc main_v6) :=
  (B94_of_ne m ρ c main_v6 (by decide)).trans <|
  (keep_hostOps45_of_not_mem (B92 m ρ c) main_v6 (by decide)).trans <|
  (B92_of_ne m ρ c main_v6 (by decide)).trans <|
  (keep_hostOps44_of_not_mem (B90 m ρ c) main_v6 (by decide)).trans <|
  (B90_of_ne m ρ c main_v6 (by decide)).trans <|
  (keep_hostOps43_of_not_mem (B88 m ρ c) main_v6 (by decide)).trans <|
  (B88_of_ne m ρ c main_v6 (by decide)).trans <|
  (keep_hostOps42_of_not_mem (B86 m ρ c) main_v6 (by decide)).trans <|
  carry_v6_3_86 m ρ c

/-! ### `main_v33` from boundary 3, to 4, 12, 22, 30, 38, 46, 54, 62, 70, 78, 86, 94 -/
theorem carry_v33_3_4 (c : Dev nD) :
    B4 m ρ c (Proc.devRef .tc main_v33) = B3 m ρ c (Proc.devRef .tc main_v33) :=
  (B4_of_ne m ρ c main_v33 (by decide))
theorem carry_v33_3_12 (c : Dev nD) :
    B12 m ρ c (Proc.devRef .tc main_v33) = B3 m ρ c (Proc.devRef .tc main_v33) :=
  (B12_of_ne m ρ c main_v33 (by decide)).trans <|
  (keep_hostOps4_of_not_mem (B10 m ρ c) main_v33 (by decide)).trans <|
  (B10_of_ne m ρ c main_v33 (by decide)).trans <|
  (keep_hostOps3_of_not_mem (B8 m ρ c) main_v33 (by decide)).trans <|
  (B8_of_ne m ρ c main_v33 (by decide)).trans <|
  (keep_hostOps2_of_not_mem (B6 m ρ c) main_v33 (by decide)).trans <|
  (B6_of_ne m ρ c main_v33 (by decide)).trans <|
  (keep_hostOps1_of_not_mem (B4 m ρ c) main_v33 (by decide)).trans <|
  carry_v33_3_4 m ρ c
theorem carry_v33_3_22 (c : Dev nD) :
    B22 m ρ c (Proc.devRef .tc main_v33) = B3 m ρ c (Proc.devRef .tc main_v33) :=
  (B22_of_ne m ρ c main_v33 (by decide)).trans <|
  (keep_hostOps9_of_not_mem (B20 m ρ c) main_v33 (by decide)).trans <|
  (B20_of_ne m ρ c main_v33 (by decide)).trans <|
  (keep_hostOps8_of_not_mem (B18 m ρ c) main_v33 (by decide)).trans <|
  (B18_of_ne m ρ c main_v33 (by decide)).trans <|
  (keep_hostOps7_of_not_mem (B16 m ρ c) main_v33 (by decide)).trans <|
  (B16_of_ne m ρ c main_v33 (by decide)).trans <|
  (keep_hostOps6_of_not_mem (B14 m ρ c) main_v33 (by decide)).trans <|
  (B14_of_ne m ρ c main_v33 (by decide)).trans <|
  (keep_hostOps5_of_not_mem (B12 m ρ c) main_v33 (by decide)).trans <|
  carry_v33_3_12 m ρ c
theorem carry_v33_3_30 (c : Dev nD) :
    B30 m ρ c (Proc.devRef .tc main_v33) = B3 m ρ c (Proc.devRef .tc main_v33) :=
  (B30_of_ne m ρ c main_v33 (by decide)).trans <|
  (keep_hostOps13_of_not_mem (B28 m ρ c) main_v33 (by decide)).trans <|
  (B28_of_ne m ρ c main_v33 (by decide)).trans <|
  (keep_hostOps12_of_not_mem (B26 m ρ c) main_v33 (by decide)).trans <|
  (B26_of_ne m ρ c main_v33 (by decide)).trans <|
  (keep_hostOps11_of_not_mem (B24 m ρ c) main_v33 (by decide)).trans <|
  (B24_of_ne m ρ c main_v33 (by decide)).trans <|
  (keep_hostOps10_of_not_mem (B22 m ρ c) main_v33 (by decide)).trans <|
  carry_v33_3_22 m ρ c
theorem carry_v33_3_38 (c : Dev nD) :
    B38 m ρ c (Proc.devRef .tc main_v33) = B3 m ρ c (Proc.devRef .tc main_v33) :=
  (B38_of_ne m ρ c main_v33 (by decide)).trans <|
  (keep_hostOps17_of_not_mem (B36 m ρ c) main_v33 (by decide)).trans <|
  (B36_of_ne m ρ c main_v33 (by decide)).trans <|
  (keep_hostOps16_of_not_mem (B34 m ρ c) main_v33 (by decide)).trans <|
  (B34_of_ne m ρ c main_v33 (by decide)).trans <|
  (keep_hostOps15_of_not_mem (B32 m ρ c) main_v33 (by decide)).trans <|
  (B32_of_ne m ρ c main_v33 (by decide)).trans <|
  (keep_hostOps14_of_not_mem (B30 m ρ c) main_v33 (by decide)).trans <|
  carry_v33_3_30 m ρ c
theorem carry_v33_3_46 (c : Dev nD) :
    B46 m ρ c (Proc.devRef .tc main_v33) = B3 m ρ c (Proc.devRef .tc main_v33) :=
  (B46_of_ne m ρ c main_v33 (by decide)).trans <|
  (keep_hostOps21_of_not_mem (B44 m ρ c) main_v33 (by decide)).trans <|
  (B44_of_ne m ρ c main_v33 (by decide)).trans <|
  (keep_hostOps20_of_not_mem (B42 m ρ c) main_v33 (by decide)).trans <|
  (B42_of_ne m ρ c main_v33 (by decide)).trans <|
  (keep_hostOps19_of_not_mem (B40 m ρ c) main_v33 (by decide)).trans <|
  (B40_of_ne m ρ c main_v33 (by decide)).trans <|
  (keep_hostOps18_of_not_mem (B38 m ρ c) main_v33 (by decide)).trans <|
  carry_v33_3_38 m ρ c
theorem carry_v33_3_54 (c : Dev nD) :
    B54 m ρ c (Proc.devRef .tc main_v33) = B3 m ρ c (Proc.devRef .tc main_v33) :=
  (B54_of_ne m ρ c main_v33 (by decide)).trans <|
  (keep_hostOps25_of_not_mem (B52 m ρ c) main_v33 (by decide)).trans <|
  (B52_of_ne m ρ c main_v33 (by decide)).trans <|
  (keep_hostOps24_of_not_mem (B50 m ρ c) main_v33 (by decide)).trans <|
  (B50_of_ne m ρ c main_v33 (by decide)).trans <|
  (keep_hostOps23_of_not_mem (B48 m ρ c) main_v33 (by decide)).trans <|
  (B48_of_ne m ρ c main_v33 (by decide)).trans <|
  (keep_hostOps22_of_not_mem (B46 m ρ c) main_v33 (by decide)).trans <|
  carry_v33_3_46 m ρ c
theorem carry_v33_3_62 (c : Dev nD) :
    B62 m ρ c (Proc.devRef .tc main_v33) = B3 m ρ c (Proc.devRef .tc main_v33) :=
  (B62_of_ne m ρ c main_v33 (by decide)).trans <|
  (keep_hostOps29_of_not_mem (B60 m ρ c) main_v33 (by decide)).trans <|
  (B60_of_ne m ρ c main_v33 (by decide)).trans <|
  (keep_hostOps28_of_not_mem (B58 m ρ c) main_v33 (by decide)).trans <|
  (B58_of_ne m ρ c main_v33 (by decide)).trans <|
  (keep_hostOps27_of_not_mem (B56 m ρ c) main_v33 (by decide)).trans <|
  (B56_of_ne m ρ c main_v33 (by decide)).trans <|
  (keep_hostOps26_of_not_mem (B54 m ρ c) main_v33 (by decide)).trans <|
  carry_v33_3_54 m ρ c
theorem carry_v33_3_70 (c : Dev nD) :
    B70 m ρ c (Proc.devRef .tc main_v33) = B3 m ρ c (Proc.devRef .tc main_v33) :=
  (B70_of_ne m ρ c main_v33 (by decide)).trans <|
  (keep_hostOps33_of_not_mem (B68 m ρ c) main_v33 (by decide)).trans <|
  (B68_of_ne m ρ c main_v33 (by decide)).trans <|
  (keep_hostOps32_of_not_mem (B66 m ρ c) main_v33 (by decide)).trans <|
  (B66_of_ne m ρ c main_v33 (by decide)).trans <|
  (keep_hostOps31_of_not_mem (B64 m ρ c) main_v33 (by decide)).trans <|
  (B64_of_ne m ρ c main_v33 (by decide)).trans <|
  (keep_hostOps30_of_not_mem (B62 m ρ c) main_v33 (by decide)).trans <|
  carry_v33_3_62 m ρ c
theorem carry_v33_3_78 (c : Dev nD) :
    B78 m ρ c (Proc.devRef .tc main_v33) = B3 m ρ c (Proc.devRef .tc main_v33) :=
  (B78_of_ne m ρ c main_v33 (by decide)).trans <|
  (keep_hostOps37_of_not_mem (B76 m ρ c) main_v33 (by decide)).trans <|
  (B76_of_ne m ρ c main_v33 (by decide)).trans <|
  (keep_hostOps36_of_not_mem (B74 m ρ c) main_v33 (by decide)).trans <|
  (B74_of_ne m ρ c main_v33 (by decide)).trans <|
  (keep_hostOps35_of_not_mem (B72 m ρ c) main_v33 (by decide)).trans <|
  (B72_of_ne m ρ c main_v33 (by decide)).trans <|
  (keep_hostOps34_of_not_mem (B70 m ρ c) main_v33 (by decide)).trans <|
  carry_v33_3_70 m ρ c
theorem carry_v33_3_86 (c : Dev nD) :
    B86 m ρ c (Proc.devRef .tc main_v33) = B3 m ρ c (Proc.devRef .tc main_v33) :=
  (B86_of_ne m ρ c main_v33 (by decide)).trans <|
  (keep_hostOps41_of_not_mem (B84 m ρ c) main_v33 (by decide)).trans <|
  (B84_of_ne m ρ c main_v33 (by decide)).trans <|
  (keep_hostOps40_of_not_mem (B82 m ρ c) main_v33 (by decide)).trans <|
  (B82_of_ne m ρ c main_v33 (by decide)).trans <|
  (keep_hostOps39_of_not_mem (B80 m ρ c) main_v33 (by decide)).trans <|
  (B80_of_ne m ρ c main_v33 (by decide)).trans <|
  (keep_hostOps38_of_not_mem (B78 m ρ c) main_v33 (by decide)).trans <|
  carry_v33_3_78 m ρ c
theorem carry_v33_3_94 (c : Dev nD) :
    B94 m ρ c (Proc.devRef .tc main_v33) = B3 m ρ c (Proc.devRef .tc main_v33) :=
  (B94_of_ne m ρ c main_v33 (by decide)).trans <|
  (keep_hostOps45_of_not_mem (B92 m ρ c) main_v33 (by decide)).trans <|
  (B92_of_ne m ρ c main_v33 (by decide)).trans <|
  (keep_hostOps44_of_not_mem (B90 m ρ c) main_v33 (by decide)).trans <|
  (B90_of_ne m ρ c main_v33 (by decide)).trans <|
  (keep_hostOps43_of_not_mem (B88 m ρ c) main_v33 (by decide)).trans <|
  (B88_of_ne m ρ c main_v33 (by decide)).trans <|
  (keep_hostOps42_of_not_mem (B86 m ρ c) main_v33 (by decide)).trans <|
  carry_v33_3_86 m ρ c

/-! ### `main_v39` from boundary 5, to 28 -/
theorem carry_v39_5_28 (c : Dev nD) :
    B28 m ρ c (Proc.devRef .tc main_v39) = B5 m ρ c (Proc.devRef .tc main_v39) :=
  (B28_of_ne m ρ c main_v39 (by decide)).trans <|
  (keep_hostOps12_of_not_mem (B26 m ρ c) main_v39 (by decide)).trans <|
  (B26_of_ne m ρ c main_v39 (by decide)).trans <|
  (keep_hostOps11_of_not_mem (B24 m ρ c) main_v39 (by decide)).trans <|
  (B24_of_ne m ρ c main_v39 (by decide)).trans <|
  (keep_hostOps10_of_not_mem (B22 m ρ c) main_v39 (by decide)).trans <|
  (B22_of_ne m ρ c main_v39 (by decide)).trans <|
  (keep_hostOps9_of_not_mem (B20 m ρ c) main_v39 (by decide)).trans <|
  (B20_of_ne m ρ c main_v39 (by decide)).trans <|
  (keep_hostOps8_of_not_mem (B18 m ρ c) main_v39 (by decide)).trans <|
  (B18_of_ne m ρ c main_v39 (by decide)).trans <|
  (keep_hostOps7_of_not_mem (B16 m ρ c) main_v39 (by decide)).trans <|
  (B16_of_ne m ρ c main_v39 (by decide)).trans <|
  (keep_hostOps6_of_not_mem (B14 m ρ c) main_v39 (by decide)).trans <|
  (B14_of_ne m ρ c main_v39 (by decide)).trans <|
  (keep_hostOps5_of_not_mem (B12 m ρ c) main_v39 (by decide)).trans <|
  (B12_of_ne m ρ c main_v39 (by decide)).trans <|
  (keep_hostOps4_of_not_mem (B10 m ρ c) main_v39 (by decide)).trans <|
  (B10_of_ne m ρ c main_v39 (by decide)).trans <|
  (keep_hostOps3_of_not_mem (B8 m ρ c) main_v39 (by decide)).trans <|
  (B8_of_ne m ρ c main_v39 (by decide)).trans <|
  (keep_hostOps2_of_not_mem (B6 m ρ c) main_v39 (by decide)).trans <|
  (B6_of_ne m ρ c main_v39 (by decide))

/-! ### `main_v41` from boundary 5, to 30 -/
theorem carry_v41_5_30 (c : Dev nD) :
    B30 m ρ c (Proc.devRef .tc main_v41) = B5 m ρ c (Proc.devRef .tc main_v41) :=
  (B30_of_ne m ρ c main_v41 (by decide)).trans <|
  (keep_hostOps13_of_not_mem (B28 m ρ c) main_v41 (by decide)).trans <|
  (B28_of_ne m ρ c main_v41 (by decide)).trans <|
  (keep_hostOps12_of_not_mem (B26 m ρ c) main_v41 (by decide)).trans <|
  (B26_of_ne m ρ c main_v41 (by decide)).trans <|
  (keep_hostOps11_of_not_mem (B24 m ρ c) main_v41 (by decide)).trans <|
  (B24_of_ne m ρ c main_v41 (by decide)).trans <|
  (keep_hostOps10_of_not_mem (B22 m ρ c) main_v41 (by decide)).trans <|
  (B22_of_ne m ρ c main_v41 (by decide)).trans <|
  (keep_hostOps9_of_not_mem (B20 m ρ c) main_v41 (by decide)).trans <|
  (B20_of_ne m ρ c main_v41 (by decide)).trans <|
  (keep_hostOps8_of_not_mem (B18 m ρ c) main_v41 (by decide)).trans <|
  (B18_of_ne m ρ c main_v41 (by decide)).trans <|
  (keep_hostOps7_of_not_mem (B16 m ρ c) main_v41 (by decide)).trans <|
  (B16_of_ne m ρ c main_v41 (by decide)).trans <|
  (keep_hostOps6_of_not_mem (B14 m ρ c) main_v41 (by decide)).trans <|
  (B14_of_ne m ρ c main_v41 (by decide)).trans <|
  (keep_hostOps5_of_not_mem (B12 m ρ c) main_v41 (by decide)).trans <|
  (B12_of_ne m ρ c main_v41 (by decide)).trans <|
  (keep_hostOps4_of_not_mem (B10 m ρ c) main_v41 (by decide)).trans <|
  (B10_of_ne m ρ c main_v41 (by decide)).trans <|
  (keep_hostOps3_of_not_mem (B8 m ρ c) main_v41 (by decide)).trans <|
  (B8_of_ne m ρ c main_v41 (by decide)).trans <|
  (keep_hostOps2_of_not_mem (B6 m ρ c) main_v41 (by decide)).trans <|
  (B6_of_ne m ρ c main_v41 (by decide))

/-! ### `main_v43` from boundary 5, to 36 -/
theorem carry_v43_5_36 (c : Dev nD) :
    B36 m ρ c (Proc.devRef .tc main_v43) = B5 m ρ c (Proc.devRef .tc main_v43) :=
  (B36_of_ne m ρ c main_v43 (by decide)).trans <|
  (keep_hostOps16_of_not_mem (B34 m ρ c) main_v43 (by decide)).trans <|
  (B34_of_ne m ρ c main_v43 (by decide)).trans <|
  (keep_hostOps15_of_not_mem (B32 m ρ c) main_v43 (by decide)).trans <|
  (B32_of_ne m ρ c main_v43 (by decide)).trans <|
  (keep_hostOps14_of_not_mem (B30 m ρ c) main_v43 (by decide)).trans <|
  (B30_of_ne m ρ c main_v43 (by decide)).trans <|
  (keep_hostOps13_of_not_mem (B28 m ρ c) main_v43 (by decide)).trans <|
  (B28_of_ne m ρ c main_v43 (by decide)).trans <|
  (keep_hostOps12_of_not_mem (B26 m ρ c) main_v43 (by decide)).trans <|
  (B26_of_ne m ρ c main_v43 (by decide)).trans <|
  (keep_hostOps11_of_not_mem (B24 m ρ c) main_v43 (by decide)).trans <|
  (B24_of_ne m ρ c main_v43 (by decide)).trans <|
  (keep_hostOps10_of_not_mem (B22 m ρ c) main_v43 (by decide)).trans <|
  (B22_of_ne m ρ c main_v43 (by decide)).trans <|
  (keep_hostOps9_of_not_mem (B20 m ρ c) main_v43 (by decide)).trans <|
  (B20_of_ne m ρ c main_v43 (by decide)).trans <|
  (keep_hostOps8_of_not_mem (B18 m ρ c) main_v43 (by decide)).trans <|
  (B18_of_ne m ρ c main_v43 (by decide)).trans <|
  (keep_hostOps7_of_not_mem (B16 m ρ c) main_v43 (by decide)).trans <|
  (B16_of_ne m ρ c main_v43 (by decide)).trans <|
  (keep_hostOps6_of_not_mem (B14 m ρ c) main_v43 (by decide)).trans <|
  (B14_of_ne m ρ c main_v43 (by decide)).trans <|
  (keep_hostOps5_of_not_mem (B12 m ρ c) main_v43 (by decide)).trans <|
  (B12_of_ne m ρ c main_v43 (by decide)).trans <|
  (keep_hostOps4_of_not_mem (B10 m ρ c) main_v43 (by decide)).trans <|
  (B10_of_ne m ρ c main_v43 (by decide)).trans <|
  (keep_hostOps3_of_not_mem (B8 m ρ c) main_v43 (by decide)).trans <|
  (B8_of_ne m ρ c main_v43 (by decide)).trans <|
  (keep_hostOps2_of_not_mem (B6 m ρ c) main_v43 (by decide)).trans <|
  (B6_of_ne m ρ c main_v43 (by decide))

/-! ### `main_v45` from boundary 5, to 38 -/
theorem carry_v45_5_38 (c : Dev nD) :
    B38 m ρ c (Proc.devRef .tc main_v45) = B5 m ρ c (Proc.devRef .tc main_v45) :=
  (B38_of_ne m ρ c main_v45 (by decide)).trans <|
  (keep_hostOps17_of_not_mem (B36 m ρ c) main_v45 (by decide)).trans <|
  (B36_of_ne m ρ c main_v45 (by decide)).trans <|
  (keep_hostOps16_of_not_mem (B34 m ρ c) main_v45 (by decide)).trans <|
  (B34_of_ne m ρ c main_v45 (by decide)).trans <|
  (keep_hostOps15_of_not_mem (B32 m ρ c) main_v45 (by decide)).trans <|
  (B32_of_ne m ρ c main_v45 (by decide)).trans <|
  (keep_hostOps14_of_not_mem (B30 m ρ c) main_v45 (by decide)).trans <|
  (B30_of_ne m ρ c main_v45 (by decide)).trans <|
  (keep_hostOps13_of_not_mem (B28 m ρ c) main_v45 (by decide)).trans <|
  (B28_of_ne m ρ c main_v45 (by decide)).trans <|
  (keep_hostOps12_of_not_mem (B26 m ρ c) main_v45 (by decide)).trans <|
  (B26_of_ne m ρ c main_v45 (by decide)).trans <|
  (keep_hostOps11_of_not_mem (B24 m ρ c) main_v45 (by decide)).trans <|
  (B24_of_ne m ρ c main_v45 (by decide)).trans <|
  (keep_hostOps10_of_not_mem (B22 m ρ c) main_v45 (by decide)).trans <|
  (B22_of_ne m ρ c main_v45 (by decide)).trans <|
  (keep_hostOps9_of_not_mem (B20 m ρ c) main_v45 (by decide)).trans <|
  (B20_of_ne m ρ c main_v45 (by decide)).trans <|
  (keep_hostOps8_of_not_mem (B18 m ρ c) main_v45 (by decide)).trans <|
  (B18_of_ne m ρ c main_v45 (by decide)).trans <|
  (keep_hostOps7_of_not_mem (B16 m ρ c) main_v45 (by decide)).trans <|
  (B16_of_ne m ρ c main_v45 (by decide)).trans <|
  (keep_hostOps6_of_not_mem (B14 m ρ c) main_v45 (by decide)).trans <|
  (B14_of_ne m ρ c main_v45 (by decide)).trans <|
  (keep_hostOps5_of_not_mem (B12 m ρ c) main_v45 (by decide)).trans <|
  (B12_of_ne m ρ c main_v45 (by decide)).trans <|
  (keep_hostOps4_of_not_mem (B10 m ρ c) main_v45 (by decide)).trans <|
  (B10_of_ne m ρ c main_v45 (by decide)).trans <|
  (keep_hostOps3_of_not_mem (B8 m ρ c) main_v45 (by decide)).trans <|
  (B8_of_ne m ρ c main_v45 (by decide)).trans <|
  (keep_hostOps2_of_not_mem (B6 m ρ c) main_v45 (by decide)).trans <|
  (B6_of_ne m ρ c main_v45 (by decide))

/-! ### `main_v47` from boundary 5, to 44 -/
theorem carry_v47_5_44 (c : Dev nD) :
    B44 m ρ c (Proc.devRef .tc main_v47) = B5 m ρ c (Proc.devRef .tc main_v47) :=
  (B44_of_ne m ρ c main_v47 (by decide)).trans <|
  (keep_hostOps20_of_not_mem (B42 m ρ c) main_v47 (by decide)).trans <|
  (B42_of_ne m ρ c main_v47 (by decide)).trans <|
  (keep_hostOps19_of_not_mem (B40 m ρ c) main_v47 (by decide)).trans <|
  (B40_of_ne m ρ c main_v47 (by decide)).trans <|
  (keep_hostOps18_of_not_mem (B38 m ρ c) main_v47 (by decide)).trans <|
  (B38_of_ne m ρ c main_v47 (by decide)).trans <|
  (keep_hostOps17_of_not_mem (B36 m ρ c) main_v47 (by decide)).trans <|
  (B36_of_ne m ρ c main_v47 (by decide)).trans <|
  (keep_hostOps16_of_not_mem (B34 m ρ c) main_v47 (by decide)).trans <|
  (B34_of_ne m ρ c main_v47 (by decide)).trans <|
  (keep_hostOps15_of_not_mem (B32 m ρ c) main_v47 (by decide)).trans <|
  (B32_of_ne m ρ c main_v47 (by decide)).trans <|
  (keep_hostOps14_of_not_mem (B30 m ρ c) main_v47 (by decide)).trans <|
  (B30_of_ne m ρ c main_v47 (by decide)).trans <|
  (keep_hostOps13_of_not_mem (B28 m ρ c) main_v47 (by decide)).trans <|
  (B28_of_ne m ρ c main_v47 (by decide)).trans <|
  (keep_hostOps12_of_not_mem (B26 m ρ c) main_v47 (by decide)).trans <|
  (B26_of_ne m ρ c main_v47 (by decide)).trans <|
  (keep_hostOps11_of_not_mem (B24 m ρ c) main_v47 (by decide)).trans <|
  (B24_of_ne m ρ c main_v47 (by decide)).trans <|
  (keep_hostOps10_of_not_mem (B22 m ρ c) main_v47 (by decide)).trans <|
  (B22_of_ne m ρ c main_v47 (by decide)).trans <|
  (keep_hostOps9_of_not_mem (B20 m ρ c) main_v47 (by decide)).trans <|
  (B20_of_ne m ρ c main_v47 (by decide)).trans <|
  (keep_hostOps8_of_not_mem (B18 m ρ c) main_v47 (by decide)).trans <|
  (B18_of_ne m ρ c main_v47 (by decide)).trans <|
  (keep_hostOps7_of_not_mem (B16 m ρ c) main_v47 (by decide)).trans <|
  (B16_of_ne m ρ c main_v47 (by decide)).trans <|
  (keep_hostOps6_of_not_mem (B14 m ρ c) main_v47 (by decide)).trans <|
  (B14_of_ne m ρ c main_v47 (by decide)).trans <|
  (keep_hostOps5_of_not_mem (B12 m ρ c) main_v47 (by decide)).trans <|
  (B12_of_ne m ρ c main_v47 (by decide)).trans <|
  (keep_hostOps4_of_not_mem (B10 m ρ c) main_v47 (by decide)).trans <|
  (B10_of_ne m ρ c main_v47 (by decide)).trans <|
  (keep_hostOps3_of_not_mem (B8 m ρ c) main_v47 (by decide)).trans <|
  (B8_of_ne m ρ c main_v47 (by decide)).trans <|
  (keep_hostOps2_of_not_mem (B6 m ρ c) main_v47 (by decide)).trans <|
  (B6_of_ne m ρ c main_v47 (by decide))

/-! ### `main_v49` from boundary 5, to 46 -/
theorem carry_v49_5_46 (c : Dev nD) :
    B46 m ρ c (Proc.devRef .tc main_v49) = B5 m ρ c (Proc.devRef .tc main_v49) :=
  (B46_of_ne m ρ c main_v49 (by decide)).trans <|
  (keep_hostOps21_of_not_mem (B44 m ρ c) main_v49 (by decide)).trans <|
  (B44_of_ne m ρ c main_v49 (by decide)).trans <|
  (keep_hostOps20_of_not_mem (B42 m ρ c) main_v49 (by decide)).trans <|
  (B42_of_ne m ρ c main_v49 (by decide)).trans <|
  (keep_hostOps19_of_not_mem (B40 m ρ c) main_v49 (by decide)).trans <|
  (B40_of_ne m ρ c main_v49 (by decide)).trans <|
  (keep_hostOps18_of_not_mem (B38 m ρ c) main_v49 (by decide)).trans <|
  (B38_of_ne m ρ c main_v49 (by decide)).trans <|
  (keep_hostOps17_of_not_mem (B36 m ρ c) main_v49 (by decide)).trans <|
  (B36_of_ne m ρ c main_v49 (by decide)).trans <|
  (keep_hostOps16_of_not_mem (B34 m ρ c) main_v49 (by decide)).trans <|
  (B34_of_ne m ρ c main_v49 (by decide)).trans <|
  (keep_hostOps15_of_not_mem (B32 m ρ c) main_v49 (by decide)).trans <|
  (B32_of_ne m ρ c main_v49 (by decide)).trans <|
  (keep_hostOps14_of_not_mem (B30 m ρ c) main_v49 (by decide)).trans <|
  (B30_of_ne m ρ c main_v49 (by decide)).trans <|
  (keep_hostOps13_of_not_mem (B28 m ρ c) main_v49 (by decide)).trans <|
  (B28_of_ne m ρ c main_v49 (by decide)).trans <|
  (keep_hostOps12_of_not_mem (B26 m ρ c) main_v49 (by decide)).trans <|
  (B26_of_ne m ρ c main_v49 (by decide)).trans <|
  (keep_hostOps11_of_not_mem (B24 m ρ c) main_v49 (by decide)).trans <|
  (B24_of_ne m ρ c main_v49 (by decide)).trans <|
  (keep_hostOps10_of_not_mem (B22 m ρ c) main_v49 (by decide)).trans <|
  (B22_of_ne m ρ c main_v49 (by decide)).trans <|
  (keep_hostOps9_of_not_mem (B20 m ρ c) main_v49 (by decide)).trans <|
  (B20_of_ne m ρ c main_v49 (by decide)).trans <|
  (keep_hostOps8_of_not_mem (B18 m ρ c) main_v49 (by decide)).trans <|
  (B18_of_ne m ρ c main_v49 (by decide)).trans <|
  (keep_hostOps7_of_not_mem (B16 m ρ c) main_v49 (by decide)).trans <|
  (B16_of_ne m ρ c main_v49 (by decide)).trans <|
  (keep_hostOps6_of_not_mem (B14 m ρ c) main_v49 (by decide)).trans <|
  (B14_of_ne m ρ c main_v49 (by decide)).trans <|
  (keep_hostOps5_of_not_mem (B12 m ρ c) main_v49 (by decide)).trans <|
  (B12_of_ne m ρ c main_v49 (by decide)).trans <|
  (keep_hostOps4_of_not_mem (B10 m ρ c) main_v49 (by decide)).trans <|
  (B10_of_ne m ρ c main_v49 (by decide)).trans <|
  (keep_hostOps3_of_not_mem (B8 m ρ c) main_v49 (by decide)).trans <|
  (B8_of_ne m ρ c main_v49 (by decide)).trans <|
  (keep_hostOps2_of_not_mem (B6 m ρ c) main_v49 (by decide)).trans <|
  (B6_of_ne m ρ c main_v49 (by decide))

/-! ### `main_v51` from boundary 5, to 52 -/
theorem carry_v51_5_52 (c : Dev nD) :
    B52 m ρ c (Proc.devRef .tc main_v51) = B5 m ρ c (Proc.devRef .tc main_v51) :=
  (B52_of_ne m ρ c main_v51 (by decide)).trans <|
  (keep_hostOps24_of_not_mem (B50 m ρ c) main_v51 (by decide)).trans <|
  (B50_of_ne m ρ c main_v51 (by decide)).trans <|
  (keep_hostOps23_of_not_mem (B48 m ρ c) main_v51 (by decide)).trans <|
  (B48_of_ne m ρ c main_v51 (by decide)).trans <|
  (keep_hostOps22_of_not_mem (B46 m ρ c) main_v51 (by decide)).trans <|
  (B46_of_ne m ρ c main_v51 (by decide)).trans <|
  (keep_hostOps21_of_not_mem (B44 m ρ c) main_v51 (by decide)).trans <|
  (B44_of_ne m ρ c main_v51 (by decide)).trans <|
  (keep_hostOps20_of_not_mem (B42 m ρ c) main_v51 (by decide)).trans <|
  (B42_of_ne m ρ c main_v51 (by decide)).trans <|
  (keep_hostOps19_of_not_mem (B40 m ρ c) main_v51 (by decide)).trans <|
  (B40_of_ne m ρ c main_v51 (by decide)).trans <|
  (keep_hostOps18_of_not_mem (B38 m ρ c) main_v51 (by decide)).trans <|
  (B38_of_ne m ρ c main_v51 (by decide)).trans <|
  (keep_hostOps17_of_not_mem (B36 m ρ c) main_v51 (by decide)).trans <|
  (B36_of_ne m ρ c main_v51 (by decide)).trans <|
  (keep_hostOps16_of_not_mem (B34 m ρ c) main_v51 (by decide)).trans <|
  (B34_of_ne m ρ c main_v51 (by decide)).trans <|
  (keep_hostOps15_of_not_mem (B32 m ρ c) main_v51 (by decide)).trans <|
  (B32_of_ne m ρ c main_v51 (by decide)).trans <|
  (keep_hostOps14_of_not_mem (B30 m ρ c) main_v51 (by decide)).trans <|
  (B30_of_ne m ρ c main_v51 (by decide)).trans <|
  (keep_hostOps13_of_not_mem (B28 m ρ c) main_v51 (by decide)).trans <|
  (B28_of_ne m ρ c main_v51 (by decide)).trans <|
  (keep_hostOps12_of_not_mem (B26 m ρ c) main_v51 (by decide)).trans <|
  (B26_of_ne m ρ c main_v51 (by decide)).trans <|
  (keep_hostOps11_of_not_mem (B24 m ρ c) main_v51 (by decide)).trans <|
  (B24_of_ne m ρ c main_v51 (by decide)).trans <|
  (keep_hostOps10_of_not_mem (B22 m ρ c) main_v51 (by decide)).trans <|
  (B22_of_ne m ρ c main_v51 (by decide)).trans <|
  (keep_hostOps9_of_not_mem (B20 m ρ c) main_v51 (by decide)).trans <|
  (B20_of_ne m ρ c main_v51 (by decide)).trans <|
  (keep_hostOps8_of_not_mem (B18 m ρ c) main_v51 (by decide)).trans <|
  (B18_of_ne m ρ c main_v51 (by decide)).trans <|
  (keep_hostOps7_of_not_mem (B16 m ρ c) main_v51 (by decide)).trans <|
  (B16_of_ne m ρ c main_v51 (by decide)).trans <|
  (keep_hostOps6_of_not_mem (B14 m ρ c) main_v51 (by decide)).trans <|
  (B14_of_ne m ρ c main_v51 (by decide)).trans <|
  (keep_hostOps5_of_not_mem (B12 m ρ c) main_v51 (by decide)).trans <|
  (B12_of_ne m ρ c main_v51 (by decide)).trans <|
  (keep_hostOps4_of_not_mem (B10 m ρ c) main_v51 (by decide)).trans <|
  (B10_of_ne m ρ c main_v51 (by decide)).trans <|
  (keep_hostOps3_of_not_mem (B8 m ρ c) main_v51 (by decide)).trans <|
  (B8_of_ne m ρ c main_v51 (by decide)).trans <|
  (keep_hostOps2_of_not_mem (B6 m ρ c) main_v51 (by decide)).trans <|
  (B6_of_ne m ρ c main_v51 (by decide))

/-! ### `main_v53` from boundary 5, to 54 -/
theorem carry_v53_5_54 (c : Dev nD) :
    B54 m ρ c (Proc.devRef .tc main_v53) = B5 m ρ c (Proc.devRef .tc main_v53) :=
  (B54_of_ne m ρ c main_v53 (by decide)).trans <|
  (keep_hostOps25_of_not_mem (B52 m ρ c) main_v53 (by decide)).trans <|
  (B52_of_ne m ρ c main_v53 (by decide)).trans <|
  (keep_hostOps24_of_not_mem (B50 m ρ c) main_v53 (by decide)).trans <|
  (B50_of_ne m ρ c main_v53 (by decide)).trans <|
  (keep_hostOps23_of_not_mem (B48 m ρ c) main_v53 (by decide)).trans <|
  (B48_of_ne m ρ c main_v53 (by decide)).trans <|
  (keep_hostOps22_of_not_mem (B46 m ρ c) main_v53 (by decide)).trans <|
  (B46_of_ne m ρ c main_v53 (by decide)).trans <|
  (keep_hostOps21_of_not_mem (B44 m ρ c) main_v53 (by decide)).trans <|
  (B44_of_ne m ρ c main_v53 (by decide)).trans <|
  (keep_hostOps20_of_not_mem (B42 m ρ c) main_v53 (by decide)).trans <|
  (B42_of_ne m ρ c main_v53 (by decide)).trans <|
  (keep_hostOps19_of_not_mem (B40 m ρ c) main_v53 (by decide)).trans <|
  (B40_of_ne m ρ c main_v53 (by decide)).trans <|
  (keep_hostOps18_of_not_mem (B38 m ρ c) main_v53 (by decide)).trans <|
  (B38_of_ne m ρ c main_v53 (by decide)).trans <|
  (keep_hostOps17_of_not_mem (B36 m ρ c) main_v53 (by decide)).trans <|
  (B36_of_ne m ρ c main_v53 (by decide)).trans <|
  (keep_hostOps16_of_not_mem (B34 m ρ c) main_v53 (by decide)).trans <|
  (B34_of_ne m ρ c main_v53 (by decide)).trans <|
  (keep_hostOps15_of_not_mem (B32 m ρ c) main_v53 (by decide)).trans <|
  (B32_of_ne m ρ c main_v53 (by decide)).trans <|
  (keep_hostOps14_of_not_mem (B30 m ρ c) main_v53 (by decide)).trans <|
  (B30_of_ne m ρ c main_v53 (by decide)).trans <|
  (keep_hostOps13_of_not_mem (B28 m ρ c) main_v53 (by decide)).trans <|
  (B28_of_ne m ρ c main_v53 (by decide)).trans <|
  (keep_hostOps12_of_not_mem (B26 m ρ c) main_v53 (by decide)).trans <|
  (B26_of_ne m ρ c main_v53 (by decide)).trans <|
  (keep_hostOps11_of_not_mem (B24 m ρ c) main_v53 (by decide)).trans <|
  (B24_of_ne m ρ c main_v53 (by decide)).trans <|
  (keep_hostOps10_of_not_mem (B22 m ρ c) main_v53 (by decide)).trans <|
  (B22_of_ne m ρ c main_v53 (by decide)).trans <|
  (keep_hostOps9_of_not_mem (B20 m ρ c) main_v53 (by decide)).trans <|
  (B20_of_ne m ρ c main_v53 (by decide)).trans <|
  (keep_hostOps8_of_not_mem (B18 m ρ c) main_v53 (by decide)).trans <|
  (B18_of_ne m ρ c main_v53 (by decide)).trans <|
  (keep_hostOps7_of_not_mem (B16 m ρ c) main_v53 (by decide)).trans <|
  (B16_of_ne m ρ c main_v53 (by decide)).trans <|
  (keep_hostOps6_of_not_mem (B14 m ρ c) main_v53 (by decide)).trans <|
  (B14_of_ne m ρ c main_v53 (by decide)).trans <|
  (keep_hostOps5_of_not_mem (B12 m ρ c) main_v53 (by decide)).trans <|
  (B12_of_ne m ρ c main_v53 (by decide)).trans <|
  (keep_hostOps4_of_not_mem (B10 m ρ c) main_v53 (by decide)).trans <|
  (B10_of_ne m ρ c main_v53 (by decide)).trans <|
  (keep_hostOps3_of_not_mem (B8 m ρ c) main_v53 (by decide)).trans <|
  (B8_of_ne m ρ c main_v53 (by decide)).trans <|
  (keep_hostOps2_of_not_mem (B6 m ρ c) main_v53 (by decide)).trans <|
  (B6_of_ne m ρ c main_v53 (by decide))

/-! ### `main_v55` from boundary 5, to 60 -/
theorem carry_v55_5_60 (c : Dev nD) :
    B60 m ρ c (Proc.devRef .tc main_v55) = B5 m ρ c (Proc.devRef .tc main_v55) :=
  (B60_of_ne m ρ c main_v55 (by decide)).trans <|
  (keep_hostOps28_of_not_mem (B58 m ρ c) main_v55 (by decide)).trans <|
  (B58_of_ne m ρ c main_v55 (by decide)).trans <|
  (keep_hostOps27_of_not_mem (B56 m ρ c) main_v55 (by decide)).trans <|
  (B56_of_ne m ρ c main_v55 (by decide)).trans <|
  (keep_hostOps26_of_not_mem (B54 m ρ c) main_v55 (by decide)).trans <|
  (B54_of_ne m ρ c main_v55 (by decide)).trans <|
  (keep_hostOps25_of_not_mem (B52 m ρ c) main_v55 (by decide)).trans <|
  (B52_of_ne m ρ c main_v55 (by decide)).trans <|
  (keep_hostOps24_of_not_mem (B50 m ρ c) main_v55 (by decide)).trans <|
  (B50_of_ne m ρ c main_v55 (by decide)).trans <|
  (keep_hostOps23_of_not_mem (B48 m ρ c) main_v55 (by decide)).trans <|
  (B48_of_ne m ρ c main_v55 (by decide)).trans <|
  (keep_hostOps22_of_not_mem (B46 m ρ c) main_v55 (by decide)).trans <|
  (B46_of_ne m ρ c main_v55 (by decide)).trans <|
  (keep_hostOps21_of_not_mem (B44 m ρ c) main_v55 (by decide)).trans <|
  (B44_of_ne m ρ c main_v55 (by decide)).trans <|
  (keep_hostOps20_of_not_mem (B42 m ρ c) main_v55 (by decide)).trans <|
  (B42_of_ne m ρ c main_v55 (by decide)).trans <|
  (keep_hostOps19_of_not_mem (B40 m ρ c) main_v55 (by decide)).trans <|
  (B40_of_ne m ρ c main_v55 (by decide)).trans <|
  (keep_hostOps18_of_not_mem (B38 m ρ c) main_v55 (by decide)).trans <|
  (B38_of_ne m ρ c main_v55 (by decide)).trans <|
  (keep_hostOps17_of_not_mem (B36 m ρ c) main_v55 (by decide)).trans <|
  (B36_of_ne m ρ c main_v55 (by decide)).trans <|
  (keep_hostOps16_of_not_mem (B34 m ρ c) main_v55 (by decide)).trans <|
  (B34_of_ne m ρ c main_v55 (by decide)).trans <|
  (keep_hostOps15_of_not_mem (B32 m ρ c) main_v55 (by decide)).trans <|
  (B32_of_ne m ρ c main_v55 (by decide)).trans <|
  (keep_hostOps14_of_not_mem (B30 m ρ c) main_v55 (by decide)).trans <|
  (B30_of_ne m ρ c main_v55 (by decide)).trans <|
  (keep_hostOps13_of_not_mem (B28 m ρ c) main_v55 (by decide)).trans <|
  (B28_of_ne m ρ c main_v55 (by decide)).trans <|
  (keep_hostOps12_of_not_mem (B26 m ρ c) main_v55 (by decide)).trans <|
  (B26_of_ne m ρ c main_v55 (by decide)).trans <|
  (keep_hostOps11_of_not_mem (B24 m ρ c) main_v55 (by decide)).trans <|
  (B24_of_ne m ρ c main_v55 (by decide)).trans <|
  (keep_hostOps10_of_not_mem (B22 m ρ c) main_v55 (by decide)).trans <|
  (B22_of_ne m ρ c main_v55 (by decide)).trans <|
  (keep_hostOps9_of_not_mem (B20 m ρ c) main_v55 (by decide)).trans <|
  (B20_of_ne m ρ c main_v55 (by decide)).trans <|
  (keep_hostOps8_of_not_mem (B18 m ρ c) main_v55 (by decide)).trans <|
  (B18_of_ne m ρ c main_v55 (by decide)).trans <|
  (keep_hostOps7_of_not_mem (B16 m ρ c) main_v55 (by decide)).trans <|
  (B16_of_ne m ρ c main_v55 (by decide)).trans <|
  (keep_hostOps6_of_not_mem (B14 m ρ c) main_v55 (by decide)).trans <|
  (B14_of_ne m ρ c main_v55 (by decide)).trans <|
  (keep_hostOps5_of_not_mem (B12 m ρ c) main_v55 (by decide)).trans <|
  (B12_of_ne m ρ c main_v55 (by decide)).trans <|
  (keep_hostOps4_of_not_mem (B10 m ρ c) main_v55 (by decide)).trans <|
  (B10_of_ne m ρ c main_v55 (by decide)).trans <|
  (keep_hostOps3_of_not_mem (B8 m ρ c) main_v55 (by decide)).trans <|
  (B8_of_ne m ρ c main_v55 (by decide)).trans <|
  (keep_hostOps2_of_not_mem (B6 m ρ c) main_v55 (by decide)).trans <|
  (B6_of_ne m ρ c main_v55 (by decide))

/-! ### `main_v57` from boundary 5, to 62 -/
theorem carry_v57_5_62 (c : Dev nD) :
    B62 m ρ c (Proc.devRef .tc main_v57) = B5 m ρ c (Proc.devRef .tc main_v57) :=
  (B62_of_ne m ρ c main_v57 (by decide)).trans <|
  (keep_hostOps29_of_not_mem (B60 m ρ c) main_v57 (by decide)).trans <|
  (B60_of_ne m ρ c main_v57 (by decide)).trans <|
  (keep_hostOps28_of_not_mem (B58 m ρ c) main_v57 (by decide)).trans <|
  (B58_of_ne m ρ c main_v57 (by decide)).trans <|
  (keep_hostOps27_of_not_mem (B56 m ρ c) main_v57 (by decide)).trans <|
  (B56_of_ne m ρ c main_v57 (by decide)).trans <|
  (keep_hostOps26_of_not_mem (B54 m ρ c) main_v57 (by decide)).trans <|
  (B54_of_ne m ρ c main_v57 (by decide)).trans <|
  (keep_hostOps25_of_not_mem (B52 m ρ c) main_v57 (by decide)).trans <|
  (B52_of_ne m ρ c main_v57 (by decide)).trans <|
  (keep_hostOps24_of_not_mem (B50 m ρ c) main_v57 (by decide)).trans <|
  (B50_of_ne m ρ c main_v57 (by decide)).trans <|
  (keep_hostOps23_of_not_mem (B48 m ρ c) main_v57 (by decide)).trans <|
  (B48_of_ne m ρ c main_v57 (by decide)).trans <|
  (keep_hostOps22_of_not_mem (B46 m ρ c) main_v57 (by decide)).trans <|
  (B46_of_ne m ρ c main_v57 (by decide)).trans <|
  (keep_hostOps21_of_not_mem (B44 m ρ c) main_v57 (by decide)).trans <|
  (B44_of_ne m ρ c main_v57 (by decide)).trans <|
  (keep_hostOps20_of_not_mem (B42 m ρ c) main_v57 (by decide)).trans <|
  (B42_of_ne m ρ c main_v57 (by decide)).trans <|
  (keep_hostOps19_of_not_mem (B40 m ρ c) main_v57 (by decide)).trans <|
  (B40_of_ne m ρ c main_v57 (by decide)).trans <|
  (keep_hostOps18_of_not_mem (B38 m ρ c) main_v57 (by decide)).trans <|
  (B38_of_ne m ρ c main_v57 (by decide)).trans <|
  (keep_hostOps17_of_not_mem (B36 m ρ c) main_v57 (by decide)).trans <|
  (B36_of_ne m ρ c main_v57 (by decide)).trans <|
  (keep_hostOps16_of_not_mem (B34 m ρ c) main_v57 (by decide)).trans <|
  (B34_of_ne m ρ c main_v57 (by decide)).trans <|
  (keep_hostOps15_of_not_mem (B32 m ρ c) main_v57 (by decide)).trans <|
  (B32_of_ne m ρ c main_v57 (by decide)).trans <|
  (keep_hostOps14_of_not_mem (B30 m ρ c) main_v57 (by decide)).trans <|
  (B30_of_ne m ρ c main_v57 (by decide)).trans <|
  (keep_hostOps13_of_not_mem (B28 m ρ c) main_v57 (by decide)).trans <|
  (B28_of_ne m ρ c main_v57 (by decide)).trans <|
  (keep_hostOps12_of_not_mem (B26 m ρ c) main_v57 (by decide)).trans <|
  (B26_of_ne m ρ c main_v57 (by decide)).trans <|
  (keep_hostOps11_of_not_mem (B24 m ρ c) main_v57 (by decide)).trans <|
  (B24_of_ne m ρ c main_v57 (by decide)).trans <|
  (keep_hostOps10_of_not_mem (B22 m ρ c) main_v57 (by decide)).trans <|
  (B22_of_ne m ρ c main_v57 (by decide)).trans <|
  (keep_hostOps9_of_not_mem (B20 m ρ c) main_v57 (by decide)).trans <|
  (B20_of_ne m ρ c main_v57 (by decide)).trans <|
  (keep_hostOps8_of_not_mem (B18 m ρ c) main_v57 (by decide)).trans <|
  (B18_of_ne m ρ c main_v57 (by decide)).trans <|
  (keep_hostOps7_of_not_mem (B16 m ρ c) main_v57 (by decide)).trans <|
  (B16_of_ne m ρ c main_v57 (by decide)).trans <|
  (keep_hostOps6_of_not_mem (B14 m ρ c) main_v57 (by decide)).trans <|
  (B14_of_ne m ρ c main_v57 (by decide)).trans <|
  (keep_hostOps5_of_not_mem (B12 m ρ c) main_v57 (by decide)).trans <|
  (B12_of_ne m ρ c main_v57 (by decide)).trans <|
  (keep_hostOps4_of_not_mem (B10 m ρ c) main_v57 (by decide)).trans <|
  (B10_of_ne m ρ c main_v57 (by decide)).trans <|
  (keep_hostOps3_of_not_mem (B8 m ρ c) main_v57 (by decide)).trans <|
  (B8_of_ne m ρ c main_v57 (by decide)).trans <|
  (keep_hostOps2_of_not_mem (B6 m ρ c) main_v57 (by decide)).trans <|
  (B6_of_ne m ρ c main_v57 (by decide))

/-! ### `main_v59` from boundary 5, to 68 -/
theorem carry_v59_5_68 (c : Dev nD) :
    B68 m ρ c (Proc.devRef .tc main_v59) = B5 m ρ c (Proc.devRef .tc main_v59) :=
  (B68_of_ne m ρ c main_v59 (by decide)).trans <|
  (keep_hostOps32_of_not_mem (B66 m ρ c) main_v59 (by decide)).trans <|
  (B66_of_ne m ρ c main_v59 (by decide)).trans <|
  (keep_hostOps31_of_not_mem (B64 m ρ c) main_v59 (by decide)).trans <|
  (B64_of_ne m ρ c main_v59 (by decide)).trans <|
  (keep_hostOps30_of_not_mem (B62 m ρ c) main_v59 (by decide)).trans <|
  (B62_of_ne m ρ c main_v59 (by decide)).trans <|
  (keep_hostOps29_of_not_mem (B60 m ρ c) main_v59 (by decide)).trans <|
  (B60_of_ne m ρ c main_v59 (by decide)).trans <|
  (keep_hostOps28_of_not_mem (B58 m ρ c) main_v59 (by decide)).trans <|
  (B58_of_ne m ρ c main_v59 (by decide)).trans <|
  (keep_hostOps27_of_not_mem (B56 m ρ c) main_v59 (by decide)).trans <|
  (B56_of_ne m ρ c main_v59 (by decide)).trans <|
  (keep_hostOps26_of_not_mem (B54 m ρ c) main_v59 (by decide)).trans <|
  (B54_of_ne m ρ c main_v59 (by decide)).trans <|
  (keep_hostOps25_of_not_mem (B52 m ρ c) main_v59 (by decide)).trans <|
  (B52_of_ne m ρ c main_v59 (by decide)).trans <|
  (keep_hostOps24_of_not_mem (B50 m ρ c) main_v59 (by decide)).trans <|
  (B50_of_ne m ρ c main_v59 (by decide)).trans <|
  (keep_hostOps23_of_not_mem (B48 m ρ c) main_v59 (by decide)).trans <|
  (B48_of_ne m ρ c main_v59 (by decide)).trans <|
  (keep_hostOps22_of_not_mem (B46 m ρ c) main_v59 (by decide)).trans <|
  (B46_of_ne m ρ c main_v59 (by decide)).trans <|
  (keep_hostOps21_of_not_mem (B44 m ρ c) main_v59 (by decide)).trans <|
  (B44_of_ne m ρ c main_v59 (by decide)).trans <|
  (keep_hostOps20_of_not_mem (B42 m ρ c) main_v59 (by decide)).trans <|
  (B42_of_ne m ρ c main_v59 (by decide)).trans <|
  (keep_hostOps19_of_not_mem (B40 m ρ c) main_v59 (by decide)).trans <|
  (B40_of_ne m ρ c main_v59 (by decide)).trans <|
  (keep_hostOps18_of_not_mem (B38 m ρ c) main_v59 (by decide)).trans <|
  (B38_of_ne m ρ c main_v59 (by decide)).trans <|
  (keep_hostOps17_of_not_mem (B36 m ρ c) main_v59 (by decide)).trans <|
  (B36_of_ne m ρ c main_v59 (by decide)).trans <|
  (keep_hostOps16_of_not_mem (B34 m ρ c) main_v59 (by decide)).trans <|
  (B34_of_ne m ρ c main_v59 (by decide)).trans <|
  (keep_hostOps15_of_not_mem (B32 m ρ c) main_v59 (by decide)).trans <|
  (B32_of_ne m ρ c main_v59 (by decide)).trans <|
  (keep_hostOps14_of_not_mem (B30 m ρ c) main_v59 (by decide)).trans <|
  (B30_of_ne m ρ c main_v59 (by decide)).trans <|
  (keep_hostOps13_of_not_mem (B28 m ρ c) main_v59 (by decide)).trans <|
  (B28_of_ne m ρ c main_v59 (by decide)).trans <|
  (keep_hostOps12_of_not_mem (B26 m ρ c) main_v59 (by decide)).trans <|
  (B26_of_ne m ρ c main_v59 (by decide)).trans <|
  (keep_hostOps11_of_not_mem (B24 m ρ c) main_v59 (by decide)).trans <|
  (B24_of_ne m ρ c main_v59 (by decide)).trans <|
  (keep_hostOps10_of_not_mem (B22 m ρ c) main_v59 (by decide)).trans <|
  (B22_of_ne m ρ c main_v59 (by decide)).trans <|
  (keep_hostOps9_of_not_mem (B20 m ρ c) main_v59 (by decide)).trans <|
  (B20_of_ne m ρ c main_v59 (by decide)).trans <|
  (keep_hostOps8_of_not_mem (B18 m ρ c) main_v59 (by decide)).trans <|
  (B18_of_ne m ρ c main_v59 (by decide)).trans <|
  (keep_hostOps7_of_not_mem (B16 m ρ c) main_v59 (by decide)).trans <|
  (B16_of_ne m ρ c main_v59 (by decide)).trans <|
  (keep_hostOps6_of_not_mem (B14 m ρ c) main_v59 (by decide)).trans <|
  (B14_of_ne m ρ c main_v59 (by decide)).trans <|
  (keep_hostOps5_of_not_mem (B12 m ρ c) main_v59 (by decide)).trans <|
  (B12_of_ne m ρ c main_v59 (by decide)).trans <|
  (keep_hostOps4_of_not_mem (B10 m ρ c) main_v59 (by decide)).trans <|
  (B10_of_ne m ρ c main_v59 (by decide)).trans <|
  (keep_hostOps3_of_not_mem (B8 m ρ c) main_v59 (by decide)).trans <|
  (B8_of_ne m ρ c main_v59 (by decide)).trans <|
  (keep_hostOps2_of_not_mem (B6 m ρ c) main_v59 (by decide)).trans <|
  (B6_of_ne m ρ c main_v59 (by decide))

/-! ### `main_v61` from boundary 5, to 70 -/
theorem carry_v61_5_70 (c : Dev nD) :
    B70 m ρ c (Proc.devRef .tc main_v61) = B5 m ρ c (Proc.devRef .tc main_v61) :=
  (B70_of_ne m ρ c main_v61 (by decide)).trans <|
  (keep_hostOps33_of_not_mem (B68 m ρ c) main_v61 (by decide)).trans <|
  (B68_of_ne m ρ c main_v61 (by decide)).trans <|
  (keep_hostOps32_of_not_mem (B66 m ρ c) main_v61 (by decide)).trans <|
  (B66_of_ne m ρ c main_v61 (by decide)).trans <|
  (keep_hostOps31_of_not_mem (B64 m ρ c) main_v61 (by decide)).trans <|
  (B64_of_ne m ρ c main_v61 (by decide)).trans <|
  (keep_hostOps30_of_not_mem (B62 m ρ c) main_v61 (by decide)).trans <|
  (B62_of_ne m ρ c main_v61 (by decide)).trans <|
  (keep_hostOps29_of_not_mem (B60 m ρ c) main_v61 (by decide)).trans <|
  (B60_of_ne m ρ c main_v61 (by decide)).trans <|
  (keep_hostOps28_of_not_mem (B58 m ρ c) main_v61 (by decide)).trans <|
  (B58_of_ne m ρ c main_v61 (by decide)).trans <|
  (keep_hostOps27_of_not_mem (B56 m ρ c) main_v61 (by decide)).trans <|
  (B56_of_ne m ρ c main_v61 (by decide)).trans <|
  (keep_hostOps26_of_not_mem (B54 m ρ c) main_v61 (by decide)).trans <|
  (B54_of_ne m ρ c main_v61 (by decide)).trans <|
  (keep_hostOps25_of_not_mem (B52 m ρ c) main_v61 (by decide)).trans <|
  (B52_of_ne m ρ c main_v61 (by decide)).trans <|
  (keep_hostOps24_of_not_mem (B50 m ρ c) main_v61 (by decide)).trans <|
  (B50_of_ne m ρ c main_v61 (by decide)).trans <|
  (keep_hostOps23_of_not_mem (B48 m ρ c) main_v61 (by decide)).trans <|
  (B48_of_ne m ρ c main_v61 (by decide)).trans <|
  (keep_hostOps22_of_not_mem (B46 m ρ c) main_v61 (by decide)).trans <|
  (B46_of_ne m ρ c main_v61 (by decide)).trans <|
  (keep_hostOps21_of_not_mem (B44 m ρ c) main_v61 (by decide)).trans <|
  (B44_of_ne m ρ c main_v61 (by decide)).trans <|
  (keep_hostOps20_of_not_mem (B42 m ρ c) main_v61 (by decide)).trans <|
  (B42_of_ne m ρ c main_v61 (by decide)).trans <|
  (keep_hostOps19_of_not_mem (B40 m ρ c) main_v61 (by decide)).trans <|
  (B40_of_ne m ρ c main_v61 (by decide)).trans <|
  (keep_hostOps18_of_not_mem (B38 m ρ c) main_v61 (by decide)).trans <|
  (B38_of_ne m ρ c main_v61 (by decide)).trans <|
  (keep_hostOps17_of_not_mem (B36 m ρ c) main_v61 (by decide)).trans <|
  (B36_of_ne m ρ c main_v61 (by decide)).trans <|
  (keep_hostOps16_of_not_mem (B34 m ρ c) main_v61 (by decide)).trans <|
  (B34_of_ne m ρ c main_v61 (by decide)).trans <|
  (keep_hostOps15_of_not_mem (B32 m ρ c) main_v61 (by decide)).trans <|
  (B32_of_ne m ρ c main_v61 (by decide)).trans <|
  (keep_hostOps14_of_not_mem (B30 m ρ c) main_v61 (by decide)).trans <|
  (B30_of_ne m ρ c main_v61 (by decide)).trans <|
  (keep_hostOps13_of_not_mem (B28 m ρ c) main_v61 (by decide)).trans <|
  (B28_of_ne m ρ c main_v61 (by decide)).trans <|
  (keep_hostOps12_of_not_mem (B26 m ρ c) main_v61 (by decide)).trans <|
  (B26_of_ne m ρ c main_v61 (by decide)).trans <|
  (keep_hostOps11_of_not_mem (B24 m ρ c) main_v61 (by decide)).trans <|
  (B24_of_ne m ρ c main_v61 (by decide)).trans <|
  (keep_hostOps10_of_not_mem (B22 m ρ c) main_v61 (by decide)).trans <|
  (B22_of_ne m ρ c main_v61 (by decide)).trans <|
  (keep_hostOps9_of_not_mem (B20 m ρ c) main_v61 (by decide)).trans <|
  (B20_of_ne m ρ c main_v61 (by decide)).trans <|
  (keep_hostOps8_of_not_mem (B18 m ρ c) main_v61 (by decide)).trans <|
  (B18_of_ne m ρ c main_v61 (by decide)).trans <|
  (keep_hostOps7_of_not_mem (B16 m ρ c) main_v61 (by decide)).trans <|
  (B16_of_ne m ρ c main_v61 (by decide)).trans <|
  (keep_hostOps6_of_not_mem (B14 m ρ c) main_v61 (by decide)).trans <|
  (B14_of_ne m ρ c main_v61 (by decide)).trans <|
  (keep_hostOps5_of_not_mem (B12 m ρ c) main_v61 (by decide)).trans <|
  (B12_of_ne m ρ c main_v61 (by decide)).trans <|
  (keep_hostOps4_of_not_mem (B10 m ρ c) main_v61 (by decide)).trans <|
  (B10_of_ne m ρ c main_v61 (by decide)).trans <|
  (keep_hostOps3_of_not_mem (B8 m ρ c) main_v61 (by decide)).trans <|
  (B8_of_ne m ρ c main_v61 (by decide)).trans <|
  (keep_hostOps2_of_not_mem (B6 m ρ c) main_v61 (by decide)).trans <|
  (B6_of_ne m ρ c main_v61 (by decide))

/-! ### `main_v63` from boundary 5, to 76 -/
theorem carry_v63_5_76 (c : Dev nD) :
    B76 m ρ c (Proc.devRef .tc main_v63) = B5 m ρ c (Proc.devRef .tc main_v63) :=
  (B76_of_ne m ρ c main_v63 (by decide)).trans <|
  (keep_hostOps36_of_not_mem (B74 m ρ c) main_v63 (by decide)).trans <|
  (B74_of_ne m ρ c main_v63 (by decide)).trans <|
  (keep_hostOps35_of_not_mem (B72 m ρ c) main_v63 (by decide)).trans <|
  (B72_of_ne m ρ c main_v63 (by decide)).trans <|
  (keep_hostOps34_of_not_mem (B70 m ρ c) main_v63 (by decide)).trans <|
  (B70_of_ne m ρ c main_v63 (by decide)).trans <|
  (keep_hostOps33_of_not_mem (B68 m ρ c) main_v63 (by decide)).trans <|
  (B68_of_ne m ρ c main_v63 (by decide)).trans <|
  (keep_hostOps32_of_not_mem (B66 m ρ c) main_v63 (by decide)).trans <|
  (B66_of_ne m ρ c main_v63 (by decide)).trans <|
  (keep_hostOps31_of_not_mem (B64 m ρ c) main_v63 (by decide)).trans <|
  (B64_of_ne m ρ c main_v63 (by decide)).trans <|
  (keep_hostOps30_of_not_mem (B62 m ρ c) main_v63 (by decide)).trans <|
  (B62_of_ne m ρ c main_v63 (by decide)).trans <|
  (keep_hostOps29_of_not_mem (B60 m ρ c) main_v63 (by decide)).trans <|
  (B60_of_ne m ρ c main_v63 (by decide)).trans <|
  (keep_hostOps28_of_not_mem (B58 m ρ c) main_v63 (by decide)).trans <|
  (B58_of_ne m ρ c main_v63 (by decide)).trans <|
  (keep_hostOps27_of_not_mem (B56 m ρ c) main_v63 (by decide)).trans <|
  (B56_of_ne m ρ c main_v63 (by decide)).trans <|
  (keep_hostOps26_of_not_mem (B54 m ρ c) main_v63 (by decide)).trans <|
  (B54_of_ne m ρ c main_v63 (by decide)).trans <|
  (keep_hostOps25_of_not_mem (B52 m ρ c) main_v63 (by decide)).trans <|
  (B52_of_ne m ρ c main_v63 (by decide)).trans <|
  (keep_hostOps24_of_not_mem (B50 m ρ c) main_v63 (by decide)).trans <|
  (B50_of_ne m ρ c main_v63 (by decide)).trans <|
  (keep_hostOps23_of_not_mem (B48 m ρ c) main_v63 (by decide)).trans <|
  (B48_of_ne m ρ c main_v63 (by decide)).trans <|
  (keep_hostOps22_of_not_mem (B46 m ρ c) main_v63 (by decide)).trans <|
  (B46_of_ne m ρ c main_v63 (by decide)).trans <|
  (keep_hostOps21_of_not_mem (B44 m ρ c) main_v63 (by decide)).trans <|
  (B44_of_ne m ρ c main_v63 (by decide)).trans <|
  (keep_hostOps20_of_not_mem (B42 m ρ c) main_v63 (by decide)).trans <|
  (B42_of_ne m ρ c main_v63 (by decide)).trans <|
  (keep_hostOps19_of_not_mem (B40 m ρ c) main_v63 (by decide)).trans <|
  (B40_of_ne m ρ c main_v63 (by decide)).trans <|
  (keep_hostOps18_of_not_mem (B38 m ρ c) main_v63 (by decide)).trans <|
  (B38_of_ne m ρ c main_v63 (by decide)).trans <|
  (keep_hostOps17_of_not_mem (B36 m ρ c) main_v63 (by decide)).trans <|
  (B36_of_ne m ρ c main_v63 (by decide)).trans <|
  (keep_hostOps16_of_not_mem (B34 m ρ c) main_v63 (by decide)).trans <|
  (B34_of_ne m ρ c main_v63 (by decide)).trans <|
  (keep_hostOps15_of_not_mem (B32 m ρ c) main_v63 (by decide)).trans <|
  (B32_of_ne m ρ c main_v63 (by decide)).trans <|
  (keep_hostOps14_of_not_mem (B30 m ρ c) main_v63 (by decide)).trans <|
  (B30_of_ne m ρ c main_v63 (by decide)).trans <|
  (keep_hostOps13_of_not_mem (B28 m ρ c) main_v63 (by decide)).trans <|
  (B28_of_ne m ρ c main_v63 (by decide)).trans <|
  (keep_hostOps12_of_not_mem (B26 m ρ c) main_v63 (by decide)).trans <|
  (B26_of_ne m ρ c main_v63 (by decide)).trans <|
  (keep_hostOps11_of_not_mem (B24 m ρ c) main_v63 (by decide)).trans <|
  (B24_of_ne m ρ c main_v63 (by decide)).trans <|
  (keep_hostOps10_of_not_mem (B22 m ρ c) main_v63 (by decide)).trans <|
  (B22_of_ne m ρ c main_v63 (by decide)).trans <|
  (keep_hostOps9_of_not_mem (B20 m ρ c) main_v63 (by decide)).trans <|
  (B20_of_ne m ρ c main_v63 (by decide)).trans <|
  (keep_hostOps8_of_not_mem (B18 m ρ c) main_v63 (by decide)).trans <|
  (B18_of_ne m ρ c main_v63 (by decide)).trans <|
  (keep_hostOps7_of_not_mem (B16 m ρ c) main_v63 (by decide)).trans <|
  (B16_of_ne m ρ c main_v63 (by decide)).trans <|
  (keep_hostOps6_of_not_mem (B14 m ρ c) main_v63 (by decide)).trans <|
  (B14_of_ne m ρ c main_v63 (by decide)).trans <|
  (keep_hostOps5_of_not_mem (B12 m ρ c) main_v63 (by decide)).trans <|
  (B12_of_ne m ρ c main_v63 (by decide)).trans <|
  (keep_hostOps4_of_not_mem (B10 m ρ c) main_v63 (by decide)).trans <|
  (B10_of_ne m ρ c main_v63 (by decide)).trans <|
  (keep_hostOps3_of_not_mem (B8 m ρ c) main_v63 (by decide)).trans <|
  (B8_of_ne m ρ c main_v63 (by decide)).trans <|
  (keep_hostOps2_of_not_mem (B6 m ρ c) main_v63 (by decide)).trans <|
  (B6_of_ne m ρ c main_v63 (by decide))

/-! ### `main_v65` from boundary 5, to 78 -/
theorem carry_v65_5_78 (c : Dev nD) :
    B78 m ρ c (Proc.devRef .tc main_v65) = B5 m ρ c (Proc.devRef .tc main_v65) :=
  (B78_of_ne m ρ c main_v65 (by decide)).trans <|
  (keep_hostOps37_of_not_mem (B76 m ρ c) main_v65 (by decide)).trans <|
  (B76_of_ne m ρ c main_v65 (by decide)).trans <|
  (keep_hostOps36_of_not_mem (B74 m ρ c) main_v65 (by decide)).trans <|
  (B74_of_ne m ρ c main_v65 (by decide)).trans <|
  (keep_hostOps35_of_not_mem (B72 m ρ c) main_v65 (by decide)).trans <|
  (B72_of_ne m ρ c main_v65 (by decide)).trans <|
  (keep_hostOps34_of_not_mem (B70 m ρ c) main_v65 (by decide)).trans <|
  (B70_of_ne m ρ c main_v65 (by decide)).trans <|
  (keep_hostOps33_of_not_mem (B68 m ρ c) main_v65 (by decide)).trans <|
  (B68_of_ne m ρ c main_v65 (by decide)).trans <|
  (keep_hostOps32_of_not_mem (B66 m ρ c) main_v65 (by decide)).trans <|
  (B66_of_ne m ρ c main_v65 (by decide)).trans <|
  (keep_hostOps31_of_not_mem (B64 m ρ c) main_v65 (by decide)).trans <|
  (B64_of_ne m ρ c main_v65 (by decide)).trans <|
  (keep_hostOps30_of_not_mem (B62 m ρ c) main_v65 (by decide)).trans <|
  (B62_of_ne m ρ c main_v65 (by decide)).trans <|
  (keep_hostOps29_of_not_mem (B60 m ρ c) main_v65 (by decide)).trans <|
  (B60_of_ne m ρ c main_v65 (by decide)).trans <|
  (keep_hostOps28_of_not_mem (B58 m ρ c) main_v65 (by decide)).trans <|
  (B58_of_ne m ρ c main_v65 (by decide)).trans <|
  (keep_hostOps27_of_not_mem (B56 m ρ c) main_v65 (by decide)).trans <|
  (B56_of_ne m ρ c main_v65 (by decide)).trans <|
  (keep_hostOps26_of_not_mem (B54 m ρ c) main_v65 (by decide)).trans <|
  (B54_of_ne m ρ c main_v65 (by decide)).trans <|
  (keep_hostOps25_of_not_mem (B52 m ρ c) main_v65 (by decide)).trans <|
  (B52_of_ne m ρ c main_v65 (by decide)).trans <|
  (keep_hostOps24_of_not_mem (B50 m ρ c) main_v65 (by decide)).trans <|
  (B50_of_ne m ρ c main_v65 (by decide)).trans <|
  (keep_hostOps23_of_not_mem (B48 m ρ c) main_v65 (by decide)).trans <|
  (B48_of_ne m ρ c main_v65 (by decide)).trans <|
  (keep_hostOps22_of_not_mem (B46 m ρ c) main_v65 (by decide)).trans <|
  (B46_of_ne m ρ c main_v65 (by decide)).trans <|
  (keep_hostOps21_of_not_mem (B44 m ρ c) main_v65 (by decide)).trans <|
  (B44_of_ne m ρ c main_v65 (by decide)).trans <|
  (keep_hostOps20_of_not_mem (B42 m ρ c) main_v65 (by decide)).trans <|
  (B42_of_ne m ρ c main_v65 (by decide)).trans <|
  (keep_hostOps19_of_not_mem (B40 m ρ c) main_v65 (by decide)).trans <|
  (B40_of_ne m ρ c main_v65 (by decide)).trans <|
  (keep_hostOps18_of_not_mem (B38 m ρ c) main_v65 (by decide)).trans <|
  (B38_of_ne m ρ c main_v65 (by decide)).trans <|
  (keep_hostOps17_of_not_mem (B36 m ρ c) main_v65 (by decide)).trans <|
  (B36_of_ne m ρ c main_v65 (by decide)).trans <|
  (keep_hostOps16_of_not_mem (B34 m ρ c) main_v65 (by decide)).trans <|
  (B34_of_ne m ρ c main_v65 (by decide)).trans <|
  (keep_hostOps15_of_not_mem (B32 m ρ c) main_v65 (by decide)).trans <|
  (B32_of_ne m ρ c main_v65 (by decide)).trans <|
  (keep_hostOps14_of_not_mem (B30 m ρ c) main_v65 (by decide)).trans <|
  (B30_of_ne m ρ c main_v65 (by decide)).trans <|
  (keep_hostOps13_of_not_mem (B28 m ρ c) main_v65 (by decide)).trans <|
  (B28_of_ne m ρ c main_v65 (by decide)).trans <|
  (keep_hostOps12_of_not_mem (B26 m ρ c) main_v65 (by decide)).trans <|
  (B26_of_ne m ρ c main_v65 (by decide)).trans <|
  (keep_hostOps11_of_not_mem (B24 m ρ c) main_v65 (by decide)).trans <|
  (B24_of_ne m ρ c main_v65 (by decide)).trans <|
  (keep_hostOps10_of_not_mem (B22 m ρ c) main_v65 (by decide)).trans <|
  (B22_of_ne m ρ c main_v65 (by decide)).trans <|
  (keep_hostOps9_of_not_mem (B20 m ρ c) main_v65 (by decide)).trans <|
  (B20_of_ne m ρ c main_v65 (by decide)).trans <|
  (keep_hostOps8_of_not_mem (B18 m ρ c) main_v65 (by decide)).trans <|
  (B18_of_ne m ρ c main_v65 (by decide)).trans <|
  (keep_hostOps7_of_not_mem (B16 m ρ c) main_v65 (by decide)).trans <|
  (B16_of_ne m ρ c main_v65 (by decide)).trans <|
  (keep_hostOps6_of_not_mem (B14 m ρ c) main_v65 (by decide)).trans <|
  (B14_of_ne m ρ c main_v65 (by decide)).trans <|
  (keep_hostOps5_of_not_mem (B12 m ρ c) main_v65 (by decide)).trans <|
  (B12_of_ne m ρ c main_v65 (by decide)).trans <|
  (keep_hostOps4_of_not_mem (B10 m ρ c) main_v65 (by decide)).trans <|
  (B10_of_ne m ρ c main_v65 (by decide)).trans <|
  (keep_hostOps3_of_not_mem (B8 m ρ c) main_v65 (by decide)).trans <|
  (B8_of_ne m ρ c main_v65 (by decide)).trans <|
  (keep_hostOps2_of_not_mem (B6 m ρ c) main_v65 (by decide)).trans <|
  (B6_of_ne m ρ c main_v65 (by decide))

/-! ### `main_v67` from boundary 5, to 84 -/
theorem carry_v67_5_84 (c : Dev nD) :
    B84 m ρ c (Proc.devRef .tc main_v67) = B5 m ρ c (Proc.devRef .tc main_v67) :=
  (B84_of_ne m ρ c main_v67 (by decide)).trans <|
  (keep_hostOps40_of_not_mem (B82 m ρ c) main_v67 (by decide)).trans <|
  (B82_of_ne m ρ c main_v67 (by decide)).trans <|
  (keep_hostOps39_of_not_mem (B80 m ρ c) main_v67 (by decide)).trans <|
  (B80_of_ne m ρ c main_v67 (by decide)).trans <|
  (keep_hostOps38_of_not_mem (B78 m ρ c) main_v67 (by decide)).trans <|
  (B78_of_ne m ρ c main_v67 (by decide)).trans <|
  (keep_hostOps37_of_not_mem (B76 m ρ c) main_v67 (by decide)).trans <|
  (B76_of_ne m ρ c main_v67 (by decide)).trans <|
  (keep_hostOps36_of_not_mem (B74 m ρ c) main_v67 (by decide)).trans <|
  (B74_of_ne m ρ c main_v67 (by decide)).trans <|
  (keep_hostOps35_of_not_mem (B72 m ρ c) main_v67 (by decide)).trans <|
  (B72_of_ne m ρ c main_v67 (by decide)).trans <|
  (keep_hostOps34_of_not_mem (B70 m ρ c) main_v67 (by decide)).trans <|
  (B70_of_ne m ρ c main_v67 (by decide)).trans <|
  (keep_hostOps33_of_not_mem (B68 m ρ c) main_v67 (by decide)).trans <|
  (B68_of_ne m ρ c main_v67 (by decide)).trans <|
  (keep_hostOps32_of_not_mem (B66 m ρ c) main_v67 (by decide)).trans <|
  (B66_of_ne m ρ c main_v67 (by decide)).trans <|
  (keep_hostOps31_of_not_mem (B64 m ρ c) main_v67 (by decide)).trans <|
  (B64_of_ne m ρ c main_v67 (by decide)).trans <|
  (keep_hostOps30_of_not_mem (B62 m ρ c) main_v67 (by decide)).trans <|
  (B62_of_ne m ρ c main_v67 (by decide)).trans <|
  (keep_hostOps29_of_not_mem (B60 m ρ c) main_v67 (by decide)).trans <|
  (B60_of_ne m ρ c main_v67 (by decide)).trans <|
  (keep_hostOps28_of_not_mem (B58 m ρ c) main_v67 (by decide)).trans <|
  (B58_of_ne m ρ c main_v67 (by decide)).trans <|
  (keep_hostOps27_of_not_mem (B56 m ρ c) main_v67 (by decide)).trans <|
  (B56_of_ne m ρ c main_v67 (by decide)).trans <|
  (keep_hostOps26_of_not_mem (B54 m ρ c) main_v67 (by decide)).trans <|
  (B54_of_ne m ρ c main_v67 (by decide)).trans <|
  (keep_hostOps25_of_not_mem (B52 m ρ c) main_v67 (by decide)).trans <|
  (B52_of_ne m ρ c main_v67 (by decide)).trans <|
  (keep_hostOps24_of_not_mem (B50 m ρ c) main_v67 (by decide)).trans <|
  (B50_of_ne m ρ c main_v67 (by decide)).trans <|
  (keep_hostOps23_of_not_mem (B48 m ρ c) main_v67 (by decide)).trans <|
  (B48_of_ne m ρ c main_v67 (by decide)).trans <|
  (keep_hostOps22_of_not_mem (B46 m ρ c) main_v67 (by decide)).trans <|
  (B46_of_ne m ρ c main_v67 (by decide)).trans <|
  (keep_hostOps21_of_not_mem (B44 m ρ c) main_v67 (by decide)).trans <|
  (B44_of_ne m ρ c main_v67 (by decide)).trans <|
  (keep_hostOps20_of_not_mem (B42 m ρ c) main_v67 (by decide)).trans <|
  (B42_of_ne m ρ c main_v67 (by decide)).trans <|
  (keep_hostOps19_of_not_mem (B40 m ρ c) main_v67 (by decide)).trans <|
  (B40_of_ne m ρ c main_v67 (by decide)).trans <|
  (keep_hostOps18_of_not_mem (B38 m ρ c) main_v67 (by decide)).trans <|
  (B38_of_ne m ρ c main_v67 (by decide)).trans <|
  (keep_hostOps17_of_not_mem (B36 m ρ c) main_v67 (by decide)).trans <|
  (B36_of_ne m ρ c main_v67 (by decide)).trans <|
  (keep_hostOps16_of_not_mem (B34 m ρ c) main_v67 (by decide)).trans <|
  (B34_of_ne m ρ c main_v67 (by decide)).trans <|
  (keep_hostOps15_of_not_mem (B32 m ρ c) main_v67 (by decide)).trans <|
  (B32_of_ne m ρ c main_v67 (by decide)).trans <|
  (keep_hostOps14_of_not_mem (B30 m ρ c) main_v67 (by decide)).trans <|
  (B30_of_ne m ρ c main_v67 (by decide)).trans <|
  (keep_hostOps13_of_not_mem (B28 m ρ c) main_v67 (by decide)).trans <|
  (B28_of_ne m ρ c main_v67 (by decide)).trans <|
  (keep_hostOps12_of_not_mem (B26 m ρ c) main_v67 (by decide)).trans <|
  (B26_of_ne m ρ c main_v67 (by decide)).trans <|
  (keep_hostOps11_of_not_mem (B24 m ρ c) main_v67 (by decide)).trans <|
  (B24_of_ne m ρ c main_v67 (by decide)).trans <|
  (keep_hostOps10_of_not_mem (B22 m ρ c) main_v67 (by decide)).trans <|
  (B22_of_ne m ρ c main_v67 (by decide)).trans <|
  (keep_hostOps9_of_not_mem (B20 m ρ c) main_v67 (by decide)).trans <|
  (B20_of_ne m ρ c main_v67 (by decide)).trans <|
  (keep_hostOps8_of_not_mem (B18 m ρ c) main_v67 (by decide)).trans <|
  (B18_of_ne m ρ c main_v67 (by decide)).trans <|
  (keep_hostOps7_of_not_mem (B16 m ρ c) main_v67 (by decide)).trans <|
  (B16_of_ne m ρ c main_v67 (by decide)).trans <|
  (keep_hostOps6_of_not_mem (B14 m ρ c) main_v67 (by decide)).trans <|
  (B14_of_ne m ρ c main_v67 (by decide)).trans <|
  (keep_hostOps5_of_not_mem (B12 m ρ c) main_v67 (by decide)).trans <|
  (B12_of_ne m ρ c main_v67 (by decide)).trans <|
  (keep_hostOps4_of_not_mem (B10 m ρ c) main_v67 (by decide)).trans <|
  (B10_of_ne m ρ c main_v67 (by decide)).trans <|
  (keep_hostOps3_of_not_mem (B8 m ρ c) main_v67 (by decide)).trans <|
  (B8_of_ne m ρ c main_v67 (by decide)).trans <|
  (keep_hostOps2_of_not_mem (B6 m ρ c) main_v67 (by decide)).trans <|
  (B6_of_ne m ρ c main_v67 (by decide))

/-! ### `main_v69` from boundary 5, to 86 -/
theorem carry_v69_5_86 (c : Dev nD) :
    B86 m ρ c (Proc.devRef .tc main_v69) = B5 m ρ c (Proc.devRef .tc main_v69) :=
  (B86_of_ne m ρ c main_v69 (by decide)).trans <|
  (keep_hostOps41_of_not_mem (B84 m ρ c) main_v69 (by decide)).trans <|
  (B84_of_ne m ρ c main_v69 (by decide)).trans <|
  (keep_hostOps40_of_not_mem (B82 m ρ c) main_v69 (by decide)).trans <|
  (B82_of_ne m ρ c main_v69 (by decide)).trans <|
  (keep_hostOps39_of_not_mem (B80 m ρ c) main_v69 (by decide)).trans <|
  (B80_of_ne m ρ c main_v69 (by decide)).trans <|
  (keep_hostOps38_of_not_mem (B78 m ρ c) main_v69 (by decide)).trans <|
  (B78_of_ne m ρ c main_v69 (by decide)).trans <|
  (keep_hostOps37_of_not_mem (B76 m ρ c) main_v69 (by decide)).trans <|
  (B76_of_ne m ρ c main_v69 (by decide)).trans <|
  (keep_hostOps36_of_not_mem (B74 m ρ c) main_v69 (by decide)).trans <|
  (B74_of_ne m ρ c main_v69 (by decide)).trans <|
  (keep_hostOps35_of_not_mem (B72 m ρ c) main_v69 (by decide)).trans <|
  (B72_of_ne m ρ c main_v69 (by decide)).trans <|
  (keep_hostOps34_of_not_mem (B70 m ρ c) main_v69 (by decide)).trans <|
  (B70_of_ne m ρ c main_v69 (by decide)).trans <|
  (keep_hostOps33_of_not_mem (B68 m ρ c) main_v69 (by decide)).trans <|
  (B68_of_ne m ρ c main_v69 (by decide)).trans <|
  (keep_hostOps32_of_not_mem (B66 m ρ c) main_v69 (by decide)).trans <|
  (B66_of_ne m ρ c main_v69 (by decide)).trans <|
  (keep_hostOps31_of_not_mem (B64 m ρ c) main_v69 (by decide)).trans <|
  (B64_of_ne m ρ c main_v69 (by decide)).trans <|
  (keep_hostOps30_of_not_mem (B62 m ρ c) main_v69 (by decide)).trans <|
  (B62_of_ne m ρ c main_v69 (by decide)).trans <|
  (keep_hostOps29_of_not_mem (B60 m ρ c) main_v69 (by decide)).trans <|
  (B60_of_ne m ρ c main_v69 (by decide)).trans <|
  (keep_hostOps28_of_not_mem (B58 m ρ c) main_v69 (by decide)).trans <|
  (B58_of_ne m ρ c main_v69 (by decide)).trans <|
  (keep_hostOps27_of_not_mem (B56 m ρ c) main_v69 (by decide)).trans <|
  (B56_of_ne m ρ c main_v69 (by decide)).trans <|
  (keep_hostOps26_of_not_mem (B54 m ρ c) main_v69 (by decide)).trans <|
  (B54_of_ne m ρ c main_v69 (by decide)).trans <|
  (keep_hostOps25_of_not_mem (B52 m ρ c) main_v69 (by decide)).trans <|
  (B52_of_ne m ρ c main_v69 (by decide)).trans <|
  (keep_hostOps24_of_not_mem (B50 m ρ c) main_v69 (by decide)).trans <|
  (B50_of_ne m ρ c main_v69 (by decide)).trans <|
  (keep_hostOps23_of_not_mem (B48 m ρ c) main_v69 (by decide)).trans <|
  (B48_of_ne m ρ c main_v69 (by decide)).trans <|
  (keep_hostOps22_of_not_mem (B46 m ρ c) main_v69 (by decide)).trans <|
  (B46_of_ne m ρ c main_v69 (by decide)).trans <|
  (keep_hostOps21_of_not_mem (B44 m ρ c) main_v69 (by decide)).trans <|
  (B44_of_ne m ρ c main_v69 (by decide)).trans <|
  (keep_hostOps20_of_not_mem (B42 m ρ c) main_v69 (by decide)).trans <|
  (B42_of_ne m ρ c main_v69 (by decide)).trans <|
  (keep_hostOps19_of_not_mem (B40 m ρ c) main_v69 (by decide)).trans <|
  (B40_of_ne m ρ c main_v69 (by decide)).trans <|
  (keep_hostOps18_of_not_mem (B38 m ρ c) main_v69 (by decide)).trans <|
  (B38_of_ne m ρ c main_v69 (by decide)).trans <|
  (keep_hostOps17_of_not_mem (B36 m ρ c) main_v69 (by decide)).trans <|
  (B36_of_ne m ρ c main_v69 (by decide)).trans <|
  (keep_hostOps16_of_not_mem (B34 m ρ c) main_v69 (by decide)).trans <|
  (B34_of_ne m ρ c main_v69 (by decide)).trans <|
  (keep_hostOps15_of_not_mem (B32 m ρ c) main_v69 (by decide)).trans <|
  (B32_of_ne m ρ c main_v69 (by decide)).trans <|
  (keep_hostOps14_of_not_mem (B30 m ρ c) main_v69 (by decide)).trans <|
  (B30_of_ne m ρ c main_v69 (by decide)).trans <|
  (keep_hostOps13_of_not_mem (B28 m ρ c) main_v69 (by decide)).trans <|
  (B28_of_ne m ρ c main_v69 (by decide)).trans <|
  (keep_hostOps12_of_not_mem (B26 m ρ c) main_v69 (by decide)).trans <|
  (B26_of_ne m ρ c main_v69 (by decide)).trans <|
  (keep_hostOps11_of_not_mem (B24 m ρ c) main_v69 (by decide)).trans <|
  (B24_of_ne m ρ c main_v69 (by decide)).trans <|
  (keep_hostOps10_of_not_mem (B22 m ρ c) main_v69 (by decide)).trans <|
  (B22_of_ne m ρ c main_v69 (by decide)).trans <|
  (keep_hostOps9_of_not_mem (B20 m ρ c) main_v69 (by decide)).trans <|
  (B20_of_ne m ρ c main_v69 (by decide)).trans <|
  (keep_hostOps8_of_not_mem (B18 m ρ c) main_v69 (by decide)).trans <|
  (B18_of_ne m ρ c main_v69 (by decide)).trans <|
  (keep_hostOps7_of_not_mem (B16 m ρ c) main_v69 (by decide)).trans <|
  (B16_of_ne m ρ c main_v69 (by decide)).trans <|
  (keep_hostOps6_of_not_mem (B14 m ρ c) main_v69 (by decide)).trans <|
  (B14_of_ne m ρ c main_v69 (by decide)).trans <|
  (keep_hostOps5_of_not_mem (B12 m ρ c) main_v69 (by decide)).trans <|
  (B12_of_ne m ρ c main_v69 (by decide)).trans <|
  (keep_hostOps4_of_not_mem (B10 m ρ c) main_v69 (by decide)).trans <|
  (B10_of_ne m ρ c main_v69 (by decide)).trans <|
  (keep_hostOps3_of_not_mem (B8 m ρ c) main_v69 (by decide)).trans <|
  (B8_of_ne m ρ c main_v69 (by decide)).trans <|
  (keep_hostOps2_of_not_mem (B6 m ρ c) main_v69 (by decide)).trans <|
  (B6_of_ne m ρ c main_v69 (by decide))

/-! ### `main_v71` from boundary 5, to 34 -/
theorem carry_v71_5_34 (c : Dev nD) :
    B34 m ρ c (Proc.devRef .tc main_v71) = B5 m ρ c (Proc.devRef .tc main_v71) :=
  (B34_of_ne m ρ c main_v71 (by decide)).trans <|
  (keep_hostOps15_of_not_mem (B32 m ρ c) main_v71 (by decide)).trans <|
  (B32_of_ne m ρ c main_v71 (by decide)).trans <|
  (keep_hostOps14_of_not_mem (B30 m ρ c) main_v71 (by decide)).trans <|
  (B30_of_ne m ρ c main_v71 (by decide)).trans <|
  (keep_hostOps13_of_not_mem (B28 m ρ c) main_v71 (by decide)).trans <|
  (B28_of_ne m ρ c main_v71 (by decide)).trans <|
  (keep_hostOps12_of_not_mem (B26 m ρ c) main_v71 (by decide)).trans <|
  (B26_of_ne m ρ c main_v71 (by decide)).trans <|
  (keep_hostOps11_of_not_mem (B24 m ρ c) main_v71 (by decide)).trans <|
  (B24_of_ne m ρ c main_v71 (by decide)).trans <|
  (keep_hostOps10_of_not_mem (B22 m ρ c) main_v71 (by decide)).trans <|
  (B22_of_ne m ρ c main_v71 (by decide)).trans <|
  (keep_hostOps9_of_not_mem (B20 m ρ c) main_v71 (by decide)).trans <|
  (B20_of_ne m ρ c main_v71 (by decide)).trans <|
  (keep_hostOps8_of_not_mem (B18 m ρ c) main_v71 (by decide)).trans <|
  (B18_of_ne m ρ c main_v71 (by decide)).trans <|
  (keep_hostOps7_of_not_mem (B16 m ρ c) main_v71 (by decide)).trans <|
  (B16_of_ne m ρ c main_v71 (by decide)).trans <|
  (keep_hostOps6_of_not_mem (B14 m ρ c) main_v71 (by decide)).trans <|
  (B14_of_ne m ρ c main_v71 (by decide)).trans <|
  (keep_hostOps5_of_not_mem (B12 m ρ c) main_v71 (by decide)).trans <|
  (B12_of_ne m ρ c main_v71 (by decide)).trans <|
  (keep_hostOps4_of_not_mem (B10 m ρ c) main_v71 (by decide)).trans <|
  (B10_of_ne m ρ c main_v71 (by decide)).trans <|
  (keep_hostOps3_of_not_mem (B8 m ρ c) main_v71 (by decide)).trans <|
  (B8_of_ne m ρ c main_v71 (by decide)).trans <|
  (keep_hostOps2_of_not_mem (B6 m ρ c) main_v71 (by decide)).trans <|
  (B6_of_ne m ρ c main_v71 (by decide))

/-! ### `main_v73` from boundary 5, to 34 -/
theorem carry_v73_5_34 (c : Dev nD) :
    B34 m ρ c (Proc.devRef .tc main_v73) = B5 m ρ c (Proc.devRef .tc main_v73) :=
  (B34_of_ne m ρ c main_v73 (by decide)).trans <|
  (keep_hostOps15_of_not_mem (B32 m ρ c) main_v73 (by decide)).trans <|
  (B32_of_ne m ρ c main_v73 (by decide)).trans <|
  (keep_hostOps14_of_not_mem (B30 m ρ c) main_v73 (by decide)).trans <|
  (B30_of_ne m ρ c main_v73 (by decide)).trans <|
  (keep_hostOps13_of_not_mem (B28 m ρ c) main_v73 (by decide)).trans <|
  (B28_of_ne m ρ c main_v73 (by decide)).trans <|
  (keep_hostOps12_of_not_mem (B26 m ρ c) main_v73 (by decide)).trans <|
  (B26_of_ne m ρ c main_v73 (by decide)).trans <|
  (keep_hostOps11_of_not_mem (B24 m ρ c) main_v73 (by decide)).trans <|
  (B24_of_ne m ρ c main_v73 (by decide)).trans <|
  (keep_hostOps10_of_not_mem (B22 m ρ c) main_v73 (by decide)).trans <|
  (B22_of_ne m ρ c main_v73 (by decide)).trans <|
  (keep_hostOps9_of_not_mem (B20 m ρ c) main_v73 (by decide)).trans <|
  (B20_of_ne m ρ c main_v73 (by decide)).trans <|
  (keep_hostOps8_of_not_mem (B18 m ρ c) main_v73 (by decide)).trans <|
  (B18_of_ne m ρ c main_v73 (by decide)).trans <|
  (keep_hostOps7_of_not_mem (B16 m ρ c) main_v73 (by decide)).trans <|
  (B16_of_ne m ρ c main_v73 (by decide)).trans <|
  (keep_hostOps6_of_not_mem (B14 m ρ c) main_v73 (by decide)).trans <|
  (B14_of_ne m ρ c main_v73 (by decide)).trans <|
  (keep_hostOps5_of_not_mem (B12 m ρ c) main_v73 (by decide)).trans <|
  (B12_of_ne m ρ c main_v73 (by decide)).trans <|
  (keep_hostOps4_of_not_mem (B10 m ρ c) main_v73 (by decide)).trans <|
  (B10_of_ne m ρ c main_v73 (by decide)).trans <|
  (keep_hostOps3_of_not_mem (B8 m ρ c) main_v73 (by decide)).trans <|
  (B8_of_ne m ρ c main_v73 (by decide)).trans <|
  (keep_hostOps2_of_not_mem (B6 m ρ c) main_v73 (by decide)).trans <|
  (B6_of_ne m ρ c main_v73 (by decide))

/-! ### `main_v75` from boundary 5, to 42 -/
theorem carry_v75_5_42 (c : Dev nD) :
    B42 m ρ c (Proc.devRef .tc main_v75) = B5 m ρ c (Proc.devRef .tc main_v75) :=
  (B42_of_ne m ρ c main_v75 (by decide)).trans <|
  (keep_hostOps19_of_not_mem (B40 m ρ c) main_v75 (by decide)).trans <|
  (B40_of_ne m ρ c main_v75 (by decide)).trans <|
  (keep_hostOps18_of_not_mem (B38 m ρ c) main_v75 (by decide)).trans <|
  (B38_of_ne m ρ c main_v75 (by decide)).trans <|
  (keep_hostOps17_of_not_mem (B36 m ρ c) main_v75 (by decide)).trans <|
  (B36_of_ne m ρ c main_v75 (by decide)).trans <|
  (keep_hostOps16_of_not_mem (B34 m ρ c) main_v75 (by decide)).trans <|
  (B34_of_ne m ρ c main_v75 (by decide)).trans <|
  (keep_hostOps15_of_not_mem (B32 m ρ c) main_v75 (by decide)).trans <|
  (B32_of_ne m ρ c main_v75 (by decide)).trans <|
  (keep_hostOps14_of_not_mem (B30 m ρ c) main_v75 (by decide)).trans <|
  (B30_of_ne m ρ c main_v75 (by decide)).trans <|
  (keep_hostOps13_of_not_mem (B28 m ρ c) main_v75 (by decide)).trans <|
  (B28_of_ne m ρ c main_v75 (by decide)).trans <|
  (keep_hostOps12_of_not_mem (B26 m ρ c) main_v75 (by decide)).trans <|
  (B26_of_ne m ρ c main_v75 (by decide)).trans <|
  (keep_hostOps11_of_not_mem (B24 m ρ c) main_v75 (by decide)).trans <|
  (B24_of_ne m ρ c main_v75 (by decide)).trans <|
  (keep_hostOps10_of_not_mem (B22 m ρ c) main_v75 (by decide)).trans <|
  (B22_of_ne m ρ c main_v75 (by decide)).trans <|
  (keep_hostOps9_of_not_mem (B20 m ρ c) main_v75 (by decide)).trans <|
  (B20_of_ne m ρ c main_v75 (by decide)).trans <|
  (keep_hostOps8_of_not_mem (B18 m ρ c) main_v75 (by decide)).trans <|
  (B18_of_ne m ρ c main_v75 (by decide)).trans <|
  (keep_hostOps7_of_not_mem (B16 m ρ c) main_v75 (by decide)).trans <|
  (B16_of_ne m ρ c main_v75 (by decide)).trans <|
  (keep_hostOps6_of_not_mem (B14 m ρ c) main_v75 (by decide)).trans <|
  (B14_of_ne m ρ c main_v75 (by decide)).trans <|
  (keep_hostOps5_of_not_mem (B12 m ρ c) main_v75 (by decide)).trans <|
  (B12_of_ne m ρ c main_v75 (by decide)).trans <|
  (keep_hostOps4_of_not_mem (B10 m ρ c) main_v75 (by decide)).trans <|
  (B10_of_ne m ρ c main_v75 (by decide)).trans <|
  (keep_hostOps3_of_not_mem (B8 m ρ c) main_v75 (by decide)).trans <|
  (B8_of_ne m ρ c main_v75 (by decide)).trans <|
  (keep_hostOps2_of_not_mem (B6 m ρ c) main_v75 (by decide)).trans <|
  (B6_of_ne m ρ c main_v75 (by decide))

/-! ### `main_v77` from boundary 5, to 42 -/
theorem carry_v77_5_42 (c : Dev nD) :
    B42 m ρ c (Proc.devRef .tc main_v77) = B5 m ρ c (Proc.devRef .tc main_v77) :=
  (B42_of_ne m ρ c main_v77 (by decide)).trans <|
  (keep_hostOps19_of_not_mem (B40 m ρ c) main_v77 (by decide)).trans <|
  (B40_of_ne m ρ c main_v77 (by decide)).trans <|
  (keep_hostOps18_of_not_mem (B38 m ρ c) main_v77 (by decide)).trans <|
  (B38_of_ne m ρ c main_v77 (by decide)).trans <|
  (keep_hostOps17_of_not_mem (B36 m ρ c) main_v77 (by decide)).trans <|
  (B36_of_ne m ρ c main_v77 (by decide)).trans <|
  (keep_hostOps16_of_not_mem (B34 m ρ c) main_v77 (by decide)).trans <|
  (B34_of_ne m ρ c main_v77 (by decide)).trans <|
  (keep_hostOps15_of_not_mem (B32 m ρ c) main_v77 (by decide)).trans <|
  (B32_of_ne m ρ c main_v77 (by decide)).trans <|
  (keep_hostOps14_of_not_mem (B30 m ρ c) main_v77 (by decide)).trans <|
  (B30_of_ne m ρ c main_v77 (by decide)).trans <|
  (keep_hostOps13_of_not_mem (B28 m ρ c) main_v77 (by decide)).trans <|
  (B28_of_ne m ρ c main_v77 (by decide)).trans <|
  (keep_hostOps12_of_not_mem (B26 m ρ c) main_v77 (by decide)).trans <|
  (B26_of_ne m ρ c main_v77 (by decide)).trans <|
  (keep_hostOps11_of_not_mem (B24 m ρ c) main_v77 (by decide)).trans <|
  (B24_of_ne m ρ c main_v77 (by decide)).trans <|
  (keep_hostOps10_of_not_mem (B22 m ρ c) main_v77 (by decide)).trans <|
  (B22_of_ne m ρ c main_v77 (by decide)).trans <|
  (keep_hostOps9_of_not_mem (B20 m ρ c) main_v77 (by decide)).trans <|
  (B20_of_ne m ρ c main_v77 (by decide)).trans <|
  (keep_hostOps8_of_not_mem (B18 m ρ c) main_v77 (by decide)).trans <|
  (B18_of_ne m ρ c main_v77 (by decide)).trans <|
  (keep_hostOps7_of_not_mem (B16 m ρ c) main_v77 (by decide)).trans <|
  (B16_of_ne m ρ c main_v77 (by decide)).trans <|
  (keep_hostOps6_of_not_mem (B14 m ρ c) main_v77 (by decide)).trans <|
  (B14_of_ne m ρ c main_v77 (by decide)).trans <|
  (keep_hostOps5_of_not_mem (B12 m ρ c) main_v77 (by decide)).trans <|
  (B12_of_ne m ρ c main_v77 (by decide)).trans <|
  (keep_hostOps4_of_not_mem (B10 m ρ c) main_v77 (by decide)).trans <|
  (B10_of_ne m ρ c main_v77 (by decide)).trans <|
  (keep_hostOps3_of_not_mem (B8 m ρ c) main_v77 (by decide)).trans <|
  (B8_of_ne m ρ c main_v77 (by decide)).trans <|
  (keep_hostOps2_of_not_mem (B6 m ρ c) main_v77 (by decide)).trans <|
  (B6_of_ne m ρ c main_v77 (by decide))

/-! ### `main_v79` from boundary 5, to 50 -/
theorem carry_v79_5_50 (c : Dev nD) :
    B50 m ρ c (Proc.devRef .tc main_v79) = B5 m ρ c (Proc.devRef .tc main_v79) :=
  (B50_of_ne m ρ c main_v79 (by decide)).trans <|
  (keep_hostOps23_of_not_mem (B48 m ρ c) main_v79 (by decide)).trans <|
  (B48_of_ne m ρ c main_v79 (by decide)).trans <|
  (keep_hostOps22_of_not_mem (B46 m ρ c) main_v79 (by decide)).trans <|
  (B46_of_ne m ρ c main_v79 (by decide)).trans <|
  (keep_hostOps21_of_not_mem (B44 m ρ c) main_v79 (by decide)).trans <|
  (B44_of_ne m ρ c main_v79 (by decide)).trans <|
  (keep_hostOps20_of_not_mem (B42 m ρ c) main_v79 (by decide)).trans <|
  (B42_of_ne m ρ c main_v79 (by decide)).trans <|
  (keep_hostOps19_of_not_mem (B40 m ρ c) main_v79 (by decide)).trans <|
  (B40_of_ne m ρ c main_v79 (by decide)).trans <|
  (keep_hostOps18_of_not_mem (B38 m ρ c) main_v79 (by decide)).trans <|
  (B38_of_ne m ρ c main_v79 (by decide)).trans <|
  (keep_hostOps17_of_not_mem (B36 m ρ c) main_v79 (by decide)).trans <|
  (B36_of_ne m ρ c main_v79 (by decide)).trans <|
  (keep_hostOps16_of_not_mem (B34 m ρ c) main_v79 (by decide)).trans <|
  (B34_of_ne m ρ c main_v79 (by decide)).trans <|
  (keep_hostOps15_of_not_mem (B32 m ρ c) main_v79 (by decide)).trans <|
  (B32_of_ne m ρ c main_v79 (by decide)).trans <|
  (keep_hostOps14_of_not_mem (B30 m ρ c) main_v79 (by decide)).trans <|
  (B30_of_ne m ρ c main_v79 (by decide)).trans <|
  (keep_hostOps13_of_not_mem (B28 m ρ c) main_v79 (by decide)).trans <|
  (B28_of_ne m ρ c main_v79 (by decide)).trans <|
  (keep_hostOps12_of_not_mem (B26 m ρ c) main_v79 (by decide)).trans <|
  (B26_of_ne m ρ c main_v79 (by decide)).trans <|
  (keep_hostOps11_of_not_mem (B24 m ρ c) main_v79 (by decide)).trans <|
  (B24_of_ne m ρ c main_v79 (by decide)).trans <|
  (keep_hostOps10_of_not_mem (B22 m ρ c) main_v79 (by decide)).trans <|
  (B22_of_ne m ρ c main_v79 (by decide)).trans <|
  (keep_hostOps9_of_not_mem (B20 m ρ c) main_v79 (by decide)).trans <|
  (B20_of_ne m ρ c main_v79 (by decide)).trans <|
  (keep_hostOps8_of_not_mem (B18 m ρ c) main_v79 (by decide)).trans <|
  (B18_of_ne m ρ c main_v79 (by decide)).trans <|
  (keep_hostOps7_of_not_mem (B16 m ρ c) main_v79 (by decide)).trans <|
  (B16_of_ne m ρ c main_v79 (by decide)).trans <|
  (keep_hostOps6_of_not_mem (B14 m ρ c) main_v79 (by decide)).trans <|
  (B14_of_ne m ρ c main_v79 (by decide)).trans <|
  (keep_hostOps5_of_not_mem (B12 m ρ c) main_v79 (by decide)).trans <|
  (B12_of_ne m ρ c main_v79 (by decide)).trans <|
  (keep_hostOps4_of_not_mem (B10 m ρ c) main_v79 (by decide)).trans <|
  (B10_of_ne m ρ c main_v79 (by decide)).trans <|
  (keep_hostOps3_of_not_mem (B8 m ρ c) main_v79 (by decide)).trans <|
  (B8_of_ne m ρ c main_v79 (by decide)).trans <|
  (keep_hostOps2_of_not_mem (B6 m ρ c) main_v79 (by decide)).trans <|
  (B6_of_ne m ρ c main_v79 (by decide))

/-! ### `main_v81` from boundary 5, to 50 -/
theorem carry_v81_5_50 (c : Dev nD) :
    B50 m ρ c (Proc.devRef .tc main_v81) = B5 m ρ c (Proc.devRef .tc main_v81) :=
  (B50_of_ne m ρ c main_v81 (by decide)).trans <|
  (keep_hostOps23_of_not_mem (B48 m ρ c) main_v81 (by decide)).trans <|
  (B48_of_ne m ρ c main_v81 (by decide)).trans <|
  (keep_hostOps22_of_not_mem (B46 m ρ c) main_v81 (by decide)).trans <|
  (B46_of_ne m ρ c main_v81 (by decide)).trans <|
  (keep_hostOps21_of_not_mem (B44 m ρ c) main_v81 (by decide)).trans <|
  (B44_of_ne m ρ c main_v81 (by decide)).trans <|
  (keep_hostOps20_of_not_mem (B42 m ρ c) main_v81 (by decide)).trans <|
  (B42_of_ne m ρ c main_v81 (by decide)).trans <|
  (keep_hostOps19_of_not_mem (B40 m ρ c) main_v81 (by decide)).trans <|
  (B40_of_ne m ρ c main_v81 (by decide)).trans <|
  (keep_hostOps18_of_not_mem (B38 m ρ c) main_v81 (by decide)).trans <|
  (B38_of_ne m ρ c main_v81 (by decide)).trans <|
  (keep_hostOps17_of_not_mem (B36 m ρ c) main_v81 (by decide)).trans <|
  (B36_of_ne m ρ c main_v81 (by decide)).trans <|
  (keep_hostOps16_of_not_mem (B34 m ρ c) main_v81 (by decide)).trans <|
  (B34_of_ne m ρ c main_v81 (by decide)).trans <|
  (keep_hostOps15_of_not_mem (B32 m ρ c) main_v81 (by decide)).trans <|
  (B32_of_ne m ρ c main_v81 (by decide)).trans <|
  (keep_hostOps14_of_not_mem (B30 m ρ c) main_v81 (by decide)).trans <|
  (B30_of_ne m ρ c main_v81 (by decide)).trans <|
  (keep_hostOps13_of_not_mem (B28 m ρ c) main_v81 (by decide)).trans <|
  (B28_of_ne m ρ c main_v81 (by decide)).trans <|
  (keep_hostOps12_of_not_mem (B26 m ρ c) main_v81 (by decide)).trans <|
  (B26_of_ne m ρ c main_v81 (by decide)).trans <|
  (keep_hostOps11_of_not_mem (B24 m ρ c) main_v81 (by decide)).trans <|
  (B24_of_ne m ρ c main_v81 (by decide)).trans <|
  (keep_hostOps10_of_not_mem (B22 m ρ c) main_v81 (by decide)).trans <|
  (B22_of_ne m ρ c main_v81 (by decide)).trans <|
  (keep_hostOps9_of_not_mem (B20 m ρ c) main_v81 (by decide)).trans <|
  (B20_of_ne m ρ c main_v81 (by decide)).trans <|
  (keep_hostOps8_of_not_mem (B18 m ρ c) main_v81 (by decide)).trans <|
  (B18_of_ne m ρ c main_v81 (by decide)).trans <|
  (keep_hostOps7_of_not_mem (B16 m ρ c) main_v81 (by decide)).trans <|
  (B16_of_ne m ρ c main_v81 (by decide)).trans <|
  (keep_hostOps6_of_not_mem (B14 m ρ c) main_v81 (by decide)).trans <|
  (B14_of_ne m ρ c main_v81 (by decide)).trans <|
  (keep_hostOps5_of_not_mem (B12 m ρ c) main_v81 (by decide)).trans <|
  (B12_of_ne m ρ c main_v81 (by decide)).trans <|
  (keep_hostOps4_of_not_mem (B10 m ρ c) main_v81 (by decide)).trans <|
  (B10_of_ne m ρ c main_v81 (by decide)).trans <|
  (keep_hostOps3_of_not_mem (B8 m ρ c) main_v81 (by decide)).trans <|
  (B8_of_ne m ρ c main_v81 (by decide)).trans <|
  (keep_hostOps2_of_not_mem (B6 m ρ c) main_v81 (by decide)).trans <|
  (B6_of_ne m ρ c main_v81 (by decide))

/-! ### `main_v83` from boundary 5, to 58 -/
theorem carry_v83_5_58 (c : Dev nD) :
    B58 m ρ c (Proc.devRef .tc main_v83) = B5 m ρ c (Proc.devRef .tc main_v83) :=
  (B58_of_ne m ρ c main_v83 (by decide)).trans <|
  (keep_hostOps27_of_not_mem (B56 m ρ c) main_v83 (by decide)).trans <|
  (B56_of_ne m ρ c main_v83 (by decide)).trans <|
  (keep_hostOps26_of_not_mem (B54 m ρ c) main_v83 (by decide)).trans <|
  (B54_of_ne m ρ c main_v83 (by decide)).trans <|
  (keep_hostOps25_of_not_mem (B52 m ρ c) main_v83 (by decide)).trans <|
  (B52_of_ne m ρ c main_v83 (by decide)).trans <|
  (keep_hostOps24_of_not_mem (B50 m ρ c) main_v83 (by decide)).trans <|
  (B50_of_ne m ρ c main_v83 (by decide)).trans <|
  (keep_hostOps23_of_not_mem (B48 m ρ c) main_v83 (by decide)).trans <|
  (B48_of_ne m ρ c main_v83 (by decide)).trans <|
  (keep_hostOps22_of_not_mem (B46 m ρ c) main_v83 (by decide)).trans <|
  (B46_of_ne m ρ c main_v83 (by decide)).trans <|
  (keep_hostOps21_of_not_mem (B44 m ρ c) main_v83 (by decide)).trans <|
  (B44_of_ne m ρ c main_v83 (by decide)).trans <|
  (keep_hostOps20_of_not_mem (B42 m ρ c) main_v83 (by decide)).trans <|
  (B42_of_ne m ρ c main_v83 (by decide)).trans <|
  (keep_hostOps19_of_not_mem (B40 m ρ c) main_v83 (by decide)).trans <|
  (B40_of_ne m ρ c main_v83 (by decide)).trans <|
  (keep_hostOps18_of_not_mem (B38 m ρ c) main_v83 (by decide)).trans <|
  (B38_of_ne m ρ c main_v83 (by decide)).trans <|
  (keep_hostOps17_of_not_mem (B36 m ρ c) main_v83 (by decide)).trans <|
  (B36_of_ne m ρ c main_v83 (by decide)).trans <|
  (keep_hostOps16_of_not_mem (B34 m ρ c) main_v83 (by decide)).trans <|
  (B34_of_ne m ρ c main_v83 (by decide)).trans <|
  (keep_hostOps15_of_not_mem (B32 m ρ c) main_v83 (by decide)).trans <|
  (B32_of_ne m ρ c main_v83 (by decide)).trans <|
  (keep_hostOps14_of_not_mem (B30 m ρ c) main_v83 (by decide)).trans <|
  (B30_of_ne m ρ c main_v83 (by decide)).trans <|
  (keep_hostOps13_of_not_mem (B28 m ρ c) main_v83 (by decide)).trans <|
  (B28_of_ne m ρ c main_v83 (by decide)).trans <|
  (keep_hostOps12_of_not_mem (B26 m ρ c) main_v83 (by decide)).trans <|
  (B26_of_ne m ρ c main_v83 (by decide)).trans <|
  (keep_hostOps11_of_not_mem (B24 m ρ c) main_v83 (by decide)).trans <|
  (B24_of_ne m ρ c main_v83 (by decide)).trans <|
  (keep_hostOps10_of_not_mem (B22 m ρ c) main_v83 (by decide)).trans <|
  (B22_of_ne m ρ c main_v83 (by decide)).trans <|
  (keep_hostOps9_of_not_mem (B20 m ρ c) main_v83 (by decide)).trans <|
  (B20_of_ne m ρ c main_v83 (by decide)).trans <|
  (keep_hostOps8_of_not_mem (B18 m ρ c) main_v83 (by decide)).trans <|
  (B18_of_ne m ρ c main_v83 (by decide)).trans <|
  (keep_hostOps7_of_not_mem (B16 m ρ c) main_v83 (by decide)).trans <|
  (B16_of_ne m ρ c main_v83 (by decide)).trans <|
  (keep_hostOps6_of_not_mem (B14 m ρ c) main_v83 (by decide)).trans <|
  (B14_of_ne m ρ c main_v83 (by decide)).trans <|
  (keep_hostOps5_of_not_mem (B12 m ρ c) main_v83 (by decide)).trans <|
  (B12_of_ne m ρ c main_v83 (by decide)).trans <|
  (keep_hostOps4_of_not_mem (B10 m ρ c) main_v83 (by decide)).trans <|
  (B10_of_ne m ρ c main_v83 (by decide)).trans <|
  (keep_hostOps3_of_not_mem (B8 m ρ c) main_v83 (by decide)).trans <|
  (B8_of_ne m ρ c main_v83 (by decide)).trans <|
  (keep_hostOps2_of_not_mem (B6 m ρ c) main_v83 (by decide)).trans <|
  (B6_of_ne m ρ c main_v83 (by decide))

/-! ### `main_v85` from boundary 5, to 58 -/
theorem carry_v85_5_58 (c : Dev nD) :
    B58 m ρ c (Proc.devRef .tc main_v85) = B5 m ρ c (Proc.devRef .tc main_v85) :=
  (B58_of_ne m ρ c main_v85 (by decide)).trans <|
  (keep_hostOps27_of_not_mem (B56 m ρ c) main_v85 (by decide)).trans <|
  (B56_of_ne m ρ c main_v85 (by decide)).trans <|
  (keep_hostOps26_of_not_mem (B54 m ρ c) main_v85 (by decide)).trans <|
  (B54_of_ne m ρ c main_v85 (by decide)).trans <|
  (keep_hostOps25_of_not_mem (B52 m ρ c) main_v85 (by decide)).trans <|
  (B52_of_ne m ρ c main_v85 (by decide)).trans <|
  (keep_hostOps24_of_not_mem (B50 m ρ c) main_v85 (by decide)).trans <|
  (B50_of_ne m ρ c main_v85 (by decide)).trans <|
  (keep_hostOps23_of_not_mem (B48 m ρ c) main_v85 (by decide)).trans <|
  (B48_of_ne m ρ c main_v85 (by decide)).trans <|
  (keep_hostOps22_of_not_mem (B46 m ρ c) main_v85 (by decide)).trans <|
  (B46_of_ne m ρ c main_v85 (by decide)).trans <|
  (keep_hostOps21_of_not_mem (B44 m ρ c) main_v85 (by decide)).trans <|
  (B44_of_ne m ρ c main_v85 (by decide)).trans <|
  (keep_hostOps20_of_not_mem (B42 m ρ c) main_v85 (by decide)).trans <|
  (B42_of_ne m ρ c main_v85 (by decide)).trans <|
  (keep_hostOps19_of_not_mem (B40 m ρ c) main_v85 (by decide)).trans <|
  (B40_of_ne m ρ c main_v85 (by decide)).trans <|
  (keep_hostOps18_of_not_mem (B38 m ρ c) main_v85 (by decide)).trans <|
  (B38_of_ne m ρ c main_v85 (by decide)).trans <|
  (keep_hostOps17_of_not_mem (B36 m ρ c) main_v85 (by decide)).trans <|
  (B36_of_ne m ρ c main_v85 (by decide)).trans <|
  (keep_hostOps16_of_not_mem (B34 m ρ c) main_v85 (by decide)).trans <|
  (B34_of_ne m ρ c main_v85 (by decide)).trans <|
  (keep_hostOps15_of_not_mem (B32 m ρ c) main_v85 (by decide)).trans <|
  (B32_of_ne m ρ c main_v85 (by decide)).trans <|
  (keep_hostOps14_of_not_mem (B30 m ρ c) main_v85 (by decide)).trans <|
  (B30_of_ne m ρ c main_v85 (by decide)).trans <|
  (keep_hostOps13_of_not_mem (B28 m ρ c) main_v85 (by decide)).trans <|
  (B28_of_ne m ρ c main_v85 (by decide)).trans <|
  (keep_hostOps12_of_not_mem (B26 m ρ c) main_v85 (by decide)).trans <|
  (B26_of_ne m ρ c main_v85 (by decide)).trans <|
  (keep_hostOps11_of_not_mem (B24 m ρ c) main_v85 (by decide)).trans <|
  (B24_of_ne m ρ c main_v85 (by decide)).trans <|
  (keep_hostOps10_of_not_mem (B22 m ρ c) main_v85 (by decide)).trans <|
  (B22_of_ne m ρ c main_v85 (by decide)).trans <|
  (keep_hostOps9_of_not_mem (B20 m ρ c) main_v85 (by decide)).trans <|
  (B20_of_ne m ρ c main_v85 (by decide)).trans <|
  (keep_hostOps8_of_not_mem (B18 m ρ c) main_v85 (by decide)).trans <|
  (B18_of_ne m ρ c main_v85 (by decide)).trans <|
  (keep_hostOps7_of_not_mem (B16 m ρ c) main_v85 (by decide)).trans <|
  (B16_of_ne m ρ c main_v85 (by decide)).trans <|
  (keep_hostOps6_of_not_mem (B14 m ρ c) main_v85 (by decide)).trans <|
  (B14_of_ne m ρ c main_v85 (by decide)).trans <|
  (keep_hostOps5_of_not_mem (B12 m ρ c) main_v85 (by decide)).trans <|
  (B12_of_ne m ρ c main_v85 (by decide)).trans <|
  (keep_hostOps4_of_not_mem (B10 m ρ c) main_v85 (by decide)).trans <|
  (B10_of_ne m ρ c main_v85 (by decide)).trans <|
  (keep_hostOps3_of_not_mem (B8 m ρ c) main_v85 (by decide)).trans <|
  (B8_of_ne m ρ c main_v85 (by decide)).trans <|
  (keep_hostOps2_of_not_mem (B6 m ρ c) main_v85 (by decide)).trans <|
  (B6_of_ne m ρ c main_v85 (by decide))

/-! ### `main_v87` from boundary 5, to 66 -/
theorem carry_v87_5_66 (c : Dev nD) :
    B66 m ρ c (Proc.devRef .tc main_v87) = B5 m ρ c (Proc.devRef .tc main_v87) :=
  (B66_of_ne m ρ c main_v87 (by decide)).trans <|
  (keep_hostOps31_of_not_mem (B64 m ρ c) main_v87 (by decide)).trans <|
  (B64_of_ne m ρ c main_v87 (by decide)).trans <|
  (keep_hostOps30_of_not_mem (B62 m ρ c) main_v87 (by decide)).trans <|
  (B62_of_ne m ρ c main_v87 (by decide)).trans <|
  (keep_hostOps29_of_not_mem (B60 m ρ c) main_v87 (by decide)).trans <|
  (B60_of_ne m ρ c main_v87 (by decide)).trans <|
  (keep_hostOps28_of_not_mem (B58 m ρ c) main_v87 (by decide)).trans <|
  (B58_of_ne m ρ c main_v87 (by decide)).trans <|
  (keep_hostOps27_of_not_mem (B56 m ρ c) main_v87 (by decide)).trans <|
  (B56_of_ne m ρ c main_v87 (by decide)).trans <|
  (keep_hostOps26_of_not_mem (B54 m ρ c) main_v87 (by decide)).trans <|
  (B54_of_ne m ρ c main_v87 (by decide)).trans <|
  (keep_hostOps25_of_not_mem (B52 m ρ c) main_v87 (by decide)).trans <|
  (B52_of_ne m ρ c main_v87 (by decide)).trans <|
  (keep_hostOps24_of_not_mem (B50 m ρ c) main_v87 (by decide)).trans <|
  (B50_of_ne m ρ c main_v87 (by decide)).trans <|
  (keep_hostOps23_of_not_mem (B48 m ρ c) main_v87 (by decide)).trans <|
  (B48_of_ne m ρ c main_v87 (by decide)).trans <|
  (keep_hostOps22_of_not_mem (B46 m ρ c) main_v87 (by decide)).trans <|
  (B46_of_ne m ρ c main_v87 (by decide)).trans <|
  (keep_hostOps21_of_not_mem (B44 m ρ c) main_v87 (by decide)).trans <|
  (B44_of_ne m ρ c main_v87 (by decide)).trans <|
  (keep_hostOps20_of_not_mem (B42 m ρ c) main_v87 (by decide)).trans <|
  (B42_of_ne m ρ c main_v87 (by decide)).trans <|
  (keep_hostOps19_of_not_mem (B40 m ρ c) main_v87 (by decide)).trans <|
  (B40_of_ne m ρ c main_v87 (by decide)).trans <|
  (keep_hostOps18_of_not_mem (B38 m ρ c) main_v87 (by decide)).trans <|
  (B38_of_ne m ρ c main_v87 (by decide)).trans <|
  (keep_hostOps17_of_not_mem (B36 m ρ c) main_v87 (by decide)).trans <|
  (B36_of_ne m ρ c main_v87 (by decide)).trans <|
  (keep_hostOps16_of_not_mem (B34 m ρ c) main_v87 (by decide)).trans <|
  (B34_of_ne m ρ c main_v87 (by decide)).trans <|
  (keep_hostOps15_of_not_mem (B32 m ρ c) main_v87 (by decide)).trans <|
  (B32_of_ne m ρ c main_v87 (by decide)).trans <|
  (keep_hostOps14_of_not_mem (B30 m ρ c) main_v87 (by decide)).trans <|
  (B30_of_ne m ρ c main_v87 (by decide)).trans <|
  (keep_hostOps13_of_not_mem (B28 m ρ c) main_v87 (by decide)).trans <|
  (B28_of_ne m ρ c main_v87 (by decide)).trans <|
  (keep_hostOps12_of_not_mem (B26 m ρ c) main_v87 (by decide)).trans <|
  (B26_of_ne m ρ c main_v87 (by decide)).trans <|
  (keep_hostOps11_of_not_mem (B24 m ρ c) main_v87 (by decide)).trans <|
  (B24_of_ne m ρ c main_v87 (by decide)).trans <|
  (keep_hostOps10_of_not_mem (B22 m ρ c) main_v87 (by decide)).trans <|
  (B22_of_ne m ρ c main_v87 (by decide)).trans <|
  (keep_hostOps9_of_not_mem (B20 m ρ c) main_v87 (by decide)).trans <|
  (B20_of_ne m ρ c main_v87 (by decide)).trans <|
  (keep_hostOps8_of_not_mem (B18 m ρ c) main_v87 (by decide)).trans <|
  (B18_of_ne m ρ c main_v87 (by decide)).trans <|
  (keep_hostOps7_of_not_mem (B16 m ρ c) main_v87 (by decide)).trans <|
  (B16_of_ne m ρ c main_v87 (by decide)).trans <|
  (keep_hostOps6_of_not_mem (B14 m ρ c) main_v87 (by decide)).trans <|
  (B14_of_ne m ρ c main_v87 (by decide)).trans <|
  (keep_hostOps5_of_not_mem (B12 m ρ c) main_v87 (by decide)).trans <|
  (B12_of_ne m ρ c main_v87 (by decide)).trans <|
  (keep_hostOps4_of_not_mem (B10 m ρ c) main_v87 (by decide)).trans <|
  (B10_of_ne m ρ c main_v87 (by decide)).trans <|
  (keep_hostOps3_of_not_mem (B8 m ρ c) main_v87 (by decide)).trans <|
  (B8_of_ne m ρ c main_v87 (by decide)).trans <|
  (keep_hostOps2_of_not_mem (B6 m ρ c) main_v87 (by decide)).trans <|
  (B6_of_ne m ρ c main_v87 (by decide))

/-! ### `main_v89` from boundary 5, to 66 -/
theorem carry_v89_5_66 (c : Dev nD) :
    B66 m ρ c (Proc.devRef .tc main_v89) = B5 m ρ c (Proc.devRef .tc main_v89) :=
  (B66_of_ne m ρ c main_v89 (by decide)).trans <|
  (keep_hostOps31_of_not_mem (B64 m ρ c) main_v89 (by decide)).trans <|
  (B64_of_ne m ρ c main_v89 (by decide)).trans <|
  (keep_hostOps30_of_not_mem (B62 m ρ c) main_v89 (by decide)).trans <|
  (B62_of_ne m ρ c main_v89 (by decide)).trans <|
  (keep_hostOps29_of_not_mem (B60 m ρ c) main_v89 (by decide)).trans <|
  (B60_of_ne m ρ c main_v89 (by decide)).trans <|
  (keep_hostOps28_of_not_mem (B58 m ρ c) main_v89 (by decide)).trans <|
  (B58_of_ne m ρ c main_v89 (by decide)).trans <|
  (keep_hostOps27_of_not_mem (B56 m ρ c) main_v89 (by decide)).trans <|
  (B56_of_ne m ρ c main_v89 (by decide)).trans <|
  (keep_hostOps26_of_not_mem (B54 m ρ c) main_v89 (by decide)).trans <|
  (B54_of_ne m ρ c main_v89 (by decide)).trans <|
  (keep_hostOps25_of_not_mem (B52 m ρ c) main_v89 (by decide)).trans <|
  (B52_of_ne m ρ c main_v89 (by decide)).trans <|
  (keep_hostOps24_of_not_mem (B50 m ρ c) main_v89 (by decide)).trans <|
  (B50_of_ne m ρ c main_v89 (by decide)).trans <|
  (keep_hostOps23_of_not_mem (B48 m ρ c) main_v89 (by decide)).trans <|
  (B48_of_ne m ρ c main_v89 (by decide)).trans <|
  (keep_hostOps22_of_not_mem (B46 m ρ c) main_v89 (by decide)).trans <|
  (B46_of_ne m ρ c main_v89 (by decide)).trans <|
  (keep_hostOps21_of_not_mem (B44 m ρ c) main_v89 (by decide)).trans <|
  (B44_of_ne m ρ c main_v89 (by decide)).trans <|
  (keep_hostOps20_of_not_mem (B42 m ρ c) main_v89 (by decide)).trans <|
  (B42_of_ne m ρ c main_v89 (by decide)).trans <|
  (keep_hostOps19_of_not_mem (B40 m ρ c) main_v89 (by decide)).trans <|
  (B40_of_ne m ρ c main_v89 (by decide)).trans <|
  (keep_hostOps18_of_not_mem (B38 m ρ c) main_v89 (by decide)).trans <|
  (B38_of_ne m ρ c main_v89 (by decide)).trans <|
  (keep_hostOps17_of_not_mem (B36 m ρ c) main_v89 (by decide)).trans <|
  (B36_of_ne m ρ c main_v89 (by decide)).trans <|
  (keep_hostOps16_of_not_mem (B34 m ρ c) main_v89 (by decide)).trans <|
  (B34_of_ne m ρ c main_v89 (by decide)).trans <|
  (keep_hostOps15_of_not_mem (B32 m ρ c) main_v89 (by decide)).trans <|
  (B32_of_ne m ρ c main_v89 (by decide)).trans <|
  (keep_hostOps14_of_not_mem (B30 m ρ c) main_v89 (by decide)).trans <|
  (B30_of_ne m ρ c main_v89 (by decide)).trans <|
  (keep_hostOps13_of_not_mem (B28 m ρ c) main_v89 (by decide)).trans <|
  (B28_of_ne m ρ c main_v89 (by decide)).trans <|
  (keep_hostOps12_of_not_mem (B26 m ρ c) main_v89 (by decide)).trans <|
  (B26_of_ne m ρ c main_v89 (by decide)).trans <|
  (keep_hostOps11_of_not_mem (B24 m ρ c) main_v89 (by decide)).trans <|
  (B24_of_ne m ρ c main_v89 (by decide)).trans <|
  (keep_hostOps10_of_not_mem (B22 m ρ c) main_v89 (by decide)).trans <|
  (B22_of_ne m ρ c main_v89 (by decide)).trans <|
  (keep_hostOps9_of_not_mem (B20 m ρ c) main_v89 (by decide)).trans <|
  (B20_of_ne m ρ c main_v89 (by decide)).trans <|
  (keep_hostOps8_of_not_mem (B18 m ρ c) main_v89 (by decide)).trans <|
  (B18_of_ne m ρ c main_v89 (by decide)).trans <|
  (keep_hostOps7_of_not_mem (B16 m ρ c) main_v89 (by decide)).trans <|
  (B16_of_ne m ρ c main_v89 (by decide)).trans <|
  (keep_hostOps6_of_not_mem (B14 m ρ c) main_v89 (by decide)).trans <|
  (B14_of_ne m ρ c main_v89 (by decide)).trans <|
  (keep_hostOps5_of_not_mem (B12 m ρ c) main_v89 (by decide)).trans <|
  (B12_of_ne m ρ c main_v89 (by decide)).trans <|
  (keep_hostOps4_of_not_mem (B10 m ρ c) main_v89 (by decide)).trans <|
  (B10_of_ne m ρ c main_v89 (by decide)).trans <|
  (keep_hostOps3_of_not_mem (B8 m ρ c) main_v89 (by decide)).trans <|
  (B8_of_ne m ρ c main_v89 (by decide)).trans <|
  (keep_hostOps2_of_not_mem (B6 m ρ c) main_v89 (by decide)).trans <|
  (B6_of_ne m ρ c main_v89 (by decide))

/-! ### `main_v91` from boundary 5, to 74 -/
theorem carry_v91_5_74 (c : Dev nD) :
    B74 m ρ c (Proc.devRef .tc main_v91) = B5 m ρ c (Proc.devRef .tc main_v91) :=
  (B74_of_ne m ρ c main_v91 (by decide)).trans <|
  (keep_hostOps35_of_not_mem (B72 m ρ c) main_v91 (by decide)).trans <|
  (B72_of_ne m ρ c main_v91 (by decide)).trans <|
  (keep_hostOps34_of_not_mem (B70 m ρ c) main_v91 (by decide)).trans <|
  (B70_of_ne m ρ c main_v91 (by decide)).trans <|
  (keep_hostOps33_of_not_mem (B68 m ρ c) main_v91 (by decide)).trans <|
  (B68_of_ne m ρ c main_v91 (by decide)).trans <|
  (keep_hostOps32_of_not_mem (B66 m ρ c) main_v91 (by decide)).trans <|
  (B66_of_ne m ρ c main_v91 (by decide)).trans <|
  (keep_hostOps31_of_not_mem (B64 m ρ c) main_v91 (by decide)).trans <|
  (B64_of_ne m ρ c main_v91 (by decide)).trans <|
  (keep_hostOps30_of_not_mem (B62 m ρ c) main_v91 (by decide)).trans <|
  (B62_of_ne m ρ c main_v91 (by decide)).trans <|
  (keep_hostOps29_of_not_mem (B60 m ρ c) main_v91 (by decide)).trans <|
  (B60_of_ne m ρ c main_v91 (by decide)).trans <|
  (keep_hostOps28_of_not_mem (B58 m ρ c) main_v91 (by decide)).trans <|
  (B58_of_ne m ρ c main_v91 (by decide)).trans <|
  (keep_hostOps27_of_not_mem (B56 m ρ c) main_v91 (by decide)).trans <|
  (B56_of_ne m ρ c main_v91 (by decide)).trans <|
  (keep_hostOps26_of_not_mem (B54 m ρ c) main_v91 (by decide)).trans <|
  (B54_of_ne m ρ c main_v91 (by decide)).trans <|
  (keep_hostOps25_of_not_mem (B52 m ρ c) main_v91 (by decide)).trans <|
  (B52_of_ne m ρ c main_v91 (by decide)).trans <|
  (keep_hostOps24_of_not_mem (B50 m ρ c) main_v91 (by decide)).trans <|
  (B50_of_ne m ρ c main_v91 (by decide)).trans <|
  (keep_hostOps23_of_not_mem (B48 m ρ c) main_v91 (by decide)).trans <|
  (B48_of_ne m ρ c main_v91 (by decide)).trans <|
  (keep_hostOps22_of_not_mem (B46 m ρ c) main_v91 (by decide)).trans <|
  (B46_of_ne m ρ c main_v91 (by decide)).trans <|
  (keep_hostOps21_of_not_mem (B44 m ρ c) main_v91 (by decide)).trans <|
  (B44_of_ne m ρ c main_v91 (by decide)).trans <|
  (keep_hostOps20_of_not_mem (B42 m ρ c) main_v91 (by decide)).trans <|
  (B42_of_ne m ρ c main_v91 (by decide)).trans <|
  (keep_hostOps19_of_not_mem (B40 m ρ c) main_v91 (by decide)).trans <|
  (B40_of_ne m ρ c main_v91 (by decide)).trans <|
  (keep_hostOps18_of_not_mem (B38 m ρ c) main_v91 (by decide)).trans <|
  (B38_of_ne m ρ c main_v91 (by decide)).trans <|
  (keep_hostOps17_of_not_mem (B36 m ρ c) main_v91 (by decide)).trans <|
  (B36_of_ne m ρ c main_v91 (by decide)).trans <|
  (keep_hostOps16_of_not_mem (B34 m ρ c) main_v91 (by decide)).trans <|
  (B34_of_ne m ρ c main_v91 (by decide)).trans <|
  (keep_hostOps15_of_not_mem (B32 m ρ c) main_v91 (by decide)).trans <|
  (B32_of_ne m ρ c main_v91 (by decide)).trans <|
  (keep_hostOps14_of_not_mem (B30 m ρ c) main_v91 (by decide)).trans <|
  (B30_of_ne m ρ c main_v91 (by decide)).trans <|
  (keep_hostOps13_of_not_mem (B28 m ρ c) main_v91 (by decide)).trans <|
  (B28_of_ne m ρ c main_v91 (by decide)).trans <|
  (keep_hostOps12_of_not_mem (B26 m ρ c) main_v91 (by decide)).trans <|
  (B26_of_ne m ρ c main_v91 (by decide)).trans <|
  (keep_hostOps11_of_not_mem (B24 m ρ c) main_v91 (by decide)).trans <|
  (B24_of_ne m ρ c main_v91 (by decide)).trans <|
  (keep_hostOps10_of_not_mem (B22 m ρ c) main_v91 (by decide)).trans <|
  (B22_of_ne m ρ c main_v91 (by decide)).trans <|
  (keep_hostOps9_of_not_mem (B20 m ρ c) main_v91 (by decide)).trans <|
  (B20_of_ne m ρ c main_v91 (by decide)).trans <|
  (keep_hostOps8_of_not_mem (B18 m ρ c) main_v91 (by decide)).trans <|
  (B18_of_ne m ρ c main_v91 (by decide)).trans <|
  (keep_hostOps7_of_not_mem (B16 m ρ c) main_v91 (by decide)).trans <|
  (B16_of_ne m ρ c main_v91 (by decide)).trans <|
  (keep_hostOps6_of_not_mem (B14 m ρ c) main_v91 (by decide)).trans <|
  (B14_of_ne m ρ c main_v91 (by decide)).trans <|
  (keep_hostOps5_of_not_mem (B12 m ρ c) main_v91 (by decide)).trans <|
  (B12_of_ne m ρ c main_v91 (by decide)).trans <|
  (keep_hostOps4_of_not_mem (B10 m ρ c) main_v91 (by decide)).trans <|
  (B10_of_ne m ρ c main_v91 (by decide)).trans <|
  (keep_hostOps3_of_not_mem (B8 m ρ c) main_v91 (by decide)).trans <|
  (B8_of_ne m ρ c main_v91 (by decide)).trans <|
  (keep_hostOps2_of_not_mem (B6 m ρ c) main_v91 (by decide)).trans <|
  (B6_of_ne m ρ c main_v91 (by decide))

/-! ### `main_v93` from boundary 5, to 74 -/
theorem carry_v93_5_74 (c : Dev nD) :
    B74 m ρ c (Proc.devRef .tc main_v93) = B5 m ρ c (Proc.devRef .tc main_v93) :=
  (B74_of_ne m ρ c main_v93 (by decide)).trans <|
  (keep_hostOps35_of_not_mem (B72 m ρ c) main_v93 (by decide)).trans <|
  (B72_of_ne m ρ c main_v93 (by decide)).trans <|
  (keep_hostOps34_of_not_mem (B70 m ρ c) main_v93 (by decide)).trans <|
  (B70_of_ne m ρ c main_v93 (by decide)).trans <|
  (keep_hostOps33_of_not_mem (B68 m ρ c) main_v93 (by decide)).trans <|
  (B68_of_ne m ρ c main_v93 (by decide)).trans <|
  (keep_hostOps32_of_not_mem (B66 m ρ c) main_v93 (by decide)).trans <|
  (B66_of_ne m ρ c main_v93 (by decide)).trans <|
  (keep_hostOps31_of_not_mem (B64 m ρ c) main_v93 (by decide)).trans <|
  (B64_of_ne m ρ c main_v93 (by decide)).trans <|
  (keep_hostOps30_of_not_mem (B62 m ρ c) main_v93 (by decide)).trans <|
  (B62_of_ne m ρ c main_v93 (by decide)).trans <|
  (keep_hostOps29_of_not_mem (B60 m ρ c) main_v93 (by decide)).trans <|
  (B60_of_ne m ρ c main_v93 (by decide)).trans <|
  (keep_hostOps28_of_not_mem (B58 m ρ c) main_v93 (by decide)).trans <|
  (B58_of_ne m ρ c main_v93 (by decide)).trans <|
  (keep_hostOps27_of_not_mem (B56 m ρ c) main_v93 (by decide)).trans <|
  (B56_of_ne m ρ c main_v93 (by decide)).trans <|
  (keep_hostOps26_of_not_mem (B54 m ρ c) main_v93 (by decide)).trans <|
  (B54_of_ne m ρ c main_v93 (by decide)).trans <|
  (keep_hostOps25_of_not_mem (B52 m ρ c) main_v93 (by decide)).trans <|
  (B52_of_ne m ρ c main_v93 (by decide)).trans <|
  (keep_hostOps24_of_not_mem (B50 m ρ c) main_v93 (by decide)).trans <|
  (B50_of_ne m ρ c main_v93 (by decide)).trans <|
  (keep_hostOps23_of_not_mem (B48 m ρ c) main_v93 (by decide)).trans <|
  (B48_of_ne m ρ c main_v93 (by decide)).trans <|
  (keep_hostOps22_of_not_mem (B46 m ρ c) main_v93 (by decide)).trans <|
  (B46_of_ne m ρ c main_v93 (by decide)).trans <|
  (keep_hostOps21_of_not_mem (B44 m ρ c) main_v93 (by decide)).trans <|
  (B44_of_ne m ρ c main_v93 (by decide)).trans <|
  (keep_hostOps20_of_not_mem (B42 m ρ c) main_v93 (by decide)).trans <|
  (B42_of_ne m ρ c main_v93 (by decide)).trans <|
  (keep_hostOps19_of_not_mem (B40 m ρ c) main_v93 (by decide)).trans <|
  (B40_of_ne m ρ c main_v93 (by decide)).trans <|
  (keep_hostOps18_of_not_mem (B38 m ρ c) main_v93 (by decide)).trans <|
  (B38_of_ne m ρ c main_v93 (by decide)).trans <|
  (keep_hostOps17_of_not_mem (B36 m ρ c) main_v93 (by decide)).trans <|
  (B36_of_ne m ρ c main_v93 (by decide)).trans <|
  (keep_hostOps16_of_not_mem (B34 m ρ c) main_v93 (by decide)).trans <|
  (B34_of_ne m ρ c main_v93 (by decide)).trans <|
  (keep_hostOps15_of_not_mem (B32 m ρ c) main_v93 (by decide)).trans <|
  (B32_of_ne m ρ c main_v93 (by decide)).trans <|
  (keep_hostOps14_of_not_mem (B30 m ρ c) main_v93 (by decide)).trans <|
  (B30_of_ne m ρ c main_v93 (by decide)).trans <|
  (keep_hostOps13_of_not_mem (B28 m ρ c) main_v93 (by decide)).trans <|
  (B28_of_ne m ρ c main_v93 (by decide)).trans <|
  (keep_hostOps12_of_not_mem (B26 m ρ c) main_v93 (by decide)).trans <|
  (B26_of_ne m ρ c main_v93 (by decide)).trans <|
  (keep_hostOps11_of_not_mem (B24 m ρ c) main_v93 (by decide)).trans <|
  (B24_of_ne m ρ c main_v93 (by decide)).trans <|
  (keep_hostOps10_of_not_mem (B22 m ρ c) main_v93 (by decide)).trans <|
  (B22_of_ne m ρ c main_v93 (by decide)).trans <|
  (keep_hostOps9_of_not_mem (B20 m ρ c) main_v93 (by decide)).trans <|
  (B20_of_ne m ρ c main_v93 (by decide)).trans <|
  (keep_hostOps8_of_not_mem (B18 m ρ c) main_v93 (by decide)).trans <|
  (B18_of_ne m ρ c main_v93 (by decide)).trans <|
  (keep_hostOps7_of_not_mem (B16 m ρ c) main_v93 (by decide)).trans <|
  (B16_of_ne m ρ c main_v93 (by decide)).trans <|
  (keep_hostOps6_of_not_mem (B14 m ρ c) main_v93 (by decide)).trans <|
  (B14_of_ne m ρ c main_v93 (by decide)).trans <|
  (keep_hostOps5_of_not_mem (B12 m ρ c) main_v93 (by decide)).trans <|
  (B12_of_ne m ρ c main_v93 (by decide)).trans <|
  (keep_hostOps4_of_not_mem (B10 m ρ c) main_v93 (by decide)).trans <|
  (B10_of_ne m ρ c main_v93 (by decide)).trans <|
  (keep_hostOps3_of_not_mem (B8 m ρ c) main_v93 (by decide)).trans <|
  (B8_of_ne m ρ c main_v93 (by decide)).trans <|
  (keep_hostOps2_of_not_mem (B6 m ρ c) main_v93 (by decide)).trans <|
  (B6_of_ne m ρ c main_v93 (by decide))

/-! ### `main_v95` from boundary 5, to 82 -/
theorem carry_v95_5_82 (c : Dev nD) :
    B82 m ρ c (Proc.devRef .tc main_v95) = B5 m ρ c (Proc.devRef .tc main_v95) :=
  (B82_of_ne m ρ c main_v95 (by decide)).trans <|
  (keep_hostOps39_of_not_mem (B80 m ρ c) main_v95 (by decide)).trans <|
  (B80_of_ne m ρ c main_v95 (by decide)).trans <|
  (keep_hostOps38_of_not_mem (B78 m ρ c) main_v95 (by decide)).trans <|
  (B78_of_ne m ρ c main_v95 (by decide)).trans <|
  (keep_hostOps37_of_not_mem (B76 m ρ c) main_v95 (by decide)).trans <|
  (B76_of_ne m ρ c main_v95 (by decide)).trans <|
  (keep_hostOps36_of_not_mem (B74 m ρ c) main_v95 (by decide)).trans <|
  (B74_of_ne m ρ c main_v95 (by decide)).trans <|
  (keep_hostOps35_of_not_mem (B72 m ρ c) main_v95 (by decide)).trans <|
  (B72_of_ne m ρ c main_v95 (by decide)).trans <|
  (keep_hostOps34_of_not_mem (B70 m ρ c) main_v95 (by decide)).trans <|
  (B70_of_ne m ρ c main_v95 (by decide)).trans <|
  (keep_hostOps33_of_not_mem (B68 m ρ c) main_v95 (by decide)).trans <|
  (B68_of_ne m ρ c main_v95 (by decide)).trans <|
  (keep_hostOps32_of_not_mem (B66 m ρ c) main_v95 (by decide)).trans <|
  (B66_of_ne m ρ c main_v95 (by decide)).trans <|
  (keep_hostOps31_of_not_mem (B64 m ρ c) main_v95 (by decide)).trans <|
  (B64_of_ne m ρ c main_v95 (by decide)).trans <|
  (keep_hostOps30_of_not_mem (B62 m ρ c) main_v95 (by decide)).trans <|
  (B62_of_ne m ρ c main_v95 (by decide)).trans <|
  (keep_hostOps29_of_not_mem (B60 m ρ c) main_v95 (by decide)).trans <|
  (B60_of_ne m ρ c main_v95 (by decide)).trans <|
  (keep_hostOps28_of_not_mem (B58 m ρ c) main_v95 (by decide)).trans <|
  (B58_of_ne m ρ c main_v95 (by decide)).trans <|
  (keep_hostOps27_of_not_mem (B56 m ρ c) main_v95 (by decide)).trans <|
  (B56_of_ne m ρ c main_v95 (by decide)).trans <|
  (keep_hostOps26_of_not_mem (B54 m ρ c) main_v95 (by decide)).trans <|
  (B54_of_ne m ρ c main_v95 (by decide)).trans <|
  (keep_hostOps25_of_not_mem (B52 m ρ c) main_v95 (by decide)).trans <|
  (B52_of_ne m ρ c main_v95 (by decide)).trans <|
  (keep_hostOps24_of_not_mem (B50 m ρ c) main_v95 (by decide)).trans <|
  (B50_of_ne m ρ c main_v95 (by decide)).trans <|
  (keep_hostOps23_of_not_mem (B48 m ρ c) main_v95 (by decide)).trans <|
  (B48_of_ne m ρ c main_v95 (by decide)).trans <|
  (keep_hostOps22_of_not_mem (B46 m ρ c) main_v95 (by decide)).trans <|
  (B46_of_ne m ρ c main_v95 (by decide)).trans <|
  (keep_hostOps21_of_not_mem (B44 m ρ c) main_v95 (by decide)).trans <|
  (B44_of_ne m ρ c main_v95 (by decide)).trans <|
  (keep_hostOps20_of_not_mem (B42 m ρ c) main_v95 (by decide)).trans <|
  (B42_of_ne m ρ c main_v95 (by decide)).trans <|
  (keep_hostOps19_of_not_mem (B40 m ρ c) main_v95 (by decide)).trans <|
  (B40_of_ne m ρ c main_v95 (by decide)).trans <|
  (keep_hostOps18_of_not_mem (B38 m ρ c) main_v95 (by decide)).trans <|
  (B38_of_ne m ρ c main_v95 (by decide)).trans <|
  (keep_hostOps17_of_not_mem (B36 m ρ c) main_v95 (by decide)).trans <|
  (B36_of_ne m ρ c main_v95 (by decide)).trans <|
  (keep_hostOps16_of_not_mem (B34 m ρ c) main_v95 (by decide)).trans <|
  (B34_of_ne m ρ c main_v95 (by decide)).trans <|
  (keep_hostOps15_of_not_mem (B32 m ρ c) main_v95 (by decide)).trans <|
  (B32_of_ne m ρ c main_v95 (by decide)).trans <|
  (keep_hostOps14_of_not_mem (B30 m ρ c) main_v95 (by decide)).trans <|
  (B30_of_ne m ρ c main_v95 (by decide)).trans <|
  (keep_hostOps13_of_not_mem (B28 m ρ c) main_v95 (by decide)).trans <|
  (B28_of_ne m ρ c main_v95 (by decide)).trans <|
  (keep_hostOps12_of_not_mem (B26 m ρ c) main_v95 (by decide)).trans <|
  (B26_of_ne m ρ c main_v95 (by decide)).trans <|
  (keep_hostOps11_of_not_mem (B24 m ρ c) main_v95 (by decide)).trans <|
  (B24_of_ne m ρ c main_v95 (by decide)).trans <|
  (keep_hostOps10_of_not_mem (B22 m ρ c) main_v95 (by decide)).trans <|
  (B22_of_ne m ρ c main_v95 (by decide)).trans <|
  (keep_hostOps9_of_not_mem (B20 m ρ c) main_v95 (by decide)).trans <|
  (B20_of_ne m ρ c main_v95 (by decide)).trans <|
  (keep_hostOps8_of_not_mem (B18 m ρ c) main_v95 (by decide)).trans <|
  (B18_of_ne m ρ c main_v95 (by decide)).trans <|
  (keep_hostOps7_of_not_mem (B16 m ρ c) main_v95 (by decide)).trans <|
  (B16_of_ne m ρ c main_v95 (by decide)).trans <|
  (keep_hostOps6_of_not_mem (B14 m ρ c) main_v95 (by decide)).trans <|
  (B14_of_ne m ρ c main_v95 (by decide)).trans <|
  (keep_hostOps5_of_not_mem (B12 m ρ c) main_v95 (by decide)).trans <|
  (B12_of_ne m ρ c main_v95 (by decide)).trans <|
  (keep_hostOps4_of_not_mem (B10 m ρ c) main_v95 (by decide)).trans <|
  (B10_of_ne m ρ c main_v95 (by decide)).trans <|
  (keep_hostOps3_of_not_mem (B8 m ρ c) main_v95 (by decide)).trans <|
  (B8_of_ne m ρ c main_v95 (by decide)).trans <|
  (keep_hostOps2_of_not_mem (B6 m ρ c) main_v95 (by decide)).trans <|
  (B6_of_ne m ρ c main_v95 (by decide))

/-! ### `main_v97` from boundary 5, to 82 -/
theorem carry_v97_5_82 (c : Dev nD) :
    B82 m ρ c (Proc.devRef .tc main_v97) = B5 m ρ c (Proc.devRef .tc main_v97) :=
  (B82_of_ne m ρ c main_v97 (by decide)).trans <|
  (keep_hostOps39_of_not_mem (B80 m ρ c) main_v97 (by decide)).trans <|
  (B80_of_ne m ρ c main_v97 (by decide)).trans <|
  (keep_hostOps38_of_not_mem (B78 m ρ c) main_v97 (by decide)).trans <|
  (B78_of_ne m ρ c main_v97 (by decide)).trans <|
  (keep_hostOps37_of_not_mem (B76 m ρ c) main_v97 (by decide)).trans <|
  (B76_of_ne m ρ c main_v97 (by decide)).trans <|
  (keep_hostOps36_of_not_mem (B74 m ρ c) main_v97 (by decide)).trans <|
  (B74_of_ne m ρ c main_v97 (by decide)).trans <|
  (keep_hostOps35_of_not_mem (B72 m ρ c) main_v97 (by decide)).trans <|
  (B72_of_ne m ρ c main_v97 (by decide)).trans <|
  (keep_hostOps34_of_not_mem (B70 m ρ c) main_v97 (by decide)).trans <|
  (B70_of_ne m ρ c main_v97 (by decide)).trans <|
  (keep_hostOps33_of_not_mem (B68 m ρ c) main_v97 (by decide)).trans <|
  (B68_of_ne m ρ c main_v97 (by decide)).trans <|
  (keep_hostOps32_of_not_mem (B66 m ρ c) main_v97 (by decide)).trans <|
  (B66_of_ne m ρ c main_v97 (by decide)).trans <|
  (keep_hostOps31_of_not_mem (B64 m ρ c) main_v97 (by decide)).trans <|
  (B64_of_ne m ρ c main_v97 (by decide)).trans <|
  (keep_hostOps30_of_not_mem (B62 m ρ c) main_v97 (by decide)).trans <|
  (B62_of_ne m ρ c main_v97 (by decide)).trans <|
  (keep_hostOps29_of_not_mem (B60 m ρ c) main_v97 (by decide)).trans <|
  (B60_of_ne m ρ c main_v97 (by decide)).trans <|
  (keep_hostOps28_of_not_mem (B58 m ρ c) main_v97 (by decide)).trans <|
  (B58_of_ne m ρ c main_v97 (by decide)).trans <|
  (keep_hostOps27_of_not_mem (B56 m ρ c) main_v97 (by decide)).trans <|
  (B56_of_ne m ρ c main_v97 (by decide)).trans <|
  (keep_hostOps26_of_not_mem (B54 m ρ c) main_v97 (by decide)).trans <|
  (B54_of_ne m ρ c main_v97 (by decide)).trans <|
  (keep_hostOps25_of_not_mem (B52 m ρ c) main_v97 (by decide)).trans <|
  (B52_of_ne m ρ c main_v97 (by decide)).trans <|
  (keep_hostOps24_of_not_mem (B50 m ρ c) main_v97 (by decide)).trans <|
  (B50_of_ne m ρ c main_v97 (by decide)).trans <|
  (keep_hostOps23_of_not_mem (B48 m ρ c) main_v97 (by decide)).trans <|
  (B48_of_ne m ρ c main_v97 (by decide)).trans <|
  (keep_hostOps22_of_not_mem (B46 m ρ c) main_v97 (by decide)).trans <|
  (B46_of_ne m ρ c main_v97 (by decide)).trans <|
  (keep_hostOps21_of_not_mem (B44 m ρ c) main_v97 (by decide)).trans <|
  (B44_of_ne m ρ c main_v97 (by decide)).trans <|
  (keep_hostOps20_of_not_mem (B42 m ρ c) main_v97 (by decide)).trans <|
  (B42_of_ne m ρ c main_v97 (by decide)).trans <|
  (keep_hostOps19_of_not_mem (B40 m ρ c) main_v97 (by decide)).trans <|
  (B40_of_ne m ρ c main_v97 (by decide)).trans <|
  (keep_hostOps18_of_not_mem (B38 m ρ c) main_v97 (by decide)).trans <|
  (B38_of_ne m ρ c main_v97 (by decide)).trans <|
  (keep_hostOps17_of_not_mem (B36 m ρ c) main_v97 (by decide)).trans <|
  (B36_of_ne m ρ c main_v97 (by decide)).trans <|
  (keep_hostOps16_of_not_mem (B34 m ρ c) main_v97 (by decide)).trans <|
  (B34_of_ne m ρ c main_v97 (by decide)).trans <|
  (keep_hostOps15_of_not_mem (B32 m ρ c) main_v97 (by decide)).trans <|
  (B32_of_ne m ρ c main_v97 (by decide)).trans <|
  (keep_hostOps14_of_not_mem (B30 m ρ c) main_v97 (by decide)).trans <|
  (B30_of_ne m ρ c main_v97 (by decide)).trans <|
  (keep_hostOps13_of_not_mem (B28 m ρ c) main_v97 (by decide)).trans <|
  (B28_of_ne m ρ c main_v97 (by decide)).trans <|
  (keep_hostOps12_of_not_mem (B26 m ρ c) main_v97 (by decide)).trans <|
  (B26_of_ne m ρ c main_v97 (by decide)).trans <|
  (keep_hostOps11_of_not_mem (B24 m ρ c) main_v97 (by decide)).trans <|
  (B24_of_ne m ρ c main_v97 (by decide)).trans <|
  (keep_hostOps10_of_not_mem (B22 m ρ c) main_v97 (by decide)).trans <|
  (B22_of_ne m ρ c main_v97 (by decide)).trans <|
  (keep_hostOps9_of_not_mem (B20 m ρ c) main_v97 (by decide)).trans <|
  (B20_of_ne m ρ c main_v97 (by decide)).trans <|
  (keep_hostOps8_of_not_mem (B18 m ρ c) main_v97 (by decide)).trans <|
  (B18_of_ne m ρ c main_v97 (by decide)).trans <|
  (keep_hostOps7_of_not_mem (B16 m ρ c) main_v97 (by decide)).trans <|
  (B16_of_ne m ρ c main_v97 (by decide)).trans <|
  (keep_hostOps6_of_not_mem (B14 m ρ c) main_v97 (by decide)).trans <|
  (B14_of_ne m ρ c main_v97 (by decide)).trans <|
  (keep_hostOps5_of_not_mem (B12 m ρ c) main_v97 (by decide)).trans <|
  (B12_of_ne m ρ c main_v97 (by decide)).trans <|
  (keep_hostOps4_of_not_mem (B10 m ρ c) main_v97 (by decide)).trans <|
  (B10_of_ne m ρ c main_v97 (by decide)).trans <|
  (keep_hostOps3_of_not_mem (B8 m ρ c) main_v97 (by decide)).trans <|
  (B8_of_ne m ρ c main_v97 (by decide)).trans <|
  (keep_hostOps2_of_not_mem (B6 m ρ c) main_v97 (by decide)).trans <|
  (B6_of_ne m ρ c main_v97 (by decide))

/-! ### `main_v99` from boundary 5, to 90 -/
theorem carry_v99_5_90 (c : Dev nD) :
    B90 m ρ c (Proc.devRef .tc main_v99) = B5 m ρ c (Proc.devRef .tc main_v99) :=
  (B90_of_ne m ρ c main_v99 (by decide)).trans <|
  (keep_hostOps43_of_not_mem (B88 m ρ c) main_v99 (by decide)).trans <|
  (B88_of_ne m ρ c main_v99 (by decide)).trans <|
  (keep_hostOps42_of_not_mem (B86 m ρ c) main_v99 (by decide)).trans <|
  (B86_of_ne m ρ c main_v99 (by decide)).trans <|
  (keep_hostOps41_of_not_mem (B84 m ρ c) main_v99 (by decide)).trans <|
  (B84_of_ne m ρ c main_v99 (by decide)).trans <|
  (keep_hostOps40_of_not_mem (B82 m ρ c) main_v99 (by decide)).trans <|
  (B82_of_ne m ρ c main_v99 (by decide)).trans <|
  (keep_hostOps39_of_not_mem (B80 m ρ c) main_v99 (by decide)).trans <|
  (B80_of_ne m ρ c main_v99 (by decide)).trans <|
  (keep_hostOps38_of_not_mem (B78 m ρ c) main_v99 (by decide)).trans <|
  (B78_of_ne m ρ c main_v99 (by decide)).trans <|
  (keep_hostOps37_of_not_mem (B76 m ρ c) main_v99 (by decide)).trans <|
  (B76_of_ne m ρ c main_v99 (by decide)).trans <|
  (keep_hostOps36_of_not_mem (B74 m ρ c) main_v99 (by decide)).trans <|
  (B74_of_ne m ρ c main_v99 (by decide)).trans <|
  (keep_hostOps35_of_not_mem (B72 m ρ c) main_v99 (by decide)).trans <|
  (B72_of_ne m ρ c main_v99 (by decide)).trans <|
  (keep_hostOps34_of_not_mem (B70 m ρ c) main_v99 (by decide)).trans <|
  (B70_of_ne m ρ c main_v99 (by decide)).trans <|
  (keep_hostOps33_of_not_mem (B68 m ρ c) main_v99 (by decide)).trans <|
  (B68_of_ne m ρ c main_v99 (by decide)).trans <|
  (keep_hostOps32_of_not_mem (B66 m ρ c) main_v99 (by decide)).trans <|
  (B66_of_ne m ρ c main_v99 (by decide)).trans <|
  (keep_hostOps31_of_not_mem (B64 m ρ c) main_v99 (by decide)).trans <|
  (B64_of_ne m ρ c main_v99 (by decide)).trans <|
  (keep_hostOps30_of_not_mem (B62 m ρ c) main_v99 (by decide)).trans <|
  (B62_of_ne m ρ c main_v99 (by decide)).trans <|
  (keep_hostOps29_of_not_mem (B60 m ρ c) main_v99 (by decide)).trans <|
  (B60_of_ne m ρ c main_v99 (by decide)).trans <|
  (keep_hostOps28_of_not_mem (B58 m ρ c) main_v99 (by decide)).trans <|
  (B58_of_ne m ρ c main_v99 (by decide)).trans <|
  (keep_hostOps27_of_not_mem (B56 m ρ c) main_v99 (by decide)).trans <|
  (B56_of_ne m ρ c main_v99 (by decide)).trans <|
  (keep_hostOps26_of_not_mem (B54 m ρ c) main_v99 (by decide)).trans <|
  (B54_of_ne m ρ c main_v99 (by decide)).trans <|
  (keep_hostOps25_of_not_mem (B52 m ρ c) main_v99 (by decide)).trans <|
  (B52_of_ne m ρ c main_v99 (by decide)).trans <|
  (keep_hostOps24_of_not_mem (B50 m ρ c) main_v99 (by decide)).trans <|
  (B50_of_ne m ρ c main_v99 (by decide)).trans <|
  (keep_hostOps23_of_not_mem (B48 m ρ c) main_v99 (by decide)).trans <|
  (B48_of_ne m ρ c main_v99 (by decide)).trans <|
  (keep_hostOps22_of_not_mem (B46 m ρ c) main_v99 (by decide)).trans <|
  (B46_of_ne m ρ c main_v99 (by decide)).trans <|
  (keep_hostOps21_of_not_mem (B44 m ρ c) main_v99 (by decide)).trans <|
  (B44_of_ne m ρ c main_v99 (by decide)).trans <|
  (keep_hostOps20_of_not_mem (B42 m ρ c) main_v99 (by decide)).trans <|
  (B42_of_ne m ρ c main_v99 (by decide)).trans <|
  (keep_hostOps19_of_not_mem (B40 m ρ c) main_v99 (by decide)).trans <|
  (B40_of_ne m ρ c main_v99 (by decide)).trans <|
  (keep_hostOps18_of_not_mem (B38 m ρ c) main_v99 (by decide)).trans <|
  (B38_of_ne m ρ c main_v99 (by decide)).trans <|
  (keep_hostOps17_of_not_mem (B36 m ρ c) main_v99 (by decide)).trans <|
  (B36_of_ne m ρ c main_v99 (by decide)).trans <|
  (keep_hostOps16_of_not_mem (B34 m ρ c) main_v99 (by decide)).trans <|
  (B34_of_ne m ρ c main_v99 (by decide)).trans <|
  (keep_hostOps15_of_not_mem (B32 m ρ c) main_v99 (by decide)).trans <|
  (B32_of_ne m ρ c main_v99 (by decide)).trans <|
  (keep_hostOps14_of_not_mem (B30 m ρ c) main_v99 (by decide)).trans <|
  (B30_of_ne m ρ c main_v99 (by decide)).trans <|
  (keep_hostOps13_of_not_mem (B28 m ρ c) main_v99 (by decide)).trans <|
  (B28_of_ne m ρ c main_v99 (by decide)).trans <|
  (keep_hostOps12_of_not_mem (B26 m ρ c) main_v99 (by decide)).trans <|
  (B26_of_ne m ρ c main_v99 (by decide)).trans <|
  (keep_hostOps11_of_not_mem (B24 m ρ c) main_v99 (by decide)).trans <|
  (B24_of_ne m ρ c main_v99 (by decide)).trans <|
  (keep_hostOps10_of_not_mem (B22 m ρ c) main_v99 (by decide)).trans <|
  (B22_of_ne m ρ c main_v99 (by decide)).trans <|
  (keep_hostOps9_of_not_mem (B20 m ρ c) main_v99 (by decide)).trans <|
  (B20_of_ne m ρ c main_v99 (by decide)).trans <|
  (keep_hostOps8_of_not_mem (B18 m ρ c) main_v99 (by decide)).trans <|
  (B18_of_ne m ρ c main_v99 (by decide)).trans <|
  (keep_hostOps7_of_not_mem (B16 m ρ c) main_v99 (by decide)).trans <|
  (B16_of_ne m ρ c main_v99 (by decide)).trans <|
  (keep_hostOps6_of_not_mem (B14 m ρ c) main_v99 (by decide)).trans <|
  (B14_of_ne m ρ c main_v99 (by decide)).trans <|
  (keep_hostOps5_of_not_mem (B12 m ρ c) main_v99 (by decide)).trans <|
  (B12_of_ne m ρ c main_v99 (by decide)).trans <|
  (keep_hostOps4_of_not_mem (B10 m ρ c) main_v99 (by decide)).trans <|
  (B10_of_ne m ρ c main_v99 (by decide)).trans <|
  (keep_hostOps3_of_not_mem (B8 m ρ c) main_v99 (by decide)).trans <|
  (B8_of_ne m ρ c main_v99 (by decide)).trans <|
  (keep_hostOps2_of_not_mem (B6 m ρ c) main_v99 (by decide)).trans <|
  (B6_of_ne m ρ c main_v99 (by decide))

/-! ### `main_v101` from boundary 5, to 90 -/
theorem carry_v101_5_90 (c : Dev nD) :
    B90 m ρ c (Proc.devRef .tc main_v101) = B5 m ρ c (Proc.devRef .tc main_v101) :=
  (B90_of_ne m ρ c main_v101 (by decide)).trans <|
  (keep_hostOps43_of_not_mem (B88 m ρ c) main_v101 (by decide)).trans <|
  (B88_of_ne m ρ c main_v101 (by decide)).trans <|
  (keep_hostOps42_of_not_mem (B86 m ρ c) main_v101 (by decide)).trans <|
  (B86_of_ne m ρ c main_v101 (by decide)).trans <|
  (keep_hostOps41_of_not_mem (B84 m ρ c) main_v101 (by decide)).trans <|
  (B84_of_ne m ρ c main_v101 (by decide)).trans <|
  (keep_hostOps40_of_not_mem (B82 m ρ c) main_v101 (by decide)).trans <|
  (B82_of_ne m ρ c main_v101 (by decide)).trans <|
  (keep_hostOps39_of_not_mem (B80 m ρ c) main_v101 (by decide)).trans <|
  (B80_of_ne m ρ c main_v101 (by decide)).trans <|
  (keep_hostOps38_of_not_mem (B78 m ρ c) main_v101 (by decide)).trans <|
  (B78_of_ne m ρ c main_v101 (by decide)).trans <|
  (keep_hostOps37_of_not_mem (B76 m ρ c) main_v101 (by decide)).trans <|
  (B76_of_ne m ρ c main_v101 (by decide)).trans <|
  (keep_hostOps36_of_not_mem (B74 m ρ c) main_v101 (by decide)).trans <|
  (B74_of_ne m ρ c main_v101 (by decide)).trans <|
  (keep_hostOps35_of_not_mem (B72 m ρ c) main_v101 (by decide)).trans <|
  (B72_of_ne m ρ c main_v101 (by decide)).trans <|
  (keep_hostOps34_of_not_mem (B70 m ρ c) main_v101 (by decide)).trans <|
  (B70_of_ne m ρ c main_v101 (by decide)).trans <|
  (keep_hostOps33_of_not_mem (B68 m ρ c) main_v101 (by decide)).trans <|
  (B68_of_ne m ρ c main_v101 (by decide)).trans <|
  (keep_hostOps32_of_not_mem (B66 m ρ c) main_v101 (by decide)).trans <|
  (B66_of_ne m ρ c main_v101 (by decide)).trans <|
  (keep_hostOps31_of_not_mem (B64 m ρ c) main_v101 (by decide)).trans <|
  (B64_of_ne m ρ c main_v101 (by decide)).trans <|
  (keep_hostOps30_of_not_mem (B62 m ρ c) main_v101 (by decide)).trans <|
  (B62_of_ne m ρ c main_v101 (by decide)).trans <|
  (keep_hostOps29_of_not_mem (B60 m ρ c) main_v101 (by decide)).trans <|
  (B60_of_ne m ρ c main_v101 (by decide)).trans <|
  (keep_hostOps28_of_not_mem (B58 m ρ c) main_v101 (by decide)).trans <|
  (B58_of_ne m ρ c main_v101 (by decide)).trans <|
  (keep_hostOps27_of_not_mem (B56 m ρ c) main_v101 (by decide)).trans <|
  (B56_of_ne m ρ c main_v101 (by decide)).trans <|
  (keep_hostOps26_of_not_mem (B54 m ρ c) main_v101 (by decide)).trans <|
  (B54_of_ne m ρ c main_v101 (by decide)).trans <|
  (keep_hostOps25_of_not_mem (B52 m ρ c) main_v101 (by decide)).trans <|
  (B52_of_ne m ρ c main_v101 (by decide)).trans <|
  (keep_hostOps24_of_not_mem (B50 m ρ c) main_v101 (by decide)).trans <|
  (B50_of_ne m ρ c main_v101 (by decide)).trans <|
  (keep_hostOps23_of_not_mem (B48 m ρ c) main_v101 (by decide)).trans <|
  (B48_of_ne m ρ c main_v101 (by decide)).trans <|
  (keep_hostOps22_of_not_mem (B46 m ρ c) main_v101 (by decide)).trans <|
  (B46_of_ne m ρ c main_v101 (by decide)).trans <|
  (keep_hostOps21_of_not_mem (B44 m ρ c) main_v101 (by decide)).trans <|
  (B44_of_ne m ρ c main_v101 (by decide)).trans <|
  (keep_hostOps20_of_not_mem (B42 m ρ c) main_v101 (by decide)).trans <|
  (B42_of_ne m ρ c main_v101 (by decide)).trans <|
  (keep_hostOps19_of_not_mem (B40 m ρ c) main_v101 (by decide)).trans <|
  (B40_of_ne m ρ c main_v101 (by decide)).trans <|
  (keep_hostOps18_of_not_mem (B38 m ρ c) main_v101 (by decide)).trans <|
  (B38_of_ne m ρ c main_v101 (by decide)).trans <|
  (keep_hostOps17_of_not_mem (B36 m ρ c) main_v101 (by decide)).trans <|
  (B36_of_ne m ρ c main_v101 (by decide)).trans <|
  (keep_hostOps16_of_not_mem (B34 m ρ c) main_v101 (by decide)).trans <|
  (B34_of_ne m ρ c main_v101 (by decide)).trans <|
  (keep_hostOps15_of_not_mem (B32 m ρ c) main_v101 (by decide)).trans <|
  (B32_of_ne m ρ c main_v101 (by decide)).trans <|
  (keep_hostOps14_of_not_mem (B30 m ρ c) main_v101 (by decide)).trans <|
  (B30_of_ne m ρ c main_v101 (by decide)).trans <|
  (keep_hostOps13_of_not_mem (B28 m ρ c) main_v101 (by decide)).trans <|
  (B28_of_ne m ρ c main_v101 (by decide)).trans <|
  (keep_hostOps12_of_not_mem (B26 m ρ c) main_v101 (by decide)).trans <|
  (B26_of_ne m ρ c main_v101 (by decide)).trans <|
  (keep_hostOps11_of_not_mem (B24 m ρ c) main_v101 (by decide)).trans <|
  (B24_of_ne m ρ c main_v101 (by decide)).trans <|
  (keep_hostOps10_of_not_mem (B22 m ρ c) main_v101 (by decide)).trans <|
  (B22_of_ne m ρ c main_v101 (by decide)).trans <|
  (keep_hostOps9_of_not_mem (B20 m ρ c) main_v101 (by decide)).trans <|
  (B20_of_ne m ρ c main_v101 (by decide)).trans <|
  (keep_hostOps8_of_not_mem (B18 m ρ c) main_v101 (by decide)).trans <|
  (B18_of_ne m ρ c main_v101 (by decide)).trans <|
  (keep_hostOps7_of_not_mem (B16 m ρ c) main_v101 (by decide)).trans <|
  (B16_of_ne m ρ c main_v101 (by decide)).trans <|
  (keep_hostOps6_of_not_mem (B14 m ρ c) main_v101 (by decide)).trans <|
  (B14_of_ne m ρ c main_v101 (by decide)).trans <|
  (keep_hostOps5_of_not_mem (B12 m ρ c) main_v101 (by decide)).trans <|
  (B12_of_ne m ρ c main_v101 (by decide)).trans <|
  (keep_hostOps4_of_not_mem (B10 m ρ c) main_v101 (by decide)).trans <|
  (B10_of_ne m ρ c main_v101 (by decide)).trans <|
  (keep_hostOps3_of_not_mem (B8 m ρ c) main_v101 (by decide)).trans <|
  (B8_of_ne m ρ c main_v101 (by decide)).trans <|
  (keep_hostOps2_of_not_mem (B6 m ρ c) main_v101 (by decide)).trans <|
  (B6_of_ne m ρ c main_v101 (by decide))

/-! ### `main_v118_0` from boundary 8, to 9, 11 -/
theorem carry_v118_0_8_9 (c : Dev nD) :
    B9 m ρ c (Proc.devRef .tc main_v118_0) = B8 m ρ c (Proc.devRef .tc main_v118_0) :=
  (keep_hostOps3_of_not_mem (B8 m ρ c) main_v118_0 (by decide))
theorem carry_v118_0_8_11 (c : Dev nD) :
    B11 m ρ c (Proc.devRef .tc main_v118_0) = B8 m ρ c (Proc.devRef .tc main_v118_0) :=
  (keep_hostOps4_of_not_mem (B10 m ρ c) main_v118_0 (by decide)).trans <|
  ((B10_arr m ρ c 0).trans (((dat3 (E3 m ρ) c).arrAt_in 0 rfl _).trans (A_win3_0 (E3 m ρ) c))).trans <|
  carry_v118_0_8_9 m ρ c

/-! ### `main_v120` from boundary 9, to 11 -/
theorem carry_v120_9_11 (c : Dev nD) :
    B11 m ρ c (Proc.devRef .tc main_v120) = B9 m ρ c (Proc.devRef .tc main_v120) :=
  (keep_hostOps4_of_not_mem (B10 m ρ c) main_v120 (by decide)).trans <|
  ((B10_arr m ρ c 1).trans (((dat3 (E3 m ρ) c).arrAt_in 1 rfl _).trans (A_win3_1 (E3 m ρ) c)))

/-! ### `main_v143_0` from boundary 16, to 17, 19 -/
theorem carry_v143_0_16_17 (c : Dev nD) :
    B17 m ρ c (Proc.devRef .tc main_v143_0) = B16 m ρ c (Proc.devRef .tc main_v143_0) :=
  (keep_hostOps7_of_not_mem (B16 m ρ c) main_v143_0 (by decide))
theorem carry_v143_0_16_19 (c : Dev nD) :
    B19 m ρ c (Proc.devRef .tc main_v143_0) = B16 m ρ c (Proc.devRef .tc main_v143_0) :=
  (keep_hostOps8_of_not_mem (B18 m ρ c) main_v143_0 (by decide)).trans <|
  ((B18_arr m ρ c 0).trans (((dat7 (E7 m ρ) c).arrAt_in 0 rfl _).trans (A_win7_0 (E7 m ρ) c))).trans <|
  carry_v143_0_16_17 m ρ c

/-! ### `main_v145` from boundary 17, to 19 -/
theorem carry_v145_17_19 (c : Dev nD) :
    B19 m ρ c (Proc.devRef .tc main_v145) = B17 m ρ c (Proc.devRef .tc main_v145) :=
  (keep_hostOps8_of_not_mem (B18 m ρ c) main_v145 (by decide)).trans <|
  ((B18_arr m ρ c 1).trans (((dat7 (E7 m ρ) c).arrAt_in 1 rfl _).trans (A_win7_1 (E7 m ρ) c)))

/-! ### `main_v151` from boundary 20, to 21 -/
theorem carry_v151_20_21 (c : Dev nD) :
    B21 m ρ c (Proc.devRef .tc main_v151) = B20 m ρ c (Proc.devRef .tc main_v151) :=
  (keep_hostOps9_of_not_mem (B20 m ρ c) main_v151 (by decide))

/-! ### `main_v168_0` from boundary 24, to 25, 27 -/
theorem carry_v168_0_24_25 (c : Dev nD) :
    B25 m ρ c (Proc.devRef .tc main_v168_0) = B24 m ρ c (Proc.devRef .tc main_v168_0) :=
  (keep_hostOps11_of_not_mem (B24 m ρ c) main_v168_0 (by decide))
theorem carry_v168_0_24_27 (c : Dev nD) :
    B27 m ρ c (Proc.devRef .tc main_v168_0) = B24 m ρ c (Proc.devRef .tc main_v168_0) :=
  (keep_hostOps12_of_not_mem (B26 m ρ c) main_v168_0 (by decide)).trans <|
  ((B26_arr m ρ c 0).trans (((dat11 (E11 m ρ) c).arrAt_in 0 rfl _).trans (A_win11_0 (E11 m ρ) c))).trans <|
  carry_v168_0_24_25 m ρ c

/-! ### `main_v168_1` from boundary 24, to 31 -/
theorem carry_v168_1_24_31 (c : Dev nD) :
    B31 m ρ c (Proc.devRef .tc main_v168_1) = B24 m ρ c (Proc.devRef .tc main_v168_1) :=
  (keep_hostOps14_of_not_mem (B30 m ρ c) main_v168_1 (by decide)).trans <|
  (B30_of_ne m ρ c main_v168_1 (by decide)).trans <|
  (keep_hostOps13_of_not_mem (B28 m ρ c) main_v168_1 (by decide)).trans <|
  (B28_of_ne m ρ c main_v168_1 (by decide)).trans <|
  (keep_hostOps12_of_not_mem (B26 m ρ c) main_v168_1 (by decide)).trans <|
  (B26_of_ne m ρ c main_v168_1 (by decide)).trans <|
  (keep_hostOps11_of_not_mem (B24 m ρ c) main_v168_1 (by decide))

/-! ### `main_v170` from boundary 25, to 27 -/
theorem carry_v170_25_27 (c : Dev nD) :
    B27 m ρ c (Proc.devRef .tc main_v170) = B25 m ρ c (Proc.devRef .tc main_v170) :=
  (keep_hostOps12_of_not_mem (B26 m ρ c) main_v170 (by decide)).trans <|
  ((B26_arr m ρ c 1).trans (((dat11 (E11 m ρ) c).arrAt_in 1 rfl _).trans (A_win11_1 (E11 m ρ) c)))

/-! ### `main_v176` from boundary 28, to 29 -/
theorem carry_v176_28_29 (c : Dev nD) :
    B29 m ρ c (Proc.devRef .tc main_v176) = B28 m ρ c (Proc.devRef .tc main_v176) :=
  (keep_hostOps13_of_not_mem (B28 m ρ c) main_v176 (by decide))

/-! ### `main_v193_0` from boundary 32, to 33, 35 -/
theorem carry_v193_0_32_33 (c : Dev nD) :
    B33 m ρ c (Proc.devRef .tc main_v193_0) = B32 m ρ c (Proc.devRef .tc main_v193_0) :=
  (keep_hostOps15_of_not_mem (B32 m ρ c) main_v193_0 (by decide))
theorem carry_v193_0_32_35 (c : Dev nD) :
    B35 m ρ c (Proc.devRef .tc main_v193_0) = B32 m ρ c (Proc.devRef .tc main_v193_0) :=
  (keep_hostOps16_of_not_mem (B34 m ρ c) main_v193_0 (by decide)).trans <|
  ((B34_arr m ρ c 0).trans (((dat15 (E15 m ρ) c).arrAt_in 0 rfl _).trans (A_win15_0 (E15 m ρ) c))).trans <|
  carry_v193_0_32_33 m ρ c

/-! ### `main_v193_1` from boundary 32, to 39 -/
theorem carry_v193_1_32_39 (c : Dev nD) :
    B39 m ρ c (Proc.devRef .tc main_v193_1) = B32 m ρ c (Proc.devRef .tc main_v193_1) :=
  (keep_hostOps18_of_not_mem (B38 m ρ c) main_v193_1 (by decide)).trans <|
  (B38_of_ne m ρ c main_v193_1 (by decide)).trans <|
  (keep_hostOps17_of_not_mem (B36 m ρ c) main_v193_1 (by decide)).trans <|
  (B36_of_ne m ρ c main_v193_1 (by decide)).trans <|
  (keep_hostOps16_of_not_mem (B34 m ρ c) main_v193_1 (by decide)).trans <|
  (B34_of_ne m ρ c main_v193_1 (by decide)).trans <|
  (keep_hostOps15_of_not_mem (B32 m ρ c) main_v193_1 (by decide))

/-! ### `main_v195` from boundary 33, to 35 -/
theorem carry_v195_33_35 (c : Dev nD) :
    B35 m ρ c (Proc.devRef .tc main_v195) = B33 m ρ c (Proc.devRef .tc main_v195) :=
  (keep_hostOps16_of_not_mem (B34 m ρ c) main_v195 (by decide)).trans <|
  ((B34_arr m ρ c 1).trans (((dat15 (E15 m ρ) c).arrAt_in 1 rfl _).trans (A_win15_1 (E15 m ρ) c)))

/-! ### `main_v201` from boundary 36, to 37 -/
theorem carry_v201_36_37 (c : Dev nD) :
    B37 m ρ c (Proc.devRef .tc main_v201) = B36 m ρ c (Proc.devRef .tc main_v201) :=
  (keep_hostOps17_of_not_mem (B36 m ρ c) main_v201 (by decide))

/-! ### `main_v218_0` from boundary 40, to 41, 43 -/
theorem carry_v218_0_40_41 (c : Dev nD) :
    B41 m ρ c (Proc.devRef .tc main_v218_0) = B40 m ρ c (Proc.devRef .tc main_v218_0) :=
  (keep_hostOps19_of_not_mem (B40 m ρ c) main_v218_0 (by decide))
theorem carry_v218_0_40_43 (c : Dev nD) :
    B43 m ρ c (Proc.devRef .tc main_v218_0) = B40 m ρ c (Proc.devRef .tc main_v218_0) :=
  (keep_hostOps20_of_not_mem (B42 m ρ c) main_v218_0 (by decide)).trans <|
  ((B42_arr m ρ c 0).trans (((dat19 (E19 m ρ) c).arrAt_in 0 rfl _).trans (A_win19_0 (E19 m ρ) c))).trans <|
  carry_v218_0_40_41 m ρ c

/-! ### `main_v218_1` from boundary 40, to 47 -/
theorem carry_v218_1_40_47 (c : Dev nD) :
    B47 m ρ c (Proc.devRef .tc main_v218_1) = B40 m ρ c (Proc.devRef .tc main_v218_1) :=
  (keep_hostOps22_of_not_mem (B46 m ρ c) main_v218_1 (by decide)).trans <|
  (B46_of_ne m ρ c main_v218_1 (by decide)).trans <|
  (keep_hostOps21_of_not_mem (B44 m ρ c) main_v218_1 (by decide)).trans <|
  (B44_of_ne m ρ c main_v218_1 (by decide)).trans <|
  (keep_hostOps20_of_not_mem (B42 m ρ c) main_v218_1 (by decide)).trans <|
  (B42_of_ne m ρ c main_v218_1 (by decide)).trans <|
  (keep_hostOps19_of_not_mem (B40 m ρ c) main_v218_1 (by decide))

/-! ### `main_v220` from boundary 41, to 43 -/
theorem carry_v220_41_43 (c : Dev nD) :
    B43 m ρ c (Proc.devRef .tc main_v220) = B41 m ρ c (Proc.devRef .tc main_v220) :=
  (keep_hostOps20_of_not_mem (B42 m ρ c) main_v220 (by decide)).trans <|
  ((B42_arr m ρ c 1).trans (((dat19 (E19 m ρ) c).arrAt_in 1 rfl _).trans (A_win19_1 (E19 m ρ) c)))

/-! ### `main_v226` from boundary 44, to 45 -/
theorem carry_v226_44_45 (c : Dev nD) :
    B45 m ρ c (Proc.devRef .tc main_v226) = B44 m ρ c (Proc.devRef .tc main_v226) :=
  (keep_hostOps21_of_not_mem (B44 m ρ c) main_v226 (by decide))

/-! ### `main_v243_0` from boundary 48, to 49, 51 -/
theorem carry_v243_0_48_49 (c : Dev nD) :
    B49 m ρ c (Proc.devRef .tc main_v243_0) = B48 m ρ c (Proc.devRef .tc main_v243_0) :=
  (keep_hostOps23_of_not_mem (B48 m ρ c) main_v243_0 (by decide))
theorem carry_v243_0_48_51 (c : Dev nD) :
    B51 m ρ c (Proc.devRef .tc main_v243_0) = B48 m ρ c (Proc.devRef .tc main_v243_0) :=
  (keep_hostOps24_of_not_mem (B50 m ρ c) main_v243_0 (by decide)).trans <|
  ((B50_arr m ρ c 0).trans (((dat23 (E23 m ρ) c).arrAt_in 0 rfl _).trans (A_win23_0 (E23 m ρ) c))).trans <|
  carry_v243_0_48_49 m ρ c

/-! ### `main_v243_1` from boundary 48, to 55 -/
theorem carry_v243_1_48_55 (c : Dev nD) :
    B55 m ρ c (Proc.devRef .tc main_v243_1) = B48 m ρ c (Proc.devRef .tc main_v243_1) :=
  (keep_hostOps26_of_not_mem (B54 m ρ c) main_v243_1 (by decide)).trans <|
  (B54_of_ne m ρ c main_v243_1 (by decide)).trans <|
  (keep_hostOps25_of_not_mem (B52 m ρ c) main_v243_1 (by decide)).trans <|
  (B52_of_ne m ρ c main_v243_1 (by decide)).trans <|
  (keep_hostOps24_of_not_mem (B50 m ρ c) main_v243_1 (by decide)).trans <|
  (B50_of_ne m ρ c main_v243_1 (by decide)).trans <|
  (keep_hostOps23_of_not_mem (B48 m ρ c) main_v243_1 (by decide))

/-! ### `main_v245` from boundary 49, to 51 -/
theorem carry_v245_49_51 (c : Dev nD) :
    B51 m ρ c (Proc.devRef .tc main_v245) = B49 m ρ c (Proc.devRef .tc main_v245) :=
  (keep_hostOps24_of_not_mem (B50 m ρ c) main_v245 (by decide)).trans <|
  ((B50_arr m ρ c 1).trans (((dat23 (E23 m ρ) c).arrAt_in 1 rfl _).trans (A_win23_1 (E23 m ρ) c)))

/-! ### `main_v251` from boundary 52, to 53 -/
theorem carry_v251_52_53 (c : Dev nD) :
    B53 m ρ c (Proc.devRef .tc main_v251) = B52 m ρ c (Proc.devRef .tc main_v251) :=
  (keep_hostOps25_of_not_mem (B52 m ρ c) main_v251 (by decide))

/-! ### `main_v268_0` from boundary 56, to 57, 59 -/
theorem carry_v268_0_56_57 (c : Dev nD) :
    B57 m ρ c (Proc.devRef .tc main_v268_0) = B56 m ρ c (Proc.devRef .tc main_v268_0) :=
  (keep_hostOps27_of_not_mem (B56 m ρ c) main_v268_0 (by decide))
theorem carry_v268_0_56_59 (c : Dev nD) :
    B59 m ρ c (Proc.devRef .tc main_v268_0) = B56 m ρ c (Proc.devRef .tc main_v268_0) :=
  (keep_hostOps28_of_not_mem (B58 m ρ c) main_v268_0 (by decide)).trans <|
  ((B58_arr m ρ c 0).trans (((dat27 (E27 m ρ) c).arrAt_in 0 rfl _).trans (A_win27_0 (E27 m ρ) c))).trans <|
  carry_v268_0_56_57 m ρ c

/-! ### `main_v268_1` from boundary 56, to 63 -/
theorem carry_v268_1_56_63 (c : Dev nD) :
    B63 m ρ c (Proc.devRef .tc main_v268_1) = B56 m ρ c (Proc.devRef .tc main_v268_1) :=
  (keep_hostOps30_of_not_mem (B62 m ρ c) main_v268_1 (by decide)).trans <|
  (B62_of_ne m ρ c main_v268_1 (by decide)).trans <|
  (keep_hostOps29_of_not_mem (B60 m ρ c) main_v268_1 (by decide)).trans <|
  (B60_of_ne m ρ c main_v268_1 (by decide)).trans <|
  (keep_hostOps28_of_not_mem (B58 m ρ c) main_v268_1 (by decide)).trans <|
  (B58_of_ne m ρ c main_v268_1 (by decide)).trans <|
  (keep_hostOps27_of_not_mem (B56 m ρ c) main_v268_1 (by decide))

/-! ### `main_v270` from boundary 57, to 59 -/
theorem carry_v270_57_59 (c : Dev nD) :
    B59 m ρ c (Proc.devRef .tc main_v270) = B57 m ρ c (Proc.devRef .tc main_v270) :=
  (keep_hostOps28_of_not_mem (B58 m ρ c) main_v270 (by decide)).trans <|
  ((B58_arr m ρ c 1).trans (((dat27 (E27 m ρ) c).arrAt_in 1 rfl _).trans (A_win27_1 (E27 m ρ) c)))

/-! ### `main_v276` from boundary 60, to 61 -/
theorem carry_v276_60_61 (c : Dev nD) :
    B61 m ρ c (Proc.devRef .tc main_v276) = B60 m ρ c (Proc.devRef .tc main_v276) :=
  (keep_hostOps29_of_not_mem (B60 m ρ c) main_v276 (by decide))

/-! ### `main_v293_0` from boundary 64, to 65, 67 -/
theorem carry_v293_0_64_65 (c : Dev nD) :
    B65 m ρ c (Proc.devRef .tc main_v293_0) = B64 m ρ c (Proc.devRef .tc main_v293_0) :=
  (keep_hostOps31_of_not_mem (B64 m ρ c) main_v293_0 (by decide))
theorem carry_v293_0_64_67 (c : Dev nD) :
    B67 m ρ c (Proc.devRef .tc main_v293_0) = B64 m ρ c (Proc.devRef .tc main_v293_0) :=
  (keep_hostOps32_of_not_mem (B66 m ρ c) main_v293_0 (by decide)).trans <|
  ((B66_arr m ρ c 0).trans (((dat31 (E31 m ρ) c).arrAt_in 0 rfl _).trans (A_win31_0 (E31 m ρ) c))).trans <|
  carry_v293_0_64_65 m ρ c

/-! ### `main_v293_1` from boundary 64, to 71 -/
theorem carry_v293_1_64_71 (c : Dev nD) :
    B71 m ρ c (Proc.devRef .tc main_v293_1) = B64 m ρ c (Proc.devRef .tc main_v293_1) :=
  (keep_hostOps34_of_not_mem (B70 m ρ c) main_v293_1 (by decide)).trans <|
  (B70_of_ne m ρ c main_v293_1 (by decide)).trans <|
  (keep_hostOps33_of_not_mem (B68 m ρ c) main_v293_1 (by decide)).trans <|
  (B68_of_ne m ρ c main_v293_1 (by decide)).trans <|
  (keep_hostOps32_of_not_mem (B66 m ρ c) main_v293_1 (by decide)).trans <|
  (B66_of_ne m ρ c main_v293_1 (by decide)).trans <|
  (keep_hostOps31_of_not_mem (B64 m ρ c) main_v293_1 (by decide))

/-! ### `main_v295` from boundary 65, to 67 -/
theorem carry_v295_65_67 (c : Dev nD) :
    B67 m ρ c (Proc.devRef .tc main_v295) = B65 m ρ c (Proc.devRef .tc main_v295) :=
  (keep_hostOps32_of_not_mem (B66 m ρ c) main_v295 (by decide)).trans <|
  ((B66_arr m ρ c 1).trans (((dat31 (E31 m ρ) c).arrAt_in 1 rfl _).trans (A_win31_1 (E31 m ρ) c)))

/-! ### `main_v301` from boundary 68, to 69 -/
theorem carry_v301_68_69 (c : Dev nD) :
    B69 m ρ c (Proc.devRef .tc main_v301) = B68 m ρ c (Proc.devRef .tc main_v301) :=
  (keep_hostOps33_of_not_mem (B68 m ρ c) main_v301 (by decide))

/-! ### `main_v318_0` from boundary 72, to 73, 75 -/
theorem carry_v318_0_72_73 (c : Dev nD) :
    B73 m ρ c (Proc.devRef .tc main_v318_0) = B72 m ρ c (Proc.devRef .tc main_v318_0) :=
  (keep_hostOps35_of_not_mem (B72 m ρ c) main_v318_0 (by decide))
theorem carry_v318_0_72_75 (c : Dev nD) :
    B75 m ρ c (Proc.devRef .tc main_v318_0) = B72 m ρ c (Proc.devRef .tc main_v318_0) :=
  (keep_hostOps36_of_not_mem (B74 m ρ c) main_v318_0 (by decide)).trans <|
  ((B74_arr m ρ c 0).trans (((dat35 (E35 m ρ) c).arrAt_in 0 rfl _).trans (A_win35_0 (E35 m ρ) c))).trans <|
  carry_v318_0_72_73 m ρ c

/-! ### `main_v318_1` from boundary 72, to 79 -/
theorem carry_v318_1_72_79 (c : Dev nD) :
    B79 m ρ c (Proc.devRef .tc main_v318_1) = B72 m ρ c (Proc.devRef .tc main_v318_1) :=
  (keep_hostOps38_of_not_mem (B78 m ρ c) main_v318_1 (by decide)).trans <|
  (B78_of_ne m ρ c main_v318_1 (by decide)).trans <|
  (keep_hostOps37_of_not_mem (B76 m ρ c) main_v318_1 (by decide)).trans <|
  (B76_of_ne m ρ c main_v318_1 (by decide)).trans <|
  (keep_hostOps36_of_not_mem (B74 m ρ c) main_v318_1 (by decide)).trans <|
  (B74_of_ne m ρ c main_v318_1 (by decide)).trans <|
  (keep_hostOps35_of_not_mem (B72 m ρ c) main_v318_1 (by decide))

/-! ### `main_v320` from boundary 73, to 75 -/
theorem carry_v320_73_75 (c : Dev nD) :
    B75 m ρ c (Proc.devRef .tc main_v320) = B73 m ρ c (Proc.devRef .tc main_v320) :=
  (keep_hostOps36_of_not_mem (B74 m ρ c) main_v320 (by decide)).trans <|
  ((B74_arr m ρ c 1).trans (((dat35 (E35 m ρ) c).arrAt_in 1 rfl _).trans (A_win35_1 (E35 m ρ) c)))

/-! ### `main_v326` from boundary 76, to 77 -/
theorem carry_v326_76_77 (c : Dev nD) :
    B77 m ρ c (Proc.devRef .tc main_v326) = B76 m ρ c (Proc.devRef .tc main_v326) :=
  (keep_hostOps37_of_not_mem (B76 m ρ c) main_v326 (by decide))

/-! ### `main_v343_0` from boundary 80, to 81, 83 -/
theorem carry_v343_0_80_81 (c : Dev nD) :
    B81 m ρ c (Proc.devRef .tc main_v343_0) = B80 m ρ c (Proc.devRef .tc main_v343_0) :=
  (keep_hostOps39_of_not_mem (B80 m ρ c) main_v343_0 (by decide))
theorem carry_v343_0_80_83 (c : Dev nD) :
    B83 m ρ c (Proc.devRef .tc main_v343_0) = B80 m ρ c (Proc.devRef .tc main_v343_0) :=
  (keep_hostOps40_of_not_mem (B82 m ρ c) main_v343_0 (by decide)).trans <|
  ((B82_arr m ρ c 0).trans (((dat39 (E39 m ρ) c).arrAt_in 0 rfl _).trans (A_win39_0 (E39 m ρ) c))).trans <|
  carry_v343_0_80_81 m ρ c

/-! ### `main_v343_1` from boundary 80, to 87 -/
theorem carry_v343_1_80_87 (c : Dev nD) :
    B87 m ρ c (Proc.devRef .tc main_v343_1) = B80 m ρ c (Proc.devRef .tc main_v343_1) :=
  (keep_hostOps42_of_not_mem (B86 m ρ c) main_v343_1 (by decide)).trans <|
  (B86_of_ne m ρ c main_v343_1 (by decide)).trans <|
  (keep_hostOps41_of_not_mem (B84 m ρ c) main_v343_1 (by decide)).trans <|
  (B84_of_ne m ρ c main_v343_1 (by decide)).trans <|
  (keep_hostOps40_of_not_mem (B82 m ρ c) main_v343_1 (by decide)).trans <|
  (B82_of_ne m ρ c main_v343_1 (by decide)).trans <|
  (keep_hostOps39_of_not_mem (B80 m ρ c) main_v343_1 (by decide))

/-! ### `main_v345` from boundary 81, to 83 -/
theorem carry_v345_81_83 (c : Dev nD) :
    B83 m ρ c (Proc.devRef .tc main_v345) = B81 m ρ c (Proc.devRef .tc main_v345) :=
  (keep_hostOps40_of_not_mem (B82 m ρ c) main_v345 (by decide)).trans <|
  ((B82_arr m ρ c 1).trans (((dat39 (E39 m ρ) c).arrAt_in 1 rfl _).trans (A_win39_1 (E39 m ρ) c)))

/-! ### `main_v351` from boundary 84, to 85 -/
theorem carry_v351_84_85 (c : Dev nD) :
    B85 m ρ c (Proc.devRef .tc main_v351) = B84 m ρ c (Proc.devRef .tc main_v351) :=
  (keep_hostOps41_of_not_mem (B84 m ρ c) main_v351 (by decide))

/-! ### `main_v368_0` from boundary 88, to 89, 91 -/
theorem carry_v368_0_88_89 (c : Dev nD) :
    B89 m ρ c (Proc.devRef .tc main_v368_0) = B88 m ρ c (Proc.devRef .tc main_v368_0) :=
  (keep_hostOps43_of_not_mem (B88 m ρ c) main_v368_0 (by decide))
theorem carry_v368_0_88_91 (c : Dev nD) :
    B91 m ρ c (Proc.devRef .tc main_v368_0) = B88 m ρ c (Proc.devRef .tc main_v368_0) :=
  (keep_hostOps44_of_not_mem (B90 m ρ c) main_v368_0 (by decide)).trans <|
  ((B90_arr m ρ c 0).trans (((dat43 (E43 m ρ) c).arrAt_in 0 rfl _).trans (A_win43_0 (E43 m ρ) c))).trans <|
  carry_v368_0_88_89 m ρ c

/-! ### `main_v370` from boundary 89, to 91 -/
theorem carry_v370_89_91 (c : Dev nD) :
    B91 m ρ c (Proc.devRef .tc main_v370) = B89 m ρ c (Proc.devRef .tc main_v370) :=
  (keep_hostOps44_of_not_mem (B90 m ρ c) main_v370 (by decide)).trans <|
  ((B90_arr m ρ c 1).trans (((dat43 (E43 m ρ) c).arrAt_in 1 rfl _).trans (A_win43_1 (E43 m ρ) c)))

/-! ### `main_v376` from boundary 92, to 93 -/
theorem carry_v376_92_93 (c : Dev nD) :
    B93 m ρ c (Proc.devRef .tc main_v376) = B92 m ρ c (Proc.devRef .tc main_v376) :=
  (keep_hostOps45_of_not_mem (B92 m ρ c) main_v376 (by decide))

/-! ### `main_v393_0` from boundary 96, to 97, 99 -/
theorem carry_v393_0_96_97 (c : Dev nD) :
    B97 m ρ c (Proc.devRef .tc main_v393_0) = B96 m ρ c (Proc.devRef .tc main_v393_0) :=
  (keep_hostOps47_of_not_mem (B96 m ρ c) main_v393_0 (by decide))
theorem carry_v393_0_96_99 (c : Dev nD) :
    B99 m ρ c (Proc.devRef .tc main_v393_0) = B96 m ρ c (Proc.devRef .tc main_v393_0) :=
  (keep_hostOps48_of_not_mem (B98 m ρ c) main_v393_0 (by decide)).trans <|
  ((B98_arr m ρ c 0).trans (((dat47 (E47 m ρ) c).arrAt_in 0 rfl _).trans (A_win47_0 (E47 m ρ) c))).trans <|
  carry_v393_0_96_97 m ρ c

/-! ### `main_v395` from boundary 97, to 99 -/
theorem carry_v395_97_99 (c : Dev nD) :
    B99 m ρ c (Proc.devRef .tc main_v395) = B97 m ρ c (Proc.devRef .tc main_v395) :=
  (keep_hostOps48_of_not_mem (B98 m ρ c) main_v395 (by decide)).trans <|
  ((B98_arr m ρ c 1).trans (((dat47 (E47 m ρ) c).arrAt_in 1 rfl _).trans (A_win47_1 (E47 m ρ) c)))

end Cert.KernelIdeal.Hand

end
-- ==== Proof.Val.K11.lean ====
/-
  The kernel program's side read at an index over the extended reals, against the coordinate functions of the
  value side: the last layer — the linear region, the bias and softmax_one with its column sums, the
  variance, and the batch-norm followed by the product with the output weight; the program's result is that
  one-column array as a vector.
-/
import proofs.«408084_j48395691492010_3_alg».proof.Proof.KI.Args
import proofs.«408084_j48395691492010_3_alg».proof.Proof.Val.RegVal
import proofs.«408084_j48395691492010_3_alg».proof.Proof.Val.Carry
import proofs.«408084_j48395691492010_3_alg».proof.Proof.Val.SpecFn
import proofs.«408084_j48395691492010_3_alg».proof.Proof.Algebra
import Idealize.ShloMosaic.Lib.ValueIdx
import Idealize.ShloMosaic.Lib.ValueLayout
import Idealize.ShloMosaic.Lib.StableHlo
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Cert.Val
open scoped BigOperators

variable (m : (ℓ : Loc nD τ sig) → Buf (Elt Ideal) ℓ) (ρ : Dev nD → PrngReg) (c : Dev nD)

/- The extended reals' sum and product, named outright: an array's entry has the element type of its buffer,
   which unfolds to the extended reals but is not syntactically them. -/
local notation:65 a:65 " +ᵉ " b:66 => HAdd.hAdd (α := EReal) (β := EReal) (γ := EReal) a b
local notation:70 a:70 " *ᵉ " b:71 => HMul.hMul (α := EReal) (β := EReal) (γ := EReal) a b
local notation:50 a:51 " =ᵉ " b:51 => Eq (α := EReal) a b

/-! ## The last layer -/

/-- An `[a, 1]` array cast to `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

theorem hread_v377 : B93 m ρ c (Proc.devRef .tc main_v377) = (transpose S64x32 [1, 0] (B92 m ρ c (Proc.devRef .tc main_arg14)) transposes_S32x64_S64x32_1_0) := by
  show StableHlo.after hostOps45 (B92 m ρ c) (Proc.devRef .tc main_v377) = _
  after_results <;> rfl

theorem k11_Wt (k : Fin 64) (q : Fin 32) : (B93 m ρ c (Proc.devRef .tc main_v377) : S64x32.Idx → EReal) (ix2 k q) =ᵉ (m ((c : Thread nD τ).loc main_arg14) : S32x64.Idx → EReal) (ix2 q k) := by
  rw [hread_v377, transpose_ix2_apply, B92_isArg m ρ c main_arg14 (by decide)]

set_option maxHeartbeats 4000000 in
theorem hread_v392 : B95 m ρ c (Proc.devRef .tc main_v392) = (shapeCast S1x32 (B94 m ρ c (Proc.devRef .tc main_arg15)) shapeCasts_S32_S1x32) := by
  show StableHlo.after hostOps46 (B94 m ρ c) (Proc.devRef .tc main_v392) = _
  after_results_simp <;> rfl

theorem k11_b (q : Fin 32) : (B95 m ρ c (Proc.devRef .tc main_v392) : S1x32.Idx → EReal) (ix2 0 q) =ᵉ (m ((c : Thread nD τ).loc main_arg15) : S32.Idx → EReal) (ix1 q) := by
  rw [hread_v392, shapeCast_a_1a_apply, B94_isArg m ρ c main_arg15 (by decide)]

theorem hread_v399 : B99 m ρ c (Proc.devRef .tc main_v399) = (shapeCast S1x32 (B98 m ρ c (Proc.devRef .tc main_arg24)) shapeCasts_S32_S1x32) := by
  show StableHlo.after hostOps48 (B98 m ρ c) (Proc.devRef .tc main_v399) = _
  after_results <;> rfl

theorem hread_v400 : B99 m ρ c (Proc.devRef .tc main_v400) = (shapeCast S1x32 (B98 m ρ c (Proc.devRef .tc main_arg25)) shapeCasts_S32_S1x32) := by
  show StableHlo.after hostOps48 (B98 m ρ c) (Proc.devRef .tc main_v400) = _
  after_results <;> rfl

theorem k11_g (q : Fin 32) : (B99 m ρ c (Proc.devRef .tc main_v399) : S1x32.Idx → EReal) (ix2 0 q) =ᵉ (m ((c : Thread nD τ).loc main_arg24) : S32.Idx → EReal) (ix1 q) := by
  rw [hread_v399, shapeCast_a_1a_apply, B98_isArg m ρ c main_arg24 (by decide)]

theorem k11_be (q : Fin 32) : (B99 m ρ c (Proc.devRef .tc main_v400) : S1x32.Idx → EReal) (ix2 0 q) =ᵉ (m ((c : Thread nD τ).loc main_arg25) : S32.Idx → EReal) (ix1 q) := by
  rw [hread_v400, shapeCast_a_1a_apply, B98_isArg m ρ c main_arg25 (by decide)]

set_option maxHeartbeats 4000000 in
theorem hread_v391 : B95 m ρ c (Proc.devRef .tc main_v391) = (Host.scatterAdd scatter_S50000x32_S690000x1_S690000x32_1_0_0_1 (broadcastInDim S50000x32 ![] bcast_S_S50000x32 (constant (F := Ideal) S_ .f32 0x00000000#32)) (broadcastInDim S690000x1 ![0] bcast_S690000_S690000x1_0 (B94 m ρ c (Proc.devRef .tc main_v6))) (mulf (broadcastInDim S690000x32 ![0, 1] bcast_S690000x1_S690000x32_0_1 (broadcastInDim S690000x1 ![0] bcast_S690000_S690000x1_0 (B94 m ρ c (Proc.devRef .tc main_v33)))) (Host.gather gather_S50000x32_S690000x1_S690000x32_1_0_n_n_0_1_132 (B94 m ρ c (Proc.devRef .tc main_v378)) (broadcastInDim S690000x1 ![0] bcast_S690000_S690000x1_0 (select (cmpi .slt (B94 m ρ c (Proc.devRef .tc main_v5)) (broadcastInDim S690000 ![] bcast_S_S690000 (constantI S_ 32 0#32))) (addi (B94 m ρ c (Proc.devRef .tc main_v5)) (broadcastInDim S690000 ![] bcast_S_S690000 (constantI S_ 32 50000#32))) (B94 m ρ c (Proc.devRef .tc main_v5))))))) := by
  show StableHlo.after hostOps46 (B94 m ρ c) (Proc.devRef .tc main_v391) = _
  after_results_simp <;> rfl

theorem k11_agg : B95 m ρ c (Proc.devRef .tc main_v391) = (Host.scatterAdd scatter_S50000x32_S690000x1_S690000x32_1_0_0_1 (broadcastInDim S50000x32 ![] bcast_S_S50000x32 (constant (F := Ideal) S_ .f32 0x00000000#32)) (broadcastInDim S690000x1 ![0] bcast_S690000_S690000x1_0 (B3 m ρ c (Proc.devRef .tc main_v6))) (mulf (broadcastInDim S690000x32 ![0, 1] bcast_S690000x1_S690000x32_0_1 (broadcastInDim S690000x1 ![0] bcast_S690000_S690000x1_0 (B3 m ρ c (Proc.devRef .tc main_v33)))) (Host.gather gather_S50000x32_S690000x1_S690000x32_1_0_n_n_0_1_132 (B94 m ρ c (Proc.devRef .tc main_v378)) (broadcastInDim S690000x1 ![0] bcast_S690000_S690000x1_0 (select (cmpi .slt (B3 m ρ c (Proc.devRef .tc main_v5)) (broadcastInDim S690000 ![] bcast_S_S690000 (constantI S_ 32 0#32))) (addi (B3 m ρ c (Proc.devRef .tc main_v5)) (broadcastInDim S690000 ![] bcast_S_S690000 (constantI S_ 32 50000#32))) (B3 m ρ c (Proc.devRef .tc main_v5))))))) := by
  rw [hread_v391, carry_v5_3_94 m ρ c, carry_v6_3_94 m ρ c, carry_v33_3_94 m ρ c]

theorem k11_lin (r : Fin 50000) (q : Fin 32) : (B94 m ρ c (Proc.devRef .tc main_v378) : S50000x32.Idx → EReal) (ix2 r q) =ᵉ ∑ k : Fin 64, (B92 m ρ c (Proc.devRef .tc main_v376) : S50000x64.Idx → EReal) (ix2 r k) *ᵉ (m ((c : Thread nD τ).loc main_arg14) : S32x64.Idx → EReal) (ix2 q k) := by
  rw [regval45]
  refine Finset.sum_congr rfl fun k _ => ?_
  rw [k11_Wt, carry_v376_92_93 m ρ c]

theorem k11_s (r : Fin 50000) (q : Fin 32) : (B96 m ρ c (Proc.devRef .tc main_v393_0) : S50000x32.Idx → EReal) (ix2 r q) =ᵉ smOne (fun j' => (B95 m ρ c (Proc.devRef .tc main_v391) : S50000x32.Idx → EReal) (ix2 r j') +ᵉ (m ((c : Thread nD τ).loc main_arg15) : S32.Idx → EReal) (ix1 j')) q := by
  rw [regval46_s, show (fun j' => (B95 m ρ c (Proc.devRef .tc main_v391) : S50000x32.Idx → EReal) (ix2 r j') +ᵉ (B95 m ρ c (Proc.devRef .tc main_v392) : S1x32.Idx → EReal) (ix2 0 j')) = (fun j' => (B95 m ρ c (Proc.devRef .tc main_v391) : S50000x32.Idx → EReal) (ix2 r j') +ᵉ (m ((c : Thread nD τ).loc main_arg15) : S32.Idx → EReal) (ix1 j')) from funext fun j' => by rw [k11_b]]

theorem hread_v395 : B97 m ρ c (Proc.devRef .tc main_v395) = (Host.divf (B96 m ρ c (Proc.devRef .tc main_v393_1)) (broadcastInDim S1x32 ![] bcast_S_S1x32 (constant (F := Ideal) S_ .f32 0x47435000#32))) := by
  show StableHlo.after hostOps47 (B96 m ρ c) (Proc.devRef .tc main_v395) = _
  after_results <;> rfl

theorem k11_mean (j : Fin 32) : (B97 m ρ c (Proc.devRef .tc main_v395) : S1x32.Idx → EReal) (ix2 0 j) =ᵉ colMean (fun i j => (B96 m ρ c (Proc.devRef .tc main_v393_0) : S50000x32.Idx → EReal) (ix2 i j)) j := by
  rw [hread_v395]
  show Ideal.div ((B96 m ρ c (Proc.devRef .tc main_v393_1) : S1x32.Idx → EReal) (ix2 0 j)) cRows = _
  rw [regval46_sum']
  rfl

theorem hread_v398 : B99 m ρ c (Proc.devRef .tc main_v398) = (Host.divf (B98 m ρ c (Proc.devRef .tc main_v396)) (broadcastInDim S1x32 ![] bcast_S_S1x32 (constant (F := Ideal) S_ .f32 0x47435000#32))) := by
  show StableHlo.after hostOps48 (B98 m ρ c) (Proc.devRef .tc main_v398) = _
  after_results <;> rfl

theorem k11_var (j : Fin 32) : (B99 m ρ c (Proc.devRef .tc main_v398) : S1x32.Idx → EReal) (ix2 0 j) =ᵉ colVar (fun i j => (B96 m ρ c (Proc.devRef .tc main_v393_0) : S50000x32.Idx → EReal) (ix2 i j)) j := by
  rw [hread_v398]
  show Ideal.div ((B98 m ρ c (Proc.devRef .tc main_v396) : S1x32.Idx → EReal) (ix2 0 j)) cRows = _
  rw [regval47, carry_v393_0_96_97 m ρ c, show (fun j => (B97 m ρ c (Proc.devRef .tc main_v395) : S1x32.Idx → EReal) (ix2 0 j)) = colMean (fun i j => (B96 m ρ c (Proc.devRef .tc main_v393_0) : S50000x32.Idx → EReal) (ix2 i j)) from funext (k11_mean m ρ c)]
  rfl

theorem k11_out (r : Fin 50000) : (B100 m ρ c (Proc.devRef .tc main_v401) : S50000x1.Idx → EReal) (ix2 r 0)
    =ᵉ ∑ k : Fin 32, bnAt (fun i j => (B96 m ρ c (Proc.devRef .tc main_v393_0) : S50000x32.Idx → EReal) (ix2 i j)) (colMean (fun i j => (B96 m ρ c (Proc.devRef .tc main_v393_0) : S50000x32.Idx → EReal) (ix2 i j))) (colVar (fun i j => (B96 m ρ c (Proc.devRef .tc main_v393_0) : S50000x32.Idx → EReal) (ix2 i j))) (fun j => (m ((c : Thread nD τ).loc main_arg24) : S32.Idx → EReal) (ix1 j)) (fun j => (m ((c : Thread nD τ).loc main_arg25) : S32.Idx → EReal) (ix1 j)) r k *ᵉ (m ((c : Thread nD τ).loc main_arg26) : S32x1.Idx → EReal) (ix2 k 0) := by
  rw [regval48, carry_v393_0_96_99 m ρ c, carry_v395_97_99 m ρ c,
    show (fun j => (B97 m ρ c (Proc.devRef .tc main_v395) : S1x32.Idx → EReal) (ix2 0 j)) = colMean (fun i j => (B96 m ρ c (Proc.devRef .tc main_v393_0) : S50000x32.Idx → EReal) (ix2 i j)) from funext (k11_mean m ρ c),
    show (fun j => (B99 m ρ c (Proc.devRef .tc main_v398) : S1x32.Idx → EReal) (ix2 0 j)) = colVar (fun i j => (B96 m ρ c (Proc.devRef .tc main_v393_0) : S50000x32.Idx → EReal) (ix2 i j)) from funext (k11_var m ρ c),
    show (fun j => (B99 m ρ c (Proc.devRef .tc main_v399) : S1x32.Idx → EReal) (ix2 0 j)) = (fun j => (m ((c : Thread nD τ).loc main_arg24) : S32.Idx → EReal) (ix1 j)) from funext (k11_g m ρ c),
    show (fun j => (B99 m ρ c (Proc.devRef .tc main_v400) : S1x32.Idx → EReal) (ix2 0 j)) = (fun j => (m ((c : Thread nD τ).loc main_arg25) : S32.Idx → EReal) (ix1 j)) from funext (k11_be m ρ c),
    B99_isArg m ρ c main_arg26 (by decide)]

theorem hread_v402 : B101 m ρ c (Proc.devRef .tc main_v402) = (shapeCast S50000 (B100 m ρ c (Proc.devRef .tc main_v401)) shapeCasts_S50000x1_S50000) := by
  show StableHlo.after hostOps49 (B100 m ρ c) (Proc.devRef .tc main_v402) = _
  after_results <;> rfl

/-- The program's result: the last region's one-column output as a vector. -/
theorem k11_res (r : Fin 50000) : (B101 m ρ c (Proc.devRef .tc main_v402) : S50000.Idx → EReal) (ix1 r) =ᵉ (B100 m ρ c (Proc.devRef .tc main_v401) : S50000x1.Idx → EReal) (ix2 r 0) := by
  rw [hread_v402, shapeCast_a1_a_apply]

end Cert.KernelIdeal.Hand

end
-- ==== Proof.Val.HostStat.lean ====
/-
  The reference's bias and column statistics, read at an index over the extended reals.

  One layer of the network adds a bias row to an array `X : [N, C]`, takes its column means (the column
  sums over the row count), its biased column variances (the column sums of squared deviations from the
  means over the row count, guarded by a test that the row count is positive) and normalises with them.
  The statements below read each of these whole-array expressions at one index and name the result by the
  coordinate functions `colSum`, `colMean`, `colSsq`, `colVar`.

  Every statement is over ANY proof of a broadcast's side condition and of a reduction's shape fact, with
  the shapes written out for arbitrary `N` and `C`, so that it applies to a program's own names by
  unification.

  At the extended reals a sum does not depend on the order it is folded in, so a column sum is the
  `Finset` sum over the rows; the initial value is the zero pattern, which is the real zero.
-/
import Mathlib.Data.EReal.Operations
import Mathlib.Algebra.BigOperators.Ring.Finset
import Idealize.ShloMosaic.PureOps.Ideal
import Idealize.ShloMosaic.PureOps.Ideal.Laws
import Idealize.ShloMosaic.Lib.ValueIdx
import Idealize.ShloMosaic.Lib.IdealHost
import proofs.«408084_j48395691492010_3_alg».proof.Proof.Val.SpecFn

open scoped BigOperators

namespace Cert.Val

open Idealize.ShloMosaic Idealize.ShloMosaic.ValueIdx

variable {N C : ℕ}

/-! ## Broadcasts read at an index -/

/-- A vector of `C` entries broadcast to a `[1, C]` row reads its entry `j` at `(0, j)`. -/
theorem row1_apply {α : Type} (h1 : (⟨1, ![C]⟩ : Shape).BroadcastsInDim ⟨2, ![1, C]⟩ ![1])
    (b : (⟨1, ![C]⟩ : Shape).Idx → α) (j : Fin C) :
    broadcastInDim ⟨2, ![1, C]⟩ ![1] h1 b (ix2 (0 : Fin 1) j) = b (ix1 j) := by
  unfold broadcastInDim
  congr 1
  funext a
  obtain rfl : a = 0 := Subsingleton.elim _ _
  apply Fin.ext
  by_cases hc : (⟨1, ![C]⟩ : Shape).size 0 = 1
  · -- a row of one column: the only column is column 0
    rw [dif_pos hc]
    have hC : C = 1 := hc
    have := j.isLt
    show 0 = j.val
    omega
  · rw [dif_neg hc]
    rfl

/-- A `[1, C]` row broadcast along its first axis to `[N, C]` reads its entry `(0, j)` at `(i, j)`. -/
theorem rowb2_apply {α : Type} (h2 : (⟨2, ![1, C]⟩ : Shape).BroadcastsInDim ⟨2, ![N, C]⟩ ![0, 1])
    (b2 : (⟨2, ![1, C]⟩ : Shape).Idx → α) (i : Fin N) (j : Fin C) :
    broadcastInDim ⟨2, ![N, C]⟩ ![0, 1] h2 b2 (ix2 i j) = b2 (ix2 (0 : Fin 1) j) := by
  unfold broadcastInDim
  congr 1
  funext a
  apply Fin.ext
  revert a
  refine Fin.forall_fin_two.2 ⟨?_, ?_⟩
  · rw [dif_pos (show (⟨2, ![1, C]⟩ : Shape).size 0 = 1 from rfl)]
    rfl
  · by_cases hc : (⟨2, ![1, C]⟩ : Shape).size 1 = 1
    · rw [dif_pos hc]
      have hC : C = 1 := hc
      have := j.isLt
      show 0 = j.val
      omega
    · rw [dif_neg hc]
      rfl

/-- A vector of `C` entries broadcast to a row and the row to `[N, C]`: entry `j` at every `(i, j)`. -/
theorem rowb_apply {α : Type} (h1 : (⟨1, ![C]⟩ : Shape).BroadcastsInDim ⟨2, ![1, C]⟩ ![1])
    (h2 : (⟨2, ![1, C]⟩ : Shape).BroadcastsInDim ⟨2, ![N, C]⟩ ![0, 1])
    (b : (⟨1, ![C]⟩ : Shape).Idx → α) (i : Fin N) (j : Fin C) :
    broadcastInDim ⟨2, ![N, C]⟩ ![0, 1] h2 (broadcastInDim ⟨2, ![1, C]⟩ ![1] h1 b) (ix2 i j) = b (ix1 j) := by
  rw [rowb2_apply, row1_apply]

/-- A scalar constant broadcast to any shape reads the value of its bit pattern everywhere. -/
theorem splat_apply {t : Shape} (hb : (⟨0, ![]⟩ : Shape).BroadcastsInDim t ![]) (bits : BitVec 32) (p : t.Idx) :
    broadcastInDim t ![] hb (constant (F := Ideal) ⟨0, ![]⟩ .f32 bits) p = Ideal.ofBits .f32 bits := by
  rw [broadcastInDim_scalar_apply, constant_apply]

/-! ## The row count -/

/-- The row count's pattern is the real number 50000: exponent field 142, fraction field 4411392,
    `(2 ^ 23 + 4411392) · 2 ^ (142 − 127 − 23) = 12800000 / 256`. -/
theorem cRows_eq : cRows = ((50000 : ℝ) : EReal) := by
  unfold cRows
  simp [Ideal.ofBits, Ideal.ieee, -EReal.coe_mul]
  norm_num

theorem cRows_pos : (0 : EReal) < cRows := by
  rw [cRows_eq]
  exact EReal.coe_pos.mpr (by norm_num)

theorem cRows_ne_zero : cRows ≠ 0 := ne_of_gt cRows_pos

/-- The count the variance divides by, `50000 − (float of the integer 0)`, is the row count. -/
theorem cnt_apply (p : (⟨0, ![]⟩ : Shape).Idx) :
    (subf (constant ⟨0, ![]⟩ .f32 0x47435000#32) (sitofp .f32 (constantI ⟨0, ![]⟩ 32 0#32))
      : FVec Ideal ⟨0, ![]⟩ .f32) p = cRows := by
  rw [subf_apply, constant_apply]
  show cRows - (((0#32 : BitVec 32).toInt : ℝ) : EReal) = cRows
  rw [BitVec.toInt_zero, Int.cast_zero, EReal.coe_zero, sub_zero]

/-- The guard "the count is greater than zero" is the true bit. -/
theorem cnt_pos_bit (p : (⟨0, ![]⟩ : Shape).Idx) :
    cmpf .ogt (subf (constant ⟨0, ![]⟩ .f32 0x47435000#32) (sitofp .f32 (constantI ⟨0, ![]⟩ 32 0#32))
      : FVec Ideal ⟨0, ![]⟩ .f32) (constant ⟨0, ![]⟩ .f32 0x00000000#32) p = 1#1 := by
  rw [cmpf_apply, cnt_apply, constant_apply, Ideal.ofBits_zero_f32]
  show Ideal.cmp .ogt cRows 0 = 1#1
  unfold Ideal.cmp
  simp [cRows_pos]

/-! ## Column sums and means -/

/-- Over result column `j`, the source index with row coordinate `k` is `(k, j)`. -/
theorem lift0_eq (hR : (⟨2, ![N, C]⟩ : Shape).Reduces [0] ⟨1, ![C]⟩) (j : Fin C) (k : Fin N) :
    hR.lift (ix1 j) k = ix2 k j := by
  funext c
  apply Fin.ext
  revert c
  exact Fin.forall_fin_two.2 ⟨rfl, rfl⟩

/-- THE COLUMN SUM: the host's sum over the rows from the zero pattern, at column `j`, is the sum over the
    rows of the entries of column `j`. -/
theorem colsum_apply (h : (⟨2, ![N, C]⟩ : Shape).ReducesTo [0] ⟨1, ![C]⟩)
    (hu : 0 < (⟨0, ![]⟩ : Shape).numel) (X : FVec Ideal ⟨2, ![N, C]⟩ .f32) (j : Fin C) :
    Host.reduceAdd X (constant ⟨0, ![]⟩ .f32 0x00000000#32) h hu (ix1 j)
      = colSum (fun i j => X (ix2 i j)) j := by
  have hR : (⟨2, ![N, C]⟩ : Shape).Reduces [0] ⟨1, ![C]⟩ := ⟨h.1, Nat.one_pos, h.2⟩
  rw [hostReduceAdd_apply, Ideal.hostReduceAdd_single h hR, constant_apply, Ideal.ofBits_zero_f32, zero_add]
  unfold colSum
  exact Finset.sum_congr rfl fun k _ => congrArg X (lift0_eq hR j k)

/-- THE COLUMN MEAN: the column sum over the row count. -/
theorem mean_apply (h : (⟨2, ![N, C]⟩ : Shape).ReducesTo [0] ⟨1, ![C]⟩)
    (hu : 0 < (⟨0, ![]⟩ : Shape).numel) (hb : (⟨0, ![]⟩ : Shape).BroadcastsInDim ⟨1, ![C]⟩ ![])
    (X : FVec Ideal ⟨2, ![N, C]⟩ .f32) (j : Fin C) :
    Host.divf (Host.reduceAdd X (constant ⟨0, ![]⟩ .f32 0x00000000#32) h hu)
        (broadcastInDim ⟨1, ![C]⟩ ![] hb (constant ⟨0, ![]⟩ .f32 0x47435000#32)) (ix1 j)
      = colMean (fun i j => X (ix2 i j)) j := by
  rw [hostDivf_apply, colsum_apply, splat_apply]
  rfl

/-- The same quotient for a column sum already laid out as a `[1, C]` row. -/
theorem kmean_apply (hb1 : (⟨0, ![]⟩ : Shape).BroadcastsInDim ⟨2, ![1, C]⟩ ![])
    (s : FVec Ideal ⟨2, ![1, C]⟩ .f32) (j : Fin C) :
    Host.divf s (broadcastInDim ⟨2, ![1, C]⟩ ![] hb1 (constant ⟨0, ![]⟩ .f32 0x47435000#32)) (ix2 (0 : Fin 1) j)
      = Ideal.div (s (ix2 (0 : Fin 1) j)) cRows := by
  rw [hostDivf_apply, splat_apply]
  rfl

/-! ## Deviations and variances -/

/-- THE DEVIATION FROM THE COLUMN MEAN: the array minus its column means, the means taken as a row (the
    column sums laid out as `[1, C]`, divided by the row count there) and broadcast down the rows. -/
theorem dev_apply (h : (⟨2, ![N, C]⟩ : Shape).ReducesTo [0] ⟨1, ![C]⟩)
    (hu : 0 < (⟨0, ![]⟩ : Shape).numel)
    (h1 : (⟨1, ![C]⟩ : Shape).BroadcastsInDim ⟨2, ![1, C]⟩ ![1])
    (h2 : (⟨2, ![1, C]⟩ : Shape).BroadcastsInDim ⟨2, ![N, C]⟩ ![0, 1])
    (hb1 : (⟨0, ![]⟩ : Shape).BroadcastsInDim ⟨2, ![1, C]⟩ ![])
    (X : FVec Ideal ⟨2, ![N, C]⟩ .f32) (i : Fin N) (j : Fin C) :
    subf X (broadcastInDim ⟨2, ![N, C]⟩ ![0, 1] h2
        (Host.divf (broadcastInDim ⟨2, ![1, C]⟩ ![1] h1
            (Host.reduceAdd X (constant ⟨0, ![]⟩ .f32 0x00000000#32) h hu))
          (broadcastInDim ⟨2, ![1, C]⟩ ![] hb1 (constant ⟨0, ![]⟩ .f32 0x47435000#32)))) (ix2 i j)
      = X (ix2 i j) - colMean (fun i j => X (ix2 i j)) j := by
  rw [subf_apply, rowb2_apply, kmean_apply, row1_apply, colsum_apply]
  rfl

/-- THE VARIANCE FROM GIVEN DEVIATIONS AND COUNT: for any array `D` that reads as the deviations from the
    column means and any scalar `cnt` that reads as the row count, the guarded quotient of the column sums of
    `D · D` by the count is the biased column variance. The guard's bit is true, so the select reads its first
    branch and the not-a-number splat is never read. -/
theorem var_apply_of (h : (⟨2, ![N, C]⟩ : Shape).ReducesTo [0] ⟨1, ![C]⟩)
    (hu : 0 < (⟨0, ![]⟩ : Shape).numel) (hb : (⟨0, ![]⟩ : Shape).BroadcastsInDim ⟨1, ![C]⟩ ![])
    (x : Fin N → Fin C → EReal) (D : FVec Ideal ⟨2, ![N, C]⟩ .f32) (cnt : FVec Ideal ⟨0, ![]⟩ .f32)
    (g : IVec ⟨0, ![]⟩ 1) (nan : FVec Ideal ⟨0, ![]⟩ .f32)
    (hD : ∀ i j, D (ix2 i j) = x i j - colMean x j) (hcnt : cnt ix0 = cRows) (hg : g ix0 = 1#1) (j : Fin C) :
    select (broadcastInDim ⟨1, ![C]⟩ ![] hb g)
        (Host.divf (Host.reduceAdd (mulf D D) (constant ⟨0, ![]⟩ .f32 0x00000000#32) h hu)
          (broadcastInDim ⟨1, ![C]⟩ ![] hb cnt))
        (broadcastInDim ⟨1, ![C]⟩ ![] hb nan) (ix1 j)
      = colVar x j := by
  rw [select_apply, broadcastInDim_scalar_apply, hg, select_one, hostDivf_apply, broadcastInDim_scalar_apply,
    hcnt, colsum_apply]
  unfold colVar colSsq colSum
  congr 1
  refine Finset.sum_congr rfl fun i _ => ?_
  show mulf D D (ix2 i j) = (x i j - colMean x j) * (x i j - colMean x j)
  rw [mulf_apply, hD]

/-- THE COLUMN VARIANCE as the reference prints it, deviations and count written out. -/
theorem var_apply (h : (⟨2, ![N, C]⟩ : Shape).ReducesTo [0] ⟨1, ![C]⟩)
    (hu : 0 < (⟨0, ![]⟩ : Shape).numel) (hb : (⟨0, ![]⟩ : Shape).BroadcastsInDim ⟨1, ![C]⟩ ![])
    (h1 : (⟨1, ![C]⟩ : Shape).BroadcastsInDim ⟨2, ![1, C]⟩ ![1])
    (h2 : (⟨2, ![1, C]⟩ : Shape).BroadcastsInDim ⟨2, ![N, C]⟩ ![0, 1])
    (hb1 : (⟨0, ![]⟩ : Shape).BroadcastsInDim ⟨2, ![1, C]⟩ ![])
    (X : FVec Ideal ⟨2, ![N, C]⟩ .f32) (j : Fin C) :
    select (broadcastInDim ⟨1, ![C]⟩ ![] hb
          (cmpf .ogt (subf (constant ⟨0, ![]⟩ .f32 0x47435000#32) (sitofp .f32 (constantI ⟨0, ![]⟩ 32 0#32))
            : FVec Ideal ⟨0, ![]⟩ .f32) (constant ⟨0, ![]⟩ .f32 0x00000000#32)))
        (Host.divf
          (Host.reduceAdd
            (mulf
              (subf X (broadcastInDim ⟨2, ![N, C]⟩ ![0, 1] h2
                (Host.divf (broadcastInDim ⟨2, ![1, C]⟩ ![1] h1
                    (Host.reduceAdd X (constant ⟨0, ![]⟩ .f32 0x00000000#32) h hu))
                  (broadcastInDim ⟨2, ![1, C]⟩ ![] hb1 (constant ⟨0, ![]⟩ .f32 0x47435000#32)))))
              (subf X (broadcastInDim ⟨2, ![N, C]⟩ ![0, 1] h2
                (Host.divf (broadcastInDim ⟨2, ![1, C]⟩ ![1] h1
                    (Host.reduceAdd X (constant ⟨0, ![]⟩ .f32 0x00000000#32) h hu))
                  (broadcastInDim ⟨2, ![1, C]⟩ ![] hb1 (constant ⟨0, ![]⟩ .f32 0x47435000#32))))))
            (constant ⟨0, ![]⟩ .f32 0x00000000#32) h hu)
          (broadcastInDim ⟨1, ![C]⟩ ![] hb
            (subf (constant ⟨0, ![]⟩ .f32 0x47435000#32) (sitofp .f32 (constantI ⟨0, ![]⟩ 32 0#32)))))
        (broadcastInDim ⟨1, ![C]⟩ ![] hb (id (constant ⟨0, ![]⟩ .f32 0x7FC00000#32))) (ix1 j)
      = colVar (fun i j => X (ix2 i j)) j :=
  var_apply_of h hu hb (fun i j => X (ix2 i j)) _ _ _ _
    (fun i j => dev_apply h hu h1 h2 hb1 X i j) (cnt_apply ix0) (cnt_pos_bit ix0) j

end Cert.Val
-- ==== Proof.Val.HostBnSm.lean ====
/-
  The reference's batch-norm and `softmax_one`, read at an index over the extended reals.

  The reference computes a layer's batch-norm with whole-array operations: each per-column vector (the mean, the
  variance, the scale, the shift) is laid as a `[1, C]` row and repeated down the `N` rows, and the array
  `(X − μ) · rsqrt (v + ε) · γ + β` is formed entrywise. Its `softmax_one` takes each row's maximum (a `maximum`
  reduction from −∞ over the column axis), lays the `N` maxima as an `[N, 1]` column repeated along the columns,
  exponentiates the differences, sums each row of exponentials (an `add` reduction from zero), and divides by
  one plus that sum.

  Read at an entry `(i, j)`, a repeated row gives its entry `j` and a repeated column its entry `i`; a reduction
  over the column axis at row `i` runs over the entries `(i, k)`, `k < C`, in any order since `max` and `+` are
  commutative and associative. So the two terms are the coordinate functions `bnAt` and `smOne`.

  Every statement is over literal shapes with `N` and `C` arbitrary, and over ANY proof of each broadcast's side
  condition and of each reduction's shape condition, so that it applies to a program's own names by unification.
-/
import Idealize.ShloMosaic.PureOps.Ideal
import Idealize.ShloMosaic.PureOps.Ideal.Laws
import Idealize.ShloMosaic.Lib.ValueIdx
import Idealize.ShloMosaic.Lib.IdealHost
import proofs.«408084_j48395691492010_3_alg».proof.Proof.Val.SpecFn

open scoped BigOperators

namespace Cert.Val

open Idealize.ShloMosaic Idealize.ShloMosaic.ValueIdx

variable {N C : ℕ}

/-! ## Broadcasts read at an index -/

/-- A vector of \`C\` entries laid as a \`[1, C]\` row reads its entry \`j\` at \`(a, j)\`. -/
theorem bs_vec_row_apply {α : Type} (h1 : (⟨1, ![C]⟩ : Shape).BroadcastsInDim ⟨2, ![1, C]⟩ ![1])
    (z : (⟨1, ![C]⟩ : Shape).Idx → α) (a : Fin 1) (j : Fin C) :
    broadcastInDim ⟨2, ![1, C]⟩ ![1] h1 z (ix2 a j) = z (ix1 j) := by
  unfold broadcastInDim
  congr 1
  funext b
  obtain rfl : b = 0 := Subsingleton.elim _ _
  apply Fin.ext
  by_cases hs : (⟨1, ![C]⟩ : Shape).size 0 = 1
  · -- a one-entry vector: the only column is column 0
    rw [dif_pos hs]
    have hC : C = 1 := hs
    have := j.isLt
    show 0 = j.val
    omega
  · rw [dif_neg hs]
    rfl

/-- A \`[1, C]\` row repeated down the rows of \`[N, C]\` reads its entry \`(0, j)\` at \`(i, j)\`. -/
theorem bs_row_rows_apply {α : Type} (h2 : (⟨2, ![1, C]⟩ : Shape).BroadcastsInDim ⟨2, ![N, C]⟩ ![0, 1])
    (u : (⟨2, ![1, C]⟩ : Shape).Idx → α) (i : Fin N) (j : Fin C) :
    broadcastInDim ⟨2, ![N, C]⟩ ![0, 1] h2 u (ix2 i j) = u (ix2 (0 : Fin 1) j) := by
  unfold broadcastInDim
  congr 1
  funext b
  apply Fin.ext
  revert b
  refine Fin.forall_fin_two.2 ⟨?_, ?_⟩
  · -- the stretched axis
    rw [dif_pos (show (⟨2, ![1, C]⟩ : Shape).size 0 = 1 from rfl)]
    rfl
  · by_cases hs : (⟨2, ![1, C]⟩ : Shape).size 1 = 1
    · rw [dif_pos hs]
      have hC : C = 1 := hs
      have := j.isLt
      show 0 = j.val
      omega
    · rw [dif_neg hs]
      rfl

/-- A per-column vector spread over \`[N, C]\` through a \`[1, C]\` row reads its entry \`j\` at \`(i, j)\`. -/
theorem bs_rowb_apply {α : Type} (h1 : (⟨1, ![C]⟩ : Shape).BroadcastsInDim ⟨2, ![1, C]⟩ ![1])
    (h2 : (⟨2, ![1, C]⟩ : Shape).BroadcastsInDim ⟨2, ![N, C]⟩ ![0, 1])
    (z : (⟨1, ![C]⟩ : Shape).Idx → α) (i : Fin N) (j : Fin C) :
    broadcastInDim ⟨2, ![N, C]⟩ ![0, 1] h2 (broadcastInDim ⟨2, ![1, C]⟩ ![1] h1 z) (ix2 i j) = z (ix1 j) := by
  rw [bs_row_rows_apply, bs_vec_row_apply]

/-- A vector of \`N\` entries laid as an \`[N, 1]\` column reads its entry \`i\` at \`(i, a)\`. -/
theorem bs_vec_col_apply {α : Type} (hc : (⟨1, ![N]⟩ : Shape).BroadcastsInDim ⟨2, ![N, 1]⟩ ![0])
    (w : (⟨1, ![N]⟩ : Shape).Idx → α) (i : Fin N) (a : Fin 1) :
    broadcastInDim ⟨2, ![N, 1]⟩ ![0] hc w (ix2 i a) = w (ix1 i) := by
  unfold broadcastInDim
  congr 1
  funext b
  obtain rfl : b = 0 := Subsingleton.elim _ _
  apply Fin.ext
  by_cases hs : (⟨1, ![N]⟩ : Shape).size 0 = 1
  · rw [dif_pos hs]
    have hN : N = 1 := hs
    have := i.isLt
    show 0 = i.val
    omega
  · rw [dif_neg hs]
    rfl

/-- An \`[N, 1]\` column repeated along the columns of \`[N, C]\` reads its entry \`(i, 0)\` at \`(i, j)\`. -/
theorem bs_col_cols_apply {α : Type} (hcb : (⟨2, ![N, 1]⟩ : Shape).BroadcastsInDim ⟨2, ![N, C]⟩ ![0, 1])
    (u : (⟨2, ![N, 1]⟩ : Shape).Idx → α) (i : Fin N) (j : Fin C) :
    broadcastInDim ⟨2, ![N, C]⟩ ![0, 1] hcb u (ix2 i j) = u (ix2 i (0 : Fin 1)) := by
  unfold broadcastInDim
  congr 1
  funext b
  apply Fin.ext
  revert b
  refine Fin.forall_fin_two.2 ⟨?_, ?_⟩
  · by_cases hs : (⟨2, ![N, 1]⟩ : Shape).size 0 = 1
    · rw [dif_pos hs]
      have hN : N = 1 := hs
      have := i.isLt
      show 0 = i.val
      omega
    · rw [dif_neg hs]
      rfl
  · -- the stretched axis
    rw [dif_pos (show (⟨2, ![N, 1]⟩ : Shape).size 1 = 1 from rfl)]
    rfl

/-- A per-row vector spread over \`[N, C]\` through an \`[N, 1]\` column reads its entry \`i\` at \`(i, j)\`. -/
theorem bs_colb_apply {α : Type} (hc : (⟨1, ![N]⟩ : Shape).BroadcastsInDim ⟨2, ![N, 1]⟩ ![0])
    (hcb : (⟨2, ![N, 1]⟩ : Shape).BroadcastsInDim ⟨2, ![N, C]⟩ ![0, 1])
    (w : (⟨1, ![N]⟩ : Shape).Idx → α) (i : Fin N) (j : Fin C) :
    broadcastInDim ⟨2, ![N, C]⟩ ![0, 1] hcb (broadcastInDim ⟨2, ![N, 1]⟩ ![0] hc w) (ix2 i j) = w (ix1 i) := by
  rw [bs_col_cols_apply, bs_vec_col_apply]

/-- A scalar constant spread to any shape reads the constant's value everywhere. -/
theorem bs_const_apply {t : Shape} (h : (⟨0, ![]⟩ : Shape).BroadcastsInDim t ![]) (b : BitVec 32) (k : t.Idx) :
    broadcastInDim t ![] h (constant (F := Ideal) ⟨0, ![]⟩ .f32 b) k = Ideal.ofBits .f32 b := by
  rw [broadcastInDim_scalar_apply, constant_apply]

/-! ## The batch-norm read at an index -/

/-- The batch-norm \`(X − μ) · rsqrt (v + ε) · γ + β\`, every per-column vector spread over the rows, read at \`(i, j)\`. -/
theorem bn_apply (h1 : (⟨1, ![C]⟩ : Shape).BroadcastsInDim ⟨2, ![1, C]⟩ ![1])
    (h2 : (⟨2, ![1, C]⟩ : Shape).BroadcastsInDim ⟨2, ![N, C]⟩ ![0, 1])
    (hb : (⟨0, ![]⟩ : Shape).BroadcastsInDim ⟨1, ![C]⟩ ![])
    (X : FVec Ideal ⟨2, ![N, C]⟩ .f32) (μ v γ β : FVec Ideal ⟨1, ![C]⟩ .f32) (i : Fin N) (j : Fin C) :
    addf (mulf (mulf (subf X (broadcastInDim ⟨2, ![N, C]⟩ ![0, 1] h2 (broadcastInDim ⟨2, ![1, C]⟩ ![1] h1 μ)))
          (broadcastInDim ⟨2, ![N, C]⟩ ![0, 1] h2 (broadcastInDim ⟨2, ![1, C]⟩ ![1] h1
            (Host.rsqrt (addf v (broadcastInDim ⟨1, ![C]⟩ ![] hb (constant ⟨0, ![]⟩ .f32 0x3727C5AC#32)))))))
          (broadcastInDim ⟨2, ![N, C]⟩ ![0, 1] h2 (broadcastInDim ⟨2, ![1, C]⟩ ![1] h1 γ)))
        (broadcastInDim ⟨2, ![N, C]⟩ ![0, 1] h2 (broadcastInDim ⟨2, ![1, C]⟩ ![1] h1 β)) (ix2 i j)
      = bnAt (fun i j => X (ix2 i j)) (fun j => μ (ix1 j)) (fun j => v (ix1 j)) (fun j => γ (ix1 j))
          (fun j => β (ix1 j)) i j := by
  rw [addf_apply, mulf_apply, mulf_apply, subf_apply, bs_rowb_apply, bs_rowb_apply, bs_rowb_apply, bs_rowb_apply]
  -- the reciprocal square root is taken entrywise, of \`v j + ε\`
  have hr : Host.rsqrt (addf v (broadcastInDim ⟨1, ![C]⟩ ![] hb (constant ⟨0, ![]⟩ .f32 0x3727C5AC#32))) (ix1 j)
      = Ideal.rsqrt (v (ix1 j) + cEps) := by
    show Ideal.rsqrt (addf v (broadcastInDim ⟨1, ![C]⟩ ![] hb (constant ⟨0, ![]⟩ .f32 0x3727C5AC#32)) (ix1 j)) = _
    rw [addf_apply, bs_const_apply]
    rfl
  rw [hr]
  rfl

/-! ## Row reductions read at an index -/

/-- Over row \`i\`, the index with column \`k\` put back is \`(i, k)\`. -/
theorem bs_lift_row (h : (⟨2, ![N, C]⟩ : Shape).Reduces [1] ⟨1, ![N]⟩) (i : Fin N) (k : Fin C) :
    h.lift (ix1 i) k = ix2 i k := by
  funext c
  apply Fin.ext
  show h.liftVal (ix1 i) k.val c = (ix2 i k c).val
  revert c
  refine Fin.forall_fin_two.2 ⟨?_, ?_⟩
  · -- axis 0 is kept: the row's coordinate
    unfold Shape.Reduces.liftVal
    rw [dif_neg (show ¬ ((0 : Fin 2).val = (1 : Fin 2).val) from Nat.zero_ne_one),
      dif_pos (show (0 : Fin 2).val < (1 : Fin 2).val from Nat.zero_lt_one)]
  · -- axis 1 is the reduced one: the coordinate put back
    unfold Shape.Reduces.liftVal
    rw [dif_pos rfl]

/-- A row-wise \`maximum\` reduction from −∞, read at row \`i\`: the fold of \`max\` over the row's entries. -/
theorem rowmax_apply (hr : (⟨2, ![N, C]⟩ : Shape).ReducesTo [1] ⟨1, ![N]⟩) (hu : 0 < (⟨0, ![]⟩ : Shape).numel)
    (Y : FVec Ideal ⟨2, ![N, C]⟩ .f32) (i : Fin N) :
    Host.reduce FloatOps.maximumf Y (constant ⟨0, ![]⟩ .f32 0xFF800000#32) hr hu (ix1 i)
      = rowMax (fun j => Y (ix2 i j)) := by
  have h : (⟨2, ![N, C]⟩ : Shape).Reduces [1] ⟨1, ![N]⟩ := ⟨hr.1, Nat.one_pos, hr.2⟩
  rw [Host.reduce_eq_fold_single FloatOps.maximumf Y _ hr h hu (ix1 i)]
  have hY : (Y ∘ h.lift (ix1 i)) = fun k : Fin C => Y (ix2 i k) :=
    funext fun k => congrArg Y (bs_lift_row h i k)
  rw [hY]
  rfl

/-- A row-wise sum from zero, read at row \`i\`: the sum of the row's entries. -/
theorem rowsum_apply (hr : (⟨2, ![N, C]⟩ : Shape).ReducesTo [1] ⟨1, ![N]⟩) (hu : 0 < (⟨0, ![]⟩ : Shape).numel)
    (E : FVec Ideal ⟨2, ![N, C]⟩ .f32) (i : Fin N) :
    Host.reduceAdd E (constant ⟨0, ![]⟩ .f32 0x00000000#32) hr hu (ix1 i) = ∑ j, E (ix2 i j) := by
  have h : (⟨2, ![N, C]⟩ : Shape).Reduces [1] ⟨1, ![N]⟩ := ⟨hr.1, Nat.one_pos, hr.2⟩
  rw [hostReduceAdd_apply, Ideal.hostReduceAdd_single hr h, constant_apply, Ideal.ofBits_zero_f32, zero_add]
  exact Finset.sum_congr rfl fun k _ => congrArg E (bs_lift_row h i k)

/-! ## \`softmax_one\` read at an index -/

/-- The shifted exponentials \`exp (Y − row max)\`, the row maxima spread along the columns, read at \`(i, j)\`. -/
theorem sm_exp_apply (hr : (⟨2, ![N, C]⟩ : Shape).ReducesTo [1] ⟨1, ![N]⟩) (hu : 0 < (⟨0, ![]⟩ : Shape).numel)
    (hc : (⟨1, ![N]⟩ : Shape).BroadcastsInDim ⟨2, ![N, 1]⟩ ![0])
    (hcb : (⟨2, ![N, 1]⟩ : Shape).BroadcastsInDim ⟨2, ![N, C]⟩ ![0, 1])
    (Y : FVec Ideal ⟨2, ![N, C]⟩ .f32) (i : Fin N) (j : Fin C) :
    Host.exp (subf Y (broadcastInDim ⟨2, ![N, C]⟩ ![0, 1] hcb (broadcastInDim ⟨2, ![N, 1]⟩ ![0] hc
        (Host.reduce FloatOps.maximumf Y (constant ⟨0, ![]⟩ .f32 0xFF800000#32) hr hu)))) (ix2 i j)
      = Ideal.exp (Y (ix2 i j) - rowMax (fun j' => Y (ix2 i j'))) := by
  show Ideal.exp (subf Y (broadcastInDim ⟨2, ![N, C]⟩ ![0, 1] hcb (broadcastInDim ⟨2, ![N, 1]⟩ ![0] hc
        (Host.reduce FloatOps.maximumf Y (constant ⟨0, ![]⟩ .f32 0xFF800000#32) hr hu))) (ix2 i j)) = _
  rw [subf_apply, bs_colb_apply, rowmax_apply]

/-- \`softmax_one\` along the rows, \`e / (1 + Σ e)\` with \`e = exp (Y − row max)\`, read at \`(i, j)\`. -/
theorem softmax_apply (hr : (⟨2, ![N, C]⟩ : Shape).ReducesTo [1] ⟨1, ![N]⟩) (hu : 0 < (⟨0, ![]⟩ : Shape).numel)
    (hc : (⟨1, ![N]⟩ : Shape).BroadcastsInDim ⟨2, ![N, 1]⟩ ![0])
    (hcb : (⟨2, ![N, 1]⟩ : Shape).BroadcastsInDim ⟨2, ![N, C]⟩ ![0, 1])
    (hs : (⟨0, ![]⟩ : Shape).BroadcastsInDim ⟨2, ![N, 1]⟩ ![])
    (Y : FVec Ideal ⟨2, ![N, C]⟩ .f32) (i : Fin N) (j : Fin C) :
    Host.divf
        (Host.exp (subf Y (broadcastInDim ⟨2, ![N, C]⟩ ![0, 1] hcb (broadcastInDim ⟨2, ![N, 1]⟩ ![0] hc
          (Host.reduce FloatOps.maximumf Y (constant ⟨0, ![]⟩ .f32 0xFF800000#32) hr hu)))))
        (broadcastInDim ⟨2, ![N, C]⟩ ![0, 1] hcb
          (addf (broadcastInDim ⟨2, ![N, 1]⟩ ![] hs (constant ⟨0, ![]⟩ .f32 0x3F800000#32))
            (broadcastInDim ⟨2, ![N, 1]⟩ ![0] hc
              (Host.reduceAdd
                (Host.exp (subf Y (broadcastInDim ⟨2, ![N, C]⟩ ![0, 1] hcb (broadcastInDim ⟨2, ![N, 1]⟩ ![0] hc
                  (Host.reduce FloatOps.maximumf Y (constant ⟨0, ![]⟩ .f32 0xFF800000#32) hr hu)))))
                (constant ⟨0, ![]⟩ .f32 0x00000000#32) hr hu)))) (ix2 i j)
      = smOne (fun j' => Y (ix2 i j')) j := by
  rw [hostDivf_apply, sm_exp_apply, bs_col_cols_apply, addf_apply, bs_const_apply, bs_vec_col_apply, rowsum_apply]
  unfold smOne
  congr 2
  exact Finset.sum_congr rfl fun j' _ => sm_exp_apply hr hu hc hcb Y i j'

end Cert.Val
-- ==== Proof.Val.RefLayersA.lean ====
/-
  The reference's layers 0, 1, 2 and its last layer, read at an index over the extended reals.

  Each statement opens ONE named intermediate of the reference's run (its definition is the operation's function over
  the earlier names) and reads it with the host-chain lemmas: a matmul as the sum over the contracted index of the
  products of the entries, a bias as the entry plus the bias's, the batch-norm and softmax_one as the coordinate
  functions of the network's statistics.
-/
import proofs.«408084_j48395691492010_3_alg».proof.Proof.Ref.Defs
import proofs.«408084_j48395691492010_3_alg».proof.Proof.Val.SpecFn
import proofs.«408084_j48395691492010_3_alg».proof.Proof.Val.HostStat
import proofs.«408084_j48395691492010_3_alg».proof.Proof.Val.HostBnSm
import Idealize.ShloMosaic.Lib.StackMember
import Idealize.ShloMosaic.Lib.Pipeline.Value
import Idealize.ShloMosaic.Lib.ValueLayout

open scoped BigOperators

namespace Cert.Val.Ref

open Cert.ReferenceIdeal Cert.ReferenceIdeal.Gen Cert.ReferenceIdeal.Hand Cert.Val
open Idealize.ShloMosaic Idealize.ShloMosaic.ValueIdx Idealize.SL.Sem

/-! An entry of one of the run's arrays is an extended real only once the signature's table of buffers is looked up, which
    instance search does not do; the sums and products of entries below therefore name the extended reals' operations. -/
local notation:65 a:65 " +ᵉ " b:66 => HAdd.hAdd (α := EReal) (β := EReal) (γ := EReal) a b
local notation:70 a:70 " *ᵉ " b:71 => HMul.hMul (α := EReal) (β := EReal) (γ := EReal) a b

/-! ## The input stage -/

set_option maxRecDepth 8192 in
/-- The network's input at an entry: the eighteen trailing feature columns against the input weights, plus the input
    bias, plus the entry's own leading feature column. -/
theorem ref_x0 (R : Valuation τ sig (Elt Ideal)) (r : Fin 50000) (q : Fin 4) :
    (res_main_v40 R (ix2 r q) : EReal)
      = (∑ k : Fin 18, ((extractStridedSlice S50000x18 ![0, 4] (R (Proc.devRef .tc main_arg0) : FVec Ideal S50000x22 .f32) slices_S50000x22_S50000x18_0_4) (ix2 r k) : EReal)
            *ᵉ ((R (Proc.devRef .tc main_arg4)) (ix2 k q) : EReal))
        +ᵉ ((R (Proc.devRef .tc main_arg5)) (ix1 q) : EReal)
        +ᵉ ((extractStridedSlice S50000x4 ![0, 0] (R (Proc.devRef .tc main_arg0) : FVec Ideal S50000x22 .f32) slices_S50000x22_S50000x4_0_0) (ix2 r q) : EReal) := by
  unfold res_main_v40
  rw [addf_apply, addf_apply, rowb_apply,
    show (dot_S50000x18_S18x4_S50000x4_1_0_0_1_n_n : DotDims S50000x18 S18x4 S50000x4) = DotDims.plain 50000 18 4 from rfl,
    StackMember.dotGeneral_plain_apply] <;> rfl

/-! ## Layer 0 -/

set_option maxRecDepth 8192 in
/-- The matmul of layer 0 at an entry: the row of the layer's input against the row of the weight matrix (the
    printed program transposes the weights, then contracts the input's columns with the transposed matrix's rows). -/
theorem ref_lin_0 (R : Valuation τ sig (Elt Ideal)) (r : Fin 50000) (q : Fin 64) :
    (lin0 R (ix2 r q) : EReal) = ∑ k : Fin 4, (xIn R (ix2 r k) : EReal) *ᵉ (R (Proc.devRef .tc main_arg6) (ix2 q k) : EReal) := by
  show Host.dotGeneral dot_S50000x4_S4x64_S50000x64_1_0_0_1_n_n none (res_main_v40 R)
      (transpose S4x64 [1, 0] (R (Proc.devRef .tc main_arg6)) transposes_S64x4_S4x64_1_0) (ix2 r q) = _
  rw [show (dot_S50000x4_S4x64_S50000x64_1_0_0_1_n_n : DotDims S50000x4 S4x64 S50000x64) = DotDims.plain 50000 4 64 from rfl,
    StackMember.dotGeneral_plain_apply]
  exact Finset.sum_congr rfl fun k _ => by rw [transpose_ix2_apply] <;> rfl

/-- The bias of layer 0: the bias row is repeated down the rows. -/
theorem ref_conv_0 (R : Valuation τ sig (Elt Ideal)) (r : Fin 50000) (q : Fin 64) :
    (conv0 R (ix2 r q) : EReal) = (agg0 R (ix2 r q) : EReal) +ᵉ (R (Proc.devRef .tc main_arg7) (ix1 q) : EReal) := by
  show addf (res_main_v119 R) (broadcastInDim S50000x64 ![0, 1] bcast_S1x64_S50000x64_0_1 (broadcastInDim S1x64 ![1] bcast_S64_S1x64_1 (R (Proc.devRef .tc main_arg7)))) (ix2 r q) = _
  rw [addf_apply, rowb_apply] <;> rfl

/-- The column means layer 0's batch-norm subtracts. -/
theorem ref_mean_0 (R : Valuation τ sig (Elt Ideal)) (j : Fin 64) :
    (res_main_v125 R (ix1 j) : EReal) = colMean (fun i j => (res_main_v122 R (ix2 i j) : EReal)) j :=
  mean_apply reducesTo_S50000x64_S64_d0 h_S_ bcast_S_S64 (res_main_v122 R) j

/-- The column variances layer 0's batch-norm divides by: the outlined variance (its deviations and its count are
    named intermediates; the count is the row count, so the guard holds and the quotient is read). -/
theorem ref_var_0 (R : Valuation τ sig (Elt Ideal)) (j : Fin 64) :
    (res_main_v126 R (ix1 j) : EReal) = colVar (fun i j => (res_main_v122 R (ix2 i j) : EReal)) j :=
  var_apply_of reducesTo_S50000x64_S64_d0 h_S_ bcast_S_S64 (fun i j => (res_main_v122 R (ix2 i j) : EReal)) (res_main_call1_v5 R) (res_main_call1_v8 R)
    (cmpf .ogt (res_main_call1_v8 R) (constant S_ .f32 0x00000000#32)) (id (constant S_ .f32 0x7FC00000#32))
    (fun i j => dev_apply reducesTo_S50000x64_S64_d0 h_S_ bcast_S64_S1x64_1 bcast_S1x64_S50000x64_0_1 bcast_S_S1x64 (res_main_v122 R) i j)
    (cnt_apply ix0) (cnt_pos_bit ix0) j

/-- Layer 0's batch-norm at an entry, with the array's own column statistics. -/
theorem ref_bn_0 (R : Valuation τ sig (Elt Ideal)) (i : Fin 50000) (j : Fin 64) :
    (res_main_v141 R (ix2 i j) : EReal) = bnAt (fun i j => (res_main_v122 R (ix2 i j) : EReal)) (colMean (fun i j => (res_main_v122 R (ix2 i j) : EReal))) (colVar (fun i j => (res_main_v122 R (ix2 i j) : EReal))) (fun j => (R (Proc.devRef .tc main_arg16) (ix1 j) : EReal)) (fun j => (R (Proc.devRef .tc main_arg17) (ix1 j) : EReal)) i j := by
  have h := bn_apply bcast_S64_S1x64_1 bcast_S1x64_S50000x64_0_1 bcast_S_S64 (res_main_v122 R) (res_main_v125 R) (res_main_v126 R)
    (R (Proc.devRef .tc main_arg16)) (R (Proc.devRef .tc main_arg17)) i j
  rw [show (fun j => res_main_v125 R (ix1 j)) = colMean (fun i j => (res_main_v122 R (ix2 i j) : EReal)) from funext (ref_mean_0 R),
    show (fun j => res_main_v126 R (ix1 j)) = colVar (fun i j => (res_main_v122 R (ix2 i j) : EReal)) from funext (ref_var_0 R)] at h
  exact h

/-- Layer 0's activation at an entry: softmax_one along the row of the batch-norm of the layer's convolution. -/
theorem ref_act_0 (R : Valuation τ sig (Elt Ideal)) (r : Fin 50000) (q : Fin 64) :
    (act0 R (ix2 r q) : EReal) = Cert.Val.act (fun i j => (bnIn0 R (ix2 i j) : EReal)) (fun j => (R (Proc.devRef .tc main_arg16) (ix1 j) : EReal)) (fun j => (R (Proc.devRef .tc main_arg17) (ix1 j) : EReal)) r q := by
  have h := softmax_apply reducesTo_S50000x64_S50000_d1 h_S_ bcast_S50000_S50000x1_0 bcast_S50000x1_S50000x64_0_1 bcast_S_S50000x1 (res_main_v141 R) r q
  unfold Cert.Val.act
  rw [show (fun j' => bnAt (fun i j => (bnIn0 R (ix2 i j) : EReal)) (colMean (fun i j => (bnIn0 R (ix2 i j) : EReal))) (colVar (fun i j => (bnIn0 R (ix2 i j) : EReal))) (fun j => (R (Proc.devRef .tc main_arg16) (ix1 j) : EReal)) (fun j => (R (Proc.devRef .tc main_arg17) (ix1 j) : EReal)) r j')
      = fun j' => (res_main_v141 R (ix2 r j') : EReal) from funext fun j' => (ref_bn_0 R r j').symm]
  exact h

/-! ## Layer 1 -/

set_option maxRecDepth 8192 in
/-- The matmul of layer 1 at an entry: the row of the layer's input against the row of the weight matrix (the
    printed program transposes the weights, then contracts the input's columns with the transposed matrix's rows). -/
theorem ref_lin_1 (R : Valuation τ sig (Elt Ideal)) (r : Fin 50000) (q : Fin 128) :
    (lin1 R (ix2 r q) : EReal) = ∑ k : Fin 64, (act0 R (ix2 r k) : EReal) *ᵉ (R (Proc.devRef .tc main_arg8) (ix2 q k) : EReal) := by
  show Host.dotGeneral dot_S50000x64_S64x128_S50000x128_1_0_0_1_n_n none (res_main_v152 R)
      (transpose S64x128 [1, 0] (R (Proc.devRef .tc main_arg8)) transposes_S128x64_S64x128_1_0) (ix2 r q) = _
  rw [show (dot_S50000x64_S64x128_S50000x128_1_0_0_1_n_n : DotDims S50000x64 S64x128 S50000x128) = DotDims.plain 50000 64 128 from rfl,
    StackMember.dotGeneral_plain_apply]
  exact Finset.sum_congr rfl fun k _ => by rw [transpose_ix2_apply] <;> rfl

/-- The bias of layer 1: the bias row is repeated down the rows. -/
theorem ref_conv_1 (R : Valuation τ sig (Elt Ideal)) (r : Fin 50000) (q : Fin 128) :
    (conv1 R (ix2 r q) : EReal) = (agg1 R (ix2 r q) : EReal) +ᵉ (R (Proc.devRef .tc main_arg9) (ix1 q) : EReal) := by
  show addf (res_main_v167 R) (broadcastInDim S50000x128 ![0, 1] bcast_S1x128_S50000x128_0_1 (broadcastInDim S1x128 ![1] bcast_S128_S1x128_1 (R (Proc.devRef .tc main_arg9)))) (ix2 r q) = _
  rw [addf_apply, rowb_apply] <;> rfl

/-- The column means layer 1's batch-norm subtracts. -/
theorem ref_mean_1 (R : Valuation τ sig (Elt Ideal)) (j : Fin 128) :
    (res_main_v173 R (ix1 j) : EReal) = colMean (fun i j => (res_main_v170 R (ix2 i j) : EReal)) j :=
  mean_apply reducesTo_S50000x128_S128_d0 h_S_ bcast_S_S128 (res_main_v170 R) j

/-- The column variances layer 1's batch-norm divides by: the outlined variance (its deviations and its count are
    named intermediates; the count is the row count, so the guard holds and the quotient is read). -/
theorem ref_var_1 (R : Valuation τ sig (Elt Ideal)) (j : Fin 128) :
    (res_main_v174 R (ix1 j) : EReal) = colVar (fun i j => (res_main_v170 R (ix2 i j) : EReal)) j :=
  var_apply_of reducesTo_S50000x128_S128_d0 h_S_ bcast_S_S128 (fun i j => (res_main_v170 R (ix2 i j) : EReal)) (res_main_call2_v5 R) (res_main_call2_v8 R)
    (cmpf .ogt (res_main_call2_v8 R) (constant S_ .f32 0x00000000#32)) (id (constant S_ .f32 0x7FC00000#32))
    (fun i j => dev_apply reducesTo_S50000x128_S128_d0 h_S_ bcast_S128_S1x128_1 bcast_S1x128_S50000x128_0_1 bcast_S_S1x128 (res_main_v170 R) i j)
    (cnt_apply ix0) (cnt_pos_bit ix0) j

/-- Layer 1's batch-norm at an entry, with the array's own column statistics. -/
theorem ref_bn_1 (R : Valuation τ sig (Elt Ideal)) (i : Fin 50000) (j : Fin 128) :
    (res_main_v189 R (ix2 i j) : EReal) = bnAt (fun i j => (res_main_v170 R (ix2 i j) : EReal)) (colMean (fun i j => (res_main_v170 R (ix2 i j) : EReal))) (colVar (fun i j => (res_main_v170 R (ix2 i j) : EReal))) (fun j => (R (Proc.devRef .tc main_arg18) (ix1 j) : EReal)) (fun j => (R (Proc.devRef .tc main_arg19) (ix1 j) : EReal)) i j := by
  have h := bn_apply bcast_S128_S1x128_1 bcast_S1x128_S50000x128_0_1 bcast_S_S128 (res_main_v170 R) (res_main_v173 R) (res_main_v174 R)
    (R (Proc.devRef .tc main_arg18)) (R (Proc.devRef .tc main_arg19)) i j
  rw [show (fun j => res_main_v173 R (ix1 j)) = colMean (fun i j => (res_main_v170 R (ix2 i j) : EReal)) from funext (ref_mean_1 R),
    show (fun j => res_main_v174 R (ix1 j)) = colVar (fun i j => (res_main_v170 R (ix2 i j) : EReal)) from funext (ref_var_1 R)] at h
  exact h

/-- Layer 1's activation at an entry: softmax_one along the row of the batch-norm of the layer's convolution. -/
theorem ref_act_1 (R : Valuation τ sig (Elt Ideal)) (r : Fin 50000) (q : Fin 128) :
    (act1 R (ix2 r q) : EReal) = Cert.Val.act (fun i j => (bnIn1 R (ix2 i j) : EReal)) (fun j => (R (Proc.devRef .tc main_arg18) (ix1 j) : EReal)) (fun j => (R (Proc.devRef .tc main_arg19) (ix1 j) : EReal)) r q := by
  have h := softmax_apply reducesTo_S50000x128_S50000_d1 h_S_ bcast_S50000_S50000x1_0 bcast_S50000x1_S50000x128_0_1 bcast_S_S50000x1 (res_main_v189 R) r q
  unfold Cert.Val.act
  rw [show (fun j' => bnAt (fun i j => (bnIn1 R (ix2 i j) : EReal)) (colMean (fun i j => (bnIn1 R (ix2 i j) : EReal))) (colVar (fun i j => (bnIn1 R (ix2 i j) : EReal))) (fun j => (R (Proc.devRef .tc main_arg18) (ix1 j) : EReal)) (fun j => (R (Proc.devRef .tc main_arg19) (ix1 j) : EReal)) r j')
      = fun j' => (res_main_v189 R (ix2 r j') : EReal) from funext fun j' => (ref_bn_1 R r j').symm]
  exact h

/-! ## Layer 2 -/

set_option maxRecDepth 8192 in
/-- The matmul of layer 2 at an entry: the row of the layer's input against the row of the weight matrix (the
    printed program transposes the weights, then contracts the input's columns with the transposed matrix's rows). -/
theorem ref_lin_2 (R : Valuation τ sig (Elt Ideal)) (r : Fin 50000) (q : Fin 64) :
    (lin2 R (ix2 r q) : EReal) = ∑ k : Fin 128, (act1 R (ix2 r k) : EReal) *ᵉ (R (Proc.devRef .tc main_arg10) (ix2 q k) : EReal) := by
  show Host.dotGeneral dot_S50000x128_S128x64_S50000x64_1_0_0_1_n_n none (res_main_v200 R)
      (transpose S128x64 [1, 0] (R (Proc.devRef .tc main_arg10)) transposes_S64x128_S128x64_1_0) (ix2 r q) = _
  rw [show (dot_S50000x128_S128x64_S50000x64_1_0_0_1_n_n : DotDims S50000x128 S128x64 S50000x64) = DotDims.plain 50000 128 64 from rfl,
    StackMember.dotGeneral_plain_apply]
  exact Finset.sum_congr rfl fun k _ => by rw [transpose_ix2_apply] <;> rfl

/-- The bias of layer 2: the bias row is repeated down the rows. -/
theorem ref_conv_2 (R : Valuation τ sig (Elt Ideal)) (r : Fin 50000) (q : Fin 64) :
    (conv2 R (ix2 r q) : EReal) = (agg2 R (ix2 r q) : EReal) +ᵉ (R (Proc.devRef .tc main_arg11) (ix1 q) : EReal) := by
  show addf (res_main_v215 R) (broadcastInDim S50000x64 ![0, 1] bcast_S1x64_S50000x64_0_1 (broadcastInDim S1x64 ![1] bcast_S64_S1x64_1 (R (Proc.devRef .tc main_arg11)))) (ix2 r q) = _
  rw [addf_apply, rowb_apply] <;> rfl

/-- The column means layer 2's batch-norm subtracts. -/
theorem ref_mean_2 (R : Valuation τ sig (Elt Ideal)) (j : Fin 64) :
    (res_main_v221 R (ix1 j) : EReal) = colMean (fun i j => (res_main_v218 R (ix2 i j) : EReal)) j :=
  mean_apply reducesTo_S50000x64_S64_d0 h_S_ bcast_S_S64 (res_main_v218 R) j

/-- The column variances layer 2's batch-norm divides by: the outlined variance (its deviations and its count are
    named intermediates; the count is the row count, so the guard holds and the quotient is read). -/
theorem ref_var_2 (R : Valuation τ sig (Elt Ideal)) (j : Fin 64) :
    (res_main_v222 R (ix1 j) : EReal) = colVar (fun i j => (res_main_v218 R (ix2 i j) : EReal)) j :=
  var_apply_of reducesTo_S50000x64_S64_d0 h_S_ bcast_S_S64 (fun i j => (res_main_v218 R (ix2 i j) : EReal)) (res_main_call3_v5 R) (res_main_call3_v8 R)
    (cmpf .ogt (res_main_call3_v8 R) (constant S_ .f32 0x00000000#32)) (id (constant S_ .f32 0x7FC00000#32))
    (fun i j => dev_apply reducesTo_S50000x64_S64_d0 h_S_ bcast_S64_S1x64_1 bcast_S1x64_S50000x64_0_1 bcast_S_S1x64 (res_main_v218 R) i j)
    (cnt_apply ix0) (cnt_pos_bit ix0) j

/-- Layer 2's batch-norm at an entry, with the array's own column statistics. -/
theorem ref_bn_2 (R : Valuation τ sig (Elt Ideal)) (i : Fin 50000) (j : Fin 64) :
    (res_main_v237 R (ix2 i j) : EReal) = bnAt (fun i j => (res_main_v218 R (ix2 i j) : EReal)) (colMean (fun i j => (res_main_v218 R (ix2 i j) : EReal))) (colVar (fun i j => (res_main_v218 R (ix2 i j) : EReal))) (fun j => (R (Proc.devRef .tc main_arg20) (ix1 j) : EReal)) (fun j => (R (Proc.devRef .tc main_arg21) (ix1 j) : EReal)) i j := by
  have h := bn_apply bcast_S64_S1x64_1 bcast_S1x64_S50000x64_0_1 bcast_S_S64 (res_main_v218 R) (res_main_v221 R) (res_main_v222 R)
    (R (Proc.devRef .tc main_arg20)) (R (Proc.devRef .tc main_arg21)) i j
  rw [show (fun j => res_main_v221 R (ix1 j)) = colMean (fun i j => (res_main_v218 R (ix2 i j) : EReal)) from funext (ref_mean_2 R),
    show (fun j => res_main_v222 R (ix1 j)) = colVar (fun i j => (res_main_v218 R (ix2 i j) : EReal)) from funext (ref_var_2 R)] at h
  exact h

/-- Layer 2's activation at an entry: softmax_one along the row of the batch-norm of the layer's convolution. -/
theorem ref_act_2 (R : Valuation τ sig (Elt Ideal)) (r : Fin 50000) (q : Fin 64) :
    (act2 R (ix2 r q) : EReal) = Cert.Val.act (fun i j => (bnIn2 R (ix2 i j) : EReal)) (fun j => (R (Proc.devRef .tc main_arg20) (ix1 j) : EReal)) (fun j => (R (Proc.devRef .tc main_arg21) (ix1 j) : EReal)) r q := by
  have h := softmax_apply reducesTo_S50000x64_S50000_d1 h_S_ bcast_S50000_S50000x1_0 bcast_S50000x1_S50000x64_0_1 bcast_S_S50000x1 (res_main_v237 R) r q
  unfold Cert.Val.act
  rw [show (fun j' => bnAt (fun i j => (bnIn2 R (ix2 i j) : EReal)) (colMean (fun i j => (bnIn2 R (ix2 i j) : EReal))) (colVar (fun i j => (bnIn2 R (ix2 i j) : EReal))) (fun j => (R (Proc.devRef .tc main_arg20) (ix1 j) : EReal)) (fun j => (R (Proc.devRef .tc main_arg21) (ix1 j) : EReal)) r j')
      = fun j' => (res_main_v237 R (ix2 r j') : EReal) from funext fun j' => (ref_bn_2 R r j').symm]
  exact h

/-! ## Layer 11 -/

set_option maxRecDepth 8192 in
/-- The matmul of layer 11 at an entry: the row of the layer's input against the row of the weight matrix (the
    printed program transposes the weights, then contracts the input's columns with the transposed matrix's rows). -/
theorem ref_lin_11 (R : Valuation τ sig (Elt Ideal)) (r : Fin 50000) (q : Fin 32) :
    (lin11 R (ix2 r q) : EReal) = ∑ k : Fin 64, (act10 R (ix2 r k) : EReal) *ᵉ (R (Proc.devRef .tc main_arg14) (ix2 q k) : EReal) := by
  show Host.dotGeneral dot_S50000x64_S64x32_S50000x32_1_0_0_1_n_n none (res_main_v668 R)
      (transpose S64x32 [1, 0] (R (Proc.devRef .tc main_arg14)) transposes_S32x64_S64x32_1_0) (ix2 r q) = _
  rw [show (dot_S50000x64_S64x32_S50000x32_1_0_0_1_n_n : DotDims S50000x64 S64x32 S50000x32) = DotDims.plain 50000 64 32 from rfl,
    StackMember.dotGeneral_plain_apply]
  exact Finset.sum_congr rfl fun k _ => by rw [transpose_ix2_apply] <;> rfl

/-- The bias of layer 11: the bias row is repeated down the rows. -/
theorem ref_conv_11 (R : Valuation τ sig (Elt Ideal)) (r : Fin 50000) (q : Fin 32) :
    (conv11 R (ix2 r q) : EReal) = (agg11 R (ix2 r q) : EReal) +ᵉ (R (Proc.devRef .tc main_arg15) (ix1 q) : EReal) := by
  show addf (res_main_v683 R) (broadcastInDim S50000x32 ![0, 1] bcast_S1x32_S50000x32_0_1 (broadcastInDim S1x32 ![1] bcast_S32_S1x32_1 (R (Proc.devRef .tc main_arg15)))) (ix2 r q) = _
  rw [addf_apply, rowb_apply] <;> rfl

/-- The last layer's softmax_one, of the convolution itself, at an entry. -/
theorem ref_s (R : Valuation τ sig (Elt Ideal)) (r : Fin 50000) (q : Fin 32) :
    (res_main_v697 R (ix2 r q) : EReal) = Cert.Val.smOne (fun j' => (res_main_v686 R (ix2 r j') : EReal)) q :=
  softmax_apply reducesTo_S50000x32_S50000_d1 h_S_ bcast_S50000_S50000x1_0 bcast_S50000x1_S50000x32_0_1 bcast_S_S50000x1 (res_main_v686 R) r q

/-- The column means layer 11's batch-norm subtracts. -/
theorem ref_mean_11 (R : Valuation τ sig (Elt Ideal)) (j : Fin 32) :
    (res_main_v700 R (ix1 j) : EReal) = colMean (fun i j => (res_main_v697 R (ix2 i j) : EReal)) j :=
  mean_apply reducesTo_S50000x32_S32_d0 h_S_ bcast_S_S32 (res_main_v697 R) j

/-- The column variances layer 11's batch-norm divides by: the outlined variance (its deviations and its count are
    named intermediates; the count is the row count, so the guard holds and the quotient is read). -/
theorem ref_var_11 (R : Valuation τ sig (Elt Ideal)) (j : Fin 32) :
    (res_main_v701 R (ix1 j) : EReal) = colVar (fun i j => (res_main_v697 R (ix2 i j) : EReal)) j :=
  var_apply_of reducesTo_S50000x32_S32_d0 h_S_ bcast_S_S32 (fun i j => (res_main_v697 R (ix2 i j) : EReal)) (res_main_call12_v5 R) (res_main_call12_v8 R)
    (cmpf .ogt (res_main_call12_v8 R) (constant S_ .f32 0x00000000#32)) (id (constant S_ .f32 0x7FC00000#32))
    (fun i j => dev_apply reducesTo_S50000x32_S32_d0 h_S_ bcast_S32_S1x32_1 bcast_S1x32_S50000x32_0_1 bcast_S_S1x32 (res_main_v697 R) i j)
    (cnt_apply ix0) (cnt_pos_bit ix0) j

/-- Layer 11's batch-norm at an entry, with the array's own column statistics. -/
theorem ref_bn_11 (R : Valuation τ sig (Elt Ideal)) (i : Fin 50000) (j : Fin 32) :
    (res_main_v716 R (ix2 i j) : EReal) = bnAt (fun i j => (res_main_v697 R (ix2 i j) : EReal)) (colMean (fun i j => (res_main_v697 R (ix2 i j) : EReal))) (colVar (fun i j => (res_main_v697 R (ix2 i j) : EReal))) (fun j => (R (Proc.devRef .tc main_arg24) (ix1 j) : EReal)) (fun j => (R (Proc.devRef .tc main_arg25) (ix1 j) : EReal)) i j := by
  have h := bn_apply bcast_S32_S1x32_1 bcast_S1x32_S50000x32_0_1 bcast_S_S32 (res_main_v697 R) (res_main_v700 R) (res_main_v701 R)
    (R (Proc.devRef .tc main_arg24)) (R (Proc.devRef .tc main_arg25)) i j
  rw [show (fun j => res_main_v700 R (ix1 j)) = colMean (fun i j => (res_main_v697 R (ix2 i j) : EReal)) from funext (ref_mean_11 R),
    show (fun j => res_main_v701 R (ix1 j)) = colVar (fun i j => (res_main_v697 R (ix2 i j) : EReal)) from funext (ref_var_11 R)] at h
  exact h

set_option maxRecDepth 8192 in
/-- The result at a node: the last batch-norm's row against the output weights' one column (the printed program
    reshapes the `[50000, 1]` product to a vector: same row-major position). -/
theorem ref_out (R : Valuation τ sig (Elt Ideal)) (r : Fin 50000) :
    (res_main_v718 R (ix1 r) : EReal) = ∑ k : Fin 32, bnAt (fun i j => (res_main_v697 R (ix2 i j) : EReal)) (colMean (fun i j => (res_main_v697 R (ix2 i j) : EReal))) (colVar (fun i j => (res_main_v697 R (ix2 i j) : EReal))) (fun j => (R (Proc.devRef .tc main_arg24) (ix1 j) : EReal)) (fun j => (R (Proc.devRef .tc main_arg25) (ix1 j) : EReal)) r k
      *ᵉ (R (Proc.devRef .tc main_arg26) (ix2 k (0 : Fin 1)) : EReal) := by
  show shapeCast S50000 (Host.dotGeneral dot_S50000x32_S32x1_S50000x1_1_0_0_1_n_n none (res_main_v716 R) (R (Proc.devRef .tc main_arg26)))
      shapeCasts_S50000x1_S50000 (ix1 r) = _
  rw [shapeCast_apply _ shapeCasts_S50000x1_S50000 (ix1 r) (ix2 r (0 : Fin 1))
      (by rw [Shape.rowMajor_val_two, Shape.rowMajor_val_one]; show r.val * 1 + 0 = r.val; omega),
    show (dot_S50000x32_S32x1_S50000x1_1_0_0_1_n_n : DotDims S50000x32 S32x1 S50000x1) = DotDims.plain 50000 32 1 from rfl,
    StackMember.dotGeneral_plain_apply]
  exact Finset.sum_congr rfl fun k _ => by rw [ref_bn_11]

end Cert.Val.Ref
-- ==== Proof.Val.JoinLayer.lean ====
/-
  One layer of the network on both sides at once: from the two programs' readings of a layer, stated over
  arbitrary arrays, to the equality of the layer's outputs.

  A layer takes an input \`x : [N, Ci]\`, multiplies it by a weight \`W : [Co, Ci]\` (row \`r\` of \`x\` against row
  \`q\` of \`W\`), aggregates the product over the graph's edges (gather the source rows, scale by the edge norm,
  scatter-add into the target rows), adds a bias, adds the running sum \`cum\` of the earlier layers'
  convolutions, and applies the activation (\`softmax_one\` of the batch-norm with the array's own column
  statistics). It hands on the activation and the running sum with its own convolution added.

  One program's side of this is a handful of equations about its arrays: the product as a finite sum, the
  aggregation as the whole-array gather / scale / scatter-add term, the sums at an entry, the activation as the
  coordinate function \`act\`. Given those equations for both programs, the equality of their inputs (the
  layer's input, the graph's three arrays, the four weights, the incoming running sum) gives the equality of their
  outputs. The two aggregation terms are spelled with each program's own shape records and side-condition proofs:
  the records are assumed equal, the proofs are proofs of the same propositions.

  The arrays are functions from a shape's indices to the extended reals, and the sums and products are the extended
  reals' own, so that an equation about a program's buffer entries is an instance as it stands.

  Nothing here mentions either program: every array, record and side condition is a variable, so that a layer's
  statement is this one applied to the two programs' lemmas.
-/
import Idealize.ShloMosaic.PureOps.Ideal
import Idealize.ShloMosaic.Lib.ValueIdx
import Idealize.ShloMosaic.Lib.StableHlo
import proofs.«408084_j48395691492010_3_alg».proof.Proof.Val.SpecFn

open scoped BigOperators

namespace Cert.Val

open Idealize.ShloMosaic Idealize.ShloMosaic.ValueIdx

variable {N E Ci Co : ℕ}

/-- The aggregation of a table \`lin : [N, Co]\` over the edges, as both programs spell it: scatter-add, into zeros
    and by the target column, of the edge norms (spread along the columns) times the rows gathered by the source
    column — a negative source word first wrapped by the node count \`50000\`. -/
noncomputable abbrev aggTerm (sc : ScatterDims ⟨2, ![N, Co]⟩ ⟨2, ![E, 1]⟩ ⟨2, ![E, Co]⟩)
    (ga : GatherDims ⟨2, ![N, Co]⟩ ⟨2, ![E, 1]⟩ ⟨2, ![E, Co]⟩)
    (w0 : (⟨0, ![]⟩ : Shape).BroadcastsInDim ⟨2, ![N, Co]⟩ ![])
    (w1 : (⟨1, ![E]⟩ : Shape).BroadcastsInDim ⟨2, ![E, 1]⟩ ![0])
    (w2 : (⟨2, ![E, 1]⟩ : Shape).BroadcastsInDim ⟨2, ![E, Co]⟩ ![0, 1])
    (w3 : (⟨0, ![]⟩ : Shape).BroadcastsInDim ⟨1, ![E]⟩ ![])
    (lin : FVec Ideal ⟨2, ![N, Co]⟩ .f32) (src dst : IVec ⟨1, ![E]⟩ 32) (norm : FVec Ideal ⟨1, ![E]⟩ .f32) :
    FVec Ideal ⟨2, ![N, Co]⟩ .f32 :=
  Host.scatterAdd sc (broadcastInDim ⟨2, ![N, Co]⟩ ![] w0 (constant (F := Ideal) ⟨0, ![]⟩ .f32 0x00000000#32))
    (broadcastInDim ⟨2, ![E, 1]⟩ ![0] w1 dst)
    (mulf (broadcastInDim ⟨2, ![E, Co]⟩ ![0, 1] w2 (broadcastInDim ⟨2, ![E, 1]⟩ ![0] w1 norm))
      (Host.gather ga lin (broadcastInDim ⟨2, ![E, 1]⟩ ![0] w1
        (select (cmpi .slt src (broadcastInDim ⟨1, ![E]⟩ ![] w3 (constantI ⟨0, ![]⟩ 32 0#32)))
          (addi src (broadcastInDim ⟨1, ![E]⟩ ![] w3 (constantI ⟨0, ![]⟩ 32 50000#32))) src))))

section Layer

variable
  -- one program's arrays ...
  (xK : (⟨2, ![N, Ci]⟩ : Shape).Idx → EReal) (WK : (⟨2, ![Co, Ci]⟩ : Shape).Idx → EReal)
  (linK aggK : (⟨2, ![N, Co]⟩ : Shape).Idx → EReal) (bK : (⟨1, ![Co]⟩ : Shape).Idx → EReal)
  (srcK dstK : IVec ⟨1, ![E]⟩ 32) (normK : (⟨1, ![E]⟩ : Shape).Idx → EReal)
  (scK : ScatterDims ⟨2, ![N, Co]⟩ ⟨2, ![E, 1]⟩ ⟨2, ![E, Co]⟩)
  (gaK : GatherDims ⟨2, ![N, Co]⟩ ⟨2, ![E, 1]⟩ ⟨2, ![E, Co]⟩)
  (w0K : (⟨0, ![]⟩ : Shape).BroadcastsInDim ⟨2, ![N, Co]⟩ ![])
  (w1K : (⟨1, ![E]⟩ : Shape).BroadcastsInDim ⟨2, ![E, 1]⟩ ![0])
  (w2K : (⟨2, ![E, 1]⟩ : Shape).BroadcastsInDim ⟨2, ![E, Co]⟩ ![0, 1])
  (w3K : (⟨0, ![]⟩ : Shape).BroadcastsInDim ⟨1, ![E]⟩ ![])
  -- ... and the other's
  (xR : (⟨2, ![N, Ci]⟩ : Shape).Idx → EReal) (WR : (⟨2, ![Co, Ci]⟩ : Shape).Idx → EReal)
  (linR aggR convR : (⟨2, ![N, Co]⟩ : Shape).Idx → EReal) (bR : (⟨1, ![Co]⟩ : Shape).Idx → EReal)
  (srcR dstR : IVec ⟨1, ![E]⟩ 32) (normR : (⟨1, ![E]⟩ : Shape).Idx → EReal)
  (scR : ScatterDims ⟨2, ![N, Co]⟩ ⟨2, ![E, 1]⟩ ⟨2, ![E, Co]⟩)
  (gaR : GatherDims ⟨2, ![N, Co]⟩ ⟨2, ![E, 1]⟩ ⟨2, ![E, Co]⟩)
  (w0R : (⟨0, ![]⟩ : Shape).BroadcastsInDim ⟨2, ![N, Co]⟩ ![])
  (w1R : (⟨1, ![E]⟩ : Shape).BroadcastsInDim ⟨2, ![E, 1]⟩ ![0])
  (w2R : (⟨2, ![E, 1]⟩ : Shape).BroadcastsInDim ⟨2, ![E, Co]⟩ ![0, 1])
  (w3R : (⟨0, ![]⟩ : Shape).BroadcastsInDim ⟨1, ![E]⟩ ![])

/-- THE CONVOLUTION: with equal inputs, graph arrays, weight and bias, the first program's aggregation plus bias
    at an entry is the second program's convolution there. -/
theorem join_conv
    (k_lin : ∀ r q, linK (ix2 r q) = ∑ k : Fin Ci, xK (ix2 r k) * WK (ix2 q k))
    (k_agg : aggK = aggTerm scK gaK w0K w1K w2K w3K linK srcK dstK normK)
    (r_lin : ∀ r q, linR (ix2 r q) = ∑ k : Fin Ci, xR (ix2 r k) * WR (ix2 q k))
    (r_agg : aggR = aggTerm scR gaR w0R w1R w2R w3R linR srcR dstR normR)
    (r_conv : ∀ r q, convR (ix2 r q) = aggR (ix2 r q) + bR (ix1 q))
    (hsc : scK = scR) (hga : gaK = gaR)
    (hx : ∀ r k, xK (ix2 r k) = xR (ix2 r k))
    (hsrc : srcK = srcR) (hdst : dstK = dstR) (hnorm : normK = normR) (hW : WK = WR) (hb : bK = bR)
    (r : Fin N) (q : Fin Co) : aggK (ix2 r q) + bK (ix1 q) = convR (ix2 r q) := by
  subst hsc hga hsrc hdst hnorm hW hb
  -- the products agree entry by entry, so as arrays
  have hlin : linK = linR := by
    funext p
    obtain ⟨r', q', rfl⟩ : ∃ (r' : Fin N) (q' : Fin Co), p = ix2 r' q' := ⟨p 0, p 1, eq_ix2 p⟩
    rw [k_lin, r_lin]
    exact Finset.sum_congr rfl fun k _ => by rw [hx]
  -- so the aggregations are the same term
  have hagg : aggK = aggR := by rw [k_agg, r_agg, hlin]
  rw [hagg, r_conv]

variable (preK cumK actK : (⟨2, ![N, Co]⟩ : Shape).Idx → EReal) (gK beK : (⟨1, ![Co]⟩ : Shape).Idx → EReal)
  (bnInR actR : (⟨2, ![N, Co]⟩ : Shape).Idx → EReal) (gR beR : (⟨1, ![Co]⟩ : Shape).Idx → EReal)

/-- THE FIRST RESIDUAL LAYER: nothing comes in to be added; what the batch-norm normalises, and the running sum
    handed on, are the layer's convolution. -/
theorem join_layer_first
    (k_lin : ∀ r q, linK (ix2 r q) = ∑ k : Fin Ci, xK (ix2 r k) * WK (ix2 q k))
    (k_agg : aggK = aggTerm scK gaK w0K w1K w2K w3K linK srcK dstK normK)
    (k_pre : ∀ r q, preK (ix2 r q) = aggK (ix2 r q) + bK (ix1 q))
    (k_cum : ∀ r q, cumK (ix2 r q) = aggK (ix2 r q) + bK (ix1 q))
    (k_act : ∀ r q, actK (ix2 r q)
      = act (fun i j => preK (ix2 i j)) (fun j => gK (ix1 j)) (fun j => beK (ix1 j)) r q)
    (r_lin : ∀ r q, linR (ix2 r q) = ∑ k : Fin Ci, xR (ix2 r k) * WR (ix2 q k))
    (r_agg : aggR = aggTerm scR gaR w0R w1R w2R w3R linR srcR dstR normR)
    (r_conv : ∀ r q, convR (ix2 r q) = aggR (ix2 r q) + bR (ix1 q))
    (r_act : ∀ r q, actR (ix2 r q)
      = act (fun i j => convR (ix2 i j)) (fun j => gR (ix1 j)) (fun j => beR (ix1 j)) r q)
    (hsc : scK = scR) (hga : gaK = gaR)
    (hx : ∀ r k, xK (ix2 r k) = xR (ix2 r k))
    (hsrc : srcK = srcR) (hdst : dstK = dstR) (hnorm : normK = normR)
    (hW : WK = WR) (hb : bK = bR) (hg : gK = gR) (hbe : beK = beR) :
    (∀ r q, actK (ix2 r q) = actR (ix2 r q)) ∧ (∀ r q, cumK (ix2 r q) = convR (ix2 r q)) := by
  have hv : ∀ r q, aggK (ix2 r q) + bK (ix1 q) = convR (ix2 r q) :=
    join_conv xK WK linK aggK bK srcK dstK normK scK gaK w0K w1K w2K w3K xR WR linR aggR convR bR srcR dstR normR
      scR gaR w0R w1R w2R w3R k_lin k_agg r_lin r_agg r_conv hsc hga hx hsrc hdst hnorm hW hb
  subst hg hbe
  have hpre : (fun i j => preK (ix2 i j)) = fun i j => convR (ix2 i j) :=
    funext fun i => funext fun j => by rw [k_pre, hv]
  refine ⟨fun r q => ?_, fun r q => ?_⟩
  · rw [k_act, hpre, r_act]
  · rw [k_cum, hv]

variable (cinK : (⟨2, ![N, Co]⟩ : Shape).Idx → EReal) (cumPrevR : Fin N → Fin Co → EReal)

/-- A LATER LAYER: the running sum of the earlier convolutions comes in; the batch-norm normalises the layer's
    convolution plus it, and the running sum handed on is it plus the layer's convolution. -/
theorem join_layer
    (k_lin : ∀ r q, linK (ix2 r q) = ∑ k : Fin Ci, xK (ix2 r k) * WK (ix2 q k))
    (k_agg : aggK = aggTerm scK gaK w0K w1K w2K w3K linK srcK dstK normK)
    (k_pre : ∀ r q, preK (ix2 r q) = (aggK (ix2 r q) + bK (ix1 q)) + cinK (ix2 r q))
    (k_cum : ∀ r q, cumK (ix2 r q) = cinK (ix2 r q) + (aggK (ix2 r q) + bK (ix1 q)))
    (k_act : ∀ r q, actK (ix2 r q)
      = act (fun i j => preK (ix2 i j)) (fun j => gK (ix1 j)) (fun j => beK (ix1 j)) r q)
    (r_lin : ∀ r q, linR (ix2 r q) = ∑ k : Fin Ci, xR (ix2 r k) * WR (ix2 q k))
    (r_agg : aggR = aggTerm scR gaR w0R w1R w2R w3R linR srcR dstR normR)
    (r_conv : ∀ r q, convR (ix2 r q) = aggR (ix2 r q) + bR (ix1 q))
    (r_pre : ∀ r q, bnInR (ix2 r q) = convR (ix2 r q) + cumPrevR r q)
    (r_act : ∀ r q, actR (ix2 r q)
      = act (fun i j => bnInR (ix2 i j)) (fun j => gR (ix1 j)) (fun j => beR (ix1 j)) r q)
    (hsc : scK = scR) (hga : gaK = gaR)
    (hx : ∀ r k, xK (ix2 r k) = xR (ix2 r k))
    (hcum : ∀ r q, cinK (ix2 r q) = cumPrevR r q)
    (hsrc : srcK = srcR) (hdst : dstK = dstR) (hnorm : normK = normR)
    (hW : WK = WR) (hb : bK = bR) (hg : gK = gR) (hbe : beK = beR) :
    (∀ r q, actK (ix2 r q) = actR (ix2 r q)) ∧ (∀ r q, cumK (ix2 r q) = cumPrevR r q + convR (ix2 r q)) := by
  have hv : ∀ r q, aggK (ix2 r q) + bK (ix1 q) = convR (ix2 r q) :=
    join_conv xK WK linK aggK bK srcK dstK normK scK gaK w0K w1K w2K w3K xR WR linR aggR convR bR srcR dstR normR
      scR gaR w0R w1R w2R w3R k_lin k_agg r_lin r_agg r_conv hsc hga hx hsrc hdst hnorm hW hb
  subst hg hbe
  have hpre : (fun i j => preK (ix2 i j)) = fun i j => bnInR (ix2 i j) :=
    funext fun i => funext fun j => by rw [k_pre, hv, hcum, r_pre]
  refine ⟨fun r q => ?_, fun r q => ?_⟩
  · rw [k_act, hpre, r_act]
  · rw [k_cum, hv, hcum]

end Layer

end Cert.Val
-- ==== Proof.Val.JoinEnds.lean ====
/-
  The two programs joined at their two ends, over the extended reals.

  Between the ends the layers are joined one by one; here are the input stage before the first layer and, after
  the last residual layer, the last layer with the result. At each end both programs' sides are already read at an
  index against the same coordinate functions, one side over the first program's launch arrays, the other over the
  second program's arguments; what is assumed is that the corresponding arrays are equal (and, for the last layer,
  that the activations coming in agree), what is concluded is that the stage's outputs agree at every index.

  Only the first program's names are opened; the second program's are written in full.
-/
import proofs.«408084_j48395691492010_3_alg».proof.Proof.Val.Kesg
import proofs.«408084_j48395691492010_3_alg».proof.Proof.Val.K11
import proofs.«408084_j48395691492010_3_alg».proof.Proof.Val.RefLayersA
import proofs.«408084_j48395691492010_3_alg».proof.Proof.Val.JoinLayer
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Val
open scoped BigOperators

variable (m : (ℓ : Loc nD τ sig) → Buf (Elt Ideal) ℓ) (ρ : Dev nD → PrngReg) (c : Dev nD)
variable (R : Valuation Cert.ReferenceIdeal.τ Cert.ReferenceIdeal.sig (Elt Ideal))

/- The extended reals' sum, named outright: an array's entry has the element type of its buffer, which unfolds to
   the extended reals but is not syntactically them. -/
local notation:65 a:65 " +ᵉ " b:66 => HAdd.hAdd (α := EReal) (β := EReal) (γ := EReal) a b

/-! ## The input stage -/

/-- THE INPUT STAGE: with the features, the input weight and the input bias the same arrays in both programs, the
    two programs' inputs to the first layer agree at every entry: both are the product of the eighteen trailing
    feature columns with the weight, plus the bias, plus the entry's own leading feature column. -/
theorem joinEsg
    (h0 : (m ((c : Thread nD τ).loc main_arg0) : S50000x22.Idx → EReal) = R (Proc.devRef .tc Cert.ReferenceIdeal.main_arg0))
    (h4 : (m ((c : Thread nD τ).loc main_arg4) : S18x4.Idx → EReal) = R (Proc.devRef .tc Cert.ReferenceIdeal.main_arg4))
    (h5 : (m ((c : Thread nD τ).loc main_arg5) : S4.Idx → EReal) = R (Proc.devRef .tc Cert.ReferenceIdeal.main_arg5))
    (r : Fin 50000) (q : Fin 4) :
    (B4 m ρ c (Proc.devRef .tc main_v37) : S50000x4.Idx → EReal) (ix2 r q)
      = (Cert.ReferenceIdeal.Hand.res_main_v40 R : S50000x4.Idx → EReal) (ix2 r q) := by
  rw [kesg, Cert.Val.Ref.ref_x0, h0, h4, h5] <;> rfl

/-! ## The last layer -/

/-- THE LAST LAYER AND THE RESULT: with equal activations coming in, the graph's three arrays equal, and the last
    layer's weight, bias, batch-norm scale and shift and the output weight the same arrays in both programs, the two
    programs' results agree at every node. The convolutions agree by the layer's join; so the rows `softmax_one` is
    taken of agree, so the activations; the batch-norm's column statistics are functions of the activations, and the
    result is the batch-norm's row against the output weight's one column. -/
theorem joinLast
    (hx : ∀ r k, (B92 m ρ c (Proc.devRef .tc main_v376) : S50000x64.Idx → EReal) (ix2 r k)
        = (Cert.ReferenceIdeal.Hand.res_main_v668 R : S50000x64.Idx → EReal) (ix2 r k))
    (hsrc : (B3 m ρ c (Proc.devRef .tc main_v5) : IVec S690000 32) = Cert.ReferenceIdeal.Hand.res_main_v5 R)
    (hdst : (B3 m ρ c (Proc.devRef .tc main_v6) : IVec S690000 32) = Cert.ReferenceIdeal.Hand.res_main_v6 R)
    (hnorm : (B3 m ρ c (Proc.devRef .tc main_v33) : S690000.Idx → EReal) = Cert.ReferenceIdeal.Hand.res_main_v33 R)
    (hW : (m ((c : Thread nD τ).loc main_arg14) : S32x64.Idx → EReal) = R (Proc.devRef .tc Cert.ReferenceIdeal.main_arg14))
    (hb : (m ((c : Thread nD τ).loc main_arg15) : S32.Idx → EReal) = R (Proc.devRef .tc Cert.ReferenceIdeal.main_arg15))
    (hg : (m ((c : Thread nD τ).loc main_arg24) : S32.Idx → EReal) = R (Proc.devRef .tc Cert.ReferenceIdeal.main_arg24))
    (hbe : (m ((c : Thread nD τ).loc main_arg25) : S32.Idx → EReal) = R (Proc.devRef .tc Cert.ReferenceIdeal.main_arg25))
    (how : (m ((c : Thread nD τ).loc main_arg26) : S32x1.Idx → EReal) = R (Proc.devRef .tc Cert.ReferenceIdeal.main_arg26))
    (r : Fin 50000) :
    (B101 m ρ c (Proc.devRef .tc main_v402) : S50000.Idx → EReal) (ix1 r)
      = (Cert.ReferenceIdeal.Hand.res_main_v718 R : S50000.Idx → EReal) (ix1 r) := by
  -- the convolutions: the aggregation plus the bias on one side, the named convolution on the other
  have hconv : ∀ (i : Fin 50000) (j : Fin 32),
      (B95 m ρ c (Proc.devRef .tc main_v391) : S50000x32.Idx → EReal) (ix2 i j)
          +ᵉ (m ((c : Thread nD τ).loc main_arg15) : S32.Idx → EReal) (ix1 j)
        = (Cert.ReferenceIdeal.Hand.res_main_v686 R : S50000x32.Idx → EReal) (ix2 i j) :=
    join_conv (N := 50000) (E := 690000) (Ci := 64) (Co := 32)
      (B92 m ρ c (Proc.devRef .tc main_v376)) (m ((c : Thread nD τ).loc main_arg14))
      (B94 m ρ c (Proc.devRef .tc main_v378)) (B95 m ρ c (Proc.devRef .tc main_v391))
      (m ((c : Thread nD τ).loc main_arg15))
      (B3 m ρ c (Proc.devRef .tc main_v5)) (B3 m ρ c (Proc.devRef .tc main_v6)) (B3 m ρ c (Proc.devRef .tc main_v33))
      scatter_S50000x32_S690000x1_S690000x32_1_0_0_1 gather_S50000x32_S690000x1_S690000x32_1_0_n_n_0_1_132
      bcast_S_S50000x32 bcast_S690000_S690000x1_0 bcast_S690000x1_S690000x32_0_1 bcast_S_S690000
      (Cert.ReferenceIdeal.Hand.res_main_v668 R) (R (Proc.devRef .tc Cert.ReferenceIdeal.main_arg14))
      (Cert.ReferenceIdeal.Hand.res_main_v670 R) (Cert.ReferenceIdeal.Hand.res_main_v683 R) (Cert.ReferenceIdeal.Hand.res_main_v686 R)
      (R (Proc.devRef .tc Cert.ReferenceIdeal.main_arg15))
      (Cert.ReferenceIdeal.Hand.res_main_v5 R) (Cert.ReferenceIdeal.Hand.res_main_v6 R) (Cert.ReferenceIdeal.Hand.res_main_v33 R)
      Cert.ReferenceIdeal.scatter_S50000x32_S690000x1_S690000x32_1_0_0_1 Cert.ReferenceIdeal.gather_S50000x32_S690000x1_S690000x32_1_0_n_n_0_1_132
      Cert.ReferenceIdeal.Gen.bcast_S_S50000x32 Cert.ReferenceIdeal.Gen.bcast_S690000_S690000x1_0 Cert.ReferenceIdeal.Gen.bcast_S690000x1_S690000x32_0_1
      Cert.ReferenceIdeal.Gen.bcast_S_S690000
      (k11_lin m ρ c) (k11_agg m ρ c) (Cert.Val.Ref.ref_lin_11 R) rfl (Cert.Val.Ref.ref_conv_11 R)
      rfl rfl hx hsrc hdst hnorm hW hb
  -- the activations
  have hS : (fun (i : Fin 50000) (j : Fin 32) => (B96 m ρ c (Proc.devRef .tc main_v393_0) : S50000x32.Idx → EReal) (ix2 i j))
      = fun (i : Fin 50000) (j : Fin 32) => (Cert.ReferenceIdeal.Hand.res_main_v697 R : S50000x32.Idx → EReal) (ix2 i j) :=
    funext fun i => funext fun j =>
      (k11_s m ρ c i j).trans
        ((congrArg (fun y => smOne y j) (funext fun j' => hconv i j')).trans (Cert.Val.Ref.ref_s R i j).symm)
  -- the result
  rw [k11_res, k11_out, hS, hg, hbe, how]
  exact (Cert.Val.Ref.ref_out R r).symm

end Cert.KernelIdeal.Hand

end
-- ==== Proof.Val.K0.lean ====
/-
  Layer 0 of the network on the kernel program's side, read at an index over the extended reals: the
  linear region's output as the product with the (host-transposed) weight, the aggregation as the host's
  gather / scale / scatter-add term, the first stage's outputs as the bias (and residual) sums, and the
  layer's activation as softmax_one of the batch-norm with the array's own column mean and variance — the
  column statistics assembled from the two accumulating regions and the host's divisions by the row count.
-/
import proofs.«408084_j48395691492010_3_alg».proof.Proof.KI.Args
import proofs.«408084_j48395691492010_3_alg».proof.Proof.Val.RegVal
import proofs.«408084_j48395691492010_3_alg».proof.Proof.Val.Carry
import proofs.«408084_j48395691492010_3_alg».proof.Proof.Val.SpecFn
import proofs.«408084_j48395691492010_3_alg».proof.Proof.Algebra
import Idealize.ShloMosaic.Lib.ValueIdx
import Idealize.ShloMosaic.Lib.ValueLayout
import Idealize.ShloMosaic.Lib.StableHlo
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Cert.Val
open scoped BigOperators

variable (m : (ℓ : Loc nD τ sig) → Buf (Elt Ideal) ℓ) (ρ : Dev nD → PrngReg) (c : Dev nD)

/- The extended reals' sum and product, named outright: an array's entry has the element type of its buffer,
   which unfolds to the extended reals but is not syntactically them. -/
local notation:65 a:65 " +ᵉ " b:66 => HAdd.hAdd (α := EReal) (β := EReal) (γ := EReal) a b
local notation:70 a:70 " *ᵉ " b:71 => HMul.hMul (α := EReal) (β := EReal) (γ := EReal) a b
local notation:50 a:51 " =ᵉ " b:51 => Eq (α := EReal) a b

/-! ## Layer 0 -/

set_option maxHeartbeats 4000000 in
theorem hread_v102 : B5 m ρ c (Proc.devRef .tc main_v102) = (transpose S4x64 [1, 0] (B4 m ρ c (Proc.devRef .tc main_arg6)) transposes_S64x4_S4x64_1_0) := by
  show StableHlo.after hostOps1 (B4 m ρ c) (Proc.devRef .tc main_v102) = _
  after_results_simp <;> rfl

theorem k0_Wt (k : Fin 4) (q : Fin 64) : (B5 m ρ c (Proc.devRef .tc main_v102) : S4x64.Idx → EReal) (ix2 k q) =ᵉ (m ((c : Thread nD τ).loc main_arg6) : S64x4.Idx → EReal) (ix2 q k) := by
  rw [hread_v102, transpose_ix2_apply, B4_isArg m ρ c main_arg6 (by decide)]

theorem hread_v117 : B7 m ρ c (Proc.devRef .tc main_v117) = (shapeCast S1x64 (B6 m ρ c (Proc.devRef .tc main_arg7)) shapeCasts_S64_S1x64) := by
  show StableHlo.after hostOps2 (B6 m ρ c) (Proc.devRef .tc main_v117) = _
  after_results <;> rfl

theorem k0_b (q : Fin 64) : (B7 m ρ c (Proc.devRef .tc main_v117) : S1x64.Idx → EReal) (ix2 0 q) =ᵉ (m ((c : Thread nD τ).loc main_arg7) : S64.Idx → EReal) (ix1 q) := by
  rw [hread_v117, shapeCast_a_1a_apply, B6_isArg m ρ c main_arg7 (by decide)]

theorem hread_v124 : B11 m ρ c (Proc.devRef .tc main_v124) = (shapeCast S1x64 (B10 m ρ c (Proc.devRef .tc main_arg16)) shapeCasts_S64_S1x64) := by
  show StableHlo.after hostOps4 (B10 m ρ c) (Proc.devRef .tc main_v124) = _
  after_results <;> rfl

theorem hread_v125 : B11 m ρ c (Proc.devRef .tc main_v125) = (shapeCast S1x64 (B10 m ρ c (Proc.devRef .tc main_arg17)) shapeCasts_S64_S1x64) := by
  show StableHlo.after hostOps4 (B10 m ρ c) (Proc.devRef .tc main_v125) = _
  after_results <;> rfl

theorem k0_g (q : Fin 64) : (B11 m ρ c (Proc.devRef .tc main_v124) : S1x64.Idx → EReal) (ix2 0 q) =ᵉ (m ((c : Thread nD τ).loc main_arg16) : S64.Idx → EReal) (ix1 q) := by
  rw [hread_v124, shapeCast_a_1a_apply, B10_isArg m ρ c main_arg16 (by decide)]

theorem k0_be (q : Fin 64) : (B11 m ρ c (Proc.devRef .tc main_v125) : S1x64.Idx → EReal) (ix2 0 q) =ᵉ (m ((c : Thread nD τ).loc main_arg17) : S64.Idx → EReal) (ix1 q) := by
  rw [hread_v125, shapeCast_a_1a_apply, B10_isArg m ρ c main_arg17 (by decide)]

set_option maxHeartbeats 4000000 in
theorem hread_v115 : B5 m ρ c (Proc.devRef .tc main_v115) = (Host.scatterAdd scatter_S50000x4_S690000x1_S690000x4_1_0_0_1 (broadcastInDim S50000x4 ![] bcast_S_S50000x4 (constant (F := Ideal) S_ .f32 0x00000000#32)) (broadcastInDim S690000x1 ![0] bcast_S690000_S690000x1_0 (B4 m ρ c (Proc.devRef .tc main_v6))) (mulf (broadcastInDim S690000x4 ![0, 1] bcast_S690000x1_S690000x4_0_1 (broadcastInDim S690000x1 ![0] bcast_S690000_S690000x1_0 (B4 m ρ c (Proc.devRef .tc main_v33)))) (Host.gather gather_S50000x4_S690000x1_S690000x4_1_0_n_n_0_1_14 (B4 m ρ c (Proc.devRef .tc main_v37)) (broadcastInDim S690000x1 ![0] bcast_S690000_S690000x1_0 (select (cmpi .slt (B4 m ρ c (Proc.devRef .tc main_v5)) (broadcastInDim S690000 ![] bcast_S_S690000 (constantI S_ 32 0#32))) (addi (B4 m ρ c (Proc.devRef .tc main_v5)) (broadcastInDim S690000 ![] bcast_S_S690000 (constantI S_ 32 50000#32))) (B4 m ρ c (Proc.devRef .tc main_v5))))))) := by
  show StableHlo.after hostOps1 (B4 m ρ c) (Proc.devRef .tc main_v115) = _
  after_results_simp <;> rfl

theorem k0_agg : B5 m ρ c (Proc.devRef .tc main_v115) = (Host.scatterAdd scatter_S50000x4_S690000x1_S690000x4_1_0_0_1 (broadcastInDim S50000x4 ![] bcast_S_S50000x4 (constant (F := Ideal) S_ .f32 0x00000000#32)) (broadcastInDim S690000x1 ![0] bcast_S690000_S690000x1_0 (B3 m ρ c (Proc.devRef .tc main_v6))) (mulf (broadcastInDim S690000x4 ![0, 1] bcast_S690000x1_S690000x4_0_1 (broadcastInDim S690000x1 ![0] bcast_S690000_S690000x1_0 (B3 m ρ c (Proc.devRef .tc main_v33)))) (Host.gather gather_S50000x4_S690000x1_S690000x4_1_0_n_n_0_1_14 (B4 m ρ c (Proc.devRef .tc main_v37)) (broadcastInDim S690000x1 ![0] bcast_S690000_S690000x1_0 (select (cmpi .slt (B3 m ρ c (Proc.devRef .tc main_v5)) (broadcastInDim S690000 ![] bcast_S_S690000 (constantI S_ 32 0#32))) (addi (B3 m ρ c (Proc.devRef .tc main_v5)) (broadcastInDim S690000 ![] bcast_S_S690000 (constantI S_ 32 50000#32))) (B3 m ρ c (Proc.devRef .tc main_v5))))))) := by
  rw [hread_v115, carry_v5_3_4 m ρ c, carry_v6_3_4 m ρ c, carry_v33_3_4 m ρ c]

theorem k0_lin (r : Fin 50000) (q : Fin 64) : (B6 m ρ c (Proc.devRef .tc main_v116) : S50000x64.Idx → EReal) (ix2 r q) =ᵉ ∑ k : Fin 4, (B5 m ρ c (Proc.devRef .tc main_v115) : S50000x4.Idx → EReal) (ix2 r k) *ᵉ (m ((c : Thread nD τ).loc main_arg6) : S64x4.Idx → EReal) (ix2 q k) := by
  rw [regval1]
  refine Finset.sum_congr rfl fun k _ => ?_
  rw [k0_Wt]

theorem k0_pre (r : Fin 50000) (q : Fin 64) : (B8 m ρ c (Proc.devRef .tc main_v118_0) : S50000x64.Idx → EReal) (ix2 r q) =ᵉ ((B7 m ρ c (Proc.devRef .tc main_v116) : S50000x64.Idx → EReal) (ix2 r q) +ᵉ (m ((c : Thread nD τ).loc main_arg7) : S64.Idx → EReal) (ix1 q)) := by
  rw [regval2_pre, k0_b]

theorem hread_v120 : B9 m ρ c (Proc.devRef .tc main_v120) = (Host.divf (B8 m ρ c (Proc.devRef .tc main_v118_1)) (broadcastInDim S1x64 ![] bcast_S_S1x64 (constant (F := Ideal) S_ .f32 0x47435000#32))) := by
  show StableHlo.after hostOps3 (B8 m ρ c) (Proc.devRef .tc main_v120) = _
  after_results <;> rfl

theorem k0_mean (j : Fin 64) : (B9 m ρ c (Proc.devRef .tc main_v120) : S1x64.Idx → EReal) (ix2 0 j) =ᵉ colMean (fun i j => (B8 m ρ c (Proc.devRef .tc main_v118_0) : S50000x64.Idx → EReal) (ix2 i j)) j := by
  rw [hread_v120]
  show Ideal.div ((B8 m ρ c (Proc.devRef .tc main_v118_1) : S1x64.Idx → EReal) (ix2 0 j)) cRows = _
  rw [regval2_sum']
  rfl

theorem hread_v123 : B11 m ρ c (Proc.devRef .tc main_v123) = (Host.divf (B10 m ρ c (Proc.devRef .tc main_v121)) (broadcastInDim S1x64 ![] bcast_S_S1x64 (constant (F := Ideal) S_ .f32 0x47435000#32))) := by
  show StableHlo.after hostOps4 (B10 m ρ c) (Proc.devRef .tc main_v123) = _
  after_results <;> rfl

theorem k0_var (j : Fin 64) : (B11 m ρ c (Proc.devRef .tc main_v123) : S1x64.Idx → EReal) (ix2 0 j) =ᵉ colVar (fun i j => (B8 m ρ c (Proc.devRef .tc main_v118_0) : S50000x64.Idx → EReal) (ix2 i j)) j := by
  rw [hread_v123]
  show Ideal.div ((B10 m ρ c (Proc.devRef .tc main_v121) : S1x64.Idx → EReal) (ix2 0 j)) cRows = _
  rw [regval3, carry_v118_0_8_9 m ρ c, show (fun j => (B9 m ρ c (Proc.devRef .tc main_v120) : S1x64.Idx → EReal) (ix2 0 j)) = colMean (fun i j => (B8 m ρ c (Proc.devRef .tc main_v118_0) : S50000x64.Idx → EReal) (ix2 i j)) from funext (k0_mean m ρ c)]
  rfl

theorem k0_act (r : Fin 50000) (q : Fin 64) : (B12 m ρ c (Proc.devRef .tc main_v126) : S50000x64.Idx → EReal) (ix2 r q)
    =ᵉ Cert.Val.act (fun i j => (B8 m ρ c (Proc.devRef .tc main_v118_0) : S50000x64.Idx → EReal) (ix2 i j)) (fun j => (m ((c : Thread nD τ).loc main_arg16) : S64.Idx → EReal) (ix1 j)) (fun j => (m ((c : Thread nD τ).loc main_arg17) : S64.Idx → EReal) (ix1 j)) r q := by
  rw [regval4, carry_v118_0_8_11 m ρ c, carry_v120_9_11 m ρ c,
    show (fun j => (B9 m ρ c (Proc.devRef .tc main_v120) : S1x64.Idx → EReal) (ix2 0 j)) = colMean (fun i j => (B8 m ρ c (Proc.devRef .tc main_v118_0) : S50000x64.Idx → EReal) (ix2 i j)) from funext (k0_mean m ρ c),
    show (fun j => (B11 m ρ c (Proc.devRef .tc main_v123) : S1x64.Idx → EReal) (ix2 0 j)) = colVar (fun i j => (B8 m ρ c (Proc.devRef .tc main_v118_0) : S50000x64.Idx → EReal) (ix2 i j)) from funext (k0_var m ρ c),
    show (fun j => (B11 m ρ c (Proc.devRef .tc main_v124) : S1x64.Idx → EReal) (ix2 0 j)) = (fun j => (m ((c : Thread nD τ).loc main_arg16) : S64.Idx → EReal) (ix1 j)) from funext (k0_g m ρ c),
    show (fun j => (B11 m ρ c (Proc.devRef .tc main_v125) : S1x64.Idx → EReal) (ix2 0 j)) = (fun j => (m ((c : Thread nD τ).loc main_arg17) : S64.Idx → EReal) (ix1 j)) from funext (k0_be m ρ c)]
  rfl

end Cert.KernelIdeal.Hand

end
-- ==== Proof.Val.K1.lean ====
/-
  Layer 1 of the network on the kernel program's side, read at an index over the extended reals: the
  linear region's output as the product with the (host-transposed) weight, the aggregation as the host's
  gather / scale / scatter-add term, the first stage's outputs as the bias (and residual) sums, and the
  layer's activation as softmax_one of the batch-norm with the array's own column mean and variance — the
  column statistics assembled from the two accumulating regions and the host's divisions by the row count.
-/
import proofs.«408084_j48395691492010_3_alg».proof.Proof.KI.Args
import proofs.«408084_j48395691492010_3_alg».proof.Proof.Val.RegVal
import proofs.«408084_j48395691492010_3_alg».proof.Proof.Val.Carry
import proofs.«408084_j48395691492010_3_alg».proof.Proof.Val.SpecFn
import proofs.«408084_j48395691492010_3_alg».proof.Proof.Algebra
import Idealize.ShloMosaic.Lib.ValueIdx
import Idealize.ShloMosaic.Lib.ValueLayout
import Idealize.ShloMosaic.Lib.StableHlo
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Cert.Val
open scoped BigOperators

variable (m : (ℓ : Loc nD τ sig) → Buf (Elt Ideal) ℓ) (ρ : Dev nD → PrngReg) (c : Dev nD)

/- The extended reals' sum and product, named outright: an array's entry has the element type of its buffer,
   which unfolds to the extended reals but is not syntactically them. -/
local notation:65 a:65 " +ᵉ " b:66 => HAdd.hAdd (α := EReal) (β := EReal) (γ := EReal) a b
local notation:70 a:70 " *ᵉ " b:71 => HMul.hMul (α := EReal) (β := EReal) (γ := EReal) a b
local notation:50 a:51 " =ᵉ " b:51 => Eq (α := EReal) a b

/-! ## Layer 1 -/

set_option maxHeartbeats 4000000 in
theorem hread_v127 : B13 m ρ c (Proc.devRef .tc main_v127) = (transpose S64x128 [1, 0] (B12 m ρ c (Proc.devRef .tc main_arg8)) transposes_S128x64_S64x128_1_0) := by
  show StableHlo.after hostOps5 (B12 m ρ c) (Proc.devRef .tc main_v127) = _
  after_results_simp <;> rfl

theorem k1_Wt (k : Fin 64) (q : Fin 128) : (B13 m ρ c (Proc.devRef .tc main_v127) : S64x128.Idx → EReal) (ix2 k q) =ᵉ (m ((c : Thread nD τ).loc main_arg8) : S128x64.Idx → EReal) (ix2 q k) := by
  rw [hread_v127, transpose_ix2_apply, B12_isArg m ρ c main_arg8 (by decide)]

theorem hread_v142 : B15 m ρ c (Proc.devRef .tc main_v142) = (shapeCast S1x128 (B14 m ρ c (Proc.devRef .tc main_arg9)) shapeCasts_S128_S1x128) := by
  show StableHlo.after hostOps6 (B14 m ρ c) (Proc.devRef .tc main_v142) = _
  after_results <;> rfl

theorem k1_b (q : Fin 128) : (B15 m ρ c (Proc.devRef .tc main_v142) : S1x128.Idx → EReal) (ix2 0 q) =ᵉ (m ((c : Thread nD τ).loc main_arg9) : S128.Idx → EReal) (ix1 q) := by
  rw [hread_v142, shapeCast_a_1a_apply, B14_isArg m ρ c main_arg9 (by decide)]

theorem hread_v149 : B19 m ρ c (Proc.devRef .tc main_v149) = (shapeCast S1x128 (B18 m ρ c (Proc.devRef .tc main_arg18)) shapeCasts_S128_S1x128) := by
  show StableHlo.after hostOps8 (B18 m ρ c) (Proc.devRef .tc main_v149) = _
  after_results <;> rfl

theorem hread_v150 : B19 m ρ c (Proc.devRef .tc main_v150) = (shapeCast S1x128 (B18 m ρ c (Proc.devRef .tc main_arg19)) shapeCasts_S128_S1x128) := by
  show StableHlo.after hostOps8 (B18 m ρ c) (Proc.devRef .tc main_v150) = _
  after_results <;> rfl

theorem k1_g (q : Fin 128) : (B19 m ρ c (Proc.devRef .tc main_v149) : S1x128.Idx → EReal) (ix2 0 q) =ᵉ (m ((c : Thread nD τ).loc main_arg18) : S128.Idx → EReal) (ix1 q) := by
  rw [hread_v149, shapeCast_a_1a_apply, B18_isArg m ρ c main_arg18 (by decide)]

theorem k1_be (q : Fin 128) : (B19 m ρ c (Proc.devRef .tc main_v150) : S1x128.Idx → EReal) (ix2 0 q) =ᵉ (m ((c : Thread nD τ).loc main_arg19) : S128.Idx → EReal) (ix1 q) := by
  rw [hread_v150, shapeCast_a_1a_apply, B18_isArg m ρ c main_arg19 (by decide)]

set_option maxHeartbeats 4000000 in
theorem hread_v140 : B13 m ρ c (Proc.devRef .tc main_v140) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B12 m ρ c (Proc.devRef .tc main_v6))) (mulf (broadcastInDim S690000x64 ![0, 1] bcast_S690000x1_S690000x64_0_1 (broadcastInDim S690000x1 ![0] bcast_S690000_S690000x1_0 (B12 m ρ c (Proc.devRef .tc main_v33)))) (Host.gather gather_S50000x64_S690000x1_S690000x64_1_0_n_n_0_1_164 (B12 m ρ c (Proc.devRef .tc main_v126)) (broadcastInDim S690000x1 ![0] bcast_S690000_S690000x1_0 (select (cmpi .slt (B12 m ρ c (Proc.devRef .tc main_v5)) (broadcastInDim S690000 ![] bcast_S_S690000 (constantI S_ 32 0#32))) (addi (B12 m ρ c (Proc.devRef .tc main_v5)) (broadcastInDim S690000 ![] bcast_S_S690000 (constantI S_ 32 50000#32))) (B12 m ρ c (Proc.devRef .tc main_v5))))))) := by
  show StableHlo.after hostOps5 (B12 m ρ c) (Proc.devRef .tc main_v140) = _
  after_results_simp <;> rfl

theorem k1_agg : B13 m ρ c (Proc.devRef .tc main_v140) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B3 m ρ c (Proc.devRef .tc main_v6))) (mulf (broadcastInDim S690000x64 ![0, 1] bcast_S690000x1_S690000x64_0_1 (broadcastInDim S690000x1 ![0] bcast_S690000_S690000x1_0 (B3 m ρ c (Proc.devRef .tc main_v33)))) (Host.gather gather_S50000x64_S690000x1_S690000x64_1_0_n_n_0_1_164 (B12 m ρ c (Proc.devRef .tc main_v126)) (broadcastInDim S690000x1 ![0] bcast_S690000_S690000x1_0 (select (cmpi .slt (B3 m ρ c (Proc.devRef .tc main_v5)) (broadcastInDim S690000 ![] bcast_S_S690000 (constantI S_ 32 0#32))) (addi (B3 m ρ c (Proc.devRef .tc main_v5)) (broadcastInDim S690000 ![] bcast_S_S690000 (constantI S_ 32 50000#32))) (B3 m ρ c (Proc.devRef .tc main_v5))))))) := by
  rw [hread_v140, carry_v5_3_12 m ρ c, carry_v6_3_12 m ρ c, carry_v33_3_12 m ρ c]

theorem k1_lin (r : Fin 50000) (q : Fin 128) : (B14 m ρ c (Proc.devRef .tc main_v141) : S50000x128.Idx → EReal) (ix2 r q) =ᵉ ∑ k : Fin 64, (B13 m ρ c (Proc.devRef .tc main_v140) : S50000x64.Idx → EReal) (ix2 r k) *ᵉ (m ((c : Thread nD τ).loc main_arg8) : S128x64.Idx → EReal) (ix2 q k) := by
  rw [regval5]
  refine Finset.sum_congr rfl fun k _ => ?_
  rw [k1_Wt]

theorem k1_pre (r : Fin 50000) (q : Fin 128) : (B16 m ρ c (Proc.devRef .tc main_v143_0) : S50000x128.Idx → EReal) (ix2 r q) =ᵉ ((B15 m ρ c (Proc.devRef .tc main_v141) : S50000x128.Idx → EReal) (ix2 r q) +ᵉ (m ((c : Thread nD τ).loc main_arg9) : S128.Idx → EReal) (ix1 q)) := by
  rw [regval6_pre, k1_b]

theorem hread_v145 : B17 m ρ c (Proc.devRef .tc main_v145) = (Host.divf (B16 m ρ c (Proc.devRef .tc main_v143_1)) (broadcastInDim S1x128 ![] bcast_S_S1x128 (constant (F := Ideal) S_ .f32 0x47435000#32))) := by
  show StableHlo.after hostOps7 (B16 m ρ c) (Proc.devRef .tc main_v145) = _
  after_results <;> rfl

theorem k1_mean (j : Fin 128) : (B17 m ρ c (Proc.devRef .tc main_v145) : S1x128.Idx → EReal) (ix2 0 j) =ᵉ colMean (fun i j => (B16 m ρ c (Proc.devRef .tc main_v143_0) : S50000x128.Idx → EReal) (ix2 i j)) j := by
  rw [hread_v145]
  show Ideal.div ((B16 m ρ c (Proc.devRef .tc main_v143_1) : S1x128.Idx → EReal) (ix2 0 j)) cRows = _
  rw [regval6_sum']
  rfl

theorem hread_v148 : B19 m ρ c (Proc.devRef .tc main_v148) = (Host.divf (B18 m ρ c (Proc.devRef .tc main_v146)) (broadcastInDim S1x128 ![] bcast_S_S1x128 (constant (F := Ideal) S_ .f32 0x47435000#32))) := by
  show StableHlo.after hostOps8 (B18 m ρ c) (Proc.devRef .tc main_v148) = _
  after_results <;> rfl

theorem k1_var (j : Fin 128) : (B19 m ρ c (Proc.devRef .tc main_v148) : S1x128.Idx → EReal) (ix2 0 j) =ᵉ colVar (fun i j => (B16 m ρ c (Proc.devRef .tc main_v143_0) : S50000x128.Idx → EReal) (ix2 i j)) j := by
  rw [hread_v148]
  show Ideal.div ((B18 m ρ c (Proc.devRef .tc main_v146) : S1x128.Idx → EReal) (ix2 0 j)) cRows = _
  rw [regval7, carry_v143_0_16_17 m ρ c, show (fun j => (B17 m ρ c (Proc.devRef .tc main_v145) : S1x128.Idx → EReal) (ix2 0 j)) = colMean (fun i j => (B16 m ρ c (Proc.devRef .tc main_v143_0) : S50000x128.Idx → EReal) (ix2 i j)) from funext (k1_mean m ρ c)]
  rfl

theorem k1_act (r : Fin 50000) (q : Fin 128) : (B20 m ρ c (Proc.devRef .tc main_v151) : S50000x128.Idx → EReal) (ix2 r q)
    =ᵉ Cert.Val.act (fun i j => (B16 m ρ c (Proc.devRef .tc main_v143_0) : S50000x128.Idx → EReal) (ix2 i j)) (fun j => (m ((c : Thread nD τ).loc main_arg18) : S128.Idx → EReal) (ix1 j)) (fun j => (m ((c : Thread nD τ).loc main_arg19) : S128.Idx → EReal) (ix1 j)) r q := by
  rw [regval8, carry_v143_0_16_19 m ρ c, carry_v145_17_19 m ρ c,
    show (fun j => (B17 m ρ c (Proc.devRef .tc main_v145) : S1x128.Idx → EReal) (ix2 0 j)) = colMean (fun i j => (B16 m ρ c (Proc.devRef .tc main_v143_0) : S50000x128.Idx → EReal) (ix2 i j)) from funext (k1_mean m ρ c),
    show (fun j => (B19 m ρ c (Proc.devRef .tc main_v148) : S1x128.Idx → EReal) (ix2 0 j)) = colVar (fun i j => (B16 m ρ c (Proc.devRef .tc main_v143_0) : S50000x128.Idx → EReal) (ix2 i j)) from funext (k1_var m ρ c),
    show (fun j => (B19 m ρ c (Proc.devRef .tc main_v149) : S1x128.Idx → EReal) (ix2 0 j)) = (fun j => (m ((c : Thread nD τ).loc main_arg18) : S128.Idx → EReal) (ix1 j)) from funext (k1_g m ρ c),
    show (fun j => (B19 m ρ c (Proc.devRef .tc main_v150) : S1x128.Idx → EReal) (ix2 0 j)) = (fun j => (m ((c : Thread nD τ).loc main_arg19) : S128.Idx → EReal) (ix1 j)) from funext (k1_be m ρ c)]
  rfl

end Cert.KernelIdeal.Hand

end
-- ==== Proof.Val.Join01.lean ====
/-
  The two aggregate-first layers (layers 0 and 1) of the network, joined across the two programs at an index,
  over the extended reals.

  In these two layers one program aggregates the layer's input over the graph's edges FIRST (gather the source
  rows, scale by the edge norm, scatter-add into the target rows) and multiplies by the transposed weight AFTER,
  while the other multiplies first and aggregates the product. Aggregation is linear in the table it aggregates, so
  the two agree when every entry of the input, the weight and the edge norms is a real number (a sum of products
  of reals distributes; an infinite entry could make one side's intermediate sum undefined where the other's is
  not). That is the law `Cert.Algebra.aggregate_first`, applied here with one program's shape records on its left
  and the other's on its right.

  Given equal inputs (the layer's input array, the graph's three arrays, weight, bias, scale and shift), the
  linear outputs agree, hence the sums with the bias, hence — both programs computing the same coordinate
  function `act` of that sum — the activations.
-/
import proofs.«408084_j48395691492010_3_alg».proof.Proof.Val.K0
import proofs.«408084_j48395691492010_3_alg».proof.Proof.Val.K1
import proofs.«408084_j48395691492010_3_alg».proof.Proof.Val.RefLayersA
import proofs.«408084_j48395691492010_3_alg».proof.Proof.Ref.Defs
import proofs.«408084_j48395691492010_3_alg».proof.Proof.Algebra
import Idealize.ShloMosaic.Lib.ValueIdx

set_option maxRecDepth 16384

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Cert.Val Cert.Spec
open scoped BigOperators

variable (m : (ℓ : Loc nD τ sig) → Buf (Elt Ideal) ℓ) (ρ : Dev nD → PrngReg) (c : Dev nD)
variable (R : Valuation Cert.ReferenceIdeal.τ Cert.ReferenceIdeal.sig (Elt Ideal))

/-! ## Layer 0 -/

/-- THE LINEAR OUTPUT OF LAYER 0: the product (by the transposed weight) of the aggregated input is the
    aggregation of the product. -/
theorem join0_lin
    (hx : (B4 m ρ c (Proc.devRef .tc main_v37) : S50000x4.Idx → EReal) = Cert.ReferenceIdeal.Hand.res_main_v40 R)
    (hsrc : (B3 m ρ c (Proc.devRef .tc main_v5) : S690000.Idx → BitVec 32) = Cert.ReferenceIdeal.Hand.res_main_v5 R)
    (hdst : (B3 m ρ c (Proc.devRef .tc main_v6) : S690000.Idx → BitVec 32) = Cert.ReferenceIdeal.Hand.res_main_v6 R)
    (hnorm : (B3 m ρ c (Proc.devRef .tc main_v33) : S690000.Idx → EReal) = Cert.ReferenceIdeal.Hand.res_main_v33 R)
    (hW : (m ((c : Thread nD τ).loc main_arg6) : S64x4.Idx → EReal) = R (Proc.devRef .tc Cert.ReferenceIdeal.main_arg6))
    (hXr : ∀ p, IsReal (Cert.ReferenceIdeal.Hand.res_main_v40 R p))
    (hWr : ∀ p, IsReal (transpose Cert.ReferenceIdeal.S4x64 [1, 0] (R (Proc.devRef .tc Cert.ReferenceIdeal.main_arg6))
      Cert.ReferenceIdeal.Facts₀.transposes_S64x4_S4x64_1_0 p))
    (hnr : ∀ p, IsReal (Cert.ReferenceIdeal.Hand.res_main_v33 R p))
    (r : Fin 50000) (q : Fin 64) :
    (B6 m ρ c (Proc.devRef .tc main_v116) : S50000x64.Idx → EReal) (ix2 r q)
      = Cert.ReferenceIdeal.Hand.res_main_v119 R (ix2 r q) := by
  rw [k0_lin m ρ c r q, k0_agg m ρ c, hx, hsrc, hdst, hnorm, hW]
  unfold Cert.ReferenceIdeal.Hand.res_main_v119 Cert.ReferenceIdeal.Hand.res_main_v107
    Cert.ReferenceIdeal.Hand.res_main_v109 Cert.ReferenceIdeal.Hand.res_main_v106
  refine Eq.trans (Finset.sum_congr (M := EReal) rfl fun k _ => ?_)
    (Cert.Algebra.aggregate_first (by decide)
      gather_S50000x4_S690000x1_S690000x4_1_0_n_n_0_1_14 rfl rfl rfl rfl rfl
      scatter_S50000x4_S690000x1_S690000x4_1_0_0_1 rfl rfl rfl rfl
      Cert.ReferenceIdeal.gather_S50000x64_S690000x1_S690000x64_1_0_n_n_0_1_164 rfl rfl rfl rfl rfl
      Cert.ReferenceIdeal.scatter_S50000x64_S690000x1_S690000x64_1_0_0_1 rfl rfl rfl rfl
      Cert.ReferenceIdeal.dot_S50000x4_S4x64_S50000x64_1_0_0_1_n_n rfl rfl rfl rfl rfl rfl
      bcast_S_S50000x4 Cert.ReferenceIdeal.Facts₀.bcast_S_S50000x64 bcast_S690000_S690000x1_0
      bcast_S690000x1_S690000x4_0_1 Cert.ReferenceIdeal.Facts₀.bcast_S690000x1_S690000x64_0_1 none
      (Cert.ReferenceIdeal.Hand.res_main_v40 R)
      (transpose Cert.ReferenceIdeal.S4x64 [1, 0] (R (Proc.devRef .tc Cert.ReferenceIdeal.main_arg6))
        Cert.ReferenceIdeal.Facts₀.transposes_S64x4_S4x64_1_0)
      (Cert.ReferenceIdeal.Hand.res_main_v33 R)
      (select (cmpi .slt (Cert.ReferenceIdeal.Hand.res_main_v5 R)
          (broadcastInDim Cert.ReferenceIdeal.S690000 ![] Cert.ReferenceIdeal.Facts₀.bcast_S_S690000 (constantI Cert.ReferenceIdeal.S_ 32 0#32)))
        (addi (Cert.ReferenceIdeal.Hand.res_main_v5 R)
          (broadcastInDim Cert.ReferenceIdeal.S690000 ![] Cert.ReferenceIdeal.Facts₀.bcast_S_S690000 (constantI Cert.ReferenceIdeal.S_ 32 50000#32)))
        (Cert.ReferenceIdeal.Hand.res_main_v5 R))
      (Cert.ReferenceIdeal.Hand.res_main_v6 R) hXr hWr hnr r q)
  rw [Cert.Algebra.transpose10_apply]

/-- Across the host stretch between the linear region and the first stage, the linear output is kept. -/
theorem carry_v116_6_7 : B7 m ρ c (Proc.devRef .tc main_v116) = B6 m ρ c (Proc.devRef .tc main_v116) :=
  keep_hostOps2_of_not_mem (B6 m ρ c) main_v116 (by decide)

/-- THE SUM WITH THE BIAS OF LAYER 0 (what the batch-norm normalises). -/
theorem join0_pre
    (hx : (B4 m ρ c (Proc.devRef .tc main_v37) : S50000x4.Idx → EReal) = Cert.ReferenceIdeal.Hand.res_main_v40 R)
    (hsrc : (B3 m ρ c (Proc.devRef .tc main_v5) : S690000.Idx → BitVec 32) = Cert.ReferenceIdeal.Hand.res_main_v5 R)
    (hdst : (B3 m ρ c (Proc.devRef .tc main_v6) : S690000.Idx → BitVec 32) = Cert.ReferenceIdeal.Hand.res_main_v6 R)
    (hnorm : (B3 m ρ c (Proc.devRef .tc main_v33) : S690000.Idx → EReal) = Cert.ReferenceIdeal.Hand.res_main_v33 R)
    (hW : (m ((c : Thread nD τ).loc main_arg6) : S64x4.Idx → EReal) = R (Proc.devRef .tc Cert.ReferenceIdeal.main_arg6))
    (hb : (m ((c : Thread nD τ).loc main_arg7) : S64.Idx → EReal) = R (Proc.devRef .tc Cert.ReferenceIdeal.main_arg7))
    (hXr : ∀ p, IsReal (Cert.ReferenceIdeal.Hand.res_main_v40 R p))
    (hWr : ∀ p, IsReal (transpose Cert.ReferenceIdeal.S4x64 [1, 0] (R (Proc.devRef .tc Cert.ReferenceIdeal.main_arg6))
      Cert.ReferenceIdeal.Facts₀.transposes_S64x4_S4x64_1_0 p))
    (hnr : ∀ p, IsReal (Cert.ReferenceIdeal.Hand.res_main_v33 R p))
    (r : Fin 50000) (q : Fin 64) :
    (B8 m ρ c (Proc.devRef .tc main_v118_0) : S50000x64.Idx → EReal) (ix2 r q)
      = Cert.ReferenceIdeal.Hand.res_main_v122 R (ix2 r q) := by
  rw [k0_pre m ρ c r q, carry_v116_6_7 m ρ c, join0_lin m ρ c R hx hsrc hdst hnorm hW hXr hWr hnr r q, hb]
  exact (Cert.Val.Ref.ref_conv_0 R r q).symm

/-- THE ACTIVATION OF LAYER 0 at an entry. -/
theorem join0
    (hx : (B4 m ρ c (Proc.devRef .tc main_v37) : S50000x4.Idx → EReal) = Cert.ReferenceIdeal.Hand.res_main_v40 R)
    (hsrc : (B3 m ρ c (Proc.devRef .tc main_v5) : S690000.Idx → BitVec 32) = Cert.ReferenceIdeal.Hand.res_main_v5 R)
    (hdst : (B3 m ρ c (Proc.devRef .tc main_v6) : S690000.Idx → BitVec 32) = Cert.ReferenceIdeal.Hand.res_main_v6 R)
    (hnorm : (B3 m ρ c (Proc.devRef .tc main_v33) : S690000.Idx → EReal) = Cert.ReferenceIdeal.Hand.res_main_v33 R)
    (hW : (m ((c : Thread nD τ).loc main_arg6) : S64x4.Idx → EReal) = R (Proc.devRef .tc Cert.ReferenceIdeal.main_arg6))
    (hb : (m ((c : Thread nD τ).loc main_arg7) : S64.Idx → EReal) = R (Proc.devRef .tc Cert.ReferenceIdeal.main_arg7))
    (hg : (m ((c : Thread nD τ).loc main_arg16) : S64.Idx → EReal) = R (Proc.devRef .tc Cert.ReferenceIdeal.main_arg16))
    (hbe : (m ((c : Thread nD τ).loc main_arg17) : S64.Idx → EReal) = R (Proc.devRef .tc Cert.ReferenceIdeal.main_arg17))
    (hXr : ∀ p, IsReal (Cert.ReferenceIdeal.Hand.res_main_v40 R p))
    (hWr : ∀ p, IsReal (transpose Cert.ReferenceIdeal.S4x64 [1, 0] (R (Proc.devRef .tc Cert.ReferenceIdeal.main_arg6))
      Cert.ReferenceIdeal.Facts₀.transposes_S64x4_S4x64_1_0 p))
    (hnr : ∀ p, IsReal (Cert.ReferenceIdeal.Hand.res_main_v33 R p))
    (r : Fin 50000) (q : Fin 64) :
    (B12 m ρ c (Proc.devRef .tc main_v126) : S50000x64.Idx → EReal) (ix2 r q)
      = Cert.ReferenceIdeal.Hand.res_main_v152 R (ix2 r q) := by
  rw [k0_act m ρ c r q,
    show (fun i j => (B8 m ρ c (Proc.devRef .tc main_v118_0) : S50000x64.Idx → EReal) (ix2 i j))
        = (fun i j => Cert.ReferenceIdeal.Hand.res_main_v122 R (ix2 i j)) from
      funext fun i => funext fun j => join0_pre m ρ c R hx hsrc hdst hnorm hW hb hXr hWr hnr i j,
    hg, hbe]
  exact (Cert.Val.Ref.ref_act_0 R r q).symm

/-- The activation of layer 0 as a whole array. -/
theorem join0_arr
    (hx : (B4 m ρ c (Proc.devRef .tc main_v37) : S50000x4.Idx → EReal) = Cert.ReferenceIdeal.Hand.res_main_v40 R)
    (hsrc : (B3 m ρ c (Proc.devRef .tc main_v5) : S690000.Idx → BitVec 32) = Cert.ReferenceIdeal.Hand.res_main_v5 R)
    (hdst : (B3 m ρ c (Proc.devRef .tc main_v6) : S690000.Idx → BitVec 32) = Cert.ReferenceIdeal.Hand.res_main_v6 R)
    (hnorm : (B3 m ρ c (Proc.devRef .tc main_v33) : S690000.Idx → EReal) = Cert.ReferenceIdeal.Hand.res_main_v33 R)
    (hW : (m ((c : Thread nD τ).loc main_arg6) : S64x4.Idx → EReal) = R (Proc.devRef .tc Cert.ReferenceIdeal.main_arg6))
    (hb : (m ((c : Thread nD τ).loc main_arg7) : S64.Idx → EReal) = R (Proc.devRef .tc Cert.ReferenceIdeal.main_arg7))
    (hg : (m ((c : Thread nD τ).loc main_arg16) : S64.Idx → EReal) = R (Proc.devRef .tc Cert.ReferenceIdeal.main_arg16))
    (hbe : (m ((c : Thread nD τ).loc main_arg17) : S64.Idx → EReal) = R (Proc.devRef .tc Cert.ReferenceIdeal.main_arg17))
    (hXr : ∀ p, IsReal (Cert.ReferenceIdeal.Hand.res_main_v40 R p))
    (hWr : ∀ p, IsReal (transpose Cert.ReferenceIdeal.S4x64 [1, 0] (R (Proc.devRef .tc Cert.ReferenceIdeal.main_arg6))
      Cert.ReferenceIdeal.Facts₀.transposes_S64x4_S4x64_1_0 p))
    (hnr : ∀ p, IsReal (Cert.ReferenceIdeal.Hand.res_main_v33 R p)) :
    (B12 m ρ c (Proc.devRef .tc main_v126) : S50000x64.Idx → EReal) = Cert.ReferenceIdeal.Hand.res_main_v152 R := by
  funext p
  rw [eq_ix2 p]
  exact join0 m ρ c R hx hsrc hdst hnorm hW hb hg hbe hXr hWr hnr (p 0) (p 1)

/-! ## Layer 1 -/

/-- THE LINEAR OUTPUT OF LAYER 1. -/
theorem join1_lin
    (hin : (B12 m ρ c (Proc.devRef .tc main_v126) : S50000x64.Idx → EReal) = Cert.ReferenceIdeal.Hand.res_main_v152 R)
    (hsrc : (B3 m ρ c (Proc.devRef .tc main_v5) : S690000.Idx → BitVec 32) = Cert.ReferenceIdeal.Hand.res_main_v5 R)
    (hdst : (B3 m ρ c (Proc.devRef .tc main_v6) : S690000.Idx → BitVec 32) = Cert.ReferenceIdeal.Hand.res_main_v6 R)
    (hnorm : (B3 m ρ c (Proc.devRef .tc main_v33) : S690000.Idx → EReal) = Cert.ReferenceIdeal.Hand.res_main_v33 R)
    (hW : (m ((c : Thread nD τ).loc main_arg8) : S128x64.Idx → EReal) = R (Proc.devRef .tc Cert.ReferenceIdeal.main_arg8))
    (hXr : ∀ p, IsReal (Cert.ReferenceIdeal.Hand.res_main_v152 R p))
    (hWr : ∀ p, IsReal (transpose Cert.ReferenceIdeal.S64x128 [1, 0] (R (Proc.devRef .tc Cert.ReferenceIdeal.main_arg8))
      Cert.ReferenceIdeal.Facts₀.transposes_S128x64_S64x128_1_0 p))
    (hnr : ∀ p, IsReal (Cert.ReferenceIdeal.Hand.res_main_v33 R p))
    (r : Fin 50000) (q : Fin 128) :
    (B14 m ρ c (Proc.devRef .tc main_v141) : S50000x128.Idx → EReal) (ix2 r q)
      = Cert.ReferenceIdeal.Hand.res_main_v167 R (ix2 r q) := by
  rw [k1_lin m ρ c r q, k1_agg m ρ c, hin, hsrc, hdst, hnorm, hW]
  unfold Cert.ReferenceIdeal.Hand.res_main_v167 Cert.ReferenceIdeal.Hand.res_main_v155
    Cert.ReferenceIdeal.Hand.res_main_v157 Cert.ReferenceIdeal.Hand.res_main_v158 Cert.ReferenceIdeal.Hand.res_main_v154
  refine Eq.trans (Finset.sum_congr (M := EReal) rfl fun k _ => ?_)
    (Cert.Algebra.aggregate_first (by decide)
      gather_S50000x64_S690000x1_S690000x64_1_0_n_n_0_1_164 rfl rfl rfl rfl rfl
      scatter_S50000x64_S690000x1_S690000x64_1_0_0_1 rfl rfl rfl rfl
      Cert.ReferenceIdeal.gather_S50000x128_S690000x1_S690000x128_1_0_n_n_0_1_1128 rfl rfl rfl rfl rfl
      Cert.ReferenceIdeal.scatter_S50000x128_S690000x1_S690000x128_1_0_0_1 rfl rfl rfl rfl
      Cert.ReferenceIdeal.dot_S50000x64_S64x128_S50000x128_1_0_0_1_n_n rfl rfl rfl rfl rfl rfl
      bcast_S_S50000x64 Cert.ReferenceIdeal.Facts₀.bcast_S_S50000x128 bcast_S690000_S690000x1_0
      bcast_S690000x1_S690000x64_0_1 Cert.ReferenceIdeal.Facts₀.bcast_S690000x1_S690000x128_0_1 none
      (Cert.ReferenceIdeal.Hand.res_main_v152 R)
      (transpose Cert.ReferenceIdeal.S64x128 [1, 0] (R (Proc.devRef .tc Cert.ReferenceIdeal.main_arg8))
        Cert.ReferenceIdeal.Facts₀.transposes_S128x64_S64x128_1_0)
      (Cert.ReferenceIdeal.Hand.res_main_v33 R)
      (select (cmpi .slt (Cert.ReferenceIdeal.Hand.res_main_v5 R)
          (broadcastInDim Cert.ReferenceIdeal.S690000 ![] Cert.ReferenceIdeal.Facts₀.bcast_S_S690000 (constantI Cert.ReferenceIdeal.S_ 32 0#32)))
        (addi (Cert.ReferenceIdeal.Hand.res_main_v5 R)
          (broadcastInDim Cert.ReferenceIdeal.S690000 ![] Cert.ReferenceIdeal.Facts₀.bcast_S_S690000 (constantI Cert.ReferenceIdeal.S_ 32 50000#32)))
        (Cert.ReferenceIdeal.Hand.res_main_v5 R))
      (Cert.ReferenceIdeal.Hand.res_main_v6 R) hXr hWr hnr r q)
  rw [Cert.Algebra.transpose10_apply]

/-- Across the host stretch between the linear region and the first stage, the linear output is kept. -/
theorem carry_v141_14_15 : B15 m ρ c (Proc.devRef .tc main_v141) = B14 m ρ c (Proc.devRef .tc main_v141) :=
  keep_hostOps6_of_not_mem (B14 m ρ c) main_v141 (by decide)

/-- THE SUM WITH THE BIAS OF LAYER 1. -/
theorem join1_pre
    (hin : (B12 m ρ c (Proc.devRef .tc main_v126) : S50000x64.Idx → EReal) = Cert.ReferenceIdeal.Hand.res_main_v152 R)
    (hsrc : (B3 m ρ c (Proc.devRef .tc main_v5) : S690000.Idx → BitVec 32) = Cert.ReferenceIdeal.Hand.res_main_v5 R)
    (hdst : (B3 m ρ c (Proc.devRef .tc main_v6) : S690000.Idx → BitVec 32) = Cert.ReferenceIdeal.Hand.res_main_v6 R)
    (hnorm : (B3 m ρ c (Proc.devRef .tc main_v33) : S690000.Idx → EReal) = Cert.ReferenceIdeal.Hand.res_main_v33 R)
    (hW : (m ((c : Thread nD τ).loc main_arg8) : S128x64.Idx → EReal) = R (Proc.devRef .tc Cert.ReferenceIdeal.main_arg8))
    (hb : (m ((c : Thread nD τ).loc main_arg9) : S128.Idx → EReal) = R (Proc.devRef .tc Cert.ReferenceIdeal.main_arg9))
    (hXr : ∀ p, IsReal (Cert.ReferenceIdeal.Hand.res_main_v152 R p))
    (hWr : ∀ p, IsReal (transpose Cert.ReferenceIdeal.S64x128 [1, 0] (R (Proc.devRef .tc Cert.ReferenceIdeal.main_arg8))
      Cert.ReferenceIdeal.Facts₀.transposes_S128x64_S64x128_1_0 p))
    (hnr : ∀ p, IsReal (Cert.ReferenceIdeal.Hand.res_main_v33 R p))
    (r : Fin 50000) (q : Fin 128) :
    (B16 m ρ c (Proc.devRef .tc main_v143_0) : S50000x128.Idx → EReal) (ix2 r q)
      = Cert.ReferenceIdeal.Hand.res_main_v170 R (ix2 r q) := by
  rw [k1_pre m ρ c r q, carry_v141_14_15 m ρ c, join1_lin m ρ c R hin hsrc hdst hnorm hW hXr hWr hnr r q, hb]
  exact (Cert.Val.Ref.ref_conv_1 R r q).symm

/-- THE ACTIVATION OF LAYER 1 at an entry. -/
theorem join1
    (hin : (B12 m ρ c (Proc.devRef .tc main_v126) : S50000x64.Idx → EReal) = Cert.ReferenceIdeal.Hand.res_main_v152 R)
    (hsrc : (B3 m ρ c (Proc.devRef .tc main_v5) : S690000.Idx → BitVec 32) = Cert.ReferenceIdeal.Hand.res_main_v5 R)
    (hdst : (B3 m ρ c (Proc.devRef .tc main_v6) : S690000.Idx → BitVec 32) = Cert.ReferenceIdeal.Hand.res_main_v6 R)
    (hnorm : (B3 m ρ c (Proc.devRef .tc main_v33) : S690000.Idx → EReal) = Cert.ReferenceIdeal.Hand.res_main_v33 R)
    (hW : (m ((c : Thread nD τ).loc main_arg8) : S128x64.Idx → EReal) = R (Proc.devRef .tc Cert.ReferenceIdeal.main_arg8))
    (hb : (m ((c : Thread nD τ).loc main_arg9) : S128.Idx → EReal) = R (Proc.devRef .tc Cert.ReferenceIdeal.main_arg9))
    (hg : (m ((c : Thread nD τ).loc main_arg18) : S128.Idx → EReal) = R (Proc.devRef .tc Cert.ReferenceIdeal.main_arg18))
    (hbe : (m ((c : Thread nD τ).loc main_arg19) : S128.Idx → EReal) = R (Proc.devRef .tc Cert.ReferenceIdeal.main_arg19))
    (hXr : ∀ p, IsReal (Cert.ReferenceIdeal.Hand.res_main_v152 R p))
    (hWr : ∀ p, IsReal (transpose Cert.ReferenceIdeal.S64x128 [1, 0] (R (Proc.devRef .tc Cert.ReferenceIdeal.main_arg8))
      Cert.ReferenceIdeal.Facts₀.transposes_S128x64_S64x128_1_0 p))
    (hnr : ∀ p, IsReal (Cert.ReferenceIdeal.Hand.res_main_v33 R p))
    (r : Fin 50000) (q : Fin 128) :
    (B20 m ρ c (Proc.devRef .tc main_v151) : S50000x128.Idx → EReal) (ix2 r q)
      = Cert.ReferenceIdeal.Hand.res_main_v200 R (ix2 r q) := by
  rw [k1_act m ρ c r q,
    show (fun i j => (B16 m ρ c (Proc.devRef .tc main_v143_0) : S50000x128.Idx → EReal) (ix2 i j))
        = (fun i j => Cert.ReferenceIdeal.Hand.res_main_v170 R (ix2 i j)) from
      funext fun i => funext fun j => join1_pre m ρ c R hin hsrc hdst hnorm hW hb hXr hWr hnr i j,
    hg, hbe]
  exact (Cert.Val.Ref.ref_act_1 R r q).symm

/-- The activation of layer 1 as a whole array. -/
theorem join1_arr
    (hin : (B12 m ρ c (Proc.devRef .tc main_v126) : S50000x64.Idx → EReal) = Cert.ReferenceIdeal.Hand.res_main_v152 R)
    (hsrc : (B3 m ρ c (Proc.devRef .tc main_v5) : S690000.Idx → BitVec 32) = Cert.ReferenceIdeal.Hand.res_main_v5 R)
    (hdst : (B3 m ρ c (Proc.devRef .tc main_v6) : S690000.Idx → BitVec 32) = Cert.ReferenceIdeal.Hand.res_main_v6 R)
    (hnorm : (B3 m ρ c (Proc.devRef .tc main_v33) : S690000.Idx → EReal) = Cert.ReferenceIdeal.Hand.res_main_v33 R)
    (hW : (m ((c : Thread nD τ).loc main_arg8) : S128x64.Idx → EReal) = R (Proc.devRef .tc Cert.ReferenceIdeal.main_arg8))
    (hb : (m ((c : Thread nD τ).loc main_arg9) : S128.Idx → EReal) = R (Proc.devRef .tc Cert.ReferenceIdeal.main_arg9))
    (hg : (m ((c : Thread nD τ).loc main_arg18) : S128.Idx → EReal) = R (Proc.devRef .tc Cert.ReferenceIdeal.main_arg18))
    (hbe : (m ((c : Thread nD τ).loc main_arg19) : S128.Idx → EReal) = R (Proc.devRef .tc Cert.ReferenceIdeal.main_arg19))
    (hXr : ∀ p, IsReal (Cert.ReferenceIdeal.Hand.res_main_v152 R p))
    (hWr : ∀ p, IsReal (transpose Cert.ReferenceIdeal.S64x128 [1, 0] (R (Proc.devRef .tc Cert.ReferenceIdeal.main_arg8))
      Cert.ReferenceIdeal.Facts₀.transposes_S128x64_S64x128_1_0 p))
    (hnr : ∀ p, IsReal (Cert.ReferenceIdeal.Hand.res_main_v33 R p)) :
    (B20 m ρ c (Proc.devRef .tc main_v151) : S50000x128.Idx → EReal) = Cert.ReferenceIdeal.Hand.res_main_v200 R := by
  funext p
  rw [eq_ix2 p]
  exact join1 m ρ c R hin hsrc hdst hnorm hW hb hg hbe hXr hWr hnr (p 0) (p 1)

end Cert.KernelIdeal.Hand
-- ==== Proof.Val.K2.lean ====
/-
  Layer 2 of the network on the kernel program's side, read at an index over the extended reals: the
  linear region's output as the product with the (host-transposed) weight, the aggregation as the host's
  gather / scale / scatter-add term, the first stage's outputs as the bias (and residual) sums, and the
  layer's activation as softmax_one of the batch-norm with the array's own column mean and variance — the
  column statistics assembled from the two accumulating regions and the host's divisions by the row count.
-/
import proofs.«408084_j48395691492010_3_alg».proof.Proof.KI.Args
import proofs.«408084_j48395691492010_3_alg».proof.Proof.Val.RegVal
import proofs.«408084_j48395691492010_3_alg».proof.Proof.Val.Carry
import proofs.«408084_j48395691492010_3_alg».proof.Proof.Val.SpecFn
import proofs.«408084_j48395691492010_3_alg».proof.Proof.Algebra
import Idealize.ShloMosaic.Lib.ValueIdx
import Idealize.ShloMosaic.Lib.ValueLayout
import Idealize.ShloMosaic.Lib.StableHlo
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Cert.Val
open scoped BigOperators

variable (m : (ℓ : Loc nD τ sig) → Buf (Elt Ideal) ℓ) (ρ : Dev nD → PrngReg) (c : Dev nD)

/- The extended reals' sum and product, named outright: an array's entry has the element type of its buffer,
   which unfolds to the extended reals but is not syntactically them. -/
local notation:65 a:65 " +ᵉ " b:66 => HAdd.hAdd (α := EReal) (β := EReal) (γ := EReal) a b
local notation:70 a:70 " *ᵉ " b:71 => HMul.hMul (α := EReal) (β := EReal) (γ := EReal) a b
local notation:50 a:51 " =ᵉ " b:51 => Eq (α := EReal) a b

/-! ## Layer 2 -/

theorem hread_v152 : B21 m ρ c (Proc.devRef .tc main_v152) = (transpose S128x64 [1, 0] (B20 m ρ c (Proc.devRef .tc main_arg10)) transposes_S64x128_S128x64_1_0) := by
  show StableHlo.after hostOps9 (B20 m ρ c) (Proc.devRef .tc main_v152) = _
  after_results <;> rfl

theorem k2_Wt (k : Fin 128) (q : Fin 64) : (B21 m ρ c (Proc.devRef .tc main_v152) : S128x64.Idx → EReal) (ix2 k q) =ᵉ (m ((c : Thread nD τ).loc main_arg10) : S64x128.Idx → EReal) (ix2 q k) := by
  rw [hread_v152, transpose_ix2_apply, B20_isArg m ρ c main_arg10 (by decide)]

set_option maxHeartbeats 4000000 in
theorem hread_v167 : B23 m ρ c (Proc.devRef .tc main_v167) = (shapeCast S1x64 (B22 m ρ c (Proc.devRef .tc main_arg11)) shapeCasts_S64_S1x64) := by
  show StableHlo.after hostOps10 (B22 m ρ c) (Proc.devRef .tc main_v167) = _
  after_results_simp <;> rfl

theorem k2_b (q : Fin 64) : (B23 m ρ c (Proc.devRef .tc main_v167) : S1x64.Idx → EReal) (ix2 0 q) =ᵉ (m ((c : Thread nD τ).loc main_arg11) : S64.Idx → EReal) (ix1 q) := by
  rw [hread_v167, shapeCast_a_1a_apply, B22_isArg m ρ c main_arg11 (by decide)]

theorem hread_v174 : B27 m ρ c (Proc.devRef .tc main_v174) = (shapeCast S1x64 (B26 m ρ c (Proc.devRef .tc main_arg20)) shapeCasts_S64_S1x64) := by
  show StableHlo.after hostOps12 (B26 m ρ c) (Proc.devRef .tc main_v174) = _
  after_results <;> rfl

theorem hread_v175 : B27 m ρ c (Proc.devRef .tc main_v175) = (shapeCast S1x64 (B26 m ρ c (Proc.devRef .tc main_arg21)) shapeCasts_S64_S1x64) := by
  show StableHlo.after hostOps12 (B26 m ρ c) (Proc.devRef .tc main_v175) = _
  after_results <;> rfl

theorem k2_g (q : Fin 64) : (B27 m ρ c (Proc.devRef .tc main_v174) : S1x64.Idx → EReal) (ix2 0 q) =ᵉ (m ((c : Thread nD τ).loc main_arg20) : S64.Idx → EReal) (ix1 q) := by
  rw [hread_v174, shapeCast_a_1a_apply, B26_isArg m ρ c main_arg20 (by decide)]

theorem k2_be (q : Fin 64) : (B27 m ρ c (Proc.devRef .tc main_v175) : S1x64.Idx → EReal) (ix2 0 q) =ᵉ (m ((c : Thread nD τ).loc main_arg21) : S64.Idx → EReal) (ix1 q) := by
  rw [hread_v175, shapeCast_a_1a_apply, B26_isArg m ρ c main_arg21 (by decide)]

set_option maxHeartbeats 4000000 in
theorem hread_v166 : B23 m ρ c (Proc.devRef .tc main_v166) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B22 m ρ c (Proc.devRef .tc main_v6))) (mulf (broadcastInDim S690000x64 ![0, 1] bcast_S690000x1_S690000x64_0_1 (broadcastInDim S690000x1 ![0] bcast_S690000_S690000x1_0 (B22 m ρ c (Proc.devRef .tc main_v33)))) (Host.gather gather_S50000x64_S690000x1_S690000x64_1_0_n_n_0_1_164 (B22 m ρ c (Proc.devRef .tc main_v153)) (broadcastInDim S690000x1 ![0] bcast_S690000_S690000x1_0 (select (cmpi .slt (B22 m ρ c (Proc.devRef .tc main_v5)) (broadcastInDim S690000 ![] bcast_S_S690000 (constantI S_ 32 0#32))) (addi (B22 m ρ c (Proc.devRef .tc main_v5)) (broadcastInDim S690000 ![] bcast_S_S690000 (constantI S_ 32 50000#32))) (B22 m ρ c (Proc.devRef .tc main_v5))))))) := by
  show StableHlo.after hostOps10 (B22 m ρ c) (Proc.devRef .tc main_v166) = _
  after_results_simp <;> rfl

theorem k2_agg : B23 m ρ c (Proc.devRef .tc main_v166) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B3 m ρ c (Proc.devRef .tc main_v6))) (mulf (broadcastInDim S690000x64 ![0, 1] bcast_S690000x1_S690000x64_0_1 (broadcastInDim S690000x1 ![0] bcast_S690000_S690000x1_0 (B3 m ρ c (Proc.devRef .tc main_v33)))) (Host.gather gather_S50000x64_S690000x1_S690000x64_1_0_n_n_0_1_164 (B22 m ρ c (Proc.devRef .tc main_v153)) (broadcastInDim S690000x1 ![0] bcast_S690000_S690000x1_0 (select (cmpi .slt (B3 m ρ c (Proc.devRef .tc main_v5)) (broadcastInDim S690000 ![] bcast_S_S690000 (constantI S_ 32 0#32))) (addi (B3 m ρ c (Proc.devRef .tc main_v5)) (broadcastInDim S690000 ![] bcast_S_S690000 (constantI S_ 32 50000#32))) (B3 m ρ c (Proc.devRef .tc main_v5))))))) := by
  rw [hread_v166, carry_v5_3_22 m ρ c, carry_v6_3_22 m ρ c, carry_v33_3_22 m ρ c]

theorem k2_lin (r : Fin 50000) (q : Fin 64) : (B22 m ρ c (Proc.devRef .tc main_v153) : S50000x64.Idx → EReal) (ix2 r q) =ᵉ ∑ k : Fin 128, (B20 m ρ c (Proc.devRef .tc main_v151) : S50000x128.Idx → EReal) (ix2 r k) *ᵉ (m ((c : Thread nD τ).loc main_arg10) : S64x128.Idx → EReal) (ix2 q k) := by
  rw [regval9]
  refine Finset.sum_congr rfl fun k _ => ?_
  rw [k2_Wt, carry_v151_20_21 m ρ c]

theorem k2_pre (r : Fin 50000) (q : Fin 64) : (B24 m ρ c (Proc.devRef .tc main_v168_0) : S50000x64.Idx → EReal) (ix2 r q) =ᵉ ((B23 m ρ c (Proc.devRef .tc main_v166) : S50000x64.Idx → EReal) (ix2 r q) +ᵉ (m ((c : Thread nD τ).loc main_arg11) : S64.Idx → EReal) (ix1 q)) := by
  rw [regval10_pre, k2_b]

theorem k2_cum (r : Fin 50000) (q : Fin 64) : (B24 m ρ c (Proc.devRef .tc main_v168_1) : S50000x64.Idx → EReal) (ix2 r q) =ᵉ ((B23 m ρ c (Proc.devRef .tc main_v166) : S50000x64.Idx → EReal) (ix2 r q) +ᵉ (m ((c : Thread nD τ).loc main_arg11) : S64.Idx → EReal) (ix1 q)) := by
  rw [regval10_cum, k2_b]

theorem hread_v170 : B25 m ρ c (Proc.devRef .tc main_v170) = (Host.divf (B24 m ρ c (Proc.devRef .tc main_v168_2)) (broadcastInDim S1x64 ![] bcast_S_S1x64 (constant (F := Ideal) S_ .f32 0x47435000#32))) := by
  show StableHlo.after hostOps11 (B24 m ρ c) (Proc.devRef .tc main_v170) = _
  after_results <;> rfl

theorem k2_mean (j : Fin 64) : (B25 m ρ c (Proc.devRef .tc main_v170) : S1x64.Idx → EReal) (ix2 0 j) =ᵉ colMean (fun i j => (B24 m ρ c (Proc.devRef .tc main_v168_0) : S50000x64.Idx → EReal) (ix2 i j)) j := by
  rw [hread_v170]
  show Ideal.div ((B24 m ρ c (Proc.devRef .tc main_v168_2) : S1x64.Idx → EReal) (ix2 0 j)) cRows = _
  rw [regval10_sum']
  rfl

theorem hread_v173 : B27 m ρ c (Proc.devRef .tc main_v173) = (Host.divf (B26 m ρ c (Proc.devRef .tc main_v171)) (broadcastInDim S1x64 ![] bcast_S_S1x64 (constant (F := Ideal) S_ .f32 0x47435000#32))) := by
  show StableHlo.after hostOps12 (B26 m ρ c) (Proc.devRef .tc main_v173) = _
  after_results <;> rfl

theorem k2_var (j : Fin 64) : (B27 m ρ c (Proc.devRef .tc main_v173) : S1x64.Idx → EReal) (ix2 0 j) =ᵉ colVar (fun i j => (B24 m ρ c (Proc.devRef .tc main_v168_0) : S50000x64.Idx → EReal) (ix2 i j)) j := by
  rw [hread_v173]
  show Ideal.div ((B26 m ρ c (Proc.devRef .tc main_v171) : S1x64.Idx → EReal) (ix2 0 j)) cRows = _
  rw [regval11, carry_v168_0_24_25 m ρ c, show (fun j => (B25 m ρ c (Proc.devRef .tc main_v170) : S1x64.Idx → EReal) (ix2 0 j)) = colMean (fun i j => (B24 m ρ c (Proc.devRef .tc main_v168_0) : S50000x64.Idx → EReal) (ix2 i j)) from funext (k2_mean m ρ c)]
  rfl

theorem k2_act (r : Fin 50000) (q : Fin 64) : (B28 m ρ c (Proc.devRef .tc main_v176) : S50000x64.Idx → EReal) (ix2 r q)
    =ᵉ Cert.Val.act (fun i j => (B24 m ρ c (Proc.devRef .tc main_v168_0) : S50000x64.Idx → EReal) (ix2 i j)) (fun j => (m ((c : Thread nD τ).loc main_arg20) : S64.Idx → EReal) (ix1 j)) (fun j => (m ((c : Thread nD τ).loc main_arg21) : S64.Idx → EReal) (ix1 j)) r q := by
  rw [regval12, carry_v168_0_24_27 m ρ c, carry_v170_25_27 m ρ c,
    show (fun j => (B25 m ρ c (Proc.devRef .tc main_v170) : S1x64.Idx → EReal) (ix2 0 j)) = colMean (fun i j => (B24 m ρ c (Proc.devRef .tc main_v168_0) : S50000x64.Idx → EReal) (ix2 i j)) from funext (k2_mean m ρ c),
    show (fun j => (B27 m ρ c (Proc.devRef .tc main_v173) : S1x64.Idx → EReal) (ix2 0 j)) = colVar (fun i j => (B24 m ρ c (Proc.devRef .tc main_v168_0) : S50000x64.Idx → EReal) (ix2 i j)) from funext (k2_var m ρ c),
    show (fun j => (B27 m ρ c (Proc.devRef .tc main_v174) : S1x64.Idx → EReal) (ix2 0 j)) = (fun j => (m ((c : Thread nD τ).loc main_arg20) : S64.Idx → EReal) (ix1 j)) from funext (k2_g m ρ c),
    show (fun j => (B27 m ρ c (Proc.devRef .tc main_v175) : S1x64.Idx → EReal) (ix2 0 j)) = (fun j => (m ((c : Thread nD τ).loc main_arg21) : S64.Idx → EReal) (ix1 j)) from funext (k2_be m ρ c)]
  rfl

end Cert.KernelIdeal.Hand

end
-- ==== Proof.Val.K3.lean ====
/-
  Layer 3 of the network on the kernel program's side, read at an index over the extended reals: the
  linear region's output as the product with the (host-transposed) weight, the aggregation as the host's
  gather / scale / scatter-add term, the first stage's outputs as the bias (and residual) sums, and the
  layer's activation as softmax_one of the batch-norm with the array's own column mean and variance — the
  column statistics assembled from the two accumulating regions and the host's divisions by the row count.
-/
import proofs.«408084_j48395691492010_3_alg».proof.Proof.KI.Args
import proofs.«408084_j48395691492010_3_alg».proof.Proof.Val.RegVal
import proofs.«408084_j48395691492010_3_alg».proof.Proof.Val.Carry
import proofs.«408084_j48395691492010_3_alg».proof.Proof.Val.SpecFn
import proofs.«408084_j48395691492010_3_alg».proof.Proof.Algebra
import Idealize.ShloMosaic.Lib.ValueIdx
import Idealize.ShloMosaic.Lib.ValueLayout
import Idealize.ShloMosaic.Lib.StableHlo
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Cert.Val
open scoped BigOperators

variable (m : (ℓ : Loc nD τ sig) → Buf (Elt Ideal) ℓ) (ρ : Dev nD → PrngReg) (c : Dev nD)

/- The extended reals' sum and product, named outright: an array's entry has the element type of its buffer,
   which unfolds to the extended reals but is not syntactically them. -/
local notation:65 a:65 " +ᵉ " b:66 => HAdd.hAdd (α := EReal) (β := EReal) (γ := EReal) a b
local notation:70 a:70 " *ᵉ " b:71 => HMul.hMul (α := EReal) (β := EReal) (γ := EReal) a b
local notation:50 a:51 " =ᵉ " b:51 => Eq (α := EReal) a b

/-! ## Layer 3 -/

theorem hread_v177 : B29 m ρ c (Proc.devRef .tc main_v177) = (transpose S64x64 [1, 0] (B28 m ρ c (Proc.devRef .tc main_v39)) transposes_S64x64_S64x64_1_0) := by
  show StableHlo.after hostOps13 (B28 m ρ c) (Proc.devRef .tc main_v177) = _
  after_results <;> rfl

theorem k3_Wt (k : Fin 64) (q : Fin 64) : (B29 m ρ c (Proc.devRef .tc main_v177) : S64x64.Idx → EReal) (ix2 k q) =ᵉ (B5 m ρ c (Proc.devRef .tc main_v39) : S64x64.Idx → EReal) (ix2 q k) := by
  rw [hread_v177, transpose_ix2_apply, carry_v39_5_28 m ρ c]

set_option maxHeartbeats 4000000 in
theorem hread_v192 : B31 m ρ c (Proc.devRef .tc main_v192) = (shapeCast S1x64 (B30 m ρ c (Proc.devRef .tc main_v41)) shapeCasts_S64_S1x64) := by
  show StableHlo.after hostOps14 (B30 m ρ c) (Proc.devRef .tc main_v192) = _
  after_results_simp <;> rfl

theorem k3_b (q : Fin 64) : (B31 m ρ c (Proc.devRef .tc main_v192) : S1x64.Idx → EReal) (ix2 0 q) =ᵉ (B5 m ρ c (Proc.devRef .tc main_v41) : S64.Idx → EReal) (ix1 q) := by
  rw [hread_v192, shapeCast_a_1a_apply, carry_v41_5_30 m ρ c]

theorem hread_v199 : B35 m ρ c (Proc.devRef .tc main_v199) = (shapeCast S1x64 (B34 m ρ c (Proc.devRef .tc main_v71)) shapeCasts_S64_S1x64) := by
  show StableHlo.after hostOps16 (B34 m ρ c) (Proc.devRef .tc main_v199) = _
  after_results <;> rfl

theorem hread_v200 : B35 m ρ c (Proc.devRef .tc main_v200) = (shapeCast S1x64 (B34 m ρ c (Proc.devRef .tc main_v73)) shapeCasts_S64_S1x64) := by
  show StableHlo.after hostOps16 (B34 m ρ c) (Proc.devRef .tc main_v200) = _
  after_results <;> rfl

theorem k3_g (q : Fin 64) : (B35 m ρ c (Proc.devRef .tc main_v199) : S1x64.Idx → EReal) (ix2 0 q) =ᵉ (B5 m ρ c (Proc.devRef .tc main_v71) : S64.Idx → EReal) (ix1 q) := by
  rw [hread_v199, shapeCast_a_1a_apply, carry_v71_5_34 m ρ c]

theorem k3_be (q : Fin 64) : (B35 m ρ c (Proc.devRef .tc main_v200) : S1x64.Idx → EReal) (ix2 0 q) =ᵉ (B5 m ρ c (Proc.devRef .tc main_v73) : S64.Idx → EReal) (ix1 q) := by
  rw [hread_v200, shapeCast_a_1a_apply, carry_v73_5_34 m ρ c]

set_option maxHeartbeats 4000000 in
theorem hread_v191 : B31 m ρ c (Proc.devRef .tc main_v191) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B30 m ρ c (Proc.devRef .tc main_v6))) (mulf (broadcastInDim S690000x64 ![0, 1] bcast_S690000x1_S690000x64_0_1 (broadcastInDim S690000x1 ![0] bcast_S690000_S690000x1_0 (B30 m ρ c (Proc.devRef .tc main_v33)))) (Host.gather gather_S50000x64_S690000x1_S690000x64_1_0_n_n_0_1_164 (B30 m ρ c (Proc.devRef .tc main_v178)) (broadcastInDim S690000x1 ![0] bcast_S690000_S690000x1_0 (select (cmpi .slt (B30 m ρ c (Proc.devRef .tc main_v5)) (broadcastInDim S690000 ![] bcast_S_S690000 (constantI S_ 32 0#32))) (addi (B30 m ρ c (Proc.devRef .tc main_v5)) (broadcastInDim S690000 ![] bcast_S_S690000 (constantI S_ 32 50000#32))) (B30 m ρ c (Proc.devRef .tc main_v5))))))) := by
  show StableHlo.after hostOps14 (B30 m ρ c) (Proc.devRef .tc main_v191) = _
  after_results_simp <;> rfl

theorem k3_agg : B31 m ρ c (Proc.devRef .tc main_v191) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B3 m ρ c (Proc.devRef .tc main_v6))) (mulf (broadcastInDim S690000x64 ![0, 1] bcast_S690000x1_S690000x64_0_1 (broadcastInDim S690000x1 ![0] bcast_S690000_S690000x1_0 (B3 m ρ c (Proc.devRef .tc main_v33)))) (Host.gather gather_S50000x64_S690000x1_S690000x64_1_0_n_n_0_1_164 (B30 m ρ c (Proc.devRef .tc main_v178)) (broadcastInDim S690000x1 ![0] bcast_S690000_S690000x1_0 (select (cmpi .slt (B3 m ρ c (Proc.devRef .tc main_v5)) (broadcastInDim S690000 ![] bcast_S_S690000 (constantI S_ 32 0#32))) (addi (B3 m ρ c (Proc.devRef .tc main_v5)) (broadcastInDim S690000 ![] bcast_S_S690000 (constantI S_ 32 50000#32))) (B3 m ρ c (Proc.devRef .tc main_v5))))))) := by
  rw [hread_v191, carry_v5_3_30 m ρ c, carry_v6_3_30 m ρ c, carry_v33_3_30 m ρ c]

theorem k3_lin (r : Fin 50000) (q : Fin 64) : (B30 m ρ c (Proc.devRef .tc main_v178) : S50000x64.Idx → EReal) (ix2 r q) =ᵉ ∑ k : Fin 64, (B28 m ρ c (Proc.devRef .tc main_v176) : S50000x64.Idx → EReal) (ix2 r k) *ᵉ (B5 m ρ c (Proc.devRef .tc main_v39) : S64x64.Idx → EReal) (ix2 q k) := by
  rw [regval13]
  refine Finset.sum_congr rfl fun k _ => ?_
  rw [k3_Wt, carry_v176_28_29 m ρ c]

theorem k3_pre (r : Fin 50000) (q : Fin 64) : (B32 m ρ c (Proc.devRef .tc main_v193_0) : S50000x64.Idx → EReal) (ix2 r q) =ᵉ ((B31 m ρ c (Proc.devRef .tc main_v191) : S50000x64.Idx → EReal) (ix2 r q) +ᵉ (B5 m ρ c (Proc.devRef .tc main_v41) : S64.Idx → EReal) (ix1 q)) +ᵉ (B24 m ρ c (Proc.devRef .tc main_v168_1) : S50000x64.Idx → EReal) (ix2 r q) := by
  rw [regval14_pre, k3_b, carry_v168_1_24_31 m ρ c]

theorem k3_cum (r : Fin 50000) (q : Fin 64) : (B32 m ρ c (Proc.devRef .tc main_v193_1) : S50000x64.Idx → EReal) (ix2 r q) =ᵉ (B24 m ρ c (Proc.devRef .tc main_v168_1) : S50000x64.Idx → EReal) (ix2 r q) +ᵉ ((B31 m ρ c (Proc.devRef .tc main_v191) : S50000x64.Idx → EReal) (ix2 r q) +ᵉ (B5 m ρ c (Proc.devRef .tc main_v41) : S64.Idx → EReal) (ix1 q)) := by
  rw [regval14_cum, k3_b, carry_v168_1_24_31 m ρ c]

theorem hread_v195 : B33 m ρ c (Proc.devRef .tc main_v195) = (Host.divf (B32 m ρ c (Proc.devRef .tc main_v193_2)) (broadcastInDim S1x64 ![] bcast_S_S1x64 (constant (F := Ideal) S_ .f32 0x47435000#32))) := by
  show StableHlo.after hostOps15 (B32 m ρ c) (Proc.devRef .tc main_v195) = _
  after_results <;> rfl

theorem k3_mean (j : Fin 64) : (B33 m ρ c (Proc.devRef .tc main_v195) : S1x64.Idx → EReal) (ix2 0 j) =ᵉ colMean (fun i j => (B32 m ρ c (Proc.devRef .tc main_v193_0) : S50000x64.Idx → EReal) (ix2 i j)) j := by
  rw [hread_v195]
  show Ideal.div ((B32 m ρ c (Proc.devRef .tc main_v193_2) : S1x64.Idx → EReal) (ix2 0 j)) cRows = _
  rw [regval14_sum']
  rfl

theorem hread_v198 : B35 m ρ c (Proc.devRef .tc main_v198) = (Host.divf (B34 m ρ c (Proc.devRef .tc main_v196)) (broadcastInDim S1x64 ![] bcast_S_S1x64 (constant (F := Ideal) S_ .f32 0x47435000#32))) := by
  show StableHlo.after hostOps16 (B34 m ρ c) (Proc.devRef .tc main_v198) = _
  after_results <;> rfl

theorem k3_var (j : Fin 64) : (B35 m ρ c (Proc.devRef .tc main_v198) : S1x64.Idx → EReal) (ix2 0 j) =ᵉ colVar (fun i j => (B32 m ρ c (Proc.devRef .tc main_v193_0) : S50000x64.Idx → EReal) (ix2 i j)) j := by
  rw [hread_v198]
  show Ideal.div ((B34 m ρ c (Proc.devRef .tc main_v196) : S1x64.Idx → EReal) (ix2 0 j)) cRows = _
  rw [regval15, carry_v193_0_32_33 m ρ c, show (fun j => (B33 m ρ c (Proc.devRef .tc main_v195) : S1x64.Idx → EReal) (ix2 0 j)) = colMean (fun i j => (B32 m ρ c (Proc.devRef .tc main_v193_0) : S50000x64.Idx → EReal) (ix2 i j)) from funext (k3_mean m ρ c)]
  rfl

theorem k3_act (r : Fin 50000) (q : Fin 64) : (B36 m ρ c (Proc.devRef .tc main_v201) : S50000x64.Idx → EReal) (ix2 r q)
    =ᵉ Cert.Val.act (fun i j => (B32 m ρ c (Proc.devRef .tc main_v193_0) : S50000x64.Idx → EReal) (ix2 i j)) (fun j => (B5 m ρ c (Proc.devRef .tc main_v71) : S64.Idx → EReal) (ix1 j)) (fun j => (B5 m ρ c (Proc.devRef .tc main_v73) : S64.Idx → EReal) (ix1 j)) r q := by
  rw [regval16, carry_v193_0_32_35 m ρ c, carry_v195_33_35 m ρ c,
    show (fun j => (B33 m ρ c (Proc.devRef .tc main_v195) : S1x64.Idx → EReal) (ix2 0 j)) = colMean (fun i j => (B32 m ρ c (Proc.devRef .tc main_v193_0) : S50000x64.Idx → EReal) (ix2 i j)) from funext (k3_mean m ρ c),
    show (fun j => (B35 m ρ c (Proc.devRef .tc main_v198) : S1x64.Idx → EReal) (ix2 0 j)) = colVar (fun i j => (B32 m ρ c (Proc.devRef .tc main_v193_0) : S50000x64.Idx → EReal) (ix2 i j)) from funext (k3_var m ρ c),
    show (fun j => (B35 m ρ c (Proc.devRef .tc main_v199) : S1x64.Idx → EReal) (ix2 0 j)) = (fun j => (B5 m ρ c (Proc.devRef .tc main_v71) : S64.Idx → EReal) (ix1 j)) from funext (k3_g m ρ c),
    show (fun j => (B35 m ρ c (Proc.devRef .tc main_v200) : S1x64.Idx → EReal) (ix2 0 j)) = (fun j => (B5 m ρ c (Proc.devRef .tc main_v73) : S64.Idx → EReal) (ix1 j)) from funext (k3_be m ρ c)]
  rfl

end Cert.KernelIdeal.Hand

end
-- ==== Proof.Val.K4.lean ====
/-
  Layer 4 of the network on the kernel program's side, read at an index over the extended reals: the
  linear region's output as the product with the (host-transposed) weight, the aggregation as the host's
  gather / scale / scatter-add term, the first stage's outputs as the bias (and residual) sums, and the
  layer's activation as softmax_one of the batch-norm with the array's own column mean and variance — the
  column statistics assembled from the two accumulating regions and the host's divisions by the row count.
-/
import proofs.«408084_j48395691492010_3_alg».proof.Proof.KI.Args
import proofs.«408084_j48395691492010_3_alg».proof.Proof.Val.RegVal
import proofs.«408084_j48395691492010_3_alg».proof.Proof.Val.Carry
import proofs.«408084_j48395691492010_3_alg».proof.Proof.Val.SpecFn
import proofs.«408084_j48395691492010_3_alg».proof.Proof.Algebra
import Idealize.ShloMosaic.Lib.ValueIdx
import Idealize.ShloMosaic.Lib.ValueLayout
import Idealize.ShloMosaic.Lib.StableHlo
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Cert.Val
open scoped BigOperators

variable (m : (ℓ : Loc nD τ sig) → Buf (Elt Ideal) ℓ) (ρ : Dev nD → PrngReg) (c : Dev nD)

/- The extended reals' sum and product, named outright: an array's entry has the element type of its buffer,
   which unfolds to the extended reals but is not syntactically them. -/
local notation:65 a:65 " +ᵉ " b:66 => HAdd.hAdd (α := EReal) (β := EReal) (γ := EReal) a b
local notation:70 a:70 " *ᵉ " b:71 => HMul.hMul (α := EReal) (β := EReal) (γ := EReal) a b
local notation:50 a:51 " =ᵉ " b:51 => Eq (α := EReal) a b

/-! ## Layer 4 -/

theorem hread_v202 : B37 m ρ c (Proc.devRef .tc main_v202) = (transpose S64x64 [1, 0] (B36 m ρ c (Proc.devRef .tc main_v43)) transposes_S64x64_S64x64_1_0) := by
  show StableHlo.after hostOps17 (B36 m ρ c) (Proc.devRef .tc main_v202) = _
  after_results <;> rfl

theorem k4_Wt (k : Fin 64) (q : Fin 64) : (B37 m ρ c (Proc.devRef .tc main_v202) : S64x64.Idx → EReal) (ix2 k q) =ᵉ (B5 m ρ c (Proc.devRef .tc main_v43) : S64x64.Idx → EReal) (ix2 q k) := by
  rw [hread_v202, transpose_ix2_apply, carry_v43_5_36 m ρ c]

set_option maxHeartbeats 4000000 in
theorem hread_v217 : B39 m ρ c (Proc.devRef .tc main_v217) = (shapeCast S1x64 (B38 m ρ c (Proc.devRef .tc main_v45)) shapeCasts_S64_S1x64) := by
  show StableHlo.after hostOps18 (B38 m ρ c) (Proc.devRef .tc main_v217) = _
  after_results_simp <;> rfl

theorem k4_b (q : Fin 64) : (B39 m ρ c (Proc.devRef .tc main_v217) : S1x64.Idx → EReal) (ix2 0 q) =ᵉ (B5 m ρ c (Proc.devRef .tc main_v45) : S64.Idx → EReal) (ix1 q) := by
  rw [hread_v217, shapeCast_a_1a_apply, carry_v45_5_38 m ρ c]

theorem hread_v224 : B43 m ρ c (Proc.devRef .tc main_v224) = (shapeCast S1x64 (B42 m ρ c (Proc.devRef .tc main_v75)) shapeCasts_S64_S1x64) := by
  show StableHlo.after hostOps20 (B42 m ρ c) (Proc.devRef .tc main_v224) = _
  after_results <;> rfl

theorem hread_v225 : B43 m ρ c (Proc.devRef .tc main_v225) = (shapeCast S1x64 (B42 m ρ c (Proc.devRef .tc main_v77)) shapeCasts_S64_S1x64) := by
  show StableHlo.after hostOps20 (B42 m ρ c) (Proc.devRef .tc main_v225) = _
  after_results <;> rfl

theorem k4_g (q : Fin 64) : (B43 m ρ c (Proc.devRef .tc main_v224) : S1x64.Idx → EReal) (ix2 0 q) =ᵉ (B5 m ρ c (Proc.devRef .tc main_v75) : S64.Idx → EReal) (ix1 q) := by
  rw [hread_v224, shapeCast_a_1a_apply, carry_v75_5_42 m ρ c]

theorem k4_be (q : Fin 64) : (B43 m ρ c (Proc.devRef .tc main_v225) : S1x64.Idx → EReal) (ix2 0 q) =ᵉ (B5 m ρ c (Proc.devRef .tc main_v77) : S64.Idx → EReal) (ix1 q) := by
  rw [hread_v225, shapeCast_a_1a_apply, carry_v77_5_42 m ρ c]

set_option maxHeartbeats 4000000 in
theorem hread_v216 : B39 m ρ c (Proc.devRef .tc main_v216) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B38 m ρ c (Proc.devRef .tc main_v6))) (mulf (broadcastInDim S690000x64 ![0, 1] bcast_S690000x1_S690000x64_0_1 (broadcastInDim S690000x1 ![0] bcast_S690000_S690000x1_0 (B38 m ρ c (Proc.devRef .tc main_v33)))) (Host.gather gather_S50000x64_S690000x1_S690000x64_1_0_n_n_0_1_164 (B38 m ρ c (Proc.devRef .tc main_v203)) (broadcastInDim S690000x1 ![0] bcast_S690000_S690000x1_0 (select (cmpi .slt (B38 m ρ c (Proc.devRef .tc main_v5)) (broadcastInDim S690000 ![] bcast_S_S690000 (constantI S_ 32 0#32))) (addi (B38 m ρ c (Proc.devRef .tc main_v5)) (broadcastInDim S690000 ![] bcast_S_S690000 (constantI S_ 32 50000#32))) (B38 m ρ c (Proc.devRef .tc main_v5))))))) := by
  show StableHlo.after hostOps18 (B38 m ρ c) (Proc.devRef .tc main_v216) = _
  after_results_simp <;> rfl

theorem k4_agg : B39 m ρ c (Proc.devRef .tc main_v216) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B3 m ρ c (Proc.devRef .tc main_v6))) (mulf (broadcastInDim S690000x64 ![0, 1] bcast_S690000x1_S690000x64_0_1 (broadcastInDim S690000x1 ![0] bcast_S690000_S690000x1_0 (B3 m ρ c (Proc.devRef .tc main_v33)))) (Host.gather gather_S50000x64_S690000x1_S690000x64_1_0_n_n_0_1_164 (B38 m ρ c (Proc.devRef .tc main_v203)) (broadcastInDim S690000x1 ![0] bcast_S690000_S690000x1_0 (select (cmpi .slt (B3 m ρ c (Proc.devRef .tc main_v5)) (broadcastInDim S690000 ![] bcast_S_S690000 (constantI S_ 32 0#32))) (addi (B3 m ρ c (Proc.devRef .tc main_v5)) (broadcastInDim S690000 ![] bcast_S_S690000 (constantI S_ 32 50000#32))) (B3 m ρ c (Proc.devRef .tc main_v5))))))) := by
  rw [hread_v216, carry_v5_3_38 m ρ c, carry_v6_3_38 m ρ c, carry_v33_3_38 m ρ c]

theorem k4_lin (r : Fin 50000) (q : Fin 64) : (B38 m ρ c (Proc.devRef .tc main_v203) : S50000x64.Idx → EReal) (ix2 r q) =ᵉ ∑ k : Fin 64, (B36 m ρ c (Proc.devRef .tc main_v201) : S50000x64.Idx → EReal) (ix2 r k) *ᵉ (B5 m ρ c (Proc.devRef .tc main_v43) : S64x64.Idx → EReal) (ix2 q k) := by
  rw [regval17]
  refine Finset.sum_congr rfl fun k _ => ?_
  rw [k4_Wt, carry_v201_36_37 m ρ c]

theorem k4_pre (r : Fin 50000) (q : Fin 64) : (B40 m ρ c (Proc.devRef .tc main_v218_0) : S50000x64.Idx → EReal) (ix2 r q) =ᵉ ((B39 m ρ c (Proc.devRef .tc main_v216) : S50000x64.Idx → EReal) (ix2 r q) +ᵉ (B5 m ρ c (Proc.devRef .tc main_v45) : S64.Idx → EReal) (ix1 q)) +ᵉ (B32 m ρ c (Proc.devRef .tc main_v193_1) : S50000x64.Idx → EReal) (ix2 r q) := by
  rw [regval18_pre, k4_b, carry_v193_1_32_39 m ρ c]

theorem k4_cum (r : Fin 50000) (q : Fin 64) : (B40 m ρ c (Proc.devRef .tc main_v218_1) : S50000x64.Idx → EReal) (ix2 r q) =ᵉ (B32 m ρ c (Proc.devRef .tc main_v193_1) : S50000x64.Idx → EReal) (ix2 r q) +ᵉ ((B39 m ρ c (Proc.devRef .tc main_v216) : S50000x64.Idx → EReal) (ix2 r q) +ᵉ (B5 m ρ c (Proc.devRef .tc main_v45) : S64.Idx → EReal) (ix1 q)) := by
  rw [regval18_cum, k4_b, carry_v193_1_32_39 m ρ c]

theorem hread_v220 : B41 m ρ c (Proc.devRef .tc main_v220) = (Host.divf (B40 m ρ c (Proc.devRef .tc main_v218_2)) (broadcastInDim S1x64 ![] bcast_S_S1x64 (constant (F := Ideal) S_ .f32 0x47435000#32))) := by
  show StableHlo.after hostOps19 (B40 m ρ c) (Proc.devRef .tc main_v220) = _
  after_results <;> rfl

theorem k4_mean (j : Fin 64) : (B41 m ρ c (Proc.devRef .tc main_v220) : S1x64.Idx → EReal) (ix2 0 j) =ᵉ colMean (fun i j => (B40 m ρ c (Proc.devRef .tc main_v218_0) : S50000x64.Idx → EReal) (ix2 i j)) j := by
  rw [hread_v220]
  show Ideal.div ((B40 m ρ c (Proc.devRef .tc main_v218_2) : S1x64.Idx → EReal) (ix2 0 j)) cRows = _
  rw [regval18_sum']
  rfl

theorem hread_v223 : B43 m ρ c (Proc.devRef .tc main_v223) = (Host.divf (B42 m ρ c (Proc.devRef .tc main_v221)) (broadcastInDim S1x64 ![] bcast_S_S1x64 (constant (F := Ideal) S_ .f32 0x47435000#32))) := by
  show StableHlo.after hostOps20 (B42 m ρ c) (Proc.devRef .tc main_v223) = _
  after_results <;> rfl

theorem k4_var (j : Fin 64) : (B43 m ρ c (Proc.devRef .tc main_v223) : S1x64.Idx → EReal) (ix2 0 j) =ᵉ colVar (fun i j => (B40 m ρ c (Proc.devRef .tc main_v218_0) : S50000x64.Idx → EReal) (ix2 i j)) j := by
  rw [hread_v223]
  show Ideal.div ((B42 m ρ c (Proc.devRef .tc main_v221) : S1x64.Idx → EReal) (ix2 0 j)) cRows = _
  rw [regval19, carry_v218_0_40_41 m ρ c, show (fun j => (B41 m ρ c (Proc.devRef .tc main_v220) : S1x64.Idx → EReal) (ix2 0 j)) = colMean (fun i j => (B40 m ρ c (Proc.devRef .tc main_v218_0) : S50000x64.Idx → EReal) (ix2 i j)) from funext (k4_mean m ρ c)]
  rfl

theorem k4_act (r : Fin 50000) (q : Fin 64) : (B44 m ρ c (Proc.devRef .tc main_v226) : S50000x64.Idx → EReal) (ix2 r q)
    =ᵉ Cert.Val.act (fun i j => (B40 m ρ c (Proc.devRef .tc main_v218_0) : S50000x64.Idx → EReal) (ix2 i j)) (fun j => (B5 m ρ c (Proc.devRef .tc main_v75) : S64.Idx → EReal) (ix1 j)) (fun j => (B5 m ρ c (Proc.devRef .tc main_v77) : S64.Idx → EReal) (ix1 j)) r q := by
  rw [regval20, carry_v218_0_40_43 m ρ c, carry_v220_41_43 m ρ c,
    show (fun j => (B41 m ρ c (Proc.devRef .tc main_v220) : S1x64.Idx → EReal) (ix2 0 j)) = colMean (fun i j => (B40 m ρ c (Proc.devRef .tc main_v218_0) : S50000x64.Idx → EReal) (ix2 i j)) from funext (k4_mean m ρ c),
    show (fun j => (B43 m ρ c (Proc.devRef .tc main_v223) : S1x64.Idx → EReal) (ix2 0 j)) = colVar (fun i j => (B40 m ρ c (Proc.devRef .tc main_v218_0) : S50000x64.Idx → EReal) (ix2 i j)) from funext (k4_var m ρ c),
    show (fun j => (B43 m ρ c (Proc.devRef .tc main_v224) : S1x64.Idx → EReal) (ix2 0 j)) = (fun j => (B5 m ρ c (Proc.devRef .tc main_v75) : S64.Idx → EReal) (ix1 j)) from funext (k4_g m ρ c),
    show (fun j => (B43 m ρ c (Proc.devRef .tc main_v225) : S1x64.Idx → EReal) (ix2 0 j)) = (fun j => (B5 m ρ c (Proc.devRef .tc main_v77) : S64.Idx → EReal) (ix1 j)) from funext (k4_be m ρ c)]
  rfl

end Cert.KernelIdeal.Hand

end
-- ==== Proof.Val.K5.lean ====
/-
  Layer 5 of the network on the kernel program's side, read at an index over the extended reals: the
  linear region's output as the product with the (host-transposed) weight, the aggregation as the host's
  gather / scale / scatter-add term, the first stage's outputs as the bias (and residual) sums, and the
  layer's activation as softmax_one of the batch-norm with the array's own column mean and variance — the
  column statistics assembled from the two accumulating regions and the host's divisions by the row count.
-/
import proofs.«408084_j48395691492010_3_alg».proof.Proof.KI.Args
import proofs.«408084_j48395691492010_3_alg».proof.Proof.Val.RegVal
import proofs.«408084_j48395691492010_3_alg».proof.Proof.Val.Carry
import proofs.«408084_j48395691492010_3_alg».proof.Proof.Val.SpecFn
import proofs.«408084_j48395691492010_3_alg».proof.Proof.Algebra
import Idealize.ShloMosaic.Lib.ValueIdx
import Idealize.ShloMosaic.Lib.ValueLayout
import Idealize.ShloMosaic.Lib.StableHlo
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Cert.Val
open scoped BigOperators

variable (m : (ℓ : Loc nD τ sig) → Buf (Elt Ideal) ℓ) (ρ : Dev nD → PrngReg) (c : Dev nD)

/- The extended reals' sum and product, named outright: an array's entry has the element type of its buffer,
   which unfolds to the extended reals but is not syntactically them. -/
local notation:65 a:65 " +ᵉ " b:66 => HAdd.hAdd (α := EReal) (β := EReal) (γ := EReal) a b
local notation:70 a:70 " *ᵉ " b:71 => HMul.hMul (α := EReal) (β := EReal) (γ := EReal) a b
local notation:50 a:51 " =ᵉ " b:51 => Eq (α := EReal) a b

/-! ## Layer 5 -/

theorem hread_v227 : B45 m ρ c (Proc.devRef .tc main_v227) = (transpose S64x64 [1, 0] (B44 m ρ c (Proc.devRef .tc main_v47)) transposes_S64x64_S64x64_1_0) := by
  show StableHlo.after hostOps21 (B44 m ρ c) (Proc.devRef .tc main_v227) = _
  after_results <;> rfl

theorem k5_Wt (k : Fin 64) (q : Fin 64) : (B45 m ρ c (Proc.devRef .tc main_v227) : S64x64.Idx → EReal) (ix2 k q) =ᵉ (B5 m ρ c (Proc.devRef .tc main_v47) : S64x64.Idx → EReal) (ix2 q k) := by
  rw [hread_v227, transpose_ix2_apply, carry_v47_5_44 m ρ c]

set_option maxHeartbeats 4000000 in
theorem hread_v242 : B47 m ρ c (Proc.devRef .tc main_v242) = (shapeCast S1x64 (B46 m ρ c (Proc.devRef .tc main_v49)) shapeCasts_S64_S1x64) := by
  show StableHlo.after hostOps22 (B46 m ρ c) (Proc.devRef .tc main_v242) = _
  after_results_simp <;> rfl

theorem k5_b (q : Fin 64) : (B47 m ρ c (Proc.devRef .tc main_v242) : S1x64.Idx → EReal) (ix2 0 q) =ᵉ (B5 m ρ c (Proc.devRef .tc main_v49) : S64.Idx → EReal) (ix1 q) := by
  rw [hread_v242, shapeCast_a_1a_apply, carry_v49_5_46 m ρ c]

theorem hread_v249 : B51 m ρ c (Proc.devRef .tc main_v249) = (shapeCast S1x64 (B50 m ρ c (Proc.devRef .tc main_v79)) shapeCasts_S64_S1x64) := by
  show StableHlo.after hostOps24 (B50 m ρ c) (Proc.devRef .tc main_v249) = _
  after_results <;> rfl

theorem hread_v250 : B51 m ρ c (Proc.devRef .tc main_v250) = (shapeCast S1x64 (B50 m ρ c (Proc.devRef .tc main_v81)) shapeCasts_S64_S1x64) := by
  show StableHlo.after hostOps24 (B50 m ρ c) (Proc.devRef .tc main_v250) = _
  after_results <;> rfl

theorem k5_g (q : Fin 64) : (B51 m ρ c (Proc.devRef .tc main_v249) : S1x64.Idx → EReal) (ix2 0 q) =ᵉ (B5 m ρ c (Proc.devRef .tc main_v79) : S64.Idx → EReal) (ix1 q) := by
  rw [hread_v249, shapeCast_a_1a_apply, carry_v79_5_50 m ρ c]

theorem k5_be (q : Fin 64) : (B51 m ρ c (Proc.devRef .tc main_v250) : S1x64.Idx → EReal) (ix2 0 q) =ᵉ (B5 m ρ c (Proc.devRef .tc main_v81) : S64.Idx → EReal) (ix1 q) := by
  rw [hread_v250, shapeCast_a_1a_apply, carry_v81_5_50 m ρ c]

set_option maxHeartbeats 4000000 in
theorem hread_v241 : B47 m ρ c (Proc.devRef .tc main_v241) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B46 m ρ c (Proc.devRef .tc main_v6))) (mulf (broadcastInDim S690000x64 ![0, 1] bcast_S690000x1_S690000x64_0_1 (broadcastInDim S690000x1 ![0] bcast_S690000_S690000x1_0 (B46 m ρ c (Proc.devRef .tc main_v33)))) (Host.gather gather_S50000x64_S690000x1_S690000x64_1_0_n_n_0_1_164 (B46 m ρ c (Proc.devRef .tc main_v228)) (broadcastInDim S690000x1 ![0] bcast_S690000_S690000x1_0 (select (cmpi .slt (B46 m ρ c (Proc.devRef .tc main_v5)) (broadcastInDim S690000 ![] bcast_S_S690000 (constantI S_ 32 0#32))) (addi (B46 m ρ c (Proc.devRef .tc main_v5)) (broadcastInDim S690000 ![] bcast_S_S690000 (constantI S_ 32 50000#32))) (B46 m ρ c (Proc.devRef .tc main_v5))))))) := by
  show StableHlo.after hostOps22 (B46 m ρ c) (Proc.devRef .tc main_v241) = _
  after_results_simp <;> rfl

theorem k5_agg : B47 m ρ c (Proc.devRef .tc main_v241) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B3 m ρ c (Proc.devRef .tc main_v6))) (mulf (broadcastInDim S690000x64 ![0, 1] bcast_S690000x1_S690000x64_0_1 (broadcastInDim S690000x1 ![0] bcast_S690000_S690000x1_0 (B3 m ρ c (Proc.devRef .tc main_v33)))) (Host.gather gather_S50000x64_S690000x1_S690000x64_1_0_n_n_0_1_164 (B46 m ρ c (Proc.devRef .tc main_v228)) (broadcastInDim S690000x1 ![0] bcast_S690000_S690000x1_0 (select (cmpi .slt (B3 m ρ c (Proc.devRef .tc main_v5)) (broadcastInDim S690000 ![] bcast_S_S690000 (constantI S_ 32 0#32))) (addi (B3 m ρ c (Proc.devRef .tc main_v5)) (broadcastInDim S690000 ![] bcast_S_S690000 (constantI S_ 32 50000#32))) (B3 m ρ c (Proc.devRef .tc main_v5))))))) := by
  rw [hread_v241, carry_v5_3_46 m ρ c, carry_v6_3_46 m ρ c, carry_v33_3_46 m ρ c]

theorem k5_lin (r : Fin 50000) (q : Fin 64) : (B46 m ρ c (Proc.devRef .tc main_v228) : S50000x64.Idx → EReal) (ix2 r q) =ᵉ ∑ k : Fin 64, (B44 m ρ c (Proc.devRef .tc main_v226) : S50000x64.Idx → EReal) (ix2 r k) *ᵉ (B5 m ρ c (Proc.devRef .tc main_v47) : S64x64.Idx → EReal) (ix2 q k) := by
  rw [regval21]
  refine Finset.sum_congr rfl fun k _ => ?_
  rw [k5_Wt, carry_v226_44_45 m ρ c]

theorem k5_pre (r : Fin 50000) (q : Fin 64) : (B48 m ρ c (Proc.devRef .tc main_v243_0) : S50000x64.Idx → EReal) (ix2 r q) =ᵉ ((B47 m ρ c (Proc.devRef .tc main_v241) : S50000x64.Idx → EReal) (ix2 r q) +ᵉ (B5 m ρ c (Proc.devRef .tc main_v49) : S64.Idx → EReal) (ix1 q)) +ᵉ (B40 m ρ c (Proc.devRef .tc main_v218_1) : S50000x64.Idx → EReal) (ix2 r q) := by
  rw [regval22_pre, k5_b, carry_v218_1_40_47 m ρ c]

theorem k5_cum (r : Fin 50000) (q : Fin 64) : (B48 m ρ c (Proc.devRef .tc main_v243_1) : S50000x64.Idx → EReal) (ix2 r q) =ᵉ (B40 m ρ c (Proc.devRef .tc main_v218_1) : S50000x64.Idx → EReal) (ix2 r q) +ᵉ ((B47 m ρ c (Proc.devRef .tc main_v241) : S50000x64.Idx → EReal) (ix2 r q) +ᵉ (B5 m ρ c (Proc.devRef .tc main_v49) : S64.Idx → EReal) (ix1 q)) := by
  rw [regval22_cum, k5_b, carry_v218_1_40_47 m ρ c]

theorem hread_v245 : B49 m ρ c (Proc.devRef .tc main_v245) = (Host.divf (B48 m ρ c (Proc.devRef .tc main_v243_2)) (broadcastInDim S1x64 ![] bcast_S_S1x64 (constant (F := Ideal) S_ .f32 0x47435000#32))) := by
  show StableHlo.after hostOps23 (B48 m ρ c) (Proc.devRef .tc main_v245) = _
  after_results <;> rfl

theorem k5_mean (j : Fin 64) : (B49 m ρ c (Proc.devRef .tc main_v245) : S1x64.Idx → EReal) (ix2 0 j) =ᵉ colMean (fun i j => (B48 m ρ c (Proc.devRef .tc main_v243_0) : S50000x64.Idx → EReal) (ix2 i j)) j := by
  rw [hread_v245]
  show Ideal.div ((B48 m ρ c (Proc.devRef .tc main_v243_2) : S1x64.Idx → EReal) (ix2 0 j)) cRows = _
  rw [regval22_sum']
  rfl

theorem hread_v248 : B51 m ρ c (Proc.devRef .tc main_v248) = (Host.divf (B50 m ρ c (Proc.devRef .tc main_v246)) (broadcastInDim S1x64 ![] bcast_S_S1x64 (constant (F := Ideal) S_ .f32 0x47435000#32))) := by
  show StableHlo.after hostOps24 (B50 m ρ c) (Proc.devRef .tc main_v248) = _
  after_results <;> rfl

theorem k5_var (j : Fin 64) : (B51 m ρ c (Proc.devRef .tc main_v248) : S1x64.Idx → EReal) (ix2 0 j) =ᵉ colVar (fun i j => (B48 m ρ c (Proc.devRef .tc main_v243_0) : S50000x64.Idx → EReal) (ix2 i j)) j := by
  rw [hread_v248]
  show Ideal.div ((B50 m ρ c (Proc.devRef .tc main_v246) : S1x64.Idx → EReal) (ix2 0 j)) cRows = _
  rw [regval23, carry_v243_0_48_49 m ρ c, show (fun j => (B49 m ρ c (Proc.devRef .tc main_v245) : S1x64.Idx → EReal) (ix2 0 j)) = colMean (fun i j => (B48 m ρ c (Proc.devRef .tc main_v243_0) : S50000x64.Idx → EReal) (ix2 i j)) from funext (k5_mean m ρ c)]
  rfl

theorem k5_act (r : Fin 50000) (q : Fin 64) : (B52 m ρ c (Proc.devRef .tc main_v251) : S50000x64.Idx → EReal) (ix2 r q)
    =ᵉ Cert.Val.act (fun i j => (B48 m ρ c (Proc.devRef .tc main_v243_0) : S50000x64.Idx → EReal) (ix2 i j)) (fun j => (B5 m ρ c (Proc.devRef .tc main_v79) : S64.Idx → EReal) (ix1 j)) (fun j => (B5 m ρ c (Proc.devRef .tc main_v81) : S64.Idx → EReal) (ix1 j)) r q := by
  rw [regval24, carry_v243_0_48_51 m ρ c, carry_v245_49_51 m ρ c,
    show (fun j => (B49 m ρ c (Proc.devRef .tc main_v245) : S1x64.Idx → EReal) (ix2 0 j)) = colMean (fun i j => (B48 m ρ c (Proc.devRef .tc main_v243_0) : S50000x64.Idx → EReal) (ix2 i j)) from funext (k5_mean m ρ c),
    show (fun j => (B51 m ρ c (Proc.devRef .tc main_v248) : S1x64.Idx → EReal) (ix2 0 j)) = colVar (fun i j => (B48 m ρ c (Proc.devRef .tc main_v243_0) : S50000x64.Idx → EReal) (ix2 i j)) from funext (k5_var m ρ c),
    show (fun j => (B51 m ρ c (Proc.devRef .tc main_v249) : S1x64.Idx → EReal) (ix2 0 j)) = (fun j => (B5 m ρ c (Proc.devRef .tc main_v79) : S64.Idx → EReal) (ix1 j)) from funext (k5_g m ρ c),
    show (fun j => (B51 m ρ c (Proc.devRef .tc main_v250) : S1x64.Idx → EReal) (ix2 0 j)) = (fun j => (B5 m ρ c (Proc.devRef .tc main_v81) : S64.Idx → EReal) (ix1 j)) from funext (k5_be m ρ c)]
  rfl

end Cert.KernelIdeal.Hand

end
-- ==== Proof.Val.K6.lean ====
/-
  Layer 6 of the network on the kernel program's side, read at an index over the extended reals: the
  linear region's output as the product with the (host-transposed) weight, the aggregation as the host's
  gather / scale / scatter-add term, the first stage's outputs as the bias (and residual) sums, and the
  layer's activation as softmax_one of the batch-norm with the array's own column mean and variance — the
  column statistics assembled from the two accumulating regions and the host's divisions by the row count.
-/
import proofs.«408084_j48395691492010_3_alg».proof.Proof.KI.Args
import proofs.«408084_j48395691492010_3_alg».proof.Proof.Val.RegVal
import proofs.«408084_j48395691492010_3_alg».proof.Proof.Val.Carry
import proofs.«408084_j48395691492010_3_alg».proof.Proof.Val.SpecFn
import proofs.«408084_j48395691492010_3_alg».proof.Proof.Algebra
import Idealize.ShloMosaic.Lib.ValueIdx
import Idealize.ShloMosaic.Lib.ValueLayout
import Idealize.ShloMosaic.Lib.StableHlo
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Cert.Val
open scoped BigOperators

variable (m : (ℓ : Loc nD τ sig) → Buf (Elt Ideal) ℓ) (ρ : Dev nD → PrngReg) (c : Dev nD)

/- The extended reals' sum and product, named outright: an array's entry has the element type of its buffer,
   which unfolds to the extended reals but is not syntactically them. -/
local notation:65 a:65 " +ᵉ " b:66 => HAdd.hAdd (α := EReal) (β := EReal) (γ := EReal) a b
local notation:70 a:70 " *ᵉ " b:71 => HMul.hMul (α := EReal) (β := EReal) (γ := EReal) a b
local notation:50 a:51 " =ᵉ " b:51 => Eq (α := EReal) a b

/-! ## Layer 6 -/

theorem hread_v252 : B53 m ρ c (Proc.devRef .tc main_v252) = (transpose S64x64 [1, 0] (B52 m ρ c (Proc.devRef .tc main_v51)) transposes_S64x64_S64x64_1_0) := by
  show StableHlo.after hostOps25 (B52 m ρ c) (Proc.devRef .tc main_v252) = _
  after_results <;> rfl

theorem k6_Wt (k : Fin 64) (q : Fin 64) : (B53 m ρ c (Proc.devRef .tc main_v252) : S64x64.Idx → EReal) (ix2 k q) =ᵉ (B5 m ρ c (Proc.devRef .tc main_v51) : S64x64.Idx → EReal) (ix2 q k) := by
  rw [hread_v252, transpose_ix2_apply, carry_v51_5_52 m ρ c]

set_option maxHeartbeats 4000000 in
theorem hread_v267 : B55 m ρ c (Proc.devRef .tc main_v267) = (shapeCast S1x64 (B54 m ρ c (Proc.devRef .tc main_v53)) shapeCasts_S64_S1x64) := by
  show StableHlo.after hostOps26 (B54 m ρ c) (Proc.devRef .tc main_v267) = _
  after_results_simp <;> rfl

theorem k6_b (q : Fin 64) : (B55 m ρ c (Proc.devRef .tc main_v267) : S1x64.Idx → EReal) (ix2 0 q) =ᵉ (B5 m ρ c (Proc.devRef .tc main_v53) : S64.Idx → EReal) (ix1 q) := by
  rw [hread_v267, shapeCast_a_1a_apply, carry_v53_5_54 m ρ c]

theorem hread_v274 : B59 m ρ c (Proc.devRef .tc main_v274) = (shapeCast S1x64 (B58 m ρ c (Proc.devRef .tc main_v83)) shapeCasts_S64_S1x64) := by
  show StableHlo.after hostOps28 (B58 m ρ c) (Proc.devRef .tc main_v274) = _
  after_results <;> rfl

theorem hread_v275 : B59 m ρ c (Proc.devRef .tc main_v275) = (shapeCast S1x64 (B58 m ρ c (Proc.devRef .tc main_v85)) shapeCasts_S64_S1x64) := by
  show StableHlo.after hostOps28 (B58 m ρ c) (Proc.devRef .tc main_v275) = _
  after_results <;> rfl

theorem k6_g (q : Fin 64) : (B59 m ρ c (Proc.devRef .tc main_v274) : S1x64.Idx → EReal) (ix2 0 q) =ᵉ (B5 m ρ c (Proc.devRef .tc main_v83) : S64.Idx → EReal) (ix1 q) := by
  rw [hread_v274, shapeCast_a_1a_apply, carry_v83_5_58 m ρ c]

theorem k6_be (q : Fin 64) : (B59 m ρ c (Proc.devRef .tc main_v275) : S1x64.Idx → EReal) (ix2 0 q) =ᵉ (B5 m ρ c (Proc.devRef .tc main_v85) : S64.Idx → EReal) (ix1 q) := by
  rw [hread_v275, shapeCast_a_1a_apply, carry_v85_5_58 m ρ c]

set_option maxHeartbeats 4000000 in
theorem hread_v266 : B55 m ρ c (Proc.devRef .tc main_v266) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B54 m ρ c (Proc.devRef .tc main_v6))) (mulf (broadcastInDim S690000x64 ![0, 1] bcast_S690000x1_S690000x64_0_1 (broadcastInDim S690000x1 ![0] bcast_S690000_S690000x1_0 (B54 m ρ c (Proc.devRef .tc main_v33)))) (Host.gather gather_S50000x64_S690000x1_S690000x64_1_0_n_n_0_1_164 (B54 m ρ c (Proc.devRef .tc main_v253)) (broadcastInDim S690000x1 ![0] bcast_S690000_S690000x1_0 (select (cmpi .slt (B54 m ρ c (Proc.devRef .tc main_v5)) (broadcastInDim S690000 ![] bcast_S_S690000 (constantI S_ 32 0#32))) (addi (B54 m ρ c (Proc.devRef .tc main_v5)) (broadcastInDim S690000 ![] bcast_S_S690000 (constantI S_ 32 50000#32))) (B54 m ρ c (Proc.devRef .tc main_v5))))))) := by
  show StableHlo.after hostOps26 (B54 m ρ c) (Proc.devRef .tc main_v266) = _
  after_results_simp <;> rfl

theorem k6_agg : B55 m ρ c (Proc.devRef .tc main_v266) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B3 m ρ c (Proc.devRef .tc main_v6))) (mulf (broadcastInDim S690000x64 ![0, 1] bcast_S690000x1_S690000x64_0_1 (broadcastInDim S690000x1 ![0] bcast_S690000_S690000x1_0 (B3 m ρ c (Proc.devRef .tc main_v33)))) (Host.gather gather_S50000x64_S690000x1_S690000x64_1_0_n_n_0_1_164 (B54 m ρ c (Proc.devRef .tc main_v253)) (broadcastInDim S690000x1 ![0] bcast_S690000_S690000x1_0 (select (cmpi .slt (B3 m ρ c (Proc.devRef .tc main_v5)) (broadcastInDim S690000 ![] bcast_S_S690000 (constantI S_ 32 0#32))) (addi (B3 m ρ c (Proc.devRef .tc main_v5)) (broadcastInDim S690000 ![] bcast_S_S690000 (constantI S_ 32 50000#32))) (B3 m ρ c (Proc.devRef .tc main_v5))))))) := by
  rw [hread_v266, carry_v5_3_54 m ρ c, carry_v6_3_54 m ρ c, carry_v33_3_54 m ρ c]

theorem k6_lin (r : Fin 50000) (q : Fin 64) : (B54 m ρ c (Proc.devRef .tc main_v253) : S50000x64.Idx → EReal) (ix2 r q) =ᵉ ∑ k : Fin 64, (B52 m ρ c (Proc.devRef .tc main_v251) : S50000x64.Idx → EReal) (ix2 r k) *ᵉ (B5 m ρ c (Proc.devRef .tc main_v51) : S64x64.Idx → EReal) (ix2 q k) := by
  rw [regval25]
  refine Finset.sum_congr rfl fun k _ => ?_
  rw [k6_Wt, carry_v251_52_53 m ρ c]

theorem k6_pre (r : Fin 50000) (q : Fin 64) : (B56 m ρ c (Proc.devRef .tc main_v268_0) : S50000x64.Idx → EReal) (ix2 r q) =ᵉ ((B55 m ρ c (Proc.devRef .tc main_v266) : S50000x64.Idx → EReal) (ix2 r q) +ᵉ (B5 m ρ c (Proc.devRef .tc main_v53) : S64.Idx → EReal) (ix1 q)) +ᵉ (B48 m ρ c (Proc.devRef .tc main_v243_1) : S50000x64.Idx → EReal) (ix2 r q) := by
  rw [regval26_pre, k6_b, carry_v243_1_48_55 m ρ c]

theorem k6_cum (r : Fin 50000) (q : Fin 64) : (B56 m ρ c (Proc.devRef .tc main_v268_1) : S50000x64.Idx → EReal) (ix2 r q) =ᵉ (B48 m ρ c (Proc.devRef .tc main_v243_1) : S50000x64.Idx → EReal) (ix2 r q) +ᵉ ((B55 m ρ c (Proc.devRef .tc main_v266) : S50000x64.Idx → EReal) (ix2 r q) +ᵉ (B5 m ρ c (Proc.devRef .tc main_v53) : S64.Idx → EReal) (ix1 q)) := by
  rw [regval26_cum, k6_b, carry_v243_1_48_55 m ρ c]

theorem hread_v270 : B57 m ρ c (Proc.devRef .tc main_v270) = (Host.divf (B56 m ρ c (Proc.devRef .tc main_v268_2)) (broadcastInDim S1x64 ![] bcast_S_S1x64 (constant (F := Ideal) S_ .f32 0x47435000#32))) := by
  show StableHlo.after hostOps27 (B56 m ρ c) (Proc.devRef .tc main_v270) = _
  after_results <;> rfl

theorem k6_mean (j : Fin 64) : (B57 m ρ c (Proc.devRef .tc main_v270) : S1x64.Idx → EReal) (ix2 0 j) =ᵉ colMean (fun i j => (B56 m ρ c (Proc.devRef .tc main_v268_0) : S50000x64.Idx → EReal) (ix2 i j)) j := by
  rw [hread_v270]
  show Ideal.div ((B56 m ρ c (Proc.devRef .tc main_v268_2) : S1x64.Idx → EReal) (ix2 0 j)) cRows = _
  rw [regval26_sum']
  rfl

theorem hread_v273 : B59 m ρ c (Proc.devRef .tc main_v273) = (Host.divf (B58 m ρ c (Proc.devRef .tc main_v271)) (broadcastInDim S1x64 ![] bcast_S_S1x64 (constant (F := Ideal) S_ .f32 0x47435000#32))) := by
  show StableHlo.after hostOps28 (B58 m ρ c) (Proc.devRef .tc main_v273) = _
  after_results <;> rfl

theorem k6_var (j : Fin 64) : (B59 m ρ c (Proc.devRef .tc main_v273) : S1x64.Idx → EReal) (ix2 0 j) =ᵉ colVar (fun i j => (B56 m ρ c (Proc.devRef .tc main_v268_0) : S50000x64.Idx → EReal) (ix2 i j)) j := by
  rw [hread_v273]
  show Ideal.div ((B58 m ρ c (Proc.devRef .tc main_v271) : S1x64.Idx → EReal) (ix2 0 j)) cRows = _
  rw [regval27, carry_v268_0_56_57 m ρ c, show (fun j => (B57 m ρ c (Proc.devRef .tc main_v270) : S1x64.Idx → EReal) (ix2 0 j)) = colMean (fun i j => (B56 m ρ c (Proc.devRef .tc main_v268_0) : S50000x64.Idx → EReal) (ix2 i j)) from funext (k6_mean m ρ c)]
  rfl

theorem k6_act (r : Fin 50000) (q : Fin 64) : (B60 m ρ c (Proc.devRef .tc main_v276) : S50000x64.Idx → EReal) (ix2 r q)
    =ᵉ Cert.Val.act (fun i j => (B56 m ρ c (Proc.devRef .tc main_v268_0) : S50000x64.Idx → EReal) (ix2 i j)) (fun j => (B5 m ρ c (Proc.devRef .tc main_v83) : S64.Idx → EReal) (ix1 j)) (fun j => (B5 m ρ c (Proc.devRef .tc main_v85) : S64.Idx → EReal) (ix1 j)) r q := by
  rw [regval28, carry_v268_0_56_59 m ρ c, carry_v270_57_59 m ρ c,
    show (fun j => (B57 m ρ c (Proc.devRef .tc main_v270) : S1x64.Idx → EReal) (ix2 0 j)) = colMean (fun i j => (B56 m ρ c (Proc.devRef .tc main_v268_0) : S50000x64.Idx → EReal) (ix2 i j)) from funext (k6_mean m ρ c),
    show (fun j => (B59 m ρ c (Proc.devRef .tc main_v273) : S1x64.Idx → EReal) (ix2 0 j)) = colVar (fun i j => (B56 m ρ c (Proc.devRef .tc main_v268_0) : S50000x64.Idx → EReal) (ix2 i j)) from funext (k6_var m ρ c),
    show (fun j => (B59 m ρ c (Proc.devRef .tc main_v274) : S1x64.Idx → EReal) (ix2 0 j)) = (fun j => (B5 m ρ c (Proc.devRef .tc main_v83) : S64.Idx → EReal) (ix1 j)) from funext (k6_g m ρ c),
    show (fun j => (B59 m ρ c (Proc.devRef .tc main_v275) : S1x64.Idx → EReal) (ix2 0 j)) = (fun j => (B5 m ρ c (Proc.devRef .tc main_v85) : S64.Idx → EReal) (ix1 j)) from funext (k6_be m ρ c)]
  rfl

end Cert.KernelIdeal.Hand

end
-- ==== Proof.Val.K7.lean ====
/-
  Layer 7 of the network on the kernel program's side, read at an index over the extended reals: the
  linear region's output as the product with the (host-transposed) weight, the aggregation as the host's
  gather / scale / scatter-add term, the first stage's outputs as the bias (and residual) sums, and the
  layer's activation as softmax_one of the batch-norm with the array's own column mean and variance — the
  column statistics assembled from the two accumulating regions and the host's divisions by the row count.
-/
import proofs.«408084_j48395691492010_3_alg».proof.Proof.KI.Args
import proofs.«408084_j48395691492010_3_alg».proof.Proof.Val.RegVal
import proofs.«408084_j48395691492010_3_alg».proof.Proof.Val.Carry
import proofs.«408084_j48395691492010_3_alg».proof.Proof.Val.SpecFn
import proofs.«408084_j48395691492010_3_alg».proof.Proof.Algebra
import Idealize.ShloMosaic.Lib.ValueIdx
import Idealize.ShloMosaic.Lib.ValueLayout
import Idealize.ShloMosaic.Lib.StableHlo
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Cert.Val
open scoped BigOperators

variable (m : (ℓ : Loc nD τ sig) → Buf (Elt Ideal) ℓ) (ρ : Dev nD → PrngReg) (c : Dev nD)

/- The extended reals' sum and product, named outright: an array's entry has the element type of its buffer,
   which unfolds to the extended reals but is not syntactically them. -/
local notation:65 a:65 " +ᵉ " b:66 => HAdd.hAdd (α := EReal) (β := EReal) (γ := EReal) a b
local notation:70 a:70 " *ᵉ " b:71 => HMul.hMul (α := EReal) (β := EReal) (γ := EReal) a b
local notation:50 a:51 " =ᵉ " b:51 => Eq (α := EReal) a b

/-! ## Layer 7 -/

theorem hread_v277 : B61 m ρ c (Proc.devRef .tc main_v277) = (transpose S64x64 [1, 0] (B60 m ρ c (Proc.devRef .tc main_v55)) transposes_S64x64_S64x64_1_0) := by
  show StableHlo.after hostOps29 (B60 m ρ c) (Proc.devRef .tc main_v277) = _
  after_results <;> rfl

theorem k7_Wt (k : Fin 64) (q : Fin 64) : (B61 m ρ c (Proc.devRef .tc main_v277) : S64x64.Idx → EReal) (ix2 k q) =ᵉ (B5 m ρ c (Proc.devRef .tc main_v55) : S64x64.Idx → EReal) (ix2 q k) := by
  rw [hread_v277, transpose_ix2_apply, carry_v55_5_60 m ρ c]

set_option maxHeartbeats 4000000 in
theorem hread_v292 : B63 m ρ c (Proc.devRef .tc main_v292) = (shapeCast S1x64 (B62 m ρ c (Proc.devRef .tc main_v57)) shapeCasts_S64_S1x64) := by
  show StableHlo.after hostOps30 (B62 m ρ c) (Proc.devRef .tc main_v292) = _
  after_results_simp <;> rfl

theorem k7_b (q : Fin 64) : (B63 m ρ c (Proc.devRef .tc main_v292) : S1x64.Idx → EReal) (ix2 0 q) =ᵉ (B5 m ρ c (Proc.devRef .tc main_v57) : S64.Idx → EReal) (ix1 q) := by
  rw [hread_v292, shapeCast_a_1a_apply, carry_v57_5_62 m ρ c]

theorem hread_v299 : B67 m ρ c (Proc.devRef .tc main_v299) = (shapeCast S1x64 (B66 m ρ c (Proc.devRef .tc main_v87)) shapeCasts_S64_S1x64) := by
  show StableHlo.after hostOps32 (B66 m ρ c) (Proc.devRef .tc main_v299) = _
  after_results <;> rfl

theorem hread_v300 : B67 m ρ c (Proc.devRef .tc main_v300) = (shapeCast S1x64 (B66 m ρ c (Proc.devRef .tc main_v89)) shapeCasts_S64_S1x64) := by
  show StableHlo.after hostOps32 (B66 m ρ c) (Proc.devRef .tc main_v300) = _
  after_results <;> rfl

theorem k7_g (q : Fin 64) : (B67 m ρ c (Proc.devRef .tc main_v299) : S1x64.Idx → EReal) (ix2 0 q) =ᵉ (B5 m ρ c (Proc.devRef .tc main_v87) : S64.Idx → EReal) (ix1 q) := by
  rw [hread_v299, shapeCast_a_1a_apply, carry_v87_5_66 m ρ c]

theorem k7_be (q : Fin 64) : (B67 m ρ c (Proc.devRef .tc main_v300) : S1x64.Idx → EReal) (ix2 0 q) =ᵉ (B5 m ρ c (Proc.devRef .tc main_v89) : S64.Idx → EReal) (ix1 q) := by
  rw [hread_v300, shapeCast_a_1a_apply, carry_v89_5_66 m ρ c]

set_option maxHeartbeats 4000000 in
theorem hread_v291 : B63 m ρ c (Proc.devRef .tc main_v291) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B62 m ρ c (Proc.devRef .tc main_v6))) (mulf (broadcastInDim S690000x64 ![0, 1] bcast_S690000x1_S690000x64_0_1 (broadcastInDim S690000x1 ![0] bcast_S690000_S690000x1_0 (B62 m ρ c (Proc.devRef .tc main_v33)))) (Host.gather gather_S50000x64_S690000x1_S690000x64_1_0_n_n_0_1_164 (B62 m ρ c (Proc.devRef .tc main_v278)) (broadcastInDim S690000x1 ![0] bcast_S690000_S690000x1_0 (select (cmpi .slt (B62 m ρ c (Proc.devRef .tc main_v5)) (broadcastInDim S690000 ![] bcast_S_S690000 (constantI S_ 32 0#32))) (addi (B62 m ρ c (Proc.devRef .tc main_v5)) (broadcastInDim S690000 ![] bcast_S_S690000 (constantI S_ 32 50000#32))) (B62 m ρ c (Proc.devRef .tc main_v5))))))) := by
  show StableHlo.after hostOps30 (B62 m ρ c) (Proc.devRef .tc main_v291) = _
  after_results_simp <;> rfl

theorem k7_agg : B63 m ρ c (Proc.devRef .tc main_v291) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B3 m ρ c (Proc.devRef .tc main_v6))) (mulf (broadcastInDim S690000x64 ![0, 1] bcast_S690000x1_S690000x64_0_1 (broadcastInDim S690000x1 ![0] bcast_S690000_S690000x1_0 (B3 m ρ c (Proc.devRef .tc main_v33)))) (Host.gather gather_S50000x64_S690000x1_S690000x64_1_0_n_n_0_1_164 (B62 m ρ c (Proc.devRef .tc main_v278)) (broadcastInDim S690000x1 ![0] bcast_S690000_S690000x1_0 (select (cmpi .slt (B3 m ρ c (Proc.devRef .tc main_v5)) (broadcastInDim S690000 ![] bcast_S_S690000 (constantI S_ 32 0#32))) (addi (B3 m ρ c (Proc.devRef .tc main_v5)) (broadcastInDim S690000 ![] bcast_S_S690000 (constantI S_ 32 50000#32))) (B3 m ρ c (Proc.devRef .tc main_v5))))))) := by
  rw [hread_v291, carry_v5_3_62 m ρ c, carry_v6_3_62 m ρ c, carry_v33_3_62 m ρ c]

theorem k7_lin (r : Fin 50000) (q : Fin 64) : (B62 m ρ c (Proc.devRef .tc main_v278) : S50000x64.Idx → EReal) (ix2 r q) =ᵉ ∑ k : Fin 64, (B60 m ρ c (Proc.devRef .tc main_v276) : S50000x64.Idx → EReal) (ix2 r k) *ᵉ (B5 m ρ c (Proc.devRef .tc main_v55) : S64x64.Idx → EReal) (ix2 q k) := by
  rw [regval29]
  refine Finset.sum_congr rfl fun k _ => ?_
  rw [k7_Wt, carry_v276_60_61 m ρ c]

theorem k7_pre (r : Fin 50000) (q : Fin 64) : (B64 m ρ c (Proc.devRef .tc main_v293_0) : S50000x64.Idx → EReal) (ix2 r q) =ᵉ ((B63 m ρ c (Proc.devRef .tc main_v291) : S50000x64.Idx → EReal) (ix2 r q) +ᵉ (B5 m ρ c (Proc.devRef .tc main_v57) : S64.Idx → EReal) (ix1 q)) +ᵉ (B56 m ρ c (Proc.devRef .tc main_v268_1) : S50000x64.Idx → EReal) (ix2 r q) := by
  rw [regval30_pre, k7_b, carry_v268_1_56_63 m ρ c]

theorem k7_cum (r : Fin 50000) (q : Fin 64) : (B64 m ρ c (Proc.devRef .tc main_v293_1) : S50000x64.Idx → EReal) (ix2 r q) =ᵉ (B56 m ρ c (Proc.devRef .tc main_v268_1) : S50000x64.Idx → EReal) (ix2 r q) +ᵉ ((B63 m ρ c (Proc.devRef .tc main_v291) : S50000x64.Idx → EReal) (ix2 r q) +ᵉ (B5 m ρ c (Proc.devRef .tc main_v57) : S64.Idx → EReal) (ix1 q)) := by
  rw [regval30_cum, k7_b, carry_v268_1_56_63 m ρ c]

theorem hread_v295 : B65 m ρ c (Proc.devRef .tc main_v295) = (Host.divf (B64 m ρ c (Proc.devRef .tc main_v293_2)) (broadcastInDim S1x64 ![] bcast_S_S1x64 (constant (F := Ideal) S_ .f32 0x47435000#32))) := by
  show StableHlo.after hostOps31 (B64 m ρ c) (Proc.devRef .tc main_v295) = _
  after_results <;> rfl

theorem k7_mean (j : Fin 64) : (B65 m ρ c (Proc.devRef .tc main_v295) : S1x64.Idx → EReal) (ix2 0 j) =ᵉ colMean (fun i j => (B64 m ρ c (Proc.devRef .tc main_v293_0) : S50000x64.Idx → EReal) (ix2 i j)) j := by
  rw [hread_v295]
  show Ideal.div ((B64 m ρ c (Proc.devRef .tc main_v293_2) : S1x64.Idx → EReal) (ix2 0 j)) cRows = _
  rw [regval30_sum']
  rfl

theorem hread_v298 : B67 m ρ c (Proc.devRef .tc main_v298) = (Host.divf (B66 m ρ c (Proc.devRef .tc main_v296)) (broadcastInDim S1x64 ![] bcast_S_S1x64 (constant (F := Ideal) S_ .f32 0x47435000#32))) := by
  show StableHlo.after hostOps32 (B66 m ρ c) (Proc.devRef .tc main_v298) = _
  after_results <;> rfl

theorem k7_var (j : Fin 64) : (B67 m ρ c (Proc.devRef .tc main_v298) : S1x64.Idx → EReal) (ix2 0 j) =ᵉ colVar (fun i j => (B64 m ρ c (Proc.devRef .tc main_v293_0) : S50000x64.Idx → EReal) (ix2 i j)) j := by
  rw [hread_v298]
  show Ideal.div ((B66 m ρ c (Proc.devRef .tc main_v296) : S1x64.Idx → EReal) (ix2 0 j)) cRows = _
  rw [regval31, carry_v293_0_64_65 m ρ c, show (fun j => (B65 m ρ c (Proc.devRef .tc main_v295) : S1x64.Idx → EReal) (ix2 0 j)) = colMean (fun i j => (B64 m ρ c (Proc.devRef .tc main_v293_0) : S50000x64.Idx → EReal) (ix2 i j)) from funext (k7_mean m ρ c)]
  rfl

theorem k7_act (r : Fin 50000) (q : Fin 64) : (B68 m ρ c (Proc.devRef .tc main_v301) : S50000x64.Idx → EReal) (ix2 r q)
    =ᵉ Cert.Val.act (fun i j => (B64 m ρ c (Proc.devRef .tc main_v293_0) : S50000x64.Idx → EReal) (ix2 i j)) (fun j => (B5 m ρ c (Proc.devRef .tc main_v87) : S64.Idx → EReal) (ix1 j)) (fun j => (B5 m ρ c (Proc.devRef .tc main_v89) : S64.Idx → EReal) (ix1 j)) r q := by
  rw [regval32, carry_v293_0_64_67 m ρ c, carry_v295_65_67 m ρ c,
    show (fun j => (B65 m ρ c (Proc.devRef .tc main_v295) : S1x64.Idx → EReal) (ix2 0 j)) = colMean (fun i j => (B64 m ρ c (Proc.devRef .tc main_v293_0) : S50000x64.Idx → EReal) (ix2 i j)) from funext (k7_mean m ρ c),
    show (fun j => (B67 m ρ c (Proc.devRef .tc main_v298) : S1x64.Idx → EReal) (ix2 0 j)) = colVar (fun i j => (B64 m ρ c (Proc.devRef .tc main_v293_0) : S50000x64.Idx → EReal) (ix2 i j)) from funext (k7_var m ρ c),
    show (fun j => (B67 m ρ c (Proc.devRef .tc main_v299) : S1x64.Idx → EReal) (ix2 0 j)) = (fun j => (B5 m ρ c (Proc.devRef .tc main_v87) : S64.Idx → EReal) (ix1 j)) from funext (k7_g m ρ c),
    show (fun j => (B67 m ρ c (Proc.devRef .tc main_v300) : S1x64.Idx → EReal) (ix2 0 j)) = (fun j => (B5 m ρ c (Proc.devRef .tc main_v89) : S64.Idx → EReal) (ix1 j)) from funext (k7_be m ρ c)]
  rfl

end Cert.KernelIdeal.Hand

end
-- ==== Proof.Val.K8.lean ====
/-
  Layer 8 of the network on the kernel program's side, read at an index over the extended reals: the
  linear region's output as the product with the (host-transposed) weight, the aggregation as the host's
  gather / scale / scatter-add term, the first stage's outputs as the bias (and residual) sums, and the
  layer's activation as softmax_one of the batch-norm with the array's own column mean and variance — the
  column statistics assembled from the two accumulating regions and the host's divisions by the row count.
-/
import proofs.«408084_j48395691492010_3_alg».proof.Proof.KI.Args
import proofs.«408084_j48395691492010_3_alg».proof.Proof.Val.RegVal
import proofs.«408084_j48395691492010_3_alg».proof.Proof.Val.Carry
import proofs.«408084_j48395691492010_3_alg».proof.Proof.Val.SpecFn
import proofs.«408084_j48395691492010_3_alg».proof.Proof.Algebra
import Idealize.ShloMosaic.Lib.ValueIdx
import Idealize.ShloMosaic.Lib.ValueLayout
import Idealize.ShloMosaic.Lib.StableHlo
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Cert.Val
open scoped BigOperators

variable (m : (ℓ : Loc nD τ sig) → Buf (Elt Ideal) ℓ) (ρ : Dev nD → PrngReg) (c : Dev nD)

/- The extended reals' sum and product, named outright: an array's entry has the element type of its buffer,
   which unfolds to the extended reals but is not syntactically them. -/
local notation:65 a:65 " +ᵉ " b:66 => HAdd.hAdd (α := EReal) (β := EReal) (γ := EReal) a b
local notation:70 a:70 " *ᵉ " b:71 => HMul.hMul (α := EReal) (β := EReal) (γ := EReal) a b
local notation:50 a:51 " =ᵉ " b:51 => Eq (α := EReal) a b

/-! ## Layer 8 -/

theorem hread_v302 : B69 m ρ c (Proc.devRef .tc main_v302) = (transpose S64x64 [1, 0] (B68 m ρ c (Proc.devRef .tc main_v59)) transposes_S64x64_S64x64_1_0) := by
  show StableHlo.after hostOps33 (B68 m ρ c) (Proc.devRef .tc main_v302) = _
  after_results <;> rfl

theorem k8_Wt (k : Fin 64) (q : Fin 64) : (B69 m ρ c (Proc.devRef .tc main_v302) : S64x64.Idx → EReal) (ix2 k q) =ᵉ (B5 m ρ c (Proc.devRef .tc main_v59) : S64x64.Idx → EReal) (ix2 q k) := by
  rw [hread_v302, transpose_ix2_apply, carry_v59_5_68 m ρ c]

set_option maxHeartbeats 4000000 in
theorem hread_v317 : B71 m ρ c (Proc.devRef .tc main_v317) = (shapeCast S1x64 (B70 m ρ c (Proc.devRef .tc main_v61)) shapeCasts_S64_S1x64) := by
  show StableHlo.after hostOps34 (B70 m ρ c) (Proc.devRef .tc main_v317) = _
  after_results_simp <;> rfl

theorem k8_b (q : Fin 64) : (B71 m ρ c (Proc.devRef .tc main_v317) : S1x64.Idx → EReal) (ix2 0 q) =ᵉ (B5 m ρ c (Proc.devRef .tc main_v61) : S64.Idx → EReal) (ix1 q) := by
  rw [hread_v317, shapeCast_a_1a_apply, carry_v61_5_70 m ρ c]

theorem hread_v324 : B75 m ρ c (Proc.devRef .tc main_v324) = (shapeCast S1x64 (B74 m ρ c (Proc.devRef .tc main_v91)) shapeCasts_S64_S1x64) := by
  show StableHlo.after hostOps36 (B74 m ρ c) (Proc.devRef .tc main_v324) = _
  after_results <;> rfl

theorem hread_v325 : B75 m ρ c (Proc.devRef .tc main_v325) = (shapeCast S1x64 (B74 m ρ c (Proc.devRef .tc main_v93)) shapeCasts_S64_S1x64) := by
  show StableHlo.after hostOps36 (B74 m ρ c) (Proc.devRef .tc main_v325) = _
  after_results <;> rfl

theorem k8_g (q : Fin 64) : (B75 m ρ c (Proc.devRef .tc main_v324) : S1x64.Idx → EReal) (ix2 0 q) =ᵉ (B5 m ρ c (Proc.devRef .tc main_v91) : S64.Idx → EReal) (ix1 q) := by
  rw [hread_v324, shapeCast_a_1a_apply, carry_v91_5_74 m ρ c]

theorem k8_be (q : Fin 64) : (B75 m ρ c (Proc.devRef .tc main_v325) : S1x64.Idx → EReal) (ix2 0 q) =ᵉ (B5 m ρ c (Proc.devRef .tc main_v93) : S64.Idx → EReal) (ix1 q) := by
  rw [hread_v325, shapeCast_a_1a_apply, carry_v93_5_74 m ρ c]

set_option maxHeartbeats 4000000 in
theorem hread_v316 : B71 m ρ c (Proc.devRef .tc main_v316) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B70 m ρ c (Proc.devRef .tc main_v6))) (mulf (broadcastInDim S690000x64 ![0, 1] bcast_S690000x1_S690000x64_0_1 (broadcastInDim S690000x1 ![0] bcast_S690000_S690000x1_0 (B70 m ρ c (Proc.devRef .tc main_v33)))) (Host.gather gather_S50000x64_S690000x1_S690000x64_1_0_n_n_0_1_164 (B70 m ρ c (Proc.devRef .tc main_v303)) (broadcastInDim S690000x1 ![0] bcast_S690000_S690000x1_0 (select (cmpi .slt (B70 m ρ c (Proc.devRef .tc main_v5)) (broadcastInDim S690000 ![] bcast_S_S690000 (constantI S_ 32 0#32))) (addi (B70 m ρ c (Proc.devRef .tc main_v5)) (broadcastInDim S690000 ![] bcast_S_S690000 (constantI S_ 32 50000#32))) (B70 m ρ c (Proc.devRef .tc main_v5))))))) := by
  show StableHlo.after hostOps34 (B70 m ρ c) (Proc.devRef .tc main_v316) = _
  after_results_simp <;> rfl

theorem k8_agg : B71 m ρ c (Proc.devRef .tc main_v316) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B3 m ρ c (Proc.devRef .tc main_v6))) (mulf (broadcastInDim S690000x64 ![0, 1] bcast_S690000x1_S690000x64_0_1 (broadcastInDim S690000x1 ![0] bcast_S690000_S690000x1_0 (B3 m ρ c (Proc.devRef .tc main_v33)))) (Host.gather gather_S50000x64_S690000x1_S690000x64_1_0_n_n_0_1_164 (B70 m ρ c (Proc.devRef .tc main_v303)) (broadcastInDim S690000x1 ![0] bcast_S690000_S690000x1_0 (select (cmpi .slt (B3 m ρ c (Proc.devRef .tc main_v5)) (broadcastInDim S690000 ![] bcast_S_S690000 (constantI S_ 32 0#32))) (addi (B3 m ρ c (Proc.devRef .tc main_v5)) (broadcastInDim S690000 ![] bcast_S_S690000 (constantI S_ 32 50000#32))) (B3 m ρ c (Proc.devRef .tc main_v5))))))) := by
  rw [hread_v316, carry_v5_3_70 m ρ c, carry_v6_3_70 m ρ c, carry_v33_3_70 m ρ c]

theorem k8_lin (r : Fin 50000) (q : Fin 64) : (B70 m ρ c (Proc.devRef .tc main_v303) : S50000x64.Idx → EReal) (ix2 r q) =ᵉ ∑ k : Fin 64, (B68 m ρ c (Proc.devRef .tc main_v301) : S50000x64.Idx → EReal) (ix2 r k) *ᵉ (B5 m ρ c (Proc.devRef .tc main_v59) : S64x64.Idx → EReal) (ix2 q k) := by
  rw [regval33]
  refine Finset.sum_congr rfl fun k _ => ?_
  rw [k8_Wt, carry_v301_68_69 m ρ c]

theorem k8_pre (r : Fin 50000) (q : Fin 64) : (B72 m ρ c (Proc.devRef .tc main_v318_0) : S50000x64.Idx → EReal) (ix2 r q) =ᵉ ((B71 m ρ c (Proc.devRef .tc main_v316) : S50000x64.Idx → EReal) (ix2 r q) +ᵉ (B5 m ρ c (Proc.devRef .tc main_v61) : S64.Idx → EReal) (ix1 q)) +ᵉ (B64 m ρ c (Proc.devRef .tc main_v293_1) : S50000x64.Idx → EReal) (ix2 r q) := by
  rw [regval34_pre, k8_b, carry_v293_1_64_71 m ρ c]

theorem k8_cum (r : Fin 50000) (q : Fin 64) : (B72 m ρ c (Proc.devRef .tc main_v318_1) : S50000x64.Idx → EReal) (ix2 r q) =ᵉ (B64 m ρ c (Proc.devRef .tc main_v293_1) : S50000x64.Idx → EReal) (ix2 r q) +ᵉ ((B71 m ρ c (Proc.devRef .tc main_v316) : S50000x64.Idx → EReal) (ix2 r q) +ᵉ (B5 m ρ c (Proc.devRef .tc main_v61) : S64.Idx → EReal) (ix1 q)) := by
  rw [regval34_cum, k8_b, carry_v293_1_64_71 m ρ c]

theorem hread_v320 : B73 m ρ c (Proc.devRef .tc main_v320) = (Host.divf (B72 m ρ c (Proc.devRef .tc main_v318_2)) (broadcastInDim S1x64 ![] bcast_S_S1x64 (constant (F := Ideal) S_ .f32 0x47435000#32))) := by
  show StableHlo.after hostOps35 (B72 m ρ c) (Proc.devRef .tc main_v320) = _
  after_results <;> rfl

theorem k8_mean (j : Fin 64) : (B73 m ρ c (Proc.devRef .tc main_v320) : S1x64.Idx → EReal) (ix2 0 j) =ᵉ colMean (fun i j => (B72 m ρ c (Proc.devRef .tc main_v318_0) : S50000x64.Idx → EReal) (ix2 i j)) j := by
  rw [hread_v320]
  show Ideal.div ((B72 m ρ c (Proc.devRef .tc main_v318_2) : S1x64.Idx → EReal) (ix2 0 j)) cRows = _
  rw [regval34_sum']
  rfl

theorem hread_v323 : B75 m ρ c (Proc.devRef .tc main_v323) = (Host.divf (B74 m ρ c (Proc.devRef .tc main_v321)) (broadcastInDim S1x64 ![] bcast_S_S1x64 (constant (F := Ideal) S_ .f32 0x47435000#32))) := by
  show StableHlo.after hostOps36 (B74 m ρ c) (Proc.devRef .tc main_v323) = _
  after_results <;> rfl

theorem k8_var (j : Fin 64) : (B75 m ρ c (Proc.devRef .tc main_v323) : S1x64.Idx → EReal) (ix2 0 j) =ᵉ colVar (fun i j => (B72 m ρ c (Proc.devRef .tc main_v318_0) : S50000x64.Idx → EReal) (ix2 i j)) j := by
  rw [hread_v323]
  show Ideal.div ((B74 m ρ c (Proc.devRef .tc main_v321) : S1x64.Idx → EReal) (ix2 0 j)) cRows = _
  rw [regval35, carry_v318_0_72_73 m ρ c, show (fun j => (B73 m ρ c (Proc.devRef .tc main_v320) : S1x64.Idx → EReal) (ix2 0 j)) = colMean (fun i j => (B72 m ρ c (Proc.devRef .tc main_v318_0) : S50000x64.Idx → EReal) (ix2 i j)) from funext (k8_mean m ρ c)]
  rfl

theorem k8_act (r : Fin 50000) (q : Fin 64) : (B76 m ρ c (Proc.devRef .tc main_v326) : S50000x64.Idx → EReal) (ix2 r q)
    =ᵉ Cert.Val.act (fun i j => (B72 m ρ c (Proc.devRef .tc main_v318_0) : S50000x64.Idx → EReal) (ix2 i j)) (fun j => (B5 m ρ c (Proc.devRef .tc main_v91) : S64.Idx → EReal) (ix1 j)) (fun j => (B5 m ρ c (Proc.devRef .tc main_v93) : S64.Idx → EReal) (ix1 j)) r q := by
  rw [regval36, carry_v318_0_72_75 m ρ c, carry_v320_73_75 m ρ c,
    show (fun j => (B73 m ρ c (Proc.devRef .tc main_v320) : S1x64.Idx → EReal) (ix2 0 j)) = colMean (fun i j => (B72 m ρ c (Proc.devRef .tc main_v318_0) : S50000x64.Idx → EReal) (ix2 i j)) from funext (k8_mean m ρ c),
    show (fun j => (B75 m ρ c (Proc.devRef .tc main_v323) : S1x64.Idx → EReal) (ix2 0 j)) = colVar (fun i j => (B72 m ρ c (Proc.devRef .tc main_v318_0) : S50000x64.Idx → EReal) (ix2 i j)) from funext (k8_var m ρ c),
    show (fun j => (B75 m ρ c (Proc.devRef .tc main_v324) : S1x64.Idx → EReal) (ix2 0 j)) = (fun j => (B5 m ρ c (Proc.devRef .tc main_v91) : S64.Idx → EReal) (ix1 j)) from funext (k8_g m ρ c),
    show (fun j => (B75 m ρ c (Proc.devRef .tc main_v325) : S1x64.Idx → EReal) (ix2 0 j)) = (fun j => (B5 m ρ c (Proc.devRef .tc main_v93) : S64.Idx → EReal) (ix1 j)) from funext (k8_be m ρ c)]
  rfl

end Cert.KernelIdeal.Hand

end
-- ==== Proof.Val.K9.lean ====
/-
  Layer 9 of the network on the kernel program's side, read at an index over the extended reals: the
  linear region's output as the product with the (host-transposed) weight, the aggregation as the host's
  gather / scale / scatter-add term, the first stage's outputs as the bias (and residual) sums, and the
  layer's activation as softmax_one of the batch-norm with the array's own column mean and variance — the
  column statistics assembled from the two accumulating regions and the host's divisions by the row count.
-/
import proofs.«408084_j48395691492010_3_alg».proof.Proof.KI.Args
import proofs.«408084_j48395691492010_3_alg».proof.Proof.Val.RegVal
import proofs.«408084_j48395691492010_3_alg».proof.Proof.Val.Carry
import proofs.«408084_j48395691492010_3_alg».proof.Proof.Val.SpecFn
import proofs.«408084_j48395691492010_3_alg».proof.Proof.Algebra
import Idealize.ShloMosaic.Lib.ValueIdx
import Idealize.ShloMosaic.Lib.ValueLayout
import Idealize.ShloMosaic.Lib.StableHlo
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Cert.Val
open scoped BigOperators

variable (m : (ℓ : Loc nD τ sig) → Buf (Elt Ideal) ℓ) (ρ : Dev nD → PrngReg) (c : Dev nD)

/- The extended reals' sum and product, named outright: an array's entry has the element type of its buffer,
   which unfolds to the extended reals but is not syntactically them. -/
local notation:65 a:65 " +ᵉ " b:66 => HAdd.hAdd (α := EReal) (β := EReal) (γ := EReal) a b
local notation:70 a:70 " *ᵉ " b:71 => HMul.hMul (α := EReal) (β := EReal) (γ := EReal) a b
local notation:50 a:51 " =ᵉ " b:51 => Eq (α := EReal) a b

/-! ## Layer 9 -/

theorem hread_v327 : B77 m ρ c (Proc.devRef .tc main_v327) = (transpose S64x64 [1, 0] (B76 m ρ c (Proc.devRef .tc main_v63)) transposes_S64x64_S64x64_1_0) := by
  show StableHlo.after hostOps37 (B76 m ρ c) (Proc.devRef .tc main_v327) = _
  after_results <;> rfl

theorem k9_Wt (k : Fin 64) (q : Fin 64) : (B77 m ρ c (Proc.devRef .tc main_v327) : S64x64.Idx → EReal) (ix2 k q) =ᵉ (B5 m ρ c (Proc.devRef .tc main_v63) : S64x64.Idx → EReal) (ix2 q k) := by
  rw [hread_v327, transpose_ix2_apply, carry_v63_5_76 m ρ c]

set_option maxHeartbeats 4000000 in
theorem hread_v342 : B79 m ρ c (Proc.devRef .tc main_v342) = (shapeCast S1x64 (B78 m ρ c (Proc.devRef .tc main_v65)) shapeCasts_S64_S1x64) := by
  show StableHlo.after hostOps38 (B78 m ρ c) (Proc.devRef .tc main_v342) = _
  after_results_simp <;> rfl

theorem k9_b (q : Fin 64) : (B79 m ρ c (Proc.devRef .tc main_v342) : S1x64.Idx → EReal) (ix2 0 q) =ᵉ (B5 m ρ c (Proc.devRef .tc main_v65) : S64.Idx → EReal) (ix1 q) := by
  rw [hread_v342, shapeCast_a_1a_apply, carry_v65_5_78 m ρ c]

theorem hread_v349 : B83 m ρ c (Proc.devRef .tc main_v349) = (shapeCast S1x64 (B82 m ρ c (Proc.devRef .tc main_v95)) shapeCasts_S64_S1x64) := by
  show StableHlo.after hostOps40 (B82 m ρ c) (Proc.devRef .tc main_v349) = _
  after_results <;> rfl

theorem hread_v350 : B83 m ρ c (Proc.devRef .tc main_v350) = (shapeCast S1x64 (B82 m ρ c (Proc.devRef .tc main_v97)) shapeCasts_S64_S1x64) := by
  show StableHlo.after hostOps40 (B82 m ρ c) (Proc.devRef .tc main_v350) = _
  after_results <;> rfl

theorem k9_g (q : Fin 64) : (B83 m ρ c (Proc.devRef .tc main_v349) : S1x64.Idx → EReal) (ix2 0 q) =ᵉ (B5 m ρ c (Proc.devRef .tc main_v95) : S64.Idx → EReal) (ix1 q) := by
  rw [hread_v349, shapeCast_a_1a_apply, carry_v95_5_82 m ρ c]

theorem k9_be (q : Fin 64) : (B83 m ρ c (Proc.devRef .tc main_v350) : S1x64.Idx → EReal) (ix2 0 q) =ᵉ (B5 m ρ c (Proc.devRef .tc main_v97) : S64.Idx → EReal) (ix1 q) := by
  rw [hread_v350, shapeCast_a_1a_apply, carry_v97_5_82 m ρ c]

set_option maxHeartbeats 4000000 in
theorem hread_v341 : B79 m ρ c (Proc.devRef .tc main_v341) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B78 m ρ c (Proc.devRef .tc main_v6))) (mulf (broadcastInDim S690000x64 ![0, 1] bcast_S690000x1_S690000x64_0_1 (broadcastInDim S690000x1 ![0] bcast_S690000_S690000x1_0 (B78 m ρ c (Proc.devRef .tc main_v33)))) (Host.gather gather_S50000x64_S690000x1_S690000x64_1_0_n_n_0_1_164 (B78 m ρ c (Proc.devRef .tc main_v328)) (broadcastInDim S690000x1 ![0] bcast_S690000_S690000x1_0 (select (cmpi .slt (B78 m ρ c (Proc.devRef .tc main_v5)) (broadcastInDim S690000 ![] bcast_S_S690000 (constantI S_ 32 0#32))) (addi (B78 m ρ c (Proc.devRef .tc main_v5)) (broadcastInDim S690000 ![] bcast_S_S690000 (constantI S_ 32 50000#32))) (B78 m ρ c (Proc.devRef .tc main_v5))))))) := by
  show StableHlo.after hostOps38 (B78 m ρ c) (Proc.devRef .tc main_v341) = _
  after_results_simp <;> rfl

theorem k9_agg : B79 m ρ c (Proc.devRef .tc main_v341) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B3 m ρ c (Proc.devRef .tc main_v6))) (mulf (broadcastInDim S690000x64 ![0, 1] bcast_S690000x1_S690000x64_0_1 (broadcastInDim S690000x1 ![0] bcast_S690000_S690000x1_0 (B3 m ρ c (Proc.devRef .tc main_v33)))) (Host.gather gather_S50000x64_S690000x1_S690000x64_1_0_n_n_0_1_164 (B78 m ρ c (Proc.devRef .tc main_v328)) (broadcastInDim S690000x1 ![0] bcast_S690000_S690000x1_0 (select (cmpi .slt (B3 m ρ c (Proc.devRef .tc main_v5)) (broadcastInDim S690000 ![] bcast_S_S690000 (constantI S_ 32 0#32))) (addi (B3 m ρ c (Proc.devRef .tc main_v5)) (broadcastInDim S690000 ![] bcast_S_S690000 (constantI S_ 32 50000#32))) (B3 m ρ c (Proc.devRef .tc main_v5))))))) := by
  rw [hread_v341, carry_v5_3_78 m ρ c, carry_v6_3_78 m ρ c, carry_v33_3_78 m ρ c]

theorem k9_lin (r : Fin 50000) (q : Fin 64) : (B78 m ρ c (Proc.devRef .tc main_v328) : S50000x64.Idx → EReal) (ix2 r q) =ᵉ ∑ k : Fin 64, (B76 m ρ c (Proc.devRef .tc main_v326) : S50000x64.Idx → EReal) (ix2 r k) *ᵉ (B5 m ρ c (Proc.devRef .tc main_v63) : S64x64.Idx → EReal) (ix2 q k) := by
  rw [regval37]
  refine Finset.sum_congr rfl fun k _ => ?_
  rw [k9_Wt, carry_v326_76_77 m ρ c]

theorem k9_pre (r : Fin 50000) (q : Fin 64) : (B80 m ρ c (Proc.devRef .tc main_v343_0) : S50000x64.Idx → EReal) (ix2 r q) =ᵉ ((B79 m ρ c (Proc.devRef .tc main_v341) : S50000x64.Idx → EReal) (ix2 r q) +ᵉ (B5 m ρ c (Proc.devRef .tc main_v65) : S64.Idx → EReal) (ix1 q)) +ᵉ (B72 m ρ c (Proc.devRef .tc main_v318_1) : S50000x64.Idx → EReal) (ix2 r q) := by
  rw [regval38_pre, k9_b, carry_v318_1_72_79 m ρ c]

theorem k9_cum (r : Fin 50000) (q : Fin 64) : (B80 m ρ c (Proc.devRef .tc main_v343_1) : S50000x64.Idx → EReal) (ix2 r q) =ᵉ (B72 m ρ c (Proc.devRef .tc main_v318_1) : S50000x64.Idx → EReal) (ix2 r q) +ᵉ ((B79 m ρ c (Proc.devRef .tc main_v341) : S50000x64.Idx → EReal) (ix2 r q) +ᵉ (B5 m ρ c (Proc.devRef .tc main_v65) : S64.Idx → EReal) (ix1 q)) := by
  rw [regval38_cum, k9_b, carry_v318_1_72_79 m ρ c]

theorem hread_v345 : B81 m ρ c (Proc.devRef .tc main_v345) = (Host.divf (B80 m ρ c (Proc.devRef .tc main_v343_2)) (broadcastInDim S1x64 ![] bcast_S_S1x64 (constant (F := Ideal) S_ .f32 0x47435000#32))) := by
  show StableHlo.after hostOps39 (B80 m ρ c) (Proc.devRef .tc main_v345) = _
  after_results <;> rfl

theorem k9_mean (j : Fin 64) : (B81 m ρ c (Proc.devRef .tc main_v345) : S1x64.Idx → EReal) (ix2 0 j) =ᵉ colMean (fun i j => (B80 m ρ c (Proc.devRef .tc main_v343_0) : S50000x64.Idx → EReal) (ix2 i j)) j := by
  rw [hread_v345]
  show Ideal.div ((B80 m ρ c (Proc.devRef .tc main_v343_2) : S1x64.Idx → EReal) (ix2 0 j)) cRows = _
  rw [regval38_sum']
  rfl

theorem hread_v348 : B83 m ρ c (Proc.devRef .tc main_v348) = (Host.divf (B82 m ρ c (Proc.devRef .tc main_v346)) (broadcastInDim S1x64 ![] bcast_S_S1x64 (constant (F := Ideal) S_ .f32 0x47435000#32))) := by
  show StableHlo.after hostOps40 (B82 m ρ c) (Proc.devRef .tc main_v348) = _
  after_results <;> rfl

theorem k9_var (j : Fin 64) : (B83 m ρ c (Proc.devRef .tc main_v348) : S1x64.Idx → EReal) (ix2 0 j) =ᵉ colVar (fun i j => (B80 m ρ c (Proc.devRef .tc main_v343_0) : S50000x64.Idx → EReal) (ix2 i j)) j := by
  rw [hread_v348]
  show Ideal.div ((B82 m ρ c (Proc.devRef .tc main_v346) : S1x64.Idx → EReal) (ix2 0 j)) cRows = _
  rw [regval39, carry_v343_0_80_81 m ρ c, show (fun j => (B81 m ρ c (Proc.devRef .tc main_v345) : S1x64.Idx → EReal) (ix2 0 j)) = colMean (fun i j => (B80 m ρ c (Proc.devRef .tc main_v343_0) : S50000x64.Idx → EReal) (ix2 i j)) from funext (k9_mean m ρ c)]
  rfl

theorem k9_act (r : Fin 50000) (q : Fin 64) : (B84 m ρ c (Proc.devRef .tc main_v351) : S50000x64.Idx → EReal) (ix2 r q)
    =ᵉ Cert.Val.act (fun i j => (B80 m ρ c (Proc.devRef .tc main_v343_0) : S50000x64.Idx → EReal) (ix2 i j)) (fun j => (B5 m ρ c (Proc.devRef .tc main_v95) : S64.Idx → EReal) (ix1 j)) (fun j => (B5 m ρ c (Proc.devRef .tc main_v97) : S64.Idx → EReal) (ix1 j)) r q := by
  rw [regval40, carry_v343_0_80_83 m ρ c, carry_v345_81_83 m ρ c,
    show (fun j => (B81 m ρ c (Proc.devRef .tc main_v345) : S1x64.Idx → EReal) (ix2 0 j)) = colMean (fun i j => (B80 m ρ c (Proc.devRef .tc main_v343_0) : S50000x64.Idx → EReal) (ix2 i j)) from funext (k9_mean m ρ c),
    show (fun j => (B83 m ρ c (Proc.devRef .tc main_v348) : S1x64.Idx → EReal) (ix2 0 j)) = colVar (fun i j => (B80 m ρ c (Proc.devRef .tc main_v343_0) : S50000x64.Idx → EReal) (ix2 i j)) from funext (k9_var m ρ c),
    show (fun j => (B83 m ρ c (Proc.devRef .tc main_v349) : S1x64.Idx → EReal) (ix2 0 j)) = (fun j => (B5 m ρ c (Proc.devRef .tc main_v95) : S64.Idx → EReal) (ix1 j)) from funext (k9_g m ρ c),
    show (fun j => (B83 m ρ c (Proc.devRef .tc main_v350) : S1x64.Idx → EReal) (ix2 0 j)) = (fun j => (B5 m ρ c (Proc.devRef .tc main_v97) : S64.Idx → EReal) (ix1 j)) from funext (k9_be m ρ c)]
  rfl

end Cert.KernelIdeal.Hand

end
-- ==== Proof.Val.K10.lean ====
/-
  Layer 10 of the network on the kernel program's side, read at an index over the extended reals: the
  linear region's output as the product with the (host-transposed) weight, the aggregation as the host's
  gather / scale / scatter-add term, the first stage's outputs as the bias (and residual) sums, and the
  layer's activation as softmax_one of the batch-norm with the array's own column mean and variance — the
  column statistics assembled from the two accumulating regions and the host's divisions by the row count.
-/
import proofs.«408084_j48395691492010_3_alg».proof.Proof.KI.Args
import proofs.«408084_j48395691492010_3_alg».proof.Proof.Val.RegVal
import proofs.«408084_j48395691492010_3_alg».proof.Proof.Val.Carry
import proofs.«408084_j48395691492010_3_alg».proof.Proof.Val.SpecFn
import proofs.«408084_j48395691492010_3_alg».proof.Proof.Algebra
import Idealize.ShloMosaic.Lib.ValueIdx
import Idealize.ShloMosaic.Lib.ValueLayout
import Idealize.ShloMosaic.Lib.StableHlo
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Cert.Val
open scoped BigOperators

variable (m : (ℓ : Loc nD τ sig) → Buf (Elt Ideal) ℓ) (ρ : Dev nD → PrngReg) (c : Dev nD)

/- The extended reals' sum and product, named outright: an array's entry has the element type of its buffer,
   which unfolds to the extended reals but is not syntactically them. -/
local notation:65 a:65 " +ᵉ " b:66 => HAdd.hAdd (α := EReal) (β := EReal) (γ := EReal) a b
local notation:70 a:70 " *ᵉ " b:71 => HMul.hMul (α := EReal) (β := EReal) (γ := EReal) a b
local notation:50 a:51 " =ᵉ " b:51 => Eq (α := EReal) a b

/-! ## Layer 10 -/

theorem hread_v352 : B85 m ρ c (Proc.devRef .tc main_v352) = (transpose S64x64 [1, 0] (B84 m ρ c (Proc.devRef .tc main_v67)) transposes_S64x64_S64x64_1_0) := by
  show StableHlo.after hostOps41 (B84 m ρ c) (Proc.devRef .tc main_v352) = _
  after_results <;> rfl

theorem k10_Wt (k : Fin 64) (q : Fin 64) : (B85 m ρ c (Proc.devRef .tc main_v352) : S64x64.Idx → EReal) (ix2 k q) =ᵉ (B5 m ρ c (Proc.devRef .tc main_v67) : S64x64.Idx → EReal) (ix2 q k) := by
  rw [hread_v352, transpose_ix2_apply, carry_v67_5_84 m ρ c]

set_option maxHeartbeats 4000000 in
theorem hread_v367 : B87 m ρ c (Proc.devRef .tc main_v367) = (shapeCast S1x64 (B86 m ρ c (Proc.devRef .tc main_v69)) shapeCasts_S64_S1x64) := by
  show StableHlo.after hostOps42 (B86 m ρ c) (Proc.devRef .tc main_v367) = _
  after_results_simp <;> rfl

theorem k10_b (q : Fin 64) : (B87 m ρ c (Proc.devRef .tc main_v367) : S1x64.Idx → EReal) (ix2 0 q) =ᵉ (B5 m ρ c (Proc.devRef .tc main_v69) : S64.Idx → EReal) (ix1 q) := by
  rw [hread_v367, shapeCast_a_1a_apply, carry_v69_5_86 m ρ c]

theorem hread_v374 : B91 m ρ c (Proc.devRef .tc main_v374) = (shapeCast S1x64 (B90 m ρ c (Proc.devRef .tc main_v99)) shapeCasts_S64_S1x64) := by
  show StableHlo.after hostOps44 (B90 m ρ c) (Proc.devRef .tc main_v374) = _
  after_results <;> rfl

theorem hread_v375 : B91 m ρ c (Proc.devRef .tc main_v375) = (shapeCast S1x64 (B90 m ρ c (Proc.devRef .tc main_v101)) shapeCasts_S64_S1x64) := by
  show StableHlo.after hostOps44 (B90 m ρ c) (Proc.devRef .tc main_v375) = _
  after_results <;> rfl

theorem k10_g (q : Fin 64) : (B91 m ρ c (Proc.devRef .tc main_v374) : S1x64.Idx → EReal) (ix2 0 q) =ᵉ (B5 m ρ c (Proc.devRef .tc main_v99) : S64.Idx → EReal) (ix1 q) := by
  rw [hread_v374, shapeCast_a_1a_apply, carry_v99_5_90 m ρ c]

theorem k10_be (q : Fin 64) : (B91 m ρ c (Proc.devRef .tc main_v375) : S1x64.Idx → EReal) (ix2 0 q) =ᵉ (B5 m ρ c (Proc.devRef .tc main_v101) : S64.Idx → EReal) (ix1 q) := by
  rw [hread_v375, shapeCast_a_1a_apply, carry_v101_5_90 m ρ c]

set_option maxHeartbeats 4000000 in
theorem hread_v366 : B87 m ρ c (Proc.devRef .tc main_v366) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B86 m ρ c (Proc.devRef .tc main_v6))) (mulf (broadcastInDim S690000x64 ![0, 1] bcast_S690000x1_S690000x64_0_1 (broadcastInDim S690000x1 ![0] bcast_S690000_S690000x1_0 (B86 m ρ c (Proc.devRef .tc main_v33)))) (Host.gather gather_S50000x64_S690000x1_S690000x64_1_0_n_n_0_1_164 (B86 m ρ c (Proc.devRef .tc main_v353)) (broadcastInDim S690000x1 ![0] bcast_S690000_S690000x1_0 (select (cmpi .slt (B86 m ρ c (Proc.devRef .tc main_v5)) (broadcastInDim S690000 ![] bcast_S_S690000 (constantI S_ 32 0#32))) (addi (B86 m ρ c (Proc.devRef .tc main_v5)) (broadcastInDim S690000 ![] bcast_S_S690000 (constantI S_ 32 50000#32))) (B86 m ρ c (Proc.devRef .tc main_v5))))))) := by
  show StableHlo.after hostOps42 (B86 m ρ c) (Proc.devRef .tc main_v366) = _
  after_results_simp <;> rfl

theorem k10_agg : B87 m ρ c (Proc.devRef .tc main_v366) = (Host.scatterAdd scatter_S50000x64_S690000x1_S690000x64_1_0_0_1 (broadcastInDim S50000x64 ![] bcast_S_S50000x64 (constant (F := Ideal) S_ .f32 0x00000000#32)) (broadcastInDim S690000x1 ![0] bcast_S690000_S690000x1_0 (B3 m ρ c (Proc.devRef .tc main_v6))) (mulf (broadcastInDim S690000x64 ![0, 1] bcast_S690000x1_S690000x64_0_1 (broadcastInDim S690000x1 ![0] bcast_S690000_S690000x1_0 (B3 m ρ c (Proc.devRef .tc main_v33)))) (Host.gather gather_S50000x64_S690000x1_S690000x64_1_0_n_n_0_1_164 (B86 m ρ c (Proc.devRef .tc main_v353)) (broadcastInDim S690000x1 ![0] bcast_S690000_S690000x1_0 (select (cmpi .slt (B3 m ρ c (Proc.devRef .tc main_v5)) (broadcastInDim S690000 ![] bcast_S_S690000 (constantI S_ 32 0#32))) (addi (B3 m ρ c (Proc.devRef .tc main_v5)) (broadcastInDim S690000 ![] bcast_S_S690000 (constantI S_ 32 50000#32))) (B3 m ρ c (Proc.devRef .tc main_v5))))))) := by
  rw [hread_v366, carry_v5_3_86 m ρ c, carry_v6_3_86 m ρ c, carry_v33_3_86 m ρ c]

theorem k10_lin (r : Fin 50000) (q : Fin 64) : (B86 m ρ c (Proc.devRef .tc main_v353) : S50000x64.Idx → EReal) (ix2 r q) =ᵉ ∑ k : Fin 64, (B84 m ρ c (Proc.devRef .tc main_v351) : S50000x64.Idx → EReal) (ix2 r k) *ᵉ (B5 m ρ c (Proc.devRef .tc main_v67) : S64x64.Idx → EReal) (ix2 q k) := by
  rw [regval41]
  refine Finset.sum_congr rfl fun k _ => ?_
  rw [k10_Wt, carry_v351_84_85 m ρ c]

theorem k10_pre (r : Fin 50000) (q : Fin 64) : (B88 m ρ c (Proc.devRef .tc main_v368_0) : S50000x64.Idx → EReal) (ix2 r q) =ᵉ ((B87 m ρ c (Proc.devRef .tc main_v366) : S50000x64.Idx → EReal) (ix2 r q) +ᵉ (B5 m ρ c (Proc.devRef .tc main_v69) : S64.Idx → EReal) (ix1 q)) +ᵉ (B80 m ρ c (Proc.devRef .tc main_v343_1) : S50000x64.Idx → EReal) (ix2 r q) := by
  rw [regval42_pre, k10_b, carry_v343_1_80_87 m ρ c]

theorem k10_cum (r : Fin 50000) (q : Fin 64) : (B88 m ρ c (Proc.devRef .tc main_v368_1) : S50000x64.Idx → EReal) (ix2 r q) =ᵉ (B80 m ρ c (Proc.devRef .tc main_v343_1) : S50000x64.Idx → EReal) (ix2 r q) +ᵉ ((B87 m ρ c (Proc.devRef .tc main_v366) : S50000x64.Idx → EReal) (ix2 r q) +ᵉ (B5 m ρ c (Proc.devRef .tc main_v69) : S64.Idx → EReal) (ix1 q)) := by
  rw [regval42_cum, k10_b, carry_v343_1_80_87 m ρ c]

theorem hread_v370 : B89 m ρ c (Proc.devRef .tc main_v370) = (Host.divf (B88 m ρ c (Proc.devRef .tc main_v368_2)) (broadcastInDim S1x64 ![] bcast_S_S1x64 (constant (F := Ideal) S_ .f32 0x47435000#32))) := by
  show StableHlo.after hostOps43 (B88 m ρ c) (Proc.devRef .tc main_v370) = _
  after_results <;> rfl

theorem k10_mean (j : Fin 64) : (B89 m ρ c (Proc.devRef .tc main_v370) : S1x64.Idx → EReal) (ix2 0 j) =ᵉ colMean (fun i j => (B88 m ρ c (Proc.devRef .tc main_v368_0) : S50000x64.Idx → EReal) (ix2 i j)) j := by
  rw [hread_v370]
  show Ideal.div ((B88 m ρ c (Proc.devRef .tc main_v368_2) : S1x64.Idx → EReal) (ix2 0 j)) cRows = _
  rw [regval42_sum']
  rfl

theorem hread_v373 : B91 m ρ c (Proc.devRef .tc main_v373) = (Host.divf (B90 m ρ c (Proc.devRef .tc main_v371)) (broadcastInDim S1x64 ![] bcast_S_S1x64 (constant (F := Ideal) S_ .f32 0x47435000#32))) := by
  show StableHlo.after hostOps44 (B90 m ρ c) (Proc.devRef .tc main_v373) = _
  after_results <;> rfl

theorem k10_var (j : Fin 64) : (B91 m ρ c (Proc.devRef .tc main_v373) : S1x64.Idx → EReal) (ix2 0 j) =ᵉ colVar (fun i j => (B88 m ρ c (Proc.devRef .tc main_v368_0) : S50000x64.Idx → EReal) (ix2 i j)) j := by
  rw [hread_v373]
  show Ideal.div ((B90 m ρ c (Proc.devRef .tc main_v371) : S1x64.Idx → EReal) (ix2 0 j)) cRows = _
  rw [regval43, carry_v368_0_88_89 m ρ c, show (fun j => (B89 m ρ c (Proc.devRef .tc main_v370) : S1x64.Idx → EReal) (ix2 0 j)) = colMean (fun i j => (B88 m ρ c (Proc.devRef .tc main_v368_0) : S50000x64.Idx → EReal) (ix2 i j)) from funext (k10_mean m ρ c)]
  rfl

theorem k10_act (r : Fin 50000) (q : Fin 64) : (B92 m ρ c (Proc.devRef .tc main_v376) : S50000x64.Idx → EReal) (ix2 r q)
    =ᵉ Cert.Val.act (fun i j => (B88 m ρ c (Proc.devRef .tc main_v368_0) : S50000x64.Idx → EReal) (ix2 i j)) (fun j => (B5 m ρ c (Proc.devRef .tc main_v99) : S64.Idx → EReal) (ix1 j)) (fun j => (B5 m ρ c (Proc.devRef .tc main_v101) : S64.Idx → EReal) (ix1 j)) r q := by
  rw [regval44, carry_v368_0_88_91 m ρ c, carry_v370_89_91 m ρ c,
    show (fun j => (B89 m ρ c (Proc.devRef .tc main_v370) : S1x64.Idx → EReal) (ix2 0 j)) = colMean (fun i j => (B88 m ρ c (Proc.devRef .tc main_v368_0) : S50000x64.Idx → EReal) (ix2 i j)) from funext (k10_mean m ρ c),
    show (fun j => (B91 m ρ c (Proc.devRef .tc main_v373) : S1x64.Idx → EReal) (ix2 0 j)) = colVar (fun i j => (B88 m ρ c (Proc.devRef .tc main_v368_0) : S50000x64.Idx → EReal) (ix2 i j)) from funext (k10_var m ρ c),
    show (fun j => (B91 m ρ c (Proc.devRef .tc main_v374) : S1x64.Idx → EReal) (ix2 0 j)) = (fun j => (B5 m ρ c (Proc.devRef .tc main_v99) : S64.Idx → EReal) (ix1 j)) from funext (k10_g m ρ c),
    show (fun j => (B91 m ρ c (Proc.devRef .tc main_v375) : S1x64.Idx → EReal) (ix2 0 j)) = (fun j => (B5 m ρ c (Proc.devRef .tc main_v101) : S64.Idx → EReal) (ix1 j)) from funext (k10_be m ρ c)]
  rfl

end Cert.KernelIdeal.Hand

end
-- ==== Proof.Val.RefLayers.lean ====
/-
  The reference network's stages, read at an index over the extended reals.

  A layer of the reference is a product of the layer's input with a weight's transpose, the edge aggregation of
  the product, a bias, from layer 3 on the sum with the convolutions of the layers from 2 on, a batch-norm with
  the array's own column statistics and `softmax_one` along the rows. These are the statements for the layers
  3 to 10, which differ from one another only in their operands' names.
  Each statement opens ONE named intermediate and reads the whole-array expression it abbreviates at an index: a
  product as the finite sum over the contracted axis, a bias as its column's entry, the statistics and activations
  as the coordinate functions `colMean`, `colVar`, `bnAt`, `smOne`, `act`. The operands stay named, so the
  statements chain layer to layer.
-/
import proofs.«408084_j48395691492010_3_alg».proof.Proof.Ref.Defs
import proofs.«408084_j48395691492010_3_alg».proof.Proof.Val.SpecFn
import proofs.«408084_j48395691492010_3_alg».proof.Proof.Val.HostStat
import proofs.«408084_j48395691492010_3_alg».proof.Proof.Val.HostBnSm
import proofs.«408084_j48395691492010_3_alg».proof.Proof.Algebra

open scoped BigOperators

namespace Cert.Val.Ref

open Cert.ReferenceIdeal Cert.ReferenceIdeal.Gen Cert.ReferenceIdeal.Hand Idealize.ShloMosaic Idealize.ShloMosaic.ValueIdx

/-! An entry of one of the run's arrays is an extended real once the signature's table of buffers is looked up, a
    lookup instance search does not make; so the sums and products of entries below name the extended reals'
    operations outright. -/
local notation:65 a:65 " +ᵉ " b:66 => HAdd.hAdd (α := EReal) (β := EReal) (γ := EReal) a b
local notation:70 a:70 " *ᵉ " b:71 => HMul.hMul (α := EReal) (β := EReal) (γ := EReal) a b

variable (R : Valuation τ sig (Elt Ideal))

/-! ## Layer 3 -/

/-- Layer 3's product with the weight's transpose at an entry: row `r` of the layer's input against row `q` of the weight. -/
theorem ref_lin_3 (r : Fin 50000) (q : Fin 64) :
    (res_main_v250 R : S50000x64.Idx → EReal) (ix2 r q)
      = ∑ k : Fin 64, (res_main_v248 R : S50000x64.Idx → EReal) (ix2 r k) *ᵉ (res_main_v42 R : S64x64.Idx → EReal) (ix2 q k) := by
  unfold res_main_v250
  refine (Cert.Algebra.dotGeneral_rows_apply dot_S50000x64_S64x64_S50000x64_1_0_0_1_n_n rfl rfl rfl rfl rfl rfl none _ _ r q).trans ?_
  unfold Cert.Spec.linear
  refine Finset.sum_congr rfl fun k _ => ?_
  exact congrArg (fun w => (res_main_v248 R : S50000x64.Idx → EReal) (ix2 r k) *ᵉ w) (Cert.Algebra.transpose10_apply _ _ k q)

/-- Layer 3's convolution at an entry: the aggregation plus the bias of its column. -/
theorem ref_conv_3 (r : Fin 50000) (q : Fin 64) :
    (res_main_v266 R : S50000x64.Idx → EReal) (ix2 r q)
      = (res_main_v263 R : S50000x64.Idx → EReal) (ix2 r q) +ᵉ (res_main_v44 R : S64.Idx → EReal) (ix1 q) := by
  unfold res_main_v266
  rw [addf_apply, Cert.Val.rowb_apply]

/-- What layer 3's batch-norm normalises: the layer's convolution and then, added one by one, the convolutions of the
    layers from 2 on before it. -/
theorem ref_pre_3 (r : Fin 50000) (q : Fin 64) :
    (res_main_v267 R : S50000x64.Idx → EReal) (ix2 r q)
      = (res_main_v266 R : S50000x64.Idx → EReal) (ix2 r q)
          +ᵉ (res_main_v218 R : S50000x64.Idx → EReal) (ix2 r q) := by
  unfold res_main_v267
  rw [addf_apply]

/-- Layer 3: the column means of what its batch-norm normalises. -/
theorem ref_mean_3 (q : Fin 64) :
    (res_main_v270 R : S64.Idx → EReal) (ix1 q) = Cert.Val.colMean (fun i j => (res_main_v267 R : S50000x64.Idx → EReal) (ix2 i j)) q := by
  unfold res_main_v270
  exact Cert.Val.mean_apply _ _ _ _ q

/-- Layer 3: the biased column variances of what its batch-norm normalises (the deviations and the count are named
    intermediates: they are opened first). -/
theorem ref_var_3 (q : Fin 64) :
    (res_main_v271 R : S64.Idx → EReal) (ix1 q) = Cert.Val.colVar (fun i j => (res_main_v267 R : S50000x64.Idx → EReal) (ix2 i j)) q := by
  unfold res_main_v271 res_main_call4_v5 res_main_call4_v8
  exact Cert.Val.var_apply _ _ _ _ _ _ _ q

/-- Layer 3's batch-norm at an entry, with the array's own column statistics. -/
theorem ref_bn_3 (r : Fin 50000) (q : Fin 64) :
    (res_main_v286 R : S50000x64.Idx → EReal) (ix2 r q)
      = Cert.Val.bnAt (fun i j => (res_main_v267 R : S50000x64.Idx → EReal) (ix2 i j))
          (Cert.Val.colMean (fun i j => (res_main_v267 R : S50000x64.Idx → EReal) (ix2 i j)))
          (Cert.Val.colVar (fun i j => (res_main_v267 R : S50000x64.Idx → EReal) (ix2 i j)))
          (fun j => (res_main_v74 R : S64.Idx → EReal) (ix1 j))
          (fun j => (res_main_v76 R : S64.Idx → EReal) (ix1 j)) r q := by
  unfold res_main_v286
  refine (Cert.Val.bn_apply _ _ _ _ _ _ _ _ r q).trans ?_
  simp only [Cert.Val.bnAt, ref_mean_3, ref_var_3]

/-- Layer 3's `softmax_one` at an entry, of the batch-norm's row. -/
theorem ref_sm_3 (r : Fin 50000) (q : Fin 64) :
    (res_main_v297 R : S50000x64.Idx → EReal) (ix2 r q)
      = Cert.Val.smOne (fun j' => (res_main_v286 R : S50000x64.Idx → EReal) (ix2 r j')) q := by
  unfold res_main_v297 res_main_v291
  exact Cert.Val.softmax_apply _ _ _ _ _ _ r q

/-- Layer 3's activation at an entry: `softmax_one` of the batch-norm, with the column statistics of what the
    batch-norm normalises. -/
theorem ref_act_3 (r : Fin 50000) (q : Fin 64) :
    (res_main_v297 R : S50000x64.Idx → EReal) (ix2 r q)
      = Cert.Val.act (fun i j => (res_main_v267 R : S50000x64.Idx → EReal) (ix2 i j))
          (fun j => (res_main_v74 R : S64.Idx → EReal) (ix1 j))
          (fun j => (res_main_v76 R : S64.Idx → EReal) (ix1 j)) r q := by
  refine (ref_sm_3 R r q).trans ?_
  unfold Cert.Val.act
  exact congrArg (fun y => Cert.Val.smOne y q) (funext fun j' => ref_bn_3 R r j')

/-! ## Layer 4 -/

/-- Layer 4's product with the weight's transpose at an entry: row `r` of the layer's input against row `q` of the weight. -/
theorem ref_lin_4 (r : Fin 50000) (q : Fin 64) :
    (res_main_v299 R : S50000x64.Idx → EReal) (ix2 r q)
      = ∑ k : Fin 64, (res_main_v297 R : S50000x64.Idx → EReal) (ix2 r k) *ᵉ (res_main_v46 R : S64x64.Idx → EReal) (ix2 q k) := by
  unfold res_main_v299
  refine (Cert.Algebra.dotGeneral_rows_apply dot_S50000x64_S64x64_S50000x64_1_0_0_1_n_n rfl rfl rfl rfl rfl rfl none _ _ r q).trans ?_
  unfold Cert.Spec.linear
  refine Finset.sum_congr rfl fun k _ => ?_
  exact congrArg (fun w => (res_main_v297 R : S50000x64.Idx → EReal) (ix2 r k) *ᵉ w) (Cert.Algebra.transpose10_apply _ _ k q)

/-- Layer 4's convolution at an entry: the aggregation plus the bias of its column. -/
theorem ref_conv_4 (r : Fin 50000) (q : Fin 64) :
    (res_main_v315 R : S50000x64.Idx → EReal) (ix2 r q)
      = (res_main_v312 R : S50000x64.Idx → EReal) (ix2 r q) +ᵉ (res_main_v48 R : S64.Idx → EReal) (ix1 q) := by
  unfold res_main_v315
  rw [addf_apply, Cert.Val.rowb_apply]

/-- What layer 4's batch-norm normalises: the layer's convolution and then, added one by one, the convolutions of the
    layers from 2 on before it. -/
theorem ref_pre_4 (r : Fin 50000) (q : Fin 64) :
    (res_main_v317 R : S50000x64.Idx → EReal) (ix2 r q)
      = (res_main_v315 R : S50000x64.Idx → EReal) (ix2 r q)
          +ᵉ (res_main_v218 R : S50000x64.Idx → EReal) (ix2 r q)
          +ᵉ (res_main_v266 R : S50000x64.Idx → EReal) (ix2 r q) := by
  unfold res_main_v317
  rw [addf_apply, addf_apply]

/-- Layer 4: the column means of what its batch-norm normalises. -/
theorem ref_mean_4 (q : Fin 64) :
    (res_main_v320 R : S64.Idx → EReal) (ix1 q) = Cert.Val.colMean (fun i j => (res_main_v317 R : S50000x64.Idx → EReal) (ix2 i j)) q := by
  unfold res_main_v320
  exact Cert.Val.mean_apply _ _ _ _ q

/-- Layer 4: the biased column variances of what its batch-norm normalises (the deviations and the count are named
    intermediates: they are opened first). -/
theorem ref_var_4 (q : Fin 64) :
    (res_main_v321 R : S64.Idx → EReal) (ix1 q) = Cert.Val.colVar (fun i j => (res_main_v317 R : S50000x64.Idx → EReal) (ix2 i j)) q := by
  unfold res_main_v321 res_main_call5_v5 res_main_call5_v8
  exact Cert.Val.var_apply _ _ _ _ _ _ _ q

/-- Layer 4's batch-norm at an entry, with the array's own column statistics. -/
theorem ref_bn_4 (r : Fin 50000) (q : Fin 64) :
    (res_main_v336 R : S50000x64.Idx → EReal) (ix2 r q)
      = Cert.Val.bnAt (fun i j => (res_main_v317 R : S50000x64.Idx → EReal) (ix2 i j))
          (Cert.Val.colMean (fun i j => (res_main_v317 R : S50000x64.Idx → EReal) (ix2 i j)))
          (Cert.Val.colVar (fun i j => (res_main_v317 R : S50000x64.Idx → EReal) (ix2 i j)))
          (fun j => (res_main_v78 R : S64.Idx → EReal) (ix1 j))
          (fun j => (res_main_v80 R : S64.Idx → EReal) (ix1 j)) r q := by
  unfold res_main_v336
  refine (Cert.Val.bn_apply _ _ _ _ _ _ _ _ r q).trans ?_
  simp only [Cert.Val.bnAt, ref_mean_4, ref_var_4]

/-- Layer 4's `softmax_one` at an entry, of the batch-norm's row. -/
theorem ref_sm_4 (r : Fin 50000) (q : Fin 64) :
    (res_main_v347 R : S50000x64.Idx → EReal) (ix2 r q)
      = Cert.Val.smOne (fun j' => (res_main_v336 R : S50000x64.Idx → EReal) (ix2 r j')) q := by
  unfold res_main_v347 res_main_v341
  exact Cert.Val.softmax_apply _ _ _ _ _ _ r q

/-- Layer 4's activation at an entry: `softmax_one` of the batch-norm, with the column statistics of what the
    batch-norm normalises. -/
theorem ref_act_4 (r : Fin 50000) (q : Fin 64) :
    (res_main_v347 R : S50000x64.Idx → EReal) (ix2 r q)
      = Cert.Val.act (fun i j => (res_main_v317 R : S50000x64.Idx → EReal) (ix2 i j))
          (fun j => (res_main_v78 R : S64.Idx → EReal) (ix1 j))
          (fun j => (res_main_v80 R : S64.Idx → EReal) (ix1 j)) r q := by
  refine (ref_sm_4 R r q).trans ?_
  unfold Cert.Val.act
  exact congrArg (fun y => Cert.Val.smOne y q) (funext fun j' => ref_bn_4 R r j')

/-! ## Layer 5 -/

/-- Layer 5's product with the weight's transpose at an entry: row `r` of the layer's input against row `q` of the weight. -/
theorem ref_lin_5 (r : Fin 50000) (q : Fin 64) :
    (res_main_v349 R : S50000x64.Idx → EReal) (ix2 r q)
      = ∑ k : Fin 64, (res_main_v347 R : S50000x64.Idx → EReal) (ix2 r k) *ᵉ (res_main_v50 R : S64x64.Idx → EReal) (ix2 q k) := by
  unfold res_main_v349
  refine (Cert.Algebra.dotGeneral_rows_apply dot_S50000x64_S64x64_S50000x64_1_0_0_1_n_n rfl rfl rfl rfl rfl rfl none _ _ r q).trans ?_
  unfold Cert.Spec.linear
  refine Finset.sum_congr rfl fun k _ => ?_
  exact congrArg (fun w => (res_main_v347 R : S50000x64.Idx → EReal) (ix2 r k) *ᵉ w) (Cert.Algebra.transpose10_apply _ _ k q)

/-- Layer 5's convolution at an entry: the aggregation plus the bias of its column. -/
theorem ref_conv_5 (r : Fin 50000) (q : Fin 64) :
    (res_main_v365 R : S50000x64.Idx → EReal) (ix2 r q)
      = (res_main_v362 R : S50000x64.Idx → EReal) (ix2 r q) +ᵉ (res_main_v52 R : S64.Idx → EReal) (ix1 q) := by
  unfold res_main_v365
  rw [addf_apply, Cert.Val.rowb_apply]

/-- What layer 5's batch-norm normalises: the layer's convolution and then, added one by one, the convolutions of the
    layers from 2 on before it. -/
theorem ref_pre_5 (r : Fin 50000) (q : Fin 64) :
    (res_main_v368 R : S50000x64.Idx → EReal) (ix2 r q)
      = (res_main_v365 R : S50000x64.Idx → EReal) (ix2 r q)
          +ᵉ (res_main_v218 R : S50000x64.Idx → EReal) (ix2 r q)
          +ᵉ (res_main_v266 R : S50000x64.Idx → EReal) (ix2 r q)
          +ᵉ (res_main_v315 R : S50000x64.Idx → EReal) (ix2 r q) := by
  unfold res_main_v368
  rw [addf_apply, addf_apply, addf_apply]

/-- Layer 5: the column means of what its batch-norm normalises. -/
theorem ref_mean_5 (q : Fin 64) :
    (res_main_v371 R : S64.Idx → EReal) (ix1 q) = Cert.Val.colMean (fun i j => (res_main_v368 R : S50000x64.Idx → EReal) (ix2 i j)) q := by
  unfold res_main_v371
  exact Cert.Val.mean_apply _ _ _ _ q

/-- Layer 5: the biased column variances of what its batch-norm normalises (the deviations and the count are named
    intermediates: they are opened first). -/
theorem ref_var_5 (q : Fin 64) :
    (res_main_v372 R : S64.Idx → EReal) (ix1 q) = Cert.Val.colVar (fun i j => (res_main_v368 R : S50000x64.Idx → EReal) (ix2 i j)) q := by
  unfold res_main_v372 res_main_call6_v5 res_main_call6_v8
  exact Cert.Val.var_apply _ _ _ _ _ _ _ q

/-- Layer 5's batch-norm at an entry, with the array's own column statistics. -/
theorem ref_bn_5 (r : Fin 50000) (q : Fin 64) :
    (res_main_v387 R : S50000x64.Idx → EReal) (ix2 r q)
      = Cert.Val.bnAt (fun i j => (res_main_v368 R : S50000x64.Idx → EReal) (ix2 i j))
          (Cert.Val.colMean (fun i j => (res_main_v368 R : S50000x64.Idx → EReal) (ix2 i j)))
          (Cert.Val.colVar (fun i j => (res_main_v368 R : S50000x64.Idx → EReal) (ix2 i j)))
          (fun j => (res_main_v82 R : S64.Idx → EReal) (ix1 j))
          (fun j => (res_main_v84 R : S64.Idx → EReal) (ix1 j)) r q := by
  unfold res_main_v387
  refine (Cert.Val.bn_apply _ _ _ _ _ _ _ _ r q).trans ?_
  simp only [Cert.Val.bnAt, ref_mean_5, ref_var_5]

/-- Layer 5's `softmax_one` at an entry, of the batch-norm's row. -/
theorem ref_sm_5 (r : Fin 50000) (q : Fin 64) :
    (res_main_v398 R : S50000x64.Idx → EReal) (ix2 r q)
      = Cert.Val.smOne (fun j' => (res_main_v387 R : S50000x64.Idx → EReal) (ix2 r j')) q := by
  unfold res_main_v398 res_main_v392
  exact Cert.Val.softmax_apply _ _ _ _ _ _ r q

/-- Layer 5's activation at an entry: `softmax_one` of the batch-norm, with the column statistics of what the
    batch-norm normalises. -/
theorem ref_act_5 (r : Fin 50000) (q : Fin 64) :
    (res_main_v398 R : S50000x64.Idx → EReal) (ix2 r q)
      = Cert.Val.act (fun i j => (res_main_v368 R : S50000x64.Idx → EReal) (ix2 i j))
          (fun j => (res_main_v82 R : S64.Idx → EReal) (ix1 j))
          (fun j => (res_main_v84 R : S64.Idx → EReal) (ix1 j)) r q := by
  refine (ref_sm_5 R r q).trans ?_
  unfold Cert.Val.act
  exact congrArg (fun y => Cert.Val.smOne y q) (funext fun j' => ref_bn_5 R r j')

/-! ## Layer 6 -/

/-- Layer 6's product with the weight's transpose at an entry: row `r` of the layer's input against row `q` of the weight. -/
theorem ref_lin_6 (r : Fin 50000) (q : Fin 64) :
    (res_main_v400 R : S50000x64.Idx → EReal) (ix2 r q)
      = ∑ k : Fin 64, (res_main_v398 R : S50000x64.Idx → EReal) (ix2 r k) *ᵉ (res_main_v54 R : S64x64.Idx → EReal) (ix2 q k) := by
  unfold res_main_v400
  refine (Cert.Algebra.dotGeneral_rows_apply dot_S50000x64_S64x64_S50000x64_1_0_0_1_n_n rfl rfl rfl rfl rfl rfl none _ _ r q).trans ?_
  unfold Cert.Spec.linear
  refine Finset.sum_congr rfl fun k _ => ?_
  exact congrArg (fun w => (res_main_v398 R : S50000x64.Idx → EReal) (ix2 r k) *ᵉ w) (Cert.Algebra.transpose10_apply _ _ k q)

/-- Layer 6's convolution at an entry: the aggregation plus the bias of its column. -/
theorem ref_conv_6 (r : Fin 50000) (q : Fin 64) :
    (res_main_v416 R : S50000x64.Idx → EReal) (ix2 r q)
      = (res_main_v413 R : S50000x64.Idx → EReal) (ix2 r q) +ᵉ (res_main_v56 R : S64.Idx → EReal) (ix1 q) := by
  unfold res_main_v416
  rw [addf_apply, Cert.Val.rowb_apply]

/-- What layer 6's batch-norm normalises: the layer's convolution and then, added one by one, the convolutions of the
    layers from 2 on before it. -/
theorem ref_pre_6 (r : Fin 50000) (q : Fin 64) :
    (res_main_v420 R : S50000x64.Idx → EReal) (ix2 r q)
      = (res_main_v416 R : S50000x64.Idx → EReal) (ix2 r q)
          +ᵉ (res_main_v218 R : S50000x64.Idx → EReal) (ix2 r q)
          +ᵉ (res_main_v266 R : S50000x64.Idx → EReal) (ix2 r q)
          +ᵉ (res_main_v315 R : S50000x64.Idx → EReal) (ix2 r q)
          +ᵉ (res_main_v365 R : S50000x64.Idx → EReal) (ix2 r q) := by
  unfold res_main_v420
  rw [addf_apply, addf_apply, addf_apply, addf_apply]

/-- Layer 6: the column means of what its batch-norm normalises. -/
theorem ref_mean_6 (q : Fin 64) :
    (res_main_v423 R : S64.Idx → EReal) (ix1 q) = Cert.Val.colMean (fun i j => (res_main_v420 R : S50000x64.Idx → EReal) (ix2 i j)) q := by
  unfold res_main_v423
  exact Cert.Val.mean_apply _ _ _ _ q

/-- Layer 6: the biased column variances of what its batch-norm normalises (the deviations and the count are named
    intermediates: they are opened first). -/
theorem ref_var_6 (q : Fin 64) :
    (res_main_v424 R : S64.Idx → EReal) (ix1 q) = Cert.Val.colVar (fun i j => (res_main_v420 R : S50000x64.Idx → EReal) (ix2 i j)) q := by
  unfold res_main_v424 res_main_call7_v5 res_main_call7_v8
  exact Cert.Val.var_apply _ _ _ _ _ _ _ q

/-- Layer 6's batch-norm at an entry, with the array's own column statistics. -/
theorem ref_bn_6 (r : Fin 50000) (q : Fin 64) :
    (res_main_v439 R : S50000x64.Idx → EReal) (ix2 r q)
      = Cert.Val.bnAt (fun i j => (res_main_v420 R : S50000x64.Idx → EReal) (ix2 i j))
          (Cert.Val.colMean (fun i j => (res_main_v420 R : S50000x64.Idx → EReal) (ix2 i j)))
          (Cert.Val.colVar (fun i j => (res_main_v420 R : S50000x64.Idx → EReal) (ix2 i j)))
          (fun j => (res_main_v86 R : S64.Idx → EReal) (ix1 j))
          (fun j => (res_main_v88 R : S64.Idx → EReal) (ix1 j)) r q := by
  unfold res_main_v439
  refine (Cert.Val.bn_apply _ _ _ _ _ _ _ _ r q).trans ?_
  simp only [Cert.Val.bnAt, ref_mean_6, ref_var_6]

/-- Layer 6's `softmax_one` at an entry, of the batch-norm's row. -/
theorem ref_sm_6 (r : Fin 50000) (q : Fin 64) :
    (res_main_v450 R : S50000x64.Idx → EReal) (ix2 r q)
      = Cert.Val.smOne (fun j' => (res_main_v439 R : S50000x64.Idx → EReal) (ix2 r j')) q := by
  unfold res_main_v450 res_main_v444
  exact Cert.Val.softmax_apply _ _ _ _ _ _ r q

/-- Layer 6's activation at an entry: `softmax_one` of the batch-norm, with the column statistics of what the
    batch-norm normalises. -/
theorem ref_act_6 (r : Fin 50000) (q : Fin 64) :
    (res_main_v450 R : S50000x64.Idx → EReal) (ix2 r q)
      = Cert.Val.act (fun i j => (res_main_v420 R : S50000x64.Idx → EReal) (ix2 i j))
          (fun j => (res_main_v86 R : S64.Idx → EReal) (ix1 j))
          (fun j => (res_main_v88 R : S64.Idx → EReal) (ix1 j)) r q := by
  refine (ref_sm_6 R r q).trans ?_
  unfold Cert.Val.act
  exact congrArg (fun y => Cert.Val.smOne y q) (funext fun j' => ref_bn_6 R r j')

/-! ## Layer 7 -/

/-- Layer 7's product with the weight's transpose at an entry: row `r` of the layer's input against row `q` of the weight. -/
theorem ref_lin_7 (r : Fin 50000) (q : Fin 64) :
    (res_main_v452 R : S50000x64.Idx → EReal) (ix2 r q)
      = ∑ k : Fin 64, (res_main_v450 R : S50000x64.Idx → EReal) (ix2 r k) *ᵉ (res_main_v58 R : S64x64.Idx → EReal) (ix2 q k) := by
  unfold res_main_v452
  refine (Cert.Algebra.dotGeneral_rows_apply dot_S50000x64_S64x64_S50000x64_1_0_0_1_n_n rfl rfl rfl rfl rfl rfl none _ _ r q).trans ?_
  unfold Cert.Spec.linear
  refine Finset.sum_congr rfl fun k _ => ?_
  exact congrArg (fun w => (res_main_v450 R : S50000x64.Idx → EReal) (ix2 r k) *ᵉ w) (Cert.Algebra.transpose10_apply _ _ k q)

/-- Layer 7's convolution at an entry: the aggregation plus the bias of its column. -/
theorem ref_conv_7 (r : Fin 50000) (q : Fin 64) :
    (res_main_v468 R : S50000x64.Idx → EReal) (ix2 r q)
      = (res_main_v465 R : S50000x64.Idx → EReal) (ix2 r q) +ᵉ (res_main_v60 R : S64.Idx → EReal) (ix1 q) := by
  unfold res_main_v468
  rw [addf_apply, Cert.Val.rowb_apply]

/-- What layer 7's batch-norm normalises: the layer's convolution and then, added one by one, the convolutions of the
    layers from 2 on before it. -/
theorem ref_pre_7 (r : Fin 50000) (q : Fin 64) :
    (res_main_v473 R : S50000x64.Idx → EReal) (ix2 r q)
      = (res_main_v468 R : S50000x64.Idx → EReal) (ix2 r q)
          +ᵉ (res_main_v218 R : S50000x64.Idx → EReal) (ix2 r q)
          +ᵉ (res_main_v266 R : S50000x64.Idx → EReal) (ix2 r q)
          +ᵉ (res_main_v315 R : S50000x64.Idx → EReal) (ix2 r q)
          +ᵉ (res_main_v365 R : S50000x64.Idx → EReal) (ix2 r q)
          +ᵉ (res_main_v416 R : S50000x64.Idx → EReal) (ix2 r q) := by
  unfold res_main_v473
  rw [addf_apply, addf_apply, addf_apply, addf_apply, addf_apply]

/-- Layer 7: the column means of what its batch-norm normalises. -/
theorem ref_mean_7 (q : Fin 64) :
    (res_main_v476 R : S64.Idx → EReal) (ix1 q) = Cert.Val.colMean (fun i j => (res_main_v473 R : S50000x64.Idx → EReal) (ix2 i j)) q := by
  unfold res_main_v476
  exact Cert.Val.mean_apply _ _ _ _ q

/-- Layer 7: the biased column variances of what its batch-norm normalises (the deviations and the count are named
    intermediates: they are opened first). -/
theorem ref_var_7 (q : Fin 64) :
    (res_main_v477 R : S64.Idx → EReal) (ix1 q) = Cert.Val.colVar (fun i j => (res_main_v473 R : S50000x64.Idx → EReal) (ix2 i j)) q := by
  unfold res_main_v477 res_main_call8_v5 res_main_call8_v8
  exact Cert.Val.var_apply _ _ _ _ _ _ _ q

/-- Layer 7's batch-norm at an entry, with the array's own column statistics. -/
theorem ref_bn_7 (r : Fin 50000) (q : Fin 64) :
    (res_main_v492 R : S50000x64.Idx → EReal) (ix2 r q)
      = Cert.Val.bnAt (fun i j => (res_main_v473 R : S50000x64.Idx → EReal) (ix2 i j))
          (Cert.Val.colMean (fun i j => (res_main_v473 R : S50000x64.Idx → EReal) (ix2 i j)))
          (Cert.Val.colVar (fun i j => (res_main_v473 R : S50000x64.Idx → EReal) (ix2 i j)))
          (fun j => (res_main_v90 R : S64.Idx → EReal) (ix1 j))
          (fun j => (res_main_v92 R : S64.Idx → EReal) (ix1 j)) r q := by
  unfold res_main_v492
  refine (Cert.Val.bn_apply _ _ _ _ _ _ _ _ r q).trans ?_
  simp only [Cert.Val.bnAt, ref_mean_7, ref_var_7]

/-- Layer 7's `softmax_one` at an entry, of the batch-norm's row. -/
theorem ref_sm_7 (r : Fin 50000) (q : Fin 64) :
    (res_main_v503 R : S50000x64.Idx → EReal) (ix2 r q)
      = Cert.Val.smOne (fun j' => (res_main_v492 R : S50000x64.Idx → EReal) (ix2 r j')) q := by
  unfold res_main_v503 res_main_v497
  exact Cert.Val.softmax_apply _ _ _ _ _ _ r q

/-- Layer 7's activation at an entry: `softmax_one` of the batch-norm, with the column statistics of what the
    batch-norm normalises. -/
theorem ref_act_7 (r : Fin 50000) (q : Fin 64) :
    (res_main_v503 R : S50000x64.Idx → EReal) (ix2 r q)
      = Cert.Val.act (fun i j => (res_main_v473 R : S50000x64.Idx → EReal) (ix2 i j))
          (fun j => (res_main_v90 R : S64.Idx → EReal) (ix1 j))
          (fun j => (res_main_v92 R : S64.Idx → EReal) (ix1 j)) r q := by
  refine (ref_sm_7 R r q).trans ?_
  unfold Cert.Val.act
  exact congrArg (fun y => Cert.Val.smOne y q) (funext fun j' => ref_bn_7 R r j')

/-! ## Layer 8 -/

/-- Layer 8's product with the weight's transpose at an entry: row `r` of the layer's input against row `q` of the weight. -/
theorem ref_lin_8 (r : Fin 50000) (q : Fin 64) :
    (res_main_v505 R : S50000x64.Idx → EReal) (ix2 r q)
      = ∑ k : Fin 64, (res_main_v503 R : S50000x64.Idx → EReal) (ix2 r k) *ᵉ (res_main_v62 R : S64x64.Idx → EReal) (ix2 q k) := by
  unfold res_main_v505
  refine (Cert.Algebra.dotGeneral_rows_apply dot_S50000x64_S64x64_S50000x64_1_0_0_1_n_n rfl rfl rfl rfl rfl rfl none _ _ r q).trans ?_
  unfold Cert.Spec.linear
  refine Finset.sum_congr rfl fun k _ => ?_
  exact congrArg (fun w => (res_main_v503 R : S50000x64.Idx → EReal) (ix2 r k) *ᵉ w) (Cert.Algebra.transpose10_apply _ _ k q)

/-- Layer 8's convolution at an entry: the aggregation plus the bias of its column. -/
theorem ref_conv_8 (r : Fin 50000) (q : Fin 64) :
    (res_main_v521 R : S50000x64.Idx → EReal) (ix2 r q)
      = (res_main_v518 R : S50000x64.Idx → EReal) (ix2 r q) +ᵉ (res_main_v64 R : S64.Idx → EReal) (ix1 q) := by
  unfold res_main_v521
  rw [addf_apply, Cert.Val.rowb_apply]

/-- What layer 8's batch-norm normalises: the layer's convolution and then, added one by one, the convolutions of the
    layers from 2 on before it. -/
theorem ref_pre_8 (r : Fin 50000) (q : Fin 64) :
    (res_main_v527 R : S50000x64.Idx → EReal) (ix2 r q)
      = (res_main_v521 R : S50000x64.Idx → EReal) (ix2 r q)
          +ᵉ (res_main_v218 R : S50000x64.Idx → EReal) (ix2 r q)
          +ᵉ (res_main_v266 R : S50000x64.Idx → EReal) (ix2 r q)
          +ᵉ (res_main_v315 R : S50000x64.Idx → EReal) (ix2 r q)
          +ᵉ (res_main_v365 R : S50000x64.Idx → EReal) (ix2 r q)
          +ᵉ (res_main_v416 R : S50000x64.Idx → EReal) (ix2 r q)
          +ᵉ (res_main_v468 R : S50000x64.Idx → EReal) (ix2 r q) := by
  unfold res_main_v527
  rw [addf_apply, addf_apply, addf_apply, addf_apply, addf_apply, addf_apply]

/-- Layer 8: the column means of what its batch-norm normalises. -/
theorem ref_mean_8 (q : Fin 64) :
    (res_main_v530 R : S64.Idx → EReal) (ix1 q) = Cert.Val.colMean (fun i j => (res_main_v527 R : S50000x64.Idx → EReal) (ix2 i j)) q := by
  unfold res_main_v530
  exact Cert.Val.mean_apply _ _ _ _ q

/-- Layer 8: the biased column variances of what its batch-norm normalises (the deviations and the count are named
    intermediates: they are opened first). -/
theorem ref_var_8 (q : Fin 64) :
    (res_main_v531 R : S64.Idx → EReal) (ix1 q) = Cert.Val.colVar (fun i j => (res_main_v527 R : S50000x64.Idx → EReal) (ix2 i j)) q := by
  unfold res_main_v531 res_main_call9_v5 res_main_call9_v8
  exact Cert.Val.var_apply _ _ _ _ _ _ _ q

/-- Layer 8's batch-norm at an entry, with the array's own column statistics. -/
theorem ref_bn_8 (r : Fin 50000) (q : Fin 64) :
    (res_main_v546 R : S50000x64.Idx → EReal) (ix2 r q)
      = Cert.Val.bnAt (fun i j => (res_main_v527 R : S50000x64.Idx → EReal) (ix2 i j))
          (Cert.Val.colMean (fun i j => (res_main_v527 R : S50000x64.Idx → EReal) (ix2 i j)))
          (Cert.Val.colVar (fun i j => (res_main_v527 R : S50000x64.Idx → EReal) (ix2 i j)))
          (fun j => (res_main_v94 R : S64.Idx → EReal) (ix1 j))
          (fun j => (res_main_v96 R : S64.Idx → EReal) (ix1 j)) r q := by
  unfold res_main_v546
  refine (Cert.Val.bn_apply _ _ _ _ _ _ _ _ r q).trans ?_
  simp only [Cert.Val.bnAt, ref_mean_8, ref_var_8]

/-- Layer 8's `softmax_one` at an entry, of the batch-norm's row. -/
theorem ref_sm_8 (r : Fin 50000) (q : Fin 64) :
    (res_main_v557 R : S50000x64.Idx → EReal) (ix2 r q)
      = Cert.Val.smOne (fun j' => (res_main_v546 R : S50000x64.Idx → EReal) (ix2 r j')) q := by
  unfold res_main_v557 res_main_v551
  exact Cert.Val.softmax_apply _ _ _ _ _ _ r q

/-- Layer 8's activation at an entry: `softmax_one` of the batch-norm, with the column statistics of what the
    batch-norm normalises. -/
theorem ref_act_8 (r : Fin 50000) (q : Fin 64) :
    (res_main_v557 R : S50000x64.Idx → EReal) (ix2 r q)
      = Cert.Val.act (fun i j => (res_main_v527 R : S50000x64.Idx → EReal) (ix2 i j))
          (fun j => (res_main_v94 R : S64.Idx → EReal) (ix1 j))
          (fun j => (res_main_v96 R : S64.Idx → EReal) (ix1 j)) r q := by
  refine (ref_sm_8 R r q).trans ?_
  unfold Cert.Val.act
  exact congrArg (fun y => Cert.Val.smOne y q) (funext fun j' => ref_bn_8 R r j')

/-! ## Layer 9 -/

/-- Layer 9's product with the weight's transpose at an entry: row `r` of the layer's input against row `q` of the weight. -/
theorem ref_lin_9 (r : Fin 50000) (q : Fin 64) :
    (res_main_v559 R : S50000x64.Idx → EReal) (ix2 r q)
      = ∑ k : Fin 64, (res_main_v557 R : S50000x64.Idx → EReal) (ix2 r k) *ᵉ (res_main_v66 R : S64x64.Idx → EReal) (ix2 q k) := by
  unfold res_main_v559
  refine (Cert.Algebra.dotGeneral_rows_apply dot_S50000x64_S64x64_S50000x64_1_0_0_1_n_n rfl rfl rfl rfl rfl rfl none _ _ r q).trans ?_
  unfold Cert.Spec.linear
  refine Finset.sum_congr rfl fun k _ => ?_
  exact congrArg (fun w => (res_main_v557 R : S50000x64.Idx → EReal) (ix2 r k) *ᵉ w) (Cert.Algebra.transpose10_apply _ _ k q)

/-- Layer 9's convolution at an entry: the aggregation plus the bias of its column. -/
theorem ref_conv_9 (r : Fin 50000) (q : Fin 64) :
    (res_main_v575 R : S50000x64.Idx → EReal) (ix2 r q)
      = (res_main_v572 R : S50000x64.Idx → EReal) (ix2 r q) +ᵉ (res_main_v68 R : S64.Idx → EReal) (ix1 q) := by
  unfold res_main_v575
  rw [addf_apply, Cert.Val.rowb_apply]

/-- What layer 9's batch-norm normalises: the layer's convolution and then, added one by one, the convolutions of the
    layers from 2 on before it. -/
theorem ref_pre_9 (r : Fin 50000) (q : Fin 64) :
    (res_main_v582 R : S50000x64.Idx → EReal) (ix2 r q)
      = (res_main_v575 R : S50000x64.Idx → EReal) (ix2 r q)
          +ᵉ (res_main_v218 R : S50000x64.Idx → EReal) (ix2 r q)
          +ᵉ (res_main_v266 R : S50000x64.Idx → EReal) (ix2 r q)
          +ᵉ (res_main_v315 R : S50000x64.Idx → EReal) (ix2 r q)
          +ᵉ (res_main_v365 R : S50000x64.Idx → EReal) (ix2 r q)
          +ᵉ (res_main_v416 R : S50000x64.Idx → EReal) (ix2 r q)
          +ᵉ (res_main_v468 R : S50000x64.Idx → EReal) (ix2 r q)
          +ᵉ (res_main_v521 R : S50000x64.Idx → EReal) (ix2 r q) := by
  unfold res_main_v582
  rw [addf_apply, addf_apply, addf_apply, addf_apply, addf_apply, addf_apply, addf_apply]

/-- Layer 9: the column means of what its batch-norm normalises. -/
theorem ref_mean_9 (q : Fin 64) :
    (res_main_v585 R : S64.Idx → EReal) (ix1 q) = Cert.Val.colMean (fun i j => (res_main_v582 R : S50000x64.Idx → EReal) (ix2 i j)) q := by
  unfold res_main_v585
  exact Cert.Val.mean_apply _ _ _ _ q

/-- Layer 9: the biased column variances of what its batch-norm normalises (the deviations and the count are named
    intermediates: they are opened first). -/
theorem ref_var_9 (q : Fin 64) :
    (res_main_v586 R : S64.Idx → EReal) (ix1 q) = Cert.Val.colVar (fun i j => (res_main_v582 R : S50000x64.Idx → EReal) (ix2 i j)) q := by
  unfold res_main_v586 res_main_call10_v5 res_main_call10_v8
  exact Cert.Val.var_apply _ _ _ _ _ _ _ q

/-- Layer 9's batch-norm at an entry, with the array's own column statistics. -/
theorem ref_bn_9 (r : Fin 50000) (q : Fin 64) :
    (res_main_v601 R : S50000x64.Idx → EReal) (ix2 r q)
      = Cert.Val.bnAt (fun i j => (res_main_v582 R : S50000x64.Idx → EReal) (ix2 i j))
          (Cert.Val.colMean (fun i j => (res_main_v582 R : S50000x64.Idx → EReal) (ix2 i j)))
          (Cert.Val.colVar (fun i j => (res_main_v582 R : S50000x64.Idx → EReal) (ix2 i j)))
          (fun j => (res_main_v98 R : S64.Idx → EReal) (ix1 j))
          (fun j => (res_main_v100 R : S64.Idx → EReal) (ix1 j)) r q := by
  unfold res_main_v601
  refine (Cert.Val.bn_apply _ _ _ _ _ _ _ _ r q).trans ?_
  simp only [Cert.Val.bnAt, ref_mean_9, ref_var_9]

/-- Layer 9's `softmax_one` at an entry, of the batch-norm's row. -/
theorem ref_sm_9 (r : Fin 50000) (q : Fin 64) :
    (res_main_v612 R : S50000x64.Idx → EReal) (ix2 r q)
      = Cert.Val.smOne (fun j' => (res_main_v601 R : S50000x64.Idx → EReal) (ix2 r j')) q := by
  unfold res_main_v612 res_main_v606
  exact Cert.Val.softmax_apply _ _ _ _ _ _ r q

/-- Layer 9's activation at an entry: `softmax_one` of the batch-norm, with the column statistics of what the
    batch-norm normalises. -/
theorem ref_act_9 (r : Fin 50000) (q : Fin 64) :
    (res_main_v612 R : S50000x64.Idx → EReal) (ix2 r q)
      = Cert.Val.act (fun i j => (res_main_v582 R : S50000x64.Idx → EReal) (ix2 i j))
          (fun j => (res_main_v98 R : S64.Idx → EReal) (ix1 j))
          (fun j => (res_main_v100 R : S64.Idx → EReal) (ix1 j)) r q := by
  refine (ref_sm_9 R r q).trans ?_
  unfold Cert.Val.act
  exact congrArg (fun y => Cert.Val.smOne y q) (funext fun j' => ref_bn_9 R r j')

/-! ## Layer 10 -/

/-- Layer 10's product with the weight's transpose at an entry: row `r` of the layer's input against row `q` of the weight. -/
theorem ref_lin_10 (r : Fin 50000) (q : Fin 64) :
    (res_main_v614 R : S50000x64.Idx → EReal) (ix2 r q)
      = ∑ k : Fin 64, (res_main_v612 R : S50000x64.Idx → EReal) (ix2 r k) *ᵉ (res_main_v70 R : S64x64.Idx → EReal) (ix2 q k) := by
  unfold res_main_v614
  refine (Cert.Algebra.dotGeneral_rows_apply dot_S50000x64_S64x64_S50000x64_1_0_0_1_n_n rfl rfl rfl rfl rfl rfl none _ _ r q).trans ?_
  unfold Cert.Spec.linear
  refine Finset.sum_congr rfl fun k _ => ?_
  exact congrArg (fun w => (res_main_v612 R : S50000x64.Idx → EReal) (ix2 r k) *ᵉ w) (Cert.Algebra.transpose10_apply _ _ k q)

/-- Layer 10's convolution at an entry: the aggregation plus the bias of its column. -/
theorem ref_conv_10 (r : Fin 50000) (q : Fin 64) :
    (res_main_v630 R : S50000x64.Idx → EReal) (ix2 r q)
      = (res_main_v627 R : S50000x64.Idx → EReal) (ix2 r q) +ᵉ (res_main_v72 R : S64.Idx → EReal) (ix1 q) := by
  unfold res_main_v630
  rw [addf_apply, Cert.Val.rowb_apply]

/-- What layer 10's batch-norm normalises: the layer's convolution and then, added one by one, the convolutions of the
    layers from 2 on before it. -/
theorem ref_pre_10 (r : Fin 50000) (q : Fin 64) :
    (res_main_v638 R : S50000x64.Idx → EReal) (ix2 r q)
      = (res_main_v630 R : S50000x64.Idx → EReal) (ix2 r q)
          +ᵉ (res_main_v218 R : S50000x64.Idx → EReal) (ix2 r q)
          +ᵉ (res_main_v266 R : S50000x64.Idx → EReal) (ix2 r q)
          +ᵉ (res_main_v315 R : S50000x64.Idx → EReal) (ix2 r q)
          +ᵉ (res_main_v365 R : S50000x64.Idx → EReal) (ix2 r q)
          +ᵉ (res_main_v416 R : S50000x64.Idx → EReal) (ix2 r q)
          +ᵉ (res_main_v468 R : S50000x64.Idx → EReal) (ix2 r q)
          +ᵉ (res_main_v521 R : S50000x64.Idx → EReal) (ix2 r q)
          +ᵉ (res_main_v575 R : S50000x64.Idx → EReal) (ix2 r q) := by
  unfold res_main_v638
  rw [addf_apply, addf_apply, addf_apply, addf_apply, addf_apply, addf_apply, addf_apply, addf_apply]

/-- Layer 10: the column means of what its batch-norm normalises. -/
theorem ref_mean_10 (q : Fin 64) :
    (res_main_v641 R : S64.Idx → EReal) (ix1 q) = Cert.Val.colMean (fun i j => (res_main_v638 R : S50000x64.Idx → EReal) (ix2 i j)) q := by
  unfold res_main_v641
  exact Cert.Val.mean_apply _ _ _ _ q

/-- Layer 10: the biased column variances of what its batch-norm normalises (the deviations and the count are named
    intermediates: they are opened first). -/
theorem ref_var_10 (q : Fin 64) :
    (res_main_v642 R : S64.Idx → EReal) (ix1 q) = Cert.Val.colVar (fun i j => (res_main_v638 R : S50000x64.Idx → EReal) (ix2 i j)) q := by
  unfold res_main_v642 res_main_call11_v5 res_main_call11_v8
  exact Cert.Val.var_apply _ _ _ _ _ _ _ q

/-- Layer 10's batch-norm at an entry, with the array's own column statistics. -/
theorem ref_bn_10 (r : Fin 50000) (q : Fin 64) :
    (res_main_v657 R : S50000x64.Idx → EReal) (ix2 r q)
      = Cert.Val.bnAt (fun i j => (res_main_v638 R : S50000x64.Idx → EReal) (ix2 i j))
          (Cert.Val.colMean (fun i j => (res_main_v638 R : S50000x64.Idx → EReal) (ix2 i j)))
          (Cert.Val.colVar (fun i j => (res_main_v638 R : S50000x64.Idx → EReal) (ix2 i j)))
          (fun j => (res_main_v102 R : S64.Idx → EReal) (ix1 j))
          (fun j => (res_main_v104 R : S64.Idx → EReal) (ix1 j)) r q := by
  unfold res_main_v657
  refine (Cert.Val.bn_apply _ _ _ _ _ _ _ _ r q).trans ?_
  simp only [Cert.Val.bnAt, ref_mean_10, ref_var_10]

/-- Layer 10's `softmax_one` at an entry, of the batch-norm's row. -/
theorem ref_sm_10 (r : Fin 50000) (q : Fin 64) :
    (res_main_v668 R : S50000x64.Idx → EReal) (ix2 r q)
      = Cert.Val.smOne (fun j' => (res_main_v657 R : S50000x64.Idx → EReal) (ix2 r j')) q := by
  unfold res_main_v668 res_main_v662
  exact Cert.Val.softmax_apply _ _ _ _ _ _ r q

/-- Layer 10's activation at an entry: `softmax_one` of the batch-norm, with the column statistics of what the
    batch-norm normalises. -/
theorem ref_act_10 (r : Fin 50000) (q : Fin 64) :
    (res_main_v668 R : S50000x64.Idx → EReal) (ix2 r q)
      = Cert.Val.act (fun i j => (res_main_v638 R : S50000x64.Idx → EReal) (ix2 i j))
          (fun j => (res_main_v102 R : S64.Idx → EReal) (ix1 j))
          (fun j => (res_main_v104 R : S64.Idx → EReal) (ix1 j)) r q := by
  refine (ref_sm_10 R r q).trans ?_
  unfold Cert.Val.act
  exact congrArg (fun y => Cert.Val.smOne y q) (funext fun j' => ref_bn_10 R r j')

/-! ## The running sum first

    A layer is handed the sum of the earlier layers' convolutions and adds its own to it; the reference adds the
    earlier convolutions to the layer's own one by one. The two are the same sum, associated differently. -/

/-- A sum of 3 extended reals added one by one, with the last 2 summed first (addition is associative). -/
theorem add_sum_first_2 (x a1 a2 : EReal) : x + a1 + a2 = x + (a1 + a2) := by
  simp only [add_assoc]

/-- A sum of 4 extended reals added one by one, with the last 3 summed first (addition is associative). -/
theorem add_sum_first_3 (x a1 a2 a3 : EReal) : x + a1 + a2 + a3 = x + (a1 + a2 + a3) := by
  simp only [add_assoc]

/-- A sum of 5 extended reals added one by one, with the last 4 summed first (addition is associative). -/
theorem add_sum_first_4 (x a1 a2 a3 a4 : EReal) : x + a1 + a2 + a3 + a4 = x + (a1 + a2 + a3 + a4) := by
  simp only [add_assoc]

/-- A sum of 6 extended reals added one by one, with the last 5 summed first (addition is associative). -/
theorem add_sum_first_5 (x a1 a2 a3 a4 a5 : EReal) : x + a1 + a2 + a3 + a4 + a5 = x + (a1 + a2 + a3 + a4 + a5) := by
  simp only [add_assoc]

/-- A sum of 7 extended reals added one by one, with the last 6 summed first (addition is associative). -/
theorem add_sum_first_6 (x a1 a2 a3 a4 a5 a6 : EReal) : x + a1 + a2 + a3 + a4 + a5 + a6 = x + (a1 + a2 + a3 + a4 + a5 + a6) := by
  simp only [add_assoc]

/-- A sum of 8 extended reals added one by one, with the last 7 summed first (addition is associative). -/
theorem add_sum_first_7 (x a1 a2 a3 a4 a5 a6 a7 : EReal) : x + a1 + a2 + a3 + a4 + a5 + a6 + a7 = x + (a1 + a2 + a3 + a4 + a5 + a6 + a7) := by
  simp only [add_assoc]

/-- A sum of 9 extended reals added one by one, with the last 8 summed first (addition is associative). -/
theorem add_sum_first_8 (x a1 a2 a3 a4 a5 a6 a7 a8 : EReal) : x + a1 + a2 + a3 + a4 + a5 + a6 + a7 + a8 = x + (a1 + a2 + a3 + a4 + a5 + a6 + a7 + a8) := by
  simp only [add_assoc]

/-- What layer 4's batch-norm normalises, the running sum of the convolutions of the layers from 2 on taken first. -/
theorem ref_pre'_4 (r : Fin 50000) (q : Fin 64) :
    (res_main_v317 R : S50000x64.Idx → EReal) (ix2 r q)
      = (res_main_v315 R : S50000x64.Idx → EReal) (ix2 r q)
          +ᵉ ((res_main_v218 R : S50000x64.Idx → EReal) (ix2 r q)
            +ᵉ (res_main_v266 R : S50000x64.Idx → EReal) (ix2 r q)) :=
  (ref_pre_4 R r q).trans (add_sum_first_2 _ _ _)

/-- What layer 5's batch-norm normalises, the running sum of the convolutions of the layers from 2 on taken first. -/
theorem ref_pre'_5 (r : Fin 50000) (q : Fin 64) :
    (res_main_v368 R : S50000x64.Idx → EReal) (ix2 r q)
      = (res_main_v365 R : S50000x64.Idx → EReal) (ix2 r q)
          +ᵉ ((res_main_v218 R : S50000x64.Idx → EReal) (ix2 r q)
            +ᵉ (res_main_v266 R : S50000x64.Idx → EReal) (ix2 r q)
            +ᵉ (res_main_v315 R : S50000x64.Idx → EReal) (ix2 r q)) :=
  (ref_pre_5 R r q).trans (add_sum_first_3 _ _ _ _)

/-- What layer 6's batch-norm normalises, the running sum of the convolutions of the layers from 2 on taken first. -/
theorem ref_pre'_6 (r : Fin 50000) (q : Fin 64) :
    (res_main_v420 R : S50000x64.Idx → EReal) (ix2 r q)
      = (res_main_v416 R : S50000x64.Idx → EReal) (ix2 r q)
          +ᵉ ((res_main_v218 R : S50000x64.Idx → EReal) (ix2 r q)
            +ᵉ (res_main_v266 R : S50000x64.Idx → EReal) (ix2 r q)
            +ᵉ (res_main_v315 R : S50000x64.Idx → EReal) (ix2 r q)
            +ᵉ (res_main_v365 R : S50000x64.Idx → EReal) (ix2 r q)) :=
  (ref_pre_6 R r q).trans (add_sum_first_4 _ _ _ _ _)

/-- What layer 7's batch-norm normalises, the running sum of the convolutions of the layers from 2 on taken first. -/
theorem ref_pre'_7 (r : Fin 50000) (q : Fin 64) :
    (res_main_v473 R : S50000x64.Idx → EReal) (ix2 r q)
      = (res_main_v468 R : S50000x64.Idx → EReal) (ix2 r q)
          +ᵉ ((res_main_v218 R : S50000x64.Idx → EReal) (ix2 r q)
            +ᵉ (res_main_v266 R : S50000x64.Idx → EReal) (ix2 r q)
            +ᵉ (res_main_v315 R : S50000x64.Idx → EReal) (ix2 r q)
            +ᵉ (res_main_v365 R : S50000x64.Idx → EReal) (ix2 r q)
            +ᵉ (res_main_v416 R : S50000x64.Idx → EReal) (ix2 r q)) :=
  (ref_pre_7 R r q).trans (add_sum_first_5 _ _ _ _ _ _)

/-- What layer 8's batch-norm normalises, the running sum of the convolutions of the layers from 2 on taken first. -/
theorem ref_pre'_8 (r : Fin 50000) (q : Fin 64) :
    (res_main_v527 R : S50000x64.Idx → EReal) (ix2 r q)
      = (res_main_v521 R : S50000x64.Idx → EReal) (ix2 r q)
          +ᵉ ((res_main_v218 R : S50000x64.Idx → EReal) (ix2 r q)
            +ᵉ (res_main_v266 R : S50000x64.Idx → EReal) (ix2 r q)
            +ᵉ (res_main_v315 R : S50000x64.Idx → EReal) (ix2 r q)
            +ᵉ (res_main_v365 R : S50000x64.Idx → EReal) (ix2 r q)
            +ᵉ (res_main_v416 R : S50000x64.Idx → EReal) (ix2 r q)
            +ᵉ (res_main_v468 R : S50000x64.Idx → EReal) (ix2 r q)) :=
  (ref_pre_8 R r q).trans (add_sum_first_6 _ _ _ _ _ _ _)

/-- What layer 9's batch-norm normalises, the running sum of the convolutions of the layers from 2 on taken first. -/
theorem ref_pre'_9 (r : Fin 50000) (q : Fin 64) :
    (res_main_v582 R : S50000x64.Idx → EReal) (ix2 r q)
      = (res_main_v575 R : S50000x64.Idx → EReal) (ix2 r q)
          +ᵉ ((res_main_v218 R : S50000x64.Idx → EReal) (ix2 r q)
            +ᵉ (res_main_v266 R : S50000x64.Idx → EReal) (ix2 r q)
            +ᵉ (res_main_v315 R : S50000x64.Idx → EReal) (ix2 r q)
            +ᵉ (res_main_v365 R : S50000x64.Idx → EReal) (ix2 r q)
            +ᵉ (res_main_v416 R : S50000x64.Idx → EReal) (ix2 r q)
            +ᵉ (res_main_v468 R : S50000x64.Idx → EReal) (ix2 r q)
            +ᵉ (res_main_v521 R : S50000x64.Idx → EReal) (ix2 r q)) :=
  (ref_pre_9 R r q).trans (add_sum_first_7 _ _ _ _ _ _ _ _)

/-- What layer 10's batch-norm normalises, the running sum of the convolutions of the layers from 2 on taken first. -/
theorem ref_pre'_10 (r : Fin 50000) (q : Fin 64) :
    (res_main_v638 R : S50000x64.Idx → EReal) (ix2 r q)
      = (res_main_v630 R : S50000x64.Idx → EReal) (ix2 r q)
          +ᵉ ((res_main_v218 R : S50000x64.Idx → EReal) (ix2 r q)
            +ᵉ (res_main_v266 R : S50000x64.Idx → EReal) (ix2 r q)
            +ᵉ (res_main_v315 R : S50000x64.Idx → EReal) (ix2 r q)
            +ᵉ (res_main_v365 R : S50000x64.Idx → EReal) (ix2 r q)
            +ᵉ (res_main_v416 R : S50000x64.Idx → EReal) (ix2 r q)
            +ᵉ (res_main_v468 R : S50000x64.Idx → EReal) (ix2 r q)
            +ᵉ (res_main_v521 R : S50000x64.Idx → EReal) (ix2 r q)
            +ᵉ (res_main_v575 R : S50000x64.Idx → EReal) (ix2 r q)) :=
  (ref_pre_10 R r q).trans (add_sum_first_8 _ _ _ _ _ _ _ _ _)

end Cert.Val.Ref
-- ==== Proof.Val.Join.lean ====
/-
  The two programs joined layer by layer, over the extended reals.

  For each residual layer: if the two programs agree on the layer's input, on the running sum of the earlier
  layers' convolutions, on the graph's three arrays (sources, targets, edge norms) and on the layer's four weights,
  then they agree on the layer's activation and on the running sum with the layer's convolution added. Every such
  agreement is a hypothesis here, so a layer's statement stands alone; the conclusions of one layer are the first
  two hypotheses of the next.

  The running sum is kept in the order the kernel program adds it up: the sum so far, then the layer's convolution;
  the reference adds the layer's convolution first and the earlier ones after it, which is the same sum regrouped.

  A layer's proof is one application of the layer lemma stated over arbitrary arrays (`join_layer_first` for the first
  layer, into which no running sum comes; `join_layer` after it) to the kernel side's and the reference's readings of
  that layer; the reference's aggregation is opened to the gather / scale / scatter-add term it abbreviates.
-/
import proofs.«408084_j48395691492010_3_alg».proof.Proof.Val.K2
import proofs.«408084_j48395691492010_3_alg».proof.Proof.Val.K3
import proofs.«408084_j48395691492010_3_alg».proof.Proof.Val.K4
import proofs.«408084_j48395691492010_3_alg».proof.Proof.Val.K5
import proofs.«408084_j48395691492010_3_alg».proof.Proof.Val.K6
import proofs.«408084_j48395691492010_3_alg».proof.Proof.Val.K7
import proofs.«408084_j48395691492010_3_alg».proof.Proof.Val.K8
import proofs.«408084_j48395691492010_3_alg».proof.Proof.Val.K9
import proofs.«408084_j48395691492010_3_alg».proof.Proof.Val.K10
import proofs.«408084_j48395691492010_3_alg».proof.Proof.Val.RefLayersA
import proofs.«408084_j48395691492010_3_alg».proof.Proof.Val.RefLayers
import proofs.«408084_j48395691492010_3_alg».proof.Proof.Val.JoinLayer

set_option maxRecDepth 16384

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg) (c : Dev nD)

/- The extended reals' sum, named outright: an array's entry has the element type of its buffer, which unfolds to
   the extended reals but is not syntactically them. -/
local notation:65 a:65 " +ᵉ " b:66 => HAdd.hAdd (α := EReal) (β := EReal) (γ := EReal) a b

/-! ## Layer 2 -/

/-- The reference's running sum of convolutions after layer 2. -/
noncomputable def cumRef2 (R : Valuation Cert.ReferenceIdeal.τ Cert.ReferenceIdeal.sig (Elt Ideal)) (r : Fin 50000) (q : Fin 64) : EReal :=
  (Cert.ReferenceIdeal.Hand.res_main_v218 R : S50000x64.Idx → EReal) (ix2 r q)

/-- Layer 2: with equal layer inputs, equal graph arrays and equal weights, the two programs'
    activations after the layer are equal, and so are their running sums. -/
theorem join2 (R : Valuation Cert.ReferenceIdeal.τ Cert.ReferenceIdeal.sig (Elt Ideal))
    (hx : ∀ (r : Fin 50000) (k : Fin 128), (B20 m ρ c (Proc.devRef .tc main_v151) : S50000x128.Idx → EReal) (ix2 r k) = (Cert.ReferenceIdeal.Hand.res_main_v200 R : S50000x128.Idx → EReal) (ix2 r k))
    (hsrc : B3 m ρ c (Proc.devRef .tc main_v5) = Cert.ReferenceIdeal.Hand.res_main_v5 R)
    (hdst : B3 m ρ c (Proc.devRef .tc main_v6) = Cert.ReferenceIdeal.Hand.res_main_v6 R)
    (hnorm : B3 m ρ c (Proc.devRef .tc main_v33) = Cert.ReferenceIdeal.Hand.res_main_v33 R)
    (hW : (m ((c : Thread nD τ).loc main_arg10) : S64x128.Idx → EReal) = R (Proc.devRef .tc Cert.ReferenceIdeal.main_arg10))
    (hb : (m ((c : Thread nD τ).loc main_arg11) : S64.Idx → EReal) = R (Proc.devRef .tc Cert.ReferenceIdeal.main_arg11))
    (hg : (m ((c : Thread nD τ).loc main_arg20) : S64.Idx → EReal) = R (Proc.devRef .tc Cert.ReferenceIdeal.main_arg20))
    (hbe : (m ((c : Thread nD τ).loc main_arg21) : S64.Idx → EReal) = R (Proc.devRef .tc Cert.ReferenceIdeal.main_arg21)) :
    (∀ (r : Fin 50000) (q : Fin 64), (B28 m ρ c (Proc.devRef .tc main_v176) : S50000x64.Idx → EReal) (ix2 r q) = (Cert.ReferenceIdeal.Hand.res_main_v248 R : S50000x64.Idx → EReal) (ix2 r q))
      ∧ (∀ (r : Fin 50000) (q : Fin 64), (B24 m ρ c (Proc.devRef .tc main_v168_1) : S50000x64.Idx → EReal) (ix2 r q) = cumRef2 R r q) :=
  Cert.Val.join_layer_first (N := 50000) (E := 690000) (Ci := 128) (Co := 64)
    (B20 m ρ c (Proc.devRef .tc main_v151) : S50000x128.Idx → EReal) (m ((c : Thread nD τ).loc main_arg10) : S64x128.Idx → EReal) (B22 m ρ c (Proc.devRef .tc main_v153) : S50000x64.Idx → EReal) (B23 m ρ c (Proc.devRef .tc main_v166) : S50000x64.Idx → EReal) (m ((c : Thread nD τ).loc main_arg11) : S64.Idx → EReal)
    (B3 m ρ c (Proc.devRef .tc main_v5)) (B3 m ρ c (Proc.devRef .tc main_v6)) (B3 m ρ c (Proc.devRef .tc main_v33)) _ _ _ _ _ _
    (Cert.ReferenceIdeal.Hand.res_main_v200 R : S50000x128.Idx → EReal) (R (Proc.devRef .tc Cert.ReferenceIdeal.main_arg10) : S64x128.Idx → EReal) (Cert.ReferenceIdeal.Hand.res_main_v202 R : S50000x64.Idx → EReal) (Cert.ReferenceIdeal.Hand.res_main_v215 R : S50000x64.Idx → EReal) (Cert.ReferenceIdeal.Hand.res_main_v218 R : S50000x64.Idx → EReal) (R (Proc.devRef .tc Cert.ReferenceIdeal.main_arg11) : S64.Idx → EReal)
    (Cert.ReferenceIdeal.Hand.res_main_v5 R) (Cert.ReferenceIdeal.Hand.res_main_v6 R) (Cert.ReferenceIdeal.Hand.res_main_v33 R) _ _ _ _ _ _
    (B24 m ρ c (Proc.devRef .tc main_v168_0) : S50000x64.Idx → EReal) (B24 m ρ c (Proc.devRef .tc main_v168_1) : S50000x64.Idx → EReal) (B28 m ρ c (Proc.devRef .tc main_v176) : S50000x64.Idx → EReal) (m ((c : Thread nD τ).loc main_arg20) : S64.Idx → EReal) (m ((c : Thread nD τ).loc main_arg21) : S64.Idx → EReal)
    (Cert.ReferenceIdeal.Hand.res_main_v248 R : S50000x64.Idx → EReal) (R (Proc.devRef .tc Cert.ReferenceIdeal.main_arg20) : S64.Idx → EReal) (R (Proc.devRef .tc Cert.ReferenceIdeal.main_arg21) : S64.Idx → EReal)
    (k2_lin m ρ c) (k2_agg m ρ c) (k2_pre m ρ c) (k2_cum m ρ c) (k2_act m ρ c)
    (Cert.Val.Ref.ref_lin_2 R) (by unfold Cert.ReferenceIdeal.Hand.res_main_v215 Cert.ReferenceIdeal.Hand.res_main_v203 Cert.ReferenceIdeal.Hand.res_main_v208; rfl) (Cert.Val.Ref.ref_conv_2 R)
    (Cert.Val.Ref.ref_act_2 R)
    rfl rfl hx hsrc hdst hnorm hW hb hg hbe

/-! ## Layer 3 -/

/-- The reference's running sum of convolutions after layer 3. -/
noncomputable def cumRef3 (R : Valuation Cert.ReferenceIdeal.τ Cert.ReferenceIdeal.sig (Elt Ideal)) (r : Fin 50000) (q : Fin 64) : EReal :=
  cumRef2 R r q +ᵉ (Cert.ReferenceIdeal.Hand.res_main_v266 R : S50000x64.Idx → EReal) (ix2 r q)

/-- Layer 3: with equal layer inputs, equal incoming running sums, equal graph arrays and equal weights, the two programs'
    activations after the layer are equal, and so are their running sums. -/
theorem join3 (R : Valuation Cert.ReferenceIdeal.τ Cert.ReferenceIdeal.sig (Elt Ideal))
    (hx : ∀ (r : Fin 50000) (k : Fin 64), (B28 m ρ c (Proc.devRef .tc main_v176) : S50000x64.Idx → EReal) (ix2 r k) = (Cert.ReferenceIdeal.Hand.res_main_v248 R : S50000x64.Idx → EReal) (ix2 r k))
    (hcum : ∀ (r : Fin 50000) (q : Fin 64), (B24 m ρ c (Proc.devRef .tc main_v168_1) : S50000x64.Idx → EReal) (ix2 r q) = cumRef2 R r q)
    (hsrc : B3 m ρ c (Proc.devRef .tc main_v5) = Cert.ReferenceIdeal.Hand.res_main_v5 R)
    (hdst : B3 m ρ c (Proc.devRef .tc main_v6) = Cert.ReferenceIdeal.Hand.res_main_v6 R)
    (hnorm : B3 m ρ c (Proc.devRef .tc main_v33) = Cert.ReferenceIdeal.Hand.res_main_v33 R)
    (hW : (B5 m ρ c (Proc.devRef .tc main_v39) : S64x64.Idx → EReal) = Cert.ReferenceIdeal.Hand.res_main_v42 R)
    (hb : (B5 m ρ c (Proc.devRef .tc main_v41) : S64.Idx → EReal) = Cert.ReferenceIdeal.Hand.res_main_v44 R)
    (hg : (B5 m ρ c (Proc.devRef .tc main_v71) : S64.Idx → EReal) = Cert.ReferenceIdeal.Hand.res_main_v74 R)
    (hbe : (B5 m ρ c (Proc.devRef .tc main_v73) : S64.Idx → EReal) = Cert.ReferenceIdeal.Hand.res_main_v76 R) :
    (∀ (r : Fin 50000) (q : Fin 64), (B36 m ρ c (Proc.devRef .tc main_v201) : S50000x64.Idx → EReal) (ix2 r q) = (Cert.ReferenceIdeal.Hand.res_main_v297 R : S50000x64.Idx → EReal) (ix2 r q))
      ∧ (∀ (r : Fin 50000) (q : Fin 64), (B32 m ρ c (Proc.devRef .tc main_v193_1) : S50000x64.Idx → EReal) (ix2 r q) = cumRef3 R r q) :=
  Cert.Val.join_layer (N := 50000) (E := 690000) (Ci := 64) (Co := 64)
    (B28 m ρ c (Proc.devRef .tc main_v176) : S50000x64.Idx → EReal) (B5 m ρ c (Proc.devRef .tc main_v39) : S64x64.Idx → EReal) (B30 m ρ c (Proc.devRef .tc main_v178) : S50000x64.Idx → EReal) (B31 m ρ c (Proc.devRef .tc main_v191) : S50000x64.Idx → EReal) (B5 m ρ c (Proc.devRef .tc main_v41) : S64.Idx → EReal)
    (B3 m ρ c (Proc.devRef .tc main_v5)) (B3 m ρ c (Proc.devRef .tc main_v6)) (B3 m ρ c (Proc.devRef .tc main_v33)) _ _ _ _ _ _
    (Cert.ReferenceIdeal.Hand.res_main_v248 R : S50000x64.Idx → EReal) (Cert.ReferenceIdeal.Hand.res_main_v42 R : S64x64.Idx → EReal) (Cert.ReferenceIdeal.Hand.res_main_v250 R : S50000x64.Idx → EReal) (Cert.ReferenceIdeal.Hand.res_main_v263 R : S50000x64.Idx → EReal) (Cert.ReferenceIdeal.Hand.res_main_v266 R : S50000x64.Idx → EReal) (Cert.ReferenceIdeal.Hand.res_main_v44 R : S64.Idx → EReal)
    (Cert.ReferenceIdeal.Hand.res_main_v5 R) (Cert.ReferenceIdeal.Hand.res_main_v6 R) (Cert.ReferenceIdeal.Hand.res_main_v33 R) _ _ _ _ _ _
    (B32 m ρ c (Proc.devRef .tc main_v193_0) : S50000x64.Idx → EReal) (B32 m ρ c (Proc.devRef .tc main_v193_1) : S50000x64.Idx → EReal) (B36 m ρ c (Proc.devRef .tc main_v201) : S50000x64.Idx → EReal) (B5 m ρ c (Proc.devRef .tc main_v71) : S64.Idx → EReal) (B5 m ρ c (Proc.devRef .tc main_v73) : S64.Idx → EReal)
    (Cert.ReferenceIdeal.Hand.res_main_v267 R : S50000x64.Idx → EReal) (Cert.ReferenceIdeal.Hand.res_main_v297 R : S50000x64.Idx → EReal) (Cert.ReferenceIdeal.Hand.res_main_v74 R : S64.Idx → EReal) (Cert.ReferenceIdeal.Hand.res_main_v76 R : S64.Idx → EReal)
    (B24 m ρ c (Proc.devRef .tc main_v168_1) : S50000x64.Idx → EReal) (cumRef2 R)
    (k3_lin m ρ c) (k3_agg m ρ c) (k3_pre m ρ c) (k3_cum m ρ c) (k3_act m ρ c)
    (Cert.Val.Ref.ref_lin_3 R) (by unfold Cert.ReferenceIdeal.Hand.res_main_v263 Cert.ReferenceIdeal.Hand.res_main_v251 Cert.ReferenceIdeal.Hand.res_main_v258; rfl) (Cert.Val.Ref.ref_conv_3 R)
    (fun r q => by rw [Cert.Val.Ref.ref_pre_3 R r q]; simp only [cumRef2, add_assoc])
    (Cert.Val.Ref.ref_act_3 R)
    rfl rfl hx hcum hsrc hdst hnorm hW hb hg hbe

/-! ## Layer 4 -/

/-- The reference's running sum of convolutions after layer 4. -/
noncomputable def cumRef4 (R : Valuation Cert.ReferenceIdeal.τ Cert.ReferenceIdeal.sig (Elt Ideal)) (r : Fin 50000) (q : Fin 64) : EReal :=
  cumRef3 R r q +ᵉ (Cert.ReferenceIdeal.Hand.res_main_v315 R : S50000x64.Idx → EReal) (ix2 r q)

/-- Layer 4: with equal layer inputs, equal incoming running sums, equal graph arrays and equal weights, the two programs'
    activations after the layer are equal, and so are their running sums. -/
theorem join4 (R : Valuation Cert.ReferenceIdeal.τ Cert.ReferenceIdeal.sig (Elt Ideal))
    (hx : ∀ (r : Fin 50000) (k : Fin 64), (B36 m ρ c (Proc.devRef .tc main_v201) : S50000x64.Idx → EReal) (ix2 r k) = (Cert.ReferenceIdeal.Hand.res_main_v297 R : S50000x64.Idx → EReal) (ix2 r k))
    (hcum : ∀ (r : Fin 50000) (q : Fin 64), (B32 m ρ c (Proc.devRef .tc main_v193_1) : S50000x64.Idx → EReal) (ix2 r q) = cumRef3 R r q)
    (hsrc : B3 m ρ c (Proc.devRef .tc main_v5) = Cert.ReferenceIdeal.Hand.res_main_v5 R)
    (hdst : B3 m ρ c (Proc.devRef .tc main_v6) = Cert.ReferenceIdeal.Hand.res_main_v6 R)
    (hnorm : B3 m ρ c (Proc.devRef .tc main_v33) = Cert.ReferenceIdeal.Hand.res_main_v33 R)
    (hW : (B5 m ρ c (Proc.devRef .tc main_v43) : S64x64.Idx → EReal) = Cert.ReferenceIdeal.Hand.res_main_v46 R)
    (hb : (B5 m ρ c (Proc.devRef .tc main_v45) : S64.Idx → EReal) = Cert.ReferenceIdeal.Hand.res_main_v48 R)
    (hg : (B5 m ρ c (Proc.devRef .tc main_v75) : S64.Idx → EReal) = Cert.ReferenceIdeal.Hand.res_main_v78 R)
    (hbe : (B5 m ρ c (Proc.devRef .tc main_v77) : S64.Idx → EReal) = Cert.ReferenceIdeal.Hand.res_main_v80 R) :
    (∀ (r : Fin 50000) (q : Fin 64), (B44 m ρ c (Proc.devRef .tc main_v226) : S50000x64.Idx → EReal) (ix2 r q) = (Cert.ReferenceIdeal.Hand.res_main_v347 R : S50000x64.Idx → EReal) (ix2 r q))
      ∧ (∀ (r : Fin 50000) (q : Fin 64), (B40 m ρ c (Proc.devRef .tc main_v218_1) : S50000x64.Idx → EReal) (ix2 r q) = cumRef4 R r q) :=
  Cert.Val.join_layer (N := 50000) (E := 690000) (Ci := 64) (Co := 64)
    (B36 m ρ c (Proc.devRef .tc main_v201) : S50000x64.Idx → EReal) (B5 m ρ c (Proc.devRef .tc main_v43) : S64x64.Idx → EReal) (B38 m ρ c (Proc.devRef .tc main_v203) : S50000x64.Idx → EReal) (B39 m ρ c (Proc.devRef .tc main_v216) : S50000x64.Idx → EReal) (B5 m ρ c (Proc.devRef .tc main_v45) : S64.Idx → EReal)
    (B3 m ρ c (Proc.devRef .tc main_v5)) (B3 m ρ c (Proc.devRef .tc main_v6)) (B3 m ρ c (Proc.devRef .tc main_v33)) _ _ _ _ _ _
    (Cert.ReferenceIdeal.Hand.res_main_v297 R : S50000x64.Idx → EReal) (Cert.ReferenceIdeal.Hand.res_main_v46 R : S64x64.Idx → EReal) (Cert.ReferenceIdeal.Hand.res_main_v299 R : S50000x64.Idx → EReal) (Cert.ReferenceIdeal.Hand.res_main_v312 R : S50000x64.Idx → EReal) (Cert.ReferenceIdeal.Hand.res_main_v315 R : S50000x64.Idx → EReal) (Cert.ReferenceIdeal.Hand.res_main_v48 R : S64.Idx → EReal)
    (Cert.ReferenceIdeal.Hand.res_main_v5 R) (Cert.ReferenceIdeal.Hand.res_main_v6 R) (Cert.ReferenceIdeal.Hand.res_main_v33 R) _ _ _ _ _ _
    (B40 m ρ c (Proc.devRef .tc main_v218_0) : S50000x64.Idx → EReal) (B40 m ρ c (Proc.devRef .tc main_v218_1) : S50000x64.Idx → EReal) (B44 m ρ c (Proc.devRef .tc main_v226) : S50000x64.Idx → EReal) (B5 m ρ c (Proc.devRef .tc main_v75) : S64.Idx → EReal) (B5 m ρ c (Proc.devRef .tc main_v77) : S64.Idx → EReal)
    (Cert.ReferenceIdeal.Hand.res_main_v317 R : S50000x64.Idx → EReal) (Cert.ReferenceIdeal.Hand.res_main_v347 R : S50000x64.Idx → EReal) (Cert.ReferenceIdeal.Hand.res_main_v78 R : S64.Idx → EReal) (Cert.ReferenceIdeal.Hand.res_main_v80 R : S64.Idx → EReal)
    (B32 m ρ c (Proc.devRef .tc main_v193_1) : S50000x64.Idx → EReal) (cumRef3 R)
    (k4_lin m ρ c) (k4_agg m ρ c) (k4_pre m ρ c) (k4_cum m ρ c) (k4_act m ρ c)
    (Cert.Val.Ref.ref_lin_4 R) (by unfold Cert.ReferenceIdeal.Hand.res_main_v312 Cert.ReferenceIdeal.Hand.res_main_v308 Cert.ReferenceIdeal.Hand.res_main_v307; rfl) (Cert.Val.Ref.ref_conv_4 R)
    (fun r q => by rw [Cert.Val.Ref.ref_pre_4 R r q]; simp only [cumRef3, cumRef2, add_assoc])
    (Cert.Val.Ref.ref_act_4 R)
    rfl rfl hx hcum hsrc hdst hnorm hW hb hg hbe

/-! ## Layer 5 -/

/-- The reference's running sum of convolutions after layer 5. -/
noncomputable def cumRef5 (R : Valuation Cert.ReferenceIdeal.τ Cert.ReferenceIdeal.sig (Elt Ideal)) (r : Fin 50000) (q : Fin 64) : EReal :=
  cumRef4 R r q +ᵉ (Cert.ReferenceIdeal.Hand.res_main_v365 R : S50000x64.Idx → EReal) (ix2 r q)

/-- Layer 5: with equal layer inputs, equal incoming running sums, equal graph arrays and equal weights, the two programs'
    activations after the layer are equal, and so are their running sums. -/
theorem join5 (R : Valuation Cert.ReferenceIdeal.τ Cert.ReferenceIdeal.sig (Elt Ideal))
    (hx : ∀ (r : Fin 50000) (k : Fin 64), (B44 m ρ c (Proc.devRef .tc main_v226) : S50000x64.Idx → EReal) (ix2 r k) = (Cert.ReferenceIdeal.Hand.res_main_v347 R : S50000x64.Idx → EReal) (ix2 r k))
    (hcum : ∀ (r : Fin 50000) (q : Fin 64), (B40 m ρ c (Proc.devRef .tc main_v218_1) : S50000x64.Idx → EReal) (ix2 r q) = cumRef4 R r q)
    (hsrc : B3 m ρ c (Proc.devRef .tc main_v5) = Cert.ReferenceIdeal.Hand.res_main_v5 R)
    (hdst : B3 m ρ c (Proc.devRef .tc main_v6) = Cert.ReferenceIdeal.Hand.res_main_v6 R)
    (hnorm : B3 m ρ c (Proc.devRef .tc main_v33) = Cert.ReferenceIdeal.Hand.res_main_v33 R)
    (hW : (B5 m ρ c (Proc.devRef .tc main_v47) : S64x64.Idx → EReal) = Cert.ReferenceIdeal.Hand.res_main_v50 R)
    (hb : (B5 m ρ c (Proc.devRef .tc main_v49) : S64.Idx → EReal) = Cert.ReferenceIdeal.Hand.res_main_v52 R)
    (hg : (B5 m ρ c (Proc.devRef .tc main_v79) : S64.Idx → EReal) = Cert.ReferenceIdeal.Hand.res_main_v82 R)
    (hbe : (B5 m ρ c (Proc.devRef .tc main_v81) : S64.Idx → EReal) = Cert.ReferenceIdeal.Hand.res_main_v84 R) :
    (∀ (r : Fin 50000) (q : Fin 64), (B52 m ρ c (Proc.devRef .tc main_v251) : S50000x64.Idx → EReal) (ix2 r q) = (Cert.ReferenceIdeal.Hand.res_main_v398 R : S50000x64.Idx → EReal) (ix2 r q))
      ∧ (∀ (r : Fin 50000) (q : Fin 64), (B48 m ρ c (Proc.devRef .tc main_v243_1) : S50000x64.Idx → EReal) (ix2 r q) = cumRef5 R r q) :=
  Cert.Val.join_layer (N := 50000) (E := 690000) (Ci := 64) (Co := 64)
    (B44 m ρ c (Proc.devRef .tc main_v226) : S50000x64.Idx → EReal) (B5 m ρ c (Proc.devRef .tc main_v47) : S64x64.Idx → EReal) (B46 m ρ c (Proc.devRef .tc main_v228) : S50000x64.Idx → EReal) (B47 m ρ c (Proc.devRef .tc main_v241) : S50000x64.Idx → EReal) (B5 m ρ c (Proc.devRef .tc main_v49) : S64.Idx → EReal)
    (B3 m ρ c (Proc.devRef .tc main_v5)) (B3 m ρ c (Proc.devRef .tc main_v6)) (B3 m ρ c (Proc.devRef .tc main_v33)) _ _ _ _ _ _
    (Cert.ReferenceIdeal.Hand.res_main_v347 R : S50000x64.Idx → EReal) (Cert.ReferenceIdeal.Hand.res_main_v50 R : S64x64.Idx → EReal) (Cert.ReferenceIdeal.Hand.res_main_v349 R : S50000x64.Idx → EReal) (Cert.ReferenceIdeal.Hand.res_main_v362 R : S50000x64.Idx → EReal) (Cert.ReferenceIdeal.Hand.res_main_v365 R : S50000x64.Idx → EReal) (Cert.ReferenceIdeal.Hand.res_main_v52 R : S64.Idx → EReal)
    (Cert.ReferenceIdeal.Hand.res_main_v5 R) (Cert.ReferenceIdeal.Hand.res_main_v6 R) (Cert.ReferenceIdeal.Hand.res_main_v33 R) _ _ _ _ _ _
    (B48 m ρ c (Proc.devRef .tc main_v243_0) : S50000x64.Idx → EReal) (B48 m ρ c (Proc.devRef .tc main_v243_1) : S50000x64.Idx → EReal) (B52 m ρ c (Proc.devRef .tc main_v251) : S50000x64.Idx → EReal) (B5 m ρ c (Proc.devRef .tc main_v79) : S64.Idx → EReal) (B5 m ρ c (Proc.devRef .tc main_v81) : S64.Idx → EReal)
    (Cert.ReferenceIdeal.Hand.res_main_v368 R : S50000x64.Idx → EReal) (Cert.ReferenceIdeal.Hand.res_main_v398 R : S50000x64.Idx → EReal) (Cert.ReferenceIdeal.Hand.res_main_v82 R : S64.Idx → EReal) (Cert.ReferenceIdeal.Hand.res_main_v84 R : S64.Idx → EReal)
    (B40 m ρ c (Proc.devRef .tc main_v218_1) : S50000x64.Idx → EReal) (cumRef4 R)
    (k5_lin m ρ c) (k5_agg m ρ c) (k5_pre m ρ c) (k5_cum m ρ c) (k5_act m ρ c)
    (Cert.Val.Ref.ref_lin_5 R) (by unfold Cert.ReferenceIdeal.Hand.res_main_v362 Cert.ReferenceIdeal.Hand.res_main_v358 Cert.ReferenceIdeal.Hand.res_main_v357; rfl) (Cert.Val.Ref.ref_conv_5 R)
    (fun r q => by rw [Cert.Val.Ref.ref_pre_5 R r q]; simp only [cumRef4, cumRef3, cumRef2, add_assoc])
    (Cert.Val.Ref.ref_act_5 R)
    rfl rfl hx hcum hsrc hdst hnorm hW hb hg hbe

/-! ## Layer 6 -/

/-- The reference's running sum of convolutions after layer 6. -/
noncomputable def cumRef6 (R : Valuation Cert.ReferenceIdeal.τ Cert.ReferenceIdeal.sig (Elt Ideal)) (r : Fin 50000) (q : Fin 64) : EReal :=
  cumRef5 R r q +ᵉ (Cert.ReferenceIdeal.Hand.res_main_v416 R : S50000x64.Idx → EReal) (ix2 r q)

/-- Layer 6: with equal layer inputs, equal incoming running sums, equal graph arrays and equal weights, the two programs'
    activations after the layer are equal, and so are their running sums. -/
theorem join6 (R : Valuation Cert.ReferenceIdeal.τ Cert.ReferenceIdeal.sig (Elt Ideal))
    (hx : ∀ (r : Fin 50000) (k : Fin 64), (B52 m ρ c (Proc.devRef .tc main_v251) : S50000x64.Idx → EReal) (ix2 r k) = (Cert.ReferenceIdeal.Hand.res_main_v398 R : S50000x64.Idx → EReal) (ix2 r k))
    (hcum : ∀ (r : Fin 50000) (q : Fin 64), (B48 m ρ c (Proc.devRef .tc main_v243_1) : S50000x64.Idx → EReal) (ix2 r q) = cumRef5 R r q)
    (hsrc : B3 m ρ c (Proc.devRef .tc main_v5) = Cert.ReferenceIdeal.Hand.res_main_v5 R)
    (hdst : B3 m ρ c (Proc.devRef .tc main_v6) = Cert.ReferenceIdeal.Hand.res_main_v6 R)
    (hnorm : B3 m ρ c (Proc.devRef .tc main_v33) = Cert.ReferenceIdeal.Hand.res_main_v33 R)
    (hW : (B5 m ρ c (Proc.devRef .tc main_v51) : S64x64.Idx → EReal) = Cert.ReferenceIdeal.Hand.res_main_v54 R)
    (hb : (B5 m ρ c (Proc.devRef .tc main_v53) : S64.Idx → EReal) = Cert.ReferenceIdeal.Hand.res_main_v56 R)
    (hg : (B5 m ρ c (Proc.devRef .tc main_v83) : S64.Idx → EReal) = Cert.ReferenceIdeal.Hand.res_main_v86 R)
    (hbe : (B5 m ρ c (Proc.devRef .tc main_v85) : S64.Idx → EReal) = Cert.ReferenceIdeal.Hand.res_main_v88 R) :
    (∀ (r : Fin 50000) (q : Fin 64), (B60 m ρ c (Proc.devRef .tc main_v276) : S50000x64.Idx → EReal) (ix2 r q) = (Cert.ReferenceIdeal.Hand.res_main_v450 R : S50000x64.Idx → EReal) (ix2 r q))
      ∧ (∀ (r : Fin 50000) (q : Fin 64), (B56 m ρ c (Proc.devRef .tc main_v268_1) : S50000x64.Idx → EReal) (ix2 r q) = cumRef6 R r q) :=
  Cert.Val.join_layer (N := 50000) (E := 690000) (Ci := 64) (Co := 64)
    (B52 m ρ c (Proc.devRef .tc main_v251) : S50000x64.Idx → EReal) (B5 m ρ c (Proc.devRef .tc main_v51) : S64x64.Idx → EReal) (B54 m ρ c (Proc.devRef .tc main_v253) : S50000x64.Idx → EReal) (B55 m ρ c (Proc.devRef .tc main_v266) : S50000x64.Idx → EReal) (B5 m ρ c (Proc.devRef .tc main_v53) : S64.Idx → EReal)
    (B3 m ρ c (Proc.devRef .tc main_v5)) (B3 m ρ c (Proc.devRef .tc main_v6)) (B3 m ρ c (Proc.devRef .tc main_v33)) _ _ _ _ _ _
    (Cert.ReferenceIdeal.Hand.res_main_v398 R : S50000x64.Idx → EReal) (Cert.ReferenceIdeal.Hand.res_main_v54 R : S64x64.Idx → EReal) (Cert.ReferenceIdeal.Hand.res_main_v400 R : S50000x64.Idx → EReal) (Cert.ReferenceIdeal.Hand.res_main_v413 R : S50000x64.Idx → EReal) (Cert.ReferenceIdeal.Hand.res_main_v416 R : S50000x64.Idx → EReal) (Cert.ReferenceIdeal.Hand.res_main_v56 R : S64.Idx → EReal)
    (Cert.ReferenceIdeal.Hand.res_main_v5 R) (Cert.ReferenceIdeal.Hand.res_main_v6 R) (Cert.ReferenceIdeal.Hand.res_main_v33 R) _ _ _ _ _ _
    (B56 m ρ c (Proc.devRef .tc main_v268_0) : S50000x64.Idx → EReal) (B56 m ρ c (Proc.devRef .tc main_v268_1) : S50000x64.Idx → EReal) (B60 m ρ c (Proc.devRef .tc main_v276) : S50000x64.Idx → EReal) (B5 m ρ c (Proc.devRef .tc main_v83) : S64.Idx → EReal) (B5 m ρ c (Proc.devRef .tc main_v85) : S64.Idx → EReal)
    (Cert.ReferenceIdeal.Hand.res_main_v420 R : S50000x64.Idx → EReal) (Cert.ReferenceIdeal.Hand.res_main_v450 R : S50000x64.Idx → EReal) (Cert.ReferenceIdeal.Hand.res_main_v86 R : S64.Idx → EReal) (Cert.ReferenceIdeal.Hand.res_main_v88 R : S64.Idx → EReal)
    (B48 m ρ c (Proc.devRef .tc main_v243_1) : S50000x64.Idx → EReal) (cumRef5 R)
    (k6_lin m ρ c) (k6_agg m ρ c) (k6_pre m ρ c) (k6_cum m ρ c) (k6_act m ρ c)
    (Cert.Val.Ref.ref_lin_6 R) (by unfold Cert.ReferenceIdeal.Hand.res_main_v413 Cert.ReferenceIdeal.Hand.res_main_v401 Cert.ReferenceIdeal.Hand.res_main_v408; rfl) (Cert.Val.Ref.ref_conv_6 R)
    (fun r q => by rw [Cert.Val.Ref.ref_pre_6 R r q]; simp only [cumRef5, cumRef4, cumRef3, cumRef2, add_assoc])
    (Cert.Val.Ref.ref_act_6 R)
    rfl rfl hx hcum hsrc hdst hnorm hW hb hg hbe

/-! ## Layer 7 -/

/-- The reference's running sum of convolutions after layer 7. -/
noncomputable def cumRef7 (R : Valuation Cert.ReferenceIdeal.τ Cert.ReferenceIdeal.sig (Elt Ideal)) (r : Fin 50000) (q : Fin 64) : EReal :=
  cumRef6 R r q +ᵉ (Cert.ReferenceIdeal.Hand.res_main_v468 R : S50000x64.Idx → EReal) (ix2 r q)

/-- Layer 7: with equal layer inputs, equal incoming running sums, equal graph arrays and equal weights, the two programs'
    activations after the layer are equal, and so are their running sums. -/
theorem join7 (R : Valuation Cert.ReferenceIdeal.τ Cert.ReferenceIdeal.sig (Elt Ideal))
    (hx : ∀ (r : Fin 50000) (k : Fin 64), (B60 m ρ c (Proc.devRef .tc main_v276) : S50000x64.Idx → EReal) (ix2 r k) = (Cert.ReferenceIdeal.Hand.res_main_v450 R : S50000x64.Idx → EReal) (ix2 r k))
    (hcum : ∀ (r : Fin 50000) (q : Fin 64), (B56 m ρ c (Proc.devRef .tc main_v268_1) : S50000x64.Idx → EReal) (ix2 r q) = cumRef6 R r q)
    (hsrc : B3 m ρ c (Proc.devRef .tc main_v5) = Cert.ReferenceIdeal.Hand.res_main_v5 R)
    (hdst : B3 m ρ c (Proc.devRef .tc main_v6) = Cert.ReferenceIdeal.Hand.res_main_v6 R)
    (hnorm : B3 m ρ c (Proc.devRef .tc main_v33) = Cert.ReferenceIdeal.Hand.res_main_v33 R)
    (hW : (B5 m ρ c (Proc.devRef .tc main_v55) : S64x64.Idx → EReal) = Cert.ReferenceIdeal.Hand.res_main_v58 R)
    (hb : (B5 m ρ c (Proc.devRef .tc main_v57) : S64.Idx → EReal) = Cert.ReferenceIdeal.Hand.res_main_v60 R)
    (hg : (B5 m ρ c (Proc.devRef .tc main_v87) : S64.Idx → EReal) = Cert.ReferenceIdeal.Hand.res_main_v90 R)
    (hbe : (B5 m ρ c (Proc.devRef .tc main_v89) : S64.Idx → EReal) = Cert.ReferenceIdeal.Hand.res_main_v92 R) :
    (∀ (r : Fin 50000) (q : Fin 64), (B68 m ρ c (Proc.devRef .tc main_v301) : S50000x64.Idx → EReal) (ix2 r q) = (Cert.ReferenceIdeal.Hand.res_main_v503 R : S50000x64.Idx → EReal) (ix2 r q))
      ∧ (∀ (r : Fin 50000) (q : Fin 64), (B64 m ρ c (Proc.devRef .tc main_v293_1) : S50000x64.Idx → EReal) (ix2 r q) = cumRef7 R r q) :=
  Cert.Val.join_layer (N := 50000) (E := 690000) (Ci := 64) (Co := 64)
    (B60 m ρ c (Proc.devRef .tc main_v276) : S50000x64.Idx → EReal) (B5 m ρ c (Proc.devRef .tc main_v55) : S64x64.Idx → EReal) (B62 m ρ c (Proc.devRef .tc main_v278) : S50000x64.Idx → EReal) (B63 m ρ c (Proc.devRef .tc main_v291) : S50000x64.Idx → EReal) (B5 m ρ c (Proc.devRef .tc main_v57) : S64.Idx → EReal)
    (B3 m ρ c (Proc.devRef .tc main_v5)) (B3 m ρ c (Proc.devRef .tc main_v6)) (B3 m ρ c (Proc.devRef .tc main_v33)) _ _ _ _ _ _
    (Cert.ReferenceIdeal.Hand.res_main_v450 R : S50000x64.Idx → EReal) (Cert.ReferenceIdeal.Hand.res_main_v58 R : S64x64.Idx → EReal) (Cert.ReferenceIdeal.Hand.res_main_v452 R : S50000x64.Idx → EReal) (Cert.ReferenceIdeal.Hand.res_main_v465 R : S50000x64.Idx → EReal) (Cert.ReferenceIdeal.Hand.res_main_v468 R : S50000x64.Idx → EReal) (Cert.ReferenceIdeal.Hand.res_main_v60 R : S64.Idx → EReal)
    (Cert.ReferenceIdeal.Hand.res_main_v5 R) (Cert.ReferenceIdeal.Hand.res_main_v6 R) (Cert.ReferenceIdeal.Hand.res_main_v33 R) _ _ _ _ _ _
    (B64 m ρ c (Proc.devRef .tc main_v293_0) : S50000x64.Idx → EReal) (B64 m ρ c (Proc.devRef .tc main_v293_1) : S50000x64.Idx → EReal) (B68 m ρ c (Proc.devRef .tc main_v301) : S50000x64.Idx → EReal) (B5 m ρ c (Proc.devRef .tc main_v87) : S64.Idx → EReal) (B5 m ρ c (Proc.devRef .tc main_v89) : S64.Idx → EReal)
    (Cert.ReferenceIdeal.Hand.res_main_v473 R : S50000x64.Idx → EReal) (Cert.ReferenceIdeal.Hand.res_main_v503 R : S50000x64.Idx → EReal) (Cert.ReferenceIdeal.Hand.res_main_v90 R : S64.Idx → EReal) (Cert.ReferenceIdeal.Hand.res_main_v92 R : S64.Idx → EReal)
    (B56 m ρ c (Proc.devRef .tc main_v268_1) : S50000x64.Idx → EReal) (cumRef6 R)
    (k7_lin m ρ c) (k7_agg m ρ c) (k7_pre m ρ c) (k7_cum m ρ c) (k7_act m ρ c)
    (Cert.Val.Ref.ref_lin_7 R) (by unfold Cert.ReferenceIdeal.Hand.res_main_v465 Cert.ReferenceIdeal.Hand.res_main_v453 Cert.ReferenceIdeal.Hand.res_main_v458; rfl) (Cert.Val.Ref.ref_conv_7 R)
    (fun r q => by rw [Cert.Val.Ref.ref_pre_7 R r q]; simp only [cumRef6, cumRef5, cumRef4, cumRef3, cumRef2, add_assoc])
    (Cert.Val.Ref.ref_act_7 R)
    rfl rfl hx hcum hsrc hdst hnorm hW hb hg hbe

/-! ## Layer 8 -/

/-- The reference's running sum of convolutions after layer 8. -/
noncomputable def cumRef8 (R : Valuation Cert.ReferenceIdeal.τ Cert.ReferenceIdeal.sig (Elt Ideal)) (r : Fin 50000) (q : Fin 64) : EReal :=
  cumRef7 R r q +ᵉ (Cert.ReferenceIdeal.Hand.res_main_v521 R : S50000x64.Idx → EReal) (ix2 r q)

/-- Layer 8: with equal layer inputs, equal incoming running sums, equal graph arrays and equal weights, the two programs'
    activations after the layer are equal, and so are their running sums. -/
theorem join8 (R : Valuation Cert.ReferenceIdeal.τ Cert.ReferenceIdeal.sig (Elt Ideal))
    (hx : ∀ (r : Fin 50000) (k : Fin 64), (B68 m ρ c (Proc.devRef .tc main_v301) : S50000x64.Idx → EReal) (ix2 r k) = (Cert.ReferenceIdeal.Hand.res_main_v503 R : S50000x64.Idx → EReal) (ix2 r k))
    (hcum : ∀ (r : Fin 50000) (q : Fin 64), (B64 m ρ c (Proc.devRef .tc main_v293_1) : S50000x64.Idx → EReal) (ix2 r q) = cumRef7 R r q)
    (hsrc : B3 m ρ c (Proc.devRef .tc main_v5) = Cert.ReferenceIdeal.Hand.res_main_v5 R)
    (hdst : B3 m ρ c (Proc.devRef .tc main_v6) = Cert.ReferenceIdeal.Hand.res_main_v6 R)
    (hnorm : B3 m ρ c (Proc.devRef .tc main_v33) = Cert.ReferenceIdeal.Hand.res_main_v33 R)
    (hW : (B5 m ρ c (Proc.devRef .tc main_v59) : S64x64.Idx → EReal) = Cert.ReferenceIdeal.Hand.res_main_v62 R)
    (hb : (B5 m ρ c (Proc.devRef .tc main_v61) : S64.Idx → EReal) = Cert.ReferenceIdeal.Hand.res_main_v64 R)
    (hg : (B5 m ρ c (Proc.devRef .tc main_v91) : S64.Idx → EReal) = Cert.ReferenceIdeal.Hand.res_main_v94 R)
    (hbe : (B5 m ρ c (Proc.devRef .tc main_v93) : S64.Idx → EReal) = Cert.ReferenceIdeal.Hand.res_main_v96 R) :
    (∀ (r : Fin 50000) (q : Fin 64), (B76 m ρ c (Proc.devRef .tc main_v326) : S50000x64.Idx → EReal) (ix2 r q) = (Cert.ReferenceIdeal.Hand.res_main_v557 R : S50000x64.Idx → EReal) (ix2 r q))
      ∧ (∀ (r : Fin 50000) (q : Fin 64), (B72 m ρ c (Proc.devRef .tc main_v318_1) : S50000x64.Idx → EReal) (ix2 r q) = cumRef8 R r q) :=
  Cert.Val.join_layer (N := 50000) (E := 690000) (Ci := 64) (Co := 64)
    (B68 m ρ c (Proc.devRef .tc main_v301) : S50000x64.Idx → EReal) (B5 m ρ c (Proc.devRef .tc main_v59) : S64x64.Idx → EReal) (B70 m ρ c (Proc.devRef .tc main_v303) : S50000x64.Idx → EReal) (B71 m ρ c (Proc.devRef .tc main_v316) : S50000x64.Idx → EReal) (B5 m ρ c (Proc.devRef .tc main_v61) : S64.Idx → EReal)
    (B3 m ρ c (Proc.devRef .tc main_v5)) (B3 m ρ c (Proc.devRef .tc main_v6)) (B3 m ρ c (Proc.devRef .tc main_v33)) _ _ _ _ _ _
    (Cert.ReferenceIdeal.Hand.res_main_v503 R : S50000x64.Idx → EReal) (Cert.ReferenceIdeal.Hand.res_main_v62 R : S64x64.Idx → EReal) (Cert.ReferenceIdeal.Hand.res_main_v505 R : S50000x64.Idx → EReal) (Cert.ReferenceIdeal.Hand.res_main_v518 R : S50000x64.Idx → EReal) (Cert.ReferenceIdeal.Hand.res_main_v521 R : S50000x64.Idx → EReal) (Cert.ReferenceIdeal.Hand.res_main_v64 R : S64.Idx → EReal)
    (Cert.ReferenceIdeal.Hand.res_main_v5 R) (Cert.ReferenceIdeal.Hand.res_main_v6 R) (Cert.ReferenceIdeal.Hand.res_main_v33 R) _ _ _ _ _ _
    (B72 m ρ c (Proc.devRef .tc main_v318_0) : S50000x64.Idx → EReal) (B72 m ρ c (Proc.devRef .tc main_v318_1) : S50000x64.Idx → EReal) (B76 m ρ c (Proc.devRef .tc main_v326) : S50000x64.Idx → EReal) (B5 m ρ c (Proc.devRef .tc main_v91) : S64.Idx → EReal) (B5 m ρ c (Proc.devRef .tc main_v93) : S64.Idx → EReal)
    (Cert.ReferenceIdeal.Hand.res_main_v527 R : S50000x64.Idx → EReal) (Cert.ReferenceIdeal.Hand.res_main_v557 R : S50000x64.Idx → EReal) (Cert.ReferenceIdeal.Hand.res_main_v94 R : S64.Idx → EReal) (Cert.ReferenceIdeal.Hand.res_main_v96 R : S64.Idx → EReal)
    (B64 m ρ c (Proc.devRef .tc main_v293_1) : S50000x64.Idx → EReal) (cumRef7 R)
    (k8_lin m ρ c) (k8_agg m ρ c) (k8_pre m ρ c) (k8_cum m ρ c) (k8_act m ρ c)
    (Cert.Val.Ref.ref_lin_8 R) (by unfold Cert.ReferenceIdeal.Hand.res_main_v518 Cert.ReferenceIdeal.Hand.res_main_v506 Cert.ReferenceIdeal.Hand.res_main_v508 Cert.ReferenceIdeal.Hand.res_main_c_88; rfl) (Cert.Val.Ref.ref_conv_8 R)
    (fun r q => by rw [Cert.Val.Ref.ref_pre_8 R r q]; simp only [cumRef7, cumRef6, cumRef5, cumRef4, cumRef3, cumRef2, add_assoc])
    (Cert.Val.Ref.ref_act_8 R)
    rfl rfl hx hcum hsrc hdst hnorm hW hb hg hbe

/-! ## Layer 9 -/

/-- The reference's running sum of convolutions after layer 9. -/
noncomputable def cumRef9 (R : Valuation Cert.ReferenceIdeal.τ Cert.ReferenceIdeal.sig (Elt Ideal)) (r : Fin 50000) (q : Fin 64) : EReal :=
  cumRef8 R r q +ᵉ (Cert.ReferenceIdeal.Hand.res_main_v575 R : S50000x64.Idx → EReal) (ix2 r q)

/-- Layer 9: with equal layer inputs, equal incoming running sums, equal graph arrays and equal weights, the two programs'
    activations after the layer are equal, and so are their running sums. -/
theorem join9 (R : Valuation Cert.ReferenceIdeal.τ Cert.ReferenceIdeal.sig (Elt Ideal))
    (hx : ∀ (r : Fin 50000) (k : Fin 64), (B76 m ρ c (Proc.devRef .tc main_v326) : S50000x64.Idx → EReal) (ix2 r k) = (Cert.ReferenceIdeal.Hand.res_main_v557 R : S50000x64.Idx → EReal) (ix2 r k))
    (hcum : ∀ (r : Fin 50000) (q : Fin 64), (B72 m ρ c (Proc.devRef .tc main_v318_1) : S50000x64.Idx → EReal) (ix2 r q) = cumRef8 R r q)
    (hsrc : B3 m ρ c (Proc.devRef .tc main_v5) = Cert.ReferenceIdeal.Hand.res_main_v5 R)
    (hdst : B3 m ρ c (Proc.devRef .tc main_v6) = Cert.ReferenceIdeal.Hand.res_main_v6 R)
    (hnorm : B3 m ρ c (Proc.devRef .tc main_v33) = Cert.ReferenceIdeal.Hand.res_main_v33 R)
    (hW : (B5 m ρ c (Proc.devRef .tc main_v63) : S64x64.Idx → EReal) = Cert.ReferenceIdeal.Hand.res_main_v66 R)
    (hb : (B5 m ρ c (Proc.devRef .tc main_v65) : S64.Idx → EReal) = Cert.ReferenceIdeal.Hand.res_main_v68 R)
    (hg : (B5 m ρ c (Proc.devRef .tc main_v95) : S64.Idx → EReal) = Cert.ReferenceIdeal.Hand.res_main_v98 R)
    (hbe : (B5 m ρ c (Proc.devRef .tc main_v97) : S64.Idx → EReal) = Cert.ReferenceIdeal.Hand.res_main_v100 R) :
    (∀ (r : Fin 50000) (q : Fin 64), (B84 m ρ c (Proc.devRef .tc main_v351) : S50000x64.Idx → EReal) (ix2 r q) = (Cert.ReferenceIdeal.Hand.res_main_v612 R : S50000x64.Idx → EReal) (ix2 r q))
      ∧ (∀ (r : Fin 50000) (q : Fin 64), (B80 m ρ c (Proc.devRef .tc main_v343_1) : S50000x64.Idx → EReal) (ix2 r q) = cumRef9 R r q) :=
  Cert.Val.join_layer (N := 50000) (E := 690000) (Ci := 64) (Co := 64)
    (B76 m ρ c (Proc.devRef .tc main_v326) : S50000x64.Idx → EReal) (B5 m ρ c (Proc.devRef .tc main_v63) : S64x64.Idx → EReal) (B78 m ρ c (Proc.devRef .tc main_v328) : S50000x64.Idx → EReal) (B79 m ρ c (Proc.devRef .tc main_v341) : S50000x64.Idx → EReal) (B5 m ρ c (Proc.devRef .tc main_v65) : S64.Idx → EReal)
    (B3 m ρ c (Proc.devRef .tc main_v5)) (B3 m ρ c (Proc.devRef .tc main_v6)) (B3 m ρ c (Proc.devRef .tc main_v33)) _ _ _ _ _ _
    (Cert.ReferenceIdeal.Hand.res_main_v557 R : S50000x64.Idx → EReal) (Cert.ReferenceIdeal.Hand.res_main_v66 R : S64x64.Idx → EReal) (Cert.ReferenceIdeal.Hand.res_main_v559 R : S50000x64.Idx → EReal) (Cert.ReferenceIdeal.Hand.res_main_v572 R : S50000x64.Idx → EReal) (Cert.ReferenceIdeal.Hand.res_main_v575 R : S50000x64.Idx → EReal) (Cert.ReferenceIdeal.Hand.res_main_v68 R : S64.Idx → EReal)
    (Cert.ReferenceIdeal.Hand.res_main_v5 R) (Cert.ReferenceIdeal.Hand.res_main_v6 R) (Cert.ReferenceIdeal.Hand.res_main_v33 R) _ _ _ _ _ _
    (B80 m ρ c (Proc.devRef .tc main_v343_0) : S50000x64.Idx → EReal) (B80 m ρ c (Proc.devRef .tc main_v343_1) : S50000x64.Idx → EReal) (B84 m ρ c (Proc.devRef .tc main_v351) : S50000x64.Idx → EReal) (B5 m ρ c (Proc.devRef .tc main_v95) : S64.Idx → EReal) (B5 m ρ c (Proc.devRef .tc main_v97) : S64.Idx → EReal)
    (Cert.ReferenceIdeal.Hand.res_main_v582 R : S50000x64.Idx → EReal) (Cert.ReferenceIdeal.Hand.res_main_v612 R : S50000x64.Idx → EReal) (Cert.ReferenceIdeal.Hand.res_main_v98 R : S64.Idx → EReal) (Cert.ReferenceIdeal.Hand.res_main_v100 R : S64.Idx → EReal)
    (B72 m ρ c (Proc.devRef .tc main_v318_1) : S50000x64.Idx → EReal) (cumRef8 R)
    (k9_lin m ρ c) (k9_agg m ρ c) (k9_pre m ρ c) (k9_cum m ρ c) (k9_act m ρ c)
    (Cert.Val.Ref.ref_lin_9 R) (by unfold Cert.ReferenceIdeal.Hand.res_main_v572 Cert.ReferenceIdeal.Hand.res_main_v560; rfl) (Cert.Val.Ref.ref_conv_9 R)
    (fun r q => by rw [Cert.Val.Ref.ref_pre_9 R r q]; simp only [cumRef8, cumRef7, cumRef6, cumRef5, cumRef4, cumRef3, cumRef2, add_assoc])
    (Cert.Val.Ref.ref_act_9 R)
    rfl rfl hx hcum hsrc hdst hnorm hW hb hg hbe

/-! ## Layer 10 -/

/-- The reference's running sum of convolutions after layer 10. -/
noncomputable def cumRef10 (R : Valuation Cert.ReferenceIdeal.τ Cert.ReferenceIdeal.sig (Elt Ideal)) (r : Fin 50000) (q : Fin 64) : EReal :=
  cumRef9 R r q +ᵉ (Cert.ReferenceIdeal.Hand.res_main_v630 R : S50000x64.Idx → EReal) (ix2 r q)

/-- Layer 10: with equal layer inputs, equal incoming running sums, equal graph arrays and equal weights, the two programs'
    activations after the layer are equal, and so are their running sums. -/
theorem join10 (R : Valuation Cert.ReferenceIdeal.τ Cert.ReferenceIdeal.sig (Elt Ideal))
    (hx : ∀ (r : Fin 50000) (k : Fin 64), (B84 m ρ c (Proc.devRef .tc main_v351) : S50000x64.Idx → EReal) (ix2 r k) = (Cert.ReferenceIdeal.Hand.res_main_v612 R : S50000x64.Idx → EReal) (ix2 r k))
    (hcum : ∀ (r : Fin 50000) (q : Fin 64), (B80 m ρ c (Proc.devRef .tc main_v343_1) : S50000x64.Idx → EReal) (ix2 r q) = cumRef9 R r q)
    (hsrc : B3 m ρ c (Proc.devRef .tc main_v5) = Cert.ReferenceIdeal.Hand.res_main_v5 R)
    (hdst : B3 m ρ c (Proc.devRef .tc main_v6) = Cert.ReferenceIdeal.Hand.res_main_v6 R)
    (hnorm : B3 m ρ c (Proc.devRef .tc main_v33) = Cert.ReferenceIdeal.Hand.res_main_v33 R)
    (hW : (B5 m ρ c (Proc.devRef .tc main_v67) : S64x64.Idx → EReal) = Cert.ReferenceIdeal.Hand.res_main_v70 R)
    (hb : (B5 m ρ c (Proc.devRef .tc main_v69) : S64.Idx → EReal) = Cert.ReferenceIdeal.Hand.res_main_v72 R)
    (hg : (B5 m ρ c (Proc.devRef .tc main_v99) : S64.Idx → EReal) = Cert.ReferenceIdeal.Hand.res_main_v102 R)
    (hbe : (B5 m ρ c (Proc.devRef .tc main_v101) : S64.Idx → EReal) = Cert.ReferenceIdeal.Hand.res_main_v104 R) :
    (∀ (r : Fin 50000) (q : Fin 64), (B92 m ρ c (Proc.devRef .tc main_v376) : S50000x64.Idx → EReal) (ix2 r q) = (Cert.ReferenceIdeal.Hand.res_main_v668 R : S50000x64.Idx → EReal) (ix2 r q))
      ∧ (∀ (r : Fin 50000) (q : Fin 64), (B88 m ρ c (Proc.devRef .tc main_v368_1) : S50000x64.Idx → EReal) (ix2 r q) = cumRef10 R r q) :=
  Cert.Val.join_layer (N := 50000) (E := 690000) (Ci := 64) (Co := 64)
    (B84 m ρ c (Proc.devRef .tc main_v351) : S50000x64.Idx → EReal) (B5 m ρ c (Proc.devRef .tc main_v67) : S64x64.Idx → EReal) (B86 m ρ c (Proc.devRef .tc main_v353) : S50000x64.Idx → EReal) (B87 m ρ c (Proc.devRef .tc main_v366) : S50000x64.Idx → EReal) (B5 m ρ c (Proc.devRef .tc main_v69) : S64.Idx → EReal)
    (B3 m ρ c (Proc.devRef .tc main_v5)) (B3 m ρ c (Proc.devRef .tc main_v6)) (B3 m ρ c (Proc.devRef .tc main_v33)) _ _ _ _ _ _
    (Cert.ReferenceIdeal.Hand.res_main_v612 R : S50000x64.Idx → EReal) (Cert.ReferenceIdeal.Hand.res_main_v70 R : S64x64.Idx → EReal) (Cert.ReferenceIdeal.Hand.res_main_v614 R : S50000x64.Idx → EReal) (Cert.ReferenceIdeal.Hand.res_main_v627 R : S50000x64.Idx → EReal) (Cert.ReferenceIdeal.Hand.res_main_v630 R : S50000x64.Idx → EReal) (Cert.ReferenceIdeal.Hand.res_main_v72 R : S64.Idx → EReal)
    (Cert.ReferenceIdeal.Hand.res_main_v5 R) (Cert.ReferenceIdeal.Hand.res_main_v6 R) (Cert.ReferenceIdeal.Hand.res_main_v33 R) _ _ _ _ _ _
    (B88 m ρ c (Proc.devRef .tc main_v368_0) : S50000x64.Idx → EReal) (B88 m ρ c (Proc.devRef .tc main_v368_1) : S50000x64.Idx → EReal) (B92 m ρ c (Proc.devRef .tc main_v376) : S50000x64.Idx → EReal) (B5 m ρ c (Proc.devRef .tc main_v99) : S64.Idx → EReal) (B5 m ρ c (Proc.devRef .tc main_v101) : S64.Idx → EReal)
    (Cert.ReferenceIdeal.Hand.res_main_v638 R : S50000x64.Idx → EReal) (Cert.ReferenceIdeal.Hand.res_main_v668 R : S50000x64.Idx → EReal) (Cert.ReferenceIdeal.Hand.res_main_v102 R : S64.Idx → EReal) (Cert.ReferenceIdeal.Hand.res_main_v104 R : S64.Idx → EReal)
    (B80 m ρ c (Proc.devRef .tc main_v343_1) : S50000x64.Idx → EReal) (cumRef9 R)
    (k10_lin m ρ c) (k10_agg m ρ c) (k10_pre m ρ c) (k10_cum m ρ c) (k10_act m ρ c)
    (Cert.Val.Ref.ref_lin_10 R) (by unfold Cert.ReferenceIdeal.Hand.res_main_v627; rfl) (Cert.Val.Ref.ref_conv_10 R)
    (fun r q => by rw [Cert.Val.Ref.ref_pre_10 R r q]; simp only [cumRef9, cumRef8, cumRef7, cumRef6, cumRef5, cumRef4, cumRef3, cumRef2, add_assoc])
    (Cert.Val.Ref.ref_act_10 R)
    rfl rfl hx hcum hsrc hdst hnorm hW hb hg hbe
end Cert.KernelIdeal.Hand
-- ==== Proof.Val.RefReal.lean ====
/-
  Real entries on the reference's named intermediates.

  The aggregate-first law (`Cert.Algebra.aggregate_first`) asks that every entry of the table, of the
  transposed weights and of the edge norms be a real number. Here that is derived, for the reference's own
  intermediates, from the same fact about the float inputs:

  * the edge norm `dis[src] · w · dis[dst]`, where `w` is the edge weights followed by ones, the degree is
    a sum of weights, and `dis = select (deg > 0) (rsqrt (max deg 1e-30)) 0`: `max deg 1e-30` is a positive
    real number whatever the degree, so its `rsqrt` is a real number, and so is either branch of the select;
  * the input features `x[:, 4:22] · ESG_weight + ESG_bias + x[:, 0:4]`: sums and products of real numbers;
  * the transposed weights: a transpose reads an entry of its operand.
-/
import proofs.«408084_j48395691492010_3_alg».proof.Proof.Ref.Defs
import proofs.«408084_j48395691492010_3_alg».proof.Proof.Algebra

noncomputable section

open scoped BigOperators

namespace Cert.Val.Real

open Cert.ReferenceIdeal Cert.ReferenceIdeal.Hand Cert.ReferenceIdeal.Gen Idealize.ShloMosaic Idealize.ShloMosaic.TcCoe
  Idealize.SL.Sem Idealize.ShloMosaic.StableHlo Idealize.ShloMosaic.ValueIdx Cert.Spec Cert.Algebra

/-! ## The programs' float constants -/

/-- A positive real number among the extended reals. -/
def PosReal (a : EReal) : Prop := ∃ r : ℝ, 0 < r ∧ a = (r : EReal)

theorem PosReal.isReal {a : EReal} (h : PosReal a) : IsReal a := by
  obtain ⟨r, _, rfl⟩ := h; exact ⟨r, rfl⟩
theorem PosReal.pos {a : EReal} (h : PosReal a) : 0 < a := by
  obtain ⟨r, hr, rfl⟩ := h; exact_mod_cast hr
theorem PosReal.ne_zero {a : EReal} (h : PosReal a) : a ≠ 0 := ne_of_gt h.pos

/-- A binary32 word with a clear sign bit and an exponent field neither all ones nor zero denotes a positive
    real number. -/
theorem posReal_ieee_normal (b : BitVec 32) (ex fr : Nat) (hex : (b.extractLsb' 23 8).toNat = ex)
    (hfr : (b.extractLsb' 0 23).toNat = fr) (hneg : (b.extractLsb' 31 1 == 1#1) = false)
    (h1 : ex ≠ 2 ^ 8 - 1) (h0 : ex ≠ 0) : PosReal (Ideal.ofBits .f32 b) := by
  refine ⟨((2 ^ 23 + fr : ℕ) : ℝ) * (2 : ℝ) ^ ((ex : ℤ) - (2 ^ (8 - 1) - 1) - (23 : ℕ)), by positivity, ?_⟩
  show Ideal.ieee 8 23 b = _
  unfold Ideal.ieee
  simp only [hex, hfr, hneg]
  rw [if_neg h1, if_neg h0]
  simp

/-- `50000.0`. -/
theorem posReal_50000 : PosReal (Ideal.ofBits .f32 0x47435000#32) :=
  posReal_ieee_normal _ 142 4411392 (by decide) (by decide) (by decide) (by decide) (by decide)
/-- `1.0`. -/
theorem posReal_one : PosReal (Ideal.ofBits .f32 0x3F800000#32) :=
  posReal_ieee_normal _ 127 0 (by decide) (by decide) (by decide) (by decide) (by decide)
/-- `1e-5` (the batch norm's ε). -/
theorem posReal_eps : PosReal (Ideal.ofBits .f32 0x3727C5AC#32) :=
  posReal_ieee_normal _ 110 2606508 (by decide) (by decide) (by decide) (by decide) (by decide)
/-- `1e-30` (the degree's floor). -/
theorem posReal_tiny : PosReal (Ideal.ofBits .f32 0x0DA24260#32) :=
  posReal_ieee_normal _ 27 2245216 (by decide) (by decide) (by decide) (by decide) (by decide)

/-- The word `0xFF800000` denotes `-∞`. -/
theorem ofBits_neginf_f32 : Ideal.ofBits .f32 0xFF800000#32 = ⊥ := by simp [Ideal.ofBits, Ideal.ieee]

/-! ## Operations that read an operand's entry keep real entries -/

theorem isReal_concatenate (t : Shape) (a : Fin t.rank) (xs : List ((s : Shape) × (s.Idx → EReal)))
    (h : Shape.Concatenates (xs.map (·.1)) t a) (hx : ∀ p ∈ xs, ∀ q, IsReal (p.2 q)) (j : t.Idx) :
    IsReal (concatenate t a xs h j) := by
  unfold concatenate
  exact hx _ (List.getElem_mem _) _

theorem isReal_extractStridedSlice {s : Shape} (t : Shape) (off : Fin s.rank → Nat) (x : s.Idx → EReal)
    (h : s.Slices off t) (hx : ∀ p, IsReal (x p)) (j : t.Idx) : IsReal (extractStridedSlice t off x h j) := by
  unfold extractStridedSlice; exact hx _

theorem isReal_shapeCast {s : Shape} (t : Shape) (x : s.Idx → EReal) (h : s.ShapeCasts t)
    (hx : ∀ p, IsReal (x p)) (j : t.Idx) : IsReal (shapeCast t x h j) := by
  unfold shapeCast; exact hx _

/-! ## A row maximum folded from `-∞` over a nonempty row of real numbers is a real number -/

theorem foldl_max_isReal {ι : Type} (f : ι → EReal) (hf : ∀ n, IsReal (f n)) :
    ∀ (l : List ι) (a : EReal), (IsReal a ∨ (a = ⊥ ∧ l ≠ [])) → IsReal (l.foldl (fun r n => max r (f n)) a) := by
  intro l
  induction l with
  | nil =>
    intro a h
    rcases h with h | ⟨_, h⟩
    · exact h
    · exact absurd rfl h
  | cons n l ih =>
    intro a h
    rw [List.foldl_cons]
    refine ih _ (Or.inl ?_)
    rcases h with h | ⟨h, _⟩
    · exact isReal_max h (hf n)
    · rw [h, max_eq_right bot_le]; exact hf n

/-- Dropping axis 1 of a rank-2 index leaves its first coordinate. -/
theorem drop_ix2_axis1 {N C : Nat} (h : (⟨2, ![N, C]⟩ : Shape).ReducesTo [1] ⟨1, ![N]⟩) (i : Fin N) (k : Fin C) :
    h.drop (ix2 i k) = ix1 i := by
  funext b
  obtain rfl : b = 0 := Subsingleton.elim _ _
  rfl

theorem isReal_rowMax {N C : Nat} (hC : 0 < C) (h : (⟨2, ![N, C]⟩ : Shape).ReducesTo [1] ⟨1, ![N]⟩)
    (hu : 0 < (⟨0, ![]⟩ : Shape).numel) (x : FVec Ideal ⟨2, ![N, C]⟩ .f32) (hx : ∀ p, IsReal (x p))
    (j : (⟨1, ![N]⟩ : Shape).Idx) :
    IsReal (Host.reduce (FloatOps.maximumf (F := Ideal) (φ := .f32)) x
      (constant (F := Ideal) ⟨0, ![]⟩ .f32 0xFF800000#32) h hu j) := by
  obtain ⟨i, rfl⟩ : ∃ i : Fin N, j = ix1 i := ⟨j 0, eq_ix1 j⟩
  unfold Host.reduce
  refine foldl_max_isReal (fun n => x ((⟨2, ![N, C]⟩ : Shape).rowMajor.symm n)) (fun n => hx _) _ _ (Or.inr ⟨?_, ?_⟩)
  · show Ideal.ofBits .f32 0xFF800000#32 = ⊥
    exact ofBits_neginf_f32
  · intro hnil
    have hmem : (⟨2, ![N, C]⟩ : Shape).rowMajor (ix2 i ⟨0, hC⟩) ∈
        (List.finRange (⟨2, ![N, C]⟩ : Shape).numel).filter
          fun n => h.drop ((⟨2, ![N, C]⟩ : Shape).rowMajor.symm n) = ix1 i := by
      rw [List.mem_filter]
      refine ⟨List.mem_finRange _, ?_⟩
      rw [Equiv.symm_apply_apply]
      exact decide_eq_true (drop_ix2_axis1 h i ⟨0, hC⟩)
    rw [hnil] at hmem
    exact absurd hmem List.not_mem_nil

/-! ## The host's elementwise operations and sums, read at an index (each by unfolding) -/

section AtIndex
variable {s : Shape} {φ : FTy}

theorem hostRsqrt_apply (x : FVec Ideal s φ) (i : s.Idx) : Host.rsqrt x i = Ideal.rsqrt (x i) := rfl
theorem hostExp_apply (x : FVec Ideal s φ) (i : s.Idx) : Host.exp x i = Ideal.exp (x i) := rfl
theorem hostDivf_apply (x y : FVec Ideal s φ) (i : s.Idx) : Host.divf x y i = Ideal.div (x i) (y i) := rfl
theorem cmpf_ideal_apply (p : CmpFPredicate) (x y : FVec Ideal s φ) (i : s.Idx) :
    cmpf p x y i = Ideal.cmp p (x i) (y i) := rfl
theorem hostReduceAdd_apply {axes : List (Fin s.rank)} {t u : Shape} (x : FVec Ideal s φ) (init : u.Idx → Ideal φ)
    (h : s.ReducesTo axes t) (hu : 0 < u.numel) (j : t.Idx) :
    Host.reduceAdd x init h hu j = Ideal.hostReduceAdd h x (init (Shape.Idx.first hu)) j := rfl
/-- A rank-0 array broadcast to any shape reads its one entry everywhere. -/
theorem bcast_scalar_apply {α : Type} {t : Shape} (h : (⟨0, ![]⟩ : Shape).BroadcastsInDim t ![])
    (c : (⟨0, ![]⟩ : Shape).Idx → α) (j : t.Idx) : broadcastInDim t ![] h c j = c ix0 := by
  unfold broadcastInDim
  congr 1
  funext a
  exact a.elim0
theorem sitofp_ideal_apply {w : Nat} (x : IVec s w) (i : s.Idx) :
    (sitofp φ x : FVec Ideal s φ) i = (((x i).toInt : ℝ) : EReal) := rfl

end AtIndex

/-! ## The reference's intermediates -/

variable (R : Valuation τ sig (Elt Ideal))

/-- The edge weights followed by one `1.0` per self loop. -/
theorem real_v8 (hr2 : ∀ p, IsReal ((R (Proc.devRef .tc main_arg2) : S640000.Idx → EReal) p)) (p : S690000.Idx) : IsReal (res_main_v8 R p) := by
  unfold res_main_v8 fn_main_v8
  refine isReal_concatenate _ _ _ _ ?_ p
  intro q hq
  simp only [List.mem_cons, List.not_mem_nil, or_false] at hq
  rcases hq with rfl | rfl
  · exact hr2
  · intro j
    dsimp only
    rw [bcast_scalar_apply, constant_apply]
    exact posReal_one.isReal

/-- The weighted in-degree: a sum of weights. -/
theorem real_v11 (hr2 : ∀ p, IsReal ((R (Proc.devRef .tc main_arg2) : S640000.Idx → EReal) p)) (p : S50000.Idx) : IsReal (res_main_v11 R p) := by
  unfold res_main_v11
  refine isReal_scatterAdd _ _ _ _ (fun j => ?_) (real_v8 R hr2) p
  rw [bcast_zero_apply]
  exact isReal_zero

/-- `dis`: `rsqrt` of the degree floored at a positive real number, or zero. -/
theorem real_v17 (hr2 : ∀ p, IsReal ((R (Proc.devRef .tc main_arg2) : S640000.Idx → EReal) p)) (p : S50000.Idx) : IsReal (res_main_v17 R p) := by
  unfold res_main_v17
  rw [select_apply, hostRsqrt_apply, maximumf_apply, bcast_scalar_apply, bcast_scalar_apply, constant_apply]
  refine isReal_select (isReal_rsqrt (isReal_max (real_v11 R hr2 p) posReal_tiny.isReal)
    (lt_max_of_lt_right posReal_tiny.pos)) ?_
  simp only [id, constant_apply, Ideal.ofBits_zero_f32]
  exact isReal_zero

/-- THE EDGE NORM `dis[src] · w · dis[dst]` is a real number on every edge. -/
theorem real_norm (hr2 : ∀ p, IsReal ((R (Proc.devRef .tc main_arg2) : S640000.Idx → EReal) p)) (p : S690000.Idx) : IsReal (res_main_v33 R p) := by
  unfold res_main_v33
  rw [mulf_apply, mulf_apply]
  exact ((isReal_gather _ _ _ (real_v17 R hr2) p).mul (real_v8 R hr2 p)).mul
    (isReal_gather _ _ _ (real_v17 R hr2) p)

/-- THE INPUT FEATURES `x[:, 4:22] · ESG_weight + ESG_bias + x[:, 0:4]` are real numbers. -/
theorem real_x0 (hr0 : ∀ p, IsReal ((R (Proc.devRef .tc main_arg0) : S50000x22.Idx → EReal) p)) (hr4 : ∀ p, IsReal ((R (Proc.devRef .tc main_arg4) : S18x4.Idx → EReal) p))
    (hr5 : ∀ p, IsReal ((R (Proc.devRef .tc main_arg5) : S4.Idx → EReal) p)) (p : S50000x4.Idx) : IsReal (res_main_v40 R p) := by
  unfold res_main_v40
  rw [addf_apply, addf_apply]
  refine ((isReal_dotGeneral _ _ _ _ (isReal_extractStridedSlice _ _ _ _ hr0) hr4 p).add ?_).add
    (isReal_extractStridedSlice _ _ _ _ hr0 p)
  exact isReal_broadcastInDim _ _ _ (isReal_broadcastInDim _ _ _ hr5) p

/-- THE TRANSPOSED WEIGHTS of layer 0 … -/
theorem real_W0t (hr6 : ∀ p, IsReal ((R (Proc.devRef .tc main_arg6) : S64x4.Idx → EReal) p)) (p : S4x64.Idx) :
    IsReal (transpose S4x64 [1, 0] (R (Proc.devRef .tc main_arg6)) transposes_S64x4_S4x64_1_0 p) :=
  isReal_transpose _ _ _ hr6 p

/-- … and of layer 1. -/
theorem real_W1t (hr8 : ∀ p, IsReal ((R (Proc.devRef .tc main_arg8) : S128x64.Idx → EReal) p)) (p : S64x128.Idx) :
    IsReal (transpose S64x128 [1, 0] (R (Proc.devRef .tc main_arg8)) transposes_S128x64_S64x128_1_0 p) :=
  isReal_transpose _ _ _ hr8 p

/-! ## Layer 0 of the reference, up to its activation

  `agg = segment_sum (norm · (x0 · W0ᵀ)[src]) + b0`; the batch norm `(agg − mean) · rsqrt (var + ε) · γ + β` with
  `mean = (∑ agg) / 50000` and `var = (∑ (agg − mean)²) / (50000 − 0)` (the count is a positive real number, so
  the guarded quotient takes its first branch; the variance is a sum of squares over a positive number, hence
  nonnegative, and `var + ε` is positive); then `e = exp (y − rowmax y)` and `e / (1 + ∑ e)`, whose
  denominator is a positive real number. -/

theorem PosReal.add_nonneg {a b : EReal} (ha : PosReal a) (hb : IsReal b) (hb0 : 0 ≤ b) : PosReal (a + b) := by
  obtain ⟨r, hr, rfl⟩ := ha
  obtain ⟨s, rfl⟩ := hb
  have hs : 0 ≤ s := by exact_mod_cast hb0
  exact ⟨r + s, by linarith, (EReal.coe_add r s).symm⟩

/-- A nonnegative real number over a positive real number is a nonnegative real number. -/
theorem div_posReal {a b : EReal} (ha : IsReal a) (ha0 : 0 ≤ a) (hb : PosReal b) :
    IsReal (Ideal.div a b) ∧ 0 ≤ Ideal.div a b := by
  refine ⟨isReal_div ha hb.isReal hb.ne_zero, ?_⟩
  obtain ⟨r, hr, rfl⟩ := hb
  rw [Ideal.div_coe hr.ne']
  exact mul_nonneg ha0 (by exact_mod_cast (one_div_pos.2 hr).le)

theorem isReal_div_posReal {a b : EReal} (ha : IsReal a) (hb : PosReal b) : IsReal (Ideal.div a b) :=
  isReal_div ha hb.isReal hb.ne_zero

/-- A comparison `a > 0` of a positive number answers `1`. -/
theorem cmp_ogt_zero_of_pos {a : EReal} (h : 0 < a) : Ideal.cmp .ogt a 0 = 1#1 := by
  simp [Ideal.cmp, h]

theorem cmp_ogt_ofBits_zero {a : EReal} (h : 0 < a) :
    Ideal.cmp .ogt a (Ideal.ofBits .f32 0x00000000#32) = 1#1 := by
  rw [Ideal.ofBits_zero_f32]; exact cmp_ogt_zero_of_pos h

theorem posReal_broadcastInDim {s t : Shape} (dims : Fin s.rank → Fin t.rank) (h : s.BroadcastsInDim t dims)
    (x : s.Idx → EReal) (hx : ∀ p, PosReal (x p)) (j : t.Idx) : PosReal (broadcastInDim t dims h x j) := by
  unfold broadcastInDim; exact hx _

section Sums
variable {s t : Shape} {axes : List (Fin s.rank)}

/-- The host's sum from zero of real numbers is a real number … -/
theorem isReal_reduceAdd0 (x : FVec Ideal s .f32) (h : s.ReducesTo axes t) (hu : 0 < (⟨0, ![]⟩ : Shape).numel)
    (hx : ∀ p, IsReal (x p)) (j : t.Idx) :
    IsReal (Host.reduceAdd x (constant (F := Ideal) ⟨0, ![]⟩ .f32 0x00000000#32) h hu j) := by
  rw [hostReduceAdd_apply, constant_apply]
  exact isReal_hostReduceAdd _ _ _ hx (by rw [Ideal.ofBits_zero_f32]; exact isReal_zero) j

/-- … and of nonnegative numbers is nonnegative. -/
theorem reduceAdd0_nonneg (x : FVec Ideal s .f32) (h : s.ReducesTo axes t) (hu : 0 < (⟨0, ![]⟩ : Shape).numel)
    (hx0 : ∀ p, 0 ≤ x p) (j : t.Idx) :
    0 ≤ Host.reduceAdd x (constant (F := Ideal) ⟨0, ![]⟩ .f32 0x00000000#32) h hu j := by
  rw [hostReduceAdd_apply, constant_apply, Ideal.ofBits_zero_f32]
  unfold Ideal.hostReduceAdd
  rw [zero_add]
  exact Finset.sum_nonneg fun i _ => hx0 i

/-- `1 + ∑ x` over nonnegative real numbers, the `1` and the sum each broadcast to one shape, is a positive real
    number at every index. -/
theorem posReal_one_add_sum {u : Shape} (x : FVec Ideal s .f32) (h : s.ReducesTo axes t)
    (hu : 0 < (⟨0, ![]⟩ : Shape).numel) (hb1 : (⟨0, ![]⟩ : Shape).BroadcastsInDim u ![])
    (dims : Fin t.rank → Fin u.rank) (hb2 : t.BroadcastsInDim u dims)
    (hx : ∀ p, IsReal (x p)) (hx0 : ∀ p, 0 ≤ x p) (q : u.Idx) :
    PosReal (addf (broadcastInDim u ![] hb1 (constant (F := Ideal) ⟨0, ![]⟩ .f32 0x3F800000#32))
      (broadcastInDim u dims hb2
        (Host.reduceAdd x (constant (F := Ideal) ⟨0, ![]⟩ .f32 0x00000000#32) h hu)) q) := by
  rw [addf_apply, bcast_scalar_apply, constant_apply]
  refine posReal_one.add_nonneg (isReal_broadcastInDim _ _ _ (isReal_reduceAdd0 x h hu hx) q) ?_
  unfold broadcastInDim
  exact reduceAdd0_nonneg x h hu hx0 _

end Sums

theorem real_v106 (hr0 : ∀ p, IsReal ((R (Proc.devRef .tc main_arg0) : S50000x22.Idx → EReal) p)) (hr4 : ∀ p, IsReal ((R (Proc.devRef .tc main_arg4) : S18x4.Idx → EReal) p))
    (hr5 : ∀ p, IsReal ((R (Proc.devRef .tc main_arg5) : S4.Idx → EReal) p)) (hr6 : ∀ p, IsReal ((R (Proc.devRef .tc main_arg6) : S64x4.Idx → EReal) p)) (p : S50000x64.Idx) : IsReal (res_main_v106 R p) := by
  unfold res_main_v106
  exact isReal_dotGeneral _ _ _ _ (real_x0 R hr0 hr4 hr5) (real_W0t R hr6) p

section Layer0
variable (hr0 : ∀ p, IsReal ((R (Proc.devRef .tc main_arg0) : S50000x22.Idx → EReal) p)) (hr2 : ∀ p, IsReal ((R (Proc.devRef .tc main_arg2) : S640000.Idx → EReal) p))
  (hr4 : ∀ p, IsReal ((R (Proc.devRef .tc main_arg4) : S18x4.Idx → EReal) p)) (hr5 : ∀ p, IsReal ((R (Proc.devRef .tc main_arg5) : S4.Idx → EReal) p))
  (hr6 : ∀ p, IsReal ((R (Proc.devRef .tc main_arg6) : S64x4.Idx → EReal) p)) (hr7 : ∀ p, IsReal ((R (Proc.devRef .tc main_arg7) : S64.Idx → EReal) p))
  (hr16 : ∀ p, IsReal ((R (Proc.devRef .tc main_arg16) : S64.Idx → EReal) p)) (hr17 : ∀ p, IsReal ((R (Proc.devRef .tc main_arg17) : S64.Idx → EReal) p))

include hr2 in
theorem real_v107 (p : S690000x1.Idx) : IsReal (res_main_v107 R p) := by
  unfold res_main_v107
  exact isReal_broadcastInDim _ _ _ (real_norm R hr2) p

include hr0 hr2 hr4 hr5 hr6 in
/-- The aggregate of layer 0. -/
theorem real_v119 (p : S50000x64.Idx) : IsReal (res_main_v119 R p) := by
  unfold res_main_v119
  refine isReal_scatterAdd _ _ _ _ (fun j => ?_) (fun q => ?_) p
  · rw [bcast_zero_apply]; exact isReal_zero
  · rw [mulf_apply]
    exact (isReal_broadcastInDim _ _ _ (real_v107 R hr2) q).mul
      (isReal_gather _ _ _ (real_v106 R hr0 hr4 hr5 hr6) q)

include hr0 hr2 hr4 hr5 hr6 hr7 in
/-- … plus its bias. -/
theorem real_v122 (p : S50000x64.Idx) : IsReal (res_main_v122 R p) := by
  unfold res_main_v122
  rw [addf_apply]
  exact (real_v119 R hr0 hr2 hr4 hr5 hr6 p).add
    (isReal_broadcastInDim _ _ _ (isReal_broadcastInDim _ _ _ hr7) p)

include hr0 hr2 hr4 hr5 hr6 hr7 in
/-- The column means. -/
theorem real_v125 (p : S64.Idx) : IsReal (res_main_v125 R p) := by
  unfold res_main_v125
  rw [hostDivf_apply, bcast_scalar_apply, constant_apply]
  exact isReal_div_posReal (isReal_reduceAdd0 _ _ _ (real_v122 R hr0 hr2 hr4 hr5 hr6 hr7) p) posReal_50000

include hr0 hr2 hr4 hr5 hr6 hr7 in
/-- The deviations from the column means. -/
theorem real_call1_v5 (p : S50000x64.Idx) : IsReal (res_main_call1_v5 R p) := by
  unfold res_main_call1_v5
  rw [subf_apply]
  refine (real_v122 R hr0 hr2 hr4 hr5 hr6 hr7 p).sub (isReal_broadcastInDim _ _ _ (fun q => ?_) p)
  rw [hostDivf_apply, bcast_scalar_apply, constant_apply]
  exact isReal_div_posReal
    (isReal_broadcastInDim _ _ _ (isReal_reduceAdd0 _ _ _ (real_v122 R hr0 hr2 hr4 hr5 hr6 hr7)) q) posReal_50000

/-- The count `50000 − 0` is a positive real number. -/
theorem posReal_call1_v8 (q : S_.Idx) : PosReal (res_main_call1_v8 R q) := by
  unfold res_main_call1_v8
  rw [subf_apply, constant_apply, sitofp_ideal_apply]
  obtain ⟨r, hr, he⟩ := posReal_50000
  refine ⟨r, hr, ?_⟩
  rw [he]
  simp [constantI]

include hr0 hr2 hr4 hr5 hr6 hr7 in
/-- The column variances are nonnegative real numbers. -/
theorem real_v126 (p : S64.Idx) : IsReal (res_main_v126 R p) ∧ (0 : EReal) ≤ (res_main_v126 R p : EReal) := by
  unfold res_main_v126
  rw [select_apply, hostDivf_apply, bcast_scalar_apply, bcast_scalar_apply, bcast_scalar_apply, cmpf_ideal_apply,
    constant_apply, cmp_ogt_ofBits_zero (posReal_call1_v8 R ix0).pos, select_one]
  refine div_posReal (isReal_reduceAdd0 _ _ _ (fun q => ?_) p) (reduceAdd0_nonneg _ _ _ (fun q => ?_) p)
    (posReal_call1_v8 R ix0)
  · rw [mulf_apply]
    exact (real_call1_v5 R hr0 hr2 hr4 hr5 hr6 hr7 q).mul (real_call1_v5 R hr0 hr2 hr4 hr5 hr6 hr7 q)
  · rw [mulf_apply]
    exact mul_self_nonneg_of_isReal (real_call1_v5 R hr0 hr2 hr4 hr5 hr6 hr7 q)

include hr0 hr2 hr4 hr5 hr6 hr7 hr16 hr17 in
/-- The batch norm's output. -/
theorem real_v141 (p : S50000x64.Idx) : IsReal (res_main_v141 R p) := by
  unfold res_main_v141
  rw [addf_apply, mulf_apply, mulf_apply, subf_apply]
  refine ((((real_v122 R hr0 hr2 hr4 hr5 hr6 hr7 p).sub ?_).mul ?_).mul ?_).add ?_
  · exact isReal_broadcastInDim _ _ _ (isReal_broadcastInDim _ _ _ (real_v125 R hr0 hr2 hr4 hr5 hr6 hr7)) p
  · refine isReal_broadcastInDim _ _ _ (isReal_broadcastInDim _ _ _ (fun j => ?_)) p
    rw [hostRsqrt_apply, addf_apply, bcast_scalar_apply, constant_apply]
    have h126 := real_v126 R hr0 hr2 hr4 hr5 hr6 hr7 j
    exact isReal_rsqrt (h126.1.add posReal_eps.isReal) (add_pos_of_nonneg_of_pos h126.2 posReal_eps.pos)
  · exact isReal_broadcastInDim _ _ _ (isReal_broadcastInDim _ _ _ hr16) p
  · exact isReal_broadcastInDim _ _ _ (isReal_broadcastInDim _ _ _ hr17) p

include hr0 hr2 hr4 hr5 hr6 hr7 hr16 hr17 in
/-- `e = exp (y − rowmax y)`: a nonnegative real number. -/
theorem real_v146 (p : S50000x64.Idx) :
    IsReal (res_main_v146 R p) ∧ (0 : EReal) ≤ (res_main_v146 R p : EReal) := by
  unfold res_main_v146
  rw [hostExp_apply, subf_apply]
  refine ⟨isReal_exp ((real_v141 R hr0 hr2 hr4 hr5 hr6 hr7 hr16 hr17 p).sub ?_), exp_nonneg _⟩
  exact isReal_broadcastInDim _ _ _ (isReal_broadcastInDim _ _ _
    (isReal_rowMax (by decide) _ _ _ (real_v141 R hr0 hr2 hr4 hr5 hr6 hr7 hr16 hr17))) p

include hr0 hr2 hr4 hr5 hr6 hr7 hr16 hr17 in
/-- THE ACTIVATION OF LAYER 0 `e / (1 + ∑ e)` is a real number: layer 1's table. -/
theorem real_act0 (p : S50000x64.Idx) : IsReal (res_main_v152 R p) := by
  have h146 := real_v146 R hr0 hr2 hr4 hr5 hr6 hr7 hr16 hr17
  unfold res_main_v152
  rw [hostDivf_apply]
  refine isReal_div_posReal (h146 p).1 (posReal_broadcastInDim _ _ _ (fun q => ?_) p)
  exact posReal_one_add_sum _ _ _ _ _ _ (fun j => (h146 j).1) (fun j => (h146 j).2) q

end Layer0

end Cert.Val.Real

end
-- ==== Proof.Val.RealIn.lean ====
/-
  The float arguments' entries are real numbers, for the reference's arrays.

  The precondition speaks of the kernel program's argument arrays (at each device, `finite_inputs` of them is
  all ones: every entry of every float argument satisfies `|x| < +∞`, so is a real number). The reference's
  intermediates are stated over the reference's own arrays; where the two programs' arrays agree, argument by
  argument, the same holds of those.
-/
import proofs.«408084_j48395691492010_3_alg».proof.Defs
import proofs.«408084_j48395691492010_3_alg».proof.Proof.Val.RefReal

noncomputable section

namespace Cert.Val.Real

open Idealize.ShloMosaic Idealize.ShloMosaic.TcCoe Idealize.SL.Sem Cert.Spec

/-- Every entry of every float argument of the reference is a real number: one field per float argument, in the
    form the facts about the reference's intermediates take as hypotheses. -/
structure RealArgs (R : Valuation Cert.ReferenceIdeal.τ Cert.ReferenceIdeal.sig (Elt Ideal)) : Prop where
  hr0 : ∀ p, IsReal ((R (Proc.devRef .tc Cert.ReferenceIdeal.main_arg0) : Cert.ReferenceIdeal.S50000x22.Idx → EReal) p)
  hr2 : ∀ p, IsReal ((R (Proc.devRef .tc Cert.ReferenceIdeal.main_arg2) : Cert.ReferenceIdeal.S640000.Idx → EReal) p)
  hr4 : ∀ p, IsReal ((R (Proc.devRef .tc Cert.ReferenceIdeal.main_arg4) : Cert.ReferenceIdeal.S18x4.Idx → EReal) p)
  hr5 : ∀ p, IsReal ((R (Proc.devRef .tc Cert.ReferenceIdeal.main_arg5) : Cert.ReferenceIdeal.S4.Idx → EReal) p)
  hr6 : ∀ p, IsReal ((R (Proc.devRef .tc Cert.ReferenceIdeal.main_arg6) : Cert.ReferenceIdeal.S64x4.Idx → EReal) p)
  hr7 : ∀ p, IsReal ((R (Proc.devRef .tc Cert.ReferenceIdeal.main_arg7) : Cert.ReferenceIdeal.S64.Idx → EReal) p)
  hr8 : ∀ p, IsReal ((R (Proc.devRef .tc Cert.ReferenceIdeal.main_arg8) : Cert.ReferenceIdeal.S128x64.Idx → EReal) p)
  hr9 : ∀ p, IsReal ((R (Proc.devRef .tc Cert.ReferenceIdeal.main_arg9) : Cert.ReferenceIdeal.S128.Idx → EReal) p)
  hr10 : ∀ p, IsReal ((R (Proc.devRef .tc Cert.ReferenceIdeal.main_arg10) : Cert.ReferenceIdeal.S64x128.Idx → EReal) p)
  hr11 : ∀ p, IsReal ((R (Proc.devRef .tc Cert.ReferenceIdeal.main_arg11) : Cert.ReferenceIdeal.S64.Idx → EReal) p)
  hr12 : ∀ p, IsReal ((R (Proc.devRef .tc Cert.ReferenceIdeal.main_arg12) : Cert.ReferenceIdeal.S8x64x64.Idx → EReal) p)
  hr13 : ∀ p, IsReal ((R (Proc.devRef .tc Cert.ReferenceIdeal.main_arg13) : Cert.ReferenceIdeal.S8x64.Idx → EReal) p)
  hr14 : ∀ p, IsReal ((R (Proc.devRef .tc Cert.ReferenceIdeal.main_arg14) : Cert.ReferenceIdeal.S32x64.Idx → EReal) p)
  hr15 : ∀ p, IsReal ((R (Proc.devRef .tc Cert.ReferenceIdeal.main_arg15) : Cert.ReferenceIdeal.S32.Idx → EReal) p)
  hr16 : ∀ p, IsReal ((R (Proc.devRef .tc Cert.ReferenceIdeal.main_arg16) : Cert.ReferenceIdeal.S64.Idx → EReal) p)
  hr17 : ∀ p, IsReal ((R (Proc.devRef .tc Cert.ReferenceIdeal.main_arg17) : Cert.ReferenceIdeal.S64.Idx → EReal) p)
  hr18 : ∀ p, IsReal ((R (Proc.devRef .tc Cert.ReferenceIdeal.main_arg18) : Cert.ReferenceIdeal.S128.Idx → EReal) p)
  hr19 : ∀ p, IsReal ((R (Proc.devRef .tc Cert.ReferenceIdeal.main_arg19) : Cert.ReferenceIdeal.S128.Idx → EReal) p)
  hr20 : ∀ p, IsReal ((R (Proc.devRef .tc Cert.ReferenceIdeal.main_arg20) : Cert.ReferenceIdeal.S64.Idx → EReal) p)
  hr21 : ∀ p, IsReal ((R (Proc.devRef .tc Cert.ReferenceIdeal.main_arg21) : Cert.ReferenceIdeal.S64.Idx → EReal) p)
  hr22 : ∀ p, IsReal ((R (Proc.devRef .tc Cert.ReferenceIdeal.main_arg22) : Cert.ReferenceIdeal.S8x64.Idx → EReal) p)
  hr23 : ∀ p, IsReal ((R (Proc.devRef .tc Cert.ReferenceIdeal.main_arg23) : Cert.ReferenceIdeal.S8x64.Idx → EReal) p)
  hr24 : ∀ p, IsReal ((R (Proc.devRef .tc Cert.ReferenceIdeal.main_arg24) : Cert.ReferenceIdeal.S32.Idx → EReal) p)
  hr25 : ∀ p, IsReal ((R (Proc.devRef .tc Cert.ReferenceIdeal.main_arg25) : Cert.ReferenceIdeal.S32.Idx → EReal) p)
  hr26 : ∀ p, IsReal ((R (Proc.devRef .tc Cert.ReferenceIdeal.main_arg26) : Cert.ReferenceIdeal.S32x1.Idx → EReal) p)

/-- FROM THE PRECONDITION: when the reference's float arguments are the kernel program's (one equation per float
    argument, at device `c`), the precondition of the kernel program makes every entry of each a real number. -/
theorem realArgs_of_pre [Cert.Pre_finite_inputs.Facts]
    (m : (ℓ : Loc Cert.KernelIdeal.nD Cert.KernelIdeal.τ Cert.KernelIdeal.sig) → Buf (Elt Ideal) ℓ)
    (c : Dev Cert.KernelIdeal.nD) (hpre : Cert.Pre_KernelIdeal m)
    (R : Valuation Cert.ReferenceIdeal.τ Cert.ReferenceIdeal.sig (Elt Ideal))
    (a0 : R (Proc.devRef .tc Cert.ReferenceIdeal.main_arg0)
      = m ((c : Thread Cert.KernelIdeal.nD Cert.KernelIdeal.τ).loc Cert.KernelIdeal.main_arg0))
    (a2 : R (Proc.devRef .tc Cert.ReferenceIdeal.main_arg2)
      = m ((c : Thread Cert.KernelIdeal.nD Cert.KernelIdeal.τ).loc Cert.KernelIdeal.main_arg2))
    (a4 : R (Proc.devRef .tc Cert.ReferenceIdeal.main_arg4)
      = m ((c : Thread Cert.KernelIdeal.nD Cert.KernelIdeal.τ).loc Cert.KernelIdeal.main_arg4))
    (a5 : R (Proc.devRef .tc Cert.ReferenceIdeal.main_arg5)
      = m ((c : Thread Cert.KernelIdeal.nD Cert.KernelIdeal.τ).loc Cert.KernelIdeal.main_arg5))
    (a6 : R (Proc.devRef .tc Cert.ReferenceIdeal.main_arg6)
      = m ((c : Thread Cert.KernelIdeal.nD Cert.KernelIdeal.τ).loc Cert.KernelIdeal.main_arg6))
    (a7 : R (Proc.devRef .tc Cert.ReferenceIdeal.main_arg7)
      = m ((c : Thread Cert.KernelIdeal.nD Cert.KernelIdeal.τ).loc Cert.KernelIdeal.main_arg7))
    (a8 : R (Proc.devRef .tc Cert.ReferenceIdeal.main_arg8)
      = m ((c : Thread Cert.KernelIdeal.nD Cert.KernelIdeal.τ).loc Cert.KernelIdeal.main_arg8))
    (a9 : R (Proc.devRef .tc Cert.ReferenceIdeal.main_arg9)
      = m ((c : Thread Cert.KernelIdeal.nD Cert.KernelIdeal.τ).loc Cert.KernelIdeal.main_arg9))
    (a10 : R (Proc.devRef .tc Cert.ReferenceIdeal.main_arg10)
      = m ((c : Thread Cert.KernelIdeal.nD Cert.KernelIdeal.τ).loc Cert.KernelIdeal.main_arg10))
    (a11 : R (Proc.devRef .tc Cert.ReferenceIdeal.main_arg11)
      = m ((c : Thread Cert.KernelIdeal.nD Cert.KernelIdeal.τ).loc Cert.KernelIdeal.main_arg11))
    (a12 : R (Proc.devRef .tc Cert.ReferenceIdeal.main_arg12)
      = m ((c : Thread Cert.KernelIdeal.nD Cert.KernelIdeal.τ).loc Cert.KernelIdeal.main_arg12))
    (a13 : R (Proc.devRef .tc Cert.ReferenceIdeal.main_arg13)
      = m ((c : Thread Cert.KernelIdeal.nD Cert.KernelIdeal.τ).loc Cert.KernelIdeal.main_arg13))
    (a14 : R (Proc.devRef .tc Cert.ReferenceIdeal.main_arg14)
      = m ((c : Thread Cert.KernelIdeal.nD Cert.KernelIdeal.τ).loc Cert.KernelIdeal.main_arg14))
    (a15 : R (Proc.devRef .tc Cert.ReferenceIdeal.main_arg15)
      = m ((c : Thread Cert.KernelIdeal.nD Cert.KernelIdeal.τ).loc Cert.KernelIdeal.main_arg15))
    (a16 : R (Proc.devRef .tc Cert.ReferenceIdeal.main_arg16)
      = m ((c : Thread Cert.KernelIdeal.nD Cert.KernelIdeal.τ).loc Cert.KernelIdeal.main_arg16))
    (a17 : R (Proc.devRef .tc Cert.ReferenceIdeal.main_arg17)
      = m ((c : Thread Cert.KernelIdeal.nD Cert.KernelIdeal.τ).loc Cert.KernelIdeal.main_arg17))
    (a18 : R (Proc.devRef .tc Cert.ReferenceIdeal.main_arg18)
      = m ((c : Thread Cert.KernelIdeal.nD Cert.KernelIdeal.τ).loc Cert.KernelIdeal.main_arg18))
    (a19 : R (Proc.devRef .tc Cert.ReferenceIdeal.main_arg19)
      = m ((c : Thread Cert.KernelIdeal.nD Cert.KernelIdeal.τ).loc Cert.KernelIdeal.main_arg19))
    (a20 : R (Proc.devRef .tc Cert.ReferenceIdeal.main_arg20)
      = m ((c : Thread Cert.KernelIdeal.nD Cert.KernelIdeal.τ).loc Cert.KernelIdeal.main_arg20))
    (a21 : R (Proc.devRef .tc Cert.ReferenceIdeal.main_arg21)
      = m ((c : Thread Cert.KernelIdeal.nD Cert.KernelIdeal.τ).loc Cert.KernelIdeal.main_arg21))
    (a22 : R (Proc.devRef .tc Cert.ReferenceIdeal.main_arg22)
      = m ((c : Thread Cert.KernelIdeal.nD Cert.KernelIdeal.τ).loc Cert.KernelIdeal.main_arg22))
    (a23 : R (Proc.devRef .tc Cert.ReferenceIdeal.main_arg23)
      = m ((c : Thread Cert.KernelIdeal.nD Cert.KernelIdeal.τ).loc Cert.KernelIdeal.main_arg23))
    (a24 : R (Proc.devRef .tc Cert.ReferenceIdeal.main_arg24)
      = m ((c : Thread Cert.KernelIdeal.nD Cert.KernelIdeal.τ).loc Cert.KernelIdeal.main_arg24))
    (a25 : R (Proc.devRef .tc Cert.ReferenceIdeal.main_arg25)
      = m ((c : Thread Cert.KernelIdeal.nD Cert.KernelIdeal.τ).loc Cert.KernelIdeal.main_arg25))
    (a26 : R (Proc.devRef .tc Cert.ReferenceIdeal.main_arg26)
      = m ((c : Thread Cert.KernelIdeal.nD Cert.KernelIdeal.τ).loc Cert.KernelIdeal.main_arg26)) :
    RealArgs R := by
  have ir := Cert.Algebra.inputsReal_of_pre _ _ _ _ _ _ _ _ _ _ _ _ _ _ _ _ _ _ _ _ _ _ _ _ _ _ _ (hpre c)
  exact ⟨fun p => by rw [a0]; exact ir.r0 p,
    fun p => by rw [a2]; exact ir.r2 p,
    fun p => by rw [a4]; exact ir.r4 p,
    fun p => by rw [a5]; exact ir.r5 p,
    fun p => by rw [a6]; exact ir.r6 p,
    fun p => by rw [a7]; exact ir.r7 p,
    fun p => by rw [a8]; exact ir.r8 p,
    fun p => by rw [a9]; exact ir.r9 p,
    fun p => by rw [a10]; exact ir.r10 p,
    fun p => by rw [a11]; exact ir.r11 p,
    fun p => by rw [a12]; exact ir.r12 p,
    fun p => by rw [a13]; exact ir.r13 p,
    fun p => by rw [a14]; exact ir.r14 p,
    fun p => by rw [a15]; exact ir.r15 p,
    fun p => by rw [a16]; exact ir.r16 p,
    fun p => by rw [a17]; exact ir.r17 p,
    fun p => by rw [a18]; exact ir.r18 p,
    fun p => by rw [a19]; exact ir.r19 p,
    fun p => by rw [a20]; exact ir.r20 p,
    fun p => by rw [a21]; exact ir.r21 p,
    fun p => by rw [a22]; exact ir.r22 p,
    fun p => by rw [a23]; exact ir.r23 p,
    fun p => by rw [a24]; exact ir.r24 p,
    fun p => by rw [a25]; exact ir.r25 p,
    fun p => by rw [a26]; exact ir.r26 p⟩

end Cert.Val.Real

end
-- ==== Proof.Val.Result.lean ====
import proofs.«408084_j48395691492010_3_alg».proof.Proof.Gen.KernelIdeal
import proofs.«408084_j48395691492010_3_alg».proof.Proof.Gen.ReferenceIdeal
import proofs.«408084_j48395691492010_3_alg».proof.Proof.Gen.Pre_finite_inputs
import proofs.«408084_j48395691492010_3_alg».proof.Proof.Val.Shell
import proofs.«408084_j48395691492010_3_alg».proof.Proof.Val.Pre
import proofs.«408084_j48395691492010_3_alg».proof.Proof.Val.JoinEnds
import proofs.«408084_j48395691492010_3_alg».proof.Proof.Val.Join01
import proofs.«408084_j48395691492010_3_alg».proof.Proof.Val.Join
import proofs.«408084_j48395691492010_3_alg».proof.Proof.Val.RefReal
import proofs.«408084_j48395691492010_3_alg».proof.Proof.Val.RealIn

/-! # The two programs compute the same result

From the agreement of the two programs' argument arrays and the finiteness of the inputs: the host
prologue (edge lists, normalisation, weight slices) agrees; then the input stage; then layer by layer the
activation and the running residual; last the output stage, entry by entry. -/

noncomputable section

namespace Cert.Proof.Val

open Cert.KernelIdeal Cert.KernelIdeal.Hand
open Idealize.ShloMosaic Idealize.ShloMosaic.TcCoe Idealize.ShloMosaic.ValueIdx
open Idealize.SL.Sem
open Idealize.ShloMosaic.StableHlo (launchContents)
open Cert.Spec (IsReal)

theorem result_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (c : Dev nD) (hpre : Cert.Pre_KernelIdeal m)
    (hag : Agree m m' c) :
    Cert.ReferenceIdeal.Hand.res_main_v718 (launchContents m' c) = B101 m ρ c (Proc.devRef .tc main_v402) := by
  -- the arguments agree, array by array
  obtain ⟨h0, h1, h2, h3, h4, h5, h6, h7, h8, h9, h10, h11, h12, h13, h14, h15, h16, h17, h18, h19, h20, h21, h22, h23, h24, h25, h26⟩ := hag
  have a0 := agree_0 h0
  have a1 := agree_1 h1
  have a2 := agree_2 h2
  have a4 := agree_4 h4
  have a5 := agree_5 h5
  have a6 := agree_6 h6
  have a7 := agree_7 h7
  have a8 := agree_8 h8
  have a9 := agree_9 h9
  have a10 := agree_10 h10
  have a11 := agree_11 h11
  have a12 := agree_12 h12
  have a13 := agree_13 h13
  have a14 := agree_14 h14
  have a15 := agree_15 h15
  have a16 := agree_16 h16
  have a17 := agree_17 h17
  have a18 := agree_18 h18
  have a19 := agree_19 h19
  have a20 := agree_20 h20
  have a21 := agree_21 h21
  have a22 := agree_22 h22
  have a23 := agree_23 h23
  have a24 := agree_24 h24
  have a25 := agree_25 h25
  have a26 := agree_26 h26
  generalize launchContents m' c = R at *
  -- the inputs are real numbers, in the other program's arrays too
  have ra := Cert.Val.Real.realArgs_of_pre m c hpre R a0 a2 a4 a5 a6 a7 a8 a9 a10 a11 a12 a13 a14 a15 a16 a17 a18 a19 a20 a21
    a22 a23 a24 a25 a26
  -- the host prologue: the edge lists and the per-edge normalisation
  have hsrc := Cert.Val.Pre.pre_src m ρ c R a1
  have hdst := Cert.Val.Pre.pre_dst m ρ c R a1
  have hnorm := Cert.Val.Pre.pre_norm m ρ c R a1 a2
  -- the input stage
  have hx0 : (B4 m ρ c (Proc.devRef .tc main_v37) : S50000x4.Idx → EReal) = Cert.ReferenceIdeal.Hand.res_main_v40 R := by
    funext p; rw [eq_ix2 p]; exact joinEsg m ρ c R a0.symm a4.symm a5.symm (p 0) (p 1)
  -- the two layers that aggregate first
  have hnr := Cert.Val.Real.real_norm R ra.hr2
  have act0 := join0_arr m ρ c R hx0 hsrc hdst hnorm a6.symm a7.symm a16.symm a17.symm
    (Cert.Val.Real.real_x0 R ra.hr0 ra.hr4 ra.hr5) (Cert.Val.Real.real_W0t R ra.hr6) hnr
  have act1 := join1_arr m ρ c R act0 hsrc hdst hnorm a8.symm a9.symm a18.symm a19.symm
    (Cert.Val.Real.real_act0 R ra.hr0 ra.hr2 ra.hr4 ra.hr5 ra.hr6 ra.hr7 ra.hr16 ra.hr17) (Cert.Val.Real.real_W1t R ra.hr8) hnr
  -- the nine layers that transform first, each handing the next its activation and the running residual
  have j2 := join2 m ρ c R (fun r k => congrFun act1 (ix2 r k)) hsrc hdst hnorm a10.symm a11.symm a20.symm a21.symm
  have j3 := join3 m ρ c R j2.1 j2.2 hsrc hdst hnorm (Cert.Val.Pre.pre_W_0 m ρ c R a12) (Cert.Val.Pre.pre_b_0 m ρ c R a13)
    (Cert.Val.Pre.pre_g_0 m ρ c R a22) (Cert.Val.Pre.pre_be_0 m ρ c R a23)
  have j4 := join4 m ρ c R j3.1 j3.2 hsrc hdst hnorm (Cert.Val.Pre.pre_W_1 m ρ c R a12) (Cert.Val.Pre.pre_b_1 m ρ c R a13)
    (Cert.Val.Pre.pre_g_1 m ρ c R a22) (Cert.Val.Pre.pre_be_1 m ρ c R a23)
  have j5 := join5 m ρ c R j4.1 j4.2 hsrc hdst hnorm (Cert.Val.Pre.pre_W_2 m ρ c R a12) (Cert.Val.Pre.pre_b_2 m ρ c R a13)
    (Cert.Val.Pre.pre_g_2 m ρ c R a22) (Cert.Val.Pre.pre_be_2 m ρ c R a23)
  have j6 := join6 m ρ c R j5.1 j5.2 hsrc hdst hnorm (Cert.Val.Pre.pre_W_3 m ρ c R a12) (Cert.Val.Pre.pre_b_3 m ρ c R a13)
    (Cert.Val.Pre.pre_g_3 m ρ c R a22) (Cert.Val.Pre.pre_be_3 m ρ c R a23)
  have j7 := join7 m ρ c R j6.1 j6.2 hsrc hdst hnorm (Cert.Val.Pre.pre_W_4 m ρ c R a12) (Cert.Val.Pre.pre_b_4 m ρ c R a13)
    (Cert.Val.Pre.pre_g_4 m ρ c R a22) (Cert.Val.Pre.pre_be_4 m ρ c R a23)
  have j8 := join8 m ρ c R j7.1 j7.2 hsrc hdst hnorm (Cert.Val.Pre.pre_W_5 m ρ c R a12) (Cert.Val.Pre.pre_b_5 m ρ c R a13)
    (Cert.Val.Pre.pre_g_5 m ρ c R a22) (Cert.Val.Pre.pre_be_5 m ρ c R a23)
  have j9 := join9 m ρ c R j8.1 j8.2 hsrc hdst hnorm (Cert.Val.Pre.pre_W_6 m ρ c R a12) (Cert.Val.Pre.pre_b_6 m ρ c R a13)
    (Cert.Val.Pre.pre_g_6 m ρ c R a22) (Cert.Val.Pre.pre_be_6 m ρ c R a23)
  have j10 := join10 m ρ c R j9.1 j9.2 hsrc hdst hnorm (Cert.Val.Pre.pre_W_7 m ρ c R a12) (Cert.Val.Pre.pre_b_7 m ρ c R a13)
    (Cert.Val.Pre.pre_g_7 m ρ c R a22) (Cert.Val.Pre.pre_be_7 m ρ c R a23)
  -- the output stage, entry by entry
  show (Cert.ReferenceIdeal.Hand.res_main_v718 R : S50000.Idx → EReal) = (B101 m ρ c (Proc.devRef .tc main_v402) : S50000.Idx → EReal)
  funext p
  rw [eq_ix1 p]
  exact (joinLast m ρ c R j10.1 hsrc hdst hnorm a14.symm a15.symm a24.symm a25.symm a26.symm (p 0)).symm

end Cert.Proof.Val

/-- The fifth conjunct of the claim: under the precondition, from memories that agree on the arguments, the two
    idealized programs end with the same result. -/
theorem Cert.Val.algebraic : Cert.algebraic_KernelIdeal_ReferenceIdeal :=
  Cert.Proof.Val.algebraic_of Cert.Proof.Val.result_eq

end
-- ==== Proof.lean ====
/- The five claims of this certificate: a twelve-layer graph convolution network whose dense pieces — the linear maps, the
   bias and residual sums with their column sums, the second pass of the batch variance, batch normalisation followed by the
   row-wise softmax with an extra unit in the denominator, and the closing matrix-vector product — run as 49 tiled kernels of
   25 row tiles each, between host stretches that gather rows along the edges, scale them by the symmetric edge norm and add
   them into their target rows.
   * The three frames: every weakly fair run of each program ends, nothing faults, and the 27 argument arrays end as launched.
     For the two kernel programs this is the launch over @main's 101 segments (52 host stretches and 49 kernel regions), each
     region entered from the buffer contents the segment before it left; for the reference, the run of its host operations.
   * The idealization rewrote nothing, so its preservation claim is trivial.
   * At the extended reals both programs compute one function of the arguments: every stage agrees index by index, a tiled
     column sum with the host's column sum by commutativity and associativity alone, and in the two layers where the kernel
     program adds the neighbours' rows BEFORE the linear map, by linearity of that sum — which on the extended reals needs every
     entry to be a real, carried from the precondition through the stages before. -/
import proofs.«408084_j48395691492010_3_alg».proof.Defs
import proofs.«408084_j48395691492010_3_alg».proof.Proof.Gen.Kernel
import proofs.«408084_j48395691492010_3_alg».proof.Proof.Gen.KernelIdeal
import proofs.«408084_j48395691492010_3_alg».proof.Proof.Gen.ReferenceIdeal
import proofs.«408084_j48395691492010_3_alg».proof.Proof.Gen.Pre_finite_inputs
import proofs.«408084_j48395691492010_3_alg».proof.Proof.KB.Pack
import proofs.«408084_j48395691492010_3_alg».proof.Proof.KI.Pack
import proofs.«408084_j48395691492010_3_alg».proof.Proof.Ref.Run
import proofs.«408084_j48395691492010_3_alg».proof.Proof.Val.Result

noncomputable section

namespace Cert.Proof

open Idealize.ShloMosaic Idealize.SL.Sem

/-- The word-level program runs to the end with its arguments unchanged. -/
theorem frame_k : Cert.frame_Kernel := fun m ρ _ => Cert.Kernel.Hand.frame (F := Bits) m ρ

/-- The idealized program runs to the end with its arguments unchanged. -/
theorem frame_ki : Cert.frame_KernelIdeal := fun m ρ _ => Cert.KernelIdeal.Hand.frame (F := Ideal) m ρ

/-- The reference runs to the end with its arguments unchanged: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Val.algebraic⟩

end Cert.Proof

end
